-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v424)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v424) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v513) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S65536x256 : Shape := ⟨2, ![65536, 256]⟩
abbrev S16384x256 : Shape := ⟨2, ![16384, 256]⟩
abbrev S131072 : Shape := ⟨1, ![131072]⟩
abbrev S98304 : Shape := ⟨1, ![98304]⟩
abbrev S65536 : Shape := ⟨1, ![65536]⟩
abbrev S4x3x256x256 : Shape := ⟨4, ![4, 3, 256, 256]⟩
abbrev S4x3x256 : Shape := ⟨3, ![4, 3, 256]⟩
abbrev S4x2x256x256 : Shape := ⟨4, ![4, 2, 256, 256]⟩
abbrev S256x256 : Shape := ⟨2, ![256, 256]⟩
abbrev S256 : Shape := ⟨1, ![256]⟩
abbrev S3x256x512 : Shape := ⟨3, ![3, 256, 512]⟩
abbrev S3x512 : Shape := ⟨2, ![3, 512]⟩
abbrev S512x10 : Shape := ⟨2, ![512, 10]⟩
abbrev S10 : Shape := ⟨1, ![10]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S16384x256 : S_.BroadcastsInDim S16384x256 (![] : Fin 0 → Fin S16384x256.rank)
  reducesTo_S16384x256_S_d0_1 : S16384x256.ReducesTo [0, 1] S_
  bcast_S_S4x3x256x256 : S_.BroadcastsInDim S4x3x256x256 (![] : Fin 0 → Fin S4x3x256x256.rank)
  reducesTo_S4x3x256x256_S_d0_1_2_3 : S4x3x256x256.ReducesTo [0, 1, 2, 3] S_
  bcast_S_S4x3x256 : S_.BroadcastsInDim S4x3x256 (![] : Fin 0 → Fin S4x3x256.rank)
  reducesTo_S4x3x256_S_d0_1_2 : S4x3x256.ReducesTo [0, 1, 2] S_
  bcast_S_S4x2x256x256 : S_.BroadcastsInDim S4x2x256x256 (![] : Fin 0 → Fin S4x2x256x256.rank)
  reducesTo_S4x2x256x256_S_d0_1_2_3 : S4x2x256x256.ReducesTo [0, 1, 2, 3] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S3x256x512 : S_.BroadcastsInDim S3x256x512 (![] : Fin 0 → Fin S3x256x512.rank)
  reducesTo_S3x256x512_S_d0_1_2 : S3x256x512.ReducesTo [0, 1, 2] S_
  bcast_S_S3x512 : S_.BroadcastsInDim S3x512 (![] : Fin 0 → Fin S3x512.rank)
  reducesTo_S3x512_S_d0_1 : S3x512.ReducesTo [0, 1] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg28 : FVec F S10 .f32) (main_v63 : IVec S_ 1) (main_v67 : IVec S_ 1) : IVec S_ 1 :=
  let main_v68 : IVec S_ 1 := andi main_v63 main_v67
  let main_v69 : FVec F S10 .f32 := Host.absf main_arg28
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg25 : FVec F S3x256x512 .f32) (main_arg26 : FVec F S3x512 .f32) (main_arg27 : FVec F S512x10 .f32) (main_arg28 : FVec F S10 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S3x256x512 .f32 := Host.absf main_arg25
  let main_cst_20 : FVec F S_ .f32 := constant S_ .f32 0x7F800000#32
  let main_v55 : FVec F S3x256x512 .f32 := broadcastInDim S3x256x512 ![] bcast_S_S3x256x512 main_cst_20
  let main_v56 : IVec S3x256x512 1 := cmpf .olt main_v54 main_v55
  let main_c_21 : IVec S_ 1 := constantI S_ 1 1#1
  let main_v57 : IVec S_ 1 := (fun x v => Host.reduce IntOp.andi x v reducesTo_S3x256x512_S_d0_1_2 h_S_) main_v56 main_c_21
  let main_v58 : IVec S_ 1 := andi main_v53 main_v57
  let main_v59 : FVec F S3x512 .f32 := Host.absf main_arg26
  let main_cst_22 : FVec F S_ .f32 := constant S_ .f32 0x7F800000#32
  let main_v60 : FVec F S3x512 .f32 := broadcastInDim S3x512 ![] bcast_S_S3x512 main_cst_22
  let main_v61 : IVec S3x512 1 := cmpf .olt main_v59 main_v60
  let main_c_23 : IVec S_ 1 := constantI S_ 1 1#1
  let main_v62 : IVec S_ 1 := (fun x v => Host.reduce IntOp.andi x v reducesTo_S3x512_S_d0_1 h_S_) main_v61 main_c_23
  let main_v63 : IVec S_ 1 := andi main_v58 main_v62
  let main_v64 : FVec F S512x10 .f32 := Host.absf main_arg27
  let main_cst_24 : FVec F S_ .f32 := constant S_ .f32 0x7F800000#32
  let main_v65 : FVec F S512x10 .f32 := broadcastInDim S512x10 ![] bcast_S_S512x10 main_cst_24
  let main_v66 : IVec S512x10 1 := cmpf .olt main_v64 main_v65
  let main_c_25 : IVec S_ 1 := constantI S_ 1 1#1
  let main_v67 : IVec S_ 1 := (fun x v => Host.reduce IntOp.andi x v reducesTo_S512x10_S_d0_1 h_S_) main_v66 main_c_25
  fn_part4 (F := F) main_arg28 main_v63 main_v67

def fn_part2 {F : FTy → Type} [FloatOps F] (main_arg21 : FVec F S4x2x256x256 .f32) (main_arg22 : FVec F S256x256 .f32) (main_arg23 : FVec F S256x256 .f32) (main_arg24 : FVec F S256 .f32) (main_arg25 : FVec F S3x256x512 .f32) (main_arg26 : FVec F S3x512 .f32) (main_arg27 : FVec F S512x10 .f32) (main_arg28 : FVec F S10 .f32) (main_v33 : IVec S_ 1) : IVec S_ 1 :=
  let main_v34 : FVec F S4x2x256x256 .f32 := Host.absf main_arg21
  let main_cst_12 : FVec F S_ .f32 := constant S_ .f32 0x7F800000#32
  let main_v35 : FVec F S4x2x256x256 .f32 := broadcastInDim S4x2x256x256 ![] bcast_S_S4x2x256x256 main_cst_12
  let main_v36 : IVec S4x2x256x256 1 := cmpf .olt main_v34 main_v35
  let main_c_13 : IVec S_ 1 := constantI S_ 1 1#1
  let main_v37 : IVec S_ 1 := (fun x v => Host.reduce IntOp.andi x v reducesTo_S4x2x256x256_S_d0_1_2_3 h_S_) main_v36 main_c_13
  let main_v38 : IVec S_ 1 := andi main_v33 main_v37
  let main_v39 : FVec F S256x256 .f32 := Host.absf main_arg22
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg23
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg24
  let main_cst_18 : FVec F S_ .f32 := constant S_ .f32 0x7F800000#32
  let main_v50 : FVec F S256 .f32 := broadcastInDim S256 ![] bcast_S_S256 main_cst_18
  fn_part3 (F := F) main_arg25 main_arg26 main_arg27 main_arg28 main_v48 main_v49 main_v50

def fn_part1 {F : FTy → Type} [FloatOps F] (main_arg18 : FVec F S4x3x256 .f32) (main_arg19 : FVec F S4x2x256x256 .f32) (main_arg20 : FVec F S4x2x256x256 .f32) (main_arg21 : FVec F S4x2x256x256 .f32) (main_arg22 : FVec F S256x256 .f32) (main_arg23 : FVec F S256x256 .f32) (main_arg24 : FVec F S256 .f32) (main_arg25 : FVec F S3x256x512 .f32) (main_arg26 : FVec F S3x512 .f32) (main_arg27 : FVec F S512x10 .f32) (main_arg28 : FVec F S10 .f32) (main_v13 : IVec S_ 1) (main_v16 : IVec S4x3x256x256 1) : IVec S_ 1 :=
  let main_c_5 : IVec S_ 1 := constantI S_ 1 1#1
  let main_v17 : IVec S_ 1 := (fun x v => Host.reduce IntOp.andi x v reducesTo_S4x3x256x256_S_d0_1_2_3 h_S_) main_v16 main_c_5
  let main_v18 : IVec S_ 1 := andi main_v13 main_v17
  let main_v19 : FVec F S4x3x256 .f32 := Host.absf main_arg18
  let main_cst_6 : FVec F S_ .f32 := constant S_ .f32 0x7F800000#32
  let main_v20 : FVec F S4x3x256 .f32 := broadcastInDim S4x3x256 ![] bcast_S_S4x3x256 main_cst_6
  let main_v21 : IVec S4x3x256 1 := cmpf .olt main_v19 main_v20
  let main_c_7 : IVec S_ 1 := constantI S_ 1 1#1
  let main_v22 : IVec S_ 1 := (fun x v => Host.reduce IntOp.andi x v reducesTo_S4x3x256_S_d0_1_2 h_S_) main_v21 main_c_7
  let main_v23 : IVec S_ 1 := andi main_v18 main_v22
  let main_v24 : FVec F S4x2x256x256 .f32 := Host.absf main_arg19
  let main_cst_8 : FVec F S_ .f32 := constant S_ .f32 0x7F800000#32
  let main_v25 : FVec F S4x2x256x256 .f32 := broadcastInDim S4x2x256x256 ![] bcast_S_S4x2x256x256 main_cst_8
  let main_v26 : IVec S4x2x256x256 1 := cmpf .olt main_v24 main_v25
  let main_c_9 : IVec S_ 1 := constantI S_ 1 1#1
  let main_v27 : IVec S_ 1 := (fun x v => Host.reduce IntOp.andi x v reducesTo_S4x2x256x256_S_d0_1_2_3 h_S_) main_v26 main_c_9
  let main_v28 : IVec S_ 1 := andi main_v23 main_v27
  let main_v29 : FVec F S4x2x256x256 .f32 := Host.absf main_arg20
  let main_cst_10 : FVec F S_ .f32 := constant S_ .f32 0x7F800000#32
  let main_v30 : FVec F S4x2x256x256 .f32 := broadcastInDim S4x2x256x256 ![] bcast_S_S4x2x256x256 main_cst_10
  let main_v31 : IVec S4x2x256x256 1 := cmpf .olt main_v29 main_v30
  let main_c_11 : IVec S_ 1 := constantI S_ 1 1#1
  let main_v32 : IVec S_ 1 := (fun x v => Host.reduce IntOp.andi x v reducesTo_S4x2x256x256_S_d0_1_2_3 h_S_) main_v31 main_c_11
  let main_v33 : IVec S_ 1 := andi main_v28 main_v32
  fn_part2 (F := F) main_arg21 main_arg22 main_arg23 main_arg24 main_arg25 main_arg26 main_arg27 main_arg28 main_v33

def fn {F : FTy → Type} [FloatOps F] (main_arg0 : FVec F S32768x256 .f32) (main_arg1 : FVec F S65536x256 .f32) (main_arg2 : FVec F S16384x256 .f32) (main_arg3 : IVec S131072 32) (main_arg4 : IVec S131072 32) (main_arg5 : IVec S131072 32) (main_arg6 : IVec S131072 32) (main_arg7 : IVec S98304 32) (main_arg8 : IVec S98304 32) (main_arg9 : IVec S98304 32) (main_arg10 : IVec S98304 32) (main_arg11 : IVec S131072 32) (main_arg12 : IVec S131072 32) (main_arg13 : IVec S131072 32) (main_arg14 : IVec S65536 32) (main_arg15 : IVec S65536 32) (main_arg16 : IVec S65536 32) (main_arg17 : FVec F S4x3x256x256 .f32) (main_arg18 : FVec F S4x3x256 .f32) (main_arg19 : FVec F S4x2x256x256 .f32) (main_arg20 : FVec F S4x2x256x256 .f32) (main_arg21 : FVec F S4x2x256x256 .f32) (main_arg22 : FVec F S256x256 .f32) (main_arg23 : FVec F S256x256 .f32) (main_arg24 : FVec F S256 .f32) (main_arg25 : FVec F S3x256x512 .f32) (main_arg26 : FVec F S3x512 .f32) (main_arg27 : FVec F S512x10 .f32) (main_arg28 : FVec F S10 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S4x3x256x256 .f32 := Host.absf main_arg17
  let main_cst_4 : FVec F S_ .f32 := constant S_ .f32 0x7F800000#32
  let main_v15 : FVec F S4x3x256x256 .f32 := broadcastInDim S4x3x256x256 ![] bcast_S_S4x3x256x256 main_cst_4
  let main_v16 : IVec S4x3x256x256 1 := cmpf .olt main_v14 main_v15
  fn_part1 (F := F) main_arg18 main_arg19 main_arg20 main_arg21 main_arg22 main_arg23 main_arg24 main_arg25 main_arg26 main_arg27 main_arg28 main_v13 main_v16
-- ==== Kernel.lean ====
abbrev S32768x256 : Shape := ⟨2, ![32768, 256]⟩
abbrev S65536x256 : Shape := ⟨2, ![65536, 256]⟩
abbrev S16384x256 : Shape := ⟨2, ![16384, 256]⟩
abbrev S131072 : Shape := ⟨1, ![131072]⟩
abbrev S98304 : Shape := ⟨1, ![98304]⟩
abbrev S65536 : Shape := ⟨1, ![65536]⟩
abbrev S4x3x256x256 : Shape := ⟨4, ![4, 3, 256, 256]⟩
abbrev S4x3x256 : Shape := ⟨3, ![4, 3, 256]⟩
abbrev S4x2x256x256 : Shape := ⟨4, ![4, 2, 256, 256]⟩
abbrev S256x256 : Shape := ⟨2, ![256, 256]⟩
abbrev S256 : Shape := ⟨1, ![256]⟩
abbrev S3x256x512 : Shape := ⟨3, ![3, 256, 512]⟩
abbrev S3x512 : Shape := ⟨2, ![3, 512]⟩
abbrev S512x10 : Shape := ⟨2, ![512, 10]⟩
abbrev S10 : Shape := ⟨1, ![10]⟩
abbrev S_ : Shape := ⟨0, ![]⟩
abbrev S256x256x128 : Shape := ⟨3, ![256, 256, 128]⟩
abbrev S131072x1 : Shape := ⟨2, ![131072, 1]⟩
abbrev S131072x3 : Shape := ⟨2, ![131072, 3]⟩
abbrev S256x64x256 : Shape := ⟨3, ![256, 64, 256]⟩
abbrev S65536x1 : Shape := ⟨2, ![65536, 1]⟩
abbrev S65536x3 : Shape := ⟨2, ![65536, 3]⟩
abbrev S1x1x256x256 : Shape := ⟨4, ![1, 1, 256, 256]⟩
abbrev S2048x256 : Shape := ⟨2, ![2048, 256]⟩
abbrev S131072x256 : Shape := ⟨2, ![131072, 256]⟩
abbrev S98304x1 : Shape := ⟨2, ![98304, 1]⟩
abbrev S98304x256 : Shape := ⟨2, ![98304, 256]⟩
abbrev S256x128x256 : Shape := ⟨3, ![256, 128, 256]⟩
abbrev S256x256x256 : Shape := ⟨3, ![256, 256, 256]⟩
abbrev S8x256x128 : Shape := ⟨3, ![8, 256, 128]⟩
abbrev S8x128x256 : Shape := ⟨3, ![8, 128, 256]⟩
abbrev S8x256x256 : Shape := ⟨3, ![8, 256, 256]⟩
abbrev S16x64x256 : Shape := ⟨3, ![16, 64, 256]⟩
abbrev S16x256x256 : Shape := ⟨3, ![16, 256, 256]⟩
abbrev S1024x256 : Shape := ⟨2, ![1024, 256]⟩
abbrev S1x1x256 : Shape := ⟨3, ![1, 1, 256]⟩
abbrev S1x256 : Shape := ⟨2, ![1, 256]⟩
abbrev S8x256 : Shape := ⟨2, ![8, 256]⟩
abbrev S8x64x256 : Shape := ⟨3, ![8, 64, 256]⟩
abbrev S512x256 : Shape := ⟨2, ![512, 256]⟩
abbrev S1x256x512 : Shape := ⟨3, ![1, 256, 512]⟩
abbrev S256x512 : Shape := ⟨2, ![256, 512]⟩
abbrev S1x512 : Shape := ⟨2, ![1, 512]⟩
abbrev S512 : Shape := ⟨1, ![512]⟩
abbrev S256x10 : Shape := ⟨2, ![256, 10]⟩
abbrev S1x10 : Shape := ⟨2, ![1, 10]⟩

abbrev nBuf : Space → Nat
  | .hbm => 539
  | .vmem => 283
  | .smem => 0
  | _ => 0

abbrev hbmTy0_0 (i : Nat) : BufTy := match i % 128 with
  | 0 => ⟨S32768x256, .f32⟩
  | 1 => ⟨S65536x256, .f32⟩
  | 2 => ⟨S16384x256, .f32⟩
  | 3 => ⟨S131072, .i32⟩
  | 4 => ⟨S131072, .i32⟩
  | 5 => ⟨S131072, .i32⟩
  | 6 => ⟨S131072, .i32⟩
  | 7 => ⟨S98304, .i32⟩
  | 8 => ⟨S98304, .i32⟩
  | 9 => ⟨S98304, .i32⟩
  | 10 => ⟨S98304, .i32⟩
  | 11 => ⟨S131072, .i32⟩
  | 12 => ⟨S131072, .i32⟩
  | 13 => ⟨S131072, .i32⟩
  | 14 => ⟨S65536, .i32⟩
  | 15 => ⟨S65536, .i32⟩
  | 16 => ⟨S65536, .i32⟩
  | 17 => ⟨S4x3x256x256, .f32⟩
  | 18 => ⟨S4x3x256, .f32⟩
  | 19 => ⟨S4x2x256x256, .f32⟩
  | 20 => ⟨S4x2x256x256, .f32⟩
  | 21 => ⟨S4x2x256x256, .f32⟩
  | 22 => ⟨S256x256, .f32⟩
  | 23 => ⟨S256x256, .f32⟩
  | 24 => ⟨S256, .f32⟩
  | 25 => ⟨S3x256x512, .f32⟩
  | 26 => ⟨S3x512, .f32⟩
  | 27 => ⟨S512x10, .f32⟩
  | 28 => ⟨S10, .f32⟩
  | 29 => ⟨S_, .bf16⟩
  | 30 => ⟨S256x256x128, .bf16⟩
  | 31 => ⟨S_, .i32⟩
  | 32 => ⟨S131072, .i32⟩
  | 33 => ⟨S131072, .i1⟩
  | 34 => ⟨S_, .i32⟩
  | 35 => ⟨S131072, .i32⟩
  | 36 => ⟨S131072, .i32⟩
  | 37 => ⟨S131072, .i32⟩
  | 38 => ⟨S_, .i32⟩
  | 39 => ⟨S131072, .i32⟩
  | 40 => ⟨S131072, .i1⟩
  | 41 => ⟨S_, .i32⟩
  | 42 => ⟨S131072, .i32⟩
  | 43 => ⟨S131072, .i32⟩
  | 44 => ⟨S131072, .i32⟩
  | 45 => ⟨S_, .i32⟩
  | 46 => ⟨S131072, .i32⟩
  | 47 => ⟨S131072, .i1⟩
  | 48 => ⟨S_, .i32⟩
  | 49 => ⟨S131072, .i32⟩
  | 50 => ⟨S131072, .i32⟩
  | 51 => ⟨S131072, .i32⟩
  | 52 => ⟨S131072x1, .i32⟩
  | 53 => ⟨S131072x1, .i32⟩
  | 54 => ⟨S131072x1, .i32⟩
  | 55 => ⟨S131072x3, .i32⟩
  | 56 => ⟨S_, .bf16⟩
  | 57 => ⟨S131072, .bf16⟩
  | 58 => ⟨S256x256x128, .bf16⟩
  | 59 => ⟨S_, .bf16⟩
  | 60 => ⟨S256x64x256, .bf16⟩
  | 61 => ⟨S_, .i32⟩
  | 62 => ⟨S65536, .i32⟩
  | 63 => ⟨S65536, .i1⟩
  | 64 => ⟨S_, .i32⟩
  | 65 => ⟨S65536, .i32⟩
  | 66 => ⟨S65536, .i32⟩
  | 67 => ⟨S65536, .i32⟩
  | 68 => ⟨S_, .i32⟩
  | 69 => ⟨S65536, .i32⟩
  | 70 => ⟨S65536, .i1⟩
  | 71 => ⟨S_, .i32⟩
  | 72 => ⟨S65536, .i32⟩
  | 73 => ⟨S65536, .i32⟩
  | 74 => ⟨S65536, .i32⟩
  | 75 => ⟨S_, .i32⟩
  | 76 => ⟨S65536, .i32⟩
  | 77 => ⟨S65536, .i1⟩
  | 78 => ⟨S_, .i32⟩
  | 79 => ⟨S65536, .i32⟩
  | 80 => ⟨S65536, .i32⟩
  | 81 => ⟨S65536, .i32⟩
  | 82 => ⟨S65536x1, .i32⟩
  | 83 => ⟨S65536x1, .i32⟩
  | 84 => ⟨S65536x1, .i32⟩
  | 85 => ⟨S65536x3, .i32⟩
  | 86 => ⟨S_, .bf16⟩
  | 87 => ⟨S65536, .bf16⟩
  | 88 => ⟨S256x64x256, .bf16⟩
  | 89 => ⟨S_, .i32⟩
  | 90 => ⟨S131072, .i32⟩
  | 91 => ⟨S131072, .i32⟩
  | 92 => ⟨S131072, .i32⟩
  | 93 => ⟨S_, .i32⟩
  | 94 => ⟨S131072, .i32⟩
  | 95 => ⟨S131072, .i32⟩
  | 96 => ⟨S131072, .i32⟩
  | 97 => ⟨S_, .i32⟩
  | 98 => ⟨S131072, .i32⟩
  | 99 => ⟨S131072, .i32⟩
  | 100 => ⟨S131072, .i32⟩
  | 101 => ⟨S_, .i32⟩
  | 102 => ⟨S98304, .i32⟩
  | 103 => ⟨S98304, .i32⟩
  | 104 => ⟨S98304, .i32⟩
  | 105 => ⟨S_, .i32⟩
  | 106 => ⟨S98304, .i32⟩
  | 107 => ⟨S98304, .i32⟩
  | 108 => ⟨S98304, .i32⟩
  | 109 => ⟨S_, .i32⟩
  | 110 => ⟨S98304, .i32⟩
  | 111 => ⟨S98304, .i32⟩
  | 112 => ⟨S98304, .i32⟩
  | 113 => ⟨S1x1x256x256, .f32⟩
  | 114 => ⟨S256x256, .f32⟩
  | 115 => ⟨S32768x256, .f32⟩
  | 116 => ⟨S1x1x256x256, .f32⟩
  | 117 => ⟨S256x256, .f32⟩
  | 118 => ⟨S65536x256, .f32⟩
  | 119 => ⟨S1x1x256x256, .f32⟩
  | 120 => ⟨S256x256, .f32⟩
  | 121 => ⟨S65536x256, .f32⟩
  | 122 => ⟨S1x1x256x256, .f32⟩
  | 123 => ⟨S256x256, .f32⟩
  | 124 => ⟨S16384x256, .f32⟩
  | 125 => ⟨S1x1x256x256, .f32⟩
  | 126 => ⟨S256x256, .f32⟩
  | 127 => ⟨S32768x256, .f32⟩
  | _ => ⟨S32768x256, .f32⟩

abbrev hbmTy0_1 (i : Nat) : BufTy := match i % 128 with
  | 0 => ⟨S_, .i32⟩
  | 1 => ⟨S131072, .i32⟩
  | 2 => ⟨S131072, .i1⟩
  | 3 => ⟨S_, .i32⟩
  | 4 => ⟨S131072, .i32⟩
  | 5 => ⟨S131072, .i32⟩
  | 6 => ⟨S131072, .i32⟩
  | 7 => ⟨S131072x1, .i32⟩
  | 8 => ⟨S131072x256, .f32⟩
  | 9 => ⟨S_, .i32⟩
  | 10 => ⟨S131072, .i32⟩
  | 11 => ⟨S131072, .i1⟩
  | 12 => ⟨S_, .i32⟩
  | 13 => ⟨S131072, .i32⟩
  | 14 => ⟨S131072, .i32⟩
  | 15 => ⟨S131072, .i32⟩
  | 16 => ⟨S131072x1, .i32⟩
  | 17 => ⟨S131072x256, .f32⟩
  | 18 => ⟨S131072x256, .f32⟩
  | 19 => ⟨S_, .f32⟩
  | 20 => ⟨S131072x256, .f32⟩
  | 21 => ⟨S131072x256, .f32⟩
  | 22 => ⟨S_, .f32⟩
  | 23 => ⟨S32768x256, .f32⟩
  | 24 => ⟨S131072x1, .i32⟩
  | 25 => ⟨S32768x256, .f32⟩
  | 26 => ⟨S_, .i32⟩
  | 27 => ⟨S98304, .i32⟩
  | 28 => ⟨S98304, .i1⟩
  | 29 => ⟨S_, .i32⟩
  | 30 => ⟨S98304, .i32⟩
  | 31 => ⟨S98304, .i32⟩
  | 32 => ⟨S98304, .i32⟩
  | 33 => ⟨S98304x1, .i32⟩
  | 34 => ⟨S98304x256, .f32⟩
  | 35 => ⟨S_, .i32⟩
  | 36 => ⟨S98304, .i32⟩
  | 37 => ⟨S98304, .i1⟩
  | 38 => ⟨S_, .i32⟩
  | 39 => ⟨S98304, .i32⟩
  | 40 => ⟨S98304, .i32⟩
  | 41 => ⟨S98304, .i32⟩
  | 42 => ⟨S98304x1, .i32⟩
  | 43 => ⟨S98304x256, .f32⟩
  | 44 => ⟨S98304x256, .f32⟩
  | 45 => ⟨S_, .f32⟩
  | 46 => ⟨S98304x256, .f32⟩
  | 47 => ⟨S98304x256, .f32⟩
  | 48 => ⟨S_, .f32⟩
  | 49 => ⟨S65536x256, .f32⟩
  | 50 => ⟨S98304x1, .i32⟩
  | 51 => ⟨S65536x256, .f32⟩
  | 52 => ⟨S256x128x256, .f32⟩
  | 53 => ⟨S256x256x256, .f32⟩
  | 54 => ⟨S65536x256, .f32⟩
  | 55 => ⟨S256x256x256, .f32⟩
  | 56 => ⟨S1x1x256x256, .f32⟩
  | 57 => ⟨S256x256, .f32⟩
  | 58 => ⟨S256x64x256, .f32⟩
  | 59 => ⟨S16384x256, .f32⟩
  | 60 => ⟨S1x1x256x256, .f32⟩
  | 61 => ⟨S256x256, .f32⟩
  | 62 => ⟨S1x1x256, .f32⟩
  | 63 => ⟨S256, .f32⟩
  | 64 => ⟨S1x256, .f32⟩
  | 65 => ⟨S32768x256, .f32⟩
  | 66 => ⟨S1x1x256x256, .f32⟩
  | 67 => ⟨S256x256, .f32⟩
  | 68 => ⟨S1x1x256, .f32⟩
  | 69 => ⟨S256, .f32⟩
  | 70 => ⟨S1x256, .f32⟩
  | 71 => ⟨S65536x256, .f32⟩
  | 72 => ⟨S1x1x256x256, .f32⟩
  | 73 => ⟨S256x256, .f32⟩
  | 74 => ⟨S1x1x256, .f32⟩
  | 75 => ⟨S256, .f32⟩
  | 76 => ⟨S1x256, .f32⟩
  | 77 => ⟨S16384x256, .f32⟩
  | 78 => ⟨S1x1x256x256, .f32⟩
  | 79 => ⟨S256x256, .f32⟩
  | 80 => ⟨S32768x256, .f32⟩
  | 81 => ⟨S1x1x256x256, .f32⟩
  | 82 => ⟨S256x256, .f32⟩
  | 83 => ⟨S65536x256, .f32⟩
  | 84 => ⟨S1x1x256x256, .f32⟩
  | 85 => ⟨S256x256, .f32⟩
  | 86 => ⟨S65536x256, .f32⟩
  | 87 => ⟨S1x1x256x256, .f32⟩
  | 88 => ⟨S256x256, .f32⟩
  | 89 => ⟨S16384x256, .f32⟩
  | 90 => ⟨S1x1x256x256, .f32⟩
  | 91 => ⟨S256x256, .f32⟩
  | 92 => ⟨S32768x256, .f32⟩
  | 93 => ⟨S_, .i32⟩
  | 94 => ⟨S131072, .i32⟩
  | 95 => ⟨S131072, .i1⟩
  | 96 => ⟨S_, .i32⟩
  | 97 => ⟨S131072, .i32⟩
  | 98 => ⟨S131072, .i32⟩
  | 99 => ⟨S131072, .i32⟩
  | 100 => ⟨S131072x1, .i32⟩
  | 101 => ⟨S131072x256, .f32⟩
  | 102 => ⟨S_, .i32⟩
  | 103 => ⟨S131072, .i32⟩
  | 104 => ⟨S131072, .i1⟩
  | 105 => ⟨S_, .i32⟩
  | 106 => ⟨S131072, .i32⟩
  | 107 => ⟨S131072, .i32⟩
  | 108 => ⟨S131072, .i32⟩
  | 109 => ⟨S131072x1, .i32⟩
  | 110 => ⟨S131072x256, .f32⟩
  | 111 => ⟨S131072x256, .f32⟩
  | 112 => ⟨S_, .f32⟩
  | 113 => ⟨S131072x256, .f32⟩
  | 114 => ⟨S131072x256, .f32⟩
  | 115 => ⟨S_, .f32⟩
  | 116 => ⟨S32768x256, .f32⟩
  | 117 => ⟨S131072x1, .i32⟩
  | 118 => ⟨S32768x256, .f32⟩
  | 119 => ⟨S_, .i32⟩
  | 120 => ⟨S98304, .i32⟩
  | 121 => ⟨S98304, .i1⟩
  | 122 => ⟨S_, .i32⟩
  | 123 => ⟨S98304, .i32⟩
  | 124 => ⟨S98304, .i32⟩
  | 125 => ⟨S98304, .i32⟩
  | 126 => ⟨S98304x1, .i32⟩
  | 127 => ⟨S98304x256, .f32⟩
  | _ => ⟨S32768x256, .f32⟩

abbrev hbmTy0_2 (i : Nat) : BufTy := match i % 128 with
  | 0 => ⟨S_, .i32⟩
  | 1 => ⟨S98304, .i32⟩
  | 2 => ⟨S98304, .i1⟩
  | 3 => ⟨S_, .i32⟩
  | 4 => ⟨S98304, .i32⟩
  | 5 => ⟨S98304, .i32⟩
  | 6 => ⟨S98304, .i32⟩
  | 7 => ⟨S98304x1, .i32⟩
  | 8 => ⟨S98304x256, .f32⟩
  | 9 => ⟨S98304x256, .f32⟩
  | 10 => ⟨S_, .f32⟩
  | 11 => ⟨S98304x256, .f32⟩
  | 12 => ⟨S98304x256, .f32⟩
  | 13 => ⟨S_, .f32⟩
  | 14 => ⟨S65536x256, .f32⟩
  | 15 => ⟨S98304x1, .i32⟩
  | 16 => ⟨S65536x256, .f32⟩
  | 17 => ⟨S256x128x256, .f32⟩
  | 18 => ⟨S256x256x256, .f32⟩
  | 19 => ⟨S65536x256, .f32⟩
  | 20 => ⟨S256x256x256, .f32⟩
  | 21 => ⟨S1x1x256x256, .f32⟩
  | 22 => ⟨S256x256, .f32⟩
  | 23 => ⟨S256x64x256, .f32⟩
  | 24 => ⟨S16384x256, .f32⟩
  | 25 => ⟨S1x1x256x256, .f32⟩
  | 26 => ⟨S256x256, .f32⟩
  | 27 => ⟨S1x1x256, .f32⟩
  | 28 => ⟨S256, .f32⟩
  | 29 => ⟨S1x256, .f32⟩
  | 30 => ⟨S32768x256, .f32⟩
  | 31 => ⟨S1x1x256x256, .f32⟩
  | 32 => ⟨S256x256, .f32⟩
  | 33 => ⟨S1x1x256, .f32⟩
  | 34 => ⟨S256, .f32⟩
  | 35 => ⟨S1x256, .f32⟩
  | 36 => ⟨S65536x256, .f32⟩
  | 37 => ⟨S1x1x256x256, .f32⟩
  | 38 => ⟨S256x256, .f32⟩
  | 39 => ⟨S1x1x256, .f32⟩
  | 40 => ⟨S256, .f32⟩
  | 41 => ⟨S1x256, .f32⟩
  | 42 => ⟨S16384x256, .f32⟩
  | 43 => ⟨S1x1x256x256, .f32⟩
  | 44 => ⟨S256x256, .f32⟩
  | 45 => ⟨S32768x256, .f32⟩
  | 46 => ⟨S1x1x256x256, .f32⟩
  | 47 => ⟨S256x256, .f32⟩
  | 48 => ⟨S65536x256, .f32⟩
  | 49 => ⟨S1x1x256x256, .f32⟩
  | 50 => ⟨S256x256, .f32⟩
  | 51 => ⟨S65536x256, .f32⟩
  | 52 => ⟨S1x1x256x256, .f32⟩
  | 53 => ⟨S256x256, .f32⟩
  | 54 => ⟨S16384x256, .f32⟩
  | 55 => ⟨S1x1x256x256, .f32⟩
  | 56 => ⟨S256x256, .f32⟩
  | 57 => ⟨S32768x256, .f32⟩
  | 58 => ⟨S_, .i32⟩
  | 59 => ⟨S131072, .i32⟩
  | 60 => ⟨S131072, .i1⟩
  | 61 => ⟨S_, .i32⟩
  | 62 => ⟨S131072, .i32⟩
  | 63 => ⟨S131072, .i32⟩
  | 64 => ⟨S131072, .i32⟩
  | 65 => ⟨S131072x1, .i32⟩
  | 66 => ⟨S131072x256, .f32⟩
  | 67 => ⟨S_, .i32⟩
  | 68 => ⟨S131072, .i32⟩
  | 69 => ⟨S131072, .i1⟩
  | 70 => ⟨S_, .i32⟩
  | 71 => ⟨S131072, .i32⟩
  | 72 => ⟨S131072, .i32⟩
  | 73 => ⟨S131072, .i32⟩
  | 74 => ⟨S131072x1, .i32⟩
  | 75 => ⟨S131072x256, .f32⟩
  | 76 => ⟨S131072x256, .f32⟩
  | 77 => ⟨S_, .f32⟩
  | 78 => ⟨S131072x256, .f32⟩
  | 79 => ⟨S131072x256, .f32⟩
  | 80 => ⟨S_, .f32⟩
  | 81 => ⟨S32768x256, .f32⟩
  | 82 => ⟨S131072x1, .i32⟩
  | 83 => ⟨S32768x256, .f32⟩
  | 84 => ⟨S_, .i32⟩
  | 85 => ⟨S98304, .i32⟩
  | 86 => ⟨S98304, .i1⟩
  | 87 => ⟨S_, .i32⟩
  | 88 => ⟨S98304, .i32⟩
  | 89 => ⟨S98304, .i32⟩
  | 90 => ⟨S98304, .i32⟩
  | 91 => ⟨S98304x1, .i32⟩
  | 92 => ⟨S98304x256, .f32⟩
  | 93 => ⟨S_, .i32⟩
  | 94 => ⟨S98304, .i32⟩
  | 95 => ⟨S98304, .i1⟩
  | 96 => ⟨S_, .i32⟩
  | 97 => ⟨S98304, .i32⟩
  | 98 => ⟨S98304, .i32⟩
  | 99 => ⟨S98304, .i32⟩
  | 100 => ⟨S98304x1, .i32⟩
  | 101 => ⟨S98304x256, .f32⟩
  | 102 => ⟨S98304x256, .f32⟩
  | 103 => ⟨S_, .f32⟩
  | 104 => ⟨S98304x256, .f32⟩
  | 105 => ⟨S98304x256, .f32⟩
  | 106 => ⟨S_, .f32⟩
  | 107 => ⟨S65536x256, .f32⟩
  | 108 => ⟨S98304x1, .i32⟩
  | 109 => ⟨S65536x256, .f32⟩
  | 110 => ⟨S256x128x256, .f32⟩
  | 111 => ⟨S256x256x256, .f32⟩
  | 112 => ⟨S65536x256, .f32⟩
  | 113 => ⟨S256x256x256, .f32⟩
  | 114 => ⟨S1x1x256x256, .f32⟩
  | 115 => ⟨S256x256, .f32⟩
  | 116 => ⟨S256x64x256, .f32⟩
  | 117 => ⟨S16384x256, .f32⟩
  | 118 => ⟨S1x1x256x256, .f32⟩
  | 119 => ⟨S256x256, .f32⟩
  | 120 => ⟨S1x1x256, .f32⟩
  | 121 => ⟨S256, .f32⟩
  | 122 => ⟨S1x256, .f32⟩
  | 123 => ⟨S32768x256, .f32⟩
  | 124 => ⟨S1x1x256x256, .f32⟩
  | 125 => ⟨S256x256, .f32⟩
  | 126 => ⟨S1x1x256, .f32⟩
  | 127 => ⟨S256, .f32⟩
  | _ => ⟨S32768x256, .f32⟩

abbrev hbmTy0_3 (i : Nat) : BufTy := match i % 128 with
  | 0 => ⟨S1x256, .f32⟩
  | 1 => ⟨S65536x256, .f32⟩
  | 2 => ⟨S1x1x256x256, .f32⟩
  | 3 => ⟨S256x256, .f32⟩
  | 4 => ⟨S1x1x256, .f32⟩
  | 5 => ⟨S256, .f32⟩
  | 6 => ⟨S1x256, .f32⟩
  | 7 => ⟨S16384x256, .f32⟩
  | 8 => ⟨S1x1x256x256, .f32⟩
  | 9 => ⟨S256x256, .f32⟩
  | 10 => ⟨S32768x256, .f32⟩
  | 11 => ⟨S1x1x256x256, .f32⟩
  | 12 => ⟨S256x256, .f32⟩
  | 13 => ⟨S65536x256, .f32⟩
  | 14 => ⟨S1x1x256x256, .f32⟩
  | 15 => ⟨S256x256, .f32⟩
  | 16 => ⟨S65536x256, .f32⟩
  | 17 => ⟨S1x1x256x256, .f32⟩
  | 18 => ⟨S256x256, .f32⟩
  | 19 => ⟨S16384x256, .f32⟩
  | 20 => ⟨S1x1x256x256, .f32⟩
  | 21 => ⟨S256x256, .f32⟩
  | 22 => ⟨S32768x256, .f32⟩
  | 23 => ⟨S_, .i32⟩
  | 24 => ⟨S131072, .i32⟩
  | 25 => ⟨S131072, .i1⟩
  | 26 => ⟨S_, .i32⟩
  | 27 => ⟨S131072, .i32⟩
  | 28 => ⟨S131072, .i32⟩
  | 29 => ⟨S131072, .i32⟩
  | 30 => ⟨S131072x1, .i32⟩
  | 31 => ⟨S131072x256, .f32⟩
  | 32 => ⟨S_, .i32⟩
  | 33 => ⟨S131072, .i32⟩
  | 34 => ⟨S131072, .i1⟩
  | 35 => ⟨S_, .i32⟩
  | 36 => ⟨S131072, .i32⟩
  | 37 => ⟨S131072, .i32⟩
  | 38 => ⟨S131072, .i32⟩
  | 39 => ⟨S131072x1, .i32⟩
  | 40 => ⟨S131072x256, .f32⟩
  | 41 => ⟨S131072x256, .f32⟩
  | 42 => ⟨S_, .f32⟩
  | 43 => ⟨S131072x256, .f32⟩
  | 44 => ⟨S131072x256, .f32⟩
  | 45 => ⟨S_, .f32⟩
  | 46 => ⟨S32768x256, .f32⟩
  | 47 => ⟨S131072x1, .i32⟩
  | 48 => ⟨S32768x256, .f32⟩
  | 49 => ⟨S_, .i32⟩
  | 50 => ⟨S98304, .i32⟩
  | 51 => ⟨S98304, .i1⟩
  | 52 => ⟨S_, .i32⟩
  | 53 => ⟨S98304, .i32⟩
  | 54 => ⟨S98304, .i32⟩
  | 55 => ⟨S98304, .i32⟩
  | 56 => ⟨S98304x1, .i32⟩
  | 57 => ⟨S98304x256, .f32⟩
  | 58 => ⟨S_, .i32⟩
  | 59 => ⟨S98304, .i32⟩
  | 60 => ⟨S98304, .i1⟩
  | 61 => ⟨S_, .i32⟩
  | 62 => ⟨S98304, .i32⟩
  | 63 => ⟨S98304, .i32⟩
  | 64 => ⟨S98304, .i32⟩
  | 65 => ⟨S98304x1, .i32⟩
  | 66 => ⟨S98304x256, .f32⟩
  | 67 => ⟨S98304x256, .f32⟩
  | 68 => ⟨S_, .f32⟩
  | 69 => ⟨S98304x256, .f32⟩
  | 70 => ⟨S98304x256, .f32⟩
  | 71 => ⟨S_, .f32⟩
  | 72 => ⟨S65536x256, .f32⟩
  | 73 => ⟨S98304x1, .i32⟩
  | 74 => ⟨S65536x256, .f32⟩
  | 75 => ⟨S256x128x256, .f32⟩
  | 76 => ⟨S256x256x256, .f32⟩
  | 77 => ⟨S65536x256, .f32⟩
  | 78 => ⟨S256x256x256, .f32⟩
  | 79 => ⟨S1x1x256x256, .f32⟩
  | 80 => ⟨S256x256, .f32⟩
  | 81 => ⟨S256x64x256, .f32⟩
  | 82 => ⟨S16384x256, .f32⟩
  | 83 => ⟨S1x1x256x256, .f32⟩
  | 84 => ⟨S256x256, .f32⟩
  | 85 => ⟨S1x1x256, .f32⟩
  | 86 => ⟨S256, .f32⟩
  | 87 => ⟨S1x256, .f32⟩
  | 88 => ⟨S32768x256, .f32⟩
  | 89 => ⟨S1x1x256x256, .f32⟩
  | 90 => ⟨S256x256, .f32⟩
  | 91 => ⟨S1x1x256, .f32⟩
  | 92 => ⟨S256, .f32⟩
  | 93 => ⟨S1x256, .f32⟩
  | 94 => ⟨S65536x256, .f32⟩
  | 95 => ⟨S1x1x256x256, .f32⟩
  | 96 => ⟨S256x256, .f32⟩
  | 97 => ⟨S1x1x256, .f32⟩
  | 98 => ⟨S256, .f32⟩
  | 99 => ⟨S1x256, .f32⟩
  | 100 => ⟨S16384x256, .f32⟩
  | 101 => ⟨S1x256, .f32⟩
  | 102 => ⟨S256x128x256, .f32⟩
  | 103 => ⟨S256x128x256, .f32⟩
  | 104 => ⟨S256x256, .f32⟩
  | 105 => ⟨S1x256, .f32⟩
  | 106 => ⟨S256x256x256, .f32⟩
  | 107 => ⟨S256x256x256, .f32⟩
  | 108 => ⟨S256x256, .f32⟩
  | 109 => ⟨S1x256, .f32⟩
  | 110 => ⟨S256x64x256, .f32⟩
  | 111 => ⟨S256x64x256, .f32⟩
  | 112 => ⟨S256x256, .f32⟩
  | 113 => ⟨S1x256x512, .f32⟩
  | 114 => ⟨S256x512, .f32⟩
  | 115 => ⟨S256x512, .f32⟩
  | 116 => ⟨S1x512, .f32⟩
  | 117 => ⟨S512, .f32⟩
  | 118 => ⟨S1x512, .f32⟩
  | 119 => ⟨S256x512, .f32⟩
  | 120 => ⟨S256x512, .f32⟩
  | 121 => ⟨S_, .f32⟩
  | 122 => ⟨S256x512, .f32⟩
  | 123 => ⟨S256x512, .f32⟩
  | 124 => ⟨S_, .f32⟩
  | 125 => ⟨S256x512, .f32⟩
  | 126 => ⟨S256x512, .f32⟩
  | 127 => ⟨S1x256x512, .f32⟩
  | _ => ⟨S32768x256, .f32⟩

abbrev hbmTy0_4 (i : Nat) : BufTy := match i % 128 with
  | 0 => ⟨S256x512, .f32⟩
  | 1 => ⟨S256x512, .f32⟩
  | 2 => ⟨S1x512, .f32⟩
  | 3 => ⟨S512, .f32⟩
  | 4 => ⟨S1x512, .f32⟩
  | 5 => ⟨S256x512, .f32⟩
  | 6 => ⟨S256x512, .f32⟩
  | 7 => ⟨S_, .f32⟩
  | 8 => ⟨S256x512, .f32⟩
  | 9 => ⟨S256x512, .f32⟩
  | 10 => ⟨S256x512, .f32⟩
  | 11 => ⟨S1x256x512, .f32⟩
  | 12 => ⟨S256x512, .f32⟩
  | 13 => ⟨S256x512, .f32⟩
  | 14 => ⟨S1x512, .f32⟩
  | 15 => ⟨S512, .f32⟩
  | 16 => ⟨S1x512, .f32⟩
  | 17 => ⟨S256x512, .f32⟩
  | 18 => ⟨S256x512, .f32⟩
  | 19 => ⟨S_, .f32⟩
  | 20 => ⟨S256x512, .f32⟩
  | 21 => ⟨S256x512, .f32⟩
  | 22 => ⟨S256x512, .f32⟩
  | 23 => ⟨S256x10, .f32⟩
  | 24 => ⟨S1x10, .f32⟩
  | 25 => ⟨S256x10, .f32⟩
  | 26 => ⟨S256x10, .f32⟩
  | _ => ⟨S32768x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32768x256, .f32⟩

abbrev vmemTy0_0 (i : Nat) : BufTy := match i % 128 with
  | 0 => ⟨S2048x256, .f32⟩
  | 1 => ⟨S2048x256, .f32⟩
  | 2 => ⟨S256x256, .f32⟩
  | 3 => ⟨S2048x256, .f32⟩
  | 4 => ⟨S2048x256, .f32⟩
  | 5 => ⟨S2048x256, .f32⟩
  | 6 => ⟨S2048x256, .f32⟩
  | 7 => ⟨S256x256, .f32⟩
  | 8 => ⟨S2048x256, .f32⟩
  | 9 => ⟨S2048x256, .f32⟩
  | 10 => ⟨S2048x256, .f32⟩
  | 11 => ⟨S2048x256, .f32⟩
  | 12 => ⟨S256x256, .f32⟩
  | 13 => ⟨S2048x256, .f32⟩
  | 14 => ⟨S2048x256, .f32⟩
  | 15 => ⟨S2048x256, .f32⟩
  | 16 => ⟨S2048x256, .f32⟩
  | 17 => ⟨S256x256, .f32⟩
  | 18 => ⟨S2048x256, .f32⟩
  | 19 => ⟨S2048x256, .f32⟩
  | 20 => ⟨S2048x256, .f32⟩
  | 21 => ⟨S2048x256, .f32⟩
  | 22 => ⟨S256x256, .f32⟩
  | 23 => ⟨S2048x256, .f32⟩
  | 24 => ⟨S2048x256, .f32⟩
  | 25 => ⟨S8x256x128, .bf16⟩
  | 26 => ⟨S8x256x128, .bf16⟩
  | 27 => ⟨S8x128x256, .f32⟩
  | 28 => ⟨S8x128x256, .f32⟩
  | 29 => ⟨S8x256x256, .f32⟩
  | 30 => ⟨S8x256x256, .f32⟩
  | 31 => ⟨S16x64x256, .bf16⟩
  | 32 => ⟨S16x64x256, .bf16⟩
  | 33 => ⟨S16x256x256, .f32⟩
  | 34 => ⟨S16x256x256, .f32⟩
  | 35 => ⟨S256x256, .f32⟩
  | 36 => ⟨S16x64x256, .f32⟩
  | 37 => ⟨S16x64x256, .f32⟩
  | 38 => ⟨S2048x256, .f32⟩
  | 39 => ⟨S2048x256, .f32⟩
  | 40 => ⟨S256x256, .f32⟩
  | 41 => ⟨S1x256, .f32⟩
  | 42 => ⟨S2048x256, .f32⟩
  | 43 => ⟨S2048x256, .f32⟩
  | 44 => ⟨S2048x256, .f32⟩
  | 45 => ⟨S2048x256, .f32⟩
  | 46 => ⟨S2048x256, .f32⟩
  | 47 => ⟨S2048x256, .f32⟩
  | 48 => ⟨S256x256, .f32⟩
  | 49 => ⟨S1x256, .f32⟩
  | 50 => ⟨S2048x256, .f32⟩
  | 51 => ⟨S2048x256, .f32⟩
  | 52 => ⟨S2048x256, .f32⟩
  | 53 => ⟨S2048x256, .f32⟩
  | 54 => ⟨S2048x256, .f32⟩
  | 55 => ⟨S2048x256, .f32⟩
  | 56 => ⟨S2048x256, .f32⟩
  | 57 => ⟨S2048x256, .f32⟩
  | 58 => ⟨S256x256, .f32⟩
  | 59 => ⟨S1x256, .f32⟩
  | 60 => ⟨S2048x256, .f32⟩
  | 61 => ⟨S2048x256, .f32⟩
  | 62 => ⟨S2048x256, .f32⟩
  | 63 => ⟨S2048x256, .f32⟩
  | 64 => ⟨S2048x256, .f32⟩
  | 65 => ⟨S2048x256, .f32⟩
  | 66 => ⟨S256x256, .f32⟩
  | 67 => ⟨S2048x256, .f32⟩
  | 68 => ⟨S2048x256, .f32⟩
  | 69 => ⟨S2048x256, .f32⟩
  | 70 => ⟨S2048x256, .f32⟩
  | 71 => ⟨S256x256, .f32⟩
  | 72 => ⟨S2048x256, .f32⟩
  | 73 => ⟨S2048x256, .f32⟩
  | 74 => ⟨S2048x256, .f32⟩
  | 75 => ⟨S2048x256, .f32⟩
  | 76 => ⟨S256x256, .f32⟩
  | 77 => ⟨S2048x256, .f32⟩
  | 78 => ⟨S2048x256, .f32⟩
  | 79 => ⟨S2048x256, .f32⟩
  | 80 => ⟨S2048x256, .f32⟩
  | 81 => ⟨S256x256, .f32⟩
  | 82 => ⟨S2048x256, .f32⟩
  | 83 => ⟨S2048x256, .f32⟩
  | 84 => ⟨S2048x256, .f32⟩
  | 85 => ⟨S2048x256, .f32⟩
  | 86 => ⟨S256x256, .f32⟩
  | 87 => ⟨S2048x256, .f32⟩
  | 88 => ⟨S2048x256, .f32⟩
  | 89 => ⟨S8x256x128, .bf16⟩
  | 90 => ⟨S8x256x128, .bf16⟩
  | 91 => ⟨S8x128x256, .f32⟩
  | 92 => ⟨S8x128x256, .f32⟩
  | 93 => ⟨S8x256x256, .f32⟩
  | 94 => ⟨S8x256x256, .f32⟩
  | 95 => ⟨S16x64x256, .bf16⟩
  | 96 => ⟨S16x64x256, .bf16⟩
  | 97 => ⟨S16x256x256, .f32⟩
  | 98 => ⟨S16x256x256, .f32⟩
  | 99 => ⟨S256x256, .f32⟩
  | 100 => ⟨S16x64x256, .f32⟩
  | 101 => ⟨S16x64x256, .f32⟩
  | 102 => ⟨S2048x256, .f32⟩
  | 103 => ⟨S2048x256, .f32⟩
  | 104 => ⟨S256x256, .f32⟩
  | 105 => ⟨S1x256, .f32⟩
  | 106 => ⟨S2048x256, .f32⟩
  | 107 => ⟨S2048x256, .f32⟩
  | 108 => ⟨S2048x256, .f32⟩
  | 109 => ⟨S2048x256, .f32⟩
  | 110 => ⟨S2048x256, .f32⟩
  | 111 => ⟨S2048x256, .f32⟩
  | 112 => ⟨S256x256, .f32⟩
  | 113 => ⟨S1x256, .f32⟩
  | 114 => ⟨S2048x256, .f32⟩
  | 115 => ⟨S2048x256, .f32⟩
  | 116 => ⟨S2048x256, .f32⟩
  | 117 => ⟨S2048x256, .f32⟩
  | 118 => ⟨S2048x256, .f32⟩
  | 119 => ⟨S2048x256, .f32⟩
  | 120 => ⟨S2048x256, .f32⟩
  | 121 => ⟨S2048x256, .f32⟩
  | 122 => ⟨S256x256, .f32⟩
  | 123 => ⟨S1x256, .f32⟩
  | 124 => ⟨S2048x256, .f32⟩
  | 125 => ⟨S2048x256, .f32⟩
  | 126 => ⟨S2048x256, .f32⟩
  | 127 => ⟨S2048x256, .f32⟩
  | _ => ⟨S32768x256, .f32⟩

abbrev vmemTy0_1 (i : Nat) : BufTy := match i % 128 with
  | 0 => ⟨S2048x256, .f32⟩
  | 1 => ⟨S2048x256, .f32⟩
  | 2 => ⟨S256x256, .f32⟩
  | 3 => ⟨S2048x256, .f32⟩
  | 4 => ⟨S2048x256, .f32⟩
  | 5 => ⟨S2048x256, .f32⟩
  | 6 => ⟨S2048x256, .f32⟩
  | 7 => ⟨S256x256, .f32⟩
  | 8 => ⟨S2048x256, .f32⟩
  | 9 => ⟨S2048x256, .f32⟩
  | 10 => ⟨S2048x256, .f32⟩
  | 11 => ⟨S2048x256, .f32⟩
  | 12 => ⟨S256x256, .f32⟩
  | 13 => ⟨S2048x256, .f32⟩
  | 14 => ⟨S2048x256, .f32⟩
  | 15 => ⟨S2048x256, .f32⟩
  | 16 => ⟨S2048x256, .f32⟩
  | 17 => ⟨S256x256, .f32⟩
  | 18 => ⟨S2048x256, .f32⟩
  | 19 => ⟨S2048x256, .f32⟩
  | 20 => ⟨S2048x256, .f32⟩
  | 21 => ⟨S2048x256, .f32⟩
  | 22 => ⟨S256x256, .f32⟩
  | 23 => ⟨S2048x256, .f32⟩
  | 24 => ⟨S2048x256, .f32⟩
  | 25 => ⟨S8x256x128, .bf16⟩
  | 26 => ⟨S8x256x128, .bf16⟩
  | 27 => ⟨S8x128x256, .f32⟩
  | 28 => ⟨S8x128x256, .f32⟩
  | 29 => ⟨S8x256x256, .f32⟩
  | 30 => ⟨S8x256x256, .f32⟩
  | 31 => ⟨S16x64x256, .bf16⟩
  | 32 => ⟨S16x64x256, .bf16⟩
  | 33 => ⟨S16x256x256, .f32⟩
  | 34 => ⟨S16x256x256, .f32⟩
  | 35 => ⟨S256x256, .f32⟩
  | 36 => ⟨S16x64x256, .f32⟩
  | 37 => ⟨S16x64x256, .f32⟩
  | 38 => ⟨S2048x256, .f32⟩
  | 39 => ⟨S2048x256, .f32⟩
  | 40 => ⟨S256x256, .f32⟩
  | 41 => ⟨S1x256, .f32⟩
  | 42 => ⟨S2048x256, .f32⟩
  | 43 => ⟨S2048x256, .f32⟩
  | 44 => ⟨S2048x256, .f32⟩
  | 45 => ⟨S2048x256, .f32⟩
  | 46 => ⟨S2048x256, .f32⟩
  | 47 => ⟨S2048x256, .f32⟩
  | 48 => ⟨S256x256, .f32⟩
  | 49 => ⟨S1x256, .f32⟩
  | 50 => ⟨S2048x256, .f32⟩
  | 51 => ⟨S2048x256, .f32⟩
  | 52 => ⟨S2048x256, .f32⟩
  | 53 => ⟨S2048x256, .f32⟩
  | 54 => ⟨S2048x256, .f32⟩
  | 55 => ⟨S2048x256, .f32⟩
  | 56 => ⟨S2048x256, .f32⟩
  | 57 => ⟨S2048x256, .f32⟩
  | 58 => ⟨S256x256, .f32⟩
  | 59 => ⟨S1x256, .f32⟩
  | 60 => ⟨S2048x256, .f32⟩
  | 61 => ⟨S2048x256, .f32⟩
  | 62 => ⟨S2048x256, .f32⟩
  | 63 => ⟨S2048x256, .f32⟩
  | 64 => ⟨S2048x256, .f32⟩
  | 65 => ⟨S2048x256, .f32⟩
  | 66 => ⟨S256x256, .f32⟩
  | 67 => ⟨S2048x256, .f32⟩
  | 68 => ⟨S2048x256, .f32⟩
  | 69 => ⟨S2048x256, .f32⟩
  | 70 => ⟨S2048x256, .f32⟩
  | 71 => ⟨S256x256, .f32⟩
  | 72 => ⟨S2048x256, .f32⟩
  | 73 => ⟨S2048x256, .f32⟩
  | 74 => ⟨S2048x256, .f32⟩
  | 75 => ⟨S2048x256, .f32⟩
  | 76 => ⟨S256x256, .f32⟩
  | 77 => ⟨S2048x256, .f32⟩
  | 78 => ⟨S2048x256, .f32⟩
  | 79 => ⟨S2048x256, .f32⟩
  | 80 => ⟨S2048x256, .f32⟩
  | 81 => ⟨S256x256, .f32⟩
  | 82 => ⟨S2048x256, .f32⟩
  | 83 => ⟨S2048x256, .f32⟩
  | 84 => ⟨S2048x256, .f32⟩
  | 85 => ⟨S2048x256, .f32⟩
  | 86 => ⟨S256x256, .f32⟩
  | 87 => ⟨S2048x256, .f32⟩
  | 88 => ⟨S2048x256, .f32⟩
  | 89 => ⟨S8x256x128, .bf16⟩
  | 90 => ⟨S8x256x128, .bf16⟩
  | 91 => ⟨S8x128x256, .f32⟩
  | 92 => ⟨S8x128x256, .f32⟩
  | 93 => ⟨S8x256x256, .f32⟩
  | 94 => ⟨S8x256x256, .f32⟩
  | 95 => ⟨S16x64x256, .bf16⟩
  | 96 => ⟨S16x64x256, .bf16⟩
  | 97 => ⟨S16x256x256, .f32⟩
  | 98 => ⟨S16x256x256, .f32⟩
  | 99 => ⟨S256x256, .f32⟩
  | 100 => ⟨S16x64x256, .f32⟩
  | 101 => ⟨S16x64x256, .f32⟩
  | 102 => ⟨S2048x256, .f32⟩
  | 103 => ⟨S2048x256, .f32⟩
  | 104 => ⟨S256x256, .f32⟩
  | 105 => ⟨S1x256, .f32⟩
  | 106 => ⟨S2048x256, .f32⟩
  | 107 => ⟨S2048x256, .f32⟩
  | 108 => ⟨S2048x256, .f32⟩
  | 109 => ⟨S2048x256, .f32⟩
  | 110 => ⟨S2048x256, .f32⟩
  | 111 => ⟨S2048x256, .f32⟩
  | 112 => ⟨S256x256, .f32⟩
  | 113 => ⟨S1x256, .f32⟩
  | 114 => ⟨S2048x256, .f32⟩
  | 115 => ⟨S2048x256, .f32⟩
  | 116 => ⟨S2048x256, .f32⟩
  | 117 => ⟨S2048x256, .f32⟩
  | 118 => ⟨S2048x256, .f32⟩
  | 119 => ⟨S2048x256, .f32⟩
  | 120 => ⟨S2048x256, .f32⟩
  | 121 => ⟨S2048x256, .f32⟩
  | 122 => ⟨S256x256, .f32⟩
  | 123 => ⟨S1x256, .f32⟩
  | 124 => ⟨S2048x256, .f32⟩
  | 125 => ⟨S2048x256, .f32⟩
  | 126 => ⟨S2048x256, .f32⟩
  | 127 => ⟨S2048x256, .f32⟩
  | _ => ⟨S32768x256, .f32⟩

abbrev vmemTy0_2 (i : Nat) : BufTy := match i % 128 with
  | 0 => ⟨S8x128x256, .f32⟩
  | 1 => ⟨S8x128x256, .f32⟩
  | 2 => ⟨S8x128x256, .f32⟩
  | 3 => ⟨S8x128x256, .f32⟩
  | 4 => ⟨S256x256, .f32⟩
  | 5 => ⟨S256x256, .f32⟩
  | 6 => ⟨S1x256, .f32⟩
  | 7 => ⟨S8x256, .f32⟩
  | 8 => ⟨S8x256, .f32⟩
  | 9 => ⟨S8x256x256, .f32⟩
  | 10 => ⟨S8x256x256, .f32⟩
  | 11 => ⟨S8x256x256, .f32⟩
  | 12 => ⟨S8x256x256, .f32⟩
  | 13 => ⟨S256x256, .f32⟩
  | 14 => ⟨S256x256, .f32⟩
  | 15 => ⟨S1x256, .f32⟩
  | 16 => ⟨S8x256, .f32⟩
  | 17 => ⟨S8x256, .f32⟩
  | 18 => ⟨S8x64x256, .f32⟩
  | 19 => ⟨S8x64x256, .f32⟩
  | 20 => ⟨S8x64x256, .f32⟩
  | 21 => ⟨S8x64x256, .f32⟩
  | 22 => ⟨S256x256, .f32⟩
  | 23 => ⟨S256x256, .f32⟩
  | 24 => ⟨S1x256, .f32⟩
  | 25 => ⟨S8x256, .f32⟩
  | 26 => ⟨S8x256, .f32⟩
  | _ => ⟨S32768x256, .f32⟩

abbrev vmemTy (i : Nat) : BufTy := match i / 128 with
  | 0 => vmemTy0_0 i
  | 1 => vmemTy0_1 i
  | 2 => vmemTy0_2 i
  | _ => ⟨S32768x256, .f32⟩

abbrev bufTy : (tb : Table) → Fin (tcTables nBuf tb) → BufTy
  | .hbm, ⟨i, _⟩ => hbmTy i
  | .local _ .vmem, ⟨i, _⟩ => vmemTy i
  | _, _ => ⟨S32768x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | _ => false

abbrev dmaSemScopedAt (i : Nat) : Bool := match i / 128 with
  | 0 => dmaSemScopedAt0_0 i
  | 1 => dmaSemScopedAt0_1 i
  | 2 => dmaSemScopedAt0_2 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | _ => false

abbrev vmemScopedAt (i : Nat) : Bool := match i / 128 with
  | 0 => vmemScopedAt0_0 i
  | 1 => vmemScopedAt0_1 i
  | 2 => vmemScopedAt0_2 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 283 → Bool
  | ⟨i, _⟩ => dmaSemScopedAt i

abbrev sig : RefSig :=
  ofTc nBuf bufTy 0 283 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_c : Ref sig .tc := ⟨.hbm, 31, rfl⟩
abbrev main_v1 : Ref sig .tc := ⟨.hbm, 32, rfl⟩
abbrev main_v2 : Ref sig .tc := ⟨.hbm, 33, rfl⟩
abbrev main_c_0 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_c_1 : Ref sig .tc := ⟨.hbm, 38, rfl⟩
abbrev main_v6 : Ref sig .tc := ⟨.hbm, 39, rfl⟩
abbrev main_v7 : Ref sig .tc := ⟨.hbm, 40, rfl⟩
abbrev main_c_2 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_c_3 : Ref sig .tc := ⟨.hbm, 45, rfl⟩
abbrev main_v11 : Ref sig .tc := ⟨.hbm, 46, rfl⟩
abbrev main_v12 : Ref sig .tc := ⟨.hbm, 47, rfl⟩
abbrev main_c_4 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_5 : Ref sig .tc := ⟨.hbm, 56, rfl⟩
abbrev main_v20 : Ref sig .tc := ⟨.hbm, 57, rfl⟩
abbrev main_v21 : Ref sig .tc := ⟨.hbm, 58, rfl⟩
abbrev main_cst_6 : Ref sig .tc := ⟨.hbm, 59, rfl⟩
abbrev main_v22 : Ref sig .tc := ⟨.hbm, 60, rfl⟩
abbrev main_c_7 : Ref sig .tc := ⟨.hbm, 61, rfl⟩
abbrev main_v23 : Ref sig .tc := ⟨.hbm, 62, rfl⟩
abbrev main_v24 : Ref sig .tc := ⟨.hbm, 63, rfl⟩
abbrev main_c_8 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_c_9 : Ref sig .tc := ⟨.hbm, 68, rfl⟩
abbrev main_v28 : Ref sig .tc := ⟨.hbm, 69, rfl⟩
abbrev main_v29 : Ref sig .tc := ⟨.hbm, 70, rfl⟩
abbrev main_c_10 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_c_11 : Ref sig .tc := ⟨.hbm, 75, rfl⟩
abbrev main_v33 : Ref sig .tc := ⟨.hbm, 76, rfl⟩
abbrev main_v34 : Ref sig .tc := ⟨.hbm, 77, rfl⟩
abbrev main_c_12 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_13 : Ref sig .tc := ⟨.hbm, 86, rfl⟩
abbrev main_v42 : Ref sig .tc := ⟨.hbm, 87, rfl⟩
abbrev main_v43 : Ref sig .tc := ⟨.hbm, 88, rfl⟩
abbrev main_c_14 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_c_15 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_c_16 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_c_17 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_c_18 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_c_19 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_c_20 : Ref sig .tc := ⟨.hbm, 128, rfl⟩
abbrev main_v77 : Ref sig .tc := ⟨.hbm, 129, rfl⟩
abbrev main_v78 : Ref sig .tc := ⟨.hbm, 130, rfl⟩
abbrev main_c_21 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_c_22 : Ref sig .tc := ⟨.hbm, 137, rfl⟩
abbrev main_v84 : Ref sig .tc := ⟨.hbm, 138, rfl⟩
abbrev main_v85 : Ref sig .tc := ⟨.hbm, 139, rfl⟩
abbrev main_c_23 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_call0_cst : Ref sig .tc := ⟨.hbm, 147, rfl⟩
abbrev main_call0_v0 : Ref sig .tc := ⟨.hbm, 148, rfl⟩
abbrev main_v92 : Ref sig .tc := ⟨.hbm, 149, rfl⟩
abbrev main_cst_24 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_c_25 : Ref sig .tc := ⟨.hbm, 154, rfl⟩
abbrev main_v96 : Ref sig .tc := ⟨.hbm, 155, rfl⟩
abbrev main_v97 : Ref sig .tc := ⟨.hbm, 156, rfl⟩
abbrev main_c_26 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_c_27 : Ref sig .tc := ⟨.hbm, 163, rfl⟩
abbrev main_v103 : Ref sig .tc := ⟨.hbm, 164, rfl⟩
abbrev main_v104 : Ref sig .tc := ⟨.hbm, 165, rfl⟩
abbrev main_c_28 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_call1_cst : Ref sig .tc := ⟨.hbm, 173, rfl⟩
abbrev main_call1_v0 : Ref sig .tc := ⟨.hbm, 174, rfl⟩
abbrev main_v111 : Ref sig .tc := ⟨.hbm, 175, rfl⟩
abbrev main_cst_29 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_c_30 : Ref sig .tc := ⟨.hbm, 221, rfl⟩
abbrev main_v156 : Ref sig .tc := ⟨.hbm, 222, rfl⟩
abbrev main_v157 : Ref sig .tc := ⟨.hbm, 223, rfl⟩
abbrev main_c_31 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_c_32 : Ref sig .tc := ⟨.hbm, 230, rfl⟩
abbrev main_v163 : Ref sig .tc := ⟨.hbm, 231, rfl⟩
abbrev main_v164 : Ref sig .tc := ⟨.hbm, 232, rfl⟩
abbrev main_c_33 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_call2_cst : Ref sig .tc := ⟨.hbm, 240, rfl⟩
abbrev main_call2_v0 : Ref sig .tc := ⟨.hbm, 241, rfl⟩
abbrev main_v171 : Ref sig .tc := ⟨.hbm, 242, rfl⟩
abbrev main_cst_34 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_c_35 : Ref sig .tc := ⟨.hbm, 247, rfl⟩
abbrev main_v175 : Ref sig .tc := ⟨.hbm, 248, rfl⟩
abbrev main_v176 : Ref sig .tc := ⟨.hbm, 249, rfl⟩
abbrev main_c_36 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_c_37 : Ref sig .tc := ⟨.hbm, 256, rfl⟩
abbrev main_v182 : Ref sig .tc := ⟨.hbm, 257, rfl⟩
abbrev main_v183 : Ref sig .tc := ⟨.hbm, 258, rfl⟩
abbrev main_c_38 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_call3_cst : Ref sig .tc := ⟨.hbm, 266, rfl⟩
abbrev main_call3_v0 : Ref sig .tc := ⟨.hbm, 267, rfl⟩
abbrev main_v190 : Ref sig .tc := ⟨.hbm, 268, rfl⟩
abbrev main_cst_39 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev main_c_40 : Ref sig .tc := ⟨.hbm, 314, rfl⟩
abbrev main_v235 : Ref sig .tc := ⟨.hbm, 315, rfl⟩
abbrev main_v236 : Ref sig .tc := ⟨.hbm, 316, rfl⟩
abbrev main_c_41 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_c_42 : Ref sig .tc := ⟨.hbm, 323, rfl⟩
abbrev main_v242 : Ref sig .tc := ⟨.hbm, 324, rfl⟩
abbrev main_v243 : Ref sig .tc := ⟨.hbm, 325, rfl⟩
abbrev main_c_43 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_call4_cst : Ref sig .tc := ⟨.hbm, 333, rfl⟩
abbrev main_call4_v0 : Ref sig .tc := ⟨.hbm, 334, rfl⟩
abbrev main_v250 : Ref sig .tc := ⟨.hbm, 335, rfl⟩
abbrev main_cst_44 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_c_45 : Ref sig .tc := ⟨.hbm, 340, rfl⟩
abbrev main_v254 : Ref sig .tc := ⟨.hbm, 341, rfl⟩
abbrev main_v255 : Ref sig .tc := ⟨.hbm, 342, rfl⟩
abbrev main_c_46 : Ref sig .tc := ⟨.hbm, 343, rfl⟩
abbrev main_v256 : Ref sig .tc := ⟨.hbm, 344, rfl⟩
abbrev main_v257 : Ref sig .tc := ⟨.hbm, 345, rfl⟩
abbrev main_v258 : Ref sig .tc := ⟨.hbm, 346, rfl⟩
abbrev main_v259 : Ref sig .tc := ⟨.hbm, 347, rfl⟩
abbrev main_v260 : Ref sig .tc := ⟨.hbm, 348, rfl⟩
abbrev main_c_47 : Ref sig .tc := ⟨.hbm, 349, rfl⟩
abbrev main_v261 : Ref sig .tc := ⟨.hbm, 350, rfl⟩
abbrev main_v262 : Ref sig .tc := ⟨.hbm, 351, rfl⟩
abbrev main_c_48 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_v268 : Ref sig .tc := ⟨.hbm, 358, rfl⟩
abbrev main_call5_cst : Ref sig .tc := ⟨.hbm, 359, rfl⟩
abbrev main_call5_v0 : Ref sig .tc := ⟨.hbm, 360, rfl⟩
abbrev main_v269 : Ref sig .tc := ⟨.hbm, 361, rfl⟩
abbrev main_cst_49 : Ref sig .tc := ⟨.hbm, 362, rfl⟩
abbrev main_v270 : Ref sig .tc := ⟨.hbm, 363, rfl⟩
abbrev main_v271 : Ref sig .tc := ⟨.hbm, 364, rfl⟩
abbrev main_v272 : Ref sig .tc := ⟨.hbm, 365, rfl⟩
abbrev main_v273 : Ref sig .tc := ⟨.hbm, 366, rfl⟩
abbrev main_v274 : Ref sig .tc := ⟨.hbm, 367, rfl⟩
abbrev main_v275 : Ref sig .tc := ⟨.hbm, 368, rfl⟩
abbrev main_v276 : Ref sig .tc := ⟨.hbm, 369, rfl⟩
abbrev main_v277 : Ref sig .tc := ⟨.hbm, 370, rfl⟩
abbrev main_v278 : Ref sig .tc := ⟨.hbm, 371, rfl⟩
abbrev main_v279 : Ref sig .tc := ⟨.hbm, 372, rfl⟩
abbrev main_v280 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_v288 : Ref sig .tc := ⟨.hbm, 381, rfl⟩
abbrev main_v289 : Ref sig .tc := ⟨.hbm, 382, rfl⟩
abbrev main_v290 : Ref sig .tc := ⟨.hbm, 383, rfl⟩
abbrev main_v291 : Ref sig .tc := ⟨.hbm, 384, rfl⟩
abbrev main_v292 : Ref sig .tc := ⟨.hbm, 385, rfl⟩
abbrev main_v293 : Ref sig .tc := ⟨.hbm, 386, rfl⟩
abbrev main_v294 : Ref sig .tc := ⟨.hbm, 387, rfl⟩
abbrev main_v295 : Ref sig .tc := ⟨.hbm, 388, rfl⟩
abbrev main_v296 : Ref sig .tc := ⟨.hbm, 389, rfl⟩
abbrev main_v297 : Ref sig .tc := ⟨.hbm, 390, rfl⟩
abbrev main_v298 : Ref sig .tc := ⟨.hbm, 391, rfl⟩
abbrev main_v299 : Ref sig .tc := ⟨.hbm, 392, rfl⟩
abbrev main_v300 : Ref sig .tc := ⟨.hbm, 393, rfl⟩
abbrev main_v301 : Ref sig .tc := ⟨.hbm, 394, rfl⟩
abbrev main_v302 : Ref sig .tc := ⟨.hbm, 395, rfl⟩
abbrev main_v303 : Ref sig .tc := ⟨.hbm, 396, rfl⟩
abbrev main_v304 : Ref sig .tc := ⟨.hbm, 397, rfl⟩
abbrev main_v305 : Ref sig .tc := ⟨.hbm, 398, rfl⟩
abbrev main_v306 : Ref sig .tc := ⟨.hbm, 399, rfl⟩
abbrev main_v307 : Ref sig .tc := ⟨.hbm, 400, rfl⟩
abbrev main_v308 : Ref sig .tc := ⟨.hbm, 401, rfl⟩
abbrev main_v309 : Ref sig .tc := ⟨.hbm, 402, rfl⟩
abbrev main_v310 : Ref sig .tc := ⟨.hbm, 403, rfl⟩
abbrev main_v311 : Ref sig .tc := ⟨.hbm, 404, rfl⟩
abbrev main_v312 : Ref sig .tc := ⟨.hbm, 405, rfl⟩
abbrev main_v313 : Ref sig .tc := ⟨.hbm, 406, rfl⟩
abbrev main_c_50 : Ref sig .tc := ⟨.hbm, 407, rfl⟩
abbrev main_v314 : Ref sig .tc := ⟨.hbm, 408, rfl⟩
abbrev main_v315 : Ref sig .tc := ⟨.hbm, 409, rfl⟩
abbrev main_c_51 : Ref sig .tc := ⟨.hbm, 410, rfl⟩
abbrev main_v316 : Ref sig .tc := ⟨.hbm, 411, rfl⟩
abbrev main_v317 : Ref sig .tc := ⟨.hbm, 412, rfl⟩
abbrev main_v318 : Ref sig .tc := ⟨.hbm, 413, rfl⟩
abbrev main_v319 : Ref sig .tc := ⟨.hbm, 414, rfl⟩
abbrev main_v320 : Ref sig .tc := ⟨.hbm, 415, rfl⟩
abbrev main_c_52 : Ref sig .tc := ⟨.hbm, 416, rfl⟩
abbrev main_v321 : Ref sig .tc := ⟨.hbm, 417, rfl⟩
abbrev main_v322 : Ref sig .tc := ⟨.hbm, 418, rfl⟩
abbrev main_c_53 : Ref sig .tc := ⟨.hbm, 419, rfl⟩
abbrev main_v323 : Ref sig .tc := ⟨.hbm, 420, rfl⟩
abbrev main_v324 : Ref sig .tc := ⟨.hbm, 421, rfl⟩
abbrev main_v325 : Ref sig .tc := ⟨.hbm, 422, rfl⟩
abbrev main_v326 : Ref sig .tc := ⟨.hbm, 423, rfl⟩
abbrev main_v327 : Ref sig .tc := ⟨.hbm, 424, rfl⟩
abbrev main_v328 : Ref sig .tc := ⟨.hbm, 425, rfl⟩
abbrev main_call6_cst : Ref sig .tc := ⟨.hbm, 426, rfl⟩
abbrev main_call6_v0 : Ref sig .tc := ⟨.hbm, 427, rfl⟩
abbrev main_v329 : Ref sig .tc := ⟨.hbm, 428, rfl⟩
abbrev main_cst_54 : Ref sig .tc := ⟨.hbm, 429, rfl⟩
abbrev main_v330 : Ref sig .tc := ⟨.hbm, 430, rfl⟩
abbrev main_v331 : Ref sig .tc := ⟨.hbm, 431, rfl⟩
abbrev main_v332 : Ref sig .tc := ⟨.hbm, 432, rfl⟩
abbrev main_c_55 : Ref sig .tc := ⟨.hbm, 433, rfl⟩
abbrev main_v333 : Ref sig .tc := ⟨.hbm, 434, rfl⟩
abbrev main_v334 : Ref sig .tc := ⟨.hbm, 435, rfl⟩
abbrev main_c_56 : Ref sig .tc := ⟨.hbm, 436, rfl⟩
abbrev main_v335 : Ref sig .tc := ⟨.hbm, 437, rfl⟩
abbrev main_v336 : Ref sig .tc := ⟨.hbm, 438, rfl⟩
abbrev main_v337 : Ref sig .tc := ⟨.hbm, 439, rfl⟩
abbrev main_v338 : Ref sig .tc := ⟨.hbm, 440, rfl⟩
abbrev main_v339 : Ref sig .tc := ⟨.hbm, 441, rfl⟩
abbrev main_c_57 : Ref sig .tc := ⟨.hbm, 442, rfl⟩
abbrev main_v340 : Ref sig .tc := ⟨.hbm, 443, rfl⟩
abbrev main_v341 : Ref sig .tc := ⟨.hbm, 444, rfl⟩
abbrev main_c_58 : Ref sig .tc := ⟨.hbm, 445, rfl⟩
abbrev main_v342 : Ref sig .tc := ⟨.hbm, 446, rfl⟩
abbrev main_v343 : Ref sig .tc := ⟨.hbm, 447, rfl⟩
abbrev main_v344 : Ref sig .tc := ⟨.hbm, 448, rfl⟩
abbrev main_v345 : Ref sig .tc := ⟨.hbm, 449, rfl⟩
abbrev main_v346 : Ref sig .tc := ⟨.hbm, 450, rfl⟩
abbrev main_v347 : Ref sig .tc := ⟨.hbm, 451, rfl⟩
abbrev main_call7_cst : Ref sig .tc := ⟨.hbm, 452, rfl⟩
abbrev main_call7_v0 : Ref sig .tc := ⟨.hbm, 453, rfl⟩
abbrev main_v348 : Ref sig .tc := ⟨.hbm, 454, rfl⟩
abbrev main_cst_59 : Ref sig .tc := ⟨.hbm, 455, rfl⟩
abbrev main_v349 : Ref sig .tc := ⟨.hbm, 456, rfl⟩
abbrev main_v350 : Ref sig .tc := ⟨.hbm, 457, rfl⟩
abbrev main_v351 : Ref sig .tc := ⟨.hbm, 458, rfl⟩
abbrev main_v352 : Ref sig .tc := ⟨.hbm, 459, rfl⟩
abbrev main_v353 : Ref sig .tc := ⟨.hbm, 460, rfl⟩
abbrev main_v354 : Ref sig .tc := ⟨.hbm, 461, rfl⟩
abbrev main_v355 : Ref sig .tc := ⟨.hbm, 462, rfl⟩
abbrev main_v356 : Ref sig .tc := ⟨.hbm, 463, rfl⟩
abbrev main_v357 : Ref sig .tc := ⟨.hbm, 464, rfl⟩
abbrev main_v358 : Ref sig .tc := ⟨.hbm, 465, rfl⟩
abbrev main_v359 : Ref sig .tc := ⟨.hbm, 466, rfl⟩
abbrev main_v360 : Ref sig .tc := ⟨.hbm, 467, rfl⟩
abbrev main_v361 : Ref sig .tc := ⟨.hbm, 468, rfl⟩
abbrev main_v362 : Ref sig .tc := ⟨.hbm, 469, rfl⟩
abbrev main_v363 : Ref sig .tc := ⟨.hbm, 470, rfl⟩
abbrev main_v364 : Ref sig .tc := ⟨.hbm, 471, rfl⟩
abbrev main_v365 : Ref sig .tc := ⟨.hbm, 472, rfl⟩
abbrev main_v366 : Ref sig .tc := ⟨.hbm, 473, rfl⟩
abbrev main_v367 : Ref sig .tc := ⟨.hbm, 474, rfl⟩
abbrev main_v368 : Ref sig .tc := ⟨.hbm, 475, rfl⟩
abbrev main_v369 : Ref sig .tc := ⟨.hbm, 476, rfl⟩
abbrev main_v370 : Ref sig .tc := ⟨.hbm, 477, rfl⟩
abbrev main_v371 : Ref sig .tc := ⟨.hbm, 478, rfl⟩
abbrev main_v372 : Ref sig .tc := ⟨.hbm, 479, rfl⟩
abbrev main_v373 : Ref sig .tc := ⟨.hbm, 480, rfl⟩
abbrev main_v374 : Ref sig .tc := ⟨.hbm, 481, rfl⟩
abbrev main_v375 : Ref sig .tc := ⟨.hbm, 482, rfl⟩
abbrev main_v376 : Ref sig .tc := ⟨.hbm, 483, rfl⟩
abbrev main_v377 : Ref sig .tc := ⟨.hbm, 484, rfl⟩
abbrev main_v378 : Ref sig .tc := ⟨.hbm, 485, rfl⟩
abbrev main_v379 : Ref sig .tc := ⟨.hbm, 486, rfl⟩
abbrev main_v380 : Ref sig .tc := ⟨.hbm, 487, rfl⟩
abbrev main_v381 : Ref sig .tc := ⟨.hbm, 488, rfl⟩
abbrev main_v382 : Ref sig .tc := ⟨.hbm, 489, rfl⟩
abbrev main_v383 : Ref sig .tc := ⟨.hbm, 490, rfl⟩
abbrev main_v384 : Ref sig .tc := ⟨.hbm, 491, rfl⟩
abbrev main_v385 : Ref sig .tc := ⟨.hbm, 492, rfl⟩
abbrev main_v386 : Ref sig .tc := ⟨.hbm, 493, rfl⟩
abbrev main_v387 : Ref sig .tc := ⟨.hbm, 494, rfl⟩
abbrev main_v388 : Ref sig .tc := ⟨.hbm, 495, rfl⟩
abbrev main_v389 : Ref sig .tc := ⟨.hbm, 496, rfl⟩
abbrev main_v390 : Ref sig .tc := ⟨.hbm, 497, rfl⟩
abbrev main_v391 : Ref sig .tc := ⟨.hbm, 498, rfl⟩
abbrev main_v392 : Ref sig .tc := ⟨.hbm, 499, rfl⟩
abbrev main_v393 : Ref sig .tc := ⟨.hbm, 500, rfl⟩
abbrev main_v394 : Ref sig .tc := ⟨.hbm, 501, rfl⟩
abbrev main_v395 : Ref sig .tc := ⟨.hbm, 502, rfl⟩
abbrev main_v396 : Ref sig .tc := ⟨.hbm, 503, rfl⟩
abbrev main_v397 : Ref sig .tc := ⟨.hbm, 504, rfl⟩
abbrev main_call8_cst : Ref sig .tc := ⟨.hbm, 505, rfl⟩
abbrev main_call8_v0 : Ref sig .tc := ⟨.hbm, 506, rfl⟩
abbrev main_v398 : Ref sig .tc := ⟨.hbm, 507, rfl⟩
abbrev main_cst_60 : Ref sig .tc := ⟨.hbm, 508, rfl⟩
abbrev main_v399 : Ref sig .tc := ⟨.hbm, 509, rfl⟩
abbrev main_v400 : Ref sig .tc := ⟨.hbm, 510, rfl⟩
abbrev main_v401 : Ref sig .tc := ⟨.hbm, 511, rfl⟩
abbrev main_v402 : Ref sig .tc := ⟨.hbm, 512, rfl⟩
abbrev main_v403 : Ref sig .tc := ⟨.hbm, 513, rfl⟩
abbrev main_v404 : Ref sig .tc := ⟨.hbm, 514, rfl⟩
abbrev main_v405 : Ref sig .tc := ⟨.hbm, 515, rfl⟩
abbrev main_v406 : Ref sig .tc := ⟨.hbm, 516, rfl⟩
abbrev main_v407 : Ref sig .tc := ⟨.hbm, 517, rfl⟩
abbrev main_v408 : Ref sig .tc := ⟨.hbm, 518, rfl⟩
abbrev main_call9_cst : Ref sig .tc := ⟨.hbm, 519, rfl⟩
abbrev main_call9_v0 : Ref sig .tc := ⟨.hbm, 520, rfl⟩
abbrev main_v409 : Ref sig .tc := ⟨.hbm, 521, rfl⟩
abbrev main_v410 : Ref sig .tc := ⟨.hbm, 522, rfl⟩
abbrev main_v411 : Ref sig .tc := ⟨.hbm, 523, rfl⟩
abbrev main_v412 : Ref sig .tc := ⟨.hbm, 524, rfl⟩
abbrev main_v413 : Ref sig .tc := ⟨.hbm, 525, rfl⟩
abbrev main_v414 : Ref sig .tc := ⟨.hbm, 526, rfl⟩
abbrev main_v415 : Ref sig .tc := ⟨.hbm, 527, rfl⟩
abbrev main_v416 : Ref sig .tc := ⟨.hbm, 528, rfl⟩
abbrev main_v417 : Ref sig .tc := ⟨.hbm, 529, rfl⟩
abbrev main_v418 : Ref sig .tc := ⟨.hbm, 530, rfl⟩
abbrev main_call10_cst : Ref sig .tc := ⟨.hbm, 531, rfl⟩
abbrev main_call10_v0 : Ref sig .tc := ⟨.hbm, 532, rfl⟩
abbrev main_v419 : Ref sig .tc := ⟨.hbm, 533, rfl⟩
abbrev main_v420 : Ref sig .tc := ⟨.hbm, 534, rfl⟩
abbrev main_v421 : Ref sig .tc := ⟨.hbm, 535, rfl⟩
abbrev main_v422 : Ref sig .tc := ⟨.hbm, 536, rfl⟩
abbrev main_v423 : Ref sig .tc := ⟨.hbm, 537, rfl⟩
abbrev main_v424 : Ref sig .tc := ⟨.hbm, 538, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg1_1 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg3_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg2_0 : Ref sig .tc := ⟨.vmem, 41, rfl⟩
abbrev cc7_stg3_0 : Ref sig .tc := ⟨.vmem, 42, rfl⟩
abbrev cc7_stg3_1 : Ref sig .tc := ⟨.vmem, 43, rfl⟩
abbrev cc7_stg4_0 : Ref sig .tc := ⟨.vmem, 44, rfl⟩
abbrev cc7_stg4_1 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg2_0 : Ref sig .tc := ⟨.vmem, 49, rfl⟩
abbrev cc8_stg3_0 : Ref sig .tc := ⟨.vmem, 50, rfl⟩
abbrev cc8_stg3_1 : Ref sig .tc := ⟨.vmem, 51, rfl⟩
abbrev cc8_stg4_0 : Ref sig .tc := ⟨.vmem, 52, rfl⟩
abbrev cc8_stg4_1 : Ref sig .tc := ⟨.vmem, 53, rfl⟩
abbrev cc8_stg5_0 : Ref sig .tc := ⟨.vmem, 54, rfl⟩
abbrev cc8_stg5_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg2_0 : Ref sig .tc := ⟨.vmem, 59, rfl⟩
abbrev cc9_stg3_0 : Ref sig .tc := ⟨.vmem, 60, rfl⟩
abbrev cc9_stg3_1 : Ref sig .tc := ⟨.vmem, 61, rfl⟩
abbrev cc9_stg4_0 : Ref sig .tc := ⟨.vmem, 62, rfl⟩
abbrev cc9_stg4_1 : Ref sig .tc := ⟨.vmem, 63, rfl⟩
abbrev cc10_stg0_0 : Ref sig .tc := ⟨.vmem, 64, rfl⟩
abbrev cc10_stg0_1 : Ref sig .tc := ⟨.vmem, 65, rfl⟩
abbrev cc10_stg1_0 : Ref sig .tc := ⟨.vmem, 66, rfl⟩
abbrev cc10_stg2_0 : Ref sig .tc := ⟨.vmem, 67, rfl⟩
abbrev cc10_stg2_1 : Ref sig .tc := ⟨.vmem, 68, rfl⟩
abbrev cc11_stg0_0 : Ref sig .tc := ⟨.vmem, 69, rfl⟩
abbrev cc11_stg0_1 : Ref sig .tc := ⟨.vmem, 70, rfl⟩
abbrev cc11_stg1_0 : Ref sig .tc := ⟨.vmem, 71, rfl⟩
abbrev cc11_stg2_0 : Ref sig .tc := ⟨.vmem, 72, rfl⟩
abbrev cc11_stg2_1 : Ref sig .tc := ⟨.vmem, 73, rfl⟩
abbrev cc12_stg0_0 : Ref sig .tc := ⟨.vmem, 74, rfl⟩
abbrev cc12_stg0_1 : Ref sig .tc := ⟨.vmem, 75, rfl⟩
abbrev cc12_stg1_0 : Ref sig .tc := ⟨.vmem, 76, rfl⟩
abbrev cc12_stg2_0 : Ref sig .tc := ⟨.vmem, 77, rfl⟩
abbrev cc12_stg2_1 : Ref sig .tc := ⟨.vmem, 78, rfl⟩
abbrev cc13_stg0_0 : Ref sig .tc := ⟨.vmem, 79, rfl⟩
abbrev cc13_stg0_1 : Ref sig .tc := ⟨.vmem, 80, rfl⟩
abbrev cc13_stg1_0 : Ref sig .tc := ⟨.vmem, 81, rfl⟩
abbrev cc13_stg2_0 : Ref sig .tc := ⟨.vmem, 82, rfl⟩
abbrev cc13_stg2_1 : Ref sig .tc := ⟨.vmem, 83, rfl⟩
abbrev cc14_stg0_0 : Ref sig .tc := ⟨.vmem, 84, rfl⟩
abbrev cc14_stg0_1 : Ref sig .tc := ⟨.vmem, 85, rfl⟩
abbrev cc14_stg1_0 : Ref sig .tc := ⟨.vmem, 86, rfl⟩
abbrev cc14_stg2_0 : Ref sig .tc := ⟨.vmem, 87, rfl⟩
abbrev cc14_stg2_1 : Ref sig .tc := ⟨.vmem, 88, rfl⟩
abbrev cc15_stg0_0 : Ref sig .tc := ⟨.vmem, 89, rfl⟩
abbrev cc15_stg0_1 : Ref sig .tc := ⟨.vmem, 90, rfl⟩
abbrev cc15_stg1_0 : Ref sig .tc := ⟨.vmem, 91, rfl⟩
abbrev cc15_stg1_1 : Ref sig .tc := ⟨.vmem, 92, rfl⟩
abbrev cc15_stg2_0 : Ref sig .tc := ⟨.vmem, 93, rfl⟩
abbrev cc15_stg2_1 : Ref sig .tc := ⟨.vmem, 94, rfl⟩
abbrev cc16_stg0_0 : Ref sig .tc := ⟨.vmem, 95, rfl⟩
abbrev cc16_stg0_1 : Ref sig .tc := ⟨.vmem, 96, rfl⟩
abbrev cc16_stg1_0 : Ref sig .tc := ⟨.vmem, 97, rfl⟩
abbrev cc16_stg1_1 : Ref sig .tc := ⟨.vmem, 98, rfl⟩
abbrev cc16_stg2_0 : Ref sig .tc := ⟨.vmem, 99, rfl⟩
abbrev cc16_stg3_0 : Ref sig .tc := ⟨.vmem, 100, rfl⟩
abbrev cc16_stg3_1 : Ref sig .tc := ⟨.vmem, 101, rfl⟩
abbrev cc17_stg0_0 : Ref sig .tc := ⟨.vmem, 102, rfl⟩
abbrev cc17_stg0_1 : Ref sig .tc := ⟨.vmem, 103, rfl⟩
abbrev cc17_stg1_0 : Ref sig .tc := ⟨.vmem, 104, rfl⟩
abbrev cc17_stg2_0 : Ref sig .tc := ⟨.vmem, 105, rfl⟩
abbrev cc17_stg3_0 : Ref sig .tc := ⟨.vmem, 106, rfl⟩
abbrev cc17_stg3_1 : Ref sig .tc := ⟨.vmem, 107, rfl⟩
abbrev cc17_stg4_0 : Ref sig .tc := ⟨.vmem, 108, rfl⟩
abbrev cc17_stg4_1 : Ref sig .tc := ⟨.vmem, 109, rfl⟩
abbrev cc18_stg0_0 : Ref sig .tc := ⟨.vmem, 110, rfl⟩
abbrev cc18_stg0_1 : Ref sig .tc := ⟨.vmem, 111, rfl⟩
abbrev cc18_stg1_0 : Ref sig .tc := ⟨.vmem, 112, rfl⟩
abbrev cc18_stg2_0 : Ref sig .tc := ⟨.vmem, 113, rfl⟩
abbrev cc18_stg3_0 : Ref sig .tc := ⟨.vmem, 114, rfl⟩
abbrev cc18_stg3_1 : Ref sig .tc := ⟨.vmem, 115, rfl⟩
abbrev cc18_stg4_0 : Ref sig .tc := ⟨.vmem, 116, rfl⟩
abbrev cc18_stg4_1 : Ref sig .tc := ⟨.vmem, 117, rfl⟩
abbrev cc18_stg5_0 : Ref sig .tc := ⟨.vmem, 118, rfl⟩
abbrev cc18_stg5_1 : Ref sig .tc := ⟨.vmem, 119, rfl⟩
abbrev cc19_stg0_0 : Ref sig .tc := ⟨.vmem, 120, rfl⟩
abbrev cc19_stg0_1 : Ref sig .tc := ⟨.vmem, 121, rfl⟩
abbrev cc19_stg1_0 : Ref sig .tc := ⟨.vmem, 122, rfl⟩
abbrev cc19_stg2_0 : Ref sig .tc := ⟨.vmem, 123, rfl⟩
abbrev cc19_stg3_0 : Ref sig .tc := ⟨.vmem, 124, rfl⟩
abbrev cc19_stg3_1 : Ref sig .tc := ⟨.vmem, 125, rfl⟩
abbrev cc19_stg4_0 : Ref sig .tc := ⟨.vmem, 126, rfl⟩
abbrev cc19_stg4_1 : Ref sig .tc := ⟨.vmem, 127, rfl⟩
abbrev cc20_stg0_0 : Ref sig .tc := ⟨.vmem, 128, rfl⟩
abbrev cc20_stg0_1 : Ref sig .tc := ⟨.vmem, 129, rfl⟩
abbrev cc20_stg1_0 : Ref sig .tc := ⟨.vmem, 130, rfl⟩
abbrev cc20_stg2_0 : Ref sig .tc := ⟨.vmem, 131, rfl⟩
abbrev cc20_stg2_1 : Ref sig .tc := ⟨.vmem, 132, rfl⟩
abbrev cc21_stg0_0 : Ref sig .tc := ⟨.vmem, 133, rfl⟩
abbrev cc21_stg0_1 : Ref sig .tc := ⟨.vmem, 134, rfl⟩
abbrev cc21_stg1_0 : Ref sig .tc := ⟨.vmem, 135, rfl⟩
abbrev cc21_stg2_0 : Ref sig .tc := ⟨.vmem, 136, rfl⟩
abbrev cc21_stg2_1 : Ref sig .tc := ⟨.vmem, 137, rfl⟩
abbrev cc22_stg0_0 : Ref sig .tc := ⟨.vmem, 138, rfl⟩
abbrev cc22_stg0_1 : Ref sig .tc := ⟨.vmem, 139, rfl⟩
abbrev cc22_stg1_0 : Ref sig .tc := ⟨.vmem, 140, rfl⟩
abbrev cc22_stg2_0 : Ref sig .tc := ⟨.vmem, 141, rfl⟩
abbrev cc22_stg2_1 : Ref sig .tc := ⟨.vmem, 142, rfl⟩
abbrev cc23_stg0_0 : Ref sig .tc := ⟨.vmem, 143, rfl⟩
abbrev cc23_stg0_1 : Ref sig .tc := ⟨.vmem, 144, rfl⟩
abbrev cc23_stg1_0 : Ref sig .tc := ⟨.vmem, 145, rfl⟩
abbrev cc23_stg2_0 : Ref sig .tc := ⟨.vmem, 146, rfl⟩
abbrev cc23_stg2_1 : Ref sig .tc := ⟨.vmem, 147, rfl⟩
abbrev cc24_stg0_0 : Ref sig .tc := ⟨.vmem, 148, rfl⟩
abbrev cc24_stg0_1 : Ref sig .tc := ⟨.vmem, 149, rfl⟩
abbrev cc24_stg1_0 : Ref sig .tc := ⟨.vmem, 150, rfl⟩
abbrev cc24_stg2_0 : Ref sig .tc := ⟨.vmem, 151, rfl⟩
abbrev cc24_stg2_1 : Ref sig .tc := ⟨.vmem, 152, rfl⟩
abbrev cc25_stg0_0 : Ref sig .tc := ⟨.vmem, 153, rfl⟩
abbrev cc25_stg0_1 : Ref sig .tc := ⟨.vmem, 154, rfl⟩
abbrev cc25_stg1_0 : Ref sig .tc := ⟨.vmem, 155, rfl⟩
abbrev cc25_stg1_1 : Ref sig .tc := ⟨.vmem, 156, rfl⟩
abbrev cc25_stg2_0 : Ref sig .tc := ⟨.vmem, 157, rfl⟩
abbrev cc25_stg2_1 : Ref sig .tc := ⟨.vmem, 158, rfl⟩
abbrev cc26_stg0_0 : Ref sig .tc := ⟨.vmem, 159, rfl⟩
abbrev cc26_stg0_1 : Ref sig .tc := ⟨.vmem, 160, rfl⟩
abbrev cc26_stg1_0 : Ref sig .tc := ⟨.vmem, 161, rfl⟩
abbrev cc26_stg1_1 : Ref sig .tc := ⟨.vmem, 162, rfl⟩
abbrev cc26_stg2_0 : Ref sig .tc := ⟨.vmem, 163, rfl⟩
abbrev cc26_stg3_0 : Ref sig .tc := ⟨.vmem, 164, rfl⟩
abbrev cc26_stg3_1 : Ref sig .tc := ⟨.vmem, 165, rfl⟩
abbrev cc27_stg0_0 : Ref sig .tc := ⟨.vmem, 166, rfl⟩
abbrev cc27_stg0_1 : Ref sig .tc := ⟨.vmem, 167, rfl⟩
abbrev cc27_stg1_0 : Ref sig .tc := ⟨.vmem, 168, rfl⟩
abbrev cc27_stg2_0 : Ref sig .tc := ⟨.vmem, 169, rfl⟩
abbrev cc27_stg3_0 : Ref sig .tc := ⟨.vmem, 170, rfl⟩
abbrev cc27_stg3_1 : Ref sig .tc := ⟨.vmem, 171, rfl⟩
abbrev cc27_stg4_0 : Ref sig .tc := ⟨.vmem, 172, rfl⟩
abbrev cc27_stg4_1 : Ref sig .tc := ⟨.vmem, 173, rfl⟩
abbrev cc28_stg0_0 : Ref sig .tc := ⟨.vmem, 174, rfl⟩
abbrev cc28_stg0_1 : Ref sig .tc := ⟨.vmem, 175, rfl⟩
abbrev cc28_stg1_0 : Ref sig .tc := ⟨.vmem, 176, rfl⟩
abbrev cc28_stg2_0 : Ref sig .tc := ⟨.vmem, 177, rfl⟩
abbrev cc28_stg3_0 : Ref sig .tc := ⟨.vmem, 178, rfl⟩
abbrev cc28_stg3_1 : Ref sig .tc := ⟨.vmem, 179, rfl⟩
abbrev cc28_stg4_0 : Ref sig .tc := ⟨.vmem, 180, rfl⟩
abbrev cc28_stg4_1 : Ref sig .tc := ⟨.vmem, 181, rfl⟩
abbrev cc28_stg5_0 : Ref sig .tc := ⟨.vmem, 182, rfl⟩
abbrev cc28_stg5_1 : Ref sig .tc := ⟨.vmem, 183, rfl⟩
abbrev cc29_stg0_0 : Ref sig .tc := ⟨.vmem, 184, rfl⟩
abbrev cc29_stg0_1 : Ref sig .tc := ⟨.vmem, 185, rfl⟩
abbrev cc29_stg1_0 : Ref sig .tc := ⟨.vmem, 186, rfl⟩
abbrev cc29_stg2_0 : Ref sig .tc := ⟨.vmem, 187, rfl⟩
abbrev cc29_stg3_0 : Ref sig .tc := ⟨.vmem, 188, rfl⟩
abbrev cc29_stg3_1 : Ref sig .tc := ⟨.vmem, 189, rfl⟩
abbrev cc29_stg4_0 : Ref sig .tc := ⟨.vmem, 190, rfl⟩
abbrev cc29_stg4_1 : Ref sig .tc := ⟨.vmem, 191, rfl⟩
abbrev cc30_stg0_0 : Ref sig .tc := ⟨.vmem, 192, rfl⟩
abbrev cc30_stg0_1 : Ref sig .tc := ⟨.vmem, 193, rfl⟩
abbrev cc30_stg1_0 : Ref sig .tc := ⟨.vmem, 194, rfl⟩
abbrev cc30_stg2_0 : Ref sig .tc := ⟨.vmem, 195, rfl⟩
abbrev cc30_stg2_1 : Ref sig .tc := ⟨.vmem, 196, rfl⟩
abbrev cc31_stg0_0 : Ref sig .tc := ⟨.vmem, 197, rfl⟩
abbrev cc31_stg0_1 : Ref sig .tc := ⟨.vmem, 198, rfl⟩
abbrev cc31_stg1_0 : Ref sig .tc := ⟨.vmem, 199, rfl⟩
abbrev cc31_stg2_0 : Ref sig .tc := ⟨.vmem, 200, rfl⟩
abbrev cc31_stg2_1 : Ref sig .tc := ⟨.vmem, 201, rfl⟩
abbrev cc32_stg0_0 : Ref sig .tc := ⟨.vmem, 202, rfl⟩
abbrev cc32_stg0_1 : Ref sig .tc := ⟨.vmem, 203, rfl⟩
abbrev cc32_stg1_0 : Ref sig .tc := ⟨.vmem, 204, rfl⟩
abbrev cc32_stg2_0 : Ref sig .tc := ⟨.vmem, 205, rfl⟩
abbrev cc32_stg2_1 : Ref sig .tc := ⟨.vmem, 206, rfl⟩
abbrev cc33_stg0_0 : Ref sig .tc := ⟨.vmem, 207, rfl⟩
abbrev cc33_stg0_1 : Ref sig .tc := ⟨.vmem, 208, rfl⟩
abbrev cc33_stg1_0 : Ref sig .tc := ⟨.vmem, 209, rfl⟩
abbrev cc33_stg2_0 : Ref sig .tc := ⟨.vmem, 210, rfl⟩
abbrev cc33_stg2_1 : Ref sig .tc := ⟨.vmem, 211, rfl⟩
abbrev cc34_stg0_0 : Ref sig .tc := ⟨.vmem, 212, rfl⟩
abbrev cc34_stg0_1 : Ref sig .tc := ⟨.vmem, 213, rfl⟩
abbrev cc34_stg1_0 : Ref sig .tc := ⟨.vmem, 214, rfl⟩
abbrev cc34_stg2_0 : Ref sig .tc := ⟨.vmem, 215, rfl⟩
abbrev cc34_stg2_1 : Ref sig .tc := ⟨.vmem, 216, rfl⟩
abbrev cc35_stg0_0 : Ref sig .tc := ⟨.vmem, 217, rfl⟩
abbrev cc35_stg0_1 : Ref sig .tc := ⟨.vmem, 218, rfl⟩
abbrev cc35_stg1_0 : Ref sig .tc := ⟨.vmem, 219, rfl⟩
abbrev cc35_stg1_1 : Ref sig .tc := ⟨.vmem, 220, rfl⟩
abbrev cc35_stg2_0 : Ref sig .tc := ⟨.vmem, 221, rfl⟩
abbrev cc35_stg2_1 : Ref sig .tc := ⟨.vmem, 222, rfl⟩
abbrev cc36_stg0_0 : Ref sig .tc := ⟨.vmem, 223, rfl⟩
abbrev cc36_stg0_1 : Ref sig .tc := ⟨.vmem, 224, rfl⟩
abbrev cc36_stg1_0 : Ref sig .tc := ⟨.vmem, 225, rfl⟩
abbrev cc36_stg1_1 : Ref sig .tc := ⟨.vmem, 226, rfl⟩
abbrev cc36_stg2_0 : Ref sig .tc := ⟨.vmem, 227, rfl⟩
abbrev cc36_stg3_0 : Ref sig .tc := ⟨.vmem, 228, rfl⟩
abbrev cc36_stg3_1 : Ref sig .tc := ⟨.vmem, 229, rfl⟩
abbrev cc37_stg0_0 : Ref sig .tc := ⟨.vmem, 230, rfl⟩
abbrev cc37_stg0_1 : Ref sig .tc := ⟨.vmem, 231, rfl⟩
abbrev cc37_stg1_0 : Ref sig .tc := ⟨.vmem, 232, rfl⟩
abbrev cc37_stg2_0 : Ref sig .tc := ⟨.vmem, 233, rfl⟩
abbrev cc37_stg3_0 : Ref sig .tc := ⟨.vmem, 234, rfl⟩
abbrev cc37_stg3_1 : Ref sig .tc := ⟨.vmem, 235, rfl⟩
abbrev cc37_stg4_0 : Ref sig .tc := ⟨.vmem, 236, rfl⟩
abbrev cc37_stg4_1 : Ref sig .tc := ⟨.vmem, 237, rfl⟩
abbrev cc38_stg0_0 : Ref sig .tc := ⟨.vmem, 238, rfl⟩
abbrev cc38_stg0_1 : Ref sig .tc := ⟨.vmem, 239, rfl⟩
abbrev cc38_stg1_0 : Ref sig .tc := ⟨.vmem, 240, rfl⟩
abbrev cc38_stg2_0 : Ref sig .tc := ⟨.vmem, 241, rfl⟩
abbrev cc38_stg3_0 : Ref sig .tc := ⟨.vmem, 242, rfl⟩
abbrev cc38_stg3_1 : Ref sig .tc := ⟨.vmem, 243, rfl⟩
abbrev cc38_stg4_0 : Ref sig .tc := ⟨.vmem, 244, rfl⟩
abbrev cc38_stg4_1 : Ref sig .tc := ⟨.vmem, 245, rfl⟩
abbrev cc38_stg5_0 : Ref sig .tc := ⟨.vmem, 246, rfl⟩
abbrev cc38_stg5_1 : Ref sig .tc := ⟨.vmem, 247, rfl⟩
abbrev cc39_stg0_0 : Ref sig .tc := ⟨.vmem, 248, rfl⟩
abbrev cc39_stg0_1 : Ref sig .tc := ⟨.vmem, 249, rfl⟩
abbrev cc39_stg1_0 : Ref sig .tc := ⟨.vmem, 250, rfl⟩
abbrev cc39_stg2_0 : Ref sig .tc := ⟨.vmem, 251, rfl⟩
abbrev cc39_stg3_0 : Ref sig .tc := ⟨.vmem, 252, rfl⟩
abbrev cc39_stg3_1 : Ref sig .tc := ⟨.vmem, 253, rfl⟩
abbrev cc39_stg4_0 : Ref sig .tc := ⟨.vmem, 254, rfl⟩
abbrev cc39_stg4_1 : Ref sig .tc := ⟨.vmem, 255, rfl⟩
abbrev cc40_stg0_0 : Ref sig .tc := ⟨.vmem, 256, rfl⟩
abbrev cc40_stg0_1 : Ref sig .tc := ⟨.vmem, 257, rfl⟩
abbrev cc40_stg1_0 : Ref sig .tc := ⟨.vmem, 258, rfl⟩
abbrev cc40_stg1_1 : Ref sig .tc := ⟨.vmem, 259, rfl⟩
abbrev cc40_stg2_0 : Ref sig .tc := ⟨.vmem, 260, rfl⟩
abbrev cc40_stg3_0 : Ref sig .tc := ⟨.vmem, 261, rfl⟩
abbrev cc40_stg4_0 : Ref sig .tc := ⟨.vmem, 262, rfl⟩
abbrev cc40_stg5_0 : Ref sig .tc := ⟨.vmem, 263, rfl⟩
abbrev cc40_stg5_1 : Ref sig .tc := ⟨.vmem, 264, rfl⟩
abbrev cc41_stg0_0 : Ref sig .tc := ⟨.vmem, 265, rfl⟩
abbrev cc41_stg0_1 : Ref sig .tc := ⟨.vmem, 266, rfl⟩
abbrev cc41_stg1_0 : Ref sig .tc := ⟨.vmem, 267, rfl⟩
abbrev cc41_stg1_1 : Ref sig .tc := ⟨.vmem, 268, rfl⟩
abbrev cc41_stg2_0 : Ref sig .tc := ⟨.vmem, 269, rfl⟩
abbrev cc41_stg3_0 : Ref sig .tc := ⟨.vmem, 270, rfl⟩
abbrev cc41_stg4_0 : Ref sig .tc := ⟨.vmem, 271, rfl⟩
abbrev cc41_stg5_0 : Ref sig .tc := ⟨.vmem, 272, rfl⟩
abbrev cc41_stg5_1 : Ref sig .tc := ⟨.vmem, 273, rfl⟩
abbrev cc42_stg0_0 : Ref sig .tc := ⟨.vmem, 274, rfl⟩
abbrev cc42_stg0_1 : Ref sig .tc := ⟨.vmem, 275, rfl⟩
abbrev cc42_stg1_0 : Ref sig .tc := ⟨.vmem, 276, rfl⟩
abbrev cc42_stg1_1 : Ref sig .tc := ⟨.vmem, 277, rfl⟩
abbrev cc42_stg2_0 : Ref sig .tc := ⟨.vmem, 278, rfl⟩
abbrev cc42_stg3_0 : Ref sig .tc := ⟨.vmem, 279, rfl⟩
abbrev cc42_stg4_0 : Ref sig .tc := ⟨.vmem, 280, rfl⟩
abbrev cc42_stg5_0 : Ref sig .tc := ⟨.vmem, 281, rfl⟩
abbrev cc42_stg5_1 : Ref sig .tc := ⟨.vmem, 282, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem1_1 : DmaSem sig := 34
abbrev cc6_sem2_0 : DmaSem sig := 35
abbrev cc6_sem3_0 : DmaSem sig := 36
abbrev cc6_sem3_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem3_0 : DmaSem sig := 42
abbrev cc7_sem3_1 : DmaSem sig := 43
abbrev cc7_sem4_0 : DmaSem sig := 44
abbrev cc7_sem4_1 : DmaSem sig := 45
abbrev cc8_sem0_0 : DmaSem sig := 46
abbrev cc8_sem0_1 : DmaSem sig := 47
abbrev cc8_sem1_0 : DmaSem sig := 48
abbrev cc8_sem2_0 : DmaSem sig := 49
abbrev cc8_sem3_0 : DmaSem sig := 50
abbrev cc8_sem3_1 : DmaSem sig := 51
abbrev cc8_sem4_0 : DmaSem sig := 52
abbrev cc8_sem4_1 : DmaSem sig := 53
abbrev cc8_sem5_0 : DmaSem sig := 54
abbrev cc8_sem5_1 : DmaSem sig := 55
abbrev cc9_sem0_0 : DmaSem sig := 56
abbrev cc9_sem0_1 : DmaSem sig := 57
abbrev cc9_sem1_0 : DmaSem sig := 58
abbrev cc9_sem2_0 : DmaSem sig := 59
abbrev cc9_sem3_0 : DmaSem sig := 60
abbrev cc9_sem3_1 : DmaSem sig := 61
abbrev cc9_sem4_0 : DmaSem sig := 62
abbrev cc9_sem4_1 : DmaSem sig := 63
abbrev cc10_sem0_0 : DmaSem sig := 64
abbrev cc10_sem0_1 : DmaSem sig := 65
abbrev cc10_sem1_0 : DmaSem sig := 66
abbrev cc10_sem2_0 : DmaSem sig := 67
abbrev cc10_sem2_1 : DmaSem sig := 68
abbrev cc11_sem0_0 : DmaSem sig := 69
abbrev cc11_sem0_1 : DmaSem sig := 70
abbrev cc11_sem1_0 : DmaSem sig := 71
abbrev cc11_sem2_0 : DmaSem sig := 72
abbrev cc11_sem2_1 : DmaSem sig := 73
abbrev cc12_sem0_0 : DmaSem sig := 74
abbrev cc12_sem0_1 : DmaSem sig := 75
abbrev cc12_sem1_0 : DmaSem sig := 76
abbrev cc12_sem2_0 : DmaSem sig := 77
abbrev cc12_sem2_1 : DmaSem sig := 78
abbrev cc13_sem0_0 : DmaSem sig := 79
abbrev cc13_sem0_1 : DmaSem sig := 80
abbrev cc13_sem1_0 : DmaSem sig := 81
abbrev cc13_sem2_0 : DmaSem sig := 82
abbrev cc13_sem2_1 : DmaSem sig := 83
abbrev cc14_sem0_0 : DmaSem sig := 84
abbrev cc14_sem0_1 : DmaSem sig := 85
abbrev cc14_sem1_0 : DmaSem sig := 86
abbrev cc14_sem2_0 : DmaSem sig := 87
abbrev cc14_sem2_1 : DmaSem sig := 88
abbrev cc15_sem0_0 : DmaSem sig := 89
abbrev cc15_sem0_1 : DmaSem sig := 90
abbrev cc15_sem1_0 : DmaSem sig := 91
abbrev cc15_sem1_1 : DmaSem sig := 92
abbrev cc15_sem2_0 : DmaSem sig := 93
abbrev cc15_sem2_1 : DmaSem sig := 94
abbrev cc16_sem0_0 : DmaSem sig := 95
abbrev cc16_sem0_1 : DmaSem sig := 96
abbrev cc16_sem1_0 : DmaSem sig := 97
abbrev cc16_sem1_1 : DmaSem sig := 98
abbrev cc16_sem2_0 : DmaSem sig := 99
abbrev cc16_sem3_0 : DmaSem sig := 100
abbrev cc16_sem3_1 : DmaSem sig := 101
abbrev cc17_sem0_0 : DmaSem sig := 102
abbrev cc17_sem0_1 : DmaSem sig := 103
abbrev cc17_sem1_0 : DmaSem sig := 104
abbrev cc17_sem2_0 : DmaSem sig := 105
abbrev cc17_sem3_0 : DmaSem sig := 106
abbrev cc17_sem3_1 : DmaSem sig := 107
abbrev cc17_sem4_0 : DmaSem sig := 108
abbrev cc17_sem4_1 : DmaSem sig := 109
abbrev cc18_sem0_0 : DmaSem sig := 110
abbrev cc18_sem0_1 : DmaSem sig := 111
abbrev cc18_sem1_0 : DmaSem sig := 112
abbrev cc18_sem2_0 : DmaSem sig := 113
abbrev cc18_sem3_0 : DmaSem sig := 114
abbrev cc18_sem3_1 : DmaSem sig := 115
abbrev cc18_sem4_0 : DmaSem sig := 116
abbrev cc18_sem4_1 : DmaSem sig := 117
abbrev cc18_sem5_0 : DmaSem sig := 118
abbrev cc18_sem5_1 : DmaSem sig := 119
abbrev cc19_sem0_0 : DmaSem sig := 120
abbrev cc19_sem0_1 : DmaSem sig := 121
abbrev cc19_sem1_0 : DmaSem sig := 122
abbrev cc19_sem2_0 : DmaSem sig := 123
abbrev cc19_sem3_0 : DmaSem sig := 124
abbrev cc19_sem3_1 : DmaSem sig := 125
abbrev cc19_sem4_0 : DmaSem sig := 126
abbrev cc19_sem4_1 : DmaSem sig := 127
abbrev cc20_sem0_0 : DmaSem sig := 128
abbrev cc20_sem0_1 : DmaSem sig := 129
abbrev cc20_sem1_0 : DmaSem sig := 130
abbrev cc20_sem2_0 : DmaSem sig := 131
abbrev cc20_sem2_1 : DmaSem sig := 132
abbrev cc21_sem0_0 : DmaSem sig := 133
abbrev cc21_sem0_1 : DmaSem sig := 134
abbrev cc21_sem1_0 : DmaSem sig := 135
abbrev cc21_sem2_0 : DmaSem sig := 136
abbrev cc21_sem2_1 : DmaSem sig := 137
abbrev cc22_sem0_0 : DmaSem sig := 138
abbrev cc22_sem0_1 : DmaSem sig := 139
abbrev cc22_sem1_0 : DmaSem sig := 140
abbrev cc22_sem2_0 : DmaSem sig := 141
abbrev cc22_sem2_1 : DmaSem sig := 142
abbrev cc23_sem0_0 : DmaSem sig := 143
abbrev cc23_sem0_1 : DmaSem sig := 144
abbrev cc23_sem1_0 : DmaSem sig := 145
abbrev cc23_sem2_0 : DmaSem sig := 146
abbrev cc23_sem2_1 : DmaSem sig := 147
abbrev cc24_sem0_0 : DmaSem sig := 148
abbrev cc24_sem0_1 : DmaSem sig := 149
abbrev cc24_sem1_0 : DmaSem sig := 150
abbrev cc24_sem2_0 : DmaSem sig := 151
abbrev cc24_sem2_1 : DmaSem sig := 152
abbrev cc25_sem0_0 : DmaSem sig := 153
abbrev cc25_sem0_1 : DmaSem sig := 154
abbrev cc25_sem1_0 : DmaSem sig := 155
abbrev cc25_sem1_1 : DmaSem sig := 156
abbrev cc25_sem2_0 : DmaSem sig := 157
abbrev cc25_sem2_1 : DmaSem sig := 158
abbrev cc26_sem0_0 : DmaSem sig := 159
abbrev cc26_sem0_1 : DmaSem sig := 160
abbrev cc26_sem1_0 : DmaSem sig := 161
abbrev cc26_sem1_1 : DmaSem sig := 162
abbrev cc26_sem2_0 : DmaSem sig := 163
abbrev cc26_sem3_0 : DmaSem sig := 164
abbrev cc26_sem3_1 : DmaSem sig := 165
abbrev cc27_sem0_0 : DmaSem sig := 166
abbrev cc27_sem0_1 : DmaSem sig := 167
abbrev cc27_sem1_0 : DmaSem sig := 168
abbrev cc27_sem2_0 : DmaSem sig := 169
abbrev cc27_sem3_0 : DmaSem sig := 170
abbrev cc27_sem3_1 : DmaSem sig := 171
abbrev cc27_sem4_0 : DmaSem sig := 172
abbrev cc27_sem4_1 : DmaSem sig := 173
abbrev cc28_sem0_0 : DmaSem sig := 174
abbrev cc28_sem0_1 : DmaSem sig := 175
abbrev cc28_sem1_0 : DmaSem sig := 176
abbrev cc28_sem2_0 : DmaSem sig := 177
abbrev cc28_sem3_0 : DmaSem sig := 178
abbrev cc28_sem3_1 : DmaSem sig := 179
abbrev cc28_sem4_0 : DmaSem sig := 180
abbrev cc28_sem4_1 : DmaSem sig := 181
abbrev cc28_sem5_0 : DmaSem sig := 182
abbrev cc28_sem5_1 : DmaSem sig := 183
abbrev cc29_sem0_0 : DmaSem sig := 184
abbrev cc29_sem0_1 : DmaSem sig := 185
abbrev cc29_sem1_0 : DmaSem sig := 186
abbrev cc29_sem2_0 : DmaSem sig := 187
abbrev cc29_sem3_0 : DmaSem sig := 188
abbrev cc29_sem3_1 : DmaSem sig := 189
abbrev cc29_sem4_0 : DmaSem sig := 190
abbrev cc29_sem4_1 : DmaSem sig := 191
abbrev cc30_sem0_0 : DmaSem sig := 192
abbrev cc30_sem0_1 : DmaSem sig := 193
abbrev cc30_sem1_0 : DmaSem sig := 194
abbrev cc30_sem2_0 : DmaSem sig := 195
abbrev cc30_sem2_1 : DmaSem sig := 196
abbrev cc31_sem0_0 : DmaSem sig := 197
abbrev cc31_sem0_1 : DmaSem sig := 198
abbrev cc31_sem1_0 : DmaSem sig := 199
abbrev cc31_sem2_0 : DmaSem sig := 200
abbrev cc31_sem2_1 : DmaSem sig := 201
abbrev cc32_sem0_0 : DmaSem sig := 202
abbrev cc32_sem0_1 : DmaSem sig := 203
abbrev cc32_sem1_0 : DmaSem sig := 204
abbrev cc32_sem2_0 : DmaSem sig := 205
abbrev cc32_sem2_1 : DmaSem sig := 206
abbrev cc33_sem0_0 : DmaSem sig := 207
abbrev cc33_sem0_1 : DmaSem sig := 208
abbrev cc33_sem1_0 : DmaSem sig := 209
abbrev cc33_sem2_0 : DmaSem sig := 210
abbrev cc33_sem2_1 : DmaSem sig := 211
abbrev cc34_sem0_0 : DmaSem sig := 212
abbrev cc34_sem0_1 : DmaSem sig := 213
abbrev cc34_sem1_0 : DmaSem sig := 214
abbrev cc34_sem2_0 : DmaSem sig := 215
abbrev cc34_sem2_1 : DmaSem sig := 216
abbrev cc35_sem0_0 : DmaSem sig := 217
abbrev cc35_sem0_1 : DmaSem sig := 218
abbrev cc35_sem1_0 : DmaSem sig := 219
abbrev cc35_sem1_1 : DmaSem sig := 220
abbrev cc35_sem2_0 : DmaSem sig := 221
abbrev cc35_sem2_1 : DmaSem sig := 222
abbrev cc36_sem0_0 : DmaSem sig := 223
abbrev cc36_sem0_1 : DmaSem sig := 224
abbrev cc36_sem1_0 : DmaSem sig := 225
abbrev cc36_sem1_1 : DmaSem sig := 226
abbrev cc36_sem2_0 : DmaSem sig := 227
abbrev cc36_sem3_0 : DmaSem sig := 228
abbrev cc36_sem3_1 : DmaSem sig := 229
abbrev cc37_sem0_0 : DmaSem sig := 230
abbrev cc37_sem0_1 : DmaSem sig := 231
abbrev cc37_sem1_0 : DmaSem sig := 232
abbrev cc37_sem2_0 : DmaSem sig := 233
abbrev cc37_sem3_0 : DmaSem sig := 234
abbrev cc37_sem3_1 : DmaSem sig := 235
abbrev cc37_sem4_0 : DmaSem sig := 236
abbrev cc37_sem4_1 : DmaSem sig := 237
abbrev cc38_sem0_0 : DmaSem sig := 238
abbrev cc38_sem0_1 : DmaSem sig := 239
abbrev cc38_sem1_0 : DmaSem sig := 240
abbrev cc38_sem2_0 : DmaSem sig := 241
abbrev cc38_sem3_0 : DmaSem sig := 242
abbrev cc38_sem3_1 : DmaSem sig := 243
abbrev cc38_sem4_0 : DmaSem sig := 244
abbrev cc38_sem4_1 : DmaSem sig := 245
abbrev cc38_sem5_0 : DmaSem sig := 246
abbrev cc38_sem5_1 : DmaSem sig := 247
abbrev cc39_sem0_0 : DmaSem sig := 248
abbrev cc39_sem0_1 : DmaSem sig := 249
abbrev cc39_sem1_0 : DmaSem sig := 250
abbrev cc39_sem2_0 : DmaSem sig := 251
abbrev cc39_sem3_0 : DmaSem sig := 252
abbrev cc39_sem3_1 : DmaSem sig := 253
abbrev cc39_sem4_0 : DmaSem sig := 254
abbrev cc39_sem4_1 : DmaSem sig := 255
abbrev cc40_sem0_0 : DmaSem sig := 256
abbrev cc40_sem0_1 : DmaSem sig := 257
abbrev cc40_sem1_0 : DmaSem sig := 258
abbrev cc40_sem1_1 : DmaSem sig := 259
abbrev cc40_sem2_0 : DmaSem sig := 260
abbrev cc40_sem3_0 : DmaSem sig := 261
abbrev cc40_sem4_0 : DmaSem sig := 262
abbrev cc40_sem5_0 : DmaSem sig := 263
abbrev cc40_sem5_1 : DmaSem sig := 264
abbrev cc41_sem0_0 : DmaSem sig := 265
abbrev cc41_sem0_1 : DmaSem sig := 266
abbrev cc41_sem1_0 : DmaSem sig := 267
abbrev cc41_sem1_1 : DmaSem sig := 268
abbrev cc41_sem2_0 : DmaSem sig := 269
abbrev cc41_sem3_0 : DmaSem sig := 270
abbrev cc41_sem4_0 : DmaSem sig := 271
abbrev cc41_sem5_0 : DmaSem sig := 272
abbrev cc41_sem5_1 : DmaSem sig := 273
abbrev cc42_sem0_0 : DmaSem sig := 274
abbrev cc42_sem0_1 : DmaSem sig := 275
abbrev cc42_sem1_0 : DmaSem sig := 276
abbrev cc42_sem1_1 : DmaSem sig := 277
abbrev cc42_sem2_0 : DmaSem sig := 278
abbrev cc42_sem3_0 : DmaSem sig := 279
abbrev cc42_sem4_0 : DmaSem sig := 280
abbrev cc42_sem5_0 : DmaSem sig := 281
abbrev cc42_sem5_1 : DmaSem sig := 282

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2048x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![32], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S8x256x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8x128x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8x256x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![16], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S16x64x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S16x256x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S16x64x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2048x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2048x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S2048x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![32], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2048x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2048x256 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S2048x256 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S2048x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2048x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S256x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2048x256 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S2048x256 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![16], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2048x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S256x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S2048x256 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![32], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2048x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S256x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S2048x256 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![32], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2048x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S256x256 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S2048x256 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![8], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2048x256 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S256x256 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S2048x256 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![16], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2048x256 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S256x256 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S2048x256 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![32], ![false]⟩

def cc15_transform_0 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc15_transform_1 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc15_transform_2 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S8x256x128 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S8x128x256 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S8x256x256 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![16], ![false]⟩

def cc16_transform_0 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc16_transform_1 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage16_0 : Fin 2 → Memref sig .tc .vmem S16x64x256 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S16x256x256 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S256x256 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S16x64x256 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev grid17 : Pipeline.Grid := ⟨1, ![16], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_4 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S2048x256 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S256x256 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x256 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S2048x256 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev stage17_4 : Fin 2 → Memref sig .tc .vmem S2048x256 .f32 := fun | 0 => Memref.whole cc17_stg4_0 | 1 => Memref.whole cc17_stg4_1 | ⟨_ + 2, h⟩ => absurd h (Nat.not_lt.2 (Nat.le_add_left _ _))
abbrev sem17_4 : Fin 2 → DmaSem sig := fun | 0 => cc17_sem4_0 | 1 => cc17_sem4_1 | ⟨_ + 2, h⟩ => absurd h (Nat.not_lt.2 (Nat.le_add_left _ _))
abbrev reads17_4 : Fin grid17.rank → Bool := ![true]

abbrev grid18 : Pipeline.Grid := ⟨1, ![32], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_4 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S2048x256 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S256x256 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x256 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 2 → Memref sig .tc .vmem S2048x256 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

abbrev stage18_4 : Fin 2 → Memref sig .tc .vmem S2048x256 .f32 := fun | 0 => Memref.whole cc18_stg4_0 | 1 => Memref.whole cc18_stg4_1 | ⟨_ + 2, h⟩ => absurd h (Nat.not_lt.2 (Nat.le_add_left _ _))
abbrev sem18_4 : Fin 2 → DmaSem sig := fun | 0 => cc18_sem4_0 | 1 => cc18_sem4_1 | ⟨_ + 2, h⟩ => absurd h (Nat.not_lt.2 (Nat.le_add_left _ _))
abbrev reads18_4 : Fin grid18.rank → Bool := ![true]

abbrev stage18_5 : Fin 2 → Memref sig .tc .vmem S2048x256 .f32 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true]

abbrev grid19 : Pipeline.Grid := ⟨1, ![8], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_4 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S2048x256 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S256x256 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x256 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 2 → Memref sig .tc .vmem S2048x256 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true]

abbrev stage19_4 : Fin 2 → Memref sig .tc .vmem S2048x256 .f32 := fun | 0 => Memref.whole cc19_stg4_0 | 1 => Memref.whole cc19_stg4_1 | ⟨_ + 2, h⟩ => absurd h (Nat.not_lt.2 (Nat.le_add_left _ _))
abbrev sem19_4 : Fin 2 → DmaSem sig := fun | 0 => cc19_sem4_0 | 1 => cc19_sem4_1 | ⟨_ + 2, h⟩ => absurd h (Nat.not_lt.2 (Nat.le_add_left _ _))
abbrev reads19_4 : Fin grid19.rank → Bool := ![true]

abbrev grid20 : Pipeline.Grid := ⟨1, ![16], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S2048x256 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S256x256 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 2 → Memref sig .tc .vmem S2048x256 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev grid21 : Pipeline.Grid := ⟨1, ![32], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S2048x256 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S256x256 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 2 → Memref sig .tc .vmem S2048x256 .f32 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true]

abbrev grid22 : Pipeline.Grid := ⟨1, ![32], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S2048x256 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S256x256 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 2 → Memref sig .tc .vmem S2048x256 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

abbrev grid23 : Pipeline.Grid := ⟨1, ![8], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S2048x256 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 1 → Memref sig .tc .vmem S256x256 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 2 → Memref sig .tc .vmem S2048x256 .f32 := fun | 0 => Memref.whole cc23_stg2_0 | 1 => Memref.whole cc23_stg2_1 | ⟨_ + 2, h⟩ => absurd h (Nat.not_lt.2 (Nat.le_add_left _ _))
abbrev sem23_2 : Fin 2 → DmaSem sig := fun | 0 => cc23_sem2_0 | 1 => cc23_sem2_1 | ⟨_ + 2, h⟩ => absurd h (Nat.not_lt.2 (Nat.le_add_left _ _))
abbrev reads23_2 : Fin grid23.rank → Bool := ![true]

abbrev grid24 : Pipeline.Grid := ⟨1, ![16], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_2 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 2 → Memref sig .tc .vmem S2048x256 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 1 → Memref sig .tc .vmem S256x256 .f32 := fun | 0 => Memref.whole cc24_stg1_0 | ⟨_ + 1, h⟩ => absurd h (Nat.not_lt.2 (Nat.le_add_left _ _))
abbrev sem24_1 : Fin 1 → DmaSem sig := fun | 0 => cc24_sem1_0 | ⟨_ + 1, h⟩ => absurd h (Nat.not_lt.2 (Nat.le_add_left _ _))
abbrev reads24_1 : Fin grid24.rank → Bool := ![false]

abbrev stage24_2 : Fin 2 → Memref sig .tc .vmem S2048x256 .f32 := fun | 0 => Memref.whole cc24_stg2_0 | 1 => Memref.whole cc24_stg2_1 | ⟨_ + 2, h⟩ => absurd h (Nat.not_lt.2 (Nat.le_add_left _ _))
abbrev sem24_2 : Fin 2 → DmaSem sig := fun | 0 => cc24_sem2_0 | 1 => cc24_sem2_1 | ⟨_ + 2, h⟩ => absurd h (Nat.not_lt.2 (Nat.le_add_left _ _))
abbrev reads24_2 : Fin grid24.rank → Bool := ![true]

abbrev grid25 : Pipeline.Grid := ⟨1, ![32], ![false]⟩

def cc25_transform_0 (i : grid25.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc25_transform_1 (i : grid25.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc25_transform_2 (i : grid25.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage25_0 : Fin 2 → Memref sig .tc .vmem S8x256x128 .bf16 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 2 → Memref sig .tc .vmem S8x128x256 .f32 := fun | 0 => Memref.whole cc25_stg1_0 | 1 => Memref.whole cc25_stg1_1 | ⟨_ + 2, h⟩ => absurd h (Nat.not_lt.2 (Nat.le_add_left _ _))
abbrev sem25_1 : Fin 2 → DmaSem sig := fun | 0 => cc25_sem1_0 | 1 => cc25_sem1_1 | ⟨_ + 2, h⟩ => absurd h (Nat.not_lt.2 (Nat.le_add_left _ _))
abbrev reads25_1 : Fin grid25.rank → Bool := ![true]

abbrev stage25_2 : Fin 2 → Memref sig .tc .vmem S8x256x256 .f32 := fun | 0 => Memref.whole cc25_stg2_0 | 1 => Memref.whole cc25_stg2_1 | ⟨_ + 2, h⟩ => absurd h (Nat.not_lt.2 (Nat.le_add_left _ _))
abbrev sem25_2 : Fin 2 → DmaSem sig := fun | 0 => cc25_sem2_0 | 1 => cc25_sem2_1 | ⟨_ + 2, h⟩ => absurd h (Nat.not_lt.2 (Nat.le_add_left _ _))
abbrev reads25_2 : Fin grid25.rank → Bool := ![true]

abbrev grid26 : Pipeline.Grid := ⟨1, ![16], ![false]⟩

def cc26_transform_0 (i : grid26.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc26_transform_1 (i : grid26.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc26_transform_2 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_3 (i : grid26.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage26_0 : Fin 2 → Memref sig .tc .vmem S16x64x256 .bf16 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 2 → Memref sig .tc .vmem S16x256x256 .f32 := fun | 0 => Memref.whole cc26_stg1_0 | 1 => Memref.whole cc26_stg1_1 | ⟨_ + 2, h⟩ => absurd h (Nat.not_lt.2 (Nat.le_add_left _ _))
abbrev sem26_1 : Fin 2 → DmaSem sig := fun | 0 => cc26_sem1_0 | 1 => cc26_sem1_1 | ⟨_ + 2, h⟩ => absurd h (Nat.not_lt.2 (Nat.le_add_left _ _))
abbrev reads26_1 : Fin grid26.rank → Bool := ![true]

abbrev stage26_2 : Fin 1 → Memref sig .tc .vmem S256x256 .f32 := fun | 0 => Memref.whole cc26_stg2_0 | ⟨_ + 1, h⟩ => absurd h (Nat.not_lt.2 (Nat.le_add_left _ _))
abbrev sem26_2 : Fin 1 → DmaSem sig := fun | 0 => cc26_sem2_0 | ⟨_ + 1, h⟩ => absurd h (Nat.not_lt.2 (Nat.le_add_left _ _))
abbrev reads26_2 : Fin grid26.rank → Bool := ![false]

abbrev stage26_3 : Fin 2 → Memref sig .tc .vmem S16x64x256 .f32 := fun | 0 => Memref.whole cc26_stg3_0 | 1 => Memref.whole cc26_stg3_1 | ⟨_ + 2, h⟩ => absurd h (Nat.not_lt.2 (Nat.le_add_left _ _))
abbrev sem26_3 : Fin 2 → DmaSem sig := fun | 0 => cc26_sem3_0 | 1 => cc26_sem3_1 | ⟨_ + 2, h⟩ => absurd h (Nat.not_lt.2 (Nat.le_add_left _ _))
abbrev reads26_3 : Fin grid26.rank → Bool := ![true]

abbrev grid27 : Pipeline.Grid := ⟨1, ![16], ![false]⟩

def cc27_transform_0 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_1 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_2 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_3 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_4 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage27_0 : Fin 2 → Memref sig .tc .vmem S2048x256 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true]

abbrev stage27_1 : Fin 1 → Memref sig .tc .vmem S256x256 .f32 := fun | 0 => Memref.whole cc27_stg1_0 | ⟨_ + 1, h⟩ => absurd h (Nat.not_lt.2 (Nat.le_add_left _ _))
abbrev sem27_1 : Fin 1 → DmaSem sig := fun | 0 => cc27_sem1_0 | ⟨_ + 1, h⟩ => absurd h (Nat.not_lt.2 (Nat.le_add_left _ _))
abbrev reads27_1 : Fin grid27.rank → Bool := ![false]

abbrev stage27_2 : Fin 1 → Memref sig .tc .vmem S1x256 .f32 := fun | 0 => Memref.whole cc27_stg2_0 | ⟨_ + 1, h⟩ => absurd h (Nat.not_lt.2 (Nat.le_add_left _ _))
abbrev sem27_2 : Fin 1 → DmaSem sig := fun | 0 => cc27_sem2_0 | ⟨_ + 1, h⟩ => absurd h (Nat.not_lt.2 (Nat.le_add_left _ _))
abbrev reads27_2 : Fin grid27.rank → Bool := ![false]

abbrev stage27_3 : Fin 2 → Memref sig .tc .vmem S2048x256 .f32 := fun | 0 => Memref.whole cc27_stg3_0 | 1 => Memref.whole cc27_stg3_1 | ⟨_ + 2, h⟩ => absurd h (Nat.not_lt.2 (Nat.le_add_left _ _))
abbrev sem27_3 : Fin 2 → DmaSem sig := fun | 0 => cc27_sem3_0 | 1 => cc27_sem3_1 | ⟨_ + 2, h⟩ => absurd h (Nat.not_lt.2 (Nat.le_add_left _ _))
abbrev reads27_3 : Fin grid27.rank → Bool := ![true]

abbrev stage27_4 : Fin 2 → Memref sig .tc .vmem S2048x256 .f32 := fun | 0 => Memref.whole cc27_stg4_0 | 1 => Memref.whole cc27_stg4_1 | ⟨_ + 2, h⟩ => absurd h (Nat.not_lt.2 (Nat.le_add_left _ _))
abbrev sem27_4 : Fin 2 → DmaSem sig := fun | 0 => cc27_sem4_0 | 1 => cc27_sem4_1 | ⟨_ + 2, h⟩ => absurd h (Nat.not_lt.2 (Nat.le_add_left _ _))
abbrev reads27_4 : Fin grid27.rank → Bool := ![true]

abbrev grid28 : Pipeline.Grid := ⟨1, ![32], ![false]⟩

def cc28_transform_0 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_1 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_2 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_3 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_4 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_5 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage28_0 : Fin 2 → Memref sig .tc .vmem S2048x256 .f32 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true]

abbrev stage28_1 : Fin 1 → Memref sig .tc .vmem S256x256 .f32 := fun | 0 => Memref.whole cc28_stg1_0 | ⟨_ + 1, h⟩ => absurd h (Nat.not_lt.2 (Nat.le_add_left _ _))
abbrev sem28_1 : Fin 1 → DmaSem sig := fun | 0 => cc28_sem1_0 | ⟨_ + 1, h⟩ => absurd h (Nat.not_lt.2 (Nat.le_add_left _ _))
abbrev reads28_1 : Fin grid28.rank → Bool := ![false]

abbrev stage28_2 : Fin 1 → Memref sig .tc .vmem S1x256 .f32 := fun | 0 => Memref.whole cc28_stg2_0 | ⟨_ + 1, h⟩ => absurd h (Nat.not_lt.2 (Nat.le_add_left _ _))
abbrev sem28_2 : Fin 1 → DmaSem sig := fun | 0 => cc28_sem2_0 | ⟨_ + 1, h⟩ => absurd h (Nat.not_lt.2 (Nat.le_add_left _ _))
abbrev reads28_2 : Fin grid28.rank → Bool := ![false]

abbrev stage28_3 : Fin 2 → Memref sig .tc .vmem S2048x256 .f32 := fun | 0 => Memref.whole cc28_stg3_0 | 1 => Memref.whole cc28_stg3_1 | ⟨_ + 2, h⟩ => absurd h (Nat.not_lt.2 (Nat.le_add_left _ _))
abbrev sem28_3 : Fin 2 → DmaSem sig := fun | 0 => cc28_sem3_0 | 1 => cc28_sem3_1 | ⟨_ + 2, h⟩ => absurd h (Nat.not_lt.2 (Nat.le_add_left _ _))
abbrev reads28_3 : Fin grid28.rank → Bool := ![true]

abbrev stage28_4 : Fin 2 → Memref sig .tc .vmem S2048x256 .f32 := fun | 0 => Memref.whole cc28_stg4_0 | 1 => Memref.whole cc28_stg4_1 | ⟨_ + 2, h⟩ => absurd h (Nat.not_lt.2 (Nat.le_add_left _ _))
abbrev sem28_4 : Fin 2 → DmaSem sig := fun | 0 => cc28_sem4_0 | 1 => cc28_sem4_1 | ⟨_ + 2, h⟩ => absurd h (Nat.not_lt.2 (Nat.le_add_left _ _))
abbrev reads28_4 : Fin grid28.rank → Bool := ![true]

abbrev stage28_5 : Fin 2 → Memref sig .tc .vmem S2048x256 .f32 := fun | 0 => Memref.whole cc28_stg5_0 | 1 => Memref.whole cc28_stg5_1 | ⟨_ + 2, h⟩ => absurd h (Nat.not_lt.2 (Nat.le_add_left _ _))
abbrev sem28_5 : Fin 2 → DmaSem sig := fun | 0 => cc28_sem5_0 | 1 => cc28_sem5_1 | ⟨_ + 2, h⟩ => absurd h (Nat.not_lt.2 (Nat.le_add_left _ _))
abbrev reads28_5 : Fin grid28.rank → Bool := ![true]

abbrev grid29 : Pipeline.Grid := ⟨1, ![8], ![false]⟩

def cc29_transform_0 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

def cc29_transform_1 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_2 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_3 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

def cc29_transform_4 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage29_0 : Fin 2 → Memref sig .tc .vmem S2048x256 .f32 := fun | 0 => Memref.whole cc29_stg0_0 | 1 => Memref.whole cc29_stg0_1 | ⟨_ + 2, h⟩ => absurd h (Nat.not_lt.2 (Nat.le_add_left _ _))
abbrev sem29_0 : Fin 2 → DmaSem sig := fun | 0 => cc29_sem0_0 | 1 => cc29_sem0_1 | ⟨_ + 2, h⟩ => absurd h (Nat.not_lt.2 (Nat.le_add_left _ _))
abbrev reads29_0 : Fin grid29.rank → Bool := ![true]

abbrev stage29_1 : Fin 1 → Memref sig .tc .vmem S256x256 .f32 := fun | 0 => Memref.whole cc29_stg1_0 | ⟨_ + 1, h⟩ => absurd h (Nat.not_lt.2 (Nat.le_add_left _ _))
abbrev sem29_1 : Fin 1 → DmaSem sig := fun | 0 => cc29_sem1_0 | ⟨_ + 1, h⟩ => absurd h (Nat.not_lt.2 (Nat.le_add_left _ _))
abbrev reads29_1 : Fin grid29.rank → Bool := ![false]

abbrev stage29_2 : Fin 1 → Memref sig .tc .vmem S1x256 .f32 := fun | 0 => Memref.whole cc29_stg2_0 | ⟨_ + 1, h⟩ => absurd h (Nat.not_lt.2 (Nat.le_add_left _ _))
abbrev sem29_2 : Fin 1 → DmaSem sig := fun | 0 => cc29_sem2_0 | ⟨_ + 1, h⟩ => absurd h (Nat.not_lt.2 (Nat.le_add_left _ _))
abbrev reads29_2 : Fin grid29.rank → Bool := ![false]

abbrev stage29_3 : Fin 2 → Memref sig .tc .vmem S2048x256 .f32 := fun | 0 => Memref.whole cc29_stg3_0 | 1 => Memref.whole cc29_stg3_1 | ⟨_ + 2, h⟩ => absurd h (Nat.not_lt.2 (Nat.le_add_left _ _))
abbrev sem29_3 : Fin 2 → DmaSem sig := fun | 0 => cc29_sem3_0 | 1 => cc29_sem3_1 | ⟨_ + 2, h⟩ => absurd h (Nat.not_lt.2 (Nat.le_add_left _ _))
abbrev reads29_3 : Fin grid29.rank → Bool := ![true]

abbrev stage29_4 : Fin 2 → Memref sig .tc .vmem S2048x256 .f32 := fun | 0 => Memref.whole cc29_stg4_0 | 1 => Memref.whole cc29_stg4_1 | ⟨_ + 2, h⟩ => absurd h (Nat.not_lt.2 (Nat.le_add_left _ _))
abbrev sem29_4 : Fin 2 → DmaSem sig := fun | 0 => cc29_sem4_0 | 1 => cc29_sem4_1 | ⟨_ + 2, h⟩ => absurd h (Nat.not_lt.2 (Nat.le_add_left _ _))
abbrev reads29_4 : Fin grid29.rank → Bool := ![true]

abbrev grid30 : Pipeline.Grid := ⟨1, ![16], ![false]⟩

def cc30_transform_0 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

def cc30_transform_1 (i : grid30.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc30_transform_2 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage30_0 : Fin 2 → Memref sig .tc .vmem S2048x256 .f32 := fun | 0 => Memref.whole cc30_stg0_0 | 1 => Memref.whole cc30_stg0_1 | ⟨_ + 2, h⟩ => absurd h (Nat.not_lt.2 (Nat.le_add_left _ _))
abbrev sem30_0 : Fin 2 → DmaSem sig := fun | 0 => cc30_sem0_0 | 1 => cc30_sem0_1 | ⟨_ + 2, h⟩ => absurd h (Nat.not_lt.2 (Nat.le_add_left _ _))
abbrev reads30_0 : Fin grid30.rank → Bool := ![true]

abbrev stage30_1 : Fin 1 → Memref sig .tc .vmem S256x256 .f32 := fun | 0 => Memref.whole cc30_stg1_0 | ⟨_ + 1, h⟩ => absurd h (Nat.not_lt.2 (Nat.le_add_left _ _))
abbrev sem30_1 : Fin 1 → DmaSem sig := fun | 0 => cc30_sem1_0 | ⟨_ + 1, h⟩ => absurd h (Nat.not_lt.2 (Nat.le_add_left _ _))
abbrev reads30_1 : Fin grid30.rank → Bool := ![false]

abbrev stage30_2 : Fin 2 → Memref sig .tc .vmem S2048x256 .f32 := fun | 0 => Memref.whole cc30_stg2_0 | 1 => Memref.whole cc30_stg2_1 | ⟨_ + 2, h⟩ => absurd h (Nat.not_lt.2 (Nat.le_add_left _ _))
abbrev sem30_2 : Fin 2 → DmaSem sig := fun | 0 => cc30_sem2_0 | 1 => cc30_sem2_1 | ⟨_ + 2, h⟩ => absurd h (Nat.not_lt.2 (Nat.le_add_left _ _))
abbrev reads30_2 : Fin grid30.rank → Bool := ![true]

abbrev grid31 : Pipeline.Grid := ⟨1, ![32], ![false]⟩

def cc31_transform_0 (i : grid31.Coords) : Fin 2 → Nat :=
  let arg0 : BitVec 32 := BitVec.ofNat 32 (i 0).val
  let c0_i32 : BitVec 32 := 0#32
  let c0_i32_0 : BitVec 32 := 0#32
  ![arg0.toNat, c0_i32.toNat]

def cc31_transform_1 (i : grid31.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc31_transform_2 (i : grid31.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage31_0 : Fin 2 → Memref sig .tc .vmem S2048x256 .f32 := fun | 0 => Memref.whole cc31_stg0_0 | 1 => Memref.whole cc31_stg0_1 | ⟨_ + 2, h⟩ => absurd h (Nat.not_lt.2 (Nat.le_add_left _ _))
abbrev sem31_0 : Fin 2 → DmaSem sig := fun | 0 => cc31_sem0_0 | 1 => cc31_sem0_1 | ⟨_ + 2, h⟩ => absurd h (Nat.not_lt.2 (Nat.le_add_left _ _))
abbrev reads31_0 : Fin grid31.rank → Bool := ![true]

abbrev stage31_1 : Fin 1 → Memref sig .tc .vmem S256x256 .f32 := fun | 0 => Memref.whole cc31_stg1_0 | ⟨_ + 1, h⟩ => absurd h (Nat.not_lt.2 (Nat.le_add_left _ _))
abbrev sem31_1 : Fin 1 → DmaSem sig := fun | 0 => cc31_sem1_0 | ⟨_ + 1, h⟩ => absurd h (Nat.not_lt.2 (Nat.le_add_left _ _))
abbrev reads31_1 : Fin grid31.rank → Bool := ![false]

abbrev stage31_2 : Fin 2 → Memref sig .tc .vmem S2048x256 .f32 := fun | 0 => Memref.whole cc31_stg2_0 | 1 => Memref.whole cc31_stg2_1 | ⟨_ + 2, h⟩ => absurd h (Nat.not_lt.2 (Nat.le_add_left _ _))
abbrev sem31_2 : Fin 2 → DmaSem sig := fun | 0 => cc31_sem2_0 | 1 => cc31_sem2_1 | ⟨_ + 2, h⟩ => absurd h (Nat.not_lt.2 (Nat.le_add_left _ _))
abbrev reads31_2 : Fin grid31.rank → Bool := ![true]

abbrev grid32 : Pipeline.Grid := ⟨1, ![32], ![false]⟩

def cc32_transform_0 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

def cc32_transform_1 (i : grid32.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc32_transform_2 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage32_0 : Fin 2 → Memref sig .tc .vmem S2048x256 .f32 := fun | 0 => Memref.whole cc32_stg0_0 | 1 => Memref.whole cc32_stg0_1 | ⟨_ + 2, h⟩ => absurd h (Nat.not_lt.2 (Nat.le_add_left _ _))
abbrev sem32_0 : Fin 2 → DmaSem sig := fun | 0 => cc32_sem0_0 | 1 => cc32_sem0_1 | ⟨_ + 2, h⟩ => absurd h (Nat.not_lt.2 (Nat.le_add_left _ _))
abbrev reads32_0 : Fin grid32.rank → Bool := ![true]

abbrev stage32_1 : Fin 1 → Memref sig .tc .vmem S256x256 .f32 := fun | 0 => Memref.whole cc32_stg1_0 | ⟨_ + 1, h⟩ => absurd h (Nat.not_lt.2 (Nat.le_add_left _ _))
abbrev sem32_1 : Fin 1 → DmaSem sig := fun | 0 => cc32_sem1_0 | ⟨_ + 1, h⟩ => absurd h (Nat.not_lt.2 (Nat.le_add_left _ _))
abbrev reads32_1 : Fin grid32.rank → Bool := ![false]

abbrev stage32_2 : Fin 2 → Memref sig .tc .vmem S2048x256 .f32 := fun | 0 => Memref.whole cc32_stg2_0 | 1 => Memref.whole cc32_stg2_1 | ⟨_ + 2, h⟩ => absurd h (Nat.not_lt.2 (Nat.le_add_left _ _))
abbrev sem32_2 : Fin 2 → DmaSem sig := fun | 0 => cc32_sem2_0 | 1 => cc32_sem2_1 | ⟨_ + 2, h⟩ => absurd h (Nat.not_lt.2 (Nat.le_add_left _ _))
abbrev reads32_2 : Fin grid32.rank → Bool := ![true]

abbrev grid33 : Pipeline.Grid := ⟨1, ![8], ![false]⟩

def cc33_transform_0 (i : grid33.Coords) : Fin 2 → Nat :=
  let arg0 : BitVec 32 := BitVec.ofNat 32 (i 0).val
  let c0_i32 : BitVec 32 := 0#32
  let c0_i32_0 : BitVec 32 := 0#32
  ![arg0.toNat, c0_i32.toNat]

def cc33_transform_1 (i : grid33.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc33_transform_2 (i : grid33.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage33_0 : Fin 2 → Memref sig .tc .vmem S2048x256 .f32 := fun | 0 => Memref.whole cc33_stg0_0 | 1 => Memref.whole cc33_stg0_1 | ⟨_ + 2, h⟩ => absurd h (Nat.not_lt.2 (Nat.le_add_left _ _))
abbrev sem33_0 : Fin 2 → DmaSem sig := fun | 0 => cc33_sem0_0 | 1 => cc33_sem0_1 | ⟨_ + 2, h⟩ => absurd h (Nat.not_lt.2 (Nat.le_add_left _ _))
abbrev reads33_0 : Fin grid33.rank → Bool := ![true]

abbrev stage33_1 : Fin 1 → Memref sig .tc .vmem S256x256 .f32 := fun | 0 => Memref.whole cc33_stg1_0 | ⟨_ + 1, h⟩ => absurd h (Nat.not_lt.2 (Nat.le_add_left _ _))
abbrev sem33_1 : Fin 1 → DmaSem sig := fun | 0 => cc33_sem1_0 | ⟨_ + 1, h⟩ => absurd h (Nat.not_lt.2 (Nat.le_add_left _ _))
abbrev reads33_1 : Fin grid33.rank → Bool := ![false]

abbrev stage33_2 : Fin 2 → Memref sig .tc .vmem S2048x256 .f32 := fun | 0 => Memref.whole cc33_stg2_0 | 1 => Memref.whole cc33_stg2_1 | ⟨_ + 2, h⟩ => absurd h (Nat.not_lt.2 (Nat.le_add_left _ _))
abbrev sem33_2 : Fin 2 → DmaSem sig := fun | 0 => cc33_sem2_0 | 1 => cc33_sem2_1 | ⟨_ + 2, h⟩ => absurd h (Nat.not_lt.2 (Nat.le_add_left _ _))
abbrev reads33_2 : Fin grid33.rank → Bool := ![true]

abbrev grid34 : Pipeline.Grid := ⟨1, ![16], ![false]⟩

def cc34_transform_0 (i : grid34.Coords) : Fin 2 → Nat :=
  let arg0 : BitVec 32 := BitVec.ofNat 32 (i 0).val
  let c0_i32 : BitVec 32 := 0#32
  let c0_i32_0 : BitVec 32 := 0#32
  ![arg0.toNat, c0_i32.toNat]

def cc34_transform_1 (i : grid34.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc34_transform_2 (i : grid34.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage34_0 : Fin 2 → Memref sig .tc .vmem S2048x256 .f32 := fun | 0 => Memref.whole cc34_stg0_0 | 1 => Memref.whole cc34_stg0_1 | ⟨_ + 2, h⟩ => absurd h (Nat.not_lt.2 (Nat.le_add_left _ _))
abbrev sem34_0 : Fin 2 → DmaSem sig := fun | 0 => cc34_sem0_0 | 1 => cc34_sem0_1 | ⟨_ + 2, h⟩ => absurd h (Nat.not_lt.2 (Nat.le_add_left _ _))
abbrev reads34_0 : Fin grid34.rank → Bool := ![true]

abbrev stage34_1 : Fin 1 → Memref sig .tc .vmem S256x256 .f32 := fun | 0 => Memref.whole cc34_stg1_0 | ⟨_ + 1, h⟩ => absurd h (Nat.not_lt.2 (Nat.le_add_left _ _))
abbrev sem34_1 : Fin 1 → DmaSem sig := fun | 0 => cc34_sem1_0 | ⟨_ + 1, h⟩ => absurd h (Nat.not_lt.2 (Nat.le_add_left _ _))
abbrev reads34_1 : Fin grid34.rank → Bool := ![false]

abbrev stage34_2 : Fin 2 → Memref sig .tc .vmem S2048x256 .f32 := fun | 0 => Memref.whole cc34_stg2_0 | 1 => Memref.whole cc34_stg2_1 | ⟨_ + 2, h⟩ => absurd h (Nat.not_lt.2 (Nat.le_add_left _ _))
abbrev sem34_2 : Fin 2 → DmaSem sig := fun | 0 => cc34_sem2_0 | 1 => cc34_sem2_1 | ⟨_ + 2, h⟩ => absurd h (Nat.not_lt.2 (Nat.le_add_left _ _))
abbrev reads34_2 : Fin grid34.rank → Bool := ![true]

abbrev grid35 : Pipeline.Grid := ⟨1, ![32], ![false]⟩

def cc35_transform_0 (i : grid35.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc35_transform_1 (i : grid35.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc35_transform_2 (i : grid35.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage35_0 : Fin 2 → Memref sig .tc .vmem S8x256x128 .bf16 := fun | 0 => Memref.whole cc35_stg0_0 | 1 => Memref.whole cc35_stg0_1 | ⟨_ + 2, h⟩ => absurd h (Nat.not_lt.2 (Nat.le_add_left _ _))
abbrev sem35_0 : Fin 2 → DmaSem sig := fun | 0 => cc35_sem0_0 | 1 => cc35_sem0_1 | ⟨_ + 2, h⟩ => absurd h (Nat.not_lt.2 (Nat.le_add_left _ _))
abbrev reads35_0 : Fin grid35.rank → Bool := ![true]

abbrev stage35_1 : Fin 2 → Memref sig .tc .vmem S8x128x256 .f32 := fun | 0 => Memref.whole cc35_stg1_0 | 1 => Memref.whole cc35_stg1_1 | ⟨_ + 2, h⟩ => absurd h (Nat.not_lt.2 (Nat.le_add_left _ _))
abbrev sem35_1 : Fin 2 → DmaSem sig := fun | 0 => cc35_sem1_0 | 1 => cc35_sem1_1 | ⟨_ + 2, h⟩ => absurd h (Nat.not_lt.2 (Nat.le_add_left _ _))
abbrev reads35_1 : Fin grid35.rank → Bool := ![true]

abbrev stage35_2 : Fin 2 → Memref sig .tc .vmem S8x256x256 .f32 := fun | 0 => Memref.whole cc35_stg2_0 | 1 => Memref.whole cc35_stg2_1 | ⟨_ + 2, h⟩ => absurd h (Nat.not_lt.2 (Nat.le_add_left _ _))
abbrev sem35_2 : Fin 2 → DmaSem sig := fun | 0 => cc35_sem2_0 | 1 => cc35_sem2_1 | ⟨_ + 2, h⟩ => absurd h (Nat.not_lt.2 (Nat.le_add_left _ _))
abbrev reads35_2 : Fin grid35.rank → Bool := ![true]

abbrev grid36 : Pipeline.Grid := ⟨1, ![16], ![false]⟩

def cc36_transform_0 (i : grid36.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc36_transform_1 (i : grid36.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc36_transform_2 (i : grid36.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc36_transform_3 (i : grid36.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage36_0 : Fin 2 → Memref sig .tc .vmem S16x64x256 .bf16 := fun | 0 => Memref.whole cc36_stg0_0 | 1 => Memref.whole cc36_stg0_1 | ⟨_ + 2, h⟩ => absurd h (Nat.not_lt.2 (Nat.le_add_left _ _))
abbrev sem36_0 : Fin 2 → DmaSem sig := fun | 0 => cc36_sem0_0 | 1 => cc36_sem0_1 | ⟨_ + 2, h⟩ => absurd h (Nat.not_lt.2 (Nat.le_add_left _ _))
abbrev reads36_0 : Fin grid36.rank → Bool := ![true]

abbrev stage36_1 : Fin 2 → Memref sig .tc .vmem S16x256x256 .f32 := fun | 0 => Memref.whole cc36_stg1_0 | 1 => Memref.whole cc36_stg1_1 | ⟨_ + 2, h⟩ => absurd h (Nat.not_lt.2 (Nat.le_add_left _ _))
abbrev sem36_1 : Fin 2 → DmaSem sig := fun | 0 => cc36_sem1_0 | 1 => cc36_sem1_1 | ⟨_ + 2, h⟩ => absurd h (Nat.not_lt.2 (Nat.le_add_left _ _))
abbrev reads36_1 : Fin grid36.rank → Bool := ![true]

abbrev stage36_2 : Fin 1 → Memref sig .tc .vmem S256x256 .f32 := fun | 0 => Memref.whole cc36_stg2_0 | ⟨_ + 1, h⟩ => absurd h (Nat.not_lt.2 (Nat.le_add_left _ _))
abbrev sem36_2 : Fin 1 → DmaSem sig := fun | 0 => cc36_sem2_0 | ⟨_ + 1, h⟩ => absurd h (Nat.not_lt.2 (Nat.le_add_left _ _))
abbrev reads36_2 : Fin grid36.rank → Bool := ![false]

abbrev stage36_3 : Fin 2 → Memref sig .tc .vmem S16x64x256 .f32 := fun | 0 => Memref.whole cc36_stg3_0 | 1 => Memref.whole cc36_stg3_1 | ⟨_ + 2, h⟩ => absurd h (Nat.not_lt.2 (Nat.le_add_left _ _))
abbrev sem36_3 : Fin 2 → DmaSem sig := fun | 0 => cc36_sem3_0 | 1 => cc36_sem3_1 | ⟨_ + 2, h⟩ => absurd h (Nat.not_lt.2 (Nat.le_add_left _ _))
abbrev reads36_3 : Fin grid36.rank → Bool := ![true]

abbrev grid37 : Pipeline.Grid := ⟨1, ![16], ![false]⟩

def cc37_transform_0 (i : grid37.Coords) : Fin 2 → Nat :=
  let arg0 : BitVec 32 := BitVec.ofNat 32 (i 0).val
  let c0_i32 : BitVec 32 := 0#32
  let c0_i32_0 : BitVec 32 := 0#32
  ![arg0.toNat, c0_i32.toNat]

def cc37_transform_1 (i : grid37.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc37_transform_2 (i : grid37.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc37_transform_3 (i : grid37.Coords) : Fin 2 → Nat :=
  let arg0 : BitVec 32 := BitVec.ofNat 32 (i 0).val
  let c0_i32 : BitVec 32 := 0#32
  let c0_i32_0 : BitVec 32 := 0#32
  ![arg0.toNat, c0_i32.toNat]

def cc37_transform_4 (i : grid37.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage37_0 : Fin 2 → Memref sig .tc .vmem S2048x256 .f32 := fun | 0 => Memref.whole cc37_stg0_0 | 1 => Memref.whole cc37_stg0_1 | ⟨_ + 2, h⟩ => absurd h (Nat.not_lt.2 (Nat.le_add_left _ _))
abbrev sem37_0 : Fin 2 → DmaSem sig := fun | 0 => cc37_sem0_0 | 1 => cc37_sem0_1 | ⟨_ + 2, h⟩ => absurd h (Nat.not_lt.2 (Nat.le_add_left _ _))
abbrev reads37_0 : Fin grid37.rank → Bool := ![true]

abbrev stage37_1 : Fin 1 → Memref sig .tc .vmem S256x256 .f32 := fun | 0 => Memref.whole cc37_stg1_0 | ⟨_ + 1, h⟩ => absurd h (Nat.not_lt.2 (Nat.le_add_left _ _))
abbrev sem37_1 : Fin 1 → DmaSem sig := fun | 0 => cc37_sem1_0 | ⟨_ + 1, h⟩ => absurd h (Nat.not_lt.2 (Nat.le_add_left _ _))
abbrev reads37_1 : Fin grid37.rank → Bool := ![false]

abbrev stage37_2 : Fin 1 → Memref sig .tc .vmem S1x256 .f32 := fun | 0 => Memref.whole cc37_stg2_0 | ⟨_ + 1, h⟩ => absurd h (Nat.not_lt.2 (Nat.le_add_left _ _))
abbrev sem37_2 : Fin 1 → DmaSem sig := fun | 0 => cc37_sem2_0 | ⟨_ + 1, h⟩ => absurd h (Nat.not_lt.2 (Nat.le_add_left _ _))
abbrev reads37_2 : Fin grid37.rank → Bool := ![false]

abbrev stage37_3 : Fin 2 → Memref sig .tc .vmem S2048x256 .f32 := fun | 0 => Memref.whole cc37_stg3_0 | 1 => Memref.whole cc37_stg3_1 | ⟨_ + 2, h⟩ => absurd h (Nat.not_lt.2 (Nat.le_add_left _ _))
abbrev sem37_3 : Fin 2 → DmaSem sig := fun | 0 => cc37_sem3_0 | 1 => cc37_sem3_1 | ⟨_ + 2, h⟩ => absurd h (Nat.not_lt.2 (Nat.le_add_left _ _))
abbrev reads37_3 : Fin grid37.rank → Bool := ![true]

abbrev stage37_4 : Fin 2 → Memref sig .tc .vmem S2048x256 .f32 := fun | 0 => Memref.whole cc37_stg4_0 | 1 => Memref.whole cc37_stg4_1 | ⟨_ + 2, h⟩ => absurd h (Nat.not_lt.2 (Nat.le_add_left _ _))
abbrev sem37_4 : Fin 2 → DmaSem sig := fun | 0 => cc37_sem4_0 | 1 => cc37_sem4_1 | ⟨_ + 2, h⟩ => absurd h (Nat.not_lt.2 (Nat.le_add_left _ _))
abbrev reads37_4 : Fin grid37.rank → Bool := ![true]

abbrev grid38 : Pipeline.Grid := ⟨1, ![32], ![false]⟩

def cc38_transform_0 (i : grid38.Coords) : Fin 2 → Nat :=
  let arg0 : BitVec 32 := BitVec.ofNat 32 (i 0).val
  let c0_i32 : BitVec 32 := 0#32
  let c0_i32_0 : BitVec 32 := 0#32
  ![arg0.toNat, c0_i32.toNat]

def cc38_transform_1 (i : grid38.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc38_transform_2 (i : grid38.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc38_transform_3 (i : grid38.Coords) : Fin 2 → Nat :=
  let arg0 : BitVec 32 := BitVec.ofNat 32 (i 0).val
  let c0_i32 : BitVec 32 := 0#32
  let c0_i32_0 : BitVec 32 := 0#32
  ![arg0.toNat, c0_i32.toNat]

def cc38_transform_4 (i : grid38.Coords) : Fin 2 → Nat :=
  let arg0 : BitVec 32 := BitVec.ofNat 32 (i 0).val
  let c0_i32 : BitVec 32 := 0#32
  let c0_i32_0 : BitVec 32 := 0#32
  ![arg0.toNat, c0_i32.toNat]

def cc38_transform_5 (i : grid38.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage38_0 : Fin 2 → Memref sig .tc .vmem S2048x256 .f32 := fun | 0 => Memref.whole cc38_stg0_0 | 1 => Memref.whole cc38_stg0_1 | ⟨_ + 2, h⟩ => absurd h (Nat.not_lt.2 (Nat.le_add_left _ _))
abbrev sem38_0 : Fin 2 → DmaSem sig := fun | 0 => cc38_sem0_0 | 1 => cc38_sem0_1 | ⟨_ + 2, h⟩ => absurd h (Nat.not_lt.2 (Nat.le_add_left _ _))
abbrev reads38_0 : Fin grid38.rank → Bool := ![true]

abbrev stage38_1 : Fin 1 → Memref sig .tc .vmem S256x256 .f32 := fun | 0 => Memref.whole cc38_stg1_0 | ⟨_ + 1, h⟩ => absurd h (Nat.not_lt.2 (Nat.le_add_left _ _))
abbrev sem38_1 : Fin 1 → DmaSem sig := fun | 0 => cc38_sem1_0 | ⟨_ + 1, h⟩ => absurd h (Nat.not_lt.2 (Nat.le_add_left _ _))
abbrev reads38_1 : Fin grid38.rank → Bool := ![false]

abbrev stage38_2 : Fin 1 → Memref sig .tc .vmem S1x256 .f32 := fun | 0 => Memref.whole cc38_stg2_0 | ⟨_ + 1, h⟩ => absurd h (Nat.not_lt.2 (Nat.le_add_left _ _))
abbrev sem38_2 : Fin 1 → DmaSem sig := fun | 0 => cc38_sem2_0 | ⟨_ + 1, h⟩ => absurd h (Nat.not_lt.2 (Nat.le_add_left _ _))
abbrev reads38_2 : Fin grid38.rank → Bool := ![false]

abbrev stage38_3 : Fin 2 → Memref sig .tc .vmem S2048x256 .f32 := fun | 0 => Memref.whole cc38_stg3_0 | 1 => Memref.whole cc38_stg3_1 | ⟨_ + 2, h⟩ => absurd h (Nat.not_lt.2 (Nat.le_add_left _ _))
abbrev sem38_3 : Fin 2 → DmaSem sig := fun | 0 => cc38_sem3_0 | 1 => cc38_sem3_1 | ⟨_ + 2, h⟩ => absurd h (Nat.not_lt.2 (Nat.le_add_left _ _))
abbrev reads38_3 : Fin grid38.rank → Bool := ![true]

abbrev stage38_4 : Fin 2 → Memref sig .tc .vmem S2048x256 .f32 := fun | 0 => Memref.whole cc38_stg4_0 | 1 => Memref.whole cc38_stg4_1 | ⟨_ + 2, h⟩ => absurd h (Nat.not_lt.2 (Nat.le_add_left _ _))
abbrev sem38_4 : Fin 2 → DmaSem sig := fun | 0 => cc38_sem4_0 | 1 => cc38_sem4_1 | ⟨_ + 2, h⟩ => absurd h (Nat.not_lt.2 (Nat.le_add_left _ _))
abbrev reads38_4 : Fin grid38.rank → Bool := ![true]

abbrev stage38_5 : Fin 2 → Memref sig .tc .vmem S2048x256 .f32 := fun | 0 => Memref.whole cc38_stg5_0 | 1 => Memref.whole cc38_stg5_1 | ⟨_ + 2, h⟩ => absurd h (Nat.not_lt.2 (Nat.le_add_left _ _))
abbrev sem38_5 : Fin 2 → DmaSem sig := fun | 0 => cc38_sem5_0 | 1 => cc38_sem5_1 | ⟨_ + 2, h⟩ => absurd h (Nat.not_lt.2 (Nat.le_add_left _ _))
abbrev reads38_5 : Fin grid38.rank → Bool := ![true]

abbrev grid39 : Pipeline.Grid := ⟨1, ![8], ![false]⟩

def cc39_transform_0 (i : grid39.Coords) : Fin 2 → Nat :=
  let arg0 : BitVec 32 := BitVec.ofNat 32 (i 0).val
  let c0_i32 : BitVec 32 := 0#32
  let c0_i32_0 : BitVec 32 := 0#32
  ![arg0.toNat, c0_i32.toNat]

def cc39_transform_1 (i : grid39.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc39_transform_2 (i : grid39.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc39_transform_3 (i : grid39.Coords) : Fin 2 → Nat :=
  let arg0 : BitVec 32 := BitVec.ofNat 32 (i 0).val
  let c0_i32 : BitVec 32 := 0#32
  let c0_i32_0 : BitVec 32 := 0#32
  ![arg0.toNat, c0_i32.toNat]

def cc39_transform_4 (i : grid39.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage39_0 : Fin 2 → Memref sig .tc .vmem S2048x256 .f32 := fun | 0 => Memref.whole cc39_stg0_0 | 1 => Memref.whole cc39_stg0_1 | ⟨_ + 2, h⟩ => absurd h (Nat.not_lt.2 (Nat.le_add_left _ _))
abbrev sem39_0 : Fin 2 → DmaSem sig := fun | 0 => cc39_sem0_0 | 1 => cc39_sem0_1 | ⟨_ + 2, h⟩ => absurd h (Nat.not_lt.2 (Nat.le_add_left _ _))
abbrev reads39_0 : Fin grid39.rank → Bool := ![true]

abbrev stage39_1 : Fin 1 → Memref sig .tc .vmem S256x256 .f32 := fun | 0 => Memref.whole cc39_stg1_0 | ⟨_ + 1, h⟩ => absurd h (Nat.not_lt.2 (Nat.le_add_left _ _))
abbrev sem39_1 : Fin 1 → DmaSem sig := fun | 0 => cc39_sem1_0 | ⟨_ + 1, h⟩ => absurd h (Nat.not_lt.2 (Nat.le_add_left _ _))
abbrev reads39_1 : Fin grid39.rank → Bool := ![false]

abbrev stage39_2 : Fin 1 → Memref sig .tc .vmem S1x256 .f32 := fun | 0 => Memref.whole cc39_stg2_0 | ⟨_ + 1, h⟩ => absurd h (Nat.not_lt.2 (Nat.le_add_left _ _))
abbrev sem39_2 : Fin 1 → DmaSem sig := fun | 0 => cc39_sem2_0 | ⟨_ + 1, h⟩ => absurd h (Nat.not_lt.2 (Nat.le_add_left _ _))
abbrev reads39_2 : Fin grid39.rank → Bool := ![false]

abbrev stage39_3 : Fin 2 → Memref sig .tc .vmem S2048x256 .f32 := fun | 0 => Memref.whole cc39_stg3_0 | 1 => Memref.whole cc39_stg3_1 | ⟨_ + 2, h⟩ => absurd h (Nat.not_lt.2 (Nat.le_add_left _ _))
abbrev sem39_3 : Fin 2 → DmaSem sig := fun | 0 => cc39_sem3_0 | 1 => cc39_sem3_1 | ⟨_ + 2, h⟩ => absurd h (Nat.not_lt.2 (Nat.le_add_left _ _))
abbrev reads39_3 : Fin grid39.rank → Bool := ![true]

abbrev stage39_4 : Fin 2 → Memref sig .tc .vmem S2048x256 .f32 := fun | 0 => Memref.whole cc39_stg4_0 | 1 => Memref.whole cc39_stg4_1 | ⟨_ + 2, h⟩ => absurd h (Nat.not_lt.2 (Nat.le_add_left _ _))
abbrev sem39_4 : Fin 2 → DmaSem sig := fun | 0 => cc39_sem4_0 | 1 => cc39_sem4_1 | ⟨_ + 2, h⟩ => absurd h (Nat.not_lt.2 (Nat.le_add_left _ _))
abbrev reads39_4 : Fin grid39.rank → Bool := ![true]

abbrev grid40 : Pipeline.Grid := ⟨1, ![32], ![false]⟩

def cc40_transform_0 (i : grid40.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc40_transform_1 (i : grid40.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc40_transform_2 (i : grid40.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc40_transform_3 (i : grid40.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc40_transform_4 (i : grid40.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc40_transform_5 (i : grid40.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage40_0 : Fin 2 → Memref sig .tc .vmem S8x128x256 .f32 := fun | 0 => Memref.whole cc40_stg0_0 | 1 => Memref.whole cc40_stg0_1 | ⟨_ + 2, h⟩ => absurd h (Nat.not_lt.2 (Nat.le_add_left _ _))
abbrev sem40_0 : Fin 2 → DmaSem sig := fun | 0 => cc40_sem0_0 | 1 => cc40_sem0_1 | ⟨_ + 2, h⟩ => absurd h (Nat.not_lt.2 (Nat.le_add_left _ _))
abbrev reads40_0 : Fin grid40.rank → Bool := ![true]

abbrev stage40_1 : Fin 2 → Memref sig .tc .vmem S8x128x256 .f32 := fun | 0 => Memref.whole cc40_stg1_0 | 1 => Memref.whole cc40_stg1_1 | ⟨_ + 2, h⟩ => absurd h (Nat.not_lt.2 (Nat.le_add_left _ _))
abbrev sem40_1 : Fin 2 → DmaSem sig := fun | 0 => cc40_sem1_0 | 1 => cc40_sem1_1 | ⟨_ + 2, h⟩ => absurd h (Nat.not_lt.2 (Nat.le_add_left _ _))
abbrev reads40_1 : Fin grid40.rank → Bool := ![true]

abbrev stage40_2 : Fin 1 → Memref sig .tc .vmem S256x256 .f32 := fun | 0 => Memref.whole cc40_stg2_0 | ⟨_ + 1, h⟩ => absurd h (Nat.not_lt.2 (Nat.le_add_left _ _))
abbrev sem40_2 : Fin 1 → DmaSem sig := fun | 0 => cc40_sem2_0 | ⟨_ + 1, h⟩ => absurd h (Nat.not_lt.2 (Nat.le_add_left _ _))
abbrev reads40_2 : Fin grid40.rank → Bool := ![false]

abbrev stage40_3 : Fin 1 → Memref sig .tc .vmem S256x256 .f32 := fun | 0 => Memref.whole cc40_stg3_0 | ⟨_ + 1, h⟩ => absurd h (Nat.not_lt.2 (Nat.le_add_left _ _))
abbrev sem40_3 : Fin 1 → DmaSem sig := fun | 0 => cc40_sem3_0 | ⟨_ + 1, h⟩ => absurd h (Nat.not_lt.2 (Nat.le_add_left _ _))
abbrev reads40_3 : Fin grid40.rank → Bool := ![false]

abbrev stage40_4 : Fin 1 → Memref sig .tc .vmem S1x256 .f32 := fun | 0 => Memref.whole cc40_stg4_0 | ⟨_ + 1, h⟩ => absurd h (Nat.not_lt.2 (Nat.le_add_left _ _))
abbrev sem40_4 : Fin 1 → DmaSem sig := fun | 0 => cc40_sem4_0 | ⟨_ + 1, h⟩ => absurd h (Nat.not_lt.2 (Nat.le_add_left _ _))
abbrev reads40_4 : Fin grid40.rank → Bool := ![false]

abbrev stage40_5 : Fin 2 → Memref sig .tc .vmem S8x256 .f32 := fun | 0 => Memref.whole cc40_stg5_0 | 1 => Memref.whole cc40_stg5_1 | ⟨_ + 2, h⟩ => absurd h (Nat.not_lt.2 (Nat.le_add_left _ _))
abbrev sem40_5 : Fin 2 → DmaSem sig := fun | 0 => cc40_sem5_0 | 1 => cc40_sem5_1 | ⟨_ + 2, h⟩ => absurd h (Nat.not_lt.2 (Nat.le_add_left _ _))
abbrev reads40_5 : Fin grid40.rank → Bool := ![true]

abbrev grid41 : Pipeline.Grid := ⟨1, ![32], ![false]⟩

def cc41_transform_0 (i : grid41.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc41_transform_1 (i : grid41.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc41_transform_2 (i : grid41.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc41_transform_3 (i : grid41.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc41_transform_4 (i : grid41.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc41_transform_5 (i : grid41.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage41_0 : Fin 2 → Memref sig .tc .vmem S8x256x256 .f32 := fun | 0 => Memref.whole cc41_stg0_0 | 1 => Memref.whole cc41_stg0_1 | ⟨_ + 2, h⟩ => absurd h (Nat.not_lt.2 (Nat.le_add_left _ _))
abbrev sem41_0 : Fin 2 → DmaSem sig := fun | 0 => cc41_sem0_0 | 1 => cc41_sem0_1 | ⟨_ + 2, h⟩ => absurd h (Nat.not_lt.2 (Nat.le_add_left _ _))
abbrev reads41_0 : Fin grid41.rank → Bool := ![true]

abbrev stage41_1 : Fin 2 → Memref sig .tc .vmem S8x256x256 .f32 := fun | 0 => Memref.whole cc41_stg1_0 | 1 => Memref.whole cc41_stg1_1 | ⟨_ + 2, h⟩ => absurd h (Nat.not_lt.2 (Nat.le_add_left _ _))
abbrev sem41_1 : Fin 2 → DmaSem sig := fun | 0 => cc41_sem1_0 | 1 => cc41_sem1_1 | ⟨_ + 2, h⟩ => absurd h (Nat.not_lt.2 (Nat.le_add_left _ _))
abbrev reads41_1 : Fin grid41.rank → Bool := ![true]

abbrev stage41_2 : Fin 1 → Memref sig .tc .vmem S256x256 .f32 := fun | 0 => Memref.whole cc41_stg2_0 | ⟨_ + 1, h⟩ => absurd h (Nat.not_lt.2 (Nat.le_add_left _ _))
abbrev sem41_2 : Fin 1 → DmaSem sig := fun | 0 => cc41_sem2_0 | ⟨_ + 1, h⟩ => absurd h (Nat.not_lt.2 (Nat.le_add_left _ _))
abbrev reads41_2 : Fin grid41.rank → Bool := ![false]

abbrev stage41_3 : Fin 1 → Memref sig .tc .vmem S256x256 .f32 := fun | 0 => Memref.whole cc41_stg3_0 | ⟨_ + 1, h⟩ => absurd h (Nat.not_lt.2 (Nat.le_add_left _ _))
abbrev sem41_3 : Fin 1 → DmaSem sig := fun | 0 => cc41_sem3_0 | ⟨_ + 1, h⟩ => absurd h (Nat.not_lt.2 (Nat.le_add_left _ _))
abbrev reads41_3 : Fin grid41.rank → Bool := ![false]

abbrev stage41_4 : Fin 1 → Memref sig .tc .vmem S1x256 .f32 := fun | 0 => Memref.whole cc41_stg4_0 | ⟨_ + 1, h⟩ => absurd h (Nat.not_lt.2 (Nat.le_add_left _ _))
abbrev sem41_4 : Fin 1 → DmaSem sig := fun | 0 => cc41_sem4_0 | ⟨_ + 1, h⟩ => absurd h (Nat.not_lt.2 (Nat.le_add_left _ _))
abbrev reads41_4 : Fin grid41.rank → Bool := ![false]

abbrev stage41_5 : Fin 2 → Memref sig .tc .vmem S8x256 .f32 := fun | 0 => Memref.whole cc41_stg5_0 | 1 => Memref.whole cc41_stg5_1 | ⟨_ + 2, h⟩ => absurd h (Nat.not_lt.2 (Nat.le_add_left _ _))
abbrev sem41_5 : Fin 2 → DmaSem sig := fun | 0 => cc41_sem5_0 | 1 => cc41_sem5_1 | ⟨_ + 2, h⟩ => absurd h (Nat.not_lt.2 (Nat.le_add_left _ _))
abbrev reads41_5 : Fin grid41.rank → Bool := ![true]

abbrev grid42 : Pipeline.Grid := ⟨1, ![32], ![false]⟩

def cc42_transform_0 (i : grid42.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc42_transform_1 (i : grid42.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc42_transform_2 (i : grid42.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc42_transform_3 (i : grid42.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc42_transform_4 (i : grid42.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc42_transform_5 (i : grid42.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage42_0 : Fin 2 → Memref sig .tc .vmem S8x64x256 .f32 := fun | 0 => Memref.whole cc42_stg0_0 | 1 => Memref.whole cc42_stg0_1 | ⟨_ + 2, h⟩ => absurd h (Nat.not_lt.2 (Nat.le_add_left _ _))
abbrev sem42_0 : Fin 2 → DmaSem sig := fun | 0 => cc42_sem0_0 | 1 => cc42_sem0_1 | ⟨_ + 2, h⟩ => absurd h (Nat.not_lt.2 (Nat.le_add_left _ _))
abbrev reads42_0 : Fin grid42.rank → Bool := ![true]

abbrev stage42_1 : Fin 2 → Memref sig .tc .vmem S8x64x256 .f32 := fun | 0 => Memref.whole cc42_stg1_0 | 1 => Memref.whole cc42_stg1_1 | ⟨_ + 2, h⟩ => absurd h (Nat.not_lt.2 (Nat.le_add_left _ _))
abbrev sem42_1 : Fin 2 → DmaSem sig := fun | 0 => cc42_sem1_0 | 1 => cc42_sem1_1 | ⟨_ + 2, h⟩ => absurd h (Nat.not_lt.2 (Nat.le_add_left _ _))
abbrev reads42_1 : Fin grid42.rank → Bool := ![true]

abbrev stage42_2 : Fin 1 → Memref sig .tc .vmem S256x256 .f32 := fun | 0 => Memref.whole cc42_stg2_0 | ⟨_ + 1, h⟩ => absurd h (Nat.not_lt.2 (Nat.le_add_left _ _))
abbrev sem42_2 : Fin 1 → DmaSem sig := fun | 0 => cc42_sem2_0 | ⟨_ + 1, h⟩ => absurd h (Nat.not_lt.2 (Nat.le_add_left _ _))
abbrev reads42_2 : Fin grid42.rank → Bool := ![false]

abbrev stage42_3 : Fin 1 → Memref sig .tc .vmem S256x256 .f32 := fun | 0 => Memref.whole cc42_stg3_0 | ⟨_ + 1, h⟩ => absurd h (Nat.not_lt.2 (Nat.le_add_left _ _))
abbrev sem42_3 : Fin 1 → DmaSem sig := fun | 0 => cc42_sem3_0 | ⟨_ + 1, h⟩ => absurd h (Nat.not_lt.2 (Nat.le_add_left _ _))
abbrev reads42_3 : Fin grid42.rank → Bool := ![false]

abbrev stage42_4 : Fin 1 → Memref sig .tc .vmem S1x256 .f32 := fun | 0 => Memref.whole cc42_stg4_0 | ⟨_ + 1, h⟩ => absurd h (Nat.not_lt.2 (Nat.le_add_left _ _))
abbrev sem42_4 : Fin 1 → DmaSem sig := fun | 0 => cc42_sem4_0 | ⟨_ + 1, h⟩ => absurd h (Nat.not_lt.2 (Nat.le_add_left _ _))
abbrev reads42_4 : Fin grid42.rank → Bool := ![false]

abbrev stage42_5 : Fin 2 → Memref sig .tc .vmem S8x256 .f32 := fun | 0 => Memref.whole cc42_stg5_0 | 1 => Memref.whole cc42_stg5_1 | ⟨_ + 2, h⟩ => absurd h (Nat.not_lt.2 (Nat.le_add_left _ _))
abbrev sem42_5 : Fin 2 → DmaSem sig := fun | 0 => cc42_sem5_0 | 1 => cc42_sem5_1 | ⟨_ + 2, h⟩ => absurd h (Nat.not_lt.2 (Nat.le_add_left _ _))
abbrev reads42_5 : Fin grid42.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S32768x256.size a
  hwx0_2 : ∀ i : grid0.Coords, EltTy.bits .f32 = 32 ∨ (Rect.block (s := S32768x256) S2048x256.size (cc0_transform_2 i) (hinb0_2 i)).WholeWords (EltTy.packing .f32)

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S65536x256.size a
  hwx1_0 : ∀ i : grid1.Coords, EltTy.bits .f32 = 32 ∨ (Rect.block (s := S65536x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S65536x256.size a
  hwx1_2 : ∀ i : grid1.Coords, EltTy.bits .f32 = 32 ∨ (Rect.block (s := S65536x256) S2048x256.size (cc1_transform_2 i) (hinb1_2 i)).WholeWords (EltTy.packing .f32)

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S65536x256.size a
  hwx2_0 : ∀ i : grid2.Coords, EltTy.bits .f32 = 32 ∨ (Rect.block (s := S65536x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S65536x256.size a
  hwx2_2 : ∀ i : grid2.Coords, EltTy.bits .f32 = 32 ∨ (Rect.block (s := S65536x256) S2048x256.size (cc2_transform_2 i) (hinb2_2 i)).WholeWords (EltTy.packing .f32)

class K3.Facts₀ : Prop where
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S16384x256.size a
  hwx3_0 : ∀ i : grid3.Coords, EltTy.bits .f32 = 32 ∨ (Rect.block (s := S16384x256) S2048x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S16384x256.size a
  hwx3_2 : ∀ i : grid3.Coords, EltTy.bits .f32 = 32 ∨ (Rect.block (s := S16384x256) S2048x256.size (cc3_transform_2 i) (hinb3_2 i)).WholeWords (EltTy.packing .f32)

class K4.Facts₀ : Prop where
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S32768x256.size a
  hwx4_0 : ∀ i : grid4.Coords, EltTy.bits .f32 = 32 ∨ (Rect.block (s := S32768x256) S2048x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x256.size a ≤ S32768x256.size a
  hwx4_2 : ∀ i : grid4.Coords, EltTy.bits .f32 = 32 ∨ (Rect.block (s := S32768x256) S2048x256.size (cc4_transform_2 i) (hinb4_2 i)).WholeWords (EltTy.packing .f32)

class K5.Facts₀ : Prop where
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8x256x128.size a ≤ S256x256x128.size a
  hwx5_0 : ∀ i : grid5.Coords, EltTy.bits .bf16 = 32 ∨ (Rect.block (s := S256x256x128) S8x256x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8x128x256.size a ≤ S256x128x256.size a
  hwx5_1 : ∀ i : grid5.Coords, EltTy.bits .f32 = 32 ∨ (Rect.block (s := S256x128x256) S8x128x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8x256x256.size a ≤ S256x256x256.size a
  hwx5_2 : ∀ i : grid5.Coords, EltTy.bits .f32 = 32 ∨ (Rect.block (s := S256x256x256) S8x256x256.size (cc5_transform_2 i) (hinb5_2 i)).WholeWords (EltTy.packing .f32)

class K6.Facts₀ : Prop where
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S16x64x256.size a ≤ S256x64x256.size a
  hwx6_0 : ∀ i : grid6.Coords, EltTy.bits .bf16 = 32 ∨ (Rect.block (s := S256x64x256) S16x64x256.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S16x256x256.size a ≤ S256x256x256.size a
  hwx6_1 : ∀ i : grid6.Coords, EltTy.bits .f32 = 32 ∨ (Rect.block (s := S256x256x256) S16x256x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S16x64x256.size a ≤ S256x64x256.size a
  hwx6_3 : ∀ i : grid6.Coords, EltTy.bits .f32 = 32 ∨ (Rect.block (s := S256x64x256) S16x64x256.size (cc6_transform_3 i) (hinb6_3 i)).WholeWords (EltTy.packing .f32)

class K7.Facts₀ : Prop where
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x256.size a ≤ S32768x256.size a
  hwx7_0 : ∀ i : grid7.Coords, EltTy.bits .f32 = 32 ∨ (Rect.block (s := S32768x256) S2048x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x256.size a ≤ S256x256.size a
  hwx7_1 : ∀ i : grid7.Coords, EltTy.bits .f32 = 32 ∨ (Rect.block (s := S256x256) S256x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2048x256.size a ≤ S32768x256.size a
  hwx7_3 : ∀ i : grid7.Coords, EltTy.bits .f32 = 32 ∨ (Rect.block (s := S32768x256) S2048x256.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2048x256.size a ≤ S32768x256.size a
  hwx7_4 : ∀ i : grid7.Coords, EltTy.bits .f32 = 32 ∨ (Rect.block (s := S32768x256) S2048x256.size (cc7_transform_4 i) (hinb7_4 i)).WholeWords (EltTy.packing .f32)

class K8.Facts₀ : Prop where
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x256.size a ≤ S65536x256.size a
  hwx8_0 : ∀ i : grid8.Coords, EltTy.bits .f32 = 32 ∨ (Rect.block (s := S65536x256) S2048x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x256.size a ≤ S256x256.size a
  hwx8_1 : ∀ i : grid8.Coords, EltTy.bits .f32 = 32 ∨ (Rect.block (s := S256x256) S256x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2048x256.size a ≤ S65536x256.size a
  hwx8_3 : ∀ i : grid8.Coords, EltTy.bits .f32 = 32 ∨ (Rect.block (s := S65536x256) S2048x256.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2048x256.size a ≤ S65536x256.size a
  hwx8_4 : ∀ i : grid8.Coords, EltTy.bits .f32 = 32 ∨ (Rect.block (s := S65536x256) S2048x256.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2048x256.size a ≤ S65536x256.size a
  hwx8_5 : ∀ i : grid8.Coords, EltTy.bits .f32 = 32 ∨ (Rect.block (s := S65536x256) S2048x256.size (cc8_transform_5 i) (hinb8_5 i)).WholeWords (EltTy.packing .f32)

class K9.Facts₀ : Prop where
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x256.size a ≤ S16384x256.size a
  hwx9_0 : ∀ i : grid9.Coords, EltTy.bits .f32 = 32 ∨ (Rect.block (s := S16384x256) S2048x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x256.size a ≤ S256x256.size a
  hwx9_1 : ∀ i : grid9.Coords, EltTy.bits .f32 = 32 ∨ (Rect.block (s := S256x256) S256x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2048x256.size a ≤ S16384x256.size a
  hwx9_3 : ∀ i : grid9.Coords, EltTy.bits .f32 = 32 ∨ (Rect.block (s := S16384x256) S2048x256.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2048x256.size a ≤ S16384x256.size a
  hwx9_4 : ∀ i : grid9.Coords, EltTy.bits .f32 = 32 ∨ (Rect.block (s := S16384x256) S2048x256.size (cc9_transform_4 i) (hinb9_4 i)).WholeWords (EltTy.packing .f32)

class K10.Facts₀ : Prop where
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2048x256.size a ≤ S32768x256.size a
  hwx10_0 : ∀ i : grid10.Coords, EltTy.bits .f32 = 32 ∨ (Rect.block (s := S32768x256) S2048x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S256x256.size a ≤ S256x256.size a
  hwx10_1 : ∀ i : grid10.Coords, EltTy.bits .f32 = 32 ∨ (Rect.block (s := S256x256) S256x256.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2048x256.size a ≤ S32768x256.size a
  hwx10_2 : ∀ i : grid10.Coords, EltTy.bits .f32 = 32 ∨ (Rect.block (s := S32768x256) S2048x256.size (cc10_transform_2 i) (hinb10_2 i)).WholeWords (EltTy.packing .f32)

class K11.Facts₀ : Prop where
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2048x256.size a ≤ S65536x256.size a
  hwx11_0 : ∀ i : grid11.Coords, EltTy.bits .f32 = 32 ∨ (Rect.block (s := S65536x256) S2048x256.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S256x256.size a ≤ S256x256.size a
  hwx11_1 : ∀ i : grid11.Coords, EltTy.bits .f32 = 32 ∨ (Rect.block (s := S256x256) S256x256.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2048x256.size a ≤ S65536x256.size a
  hwx11_2 : ∀ i : grid11.Coords, EltTy.bits .f32 = 32 ∨ (Rect.block (s := S65536x256) S2048x256.size (cc11_transform_2 i) (hinb11_2 i)).WholeWords (EltTy.packing .f32)

class K12.Facts₀ : Prop where
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2048x256.size a ≤ S65536x256.size a
  hwx12_0 : ∀ i : grid12.Coords, EltTy.bits .f32 = 32 ∨ (Rect.block (s := S65536x256) S2048x256.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S256x256.size a ≤ S256x256.size a
  hwx12_1 : ∀ i : grid12.Coords, EltTy.bits .f32 = 32 ∨ (Rect.block (s := S256x256) S256x256.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2048x256.size a ≤ S65536x256.size a
  hwx12_2 : ∀ i : grid12.Coords, EltTy.bits .f32 = 32 ∨ (Rect.block (s := S65536x256) S2048x256.size (cc12_transform_2 i) (hinb12_2 i)).WholeWords (EltTy.packing .f32)

class K13.Facts₀ : Prop where
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2048x256.size a ≤ S16384x256.size a
  hwx13_0 : ∀ i : grid13.Coords, EltTy.bits .f32 = 32 ∨ (Rect.block (s := S16384x256) S2048x256.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S256x256.size a ≤ S256x256.size a
  hwx13_1 : ∀ i : grid13.Coords, EltTy.bits .f32 = 32 ∨ (Rect.block (s := S256x256) S256x256.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2048x256.size a ≤ S16384x256.size a
  hwx13_2 : ∀ i : grid13.Coords, EltTy.bits .f32 = 32 ∨ (Rect.block (s := S16384x256) S2048x256.size (cc13_transform_2 i) (hinb13_2 i)).WholeWords (EltTy.packing .f32)

class K14.Facts₀ : Prop where
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2048x256.size a ≤ S32768x256.size a
  hwx14_0 : ∀ i : grid14.Coords, EltTy.bits .f32 = 32 ∨ (Rect.block (s := S32768x256) S2048x256.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S256x256.size a ≤ S256x256.size a
  hwx14_1 : ∀ i : grid14.Coords, EltTy.bits .f32 = 32 ∨ (Rect.block (s := S256x256) S256x256.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S2048x256.size a ≤ S32768x256.size a
  hwx14_2 : ∀ i : grid14.Coords, EltTy.bits .f32 = 32 ∨ (Rect.block (s := S32768x256) S2048x256.size (cc14_transform_2 i) (hinb14_2 i)).WholeWords (EltTy.packing .f32)

class K15.Facts₀ : Prop where
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S8x256x128.size a ≤ S256x256x128.size a
  hwx15_0 : ∀ i : grid15.Coords, EltTy.bits .bf16 = 32 ∨ (Rect.block (s := S256x256x128) S8x256x128.size (cc15_transform_0 i) (hinb15_0 i)).WholeWords (EltTy.packing .bf16)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S8x128x256.size a ≤ S256x128x256.size a
  hwx15_1 : ∀ i : grid15.Coords, EltTy.bits .f32 = 32 ∨ (Rect.block (s := S256x128x256) S8x128x256.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S8x256x256.size a ≤ S256x256x256.size a
  hwx15_2 : ∀ i : grid15.Coords, EltTy.bits .f32 = 32 ∨ (Rect.block (s := S256x256x256) S8x256x256.size (cc15_transform_2 i) (hinb15_2 i)).WholeWords (EltTy.packing .f32)

class K16.Facts₀ : Prop where
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S16x64x256.size a ≤ S256x64x256.size a
  hwx16_0 : ∀ i : grid16.Coords, EltTy.bits .bf16 = 32 ∨ (Rect.block (s := S256x64x256) S16x64x256.size (cc16_transform_0 i) (hinb16_0 i)).WholeWords (EltTy.packing .bf16)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S16x256x256.size a ≤ S256x256x256.size a
  hwx16_1 : ∀ i : grid16.Coords, EltTy.bits .f32 = 32 ∨ (Rect.block (s := S256x256x256) S16x256x256.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S256x256.size a ≤ S256x256.size a
  hwx16_2 : ∀ i : grid16.Coords, EltTy.bits .f32 = 32 ∨ (Rect.block (s := S256x256) S256x256.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S16x64x256.size a ≤ S256x64x256.size a
  hwx16_3 : ∀ i : grid16.Coords, EltTy.bits .f32 = 32 ∨ (Rect.block (s := S256x64x256) S16x64x256.size (cc16_transform_3 i) (hinb16_3 i)).WholeWords (EltTy.packing .f32)

class K17.Facts₀ : Prop where
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S2048x256.size a ≤ S32768x256.size a
  hwx17_0 : ∀ i : grid17.Coords, EltTy.bits .f32 = 32 ∨ (Rect.block (s := S32768x256) S2048x256.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S256x256.size a ≤ S256x256.size a
  hwx17_1 : ∀ i : grid17.Coords, EltTy.bits .f32 = 32 ∨ (Rect.block (s := S256x256) S256x256.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x256.size a ≤ S1x256.size a
  hwx17_2 : ∀ i : grid17.Coords, EltTy.bits .f32 = 32 ∨ (Rect.block (s := S1x256) S1x256.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S2048x256.size a ≤ S32768x256.size a
  hwx17_3 : ∀ i : grid17.Coords, EltTy.bits .f32 = 32 ∨ (Rect.block (s := S32768x256) S2048x256.size (cc17_transform_3 i) (hinb17_3 i)).WholeWords (EltTy.packing .f32)
  hstage17_4 : ∀ j, (stage17_4 j).IsWhole
  nbuf17_4 : grid17.bufCount reads17_4 false = 2
  hreads17_4 : ∀ i i' : grid17.Coords, (∀ a, reads17_4 a = true → i a = i' a) → cc17_transform_4 i = cc17_transform_4 i'
  hinb17_4 : ∀ (i : grid17.Coords) a, (cc17_transform_4 i a + 1) * S2048x256.size a ≤ S32768x256.size a
  hwx17_4 : ∀ i : grid17.Coords, EltTy.bits .f32 = 32 ∨ (Rect.block (s := S32768x256) S2048x256.size (cc17_transform_4 i) (hinb17_4 i)).WholeWords (EltTy.packing .f32)

class K18.Facts₀ : Prop where
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S2048x256.size a ≤ S65536x256.size a
  hwx18_0 : ∀ i : grid18.Coords, EltTy.bits .f32 = 32 ∨ (Rect.block (s := S65536x256) S2048x256.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S256x256.size a ≤ S256x256.size a
  hwx18_1 : ∀ i : grid18.Coords, EltTy.bits .f32 = 32 ∨ (Rect.block (s := S256x256) S256x256.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x256.size a ≤ S1x256.size a
  hwx18_2 : ∀ i : grid18.Coords, EltTy.bits .f32 = 32 ∨ (Rect.block (s := S1x256) S1x256.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S2048x256.size a ≤ S65536x256.size a
  hwx18_3 : ∀ i : grid18.Coords, EltTy.bits .f32 = 32 ∨ (Rect.block (s := S65536x256) S2048x256.size (cc18_transform_3 i) (hinb18_3 i)).WholeWords (EltTy.packing .f32)
  hstage18_4 : ∀ j, (stage18_4 j).IsWhole
  nbuf18_4 : grid18.bufCount reads18_4 false = 2
  hreads18_4 : ∀ i i' : grid18.Coords, (∀ a, reads18_4 a = true → i a = i' a) → cc18_transform_4 i = cc18_transform_4 i'
  hinb18_4 : ∀ (i : grid18.Coords) a, (cc18_transform_4 i a + 1) * S2048x256.size a ≤ S65536x256.size a
  hwx18_4 : ∀ i : grid18.Coords, EltTy.bits .f32 = 32 ∨ (Rect.block (s := S65536x256) S2048x256.size (cc18_transform_4 i) (hinb18_4 i)).WholeWords (EltTy.packing .f32)
  hstage18_5 : ∀ j, (stage18_5 j).IsWhole
  nbuf18_5 : grid18.bufCount reads18_5 false = 2
  hreads18_5 : ∀ i i' : grid18.Coords, (∀ a, reads18_5 a = true → i a = i' a) → cc18_transform_5 i = cc18_transform_5 i'
  hinb18_5 : ∀ (i : grid18.Coords) a, (cc18_transform_5 i a + 1) * S2048x256.size a ≤ S65536x256.size a
  hwx18_5 : ∀ i : grid18.Coords, EltTy.bits .f32 = 32 ∨ (Rect.block (s := S65536x256) S2048x256.size (cc18_transform_5 i) (hinb18_5 i)).WholeWords (EltTy.packing .f32)

class K19.Facts₀ : Prop where
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S2048x256.size a ≤ S16384x256.size a
  hwx19_0 : ∀ i : grid19.Coords, EltTy.bits .f32 = 32 ∨ (Rect.block (s := S16384x256) S2048x256.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S256x256.size a ≤ S256x256.size a
  hwx19_1 : ∀ i : grid19.Coords, EltTy.bits .f32 = 32 ∨ (Rect.block (s := S256x256) S256x256.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x256.size a ≤ S1x256.size a
  hwx19_2 : ∀ i : grid19.Coords, EltTy.bits .f32 = 32 ∨ (Rect.block (s := S1x256) S1x256.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S2048x256.size a ≤ S16384x256.size a
  hwx19_3 : ∀ i : grid19.Coords, EltTy.bits .f32 = 32 ∨ (Rect.block (s := S16384x256) S2048x256.size (cc19_transform_3 i) (hinb19_3 i)).WholeWords (EltTy.packing .f32)
  hstage19_4 : ∀ j, (stage19_4 j).IsWhole
  nbuf19_4 : grid19.bufCount reads19_4 false = 2
  hreads19_4 : ∀ i i' : grid19.Coords, (∀ a, reads19_4 a = true → i a = i' a) → cc19_transform_4 i = cc19_transform_4 i'
  hinb19_4 : ∀ (i : grid19.Coords) a, (cc19_transform_4 i a + 1) * S2048x256.size a ≤ S16384x256.size a
  hwx19_4 : ∀ i : grid19.Coords, EltTy.bits .f32 = 32 ∨ (Rect.block (s := S16384x256) S2048x256.size (cc19_transform_4 i) (hinb19_4 i)).WholeWords (EltTy.packing .f32)

class K20.Facts₀ : Prop where
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S2048x256.size a ≤ S32768x256.size a
  hwx20_0 : ∀ i : grid20.Coords, EltTy.bits .f32 = 32 ∨ (Rect.block (s := S32768x256) S2048x256.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S256x256.size a ≤ S256x256.size a
  hwx20_1 : ∀ i : grid20.Coords, EltTy.bits .f32 = 32 ∨ (Rect.block (s := S256x256) S256x256.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S2048x256.size a ≤ S32768x256.size a
  hwx20_2 : ∀ i : grid20.Coords, EltTy.bits .f32 = 32 ∨ (Rect.block (s := S32768x256) S2048x256.size (cc20_transform_2 i) (hinb20_2 i)).WholeWords (EltTy.packing .f32)

class K21.Facts₀ : Prop where
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S2048x256.size a ≤ S65536x256.size a
  hwx21_0 : ∀ i : grid21.Coords, EltTy.bits .f32 = 32 ∨ (Rect.block (s := S65536x256) S2048x256.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S256x256.size a ≤ S256x256.size a
  hwx21_1 : ∀ i : grid21.Coords, EltTy.bits .f32 = 32 ∨ (Rect.block (s := S256x256) S256x256.size (cc21_transform_1 i) (hinb21_1 i)).WholeWords (EltTy.packing .f32)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S2048x256.size a ≤ S65536x256.size a
  hwx21_2 : ∀ i : grid21.Coords, EltTy.bits .f32 = 32 ∨ (Rect.block (s := S65536x256) S2048x256.size (cc21_transform_2 i) (hinb21_2 i)).WholeWords (EltTy.packing .f32)

class K22.Facts₀ : Prop where
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S2048x256.size a ≤ S65536x256.size a
  hwx22_0 : ∀ i : grid22.Coords, EltTy.bits .f32 = 32 ∨ (Rect.block (s := S65536x256) S2048x256.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S256x256.size a ≤ S256x256.size a
  hwx22_1 : ∀ i : grid22.Coords, EltTy.bits .f32 = 32 ∨ (Rect.block (s := S256x256) S256x256.size (cc22_transform_1 i) (hinb22_1 i)).WholeWords (EltTy.packing .f32)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S2048x256.size a ≤ S65536x256.size a
  hwx22_2 : ∀ i : grid22.Coords, EltTy.bits .f32 = 32 ∨ (Rect.block (s := S65536x256) S2048x256.size (cc22_transform_2 i) (hinb22_2 i)).WholeWords (EltTy.packing .f32)

class K23.Facts₀ : Prop where
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S2048x256.size a ≤ S16384x256.size a
  hwx23_0 : ∀ i : grid23.Coords, EltTy.bits .f32 = 32 ∨ (Rect.block (s := S16384x256) S2048x256.size (cc23_transform_0 i) (hinb23_0 i)).WholeWords (EltTy.packing .f32)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S256x256.size a ≤ S256x256.size a
  hwx23_1 : ∀ i : grid23.Coords, EltTy.bits .f32 = 32 ∨ (Rect.block (s := S256x256) S256x256.size (cc23_transform_1 i) (hinb23_1 i)).WholeWords (EltTy.packing .f32)
  hstage23_2 : ∀ j, (stage23_2 j).IsWhole
  nbuf23_2 : grid23.bufCount reads23_2 false = 2
  hreads23_2 : ∀ i i' : grid23.Coords, (∀ a, reads23_2 a = true → i a = i' a) → cc23_transform_2 i = cc23_transform_2 i'
  hinb23_2 : ∀ (i : grid23.Coords) a, (cc23_transform_2 i a + 1) * S2048x256.size a ≤ S16384x256.size a
  hwx23_2 : ∀ i : grid23.Coords, EltTy.bits .f32 = 32 ∨ (Rect.block (s := S16384x256) S2048x256.size (cc23_transform_2 i) (hinb23_2 i)).WholeWords (EltTy.packing .f32)

class K24.Facts₀ : Prop where
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S2048x256.size a ≤ S32768x256.size a
  hwx24_0 : ∀ i : grid24.Coords, EltTy.bits .f32 = 32 ∨ (Rect.block (s := S32768x256) S2048x256.size (cc24_transform_0 i) (hinb24_0 i)).WholeWords (EltTy.packing .f32)
  hstage24_1 : ∀ j, (stage24_1 j).IsWhole
  nbuf24_1 : grid24.bufCount reads24_1 true = 1
  hreads24_1 : ∀ i i' : grid24.Coords, (∀ a, reads24_1 a = true → i a = i' a) → cc24_transform_1 i = cc24_transform_1 i'
  hinb24_1 : ∀ (i : grid24.Coords) a, (cc24_transform_1 i a + 1) * S256x256.size a ≤ S256x256.size a
  hwx24_1 : ∀ i : grid24.Coords, EltTy.bits .f32 = 32 ∨ (Rect.block (s := S256x256) S256x256.size (cc24_transform_1 i) (hinb24_1 i)).WholeWords (EltTy.packing .f32)
  hstage24_2 : ∀ j, (stage24_2 j).IsWhole
  nbuf24_2 : grid24.bufCount reads24_2 false = 2
  hreads24_2 : ∀ i i' : grid24.Coords, (∀ a, reads24_2 a = true → i a = i' a) → cc24_transform_2 i = cc24_transform_2 i'
  hinb24_2 : ∀ (i : grid24.Coords) a, (cc24_transform_2 i a + 1) * S2048x256.size a ≤ S32768x256.size a
  hwx24_2 : ∀ i : grid24.Coords, EltTy.bits .f32 = 32 ∨ (Rect.block (s := S32768x256) S2048x256.size (cc24_transform_2 i) (hinb24_2 i)).WholeWords (EltTy.packing .f32)

class K25.Facts₀ : Prop where
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S8x256x128.size a ≤ S256x256x128.size a
  hwx25_0 : ∀ i : grid25.Coords, EltTy.bits .bf16 = 32 ∨ (Rect.block (s := S256x256x128) S8x256x128.size (cc25_transform_0 i) (hinb25_0 i)).WholeWords (EltTy.packing .bf16)
  hstage25_1 : ∀ j, (stage25_1 j).IsWhole
  nbuf25_1 : grid25.bufCount reads25_1 false = 2
  hreads25_1 : ∀ i i' : grid25.Coords, (∀ a, reads25_1 a = true → i a = i' a) → cc25_transform_1 i = cc25_transform_1 i'
  hinb25_1 : ∀ (i : grid25.Coords) a, (cc25_transform_1 i a + 1) * S8x128x256.size a ≤ S256x128x256.size a
  hwx25_1 : ∀ i : grid25.Coords, EltTy.bits .f32 = 32 ∨ (Rect.block (s := S256x128x256) S8x128x256.size (cc25_transform_1 i) (hinb25_1 i)).WholeWords (EltTy.packing .f32)
  hstage25_2 : ∀ j, (stage25_2 j).IsWhole
  nbuf25_2 : grid25.bufCount reads25_2 false = 2
  hreads25_2 : ∀ i i' : grid25.Coords, (∀ a, reads25_2 a = true → i a = i' a) → cc25_transform_2 i = cc25_transform_2 i'
  hinb25_2 : ∀ (i : grid25.Coords) a, (cc25_transform_2 i a + 1) * S8x256x256.size a ≤ S256x256x256.size a
  hwx25_2 : ∀ i : grid25.Coords, EltTy.bits .f32 = 32 ∨ (Rect.block (s := S256x256x256) S8x256x256.size (cc25_transform_2 i) (hinb25_2 i)).WholeWords (EltTy.packing .f32)

class K26.Facts₀ : Prop where
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S16x64x256.size a ≤ S256x64x256.size a
  hwx26_0 : ∀ i : grid26.Coords, EltTy.bits .bf16 = 32 ∨ (Rect.block (s := S256x64x256) S16x64x256.size (cc26_transform_0 i) (hinb26_0 i)).WholeWords (EltTy.packing .bf16)
  hstage26_1 : ∀ j, (stage26_1 j).IsWhole
  nbuf26_1 : grid26.bufCount reads26_1 false = 2
  hreads26_1 : ∀ i i' : grid26.Coords, (∀ a, reads26_1 a = true → i a = i' a) → cc26_transform_1 i = cc26_transform_1 i'
  hinb26_1 : ∀ (i : grid26.Coords) a, (cc26_transform_1 i a + 1) * S16x256x256.size a ≤ S256x256x256.size a
  hwx26_1 : ∀ i : grid26.Coords, EltTy.bits .f32 = 32 ∨ (Rect.block (s := S256x256x256) S16x256x256.size (cc26_transform_1 i) (hinb26_1 i)).WholeWords (EltTy.packing .f32)
  hstage26_2 : ∀ j, (stage26_2 j).IsWhole
  nbuf26_2 : grid26.bufCount reads26_2 true = 1
  hreads26_2 : ∀ i i' : grid26.Coords, (∀ a, reads26_2 a = true → i a = i' a) → cc26_transform_2 i = cc26_transform_2 i'
  hinb26_2 : ∀ (i : grid26.Coords) a, (cc26_transform_2 i a + 1) * S256x256.size a ≤ S256x256.size a
  hwx26_2 : ∀ i : grid26.Coords, EltTy.bits .f32 = 32 ∨ (Rect.block (s := S256x256) S256x256.size (cc26_transform_2 i) (hinb26_2 i)).WholeWords (EltTy.packing .f32)
  hstage26_3 : ∀ j, (stage26_3 j).IsWhole
  nbuf26_3 : grid26.bufCount reads26_3 false = 2
  hreads26_3 : ∀ i i' : grid26.Coords, (∀ a, reads26_3 a = true → i a = i' a) → cc26_transform_3 i = cc26_transform_3 i'
  hinb26_3 : ∀ (i : grid26.Coords) a, (cc26_transform_3 i a + 1) * S16x64x256.size a ≤ S256x64x256.size a
  hwx26_3 : ∀ i : grid26.Coords, EltTy.bits .f32 = 32 ∨ (Rect.block (s := S256x64x256) S16x64x256.size (cc26_transform_3 i) (hinb26_3 i)).WholeWords (EltTy.packing .f32)

class K27.Facts₀ : Prop where
  hrank27 : 0 < grid27.rank
  hstage27_0 : ∀ j, (stage27_0 j).IsWhole
  nbuf27_0 : grid27.bufCount reads27_0 false = 2
  hreads27_0 : ∀ i i' : grid27.Coords, (∀ a, reads27_0 a = true → i a = i' a) → cc27_transform_0 i = cc27_transform_0 i'
  hinb27_0 : ∀ (i : grid27.Coords) a, (cc27_transform_0 i a + 1) * S2048x256.size a ≤ S32768x256.size a
  hwx27_0 : ∀ i : grid27.Coords, EltTy.bits .f32 = 32 ∨ (Rect.block (s := S32768x256) S2048x256.size (cc27_transform_0 i) (hinb27_0 i)).WholeWords (EltTy.packing .f32)
  hstage27_1 : ∀ j, (stage27_1 j).IsWhole
  nbuf27_1 : grid27.bufCount reads27_1 true = 1
  hreads27_1 : ∀ i i' : grid27.Coords, (∀ a, reads27_1 a = true → i a = i' a) → cc27_transform_1 i = cc27_transform_1 i'
  hinb27_1 : ∀ (i : grid27.Coords) a, (cc27_transform_1 i a + 1) * S256x256.size a ≤ S256x256.size a
  hwx27_1 : ∀ i : grid27.Coords, EltTy.bits .f32 = 32 ∨ (Rect.block (s := S256x256) S256x256.size (cc27_transform_1 i) (hinb27_1 i)).WholeWords (EltTy.packing .f32)
  hstage27_2 : ∀ j, (stage27_2 j).IsWhole
  nbuf27_2 : grid27.bufCount reads27_2 true = 1
  hreads27_2 : ∀ i i' : grid27.Coords, (∀ a, reads27_2 a = true → i a = i' a) → cc27_transform_2 i = cc27_transform_2 i'
  hinb27_2 : ∀ (i : grid27.Coords) a, (cc27_transform_2 i a + 1) * S1x256.size a ≤ S1x256.size a
  hwx27_2 : ∀ i : grid27.Coords, EltTy.bits .f32 = 32 ∨ (Rect.block (s := S1x256) S1x256.size (cc27_transform_2 i) (hinb27_2 i)).WholeWords (EltTy.packing .f32)
  hstage27_3 : ∀ j, (stage27_3 j).IsWhole
  nbuf27_3 : grid27.bufCount reads27_3 false = 2
  hreads27_3 : ∀ i i' : grid27.Coords, (∀ a, reads27_3 a = true → i a = i' a) → cc27_transform_3 i = cc27_transform_3 i'
  hinb27_3 : ∀ (i : grid27.Coords) a, (cc27_transform_3 i a + 1) * S2048x256.size a ≤ S32768x256.size a
  hwx27_3 : ∀ i : grid27.Coords, EltTy.bits .f32 = 32 ∨ (Rect.block (s := S32768x256) S2048x256.size (cc27_transform_3 i) (hinb27_3 i)).WholeWords (EltTy.packing .f32)
  hstage27_4 : ∀ j, (stage27_4 j).IsWhole
  nbuf27_4 : grid27.bufCount reads27_4 false = 2
  hreads27_4 : ∀ i i' : grid27.Coords, (∀ a, reads27_4 a = true → i a = i' a) → cc27_transform_4 i = cc27_transform_4 i'
  hinb27_4 : ∀ (i : grid27.Coords) a, (cc27_transform_4 i a + 1) * S2048x256.size a ≤ S32768x256.size a
  hwx27_4 : ∀ i : grid27.Coords, EltTy.bits .f32 = 32 ∨ (Rect.block (s := S32768x256) S2048x256.size (cc27_transform_4 i) (hinb27_4 i)).WholeWords (EltTy.packing .f32)

class K28.Facts₀ : Prop where
  hrank28 : 0 < grid28.rank
  hstage28_0 : ∀ j, (stage28_0 j).IsWhole
  nbuf28_0 : grid28.bufCount reads28_0 false = 2
  hreads28_0 : ∀ i i' : grid28.Coords, (∀ a, reads28_0 a = true → i a = i' a) → cc28_transform_0 i = cc28_transform_0 i'
  hinb28_0 : ∀ (i : grid28.Coords) a, (cc28_transform_0 i a + 1) * S2048x256.size a ≤ S65536x256.size a
  hwx28_0 : ∀ i : grid28.Coords, EltTy.bits .f32 = 32 ∨ (Rect.block (s := S65536x256) S2048x256.size (cc28_transform_0 i) (hinb28_0 i)).WholeWords (EltTy.packing .f32)
  hstage28_1 : ∀ j, (stage28_1 j).IsWhole
  nbuf28_1 : grid28.bufCount reads28_1 true = 1
  hreads28_1 : ∀ i i' : grid28.Coords, (∀ a, reads28_1 a = true → i a = i' a) → cc28_transform_1 i = cc28_transform_1 i'
  hinb28_1 : ∀ (i : grid28.Coords) a, (cc28_transform_1 i a + 1) * S256x256.size a ≤ S256x256.size a
  hwx28_1 : ∀ i : grid28.Coords, EltTy.bits .f32 = 32 ∨ (Rect.block (s := S256x256) S256x256.size (cc28_transform_1 i) (hinb28_1 i)).WholeWords (EltTy.packing .f32)
  hstage28_2 : ∀ j, (stage28_2 j).IsWhole
  nbuf28_2 : grid28.bufCount reads28_2 true = 1
  hreads28_2 : ∀ i i' : grid28.Coords, (∀ a, reads28_2 a = true → i a = i' a) → cc28_transform_2 i = cc28_transform_2 i'
  hinb28_2 : ∀ (i : grid28.Coords) a, (cc28_transform_2 i a + 1) * S1x256.size a ≤ S1x256.size a
  hwx28_2 : ∀ i : grid28.Coords, EltTy.bits .f32 = 32 ∨ (Rect.block (s := S1x256) S1x256.size (cc28_transform_2 i) (hinb28_2 i)).WholeWords (EltTy.packing .f32)
  hstage28_3 : ∀ j, (stage28_3 j).IsWhole
  nbuf28_3 : grid28.bufCount reads28_3 false = 2
  hreads28_3 : ∀ i i' : grid28.Coords, (∀ a, reads28_3 a = true → i a = i' a) → cc28_transform_3 i = cc28_transform_3 i'
  hinb28_3 : ∀ (i : grid28.Coords) a, (cc28_transform_3 i a + 1) * S2048x256.size a ≤ S65536x256.size a
  hwx28_3 : ∀ i : grid28.Coords, EltTy.bits .f32 = 32 ∨ (Rect.block (s := S65536x256) S2048x256.size (cc28_transform_3 i) (hinb28_3 i)).WholeWords (EltTy.packing .f32)
  hstage28_4 : ∀ j, (stage28_4 j).IsWhole
  nbuf28_4 : grid28.bufCount reads28_4 false = 2
  hreads28_4 : ∀ i i' : grid28.Coords, (∀ a, reads28_4 a = true → i a = i' a) → cc28_transform_4 i = cc28_transform_4 i'
  hinb28_4 : ∀ (i : grid28.Coords) a, (cc28_transform_4 i a + 1) * S2048x256.size a ≤ S65536x256.size a
  hwx28_4 : ∀ i : grid28.Coords, EltTy.bits .f32 = 32 ∨ (Rect.block (s := S65536x256) S2048x256.size (cc28_transform_4 i) (hinb28_4 i)).WholeWords (EltTy.packing .f32)
  hstage28_5 : ∀ j, (stage28_5 j).IsWhole
  nbuf28_5 : grid28.bufCount reads28_5 false = 2
  hreads28_5 : ∀ i i' : grid28.Coords, (∀ a, reads28_5 a = true → i a = i' a) → cc28_transform_5 i = cc28_transform_5 i'
  hinb28_5 : ∀ (i : grid28.Coords) a, (cc28_transform_5 i a + 1) * S2048x256.size a ≤ S65536x256.size a
  hwx28_5 : ∀ i : grid28.Coords, EltTy.bits .f32 = 32 ∨ (Rect.block (s := S65536x256) S2048x256.size (cc28_transform_5 i) (hinb28_5 i)).WholeWords (EltTy.packing .f32)

class K29.Facts₀ : Prop where
  hrank29 : 0 < grid29.rank
  hstage29_0 : ∀ j, (stage29_0 j).IsWhole
  nbuf29_0 : grid29.bufCount reads29_0 false = 2
  hreads29_0 : ∀ i i' : grid29.Coords, (∀ a, reads29_0 a = true → i a = i' a) → cc29_transform_0 i = cc29_transform_0 i'
  hinb29_0 : ∀ (i : grid29.Coords) a, (cc29_transform_0 i a + 1) * S2048x256.size a ≤ S16384x256.size a
  hwx29_0 : ∀ i : grid29.Coords, EltTy.bits .f32 = 32 ∨ (Rect.block (s := S16384x256) S2048x256.size (cc29_transform_0 i) (hinb29_0 i)).WholeWords (EltTy.packing .f32)
  hstage29_1 : ∀ j, (stage29_1 j).IsWhole
  nbuf29_1 : grid29.bufCount reads29_1 true = 1
  hreads29_1 : ∀ i i' : grid29.Coords, (∀ a, reads29_1 a = true → i a = i' a) → cc29_transform_1 i = cc29_transform_1 i'
  hinb29_1 : ∀ (i : grid29.Coords) a, (cc29_transform_1 i a + 1) * S256x256.size a ≤ S256x256.size a
  hwx29_1 : ∀ i : grid29.Coords, EltTy.bits .f32 = 32 ∨ (Rect.block (s := S256x256) S256x256.size (cc29_transform_1 i) (hinb29_1 i)).WholeWords (EltTy.packing .f32)
  hstage29_2 : ∀ j, (stage29_2 j).IsWhole
  nbuf29_2 : grid29.bufCount reads29_2 true = 1
  hreads29_2 : ∀ i i' : grid29.Coords, (∀ a, reads29_2 a = true → i a = i' a) → cc29_transform_2 i = cc29_transform_2 i'
  hinb29_2 : ∀ (i : grid29.Coords) a, (cc29_transform_2 i a + 1) * S1x256.size a ≤ S1x256.size a
  hwx29_2 : ∀ i : grid29.Coords, EltTy.bits .f32 = 32 ∨ (Rect.block (s := S1x256) S1x256.size (cc29_transform_2 i) (hinb29_2 i)).WholeWords (EltTy.packing .f32)
  hstage29_3 : ∀ j, (stage29_3 j).IsWhole
  nbuf29_3 : grid29.bufCount reads29_3 false = 2
  hreads29_3 : ∀ i i' : grid29.Coords, (∀ a, reads29_3 a = true → i a = i' a) → cc29_transform_3 i = cc29_transform_3 i'
  hinb29_3 : ∀ (i : grid29.Coords) a, (cc29_transform_3 i a + 1) * S2048x256.size a ≤ S16384x256.size a
  hwx29_3 : ∀ i : grid29.Coords, EltTy.bits .f32 = 32 ∨ (Rect.block (s := S16384x256) S2048x256.size (cc29_transform_3 i) (hinb29_3 i)).WholeWords (EltTy.packing .f32)
  hstage29_4 : ∀ j, (stage29_4 j).IsWhole
  nbuf29_4 : grid29.bufCount reads29_4 false = 2
  hreads29_4 : ∀ i i' : grid29.Coords, (∀ a, reads29_4 a = true → i a = i' a) → cc29_transform_4 i = cc29_transform_4 i'
  hinb29_4 : ∀ (i : grid29.Coords) a, (cc29_transform_4 i a + 1) * S2048x256.size a ≤ S16384x256.size a
  hwx29_4 : ∀ i : grid29.Coords, EltTy.bits .f32 = 32 ∨ (Rect.block (s := S16384x256) S2048x256.size (cc29_transform_4 i) (hinb29_4 i)).WholeWords (EltTy.packing .f32)

class K30.Facts₀ : Prop where
  hrank30 : 0 < grid30.rank
  hstage30_0 : ∀ j, (stage30_0 j).IsWhole
  nbuf30_0 : grid30.bufCount reads30_0 false = 2
  hreads30_0 : ∀ i i' : grid30.Coords, (∀ a, reads30_0 a = true → i a = i' a) → cc30_transform_0 i = cc30_transform_0 i'
  hinb30_0 : ∀ (i : grid30.Coords) a, (cc30_transform_0 i a + 1) * S2048x256.size a ≤ S32768x256.size a
  hwx30_0 : ∀ i : grid30.Coords, EltTy.bits .f32 = 32 ∨ (Rect.block (s := S32768x256) S2048x256.size (cc30_transform_0 i) (hinb30_0 i)).WholeWords (EltTy.packing .f32)
  hstage30_1 : ∀ j, (stage30_1 j).IsWhole
  nbuf30_1 : grid30.bufCount reads30_1 true = 1
  hreads30_1 : ∀ i i' : grid30.Coords, (∀ a, reads30_1 a = true → i a = i' a) → cc30_transform_1 i = cc30_transform_1 i'
  hinb30_1 : ∀ (i : grid30.Coords) a, (cc30_transform_1 i a + 1) * S256x256.size a ≤ S256x256.size a
  hwx30_1 : ∀ i : grid30.Coords, EltTy.bits .f32 = 32 ∨ (Rect.block (s := S256x256) S256x256.size (cc30_transform_1 i) (hinb30_1 i)).WholeWords (EltTy.packing .f32)
  hstage30_2 : ∀ j, (stage30_2 j).IsWhole
  nbuf30_2 : grid30.bufCount reads30_2 false = 2
  hreads30_2 : ∀ i i' : grid30.Coords, (∀ a, reads30_2 a = true → i a = i' a) → cc30_transform_2 i = cc30_transform_2 i'
  hinb30_2 : ∀ (i : grid30.Coords) a, (cc30_transform_2 i a + 1) * S2048x256.size a ≤ S32768x256.size a
  hwx30_2 : ∀ i : grid30.Coords, EltTy.bits .f32 = 32 ∨ (Rect.block (s := S32768x256) S2048x256.size (cc30_transform_2 i) (hinb30_2 i)).WholeWords (EltTy.packing .f32)

class K31.Facts₀ : Prop where
  hrank31 : 0 < grid31.rank
  hstage31_0 : ∀ j, (stage31_0 j).IsWhole
  nbuf31_0 : grid31.bufCount reads31_0 false = 2
  hreads31_0 : ∀ i i' : grid31.Coords, (∀ a, reads31_0 a = true → i a = i' a) → cc31_transform_0 i = cc31_transform_0 i'
  hinb31_0 : ∀ (i : grid31.Coords) a, (cc31_transform_0 i a + 1) * S2048x256.size a ≤ S65536x256.size a
  hwx31_0 : ∀ i : grid31.Coords, EltTy.bits .f32 = 32 ∨ (Rect.block (s := S65536x256) S2048x256.size (cc31_transform_0 i) (hinb31_0 i)).WholeWords (EltTy.packing .f32)
  hstage31_1 : ∀ j, (stage31_1 j).IsWhole
  nbuf31_1 : grid31.bufCount reads31_1 true = 1
  hreads31_1 : ∀ i i' : grid31.Coords, (∀ a, reads31_1 a = true → i a = i' a) → cc31_transform_1 i = cc31_transform_1 i'
  hinb31_1 : ∀ (i : grid31.Coords) a, (cc31_transform_1 i a + 1) * S256x256.size a ≤ S256x256.size a
  hwx31_1 : ∀ i : grid31.Coords, EltTy.bits .f32 = 32 ∨ (Rect.block (s := S256x256) S256x256.size (cc31_transform_1 i) (hinb31_1 i)).WholeWords (EltTy.packing .f32)
  hstage31_2 : ∀ j, (stage31_2 j).IsWhole
  nbuf31_2 : grid31.bufCount reads31_2 false = 2
  hreads31_2 : ∀ i i' : grid31.Coords, (∀ a, reads31_2 a = true → i a = i' a) → cc31_transform_2 i = cc31_transform_2 i'
  hinb31_2 : ∀ (i : grid31.Coords) a, (cc31_transform_2 i a + 1) * S2048x256.size a ≤ S65536x256.size a
  hwx31_2 : ∀ i : grid31.Coords, EltTy.bits .f32 = 32 ∨ (Rect.block (s := S65536x256) S2048x256.size (cc31_transform_2 i) (hinb31_2 i)).WholeWords (EltTy.packing .f32)

class K32.Facts₀ : Prop where
  hrank32 : 0 < grid32.rank
  hstage32_0 : ∀ j, (stage32_0 j).IsWhole
  nbuf32_0 : grid32.bufCount reads32_0 false = 2
  hreads32_0 : ∀ i i' : grid32.Coords, (∀ a, reads32_0 a = true → i a = i' a) → cc32_transform_0 i = cc32_transform_0 i'
  hinb32_0 : ∀ (i : grid32.Coords) a, (cc32_transform_0 i a + 1) * S2048x256.size a ≤ S65536x256.size a
  hwx32_0 : ∀ i : grid32.Coords, EltTy.bits .f32 = 32 ∨ (Rect.block (s := S65536x256) S2048x256.size (cc32_transform_0 i) (hinb32_0 i)).WholeWords (EltTy.packing .f32)
  hstage32_1 : ∀ j, (stage32_1 j).IsWhole
  nbuf32_1 : grid32.bufCount reads32_1 true = 1
  hreads32_1 : ∀ i i' : grid32.Coords, (∀ a, reads32_1 a = true → i a = i' a) → cc32_transform_1 i = cc32_transform_1 i'
  hinb32_1 : ∀ (i : grid32.Coords) a, (cc32_transform_1 i a + 1) * S256x256.size a ≤ S256x256.size a
  hwx32_1 : ∀ i : grid32.Coords, EltTy.bits .f32 = 32 ∨ (Rect.block (s := S256x256) S256x256.size (cc32_transform_1 i) (hinb32_1 i)).WholeWords (EltTy.packing .f32)
  hstage32_2 : ∀ j, (stage32_2 j).IsWhole
  nbuf32_2 : grid32.bufCount reads32_2 false = 2
  hreads32_2 : ∀ i i' : grid32.Coords, (∀ a, reads32_2 a = true → i a = i' a) → cc32_transform_2 i = cc32_transform_2 i'
  hinb32_2 : ∀ (i : grid32.Coords) a, (cc32_transform_2 i a + 1) * S2048x256.size a ≤ S65536x256.size a
  hwx32_2 : ∀ i : grid32.Coords, EltTy.bits .f32 = 32 ∨ (Rect.block (s := S65536x256) S2048x256.size (cc32_transform_2 i) (hinb32_2 i)).WholeWords (EltTy.packing .f32)

class K33.Facts₀ : Prop where
  hrank33 : 0 < grid33.rank
  hstage33_0 : ∀ j, (stage33_0 j).IsWhole
  nbuf33_0 : grid33.bufCount reads33_0 false = 2
  hreads33_0 : ∀ i i' : grid33.Coords, (∀ a, reads33_0 a = true → i a = i' a) → cc33_transform_0 i = cc33_transform_0 i'
  hinb33_0 : ∀ (i : grid33.Coords) a, (cc33_transform_0 i a + 1) * S2048x256.size a ≤ S16384x256.size a
  hwx33_0 : ∀ i : grid33.Coords, EltTy.bits .f32 = 32 ∨ (Rect.block (s := S16384x256) S2048x256.size (cc33_transform_0 i) (hinb33_0 i)).WholeWords (EltTy.packing .f32)
  hstage33_1 : ∀ j, (stage33_1 j).IsWhole
  nbuf33_1 : grid33.bufCount reads33_1 true = 1
  hreads33_1 : ∀ i i' : grid33.Coords, (∀ a, reads33_1 a = true → i a = i' a) → cc33_transform_1 i = cc33_transform_1 i'
  hinb33_1 : ∀ (i : grid33.Coords) a, (cc33_transform_1 i a + 1) * S256x256.size a ≤ S256x256.size a
  hwx33_1 : ∀ i : grid33.Coords, EltTy.bits .f32 = 32 ∨ (Rect.block (s := S256x256) S256x256.size (cc33_transform_1 i) (hinb33_1 i)).WholeWords (EltTy.packing .f32)
  hstage33_2 : ∀ j, (stage33_2 j).IsWhole
  nbuf33_2 : grid33.bufCount reads33_2 false = 2
  hreads33_2 : ∀ i i' : grid33.Coords, (∀ a, reads33_2 a = true → i a = i' a) → cc33_transform_2 i = cc33_transform_2 i'
  hinb33_2 : ∀ (i : grid33.Coords) a, (cc33_transform_2 i a + 1) * S2048x256.size a ≤ S16384x256.size a
  hwx33_2 : ∀ i : grid33.Coords, EltTy.bits .f32 = 32 ∨ (Rect.block (s := S16384x256) S2048x256.size (cc33_transform_2 i) (hinb33_2 i)).WholeWords (EltTy.packing .f32)

class K34.Facts₀ : Prop where
  hrank34 : 0 < grid34.rank
  hstage34_0 : ∀ j, (stage34_0 j).IsWhole
  nbuf34_0 : grid34.bufCount reads34_0 false = 2
  hreads34_0 : ∀ i i' : grid34.Coords, (∀ a, reads34_0 a = true → i a = i' a) → cc34_transform_0 i = cc34_transform_0 i'
  hinb34_0 : ∀ (i : grid34.Coords) a, (cc34_transform_0 i a + 1) * S2048x256.size a ≤ S32768x256.size a
  hwx34_0 : ∀ i : grid34.Coords, EltTy.bits .f32 = 32 ∨ (Rect.block (s := S32768x256) S2048x256.size (cc34_transform_0 i) (hinb34_0 i)).WholeWords (EltTy.packing .f32)
  hstage34_1 : ∀ j, (stage34_1 j).IsWhole
  nbuf34_1 : grid34.bufCount reads34_1 true = 1
  hreads34_1 : ∀ i i' : grid34.Coords, (∀ a, reads34_1 a = true → i a = i' a) → cc34_transform_1 i = cc34_transform_1 i'
  hinb34_1 : ∀ (i : grid34.Coords) a, (cc34_transform_1 i a + 1) * S256x256.size a ≤ S256x256.size a
  hwx34_1 : ∀ i : grid34.Coords, EltTy.bits .f32 = 32 ∨ (Rect.block (s := S256x256) S256x256.size (cc34_transform_1 i) (hinb34_1 i)).WholeWords (EltTy.packing .f32)
  hstage34_2 : ∀ j, (stage34_2 j).IsWhole
  nbuf34_2 : grid34.bufCount reads34_2 false = 2
  hreads34_2 : ∀ i i' : grid34.Coords, (∀ a, reads34_2 a = true → i a = i' a) → cc34_transform_2 i = cc34_transform_2 i'
  hinb34_2 : ∀ (i : grid34.Coords) a, (cc34_transform_2 i a + 1) * S2048x256.size a ≤ S32768x256.size a
  hwx34_2 : ∀ i : grid34.Coords, EltTy.bits .f32 = 32 ∨ (Rect.block (s := S32768x256) S2048x256.size (cc34_transform_2 i) (hinb34_2 i)).WholeWords (EltTy.packing .f32)

class K35.Facts₀ : Prop where
  hrank35 : 0 < grid35.rank
  hstage35_0 : ∀ j, (stage35_0 j).IsWhole
  nbuf35_0 : grid35.bufCount reads35_0 false = 2
  hreads35_0 : ∀ i i' : grid35.Coords, (∀ a, reads35_0 a = true → i a = i' a) → cc35_transform_0 i = cc35_transform_0 i'
  hinb35_0 : ∀ (i : grid35.Coords) a, (cc35_transform_0 i a + 1) * S8x256x128.size a ≤ S256x256x128.size a
  hwx35_0 : ∀ i : grid35.Coords, EltTy.bits .bf16 = 32 ∨ (Rect.block (s := S256x256x128) S8x256x128.size (cc35_transform_0 i) (hinb35_0 i)).WholeWords (EltTy.packing .bf16)
  hstage35_1 : ∀ j, (stage35_1 j).IsWhole
  nbuf35_1 : grid35.bufCount reads35_1 false = 2
  hreads35_1 : ∀ i i' : grid35.Coords, (∀ a, reads35_1 a = true → i a = i' a) → cc35_transform_1 i = cc35_transform_1 i'
  hinb35_1 : ∀ (i : grid35.Coords) a, (cc35_transform_1 i a + 1) * S8x128x256.size a ≤ S256x128x256.size a
  hwx35_1 : ∀ i : grid35.Coords, EltTy.bits .f32 = 32 ∨ (Rect.block (s := S256x128x256) S8x128x256.size (cc35_transform_1 i) (hinb35_1 i)).WholeWords (EltTy.packing .f32)
  hstage35_2 : ∀ j, (stage35_2 j).IsWhole
  nbuf35_2 : grid35.bufCount reads35_2 false = 2
  hreads35_2 : ∀ i i' : grid35.Coords, (∀ a, reads35_2 a = true → i a = i' a) → cc35_transform_2 i = cc35_transform_2 i'
  hinb35_2 : ∀ (i : grid35.Coords) a, (cc35_transform_2 i a + 1) * S8x256x256.size a ≤ S256x256x256.size a
  hwx35_2 : ∀ i : grid35.Coords, EltTy.bits .f32 = 32 ∨ (Rect.block (s := S256x256x256) S8x256x256.size (cc35_transform_2 i) (hinb35_2 i)).WholeWords (EltTy.packing .f32)

class K36.Facts₀ : Prop where
  hrank36 : 0 < grid36.rank
  hstage36_0 : ∀ j, (stage36_0 j).IsWhole
  nbuf36_0 : grid36.bufCount reads36_0 false = 2
  hreads36_0 : ∀ i i' : grid36.Coords, (∀ a, reads36_0 a = true → i a = i' a) → cc36_transform_0 i = cc36_transform_0 i'
  hinb36_0 : ∀ (i : grid36.Coords) a, (cc36_transform_0 i a + 1) * S16x64x256.size a ≤ S256x64x256.size a
  hwx36_0 : ∀ i : grid36.Coords, EltTy.bits .bf16 = 32 ∨ (Rect.block (s := S256x64x256) S16x64x256.size (cc36_transform_0 i) (hinb36_0 i)).WholeWords (EltTy.packing .bf16)
  hstage36_1 : ∀ j, (stage36_1 j).IsWhole
  nbuf36_1 : grid36.bufCount reads36_1 false = 2
  hreads36_1 : ∀ i i' : grid36.Coords, (∀ a, reads36_1 a = true → i a = i' a) → cc36_transform_1 i = cc36_transform_1 i'
  hinb36_1 : ∀ (i : grid36.Coords) a, (cc36_transform_1 i a + 1) * S16x256x256.size a ≤ S256x256x256.size a
  hwx36_1 : ∀ i : grid36.Coords, EltTy.bits .f32 = 32 ∨ (Rect.block (s := S256x256x256) S16x256x256.size (cc36_transform_1 i) (hinb36_1 i)).WholeWords (EltTy.packing .f32)
  hstage36_2 : ∀ j, (stage36_2 j).IsWhole
  nbuf36_2 : grid36.bufCount reads36_2 true = 1
  hreads36_2 : ∀ i i' : grid36.Coords, (∀ a, reads36_2 a = true → i a = i' a) → cc36_transform_2 i = cc36_transform_2 i'
  hinb36_2 : ∀ (i : grid36.Coords) a, (cc36_transform_2 i a + 1) * S256x256.size a ≤ S256x256.size a
  hwx36_2 : ∀ i : grid36.Coords, EltTy.bits .f32 = 32 ∨ (Rect.block (s := S256x256) S256x256.size (cc36_transform_2 i) (hinb36_2 i)).WholeWords (EltTy.packing .f32)
  hstage36_3 : ∀ j, (stage36_3 j).IsWhole
  nbuf36_3 : grid36.bufCount reads36_3 false = 2
  hreads36_3 : ∀ i i' : grid36.Coords, (∀ a, reads36_3 a = true → i a = i' a) → cc36_transform_3 i = cc36_transform_3 i'
  hinb36_3 : ∀ (i : grid36.Coords) a, (cc36_transform_3 i a + 1) * S16x64x256.size a ≤ S256x64x256.size a
  hwx36_3 : ∀ i : grid36.Coords, EltTy.bits .f32 = 32 ∨ (Rect.block (s := S256x64x256) S16x64x256.size (cc36_transform_3 i) (hinb36_3 i)).WholeWords (EltTy.packing .f32)

class K37.Facts₀ : Prop where
  hrank37 : 0 < grid37.rank
  hstage37_0 : ∀ j, (stage37_0 j).IsWhole
  nbuf37_0 : grid37.bufCount reads37_0 false = 2
  hreads37_0 : ∀ i i' : grid37.Coords, (∀ a, reads37_0 a = true → i a = i' a) → cc37_transform_0 i = cc37_transform_0 i'
  hinb37_0 : ∀ (i : grid37.Coords) a, (cc37_transform_0 i a + 1) * S2048x256.size a ≤ S32768x256.size a
  hwx37_0 : ∀ i : grid37.Coords, EltTy.bits .f32 = 32 ∨ (Rect.block (s := S32768x256) S2048x256.size (cc37_transform_0 i) (hinb37_0 i)).WholeWords (EltTy.packing .f32)
  hstage37_1 : ∀ j, (stage37_1 j).IsWhole
  nbuf37_1 : grid37.bufCount reads37_1 true = 1
  hreads37_1 : ∀ i i' : grid37.Coords, (∀ a, reads37_1 a = true → i a = i' a) → cc37_transform_1 i = cc37_transform_1 i'
  hinb37_1 : ∀ (i : grid37.Coords) a, (cc37_transform_1 i a + 1) * S256x256.size a ≤ S256x256.size a
  hwx37_1 : ∀ i : grid37.Coords, EltTy.bits .f32 = 32 ∨ (Rect.block (s := S256x256) S256x256.size (cc37_transform_1 i) (hinb37_1 i)).WholeWords (EltTy.packing .f32)
  hstage37_2 : ∀ j, (stage37_2 j).IsWhole
  nbuf37_2 : grid37.bufCount reads37_2 true = 1
  hreads37_2 : ∀ i i' : grid37.Coords, (∀ a, reads37_2 a = true → i a = i' a) → cc37_transform_2 i = cc37_transform_2 i'
  hinb37_2 : ∀ (i : grid37.Coords) a, (cc37_transform_2 i a + 1) * S1x256.size a ≤ S1x256.size a
  hwx37_2 : ∀ i : grid37.Coords, EltTy.bits .f32 = 32 ∨ (Rect.block (s := S1x256) S1x256.size (cc37_transform_2 i) (hinb37_2 i)).WholeWords (EltTy.packing .f32)
  hstage37_3 : ∀ j, (stage37_3 j).IsWhole
  nbuf37_3 : grid37.bufCount reads37_3 false = 2
  hreads37_3 : ∀ i i' : grid37.Coords, (∀ a, reads37_3 a = true → i a = i' a) → cc37_transform_3 i = cc37_transform_3 i'
  hinb37_3 : ∀ (i : grid37.Coords) a, (cc37_transform_3 i a + 1) * S2048x256.size a ≤ S32768x256.size a
  hwx37_3 : ∀ i : grid37.Coords, EltTy.bits .f32 = 32 ∨ (Rect.block (s := S32768x256) S2048x256.size (cc37_transform_3 i) (hinb37_3 i)).WholeWords (EltTy.packing .f32)
  hstage37_4 : ∀ j, (stage37_4 j).IsWhole
  nbuf37_4 : grid37.bufCount reads37_4 false = 2
  hreads37_4 : ∀ i i' : grid37.Coords, (∀ a, reads37_4 a = true → i a = i' a) → cc37_transform_4 i = cc37_transform_4 i'
  hinb37_4 : ∀ (i : grid37.Coords) a, (cc37_transform_4 i a + 1) * S2048x256.size a ≤ S32768x256.size a
  hwx37_4 : ∀ i : grid37.Coords, EltTy.bits .f32 = 32 ∨ (Rect.block (s := S32768x256) S2048x256.size (cc37_transform_4 i) (hinb37_4 i)).WholeWords (EltTy.packing .f32)

class K38.Facts₀ : Prop where
  hrank38 : 0 < grid38.rank
  hstage38_0 : ∀ j, (stage38_0 j).IsWhole
  nbuf38_0 : grid38.bufCount reads38_0 false = 2
  hreads38_0 : ∀ i i' : grid38.Coords, (∀ a, reads38_0 a = true → i a = i' a) → cc38_transform_0 i = cc38_transform_0 i'
  hinb38_0 : ∀ (i : grid38.Coords) a, (cc38_transform_0 i a + 1) * S2048x256.size a ≤ S65536x256.size a
  hwx38_0 : ∀ i : grid38.Coords, EltTy.bits .f32 = 32 ∨ (Rect.block (s := S65536x256) S2048x256.size (cc38_transform_0 i) (hinb38_0 i)).WholeWords (EltTy.packing .f32)
  hstage38_1 : ∀ j, (stage38_1 j).IsWhole
  nbuf38_1 : grid38.bufCount reads38_1 true = 1
  hreads38_1 : ∀ i i' : grid38.Coords, (∀ a, reads38_1 a = true → i a = i' a) → cc38_transform_1 i = cc38_transform_1 i'
  hinb38_1 : ∀ (i : grid38.Coords) a, (cc38_transform_1 i a + 1) * S256x256.size a ≤ S256x256.size a
  hwx38_1 : ∀ i : grid38.Coords, EltTy.bits .f32 = 32 ∨ (Rect.block (s := S256x256) S256x256.size (cc38_transform_1 i) (hinb38_1 i)).WholeWords (EltTy.packing .f32)
  hstage38_2 : ∀ j, (stage38_2 j).IsWhole
  nbuf38_2 : grid38.bufCount reads38_2 true = 1
  hreads38_2 : ∀ i i' : grid38.Coords, (∀ a, reads38_2 a = true → i a = i' a) → cc38_transform_2 i = cc38_transform_2 i'
  hinb38_2 : ∀ (i : grid38.Coords) a, (cc38_transform_2 i a + 1) * S1x256.size a ≤ S1x256.size a
  hwx38_2 : ∀ i : grid38.Coords, EltTy.bits .f32 = 32 ∨ (Rect.block (s := S1x256) S1x256.size (cc38_transform_2 i) (hinb38_2 i)).WholeWords (EltTy.packing .f32)
  hstage38_3 : ∀ j, (stage38_3 j).IsWhole
  nbuf38_3 : grid38.bufCount reads38_3 false = 2
  hreads38_3 : ∀ i i' : grid38.Coords, (∀ a, reads38_3 a = true → i a = i' a) → cc38_transform_3 i = cc38_transform_3 i'
  hinb38_3 : ∀ (i : grid38.Coords) a, (cc38_transform_3 i a + 1) * S2048x256.size a ≤ S65536x256.size a
  hwx38_3 : ∀ i : grid38.Coords, EltTy.bits .f32 = 32 ∨ (Rect.block (s := S65536x256) S2048x256.size (cc38_transform_3 i) (hinb38_3 i)).WholeWords (EltTy.packing .f32)
  hstage38_4 : ∀ j, (stage38_4 j).IsWhole
  nbuf38_4 : grid38.bufCount reads38_4 false = 2
  hreads38_4 : ∀ i i' : grid38.Coords, (∀ a, reads38_4 a = true → i a = i' a) → cc38_transform_4 i = cc38_transform_4 i'
  hinb38_4 : ∀ (i : grid38.Coords) a, (cc38_transform_4 i a + 1) * S2048x256.size a ≤ S65536x256.size a
  hwx38_4 : ∀ i : grid38.Coords, EltTy.bits .f32 = 32 ∨ (Rect.block (s := S65536x256) S2048x256.size (cc38_transform_4 i) (hinb38_4 i)).WholeWords (EltTy.packing .f32)
  hstage38_5 : ∀ j, (stage38_5 j).IsWhole
  nbuf38_5 : grid38.bufCount reads38_5 false = 2
  hreads38_5 : ∀ i i' : grid38.Coords, (∀ a, reads38_5 a = true → i a = i' a) → cc38_transform_5 i = cc38_transform_5 i'
  hinb38_5 : ∀ (i : grid38.Coords) a, (cc38_transform_5 i a + 1) * S2048x256.size a ≤ S65536x256.size a
  hwx38_5 : ∀ i : grid38.Coords, EltTy.bits .f32 = 32 ∨ (Rect.block (s := S65536x256) S2048x256.size (cc38_transform_5 i) (hinb38_5 i)).WholeWords (EltTy.packing .f32)

class K39.Facts₀ : Prop where
  hrank39 : 0 < grid39.rank
  hstage39_0 : ∀ j, (stage39_0 j).IsWhole
  nbuf39_0 : grid39.bufCount reads39_0 false = 2
  hreads39_0 : ∀ i i' : grid39.Coords, (∀ a, reads39_0 a = true → i a = i' a) → cc39_transform_0 i = cc39_transform_0 i'
  hinb39_0 : ∀ (i : grid39.Coords) a, (cc39_transform_0 i a + 1) * S2048x256.size a ≤ S16384x256.size a
  hwx39_0 : ∀ i : grid39.Coords, EltTy.bits .f32 = 32 ∨ (Rect.block (s := S16384x256) S2048x256.size (cc39_transform_0 i) (hinb39_0 i)).WholeWords (EltTy.packing .f32)
  hstage39_1 : ∀ j, (stage39_1 j).IsWhole
  nbuf39_1 : grid39.bufCount reads39_1 true = 1
  hreads39_1 : ∀ i i' : grid39.Coords, (∀ a, reads39_1 a = true → i a = i' a) → cc39_transform_1 i = cc39_transform_1 i'
  hinb39_1 : ∀ (i : grid39.Coords) a, (cc39_transform_1 i a + 1) * S256x256.size a ≤ S256x256.size a
  hwx39_1 : ∀ i : grid39.Coords, EltTy.bits .f32 = 32 ∨ (Rect.block (s := S256x256) S256x256.size (cc39_transform_1 i) (hinb39_1 i)).WholeWords (EltTy.packing .f32)
  hstage39_2 : ∀ j, (stage39_2 j).IsWhole
  nbuf39_2 : grid39.bufCount reads39_2 true = 1
  hreads39_2 : ∀ i i' : grid39.Coords, (∀ a, reads39_2 a = true → i a = i' a) → cc39_transform_2 i = cc39_transform_2 i'
  hinb39_2 : ∀ (i : grid39.Coords) a, (cc39_transform_2 i a + 1) * S1x256.size a ≤ S1x256.size a
  hwx39_2 : ∀ i : grid39.Coords, EltTy.bits .f32 = 32 ∨ (Rect.block (s := S1x256) S1x256.size (cc39_transform_2 i) (hinb39_2 i)).WholeWords (EltTy.packing .f32)
  hstage39_3 : ∀ j, (stage39_3 j).IsWhole
  nbuf39_3 : grid39.bufCount reads39_3 false = 2
  hreads39_3 : ∀ i i' : grid39.Coords, (∀ a, reads39_3 a = true → i a = i' a) → cc39_transform_3 i = cc39_transform_3 i'
  hinb39_3 : ∀ (i : grid39.Coords) a, (cc39_transform_3 i a + 1) * S2048x256.size a ≤ S16384x256.size a
  hwx39_3 : ∀ i : grid39.Coords, EltTy.bits .f32 = 32 ∨ (Rect.block (s := S16384x256) S2048x256.size (cc39_transform_3 i) (hinb39_3 i)).WholeWords (EltTy.packing .f32)
  hstage39_4 : ∀ j, (stage39_4 j).IsWhole
  nbuf39_4 : grid39.bufCount reads39_4 false = 2
  hreads39_4 : ∀ i i' : grid39.Coords, (∀ a, reads39_4 a = true → i a = i' a) → cc39_transform_4 i = cc39_transform_4 i'
  hinb39_4 : ∀ (i : grid39.Coords) a, (cc39_transform_4 i a + 1) * S2048x256.size a ≤ S16384x256.size a
  hwx39_4 : ∀ i : grid39.Coords, EltTy.bits .f32 = 32 ∨ (Rect.block (s := S16384x256) S2048x256.size (cc39_transform_4 i) (hinb39_4 i)).WholeWords (EltTy.packing .f32)

class K40.Facts₀ : Prop where
  hrank40 : 0 < grid40.rank
  hstage40_0 : ∀ j, (stage40_0 j).IsWhole
  nbuf40_0 : grid40.bufCount reads40_0 false = 2
  hreads40_0 : ∀ i i' : grid40.Coords, (∀ a, reads40_0 a = true → i a = i' a) → cc40_transform_0 i = cc40_transform_0 i'
  hinb40_0 : ∀ (i : grid40.Coords) a, (cc40_transform_0 i a + 1) * S8x128x256.size a ≤ S256x128x256.size a
  hwx40_0 : ∀ i : grid40.Coords, EltTy.bits .f32 = 32 ∨ (Rect.block (s := S256x128x256) S8x128x256.size (cc40_transform_0 i) (hinb40_0 i)).WholeWords (EltTy.packing .f32)
  hstage40_1 : ∀ j, (stage40_1 j).IsWhole
  nbuf40_1 : grid40.bufCount reads40_1 false = 2
  hreads40_1 : ∀ i i' : grid40.Coords, (∀ a, reads40_1 a = true → i a = i' a) → cc40_transform_1 i = cc40_transform_1 i'
  hinb40_1 : ∀ (i : grid40.Coords) a, (cc40_transform_1 i a + 1) * S8x128x256.size a ≤ S256x128x256.size a
  hwx40_1 : ∀ i : grid40.Coords, EltTy.bits .f32 = 32 ∨ (Rect.block (s := S256x128x256) S8x128x256.size (cc40_transform_1 i) (hinb40_1 i)).WholeWords (EltTy.packing .f32)
  hstage40_2 : ∀ j, (stage40_2 j).IsWhole
  nbuf40_2 : grid40.bufCount reads40_2 true = 1
  hreads40_2 : ∀ i i' : grid40.Coords, (∀ a, reads40_2 a = true → i a = i' a) → cc40_transform_2 i = cc40_transform_2 i'
  hinb40_2 : ∀ (i : grid40.Coords) a, (cc40_transform_2 i a + 1) * S256x256.size a ≤ S256x256.size a
  hwx40_2 : ∀ i : grid40.Coords, EltTy.bits .f32 = 32 ∨ (Rect.block (s := S256x256) S256x256.size (cc40_transform_2 i) (hinb40_2 i)).WholeWords (EltTy.packing .f32)
  hstage40_3 : ∀ j, (stage40_3 j).IsWhole
  nbuf40_3 : grid40.bufCount reads40_3 true = 1
  hreads40_3 : ∀ i i' : grid40.Coords, (∀ a, reads40_3 a = true → i a = i' a) → cc40_transform_3 i = cc40_transform_3 i'
  hinb40_3 : ∀ (i : grid40.Coords) a, (cc40_transform_3 i a + 1) * S256x256.size a ≤ S256x256.size a
  hwx40_3 : ∀ i : grid40.Coords, EltTy.bits .f32 = 32 ∨ (Rect.block (s := S256x256) S256x256.size (cc40_transform_3 i) (hinb40_3 i)).WholeWords (EltTy.packing .f32)
  hstage40_4 : ∀ j, (stage40_4 j).IsWhole
  nbuf40_4 : grid40.bufCount reads40_4 true = 1
  hreads40_4 : ∀ i i' : grid40.Coords, (∀ a, reads40_4 a = true → i a = i' a) → cc40_transform_4 i = cc40_transform_4 i'
  hinb40_4 : ∀ (i : grid40.Coords) a, (cc40_transform_4 i a + 1) * S1x256.size a ≤ S1x256.size a
  hwx40_4 : ∀ i : grid40.Coords, EltTy.bits .f32 = 32 ∨ (Rect.block (s := S1x256) S1x256.size (cc40_transform_4 i) (hinb40_4 i)).WholeWords (EltTy.packing .f32)
  hstage40_5 : ∀ j, (stage40_5 j).IsWhole
  nbuf40_5 : grid40.bufCount reads40_5 false = 2
  hreads40_5 : ∀ i i' : grid40.Coords, (∀ a, reads40_5 a = true → i a = i' a) → cc40_transform_5 i = cc40_transform_5 i'
  hinb40_5 : ∀ (i : grid40.Coords) a, (cc40_transform_5 i a + 1) * S8x256.size a ≤ S256x256.size a
  hwx40_5 : ∀ i : grid40.Coords, EltTy.bits .f32 = 32 ∨ (Rect.block (s := S256x256) S8x256.size (cc40_transform_5 i) (hinb40_5 i)).WholeWords (EltTy.packing .f32)

class K41.Facts₀ : Prop where
  hrank41 : 0 < grid41.rank
  hstage41_0 : ∀ j, (stage41_0 j).IsWhole
  nbuf41_0 : grid41.bufCount reads41_0 false = 2
  hreads41_0 : ∀ i i' : grid41.Coords, (∀ a, reads41_0 a = true → i a = i' a) → cc41_transform_0 i = cc41_transform_0 i'
  hinb41_0 : ∀ (i : grid41.Coords) a, (cc41_transform_0 i a + 1) * S8x256x256.size a ≤ S256x256x256.size a
  hwx41_0 : ∀ i : grid41.Coords, EltTy.bits .f32 = 32 ∨ (Rect.block (s := S256x256x256) S8x256x256.size (cc41_transform_0 i) (hinb41_0 i)).WholeWords (EltTy.packing .f32)
  hstage41_1 : ∀ j, (stage41_1 j).IsWhole
  nbuf41_1 : grid41.bufCount reads41_1 false = 2
  hreads41_1 : ∀ i i' : grid41.Coords, (∀ a, reads41_1 a = true → i a = i' a) → cc41_transform_1 i = cc41_transform_1 i'
  hinb41_1 : ∀ (i : grid41.Coords) a, (cc41_transform_1 i a + 1) * S8x256x256.size a ≤ S256x256x256.size a
  hwx41_1 : ∀ i : grid41.Coords, EltTy.bits .f32 = 32 ∨ (Rect.block (s := S256x256x256) S8x256x256.size (cc41_transform_1 i) (hinb41_1 i)).WholeWords (EltTy.packing .f32)
  hstage41_2 : ∀ j, (stage41_2 j).IsWhole
  nbuf41_2 : grid41.bufCount reads41_2 true = 1
  hreads41_2 : ∀ i i' : grid41.Coords, (∀ a, reads41_2 a = true → i a = i' a) → cc41_transform_2 i = cc41_transform_2 i'
  hinb41_2 : ∀ (i : grid41.Coords) a, (cc41_transform_2 i a + 1) * S256x256.size a ≤ S256x256.size a
  hwx41_2 : ∀ i : grid41.Coords, EltTy.bits .f32 = 32 ∨ (Rect.block (s := S256x256) S256x256.size (cc41_transform_2 i) (hinb41_2 i)).WholeWords (EltTy.packing .f32)
  hstage41_3 : ∀ j, (stage41_3 j).IsWhole
  nbuf41_3 : grid41.bufCount reads41_3 true = 1
  hreads41_3 : ∀ i i' : grid41.Coords, (∀ a, reads41_3 a = true → i a = i' a) → cc41_transform_3 i = cc41_transform_3 i'
  hinb41_3 : ∀ (i : grid41.Coords) a, (cc41_transform_3 i a + 1) * S256x256.size a ≤ S256x256.size a
  hwx41_3 : ∀ i : grid41.Coords, EltTy.bits .f32 = 32 ∨ (Rect.block (s := S256x256) S256x256.size (cc41_transform_3 i) (hinb41_3 i)).WholeWords (EltTy.packing .f32)
  hstage41_4 : ∀ j, (stage41_4 j).IsWhole
  nbuf41_4 : grid41.bufCount reads41_4 true = 1
  hreads41_4 : ∀ i i' : grid41.Coords, (∀ a, reads41_4 a = true → i a = i' a) → cc41_transform_4 i = cc41_transform_4 i'
  hinb41_4 : ∀ (i : grid41.Coords) a, (cc41_transform_4 i a + 1) * S1x256.size a ≤ S1x256.size a
  hwx41_4 : ∀ i : grid41.Coords, EltTy.bits .f32 = 32 ∨ (Rect.block (s := S1x256) S1x256.size (cc41_transform_4 i) (hinb41_4 i)).WholeWords (EltTy.packing .f32)
  hstage41_5 : ∀ j, (stage41_5 j).IsWhole
  nbuf41_5 : grid41.bufCount reads41_5 false = 2
  hreads41_5 : ∀ i i' : grid41.Coords, (∀ a, reads41_5 a = true → i a = i' a) → cc41_transform_5 i = cc41_transform_5 i'
  hinb41_5 : ∀ (i : grid41.Coords) a, (cc41_transform_5 i a + 1) * S8x256.size a ≤ S256x256.size a
  hwx41_5 : ∀ i : grid41.Coords, EltTy.bits .f32 = 32 ∨ (Rect.block (s := S256x256) S8x256.size (cc41_transform_5 i) (hinb41_5 i)).WholeWords (EltTy.packing .f32)

class K42.Facts₀ : Prop where
  hrank42 : 0 < grid42.rank
  hstage42_0 : ∀ j, (stage42_0 j).IsWhole
  nbuf42_0 : grid42.bufCount reads42_0 false = 2
  hreads42_0 : ∀ i i' : grid42.Coords, (∀ a, reads42_0 a = true → i a = i' a) → cc42_transform_0 i = cc42_transform_0 i'
  hinb42_0 : ∀ (i : grid42.Coords) a, (cc42_transform_0 i a + 1) * S8x64x256.size a ≤ S256x64x256.size a
  hwx42_0 : ∀ i : grid42.Coords, EltTy.bits .f32 = 32 ∨ (Rect.block (s := S256x64x256) S8x64x256.size (cc42_transform_0 i) (hinb42_0 i)).WholeWords (EltTy.packing .f32)
  hstage42_1 : ∀ j, (stage42_1 j).IsWhole
  nbuf42_1 : grid42.bufCount reads42_1 false = 2
  hreads42_1 : ∀ i i' : grid42.Coords, (∀ a, reads42_1 a = true → i a = i' a) → cc42_transform_1 i = cc42_transform_1 i'
  hinb42_1 : ∀ (i : grid42.Coords) a, (cc42_transform_1 i a + 1) * S8x64x256.size a ≤ S256x64x256.size a
  hwx42_1 : ∀ i : grid42.Coords, EltTy.bits .f32 = 32 ∨ (Rect.block (s := S256x64x256) S8x64x256.size (cc42_transform_1 i) (hinb42_1 i)).WholeWords (EltTy.packing .f32)
  hstage42_2 : ∀ j, (stage42_2 j).IsWhole
  nbuf42_2 : grid42.bufCount reads42_2 true = 1
  hreads42_2 : ∀ i i' : grid42.Coords, (∀ a, reads42_2 a = true → i a = i' a) → cc42_transform_2 i = cc42_transform_2 i'
  hinb42_2 : ∀ (i : grid42.Coords) a, (cc42_transform_2 i a + 1) * S256x256.size a ≤ S256x256.size a
  hwx42_2 : ∀ i : grid42.Coords, EltTy.bits .f32 = 32 ∨ (Rect.block (s := S256x256) S256x256.size (cc42_transform_2 i) (hinb42_2 i)).WholeWords (EltTy.packing .f32)
  hstage42_3 : ∀ j, (stage42_3 j).IsWhole
  nbuf42_3 : grid42.bufCount reads42_3 true = 1
  hreads42_3 : ∀ i i' : grid42.Coords, (∀ a, reads42_3 a = true → i a = i' a) → cc42_transform_3 i = cc42_transform_3 i'
  hinb42_3 : ∀ (i : grid42.Coords) a, (cc42_transform_3 i a + 1) * S256x256.size a ≤ S256x256.size a
  hwx42_3 : ∀ i : grid42.Coords, EltTy.bits .f32 = 32 ∨ (Rect.block (s := S256x256) S256x256.size (cc42_transform_3 i) (hinb42_3 i)).WholeWords (EltTy.packing .f32)
  hstage42_4 : ∀ j, (stage42_4 j).IsWhole
  nbuf42_4 : grid42.bufCount reads42_4 true = 1
  hreads42_4 : ∀ i i' : grid42.Coords, (∀ a, reads42_4 a = true → i a = i' a) → cc42_transform_4 i = cc42_transform_4 i'
  hinb42_4 : ∀ (i : grid42.Coords) a, (cc42_transform_4 i a + 1) * S1x256.size a ≤ S1x256.size a
  hwx42_4 : ∀ i : grid42.Coords, EltTy.bits .f32 = 32 ∨ (Rect.block (s := S1x256) S1x256.size (cc42_transform_4 i) (hinb42_4 i)).WholeWords (EltTy.packing .f32)
  hstage42_5 : ∀ j, (stage42_5 j).IsWhole
  nbuf42_5 : grid42.bufCount reads42_5 false = 2
  hreads42_5 : ∀ i i' : grid42.Coords, (∀ a, reads42_5 a = true → i a = i' a) → cc42_transform_5 i = cc42_transform_5 i'
  hinb42_5 : ∀ (i : grid42.Coords) a, (cc42_transform_5 i a + 1) * S8x256.size a ≤ S256x256.size a
  hwx42_5 : ∀ i : grid42.Coords, EltTy.bits .f32 = 32 ∨ (Rect.block (s := S256x256) S8x256.size (cc42_transform_5 i) (hinb42_5 i)).WholeWords (EltTy.packing .f32)

class Shapes1.Facts₀ : Prop where
  bcast_S_S256x256x128 : S_.BroadcastsInDim S256x256x128 (![] : Fin 0 → Fin S256x256x128.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x1_S131072x3_d1 : Shape.Concatenates [S131072x1, S131072x1, S131072x1] S131072x3 1
  bcast_S_S256x64x256 : S_.BroadcastsInDim S256x64x256 (![] : Fin 0 → Fin S256x64x256.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x1_S65536x3_d1 : Shape.Concatenates [S65536x1, S65536x1, S65536x1] S65536x3 1
  bcast_S_S98304 : S_.BroadcastsInDim S98304 (![] : Fin 0 → Fin S98304.rank)
  slices_S4x2x256x256_S1x1x256x256_0_0_0_0 : S4x2x256x256.Slices ![0, 0, 0, 0] S1x1x256x256
  shapeCasts_S1x1x256x256_S256x256 : S1x1x256x256.ShapeCasts S256x256
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S4x2x256x256_S1x1x256x256_0_1_0_0 : S4x2x256x256.Slices ![0, 1, 0, 0] S1x1x256x256
  bcast_S_S131072x256 : S_.BroadcastsInDim S131072x256 (![] : Fin 0 → Fin S131072x256.rank)
  bcast_S_S32768x256 : S_.BroadcastsInDim S32768x256 (![] : Fin 0 → Fin S32768x256.rank)
  bcast_S98304_S98304x1_0 : S98304.BroadcastsInDim S98304x1 (![0] : Fin 1 → Fin S98304x1.rank)
  bcast_S_S98304x256 : S_.BroadcastsInDim S98304x256 (![] : Fin 0 → Fin S98304x256.rank)
  bcast_S_S65536x256 : S_.BroadcastsInDim S65536x256 (![] : Fin 0 → Fin S65536x256.rank)
  shapeCasts_S32768x256_S256x128x256 : S32768x256.ShapeCasts S256x128x256
  inb_S8x256x128_S8x256x128_0_0_0 : ∀ a, (![0, 0, 0] : Fin 3 → Nat) a + S8x256x128.size a ≤ S8x256x128.size a
  h_S8x256x128 : 0 < S8x256x128.numel
  shapeCasts_S8x256x128_S8x256x128 : S8x256x128.ShapeCasts S8x256x128
  inb_S8x128x256_S8x128x256_0_0_0 : ∀ a, (![0, 0, 0] : Fin 3 → Nat) a + S8x128x256.size a ≤ S8x128x256.size a
  h_S8x128x256 : 0 < S8x128x256.numel
  shapeCasts_S8x128x256_S8x128x256 : S8x128x256.ShapeCasts S8x128x256
  inb_S8x256x256_S8x256x256_0_0_0 : ∀ a, (![0, 0, 0] : Fin 3 → Nat) a + S8x256x256.size a ≤ S8x256x256.size a
  h_S8x256x256 : 0 < S8x256x256.numel
  shapeCasts_S256x256x256_S65536x256 : S256x256x256.ShapeCasts S65536x256
  shapeCasts_S65536x256_S256x256x256 : S65536x256.ShapeCasts S256x256x256
  inb_S16x64x256_S16x64x256_0_0_0 : ∀ a, (![0, 0, 0] : Fin 3 → Nat) a + S16x64x256.size a ≤ S16x64x256.size a
  h_S16x64x256 : 0 < S16x64x256.numel
  shapeCasts_S16x64x256_S16x64x256 : S16x64x256.ShapeCasts S16x64x256
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  shapeCasts_S16x64x256_S1024x256 : S16x64x256.ShapeCasts S1024x256
  shapeCasts_S1024x256_S16x64x256 : S1024x256.ShapeCasts S16x64x256
  shapeCasts_S256x64x256_S16384x256 : S256x64x256.ShapeCasts S16384x256
  slices_S4x3x256x256_S1x1x256x256_0_0_0_0 : S4x3x256x256.Slices ![0, 0, 0, 0] S1x1x256x256
  slices_S4x3x256_S1x1x256_0_0_0 : S4x3x256.Slices ![0, 0, 0] S1x1x256
  shapeCasts_S1x1x256_S256 : S1x1x256.ShapeCasts S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S2048x256_S2048x256 : S2048x256.ShapeCasts S2048x256
  slices_S4x3x256x256_S1x1x256x256_0_1_0_0 : S4x3x256x256.Slices ![0, 1, 0, 0] S1x1x256x256
  slices_S4x3x256_S1x1x256_0_1_0 : S4x3x256.Slices ![0, 1, 0] S1x1x256
  slices_S4x3x256x256_S1x1x256x256_0_2_0_0 : S4x3x256x256.Slices ![0, 2, 0, 0] S1x1x256x256
  slices_S4x3x256_S1x1x256_0_2_0 : S4x3x256.Slices ![0, 2, 0] S1x1x256
  slices_S4x2x256x256_S1x1x256x256_1_0_0_0 : S4x2x256x256.Slices ![1, 0, 0, 0] S1x1x256x256
  slices_S4x2x256x256_S1x1x256x256_1_1_0_0 : S4x2x256x256.Slices ![1, 1, 0, 0] S1x1x256x256
  slices_S4x3x256x256_S1x1x256x256_1_0_0_0 : S4x3x256x256.Slices ![1, 0, 0, 0] S1x1x256x256
  slices_S4x3x256_S1x1x256_1_0_0 : S4x3x256.Slices ![1, 0, 0] S1x1x256
  slices_S4x3x256x256_S1x1x256x256_1_1_0_0 : S4x3x256x256.Slices ![1, 1, 0, 0] S1x1x256x256
  slices_S4x3x256_S1x1x256_1_1_0 : S4x3x256.Slices ![1, 1, 0] S1x1x256
  slices_S4x3x256x256_S1x1x256x256_1_2_0_0 : S4x3x256x256.Slices ![1, 2, 0, 0] S1x1x256x256
  slices_S4x3x256_S1x1x256_1_2_0 : S4x3x256.Slices ![1, 2, 0] S1x1x256
  slices_S4x2x256x256_S1x1x256x256_2_0_0_0 : S4x2x256x256.Slices ![2, 0, 0, 0] S1x1x256x256
  slices_S4x2x256x256_S1x1x256x256_2_1_0_0 : S4x2x256x256.Slices ![2, 1, 0, 0] S1x1x256x256
  slices_S4x3x256x256_S1x1x256x256_2_0_0_0 : S4x3x256x256.Slices ![2, 0, 0, 0] S1x1x256x256
  slices_S4x3x256_S1x1x256_2_0_0 : S4x3x256.Slices ![2, 0, 0] S1x1x256
  slices_S4x3x256x256_S1x1x256x256_2_1_0_0 : S4x3x256x256.Slices ![2, 1, 0, 0] S1x1x256x256
  slices_S4x3x256_S1x1x256_2_1_0 : S4x3x256.Slices ![2, 1, 0] S1x1x256
  slices_S4x3x256x256_S1x1x256x256_2_2_0_0 : S4x3x256x256.Slices ![2, 2, 0, 0] S1x1x256x256
  slices_S4x3x256_S1x1x256_2_2_0 : S4x3x256.Slices ![2, 2, 0] S1x1x256
  slices_S4x2x256x256_S1x1x256x256_3_0_0_0 : S4x2x256x256.Slices ![3, 0, 0, 0] S1x1x256x256
  slices_S4x2x256x256_S1x1x256x256_3_1_0_0 : S4x2x256x256.Slices ![3, 1, 0, 0] S1x1x256x256
  slices_S4x3x256x256_S1x1x256x256_3_0_0_0 : S4x3x256x256.Slices ![3, 0, 0, 0] S1x1x256x256
  slices_S4x3x256_S1x1x256_3_0_0 : S4x3x256.Slices ![3, 0, 0] S1x1x256
  slices_S4x3x256x256_S1x1x256x256_3_1_0_0 : S4x3x256x256.Slices ![3, 1, 0, 0] S1x1x256x256
  slices_S4x3x256_S1x1x256_3_1_0 : S4x3x256.Slices ![3, 1, 0] S1x1x256
  slices_S4x3x256x256_S1x1x256x256_3_2_0_0 : S4x3x256x256.Slices ![3, 2, 0, 0] S1x1x256x256
  slices_S4x3x256_S1x1x256_3_2_0 : S4x3x256.Slices ![3, 2, 0] S1x1x256
  shapeCasts_S8x128x256_S1024x256 : S8x128x256.ShapeCasts S1024x256
  broadcasts_S1x256_S1024x256 : S1x256.Broadcasts S1024x256
  shapeCasts_S1024x256_S8x128x256 : S1024x256.ShapeCasts S8x128x256
  reduces_S8x128x256_S8x256 : S8x128x256.Reduces [1] S8x256
  inb_S8x256_S8x256_0_0 : ∀ a, (![0, 0] : Fin 2 → Nat) a + S8x256.size a ≤ S8x256.size a
  h_S8x256 : 0 < S8x256.numel
  shapeCasts_S8x256x256_S8x256x256 : S8x256x256.ShapeCasts S8x256x256
  shapeCasts_S8x256x256_S2048x256 : S8x256x256.ShapeCasts S2048x256
  shapeCasts_S2048x256_S8x256x256 : S2048x256.ShapeCasts S8x256x256
  reduces_S8x256x256_S8x256 : S8x256x256.Reduces [1] S8x256
  shapeCasts_S16384x256_S256x64x256 : S16384x256.ShapeCasts S256x64x256
  inb_S8x64x256_S8x64x256_0_0_0 : ∀ a, (![0, 0, 0] : Fin 3 → Nat) a + S8x64x256.size a ≤ S8x64x256.size a
  h_S8x64x256 : 0 < S8x64x256.numel
  shapeCasts_S8x64x256_S8x64x256 : S8x64x256.ShapeCasts S8x64x256
  shapeCasts_S8x64x256_S512x256 : S8x64x256.ShapeCasts S512x256
  broadcasts_S1x256_S512x256 : S1x256.Broadcasts S512x256
  shapeCasts_S512x256_S8x64x256 : S512x256.ShapeCasts S8x64x256
  reduces_S8x64x256_S8x256 : S8x64x256.Reduces [1] S8x256
  slices_S3x256x512_S1x256x512_0_0_0 : S3x256x512.Slices ![0, 0, 0] S1x256x512
  shapeCasts_S1x256x512_S256x512 : S1x256x512.ShapeCasts S256x512
  slices_S3x512_S1x512_0_0 : S3x512.Slices ![0, 0] S1x512
  shapeCasts_S1x512_S512 : S1x512.ShapeCasts S512
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  bcast_S_S256x512 : S_.BroadcastsInDim S256x512 (![] : Fin 0 → Fin S256x512.rank)
  slices_S3x256x512_S1x256x512_1_0_0 : S3x256x512.Slices ![1, 0, 0] S1x256x512
  slices_S3x512_S1x512_1_0 : S3x512.Slices ![1, 0] S1x512
  slices_S3x256x512_S1x256x512_2_0_0 : S3x256x512.Slices ![2, 0, 0] S1x256x512
  slices_S3x512_S1x512_2_0 : S3x512.Slices ![2, 0] S1x512
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S256x256x128_S131072x3_S131072_n_012_012_1_wf : ScatterDims.WF S256x256x128 S131072x3 S131072 [] [0, 1, 2] [0, 1, 2] 1
  scatter_S256x64x256_S65536x3_S65536_n_012_012_1_wf : ScatterDims.WF S256x64x256 S65536x3 S65536 [] [0, 1, 2] [0, 1, 2] 1
  dot_S2048x256_S256x256_S2048x256_1_0_0_1_n_n_wf : DotDims.WF S2048x256 S256x256 S2048x256 [1] [0] [0] [1] [] []
  gather_S32768x256_S131072x1_S131072x256_1_0_n_n_0_1_1256_wf : GatherDims.WF S32768x256 S131072x1 S131072x256 [1] [0] [] [0] [] 1 ![1, 256]
  gather_S65536x256_S131072x1_S131072x256_1_0_n_n_0_1_1256_wf : GatherDims.WF S65536x256 S131072x1 S131072x256 [1] [0] [] [0] [] 1 ![1, 256]
  scatter_S32768x256_S131072x1_S131072x256_1_0_0_1_wf : ScatterDims.WF S32768x256 S131072x1 S131072x256 [1] [0] [0] 1
  gather_S65536x256_S98304x1_S98304x256_1_0_n_n_0_1_1256_wf : GatherDims.WF S65536x256 S98304x1 S98304x256 [1] [0] [] [0] [] 1 ![1, 256]
  gather_S16384x256_S98304x1_S98304x256_1_0_n_n_0_1_1256_wf : GatherDims.WF S16384x256 S98304x1 S98304x256 [1] [0] [] [0] [] 1 ![1, 256]
  scatter_S65536x256_S98304x1_S98304x256_1_0_0_1_wf : ScatterDims.WF S65536x256 S98304x1 S98304x256 [1] [0] [0] 1
  dot_S8x256x128_S8x128x256_S8x256x256_2_1_1_2_0_0_wf : DotDims.WF S8x256x128 S8x128x256 S8x256x256 [2] [1] [1] [2] [0] [0]
  dot_S16x64x256_S16x256x256_S16x64x256_2_1_1_2_0_0_wf : DotDims.WF S16x64x256 S16x256x256 S16x64x256 [2] [1] [1] [2] [0] [0]
  dot_S1024x256_S256x256_S1024x256_1_0_0_1_n_n_wf : DotDims.WF S1024x256 S256x256 S1024x256 [1] [0] [0] [1] [] []
  dot_S512x256_S256x256_S512x256_1_0_0_1_n_n_wf : DotDims.WF S512x256 S256x256 S512x256 [1] [0] [0] [1] [] []
  dot_S256x256_S256x512_S256x512_1_0_0_1_n_n_wf : DotDims.WF S256x256 S256x512 S256x512 [1] [0] [0] [1] [] []
  dot_S256x512_S512x10_S256x10_1_0_0_1_n_n_wf : DotDims.WF S256x512 S512x10 S256x10 [1] [0] [0] [1] [] []

class Facts₀ : Prop where
  k0 : K0.Facts₀
  k1 : K1.Facts₀
  k2 : K2.Facts₀
  k3 : K3.Facts₀
  k4 : K4.Facts₀
  k5 : K5.Facts₀
  k6 : K6.Facts₀
  k7 : K7.Facts₀
  k8 : K8.Facts₀
  k9 : K9.Facts₀
  k10 : K10.Facts₀
  k11 : K11.Facts₀
  k12 : K12.Facts₀
  k13 : K13.Facts₀
  k14 : K14.Facts₀
  k15 : K15.Facts₀
  k16 : K16.Facts₀
  k17 : K17.Facts₀
  k18 : K18.Facts₀
  k19 : K19.Facts₀
  k20 : K20.Facts₀
  k21 : K21.Facts₀
  k22 : K22.Facts₀
  k23 : K23.Facts₀
  k24 : K24.Facts₀
  k25 : K25.Facts₀
  k26 : K26.Facts₀
  k27 : K27.Facts₀
  k28 : K28.Facts₀
  k29 : K29.Facts₀
  k30 : K30.Facts₀
  k31 : K31.Facts₀
  k32 : K32.Facts₀
  k33 : K33.Facts₀
  k34 : K34.Facts₀
  k35 : K35.Facts₀
  k36 : K36.Facts₀
  k37 : K37.Facts₀
  k38 : K38.Facts₀
  k39 : K39.Facts₀
  k40 : K40.Facts₀
  k41 : K41.Facts₀
  k42 : K42.Facts₀
  shapes1 : Shapes1.Facts₀
attribute [instance] Facts₀.k0 Facts₀.k1 Facts₀.k2 Facts₀.k3 Facts₀.k4 Facts₀.k5 Facts₀.k6 Facts₀.k7 Facts₀.k8 Facts₀.k9 Facts₀.k10 Facts₀.k11 Facts₀.k12 Facts₀.k13 Facts₀.k14 Facts₀.k15 Facts₀.k16 Facts₀.k17 Facts₀.k18 Facts₀.k19 Facts₀.k20 Facts₀.k21 Facts₀.k22 Facts₀.k23 Facts₀.k24 Facts₀.k25 Facts₀.k26 Facts₀.k27 Facts₀.k28 Facts₀.k29 Facts₀.k30 Facts₀.k31 Facts₀.k32 Facts₀.k33 Facts₀.k34 Facts₀.k35 Facts₀.k36 Facts₀.k37 Facts₀.k38 Facts₀.k39 Facts₀.k40 Facts₀.k41 Facts₀.k42 Facts₀.shapes1

variable [Facts₀]

def scatter_S256x256x128_S131072x3_S131072_n_012_012_1 : ScatterDims S256x256x128 S131072x3 S131072 where
  updateWindowDims := []
  insertedWindowDims := [0, 1, 2]
  scatterDimsToOperandDims := [0, 1, 2]
  indexVectorDim := 1
  wf := scatter_S256x256x128_S131072x3_S131072_n_012_012_1_wf
def scatter_S256x64x256_S65536x3_S65536_n_012_012_1 : ScatterDims S256x64x256 S65536x3 S65536 where
  updateWindowDims := []
  insertedWindowDims := [0, 1, 2]
  scatterDimsToOperandDims := [0, 1, 2]
  indexVectorDim := 1
  wf := scatter_S256x64x256_S65536x3_S65536_n_012_012_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def gather_S32768x256_S131072x1_S131072x256_1_0_n_n_0_1_1256 : GatherDims S32768x256 S131072x1 S131072x256 where
  offsetDims := [1]
  collapsedSliceDims := [0]
  operandBatchingDims := []
  startIndicesBatchingDims := []
  startIndexMap := [0]
  indexVectorDim := 1
  sliceSizes := ![1, 256]
  wf := gather_S32768x256_S131072x1_S131072x256_1_0_n_n_0_1_1256_wf
def gather_S65536x256_S131072x1_S131072x256_1_0_n_n_0_1_1256 : GatherDims S65536x256 S131072x1 S131072x256 where
  offsetDims := [1]
  collapsedSliceDims := [0]
  operandBatchingDims := []
  startIndicesBatchingDims := []
  startIndexMap := [0]
  indexVectorDim := 1
  sliceSizes := ![1, 256]
  wf := gather_S65536x256_S131072x1_S131072x256_1_0_n_n_0_1_1256_wf
def scatter_S32768x256_S131072x1_S131072x256_1_0_0_1 : ScatterDims S32768x256 S131072x1 S131072x256 where
  updateWindowDims := [1]
  insertedWindowDims := [0]
  scatterDimsToOperandDims := [0]
  indexVectorDim := 1
  wf := scatter_S32768x256_S131072x1_S131072x256_1_0_0_1_wf
def gather_S65536x256_S98304x1_S98304x256_1_0_n_n_0_1_1256 : GatherDims S65536x256 S98304x1 S98304x256 where
  offsetDims := [1]
  collapsedSliceDims := [0]
  operandBatchingDims := []
  startIndicesBatchingDims := []
  startIndexMap := [0]
  indexVectorDim := 1
  sliceSizes := ![1, 256]
  wf := gather_S65536x256_S98304x1_S98304x256_1_0_n_n_0_1_1256_wf
def gather_S16384x256_S98304x1_S98304x256_1_0_n_n_0_1_1256 : GatherDims S16384x256 S98304x1 S98304x256 where
  offsetDims := [1]
  collapsedSliceDims := [0]
  operandBatchingDims := []
  startIndicesBatchingDims := []
  startIndexMap := [0]
  indexVectorDim := 1
  sliceSizes := ![1, 256]
  wf := gather_S16384x256_S98304x1_S98304x256_1_0_n_n_0_1_1256_wf
def scatter_S65536x256_S98304x1_S98304x256_1_0_0_1 : ScatterDims S65536x256 S98304x1 S98304x256 where
  updateWindowDims := [1]
  insertedWindowDims := [0]
  scatterDimsToOperandDims := [0]
  indexVectorDim := 1
  wf := scatter_S65536x256_S98304x1_S98304x256_1_0_0_1_wf
def dot_S8x256x128_S8x128x256_S8x256x256_2_1_1_2_0_0 : DotDims S8x256x128 S8x128x256 S8x256x256 where
  lhsContracting := [2]
  rhsContracting := [1]
  lhsNonContracting := [1]
  rhsNonContracting := [2]
  lhsBatch := [0]
  rhsBatch := [0]
  wf := dot_S8x256x128_S8x128x256_S8x256x256_2_1_1_2_0_0_wf
def dot_S16x64x256_S16x256x256_S16x64x256_2_1_1_2_0_0 : DotDims S16x64x256 S16x256x256 S16x64x256 where
  lhsContracting := [2]
  rhsContracting := [1]
  lhsNonContracting := [1]
  rhsNonContracting := [2]
  lhsBatch := [0]
  rhsBatch := [0]
  wf := dot_S16x64x256_S16x256x256_S16x64x256_2_1_1_2_0_0_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x512_S512x10_S256x10_1_0_0_1_n_n : DotDims S256x512 S512x10 S256x10 where
  lhsContracting := [1]
  rhsContracting := [0]
  lhsNonContracting := [0]
  rhsNonContracting := [1]
  lhsBatch := []
  rhsBatch := []
  wf := dot_S256x512_S512x10_S256x10_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v63) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v64) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v67) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S2048x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg2) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S2048x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg0) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S2048x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v21) S8x256x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v115) S8x128x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v116) S8x256x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v43) S16x64x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v118) S16x256x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v120) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v121) S16x64x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_arg0) S2048x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v124) S256x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v127) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v95) S2048x256.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v128) S2048x256.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_arg1) S2048x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v130) S256x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v133) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v114) S2048x256.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v117) S2048x256.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v134) S2048x256.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_arg2) S2048x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v136) S256x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v139) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v122) S2048x256.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v140) S2048x256.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v128) S2048x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v142) S256x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v143) S2048x256.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v134) S2048x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v145) S256x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v146) S2048x256.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v134) S2048x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v148) S256x256.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v149) S2048x256.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v140) S2048x256.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v151) S256x256.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v152) S2048x256.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v128) S2048x256.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v154) S256x256.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v155) S2048x256.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v21) S8x256x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v194) S8x128x256.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v195) S8x256x256.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v43) S16x64x256.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v197) S16x256x256.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v199) S256x256.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v200) S16x64x256.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v128) S2048x256.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v203) S256x256.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v206) S1x256.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v174) S2048x256.size cc17_transform_3 reads17_3 false false 2 stage17_3 sem17_3
    hrank17 hreads17_3 hinb17_3 nbuf17_3 (Memref.isWhole_whole _) hwx17_3 hstage17_3

abbrev win17_4 : Pipeline.Window sig grid17 :=
  Pipeline.Window.ofSpec (Memref.whole main_v207) S2048x256.size cc17_transform_4 reads17_4 true false 2 stage17_4 sem17_4
    hrank17 hreads17_4 hinb17_4 nbuf17_4 (Memref.isWhole_whole _) hwx17_4 hstage17_4

abbrev win17 : Fin 5 → Pipeline.Window sig grid17 := fun | 0 => win17_0 | 1 => win17_1 | 2 => win17_2 | 3 => win17_3 | 4 => win17_4 | ⟨_ + 5, h⟩ => absurd h (Nat.not_lt.2 (Nat.le_add_left _ _))
abbrev spec17 : Fin 5 → Pipeline.WinSpec sig grid17.rank := fun w => (win17 w).toWinSpec

abbrev win18_0 : Pipeline.Window sig grid18 :=
  Pipeline.Window.ofSpec (Memref.whole main_v134) S2048x256.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v209) S256x256.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v212) S1x256.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v193) S2048x256.size cc18_transform_3 reads18_3 false false 2 stage18_3 sem18_3
    hrank18 hreads18_3 hinb18_3 nbuf18_3 (Memref.isWhole_whole _) hwx18_3 hstage18_3

abbrev win18_4 : Pipeline.Window sig grid18 :=
  Pipeline.Window.ofSpec (Memref.whole main_v196) S2048x256.size cc18_transform_4 reads18_4 false false 2 stage18_4 sem18_4
    hrank18 hreads18_4 hinb18_4 nbuf18_4 (Memref.isWhole_whole _) hwx18_4 hstage18_4

abbrev win18_5 : Pipeline.Window sig grid18 :=
  Pipeline.Window.ofSpec (Memref.whole main_v213) S2048x256.size cc18_transform_5 reads18_5 true false 2 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

abbrev win19_0 : Pipeline.Window sig grid19 :=
  Pipeline.Window.ofSpec (Memref.whole main_v140) S2048x256.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v215) S256x256.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v218) S1x256.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v201) S2048x256.size cc19_transform_3 reads19_3 false false 2 stage19_3 sem19_3
    hrank19 hreads19_3 hinb19_3 nbuf19_3 (Memref.isWhole_whole _) hwx19_3 hstage19_3

abbrev win19_4 : Pipeline.Window sig grid19 :=
  Pipeline.Window.ofSpec (Memref.whole main_v219) S2048x256.size cc19_transform_4 reads19_4 true false 2 stage19_4 sem19_4
    hrank19 hreads19_4 hinb19_4 nbuf19_4 (Memref.isWhole_whole _) hwx19_4 hstage19_4

abbrev win19 : Fin 5 → Pipeline.Window sig grid19 := fun | 0 => win19_0 | 1 => win19_1 | 2 => win19_2 | 3 => win19_3 | 4 => win19_4 | ⟨_ + 5, h⟩ => absurd h (Nat.not_lt.2 (Nat.le_add_left _ _))
abbrev spec19 : Fin 5 → Pipeline.WinSpec sig grid19.rank := fun w => (win19 w).toWinSpec

abbrev win20_0 : Pipeline.Window sig grid20 :=
  Pipeline.Window.ofSpec (Memref.whole main_v207) S2048x256.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v221) S256x256.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v222) S2048x256.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev win21_0 : Pipeline.Window sig grid21 :=
  Pipeline.Window.ofSpec (Memref.whole main_v213) S2048x256.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v224) S256x256.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v225) S2048x256.size cc21_transform_2 reads21_2 true false 2 stage21_2 sem21_2
    hrank21 hreads21_2 hinb21_2 nbuf21_2 (Memref.isWhole_whole _) hwx21_2 hstage21_2

abbrev win21 : Fin 3 → Pipeline.Window sig grid21 := fun | 0 => win21_0 | 1 => win21_1 | 2 => win21_2 | ⟨_ + 3, h⟩ => absurd h (Nat.not_lt.2 (Nat.le_add_left _ _))
abbrev spec21 : Fin 3 → Pipeline.WinSpec sig grid21.rank := fun w => (win21 w).toWinSpec

abbrev win22_0 : Pipeline.Window sig grid22 :=
  Pipeline.Window.ofSpec (Memref.whole main_v213) S2048x256.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v227) S256x256.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v228) S2048x256.size cc22_transform_2 reads22_2 true false 2 stage22_2 sem22_2
    hrank22 hreads22_2 hinb22_2 nbuf22_2 (Memref.isWhole_whole _) hwx22_2 hstage22_2

abbrev win22 : Fin 3 → Pipeline.Window sig grid22 := fun | 0 => win22_0 | 1 => win22_1 | 2 => win22_2 | ⟨_ + 3, h⟩ => absurd h (Nat.not_lt.2 (Nat.le_add_left _ _))
abbrev spec22 : Fin 3 → Pipeline.WinSpec sig grid22.rank := fun w => (win22 w).toWinSpec

abbrev win23_0 : Pipeline.Window sig grid23 :=
  Pipeline.Window.ofSpec (Memref.whole main_v219) S2048x256.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v230) S256x256.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_v231) S2048x256.size cc23_transform_2 reads23_2 true false 2 stage23_2 sem23_2
    hrank23 hreads23_2 hinb23_2 nbuf23_2 (Memref.isWhole_whole _) hwx23_2 hstage23_2

abbrev win23 : Fin 3 → Pipeline.Window sig grid23 := fun | 0 => win23_0 | 1 => win23_1 | 2 => win23_2 | ⟨_ + 3, h⟩ => absurd h (Nat.not_lt.2 (Nat.le_add_left _ _))
abbrev spec23 : Fin 3 → Pipeline.WinSpec sig grid23.rank := fun w => (win23 w).toWinSpec

abbrev win24_0 : Pipeline.Window sig grid24 :=
  Pipeline.Window.ofSpec (Memref.whole main_v207) S2048x256.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v233) S256x256.size cc24_transform_1 reads24_1 false true 1 stage24_1 sem24_1
    hrank24 hreads24_1 hinb24_1 nbuf24_1 (Memref.isWhole_whole _) hwx24_1 hstage24_1

abbrev win24_2 : Pipeline.Window sig grid24 :=
  Pipeline.Window.ofSpec (Memref.whole main_v234) S2048x256.size cc24_transform_2 reads24_2 true false 2 stage24_2 sem24_2
    hrank24 hreads24_2 hinb24_2 nbuf24_2 (Memref.isWhole_whole _) hwx24_2 hstage24_2

abbrev win24 : Fin 3 → Pipeline.Window sig grid24 := fun | 0 => win24_0 | 1 => win24_1 | 2 => win24_2 | ⟨_ + 3, h⟩ => absurd h (Nat.not_lt.2 (Nat.le_add_left _ _))
abbrev spec24 : Fin 3 → Pipeline.WinSpec sig grid24.rank := fun w => (win24 w).toWinSpec

abbrev win25_0 : Pipeline.Window sig grid25 :=
  Pipeline.Window.ofSpec (Memref.whole main_v21) S8x256x128.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v273) S8x128x256.size cc25_transform_1 reads25_1 false false 2 stage25_1 sem25_1
    hrank25 hreads25_1 hinb25_1 nbuf25_1 (Memref.isWhole_whole _) hwx25_1 hstage25_1

abbrev win25_2 : Pipeline.Window sig grid25 :=
  Pipeline.Window.ofSpec (Memref.whole main_v274) S8x256x256.size cc25_transform_2 reads25_2 true false 2 stage25_2 sem25_2
    hrank25 hreads25_2 hinb25_2 nbuf25_2 (Memref.isWhole_whole _) hwx25_2 hstage25_2

abbrev win25 : Fin 3 → Pipeline.Window sig grid25 := fun | 0 => win25_0 | 1 => win25_1 | 2 => win25_2 | ⟨_ + 3, h⟩ => absurd h (Nat.not_lt.2 (Nat.le_add_left _ _))
abbrev spec25 : Fin 3 → Pipeline.WinSpec sig grid25.rank := fun w => (win25 w).toWinSpec

abbrev win26_0 : Pipeline.Window sig grid26 :=
  Pipeline.Window.ofSpec (Memref.whole main_v43) S16x64x256.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_v276) S16x256x256.size cc26_transform_1 reads26_1 false false 2 stage26_1 sem26_1
    hrank26 hreads26_1 hinb26_1 nbuf26_1 (Memref.isWhole_whole _) hwx26_1 hstage26_1

abbrev win26_2 : Pipeline.Window sig grid26 :=
  Pipeline.Window.ofSpec (Memref.whole main_v278) S256x256.size cc26_transform_2 reads26_2 false true 1 stage26_2 sem26_2
    hrank26 hreads26_2 hinb26_2 nbuf26_2 (Memref.isWhole_whole _) hwx26_2 hstage26_2

abbrev win26_3 : Pipeline.Window sig grid26 :=
  Pipeline.Window.ofSpec (Memref.whole main_v279) S16x64x256.size cc26_transform_3 reads26_3 true false 2 stage26_3 sem26_3
    hrank26 hreads26_3 hinb26_3 nbuf26_3 (Memref.isWhole_whole _) hwx26_3 hstage26_3

abbrev win26 : Fin 4 → Pipeline.Window sig grid26 := fun | 0 => win26_0 | 1 => win26_1 | 2 => win26_2 | 3 => win26_3 | ⟨_ + 4, h⟩ => absurd h (Nat.not_lt.2 (Nat.le_add_left _ _))
abbrev spec26 : Fin 4 → Pipeline.WinSpec sig grid26.rank := fun w => (win26 w).toWinSpec

abbrev win27_0 : Pipeline.Window sig grid27 :=
  Pipeline.Window.ofSpec (Memref.whole main_v207) S2048x256.size cc27_transform_0 reads27_0 false false 2 stage27_0 sem27_0
    hrank27 hreads27_0 hinb27_0 nbuf27_0 (Memref.isWhole_whole _) hwx27_0 hstage27_0

abbrev win27_1 : Pipeline.Window sig grid27 :=
  Pipeline.Window.ofSpec (Memref.whole main_v282) S256x256.size cc27_transform_1 reads27_1 false true 1 stage27_1 sem27_1
    hrank27 hreads27_1 hinb27_1 nbuf27_1 (Memref.isWhole_whole _) hwx27_1 hstage27_1

abbrev win27_2 : Pipeline.Window sig grid27 :=
  Pipeline.Window.ofSpec (Memref.whole main_v285) S1x256.size cc27_transform_2 reads27_2 false true 1 stage27_2 sem27_2
    hrank27 hreads27_2 hinb27_2 nbuf27_2 (Memref.isWhole_whole _) hwx27_2 hstage27_2

abbrev win27_3 : Pipeline.Window sig grid27 :=
  Pipeline.Window.ofSpec (Memref.whole main_v253) S2048x256.size cc27_transform_3 reads27_3 false false 2 stage27_3 sem27_3
    hrank27 hreads27_3 hinb27_3 nbuf27_3 (Memref.isWhole_whole _) hwx27_3 hstage27_3

abbrev win27_4 : Pipeline.Window sig grid27 :=
  Pipeline.Window.ofSpec (Memref.whole main_v286) S2048x256.size cc27_transform_4 reads27_4 true false 2 stage27_4 sem27_4
    hrank27 hreads27_4 hinb27_4 nbuf27_4 (Memref.isWhole_whole _) hwx27_4 hstage27_4

abbrev win27 : Fin 5 → Pipeline.Window sig grid27 := fun | 0 => win27_0 | 1 => win27_1 | 2 => win27_2 | 3 => win27_3 | 4 => win27_4 | ⟨_ + 5, h⟩ => absurd h (Nat.not_lt.2 (Nat.le_add_left _ _))
abbrev spec27 : Fin 5 → Pipeline.WinSpec sig grid27.rank := fun w => (win27 w).toWinSpec

abbrev win28_0 : Pipeline.Window sig grid28 :=
  Pipeline.Window.ofSpec (Memref.whole main_v213) S2048x256.size cc28_transform_0 reads28_0 false false 2 stage28_0 sem28_0
    hrank28 hreads28_0 hinb28_0 nbuf28_0 (Memref.isWhole_whole _) hwx28_0 hstage28_0

abbrev win28_1 : Pipeline.Window sig grid28 :=
  Pipeline.Window.ofSpec (Memref.whole main_v288) S256x256.size cc28_transform_1 reads28_1 false true 1 stage28_1 sem28_1
    hrank28 hreads28_1 hinb28_1 nbuf28_1 (Memref.isWhole_whole _) hwx28_1 hstage28_1

abbrev win28_2 : Pipeline.Window sig grid28 :=
  Pipeline.Window.ofSpec (Memref.whole main_v291) S1x256.size cc28_transform_2 reads28_2 false true 1 stage28_2 sem28_2
    hrank28 hreads28_2 hinb28_2 nbuf28_2 (Memref.isWhole_whole _) hwx28_2 hstage28_2

abbrev win28_3 : Pipeline.Window sig grid28 :=
  Pipeline.Window.ofSpec (Memref.whole main_v272) S2048x256.size cc28_transform_3 reads28_3 false false 2 stage28_3 sem28_3
    hrank28 hreads28_3 hinb28_3 nbuf28_3 (Memref.isWhole_whole _) hwx28_3 hstage28_3

abbrev win28_4 : Pipeline.Window sig grid28 :=
  Pipeline.Window.ofSpec (Memref.whole main_v275) S2048x256.size cc28_transform_4 reads28_4 false false 2 stage28_4 sem28_4
    hrank28 hreads28_4 hinb28_4 nbuf28_4 (Memref.isWhole_whole _) hwx28_4 hstage28_4

abbrev win28_5 : Pipeline.Window sig grid28 :=
  Pipeline.Window.ofSpec (Memref.whole main_v292) S2048x256.size cc28_transform_5 reads28_5 true false 2 stage28_5 sem28_5
    hrank28 hreads28_5 hinb28_5 nbuf28_5 (Memref.isWhole_whole _) hwx28_5 hstage28_5

abbrev win28 : Fin 6 → Pipeline.Window sig grid28 := fun | 0 => win28_0 | 1 => win28_1 | 2 => win28_2 | 3 => win28_3 | 4 => win28_4 | 5 => win28_5 | ⟨_ + 6, h⟩ => absurd h (Nat.not_lt.2 (Nat.le_add_left _ _))
abbrev spec28 : Fin 6 → Pipeline.WinSpec sig grid28.rank := fun w => (win28 w).toWinSpec

abbrev win29_0 : Pipeline.Window sig grid29 :=
  Pipeline.Window.ofSpec (Memref.whole main_v219) S2048x256.size cc29_transform_0 reads29_0 false false 2 stage29_0 sem29_0
    hrank29 hreads29_0 hinb29_0 nbuf29_0 (Memref.isWhole_whole _) hwx29_0 hstage29_0

abbrev win29_1 : Pipeline.Window sig grid29 :=
  Pipeline.Window.ofSpec (Memref.whole main_v294) S256x256.size cc29_transform_1 reads29_1 false true 1 stage29_1 sem29_1
    hrank29 hreads29_1 hinb29_1 nbuf29_1 (Memref.isWhole_whole _) hwx29_1 hstage29_1

abbrev win29_2 : Pipeline.Window sig grid29 :=
  Pipeline.Window.ofSpec (Memref.whole main_v297) S1x256.size cc29_transform_2 reads29_2 false true 1 stage29_2 sem29_2
    hrank29 hreads29_2 hinb29_2 nbuf29_2 (Memref.isWhole_whole _) hwx29_2 hstage29_2

abbrev win29_3 : Pipeline.Window sig grid29 :=
  Pipeline.Window.ofSpec (Memref.whole main_v280) S2048x256.size cc29_transform_3 reads29_3 false false 2 stage29_3 sem29_3
    hrank29 hreads29_3 hinb29_3 nbuf29_3 (Memref.isWhole_whole _) hwx29_3 hstage29_3

abbrev win29_4 : Pipeline.Window sig grid29 :=
  Pipeline.Window.ofSpec (Memref.whole main_v298) S2048x256.size cc29_transform_4 reads29_4 true false 2 stage29_4 sem29_4
    hrank29 hreads29_4 hinb29_4 nbuf29_4 (Memref.isWhole_whole _) hwx29_4 hstage29_4

abbrev win29 : Fin 5 → Pipeline.Window sig grid29 := fun | 0 => win29_0 | 1 => win29_1 | 2 => win29_2 | 3 => win29_3 | 4 => win29_4 | ⟨_ + 5, h⟩ => absurd h (Nat.not_lt.2 (Nat.le_add_left _ _))
abbrev spec29 : Fin 5 → Pipeline.WinSpec sig grid29.rank := fun w => (win29 w).toWinSpec

abbrev win30_0 : Pipeline.Window sig grid30 :=
  Pipeline.Window.ofSpec (Memref.whole main_v286) S2048x256.size cc30_transform_0 reads30_0 false false 2 stage30_0 sem30_0
    hrank30 hreads30_0 hinb30_0 nbuf30_0 (Memref.isWhole_whole _) hwx30_0 hstage30_0

abbrev win30_1 : Pipeline.Window sig grid30 :=
  Pipeline.Window.ofSpec (Memref.whole main_v300) S256x256.size cc30_transform_1 reads30_1 false true 1 stage30_1 sem30_1
    hrank30 hreads30_1 hinb30_1 nbuf30_1 (Memref.isWhole_whole _) hwx30_1 hstage30_1

abbrev win30_2 : Pipeline.Window sig grid30 :=
  Pipeline.Window.ofSpec (Memref.whole main_v301) S2048x256.size cc30_transform_2 reads30_2 true false 2 stage30_2 sem30_2
    hrank30 hreads30_2 hinb30_2 nbuf30_2 (Memref.isWhole_whole _) hwx30_2 hstage30_2

abbrev win30 : Fin 3 → Pipeline.Window sig grid30 := fun | 0 => win30_0 | 1 => win30_1 | 2 => win30_2 | ⟨_ + 3, h⟩ => absurd h (Nat.not_lt.2 (Nat.le_add_left _ _))
abbrev spec30 : Fin 3 → Pipeline.WinSpec sig grid30.rank := fun w => (win30 w).toWinSpec

abbrev win31_0 : Pipeline.Window sig grid31 :=
  Pipeline.Window.ofSpec (Memref.whole main_v292) S2048x256.size cc31_transform_0 reads31_0 false false 2 stage31_0 sem31_0
    hrank31 hreads31_0 hinb31_0 nbuf31_0 (Memref.isWhole_whole _) hwx31_0 hstage31_0

abbrev win31_1 : Pipeline.Window sig grid31 :=
  Pipeline.Window.ofSpec (Memref.whole main_v303) S256x256.size cc31_transform_1 reads31_1 false true 1 stage31_1 sem31_1
    hrank31 hreads31_1 hinb31_1 nbuf31_1 (Memref.isWhole_whole _) hwx31_1 hstage31_1

abbrev win31_2 : Pipeline.Window sig grid31 :=
  Pipeline.Window.ofSpec (Memref.whole main_v304) S2048x256.size cc31_transform_2 reads31_2 true false 2 stage31_2 sem31_2
    hrank31 hreads31_2 hinb31_2 nbuf31_2 (Memref.isWhole_whole _) hwx31_2 hstage31_2

abbrev win31 : Fin 3 → Pipeline.Window sig grid31 := fun | 0 => win31_0 | 1 => win31_1 | 2 => win31_2 | ⟨_ + 3, h⟩ => absurd h (Nat.not_lt.2 (Nat.le_add_left _ _))
abbrev spec31 : Fin 3 → Pipeline.WinSpec sig grid31.rank := fun w => (win31 w).toWinSpec

abbrev win32_0 : Pipeline.Window sig grid32 :=
  Pipeline.Window.ofSpec (Memref.whole main_v292) S2048x256.size cc32_transform_0 reads32_0 false false 2 stage32_0 sem32_0
    hrank32 hreads32_0 hinb32_0 nbuf32_0 (Memref.isWhole_whole _) hwx32_0 hstage32_0

abbrev win32_1 : Pipeline.Window sig grid32 :=
  Pipeline.Window.ofSpec (Memref.whole main_v306) S256x256.size cc32_transform_1 reads32_1 false true 1 stage32_1 sem32_1
    hrank32 hreads32_1 hinb32_1 nbuf32_1 (Memref.isWhole_whole _) hwx32_1 hstage32_1

abbrev win32_2 : Pipeline.Window sig grid32 :=
  Pipeline.Window.ofSpec (Memref.whole main_v307) S2048x256.size cc32_transform_2 reads32_2 true false 2 stage32_2 sem32_2
    hrank32 hreads32_2 hinb32_2 nbuf32_2 (Memref.isWhole_whole _) hwx32_2 hstage32_2

abbrev win32 : Fin 3 → Pipeline.Window sig grid32 := fun | 0 => win32_0 | 1 => win32_1 | 2 => win32_2 | ⟨_ + 3, h⟩ => absurd h (Nat.not_lt.2 (Nat.le_add_left _ _))
abbrev spec32 : Fin 3 → Pipeline.WinSpec sig grid32.rank := fun w => (win32 w).toWinSpec

abbrev win33_0 : Pipeline.Window sig grid33 :=
  Pipeline.Window.ofSpec (Memref.whole main_v298) S2048x256.size cc33_transform_0 reads33_0 false false 2 stage33_0 sem33_0
    hrank33 hreads33_0 hinb33_0 nbuf33_0 (Memref.isWhole_whole _) hwx33_0 hstage33_0

abbrev win33_1 : Pipeline.Window sig grid33 :=
  Pipeline.Window.ofSpec (Memref.whole main_v309) S256x256.size cc33_transform_1 reads33_1 false true 1 stage33_1 sem33_1
    hrank33 hreads33_1 hinb33_1 nbuf33_1 (Memref.isWhole_whole _) hwx33_1 hstage33_1

abbrev win33_2 : Pipeline.Window sig grid33 :=
  Pipeline.Window.ofSpec (Memref.whole main_v310) S2048x256.size cc33_transform_2 reads33_2 true false 2 stage33_2 sem33_2
    hrank33 hreads33_2 hinb33_2 nbuf33_2 (Memref.isWhole_whole _) hwx33_2 hstage33_2

abbrev win33 : Fin 3 → Pipeline.Window sig grid33 := fun | 0 => win33_0 | 1 => win33_1 | 2 => win33_2 | ⟨_ + 3, h⟩ => absurd h (Nat.not_lt.2 (Nat.le_add_left _ _))
abbrev spec33 : Fin 3 → Pipeline.WinSpec sig grid33.rank := fun w => (win33 w).toWinSpec

abbrev win34_0 : Pipeline.Window sig grid34 :=
  Pipeline.Window.ofSpec (Memref.whole main_v286) S2048x256.size cc34_transform_0 reads34_0 false false 2 stage34_0 sem34_0
    hrank34 hreads34_0 hinb34_0 nbuf34_0 (Memref.isWhole_whole _) hwx34_0 hstage34_0

abbrev win34_1 : Pipeline.Window sig grid34 :=
  Pipeline.Window.ofSpec (Memref.whole main_v312) S256x256.size cc34_transform_1 reads34_1 false true 1 stage34_1 sem34_1
    hrank34 hreads34_1 hinb34_1 nbuf34_1 (Memref.isWhole_whole _) hwx34_1 hstage34_1

abbrev win34_2 : Pipeline.Window sig grid34 :=
  Pipeline.Window.ofSpec (Memref.whole main_v313) S2048x256.size cc34_transform_2 reads34_2 true false 2 stage34_2 sem34_2
    hrank34 hreads34_2 hinb34_2 nbuf34_2 (Memref.isWhole_whole _) hwx34_2 hstage34_2

abbrev win34 : Fin 3 → Pipeline.Window sig grid34 := fun | 0 => win34_0 | 1 => win34_1 | 2 => win34_2 | ⟨_ + 3, h⟩ => absurd h (Nat.not_lt.2 (Nat.le_add_left _ _))
abbrev spec34 : Fin 3 → Pipeline.WinSpec sig grid34.rank := fun w => (win34 w).toWinSpec

abbrev win35_0 : Pipeline.Window sig grid35 :=
  Pipeline.Window.ofSpec (Memref.whole main_v21) S8x256x128.size cc35_transform_0 reads35_0 false false 2 stage35_0 sem35_0
    hrank35 hreads35_0 hinb35_0 nbuf35_0 (Memref.isWhole_whole _) hwx35_0 hstage35_0

abbrev win35_1 : Pipeline.Window sig grid35 :=
  Pipeline.Window.ofSpec (Memref.whole main_v352) S8x128x256.size cc35_transform_1 reads35_1 false false 2 stage35_1 sem35_1
    hrank35 hreads35_1 hinb35_1 nbuf35_1 (Memref.isWhole_whole _) hwx35_1 hstage35_1

abbrev win35_2 : Pipeline.Window sig grid35 :=
  Pipeline.Window.ofSpec (Memref.whole main_v353) S8x256x256.size cc35_transform_2 reads35_2 true false 2 stage35_2 sem35_2
    hrank35 hreads35_2 hinb35_2 nbuf35_2 (Memref.isWhole_whole _) hwx35_2 hstage35_2

abbrev win35 : Fin 3 → Pipeline.Window sig grid35 := fun | 0 => win35_0 | 1 => win35_1 | 2 => win35_2 | ⟨_ + 3, h⟩ => absurd h (Nat.not_lt.2 (Nat.le_add_left _ _))
abbrev spec35 : Fin 3 → Pipeline.WinSpec sig grid35.rank := fun w => (win35 w).toWinSpec

abbrev win36_0 : Pipeline.Window sig grid36 :=
  Pipeline.Window.ofSpec (Memref.whole main_v43) S16x64x256.size cc36_transform_0 reads36_0 false false 2 stage36_0 sem36_0
    hrank36 hreads36_0 hinb36_0 nbuf36_0 (Memref.isWhole_whole _) hwx36_0 hstage36_0

abbrev win36_1 : Pipeline.Window sig grid36 :=
  Pipeline.Window.ofSpec (Memref.whole main_v355) S16x256x256.size cc36_transform_1 reads36_1 false false 2 stage36_1 sem36_1
    hrank36 hreads36_1 hinb36_1 nbuf36_1 (Memref.isWhole_whole _) hwx36_1 hstage36_1

abbrev win36_2 : Pipeline.Window sig grid36 :=
  Pipeline.Window.ofSpec (Memref.whole main_v357) S256x256.size cc36_transform_2 reads36_2 false true 1 stage36_2 sem36_2
    hrank36 hreads36_2 hinb36_2 nbuf36_2 (Memref.isWhole_whole _) hwx36_2 hstage36_2

abbrev win36_3 : Pipeline.Window sig grid36 :=
  Pipeline.Window.ofSpec (Memref.whole main_v358) S16x64x256.size cc36_transform_3 reads36_3 true false 2 stage36_3 sem36_3
    hrank36 hreads36_3 hinb36_3 nbuf36_3 (Memref.isWhole_whole _) hwx36_3 hstage36_3

abbrev win36 : Fin 4 → Pipeline.Window sig grid36 := fun | 0 => win36_0 | 1 => win36_1 | 2 => win36_2 | 3 => win36_3 | ⟨_ + 4, h⟩ => absurd h (Nat.not_lt.2 (Nat.le_add_left _ _))
abbrev spec36 : Fin 4 → Pipeline.WinSpec sig grid36.rank := fun w => (win36 w).toWinSpec

abbrev win37_0 : Pipeline.Window sig grid37 :=
  Pipeline.Window.ofSpec (Memref.whole main_v286) S2048x256.size cc37_transform_0 reads37_0 false false 2 stage37_0 sem37_0
    hrank37 hreads37_0 hinb37_0 nbuf37_0 (Memref.isWhole_whole _) hwx37_0 hstage37_0

abbrev win37_1 : Pipeline.Window sig grid37 :=
  Pipeline.Window.ofSpec (Memref.whole main_v361) S256x256.size cc37_transform_1 reads37_1 false true 1 stage37_1 sem37_1
    hrank37 hreads37_1 hinb37_1 nbuf37_1 (Memref.isWhole_whole _) hwx37_1 hstage37_1

abbrev win37_2 : Pipeline.Window sig grid37 :=
  Pipeline.Window.ofSpec (Memref.whole main_v364) S1x256.size cc37_transform_2 reads37_2 false true 1 stage37_2 sem37_2
    hrank37 hreads37_2 hinb37_2 nbuf37_2 (Memref.isWhole_whole _) hwx37_2 hstage37_2

abbrev win37_3 : Pipeline.Window sig grid37 :=
  Pipeline.Window.ofSpec (Memref.whole main_v332) S2048x256.size cc37_transform_3 reads37_3 false false 2 stage37_3 sem37_3
    hrank37 hreads37_3 hinb37_3 nbuf37_3 (Memref.isWhole_whole _) hwx37_3 hstage37_3

abbrev win37_4 : Pipeline.Window sig grid37 :=
  Pipeline.Window.ofSpec (Memref.whole main_v365) S2048x256.size cc37_transform_4 reads37_4 true false 2 stage37_4 sem37_4
    hrank37 hreads37_4 hinb37_4 nbuf37_4 (Memref.isWhole_whole _) hwx37_4 hstage37_4

abbrev win37 : Fin 5 → Pipeline.Window sig grid37 := fun | 0 => win37_0 | 1 => win37_1 | 2 => win37_2 | 3 => win37_3 | 4 => win37_4 | ⟨_ + 5, h⟩ => absurd h (Nat.not_lt.2 (Nat.le_add_left _ _))
abbrev spec37 : Fin 5 → Pipeline.WinSpec sig grid37.rank := fun w => (win37 w).toWinSpec

abbrev win38_0 : Pipeline.Window sig grid38 :=
  Pipeline.Window.ofSpec (Memref.whole main_v292) S2048x256.size cc38_transform_0 reads38_0 false false 2 stage38_0 sem38_0
    hrank38 hreads38_0 hinb38_0 nbuf38_0 (Memref.isWhole_whole _) hwx38_0 hstage38_0

abbrev win38_1 : Pipeline.Window sig grid38 :=
  Pipeline.Window.ofSpec (Memref.whole main_v367) S256x256.size cc38_transform_1 reads38_1 false true 1 stage38_1 sem38_1
    hrank38 hreads38_1 hinb38_1 nbuf38_1 (Memref.isWhole_whole _) hwx38_1 hstage38_1

abbrev win38_2 : Pipeline.Window sig grid38 :=
  Pipeline.Window.ofSpec (Memref.whole main_v370) S1x256.size cc38_transform_2 reads38_2 false true 1 stage38_2 sem38_2
    hrank38 hreads38_2 hinb38_2 nbuf38_2 (Memref.isWhole_whole _) hwx38_2 hstage38_2

abbrev win38_3 : Pipeline.Window sig grid38 :=
  Pipeline.Window.ofSpec (Memref.whole main_v351) S2048x256.size cc38_transform_3 reads38_3 false false 2 stage38_3 sem38_3
    hrank38 hreads38_3 hinb38_3 nbuf38_3 (Memref.isWhole_whole _) hwx38_3 hstage38_3

abbrev win38_4 : Pipeline.Window sig grid38 :=
  Pipeline.Window.ofSpec (Memref.whole main_v354) S2048x256.size cc38_transform_4 reads38_4 false false 2 stage38_4 sem38_4
    hrank38 hreads38_4 hinb38_4 nbuf38_4 (Memref.isWhole_whole _) hwx38_4 hstage38_4

abbrev win38_5 : Pipeline.Window sig grid38 :=
  Pipeline.Window.ofSpec (Memref.whole main_v371) S2048x256.size cc38_transform_5 reads38_5 true false 2 stage38_5 sem38_5
    hrank38 hreads38_5 hinb38_5 nbuf38_5 (Memref.isWhole_whole _) hwx38_5 hstage38_5

abbrev win38 : Fin 6 → Pipeline.Window sig grid38 := fun | 0 => win38_0 | 1 => win38_1 | 2 => win38_2 | 3 => win38_3 | 4 => win38_4 | 5 => win38_5 | ⟨_ + 6, h⟩ => absurd h (Nat.not_lt.2 (Nat.le_add_left _ _))
abbrev spec38 : Fin 6 → Pipeline.WinSpec sig grid38.rank := fun w => (win38 w).toWinSpec

abbrev win39_0 : Pipeline.Window sig grid39 :=
  Pipeline.Window.ofSpec (Memref.whole main_v298) S2048x256.size cc39_transform_0 reads39_0 false false 2 stage39_0 sem39_0
    hrank39 hreads39_0 hinb39_0 nbuf39_0 (Memref.isWhole_whole _) hwx39_0 hstage39_0

abbrev win39_1 : Pipeline.Window sig grid39 :=
  Pipeline.Window.ofSpec (Memref.whole main_v373) S256x256.size cc39_transform_1 reads39_1 false true 1 stage39_1 sem39_1
    hrank39 hreads39_1 hinb39_1 nbuf39_1 (Memref.isWhole_whole _) hwx39_1 hstage39_1

abbrev win39_2 : Pipeline.Window sig grid39 :=
  Pipeline.Window.ofSpec (Memref.whole main_v376) S1x256.size cc39_transform_2 reads39_2 false true 1 stage39_2 sem39_2
    hrank39 hreads39_2 hinb39_2 nbuf39_2 (Memref.isWhole_whole _) hwx39_2 hstage39_2

abbrev win39_3 : Pipeline.Window sig grid39 :=
  Pipeline.Window.ofSpec (Memref.whole main_v359) S2048x256.size cc39_transform_3 reads39_3 false false 2 stage39_3 sem39_3
    hrank39 hreads39_3 hinb39_3 nbuf39_3 (Memref.isWhole_whole _) hwx39_3 hstage39_3

abbrev win39_4 : Pipeline.Window sig grid39 :=
  Pipeline.Window.ofSpec (Memref.whole main_v377) S2048x256.size cc39_transform_4 reads39_4 true false 2 stage39_4 sem39_4
    hrank39 hreads39_4 hinb39_4 nbuf39_4 (Memref.isWhole_whole _) hwx39_4 hstage39_4

abbrev win39 : Fin 5 → Pipeline.Window sig grid39 := fun | 0 => win39_0 | 1 => win39_1 | 2 => win39_2 | 3 => win39_3 | 4 => win39_4 | ⟨_ + 5, h⟩ => absurd h (Nat.not_lt.2 (Nat.le_add_left _ _))
abbrev spec39 : Fin 5 → Pipeline.WinSpec sig grid39.rank := fun w => (win39 w).toWinSpec

abbrev win40_0 : Pipeline.Window sig grid40 :=
  Pipeline.Window.ofSpec (Memref.whole main_v379) S8x128x256.size cc40_transform_0 reads40_0 false false 2 stage40_0 sem40_0
    hrank40 hreads40_0 hinb40_0 nbuf40_0 (Memref.isWhole_whole _) hwx40_0 hstage40_0

abbrev win40_1 : Pipeline.Window sig grid40 :=
  Pipeline.Window.ofSpec (Memref.whole main_v380) S8x128x256.size cc40_transform_1 reads40_1 false false 2 stage40_1 sem40_1
    hrank40 hreads40_1 hinb40_1 nbuf40_1 (Memref.isWhole_whole _) hwx40_1 hstage40_1

abbrev win40_2 : Pipeline.Window sig grid40 :=
  Pipeline.Window.ofSpec (Memref.whole main_arg22) S256x256.size cc40_transform_2 reads40_2 false true 1 stage40_2 sem40_2
    hrank40 hreads40_2 hinb40_2 nbuf40_2 (Memref.isWhole_whole _) hwx40_2 hstage40_2

abbrev win40_3 : Pipeline.Window sig grid40 :=
  Pipeline.Window.ofSpec (Memref.whole main_arg23) S256x256.size cc40_transform_3 reads40_3 false true 1 stage40_3 sem40_3
    hrank40 hreads40_3 hinb40_3 nbuf40_3 (Memref.isWhole_whole _) hwx40_3 hstage40_3

abbrev win40_4 : Pipeline.Window sig grid40 :=
  Pipeline.Window.ofSpec (Memref.whole main_v378) S1x256.size cc40_transform_4 reads40_4 false true 1 stage40_4 sem40_4
    hrank40 hreads40_4 hinb40_4 nbuf40_4 (Memref.isWhole_whole _) hwx40_4 hstage40_4

abbrev win40_5 : Pipeline.Window sig grid40 :=
  Pipeline.Window.ofSpec (Memref.whole main_v381) S8x256.size cc40_transform_5 reads40_5 true false 2 stage40_5 sem40_5
    hrank40 hreads40_5 hinb40_5 nbuf40_5 (Memref.isWhole_whole _) hwx40_5 hstage40_5

abbrev win40 : Fin 6 → Pipeline.Window sig grid40 := fun | 0 => win40_0 | 1 => win40_1 | 2 => win40_2 | 3 => win40_3 | 4 => win40_4 | 5 => win40_5 | ⟨_ + 6, h⟩ => absurd h (Nat.not_lt.2 (Nat.le_add_left _ _))
abbrev spec40 : Fin 6 → Pipeline.WinSpec sig grid40.rank := fun w => (win40 w).toWinSpec

abbrev win41_0 : Pipeline.Window sig grid41 :=
  Pipeline.Window.ofSpec (Memref.whole main_v383) S8x256x256.size cc41_transform_0 reads41_0 false false 2 stage41_0 sem41_0
    hrank41 hreads41_0 hinb41_0 nbuf41_0 (Memref.isWhole_whole _) hwx41_0 hstage41_0

abbrev win41_1 : Pipeline.Window sig grid41 :=
  Pipeline.Window.ofSpec (Memref.whole main_v384) S8x256x256.size cc41_transform_1 reads41_1 false false 2 stage41_1 sem41_1
    hrank41 hreads41_1 hinb41_1 nbuf41_1 (Memref.isWhole_whole _) hwx41_1 hstage41_1

abbrev win41_2 : Pipeline.Window sig grid41 :=
  Pipeline.Window.ofSpec (Memref.whole main_arg22) S256x256.size cc41_transform_2 reads41_2 false true 1 stage41_2 sem41_2
    hrank41 hreads41_2 hinb41_2 nbuf41_2 (Memref.isWhole_whole _) hwx41_2 hstage41_2

abbrev win41_3 : Pipeline.Window sig grid41 :=
  Pipeline.Window.ofSpec (Memref.whole main_arg23) S256x256.size cc41_transform_3 reads41_3 false true 1 stage41_3 sem41_3
    hrank41 hreads41_3 hinb41_3 nbuf41_3 (Memref.isWhole_whole _) hwx41_3 hstage41_3

abbrev win41_4 : Pipeline.Window sig grid41 :=
  Pipeline.Window.ofSpec (Memref.whole main_v382) S1x256.size cc41_transform_4 reads41_4 false true 1 stage41_4 sem41_4
    hrank41 hreads41_4 hinb41_4 nbuf41_4 (Memref.isWhole_whole _) hwx41_4 hstage41_4

abbrev win41_5 : Pipeline.Window sig grid41 :=
  Pipeline.Window.ofSpec (Memref.whole main_v385) S8x256.size cc41_transform_5 reads41_5 true false 2 stage41_5 sem41_5
    hrank41 hreads41_5 hinb41_5 nbuf41_5 (Memref.isWhole_whole _) hwx41_5 hstage41_5

abbrev win41 : Fin 6 → Pipeline.Window sig grid41 := fun | 0 => win41_0 | 1 => win41_1 | 2 => win41_2 | 3 => win41_3 | 4 => win41_4 | 5 => win41_5 | ⟨_ + 6, h⟩ => absurd h (Nat.not_lt.2 (Nat.le_add_left _ _))
abbrev spec41 : Fin 6 → Pipeline.WinSpec sig grid41.rank := fun w => (win41 w).toWinSpec

abbrev win42_0 : Pipeline.Window sig grid42 :=
  Pipeline.Window.ofSpec (Memref.whole main_v387) S8x64x256.size cc42_transform_0 reads42_0 false false 2 stage42_0 sem42_0
    hrank42 hreads42_0 hinb42_0 nbuf42_0 (Memref.isWhole_whole _) hwx42_0 hstage42_0

abbrev win42_1 : Pipeline.Window sig grid42 :=
  Pipeline.Window.ofSpec (Memref.whole main_v388) S8x64x256.size cc42_transform_1 reads42_1 false false 2 stage42_1 sem42_1
    hrank42 hreads42_1 hinb42_1 nbuf42_1 (Memref.isWhole_whole _) hwx42_1 hstage42_1

abbrev win42_2 : Pipeline.Window sig grid42 :=
  Pipeline.Window.ofSpec (Memref.whole main_arg22) S256x256.size cc42_transform_2 reads42_2 false true 1 stage42_2 sem42_2
    hrank42 hreads42_2 hinb42_2 nbuf42_2 (Memref.isWhole_whole _) hwx42_2 hstage42_2

abbrev win42_3 : Pipeline.Window sig grid42 :=
  Pipeline.Window.ofSpec (Memref.whole main_arg23) S256x256.size cc42_transform_3 reads42_3 false true 1 stage42_3 sem42_3
    hrank42 hreads42_3 hinb42_3 nbuf42_3 (Memref.isWhole_whole _) hwx42_3 hstage42_3

abbrev win42_4 : Pipeline.Window sig grid42 :=
  Pipeline.Window.ofSpec (Memref.whole main_v386) S1x256.size cc42_transform_4 reads42_4 false true 1 stage42_4 sem42_4
    hrank42 hreads42_4 hinb42_4 nbuf42_4 (Memref.isWhole_whole _) hwx42_4 hstage42_4

abbrev win42_5 : Pipeline.Window sig grid42 :=
  Pipeline.Window.ofSpec (Memref.whole main_v389) S8x256.size cc42_transform_5 reads42_5 true false 2 stage42_5 sem42_5
    hrank42 hreads42_5 hinb42_5 nbuf42_5 (Memref.isWhole_whole _) hwx42_5 hstage42_5

abbrev win42 : Fin 6 → Pipeline.Window sig grid42 := fun | 0 => win42_0 | 1 => win42_1 | 2 => win42_2 | 3 => win42_3 | 4 => win42_4 | 5 => win42_5 | ⟨_ + 6, h⟩ => absurd h (Nat.not_lt.2 (Nat.le_add_left _ _))
abbrev spec42 : Fin 6 → Pipeline.WinSpec sig grid42.rank := fun w => (win42 w).toWinSpec

class Facts : Prop extends Facts₀ where

variable [Facts]
-- ==== ReferenceIdeal.lean ====
abbrev S32768x256 : Shape := ⟨2, ![32768, 256]⟩
abbrev S65536x256 : Shape := ⟨2, ![65536, 256]⟩
abbrev S16384x256 : Shape := ⟨2, ![16384, 256]⟩
abbrev S131072 : Shape := ⟨1, ![131072]⟩
abbrev S98304 : Shape := ⟨1, ![98304]⟩
abbrev S65536 : Shape := ⟨1, ![65536]⟩
abbrev S4x3x256x256 : Shape := ⟨4, ![4, 3, 256, 256]⟩
abbrev S4x3x256 : Shape := ⟨3, ![4, 3, 256]⟩
abbrev S4x2x256x256 : Shape := ⟨4, ![4, 2, 256, 256]⟩
abbrev S256x256 : Shape := ⟨2, ![256, 256]⟩
abbrev S256 : Shape := ⟨1, ![256]⟩
abbrev S3x256x512 : Shape := ⟨3, ![3, 256, 512]⟩
abbrev S3x512 : Shape := ⟨2, ![3, 512]⟩
abbrev S512x10 : Shape := ⟨2, ![512, 10]⟩
abbrev S10 : Shape := ⟨1, ![10]⟩
abbrev S_ : Shape := ⟨0, ![]⟩
abbrev S256x256x128 : Shape := ⟨3, ![256, 256, 128]⟩
abbrev S131072x1 : Shape := ⟨2, ![131072, 1]⟩
abbrev S131072x3 : Shape := ⟨2, ![131072, 3]⟩
abbrev S256x64x256 : Shape := ⟨3, ![256, 64, 256]⟩
abbrev S65536x1 : Shape := ⟨2, ![65536, 1]⟩
abbrev S65536x3 : Shape := ⟨2, ![65536, 3]⟩
abbrev S131072x256 : Shape := ⟨2, ![131072, 256]⟩
abbrev S1x1x256x256 : Shape := ⟨4, ![1, 1, 256, 256]⟩
abbrev S98304x1 : Shape := ⟨2, ![98304, 1]⟩
abbrev S98304x256 : Shape := ⟨2, ![98304, 256]⟩
abbrev S256x128x256 : Shape := ⟨3, ![256, 128, 256]⟩
abbrev S256x256x256 : Shape := ⟨3, ![256, 256, 256]⟩
abbrev S1x1x256 : Shape := ⟨3, ![1, 1, 256]⟩
abbrev S1x256 : Shape := ⟨2, ![1, 256]⟩
abbrev S1x256x512 : Shape := ⟨3, ![1, 256, 512]⟩
abbrev S256x512 : Shape := ⟨2, ![256, 512]⟩
abbrev S1x512 : Shape := ⟨2, ![1, 512]⟩
abbrev S512 : Shape := ⟨1, ![512]⟩
abbrev S256x10 : Shape := ⟨2, ![256, 10]⟩
abbrev S1x10 : Shape := ⟨2, ![1, 10]⟩

abbrev nBuf : Space → Nat
  | .hbm => 661
  | .vmem => 0
  | .smem => 0
  | _ => 0

abbrev hbmTy0_0 (i : Nat) : BufTy := match i % 128 with
  | 0 => ⟨S32768x256, .f32⟩
  | 1 => ⟨S65536x256, .f32⟩
  | 2 => ⟨S16384x256, .f32⟩
  | 3 => ⟨S131072, .i32⟩
  | 4 => ⟨S131072, .i32⟩
  | 5 => ⟨S131072, .i32⟩
  | 6 => ⟨S131072, .i32⟩
  | 7 => ⟨S98304, .i32⟩
  | 8 => ⟨S98304, .i32⟩
  | 9 => ⟨S98304, .i32⟩
  | 10 => ⟨S98304, .i32⟩
  | 11 => ⟨S131072, .i32⟩
  | 12 => ⟨S131072, .i32⟩
  | 13 => ⟨S131072, .i32⟩
  | 14 => ⟨S65536, .i32⟩
  | 15 => ⟨S65536, .i32⟩
  | 16 => ⟨S65536, .i32⟩
  | 17 => ⟨S4x3x256x256, .f32⟩
  | 18 => ⟨S4x3x256, .f32⟩
  | 19 => ⟨S4x2x256x256, .f32⟩
  | 20 => ⟨S4x2x256x256, .f32⟩
  | 21 => ⟨S4x2x256x256, .f32⟩
  | 22 => ⟨S256x256, .f32⟩
  | 23 => ⟨S256x256, .f32⟩
  | 24 => ⟨S256, .f32⟩
  | 25 => ⟨S3x256x512, .f32⟩
  | 26 => ⟨S3x512, .f32⟩
  | 27 => ⟨S512x10, .f32⟩
  | 28 => ⟨S10, .f32⟩
  | 29 => ⟨S_, .f32⟩
  | 30 => ⟨S256x256x128, .f32⟩
  | 31 => ⟨S_, .i32⟩
  | 32 => ⟨S131072, .i32⟩
  | 33 => ⟨S131072, .i1⟩
  | 34 => ⟨S_, .i32⟩
  | 35 => ⟨S131072, .i32⟩
  | 36 => ⟨S131072, .i32⟩
  | 37 => ⟨S131072, .i32⟩
  | 38 => ⟨S_, .i32⟩
  | 39 => ⟨S131072, .i32⟩
  | 40 => ⟨S131072, .i1⟩
  | 41 => ⟨S_, .i32⟩
  | 42 => ⟨S131072, .i32⟩
  | 43 => ⟨S131072, .i32⟩
  | 44 => ⟨S131072, .i32⟩
  | 45 => ⟨S_, .i32⟩
  | 46 => ⟨S131072, .i32⟩
  | 47 => ⟨S131072, .i1⟩
  | 48 => ⟨S_, .i32⟩
  | 49 => ⟨S131072, .i32⟩
  | 50 => ⟨S131072, .i32⟩
  | 51 => ⟨S131072, .i32⟩
  | 52 => ⟨S131072x1, .i32⟩
  | 53 => ⟨S131072x1, .i32⟩
  | 54 => ⟨S131072x1, .i32⟩
  | 55 => ⟨S131072x3, .i32⟩
  | 56 => ⟨S_, .f32⟩
  | 57 => ⟨S131072, .f32⟩
  | 58 => ⟨S256x256x128, .f32⟩
  | 59 => ⟨S_, .f32⟩
  | 60 => ⟨S256x64x256, .f32⟩
  | 61 => ⟨S_, .i32⟩
  | 62 => ⟨S65536, .i32⟩
  | 63 => ⟨S65536, .i1⟩
  | 64 => ⟨S_, .i32⟩
  | 65 => ⟨S65536, .i32⟩
  | 66 => ⟨S65536, .i32⟩
  | 67 => ⟨S65536, .i32⟩
  | 68 => ⟨S_, .i32⟩
  | 69 => ⟨S65536, .i32⟩
  | 70 => ⟨S65536, .i1⟩
  | 71 => ⟨S_, .i32⟩
  | 72 => ⟨S65536, .i32⟩
  | 73 => ⟨S65536, .i32⟩
  | 74 => ⟨S65536, .i32⟩
  | 75 => ⟨S_, .i32⟩
  | 76 => ⟨S65536, .i32⟩
  | 77 => ⟨S65536, .i1⟩
  | 78 => ⟨S_, .i32⟩
  | 79 => ⟨S65536, .i32⟩
  | 80 => ⟨S65536, .i32⟩
  | 81 => ⟨S65536, .i32⟩
  | 82 => ⟨S65536x1, .i32⟩
  | 83 => ⟨S65536x1, .i32⟩
  | 84 => ⟨S65536x1, .i32⟩
  | 85 => ⟨S65536x3, .i32⟩
  | 86 => ⟨S_, .f32⟩
  | 87 => ⟨S65536, .f32⟩
  | 88 => ⟨S256x64x256, .f32⟩
  | 89 => ⟨S_, .i32⟩
  | 90 => ⟨S131072, .i32⟩
  | 91 => ⟨S131072, .i32⟩
  | 92 => ⟨S131072, .i32⟩
  | 93 => ⟨S_, .i32⟩
  | 94 => ⟨S131072, .i32⟩
  | 95 => ⟨S131072, .i32⟩
  | 96 => ⟨S131072, .i32⟩
  | 97 => ⟨S_, .i32⟩
  | 98 => ⟨S131072, .i32⟩
  | 99 => ⟨S131072, .i32⟩
  | 100 => ⟨S131072, .i32⟩
  | 101 => ⟨S_, .i32⟩
  | 102 => ⟨S98304, .i32⟩
  | 103 => ⟨S98304, .i32⟩
  | 104 => ⟨S98304, .i32⟩
  | 105 => ⟨S_, .i32⟩
  | 106 => ⟨S98304, .i32⟩
  | 107 => ⟨S98304, .i32⟩
  | 108 => ⟨S98304, .i32⟩
  | 109 => ⟨S_, .i32⟩
  | 110 => ⟨S98304, .i32⟩
  | 111 => ⟨S98304, .i32⟩
  | 112 => ⟨S98304, .i32⟩
  | 113 => ⟨S_, .i32⟩
  | 114 => ⟨S131072, .i32⟩
  | 115 => ⟨S131072, .i1⟩
  | 116 => ⟨S_, .i32⟩
  | 117 => ⟨S131072, .i32⟩
  | 118 => ⟨S131072, .i32⟩
  | 119 => ⟨S131072, .i32⟩
  | 120 => ⟨S131072x1, .i32⟩
  | 121 => ⟨S131072x256, .f32⟩
  | 122 => ⟨S1x1x256x256, .f32⟩
  | 123 => ⟨S256x256, .f32⟩
  | 124 => ⟨S131072x256, .f32⟩
  | 125 => ⟨S_, .i32⟩
  | 126 => ⟨S131072, .i32⟩
  | 127 => ⟨S131072, .i1⟩
  | _ => ⟨S32768x256, .f32⟩

abbrev hbmTy0_1 (i : Nat) : BufTy := match i % 128 with
  | 0 => ⟨S_, .i32⟩
  | 1 => ⟨S131072, .i32⟩
  | 2 => ⟨S131072, .i32⟩
  | 3 => ⟨S131072, .i32⟩
  | 4 => ⟨S131072x1, .i32⟩
  | 5 => ⟨S131072x256, .f32⟩
  | 6 => ⟨S1x1x256x256, .f32⟩
  | 7 => ⟨S256x256, .f32⟩
  | 8 => ⟨S131072x256, .f32⟩
  | 9 => ⟨S131072x256, .f32⟩
  | 10 => ⟨S_, .f32⟩
  | 11 => ⟨S131072x256, .f32⟩
  | 12 => ⟨S131072x256, .f32⟩
  | 13 => ⟨S_, .f32⟩
  | 14 => ⟨S32768x256, .f32⟩
  | 15 => ⟨S131072x1, .i32⟩
  | 16 => ⟨S32768x256, .f32⟩
  | 17 => ⟨S_, .i32⟩
  | 18 => ⟨S98304, .i32⟩
  | 19 => ⟨S98304, .i1⟩
  | 20 => ⟨S_, .i32⟩
  | 21 => ⟨S98304, .i32⟩
  | 22 => ⟨S98304, .i32⟩
  | 23 => ⟨S98304, .i32⟩
  | 24 => ⟨S98304x1, .i32⟩
  | 25 => ⟨S98304x256, .f32⟩
  | 26 => ⟨S1x1x256x256, .f32⟩
  | 27 => ⟨S256x256, .f32⟩
  | 28 => ⟨S98304x256, .f32⟩
  | 29 => ⟨S_, .i32⟩
  | 30 => ⟨S98304, .i32⟩
  | 31 => ⟨S98304, .i1⟩
  | 32 => ⟨S_, .i32⟩
  | 33 => ⟨S98304, .i32⟩
  | 34 => ⟨S98304, .i32⟩
  | 35 => ⟨S98304, .i32⟩
  | 36 => ⟨S98304x1, .i32⟩
  | 37 => ⟨S98304x256, .f32⟩
  | 38 => ⟨S1x1x256x256, .f32⟩
  | 39 => ⟨S256x256, .f32⟩
  | 40 => ⟨S98304x256, .f32⟩
  | 41 => ⟨S98304x256, .f32⟩
  | 42 => ⟨S_, .f32⟩
  | 43 => ⟨S98304x256, .f32⟩
  | 44 => ⟨S98304x256, .f32⟩
  | 45 => ⟨S_, .f32⟩
  | 46 => ⟨S65536x256, .f32⟩
  | 47 => ⟨S98304x1, .i32⟩
  | 48 => ⟨S65536x256, .f32⟩
  | 49 => ⟨S256x128x256, .f32⟩
  | 50 => ⟨S256x256x256, .f32⟩
  | 51 => ⟨S65536x256, .f32⟩
  | 52 => ⟨S1x1x256x256, .f32⟩
  | 53 => ⟨S256x256, .f32⟩
  | 54 => ⟨S65536x256, .f32⟩
  | 55 => ⟨S256x256x256, .f32⟩
  | 56 => ⟨S256x64x256, .f32⟩
  | 57 => ⟨S16384x256, .f32⟩
  | 58 => ⟨S1x1x256x256, .f32⟩
  | 59 => ⟨S256x256, .f32⟩
  | 60 => ⟨S16384x256, .f32⟩
  | 61 => ⟨S1x1x256x256, .f32⟩
  | 62 => ⟨S256x256, .f32⟩
  | 63 => ⟨S32768x256, .f32⟩
  | 64 => ⟨S1x1x256, .f32⟩
  | 65 => ⟨S256, .f32⟩
  | 66 => ⟨S1x256, .f32⟩
  | 67 => ⟨S32768x256, .f32⟩
  | 68 => ⟨S32768x256, .f32⟩
  | 69 => ⟨S32768x256, .f32⟩
  | 70 => ⟨S_, .f32⟩
  | 71 => ⟨S32768x256, .f32⟩
  | 72 => ⟨S32768x256, .f32⟩
  | 73 => ⟨S1x1x256x256, .f32⟩
  | 74 => ⟨S256x256, .f32⟩
  | 75 => ⟨S65536x256, .f32⟩
  | 76 => ⟨S1x1x256, .f32⟩
  | 77 => ⟨S256, .f32⟩
  | 78 => ⟨S1x256, .f32⟩
  | 79 => ⟨S65536x256, .f32⟩
  | 80 => ⟨S65536x256, .f32⟩
  | 81 => ⟨S65536x256, .f32⟩
  | 82 => ⟨S65536x256, .f32⟩
  | 83 => ⟨S_, .f32⟩
  | 84 => ⟨S65536x256, .f32⟩
  | 85 => ⟨S65536x256, .f32⟩
  | 86 => ⟨S1x1x256x256, .f32⟩
  | 87 => ⟨S256x256, .f32⟩
  | 88 => ⟨S16384x256, .f32⟩
  | 89 => ⟨S1x1x256, .f32⟩
  | 90 => ⟨S256, .f32⟩
  | 91 => ⟨S1x256, .f32⟩
  | 92 => ⟨S16384x256, .f32⟩
  | 93 => ⟨S16384x256, .f32⟩
  | 94 => ⟨S16384x256, .f32⟩
  | 95 => ⟨S_, .f32⟩
  | 96 => ⟨S16384x256, .f32⟩
  | 97 => ⟨S16384x256, .f32⟩
  | 98 => ⟨S_, .i32⟩
  | 99 => ⟨S131072, .i32⟩
  | 100 => ⟨S131072, .i1⟩
  | 101 => ⟨S_, .i32⟩
  | 102 => ⟨S131072, .i32⟩
  | 103 => ⟨S131072, .i32⟩
  | 104 => ⟨S131072, .i32⟩
  | 105 => ⟨S131072x1, .i32⟩
  | 106 => ⟨S131072x256, .f32⟩
  | 107 => ⟨S1x1x256x256, .f32⟩
  | 108 => ⟨S256x256, .f32⟩
  | 109 => ⟨S131072x256, .f32⟩
  | 110 => ⟨S_, .i32⟩
  | 111 => ⟨S131072, .i32⟩
  | 112 => ⟨S131072, .i1⟩
  | 113 => ⟨S_, .i32⟩
  | 114 => ⟨S131072, .i32⟩
  | 115 => ⟨S131072, .i32⟩
  | 116 => ⟨S131072, .i32⟩
  | 117 => ⟨S131072x1, .i32⟩
  | 118 => ⟨S131072x256, .f32⟩
  | 119 => ⟨S1x1x256x256, .f32⟩
  | 120 => ⟨S256x256, .f32⟩
  | 121 => ⟨S131072x256, .f32⟩
  | 122 => ⟨S131072x256, .f32⟩
  | 123 => ⟨S_, .f32⟩
  | 124 => ⟨S131072x256, .f32⟩
  | 125 => ⟨S131072x256, .f32⟩
  | 126 => ⟨S_, .f32⟩
  | 127 => ⟨S32768x256, .f32⟩
  | _ => ⟨S32768x256, .f32⟩

abbrev hbmTy0_2 (i : Nat) : BufTy := match i % 128 with
  | 0 => ⟨S131072x1, .i32⟩
  | 1 => ⟨S32768x256, .f32⟩
  | 2 => ⟨S_, .i32⟩
  | 3 => ⟨S98304, .i32⟩
  | 4 => ⟨S98304, .i1⟩
  | 5 => ⟨S_, .i32⟩
  | 6 => ⟨S98304, .i32⟩
  | 7 => ⟨S98304, .i32⟩
  | 8 => ⟨S98304, .i32⟩
  | 9 => ⟨S98304x1, .i32⟩
  | 10 => ⟨S98304x256, .f32⟩
  | 11 => ⟨S1x1x256x256, .f32⟩
  | 12 => ⟨S256x256, .f32⟩
  | 13 => ⟨S98304x256, .f32⟩
  | 14 => ⟨S_, .i32⟩
  | 15 => ⟨S98304, .i32⟩
  | 16 => ⟨S98304, .i1⟩
  | 17 => ⟨S_, .i32⟩
  | 18 => ⟨S98304, .i32⟩
  | 19 => ⟨S98304, .i32⟩
  | 20 => ⟨S98304, .i32⟩
  | 21 => ⟨S98304x1, .i32⟩
  | 22 => ⟨S98304x256, .f32⟩
  | 23 => ⟨S1x1x256x256, .f32⟩
  | 24 => ⟨S256x256, .f32⟩
  | 25 => ⟨S98304x256, .f32⟩
  | 26 => ⟨S98304x256, .f32⟩
  | 27 => ⟨S_, .f32⟩
  | 28 => ⟨S98304x256, .f32⟩
  | 29 => ⟨S98304x256, .f32⟩
  | 30 => ⟨S_, .f32⟩
  | 31 => ⟨S65536x256, .f32⟩
  | 32 => ⟨S98304x1, .i32⟩
  | 33 => ⟨S65536x256, .f32⟩
  | 34 => ⟨S256x128x256, .f32⟩
  | 35 => ⟨S256x256x256, .f32⟩
  | 36 => ⟨S65536x256, .f32⟩
  | 37 => ⟨S1x1x256x256, .f32⟩
  | 38 => ⟨S256x256, .f32⟩
  | 39 => ⟨S65536x256, .f32⟩
  | 40 => ⟨S256x256x256, .f32⟩
  | 41 => ⟨S256x64x256, .f32⟩
  | 42 => ⟨S16384x256, .f32⟩
  | 43 => ⟨S1x1x256x256, .f32⟩
  | 44 => ⟨S256x256, .f32⟩
  | 45 => ⟨S16384x256, .f32⟩
  | 46 => ⟨S1x1x256x256, .f32⟩
  | 47 => ⟨S256x256, .f32⟩
  | 48 => ⟨S32768x256, .f32⟩
  | 49 => ⟨S1x1x256, .f32⟩
  | 50 => ⟨S256, .f32⟩
  | 51 => ⟨S1x256, .f32⟩
  | 52 => ⟨S32768x256, .f32⟩
  | 53 => ⟨S32768x256, .f32⟩
  | 54 => ⟨S32768x256, .f32⟩
  | 55 => ⟨S_, .f32⟩
  | 56 => ⟨S32768x256, .f32⟩
  | 57 => ⟨S32768x256, .f32⟩
  | 58 => ⟨S1x1x256x256, .f32⟩
  | 59 => ⟨S256x256, .f32⟩
  | 60 => ⟨S65536x256, .f32⟩
  | 61 => ⟨S1x1x256, .f32⟩
  | 62 => ⟨S256, .f32⟩
  | 63 => ⟨S1x256, .f32⟩
  | 64 => ⟨S65536x256, .f32⟩
  | 65 => ⟨S65536x256, .f32⟩
  | 66 => ⟨S65536x256, .f32⟩
  | 67 => ⟨S65536x256, .f32⟩
  | 68 => ⟨S_, .f32⟩
  | 69 => ⟨S65536x256, .f32⟩
  | 70 => ⟨S65536x256, .f32⟩
  | 71 => ⟨S1x1x256x256, .f32⟩
  | 72 => ⟨S256x256, .f32⟩
  | 73 => ⟨S16384x256, .f32⟩
  | 74 => ⟨S1x1x256, .f32⟩
  | 75 => ⟨S256, .f32⟩
  | 76 => ⟨S1x256, .f32⟩
  | 77 => ⟨S16384x256, .f32⟩
  | 78 => ⟨S16384x256, .f32⟩
  | 79 => ⟨S16384x256, .f32⟩
  | 80 => ⟨S_, .f32⟩
  | 81 => ⟨S16384x256, .f32⟩
  | 82 => ⟨S16384x256, .f32⟩
  | 83 => ⟨S_, .i32⟩
  | 84 => ⟨S131072, .i32⟩
  | 85 => ⟨S131072, .i1⟩
  | 86 => ⟨S_, .i32⟩
  | 87 => ⟨S131072, .i32⟩
  | 88 => ⟨S131072, .i32⟩
  | 89 => ⟨S131072, .i32⟩
  | 90 => ⟨S131072x1, .i32⟩
  | 91 => ⟨S131072x256, .f32⟩
  | 92 => ⟨S1x1x256x256, .f32⟩
  | 93 => ⟨S256x256, .f32⟩
  | 94 => ⟨S131072x256, .f32⟩
  | 95 => ⟨S_, .i32⟩
  | 96 => ⟨S131072, .i32⟩
  | 97 => ⟨S131072, .i1⟩
  | 98 => ⟨S_, .i32⟩
  | 99 => ⟨S131072, .i32⟩
  | 100 => ⟨S131072, .i32⟩
  | 101 => ⟨S131072, .i32⟩
  | 102 => ⟨S131072x1, .i32⟩
  | 103 => ⟨S131072x256, .f32⟩
  | 104 => ⟨S1x1x256x256, .f32⟩
  | 105 => ⟨S256x256, .f32⟩
  | 106 => ⟨S131072x256, .f32⟩
  | 107 => ⟨S131072x256, .f32⟩
  | 108 => ⟨S_, .f32⟩
  | 109 => ⟨S131072x256, .f32⟩
  | 110 => ⟨S131072x256, .f32⟩
  | 111 => ⟨S_, .f32⟩
  | 112 => ⟨S32768x256, .f32⟩
  | 113 => ⟨S131072x1, .i32⟩
  | 114 => ⟨S32768x256, .f32⟩
  | 115 => ⟨S_, .i32⟩
  | 116 => ⟨S98304, .i32⟩
  | 117 => ⟨S98304, .i1⟩
  | 118 => ⟨S_, .i32⟩
  | 119 => ⟨S98304, .i32⟩
  | 120 => ⟨S98304, .i32⟩
  | 121 => ⟨S98304, .i32⟩
  | 122 => ⟨S98304x1, .i32⟩
  | 123 => ⟨S98304x256, .f32⟩
  | 124 => ⟨S1x1x256x256, .f32⟩
  | 125 => ⟨S256x256, .f32⟩
  | 126 => ⟨S98304x256, .f32⟩
  | 127 => ⟨S_, .i32⟩
  | _ => ⟨S32768x256, .f32⟩

abbrev hbmTy0_3 (i : Nat) : BufTy := match i % 128 with
  | 0 => ⟨S98304, .i32⟩
  | 1 => ⟨S98304, .i1⟩
  | 2 => ⟨S_, .i32⟩
  | 3 => ⟨S98304, .i32⟩
  | 4 => ⟨S98304, .i32⟩
  | 5 => ⟨S98304, .i32⟩
  | 6 => ⟨S98304x1, .i32⟩
  | 7 => ⟨S98304x256, .f32⟩
  | 8 => ⟨S1x1x256x256, .f32⟩
  | 9 => ⟨S256x256, .f32⟩
  | 10 => ⟨S98304x256, .f32⟩
  | 11 => ⟨S98304x256, .f32⟩
  | 12 => ⟨S_, .f32⟩
  | 13 => ⟨S98304x256, .f32⟩
  | 14 => ⟨S98304x256, .f32⟩
  | 15 => ⟨S_, .f32⟩
  | 16 => ⟨S65536x256, .f32⟩
  | 17 => ⟨S98304x1, .i32⟩
  | 18 => ⟨S65536x256, .f32⟩
  | 19 => ⟨S256x128x256, .f32⟩
  | 20 => ⟨S256x256x256, .f32⟩
  | 21 => ⟨S65536x256, .f32⟩
  | 22 => ⟨S1x1x256x256, .f32⟩
  | 23 => ⟨S256x256, .f32⟩
  | 24 => ⟨S65536x256, .f32⟩
  | 25 => ⟨S256x256x256, .f32⟩
  | 26 => ⟨S256x64x256, .f32⟩
  | 27 => ⟨S16384x256, .f32⟩
  | 28 => ⟨S1x1x256x256, .f32⟩
  | 29 => ⟨S256x256, .f32⟩
  | 30 => ⟨S16384x256, .f32⟩
  | 31 => ⟨S1x1x256x256, .f32⟩
  | 32 => ⟨S256x256, .f32⟩
  | 33 => ⟨S32768x256, .f32⟩
  | 34 => ⟨S1x1x256, .f32⟩
  | 35 => ⟨S256, .f32⟩
  | 36 => ⟨S1x256, .f32⟩
  | 37 => ⟨S32768x256, .f32⟩
  | 38 => ⟨S32768x256, .f32⟩
  | 39 => ⟨S32768x256, .f32⟩
  | 40 => ⟨S_, .f32⟩
  | 41 => ⟨S32768x256, .f32⟩
  | 42 => ⟨S32768x256, .f32⟩
  | 43 => ⟨S1x1x256x256, .f32⟩
  | 44 => ⟨S256x256, .f32⟩
  | 45 => ⟨S65536x256, .f32⟩
  | 46 => ⟨S1x1x256, .f32⟩
  | 47 => ⟨S256, .f32⟩
  | 48 => ⟨S1x256, .f32⟩
  | 49 => ⟨S65536x256, .f32⟩
  | 50 => ⟨S65536x256, .f32⟩
  | 51 => ⟨S65536x256, .f32⟩
  | 52 => ⟨S65536x256, .f32⟩
  | 53 => ⟨S_, .f32⟩
  | 54 => ⟨S65536x256, .f32⟩
  | 55 => ⟨S65536x256, .f32⟩
  | 56 => ⟨S1x1x256x256, .f32⟩
  | 57 => ⟨S256x256, .f32⟩
  | 58 => ⟨S16384x256, .f32⟩
  | 59 => ⟨S1x1x256, .f32⟩
  | 60 => ⟨S256, .f32⟩
  | 61 => ⟨S1x256, .f32⟩
  | 62 => ⟨S16384x256, .f32⟩
  | 63 => ⟨S16384x256, .f32⟩
  | 64 => ⟨S16384x256, .f32⟩
  | 65 => ⟨S_, .f32⟩
  | 66 => ⟨S16384x256, .f32⟩
  | 67 => ⟨S16384x256, .f32⟩
  | 68 => ⟨S_, .i32⟩
  | 69 => ⟨S131072, .i32⟩
  | 70 => ⟨S131072, .i1⟩
  | 71 => ⟨S_, .i32⟩
  | 72 => ⟨S131072, .i32⟩
  | 73 => ⟨S131072, .i32⟩
  | 74 => ⟨S131072, .i32⟩
  | 75 => ⟨S131072x1, .i32⟩
  | 76 => ⟨S131072x256, .f32⟩
  | 77 => ⟨S1x1x256x256, .f32⟩
  | 78 => ⟨S256x256, .f32⟩
  | 79 => ⟨S131072x256, .f32⟩
  | 80 => ⟨S_, .i32⟩
  | 81 => ⟨S131072, .i32⟩
  | 82 => ⟨S131072, .i1⟩
  | 83 => ⟨S_, .i32⟩
  | 84 => ⟨S131072, .i32⟩
  | 85 => ⟨S131072, .i32⟩
  | 86 => ⟨S131072, .i32⟩
  | 87 => ⟨S131072x1, .i32⟩
  | 88 => ⟨S131072x256, .f32⟩
  | 89 => ⟨S1x1x256x256, .f32⟩
  | 90 => ⟨S256x256, .f32⟩
  | 91 => ⟨S131072x256, .f32⟩
  | 92 => ⟨S131072x256, .f32⟩
  | 93 => ⟨S_, .f32⟩
  | 94 => ⟨S131072x256, .f32⟩
  | 95 => ⟨S131072x256, .f32⟩
  | 96 => ⟨S_, .f32⟩
  | 97 => ⟨S32768x256, .f32⟩
  | 98 => ⟨S131072x1, .i32⟩
  | 99 => ⟨S32768x256, .f32⟩
  | 100 => ⟨S_, .i32⟩
  | 101 => ⟨S98304, .i32⟩
  | 102 => ⟨S98304, .i1⟩
  | 103 => ⟨S_, .i32⟩
  | 104 => ⟨S98304, .i32⟩
  | 105 => ⟨S98304, .i32⟩
  | 106 => ⟨S98304, .i32⟩
  | 107 => ⟨S98304x1, .i32⟩
  | 108 => ⟨S98304x256, .f32⟩
  | 109 => ⟨S1x1x256x256, .f32⟩
  | 110 => ⟨S256x256, .f32⟩
  | 111 => ⟨S98304x256, .f32⟩
  | 112 => ⟨S_, .i32⟩
  | 113 => ⟨S98304, .i32⟩
  | 114 => ⟨S98304, .i1⟩
  | 115 => ⟨S_, .i32⟩
  | 116 => ⟨S98304, .i32⟩
  | 117 => ⟨S98304, .i32⟩
  | 118 => ⟨S98304, .i32⟩
  | 119 => ⟨S98304x1, .i32⟩
  | 120 => ⟨S98304x256, .f32⟩
  | 121 => ⟨S1x1x256x256, .f32⟩
  | 122 => ⟨S256x256, .f32⟩
  | 123 => ⟨S98304x256, .f32⟩
  | 124 => ⟨S98304x256, .f32⟩
  | 125 => ⟨S_, .f32⟩
  | 126 => ⟨S98304x256, .f32⟩
  | 127 => ⟨S98304x256, .f32⟩
  | _ => ⟨S32768x256, .f32⟩

abbrev hbmTy0_4 (i : Nat) : BufTy := match i % 128 with
  | 0 => ⟨S_, .f32⟩
  | 1 => ⟨S65536x256, .f32⟩
  | 2 => ⟨S98304x1, .i32⟩
  | 3 => ⟨S65536x256, .f32⟩
  | 4 => ⟨S256x128x256, .f32⟩
  | 5 => ⟨S256x256x256, .f32⟩
  | 6 => ⟨S65536x256, .f32⟩
  | 7 => ⟨S1x1x256x256, .f32⟩
  | 8 => ⟨S256x256, .f32⟩
  | 9 => ⟨S65536x256, .f32⟩
  | 10 => ⟨S256x256x256, .f32⟩
  | 11 => ⟨S256x64x256, .f32⟩
  | 12 => ⟨S16384x256, .f32⟩
  | 13 => ⟨S1x1x256x256, .f32⟩
  | 14 => ⟨S256x256, .f32⟩
  | 15 => ⟨S16384x256, .f32⟩
  | 16 => ⟨S1x1x256x256, .f32⟩
  | 17 => ⟨S256x256, .f32⟩
  | 18 => ⟨S32768x256, .f32⟩
  | 19 => ⟨S1x1x256, .f32⟩
  | 20 => ⟨S256, .f32⟩
  | 21 => ⟨S1x256, .f32⟩
  | 22 => ⟨S32768x256, .f32⟩
  | 23 => ⟨S32768x256, .f32⟩
  | 24 => ⟨S32768x256, .f32⟩
  | 25 => ⟨S_, .f32⟩
  | 26 => ⟨S32768x256, .f32⟩
  | 27 => ⟨S32768x256, .f32⟩
  | 28 => ⟨S1x1x256x256, .f32⟩
  | 29 => ⟨S256x256, .f32⟩
  | 30 => ⟨S65536x256, .f32⟩
  | 31 => ⟨S1x1x256, .f32⟩
  | 32 => ⟨S256, .f32⟩
  | 33 => ⟨S1x256, .f32⟩
  | 34 => ⟨S65536x256, .f32⟩
  | 35 => ⟨S65536x256, .f32⟩
  | 36 => ⟨S65536x256, .f32⟩
  | 37 => ⟨S65536x256, .f32⟩
  | 38 => ⟨S_, .f32⟩
  | 39 => ⟨S65536x256, .f32⟩
  | 40 => ⟨S65536x256, .f32⟩
  | 41 => ⟨S1x1x256x256, .f32⟩
  | 42 => ⟨S256x256, .f32⟩
  | 43 => ⟨S16384x256, .f32⟩
  | 44 => ⟨S1x1x256, .f32⟩
  | 45 => ⟨S256, .f32⟩
  | 46 => ⟨S1x256, .f32⟩
  | 47 => ⟨S16384x256, .f32⟩
  | 48 => ⟨S16384x256, .f32⟩
  | 49 => ⟨S16384x256, .f32⟩
  | 50 => ⟨S_, .f32⟩
  | 51 => ⟨S16384x256, .f32⟩
  | 52 => ⟨S16384x256, .f32⟩
  | 53 => ⟨S32768x256, .f32⟩
  | 54 => ⟨S32768x256, .f32⟩
  | 55 => ⟨S32768x256, .f32⟩
  | 56 => ⟨S1x256, .f32⟩
  | 57 => ⟨S32768x256, .f32⟩
  | 58 => ⟨S32768x256, .f32⟩
  | 59 => ⟨S32768x256, .f32⟩
  | 60 => ⟨S32768x256, .f32⟩
  | 61 => ⟨S_, .f32⟩
  | 62 => ⟨S32768x256, .f32⟩
  | 63 => ⟨S32768x256, .f32⟩
  | 64 => ⟨S_, .f32⟩
  | 65 => ⟨S32768x256, .f32⟩
  | 66 => ⟨S32768x256, .f32⟩
  | 67 => ⟨S32768x256, .f32⟩
  | 68 => ⟨S256x128x256, .f32⟩
  | 69 => ⟨S_, .f32⟩
  | 70 => ⟨S256x256, .f32⟩
  | 71 => ⟨S65536x256, .f32⟩
  | 72 => ⟨S65536x256, .f32⟩
  | 73 => ⟨S65536x256, .f32⟩
  | 74 => ⟨S1x256, .f32⟩
  | 75 => ⟨S65536x256, .f32⟩
  | 76 => ⟨S65536x256, .f32⟩
  | 77 => ⟨S65536x256, .f32⟩
  | 78 => ⟨S65536x256, .f32⟩
  | 79 => ⟨S_, .f32⟩
  | 80 => ⟨S65536x256, .f32⟩
  | 81 => ⟨S65536x256, .f32⟩
  | 82 => ⟨S_, .f32⟩
  | 83 => ⟨S65536x256, .f32⟩
  | 84 => ⟨S65536x256, .f32⟩
  | 85 => ⟨S65536x256, .f32⟩
  | 86 => ⟨S256x256x256, .f32⟩
  | 87 => ⟨S_, .f32⟩
  | 88 => ⟨S256x256, .f32⟩
  | 89 => ⟨S16384x256, .f32⟩
  | 90 => ⟨S16384x256, .f32⟩
  | 91 => ⟨S16384x256, .f32⟩
  | 92 => ⟨S1x256, .f32⟩
  | 93 => ⟨S16384x256, .f32⟩
  | 94 => ⟨S16384x256, .f32⟩
  | 95 => ⟨S16384x256, .f32⟩
  | 96 => ⟨S16384x256, .f32⟩
  | 97 => ⟨S_, .f32⟩
  | 98 => ⟨S16384x256, .f32⟩
  | 99 => ⟨S16384x256, .f32⟩
  | 100 => ⟨S_, .f32⟩
  | 101 => ⟨S16384x256, .f32⟩
  | 102 => ⟨S16384x256, .f32⟩
  | 103 => ⟨S16384x256, .f32⟩
  | 104 => ⟨S256x64x256, .f32⟩
  | 105 => ⟨S_, .f32⟩
  | 106 => ⟨S256x256, .f32⟩
  | 107 => ⟨S1x256x512, .f32⟩
  | 108 => ⟨S256x512, .f32⟩
  | 109 => ⟨S256x512, .f32⟩
  | 110 => ⟨S1x512, .f32⟩
  | 111 => ⟨S512, .f32⟩
  | 112 => ⟨S1x512, .f32⟩
  | 113 => ⟨S256x512, .f32⟩
  | 114 => ⟨S256x512, .f32⟩
  | 115 => ⟨S_, .f32⟩
  | 116 => ⟨S256x512, .f32⟩
  | 117 => ⟨S256x512, .f32⟩
  | 118 => ⟨S_, .f32⟩
  | 119 => ⟨S256x512, .f32⟩
  | 120 => ⟨S256x512, .f32⟩
  | 121 => ⟨S1x256x512, .f32⟩
  | 122 => ⟨S256x512, .f32⟩
  | 123 => ⟨S256x512, .f32⟩
  | 124 => ⟨S1x512, .f32⟩
  | 125 => ⟨S512, .f32⟩
  | 126 => ⟨S1x512, .f32⟩
  | 127 => ⟨S256x512, .f32⟩
  | _ => ⟨S32768x256, .f32⟩

abbrev hbmTy0_5 (i : Nat) : BufTy := match i % 128 with
  | 0 => ⟨S256x512, .f32⟩
  | 1 => ⟨S_, .f32⟩
  | 2 => ⟨S256x512, .f32⟩
  | 3 => ⟨S256x512, .f32⟩
  | 4 => ⟨S256x512, .f32⟩
  | 5 => ⟨S1x256x512, .f32⟩
  | 6 => ⟨S256x512, .f32⟩
  | 7 => ⟨S256x512, .f32⟩
  | 8 => ⟨S1x512, .f32⟩
  | 9 => ⟨S512, .f32⟩
  | 10 => ⟨S1x512, .f32⟩
  | 11 => ⟨S256x512, .f32⟩
  | 12 => ⟨S256x512, .f32⟩
  | 13 => ⟨S_, .f32⟩
  | 14 => ⟨S256x512, .f32⟩
  | 15 => ⟨S256x512, .f32⟩
  | 16 => ⟨S256x512, .f32⟩
  | 17 => ⟨S256x10, .f32⟩
  | 18 => ⟨S1x10, .f32⟩
  | 19 => ⟨S256x10, .f32⟩
  | 20 => ⟨S256x10, .f32⟩
  | _ => ⟨S32768x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_c : Ref sig .tc := ⟨.hbm, 31, rfl⟩
abbrev main_v1 : Ref sig .tc := ⟨.hbm, 32, rfl⟩
abbrev main_v2 : Ref sig .tc := ⟨.hbm, 33, rfl⟩
abbrev main_c_0 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_c_1 : Ref sig .tc := ⟨.hbm, 38, rfl⟩
abbrev main_v6 : Ref sig .tc := ⟨.hbm, 39, rfl⟩
abbrev main_v7 : Ref sig .tc := ⟨.hbm, 40, rfl⟩
abbrev main_c_2 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_c_3 : Ref sig .tc := ⟨.hbm, 45, rfl⟩
abbrev main_v11 : Ref sig .tc := ⟨.hbm, 46, rfl⟩
abbrev main_v12 : Ref sig .tc := ⟨.hbm, 47, rfl⟩
abbrev main_c_4 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_5 : Ref sig .tc := ⟨.hbm, 56, rfl⟩
abbrev main_v20 : Ref sig .tc := ⟨.hbm, 57, rfl⟩
abbrev main_v21 : Ref sig .tc := ⟨.hbm, 58, rfl⟩
abbrev main_cst_6 : Ref sig .tc := ⟨.hbm, 59, rfl⟩
abbrev main_v22 : Ref sig .tc := ⟨.hbm, 60, rfl⟩
abbrev main_c_7 : Ref sig .tc := ⟨.hbm, 61, rfl⟩
abbrev main_v23 : Ref sig .tc := ⟨.hbm, 62, rfl⟩
abbrev main_v24 : Ref sig .tc := ⟨.hbm, 63, rfl⟩
abbrev main_c_8 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_c_9 : Ref sig .tc := ⟨.hbm, 68, rfl⟩
abbrev main_v28 : Ref sig .tc := ⟨.hbm, 69, rfl⟩
abbrev main_v29 : Ref sig .tc := ⟨.hbm, 70, rfl⟩
abbrev main_c_10 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_c_11 : Ref sig .tc := ⟨.hbm, 75, rfl⟩
abbrev main_v33 : Ref sig .tc := ⟨.hbm, 76, rfl⟩
abbrev main_v34 : Ref sig .tc := ⟨.hbm, 77, rfl⟩
abbrev main_c_12 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_13 : Ref sig .tc := ⟨.hbm, 86, rfl⟩
abbrev main_v42 : Ref sig .tc := ⟨.hbm, 87, rfl⟩
abbrev main_v43 : Ref sig .tc := ⟨.hbm, 88, rfl⟩
abbrev main_c_14 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_c_15 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_c_16 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_c_17 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_c_18 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_c_19 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_c_20 : Ref sig .tc := ⟨.hbm, 113, rfl⟩
abbrev main_v62 : Ref sig .tc := ⟨.hbm, 114, rfl⟩
abbrev main_v63 : Ref sig .tc := ⟨.hbm, 115, rfl⟩
abbrev main_c_21 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_c_22 : Ref sig .tc := ⟨.hbm, 125, rfl⟩
abbrev main_v72 : Ref sig .tc := ⟨.hbm, 126, rfl⟩
abbrev main_v73 : Ref sig .tc := ⟨.hbm, 127, rfl⟩
abbrev main_c_23 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_call0_cst : Ref sig .tc := ⟨.hbm, 138, rfl⟩
abbrev main_call0_v0 : Ref sig .tc := ⟨.hbm, 139, rfl⟩
abbrev main_v83 : Ref sig .tc := ⟨.hbm, 140, rfl⟩
abbrev main_cst_24 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_c_25 : Ref sig .tc := ⟨.hbm, 145, rfl⟩
abbrev main_v87 : Ref sig .tc := ⟨.hbm, 146, rfl⟩
abbrev main_v88 : Ref sig .tc := ⟨.hbm, 147, rfl⟩
abbrev main_c_26 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_c_27 : Ref sig .tc := ⟨.hbm, 157, rfl⟩
abbrev main_v97 : Ref sig .tc := ⟨.hbm, 158, rfl⟩
abbrev main_v98 : Ref sig .tc := ⟨.hbm, 159, rfl⟩
abbrev main_c_28 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_call1_cst : Ref sig .tc := ⟨.hbm, 170, rfl⟩
abbrev main_call1_v0 : Ref sig .tc := ⟨.hbm, 171, rfl⟩
abbrev main_v108 : Ref sig .tc := ⟨.hbm, 172, rfl⟩
abbrev main_cst_29 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_call2_cst : Ref sig .tc := ⟨.hbm, 198, rfl⟩
abbrev main_call2_v0 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_call3_cst : Ref sig .tc := ⟨.hbm, 211, rfl⟩
abbrev main_call3_v0 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_call4_cst : Ref sig .tc := ⟨.hbm, 223, rfl⟩
abbrev main_call4_v0 : Ref sig .tc := ⟨.hbm, 224, rfl⟩
abbrev main_v154 : Ref sig .tc := ⟨.hbm, 225, rfl⟩
abbrev main_c_30 : Ref sig .tc := ⟨.hbm, 226, rfl⟩
abbrev main_v155 : Ref sig .tc := ⟨.hbm, 227, rfl⟩
abbrev main_v156 : Ref sig .tc := ⟨.hbm, 228, rfl⟩
abbrev main_c_31 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_c_32 : Ref sig .tc := ⟨.hbm, 238, rfl⟩
abbrev main_v165 : Ref sig .tc := ⟨.hbm, 239, rfl⟩
abbrev main_v166 : Ref sig .tc := ⟨.hbm, 240, rfl⟩
abbrev main_c_33 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_call5_cst : Ref sig .tc := ⟨.hbm, 251, rfl⟩
abbrev main_call5_v0 : Ref sig .tc := ⟨.hbm, 252, rfl⟩
abbrev main_v176 : Ref sig .tc := ⟨.hbm, 253, rfl⟩
abbrev main_cst_34 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_c_35 : Ref sig .tc := ⟨.hbm, 258, rfl⟩
abbrev main_v180 : Ref sig .tc := ⟨.hbm, 259, rfl⟩
abbrev main_v181 : Ref sig .tc := ⟨.hbm, 260, rfl⟩
abbrev main_c_36 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_c_37 : Ref sig .tc := ⟨.hbm, 270, rfl⟩
abbrev main_v190 : Ref sig .tc := ⟨.hbm, 271, rfl⟩
abbrev main_v191 : Ref sig .tc := ⟨.hbm, 272, rfl⟩
abbrev main_c_38 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_call6_cst : Ref sig .tc := ⟨.hbm, 283, rfl⟩
abbrev main_call6_v0 : Ref sig .tc := ⟨.hbm, 284, rfl⟩
abbrev main_v201 : Ref sig .tc := ⟨.hbm, 285, rfl⟩
abbrev main_cst_39 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_call7_cst : Ref sig .tc := ⟨.hbm, 311, rfl⟩
abbrev main_call7_v0 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_call8_cst : Ref sig .tc := ⟨.hbm, 324, rfl⟩
abbrev main_call8_v0 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_v241 : Ref sig .tc := ⟨.hbm, 330, rfl⟩
abbrev main_v242 : Ref sig .tc := ⟨.hbm, 331, rfl⟩
abbrev main_v243 : Ref sig .tc := ⟨.hbm, 332, rfl⟩
abbrev main_v244 : Ref sig .tc := ⟨.hbm, 333, rfl⟩
abbrev main_v245 : Ref sig .tc := ⟨.hbm, 334, rfl⟩
abbrev main_v246 : Ref sig .tc := ⟨.hbm, 335, rfl⟩
abbrev main_call9_cst : Ref sig .tc := ⟨.hbm, 336, rfl⟩
abbrev main_call9_v0 : Ref sig .tc := ⟨.hbm, 337, rfl⟩
abbrev main_v247 : Ref sig .tc := ⟨.hbm, 338, rfl⟩
abbrev main_c_40 : Ref sig .tc := ⟨.hbm, 339, rfl⟩
abbrev main_v248 : Ref sig .tc := ⟨.hbm, 340, rfl⟩
abbrev main_v249 : Ref sig .tc := ⟨.hbm, 341, rfl⟩
abbrev main_c_41 : Ref sig .tc := ⟨.hbm, 342, rfl⟩
abbrev main_v250 : Ref sig .tc := ⟨.hbm, 343, rfl⟩
abbrev main_v251 : Ref sig .tc := ⟨.hbm, 344, rfl⟩
abbrev main_v252 : Ref sig .tc := ⟨.hbm, 345, rfl⟩
abbrev main_v253 : Ref sig .tc := ⟨.hbm, 346, rfl⟩
abbrev main_v254 : Ref sig .tc := ⟨.hbm, 347, rfl⟩
abbrev main_v255 : Ref sig .tc := ⟨.hbm, 348, rfl⟩
abbrev main_v256 : Ref sig .tc := ⟨.hbm, 349, rfl⟩
abbrev main_v257 : Ref sig .tc := ⟨.hbm, 350, rfl⟩
abbrev main_c_42 : Ref sig .tc := ⟨.hbm, 351, rfl⟩
abbrev main_v258 : Ref sig .tc := ⟨.hbm, 352, rfl⟩
abbrev main_v259 : Ref sig .tc := ⟨.hbm, 353, rfl⟩
abbrev main_c_43 : Ref sig .tc := ⟨.hbm, 354, rfl⟩
abbrev main_v260 : Ref sig .tc := ⟨.hbm, 355, rfl⟩
abbrev main_v261 : Ref sig .tc := ⟨.hbm, 356, rfl⟩
abbrev main_v262 : Ref sig .tc := ⟨.hbm, 357, rfl⟩
abbrev main_v263 : Ref sig .tc := ⟨.hbm, 358, rfl⟩
abbrev main_v264 : Ref sig .tc := ⟨.hbm, 359, rfl⟩
abbrev main_v265 : Ref sig .tc := ⟨.hbm, 360, rfl⟩
abbrev main_v266 : Ref sig .tc := ⟨.hbm, 361, rfl⟩
abbrev main_v267 : Ref sig .tc := ⟨.hbm, 362, rfl⟩
abbrev main_v268 : Ref sig .tc := ⟨.hbm, 363, rfl⟩
abbrev main_call10_cst : Ref sig .tc := ⟨.hbm, 364, rfl⟩
abbrev main_call10_v0 : Ref sig .tc := ⟨.hbm, 365, rfl⟩
abbrev main_v269 : Ref sig .tc := ⟨.hbm, 366, rfl⟩
abbrev main_cst_44 : Ref sig .tc := ⟨.hbm, 367, rfl⟩
abbrev main_v270 : Ref sig .tc := ⟨.hbm, 368, rfl⟩
abbrev main_v271 : Ref sig .tc := ⟨.hbm, 369, rfl⟩
abbrev main_v272 : Ref sig .tc := ⟨.hbm, 370, rfl⟩
abbrev main_c_45 : Ref sig .tc := ⟨.hbm, 371, rfl⟩
abbrev main_v273 : Ref sig .tc := ⟨.hbm, 372, rfl⟩
abbrev main_v274 : Ref sig .tc := ⟨.hbm, 373, rfl⟩
abbrev main_c_46 : Ref sig .tc := ⟨.hbm, 374, rfl⟩
abbrev main_v275 : Ref sig .tc := ⟨.hbm, 375, rfl⟩
abbrev main_v276 : Ref sig .tc := ⟨.hbm, 376, rfl⟩
abbrev main_v277 : Ref sig .tc := ⟨.hbm, 377, rfl⟩
abbrev main_v278 : Ref sig .tc := ⟨.hbm, 378, rfl⟩
abbrev main_v279 : Ref sig .tc := ⟨.hbm, 379, rfl⟩
abbrev main_v280 : Ref sig .tc := ⟨.hbm, 380, rfl⟩
abbrev main_v281 : Ref sig .tc := ⟨.hbm, 381, rfl⟩
abbrev main_v282 : Ref sig .tc := ⟨.hbm, 382, rfl⟩
abbrev main_c_47 : Ref sig .tc := ⟨.hbm, 383, rfl⟩
abbrev main_v283 : Ref sig .tc := ⟨.hbm, 384, rfl⟩
abbrev main_v284 : Ref sig .tc := ⟨.hbm, 385, rfl⟩
abbrev main_c_48 : Ref sig .tc := ⟨.hbm, 386, rfl⟩
abbrev main_v285 : Ref sig .tc := ⟨.hbm, 387, rfl⟩
abbrev main_v286 : Ref sig .tc := ⟨.hbm, 388, rfl⟩
abbrev main_v287 : Ref sig .tc := ⟨.hbm, 389, rfl⟩
abbrev main_v288 : Ref sig .tc := ⟨.hbm, 390, rfl⟩
abbrev main_v289 : Ref sig .tc := ⟨.hbm, 391, rfl⟩
abbrev main_v290 : Ref sig .tc := ⟨.hbm, 392, rfl⟩
abbrev main_v291 : Ref sig .tc := ⟨.hbm, 393, rfl⟩
abbrev main_v292 : Ref sig .tc := ⟨.hbm, 394, rfl⟩
abbrev main_v293 : Ref sig .tc := ⟨.hbm, 395, rfl⟩
abbrev main_call11_cst : Ref sig .tc := ⟨.hbm, 396, rfl⟩
abbrev main_call11_v0 : Ref sig .tc := ⟨.hbm, 397, rfl⟩
abbrev main_v294 : Ref sig .tc := ⟨.hbm, 398, rfl⟩
abbrev main_cst_49 : Ref sig .tc := ⟨.hbm, 399, rfl⟩
abbrev main_v295 : Ref sig .tc := ⟨.hbm, 400, rfl⟩
abbrev main_v296 : Ref sig .tc := ⟨.hbm, 401, rfl⟩
abbrev main_v297 : Ref sig .tc := ⟨.hbm, 402, rfl⟩
abbrev main_v298 : Ref sig .tc := ⟨.hbm, 403, rfl⟩
abbrev main_v299 : Ref sig .tc := ⟨.hbm, 404, rfl⟩
abbrev main_v300 : Ref sig .tc := ⟨.hbm, 405, rfl⟩
abbrev main_v301 : Ref sig .tc := ⟨.hbm, 406, rfl⟩
abbrev main_v302 : Ref sig .tc := ⟨.hbm, 407, rfl⟩
abbrev main_v303 : Ref sig .tc := ⟨.hbm, 408, rfl⟩
abbrev main_v304 : Ref sig .tc := ⟨.hbm, 409, rfl⟩
abbrev main_v305 : Ref sig .tc := ⟨.hbm, 410, rfl⟩
abbrev main_v306 : Ref sig .tc := ⟨.hbm, 411, rfl⟩
abbrev main_v307 : Ref sig .tc := ⟨.hbm, 412, rfl⟩
abbrev main_v308 : Ref sig .tc := ⟨.hbm, 413, rfl⟩
abbrev main_v309 : Ref sig .tc := ⟨.hbm, 414, rfl⟩
abbrev main_v310 : Ref sig .tc := ⟨.hbm, 415, rfl⟩
abbrev main_v311 : Ref sig .tc := ⟨.hbm, 416, rfl⟩
abbrev main_v312 : Ref sig .tc := ⟨.hbm, 417, rfl⟩
abbrev main_v313 : Ref sig .tc := ⟨.hbm, 418, rfl⟩
abbrev main_v314 : Ref sig .tc := ⟨.hbm, 419, rfl⟩
abbrev main_v315 : Ref sig .tc := ⟨.hbm, 420, rfl⟩
abbrev main_v316 : Ref sig .tc := ⟨.hbm, 421, rfl⟩
abbrev main_v317 : Ref sig .tc := ⟨.hbm, 422, rfl⟩
abbrev main_v318 : Ref sig .tc := ⟨.hbm, 423, rfl⟩
abbrev main_call12_cst : Ref sig .tc := ⟨.hbm, 424, rfl⟩
abbrev main_call12_v0 : Ref sig .tc := ⟨.hbm, 425, rfl⟩
abbrev main_v319 : Ref sig .tc := ⟨.hbm, 426, rfl⟩
abbrev main_v320 : Ref sig .tc := ⟨.hbm, 427, rfl⟩
abbrev main_v321 : Ref sig .tc := ⟨.hbm, 428, rfl⟩
abbrev main_v322 : Ref sig .tc := ⟨.hbm, 429, rfl⟩
abbrev main_v323 : Ref sig .tc := ⟨.hbm, 430, rfl⟩
abbrev main_v324 : Ref sig .tc := ⟨.hbm, 431, rfl⟩
abbrev main_v325 : Ref sig .tc := ⟨.hbm, 432, rfl⟩
abbrev main_v326 : Ref sig .tc := ⟨.hbm, 433, rfl⟩
abbrev main_v327 : Ref sig .tc := ⟨.hbm, 434, rfl⟩
abbrev main_v328 : Ref sig .tc := ⟨.hbm, 435, rfl⟩
abbrev main_v329 : Ref sig .tc := ⟨.hbm, 436, rfl⟩
abbrev main_call13_cst : Ref sig .tc := ⟨.hbm, 437, rfl⟩
abbrev main_call13_v0 : Ref sig .tc := ⟨.hbm, 438, rfl⟩
abbrev main_v330 : Ref sig .tc := ⟨.hbm, 439, rfl⟩
abbrev main_v331 : Ref sig .tc := ⟨.hbm, 440, rfl⟩
abbrev main_v332 : Ref sig .tc := ⟨.hbm, 441, rfl⟩
abbrev main_v333 : Ref sig .tc := ⟨.hbm, 442, rfl⟩
abbrev main_v334 : Ref sig .tc := ⟨.hbm, 443, rfl⟩
abbrev main_v335 : Ref sig .tc := ⟨.hbm, 444, rfl⟩
abbrev main_v336 : Ref sig .tc := ⟨.hbm, 445, rfl⟩
abbrev main_v337 : Ref sig .tc := ⟨.hbm, 446, rfl⟩
abbrev main_v338 : Ref sig .tc := ⟨.hbm, 447, rfl⟩
abbrev main_v339 : Ref sig .tc := ⟨.hbm, 448, rfl⟩
abbrev main_call14_cst : Ref sig .tc := ⟨.hbm, 449, rfl⟩
abbrev main_call14_v0 : Ref sig .tc := ⟨.hbm, 450, rfl⟩
abbrev main_v340 : Ref sig .tc := ⟨.hbm, 451, rfl⟩
abbrev main_c_50 : Ref sig .tc := ⟨.hbm, 452, rfl⟩
abbrev main_v341 : Ref sig .tc := ⟨.hbm, 453, rfl⟩
abbrev main_v342 : Ref sig .tc := ⟨.hbm, 454, rfl⟩
abbrev main_c_51 : Ref sig .tc := ⟨.hbm, 455, rfl⟩
abbrev main_v343 : Ref sig .tc := ⟨.hbm, 456, rfl⟩
abbrev main_v344 : Ref sig .tc := ⟨.hbm, 457, rfl⟩
abbrev main_v345 : Ref sig .tc := ⟨.hbm, 458, rfl⟩
abbrev main_v346 : Ref sig .tc := ⟨.hbm, 459, rfl⟩
abbrev main_v347 : Ref sig .tc := ⟨.hbm, 460, rfl⟩
abbrev main_v348 : Ref sig .tc := ⟨.hbm, 461, rfl⟩
abbrev main_v349 : Ref sig .tc := ⟨.hbm, 462, rfl⟩
abbrev main_v350 : Ref sig .tc := ⟨.hbm, 463, rfl⟩
abbrev main_c_52 : Ref sig .tc := ⟨.hbm, 464, rfl⟩
abbrev main_v351 : Ref sig .tc := ⟨.hbm, 465, rfl⟩
abbrev main_v352 : Ref sig .tc := ⟨.hbm, 466, rfl⟩
abbrev main_c_53 : Ref sig .tc := ⟨.hbm, 467, rfl⟩
abbrev main_v353 : Ref sig .tc := ⟨.hbm, 468, rfl⟩
abbrev main_v354 : Ref sig .tc := ⟨.hbm, 469, rfl⟩
abbrev main_v355 : Ref sig .tc := ⟨.hbm, 470, rfl⟩
abbrev main_v356 : Ref sig .tc := ⟨.hbm, 471, rfl⟩
abbrev main_v357 : Ref sig .tc := ⟨.hbm, 472, rfl⟩
abbrev main_v358 : Ref sig .tc := ⟨.hbm, 473, rfl⟩
abbrev main_v359 : Ref sig .tc := ⟨.hbm, 474, rfl⟩
abbrev main_v360 : Ref sig .tc := ⟨.hbm, 475, rfl⟩
abbrev main_v361 : Ref sig .tc := ⟨.hbm, 476, rfl⟩
abbrev main_call15_cst : Ref sig .tc := ⟨.hbm, 477, rfl⟩
abbrev main_call15_v0 : Ref sig .tc := ⟨.hbm, 478, rfl⟩
abbrev main_v362 : Ref sig .tc := ⟨.hbm, 479, rfl⟩
abbrev main_cst_54 : Ref sig .tc := ⟨.hbm, 480, rfl⟩
abbrev main_v363 : Ref sig .tc := ⟨.hbm, 481, rfl⟩
abbrev main_v364 : Ref sig .tc := ⟨.hbm, 482, rfl⟩
abbrev main_v365 : Ref sig .tc := ⟨.hbm, 483, rfl⟩
abbrev main_c_55 : Ref sig .tc := ⟨.hbm, 484, rfl⟩
abbrev main_v366 : Ref sig .tc := ⟨.hbm, 485, rfl⟩
abbrev main_v367 : Ref sig .tc := ⟨.hbm, 486, rfl⟩
abbrev main_c_56 : Ref sig .tc := ⟨.hbm, 487, rfl⟩
abbrev main_v368 : Ref sig .tc := ⟨.hbm, 488, rfl⟩
abbrev main_v369 : Ref sig .tc := ⟨.hbm, 489, rfl⟩
abbrev main_v370 : Ref sig .tc := ⟨.hbm, 490, rfl⟩
abbrev main_v371 : Ref sig .tc := ⟨.hbm, 491, rfl⟩
abbrev main_v372 : Ref sig .tc := ⟨.hbm, 492, rfl⟩
abbrev main_v373 : Ref sig .tc := ⟨.hbm, 493, rfl⟩
abbrev main_v374 : Ref sig .tc := ⟨.hbm, 494, rfl⟩
abbrev main_v375 : Ref sig .tc := ⟨.hbm, 495, rfl⟩
abbrev main_c_57 : Ref sig .tc := ⟨.hbm, 496, rfl⟩
abbrev main_v376 : Ref sig .tc := ⟨.hbm, 497, rfl⟩
abbrev main_v377 : Ref sig .tc := ⟨.hbm, 498, rfl⟩
abbrev main_c_58 : Ref sig .tc := ⟨.hbm, 499, rfl⟩
abbrev main_v378 : Ref sig .tc := ⟨.hbm, 500, rfl⟩
abbrev main_v379 : Ref sig .tc := ⟨.hbm, 501, rfl⟩
abbrev main_v380 : Ref sig .tc := ⟨.hbm, 502, rfl⟩
abbrev main_v381 : Ref sig .tc := ⟨.hbm, 503, rfl⟩
abbrev main_v382 : Ref sig .tc := ⟨.hbm, 504, rfl⟩
abbrev main_v383 : Ref sig .tc := ⟨.hbm, 505, rfl⟩
abbrev main_v384 : Ref sig .tc := ⟨.hbm, 506, rfl⟩
abbrev main_v385 : Ref sig .tc := ⟨.hbm, 507, rfl⟩
abbrev main_v386 : Ref sig .tc := ⟨.hbm, 508, rfl⟩
abbrev main_call16_cst : Ref sig .tc := ⟨.hbm, 509, rfl⟩
abbrev main_call16_v0 : Ref sig .tc := ⟨.hbm, 510, rfl⟩
abbrev main_v387 : Ref sig .tc := ⟨.hbm, 511, rfl⟩
abbrev main_cst_59 : Ref sig .tc := ⟨.hbm, 512, rfl⟩
abbrev main_v388 : Ref sig .tc := ⟨.hbm, 513, rfl⟩
abbrev main_v389 : Ref sig .tc := ⟨.hbm, 514, rfl⟩
abbrev main_v390 : Ref sig .tc := ⟨.hbm, 515, rfl⟩
abbrev main_v391 : Ref sig .tc := ⟨.hbm, 516, rfl⟩
abbrev main_v392 : Ref sig .tc := ⟨.hbm, 517, rfl⟩
abbrev main_v393 : Ref sig .tc := ⟨.hbm, 518, rfl⟩
abbrev main_v394 : Ref sig .tc := ⟨.hbm, 519, rfl⟩
abbrev main_v395 : Ref sig .tc := ⟨.hbm, 520, rfl⟩
abbrev main_v396 : Ref sig .tc := ⟨.hbm, 521, rfl⟩
abbrev main_v397 : Ref sig .tc := ⟨.hbm, 522, rfl⟩
abbrev main_v398 : Ref sig .tc := ⟨.hbm, 523, rfl⟩
abbrev main_v399 : Ref sig .tc := ⟨.hbm, 524, rfl⟩
abbrev main_v400 : Ref sig .tc := ⟨.hbm, 525, rfl⟩
abbrev main_v401 : Ref sig .tc := ⟨.hbm, 526, rfl⟩
abbrev main_v402 : Ref sig .tc := ⟨.hbm, 527, rfl⟩
abbrev main_v403 : Ref sig .tc := ⟨.hbm, 528, rfl⟩
abbrev main_v404 : Ref sig .tc := ⟨.hbm, 529, rfl⟩
abbrev main_v405 : Ref sig .tc := ⟨.hbm, 530, rfl⟩
abbrev main_v406 : Ref sig .tc := ⟨.hbm, 531, rfl⟩
abbrev main_v407 : Ref sig .tc := ⟨.hbm, 532, rfl⟩
abbrev main_v408 : Ref sig .tc := ⟨.hbm, 533, rfl⟩
abbrev main_v409 : Ref sig .tc := ⟨.hbm, 534, rfl⟩
abbrev main_v410 : Ref sig .tc := ⟨.hbm, 535, rfl⟩
abbrev main_v411 : Ref sig .tc := ⟨.hbm, 536, rfl⟩
abbrev main_call17_cst : Ref sig .tc := ⟨.hbm, 537, rfl⟩
abbrev main_call17_v0 : Ref sig .tc := ⟨.hbm, 538, rfl⟩
abbrev main_v412 : Ref sig .tc := ⟨.hbm, 539, rfl⟩
abbrev main_v413 : Ref sig .tc := ⟨.hbm, 540, rfl⟩
abbrev main_v414 : Ref sig .tc := ⟨.hbm, 541, rfl⟩
abbrev main_v415 : Ref sig .tc := ⟨.hbm, 542, rfl⟩
abbrev main_v416 : Ref sig .tc := ⟨.hbm, 543, rfl⟩
abbrev main_v417 : Ref sig .tc := ⟨.hbm, 544, rfl⟩
abbrev main_v418 : Ref sig .tc := ⟨.hbm, 545, rfl⟩
abbrev main_v419 : Ref sig .tc := ⟨.hbm, 546, rfl⟩
abbrev main_v420 : Ref sig .tc := ⟨.hbm, 547, rfl⟩
abbrev main_v421 : Ref sig .tc := ⟨.hbm, 548, rfl⟩
abbrev main_v422 : Ref sig .tc := ⟨.hbm, 549, rfl⟩
abbrev main_call18_cst : Ref sig .tc := ⟨.hbm, 550, rfl⟩
abbrev main_call18_v0 : Ref sig .tc := ⟨.hbm, 551, rfl⟩
abbrev main_v423 : Ref sig .tc := ⟨.hbm, 552, rfl⟩
abbrev main_v424 : Ref sig .tc := ⟨.hbm, 553, rfl⟩
abbrev main_v425 : Ref sig .tc := ⟨.hbm, 554, rfl⟩
abbrev main_v426 : Ref sig .tc := ⟨.hbm, 555, rfl⟩
abbrev main_v427 : Ref sig .tc := ⟨.hbm, 556, rfl⟩
abbrev main_v428 : Ref sig .tc := ⟨.hbm, 557, rfl⟩
abbrev main_v429 : Ref sig .tc := ⟨.hbm, 558, rfl⟩
abbrev main_v430 : Ref sig .tc := ⟨.hbm, 559, rfl⟩
abbrev main_v431 : Ref sig .tc := ⟨.hbm, 560, rfl⟩
abbrev main_v432 : Ref sig .tc := ⟨.hbm, 561, rfl⟩
abbrev main_call19_cst : Ref sig .tc := ⟨.hbm, 562, rfl⟩
abbrev main_call19_v0 : Ref sig .tc := ⟨.hbm, 563, rfl⟩
abbrev main_v433 : Ref sig .tc := ⟨.hbm, 564, rfl⟩
abbrev main_v434 : Ref sig .tc := ⟨.hbm, 565, rfl⟩
abbrev main_v435 : Ref sig .tc := ⟨.hbm, 566, rfl⟩
abbrev main_v436 : Ref sig .tc := ⟨.hbm, 567, rfl⟩
abbrev main_v437 : Ref sig .tc := ⟨.hbm, 568, rfl⟩
abbrev main_v438 : Ref sig .tc := ⟨.hbm, 569, rfl⟩
abbrev main_v439 : Ref sig .tc := ⟨.hbm, 570, rfl⟩
abbrev main_v440 : Ref sig .tc := ⟨.hbm, 571, rfl⟩
abbrev main_v441 : Ref sig .tc := ⟨.hbm, 572, rfl⟩
abbrev main_cst_60 : Ref sig .tc := ⟨.hbm, 573, rfl⟩
abbrev main_v442 : Ref sig .tc := ⟨.hbm, 574, rfl⟩
abbrev main_v443 : Ref sig .tc := ⟨.hbm, 575, rfl⟩
abbrev main_cst_61 : Ref sig .tc := ⟨.hbm, 576, rfl⟩
abbrev main_v444 : Ref sig .tc := ⟨.hbm, 577, rfl⟩
abbrev main_v445 : Ref sig .tc := ⟨.hbm, 578, rfl⟩
abbrev main_v446 : Ref sig .tc := ⟨.hbm, 579, rfl⟩
abbrev main_v447 : Ref sig .tc := ⟨.hbm, 580, rfl⟩
abbrev main_cst_62 : Ref sig .tc := ⟨.hbm, 581, rfl⟩
abbrev main_v448 : Ref sig .tc := ⟨.hbm, 582, rfl⟩
abbrev main_v449 : Ref sig .tc := ⟨.hbm, 583, rfl⟩
abbrev main_v450 : Ref sig .tc := ⟨.hbm, 584, rfl⟩
abbrev main_v451 : Ref sig .tc := ⟨.hbm, 585, rfl⟩
abbrev main_v452 : Ref sig .tc := ⟨.hbm, 586, rfl⟩
abbrev main_v453 : Ref sig .tc := ⟨.hbm, 587, rfl⟩
abbrev main_v454 : Ref sig .tc := ⟨.hbm, 588, rfl⟩
abbrev main_v455 : Ref sig .tc := ⟨.hbm, 589, rfl⟩
abbrev main_v456 : Ref sig .tc := ⟨.hbm, 590, rfl⟩
abbrev main_cst_63 : Ref sig .tc := ⟨.hbm, 591, rfl⟩
abbrev main_v457 : Ref sig .tc := ⟨.hbm, 592, rfl⟩
abbrev main_v458 : Ref sig .tc := ⟨.hbm, 593, rfl⟩
abbrev main_cst_64 : Ref sig .tc := ⟨.hbm, 594, rfl⟩
abbrev main_v459 : Ref sig .tc := ⟨.hbm, 595, rfl⟩
abbrev main_v460 : Ref sig .tc := ⟨.hbm, 596, rfl⟩
abbrev main_v461 : Ref sig .tc := ⟨.hbm, 597, rfl⟩
abbrev main_v462 : Ref sig .tc := ⟨.hbm, 598, rfl⟩
abbrev main_cst_65 : Ref sig .tc := ⟨.hbm, 599, rfl⟩
abbrev main_v463 : Ref sig .tc := ⟨.hbm, 600, rfl⟩
abbrev main_v464 : Ref sig .tc := ⟨.hbm, 601, rfl⟩
abbrev main_v465 : Ref sig .tc := ⟨.hbm, 602, rfl⟩
abbrev main_v466 : Ref sig .tc := ⟨.hbm, 603, rfl⟩
abbrev main_v467 : Ref sig .tc := ⟨.hbm, 604, rfl⟩
abbrev main_v468 : Ref sig .tc := ⟨.hbm, 605, rfl⟩
abbrev main_v469 : Ref sig .tc := ⟨.hbm, 606, rfl⟩
abbrev main_v470 : Ref sig .tc := ⟨.hbm, 607, rfl⟩
abbrev main_v471 : Ref sig .tc := ⟨.hbm, 608, rfl⟩
abbrev main_cst_66 : Ref sig .tc := ⟨.hbm, 609, rfl⟩
abbrev main_v472 : Ref sig .tc := ⟨.hbm, 610, rfl⟩
abbrev main_v473 : Ref sig .tc := ⟨.hbm, 611, rfl⟩
abbrev main_cst_67 : Ref sig .tc := ⟨.hbm, 612, rfl⟩
abbrev main_v474 : Ref sig .tc := ⟨.hbm, 613, rfl⟩
abbrev main_v475 : Ref sig .tc := ⟨.hbm, 614, rfl⟩
abbrev main_v476 : Ref sig .tc := ⟨.hbm, 615, rfl⟩
abbrev main_v477 : Ref sig .tc := ⟨.hbm, 616, rfl⟩
abbrev main_cst_68 : Ref sig .tc := ⟨.hbm, 617, rfl⟩
abbrev main_v478 : Ref sig .tc := ⟨.hbm, 618, rfl⟩
abbrev main_v479 : Ref sig .tc := ⟨.hbm, 619, rfl⟩
abbrev main_v480 : Ref sig .tc := ⟨.hbm, 620, rfl⟩
abbrev main_v481 : Ref sig .tc := ⟨.hbm, 621, rfl⟩
abbrev main_v482 : Ref sig .tc := ⟨.hbm, 622, rfl⟩
abbrev main_v483 : Ref sig .tc := ⟨.hbm, 623, rfl⟩
abbrev main_v484 : Ref sig .tc := ⟨.hbm, 624, rfl⟩
abbrev main_v485 : Ref sig .tc := ⟨.hbm, 625, rfl⟩
abbrev main_v486 : Ref sig .tc := ⟨.hbm, 626, rfl⟩
abbrev main_call20_cst : Ref sig .tc := ⟨.hbm, 627, rfl⟩
abbrev main_call20_v0 : Ref sig .tc := ⟨.hbm, 628, rfl⟩
abbrev main_v487 : Ref sig .tc := ⟨.hbm, 629, rfl⟩
abbrev main_cst_69 : Ref sig .tc := ⟨.hbm, 630, rfl⟩
abbrev main_v488 : Ref sig .tc := ⟨.hbm, 631, rfl⟩
abbrev main_v489 : Ref sig .tc := ⟨.hbm, 632, rfl⟩
abbrev main_v490 : Ref sig .tc := ⟨.hbm, 633, rfl⟩
abbrev main_v491 : Ref sig .tc := ⟨.hbm, 634, rfl⟩
abbrev main_v492 : Ref sig .tc := ⟨.hbm, 635, rfl⟩
abbrev main_v493 : Ref sig .tc := ⟨.hbm, 636, rfl⟩
abbrev main_v494 : Ref sig .tc := ⟨.hbm, 637, rfl⟩
abbrev main_v495 : Ref sig .tc := ⟨.hbm, 638, rfl⟩
abbrev main_v496 : Ref sig .tc := ⟨.hbm, 639, rfl⟩
abbrev main_v497 : Ref sig .tc := ⟨.hbm, 640, rfl⟩
abbrev main_call21_cst : Ref sig .tc := ⟨.hbm, 641, rfl⟩
abbrev main_call21_v0 : Ref sig .tc := ⟨.hbm, 642, rfl⟩
abbrev main_v498 : Ref sig .tc := ⟨.hbm, 643, rfl⟩
abbrev main_v499 : Ref sig .tc := ⟨.hbm, 644, rfl⟩
abbrev main_v500 : Ref sig .tc := ⟨.hbm, 645, rfl⟩
abbrev main_v501 : Ref sig .tc := ⟨.hbm, 646, rfl⟩
abbrev main_v502 : Ref sig .tc := ⟨.hbm, 647, rfl⟩
abbrev main_v503 : Ref sig .tc := ⟨.hbm, 648, rfl⟩
abbrev main_v504 : Ref sig .tc := ⟨.hbm, 649, rfl⟩
abbrev main_v505 : Ref sig .tc := ⟨.hbm, 650, rfl⟩
abbrev main_v506 : Ref sig .tc := ⟨.hbm, 651, rfl⟩
abbrev main_v507 : Ref sig .tc := ⟨.hbm, 652, rfl⟩
abbrev main_call22_cst : Ref sig .tc := ⟨.hbm, 653, rfl⟩
abbrev main_call22_v0 : Ref sig .tc := ⟨.hbm, 654, rfl⟩
abbrev main_v508 : Ref sig .tc := ⟨.hbm, 655, rfl⟩
abbrev main_v509 : Ref sig .tc := ⟨.hbm, 656, rfl⟩
abbrev main_v510 : Ref sig .tc := ⟨.hbm, 657, rfl⟩
abbrev main_v511 : Ref sig .tc := ⟨.hbm, 658, rfl⟩
abbrev main_v512 : Ref sig .tc := ⟨.hbm, 659, rfl⟩
abbrev main_v513 : Ref sig .tc := ⟨.hbm, 660, rfl⟩

abbrev nD : Nat := 1
abbrev τ : Topo := Topo.v7x

variable {F : FTy → Type} [FloatOps F]

class Facts₀ : Prop where
  bcast_S_S256x256x128 : S_.BroadcastsInDim S256x256x128 (![] : Fin 0 → Fin S256x256x128.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x1_S131072x3_d1 : Shape.Concatenates [S131072x1, S131072x1, S131072x1] S131072x3 1
  bcast_S_S256x64x256 : S_.BroadcastsInDim S256x64x256 (![] : Fin 0 → Fin S256x64x256.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x1_S65536x3_d1 : Shape.Concatenates [S65536x1, S65536x1, S65536x1] S65536x3 1
  bcast_S_S98304 : S_.BroadcastsInDim S98304 (![] : Fin 0 → Fin S98304.rank)
  slices_S4x2x256x256_S1x1x256x256_0_0_0_0 : S4x2x256x256.Slices ![0, 0, 0, 0] S1x1x256x256
  shapeCasts_S1x1x256x256_S256x256 : S1x1x256x256.ShapeCasts S256x256
  bcast_S_S131072x256 : S_.BroadcastsInDim S131072x256 (![] : Fin 0 → Fin S131072x256.rank)
  bcast_S_S32768x256 : S_.BroadcastsInDim S32768x256 (![] : Fin 0 → Fin S32768x256.rank)
  bcast_S98304_S98304x1_0 : S98304.BroadcastsInDim S98304x1 (![0] : Fin 1 → Fin S98304x1.rank)
  slices_S4x2x256x256_S1x1x256x256_0_1_0_0 : S4x2x256x256.Slices ![0, 1, 0, 0] S1x1x256x256
  bcast_S_S98304x256 : S_.BroadcastsInDim S98304x256 (![] : Fin 0 → Fin S98304x256.rank)
  bcast_S_S65536x256 : S_.BroadcastsInDim S65536x256 (![] : Fin 0 → Fin S65536x256.rank)
  shapeCasts_S32768x256_S256x128x256 : S32768x256.ShapeCasts S256x128x256
  shapeCasts_S256x256x256_S65536x256 : S256x256x256.ShapeCasts S65536x256
  shapeCasts_S65536x256_S256x256x256 : S65536x256.ShapeCasts S256x256x256
  shapeCasts_S256x64x256_S16384x256 : S256x64x256.ShapeCasts S16384x256
  slices_S4x3x256x256_S1x1x256x256_0_0_0_0 : S4x3x256x256.Slices ![0, 0, 0, 0] S1x1x256x256
  slices_S4x3x256_S1x1x256_0_0_0 : S4x3x256.Slices ![0, 0, 0] S1x1x256
  shapeCasts_S1x1x256_S256 : S1x1x256.ShapeCasts S256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  slices_S4x3x256x256_S1x1x256x256_0_1_0_0 : S4x3x256x256.Slices ![0, 1, 0, 0] S1x1x256x256
  slices_S4x3x256_S1x1x256_0_1_0 : S4x3x256.Slices ![0, 1, 0] S1x1x256
  bcast_S1x256_S65536x256_0_1 : S1x256.BroadcastsInDim S65536x256 (![0, 1] : Fin 2 → Fin S65536x256.rank)
  slices_S4x3x256x256_S1x1x256x256_0_2_0_0 : S4x3x256x256.Slices ![0, 2, 0, 0] S1x1x256x256
  slices_S4x3x256_S1x1x256_0_2_0 : S4x3x256.Slices ![0, 2, 0] S1x1x256
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  slices_S4x2x256x256_S1x1x256x256_1_0_0_0 : S4x2x256x256.Slices ![1, 0, 0, 0] S1x1x256x256
  slices_S4x2x256x256_S1x1x256x256_1_1_0_0 : S4x2x256x256.Slices ![1, 1, 0, 0] S1x1x256x256
  slices_S4x3x256x256_S1x1x256x256_1_0_0_0 : S4x3x256x256.Slices ![1, 0, 0, 0] S1x1x256x256
  slices_S4x3x256_S1x1x256_1_0_0 : S4x3x256.Slices ![1, 0, 0] S1x1x256
  slices_S4x3x256x256_S1x1x256x256_1_1_0_0 : S4x3x256x256.Slices ![1, 1, 0, 0] S1x1x256x256
  slices_S4x3x256_S1x1x256_1_1_0 : S4x3x256.Slices ![1, 1, 0] S1x1x256
  slices_S4x3x256x256_S1x1x256x256_1_2_0_0 : S4x3x256x256.Slices ![1, 2, 0, 0] S1x1x256x256
  slices_S4x3x256_S1x1x256_1_2_0 : S4x3x256.Slices ![1, 2, 0] S1x1x256
  slices_S4x2x256x256_S1x1x256x256_2_0_0_0 : S4x2x256x256.Slices ![2, 0, 0, 0] S1x1x256x256
  slices_S4x2x256x256_S1x1x256x256_2_1_0_0 : S4x2x256x256.Slices ![2, 1, 0, 0] S1x1x256x256
  slices_S4x3x256x256_S1x1x256x256_2_0_0_0 : S4x3x256x256.Slices ![2, 0, 0, 0] S1x1x256x256
  slices_S4x3x256_S1x1x256_2_0_0 : S4x3x256.Slices ![2, 0, 0] S1x1x256
  slices_S4x3x256x256_S1x1x256x256_2_1_0_0 : S4x3x256x256.Slices ![2, 1, 0, 0] S1x1x256x256
  slices_S4x3x256_S1x1x256_2_1_0 : S4x3x256.Slices ![2, 1, 0] S1x1x256
  slices_S4x3x256x256_S1x1x256x256_2_2_0_0 : S4x3x256x256.Slices ![2, 2, 0, 0] S1x1x256x256
  slices_S4x3x256_S1x1x256_2_2_0 : S4x3x256.Slices ![2, 2, 0] S1x1x256
  slices_S4x2x256x256_S1x1x256x256_3_0_0_0 : S4x2x256x256.Slices ![3, 0, 0, 0] S1x1x256x256
  slices_S4x2x256x256_S1x1x256x256_3_1_0_0 : S4x2x256x256.Slices ![3, 1, 0, 0] S1x1x256x256
  slices_S4x3x256x256_S1x1x256x256_3_0_0_0 : S4x3x256x256.Slices ![3, 0, 0, 0] S1x1x256x256
  slices_S4x3x256_S1x1x256_3_0_0 : S4x3x256.Slices ![3, 0, 0] S1x1x256
  slices_S4x3x256x256_S1x1x256x256_3_1_0_0 : S4x3x256x256.Slices ![3, 1, 0, 0] S1x1x256x256
  slices_S4x3x256_S1x1x256_3_1_0 : S4x3x256.Slices ![3, 1, 0] S1x1x256
  slices_S4x3x256x256_S1x1x256x256_3_2_0_0 : S4x3x256x256.Slices ![3, 2, 0, 0] S1x1x256x256
  slices_S4x3x256_S1x1x256_3_2_0 : S4x3x256.Slices ![3, 2, 0] S1x1x256
  reducesTo_S256x128x256_S256x256_d1 : S256x128x256.ReducesTo [1] S256x256
  h_S_ : 0 < S_.numel
  reducesTo_S256x256x256_S256x256_d1 : S256x256x256.ReducesTo [1] S256x256
  shapeCasts_S16384x256_S256x64x256 : S16384x256.ShapeCasts S256x64x256
  reducesTo_S256x64x256_S256x256_d1 : S256x64x256.ReducesTo [1] S256x256
  slices_S3x256x512_S1x256x512_0_0_0 : S3x256x512.Slices ![0, 0, 0] S1x256x512
  shapeCasts_S1x256x512_S256x512 : S1x256x512.ShapeCasts S256x512
  slices_S3x512_S1x512_0_0 : S3x512.Slices ![0, 0] S1x512
  shapeCasts_S1x512_S512 : S1x512.ShapeCasts S512
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  bcast_S_S256x512 : S_.BroadcastsInDim S256x512 (![] : Fin 0 → Fin S256x512.rank)
  slices_S3x256x512_S1x256x512_1_0_0 : S3x256x512.Slices ![1, 0, 0] S1x256x512
  slices_S3x512_S1x512_1_0 : S3x512.Slices ![1, 0] S1x512
  slices_S3x256x512_S1x256x512_2_0_0 : S3x256x512.Slices ![2, 0, 0] S1x256x512
  slices_S3x512_S1x512_2_0 : S3x512.Slices ![2, 0] S1x512
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S256x256x128_S131072x3_S131072_n_012_012_1_wf : ScatterDims.WF S256x256x128 S131072x3 S131072 [] [0, 1, 2] [0, 1, 2] 1
  scatter_S256x64x256_S65536x3_S65536_n_012_012_1_wf : ScatterDims.WF S256x64x256 S65536x3 S65536 [] [0, 1, 2] [0, 1, 2] 1
  gather_S32768x256_S131072x1_S131072x256_1_0_n_n_0_1_1256_wf : GatherDims.WF S32768x256 S131072x1 S131072x256 [1] [0] [] [0] [] 1 ![1, 256]
  dot_S131072x256_S256x256_S131072x256_1_0_0_1_n_n_wf : DotDims.WF S131072x256 S256x256 S131072x256 [1] [0] [0] [1] [] []
  gather_S65536x256_S131072x1_S131072x256_1_0_n_n_0_1_1256_wf : GatherDims.WF S65536x256 S131072x1 S131072x256 [1] [0] [] [0] [] 1 ![1, 256]
  scatter_S32768x256_S131072x1_S131072x256_1_0_0_1_wf : ScatterDims.WF S32768x256 S131072x1 S131072x256 [1] [0] [0] 1
  gather_S65536x256_S98304x1_S98304x256_1_0_n_n_0_1_1256_wf : GatherDims.WF S65536x256 S98304x1 S98304x256 [1] [0] [] [0] [] 1 ![1, 256]
  dot_S98304x256_S256x256_S98304x256_1_0_0_1_n_n_wf : DotDims.WF S98304x256 S256x256 S98304x256 [1] [0] [0] [1] [] []
  gather_S16384x256_S98304x1_S98304x256_1_0_n_n_0_1_1256_wf : GatherDims.WF S16384x256 S98304x1 S98304x256 [1] [0] [] [0] [] 1 ![1, 256]
  scatter_S65536x256_S98304x1_S98304x256_1_0_0_1_wf : ScatterDims.WF S65536x256 S98304x1 S98304x256 [1] [0] [0] 1
  dot_S256x256x128_S256x128x256_S256x256x256_2_1_1_2_0_0_wf : DotDims.WF S256x256x128 S256x128x256 S256x256x256 [2] [1] [1] [2] [0] [0]
  dot_S65536x256_S256x256_S65536x256_1_0_0_1_n_n_wf : DotDims.WF S65536x256 S256x256 S65536x256 [1] [0] [0] [1] [] []
  dot_S256x64x256_S256x256x256_S256x64x256_2_1_1_2_0_0_wf : DotDims.WF S256x64x256 S256x256x256 S256x64x256 [2] [1] [1] [2] [0] [0]
  dot_S16384x256_S256x256_S16384x256_1_0_0_1_n_n_wf : DotDims.WF S16384x256 S256x256 S16384x256 [1] [0] [0] [1] [] []
  dot_S32768x256_S256x256_S32768x256_1_0_0_1_n_n_wf : DotDims.WF S32768x256 S256x256 S32768x256 [1] [0] [0] [1] [] []
  dot_S256x256_S256x512_S256x512_1_0_0_1_n_n_wf : DotDims.WF S256x256 S256x512 S256x512 [1] [0] [0] [1] [] []
  dot_S256x512_S512x10_S256x10_1_0_0_1_n_n_wf : DotDims.WF S256x512 S512x10 S256x10 [1] [0] [0] [1] [] []

variable [Facts₀]

def scatter_S256x256x128_S131072x3_S131072_n_012_012_1 : ScatterDims S256x256x128 S131072x3 S131072 where
  updateWindowDims := []
  insertedWindowDims := [0, 1, 2]
  scatterDimsToOperandDims := [0, 1, 2]
  indexVectorDim := 1
  wf := scatter_S256x256x128_S131072x3_S131072_n_012_012_1_wf
def scatter_S256x64x256_S65536x3_S65536_n_012_012_1 : ScatterDims S256x64x256 S65536x3 S65536 where
  updateWindowDims := []
  insertedWindowDims := [0, 1, 2]
  scatterDimsToOperandDims := [0, 1, 2]
  indexVectorDim := 1
  wf := scatter_S256x64x256_S65536x3_S65536_n_012_012_1_wf
def gather_S32768x256_S131072x1_S131072x256_1_0_n_n_0_1_1256 : GatherDims S32768x256 S131072x1 S131072x256 where
  offsetDims := [1]
  collapsedSliceDims := [0]
  operandBatchingDims := []
  startIndicesBatchingDims := []
  startIndexMap := [0]
  indexVectorDim := 1
  sliceSizes := ![1, 256]
  wf := gather_S32768x256_S131072x1_S131072x256_1_0_n_n_0_1_1256_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def gather_S65536x256_S131072x1_S131072x256_1_0_n_n_0_1_1256 : GatherDims S65536x256 S131072x1 S131072x256 where
  offsetDims := [1]
  collapsedSliceDims := [0]
  operandBatchingDims := []
  startIndicesBatchingDims := []
  startIndexMap := [0]
  indexVectorDim := 1
  sliceSizes := ![1, 256]
  wf := gather_S65536x256_S131072x1_S131072x256_1_0_n_n_0_1_1256_wf
def scatter_S32768x256_S131072x1_S131072x256_1_0_0_1 : ScatterDims S32768x256 S131072x1 S131072x256 where
  updateWindowDims := [1]
  insertedWindowDims := [0]
  scatterDimsToOperandDims := [0]
  indexVectorDim := 1
  wf := scatter_S32768x256_S131072x1_S131072x256_1_0_0_1_wf
def gather_S65536x256_S98304x1_S98304x256_1_0_n_n_0_1_1256 : GatherDims S65536x256 S98304x1 S98304x256 where
  offsetDims := [1]
  collapsedSliceDims := [0]
  operandBatchingDims := []
  startIndicesBatchingDims := []
  startIndexMap := [0]
  indexVectorDim := 1
  sliceSizes := ![1, 256]
  wf := gather_S65536x256_S98304x1_S98304x256_1_0_n_n_0_1_1256_wf
def dot_S98304x256_S256x256_S98304x256_1_0_0_1_n_n : DotDims S98304x256 S256x256 S98304x256 where
  lhsContracting := [1]
  rhsContracting := [0]
  lhsNonContracting := [0]
  rhsNonContracting := [1]
  lhsBatch := []
  rhsBatch := []
  wf := dot_S98304x256_S256x256_S98304x256_1_0_0_1_n_n_wf
def gather_S16384x256_S98304x1_S98304x256_1_0_n_n_0_1_1256 : GatherDims S16384x256 S98304x1 S98304x256 where
  offsetDims := [1]
  collapsedSliceDims := [0]
  operandBatchingDims := []
  startIndicesBatchingDims := []
  startIndexMap := [0]
  indexVectorDim := 1
  sliceSizes := ![1, 256]
  wf := gather_S16384x256_S98304x1_S98304x256_1_0_n_n_0_1_1256_wf
def scatter_S65536x256_S98304x1_S98304x256_1_0_0_1 : ScatterDims S65536x256 S98304x1 S98304x256 where
  updateWindowDims := [1]
  insertedWindowDims := [0]
  scatterDimsToOperandDims := [0]
  indexVectorDim := 1
  wf := scatter_S65536x256_S98304x1_S98304x256_1_0_0_1_wf
def dot_S256x256x128_S256x128x256_S256x256x256_2_1_1_2_0_0 : DotDims S256x256x128 S256x128x256 S256x256x256 where
  lhsContracting := [2]
  rhsContracting := [1]
  lhsNonContracting := [1]
  rhsNonContracting := [2]
  lhsBatch := [0]
  rhsBatch := [0]
  wf := dot_S256x256x128_S256x128x256_S256x256x256_2_1_1_2_0_0_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S256x64x256_S256x256x256_S256x64x256_2_1_1_2_0_0 : DotDims S256x64x256 S256x256x256 S256x64x256 where
  lhsContracting := [2]
  rhsContracting := [1]
  lhsNonContracting := [1]
  rhsNonContracting := [2]
  lhsBatch := [0]
  rhsBatch := [0]
  wf := dot_S256x64x256_S256x256x256_S256x64x256_2_1_1_2_0_0_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x512_S512x10_S256x10_1_0_0_1_n_n : DotDims S256x512 S512x10 S256x10 where
  lhsContracting := [1]
  rhsContracting := [0]
  lhsNonContracting := [0]
  rhsNonContracting := [1]
  lhsBatch := []
  rhsBatch := []
  wf := dot_S256x512_S512x10_S256x10_1_0_0_1_n_n_wf

class Facts : Prop extends Facts₀ where

variable [Facts]
-- ==== Proof.K.Region0.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 0: two input windows, each block loaded whole; one output window, stored whole -/

/-- Window `w`'s block at grid point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or kept from the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x256 := Rect.unit (s := S2048x256) ![0, 0] S2048x256.size inb_S2048x256_S2048x256_0_0
abbrev r0_1 : Rect S256x256 := Rect.unit (s := S256x256) ![0, 0] S256x256.size inb_S256x256_S256x256_0_0
abbrev r0_o : Rect S2048x256 := Rect.unit (s := S2048x256) ![0, 0] S2048x256.size inb_S2048x256_S2048x256_0_0

/-- The output block after the body: its one whole-block store, of the body's value at the two input blocks. -/
def out0 (x0 : Vec F S2048x256 .f32) (x1 : Vec F S256x256 .f32) : Vec F S2048x256 .f32 :=
  View.canon [⟨r0_o, k0_pay1 (View.ld x0 r0_0) (View.ld x1 r0_1)⟩]

/-- That one store covers the block. -/
theorem cover0 (p0 : Vec F S2048x256 .f32) (y : S2048x256.Idx) :
    ∃ pc ∈ ([⟨r0_o, p0⟩] : List (View.Piece (Elt F) S2048x256 .f32)), y ∈ pc.1.set :=
  View.cover_of_tiled [⟨r0_o, p0⟩] S2048x256.size (by rfl) y

set_option maxHeartbeats 1000000 in
/-- The body on whole staging buffers: both input buffers are read and left as found, and the output buffer,
    whatever it held, ends at the body's value. -/
theorem sound_kernel0 (c : Dev nD) (E : Set ℕ) (i : grid0.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__proj_matmul_kernel i arg1 harg1 arg2 harg2 arg3 harg3) K := by
  simp only [cc0__proj_matmul_kernel_eq_skeleton]; unfold cc0__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover0 _)

/-- The proof data: the arrays as the region finds them; after the body each input buffer still at its block and the
    output buffer at the body's value there; nothing owed, full shares, the scoped rest untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.K.Region1.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1: two input windows, each block loaded whole; one output window, stored whole -/

/-- Window `w`'s block at grid point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2048x256 := Rect.unit (s := S2048x256) ![0, 0] S2048x256.size inb_S2048x256_S2048x256_0_0
abbrev r1_1 : Rect S256x256 := Rect.unit (s := S256x256) ![0, 0] S256x256.size inb_S256x256_S256x256_0_0
abbrev r1_o : Rect S2048x256 := Rect.unit (s := S2048x256) ![0, 0] S2048x256.size inb_S2048x256_S2048x256_0_0

/-- The output block after the body: its one whole-block store, of the body's value at the two input blocks. -/
def out1 (x0 : Vec F S2048x256 .f32) (x1 : Vec F S256x256 .f32) : Vec F S2048x256 .f32 :=
  View.canon [⟨r1_o, k1_pay1 (View.ld x0 r1_0) (View.ld x1 r1_1)⟩]

/-- That one store covers the block. -/
theorem cover1 (p0 : Vec F S2048x256 .f32) (y : S2048x256.Idx) :
    ∃ pc ∈ ([⟨r1_o, p0⟩] : List (View.Piece (Elt F) S2048x256 .f32)), y ∈ pc.1.set :=
  View.cover_of_tiled [⟨r1_o, p0⟩] S2048x256.size (by rfl) y

set_option maxHeartbeats 1000000 in
/-- The body on whole staging buffers: both input buffers are read and left as found, and the output buffer,
    whatever it held, ends at the body's value. -/
theorem sound_kernel1 (c : Dev nD) (E : Set ℕ) (i : grid1.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__proj_matmul_kernel i arg1 harg1 arg2 harg2 arg3 harg3) K := by
  simp only [cc1__proj_matmul_kernel_eq_skeleton]; unfold cc1__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover1 _)

/-- The proof data: the arrays as the region finds them; after the body each input buffer still at its block and the
    output buffer at the body's value there; nothing owed, full shares, the scoped rest untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.K.Region2.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 2: two input windows, each block loaded whole; one output window, stored whole -/

/-- Window `w`'s block at grid point `t`, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or kept from the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2048x256 := Rect.unit (s := S2048x256) ![0, 0] S2048x256.size inb_S2048x256_S2048x256_0_0
abbrev r2_1 : Rect S256x256 := Rect.unit (s := S256x256) ![0, 0] S256x256.size inb_S256x256_S256x256_0_0
abbrev r2_o : Rect S2048x256 := Rect.unit (s := S2048x256) ![0, 0] S2048x256.size inb_S2048x256_S2048x256_0_0

/-- The output block after the body: its one whole-block store, of the body's value at the two input blocks. -/
def out2 (x0 : Vec F S2048x256 .f32) (x1 : Vec F S256x256 .f32) : Vec F S2048x256 .f32 :=
  View.canon [⟨r2_o, k2_pay1 (View.ld x0 r2_0) (View.ld x1 r2_1)⟩]

/-- That one store covers the block. -/
theorem cover2 (p0 : Vec F S2048x256 .f32) (y : S2048x256.Idx) :
    ∃ pc ∈ ([⟨r2_o, p0⟩] : List (View.Piece (Elt F) S2048x256 .f32)), y ∈ pc.1.set :=
  View.cover_of_tiled [⟨r2_o, p0⟩] S2048x256.size (by rfl) y

set_option maxHeartbeats 1000000 in
/-- The body on whole staging buffers: both input buffers are read and left as found, and the output buffer,
    whatever it held, ends at the body's value. -/
theorem sound_kernel2 (c : Dev nD) (E : Set ℕ) (i : grid2.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2__proj_matmul_kernel i arg1 harg1 arg2 harg2 arg3 harg3) K := by
  simp only [cc2__proj_matmul_kernel_eq_skeleton]; unfold cc2__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover2 _)

/-- The proof data: the arrays as the region finds them; after the body each input buffer still at its block and the
    output buffer at the body's value there; nothing owed, full shares, the scoped rest untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.K.Region3.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 3: two input windows, each block loaded whole; one output window, stored whole -/

/-- Window `w`'s block at grid point `t`, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or kept from the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S2048x256 := Rect.unit (s := S2048x256) ![0, 0] S2048x256.size inb_S2048x256_S2048x256_0_0
abbrev r3_1 : Rect S256x256 := Rect.unit (s := S256x256) ![0, 0] S256x256.size inb_S256x256_S256x256_0_0
abbrev r3_o : Rect S2048x256 := Rect.unit (s := S2048x256) ![0, 0] S2048x256.size inb_S2048x256_S2048x256_0_0

/-- The output block after the body: its one whole-block store, of the body's value at the two input blocks. -/
def out3 (x0 : Vec F S2048x256 .f32) (x1 : Vec F S256x256 .f32) : Vec F S2048x256 .f32 :=
  View.canon [⟨r3_o, k3_pay1 (View.ld x0 r3_0) (View.ld x1 r3_1)⟩]

/-- That one store covers the block. -/
theorem cover3 (p0 : Vec F S2048x256 .f32) (y : S2048x256.Idx) :
    ∃ pc ∈ ([⟨r3_o, p0⟩] : List (View.Piece (Elt F) S2048x256 .f32)), y ∈ pc.1.set :=
  View.cover_of_tiled [⟨r3_o, p0⟩] S2048x256.size (by rfl) y

set_option maxHeartbeats 1000000 in
/-- The body on whole staging buffers: both input buffers are read and left as found, and the output buffer,
    whatever it held, ends at the body's value. -/
theorem sound_kernel3 (c : Dev nD) (E : Set ℕ) (i : grid3.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3 x0 x1)) -∗ K ⟨⟩))
      ⊢ wp frame (wpE (defs₀ (F := F)) Variants.none c none) E (cc3__proj_matmul_kernel i arg1 harg1 arg2 harg2 arg3 harg3) K := by
  simp only [cc3__proj_matmul_kernel_eq_skeleton]; unfold cc3__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover3 _)

/-- The proof data: the arrays as the region finds them; after the body each input buffer still at its block and the
    output buffer at the body's value there; nothing owed, full shares, the scoped rest untouched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is handed at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.K.Region4.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 4: two input windows, each block loaded whole; one output window, stored whole -/

/-- Window `w`'s block at grid point `t`, read off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or kept from the point before. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2048x256 := Rect.unit (s := S2048x256) ![0, 0] S2048x256.size inb_S2048x256_S2048x256_0_0
abbrev r4_1 : Rect S256x256 := Rect.unit (s := S256x256) ![0, 0] S256x256.size inb_S256x256_S256x256_0_0
abbrev r4_o : Rect S2048x256 := Rect.unit (s := S2048x256) ![0, 0] S2048x256.size inb_S2048x256_S2048x256_0_0

/-- The output block after the body: its one whole-block store, of the body's value at the two input blocks. -/
def out4 (x0 : Vec F S2048x256 .f32) (x1 : Vec F S256x256 .f32) : Vec F S2048x256 .f32 :=
  View.canon [⟨r4_o, k4_pay1 (View.ld x0 r4_0) (View.ld x1 r4_1)⟩]

/-- That one store covers the block. -/
theorem cover4 (p0 : Vec F S2048x256 .f32) (y : S2048x256.Idx) :
    ∃ pc ∈ ([⟨r4_o, p0⟩] : List (View.Piece (Elt F) S2048x256 .f32)), y ∈ pc.1.set :=
  View.cover_of_tiled [⟨r4_o, p0⟩] S2048x256.size (by rfl) y

set_option maxHeartbeats 1000000 in
/-- The body on whole staging buffers: both input buffers are read and left as found, and the output buffer,
    whatever it held, ends at the body's value. -/
theorem sound_kernel4 (c : Dev nD) (E : Set ℕ) (i : grid4.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4 x0 x1)) -∗ K ⟨⟩))
      ⊢ wp frame (wpE (defs₀ (F := F)) Variants.none c none) E (cc4__proj_matmul_kernel i arg1 harg1 arg2 harg2 arg3 harg3) K := by
  simp only [cc4__proj_matmul_kernel_eq_skeleton]; unfold cc4__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover4 _)

/-- The proof data: the arrays as the region finds them; after the body each input buffer still at its block and the
    output buffer at the body's value there; nothing owed, full shares, the scoped rest untouched. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is handed at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it hands back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Reg

end
-- ==== Proof.K.Region5.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 5: two input windows, each block loaded whole; one output window, stored whole -/

/-- Window `w`'s block at grid point `t`, read off the array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or kept from the point before. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer likewise. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S8x256x128 := Rect.unit (s := S8x256x128) ![0, 0, 0] S8x256x128.size inb_S8x256x128_S8x256x128_0_0_0
abbrev r5_1 : Rect S8x128x256 := Rect.unit (s := S8x128x256) ![0, 0, 0] S8x128x256.size inb_S8x128x256_S8x128x256_0_0_0
abbrev r5_o : Rect S8x256x256 := Rect.unit (s := S8x256x256) ![0, 0, 0] S8x256x256.size inb_S8x256x256_S8x256x256_0_0_0

/-- The output block after the body: its one whole-block store, of the body's value at the two input blocks. -/
def out5 (x0 : Vec F S8x256x128 .bf16) (x1 : Vec F S8x128x256 .f32) : Vec F S8x256x256 .f32 :=
  View.canon [⟨r5_o, k5_pay1 (View.ld x0 r5_0) (View.ld x1 r5_1)⟩]

/-- That one store covers the block. -/
theorem cover5 (p0 : Vec F S8x256x256 .f32) (y : S8x256x256.Idx) :
    ∃ pc ∈ ([⟨r5_o, p0⟩] : List (View.Piece (Elt F) S8x256x256 .f32)), y ∈ pc.1.set :=
  View.cover_of_tiled [⟨r5_o, p0⟩] S8x256x256.size (by rfl) y

set_option maxHeartbeats 1000000 in
/-- The body on whole staging buffers: both input buffers are read and left as found, and the output buffer,
    whatever it held, ends at the body's value. -/
theorem sound_kernel5 (c : Dev nD) (E : Set ℕ) (i : grid5.Coords)
    (arg1 : Memref sig .tc .vmem S8x256x128 .bf16) (harg1 : arg1.IsWhole) (arg2 : Memref sig .tc .vmem S8x128x256 .f32) (harg2 : arg2.IsWhole)
    (arg3 : Memref sig .tc .vmem S8x256x256 .f32) (harg3 : arg3.IsWhole)
    (x0 : Vec F S8x256x128 .bf16) (x1 : Vec F S8x128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5 x0 x1)) -∗ K ⟨⟩))
      ⊢ wp frame (wpE (defs₀ (F := F)) Variants.none c none) E (cc5__boundary_reduce_kernel i arg1 harg1 arg2 harg2 arg3 harg3) K := by
  simp only [cc5__boundary_reduce_kernel_eq_skeleton]; unfold cc5__boundary_reduce_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover5 _)

/-- The proof data: the arrays as the region finds them; after the body each input buffer still at its block and the
    output buffer at the body's value there; nothing owed, full shares, the scoped rest untouched. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is handed at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it hands back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.Kernel.Reg

end
-- ==== Proof.K.Region6.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 6: three input windows, each block loaded whole; one output window, stored whole -/

/-- Window `w`'s block at grid point `t`, read off the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or kept from the point before. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer likewise. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer likewise (fetched once, then kept). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S16x64x256 := Rect.unit (s := S16x64x256) ![0, 0, 0] S16x64x256.size inb_S16x64x256_S16x64x256_0_0_0
abbrev r6_1 : Rect S16x256x256 := Rect.unit (s := S16x256x256) ![0, 0, 0] S16x256x256.size inb_S16x256x256_S16x256x256_0_0_0
abbrev r6_2 : Rect S256x256 := Rect.unit (s := S256x256) ![0, 0] S256x256.size inb_S256x256_S256x256_0_0
abbrev r6_o : Rect S16x64x256 := Rect.unit (s := S16x64x256) ![0, 0, 0] S16x64x256.size inb_S16x64x256_S16x64x256_0_0_0

/-- The output block after the body: its one whole-block store, of the body's value at the three input blocks. -/
def out6 (x0 : Vec F S16x64x256 .bf16) (x1 : Vec F S16x256x256 .f32) (x2 : Vec F S256x256 .f32) : Vec F S16x64x256 .f32 :=
  View.canon [⟨r6_o, k6_pay1 (View.ld x0 r6_0) (View.ld x1 r6_1) (View.ld x2 r6_2)⟩]

/-- That one store covers the block. -/
theorem cover6 (p0 : Vec F S16x64x256 .f32) (y : S16x64x256.Idx) :
    ∃ pc ∈ ([⟨r6_o, p0⟩] : List (View.Piece (Elt F) S16x64x256 .f32)), y ∈ pc.1.set :=
  View.cover_of_tiled [⟨r6_o, p0⟩] S16x64x256.size (by rfl) y

set_option maxHeartbeats 1000000 in
/-- The body on whole staging buffers: the three input buffers are read and left as found, and the output buffer,
    whatever it held, ends at the body's value. -/
theorem sound_kernel6 (c : Dev nD) (E : Set ℕ) (i : grid6.Coords)
    (arg1 : Memref sig .tc .vmem S16x64x256 .bf16) (harg1 : arg1.IsWhole) (arg2 : Memref sig .tc .vmem S16x256x256 .f32) (harg2 : arg2.IsWhole)
    (arg3 : Memref sig .tc .vmem S256x256 .f32) (harg3 : arg3.IsWhole) (arg4 : Memref sig .tc .vmem S16x64x256 .f32) (harg4 : arg4.IsWhole)
    (x0 : Vec F S16x64x256 .bf16) (x1 : Vec F S16x256x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6 x0 x1 x2)) -∗ K ⟨⟩))
      ⊢ wp frame (wpE (defs₀ (F := F)) Variants.none c none) E (cc6__boundary_kernel i arg1 harg1 arg2 harg2 arg3 harg3 arg4 harg4) K := by
  simp only [cc6__boundary_kernel_eq_skeleton]; unfold cc6__boundary_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover6 _)

/-- The proof data: the arrays as the region finds them; after the body each input buffer still at its block and the
    output buffer at the body's value there; nothing owed, full shares, the scoped rest untouched. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is handed at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it hands back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.Kernel.Reg

end
-- ==== Proof.K.Region7.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 7: four input windows, each block loaded whole; one output window, stored whole -/

/-- Window `w`'s block at grid point `t`, read off the array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or kept from the point before. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer likewise (the weights: fetched once, then kept). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer likewise (the bias row: fetched once, then kept). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer likewise (the added term's row block). -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S2048x256 := Rect.unit (s := S2048x256) ![0, 0] S2048x256.size inb_S2048x256_S2048x256_0_0
abbrev r7_1 : Rect S256x256 := Rect.unit (s := S256x256) ![0, 0] S256x256.size inb_S256x256_S256x256_0_0
abbrev r7_2 : Rect S1x256 := Rect.unit (s := S1x256) ![0, 0] S1x256.size inb_S1x256_S1x256_0_0
abbrev r7_3 : Rect S2048x256 := Rect.unit (s := S2048x256) ![0, 0] S2048x256.size inb_S2048x256_S2048x256_0_0
abbrev r7_o : Rect S2048x256 := Rect.unit (s := S2048x256) ![0, 0] S2048x256.size inb_S2048x256_S2048x256_0_0

/-- The output block after the body: its one whole-block store, of the body's value at the four input blocks. -/
def out7 (x0 : Vec F S2048x256 .f32) (x1 : Vec F S256x256 .f32) (x2 : Vec F S1x256 .f32) (x3 : Vec F S2048x256 .f32) : Vec F S2048x256 .f32 :=
  View.canon [⟨r7_o, k7_pay1 (View.ld x0 r7_0) (View.ld x1 r7_1) (View.ld x2 r7_2) (View.ld x3 r7_3)⟩]

/-- That one store covers the block. -/
theorem cover7 (p0 : Vec F S2048x256 .f32) (y : S2048x256.Idx) :
    ∃ pc ∈ ([⟨r7_o, p0⟩] : List (View.Piece (Elt F) S2048x256 .f32)), y ∈ pc.1.set :=
  View.cover_of_tiled [⟨r7_o, p0⟩] S2048x256.size (by rfl) y

set_option maxHeartbeats 1000000 in
/-- The body on whole staging buffers: the four input buffers are read and left as found, and the output buffer,
    whatever it held, ends at the body's value. -/
theorem sound_kernel7 (c : Dev nD) (E : Set ℕ) (i : grid7.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole)
    (x0 : Vec F S2048x256 .f32) (x1 : Vec F S256x256 .f32) (x2 : Vec F S1x256 .f32) (x3 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out7 x0 x1 x2 x3)) -∗ K ⟨⟩))
      ⊢ wp frame (wpE (defs₀ (F := F)) Variants.none c none) E (cc7__self_update_kernel i arg1 harg1 arg2 harg2 arg3 harg3 arg4 harg4 arg5 harg5) K := by
  simp only [cc7__self_update_kernel_eq_skeleton]; unfold cc7__self_update_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover7 _)

/-- The proof data: the arrays as the region finds them; after the body each input buffer still at its block and the
    output buffer at the body's value there; nothing owed, full shares, the scoped rest untouched. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-- What the body is handed at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it hands back. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation7 (c : Dev nD) : BodyObligation (dat7 (F := F) V c) (defs₀ (F := F)) Variants.none () Set.univ := fun t => by
  rw [bigSep_W7, bigSep_W7]
  exact sound_body7 V c t

end Cert.Kernel.Reg

end
-- ==== Proof.K.Region8.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 8: five input windows, each block loaded whole; one output window, stored whole -/

/-- Window `w`'s block at grid point `t`, read off the array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or kept from the point before. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer likewise. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer likewise. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer likewise. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer likewise. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S2048x256 := Rect.unit (s := S2048x256) ![0, 0] S2048x256.size inb_S2048x256_S2048x256_0_0
abbrev r8_1 : Rect S256x256 := Rect.unit (s := S256x256) ![0, 0] S256x256.size inb_S256x256_S256x256_0_0
abbrev r8_2 : Rect S1x256 := Rect.unit (s := S1x256) ![0, 0] S1x256.size inb_S1x256_S1x256_0_0
abbrev r8_3 : Rect S2048x256 := Rect.unit (s := S2048x256) ![0, 0] S2048x256.size inb_S2048x256_S2048x256_0_0
abbrev r8_4 : Rect S2048x256 := Rect.unit (s := S2048x256) ![0, 0] S2048x256.size inb_S2048x256_S2048x256_0_0
abbrev r8_o : Rect S2048x256 := Rect.unit (s := S2048x256) ![0, 0] S2048x256.size inb_S2048x256_S2048x256_0_0

/-- The output block after the body: its one whole-block store, of the body's value at the five input blocks. -/
def out8 (x0 : Vec F S2048x256 .f32) (x1 : Vec F S256x256 .f32) (x2 : Vec F S1x256 .f32) (x3 : Vec F S2048x256 .f32) (x4 : Vec F S2048x256 .f32) : Vec F S2048x256 .f32 :=
  View.canon [⟨r8_o, k8_pay1 (View.ld x0 r8_0) (View.ld x1 r8_1) (View.ld x2 r8_2) (View.ld x3 r8_3) (View.ld x4 r8_4)⟩]

/-- That one store covers the block. -/
theorem cover8 (p0 : Vec F S2048x256 .f32) (y : S2048x256.Idx) :
    ∃ pc ∈ ([⟨r8_o, p0⟩] : List (View.Piece (Elt F) S2048x256 .f32)), y ∈ pc.1.set :=
  View.cover_of_tiled [⟨r8_o, p0⟩] S2048x256.size (by rfl) y

set_option maxHeartbeats 1000000 in
/-- The body on whole staging buffers: the five input buffers are read and left as found, and the output buffer,
    whatever it held, ends at the body's value. -/
theorem sound_kernel8 (c : Dev nD) (E : Set ℕ) (i : grid8.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole) (arg6 : Memref sig .tc .vmem S2048x256 .f32) (harg6 : arg6.IsWhole)
    (x0 : Vec F S2048x256 .f32) (x1 : Vec F S256x256 .f32) (x2 : Vec F S1x256 .f32) (x3 : Vec F S2048x256 .f32) (x4 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8 x0 x1 x2 x3 x4)) -∗ K ⟨⟩))
      ⊢ wp frame (wpE (defs₀ (F := F)) Variants.none c none) E (cc8__self_update2_kernel i arg1 harg1 arg2 harg2 arg3 harg3 arg4 harg4 arg5 harg5 arg6 harg6) K := by
  simp only [cc8__self_update2_kernel_eq_skeleton]; unfold cc8__self_update2_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover8 _)

/-- The proof data: the arrays as the region finds them; after the body each input buffer still at its block and the
    output buffer at the body's value there; nothing owed, full shares, the scoped rest untouched. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is handed at point `t`, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it hands back. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation8 (c : Dev nD) : BodyObligation (dat8 (F := F) V c) (defs₀ (F := F)) Variants.none () Set.univ := fun t => by
  rw [bigSep_W8, bigSep_W8]
  exact sound_body8 V c t

end Cert.Kernel.Reg

end
-- ==== Proof.K.Region9.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 9: four input windows, each block loaded whole; one output window, stored whole -/

/-- Window `w`'s block at grid point `t`, read off the array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, fetched there or kept from the point before. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer likewise (the weights: fetched once, then kept). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer likewise (the bias row: fetched once, then kept). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's staging buffer likewise (the added term's row block). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S2048x256 := Rect.unit (s := S2048x256) ![0, 0] S2048x256.size inb_S2048x256_S2048x256_0_0
abbrev r9_1 : Rect S256x256 := Rect.unit (s := S256x256) ![0, 0] S256x256.size inb_S256x256_S256x256_0_0
abbrev r9_2 : Rect S1x256 := Rect.unit (s := S1x256) ![0, 0] S1x256.size inb_S1x256_S1x256_0_0
abbrev r9_3 : Rect S2048x256 := Rect.unit (s := S2048x256) ![0, 0] S2048x256.size inb_S2048x256_S2048x256_0_0
abbrev r9_o : Rect S2048x256 := Rect.unit (s := S2048x256) ![0, 0] S2048x256.size inb_S2048x256_S2048x256_0_0

/-- The output block after the body: its one whole-block store, of the body's value at the four input blocks. -/
def out9 (x0 : Vec F S2048x256 .f32) (x1 : Vec F S256x256 .f32) (x2 : Vec F S1x256 .f32) (x3 : Vec F S2048x256 .f32) : Vec F S2048x256 .f32 :=
  View.canon [⟨r9_o, k9_pay1 (View.ld x0 r9_0) (View.ld x1 r9_1) (View.ld x2 r9_2) (View.ld x3 r9_3)⟩]

/-- That one store covers the block. -/
theorem cover9 (p0 : Vec F S2048x256 .f32) (y : S2048x256.Idx) :
    ∃ pc ∈ ([⟨r9_o, p0⟩] : List (View.Piece (Elt F) S2048x256 .f32)), y ∈ pc.1.set :=
  View.cover_of_tiled [⟨r9_o, p0⟩] S2048x256.size (by rfl) y

set_option maxHeartbeats 1000000 in
/-- The body on whole staging buffers: the four input buffers are read and left as found, and the output buffer,
    whatever it held, ends at the body's value. -/
theorem sound_kernel9 (c : Dev nD) (E : Set ℕ) (i : grid9.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole)
    (x0 : Vec F S2048x256 .f32) (x1 : Vec F S256x256 .f32) (x2 : Vec F S1x256 .f32) (x3 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out9 x0 x1 x2 x3)) -∗ K ⟨⟩))
      ⊢ wp frame (wpE (defs₀ (F := F)) Variants.none c none) E (cc9__self_update_kernel i arg1 harg1 arg2 harg2 arg3 harg3 arg4 harg4 arg5 harg5) K := by
  simp only [cc9__self_update_kernel_eq_skeleton]; unfold cc9__self_update_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover9 _)

/-- The proof data: the arrays as the region finds them; after the body each input buffer still at its block and the
    output buffer at the body's value there; nothing owed, full shares, the scoped rest untouched. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-- What the body is handed at point `t`, window by window, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it hands back. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation9 (c : Dev nD) : BodyObligation (dat9 (F := F) V c) (defs₀ (F := F)) Variants.none () Set.univ := fun t => by
  rw [bigSep_W9, bigSep_W9]
  exact sound_body9 V c t

end Cert.Kernel.Reg

end
-- ==== Proof.K.Region10.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 10: two input windows, each block loaded whole; one output window, stored whole -/

/-- Window `w`'s block at grid point `t`, read off the array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds its block at every point, fetched there or kept from the point before. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's staging buffer likewise. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

abbrev r10_0 : Rect S2048x256 := Rect.unit (s := S2048x256) ![0, 0] S2048x256.size inb_S2048x256_S2048x256_0_0
abbrev r10_1 : Rect S256x256 := Rect.unit (s := S256x256) ![0, 0] S256x256.size inb_S256x256_S256x256_0_0
abbrev r10_o : Rect S2048x256 := Rect.unit (s := S2048x256) ![0, 0] S2048x256.size inb_S2048x256_S2048x256_0_0

/-- The output block after the body: its one whole-block store, of the body's value at the two input blocks. -/
def out10 (x0 : Vec F S2048x256 .f32) (x1 : Vec F S256x256 .f32) : Vec F S2048x256 .f32 :=
  View.canon [⟨r10_o, k10_pay1 (View.ld x0 r10_0) (View.ld x1 r10_1)⟩]

/-- That one store covers the block. -/
theorem cover10 (p0 : Vec F S2048x256 .f32) (y : S2048x256.Idx) :
    ∃ pc ∈ ([⟨r10_o, p0⟩] : List (View.Piece (Elt F) S2048x256 .f32)), y ∈ pc.1.set :=
  View.cover_of_tiled [⟨r10_o, p0⟩] S2048x256.size (by rfl) y

set_option maxHeartbeats 1000000 in
/-- The body on whole staging buffers: both input buffers are read and left as found, and the output buffer,
    whatever it held, ends at the body's value. -/
theorem sound_kernel10 (c : Dev nD) (E : Set ℕ) (i : grid10.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10 x0 x1)) -∗ K ⟨⟩))
      ⊢ wp frame (wpE (defs₀ (F := F)) Variants.none c none) E (cc10__proj_matmul_kernel i arg1 harg1 arg2 harg2 arg3 harg3) K := by
  simp only [cc10__proj_matmul_kernel_eq_skeleton]; unfold cc10__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover10 _)

/-- The proof data: the arrays as the region finds them; after the body each input buffer still at its block and the
    output buffer at the body's value there; nothing owed, full shares, the scoped rest untouched. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is handed at point `t`, window by window, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it hands back. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation10 (c : Dev nD) : BodyObligation (dat10 (F := F) V c) (defs₀ (F := F)) Variants.none () Set.univ := fun t => by
  rw [bigSep_W10, bigSep_W10]
  exact sound_body10 V c t

end Cert.Kernel.Reg

end
-- ==== Proof.K.Region11.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 11: two input windows, each block loaded whole; one output window, stored whole -/

/-- Window `w`'s block at grid point `t`, read off the array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's staging buffer holds its block at every point, fetched there or kept from the point before. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's staging buffer likewise. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

abbrev r11_0 : Rect S2048x256 := Rect.unit (s := S2048x256) ![0, 0] S2048x256.size inb_S2048x256_S2048x256_0_0
abbrev r11_1 : Rect S256x256 := Rect.unit (s := S256x256) ![0, 0] S256x256.size inb_S256x256_S256x256_0_0
abbrev r11_o : Rect S2048x256 := Rect.unit (s := S2048x256) ![0, 0] S2048x256.size inb_S2048x256_S2048x256_0_0

/-- The output block after the body: its one whole-block store, of the body's value at the two input blocks. -/
def out11 (x0 : Vec F S2048x256 .f32) (x1 : Vec F S256x256 .f32) : Vec F S2048x256 .f32 :=
  View.canon [⟨r11_o, k11_pay1 (View.ld x0 r11_0) (View.ld x1 r11_1)⟩]

/-- That one store covers the block. -/
theorem cover11 (p0 : Vec F S2048x256 .f32) (y : S2048x256.Idx) :
    ∃ pc ∈ ([⟨r11_o, p0⟩] : List (View.Piece (Elt F) S2048x256 .f32)), y ∈ pc.1.set :=
  View.cover_of_tiled [⟨r11_o, p0⟩] S2048x256.size (by rfl) y

set_option maxHeartbeats 1000000 in
/-- The body on whole staging buffers: both input buffers are read and left as found, and the output buffer,
    whatever it held, ends at the body's value. -/
theorem sound_kernel11 (c : Dev nD) (E : Set ℕ) (i : grid11.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out11 x0 x1)) -∗ K ⟨⟩))
      ⊢ wp frame (wpE (defs₀ (F := F)) Variants.none c none) E (cc11__proj_matmul_kernel i arg1 harg1 arg2 harg2 arg3 harg3) K := by
  simp only [cc11__proj_matmul_kernel_eq_skeleton]; unfold cc11__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover11 _)

/-- The proof data: the arrays as the region finds them; after the body each input buffer still at its block and the
    output buffer at the body's value there; nothing owed, full shares, the scoped rest untouched. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11 (iblk11 V c 0 t) (iblk11 V c 1 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-- What the body is handed at point `t`, window by window, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it hands back. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation11 (c : Dev nD) : BodyObligation (dat11 (F := F) V c) (defs₀ (F := F)) Variants.none () Set.univ := fun t => by
  rw [bigSep_W11, bigSep_W11]
  exact sound_body11 V c t

end Cert.Kernel.Reg

end
-- ==== Proof.K.Region12.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 12: two input windows, each block loaded whole; one output window, stored whole -/

/-- Window `w`'s block at grid point `t`, read off the array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's staging buffer holds its block at every point, fetched there or kept from the point before. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's staging buffer likewise. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

abbrev r12_0 : Rect S2048x256 := Rect.unit (s := S2048x256) ![0, 0] S2048x256.size inb_S2048x256_S2048x256_0_0
abbrev r12_1 : Rect S256x256 := Rect.unit (s := S256x256) ![0, 0] S256x256.size inb_S256x256_S256x256_0_0
abbrev r12_o : Rect S2048x256 := Rect.unit (s := S2048x256) ![0, 0] S2048x256.size inb_S2048x256_S2048x256_0_0

/-- The output block after the body: its one whole-block store, of the body's value at the two input blocks. -/
def out12 (x0 : Vec F S2048x256 .f32) (x1 : Vec F S256x256 .f32) : Vec F S2048x256 .f32 :=
  View.canon [⟨r12_o, k12_pay1 (View.ld x0 r12_0) (View.ld x1 r12_1)⟩]

/-- That one store covers the block. -/
theorem cover12 (p0 : Vec F S2048x256 .f32) (y : S2048x256.Idx) :
    ∃ pc ∈ ([⟨r12_o, p0⟩] : List (View.Piece (Elt F) S2048x256 .f32)), y ∈ pc.1.set :=
  View.cover_of_tiled [⟨r12_o, p0⟩] S2048x256.size (by rfl) y

set_option maxHeartbeats 1000000 in
/-- The body on whole staging buffers: both input buffers are read and left as found, and the output buffer,
    whatever it held, ends at the body's value. -/
theorem sound_kernel12 (c : Dev nD) (E : Set ℕ) (i : grid12.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12 x0 x1)) -∗ K ⟨⟩))
      ⊢ wp frame (wpE (defs₀ (F := F)) Variants.none c none) E (cc12__proj_matmul_kernel i arg1 harg1 arg2 harg2 arg3 harg3) K := by
  simp only [cc12__proj_matmul_kernel_eq_skeleton]; unfold cc12__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover12 _)

/-- The proof data: the arrays as the region finds them; after the body each input buffer still at its block and the
    output buffer at the body's value there; nothing owed, full shares, the scoped rest untouched. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is handed at point `t`, window by window, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it hands back. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation12 (c : Dev nD) : BodyObligation (dat12 (F := F) V c) (defs₀ (F := F)) Variants.none () Set.univ := fun t => by
  rw [bigSep_W12, bigSep_W12]
  exact sound_body12 V c t

end Cert.Kernel.Reg

end
-- ==== Proof.K.Region13.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 13: two input windows, each block loaded whole; one output window, stored whole -/

/-- Window `w`'s block at grid point `t`, read off the array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's staging buffer holds its block at every point, fetched there or kept from the point before. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's staging buffer likewise. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

abbrev r13_0 : Rect S2048x256 := Rect.unit (s := S2048x256) ![0, 0] S2048x256.size inb_S2048x256_S2048x256_0_0
abbrev r13_1 : Rect S256x256 := Rect.unit (s := S256x256) ![0, 0] S256x256.size inb_S256x256_S256x256_0_0
abbrev r13_o : Rect S2048x256 := Rect.unit (s := S2048x256) ![0, 0] S2048x256.size inb_S2048x256_S2048x256_0_0

/-- The output block after the body: its one whole-block store, of the body's value at the two input blocks. -/
def out13 (x0 : Vec F S2048x256 .f32) (x1 : Vec F S256x256 .f32) : Vec F S2048x256 .f32 :=
  View.canon [⟨r13_o, k13_pay1 (View.ld x0 r13_0) (View.ld x1 r13_1)⟩]

/-- That one store covers the block. -/
theorem cover13 (p0 : Vec F S2048x256 .f32) (y : S2048x256.Idx) :
    ∃ pc ∈ ([⟨r13_o, p0⟩] : List (View.Piece (Elt F) S2048x256 .f32)), y ∈ pc.1.set :=
  View.cover_of_tiled [⟨r13_o, p0⟩] S2048x256.size (by rfl) y

set_option maxHeartbeats 1000000 in
/-- The body on whole staging buffers: both input buffers are read and left as found, and the output buffer,
    whatever it held, ends at the body's value. -/
theorem sound_kernel13 (c : Dev nD) (E : Set ℕ) (i : grid13.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out13 x0 x1)) -∗ K ⟨⟩))
      ⊢ wp frame (wpE (defs₀ (F := F)) Variants.none c none) E (cc13__proj_matmul_kernel i arg1 harg1 arg2 harg2 arg3 harg3) K := by
  simp only [cc13__proj_matmul_kernel_eq_skeleton]; unfold cc13__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover13 _)

/-- The proof data: the arrays as the region finds them; after the body each input buffer still at its block and the
    output buffer at the body's value there; nothing owed, full shares, the scoped rest untouched. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13 (iblk13 V c 0 t) (iblk13 V c 1 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- What the body is handed at point `t`, window by window, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it hands back. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation13 (c : Dev nD) : BodyObligation (dat13 (F := F) V c) (defs₀ (F := F)) Variants.none () Set.univ := fun t => by
  rw [bigSep_W13, bigSep_W13]
  exact sound_body13 V c t

end Cert.Kernel.Reg

end
-- ==== Proof.K.Region14.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 14: two input windows, each block loaded whole; one output window, stored whole -/

/-- Window `w`'s block at grid point `t`, read off the array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's staging buffer holds its block at every point, fetched there or kept from the point before. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's staging buffer likewise. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

abbrev r14_0 : Rect S2048x256 := Rect.unit (s := S2048x256) ![0, 0] S2048x256.size inb_S2048x256_S2048x256_0_0
abbrev r14_1 : Rect S256x256 := Rect.unit (s := S256x256) ![0, 0] S256x256.size inb_S256x256_S256x256_0_0
abbrev r14_o : Rect S2048x256 := Rect.unit (s := S2048x256) ![0, 0] S2048x256.size inb_S2048x256_S2048x256_0_0

/-- The output block after the body: its one whole-block store, of the body's value at the two input blocks. -/
def out14 (x0 : Vec F S2048x256 .f32) (x1 : Vec F S256x256 .f32) : Vec F S2048x256 .f32 :=
  View.canon [⟨r14_o, k14_pay1 (View.ld x0 r14_0) (View.ld x1 r14_1)⟩]

/-- That one store covers the block. -/
theorem cover14 (p0 : Vec F S2048x256 .f32) (y : S2048x256.Idx) :
    ∃ pc ∈ ([⟨r14_o, p0⟩] : List (View.Piece (Elt F) S2048x256 .f32)), y ∈ pc.1.set :=
  View.cover_of_tiled [⟨r14_o, p0⟩] S2048x256.size (by rfl) y

set_option maxHeartbeats 1000000 in
/-- The body on whole staging buffers: both input buffers are read and left as found, and the output buffer,
    whatever it held, ends at the body's value. -/
theorem sound_kernel14 (c : Dev nD) (E : Set ℕ) (i : grid14.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out14 x0 x1)) -∗ K ⟨⟩))
      ⊢ wp frame (wpE (defs₀ (F := F)) Variants.none c none) E (cc14__proj_matmul_kernel i arg1 harg1 arg2 harg2 arg3 harg3) K := by
  simp only [cc14__proj_matmul_kernel_eq_skeleton]; unfold cc14__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover14 _)

/-- The proof data: the arrays as the region finds them; after the body each input buffer still at its block and the
    output buffer at the body's value there; nothing owed, full shares, the scoped rest untouched. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = out14 (iblk14 V c 0 t) (iblk14 V c 1 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-- What the body is handed at point `t`, window by window, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it hands back. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ _ (iblk14 V c 0 t) (iblk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation14 (c : Dev nD) : BodyObligation (dat14 (F := F) V c) (defs₀ (F := F)) Variants.none () Set.univ := fun t => by
  rw [bigSep_W14, bigSep_W14]
  exact sound_body14 V c t

end Cert.Kernel.Reg

end
-- ==== Proof.K.Region15.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 15: two input windows, each block loaded whole; one output window, stored whole -/

/-- Window `w`'s block at grid point `t`, read off the array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's staging buffer holds its block at every point, fetched there or kept from the point before. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- Input window 1's staging buffer likewise. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

abbrev r15_0 : Rect S8x256x128 := Rect.unit (s := S8x256x128) ![0, 0, 0] S8x256x128.size inb_S8x256x128_S8x256x128_0_0_0
abbrev r15_1 : Rect S8x128x256 := Rect.unit (s := S8x128x256) ![0, 0, 0] S8x128x256.size inb_S8x128x256_S8x128x256_0_0_0
abbrev r15_o : Rect S8x256x256 := Rect.unit (s := S8x256x256) ![0, 0, 0] S8x256x256.size inb_S8x256x256_S8x256x256_0_0_0

/-- The output block after the body: its one whole-block store, of the body's value at the two input blocks. -/
def out15 (x0 : Vec F S8x256x128 .bf16) (x1 : Vec F S8x128x256 .f32) : Vec F S8x256x256 .f32 :=
  View.canon [⟨r15_o, k15_pay1 (View.ld x0 r15_0) (View.ld x1 r15_1)⟩]

/-- That one store covers the block. -/
theorem cover15 (p0 : Vec F S8x256x256 .f32) (y : S8x256x256.Idx) :
    ∃ pc ∈ ([⟨r15_o, p0⟩] : List (View.Piece (Elt F) S8x256x256 .f32)), y ∈ pc.1.set :=
  View.cover_of_tiled [⟨r15_o, p0⟩] S8x256x256.size (by rfl) y

set_option maxHeartbeats 1000000 in
/-- The body on whole staging buffers: both input buffers are read and left as found, and the output buffer,
    whatever it held, ends at the body's value. -/
theorem sound_kernel15 (c : Dev nD) (E : Set ℕ) (i : grid15.Coords)
    (arg1 : Memref sig .tc .vmem S8x256x128 .bf16) (harg1 : arg1.IsWhole) (arg2 : Memref sig .tc .vmem S8x128x256 .f32) (harg2 : arg2.IsWhole)
    (arg3 : Memref sig .tc .vmem S8x256x256 .f32) (harg3 : arg3.IsWhole)
    (x0 : Vec F S8x256x128 .bf16) (x1 : Vec F S8x128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out15 x0 x1)) -∗ K ⟨⟩))
      ⊢ wp frame (wpE (defs₀ (F := F)) Variants.none c none) E (cc15__boundary_reduce_kernel i arg1 harg1 arg2 harg2 arg3 harg3) K := by
  simp only [cc15__boundary_reduce_kernel_eq_skeleton]; unfold cc15__boundary_reduce_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover15 _)

/-- The proof data: the arrays as the region finds them; after the body each input buffer still at its block and the
    output buffer at the body's value there; nothing owed, full shares, the scoped rest untouched. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15 (iblk15 V c 0 t) (iblk15 V c 1 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15 (iblk15 V c 0 t) (iblk15 V c 1 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-- What the body is handed at point `t`, window by window, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

/-- and what it hands back. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%d0, H0⟩, ⟨%d1, H1⟩, ⟨%d2, H2⟩⟩
  iapply (sound_kernel15 c Set.univ _ _ _ _ _ _ _ (iblk15 V c 0 t) (iblk15 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation15 (c : Dev nD) : BodyObligation (dat15 (F := F) V c) (defs₀ (F := F)) Variants.none () Set.univ := fun t => by
  rw [bigSep_W15, bigSep_W15]
  exact sound_body15 V c t

end Cert.Kernel.Reg

end
-- ==== Proof.K.Region16.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 16: three input windows, each block loaded whole; one output window, stored whole -/

/-- Window `w`'s block at grid point `t`, read off the array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's staging buffer holds its block at every point, fetched there or kept from the point before. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- Input window 1's staging buffer likewise. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- Input window 2's staging buffer likewise (fetched once, then kept). -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

abbrev r16_0 : Rect S16x64x256 := Rect.unit (s := S16x64x256) ![0, 0, 0] S16x64x256.size inb_S16x64x256_S16x64x256_0_0_0
abbrev r16_1 : Rect S16x256x256 := Rect.unit (s := S16x256x256) ![0, 0, 0] S16x256x256.size inb_S16x256x256_S16x256x256_0_0_0
abbrev r16_2 : Rect S256x256 := Rect.unit (s := S256x256) ![0, 0] S256x256.size inb_S256x256_S256x256_0_0
abbrev r16_o : Rect S16x64x256 := Rect.unit (s := S16x64x256) ![0, 0, 0] S16x64x256.size inb_S16x64x256_S16x64x256_0_0_0

/-- The output block after the body: its one whole-block store, of the body's value at the three input blocks. -/
def out16 (x0 : Vec F S16x64x256 .bf16) (x1 : Vec F S16x256x256 .f32) (x2 : Vec F S256x256 .f32) : Vec F S16x64x256 .f32 :=
  View.canon [⟨r16_o, k16_pay1 (View.ld x0 r16_0) (View.ld x1 r16_1) (View.ld x2 r16_2)⟩]

/-- That one store covers the block. -/
theorem cover16 (p0 : Vec F S16x64x256 .f32) (y : S16x64x256.Idx) :
    ∃ pc ∈ ([⟨r16_o, p0⟩] : List (View.Piece (Elt F) S16x64x256 .f32)), y ∈ pc.1.set :=
  View.cover_of_tiled [⟨r16_o, p0⟩] S16x64x256.size (by rfl) y

set_option maxHeartbeats 1000000 in
/-- The body on whole staging buffers: the three input buffers are read and left as found, and the output buffer,
    whatever it held, ends at the body's value. -/
theorem sound_kernel16 (c : Dev nD) (E : Set ℕ) (i : grid16.Coords)
    (arg1 : Memref sig .tc .vmem S16x64x256 .bf16) (harg1 : arg1.IsWhole) (arg2 : Memref sig .tc .vmem S16x256x256 .f32) (harg2 : arg2.IsWhole)
    (arg3 : Memref sig .tc .vmem S256x256 .f32) (harg3 : arg3.IsWhole) (arg4 : Memref sig .tc .vmem S16x64x256 .f32) (harg4 : arg4.IsWhole)
    (x0 : Vec F S16x64x256 .bf16) (x1 : Vec F S16x256x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out16 x0 x1 x2)) -∗ K ⟨⟩))
      ⊢ wp frame (wpE (defs₀ (F := F)) Variants.none c none) E (cc16__boundary_kernel i arg1 harg1 arg2 harg2 arg3 harg3 arg4 harg4) K := by
  simp only [cc16__boundary_kernel_eq_skeleton]; unfold cc16__boundary_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover16 _)

/-- The proof data: the arrays as the region finds them; after the body each input buffer still at its block and the
    output buffer at the body's value there; nothing owed, full shares, the scoped rest untouched. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => out16 (iblk16 V c 0 t) (iblk16 V c 1 t) (iblk16 V c 2 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) :
    (dat16 V c).after 3 t = out16 (iblk16 V c 0 t) (iblk16 V c 1 t) (iblk16 V c 2 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

/-- What the body is handed at point `t`, window by window, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d)))

/-- and what it hands back. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).Φ t.succ = (dat16 V c).Φ t.castSucc from rfl,
    show (dat16 V c).owesAt () t.succ = (dat16 V c).owesAt () t.castSucc from rfl,
    after16_0, after16_1, after16_2, after16_3]
  iintro ⟨HΦ, Ho, ⟨%d0, H0⟩, ⟨%d1, H1⟩, ⟨%d2, H2⟩, ⟨%d3, H3⟩⟩
  iapply (sound_kernel16 c Set.univ _ _ _ _ _ _ _ _ _ (iblk16 V c 0 t) (iblk16 V c 1 t) (iblk16 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation16 (c : Dev nD) : BodyObligation (dat16 (F := F) V c) (defs₀ (F := F)) Variants.none () Set.univ := fun t => by
  rw [bigSep_W16, bigSep_W16]
  exact sound_body16 V c t

end Cert.Kernel.Reg

end
-- ==== Proof.K.Region17.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 17: four input windows, each block loaded whole; one output window, stored whole -/

/-- Window `w`'s block at grid point `t`, read off the array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- Input window 0's staging buffer holds its block at every point, fetched there or kept from the point before. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- Input window 1's staging buffer likewise (the weights: fetched once, then kept). -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- Input window 2's staging buffer likewise (the bias row: fetched once, then kept). -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-- Input window 3's staging buffer likewise (the added term's row block). -/
theorem before17_3_of {c : Dev nD} (dat : Dat τ (Elt F) Unit ℕ (UR sig nD τ) ℕ cfg17 c) (hA : dat.A 3 = V c (Pipeline.arrRef spec17 3))
    (hafter : ∀ t, dat.after 3 t = iblk17 V c 3 t) (t : Fin cfg17.N) (d) : dat.before 3 t d = iblk17 V c 3 t :=
  (dat.before_in_eq_fetched 3 rfl (fun _ => rfl) (fun _ _ _ => rfl) (fun t => by rw [hafter]; unfold Dat.blockOf iblk17; rw [hA]; try rfl) t d).trans
    (by unfold Dat.fetched Dat.blockOf iblk17; rw [hA]; try rfl)

abbrev r17_0 : Rect S2048x256 := Rect.unit (s := S2048x256) ![0, 0] S2048x256.size inb_S2048x256_S2048x256_0_0
abbrev r17_1 : Rect S256x256 := Rect.unit (s := S256x256) ![0, 0] S256x256.size inb_S256x256_S256x256_0_0
abbrev r17_2 : Rect S1x256 := Rect.unit (s := S1x256) ![0, 0] S1x256.size inb_S1x256_S1x256_0_0
abbrev r17_3 : Rect S2048x256 := Rect.unit (s := S2048x256) ![0, 0] S2048x256.size inb_S2048x256_S2048x256_0_0
abbrev r17_o : Rect S2048x256 := Rect.unit (s := S2048x256) ![0, 0] S2048x256.size inb_S2048x256_S2048x256_0_0

/-- The output block after the body: its one whole-block store, of the body's value at the four input blocks. -/
def out17 (x0 : Vec F S2048x256 .f32) (x1 : Vec F S256x256 .f32) (x2 : Vec F S1x256 .f32) (x3 : Vec F S2048x256 .f32) : Vec F S2048x256 .f32 :=
  View.canon [⟨r17_o, k17_pay1 (View.ld x0 r17_0) (View.ld x1 r17_1) (View.ld x2 r17_2) (View.ld x3 r17_3)⟩]

/-- That one store covers the block. -/
theorem cover17 (p0 : Vec F S2048x256 .f32) (y : S2048x256.Idx) :
    ∃ pc ∈ ([⟨r17_o, p0⟩] : List (View.Piece (Elt F) S2048x256 .f32)), y ∈ pc.1.set :=
  View.cover_of_tiled [⟨r17_o, p0⟩] S2048x256.size (by rfl) y

set_option maxHeartbeats 1000000 in
/-- The body on whole staging buffers: the four input buffers are read and left as found, and the output buffer,
    whatever it held, ends at the body's value. -/
theorem sound_kernel17 (c : Dev nD) (E : Set ℕ) (i : grid17.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole)
    (x0 : Vec F S2048x256 .f32) (x1 : Vec F S256x256 .f32) (x2 : Vec F S1x256 .f32) (x3 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out17 x0 x1 x2 x3)) -∗ K ⟨⟩))
      ⊢ wp frame (wpE (defs₀ (F := F)) Variants.none c none) E (cc17__self_update_kernel i arg1 harg1 arg2 harg2 arg3 harg3 arg4 harg4 arg5 harg5) K := by
  simp only [cc17__self_update_kernel_eq_skeleton]; unfold cc17__self_update_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover17 _)

/-- The proof data: the arrays as the region finds them; after the body each input buffer still at its block and the
    output buffer at the body's value there; nothing owed, full shares, the scoped rest untouched. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => out17 (iblk17 V c 0 t) (iblk17 V c 1 t) (iblk17 V c 2 t) (iblk17 V c 3 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = iblk17 V c 3 t := by dsimp only [dat17]
theorem after17_4 (c : Dev nD) (t : Fin cfg17.N) :
    (dat17 V c).after 4 t = out17 (iblk17 V c 0 t) (iblk17 V c 1 t) (iblk17 V c 2 t) (iblk17 V c 3 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d
theorem before17_3 (c : Dev nD) (t : Fin cfg17.N) (d) : (dat17 V c).before 3 t d = iblk17 V c 3 t :=
  before17_3_of V (dat17 V c) (A_eq17 V c 3) (after17_3 V c) t d

/-- What the body is handed at point `t`, window by window, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d))
    ∗ (∃ d, owns (c : Thread nD τ) (st17_4 t) fullShare ((dat17 V c).before 4 t d)))

/-- and what it hands back. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t)
    ∗ owns (c : Thread nD τ) (st17_4 t) fullShare ((dat17 V c).after 4 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2, before17_3]
  rw [show (dat17 V c).Φ t.succ = (dat17 V c).Φ t.castSucc from rfl,
    show (dat17 V c).owesAt () t.succ = (dat17 V c).owesAt () t.castSucc from rfl,
    after17_0, after17_1, after17_2, after17_3, after17_4]
  iintro ⟨HΦ, Ho, ⟨%d0, H0⟩, ⟨%d1, H1⟩, ⟨%d2, H2⟩, ⟨%d3, H3⟩, ⟨%d4, H4⟩⟩
  iapply (sound_kernel17 c Set.univ _ _ _ _ _ _ _ _ _ _ _ (iblk17 V c 0 t) (iblk17 V c 1 t) (iblk17 V c 2 t) (iblk17 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation17 (c : Dev nD) : BodyObligation (dat17 (F := F) V c) (defs₀ (F := F)) Variants.none () Set.univ := fun t => by
  rw [bigSep_W17, bigSep_W17]
  exact sound_body17 V c t

end Cert.Kernel.Reg

end
-- ==== Proof.K.Region18.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 18: five input windows, each block loaded whole; one output window, stored whole -/

/-- Window `w`'s block at grid point `t`, read off the array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- Input window 0's staging buffer holds its block at every point, fetched there or kept from the point before. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- Input window 1's staging buffer likewise. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- Input window 2's staging buffer likewise. -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

/-- Input window 3's staging buffer likewise. -/
theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)

/-- Input window 4's staging buffer likewise. -/
theorem before18_4_of {c : Dev nD} (dat : Dat τ (Elt F) Unit ℕ (UR sig nD τ) ℕ cfg18 c) (hA : dat.A 4 = V c (Pipeline.arrRef spec18 4))
    (hafter : ∀ t, dat.after 4 t = iblk18 V c 4 t) (t : Fin cfg18.N) (d) : dat.before 4 t d = iblk18 V c 4 t :=
  (dat.before_in_eq_fetched 4 rfl (fun _ => rfl) (fun _ _ _ => rfl) (fun t => by rw [hafter]; unfold Dat.blockOf iblk18; rw [hA]; try rfl) t d).trans
    (by unfold Dat.fetched Dat.blockOf iblk18; rw [hA]; try rfl)

abbrev r18_0 : Rect S2048x256 := Rect.unit (s := S2048x256) ![0, 0] S2048x256.size inb_S2048x256_S2048x256_0_0
abbrev r18_1 : Rect S256x256 := Rect.unit (s := S256x256) ![0, 0] S256x256.size inb_S256x256_S256x256_0_0
abbrev r18_2 : Rect S1x256 := Rect.unit (s := S1x256) ![0, 0] S1x256.size inb_S1x256_S1x256_0_0
abbrev r18_3 : Rect S2048x256 := Rect.unit (s := S2048x256) ![0, 0] S2048x256.size inb_S2048x256_S2048x256_0_0
abbrev r18_4 : Rect S2048x256 := Rect.unit (s := S2048x256) ![0, 0] S2048x256.size inb_S2048x256_S2048x256_0_0
abbrev r18_o : Rect S2048x256 := Rect.unit (s := S2048x256) ![0, 0] S2048x256.size inb_S2048x256_S2048x256_0_0

/-- The output block after the body: its one whole-block store, of the body's value at the five input blocks. -/
def out18 (x0 : Vec F S2048x256 .f32) (x1 : Vec F S256x256 .f32) (x2 : Vec F S1x256 .f32) (x3 : Vec F S2048x256 .f32) (x4 : Vec F S2048x256 .f32) : Vec F S2048x256 .f32 :=
  View.canon [⟨r18_o, k18_pay1 (View.ld x0 r18_0) (View.ld x1 r18_1) (View.ld x2 r18_2) (View.ld x3 r18_3) (View.ld x4 r18_4)⟩]

/-- That one store covers the block. -/
theorem cover18 (p0 : Vec F S2048x256 .f32) (y : S2048x256.Idx) :
    ∃ pc ∈ ([⟨r18_o, p0⟩] : List (View.Piece (Elt F) S2048x256 .f32)), y ∈ pc.1.set :=
  View.cover_of_tiled [⟨r18_o, p0⟩] S2048x256.size (by rfl) y

set_option maxHeartbeats 1000000 in
/-- The body on whole staging buffers: the five input buffers are read and left as found, and the output buffer,
    whatever it held, ends at the body's value. -/
theorem sound_kernel18 (c : Dev nD) (E : Set ℕ) (i : grid18.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole) (arg6 : Memref sig .tc .vmem S2048x256 .f32) (harg6 : arg6.IsWhole)
    (x0 : Vec F S2048x256 .f32) (x1 : Vec F S256x256 .f32) (x2 : Vec F S1x256 .f32) (x3 : Vec F S2048x256 .f32) (x4 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out18 x0 x1 x2 x3 x4)) -∗ K ⟨⟩))
      ⊢ wp frame (wpE (defs₀ (F := F)) Variants.none c none) E (cc18__self_update2_kernel i arg1 harg1 arg2 harg2 arg3 harg3 arg4 harg4 arg5 harg5 arg6 harg6) K := by
  simp only [cc18__self_update2_kernel_eq_skeleton]; unfold cc18__self_update2_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover18 _)

/-- The proof data: the arrays as the region finds them; after the body each input buffer still at its block and the
    output buffer at the body's value there; nothing owed, full shares, the scoped rest untouched. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => iblk18 V c 4 t
    | ⟨5, _⟩ => out18 (iblk18 V c 0 t) (iblk18 V c 1 t) (iblk18 V c 2 t) (iblk18 V c 3 t) (iblk18 V c 4 t)
  Φ _ := Pipeline.ΦA spec18 c
  q _ := fullShare
  owed _ := 0

theorem A_eq18 (c : Dev nD) (w : Fin cfg18.W) : (dat18 V c).A w = V c (Pipeline.arrRef spec18 w) := by
  dsimp only [dat18]

theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) : (dat18 V c).after 4 t = iblk18 V c 4 t := by dsimp only [dat18]
theorem after18_5 (c : Dev nD) (t : Fin cfg18.N) :
    (dat18 V c).after 5 t = out18 (iblk18 V c 0 t) (iblk18 V c 1 t) (iblk18 V c 2 t) (iblk18 V c 3 t) (iblk18 V c 4 t) := by dsimp only [dat18]

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d
theorem before18_4 (c : Dev nD) (t : Fin cfg18.N) (d) : (dat18 V c).before 4 t d = iblk18 V c 4 t :=
  before18_4_of V (dat18 V c) (A_eq18 V c 4) (after18_4 V c) t d

/-- What the body is handed at point `t`, window by window, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d)))

/-- and what it hands back. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t))

theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3, before18_4]
  rw [show (dat18 V c).Φ t.succ = (dat18 V c).Φ t.castSucc from rfl,
    show (dat18 V c).owesAt () t.succ = (dat18 V c).owesAt () t.castSucc from rfl,
    after18_0, after18_1, after18_2, after18_3, after18_4, after18_5]
  iintro ⟨HΦ, Ho, ⟨%d0, H0⟩, ⟨%d1, H1⟩, ⟨%d2, H2⟩, ⟨%d3, H3⟩, ⟨%d4, H4⟩, ⟨%d5, H5⟩⟩
  iapply (sound_kernel18 c Set.univ _ _ _ _ _ _ _ _ _ _ _ _ _ (iblk18 V c 0 t) (iblk18 V c 1 t) (iblk18 V c 2 t) (iblk18 V c 3 t) (iblk18 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation18 (c : Dev nD) : BodyObligation (dat18 (F := F) V c) (defs₀ (F := F)) Variants.none () Set.univ := fun t => by
  rw [bigSep_W18, bigSep_W18]
  exact sound_body18 V c t

end Cert.Kernel.Reg

end
-- ==== Proof.K.Region19.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 19: four input windows, each block loaded whole; one output window, stored whole -/

/-- Window `w`'s block at grid point `t`, read off the array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- Input window 0's staging buffer holds its block at every point, fetched there or kept from the point before. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

/-- Input window 1's staging buffer likewise (the weights: fetched once, then kept). -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-- Input window 2's staging buffer likewise (the bias row: fetched once, then kept). -/
theorem before19_2_of {c : Dev nD} (dat : Dat τ (Elt F) Unit ℕ (UR sig nD τ) ℕ cfg19 c) (hA : dat.A 2 = V c (Pipeline.arrRef spec19 2))
    (hafter : ∀ t, dat.after 2 t = iblk19 V c 2 t) (t : Fin cfg19.N) (d) : dat.before 2 t d = iblk19 V c 2 t :=
  (dat.before_in_eq_fetched 2 rfl (fun _ => rfl) (fun _ _ _ => rfl) (fun t => by rw [hafter]; unfold Dat.blockOf iblk19; rw [hA]; try rfl) t d).trans
    (by unfold Dat.fetched Dat.blockOf iblk19; rw [hA]; try rfl)

/-- Input window 3's staging buffer likewise (the added term's row block). -/
theorem before19_3_of {c : Dev nD} (dat : Dat τ (Elt F) Unit ℕ (UR sig nD τ) ℕ cfg19 c) (hA : dat.A 3 = V c (Pipeline.arrRef spec19 3))
    (hafter : ∀ t, dat.after 3 t = iblk19 V c 3 t) (t : Fin cfg19.N) (d) : dat.before 3 t d = iblk19 V c 3 t :=
  (dat.before_in_eq_fetched 3 rfl (fun _ => rfl) (fun _ _ _ => rfl) (fun t => by rw [hafter]; unfold Dat.blockOf iblk19; rw [hA]; try rfl) t d).trans
    (by unfold Dat.fetched Dat.blockOf iblk19; rw [hA]; try rfl)

abbrev r19_0 : Rect S2048x256 := Rect.unit (s := S2048x256) ![0, 0] S2048x256.size inb_S2048x256_S2048x256_0_0
abbrev r19_1 : Rect S256x256 := Rect.unit (s := S256x256) ![0, 0] S256x256.size inb_S256x256_S256x256_0_0
abbrev r19_2 : Rect S1x256 := Rect.unit (s := S1x256) ![0, 0] S1x256.size inb_S1x256_S1x256_0_0
abbrev r19_3 : Rect S2048x256 := Rect.unit (s := S2048x256) ![0, 0] S2048x256.size inb_S2048x256_S2048x256_0_0
abbrev r19_o : Rect S2048x256 := Rect.unit (s := S2048x256) ![0, 0] S2048x256.size inb_S2048x256_S2048x256_0_0

/-- The output block after the body: its one whole-block store, of the body's value at the four input blocks. -/
def out19 (x0 : Vec F S2048x256 .f32) (x1 : Vec F S256x256 .f32) (x2 : Vec F S1x256 .f32) (x3 : Vec F S2048x256 .f32) : Vec F S2048x256 .f32 :=
  View.canon [⟨r19_o, k19_pay1 (View.ld x0 r19_0) (View.ld x1 r19_1) (View.ld x2 r19_2) (View.ld x3 r19_3)⟩]

/-- That one store covers the block. -/
theorem cover19 (p0 : Vec F S2048x256 .f32) (y : S2048x256.Idx) :
    ∃ pc ∈ ([⟨r19_o, p0⟩] : List (View.Piece (Elt F) S2048x256 .f32)), y ∈ pc.1.set :=
  View.cover_of_tiled [⟨r19_o, p0⟩] S2048x256.size (by rfl) y

set_option maxHeartbeats 1000000 in
/-- The body on whole staging buffers: the four input buffers are read and left as found, and the output buffer,
    whatever it held, ends at the body's value. -/
theorem sound_kernel19 (c : Dev nD) (E : Set ℕ) (i : grid19.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole)
    (x0 : Vec F S2048x256 .f32) (x1 : Vec F S256x256 .f32) (x2 : Vec F S1x256 .f32) (x3 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out19 x0 x1 x2 x3)) -∗ K ⟨⟩))
      ⊢ wp frame (wpE (defs₀ (F := F)) Variants.none c none) E (cc19__self_update_kernel i arg1 harg1 arg2 harg2 arg3 harg3 arg4 harg4 arg5 harg5) K := by
  simp only [cc19__self_update_kernel_eq_skeleton]; unfold cc19__self_update_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover19 _)

/-- The proof data: the arrays as the region finds them; after the body each input buffer still at its block and the
    output buffer at the body's value there; nothing owed, full shares, the scoped rest untouched. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => iblk19 V c 3 t
    | ⟨4, _⟩ => out19 (iblk19 V c 0 t) (iblk19 V c 1 t) (iblk19 V c 2 t) (iblk19 V c 3 t)
  Φ _ := Pipeline.ΦA spec19 c
  q _ := fullShare
  owed _ := 0

theorem A_eq19 (c : Dev nD) (w : Fin cfg19.W) : (dat19 V c).A w = V c (Pipeline.arrRef spec19 w) := by
  dsimp only [dat19]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) : (dat19 V c).after 3 t = iblk19 V c 3 t := by dsimp only [dat19]
theorem after19_4 (c : Dev nD) (t : Fin cfg19.N) :
    (dat19 V c).after 4 t = out19 (iblk19 V c 0 t) (iblk19 V c 1 t) (iblk19 V c 2 t) (iblk19 V c 3 t) := by dsimp only [dat19]

theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d
theorem before19_2 (c : Dev nD) (t : Fin cfg19.N) (d) : (dat19 V c).before 2 t d = iblk19 V c 2 t :=
  before19_2_of V (dat19 V c) (A_eq19 V c 2) (after19_2 V c) t d
theorem before19_3 (c : Dev nD) (t : Fin cfg19.N) (d) : (dat19 V c).before 3 t d = iblk19 V c 3 t :=
  before19_3_of V (dat19 V c) (A_eq19 V c 3) (after19_3 V c) t d

/-- What the body is handed at point `t`, window by window, -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d))
    ∗ (∃ d, owns (c : Thread nD τ) (st19_3 t) fullShare ((dat19 V c).before 3 t d))
    ∗ (∃ d, owns (c : Thread nD τ) (st19_4 t) fullShare ((dat19 V c).before 4 t d)))

/-- and what it hands back. -/
def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t)
    ∗ owns (c : Thread nD τ) (st19_3 t) fullShare ((dat19 V c).after 3 t)
    ∗ owns (c : Thread nD τ) (st19_4 t) fullShare ((dat19 V c).after 4 t))

theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2, before19_3]
  rw [show (dat19 V c).Φ t.succ = (dat19 V c).Φ t.castSucc from rfl,
    show (dat19 V c).owesAt () t.succ = (dat19 V c).owesAt () t.castSucc from rfl,
    after19_0, after19_1, after19_2, after19_3, after19_4]
  iintro ⟨HΦ, Ho, ⟨%d0, H0⟩, ⟨%d1, H1⟩, ⟨%d2, H2⟩, ⟨%d3, H3⟩, ⟨%d4, H4⟩⟩
  iapply (sound_kernel19 c Set.univ _ _ _ _ _ _ _ _ _ _ _ (iblk19 V c 0 t) (iblk19 V c 1 t) (iblk19 V c 2 t) (iblk19 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation19 (c : Dev nD) : BodyObligation (dat19 (F := F) V c) (defs₀ (F := F)) Variants.none () Set.univ := fun t => by
  rw [bigSep_W19, bigSep_W19]
  exact sound_body19 V c t

end Cert.Kernel.Reg

end
-- ==== Proof.K.Region20.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 20: two input windows, each block loaded whole; one output window, stored whole -/

/-- Window `w`'s block at grid point `t`, read off the array as the region finds it. -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- Input window 0's staging buffer holds its block at every point, fetched there or kept from the point before. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

/-- Input window 1's staging buffer likewise. -/
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

abbrev r20_0 : Rect S2048x256 := Rect.unit (s := S2048x256) ![0, 0] S2048x256.size inb_S2048x256_S2048x256_0_0
abbrev r20_1 : Rect S256x256 := Rect.unit (s := S256x256) ![0, 0] S256x256.size inb_S256x256_S256x256_0_0
abbrev r20_o : Rect S2048x256 := Rect.unit (s := S2048x256) ![0, 0] S2048x256.size inb_S2048x256_S2048x256_0_0

/-- The output block after the body: its one whole-block store, of the body's value at the two input blocks. -/
def out20 (x0 : Vec F S2048x256 .f32) (x1 : Vec F S256x256 .f32) : Vec F S2048x256 .f32 :=
  View.canon [⟨r20_o, k20_pay1 (View.ld x0 r20_0) (View.ld x1 r20_1)⟩]

/-- That one store covers the block. -/
theorem cover20 (p0 : Vec F S2048x256 .f32) (y : S2048x256.Idx) :
    ∃ pc ∈ ([⟨r20_o, p0⟩] : List (View.Piece (Elt F) S2048x256 .f32)), y ∈ pc.1.set :=
  View.cover_of_tiled [⟨r20_o, p0⟩] S2048x256.size (by rfl) y

set_option maxHeartbeats 1000000 in
/-- The body on whole staging buffers: both input buffers are read and left as found, and the output buffer,
    whatever it held, ends at the body's value. -/
theorem sound_kernel20 (c : Dev nD) (E : Set ℕ) (i : grid20.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out20 x0 x1)) -∗ K ⟨⟩))
      ⊢ wp frame (wpE (defs₀ (F := F)) Variants.none c none) E (cc20__proj_matmul_kernel i arg1 harg1 arg2 harg2 arg3 harg3) K := by
  simp only [cc20__proj_matmul_kernel_eq_skeleton]; unfold cc20__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover20 _)

/-- The proof data: the arrays as the region finds them; after the body each input buffer still at its block and the
    output buffer at the body's value there; nothing owed, full shares, the scoped rest untouched. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => out20 (iblk20 V c 0 t) (iblk20 V c 1 t)
  Φ _ := Pipeline.ΦA spec20 c
  q _ := fullShare
  owed _ := 0

theorem A_eq20 (c : Dev nD) (w : Fin cfg20.W) : (dat20 V c).A w = V c (Pipeline.arrRef spec20 w) := by
  dsimp only [dat20]

theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = out20 (iblk20 V c 0 t) (iblk20 V c 1 t) := by dsimp only [dat20]

theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d

/-- What the body is handed at point `t`, window by window, -/
def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d)))

/-- and what it hands back. -/
def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t))

theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1]
  rw [show (dat20 V c).Φ t.succ = (dat20 V c).Φ t.castSucc from rfl,
    show (dat20 V c).owesAt () t.succ = (dat20 V c).owesAt () t.castSucc from rfl,
    after20_0, after20_1, after20_2]
  iintro ⟨HΦ, Ho, ⟨%d0, H0⟩, ⟨%d1, H1⟩, ⟨%d2, H2⟩⟩
  iapply (sound_kernel20 c Set.univ _ _ _ _ _ _ _ (iblk20 V c 0 t) (iblk20 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation20 (c : Dev nD) : BodyObligation (dat20 (F := F) V c) (defs₀ (F := F)) Variants.none () Set.univ := fun t => by
  rw [bigSep_W20, bigSep_W20]
  exact sound_body20 V c t

end Cert.Kernel.Reg

end
-- ==== Proof.K.Region21.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 21: two input windows, each block loaded whole; one output window, stored whole -/

/-- Window `w`'s block at grid point `t`, read off the array as the region finds it. -/
def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- Input window 0's staging buffer holds its block at every point, fetched there or kept from the point before. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)

/-- Input window 1's staging buffer likewise. -/
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

abbrev r21_0 : Rect S2048x256 := Rect.unit (s := S2048x256) ![0, 0] S2048x256.size inb_S2048x256_S2048x256_0_0
abbrev r21_1 : Rect S256x256 := Rect.unit (s := S256x256) ![0, 0] S256x256.size inb_S256x256_S256x256_0_0
abbrev r21_o : Rect S2048x256 := Rect.unit (s := S2048x256) ![0, 0] S2048x256.size inb_S2048x256_S2048x256_0_0

/-- The output block after the body: its one whole-block store, of the body's value at the two input blocks. -/
def out21 (x0 : Vec F S2048x256 .f32) (x1 : Vec F S256x256 .f32) : Vec F S2048x256 .f32 :=
  View.canon [⟨r21_o, k21_pay1 (View.ld x0 r21_0) (View.ld x1 r21_1)⟩]

/-- That one store covers the block. -/
theorem cover21 (p0 : Vec F S2048x256 .f32) (y : S2048x256.Idx) :
    ∃ pc ∈ ([⟨r21_o, p0⟩] : List (View.Piece (Elt F) S2048x256 .f32)), y ∈ pc.1.set :=
  View.cover_of_tiled [⟨r21_o, p0⟩] S2048x256.size (by rfl) y

set_option maxHeartbeats 1000000 in
/-- The body on whole staging buffers: both input buffers are read and left as found, and the output buffer,
    whatever it held, ends at the body's value. -/
theorem sound_kernel21 (c : Dev nD) (E : Set ℕ) (i : grid21.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out21 x0 x1)) -∗ K ⟨⟩))
      ⊢ wp frame (wpE (defs₀ (F := F)) Variants.none c none) E (cc21__proj_matmul_kernel i arg1 harg1 arg2 harg2 arg3 harg3) K := by
  simp only [cc21__proj_matmul_kernel_eq_skeleton]; unfold cc21__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover21 _)

/-- The proof data: the arrays as the region finds them; after the body each input buffer still at its block and the
    output buffer at the body's value there; nothing owed, full shares, the scoped rest untouched. -/
def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => out21 (iblk21 V c 0 t) (iblk21 V c 1 t)
  Φ _ := Pipeline.ΦA spec21 c
  q _ := fullShare
  owed _ := 0

theorem A_eq21 (c : Dev nD) (w : Fin cfg21.W) : (dat21 V c).A w = V c (Pipeline.arrRef spec21 w) := by
  dsimp only [dat21]

theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = out21 (iblk21 V c 0 t) (iblk21 V c 1 t) := by dsimp only [dat21]

theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d

/-- What the body is handed at point `t`, window by window, -/
def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d)))

/-- and what it hands back. -/
def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t))

theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1]
  rw [show (dat21 V c).Φ t.succ = (dat21 V c).Φ t.castSucc from rfl,
    show (dat21 V c).owesAt () t.succ = (dat21 V c).owesAt () t.castSucc from rfl,
    after21_0, after21_1, after21_2]
  iintro ⟨HΦ, Ho, ⟨%d0, H0⟩, ⟨%d1, H1⟩, ⟨%d2, H2⟩⟩
  iapply (sound_kernel21 c Set.univ _ _ _ _ _ _ _ (iblk21 V c 0 t) (iblk21 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation21 (c : Dev nD) : BodyObligation (dat21 (F := F) V c) (defs₀ (F := F)) Variants.none () Set.univ := fun t => by
  rw [bigSep_W21, bigSep_W21]
  exact sound_body21 V c t

end Cert.Kernel.Reg

end
-- ==== Proof.K.Region22.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 22: two input windows, each block loaded whole; one output window, stored whole -/

/-- Window `w`'s block at grid point `t`, read off the array as the region finds it. -/
def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- Input window 0's staging buffer holds its block at every point, fetched there or kept from the point before. -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)

/-- Input window 1's staging buffer likewise. -/
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)

abbrev r22_0 : Rect S2048x256 := Rect.unit (s := S2048x256) ![0, 0] S2048x256.size inb_S2048x256_S2048x256_0_0
abbrev r22_1 : Rect S256x256 := Rect.unit (s := S256x256) ![0, 0] S256x256.size inb_S256x256_S256x256_0_0
abbrev r22_o : Rect S2048x256 := Rect.unit (s := S2048x256) ![0, 0] S2048x256.size inb_S2048x256_S2048x256_0_0

/-- The output block after the body: its one whole-block store, of the body's value at the two input blocks. -/
def out22 (x0 : Vec F S2048x256 .f32) (x1 : Vec F S256x256 .f32) : Vec F S2048x256 .f32 :=
  View.canon [⟨r22_o, k22_pay1 (View.ld x0 r22_0) (View.ld x1 r22_1)⟩]

/-- That one store covers the block. -/
theorem cover22 (p0 : Vec F S2048x256 .f32) (y : S2048x256.Idx) :
    ∃ pc ∈ ([⟨r22_o, p0⟩] : List (View.Piece (Elt F) S2048x256 .f32)), y ∈ pc.1.set :=
  View.cover_of_tiled [⟨r22_o, p0⟩] S2048x256.size (by rfl) y

set_option maxHeartbeats 1000000 in
/-- The body on whole staging buffers: both input buffers are read and left as found, and the output buffer,
    whatever it held, ends at the body's value. -/
theorem sound_kernel22 (c : Dev nD) (E : Set ℕ) (i : grid22.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out22 x0 x1)) -∗ K ⟨⟩))
      ⊢ wp frame (wpE (defs₀ (F := F)) Variants.none c none) E (cc22__proj_matmul_kernel i arg1 harg1 arg2 harg2 arg3 harg3) K := by
  simp only [cc22__proj_matmul_kernel_eq_skeleton]; unfold cc22__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover22 _)

/-- The proof data: the arrays as the region finds them; after the body each input buffer still at its block and the
    output buffer at the body's value there; nothing owed, full shares, the scoped rest untouched. -/
def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => out22 (iblk22 V c 0 t) (iblk22 V c 1 t)
  Φ _ := Pipeline.ΦA spec22 c
  q _ := fullShare
  owed _ := 0

theorem A_eq22 (c : Dev nD) (w : Fin cfg22.W) : (dat22 V c).A w = V c (Pipeline.arrRef spec22 w) := by
  dsimp only [dat22]

theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = out22 (iblk22 V c 0 t) (iblk22 V c 1 t) := by dsimp only [dat22]

theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d

/-- What the body is handed at point `t`, window by window, -/
def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d)))

/-- and what it hands back. -/
def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t))

theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1]
  rw [show (dat22 V c).Φ t.succ = (dat22 V c).Φ t.castSucc from rfl,
    show (dat22 V c).owesAt () t.succ = (dat22 V c).owesAt () t.castSucc from rfl,
    after22_0, after22_1, after22_2]
  iintro ⟨HΦ, Ho, ⟨%d0, H0⟩, ⟨%d1, H1⟩, ⟨%d2, H2⟩⟩
  iapply (sound_kernel22 c Set.univ _ _ _ _ _ _ _ (iblk22 V c 0 t) (iblk22 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation22 (c : Dev nD) : BodyObligation (dat22 (F := F) V c) (defs₀ (F := F)) Variants.none () Set.univ := fun t => by
  rw [bigSep_W22, bigSep_W22]
  exact sound_body22 V c t

end Cert.Kernel.Reg

end
-- ==== Proof.K.Region23.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 23: two input windows, each block loaded whole; one output window, stored whole -/

/-- Window `w`'s block at grid point `t`, read off the array as the region finds it. -/
def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

/-- Input window 0's staging buffer holds its block at every point, fetched there or kept from the point before. -/
theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)

/-- Input window 1's staging buffer likewise. -/
theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)

abbrev r23_0 : Rect S2048x256 := Rect.unit (s := S2048x256) ![0, 0] S2048x256.size inb_S2048x256_S2048x256_0_0
abbrev r23_1 : Rect S256x256 := Rect.unit (s := S256x256) ![0, 0] S256x256.size inb_S256x256_S256x256_0_0
abbrev r23_o : Rect S2048x256 := Rect.unit (s := S2048x256) ![0, 0] S2048x256.size inb_S2048x256_S2048x256_0_0

/-- The output block after the body: its one whole-block store, of the body's value at the two input blocks. -/
def out23 (x0 : Vec F S2048x256 .f32) (x1 : Vec F S256x256 .f32) : Vec F S2048x256 .f32 :=
  View.canon [⟨r23_o, k23_pay1 (View.ld x0 r23_0) (View.ld x1 r23_1)⟩]

/-- That one store covers the block. -/
theorem cover23 (p0 : Vec F S2048x256 .f32) (y : S2048x256.Idx) :
    ∃ pc ∈ ([⟨r23_o, p0⟩] : List (View.Piece (Elt F) S2048x256 .f32)), y ∈ pc.1.set :=
  View.cover_of_tiled [⟨r23_o, p0⟩] S2048x256.size (by rfl) y

set_option maxHeartbeats 1000000 in
/-- The body on whole staging buffers: both input buffers are read and left as found, and the output buffer,
    whatever it held, ends at the body's value. -/
theorem sound_kernel23 (c : Dev nD) (E : Set ℕ) (i : grid23.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out23 x0 x1)) -∗ K ⟨⟩))
      ⊢ wp frame (wpE (defs₀ (F := F)) Variants.none c none) E (cc23__proj_matmul_kernel i arg1 harg1 arg2 harg2 arg3 harg3) K := by
  simp only [cc23__proj_matmul_kernel_eq_skeleton]; unfold cc23__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover23 _)

/-- The proof data: the arrays as the region finds them; after the body each input buffer still at its block and the
    output buffer at the body's value there; nothing owed, full shares, the scoped rest untouched. -/
def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => out23 (iblk23 V c 0 t) (iblk23 V c 1 t)
  Φ _ := Pipeline.ΦA spec23 c
  q _ := fullShare
  owed _ := 0

theorem A_eq23 (c : Dev nD) (w : Fin cfg23.W) : (dat23 V c).A w = V c (Pipeline.arrRef spec23 w) := by
  dsimp only [dat23]

theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = out23 (iblk23 V c 0 t) (iblk23 V c 1 t) := by dsimp only [dat23]

theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d

/-- What the body is handed at point `t`, window by window, -/
def bodyPre23 (c : Dev nD) (t : Fin cfg23.N) : sProp 𝕄 :=
  iprop((dat23 V c).Φ t.castSucc ∗ (dat23 V c).owesAt () t.castSucc
    ∗ (∃ d, owns (c : Thread nD τ) (st23_0 t) fullShare ((dat23 V c).before 0 t d))
    ∗ (∃ d, owns (c : Thread nD τ) (st23_1 t) fullShare ((dat23 V c).before 1 t d))
    ∗ (∃ d, owns (c : Thread nD τ) (st23_2 t) fullShare ((dat23 V c).before 2 t d)))

/-- and what it hands back. -/
def bodyPost23 (c : Dev nD) (t : Fin cfg23.N) : sProp 𝕄 :=
  iprop((dat23 V c).Φ t.succ ∗ (dat23 V c).owesAt () t.succ
    ∗ owns (c : Thread nD τ) (st23_0 t) fullShare ((dat23 V c).after 0 t)
    ∗ owns (c : Thread nD τ) (st23_1 t) fullShare ((dat23 V c).after 1 t)
    ∗ owns (c : Thread nD τ) (st23_2 t) fullShare ((dat23 V c).after 2 t))

theorem sound_body23 (c : Dev nD) (t : Fin cfg23.N) :
    bodyPre23 V c t ⊢ wp frame (wpE (defs₀ (F := F)) Variants.none c none) Set.univ (bodyAt23 t) (fun _ => bodyPost23 V c t) := by
  unfold bodyPre23 bodyPost23 bodyAt23
  simp only [before23_0, before23_1]
  rw [show (dat23 V c).Φ t.succ = (dat23 V c).Φ t.castSucc from rfl,
    show (dat23 V c).owesAt () t.succ = (dat23 V c).owesAt () t.castSucc from rfl,
    after23_0, after23_1, after23_2]
  iintro ⟨HΦ, Ho, ⟨%d0, H0⟩, ⟨%d1, H1⟩, ⟨%d2, H2⟩⟩
  iapply (sound_kernel23 c Set.univ _ _ _ _ _ _ _ (iblk23 V c 0 t) (iblk23 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation23 (c : Dev nD) : BodyObligation (dat23 (F := F) V c) (defs₀ (F := F)) Variants.none () Set.univ := fun t => by
  rw [bigSep_W23, bigSep_W23]
  exact sound_body23 V c t

end Cert.Kernel.Reg

end
-- ==== Proof.K.Region24.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 24: two input windows, each block loaded whole; one output window, stored whole -/

/-- Window `w`'s block at grid point `t`, read off the array as the region finds it. -/
def iblk24 (c : Dev nD) (w : Fin cfg24.W) (t : Fin cfg24.N) : ((cfg24.win w).xblock (cfg24.grid.coords t)).Idx → Elt F (cfg24.win w).elt :=
  ((cfg24.win w).blk t).view.read (Elt F) (V c (Pipeline.arrRef spec24 w))

/-- Input window 0's staging buffer holds its block at every point, fetched there or kept from the point before. -/
theorem before24_0_of {c : Dev nD} (dat : Dat τ (Elt F) Unit ℕ (UR sig nD τ) ℕ cfg24 c) (hA : dat.A 0 = V c (Pipeline.arrRef spec24 0))
    (hafter : ∀ t, dat.after 0 t = iblk24 V c 0 t) (t : Fin cfg24.N) (d) : dat.before 0 t d = iblk24 V c 0 t :=
  (dat.before_in_eq_fetched 0 rfl (fun _ => rfl) (fun _ _ _ => rfl) (fun t => by rw [hafter]; unfold Dat.blockOf iblk24; rw [hA]; try rfl) t d).trans
    (by unfold Dat.fetched Dat.blockOf iblk24; rw [hA]; try rfl)

/-- Input window 1's staging buffer likewise. -/
theorem before24_1_of {c : Dev nD} (dat : Dat τ (Elt F) Unit ℕ (UR sig nD τ) ℕ cfg24 c) (hA : dat.A 1 = V c (Pipeline.arrRef spec24 1))
    (hafter : ∀ t, dat.after 1 t = iblk24 V c 1 t) (t : Fin cfg24.N) (d) : dat.before 1 t d = iblk24 V c 1 t :=
  (dat.before_in_eq_fetched 1 rfl (fun _ => rfl) (fun _ _ _ => rfl) (fun t => by rw [hafter]; unfold Dat.blockOf iblk24; rw [hA]; try rfl) t d).trans
    (by unfold Dat.fetched Dat.blockOf iblk24; rw [hA]; try rfl)

abbrev r24_0 : Rect S2048x256 := Rect.unit (s := S2048x256) ![0, 0] S2048x256.size inb_S2048x256_S2048x256_0_0
abbrev r24_1 : Rect S256x256 := Rect.unit (s := S256x256) ![0, 0] S256x256.size inb_S256x256_S256x256_0_0
abbrev r24_o : Rect S2048x256 := Rect.unit (s := S2048x256) ![0, 0] S2048x256.size inb_S2048x256_S2048x256_0_0

/-- The output block after the body: its one whole-block store, of the body's value at the two input blocks. -/
def out24 (x0 : Vec F S2048x256 .f32) (x1 : Vec F S256x256 .f32) : Vec F S2048x256 .f32 :=
  View.canon [⟨r24_o, k24_pay1 (View.ld x0 r24_0) (View.ld x1 r24_1)⟩]

/-- That one store covers the block. -/
theorem cover24 (p0 : Vec F S2048x256 .f32) (y : S2048x256.Idx) :
    ∃ pc ∈ ([⟨r24_o, p0⟩] : List (View.Piece (Elt F) S2048x256 .f32)), y ∈ pc.1.set :=
  View.cover_of_tiled [⟨r24_o, p0⟩] S2048x256.size (by rfl) y

set_option maxHeartbeats 1000000 in
/-- The body on whole staging buffers: both input buffers are read and left as found, and the output buffer,
    whatever it held, ends at the body's value. -/
theorem sound_kernel24 (c : Dev nD) (E : Set ℕ) (i : grid24.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out24 x0 x1)) -∗ K ⟨⟩))
      ⊢ wp frame (wpE (defs₀ (F := F)) Variants.none c none) E (cc24__proj_matmul_kernel i arg1 harg1 arg2 harg2 arg3 harg3) K := by
  simp only [cc24__proj_matmul_kernel_eq_skeleton]; unfold cc24__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover24 _)

/-- The proof data: the arrays as the region finds them; after the body each input buffer still at its block and the
    output buffer at the body's value there; nothing owed, full shares, the scoped rest untouched. -/
def dat24 (c : Dev nD) : Dat τ (Elt F) Unit ℕ (UR sig nD τ) ℕ cfg24 c where
  A w := V c (Pipeline.arrRef spec24 w)
  after w t := match w with
    | ⟨0, _⟩ => iblk24 V c 0 t
    | ⟨1, _⟩ => iblk24 V c 1 t
    | ⟨2, _⟩ => out24 (iblk24 V c 0 t) (iblk24 V c 1 t)
  Φ _ := Pipeline.ΦA spec24 c
  q _ := fullShare
  owed _ := 0

theorem A_eq24 (c : Dev nD) (w : Fin cfg24.W) : (dat24 V c).A w = V c (Pipeline.arrRef spec24 w) := by
  dsimp only [dat24]

theorem after24_0 (c : Dev nD) (t : Fin cfg24.N) : (dat24 V c).after 0 t = iblk24 V c 0 t := by dsimp only [dat24]
theorem after24_1 (c : Dev nD) (t : Fin cfg24.N) : (dat24 V c).after 1 t = iblk24 V c 1 t := by dsimp only [dat24]
theorem after24_2 (c : Dev nD) (t : Fin cfg24.N) : (dat24 V c).after 2 t = out24 (iblk24 V c 0 t) (iblk24 V c 1 t) := by dsimp only [dat24]

theorem before24_0 (c : Dev nD) (t : Fin cfg24.N) (d) : (dat24 V c).before 0 t d = iblk24 V c 0 t :=
  before24_0_of V (dat24 V c) (A_eq24 V c 0) (after24_0 V c) t d
theorem before24_1 (c : Dev nD) (t : Fin cfg24.N) (d) : (dat24 V c).before 1 t d = iblk24 V c 1 t :=
  before24_1_of V (dat24 V c) (A_eq24 V c 1) (after24_1 V c) t d

/-- What the body is handed at point `t`, window by window, -/
def bodyPre24 (c : Dev nD) (t : Fin cfg24.N) : sProp 𝕄 :=
  iprop((dat24 V c).Φ t.castSucc ∗ (dat24 V c).owesAt () t.castSucc
    ∗ (∃ d, owns (c : Thread nD τ) (st24_0 t) fullShare ((dat24 V c).before 0 t d))
    ∗ (∃ d, owns (c : Thread nD τ) (st24_1 t) fullShare ((dat24 V c).before 1 t d))
    ∗ (∃ d, owns (c : Thread nD τ) (st24_2 t) fullShare ((dat24 V c).before 2 t d)))

/-- and what it hands back. -/
def bodyPost24 (c : Dev nD) (t : Fin cfg24.N) : sProp 𝕄 :=
  iprop((dat24 V c).Φ t.succ ∗ (dat24 V c).owesAt () t.succ
    ∗ owns (c : Thread nD τ) (st24_0 t) fullShare ((dat24 V c).after 0 t)
    ∗ owns (c : Thread nD τ) (st24_1 t) fullShare ((dat24 V c).after 1 t)
    ∗ owns (c : Thread nD τ) (st24_2 t) fullShare ((dat24 V c).after 2 t))

theorem sound_body24 (c : Dev nD) (t : Fin cfg24.N) :
    bodyPre24 V c t ⊢ wp frame (wpE (defs₀ (F := F)) Variants.none c none) Set.univ (bodyAt24 t) (fun _ => bodyPost24 V c t) := by
  unfold bodyPre24 bodyPost24 bodyAt24
  simp only [before24_0, before24_1]
  rw [show (dat24 V c).Φ t.succ = (dat24 V c).Φ t.castSucc from rfl,
    show (dat24 V c).owesAt () t.succ = (dat24 V c).owesAt () t.castSucc from rfl,
    after24_0, after24_1, after24_2]
  iintro ⟨HΦ, Ho, ⟨%d0, H0⟩, ⟨%d1, H1⟩, ⟨%d2, H2⟩⟩
  iapply (sound_kernel24 c Set.univ _ _ _ _ _ _ _ (iblk24 V c 0 t) (iblk24 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation24 (c : Dev nD) : BodyObligation (dat24 (F := F) V c) (defs₀ (F := F)) Variants.none () Set.univ := fun t => by
  rw [bigSep_W24, bigSep_W24]
  exact sound_body24 V c t

end Cert.Kernel.Reg

end
-- ==== Proof.K.Region25.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 25: two input windows, each block loaded whole; one output window, stored whole -/

/-- Window `w`'s block at grid point `t`, read off the array as the region finds it. -/
def iblk25 (c : Dev nD) (w : Fin cfg25.W) (t : Fin cfg25.N) : ((cfg25.win w).xblock (cfg25.grid.coords t)).Idx → Elt F (cfg25.win w).elt :=
  ((cfg25.win w).blk t).view.read (Elt F) (V c (Pipeline.arrRef spec25 w))

/-- Input window 0's staging buffer holds its block at every point, fetched there or kept from the point before. -/
theorem before25_0_of {c : Dev nD} (dat : Dat τ (Elt F) Unit ℕ (UR sig nD τ) ℕ cfg25 c) (hA : dat.A 0 = V c (Pipeline.arrRef spec25 0))
    (hafter : ∀ t, dat.after 0 t = iblk25 V c 0 t) (t : Fin cfg25.N) (d) : dat.before 0 t d = iblk25 V c 0 t :=
  (dat.before_in_eq_fetched 0 rfl (fun _ => rfl) (fun _ _ _ => rfl) (fun t => by rw [hafter]; unfold Dat.blockOf iblk25; rw [hA]; try rfl) t d).trans
    (by unfold Dat.fetched Dat.blockOf iblk25; rw [hA]; try rfl)

/-- Input window 1's staging buffer likewise. -/
theorem before25_1_of {c : Dev nD} (dat : Dat τ (Elt F) Unit ℕ (UR sig nD τ) ℕ cfg25 c) (hA : dat.A 1 = V c (Pipeline.arrRef spec25 1))
    (hafter : ∀ t, dat.after 1 t = iblk25 V c 1 t) (t : Fin cfg25.N) (d) : dat.before 1 t d = iblk25 V c 1 t :=
  (dat.before_in_eq_fetched 1 rfl (fun _ => rfl) (fun _ _ _ => rfl) (fun t => by rw [hafter]; unfold Dat.blockOf iblk25; rw [hA]; try rfl) t d).trans
    (by unfold Dat.fetched Dat.blockOf iblk25; rw [hA]; try rfl)

abbrev r25_0 : Rect S8x256x128 := Rect.unit (s := S8x256x128) ![0, 0, 0] S8x256x128.size inb_S8x256x128_S8x256x128_0_0_0
abbrev r25_1 : Rect S8x128x256 := Rect.unit (s := S8x128x256) ![0, 0, 0] S8x128x256.size inb_S8x128x256_S8x128x256_0_0_0
abbrev r25_o : Rect S8x256x256 := Rect.unit (s := S8x256x256) ![0, 0, 0] S8x256x256.size inb_S8x256x256_S8x256x256_0_0_0

/-- The output block after the body: its one whole-block store, of the body's value at the two input blocks. -/
def out25 (x0 : Vec F S8x256x128 .bf16) (x1 : Vec F S8x128x256 .f32) : Vec F S8x256x256 .f32 :=
  View.canon [⟨r25_o, k25_pay1 (View.ld x0 r25_0) (View.ld x1 r25_1)⟩]

/-- That one store covers the block. -/
theorem cover25 (p0 : Vec F S8x256x256 .f32) (y : S8x256x256.Idx) :
    ∃ pc ∈ ([⟨r25_o, p0⟩] : List (View.Piece (Elt F) S8x256x256 .f32)), y ∈ pc.1.set :=
  View.cover_of_tiled [⟨r25_o, p0⟩] S8x256x256.size (by rfl) y

set_option maxHeartbeats 1000000 in
/-- The body on whole staging buffers: both input buffers are read and left as found, and the output buffer,
    whatever it held, ends at the body's value. -/
theorem sound_kernel25 (c : Dev nD) (E : Set ℕ) (i : grid25.Coords)
    (arg1 : Memref sig .tc .vmem S8x256x128 .bf16) (harg1 : arg1.IsWhole) (arg2 : Memref sig .tc .vmem S8x128x256 .f32) (harg2 : arg2.IsWhole)
    (arg3 : Memref sig .tc .vmem S8x256x256 .f32) (harg3 : arg3.IsWhole)
    (x0 : Vec F S8x256x128 .bf16) (x1 : Vec F S8x128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out25 x0 x1)) -∗ K ⟨⟩))
      ⊢ wp frame (wpE (defs₀ (F := F)) Variants.none c none) E (cc25__boundary_reduce_kernel i arg1 harg1 arg2 harg2 arg3 harg3) K := by
  simp only [cc25__boundary_reduce_kernel_eq_skeleton]; unfold cc25__boundary_reduce_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover25 _)

/-- The proof data: the arrays as the region finds them; after the body each input buffer still at its block and the
    output buffer at the body's value there; nothing owed, full shares, the scoped rest untouched. -/
def dat25 (c : Dev nD) : Dat τ (Elt F) Unit ℕ (UR sig nD τ) ℕ cfg25 c where
  A w := V c (Pipeline.arrRef spec25 w)
  after w t := match w with
    | ⟨0, _⟩ => iblk25 V c 0 t
    | ⟨1, _⟩ => iblk25 V c 1 t
    | ⟨2, _⟩ => out25 (iblk25 V c 0 t) (iblk25 V c 1 t)
  Φ _ := Pipeline.ΦA spec25 c
  q _ := fullShare
  owed _ := 0

theorem A_eq25 (c : Dev nD) (w : Fin cfg25.W) : (dat25 V c).A w = V c (Pipeline.arrRef spec25 w) := by
  dsimp only [dat25]

theorem after25_0 (c : Dev nD) (t : Fin cfg25.N) : (dat25 V c).after 0 t = iblk25 V c 0 t := by dsimp only [dat25]
theorem after25_1 (c : Dev nD) (t : Fin cfg25.N) : (dat25 V c).after 1 t = iblk25 V c 1 t := by dsimp only [dat25]
theorem after25_2 (c : Dev nD) (t : Fin cfg25.N) : (dat25 V c).after 2 t = out25 (iblk25 V c 0 t) (iblk25 V c 1 t) := by dsimp only [dat25]

theorem before25_0 (c : Dev nD) (t : Fin cfg25.N) (d) : (dat25 V c).before 0 t d = iblk25 V c 0 t :=
  before25_0_of V (dat25 V c) (A_eq25 V c 0) (after25_0 V c) t d
theorem before25_1 (c : Dev nD) (t : Fin cfg25.N) (d) : (dat25 V c).before 1 t d = iblk25 V c 1 t :=
  before25_1_of V (dat25 V c) (A_eq25 V c 1) (after25_1 V c) t d

/-- What the body is handed at point `t`, window by window, -/
def bodyPre25 (c : Dev nD) (t : Fin cfg25.N) : sProp 𝕄 :=
  iprop((dat25 V c).Φ t.castSucc ∗ (dat25 V c).owesAt () t.castSucc
    ∗ (∃ d, owns (c : Thread nD τ) (st25_0 t) fullShare ((dat25 V c).before 0 t d))
    ∗ (∃ d, owns (c : Thread nD τ) (st25_1 t) fullShare ((dat25 V c).before 1 t d))
    ∗ (∃ d, owns (c : Thread nD τ) (st25_2 t) fullShare ((dat25 V c).before 2 t d)))

/-- and what it hands back. -/
def bodyPost25 (c : Dev nD) (t : Fin cfg25.N) : sProp 𝕄 :=
  iprop((dat25 V c).Φ t.succ ∗ (dat25 V c).owesAt () t.succ
    ∗ owns (c : Thread nD τ) (st25_0 t) fullShare ((dat25 V c).after 0 t)
    ∗ owns (c : Thread nD τ) (st25_1 t) fullShare ((dat25 V c).after 1 t)
    ∗ owns (c : Thread nD τ) (st25_2 t) fullShare ((dat25 V c).after 2 t))

theorem sound_body25 (c : Dev nD) (t : Fin cfg25.N) :
    bodyPre25 V c t ⊢ wp frame (wpE (defs₀ (F := F)) Variants.none c none) Set.univ (bodyAt25 t) (fun _ => bodyPost25 V c t) := by
  unfold bodyPre25 bodyPost25 bodyAt25
  simp only [before25_0, before25_1]
  rw [show (dat25 V c).Φ t.succ = (dat25 V c).Φ t.castSucc from rfl,
    show (dat25 V c).owesAt () t.succ = (dat25 V c).owesAt () t.castSucc from rfl,
    after25_0, after25_1, after25_2]
  iintro ⟨HΦ, Ho, ⟨%d0, H0⟩, ⟨%d1, H1⟩, ⟨%d2, H2⟩⟩
  iapply (sound_kernel25 c Set.univ _ _ _ _ _ _ _ (iblk25 V c 0 t) (iblk25 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation25 (c : Dev nD) : BodyObligation (dat25 (F := F) V c) (defs₀ (F := F)) Variants.none () Set.univ := fun t => by
  rw [bigSep_W25, bigSep_W25]
  exact sound_body25 V c t

end Cert.Kernel.Reg

end
-- ==== Proof.K.Region26.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 26: three input windows, each block loaded whole; one output window, stored whole -/

/-- Window `w`'s block at grid point `t`, read off the array as the region finds it. -/
def iblk26 (c : Dev nD) (w : Fin cfg26.W) (t : Fin cfg26.N) : ((cfg26.win w).xblock (cfg26.grid.coords t)).Idx → Elt F (cfg26.win w).elt :=
  ((cfg26.win w).blk t).view.read (Elt F) (V c (Pipeline.arrRef spec26 w))

/-- Input window 0's staging buffer holds its block at every point, fetched there or kept from the point before. -/
theorem before26_0_of {c : Dev nD} (dat : Dat τ (Elt F) Unit ℕ (UR sig nD τ) ℕ cfg26 c) (hA : dat.A 0 = V c (Pipeline.arrRef spec26 0))
    (hafter : ∀ t, dat.after 0 t = iblk26 V c 0 t) (t : Fin cfg26.N) (d) : dat.before 0 t d = iblk26 V c 0 t :=
  (dat.before_in_eq_fetched 0 rfl (fun _ => rfl) (fun _ _ _ => rfl) (fun t => by rw [hafter]; unfold Dat.blockOf iblk26; rw [hA]; try rfl) t d).trans
    (by unfold Dat.fetched Dat.blockOf iblk26; rw [hA]; try rfl)

/-- Input window 1's staging buffer likewise. -/
theorem before26_1_of {c : Dev nD} (dat : Dat τ (Elt F) Unit ℕ (UR sig nD τ) ℕ cfg26 c) (hA : dat.A 1 = V c (Pipeline.arrRef spec26 1))
    (hafter : ∀ t, dat.after 1 t = iblk26 V c 1 t) (t : Fin cfg26.N) (d) : dat.before 1 t d = iblk26 V c 1 t :=
  (dat.before_in_eq_fetched 1 rfl (fun _ => rfl) (fun _ _ _ => rfl) (fun t => by rw [hafter]; unfold Dat.blockOf iblk26; rw [hA]; try rfl) t d).trans
    (by unfold Dat.fetched Dat.blockOf iblk26; rw [hA]; try rfl)

/-- Input window 2's staging buffer likewise (fetched once, then kept). -/
theorem before26_2_of {c : Dev nD} (dat : Dat τ (Elt F) Unit ℕ (UR sig nD τ) ℕ cfg26 c) (hA : dat.A 2 = V c (Pipeline.arrRef spec26 2))
    (hafter : ∀ t, dat.after 2 t = iblk26 V c 2 t) (t : Fin cfg26.N) (d) : dat.before 2 t d = iblk26 V c 2 t :=
  (dat.before_in_eq_fetched 2 rfl (fun _ => rfl) (fun _ _ _ => rfl) (fun t => by rw [hafter]; unfold Dat.blockOf iblk26; rw [hA]; try rfl) t d).trans
    (by unfold Dat.fetched Dat.blockOf iblk26; rw [hA]; try rfl)

abbrev r26_0 : Rect S16x64x256 := Rect.unit (s := S16x64x256) ![0, 0, 0] S16x64x256.size inb_S16x64x256_S16x64x256_0_0_0
abbrev r26_1 : Rect S16x256x256 := Rect.unit (s := S16x256x256) ![0, 0, 0] S16x256x256.size inb_S16x256x256_S16x256x256_0_0_0
abbrev r26_2 : Rect S256x256 := Rect.unit (s := S256x256) ![0, 0] S256x256.size inb_S256x256_S256x256_0_0
abbrev r26_o : Rect S16x64x256 := Rect.unit (s := S16x64x256) ![0, 0, 0] S16x64x256.size inb_S16x64x256_S16x64x256_0_0_0

/-- The output block after the body: its one whole-block store, of the body's value at the three input blocks. -/
def out26 (x0 : Vec F S16x64x256 .bf16) (x1 : Vec F S16x256x256 .f32) (x2 : Vec F S256x256 .f32) : Vec F S16x64x256 .f32 :=
  View.canon [⟨r26_o, k26_pay1 (View.ld x0 r26_0) (View.ld x1 r26_1) (View.ld x2 r26_2)⟩]

/-- That one store covers the block. -/
theorem cover26 (p0 : Vec F S16x64x256 .f32) (y : S16x64x256.Idx) :
    ∃ pc ∈ ([⟨r26_o, p0⟩] : List (View.Piece (Elt F) S16x64x256 .f32)), y ∈ pc.1.set :=
  View.cover_of_tiled [⟨r26_o, p0⟩] S16x64x256.size (by rfl) y

set_option maxHeartbeats 1000000 in
/-- The body on whole staging buffers: the three input buffers are read and left as found, and the output buffer,
    whatever it held, ends at the body's value. -/
theorem sound_kernel26 (c : Dev nD) (E : Set ℕ) (i : grid26.Coords)
    (arg1 : Memref sig .tc .vmem S16x64x256 .bf16) (harg1 : arg1.IsWhole) (arg2 : Memref sig .tc .vmem S16x256x256 .f32) (harg2 : arg2.IsWhole)
    (arg3 : Memref sig .tc .vmem S256x256 .f32) (harg3 : arg3.IsWhole) (arg4 : Memref sig .tc .vmem S16x64x256 .f32) (harg4 : arg4.IsWhole)
    (x0 : Vec F S16x64x256 .bf16) (x1 : Vec F S16x256x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out26 x0 x1 x2)) -∗ K ⟨⟩))
      ⊢ wp frame (wpE (defs₀ (F := F)) Variants.none c none) E (cc26__boundary_kernel i arg1 harg1 arg2 harg2 arg3 harg3 arg4 harg4) K := by
  simp only [cc26__boundary_kernel_eq_skeleton]; unfold cc26__boundary_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover26 _)

/-- The proof data: the arrays as the region finds them; after the body each input buffer still at its block and the
    output buffer at the body's value there; nothing owed, full shares, the scoped rest untouched. -/
def dat26 (c : Dev nD) : Dat τ (Elt F) Unit ℕ (UR sig nD τ) ℕ cfg26 c where
  A w := V c (Pipeline.arrRef spec26 w)
  after w t := match w with
    | ⟨0, _⟩ => iblk26 V c 0 t
    | ⟨1, _⟩ => iblk26 V c 1 t
    | ⟨2, _⟩ => iblk26 V c 2 t
    | ⟨3, _⟩ => out26 (iblk26 V c 0 t) (iblk26 V c 1 t) (iblk26 V c 2 t)
  Φ _ := Pipeline.ΦA spec26 c
  q _ := fullShare
  owed _ := 0

theorem A_eq26 (c : Dev nD) (w : Fin cfg26.W) : (dat26 V c).A w = V c (Pipeline.arrRef spec26 w) := by
  dsimp only [dat26]

theorem after26_0 (c : Dev nD) (t : Fin cfg26.N) : (dat26 V c).after 0 t = iblk26 V c 0 t := by dsimp only [dat26]
theorem after26_1 (c : Dev nD) (t : Fin cfg26.N) : (dat26 V c).after 1 t = iblk26 V c 1 t := by dsimp only [dat26]
theorem after26_2 (c : Dev nD) (t : Fin cfg26.N) : (dat26 V c).after 2 t = iblk26 V c 2 t := by dsimp only [dat26]
theorem after26_3 (c : Dev nD) (t : Fin cfg26.N) :
    (dat26 V c).after 3 t = out26 (iblk26 V c 0 t) (iblk26 V c 1 t) (iblk26 V c 2 t) := by dsimp only [dat26]

theorem before26_0 (c : Dev nD) (t : Fin cfg26.N) (d) : (dat26 V c).before 0 t d = iblk26 V c 0 t :=
  before26_0_of V (dat26 V c) (A_eq26 V c 0) (after26_0 V c) t d
theorem before26_1 (c : Dev nD) (t : Fin cfg26.N) (d) : (dat26 V c).before 1 t d = iblk26 V c 1 t :=
  before26_1_of V (dat26 V c) (A_eq26 V c 1) (after26_1 V c) t d
theorem before26_2 (c : Dev nD) (t : Fin cfg26.N) (d) : (dat26 V c).before 2 t d = iblk26 V c 2 t :=
  before26_2_of V (dat26 V c) (A_eq26 V c 2) (after26_2 V c) t d

/-- What the body is handed at point `t`, window by window, -/
def bodyPre26 (c : Dev nD) (t : Fin cfg26.N) : sProp 𝕄 :=
  iprop((dat26 V c).Φ t.castSucc ∗ (dat26 V c).owesAt () t.castSucc
    ∗ (∃ d, owns (c : Thread nD τ) (st26_0 t) fullShare ((dat26 V c).before 0 t d))
    ∗ (∃ d, owns (c : Thread nD τ) (st26_1 t) fullShare ((dat26 V c).before 1 t d))
    ∗ (∃ d, owns (c : Thread nD τ) (st26_2 t) fullShare ((dat26 V c).before 2 t d))
    ∗ (∃ d, owns (c : Thread nD τ) (st26_3 t) fullShare ((dat26 V c).before 3 t d)))

/-- and what it hands back. -/
def bodyPost26 (c : Dev nD) (t : Fin cfg26.N) : sProp 𝕄 :=
  iprop((dat26 V c).Φ t.succ ∗ (dat26 V c).owesAt () t.succ
    ∗ owns (c : Thread nD τ) (st26_0 t) fullShare ((dat26 V c).after 0 t)
    ∗ owns (c : Thread nD τ) (st26_1 t) fullShare ((dat26 V c).after 1 t)
    ∗ owns (c : Thread nD τ) (st26_2 t) fullShare ((dat26 V c).after 2 t)
    ∗ owns (c : Thread nD τ) (st26_3 t) fullShare ((dat26 V c).after 3 t))

theorem sound_body26 (c : Dev nD) (t : Fin cfg26.N) :
    bodyPre26 V c t ⊢ wp frame (wpE (defs₀ (F := F)) Variants.none c none) Set.univ (bodyAt26 t) (fun _ => bodyPost26 V c t) := by
  unfold bodyPre26 bodyPost26 bodyAt26
  simp only [before26_0, before26_1, before26_2]
  rw [show (dat26 V c).Φ t.succ = (dat26 V c).Φ t.castSucc from rfl,
    show (dat26 V c).owesAt () t.succ = (dat26 V c).owesAt () t.castSucc from rfl,
    after26_0, after26_1, after26_2, after26_3]
  iintro ⟨HΦ, Ho, ⟨%d0, H0⟩, ⟨%d1, H1⟩, ⟨%d2, H2⟩, ⟨%d3, H3⟩⟩
  iapply (sound_kernel26 c Set.univ _ _ _ _ _ _ _ _ _ (iblk26 V c 0 t) (iblk26 V c 1 t) (iblk26 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation26 (c : Dev nD) : BodyObligation (dat26 (F := F) V c) (defs₀ (F := F)) Variants.none () Set.univ := fun t => by
  rw [bigSep_W26, bigSep_W26]
  exact sound_body26 V c t

end Cert.Kernel.Reg

end
-- ==== Proof.K.Region27.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 27: four input windows, each block loaded whole; one output window, stored whole -/

/-- Window `w`'s block at grid point `t`, read off the array as the region finds it. -/
def iblk27 (c : Dev nD) (w : Fin cfg27.W) (t : Fin cfg27.N) : ((cfg27.win w).xblock (cfg27.grid.coords t)).Idx → Elt F (cfg27.win w).elt :=
  ((cfg27.win w).blk t).view.read (Elt F) (V c (Pipeline.arrRef spec27 w))

/-- Input window 0's staging buffer holds its block at every point, fetched there or kept from the point before. -/
theorem before27_0_of {c : Dev nD} (dat : Dat τ (Elt F) Unit ℕ (UR sig nD τ) ℕ cfg27 c) (hA : dat.A 0 = V c (Pipeline.arrRef spec27 0))
    (hafter : ∀ t, dat.after 0 t = iblk27 V c 0 t) (t : Fin cfg27.N) (d) : dat.before 0 t d = iblk27 V c 0 t :=
  (dat.before_in_eq_fetched 0 rfl (fun _ => rfl) (fun _ _ _ => rfl) (fun t => by rw [hafter]; unfold Dat.blockOf iblk27; rw [hA]; try rfl) t d).trans
    (by unfold Dat.fetched Dat.blockOf iblk27; rw [hA]; try rfl)

/-- Input window 1's staging buffer likewise (the weights: fetched once, then kept). -/
theorem before27_1_of {c : Dev nD} (dat : Dat τ (Elt F) Unit ℕ (UR sig nD τ) ℕ cfg27 c) (hA : dat.A 1 = V c (Pipeline.arrRef spec27 1))
    (hafter : ∀ t, dat.after 1 t = iblk27 V c 1 t) (t : Fin cfg27.N) (d) : dat.before 1 t d = iblk27 V c 1 t :=
  (dat.before_in_eq_fetched 1 rfl (fun _ => rfl) (fun _ _ _ => rfl) (fun t => by rw [hafter]; unfold Dat.blockOf iblk27; rw [hA]; try rfl) t d).trans
    (by unfold Dat.fetched Dat.blockOf iblk27; rw [hA]; try rfl)

/-- Input window 2's staging buffer likewise (the bias row: fetched once, then kept). -/
theorem before27_2_of {c : Dev nD} (dat : Dat τ (Elt F) Unit ℕ (UR sig nD τ) ℕ cfg27 c) (hA : dat.A 2 = V c (Pipeline.arrRef spec27 2))
    (hafter : ∀ t, dat.after 2 t = iblk27 V c 2 t) (t : Fin cfg27.N) (d) : dat.before 2 t d = iblk27 V c 2 t :=
  (dat.before_in_eq_fetched 2 rfl (fun _ => rfl) (fun _ _ _ => rfl) (fun t => by rw [hafter]; unfold Dat.blockOf iblk27; rw [hA]; try rfl) t d).trans
    (by unfold Dat.fetched Dat.blockOf iblk27; rw [hA]; try rfl)

/-- Input window 3's staging buffer likewise (the added term's row block). -/
theorem before27_3_of {c : Dev nD} (dat : Dat τ (Elt F) Unit ℕ (UR sig nD τ) ℕ cfg27 c) (hA : dat.A 3 = V c (Pipeline.arrRef spec27 3))
    (hafter : ∀ t, dat.after 3 t = iblk27 V c 3 t) (t : Fin cfg27.N) (d) : dat.before 3 t d = iblk27 V c 3 t :=
  (dat.before_in_eq_fetched 3 rfl (fun _ => rfl) (fun _ _ _ => rfl) (fun t => by rw [hafter]; unfold Dat.blockOf iblk27; rw [hA]; try rfl) t d).trans
    (by unfold Dat.fetched Dat.blockOf iblk27; rw [hA]; try rfl)

abbrev r27_0 : Rect S2048x256 := Rect.unit (s := S2048x256) ![0, 0] S2048x256.size inb_S2048x256_S2048x256_0_0
abbrev r27_1 : Rect S256x256 := Rect.unit (s := S256x256) ![0, 0] S256x256.size inb_S256x256_S256x256_0_0
abbrev r27_2 : Rect S1x256 := Rect.unit (s := S1x256) ![0, 0] S1x256.size inb_S1x256_S1x256_0_0
abbrev r27_3 : Rect S2048x256 := Rect.unit (s := S2048x256) ![0, 0] S2048x256.size inb_S2048x256_S2048x256_0_0
abbrev r27_o : Rect S2048x256 := Rect.unit (s := S2048x256) ![0, 0] S2048x256.size inb_S2048x256_S2048x256_0_0

/-- The output block after the body: its one whole-block store, of the body's value at the four input blocks. -/
def out27 (x0 : Vec F S2048x256 .f32) (x1 : Vec F S256x256 .f32) (x2 : Vec F S1x256 .f32) (x3 : Vec F S2048x256 .f32) : Vec F S2048x256 .f32 :=
  View.canon [⟨r27_o, k27_pay1 (View.ld x0 r27_0) (View.ld x1 r27_1) (View.ld x2 r27_2) (View.ld x3 r27_3)⟩]

/-- That one store covers the block. -/
theorem cover27 (p0 : Vec F S2048x256 .f32) (y : S2048x256.Idx) :
    ∃ pc ∈ ([⟨r27_o, p0⟩] : List (View.Piece (Elt F) S2048x256 .f32)), y ∈ pc.1.set :=
  View.cover_of_tiled [⟨r27_o, p0⟩] S2048x256.size (by rfl) y

set_option maxHeartbeats 1000000 in
/-- The body on whole staging buffers: the four input buffers are read and left as found, and the output buffer,
    whatever it held, ends at the body's value. -/
theorem sound_kernel27 (c : Dev nD) (E : Set ℕ) (i : grid27.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole)
    (x0 : Vec F S2048x256 .f32) (x1 : Vec F S256x256 .f32) (x2 : Vec F S1x256 .f32) (x3 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out27 x0 x1 x2 x3)) -∗ K ⟨⟩))
      ⊢ wp frame (wpE (defs₀ (F := F)) Variants.none c none) E (cc27__self_update_kernel i arg1 harg1 arg2 harg2 arg3 harg3 arg4 harg4 arg5 harg5) K := by
  simp only [cc27__self_update_kernel_eq_skeleton]; unfold cc27__self_update_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover27 _)

/-- The proof data: the arrays as the region finds them; after the body each input buffer still at its block and the
    output buffer at the body's value there; nothing owed, full shares, the scoped rest untouched. -/
def dat27 (c : Dev nD) : Dat τ (Elt F) Unit ℕ (UR sig nD τ) ℕ cfg27 c where
  A w := V c (Pipeline.arrRef spec27 w)
  after w t := match w with
    | ⟨0, _⟩ => iblk27 V c 0 t
    | ⟨1, _⟩ => iblk27 V c 1 t
    | ⟨2, _⟩ => iblk27 V c 2 t
    | ⟨3, _⟩ => iblk27 V c 3 t
    | ⟨4, _⟩ => out27 (iblk27 V c 0 t) (iblk27 V c 1 t) (iblk27 V c 2 t) (iblk27 V c 3 t)
  Φ _ := Pipeline.ΦA spec27 c
  q _ := fullShare
  owed _ := 0

theorem A_eq27 (c : Dev nD) (w : Fin cfg27.W) : (dat27 V c).A w = V c (Pipeline.arrRef spec27 w) := by
  dsimp only [dat27]

theorem after27_0 (c : Dev nD) (t : Fin cfg27.N) : (dat27 V c).after 0 t = iblk27 V c 0 t := by dsimp only [dat27]
theorem after27_1 (c : Dev nD) (t : Fin cfg27.N) : (dat27 V c).after 1 t = iblk27 V c 1 t := by dsimp only [dat27]
theorem after27_2 (c : Dev nD) (t : Fin cfg27.N) : (dat27 V c).after 2 t = iblk27 V c 2 t := by dsimp only [dat27]
theorem after27_3 (c : Dev nD) (t : Fin cfg27.N) : (dat27 V c).after 3 t = iblk27 V c 3 t := by dsimp only [dat27]
theorem after27_4 (c : Dev nD) (t : Fin cfg27.N) :
    (dat27 V c).after 4 t = out27 (iblk27 V c 0 t) (iblk27 V c 1 t) (iblk27 V c 2 t) (iblk27 V c 3 t) := by dsimp only [dat27]

theorem before27_0 (c : Dev nD) (t : Fin cfg27.N) (d) : (dat27 V c).before 0 t d = iblk27 V c 0 t :=
  before27_0_of V (dat27 V c) (A_eq27 V c 0) (after27_0 V c) t d
theorem before27_1 (c : Dev nD) (t : Fin cfg27.N) (d) : (dat27 V c).before 1 t d = iblk27 V c 1 t :=
  before27_1_of V (dat27 V c) (A_eq27 V c 1) (after27_1 V c) t d
theorem before27_2 (c : Dev nD) (t : Fin cfg27.N) (d) : (dat27 V c).before 2 t d = iblk27 V c 2 t :=
  before27_2_of V (dat27 V c) (A_eq27 V c 2) (after27_2 V c) t d
theorem before27_3 (c : Dev nD) (t : Fin cfg27.N) (d) : (dat27 V c).before 3 t d = iblk27 V c 3 t :=
  before27_3_of V (dat27 V c) (A_eq27 V c 3) (after27_3 V c) t d

/-- What the body is handed at point `t`, window by window, -/
def bodyPre27 (c : Dev nD) (t : Fin cfg27.N) : sProp 𝕄 :=
  iprop((dat27 V c).Φ t.castSucc ∗ (dat27 V c).owesAt () t.castSucc
    ∗ (∃ d, owns (c : Thread nD τ) (st27_0 t) fullShare ((dat27 V c).before 0 t d))
    ∗ (∃ d, owns (c : Thread nD τ) (st27_1 t) fullShare ((dat27 V c).before 1 t d))
    ∗ (∃ d, owns (c : Thread nD τ) (st27_2 t) fullShare ((dat27 V c).before 2 t d))
    ∗ (∃ d, owns (c : Thread nD τ) (st27_3 t) fullShare ((dat27 V c).before 3 t d))
    ∗ (∃ d, owns (c : Thread nD τ) (st27_4 t) fullShare ((dat27 V c).before 4 t d)))

/-- and what it hands back. -/
def bodyPost27 (c : Dev nD) (t : Fin cfg27.N) : sProp 𝕄 :=
  iprop((dat27 V c).Φ t.succ ∗ (dat27 V c).owesAt () t.succ
    ∗ owns (c : Thread nD τ) (st27_0 t) fullShare ((dat27 V c).after 0 t)
    ∗ owns (c : Thread nD τ) (st27_1 t) fullShare ((dat27 V c).after 1 t)
    ∗ owns (c : Thread nD τ) (st27_2 t) fullShare ((dat27 V c).after 2 t)
    ∗ owns (c : Thread nD τ) (st27_3 t) fullShare ((dat27 V c).after 3 t)
    ∗ owns (c : Thread nD τ) (st27_4 t) fullShare ((dat27 V c).after 4 t))

theorem sound_body27 (c : Dev nD) (t : Fin cfg27.N) :
    bodyPre27 V c t ⊢ wp frame (wpE (defs₀ (F := F)) Variants.none c none) Set.univ (bodyAt27 t) (fun _ => bodyPost27 V c t) := by
  unfold bodyPre27 bodyPost27 bodyAt27
  simp only [before27_0, before27_1, before27_2, before27_3]
  rw [show (dat27 V c).Φ t.succ = (dat27 V c).Φ t.castSucc from rfl,
    show (dat27 V c).owesAt () t.succ = (dat27 V c).owesAt () t.castSucc from rfl,
    after27_0, after27_1, after27_2, after27_3, after27_4]
  iintro ⟨HΦ, Ho, ⟨%d0, H0⟩, ⟨%d1, H1⟩, ⟨%d2, H2⟩, ⟨%d3, H3⟩, ⟨%d4, H4⟩⟩
  iapply (sound_kernel27 c Set.univ _ _ _ _ _ _ _ _ _ _ _ (iblk27 V c 0 t) (iblk27 V c 1 t) (iblk27 V c 2 t) (iblk27 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation27 (c : Dev nD) : BodyObligation (dat27 (F := F) V c) (defs₀ (F := F)) Variants.none () Set.univ := fun t => by
  rw [bigSep_W27, bigSep_W27]
  exact sound_body27 V c t

end Cert.Kernel.Reg

end
-- ==== Proof.K.Region28.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 28: five input windows, each block loaded whole; one output window, stored whole -/

/-- Window `w`'s block at grid point `t`, read off the array as the region finds it. -/
def iblk28 (c : Dev nD) (w : Fin cfg28.W) (t : Fin cfg28.N) : ((cfg28.win w).xblock (cfg28.grid.coords t)).Idx → Elt F (cfg28.win w).elt :=
  ((cfg28.win w).blk t).view.read (Elt F) (V c (Pipeline.arrRef spec28 w))

/-- Input window 0's staging buffer holds its block at every point, fetched there or kept from the point before. -/
theorem before28_0_of {c : Dev nD} (dat : Dat τ (Elt F) Unit ℕ (UR sig nD τ) ℕ cfg28 c) (hA : dat.A 0 = V c (Pipeline.arrRef spec28 0))
    (hafter : ∀ t, dat.after 0 t = iblk28 V c 0 t) (t : Fin cfg28.N) (d) : dat.before 0 t d = iblk28 V c 0 t :=
  (dat.before_in_eq_fetched 0 rfl (fun _ => rfl) (fun _ _ _ => rfl) (fun t => by rw [hafter]; unfold Dat.blockOf iblk28; rw [hA]; try rfl) t d).trans
    (by unfold Dat.fetched Dat.blockOf iblk28; rw [hA]; try rfl)

/-- Input window 1's staging buffer likewise. -/
theorem before28_1_of {c : Dev nD} (dat : Dat τ (Elt F) Unit ℕ (UR sig nD τ) ℕ cfg28 c) (hA : dat.A 1 = V c (Pipeline.arrRef spec28 1))
    (hafter : ∀ t, dat.after 1 t = iblk28 V c 1 t) (t : Fin cfg28.N) (d) : dat.before 1 t d = iblk28 V c 1 t :=
  (dat.before_in_eq_fetched 1 rfl (fun _ => rfl) (fun _ _ _ => rfl) (fun t => by rw [hafter]; unfold Dat.blockOf iblk28; rw [hA]; try rfl) t d).trans
    (by unfold Dat.fetched Dat.blockOf iblk28; rw [hA]; try rfl)

/-- Input window 2's staging buffer likewise. -/
theorem before28_2_of {c : Dev nD} (dat : Dat τ (Elt F) Unit ℕ (UR sig nD τ) ℕ cfg28 c) (hA : dat.A 2 = V c (Pipeline.arrRef spec28 2))
    (hafter : ∀ t, dat.after 2 t = iblk28 V c 2 t) (t : Fin cfg28.N) (d) : dat.before 2 t d = iblk28 V c 2 t :=
  (dat.before_in_eq_fetched 2 rfl (fun _ => rfl) (fun _ _ _ => rfl) (fun t => by rw [hafter]; unfold Dat.blockOf iblk28; rw [hA]; try rfl) t d).trans
    (by unfold Dat.fetched Dat.blockOf iblk28; rw [hA]; try rfl)

/-- Input window 3's staging buffer likewise. -/
theorem before28_3_of {c : Dev nD} (dat : Dat τ (Elt F) Unit ℕ (UR sig nD τ) ℕ cfg28 c) (hA : dat.A 3 = V c (Pipeline.arrRef spec28 3))
    (hafter : ∀ t, dat.after 3 t = iblk28 V c 3 t) (t : Fin cfg28.N) (d) : dat.before 3 t d = iblk28 V c 3 t :=
  (dat.before_in_eq_fetched 3 rfl (fun _ => rfl) (fun _ _ _ => rfl) (fun t => by rw [hafter]; unfold Dat.blockOf iblk28; rw [hA]; try rfl) t d).trans
    (by unfold Dat.fetched Dat.blockOf iblk28; rw [hA]; try rfl)

/-- Input window 4's staging buffer likewise. -/
theorem before28_4_of {c : Dev nD} (dat : Dat τ (Elt F) Unit ℕ (UR sig nD τ) ℕ cfg28 c) (hA : dat.A 4 = V c (Pipeline.arrRef spec28 4))
    (hafter : ∀ t, dat.after 4 t = iblk28 V c 4 t) (t : Fin cfg28.N) (d) : dat.before 4 t d = iblk28 V c 4 t :=
  (dat.before_in_eq_fetched 4 rfl (fun _ => rfl) (fun _ _ _ => rfl) (fun t => by rw [hafter]; unfold Dat.blockOf iblk28; rw [hA]; try rfl) t d).trans
    (by unfold Dat.fetched Dat.blockOf iblk28; rw [hA]; try rfl)

abbrev r28_0 : Rect S2048x256 := Rect.unit (s := S2048x256) ![0, 0] S2048x256.size inb_S2048x256_S2048x256_0_0
abbrev r28_1 : Rect S256x256 := Rect.unit (s := S256x256) ![0, 0] S256x256.size inb_S256x256_S256x256_0_0
abbrev r28_2 : Rect S1x256 := Rect.unit (s := S1x256) ![0, 0] S1x256.size inb_S1x256_S1x256_0_0
abbrev r28_3 : Rect S2048x256 := Rect.unit (s := S2048x256) ![0, 0] S2048x256.size inb_S2048x256_S2048x256_0_0
abbrev r28_4 : Rect S2048x256 := Rect.unit (s := S2048x256) ![0, 0] S2048x256.size inb_S2048x256_S2048x256_0_0
abbrev r28_o : Rect S2048x256 := Rect.unit (s := S2048x256) ![0, 0] S2048x256.size inb_S2048x256_S2048x256_0_0

/-- The output block after the body: its one whole-block store, of the body's value at the five input blocks. -/
def out28 (x0 : Vec F S2048x256 .f32) (x1 : Vec F S256x256 .f32) (x2 : Vec F S1x256 .f32) (x3 : Vec F S2048x256 .f32) (x4 : Vec F S2048x256 .f32) : Vec F S2048x256 .f32 :=
  View.canon [⟨r28_o, k28_pay1 (View.ld x0 r28_0) (View.ld x1 r28_1) (View.ld x2 r28_2) (View.ld x3 r28_3) (View.ld x4 r28_4)⟩]

/-- That one store covers the block. -/
theorem cover28 (p0 : Vec F S2048x256 .f32) (y : S2048x256.Idx) :
    ∃ pc ∈ ([⟨r28_o, p0⟩] : List (View.Piece (Elt F) S2048x256 .f32)), y ∈ pc.1.set :=
  View.cover_of_tiled [⟨r28_o, p0⟩] S2048x256.size (by rfl) y

set_option maxHeartbeats 1000000 in
/-- The body on whole staging buffers: the five input buffers are read and left as found, and the output buffer,
    whatever it held, ends at the body's value. -/
theorem sound_kernel28 (c : Dev nD) (E : Set ℕ) (i : grid28.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole) (arg6 : Memref sig .tc .vmem S2048x256 .f32) (harg6 : arg6.IsWhole)
    (x0 : Vec F S2048x256 .f32) (x1 : Vec F S256x256 .f32) (x2 : Vec F S1x256 .f32) (x3 : Vec F S2048x256 .f32) (x4 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out28 x0 x1 x2 x3 x4)) -∗ K ⟨⟩))
      ⊢ wp frame (wpE (defs₀ (F := F)) Variants.none c none) E (cc28__self_update2_kernel i arg1 harg1 arg2 harg2 arg3 harg3 arg4 harg4 arg5 harg5 arg6 harg6) K := by
  simp only [cc28__self_update2_kernel_eq_skeleton]; unfold cc28__self_update2_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover28 _)

/-- The proof data: the arrays as the region finds them; after the body each input buffer still at its block and the
    output buffer at the body's value there; nothing owed, full shares, the scoped rest untouched. -/
def dat28 (c : Dev nD) : Dat τ (Elt F) Unit ℕ (UR sig nD τ) ℕ cfg28 c where
  A w := V c (Pipeline.arrRef spec28 w)
  after w t := match w with
    | ⟨0, _⟩ => iblk28 V c 0 t
    | ⟨1, _⟩ => iblk28 V c 1 t
    | ⟨2, _⟩ => iblk28 V c 2 t
    | ⟨3, _⟩ => iblk28 V c 3 t
    | ⟨4, _⟩ => iblk28 V c 4 t
    | ⟨5, _⟩ => out28 (iblk28 V c 0 t) (iblk28 V c 1 t) (iblk28 V c 2 t) (iblk28 V c 3 t) (iblk28 V c 4 t)
  Φ _ := Pipeline.ΦA spec28 c
  q _ := fullShare
  owed _ := 0

theorem A_eq28 (c : Dev nD) (w : Fin cfg28.W) : (dat28 V c).A w = V c (Pipeline.arrRef spec28 w) := by
  dsimp only [dat28]

theorem after28_0 (c : Dev nD) (t : Fin cfg28.N) : (dat28 V c).after 0 t = iblk28 V c 0 t := by dsimp only [dat28]
theorem after28_1 (c : Dev nD) (t : Fin cfg28.N) : (dat28 V c).after 1 t = iblk28 V c 1 t := by dsimp only [dat28]
theorem after28_2 (c : Dev nD) (t : Fin cfg28.N) : (dat28 V c).after 2 t = iblk28 V c 2 t := by dsimp only [dat28]
theorem after28_3 (c : Dev nD) (t : Fin cfg28.N) : (dat28 V c).after 3 t = iblk28 V c 3 t := by dsimp only [dat28]
theorem after28_4 (c : Dev nD) (t : Fin cfg28.N) : (dat28 V c).after 4 t = iblk28 V c 4 t := by dsimp only [dat28]
theorem after28_5 (c : Dev nD) (t : Fin cfg28.N) :
    (dat28 V c).after 5 t = out28 (iblk28 V c 0 t) (iblk28 V c 1 t) (iblk28 V c 2 t) (iblk28 V c 3 t) (iblk28 V c 4 t) := by dsimp only [dat28]

theorem before28_0 (c : Dev nD) (t : Fin cfg28.N) (d) : (dat28 V c).before 0 t d = iblk28 V c 0 t :=
  before28_0_of V (dat28 V c) (A_eq28 V c 0) (after28_0 V c) t d
theorem before28_1 (c : Dev nD) (t : Fin cfg28.N) (d) : (dat28 V c).before 1 t d = iblk28 V c 1 t :=
  before28_1_of V (dat28 V c) (A_eq28 V c 1) (after28_1 V c) t d
theorem before28_2 (c : Dev nD) (t : Fin cfg28.N) (d) : (dat28 V c).before 2 t d = iblk28 V c 2 t :=
  before28_2_of V (dat28 V c) (A_eq28 V c 2) (after28_2 V c) t d
theorem before28_3 (c : Dev nD) (t : Fin cfg28.N) (d) : (dat28 V c).before 3 t d = iblk28 V c 3 t :=
  before28_3_of V (dat28 V c) (A_eq28 V c 3) (after28_3 V c) t d
theorem before28_4 (c : Dev nD) (t : Fin cfg28.N) (d) : (dat28 V c).before 4 t d = iblk28 V c 4 t :=
  before28_4_of V (dat28 V c) (A_eq28 V c 4) (after28_4 V c) t d

/-- What the body is handed at point `t`, window by window, -/
def bodyPre28 (c : Dev nD) (t : Fin cfg28.N) : sProp 𝕄 :=
  iprop((dat28 V c).Φ t.castSucc ∗ (dat28 V c).owesAt () t.castSucc
    ∗ (∃ d, owns (c : Thread nD τ) (st28_0 t) fullShare ((dat28 V c).before 0 t d))
    ∗ (∃ d, owns (c : Thread nD τ) (st28_1 t) fullShare ((dat28 V c).before 1 t d))
    ∗ (∃ d, owns (c : Thread nD τ) (st28_2 t) fullShare ((dat28 V c).before 2 t d))
    ∗ (∃ d, owns (c : Thread nD τ) (st28_3 t) fullShare ((dat28 V c).before 3 t d))
    ∗ (∃ d, owns (c : Thread nD τ) (st28_4 t) fullShare ((dat28 V c).before 4 t d))
    ∗ (∃ d, owns (c : Thread nD τ) (st28_5 t) fullShare ((dat28 V c).before 5 t d)))

/-- and what it hands back. -/
def bodyPost28 (c : Dev nD) (t : Fin cfg28.N) : sProp 𝕄 :=
  iprop((dat28 V c).Φ t.succ ∗ (dat28 V c).owesAt () t.succ
    ∗ owns (c : Thread nD τ) (st28_0 t) fullShare ((dat28 V c).after 0 t)
    ∗ owns (c : Thread nD τ) (st28_1 t) fullShare ((dat28 V c).after 1 t)
    ∗ owns (c : Thread nD τ) (st28_2 t) fullShare ((dat28 V c).after 2 t)
    ∗ owns (c : Thread nD τ) (st28_3 t) fullShare ((dat28 V c).after 3 t)
    ∗ owns (c : Thread nD τ) (st28_4 t) fullShare ((dat28 V c).after 4 t)
    ∗ owns (c : Thread nD τ) (st28_5 t) fullShare ((dat28 V c).after 5 t))

theorem sound_body28 (c : Dev nD) (t : Fin cfg28.N) :
    bodyPre28 V c t ⊢ wp frame (wpE (defs₀ (F := F)) Variants.none c none) Set.univ (bodyAt28 t) (fun _ => bodyPost28 V c t) := by
  unfold bodyPre28 bodyPost28 bodyAt28
  simp only [before28_0, before28_1, before28_2, before28_3, before28_4]
  rw [show (dat28 V c).Φ t.succ = (dat28 V c).Φ t.castSucc from rfl,
    show (dat28 V c).owesAt () t.succ = (dat28 V c).owesAt () t.castSucc from rfl,
    after28_0, after28_1, after28_2, after28_3, after28_4, after28_5]
  iintro ⟨HΦ, Ho, ⟨%d0, H0⟩, ⟨%d1, H1⟩, ⟨%d2, H2⟩, ⟨%d3, H3⟩, ⟨%d4, H4⟩, ⟨%d5, H5⟩⟩
  iapply (sound_kernel28 c Set.univ _ _ _ _ _ _ _ _ _ _ _ _ _ (iblk28 V c 0 t) (iblk28 V c 1 t) (iblk28 V c 2 t) (iblk28 V c 3 t) (iblk28 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation28 (c : Dev nD) : BodyObligation (dat28 (F := F) V c) (defs₀ (F := F)) Variants.none () Set.univ := fun t => by
  rw [bigSep_W28, bigSep_W28]
  exact sound_body28 V c t

end Cert.Kernel.Reg

end
-- ==== Proof.K.Region29.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 29: four input windows, each block loaded whole; one output window, stored whole -/

/-- Window `w`'s block at grid point `t`, read off the array as the region finds it. -/
def iblk29 (c : Dev nD) (w : Fin cfg29.W) (t : Fin cfg29.N) : ((cfg29.win w).xblock (cfg29.grid.coords t)).Idx → Elt F (cfg29.win w).elt :=
  ((cfg29.win w).blk t).view.read (Elt F) (V c (Pipeline.arrRef spec29 w))

/-- Input window 0's staging buffer holds its block at every point, fetched there or kept from the point before. -/
theorem before29_0_of {c : Dev nD} (dat : Dat τ (Elt F) Unit ℕ (UR sig nD τ) ℕ cfg29 c) (hA : dat.A 0 = V c (Pipeline.arrRef spec29 0))
    (hafter : ∀ t, dat.after 0 t = iblk29 V c 0 t) (t : Fin cfg29.N) (d) : dat.before 0 t d = iblk29 V c 0 t :=
  (dat.before_in_eq_fetched 0 rfl (fun _ => rfl) (fun _ _ _ => rfl) (fun t => by rw [hafter]; unfold Dat.blockOf iblk29; rw [hA]; try rfl) t d).trans
    (by unfold Dat.fetched Dat.blockOf iblk29; rw [hA]; try rfl)

/-- Input window 1's staging buffer likewise (the weights: fetched once, then kept). -/
theorem before29_1_of {c : Dev nD} (dat : Dat τ (Elt F) Unit ℕ (UR sig nD τ) ℕ cfg29 c) (hA : dat.A 1 = V c (Pipeline.arrRef spec29 1))
    (hafter : ∀ t, dat.after 1 t = iblk29 V c 1 t) (t : Fin cfg29.N) (d) : dat.before 1 t d = iblk29 V c 1 t :=
  (dat.before_in_eq_fetched 1 rfl (fun _ => rfl) (fun _ _ _ => rfl) (fun t => by rw [hafter]; unfold Dat.blockOf iblk29; rw [hA]; try rfl) t d).trans
    (by unfold Dat.fetched Dat.blockOf iblk29; rw [hA]; try rfl)

/-- Input window 2's staging buffer likewise (the bias row: fetched once, then kept). -/
theorem before29_2_of {c : Dev nD} (dat : Dat τ (Elt F) Unit ℕ (UR sig nD τ) ℕ cfg29 c) (hA : dat.A 2 = V c (Pipeline.arrRef spec29 2))
    (hafter : ∀ t, dat.after 2 t = iblk29 V c 2 t) (t : Fin cfg29.N) (d) : dat.before 2 t d = iblk29 V c 2 t :=
  (dat.before_in_eq_fetched 2 rfl (fun _ => rfl) (fun _ _ _ => rfl) (fun t => by rw [hafter]; unfold Dat.blockOf iblk29; rw [hA]; try rfl) t d).trans
    (by unfold Dat.fetched Dat.blockOf iblk29; rw [hA]; try rfl)

/-- Input window 3's staging buffer likewise (the added term's row block). -/
theorem before29_3_of {c : Dev nD} (dat : Dat τ (Elt F) Unit ℕ (UR sig nD τ) ℕ cfg29 c) (hA : dat.A 3 = V c (Pipeline.arrRef spec29 3))
    (hafter : ∀ t, dat.after 3 t = iblk29 V c 3 t) (t : Fin cfg29.N) (d) : dat.before 3 t d = iblk29 V c 3 t :=
  (dat.before_in_eq_fetched 3 rfl (fun _ => rfl) (fun _ _ _ => rfl) (fun t => by rw [hafter]; unfold Dat.blockOf iblk29; rw [hA]; try rfl) t d).trans
    (by unfold Dat.fetched Dat.blockOf iblk29; rw [hA]; try rfl)

abbrev r29_0 : Rect S2048x256 := Rect.unit (s := S2048x256) ![0, 0] S2048x256.size inb_S2048x256_S2048x256_0_0
abbrev r29_1 : Rect S256x256 := Rect.unit (s := S256x256) ![0, 0] S256x256.size inb_S256x256_S256x256_0_0
abbrev r29_2 : Rect S1x256 := Rect.unit (s := S1x256) ![0, 0] S1x256.size inb_S1x256_S1x256_0_0
abbrev r29_3 : Rect S2048x256 := Rect.unit (s := S2048x256) ![0, 0] S2048x256.size inb_S2048x256_S2048x256_0_0
abbrev r29_o : Rect S2048x256 := Rect.unit (s := S2048x256) ![0, 0] S2048x256.size inb_S2048x256_S2048x256_0_0

/-- The output block after the body: its one whole-block store, of the body's value at the four input blocks. -/
def out29 (x0 : Vec F S2048x256 .f32) (x1 : Vec F S256x256 .f32) (x2 : Vec F S1x256 .f32) (x3 : Vec F S2048x256 .f32) : Vec F S2048x256 .f32 :=
  View.canon [⟨r29_o, k29_pay1 (View.ld x0 r29_0) (View.ld x1 r29_1) (View.ld x2 r29_2) (View.ld x3 r29_3)⟩]

/-- That one store covers the block. -/
theorem cover29 (p0 : Vec F S2048x256 .f32) (y : S2048x256.Idx) :
    ∃ pc ∈ ([⟨r29_o, p0⟩] : List (View.Piece (Elt F) S2048x256 .f32)), y ∈ pc.1.set :=
  View.cover_of_tiled [⟨r29_o, p0⟩] S2048x256.size (by rfl) y

set_option maxHeartbeats 1000000 in
/-- The body on whole staging buffers: the four input buffers are read and left as found, and the output buffer,
    whatever it held, ends at the body's value. -/
theorem sound_kernel29 (c : Dev nD) (E : Set ℕ) (i : grid29.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole)
    (x0 : Vec F S2048x256 .f32) (x1 : Vec F S256x256 .f32) (x2 : Vec F S1x256 .f32) (x3 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out29 x0 x1 x2 x3)) -∗ K ⟨⟩))
      ⊢ wp frame (wpE (defs₀ (F := F)) Variants.none c none) E (cc29__self_update_kernel i arg1 harg1 arg2 harg2 arg3 harg3 arg4 harg4 arg5 harg5) K := by
  simp only [cc29__self_update_kernel_eq_skeleton]; unfold cc29__self_update_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover29 _)

/-- The proof data: the arrays as the region finds them; after the body each input buffer still at its block and the
    output buffer at the body's value there; nothing owed, full shares, the scoped rest untouched. -/
def dat29 (c : Dev nD) : Dat τ (Elt F) Unit ℕ (UR sig nD τ) ℕ cfg29 c where
  A w := V c (Pipeline.arrRef spec29 w)
  after w t := match w with
    | ⟨0, _⟩ => iblk29 V c 0 t
    | ⟨1, _⟩ => iblk29 V c 1 t
    | ⟨2, _⟩ => iblk29 V c 2 t
    | ⟨3, _⟩ => iblk29 V c 3 t
    | ⟨4, _⟩ => out29 (iblk29 V c 0 t) (iblk29 V c 1 t) (iblk29 V c 2 t) (iblk29 V c 3 t)
  Φ _ := Pipeline.ΦA spec29 c
  q _ := fullShare
  owed _ := 0

theorem A_eq29 (c : Dev nD) (w : Fin cfg29.W) : (dat29 V c).A w = V c (Pipeline.arrRef spec29 w) := by
  dsimp only [dat29]

theorem after29_0 (c : Dev nD) (t : Fin cfg29.N) : (dat29 V c).after 0 t = iblk29 V c 0 t := by dsimp only [dat29]
theorem after29_1 (c : Dev nD) (t : Fin cfg29.N) : (dat29 V c).after 1 t = iblk29 V c 1 t := by dsimp only [dat29]
theorem after29_2 (c : Dev nD) (t : Fin cfg29.N) : (dat29 V c).after 2 t = iblk29 V c 2 t := by dsimp only [dat29]
theorem after29_3 (c : Dev nD) (t : Fin cfg29.N) : (dat29 V c).after 3 t = iblk29 V c 3 t := by dsimp only [dat29]
theorem after29_4 (c : Dev nD) (t : Fin cfg29.N) :
    (dat29 V c).after 4 t = out29 (iblk29 V c 0 t) (iblk29 V c 1 t) (iblk29 V c 2 t) (iblk29 V c 3 t) := by dsimp only [dat29]

theorem before29_0 (c : Dev nD) (t : Fin cfg29.N) (d) : (dat29 V c).before 0 t d = iblk29 V c 0 t :=
  before29_0_of V (dat29 V c) (A_eq29 V c 0) (after29_0 V c) t d
theorem before29_1 (c : Dev nD) (t : Fin cfg29.N) (d) : (dat29 V c).before 1 t d = iblk29 V c 1 t :=
  before29_1_of V (dat29 V c) (A_eq29 V c 1) (after29_1 V c) t d
theorem before29_2 (c : Dev nD) (t : Fin cfg29.N) (d) : (dat29 V c).before 2 t d = iblk29 V c 2 t :=
  before29_2_of V (dat29 V c) (A_eq29 V c 2) (after29_2 V c) t d
theorem before29_3 (c : Dev nD) (t : Fin cfg29.N) (d) : (dat29 V c).before 3 t d = iblk29 V c 3 t :=
  before29_3_of V (dat29 V c) (A_eq29 V c 3) (after29_3 V c) t d

/-- What the body is handed at point `t`, window by window, -/
def bodyPre29 (c : Dev nD) (t : Fin cfg29.N) : sProp 𝕄 :=
  iprop((dat29 V c).Φ t.castSucc ∗ (dat29 V c).owesAt () t.castSucc
    ∗ (∃ d, owns (c : Thread nD τ) (st29_0 t) fullShare ((dat29 V c).before 0 t d))
    ∗ (∃ d, owns (c : Thread nD τ) (st29_1 t) fullShare ((dat29 V c).before 1 t d))
    ∗ (∃ d, owns (c : Thread nD τ) (st29_2 t) fullShare ((dat29 V c).before 2 t d))
    ∗ (∃ d, owns (c : Thread nD τ) (st29_3 t) fullShare ((dat29 V c).before 3 t d))
    ∗ (∃ d, owns (c : Thread nD τ) (st29_4 t) fullShare ((dat29 V c).before 4 t d)))

/-- and what it hands back. -/
def bodyPost29 (c : Dev nD) (t : Fin cfg29.N) : sProp 𝕄 :=
  iprop((dat29 V c).Φ t.succ ∗ (dat29 V c).owesAt () t.succ
    ∗ owns (c : Thread nD τ) (st29_0 t) fullShare ((dat29 V c).after 0 t)
    ∗ owns (c : Thread nD τ) (st29_1 t) fullShare ((dat29 V c).after 1 t)
    ∗ owns (c : Thread nD τ) (st29_2 t) fullShare ((dat29 V c).after 2 t)
    ∗ owns (c : Thread nD τ) (st29_3 t) fullShare ((dat29 V c).after 3 t)
    ∗ owns (c : Thread nD τ) (st29_4 t) fullShare ((dat29 V c).after 4 t))

theorem sound_body29 (c : Dev nD) (t : Fin cfg29.N) :
    bodyPre29 V c t ⊢ wp frame (wpE (defs₀ (F := F)) Variants.none c none) Set.univ (bodyAt29 t) (fun _ => bodyPost29 V c t) := by
  unfold bodyPre29 bodyPost29 bodyAt29
  simp only [before29_0, before29_1, before29_2, before29_3]
  rw [show (dat29 V c).Φ t.succ = (dat29 V c).Φ t.castSucc from rfl,
    show (dat29 V c).owesAt () t.succ = (dat29 V c).owesAt () t.castSucc from rfl,
    after29_0, after29_1, after29_2, after29_3, after29_4]
  iintro ⟨HΦ, Ho, ⟨%d0, H0⟩, ⟨%d1, H1⟩, ⟨%d2, H2⟩, ⟨%d3, H3⟩, ⟨%d4, H4⟩⟩
  iapply (sound_kernel29 c Set.univ _ _ _ _ _ _ _ _ _ _ _ (iblk29 V c 0 t) (iblk29 V c 1 t) (iblk29 V c 2 t) (iblk29 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation29 (c : Dev nD) : BodyObligation (dat29 (F := F) V c) (defs₀ (F := F)) Variants.none () Set.univ := fun t => by
  rw [bigSep_W29, bigSep_W29]
  exact sound_body29 V c t

end Cert.Kernel.Reg

end
-- ==== Proof.K.Region30.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 30: two input windows, each block loaded whole; one output window, stored whole -/

/-- Window `w`'s block at grid point `t`, read off the array as the region finds it. -/
def iblk30 (c : Dev nD) (w : Fin cfg30.W) (t : Fin cfg30.N) : ((cfg30.win w).xblock (cfg30.grid.coords t)).Idx → Elt F (cfg30.win w).elt :=
  ((cfg30.win w).blk t).view.read (Elt F) (V c (Pipeline.arrRef spec30 w))

/-- Input window 0's staging buffer holds its block at every point, fetched there or kept from the point before. -/
theorem before30_0_of {c : Dev nD} (dat : Dat τ (Elt F) Unit ℕ (UR sig nD τ) ℕ cfg30 c) (hA : dat.A 0 = V c (Pipeline.arrRef spec30 0))
    (hafter : ∀ t, dat.after 0 t = iblk30 V c 0 t) (t : Fin cfg30.N) (d) : dat.before 0 t d = iblk30 V c 0 t :=
  (dat.before_in_eq_fetched 0 rfl (fun _ => rfl) (fun _ _ _ => rfl) (fun t => by rw [hafter]; unfold Dat.blockOf iblk30; rw [hA]; try rfl) t d).trans
    (by unfold Dat.fetched Dat.blockOf iblk30; rw [hA]; try rfl)

/-- Input window 1's staging buffer likewise. -/
theorem before30_1_of {c : Dev nD} (dat : Dat τ (Elt F) Unit ℕ (UR sig nD τ) ℕ cfg30 c) (hA : dat.A 1 = V c (Pipeline.arrRef spec30 1))
    (hafter : ∀ t, dat.after 1 t = iblk30 V c 1 t) (t : Fin cfg30.N) (d) : dat.before 1 t d = iblk30 V c 1 t :=
  (dat.before_in_eq_fetched 1 rfl (fun _ => rfl) (fun _ _ _ => rfl) (fun t => by rw [hafter]; unfold Dat.blockOf iblk30; rw [hA]; try rfl) t d).trans
    (by unfold Dat.fetched Dat.blockOf iblk30; rw [hA]; try rfl)

abbrev r30_0 : Rect S2048x256 := Rect.unit (s := S2048x256) ![0, 0] S2048x256.size inb_S2048x256_S2048x256_0_0
abbrev r30_1 : Rect S256x256 := Rect.unit (s := S256x256) ![0, 0] S256x256.size inb_S256x256_S256x256_0_0
abbrev r30_o : Rect S2048x256 := Rect.unit (s := S2048x256) ![0, 0] S2048x256.size inb_S2048x256_S2048x256_0_0

/-- The output block after the body: its one whole-block store, of the body's value at the two input blocks. -/
def out30 (x0 : Vec F S2048x256 .f32) (x1 : Vec F S256x256 .f32) : Vec F S2048x256 .f32 :=
  View.canon [⟨r30_o, k30_pay1 (View.ld x0 r30_0) (View.ld x1 r30_1)⟩]

/-- That one store covers the block. -/
theorem cover30 (p0 : Vec F S2048x256 .f32) (y : S2048x256.Idx) :
    ∃ pc ∈ ([⟨r30_o, p0⟩] : List (View.Piece (Elt F) S2048x256 .f32)), y ∈ pc.1.set :=
  View.cover_of_tiled [⟨r30_o, p0⟩] S2048x256.size (by rfl) y

set_option maxHeartbeats 1000000 in
/-- The body on whole staging buffers: both input buffers are read and left as found, and the output buffer,
    whatever it held, ends at the body's value. -/
theorem sound_kernel30 (c : Dev nD) (E : Set ℕ) (i : grid30.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out30 x0 x1)) -∗ K ⟨⟩))
      ⊢ wp frame (wpE (defs₀ (F := F)) Variants.none c none) E (cc30__proj_matmul_kernel i arg1 harg1 arg2 harg2 arg3 harg3) K := by
  simp only [cc30__proj_matmul_kernel_eq_skeleton]; unfold cc30__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover30 _)

/-- The proof data: the arrays as the region finds them; after the body each input buffer still at its block and the
    output buffer at the body's value there; nothing owed, full shares, the scoped rest untouched. -/
def dat30 (c : Dev nD) : Dat τ (Elt F) Unit ℕ (UR sig nD τ) ℕ cfg30 c where
  A w := V c (Pipeline.arrRef spec30 w)
  after w t := match w with
    | ⟨0, _⟩ => iblk30 V c 0 t
    | ⟨1, _⟩ => iblk30 V c 1 t
    | ⟨2, _⟩ => out30 (iblk30 V c 0 t) (iblk30 V c 1 t)
  Φ _ := Pipeline.ΦA spec30 c
  q _ := fullShare
  owed _ := 0

theorem A_eq30 (c : Dev nD) (w : Fin cfg30.W) : (dat30 V c).A w = V c (Pipeline.arrRef spec30 w) := by
  dsimp only [dat30]

theorem after30_0 (c : Dev nD) (t : Fin cfg30.N) : (dat30 V c).after 0 t = iblk30 V c 0 t := by dsimp only [dat30]
theorem after30_1 (c : Dev nD) (t : Fin cfg30.N) : (dat30 V c).after 1 t = iblk30 V c 1 t := by dsimp only [dat30]
theorem after30_2 (c : Dev nD) (t : Fin cfg30.N) : (dat30 V c).after 2 t = out30 (iblk30 V c 0 t) (iblk30 V c 1 t) := by dsimp only [dat30]

theorem before30_0 (c : Dev nD) (t : Fin cfg30.N) (d) : (dat30 V c).before 0 t d = iblk30 V c 0 t :=
  before30_0_of V (dat30 V c) (A_eq30 V c 0) (after30_0 V c) t d
theorem before30_1 (c : Dev nD) (t : Fin cfg30.N) (d) : (dat30 V c).before 1 t d = iblk30 V c 1 t :=
  before30_1_of V (dat30 V c) (A_eq30 V c 1) (after30_1 V c) t d

/-- What the body is handed at point `t`, window by window, -/
def bodyPre30 (c : Dev nD) (t : Fin cfg30.N) : sProp 𝕄 :=
  iprop((dat30 V c).Φ t.castSucc ∗ (dat30 V c).owesAt () t.castSucc
    ∗ (∃ d, owns (c : Thread nD τ) (st30_0 t) fullShare ((dat30 V c).before 0 t d))
    ∗ (∃ d, owns (c : Thread nD τ) (st30_1 t) fullShare ((dat30 V c).before 1 t d))
    ∗ (∃ d, owns (c : Thread nD τ) (st30_2 t) fullShare ((dat30 V c).before 2 t d)))

/-- and what it hands back. -/
def bodyPost30 (c : Dev nD) (t : Fin cfg30.N) : sProp 𝕄 :=
  iprop((dat30 V c).Φ t.succ ∗ (dat30 V c).owesAt () t.succ
    ∗ owns (c : Thread nD τ) (st30_0 t) fullShare ((dat30 V c).after 0 t)
    ∗ owns (c : Thread nD τ) (st30_1 t) fullShare ((dat30 V c).after 1 t)
    ∗ owns (c : Thread nD τ) (st30_2 t) fullShare ((dat30 V c).after 2 t))

theorem sound_body30 (c : Dev nD) (t : Fin cfg30.N) :
    bodyPre30 V c t ⊢ wp frame (wpE (defs₀ (F := F)) Variants.none c none) Set.univ (bodyAt30 t) (fun _ => bodyPost30 V c t) := by
  unfold bodyPre30 bodyPost30 bodyAt30
  simp only [before30_0, before30_1]
  rw [show (dat30 V c).Φ t.succ = (dat30 V c).Φ t.castSucc from rfl,
    show (dat30 V c).owesAt () t.succ = (dat30 V c).owesAt () t.castSucc from rfl,
    after30_0, after30_1, after30_2]
  iintro ⟨HΦ, Ho, ⟨%d0, H0⟩, ⟨%d1, H1⟩, ⟨%d2, H2⟩⟩
  iapply (sound_kernel30 c Set.univ _ _ _ _ _ _ _ (iblk30 V c 0 t) (iblk30 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation30 (c : Dev nD) : BodyObligation (dat30 (F := F) V c) (defs₀ (F := F)) Variants.none () Set.univ := fun t => by
  rw [bigSep_W30, bigSep_W30]
  exact sound_body30 V c t

end Cert.Kernel.Reg

end
-- ==== Proof.K.Region31.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 31: two input windows, each block loaded whole; one output window, stored whole -/

/-- Window `w`'s block at grid point `t`, read off the array as the region finds it. -/
def iblk31 (c : Dev nD) (w : Fin cfg31.W) (t : Fin cfg31.N) : ((cfg31.win w).xblock (cfg31.grid.coords t)).Idx → Elt F (cfg31.win w).elt :=
  ((cfg31.win w).blk t).view.read (Elt F) (V c (Pipeline.arrRef spec31 w))

/-- Input window 0's staging buffer holds its block at every point, fetched there or kept from the point before. -/
theorem before31_0_of {c : Dev nD} (dat : Dat τ (Elt F) Unit ℕ (UR sig nD τ) ℕ cfg31 c) (hA : dat.A 0 = V c (Pipeline.arrRef spec31 0))
    (hafter : ∀ t, dat.after 0 t = iblk31 V c 0 t) (t : Fin cfg31.N) (d) : dat.before 0 t d = iblk31 V c 0 t :=
  (dat.before_in_eq_fetched 0 rfl (fun _ => rfl) (fun _ _ _ => rfl) (fun t => by rw [hafter]; unfold Dat.blockOf iblk31; rw [hA]; try rfl) t d).trans
    (by unfold Dat.fetched Dat.blockOf iblk31; rw [hA]; try rfl)

/-- Input window 1's staging buffer likewise. -/
theorem before31_1_of {c : Dev nD} (dat : Dat τ (Elt F) Unit ℕ (UR sig nD τ) ℕ cfg31 c) (hA : dat.A 1 = V c (Pipeline.arrRef spec31 1))
    (hafter : ∀ t, dat.after 1 t = iblk31 V c 1 t) (t : Fin cfg31.N) (d) : dat.before 1 t d = iblk31 V c 1 t :=
  (dat.before_in_eq_fetched 1 rfl (fun _ => rfl) (fun _ _ _ => rfl) (fun t => by rw [hafter]; unfold Dat.blockOf iblk31; rw [hA]; try rfl) t d).trans
    (by unfold Dat.fetched Dat.blockOf iblk31; rw [hA]; try rfl)

abbrev r31_0 : Rect S2048x256 := Rect.unit (s := S2048x256) ![0, 0] S2048x256.size inb_S2048x256_S2048x256_0_0
abbrev r31_1 : Rect S256x256 := Rect.unit (s := S256x256) ![0, 0] S256x256.size inb_S256x256_S256x256_0_0
abbrev r31_o : Rect S2048x256 := Rect.unit (s := S2048x256) ![0, 0] S2048x256.size inb_S2048x256_S2048x256_0_0

/-- The output block after the body: its one whole-block store, of the body's value at the two input blocks. -/
def out31 (x0 : Vec F S2048x256 .f32) (x1 : Vec F S256x256 .f32) : Vec F S2048x256 .f32 :=
  View.canon [⟨r31_o, k31_pay1 (View.ld x0 r31_0) (View.ld x1 r31_1)⟩]

/-- That one store covers the block. -/
theorem cover31 (p0 : Vec F S2048x256 .f32) (y : S2048x256.Idx) :
    ∃ pc ∈ ([⟨r31_o, p0⟩] : List (View.Piece (Elt F) S2048x256 .f32)), y ∈ pc.1.set :=
  View.cover_of_tiled [⟨r31_o, p0⟩] S2048x256.size (by rfl) y

set_option maxHeartbeats 1000000 in
/-- The body on whole staging buffers: both input buffers are read and left as found, and the output buffer,
    whatever it held, ends at the body's value. -/
theorem sound_kernel31 (c : Dev nD) (E : Set ℕ) (i : grid31.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out31 x0 x1)) -∗ K ⟨⟩))
      ⊢ wp frame (wpE (defs₀ (F := F)) Variants.none c none) E (cc31__proj_matmul_kernel i arg1 harg1 arg2 harg2 arg3 harg3) K := by
  simp only [cc31__proj_matmul_kernel_eq_skeleton]; unfold cc31__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover31 _)

/-- The proof data: the arrays as the region finds them; after the body each input buffer still at its block and the
    output buffer at the body's value there; nothing owed, full shares, the scoped rest untouched. -/
def dat31 (c : Dev nD) : Dat τ (Elt F) Unit ℕ (UR sig nD τ) ℕ cfg31 c where
  A w := V c (Pipeline.arrRef spec31 w)
  after w t := match w with
    | ⟨0, _⟩ => iblk31 V c 0 t
    | ⟨1, _⟩ => iblk31 V c 1 t
    | ⟨2, _⟩ => out31 (iblk31 V c 0 t) (iblk31 V c 1 t)
  Φ _ := Pipeline.ΦA spec31 c
  q _ := fullShare
  owed _ := 0

theorem A_eq31 (c : Dev nD) (w : Fin cfg31.W) : (dat31 V c).A w = V c (Pipeline.arrRef spec31 w) := by
  dsimp only [dat31]

theorem after31_0 (c : Dev nD) (t : Fin cfg31.N) : (dat31 V c).after 0 t = iblk31 V c 0 t := by dsimp only [dat31]
theorem after31_1 (c : Dev nD) (t : Fin cfg31.N) : (dat31 V c).after 1 t = iblk31 V c 1 t := by dsimp only [dat31]
theorem after31_2 (c : Dev nD) (t : Fin cfg31.N) : (dat31 V c).after 2 t = out31 (iblk31 V c 0 t) (iblk31 V c 1 t) := by dsimp only [dat31]

theorem before31_0 (c : Dev nD) (t : Fin cfg31.N) (d) : (dat31 V c).before 0 t d = iblk31 V c 0 t :=
  before31_0_of V (dat31 V c) (A_eq31 V c 0) (after31_0 V c) t d
theorem before31_1 (c : Dev nD) (t : Fin cfg31.N) (d) : (dat31 V c).before 1 t d = iblk31 V c 1 t :=
  before31_1_of V (dat31 V c) (A_eq31 V c 1) (after31_1 V c) t d

/-- What the body is handed at point `t`, window by window, -/
def bodyPre31 (c : Dev nD) (t : Fin cfg31.N) : sProp 𝕄 :=
  iprop((dat31 V c).Φ t.castSucc ∗ (dat31 V c).owesAt () t.castSucc
    ∗ (∃ d, owns (c : Thread nD τ) (st31_0 t) fullShare ((dat31 V c).before 0 t d))
    ∗ (∃ d, owns (c : Thread nD τ) (st31_1 t) fullShare ((dat31 V c).before 1 t d))
    ∗ (∃ d, owns (c : Thread nD τ) (st31_2 t) fullShare ((dat31 V c).before 2 t d)))

/-- and what it hands back. -/
def bodyPost31 (c : Dev nD) (t : Fin cfg31.N) : sProp 𝕄 :=
  iprop((dat31 V c).Φ t.succ ∗ (dat31 V c).owesAt () t.succ
    ∗ owns (c : Thread nD τ) (st31_0 t) fullShare ((dat31 V c).after 0 t)
    ∗ owns (c : Thread nD τ) (st31_1 t) fullShare ((dat31 V c).after 1 t)
    ∗ owns (c : Thread nD τ) (st31_2 t) fullShare ((dat31 V c).after 2 t))

theorem sound_body31 (c : Dev nD) (t : Fin cfg31.N) :
    bodyPre31 V c t ⊢ wp frame (wpE (defs₀ (F := F)) Variants.none c none) Set.univ (bodyAt31 t) (fun _ => bodyPost31 V c t) := by
  unfold bodyPre31 bodyPost31 bodyAt31
  simp only [before31_0, before31_1]
  rw [show (dat31 V c).Φ t.succ = (dat31 V c).Φ t.castSucc from rfl,
    show (dat31 V c).owesAt () t.succ = (dat31 V c).owesAt () t.castSucc from rfl,
    after31_0, after31_1, after31_2]
  iintro ⟨HΦ, Ho, ⟨%d0, H0⟩, ⟨%d1, H1⟩, ⟨%d2, H2⟩⟩
  iapply (sound_kernel31 c Set.univ _ _ _ _ _ _ _ (iblk31 V c 0 t) (iblk31 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation31 (c : Dev nD) : BodyObligation (dat31 (F := F) V c) (defs₀ (F := F)) Variants.none () Set.univ := fun t => by
  rw [bigSep_W31, bigSep_W31]
  exact sound_body31 V c t

end Cert.Kernel.Reg

end
-- ==== Proof.K.Region32.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 32: two input windows, each block loaded whole; one output window, stored whole -/

/-- Window `w`'s block at grid point `t`, read off the array as the region finds it. -/
def iblk32 (c : Dev nD) (w : Fin cfg32.W) (t : Fin cfg32.N) : ((cfg32.win w).xblock (cfg32.grid.coords t)).Idx → Elt F (cfg32.win w).elt :=
  ((cfg32.win w).blk t).view.read (Elt F) (V c (Pipeline.arrRef spec32 w))

/-- Input window 0's staging buffer holds its block at every point, fetched there or kept from the point before. -/
theorem before32_0_of {c : Dev nD} (dat : Dat τ (Elt F) Unit ℕ (UR sig nD τ) ℕ cfg32 c) (hA : dat.A 0 = V c (Pipeline.arrRef spec32 0))
    (hafter : ∀ t, dat.after 0 t = iblk32 V c 0 t) (t : Fin cfg32.N) (d) : dat.before 0 t d = iblk32 V c 0 t :=
  (dat.before_in_eq_fetched 0 rfl (fun _ => rfl) (fun _ _ _ => rfl) (fun t => by rw [hafter]; unfold Dat.blockOf iblk32; rw [hA]; try rfl) t d).trans
    (by unfold Dat.fetched Dat.blockOf iblk32; rw [hA]; try rfl)

/-- Input window 1's staging buffer likewise. -/
theorem before32_1_of {c : Dev nD} (dat : Dat τ (Elt F) Unit ℕ (UR sig nD τ) ℕ cfg32 c) (hA : dat.A 1 = V c (Pipeline.arrRef spec32 1))
    (hafter : ∀ t, dat.after 1 t = iblk32 V c 1 t) (t : Fin cfg32.N) (d) : dat.before 1 t d = iblk32 V c 1 t :=
  (dat.before_in_eq_fetched 1 rfl (fun _ => rfl) (fun _ _ _ => rfl) (fun t => by rw [hafter]; unfold Dat.blockOf iblk32; rw [hA]; try rfl) t d).trans
    (by unfold Dat.fetched Dat.blockOf iblk32; rw [hA]; try rfl)

abbrev r32_0 : Rect S2048x256 := Rect.unit (s := S2048x256) ![0, 0] S2048x256.size inb_S2048x256_S2048x256_0_0
abbrev r32_1 : Rect S256x256 := Rect.unit (s := S256x256) ![0, 0] S256x256.size inb_S256x256_S256x256_0_0
abbrev r32_o : Rect S2048x256 := Rect.unit (s := S2048x256) ![0, 0] S2048x256.size inb_S2048x256_S2048x256_0_0

/-- The output block after the body: its one whole-block store, of the body's value at the two input blocks. -/
def out32 (x0 : Vec F S2048x256 .f32) (x1 : Vec F S256x256 .f32) : Vec F S2048x256 .f32 :=
  View.canon [⟨r32_o, k32_pay1 (View.ld x0 r32_0) (View.ld x1 r32_1)⟩]

/-- That one store covers the block. -/
theorem cover32 (p0 : Vec F S2048x256 .f32) (y : S2048x256.Idx) :
    ∃ pc ∈ ([⟨r32_o, p0⟩] : List (View.Piece (Elt F) S2048x256 .f32)), y ∈ pc.1.set :=
  View.cover_of_tiled [⟨r32_o, p0⟩] S2048x256.size (by rfl) y

set_option maxHeartbeats 1000000 in
/-- The body on whole staging buffers: both input buffers are read and left as found, and the output buffer,
    whatever it held, ends at the body's value. -/
theorem sound_kernel32 (c : Dev nD) (E : Set ℕ) (i : grid32.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out32 x0 x1)) -∗ K ⟨⟩))
      ⊢ wp frame (wpE (defs₀ (F := F)) Variants.none c none) E (cc32__proj_matmul_kernel i arg1 harg1 arg2 harg2 arg3 harg3) K := by
  simp only [cc32__proj_matmul_kernel_eq_skeleton]; unfold cc32__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover32 _)

/-- The proof data: the arrays as the region finds them; after the body each input buffer still at its block and the
    output buffer at the body's value there; nothing owed, full shares, the scoped rest untouched. -/
def dat32 (c : Dev nD) : Dat τ (Elt F) Unit ℕ (UR sig nD τ) ℕ cfg32 c where
  A w := V c (Pipeline.arrRef spec32 w)
  after w t := match w with
    | ⟨0, _⟩ => iblk32 V c 0 t
    | ⟨1, _⟩ => iblk32 V c 1 t
    | ⟨2, _⟩ => out32 (iblk32 V c 0 t) (iblk32 V c 1 t)
  Φ _ := Pipeline.ΦA spec32 c
  q _ := fullShare
  owed _ := 0

theorem A_eq32 (c : Dev nD) (w : Fin cfg32.W) : (dat32 V c).A w = V c (Pipeline.arrRef spec32 w) := by
  dsimp only [dat32]

theorem after32_0 (c : Dev nD) (t : Fin cfg32.N) : (dat32 V c).after 0 t = iblk32 V c 0 t := by dsimp only [dat32]
theorem after32_1 (c : Dev nD) (t : Fin cfg32.N) : (dat32 V c).after 1 t = iblk32 V c 1 t := by dsimp only [dat32]
theorem after32_2 (c : Dev nD) (t : Fin cfg32.N) : (dat32 V c).after 2 t = out32 (iblk32 V c 0 t) (iblk32 V c 1 t) := by dsimp only [dat32]

theorem before32_0 (c : Dev nD) (t : Fin cfg32.N) (d) : (dat32 V c).before 0 t d = iblk32 V c 0 t :=
  before32_0_of V (dat32 V c) (A_eq32 V c 0) (after32_0 V c) t d
theorem before32_1 (c : Dev nD) (t : Fin cfg32.N) (d) : (dat32 V c).before 1 t d = iblk32 V c 1 t :=
  before32_1_of V (dat32 V c) (A_eq32 V c 1) (after32_1 V c) t d

/-- What the body is handed at point `t`, window by window, -/
def bodyPre32 (c : Dev nD) (t : Fin cfg32.N) : sProp 𝕄 :=
  iprop((dat32 V c).Φ t.castSucc ∗ (dat32 V c).owesAt () t.castSucc
    ∗ (∃ d, owns (c : Thread nD τ) (st32_0 t) fullShare ((dat32 V c).before 0 t d))
    ∗ (∃ d, owns (c : Thread nD τ) (st32_1 t) fullShare ((dat32 V c).before 1 t d))
    ∗ (∃ d, owns (c : Thread nD τ) (st32_2 t) fullShare ((dat32 V c).before 2 t d)))

/-- and what it hands back. -/
def bodyPost32 (c : Dev nD) (t : Fin cfg32.N) : sProp 𝕄 :=
  iprop((dat32 V c).Φ t.succ ∗ (dat32 V c).owesAt () t.succ
    ∗ owns (c : Thread nD τ) (st32_0 t) fullShare ((dat32 V c).after 0 t)
    ∗ owns (c : Thread nD τ) (st32_1 t) fullShare ((dat32 V c).after 1 t)
    ∗ owns (c : Thread nD τ) (st32_2 t) fullShare ((dat32 V c).after 2 t))

theorem sound_body32 (c : Dev nD) (t : Fin cfg32.N) :
    bodyPre32 V c t ⊢ wp frame (wpE (defs₀ (F := F)) Variants.none c none) Set.univ (bodyAt32 t) (fun _ => bodyPost32 V c t) := by
  unfold bodyPre32 bodyPost32 bodyAt32
  simp only [before32_0, before32_1]
  rw [show (dat32 V c).Φ t.succ = (dat32 V c).Φ t.castSucc from rfl,
    show (dat32 V c).owesAt () t.succ = (dat32 V c).owesAt () t.castSucc from rfl,
    after32_0, after32_1, after32_2]
  iintro ⟨HΦ, Ho, ⟨%d0, H0⟩, ⟨%d1, H1⟩, ⟨%d2, H2⟩⟩
  iapply (sound_kernel32 c Set.univ _ _ _ _ _ _ _ (iblk32 V c 0 t) (iblk32 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation32 (c : Dev nD) : BodyObligation (dat32 (F := F) V c) (defs₀ (F := F)) Variants.none () Set.univ := fun t => by
  rw [bigSep_W32, bigSep_W32]
  exact sound_body32 V c t

end Cert.Kernel.Reg

end
-- ==== Proof.K.Region33.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 33: two input windows, each block loaded whole; one output window, stored whole -/

/-- Window `w`'s block at grid point `t`, read off the array as the region finds it. -/
def iblk33 (c : Dev nD) (w : Fin cfg33.W) (t : Fin cfg33.N) : ((cfg33.win w).xblock (cfg33.grid.coords t)).Idx → Elt F (cfg33.win w).elt :=
  ((cfg33.win w).blk t).view.read (Elt F) (V c (Pipeline.arrRef spec33 w))

/-- Input window 0's staging buffer holds its block at every point, fetched there or kept from the point before. -/
theorem before33_0_of {c : Dev nD} (dat : Dat τ (Elt F) Unit ℕ (UR sig nD τ) ℕ cfg33 c) (hA : dat.A 0 = V c (Pipeline.arrRef spec33 0))
    (hafter : ∀ t, dat.after 0 t = iblk33 V c 0 t) (t : Fin cfg33.N) (d) : dat.before 0 t d = iblk33 V c 0 t :=
  (dat.before_in_eq_fetched 0 rfl (fun _ => rfl) (fun _ _ _ => rfl) (fun t => by rw [hafter]; unfold Dat.blockOf iblk33; rw [hA]; try rfl) t d).trans
    (by unfold Dat.fetched Dat.blockOf iblk33; rw [hA]; try rfl)

/-- Input window 1's staging buffer likewise. -/
theorem before33_1_of {c : Dev nD} (dat : Dat τ (Elt F) Unit ℕ (UR sig nD τ) ℕ cfg33 c) (hA : dat.A 1 = V c (Pipeline.arrRef spec33 1))
    (hafter : ∀ t, dat.after 1 t = iblk33 V c 1 t) (t : Fin cfg33.N) (d) : dat.before 1 t d = iblk33 V c 1 t :=
  (dat.before_in_eq_fetched 1 rfl (fun _ => rfl) (fun _ _ _ => rfl) (fun t => by rw [hafter]; unfold Dat.blockOf iblk33; rw [hA]; try rfl) t d).trans
    (by unfold Dat.fetched Dat.blockOf iblk33; rw [hA]; try rfl)

abbrev r33_0 : Rect S2048x256 := Rect.unit (s := S2048x256) ![0, 0] S2048x256.size inb_S2048x256_S2048x256_0_0
abbrev r33_1 : Rect S256x256 := Rect.unit (s := S256x256) ![0, 0] S256x256.size inb_S256x256_S256x256_0_0
abbrev r33_o : Rect S2048x256 := Rect.unit (s := S2048x256) ![0, 0] S2048x256.size inb_S2048x256_S2048x256_0_0

/-- The output block after the body: its one whole-block store, of the body's value at the two input blocks. -/
def out33 (x0 : Vec F S2048x256 .f32) (x1 : Vec F S256x256 .f32) : Vec F S2048x256 .f32 :=
  View.canon [⟨r33_o, k33_pay1 (View.ld x0 r33_0) (View.ld x1 r33_1)⟩]

/-- That one store covers the block. -/
theorem cover33 (p0 : Vec F S2048x256 .f32) (y : S2048x256.Idx) :
    ∃ pc ∈ ([⟨r33_o, p0⟩] : List (View.Piece (Elt F) S2048x256 .f32)), y ∈ pc.1.set :=
  View.cover_of_tiled [⟨r33_o, p0⟩] S2048x256.size (by rfl) y

set_option maxHeartbeats 1000000 in
/-- The body on whole staging buffers: both input buffers are read and left as found, and the output buffer,
    whatever it held, ends at the body's value. -/
theorem sound_kernel33 (c : Dev nD) (E : Set ℕ) (i : grid33.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out33 x0 x1)) -∗ K ⟨⟩))
      ⊢ wp frame (wpE (defs₀ (F := F)) Variants.none c none) E (cc33__proj_matmul_kernel i arg1 harg1 arg2 harg2 arg3 harg3) K := by
  simp only [cc33__proj_matmul_kernel_eq_skeleton]; unfold cc33__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover33 _)

/-- The proof data: the arrays as the region finds them; after the body each input buffer still at its block and the
    output buffer at the body's value there; nothing owed, full shares, the scoped rest untouched. -/
def dat33 (c : Dev nD) : Dat τ (Elt F) Unit ℕ (UR sig nD τ) ℕ cfg33 c where
  A w := V c (Pipeline.arrRef spec33 w)
  after w t := match w with
    | ⟨0, _⟩ => iblk33 V c 0 t
    | ⟨1, _⟩ => iblk33 V c 1 t
    | ⟨2, _⟩ => out33 (iblk33 V c 0 t) (iblk33 V c 1 t)
  Φ _ := Pipeline.ΦA spec33 c
  q _ := fullShare
  owed _ := 0

theorem A_eq33 (c : Dev nD) (w : Fin cfg33.W) : (dat33 V c).A w = V c (Pipeline.arrRef spec33 w) := by
  dsimp only [dat33]

theorem after33_0 (c : Dev nD) (t : Fin cfg33.N) : (dat33 V c).after 0 t = iblk33 V c 0 t := by dsimp only [dat33]
theorem after33_1 (c : Dev nD) (t : Fin cfg33.N) : (dat33 V c).after 1 t = iblk33 V c 1 t := by dsimp only [dat33]
theorem after33_2 (c : Dev nD) (t : Fin cfg33.N) : (dat33 V c).after 2 t = out33 (iblk33 V c 0 t) (iblk33 V c 1 t) := by dsimp only [dat33]

theorem before33_0 (c : Dev nD) (t : Fin cfg33.N) (d) : (dat33 V c).before 0 t d = iblk33 V c 0 t :=
  before33_0_of V (dat33 V c) (A_eq33 V c 0) (after33_0 V c) t d
theorem before33_1 (c : Dev nD) (t : Fin cfg33.N) (d) : (dat33 V c).before 1 t d = iblk33 V c 1 t :=
  before33_1_of V (dat33 V c) (A_eq33 V c 1) (after33_1 V c) t d

/-- What the body is handed at point `t`, window by window, -/
def bodyPre33 (c : Dev nD) (t : Fin cfg33.N) : sProp 𝕄 :=
  iprop((dat33 V c).Φ t.castSucc ∗ (dat33 V c).owesAt () t.castSucc
    ∗ (∃ d, owns (c : Thread nD τ) (st33_0 t) fullShare ((dat33 V c).before 0 t d))
    ∗ (∃ d, owns (c : Thread nD τ) (st33_1 t) fullShare ((dat33 V c).before 1 t d))
    ∗ (∃ d, owns (c : Thread nD τ) (st33_2 t) fullShare ((dat33 V c).before 2 t d)))

/-- and what it hands back. -/
def bodyPost33 (c : Dev nD) (t : Fin cfg33.N) : sProp 𝕄 :=
  iprop((dat33 V c).Φ t.succ ∗ (dat33 V c).owesAt () t.succ
    ∗ owns (c : Thread nD τ) (st33_0 t) fullShare ((dat33 V c).after 0 t)
    ∗ owns (c : Thread nD τ) (st33_1 t) fullShare ((dat33 V c).after 1 t)
    ∗ owns (c : Thread nD τ) (st33_2 t) fullShare ((dat33 V c).after 2 t))

theorem sound_body33 (c : Dev nD) (t : Fin cfg33.N) :
    bodyPre33 V c t ⊢ wp frame (wpE (defs₀ (F := F)) Variants.none c none) Set.univ (bodyAt33 t) (fun _ => bodyPost33 V c t) := by
  unfold bodyPre33 bodyPost33 bodyAt33
  simp only [before33_0, before33_1]
  rw [show (dat33 V c).Φ t.succ = (dat33 V c).Φ t.castSucc from rfl,
    show (dat33 V c).owesAt () t.succ = (dat33 V c).owesAt () t.castSucc from rfl,
    after33_0, after33_1, after33_2]
  iintro ⟨HΦ, Ho, ⟨%d0, H0⟩, ⟨%d1, H1⟩, ⟨%d2, H2⟩⟩
  iapply (sound_kernel33 c Set.univ _ _ _ _ _ _ _ (iblk33 V c 0 t) (iblk33 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation33 (c : Dev nD) : BodyObligation (dat33 (F := F) V c) (defs₀ (F := F)) Variants.none () Set.univ := fun t => by
  rw [bigSep_W33, bigSep_W33]
  exact sound_body33 V c t

end Cert.Kernel.Reg

end
-- ==== Proof.K.Region34.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 34: two input windows, each block loaded whole; one output window, stored whole -/

/-- Window `w`'s block at grid point `t`, read off the array as the region finds it. -/
def iblk34 (c : Dev nD) (w : Fin cfg34.W) (t : Fin cfg34.N) : ((cfg34.win w).xblock (cfg34.grid.coords t)).Idx → Elt F (cfg34.win w).elt :=
  ((cfg34.win w).blk t).view.read (Elt F) (V c (Pipeline.arrRef spec34 w))

/-- Input window 0's staging buffer holds its block at every point, fetched there or kept from the point before. -/
theorem before34_0_of {c : Dev nD} (dat : Dat τ (Elt F) Unit ℕ (UR sig nD τ) ℕ cfg34 c) (hA : dat.A 0 = V c (Pipeline.arrRef spec34 0))
    (hafter : ∀ t, dat.after 0 t = iblk34 V c 0 t) (t : Fin cfg34.N) (d) : dat.before 0 t d = iblk34 V c 0 t :=
  (dat.before_in_eq_fetched 0 rfl (fun _ => rfl) (fun _ _ _ => rfl) (fun t => by rw [hafter]; unfold Dat.blockOf iblk34; rw [hA]; try rfl) t d).trans
    (by unfold Dat.fetched Dat.blockOf iblk34; rw [hA]; try rfl)

/-- Input window 1's staging buffer likewise. -/
theorem before34_1_of {c : Dev nD} (dat : Dat τ (Elt F) Unit ℕ (UR sig nD τ) ℕ cfg34 c) (hA : dat.A 1 = V c (Pipeline.arrRef spec34 1))
    (hafter : ∀ t, dat.after 1 t = iblk34 V c 1 t) (t : Fin cfg34.N) (d) : dat.before 1 t d = iblk34 V c 1 t :=
  (dat.before_in_eq_fetched 1 rfl (fun _ => rfl) (fun _ _ _ => rfl) (fun t => by rw [hafter]; unfold Dat.blockOf iblk34; rw [hA]; try rfl) t d).trans
    (by unfold Dat.fetched Dat.blockOf iblk34; rw [hA]; try rfl)

abbrev r34_0 : Rect S2048x256 := Rect.unit (s := S2048x256) ![0, 0] S2048x256.size inb_S2048x256_S2048x256_0_0
abbrev r34_1 : Rect S256x256 := Rect.unit (s := S256x256) ![0, 0] S256x256.size inb_S256x256_S256x256_0_0
abbrev r34_o : Rect S2048x256 := Rect.unit (s := S2048x256) ![0, 0] S2048x256.size inb_S2048x256_S2048x256_0_0

/-- The output block after the body: its one whole-block store, of the body's value at the two input blocks. -/
def out34 (x0 : Vec F S2048x256 .f32) (x1 : Vec F S256x256 .f32) : Vec F S2048x256 .f32 :=
  View.canon [⟨r34_o, k34_pay1 (View.ld x0 r34_0) (View.ld x1 r34_1)⟩]

/-- That one store covers the block. -/
theorem cover34 (p0 : Vec F S2048x256 .f32) (y : S2048x256.Idx) :
    ∃ pc ∈ ([⟨r34_o, p0⟩] : List (View.Piece (Elt F) S2048x256 .f32)), y ∈ pc.1.set :=
  View.cover_of_tiled [⟨r34_o, p0⟩] S2048x256.size (by rfl) y

set_option maxHeartbeats 1000000 in
/-- The body on whole staging buffers: both input buffers are read and left as found, and the output buffer,
    whatever it held, ends at the body's value. -/
theorem sound_kernel34 (c : Dev nD) (E : Set ℕ) (i : grid34.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out34 x0 x1)) -∗ K ⟨⟩))
      ⊢ wp frame (wpE (defs₀ (F := F)) Variants.none c none) E (cc34__proj_matmul_kernel i arg1 harg1 arg2 harg2 arg3 harg3) K := by
  simp only [cc34__proj_matmul_kernel_eq_skeleton]; unfold cc34__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover34 _)

/-- The proof data: the arrays as the region finds them; after the body each input buffer still at its block and the
    output buffer at the body's value there; nothing owed, full shares, the scoped rest untouched. -/
def dat34 (c : Dev nD) : Dat τ (Elt F) Unit ℕ (UR sig nD τ) ℕ cfg34 c where
  A w := V c (Pipeline.arrRef spec34 w)
  after w t := match w with
    | ⟨0, _⟩ => iblk34 V c 0 t
    | ⟨1, _⟩ => iblk34 V c 1 t
    | ⟨2, _⟩ => out34 (iblk34 V c 0 t) (iblk34 V c 1 t)
  Φ _ := Pipeline.ΦA spec34 c
  q _ := fullShare
  owed _ := 0

theorem A_eq34 (c : Dev nD) (w : Fin cfg34.W) : (dat34 V c).A w = V c (Pipeline.arrRef spec34 w) := by
  dsimp only [dat34]

theorem after34_0 (c : Dev nD) (t : Fin cfg34.N) : (dat34 V c).after 0 t = iblk34 V c 0 t := by dsimp only [dat34]
theorem after34_1 (c : Dev nD) (t : Fin cfg34.N) : (dat34 V c).after 1 t = iblk34 V c 1 t := by dsimp only [dat34]
theorem after34_2 (c : Dev nD) (t : Fin cfg34.N) : (dat34 V c).after 2 t = out34 (iblk34 V c 0 t) (iblk34 V c 1 t) := by dsimp only [dat34]

theorem before34_0 (c : Dev nD) (t : Fin cfg34.N) (d) : (dat34 V c).before 0 t d = iblk34 V c 0 t :=
  before34_0_of V (dat34 V c) (A_eq34 V c 0) (after34_0 V c) t d
theorem before34_1 (c : Dev nD) (t : Fin cfg34.N) (d) : (dat34 V c).before 1 t d = iblk34 V c 1 t :=
  before34_1_of V (dat34 V c) (A_eq34 V c 1) (after34_1 V c) t d

/-- What the body is handed at point `t`, window by window, -/
def bodyPre34 (c : Dev nD) (t : Fin cfg34.N) : sProp 𝕄 :=
  iprop((dat34 V c).Φ t.castSucc ∗ (dat34 V c).owesAt () t.castSucc
    ∗ (∃ d, owns (c : Thread nD τ) (st34_0 t) fullShare ((dat34 V c).before 0 t d))
    ∗ (∃ d, owns (c : Thread nD τ) (st34_1 t) fullShare ((dat34 V c).before 1 t d))
    ∗ (∃ d, owns (c : Thread nD τ) (st34_2 t) fullShare ((dat34 V c).before 2 t d)))

/-- and what it hands back. -/
def bodyPost34 (c : Dev nD) (t : Fin cfg34.N) : sProp 𝕄 :=
  iprop((dat34 V c).Φ t.succ ∗ (dat34 V c).owesAt () t.succ
    ∗ owns (c : Thread nD τ) (st34_0 t) fullShare ((dat34 V c).after 0 t)
    ∗ owns (c : Thread nD τ) (st34_1 t) fullShare ((dat34 V c).after 1 t)
    ∗ owns (c : Thread nD τ) (st34_2 t) fullShare ((dat34 V c).after 2 t))

theorem sound_body34 (c : Dev nD) (t : Fin cfg34.N) :
    bodyPre34 V c t ⊢ wp frame (wpE (defs₀ (F := F)) Variants.none c none) Set.univ (bodyAt34 t) (fun _ => bodyPost34 V c t) := by
  unfold bodyPre34 bodyPost34 bodyAt34
  simp only [before34_0, before34_1]
  rw [show (dat34 V c).Φ t.succ = (dat34 V c).Φ t.castSucc from rfl,
    show (dat34 V c).owesAt () t.succ = (dat34 V c).owesAt () t.castSucc from rfl,
    after34_0, after34_1, after34_2]
  iintro ⟨HΦ, Ho, ⟨%d0, H0⟩, ⟨%d1, H1⟩, ⟨%d2, H2⟩⟩
  iapply (sound_kernel34 c Set.univ _ _ _ _ _ _ _ (iblk34 V c 0 t) (iblk34 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation34 (c : Dev nD) : BodyObligation (dat34 (F := F) V c) (defs₀ (F := F)) Variants.none () Set.univ := fun t => by
  rw [bigSep_W34, bigSep_W34]
  exact sound_body34 V c t

end Cert.Kernel.Reg

end
-- ==== Proof.K.Region35.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 35: two input windows, each block loaded whole; one output window, stored whole -/

/-- Window `w`'s block at grid point `t`, read off the array as the region finds it. -/
def iblk35 (c : Dev nD) (w : Fin cfg35.W) (t : Fin cfg35.N) : ((cfg35.win w).xblock (cfg35.grid.coords t)).Idx → Elt F (cfg35.win w).elt :=
  ((cfg35.win w).blk t).view.read (Elt F) (V c (Pipeline.arrRef spec35 w))

/-- Input window 0's staging buffer holds its block at every point, fetched there or kept from the point before. -/
theorem before35_0_of {c : Dev nD} (dat : Dat τ (Elt F) Unit ℕ (UR sig nD τ) ℕ cfg35 c) (hA : dat.A 0 = V c (Pipeline.arrRef spec35 0))
    (hafter : ∀ t, dat.after 0 t = iblk35 V c 0 t) (t : Fin cfg35.N) (d) : dat.before 0 t d = iblk35 V c 0 t :=
  (dat.before_in_eq_fetched 0 rfl (fun _ => rfl) (fun _ _ _ => rfl) (fun t => by rw [hafter]; unfold Dat.blockOf iblk35; rw [hA]; try rfl) t d).trans
    (by unfold Dat.fetched Dat.blockOf iblk35; rw [hA]; try rfl)

/-- Input window 1's staging buffer likewise. -/
theorem before35_1_of {c : Dev nD} (dat : Dat τ (Elt F) Unit ℕ (UR sig nD τ) ℕ cfg35 c) (hA : dat.A 1 = V c (Pipeline.arrRef spec35 1))
    (hafter : ∀ t, dat.after 1 t = iblk35 V c 1 t) (t : Fin cfg35.N) (d) : dat.before 1 t d = iblk35 V c 1 t :=
  (dat.before_in_eq_fetched 1 rfl (fun _ => rfl) (fun _ _ _ => rfl) (fun t => by rw [hafter]; unfold Dat.blockOf iblk35; rw [hA]; try rfl) t d).trans
    (by unfold Dat.fetched Dat.blockOf iblk35; rw [hA]; try rfl)

abbrev r35_0 : Rect S8x256x128 := Rect.unit (s := S8x256x128) ![0, 0, 0] S8x256x128.size inb_S8x256x128_S8x256x128_0_0_0
abbrev r35_1 : Rect S8x128x256 := Rect.unit (s := S8x128x256) ![0, 0, 0] S8x128x256.size inb_S8x128x256_S8x128x256_0_0_0
abbrev r35_o : Rect S8x256x256 := Rect.unit (s := S8x256x256) ![0, 0, 0] S8x256x256.size inb_S8x256x256_S8x256x256_0_0_0

/-- The output block after the body: its one whole-block store, of the body's value at the two input blocks. -/
def out35 (x0 : Vec F S8x256x128 .bf16) (x1 : Vec F S8x128x256 .f32) : Vec F S8x256x256 .f32 :=
  View.canon [⟨r35_o, k35_pay1 (View.ld x0 r35_0) (View.ld x1 r35_1)⟩]

/-- That one store covers the block. -/
theorem cover35 (p0 : Vec F S8x256x256 .f32) (y : S8x256x256.Idx) :
    ∃ pc ∈ ([⟨r35_o, p0⟩] : List (View.Piece (Elt F) S8x256x256 .f32)), y ∈ pc.1.set :=
  View.cover_of_tiled [⟨r35_o, p0⟩] S8x256x256.size (by rfl) y

set_option maxHeartbeats 1000000 in
/-- The body on whole staging buffers: both input buffers are read and left as found, and the output buffer,
    whatever it held, ends at the body's value. -/
theorem sound_kernel35 (c : Dev nD) (E : Set ℕ) (i : grid35.Coords)
    (arg1 : Memref sig .tc .vmem S8x256x128 .bf16) (harg1 : arg1.IsWhole) (arg2 : Memref sig .tc .vmem S8x128x256 .f32) (harg2 : arg2.IsWhole)
    (arg3 : Memref sig .tc .vmem S8x256x256 .f32) (harg3 : arg3.IsWhole)
    (x0 : Vec F S8x256x128 .bf16) (x1 : Vec F S8x128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out35 x0 x1)) -∗ K ⟨⟩))
      ⊢ wp frame (wpE (defs₀ (F := F)) Variants.none c none) E (cc35__boundary_reduce_kernel i arg1 harg1 arg2 harg2 arg3 harg3) K := by
  simp only [cc35__boundary_reduce_kernel_eq_skeleton]; unfold cc35__boundary_reduce_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover35 _)

/-- The proof data: the arrays as the region finds them; after the body each input buffer still at its block and the
    output buffer at the body's value there; nothing owed, full shares, the scoped rest untouched. -/
def dat35 (c : Dev nD) : Dat τ (Elt F) Unit ℕ (UR sig nD τ) ℕ cfg35 c where
  A w := V c (Pipeline.arrRef spec35 w)
  after w t := match w with
    | ⟨0, _⟩ => iblk35 V c 0 t
    | ⟨1, _⟩ => iblk35 V c 1 t
    | ⟨2, _⟩ => out35 (iblk35 V c 0 t) (iblk35 V c 1 t)
  Φ _ := Pipeline.ΦA spec35 c
  q _ := fullShare
  owed _ := 0

theorem A_eq35 (c : Dev nD) (w : Fin cfg35.W) : (dat35 V c).A w = V c (Pipeline.arrRef spec35 w) := by
  dsimp only [dat35]

theorem after35_0 (c : Dev nD) (t : Fin cfg35.N) : (dat35 V c).after 0 t = iblk35 V c 0 t := by dsimp only [dat35]
theorem after35_1 (c : Dev nD) (t : Fin cfg35.N) : (dat35 V c).after 1 t = iblk35 V c 1 t := by dsimp only [dat35]
theorem after35_2 (c : Dev nD) (t : Fin cfg35.N) : (dat35 V c).after 2 t = out35 (iblk35 V c 0 t) (iblk35 V c 1 t) := by dsimp only [dat35]

theorem before35_0 (c : Dev nD) (t : Fin cfg35.N) (d) : (dat35 V c).before 0 t d = iblk35 V c 0 t :=
  before35_0_of V (dat35 V c) (A_eq35 V c 0) (after35_0 V c) t d
theorem before35_1 (c : Dev nD) (t : Fin cfg35.N) (d) : (dat35 V c).before 1 t d = iblk35 V c 1 t :=
  before35_1_of V (dat35 V c) (A_eq35 V c 1) (after35_1 V c) t d

/-- What the body is handed at point `t`, window by window, -/
def bodyPre35 (c : Dev nD) (t : Fin cfg35.N) : sProp 𝕄 :=
  iprop((dat35 V c).Φ t.castSucc ∗ (dat35 V c).owesAt () t.castSucc
    ∗ (∃ d, owns (c : Thread nD τ) (st35_0 t) fullShare ((dat35 V c).before 0 t d))
    ∗ (∃ d, owns (c : Thread nD τ) (st35_1 t) fullShare ((dat35 V c).before 1 t d))
    ∗ (∃ d, owns (c : Thread nD τ) (st35_2 t) fullShare ((dat35 V c).before 2 t d)))

/-- and what it hands back. -/
def bodyPost35 (c : Dev nD) (t : Fin cfg35.N) : sProp 𝕄 :=
  iprop((dat35 V c).Φ t.succ ∗ (dat35 V c).owesAt () t.succ
    ∗ owns (c : Thread nD τ) (st35_0 t) fullShare ((dat35 V c).after 0 t)
    ∗ owns (c : Thread nD τ) (st35_1 t) fullShare ((dat35 V c).after 1 t)
    ∗ owns (c : Thread nD τ) (st35_2 t) fullShare ((dat35 V c).after 2 t))

theorem sound_body35 (c : Dev nD) (t : Fin cfg35.N) :
    bodyPre35 V c t ⊢ wp frame (wpE (defs₀ (F := F)) Variants.none c none) Set.univ (bodyAt35 t) (fun _ => bodyPost35 V c t) := by
  unfold bodyPre35 bodyPost35 bodyAt35
  simp only [before35_0, before35_1]
  rw [show (dat35 V c).Φ t.succ = (dat35 V c).Φ t.castSucc from rfl,
    show (dat35 V c).owesAt () t.succ = (dat35 V c).owesAt () t.castSucc from rfl,
    after35_0, after35_1, after35_2]
  iintro ⟨HΦ, Ho, ⟨%d0, H0⟩, ⟨%d1, H1⟩, ⟨%d2, H2⟩⟩
  iapply (sound_kernel35 c Set.univ _ _ _ _ _ _ _ (iblk35 V c 0 t) (iblk35 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation35 (c : Dev nD) : BodyObligation (dat35 (F := F) V c) (defs₀ (F := F)) Variants.none () Set.univ := fun t => by
  rw [bigSep_W35, bigSep_W35]
  exact sound_body35 V c t

end Cert.Kernel.Reg

end
-- ==== Proof.K.Region36.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 36: three input windows, each block loaded whole; one output window, stored whole -/

/-- Window `w`'s block at grid point `t`, read off the array as the region finds it. -/
def iblk36 (c : Dev nD) (w : Fin cfg36.W) (t : Fin cfg36.N) : ((cfg36.win w).xblock (cfg36.grid.coords t)).Idx → Elt F (cfg36.win w).elt :=
  ((cfg36.win w).blk t).view.read (Elt F) (V c (Pipeline.arrRef spec36 w))

/-- Input window 0's staging buffer holds its block at every point, fetched there or kept from the point before. -/
theorem before36_0_of {c : Dev nD} (dat : Dat τ (Elt F) Unit ℕ (UR sig nD τ) ℕ cfg36 c) (hA : dat.A 0 = V c (Pipeline.arrRef spec36 0))
    (hafter : ∀ t, dat.after 0 t = iblk36 V c 0 t) (t : Fin cfg36.N) (d) : dat.before 0 t d = iblk36 V c 0 t :=
  (dat.before_in_eq_fetched 0 rfl (fun _ => rfl) (fun _ _ _ => rfl) (fun t => by rw [hafter]; unfold Dat.blockOf iblk36; rw [hA]; try rfl) t d).trans
    (by unfold Dat.fetched Dat.blockOf iblk36; rw [hA]; try rfl)

/-- Input window 1's staging buffer likewise. -/
theorem before36_1_of {c : Dev nD} (dat : Dat τ (Elt F) Unit ℕ (UR sig nD τ) ℕ cfg36 c) (hA : dat.A 1 = V c (Pipeline.arrRef spec36 1))
    (hafter : ∀ t, dat.after 1 t = iblk36 V c 1 t) (t : Fin cfg36.N) (d) : dat.before 1 t d = iblk36 V c 1 t :=
  (dat.before_in_eq_fetched 1 rfl (fun _ => rfl) (fun _ _ _ => rfl) (fun t => by rw [hafter]; unfold Dat.blockOf iblk36; rw [hA]; try rfl) t d).trans
    (by unfold Dat.fetched Dat.blockOf iblk36; rw [hA]; try rfl)

/-- Input window 2's staging buffer likewise (fetched once, then kept). -/
theorem before36_2_of {c : Dev nD} (dat : Dat τ (Elt F) Unit ℕ (UR sig nD τ) ℕ cfg36 c) (hA : dat.A 2 = V c (Pipeline.arrRef spec36 2))
    (hafter : ∀ t, dat.after 2 t = iblk36 V c 2 t) (t : Fin cfg36.N) (d) : dat.before 2 t d = iblk36 V c 2 t :=
  (dat.before_in_eq_fetched 2 rfl (fun _ => rfl) (fun _ _ _ => rfl) (fun t => by rw [hafter]; unfold Dat.blockOf iblk36; rw [hA]; try rfl) t d).trans
    (by unfold Dat.fetched Dat.blockOf iblk36; rw [hA]; try rfl)

abbrev r36_0 : Rect S16x64x256 := Rect.unit (s := S16x64x256) ![0, 0, 0] S16x64x256.size inb_S16x64x256_S16x64x256_0_0_0
abbrev r36_1 : Rect S16x256x256 := Rect.unit (s := S16x256x256) ![0, 0, 0] S16x256x256.size inb_S16x256x256_S16x256x256_0_0_0
abbrev r36_2 : Rect S256x256 := Rect.unit (s := S256x256) ![0, 0] S256x256.size inb_S256x256_S256x256_0_0
abbrev r36_o : Rect S16x64x256 := Rect.unit (s := S16x64x256) ![0, 0, 0] S16x64x256.size inb_S16x64x256_S16x64x256_0_0_0

/-- The output block after the body: its one whole-block store, of the body's value at the three input blocks. -/
def out36 (x0 : Vec F S16x64x256 .bf16) (x1 : Vec F S16x256x256 .f32) (x2 : Vec F S256x256 .f32) : Vec F S16x64x256 .f32 :=
  View.canon [⟨r36_o, k36_pay1 (View.ld x0 r36_0) (View.ld x1 r36_1) (View.ld x2 r36_2)⟩]

/-- That one store covers the block. -/
theorem cover36 (p0 : Vec F S16x64x256 .f32) (y : S16x64x256.Idx) :
    ∃ pc ∈ ([⟨r36_o, p0⟩] : List (View.Piece (Elt F) S16x64x256 .f32)), y ∈ pc.1.set :=
  View.cover_of_tiled [⟨r36_o, p0⟩] S16x64x256.size (by rfl) y

set_option maxHeartbeats 1000000 in
/-- The body on whole staging buffers: the three input buffers are read and left as found, and the output buffer,
    whatever it held, ends at the body's value. -/
theorem sound_kernel36 (c : Dev nD) (E : Set ℕ) (i : grid36.Coords)
    (arg1 : Memref sig .tc .vmem S16x64x256 .bf16) (harg1 : arg1.IsWhole) (arg2 : Memref sig .tc .vmem S16x256x256 .f32) (harg2 : arg2.IsWhole)
    (arg3 : Memref sig .tc .vmem S256x256 .f32) (harg3 : arg3.IsWhole) (arg4 : Memref sig .tc .vmem S16x64x256 .f32) (harg4 : arg4.IsWhole)
    (x0 : Vec F S16x64x256 .bf16) (x1 : Vec F S16x256x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out36 x0 x1 x2)) -∗ K ⟨⟩))
      ⊢ wp frame (wpE (defs₀ (F := F)) Variants.none c none) E (cc36__boundary_kernel i arg1 harg1 arg2 harg2 arg3 harg3 arg4 harg4) K := by
  simp only [cc36__boundary_kernel_eq_skeleton]; unfold cc36__boundary_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover36 _)

/-- The proof data: the arrays as the region finds them; after the body each input buffer still at its block and the
    output buffer at the body's value there; nothing owed, full shares, the scoped rest untouched. -/
def dat36 (c : Dev nD) : Dat τ (Elt F) Unit ℕ (UR sig nD τ) ℕ cfg36 c where
  A w := V c (Pipeline.arrRef spec36 w)
  after w t := match w with
    | ⟨0, _⟩ => iblk36 V c 0 t
    | ⟨1, _⟩ => iblk36 V c 1 t
    | ⟨2, _⟩ => iblk36 V c 2 t
    | ⟨3, _⟩ => out36 (iblk36 V c 0 t) (iblk36 V c 1 t) (iblk36 V c 2 t)
  Φ _ := Pipeline.ΦA spec36 c
  q _ := fullShare
  owed _ := 0

theorem A_eq36 (c : Dev nD) (w : Fin cfg36.W) : (dat36 V c).A w = V c (Pipeline.arrRef spec36 w) := by
  dsimp only [dat36]

theorem after36_0 (c : Dev nD) (t : Fin cfg36.N) : (dat36 V c).after 0 t = iblk36 V c 0 t := by dsimp only [dat36]
theorem after36_1 (c : Dev nD) (t : Fin cfg36.N) : (dat36 V c).after 1 t = iblk36 V c 1 t := by dsimp only [dat36]
theorem after36_2 (c : Dev nD) (t : Fin cfg36.N) : (dat36 V c).after 2 t = iblk36 V c 2 t := by dsimp only [dat36]
theorem after36_3 (c : Dev nD) (t : Fin cfg36.N) :
    (dat36 V c).after 3 t = out36 (iblk36 V c 0 t) (iblk36 V c 1 t) (iblk36 V c 2 t) := by dsimp only [dat36]

theorem before36_0 (c : Dev nD) (t : Fin cfg36.N) (d) : (dat36 V c).before 0 t d = iblk36 V c 0 t :=
  before36_0_of V (dat36 V c) (A_eq36 V c 0) (after36_0 V c) t d
theorem before36_1 (c : Dev nD) (t : Fin cfg36.N) (d) : (dat36 V c).before 1 t d = iblk36 V c 1 t :=
  before36_1_of V (dat36 V c) (A_eq36 V c 1) (after36_1 V c) t d
theorem before36_2 (c : Dev nD) (t : Fin cfg36.N) (d) : (dat36 V c).before 2 t d = iblk36 V c 2 t :=
  before36_2_of V (dat36 V c) (A_eq36 V c 2) (after36_2 V c) t d

/-- What the body is handed at point `t`, window by window, -/
def bodyPre36 (c : Dev nD) (t : Fin cfg36.N) : sProp 𝕄 :=
  iprop((dat36 V c).Φ t.castSucc ∗ (dat36 V c).owesAt () t.castSucc
    ∗ (∃ d, owns (c : Thread nD τ) (st36_0 t) fullShare ((dat36 V c).before 0 t d))
    ∗ (∃ d, owns (c : Thread nD τ) (st36_1 t) fullShare ((dat36 V c).before 1 t d))
    ∗ (∃ d, owns (c : Thread nD τ) (st36_2 t) fullShare ((dat36 V c).before 2 t d))
    ∗ (∃ d, owns (c : Thread nD τ) (st36_3 t) fullShare ((dat36 V c).before 3 t d)))

/-- and what it hands back. -/
def bodyPost36 (c : Dev nD) (t : Fin cfg36.N) : sProp 𝕄 :=
  iprop((dat36 V c).Φ t.succ ∗ (dat36 V c).owesAt () t.succ
    ∗ owns (c : Thread nD τ) (st36_0 t) fullShare ((dat36 V c).after 0 t)
    ∗ owns (c : Thread nD τ) (st36_1 t) fullShare ((dat36 V c).after 1 t)
    ∗ owns (c : Thread nD τ) (st36_2 t) fullShare ((dat36 V c).after 2 t)
    ∗ owns (c : Thread nD τ) (st36_3 t) fullShare ((dat36 V c).after 3 t))

theorem sound_body36 (c : Dev nD) (t : Fin cfg36.N) :
    bodyPre36 V c t ⊢ wp frame (wpE (defs₀ (F := F)) Variants.none c none) Set.univ (bodyAt36 t) (fun _ => bodyPost36 V c t) := by
  unfold bodyPre36 bodyPost36 bodyAt36
  simp only [before36_0, before36_1, before36_2]
  rw [show (dat36 V c).Φ t.succ = (dat36 V c).Φ t.castSucc from rfl,
    show (dat36 V c).owesAt () t.succ = (dat36 V c).owesAt () t.castSucc from rfl,
    after36_0, after36_1, after36_2, after36_3]
  iintro ⟨HΦ, Ho, ⟨%d0, H0⟩, ⟨%d1, H1⟩, ⟨%d2, H2⟩, ⟨%d3, H3⟩⟩
  iapply (sound_kernel36 c Set.univ _ _ _ _ _ _ _ _ _ (iblk36 V c 0 t) (iblk36 V c 1 t) (iblk36 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation36 (c : Dev nD) : BodyObligation (dat36 (F := F) V c) (defs₀ (F := F)) Variants.none () Set.univ := fun t => by
  rw [bigSep_W36, bigSep_W36]
  exact sound_body36 V c t

end Cert.Kernel.Reg

end
-- ==== Proof.K.Region37.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 37: four input windows, each block loaded whole; one output window, stored whole -/

/-- Window `w`'s block at grid point `t`, read off the array as the region finds it. -/
def iblk37 (c : Dev nD) (w : Fin cfg37.W) (t : Fin cfg37.N) : ((cfg37.win w).xblock (cfg37.grid.coords t)).Idx → Elt F (cfg37.win w).elt :=
  ((cfg37.win w).blk t).view.read (Elt F) (V c (Pipeline.arrRef spec37 w))

/-- Input window 0's staging buffer holds its block at every point, fetched there or kept from the point before. -/
theorem before37_0_of {c : Dev nD} (dat : Dat τ (Elt F) Unit ℕ (UR sig nD τ) ℕ cfg37 c) (hA : dat.A 0 = V c (Pipeline.arrRef spec37 0))
    (hafter : ∀ t, dat.after 0 t = iblk37 V c 0 t) (t : Fin cfg37.N) (d) : dat.before 0 t d = iblk37 V c 0 t :=
  (dat.before_in_eq_fetched 0 rfl (fun _ => rfl) (fun _ _ _ => rfl) (fun t => by rw [hafter]; unfold Dat.blockOf iblk37; rw [hA]; try rfl) t d).trans
    (by unfold Dat.fetched Dat.blockOf iblk37; rw [hA]; try rfl)

/-- Input window 1's staging buffer likewise (the weights: fetched once, then kept). -/
theorem before37_1_of {c : Dev nD} (dat : Dat τ (Elt F) Unit ℕ (UR sig nD τ) ℕ cfg37 c) (hA : dat.A 1 = V c (Pipeline.arrRef spec37 1))
    (hafter : ∀ t, dat.after 1 t = iblk37 V c 1 t) (t : Fin cfg37.N) (d) : dat.before 1 t d = iblk37 V c 1 t :=
  (dat.before_in_eq_fetched 1 rfl (fun _ => rfl) (fun _ _ _ => rfl) (fun t => by rw [hafter]; unfold Dat.blockOf iblk37; rw [hA]; try rfl) t d).trans
    (by unfold Dat.fetched Dat.blockOf iblk37; rw [hA]; try rfl)

/-- Input window 2's staging buffer likewise (the bias row: fetched once, then kept). -/
theorem before37_2_of {c : Dev nD} (dat : Dat τ (Elt F) Unit ℕ (UR sig nD τ) ℕ cfg37 c) (hA : dat.A 2 = V c (Pipeline.arrRef spec37 2))
    (hafter : ∀ t, dat.after 2 t = iblk37 V c 2 t) (t : Fin cfg37.N) (d) : dat.before 2 t d = iblk37 V c 2 t :=
  (dat.before_in_eq_fetched 2 rfl (fun _ => rfl) (fun _ _ _ => rfl) (fun t => by rw [hafter]; unfold Dat.blockOf iblk37; rw [hA]; try rfl) t d).trans
    (by unfold Dat.fetched Dat.blockOf iblk37; rw [hA]; try rfl)

/-- Input window 3's staging buffer likewise (the added term's row block). -/
theorem before37_3_of {c : Dev nD} (dat : Dat τ (Elt F) Unit ℕ (UR sig nD τ) ℕ cfg37 c) (hA : dat.A 3 = V c (Pipeline.arrRef spec37 3))
    (hafter : ∀ t, dat.after 3 t = iblk37 V c 3 t) (t : Fin cfg37.N) (d) : dat.before 3 t d = iblk37 V c 3 t :=
  (dat.before_in_eq_fetched 3 rfl (fun _ => rfl) (fun _ _ _ => rfl) (fun t => by rw [hafter]; unfold Dat.blockOf iblk37; rw [hA]; try rfl) t d).trans
    (by unfold Dat.fetched Dat.blockOf iblk37; rw [hA]; try rfl)

abbrev r37_0 : Rect S2048x256 := Rect.unit (s := S2048x256) ![0, 0] S2048x256.size inb_S2048x256_S2048x256_0_0
abbrev r37_1 : Rect S256x256 := Rect.unit (s := S256x256) ![0, 0] S256x256.size inb_S256x256_S256x256_0_0
abbrev r37_2 : Rect S1x256 := Rect.unit (s := S1x256) ![0, 0] S1x256.size inb_S1x256_S1x256_0_0
abbrev r37_3 : Rect S2048x256 := Rect.unit (s := S2048x256) ![0, 0] S2048x256.size inb_S2048x256_S2048x256_0_0
abbrev r37_o : Rect S2048x256 := Rect.unit (s := S2048x256) ![0, 0] S2048x256.size inb_S2048x256_S2048x256_0_0

/-- The output block after the body: its one whole-block store, of the body's value at the four input blocks. -/
def out37 (x0 : Vec F S2048x256 .f32) (x1 : Vec F S256x256 .f32) (x2 : Vec F S1x256 .f32) (x3 : Vec F S2048x256 .f32) : Vec F S2048x256 .f32 :=
  View.canon [⟨r37_o, k37_pay1 (View.ld x0 r37_0) (View.ld x1 r37_1) (View.ld x2 r37_2) (View.ld x3 r37_3)⟩]

/-- That one store covers the block. -/
theorem cover37 (p0 : Vec F S2048x256 .f32) (y : S2048x256.Idx) :
    ∃ pc ∈ ([⟨r37_o, p0⟩] : List (View.Piece (Elt F) S2048x256 .f32)), y ∈ pc.1.set :=
  View.cover_of_tiled [⟨r37_o, p0⟩] S2048x256.size (by rfl) y

set_option maxHeartbeats 1000000 in
/-- The body on whole staging buffers: the four input buffers are read and left as found, and the output buffer,
    whatever it held, ends at the body's value. -/
theorem sound_kernel37 (c : Dev nD) (E : Set ℕ) (i : grid37.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole)
    (x0 : Vec F S2048x256 .f32) (x1 : Vec F S256x256 .f32) (x2 : Vec F S1x256 .f32) (x3 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out37 x0 x1 x2 x3)) -∗ K ⟨⟩))
      ⊢ wp frame (wpE (defs₀ (F := F)) Variants.none c none) E (cc37__self_update_kernel i arg1 harg1 arg2 harg2 arg3 harg3 arg4 harg4 arg5 harg5) K := by
  simp only [cc37__self_update_kernel_eq_skeleton]; unfold cc37__self_update_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover37 _)

/-- The proof data: the arrays as the region finds them; after the body each input buffer still at its block and the
    output buffer at the body's value there; nothing owed, full shares, the scoped rest untouched. -/
def dat37 (c : Dev nD) : Dat τ (Elt F) Unit ℕ (UR sig nD τ) ℕ cfg37 c where
  A w := V c (Pipeline.arrRef spec37 w)
  after w t := match w with
    | ⟨0, _⟩ => iblk37 V c 0 t
    | ⟨1, _⟩ => iblk37 V c 1 t
    | ⟨2, _⟩ => iblk37 V c 2 t
    | ⟨3, _⟩ => iblk37 V c 3 t
    | ⟨4, _⟩ => out37 (iblk37 V c 0 t) (iblk37 V c 1 t) (iblk37 V c 2 t) (iblk37 V c 3 t)
  Φ _ := Pipeline.ΦA spec37 c
  q _ := fullShare
  owed _ := 0

theorem A_eq37 (c : Dev nD) (w : Fin cfg37.W) : (dat37 V c).A w = V c (Pipeline.arrRef spec37 w) := by
  dsimp only [dat37]

theorem after37_0 (c : Dev nD) (t : Fin cfg37.N) : (dat37 V c).after 0 t = iblk37 V c 0 t := by dsimp only [dat37]
theorem after37_1 (c : Dev nD) (t : Fin cfg37.N) : (dat37 V c).after 1 t = iblk37 V c 1 t := by dsimp only [dat37]
theorem after37_2 (c : Dev nD) (t : Fin cfg37.N) : (dat37 V c).after 2 t = iblk37 V c 2 t := by dsimp only [dat37]
theorem after37_3 (c : Dev nD) (t : Fin cfg37.N) : (dat37 V c).after 3 t = iblk37 V c 3 t := by dsimp only [dat37]
theorem after37_4 (c : Dev nD) (t : Fin cfg37.N) :
    (dat37 V c).after 4 t = out37 (iblk37 V c 0 t) (iblk37 V c 1 t) (iblk37 V c 2 t) (iblk37 V c 3 t) := by dsimp only [dat37]

theorem before37_0 (c : Dev nD) (t : Fin cfg37.N) (d) : (dat37 V c).before 0 t d = iblk37 V c 0 t :=
  before37_0_of V (dat37 V c) (A_eq37 V c 0) (after37_0 V c) t d
theorem before37_1 (c : Dev nD) (t : Fin cfg37.N) (d) : (dat37 V c).before 1 t d = iblk37 V c 1 t :=
  before37_1_of V (dat37 V c) (A_eq37 V c 1) (after37_1 V c) t d
theorem before37_2 (c : Dev nD) (t : Fin cfg37.N) (d) : (dat37 V c).before 2 t d = iblk37 V c 2 t :=
  before37_2_of V (dat37 V c) (A_eq37 V c 2) (after37_2 V c) t d
theorem before37_3 (c : Dev nD) (t : Fin cfg37.N) (d) : (dat37 V c).before 3 t d = iblk37 V c 3 t :=
  before37_3_of V (dat37 V c) (A_eq37 V c 3) (after37_3 V c) t d

/-- What the body is handed at point `t`, window by window, -/
def bodyPre37 (c : Dev nD) (t : Fin cfg37.N) : sProp 𝕄 :=
  iprop((dat37 V c).Φ t.castSucc ∗ (dat37 V c).owesAt () t.castSucc
    ∗ (∃ d, owns (c : Thread nD τ) (st37_0 t) fullShare ((dat37 V c).before 0 t d))
    ∗ (∃ d, owns (c : Thread nD τ) (st37_1 t) fullShare ((dat37 V c).before 1 t d))
    ∗ (∃ d, owns (c : Thread nD τ) (st37_2 t) fullShare ((dat37 V c).before 2 t d))
    ∗ (∃ d, owns (c : Thread nD τ) (st37_3 t) fullShare ((dat37 V c).before 3 t d))
    ∗ (∃ d, owns (c : Thread nD τ) (st37_4 t) fullShare ((dat37 V c).before 4 t d)))

/-- and what it hands back. -/
def bodyPost37 (c : Dev nD) (t : Fin cfg37.N) : sProp 𝕄 :=
  iprop((dat37 V c).Φ t.succ ∗ (dat37 V c).owesAt () t.succ
    ∗ owns (c : Thread nD τ) (st37_0 t) fullShare ((dat37 V c).after 0 t)
    ∗ owns (c : Thread nD τ) (st37_1 t) fullShare ((dat37 V c).after 1 t)
    ∗ owns (c : Thread nD τ) (st37_2 t) fullShare ((dat37 V c).after 2 t)
    ∗ owns (c : Thread nD τ) (st37_3 t) fullShare ((dat37 V c).after 3 t)
    ∗ owns (c : Thread nD τ) (st37_4 t) fullShare ((dat37 V c).after 4 t))

theorem sound_body37 (c : Dev nD) (t : Fin cfg37.N) :
    bodyPre37 V c t ⊢ wp frame (wpE (defs₀ (F := F)) Variants.none c none) Set.univ (bodyAt37 t) (fun _ => bodyPost37 V c t) := by
  unfold bodyPre37 bodyPost37 bodyAt37
  simp only [before37_0, before37_1, before37_2, before37_3]
  rw [show (dat37 V c).Φ t.succ = (dat37 V c).Φ t.castSucc from rfl,
    show (dat37 V c).owesAt () t.succ = (dat37 V c).owesAt () t.castSucc from rfl,
    after37_0, after37_1, after37_2, after37_3, after37_4]
  iintro ⟨HΦ, Ho, ⟨%d0, H0⟩, ⟨%d1, H1⟩, ⟨%d2, H2⟩, ⟨%d3, H3⟩, ⟨%d4, H4⟩⟩
  iapply (sound_kernel37 c Set.univ _ _ _ _ _ _ _ _ _ _ _ (iblk37 V c 0 t) (iblk37 V c 1 t) (iblk37 V c 2 t) (iblk37 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation37 (c : Dev nD) : BodyObligation (dat37 (F := F) V c) (defs₀ (F := F)) Variants.none () Set.univ := fun t => by
  rw [bigSep_W37, bigSep_W37]
  exact sound_body37 V c t

end Cert.Kernel.Reg

end
-- ==== Proof.K.Region38.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 38: five input windows, each block loaded whole; one output window, stored whole -/

/-- Window `w`'s block at grid point `t`, read off the array as the region finds it. -/
def iblk38 (c : Dev nD) (w : Fin cfg38.W) (t : Fin cfg38.N) : ((cfg38.win w).xblock (cfg38.grid.coords t)).Idx → Elt F (cfg38.win w).elt :=
  ((cfg38.win w).blk t).view.read (Elt F) (V c (Pipeline.arrRef spec38 w))

/-- Input window 0's staging buffer holds its block at every point, fetched there or kept from the point before. -/
theorem before38_0_of {c : Dev nD} (dat : Dat τ (Elt F) Unit ℕ (UR sig nD τ) ℕ cfg38 c) (hA : dat.A 0 = V c (Pipeline.arrRef spec38 0))
    (hafter : ∀ t, dat.after 0 t = iblk38 V c 0 t) (t : Fin cfg38.N) (d) : dat.before 0 t d = iblk38 V c 0 t :=
  (dat.before_in_eq_fetched 0 rfl (fun _ => rfl) (fun _ _ _ => rfl) (fun t => by rw [hafter]; unfold Dat.blockOf iblk38; rw [hA]; try rfl) t d).trans
    (by unfold Dat.fetched Dat.blockOf iblk38; rw [hA]; try rfl)

/-- Input window 1's staging buffer likewise. -/
theorem before38_1_of {c : Dev nD} (dat : Dat τ (Elt F) Unit ℕ (UR sig nD τ) ℕ cfg38 c) (hA : dat.A 1 = V c (Pipeline.arrRef spec38 1))
    (hafter : ∀ t, dat.after 1 t = iblk38 V c 1 t) (t : Fin cfg38.N) (d) : dat.before 1 t d = iblk38 V c 1 t :=
  (dat.before_in_eq_fetched 1 rfl (fun _ => rfl) (fun _ _ _ => rfl) (fun t => by rw [hafter]; unfold Dat.blockOf iblk38; rw [hA]; try rfl) t d).trans
    (by unfold Dat.fetched Dat.blockOf iblk38; rw [hA]; try rfl)

/-- Input window 2's staging buffer likewise. -/
theorem before38_2_of {c : Dev nD} (dat : Dat τ (Elt F) Unit ℕ (UR sig nD τ) ℕ cfg38 c) (hA : dat.A 2 = V c (Pipeline.arrRef spec38 2))
    (hafter : ∀ t, dat.after 2 t = iblk38 V c 2 t) (t : Fin cfg38.N) (d) : dat.before 2 t d = iblk38 V c 2 t :=
  (dat.before_in_eq_fetched 2 rfl (fun _ => rfl) (fun _ _ _ => rfl) (fun t => by rw [hafter]; unfold Dat.blockOf iblk38; rw [hA]; try rfl) t d).trans
    (by unfold Dat.fetched Dat.blockOf iblk38; rw [hA]; try rfl)

/-- Input window 3's staging buffer likewise. -/
theorem before38_3_of {c : Dev nD} (dat : Dat τ (Elt F) Unit ℕ (UR sig nD τ) ℕ cfg38 c) (hA : dat.A 3 = V c (Pipeline.arrRef spec38 3))
    (hafter : ∀ t, dat.after 3 t = iblk38 V c 3 t) (t : Fin cfg38.N) (d) : dat.before 3 t d = iblk38 V c 3 t :=
  (dat.before_in_eq_fetched 3 rfl (fun _ => rfl) (fun _ _ _ => rfl) (fun t => by rw [hafter]; unfold Dat.blockOf iblk38; rw [hA]; try rfl) t d).trans
    (by unfold Dat.fetched Dat.blockOf iblk38; rw [hA]; try rfl)

/-- Input window 4's staging buffer likewise. -/
theorem before38_4_of {c : Dev nD} (dat : Dat τ (Elt F) Unit ℕ (UR sig nD τ) ℕ cfg38 c) (hA : dat.A 4 = V c (Pipeline.arrRef spec38 4))
    (hafter : ∀ t, dat.after 4 t = iblk38 V c 4 t) (t : Fin cfg38.N) (d) : dat.before 4 t d = iblk38 V c 4 t :=
  (dat.before_in_eq_fetched 4 rfl (fun _ => rfl) (fun _ _ _ => rfl) (fun t => by rw [hafter]; unfold Dat.blockOf iblk38; rw [hA]; try rfl) t d).trans
    (by unfold Dat.fetched Dat.blockOf iblk38; rw [hA]; try rfl)

abbrev r38_0 : Rect S2048x256 := Rect.unit (s := S2048x256) ![0, 0] S2048x256.size inb_S2048x256_S2048x256_0_0
abbrev r38_1 : Rect S256x256 := Rect.unit (s := S256x256) ![0, 0] S256x256.size inb_S256x256_S256x256_0_0
abbrev r38_2 : Rect S1x256 := Rect.unit (s := S1x256) ![0, 0] S1x256.size inb_S1x256_S1x256_0_0
abbrev r38_3 : Rect S2048x256 := Rect.unit (s := S2048x256) ![0, 0] S2048x256.size inb_S2048x256_S2048x256_0_0
abbrev r38_4 : Rect S2048x256 := Rect.unit (s := S2048x256) ![0, 0] S2048x256.size inb_S2048x256_S2048x256_0_0
abbrev r38_o : Rect S2048x256 := Rect.unit (s := S2048x256) ![0, 0] S2048x256.size inb_S2048x256_S2048x256_0_0

/-- The output block after the body: its one whole-block store, of the body's value at the five input blocks. -/
def out38 (x0 : Vec F S2048x256 .f32) (x1 : Vec F S256x256 .f32) (x2 : Vec F S1x256 .f32) (x3 : Vec F S2048x256 .f32) (x4 : Vec F S2048x256 .f32) : Vec F S2048x256 .f32 :=
  View.canon [⟨r38_o, k38_pay1 (View.ld x0 r38_0) (View.ld x1 r38_1) (View.ld x2 r38_2) (View.ld x3 r38_3) (View.ld x4 r38_4)⟩]

/-- That one store covers the block. -/
theorem cover38 (p0 : Vec F S2048x256 .f32) (y : S2048x256.Idx) :
    ∃ pc ∈ ([⟨r38_o, p0⟩] : List (View.Piece (Elt F) S2048x256 .f32)), y ∈ pc.1.set :=
  View.cover_of_tiled [⟨r38_o, p0⟩] S2048x256.size (by rfl) y

set_option maxHeartbeats 1000000 in
/-- The body on whole staging buffers: the five input buffers are read and left as found, and the output buffer,
    whatever it held, ends at the body's value. -/
theorem sound_kernel38 (c : Dev nD) (E : Set ℕ) (i : grid38.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole) (arg6 : Memref sig .tc .vmem S2048x256 .f32) (harg6 : arg6.IsWhole)
    (x0 : Vec F S2048x256 .f32) (x1 : Vec F S256x256 .f32) (x2 : Vec F S1x256 .f32) (x3 : Vec F S2048x256 .f32) (x4 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out38 x0 x1 x2 x3 x4)) -∗ K ⟨⟩))
      ⊢ wp frame (wpE (defs₀ (F := F)) Variants.none c none) E (cc38__self_update2_kernel i arg1 harg1 arg2 harg2 arg3 harg3 arg4 harg4 arg5 harg5 arg6 harg6) K := by
  simp only [cc38__self_update2_kernel_eq_skeleton]; unfold cc38__self_update2_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover38 _)

/-- The proof data: the arrays as the region finds them; after the body each input buffer still at its block and the
    output buffer at the body's value there; nothing owed, full shares, the scoped rest untouched. -/
def dat38 (c : Dev nD) : Dat τ (Elt F) Unit ℕ (UR sig nD τ) ℕ cfg38 c where
  A w := V c (Pipeline.arrRef spec38 w)
  after w t := match w with
    | ⟨0, _⟩ => iblk38 V c 0 t
    | ⟨1, _⟩ => iblk38 V c 1 t
    | ⟨2, _⟩ => iblk38 V c 2 t
    | ⟨3, _⟩ => iblk38 V c 3 t
    | ⟨4, _⟩ => iblk38 V c 4 t
    | ⟨5, _⟩ => out38 (iblk38 V c 0 t) (iblk38 V c 1 t) (iblk38 V c 2 t) (iblk38 V c 3 t) (iblk38 V c 4 t)
  Φ _ := Pipeline.ΦA spec38 c
  q _ := fullShare
  owed _ := 0

theorem A_eq38 (c : Dev nD) (w : Fin cfg38.W) : (dat38 V c).A w = V c (Pipeline.arrRef spec38 w) := by
  dsimp only [dat38]

theorem after38_0 (c : Dev nD) (t : Fin cfg38.N) : (dat38 V c).after 0 t = iblk38 V c 0 t := by dsimp only [dat38]
theorem after38_1 (c : Dev nD) (t : Fin cfg38.N) : (dat38 V c).after 1 t = iblk38 V c 1 t := by dsimp only [dat38]
theorem after38_2 (c : Dev nD) (t : Fin cfg38.N) : (dat38 V c).after 2 t = iblk38 V c 2 t := by dsimp only [dat38]
theorem after38_3 (c : Dev nD) (t : Fin cfg38.N) : (dat38 V c).after 3 t = iblk38 V c 3 t := by dsimp only [dat38]
theorem after38_4 (c : Dev nD) (t : Fin cfg38.N) : (dat38 V c).after 4 t = iblk38 V c 4 t := by dsimp only [dat38]
theorem after38_5 (c : Dev nD) (t : Fin cfg38.N) :
    (dat38 V c).after 5 t = out38 (iblk38 V c 0 t) (iblk38 V c 1 t) (iblk38 V c 2 t) (iblk38 V c 3 t) (iblk38 V c 4 t) := by dsimp only [dat38]

theorem before38_0 (c : Dev nD) (t : Fin cfg38.N) (d) : (dat38 V c).before 0 t d = iblk38 V c 0 t :=
  before38_0_of V (dat38 V c) (A_eq38 V c 0) (after38_0 V c) t d
theorem before38_1 (c : Dev nD) (t : Fin cfg38.N) (d) : (dat38 V c).before 1 t d = iblk38 V c 1 t :=
  before38_1_of V (dat38 V c) (A_eq38 V c 1) (after38_1 V c) t d
theorem before38_2 (c : Dev nD) (t : Fin cfg38.N) (d) : (dat38 V c).before 2 t d = iblk38 V c 2 t :=
  before38_2_of V (dat38 V c) (A_eq38 V c 2) (after38_2 V c) t d
theorem before38_3 (c : Dev nD) (t : Fin cfg38.N) (d) : (dat38 V c).before 3 t d = iblk38 V c 3 t :=
  before38_3_of V (dat38 V c) (A_eq38 V c 3) (after38_3 V c) t d
theorem before38_4 (c : Dev nD) (t : Fin cfg38.N) (d) : (dat38 V c).before 4 t d = iblk38 V c 4 t :=
  before38_4_of V (dat38 V c) (A_eq38 V c 4) (after38_4 V c) t d

/-- What the body is handed at point `t`, window by window, -/
def bodyPre38 (c : Dev nD) (t : Fin cfg38.N) : sProp 𝕄 :=
  iprop((dat38 V c).Φ t.castSucc ∗ (dat38 V c).owesAt () t.castSucc
    ∗ (∃ d, owns (c : Thread nD τ) (st38_0 t) fullShare ((dat38 V c).before 0 t d))
    ∗ (∃ d, owns (c : Thread nD τ) (st38_1 t) fullShare ((dat38 V c).before 1 t d))
    ∗ (∃ d, owns (c : Thread nD τ) (st38_2 t) fullShare ((dat38 V c).before 2 t d))
    ∗ (∃ d, owns (c : Thread nD τ) (st38_3 t) fullShare ((dat38 V c).before 3 t d))
    ∗ (∃ d, owns (c : Thread nD τ) (st38_4 t) fullShare ((dat38 V c).before 4 t d))
    ∗ (∃ d, owns (c : Thread nD τ) (st38_5 t) fullShare ((dat38 V c).before 5 t d)))

/-- and what it hands back. -/
def bodyPost38 (c : Dev nD) (t : Fin cfg38.N) : sProp 𝕄 :=
  iprop((dat38 V c).Φ t.succ ∗ (dat38 V c).owesAt () t.succ
    ∗ owns (c : Thread nD τ) (st38_0 t) fullShare ((dat38 V c).after 0 t)
    ∗ owns (c : Thread nD τ) (st38_1 t) fullShare ((dat38 V c).after 1 t)
    ∗ owns (c : Thread nD τ) (st38_2 t) fullShare ((dat38 V c).after 2 t)
    ∗ owns (c : Thread nD τ) (st38_3 t) fullShare ((dat38 V c).after 3 t)
    ∗ owns (c : Thread nD τ) (st38_4 t) fullShare ((dat38 V c).after 4 t)
    ∗ owns (c : Thread nD τ) (st38_5 t) fullShare ((dat38 V c).after 5 t))

theorem sound_body38 (c : Dev nD) (t : Fin cfg38.N) :
    bodyPre38 V c t ⊢ wp frame (wpE (defs₀ (F := F)) Variants.none c none) Set.univ (bodyAt38 t) (fun _ => bodyPost38 V c t) := by
  unfold bodyPre38 bodyPost38 bodyAt38
  simp only [before38_0, before38_1, before38_2, before38_3, before38_4]
  rw [show (dat38 V c).Φ t.succ = (dat38 V c).Φ t.castSucc from rfl,
    show (dat38 V c).owesAt () t.succ = (dat38 V c).owesAt () t.castSucc from rfl,
    after38_0, after38_1, after38_2, after38_3, after38_4, after38_5]
  iintro ⟨HΦ, Ho, ⟨%d0, H0⟩, ⟨%d1, H1⟩, ⟨%d2, H2⟩, ⟨%d3, H3⟩, ⟨%d4, H4⟩, ⟨%d5, H5⟩⟩
  iapply (sound_kernel38 c Set.univ _ _ _ _ _ _ _ _ _ _ _ _ _ (iblk38 V c 0 t) (iblk38 V c 1 t) (iblk38 V c 2 t) (iblk38 V c 3 t) (iblk38 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation38 (c : Dev nD) : BodyObligation (dat38 (F := F) V c) (defs₀ (F := F)) Variants.none () Set.univ := fun t => by
  rw [bigSep_W38, bigSep_W38]
  exact sound_body38 V c t

end Cert.Kernel.Reg

end
-- ==== Proof.K.Region39.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 39: four input windows, each block loaded whole; one output window, stored whole -/

/-- Window `w`'s block at grid point `t`, read off the array as the region finds it. -/
def iblk39 (c : Dev nD) (w : Fin cfg39.W) (t : Fin cfg39.N) : ((cfg39.win w).xblock (cfg39.grid.coords t)).Idx → Elt F (cfg39.win w).elt :=
  ((cfg39.win w).blk t).view.read (Elt F) (V c (Pipeline.arrRef spec39 w))

/-- Input window 0's staging buffer holds its block at every point, fetched there or kept from the point before. -/
theorem before39_0_of {c : Dev nD} (dat : Dat τ (Elt F) Unit ℕ (UR sig nD τ) ℕ cfg39 c) (hA : dat.A 0 = V c (Pipeline.arrRef spec39 0))
    (hafter : ∀ t, dat.after 0 t = iblk39 V c 0 t) (t : Fin cfg39.N) (d) : dat.before 0 t d = iblk39 V c 0 t :=
  (dat.before_in_eq_fetched 0 rfl (fun _ => rfl) (fun _ _ _ => rfl) (fun t => by rw [hafter]; unfold Dat.blockOf iblk39; rw [hA]; try rfl) t d).trans
    (by unfold Dat.fetched Dat.blockOf iblk39; rw [hA]; try rfl)

/-- Input window 1's staging buffer likewise (the weights: fetched once, then kept). -/
theorem before39_1_of {c : Dev nD} (dat : Dat τ (Elt F) Unit ℕ (UR sig nD τ) ℕ cfg39 c) (hA : dat.A 1 = V c (Pipeline.arrRef spec39 1))
    (hafter : ∀ t, dat.after 1 t = iblk39 V c 1 t) (t : Fin cfg39.N) (d) : dat.before 1 t d = iblk39 V c 1 t :=
  (dat.before_in_eq_fetched 1 rfl (fun _ => rfl) (fun _ _ _ => rfl) (fun t => by rw [hafter]; unfold Dat.blockOf iblk39; rw [hA]; try rfl) t d).trans
    (by unfold Dat.fetched Dat.blockOf iblk39; rw [hA]; try rfl)

/-- Input window 2's staging buffer likewise (the bias row: fetched once, then kept). -/
theorem before39_2_of {c : Dev nD} (dat : Dat τ (Elt F) Unit ℕ (UR sig nD τ) ℕ cfg39 c) (hA : dat.A 2 = V c (Pipeline.arrRef spec39 2))
    (hafter : ∀ t, dat.after 2 t = iblk39 V c 2 t) (t : Fin cfg39.N) (d) : dat.before 2 t d = iblk39 V c 2 t :=
  (dat.before_in_eq_fetched 2 rfl (fun _ => rfl) (fun _ _ _ => rfl) (fun t => by rw [hafter]; unfold Dat.blockOf iblk39; rw [hA]; try rfl) t d).trans
    (by unfold Dat.fetched Dat.blockOf iblk39; rw [hA]; try rfl)

/-- Input window 3's staging buffer likewise (the added term's row block). -/
theorem before39_3_of {c : Dev nD} (dat : Dat τ (Elt F) Unit ℕ (UR sig nD τ) ℕ cfg39 c) (hA : dat.A 3 = V c (Pipeline.arrRef spec39 3))
    (hafter : ∀ t, dat.after 3 t = iblk39 V c 3 t) (t : Fin cfg39.N) (d) : dat.before 3 t d = iblk39 V c 3 t :=
  (dat.before_in_eq_fetched 3 rfl (fun _ => rfl) (fun _ _ _ => rfl) (fun t => by rw [hafter]; unfold Dat.blockOf iblk39; rw [hA]; try rfl) t d).trans
    (by unfold Dat.fetched Dat.blockOf iblk39; rw [hA]; try rfl)

abbrev r39_0 : Rect S2048x256 := Rect.unit (s := S2048x256) ![0, 0] S2048x256.size inb_S2048x256_S2048x256_0_0
abbrev r39_1 : Rect S256x256 := Rect.unit (s := S256x256) ![0, 0] S256x256.size inb_S256x256_S256x256_0_0
abbrev r39_2 : Rect S1x256 := Rect.unit (s := S1x256) ![0, 0] S1x256.size inb_S1x256_S1x256_0_0
abbrev r39_3 : Rect S2048x256 := Rect.unit (s := S2048x256) ![0, 0] S2048x256.size inb_S2048x256_S2048x256_0_0
abbrev r39_o : Rect S2048x256 := Rect.unit (s := S2048x256) ![0, 0] S2048x256.size inb_S2048x256_S2048x256_0_0

/-- The output block after the body: its one whole-block store, of the body's value at the four input blocks. -/
def out39 (x0 : Vec F S2048x256 .f32) (x1 : Vec F S256x256 .f32) (x2 : Vec F S1x256 .f32) (x3 : Vec F S2048x256 .f32) : Vec F S2048x256 .f32 :=
  View.canon [⟨r39_o, k39_pay1 (View.ld x0 r39_0) (View.ld x1 r39_1) (View.ld x2 r39_2) (View.ld x3 r39_3)⟩]

/-- That one store covers the block. -/
theorem cover39 (p0 : Vec F S2048x256 .f32) (y : S2048x256.Idx) :
    ∃ pc ∈ ([⟨r39_o, p0⟩] : List (View.Piece (Elt F) S2048x256 .f32)), y ∈ pc.1.set :=
  View.cover_of_tiled [⟨r39_o, p0⟩] S2048x256.size (by rfl) y

set_option maxHeartbeats 1000000 in
/-- The body on whole staging buffers: the four input buffers are read and left as found, and the output buffer,
    whatever it held, ends at the body's value. -/
theorem sound_kernel39 (c : Dev nD) (E : Set ℕ) (i : grid39.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole)
    (x0 : Vec F S2048x256 .f32) (x1 : Vec F S256x256 .f32) (x2 : Vec F S1x256 .f32) (x3 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out39 x0 x1 x2 x3)) -∗ K ⟨⟩))
      ⊢ wp frame (wpE (defs₀ (F := F)) Variants.none c none) E (cc39__self_update_kernel i arg1 harg1 arg2 harg2 arg3 harg3 arg4 harg4 arg5 harg5) K := by
  simp only [cc39__self_update_kernel_eq_skeleton]; unfold cc39__self_update_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover39 _)

/-- The proof data: the arrays as the region finds them; after the body each input buffer still at its block and the
    output buffer at the body's value there; nothing owed, full shares, the scoped rest untouched. -/
def dat39 (c : Dev nD) : Dat τ (Elt F) Unit ℕ (UR sig nD τ) ℕ cfg39 c where
  A w := V c (Pipeline.arrRef spec39 w)
  after w t := match w with
    | ⟨0, _⟩ => iblk39 V c 0 t
    | ⟨1, _⟩ => iblk39 V c 1 t
    | ⟨2, _⟩ => iblk39 V c 2 t
    | ⟨3, _⟩ => iblk39 V c 3 t
    | ⟨4, _⟩ => out39 (iblk39 V c 0 t) (iblk39 V c 1 t) (iblk39 V c 2 t) (iblk39 V c 3 t)
  Φ _ := Pipeline.ΦA spec39 c
  q _ := fullShare
  owed _ := 0

theorem A_eq39 (c : Dev nD) (w : Fin cfg39.W) : (dat39 V c).A w = V c (Pipeline.arrRef spec39 w) := by
  dsimp only [dat39]

theorem after39_0 (c : Dev nD) (t : Fin cfg39.N) : (dat39 V c).after 0 t = iblk39 V c 0 t := by dsimp only [dat39]
theorem after39_1 (c : Dev nD) (t : Fin cfg39.N) : (dat39 V c).after 1 t = iblk39 V c 1 t := by dsimp only [dat39]
theorem after39_2 (c : Dev nD) (t : Fin cfg39.N) : (dat39 V c).after 2 t = iblk39 V c 2 t := by dsimp only [dat39]
theorem after39_3 (c : Dev nD) (t : Fin cfg39.N) : (dat39 V c).after 3 t = iblk39 V c 3 t := by dsimp only [dat39]
theorem after39_4 (c : Dev nD) (t : Fin cfg39.N) :
    (dat39 V c).after 4 t = out39 (iblk39 V c 0 t) (iblk39 V c 1 t) (iblk39 V c 2 t) (iblk39 V c 3 t) := by dsimp only [dat39]

theorem before39_0 (c : Dev nD) (t : Fin cfg39.N) (d) : (dat39 V c).before 0 t d = iblk39 V c 0 t :=
  before39_0_of V (dat39 V c) (A_eq39 V c 0) (after39_0 V c) t d
theorem before39_1 (c : Dev nD) (t : Fin cfg39.N) (d) : (dat39 V c).before 1 t d = iblk39 V c 1 t :=
  before39_1_of V (dat39 V c) (A_eq39 V c 1) (after39_1 V c) t d
theorem before39_2 (c : Dev nD) (t : Fin cfg39.N) (d) : (dat39 V c).before 2 t d = iblk39 V c 2 t :=
  before39_2_of V (dat39 V c) (A_eq39 V c 2) (after39_2 V c) t d
theorem before39_3 (c : Dev nD) (t : Fin cfg39.N) (d) : (dat39 V c).before 3 t d = iblk39 V c 3 t :=
  before39_3_of V (dat39 V c) (A_eq39 V c 3) (after39_3 V c) t d

/-- What the body is handed at point `t`, window by window, -/
def bodyPre39 (c : Dev nD) (t : Fin cfg39.N) : sProp 𝕄 :=
  iprop((dat39 V c).Φ t.castSucc ∗ (dat39 V c).owesAt () t.castSucc
    ∗ (∃ d, owns (c : Thread nD τ) (st39_0 t) fullShare ((dat39 V c).before 0 t d))
    ∗ (∃ d, owns (c : Thread nD τ) (st39_1 t) fullShare ((dat39 V c).before 1 t d))
    ∗ (∃ d, owns (c : Thread nD τ) (st39_2 t) fullShare ((dat39 V c).before 2 t d))
    ∗ (∃ d, owns (c : Thread nD τ) (st39_3 t) fullShare ((dat39 V c).before 3 t d))
    ∗ (∃ d, owns (c : Thread nD τ) (st39_4 t) fullShare ((dat39 V c).before 4 t d)))

/-- and what it hands back. -/
def bodyPost39 (c : Dev nD) (t : Fin cfg39.N) : sProp 𝕄 :=
  iprop((dat39 V c).Φ t.succ ∗ (dat39 V c).owesAt () t.succ
    ∗ owns (c : Thread nD τ) (st39_0 t) fullShare ((dat39 V c).after 0 t)
    ∗ owns (c : Thread nD τ) (st39_1 t) fullShare ((dat39 V c).after 1 t)
    ∗ owns (c : Thread nD τ) (st39_2 t) fullShare ((dat39 V c).after 2 t)
    ∗ owns (c : Thread nD τ) (st39_3 t) fullShare ((dat39 V c).after 3 t)
    ∗ owns (c : Thread nD τ) (st39_4 t) fullShare ((dat39 V c).after 4 t))

theorem sound_body39 (c : Dev nD) (t : Fin cfg39.N) :
    bodyPre39 V c t ⊢ wp frame (wpE (defs₀ (F := F)) Variants.none c none) Set.univ (bodyAt39 t) (fun _ => bodyPost39 V c t) := by
  unfold bodyPre39 bodyPost39 bodyAt39
  simp only [before39_0, before39_1, before39_2, before39_3]
  rw [show (dat39 V c).Φ t.succ = (dat39 V c).Φ t.castSucc from rfl,
    show (dat39 V c).owesAt () t.succ = (dat39 V c).owesAt () t.castSucc from rfl,
    after39_0, after39_1, after39_2, after39_3, after39_4]
  iintro ⟨HΦ, Ho, ⟨%d0, H0⟩, ⟨%d1, H1⟩, ⟨%d2, H2⟩, ⟨%d3, H3⟩, ⟨%d4, H4⟩⟩
  iapply (sound_kernel39 c Set.univ _ _ _ _ _ _ _ _ _ _ _ (iblk39 V c 0 t) (iblk39 V c 1 t) (iblk39 V c 2 t) (iblk39 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation39 (c : Dev nD) : BodyObligation (dat39 (F := F) V c) (defs₀ (F := F)) Variants.none () Set.univ := fun t => by
  rw [bigSep_W39, bigSep_W39]
  exact sound_body39 V c t

end Cert.Kernel.Reg

end
-- ==== Proof.K.Region40.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 40: five input windows, each block loaded whole; one output window, stored whole -/

/-- Window `w`'s block at grid point `t`, read off the array as the region finds it. -/
def iblk40 (c : Dev nD) (w : Fin cfg40.W) (t : Fin cfg40.N) : ((cfg40.win w).xblock (cfg40.grid.coords t)).Idx → Elt F (cfg40.win w).elt :=
  ((cfg40.win w).blk t).view.read (Elt F) (V c (Pipeline.arrRef spec40 w))

/-- Input window 0's staging buffer holds its block at every point, fetched there or kept from the point before. -/
theorem before40_0_of {c : Dev nD} (dat : Dat τ (Elt F) Unit ℕ (UR sig nD τ) ℕ cfg40 c) (hA : dat.A 0 = V c (Pipeline.arrRef spec40 0))
    (hafter : ∀ t, dat.after 0 t = iblk40 V c 0 t) (t : Fin cfg40.N) (d) : dat.before 0 t d = iblk40 V c 0 t :=
  (dat.before_in_eq_fetched 0 rfl (fun _ => rfl) (fun _ _ _ => rfl) (fun t => by rw [hafter]; unfold Dat.blockOf iblk40; rw [hA]; try rfl) t d).trans
    (by unfold Dat.fetched Dat.blockOf iblk40; rw [hA]; try rfl)

/-- Input window 1's staging buffer likewise. -/
theorem before40_1_of {c : Dev nD} (dat : Dat τ (Elt F) Unit ℕ (UR sig nD τ) ℕ cfg40 c) (hA : dat.A 1 = V c (Pipeline.arrRef spec40 1))
    (hafter : ∀ t, dat.after 1 t = iblk40 V c 1 t) (t : Fin cfg40.N) (d) : dat.before 1 t d = iblk40 V c 1 t :=
  (dat.before_in_eq_fetched 1 rfl (fun _ => rfl) (fun _ _ _ => rfl) (fun t => by rw [hafter]; unfold Dat.blockOf iblk40; rw [hA]; try rfl) t d).trans
    (by unfold Dat.fetched Dat.blockOf iblk40; rw [hA]; try rfl)

/-- Input window 2's staging buffer likewise. -/
theorem before40_2_of {c : Dev nD} (dat : Dat τ (Elt F) Unit ℕ (UR sig nD τ) ℕ cfg40 c) (hA : dat.A 2 = V c (Pipeline.arrRef spec40 2))
    (hafter : ∀ t, dat.after 2 t = iblk40 V c 2 t) (t : Fin cfg40.N) (d) : dat.before 2 t d = iblk40 V c 2 t :=
  (dat.before_in_eq_fetched 2 rfl (fun _ => rfl) (fun _ _ _ => rfl) (fun t => by rw [hafter]; unfold Dat.blockOf iblk40; rw [hA]; try rfl) t d).trans
    (by unfold Dat.fetched Dat.blockOf iblk40; rw [hA]; try rfl)

/-- Input window 3's staging buffer likewise. -/
theorem before40_3_of {c : Dev nD} (dat : Dat τ (Elt F) Unit ℕ (UR sig nD τ) ℕ cfg40 c) (hA : dat.A 3 = V c (Pipeline.arrRef spec40 3))
    (hafter : ∀ t, dat.after 3 t = iblk40 V c 3 t) (t : Fin cfg40.N) (d) : dat.before 3 t d = iblk40 V c 3 t :=
  (dat.before_in_eq_fetched 3 rfl (fun _ => rfl) (fun _ _ _ => rfl) (fun t => by rw [hafter]; unfold Dat.blockOf iblk40; rw [hA]; try rfl) t d).trans
    (by unfold Dat.fetched Dat.blockOf iblk40; rw [hA]; try rfl)

/-- Input window 4's staging buffer likewise. -/
theorem before40_4_of {c : Dev nD} (dat : Dat τ (Elt F) Unit ℕ (UR sig nD τ) ℕ cfg40 c) (hA : dat.A 4 = V c (Pipeline.arrRef spec40 4))
    (hafter : ∀ t, dat.after 4 t = iblk40 V c 4 t) (t : Fin cfg40.N) (d) : dat.before 4 t d = iblk40 V c 4 t :=
  (dat.before_in_eq_fetched 4 rfl (fun _ => rfl) (fun _ _ _ => rfl) (fun t => by rw [hafter]; unfold Dat.blockOf iblk40; rw [hA]; try rfl) t d).trans
    (by unfold Dat.fetched Dat.blockOf iblk40; rw [hA]; try rfl)

abbrev r40_0 : Rect S8x128x256 := Rect.unit (s := S8x128x256) ![0, 0, 0] S8x128x256.size inb_S8x128x256_S8x128x256_0_0_0
abbrev r40_1 : Rect S8x128x256 := Rect.unit (s := S8x128x256) ![0, 0, 0] S8x128x256.size inb_S8x128x256_S8x128x256_0_0_0
abbrev r40_2 : Rect S256x256 := Rect.unit (s := S256x256) ![0, 0] S256x256.size inb_S256x256_S256x256_0_0
abbrev r40_3 : Rect S256x256 := Rect.unit (s := S256x256) ![0, 0] S256x256.size inb_S256x256_S256x256_0_0
abbrev r40_4 : Rect S1x256 := Rect.unit (s := S1x256) ![0, 0] S1x256.size inb_S1x256_S1x256_0_0
abbrev r40_o : Rect S8x256 := Rect.unit (s := S8x256) ![0, 0] S8x256.size inb_S8x256_S8x256_0_0

/-- The output block after the body: its one whole-block store, of the body's value at the five input blocks. -/
def out40 (x0 : Vec F S8x128x256 .f32) (x1 : Vec F S8x128x256 .f32) (x2 : Vec F S256x256 .f32) (x3 : Vec F S256x256 .f32) (x4 : Vec F S1x256 .f32) : Vec F S8x256 .f32 :=
  View.canon [⟨r40_o, k40_pay1 (View.ld x0 r40_0) (View.ld x1 r40_1) (View.ld x2 r40_2) (View.ld x3 r40_3) (View.ld x4 r40_4)⟩]

/-- That one store covers the block. -/
theorem cover40 (p0 : Vec F S8x256 .f32) (y : S8x256.Idx) :
    ∃ pc ∈ ([⟨r40_o, p0⟩] : List (View.Piece (Elt F) S8x256 .f32)), y ∈ pc.1.set :=
  View.cover_of_tiled [⟨r40_o, p0⟩] S8x256.size (by rfl) y

set_option maxHeartbeats 1000000 in
/-- The body on whole staging buffers: the five input buffers are read and left as found, and the output buffer,
    whatever it held, ends at the body's value. -/
theorem sound_kernel40 (c : Dev nD) (E : Set ℕ) (i : grid40.Coords)
    (arg1 : Memref sig .tc .vmem S8x128x256 .f32) (harg1 : arg1.IsWhole) (arg2 : Memref sig .tc .vmem S8x128x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S8x256 .f32) (harg6 : arg6.IsWhole)
    (x0 : Vec F S8x128x256 .f32) (x1 : Vec F S8x128x256 .f32) (x2 : Vec F S256x256 .f32) (x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out40 x0 x1 x2 x3 x4)) -∗ K ⟨⟩))
      ⊢ wp frame (wpE (defs₀ (F := F)) Variants.none c none) E (cc40__pool_kernel i arg1 harg1 arg2 harg2 arg3 harg3 arg4 harg4 arg5 harg5 arg6 harg6) K := by
  simp only [cc40__pool_kernel_eq_skeleton]; unfold cc40__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover40 _)

/-- The proof data: the arrays as the region finds them; after the body each input buffer still at its block and the
    output buffer at the body's value there; nothing owed, full shares, the scoped rest untouched. -/
def dat40 (c : Dev nD) : Dat τ (Elt F) Unit ℕ (UR sig nD τ) ℕ cfg40 c where
  A w := V c (Pipeline.arrRef spec40 w)
  after w t := match w with
    | ⟨0, _⟩ => iblk40 V c 0 t
    | ⟨1, _⟩ => iblk40 V c 1 t
    | ⟨2, _⟩ => iblk40 V c 2 t
    | ⟨3, _⟩ => iblk40 V c 3 t
    | ⟨4, _⟩ => iblk40 V c 4 t
    | ⟨5, _⟩ => out40 (iblk40 V c 0 t) (iblk40 V c 1 t) (iblk40 V c 2 t) (iblk40 V c 3 t) (iblk40 V c 4 t)
  Φ _ := Pipeline.ΦA spec40 c
  q _ := fullShare
  owed _ := 0

theorem A_eq40 (c : Dev nD) (w : Fin cfg40.W) : (dat40 V c).A w = V c (Pipeline.arrRef spec40 w) := by
  dsimp only [dat40]

theorem after40_0 (c : Dev nD) (t : Fin cfg40.N) : (dat40 V c).after 0 t = iblk40 V c 0 t := by dsimp only [dat40]
theorem after40_1 (c : Dev nD) (t : Fin cfg40.N) : (dat40 V c).after 1 t = iblk40 V c 1 t := by dsimp only [dat40]
theorem after40_2 (c : Dev nD) (t : Fin cfg40.N) : (dat40 V c).after 2 t = iblk40 V c 2 t := by dsimp only [dat40]
theorem after40_3 (c : Dev nD) (t : Fin cfg40.N) : (dat40 V c).after 3 t = iblk40 V c 3 t := by dsimp only [dat40]
theorem after40_4 (c : Dev nD) (t : Fin cfg40.N) : (dat40 V c).after 4 t = iblk40 V c 4 t := by dsimp only [dat40]
theorem after40_5 (c : Dev nD) (t : Fin cfg40.N) :
    (dat40 V c).after 5 t = out40 (iblk40 V c 0 t) (iblk40 V c 1 t) (iblk40 V c 2 t) (iblk40 V c 3 t) (iblk40 V c 4 t) := by dsimp only [dat40]

theorem before40_0 (c : Dev nD) (t : Fin cfg40.N) (d) : (dat40 V c).before 0 t d = iblk40 V c 0 t :=
  before40_0_of V (dat40 V c) (A_eq40 V c 0) (after40_0 V c) t d
theorem before40_1 (c : Dev nD) (t : Fin cfg40.N) (d) : (dat40 V c).before 1 t d = iblk40 V c 1 t :=
  before40_1_of V (dat40 V c) (A_eq40 V c 1) (after40_1 V c) t d
theorem before40_2 (c : Dev nD) (t : Fin cfg40.N) (d) : (dat40 V c).before 2 t d = iblk40 V c 2 t :=
  before40_2_of V (dat40 V c) (A_eq40 V c 2) (after40_2 V c) t d
theorem before40_3 (c : Dev nD) (t : Fin cfg40.N) (d) : (dat40 V c).before 3 t d = iblk40 V c 3 t :=
  before40_3_of V (dat40 V c) (A_eq40 V c 3) (after40_3 V c) t d
theorem before40_4 (c : Dev nD) (t : Fin cfg40.N) (d) : (dat40 V c).before 4 t d = iblk40 V c 4 t :=
  before40_4_of V (dat40 V c) (A_eq40 V c 4) (after40_4 V c) t d

/-- What the body is handed at point `t`, window by window, -/
def bodyPre40 (c : Dev nD) (t : Fin cfg40.N) : sProp 𝕄 :=
  iprop((dat40 V c).Φ t.castSucc ∗ (dat40 V c).owesAt () t.castSucc
    ∗ (∃ d, owns (c : Thread nD τ) (st40_0 t) fullShare ((dat40 V c).before 0 t d))
    ∗ (∃ d, owns (c : Thread nD τ) (st40_1 t) fullShare ((dat40 V c).before 1 t d))
    ∗ (∃ d, owns (c : Thread nD τ) (st40_2 t) fullShare ((dat40 V c).before 2 t d))
    ∗ (∃ d, owns (c : Thread nD τ) (st40_3 t) fullShare ((dat40 V c).before 3 t d))
    ∗ (∃ d, owns (c : Thread nD τ) (st40_4 t) fullShare ((dat40 V c).before 4 t d))
    ∗ (∃ d, owns (c : Thread nD τ) (st40_5 t) fullShare ((dat40 V c).before 5 t d)))

/-- and what it hands back. -/
def bodyPost40 (c : Dev nD) (t : Fin cfg40.N) : sProp 𝕄 :=
  iprop((dat40 V c).Φ t.succ ∗ (dat40 V c).owesAt () t.succ
    ∗ owns (c : Thread nD τ) (st40_0 t) fullShare ((dat40 V c).after 0 t)
    ∗ owns (c : Thread nD τ) (st40_1 t) fullShare ((dat40 V c).after 1 t)
    ∗ owns (c : Thread nD τ) (st40_2 t) fullShare ((dat40 V c).after 2 t)
    ∗ owns (c : Thread nD τ) (st40_3 t) fullShare ((dat40 V c).after 3 t)
    ∗ owns (c : Thread nD τ) (st40_4 t) fullShare ((dat40 V c).after 4 t)
    ∗ owns (c : Thread nD τ) (st40_5 t) fullShare ((dat40 V c).after 5 t))

theorem sound_body40 (c : Dev nD) (t : Fin cfg40.N) :
    bodyPre40 V c t ⊢ wp frame (wpE (defs₀ (F := F)) Variants.none c none) Set.univ (bodyAt40 t) (fun _ => bodyPost40 V c t) := by
  unfold bodyPre40 bodyPost40 bodyAt40
  simp only [before40_0, before40_1, before40_2, before40_3, before40_4]
  rw [show (dat40 V c).Φ t.succ = (dat40 V c).Φ t.castSucc from rfl,
    show (dat40 V c).owesAt () t.succ = (dat40 V c).owesAt () t.castSucc from rfl,
    after40_0, after40_1, after40_2, after40_3, after40_4, after40_5]
  iintro ⟨HΦ, Ho, ⟨%d0, H0⟩, ⟨%d1, H1⟩, ⟨%d2, H2⟩, ⟨%d3, H3⟩, ⟨%d4, H4⟩, ⟨%d5, H5⟩⟩
  iapply (sound_kernel40 c Set.univ _ _ _ _ _ _ _ _ _ _ _ _ _ (iblk40 V c 0 t) (iblk40 V c 1 t) (iblk40 V c 2 t) (iblk40 V c 3 t) (iblk40 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation40 (c : Dev nD) : BodyObligation (dat40 (F := F) V c) (defs₀ (F := F)) Variants.none () Set.univ := fun t => by
  rw [bigSep_W40, bigSep_W40]
  exact sound_body40 V c t

end Cert.Kernel.Reg

end
-- ==== Proof.K.Region41.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 41: five input windows, each block loaded whole; one output window, stored whole -/

/-- Window `w`'s block at grid point `t`, read off the array as the region finds it. -/
def iblk41 (c : Dev nD) (w : Fin cfg41.W) (t : Fin cfg41.N) : ((cfg41.win w).xblock (cfg41.grid.coords t)).Idx → Elt F (cfg41.win w).elt :=
  ((cfg41.win w).blk t).view.read (Elt F) (V c (Pipeline.arrRef spec41 w))

/-- Input window 0's staging buffer holds its block at every point, fetched there or kept from the point before. -/
theorem before41_0_of {c : Dev nD} (dat : Dat τ (Elt F) Unit ℕ (UR sig nD τ) ℕ cfg41 c) (hA : dat.A 0 = V c (Pipeline.arrRef spec41 0))
    (hafter : ∀ t, dat.after 0 t = iblk41 V c 0 t) (t : Fin cfg41.N) (d) : dat.before 0 t d = iblk41 V c 0 t :=
  (dat.before_in_eq_fetched 0 rfl (fun _ => rfl) (fun _ _ _ => rfl) (fun t => by rw [hafter]; unfold Dat.blockOf iblk41; rw [hA]; try rfl) t d).trans
    (by unfold Dat.fetched Dat.blockOf iblk41; rw [hA]; try rfl)

/-- Input window 1's staging buffer likewise. -/
theorem before41_1_of {c : Dev nD} (dat : Dat τ (Elt F) Unit ℕ (UR sig nD τ) ℕ cfg41 c) (hA : dat.A 1 = V c (Pipeline.arrRef spec41 1))
    (hafter : ∀ t, dat.after 1 t = iblk41 V c 1 t) (t : Fin cfg41.N) (d) : dat.before 1 t d = iblk41 V c 1 t :=
  (dat.before_in_eq_fetched 1 rfl (fun _ => rfl) (fun _ _ _ => rfl) (fun t => by rw [hafter]; unfold Dat.blockOf iblk41; rw [hA]; try rfl) t d).trans
    (by unfold Dat.fetched Dat.blockOf iblk41; rw [hA]; try rfl)

/-- Input window 2's staging buffer likewise. -/
theorem before41_2_of {c : Dev nD} (dat : Dat τ (Elt F) Unit ℕ (UR sig nD τ) ℕ cfg41 c) (hA : dat.A 2 = V c (Pipeline.arrRef spec41 2))
    (hafter : ∀ t, dat.after 2 t = iblk41 V c 2 t) (t : Fin cfg41.N) (d) : dat.before 2 t d = iblk41 V c 2 t :=
  (dat.before_in_eq_fetched 2 rfl (fun _ => rfl) (fun _ _ _ => rfl) (fun t => by rw [hafter]; unfold Dat.blockOf iblk41; rw [hA]; try rfl) t d).trans
    (by unfold Dat.fetched Dat.blockOf iblk41; rw [hA]; try rfl)

/-- Input window 3's staging buffer likewise. -/
theorem before41_3_of {c : Dev nD} (dat : Dat τ (Elt F) Unit ℕ (UR sig nD τ) ℕ cfg41 c) (hA : dat.A 3 = V c (Pipeline.arrRef spec41 3))
    (hafter : ∀ t, dat.after 3 t = iblk41 V c 3 t) (t : Fin cfg41.N) (d) : dat.before 3 t d = iblk41 V c 3 t :=
  (dat.before_in_eq_fetched 3 rfl (fun _ => rfl) (fun _ _ _ => rfl) (fun t => by rw [hafter]; unfold Dat.blockOf iblk41; rw [hA]; try rfl) t d).trans
    (by unfold Dat.fetched Dat.blockOf iblk41; rw [hA]; try rfl)

/-- Input window 4's staging buffer likewise. -/
theorem before41_4_of {c : Dev nD} (dat : Dat τ (Elt F) Unit ℕ (UR sig nD τ) ℕ cfg41 c) (hA : dat.A 4 = V c (Pipeline.arrRef spec41 4))
    (hafter : ∀ t, dat.after 4 t = iblk41 V c 4 t) (t : Fin cfg41.N) (d) : dat.before 4 t d = iblk41 V c 4 t :=
  (dat.before_in_eq_fetched 4 rfl (fun _ => rfl) (fun _ _ _ => rfl) (fun t => by rw [hafter]; unfold Dat.blockOf iblk41; rw [hA]; try rfl) t d).trans
    (by unfold Dat.fetched Dat.blockOf iblk41; rw [hA]; try rfl)

abbrev r41_0 : Rect S8x256x256 := Rect.unit (s := S8x256x256) ![0, 0, 0] S8x256x256.size inb_S8x256x256_S8x256x256_0_0_0
abbrev r41_1 : Rect S8x256x256 := Rect.unit (s := S8x256x256) ![0, 0, 0] S8x256x256.size inb_S8x256x256_S8x256x256_0_0_0
abbrev r41_2 : Rect S256x256 := Rect.unit (s := S256x256) ![0, 0] S256x256.size inb_S256x256_S256x256_0_0
abbrev r41_3 : Rect S256x256 := Rect.unit (s := S256x256) ![0, 0] S256x256.size inb_S256x256_S256x256_0_0
abbrev r41_4 : Rect S1x256 := Rect.unit (s := S1x256) ![0, 0] S1x256.size inb_S1x256_S1x256_0_0
abbrev r41_o : Rect S8x256 := Rect.unit (s := S8x256) ![0, 0] S8x256.size inb_S8x256_S8x256_0_0

/-- The output block after the body: its one whole-block store, of the body's value at the five input blocks. -/
def out41 (x0 : Vec F S8x256x256 .f32) (x1 : Vec F S8x256x256 .f32) (x2 : Vec F S256x256 .f32) (x3 : Vec F S256x256 .f32) (x4 : Vec F S1x256 .f32) : Vec F S8x256 .f32 :=
  View.canon [⟨r41_o, k41_pay1 (View.ld x0 r41_0) (View.ld x1 r41_1) (View.ld x2 r41_2) (View.ld x3 r41_3) (View.ld x4 r41_4)⟩]

/-- That one store covers the block. -/
theorem cover41 (p0 : Vec F S8x256 .f32) (y : S8x256.Idx) :
    ∃ pc ∈ ([⟨r41_o, p0⟩] : List (View.Piece (Elt F) S8x256 .f32)), y ∈ pc.1.set :=
  View.cover_of_tiled [⟨r41_o, p0⟩] S8x256.size (by rfl) y

set_option maxHeartbeats 1000000 in
/-- The body on whole staging buffers: the five input buffers are read and left as found, and the output buffer,
    whatever it held, ends at the body's value. -/
theorem sound_kernel41 (c : Dev nD) (E : Set ℕ) (i : grid41.Coords)
    (arg1 : Memref sig .tc .vmem S8x256x256 .f32) (harg1 : arg1.IsWhole) (arg2 : Memref sig .tc .vmem S8x256x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S8x256 .f32) (harg6 : arg6.IsWhole)
    (x0 : Vec F S8x256x256 .f32) (x1 : Vec F S8x256x256 .f32) (x2 : Vec F S256x256 .f32) (x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out41 x0 x1 x2 x3 x4)) -∗ K ⟨⟩))
      ⊢ wp frame (wpE (defs₀ (F := F)) Variants.none c none) E (cc41__pool_kernel i arg1 harg1 arg2 harg2 arg3 harg3 arg4 harg4 arg5 harg5 arg6 harg6) K := by
  simp only [cc41__pool_kernel_eq_skeleton]; unfold cc41__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover41 _)

/-- The proof data: the arrays as the region finds them; after the body each input buffer still at its block and the
    output buffer at the body's value there; nothing owed, full shares, the scoped rest untouched. -/
def dat41 (c : Dev nD) : Dat τ (Elt F) Unit ℕ (UR sig nD τ) ℕ cfg41 c where
  A w := V c (Pipeline.arrRef spec41 w)
  after w t := match w with
    | ⟨0, _⟩ => iblk41 V c 0 t
    | ⟨1, _⟩ => iblk41 V c 1 t
    | ⟨2, _⟩ => iblk41 V c 2 t
    | ⟨3, _⟩ => iblk41 V c 3 t
    | ⟨4, _⟩ => iblk41 V c 4 t
    | ⟨5, _⟩ => out41 (iblk41 V c 0 t) (iblk41 V c 1 t) (iblk41 V c 2 t) (iblk41 V c 3 t) (iblk41 V c 4 t)
  Φ _ := Pipeline.ΦA spec41 c
  q _ := fullShare
  owed _ := 0

theorem A_eq41 (c : Dev nD) (w : Fin cfg41.W) : (dat41 V c).A w = V c (Pipeline.arrRef spec41 w) := by
  dsimp only [dat41]

theorem after41_0 (c : Dev nD) (t : Fin cfg41.N) : (dat41 V c).after 0 t = iblk41 V c 0 t := by dsimp only [dat41]
theorem after41_1 (c : Dev nD) (t : Fin cfg41.N) : (dat41 V c).after 1 t = iblk41 V c 1 t := by dsimp only [dat41]
theorem after41_2 (c : Dev nD) (t : Fin cfg41.N) : (dat41 V c).after 2 t = iblk41 V c 2 t := by dsimp only [dat41]
theorem after41_3 (c : Dev nD) (t : Fin cfg41.N) : (dat41 V c).after 3 t = iblk41 V c 3 t := by dsimp only [dat41]
theorem after41_4 (c : Dev nD) (t : Fin cfg41.N) : (dat41 V c).after 4 t = iblk41 V c 4 t := by dsimp only [dat41]
theorem after41_5 (c : Dev nD) (t : Fin cfg41.N) :
    (dat41 V c).after 5 t = out41 (iblk41 V c 0 t) (iblk41 V c 1 t) (iblk41 V c 2 t) (iblk41 V c 3 t) (iblk41 V c 4 t) := by dsimp only [dat41]

theorem before41_0 (c : Dev nD) (t : Fin cfg41.N) (d) : (dat41 V c).before 0 t d = iblk41 V c 0 t :=
  before41_0_of V (dat41 V c) (A_eq41 V c 0) (after41_0 V c) t d
theorem before41_1 (c : Dev nD) (t : Fin cfg41.N) (d) : (dat41 V c).before 1 t d = iblk41 V c 1 t :=
  before41_1_of V (dat41 V c) (A_eq41 V c 1) (after41_1 V c) t d
theorem before41_2 (c : Dev nD) (t : Fin cfg41.N) (d) : (dat41 V c).before 2 t d = iblk41 V c 2 t :=
  before41_2_of V (dat41 V c) (A_eq41 V c 2) (after41_2 V c) t d
theorem before41_3 (c : Dev nD) (t : Fin cfg41.N) (d) : (dat41 V c).before 3 t d = iblk41 V c 3 t :=
  before41_3_of V (dat41 V c) (A_eq41 V c 3) (after41_3 V c) t d
theorem before41_4 (c : Dev nD) (t : Fin cfg41.N) (d) : (dat41 V c).before 4 t d = iblk41 V c 4 t :=
  before41_4_of V (dat41 V c) (A_eq41 V c 4) (after41_4 V c) t d

/-- What the body is handed at point `t`, window by window, -/
def bodyPre41 (c : Dev nD) (t : Fin cfg41.N) : sProp 𝕄 :=
  iprop((dat41 V c).Φ t.castSucc ∗ (dat41 V c).owesAt () t.castSucc
    ∗ (∃ d, owns (c : Thread nD τ) (st41_0 t) fullShare ((dat41 V c).before 0 t d))
    ∗ (∃ d, owns (c : Thread nD τ) (st41_1 t) fullShare ((dat41 V c).before 1 t d))
    ∗ (∃ d, owns (c : Thread nD τ) (st41_2 t) fullShare ((dat41 V c).before 2 t d))
    ∗ (∃ d, owns (c : Thread nD τ) (st41_3 t) fullShare ((dat41 V c).before 3 t d))
    ∗ (∃ d, owns (c : Thread nD τ) (st41_4 t) fullShare ((dat41 V c).before 4 t d))
    ∗ (∃ d, owns (c : Thread nD τ) (st41_5 t) fullShare ((dat41 V c).before 5 t d)))

/-- and what it hands back. -/
def bodyPost41 (c : Dev nD) (t : Fin cfg41.N) : sProp 𝕄 :=
  iprop((dat41 V c).Φ t.succ ∗ (dat41 V c).owesAt () t.succ
    ∗ owns (c : Thread nD τ) (st41_0 t) fullShare ((dat41 V c).after 0 t)
    ∗ owns (c : Thread nD τ) (st41_1 t) fullShare ((dat41 V c).after 1 t)
    ∗ owns (c : Thread nD τ) (st41_2 t) fullShare ((dat41 V c).after 2 t)
    ∗ owns (c : Thread nD τ) (st41_3 t) fullShare ((dat41 V c).after 3 t)
    ∗ owns (c : Thread nD τ) (st41_4 t) fullShare ((dat41 V c).after 4 t)
    ∗ owns (c : Thread nD τ) (st41_5 t) fullShare ((dat41 V c).after 5 t))

theorem sound_body41 (c : Dev nD) (t : Fin cfg41.N) :
    bodyPre41 V c t ⊢ wp frame (wpE (defs₀ (F := F)) Variants.none c none) Set.univ (bodyAt41 t) (fun _ => bodyPost41 V c t) := by
  unfold bodyPre41 bodyPost41 bodyAt41
  simp only [before41_0, before41_1, before41_2, before41_3, before41_4]
  rw [show (dat41 V c).Φ t.succ = (dat41 V c).Φ t.castSucc from rfl,
    show (dat41 V c).owesAt () t.succ = (dat41 V c).owesAt () t.castSucc from rfl,
    after41_0, after41_1, after41_2, after41_3, after41_4, after41_5]
  iintro ⟨HΦ, Ho, ⟨%d0, H0⟩, ⟨%d1, H1⟩, ⟨%d2, H2⟩, ⟨%d3, H3⟩, ⟨%d4, H4⟩, ⟨%d5, H5⟩⟩
  iapply (sound_kernel41 c Set.univ _ _ _ _ _ _ _ _ _ _ _ _ _ (iblk41 V c 0 t) (iblk41 V c 1 t) (iblk41 V c 2 t) (iblk41 V c 3 t) (iblk41 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation41 (c : Dev nD) : BodyObligation (dat41 (F := F) V c) (defs₀ (F := F)) Variants.none () Set.univ := fun t => by
  rw [bigSep_W41, bigSep_W41]
  exact sound_body41 V c t

end Cert.Kernel.Reg

end
-- ==== Proof.K.Region42.lean ====
import proofs.«101828_j11562051961417_2_alg».proof.Proof.Gen.Kernel.Launch
import proofs.«101828_j11562051961417_2_alg».proof.Proof.Gen.Kernel.Skeleton
import proofs.«101828_j11562051961417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 42: five input windows, each block loaded whole; one output window, stored whole -/

/-- Window `w`'s block at grid point `t`, read off the array as the region finds it. -/
def iblk42 (c : Dev nD) (w : Fin cfg42.W) (t : Fin cfg42.N) : ((cfg42.win w).xblock (cfg42.grid.coords t)).Idx → Elt F (cfg42.win w).elt :=
  ((cfg42.win w).blk t).view.read (Elt F) (V c (Pipeline.arrRef spec42 w))

/-- Input window 0's staging buffer holds its block at every point, fetched there or kept from the point before. -/
theorem before42_0_of {c : Dev nD} (dat : Dat τ (Elt F) Unit ℕ (UR sig nD τ) ℕ cfg42 c) (hA : dat.A 0 = V c (Pipeline.arrRef spec42 0))
    (hafter : ∀ t, dat.after 0 t = iblk42 V c 0 t) (t : Fin cfg42.N) (d) : dat.before 0 t d = iblk42 V c 0 t :=
  (dat.before_in_eq_fetched 0 rfl (fun _ => rfl) (fun _ _ _ => rfl) (fun t => by rw [hafter]; unfold Dat.blockOf iblk42; rw [hA]; try rfl) t d).trans
    (by unfold Dat.fetched Dat.blockOf iblk42; rw [hA]; try rfl)

/-- Input window 1's staging buffer likewise. -/
theorem before42_1_of {c : Dev nD} (dat : Dat τ (Elt F) Unit ℕ (UR sig nD τ) ℕ cfg42 c) (hA : dat.A 1 = V c (Pipeline.arrRef spec42 1))
    (hafter : ∀ t, dat.after 1 t = iblk42 V c 1 t) (t : Fin cfg42.N) (d) : dat.before 1 t d = iblk42 V c 1 t :=
  (dat.before_in_eq_fetched 1 rfl (fun _ => rfl) (fun _ _ _ => rfl) (fun t => by rw [hafter]; unfold Dat.blockOf iblk42; rw [hA]; try rfl) t d).trans
    (by unfold Dat.fetched Dat.blockOf iblk42; rw [hA]; try rfl)

/-- Input window 2's staging buffer likewise. -/
theorem before42_2_of {c : Dev nD} (dat : Dat τ (Elt F) Unit ℕ (UR sig nD τ) ℕ cfg42 c) (hA : dat.A 2 = V c (Pipeline.arrRef spec42 2))
    (hafter : ∀ t, dat.after 2 t = iblk42 V c 2 t) (t : Fin cfg42.N) (d) : dat.before 2 t d = iblk42 V c 2 t :=
  (dat.before_in_eq_fetched 2 rfl (fun _ => rfl) (fun _ _ _ => rfl) (fun t => by rw [hafter]; unfold Dat.blockOf iblk42; rw [hA]; try rfl) t d).trans
    (by unfold Dat.fetched Dat.blockOf iblk42; rw [hA]; try rfl)

/-- Input window 3's staging buffer likewise. -/
theorem before42_3_of {c : Dev nD} (dat : Dat τ (Elt F) Unit ℕ (UR sig nD τ) ℕ cfg42 c) (hA : dat.A 3 = V c (Pipeline.arrRef spec42 3))
    (hafter : ∀ t, dat.after 3 t = iblk42 V c 3 t) (t : Fin cfg42.N) (d) : dat.before 3 t d = iblk42 V c 3 t :=
  (dat.before_in_eq_fetched 3 rfl (fun _ => rfl) (fun _ _ _ => rfl) (fun t => by rw [hafter]; unfold Dat.blockOf iblk42; rw [hA]; try rfl) t d).trans
    (by unfold Dat.fetched Dat.blockOf iblk42; rw [hA]; try rfl)

/-- Input window 4's staging buffer likewise. -/
theorem before42_4_of {c : Dev nD} (dat : Dat τ (Elt F) Unit ℕ (UR sig nD τ) ℕ cfg42 c) (hA : dat.A 4 = V c (Pipeline.arrRef spec42 4))
    (hafter : ∀ t, dat.after 4 t = iblk42 V c 4 t) (t : Fin cfg42.N) (d) : dat.before 4 t d = iblk42 V c 4 t :=
  (dat.before_in_eq_fetched 4 rfl (fun _ => rfl) (fun _ _ _ => rfl) (fun t => by rw [hafter]; unfold Dat.blockOf iblk42; rw [hA]; try rfl) t d).trans
    (by unfold Dat.fetched Dat.blockOf iblk42; rw [hA]; try rfl)

abbrev r42_0 : Rect S8x64x256 := Rect.unit (s := S8x64x256) ![0, 0, 0] S8x64x256.size inb_S8x64x256_S8x64x256_0_0_0
abbrev r42_1 : Rect S8x64x256 := Rect.unit (s := S8x64x256) ![0, 0, 0] S8x64x256.size inb_S8x64x256_S8x64x256_0_0_0
abbrev r42_2 : Rect S256x256 := Rect.unit (s := S256x256) ![0, 0] S256x256.size inb_S256x256_S256x256_0_0
abbrev r42_3 : Rect S256x256 := Rect.unit (s := S256x256) ![0, 0] S256x256.size inb_S256x256_S256x256_0_0
abbrev r42_4 : Rect S1x256 := Rect.unit (s := S1x256) ![0, 0] S1x256.size inb_S1x256_S1x256_0_0
abbrev r42_o : Rect S8x256 := Rect.unit (s := S8x256) ![0, 0] S8x256.size inb_S8x256_S8x256_0_0

/-- The output block after the body: its one whole-block store, of the body's value at the five input blocks. -/
def out42 (x0 : Vec F S8x64x256 .f32) (x1 : Vec F S8x64x256 .f32) (x2 : Vec F S256x256 .f32) (x3 : Vec F S256x256 .f32) (x4 : Vec F S1x256 .f32) : Vec F S8x256 .f32 :=
  View.canon [⟨r42_o, k42_pay1 (View.ld x0 r42_0) (View.ld x1 r42_1) (View.ld x2 r42_2) (View.ld x3 r42_3) (View.ld x4 r42_4)⟩]

/-- That one store covers the block. -/
theorem cover42 (p0 : Vec F S8x256 .f32) (y : S8x256.Idx) :
    ∃ pc ∈ ([⟨r42_o, p0⟩] : List (View.Piece (Elt F) S8x256 .f32)), y ∈ pc.1.set :=
  View.cover_of_tiled [⟨r42_o, p0⟩] S8x256.size (by rfl) y

set_option maxHeartbeats 1000000 in
/-- The body on whole staging buffers: the five input buffers are read and left as found, and the output buffer,
    whatever it held, ends at the body's value. -/
theorem sound_kernel42 (c : Dev nD) (E : Set ℕ) (i : grid42.Coords)
    (arg1 : Memref sig .tc .vmem S8x64x256 .f32) (harg1 : arg1.IsWhole) (arg2 : Memref sig .tc .vmem S8x64x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S8x256 .f32) (harg6 : arg6.IsWhole)
    (x0 : Vec F S8x64x256 .f32) (x1 : Vec F S8x64x256 .f32) (x2 : Vec F S256x256 .f32) (x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out42 x0 x1 x2 x3 x4)) -∗ K ⟨⟩))
      ⊢ wp frame (wpE (defs₀ (F := F)) Variants.none c none) E (cc42__pool_kernel i arg1 harg1 arg2 harg2 arg3 harg3 arg4 harg4 arg5 harg5 arg6 harg6) K := by
  simp only [cc42__pool_kernel_eq_skeleton]; unfold cc42__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover42 _)

/-- The proof data: the arrays as the region finds them; after the body each input buffer still at its block and the
    output buffer at the body's value there; nothing owed, full shares, the scoped rest untouched. -/
def dat42 (c : Dev nD) : Dat τ (Elt F) Unit ℕ (UR sig nD τ) ℕ cfg42 c where
  A w := V c (Pipeline.arrRef spec42 w)
  after w t := match w with
    | ⟨0, _⟩ => iblk42 V c 0 t
    | ⟨1, _⟩ => iblk42 V c 1 t
    | ⟨2, _⟩ => iblk42 V c 2 t
    | ⟨3, _⟩ => iblk42 V c 3 t
    | ⟨4, _⟩ => iblk42 V c 4 t
    | ⟨5, _⟩ => out42 (iblk42 V c 0 t) (iblk42 V c 1 t) (iblk42 V c 2 t) (iblk42 V c 3 t) (iblk42 V c 4 t)
  Φ _ := Pipeline.ΦA spec42 c
  q _ := fullShare
  owed _ := 0

theorem A_eq42 (c : Dev nD) (w : Fin cfg42.W) : (dat42 V c).A w = V c (Pipeline.arrRef spec42 w) := by
  dsimp only [dat42]

theorem after42_0 (c : Dev nD) (t : Fin cfg42.N) : (dat42 V c).after 0 t = iblk42 V c 0 t := by dsimp only [dat42]
theorem after42_1 (c : Dev nD) (t : Fin cfg42.N) : (dat42 V c).after 1 t = iblk42 V c 1 t := by dsimp only [dat42]
theorem after42_2 (c : Dev nD) (t : Fin cfg42.N) : (dat42 V c).after 2 t = iblk42 V c 2 t := by dsimp only [dat42]
theorem after42_3 (c : Dev nD) (t : Fin cfg42.N) : (dat42 V c).after 3 t = iblk42 V c 3 t := by dsimp only [dat42]
theorem after42_4 (c : Dev nD) (t : Fin cfg42.N) : (dat42 V c).after 4 t = iblk42 V c 4 t := by dsimp only [dat42]
theorem after42_5 (c : Dev nD) (t : Fin cfg42.N) :
    (dat42 V c).after 5 t = out42 (iblk42 V c 0 t) (iblk42 V c 1 t) (iblk42 V c 2 t) (iblk42 V c 3 t) (iblk42 V c 4 t) := by dsimp only [dat42]

theorem before42_0 (c : Dev nD) (t : Fin cfg42.N) (d) : (dat42 V c).before 0 t d = iblk42 V c 0 t :=
  before42_0_of V (dat42 V c) (A_eq42 V c 0) (after42_0 V c) t d
theorem before42_1 (c : Dev nD) (t : Fin cfg42.N) (d) : (dat42 V c).before 1 t d = iblk42 V c 1 t :=
  before42_1_of V (dat42 V c) (A_eq42 V c 1) (after42_1 V c) t d
theorem before42_2 (c : Dev nD) (t : Fin cfg42.N) (d) : (dat42 V c).before 2 t d = iblk42 V c 2 t :=
  before42_2_of V (dat42 V c) (A_eq42 V c 2) (after42_2 V c) t d
theorem before42_3 (c : Dev nD) (t : Fin cfg42.N) (d) : (dat42 V c).before 3 t d = iblk42 V c 3 t :=
  before42_3_of V (dat42 V c) (A_eq42 V c 3) (after42_3 V c) t d
theorem before42_4 (c : Dev nD) (t : Fin cfg42.N) (d) : (dat42 V c).before 4 t d = iblk42 V c 4 t :=
  before42_4_of V (dat42 V c) (A_eq42 V c 4) (after42_4 V c) t d

/-- What the body is handed at point `t`, window by window, -/
def bodyPre42 (c : Dev nD) (t : Fin cfg42.N) : sProp 𝕄 :=
  iprop((dat42 V c).Φ t.castSucc ∗ (dat42 V c).owesAt () t.castSucc
    ∗ (∃ d, owns (c : Thread nD τ) (st42_0 t) fullShare ((dat42 V c).before 0 t d))
    ∗ (∃ d, owns (c : Thread nD τ) (st42_1 t) fullShare ((dat42 V c).before 1 t d))
    ∗ (∃ d, owns (c : Thread nD τ) (st42_2 t) fullShare ((dat42 V c).before 2 t d))
    ∗ (∃ d, owns (c : Thread nD τ) (st42_3 t) fullShare ((dat42 V c).before 3 t d))
    ∗ (∃ d, owns (c : Thread nD τ) (st42_4 t) fullShare ((dat42 V c).before 4 t d))
    ∗ (∃ d, owns (c : Thread nD τ) (st42_5 t) fullShare ((dat42 V c).before 5 t d)))

/-- and what it hands back. -/
def bodyPost42 (c : Dev nD) (t : Fin cfg42.N) : sProp 𝕄 :=
  iprop((dat42 V c).Φ t.succ ∗ (dat42 V c).owesAt () t.succ
    ∗ owns (c : Thread nD τ) (st42_0 t) fullShare ((dat42 V c).after 0 t)
    ∗ owns (c : Thread nD τ) (st42_1 t) fullShare ((dat42 V c).after 1 t)
    ∗ owns (c : Thread nD τ) (st42_2 t) fullShare ((dat42 V c).after 2 t)
    ∗ owns (c : Thread nD τ) (st42_3 t) fullShare ((dat42 V c).after 3 t)
    ∗ owns (c : Thread nD τ) (st42_4 t) fullShare ((dat42 V c).after 4 t)
    ∗ owns (c : Thread nD τ) (st42_5 t) fullShare ((dat42 V c).after 5 t))

theorem sound_body42 (c : Dev nD) (t : Fin cfg42.N) :
    bodyPre42 V c t ⊢ wp frame (wpE (defs₀ (F := F)) Variants.none c none) Set.univ (bodyAt42 t) (fun _ => bodyPost42 V c t) := by
  unfold bodyPre42 bodyPost42 bodyAt42
  simp only [before42_0, before42_1, before42_2, before42_3, before42_4]
  rw [show (dat42 V c).Φ t.succ = (dat42 V c).Φ t.castSucc from rfl,
    show (dat42 V c).owesAt () t.succ = (dat42 V c).owesAt () t.castSucc from rfl,
    after42_0, after42_1, after42_2, after42_3, after42_4, after42_5]
  iintro ⟨HΦ, Ho, ⟨%d0, H0⟩, ⟨%d1, H1⟩, ⟨%d2, H2⟩, ⟨%d3, H3⟩, ⟨%d4, H4⟩, ⟨%d5, H5⟩⟩
  iapply (sound_kernel42 c Set.univ _ _ _ _ _ _ _ _ _ _ _ _ _ (iblk42 V c 0 t) (iblk42 V c 1 t) (iblk42 V c 2 t) (iblk42 V c 3 t) (iblk42 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation42 (c : Dev nD) : BodyObligation (dat42 (F := F) V c) (defs₀ (F := F)) Variants.none () Set.univ := fun t => by
  rw [bigSep_W42, bigSep_W42]
  exact sound_body42 V c t

end Cert.Kernel.Reg

end
-- ==== Proof.K.Fold.lean ====
import proofs.«101828_j11562051961417_2_alg».proof.Proof.K.Region0
import proofs.«101828_j11562051961417_2_alg».proof.Proof.K.Region1
import proofs.«101828_j11562051961417_2_alg».proof.Proof.K.Region2
import proofs.«101828_j11562051961417_2_alg».proof.Proof.K.Region3
import proofs.«101828_j11562051961417_2_alg».proof.Proof.K.Region4
import proofs.«101828_j11562051961417_2_alg».proof.Proof.K.Region5
import proofs.«101828_j11562051961417_2_alg».proof.Proof.K.Region6
import proofs.«101828_j11562051961417_2_alg».proof.Proof.K.Region7
import proofs.«101828_j11562051961417_2_alg».proof.Proof.K.Region8
import proofs.«101828_j11562051961417_2_alg».proof.Proof.K.Region9
import proofs.«101828_j11562051961417_2_alg».proof.Proof.K.Region10
import proofs.«101828_j11562051961417_2_alg».proof.Proof.K.Region11
import proofs.«101828_j11562051961417_2_alg».proof.Proof.K.Region12
import proofs.«101828_j11562051961417_2_alg».proof.Proof.K.Region13
import proofs.«101828_j11562051961417_2_alg».proof.Proof.K.Region14
import proofs.«101828_j11562051961417_2_alg».proof.Proof.K.Region15
import proofs.«101828_j11562051961417_2_alg».proof.Proof.K.Region16
import proofs.«101828_j11562051961417_2_alg».proof.Proof.K.Region17
import proofs.«101828_j11562051961417_2_alg».proof.Proof.K.Region18
import proofs.«101828_j11562051961417_2_alg».proof.Proof.K.Region19
import proofs.«101828_j11562051961417_2_alg».proof.Proof.K.Region20
import proofs.«101828_j11562051961417_2_alg».proof.Proof.K.Region21
import proofs.«101828_j11562051961417_2_alg».proof.Proof.K.Region22
import proofs.«101828_j11562051961417_2_alg».proof.Proof.K.Region23
import proofs.«101828_j11562051961417_2_alg».proof.Proof.K.Region24
import proofs.«101828_j11562051961417_2_alg».proof.Proof.K.Region25
import proofs.«101828_j11562051961417_2_alg».proof.Proof.K.Region26
import proofs.«101828_j11562051961417_2_alg».proof.Proof.K.Region27
import proofs.«101828_j11562051961417_2_alg».proof.Proof.K.Region28
import proofs.«101828_j11562051961417_2_alg».proof.Proof.K.Region29
import proofs.«101828_j11562051961417_2_alg».proof.Proof.K.Region30
import proofs.«101828_j11562051961417_2_alg».proof.Proof.K.Region31
import proofs.«101828_j11562051961417_2_alg».proof.Proof.K.Region32
import proofs.«101828_j11562051961417_2_alg».proof.Proof.K.Region33
import proofs.«101828_j11562051961417_2_alg».proof.Proof.K.Region34
import proofs.«101828_j11562051961417_2_alg».proof.Proof.K.Region35
import proofs.«101828_j11562051961417_2_alg».proof.Proof.K.Region36
import proofs.«101828_j11562051961417_2_alg».proof.Proof.K.Region37
import proofs.«101828_j11562051961417_2_alg».proof.Proof.K.Region38
import proofs.«101828_j11562051961417_2_alg».proof.Proof.K.Region39
import proofs.«101828_j11562051961417_2_alg».proof.Proof.K.Region40
import proofs.«101828_j11562051961417_2_alg».proof.Proof.K.Region41
import proofs.«101828_j11562051961417_2_alg».proof.Proof.K.Region42

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at every boundary of @main: a fold from the launch memory

    `W0` is the launch memory; a stretch of host operations takes a boundary to the operations' results over it; a
    region takes it to the same contents with the region's arrays at what its write-backs leave. -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- Region 0 is entered at `W1` (read at the TensorCore's references: `V1`) and left at `W2`: its arrays at what
    the pipeline leaves (inputs as entered, the output's write-backs folded), every other buffer as entered. -/
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After `hostOps1`. -/
abbrev W3 : Dev nD → Valuation τ sig (Elt F) := fun c => StableHlo.after hostOps1 (W2 m ρ c)
/-- Region 1 is entered at `W3` (read at the TensorCore's references: `V3`) and left at `W4`: its arrays at what
    the pipeline leaves (inputs as entered, the output's write-backs folded), every other buffer as entered. -/
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After `hostOps2`. -/
abbrev W5 : Dev nD → Valuation τ sig (Elt F) := fun c => StableHlo.after hostOps2 (W4 m ρ c)
/-- Region 2 is entered at `W5` (read at the TensorCore's references: `V5`) and left at `W6`: its arrays at what
    the pipeline leaves (inputs as entered, the output's write-backs folded), every other buffer as entered. -/
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After `hostOps3`. -/
abbrev W7 : Dev nD → Valuation τ sig (Elt F) := fun c => StableHlo.after hostOps3 (W6 m ρ c)
/-- Region 3 is entered at `W7` (read at the TensorCore's references: `V7`) and left at `W8`: its arrays at what
    the pipeline leaves (inputs as entered, the output's write-backs folded), every other buffer as entered. -/
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After `hostOps4`. -/
abbrev W9 : Dev nD → Valuation τ sig (Elt F) := fun c => StableHlo.after hostOps4 (W8 m ρ c)
/-- Region 4 is entered at `W9` (read at the TensorCore's references: `V9`) and left at `W10`: its arrays at what
    the pipeline leaves (inputs as entered, the output's write-backs folded), every other buffer as entered. -/
abbrev V9 : (c : Dev nD) → (b : Ref sig .tc) → Buf (Elt F) ((c : Thread nD τ).loc b) := fun c b => W9 m ρ c b
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After `hostOps5`. -/
abbrev W11 : Dev nD → Valuation τ sig (Elt F) := fun c => StableHlo.after hostOps5 (W10 m ρ c)
/-- After `hostOps5_1`. -/
abbrev W12 : Dev nD → Valuation τ sig (Elt F) := fun c => StableHlo.after hostOps5_1 (W11 m ρ c)
/-- After `hostOps5_2`. -/
abbrev W13 : Dev nD → Valuation τ sig (Elt F) := fun c => StableHlo.after hostOps5_2 (W12 m ρ c)
/-- After `hostOps5_3`. -/
abbrev W14 : Dev nD → Valuation τ sig (Elt F) := fun c => StableHlo.after hostOps5_3 (W13 m ρ c)
/-- After `hostOps5_4`. -/
abbrev W15 : Dev nD → Valuation τ sig (Elt F) := fun c => StableHlo.after hostOps5_4 (W14 m ρ c)
/-- Region 5 is entered at `W15` (read at the TensorCore's references: `V15`) and left at `W16`: its arrays at what
    the pipeline leaves (inputs as entered, the output's write-backs folded), every other buffer as entered. -/
abbrev V15 : (c : Dev nD) → (b : Ref sig .tc) → Buf (Elt F) ((c : Thread nD τ).loc b) := fun c b => W15 m ρ c b
def W16 (c : Dev nD) : Valuation τ sig (Elt F) :=
  Pipeline.withArrays spec5 c (W15 m ρ c) fun w => (dat5 (V15 m ρ) c).arrAt w cfg5.N
theorem W16_arr (c : Dev nD) (w : Fin cfg5.W) :
    W16 m ρ c (Proc.devRef .tc (Pipeline.arrRef spec5 w)) = (dat5 (V15 m ρ) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m ρ c (Proc.devRef .tc b) = W15 m ρ c (Proc.devRef .tc b) := by
  unfold W16; exact Pipeline.withArrays_of_ne spec5 c _ _ b hb
abbrev V16 : (c : Dev nD) → (b : Ref sig .tc) → Buf (Elt F) ((c : Thread nD τ).loc b) := fun c b => W16 m ρ c b
theorem hF5 (c : Dev nD) (w : Fin cfg5.W) : (dat5 (V15 m ρ) c).arrAt w cfg5.N = V16 m ρ c (Pipeline.arrRef spec5 w) :=
  (W16_arr m ρ c w).symm
theorem hrest5 (c : Dev nD) : ∀ b, b ∉ Finset.univ.image (Pipeline.arrRef spec5) → V16 m ρ c b = V15 m ρ c b :=
  fun b hb => W16_of_ne m ρ c b fun w e => hb (Finset.mem_image.mpr ⟨w, Finset.mem_univ _, e⟩)
/-- After `hostOps6`. -/
abbrev W17 : Dev nD → Valuation τ sig (Elt F) := fun c => StableHlo.after hostOps6 (W16 m ρ c)
/-- Region 6 is entered at `W17` (read at the TensorCore's references: `V17`) and left at `W18`: its arrays at what
    the pipeline leaves (inputs as entered, the output's write-backs folded), every other buffer as entered. -/
abbrev V17 : (c : Dev nD) → (b : Ref sig .tc) → Buf (Elt F) ((c : Thread nD τ).loc b) := fun c b => W17 m ρ c b
def W18 (c : Dev nD) : Valuation τ sig (Elt F) :=
  Pipeline.withArrays spec6 c (W17 m ρ c) fun w => (dat6 (V17 m ρ) c).arrAt w cfg6.N
theorem W18_arr (c : Dev nD) (w : Fin cfg6.W) :
    W18 m ρ c (Proc.devRef .tc (Pipeline.arrRef spec6 w)) = (dat6 (V17 m ρ) c).arrAt w cfg6.N := by
  unfold W18; exact Pipeline.withArrays_arr spec6 launch6.win.arr_inj c _ _ w
theorem W18_of_ne (c : Dev nD) (b : Ref sig .tc) (hb : ∀ w, Pipeline.arrRef spec6 w ≠ b) :
    W18 m ρ c (Proc.devRef .tc b) = W17 m ρ c (Proc.devRef .tc b) := by
  unfold W18; exact Pipeline.withArrays_of_ne spec6 c _ _ b hb
abbrev V18 : (c : Dev nD) → (b : Ref sig .tc) → Buf (Elt F) ((c : Thread nD τ).loc b) := fun c b => W18 m ρ c b
theorem hF6 (c : Dev nD) (w : Fin cfg6.W) : (dat6 (V17 m ρ) c).arrAt w cfg6.N = V18 m ρ c (Pipeline.arrRef spec6 w) :=
  (W18_arr m ρ c w).symm
theorem hrest6 (c : Dev nD) : ∀ b, b ∉ Finset.univ.image (Pipeline.arrRef spec6) → V18 m ρ c b = V17 m ρ c b :=
  fun b hb => W18_of_ne m ρ c b fun w e => hb (Finset.mem_image.mpr ⟨w, Finset.mem_univ _, e⟩)
/-- After `hostOps7`. -/
abbrev W19 : Dev nD → Valuation τ sig (Elt F) := fun c => StableHlo.after hostOps7 (W18 m ρ c)
/-- Region 7 is entered at `W19` (read at the TensorCore's references: `V19`) and left at `W20`: its arrays at what
    the pipeline leaves (inputs as entered, the output's write-backs folded), every other buffer as entered. -/
abbrev V19 : (c : Dev nD) → (b : Ref sig .tc) → Buf (Elt F) ((c : Thread nD τ).loc b) := fun c b => W19 m ρ c b
def W20 (c : Dev nD) : Valuation τ sig (Elt F) :=
  Pipeline.withArrays spec7 c (W19 m ρ c) fun w => (dat7 (V19 m ρ) c).arrAt w cfg7.N
theorem W20_arr (c : Dev nD) (w : Fin cfg7.W) :
    W20 m ρ c (Proc.devRef .tc (Pipeline.arrRef spec7 w)) = (dat7 (V19 m ρ) c).arrAt w cfg7.N := by
  unfold W20; exact Pipeline.withArrays_arr spec7 launch7.win.arr_inj c _ _ w
theorem W20_of_ne (c : Dev nD) (b : Ref sig .tc) (hb : ∀ w, Pipeline.arrRef spec7 w ≠ b) :
    W20 m ρ c (Proc.devRef .tc b) = W19 m ρ c (Proc.devRef .tc b) := by
  unfold W20; exact Pipeline.withArrays_of_ne spec7 c _ _ b hb
abbrev V20 : (c : Dev nD) → (b : Ref sig .tc) → Buf (Elt F) ((c : Thread nD τ).loc b) := fun c b => W20 m ρ c b
theorem hF7 (c : Dev nD) (w : Fin cfg7.W) : (dat7 (V19 m ρ) c).arrAt w cfg7.N = V20 m ρ c (Pipeline.arrRef spec7 w) :=
  (W20_arr m ρ c w).symm
theorem hrest7 (c : Dev nD) : ∀ b, b ∉ Finset.univ.image (Pipeline.arrRef spec7) → V20 m ρ c b = V19 m ρ c b :=
  fun b hb => W20_of_ne m ρ c b fun w e => hb (Finset.mem_image.mpr ⟨w, Finset.mem_univ _, e⟩)
/-- After `hostOps8`. -/
abbrev W21 : Dev nD → Valuation τ sig (Elt F) := fun c => StableHlo.after hostOps8 (W20 m ρ c)
/-- Region 8 is entered at `W21` (read at the TensorCore's references: `V21`) and left at `W22`: its arrays at what
    the pipeline leaves (inputs as entered, the output's write-backs folded), every other buffer as entered. -/
abbrev V21 : (c : Dev nD) → (b : Ref sig .tc) → Buf (Elt F) ((c : Thread nD τ).loc b) := fun c b => W21 m ρ c b
def W22 (c : Dev nD) : Valuation τ sig (Elt F) :=
  Pipeline.withArrays spec8 c (W21 m ρ c) fun w => (dat8 (V21 m ρ) c).arrAt w cfg8.N
theorem W22_arr (c : Dev nD) (w : Fin cfg8.W) :
    W22 m ρ c (Proc.devRef .tc (Pipeline.arrRef spec8 w)) = (dat8 (V21 m ρ) c).arrAt w cfg8.N := by
  unfold W22; exact Pipeline.withArrays_arr spec8 launch8.win.arr_inj c _ _ w
theorem W22_of_ne (c : Dev nD) (b : Ref sig .tc) (hb : ∀ w, Pipeline.arrRef spec8 w ≠ b) :
    W22 m ρ c (Proc.devRef .tc b) = W21 m ρ c (Proc.devRef .tc b) := by
  unfold W22; exact Pipeline.withArrays_of_ne spec8 c _ _ b hb
abbrev V22 : (c : Dev nD) → (b : Ref sig .tc) → Buf (Elt F) ((c : Thread nD τ).loc b) := fun c b => W22 m ρ c b
theorem hF8 (c : Dev nD) (w : Fin cfg8.W) : (dat8 (V21 m ρ) c).arrAt w cfg8.N = V22 m ρ c (Pipeline.arrRef spec8 w) :=
  (W22_arr m ρ c w).symm
theorem hrest8 (c : Dev nD) : ∀ b, b ∉ Finset.univ.image (Pipeline.arrRef spec8) → V22 m ρ c b = V21 m ρ c b :=
  fun b hb => W22_of_ne m ρ c b fun w e => hb (Finset.mem_image.mpr ⟨w, Finset.mem_univ _, e⟩)
/-- After `hostOps9`. -/
abbrev W23 : Dev nD → Valuation τ sig (Elt F) := fun c => StableHlo.after hostOps9 (W22 m ρ c)
/-- Region 9 is entered at `W23` (read at the TensorCore's references: `V23`) and left at `W24`: its arrays at what
    the pipeline leaves (inputs as entered, the output's write-backs folded), every other buffer as entered. -/
abbrev V23 : (c : Dev nD) → (b : Ref sig .tc) → Buf (Elt F) ((c : Thread nD τ).loc b) := fun c b => W23 m ρ c b
def W24 (c : Dev nD) : Valuation τ sig (Elt F) :=
  Pipeline.withArrays spec9 c (W23 m ρ c) fun w => (dat9 (V23 m ρ) c).arrAt w cfg9.N
theorem W24_arr (c : Dev nD) (w : Fin cfg9.W) :
    W24 m ρ c (Proc.devRef .tc (Pipeline.arrRef spec9 w)) = (dat9 (V23 m ρ) c).arrAt w cfg9.N := by
  unfold W24; exact Pipeline.withArrays_arr spec9 launch9.win.arr_inj c _ _ w
theorem W24_of_ne (c : Dev nD) (b : Ref sig .tc) (hb : ∀ w, Pipeline.arrRef spec9 w ≠ b) :
    W24 m ρ c (Proc.devRef .tc b) = W23 m ρ c (Proc.devRef .tc b) := by
  unfold W24; exact Pipeline.withArrays_of_ne spec9 c _ _ b hb
abbrev V24 : (c : Dev nD) → (b : Ref sig .tc) → Buf (Elt F) ((c : Thread nD τ).loc b) := fun c b => W24 m ρ c b
theorem hF9 (c : Dev nD) (w : Fin cfg9.W) : (dat9 (V23 m ρ) c).arrAt w cfg9.N = V24 m ρ c (Pipeline.arrRef spec9 w) :=
  (W24_arr m ρ c w).symm
theorem hrest9 (c : Dev nD) : ∀ b, b ∉ Finset.univ.image (Pipeline.arrRef spec9) → V24 m ρ c b = V23 m ρ c b :=
  fun b hb => W24_of_ne m ρ c b fun w e => hb (Finset.mem_image.mpr ⟨w, Finset.mem_univ _, e⟩)
/-- After `hostOps10`. -/
abbrev W25 : Dev nD → Valuation τ sig (Elt F) := fun c => StableHlo.after hostOps10 (W24 m ρ c)
/-- Region 10 is entered at `W25` (read at the TensorCore's references: `V25`) and left at `W26`: its arrays at what
    the pipeline leaves (inputs as entered, the output's write-backs folded), every other buffer as entered. -/
abbrev V25 : (c : Dev nD) → (b : Ref sig .tc) → Buf (Elt F) ((c : Thread nD τ).loc b) := fun c b => W25 m ρ c b
def W26 (c : Dev nD) : Valuation τ sig (Elt F) :=
  Pipeline.withArrays spec10 c (W25 m ρ c) fun w => (dat10 (V25 m ρ) c).arrAt w cfg10.N
theorem W26_arr (c : Dev nD) (w : Fin cfg10.W) :
    W26 m ρ c (Proc.devRef .tc (Pipeline.arrRef spec10 w)) = (dat10 (V25 m ρ) c).arrAt w cfg10.N := by
  unfold W26; exact Pipeline.withArrays_arr spec10 launch10.win.arr_inj c _ _ w
theorem W26_of_ne (c : Dev nD) (b : Ref sig .tc) (hb : ∀ w, Pipeline.arrRef spec10 w ≠ b) :
    W26 m ρ c (Proc.devRef .tc b) = W25 m ρ c (Proc.devRef .tc b) := by
  unfold W26; exact Pipeline.withArrays_of_ne spec10 c _ _ b hb
abbrev V26 : (c : Dev nD) → (b : Ref sig .tc) → Buf (Elt F) ((c : Thread nD τ).loc b) := fun c b => W26 m ρ c b
theorem hF10 (c : Dev nD) (w : Fin cfg10.W) : (dat10 (V25 m ρ) c).arrAt w cfg10.N = V26 m ρ c (Pipeline.arrRef spec10 w) :=
  (W26_arr m ρ c w).symm
theorem hrest10 (c : Dev nD) : ∀ b, b ∉ Finset.univ.image (Pipeline.arrRef spec10) → V26 m ρ c b = V25 m ρ c b :=
  fun b hb => W26_of_ne m ρ c b fun w e => hb (Finset.mem_image.mpr ⟨w, Finset.mem_univ _, e⟩)
/-- After `hostOps11`. -/
abbrev W27 : Dev nD → Valuation τ sig (Elt F) := fun c => StableHlo.after hostOps11 (W26 m ρ c)
/-- Region 11 is entered at `W27` (read at the TensorCore's references: `V27`) and left at `W28`: its arrays at what
    the pipeline leaves (inputs as entered, the output's write-backs folded), every other buffer as entered. -/
abbrev V27 : (c : Dev nD) → (b : Ref sig .tc) → Buf (Elt F) ((c : Thread nD τ).loc b) := fun c b => W27 m ρ c b
def W28 (c : Dev nD) : Valuation τ sig (Elt F) :=
  Pipeline.withArrays spec11 c (W27 m ρ c) fun w => (dat11 (V27 m ρ) c).arrAt w cfg11.N
theorem W28_arr (c : Dev nD) (w : Fin cfg11.W) :
    W28 m ρ c (Proc.devRef .tc (Pipeline.arrRef spec11 w)) = (dat11 (V27 m ρ) c).arrAt w cfg11.N := by
  unfold W28; exact Pipeline.withArrays_arr spec11 launch11.win.arr_inj c _ _ w
theorem W28_of_ne (c : Dev nD) (b : Ref sig .tc) (hb : ∀ w, Pipeline.arrRef spec11 w ≠ b) :
    W28 m ρ c (Proc.devRef .tc b) = W27 m ρ c (Proc.devRef .tc b) := by
  unfold W28; exact Pipeline.withArrays_of_ne spec11 c _ _ b hb
abbrev V28 : (c : Dev nD) → (b : Ref sig .tc) → Buf (Elt F) ((c : Thread nD τ).loc b) := fun c b => W28 m ρ c b
theorem hF11 (c : Dev nD) (w : Fin cfg11.W) : (dat11 (V27 m ρ) c).arrAt w cfg11.N = V28 m ρ c (Pipeline.arrRef spec11 w) :=
  (W28_arr m ρ c w).symm
theorem hrest11 (c : Dev nD) : ∀ b, b ∉ Finset.univ.image (Pipeline.arrRef spec11) → V28 m ρ c b = V27 m ρ c b :=
  fun b hb => W28_of_ne m ρ c b fun w e => hb (Finset.mem_image.mpr ⟨w, Finset.mem_univ _, e⟩)
/-- After `hostOps12`. -/
abbrev W29 : Dev nD → Valuation τ sig (Elt F) := fun c => StableHlo.after hostOps12 (W28 m ρ c)
/-- Region 12 is entered at `W29` (read at the TensorCore's references: `V29`) and left at `W30`: its arrays at what
    the pipeline leaves (inputs as entered, the output's write-backs folded), every other buffer as entered. -/
abbrev V29 : (c : Dev nD) → (b : Ref sig .tc) → Buf (Elt F) ((c : Thread nD τ).loc b) := fun c b => W29 m ρ c b
def W30 (c : Dev nD) : Valuation τ sig (Elt F) :=
  Pipeline.withArrays spec12 c (W29 m ρ c) fun w => (dat12 (V29 m ρ) c).arrAt w cfg12.N
theorem W30_arr (c : Dev nD) (w : Fin cfg12.W) :
    W30 m ρ c (Proc.devRef .tc (Pipeline.arrRef spec12 w)) = (dat12 (V29 m ρ) c).arrAt w cfg12.N := by
  unfold W30; exact Pipeline.withArrays_arr spec12 launch12.win.arr_inj c _ _ w
theorem W30_of_ne (c : Dev nD) (b : Ref sig .tc) (hb : ∀ w, Pipeline.arrRef spec12 w ≠ b) :
    W30 m ρ c (Proc.devRef .tc b) = W29 m ρ c (Proc.devRef .tc b) := by
  unfold W30; exact Pipeline.withArrays_of_ne spec12 c _ _ b hb
abbrev V30 : (c : Dev nD) → (b : Ref sig .tc) → Buf (Elt F) ((c : Thread nD τ).loc b) := fun c b => W30 m ρ c b
theorem hF12 (c : Dev nD) (w : Fin cfg12.W) : (dat12 (V29 m ρ) c).arrAt w cfg12.N = V30 m ρ c (Pipeline.arrRef spec12 w) :=
  (W30_arr m ρ c w).symm
theorem hrest12 (c : Dev nD) : ∀ b, b ∉ Finset.univ.image (Pipeline.arrRef spec12) → V30 m ρ c b = V29 m ρ c b :=
  fun b hb => W30_of_ne m ρ c b fun w e => hb (Finset.mem_image.mpr ⟨w, Finset.mem_univ _, e⟩)
/-- After `hostOps13`. -/
abbrev W31 : Dev nD → Valuation τ sig (Elt F) := fun c => StableHlo.after hostOps13 (W30 m ρ c)
/-- Region 13 is entered at `W31` (read at the TensorCore's references: `V31`) and left at `W32`: its arrays at what
    the pipeline leaves (inputs as entered, the output's write-backs folded), every other buffer as entered. -/
abbrev V31 : (c : Dev nD) → (b : Ref sig .tc) → Buf (Elt F) ((c : Thread nD τ).loc b) := fun c b => W31 m ρ c b
def W32 (c : Dev nD) : Valuation τ sig (Elt F) :=
  Pipeline.withArrays spec13 c (W31 m ρ c) fun w => (dat13 (V31 m ρ) c).arrAt w cfg13.N
theorem W32_arr (c : Dev nD) (w : Fin cfg13.W) :
    W32 m ρ c (Proc.devRef .tc (Pipeline.arrRef spec13 w)) = (dat13 (V31 m ρ) c).arrAt w cfg13.N := by
  unfold W32; exact Pipeline.withArrays_arr spec13 launch13.win.arr_inj c _ _ w
theorem W32_of_ne (c : Dev nD) (b : Ref sig .tc) (hb : ∀ w, Pipeline.arrRef spec13 w ≠ b) :
    W32 m ρ c (Proc.devRef .tc b) = W31 m ρ c (Proc.devRef .tc b) := by
  unfold W32; exact Pipeline.withArrays_of_ne spec13 c _ _ b hb
abbrev V32 : (c : Dev nD) → (b : Ref sig .tc) → Buf (Elt F) ((c : Thread nD τ).loc b) := fun c b => W32 m ρ c b
theorem hF13 (c : Dev nD) (w : Fin cfg13.W) : (dat13 (V31 m ρ) c).arrAt w cfg13.N = V32 m ρ c (Pipeline.arrRef spec13 w) :=
  (W32_arr m ρ c w).symm
theorem hrest13 (c : Dev nD) : ∀ b, b ∉ Finset.univ.image (Pipeline.arrRef spec13) → V32 m ρ c b = V31 m ρ c b :=
  fun b hb => W32_of_ne m ρ c b fun w e => hb (Finset.mem_image.mpr ⟨w, Finset.mem_univ _, e⟩)
/-- After `hostOps14`. -/
abbrev W33 : Dev nD → Valuation τ sig (Elt F) := fun c => StableHlo.after hostOps14 (W32 m ρ c)
/-- Region 14 is entered at `W33` (read at the TensorCore's references: `V33`) and left at `W34`: its arrays at what
    the pipeline leaves (inputs as entered, the output's write-backs folded), every other buffer as entered. -/
abbrev V33 : (c : Dev nD) → (b : Ref sig .tc) → Buf (Elt F) ((c : Thread nD τ).loc b) := fun c b => W33 m ρ c b
def W34 (c : Dev nD) : Valuation τ sig (Elt F) :=
  Pipeline.withArrays spec14 c (W33 m ρ c) fun w => (dat14 (V33 m ρ) c).arrAt w cfg14.N
theorem W34_arr (c : Dev nD) (w : Fin cfg14.W) :
    W34 m ρ c (Proc.devRef .tc (Pipeline.arrRef spec14 w)) = (dat14 (V33 m ρ) c).arrAt w cfg14.N := by
  unfold W34; exact Pipeline.withArrays_arr spec14 launch14.win.arr_inj c _ _ w
theorem W34_of_ne (c : Dev nD) (b : Ref sig .tc) (hb : ∀ w, Pipeline.arrRef spec14 w ≠ b) :
    W34 m ρ c (Proc.devRef .tc b) = W33 m ρ c (Proc.devRef .tc b) := by
  unfold W34; exact Pipeline.withArrays_of_ne spec14 c _ _ b hb
abbrev V34 : (c : Dev nD) → (b : Ref sig .tc) → Buf (Elt F) ((c : Thread nD τ).loc b) := fun c b => W34 m ρ c b
theorem hF14 (c : Dev nD) (w : Fin cfg14.W) : (dat14 (V33 m ρ) c).arrAt w cfg14.N = V34 m ρ c (Pipeline.arrRef spec14 w) :=
  (W34_arr m ρ c w).symm
theorem hrest14 (c : Dev nD) : ∀ b, b ∉ Finset.univ.image (Pipeline.arrRef spec14) → V34 m ρ c b = V33 m ρ c b :=
  fun b hb => W34_of_ne m ρ c b fun w e => hb (Finset.mem_image.mpr ⟨w, Finset.mem_univ _, e⟩)
/-- After `hostOps15`. -/
abbrev W35 : Dev nD → Valuation τ sig (Elt F) := fun c => StableHlo.after hostOps15 (W34 m ρ c)
/-- After `hostOps15_1`. -/
abbrev W36 : Dev nD → Valuation τ sig (Elt F) := fun c => StableHlo.after hostOps15_1 (W35 m ρ c)
/-- After `hostOps15_2`. -/
abbrev W37 : Dev nD → Valuation τ sig (Elt F) := fun c => StableHlo.after hostOps15_2 (W36 m ρ c)
/-- After `hostOps15_3`. -/
abbrev W38 : Dev nD → Valuation τ sig (Elt F) := fun c => StableHlo.after hostOps15_3 (W37 m ρ c)
/-- After `hostOps15_4`. -/
abbrev W39 : Dev nD → Valuation τ sig (Elt F) := fun c => StableHlo.after hostOps15_4 (W38 m ρ c)
/-- Region 15 is entered at `W39` (read at the TensorCore's references: `V39`) and left at `W40`: its arrays at what
    the pipeline leaves (inputs as entered, the output's write-backs folded), every other buffer as entered. -/
abbrev V39 : (c : Dev nD) → (b : Ref sig .tc) → Buf (Elt F) ((c : Thread nD τ).loc b) := fun c b => W39 m ρ c b
def W40 (c : Dev nD) : Valuation τ sig (Elt F) :=
  Pipeline.withArrays spec15 c (W39 m ρ c) fun w => (dat15 (V39 m ρ) c).arrAt w cfg15.N
theorem W40_arr (c : Dev nD) (w : Fin cfg15.W) :
    W40 m ρ c (Proc.devRef .tc (Pipeline.arrRef spec15 w)) = (dat15 (V39 m ρ) c).arrAt w cfg15.N := by
  unfold W40; exact Pipeline.withArrays_arr spec15 launch15.win.arr_inj c _ _ w
theorem W40_of_ne (c : Dev nD) (b : Ref sig .tc) (hb : ∀ w, Pipeline.arrRef spec15 w ≠ b) :
    W40 m ρ c (Proc.devRef .tc b) = W39 m ρ c (Proc.devRef .tc b) := by
  unfold W40; exact Pipeline.withArrays_of_ne spec15 c _ _ b hb
abbrev V40 : (c : Dev nD) → (b : Ref sig .tc) → Buf (Elt F) ((c : Thread nD τ).loc b) := fun c b => W40 m ρ c b
theorem hF15 (c : Dev nD) (w : Fin cfg15.W) : (dat15 (V39 m ρ) c).arrAt w cfg15.N = V40 m ρ c (Pipeline.arrRef spec15 w) :=
  (W40_arr m ρ c w).symm
theorem hrest15 (c : Dev nD) : ∀ b, b ∉ Finset.univ.image (Pipeline.arrRef spec15) → V40 m ρ c b = V39 m ρ c b :=
  fun b hb => W40_of_ne m ρ c b fun w e => hb (Finset.mem_image.mpr ⟨w, Finset.mem_univ _, e⟩)
/-- After `hostOps16`. -/
abbrev W41 : Dev nD → Valuation τ sig (Elt F) := fun c => StableHlo.after hostOps16 (W40 m ρ c)
/-- Region 16 is entered at `W41` (read at the TensorCore's references: `V41`) and left at `W42`: its arrays at what
    the pipeline leaves (inputs as entered, the output's write-backs folded), every other buffer as entered. -/
abbrev V41 : (c : Dev nD) → (b : Ref sig .tc) → Buf (Elt F) ((c : Thread nD τ).loc b) := fun c b => W41 m ρ c b
def W42 (c : Dev nD) : Valuation τ sig (Elt F) :=
  Pipeline.withArrays spec16 c (W41 m ρ c) fun w => (dat16 (V41 m ρ) c).arrAt w cfg16.N
theorem W42_arr (c : Dev nD) (w : Fin cfg16.W) :
    W42 m ρ c (Proc.devRef .tc (Pipeline.arrRef spec16 w)) = (dat16 (V41 m ρ) c).arrAt w cfg16.N := by
  unfold W42; exact Pipeline.withArrays_arr spec16 launch16.win.arr_inj c _ _ w
theorem W42_of_ne (c : Dev nD) (b : Ref sig .tc) (hb : ∀ w, Pipeline.arrRef spec16 w ≠ b) :
    W42 m ρ c (Proc.devRef .tc b) = W41 m ρ c (Proc.devRef .tc b) := by
  unfold W42; exact Pipeline.withArrays_of_ne spec16 c _ _ b hb
abbrev V42 : (c : Dev nD) → (b : Ref sig .tc) → Buf (Elt F) ((c : Thread nD τ).loc b) := fun c b => W42 m ρ c b
theorem hF16 (c : Dev nD) (w : Fin cfg16.W) : (dat16 (V41 m ρ) c).arrAt w cfg16.N = V42 m ρ c (Pipeline.arrRef spec16 w) :=
  (W42_arr m ρ c w).symm
theorem hrest16 (c : Dev nD) : ∀ b, b ∉ Finset.univ.image (Pipeline.arrRef spec16) → V42 m ρ c b = V41 m ρ c b :=
  fun b hb => W42_of_ne m ρ c b fun w e => hb (Finset.mem_image.mpr ⟨w, Finset.mem_univ _, e⟩)
/-- After `hostOps17`. -/
abbrev W43 : Dev nD → Valuation τ sig (Elt F) := fun c => StableHlo.after hostOps17 (W42 m ρ c)
/-- Region 17 is entered at `W43` (read at the TensorCore's references: `V43`) and left at `W44`: its arrays at what
    the pipeline leaves (inputs as entered, the output's write-backs folded), every other buffer as entered. -/
abbrev V43 : (c : Dev nD) → (b : Ref sig .tc) → Buf (Elt F) ((c : Thread nD τ).loc b) := fun c b => W43 m ρ c b
def W44 (c : Dev nD) : Valuation τ sig (Elt F) :=
  Pipeline.withArrays spec17 c (W43 m ρ c) fun w => (dat17 (V43 m ρ) c).arrAt w cfg17.N
theorem W44_arr (c : Dev nD) (w : Fin cfg17.W) :
    W44 m ρ c (Proc.devRef .tc (Pipeline.arrRef spec17 w)) = (dat17 (V43 m ρ) c).arrAt w cfg17.N := by
  unfold W44; exact Pipeline.withArrays_arr spec17 launch17.win.arr_inj c _ _ w
theorem W44_of_ne (c : Dev nD) (b : Ref sig .tc) (hb : ∀ w, Pipeline.arrRef spec17 w ≠ b) :
    W44 m ρ c (Proc.devRef .tc b) = W43 m ρ c (Proc.devRef .tc b) := by
  unfold W44; exact Pipeline.withArrays_of_ne spec17 c _ _ b hb
abbrev V44 : (c : Dev nD) → (b : Ref sig .tc) → Buf (Elt F) ((c : Thread nD τ).loc b) := fun c b => W44 m ρ c b
theorem hF17 (c : Dev nD) (w : Fin cfg17.W) : (dat17 (V43 m ρ) c).arrAt w cfg17.N = V44 m ρ c (Pipeline.arrRef spec17 w) :=
  (W44_arr m ρ c w).symm
theorem hrest17 (c : Dev nD) : ∀ b, b ∉ Finset.univ.image (Pipeline.arrRef spec17) → V44 m ρ c b = V43 m ρ c b :=
  fun b hb => W44_of_ne m ρ c b fun w e => hb (Finset.mem_image.mpr ⟨w, Finset.mem_univ _, e⟩)
/-- After `hostOps18`. -/
abbrev W45 : Dev nD → Valuation τ sig (Elt F) := fun c => StableHlo.after hostOps18 (W44 m ρ c)
/-- Region 18 is entered at `W45` (read at the TensorCore's references: `V45`) and left at `W46`: its arrays at what
    the pipeline leaves (inputs as entered, the output's write-backs folded), every other buffer as entered. -/
abbrev V45 : (c : Dev nD) → (b : Ref sig .tc) → Buf (Elt F) ((c : Thread nD τ).loc b) := fun c b => W45 m ρ c b
def W46 (c : Dev nD) : Valuation τ sig (Elt F) :=
  Pipeline.withArrays spec18 c (W45 m ρ c) fun w => (dat18 (V45 m ρ) c).arrAt w cfg18.N
theorem W46_arr (c : Dev nD) (w : Fin cfg18.W) :
    W46 m ρ c (Proc.devRef .tc (Pipeline.arrRef spec18 w)) = (dat18 (V45 m ρ) c).arrAt w cfg18.N := by
  unfold W46; exact Pipeline.withArrays_arr spec18 launch18.win.arr_inj c _ _ w
theorem W46_of_ne (c : Dev nD) (b : Ref sig .tc) (hb : ∀ w, Pipeline.arrRef spec18 w ≠ b) :
    W46 m ρ c (Proc.devRef .tc b) = W45 m ρ c (Proc.devRef .tc b) := by
  unfold W46; exact Pipeline.withArrays_of_ne spec18 c _ _ b hb
abbrev V46 : (c : Dev nD) → (b : Ref sig .tc) → Buf (Elt F) ((c : Thread nD τ).loc b) := fun c b => W46 m ρ c b
theorem hF18 (c : Dev nD) (w : Fin cfg18.W) : (dat18 (V45 m ρ) c).arrAt w cfg18.N = V46 m ρ c (Pipeline.arrRef spec18 w) :=
  (W46_arr m ρ c w).symm
theorem hrest18 (c : Dev nD) : ∀ b, b ∉ Finset.univ.image (Pipeline.arrRef spec18) → V46 m ρ c b = V45 m ρ c b :=
  fun b hb => W46_of_ne m ρ c b fun w e => hb (Finset.mem_image.mpr ⟨w, Finset.mem_univ _, e⟩)
/-- After `hostOps19`. -/
abbrev W47 : Dev nD → Valuation τ sig (Elt F) := fun c => StableHlo.after hostOps19 (W46 m ρ c)
/-- Region 19 is entered at `W47` (read at the TensorCore's references: `V47`) and left at `W48`: its arrays at what
    the pipeline leaves (inputs as entered, the output's write-backs folded), every other buffer as entered. -/
abbrev V47 : (c : Dev nD) → (b : Ref sig .tc) → Buf (Elt F) ((c : Thread nD τ).loc b) := fun c b => W47 m ρ c b
def W48 (c : Dev nD) : Valuation τ sig (Elt F) :=
  Pipeline.withArrays spec19 c (W47 m ρ c) fun w => (dat19 (V47 m ρ) c).arrAt w cfg19.N
theorem W48_arr (c : Dev nD) (w : Fin cfg19.W) :
    W48 m ρ c (Proc.devRef .tc (Pipeline.arrRef spec19 w)) = (dat19 (V47 m ρ) c).arrAt w cfg19.N := by
  unfold W48; exact Pipeline.withArrays_arr spec19 launch19.win.arr_inj c _ _ w
theorem W48_of_ne (c : Dev nD) (b : Ref sig .tc) (hb : ∀ w, Pipeline.arrRef spec19 w ≠ b) :
    W48 m ρ c (Proc.devRef .tc b) = W47 m ρ c (Proc.devRef .tc b) := by
  unfold W48; exact Pipeline.withArrays_of_ne spec19 c _ _ b hb
abbrev V48 : (c : Dev nD) → (b : Ref sig .tc) → Buf (Elt F) ((c : Thread nD τ).loc b) := fun c b => W48 m ρ c b
theorem hF19 (c : Dev nD) (w : Fin cfg19.W) : (dat19 (V47 m ρ) c).arrAt w cfg19.N = V48 m ρ c (Pipeline.arrRef spec19 w) :=
  (W48_arr m ρ c w).symm
theorem hrest19 (c : Dev nD) : ∀ b, b ∉ Finset.univ.image (Pipeline.arrRef spec19) → V48 m ρ c b = V47 m ρ c b :=
  fun b hb => W48_of_ne m ρ c b fun w e => hb (Finset.mem_image.mpr ⟨w, Finset.mem_univ _, e⟩)
/-- After `hostOps20`. -/
abbrev W49 : Dev nD → Valuation τ sig (Elt F) := fun c => StableHlo.after hostOps20 (W48 m ρ c)
/-- Region 20 is entered at `W49` (read at the TensorCore's references: `V49`) and left at `W50`: its arrays at what
    the pipeline leaves (inputs as entered, the output's write-backs folded), every other buffer as entered. -/
abbrev V49 : (c : Dev nD) → (b : Ref sig .tc) → Buf (Elt F) ((c : Thread nD τ).loc b) := fun c b => W49 m ρ c b
def W50 (c : Dev nD) : Valuation τ sig (Elt F) :=
  Pipeline.withArrays spec20 c (W49 m ρ c) fun w => (dat20 (V49 m ρ) c).arrAt w cfg20.N
theorem W50_arr (c : Dev nD) (w : Fin cfg20.W) :
    W50 m ρ c (Proc.devRef .tc (Pipeline.arrRef spec20 w)) = (dat20 (V49 m ρ) c).arrAt w cfg20.N := by
  unfold W50; exact Pipeline.withArrays_arr spec20 launch20.win.arr_inj c _ _ w
theorem W50_of_ne (c : Dev nD) (b : Ref sig .tc) (hb : ∀ w, Pipeline.arrRef spec20 w ≠ b) :
    W50 m ρ c (Proc.devRef .tc b) = W49 m ρ c (Proc.devRef .tc b) := by
  unfold W50; exact Pipeline.withArrays_of_ne spec20 c _ _ b hb
abbrev V50 : (c : Dev nD) → (b : Ref sig .tc) → Buf (Elt F) ((c : Thread nD τ).loc b) := fun c b => W50 m ρ c b
theorem hF20 (c : Dev nD) (w : Fin cfg20.W) : (dat20 (V49 m ρ) c).arrAt w cfg20.N = V50 m ρ c (Pipeline.arrRef spec20 w) :=
  (W50_arr m ρ c w).symm
theorem hrest20 (c : Dev nD) : ∀ b, b ∉ Finset.univ.image (Pipeline.arrRef spec20) → V50 m ρ c b = V49 m ρ c b :=
  fun b hb => W50_of_ne m ρ c b fun w e => hb (Finset.mem_image.mpr ⟨w, Finset.mem_univ _, e⟩)
/-- After `hostOps21`. -/
abbrev W51 : Dev nD → Valuation τ sig (Elt F) := fun c => StableHlo.after hostOps21 (W50 m ρ c)
/-- Region 21 is entered at `W51` (read at the TensorCore's references: `V51`) and left at `W52`: its arrays at what
    the pipeline leaves (inputs as entered, the output's write-backs folded), every other buffer as entered. -/
abbrev V51 : (c : Dev nD) → (b : Ref sig .tc) → Buf (Elt F) ((c : Thread nD τ).loc b) := fun c b => W51 m ρ c b
def W52 (c : Dev nD) : Valuation τ sig (Elt F) :=
  Pipeline.withArrays spec21 c (W51 m ρ c) fun w => (dat21 (V51 m ρ) c).arrAt w cfg21.N
theorem W52_arr (c : Dev nD) (w : Fin cfg21.W) :
    W52 m ρ c (Proc.devRef .tc (Pipeline.arrRef spec21 w)) = (dat21 (V51 m ρ) c).arrAt w cfg21.N := by
  unfold W52; exact Pipeline.withArrays_arr spec21 launch21.win.arr_inj c _ _ w
theorem W52_of_ne (c : Dev nD) (b : Ref sig .tc) (hb : ∀ w, Pipeline.arrRef spec21 w ≠ b) :
    W52 m ρ c (Proc.devRef .tc b) = W51 m ρ c (Proc.devRef .tc b) := by
  unfold W52; exact Pipeline.withArrays_of_ne spec21 c _ _ b hb
abbrev V52 : (c : Dev nD) → (b : Ref sig .tc) → Buf (Elt F) ((c : Thread nD τ).loc b) := fun c b => W52 m ρ c b
theorem hF21 (c : Dev nD) (w : Fin cfg21.W) : (dat21 (V51 m ρ) c).arrAt w cfg21.N = V52 m ρ c (Pipeline.arrRef spec21 w) :=
  (W52_arr m ρ c w).symm
theorem hrest21 (c : Dev nD) : ∀ b, b ∉ Finset.univ.image (Pipeline.arrRef spec21) → V52 m ρ c b = V51 m ρ c b :=
  fun b hb => W52_of_ne m ρ c b fun w e => hb (Finset.mem_image.mpr ⟨w, Finset.mem_univ _, e⟩)
/-- After `hostOps22`. -/
abbrev W53 : Dev nD → Valuation τ sig (Elt F) := fun c => StableHlo.after hostOps22 (W52 m ρ c)
/-- Region 22 is entered at `W53` (read at the TensorCore's references: `V53`) and left at `W54`: its arrays at what
    the pipeline leaves (inputs as entered, the output's write-backs folded), every other buffer as entered. -/
abbrev V53 : (c : Dev nD) → (b : Ref sig .tc) → Buf (Elt F) ((c : Thread nD τ).loc b) := fun c b => W53 m ρ c b
def W54 (c : Dev nD) : Valuation τ sig (Elt F) :=
  Pipeline.withArrays spec22 c (W53 m ρ c) fun w => (dat22 (V53 m ρ) c).arrAt w cfg22.N
theorem W54_arr (c : Dev nD) (w : Fin cfg22.W) :
    W54 m ρ c (Proc.devRef .tc (Pipeline.arrRef spec22 w)) = (dat22 (V53 m ρ) c).arrAt w cfg22.N := by
  unfold W54; exact Pipeline.withArrays_arr spec22 launch22.win.arr_inj c _ _ w
theorem W54_of_ne (c : Dev nD) (b : Ref sig .tc) (hb : ∀ w, Pipeline.arrRef spec22 w ≠ b) :
    W54 m ρ c (Proc.devRef .tc b) = W53 m ρ c (Proc.devRef .tc b) := by
  unfold W54; exact Pipeline.withArrays_of_ne spec22 c _ _ b hb
abbrev V54 : (c : Dev nD) → (b : Ref sig .tc) → Buf (Elt F) ((c : Thread nD τ).loc b) := fun c b => W54 m ρ c b
theorem hF22 (c : Dev nD) (w : Fin cfg22.W) : (dat22 (V53 m ρ) c).arrAt w cfg22.N = V54 m ρ c (Pipeline.arrRef spec22 w) :=
  (W54_arr m ρ c w).symm
theorem hrest22 (c : Dev nD) : ∀ b, b ∉ Finset.univ.image (Pipeline.arrRef spec22) → V54 m ρ c b = V53 m ρ c b :=
  fun b hb => W54_of_ne m ρ c b fun w e => hb (Finset.mem_image.mpr ⟨w, Finset.mem_univ _, e⟩)
/-- After `hostOps23`. -/
abbrev W55 : Dev nD → Valuation τ sig (Elt F) := fun c => StableHlo.after hostOps23 (W54 m ρ c)
/-- Region 23 is entered at `W55` (read at the TensorCore's references: `V55`) and left at `W56`: its arrays at what
    the pipeline leaves (inputs as entered, the output's write-backs folded), every other buffer as entered. -/
abbrev V55 : (c : Dev nD) → (b : Ref sig .tc) → Buf (Elt F) ((c : Thread nD τ).loc b) := fun c b => W55 m ρ c b
def W56 (c : Dev nD) : Valuation τ sig (Elt F) :=
  Pipeline.withArrays spec23 c (W55 m ρ c) fun w => (dat23 (V55 m ρ) c).arrAt w cfg23.N
theorem W56_arr (c : Dev nD) (w : Fin cfg23.W) :
    W56 m ρ c (Proc.devRef .tc (Pipeline.arrRef spec23 w)) = (dat23 (V55 m ρ) c).arrAt w cfg23.N := by
  unfold W56; exact Pipeline.withArrays_arr spec23 launch23.win.arr_inj c _ _ w
theorem W56_of_ne (c : Dev nD) (b : Ref sig .tc) (hb : ∀ w, Pipeline.arrRef spec23 w ≠ b) :
    W56 m ρ c (Proc.devRef .tc b) = W55 m ρ c (Proc.devRef .tc b) := by
  unfold W56; exact Pipeline.withArrays_of_ne spec23 c _ _ b hb
abbrev V56 : (c : Dev nD) → (b : Ref sig .tc) → Buf (Elt F) ((c : Thread nD τ).loc b) := fun c b => W56 m ρ c b
theorem hF23 (c : Dev nD) (w : Fin cfg23.W) : (dat23 (V55 m ρ) c).arrAt w cfg23.N = V56 m ρ c (Pipeline.arrRef spec23 w) :=
  (W56_arr m ρ c w).symm
theorem hrest23 (c : Dev nD) : ∀ b, b ∉ Finset.univ.image (Pipeline.arrRef spec23) → V56 m ρ c b = V55 m ρ c b :=
  fun b hb => W56_of_ne m ρ c b fun w e => hb (Finset.mem_image.mpr ⟨w, Finset.mem_univ _, e⟩)
/-- After `hostOps24`. -/
abbrev W57 : Dev nD → Valuation τ sig (Elt F) := fun c => StableHlo.after hostOps24 (W56 m ρ c)
/-- Region 24 is entered at `W57` (read at the TensorCore's references: `V57`) and left at `W58`: its arrays at what
    the pipeline leaves (inputs as entered, the output's write-backs folded), every other buffer as entered. -/
abbrev V57 : (c : Dev nD) → (b : Ref sig .tc) → Buf (Elt F) ((c : Thread nD τ).loc b) := fun c b => W57 m ρ c b
def W58 (c : Dev nD) : Valuation τ sig (Elt F) :=
  Pipeline.withArrays spec24 c (W57 m ρ c) fun w => (dat24 (V57 m ρ) c).arrAt w cfg24.N
theorem W58_arr (c : Dev nD) (w : Fin cfg24.W) :
    W58 m ρ c (Proc.devRef .tc (Pipeline.arrRef spec24 w)) = (dat24 (V57 m ρ) c).arrAt w cfg24.N := by
  unfold W58; exact Pipeline.withArrays_arr spec24 launch24.win.arr_inj c _ _ w
theorem W58_of_ne (c : Dev nD) (b : Ref sig .tc) (hb : ∀ w, Pipeline.arrRef spec24 w ≠ b) :
    W58 m ρ c (Proc.devRef .tc b) = W57 m ρ c (Proc.devRef .tc b) := by
  unfold W58; exact Pipeline.withArrays_of_ne spec24 c _ _ b hb
abbrev V58 : (c : Dev nD) → (b : Ref sig .tc) → Buf (Elt F) ((c : Thread nD τ).loc b) := fun c b => W58 m ρ c b
theorem hF24 (c : Dev nD) (w : Fin cfg24.W) : (dat24 (V57 m ρ) c).arrAt w cfg24.N = V58 m ρ c (Pipeline.arrRef spec24 w) :=
  (W58_arr m ρ c w).symm
theorem hrest24 (c : Dev nD) : ∀ b, b ∉ Finset.univ.image (Pipeline.arrRef spec24) → V58 m ρ c b = V57 m ρ c b :=
  fun b hb => W58_of_ne m ρ c b fun w e => hb (Finset.mem_image.mpr ⟨w, Finset.mem_univ _, e⟩)
/-- After `hostOps25`. -/
abbrev W59 : Dev nD → Valuation τ sig (Elt F) := fun c => StableHlo.after hostOps25 (W58 m ρ c)
/-- After `hostOps25_1`. -/
abbrev W60 : Dev nD → Valuation τ sig (Elt F) := fun c => StableHlo.after hostOps25_1 (W59 m ρ c)
/-- After `hostOps25_2`. -/
abbrev W61 : Dev nD → Valuation τ sig (Elt F) := fun c => StableHlo.after hostOps25_2 (W60 m ρ c)
/-- After `hostOps25_3`. -/
abbrev W62 : Dev nD → Valuation τ sig (Elt F) := fun c => StableHlo.after hostOps25_3 (W61 m ρ c)
/-- After `hostOps25_4`. -/
abbrev W63 : Dev nD → Valuation τ sig (Elt F) := fun c => StableHlo.after hostOps25_4 (W62 m ρ c)
/-- Region 25 is entered at `W63` (read at the TensorCore's references: `V63`) and left at `W64`: its arrays at what
    the pipeline leaves (inputs as entered, the output's write-backs folded), every other buffer as entered. -/
abbrev V63 : (c : Dev nD) → (b : Ref sig .tc) → Buf (Elt F) ((c : Thread nD τ).loc b) := fun c b => W63 m ρ c b
def W64 (c : Dev nD) : Valuation τ sig (Elt F) :=
  Pipeline.withArrays spec25 c (W63 m ρ c) fun w => (dat25 (V63 m ρ) c).arrAt w cfg25.N
theorem W64_arr (c : Dev nD) (w : Fin cfg25.W) :
    W64 m ρ c (Proc.devRef .tc (Pipeline.arrRef spec25 w)) = (dat25 (V63 m ρ) c).arrAt w cfg25.N := by
  unfold W64; exact Pipeline.withArrays_arr spec25 launch25.win.arr_inj c _ _ w
theorem W64_of_ne (c : Dev nD) (b : Ref sig .tc) (hb : ∀ w, Pipeline.arrRef spec25 w ≠ b) :
    W64 m ρ c (Proc.devRef .tc b) = W63 m ρ c (Proc.devRef .tc b) := by
  unfold W64; exact Pipeline.withArrays_of_ne spec25 c _ _ b hb
abbrev V64 : (c : Dev nD) → (b : Ref sig .tc) → Buf (Elt F) ((c : Thread nD τ).loc b) := fun c b => W64 m ρ c b
theorem hF25 (c : Dev nD) (w : Fin cfg25.W) : (dat25 (V63 m ρ) c).arrAt w cfg25.N = V64 m ρ c (Pipeline.arrRef spec25 w) :=
  (W64_arr m ρ c w).symm
theorem hrest25 (c : Dev nD) : ∀ b, b ∉ Finset.univ.image (Pipeline.arrRef spec25) → V64 m ρ c b = V63 m ρ c b :=
  fun b hb => W64_of_ne m ρ c b fun w e => hb (Finset.mem_image.mpr ⟨w, Finset.mem_univ _, e⟩)
/-- After `hostOps26`. -/
abbrev W65 : Dev nD → Valuation τ sig (Elt F) := fun c => StableHlo.after hostOps26 (W64 m ρ c)
/-- Region 26 is entered at `W65` (read at the TensorCore's references: `V65`) and left at `W66`: its arrays at what
    the pipeline leaves (inputs as entered, the output's write-backs folded), every other buffer as entered. -/
abbrev V65 : (c : Dev nD) → (b : Ref sig .tc) → Buf (Elt F) ((c : Thread nD τ).loc b) := fun c b => W65 m ρ c b
def W66 (c : Dev nD) : Valuation τ sig (Elt F) :=
  Pipeline.withArrays spec26 c (W65 m ρ c) fun w => (dat26 (V65 m ρ) c).arrAt w cfg26.N
theorem W66_arr (c : Dev nD) (w : Fin cfg26.W) :
    W66 m ρ c (Proc.devRef .tc (Pipeline.arrRef spec26 w)) = (dat26 (V65 m ρ) c).arrAt w cfg26.N := by
  unfold W66; exact Pipeline.withArrays_arr spec26 launch26.win.arr_inj c _ _ w
theorem W66_of_ne (c : Dev nD) (b : Ref sig .tc) (hb : ∀ w, Pipeline.arrRef spec26 w ≠ b) :
    W66 m ρ c (Proc.devRef .tc b) = W65 m ρ c (Proc.devRef .tc b) := by
  unfold W66; exact Pipeline.withArrays_of_ne spec26 c _ _ b hb
abbrev V66 : (c : Dev nD) → (b : Ref sig .tc) → Buf (Elt F) ((c : Thread nD τ).loc b) := fun c b => W66 m ρ c b
theorem hF26 (c : Dev nD) (w : Fin cfg26.W) : (dat26 (V65 m ρ) c).arrAt w cfg26.N = V66 m ρ c (Pipeline.arrRef spec26 w) :=
  (W66_arr m ρ c w).symm
theorem hrest26 (c : Dev nD) : ∀ b, b ∉ Finset.univ.image (Pipeline.arrRef spec26) → V66 m ρ c b = V65 m ρ c b :=
  fun b hb => W66_of_ne m ρ c b fun w e => hb (Finset.mem_image.mpr ⟨w, Finset.mem_univ _, e⟩)
/-- After `hostOps27`. -/
abbrev W67 : Dev nD → Valuation τ sig (Elt F) := fun c => StableHlo.after hostOps27 (W66 m ρ c)
/-- Region 27 is entered at `W67` (read at the TensorCore's references: `V67`) and left at `W68`: its arrays at what
    the pipeline leaves (inputs as entered, the output's write-backs folded), every other buffer as entered. -/
abbrev V67 : (c : Dev nD) → (b : Ref sig .tc) → Buf (Elt F) ((c : Thread nD τ).loc b) := fun c b => W67 m ρ c b
def W68 (c : Dev nD) : Valuation τ sig (Elt F) :=
  Pipeline.withArrays spec27 c (W67 m ρ c) fun w => (dat27 (V67 m ρ) c).arrAt w cfg27.N
theorem W68_arr (c : Dev nD) (w : Fin cfg27.W) :
    W68 m ρ c (Proc.devRef .tc (Pipeline.arrRef spec27 w)) = (dat27 (V67 m ρ) c).arrAt w cfg27.N := by
  unfold W68; exact Pipeline.withArrays_arr spec27 launch27.win.arr_inj c _ _ w
theorem W68_of_ne (c : Dev nD) (b : Ref sig .tc) (hb : ∀ w, Pipeline.arrRef spec27 w ≠ b) :
    W68 m ρ c (Proc.devRef .tc b) = W67 m ρ c (Proc.devRef .tc b) := by
  unfold W68; exact Pipeline.withArrays_of_ne spec27 c _ _ b hb
abbrev V68 : (c : Dev nD) → (b : Ref sig .tc) → Buf (Elt F) ((c : Thread nD τ).loc b) := fun c b => W68 m ρ c b
theorem hF27 (c : Dev nD) (w : Fin cfg27.W) : (dat27 (V67 m ρ) c).arrAt w cfg27.N = V68 m ρ c (Pipeline.arrRef spec27 w) :=
  (W68_arr m ρ c w).symm
theorem hrest27 (c : Dev nD) : ∀ b, b ∉ Finset.univ.image (Pipeline.arrRef spec27) → V68 m ρ c b = V67 m ρ c b :=
  fun b hb => W68_of_ne m ρ c b fun w e => hb (Finset.mem_image.mpr ⟨w, Finset.mem_univ _, e⟩)
/-- After `hostOps28`. -/
abbrev W69 : Dev nD → Valuation τ sig (Elt F) := fun c => StableHlo.after hostOps28 (W68 m ρ c)
/-- Region 28 is entered at `W69` (read at the TensorCore's references: `V69`) and left at `W70`: its arrays at what
    the pipeline leaves (inputs as entered, the output's write-backs folded), every other buffer as entered. -/
abbrev V69 : (c : Dev nD) → (b : Ref sig .tc) → Buf (Elt F) ((c : Thread nD τ).loc b) := fun c b => W69 m ρ c b
def W70 (c : Dev nD) : Valuation τ sig (Elt F) :=
  Pipeline.withArrays spec28 c (W69 m ρ c) fun w => (dat28 (V69 m ρ) c).arrAt w cfg28.N
theorem W70_arr (c : Dev nD) (w : Fin cfg28.W) :
    W70 m ρ c (Proc.devRef .tc (Pipeline.arrRef spec28 w)) = (dat28 (V69 m ρ) c).arrAt w cfg28.N := by
  unfold W70; exact Pipeline.withArrays_arr spec28 launch28.win.arr_inj c _ _ w
theorem W70_of_ne (c : Dev nD) (b : Ref sig .tc) (hb : ∀ w, Pipeline.arrRef spec28 w ≠ b) :
    W70 m ρ c (Proc.devRef .tc b) = W69 m ρ c (Proc.devRef .tc b) := by
  unfold W70; exact Pipeline.withArrays_of_ne spec28 c _ _ b hb
abbrev V70 : (c : Dev nD) → (b : Ref sig .tc) → Buf (Elt F) ((c : Thread nD τ).loc b) := fun c b => W70 m ρ c b
theorem hF28 (c : Dev nD) (w : Fin cfg28.W) : (dat28 (V69 m ρ) c).arrAt w cfg28.N = V70 m ρ c (Pipeline.arrRef spec28 w) :=
  (W70_arr m ρ c w).symm
theorem hrest28 (c : Dev nD) : ∀ b, b ∉ Finset.univ.image (Pipeline.arrRef spec28) → V70 m ρ c b = V69 m ρ c b :=
  fun b hb => W70_of_ne m ρ c b fun w e => hb (Finset.mem_image.mpr ⟨w, Finset.mem_univ _, e⟩)
/-- After `hostOps29`. -/
abbrev W71 : Dev nD → Valuation τ sig (Elt F) := fun c => StableHlo.after hostOps29 (W70 m ρ c)
/-- Region 29 is entered at `W71` (read at the TensorCore's references: `V71`) and left at `W72`: its arrays at what
    the pipeline leaves (inputs as entered, the output's write-backs folded), every other buffer as entered. -/
abbrev V71 : (c : Dev nD) → (b : Ref sig .tc) → Buf (Elt F) ((c : Thread nD τ).loc b) := fun c b => W71 m ρ c b
def W72 (c : Dev nD) : Valuation τ sig (Elt F) :=
  Pipeline.withArrays spec29 c (W71 m ρ c) fun w => (dat29 (V71 m ρ) c).arrAt w cfg29.N
theorem W72_arr (c : Dev nD) (w : Fin cfg29.W) :
    W72 m ρ c (Proc.devRef .tc (Pipeline.arrRef spec29 w)) = (dat29 (V71 m ρ) c).arrAt w cfg29.N := by
  unfold W72; exact Pipeline.withArrays_arr spec29 launch29.win.arr_inj c _ _ w
theorem W72_of_ne (c : Dev nD) (b : Ref sig .tc) (hb : ∀ w, Pipeline.arrRef spec29 w ≠ b) :
    W72 m ρ c (Proc.devRef .tc b) = W71 m ρ c (Proc.devRef .tc b) := by
  unfold W72; exact Pipeline.withArrays_of_ne spec29 c _ _ b hb
abbrev V72 : (c : Dev nD) → (b : Ref sig .tc) → Buf (Elt F) ((c : Thread nD τ).loc b) := fun c b => W72 m ρ c b
theorem hF29 (c : Dev nD) (w : Fin cfg29.W) : (dat29 (V71 m ρ) c).arrAt w cfg29.N = V72 m ρ c (Pipeline.arrRef spec29 w) :=
  (W72_arr m ρ c w).symm
theorem hrest29 (c : Dev nD) : ∀ b, b ∉ Finset.univ.image (Pipeline.arrRef spec29) → V72 m ρ c b = V71 m ρ c b :=
  fun b hb => W72_of_ne m ρ c b fun w e => hb (Finset.mem_image.mpr ⟨w, Finset.mem_univ _, e⟩)
/-- After `hostOps30`. -/
abbrev W73 : Dev nD → Valuation τ sig (Elt F) := fun c => StableHlo.after hostOps30 (W72 m ρ c)
/-- Region 30 is entered at `W73` (read at the TensorCore's references: `V73`) and left at `W74`: its arrays at what
    the pipeline leaves (inputs as entered, the output's write-backs folded), every other buffer as entered. -/
abbrev V73 : (c : Dev nD) → (b : Ref sig .tc) → Buf (Elt F) ((c : Thread nD τ).loc b) := fun c b => W73 m ρ c b
def W74 (c : Dev nD) : Valuation τ sig (Elt F) :=
  Pipeline.withArrays spec30 c (W73 m ρ c) fun w => (dat30 (V73 m ρ) c).arrAt w cfg30.N
theorem W74_arr (c : Dev nD) (w : Fin cfg30.W) :
    W74 m ρ c (Proc.devRef .tc (Pipeline.arrRef spec30 w)) = (dat30 (V73 m ρ) c).arrAt w cfg30.N := by
  unfold W74; exact Pipeline.withArrays_arr spec30 launch30.win.arr_inj c _ _ w
theorem W74_of_ne (c : Dev nD) (b : Ref sig .tc) (hb : ∀ w, Pipeline.arrRef spec30 w ≠ b) :
    W74 m ρ c (Proc.devRef .tc b) = W73 m ρ c (Proc.devRef .tc b) := by
  unfold W74; exact Pipeline.withArrays_of_ne spec30 c _ _ b hb
abbrev V74 : (c : Dev nD) → (b : Ref sig .tc) → Buf (Elt F) ((c : Thread nD τ).loc b) := fun c b => W74 m ρ c b
theorem hF30 (c : Dev nD) (w : Fin cfg30.W) : (dat30 (V73 m ρ) c).arrAt w cfg30.N = V74 m ρ c (Pipeline.arrRef spec30 w) :=
  (W74_arr m ρ c w).symm
theorem hrest30 (c : Dev nD) : ∀ b, b ∉ Finset.univ.image (Pipeline.arrRef spec30) → V74 m ρ c b = V73 m ρ c b :=
  fun b hb => W74_of_ne m ρ c b fun w e => hb (Finset.mem_image.mpr ⟨w, Finset.mem_univ _, e⟩)
/-- After `hostOps31`. -/
abbrev W75 : Dev nD → Valuation τ sig (Elt F) := fun c => StableHlo.after hostOps31 (W74 m ρ c)
/-- Region 31 is entered at `W75` (read at the TensorCore's references: `V75`) and left at `W76`: its arrays at what
    the pipeline leaves (inputs as entered, the output's write-backs folded), every other buffer as entered. -/
abbrev V75 : (c : Dev nD) → (b : Ref sig .tc) → Buf (Elt F) ((c : Thread nD τ).loc b) := fun c b => W75 m ρ c b
def W76 (c : Dev nD) : Valuation τ sig (Elt F) :=
  Pipeline.withArrays spec31 c (W75 m ρ c) fun w => (dat31 (V75 m ρ) c).arrAt w cfg31.N
theorem W76_arr (c : Dev nD) (w : Fin cfg31.W) :
    W76 m ρ c (Proc.devRef .tc (Pipeline.arrRef spec31 w)) = (dat31 (V75 m ρ) c).arrAt w cfg31.N := by
  unfold W76; exact Pipeline.withArrays_arr spec31 launch31.win.arr_inj c _ _ w
theorem W76_of_ne (c : Dev nD) (b : Ref sig .tc) (hb : ∀ w, Pipeline.arrRef spec31 w ≠ b) :
    W76 m ρ c (Proc.devRef .tc b) = W75 m ρ c (Proc.devRef .tc b) := by
  unfold W76; exact Pipeline.withArrays_of_ne spec31 c _ _ b hb
abbrev V76 : (c : Dev nD) → (b : Ref sig .tc) → Buf (Elt F) ((c : Thread nD τ).loc b) := fun c b => W76 m ρ c b
theorem hF31 (c : Dev nD) (w : Fin cfg31.W) : (dat31 (V75 m ρ) c).arrAt w cfg31.N = V76 m ρ c (Pipeline.arrRef spec31 w) :=
  (W76_arr m ρ c w).symm
theorem hrest31 (c : Dev nD) : ∀ b, b ∉ Finset.univ.image (Pipeline.arrRef spec31) → V76 m ρ c b = V75 m ρ c b :=
  fun b hb => W76_of_ne m ρ c b fun w e => hb (Finset.mem_image.mpr ⟨w, Finset.mem_univ _, e⟩)
/-- After `hostOps32`. -/
abbrev W77 : Dev nD → Valuation τ sig (Elt F) := fun c => StableHlo.after hostOps32 (W76 m ρ c)
/-- Region 32 is entered at `W77` (read at the TensorCore's references: `V77`) and left at `W78`: its arrays at what
    the pipeline leaves (inputs as entered, the output's write-backs folded), every other buffer as entered. -/
abbrev V77 : (c : Dev nD) → (b : Ref sig .tc) → Buf (Elt F) ((c : Thread nD τ).loc b) := fun c b => W77 m ρ c b
def W78 (c : Dev nD) : Valuation τ sig (Elt F) :=
  Pipeline.withArrays spec32 c (W77 m ρ c) fun w => (dat32 (V77 m ρ) c).arrAt w cfg32.N
theorem W78_arr (c : Dev nD) (w : Fin cfg32.W) :
    W78 m ρ c (Proc.devRef .tc (Pipeline.arrRef spec32 w)) = (dat32 (V77 m ρ) c).arrAt w cfg32.N := by
  unfold W78; exact Pipeline.withArrays_arr spec32 launch32.win.arr_inj c _ _ w
theorem W78_of_ne (c : Dev nD) (b : Ref sig .tc) (hb : ∀ w, Pipeline.arrRef spec32 w ≠ b) :
    W78 m ρ c (Proc.devRef .tc b) = W77 m ρ c (Proc.devRef .tc b) := by
  unfold W78; exact Pipeline.withArrays_of_ne spec32 c _ _ b hb
abbrev V78 : (c : Dev nD) → (b : Ref sig .tc) → Buf (Elt F) ((c : Thread nD τ).loc b) := fun c b => W78 m ρ c b
theorem hF32 (c : Dev nD) (w : Fin cfg32.W) : (dat32 (V77 m ρ) c).arrAt w cfg32.N = V78 m ρ c (Pipeline.arrRef spec32 w) :=
  (W78_arr m ρ c w).symm
theorem hrest32 (c : Dev nD) : ∀ b, b ∉ Finset.univ.image (Pipeline.arrRef spec32) → V78 m ρ c b = V77 m ρ c b :=
  fun b hb => W78_of_ne m ρ c b fun w e => hb (Finset.mem_image.mpr ⟨w, Finset.mem_univ _, e⟩)
/-- After `hostOps33`. -/
abbrev W79 : Dev nD → Valuation τ sig (Elt F) := fun c => StableHlo.after hostOps33 (W78 m ρ c)
/-- Region 33 is entered at `W79` (read at the TensorCore's references: `V79`) and left at `W80`: its arrays at what
    the pipeline leaves (inputs as entered, the output's write-backs folded), every other buffer as entered. -/
abbrev V79 : (c : Dev nD) → (b : Ref sig .tc) → Buf (Elt F) ((c : Thread nD τ).loc b) := fun c b => W79 m ρ c b
def W80 (c : Dev nD) : Valuation τ sig (Elt F) :=
  Pipeline.withArrays spec33 c (W79 m ρ c) fun w => (dat33 (V79 m ρ) c).arrAt w cfg33.N
theorem W80_arr (c : Dev nD) (w : Fin cfg33.W) :
    W80 m ρ c (Proc.devRef .tc (Pipeline.arrRef spec33 w)) = (dat33 (V79 m ρ) c).arrAt w cfg33.N := by
  unfold W80; exact Pipeline.withArrays_arr spec33 launch33.win.arr_inj c _ _ w
theorem W80_of_ne (c : Dev nD) (b : Ref sig .tc) (hb : ∀ w, Pipeline.arrRef spec33 w ≠ b) :
    W80 m ρ c (Proc.devRef .tc b) = W79 m ρ c (Proc.devRef .tc b) := by
  unfold W80; exact Pipeline.withArrays_of_ne spec33 c _ _ b hb
abbrev V80 : (c : Dev nD) → (b : Ref sig .tc) → Buf (Elt F) ((c : Thread nD τ).loc b) := fun c b => W80 m ρ c b
theorem hF33 (c : Dev nD) (w : Fin cfg33.W) : (dat33 (V79 m ρ) c).arrAt w cfg33.N = V80 m ρ c (Pipeline.arrRef spec33 w) :=
  (W80_arr m ρ c w).symm
theorem hrest33 (c : Dev nD) : ∀ b, b ∉ Finset.univ.image (Pipeline.arrRef spec33) → V80 m ρ c b = V79 m ρ c b :=
  fun b hb => W80_of_ne m ρ c b fun w e => hb (Finset.mem_image.mpr ⟨w, Finset.mem_univ _, e⟩)
/-- After `hostOps34`. -/
abbrev W81 : Dev nD → Valuation τ sig (Elt F) := fun c => StableHlo.after hostOps34 (W80 m ρ c)
/-- Region 34 is entered at `W81` (read at the TensorCore's references: `V81`) and left at `W82`: its arrays at what
    the pipeline leaves (inputs as entered, the output's write-backs folded), every other buffer as entered. -/
abbrev V81 : (c : Dev nD) → (b : Ref sig .tc) → Buf (Elt F) ((c : Thread nD τ).loc b) := fun c b => W81 m ρ c b
def W82 (c : Dev nD) : Valuation τ sig (Elt F) :=
  Pipeline.withArrays spec34 c (W81 m ρ c) fun w => (dat34 (V81 m ρ) c).arrAt w cfg34.N
theorem W82_arr (c : Dev nD) (w : Fin cfg34.W) :
    W82 m ρ c (Proc.devRef .tc (Pipeline.arrRef spec34 w)) = (dat34 (V81 m ρ) c).arrAt w cfg34.N := by
  unfold W82; exact Pipeline.withArrays_arr spec34 launch34.win.arr_inj c _ _ w
theorem W82_of_ne (c : Dev nD) (b : Ref sig .tc) (hb : ∀ w, Pipeline.arrRef spec34 w ≠ b) :
    W82 m ρ c (Proc.devRef .tc b) = W81 m ρ c (Proc.devRef .tc b) := by
  unfold W82; exact Pipeline.withArrays_of_ne spec34 c _ _ b hb
abbrev V82 : (c : Dev nD) → (b : Ref sig .tc) → Buf (Elt F) ((c : Thread nD τ).loc b) := fun c b => W82 m ρ c b
theorem hF34 (c : Dev nD) (w : Fin cfg34.W) : (dat34 (V81 m ρ) c).arrAt w cfg34.N = V82 m ρ c (Pipeline.arrRef spec34 w) :=
  (W82_arr m ρ c w).symm
theorem hrest34 (c : Dev nD) : ∀ b, b ∉ Finset.univ.image (Pipeline.arrRef spec34) → V82 m ρ c b = V81 m ρ c b :=
  fun b hb => W82_of_ne m ρ c b fun w e => hb (Finset.mem_image.mpr ⟨w, Finset.mem_univ _, e⟩)
/-- After `hostOps35`. -/
abbrev W83 : Dev nD → Valuation τ sig (Elt F) := fun c => StableHlo.after hostOps35 (W82 m ρ c)
/-- After `hostOps35_1`. -/
abbrev W84 : Dev nD → Valuation τ sig (Elt F) := fun c => StableHlo.after hostOps35_1 (W83 m ρ c)
/-- After `hostOps35_2`. -/
abbrev W85 : Dev nD → Valuation τ sig (Elt F) := fun c => StableHlo.after hostOps35_2 (W84 m ρ c)
/-- After `hostOps35_3`. -/
abbrev W86 : Dev nD → Valuation τ sig (Elt F) := fun c => StableHlo.after hostOps35_3 (W85 m ρ c)
/-- After `hostOps35_4`. -/
abbrev W87 : Dev nD → Valuation τ sig (Elt F) := fun c => StableHlo.after hostOps35_4 (W86 m ρ c)
/-- Region 35 is entered at `W87` (read at the TensorCore's references: `V87`) and left at `W88`: its arrays at what
    the pipeline leaves (inputs as entered, the output's write-backs folded), every other buffer as entered. -/
abbrev V87 : (c : Dev nD) → (b : Ref sig .tc) → Buf (Elt F) ((c : Thread nD τ).loc b) := fun c b => W87 m ρ c b
def W88 (c : Dev nD) : Valuation τ sig (Elt F) :=
  Pipeline.withArrays spec35 c (W87 m ρ c) fun w => (dat35 (V87 m ρ) c).arrAt w cfg35.N
theorem W88_arr (c : Dev nD) (w : Fin cfg35.W) :
    W88 m ρ c (Proc.devRef .tc (Pipeline.arrRef spec35 w)) = (dat35 (V87 m ρ) c).arrAt w cfg35.N := by
  unfold W88; exact Pipeline.withArrays_arr spec35 launch35.win.arr_inj c _ _ w
theorem W88_of_ne (c : Dev nD) (b : Ref sig .tc) (hb : ∀ w, Pipeline.arrRef spec35 w ≠ b) :
    W88 m ρ c (Proc.devRef .tc b) = W87 m ρ c (Proc.devRef .tc b) := by
  unfold W88; exact Pipeline.withArrays_of_ne spec35 c _ _ b hb
abbrev V88 : (c : Dev nD) → (b : Ref sig .tc) → Buf (Elt F) ((c : Thread nD τ).loc b) := fun c b => W88 m ρ c b
theorem hF35 (c : Dev nD) (w : Fin cfg35.W) : (dat35 (V87 m ρ) c).arrAt w cfg35.N = V88 m ρ c (Pipeline.arrRef spec35 w) :=
  (W88_arr m ρ c w).symm
theorem hrest35 (c : Dev nD) : ∀ b, b ∉ Finset.univ.image (Pipeline.arrRef spec35) → V88 m ρ c b = V87 m ρ c b :=
  fun b hb => W88_of_ne m ρ c b fun w e => hb (Finset.mem_image.mpr ⟨w, Finset.mem_univ _, e⟩)
/-- After `hostOps36`. -/
abbrev W89 : Dev nD → Valuation τ sig (Elt F) := fun c => StableHlo.after hostOps36 (W88 m ρ c)
/-- Region 36 is entered at `W89` (read at the TensorCore's references: `V89`) and left at `W90`: its arrays at what
    the pipeline leaves (inputs as entered, the output's write-backs folded), every other buffer as entered. -/
abbrev V89 : (c : Dev nD) → (b : Ref sig .tc) → Buf (Elt F) ((c : Thread nD τ).loc b) := fun c b => W89 m ρ c b
def W90 (c : Dev nD) : Valuation τ sig (Elt F) :=
  Pipeline.withArrays spec36 c (W89 m ρ c) fun w => (dat36 (V89 m ρ) c).arrAt w cfg36.N
theorem W90_arr (c : Dev nD) (w : Fin cfg36.W) :
    W90 m ρ c (Proc.devRef .tc (Pipeline.arrRef spec36 w)) = (dat36 (V89 m ρ) c).arrAt w cfg36.N := by
  unfold W90; exact Pipeline.withArrays_arr spec36 launch36.win.arr_inj c _ _ w
theorem W90_of_ne (c : Dev nD) (b : Ref sig .tc) (hb : ∀ w, Pipeline.arrRef spec36 w ≠ b) :
    W90 m ρ c (Proc.devRef .tc b) = W89 m ρ c (Proc.devRef .tc b) := by
  unfold W90; exact Pipeline.withArrays_of_ne spec36 c _ _ b hb
abbrev V90 : (c : Dev nD) → (b : Ref sig .tc) → Buf (Elt F) ((c : Thread nD τ).loc b) := fun c b => W90 m ρ c b
theorem hF36 (c : Dev nD) (w : Fin cfg36.W) : (dat36 (V89 m ρ) c).arrAt w cfg36.N = V90 m ρ c (Pipeline.arrRef spec36 w) :=
  (W90_arr m ρ c w).symm
theorem hrest36 (c : Dev nD) : ∀ b, b ∉ Finset.univ.image (Pipeline.arrRef spec36) → V90 m ρ c b = V89 m ρ c b :=
  fun b hb => W90_of_ne m ρ c b fun w e => hb (Finset.mem_image.mpr ⟨w, Finset.mem_univ _, e⟩)
/-- After `hostOps37`. -/
abbrev W91 : Dev nD → Valuation τ sig (Elt F) := fun c => StableHlo.after hostOps37 (W90 m ρ c)
/-- Region 37 is entered at `W91` (read at the TensorCore's references: `V91`) and left at `W92`: its arrays at what
    the pipeline leaves (inputs as entered, the output's write-backs folded), every other buffer as entered. -/
abbrev V91 : (c : Dev nD) → (b : Ref sig .tc) → Buf (Elt F) ((c : Thread nD τ).loc b) := fun c b => W91 m ρ c b
def W92 (c : Dev nD) : Valuation τ sig (Elt F) :=
  Pipeline.withArrays spec37 c (W91 m ρ c) fun w => (dat37 (V91 m ρ) c).arrAt w cfg37.N
theorem W92_arr (c : Dev nD) (w : Fin cfg37.W) :
    W92 m ρ c (Proc.devRef .tc (Pipeline.arrRef spec37 w)) = (dat37 (V91 m ρ) c).arrAt w cfg37.N := by
  unfold W92; exact Pipeline.withArrays_arr spec37 launch37.win.arr_inj c _ _ w
theorem W92_of_ne (c : Dev nD) (b : Ref sig .tc) (hb : ∀ w, Pipeline.arrRef spec37 w ≠ b) :
    W92 m ρ c (Proc.devRef .tc b) = W91 m ρ c (Proc.devRef .tc b) := by
  unfold W92; exact Pipeline.withArrays_of_ne spec37 c _ _ b hb
abbrev V92 : (c : Dev nD) → (b : Ref sig .tc) → Buf (Elt F) ((c : Thread nD τ).loc b) := fun c b => W92 m ρ c b
theorem hF37 (c : Dev nD) (w : Fin cfg37.W) : (dat37 (V91 m ρ) c).arrAt w cfg37.N = V92 m ρ c (Pipeline.arrRef spec37 w) :=
  (W92_arr m ρ c w).symm
theorem hrest37 (c : Dev nD) : ∀ b, b ∉ Finset.univ.image (Pipeline.arrRef spec37) → V92 m ρ c b = V91 m ρ c b :=
  fun b hb => W92_of_ne m ρ c b fun w e => hb (Finset.mem_image.mpr ⟨w, Finset.mem_univ _, e⟩)
/-- After `hostOps38`. -/
abbrev W93 : Dev nD → Valuation τ sig (Elt F) := fun c => StableHlo.after hostOps38 (W92 m ρ c)
/-- Region 38 is entered at `W93` (read at the TensorCore's references: `V93`) and left at `W94`: its arrays at what
    the pipeline leaves (inputs as entered, the output's write-backs folded), every other buffer as entered. -/
abbrev V93 : (c : Dev nD) → (b : Ref sig .tc) → Buf (Elt F) ((c : Thread nD τ).loc b) := fun c b => W93 m ρ c b
def W94 (c : Dev nD) : Valuation τ sig (Elt F) :=
  Pipeline.withArrays spec38 c (W93 m ρ c) fun w => (dat38 (V93 m ρ) c).arrAt w cfg38.N
theorem W94_arr (c : Dev nD) (w : Fin cfg38.W) :
    W94 m ρ c (Proc.devRef .tc (Pipeline.arrRef spec38 w)) = (dat38 (V93 m ρ) c).arrAt w cfg38.N := by
  unfold W94; exact Pipeline.withArrays_arr spec38 launch38.win.arr_inj c _ _ w
theorem W94_of_ne (c : Dev nD) (b : Ref sig .tc) (hb : ∀ w, Pipeline.arrRef spec38 w ≠ b) :
    W94 m ρ c (Proc.devRef .tc b) = W93 m ρ c (Proc.devRef .tc b) := by
  unfold W94; exact Pipeline.withArrays_of_ne spec38 c _ _ b hb
abbrev V94 : (c : Dev nD) → (b : Ref sig .tc) → Buf (Elt F) ((c : Thread nD τ).loc b) := fun c b => W94 m ρ c b
theorem hF38 (c : Dev nD) (w : Fin cfg38.W) : (dat38 (V93 m ρ) c).arrAt w cfg38.N = V94 m ρ c (Pipeline.arrRef spec38 w) :=
  (W94_arr m ρ c w).symm
theorem hrest38 (c : Dev nD) : ∀ b, b ∉ Finset.univ.image (Pipeline.arrRef spec38) → V94 m ρ c b = V93 m ρ c b :=
  fun b hb => W94_of_ne m ρ c b fun w e => hb (Finset.mem_image.mpr ⟨w, Finset.mem_univ _, e⟩)
/-- After `hostOps39`. -/
abbrev W95 : Dev nD → Valuation τ sig (Elt F) := fun c => StableHlo.after hostOps39 (W94 m ρ c)
/-- Region 39 is entered at `W95` (read at the TensorCore's references: `V95`) and left at `W96`: its arrays at what
    the pipeline leaves (inputs as entered, the output's write-backs folded), every other buffer as entered. -/
abbrev V95 : (c : Dev nD) → (b : Ref sig .tc) → Buf (Elt F) ((c : Thread nD τ).loc b) := fun c b => W95 m ρ c b
def W96 (c : Dev nD) : Valuation τ sig (Elt F) :=
  Pipeline.withArrays spec39 c (W95 m ρ c) fun w => (dat39 (V95 m ρ) c).arrAt w cfg39.N
theorem W96_arr (c : Dev nD) (w : Fin cfg39.W) :
    W96 m ρ c (Proc.devRef .tc (Pipeline.arrRef spec39 w)) = (dat39 (V95 m ρ) c).arrAt w cfg39.N := by
  unfold W96; exact Pipeline.withArrays_arr spec39 launch39.win.arr_inj c _ _ w
theorem W96_of_ne (c : Dev nD) (b : Ref sig .tc) (hb : ∀ w, Pipeline.arrRef spec39 w ≠ b) :
    W96 m ρ c (Proc.devRef .tc b) = W95 m ρ c (Proc.devRef .tc b) := by
  unfold W96; exact Pipeline.withArrays_of_ne spec39 c _ _ b hb
abbrev V96 : (c : Dev nD) → (b : Ref sig .tc) → Buf (Elt F) ((c : Thread nD τ).loc b) := fun c b => W96 m ρ c b
theorem hF39 (c : Dev nD) (w : Fin cfg39.W) : (dat39 (V95 m ρ) c).arrAt w cfg39.N = V96 m ρ c (Pipeline.arrRef spec39 w) :=
  (W96_arr m ρ c w).symm
theorem hrest39 (c : Dev nD) : ∀ b, b ∉ Finset.univ.image (Pipeline.arrRef spec39) → V96 m ρ c b = V95 m ρ c b :=
  fun b hb => W96_of_ne m ρ c b fun w e => hb (Finset.mem_image.mpr ⟨w, Finset.mem_univ _, e⟩)
/-- After `hostOps40`. -/
abbrev W97 : Dev nD → Valuation τ sig (Elt F) := fun c => StableHlo.after hostOps40 (W96 m ρ c)
/-- Region 40 is entered at `W97` (read at the TensorCore's references: `V97`) and left at `W98`: its arrays at what
    the pipeline leaves (inputs as entered, the output's write-backs folded), every other buffer as entered. -/
abbrev V97 : (c : Dev nD) → (b : Ref sig .tc) → Buf (Elt F) ((c : Thread nD τ).loc b) := fun c b => W97 m ρ c b
def W98 (c : Dev nD) : Valuation τ sig (Elt F) :=
  Pipeline.withArrays spec40 c (W97 m ρ c) fun w => (dat40 (V97 m ρ) c).arrAt w cfg40.N
theorem W98_arr (c : Dev nD) (w : Fin cfg40.W) :
    W98 m ρ c (Proc.devRef .tc (Pipeline.arrRef spec40 w)) = (dat40 (V97 m ρ) c).arrAt w cfg40.N := by
  unfold W98; exact Pipeline.withArrays_arr spec40 launch40.win.arr_inj c _ _ w
theorem W98_of_ne (c : Dev nD) (b : Ref sig .tc) (hb : ∀ w, Pipeline.arrRef spec40 w ≠ b) :
    W98 m ρ c (Proc.devRef .tc b) = W97 m ρ c (Proc.devRef .tc b) := by
  unfold W98; exact Pipeline.withArrays_of_ne spec40 c _ _ b hb
abbrev V98 : (c : Dev nD) → (b : Ref sig .tc) → Buf (Elt F) ((c : Thread nD τ).loc b) := fun c b => W98 m ρ c b
theorem hF40 (c : Dev nD) (w : Fin cfg40.W) : (dat40 (V97 m ρ) c).arrAt w cfg40.N = V98 m ρ c (Pipeline.arrRef spec40 w) :=
  (W98_arr m ρ c w).symm
theorem hrest40 (c : Dev nD) : ∀ b, b ∉ Finset.univ.image (Pipeline.arrRef spec40) → V98 m ρ c b = V97 m ρ c b :=
  fun b hb => W98_of_ne m ρ c b fun w e => hb (Finset.mem_image.mpr ⟨w, Finset.mem_univ _, e⟩)
/-- After `hostOps41`. -/
abbrev W99 : Dev nD → Valuation τ sig (Elt F) := fun c => StableHlo.after hostOps41 (W98 m ρ c)
/-- Region 41 is entered at `W99` (read at the TensorCore's references: `V99`) and left at `W100`: its arrays at what
    the pipeline leaves (inputs as entered, the output's write-backs folded), every other buffer as entered. -/
abbrev V99 : (c : Dev nD) → (b : Ref sig .tc) → Buf (Elt F) ((c : Thread nD τ).loc b) := fun c b => W99 m ρ c b
def W100 (c : Dev nD) : Valuation τ sig (Elt F) :=
  Pipeline.withArrays spec41 c (W99 m ρ c) fun w => (dat41 (V99 m ρ) c).arrAt w cfg41.N
theorem W100_arr (c : Dev nD) (w : Fin cfg41.W) :
    W100 m ρ c (Proc.devRef .tc (Pipeline.arrRef spec41 w)) = (dat41 (V99 m ρ) c).arrAt w cfg41.N := by
  unfold W100; exact Pipeline.withArrays_arr spec41 launch41.win.arr_inj c _ _ w
theorem W100_of_ne (c : Dev nD) (b : Ref sig .tc) (hb : ∀ w, Pipeline.arrRef spec41 w ≠ b) :
    W100 m ρ c (Proc.devRef .tc b) = W99 m ρ c (Proc.devRef .tc b) := by
  unfold W100; exact Pipeline.withArrays_of_ne spec41 c _ _ b hb
abbrev V100 : (c : Dev nD) → (b : Ref sig .tc) → Buf (Elt F) ((c : Thread nD τ).loc b) := fun c b => W100 m ρ c b
theorem hF41 (c : Dev nD) (w : Fin cfg41.W) : (dat41 (V99 m ρ) c).arrAt w cfg41.N = V100 m ρ c (Pipeline.arrRef spec41 w) :=
  (W100_arr m ρ c w).symm
theorem hrest41 (c : Dev nD) : ∀ b, b ∉ Finset.univ.image (Pipeline.arrRef spec41) → V100 m ρ c b = V99 m ρ c b :=
  fun b hb => W100_of_ne m ρ c b fun w e => hb (Finset.mem_image.mpr ⟨w, Finset.mem_univ _, e⟩)
/-- After `hostOps42`. -/
abbrev W101 : Dev nD → Valuation τ sig (Elt F) := fun c => StableHlo.after hostOps42 (W100 m ρ c)
/-- Region 42 is entered at `W101` (read at the TensorCore's references: `V101`) and left at `W102`: its arrays at what
    the pipeline leaves (inputs as entered, the output's write-backs folded), every other buffer as entered. -/
abbrev V101 : (c : Dev nD) → (b : Ref sig .tc) → Buf (Elt F) ((c : Thread nD τ).loc b) := fun c b => W101 m ρ c b
def W102 (c : Dev nD) : Valuation τ sig (Elt F) :=
  Pipeline.withArrays spec42 c (W101 m ρ c) fun w => (dat42 (V101 m ρ) c).arrAt w cfg42.N
theorem W102_arr (c : Dev nD) (w : Fin cfg42.W) :
    W102 m ρ c (Proc.devRef .tc (Pipeline.arrRef spec42 w)) = (dat42 (V101 m ρ) c).arrAt w cfg42.N := by
  unfold W102; exact Pipeline.withArrays_arr spec42 launch42.win.arr_inj c _ _ w
theorem W102_of_ne (c : Dev nD) (b : Ref sig .tc) (hb : ∀ w, Pipeline.arrRef spec42 w ≠ b) :
    W102 m ρ c (Proc.devRef .tc b) = W101 m ρ c (Proc.devRef .tc b) := by
  unfold W102; exact Pipeline.withArrays_of_ne spec42 c _ _ b hb
abbrev V102 : (c : Dev nD) → (b : Ref sig .tc) → Buf (Elt F) ((c : Thread nD τ).loc b) := fun c b => W102 m ρ c b
theorem hF42 (c : Dev nD) (w : Fin cfg42.W) : (dat42 (V101 m ρ) c).arrAt w cfg42.N = V102 m ρ c (Pipeline.arrRef spec42 w) :=
  (W102_arr m ρ c w).symm
theorem hrest42 (c : Dev nD) : ∀ b, b ∉ Finset.univ.image (Pipeline.arrRef spec42) → V102 m ρ c b = V101 m ρ c b :=
  fun b hb => W102_of_ne m ρ c b fun w e => hb (Finset.mem_image.mpr ⟨w, Finset.mem_univ _, e⟩)
/-- After `hostOps43`. -/
abbrev W103 : Dev nD → Valuation τ sig (Elt F) := fun c => StableHlo.after hostOps43 (W102 m ρ c)
/-- After `hostOps43_1`. -/
abbrev W104 : Dev nD → Valuation τ sig (Elt F) := fun c => StableHlo.after hostOps43_1 (W103 m ρ c)
/-- After `hostOps43_2`. -/
abbrev W105 : Dev nD → Valuation τ sig (Elt F) := fun c => StableHlo.after hostOps43_2 (W104 m ρ c)
/-- After `hostOps43_3`. -/
abbrev W106 : Dev nD → Valuation τ sig (Elt F) := fun c => StableHlo.after hostOps43_3 (W105 m ρ c)
/-- After `hostOps43_4`. -/
abbrev W107 : Dev nD → Valuation τ sig (Elt F) := fun c => StableHlo.after hostOps43_4 (W106 m ρ c)
/-- After `hostOps43_5`. -/
abbrev W108 : Dev nD → Valuation τ sig (Elt F) := fun c => StableHlo.after hostOps43_5 (W107 m ρ c)
/-- After `hostOps43_6`. -/
abbrev W109 : Dev nD → Valuation τ sig (Elt F) := fun c => StableHlo.after hostOps43_6 (W108 m ρ c)
/-! # The proof data family and what rides beside the buffers -/

/-- No pipeline has a prefetched table. -/
abbrev adm : (p : Fin 43) → (pcfgs (F := F) p).Adm := fun p => (cfgs p).toPCfg_adm
/-- Every pipeline's proof data, each at its region's entry contents. -/
def pdats : (p : Fin 43) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V15 m ρ) c
  | ⟨6, _⟩ => fun c => dat6 (V17 m ρ) c
  | ⟨7, _⟩ => fun c => dat7 (V19 m ρ) c
  | ⟨8, _⟩ => fun c => dat8 (V21 m ρ) c
  | ⟨9, _⟩ => fun c => dat9 (V23 m ρ) c
  | ⟨10, _⟩ => fun c => dat10 (V25 m ρ) c
  | ⟨11, _⟩ => fun c => dat11 (V27 m ρ) c
  | ⟨12, _⟩ => fun c => dat12 (V29 m ρ) c
  | ⟨13, _⟩ => fun c => dat13 (V31 m ρ) c
  | ⟨14, _⟩ => fun c => dat14 (V33 m ρ) c
  | ⟨15, _⟩ => fun c => dat15 (V39 m ρ) c
  | ⟨16, _⟩ => fun c => dat16 (V41 m ρ) c
  | ⟨17, _⟩ => fun c => dat17 (V43 m ρ) c
  | ⟨18, _⟩ => fun c => dat18 (V45 m ρ) c
  | ⟨19, _⟩ => fun c => dat19 (V47 m ρ) c
  | ⟨20, _⟩ => fun c => dat20 (V49 m ρ) c
  | ⟨21, _⟩ => fun c => dat21 (V51 m ρ) c
  | ⟨22, _⟩ => fun c => dat22 (V53 m ρ) c
  | ⟨23, _⟩ => fun c => dat23 (V55 m ρ) c
  | ⟨24, _⟩ => fun c => dat24 (V57 m ρ) c
  | ⟨25, _⟩ => fun c => dat25 (V63 m ρ) c
  | ⟨26, _⟩ => fun c => dat26 (V65 m ρ) c
  | ⟨27, _⟩ => fun c => dat27 (V67 m ρ) c
  | ⟨28, _⟩ => fun c => dat28 (V69 m ρ) c
  | ⟨29, _⟩ => fun c => dat29 (V71 m ρ) c
  | ⟨30, _⟩ => fun c => dat30 (V73 m ρ) c
  | ⟨31, _⟩ => fun c => dat31 (V75 m ρ) c
  | ⟨32, _⟩ => fun c => dat32 (V77 m ρ) c
  | ⟨33, _⟩ => fun c => dat33 (V79 m ρ) c
  | ⟨34, _⟩ => fun c => dat34 (V81 m ρ) c
  | ⟨35, _⟩ => fun c => dat35 (V87 m ρ) c
  | ⟨36, _⟩ => fun c => dat36 (V89 m ρ) c
  | ⟨37, _⟩ => fun c => dat37 (V91 m ρ) c
  | ⟨38, _⟩ => fun c => dat38 (V93 m ρ) c
  | ⟨39, _⟩ => fun c => dat39 (V95 m ρ) c
  | ⟨40, _⟩ => fun c => dat40 (V97 m ρ) c
  | ⟨41, _⟩ => fun c => dat41 (V99 m ρ) c
  | ⟨42, _⟩ => fun c => dat42 (V101 m ρ) c
  | ⟨_ + 43, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every segment: the core's generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W109 m ρ c) ∗ ∃ r, prngReg c r)

/-! # No host operation allocates a buffer -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
theorem hostOps5_1_fresh : (hostOps5_1 : List (HloOp τ sig (Elt F))).Forall fun op => op.fresh = ∅ := by
  simp only [List.Forall]; repeat' constructor
theorem hostOps5_2_fresh : (hostOps5_2 : List (HloOp τ sig (Elt F))).Forall fun op => op.fresh = ∅ := by
  simp only [List.Forall]; repeat' constructor
theorem hostOps5_3_fresh : (hostOps5_3 : List (HloOp τ sig (Elt F))).Forall fun op => op.fresh = ∅ := by
  simp only [List.Forall]; repeat' constructor
theorem hostOps5_4_fresh : (hostOps5_4 : List (HloOp τ sig (Elt F))).Forall fun op => op.fresh = ∅ := by
  simp only [List.Forall]; repeat' constructor
theorem hostOps6_fresh : (hostOps6 : List (HloOp τ sig (Elt F))).Forall fun op => op.fresh = ∅ := by
  simp only [List.Forall]; repeat' constructor
theorem hostOps7_fresh : (hostOps7 : List (HloOp τ sig (Elt F))).Forall fun op => op.fresh = ∅ := by
  simp only [List.Forall]; repeat' constructor
theorem hostOps8_fresh : (hostOps8 : List (HloOp τ sig (Elt F))).Forall fun op => op.fresh = ∅ := by
  simp only [List.Forall]; repeat' constructor
theorem hostOps9_fresh : (hostOps9 : List (HloOp τ sig (Elt F))).Forall fun op => op.fresh = ∅ := by
  simp only [List.Forall]; repeat' constructor
theorem hostOps10_fresh : (hostOps10 : List (HloOp τ sig (Elt F))).Forall fun op => op.fresh = ∅ := by
  simp only [List.Forall]; repeat' constructor
theorem hostOps11_fresh : (hostOps11 : List (HloOp τ sig (Elt F))).Forall fun op => op.fresh = ∅ := by
  simp only [List.Forall]; repeat' constructor
theorem hostOps12_fresh : (hostOps12 : List (HloOp τ sig (Elt F))).Forall fun op => op.fresh = ∅ := by
  simp only [List.Forall]; repeat' constructor
theorem hostOps13_fresh : (hostOps13 : List (HloOp τ sig (Elt F))).Forall fun op => op.fresh = ∅ := by
  simp only [List.Forall]; repeat' constructor
theorem hostOps14_fresh : (hostOps14 : List (HloOp τ sig (Elt F))).Forall fun op => op.fresh = ∅ := by
  simp only [List.Forall]; repeat' constructor
theorem hostOps15_fresh : (hostOps15 : List (HloOp τ sig (Elt F))).Forall fun op => op.fresh = ∅ := by
  simp only [List.Forall]; repeat' constructor
theorem hostOps15_1_fresh : (hostOps15_1 : List (HloOp τ sig (Elt F))).Forall fun op => op.fresh = ∅ := by
  simp only [List.Forall]; repeat' constructor
theorem hostOps15_2_fresh : (hostOps15_2 : List (HloOp τ sig (Elt F))).Forall fun op => op.fresh = ∅ := by
  simp only [List.Forall]; repeat' constructor
theorem hostOps15_3_fresh : (hostOps15_3 : List (HloOp τ sig (Elt F))).Forall fun op => op.fresh = ∅ := by
  simp only [List.Forall]; repeat' constructor
theorem hostOps15_4_fresh : (hostOps15_4 : List (HloOp τ sig (Elt F))).Forall fun op => op.fresh = ∅ := by
  simp only [List.Forall]; repeat' constructor
theorem hostOps16_fresh : (hostOps16 : List (HloOp τ sig (Elt F))).Forall fun op => op.fresh = ∅ := by
  simp only [List.Forall]; repeat' constructor
theorem hostOps17_fresh : (hostOps17 : List (HloOp τ sig (Elt F))).Forall fun op => op.fresh = ∅ := by
  simp only [List.Forall]; repeat' constructor
theorem hostOps18_fresh : (hostOps18 : List (HloOp τ sig (Elt F))).Forall fun op => op.fresh = ∅ := by
  simp only [List.Forall]; repeat' constructor
theorem hostOps19_fresh : (hostOps19 : List (HloOp τ sig (Elt F))).Forall fun op => op.fresh = ∅ := by
  simp only [List.Forall]; repeat' constructor
theorem hostOps20_fresh : (hostOps20 : List (HloOp τ sig (Elt F))).Forall fun op => op.fresh = ∅ := by
  simp only [List.Forall]; repeat' constructor
theorem hostOps21_fresh : (hostOps21 : List (HloOp τ sig (Elt F))).Forall fun op => op.fresh = ∅ := by
  simp only [List.Forall]; repeat' constructor
theorem hostOps22_fresh : (hostOps22 : List (HloOp τ sig (Elt F))).Forall fun op => op.fresh = ∅ := by
  simp only [List.Forall]; repeat' constructor
theorem hostOps23_fresh : (hostOps23 : List (HloOp τ sig (Elt F))).Forall fun op => op.fresh = ∅ := by
  simp only [List.Forall]; repeat' constructor
theorem hostOps24_fresh : (hostOps24 : List (HloOp τ sig (Elt F))).Forall fun op => op.fresh = ∅ := by
  simp only [List.Forall]; repeat' constructor
theorem hostOps25_fresh : (hostOps25 : List (HloOp τ sig (Elt F))).Forall fun op => op.fresh = ∅ := by
  simp only [List.Forall]; repeat' constructor
theorem hostOps25_1_fresh : (hostOps25_1 : List (HloOp τ sig (Elt F))).Forall fun op => op.fresh = ∅ := by
  simp only [List.Forall]; repeat' constructor
theorem hostOps25_2_fresh : (hostOps25_2 : List (HloOp τ sig (Elt F))).Forall fun op => op.fresh = ∅ := by
  simp only [List.Forall]; repeat' constructor
theorem hostOps25_3_fresh : (hostOps25_3 : List (HloOp τ sig (Elt F))).Forall fun op => op.fresh = ∅ := by
  simp only [List.Forall]; repeat' constructor
theorem hostOps25_4_fresh : (hostOps25_4 : List (HloOp τ sig (Elt F))).Forall fun op => op.fresh = ∅ := by
  simp only [List.Forall]; repeat' constructor
theorem hostOps26_fresh : (hostOps26 : List (HloOp τ sig (Elt F))).Forall fun op => op.fresh = ∅ := by
  simp only [List.Forall]; repeat' constructor
theorem hostOps27_fresh : (hostOps27 : List (HloOp τ sig (Elt F))).Forall fun op => op.fresh = ∅ := by
  simp only [List.Forall]; repeat' constructor
theorem hostOps28_fresh : (hostOps28 : List (HloOp τ sig (Elt F))).Forall fun op => op.fresh = ∅ := by
  simp only [List.Forall]; repeat' constructor
theorem hostOps29_fresh : (hostOps29 : List (HloOp τ sig (Elt F))).Forall fun op => op.fresh = ∅ := by
  simp only [List.Forall]; repeat' constructor
theorem hostOps30_fresh : (hostOps30 : List (HloOp τ sig (Elt F))).Forall fun op => op.fresh = ∅ := by
  simp only [List.Forall]; repeat' constructor
theorem hostOps31_fresh : (hostOps31 : List (HloOp τ sig (Elt F))).Forall fun op => op.fresh = ∅ := by
  simp only [List.Forall]; repeat' constructor
theorem hostOps32_fresh : (hostOps32 : List (HloOp τ sig (Elt F))).Forall fun op => op.fresh = ∅ := by
  simp only [List.Forall]; repeat' constructor
theorem hostOps33_fresh : (hostOps33 : List (HloOp τ sig (Elt F))).Forall fun op => op.fresh = ∅ := by
  simp only [List.Forall]; repeat' constructor
theorem hostOps34_fresh : (hostOps34 : List (HloOp τ sig (Elt F))).Forall fun op => op.fresh = ∅ := by
  simp only [List.Forall]; repeat' constructor
theorem hostOps35_fresh : (hostOps35 : List (HloOp τ sig (Elt F))).Forall fun op => op.fresh = ∅ := by
  simp only [List.Forall]; repeat' constructor
theorem hostOps35_1_fresh : (hostOps35_1 : List (HloOp τ sig (Elt F))).Forall fun op => op.fresh = ∅ := by
  simp only [List.Forall]; repeat' constructor
theorem hostOps35_2_fresh : (hostOps35_2 : List (HloOp τ sig (Elt F))).Forall fun op => op.fresh = ∅ := by
  simp only [List.Forall]; repeat' constructor
theorem hostOps35_3_fresh : (hostOps35_3 : List (HloOp τ sig (Elt F))).Forall fun op => op.fresh = ∅ := by
  simp only [List.Forall]; repeat' constructor
theorem hostOps35_4_fresh : (hostOps35_4 : List (HloOp τ sig (Elt F))).Forall fun op => op.fresh = ∅ := by
  simp only [List.Forall]; repeat' constructor
theorem hostOps36_fresh : (hostOps36 : List (HloOp τ sig (Elt F))).Forall fun op => op.fresh = ∅ := by
  simp only [List.Forall]; repeat' constructor
theorem hostOps37_fresh : (hostOps37 : List (HloOp τ sig (Elt F))).Forall fun op => op.fresh = ∅ := by
  simp only [List.Forall]; repeat' constructor
theorem hostOps38_fresh : (hostOps38 : List (HloOp τ sig (Elt F))).Forall fun op => op.fresh = ∅ := by
  simp only [List.Forall]; repeat' constructor
theorem hostOps39_fresh : (hostOps39 : List (HloOp τ sig (Elt F))).Forall fun op => op.fresh = ∅ := by
  simp only [List.Forall]; repeat' constructor
theorem hostOps40_fresh : (hostOps40 : List (HloOp τ sig (Elt F))).Forall fun op => op.fresh = ∅ := by
  simp only [List.Forall]; repeat' constructor
theorem hostOps41_fresh : (hostOps41 : List (HloOp τ sig (Elt F))).Forall fun op => op.fresh = ∅ := by
  simp only [List.Forall]; repeat' constructor
theorem hostOps42_fresh : (hostOps42 : List (HloOp τ sig (Elt F))).Forall fun op => op.fresh = ∅ := by
  simp only [List.Forall]; repeat' constructor
theorem hostOps43_fresh : (hostOps43 : List (HloOp τ sig (Elt F))).Forall fun op => op.fresh = ∅ := by
  simp only [List.Forall]; repeat' constructor
theorem hostOps43_1_fresh : (hostOps43_1 : List (HloOp τ sig (Elt F))).Forall fun op => op.fresh = ∅ := by
  simp only [List.Forall]; repeat' constructor
theorem hostOps43_2_fresh : (hostOps43_2 : List (HloOp τ sig (Elt F))).Forall fun op => op.fresh = ∅ := by
  simp only [List.Forall]; repeat' constructor
theorem hostOps43_3_fresh : (hostOps43_3 : List (HloOp τ sig (Elt F))).Forall fun op => op.fresh = ∅ := by
  simp only [List.Forall]; repeat' constructor
theorem hostOps43_4_fresh : (hostOps43_4 : List (HloOp τ sig (Elt F))).Forall fun op => op.fresh = ∅ := by
  simp only [List.Forall]; repeat' constructor
theorem hostOps43_5_fresh : (hostOps43_5 : List (HloOp τ sig (Elt F))).Forall fun op => op.fresh = ∅ := by
  simp only [List.Forall]; repeat' constructor
theorem hostOps43_6_fresh : (hostOps43_6 : List (HloOp τ sig (Elt F))).Forall fun op => op.fresh = ∅ := by
  simp only [List.Forall]; repeat' constructor

end Cert.Kernel.Reg

end
-- ==== Proof.K.Reg0.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 0 as a segment of @main over the thread state "every unscoped buffer at the boundary's contents, the
    generator register at some state, nothing owed": entered at `W1`, left at `W2`. Its arrays are split out of the
    unscoped buffers on entry and put back at the exit contents; the generator register goes into the pipeline's
    invariant and comes back; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg1.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 1 as a segment of @main over the thread state "every unscoped buffer at the boundary's contents, the
    generator register at some state, nothing owed": entered at `W3`, left at `W4`. Its arrays are split out of the
    unscoped buffers on entry and put back at the exit contents; the generator register goes into the pipeline's
    invariant and comes back; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg2.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 2 as a segment of @main over the thread state "every unscoped buffer at the boundary's contents, the
    generator register at some state, nothing owed": entered at `W5`, left at `W6`. Its arrays are split out of the
    unscoped buffers on entry and put back at the exit contents; the generator register goes into the pipeline's
    invariant and comes back; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg3.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 3 as a segment of @main over the thread state "every unscoped buffer at the boundary's contents, the
    generator register at some state, nothing owed": entered at `W7`, left at `W8`. Its arrays are split out of the
    unscoped buffers on entry and put back at the exit contents; the generator register goes into the pipeline's
    invariant and comes back; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg4.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 4 as a segment of @main over the thread state "every unscoped buffer at the boundary's contents, the
    generator register at some state, nothing owed": entered at `W9`, left at `W10`. Its arrays are split out of the
    unscoped buffers on entry and put back at the exit contents; the generator register goes into the pipeline's
    invariant and comes back; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg5.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 5 as a segment of @main over the thread state "every unscoped buffer at the boundary's contents, the
    generator register at some state, nothing owed": entered at `W15`, left at `W16`. Its arrays are split out of the
    unscoped buffers on entry and put back at the exit contents; the generator register goes into the pipeline's
    invariant and comes back; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V15 m ρ) c).loose
  hwaits := Pipeline.hwaits_of_owed_zero _ _ _ _ L lv 5 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec5 c (V15 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V15 m ρ c) (V16 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg6.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 6 as a segment of @main over the thread state "every unscoped buffer at the boundary's contents, the
    generator register at some state, nothing owed": entered at `W17`, left at `W18`. Its arrays are split out of the
    unscoped buffers on entry and put back at the exit contents; the generator register goes into the pipeline's
    invariant and comes back; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V17 m ρ) c).loose
  hwaits := Pipeline.hwaits_of_owed_zero _ _ _ _ L lv 6 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec6 c (V17 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V17 m ρ c) (V18 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg7.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 7 as a segment of @main over the thread state "every unscoped buffer at the boundary's contents, the
    generator register at some state, nothing owed": entered at `W19`, left at `W20`. Its arrays are split out of the
    unscoped buffers on entry and put back at the exit contents; the generator register goes into the pipeline's
    invariant and comes back; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V19 m ρ) c).loose
  hwaits := Pipeline.hwaits_of_owed_zero _ _ _ _ L lv 7 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec7 c (V19 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V19 m ρ c) (V20 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg8.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 8 as a segment of @main over the thread state "every unscoped buffer at the boundary's contents, the
    generator register at some state, nothing owed": entered at `W21`, left at `W22`. Its arrays are split out of the
    unscoped buffers on entry and put back at the exit contents; the generator register goes into the pipeline's
    invariant and comes back; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V21 m ρ) c).loose
  hwaits := Pipeline.hwaits_of_owed_zero _ _ _ _ L lv 8 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec8 c (V21 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V21 m ρ c) (V22 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg9.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 9 as a segment of @main over the thread state "every unscoped buffer at the boundary's contents, the
    generator register at some state, nothing owed": entered at `W23`, left at `W24`. Its arrays are split out of the
    unscoped buffers on entry and put back at the exit contents; the generator register goes into the pipeline's
    invariant and comes back; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V23 m ρ) c).loose
  hwaits := Pipeline.hwaits_of_owed_zero _ _ _ _ L lv 9 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec9 c (V23 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V23 m ρ c) (V24 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg10.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 10 as a segment of @main over the thread state "every unscoped buffer at the boundary's contents, the
    generator register at some state, nothing owed": entered at `W25`, left at `W26`. Its arrays are split out of the
    unscoped buffers on entry and put back at the exit contents; the generator register goes into the pipeline's
    invariant and comes back; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V25 m ρ) c).loose
  hwaits := Pipeline.hwaits_of_owed_zero _ _ _ _ L lv 10 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec10 c (V25 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V25 m ρ c) (V26 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg11.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 11 as a segment of @main over the thread state "every unscoped buffer at the boundary's contents, the
    generator register at some state, nothing owed": entered at `W27`, left at `W28`. Its arrays are split out of the
    unscoped buffers on entry and put back at the exit contents; the generator register goes into the pipeline's
    invariant and comes back; the kernel has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V27 m ρ) c).loose
  hwaits := Pipeline.hwaits_of_owed_zero _ _ _ _ L lv 11 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec11 c (V27 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V27 m ρ c) (V28 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg12.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 12 as a segment of @main over the thread state "every unscoped buffer at the boundary's contents, the
    generator register at some state, nothing owed": entered at `W29`, left at `W30`. Its arrays are split out of the
    unscoped buffers on entry and put back at the exit contents; the generator register goes into the pipeline's
    invariant and comes back; the kernel has no semaphore of its own. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V29 m ρ) c).loose
  hwaits := Pipeline.hwaits_of_owed_zero _ _ _ _ L lv 12 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec12 c (V29 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V29 m ρ c) (V30 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg13.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 13 as a segment of @main over the thread state "every unscoped buffer at the boundary's contents, the
    generator register at some state, nothing owed": entered at `W31`, left at `W32`. Its arrays are split out of the
    unscoped buffers on entry and put back at the exit contents; the generator register goes into the pipeline's
    invariant and comes back; the kernel has no semaphore of its own. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V31 m ρ) c).loose
  hwaits := Pipeline.hwaits_of_owed_zero _ _ _ _ L lv 13 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec13 c (V31 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V31 m ρ c) (V32 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg14.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 14 as a segment of @main over the thread state "every unscoped buffer at the boundary's contents, the
    generator register at some state, nothing owed": entered at `W33`, left at `W34`. Its arrays are split out of the
    unscoped buffers on entry and put back at the exit contents; the generator register goes into the pipeline's
    invariant and comes back; the kernel has no semaphore of its own. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V33 m ρ) c).loose
  hwaits := Pipeline.hwaits_of_owed_zero _ _ _ _ L lv 14 fun _ _ => rfl
  pre c := iprop(StableHlo.held (c : Thread nD τ) (Pipeline.ucRefs τ sig) (W33 m ρ c) ∗ R c)
  post c := iprop(StableHlo.held (c : Thread nD τ) (Pipeline.ucRefs τ sig) (W34 m ρ c) ∗ R c)
  X c := iprop(∃ r, prngReg c r)
  Y c := iprop(∃ r, prngReg c r)
  Z c := Pipeline.unscopedRest (Ix := Unit) (Name := ℕ) (U := UR sig nD τ) (Lvl := ℕ) spec14 c (V33 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V33 m ρ c) (V34 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg15.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 15 as a segment of @main over the thread state "every unscoped buffer at the boundary's contents, the
    generator register at some state, nothing owed": entered at `W39`, left at `W40`. Its arrays are split out of the
    unscoped buffers on entry and put back at the exit contents; the generator register goes into the pipeline's
    invariant and comes back; the kernel has no semaphore of its own. -/
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V39 m ρ) c).loose
  hwaits := Pipeline.hwaits_of_owed_zero _ _ _ _ L lv 15 fun _ _ => rfl
  pre c := iprop(StableHlo.held (c : Thread nD τ) (Pipeline.ucRefs τ sig) (W39 m ρ c) ∗ R c)
  post c := iprop(StableHlo.held (c : Thread nD τ) (Pipeline.ucRefs τ sig) (W40 m ρ c) ∗ R c)
  X c := iprop(∃ r, prngReg c r)
  Y c := iprop(∃ r, prngReg c r)
  Z c := Pipeline.unscopedRest (Ix := Unit) (Name := ℕ) (U := UR sig nD τ) (Lvl := ℕ) spec15 c (V39 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V39 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V39 m ρ c) (V40 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg16.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 16 as a segment of @main over the thread state "every unscoped buffer at the boundary's contents, the
    generator register at some state, nothing owed": entered at `W41`, left at `W42`. Its arrays are split out of the
    unscoped buffers on entry and put back at the exit contents; the generator register goes into the pipeline's
    invariant and comes back; the kernel has no semaphore of its own. -/
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V41 m ρ) c).loose
  hwaits := Pipeline.hwaits_of_owed_zero _ _ _ _ L lv 16 fun _ _ => rfl
  pre c := iprop(StableHlo.held (c : Thread nD τ) (Pipeline.ucRefs τ sig) (W41 m ρ c) ∗ R c)
  post c := iprop(StableHlo.held (c : Thread nD τ) (Pipeline.ucRefs τ sig) (W42 m ρ c) ∗ R c)
  X c := iprop(∃ r, prngReg c r)
  Y c := iprop(∃ r, prngReg c r)
  Z c := Pipeline.unscopedRest (Ix := Unit) (Name := ℕ) (U := UR sig nD τ) (Lvl := ℕ) spec16 c (V41 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (V41 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m ρ 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (V41 m ρ c) (V42 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg17.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 17 as a segment of @main over the thread state "every unscoped buffer at the boundary's contents, the
    generator register at some state, nothing owed": entered at `W43`, left at `W44`. Its arrays are split out of the
    unscoped buffers on entry and put back at the exit contents; the generator register goes into the pipeline's
    invariant and comes back; the kernel has no semaphore of its own. -/
def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (V43 m ρ) c).loose
  hwaits := Pipeline.hwaits_of_owed_zero _ _ _ _ L lv 17 fun _ _ => rfl
  pre c := iprop(StableHlo.held (c : Thread nD τ) (Pipeline.ucRefs τ sig) (W43 m ρ c) ∗ R c)
  post c := iprop(StableHlo.held (c : Thread nD τ) (Pipeline.ucRefs τ sig) (W44 m ρ c) ∗ R c)
  X c := iprop(∃ r, prngReg c r)
  Y c := iprop(∃ r, prngReg c r)
  Z c := Pipeline.unscopedRest (Ix := Unit) (Name := ℕ) (U := UR sig nD τ) (Lvl := ℕ) spec17 c (V43 m ρ c)
  hentry c := by
    rw [Pipeline.ownSems0_none]
    have hsplit := Pipeline.arrays_of_unscopedBufs (p := 17) (pcfgs (F := F)) adm (pdats m ρ) launch17.win launch17.arr_whole c
      ((pdats m ρ 17 c).share_full fun _ => rfl) (V43 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m ρ 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (V43 m ρ c) (V44 m ρ c) ((pdats m ρ 17 c).arrAt · cfg17.N) (hF17 m ρ c) (hrest17 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg18.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 18 as a segment of @main over the thread state "every unscoped buffer at the boundary's contents, the
    generator register at some state, nothing owed": entered at `W45`, left at `W46`. Its arrays are split out of the
    unscoped buffers on entry and put back at the exit contents; the generator register goes into the pipeline's
    invariant and comes back; the kernel has no semaphore of its own. -/
def reg18 : Pipeline.RegionSeg (pcfgs (F := F)) adm (pdats m ρ) () defs₀ 𝒱₀ L lv 18 where
  win := launch18.win.to₀
  block_pos := launch18.block_pos
  stage_whole := launch18.stage_whole
  K := PEmpty
  osem k := k.elim
  ho := Pipeline.OwnSemFacts.none _
  hbody c := (body_obligation18 (V45 m ρ) c).loose
  hwaits := Pipeline.hwaits_of_owed_zero _ _ _ _ L lv 18 fun _ _ => rfl
  pre c := iprop(StableHlo.held (c : Thread nD τ) (Pipeline.ucRefs τ sig) (W45 m ρ c) ∗ R c)
  post c := iprop(StableHlo.held (c : Thread nD τ) (Pipeline.ucRefs τ sig) (W46 m ρ c) ∗ R c)
  X c := iprop(∃ r, prngReg c r)
  Y c := iprop(∃ r, prngReg c r)
  Z c := Pipeline.unscopedRest (Ix := Unit) (Name := ℕ) (U := UR sig nD τ) (Lvl := ℕ) spec18 c (V45 m ρ c)
  hentry c := by
    rw [Pipeline.ownSems0_none]
    have hsplit := Pipeline.arrays_of_unscopedBufs (p := 18) (pcfgs (F := F)) adm (pdats m ρ) launch18.win launch18.arr_whole c
      ((pdats m ρ 18 c).share_full fun _ => rfl) (V45 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m ρ 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m ρ) ((pdats m ρ 18 c).share_full fun _ => rfl)
      (V45 m ρ c) (V46 m ρ c) ((pdats m ρ 18 c).arrAt · cfg18.N) (hF18 m ρ c) (hrest18 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg19.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 19 as a segment of @main over the thread state "every unscoped buffer at the boundary's contents, the
    generator register at some state, nothing owed": entered at `W47`, left at `W48`. Its arrays are split out of the
    unscoped buffers on entry and put back at the exit contents; the generator register goes into the pipeline's
    invariant and comes back; the kernel has no semaphore of its own. -/
def reg19 : Pipeline.RegionSeg (pcfgs (F := F)) adm (pdats m ρ) () defs₀ 𝒱₀ L lv 19 where
  win := launch19.win.to₀
  block_pos := launch19.block_pos
  stage_whole := launch19.stage_whole
  K := PEmpty
  osem k := k.elim
  ho := Pipeline.OwnSemFacts.none _
  hbody c := (body_obligation19 (V47 m ρ) c).loose
  hwaits := Pipeline.hwaits_of_owed_zero _ _ _ _ L lv 19 fun _ _ => rfl
  pre c := iprop(StableHlo.held (c : Thread nD τ) (Pipeline.ucRefs τ sig) (W47 m ρ c) ∗ R c)
  post c := iprop(StableHlo.held (c : Thread nD τ) (Pipeline.ucRefs τ sig) (W48 m ρ c) ∗ R c)
  X c := iprop(∃ r, prngReg c r)
  Y c := iprop(∃ r, prngReg c r)
  Z c := Pipeline.unscopedRest (Ix := Unit) (Name := ℕ) (U := UR sig nD τ) (Lvl := ℕ) spec19 c (V47 m ρ c)
  hentry c := by
    rw [Pipeline.ownSems0_none]
    have hsplit := Pipeline.arrays_of_unscopedBufs (p := 19) (pcfgs (F := F)) adm (pdats m ρ) launch19.win launch19.arr_whole c
      ((pdats m ρ 19 c).share_full fun _ => rfl) (V47 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m ρ 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m ρ) ((pdats m ρ 19 c).share_full fun _ => rfl)
      (V47 m ρ c) (V48 m ρ c) ((pdats m ρ 19 c).arrAt · cfg19.N) (hF19 m ρ c) (hrest19 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg20.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 20 as a segment of @main over the thread state "every unscoped buffer at the boundary's contents, the
    generator register at some state, nothing owed": entered at `W49`, left at `W50`. Its arrays are split out of the
    unscoped buffers on entry and put back at the exit contents; the generator register goes into the pipeline's
    invariant and comes back; the kernel has no semaphore of its own. -/
def reg20 : Pipeline.RegionSeg (pcfgs (F := F)) adm (pdats m ρ) () defs₀ 𝒱₀ L lv 20 where
  win := launch20.win.to₀
  block_pos := launch20.block_pos
  stage_whole := launch20.stage_whole
  K := PEmpty
  osem k := k.elim
  ho := Pipeline.OwnSemFacts.none _
  hbody c := (body_obligation20 (V49 m ρ) c).loose
  hwaits := Pipeline.hwaits_of_owed_zero _ _ _ _ L lv 20 fun _ _ => rfl
  pre c := iprop(StableHlo.held (c : Thread nD τ) (Pipeline.ucRefs τ sig) (W49 m ρ c) ∗ R c)
  post c := iprop(StableHlo.held (c : Thread nD τ) (Pipeline.ucRefs τ sig) (W50 m ρ c) ∗ R c)
  X c := iprop(∃ r, prngReg c r)
  Y c := iprop(∃ r, prngReg c r)
  Z c := Pipeline.unscopedRest (Ix := Unit) (Name := ℕ) (U := UR sig nD τ) (Lvl := ℕ) spec20 c (V49 m ρ c)
  hentry c := by
    rw [Pipeline.ownSems0_none]
    have hsplit := Pipeline.arrays_of_unscopedBufs (p := 20) (pcfgs (F := F)) adm (pdats m ρ) launch20.win launch20.arr_whole c
      ((pdats m ρ 20 c).share_full fun _ => rfl) (V49 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m ρ 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (pdats m ρ) ((pdats m ρ 20 c).share_full fun _ => rfl)
      (V49 m ρ c) (V50 m ρ c) ((pdats m ρ 20 c).arrAt · cfg20.N) (hF20 m ρ c) (hrest20 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg21.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 21 as a segment of @main over the thread state "every unscoped buffer at the boundary's contents, the
    generator register at some state, nothing owed": entered at `W51`, left at `W52`. Its arrays are split out of the
    unscoped buffers on entry and put back at the exit contents; the generator register goes into the pipeline's
    invariant and comes back; the kernel has no semaphore of its own. -/
def reg21 : Pipeline.RegionSeg (pcfgs (F := F)) adm (pdats m ρ) () defs₀ 𝒱₀ L lv 21 where
  win := launch21.win.to₀
  block_pos := launch21.block_pos
  stage_whole := launch21.stage_whole
  K := PEmpty
  osem k := k.elim
  ho := Pipeline.OwnSemFacts.none _
  hbody c := (body_obligation21 (V51 m ρ) c).loose
  hwaits := Pipeline.hwaits_of_owed_zero _ _ _ _ L lv 21 fun _ _ => rfl
  pre c := iprop(StableHlo.held (c : Thread nD τ) (Pipeline.ucRefs τ sig) (W51 m ρ c) ∗ R c)
  post c := iprop(StableHlo.held (c : Thread nD τ) (Pipeline.ucRefs τ sig) (W52 m ρ c) ∗ R c)
  X c := iprop(∃ r, prngReg c r)
  Y c := iprop(∃ r, prngReg c r)
  Z c := Pipeline.unscopedRest (Ix := Unit) (Name := ℕ) (U := UR sig nD τ) (Lvl := ℕ) spec21 c (V51 m ρ c)
  hentry c := by
    rw [Pipeline.ownSems0_none]
    have hsplit := Pipeline.arrays_of_unscopedBufs (p := 21) (pcfgs (F := F)) adm (pdats m ρ) launch21.win launch21.arr_whole c
      ((pdats m ρ 21 c).share_full fun _ => rfl) (V51 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m ρ 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) adm (Ix := Unit) (Name := ℕ) (U := UR sig nD τ) (Lvl := ℕ)
      launch21.win launch21.arr_whole c (pdats m ρ) ((pdats m ρ 21 c).share_full fun _ => rfl)
      (V51 m ρ c) (V52 m ρ c) ((pdats m ρ 21 c).arrAt · cfg21.N) (hF21 m ρ c) (hrest21 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg22.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 22 as a segment of @main over the thread state "every unscoped buffer at the boundary's contents, the
    generator register at some state, nothing owed": entered at `W53`, left at `W54`. Its arrays are split out of the
    unscoped buffers on entry and put back at the exit contents; the generator register goes into the pipeline's
    invariant and comes back; the kernel has no semaphore of its own. -/
def reg22 : Pipeline.RegionSeg (pcfgs (F := F)) adm (pdats m ρ) () defs₀ 𝒱₀ L lv 22 where
  win := launch22.win.to₀
  block_pos := launch22.block_pos
  stage_whole := launch22.stage_whole
  K := PEmpty
  osem k := k.elim
  ho := Pipeline.OwnSemFacts.none _
  hbody c := (body_obligation22 (V53 m ρ) c).loose
  hwaits := Pipeline.hwaits_of_owed_zero _ _ _ _ L lv 22 fun _ _ => rfl
  pre c := iprop(StableHlo.held (c : Thread nD τ) (Pipeline.ucRefs τ sig) (W53 m ρ c) ∗ R c)
  post c := iprop(StableHlo.held (c : Thread nD τ) (Pipeline.ucRefs τ sig) (W54 m ρ c) ∗ R c)
  X c := iprop(∃ r, prngReg c r)
  Y c := iprop(∃ r, prngReg c r)
  Z c := Pipeline.unscopedRest (Ix := Unit) (Name := ℕ) (U := UR sig nD τ) (Lvl := ℕ) spec22 c (V53 m ρ c)
  hentry c := by
    rw [Pipeline.ownSems0_none]
    have hsplit := Pipeline.arrays_of_unscopedBufs (p := 22) (pcfgs (F := F)) adm (pdats m ρ) launch22.win launch22.arr_whole c
      ((pdats m ρ 22 c).share_full fun _ => rfl) (V53 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m ρ 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) adm (Ix := Unit) (Name := ℕ) (U := UR sig nD τ) (Lvl := ℕ)
      launch22.win launch22.arr_whole c (pdats m ρ) ((pdats m ρ 22 c).share_full fun _ => rfl)
      (V53 m ρ c) (V54 m ρ c) ((pdats m ρ 22 c).arrAt · cfg22.N) (hF22 m ρ c) (hrest22 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg23.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 23 as a segment of @main over the thread state "every unscoped buffer at the boundary's contents, the
    generator register at some state, nothing owed": entered at `W55`, left at `W56`. Its arrays are split out of the
    unscoped buffers on entry and put back at the exit contents; the generator register goes into the pipeline's
    invariant and comes back; the kernel has no semaphore of its own. -/
def reg23 : Pipeline.RegionSeg (pcfgs (F := F)) adm (pdats m ρ) () defs₀ 𝒱₀ L lv 23 where
  win := launch23.win.to₀
  block_pos := launch23.block_pos
  stage_whole := launch23.stage_whole
  K := PEmpty
  osem k := k.elim
  ho := Pipeline.OwnSemFacts.none _
  hbody c := (body_obligation23 (V55 m ρ) c).loose
  hwaits := Pipeline.hwaits_of_owed_zero _ _ _ _ L lv 23 fun _ _ => rfl
  pre c := iprop(StableHlo.held (c : Thread nD τ) (Pipeline.ucRefs τ sig) (W55 m ρ c) ∗ R c)
  post c := iprop(StableHlo.held (c : Thread nD τ) (Pipeline.ucRefs τ sig) (W56 m ρ c) ∗ R c)
  X c := iprop(∃ r, prngReg c r)
  Y c := iprop(∃ r, prngReg c r)
  Z c := Pipeline.unscopedRest (Ix := Unit) (Name := ℕ) (U := UR sig nD τ) (Lvl := ℕ) spec23 c (V55 m ρ c)
  hentry c := by
    rw [Pipeline.ownSems0_none]
    have hsplit := Pipeline.arrays_of_unscopedBufs (p := 23) (pcfgs (F := F)) adm (pdats m ρ) launch23.win launch23.arr_whole c
      ((pdats m ρ 23 c).share_full fun _ => rfl) (V55 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 23 c).Φ 0 = Pipeline.ΦA spec23 c from rfl]; unfold Pipeline.ΦA
    iintro ⟨Hp, -, Hr⟩
    isplitl [Hr]; · iexact Hr
    iexact Hp
  hout c := by
    rw [Pipeline.ownSems0_none, show (pdats m ρ 23 c).Φ (Fin.last _) = Pipeline.ΦA spec23 c from rfl]; unfold Pipeline.ΦA
    iintro ⟨Hr, Hp⟩
    isplitl [Hp]; · iexact Hp
    isplitr; · iempintro
    iexact Hr
  hexit c := by
    have hjoin := Pipeline.unscopedBufs_of_arrays (p := 23) (pcfgs (F := F)) adm (Ix := Unit) (Name := ℕ) (U := UR sig nD τ) (Lvl := ℕ)
      launch23.win launch23.arr_whole c (pdats m ρ) ((pdats m ρ 23 c).share_full fun _ => rfl)
      (V55 m ρ c) (V56 m ρ c) ((pdats m ρ 23 c).arrAt · cfg23.N) (hF23 m ρ c) (hrest23 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg24.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 24 as a segment of @main over the thread state "every unscoped buffer at the boundary's contents, the
    generator register at some state, nothing owed": entered at `W57`, left at `W58`. Its arrays are split out of the
    unscoped buffers on entry and put back at the exit contents; the generator register goes into the pipeline's
    invariant and comes back; the kernel has no semaphore of its own. -/
def reg24 : Pipeline.RegionSeg (pcfgs (F := F)) adm (pdats m ρ) () defs₀ 𝒱₀ L lv 24 where
  win := launch24.win.to₀
  block_pos := launch24.block_pos
  stage_whole := launch24.stage_whole
  K := PEmpty
  osem k := k.elim
  ho := Pipeline.OwnSemFacts.none _
  hbody c := (body_obligation24 (V57 m ρ) c).loose
  hwaits := Pipeline.hwaits_of_owed_zero _ _ _ _ L lv 24 fun _ _ => rfl
  pre c := iprop(StableHlo.held (c : Thread nD τ) (Pipeline.ucRefs τ sig) (W57 m ρ c) ∗ R c)
  post c := iprop(StableHlo.held (c : Thread nD τ) (Pipeline.ucRefs τ sig) (W58 m ρ c) ∗ R c)
  X c := iprop(∃ r, prngReg c r)
  Y c := iprop(∃ r, prngReg c r)
  Z c := Pipeline.unscopedRest (Ix := Unit) (Name := ℕ) (U := UR sig nD τ) (Lvl := ℕ) spec24 c (V57 m ρ c)
  hentry c := by
    rw [Pipeline.ownSems0_none]
    have hsplit := Pipeline.arrays_of_unscopedBufs (p := 24) (pcfgs (F := F)) adm (pdats m ρ) launch24.win launch24.arr_whole c
      ((pdats m ρ 24 c).share_full fun _ => rfl) (V57 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 24 c).Φ 0 = Pipeline.ΦA spec24 c from rfl]; unfold Pipeline.ΦA
    iintro ⟨Hp, -, Hr⟩
    isplitl [Hr]; · iexact Hr
    iexact Hp
  hout c := by
    rw [Pipeline.ownSems0_none, show (pdats m ρ 24 c).Φ (Fin.last _) = Pipeline.ΦA spec24 c from rfl]; unfold Pipeline.ΦA
    iintro ⟨Hr, Hp⟩
    isplitl [Hp]; · iexact Hp
    isplitr; · iempintro
    iexact Hr
  hexit c := by
    have hjoin := Pipeline.unscopedBufs_of_arrays (p := 24) (pcfgs (F := F)) adm (Ix := Unit) (Name := ℕ) (U := UR sig nD τ) (Lvl := ℕ)
      launch24.win launch24.arr_whole c (pdats m ρ) ((pdats m ρ 24 c).share_full fun _ => rfl)
      (V57 m ρ c) (V58 m ρ c) ((pdats m ρ 24 c).arrAt · cfg24.N) (hF24 m ρ c) (hrest24 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg25.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 25 as a segment of @main over the thread state "every unscoped buffer at the boundary's contents, the
    generator register at some state, nothing owed": entered at `W63`, left at `W64`. Its arrays are split out of the
    unscoped buffers on entry and put back at the exit contents; the generator register goes into the pipeline's
    invariant and comes back; the kernel has no semaphore of its own. -/
def reg25 : Pipeline.RegionSeg (pcfgs (F := F)) adm (pdats m ρ) () defs₀ 𝒱₀ L lv 25 where
  win := launch25.win.to₀
  block_pos := launch25.block_pos
  stage_whole := launch25.stage_whole
  K := PEmpty
  osem k := k.elim
  ho := Pipeline.OwnSemFacts.none _
  hbody c := (body_obligation25 (V63 m ρ) c).loose
  hwaits := Pipeline.hwaits_of_owed_zero _ _ _ _ L lv 25 fun _ _ => rfl
  pre c := iprop(StableHlo.held (c : Thread nD τ) (Pipeline.ucRefs τ sig) (W63 m ρ c) ∗ R c)
  post c := iprop(StableHlo.held (c : Thread nD τ) (Pipeline.ucRefs τ sig) (W64 m ρ c) ∗ R c)
  X c := iprop(∃ r, prngReg c r)
  Y c := iprop(∃ r, prngReg c r)
  Z c := Pipeline.unscopedRest (Ix := Unit) (Name := ℕ) (U := UR sig nD τ) (Lvl := ℕ) spec25 c (V63 m ρ c)
  hentry c := by
    rw [Pipeline.ownSems0_none]
    have hsplit := Pipeline.arrays_of_unscopedBufs (p := 25) (pcfgs (F := F)) adm (pdats m ρ) launch25.win launch25.arr_whole c
      ((pdats m ρ 25 c).share_full fun _ => rfl) (V63 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 25 c).Φ 0 = Pipeline.ΦA spec25 c from rfl]; unfold Pipeline.ΦA
    iintro ⟨Hp, -, Hr⟩
    isplitl [Hr]; · iexact Hr
    iexact Hp
  hout c := by
    rw [Pipeline.ownSems0_none, show (pdats m ρ 25 c).Φ (Fin.last _) = Pipeline.ΦA spec25 c from rfl]; unfold Pipeline.ΦA
    iintro ⟨Hr, Hp⟩
    isplitl [Hp]; · iexact Hp
    isplitr; · iempintro
    iexact Hr
  hexit c := by
    have hjoin := Pipeline.unscopedBufs_of_arrays (p := 25) (pcfgs (F := F)) adm (Ix := Unit) (Name := ℕ) (U := UR sig nD τ) (Lvl := ℕ)
      launch25.win launch25.arr_whole c (pdats m ρ) ((pdats m ρ 25 c).share_full fun _ => rfl)
      (V63 m ρ c) (V64 m ρ c) ((pdats m ρ 25 c).arrAt · cfg25.N) (hF25 m ρ c) (hrest25 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg26.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 26 as a segment of @main over the thread state "every unscoped buffer at the boundary's contents, the
    generator register at some state, nothing owed": entered at `W65`, left at `W66`. Its arrays are split out of the
    unscoped buffers on entry and put back at the exit contents; the generator register goes into the pipeline's
    invariant and comes back; the kernel has no semaphore of its own. -/
def reg26 : Pipeline.RegionSeg (pcfgs (F := F)) adm (pdats m ρ) () defs₀ 𝒱₀ L lv 26 where
  win := launch26.win.to₀
  block_pos := launch26.block_pos
  stage_whole := launch26.stage_whole
  K := PEmpty
  osem k := k.elim
  ho := Pipeline.OwnSemFacts.none _
  hbody c := (body_obligation26 (V65 m ρ) c).loose
  hwaits := Pipeline.hwaits_of_owed_zero _ _ _ _ L lv 26 fun _ _ => rfl
  pre c := iprop(StableHlo.held (c : Thread nD τ) (Pipeline.ucRefs τ sig) (W65 m ρ c) ∗ R c)
  post c := iprop(StableHlo.held (c : Thread nD τ) (Pipeline.ucRefs τ sig) (W66 m ρ c) ∗ R c)
  X c := iprop(∃ r, prngReg c r)
  Y c := iprop(∃ r, prngReg c r)
  Z c := Pipeline.unscopedRest (Ix := Unit) (Name := ℕ) (U := UR sig nD τ) (Lvl := ℕ) spec26 c (V65 m ρ c)
  hentry c := by
    rw [Pipeline.ownSems0_none]
    have hsplit := Pipeline.arrays_of_unscopedBufs (p := 26) (pcfgs (F := F)) adm (pdats m ρ) launch26.win launch26.arr_whole c
      ((pdats m ρ 26 c).share_full fun _ => rfl) (V65 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 26 c).Φ 0 = Pipeline.ΦA spec26 c from rfl]; unfold Pipeline.ΦA
    iintro ⟨Hp, -, Hr⟩
    isplitl [Hr]; · iexact Hr
    iexact Hp
  hout c := by
    rw [Pipeline.ownSems0_none, show (pdats m ρ 26 c).Φ (Fin.last _) = Pipeline.ΦA spec26 c from rfl]; unfold Pipeline.ΦA
    iintro ⟨Hr, Hp⟩
    isplitl [Hp]; · iexact Hp
    isplitr; · iempintro
    iexact Hr
  hexit c := by
    have hjoin := Pipeline.unscopedBufs_of_arrays (p := 26) (pcfgs (F := F)) adm (Ix := Unit) (Name := ℕ) (U := UR sig nD τ) (Lvl := ℕ)
      launch26.win launch26.arr_whole c (pdats m ρ) ((pdats m ρ 26 c).share_full fun _ => rfl)
      (V65 m ρ c) (V66 m ρ c) ((pdats m ρ 26 c).arrAt · cfg26.N) (hF26 m ρ c) (hrest26 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg27.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 27 as a segment of @main over the thread state "every unscoped buffer at the boundary's contents, the
    generator register at some state, nothing owed": entered at `W67`, left at `W68`. Its arrays are split out of the
    unscoped buffers on entry and put back at the exit contents; the generator register goes into the pipeline's
    invariant and comes back; the kernel has no semaphore of its own. -/
def reg27 : Pipeline.RegionSeg (pcfgs (F := F)) adm (pdats m ρ) () defs₀ 𝒱₀ L lv 27 where
  win := launch27.win.to₀
  block_pos := launch27.block_pos
  stage_whole := launch27.stage_whole
  K := PEmpty
  osem k := k.elim
  ho := Pipeline.OwnSemFacts.none _
  hbody c := (body_obligation27 (V67 m ρ) c).loose
  hwaits := Pipeline.hwaits_of_owed_zero _ _ _ _ L lv 27 fun _ _ => rfl
  pre c := iprop(StableHlo.held (c : Thread nD τ) (Pipeline.ucRefs τ sig) (W67 m ρ c) ∗ R c)
  post c := iprop(StableHlo.held (c : Thread nD τ) (Pipeline.ucRefs τ sig) (W68 m ρ c) ∗ R c)
  X c := iprop(∃ r, prngReg c r)
  Y c := iprop(∃ r, prngReg c r)
  Z c := Pipeline.unscopedRest (Ix := Unit) (Name := ℕ) (U := UR sig nD τ) (Lvl := ℕ) spec27 c (V67 m ρ c)
  hentry c := by
    rw [Pipeline.ownSems0_none]
    have hsplit := Pipeline.arrays_of_unscopedBufs (p := 27) (pcfgs (F := F)) adm (pdats m ρ) launch27.win launch27.arr_whole c
      ((pdats m ρ 27 c).share_full fun _ => rfl) (V67 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 27 c).Φ 0 = Pipeline.ΦA spec27 c from rfl]; unfold Pipeline.ΦA
    iintro ⟨Hp, -, Hr⟩
    isplitl [Hr]; · iexact Hr
    iexact Hp
  hout c := by
    rw [Pipeline.ownSems0_none, show (pdats m ρ 27 c).Φ (Fin.last _) = Pipeline.ΦA spec27 c from rfl]; unfold Pipeline.ΦA
    iintro ⟨Hr, Hp⟩
    isplitl [Hp]; · iexact Hp
    isplitr; · iempintro
    iexact Hr
  hexit c := by
    have hjoin := Pipeline.unscopedBufs_of_arrays (p := 27) (pcfgs (F := F)) adm (Ix := Unit) (Name := ℕ) (U := UR sig nD τ) (Lvl := ℕ)
      launch27.win launch27.arr_whole c (pdats m ρ) ((pdats m ρ 27 c).share_full fun _ => rfl)
      (V67 m ρ c) (V68 m ρ c) ((pdats m ρ 27 c).arrAt · cfg27.N) (hF27 m ρ c) (hrest27 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg28.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 28 as a segment of @main over the thread state "every unscoped buffer at the boundary's contents, the
    generator register at some state, nothing owed": entered at `W69`, left at `W70`. Its arrays are split out of the
    unscoped buffers on entry and put back at the exit contents; the generator register goes into the pipeline's
    invariant and comes back; the kernel has no semaphore of its own. -/
def reg28 : Pipeline.RegionSeg (pcfgs (F := F)) adm (pdats m ρ) () defs₀ 𝒱₀ L lv 28 where
  win := launch28.win.to₀
  block_pos := launch28.block_pos
  stage_whole := launch28.stage_whole
  K := PEmpty
  osem k := k.elim
  ho := Pipeline.OwnSemFacts.none _
  hbody c := (body_obligation28 (V69 m ρ) c).loose
  hwaits := Pipeline.hwaits_of_owed_zero _ _ _ _ L lv 28 fun _ _ => rfl
  pre c := iprop(StableHlo.held (c : Thread nD τ) (Pipeline.ucRefs τ sig) (W69 m ρ c) ∗ R c)
  post c := iprop(StableHlo.held (c : Thread nD τ) (Pipeline.ucRefs τ sig) (W70 m ρ c) ∗ R c)
  X c := iprop(∃ r, prngReg c r)
  Y c := iprop(∃ r, prngReg c r)
  Z c := Pipeline.unscopedRest (Ix := Unit) (Name := ℕ) (U := UR sig nD τ) (Lvl := ℕ) spec28 c (V69 m ρ c)
  hentry c := by
    rw [Pipeline.ownSems0_none]
    have hsplit := Pipeline.arrays_of_unscopedBufs (p := 28) (pcfgs (F := F)) adm (pdats m ρ) launch28.win launch28.arr_whole c
      ((pdats m ρ 28 c).share_full fun _ => rfl) (V69 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 28 c).Φ 0 = Pipeline.ΦA spec28 c from rfl]; unfold Pipeline.ΦA
    iintro ⟨Hp, -, Hr⟩
    isplitl [Hr]; · iexact Hr
    iexact Hp
  hout c := by
    rw [Pipeline.ownSems0_none, show (pdats m ρ 28 c).Φ (Fin.last _) = Pipeline.ΦA spec28 c from rfl]; unfold Pipeline.ΦA
    iintro ⟨Hr, Hp⟩
    isplitl [Hp]; · iexact Hp
    isplitr; · iempintro
    iexact Hr
  hexit c := by
    have hjoin := Pipeline.unscopedBufs_of_arrays (p := 28) (pcfgs (F := F)) adm (Ix := Unit) (Name := ℕ) (U := UR sig nD τ) (Lvl := ℕ)
      launch28.win launch28.arr_whole c (pdats m ρ) ((pdats m ρ 28 c).share_full fun _ => rfl)
      (V69 m ρ c) (V70 m ρ c) ((pdats m ρ 28 c).arrAt · cfg28.N) (hF28 m ρ c) (hrest28 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg29.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 29 as a segment of @main over the thread state "every unscoped buffer at the boundary's contents, the
    generator register at some state, nothing owed": entered at `W71`, left at `W72`. Its arrays are split out of the
    unscoped buffers on entry and put back at the exit contents; the generator register goes into the pipeline's
    invariant and comes back; the kernel has no semaphore of its own. -/
def reg29 : Pipeline.RegionSeg (pcfgs (F := F)) adm (pdats m ρ) () defs₀ 𝒱₀ L lv 29 where
  win := launch29.win.to₀
  block_pos := launch29.block_pos
  stage_whole := launch29.stage_whole
  K := PEmpty
  osem k := k.elim
  ho := Pipeline.OwnSemFacts.none _
  hbody c := (body_obligation29 (V71 m ρ) c).loose
  hwaits := Pipeline.hwaits_of_owed_zero _ _ _ _ L lv 29 fun _ _ => rfl
  pre c := iprop(StableHlo.held (c : Thread nD τ) (Pipeline.ucRefs τ sig) (W71 m ρ c) ∗ R c)
  post c := iprop(StableHlo.held (c : Thread nD τ) (Pipeline.ucRefs τ sig) (W72 m ρ c) ∗ R c)
  X c := iprop(∃ r, prngReg c r)
  Y c := iprop(∃ r, prngReg c r)
  Z c := Pipeline.unscopedRest (Ix := Unit) (Name := ℕ) (U := UR sig nD τ) (Lvl := ℕ) spec29 c (V71 m ρ c)
  hentry c := by
    rw [Pipeline.ownSems0_none]
    have hsplit := Pipeline.arrays_of_unscopedBufs (p := 29) (pcfgs (F := F)) adm (pdats m ρ) launch29.win launch29.arr_whole c
      ((pdats m ρ 29 c).share_full fun _ => rfl) (V71 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 29 c).Φ 0 = Pipeline.ΦA spec29 c from rfl]; unfold Pipeline.ΦA
    iintro ⟨Hp, -, Hr⟩
    isplitl [Hr]; · iexact Hr
    iexact Hp
  hout c := by
    rw [Pipeline.ownSems0_none, show (pdats m ρ 29 c).Φ (Fin.last _) = Pipeline.ΦA spec29 c from rfl]; unfold Pipeline.ΦA
    iintro ⟨Hr, Hp⟩
    isplitl [Hp]; · iexact Hp
    isplitr; · iempintro
    iexact Hr
  hexit c := by
    have hjoin := Pipeline.unscopedBufs_of_arrays (p := 29) (pcfgs (F := F)) adm (Ix := Unit) (Name := ℕ) (U := UR sig nD τ) (Lvl := ℕ)
      launch29.win launch29.arr_whole c (pdats m ρ) ((pdats m ρ 29 c).share_full fun _ => rfl)
      (V71 m ρ c) (V72 m ρ c) ((pdats m ρ 29 c).arrAt · cfg29.N) (hF29 m ρ c) (hrest29 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg30.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 30 as a segment of @main over the thread state "every unscoped buffer at the boundary's contents, the
    generator register at some state, nothing owed": entered at `W73`, left at `W74`. Its arrays are split out of the
    unscoped buffers on entry and put back at the exit contents; the generator register goes into the pipeline's
    invariant and comes back; the kernel has no semaphore of its own. -/
def reg30 : Pipeline.RegionSeg (pcfgs (F := F)) adm (pdats m ρ) () defs₀ 𝒱₀ L lv 30 where
  win := launch30.win.to₀
  block_pos := launch30.block_pos
  stage_whole := launch30.stage_whole
  K := PEmpty
  osem k := k.elim
  ho := Pipeline.OwnSemFacts.none _
  hbody c := (body_obligation30 (V73 m ρ) c).loose
  hwaits := Pipeline.hwaits_of_owed_zero _ _ _ _ L lv 30 fun _ _ => rfl
  pre c := iprop(StableHlo.held (c : Thread nD τ) (Pipeline.ucRefs τ sig) (W73 m ρ c) ∗ R c)
  post c := iprop(StableHlo.held (c : Thread nD τ) (Pipeline.ucRefs τ sig) (W74 m ρ c) ∗ R c)
  X c := iprop(∃ r, prngReg c r)
  Y c := iprop(∃ r, prngReg c r)
  Z c := Pipeline.unscopedRest (Ix := Unit) (Name := ℕ) (U := UR sig nD τ) (Lvl := ℕ) spec30 c (V73 m ρ c)
  hentry c := by
    rw [Pipeline.ownSems0_none]
    have hsplit := Pipeline.arrays_of_unscopedBufs (p := 30) (pcfgs (F := F)) adm (pdats m ρ) launch30.win launch30.arr_whole c
      ((pdats m ρ 30 c).share_full fun _ => rfl) (V73 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 30 c).Φ 0 = Pipeline.ΦA spec30 c from rfl]; unfold Pipeline.ΦA
    iintro ⟨Hp, -, Hr⟩
    isplitl [Hr]; · iexact Hr
    iexact Hp
  hout c := by
    rw [Pipeline.ownSems0_none, show (pdats m ρ 30 c).Φ (Fin.last _) = Pipeline.ΦA spec30 c from rfl]; unfold Pipeline.ΦA
    iintro ⟨Hr, Hp⟩
    isplitl [Hp]; · iexact Hp
    isplitr; · iempintro
    iexact Hr
  hexit c := by
    have hjoin := Pipeline.unscopedBufs_of_arrays (p := 30) (pcfgs (F := F)) adm (Ix := Unit) (Name := ℕ) (U := UR sig nD τ) (Lvl := ℕ)
      launch30.win launch30.arr_whole c (pdats m ρ) ((pdats m ρ 30 c).share_full fun _ => rfl)
      (V73 m ρ c) (V74 m ρ c) ((pdats m ρ 30 c).arrAt · cfg30.N) (hF30 m ρ c) (hrest30 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg31.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 31 as a segment of @main over the thread state "every unscoped buffer at the boundary's contents, the
    generator register at some state, nothing owed": entered at `W75`, left at `W76`. Its arrays are split out of the
    unscoped buffers on entry and put back at the exit contents; the generator register goes into the pipeline's
    invariant and comes back; the kernel has no semaphore of its own. -/
def reg31 : Pipeline.RegionSeg (pcfgs (F := F)) adm (pdats m ρ) () defs₀ 𝒱₀ L lv 31 where
  win := launch31.win.to₀
  block_pos := launch31.block_pos
  stage_whole := launch31.stage_whole
  K := PEmpty
  osem k := k.elim
  ho := Pipeline.OwnSemFacts.none _
  hbody c := (body_obligation31 (V75 m ρ) c).loose
  hwaits := Pipeline.hwaits_of_owed_zero _ _ _ _ L lv 31 fun _ _ => rfl
  pre c := iprop(StableHlo.held (c : Thread nD τ) (Pipeline.ucRefs τ sig) (W75 m ρ c) ∗ R c)
  post c := iprop(StableHlo.held (c : Thread nD τ) (Pipeline.ucRefs τ sig) (W76 m ρ c) ∗ R c)
  X c := iprop(∃ r, prngReg c r)
  Y c := iprop(∃ r, prngReg c r)
  Z c := Pipeline.unscopedRest (Ix := Unit) (Name := ℕ) (U := UR sig nD τ) (Lvl := ℕ) spec31 c (V75 m ρ c)
  hentry c := by
    rw [Pipeline.ownSems0_none]
    have hsplit := Pipeline.arrays_of_unscopedBufs (p := 31) (pcfgs (F := F)) adm (pdats m ρ) launch31.win launch31.arr_whole c
      ((pdats m ρ 31 c).share_full fun _ => rfl) (V75 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 31 c).Φ 0 = Pipeline.ΦA spec31 c from rfl]; unfold Pipeline.ΦA
    iintro ⟨Hp, -, Hr⟩
    isplitl [Hr]; · iexact Hr
    iexact Hp
  hout c := by
    rw [Pipeline.ownSems0_none, show (pdats m ρ 31 c).Φ (Fin.last _) = Pipeline.ΦA spec31 c from rfl]; unfold Pipeline.ΦA
    iintro ⟨Hr, Hp⟩
    isplitl [Hp]; · iexact Hp
    isplitr; · iempintro
    iexact Hr
  hexit c := by
    have hjoin := Pipeline.unscopedBufs_of_arrays (p := 31) (pcfgs (F := F)) adm (Ix := Unit) (Name := ℕ) (U := UR sig nD τ) (Lvl := ℕ)
      launch31.win launch31.arr_whole c (pdats m ρ) ((pdats m ρ 31 c).share_full fun _ => rfl)
      (V75 m ρ c) (V76 m ρ c) ((pdats m ρ 31 c).arrAt · cfg31.N) (hF31 m ρ c) (hrest31 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg32.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 32 as a segment of @main over the thread state "every unscoped buffer at the boundary's contents, the
    generator register at some state, nothing owed": entered at `W77`, left at `W78`. Its arrays are split out of the
    unscoped buffers on entry and put back at the exit contents; the generator register goes into the pipeline's
    invariant and comes back; the kernel has no semaphore of its own. -/
def reg32 : Pipeline.RegionSeg (pcfgs (F := F)) adm (pdats m ρ) () defs₀ 𝒱₀ L lv 32 where
  win := launch32.win.to₀
  block_pos := launch32.block_pos
  stage_whole := launch32.stage_whole
  K := PEmpty
  osem k := k.elim
  ho := Pipeline.OwnSemFacts.none _
  hbody c := (body_obligation32 (V77 m ρ) c).loose
  hwaits := Pipeline.hwaits_of_owed_zero _ _ _ _ L lv 32 fun _ _ => rfl
  pre c := iprop(StableHlo.held (c : Thread nD τ) (Pipeline.ucRefs τ sig) (W77 m ρ c) ∗ R c)
  post c := iprop(StableHlo.held (c : Thread nD τ) (Pipeline.ucRefs τ sig) (W78 m ρ c) ∗ R c)
  X c := iprop(∃ r, prngReg c r)
  Y c := iprop(∃ r, prngReg c r)
  Z c := Pipeline.unscopedRest (Ix := Unit) (Name := ℕ) (U := UR sig nD τ) (Lvl := ℕ) spec32 c (V77 m ρ c)
  hentry c := by
    rw [Pipeline.ownSems0_none]
    have hsplit := Pipeline.arrays_of_unscopedBufs (p := 32) (pcfgs (F := F)) adm (pdats m ρ) launch32.win launch32.arr_whole c
      ((pdats m ρ 32 c).share_full fun _ => rfl) (V77 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 32 c).Φ 0 = Pipeline.ΦA spec32 c from rfl]; unfold Pipeline.ΦA
    iintro ⟨Hp, -, Hr⟩
    isplitl [Hr]; · iexact Hr
    iexact Hp
  hout c := by
    rw [Pipeline.ownSems0_none, show (pdats m ρ 32 c).Φ (Fin.last _) = Pipeline.ΦA spec32 c from rfl]; unfold Pipeline.ΦA
    iintro ⟨Hr, Hp⟩
    isplitl [Hp]; · iexact Hp
    isplitr; · iempintro
    iexact Hr
  hexit c := by
    have hjoin := Pipeline.unscopedBufs_of_arrays (p := 32) (pcfgs (F := F)) adm (Ix := Unit) (Name := ℕ) (U := UR sig nD τ) (Lvl := ℕ)
      launch32.win launch32.arr_whole c (pdats m ρ) ((pdats m ρ 32 c).share_full fun _ => rfl)
      (V77 m ρ c) (V78 m ρ c) ((pdats m ρ 32 c).arrAt · cfg32.N) (hF32 m ρ c) (hrest32 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg33.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 33 as a segment of @main over the thread state "every unscoped buffer at the boundary's contents, the
    generator register at some state, nothing owed": entered at `W79`, left at `W80`. Its arrays are split out of the
    unscoped buffers on entry and put back at the exit contents; the generator register goes into the pipeline's
    invariant and comes back; the kernel has no semaphore of its own. -/
def reg33 : Pipeline.RegionSeg (pcfgs (F := F)) adm (pdats m ρ) () defs₀ 𝒱₀ L lv 33 where
  win := launch33.win.to₀
  block_pos := launch33.block_pos
  stage_whole := launch33.stage_whole
  K := PEmpty
  osem k := k.elim
  ho := Pipeline.OwnSemFacts.none _
  hbody c := (body_obligation33 (V79 m ρ) c).loose
  hwaits := Pipeline.hwaits_of_owed_zero _ _ _ _ L lv 33 fun _ _ => rfl
  pre c := iprop(StableHlo.held (c : Thread nD τ) (Pipeline.ucRefs τ sig) (W79 m ρ c) ∗ R c)
  post c := iprop(StableHlo.held (c : Thread nD τ) (Pipeline.ucRefs τ sig) (W80 m ρ c) ∗ R c)
  X c := iprop(∃ r, prngReg c r)
  Y c := iprop(∃ r, prngReg c r)
  Z c := Pipeline.unscopedRest (Ix := Unit) (Name := ℕ) (U := UR sig nD τ) (Lvl := ℕ) spec33 c (V79 m ρ c)
  hentry c := by
    rw [Pipeline.ownSems0_none]
    have hsplit := Pipeline.arrays_of_unscopedBufs (p := 33) (pcfgs (F := F)) adm (pdats m ρ) launch33.win launch33.arr_whole c
      ((pdats m ρ 33 c).share_full fun _ => rfl) (V79 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 33 c).Φ 0 = Pipeline.ΦA spec33 c from rfl]; unfold Pipeline.ΦA
    iintro ⟨Hp, -, Hr⟩
    isplitl [Hr]; · iexact Hr
    iexact Hp
  hout c := by
    rw [Pipeline.ownSems0_none, show (pdats m ρ 33 c).Φ (Fin.last _) = Pipeline.ΦA spec33 c from rfl]; unfold Pipeline.ΦA
    iintro ⟨Hr, Hp⟩
    isplitl [Hp]; · iexact Hp
    isplitr; · iempintro
    iexact Hr
  hexit c := by
    have hjoin := Pipeline.unscopedBufs_of_arrays (p := 33) (pcfgs (F := F)) adm (Ix := Unit) (Name := ℕ) (U := UR sig nD τ) (Lvl := ℕ)
      launch33.win launch33.arr_whole c (pdats m ρ) ((pdats m ρ 33 c).share_full fun _ => rfl)
      (V79 m ρ c) (V80 m ρ c) ((pdats m ρ 33 c).arrAt · cfg33.N) (hF33 m ρ c) (hrest33 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg34.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 34 as a segment of @main over the thread state "every unscoped buffer at the boundary's contents, the
    generator register at some state, nothing owed": entered at `W81`, left at `W82`. Its arrays are split out of the
    unscoped buffers on entry and put back at the exit contents; the generator register goes into the pipeline's
    invariant and comes back; the kernel has no semaphore of its own. -/
def reg34 : Pipeline.RegionSeg (pcfgs (F := F)) adm (pdats m ρ) () defs₀ 𝒱₀ L lv 34 where
  win := launch34.win.to₀
  block_pos := launch34.block_pos
  stage_whole := launch34.stage_whole
  K := PEmpty
  osem k := k.elim
  ho := Pipeline.OwnSemFacts.none _
  hbody c := (body_obligation34 (V81 m ρ) c).loose
  hwaits := Pipeline.hwaits_of_owed_zero _ _ _ _ L lv 34 fun _ _ => rfl
  pre c := iprop(StableHlo.held (c : Thread nD τ) (Pipeline.ucRefs τ sig) (W81 m ρ c) ∗ R c)
  post c := iprop(StableHlo.held (c : Thread nD τ) (Pipeline.ucRefs τ sig) (W82 m ρ c) ∗ R c)
  X c := iprop(∃ r, prngReg c r)
  Y c := iprop(∃ r, prngReg c r)
  Z c := Pipeline.unscopedRest (Ix := Unit) (Name := ℕ) (U := UR sig nD τ) (Lvl := ℕ) spec34 c (V81 m ρ c)
  hentry c := by
    rw [Pipeline.ownSems0_none]
    have hsplit := Pipeline.arrays_of_unscopedBufs (p := 34) (pcfgs (F := F)) adm (pdats m ρ) launch34.win launch34.arr_whole c
      ((pdats m ρ 34 c).share_full fun _ => rfl) (V81 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 34 c).Φ 0 = Pipeline.ΦA spec34 c from rfl]; unfold Pipeline.ΦA
    iintro ⟨Hp, -, Hr⟩
    isplitl [Hr]; · iexact Hr
    iexact Hp
  hout c := by
    rw [Pipeline.ownSems0_none, show (pdats m ρ 34 c).Φ (Fin.last _) = Pipeline.ΦA spec34 c from rfl]; unfold Pipeline.ΦA
    iintro ⟨Hr, Hp⟩
    isplitl [Hp]; · iexact Hp
    isplitr; · iempintro
    iexact Hr
  hexit c := by
    have hjoin := Pipeline.unscopedBufs_of_arrays (p := 34) (pcfgs (F := F)) adm (Ix := Unit) (Name := ℕ) (U := UR sig nD τ) (Lvl := ℕ)
      launch34.win launch34.arr_whole c (pdats m ρ) ((pdats m ρ 34 c).share_full fun _ => rfl)
      (V81 m ρ c) (V82 m ρ c) ((pdats m ρ 34 c).arrAt · cfg34.N) (hF34 m ρ c) (hrest34 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg35.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 35 as a segment of @main over the thread state "every unscoped buffer at the boundary's contents, the
    generator register at some state, nothing owed": entered at `W87`, left at `W88`. Its arrays are split out of the
    unscoped buffers on entry and put back at the exit contents; the generator register goes into the pipeline's
    invariant and comes back; the kernel has no semaphore of its own. -/
def reg35 : Pipeline.RegionSeg (pcfgs (F := F)) adm (pdats m ρ) () defs₀ 𝒱₀ L lv 35 where
  win := launch35.win.to₀
  block_pos := launch35.block_pos
  stage_whole := launch35.stage_whole
  K := PEmpty
  osem k := k.elim
  ho := Pipeline.OwnSemFacts.none _
  hbody c := (body_obligation35 (V87 m ρ) c).loose
  hwaits := Pipeline.hwaits_of_owed_zero _ _ _ _ L lv 35 fun _ _ => rfl
  pre c := iprop(StableHlo.held (c : Thread nD τ) (Pipeline.ucRefs τ sig) (W87 m ρ c) ∗ R c)
  post c := iprop(StableHlo.held (c : Thread nD τ) (Pipeline.ucRefs τ sig) (W88 m ρ c) ∗ R c)
  X c := iprop(∃ r, prngReg c r)
  Y c := iprop(∃ r, prngReg c r)
  Z c := Pipeline.unscopedRest (Ix := Unit) (Name := ℕ) (U := UR sig nD τ) (Lvl := ℕ) spec35 c (V87 m ρ c)
  hentry c := by
    rw [Pipeline.ownSems0_none]
    have hsplit := Pipeline.arrays_of_unscopedBufs (p := 35) (pcfgs (F := F)) adm (pdats m ρ) launch35.win launch35.arr_whole c
      ((pdats m ρ 35 c).share_full fun _ => rfl) (V87 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 35 c).Φ 0 = Pipeline.ΦA spec35 c from rfl]; unfold Pipeline.ΦA
    iintro ⟨Hp, -, Hr⟩
    isplitl [Hr]; · iexact Hr
    iexact Hp
  hout c := by
    rw [Pipeline.ownSems0_none, show (pdats m ρ 35 c).Φ (Fin.last _) = Pipeline.ΦA spec35 c from rfl]; unfold Pipeline.ΦA
    iintro ⟨Hr, Hp⟩
    isplitl [Hp]; · iexact Hp
    isplitr; · iempintro
    iexact Hr
  hexit c := by
    have hjoin := Pipeline.unscopedBufs_of_arrays (p := 35) (pcfgs (F := F)) adm (Ix := Unit) (Name := ℕ) (U := UR sig nD τ) (Lvl := ℕ)
      launch35.win launch35.arr_whole c (pdats m ρ) ((pdats m ρ 35 c).share_full fun _ => rfl)
      (V87 m ρ c) (V88 m ρ c) ((pdats m ρ 35 c).arrAt · cfg35.N) (hF35 m ρ c) (hrest35 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg36.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 36 as a segment of @main over the thread state "every unscoped buffer at the boundary's contents, the
    generator register at some state, nothing owed": entered at `W89`, left at `W90`. Its arrays are split out of the
    unscoped buffers on entry and put back at the exit contents; the generator register goes into the pipeline's
    invariant and comes back; the kernel has no semaphore of its own. -/
def reg36 : Pipeline.RegionSeg (pcfgs (F := F)) adm (pdats m ρ) () defs₀ 𝒱₀ L lv 36 where
  win := launch36.win.to₀
  block_pos := launch36.block_pos
  stage_whole := launch36.stage_whole
  K := PEmpty
  osem k := k.elim
  ho := Pipeline.OwnSemFacts.none _
  hbody c := (body_obligation36 (V89 m ρ) c).loose
  hwaits := Pipeline.hwaits_of_owed_zero _ _ _ _ L lv 36 fun _ _ => rfl
  pre c := iprop(StableHlo.held (c : Thread nD τ) (Pipeline.ucRefs τ sig) (W89 m ρ c) ∗ R c)
  post c := iprop(StableHlo.held (c : Thread nD τ) (Pipeline.ucRefs τ sig) (W90 m ρ c) ∗ R c)
  X c := iprop(∃ r, prngReg c r)
  Y c := iprop(∃ r, prngReg c r)
  Z c := Pipeline.unscopedRest (Ix := Unit) (Name := ℕ) (U := UR sig nD τ) (Lvl := ℕ) spec36 c (V89 m ρ c)
  hentry c := by
    rw [Pipeline.ownSems0_none]
    have hsplit := Pipeline.arrays_of_unscopedBufs (p := 36) (pcfgs (F := F)) adm (pdats m ρ) launch36.win launch36.arr_whole c
      ((pdats m ρ 36 c).share_full fun _ => rfl) (V89 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 36 c).Φ 0 = Pipeline.ΦA spec36 c from rfl]; unfold Pipeline.ΦA
    iintro ⟨Hp, -, Hr⟩
    isplitl [Hr]; · iexact Hr
    iexact Hp
  hout c := by
    rw [Pipeline.ownSems0_none, show (pdats m ρ 36 c).Φ (Fin.last _) = Pipeline.ΦA spec36 c from rfl]; unfold Pipeline.ΦA
    iintro ⟨Hr, Hp⟩
    isplitl [Hp]; · iexact Hp
    isplitr; · iempintro
    iexact Hr
  hexit c := by
    have hjoin := Pipeline.unscopedBufs_of_arrays (p := 36) (pcfgs (F := F)) adm (Ix := Unit) (Name := ℕ) (U := UR sig nD τ) (Lvl := ℕ)
      launch36.win launch36.arr_whole c (pdats m ρ) ((pdats m ρ 36 c).share_full fun _ => rfl)
      (V89 m ρ c) (V90 m ρ c) ((pdats m ρ 36 c).arrAt · cfg36.N) (hF36 m ρ c) (hrest36 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg37.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 37 as a segment of @main over the thread state "every unscoped buffer at the boundary's contents, the
    generator register at some state, nothing owed": entered at `W91`, left at `W92`. Its arrays are split out of the
    unscoped buffers on entry and put back at the exit contents; the generator register goes into the pipeline's
    invariant and comes back; the kernel has no semaphore of its own. -/
def reg37 : Pipeline.RegionSeg (pcfgs (F := F)) adm (pdats m ρ) () defs₀ 𝒱₀ L lv 37 where
  win := launch37.win.to₀
  block_pos := launch37.block_pos
  stage_whole := launch37.stage_whole
  K := PEmpty
  osem k := k.elim
  ho := Pipeline.OwnSemFacts.none _
  hbody c := (body_obligation37 (V91 m ρ) c).loose
  hwaits := Pipeline.hwaits_of_owed_zero _ _ _ _ L lv 37 fun _ _ => rfl
  pre c := iprop(StableHlo.held (c : Thread nD τ) (Pipeline.ucRefs τ sig) (W91 m ρ c) ∗ R c)
  post c := iprop(StableHlo.held (c : Thread nD τ) (Pipeline.ucRefs τ sig) (W92 m ρ c) ∗ R c)
  X c := iprop(∃ r, prngReg c r)
  Y c := iprop(∃ r, prngReg c r)
  Z c := Pipeline.unscopedRest (Ix := Unit) (Name := ℕ) (U := UR sig nD τ) (Lvl := ℕ) spec37 c (V91 m ρ c)
  hentry c := by
    rw [Pipeline.ownSems0_none]
    have hsplit := Pipeline.arrays_of_unscopedBufs (p := 37) (pcfgs (F := F)) adm (pdats m ρ) launch37.win launch37.arr_whole c
      ((pdats m ρ 37 c).share_full fun _ => rfl) (V91 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 37 c).Φ 0 = Pipeline.ΦA spec37 c from rfl]; unfold Pipeline.ΦA
    iintro ⟨Hp, -, Hr⟩
    isplitl [Hr]; · iexact Hr
    iexact Hp
  hout c := by
    rw [Pipeline.ownSems0_none, show (pdats m ρ 37 c).Φ (Fin.last _) = Pipeline.ΦA spec37 c from rfl]; unfold Pipeline.ΦA
    iintro ⟨Hr, Hp⟩
    isplitl [Hp]; · iexact Hp
    isplitr; · iempintro
    iexact Hr
  hexit c := by
    have hjoin := Pipeline.unscopedBufs_of_arrays (p := 37) (pcfgs (F := F)) adm (Ix := Unit) (Name := ℕ) (U := UR sig nD τ) (Lvl := ℕ)
      launch37.win launch37.arr_whole c (pdats m ρ) ((pdats m ρ 37 c).share_full fun _ => rfl)
      (V91 m ρ c) (V92 m ρ c) ((pdats m ρ 37 c).arrAt · cfg37.N) (hF37 m ρ c) (hrest37 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg38.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 38 as a segment of @main over the thread state "every unscoped buffer at the boundary's contents, the
    generator register at some state, nothing owed": entered at `W93`, left at `W94`. Its arrays are split out of the
    unscoped buffers on entry and put back at the exit contents; the generator register goes into the pipeline's
    invariant and comes back; the kernel has no semaphore of its own. -/
def reg38 : Pipeline.RegionSeg (pcfgs (F := F)) adm (pdats m ρ) () defs₀ 𝒱₀ L lv 38 where
  win := launch38.win.to₀
  block_pos := launch38.block_pos
  stage_whole := launch38.stage_whole
  K := PEmpty
  osem k := k.elim
  ho := Pipeline.OwnSemFacts.none _
  hbody c := (body_obligation38 (V93 m ρ) c).loose
  hwaits := Pipeline.hwaits_of_owed_zero _ _ _ _ L lv 38 fun _ _ => rfl
  pre c := iprop(StableHlo.held (c : Thread nD τ) (Pipeline.ucRefs τ sig) (W93 m ρ c) ∗ R c)
  post c := iprop(StableHlo.held (c : Thread nD τ) (Pipeline.ucRefs τ sig) (W94 m ρ c) ∗ R c)
  X c := iprop(∃ r, prngReg c r)
  Y c := iprop(∃ r, prngReg c r)
  Z c := Pipeline.unscopedRest (Ix := Unit) (Name := ℕ) (U := UR sig nD τ) (Lvl := ℕ) spec38 c (V93 m ρ c)
  hentry c := by
    rw [Pipeline.ownSems0_none]
    have hsplit := Pipeline.arrays_of_unscopedBufs (p := 38) (pcfgs (F := F)) adm (pdats m ρ) launch38.win launch38.arr_whole c
      ((pdats m ρ 38 c).share_full fun _ => rfl) (V93 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 38 c).Φ 0 = Pipeline.ΦA spec38 c from rfl]; unfold Pipeline.ΦA
    iintro ⟨Hp, -, Hr⟩
    isplitl [Hr]; · iexact Hr
    iexact Hp
  hout c := by
    rw [Pipeline.ownSems0_none, show (pdats m ρ 38 c).Φ (Fin.last _) = Pipeline.ΦA spec38 c from rfl]; unfold Pipeline.ΦA
    iintro ⟨Hr, Hp⟩
    isplitl [Hp]; · iexact Hp
    isplitr; · iempintro
    iexact Hr
  hexit c := by
    have hjoin := Pipeline.unscopedBufs_of_arrays (p := 38) (pcfgs (F := F)) adm (Ix := Unit) (Name := ℕ) (U := UR sig nD τ) (Lvl := ℕ)
      launch38.win launch38.arr_whole c (pdats m ρ) ((pdats m ρ 38 c).share_full fun _ => rfl)
      (V93 m ρ c) (V94 m ρ c) ((pdats m ρ 38 c).arrAt · cfg38.N) (hF38 m ρ c) (hrest38 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg39.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 39 as a segment of @main over the thread state "every unscoped buffer at the boundary's contents, the
    generator register at some state, nothing owed": entered at `W95`, left at `W96`. Its arrays are split out of the
    unscoped buffers on entry and put back at the exit contents; the generator register goes into the pipeline's
    invariant and comes back; the kernel has no semaphore of its own. -/
def reg39 : Pipeline.RegionSeg (pcfgs (F := F)) adm (pdats m ρ) () defs₀ 𝒱₀ L lv 39 where
  win := launch39.win.to₀
  block_pos := launch39.block_pos
  stage_whole := launch39.stage_whole
  K := PEmpty
  osem k := k.elim
  ho := Pipeline.OwnSemFacts.none _
  hbody c := (body_obligation39 (V95 m ρ) c).loose
  hwaits := Pipeline.hwaits_of_owed_zero _ _ _ _ L lv 39 fun _ _ => rfl
  pre c := iprop(StableHlo.held (c : Thread nD τ) (Pipeline.ucRefs τ sig) (W95 m ρ c) ∗ R c)
  post c := iprop(StableHlo.held (c : Thread nD τ) (Pipeline.ucRefs τ sig) (W96 m ρ c) ∗ R c)
  X c := iprop(∃ r, prngReg c r)
  Y c := iprop(∃ r, prngReg c r)
  Z c := Pipeline.unscopedRest (Ix := Unit) (Name := ℕ) (U := UR sig nD τ) (Lvl := ℕ) spec39 c (V95 m ρ c)
  hentry c := by
    rw [Pipeline.ownSems0_none]
    have hsplit := Pipeline.arrays_of_unscopedBufs (p := 39) (pcfgs (F := F)) adm (pdats m ρ) launch39.win launch39.arr_whole c
      ((pdats m ρ 39 c).share_full fun _ => rfl) (V95 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 39 c).Φ 0 = Pipeline.ΦA spec39 c from rfl]; unfold Pipeline.ΦA
    iintro ⟨Hp, -, Hr⟩
    isplitl [Hr]; · iexact Hr
    iexact Hp
  hout c := by
    rw [Pipeline.ownSems0_none, show (pdats m ρ 39 c).Φ (Fin.last _) = Pipeline.ΦA spec39 c from rfl]; unfold Pipeline.ΦA
    iintro ⟨Hr, Hp⟩
    isplitl [Hp]; · iexact Hp
    isplitr; · iempintro
    iexact Hr
  hexit c := by
    have hjoin := Pipeline.unscopedBufs_of_arrays (p := 39) (pcfgs (F := F)) adm (Ix := Unit) (Name := ℕ) (U := UR sig nD τ) (Lvl := ℕ)
      launch39.win launch39.arr_whole c (pdats m ρ) ((pdats m ρ 39 c).share_full fun _ => rfl)
      (V95 m ρ c) (V96 m ρ c) ((pdats m ρ 39 c).arrAt · cfg39.N) (hF39 m ρ c) (hrest39 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg40.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 40 as a segment of @main over the thread state "every unscoped buffer at the boundary's contents, the
    generator register at some state, nothing owed": entered at `W97`, left at `W98`. Its arrays are split out of the
    unscoped buffers on entry and put back at the exit contents; the generator register goes into the pipeline's
    invariant and comes back; the kernel has no semaphore of its own. -/
def reg40 : Pipeline.RegionSeg (pcfgs (F := F)) adm (pdats m ρ) () defs₀ 𝒱₀ L lv 40 where
  win := launch40.win.to₀
  block_pos := launch40.block_pos
  stage_whole := launch40.stage_whole
  K := PEmpty
  osem k := k.elim
  ho := Pipeline.OwnSemFacts.none _
  hbody c := (body_obligation40 (V97 m ρ) c).loose
  hwaits := Pipeline.hwaits_of_owed_zero _ _ _ _ L lv 40 fun _ _ => rfl
  pre c := iprop(StableHlo.held (c : Thread nD τ) (Pipeline.ucRefs τ sig) (W97 m ρ c) ∗ R c)
  post c := iprop(StableHlo.held (c : Thread nD τ) (Pipeline.ucRefs τ sig) (W98 m ρ c) ∗ R c)
  X c := iprop(∃ r, prngReg c r)
  Y c := iprop(∃ r, prngReg c r)
  Z c := Pipeline.unscopedRest (Ix := Unit) (Name := ℕ) (U := UR sig nD τ) (Lvl := ℕ) spec40 c (V97 m ρ c)
  hentry c := by
    rw [Pipeline.ownSems0_none]
    have hsplit := Pipeline.arrays_of_unscopedBufs (p := 40) (pcfgs (F := F)) adm (pdats m ρ) launch40.win launch40.arr_whole c
      ((pdats m ρ 40 c).share_full fun _ => rfl) (V97 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 40 c).Φ 0 = Pipeline.ΦA spec40 c from rfl]; unfold Pipeline.ΦA
    iintro ⟨Hp, -, Hr⟩
    isplitl [Hr]; · iexact Hr
    iexact Hp
  hout c := by
    rw [Pipeline.ownSems0_none, show (pdats m ρ 40 c).Φ (Fin.last _) = Pipeline.ΦA spec40 c from rfl]; unfold Pipeline.ΦA
    iintro ⟨Hr, Hp⟩
    isplitl [Hp]; · iexact Hp
    isplitr; · iempintro
    iexact Hr
  hexit c := by
    have hjoin := Pipeline.unscopedBufs_of_arrays (p := 40) (pcfgs (F := F)) adm (Ix := Unit) (Name := ℕ) (U := UR sig nD τ) (Lvl := ℕ)
      launch40.win launch40.arr_whole c (pdats m ρ) ((pdats m ρ 40 c).share_full fun _ => rfl)
      (V97 m ρ c) (V98 m ρ c) ((pdats m ρ 40 c).arrAt · cfg40.N) (hF40 m ρ c) (hrest40 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg41.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 41 as a segment of @main over the thread state "every unscoped buffer at the boundary's contents, the
    generator register at some state, nothing owed": entered at `W99`, left at `W100`. Its arrays are split out of the
    unscoped buffers on entry and put back at the exit contents; the generator register goes into the pipeline's
    invariant and comes back; the kernel has no semaphore of its own. -/
def reg41 : Pipeline.RegionSeg (pcfgs (F := F)) adm (pdats m ρ) () defs₀ 𝒱₀ L lv 41 where
  win := launch41.win.to₀
  block_pos := launch41.block_pos
  stage_whole := launch41.stage_whole
  K := PEmpty
  osem k := k.elim
  ho := Pipeline.OwnSemFacts.none _
  hbody c := (body_obligation41 (V99 m ρ) c).loose
  hwaits := Pipeline.hwaits_of_owed_zero _ _ _ _ L lv 41 fun _ _ => rfl
  pre c := iprop(StableHlo.held (c : Thread nD τ) (Pipeline.ucRefs τ sig) (W99 m ρ c) ∗ R c)
  post c := iprop(StableHlo.held (c : Thread nD τ) (Pipeline.ucRefs τ sig) (W100 m ρ c) ∗ R c)
  X c := iprop(∃ r, prngReg c r)
  Y c := iprop(∃ r, prngReg c r)
  Z c := Pipeline.unscopedRest (Ix := Unit) (Name := ℕ) (U := UR sig nD τ) (Lvl := ℕ) spec41 c (V99 m ρ c)
  hentry c := by
    rw [Pipeline.ownSems0_none]
    have hsplit := Pipeline.arrays_of_unscopedBufs (p := 41) (pcfgs (F := F)) adm (pdats m ρ) launch41.win launch41.arr_whole c
      ((pdats m ρ 41 c).share_full fun _ => rfl) (V99 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 41 c).Φ 0 = Pipeline.ΦA spec41 c from rfl]; unfold Pipeline.ΦA
    iintro ⟨Hp, -, Hr⟩
    isplitl [Hr]; · iexact Hr
    iexact Hp
  hout c := by
    rw [Pipeline.ownSems0_none, show (pdats m ρ 41 c).Φ (Fin.last _) = Pipeline.ΦA spec41 c from rfl]; unfold Pipeline.ΦA
    iintro ⟨Hr, Hp⟩
    isplitl [Hp]; · iexact Hp
    isplitr; · iempintro
    iexact Hr
  hexit c := by
    have hjoin := Pipeline.unscopedBufs_of_arrays (p := 41) (pcfgs (F := F)) adm (Ix := Unit) (Name := ℕ) (U := UR sig nD τ) (Lvl := ℕ)
      launch41.win launch41.arr_whole c (pdats m ρ) ((pdats m ρ 41 c).share_full fun _ => rfl)
      (V99 m ρ c) (V100 m ρ c) ((pdats m ρ 41 c).arrAt · cfg41.N) (hF41 m ρ c) (hrest41 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg42.lean ====
import proofs.«101828_j11562051961417_2_alg».proof.Proof.K.Fold

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 42 as a segment of @main over the thread state "every unscoped buffer at the boundary's contents, the
    generator register at some state, nothing owed": entered at `W101`, left at `W102`. Its arrays are split out of the
    unscoped buffers on entry and put back at the exit contents; the generator register goes into the pipeline's
    invariant and comes back; the kernel has no semaphore of its own. -/
def reg42 : Pipeline.RegionSeg (pcfgs (F := F)) adm (pdats m ρ) () defs₀ 𝒱₀ L lv 42 where
  win := launch42.win.to₀
  block_pos := launch42.block_pos
  stage_whole := launch42.stage_whole
  K := PEmpty
  osem k := k.elim
  ho := Pipeline.OwnSemFacts.none _
  hbody c := (body_obligation42 (V101 m ρ) c).loose
  hwaits := Pipeline.hwaits_of_owed_zero _ _ _ _ L lv 42 fun _ _ => rfl
  pre c := iprop(StableHlo.held (c : Thread nD τ) (Pipeline.ucRefs τ sig) (W101 m ρ c) ∗ R c)
  post c := iprop(StableHlo.held (c : Thread nD τ) (Pipeline.ucRefs τ sig) (W102 m ρ c) ∗ R c)
  X c := iprop(∃ r, prngReg c r)
  Y c := iprop(∃ r, prngReg c r)
  Z c := Pipeline.unscopedRest (Ix := Unit) (Name := ℕ) (U := UR sig nD τ) (Lvl := ℕ) spec42 c (V101 m ρ c)
  hentry c := by
    rw [Pipeline.ownSems0_none]
    have hsplit := Pipeline.arrays_of_unscopedBufs (p := 42) (pcfgs (F := F)) adm (pdats m ρ) launch42.win launch42.arr_whole c
      ((pdats m ρ 42 c).share_full fun _ => rfl) (V101 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 42 c).Φ 0 = Pipeline.ΦA spec42 c from rfl]; unfold Pipeline.ΦA
    iintro ⟨Hp, -, Hr⟩
    isplitl [Hr]; · iexact Hr
    iexact Hp
  hout c := by
    rw [Pipeline.ownSems0_none, show (pdats m ρ 42 c).Φ (Fin.last _) = Pipeline.ΦA spec42 c from rfl]; unfold Pipeline.ΦA
    iintro ⟨Hr, Hp⟩
    isplitl [Hp]; · iexact Hp
    isplitr; · iempintro
    iexact Hr
  hexit c := by
    have hjoin := Pipeline.unscopedBufs_of_arrays (p := 42) (pcfgs (F := F)) adm (Ix := Unit) (Name := ℕ) (U := UR sig nD τ) (Lvl := ℕ)
      launch42.win launch42.arr_whole c (pdats m ρ) ((pdats m ρ 42 c).share_full fun _ => rfl)
      (V101 m ρ c) (V102 m ρ c) ((pdats m ρ 42 c).arrAt · cfg42.N) (hF42 m ρ c) (hrest42 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Segs.lean ====
import proofs.«101828_j11562051961417_2_alg».proof.Proof.K.Reg0
import proofs.«101828_j11562051961417_2_alg».proof.Proof.K.Reg1
import proofs.«101828_j11562051961417_2_alg».proof.Proof.K.Reg2
import proofs.«101828_j11562051961417_2_alg».proof.Proof.K.Reg3
import proofs.«101828_j11562051961417_2_alg».proof.Proof.K.Reg4
import proofs.«101828_j11562051961417_2_alg».proof.Proof.K.Reg5
import proofs.«101828_j11562051961417_2_alg».proof.Proof.K.Reg6
import proofs.«101828_j11562051961417_2_alg».proof.Proof.K.Reg7
import proofs.«101828_j11562051961417_2_alg».proof.Proof.K.Reg8
import proofs.«101828_j11562051961417_2_alg».proof.Proof.K.Reg9
import proofs.«101828_j11562051961417_2_alg».proof.Proof.K.Reg10
import proofs.«101828_j11562051961417_2_alg».proof.Proof.K.Reg11
import proofs.«101828_j11562051961417_2_alg».proof.Proof.K.Reg12
import proofs.«101828_j11562051961417_2_alg».proof.Proof.K.Reg13
import proofs.«101828_j11562051961417_2_alg».proof.Proof.K.Reg14
import proofs.«101828_j11562051961417_2_alg».proof.Proof.K.Reg15
import proofs.«101828_j11562051961417_2_alg».proof.Proof.K.Reg16
import proofs.«101828_j11562051961417_2_alg».proof.Proof.K.Reg17
import proofs.«101828_j11562051961417_2_alg».proof.Proof.K.Reg18
import proofs.«101828_j11562051961417_2_alg».proof.Proof.K.Reg19
import proofs.«101828_j11562051961417_2_alg».proof.Proof.K.Reg20
import proofs.«101828_j11562051961417_2_alg».proof.Proof.K.Reg21
import proofs.«101828_j11562051961417_2_alg».proof.Proof.K.Reg22
import proofs.«101828_j11562051961417_2_alg».proof.Proof.K.Reg23
import proofs.«101828_j11562051961417_2_alg».proof.Proof.K.Reg24
import proofs.«101828_j11562051961417_2_alg».proof.Proof.K.Reg25
import proofs.«101828_j11562051961417_2_alg».proof.Proof.K.Reg26
import proofs.«101828_j11562051961417_2_alg».proof.Proof.K.Reg27
import proofs.«101828_j11562051961417_2_alg».proof.Proof.K.Reg28
import proofs.«101828_j11562051961417_2_alg».proof.Proof.K.Reg29
import proofs.«101828_j11562051961417_2_alg».proof.Proof.K.Reg30
import proofs.«101828_j11562051961417_2_alg».proof.Proof.K.Reg31
import proofs.«101828_j11562051961417_2_alg».proof.Proof.K.Reg32
import proofs.«101828_j11562051961417_2_alg».proof.Proof.K.Reg33
import proofs.«101828_j11562051961417_2_alg».proof.Proof.K.Reg34
import proofs.«101828_j11562051961417_2_alg».proof.Proof.K.Reg35
import proofs.«101828_j11562051961417_2_alg».proof.Proof.K.Reg36
import proofs.«101828_j11562051961417_2_alg».proof.Proof.K.Reg37
import proofs.«101828_j11562051961417_2_alg».proof.Proof.K.Reg38
import proofs.«101828_j11562051961417_2_alg».proof.Proof.K.Reg39
import proofs.«101828_j11562051961417_2_alg».proof.Proof.K.Reg40
import proofs.«101828_j11562051961417_2_alg».proof.Proof.K.Reg41
import proofs.«101828_j11562051961417_2_alg».proof.Proof.K.Reg42

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 109 segments in order: a host segment per stretch of operations, from its boundary's contents, and a
    region per pallas_call. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .host (hseg hostOps5_1 hostOps5_1_sub hostOps5_1_fresh (W11 m ρ)),
    .host (hseg hostOps5_2 hostOps5_2_sub hostOps5_2_fresh (W12 m ρ)),
    .host (hseg hostOps5_3 hostOps5_3_sub hostOps5_3_fresh (W13 m ρ)),
    .host (hseg hostOps5_4 hostOps5_4_sub hostOps5_4_fresh (W14 m ρ)),
    .region (reg5 m ρ),
    .host (hseg hostOps6 hostOps6_sub hostOps6_fresh (W16 m ρ)),
    .region (reg6 m ρ),
    .host (hseg hostOps7 hostOps7_sub hostOps7_fresh (W18 m ρ)),
    .region (reg7 m ρ),
    .host (hseg hostOps8 hostOps8_sub hostOps8_fresh (W20 m ρ)),
    .region (reg8 m ρ),
    .host (hseg hostOps9 hostOps9_sub hostOps9_fresh (W22 m ρ)),
    .region (reg9 m ρ),
    .host (hseg hostOps10 hostOps10_sub hostOps10_fresh (W24 m ρ)),
    .region (reg10 m ρ),
    .host (hseg hostOps11 hostOps11_sub hostOps11_fresh (W26 m ρ)),
    .region (reg11 m ρ),
    .host (hseg hostOps12 hostOps12_sub hostOps12_fresh (W28 m ρ)),
    .region (reg12 m ρ),
    .host (hseg hostOps13 hostOps13_sub hostOps13_fresh (W30 m ρ)),
    .region (reg13 m ρ),
    .host (hseg hostOps14 hostOps14_sub hostOps14_fresh (W32 m ρ)),
    .region (reg14 m ρ),
    .host (hseg hostOps15 hostOps15_sub hostOps15_fresh (W34 m ρ)),
    .host (hseg hostOps15_1 hostOps15_1_sub hostOps15_1_fresh (W35 m ρ)),
    .host (hseg hostOps15_2 hostOps15_2_sub hostOps15_2_fresh (W36 m ρ)),
    .host (hseg hostOps15_3 hostOps15_3_sub hostOps15_3_fresh (W37 m ρ)),
    .host (hseg hostOps15_4 hostOps15_4_sub hostOps15_4_fresh (W38 m ρ)),
    .region (reg15 m ρ),
    .host (hseg hostOps16 hostOps16_sub hostOps16_fresh (W40 m ρ)),
    .region (reg16 m ρ),
    .host (hseg hostOps17 hostOps17_sub hostOps17_fresh (W42 m ρ)),
    .region (reg17 m ρ),
    .host (hseg hostOps18 hostOps18_sub hostOps18_fresh (W44 m ρ)),
    .region (reg18 m ρ),
    .host (hseg hostOps19 hostOps19_sub hostOps19_fresh (W46 m ρ)),
    .region (reg19 m ρ),
    .host (hseg hostOps20 hostOps20_sub hostOps20_fresh (W48 m ρ)),
    .region (reg20 m ρ),
    .host (hseg hostOps21 hostOps21_sub hostOps21_fresh (W50 m ρ)),
    .region (reg21 m ρ),
    .host (hseg hostOps22 hostOps22_sub hostOps22_fresh (W52 m ρ)),
    .region (reg22 m ρ),
    .host (hseg hostOps23 hostOps23_sub hostOps23_fresh (W54 m ρ)),
    .region (reg23 m ρ),
    .host (hseg hostOps24 hostOps24_sub hostOps24_fresh (W56 m ρ)),
    .region (reg24 m ρ),
    .host (hseg hostOps25 hostOps25_sub hostOps25_fresh (W58 m ρ)),
    .host (hseg hostOps25_1 hostOps25_1_sub hostOps25_1_fresh (W59 m ρ)),
    .host (hseg hostOps25_2 hostOps25_2_sub hostOps25_2_fresh (W60 m ρ)),
    .host (hseg hostOps25_3 hostOps25_3_sub hostOps25_3_fresh (W61 m ρ)),
    .host (hseg hostOps25_4 hostOps25_4_sub hostOps25_4_fresh (W62 m ρ)),
    .region (reg25 m ρ),
    .host (hseg hostOps26 hostOps26_sub hostOps26_fresh (W64 m ρ)),
    .region (reg26 m ρ),
    .host (hseg hostOps27 hostOps27_sub hostOps27_fresh (W66 m ρ)),
    .region (reg27 m ρ),
    .host (hseg hostOps28 hostOps28_sub hostOps28_fresh (W68 m ρ)),
    .region (reg28 m ρ),
    .host (hseg hostOps29 hostOps29_sub hostOps29_fresh (W70 m ρ)),
    .region (reg29 m ρ),
    .host (hseg hostOps30 hostOps30_sub hostOps30_fresh (W72 m ρ)),
    .region (reg30 m ρ),
    .host (hseg hostOps31 hostOps31_sub hostOps31_fresh (W74 m ρ)),
    .region (reg31 m ρ),
    .host (hseg hostOps32 hostOps32_sub hostOps32_fresh (W76 m ρ)),
    .region (reg32 m ρ),
    .host (hseg hostOps33 hostOps33_sub hostOps33_fresh (W78 m ρ)),
    .region (reg33 m ρ),
    .host (hseg hostOps34 hostOps34_sub hostOps34_fresh (W80 m ρ)),
    .region (reg34 m ρ),
    .host (hseg hostOps35 hostOps35_sub hostOps35_fresh (W82 m ρ)),
    .host (hseg hostOps35_1 hostOps35_1_sub hostOps35_1_fresh (W83 m ρ)),
    .host (hseg hostOps35_2 hostOps35_2_sub hostOps35_2_fresh (W84 m ρ)),
    .host (hseg hostOps35_3 hostOps35_3_sub hostOps35_3_fresh (W85 m ρ)),
    .host (hseg hostOps35_4 hostOps35_4_sub hostOps35_4_fresh (W86 m ρ)),
    .region (reg35 m ρ),
    .host (hseg hostOps36 hostOps36_sub hostOps36_fresh (W88 m ρ)),
    .region (reg36 m ρ),
    .host (hseg hostOps37 hostOps37_sub hostOps37_fresh (W90 m ρ)),
    .region (reg37 m ρ),
    .host (hseg hostOps38 hostOps38_sub hostOps38_fresh (W92 m ρ)),
    .region (reg38 m ρ),
    .host (hseg hostOps39 hostOps39_sub hostOps39_fresh (W94 m ρ)),
    .region (reg39 m ρ),
    .host (hseg hostOps40 hostOps40_sub hostOps40_fresh (W96 m ρ)),
    .region (reg40 m ρ),
    .host (hseg hostOps41 hostOps41_sub hostOps41_fresh (W98 m ρ)),
    .region (reg41 m ρ),
    .host (hseg hostOps42 hostOps42_sub hostOps42_fresh (W100 m ρ)),
    .region (reg42 m ρ),
    .host (hseg hostOps43 hostOps43_sub hostOps43_fresh (W102 m ρ)),
    .host (hseg hostOps43_1 hostOps43_1_sub hostOps43_1_fresh (W103 m ρ)),
    .host (hseg hostOps43_2 hostOps43_2_sub hostOps43_2_fresh (W104 m ρ)),
    .host (hseg hostOps43_3 hostOps43_3_sub hostOps43_3_fresh (W105 m ρ)),
    .host (hseg hostOps43_4 hostOps43_4_sub hostOps43_4_fresh (W106 m ρ)),
    .host (hseg hostOps43_5 hostOps43_5_sub hostOps43_5_fresh (W107 m ρ)),
    .host (hseg hostOps43_6 hostOps43_6_sub hostOps43_6_fresh (W108 m ρ)) ]

/-- Each segment is entered from exactly the thread state the one before it leaves (the boundary's contents by name);
    after the last one the `owes` is set beside the rest. -/
theorem segs_chain : Pipeline.Seg.Chains
    (fun c => iprop(StableHlo.held (c : Thread nD τ) (Pipeline.ucRefs τ sig) (W0 m ρ c) ∗ R c)) (segs m ρ)
    (fun c => iprop(Tₙ m ρ c ∗ ∃ W, owes (c : Thread nD τ) (0 : CellTallies nD τ sig Unit) W)) :=
  ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
    show iprop(StableHlo.held (c : Thread nD τ) (Pipeline.ucRefs τ sig) (W109 m ρ c)
        ∗ (∃ r, prngReg c r) ∗ ∃ W, owes (c : Thread nD τ) (0 : CellTallies nD τ sig Unit) W) ⊢ _
    iintro ⟨Hh, Hp, HO⟩
    isplitl [Hh Hp]
    · isplitl [Hh]; · iexact Hh
      iexact Hp
    iexact HO⟩

end Cert.Kernel.Reg

end
-- ==== Proof.K.Run.lean ====
/- The launch of the whole program over its segments: every weakly fair execution of @main terminates without a fault,
   and at the end every unscoped buffer of a core holds the last boundary's contents `W109`: the fold of @main's host
   stretches and regions from the launch memory. The frame claim and the result's value are both read off this. -/
import proofs.«101828_j11562051961417_2_alg».proof.Proof.K.Segs

set_option maxRecDepth 16384

noncomputable section

namespace Cert.Kernel.Reg

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main is the run of its segments: it is the chain of its items, and so is the segments' run. -/
theorem main_run (c : Dev nD) : main (F := F) c = Pipeline.Seg.run (segs m ρ) := (main_chain c).trans (by chain_rfl)

set_option backward.isDefEq.respectTransparency.types false in
/-- From any memory with zero counters every weakly fair execution of @main on the TensorCores terminates, nothing
    faulting, and every final state has each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W109 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := segs_chain m ρ)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W109 m ρ c b)
    (hfin := fun c s' => by
      iintro ⟨⟨Hh, -⟩, HSI⟩
      unfold StableHlo.held
      imodintro
      iapply (pointsTo_read_all (Pipeline.ucRefs τ sig) (fun b => (((c : Thread nD τ)).1, b)) (W109 m ρ c) s')
      isplitl [Hh] <;> iassumption)
    (hQ := fun s h c => h c)

end Cert.Kernel.Reg

end
-- ==== Proof.K.Keep.lean ====
import proofs.«101828_j11562051961417_2_alg».proof.Proof.K.Fold

set_option maxRecDepth 16384

noncomputable section

namespace Cert.Kernel.Reg

open Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-! # What each segment of @main leaves unchanged

    A stretch of host operations changes only the buffers its operations write; a region changes only its output
    array. So a buffer outside all of these reaches the end as launched: every argument does. -/

/-- The references `hostOps0`'s operations write. -/
abbrev hostOps0_W : List (Ref sig .tc) := [main_cst, main_v0, main_c, main_v1, main_v2, main_c_0, main_v3, main_v4, main_v5, main_c_1, main_v6, main_v7, main_c_2, main_v8, main_v9, main_v10, main_c_3, main_v11, main_v12, main_c_4, main_v13, main_v14, main_v15, main_v16, main_v17, main_v18, main_v19, main_cst_5, main_v20, main_v21, main_cst_6, main_v22, main_c_7, main_v23, main_v24, main_c_8, main_v25, main_v26, main_v27, main_c_9, main_v28, main_v29, main_c_10, main_v30, main_v31, main_v32, main_c_11, main_v33, main_v34, main_c_12, main_v35, main_v36, main_v37, main_v38, main_v39, main_v40, main_v41, main_cst_13, main_v42, main_v43, main_c_14, main_v44, main_v45, main_v46, main_c_15, main_v47, main_v48, main_v49, main_c_16, main_v50, main_v51, main_v52, main_c_17, main_v53, main_v54, main_v55, main_c_18, main_v56, main_v57, main_v58, main_c_19, main_v59, main_v60, main_v61, main_v62, main_v63]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 1 agrees with boundary 0 off what `hostOps0` writes. -/
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h

/-- Boundary 2 agrees with boundary 1 off region 0's output array `main_v64`: a buffer that is none of the
    region's arrays is bypassed, and an input array is handed back as entered. -/
theorem W2_keep (c : Dev nD) (r : Ref sig .tc) (h : r ≠ main_v64) : W2 m ρ c (Proc.devRef .tc r) = W1 m ρ c (Proc.devRef .tc r) := by
  by_cases hin : ∃ w : Fin cfg0.W, Pipeline.arrRef spec0 w = r
  · obtain ⟨w, rfl⟩ := hin
    have hw : (cfg0.win w).isOut = false := by
      revert w; exact (by decide : ∀ w : Fin cfg0.W, Pipeline.arrRef spec0 w ≠ main_v64 → (cfg0.win w).isOut = false)
    exact (W2_arr m ρ c w).trans (((dat0 (V1 m ρ) c).arrAt_in w hw _).trans (A_eq0 (V1 m ρ) c w))
  · exact W2_of_ne m ρ c r fun w e => hin ⟨w, e⟩

/-- The references `hostOps1`'s operations write. -/
abbrev hostOps1_W : List (Ref sig .tc) := [main_v65, main_v66]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 3 agrees with boundary 2 off what `hostOps1` writes. -/
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h

/-- Boundary 4 agrees with boundary 3 off region 1's output array `main_v67`: a buffer that is none of the
    region's arrays is bypassed, and an input array is handed back as entered. -/
theorem W4_keep (c : Dev nD) (r : Ref sig .tc) (h : r ≠ main_v67) : W4 m ρ c (Proc.devRef .tc r) = W3 m ρ c (Proc.devRef .tc r) := by
  by_cases hin : ∃ w : Fin cfg1.W, Pipeline.arrRef spec1 w = r
  · obtain ⟨w, rfl⟩ := hin
    have hw : (cfg1.win w).isOut = false := by
      revert w; exact (by decide : ∀ w : Fin cfg1.W, Pipeline.arrRef spec1 w ≠ main_v67 → (cfg1.win w).isOut = false)
    exact (W4_arr m ρ c w).trans (((dat1 (V3 m ρ) c).arrAt_in w hw _).trans (A_eq1 (V3 m ρ) c w))
  · exact W4_of_ne m ρ c r fun w e => hin ⟨w, e⟩

/-- The references `hostOps2`'s operations write. -/
abbrev hostOps2_W : List (Ref sig .tc) := [main_v68, main_v69]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 5 agrees with boundary 4 off what `hostOps2` writes. -/
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h

/-- Boundary 6 agrees with boundary 5 off region 2's output array `main_v70`: a buffer that is none of the
    region's arrays is bypassed, and an input array is handed back as entered. -/
theorem W6_keep (c : Dev nD) (r : Ref sig .tc) (h : r ≠ main_v70) : W6 m ρ c (Proc.devRef .tc r) = W5 m ρ c (Proc.devRef .tc r) := by
  by_cases hin : ∃ w : Fin cfg2.W, Pipeline.arrRef spec2 w = r
  · obtain ⟨w, rfl⟩ := hin
    have hw : (cfg2.win w).isOut = false := by
      revert w; exact (by decide : ∀ w : Fin cfg2.W, Pipeline.arrRef spec2 w ≠ main_v70 → (cfg2.win w).isOut = false)
    exact (W6_arr m ρ c w).trans (((dat2 (V5 m ρ) c).arrAt_in w hw _).trans (A_eq2 (V5 m ρ) c w))
  · exact W6_of_ne m ρ c r fun w e => hin ⟨w, e⟩

/-- The references `hostOps3`'s operations write. -/
abbrev hostOps3_W : List (Ref sig .tc) := [main_v71, main_v72]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 7 agrees with boundary 6 off what `hostOps3` writes. -/
theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h

/-- Boundary 8 agrees with boundary 7 off region 3's output array `main_v73`: a buffer that is none of the
    region's arrays is bypassed, and an input array is handed back as entered. -/
theorem W8_keep (c : Dev nD) (r : Ref sig .tc) (h : r ≠ main_v73) : W8 m ρ c (Proc.devRef .tc r) = W7 m ρ c (Proc.devRef .tc r) := by
  by_cases hin : ∃ w : Fin cfg3.W, Pipeline.arrRef spec3 w = r
  · obtain ⟨w, rfl⟩ := hin
    have hw : (cfg3.win w).isOut = false := by
      revert w; exact (by decide : ∀ w : Fin cfg3.W, Pipeline.arrRef spec3 w ≠ main_v73 → (cfg3.win w).isOut = false)
    exact (W8_arr m ρ c w).trans (((dat3 (V7 m ρ) c).arrAt_in w hw _).trans (A_eq3 (V7 m ρ) c w))
  · exact W8_of_ne m ρ c r fun w e => hin ⟨w, e⟩

/-- The references `hostOps4`'s operations write. -/
abbrev hostOps4_W : List (Ref sig .tc) := [main_v74, main_v75]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 9 agrees with boundary 8 off what `hostOps4` writes. -/
theorem W9_keep (c : Dev nD) (r : Ref sig .tc) (h : r ∉ hostOps4_W) : W9 m ρ c (Proc.devRef .tc r) = W8 m ρ c (Proc.devRef .tc r) :=
  StableHlo.after_of_writes_sub hostOps4 _ hostOps4_writes h

/-- Boundary 10 agrees with boundary 9 off region 4's output array `main_v76`: a buffer that is none of the
    region's arrays is bypassed, and an input array is handed back as entered. -/
theorem W10_keep (c : Dev nD) (r : Ref sig .tc) (h : r ≠ main_v76) : W10 m ρ c (Proc.devRef .tc r) = W9 m ρ c (Proc.devRef .tc r) := by
  by_cases hin : ∃ w : Fin cfg4.W, Pipeline.arrRef spec4 w = r
  · obtain ⟨w, rfl⟩ := hin
    have hw : (cfg4.win w).isOut = false := by
      revert w; exact (by decide : ∀ w : Fin cfg4.W, Pipeline.arrRef spec4 w ≠ main_v76 → (cfg4.win w).isOut = false)
    exact (W10_arr m ρ c w).trans (((dat4 (V9 m ρ) c).arrAt_in w hw _).trans (A_eq4 (V9 m ρ) c w))
  · exact W10_of_ne m ρ c r fun w e => hin ⟨w, e⟩

/-- The references `hostOps5`'s operations write. -/
abbrev hostOps5_W : List (Ref sig .tc) := [main_c_20, main_v77, main_v78, main_c_21, main_v79, main_v80, main_v81, main_v82, main_v83, main_c_22, main_v84, main_v85, main_c_23, main_v86, main_v87, main_v88, main_v89, main_v90, main_v91]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 11 agrees with boundary 10 off what `hostOps5` writes. -/
theorem W11_keep (c : Dev nD) (r : Ref sig .tc) (h : r ∉ hostOps5_W) : W11 m ρ c (Proc.devRef .tc r) = W10 m ρ c (Proc.devRef .tc r) :=
  StableHlo.after_of_writes_sub hostOps5 _ hostOps5_writes h

/-- The references `hostOps5_1`'s operations write. -/
abbrev hostOps5_1_W : List (Ref sig .tc) := [main_call0_cst, main_call0_v0, main_v92]
theorem hostOps5_1_writes : (hostOps5_1 : List (HloOp τ sig (Elt F))).Forall fun op => op.writes ⊆ (hostOps5_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 12 agrees with boundary 11 off what `hostOps5_1` writes. -/
theorem W12_keep (c : Dev nD) (r : Ref sig .tc) (h : r ∉ hostOps5_1_W) : W12 m ρ c (Proc.devRef .tc r) = W11 m ρ c (Proc.devRef .tc r) :=
  StableHlo.after_of_writes_sub hostOps5_1 _ hostOps5_1_writes h

/-- The references `hostOps5_2`'s operations write. -/
abbrev hostOps5_2_W : List (Ref sig .tc) := [main_cst_24, main_v93, main_v94, main_v95, main_c_25, main_v96, main_v97, main_c_26, main_v98, main_v99, main_v100, main_v101, main_v102, main_c_27, main_v103, main_v104, main_c_28, main_v105, main_v106, main_v107, main_v108, main_v109, main_v110]
theorem hostOps5_2_writes : (hostOps5_2 : List (HloOp τ sig (Elt F))).Forall fun op => op.writes ⊆ (hostOps5_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 13 agrees with boundary 12 off what `hostOps5_2` writes. -/
theorem W13_keep (c : Dev nD) (r : Ref sig .tc) (h : r ∉ hostOps5_2_W) : W13 m ρ c (Proc.devRef .tc r) = W12 m ρ c (Proc.devRef .tc r) :=
  StableHlo.after_of_writes_sub hostOps5_2 _ hostOps5_2_writes h

/-- The references `hostOps5_3`'s operations write. -/
abbrev hostOps5_3_W : List (Ref sig .tc) := [main_call1_cst, main_call1_v0, main_v111]
theorem hostOps5_3_writes : (hostOps5_3 : List (HloOp τ sig (Elt F))).Forall fun op => op.writes ⊆ (hostOps5_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 14 agrees with boundary 13 off what `hostOps5_3` writes. -/
theorem W14_keep (c : Dev nD) (r : Ref sig .tc) (h : r ∉ hostOps5_3_W) : W14 m ρ c (Proc.devRef .tc r) = W13 m ρ c (Proc.devRef .tc r) :=
  StableHlo.after_of_writes_sub hostOps5_3 _ hostOps5_3_writes h

/-- The references `hostOps5_4`'s operations write. -/
abbrev hostOps5_4_W : List (Ref sig .tc) := [main_cst_29, main_v112, main_v113, main_v114, main_v115]
theorem hostOps5_4_writes : (hostOps5_4 : List (HloOp τ sig (Elt F))).Forall fun op => op.writes ⊆ (hostOps5_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 15 agrees with boundary 14 off what `hostOps5_4` writes. -/
theorem W15_keep (c : Dev nD) (r : Ref sig .tc) (h : r ∉ hostOps5_4_W) : W15 m ρ c (Proc.devRef .tc r) = W14 m ρ c (Proc.devRef .tc r) :=
  StableHlo.after_of_writes_sub hostOps5_4 _ hostOps5_4_writes h

/-- Boundary 16 agrees with boundary 15 off region 5's output array `main_v116`: a buffer that is none of the
    region's arrays is bypassed, and an input array is handed back as entered. -/
theorem W16_keep (c : Dev nD) (r : Ref sig .tc) (h : r ≠ main_v116) : W16 m ρ c (Proc.devRef .tc r) = W15 m ρ c (Proc.devRef .tc r) := by
  by_cases hin : ∃ w : Fin cfg5.W, Pipeline.arrRef spec5 w = r
  · obtain ⟨w, rfl⟩ := hin
    have hw : (cfg5.win w).isOut = false := by
      revert w; exact (by decide : ∀ w : Fin cfg5.W, Pipeline.arrRef spec5 w ≠ main_v116 → (cfg5.win w).isOut = false)
    exact (W16_arr m ρ c w).trans (((dat5 (V15 m ρ) c).arrAt_in w hw _).trans (A_eq5 (V15 m ρ) c w))
  · exact W16_of_ne m ρ c r fun w e => hin ⟨w, e⟩

/-- The references `hostOps6`'s operations write. -/
abbrev hostOps6_W : List (Ref sig .tc) := [main_v117, main_v118, main_v119, main_v120]
theorem hostOps6_writes : (hostOps6 : List (HloOp τ sig (Elt F))).Forall fun op => op.writes ⊆ (hostOps6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 17 agrees with boundary 16 off what `hostOps6` writes. -/
theorem W17_keep (c : Dev nD) (r : Ref sig .tc) (h : r ∉ hostOps6_W) : W17 m ρ c (Proc.devRef .tc r) = W16 m ρ c (Proc.devRef .tc r) :=
  StableHlo.after_of_writes_sub hostOps6 _ hostOps6_writes h

/-- Boundary 18 agrees with boundary 17 off region 6's output array `main_v121`: a buffer that is none of the
    region's arrays is bypassed, and an input array is handed back as entered. -/
theorem W18_keep (c : Dev nD) (r : Ref sig .tc) (h : r ≠ main_v121) : W18 m ρ c (Proc.devRef .tc r) = W17 m ρ c (Proc.devRef .tc r) := by
  by_cases hin : ∃ w : Fin cfg6.W, Pipeline.arrRef spec6 w = r
  · obtain ⟨w, rfl⟩ := hin
    have hw : (cfg6.win w).isOut = false := by
      revert w; exact (by decide : ∀ w : Fin cfg6.W, Pipeline.arrRef spec6 w ≠ main_v121 → (cfg6.win w).isOut = false)
    exact (W18_arr m ρ c w).trans (((dat6 (V17 m ρ) c).arrAt_in w hw _).trans (A_eq6 (V17 m ρ) c w))
  · exact W18_of_ne m ρ c r fun w e => hin ⟨w, e⟩

/-- The references `hostOps7`'s operations write. -/
abbrev hostOps7_W : List (Ref sig .tc) := [main_v122, main_v123, main_v124, main_v125, main_v126, main_v127]
theorem hostOps7_writes : (hostOps7 : List (HloOp τ sig (Elt F))).Forall fun op => op.writes ⊆ (hostOps7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 19 agrees with boundary 18 off what `hostOps7` writes. -/
theorem W19_keep (c : Dev nD) (r : Ref sig .tc) (h : r ∉ hostOps7_W) : W19 m ρ c (Proc.devRef .tc r) = W18 m ρ c (Proc.devRef .tc r) :=
  StableHlo.after_of_writes_sub hostOps7 _ hostOps7_writes h

/-- Boundary 20 agrees with boundary 19 off region 7's output array `main_v128`: a buffer that is none of the
    region's arrays is bypassed, and an input array is handed back as entered. -/
theorem W20_keep (c : Dev nD) (r : Ref sig .tc) (h : r ≠ main_v128) : W20 m ρ c (Proc.devRef .tc r) = W19 m ρ c (Proc.devRef .tc r) := by
  by_cases hin : ∃ w : Fin cfg7.W, Pipeline.arrRef spec7 w = r
  · obtain ⟨w, rfl⟩ := hin
    have hw : (cfg7.win w).isOut = false := by
      revert w; exact (by decide : ∀ w : Fin cfg7.W, Pipeline.arrRef spec7 w ≠ main_v128 → (cfg7.win w).isOut = false)
    exact (W20_arr m ρ c w).trans (((dat7 (V19 m ρ) c).arrAt_in w hw _).trans (A_eq7 (V19 m ρ) c w))
  · exact W20_of_ne m ρ c r fun w e => hin ⟨w, e⟩

/-- The references `hostOps8`'s operations write. -/
abbrev hostOps8_W : List (Ref sig .tc) := [main_v129, main_v130, main_v131, main_v132, main_v133]
theorem hostOps8_writes : (hostOps8 : List (HloOp τ sig (Elt F))).Forall fun op => op.writes ⊆ (hostOps8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 21 agrees with boundary 20 off what `hostOps8` writes. -/
theorem W21_keep (c : Dev nD) (r : Ref sig .tc) (h : r ∉ hostOps8_W) : W21 m ρ c (Proc.devRef .tc r) = W20 m ρ c (Proc.devRef .tc r) :=
  StableHlo.after_of_writes_sub hostOps8 _ hostOps8_writes h

/-- Boundary 22 agrees with boundary 21 off region 8's output array `main_v134`: a buffer that is none of the
    region's arrays is bypassed, and an input array is handed back as entered. -/
theorem W22_keep (c : Dev nD) (r : Ref sig .tc) (h : r ≠ main_v134) : W22 m ρ c (Proc.devRef .tc r) = W21 m ρ c (Proc.devRef .tc r) := by
  by_cases hin : ∃ w : Fin cfg8.W, Pipeline.arrRef spec8 w = r
  · obtain ⟨w, rfl⟩ := hin
    have hw : (cfg8.win w).isOut = false := by
      revert w; exact (by decide : ∀ w : Fin cfg8.W, Pipeline.arrRef spec8 w ≠ main_v134 → (cfg8.win w).isOut = false)
    exact (W22_arr m ρ c w).trans (((dat8 (V21 m ρ) c).arrAt_in w hw _).trans (A_eq8 (V21 m ρ) c w))
  · exact W22_of_ne m ρ c r fun w e => hin ⟨w, e⟩

/-- The references `hostOps9`'s operations write. -/
abbrev hostOps9_W : List (Ref sig .tc) := [main_v135, main_v136, main_v137, main_v138, main_v139]
theorem hostOps9_writes : (hostOps9 : List (HloOp τ sig (Elt F))).Forall fun op => op.writes ⊆ (hostOps9_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 23 agrees with boundary 22 off what `hostOps9` writes. -/
theorem W23_keep (c : Dev nD) (r : Ref sig .tc) (h : r ∉ hostOps9_W) : W23 m ρ c (Proc.devRef .tc r) = W22 m ρ c (Proc.devRef .tc r) :=
  StableHlo.after_of_writes_sub hostOps9 _ hostOps9_writes h

/-- Boundary 24 agrees with boundary 23 off region 9's output array `main_v140`: a buffer that is none of the
    region's arrays is bypassed, and an input array is handed back as entered. -/
theorem W24_keep (c : Dev nD) (r : Ref sig .tc) (h : r ≠ main_v140) : W24 m ρ c (Proc.devRef .tc r) = W23 m ρ c (Proc.devRef .tc r) := by
  by_cases hin : ∃ w : Fin cfg9.W, Pipeline.arrRef spec9 w = r
  · obtain ⟨w, rfl⟩ := hin
    have hw : (cfg9.win w).isOut = false := by
      revert w; exact (by decide : ∀ w : Fin cfg9.W, Pipeline.arrRef spec9 w ≠ main_v140 → (cfg9.win w).isOut = false)
    exact (W24_arr m ρ c w).trans (((dat9 (V23 m ρ) c).arrAt_in w hw _).trans (A_eq9 (V23 m ρ) c w))
  · exact W24_of_ne m ρ c r fun w e => hin ⟨w, e⟩

/-- The references `hostOps10`'s operations write. -/
abbrev hostOps10_W : List (Ref sig .tc) := [main_v141, main_v142]
theorem hostOps10_writes : (hostOps10 : List (HloOp τ sig (Elt F))).Forall fun op => op.writes ⊆ (hostOps10_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 25 agrees with boundary 24 off what `hostOps10` writes. -/
theorem W25_keep (c : Dev nD) (r : Ref sig .tc) (h : r ∉ hostOps10_W) : W25 m ρ c (Proc.devRef .tc r) = W24 m ρ c (Proc.devRef .tc r) :=
  StableHlo.after_of_writes_sub hostOps10 _ hostOps10_writes h

/-- Boundary 26 agrees with boundary 25 off region 10's output array `main_v143`: a buffer that is none of the
    region's arrays is bypassed, and an input array is handed back as entered. -/
theorem W26_keep (c : Dev nD) (r : Ref sig .tc) (h : r ≠ main_v143) : W26 m ρ c (Proc.devRef .tc r) = W25 m ρ c (Proc.devRef .tc r) := by
  by_cases hin : ∃ w : Fin cfg10.W, Pipeline.arrRef spec10 w = r
  · obtain ⟨w, rfl⟩ := hin
    have hw : (cfg10.win w).isOut = false := by
      revert w; exact (by decide : ∀ w : Fin cfg10.W, Pipeline.arrRef spec10 w ≠ main_v143 → (cfg10.win w).isOut = false)
    exact (W26_arr m ρ c w).trans (((dat10 (V25 m ρ) c).arrAt_in w hw _).trans (A_eq10 (V25 m ρ) c w))
  · exact W26_of_ne m ρ c r fun w e => hin ⟨w, e⟩

/-- The references `hostOps11`'s operations write. -/
abbrev hostOps11_W : List (Ref sig .tc) := [main_v144, main_v145]
theorem hostOps11_writes : (hostOps11 : List (HloOp τ sig (Elt F))).Forall fun op => op.writes ⊆ (hostOps11_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 27 agrees with boundary 26 off what `hostOps11` writes. -/
theorem W27_keep (c : Dev nD) (r : Ref sig .tc) (h : r ∉ hostOps11_W) : W27 m ρ c (Proc.devRef .tc r) = W26 m ρ c (Proc.devRef .tc r) :=
  StableHlo.after_of_writes_sub hostOps11 _ hostOps11_writes h

/-- Boundary 28 agrees with boundary 27 off region 11's output array `main_v146`: a buffer that is none of the
    region's arrays is bypassed, and an input array is handed back as entered. -/
theorem W28_keep (c : Dev nD) (r : Ref sig .tc) (h : r ≠ main_v146) : W28 m ρ c (Proc.devRef .tc r) = W27 m ρ c (Proc.devRef .tc r) := by
  by_cases hin : ∃ w : Fin cfg11.W, Pipeline.arrRef spec11 w = r
  · obtain ⟨w, rfl⟩ := hin
    have hw : (cfg11.win w).isOut = false := by
      revert w; exact (by decide : ∀ w : Fin cfg11.W, Pipeline.arrRef spec11 w ≠ main_v146 → (cfg11.win w).isOut = false)
    exact (W28_arr m ρ c w).trans (((dat11 (V27 m ρ) c).arrAt_in w hw _).trans (A_eq11 (V27 m ρ) c w))
  · exact W28_of_ne m ρ c r fun w e => hin ⟨w, e⟩

/-- The references `hostOps12`'s operations write. -/
abbrev hostOps12_W : List (Ref sig .tc) := [main_v147, main_v148]
theorem hostOps12_writes : (hostOps12 : List (HloOp τ sig (Elt F))).Forall fun op => op.writes ⊆ (hostOps12_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 29 agrees with boundary 28 off what `hostOps12` writes. -/
theorem W29_keep (c : Dev nD) (r : Ref sig .tc) (h : r ∉ hostOps12_W) : W29 m ρ c (Proc.devRef .tc r) = W28 m ρ c (Proc.devRef .tc r) :=
  StableHlo.after_of_writes_sub hostOps12 _ hostOps12_writes h

/-- Boundary 30 agrees with boundary 29 off region 12's output array `main_v149`: a buffer that is none of the
    region's arrays is bypassed, and an input array is handed back as entered. -/
theorem W30_keep (c : Dev nD) (r : Ref sig .tc) (h : r ≠ main_v149) : W30 m ρ c (Proc.devRef .tc r) = W29 m ρ c (Proc.devRef .tc r) := by
  by_cases hin : ∃ w : Fin cfg12.W, Pipeline.arrRef spec12 w = r
  · obtain ⟨w, rfl⟩ := hin
    have hw : (cfg12.win w).isOut = false := by
      revert w; exact (by decide : ∀ w : Fin cfg12.W, Pipeline.arrRef spec12 w ≠ main_v149 → (cfg12.win w).isOut = false)
    exact (W30_arr m ρ c w).trans (((dat12 (V29 m ρ) c).arrAt_in w hw _).trans (A_eq12 (V29 m ρ) c w))
  · exact W30_of_ne m ρ c r fun w e => hin ⟨w, e⟩

/-- The references `hostOps13`'s operations write. -/
abbrev hostOps13_W : List (Ref sig .tc) := [main_v150, main_v151]
theorem hostOps13_writes : (hostOps13 : List (HloOp τ sig (Elt F))).Forall fun op => op.writes ⊆ (hostOps13_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 31 agrees with boundary 30 off what `hostOps13` writes. -/
theorem W31_keep (c : Dev nD) (r : Ref sig .tc) (h : r ∉ hostOps13_W) : W31 m ρ c (Proc.devRef .tc r) = W30 m ρ c (Proc.devRef .tc r) :=
  StableHlo.after_of_writes_sub hostOps13 _ hostOps13_writes h

/-- Boundary 32 agrees with boundary 31 off region 13's output array `main_v152`: a buffer that is none of the
    region's arrays is bypassed, and an input array is handed back as entered. -/
theorem W32_keep (c : Dev nD) (r : Ref sig .tc) (h : r ≠ main_v152) : W32 m ρ c (Proc.devRef .tc r) = W31 m ρ c (Proc.devRef .tc r) := by
  by_cases hin : ∃ w : Fin cfg13.W, Pipeline.arrRef spec13 w = r
  · obtain ⟨w, rfl⟩ := hin
    have hw : (cfg13.win w).isOut = false := by
      revert w; exact (by decide : ∀ w : Fin cfg13.W, Pipeline.arrRef spec13 w ≠ main_v152 → (cfg13.win w).isOut = false)
    exact (W32_arr m ρ c w).trans (((dat13 (V31 m ρ) c).arrAt_in w hw _).trans (A_eq13 (V31 m ρ) c w))
  · exact W32_of_ne m ρ c r fun w e => hin ⟨w, e⟩

/-- The references `hostOps14`'s operations write. -/
abbrev hostOps14_W : List (Ref sig .tc) := [main_v153, main_v154]
theorem hostOps14_writes : (hostOps14 : List (HloOp τ sig (Elt F))).Forall fun op => op.writes ⊆ (hostOps14_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 33 agrees with boundary 32 off what `hostOps14` writes. -/
theorem W33_keep (c : Dev nD) (r : Ref sig .tc) (h : r ∉ hostOps14_W) : W33 m ρ c (Proc.devRef .tc r) = W32 m ρ c (Proc.devRef .tc r) :=
  StableHlo.after_of_writes_sub hostOps14 _ hostOps14_writes h

/-- Boundary 34 agrees with boundary 33 off region 14's output array `main_v155`: a buffer that is none of the
    region's arrays is bypassed, and an input array is handed back as entered. -/
theorem W34_keep (c : Dev nD) (r : Ref sig .tc) (h : r ≠ main_v155) : W34 m ρ c (Proc.devRef .tc r) = W33 m ρ c (Proc.devRef .tc r) := by
  by_cases hin : ∃ w : Fin cfg14.W, Pipeline.arrRef spec14 w = r
  · obtain ⟨w, rfl⟩ := hin
    have hw : (cfg14.win w).isOut = false := by
      revert w; exact (by decide : ∀ w : Fin cfg14.W, Pipeline.arrRef spec14 w ≠ main_v155 → (cfg14.win w).isOut = false)
    exact (W34_arr m ρ c w).trans (((dat14 (V33 m ρ) c).arrAt_in w hw _).trans (A_eq14 (V33 m ρ) c w))
  · exact W34_of_ne m ρ c r fun w e => hin ⟨w, e⟩

/-- The references `hostOps15`'s operations write. -/
abbrev hostOps15_W : List (Ref sig .tc) := [main_c_30, main_v156, main_v157, main_c_31, main_v158, main_v159, main_v160, main_v161, main_v162, main_c_32, main_v163, main_v164, main_c_33, main_v165, main_v166, main_v167, main_v168, main_v169, main_v170]
theorem hostOps15_writes : (hostOps15 : List (HloOp τ sig (Elt F))).Forall fun op => op.writes ⊆ (hostOps15_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 35 agrees with boundary 34 off what `hostOps15` writes. -/
theorem W35_keep (c : Dev nD) (r : Ref sig .tc) (h : r ∉ hostOps15_W) : W35 m ρ c (Proc.devRef .tc r) = W34 m ρ c (Proc.devRef .tc r) :=
  StableHlo.after_of_writes_sub hostOps15 _ hostOps15_writes h

/-- The references `hostOps15_1`'s operations write. -/
abbrev hostOps15_1_W : List (Ref sig .tc) := [main_call2_cst, main_call2_v0, main_v171]
theorem hostOps15_1_writes : (hostOps15_1 : List (HloOp τ sig (Elt F))).Forall fun op => op.writes ⊆ (hostOps15_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 36 agrees with boundary 35 off what `hostOps15_1` writes. -/
theorem W36_keep (c : Dev nD) (r : Ref sig .tc) (h : r ∉ hostOps15_1_W) : W36 m ρ c (Proc.devRef .tc r) = W35 m ρ c (Proc.devRef .tc r) :=
  StableHlo.after_of_writes_sub hostOps15_1 _ hostOps15_1_writes h

/-- The references `hostOps15_2`'s operations write. -/
abbrev hostOps15_2_W : List (Ref sig .tc) := [main_cst_34, main_v172, main_v173, main_v174, main_c_35, main_v175, main_v176, main_c_36, main_v177, main_v178, main_v179, main_v180, main_v181, main_c_37, main_v182, main_v183, main_c_38, main_v184, main_v185, main_v186, main_v187, main_v188, main_v189]
theorem hostOps15_2_writes : (hostOps15_2 : List (HloOp τ sig (Elt F))).Forall fun op => op.writes ⊆ (hostOps15_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 37 agrees with boundary 36 off what `hostOps15_2` writes. -/
theorem W37_keep (c : Dev nD) (r : Ref sig .tc) (h : r ∉ hostOps15_2_W) : W37 m ρ c (Proc.devRef .tc r) = W36 m ρ c (Proc.devRef .tc r) :=
  StableHlo.after_of_writes_sub hostOps15_2 _ hostOps15_2_writes h

/-- The references `hostOps15_3`'s operations write. -/
abbrev hostOps15_3_W : List (Ref sig .tc) := [main_call3_cst, main_call3_v0, main_v190]
theorem hostOps15_3_writes : (hostOps15_3 : List (HloOp τ sig (Elt F))).Forall fun op => op.writes ⊆ (hostOps15_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 38 agrees with boundary 37 off what `hostOps15_3` writes. -/
theorem W38_keep (c : Dev nD) (r : Ref sig .tc) (h : r ∉ hostOps15_3_W) : W38 m ρ c (Proc.devRef .tc r) = W37 m ρ c (Proc.devRef .tc r) :=
  StableHlo.after_of_writes_sub hostOps15_3 _ hostOps15_3_writes h

/-- The references `hostOps15_4`'s operations write. -/
abbrev hostOps15_4_W : List (Ref sig .tc) := [main_cst_39, main_v191, main_v192, main_v193, main_v194]
theorem hostOps15_4_writes : (hostOps15_4 : List (HloOp τ sig (Elt F))).Forall fun op => op.writes ⊆ (hostOps15_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 39 agrees with boundary 38 off what `hostOps15_4` writes. -/
theorem W39_keep (c : Dev nD) (r : Ref sig .tc) (h : r ∉ hostOps15_4_W) : W39 m ρ c (Proc.devRef .tc r) = W38 m ρ c (Proc.devRef .tc r) :=
  StableHlo.after_of_writes_sub hostOps15_4 _ hostOps15_4_writes h

/-- Boundary 40 agrees with boundary 39 off region 15's output array `main_v195`: a buffer that is none of the
    region's arrays is bypassed, and an input array is handed back as entered. -/
theorem W40_keep (c : Dev nD) (r : Ref sig .tc) (h : r ≠ main_v195) : W40 m ρ c (Proc.devRef .tc r) = W39 m ρ c (Proc.devRef .tc r) := by
  by_cases hin : ∃ w : Fin cfg15.W, Pipeline.arrRef spec15 w = r
  · obtain ⟨w, rfl⟩ := hin
    have hw : (cfg15.win w).isOut = false := by
      revert w; exact (by decide : ∀ w : Fin cfg15.W, Pipeline.arrRef spec15 w ≠ main_v195 → (cfg15.win w).isOut = false)
    exact (W40_arr m ρ c w).trans (((dat15 (V39 m ρ) c).arrAt_in w hw _).trans (A_eq15 (V39 m ρ) c w))
  · exact W40_of_ne m ρ c r fun w e => hin ⟨w, e⟩

/-- The references `hostOps16`'s operations write. -/
abbrev hostOps16_W : List (Ref sig .tc) := [main_v196, main_v197, main_v198, main_v199]
theorem hostOps16_writes : (hostOps16 : List (HloOp τ sig (Elt F))).Forall fun op => op.writes ⊆ (hostOps16_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 41 agrees with boundary 40 off what `hostOps16` writes. -/
theorem W41_keep (c : Dev nD) (r : Ref sig .tc) (h : r ∉ hostOps16_W) : W41 m ρ c (Proc.devRef .tc r) = W40 m ρ c (Proc.devRef .tc r) :=
  StableHlo.after_of_writes_sub hostOps16 _ hostOps16_writes h

/-- Boundary 42 agrees with boundary 41 off region 16's output array `main_v200`: a buffer that is none of the
    region's arrays is bypassed, and an input array is handed back as entered. -/
theorem W42_keep (c : Dev nD) (r : Ref sig .tc) (h : r ≠ main_v200) : W42 m ρ c (Proc.devRef .tc r) = W41 m ρ c (Proc.devRef .tc r) := by
  by_cases hin : ∃ w : Fin cfg16.W, Pipeline.arrRef spec16 w = r
  · obtain ⟨w, rfl⟩ := hin
    have hw : (cfg16.win w).isOut = false := by
      revert w; exact (by decide : ∀ w : Fin cfg16.W, Pipeline.arrRef spec16 w ≠ main_v200 → (cfg16.win w).isOut = false)
    exact (W42_arr m ρ c w).trans (((dat16 (V41 m ρ) c).arrAt_in w hw _).trans (A_eq16 (V41 m ρ) c w))
  · exact W42_of_ne m ρ c r fun w e => hin ⟨w, e⟩

/-- The references `hostOps17`'s operations write. -/
abbrev hostOps17_W : List (Ref sig .tc) := [main_v201, main_v202, main_v203, main_v204, main_v205, main_v206]
theorem hostOps17_writes : (hostOps17 : List (HloOp τ sig (Elt F))).Forall fun op => op.writes ⊆ (hostOps17_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 43 agrees with boundary 42 off what `hostOps17` writes. -/
theorem W43_keep (c : Dev nD) (r : Ref sig .tc) (h : r ∉ hostOps17_W) : W43 m ρ c (Proc.devRef .tc r) = W42 m ρ c (Proc.devRef .tc r) :=
  StableHlo.after_of_writes_sub hostOps17 _ hostOps17_writes h

/-- Boundary 44 agrees with boundary 43 off region 17's output array `main_v207`: a buffer that is none of the
    region's arrays is bypassed, and an input array is handed back as entered. -/
theorem W44_keep (c : Dev nD) (r : Ref sig .tc) (h : r ≠ main_v207) : W44 m ρ c (Proc.devRef .tc r) = W43 m ρ c (Proc.devRef .tc r) := by
  by_cases hin : ∃ w : Fin cfg17.W, Pipeline.arrRef spec17 w = r
  · obtain ⟨w, rfl⟩ := hin
    have hw : (cfg17.win w).isOut = false := by
      revert w; exact (by decide : ∀ w : Fin cfg17.W, Pipeline.arrRef spec17 w ≠ main_v207 → (cfg17.win w).isOut = false)
    exact (W44_arr m ρ c w).trans (((dat17 (V43 m ρ) c).arrAt_in w hw _).trans (A_eq17 (V43 m ρ) c w))
  · exact W44_of_ne m ρ c r fun w e => hin ⟨w, e⟩

/-- The references `hostOps18`'s operations write. -/
abbrev hostOps18_W : List (Ref sig .tc) := [main_v208, main_v209, main_v210, main_v211, main_v212]
theorem hostOps18_writes : (hostOps18 : List (HloOp τ sig (Elt F))).Forall fun op => op.writes ⊆ (hostOps18_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 45 agrees with boundary 44 off what `hostOps18` writes. -/
theorem W45_keep (c : Dev nD) (r : Ref sig .tc) (h : r ∉ hostOps18_W) : W45 m ρ c (Proc.devRef .tc r) = W44 m ρ c (Proc.devRef .tc r) :=
  StableHlo.after_of_writes_sub hostOps18 _ hostOps18_writes h

/-- Boundary 46 agrees with boundary 45 off region 18's output array `main_v213`: a buffer that is none of the
    region's arrays is bypassed, and an input array is handed back as entered. -/
theorem W46_keep (c : Dev nD) (r : Ref sig .tc) (h : r ≠ main_v213) : W46 m ρ c (Proc.devRef .tc r) = W45 m ρ c (Proc.devRef .tc r) := by
  by_cases hin : ∃ w : Fin cfg18.W, Pipeline.arrRef spec18 w = r
  · obtain ⟨w, rfl⟩ := hin
    have hw : (cfg18.win w).isOut = false := by
      revert w; exact (by decide : ∀ w : Fin cfg18.W, Pipeline.arrRef spec18 w ≠ main_v213 → (cfg18.win w).isOut = false)
    exact (W46_arr m ρ c w).trans (((dat18 (V45 m ρ) c).arrAt_in w hw _).trans (A_eq18 (V45 m ρ) c w))
  · exact W46_of_ne m ρ c r fun w e => hin ⟨w, e⟩

/-- The references `hostOps19`'s operations write. -/
abbrev hostOps19_W : List (Ref sig .tc) := [main_v214, main_v215, main_v216, main_v217, main_v218]
theorem hostOps19_writes : (hostOps19 : List (HloOp τ sig (Elt F))).Forall fun op => op.writes ⊆ (hostOps19_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 47 agrees with boundary 46 off what `hostOps19` writes. -/
theorem W47_keep (c : Dev nD) (r : Ref sig .tc) (h : r ∉ hostOps19_W) : W47 m ρ c (Proc.devRef .tc r) = W46 m ρ c (Proc.devRef .tc r) :=
  StableHlo.after_of_writes_sub hostOps19 _ hostOps19_writes h

/-- Boundary 48 agrees with boundary 47 off region 19's output array `main_v219`: a buffer that is none of the
    region's arrays is bypassed, and an input array is handed back as entered. -/
theorem W48_keep (c : Dev nD) (r : Ref sig .tc) (h : r ≠ main_v219) : W48 m ρ c (Proc.devRef .tc r) = W47 m ρ c (Proc.devRef .tc r) := by
  by_cases hin : ∃ w : Fin cfg19.W, Pipeline.arrRef spec19 w = r
  · obtain ⟨w, rfl⟩ := hin
    have hw : (cfg19.win w).isOut = false := by
      revert w; exact (by decide : ∀ w : Fin cfg19.W, Pipeline.arrRef spec19 w ≠ main_v219 → (cfg19.win w).isOut = false)
    exact (W48_arr m ρ c w).trans (((dat19 (V47 m ρ) c).arrAt_in w hw _).trans (A_eq19 (V47 m ρ) c w))
  · exact W48_of_ne m ρ c r fun w e => hin ⟨w, e⟩

/-- The references `hostOps20`'s operations write. -/
abbrev hostOps20_W : List (Ref sig .tc) := [main_v220, main_v221]
theorem hostOps20_writes : (hostOps20 : List (HloOp τ sig (Elt F))).Forall fun op => op.writes ⊆ (hostOps20_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 49 agrees with boundary 48 off what `hostOps20` writes. -/
theorem W49_keep (c : Dev nD) (r : Ref sig .tc) (h : r ∉ hostOps20_W) : W49 m ρ c (Proc.devRef .tc r) = W48 m ρ c (Proc.devRef .tc r) :=
  StableHlo.after_of_writes_sub hostOps20 _ hostOps20_writes h

/-- Boundary 50 agrees with boundary 49 off region 20's output array `main_v222`: a buffer that is none of the
    region's arrays is bypassed, and an input array is handed back as entered. -/
theorem W50_keep (c : Dev nD) (r : Ref sig .tc) (h : r ≠ main_v222) : W50 m ρ c (Proc.devRef .tc r) = W49 m ρ c (Proc.devRef .tc r) := by
  by_cases hin : ∃ w : Fin cfg20.W, Pipeline.arrRef spec20 w = r
  · obtain ⟨w, rfl⟩ := hin
    have hw : (cfg20.win w).isOut = false := by
      revert w; exact (by decide : ∀ w : Fin cfg20.W, Pipeline.arrRef spec20 w ≠ main_v222 → (cfg20.win w).isOut = false)
    exact (W50_arr m ρ c w).trans (((dat20 (V49 m ρ) c).arrAt_in w hw _).trans (A_eq20 (V49 m ρ) c w))
  · exact W50_of_ne m ρ c r fun w e => hin ⟨w, e⟩

/-- The references `hostOps21`'s operations write. -/
abbrev hostOps21_W : List (Ref sig .tc) := [main_v223, main_v224]
theorem hostOps21_writes : (hostOps21 : List (HloOp τ sig (Elt F))).Forall fun op => op.writes ⊆ (hostOps21_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 51 agrees with boundary 50 off what `hostOps21` writes. -/
theorem W51_keep (c : Dev nD) (r : Ref sig .tc) (h : r ∉ hostOps21_W) : W51 m ρ c (Proc.devRef .tc r) = W50 m ρ c (Proc.devRef .tc r) :=
  StableHlo.after_of_writes_sub hostOps21 _ hostOps21_writes h

/-- Boundary 52 agrees with boundary 51 off region 21's output array `main_v225`: a buffer that is none of the
    region's arrays is bypassed, and an input array is handed back as entered. -/
theorem W52_keep (c : Dev nD) (r : Ref sig .tc) (h : r ≠ main_v225) : W52 m ρ c (Proc.devRef .tc r) = W51 m ρ c (Proc.devRef .tc r) := by
  by_cases hin : ∃ w : Fin cfg21.W, Pipeline.arrRef spec21 w = r
  · obtain ⟨w, rfl⟩ := hin
    have hw : (cfg21.win w).isOut = false := by
      revert w; exact (by decide : ∀ w : Fin cfg21.W, Pipeline.arrRef spec21 w ≠ main_v225 → (cfg21.win w).isOut = false)
    exact (W52_arr m ρ c w).trans (((dat21 (V51 m ρ) c).arrAt_in w hw _).trans (A_eq21 (V51 m ρ) c w))
  · exact W52_of_ne m ρ c r fun w e => hin ⟨w, e⟩

/-- The references `hostOps22`'s operations write. -/
abbrev hostOps22_W : List (Ref sig .tc) := [main_v226, main_v227]
theorem hostOps22_writes : (hostOps22 : List (HloOp τ sig (Elt F))).Forall fun op => op.writes ⊆ (hostOps22_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 53 agrees with boundary 52 off what `hostOps22` writes. -/
theorem W53_keep (c : Dev nD) (r : Ref sig .tc) (h : r ∉ hostOps22_W) : W53 m ρ c (Proc.devRef .tc r) = W52 m ρ c (Proc.devRef .tc r) :=
  StableHlo.after_of_writes_sub hostOps22 _ hostOps22_writes h

/-- Boundary 54 agrees with boundary 53 off region 22's output array `main_v228`: a buffer that is none of the
    region's arrays is bypassed, and an input array is handed back as entered. -/
theorem W54_keep (c : Dev nD) (r : Ref sig .tc) (h : r ≠ main_v228) : W54 m ρ c (Proc.devRef .tc r) = W53 m ρ c (Proc.devRef .tc r) := by
  by_cases hin : ∃ w : Fin cfg22.W, Pipeline.arrRef spec22 w = r
  · obtain ⟨w, rfl⟩ := hin
    have hw : (cfg22.win w).isOut = false := by
      revert w; exact (by decide : ∀ w : Fin cfg22.W, Pipeline.arrRef spec22 w ≠ main_v228 → (cfg22.win w).isOut = false)
    exact (W54_arr m ρ c w).trans (((dat22 (V53 m ρ) c).arrAt_in w hw _).trans (A_eq22 (V53 m ρ) c w))
  · exact W54_of_ne m ρ c r fun w e => hin ⟨w, e⟩

/-- The references `hostOps23`'s operations write. -/
abbrev hostOps23_W : List (Ref sig .tc) := [main_v229, main_v230]
theorem hostOps23_writes : (hostOps23 : List (HloOp τ sig (Elt F))).Forall fun op => op.writes ⊆ (hostOps23_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 55 agrees with boundary 54 off what `hostOps23` writes. -/
theorem W55_keep (c : Dev nD) (r : Ref sig .tc) (h : r ∉ hostOps23_W) : W55 m ρ c (Proc.devRef .tc r) = W54 m ρ c (Proc.devRef .tc r) :=
  StableHlo.after_of_writes_sub hostOps23 _ hostOps23_writes h

/-- Boundary 56 agrees with boundary 55 off region 23's output array `main_v231`: a buffer that is none of the
    region's arrays is bypassed, and an input array is handed back as entered. -/
theorem W56_keep (c : Dev nD) (r : Ref sig .tc) (h : r ≠ main_v231) : W56 m ρ c (Proc.devRef .tc r) = W55 m ρ c (Proc.devRef .tc r) := by
  by_cases hin : ∃ w : Fin cfg23.W, Pipeline.arrRef spec23 w = r
  · obtain ⟨w, rfl⟩ := hin
    have hw : (cfg23.win w).isOut = false := by
      revert w; exact (by decide : ∀ w : Fin cfg23.W, Pipeline.arrRef spec23 w ≠ main_v231 → (cfg23.win w).isOut = false)
    exact (W56_arr m ρ c w).trans (((dat23 (V55 m ρ) c).arrAt_in w hw _).trans (A_eq23 (V55 m ρ) c w))
  · exact W56_of_ne m ρ c r fun w e => hin ⟨w, e⟩

/-- The references `hostOps24`'s operations write. -/
abbrev hostOps24_W : List (Ref sig .tc) := [main_v232, main_v233]
theorem hostOps24_writes : (hostOps24 : List (HloOp τ sig (Elt F))).Forall fun op => op.writes ⊆ (hostOps24_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 57 agrees with boundary 56 off what `hostOps24` writes. -/
theorem W57_keep (c : Dev nD) (r : Ref sig .tc) (h : r ∉ hostOps24_W) : W57 m ρ c (Proc.devRef .tc r) = W56 m ρ c (Proc.devRef .tc r) :=
  StableHlo.after_of_writes_sub hostOps24 _ hostOps24_writes h

/-- Boundary 58 agrees with boundary 57 off region 24's output array `main_v234`: a buffer that is none of the
    region's arrays is bypassed, and an input array is handed back as entered. -/
theorem W58_keep (c : Dev nD) (r : Ref sig .tc) (h : r ≠ main_v234) : W58 m ρ c (Proc.devRef .tc r) = W57 m ρ c (Proc.devRef .tc r) := by
  by_cases hin : ∃ w : Fin cfg24.W, Pipeline.arrRef spec24 w = r
  · obtain ⟨w, rfl⟩ := hin
    have hw : (cfg24.win w).isOut = false := by
      revert w; exact (by decide : ∀ w : Fin cfg24.W, Pipeline.arrRef spec24 w ≠ main_v234 → (cfg24.win w).isOut = false)
    exact (W58_arr m ρ c w).trans (((dat24 (V57 m ρ) c).arrAt_in w hw _).trans (A_eq24 (V57 m ρ) c w))
  · exact W58_of_ne m ρ c r fun w e => hin ⟨w, e⟩

/-- The references `hostOps25`'s operations write. -/
abbrev hostOps25_W : List (Ref sig .tc) := [main_c_40, main_v235, main_v236, main_c_41, main_v237, main_v238, main_v239, main_v240, main_v241, main_c_42, main_v242, main_v243, main_c_43, main_v244, main_v245, main_v246, main_v247, main_v248, main_v249]
theorem hostOps25_writes : (hostOps25 : List (HloOp τ sig (Elt F))).Forall fun op => op.writes ⊆ (hostOps25_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 59 agrees with boundary 58 off what `hostOps25` writes. -/
theorem W59_keep (c : Dev nD) (r : Ref sig .tc) (h : r ∉ hostOps25_W) : W59 m ρ c (Proc.devRef .tc r) = W58 m ρ c (Proc.devRef .tc r) :=
  StableHlo.after_of_writes_sub hostOps25 _ hostOps25_writes h

/-- The references `hostOps25_1`'s operations write. -/
abbrev hostOps25_1_W : List (Ref sig .tc) := [main_call4_cst, main_call4_v0, main_v250]
theorem hostOps25_1_writes : (hostOps25_1 : List (HloOp τ sig (Elt F))).Forall fun op => op.writes ⊆ (hostOps25_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 60 agrees with boundary 59 off what `hostOps25_1` writes. -/
theorem W60_keep (c : Dev nD) (r : Ref sig .tc) (h : r ∉ hostOps25_1_W) : W60 m ρ c (Proc.devRef .tc r) = W59 m ρ c (Proc.devRef .tc r) :=
  StableHlo.after_of_writes_sub hostOps25_1 _ hostOps25_1_writes h

/-- The references `hostOps25_2`'s operations write. -/
abbrev hostOps25_2_W : List (Ref sig .tc) := [main_cst_44, main_v251, main_v252, main_v253, main_c_45, main_v254, main_v255, main_c_46, main_v256, main_v257, main_v258, main_v259, main_v260, main_c_47, main_v261, main_v262, main_c_48, main_v263, main_v264, main_v265, main_v266, main_v267, main_v268]
theorem hostOps25_2_writes : (hostOps25_2 : List (HloOp τ sig (Elt F))).Forall fun op => op.writes ⊆ (hostOps25_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 61 agrees with boundary 60 off what `hostOps25_2` writes. -/
theorem W61_keep (c : Dev nD) (r : Ref sig .tc) (h : r ∉ hostOps25_2_W) : W61 m ρ c (Proc.devRef .tc r) = W60 m ρ c (Proc.devRef .tc r) :=
  StableHlo.after_of_writes_sub hostOps25_2 _ hostOps25_2_writes h

/-- The references `hostOps25_3`'s operations write. -/
abbrev hostOps25_3_W : List (Ref sig .tc) := [main_call5_cst, main_call5_v0, main_v269]
theorem hostOps25_3_writes : (hostOps25_3 : List (HloOp τ sig (Elt F))).Forall fun op => op.writes ⊆ (hostOps25_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 62 agrees with boundary 61 off what `hostOps25_3` writes. -/
theorem W62_keep (c : Dev nD) (r : Ref sig .tc) (h : r ∉ hostOps25_3_W) : W62 m ρ c (Proc.devRef .tc r) = W61 m ρ c (Proc.devRef .tc r) :=
  StableHlo.after_of_writes_sub hostOps25_3 _ hostOps25_3_writes h

/-- The references `hostOps25_4`'s operations write. -/
abbrev hostOps25_4_W : List (Ref sig .tc) := [main_cst_49, main_v270, main_v271, main_v272, main_v273]
theorem hostOps25_4_writes : (hostOps25_4 : List (HloOp τ sig (Elt F))).Forall fun op => op.writes ⊆ (hostOps25_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 63 agrees with boundary 62 off what `hostOps25_4` writes. -/
theorem W63_keep (c : Dev nD) (r : Ref sig .tc) (h : r ∉ hostOps25_4_W) : W63 m ρ c (Proc.devRef .tc r) = W62 m ρ c (Proc.devRef .tc r) :=
  StableHlo.after_of_writes_sub hostOps25_4 _ hostOps25_4_writes h

/-- Boundary 64 agrees with boundary 63 off region 25's output array `main_v274`: a buffer that is none of the
    region's arrays is bypassed, and an input array is handed back as entered. -/
theorem W64_keep (c : Dev nD) (r : Ref sig .tc) (h : r ≠ main_v274) : W64 m ρ c (Proc.devRef .tc r) = W63 m ρ c (Proc.devRef .tc r) := by
  by_cases hin : ∃ w : Fin cfg25.W, Pipeline.arrRef spec25 w = r
  · obtain ⟨w, rfl⟩ := hin
    have hw : (cfg25.win w).isOut = false := by
      revert w; exact (by decide : ∀ w : Fin cfg25.W, Pipeline.arrRef spec25 w ≠ main_v274 → (cfg25.win w).isOut = false)
    exact (W64_arr m ρ c w).trans (((dat25 (V63 m ρ) c).arrAt_in w hw _).trans (A_eq25 (V63 m ρ) c w))
  · exact W64_of_ne m ρ c r fun w e => hin ⟨w, e⟩

/-- The references `hostOps26`'s operations write. -/
abbrev hostOps26_W : List (Ref sig .tc) := [main_v275, main_v276, main_v277, main_v278]
theorem hostOps26_writes : (hostOps26 : List (HloOp τ sig (Elt F))).Forall fun op => op.writes ⊆ (hostOps26_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 65 agrees with boundary 64 off what `hostOps26` writes. -/
theorem W65_keep (c : Dev nD) (r : Ref sig .tc) (h : r ∉ hostOps26_W) : W65 m ρ c (Proc.devRef .tc r) = W64 m ρ c (Proc.devRef .tc r) :=
  StableHlo.after_of_writes_sub hostOps26 _ hostOps26_writes h

/-- Boundary 66 agrees with boundary 65 off region 26's output array `main_v279`: a buffer that is none of the
    region's arrays is bypassed, and an input array is handed back as entered. -/
theorem W66_keep (c : Dev nD) (r : Ref sig .tc) (h : r ≠ main_v279) : W66 m ρ c (Proc.devRef .tc r) = W65 m ρ c (Proc.devRef .tc r) := by
  by_cases hin : ∃ w : Fin cfg26.W, Pipeline.arrRef spec26 w = r
  · obtain ⟨w, rfl⟩ := hin
    have hw : (cfg26.win w).isOut = false := by
      revert w; exact (by decide : ∀ w : Fin cfg26.W, Pipeline.arrRef spec26 w ≠ main_v279 → (cfg26.win w).isOut = false)
    exact (W66_arr m ρ c w).trans (((dat26 (V65 m ρ) c).arrAt_in w hw _).trans (A_eq26 (V65 m ρ) c w))
  · exact W66_of_ne m ρ c r fun w e => hin ⟨w, e⟩

/-- The references `hostOps27`'s operations write. -/
abbrev hostOps27_W : List (Ref sig .tc) := [main_v280, main_v281, main_v282, main_v283, main_v284, main_v285]
theorem hostOps27_writes : (hostOps27 : List (HloOp τ sig (Elt F))).Forall fun op => op.writes ⊆ (hostOps27_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 67 agrees with boundary 66 off what `hostOps27` writes. -/
theorem W67_keep (c : Dev nD) (r : Ref sig .tc) (h : r ∉ hostOps27_W) : W67 m ρ c (Proc.devRef .tc r) = W66 m ρ c (Proc.devRef .tc r) :=
  StableHlo.after_of_writes_sub hostOps27 _ hostOps27_writes h

/-- Boundary 68 agrees with boundary 67 off region 27's output array `main_v286`: a buffer that is none of the
    region's arrays is bypassed, and an input array is handed back as entered. -/
theorem W68_keep (c : Dev nD) (r : Ref sig .tc) (h : r ≠ main_v286) : W68 m ρ c (Proc.devRef .tc r) = W67 m ρ c (Proc.devRef .tc r) := by
  by_cases hin : ∃ w : Fin cfg27.W, Pipeline.arrRef spec27 w = r
  · obtain ⟨w, rfl⟩ := hin
    have hw : (cfg27.win w).isOut = false := by
      revert w; exact (by decide : ∀ w : Fin cfg27.W, Pipeline.arrRef spec27 w ≠ main_v286 → (cfg27.win w).isOut = false)
    exact (W68_arr m ρ c w).trans (((dat27 (V67 m ρ) c).arrAt_in w hw _).trans (A_eq27 (V67 m ρ) c w))
  · exact W68_of_ne m ρ c r fun w e => hin ⟨w, e⟩

/-- The references `hostOps28`'s operations write. -/
abbrev hostOps28_W : List (Ref sig .tc) := [main_v287, main_v288, main_v289, main_v290, main_v291]
theorem hostOps28_writes : (hostOps28 : List (HloOp τ sig (Elt F))).Forall fun op => op.writes ⊆ (hostOps28_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 69 agrees with boundary 68 off what `hostOps28` writes. -/
theorem W69_keep (c : Dev nD) (r : Ref sig .tc) (h : r ∉ hostOps28_W) : W69 m ρ c (Proc.devRef .tc r) = W68 m ρ c (Proc.devRef .tc r) :=
  StableHlo.after_of_writes_sub hostOps28 _ hostOps28_writes h

/-- Boundary 70 agrees with boundary 69 off region 28's output array `main_v292`: a buffer that is none of the
    region's arrays is bypassed, and an input array is handed back as entered. -/
theorem W70_keep (c : Dev nD) (r : Ref sig .tc) (h : r ≠ main_v292) : W70 m ρ c (Proc.devRef .tc r) = W69 m ρ c (Proc.devRef .tc r) := by
  by_cases hin : ∃ w : Fin cfg28.W, Pipeline.arrRef spec28 w = r
  · obtain ⟨w, rfl⟩ := hin
    have hw : (cfg28.win w).isOut = false := by
      revert w; exact (by decide : ∀ w : Fin cfg28.W, Pipeline.arrRef spec28 w ≠ main_v292 → (cfg28.win w).isOut = false)
    exact (W70_arr m ρ c w).trans (((dat28 (V69 m ρ) c).arrAt_in w hw _).trans (A_eq28 (V69 m ρ) c w))
  · exact W70_of_ne m ρ c r fun w e => hin ⟨w, e⟩

/-- The references `hostOps29`'s operations write. -/
abbrev hostOps29_W : List (Ref sig .tc) := [main_v293, main_v294, main_v295, main_v296, main_v297]
theorem hostOps29_writes : (hostOps29 : List (HloOp τ sig (Elt F))).Forall fun op => op.writes ⊆ (hostOps29_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 71 agrees with boundary 70 off what `hostOps29` writes. -/
theorem W71_keep (c : Dev nD) (r : Ref sig .tc) (h : r ∉ hostOps29_W) : W71 m ρ c (Proc.devRef .tc r) = W70 m ρ c (Proc.devRef .tc r) :=
  StableHlo.after_of_writes_sub hostOps29 _ hostOps29_writes h

/-- Boundary 72 agrees with boundary 71 off region 29's output array `main_v298`: a buffer that is none of the
    region's arrays is bypassed, and an input array is handed back as entered. -/
theorem W72_keep (c : Dev nD) (r : Ref sig .tc) (h : r ≠ main_v298) : W72 m ρ c (Proc.devRef .tc r) = W71 m ρ c (Proc.devRef .tc r) := by
  by_cases hin : ∃ w : Fin cfg29.W, Pipeline.arrRef spec29 w = r
  · obtain ⟨w, rfl⟩ := hin
    have hw : (cfg29.win w).isOut = false := by
      revert w; exact (by decide : ∀ w : Fin cfg29.W, Pipeline.arrRef spec29 w ≠ main_v298 → (cfg29.win w).isOut = false)
    exact (W72_arr m ρ c w).trans (((dat29 (V71 m ρ) c).arrAt_in w hw _).trans (A_eq29 (V71 m ρ) c w))
  · exact W72_of_ne m ρ c r fun w e => hin ⟨w, e⟩

/-- The references `hostOps30`'s operations write. -/
abbrev hostOps30_W : List (Ref sig .tc) := [main_v299, main_v300]
theorem hostOps30_writes : (hostOps30 : List (HloOp τ sig (Elt F))).Forall fun op => op.writes ⊆ (hostOps30_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 73 agrees with boundary 72 off what `hostOps30` writes. -/
theorem W73_keep (c : Dev nD) (r : Ref sig .tc) (h : r ∉ hostOps30_W) : W73 m ρ c (Proc.devRef .tc r) = W72 m ρ c (Proc.devRef .tc r) :=
  StableHlo.after_of_writes_sub hostOps30 _ hostOps30_writes h

/-- Boundary 74 agrees with boundary 73 off region 30's output array `main_v301`: a buffer that is none of the
    region's arrays is bypassed, and an input array is handed back as entered. -/
theorem W74_keep (c : Dev nD) (r : Ref sig .tc) (h : r ≠ main_v301) : W74 m ρ c (Proc.devRef .tc r) = W73 m ρ c (Proc.devRef .tc r) := by
  by_cases hin : ∃ w : Fin cfg30.W, Pipeline.arrRef spec30 w = r
  · obtain ⟨w, rfl⟩ := hin
    have hw : (cfg30.win w).isOut = false := by
      revert w; exact (by decide : ∀ w : Fin cfg30.W, Pipeline.arrRef spec30 w ≠ main_v301 → (cfg30.win w).isOut = false)
    exact (W74_arr m ρ c w).trans (((dat30 (V73 m ρ) c).arrAt_in w hw _).trans (A_eq30 (V73 m ρ) c w))
  · exact W74_of_ne m ρ c r fun w e => hin ⟨w, e⟩

/-- The references `hostOps31`'s operations write. -/
abbrev hostOps31_W : List (Ref sig .tc) := [main_v302, main_v303]
theorem hostOps31_writes : (hostOps31 : List (HloOp τ sig (Elt F))).Forall fun op => op.writes ⊆ (hostOps31_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 75 agrees with boundary 74 off what `hostOps31` writes. -/
theorem W75_keep (c : Dev nD) (r : Ref sig .tc) (h : r ∉ hostOps31_W) : W75 m ρ c (Proc.devRef .tc r) = W74 m ρ c (Proc.devRef .tc r) :=
  StableHlo.after_of_writes_sub hostOps31 _ hostOps31_writes h

/-- Boundary 76 agrees with boundary 75 off region 31's output array `main_v304`: a buffer that is none of the
    region's arrays is bypassed, and an input array is handed back as entered. -/
theorem W76_keep (c : Dev nD) (r : Ref sig .tc) (h : r ≠ main_v304) : W76 m ρ c (Proc.devRef .tc r) = W75 m ρ c (Proc.devRef .tc r) := by
  by_cases hin : ∃ w : Fin cfg31.W, Pipeline.arrRef spec31 w = r
  · obtain ⟨w, rfl⟩ := hin
    have hw : (cfg31.win w).isOut = false := by
      revert w; exact (by decide : ∀ w : Fin cfg31.W, Pipeline.arrRef spec31 w ≠ main_v304 → (cfg31.win w).isOut = false)
    exact (W76_arr m ρ c w).trans (((dat31 (V75 m ρ) c).arrAt_in w hw _).trans (A_eq31 (V75 m ρ) c w))
  · exact W76_of_ne m ρ c r fun w e => hin ⟨w, e⟩

/-- The references `hostOps32`'s operations write. -/
abbrev hostOps32_W : List (Ref sig .tc) := [main_v305, main_v306]
theorem hostOps32_writes : (hostOps32 : List (HloOp τ sig (Elt F))).Forall fun op => op.writes ⊆ (hostOps32_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 77 agrees with boundary 76 off what `hostOps32` writes. -/
theorem W77_keep (c : Dev nD) (r : Ref sig .tc) (h : r ∉ hostOps32_W) : W77 m ρ c (Proc.devRef .tc r) = W76 m ρ c (Proc.devRef .tc r) :=
  StableHlo.after_of_writes_sub hostOps32 _ hostOps32_writes h

/-- Boundary 78 agrees with boundary 77 off region 32's output array `main_v307`: a buffer that is none of the
    region's arrays is bypassed, and an input array is handed back as entered. -/
theorem W78_keep (c : Dev nD) (r : Ref sig .tc) (h : r ≠ main_v307) : W78 m ρ c (Proc.devRef .tc r) = W77 m ρ c (Proc.devRef .tc r) := by
  by_cases hin : ∃ w : Fin cfg32.W, Pipeline.arrRef spec32 w = r
  · obtain ⟨w, rfl⟩ := hin
    have hw : (cfg32.win w).isOut = false := by
      revert w; exact (by decide : ∀ w : Fin cfg32.W, Pipeline.arrRef spec32 w ≠ main_v307 → (cfg32.win w).isOut = false)
    exact (W78_arr m ρ c w).trans (((dat32 (V77 m ρ) c).arrAt_in w hw _).trans (A_eq32 (V77 m ρ) c w))
  · exact W78_of_ne m ρ c r fun w e => hin ⟨w, e⟩

/-- The references `hostOps33`'s operations write. -/
abbrev hostOps33_W : List (Ref sig .tc) := [main_v308, main_v309]
theorem hostOps33_writes : (hostOps33 : List (HloOp τ sig (Elt F))).Forall fun op => op.writes ⊆ (hostOps33_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 79 agrees with boundary 78 off what `hostOps33` writes. -/
theorem W79_keep (c : Dev nD) (r : Ref sig .tc) (h : r ∉ hostOps33_W) : W79 m ρ c (Proc.devRef .tc r) = W78 m ρ c (Proc.devRef .tc r) :=
  StableHlo.after_of_writes_sub hostOps33 _ hostOps33_writes h

/-- Boundary 80 agrees with boundary 79 off region 33's output array `main_v310`: a buffer that is none of the
    region's arrays is bypassed, and an input array is handed back as entered. -/
theorem W80_keep (c : Dev nD) (r : Ref sig .tc) (h : r ≠ main_v310) : W80 m ρ c (Proc.devRef .tc r) = W79 m ρ c (Proc.devRef .tc r) := by
  by_cases hin : ∃ w : Fin cfg33.W, Pipeline.arrRef spec33 w = r
  · obtain ⟨w, rfl⟩ := hin
    have hw : (cfg33.win w).isOut = false := by
      revert w; exact (by decide : ∀ w : Fin cfg33.W, Pipeline.arrRef spec33 w ≠ main_v310 → (cfg33.win w).isOut = false)
    exact (W80_arr m ρ c w).trans (((dat33 (V79 m ρ) c).arrAt_in w hw _).trans (A_eq33 (V79 m ρ) c w))
  · exact W80_of_ne m ρ c r fun w e => hin ⟨w, e⟩

/-- The references `hostOps34`'s operations write. -/
abbrev hostOps34_W : List (Ref sig .tc) := [main_v311, main_v312]
theorem hostOps34_writes : (hostOps34 : List (HloOp τ sig (Elt F))).Forall fun op => op.writes ⊆ (hostOps34_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 81 agrees with boundary 80 off what `hostOps34` writes. -/
theorem W81_keep (c : Dev nD) (r : Ref sig .tc) (h : r ∉ hostOps34_W) : W81 m ρ c (Proc.devRef .tc r) = W80 m ρ c (Proc.devRef .tc r) :=
  StableHlo.after_of_writes_sub hostOps34 _ hostOps34_writes h

/-- Boundary 82 agrees with boundary 81 off region 34's output array `main_v313`: a buffer that is none of the
    region's arrays is bypassed, and an input array is handed back as entered. -/
theorem W82_keep (c : Dev nD) (r : Ref sig .tc) (h : r ≠ main_v313) : W82 m ρ c (Proc.devRef .tc r) = W81 m ρ c (Proc.devRef .tc r) := by
  by_cases hin : ∃ w : Fin cfg34.W, Pipeline.arrRef spec34 w = r
  · obtain ⟨w, rfl⟩ := hin
    have hw : (cfg34.win w).isOut = false := by
      revert w; exact (by decide : ∀ w : Fin cfg34.W, Pipeline.arrRef spec34 w ≠ main_v313 → (cfg34.win w).isOut = false)
    exact (W82_arr m ρ c w).trans (((dat34 (V81 m ρ) c).arrAt_in w hw _).trans (A_eq34 (V81 m ρ) c w))
  · exact W82_of_ne m ρ c r fun w e => hin ⟨w, e⟩

/-- The references `hostOps35`'s operations write. -/
abbrev hostOps35_W : List (Ref sig .tc) := [main_c_50, main_v314, main_v315, main_c_51, main_v316, main_v317, main_v318, main_v319, main_v320, main_c_52, main_v321, main_v322, main_c_53, main_v323, main_v324, main_v325, main_v326, main_v327, main_v328]
theorem hostOps35_writes : (hostOps35 : List (HloOp τ sig (Elt F))).Forall fun op => op.writes ⊆ (hostOps35_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 83 agrees with boundary 82 off what `hostOps35` writes. -/
theorem W83_keep (c : Dev nD) (r : Ref sig .tc) (h : r ∉ hostOps35_W) : W83 m ρ c (Proc.devRef .tc r) = W82 m ρ c (Proc.devRef .tc r) :=
  StableHlo.after_of_writes_sub hostOps35 _ hostOps35_writes h

/-- The references `hostOps35_1`'s operations write. -/
abbrev hostOps35_1_W : List (Ref sig .tc) := [main_call6_cst, main_call6_v0, main_v329]
theorem hostOps35_1_writes : (hostOps35_1 : List (HloOp τ sig (Elt F))).Forall fun op => op.writes ⊆ (hostOps35_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 84 agrees with boundary 83 off what `hostOps35_1` writes. -/
theorem W84_keep (c : Dev nD) (r : Ref sig .tc) (h : r ∉ hostOps35_1_W) : W84 m ρ c (Proc.devRef .tc r) = W83 m ρ c (Proc.devRef .tc r) :=
  StableHlo.after_of_writes_sub hostOps35_1 _ hostOps35_1_writes h

/-- The references `hostOps35_2`'s operations write. -/
abbrev hostOps35_2_W : List (Ref sig .tc) := [main_cst_54, main_v330, main_v331, main_v332, main_c_55, main_v333, main_v334, main_c_56, main_v335, main_v336, main_v337, main_v338, main_v339, main_c_57, main_v340, main_v341, main_c_58, main_v342, main_v343, main_v344, main_v345, main_v346, main_v347]
theorem hostOps35_2_writes : (hostOps35_2 : List (HloOp τ sig (Elt F))).Forall fun op => op.writes ⊆ (hostOps35_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 85 agrees with boundary 84 off what `hostOps35_2` writes. -/
theorem W85_keep (c : Dev nD) (r : Ref sig .tc) (h : r ∉ hostOps35_2_W) : W85 m ρ c (Proc.devRef .tc r) = W84 m ρ c (Proc.devRef .tc r) :=
  StableHlo.after_of_writes_sub hostOps35_2 _ hostOps35_2_writes h

/-- The references `hostOps35_3`'s operations write. -/
abbrev hostOps35_3_W : List (Ref sig .tc) := [main_call7_cst, main_call7_v0, main_v348]
theorem hostOps35_3_writes : (hostOps35_3 : List (HloOp τ sig (Elt F))).Forall fun op => op.writes ⊆ (hostOps35_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 86 agrees with boundary 85 off what `hostOps35_3` writes. -/
theorem W86_keep (c : Dev nD) (r : Ref sig .tc) (h : r ∉ hostOps35_3_W) : W86 m ρ c (Proc.devRef .tc r) = W85 m ρ c (Proc.devRef .tc r) :=
  StableHlo.after_of_writes_sub hostOps35_3 _ hostOps35_3_writes h

/-- The references `hostOps35_4`'s operations write. -/
abbrev hostOps35_4_W : List (Ref sig .tc) := [main_cst_59, main_v349, main_v350, main_v351, main_v352]
theorem hostOps35_4_writes : (hostOps35_4 : List (HloOp τ sig (Elt F))).Forall fun op => op.writes ⊆ (hostOps35_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 87 agrees with boundary 86 off what `hostOps35_4` writes. -/
theorem W87_keep (c : Dev nD) (r : Ref sig .tc) (h : r ∉ hostOps35_4_W) : W87 m ρ c (Proc.devRef .tc r) = W86 m ρ c (Proc.devRef .tc r) :=
  StableHlo.after_of_writes_sub hostOps35_4 _ hostOps35_4_writes h

/-- Boundary 88 agrees with boundary 87 off region 35's output array `main_v353`: a buffer that is none of the
    region's arrays is bypassed, and an input array is handed back as entered. -/
theorem W88_keep (c : Dev nD) (r : Ref sig .tc) (h : r ≠ main_v353) : W88 m ρ c (Proc.devRef .tc r) = W87 m ρ c (Proc.devRef .tc r) := by
  by_cases hin : ∃ w : Fin cfg35.W, Pipeline.arrRef spec35 w = r
  · obtain ⟨w, rfl⟩ := hin
    have hw : (cfg35.win w).isOut = false := by
      revert w; exact (by decide : ∀ w : Fin cfg35.W, Pipeline.arrRef spec35 w ≠ main_v353 → (cfg35.win w).isOut = false)
    exact (W88_arr m ρ c w).trans (((dat35 (V87 m ρ) c).arrAt_in w hw _).trans (A_eq35 (V87 m ρ) c w))
  · exact W88_of_ne m ρ c r fun w e => hin ⟨w, e⟩

/-- The references `hostOps36`'s operations write. -/
abbrev hostOps36_W : List (Ref sig .tc) := [main_v354, main_v355, main_v356, main_v357]
theorem hostOps36_writes : (hostOps36 : List (HloOp τ sig (Elt F))).Forall fun op => op.writes ⊆ (hostOps36_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 89 agrees with boundary 88 off what `hostOps36` writes. -/
theorem W89_keep (c : Dev nD) (r : Ref sig .tc) (h : r ∉ hostOps36_W) : W89 m ρ c (Proc.devRef .tc r) = W88 m ρ c (Proc.devRef .tc r) :=
  StableHlo.after_of_writes_sub hostOps36 _ hostOps36_writes h

/-- Boundary 90 agrees with boundary 89 off region 36's output array `main_v358`: a buffer that is none of the
    region's arrays is bypassed, and an input array is handed back as entered. -/
theorem W90_keep (c : Dev nD) (r : Ref sig .tc) (h : r ≠ main_v358) : W90 m ρ c (Proc.devRef .tc r) = W89 m ρ c (Proc.devRef .tc r) := by
  by_cases hin : ∃ w : Fin cfg36.W, Pipeline.arrRef spec36 w = r
  · obtain ⟨w, rfl⟩ := hin
    have hw : (cfg36.win w).isOut = false := by
      revert w; exact (by decide : ∀ w : Fin cfg36.W, Pipeline.arrRef spec36 w ≠ main_v358 → (cfg36.win w).isOut = false)
    exact (W90_arr m ρ c w).trans (((dat36 (V89 m ρ) c).arrAt_in w hw _).trans (A_eq36 (V89 m ρ) c w))
  · exact W90_of_ne m ρ c r fun w e => hin ⟨w, e⟩

/-- The references `hostOps37`'s operations write. -/
abbrev hostOps37_W : List (Ref sig .tc) := [main_v359, main_v360, main_v361, main_v362, main_v363, main_v364]
theorem hostOps37_writes : (hostOps37 : List (HloOp τ sig (Elt F))).Forall fun op => op.writes ⊆ (hostOps37_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 91 agrees with boundary 90 off what `hostOps37` writes. -/
theorem W91_keep (c : Dev nD) (r : Ref sig .tc) (h : r ∉ hostOps37_W) : W91 m ρ c (Proc.devRef .tc r) = W90 m ρ c (Proc.devRef .tc r) :=
  StableHlo.after_of_writes_sub hostOps37 _ hostOps37_writes h

/-- Boundary 92 agrees with boundary 91 off region 37's output array `main_v365`: a buffer that is none of the
    region's arrays is bypassed, and an input array is handed back as entered. -/
theorem W92_keep (c : Dev nD) (r : Ref sig .tc) (h : r ≠ main_v365) : W92 m ρ c (Proc.devRef .tc r) = W91 m ρ c (Proc.devRef .tc r) := by
  by_cases hin : ∃ w : Fin cfg37.W, Pipeline.arrRef spec37 w = r
  · obtain ⟨w, rfl⟩ := hin
    have hw : (cfg37.win w).isOut = false := by
      revert w; exact (by decide : ∀ w : Fin cfg37.W, Pipeline.arrRef spec37 w ≠ main_v365 → (cfg37.win w).isOut = false)
    exact (W92_arr m ρ c w).trans (((dat37 (V91 m ρ) c).arrAt_in w hw _).trans (A_eq37 (V91 m ρ) c w))
  · exact W92_of_ne m ρ c r fun w e => hin ⟨w, e⟩

/-- The references `hostOps38`'s operations write. -/
abbrev hostOps38_W : List (Ref sig .tc) := [main_v366, main_v367, main_v368, main_v369, main_v370]
theorem hostOps38_writes : (hostOps38 : List (HloOp τ sig (Elt F))).Forall fun op => op.writes ⊆ (hostOps38_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 93 agrees with boundary 92 off what `hostOps38` writes. -/
theorem W93_keep (c : Dev nD) (r : Ref sig .tc) (h : r ∉ hostOps38_W) : W93 m ρ c (Proc.devRef .tc r) = W92 m ρ c (Proc.devRef .tc r) :=
  StableHlo.after_of_writes_sub hostOps38 _ hostOps38_writes h

/-- Boundary 94 agrees with boundary 93 off region 38's output array `main_v371`: a buffer that is none of the
    region's arrays is bypassed, and an input array is handed back as entered. -/
theorem W94_keep (c : Dev nD) (r : Ref sig .tc) (h : r ≠ main_v371) : W94 m ρ c (Proc.devRef .tc r) = W93 m ρ c (Proc.devRef .tc r) := by
  by_cases hin : ∃ w : Fin cfg38.W, Pipeline.arrRef spec38 w = r
  · obtain ⟨w, rfl⟩ := hin
    have hw : (cfg38.win w).isOut = false := by
      revert w; exact (by decide : ∀ w : Fin cfg38.W, Pipeline.arrRef spec38 w ≠ main_v371 → (cfg38.win w).isOut = false)
    exact (W94_arr m ρ c w).trans (((dat38 (V93 m ρ) c).arrAt_in w hw _).trans (A_eq38 (V93 m ρ) c w))
  · exact W94_of_ne m ρ c r fun w e => hin ⟨w, e⟩

/-- The references `hostOps39`'s operations write. -/
abbrev hostOps39_W : List (Ref sig .tc) := [main_v372, main_v373, main_v374, main_v375, main_v376]
theorem hostOps39_writes : (hostOps39 : List (HloOp τ sig (Elt F))).Forall fun op => op.writes ⊆ (hostOps39_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 95 agrees with boundary 94 off what `hostOps39` writes. -/
theorem W95_keep (c : Dev nD) (r : Ref sig .tc) (h : r ∉ hostOps39_W) : W95 m ρ c (Proc.devRef .tc r) = W94 m ρ c (Proc.devRef .tc r) :=
  StableHlo.after_of_writes_sub hostOps39 _ hostOps39_writes h

/-- Boundary 96 agrees with boundary 95 off region 39's output array `main_v377`: a buffer that is none of the
    region's arrays is bypassed, and an input array is handed back as entered. -/
theorem W96_keep (c : Dev nD) (r : Ref sig .tc) (h : r ≠ main_v377) : W96 m ρ c (Proc.devRef .tc r) = W95 m ρ c (Proc.devRef .tc r) := by
  by_cases hin : ∃ w : Fin cfg39.W, Pipeline.arrRef spec39 w = r
  · obtain ⟨w, rfl⟩ := hin
    have hw : (cfg39.win w).isOut = false := by
      revert w; exact (by decide : ∀ w : Fin cfg39.W, Pipeline.arrRef spec39 w ≠ main_v377 → (cfg39.win w).isOut = false)
    exact (W96_arr m ρ c w).trans (((dat39 (V95 m ρ) c).arrAt_in w hw _).trans (A_eq39 (V95 m ρ) c w))
  · exact W96_of_ne m ρ c r fun w e => hin ⟨w, e⟩

/-- The references `hostOps40`'s operations write. -/
abbrev hostOps40_W : List (Ref sig .tc) := [main_v378, main_v379, main_v380]
theorem hostOps40_writes : (hostOps40 : List (HloOp τ sig (Elt F))).Forall fun op => op.writes ⊆ (hostOps40_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 97 agrees with boundary 96 off what `hostOps40` writes. -/
theorem W97_keep (c : Dev nD) (r : Ref sig .tc) (h : r ∉ hostOps40_W) : W97 m ρ c (Proc.devRef .tc r) = W96 m ρ c (Proc.devRef .tc r) :=
  StableHlo.after_of_writes_sub hostOps40 _ hostOps40_writes h

/-- Boundary 98 agrees with boundary 97 off region 40's output array `main_v381`: a buffer that is none of the
    region's arrays is bypassed, and an input array is handed back as entered. -/
theorem W98_keep (c : Dev nD) (r : Ref sig .tc) (h : r ≠ main_v381) : W98 m ρ c (Proc.devRef .tc r) = W97 m ρ c (Proc.devRef .tc r) := by
  by_cases hin : ∃ w : Fin cfg40.W, Pipeline.arrRef spec40 w = r
  · obtain ⟨w, rfl⟩ := hin
    have hw : (cfg40.win w).isOut = false := by
      revert w; exact (by decide : ∀ w : Fin cfg40.W, Pipeline.arrRef spec40 w ≠ main_v381 → (cfg40.win w).isOut = false)
    exact (W98_arr m ρ c w).trans (((dat40 (V97 m ρ) c).arrAt_in w hw _).trans (A_eq40 (V97 m ρ) c w))
  · exact W98_of_ne m ρ c r fun w e => hin ⟨w, e⟩

/-- The references `hostOps41`'s operations write. -/
abbrev hostOps41_W : List (Ref sig .tc) := [main_v382, main_v383, main_v384]
theorem hostOps41_writes : (hostOps41 : List (HloOp τ sig (Elt F))).Forall fun op => op.writes ⊆ (hostOps41_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 99 agrees with boundary 98 off what `hostOps41` writes. -/
theorem W99_keep (c : Dev nD) (r : Ref sig .tc) (h : r ∉ hostOps41_W) : W99 m ρ c (Proc.devRef .tc r) = W98 m ρ c (Proc.devRef .tc r) :=
  StableHlo.after_of_writes_sub hostOps41 _ hostOps41_writes h

/-- Boundary 100 agrees with boundary 99 off region 41's output array `main_v385`: a buffer that is none of the
    region's arrays is bypassed, and an input array is handed back as entered. -/
theorem W100_keep (c : Dev nD) (r : Ref sig .tc) (h : r ≠ main_v385) : W100 m ρ c (Proc.devRef .tc r) = W99 m ρ c (Proc.devRef .tc r) := by
  by_cases hin : ∃ w : Fin cfg41.W, Pipeline.arrRef spec41 w = r
  · obtain ⟨w, rfl⟩ := hin
    have hw : (cfg41.win w).isOut = false := by
      revert w; exact (by decide : ∀ w : Fin cfg41.W, Pipeline.arrRef spec41 w ≠ main_v385 → (cfg41.win w).isOut = false)
    exact (W100_arr m ρ c w).trans (((dat41 (V99 m ρ) c).arrAt_in w hw _).trans (A_eq41 (V99 m ρ) c w))
  · exact W100_of_ne m ρ c r fun w e => hin ⟨w, e⟩

/-- The references `hostOps42`'s operations write. -/
abbrev hostOps42_W : List (Ref sig .tc) := [main_v386, main_v387, main_v388]
theorem hostOps42_writes : (hostOps42 : List (HloOp τ sig (Elt F))).Forall fun op => op.writes ⊆ (hostOps42_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 101 agrees with boundary 100 off what `hostOps42` writes. -/
theorem W101_keep (c : Dev nD) (r : Ref sig .tc) (h : r ∉ hostOps42_W) : W101 m ρ c (Proc.devRef .tc r) = W100 m ρ c (Proc.devRef .tc r) :=
  StableHlo.after_of_writes_sub hostOps42 _ hostOps42_writes h

/-- Boundary 102 agrees with boundary 101 off region 42's output array `main_v389`: a buffer that is none of the
    region's arrays is bypassed, and an input array is handed back as entered. -/
theorem W102_keep (c : Dev nD) (r : Ref sig .tc) (h : r ≠ main_v389) : W102 m ρ c (Proc.devRef .tc r) = W101 m ρ c (Proc.devRef .tc r) := by
  by_cases hin : ∃ w : Fin cfg42.W, Pipeline.arrRef spec42 w = r
  · obtain ⟨w, rfl⟩ := hin
    have hw : (cfg42.win w).isOut = false := by
      revert w; exact (by decide : ∀ w : Fin cfg42.W, Pipeline.arrRef spec42 w ≠ main_v389 → (cfg42.win w).isOut = false)
    exact (W102_arr m ρ c w).trans (((dat42 (V101 m ρ) c).arrAt_in w hw _).trans (A_eq42 (V101 m ρ) c w))
  · exact W102_of_ne m ρ c r fun w e => hin ⟨w, e⟩

/-- The references `hostOps43`'s operations write. -/
abbrev hostOps43_W : List (Ref sig .tc) := [main_v390, main_v391, main_v392, main_v393, main_v394, main_v395, main_v396, main_v397]
theorem hostOps43_writes : (hostOps43 : List (HloOp τ sig (Elt F))).Forall fun op => op.writes ⊆ (hostOps43_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 103 agrees with boundary 102 off what `hostOps43` writes. -/
theorem W103_keep (c : Dev nD) (r : Ref sig .tc) (h : r ∉ hostOps43_W) : W103 m ρ c (Proc.devRef .tc r) = W102 m ρ c (Proc.devRef .tc r) :=
  StableHlo.after_of_writes_sub hostOps43 _ hostOps43_writes h

/-- The references `hostOps43_1`'s operations write. -/
abbrev hostOps43_1_W : List (Ref sig .tc) := [main_call8_cst, main_call8_v0, main_v398]
theorem hostOps43_1_writes : (hostOps43_1 : List (HloOp τ sig (Elt F))).Forall fun op => op.writes ⊆ (hostOps43_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 104 agrees with boundary 103 off what `hostOps43_1` writes. -/
theorem W104_keep (c : Dev nD) (r : Ref sig .tc) (h : r ∉ hostOps43_1_W) : W104 m ρ c (Proc.devRef .tc r) = W103 m ρ c (Proc.devRef .tc r) :=
  StableHlo.after_of_writes_sub hostOps43_1 _ hostOps43_1_writes h

/-- The references `hostOps43_2`'s operations write. -/
abbrev hostOps43_2_W : List (Ref sig .tc) := [main_cst_60, main_v399, main_v400, main_v401, main_v402, main_v403, main_v404, main_v405, main_v406, main_v407, main_v408]
theorem hostOps43_2_writes : (hostOps43_2 : List (HloOp τ sig (Elt F))).Forall fun op => op.writes ⊆ (hostOps43_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 105 agrees with boundary 104 off what `hostOps43_2` writes. -/
theorem W105_keep (c : Dev nD) (r : Ref sig .tc) (h : r ∉ hostOps43_2_W) : W105 m ρ c (Proc.devRef .tc r) = W104 m ρ c (Proc.devRef .tc r) :=
  StableHlo.after_of_writes_sub hostOps43_2 _ hostOps43_2_writes h

/-- The references `hostOps43_3`'s operations write. -/
abbrev hostOps43_3_W : List (Ref sig .tc) := [main_call9_cst, main_call9_v0, main_v409]
theorem hostOps43_3_writes : (hostOps43_3 : List (HloOp τ sig (Elt F))).Forall fun op => op.writes ⊆ (hostOps43_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 106 agrees with boundary 105 off what `hostOps43_3` writes. -/
theorem W106_keep (c : Dev nD) (r : Ref sig .tc) (h : r ∉ hostOps43_3_W) : W106 m ρ c (Proc.devRef .tc r) = W105 m ρ c (Proc.devRef .tc r) :=
  StableHlo.after_of_writes_sub hostOps43_3 _ hostOps43_3_writes h

/-- The references `hostOps43_4`'s operations write. -/
abbrev hostOps43_4_W : List (Ref sig .tc) := [main_v410, main_v411, main_v412, main_v413, main_v414, main_v415, main_v416, main_v417, main_v418]
theorem hostOps43_4_writes : (hostOps43_4 : List (HloOp τ sig (Elt F))).Forall fun op => op.writes ⊆ (hostOps43_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 107 agrees with boundary 106 off what `hostOps43_4` writes. -/
theorem W107_keep (c : Dev nD) (r : Ref sig .tc) (h : r ∉ hostOps43_4_W) : W107 m ρ c (Proc.devRef .tc r) = W106 m ρ c (Proc.devRef .tc r) :=
  StableHlo.after_of_writes_sub hostOps43_4 _ hostOps43_4_writes h

/-- The references `hostOps43_5`'s operations write. -/
abbrev hostOps43_5_W : List (Ref sig .tc) := [main_call10_cst, main_call10_v0, main_v419]
theorem hostOps43_5_writes : (hostOps43_5 : List (HloOp τ sig (Elt F))).Forall fun op => op.writes ⊆ (hostOps43_5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 108 agrees with boundary 107 off what `hostOps43_5` writes. -/
theorem W108_keep (c : Dev nD) (r : Ref sig .tc) (h : r ∉ hostOps43_5_W) : W108 m ρ c (Proc.devRef .tc r) = W107 m ρ c (Proc.devRef .tc r) :=
  StableHlo.after_of_writes_sub hostOps43_5 _ hostOps43_5_writes h

/-- The references `hostOps43_6`'s operations write. -/
abbrev hostOps43_6_W : List (Ref sig .tc) := [main_v420, main_v421, main_v422, main_v423, main_v424]
theorem hostOps43_6_writes : (hostOps43_6 : List (HloOp τ sig (Elt F))).Forall fun op => op.writes ⊆ (hostOps43_6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 109 agrees with boundary 108 off what `hostOps43_6` writes. -/
theorem W109_keep (c : Dev nD) (r : Ref sig .tc) (h : r ∉ hostOps43_6_W) : W109 m ρ c (Proc.devRef .tc r) = W108 m ρ c (Proc.devRef .tc r) :=
  StableHlo.after_of_writes_sub hostOps43_6 _ hostOps43_6_writes h

/-- `main_arg0` reaches the end as launched. -/
theorem W109_main_arg0 (c : Dev nD) : W109 m ρ c (Proc.devRef .tc main_arg0) = m ((c : Thread nD τ).loc main_arg0) :=
  (W109_keep m ρ c main_arg0 (by decide)).trans <|
  (W108_keep m ρ c main_arg0 (by decide)).trans <|
  (W107_keep m ρ c main_arg0 (by decide)).trans <|
  (W106_keep m ρ c main_arg0 (by decide)).trans <|
  (W105_keep m ρ c main_arg0 (by decide)).trans <|
  (W104_keep m ρ c main_arg0 (by decide)).trans <|
  (W103_keep m ρ c main_arg0 (by decide)).trans <|
  (W102_keep m ρ c main_arg0 (by decide)).trans <|
  (W101_keep m ρ c main_arg0 (by decide)).trans <|
  (W100_keep m ρ c main_arg0 (by decide)).trans <|
  (W99_keep m ρ c main_arg0 (by decide)).trans <|
  (W98_keep m ρ c main_arg0 (by decide)).trans <|
  (W97_keep m ρ c main_arg0 (by decide)).trans <|
  (W96_keep m ρ c main_arg0 (by decide)).trans <|
  (W95_keep m ρ c main_arg0 (by decide)).trans <|
  (W94_keep m ρ c main_arg0 (by decide)).trans <|
  (W93_keep m ρ c main_arg0 (by decide)).trans <|
  (W92_keep m ρ c main_arg0 (by decide)).trans <|
  (W91_keep m ρ c main_arg0 (by decide)).trans <|
  (W90_keep m ρ c main_arg0 (by decide)).trans <|
  (W89_keep m ρ c main_arg0 (by decide)).trans <|
  (W88_keep m ρ c main_arg0 (by decide)).trans <|
  (W87_keep m ρ c main_arg0 (by decide)).trans <|
  (W86_keep m ρ c main_arg0 (by decide)).trans <|
  (W85_keep m ρ c main_arg0 (by decide)).trans <|
  (W84_keep m ρ c main_arg0 (by decide)).trans <|
  (W83_keep m ρ c main_arg0 (by decide)).trans <|
  (W82_keep m ρ c main_arg0 (by decide)).trans <|
  (W81_keep m ρ c main_arg0 (by decide)).trans <|
  (W80_keep m ρ c main_arg0 (by decide)).trans <|
  (W79_keep m ρ c main_arg0 (by decide)).trans <|
  (W78_keep m ρ c main_arg0 (by decide)).trans <|
  (W77_keep m ρ c main_arg0 (by decide)).trans <|
  (W76_keep m ρ c main_arg0 (by decide)).trans <|
  (W75_keep m ρ c main_arg0 (by decide)).trans <|
  (W74_keep m ρ c main_arg0 (by decide)).trans <|
  (W73_keep m ρ c main_arg0 (by decide)).trans <|
  (W72_keep m ρ c main_arg0 (by decide)).trans <|
  (W71_keep m ρ c main_arg0 (by decide)).trans <|
  (W70_keep m ρ c main_arg0 (by decide)).trans <|
  (W69_keep m ρ c main_arg0 (by decide)).trans <|
  (W68_keep m ρ c main_arg0 (by decide)).trans <|
  (W67_keep m ρ c main_arg0 (by decide)).trans <|
  (W66_keep m ρ c main_arg0 (by decide)).trans <|
  (W65_keep m ρ c main_arg0 (by decide)).trans <|
  (W64_keep m ρ c main_arg0 (by decide)).trans <|
  (W63_keep m ρ c main_arg0 (by decide)).trans <|
  (W62_keep m ρ c main_arg0 (by decide)).trans <|
  (W61_keep m ρ c main_arg0 (by decide)).trans <|
  (W60_keep m ρ c main_arg0 (by decide)).trans <|
  (W59_keep m ρ c main_arg0 (by decide)).trans <|
  (W58_keep m ρ c main_arg0 (by decide)).trans <|
  (W57_keep m ρ c main_arg0 (by decide)).trans <|
  (W56_keep m ρ c main_arg0 (by decide)).trans <|
  (W55_keep m ρ c main_arg0 (by decide)).trans <|
  (W54_keep m ρ c main_arg0 (by decide)).trans <|
  (W53_keep m ρ c main_arg0 (by decide)).trans <|
  (W52_keep m ρ c main_arg0 (by decide)).trans <|
  (W51_keep m ρ c main_arg0 (by decide)).trans <|
  (W50_keep m ρ c main_arg0 (by decide)).trans <|
  (W49_keep m ρ c main_arg0 (by decide)).trans <|
  (W48_keep m ρ c main_arg0 (by decide)).trans <|
  (W47_keep m ρ c main_arg0 (by decide)).trans <|
  (W46_keep m ρ c main_arg0 (by decide)).trans <|
  (W45_keep m ρ c main_arg0 (by decide)).trans <|
  (W44_keep m ρ c main_arg0 (by decide)).trans <|
  (W43_keep m ρ c main_arg0 (by decide)).trans <|
  (W42_keep m ρ c main_arg0 (by decide)).trans <|
  (W41_keep m ρ c main_arg0 (by decide)).trans <|
  (W40_keep m ρ c main_arg0 (by decide)).trans <|
  (W39_keep m ρ c main_arg0 (by decide)).trans <|
  (W38_keep m ρ c main_arg0 (by decide)).trans <|
  (W37_keep m ρ c main_arg0 (by decide)).trans <|
  (W36_keep m ρ c main_arg0 (by decide)).trans <|
  (W35_keep m ρ c main_arg0 (by decide)).trans <|
  (W34_keep m ρ c main_arg0 (by decide)).trans <|
  (W33_keep m ρ c main_arg0 (by decide)).trans <|
  (W32_keep m ρ c main_arg0 (by decide)).trans <|
  (W31_keep m ρ c main_arg0 (by decide)).trans <|
  (W30_keep m ρ c main_arg0 (by decide)).trans <|
  (W29_keep m ρ c main_arg0 (by decide)).trans <|
  (W28_keep m ρ c main_arg0 (by decide)).trans <|
  (W27_keep m ρ c main_arg0 (by decide)).trans <|
  (W26_keep m ρ c main_arg0 (by decide)).trans <|
  (W25_keep m ρ c main_arg0 (by decide)).trans <|
  (W24_keep m ρ c main_arg0 (by decide)).trans <|
  (W23_keep m ρ c main_arg0 (by decide)).trans <|
  (W22_keep m ρ c main_arg0 (by decide)).trans <|
  (W21_keep m ρ c main_arg0 (by decide)).trans <|
  (W20_keep m ρ c main_arg0 (by decide)).trans <|
  (W19_keep m ρ c main_arg0 (by decide)).trans <|
  (W18_keep m ρ c main_arg0 (by decide)).trans <|
  (W17_keep m ρ c main_arg0 (by decide)).trans <|
  (W16_keep m ρ c main_arg0 (by decide)).trans <|
  (W15_keep m ρ c main_arg0 (by decide)).trans <|
  (W14_keep m ρ c main_arg0 (by decide)).trans <|
  (W13_keep m ρ c main_arg0 (by decide)).trans <|
  (W12_keep m ρ c main_arg0 (by decide)).trans <|
  (W11_keep m ρ c main_arg0 (by decide)).trans <|
  (W10_keep m ρ c main_arg0 (by decide)).trans <|
  (W9_keep m ρ c main_arg0 (by decide)).trans <|
  (W8_keep m ρ c main_arg0 (by decide)).trans <|
  (W7_keep m ρ c main_arg0 (by decide)).trans <|
  (W6_keep m ρ c main_arg0 (by decide)).trans <|
  (W5_keep m ρ c main_arg0 (by decide)).trans <|
  (W4_keep m ρ c main_arg0 (by decide)).trans <|
  (W3_keep m ρ c main_arg0 (by decide)).trans <|
  (W2_keep m ρ c main_arg0 (by decide)).trans <|
  (W1_keep m ρ c main_arg0 (by decide)).trans rfl

/-- `main_arg1` reaches the end as launched. -/
theorem W109_main_arg1 (c : Dev nD) : W109 m ρ c (Proc.devRef .tc main_arg1) = m ((c : Thread nD τ).loc main_arg1) :=
  (W109_keep m ρ c main_arg1 (by decide)).trans <|
  (W108_keep m ρ c main_arg1 (by decide)).trans <|
  (W107_keep m ρ c main_arg1 (by decide)).trans <|
  (W106_keep m ρ c main_arg1 (by decide)).trans <|
  (W105_keep m ρ c main_arg1 (by decide)).trans <|
  (W104_keep m ρ c main_arg1 (by decide)).trans <|
  (W103_keep m ρ c main_arg1 (by decide)).trans <|
  (W102_keep m ρ c main_arg1 (by decide)).trans <|
  (W101_keep m ρ c main_arg1 (by decide)).trans <|
  (W100_keep m ρ c main_arg1 (by decide)).trans <|
  (W99_keep m ρ c main_arg1 (by decide)).trans <|
  (W98_keep m ρ c main_arg1 (by decide)).trans <|
  (W97_keep m ρ c main_arg1 (by decide)).trans <|
  (W96_keep m ρ c main_arg1 (by decide)).trans <|
  (W95_keep m ρ c main_arg1 (by decide)).trans <|
  (W94_keep m ρ c main_arg1 (by decide)).trans <|
  (W93_keep m ρ c main_arg1 (by decide)).trans <|
  (W92_keep m ρ c main_arg1 (by decide)).trans <|
  (W91_keep m ρ c main_arg1 (by decide)).trans <|
  (W90_keep m ρ c main_arg1 (by decide)).trans <|
  (W89_keep m ρ c main_arg1 (by decide)).trans <|
  (W88_keep m ρ c main_arg1 (by decide)).trans <|
  (W87_keep m ρ c main_arg1 (by decide)).trans <|
  (W86_keep m ρ c main_arg1 (by decide)).trans <|
  (W85_keep m ρ c main_arg1 (by decide)).trans <|
  (W84_keep m ρ c main_arg1 (by decide)).trans <|
  (W83_keep m ρ c main_arg1 (by decide)).trans <|
  (W82_keep m ρ c main_arg1 (by decide)).trans <|
  (W81_keep m ρ c main_arg1 (by decide)).trans <|
  (W80_keep m ρ c main_arg1 (by decide)).trans <|
  (W79_keep m ρ c main_arg1 (by decide)).trans <|
  (W78_keep m ρ c main_arg1 (by decide)).trans <|
  (W77_keep m ρ c main_arg1 (by decide)).trans <|
  (W76_keep m ρ c main_arg1 (by decide)).trans <|
  (W75_keep m ρ c main_arg1 (by decide)).trans <|
  (W74_keep m ρ c main_arg1 (by decide)).trans <|
  (W73_keep m ρ c main_arg1 (by decide)).trans <|
  (W72_keep m ρ c main_arg1 (by decide)).trans <|
  (W71_keep m ρ c main_arg1 (by decide)).trans <|
  (W70_keep m ρ c main_arg1 (by decide)).trans <|
  (W69_keep m ρ c main_arg1 (by decide)).trans <|
  (W68_keep m ρ c main_arg1 (by decide)).trans <|
  (W67_keep m ρ c main_arg1 (by decide)).trans <|
  (W66_keep m ρ c main_arg1 (by decide)).trans <|
  (W65_keep m ρ c main_arg1 (by decide)).trans <|
  (W64_keep m ρ c main_arg1 (by decide)).trans <|
  (W63_keep m ρ c main_arg1 (by decide)).trans <|
  (W62_keep m ρ c main_arg1 (by decide)).trans <|
  (W61_keep m ρ c main_arg1 (by decide)).trans <|
  (W60_keep m ρ c main_arg1 (by decide)).trans <|
  (W59_keep m ρ c main_arg1 (by decide)).trans <|
  (W58_keep m ρ c main_arg1 (by decide)).trans <|
  (W57_keep m ρ c main_arg1 (by decide)).trans <|
  (W56_keep m ρ c main_arg1 (by decide)).trans <|
  (W55_keep m ρ c main_arg1 (by decide)).trans <|
  (W54_keep m ρ c main_arg1 (by decide)).trans <|
  (W53_keep m ρ c main_arg1 (by decide)).trans <|
  (W52_keep m ρ c main_arg1 (by decide)).trans <|
  (W51_keep m ρ c main_arg1 (by decide)).trans <|
  (W50_keep m ρ c main_arg1 (by decide)).trans <|
  (W49_keep m ρ c main_arg1 (by decide)).trans <|
  (W48_keep m ρ c main_arg1 (by decide)).trans <|
  (W47_keep m ρ c main_arg1 (by decide)).trans <|
  (W46_keep m ρ c main_arg1 (by decide)).trans <|
  (W45_keep m ρ c main_arg1 (by decide)).trans <|
  (W44_keep m ρ c main_arg1 (by decide)).trans <|
  (W43_keep m ρ c main_arg1 (by decide)).trans <|
  (W42_keep m ρ c main_arg1 (by decide)).trans <|
  (W41_keep m ρ c main_arg1 (by decide)).trans <|
  (W40_keep m ρ c main_arg1 (by decide)).trans <|
  (W39_keep m ρ c main_arg1 (by decide)).trans <|
  (W38_keep m ρ c main_arg1 (by decide)).trans <|
  (W37_keep m ρ c main_arg1 (by decide)).trans <|
  (W36_keep m ρ c main_arg1 (by decide)).trans <|
  (W35_keep m ρ c main_arg1 (by decide)).trans <|
  (W34_keep m ρ c main_arg1 (by decide)).trans <|
  (W33_keep m ρ c main_arg1 (by decide)).trans <|
  (W32_keep m ρ c main_arg1 (by decide)).trans <|
  (W31_keep m ρ c main_arg1 (by decide)).trans <|
  (W30_keep m ρ c main_arg1 (by decide)).trans <|
  (W29_keep m ρ c main_arg1 (by decide)).trans <|
  (W28_keep m ρ c main_arg1 (by decide)).trans <|
  (W27_keep m ρ c main_arg1 (by decide)).trans <|
  (W26_keep m ρ c main_arg1 (by decide)).trans <|
  (W25_keep m ρ c main_arg1 (by decide)).trans <|
  (W24_keep m ρ c main_arg1 (by decide)).trans <|
  (W23_keep m ρ c main_arg1 (by decide)).trans <|
  (W22_keep m ρ c main_arg1 (by decide)).trans <|
  (W21_keep m ρ c main_arg1 (by decide)).trans <|
  (W20_keep m ρ c main_arg1 (by decide)).trans <|
  (W19_keep m ρ c main_arg1 (by decide)).trans <|
  (W18_keep m ρ c main_arg1 (by decide)).trans <|
  (W17_keep m ρ c main_arg1 (by decide)).trans <|
  (W16_keep m ρ c main_arg1 (by decide)).trans <|
  (W15_keep m ρ c main_arg1 (by decide)).trans <|
  (W14_keep m ρ c main_arg1 (by decide)).trans <|
  (W13_keep m ρ c main_arg1 (by decide)).trans <|
  (W12_keep m ρ c main_arg1 (by decide)).trans <|
  (W11_keep m ρ c main_arg1 (by decide)).trans <|
  (W10_keep m ρ c main_arg1 (by decide)).trans <|
  (W9_keep m ρ c main_arg1 (by decide)).trans <|
  (W8_keep m ρ c main_arg1 (by decide)).trans <|
  (W7_keep m ρ c main_arg1 (by decide)).trans <|
  (W6_keep m ρ c main_arg1 (by decide)).trans <|
  (W5_keep m ρ c main_arg1 (by decide)).trans <|
  (W4_keep m ρ c main_arg1 (by decide)).trans <|
  (W3_keep m ρ c main_arg1 (by decide)).trans <|
  (W2_keep m ρ c main_arg1 (by decide)).trans <|
  (W1_keep m ρ c main_arg1 (by decide)).trans rfl

/-- `main_arg2` reaches the end as launched. -/
theorem W109_main_arg2 (c : Dev nD) : W109 m ρ c (Proc.devRef .tc main_arg2) = m ((c : Thread nD τ).loc main_arg2) :=
  (W109_keep m ρ c main_arg2 (by decide)).trans <|
  (W108_keep m ρ c main_arg2 (by decide)).trans <|
  (W107_keep m ρ c main_arg2 (by decide)).trans <|
  (W106_keep m ρ c main_arg2 (by decide)).trans <|
  (W105_keep m ρ c main_arg2 (by decide)).trans <|
  (W104_keep m ρ c main_arg2 (by decide)).trans <|
  (W103_keep m ρ c main_arg2 (by decide)).trans <|
  (W102_keep m ρ c main_arg2 (by decide)).trans <|
  (W101_keep m ρ c main_arg2 (by decide)).trans <|
  (W100_keep m ρ c main_arg2 (by decide)).trans <|
  (W99_keep m ρ c main_arg2 (by decide)).trans <|
  (W98_keep m ρ c main_arg2 (by decide)).trans <|
  (W97_keep m ρ c main_arg2 (by decide)).trans <|
  (W96_keep m ρ c main_arg2 (by decide)).trans <|
  (W95_keep m ρ c main_arg2 (by decide)).trans <|
  (W94_keep m ρ c main_arg2 (by decide)).trans <|
  (W93_keep m ρ c main_arg2 (by decide)).trans <|
  (W92_keep m ρ c main_arg2 (by decide)).trans <|
  (W91_keep m ρ c main_arg2 (by decide)).trans <|
  (W90_keep m ρ c main_arg2 (by decide)).trans <|
  (W89_keep m ρ c main_arg2 (by decide)).trans <|
  (W88_keep m ρ c main_arg2 (by decide)).trans <|
  (W87_keep m ρ c main_arg2 (by decide)).trans <|
  (W86_keep m ρ c main_arg2 (by decide)).trans <|
  (W85_keep m ρ c main_arg2 (by decide)).trans <|
  (W84_keep m ρ c main_arg2 (by decide)).trans <|
  (W83_keep m ρ c main_arg2 (by decide)).trans <|
  (W82_keep m ρ c main_arg2 (by decide)).trans <|
  (W81_keep m ρ c main_arg2 (by decide)).trans <|
  (W80_keep m ρ c main_arg2 (by decide)).trans <|
  (W79_keep m ρ c main_arg2 (by decide)).trans <|
  (W78_keep m ρ c main_arg2 (by decide)).trans <|
  (W77_keep m ρ c main_arg2 (by decide)).trans <|
  (W76_keep m ρ c main_arg2 (by decide)).trans <|
  (W75_keep m ρ c main_arg2 (by decide)).trans <|
  (W74_keep m ρ c main_arg2 (by decide)).trans <|
  (W73_keep m ρ c main_arg2 (by decide)).trans <|
  (W72_keep m ρ c main_arg2 (by decide)).trans <|
  (W71_keep m ρ c main_arg2 (by decide)).trans <|
  (W70_keep m ρ c main_arg2 (by decide)).trans <|
  (W69_keep m ρ c main_arg2 (by decide)).trans <|
  (W68_keep m ρ c main_arg2 (by decide)).trans <|
  (W67_keep m ρ c main_arg2 (by decide)).trans <|
  (W66_keep m ρ c main_arg2 (by decide)).trans <|
  (W65_keep m ρ c main_arg2 (by decide)).trans <|
  (W64_keep m ρ c main_arg2 (by decide)).trans <|
  (W63_keep m ρ c main_arg2 (by decide)).trans <|
  (W62_keep m ρ c main_arg2 (by decide)).trans <|
  (W61_keep m ρ c main_arg2 (by decide)).trans <|
  (W60_keep m ρ c main_arg2 (by decide)).trans <|
  (W59_keep m ρ c main_arg2 (by decide)).trans <|
  (W58_keep m ρ c main_arg2 (by decide)).trans <|
  (W57_keep m ρ c main_arg2 (by decide)).trans <|
  (W56_keep m ρ c main_arg2 (by decide)).trans <|
  (W55_keep m ρ c main_arg2 (by decide)).trans <|
  (W54_keep m ρ c main_arg2 (by decide)).trans <|
  (W53_keep m ρ c main_arg2 (by decide)).trans <|
  (W52_keep m ρ c main_arg2 (by decide)).trans <|
  (W51_keep m ρ c main_arg2 (by decide)).trans <|
  (W50_keep m ρ c main_arg2 (by decide)).trans <|
  (W49_keep m ρ c main_arg2 (by decide)).trans <|
  (W48_keep m ρ c main_arg2 (by decide)).trans <|
  (W47_keep m ρ c main_arg2 (by decide)).trans <|
  (W46_keep m ρ c main_arg2 (by decide)).trans <|
  (W45_keep m ρ c main_arg2 (by decide)).trans <|
  (W44_keep m ρ c main_arg2 (by decide)).trans <|
  (W43_keep m ρ c main_arg2 (by decide)).trans <|
  (W42_keep m ρ c main_arg2 (by decide)).trans <|
  (W41_keep m ρ c main_arg2 (by decide)).trans <|
  (W40_keep m ρ c main_arg2 (by decide)).trans <|
  (W39_keep m ρ c main_arg2 (by decide)).trans <|
  (W38_keep m ρ c main_arg2 (by decide)).trans <|
  (W37_keep m ρ c main_arg2 (by decide)).trans <|
  (W36_keep m ρ c main_arg2 (by decide)).trans <|
  (W35_keep m ρ c main_arg2 (by decide)).trans <|
  (W34_keep m ρ c main_arg2 (by decide)).trans <|
  (W33_keep m ρ c main_arg2 (by decide)).trans <|
  (W32_keep m ρ c main_arg2 (by decide)).trans <|
  (W31_keep m ρ c main_arg2 (by decide)).trans <|
  (W30_keep m ρ c main_arg2 (by decide)).trans <|
  (W29_keep m ρ c main_arg2 (by decide)).trans <|
  (W28_keep m ρ c main_arg2 (by decide)).trans <|
  (W27_keep m ρ c main_arg2 (by decide)).trans <|
  (W26_keep m ρ c main_arg2 (by decide)).trans <|
  (W25_keep m ρ c main_arg2 (by decide)).trans <|
  (W24_keep m ρ c main_arg2 (by decide)).trans <|
  (W23_keep m ρ c main_arg2 (by decide)).trans <|
  (W22_keep m ρ c main_arg2 (by decide)).trans <|
  (W21_keep m ρ c main_arg2 (by decide)).trans <|
  (W20_keep m ρ c main_arg2 (by decide)).trans <|
  (W19_keep m ρ c main_arg2 (by decide)).trans <|
  (W18_keep m ρ c main_arg2 (by decide)).trans <|
  (W17_keep m ρ c main_arg2 (by decide)).trans <|
  (W16_keep m ρ c main_arg2 (by decide)).trans <|
  (W15_keep m ρ c main_arg2 (by decide)).trans <|
  (W14_keep m ρ c main_arg2 (by decide)).trans <|
  (W13_keep m ρ c main_arg2 (by decide)).trans <|
  (W12_keep m ρ c main_arg2 (by decide)).trans <|
  (W11_keep m ρ c main_arg2 (by decide)).trans <|
  (W10_keep m ρ c main_arg2 (by decide)).trans <|
  (W9_keep m ρ c main_arg2 (by decide)).trans <|
  (W8_keep m ρ c main_arg2 (by decide)).trans <|
  (W7_keep m ρ c main_arg2 (by decide)).trans <|
  (W6_keep m ρ c main_arg2 (by decide)).trans <|
  (W5_keep m ρ c main_arg2 (by decide)).trans <|
  (W4_keep m ρ c main_arg2 (by decide)).trans <|
  (W3_keep m ρ c main_arg2 (by decide)).trans <|
  (W2_keep m ρ c main_arg2 (by decide)).trans <|
  (W1_keep m ρ c main_arg2 (by decide)).trans rfl

/-- `main_arg3` reaches the end as launched. -/
theorem W109_main_arg3 (c : Dev nD) : W109 m ρ c (Proc.devRef .tc main_arg3) = m ((c : Thread nD τ).loc main_arg3) :=
  (W109_keep m ρ c main_arg3 (by decide)).trans <|
  (W108_keep m ρ c main_arg3 (by decide)).trans <|
  (W107_keep m ρ c main_arg3 (by decide)).trans <|
  (W106_keep m ρ c main_arg3 (by decide)).trans <|
  (W105_keep m ρ c main_arg3 (by decide)).trans <|
  (W104_keep m ρ c main_arg3 (by decide)).trans <|
  (W103_keep m ρ c main_arg3 (by decide)).trans <|
  (W102_keep m ρ c main_arg3 (by decide)).trans <|
  (W101_keep m ρ c main_arg3 (by decide)).trans <|
  (W100_keep m ρ c main_arg3 (by decide)).trans <|
  (W99_keep m ρ c main_arg3 (by decide)).trans <|
  (W98_keep m ρ c main_arg3 (by decide)).trans <|
  (W97_keep m ρ c main_arg3 (by decide)).trans <|
  (W96_keep m ρ c main_arg3 (by decide)).trans <|
  (W95_keep m ρ c main_arg3 (by decide)).trans <|
  (W94_keep m ρ c main_arg3 (by decide)).trans <|
  (W93_keep m ρ c main_arg3 (by decide)).trans <|
  (W92_keep m ρ c main_arg3 (by decide)).trans <|
  (W91_keep m ρ c main_arg3 (by decide)).trans <|
  (W90_keep m ρ c main_arg3 (by decide)).trans <|
  (W89_keep m ρ c main_arg3 (by decide)).trans <|
  (W88_keep m ρ c main_arg3 (by decide)).trans <|
  (W87_keep m ρ c main_arg3 (by decide)).trans <|
  (W86_keep m ρ c main_arg3 (by decide)).trans <|
  (W85_keep m ρ c main_arg3 (by decide)).trans <|
  (W84_keep m ρ c main_arg3 (by decide)).trans <|
  (W83_keep m ρ c main_arg3 (by decide)).trans <|
  (W82_keep m ρ c main_arg3 (by decide)).trans <|
  (W81_keep m ρ c main_arg3 (by decide)).trans <|
  (W80_keep m ρ c main_arg3 (by decide)).trans <|
  (W79_keep m ρ c main_arg3 (by decide)).trans <|
  (W78_keep m ρ c main_arg3 (by decide)).trans <|
  (W77_keep m ρ c main_arg3 (by decide)).trans <|
  (W76_keep m ρ c main_arg3 (by decide)).trans <|
  (W75_keep m ρ c main_arg3 (by decide)).trans <|
  (W74_keep m ρ c main_arg3 (by decide)).trans <|
  (W73_keep m ρ c main_arg3 (by decide)).trans <|
  (W72_keep m ρ c main_arg3 (by decide)).trans <|
  (W71_keep m ρ c main_arg3 (by decide)).trans <|
  (W70_keep m ρ c main_arg3 (by decide)).trans <|
  (W69_keep m ρ c main_arg3 (by decide)).trans <|
  (W68_keep m ρ c main_arg3 (by decide)).trans <|
  (W67_keep m ρ c main_arg3 (by decide)).trans <|
  (W66_keep m ρ c main_arg3 (by decide)).trans <|
  (W65_keep m ρ c main_arg3 (by decide)).trans <|
  (W64_keep m ρ c main_arg3 (by decide)).trans <|
  (W63_keep m ρ c main_arg3 (by decide)).trans <|
  (W62_keep m ρ c main_arg3 (by decide)).trans <|
  (W61_keep m ρ c main_arg3 (by decide)).trans <|
  (W60_keep m ρ c main_arg3 (by decide)).trans <|
  (W59_keep m ρ c main_arg3 (by decide)).trans <|
  (W58_keep m ρ c main_arg3 (by decide)).trans <|
  (W57_keep m ρ c main_arg3 (by decide)).trans <|
  (W56_keep m ρ c main_arg3 (by decide)).trans <|
  (W55_keep m ρ c main_arg3 (by decide)).trans <|
  (W54_keep m ρ c main_arg3 (by decide)).trans <|
  (W53_keep m ρ c main_arg3 (by decide)).trans <|
  (W52_keep m ρ c main_arg3 (by decide)).trans <|
  (W51_keep m ρ c main_arg3 (by decide)).trans <|
  (W50_keep m ρ c main_arg3 (by decide)).trans <|
  (W49_keep m ρ c main_arg3 (by decide)).trans <|
  (W48_keep m ρ c main_arg3 (by decide)).trans <|
  (W47_keep m ρ c main_arg3 (by decide)).trans <|
  (W46_keep m ρ c main_arg3 (by decide)).trans <|
  (W45_keep m ρ c main_arg3 (by decide)).trans <|
  (W44_keep m ρ c main_arg3 (by decide)).trans <|
  (W43_keep m ρ c main_arg3 (by decide)).trans <|
  (W42_keep m ρ c main_arg3 (by decide)).trans <|
  (W41_keep m ρ c main_arg3 (by decide)).trans <|
  (W40_keep m ρ c main_arg3 (by decide)).trans <|
  (W39_keep m ρ c main_arg3 (by decide)).trans <|
  (W38_keep m ρ c main_arg3 (by decide)).trans <|
  (W37_keep m ρ c main_arg3 (by decide)).trans <|
  (W36_keep m ρ c main_arg3 (by decide)).trans <|
  (W35_keep m ρ c main_arg3 (by decide)).trans <|
  (W34_keep m ρ c main_arg3 (by decide)).trans <|
  (W33_keep m ρ c main_arg3 (by decide)).trans <|
  (W32_keep m ρ c main_arg3 (by decide)).trans <|
  (W31_keep m ρ c main_arg3 (by decide)).trans <|
  (W30_keep m ρ c main_arg3 (by decide)).trans <|
  (W29_keep m ρ c main_arg3 (by decide)).trans <|
  (W28_keep m ρ c main_arg3 (by decide)).trans <|
  (W27_keep m ρ c main_arg3 (by decide)).trans <|
  (W26_keep m ρ c main_arg3 (by decide)).trans <|
  (W25_keep m ρ c main_arg3 (by decide)).trans <|
  (W24_keep m ρ c main_arg3 (by decide)).trans <|
  (W23_keep m ρ c main_arg3 (by decide)).trans <|
  (W22_keep m ρ c main_arg3 (by decide)).trans <|
  (W21_keep m ρ c main_arg3 (by decide)).trans <|
  (W20_keep m ρ c main_arg3 (by decide)).trans <|
  (W19_keep m ρ c main_arg3 (by decide)).trans <|
  (W18_keep m ρ c main_arg3 (by decide)).trans <|
  (W17_keep m ρ c main_arg3 (by decide)).trans <|
  (W16_keep m ρ c main_arg3 (by decide)).trans <|
  (W15_keep m ρ c main_arg3 (by decide)).trans <|
  (W14_keep m ρ c main_arg3 (by decide)).trans <|
  (W13_keep m ρ c main_arg3 (by decide)).trans <|
  (W12_keep m ρ c main_arg3 (by decide)).trans <|
  (W11_keep m ρ c main_arg3 (by decide)).trans <|
  (W10_keep m ρ c main_arg3 (by decide)).trans <|
  (W9_keep m ρ c main_arg3 (by decide)).trans <|
  (W8_keep m ρ c main_arg3 (by decide)).trans <|
  (W7_keep m ρ c main_arg3 (by decide)).trans <|
  (W6_keep m ρ c main_arg3 (by decide)).trans <|
  (W5_keep m ρ c main_arg3 (by decide)).trans <|
  (W4_keep m ρ c main_arg3 (by decide)).trans <|
  (W3_keep m ρ c main_arg3 (by decide)).trans <|
  (W2_keep m ρ c main_arg3 (by decide)).trans <|
  (W1_keep m ρ c main_arg3 (by decide)).trans rfl

/-- `main_arg4` reaches the end as launched. -/
theorem W109_main_arg4 (c : Dev nD) : W109 m ρ c (Proc.devRef .tc main_arg4) = m ((c : Thread nD τ).loc main_arg4) :=
  (W109_keep m ρ c main_arg4 (by decide)).trans <|
  (W108_keep m ρ c main_arg4 (by decide)).trans <|
  (W107_keep m ρ c main_arg4 (by decide)).trans <|
  (W106_keep m ρ c main_arg4 (by decide)).trans <|
  (W105_keep m ρ c main_arg4 (by decide)).trans <|
  (W104_keep m ρ c main_arg4 (by decide)).trans <|
  (W103_keep m ρ c main_arg4 (by decide)).trans <|
  (W102_keep m ρ c main_arg4 (by decide)).trans <|
  (W101_keep m ρ c main_arg4 (by decide)).trans <|
  (W100_keep m ρ c main_arg4 (by decide)).trans <|
  (W99_keep m ρ c main_arg4 (by decide)).trans <|
  (W98_keep m ρ c main_arg4 (by decide)).trans <|
  (W97_keep m ρ c main_arg4 (by decide)).trans <|
  (W96_keep m ρ c main_arg4 (by decide)).trans <|
  (W95_keep m ρ c main_arg4 (by decide)).trans <|
  (W94_keep m ρ c main_arg4 (by decide)).trans <|
  (W93_keep m ρ c main_arg4 (by decide)).trans <|
  (W92_keep m ρ c main_arg4 (by decide)).trans <|
  (W91_keep m ρ c main_arg4 (by decide)).trans <|
  (W90_keep m ρ c main_arg4 (by decide)).trans <|
  (W89_keep m ρ c main_arg4 (by decide)).trans <|
  (W88_keep m ρ c main_arg4 (by decide)).trans <|
  (W87_keep m ρ c main_arg4 (by decide)).trans <|
  (W86_keep m ρ c main_arg4 (by decide)).trans <|
  (W85_keep m ρ c main_arg4 (by decide)).trans <|
  (W84_keep m ρ c main_arg4 (by decide)).trans <|
  (W83_keep m ρ c main_arg4 (by decide)).trans <|
  (W82_keep m ρ c main_arg4 (by decide)).trans <|
  (W81_keep m ρ c main_arg4 (by decide)).trans <|
  (W80_keep m ρ c main_arg4 (by decide)).trans <|
  (W79_keep m ρ c main_arg4 (by decide)).trans <|
  (W78_keep m ρ c main_arg4 (by decide)).trans <|
  (W77_keep m ρ c main_arg4 (by decide)).trans <|
  (W76_keep m ρ c main_arg4 (by decide)).trans <|
  (W75_keep m ρ c main_arg4 (by decide)).trans <|
  (W74_keep m ρ c main_arg4 (by decide)).trans <|
  (W73_keep m ρ c main_arg4 (by decide)).trans <|
  (W72_keep m ρ c main_arg4 (by decide)).trans <|
  (W71_keep m ρ c main_arg4 (by decide)).trans <|
  (W70_keep m ρ c main_arg4 (by decide)).trans <|
  (W69_keep m ρ c main_arg4 (by decide)).trans <|
  (W68_keep m ρ c main_arg4 (by decide)).trans <|
  (W67_keep m ρ c main_arg4 (by decide)).trans <|
  (W66_keep m ρ c main_arg4 (by decide)).trans <|
  (W65_keep m ρ c main_arg4 (by decide)).trans <|
  (W64_keep m ρ c main_arg4 (by decide)).trans <|
  (W63_keep m ρ c main_arg4 (by decide)).trans <|
  (W62_keep m ρ c main_arg4 (by decide)).trans <|
  (W61_keep m ρ c main_arg4 (by decide)).trans <|
  (W60_keep m ρ c main_arg4 (by decide)).trans <|
  (W59_keep m ρ c main_arg4 (by decide)).trans <|
  (W58_keep m ρ c main_arg4 (by decide)).trans <|
  (W57_keep m ρ c main_arg4 (by decide)).trans <|
  (W56_keep m ρ c main_arg4 (by decide)).trans <|
  (W55_keep m ρ c main_arg4 (by decide)).trans <|
  (W54_keep m ρ c main_arg4 (by decide)).trans <|
  (W53_keep m ρ c main_arg4 (by decide)).trans <|
  (W52_keep m ρ c main_arg4 (by decide)).trans <|
  (W51_keep m ρ c main_arg4 (by decide)).trans <|
  (W50_keep m ρ c main_arg4 (by decide)).trans <|
  (W49_keep m ρ c main_arg4 (by decide)).trans <|
  (W48_keep m ρ c main_arg4 (by decide)).trans <|
  (W47_keep m ρ c main_arg4 (by decide)).trans <|
  (W46_keep m ρ c main_arg4 (by decide)).trans <|
  (W45_keep m ρ c main_arg4 (by decide)).trans <|
  (W44_keep m ρ c main_arg4 (by decide)).trans <|
  (W43_keep m ρ c main_arg4 (by decide)).trans <|
  (W42_keep m ρ c main_arg4 (by decide)).trans <|
  (W41_keep m ρ c main_arg4 (by decide)).trans <|
  (W40_keep m ρ c main_arg4 (by decide)).trans <|
  (W39_keep m ρ c main_arg4 (by decide)).trans <|
  (W38_keep m ρ c main_arg4 (by decide)).trans <|
  (W37_keep m ρ c main_arg4 (by decide)).trans <|
  (W36_keep m ρ c main_arg4 (by decide)).trans <|
  (W35_keep m ρ c main_arg4 (by decide)).trans <|
  (W34_keep m ρ c main_arg4 (by decide)).trans <|
  (W33_keep m ρ c main_arg4 (by decide)).trans <|
  (W32_keep m ρ c main_arg4 (by decide)).trans <|
  (W31_keep m ρ c main_arg4 (by decide)).trans <|
  (W30_keep m ρ c main_arg4 (by decide)).trans <|
  (W29_keep m ρ c main_arg4 (by decide)).trans <|
  (W28_keep m ρ c main_arg4 (by decide)).trans <|
  (W27_keep m ρ c main_arg4 (by decide)).trans <|
  (W26_keep m ρ c main_arg4 (by decide)).trans <|
  (W25_keep m ρ c main_arg4 (by decide)).trans <|
  (W24_keep m ρ c main_arg4 (by decide)).trans <|
  (W23_keep m ρ c main_arg4 (by decide)).trans <|
  (W22_keep m ρ c main_arg4 (by decide)).trans <|
  (W21_keep m ρ c main_arg4 (by decide)).trans <|
  (W20_keep m ρ c main_arg4 (by decide)).trans <|
  (W19_keep m ρ c main_arg4 (by decide)).trans <|
  (W18_keep m ρ c main_arg4 (by decide)).trans <|
  (W17_keep m ρ c main_arg4 (by decide)).trans <|
  (W16_keep m ρ c main_arg4 (by decide)).trans <|
  (W15_keep m ρ c main_arg4 (by decide)).trans <|
  (W14_keep m ρ c main_arg4 (by decide)).trans <|
  (W13_keep m ρ c main_arg4 (by decide)).trans <|
  (W12_keep m ρ c main_arg4 (by decide)).trans <|
  (W11_keep m ρ c main_arg4 (by decide)).trans <|
  (W10_keep m ρ c main_arg4 (by decide)).trans <|
  (W9_keep m ρ c main_arg4 (by decide)).trans <|
  (W8_keep m ρ c main_arg4 (by decide)).trans <|
  (W7_keep m ρ c main_arg4 (by decide)).trans <|
  (W6_keep m ρ c main_arg4 (by decide)).trans <|
  (W5_keep m ρ c main_arg4 (by decide)).trans <|
  (W4_keep m ρ c main_arg4 (by decide)).trans <|
  (W3_keep m ρ c main_arg4 (by decide)).trans <|
  (W2_keep m ρ c main_arg4 (by decide)).trans <|
  (W1_keep m ρ c main_arg4 (by decide)).trans rfl

/-- `main_arg5` reaches the end as launched. -/
theorem W109_main_arg5 (c : Dev nD) : W109 m ρ c (Proc.devRef .tc main_arg5) = m ((c : Thread nD τ).loc main_arg5) :=
  (W109_keep m ρ c main_arg5 (by decide)).trans <|
  (W108_keep m ρ c main_arg5 (by decide)).trans <|
  (W107_keep m ρ c main_arg5 (by decide)).trans <|
  (W106_keep m ρ c main_arg5 (by decide)).trans <|
  (W105_keep m ρ c main_arg5 (by decide)).trans <|
  (W104_keep m ρ c main_arg5 (by decide)).trans <|
  (W103_keep m ρ c main_arg5 (by decide)).trans <|
  (W102_keep m ρ c main_arg5 (by decide)).trans <|
  (W101_keep m ρ c main_arg5 (by decide)).trans <|
  (W100_keep m ρ c main_arg5 (by decide)).trans <|
  (W99_keep m ρ c main_arg5 (by decide)).trans <|
  (W98_keep m ρ c main_arg5 (by decide)).trans <|
  (W97_keep m ρ c main_arg5 (by decide)).trans <|
  (W96_keep m ρ c main_arg5 (by decide)).trans <|
  (W95_keep m ρ c main_arg5 (by decide)).trans <|
  (W94_keep m ρ c main_arg5 (by decide)).trans <|
  (W93_keep m ρ c main_arg5 (by decide)).trans <|
  (W92_keep m ρ c main_arg5 (by decide)).trans <|
  (W91_keep m ρ c main_arg5 (by decide)).trans <|
  (W90_keep m ρ c main_arg5 (by decide)).trans <|
  (W89_keep m ρ c main_arg5 (by decide)).trans <|
  (W88_keep m ρ c main_arg5 (by decide)).trans <|
  (W87_keep m ρ c main_arg5 (by decide)).trans <|
  (W86_keep m ρ c main_arg5 (by decide)).trans <|
  (W85_keep m ρ c main_arg5 (by decide)).trans <|
  (W84_keep m ρ c main_arg5 (by decide)).trans <|
  (W83_keep m ρ c main_arg5 (by decide)).trans <|
  (W82_keep m ρ c main_arg5 (by decide)).trans <|
  (W81_keep m ρ c main_arg5 (by decide)).trans <|
  (W80_keep m ρ c main_arg5 (by decide)).trans <|
  (W79_keep m ρ c main_arg5 (by decide)).trans <|
  (W78_keep m ρ c main_arg5 (by decide)).trans <|
  (W77_keep m ρ c main_arg5 (by decide)).trans <|
  (W76_keep m ρ c main_arg5 (by decide)).trans <|
  (W75_keep m ρ c main_arg5 (by decide)).trans <|
  (W74_keep m ρ c main_arg5 (by decide)).trans <|
  (W73_keep m ρ c main_arg5 (by decide)).trans <|
  (W72_keep m ρ c main_arg5 (by decide)).trans <|
  (W71_keep m ρ c main_arg5 (by decide)).trans <|
  (W70_keep m ρ c main_arg5 (by decide)).trans <|
  (W69_keep m ρ c main_arg5 (by decide)).trans <|
  (W68_keep m ρ c main_arg5 (by decide)).trans <|
  (W67_keep m ρ c main_arg5 (by decide)).trans <|
  (W66_keep m ρ c main_arg5 (by decide)).trans <|
  (W65_keep m ρ c main_arg5 (by decide)).trans <|
  (W64_keep m ρ c main_arg5 (by decide)).trans <|
  (W63_keep m ρ c main_arg5 (by decide)).trans <|
  (W62_keep m ρ c main_arg5 (by decide)).trans <|
  (W61_keep m ρ c main_arg5 (by decide)).trans <|
  (W60_keep m ρ c main_arg5 (by decide)).trans <|
  (W59_keep m ρ c main_arg5 (by decide)).trans <|
  (W58_keep m ρ c main_arg5 (by decide)).trans <|
  (W57_keep m ρ c main_arg5 (by decide)).trans <|
  (W56_keep m ρ c main_arg5 (by decide)).trans <|
  (W55_keep m ρ c main_arg5 (by decide)).trans <|
  (W54_keep m ρ c main_arg5 (by decide)).trans <|
  (W53_keep m ρ c main_arg5 (by decide)).trans <|
  (W52_keep m ρ c main_arg5 (by decide)).trans <|
  (W51_keep m ρ c main_arg5 (by decide)).trans <|
  (W50_keep m ρ c main_arg5 (by decide)).trans <|
  (W49_keep m ρ c main_arg5 (by decide)).trans <|
  (W48_keep m ρ c main_arg5 (by decide)).trans <|
  (W47_keep m ρ c main_arg5 (by decide)).trans <|
  (W46_keep m ρ c main_arg5 (by decide)).trans <|
  (W45_keep m ρ c main_arg5 (by decide)).trans <|
  (W44_keep m ρ c main_arg5 (by decide)).trans <|
  (W43_keep m ρ c main_arg5 (by decide)).trans <|
  (W42_keep m ρ c main_arg5 (by decide)).trans <|
  (W41_keep m ρ c main_arg5 (by decide)).trans <|
  (W40_keep m ρ c main_arg5 (by decide)).trans <|
  (W39_keep m ρ c main_arg5 (by decide)).trans <|
  (W38_keep m ρ c main_arg5 (by decide)).trans <|
  (W37_keep m ρ c main_arg5 (by decide)).trans <|
  (W36_keep m ρ c main_arg5 (by decide)).trans <|
  (W35_keep m ρ c main_arg5 (by decide)).trans <|
  (W34_keep m ρ c main_arg5 (by decide)).trans <|
  (W33_keep m ρ c main_arg5 (by decide)).trans <|
  (W32_keep m ρ c main_arg5 (by decide)).trans <|
  (W31_keep m ρ c main_arg5 (by decide)).trans <|
  (W30_keep m ρ c main_arg5 (by decide)).trans <|
  (W29_keep m ρ c main_arg5 (by decide)).trans <|
  (W28_keep m ρ c main_arg5 (by decide)).trans <|
  (W27_keep m ρ c main_arg5 (by decide)).trans <|
  (W26_keep m ρ c main_arg5 (by decide)).trans <|
  (W25_keep m ρ c main_arg5 (by decide)).trans <|
  (W24_keep m ρ c main_arg5 (by decide)).trans <|
  (W23_keep m ρ c main_arg5 (by decide)).trans <|
  (W22_keep m ρ c main_arg5 (by decide)).trans <|
  (W21_keep m ρ c main_arg5 (by decide)).trans <|
  (W20_keep m ρ c main_arg5 (by decide)).trans <|
  (W19_keep m ρ c main_arg5 (by decide)).trans <|
  (W18_keep m ρ c main_arg5 (by decide)).trans <|
  (W17_keep m ρ c main_arg5 (by decide)).trans <|
  (W16_keep m ρ c main_arg5 (by decide)).trans <|
  (W15_keep m ρ c main_arg5 (by decide)).trans <|
  (W14_keep m ρ c main_arg5 (by decide)).trans <|
  (W13_keep m ρ c main_arg5 (by decide)).trans <|
  (W12_keep m ρ c main_arg5 (by decide)).trans <|
  (W11_keep m ρ c main_arg5 (by decide)).trans <|
  (W10_keep m ρ c main_arg5 (by decide)).trans <|
  (W9_keep m ρ c main_arg5 (by decide)).trans <|
  (W8_keep m ρ c main_arg5 (by decide)).trans <|
  (W7_keep m ρ c main_arg5 (by decide)).trans <|
  (W6_keep m ρ c main_arg5 (by decide)).trans <|
  (W5_keep m ρ c main_arg5 (by decide)).trans <|
  (W4_keep m ρ c main_arg5 (by decide)).trans <|
  (W3_keep m ρ c main_arg5 (by decide)).trans <|
  (W2_keep m ρ c main_arg5 (by decide)).trans <|
  (W1_keep m ρ c main_arg5 (by decide)).trans rfl

/-- `main_arg6` reaches the end as launched. -/
theorem W109_main_arg6 (c : Dev nD) : W109 m ρ c (Proc.devRef .tc main_arg6) = m ((c : Thread nD τ).loc main_arg6) :=
  (W109_keep m ρ c main_arg6 (by decide)).trans <|
  (W108_keep m ρ c main_arg6 (by decide)).trans <|
  (W107_keep m ρ c main_arg6 (by decide)).trans <|
  (W106_keep m ρ c main_arg6 (by decide)).trans <|
  (W105_keep m ρ c main_arg6 (by decide)).trans <|
  (W104_keep m ρ c main_arg6 (by decide)).trans <|
  (W103_keep m ρ c main_arg6 (by decide)).trans <|
  (W102_keep m ρ c main_arg6 (by decide)).trans <|
  (W101_keep m ρ c main_arg6 (by decide)).trans <|
  (W100_keep m ρ c main_arg6 (by decide)).trans <|
  (W99_keep m ρ c main_arg6 (by decide)).trans <|
  (W98_keep m ρ c main_arg6 (by decide)).trans <|
  (W97_keep m ρ c main_arg6 (by decide)).trans <|
  (W96_keep m ρ c main_arg6 (by decide)).trans <|
  (W95_keep m ρ c main_arg6 (by decide)).trans <|
  (W94_keep m ρ c main_arg6 (by decide)).trans <|
  (W93_keep m ρ c main_arg6 (by decide)).trans <|
  (W92_keep m ρ c main_arg6 (by decide)).trans <|
  (W91_keep m ρ c main_arg6 (by decide)).trans <|
  (W90_keep m ρ c main_arg6 (by decide)).trans <|
  (W89_keep m ρ c main_arg6 (by decide)).trans <|
  (W88_keep m ρ c main_arg6 (by decide)).trans <|
  (W87_keep m ρ c main_arg6 (by decide)).trans <|
  (W86_keep m ρ c main_arg6 (by decide)).trans <|
  (W85_keep m ρ c main_arg6 (by decide)).trans <|
  (W84_keep m ρ c main_arg6 (by decide)).trans <|
  (W83_keep m ρ c main_arg6 (by decide)).trans <|
  (W82_keep m ρ c main_arg6 (by decide)).trans <|
  (W81_keep m ρ c main_arg6 (by decide)).trans <|
  (W80_keep m ρ c main_arg6 (by decide)).trans <|
  (W79_keep m ρ c main_arg6 (by decide)).trans <|
  (W78_keep m ρ c main_arg6 (by decide)).trans <|
  (W77_keep m ρ c main_arg6 (by decide)).trans <|
  (W76_keep m ρ c main_arg6 (by decide)).trans <|
  (W75_keep m ρ c main_arg6 (by decide)).trans <|
  (W74_keep m ρ c main_arg6 (by decide)).trans <|
  (W73_keep m ρ c main_arg6 (by decide)).trans <|
  (W72_keep m ρ c main_arg6 (by decide)).trans <|
  (W71_keep m ρ c main_arg6 (by decide)).trans <|
  (W70_keep m ρ c main_arg6 (by decide)).trans <|
  (W69_keep m ρ c main_arg6 (by decide)).trans <|
  (W68_keep m ρ c main_arg6 (by decide)).trans <|
  (W67_keep m ρ c main_arg6 (by decide)).trans <|
  (W66_keep m ρ c main_arg6 (by decide)).trans <|
  (W65_keep m ρ c main_arg6 (by decide)).trans <|
  (W64_keep m ρ c main_arg6 (by decide)).trans <|
  (W63_keep m ρ c main_arg6 (by decide)).trans <|
  (W62_keep m ρ c main_arg6 (by decide)).trans <|
  (W61_keep m ρ c main_arg6 (by decide)).trans <|
  (W60_keep m ρ c main_arg6 (by decide)).trans <|
  (W59_keep m ρ c main_arg6 (by decide)).trans <|
  (W58_keep m ρ c main_arg6 (by decide)).trans <|
  (W57_keep m ρ c main_arg6 (by decide)).trans <|
  (W56_keep m ρ c main_arg6 (by decide)).trans <|
  (W55_keep m ρ c main_arg6 (by decide)).trans <|
  (W54_keep m ρ c main_arg6 (by decide)).trans <|
  (W53_keep m ρ c main_arg6 (by decide)).trans <|
  (W52_keep m ρ c main_arg6 (by decide)).trans <|
  (W51_keep m ρ c main_arg6 (by decide)).trans <|
  (W50_keep m ρ c main_arg6 (by decide)).trans <|
  (W49_keep m ρ c main_arg6 (by decide)).trans <|
  (W48_keep m ρ c main_arg6 (by decide)).trans <|
  (W47_keep m ρ c main_arg6 (by decide)).trans <|
  (W46_keep m ρ c main_arg6 (by decide)).trans <|
  (W45_keep m ρ c main_arg6 (by decide)).trans <|
  (W44_keep m ρ c main_arg6 (by decide)).trans <|
  (W43_keep m ρ c main_arg6 (by decide)).trans <|
  (W42_keep m ρ c main_arg6 (by decide)).trans <|
  (W41_keep m ρ c main_arg6 (by decide)).trans <|
  (W40_keep m ρ c main_arg6 (by decide)).trans <|
  (W39_keep m ρ c main_arg6 (by decide)).trans <|
  (W38_keep m ρ c main_arg6 (by decide)).trans <|
  (W37_keep m ρ c main_arg6 (by decide)).trans <|
  (W36_keep m ρ c main_arg6 (by decide)).trans <|
  (W35_keep m ρ c main_arg6 (by decide)).trans <|
  (W34_keep m ρ c main_arg6 (by decide)).trans <|
  (W33_keep m ρ c main_arg6 (by decide)).trans <|
  (W32_keep m ρ c main_arg6 (by decide)).trans <|
  (W31_keep m ρ c main_arg6 (by decide)).trans <|
  (W30_keep m ρ c main_arg6 (by decide)).trans <|
  (W29_keep m ρ c main_arg6 (by decide)).trans <|
  (W28_keep m ρ c main_arg6 (by decide)).trans <|
  (W27_keep m ρ c main_arg6 (by decide)).trans <|
  (W26_keep m ρ c main_arg6 (by decide)).trans <|
  (W25_keep m ρ c main_arg6 (by decide)).trans <|
  (W24_keep m ρ c main_arg6 (by decide)).trans <|
  (W23_keep m ρ c main_arg6 (by decide)).trans <|
  (W22_keep m ρ c main_arg6 (by decide)).trans <|
  (W21_keep m ρ c main_arg6 (by decide)).trans <|
  (W20_keep m ρ c main_arg6 (by decide)).trans <|
  (W19_keep m ρ c main_arg6 (by decide)).trans <|
  (W18_keep m ρ c main_arg6 (by decide)).trans <|
  (W17_keep m ρ c main_arg6 (by decide)).trans <|
  (W16_keep m ρ c main_arg6 (by decide)).trans <|
  (W15_keep m ρ c main_arg6 (by decide)).trans <|
  (W14_keep m ρ c main_arg6 (by decide)).trans <|
  (W13_keep m ρ c main_arg6 (by decide)).trans <|
  (W12_keep m ρ c main_arg6 (by decide)).trans <|
  (W11_keep m ρ c main_arg6 (by decide)).trans <|
  (W10_keep m ρ c main_arg6 (by decide)).trans <|
  (W9_keep m ρ c main_arg6 (by decide)).trans <|
  (W8_keep m ρ c main_arg6 (by decide)).trans <|
  (W7_keep m ρ c main_arg6 (by decide)).trans <|
  (W6_keep m ρ c main_arg6 (by decide)).trans <|
  (W5_keep m ρ c main_arg6 (by decide)).trans <|
  (W4_keep m ρ c main_arg6 (by decide)).trans <|
  (W3_keep m ρ c main_arg6 (by decide)).trans <|
  (W2_keep m ρ c main_arg6 (by decide)).trans <|
  (W1_keep m ρ c main_arg6 (by decide)).trans rfl

/-- `main_arg7` reaches the end as launched. -/
theorem W109_main_arg7 (c : Dev nD) : W109 m ρ c (Proc.devRef .tc main_arg7) = m ((c : Thread nD τ).loc main_arg7) :=
  (W109_keep m ρ c main_arg7 (by decide)).trans <|
  (W108_keep m ρ c main_arg7 (by decide)).trans <|
  (W107_keep m ρ c main_arg7 (by decide)).trans <|
  (W106_keep m ρ c main_arg7 (by decide)).trans <|
  (W105_keep m ρ c main_arg7 (by decide)).trans <|
  (W104_keep m ρ c main_arg7 (by decide)).trans <|
  (W103_keep m ρ c main_arg7 (by decide)).trans <|
  (W102_keep m ρ c main_arg7 (by decide)).trans <|
  (W101_keep m ρ c main_arg7 (by decide)).trans <|
  (W100_keep m ρ c main_arg7 (by decide)).trans <|
  (W99_keep m ρ c main_arg7 (by decide)).trans <|
  (W98_keep m ρ c main_arg7 (by decide)).trans <|
  (W97_keep m ρ c main_arg7 (by decide)).trans <|
  (W96_keep m ρ c main_arg7 (by decide)).trans <|
  (W95_keep m ρ c main_arg7 (by decide)).trans <|
  (W94_keep m ρ c main_arg7 (by decide)).trans <|
  (W93_keep m ρ c main_arg7 (by decide)).trans <|
  (W92_keep m ρ c main_arg7 (by decide)).trans <|
  (W91_keep m ρ c main_arg7 (by decide)).trans <|
  (W90_keep m ρ c main_arg7 (by decide)).trans <|
  (W89_keep m ρ c main_arg7 (by decide)).trans <|
  (W88_keep m ρ c main_arg7 (by decide)).trans <|
  (W87_keep m ρ c main_arg7 (by decide)).trans <|
  (W86_keep m ρ c main_arg7 (by decide)).trans <|
  (W85_keep m ρ c main_arg7 (by decide)).trans <|
  (W84_keep m ρ c main_arg7 (by decide)).trans <|
  (W83_keep m ρ c main_arg7 (by decide)).trans <|
  (W82_keep m ρ c main_arg7 (by decide)).trans <|
  (W81_keep m ρ c main_arg7 (by decide)).trans <|
  (W80_keep m ρ c main_arg7 (by decide)).trans <|
  (W79_keep m ρ c main_arg7 (by decide)).trans <|
  (W78_keep m ρ c main_arg7 (by decide)).trans <|
  (W77_keep m ρ c main_arg7 (by decide)).trans <|
  (W76_keep m ρ c main_arg7 (by decide)).trans <|
  (W75_keep m ρ c main_arg7 (by decide)).trans <|
  (W74_keep m ρ c main_arg7 (by decide)).trans <|
  (W73_keep m ρ c main_arg7 (by decide)).trans <|
  (W72_keep m ρ c main_arg7 (by decide)).trans <|
  (W71_keep m ρ c main_arg7 (by decide)).trans <|
  (W70_keep m ρ c main_arg7 (by decide)).trans <|
  (W69_keep m ρ c main_arg7 (by decide)).trans <|
  (W68_keep m ρ c main_arg7 (by decide)).trans <|
  (W67_keep m ρ c main_arg7 (by decide)).trans <|
  (W66_keep m ρ c main_arg7 (by decide)).trans <|
  (W65_keep m ρ c main_arg7 (by decide)).trans <|
  (W64_keep m ρ c main_arg7 (by decide)).trans <|
  (W63_keep m ρ c main_arg7 (by decide)).trans <|
  (W62_keep m ρ c main_arg7 (by decide)).trans <|
  (W61_keep m ρ c main_arg7 (by decide)).trans <|
  (W60_keep m ρ c main_arg7 (by decide)).trans <|
  (W59_keep m ρ c main_arg7 (by decide)).trans <|
  (W58_keep m ρ c main_arg7 (by decide)).trans <|
  (W57_keep m ρ c main_arg7 (by decide)).trans <|
  (W56_keep m ρ c main_arg7 (by decide)).trans <|
  (W55_keep m ρ c main_arg7 (by decide)).trans <|
  (W54_keep m ρ c main_arg7 (by decide)).trans <|
  (W53_keep m ρ c main_arg7 (by decide)).trans <|
  (W52_keep m ρ c main_arg7 (by decide)).trans <|
  (W51_keep m ρ c main_arg7 (by decide)).trans <|
  (W50_keep m ρ c main_arg7 (by decide)).trans <|
  (W49_keep m ρ c main_arg7 (by decide)).trans <|
  (W48_keep m ρ c main_arg7 (by decide)).trans <|
  (W47_keep m ρ c main_arg7 (by decide)).trans <|
  (W46_keep m ρ c main_arg7 (by decide)).trans <|
  (W45_keep m ρ c main_arg7 (by decide)).trans <|
  (W44_keep m ρ c main_arg7 (by decide)).trans <|
  (W43_keep m ρ c main_arg7 (by decide)).trans <|
  (W42_keep m ρ c main_arg7 (by decide)).trans <|
  (W41_keep m ρ c main_arg7 (by decide)).trans <|
  (W40_keep m ρ c main_arg7 (by decide)).trans <|
  (W39_keep m ρ c main_arg7 (by decide)).trans <|
  (W38_keep m ρ c main_arg7 (by decide)).trans <|
  (W37_keep m ρ c main_arg7 (by decide)).trans <|
  (W36_keep m ρ c main_arg7 (by decide)).trans <|
  (W35_keep m ρ c main_arg7 (by decide)).trans <|
  (W34_keep m ρ c main_arg7 (by decide)).trans <|
  (W33_keep m ρ c main_arg7 (by decide)).trans <|
  (W32_keep m ρ c main_arg7 (by decide)).trans <|
  (W31_keep m ρ c main_arg7 (by decide)).trans <|
  (W30_keep m ρ c main_arg7 (by decide)).trans <|
  (W29_keep m ρ c main_arg7 (by decide)).trans <|
  (W28_keep m ρ c main_arg7 (by decide)).trans <|
  (W27_keep m ρ c main_arg7 (by decide)).trans <|
  (W26_keep m ρ c main_arg7 (by decide)).trans <|
  (W25_keep m ρ c main_arg7 (by decide)).trans <|
  (W24_keep m ρ c main_arg7 (by decide)).trans <|
  (W23_keep m ρ c main_arg7 (by decide)).trans <|
  (W22_keep m ρ c main_arg7 (by decide)).trans <|
  (W21_keep m ρ c main_arg7 (by decide)).trans <|
  (W20_keep m ρ c main_arg7 (by decide)).trans <|
  (W19_keep m ρ c main_arg7 (by decide)).trans <|
  (W18_keep m ρ c main_arg7 (by decide)).trans <|
  (W17_keep m ρ c main_arg7 (by decide)).trans <|
  (W16_keep m ρ c main_arg7 (by decide)).trans <|
  (W15_keep m ρ c main_arg7 (by decide)).trans <|
  (W14_keep m ρ c main_arg7 (by decide)).trans <|
  (W13_keep m ρ c main_arg7 (by decide)).trans <|
  (W12_keep m ρ c main_arg7 (by decide)).trans <|
  (W11_keep m ρ c main_arg7 (by decide)).trans <|
  (W10_keep m ρ c main_arg7 (by decide)).trans <|
  (W9_keep m ρ c main_arg7 (by decide)).trans <|
  (W8_keep m ρ c main_arg7 (by decide)).trans <|
  (W7_keep m ρ c main_arg7 (by decide)).trans <|
  (W6_keep m ρ c main_arg7 (by decide)).trans <|
  (W5_keep m ρ c main_arg7 (by decide)).trans <|
  (W4_keep m ρ c main_arg7 (by decide)).trans <|
  (W3_keep m ρ c main_arg7 (by decide)).trans <|
  (W2_keep m ρ c main_arg7 (by decide)).trans <|
  (W1_keep m ρ c main_arg7 (by decide)).trans rfl

/-- `main_arg8` reaches the end as launched. -/
theorem W109_main_arg8 (c : Dev nD) : W109 m ρ c (Proc.devRef .tc main_arg8) = m ((c : Thread nD τ).loc main_arg8) :=
  (W109_keep m ρ c main_arg8 (by decide)).trans <|
  (W108_keep m ρ c main_arg8 (by decide)).trans <|
  (W107_keep m ρ c main_arg8 (by decide)).trans <|
  (W106_keep m ρ c main_arg8 (by decide)).trans <|
  (W105_keep m ρ c main_arg8 (by decide)).trans <|
  (W104_keep m ρ c main_arg8 (by decide)).trans <|
  (W103_keep m ρ c main_arg8 (by decide)).trans <|
  (W102_keep m ρ c main_arg8 (by decide)).trans <|
  (W101_keep m ρ c main_arg8 (by decide)).trans <|
  (W100_keep m ρ c main_arg8 (by decide)).trans <|
  (W99_keep m ρ c main_arg8 (by decide)).trans <|
  (W98_keep m ρ c main_arg8 (by decide)).trans <|
  (W97_keep m ρ c main_arg8 (by decide)).trans <|
  (W96_keep m ρ c main_arg8 (by decide)).trans <|
  (W95_keep m ρ c main_arg8 (by decide)).trans <|
  (W94_keep m ρ c main_arg8 (by decide)).trans <|
  (W93_keep m ρ c main_arg8 (by decide)).trans <|
  (W92_keep m ρ c main_arg8 (by decide)).trans <|
  (W91_keep m ρ c main_arg8 (by decide)).trans <|
  (W90_keep m ρ c main_arg8 (by decide)).trans <|
  (W89_keep m ρ c main_arg8 (by decide)).trans <|
  (W88_keep m ρ c main_arg8 (by decide)).trans <|
  (W87_keep m ρ c main_arg8 (by decide)).trans <|
  (W86_keep m ρ c main_arg8 (by decide)).trans <|
  (W85_keep m ρ c main_arg8 (by decide)).trans <|
  (W84_keep m ρ c main_arg8 (by decide)).trans <|
  (W83_keep m ρ c main_arg8 (by decide)).trans <|
  (W82_keep m ρ c main_arg8 (by decide)).trans <|
  (W81_keep m ρ c main_arg8 (by decide)).trans <|
  (W80_keep m ρ c main_arg8 (by decide)).trans <|
  (W79_keep m ρ c main_arg8 (by decide)).trans <|
  (W78_keep m ρ c main_arg8 (by decide)).trans <|
  (W77_keep m ρ c main_arg8 (by decide)).trans <|
  (W76_keep m ρ c main_arg8 (by decide)).trans <|
  (W75_keep m ρ c main_arg8 (by decide)).trans <|
  (W74_keep m ρ c main_arg8 (by decide)).trans <|
  (W73_keep m ρ c main_arg8 (by decide)).trans <|
  (W72_keep m ρ c main_arg8 (by decide)).trans <|
  (W71_keep m ρ c main_arg8 (by decide)).trans <|
  (W70_keep m ρ c main_arg8 (by decide)).trans <|
  (W69_keep m ρ c main_arg8 (by decide)).trans <|
  (W68_keep m ρ c main_arg8 (by decide)).trans <|
  (W67_keep m ρ c main_arg8 (by decide)).trans <|
  (W66_keep m ρ c main_arg8 (by decide)).trans <|
  (W65_keep m ρ c main_arg8 (by decide)).trans <|
  (W64_keep m ρ c main_arg8 (by decide)).trans <|
  (W63_keep m ρ c main_arg8 (by decide)).trans <|
  (W62_keep m ρ c main_arg8 (by decide)).trans <|
  (W61_keep m ρ c main_arg8 (by decide)).trans <|
  (W60_keep m ρ c main_arg8 (by decide)).trans <|
  (W59_keep m ρ c main_arg8 (by decide)).trans <|
  (W58_keep m ρ c main_arg8 (by decide)).trans <|
  (W57_keep m ρ c main_arg8 (by decide)).trans <|
  (W56_keep m ρ c main_arg8 (by decide)).trans <|
  (W55_keep m ρ c main_arg8 (by decide)).trans <|
  (W54_keep m ρ c main_arg8 (by decide)).trans <|
  (W53_keep m ρ c main_arg8 (by decide)).trans <|
  (W52_keep m ρ c main_arg8 (by decide)).trans <|
  (W51_keep m ρ c main_arg8 (by decide)).trans <|
  (W50_keep m ρ c main_arg8 (by decide)).trans <|
  (W49_keep m ρ c main_arg8 (by decide)).trans <|
  (W48_keep m ρ c main_arg8 (by decide)).trans <|
  (W47_keep m ρ c main_arg8 (by decide)).trans <|
  (W46_keep m ρ c main_arg8 (by decide)).trans <|
  (W45_keep m ρ c main_arg8 (by decide)).trans <|
  (W44_keep m ρ c main_arg8 (by decide)).trans <|
  (W43_keep m ρ c main_arg8 (by decide)).trans <|
  (W42_keep m ρ c main_arg8 (by decide)).trans <|
  (W41_keep m ρ c main_arg8 (by decide)).trans <|
  (W40_keep m ρ c main_arg8 (by decide)).trans <|
  (W39_keep m ρ c main_arg8 (by decide)).trans <|
  (W38_keep m ρ c main_arg8 (by decide)).trans <|
  (W37_keep m ρ c main_arg8 (by decide)).trans <|
  (W36_keep m ρ c main_arg8 (by decide)).trans <|
  (W35_keep m ρ c main_arg8 (by decide)).trans <|
  (W34_keep m ρ c main_arg8 (by decide)).trans <|
  (W33_keep m ρ c main_arg8 (by decide)).trans <|
  (W32_keep m ρ c main_arg8 (by decide)).trans <|
  (W31_keep m ρ c main_arg8 (by decide)).trans <|
  (W30_keep m ρ c main_arg8 (by decide)).trans <|
  (W29_keep m ρ c main_arg8 (by decide)).trans <|
  (W28_keep m ρ c main_arg8 (by decide)).trans <|
  (W27_keep m ρ c main_arg8 (by decide)).trans <|
  (W26_keep m ρ c main_arg8 (by decide)).trans <|
  (W25_keep m ρ c main_arg8 (by decide)).trans <|
  (W24_keep m ρ c main_arg8 (by decide)).trans <|
  (W23_keep m ρ c main_arg8 (by decide)).trans <|
  (W22_keep m ρ c main_arg8 (by decide)).trans <|
  (W21_keep m ρ c main_arg8 (by decide)).trans <|
  (W20_keep m ρ c main_arg8 (by decide)).trans <|
  (W19_keep m ρ c main_arg8 (by decide)).trans <|
  (W18_keep m ρ c main_arg8 (by decide)).trans <|
  (W17_keep m ρ c main_arg8 (by decide)).trans <|
  (W16_keep m ρ c main_arg8 (by decide)).trans <|
  (W15_keep m ρ c main_arg8 (by decide)).trans <|
  (W14_keep m ρ c main_arg8 (by decide)).trans <|
  (W13_keep m ρ c main_arg8 (by decide)).trans <|
  (W12_keep m ρ c main_arg8 (by decide)).trans <|
  (W11_keep m ρ c main_arg8 (by decide)).trans <|
  (W10_keep m ρ c main_arg8 (by decide)).trans <|
  (W9_keep m ρ c main_arg8 (by decide)).trans <|
  (W8_keep m ρ c main_arg8 (by decide)).trans <|
  (W7_keep m ρ c main_arg8 (by decide)).trans <|
  (W6_keep m ρ c main_arg8 (by decide)).trans <|
  (W5_keep m ρ c main_arg8 (by decide)).trans <|
  (W4_keep m ρ c main_arg8 (by decide)).trans <|
  (W3_keep m ρ c main_arg8 (by decide)).trans <|
  (W2_keep m ρ c main_arg8 (by decide)).trans <|
  (W1_keep m ρ c main_arg8 (by decide)).trans rfl

/-- `main_arg9` reaches the end as launched. -/
theorem W109_main_arg9 (c : Dev nD) : W109 m ρ c (Proc.devRef .tc main_arg9) = m ((c : Thread nD τ).loc main_arg9) :=
  (W109_keep m ρ c main_arg9 (by decide)).trans <|
  (W108_keep m ρ c main_arg9 (by decide)).trans <|
  (W107_keep m ρ c main_arg9 (by decide)).trans <|
  (W106_keep m ρ c main_arg9 (by decide)).trans <|
  (W105_keep m ρ c main_arg9 (by decide)).trans <|
  (W104_keep m ρ c main_arg9 (by decide)).trans <|
  (W103_keep m ρ c main_arg9 (by decide)).trans <|
  (W102_keep m ρ c main_arg9 (by decide)).trans <|
  (W101_keep m ρ c main_arg9 (by decide)).trans <|
  (W100_keep m ρ c main_arg9 (by decide)).trans <|
  (W99_keep m ρ c main_arg9 (by decide)).trans <|
  (W98_keep m ρ c main_arg9 (by decide)).trans <|
  (W97_keep m ρ c main_arg9 (by decide)).trans <|
  (W96_keep m ρ c main_arg9 (by decide)).trans <|
  (W95_keep m ρ c main_arg9 (by decide)).trans <|
  (W94_keep m ρ c main_arg9 (by decide)).trans <|
  (W93_keep m ρ c main_arg9 (by decide)).trans <|
  (W92_keep m ρ c main_arg9 (by decide)).trans <|
  (W91_keep m ρ c main_arg9 (by decide)).trans <|
  (W90_keep m ρ c main_arg9 (by decide)).trans <|
  (W89_keep m ρ c main_arg9 (by decide)).trans <|
  (W88_keep m ρ c main_arg9 (by decide)).trans <|
  (W87_keep m ρ c main_arg9 (by decide)).trans <|
  (W86_keep m ρ c main_arg9 (by decide)).trans <|
  (W85_keep m ρ c main_arg9 (by decide)).trans <|
  (W84_keep m ρ c main_arg9 (by decide)).trans <|
  (W83_keep m ρ c main_arg9 (by decide)).trans <|
  (W82_keep m ρ c main_arg9 (by decide)).trans <|
  (W81_keep m ρ c main_arg9 (by decide)).trans <|
  (W80_keep m ρ c main_arg9 (by decide)).trans <|
  (W79_keep m ρ c main_arg9 (by decide)).trans <|
  (W78_keep m ρ c main_arg9 (by decide)).trans <|
  (W77_keep m ρ c main_arg9 (by decide)).trans <|
  (W76_keep m ρ c main_arg9 (by decide)).trans <|
  (W75_keep m ρ c main_arg9 (by decide)).trans <|
  (W74_keep m ρ c main_arg9 (by decide)).trans <|
  (W73_keep m ρ c main_arg9 (by decide)).trans <|
  (W72_keep m ρ c main_arg9 (by decide)).trans <|
  (W71_keep m ρ c main_arg9 (by decide)).trans <|
  (W70_keep m ρ c main_arg9 (by decide)).trans <|
  (W69_keep m ρ c main_arg9 (by decide)).trans <|
  (W68_keep m ρ c main_arg9 (by decide)).trans <|
  (W67_keep m ρ c main_arg9 (by decide)).trans <|
  (W66_keep m ρ c main_arg9 (by decide)).trans <|
  (W65_keep m ρ c main_arg9 (by decide)).trans <|
  (W64_keep m ρ c main_arg9 (by decide)).trans <|
  (W63_keep m ρ c main_arg9 (by decide)).trans <|
  (W62_keep m ρ c main_arg9 (by decide)).trans <|
  (W61_keep m ρ c main_arg9 (by decide)).trans <|
  (W60_keep m ρ c main_arg9 (by decide)).trans <|
  (W59_keep m ρ c main_arg9 (by decide)).trans <|
  (W58_keep m ρ c main_arg9 (by decide)).trans <|
  (W57_keep m ρ c main_arg9 (by decide)).trans <|
  (W56_keep m ρ c main_arg9 (by decide)).trans <|
  (W55_keep m ρ c main_arg9 (by decide)).trans <|
  (W54_keep m ρ c main_arg9 (by decide)).trans <|
  (W53_keep m ρ c main_arg9 (by decide)).trans <|
  (W52_keep m ρ c main_arg9 (by decide)).trans <|
  (W51_keep m ρ c main_arg9 (by decide)).trans <|
  (W50_keep m ρ c main_arg9 (by decide)).trans <|
  (W49_keep m ρ c main_arg9 (by decide)).trans <|
  (W48_keep m ρ c main_arg9 (by decide)).trans <|
  (W47_keep m ρ c main_arg9 (by decide)).trans <|
  (W46_keep m ρ c main_arg9 (by decide)).trans <|
  (W45_keep m ρ c main_arg9 (by decide)).trans <|
  (W44_keep m ρ c main_arg9 (by decide)).trans <|
  (W43_keep m ρ c main_arg9 (by decide)).trans <|
  (W42_keep m ρ c main_arg9 (by decide)).trans <|
  (W41_keep m ρ c main_arg9 (by decide)).trans <|
  (W40_keep m ρ c main_arg9 (by decide)).trans <|
  (W39_keep m ρ c main_arg9 (by decide)).trans <|
  (W38_keep m ρ c main_arg9 (by decide)).trans <|
  (W37_keep m ρ c main_arg9 (by decide)).trans <|
  (W36_keep m ρ c main_arg9 (by decide)).trans <|
  (W35_keep m ρ c main_arg9 (by decide)).trans <|
  (W34_keep m ρ c main_arg9 (by decide)).trans <|
  (W33_keep m ρ c main_arg9 (by decide)).trans <|
  (W32_keep m ρ c main_arg9 (by decide)).trans <|
  (W31_keep m ρ c main_arg9 (by decide)).trans <|
  (W30_keep m ρ c main_arg9 (by decide)).trans <|
  (W29_keep m ρ c main_arg9 (by decide)).trans <|
  (W28_keep m ρ c main_arg9 (by decide)).trans <|
  (W27_keep m ρ c main_arg9 (by decide)).trans <|
  (W26_keep m ρ c main_arg9 (by decide)).trans <|
  (W25_keep m ρ c main_arg9 (by decide)).trans <|
  (W24_keep m ρ c main_arg9 (by decide)).trans <|
  (W23_keep m ρ c main_arg9 (by decide)).trans <|
  (W22_keep m ρ c main_arg9 (by decide)).trans <|
  (W21_keep m ρ c main_arg9 (by decide)).trans <|
  (W20_keep m ρ c main_arg9 (by decide)).trans <|
  (W19_keep m ρ c main_arg9 (by decide)).trans <|
  (W18_keep m ρ c main_arg9 (by decide)).trans <|
  (W17_keep m ρ c main_arg9 (by decide)).trans <|
  (W16_keep m ρ c main_arg9 (by decide)).trans <|
  (W15_keep m ρ c main_arg9 (by decide)).trans <|
  (W14_keep m ρ c main_arg9 (by decide)).trans <|
  (W13_keep m ρ c main_arg9 (by decide)).trans <|
  (W12_keep m ρ c main_arg9 (by decide)).trans <|
  (W11_keep m ρ c main_arg9 (by decide)).trans <|
  (W10_keep m ρ c main_arg9 (by decide)).trans <|
  (W9_keep m ρ c main_arg9 (by decide)).trans <|
  (W8_keep m ρ c main_arg9 (by decide)).trans <|
  (W7_keep m ρ c main_arg9 (by decide)).trans <|
  (W6_keep m ρ c main_arg9 (by decide)).trans <|
  (W5_keep m ρ c main_arg9 (by decide)).trans <|
  (W4_keep m ρ c main_arg9 (by decide)).trans <|
  (W3_keep m ρ c main_arg9 (by decide)).trans <|
  (W2_keep m ρ c main_arg9 (by decide)).trans <|
  (W1_keep m ρ c main_arg9 (by decide)).trans rfl

/-- `main_arg10` reaches the end as launched. -/
theorem W109_main_arg10 (c : Dev nD) : W109 m ρ c (Proc.devRef .tc main_arg10) = m ((c : Thread nD τ).loc main_arg10) :=
  (W109_keep m ρ c main_arg10 (by decide)).trans <|
  (W108_keep m ρ c main_arg10 (by decide)).trans <|
  (W107_keep m ρ c main_arg10 (by decide)).trans <|
  (W106_keep m ρ c main_arg10 (by decide)).trans <|
  (W105_keep m ρ c main_arg10 (by decide)).trans <|
  (W104_keep m ρ c main_arg10 (by decide)).trans <|
  (W103_keep m ρ c main_arg10 (by decide)).trans <|
  (W102_keep m ρ c main_arg10 (by decide)).trans <|
  (W101_keep m ρ c main_arg10 (by decide)).trans <|
  (W100_keep m ρ c main_arg10 (by decide)).trans <|
  (W99_keep m ρ c main_arg10 (by decide)).trans <|
  (W98_keep m ρ c main_arg10 (by decide)).trans <|
  (W97_keep m ρ c main_arg10 (by decide)).trans <|
  (W96_keep m ρ c main_arg10 (by decide)).trans <|
  (W95_keep m ρ c main_arg10 (by decide)).trans <|
  (W94_keep m ρ c main_arg10 (by decide)).trans <|
  (W93_keep m ρ c main_arg10 (by decide)).trans <|
  (W92_keep m ρ c main_arg10 (by decide)).trans <|
  (W91_keep m ρ c main_arg10 (by decide)).trans <|
  (W90_keep m ρ c main_arg10 (by decide)).trans <|
  (W89_keep m ρ c main_arg10 (by decide)).trans <|
  (W88_keep m ρ c main_arg10 (by decide)).trans <|
  (W87_keep m ρ c main_arg10 (by decide)).trans <|
  (W86_keep m ρ c main_arg10 (by decide)).trans <|
  (W85_keep m ρ c main_arg10 (by decide)).trans <|
  (W84_keep m ρ c main_arg10 (by decide)).trans <|
  (W83_keep m ρ c main_arg10 (by decide)).trans <|
  (W82_keep m ρ c main_arg10 (by decide)).trans <|
  (W81_keep m ρ c main_arg10 (by decide)).trans <|
  (W80_keep m ρ c main_arg10 (by decide)).trans <|
  (W79_keep m ρ c main_arg10 (by decide)).trans <|
  (W78_keep m ρ c main_arg10 (by decide)).trans <|
  (W77_keep m ρ c main_arg10 (by decide)).trans <|
  (W76_keep m ρ c main_arg10 (by decide)).trans <|
  (W75_keep m ρ c main_arg10 (by decide)).trans <|
  (W74_keep m ρ c main_arg10 (by decide)).trans <|
  (W73_keep m ρ c main_arg10 (by decide)).trans <|
  (W72_keep m ρ c main_arg10 (by decide)).trans <|
  (W71_keep m ρ c main_arg10 (by decide)).trans <|
  (W70_keep m ρ c main_arg10 (by decide)).trans <|
  (W69_keep m ρ c main_arg10 (by decide)).trans <|
  (W68_keep m ρ c main_arg10 (by decide)).trans <|
  (W67_keep m ρ c main_arg10 (by decide)).trans <|
  (W66_keep m ρ c main_arg10 (by decide)).trans <|
  (W65_keep m ρ c main_arg10 (by decide)).trans <|
  (W64_keep m ρ c main_arg10 (by decide)).trans <|
  (W63_keep m ρ c main_arg10 (by decide)).trans <|
  (W62_keep m ρ c main_arg10 (by decide)).trans <|
  (W61_keep m ρ c main_arg10 (by decide)).trans <|
  (W60_keep m ρ c main_arg10 (by decide)).trans <|
  (W59_keep m ρ c main_arg10 (by decide)).trans <|
  (W58_keep m ρ c main_arg10 (by decide)).trans <|
  (W57_keep m ρ c main_arg10 (by decide)).trans <|
  (W56_keep m ρ c main_arg10 (by decide)).trans <|
  (W55_keep m ρ c main_arg10 (by decide)).trans <|
  (W54_keep m ρ c main_arg10 (by decide)).trans <|
  (W53_keep m ρ c main_arg10 (by decide)).trans <|
  (W52_keep m ρ c main_arg10 (by decide)).trans <|
  (W51_keep m ρ c main_arg10 (by decide)).trans <|
  (W50_keep m ρ c main_arg10 (by decide)).trans <|
  (W49_keep m ρ c main_arg10 (by decide)).trans <|
  (W48_keep m ρ c main_arg10 (by decide)).trans <|
  (W47_keep m ρ c main_arg10 (by decide)).trans <|
  (W46_keep m ρ c main_arg10 (by decide)).trans <|
  (W45_keep m ρ c main_arg10 (by decide)).trans <|
  (W44_keep m ρ c main_arg10 (by decide)).trans <|
  (W43_keep m ρ c main_arg10 (by decide)).trans <|
  (W42_keep m ρ c main_arg10 (by decide)).trans <|
  (W41_keep m ρ c main_arg10 (by decide)).trans <|
  (W40_keep m ρ c main_arg10 (by decide)).trans <|
  (W39_keep m ρ c main_arg10 (by decide)).trans <|
  (W38_keep m ρ c main_arg10 (by decide)).trans <|
  (W37_keep m ρ c main_arg10 (by decide)).trans <|
  (W36_keep m ρ c main_arg10 (by decide)).trans <|
  (W35_keep m ρ c main_arg10 (by decide)).trans <|
  (W34_keep m ρ c main_arg10 (by decide)).trans <|
  (W33_keep m ρ c main_arg10 (by decide)).trans <|
  (W32_keep m ρ c main_arg10 (by decide)).trans <|
  (W31_keep m ρ c main_arg10 (by decide)).trans <|
  (W30_keep m ρ c main_arg10 (by decide)).trans <|
  (W29_keep m ρ c main_arg10 (by decide)).trans <|
  (W28_keep m ρ c main_arg10 (by decide)).trans <|
  (W27_keep m ρ c main_arg10 (by decide)).trans <|
  (W26_keep m ρ c main_arg10 (by decide)).trans <|
  (W25_keep m ρ c main_arg10 (by decide)).trans <|
  (W24_keep m ρ c main_arg10 (by decide)).trans <|
  (W23_keep m ρ c main_arg10 (by decide)).trans <|
  (W22_keep m ρ c main_arg10 (by decide)).trans <|
  (W21_keep m ρ c main_arg10 (by decide)).trans <|
  (W20_keep m ρ c main_arg10 (by decide)).trans <|
  (W19_keep m ρ c main_arg10 (by decide)).trans <|
  (W18_keep m ρ c main_arg10 (by decide)).trans <|
  (W17_keep m ρ c main_arg10 (by decide)).trans <|
  (W16_keep m ρ c main_arg10 (by decide)).trans <|
  (W15_keep m ρ c main_arg10 (by decide)).trans <|
  (W14_keep m ρ c main_arg10 (by decide)).trans <|
  (W13_keep m ρ c main_arg10 (by decide)).trans <|
  (W12_keep m ρ c main_arg10 (by decide)).trans <|
  (W11_keep m ρ c main_arg10 (by decide)).trans <|
  (W10_keep m ρ c main_arg10 (by decide)).trans <|
  (W9_keep m ρ c main_arg10 (by decide)).trans <|
  (W8_keep m ρ c main_arg10 (by decide)).trans <|
  (W7_keep m ρ c main_arg10 (by decide)).trans <|
  (W6_keep m ρ c main_arg10 (by decide)).trans <|
  (W5_keep m ρ c main_arg10 (by decide)).trans <|
  (W4_keep m ρ c main_arg10 (by decide)).trans <|
  (W3_keep m ρ c main_arg10 (by decide)).trans <|
  (W2_keep m ρ c main_arg10 (by decide)).trans <|
  (W1_keep m ρ c main_arg10 (by decide)).trans rfl

/-- `main_arg11` reaches the end as launched. -/
theorem W109_main_arg11 (c : Dev nD) : W109 m ρ c (Proc.devRef .tc main_arg11) = m ((c : Thread nD τ).loc main_arg11) :=
  (W109_keep m ρ c main_arg11 (by decide)).trans <|
  (W108_keep m ρ c main_arg11 (by decide)).trans <|
  (W107_keep m ρ c main_arg11 (by decide)).trans <|
  (W106_keep m ρ c main_arg11 (by decide)).trans <|
  (W105_keep m ρ c main_arg11 (by decide)).trans <|
  (W104_keep m ρ c main_arg11 (by decide)).trans <|
  (W103_keep m ρ c main_arg11 (by decide)).trans <|
  (W102_keep m ρ c main_arg11 (by decide)).trans <|
  (W101_keep m ρ c main_arg11 (by decide)).trans <|
  (W100_keep m ρ c main_arg11 (by decide)).trans <|
  (W99_keep m ρ c main_arg11 (by decide)).trans <|
  (W98_keep m ρ c main_arg11 (by decide)).trans <|
  (W97_keep m ρ c main_arg11 (by decide)).trans <|
  (W96_keep m ρ c main_arg11 (by decide)).trans <|
  (W95_keep m ρ c main_arg11 (by decide)).trans <|
  (W94_keep m ρ c main_arg11 (by decide)).trans <|
  (W93_keep m ρ c main_arg11 (by decide)).trans <|
  (W92_keep m ρ c main_arg11 (by decide)).trans <|
  (W91_keep m ρ c main_arg11 (by decide)).trans <|
  (W90_keep m ρ c main_arg11 (by decide)).trans <|
  (W89_keep m ρ c main_arg11 (by decide)).trans <|
  (W88_keep m ρ c main_arg11 (by decide)).trans <|
  (W87_keep m ρ c main_arg11 (by decide)).trans <|
  (W86_keep m ρ c main_arg11 (by decide)).trans <|
  (W85_keep m ρ c main_arg11 (by decide)).trans <|
  (W84_keep m ρ c main_arg11 (by decide)).trans <|
  (W83_keep m ρ c main_arg11 (by decide)).trans <|
  (W82_keep m ρ c main_arg11 (by decide)).trans <|
  (W81_keep m ρ c main_arg11 (by decide)).trans <|
  (W80_keep m ρ c main_arg11 (by decide)).trans <|
  (W79_keep m ρ c main_arg11 (by decide)).trans <|
  (W78_keep m ρ c main_arg11 (by decide)).trans <|
  (W77_keep m ρ c main_arg11 (by decide)).trans <|
  (W76_keep m ρ c main_arg11 (by decide)).trans <|
  (W75_keep m ρ c main_arg11 (by decide)).trans <|
  (W74_keep m ρ c main_arg11 (by decide)).trans <|
  (W73_keep m ρ c main_arg11 (by decide)).trans <|
  (W72_keep m ρ c main_arg11 (by decide)).trans <|
  (W71_keep m ρ c main_arg11 (by decide)).trans <|
  (W70_keep m ρ c main_arg11 (by decide)).trans <|
  (W69_keep m ρ c main_arg11 (by decide)).trans <|
  (W68_keep m ρ c main_arg11 (by decide)).trans <|
  (W67_keep m ρ c main_arg11 (by decide)).trans <|
  (W66_keep m ρ c main_arg11 (by decide)).trans <|
  (W65_keep m ρ c main_arg11 (by decide)).trans <|
  (W64_keep m ρ c main_arg11 (by decide)).trans <|
  (W63_keep m ρ c main_arg11 (by decide)).trans <|
  (W62_keep m ρ c main_arg11 (by decide)).trans <|
  (W61_keep m ρ c main_arg11 (by decide)).trans <|
  (W60_keep m ρ c main_arg11 (by decide)).trans <|
  (W59_keep m ρ c main_arg11 (by decide)).trans <|
  (W58_keep m ρ c main_arg11 (by decide)).trans <|
  (W57_keep m ρ c main_arg11 (by decide)).trans <|
  (W56_keep m ρ c main_arg11 (by decide)).trans <|
  (W55_keep m ρ c main_arg11 (by decide)).trans <|
  (W54_keep m ρ c main_arg11 (by decide)).trans <|
  (W53_keep m ρ c main_arg11 (by decide)).trans <|
  (W52_keep m ρ c main_arg11 (by decide)).trans <|
  (W51_keep m ρ c main_arg11 (by decide)).trans <|
  (W50_keep m ρ c main_arg11 (by decide)).trans <|
  (W49_keep m ρ c main_arg11 (by decide)).trans <|
  (W48_keep m ρ c main_arg11 (by decide)).trans <|
  (W47_keep m ρ c main_arg11 (by decide)).trans <|
  (W46_keep m ρ c main_arg11 (by decide)).trans <|
  (W45_keep m ρ c main_arg11 (by decide)).trans <|
  (W44_keep m ρ c main_arg11 (by decide)).trans <|
  (W43_keep m ρ c main_arg11 (by decide)).trans <|
  (W42_keep m ρ c main_arg11 (by decide)).trans <|
  (W41_keep m ρ c main_arg11 (by decide)).trans <|
  (W40_keep m ρ c main_arg11 (by decide)).trans <|
  (W39_keep m ρ c main_arg11 (by decide)).trans <|
  (W38_keep m ρ c main_arg11 (by decide)).trans <|
  (W37_keep m ρ c main_arg11 (by decide)).trans <|
  (W36_keep m ρ c main_arg11 (by decide)).trans <|
  (W35_keep m ρ c main_arg11 (by decide)).trans <|
  (W34_keep m ρ c main_arg11 (by decide)).trans <|
  (W33_keep m ρ c main_arg11 (by decide)).trans <|
  (W32_keep m ρ c main_arg11 (by decide)).trans <|
  (W31_keep m ρ c main_arg11 (by decide)).trans <|
  (W30_keep m ρ c main_arg11 (by decide)).trans <|
  (W29_keep m ρ c main_arg11 (by decide)).trans <|
  (W28_keep m ρ c main_arg11 (by decide)).trans <|
  (W27_keep m ρ c main_arg11 (by decide)).trans <|
  (W26_keep m ρ c main_arg11 (by decide)).trans <|
  (W25_keep m ρ c main_arg11 (by decide)).trans <|
  (W24_keep m ρ c main_arg11 (by decide)).trans <|
  (W23_keep m ρ c main_arg11 (by decide)).trans <|
  (W22_keep m ρ c main_arg11 (by decide)).trans <|
  (W21_keep m ρ c main_arg11 (by decide)).trans <|
  (W20_keep m ρ c main_arg11 (by decide)).trans <|
  (W19_keep m ρ c main_arg11 (by decide)).trans <|
  (W18_keep m ρ c main_arg11 (by decide)).trans <|
  (W17_keep m ρ c main_arg11 (by decide)).trans <|
  (W16_keep m ρ c main_arg11 (by decide)).trans <|
  (W15_keep m ρ c main_arg11 (by decide)).trans <|
  (W14_keep m ρ c main_arg11 (by decide)).trans <|
  (W13_keep m ρ c main_arg11 (by decide)).trans <|
  (W12_keep m ρ c main_arg11 (by decide)).trans <|
  (W11_keep m ρ c main_arg11 (by decide)).trans <|
  (W10_keep m ρ c main_arg11 (by decide)).trans <|
  (W9_keep m ρ c main_arg11 (by decide)).trans <|
  (W8_keep m ρ c main_arg11 (by decide)).trans <|
  (W7_keep m ρ c main_arg11 (by decide)).trans <|
  (W6_keep m ρ c main_arg11 (by decide)).trans <|
  (W5_keep m ρ c main_arg11 (by decide)).trans <|
  (W4_keep m ρ c main_arg11 (by decide)).trans <|
  (W3_keep m ρ c main_arg11 (by decide)).trans <|
  (W2_keep m ρ c main_arg11 (by decide)).trans <|
  (W1_keep m ρ c main_arg11 (by decide)).trans rfl

/-- `main_arg12` reaches the end as launched. -/
theorem W109_main_arg12 (c : Dev nD) : W109 m ρ c (Proc.devRef .tc main_arg12) = m ((c : Thread nD τ).loc main_arg12) :=
  (W109_keep m ρ c main_arg12 (by decide)).trans <|
  (W108_keep m ρ c main_arg12 (by decide)).trans <|
  (W107_keep m ρ c main_arg12 (by decide)).trans <|
  (W106_keep m ρ c main_arg12 (by decide)).trans <|
  (W105_keep m ρ c main_arg12 (by decide)).trans <|
  (W104_keep m ρ c main_arg12 (by decide)).trans <|
  (W103_keep m ρ c main_arg12 (by decide)).trans <|
  (W102_keep m ρ c main_arg12 (by decide)).trans <|
  (W101_keep m ρ c main_arg12 (by decide)).trans <|
  (W100_keep m ρ c main_arg12 (by decide)).trans <|
  (W99_keep m ρ c main_arg12 (by decide)).trans <|
  (W98_keep m ρ c main_arg12 (by decide)).trans <|
  (W97_keep m ρ c main_arg12 (by decide)).trans <|
  (W96_keep m ρ c main_arg12 (by decide)).trans <|
  (W95_keep m ρ c main_arg12 (by decide)).trans <|
  (W94_keep m ρ c main_arg12 (by decide)).trans <|
  (W93_keep m ρ c main_arg12 (by decide)).trans <|
  (W92_keep m ρ c main_arg12 (by decide)).trans <|
  (W91_keep m ρ c main_arg12 (by decide)).trans <|
  (W90_keep m ρ c main_arg12 (by decide)).trans <|
  (W89_keep m ρ c main_arg12 (by decide)).trans <|
  (W88_keep m ρ c main_arg12 (by decide)).trans <|
  (W87_keep m ρ c main_arg12 (by decide)).trans <|
  (W86_keep m ρ c main_arg12 (by decide)).trans <|
  (W85_keep m ρ c main_arg12 (by decide)).trans <|
  (W84_keep m ρ c main_arg12 (by decide)).trans <|
  (W83_keep m ρ c main_arg12 (by decide)).trans <|
  (W82_keep m ρ c main_arg12 (by decide)).trans <|
  (W81_keep m ρ c main_arg12 (by decide)).trans <|
  (W80_keep m ρ c main_arg12 (by decide)).trans <|
  (W79_keep m ρ c main_arg12 (by decide)).trans <|
  (W78_keep m ρ c main_arg12 (by decide)).trans <|
  (W77_keep m ρ c main_arg12 (by decide)).trans <|
  (W76_keep m ρ c main_arg12 (by decide)).trans <|
  (W75_keep m ρ c main_arg12 (by decide)).trans <|
  (W74_keep m ρ c main_arg12 (by decide)).trans <|
  (W73_keep m ρ c main_arg12 (by decide)).trans <|
  (W72_keep m ρ c main_arg12 (by decide)).trans <|
  (W71_keep m ρ c main_arg12 (by decide)).trans <|
  (W70_keep m ρ c main_arg12 (by decide)).trans <|
  (W69_keep m ρ c main_arg12 (by decide)).trans <|
  (W68_keep m ρ c main_arg12 (by decide)).trans <|
  (W67_keep m ρ c main_arg12 (by decide)).trans <|
  (W66_keep m ρ c main_arg12 (by decide)).trans <|
  (W65_keep m ρ c main_arg12 (by decide)).trans <|
  (W64_keep m ρ c main_arg12 (by decide)).trans <|
  (W63_keep m ρ c main_arg12 (by decide)).trans <|
  (W62_keep m ρ c main_arg12 (by decide)).trans <|
  (W61_keep m ρ c main_arg12 (by decide)).trans <|
  (W60_keep m ρ c main_arg12 (by decide)).trans <|
  (W59_keep m ρ c main_arg12 (by decide)).trans <|
  (W58_keep m ρ c main_arg12 (by decide)).trans <|
  (W57_keep m ρ c main_arg12 (by decide)).trans <|
  (W56_keep m ρ c main_arg12 (by decide)).trans <|
  (W55_keep m ρ c main_arg12 (by decide)).trans <|
  (W54_keep m ρ c main_arg12 (by decide)).trans <|
  (W53_keep m ρ c main_arg12 (by decide)).trans <|
  (W52_keep m ρ c main_arg12 (by decide)).trans <|
  (W51_keep m ρ c main_arg12 (by decide)).trans <|
  (W50_keep m ρ c main_arg12 (by decide)).trans <|
  (W49_keep m ρ c main_arg12 (by decide)).trans <|
  (W48_keep m ρ c main_arg12 (by decide)).trans <|
  (W47_keep m ρ c main_arg12 (by decide)).trans <|
  (W46_keep m ρ c main_arg12 (by decide)).trans <|
  (W45_keep m ρ c main_arg12 (by decide)).trans <|
  (W44_keep m ρ c main_arg12 (by decide)).trans <|
  (W43_keep m ρ c main_arg12 (by decide)).trans <|
  (W42_keep m ρ c main_arg12 (by decide)).trans <|
  (W41_keep m ρ c main_arg12 (by decide)).trans <|
  (W40_keep m ρ c main_arg12 (by decide)).trans <|
  (W39_keep m ρ c main_arg12 (by decide)).trans <|
  (W38_keep m ρ c main_arg12 (by decide)).trans <|
  (W37_keep m ρ c main_arg12 (by decide)).trans <|
  (W36_keep m ρ c main_arg12 (by decide)).trans <|
  (W35_keep m ρ c main_arg12 (by decide)).trans <|
  (W34_keep m ρ c main_arg12 (by decide)).trans <|
  (W33_keep m ρ c main_arg12 (by decide)).trans <|
  (W32_keep m ρ c main_arg12 (by decide)).trans <|
  (W31_keep m ρ c main_arg12 (by decide)).trans <|
  (W30_keep m ρ c main_arg12 (by decide)).trans <|
  (W29_keep m ρ c main_arg12 (by decide)).trans <|
  (W28_keep m ρ c main_arg12 (by decide)).trans <|
  (W27_keep m ρ c main_arg12 (by decide)).trans <|
  (W26_keep m ρ c main_arg12 (by decide)).trans <|
  (W25_keep m ρ c main_arg12 (by decide)).trans <|
  (W24_keep m ρ c main_arg12 (by decide)).trans <|
  (W23_keep m ρ c main_arg12 (by decide)).trans <|
  (W22_keep m ρ c main_arg12 (by decide)).trans <|
  (W21_keep m ρ c main_arg12 (by decide)).trans <|
  (W20_keep m ρ c main_arg12 (by decide)).trans <|
  (W19_keep m ρ c main_arg12 (by decide)).trans <|
  (W18_keep m ρ c main_arg12 (by decide)).trans <|
  (W17_keep m ρ c main_arg12 (by decide)).trans <|
  (W16_keep m ρ c main_arg12 (by decide)).trans <|
  (W15_keep m ρ c main_arg12 (by decide)).trans <|
  (W14_keep m ρ c main_arg12 (by decide)).trans <|
  (W13_keep m ρ c main_arg12 (by decide)).trans <|
  (W12_keep m ρ c main_arg12 (by decide)).trans <|
  (W11_keep m ρ c main_arg12 (by decide)).trans <|
  (W10_keep m ρ c main_arg12 (by decide)).trans <|
  (W9_keep m ρ c main_arg12 (by decide)).trans <|
  (W8_keep m ρ c main_arg12 (by decide)).trans <|
  (W7_keep m ρ c main_arg12 (by decide)).trans <|
  (W6_keep m ρ c main_arg12 (by decide)).trans <|
  (W5_keep m ρ c main_arg12 (by decide)).trans <|
  (W4_keep m ρ c main_arg12 (by decide)).trans <|
  (W3_keep m ρ c main_arg12 (by decide)).trans <|
  (W2_keep m ρ c main_arg12 (by decide)).trans <|
  (W1_keep m ρ c main_arg12 (by decide)).trans rfl

/-- `main_arg13` reaches the end as launched. -/
theorem W109_main_arg13 (c : Dev nD) : W109 m ρ c (Proc.devRef .tc main_arg13) = m ((c : Thread nD τ).loc main_arg13) :=
  (W109_keep m ρ c main_arg13 (by decide)).trans <|
  (W108_keep m ρ c main_arg13 (by decide)).trans <|
  (W107_keep m ρ c main_arg13 (by decide)).trans <|
  (W106_keep m ρ c main_arg13 (by decide)).trans <|
  (W105_keep m ρ c main_arg13 (by decide)).trans <|
  (W104_keep m ρ c main_arg13 (by decide)).trans <|
  (W103_keep m ρ c main_arg13 (by decide)).trans <|
  (W102_keep m ρ c main_arg13 (by decide)).trans <|
  (W101_keep m ρ c main_arg13 (by decide)).trans <|
  (W100_keep m ρ c main_arg13 (by decide)).trans <|
  (W99_keep m ρ c main_arg13 (by decide)).trans <|
  (W98_keep m ρ c main_arg13 (by decide)).trans <|
  (W97_keep m ρ c main_arg13 (by decide)).trans <|
  (W96_keep m ρ c main_arg13 (by decide)).trans <|
  (W95_keep m ρ c main_arg13 (by decide)).trans <|
  (W94_keep m ρ c main_arg13 (by decide)).trans <|
  (W93_keep m ρ c main_arg13 (by decide)).trans <|
  (W92_keep m ρ c main_arg13 (by decide)).trans <|
  (W91_keep m ρ c main_arg13 (by decide)).trans <|
  (W90_keep m ρ c main_arg13 (by decide)).trans <|
  (W89_keep m ρ c main_arg13 (by decide)).trans <|
  (W88_keep m ρ c main_arg13 (by decide)).trans <|
  (W87_keep m ρ c main_arg13 (by decide)).trans <|
  (W86_keep m ρ c main_arg13 (by decide)).trans <|
  (W85_keep m ρ c main_arg13 (by decide)).trans <|
  (W84_keep m ρ c main_arg13 (by decide)).trans <|
  (W83_keep m ρ c main_arg13 (by decide)).trans <|
  (W82_keep m ρ c main_arg13 (by decide)).trans <|
  (W81_keep m ρ c main_arg13 (by decide)).trans <|
  (W80_keep m ρ c main_arg13 (by decide)).trans <|
  (W79_keep m ρ c main_arg13 (by decide)).trans <|
  (W78_keep m ρ c main_arg13 (by decide)).trans <|
  (W77_keep m ρ c main_arg13 (by decide)).trans <|
  (W76_keep m ρ c main_arg13 (by decide)).trans <|
  (W75_keep m ρ c main_arg13 (by decide)).trans <|
  (W74_keep m ρ c main_arg13 (by decide)).trans <|
  (W73_keep m ρ c main_arg13 (by decide)).trans <|
  (W72_keep m ρ c main_arg13 (by decide)).trans <|
  (W71_keep m ρ c main_arg13 (by decide)).trans <|
  (W70_keep m ρ c main_arg13 (by decide)).trans <|
  (W69_keep m ρ c main_arg13 (by decide)).trans <|
  (W68_keep m ρ c main_arg13 (by decide)).trans <|
  (W67_keep m ρ c main_arg13 (by decide)).trans <|
  (W66_keep m ρ c main_arg13 (by decide)).trans <|
  (W65_keep m ρ c main_arg13 (by decide)).trans <|
  (W64_keep m ρ c main_arg13 (by decide)).trans <|
  (W63_keep m ρ c main_arg13 (by decide)).trans <|
  (W62_keep m ρ c main_arg13 (by decide)).trans <|
  (W61_keep m ρ c main_arg13 (by decide)).trans <|
  (W60_keep m ρ c main_arg13 (by decide)).trans <|
  (W59_keep m ρ c main_arg13 (by decide)).trans <|
  (W58_keep m ρ c main_arg13 (by decide)).trans <|
  (W57_keep m ρ c main_arg13 (by decide)).trans <|
  (W56_keep m ρ c main_arg13 (by decide)).trans <|
  (W55_keep m ρ c main_arg13 (by decide)).trans <|
  (W54_keep m ρ c main_arg13 (by decide)).trans <|
  (W53_keep m ρ c main_arg13 (by decide)).trans <|
  (W52_keep m ρ c main_arg13 (by decide)).trans <|
  (W51_keep m ρ c main_arg13 (by decide)).trans <|
  (W50_keep m ρ c main_arg13 (by decide)).trans <|
  (W49_keep m ρ c main_arg13 (by decide)).trans <|
  (W48_keep m ρ c main_arg13 (by decide)).trans <|
  (W47_keep m ρ c main_arg13 (by decide)).trans <|
  (W46_keep m ρ c main_arg13 (by decide)).trans <|
  (W45_keep m ρ c main_arg13 (by decide)).trans <|
  (W44_keep m ρ c main_arg13 (by decide)).trans <|
  (W43_keep m ρ c main_arg13 (by decide)).trans <|
  (W42_keep m ρ c main_arg13 (by decide)).trans <|
  (W41_keep m ρ c main_arg13 (by decide)).trans <|
  (W40_keep m ρ c main_arg13 (by decide)).trans <|
  (W39_keep m ρ c main_arg13 (by decide)).trans <|
  (W38_keep m ρ c main_arg13 (by decide)).trans <|
  (W37_keep m ρ c main_arg13 (by decide)).trans <|
  (W36_keep m ρ c main_arg13 (by decide)).trans <|
  (W35_keep m ρ c main_arg13 (by decide)).trans <|
  (W34_keep m ρ c main_arg13 (by decide)).trans <|
  (W33_keep m ρ c main_arg13 (by decide)).trans <|
  (W32_keep m ρ c main_arg13 (by decide)).trans <|
  (W31_keep m ρ c main_arg13 (by decide)).trans <|
  (W30_keep m ρ c main_arg13 (by decide)).trans <|
  (W29_keep m ρ c main_arg13 (by decide)).trans <|
  (W28_keep m ρ c main_arg13 (by decide)).trans <|
  (W27_keep m ρ c main_arg13 (by decide)).trans <|
  (W26_keep m ρ c main_arg13 (by decide)).trans <|
  (W25_keep m ρ c main_arg13 (by decide)).trans <|
  (W24_keep m ρ c main_arg13 (by decide)).trans <|
  (W23_keep m ρ c main_arg13 (by decide)).trans <|
  (W22_keep m ρ c main_arg13 (by decide)).trans <|
  (W21_keep m ρ c main_arg13 (by decide)).trans <|
  (W20_keep m ρ c main_arg13 (by decide)).trans <|
  (W19_keep m ρ c main_arg13 (by decide)).trans <|
  (W18_keep m ρ c main_arg13 (by decide)).trans <|
  (W17_keep m ρ c main_arg13 (by decide)).trans <|
  (W16_keep m ρ c main_arg13 (by decide)).trans <|
  (W15_keep m ρ c main_arg13 (by decide)).trans <|
  (W14_keep m ρ c main_arg13 (by decide)).trans <|
  (W13_keep m ρ c main_arg13 (by decide)).trans <|
  (W12_keep m ρ c main_arg13 (by decide)).trans <|
  (W11_keep m ρ c main_arg13 (by decide)).trans <|
  (W10_keep m ρ c main_arg13 (by decide)).trans <|
  (W9_keep m ρ c main_arg13 (by decide)).trans <|
  (W8_keep m ρ c main_arg13 (by decide)).trans <|
  (W7_keep m ρ c main_arg13 (by decide)).trans <|
  (W6_keep m ρ c main_arg13 (by decide)).trans <|
  (W5_keep m ρ c main_arg13 (by decide)).trans <|
  (W4_keep m ρ c main_arg13 (by decide)).trans <|
  (W3_keep m ρ c main_arg13 (by decide)).trans <|
  (W2_keep m ρ c main_arg13 (by decide)).trans <|
  (W1_keep m ρ c main_arg13 (by decide)).trans rfl

/-- `main_arg14` reaches the end as launched. -/
theorem W109_main_arg14 (c : Dev nD) : W109 m ρ c (Proc.devRef .tc main_arg14) = m ((c : Thread nD τ).loc main_arg14) :=
  (W109_keep m ρ c main_arg14 (by decide)).trans <|
  (W108_keep m ρ c main_arg14 (by decide)).trans <|
  (W107_keep m ρ c main_arg14 (by decide)).trans <|
  (W106_keep m ρ c main_arg14 (by decide)).trans <|
  (W105_keep m ρ c main_arg14 (by decide)).trans <|
  (W104_keep m ρ c main_arg14 (by decide)).trans <|
  (W103_keep m ρ c main_arg14 (by decide)).trans <|
  (W102_keep m ρ c main_arg14 (by decide)).trans <|
  (W101_keep m ρ c main_arg14 (by decide)).trans <|
  (W100_keep m ρ c main_arg14 (by decide)).trans <|
  (W99_keep m ρ c main_arg14 (by decide)).trans <|
  (W98_keep m ρ c main_arg14 (by decide)).trans <|
  (W97_keep m ρ c main_arg14 (by decide)).trans <|
  (W96_keep m ρ c main_arg14 (by decide)).trans <|
  (W95_keep m ρ c main_arg14 (by decide)).trans <|
  (W94_keep m ρ c main_arg14 (by decide)).trans <|
  (W93_keep m ρ c main_arg14 (by decide)).trans <|
  (W92_keep m ρ c main_arg14 (by decide)).trans <|
  (W91_keep m ρ c main_arg14 (by decide)).trans <|
  (W90_keep m ρ c main_arg14 (by decide)).trans <|
  (W89_keep m ρ c main_arg14 (by decide)).trans <|
  (W88_keep m ρ c main_arg14 (by decide)).trans <|
  (W87_keep m ρ c main_arg14 (by decide)).trans <|
  (W86_keep m ρ c main_arg14 (by decide)).trans <|
  (W85_keep m ρ c main_arg14 (by decide)).trans <|
  (W84_keep m ρ c main_arg14 (by decide)).trans <|
  (W83_keep m ρ c main_arg14 (by decide)).trans <|
  (W82_keep m ρ c main_arg14 (by decide)).trans <|
  (W81_keep m ρ c main_arg14 (by decide)).trans <|
  (W80_keep m ρ c main_arg14 (by decide)).trans <|
  (W79_keep m ρ c main_arg14 (by decide)).trans <|
  (W78_keep m ρ c main_arg14 (by decide)).trans <|
  (W77_keep m ρ c main_arg14 (by decide)).trans <|
  (W76_keep m ρ c main_arg14 (by decide)).trans <|
  (W75_keep m ρ c main_arg14 (by decide)).trans <|
  (W74_keep m ρ c main_arg14 (by decide)).trans <|
  (W73_keep m ρ c main_arg14 (by decide)).trans <|
  (W72_keep m ρ c main_arg14 (by decide)).trans <|
  (W71_keep m ρ c main_arg14 (by decide)).trans <|
  (W70_keep m ρ c main_arg14 (by decide)).trans <|
  (W69_keep m ρ c main_arg14 (by decide)).trans <|
  (W68_keep m ρ c main_arg14 (by decide)).trans <|
  (W67_keep m ρ c main_arg14 (by decide)).trans <|
  (W66_keep m ρ c main_arg14 (by decide)).trans <|
  (W65_keep m ρ c main_arg14 (by decide)).trans <|
  (W64_keep m ρ c main_arg14 (by decide)).trans <|
  (W63_keep m ρ c main_arg14 (by decide)).trans <|
  (W62_keep m ρ c main_arg14 (by decide)).trans <|
  (W61_keep m ρ c main_arg14 (by decide)).trans <|
  (W60_keep m ρ c main_arg14 (by decide)).trans <|
  (W59_keep m ρ c main_arg14 (by decide)).trans <|
  (W58_keep m ρ c main_arg14 (by decide)).trans <|
  (W57_keep m ρ c main_arg14 (by decide)).trans <|
  (W56_keep m ρ c main_arg14 (by decide)).trans <|
  (W55_keep m ρ c main_arg14 (by decide)).trans <|
  (W54_keep m ρ c main_arg14 (by decide)).trans <|
  (W53_keep m ρ c main_arg14 (by decide)).trans <|
  (W52_keep m ρ c main_arg14 (by decide)).trans <|
  (W51_keep m ρ c main_arg14 (by decide)).trans <|
  (W50_keep m ρ c main_arg14 (by decide)).trans <|
  (W49_keep m ρ c main_arg14 (by decide)).trans <|
  (W48_keep m ρ c main_arg14 (by decide)).trans <|
  (W47_keep m ρ c main_arg14 (by decide)).trans <|
  (W46_keep m ρ c main_arg14 (by decide)).trans <|
  (W45_keep m ρ c main_arg14 (by decide)).trans <|
  (W44_keep m ρ c main_arg14 (by decide)).trans <|
  (W43_keep m ρ c main_arg14 (by decide)).trans <|
  (W42_keep m ρ c main_arg14 (by decide)).trans <|
  (W41_keep m ρ c main_arg14 (by decide)).trans <|
  (W40_keep m ρ c main_arg14 (by decide)).trans <|
  (W39_keep m ρ c main_arg14 (by decide)).trans <|
  (W38_keep m ρ c main_arg14 (by decide)).trans <|
  (W37_keep m ρ c main_arg14 (by decide)).trans <|
  (W36_keep m ρ c main_arg14 (by decide)).trans <|
  (W35_keep m ρ c main_arg14 (by decide)).trans <|
  (W34_keep m ρ c main_arg14 (by decide)).trans <|
  (W33_keep m ρ c main_arg14 (by decide)).trans <|
  (W32_keep m ρ c main_arg14 (by decide)).trans <|
  (W31_keep m ρ c main_arg14 (by decide)).trans <|
  (W30_keep m ρ c main_arg14 (by decide)).trans <|
  (W29_keep m ρ c main_arg14 (by decide)).trans <|
  (W28_keep m ρ c main_arg14 (by decide)).trans <|
  (W27_keep m ρ c main_arg14 (by decide)).trans <|
  (W26_keep m ρ c main_arg14 (by decide)).trans <|
  (W25_keep m ρ c main_arg14 (by decide)).trans <|
  (W24_keep m ρ c main_arg14 (by decide)).trans <|
  (W23_keep m ρ c main_arg14 (by decide)).trans <|
  (W22_keep m ρ c main_arg14 (by decide)).trans <|
  (W21_keep m ρ c main_arg14 (by decide)).trans <|
  (W20_keep m ρ c main_arg14 (by decide)).trans <|
  (W19_keep m ρ c main_arg14 (by decide)).trans <|
  (W18_keep m ρ c main_arg14 (by decide)).trans <|
  (W17_keep m ρ c main_arg14 (by decide)).trans <|
  (W16_keep m ρ c main_arg14 (by decide)).trans <|
  (W15_keep m ρ c main_arg14 (by decide)).trans <|
  (W14_keep m ρ c main_arg14 (by decide)).trans <|
  (W13_keep m ρ c main_arg14 (by decide)).trans <|
  (W12_keep m ρ c main_arg14 (by decide)).trans <|
  (W11_keep m ρ c main_arg14 (by decide)).trans <|
  (W10_keep m ρ c main_arg14 (by decide)).trans <|
  (W9_keep m ρ c main_arg14 (by decide)).trans <|
  (W8_keep m ρ c main_arg14 (by decide)).trans <|
  (W7_keep m ρ c main_arg14 (by decide)).trans <|
  (W6_keep m ρ c main_arg14 (by decide)).trans <|
  (W5_keep m ρ c main_arg14 (by decide)).trans <|
  (W4_keep m ρ c main_arg14 (by decide)).trans <|
  (W3_keep m ρ c main_arg14 (by decide)).trans <|
  (W2_keep m ρ c main_arg14 (by decide)).trans <|
  (W1_keep m ρ c main_arg14 (by decide)).trans rfl

/-- `main_arg15` reaches the end as launched. -/
theorem W109_main_arg15 (c : Dev nD) : W109 m ρ c (Proc.devRef .tc main_arg15) = m ((c : Thread nD τ).loc main_arg15) :=
  (W109_keep m ρ c main_arg15 (by decide)).trans <|
  (W108_keep m ρ c main_arg15 (by decide)).trans <|
  (W107_keep m ρ c main_arg15 (by decide)).trans <|
  (W106_keep m ρ c main_arg15 (by decide)).trans <|
  (W105_keep m ρ c main_arg15 (by decide)).trans <|
  (W104_keep m ρ c main_arg15 (by decide)).trans <|
  (W103_keep m ρ c main_arg15 (by decide)).trans <|
  (W102_keep m ρ c main_arg15 (by decide)).trans <|
  (W101_keep m ρ c main_arg15 (by decide)).trans <|
  (W100_keep m ρ c main_arg15 (by decide)).trans <|
  (W99_keep m ρ c main_arg15 (by decide)).trans <|
  (W98_keep m ρ c main_arg15 (by decide)).trans <|
  (W97_keep m ρ c main_arg15 (by decide)).trans <|
  (W96_keep m ρ c main_arg15 (by decide)).trans <|
  (W95_keep m ρ c main_arg15 (by decide)).trans <|
  (W94_keep m ρ c main_arg15 (by decide)).trans <|
  (W93_keep m ρ c main_arg15 (by decide)).trans <|
  (W92_keep m ρ c main_arg15 (by decide)).trans <|
  (W91_keep m ρ c main_arg15 (by decide)).trans <|
  (W90_keep m ρ c main_arg15 (by decide)).trans <|
  (W89_keep m ρ c main_arg15 (by decide)).trans <|
  (W88_keep m ρ c main_arg15 (by decide)).trans <|
  (W87_keep m ρ c main_arg15 (by decide)).trans <|
  (W86_keep m ρ c main_arg15 (by decide)).trans <|
  (W85_keep m ρ c main_arg15 (by decide)).trans <|
  (W84_keep m ρ c main_arg15 (by decide)).trans <|
  (W83_keep m ρ c main_arg15 (by decide)).trans <|
  (W82_keep m ρ c main_arg15 (by decide)).trans <|
  (W81_keep m ρ c main_arg15 (by decide)).trans <|
  (W80_keep m ρ c main_arg15 (by decide)).trans <|
  (W79_keep m ρ c main_arg15 (by decide)).trans <|
  (W78_keep m ρ c main_arg15 (by decide)).trans <|
  (W77_keep m ρ c main_arg15 (by decide)).trans <|
  (W76_keep m ρ c main_arg15 (by decide)).trans <|
  (W75_keep m ρ c main_arg15 (by decide)).trans <|
  (W74_keep m ρ c main_arg15 (by decide)).trans <|
  (W73_keep m ρ c main_arg15 (by decide)).trans <|
  (W72_keep m ρ c main_arg15 (by decide)).trans <|
  (W71_keep m ρ c main_arg15 (by decide)).trans <|
  (W70_keep m ρ c main_arg15 (by decide)).trans <|
  (W69_keep m ρ c main_arg15 (by decide)).trans <|
  (W68_keep m ρ c main_arg15 (by decide)).trans <|
  (W67_keep m ρ c main_arg15 (by decide)).trans <|
  (W66_keep m ρ c main_arg15 (by decide)).trans <|
  (W65_keep m ρ c main_arg15 (by decide)).trans <|
  (W64_keep m ρ c main_arg15 (by decide)).trans <|
  (W63_keep m ρ c main_arg15 (by decide)).trans <|
  (W62_keep m ρ c main_arg15 (by decide)).trans <|
  (W61_keep m ρ c main_arg15 (by decide)).trans <|
  (W60_keep m ρ c main_arg15 (by decide)).trans <|
  (W59_keep m ρ c main_arg15 (by decide)).trans <|
  (W58_keep m ρ c main_arg15 (by decide)).trans <|
  (W57_keep m ρ c main_arg15 (by decide)).trans <|
  (W56_keep m ρ c main_arg15 (by decide)).trans <|
  (W55_keep m ρ c main_arg15 (by decide)).trans <|
  (W54_keep m ρ c main_arg15 (by decide)).trans <|
  (W53_keep m ρ c main_arg15 (by decide)).trans <|
  (W52_keep m ρ c main_arg15 (by decide)).trans <|
  (W51_keep m ρ c main_arg15 (by decide)).trans <|
  (W50_keep m ρ c main_arg15 (by decide)).trans <|
  (W49_keep m ρ c main_arg15 (by decide)).trans <|
  (W48_keep m ρ c main_arg15 (by decide)).trans <|
  (W47_keep m ρ c main_arg15 (by decide)).trans <|
  (W46_keep m ρ c main_arg15 (by decide)).trans <|
  (W45_keep m ρ c main_arg15 (by decide)).trans <|
  (W44_keep m ρ c main_arg15 (by decide)).trans <|
  (W43_keep m ρ c main_arg15 (by decide)).trans <|
  (W42_keep m ρ c main_arg15 (by decide)).trans <|
  (W41_keep m ρ c main_arg15 (by decide)).trans <|
  (W40_keep m ρ c main_arg15 (by decide)).trans <|
  (W39_keep m ρ c main_arg15 (by decide)).trans <|
  (W38_keep m ρ c main_arg15 (by decide)).trans <|
  (W37_keep m ρ c main_arg15 (by decide)).trans <|
  (W36_keep m ρ c main_arg15 (by decide)).trans <|
  (W35_keep m ρ c main_arg15 (by decide)).trans <|
  (W34_keep m ρ c main_arg15 (by decide)).trans <|
  (W33_keep m ρ c main_arg15 (by decide)).trans <|
  (W32_keep m ρ c main_arg15 (by decide)).trans <|
  (W31_keep m ρ c main_arg15 (by decide)).trans <|
  (W30_keep m ρ c main_arg15 (by decide)).trans <|
  (W29_keep m ρ c main_arg15 (by decide)).trans <|
  (W28_keep m ρ c main_arg15 (by decide)).trans <|
  (W27_keep m ρ c main_arg15 (by decide)).trans <|
  (W26_keep m ρ c main_arg15 (by decide)).trans <|
  (W25_keep m ρ c main_arg15 (by decide)).trans <|
  (W24_keep m ρ c main_arg15 (by decide)).trans <|
  (W23_keep m ρ c main_arg15 (by decide)).trans <|
  (W22_keep m ρ c main_arg15 (by decide)).trans <|
  (W21_keep m ρ c main_arg15 (by decide)).trans <|
  (W20_keep m ρ c main_arg15 (by decide)).trans <|
  (W19_keep m ρ c main_arg15 (by decide)).trans <|
  (W18_keep m ρ c main_arg15 (by decide)).trans <|
  (W17_keep m ρ c main_arg15 (by decide)).trans <|
  (W16_keep m ρ c main_arg15 (by decide)).trans <|
  (W15_keep m ρ c main_arg15 (by decide)).trans <|
  (W14_keep m ρ c main_arg15 (by decide)).trans <|
  (W13_keep m ρ c main_arg15 (by decide)).trans <|
  (W12_keep m ρ c main_arg15 (by decide)).trans <|
  (W11_keep m ρ c main_arg15 (by decide)).trans <|
  (W10_keep m ρ c main_arg15 (by decide)).trans <|
  (W9_keep m ρ c main_arg15 (by decide)).trans <|
  (W8_keep m ρ c main_arg15 (by decide)).trans <|
  (W7_keep m ρ c main_arg15 (by decide)).trans <|
  (W6_keep m ρ c main_arg15 (by decide)).trans <|
  (W5_keep m ρ c main_arg15 (by decide)).trans <|
  (W4_keep m ρ c main_arg15 (by decide)).trans <|
  (W3_keep m ρ c main_arg15 (by decide)).trans <|
  (W2_keep m ρ c main_arg15 (by decide)).trans <|
  (W1_keep m ρ c main_arg15 (by decide)).trans rfl

/-- `main_arg16` reaches the end as launched. -/
theorem W109_main_arg16 (c : Dev nD) : W109 m ρ c (Proc.devRef .tc main_arg16) = m ((c : Thread nD τ).loc main_arg16) :=
  (W109_keep m ρ c main_arg16 (by decide)).trans <|
  (W108_keep m ρ c main_arg16 (by decide)).trans <|
  (W107_keep m ρ c main_arg16 (by decide)).trans <|
  (W106_keep m ρ c main_arg16 (by decide)).trans <|
  (W105_keep m ρ c main_arg16 (by decide)).trans <|
  (W104_keep m ρ c main_arg16 (by decide)).trans <|
  (W103_keep m ρ c main_arg16 (by decide)).trans <|
  (W102_keep m ρ c main_arg16 (by decide)).trans <|
  (W101_keep m ρ c main_arg16 (by decide)).trans <|
  (W100_keep m ρ c main_arg16 (by decide)).trans <|
  (W99_keep m ρ c main_arg16 (by decide)).trans <|
  (W98_keep m ρ c main_arg16 (by decide)).trans <|
  (W97_keep m ρ c main_arg16 (by decide)).trans <|
  (W96_keep m ρ c main_arg16 (by decide)).trans <|
  (W95_keep m ρ c main_arg16 (by decide)).trans <|
  (W94_keep m ρ c main_arg16 (by decide)).trans <|
  (W93_keep m ρ c main_arg16 (by decide)).trans <|
  (W92_keep m ρ c main_arg16 (by decide)).trans <|
  (W91_keep m ρ c main_arg16 (by decide)).trans <|
  (W90_keep m ρ c main_arg16 (by decide)).trans <|
  (W89_keep m ρ c main_arg16 (by decide)).trans <|
  (W88_keep m ρ c main_arg16 (by decide)).trans <|
  (W87_keep m ρ c main_arg16 (by decide)).trans <|
  (W86_keep m ρ c main_arg16 (by decide)).trans <|
  (W85_keep m ρ c main_arg16 (by decide)).trans <|
  (W84_keep m ρ c main_arg16 (by decide)).trans <|
  (W83_keep m ρ c main_arg16 (by decide)).trans <|
  (W82_keep m ρ c main_arg16 (by decide)).trans <|
  (W81_keep m ρ c main_arg16 (by decide)).trans <|
  (W80_keep m ρ c main_arg16 (by decide)).trans <|
  (W79_keep m ρ c main_arg16 (by decide)).trans <|
  (W78_keep m ρ c main_arg16 (by decide)).trans <|
  (W77_keep m ρ c main_arg16 (by decide)).trans <|
  (W76_keep m ρ c main_arg16 (by decide)).trans <|
  (W75_keep m ρ c main_arg16 (by decide)).trans <|
  (W74_keep m ρ c main_arg16 (by decide)).trans <|
  (W73_keep m ρ c main_arg16 (by decide)).trans <|
  (W72_keep m ρ c main_arg16 (by decide)).trans <|
  (W71_keep m ρ c main_arg16 (by decide)).trans <|
  (W70_keep m ρ c main_arg16 (by decide)).trans <|
  (W69_keep m ρ c main_arg16 (by decide)).trans <|
  (W68_keep m ρ c main_arg16 (by decide)).trans <|
  (W67_keep m ρ c main_arg16 (by decide)).trans <|
  (W66_keep m ρ c main_arg16 (by decide)).trans <|
  (W65_keep m ρ c main_arg16 (by decide)).trans <|
  (W64_keep m ρ c main_arg16 (by decide)).trans <|
  (W63_keep m ρ c main_arg16 (by decide)).trans <|
  (W62_keep m ρ c main_arg16 (by decide)).trans <|
  (W61_keep m ρ c main_arg16 (by decide)).trans <|
  (W60_keep m ρ c main_arg16 (by decide)).trans <|
  (W59_keep m ρ c main_arg16 (by decide)).trans <|
  (W58_keep m ρ c main_arg16 (by decide)).trans <|
  (W57_keep m ρ c main_arg16 (by decide)).trans <|
  (W56_keep m ρ c main_arg16 (by decide)).trans <|
  (W55_keep m ρ c main_arg16 (by decide)).trans <|
  (W54_keep m ρ c main_arg16 (by decide)).trans <|
  (W53_keep m ρ c main_arg16 (by decide)).trans <|
  (W52_keep m ρ c main_arg16 (by decide)).trans <|
  (W51_keep m ρ c main_arg16 (by decide)).trans <|
  (W50_keep m ρ c main_arg16 (by decide)).trans <|
  (W49_keep m ρ c main_arg16 (by decide)).trans <|
  (W48_keep m ρ c main_arg16 (by decide)).trans <|
  (W47_keep m ρ c main_arg16 (by decide)).trans <|
  (W46_keep m ρ c main_arg16 (by decide)).trans <|
  (W45_keep m ρ c main_arg16 (by decide)).trans <|
  (W44_keep m ρ c main_arg16 (by decide)).trans <|
  (W43_keep m ρ c main_arg16 (by decide)).trans <|
  (W42_keep m ρ c main_arg16 (by decide)).trans <|
  (W41_keep m ρ c main_arg16 (by decide)).trans <|
  (W40_keep m ρ c main_arg16 (by decide)).trans <|
  (W39_keep m ρ c main_arg16 (by decide)).trans <|
  (W38_keep m ρ c main_arg16 (by decide)).trans <|
  (W37_keep m ρ c main_arg16 (by decide)).trans <|
  (W36_keep m ρ c main_arg16 (by decide)).trans <|
  (W35_keep m ρ c main_arg16 (by decide)).trans <|
  (W34_keep m ρ c main_arg16 (by decide)).trans <|
  (W33_keep m ρ c main_arg16 (by decide)).trans <|
  (W32_keep m ρ c main_arg16 (by decide)).trans <|
  (W31_keep m ρ c main_arg16 (by decide)).trans <|
  (W30_keep m ρ c main_arg16 (by decide)).trans <|
  (W29_keep m ρ c main_arg16 (by decide)).trans <|
  (W28_keep m ρ c main_arg16 (by decide)).trans <|
  (W27_keep m ρ c main_arg16 (by decide)).trans <|
  (W26_keep m ρ c main_arg16 (by decide)).trans <|
  (W25_keep m ρ c main_arg16 (by decide)).trans <|
  (W24_keep m ρ c main_arg16 (by decide)).trans <|
  (W23_keep m ρ c main_arg16 (by decide)).trans <|
  (W22_keep m ρ c main_arg16 (by decide)).trans <|
  (W21_keep m ρ c main_arg16 (by decide)).trans <|
  (W20_keep m ρ c main_arg16 (by decide)).trans <|
  (W19_keep m ρ c main_arg16 (by decide)).trans <|
  (W18_keep m ρ c main_arg16 (by decide)).trans <|
  (W17_keep m ρ c main_arg16 (by decide)).trans <|
  (W16_keep m ρ c main_arg16 (by decide)).trans <|
  (W15_keep m ρ c main_arg16 (by decide)).trans <|
  (W14_keep m ρ c main_arg16 (by decide)).trans <|
  (W13_keep m ρ c main_arg16 (by decide)).trans <|
  (W12_keep m ρ c main_arg16 (by decide)).trans <|
  (W11_keep m ρ c main_arg16 (by decide)).trans <|
  (W10_keep m ρ c main_arg16 (by decide)).trans <|
  (W9_keep m ρ c main_arg16 (by decide)).trans <|
  (W8_keep m ρ c main_arg16 (by decide)).trans <|
  (W7_keep m ρ c main_arg16 (by decide)).trans <|
  (W6_keep m ρ c main_arg16 (by decide)).trans <|
  (W5_keep m ρ c main_arg16 (by decide)).trans <|
  (W4_keep m ρ c main_arg16 (by decide)).trans <|
  (W3_keep m ρ c main_arg16 (by decide)).trans <|
  (W2_keep m ρ c main_arg16 (by decide)).trans <|
  (W1_keep m ρ c main_arg16 (by decide)).trans rfl

/-- `main_arg17` reaches the end as launched. -/
theorem W109_main_arg17 (c : Dev nD) : W109 m ρ c (Proc.devRef .tc main_arg17) = m ((c : Thread nD τ).loc main_arg17) :=
  (W109_keep m ρ c main_arg17 (by decide)).trans <|
  (W108_keep m ρ c main_arg17 (by decide)).trans <|
  (W107_keep m ρ c main_arg17 (by decide)).trans <|
  (W106_keep m ρ c main_arg17 (by decide)).trans <|
  (W105_keep m ρ c main_arg17 (by decide)).trans <|
  (W104_keep m ρ c main_arg17 (by decide)).trans <|
  (W103_keep m ρ c main_arg17 (by decide)).trans <|
  (W102_keep m ρ c main_arg17 (by decide)).trans <|
  (W101_keep m ρ c main_arg17 (by decide)).trans <|
  (W100_keep m ρ c main_arg17 (by decide)).trans <|
  (W99_keep m ρ c main_arg17 (by decide)).trans <|
  (W98_keep m ρ c main_arg17 (by decide)).trans <|
  (W97_keep m ρ c main_arg17 (by decide)).trans <|
  (W96_keep m ρ c main_arg17 (by decide)).trans <|
  (W95_keep m ρ c main_arg17 (by decide)).trans <|
  (W94_keep m ρ c main_arg17 (by decide)).trans <|
  (W93_keep m ρ c main_arg17 (by decide)).trans <|
  (W92_keep m ρ c main_arg17 (by decide)).trans <|
  (W91_keep m ρ c main_arg17 (by decide)).trans <|
  (W90_keep m ρ c main_arg17 (by decide)).trans <|
  (W89_keep m ρ c main_arg17 (by decide)).trans <|
  (W88_keep m ρ c main_arg17 (by decide)).trans <|
  (W87_keep m ρ c main_arg17 (by decide)).trans <|
  (W86_keep m ρ c main_arg17 (by decide)).trans <|
  (W85_keep m ρ c main_arg17 (by decide)).trans <|
  (W84_keep m ρ c main_arg17 (by decide)).trans <|
  (W83_keep m ρ c main_arg17 (by decide)).trans <|
  (W82_keep m ρ c main_arg17 (by decide)).trans <|
  (W81_keep m ρ c main_arg17 (by decide)).trans <|
  (W80_keep m ρ c main_arg17 (by decide)).trans <|
  (W79_keep m ρ c main_arg17 (by decide)).trans <|
  (W78_keep m ρ c main_arg17 (by decide)).trans <|
  (W77_keep m ρ c main_arg17 (by decide)).trans <|
  (W76_keep m ρ c main_arg17 (by decide)).trans <|
  (W75_keep m ρ c main_arg17 (by decide)).trans <|
  (W74_keep m ρ c main_arg17 (by decide)).trans <|
  (W73_keep m ρ c main_arg17 (by decide)).trans <|
  (W72_keep m ρ c main_arg17 (by decide)).trans <|
  (W71_keep m ρ c main_arg17 (by decide)).trans <|
  (W70_keep m ρ c main_arg17 (by decide)).trans <|
  (W69_keep m ρ c main_arg17 (by decide)).trans <|
  (W68_keep m ρ c main_arg17 (by decide)).trans <|
  (W67_keep m ρ c main_arg17 (by decide)).trans <|
  (W66_keep m ρ c main_arg17 (by decide)).trans <|
  (W65_keep m ρ c main_arg17 (by decide)).trans <|
  (W64_keep m ρ c main_arg17 (by decide)).trans <|
  (W63_keep m ρ c main_arg17 (by decide)).trans <|
  (W62_keep m ρ c main_arg17 (by decide)).trans <|
  (W61_keep m ρ c main_arg17 (by decide)).trans <|
  (W60_keep m ρ c main_arg17 (by decide)).trans <|
  (W59_keep m ρ c main_arg17 (by decide)).trans <|
  (W58_keep m ρ c main_arg17 (by decide)).trans <|
  (W57_keep m ρ c main_arg17 (by decide)).trans <|
  (W56_keep m ρ c main_arg17 (by decide)).trans <|
  (W55_keep m ρ c main_arg17 (by decide)).trans <|
  (W54_keep m ρ c main_arg17 (by decide)).trans <|
  (W53_keep m ρ c main_arg17 (by decide)).trans <|
  (W52_keep m ρ c main_arg17 (by decide)).trans <|
  (W51_keep m ρ c main_arg17 (by decide)).trans <|
  (W50_keep m ρ c main_arg17 (by decide)).trans <|
  (W49_keep m ρ c main_arg17 (by decide)).trans <|
  (W48_keep m ρ c main_arg17 (by decide)).trans <|
  (W47_keep m ρ c main_arg17 (by decide)).trans <|
  (W46_keep m ρ c main_arg17 (by decide)).trans <|
  (W45_keep m ρ c main_arg17 (by decide)).trans <|
  (W44_keep m ρ c main_arg17 (by decide)).trans <|
  (W43_keep m ρ c main_arg17 (by decide)).trans <|
  (W42_keep m ρ c main_arg17 (by decide)).trans <|
  (W41_keep m ρ c main_arg17 (by decide)).trans <|
  (W40_keep m ρ c main_arg17 (by decide)).trans <|
  (W39_keep m ρ c main_arg17 (by decide)).trans <|
  (W38_keep m ρ c main_arg17 (by decide)).trans <|
  (W37_keep m ρ c main_arg17 (by decide)).trans <|
  (W36_keep m ρ c main_arg17 (by decide)).trans <|
  (W35_keep m ρ c main_arg17 (by decide)).trans <|
  (W34_keep m ρ c main_arg17 (by decide)).trans <|
  (W33_keep m ρ c main_arg17 (by decide)).trans <|
  (W32_keep m ρ c main_arg17 (by decide)).trans <|
  (W31_keep m ρ c main_arg17 (by decide)).trans <|
  (W30_keep m ρ c main_arg17 (by decide)).trans <|
  (W29_keep m ρ c main_arg17 (by decide)).trans <|
  (W28_keep m ρ c main_arg17 (by decide)).trans <|
  (W27_keep m ρ c main_arg17 (by decide)).trans <|
  (W26_keep m ρ c main_arg17 (by decide)).trans <|
  (W25_keep m ρ c main_arg17 (by decide)).trans <|
  (W24_keep m ρ c main_arg17 (by decide)).trans <|
  (W23_keep m ρ c main_arg17 (by decide)).trans <|
  (W22_keep m ρ c main_arg17 (by decide)).trans <|
  (W21_keep m ρ c main_arg17 (by decide)).trans <|
  (W20_keep m ρ c main_arg17 (by decide)).trans <|
  (W19_keep m ρ c main_arg17 (by decide)).trans <|
  (W18_keep m ρ c main_arg17 (by decide)).trans <|
  (W17_keep m ρ c main_arg17 (by decide)).trans <|
  (W16_keep m ρ c main_arg17 (by decide)).trans <|
  (W15_keep m ρ c main_arg17 (by decide)).trans <|
  (W14_keep m ρ c main_arg17 (by decide)).trans <|
  (W13_keep m ρ c main_arg17 (by decide)).trans <|
  (W12_keep m ρ c main_arg17 (by decide)).trans <|
  (W11_keep m ρ c main_arg17 (by decide)).trans <|
  (W10_keep m ρ c main_arg17 (by decide)).trans <|
  (W9_keep m ρ c main_arg17 (by decide)).trans <|
  (W8_keep m ρ c main_arg17 (by decide)).trans <|
  (W7_keep m ρ c main_arg17 (by decide)).trans <|
  (W6_keep m ρ c main_arg17 (by decide)).trans <|
  (W5_keep m ρ c main_arg17 (by decide)).trans <|
  (W4_keep m ρ c main_arg17 (by decide)).trans <|
  (W3_keep m ρ c main_arg17 (by decide)).trans <|
  (W2_keep m ρ c main_arg17 (by decide)).trans <|
  (W1_keep m ρ c main_arg17 (by decide)).trans rfl

/-- `main_arg18` reaches the end as launched. -/
theorem W109_main_arg18 (c : Dev nD) : W109 m ρ c (Proc.devRef .tc main_arg18) = m ((c : Thread nD τ).loc main_arg18) :=
  (W109_keep m ρ c main_arg18 (by decide)).trans <|
  (W108_keep m ρ c main_arg18 (by decide)).trans <|
  (W107_keep m ρ c main_arg18 (by decide)).trans <|
  (W106_keep m ρ c main_arg18 (by decide)).trans <|
  (W105_keep m ρ c main_arg18 (by decide)).trans <|
  (W104_keep m ρ c main_arg18 (by decide)).trans <|
  (W103_keep m ρ c main_arg18 (by decide)).trans <|
  (W102_keep m ρ c main_arg18 (by decide)).trans <|
  (W101_keep m ρ c main_arg18 (by decide)).trans <|
  (W100_keep m ρ c main_arg18 (by decide)).trans <|
  (W99_keep m ρ c main_arg18 (by decide)).trans <|
  (W98_keep m ρ c main_arg18 (by decide)).trans <|
  (W97_keep m ρ c main_arg18 (by decide)).trans <|
  (W96_keep m ρ c main_arg18 (by decide)).trans <|
  (W95_keep m ρ c main_arg18 (by decide)).trans <|
  (W94_keep m ρ c main_arg18 (by decide)).trans <|
  (W93_keep m ρ c main_arg18 (by decide)).trans <|
  (W92_keep m ρ c main_arg18 (by decide)).trans <|
  (W91_keep m ρ c main_arg18 (by decide)).trans <|
  (W90_keep m ρ c main_arg18 (by decide)).trans <|
  (W89_keep m ρ c main_arg18 (by decide)).trans <|
  (W88_keep m ρ c main_arg18 (by decide)).trans <|
  (W87_keep m ρ c main_arg18 (by decide)).trans <|
  (W86_keep m ρ c main_arg18 (by decide)).trans <|
  (W85_keep m ρ c main_arg18 (by decide)).trans <|
  (W84_keep m ρ c main_arg18 (by decide)).trans <|
  (W83_keep m ρ c main_arg18 (by decide)).trans <|
  (W82_keep m ρ c main_arg18 (by decide)).trans <|
  (W81_keep m ρ c main_arg18 (by decide)).trans <|
  (W80_keep m ρ c main_arg18 (by decide)).trans <|
  (W79_keep m ρ c main_arg18 (by decide)).trans <|
  (W78_keep m ρ c main_arg18 (by decide)).trans <|
  (W77_keep m ρ c main_arg18 (by decide)).trans <|
  (W76_keep m ρ c main_arg18 (by decide)).trans <|
  (W75_keep m ρ c main_arg18 (by decide)).trans <|
  (W74_keep m ρ c main_arg18 (by decide)).trans <|
  (W73_keep m ρ c main_arg18 (by decide)).trans <|
  (W72_keep m ρ c main_arg18 (by decide)).trans <|
  (W71_keep m ρ c main_arg18 (by decide)).trans <|
  (W70_keep m ρ c main_arg18 (by decide)).trans <|
  (W69_keep m ρ c main_arg18 (by decide)).trans <|
  (W68_keep m ρ c main_arg18 (by decide)).trans <|
  (W67_keep m ρ c main_arg18 (by decide)).trans <|
  (W66_keep m ρ c main_arg18 (by decide)).trans <|
  (W65_keep m ρ c main_arg18 (by decide)).trans <|
  (W64_keep m ρ c main_arg18 (by decide)).trans <|
  (W63_keep m ρ c main_arg18 (by decide)).trans <|
  (W62_keep m ρ c main_arg18 (by decide)).trans <|
  (W61_keep m ρ c main_arg18 (by decide)).trans <|
  (W60_keep m ρ c main_arg18 (by decide)).trans <|
  (W59_keep m ρ c main_arg18 (by decide)).trans <|
  (W58_keep m ρ c main_arg18 (by decide)).trans <|
  (W57_keep m ρ c main_arg18 (by decide)).trans <|
  (W56_keep m ρ c main_arg18 (by decide)).trans <|
  (W55_keep m ρ c main_arg18 (by decide)).trans <|
  (W54_keep m ρ c main_arg18 (by decide)).trans <|
  (W53_keep m ρ c main_arg18 (by decide)).trans <|
  (W52_keep m ρ c main_arg18 (by decide)).trans <|
  (W51_keep m ρ c main_arg18 (by decide)).trans <|
  (W50_keep m ρ c main_arg18 (by decide)).trans <|
  (W49_keep m ρ c main_arg18 (by decide)).trans <|
  (W48_keep m ρ c main_arg18 (by decide)).trans <|
  (W47_keep m ρ c main_arg18 (by decide)).trans <|
  (W46_keep m ρ c main_arg18 (by decide)).trans <|
  (W45_keep m ρ c main_arg18 (by decide)).trans <|
  (W44_keep m ρ c main_arg18 (by decide)).trans <|
  (W43_keep m ρ c main_arg18 (by decide)).trans <|
  (W42_keep m ρ c main_arg18 (by decide)).trans <|
  (W41_keep m ρ c main_arg18 (by decide)).trans <|
  (W40_keep m ρ c main_arg18 (by decide)).trans <|
  (W39_keep m ρ c main_arg18 (by decide)).trans <|
  (W38_keep m ρ c main_arg18 (by decide)).trans <|
  (W37_keep m ρ c main_arg18 (by decide)).trans <|
  (W36_keep m ρ c main_arg18 (by decide)).trans <|
  (W35_keep m ρ c main_arg18 (by decide)).trans <|
  (W34_keep m ρ c main_arg18 (by decide)).trans <|
  (W33_keep m ρ c main_arg18 (by decide)).trans <|
  (W32_keep m ρ c main_arg18 (by decide)).trans <|
  (W31_keep m ρ c main_arg18 (by decide)).trans <|
  (W30_keep m ρ c main_arg18 (by decide)).trans <|
  (W29_keep m ρ c main_arg18 (by decide)).trans <|
  (W28_keep m ρ c main_arg18 (by decide)).trans <|
  (W27_keep m ρ c main_arg18 (by decide)).trans <|
  (W26_keep m ρ c main_arg18 (by decide)).trans <|
  (W25_keep m ρ c main_arg18 (by decide)).trans <|
  (W24_keep m ρ c main_arg18 (by decide)).trans <|
  (W23_keep m ρ c main_arg18 (by decide)).trans <|
  (W22_keep m ρ c main_arg18 (by decide)).trans <|
  (W21_keep m ρ c main_arg18 (by decide)).trans <|
  (W20_keep m ρ c main_arg18 (by decide)).trans <|
  (W19_keep m ρ c main_arg18 (by decide)).trans <|
  (W18_keep m ρ c main_arg18 (by decide)).trans <|
  (W17_keep m ρ c main_arg18 (by decide)).trans <|
  (W16_keep m ρ c main_arg18 (by decide)).trans <|
  (W15_keep m ρ c main_arg18 (by decide)).trans <|
  (W14_keep m ρ c main_arg18 (by decide)).trans <|
  (W13_keep m ρ c main_arg18 (by decide)).trans <|
  (W12_keep m ρ c main_arg18 (by decide)).trans <|
  (W11_keep m ρ c main_arg18 (by decide)).trans <|
  (W10_keep m ρ c main_arg18 (by decide)).trans <|
  (W9_keep m ρ c main_arg18 (by decide)).trans <|
  (W8_keep m ρ c main_arg18 (by decide)).trans <|
  (W7_keep m ρ c main_arg18 (by decide)).trans <|
  (W6_keep m ρ c main_arg18 (by decide)).trans <|
  (W5_keep m ρ c main_arg18 (by decide)).trans <|
  (W4_keep m ρ c main_arg18 (by decide)).trans <|
  (W3_keep m ρ c main_arg18 (by decide)).trans <|
  (W2_keep m ρ c main_arg18 (by decide)).trans <|
  (W1_keep m ρ c main_arg18 (by decide)).trans rfl

/-- `main_arg19` reaches the end as launched. -/
theorem W109_main_arg19 (c : Dev nD) : W109 m ρ c (Proc.devRef .tc main_arg19) = m ((c : Thread nD τ).loc main_arg19) :=
  (W109_keep m ρ c main_arg19 (by decide)).trans <|
  (W108_keep m ρ c main_arg19 (by decide)).trans <|
  (W107_keep m ρ c main_arg19 (by decide)).trans <|
  (W106_keep m ρ c main_arg19 (by decide)).trans <|
  (W105_keep m ρ c main_arg19 (by decide)).trans <|
  (W104_keep m ρ c main_arg19 (by decide)).trans <|
  (W103_keep m ρ c main_arg19 (by decide)).trans <|
  (W102_keep m ρ c main_arg19 (by decide)).trans <|
  (W101_keep m ρ c main_arg19 (by decide)).trans <|
  (W100_keep m ρ c main_arg19 (by decide)).trans <|
  (W99_keep m ρ c main_arg19 (by decide)).trans <|
  (W98_keep m ρ c main_arg19 (by decide)).trans <|
  (W97_keep m ρ c main_arg19 (by decide)).trans <|
  (W96_keep m ρ c main_arg19 (by decide)).trans <|
  (W95_keep m ρ c main_arg19 (by decide)).trans <|
  (W94_keep m ρ c main_arg19 (by decide)).trans <|
  (W93_keep m ρ c main_arg19 (by decide)).trans <|
  (W92_keep m ρ c main_arg19 (by decide)).trans <|
  (W91_keep m ρ c main_arg19 (by decide)).trans <|
  (W90_keep m ρ c main_arg19 (by decide)).trans <|
  (W89_keep m ρ c main_arg19 (by decide)).trans <|
  (W88_keep m ρ c main_arg19 (by decide)).trans <|
  (W87_keep m ρ c main_arg19 (by decide)).trans <|
  (W86_keep m ρ c main_arg19 (by decide)).trans <|
  (W85_keep m ρ c main_arg19 (by decide)).trans <|
  (W84_keep m ρ c main_arg19 (by decide)).trans <|
  (W83_keep m ρ c main_arg19 (by decide)).trans <|
  (W82_keep m ρ c main_arg19 (by decide)).trans <|
  (W81_keep m ρ c main_arg19 (by decide)).trans <|
  (W80_keep m ρ c main_arg19 (by decide)).trans <|
  (W79_keep m ρ c main_arg19 (by decide)).trans <|
  (W78_keep m ρ c main_arg19 (by decide)).trans <|
  (W77_keep m ρ c main_arg19 (by decide)).trans <|
  (W76_keep m ρ c main_arg19 (by decide)).trans <|
  (W75_keep m ρ c main_arg19 (by decide)).trans <|
  (W74_keep m ρ c main_arg19 (by decide)).trans <|
  (W73_keep m ρ c main_arg19 (by decide)).trans <|
  (W72_keep m ρ c main_arg19 (by decide)).trans <|
  (W71_keep m ρ c main_arg19 (by decide)).trans <|
  (W70_keep m ρ c main_arg19 (by decide)).trans <|
  (W69_keep m ρ c main_arg19 (by decide)).trans <|
  (W68_keep m ρ c main_arg19 (by decide)).trans <|
  (W67_keep m ρ c main_arg19 (by decide)).trans <|
  (W66_keep m ρ c main_arg19 (by decide)).trans <|
  (W65_keep m ρ c main_arg19 (by decide)).trans <|
  (W64_keep m ρ c main_arg19 (by decide)).trans <|
  (W63_keep m ρ c main_arg19 (by decide)).trans <|
  (W62_keep m ρ c main_arg19 (by decide)).trans <|
  (W61_keep m ρ c main_arg19 (by decide)).trans <|
  (W60_keep m ρ c main_arg19 (by decide)).trans <|
  (W59_keep m ρ c main_arg19 (by decide)).trans <|
  (W58_keep m ρ c main_arg19 (by decide)).trans <|
  (W57_keep m ρ c main_arg19 (by decide)).trans <|
  (W56_keep m ρ c main_arg19 (by decide)).trans <|
  (W55_keep m ρ c main_arg19 (by decide)).trans <|
  (W54_keep m ρ c main_arg19 (by decide)).trans <|
  (W53_keep m ρ c main_arg19 (by decide)).trans <|
  (W52_keep m ρ c main_arg19 (by decide)).trans <|
  (W51_keep m ρ c main_arg19 (by decide)).trans <|
  (W50_keep m ρ c main_arg19 (by decide)).trans <|
  (W49_keep m ρ c main_arg19 (by decide)).trans <|
  (W48_keep m ρ c main_arg19 (by decide)).trans <|
  (W47_keep m ρ c main_arg19 (by decide)).trans <|
  (W46_keep m ρ c main_arg19 (by decide)).trans <|
  (W45_keep m ρ c main_arg19 (by decide)).trans <|
  (W44_keep m ρ c main_arg19 (by decide)).trans <|
  (W43_keep m ρ c main_arg19 (by decide)).trans <|
  (W42_keep m ρ c main_arg19 (by decide)).trans <|
  (W41_keep m ρ c main_arg19 (by decide)).trans <|
  (W40_keep m ρ c main_arg19 (by decide)).trans <|
  (W39_keep m ρ c main_arg19 (by decide)).trans <|
  (W38_keep m ρ c main_arg19 (by decide)).trans <|
  (W37_keep m ρ c main_arg19 (by decide)).trans <|
  (W36_keep m ρ c main_arg19 (by decide)).trans <|
  (W35_keep m ρ c main_arg19 (by decide)).trans <|
  (W34_keep m ρ c main_arg19 (by decide)).trans <|
  (W33_keep m ρ c main_arg19 (by decide)).trans <|
  (W32_keep m ρ c main_arg19 (by decide)).trans <|
  (W31_keep m ρ c main_arg19 (by decide)).trans <|
  (W30_keep m ρ c main_arg19 (by decide)).trans <|
  (W29_keep m ρ c main_arg19 (by decide)).trans <|
  (W28_keep m ρ c main_arg19 (by decide)).trans <|
  (W27_keep m ρ c main_arg19 (by decide)).trans <|
  (W26_keep m ρ c main_arg19 (by decide)).trans <|
  (W25_keep m ρ c main_arg19 (by decide)).trans <|
  (W24_keep m ρ c main_arg19 (by decide)).trans <|
  (W23_keep m ρ c main_arg19 (by decide)).trans <|
  (W22_keep m ρ c main_arg19 (by decide)).trans <|
  (W21_keep m ρ c main_arg19 (by decide)).trans <|
  (W20_keep m ρ c main_arg19 (by decide)).trans <|
  (W19_keep m ρ c main_arg19 (by decide)).trans <|
  (W18_keep m ρ c main_arg19 (by decide)).trans <|
  (W17_keep m ρ c main_arg19 (by decide)).trans <|
  (W16_keep m ρ c main_arg19 (by decide)).trans <|
  (W15_keep m ρ c main_arg19 (by decide)).trans <|
  (W14_keep m ρ c main_arg19 (by decide)).trans <|
  (W13_keep m ρ c main_arg19 (by decide)).trans <|
  (W12_keep m ρ c main_arg19 (by decide)).trans <|
  (W11_keep m ρ c main_arg19 (by decide)).trans <|
  (W10_keep m ρ c main_arg19 (by decide)).trans <|
  (W9_keep m ρ c main_arg19 (by decide)).trans <|
  (W8_keep m ρ c main_arg19 (by decide)).trans <|
  (W7_keep m ρ c main_arg19 (by decide)).trans <|
  (W6_keep m ρ c main_arg19 (by decide)).trans <|
  (W5_keep m ρ c main_arg19 (by decide)).trans <|
  (W4_keep m ρ c main_arg19 (by decide)).trans <|
  (W3_keep m ρ c main_arg19 (by decide)).trans <|
  (W2_keep m ρ c main_arg19 (by decide)).trans <|
  (W1_keep m ρ c main_arg19 (by decide)).trans rfl

/-- `main_arg20` reaches the end as launched. -/
theorem W109_main_arg20 (c : Dev nD) : W109 m ρ c (Proc.devRef .tc main_arg20) = m ((c : Thread nD τ).loc main_arg20) :=
  (W109_keep m ρ c main_arg20 (by decide)).trans <|
  (W108_keep m ρ c main_arg20 (by decide)).trans <|
  (W107_keep m ρ c main_arg20 (by decide)).trans <|
  (W106_keep m ρ c main_arg20 (by decide)).trans <|
  (W105_keep m ρ c main_arg20 (by decide)).trans <|
  (W104_keep m ρ c main_arg20 (by decide)).trans <|
  (W103_keep m ρ c main_arg20 (by decide)).trans <|
  (W102_keep m ρ c main_arg20 (by decide)).trans <|
  (W101_keep m ρ c main_arg20 (by decide)).trans <|
  (W100_keep m ρ c main_arg20 (by decide)).trans <|
  (W99_keep m ρ c main_arg20 (by decide)).trans <|
  (W98_keep m ρ c main_arg20 (by decide)).trans <|
  (W97_keep m ρ c main_arg20 (by decide)).trans <|
  (W96_keep m ρ c main_arg20 (by decide)).trans <|
  (W95_keep m ρ c main_arg20 (by decide)).trans <|
  (W94_keep m ρ c main_arg20 (by decide)).trans <|
  (W93_keep m ρ c main_arg20 (by decide)).trans <|
  (W92_keep m ρ c main_arg20 (by decide)).trans <|
  (W91_keep m ρ c main_arg20 (by decide)).trans <|
  (W90_keep m ρ c main_arg20 (by decide)).trans <|
  (W89_keep m ρ c main_arg20 (by decide)).trans <|
  (W88_keep m ρ c main_arg20 (by decide)).trans <|
  (W87_keep m ρ c main_arg20 (by decide)).trans <|
  (W86_keep m ρ c main_arg20 (by decide)).trans <|
  (W85_keep m ρ c main_arg20 (by decide)).trans <|
  (W84_keep m ρ c main_arg20 (by decide)).trans <|
  (W83_keep m ρ c main_arg20 (by decide)).trans <|
  (W82_keep m ρ c main_arg20 (by decide)).trans <|
  (W81_keep m ρ c main_arg20 (by decide)).trans <|
  (W80_keep m ρ c main_arg20 (by decide)).trans <|
  (W79_keep m ρ c main_arg20 (by decide)).trans <|
  (W78_keep m ρ c main_arg20 (by decide)).trans <|
  (W77_keep m ρ c main_arg20 (by decide)).trans <|
  (W76_keep m ρ c main_arg20 (by decide)).trans <|
  (W75_keep m ρ c main_arg20 (by decide)).trans <|
  (W74_keep m ρ c main_arg20 (by decide)).trans <|
  (W73_keep m ρ c main_arg20 (by decide)).trans <|
  (W72_keep m ρ c main_arg20 (by decide)).trans <|
  (W71_keep m ρ c main_arg20 (by decide)).trans <|
  (W70_keep m ρ c main_arg20 (by decide)).trans <|
  (W69_keep m ρ c main_arg20 (by decide)).trans <|
  (W68_keep m ρ c main_arg20 (by decide)).trans <|
  (W67_keep m ρ c main_arg20 (by decide)).trans <|
  (W66_keep m ρ c main_arg20 (by decide)).trans <|
  (W65_keep m ρ c main_arg20 (by decide)).trans <|
  (W64_keep m ρ c main_arg20 (by decide)).trans <|
  (W63_keep m ρ c main_arg20 (by decide)).trans <|
  (W62_keep m ρ c main_arg20 (by decide)).trans <|
  (W61_keep m ρ c main_arg20 (by decide)).trans <|
  (W60_keep m ρ c main_arg20 (by decide)).trans <|
  (W59_keep m ρ c main_arg20 (by decide)).trans <|
  (W58_keep m ρ c main_arg20 (by decide)).trans <|
  (W57_keep m ρ c main_arg20 (by decide)).trans <|
  (W56_keep m ρ c main_arg20 (by decide)).trans <|
  (W55_keep m ρ c main_arg20 (by decide)).trans <|
  (W54_keep m ρ c main_arg20 (by decide)).trans <|
  (W53_keep m ρ c main_arg20 (by decide)).trans <|
  (W52_keep m ρ c main_arg20 (by decide)).trans <|
  (W51_keep m ρ c main_arg20 (by decide)).trans <|
  (W50_keep m ρ c main_arg20 (by decide)).trans <|
  (W49_keep m ρ c main_arg20 (by decide)).trans <|
  (W48_keep m ρ c main_arg20 (by decide)).trans <|
  (W47_keep m ρ c main_arg20 (by decide)).trans <|
  (W46_keep m ρ c main_arg20 (by decide)).trans <|
  (W45_keep m ρ c main_arg20 (by decide)).trans <|
  (W44_keep m ρ c main_arg20 (by decide)).trans <|
  (W43_keep m ρ c main_arg20 (by decide)).trans <|
  (W42_keep m ρ c main_arg20 (by decide)).trans <|
  (W41_keep m ρ c main_arg20 (by decide)).trans <|
  (W40_keep m ρ c main_arg20 (by decide)).trans <|
  (W39_keep m ρ c main_arg20 (by decide)).trans <|
  (W38_keep m ρ c main_arg20 (by decide)).trans <|
  (W37_keep m ρ c main_arg20 (by decide)).trans <|
  (W36_keep m ρ c main_arg20 (by decide)).trans <|
  (W35_keep m ρ c main_arg20 (by decide)).trans <|
  (W34_keep m ρ c main_arg20 (by decide)).trans <|
  (W33_keep m ρ c main_arg20 (by decide)).trans <|
  (W32_keep m ρ c main_arg20 (by decide)).trans <|
  (W31_keep m ρ c main_arg20 (by decide)).trans <|
  (W30_keep m ρ c main_arg20 (by decide)).trans <|
  (W29_keep m ρ c main_arg20 (by decide)).trans <|
  (W28_keep m ρ c main_arg20 (by decide)).trans <|
  (W27_keep m ρ c main_arg20 (by decide)).trans <|
  (W26_keep m ρ c main_arg20 (by decide)).trans <|
  (W25_keep m ρ c main_arg20 (by decide)).trans <|
  (W24_keep m ρ c main_arg20 (by decide)).trans <|
  (W23_keep m ρ c main_arg20 (by decide)).trans <|
  (W22_keep m ρ c main_arg20 (by decide)).trans <|
  (W21_keep m ρ c main_arg20 (by decide)).trans <|
  (W20_keep m ρ c main_arg20 (by decide)).trans <|
  (W19_keep m ρ c main_arg20 (by decide)).trans <|
  (W18_keep m ρ c main_arg20 (by decide)).trans <|
  (W17_keep m ρ c main_arg20 (by decide)).trans <|
  (W16_keep m ρ c main_arg20 (by decide)).trans <|
  (W15_keep m ρ c main_arg20 (by decide)).trans <|
  (W14_keep m ρ c main_arg20 (by decide)).trans <|
  (W13_keep m ρ c main_arg20 (by decide)).trans <|
  (W12_keep m ρ c main_arg20 (by decide)).trans <|
  (W11_keep m ρ c main_arg20 (by decide)).trans <|
  (W10_keep m ρ c main_arg20 (by decide)).trans <|
  (W9_keep m ρ c main_arg20 (by decide)).trans <|
  (W8_keep m ρ c main_arg20 (by decide)).trans <|
  (W7_keep m ρ c main_arg20 (by decide)).trans <|
  (W6_keep m ρ c main_arg20 (by decide)).trans <|
  (W5_keep m ρ c main_arg20 (by decide)).trans <|
  (W4_keep m ρ c main_arg20 (by decide)).trans <|
  (W3_keep m ρ c main_arg20 (by decide)).trans <|
  (W2_keep m ρ c main_arg20 (by decide)).trans <|
  (W1_keep m ρ c main_arg20 (by decide)).trans rfl

/-- `main_arg21` reaches the end as launched. -/
theorem W109_main_arg21 (c : Dev nD) : W109 m ρ c (Proc.devRef .tc main_arg21) = m ((c : Thread nD τ).loc main_arg21) :=
  (W109_keep m ρ c main_arg21 (by decide)).trans <|
  (W108_keep m ρ c main_arg21 (by decide)).trans <|
  (W107_keep m ρ c main_arg21 (by decide)).trans <|
  (W106_keep m ρ c main_arg21 (by decide)).trans <|
  (W105_keep m ρ c main_arg21 (by decide)).trans <|
  (W104_keep m ρ c main_arg21 (by decide)).trans <|
  (W103_keep m ρ c main_arg21 (by decide)).trans <|
  (W102_keep m ρ c main_arg21 (by decide)).trans <|
  (W101_keep m ρ c main_arg21 (by decide)).trans <|
  (W100_keep m ρ c main_arg21 (by decide)).trans <|
  (W99_keep m ρ c main_arg21 (by decide)).trans <|
  (W98_keep m ρ c main_arg21 (by decide)).trans <|
  (W97_keep m ρ c main_arg21 (by decide)).trans <|
  (W96_keep m ρ c main_arg21 (by decide)).trans <|
  (W95_keep m ρ c main_arg21 (by decide)).trans <|
  (W94_keep m ρ c main_arg21 (by decide)).trans <|
  (W93_keep m ρ c main_arg21 (by decide)).trans <|
  (W92_keep m ρ c main_arg21 (by decide)).trans <|
  (W91_keep m ρ c main_arg21 (by decide)).trans <|
  (W90_keep m ρ c main_arg21 (by decide)).trans <|
  (W89_keep m ρ c main_arg21 (by decide)).trans <|
  (W88_keep m ρ c main_arg21 (by decide)).trans <|
  (W87_keep m ρ c main_arg21 (by decide)).trans <|
  (W86_keep m ρ c main_arg21 (by decide)).trans <|
  (W85_keep m ρ c main_arg21 (by decide)).trans <|
  (W84_keep m ρ c main_arg21 (by decide)).trans <|
  (W83_keep m ρ c main_arg21 (by decide)).trans <|
  (W82_keep m ρ c main_arg21 (by decide)).trans <|
  (W81_keep m ρ c main_arg21 (by decide)).trans <|
  (W80_keep m ρ c main_arg21 (by decide)).trans <|
  (W79_keep m ρ c main_arg21 (by decide)).trans <|
  (W78_keep m ρ c main_arg21 (by decide)).trans <|
  (W77_keep m ρ c main_arg21 (by decide)).trans <|
  (W76_keep m ρ c main_arg21 (by decide)).trans <|
  (W75_keep m ρ c main_arg21 (by decide)).trans <|
  (W74_keep m ρ c main_arg21 (by decide)).trans <|
  (W73_keep m ρ c main_arg21 (by decide)).trans <|
  (W72_keep m ρ c main_arg21 (by decide)).trans <|
  (W71_keep m ρ c main_arg21 (by decide)).trans <|
  (W70_keep m ρ c main_arg21 (by decide)).trans <|
  (W69_keep m ρ c main_arg21 (by decide)).trans <|
  (W68_keep m ρ c main_arg21 (by decide)).trans <|
  (W67_keep m ρ c main_arg21 (by decide)).trans <|
  (W66_keep m ρ c main_arg21 (by decide)).trans <|
  (W65_keep m ρ c main_arg21 (by decide)).trans <|
  (W64_keep m ρ c main_arg21 (by decide)).trans <|
  (W63_keep m ρ c main_arg21 (by decide)).trans <|
  (W62_keep m ρ c main_arg21 (by decide)).trans <|
  (W61_keep m ρ c main_arg21 (by decide)).trans <|
  (W60_keep m ρ c main_arg21 (by decide)).trans <|
  (W59_keep m ρ c main_arg21 (by decide)).trans <|
  (W58_keep m ρ c main_arg21 (by decide)).trans <|
  (W57_keep m ρ c main_arg21 (by decide)).trans <|
  (W56_keep m ρ c main_arg21 (by decide)).trans <|
  (W55_keep m ρ c main_arg21 (by decide)).trans <|
  (W54_keep m ρ c main_arg21 (by decide)).trans <|
  (W53_keep m ρ c main_arg21 (by decide)).trans <|
  (W52_keep m ρ c main_arg21 (by decide)).trans <|
  (W51_keep m ρ c main_arg21 (by decide)).trans <|
  (W50_keep m ρ c main_arg21 (by decide)).trans <|
  (W49_keep m ρ c main_arg21 (by decide)).trans <|
  (W48_keep m ρ c main_arg21 (by decide)).trans <|
  (W47_keep m ρ c main_arg21 (by decide)).trans <|
  (W46_keep m ρ c main_arg21 (by decide)).trans <|
  (W45_keep m ρ c main_arg21 (by decide)).trans <|
  (W44_keep m ρ c main_arg21 (by decide)).trans <|
  (W43_keep m ρ c main_arg21 (by decide)).trans <|
  (W42_keep m ρ c main_arg21 (by decide)).trans <|
  (W41_keep m ρ c main_arg21 (by decide)).trans <|
  (W40_keep m ρ c main_arg21 (by decide)).trans <|
  (W39_keep m ρ c main_arg21 (by decide)).trans <|
  (W38_keep m ρ c main_arg21 (by decide)).trans <|
  (W37_keep m ρ c main_arg21 (by decide)).trans <|
  (W36_keep m ρ c main_arg21 (by decide)).trans <|
  (W35_keep m ρ c main_arg21 (by decide)).trans <|
  (W34_keep m ρ c main_arg21 (by decide)).trans <|
  (W33_keep m ρ c main_arg21 (by decide)).trans <|
  (W32_keep m ρ c main_arg21 (by decide)).trans <|
  (W31_keep m ρ c main_arg21 (by decide)).trans <|
  (W30_keep m ρ c main_arg21 (by decide)).trans <|
  (W29_keep m ρ c main_arg21 (by decide)).trans <|
  (W28_keep m ρ c main_arg21 (by decide)).trans <|
  (W27_keep m ρ c main_arg21 (by decide)).trans <|
  (W26_keep m ρ c main_arg21 (by decide)).trans <|
  (W25_keep m ρ c main_arg21 (by decide)).trans <|
  (W24_keep m ρ c main_arg21 (by decide)).trans <|
  (W23_keep m ρ c main_arg21 (by decide)).trans <|
  (W22_keep m ρ c main_arg21 (by decide)).trans <|
  (W21_keep m ρ c main_arg21 (by decide)).trans <|
  (W20_keep m ρ c main_arg21 (by decide)).trans <|
  (W19_keep m ρ c main_arg21 (by decide)).trans <|
  (W18_keep m ρ c main_arg21 (by decide)).trans <|
  (W17_keep m ρ c main_arg21 (by decide)).trans <|
  (W16_keep m ρ c main_arg21 (by decide)).trans <|
  (W15_keep m ρ c main_arg21 (by decide)).trans <|
  (W14_keep m ρ c main_arg21 (by decide)).trans <|
  (W13_keep m ρ c main_arg21 (by decide)).trans <|
  (W12_keep m ρ c main_arg21 (by decide)).trans <|
  (W11_keep m ρ c main_arg21 (by decide)).trans <|
  (W10_keep m ρ c main_arg21 (by decide)).trans <|
  (W9_keep m ρ c main_arg21 (by decide)).trans <|
  (W8_keep m ρ c main_arg21 (by decide)).trans <|
  (W7_keep m ρ c main_arg21 (by decide)).trans <|
  (W6_keep m ρ c main_arg21 (by decide)).trans <|
  (W5_keep m ρ c main_arg21 (by decide)).trans <|
  (W4_keep m ρ c main_arg21 (by decide)).trans <|
  (W3_keep m ρ c main_arg21 (by decide)).trans <|
  (W2_keep m ρ c main_arg21 (by decide)).trans <|
  (W1_keep m ρ c main_arg21 (by decide)).trans rfl

/-- `main_arg22` reaches the end as launched. -/
theorem W109_main_arg22 (c : Dev nD) : W109 m ρ c (Proc.devRef .tc main_arg22) = m ((c : Thread nD τ).loc main_arg22) :=
  (W109_keep m ρ c main_arg22 (by decide)).trans <|
  (W108_keep m ρ c main_arg22 (by decide)).trans <|
  (W107_keep m ρ c main_arg22 (by decide)).trans <|
  (W106_keep m ρ c main_arg22 (by decide)).trans <|
  (W105_keep m ρ c main_arg22 (by decide)).trans <|
  (W104_keep m ρ c main_arg22 (by decide)).trans <|
  (W103_keep m ρ c main_arg22 (by decide)).trans <|
  (W102_keep m ρ c main_arg22 (by decide)).trans <|
  (W101_keep m ρ c main_arg22 (by decide)).trans <|
  (W100_keep m ρ c main_arg22 (by decide)).trans <|
  (W99_keep m ρ c main_arg22 (by decide)).trans <|
  (W98_keep m ρ c main_arg22 (by decide)).trans <|
  (W97_keep m ρ c main_arg22 (by decide)).trans <|
  (W96_keep m ρ c main_arg22 (by decide)).trans <|
  (W95_keep m ρ c main_arg22 (by decide)).trans <|
  (W94_keep m ρ c main_arg22 (by decide)).trans <|
  (W93_keep m ρ c main_arg22 (by decide)).trans <|
  (W92_keep m ρ c main_arg22 (by decide)).trans <|
  (W91_keep m ρ c main_arg22 (by decide)).trans <|
  (W90_keep m ρ c main_arg22 (by decide)).trans <|
  (W89_keep m ρ c main_arg22 (by decide)).trans <|
  (W88_keep m ρ c main_arg22 (by decide)).trans <|
  (W87_keep m ρ c main_arg22 (by decide)).trans <|
  (W86_keep m ρ c main_arg22 (by decide)).trans <|
  (W85_keep m ρ c main_arg22 (by decide)).trans <|
  (W84_keep m ρ c main_arg22 (by decide)).trans <|
  (W83_keep m ρ c main_arg22 (by decide)).trans <|
  (W82_keep m ρ c main_arg22 (by decide)).trans <|
  (W81_keep m ρ c main_arg22 (by decide)).trans <|
  (W80_keep m ρ c main_arg22 (by decide)).trans <|
  (W79_keep m ρ c main_arg22 (by decide)).trans <|
  (W78_keep m ρ c main_arg22 (by decide)).trans <|
  (W77_keep m ρ c main_arg22 (by decide)).trans <|
  (W76_keep m ρ c main_arg22 (by decide)).trans <|
  (W75_keep m ρ c main_arg22 (by decide)).trans <|
  (W74_keep m ρ c main_arg22 (by decide)).trans <|
  (W73_keep m ρ c main_arg22 (by decide)).trans <|
  (W72_keep m ρ c main_arg22 (by decide)).trans <|
  (W71_keep m ρ c main_arg22 (by decide)).trans <|
  (W70_keep m ρ c main_arg22 (by decide)).trans <|
  (W69_keep m ρ c main_arg22 (by decide)).trans <|
  (W68_keep m ρ c main_arg22 (by decide)).trans <|
  (W67_keep m ρ c main_arg22 (by decide)).trans <|
  (W66_keep m ρ c main_arg22 (by decide)).trans <|
  (W65_keep m ρ c main_arg22 (by decide)).trans <|
  (W64_keep m ρ c main_arg22 (by decide)).trans <|
  (W63_keep m ρ c main_arg22 (by decide)).trans <|
  (W62_keep m ρ c main_arg22 (by decide)).trans <|
  (W61_keep m ρ c main_arg22 (by decide)).trans <|
  (W60_keep m ρ c main_arg22 (by decide)).trans <|
  (W59_keep m ρ c main_arg22 (by decide)).trans <|
  (W58_keep m ρ c main_arg22 (by decide)).trans <|
  (W57_keep m ρ c main_arg22 (by decide)).trans <|
  (W56_keep m ρ c main_arg22 (by decide)).trans <|
  (W55_keep m ρ c main_arg22 (by decide)).trans <|
  (W54_keep m ρ c main_arg22 (by decide)).trans <|
  (W53_keep m ρ c main_arg22 (by decide)).trans <|
  (W52_keep m ρ c main_arg22 (by decide)).trans <|
  (W51_keep m ρ c main_arg22 (by decide)).trans <|
  (W50_keep m ρ c main_arg22 (by decide)).trans <|
  (W49_keep m ρ c main_arg22 (by decide)).trans <|
  (W48_keep m ρ c main_arg22 (by decide)).trans <|
  (W47_keep m ρ c main_arg22 (by decide)).trans <|
  (W46_keep m ρ c main_arg22 (by decide)).trans <|
  (W45_keep m ρ c main_arg22 (by decide)).trans <|
  (W44_keep m ρ c main_arg22 (by decide)).trans <|
  (W43_keep m ρ c main_arg22 (by decide)).trans <|
  (W42_keep m ρ c main_arg22 (by decide)).trans <|
  (W41_keep m ρ c main_arg22 (by decide)).trans <|
  (W40_keep m ρ c main_arg22 (by decide)).trans <|
  (W39_keep m ρ c main_arg22 (by decide)).trans <|
  (W38_keep m ρ c main_arg22 (by decide)).trans <|
  (W37_keep m ρ c main_arg22 (by decide)).trans <|
  (W36_keep m ρ c main_arg22 (by decide)).trans <|
  (W35_keep m ρ c main_arg22 (by decide)).trans <|
  (W34_keep m ρ c main_arg22 (by decide)).trans <|
  (W33_keep m ρ c main_arg22 (by decide)).trans <|
  (W32_keep m ρ c main_arg22 (by decide)).trans <|
  (W31_keep m ρ c main_arg22 (by decide)).trans <|
  (W30_keep m ρ c main_arg22 (by decide)).trans <|
  (W29_keep m ρ c main_arg22 (by decide)).trans <|
  (W28_keep m ρ c main_arg22 (by decide)).trans <|
  (W27_keep m ρ c main_arg22 (by decide)).trans <|
  (W26_keep m ρ c main_arg22 (by decide)).trans <|
  (W25_keep m ρ c main_arg22 (by decide)).trans <|
  (W24_keep m ρ c main_arg22 (by decide)).trans <|
  (W23_keep m ρ c main_arg22 (by decide)).trans <|
  (W22_keep m ρ c main_arg22 (by decide)).trans <|
  (W21_keep m ρ c main_arg22 (by decide)).trans <|
  (W20_keep m ρ c main_arg22 (by decide)).trans <|
  (W19_keep m ρ c main_arg22 (by decide)).trans <|
  (W18_keep m ρ c main_arg22 (by decide)).trans <|
  (W17_keep m ρ c main_arg22 (by decide)).trans <|
  (W16_keep m ρ c main_arg22 (by decide)).trans <|
  (W15_keep m ρ c main_arg22 (by decide)).trans <|
  (W14_keep m ρ c main_arg22 (by decide)).trans <|
  (W13_keep m ρ c main_arg22 (by decide)).trans <|
  (W12_keep m ρ c main_arg22 (by decide)).trans <|
  (W11_keep m ρ c main_arg22 (by decide)).trans <|
  (W10_keep m ρ c main_arg22 (by decide)).trans <|
  (W9_keep m ρ c main_arg22 (by decide)).trans <|
  (W8_keep m ρ c main_arg22 (by decide)).trans <|
  (W7_keep m ρ c main_arg22 (by decide)).trans <|
  (W6_keep m ρ c main_arg22 (by decide)).trans <|
  (W5_keep m ρ c main_arg22 (by decide)).trans <|
  (W4_keep m ρ c main_arg22 (by decide)).trans <|
  (W3_keep m ρ c main_arg22 (by decide)).trans <|
  (W2_keep m ρ c main_arg22 (by decide)).trans <|
  (W1_keep m ρ c main_arg22 (by decide)).trans rfl

/-- `main_arg23` reaches the end as launched. -/
theorem W109_main_arg23 (c : Dev nD) : W109 m ρ c (Proc.devRef .tc main_arg23) = m ((c : Thread nD τ).loc main_arg23) :=
  (W109_keep m ρ c main_arg23 (by decide)).trans <|
  (W108_keep m ρ c main_arg23 (by decide)).trans <|
  (W107_keep m ρ c main_arg23 (by decide)).trans <|
  (W106_keep m ρ c main_arg23 (by decide)).trans <|
  (W105_keep m ρ c main_arg23 (by decide)).trans <|
  (W104_keep m ρ c main_arg23 (by decide)).trans <|
  (W103_keep m ρ c main_arg23 (by decide)).trans <|
  (W102_keep m ρ c main_arg23 (by decide)).trans <|
  (W101_keep m ρ c main_arg23 (by decide)).trans <|
  (W100_keep m ρ c main_arg23 (by decide)).trans <|
  (W99_keep m ρ c main_arg23 (by decide)).trans <|
  (W98_keep m ρ c main_arg23 (by decide)).trans <|
  (W97_keep m ρ c main_arg23 (by decide)).trans <|
  (W96_keep m ρ c main_arg23 (by decide)).trans <|
  (W95_keep m ρ c main_arg23 (by decide)).trans <|
  (W94_keep m ρ c main_arg23 (by decide)).trans <|
  (W93_keep m ρ c main_arg23 (by decide)).trans <|
  (W92_keep m ρ c main_arg23 (by decide)).trans <|
  (W91_keep m ρ c main_arg23 (by decide)).trans <|
  (W90_keep m ρ c main_arg23 (by decide)).trans <|
  (W89_keep m ρ c main_arg23 (by decide)).trans <|
  (W88_keep m ρ c main_arg23 (by decide)).trans <|
  (W87_keep m ρ c main_arg23 (by decide)).trans <|
  (W86_keep m ρ c main_arg23 (by decide)).trans <|
  (W85_keep m ρ c main_arg23 (by decide)).trans <|
  (W84_keep m ρ c main_arg23 (by decide)).trans <|
  (W83_keep m ρ c main_arg23 (by decide)).trans <|
  (W82_keep m ρ c main_arg23 (by decide)).trans <|
  (W81_keep m ρ c main_arg23 (by decide)).trans <|
  (W80_keep m ρ c main_arg23 (by decide)).trans <|
  (W79_keep m ρ c main_arg23 (by decide)).trans <|
  (W78_keep m ρ c main_arg23 (by decide)).trans <|
  (W77_keep m ρ c main_arg23 (by decide)).trans <|
  (W76_keep m ρ c main_arg23 (by decide)).trans <|
  (W75_keep m ρ c main_arg23 (by decide)).trans <|
  (W74_keep m ρ c main_arg23 (by decide)).trans <|
  (W73_keep m ρ c main_arg23 (by decide)).trans <|
  (W72_keep m ρ c main_arg23 (by decide)).trans <|
  (W71_keep m ρ c main_arg23 (by decide)).trans <|
  (W70_keep m ρ c main_arg23 (by decide)).trans <|
  (W69_keep m ρ c main_arg23 (by decide)).trans <|
  (W68_keep m ρ c main_arg23 (by decide)).trans <|
  (W67_keep m ρ c main_arg23 (by decide)).trans <|
  (W66_keep m ρ c main_arg23 (by decide)).trans <|
  (W65_keep m ρ c main_arg23 (by decide)).trans <|
  (W64_keep m ρ c main_arg23 (by decide)).trans <|
  (W63_keep m ρ c main_arg23 (by decide)).trans <|
  (W62_keep m ρ c main_arg23 (by decide)).trans <|
  (W61_keep m ρ c main_arg23 (by decide)).trans <|
  (W60_keep m ρ c main_arg23 (by decide)).trans <|
  (W59_keep m ρ c main_arg23 (by decide)).trans <|
  (W58_keep m ρ c main_arg23 (by decide)).trans <|
  (W57_keep m ρ c main_arg23 (by decide)).trans <|
  (W56_keep m ρ c main_arg23 (by decide)).trans <|
  (W55_keep m ρ c main_arg23 (by decide)).trans <|
  (W54_keep m ρ c main_arg23 (by decide)).trans <|
  (W53_keep m ρ c main_arg23 (by decide)).trans <|
  (W52_keep m ρ c main_arg23 (by decide)).trans <|
  (W51_keep m ρ c main_arg23 (by decide)).trans <|
  (W50_keep m ρ c main_arg23 (by decide)).trans <|
  (W49_keep m ρ c main_arg23 (by decide)).trans <|
  (W48_keep m ρ c main_arg23 (by decide)).trans <|
  (W47_keep m ρ c main_arg23 (by decide)).trans <|
  (W46_keep m ρ c main_arg23 (by decide)).trans <|
  (W45_keep m ρ c main_arg23 (by decide)).trans <|
  (W44_keep m ρ c main_arg23 (by decide)).trans <|
  (W43_keep m ρ c main_arg23 (by decide)).trans <|
  (W42_keep m ρ c main_arg23 (by decide)).trans <|
  (W41_keep m ρ c main_arg23 (by decide)).trans <|
  (W40_keep m ρ c main_arg23 (by decide)).trans <|
  (W39_keep m ρ c main_arg23 (by decide)).trans <|
  (W38_keep m ρ c main_arg23 (by decide)).trans <|
  (W37_keep m ρ c main_arg23 (by decide)).trans <|
  (W36_keep m ρ c main_arg23 (by decide)).trans <|
  (W35_keep m ρ c main_arg23 (by decide)).trans <|
  (W34_keep m ρ c main_arg23 (by decide)).trans <|
  (W33_keep m ρ c main_arg23 (by decide)).trans <|
  (W32_keep m ρ c main_arg23 (by decide)).trans <|
  (W31_keep m ρ c main_arg23 (by decide)).trans <|
  (W30_keep m ρ c main_arg23 (by decide)).trans <|
  (W29_keep m ρ c main_arg23 (by decide)).trans <|
  (W28_keep m ρ c main_arg23 (by decide)).trans <|
  (W27_keep m ρ c main_arg23 (by decide)).trans <|
  (W26_keep m ρ c main_arg23 (by decide)).trans <|
  (W25_keep m ρ c main_arg23 (by decide)).trans <|
  (W24_keep m ρ c main_arg23 (by decide)).trans <|
  (W23_keep m ρ c main_arg23 (by decide)).trans <|
  (W22_keep m ρ c main_arg23 (by decide)).trans <|
  (W21_keep m ρ c main_arg23 (by decide)).trans <|
  (W20_keep m ρ c main_arg23 (by decide)).trans <|
  (W19_keep m ρ c main_arg23 (by decide)).trans <|
  (W18_keep m ρ c main_arg23 (by decide)).trans <|
  (W17_keep m ρ c main_arg23 (by decide)).trans <|
  (W16_keep m ρ c main_arg23 (by decide)).trans <|
  (W15_keep m ρ c main_arg23 (by decide)).trans <|
  (W14_keep m ρ c main_arg23 (by decide)).trans <|
  (W13_keep m ρ c main_arg23 (by decide)).trans <|
  (W12_keep m ρ c main_arg23 (by decide)).trans <|
  (W11_keep m ρ c main_arg23 (by decide)).trans <|
  (W10_keep m ρ c main_arg23 (by decide)).trans <|
  (W9_keep m ρ c main_arg23 (by decide)).trans <|
  (W8_keep m ρ c main_arg23 (by decide)).trans <|
  (W7_keep m ρ c main_arg23 (by decide)).trans <|
  (W6_keep m ρ c main_arg23 (by decide)).trans <|
  (W5_keep m ρ c main_arg23 (by decide)).trans <|
  (W4_keep m ρ c main_arg23 (by decide)).trans <|
  (W3_keep m ρ c main_arg23 (by decide)).trans <|
  (W2_keep m ρ c main_arg23 (by decide)).trans <|
  (W1_keep m ρ c main_arg23 (by decide)).trans rfl

/-- `main_arg24` reaches the end as launched. -/
theorem W109_main_arg24 (c : Dev nD) : W109 m ρ c (Proc.devRef .tc main_arg24) = m ((c : Thread nD τ).loc main_arg24) :=
  (W109_keep m ρ c main_arg24 (by decide)).trans <|
  (W108_keep m ρ c main_arg24 (by decide)).trans <|
  (W107_keep m ρ c main_arg24 (by decide)).trans <|
  (W106_keep m ρ c main_arg24 (by decide)).trans <|
  (W105_keep m ρ c main_arg24 (by decide)).trans <|
  (W104_keep m ρ c main_arg24 (by decide)).trans <|
  (W103_keep m ρ c main_arg24 (by decide)).trans <|
  (W102_keep m ρ c main_arg24 (by decide)).trans <|
  (W101_keep m ρ c main_arg24 (by decide)).trans <|
  (W100_keep m ρ c main_arg24 (by decide)).trans <|
  (W99_keep m ρ c main_arg24 (by decide)).trans <|
  (W98_keep m ρ c main_arg24 (by decide)).trans <|
  (W97_keep m ρ c main_arg24 (by decide)).trans <|
  (W96_keep m ρ c main_arg24 (by decide)).trans <|
  (W95_keep m ρ c main_arg24 (by decide)).trans <|
  (W94_keep m ρ c main_arg24 (by decide)).trans <|
  (W93_keep m ρ c main_arg24 (by decide)).trans <|
  (W92_keep m ρ c main_arg24 (by decide)).trans <|
  (W91_keep m ρ c main_arg24 (by decide)).trans <|
  (W90_keep m ρ c main_arg24 (by decide)).trans <|
  (W89_keep m ρ c main_arg24 (by decide)).trans <|
  (W88_keep m ρ c main_arg24 (by decide)).trans <|
  (W87_keep m ρ c main_arg24 (by decide)).trans <|
  (W86_keep m ρ c main_arg24 (by decide)).trans <|
  (W85_keep m ρ c main_arg24 (by decide)).trans <|
  (W84_keep m ρ c main_arg24 (by decide)).trans <|
  (W83_keep m ρ c main_arg24 (by decide)).trans <|
  (W82_keep m ρ c main_arg24 (by decide)).trans <|
  (W81_keep m ρ c main_arg24 (by decide)).trans <|
  (W80_keep m ρ c main_arg24 (by decide)).trans <|
  (W79_keep m ρ c main_arg24 (by decide)).trans <|
  (W78_keep m ρ c main_arg24 (by decide)).trans <|
  (W77_keep m ρ c main_arg24 (by decide)).trans <|
  (W76_keep m ρ c main_arg24 (by decide)).trans <|
  (W75_keep m ρ c main_arg24 (by decide)).trans <|
  (W74_keep m ρ c main_arg24 (by decide)).trans <|
  (W73_keep m ρ c main_arg24 (by decide)).trans <|
  (W72_keep m ρ c main_arg24 (by decide)).trans <|
  (W71_keep m ρ c main_arg24 (by decide)).trans <|
  (W70_keep m ρ c main_arg24 (by decide)).trans <|
  (W69_keep m ρ c main_arg24 (by decide)).trans <|
  (W68_keep m ρ c main_arg24 (by decide)).trans <|
  (W67_keep m ρ c main_arg24 (by decide)).trans <|
  (W66_keep m ρ c main_arg24 (by decide)).trans <|
  (W65_keep m ρ c main_arg24 (by decide)).trans <|
  (W64_keep m ρ c main_arg24 (by decide)).trans <|
  (W63_keep m ρ c main_arg24 (by decide)).trans <|
  (W62_keep m ρ c main_arg24 (by decide)).trans <|
  (W61_keep m ρ c main_arg24 (by decide)).trans <|
  (W60_keep m ρ c main_arg24 (by decide)).trans <|
  (W59_keep m ρ c main_arg24 (by decide)).trans <|
  (W58_keep m ρ c main_arg24 (by decide)).trans <|
  (W57_keep m ρ c main_arg24 (by decide)).trans <|
  (W56_keep m ρ c main_arg24 (by decide)).trans <|
  (W55_keep m ρ c main_arg24 (by decide)).trans <|
  (W54_keep m ρ c main_arg24 (by decide)).trans <|
  (W53_keep m ρ c main_arg24 (by decide)).trans <|
  (W52_keep m ρ c main_arg24 (by decide)).trans <|
  (W51_keep m ρ c main_arg24 (by decide)).trans <|
  (W50_keep m ρ c main_arg24 (by decide)).trans <|
  (W49_keep m ρ c main_arg24 (by decide)).trans <|
  (W48_keep m ρ c main_arg24 (by decide)).trans <|
  (W47_keep m ρ c main_arg24 (by decide)).trans <|
  (W46_keep m ρ c main_arg24 (by decide)).trans <|
  (W45_keep m ρ c main_arg24 (by decide)).trans <|
  (W44_keep m ρ c main_arg24 (by decide)).trans <|
  (W43_keep m ρ c main_arg24 (by decide)).trans <|
  (W42_keep m ρ c main_arg24 (by decide)).trans <|
  (W41_keep m ρ c main_arg24 (by decide)).trans <|
  (W40_keep m ρ c main_arg24 (by decide)).trans <|
  (W39_keep m ρ c main_arg24 (by decide)).trans <|
  (W38_keep m ρ c main_arg24 (by decide)).trans <|
  (W37_keep m ρ c main_arg24 (by decide)).trans <|
  (W36_keep m ρ c main_arg24 (by decide)).trans <|
  (W35_keep m ρ c main_arg24 (by decide)).trans <|
  (W34_keep m ρ c main_arg24 (by decide)).trans <|
  (W33_keep m ρ c main_arg24 (by decide)).trans <|
  (W32_keep m ρ c main_arg24 (by decide)).trans <|
  (W31_keep m ρ c main_arg24 (by decide)).trans <|
  (W30_keep m ρ c main_arg24 (by decide)).trans <|
  (W29_keep m ρ c main_arg24 (by decide)).trans <|
  (W28_keep m ρ c main_arg24 (by decide)).trans <|
  (W27_keep m ρ c main_arg24 (by decide)).trans <|
  (W26_keep m ρ c main_arg24 (by decide)).trans <|
  (W25_keep m ρ c main_arg24 (by decide)).trans <|
  (W24_keep m ρ c main_arg24 (by decide)).trans <|
  (W23_keep m ρ c main_arg24 (by decide)).trans <|
  (W22_keep m ρ c main_arg24 (by decide)).trans <|
  (W21_keep m ρ c main_arg24 (by decide)).trans <|
  (W20_keep m ρ c main_arg24 (by decide)).trans <|
  (W19_keep m ρ c main_arg24 (by decide)).trans <|
  (W18_keep m ρ c main_arg24 (by decide)).trans <|
  (W17_keep m ρ c main_arg24 (by decide)).trans <|
  (W16_keep m ρ c main_arg24 (by decide)).trans <|
  (W15_keep m ρ c main_arg24 (by decide)).trans <|
  (W14_keep m ρ c main_arg24 (by decide)).trans <|
  (W13_keep m ρ c main_arg24 (by decide)).trans <|
  (W12_keep m ρ c main_arg24 (by decide)).trans <|
  (W11_keep m ρ c main_arg24 (by decide)).trans <|
  (W10_keep m ρ c main_arg24 (by decide)).trans <|
  (W9_keep m ρ c main_arg24 (by decide)).trans <|
  (W8_keep m ρ c main_arg24 (by decide)).trans <|
  (W7_keep m ρ c main_arg24 (by decide)).trans <|
  (W6_keep m ρ c main_arg24 (by decide)).trans <|
  (W5_keep m ρ c main_arg24 (by decide)).trans <|
  (W4_keep m ρ c main_arg24 (by decide)).trans <|
  (W3_keep m ρ c main_arg24 (by decide)).trans <|
  (W2_keep m ρ c main_arg24 (by decide)).trans <|
  (W1_keep m ρ c main_arg24 (by decide)).trans rfl

/-- `main_arg25` reaches the end as launched. -/
theorem W109_main_arg25 (c : Dev nD) : W109 m ρ c (Proc.devRef .tc main_arg25) = m ((c : Thread nD τ).loc main_arg25) :=
  (W109_keep m ρ c main_arg25 (by decide)).trans <|
  (W108_keep m ρ c main_arg25 (by decide)).trans <|
  (W107_keep m ρ c main_arg25 (by decide)).trans <|
  (W106_keep m ρ c main_arg25 (by decide)).trans <|
  (W105_keep m ρ c main_arg25 (by decide)).trans <|
  (W104_keep m ρ c main_arg25 (by decide)).trans <|
  (W103_keep m ρ c main_arg25 (by decide)).trans <|
  (W102_keep m ρ c main_arg25 (by decide)).trans <|
  (W101_keep m ρ c main_arg25 (by decide)).trans <|
  (W100_keep m ρ c main_arg25 (by decide)).trans <|
  (W99_keep m ρ c main_arg25 (by decide)).trans <|
  (W98_keep m ρ c main_arg25 (by decide)).trans <|
  (W97_keep m ρ c main_arg25 (by decide)).trans <|
  (W96_keep m ρ c main_arg25 (by decide)).trans <|
  (W95_keep m ρ c main_arg25 (by decide)).trans <|
  (W94_keep m ρ c main_arg25 (by decide)).trans <|
  (W93_keep m ρ c main_arg25 (by decide)).trans <|
  (W92_keep m ρ c main_arg25 (by decide)).trans <|
  (W91_keep m ρ c main_arg25 (by decide)).trans <|
  (W90_keep m ρ c main_arg25 (by decide)).trans <|
  (W89_keep m ρ c main_arg25 (by decide)).trans <|
  (W88_keep m ρ c main_arg25 (by decide)).trans <|
  (W87_keep m ρ c main_arg25 (by decide)).trans <|
  (W86_keep m ρ c main_arg25 (by decide)).trans <|
  (W85_keep m ρ c main_arg25 (by decide)).trans <|
  (W84_keep m ρ c main_arg25 (by decide)).trans <|
  (W83_keep m ρ c main_arg25 (by decide)).trans <|
  (W82_keep m ρ c main_arg25 (by decide)).trans <|
  (W81_keep m ρ c main_arg25 (by decide)).trans <|
  (W80_keep m ρ c main_arg25 (by decide)).trans <|
  (W79_keep m ρ c main_arg25 (by decide)).trans <|
  (W78_keep m ρ c main_arg25 (by decide)).trans <|
  (W77_keep m ρ c main_arg25 (by decide)).trans <|
  (W76_keep m ρ c main_arg25 (by decide)).trans <|
  (W75_keep m ρ c main_arg25 (by decide)).trans <|
  (W74_keep m ρ c main_arg25 (by decide)).trans <|
  (W73_keep m ρ c main_arg25 (by decide)).trans <|
  (W72_keep m ρ c main_arg25 (by decide)).trans <|
  (W71_keep m ρ c main_arg25 (by decide)).trans <|
  (W70_keep m ρ c main_arg25 (by decide)).trans <|
  (W69_keep m ρ c main_arg25 (by decide)).trans <|
  (W68_keep m ρ c main_arg25 (by decide)).trans <|
  (W67_keep m ρ c main_arg25 (by decide)).trans <|
  (W66_keep m ρ c main_arg25 (by decide)).trans <|
  (W65_keep m ρ c main_arg25 (by decide)).trans <|
  (W64_keep m ρ c main_arg25 (by decide)).trans <|
  (W63_keep m ρ c main_arg25 (by decide)).trans <|
  (W62_keep m ρ c main_arg25 (by decide)).trans <|
  (W61_keep m ρ c main_arg25 (by decide)).trans <|
  (W60_keep m ρ c main_arg25 (by decide)).trans <|
  (W59_keep m ρ c main_arg25 (by decide)).trans <|
  (W58_keep m ρ c main_arg25 (by decide)).trans <|
  (W57_keep m ρ c main_arg25 (by decide)).trans <|
  (W56_keep m ρ c main_arg25 (by decide)).trans <|
  (W55_keep m ρ c main_arg25 (by decide)).trans <|
  (W54_keep m ρ c main_arg25 (by decide)).trans <|
  (W53_keep m ρ c main_arg25 (by decide)).trans <|
  (W52_keep m ρ c main_arg25 (by decide)).trans <|
  (W51_keep m ρ c main_arg25 (by decide)).trans <|
  (W50_keep m ρ c main_arg25 (by decide)).trans <|
  (W49_keep m ρ c main_arg25 (by decide)).trans <|
  (W48_keep m ρ c main_arg25 (by decide)).trans <|
  (W47_keep m ρ c main_arg25 (by decide)).trans <|
  (W46_keep m ρ c main_arg25 (by decide)).trans <|
  (W45_keep m ρ c main_arg25 (by decide)).trans <|
  (W44_keep m ρ c main_arg25 (by decide)).trans <|
  (W43_keep m ρ c main_arg25 (by decide)).trans <|
  (W42_keep m ρ c main_arg25 (by decide)).trans <|
  (W41_keep m ρ c main_arg25 (by decide)).trans <|
  (W40_keep m ρ c main_arg25 (by decide)).trans <|
  (W39_keep m ρ c main_arg25 (by decide)).trans <|
  (W38_keep m ρ c main_arg25 (by decide)).trans <|
  (W37_keep m ρ c main_arg25 (by decide)).trans <|
  (W36_keep m ρ c main_arg25 (by decide)).trans <|
  (W35_keep m ρ c main_arg25 (by decide)).trans <|
  (W34_keep m ρ c main_arg25 (by decide)).trans <|
  (W33_keep m ρ c main_arg25 (by decide)).trans <|
  (W32_keep m ρ c main_arg25 (by decide)).trans <|
  (W31_keep m ρ c main_arg25 (by decide)).trans <|
  (W30_keep m ρ c main_arg25 (by decide)).trans <|
  (W29_keep m ρ c main_arg25 (by decide)).trans <|
  (W28_keep m ρ c main_arg25 (by decide)).trans <|
  (W27_keep m ρ c main_arg25 (by decide)).trans <|
  (W26_keep m ρ c main_arg25 (by decide)).trans <|
  (W25_keep m ρ c main_arg25 (by decide)).trans <|
  (W24_keep m ρ c main_arg25 (by decide)).trans <|
  (W23_keep m ρ c main_arg25 (by decide)).trans <|
  (W22_keep m ρ c main_arg25 (by decide)).trans <|
  (W21_keep m ρ c main_arg25 (by decide)).trans <|
  (W20_keep m ρ c main_arg25 (by decide)).trans <|
  (W19_keep m ρ c main_arg25 (by decide)).trans <|
  (W18_keep m ρ c main_arg25 (by decide)).trans <|
  (W17_keep m ρ c main_arg25 (by decide)).trans <|
  (W16_keep m ρ c main_arg25 (by decide)).trans <|
  (W15_keep m ρ c main_arg25 (by decide)).trans <|
  (W14_keep m ρ c main_arg25 (by decide)).trans <|
  (W13_keep m ρ c main_arg25 (by decide)).trans <|
  (W12_keep m ρ c main_arg25 (by decide)).trans <|
  (W11_keep m ρ c main_arg25 (by decide)).trans <|
  (W10_keep m ρ c main_arg25 (by decide)).trans <|
  (W9_keep m ρ c main_arg25 (by decide)).trans <|
  (W8_keep m ρ c main_arg25 (by decide)).trans <|
  (W7_keep m ρ c main_arg25 (by decide)).trans <|
  (W6_keep m ρ c main_arg25 (by decide)).trans <|
  (W5_keep m ρ c main_arg25 (by decide)).trans <|
  (W4_keep m ρ c main_arg25 (by decide)).trans <|
  (W3_keep m ρ c main_arg25 (by decide)).trans <|
  (W2_keep m ρ c main_arg25 (by decide)).trans <|
  (W1_keep m ρ c main_arg25 (by decide)).trans rfl

/-- `main_arg26` reaches the end as launched. -/
theorem W109_main_arg26 (c : Dev nD) : W109 m ρ c (Proc.devRef .tc main_arg26) = m ((c : Thread nD τ).loc main_arg26) :=
  (W109_keep m ρ c main_arg26 (by decide)).trans <|
  (W108_keep m ρ c main_arg26 (by decide)).trans <|
  (W107_keep m ρ c main_arg26 (by decide)).trans <|
  (W106_keep m ρ c main_arg26 (by decide)).trans <|
  (W105_keep m ρ c main_arg26 (by decide)).trans <|
  (W104_keep m ρ c main_arg26 (by decide)).trans <|
  (W103_keep m ρ c main_arg26 (by decide)).trans <|
  (W102_keep m ρ c main_arg26 (by decide)).trans <|
  (W101_keep m ρ c main_arg26 (by decide)).trans <|
  (W100_keep m ρ c main_arg26 (by decide)).trans <|
  (W99_keep m ρ c main_arg26 (by decide)).trans <|
  (W98_keep m ρ c main_arg26 (by decide)).trans <|
  (W97_keep m ρ c main_arg26 (by decide)).trans <|
  (W96_keep m ρ c main_arg26 (by decide)).trans <|
  (W95_keep m ρ c main_arg26 (by decide)).trans <|
  (W94_keep m ρ c main_arg26 (by decide)).trans <|
  (W93_keep m ρ c main_arg26 (by decide)).trans <|
  (W92_keep m ρ c main_arg26 (by decide)).trans <|
  (W91_keep m ρ c main_arg26 (by decide)).trans <|
  (W90_keep m ρ c main_arg26 (by decide)).trans <|
  (W89_keep m ρ c main_arg26 (by decide)).trans <|
  (W88_keep m ρ c main_arg26 (by decide)).trans <|
  (W87_keep m ρ c main_arg26 (by decide)).trans <|
  (W86_keep m ρ c main_arg26 (by decide)).trans <|
  (W85_keep m ρ c main_arg26 (by decide)).trans <|
  (W84_keep m ρ c main_arg26 (by decide)).trans <|
  (W83_keep m ρ c main_arg26 (by decide)).trans <|
  (W82_keep m ρ c main_arg26 (by decide)).trans <|
  (W81_keep m ρ c main_arg26 (by decide)).trans <|
  (W80_keep m ρ c main_arg26 (by decide)).trans <|
  (W79_keep m ρ c main_arg26 (by decide)).trans <|
  (W78_keep m ρ c main_arg26 (by decide)).trans <|
  (W77_keep m ρ c main_arg26 (by decide)).trans <|
  (W76_keep m ρ c main_arg26 (by decide)).trans <|
  (W75_keep m ρ c main_arg26 (by decide)).trans <|
  (W74_keep m ρ c main_arg26 (by decide)).trans <|
  (W73_keep m ρ c main_arg26 (by decide)).trans <|
  (W72_keep m ρ c main_arg26 (by decide)).trans <|
  (W71_keep m ρ c main_arg26 (by decide)).trans <|
  (W70_keep m ρ c main_arg26 (by decide)).trans <|
  (W69_keep m ρ c main_arg26 (by decide)).trans <|
  (W68_keep m ρ c main_arg26 (by decide)).trans <|
  (W67_keep m ρ c main_arg26 (by decide)).trans <|
  (W66_keep m ρ c main_arg26 (by decide)).trans <|
  (W65_keep m ρ c main_arg26 (by decide)).trans <|
  (W64_keep m ρ c main_arg26 (by decide)).trans <|
  (W63_keep m ρ c main_arg26 (by decide)).trans <|
  (W62_keep m ρ c main_arg26 (by decide)).trans <|
  (W61_keep m ρ c main_arg26 (by decide)).trans <|
  (W60_keep m ρ c main_arg26 (by decide)).trans <|
  (W59_keep m ρ c main_arg26 (by decide)).trans <|
  (W58_keep m ρ c main_arg26 (by decide)).trans <|
  (W57_keep m ρ c main_arg26 (by decide)).trans <|
  (W56_keep m ρ c main_arg26 (by decide)).trans <|
  (W55_keep m ρ c main_arg26 (by decide)).trans <|
  (W54_keep m ρ c main_arg26 (by decide)).trans <|
  (W53_keep m ρ c main_arg26 (by decide)).trans <|
  (W52_keep m ρ c main_arg26 (by decide)).trans <|
  (W51_keep m ρ c main_arg26 (by decide)).trans <|
  (W50_keep m ρ c main_arg26 (by decide)).trans <|
  (W49_keep m ρ c main_arg26 (by decide)).trans <|
  (W48_keep m ρ c main_arg26 (by decide)).trans <|
  (W47_keep m ρ c main_arg26 (by decide)).trans <|
  (W46_keep m ρ c main_arg26 (by decide)).trans <|
  (W45_keep m ρ c main_arg26 (by decide)).trans <|
  (W44_keep m ρ c main_arg26 (by decide)).trans <|
  (W43_keep m ρ c main_arg26 (by decide)).trans <|
  (W42_keep m ρ c main_arg26 (by decide)).trans <|
  (W41_keep m ρ c main_arg26 (by decide)).trans <|
  (W40_keep m ρ c main_arg26 (by decide)).trans <|
  (W39_keep m ρ c main_arg26 (by decide)).trans <|
  (W38_keep m ρ c main_arg26 (by decide)).trans <|
  (W37_keep m ρ c main_arg26 (by decide)).trans <|
  (W36_keep m ρ c main_arg26 (by decide)).trans <|
  (W35_keep m ρ c main_arg26 (by decide)).trans <|
  (W34_keep m ρ c main_arg26 (by decide)).trans <|
  (W33_keep m ρ c main_arg26 (by decide)).trans <|
  (W32_keep m ρ c main_arg26 (by decide)).trans <|
  (W31_keep m ρ c main_arg26 (by decide)).trans <|
  (W30_keep m ρ c main_arg26 (by decide)).trans <|
  (W29_keep m ρ c main_arg26 (by decide)).trans <|
  (W28_keep m ρ c main_arg26 (by decide)).trans <|
  (W27_keep m ρ c main_arg26 (by decide)).trans <|
  (W26_keep m ρ c main_arg26 (by decide)).trans <|
  (W25_keep m ρ c main_arg26 (by decide)).trans <|
  (W24_keep m ρ c main_arg26 (by decide)).trans <|
  (W23_keep m ρ c main_arg26 (by decide)).trans <|
  (W22_keep m ρ c main_arg26 (by decide)).trans <|
  (W21_keep m ρ c main_arg26 (by decide)).trans <|
  (W20_keep m ρ c main_arg26 (by decide)).trans <|
  (W19_keep m ρ c main_arg26 (by decide)).trans <|
  (W18_keep m ρ c main_arg26 (by decide)).trans <|
  (W17_keep m ρ c main_arg26 (by decide)).trans <|
  (W16_keep m ρ c main_arg26 (by decide)).trans <|
  (W15_keep m ρ c main_arg26 (by decide)).trans <|
  (W14_keep m ρ c main_arg26 (by decide)).trans <|
  (W13_keep m ρ c main_arg26 (by decide)).trans <|
  (W12_keep m ρ c main_arg26 (by decide)).trans <|
  (W11_keep m ρ c main_arg26 (by decide)).trans <|
  (W10_keep m ρ c main_arg26 (by decide)).trans <|
  (W9_keep m ρ c main_arg26 (by decide)).trans <|
  (W8_keep m ρ c main_arg26 (by decide)).trans <|
  (W7_keep m ρ c main_arg26 (by decide)).trans <|
  (W6_keep m ρ c main_arg26 (by decide)).trans <|
  (W5_keep m ρ c main_arg26 (by decide)).trans <|
  (W4_keep m ρ c main_arg26 (by decide)).trans <|
  (W3_keep m ρ c main_arg26 (by decide)).trans <|
  (W2_keep m ρ c main_arg26 (by decide)).trans <|
  (W1_keep m ρ c main_arg26 (by decide)).trans rfl

/-- `main_arg27` reaches the end as launched. -/
theorem W109_main_arg27 (c : Dev nD) : W109 m ρ c (Proc.devRef .tc main_arg27) = m ((c : Thread nD τ).loc main_arg27) :=
  (W109_keep m ρ c main_arg27 (by decide)).trans <|
  (W108_keep m ρ c main_arg27 (by decide)).trans <|
  (W107_keep m ρ c main_arg27 (by decide)).trans <|
  (W106_keep m ρ c main_arg27 (by decide)).trans <|
  (W105_keep m ρ c main_arg27 (by decide)).trans <|
  (W104_keep m ρ c main_arg27 (by decide)).trans <|
  (W103_keep m ρ c main_arg27 (by decide)).trans <|
  (W102_keep m ρ c main_arg27 (by decide)).trans <|
  (W101_keep m ρ c main_arg27 (by decide)).trans <|
  (W100_keep m ρ c main_arg27 (by decide)).trans <|
  (W99_keep m ρ c main_arg27 (by decide)).trans <|
  (W98_keep m ρ c main_arg27 (by decide)).trans <|
  (W97_keep m ρ c main_arg27 (by decide)).trans <|
  (W96_keep m ρ c main_arg27 (by decide)).trans <|
  (W95_keep m ρ c main_arg27 (by decide)).trans <|
  (W94_keep m ρ c main_arg27 (by decide)).trans <|
  (W93_keep m ρ c main_arg27 (by decide)).trans <|
  (W92_keep m ρ c main_arg27 (by decide)).trans <|
  (W91_keep m ρ c main_arg27 (by decide)).trans <|
  (W90_keep m ρ c main_arg27 (by decide)).trans <|
  (W89_keep m ρ c main_arg27 (by decide)).trans <|
  (W88_keep m ρ c main_arg27 (by decide)).trans <|
  (W87_keep m ρ c main_arg27 (by decide)).trans <|
  (W86_keep m ρ c main_arg27 (by decide)).trans <|
  (W85_keep m ρ c main_arg27 (by decide)).trans <|
  (W84_keep m ρ c main_arg27 (by decide)).trans <|
  (W83_keep m ρ c main_arg27 (by decide)).trans <|
  (W82_keep m ρ c main_arg27 (by decide)).trans <|
  (W81_keep m ρ c main_arg27 (by decide)).trans <|
  (W80_keep m ρ c main_arg27 (by decide)).trans <|
  (W79_keep m ρ c main_arg27 (by decide)).trans <|
  (W78_keep m ρ c main_arg27 (by decide)).trans <|
  (W77_keep m ρ c main_arg27 (by decide)).trans <|
  (W76_keep m ρ c main_arg27 (by decide)).trans <|
  (W75_keep m ρ c main_arg27 (by decide)).trans <|
  (W74_keep m ρ c main_arg27 (by decide)).trans <|
  (W73_keep m ρ c main_arg27 (by decide)).trans <|
  (W72_keep m ρ c main_arg27 (by decide)).trans <|
  (W71_keep m ρ c main_arg27 (by decide)).trans <|
  (W70_keep m ρ c main_arg27 (by decide)).trans <|
  (W69_keep m ρ c main_arg27 (by decide)).trans <|
  (W68_keep m ρ c main_arg27 (by decide)).trans <|
  (W67_keep m ρ c main_arg27 (by decide)).trans <|
  (W66_keep m ρ c main_arg27 (by decide)).trans <|
  (W65_keep m ρ c main_arg27 (by decide)).trans <|
  (W64_keep m ρ c main_arg27 (by decide)).trans <|
  (W63_keep m ρ c main_arg27 (by decide)).trans <|
  (W62_keep m ρ c main_arg27 (by decide)).trans <|
  (W61_keep m ρ c main_arg27 (by decide)).trans <|
  (W60_keep m ρ c main_arg27 (by decide)).trans <|
  (W59_keep m ρ c main_arg27 (by decide)).trans <|
  (W58_keep m ρ c main_arg27 (by decide)).trans <|
  (W57_keep m ρ c main_arg27 (by decide)).trans <|
  (W56_keep m ρ c main_arg27 (by decide)).trans <|
  (W55_keep m ρ c main_arg27 (by decide)).trans <|
  (W54_keep m ρ c main_arg27 (by decide)).trans <|
  (W53_keep m ρ c main_arg27 (by decide)).trans <|
  (W52_keep m ρ c main_arg27 (by decide)).trans <|
  (W51_keep m ρ c main_arg27 (by decide)).trans <|
  (W50_keep m ρ c main_arg27 (by decide)).trans <|
  (W49_keep m ρ c main_arg27 (by decide)).trans <|
  (W48_keep m ρ c main_arg27 (by decide)).trans <|
  (W47_keep m ρ c main_arg27 (by decide)).trans <|
  (W46_keep m ρ c main_arg27 (by decide)).trans <|
  (W45_keep m ρ c main_arg27 (by decide)).trans <|
  (W44_keep m ρ c main_arg27 (by decide)).trans <|
  (W43_keep m ρ c main_arg27 (by decide)).trans <|
  (W42_keep m ρ c main_arg27 (by decide)).trans <|
  (W41_keep m ρ c main_arg27 (by decide)).trans <|
  (W40_keep m ρ c main_arg27 (by decide)).trans <|
  (W39_keep m ρ c main_arg27 (by decide)).trans <|
  (W38_keep m ρ c main_arg27 (by decide)).trans <|
  (W37_keep m ρ c main_arg27 (by decide)).trans <|
  (W36_keep m ρ c main_arg27 (by decide)).trans <|
  (W35_keep m ρ c main_arg27 (by decide)).trans <|
  (W34_keep m ρ c main_arg27 (by decide)).trans <|
  (W33_keep m ρ c main_arg27 (by decide)).trans <|
  (W32_keep m ρ c main_arg27 (by decide)).trans <|
  (W31_keep m ρ c main_arg27 (by decide)).trans <|
  (W30_keep m ρ c main_arg27 (by decide)).trans <|
  (W29_keep m ρ c main_arg27 (by decide)).trans <|
  (W28_keep m ρ c main_arg27 (by decide)).trans <|
  (W27_keep m ρ c main_arg27 (by decide)).trans <|
  (W26_keep m ρ c main_arg27 (by decide)).trans <|
  (W25_keep m ρ c main_arg27 (by decide)).trans <|
  (W24_keep m ρ c main_arg27 (by decide)).trans <|
  (W23_keep m ρ c main_arg27 (by decide)).trans <|
  (W22_keep m ρ c main_arg27 (by decide)).trans <|
  (W21_keep m ρ c main_arg27 (by decide)).trans <|
  (W20_keep m ρ c main_arg27 (by decide)).trans <|
  (W19_keep m ρ c main_arg27 (by decide)).trans <|
  (W18_keep m ρ c main_arg27 (by decide)).trans <|
  (W17_keep m ρ c main_arg27 (by decide)).trans <|
  (W16_keep m ρ c main_arg27 (by decide)).trans <|
  (W15_keep m ρ c main_arg27 (by decide)).trans <|
  (W14_keep m ρ c main_arg27 (by decide)).trans <|
  (W13_keep m ρ c main_arg27 (by decide)).trans <|
  (W12_keep m ρ c main_arg27 (by decide)).trans <|
  (W11_keep m ρ c main_arg27 (by decide)).trans <|
  (W10_keep m ρ c main_arg27 (by decide)).trans <|
  (W9_keep m ρ c main_arg27 (by decide)).trans <|
  (W8_keep m ρ c main_arg27 (by decide)).trans <|
  (W7_keep m ρ c main_arg27 (by decide)).trans <|
  (W6_keep m ρ c main_arg27 (by decide)).trans <|
  (W5_keep m ρ c main_arg27 (by decide)).trans <|
  (W4_keep m ρ c main_arg27 (by decide)).trans <|
  (W3_keep m ρ c main_arg27 (by decide)).trans <|
  (W2_keep m ρ c main_arg27 (by decide)).trans <|
  (W1_keep m ρ c main_arg27 (by decide)).trans rfl

/-- `main_arg28` reaches the end as launched. -/
theorem W109_main_arg28 (c : Dev nD) : W109 m ρ c (Proc.devRef .tc main_arg28) = m ((c : Thread nD τ).loc main_arg28) :=
  (W109_keep m ρ c main_arg28 (by decide)).trans <|
  (W108_keep m ρ c main_arg28 (by decide)).trans <|
  (W107_keep m ρ c main_arg28 (by decide)).trans <|
  (W106_keep m ρ c main_arg28 (by decide)).trans <|
  (W105_keep m ρ c main_arg28 (by decide)).trans <|
  (W104_keep m ρ c main_arg28 (by decide)).trans <|
  (W103_keep m ρ c main_arg28 (by decide)).trans <|
  (W102_keep m ρ c main_arg28 (by decide)).trans <|
  (W101_keep m ρ c main_arg28 (by decide)).trans <|
  (W100_keep m ρ c main_arg28 (by decide)).trans <|
  (W99_keep m ρ c main_arg28 (by decide)).trans <|
  (W98_keep m ρ c main_arg28 (by decide)).trans <|
  (W97_keep m ρ c main_arg28 (by decide)).trans <|
  (W96_keep m ρ c main_arg28 (by decide)).trans <|
  (W95_keep m ρ c main_arg28 (by decide)).trans <|
  (W94_keep m ρ c main_arg28 (by decide)).trans <|
  (W93_keep m ρ c main_arg28 (by decide)).trans <|
  (W92_keep m ρ c main_arg28 (by decide)).trans <|
  (W91_keep m ρ c main_arg28 (by decide)).trans <|
  (W90_keep m ρ c main_arg28 (by decide)).trans <|
  (W89_keep m ρ c main_arg28 (by decide)).trans <|
  (W88_keep m ρ c main_arg28 (by decide)).trans <|
  (W87_keep m ρ c main_arg28 (by decide)).trans <|
  (W86_keep m ρ c main_arg28 (by decide)).trans <|
  (W85_keep m ρ c main_arg28 (by decide)).trans <|
  (W84_keep m ρ c main_arg28 (by decide)).trans <|
  (W83_keep m ρ c main_arg28 (by decide)).trans <|
  (W82_keep m ρ c main_arg28 (by decide)).trans <|
  (W81_keep m ρ c main_arg28 (by decide)).trans <|
  (W80_keep m ρ c main_arg28 (by decide)).trans <|
  (W79_keep m ρ c main_arg28 (by decide)).trans <|
  (W78_keep m ρ c main_arg28 (by decide)).trans <|
  (W77_keep m ρ c main_arg28 (by decide)).trans <|
  (W76_keep m ρ c main_arg28 (by decide)).trans <|
  (W75_keep m ρ c main_arg28 (by decide)).trans <|
  (W74_keep m ρ c main_arg28 (by decide)).trans <|
  (W73_keep m ρ c main_arg28 (by decide)).trans <|
  (W72_keep m ρ c main_arg28 (by decide)).trans <|
  (W71_keep m ρ c main_arg28 (by decide)).trans <|
  (W70_keep m ρ c main_arg28 (by decide)).trans <|
  (W69_keep m ρ c main_arg28 (by decide)).trans <|
  (W68_keep m ρ c main_arg28 (by decide)).trans <|
  (W67_keep m ρ c main_arg28 (by decide)).trans <|
  (W66_keep m ρ c main_arg28 (by decide)).trans <|
  (W65_keep m ρ c main_arg28 (by decide)).trans <|
  (W64_keep m ρ c main_arg28 (by decide)).trans <|
  (W63_keep m ρ c main_arg28 (by decide)).trans <|
  (W62_keep m ρ c main_arg28 (by decide)).trans <|
  (W61_keep m ρ c main_arg28 (by decide)).trans <|
  (W60_keep m ρ c main_arg28 (by decide)).trans <|
  (W59_keep m ρ c main_arg28 (by decide)).trans <|
  (W58_keep m ρ c main_arg28 (by decide)).trans <|
  (W57_keep m ρ c main_arg28 (by decide)).trans <|
  (W56_keep m ρ c main_arg28 (by decide)).trans <|
  (W55_keep m ρ c main_arg28 (by decide)).trans <|
  (W54_keep m ρ c main_arg28 (by decide)).trans <|
  (W53_keep m ρ c main_arg28 (by decide)).trans <|
  (W52_keep m ρ c main_arg28 (by decide)).trans <|
  (W51_keep m ρ c main_arg28 (by decide)).trans <|
  (W50_keep m ρ c main_arg28 (by decide)).trans <|
  (W49_keep m ρ c main_arg28 (by decide)).trans <|
  (W48_keep m ρ c main_arg28 (by decide)).trans <|
  (W47_keep m ρ c main_arg28 (by decide)).trans <|
  (W46_keep m ρ c main_arg28 (by decide)).trans <|
  (W45_keep m ρ c main_arg28 (by decide)).trans <|
  (W44_keep m ρ c main_arg28 (by decide)).trans <|
  (W43_keep m ρ c main_arg28 (by decide)).trans <|
  (W42_keep m ρ c main_arg28 (by decide)).trans <|
  (W41_keep m ρ c main_arg28 (by decide)).trans <|
  (W40_keep m ρ c main_arg28 (by decide)).trans <|
  (W39_keep m ρ c main_arg28 (by decide)).trans <|
  (W38_keep m ρ c main_arg28 (by decide)).trans <|
  (W37_keep m ρ c main_arg28 (by decide)).trans <|
  (W36_keep m ρ c main_arg28 (by decide)).trans <|
  (W35_keep m ρ c main_arg28 (by decide)).trans <|
  (W34_keep m ρ c main_arg28 (by decide)).trans <|
  (W33_keep m ρ c main_arg28 (by decide)).trans <|
  (W32_keep m ρ c main_arg28 (by decide)).trans <|
  (W31_keep m ρ c main_arg28 (by decide)).trans <|
  (W30_keep m ρ c main_arg28 (by decide)).trans <|
  (W29_keep m ρ c main_arg28 (by decide)).trans <|
  (W28_keep m ρ c main_arg28 (by decide)).trans <|
  (W27_keep m ρ c main_arg28 (by decide)).trans <|
  (W26_keep m ρ c main_arg28 (by decide)).trans <|
  (W25_keep m ρ c main_arg28 (by decide)).trans <|
  (W24_keep m ρ c main_arg28 (by decide)).trans <|
  (W23_keep m ρ c main_arg28 (by decide)).trans <|
  (W22_keep m ρ c main_arg28 (by decide)).trans <|
  (W21_keep m ρ c main_arg28 (by decide)).trans <|
  (W20_keep m ρ c main_arg28 (by decide)).trans <|
  (W19_keep m ρ c main_arg28 (by decide)).trans <|
  (W18_keep m ρ c main_arg28 (by decide)).trans <|
  (W17_keep m ρ c main_arg28 (by decide)).trans <|
  (W16_keep m ρ c main_arg28 (by decide)).trans <|
  (W15_keep m ρ c main_arg28 (by decide)).trans <|
  (W14_keep m ρ c main_arg28 (by decide)).trans <|
  (W13_keep m ρ c main_arg28 (by decide)).trans <|
  (W12_keep m ρ c main_arg28 (by decide)).trans <|
  (W11_keep m ρ c main_arg28 (by decide)).trans <|
  (W10_keep m ρ c main_arg28 (by decide)).trans <|
  (W9_keep m ρ c main_arg28 (by decide)).trans <|
  (W8_keep m ρ c main_arg28 (by decide)).trans <|
  (W7_keep m ρ c main_arg28 (by decide)).trans <|
  (W6_keep m ρ c main_arg28 (by decide)).trans <|
  (W5_keep m ρ c main_arg28 (by decide)).trans <|
  (W4_keep m ρ c main_arg28 (by decide)).trans <|
  (W3_keep m ρ c main_arg28 (by decide)).trans <|
  (W2_keep m ρ c main_arg28 (by decide)).trans <|
  (W1_keep m ρ c main_arg28 (by decide)).trans rfl

end Cert.Kernel.Reg

end
-- ==== Proof.K.Frame.lean ====
import proofs.«101828_j11562051961417_2_alg».proof.Proof.K.Run
import proofs.«101828_j11562051961417_2_alg».proof.Proof.K.Keep

set_option maxRecDepth 16384

noncomputable section

namespace Cert.Kernel.Reg

open Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The frame, at any instance: every weakly fair execution of @main terminates without a fault and every argument
    array ends as launched — each final buffer is the last boundary's, and no segment of @main writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c =>
    ⟨(h c _ (mem_uc main_arg0 (by decide))).trans (W109_main_arg0 m ρ c),
     (h c _ (mem_uc main_arg1 (by decide))).trans (W109_main_arg1 m ρ c),
     (h c _ (mem_uc main_arg2 (by decide))).trans (W109_main_arg2 m ρ c),
     (h c _ (mem_uc main_arg3 (by decide))).trans (W109_main_arg3 m ρ c),
     (h c _ (mem_uc main_arg4 (by decide))).trans (W109_main_arg4 m ρ c),
     (h c _ (mem_uc main_arg5 (by decide))).trans (W109_main_arg5 m ρ c),
     (h c _ (mem_uc main_arg6 (by decide))).trans (W109_main_arg6 m ρ c),
     (h c _ (mem_uc main_arg7 (by decide))).trans (W109_main_arg7 m ρ c),
     (h c _ (mem_uc main_arg8 (by decide))).trans (W109_main_arg8 m ρ c),
     (h c _ (mem_uc main_arg9 (by decide))).trans (W109_main_arg9 m ρ c),
     (h c _ (mem_uc main_arg10 (by decide))).trans (W109_main_arg10 m ρ c),
     (h c _ (mem_uc main_arg11 (by decide))).trans (W109_main_arg11 m ρ c),
     (h c _ (mem_uc main_arg12 (by decide))).trans (W109_main_arg12 m ρ c),
     (h c _ (mem_uc main_arg13 (by decide))).trans (W109_main_arg13 m ρ c),
     (h c _ (mem_uc main_arg14 (by decide))).trans (W109_main_arg14 m ρ c),
     (h c _ (mem_uc main_arg15 (by decide))).trans (W109_main_arg15 m ρ c),
     (h c _ (mem_uc main_arg16 (by decide))).trans (W109_main_arg16 m ρ c),
     (h c _ (mem_uc main_arg17 (by decide))).trans (W109_main_arg17 m ρ c),
     (h c _ (mem_uc main_arg18 (by decide))).trans (W109_main_arg18 m ρ c),
     (h c _ (mem_uc main_arg19 (by decide))).trans (W109_main_arg19 m ρ c),
     (h c _ (mem_uc main_arg20 (by decide))).trans (W109_main_arg20 m ρ c),
     (h c _ (mem_uc main_arg21 (by decide))).trans (W109_main_arg21 m ρ c),
     (h c _ (mem_uc main_arg22 (by decide))).trans (W109_main_arg22 m ρ c),
     (h c _ (mem_uc main_arg23 (by decide))).trans (W109_main_arg23 m ρ c),
     (h c _ (mem_uc main_arg24 (by decide))).trans (W109_main_arg24 m ρ c),
     (h c _ (mem_uc main_arg25 (by decide))).trans (W109_main_arg25 m ρ c),
     (h c _ (mem_uc main_arg26 (by decide))).trans (W109_main_arg26 m ρ c),
     (h c _ (mem_uc main_arg27 (by decide))).trans (W109_main_arg27 m ρ c),
     (h c _ (mem_uc main_arg28 (by decide))).trans (W109_main_arg28 m ρ c)⟩) (run_all m ρ)

/-- The same run with the result buffer named: it ends at the last boundary's contents. -/
theorem run_value : θ_run defs (onTc (τ := τ) (main (F := F))) ⟨m, fun _ => 0, ρ⟩ (fun r => ∀ c : Dev nD,
      r.2.mem ((c.tc : Thread nD τ).loc main_v424) = W109 m ρ c (Proc.devRef .tc main_v424)
      ∧ (
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))) :=
  (θ_run defs _ _).mono (fun r h c =>
    ⟨h c _ (mem_uc main_v424 (by decide)),
     (h c _ (mem_uc main_arg0 (by decide))).trans (W109_main_arg0 m ρ c),
     (h c _ (mem_uc main_arg1 (by decide))).trans (W109_main_arg1 m ρ c),
     (h c _ (mem_uc main_arg2 (by decide))).trans (W109_main_arg2 m ρ c),
     (h c _ (mem_uc main_arg3 (by decide))).trans (W109_main_arg3 m ρ c),
     (h c _ (mem_uc main_arg4 (by decide))).trans (W109_main_arg4 m ρ c),
     (h c _ (mem_uc main_arg5 (by decide))).trans (W109_main_arg5 m ρ c),
     (h c _ (mem_uc main_arg6 (by decide))).trans (W109_main_arg6 m ρ c),
     (h c _ (mem_uc main_arg7 (by decide))).trans (W109_main_arg7 m ρ c),
     (h c _ (mem_uc main_arg8 (by decide))).trans (W109_main_arg8 m ρ c),
     (h c _ (mem_uc main_arg9 (by decide))).trans (W109_main_arg9 m ρ c),
     (h c _ (mem_uc main_arg10 (by decide))).trans (W109_main_arg10 m ρ c),
     (h c _ (mem_uc main_arg11 (by decide))).trans (W109_main_arg11 m ρ c),
     (h c _ (mem_uc main_arg12 (by decide))).trans (W109_main_arg12 m ρ c),
     (h c _ (mem_uc main_arg13 (by decide))).trans (W109_main_arg13 m ρ c),
     (h c _ (mem_uc main_arg14 (by decide))).trans (W109_main_arg14 m ρ c),
     (h c _ (mem_uc main_arg15 (by decide))).trans (W109_main_arg15 m ρ c),
     (h c _ (mem_uc main_arg16 (by decide))).trans (W109_main_arg16 m ρ c),
     (h c _ (mem_uc main_arg17 (by decide))).trans (W109_main_arg17 m ρ c),
     (h c _ (mem_uc main_arg18 (by decide))).trans (W109_main_arg18 m ρ c),
     (h c _ (mem_uc main_arg19 (by decide))).trans (W109_main_arg19 m ρ c),
     (h c _ (mem_uc main_arg20 (by decide))).trans (W109_main_arg20 m ρ c),
     (h c _ (mem_uc main_arg21 (by decide))).trans (W109_main_arg21 m ρ c),
     (h c _ (mem_uc main_arg22 (by decide))).trans (W109_main_arg22 m ρ c),
     (h c _ (mem_uc main_arg23 (by decide))).trans (W109_main_arg23 m ρ c),
     (h c _ (mem_uc main_arg24 (by decide))).trans (W109_main_arg24 m ρ c),
     (h c _ (mem_uc main_arg25 (by decide))).trans (W109_main_arg25 m ρ c),
     (h c _ (mem_uc main_arg26 (by decide))).trans (W109_main_arg26 m ρ c),
     (h c _ (mem_uc main_arg27 (by decide))).trans (W109_main_arg27 m ρ c),
     (h c _ (mem_uc main_arg28 (by decide))).trans (W109_main_arg28 m ρ c)⟩) (run_all m ρ)

end Cert.Kernel.Reg

end
-- ==== Proof.KI.Region0.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 0: two input windows, each block loaded whole; one output window, stored whole -/

/-- Window `w`'s block at grid point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or kept from the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x256 := Rect.unit (s := S2048x256) ![0, 0] S2048x256.size inb_S2048x256_S2048x256_0_0
abbrev r0_1 : Rect S256x256 := Rect.unit (s := S256x256) ![0, 0] S256x256.size inb_S256x256_S256x256_0_0
abbrev r0_o : Rect S2048x256 := Rect.unit (s := S2048x256) ![0, 0] S2048x256.size inb_S2048x256_S2048x256_0_0

/-- The output block after the body: its one whole-block store, of the body's value at the two input blocks. -/
def out0 (x0 : Vec F S2048x256 .f32) (x1 : Vec F S256x256 .f32) : Vec F S2048x256 .f32 :=
  View.canon [⟨r0_o, k0_pay1 (View.ld x0 r0_0) (View.ld x1 r0_1)⟩]

/-- That one store covers the block. -/
theorem cover0 (p0 : Vec F S2048x256 .f32) (y : S2048x256.Idx) :
    ∃ pc ∈ ([⟨r0_o, p0⟩] : List (View.Piece (Elt F) S2048x256 .f32)), y ∈ pc.1.set :=
  View.cover_of_tiled [⟨r0_o, p0⟩] S2048x256.size (by rfl) y

set_option maxHeartbeats 1000000 in
/-- The body on whole staging buffers: both input buffers are read and left as found, and the output buffer,
    whatever it held, ends at the body's value. -/
theorem sound_kernel0 (c : Dev nD) (E : Set ℕ) (i : grid0.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__proj_matmul_kernel i arg1 harg1 arg2 harg2 arg3 harg3) K := by
  simp only [cc0__proj_matmul_kernel_eq_skeleton]; unfold cc0__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover0 _)

/-- The proof data: the arrays as the region finds them; after the body each input buffer still at its block and the
    output buffer at the body's value there; nothing owed, full shares, the scoped rest untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KI.Region1.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 1: two input windows, each block loaded whole; one output window, stored whole -/

/-- Window `w`'s block at grid point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2048x256 := Rect.unit (s := S2048x256) ![0, 0] S2048x256.size inb_S2048x256_S2048x256_0_0
abbrev r1_1 : Rect S256x256 := Rect.unit (s := S256x256) ![0, 0] S256x256.size inb_S256x256_S256x256_0_0
abbrev r1_o : Rect S2048x256 := Rect.unit (s := S2048x256) ![0, 0] S2048x256.size inb_S2048x256_S2048x256_0_0

/-- The output block after the body: its one whole-block store, of the body's value at the two input blocks. -/
def out1 (x0 : Vec F S2048x256 .f32) (x1 : Vec F S256x256 .f32) : Vec F S2048x256 .f32 :=
  View.canon [⟨r1_o, k1_pay1 (View.ld x0 r1_0) (View.ld x1 r1_1)⟩]

/-- That one store covers the block. -/
theorem cover1 (p0 : Vec F S2048x256 .f32) (y : S2048x256.Idx) :
    ∃ pc ∈ ([⟨r1_o, p0⟩] : List (View.Piece (Elt F) S2048x256 .f32)), y ∈ pc.1.set :=
  View.cover_of_tiled [⟨r1_o, p0⟩] S2048x256.size (by rfl) y

set_option maxHeartbeats 1000000 in
/-- The body on whole staging buffers: both input buffers are read and left as found, and the output buffer,
    whatever it held, ends at the body's value. -/
theorem sound_kernel1 (c : Dev nD) (E : Set ℕ) (i : grid1.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__proj_matmul_kernel i arg1 harg1 arg2 harg2 arg3 harg3) K := by
  simp only [cc1__proj_matmul_kernel_eq_skeleton]; unfold cc1__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover1 _)

/-- The proof data: the arrays as the region finds them; after the body each input buffer still at its block and the
    output buffer at the body's value there; nothing owed, full shares, the scoped rest untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KI.Region2.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 2: two input windows, each block loaded whole; one output window, stored whole -/

/-- Window `w`'s block at grid point `t`, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or kept from the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2048x256 := Rect.unit (s := S2048x256) ![0, 0] S2048x256.size inb_S2048x256_S2048x256_0_0
abbrev r2_1 : Rect S256x256 := Rect.unit (s := S256x256) ![0, 0] S256x256.size inb_S256x256_S256x256_0_0
abbrev r2_o : Rect S2048x256 := Rect.unit (s := S2048x256) ![0, 0] S2048x256.size inb_S2048x256_S2048x256_0_0

/-- The output block after the body: its one whole-block store, of the body's value at the two input blocks. -/
def out2 (x0 : Vec F S2048x256 .f32) (x1 : Vec F S256x256 .f32) : Vec F S2048x256 .f32 :=
  View.canon [⟨r2_o, k2_pay1 (View.ld x0 r2_0) (View.ld x1 r2_1)⟩]

/-- That one store covers the block. -/
theorem cover2 (p0 : Vec F S2048x256 .f32) (y : S2048x256.Idx) :
    ∃ pc ∈ ([⟨r2_o, p0⟩] : List (View.Piece (Elt F) S2048x256 .f32)), y ∈ pc.1.set :=
  View.cover_of_tiled [⟨r2_o, p0⟩] S2048x256.size (by rfl) y

set_option maxHeartbeats 1000000 in
/-- The body on whole staging buffers: both input buffers are read and left as found, and the output buffer,
    whatever it held, ends at the body's value. -/
theorem sound_kernel2 (c : Dev nD) (E : Set ℕ) (i : grid2.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2__proj_matmul_kernel i arg1 harg1 arg2 harg2 arg3 harg3) K := by
  simp only [cc2__proj_matmul_kernel_eq_skeleton]; unfold cc2__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover2 _)

/-- The proof data: the arrays as the region finds them; after the body each input buffer still at its block and the
    output buffer at the body's value there; nothing owed, full shares, the scoped rest untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.KI.Region3.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 3: two input windows, each block loaded whole; one output window, stored whole -/

/-- Window `w`'s block at grid point `t`, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or kept from the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S2048x256 := Rect.unit (s := S2048x256) ![0, 0] S2048x256.size inb_S2048x256_S2048x256_0_0
abbrev r3_1 : Rect S256x256 := Rect.unit (s := S256x256) ![0, 0] S256x256.size inb_S256x256_S256x256_0_0
abbrev r3_o : Rect S2048x256 := Rect.unit (s := S2048x256) ![0, 0] S2048x256.size inb_S2048x256_S2048x256_0_0

/-- The output block after the body: its one whole-block store, of the body's value at the two input blocks. -/
def out3 (x0 : Vec F S2048x256 .f32) (x1 : Vec F S256x256 .f32) : Vec F S2048x256 .f32 :=
  View.canon [⟨r3_o, k3_pay1 (View.ld x0 r3_0) (View.ld x1 r3_1)⟩]

/-- That one store covers the block. -/
theorem cover3 (p0 : Vec F S2048x256 .f32) (y : S2048x256.Idx) :
    ∃ pc ∈ ([⟨r3_o, p0⟩] : List (View.Piece (Elt F) S2048x256 .f32)), y ∈ pc.1.set :=
  View.cover_of_tiled [⟨r3_o, p0⟩] S2048x256.size (by rfl) y

set_option maxHeartbeats 1000000 in
/-- The body on whole staging buffers: both input buffers are read and left as found, and the output buffer,
    whatever it held, ends at the body's value. -/
theorem sound_kernel3 (c : Dev nD) (E : Set ℕ) (i : grid3.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3 x0 x1)) -∗ K ⟨⟩))
      ⊢ wp frame (wpE (defs₀ (F := F)) Variants.none c none) E (cc3__proj_matmul_kernel i arg1 harg1 arg2 harg2 arg3 harg3) K := by
  simp only [cc3__proj_matmul_kernel_eq_skeleton]; unfold cc3__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover3 _)

/-- The proof data: the arrays as the region finds them; after the body each input buffer still at its block and the
    output buffer at the body's value there; nothing owed, full shares, the scoped rest untouched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is handed at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KI.Region4.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 4: two input windows, each block loaded whole; one output window, stored whole -/

/-- Window `w`'s block at grid point `t`, read off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or kept from the point before. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2048x256 := Rect.unit (s := S2048x256) ![0, 0] S2048x256.size inb_S2048x256_S2048x256_0_0
abbrev r4_1 : Rect S256x256 := Rect.unit (s := S256x256) ![0, 0] S256x256.size inb_S256x256_S256x256_0_0
abbrev r4_o : Rect S2048x256 := Rect.unit (s := S2048x256) ![0, 0] S2048x256.size inb_S2048x256_S2048x256_0_0

/-- The output block after the body: its one whole-block store, of the body's value at the two input blocks. -/
def out4 (x0 : Vec F S2048x256 .f32) (x1 : Vec F S256x256 .f32) : Vec F S2048x256 .f32 :=
  View.canon [⟨r4_o, k4_pay1 (View.ld x0 r4_0) (View.ld x1 r4_1)⟩]

/-- That one store covers the block. -/
theorem cover4 (p0 : Vec F S2048x256 .f32) (y : S2048x256.Idx) :
    ∃ pc ∈ ([⟨r4_o, p0⟩] : List (View.Piece (Elt F) S2048x256 .f32)), y ∈ pc.1.set :=
  View.cover_of_tiled [⟨r4_o, p0⟩] S2048x256.size (by rfl) y

set_option maxHeartbeats 1000000 in
/-- The body on whole staging buffers: both input buffers are read and left as found, and the output buffer,
    whatever it held, ends at the body's value. -/
theorem sound_kernel4 (c : Dev nD) (E : Set ℕ) (i : grid4.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4 x0 x1)) -∗ K ⟨⟩))
      ⊢ wp frame (wpE (defs₀ (F := F)) Variants.none c none) E (cc4__proj_matmul_kernel i arg1 harg1 arg2 harg2 arg3 harg3) K := by
  simp only [cc4__proj_matmul_kernel_eq_skeleton]; unfold cc4__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover4 _)

/-- The proof data: the arrays as the region finds them; after the body each input buffer still at its block and the
    output buffer at the body's value there; nothing owed, full shares, the scoped rest untouched. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is handed at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it hands back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Reg

end
-- ==== Proof.KI.Region5.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 5: two input windows, each block loaded whole; one output window, stored whole -/

/-- Window `w`'s block at grid point `t`, read off the array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or kept from the point before. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer likewise. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S8x256x128 := Rect.unit (s := S8x256x128) ![0, 0, 0] S8x256x128.size inb_S8x256x128_S8x256x128_0_0_0
abbrev r5_1 : Rect S8x128x256 := Rect.unit (s := S8x128x256) ![0, 0, 0] S8x128x256.size inb_S8x128x256_S8x128x256_0_0_0
abbrev r5_o : Rect S8x256x256 := Rect.unit (s := S8x256x256) ![0, 0, 0] S8x256x256.size inb_S8x256x256_S8x256x256_0_0_0

/-- The output block after the body: its one whole-block store, of the body's value at the two input blocks. -/
def out5 (x0 : Vec F S8x256x128 .bf16) (x1 : Vec F S8x128x256 .f32) : Vec F S8x256x256 .f32 :=
  View.canon [⟨r5_o, k5_pay1 (View.ld x0 r5_0) (View.ld x1 r5_1)⟩]

/-- That one store covers the block. -/
theorem cover5 (p0 : Vec F S8x256x256 .f32) (y : S8x256x256.Idx) :
    ∃ pc ∈ ([⟨r5_o, p0⟩] : List (View.Piece (Elt F) S8x256x256 .f32)), y ∈ pc.1.set :=
  View.cover_of_tiled [⟨r5_o, p0⟩] S8x256x256.size (by rfl) y

set_option maxHeartbeats 1000000 in
/-- The body on whole staging buffers: both input buffers are read and left as found, and the output buffer,
    whatever it held, ends at the body's value. -/
theorem sound_kernel5 (c : Dev nD) (E : Set ℕ) (i : grid5.Coords)
    (arg1 : Memref sig .tc .vmem S8x256x128 .bf16) (harg1 : arg1.IsWhole) (arg2 : Memref sig .tc .vmem S8x128x256 .f32) (harg2 : arg2.IsWhole)
    (arg3 : Memref sig .tc .vmem S8x256x256 .f32) (harg3 : arg3.IsWhole)
    (x0 : Vec F S8x256x128 .bf16) (x1 : Vec F S8x128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5 x0 x1)) -∗ K ⟨⟩))
      ⊢ wp frame (wpE (defs₀ (F := F)) Variants.none c none) E (cc5__boundary_reduce_kernel i arg1 harg1 arg2 harg2 arg3 harg3) K := by
  simp only [cc5__boundary_reduce_kernel_eq_skeleton]; unfold cc5__boundary_reduce_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover5 _)

/-- The proof data: the arrays as the region finds them; after the body each input buffer still at its block and the
    output buffer at the body's value there; nothing owed, full shares, the scoped rest untouched. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is handed at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it hands back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.KernelIdeal.Reg

end
-- ==== Proof.KI.Region6.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 6: three input windows, each block loaded whole; one output window, stored whole -/

/-- Window `w`'s block at grid point `t`, read off the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or kept from the point before. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer likewise. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer likewise (fetched once, then kept). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S16x64x256 := Rect.unit (s := S16x64x256) ![0, 0, 0] S16x64x256.size inb_S16x64x256_S16x64x256_0_0_0
abbrev r6_1 : Rect S16x256x256 := Rect.unit (s := S16x256x256) ![0, 0, 0] S16x256x256.size inb_S16x256x256_S16x256x256_0_0_0
abbrev r6_2 : Rect S256x256 := Rect.unit (s := S256x256) ![0, 0] S256x256.size inb_S256x256_S256x256_0_0
abbrev r6_o : Rect S16x64x256 := Rect.unit (s := S16x64x256) ![0, 0, 0] S16x64x256.size inb_S16x64x256_S16x64x256_0_0_0

/-- The output block after the body: its one whole-block store, of the body's value at the three input blocks. -/
def out6 (x0 : Vec F S16x64x256 .bf16) (x1 : Vec F S16x256x256 .f32) (x2 : Vec F S256x256 .f32) : Vec F S16x64x256 .f32 :=
  View.canon [⟨r6_o, k6_pay1 (View.ld x0 r6_0) (View.ld x1 r6_1) (View.ld x2 r6_2)⟩]

/-- That one store covers the block. -/
theorem cover6 (p0 : Vec F S16x64x256 .f32) (y : S16x64x256.Idx) :
    ∃ pc ∈ ([⟨r6_o, p0⟩] : List (View.Piece (Elt F) S16x64x256 .f32)), y ∈ pc.1.set :=
  View.cover_of_tiled [⟨r6_o, p0⟩] S16x64x256.size (by rfl) y

set_option maxHeartbeats 1000000 in
/-- The body on whole staging buffers: the three input buffers are read and left as found, and the output buffer,
    whatever it held, ends at the body's value. -/
theorem sound_kernel6 (c : Dev nD) (E : Set ℕ) (i : grid6.Coords)
    (arg1 : Memref sig .tc .vmem S16x64x256 .bf16) (harg1 : arg1.IsWhole) (arg2 : Memref sig .tc .vmem S16x256x256 .f32) (harg2 : arg2.IsWhole)
    (arg3 : Memref sig .tc .vmem S256x256 .f32) (harg3 : arg3.IsWhole) (arg4 : Memref sig .tc .vmem S16x64x256 .f32) (harg4 : arg4.IsWhole)
    (x0 : Vec F S16x64x256 .bf16) (x1 : Vec F S16x256x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6 x0 x1 x2)) -∗ K ⟨⟩))
      ⊢ wp frame (wpE (defs₀ (F := F)) Variants.none c none) E (cc6__boundary_kernel i arg1 harg1 arg2 harg2 arg3 harg3 arg4 harg4) K := by
  simp only [cc6__boundary_kernel_eq_skeleton]; unfold cc6__boundary_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover6 _)

/-- The proof data: the arrays as the region finds them; after the body each input buffer still at its block and the
    output buffer at the body's value there; nothing owed, full shares, the scoped rest untouched. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is handed at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it hands back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.KernelIdeal.Reg

end
-- ==== Proof.KI.Region7.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 7: four input windows, each block loaded whole; one output window, stored whole -/

/-- Window `w`'s block at grid point `t`, read off the array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or kept from the point before. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer likewise (the weights: fetched once, then kept). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer likewise (the bias row: fetched once, then kept). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer likewise (the added term's row block). -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S2048x256 := Rect.unit (s := S2048x256) ![0, 0] S2048x256.size inb_S2048x256_S2048x256_0_0
abbrev r7_1 : Rect S256x256 := Rect.unit (s := S256x256) ![0, 0] S256x256.size inb_S256x256_S256x256_0_0
abbrev r7_2 : Rect S1x256 := Rect.unit (s := S1x256) ![0, 0] S1x256.size inb_S1x256_S1x256_0_0
abbrev r7_3 : Rect S2048x256 := Rect.unit (s := S2048x256) ![0, 0] S2048x256.size inb_S2048x256_S2048x256_0_0
abbrev r7_o : Rect S2048x256 := Rect.unit (s := S2048x256) ![0, 0] S2048x256.size inb_S2048x256_S2048x256_0_0

/-- The output block after the body: its one whole-block store, of the body's value at the four input blocks. -/
def out7 (x0 : Vec F S2048x256 .f32) (x1 : Vec F S256x256 .f32) (x2 : Vec F S1x256 .f32) (x3 : Vec F S2048x256 .f32) : Vec F S2048x256 .f32 :=
  View.canon [⟨r7_o, k7_pay1 (View.ld x0 r7_0) (View.ld x1 r7_1) (View.ld x2 r7_2) (View.ld x3 r7_3)⟩]

/-- That one store covers the block. -/
theorem cover7 (p0 : Vec F S2048x256 .f32) (y : S2048x256.Idx) :
    ∃ pc ∈ ([⟨r7_o, p0⟩] : List (View.Piece (Elt F) S2048x256 .f32)), y ∈ pc.1.set :=
  View.cover_of_tiled [⟨r7_o, p0⟩] S2048x256.size (by rfl) y

set_option maxHeartbeats 1000000 in
/-- The body on whole staging buffers: the four input buffers are read and left as found, and the output buffer,
    whatever it held, ends at the body's value. -/
theorem sound_kernel7 (c : Dev nD) (E : Set ℕ) (i : grid7.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole)
    (x0 : Vec F S2048x256 .f32) (x1 : Vec F S256x256 .f32) (x2 : Vec F S1x256 .f32) (x3 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out7 x0 x1 x2 x3)) -∗ K ⟨⟩))
      ⊢ wp frame (wpE (defs₀ (F := F)) Variants.none c none) E (cc7__self_update_kernel i arg1 harg1 arg2 harg2 arg3 harg3 arg4 harg4 arg5 harg5) K := by
  simp only [cc7__self_update_kernel_eq_skeleton]; unfold cc7__self_update_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover7 _)

/-- The proof data: the arrays as the region finds them; after the body each input buffer still at its block and the
    output buffer at the body's value there; nothing owed, full shares, the scoped rest untouched. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-- What the body is handed at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it hands back. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation7 (c : Dev nD) : BodyObligation (dat7 (F := F) V c) (defs₀ (F := F)) Variants.none () Set.univ := fun t => by
  rw [bigSep_W7, bigSep_W7]
  exact sound_body7 V c t

end Cert.KernelIdeal.Reg

end
-- ==== Proof.KI.Region8.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 8: five input windows, each block loaded whole; one output window, stored whole -/

/-- Window `w`'s block at grid point `t`, read off the array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or kept from the point before. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer likewise. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer likewise. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer likewise. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer likewise. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S2048x256 := Rect.unit (s := S2048x256) ![0, 0] S2048x256.size inb_S2048x256_S2048x256_0_0
abbrev r8_1 : Rect S256x256 := Rect.unit (s := S256x256) ![0, 0] S256x256.size inb_S256x256_S256x256_0_0
abbrev r8_2 : Rect S1x256 := Rect.unit (s := S1x256) ![0, 0] S1x256.size inb_S1x256_S1x256_0_0
abbrev r8_3 : Rect S2048x256 := Rect.unit (s := S2048x256) ![0, 0] S2048x256.size inb_S2048x256_S2048x256_0_0
abbrev r8_4 : Rect S2048x256 := Rect.unit (s := S2048x256) ![0, 0] S2048x256.size inb_S2048x256_S2048x256_0_0
abbrev r8_o : Rect S2048x256 := Rect.unit (s := S2048x256) ![0, 0] S2048x256.size inb_S2048x256_S2048x256_0_0

/-- The output block after the body: its one whole-block store, of the body's value at the five input blocks. -/
def out8 (x0 : Vec F S2048x256 .f32) (x1 : Vec F S256x256 .f32) (x2 : Vec F S1x256 .f32) (x3 : Vec F S2048x256 .f32) (x4 : Vec F S2048x256 .f32) : Vec F S2048x256 .f32 :=
  View.canon [⟨r8_o, k8_pay1 (View.ld x0 r8_0) (View.ld x1 r8_1) (View.ld x2 r8_2) (View.ld x3 r8_3) (View.ld x4 r8_4)⟩]

/-- That one store covers the block. -/
theorem cover8 (p0 : Vec F S2048x256 .f32) (y : S2048x256.Idx) :
    ∃ pc ∈ ([⟨r8_o, p0⟩] : List (View.Piece (Elt F) S2048x256 .f32)), y ∈ pc.1.set :=
  View.cover_of_tiled [⟨r8_o, p0⟩] S2048x256.size (by rfl) y

set_option maxHeartbeats 1000000 in
/-- The body on whole staging buffers: the five input buffers are read and left as found, and the output buffer,
    whatever it held, ends at the body's value. -/
theorem sound_kernel8 (c : Dev nD) (E : Set ℕ) (i : grid8.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole) (arg6 : Memref sig .tc .vmem S2048x256 .f32) (harg6 : arg6.IsWhole)
    (x0 : Vec F S2048x256 .f32) (x1 : Vec F S256x256 .f32) (x2 : Vec F S1x256 .f32) (x3 : Vec F S2048x256 .f32) (x4 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8 x0 x1 x2 x3 x4)) -∗ K ⟨⟩))
      ⊢ wp frame (wpE (defs₀ (F := F)) Variants.none c none) E (cc8__self_update2_kernel i arg1 harg1 arg2 harg2 arg3 harg3 arg4 harg4 arg5 harg5 arg6 harg6) K := by
  simp only [cc8__self_update2_kernel_eq_skeleton]; unfold cc8__self_update2_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover8 _)

/-- The proof data: the arrays as the region finds them; after the body each input buffer still at its block and the
    output buffer at the body's value there; nothing owed, full shares, the scoped rest untouched. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is handed at point `t`, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it hands back. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation8 (c : Dev nD) : BodyObligation (dat8 (F := F) V c) (defs₀ (F := F)) Variants.none () Set.univ := fun t => by
  rw [bigSep_W8, bigSep_W8]
  exact sound_body8 V c t

end Cert.KernelIdeal.Reg

end
-- ==== Proof.KI.Region9.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 9: four input windows, each block loaded whole; one output window, stored whole -/

/-- Window `w`'s block at grid point `t`, read off the array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, fetched there or kept from the point before. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer likewise (the weights: fetched once, then kept). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer likewise (the bias row: fetched once, then kept). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's staging buffer likewise (the added term's row block). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S2048x256 := Rect.unit (s := S2048x256) ![0, 0] S2048x256.size inb_S2048x256_S2048x256_0_0
abbrev r9_1 : Rect S256x256 := Rect.unit (s := S256x256) ![0, 0] S256x256.size inb_S256x256_S256x256_0_0
abbrev r9_2 : Rect S1x256 := Rect.unit (s := S1x256) ![0, 0] S1x256.size inb_S1x256_S1x256_0_0
abbrev r9_3 : Rect S2048x256 := Rect.unit (s := S2048x256) ![0, 0] S2048x256.size inb_S2048x256_S2048x256_0_0
abbrev r9_o : Rect S2048x256 := Rect.unit (s := S2048x256) ![0, 0] S2048x256.size inb_S2048x256_S2048x256_0_0

/-- The output block after the body: its one whole-block store, of the body's value at the four input blocks. -/
def out9 (x0 : Vec F S2048x256 .f32) (x1 : Vec F S256x256 .f32) (x2 : Vec F S1x256 .f32) (x3 : Vec F S2048x256 .f32) : Vec F S2048x256 .f32 :=
  View.canon [⟨r9_o, k9_pay1 (View.ld x0 r9_0) (View.ld x1 r9_1) (View.ld x2 r9_2) (View.ld x3 r9_3)⟩]

/-- That one store covers the block. -/
theorem cover9 (p0 : Vec F S2048x256 .f32) (y : S2048x256.Idx) :
    ∃ pc ∈ ([⟨r9_o, p0⟩] : List (View.Piece (Elt F) S2048x256 .f32)), y ∈ pc.1.set :=
  View.cover_of_tiled [⟨r9_o, p0⟩] S2048x256.size (by rfl) y

set_option maxHeartbeats 1000000 in
/-- The body on whole staging buffers: the four input buffers are read and left as found, and the output buffer,
    whatever it held, ends at the body's value. -/
theorem sound_kernel9 (c : Dev nD) (E : Set ℕ) (i : grid9.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole)
    (x0 : Vec F S2048x256 .f32) (x1 : Vec F S256x256 .f32) (x2 : Vec F S1x256 .f32) (x3 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out9 x0 x1 x2 x3)) -∗ K ⟨⟩))
      ⊢ wp frame (wpE (defs₀ (F := F)) Variants.none c none) E (cc9__self_update_kernel i arg1 harg1 arg2 harg2 arg3 harg3 arg4 harg4 arg5 harg5) K := by
  simp only [cc9__self_update_kernel_eq_skeleton]; unfold cc9__self_update_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover9 _)

/-- The proof data: the arrays as the region finds them; after the body each input buffer still at its block and the
    output buffer at the body's value there; nothing owed, full shares, the scoped rest untouched. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-- What the body is handed at point `t`, window by window, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it hands back. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation9 (c : Dev nD) : BodyObligation (dat9 (F := F) V c) (defs₀ (F := F)) Variants.none () Set.univ := fun t => by
  rw [bigSep_W9, bigSep_W9]
  exact sound_body9 V c t

end Cert.KernelIdeal.Reg

end
-- ==== Proof.KI.Region10.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 10: two input windows, each block loaded whole; one output window, stored whole -/

/-- Window `w`'s block at grid point `t`, read off the array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds its block at every point, fetched there or kept from the point before. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's staging buffer likewise. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

abbrev r10_0 : Rect S2048x256 := Rect.unit (s := S2048x256) ![0, 0] S2048x256.size inb_S2048x256_S2048x256_0_0
abbrev r10_1 : Rect S256x256 := Rect.unit (s := S256x256) ![0, 0] S256x256.size inb_S256x256_S256x256_0_0
abbrev r10_o : Rect S2048x256 := Rect.unit (s := S2048x256) ![0, 0] S2048x256.size inb_S2048x256_S2048x256_0_0

/-- The output block after the body: its one whole-block store, of the body's value at the two input blocks. -/
def out10 (x0 : Vec F S2048x256 .f32) (x1 : Vec F S256x256 .f32) : Vec F S2048x256 .f32 :=
  View.canon [⟨r10_o, k10_pay1 (View.ld x0 r10_0) (View.ld x1 r10_1)⟩]

/-- That one store covers the block. -/
theorem cover10 (p0 : Vec F S2048x256 .f32) (y : S2048x256.Idx) :
    ∃ pc ∈ ([⟨r10_o, p0⟩] : List (View.Piece (Elt F) S2048x256 .f32)), y ∈ pc.1.set :=
  View.cover_of_tiled [⟨r10_o, p0⟩] S2048x256.size (by rfl) y

set_option maxHeartbeats 1000000 in
/-- The body on whole staging buffers: both input buffers are read and left as found, and the output buffer,
    whatever it held, ends at the body's value. -/
theorem sound_kernel10 (c : Dev nD) (E : Set ℕ) (i : grid10.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10 x0 x1)) -∗ K ⟨⟩))
      ⊢ wp frame (wpE (defs₀ (F := F)) Variants.none c none) E (cc10__proj_matmul_kernel i arg1 harg1 arg2 harg2 arg3 harg3) K := by
  simp only [cc10__proj_matmul_kernel_eq_skeleton]; unfold cc10__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover10 _)

/-- The proof data: the arrays as the region finds them; after the body each input buffer still at its block and the
    output buffer at the body's value there; nothing owed, full shares, the scoped rest untouched. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is handed at point `t`, window by window, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it hands back. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation10 (c : Dev nD) : BodyObligation (dat10 (F := F) V c) (defs₀ (F := F)) Variants.none () Set.univ := fun t => by
  rw [bigSep_W10, bigSep_W10]
  exact sound_body10 V c t

end Cert.KernelIdeal.Reg

end
-- ==== Proof.KI.Region11.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 11: two input windows, each block loaded whole; one output window, stored whole -/

/-- Window `w`'s block at grid point `t`, read off the array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's staging buffer holds its block at every point, fetched there or kept from the point before. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's staging buffer likewise. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

abbrev r11_0 : Rect S2048x256 := Rect.unit (s := S2048x256) ![0, 0] S2048x256.size inb_S2048x256_S2048x256_0_0
abbrev r11_1 : Rect S256x256 := Rect.unit (s := S256x256) ![0, 0] S256x256.size inb_S256x256_S256x256_0_0
abbrev r11_o : Rect S2048x256 := Rect.unit (s := S2048x256) ![0, 0] S2048x256.size inb_S2048x256_S2048x256_0_0

/-- The output block after the body: its one whole-block store, of the body's value at the two input blocks. -/
def out11 (x0 : Vec F S2048x256 .f32) (x1 : Vec F S256x256 .f32) : Vec F S2048x256 .f32 :=
  View.canon [⟨r11_o, k11_pay1 (View.ld x0 r11_0) (View.ld x1 r11_1)⟩]

/-- That one store covers the block. -/
theorem cover11 (p0 : Vec F S2048x256 .f32) (y : S2048x256.Idx) :
    ∃ pc ∈ ([⟨r11_o, p0⟩] : List (View.Piece (Elt F) S2048x256 .f32)), y ∈ pc.1.set :=
  View.cover_of_tiled [⟨r11_o, p0⟩] S2048x256.size (by rfl) y

set_option maxHeartbeats 1000000 in
/-- The body on whole staging buffers: both input buffers are read and left as found, and the output buffer,
    whatever it held, ends at the body's value. -/
theorem sound_kernel11 (c : Dev nD) (E : Set ℕ) (i : grid11.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out11 x0 x1)) -∗ K ⟨⟩))
      ⊢ wp frame (wpE (defs₀ (F := F)) Variants.none c none) E (cc11__proj_matmul_kernel i arg1 harg1 arg2 harg2 arg3 harg3) K := by
  simp only [cc11__proj_matmul_kernel_eq_skeleton]; unfold cc11__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover11 _)

/-- The proof data: the arrays as the region finds them; after the body each input buffer still at its block and the
    output buffer at the body's value there; nothing owed, full shares, the scoped rest untouched. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11 (iblk11 V c 0 t) (iblk11 V c 1 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-- What the body is handed at point `t`, window by window, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it hands back. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation11 (c : Dev nD) : BodyObligation (dat11 (F := F) V c) (defs₀ (F := F)) Variants.none () Set.univ := fun t => by
  rw [bigSep_W11, bigSep_W11]
  exact sound_body11 V c t

end Cert.KernelIdeal.Reg

end
-- ==== Proof.KI.Region12.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 12: two input windows, each block loaded whole; one output window, stored whole -/

/-- Window `w`'s block at grid point `t`, read off the array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's staging buffer holds its block at every point, fetched there or kept from the point before. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's staging buffer likewise. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

abbrev r12_0 : Rect S2048x256 := Rect.unit (s := S2048x256) ![0, 0] S2048x256.size inb_S2048x256_S2048x256_0_0
abbrev r12_1 : Rect S256x256 := Rect.unit (s := S256x256) ![0, 0] S256x256.size inb_S256x256_S256x256_0_0
abbrev r12_o : Rect S2048x256 := Rect.unit (s := S2048x256) ![0, 0] S2048x256.size inb_S2048x256_S2048x256_0_0

/-- The output block after the body: its one whole-block store, of the body's value at the two input blocks. -/
def out12 (x0 : Vec F S2048x256 .f32) (x1 : Vec F S256x256 .f32) : Vec F S2048x256 .f32 :=
  View.canon [⟨r12_o, k12_pay1 (View.ld x0 r12_0) (View.ld x1 r12_1)⟩]

/-- That one store covers the block. -/
theorem cover12 (p0 : Vec F S2048x256 .f32) (y : S2048x256.Idx) :
    ∃ pc ∈ ([⟨r12_o, p0⟩] : List (View.Piece (Elt F) S2048x256 .f32)), y ∈ pc.1.set :=
  View.cover_of_tiled [⟨r12_o, p0⟩] S2048x256.size (by rfl) y

set_option maxHeartbeats 1000000 in
/-- The body on whole staging buffers: both input buffers are read and left as found, and the output buffer,
    whatever it held, ends at the body's value. -/
theorem sound_kernel12 (c : Dev nD) (E : Set ℕ) (i : grid12.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12 x0 x1)) -∗ K ⟨⟩))
      ⊢ wp frame (wpE (defs₀ (F := F)) Variants.none c none) E (cc12__proj_matmul_kernel i arg1 harg1 arg2 harg2 arg3 harg3) K := by
  simp only [cc12__proj_matmul_kernel_eq_skeleton]; unfold cc12__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover12 _)

/-- The proof data: the arrays as the region finds them; after the body each input buffer still at its block and the
    output buffer at the body's value there; nothing owed, full shares, the scoped rest untouched. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is handed at point `t`, window by window, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it hands back. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation12 (c : Dev nD) : BodyObligation (dat12 (F := F) V c) (defs₀ (F := F)) Variants.none () Set.univ := fun t => by
  rw [bigSep_W12, bigSep_W12]
  exact sound_body12 V c t

end Cert.KernelIdeal.Reg

end
-- ==== Proof.KI.Region13.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 13: two input windows, each block loaded whole; one output window, stored whole -/

/-- Window `w`'s block at grid point `t`, read off the array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's staging buffer holds its block at every point, fetched there or kept from the point before. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's staging buffer likewise. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

abbrev r13_0 : Rect S2048x256 := Rect.unit (s := S2048x256) ![0, 0] S2048x256.size inb_S2048x256_S2048x256_0_0
abbrev r13_1 : Rect S256x256 := Rect.unit (s := S256x256) ![0, 0] S256x256.size inb_S256x256_S256x256_0_0
abbrev r13_o : Rect S2048x256 := Rect.unit (s := S2048x256) ![0, 0] S2048x256.size inb_S2048x256_S2048x256_0_0

/-- The output block after the body: its one whole-block store, of the body's value at the two input blocks. -/
def out13 (x0 : Vec F S2048x256 .f32) (x1 : Vec F S256x256 .f32) : Vec F S2048x256 .f32 :=
  View.canon [⟨r13_o, k13_pay1 (View.ld x0 r13_0) (View.ld x1 r13_1)⟩]

/-- That one store covers the block. -/
theorem cover13 (p0 : Vec F S2048x256 .f32) (y : S2048x256.Idx) :
    ∃ pc ∈ ([⟨r13_o, p0⟩] : List (View.Piece (Elt F) S2048x256 .f32)), y ∈ pc.1.set :=
  View.cover_of_tiled [⟨r13_o, p0⟩] S2048x256.size (by rfl) y

set_option maxHeartbeats 1000000 in
/-- The body on whole staging buffers: both input buffers are read and left as found, and the output buffer,
    whatever it held, ends at the body's value. -/
theorem sound_kernel13 (c : Dev nD) (E : Set ℕ) (i : grid13.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out13 x0 x1)) -∗ K ⟨⟩))
      ⊢ wp frame (wpE (defs₀ (F := F)) Variants.none c none) E (cc13__proj_matmul_kernel i arg1 harg1 arg2 harg2 arg3 harg3) K := by
  simp only [cc13__proj_matmul_kernel_eq_skeleton]; unfold cc13__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover13 _)

/-- The proof data: the arrays as the region finds them; after the body each input buffer still at its block and the
    output buffer at the body's value there; nothing owed, full shares, the scoped rest untouched. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13 (iblk13 V c 0 t) (iblk13 V c 1 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- What the body is handed at point `t`, window by window, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it hands back. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation13 (c : Dev nD) : BodyObligation (dat13 (F := F) V c) (defs₀ (F := F)) Variants.none () Set.univ := fun t => by
  rw [bigSep_W13, bigSep_W13]
  exact sound_body13 V c t

end Cert.KernelIdeal.Reg

end
-- ==== Proof.KI.Region14.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 14: two input windows, each block loaded whole; one output window, stored whole -/

/-- Window `w`'s block at grid point `t`, read off the array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's staging buffer holds its block at every point, fetched there or kept from the point before. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's staging buffer likewise. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

abbrev r14_0 : Rect S2048x256 := Rect.unit (s := S2048x256) ![0, 0] S2048x256.size inb_S2048x256_S2048x256_0_0
abbrev r14_1 : Rect S256x256 := Rect.unit (s := S256x256) ![0, 0] S256x256.size inb_S256x256_S256x256_0_0
abbrev r14_o : Rect S2048x256 := Rect.unit (s := S2048x256) ![0, 0] S2048x256.size inb_S2048x256_S2048x256_0_0

/-- The output block after the body: its one whole-block store, of the body's value at the two input blocks. -/
def out14 (x0 : Vec F S2048x256 .f32) (x1 : Vec F S256x256 .f32) : Vec F S2048x256 .f32 :=
  View.canon [⟨r14_o, k14_pay1 (View.ld x0 r14_0) (View.ld x1 r14_1)⟩]

/-- That one store covers the block. -/
theorem cover14 (p0 : Vec F S2048x256 .f32) (y : S2048x256.Idx) :
    ∃ pc ∈ ([⟨r14_o, p0⟩] : List (View.Piece (Elt F) S2048x256 .f32)), y ∈ pc.1.set :=
  View.cover_of_tiled [⟨r14_o, p0⟩] S2048x256.size (by rfl) y

set_option maxHeartbeats 1000000 in
/-- The body on whole staging buffers: both input buffers are read and left as found, and the output buffer,
    whatever it held, ends at the body's value. -/
theorem sound_kernel14 (c : Dev nD) (E : Set ℕ) (i : grid14.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out14 x0 x1)) -∗ K ⟨⟩))
      ⊢ wp frame (wpE (defs₀ (F := F)) Variants.none c none) E (cc14__proj_matmul_kernel i arg1 harg1 arg2 harg2 arg3 harg3) K := by
  simp only [cc14__proj_matmul_kernel_eq_skeleton]; unfold cc14__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover14 _)

/-- The proof data: the arrays as the region finds them; after the body each input buffer still at its block and the
    output buffer at the body's value there; nothing owed, full shares, the scoped rest untouched. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = out14 (iblk14 V c 0 t) (iblk14 V c 1 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-- What the body is handed at point `t`, window by window, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it hands back. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ _ (iblk14 V c 0 t) (iblk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation14 (c : Dev nD) : BodyObligation (dat14 (F := F) V c) (defs₀ (F := F)) Variants.none () Set.univ := fun t => by
  rw [bigSep_W14, bigSep_W14]
  exact sound_body14 V c t

end Cert.KernelIdeal.Reg

end
-- ==== Proof.KI.Region15.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 15: two input windows, each block loaded whole; one output window, stored whole -/

/-- Window `w`'s block at grid point `t`, read off the array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's staging buffer holds its block at every point, fetched there or kept from the point before. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- Input window 1's staging buffer likewise. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

abbrev r15_0 : Rect S8x256x128 := Rect.unit (s := S8x256x128) ![0, 0, 0] S8x256x128.size inb_S8x256x128_S8x256x128_0_0_0
abbrev r15_1 : Rect S8x128x256 := Rect.unit (s := S8x128x256) ![0, 0, 0] S8x128x256.size inb_S8x128x256_S8x128x256_0_0_0
abbrev r15_o : Rect S8x256x256 := Rect.unit (s := S8x256x256) ![0, 0, 0] S8x256x256.size inb_S8x256x256_S8x256x256_0_0_0

/-- The output block after the body: its one whole-block store, of the body's value at the two input blocks. -/
def out15 (x0 : Vec F S8x256x128 .bf16) (x1 : Vec F S8x128x256 .f32) : Vec F S8x256x256 .f32 :=
  View.canon [⟨r15_o, k15_pay1 (View.ld x0 r15_0) (View.ld x1 r15_1)⟩]

/-- That one store covers the block. -/
theorem cover15 (p0 : Vec F S8x256x256 .f32) (y : S8x256x256.Idx) :
    ∃ pc ∈ ([⟨r15_o, p0⟩] : List (View.Piece (Elt F) S8x256x256 .f32)), y ∈ pc.1.set :=
  View.cover_of_tiled [⟨r15_o, p0⟩] S8x256x256.size (by rfl) y

set_option maxHeartbeats 1000000 in
/-- The body on whole staging buffers: both input buffers are read and left as found, and the output buffer,
    whatever it held, ends at the body's value. -/
theorem sound_kernel15 (c : Dev nD) (E : Set ℕ) (i : grid15.Coords)
    (arg1 : Memref sig .tc .vmem S8x256x128 .bf16) (harg1 : arg1.IsWhole) (arg2 : Memref sig .tc .vmem S8x128x256 .f32) (harg2 : arg2.IsWhole)
    (arg3 : Memref sig .tc .vmem S8x256x256 .f32) (harg3 : arg3.IsWhole)
    (x0 : Vec F S8x256x128 .bf16) (x1 : Vec F S8x128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out15 x0 x1)) -∗ K ⟨⟩))
      ⊢ wp frame (wpE (defs₀ (F := F)) Variants.none c none) E (cc15__boundary_reduce_kernel i arg1 harg1 arg2 harg2 arg3 harg3) K := by
  simp only [cc15__boundary_reduce_kernel_eq_skeleton]; unfold cc15__boundary_reduce_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover15 _)

/-- The proof data: the arrays as the region finds them; after the body each input buffer still at its block and the
    output buffer at the body's value there; nothing owed, full shares, the scoped rest untouched. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15 (iblk15 V c 0 t) (iblk15 V c 1 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15 (iblk15 V c 0 t) (iblk15 V c 1 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-- What the body is handed at point `t`, window by window, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

/-- and what it hands back. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%d0, H0⟩, ⟨%d1, H1⟩, ⟨%d2, H2⟩⟩
  iapply (sound_kernel15 c Set.univ _ _ _ _ _ _ _ (iblk15 V c 0 t) (iblk15 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation15 (c : Dev nD) : BodyObligation (dat15 (F := F) V c) (defs₀ (F := F)) Variants.none () Set.univ := fun t => by
  rw [bigSep_W15, bigSep_W15]
  exact sound_body15 V c t

end Cert.KernelIdeal.Reg

end
-- ==== Proof.KI.Region16.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 16: three input windows, each block loaded whole; one output window, stored whole -/

/-- Window `w`'s block at grid point `t`, read off the array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's staging buffer holds its block at every point, fetched there or kept from the point before. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- Input window 1's staging buffer likewise. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- Input window 2's staging buffer likewise (fetched once, then kept). -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

abbrev r16_0 : Rect S16x64x256 := Rect.unit (s := S16x64x256) ![0, 0, 0] S16x64x256.size inb_S16x64x256_S16x64x256_0_0_0
abbrev r16_1 : Rect S16x256x256 := Rect.unit (s := S16x256x256) ![0, 0, 0] S16x256x256.size inb_S16x256x256_S16x256x256_0_0_0
abbrev r16_2 : Rect S256x256 := Rect.unit (s := S256x256) ![0, 0] S256x256.size inb_S256x256_S256x256_0_0
abbrev r16_o : Rect S16x64x256 := Rect.unit (s := S16x64x256) ![0, 0, 0] S16x64x256.size inb_S16x64x256_S16x64x256_0_0_0

/-- The output block after the body: its one whole-block store, of the body's value at the three input blocks. -/
def out16 (x0 : Vec F S16x64x256 .bf16) (x1 : Vec F S16x256x256 .f32) (x2 : Vec F S256x256 .f32) : Vec F S16x64x256 .f32 :=
  View.canon [⟨r16_o, k16_pay1 (View.ld x0 r16_0) (View.ld x1 r16_1) (View.ld x2 r16_2)⟩]

/-- That one store covers the block. -/
theorem cover16 (p0 : Vec F S16x64x256 .f32) (y : S16x64x256.Idx) :
    ∃ pc ∈ ([⟨r16_o, p0⟩] : List (View.Piece (Elt F) S16x64x256 .f32)), y ∈ pc.1.set :=
  View.cover_of_tiled [⟨r16_o, p0⟩] S16x64x256.size (by rfl) y

set_option maxHeartbeats 1000000 in
/-- The body on whole staging buffers: the three input buffers are read and left as found, and the output buffer,
    whatever it held, ends at the body's value. -/
theorem sound_kernel16 (c : Dev nD) (E : Set ℕ) (i : grid16.Coords)
    (arg1 : Memref sig .tc .vmem S16x64x256 .bf16) (harg1 : arg1.IsWhole) (arg2 : Memref sig .tc .vmem S16x256x256 .f32) (harg2 : arg2.IsWhole)
    (arg3 : Memref sig .tc .vmem S256x256 .f32) (harg3 : arg3.IsWhole) (arg4 : Memref sig .tc .vmem S16x64x256 .f32) (harg4 : arg4.IsWhole)
    (x0 : Vec F S16x64x256 .bf16) (x1 : Vec F S16x256x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out16 x0 x1 x2)) -∗ K ⟨⟩))
      ⊢ wp frame (wpE (defs₀ (F := F)) Variants.none c none) E (cc16__boundary_kernel i arg1 harg1 arg2 harg2 arg3 harg3 arg4 harg4) K := by
  simp only [cc16__boundary_kernel_eq_skeleton]; unfold cc16__boundary_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover16 _)

/-- The proof data: the arrays as the region finds them; after the body each input buffer still at its block and the
    output buffer at the body's value there; nothing owed, full shares, the scoped rest untouched. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => out16 (iblk16 V c 0 t) (iblk16 V c 1 t) (iblk16 V c 2 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) :
    (dat16 V c).after 3 t = out16 (iblk16 V c 0 t) (iblk16 V c 1 t) (iblk16 V c 2 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

/-- What the body is handed at point `t`, window by window, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d)))

/-- and what it hands back. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).Φ t.succ = (dat16 V c).Φ t.castSucc from rfl,
    show (dat16 V c).owesAt () t.succ = (dat16 V c).owesAt () t.castSucc from rfl,
    after16_0, after16_1, after16_2, after16_3]
  iintro ⟨HΦ, Ho, ⟨%d0, H0⟩, ⟨%d1, H1⟩, ⟨%d2, H2⟩, ⟨%d3, H3⟩⟩
  iapply (sound_kernel16 c Set.univ _ _ _ _ _ _ _ _ _ (iblk16 V c 0 t) (iblk16 V c 1 t) (iblk16 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation16 (c : Dev nD) : BodyObligation (dat16 (F := F) V c) (defs₀ (F := F)) Variants.none () Set.univ := fun t => by
  rw [bigSep_W16, bigSep_W16]
  exact sound_body16 V c t

end Cert.KernelIdeal.Reg

end
-- ==== Proof.KI.Region17.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 17: four input windows, each block loaded whole; one output window, stored whole -/

/-- Window `w`'s block at grid point `t`, read off the array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- Input window 0's staging buffer holds its block at every point, fetched there or kept from the point before. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- Input window 1's staging buffer likewise (the weights: fetched once, then kept). -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- Input window 2's staging buffer likewise (the bias row: fetched once, then kept). -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-- Input window 3's staging buffer likewise (the added term's row block). -/
theorem before17_3_of {c : Dev nD} (dat : Dat τ (Elt F) Unit ℕ (UR sig nD τ) ℕ cfg17 c) (hA : dat.A 3 = V c (Pipeline.arrRef spec17 3))
    (hafter : ∀ t, dat.after 3 t = iblk17 V c 3 t) (t : Fin cfg17.N) (d) : dat.before 3 t d = iblk17 V c 3 t :=
  (dat.before_in_eq_fetched 3 rfl (fun _ => rfl) (fun _ _ _ => rfl) (fun t => by rw [hafter]; unfold Dat.blockOf iblk17; rw [hA]; try rfl) t d).trans
    (by unfold Dat.fetched Dat.blockOf iblk17; rw [hA]; try rfl)

abbrev r17_0 : Rect S2048x256 := Rect.unit (s := S2048x256) ![0, 0] S2048x256.size inb_S2048x256_S2048x256_0_0
abbrev r17_1 : Rect S256x256 := Rect.unit (s := S256x256) ![0, 0] S256x256.size inb_S256x256_S256x256_0_0
abbrev r17_2 : Rect S1x256 := Rect.unit (s := S1x256) ![0, 0] S1x256.size inb_S1x256_S1x256_0_0
abbrev r17_3 : Rect S2048x256 := Rect.unit (s := S2048x256) ![0, 0] S2048x256.size inb_S2048x256_S2048x256_0_0
abbrev r17_o : Rect S2048x256 := Rect.unit (s := S2048x256) ![0, 0] S2048x256.size inb_S2048x256_S2048x256_0_0

/-- The output block after the body: its one whole-block store, of the body's value at the four input blocks. -/
def out17 (x0 : Vec F S2048x256 .f32) (x1 : Vec F S256x256 .f32) (x2 : Vec F S1x256 .f32) (x3 : Vec F S2048x256 .f32) : Vec F S2048x256 .f32 :=
  View.canon [⟨r17_o, k17_pay1 (View.ld x0 r17_0) (View.ld x1 r17_1) (View.ld x2 r17_2) (View.ld x3 r17_3)⟩]

/-- That one store covers the block. -/
theorem cover17 (p0 : Vec F S2048x256 .f32) (y : S2048x256.Idx) :
    ∃ pc ∈ ([⟨r17_o, p0⟩] : List (View.Piece (Elt F) S2048x256 .f32)), y ∈ pc.1.set :=
  View.cover_of_tiled [⟨r17_o, p0⟩] S2048x256.size (by rfl) y

set_option maxHeartbeats 1000000 in
/-- The body on whole staging buffers: the four input buffers are read and left as found, and the output buffer,
    whatever it held, ends at the body's value. -/
theorem sound_kernel17 (c : Dev nD) (E : Set ℕ) (i : grid17.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole)
    (x0 : Vec F S2048x256 .f32) (x1 : Vec F S256x256 .f32) (x2 : Vec F S1x256 .f32) (x3 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out17 x0 x1 x2 x3)) -∗ K ⟨⟩))
      ⊢ wp frame (wpE (defs₀ (F := F)) Variants.none c none) E (cc17__self_update_kernel i arg1 harg1 arg2 harg2 arg3 harg3 arg4 harg4 arg5 harg5) K := by
  simp only [cc17__self_update_kernel_eq_skeleton]; unfold cc17__self_update_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover17 _)

/-- The proof data: the arrays as the region finds them; after the body each input buffer still at its block and the
    output buffer at the body's value there; nothing owed, full shares, the scoped rest untouched. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => out17 (iblk17 V c 0 t) (iblk17 V c 1 t) (iblk17 V c 2 t) (iblk17 V c 3 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = iblk17 V c 3 t := by dsimp only [dat17]
theorem after17_4 (c : Dev nD) (t : Fin cfg17.N) :
    (dat17 V c).after 4 t = out17 (iblk17 V c 0 t) (iblk17 V c 1 t) (iblk17 V c 2 t) (iblk17 V c 3 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d
theorem before17_3 (c : Dev nD) (t : Fin cfg17.N) (d) : (dat17 V c).before 3 t d = iblk17 V c 3 t :=
  before17_3_of V (dat17 V c) (A_eq17 V c 3) (after17_3 V c) t d

/-- What the body is handed at point `t`, window by window, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d))
    ∗ (∃ d, owns (c : Thread nD τ) (st17_4 t) fullShare ((dat17 V c).before 4 t d)))

/-- and what it hands back. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t)
    ∗ owns (c : Thread nD τ) (st17_4 t) fullShare ((dat17 V c).after 4 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2, before17_3]
  rw [show (dat17 V c).Φ t.succ = (dat17 V c).Φ t.castSucc from rfl,
    show (dat17 V c).owesAt () t.succ = (dat17 V c).owesAt () t.castSucc from rfl,
    after17_0, after17_1, after17_2, after17_3, after17_4]
  iintro ⟨HΦ, Ho, ⟨%d0, H0⟩, ⟨%d1, H1⟩, ⟨%d2, H2⟩, ⟨%d3, H3⟩, ⟨%d4, H4⟩⟩
  iapply (sound_kernel17 c Set.univ _ _ _ _ _ _ _ _ _ _ _ (iblk17 V c 0 t) (iblk17 V c 1 t) (iblk17 V c 2 t) (iblk17 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation17 (c : Dev nD) : BodyObligation (dat17 (F := F) V c) (defs₀ (F := F)) Variants.none () Set.univ := fun t => by
  rw [bigSep_W17, bigSep_W17]
  exact sound_body17 V c t

end Cert.KernelIdeal.Reg

end
-- ==== Proof.KI.Region18.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 18: five input windows, each block loaded whole; one output window, stored whole -/

/-- Window `w`'s block at grid point `t`, read off the array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- Input window 0's staging buffer holds its block at every point, fetched there or kept from the point before. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- Input window 1's staging buffer likewise. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- Input window 2's staging buffer likewise. -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

/-- Input window 3's staging buffer likewise. -/
theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)

/-- Input window 4's staging buffer likewise. -/
theorem before18_4_of {c : Dev nD} (dat : Dat τ (Elt F) Unit ℕ (UR sig nD τ) ℕ cfg18 c) (hA : dat.A 4 = V c (Pipeline.arrRef spec18 4))
    (hafter : ∀ t, dat.after 4 t = iblk18 V c 4 t) (t : Fin cfg18.N) (d) : dat.before 4 t d = iblk18 V c 4 t :=
  (dat.before_in_eq_fetched 4 rfl (fun _ => rfl) (fun _ _ _ => rfl) (fun t => by rw [hafter]; unfold Dat.blockOf iblk18; rw [hA]; try rfl) t d).trans
    (by unfold Dat.fetched Dat.blockOf iblk18; rw [hA]; try rfl)

abbrev r18_0 : Rect S2048x256 := Rect.unit (s := S2048x256) ![0, 0] S2048x256.size inb_S2048x256_S2048x256_0_0
abbrev r18_1 : Rect S256x256 := Rect.unit (s := S256x256) ![0, 0] S256x256.size inb_S256x256_S256x256_0_0
abbrev r18_2 : Rect S1x256 := Rect.unit (s := S1x256) ![0, 0] S1x256.size inb_S1x256_S1x256_0_0
abbrev r18_3 : Rect S2048x256 := Rect.unit (s := S2048x256) ![0, 0] S2048x256.size inb_S2048x256_S2048x256_0_0
abbrev r18_4 : Rect S2048x256 := Rect.unit (s := S2048x256) ![0, 0] S2048x256.size inb_S2048x256_S2048x256_0_0
abbrev r18_o : Rect S2048x256 := Rect.unit (s := S2048x256) ![0, 0] S2048x256.size inb_S2048x256_S2048x256_0_0

/-- The output block after the body: its one whole-block store, of the body's value at the five input blocks. -/
def out18 (x0 : Vec F S2048x256 .f32) (x1 : Vec F S256x256 .f32) (x2 : Vec F S1x256 .f32) (x3 : Vec F S2048x256 .f32) (x4 : Vec F S2048x256 .f32) : Vec F S2048x256 .f32 :=
  View.canon [⟨r18_o, k18_pay1 (View.ld x0 r18_0) (View.ld x1 r18_1) (View.ld x2 r18_2) (View.ld x3 r18_3) (View.ld x4 r18_4)⟩]

/-- That one store covers the block. -/
theorem cover18 (p0 : Vec F S2048x256 .f32) (y : S2048x256.Idx) :
    ∃ pc ∈ ([⟨r18_o, p0⟩] : List (View.Piece (Elt F) S2048x256 .f32)), y ∈ pc.1.set :=
  View.cover_of_tiled [⟨r18_o, p0⟩] S2048x256.size (by rfl) y

set_option maxHeartbeats 1000000 in
/-- The body on whole staging buffers: the five input buffers are read and left as found, and the output buffer,
    whatever it held, ends at the body's value. -/
theorem sound_kernel18 (c : Dev nD) (E : Set ℕ) (i : grid18.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole) (arg6 : Memref sig .tc .vmem S2048x256 .f32) (harg6 : arg6.IsWhole)
    (x0 : Vec F S2048x256 .f32) (x1 : Vec F S256x256 .f32) (x2 : Vec F S1x256 .f32) (x3 : Vec F S2048x256 .f32) (x4 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out18 x0 x1 x2 x3 x4)) -∗ K ⟨⟩))
      ⊢ wp frame (wpE (defs₀ (F := F)) Variants.none c none) E (cc18__self_update2_kernel i arg1 harg1 arg2 harg2 arg3 harg3 arg4 harg4 arg5 harg5 arg6 harg6) K := by
  simp only [cc18__self_update2_kernel_eq_skeleton]; unfold cc18__self_update2_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover18 _)

/-- The proof data: the arrays as the region finds them; after the body each input buffer still at its block and the
    output buffer at the body's value there; nothing owed, full shares, the scoped rest untouched. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => iblk18 V c 4 t
    | ⟨5, _⟩ => out18 (iblk18 V c 0 t) (iblk18 V c 1 t) (iblk18 V c 2 t) (iblk18 V c 3 t) (iblk18 V c 4 t)
  Φ _ := Pipeline.ΦA spec18 c
  q _ := fullShare
  owed _ := 0

theorem A_eq18 (c : Dev nD) (w : Fin cfg18.W) : (dat18 V c).A w = V c (Pipeline.arrRef spec18 w) := by
  dsimp only [dat18]

theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) : (dat18 V c).after 4 t = iblk18 V c 4 t := by dsimp only [dat18]
theorem after18_5 (c : Dev nD) (t : Fin cfg18.N) :
    (dat18 V c).after 5 t = out18 (iblk18 V c 0 t) (iblk18 V c 1 t) (iblk18 V c 2 t) (iblk18 V c 3 t) (iblk18 V c 4 t) := by dsimp only [dat18]

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d
theorem before18_4 (c : Dev nD) (t : Fin cfg18.N) (d) : (dat18 V c).before 4 t d = iblk18 V c 4 t :=
  before18_4_of V (dat18 V c) (A_eq18 V c 4) (after18_4 V c) t d

/-- What the body is handed at point `t`, window by window, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d)))

/-- and what it hands back. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t))

theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3, before18_4]
  rw [show (dat18 V c).Φ t.succ = (dat18 V c).Φ t.castSucc from rfl,
    show (dat18 V c).owesAt () t.succ = (dat18 V c).owesAt () t.castSucc from rfl,
    after18_0, after18_1, after18_2, after18_3, after18_4, after18_5]
  iintro ⟨HΦ, Ho, ⟨%d0, H0⟩, ⟨%d1, H1⟩, ⟨%d2, H2⟩, ⟨%d3, H3⟩, ⟨%d4, H4⟩, ⟨%d5, H5⟩⟩
  iapply (sound_kernel18 c Set.univ _ _ _ _ _ _ _ _ _ _ _ _ _ (iblk18 V c 0 t) (iblk18 V c 1 t) (iblk18 V c 2 t) (iblk18 V c 3 t) (iblk18 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation18 (c : Dev nD) : BodyObligation (dat18 (F := F) V c) (defs₀ (F := F)) Variants.none () Set.univ := fun t => by
  rw [bigSep_W18, bigSep_W18]
  exact sound_body18 V c t

end Cert.KernelIdeal.Reg

end
-- ==== Proof.KI.Region19.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 19: four input windows, each block loaded whole; one output window, stored whole -/

/-- Window `w`'s block at grid point `t`, read off the array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- Input window 0's staging buffer holds its block at every point, fetched there or kept from the point before. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

/-- Input window 1's staging buffer likewise (the weights: fetched once, then kept). -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-- Input window 2's staging buffer likewise (the bias row: fetched once, then kept). -/
theorem before19_2_of {c : Dev nD} (dat : Dat τ (Elt F) Unit ℕ (UR sig nD τ) ℕ cfg19 c) (hA : dat.A 2 = V c (Pipeline.arrRef spec19 2))
    (hafter : ∀ t, dat.after 2 t = iblk19 V c 2 t) (t : Fin cfg19.N) (d) : dat.before 2 t d = iblk19 V c 2 t :=
  (dat.before_in_eq_fetched 2 rfl (fun _ => rfl) (fun _ _ _ => rfl) (fun t => by rw [hafter]; unfold Dat.blockOf iblk19; rw [hA]; try rfl) t d).trans
    (by unfold Dat.fetched Dat.blockOf iblk19; rw [hA]; try rfl)

/-- Input window 3's staging buffer likewise (the added term's row block). -/
theorem before19_3_of {c : Dev nD} (dat : Dat τ (Elt F) Unit ℕ (UR sig nD τ) ℕ cfg19 c) (hA : dat.A 3 = V c (Pipeline.arrRef spec19 3))
    (hafter : ∀ t, dat.after 3 t = iblk19 V c 3 t) (t : Fin cfg19.N) (d) : dat.before 3 t d = iblk19 V c 3 t :=
  (dat.before_in_eq_fetched 3 rfl (fun _ => rfl) (fun _ _ _ => rfl) (fun t => by rw [hafter]; unfold Dat.blockOf iblk19; rw [hA]; try rfl) t d).trans
    (by unfold Dat.fetched Dat.blockOf iblk19; rw [hA]; try rfl)

abbrev r19_0 : Rect S2048x256 := Rect.unit (s := S2048x256) ![0, 0] S2048x256.size inb_S2048x256_S2048x256_0_0
abbrev r19_1 : Rect S256x256 := Rect.unit (s := S256x256) ![0, 0] S256x256.size inb_S256x256_S256x256_0_0
abbrev r19_2 : Rect S1x256 := Rect.unit (s := S1x256) ![0, 0] S1x256.size inb_S1x256_S1x256_0_0
abbrev r19_3 : Rect S2048x256 := Rect.unit (s := S2048x256) ![0, 0] S2048x256.size inb_S2048x256_S2048x256_0_0
abbrev r19_o : Rect S2048x256 := Rect.unit (s := S2048x256) ![0, 0] S2048x256.size inb_S2048x256_S2048x256_0_0

/-- The output block after the body: its one whole-block store, of the body's value at the four input blocks. -/
def out19 (x0 : Vec F S2048x256 .f32) (x1 : Vec F S256x256 .f32) (x2 : Vec F S1x256 .f32) (x3 : Vec F S2048x256 .f32) : Vec F S2048x256 .f32 :=
  View.canon [⟨r19_o, k19_pay1 (View.ld x0 r19_0) (View.ld x1 r19_1) (View.ld x2 r19_2) (View.ld x3 r19_3)⟩]

/-- That one store covers the block. -/
theorem cover19 (p0 : Vec F S2048x256 .f32) (y : S2048x256.Idx) :
    ∃ pc ∈ ([⟨r19_o, p0⟩] : List (View.Piece (Elt F) S2048x256 .f32)), y ∈ pc.1.set :=
  View.cover_of_tiled [⟨r19_o, p0⟩] S2048x256.size (by rfl) y

set_option maxHeartbeats 1000000 in
/-- The body on whole staging buffers: the four input buffers are read and left as found, and the output buffer,
    whatever it held, ends at the body's value. -/
theorem sound_kernel19 (c : Dev nD) (E : Set ℕ) (i : grid19.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole)
    (x0 : Vec F S2048x256 .f32) (x1 : Vec F S256x256 .f32) (x2 : Vec F S1x256 .f32) (x3 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out19 x0 x1 x2 x3)) -∗ K ⟨⟩))
      ⊢ wp frame (wpE (defs₀ (F := F)) Variants.none c none) E (cc19__self_update_kernel i arg1 harg1 arg2 harg2 arg3 harg3 arg4 harg4 arg5 harg5) K := by
  simp only [cc19__self_update_kernel_eq_skeleton]; unfold cc19__self_update_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover19 _)

/-- The proof data: the arrays as the region finds them; after the body each input buffer still at its block and the
    output buffer at the body's value there; nothing owed, full shares, the scoped rest untouched. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => iblk19 V c 3 t
    | ⟨4, _⟩ => out19 (iblk19 V c 0 t) (iblk19 V c 1 t) (iblk19 V c 2 t) (iblk19 V c 3 t)
  Φ _ := Pipeline.ΦA spec19 c
  q _ := fullShare
  owed _ := 0

theorem A_eq19 (c : Dev nD) (w : Fin cfg19.W) : (dat19 V c).A w = V c (Pipeline.arrRef spec19 w) := by
  dsimp only [dat19]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) : (dat19 V c).after 3 t = iblk19 V c 3 t := by dsimp only [dat19]
theorem after19_4 (c : Dev nD) (t : Fin cfg19.N) :
    (dat19 V c).after 4 t = out19 (iblk19 V c 0 t) (iblk19 V c 1 t) (iblk19 V c 2 t) (iblk19 V c 3 t) := by dsimp only [dat19]

theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d
theorem before19_2 (c : Dev nD) (t : Fin cfg19.N) (d) : (dat19 V c).before 2 t d = iblk19 V c 2 t :=
  before19_2_of V (dat19 V c) (A_eq19 V c 2) (after19_2 V c) t d
theorem before19_3 (c : Dev nD) (t : Fin cfg19.N) (d) : (dat19 V c).before 3 t d = iblk19 V c 3 t :=
  before19_3_of V (dat19 V c) (A_eq19 V c 3) (after19_3 V c) t d

/-- What the body is handed at point `t`, window by window, -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d))
    ∗ (∃ d, owns (c : Thread nD τ) (st19_3 t) fullShare ((dat19 V c).before 3 t d))
    ∗ (∃ d, owns (c : Thread nD τ) (st19_4 t) fullShare ((dat19 V c).before 4 t d)))

/-- and what it hands back. -/
def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t)
    ∗ owns (c : Thread nD τ) (st19_3 t) fullShare ((dat19 V c).after 3 t)
    ∗ owns (c : Thread nD τ) (st19_4 t) fullShare ((dat19 V c).after 4 t))

theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2, before19_3]
  rw [show (dat19 V c).Φ t.succ = (dat19 V c).Φ t.castSucc from rfl,
    show (dat19 V c).owesAt () t.succ = (dat19 V c).owesAt () t.castSucc from rfl,
    after19_0, after19_1, after19_2, after19_3, after19_4]
  iintro ⟨HΦ, Ho, ⟨%d0, H0⟩, ⟨%d1, H1⟩, ⟨%d2, H2⟩, ⟨%d3, H3⟩, ⟨%d4, H4⟩⟩
  iapply (sound_kernel19 c Set.univ _ _ _ _ _ _ _ _ _ _ _ (iblk19 V c 0 t) (iblk19 V c 1 t) (iblk19 V c 2 t) (iblk19 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation19 (c : Dev nD) : BodyObligation (dat19 (F := F) V c) (defs₀ (F := F)) Variants.none () Set.univ := fun t => by
  rw [bigSep_W19, bigSep_W19]
  exact sound_body19 V c t

end Cert.KernelIdeal.Reg

end
-- ==== Proof.KI.Region20.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 20: two input windows, each block loaded whole; one output window, stored whole -/

/-- Window `w`'s block at grid point `t`, read off the array as the region finds it. -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- Input window 0's staging buffer holds its block at every point, fetched there or kept from the point before. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

/-- Input window 1's staging buffer likewise. -/
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

abbrev r20_0 : Rect S2048x256 := Rect.unit (s := S2048x256) ![0, 0] S2048x256.size inb_S2048x256_S2048x256_0_0
abbrev r20_1 : Rect S256x256 := Rect.unit (s := S256x256) ![0, 0] S256x256.size inb_S256x256_S256x256_0_0
abbrev r20_o : Rect S2048x256 := Rect.unit (s := S2048x256) ![0, 0] S2048x256.size inb_S2048x256_S2048x256_0_0

/-- The output block after the body: its one whole-block store, of the body's value at the two input blocks. -/
def out20 (x0 : Vec F S2048x256 .f32) (x1 : Vec F S256x256 .f32) : Vec F S2048x256 .f32 :=
  View.canon [⟨r20_o, k20_pay1 (View.ld x0 r20_0) (View.ld x1 r20_1)⟩]

/-- That one store covers the block. -/
theorem cover20 (p0 : Vec F S2048x256 .f32) (y : S2048x256.Idx) :
    ∃ pc ∈ ([⟨r20_o, p0⟩] : List (View.Piece (Elt F) S2048x256 .f32)), y ∈ pc.1.set :=
  View.cover_of_tiled [⟨r20_o, p0⟩] S2048x256.size (by rfl) y

set_option maxHeartbeats 1000000 in
/-- The body on whole staging buffers: both input buffers are read and left as found, and the output buffer,
    whatever it held, ends at the body's value. -/
theorem sound_kernel20 (c : Dev nD) (E : Set ℕ) (i : grid20.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out20 x0 x1)) -∗ K ⟨⟩))
      ⊢ wp frame (wpE (defs₀ (F := F)) Variants.none c none) E (cc20__proj_matmul_kernel i arg1 harg1 arg2 harg2 arg3 harg3) K := by
  simp only [cc20__proj_matmul_kernel_eq_skeleton]; unfold cc20__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover20 _)

/-- The proof data: the arrays as the region finds them; after the body each input buffer still at its block and the
    output buffer at the body's value there; nothing owed, full shares, the scoped rest untouched. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => out20 (iblk20 V c 0 t) (iblk20 V c 1 t)
  Φ _ := Pipeline.ΦA spec20 c
  q _ := fullShare
  owed _ := 0

theorem A_eq20 (c : Dev nD) (w : Fin cfg20.W) : (dat20 V c).A w = V c (Pipeline.arrRef spec20 w) := by
  dsimp only [dat20]

theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = out20 (iblk20 V c 0 t) (iblk20 V c 1 t) := by dsimp only [dat20]

theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d

/-- What the body is handed at point `t`, window by window, -/
def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d)))

/-- and what it hands back. -/
def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t))

theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1]
  rw [show (dat20 V c).Φ t.succ = (dat20 V c).Φ t.castSucc from rfl,
    show (dat20 V c).owesAt () t.succ = (dat20 V c).owesAt () t.castSucc from rfl,
    after20_0, after20_1, after20_2]
  iintro ⟨HΦ, Ho, ⟨%d0, H0⟩, ⟨%d1, H1⟩, ⟨%d2, H2⟩⟩
  iapply (sound_kernel20 c Set.univ _ _ _ _ _ _ _ (iblk20 V c 0 t) (iblk20 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation20 (c : Dev nD) : BodyObligation (dat20 (F := F) V c) (defs₀ (F := F)) Variants.none () Set.univ := fun t => by
  rw [bigSep_W20, bigSep_W20]
  exact sound_body20 V c t

end Cert.KernelIdeal.Reg

end
-- ==== Proof.KI.Region21.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 21: two input windows, each block loaded whole; one output window, stored whole -/

/-- Window `w`'s block at grid point `t`, read off the array as the region finds it. -/
def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- Input window 0's staging buffer holds its block at every point, fetched there or kept from the point before. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)

/-- Input window 1's staging buffer likewise. -/
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

abbrev r21_0 : Rect S2048x256 := Rect.unit (s := S2048x256) ![0, 0] S2048x256.size inb_S2048x256_S2048x256_0_0
abbrev r21_1 : Rect S256x256 := Rect.unit (s := S256x256) ![0, 0] S256x256.size inb_S256x256_S256x256_0_0
abbrev r21_o : Rect S2048x256 := Rect.unit (s := S2048x256) ![0, 0] S2048x256.size inb_S2048x256_S2048x256_0_0

/-- The output block after the body: its one whole-block store, of the body's value at the two input blocks. -/
def out21 (x0 : Vec F S2048x256 .f32) (x1 : Vec F S256x256 .f32) : Vec F S2048x256 .f32 :=
  View.canon [⟨r21_o, k21_pay1 (View.ld x0 r21_0) (View.ld x1 r21_1)⟩]

/-- That one store covers the block. -/
theorem cover21 (p0 : Vec F S2048x256 .f32) (y : S2048x256.Idx) :
    ∃ pc ∈ ([⟨r21_o, p0⟩] : List (View.Piece (Elt F) S2048x256 .f32)), y ∈ pc.1.set :=
  View.cover_of_tiled [⟨r21_o, p0⟩] S2048x256.size (by rfl) y

set_option maxHeartbeats 1000000 in
/-- The body on whole staging buffers: both input buffers are read and left as found, and the output buffer,
    whatever it held, ends at the body's value. -/
theorem sound_kernel21 (c : Dev nD) (E : Set ℕ) (i : grid21.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out21 x0 x1)) -∗ K ⟨⟩))
      ⊢ wp frame (wpE (defs₀ (F := F)) Variants.none c none) E (cc21__proj_matmul_kernel i arg1 harg1 arg2 harg2 arg3 harg3) K := by
  simp only [cc21__proj_matmul_kernel_eq_skeleton]; unfold cc21__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover21 _)

/-- The proof data: the arrays as the region finds them; after the body each input buffer still at its block and the
    output buffer at the body's value there; nothing owed, full shares, the scoped rest untouched. -/
def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => out21 (iblk21 V c 0 t) (iblk21 V c 1 t)
  Φ _ := Pipeline.ΦA spec21 c
  q _ := fullShare
  owed _ := 0

theorem A_eq21 (c : Dev nD) (w : Fin cfg21.W) : (dat21 V c).A w = V c (Pipeline.arrRef spec21 w) := by
  dsimp only [dat21]

theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = out21 (iblk21 V c 0 t) (iblk21 V c 1 t) := by dsimp only [dat21]

theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d

/-- What the body is handed at point `t`, window by window, -/
def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d)))

/-- and what it hands back. -/
def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t))

theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1]
  rw [show (dat21 V c).Φ t.succ = (dat21 V c).Φ t.castSucc from rfl,
    show (dat21 V c).owesAt () t.succ = (dat21 V c).owesAt () t.castSucc from rfl,
    after21_0, after21_1, after21_2]
  iintro ⟨HΦ, Ho, ⟨%d0, H0⟩, ⟨%d1, H1⟩, ⟨%d2, H2⟩⟩
  iapply (sound_kernel21 c Set.univ _ _ _ _ _ _ _ (iblk21 V c 0 t) (iblk21 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation21 (c : Dev nD) : BodyObligation (dat21 (F := F) V c) (defs₀ (F := F)) Variants.none () Set.univ := fun t => by
  rw [bigSep_W21, bigSep_W21]
  exact sound_body21 V c t

end Cert.KernelIdeal.Reg

end
-- ==== Proof.KI.Region22.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 22: two input windows, each block loaded whole; one output window, stored whole -/

/-- Window `w`'s block at grid point `t`, read off the array as the region finds it. -/
def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- Input window 0's staging buffer holds its block at every point, fetched there or kept from the point before. -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)

/-- Input window 1's staging buffer likewise. -/
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)

abbrev r22_0 : Rect S2048x256 := Rect.unit (s := S2048x256) ![0, 0] S2048x256.size inb_S2048x256_S2048x256_0_0
abbrev r22_1 : Rect S256x256 := Rect.unit (s := S256x256) ![0, 0] S256x256.size inb_S256x256_S256x256_0_0
abbrev r22_o : Rect S2048x256 := Rect.unit (s := S2048x256) ![0, 0] S2048x256.size inb_S2048x256_S2048x256_0_0

/-- The output block after the body: its one whole-block store, of the body's value at the two input blocks. -/
def out22 (x0 : Vec F S2048x256 .f32) (x1 : Vec F S256x256 .f32) : Vec F S2048x256 .f32 :=
  View.canon [⟨r22_o, k22_pay1 (View.ld x0 r22_0) (View.ld x1 r22_1)⟩]

/-- That one store covers the block. -/
theorem cover22 (p0 : Vec F S2048x256 .f32) (y : S2048x256.Idx) :
    ∃ pc ∈ ([⟨r22_o, p0⟩] : List (View.Piece (Elt F) S2048x256 .f32)), y ∈ pc.1.set :=
  View.cover_of_tiled [⟨r22_o, p0⟩] S2048x256.size (by rfl) y

set_option maxHeartbeats 1000000 in
/-- The body on whole staging buffers: both input buffers are read and left as found, and the output buffer,
    whatever it held, ends at the body's value. -/
theorem sound_kernel22 (c : Dev nD) (E : Set ℕ) (i : grid22.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out22 x0 x1)) -∗ K ⟨⟩))
      ⊢ wp frame (wpE (defs₀ (F := F)) Variants.none c none) E (cc22__proj_matmul_kernel i arg1 harg1 arg2 harg2 arg3 harg3) K := by
  simp only [cc22__proj_matmul_kernel_eq_skeleton]; unfold cc22__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover22 _)

/-- The proof data: the arrays as the region finds them; after the body each input buffer still at its block and the
    output buffer at the body's value there; nothing owed, full shares, the scoped rest untouched. -/
def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => out22 (iblk22 V c 0 t) (iblk22 V c 1 t)
  Φ _ := Pipeline.ΦA spec22 c
  q _ := fullShare
  owed _ := 0

theorem A_eq22 (c : Dev nD) (w : Fin cfg22.W) : (dat22 V c).A w = V c (Pipeline.arrRef spec22 w) := by
  dsimp only [dat22]

theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = out22 (iblk22 V c 0 t) (iblk22 V c 1 t) := by dsimp only [dat22]

theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d

/-- What the body is handed at point `t`, window by window, -/
def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d)))

/-- and what it hands back. -/
def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t))

theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1]
  rw [show (dat22 V c).Φ t.succ = (dat22 V c).Φ t.castSucc from rfl,
    show (dat22 V c).owesAt () t.succ = (dat22 V c).owesAt () t.castSucc from rfl,
    after22_0, after22_1, after22_2]
  iintro ⟨HΦ, Ho, ⟨%d0, H0⟩, ⟨%d1, H1⟩, ⟨%d2, H2⟩⟩
  iapply (sound_kernel22 c Set.univ _ _ _ _ _ _ _ (iblk22 V c 0 t) (iblk22 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation22 (c : Dev nD) : BodyObligation (dat22 (F := F) V c) (defs₀ (F := F)) Variants.none () Set.univ := fun t => by
  rw [bigSep_W22, bigSep_W22]
  exact sound_body22 V c t

end Cert.KernelIdeal.Reg

end
-- ==== Proof.KI.Region23.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 23: two input windows, each block loaded whole; one output window, stored whole -/

/-- Window `w`'s block at grid point `t`, read off the array as the region finds it. -/
def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

/-- Input window 0's staging buffer holds its block at every point, fetched there or kept from the point before. -/
theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)

/-- Input window 1's staging buffer likewise. -/
theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)

abbrev r23_0 : Rect S2048x256 := Rect.unit (s := S2048x256) ![0, 0] S2048x256.size inb_S2048x256_S2048x256_0_0
abbrev r23_1 : Rect S256x256 := Rect.unit (s := S256x256) ![0, 0] S256x256.size inb_S256x256_S256x256_0_0
abbrev r23_o : Rect S2048x256 := Rect.unit (s := S2048x256) ![0, 0] S2048x256.size inb_S2048x256_S2048x256_0_0

/-- The output block after the body: its one whole-block store, of the body's value at the two input blocks. -/
def out23 (x0 : Vec F S2048x256 .f32) (x1 : Vec F S256x256 .f32) : Vec F S2048x256 .f32 :=
  View.canon [⟨r23_o, k23_pay1 (View.ld x0 r23_0) (View.ld x1 r23_1)⟩]

/-- That one store covers the block. -/
theorem cover23 (p0 : Vec F S2048x256 .f32) (y : S2048x256.Idx) :
    ∃ pc ∈ ([⟨r23_o, p0⟩] : List (View.Piece (Elt F) S2048x256 .f32)), y ∈ pc.1.set :=
  View.cover_of_tiled [⟨r23_o, p0⟩] S2048x256.size (by rfl) y

set_option maxHeartbeats 1000000 in
/-- The body on whole staging buffers: both input buffers are read and left as found, and the output buffer,
    whatever it held, ends at the body's value. -/
theorem sound_kernel23 (c : Dev nD) (E : Set ℕ) (i : grid23.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out23 x0 x1)) -∗ K ⟨⟩))
      ⊢ wp frame (wpE (defs₀ (F := F)) Variants.none c none) E (cc23__proj_matmul_kernel i arg1 harg1 arg2 harg2 arg3 harg3) K := by
  simp only [cc23__proj_matmul_kernel_eq_skeleton]; unfold cc23__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover23 _)

/-- The proof data: the arrays as the region finds them; after the body each input buffer still at its block and the
    output buffer at the body's value there; nothing owed, full shares, the scoped rest untouched. -/
def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => out23 (iblk23 V c 0 t) (iblk23 V c 1 t)
  Φ _ := Pipeline.ΦA spec23 c
  q _ := fullShare
  owed _ := 0

theorem A_eq23 (c : Dev nD) (w : Fin cfg23.W) : (dat23 V c).A w = V c (Pipeline.arrRef spec23 w) := by
  dsimp only [dat23]

theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = out23 (iblk23 V c 0 t) (iblk23 V c 1 t) := by dsimp only [dat23]

theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d

/-- What the body is handed at point `t`, window by window, -/
def bodyPre23 (c : Dev nD) (t : Fin cfg23.N) : sProp 𝕄 :=
  iprop((dat23 V c).Φ t.castSucc ∗ (dat23 V c).owesAt () t.castSucc
    ∗ (∃ d, owns (c : Thread nD τ) (st23_0 t) fullShare ((dat23 V c).before 0 t d))
    ∗ (∃ d, owns (c : Thread nD τ) (st23_1 t) fullShare ((dat23 V c).before 1 t d))
    ∗ (∃ d, owns (c : Thread nD τ) (st23_2 t) fullShare ((dat23 V c).before 2 t d)))

/-- and what it hands back. -/
def bodyPost23 (c : Dev nD) (t : Fin cfg23.N) : sProp 𝕄 :=
  iprop((dat23 V c).Φ t.succ ∗ (dat23 V c).owesAt () t.succ
    ∗ owns (c : Thread nD τ) (st23_0 t) fullShare ((dat23 V c).after 0 t)
    ∗ owns (c : Thread nD τ) (st23_1 t) fullShare ((dat23 V c).after 1 t)
    ∗ owns (c : Thread nD τ) (st23_2 t) fullShare ((dat23 V c).after 2 t))

theorem sound_body23 (c : Dev nD) (t : Fin cfg23.N) :
    bodyPre23 V c t ⊢ wp frame (wpE (defs₀ (F := F)) Variants.none c none) Set.univ (bodyAt23 t) (fun _ => bodyPost23 V c t) := by
  unfold bodyPre23 bodyPost23 bodyAt23
  simp only [before23_0, before23_1]
  rw [show (dat23 V c).Φ t.succ = (dat23 V c).Φ t.castSucc from rfl,
    show (dat23 V c).owesAt () t.succ = (dat23 V c).owesAt () t.castSucc from rfl,
    after23_0, after23_1, after23_2]
  iintro ⟨HΦ, Ho, ⟨%d0, H0⟩, ⟨%d1, H1⟩, ⟨%d2, H2⟩⟩
  iapply (sound_kernel23 c Set.univ _ _ _ _ _ _ _ (iblk23 V c 0 t) (iblk23 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation23 (c : Dev nD) : BodyObligation (dat23 (F := F) V c) (defs₀ (F := F)) Variants.none () Set.univ := fun t => by
  rw [bigSep_W23, bigSep_W23]
  exact sound_body23 V c t

end Cert.KernelIdeal.Reg

end
-- ==== Proof.KI.Region24.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 24: two input windows, each block loaded whole; one output window, stored whole -/

/-- Window `w`'s block at grid point `t`, read off the array as the region finds it. -/
def iblk24 (c : Dev nD) (w : Fin cfg24.W) (t : Fin cfg24.N) : ((cfg24.win w).xblock (cfg24.grid.coords t)).Idx → Elt F (cfg24.win w).elt :=
  ((cfg24.win w).blk t).view.read (Elt F) (V c (Pipeline.arrRef spec24 w))

/-- Input window 0's staging buffer holds its block at every point, fetched there or kept from the point before. -/
theorem before24_0_of {c : Dev nD} (dat : Dat τ (Elt F) Unit ℕ (UR sig nD τ) ℕ cfg24 c) (hA : dat.A 0 = V c (Pipeline.arrRef spec24 0))
    (hafter : ∀ t, dat.after 0 t = iblk24 V c 0 t) (t : Fin cfg24.N) (d) : dat.before 0 t d = iblk24 V c 0 t :=
  (dat.before_in_eq_fetched 0 rfl (fun _ => rfl) (fun _ _ _ => rfl) (fun t => by rw [hafter]; unfold Dat.blockOf iblk24; rw [hA]; try rfl) t d).trans
    (by unfold Dat.fetched Dat.blockOf iblk24; rw [hA]; try rfl)

/-- Input window 1's staging buffer likewise. -/
theorem before24_1_of {c : Dev nD} (dat : Dat τ (Elt F) Unit ℕ (UR sig nD τ) ℕ cfg24 c) (hA : dat.A 1 = V c (Pipeline.arrRef spec24 1))
    (hafter : ∀ t, dat.after 1 t = iblk24 V c 1 t) (t : Fin cfg24.N) (d) : dat.before 1 t d = iblk24 V c 1 t :=
  (dat.before_in_eq_fetched 1 rfl (fun _ => rfl) (fun _ _ _ => rfl) (fun t => by rw [hafter]; unfold Dat.blockOf iblk24; rw [hA]; try rfl) t d).trans
    (by unfold Dat.fetched Dat.blockOf iblk24; rw [hA]; try rfl)

abbrev r24_0 : Rect S2048x256 := Rect.unit (s := S2048x256) ![0, 0] S2048x256.size inb_S2048x256_S2048x256_0_0
abbrev r24_1 : Rect S256x256 := Rect.unit (s := S256x256) ![0, 0] S256x256.size inb_S256x256_S256x256_0_0
abbrev r24_o : Rect S2048x256 := Rect.unit (s := S2048x256) ![0, 0] S2048x256.size inb_S2048x256_S2048x256_0_0

/-- The output block after the body: its one whole-block store, of the body's value at the two input blocks. -/
def out24 (x0 : Vec F S2048x256 .f32) (x1 : Vec F S256x256 .f32) : Vec F S2048x256 .f32 :=
  View.canon [⟨r24_o, k24_pay1 (View.ld x0 r24_0) (View.ld x1 r24_1)⟩]

/-- That one store covers the block. -/
theorem cover24 (p0 : Vec F S2048x256 .f32) (y : S2048x256.Idx) :
    ∃ pc ∈ ([⟨r24_o, p0⟩] : List (View.Piece (Elt F) S2048x256 .f32)), y ∈ pc.1.set :=
  View.cover_of_tiled [⟨r24_o, p0⟩] S2048x256.size (by rfl) y

set_option maxHeartbeats 1000000 in
/-- The body on whole staging buffers: both input buffers are read and left as found, and the output buffer,
    whatever it held, ends at the body's value. -/
theorem sound_kernel24 (c : Dev nD) (E : Set ℕ) (i : grid24.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out24 x0 x1)) -∗ K ⟨⟩))
      ⊢ wp frame (wpE (defs₀ (F := F)) Variants.none c none) E (cc24__proj_matmul_kernel i arg1 harg1 arg2 harg2 arg3 harg3) K := by
  simp only [cc24__proj_matmul_kernel_eq_skeleton]; unfold cc24__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover24 _)

/-- The proof data: the arrays as the region finds them; after the body each input buffer still at its block and the
    output buffer at the body's value there; nothing owed, full shares, the scoped rest untouched. -/
def dat24 (c : Dev nD) : Dat τ (Elt F) Unit ℕ (UR sig nD τ) ℕ cfg24 c where
  A w := V c (Pipeline.arrRef spec24 w)
  after w t := match w with
    | ⟨0, _⟩ => iblk24 V c 0 t
    | ⟨1, _⟩ => iblk24 V c 1 t
    | ⟨2, _⟩ => out24 (iblk24 V c 0 t) (iblk24 V c 1 t)
  Φ _ := Pipeline.ΦA spec24 c
  q _ := fullShare
  owed _ := 0

theorem A_eq24 (c : Dev nD) (w : Fin cfg24.W) : (dat24 V c).A w = V c (Pipeline.arrRef spec24 w) := by
  dsimp only [dat24]

theorem after24_0 (c : Dev nD) (t : Fin cfg24.N) : (dat24 V c).after 0 t = iblk24 V c 0 t := by dsimp only [dat24]
theorem after24_1 (c : Dev nD) (t : Fin cfg24.N) : (dat24 V c).after 1 t = iblk24 V c 1 t := by dsimp only [dat24]
theorem after24_2 (c : Dev nD) (t : Fin cfg24.N) : (dat24 V c).after 2 t = out24 (iblk24 V c 0 t) (iblk24 V c 1 t) := by dsimp only [dat24]

theorem before24_0 (c : Dev nD) (t : Fin cfg24.N) (d) : (dat24 V c).before 0 t d = iblk24 V c 0 t :=
  before24_0_of V (dat24 V c) (A_eq24 V c 0) (after24_0 V c) t d
theorem before24_1 (c : Dev nD) (t : Fin cfg24.N) (d) : (dat24 V c).before 1 t d = iblk24 V c 1 t :=
  before24_1_of V (dat24 V c) (A_eq24 V c 1) (after24_1 V c) t d

/-- What the body is handed at point `t`, window by window, -/
def bodyPre24 (c : Dev nD) (t : Fin cfg24.N) : sProp 𝕄 :=
  iprop((dat24 V c).Φ t.castSucc ∗ (dat24 V c).owesAt () t.castSucc
    ∗ (∃ d, owns (c : Thread nD τ) (st24_0 t) fullShare ((dat24 V c).before 0 t d))
    ∗ (∃ d, owns (c : Thread nD τ) (st24_1 t) fullShare ((dat24 V c).before 1 t d))
    ∗ (∃ d, owns (c : Thread nD τ) (st24_2 t) fullShare ((dat24 V c).before 2 t d)))

/-- and what it hands back. -/
def bodyPost24 (c : Dev nD) (t : Fin cfg24.N) : sProp 𝕄 :=
  iprop((dat24 V c).Φ t.succ ∗ (dat24 V c).owesAt () t.succ
    ∗ owns (c : Thread nD τ) (st24_0 t) fullShare ((dat24 V c).after 0 t)
    ∗ owns (c : Thread nD τ) (st24_1 t) fullShare ((dat24 V c).after 1 t)
    ∗ owns (c : Thread nD τ) (st24_2 t) fullShare ((dat24 V c).after 2 t))

theorem sound_body24 (c : Dev nD) (t : Fin cfg24.N) :
    bodyPre24 V c t ⊢ wp frame (wpE (defs₀ (F := F)) Variants.none c none) Set.univ (bodyAt24 t) (fun _ => bodyPost24 V c t) := by
  unfold bodyPre24 bodyPost24 bodyAt24
  simp only [before24_0, before24_1]
  rw [show (dat24 V c).Φ t.succ = (dat24 V c).Φ t.castSucc from rfl,
    show (dat24 V c).owesAt () t.succ = (dat24 V c).owesAt () t.castSucc from rfl,
    after24_0, after24_1, after24_2]
  iintro ⟨HΦ, Ho, ⟨%d0, H0⟩, ⟨%d1, H1⟩, ⟨%d2, H2⟩⟩
  iapply (sound_kernel24 c Set.univ _ _ _ _ _ _ _ (iblk24 V c 0 t) (iblk24 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation24 (c : Dev nD) : BodyObligation (dat24 (F := F) V c) (defs₀ (F := F)) Variants.none () Set.univ := fun t => by
  rw [bigSep_W24, bigSep_W24]
  exact sound_body24 V c t

end Cert.KernelIdeal.Reg

end
-- ==== Proof.KI.Region25.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 25: two input windows, each block loaded whole; one output window, stored whole -/

/-- Window `w`'s block at grid point `t`, read off the array as the region finds it. -/
def iblk25 (c : Dev nD) (w : Fin cfg25.W) (t : Fin cfg25.N) : ((cfg25.win w).xblock (cfg25.grid.coords t)).Idx → Elt F (cfg25.win w).elt :=
  ((cfg25.win w).blk t).view.read (Elt F) (V c (Pipeline.arrRef spec25 w))

/-- Input window 0's staging buffer holds its block at every point, fetched there or kept from the point before. -/
theorem before25_0_of {c : Dev nD} (dat : Dat τ (Elt F) Unit ℕ (UR sig nD τ) ℕ cfg25 c) (hA : dat.A 0 = V c (Pipeline.arrRef spec25 0))
    (hafter : ∀ t, dat.after 0 t = iblk25 V c 0 t) (t : Fin cfg25.N) (d) : dat.before 0 t d = iblk25 V c 0 t :=
  (dat.before_in_eq_fetched 0 rfl (fun _ => rfl) (fun _ _ _ => rfl) (fun t => by rw [hafter]; unfold Dat.blockOf iblk25; rw [hA]; try rfl) t d).trans
    (by unfold Dat.fetched Dat.blockOf iblk25; rw [hA]; try rfl)

/-- Input window 1's staging buffer likewise. -/
theorem before25_1_of {c : Dev nD} (dat : Dat τ (Elt F) Unit ℕ (UR sig nD τ) ℕ cfg25 c) (hA : dat.A 1 = V c (Pipeline.arrRef spec25 1))
    (hafter : ∀ t, dat.after 1 t = iblk25 V c 1 t) (t : Fin cfg25.N) (d) : dat.before 1 t d = iblk25 V c 1 t :=
  (dat.before_in_eq_fetched 1 rfl (fun _ => rfl) (fun _ _ _ => rfl) (fun t => by rw [hafter]; unfold Dat.blockOf iblk25; rw [hA]; try rfl) t d).trans
    (by unfold Dat.fetched Dat.blockOf iblk25; rw [hA]; try rfl)

abbrev r25_0 : Rect S8x256x128 := Rect.unit (s := S8x256x128) ![0, 0, 0] S8x256x128.size inb_S8x256x128_S8x256x128_0_0_0
abbrev r25_1 : Rect S8x128x256 := Rect.unit (s := S8x128x256) ![0, 0, 0] S8x128x256.size inb_S8x128x256_S8x128x256_0_0_0
abbrev r25_o : Rect S8x256x256 := Rect.unit (s := S8x256x256) ![0, 0, 0] S8x256x256.size inb_S8x256x256_S8x256x256_0_0_0

/-- The output block after the body: its one whole-block store, of the body's value at the two input blocks. -/
def out25 (x0 : Vec F S8x256x128 .bf16) (x1 : Vec F S8x128x256 .f32) : Vec F S8x256x256 .f32 :=
  View.canon [⟨r25_o, k25_pay1 (View.ld x0 r25_0) (View.ld x1 r25_1)⟩]

/-- That one store covers the block. -/
theorem cover25 (p0 : Vec F S8x256x256 .f32) (y : S8x256x256.Idx) :
    ∃ pc ∈ ([⟨r25_o, p0⟩] : List (View.Piece (Elt F) S8x256x256 .f32)), y ∈ pc.1.set :=
  View.cover_of_tiled [⟨r25_o, p0⟩] S8x256x256.size (by rfl) y

set_option maxHeartbeats 1000000 in
/-- The body on whole staging buffers: both input buffers are read and left as found, and the output buffer,
    whatever it held, ends at the body's value. -/
theorem sound_kernel25 (c : Dev nD) (E : Set ℕ) (i : grid25.Coords)
    (arg1 : Memref sig .tc .vmem S8x256x128 .bf16) (harg1 : arg1.IsWhole) (arg2 : Memref sig .tc .vmem S8x128x256 .f32) (harg2 : arg2.IsWhole)
    (arg3 : Memref sig .tc .vmem S8x256x256 .f32) (harg3 : arg3.IsWhole)
    (x0 : Vec F S8x256x128 .bf16) (x1 : Vec F S8x128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out25 x0 x1)) -∗ K ⟨⟩))
      ⊢ wp frame (wpE (defs₀ (F := F)) Variants.none c none) E (cc25__boundary_reduce_kernel i arg1 harg1 arg2 harg2 arg3 harg3) K := by
  simp only [cc25__boundary_reduce_kernel_eq_skeleton]; unfold cc25__boundary_reduce_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover25 _)

/-- The proof data: the arrays as the region finds them; after the body each input buffer still at its block and the
    output buffer at the body's value there; nothing owed, full shares, the scoped rest untouched. -/
def dat25 (c : Dev nD) : Dat τ (Elt F) Unit ℕ (UR sig nD τ) ℕ cfg25 c where
  A w := V c (Pipeline.arrRef spec25 w)
  after w t := match w with
    | ⟨0, _⟩ => iblk25 V c 0 t
    | ⟨1, _⟩ => iblk25 V c 1 t
    | ⟨2, _⟩ => out25 (iblk25 V c 0 t) (iblk25 V c 1 t)
  Φ _ := Pipeline.ΦA spec25 c
  q _ := fullShare
  owed _ := 0

theorem A_eq25 (c : Dev nD) (w : Fin cfg25.W) : (dat25 V c).A w = V c (Pipeline.arrRef spec25 w) := by
  dsimp only [dat25]

theorem after25_0 (c : Dev nD) (t : Fin cfg25.N) : (dat25 V c).after 0 t = iblk25 V c 0 t := by dsimp only [dat25]
theorem after25_1 (c : Dev nD) (t : Fin cfg25.N) : (dat25 V c).after 1 t = iblk25 V c 1 t := by dsimp only [dat25]
theorem after25_2 (c : Dev nD) (t : Fin cfg25.N) : (dat25 V c).after 2 t = out25 (iblk25 V c 0 t) (iblk25 V c 1 t) := by dsimp only [dat25]

theorem before25_0 (c : Dev nD) (t : Fin cfg25.N) (d) : (dat25 V c).before 0 t d = iblk25 V c 0 t :=
  before25_0_of V (dat25 V c) (A_eq25 V c 0) (after25_0 V c) t d
theorem before25_1 (c : Dev nD) (t : Fin cfg25.N) (d) : (dat25 V c).before 1 t d = iblk25 V c 1 t :=
  before25_1_of V (dat25 V c) (A_eq25 V c 1) (after25_1 V c) t d

/-- What the body is handed at point `t`, window by window, -/
def bodyPre25 (c : Dev nD) (t : Fin cfg25.N) : sProp 𝕄 :=
  iprop((dat25 V c).Φ t.castSucc ∗ (dat25 V c).owesAt () t.castSucc
    ∗ (∃ d, owns (c : Thread nD τ) (st25_0 t) fullShare ((dat25 V c).before 0 t d))
    ∗ (∃ d, owns (c : Thread nD τ) (st25_1 t) fullShare ((dat25 V c).before 1 t d))
    ∗ (∃ d, owns (c : Thread nD τ) (st25_2 t) fullShare ((dat25 V c).before 2 t d)))

/-- and what it hands back. -/
def bodyPost25 (c : Dev nD) (t : Fin cfg25.N) : sProp 𝕄 :=
  iprop((dat25 V c).Φ t.succ ∗ (dat25 V c).owesAt () t.succ
    ∗ owns (c : Thread nD τ) (st25_0 t) fullShare ((dat25 V c).after 0 t)
    ∗ owns (c : Thread nD τ) (st25_1 t) fullShare ((dat25 V c).after 1 t)
    ∗ owns (c : Thread nD τ) (st25_2 t) fullShare ((dat25 V c).after 2 t))

theorem sound_body25 (c : Dev nD) (t : Fin cfg25.N) :
    bodyPre25 V c t ⊢ wp frame (wpE (defs₀ (F := F)) Variants.none c none) Set.univ (bodyAt25 t) (fun _ => bodyPost25 V c t) := by
  unfold bodyPre25 bodyPost25 bodyAt25
  simp only [before25_0, before25_1]
  rw [show (dat25 V c).Φ t.succ = (dat25 V c).Φ t.castSucc from rfl,
    show (dat25 V c).owesAt () t.succ = (dat25 V c).owesAt () t.castSucc from rfl,
    after25_0, after25_1, after25_2]
  iintro ⟨HΦ, Ho, ⟨%d0, H0⟩, ⟨%d1, H1⟩, ⟨%d2, H2⟩⟩
  iapply (sound_kernel25 c Set.univ _ _ _ _ _ _ _ (iblk25 V c 0 t) (iblk25 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation25 (c : Dev nD) : BodyObligation (dat25 (F := F) V c) (defs₀ (F := F)) Variants.none () Set.univ := fun t => by
  rw [bigSep_W25, bigSep_W25]
  exact sound_body25 V c t

end Cert.KernelIdeal.Reg

end
-- ==== Proof.KI.Region26.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 26: three input windows, each block loaded whole; one output window, stored whole -/

/-- Window `w`'s block at grid point `t`, read off the array as the region finds it. -/
def iblk26 (c : Dev nD) (w : Fin cfg26.W) (t : Fin cfg26.N) : ((cfg26.win w).xblock (cfg26.grid.coords t)).Idx → Elt F (cfg26.win w).elt :=
  ((cfg26.win w).blk t).view.read (Elt F) (V c (Pipeline.arrRef spec26 w))

/-- Input window 0's staging buffer holds its block at every point, fetched there or kept from the point before. -/
theorem before26_0_of {c : Dev nD} (dat : Dat τ (Elt F) Unit ℕ (UR sig nD τ) ℕ cfg26 c) (hA : dat.A 0 = V c (Pipeline.arrRef spec26 0))
    (hafter : ∀ t, dat.after 0 t = iblk26 V c 0 t) (t : Fin cfg26.N) (d) : dat.before 0 t d = iblk26 V c 0 t :=
  (dat.before_in_eq_fetched 0 rfl (fun _ => rfl) (fun _ _ _ => rfl) (fun t => by rw [hafter]; unfold Dat.blockOf iblk26; rw [hA]; try rfl) t d).trans
    (by unfold Dat.fetched Dat.blockOf iblk26; rw [hA]; try rfl)

/-- Input window 1's staging buffer likewise. -/
theorem before26_1_of {c : Dev nD} (dat : Dat τ (Elt F) Unit ℕ (UR sig nD τ) ℕ cfg26 c) (hA : dat.A 1 = V c (Pipeline.arrRef spec26 1))
    (hafter : ∀ t, dat.after 1 t = iblk26 V c 1 t) (t : Fin cfg26.N) (d) : dat.before 1 t d = iblk26 V c 1 t :=
  (dat.before_in_eq_fetched 1 rfl (fun _ => rfl) (fun _ _ _ => rfl) (fun t => by rw [hafter]; unfold Dat.blockOf iblk26; rw [hA]; try rfl) t d).trans
    (by unfold Dat.fetched Dat.blockOf iblk26; rw [hA]; try rfl)

/-- Input window 2's staging buffer likewise (fetched once, then kept). -/
theorem before26_2_of {c : Dev nD} (dat : Dat τ (Elt F) Unit ℕ (UR sig nD τ) ℕ cfg26 c) (hA : dat.A 2 = V c (Pipeline.arrRef spec26 2))
    (hafter : ∀ t, dat.after 2 t = iblk26 V c 2 t) (t : Fin cfg26.N) (d) : dat.before 2 t d = iblk26 V c 2 t :=
  (dat.before_in_eq_fetched 2 rfl (fun _ => rfl) (fun _ _ _ => rfl) (fun t => by rw [hafter]; unfold Dat.blockOf iblk26; rw [hA]; try rfl) t d).trans
    (by unfold Dat.fetched Dat.blockOf iblk26; rw [hA]; try rfl)

abbrev r26_0 : Rect S16x64x256 := Rect.unit (s := S16x64x256) ![0, 0, 0] S16x64x256.size inb_S16x64x256_S16x64x256_0_0_0
abbrev r26_1 : Rect S16x256x256 := Rect.unit (s := S16x256x256) ![0, 0, 0] S16x256x256.size inb_S16x256x256_S16x256x256_0_0_0
abbrev r26_2 : Rect S256x256 := Rect.unit (s := S256x256) ![0, 0] S256x256.size inb_S256x256_S256x256_0_0
abbrev r26_o : Rect S16x64x256 := Rect.unit (s := S16x64x256) ![0, 0, 0] S16x64x256.size inb_S16x64x256_S16x64x256_0_0_0

/-- The output block after the body: its one whole-block store, of the body's value at the three input blocks. -/
def out26 (x0 : Vec F S16x64x256 .bf16) (x1 : Vec F S16x256x256 .f32) (x2 : Vec F S256x256 .f32) : Vec F S16x64x256 .f32 :=
  View.canon [⟨r26_o, k26_pay1 (View.ld x0 r26_0) (View.ld x1 r26_1) (View.ld x2 r26_2)⟩]

/-- That one store covers the block. -/
theorem cover26 (p0 : Vec F S16x64x256 .f32) (y : S16x64x256.Idx) :
    ∃ pc ∈ ([⟨r26_o, p0⟩] : List (View.Piece (Elt F) S16x64x256 .f32)), y ∈ pc.1.set :=
  View.cover_of_tiled [⟨r26_o, p0⟩] S16x64x256.size (by rfl) y

set_option maxHeartbeats 1000000 in
/-- The body on whole staging buffers: the three input buffers are read and left as found, and the output buffer,
    whatever it held, ends at the body's value. -/
theorem sound_kernel26 (c : Dev nD) (E : Set ℕ) (i : grid26.Coords)
    (arg1 : Memref sig .tc .vmem S16x64x256 .bf16) (harg1 : arg1.IsWhole) (arg2 : Memref sig .tc .vmem S16x256x256 .f32) (harg2 : arg2.IsWhole)
    (arg3 : Memref sig .tc .vmem S256x256 .f32) (harg3 : arg3.IsWhole) (arg4 : Memref sig .tc .vmem S16x64x256 .f32) (harg4 : arg4.IsWhole)
    (x0 : Vec F S16x64x256 .bf16) (x1 : Vec F S16x256x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out26 x0 x1 x2)) -∗ K ⟨⟩))
      ⊢ wp frame (wpE (defs₀ (F := F)) Variants.none c none) E (cc26__boundary_kernel i arg1 harg1 arg2 harg2 arg3 harg3 arg4 harg4) K := by
  simp only [cc26__boundary_kernel_eq_skeleton]; unfold cc26__boundary_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover26 _)

/-- The proof data: the arrays as the region finds them; after the body each input buffer still at its block and the
    output buffer at the body's value there; nothing owed, full shares, the scoped rest untouched. -/
def dat26 (c : Dev nD) : Dat τ (Elt F) Unit ℕ (UR sig nD τ) ℕ cfg26 c where
  A w := V c (Pipeline.arrRef spec26 w)
  after w t := match w with
    | ⟨0, _⟩ => iblk26 V c 0 t
    | ⟨1, _⟩ => iblk26 V c 1 t
    | ⟨2, _⟩ => iblk26 V c 2 t
    | ⟨3, _⟩ => out26 (iblk26 V c 0 t) (iblk26 V c 1 t) (iblk26 V c 2 t)
  Φ _ := Pipeline.ΦA spec26 c
  q _ := fullShare
  owed _ := 0

theorem A_eq26 (c : Dev nD) (w : Fin cfg26.W) : (dat26 V c).A w = V c (Pipeline.arrRef spec26 w) := by
  dsimp only [dat26]

theorem after26_0 (c : Dev nD) (t : Fin cfg26.N) : (dat26 V c).after 0 t = iblk26 V c 0 t := by dsimp only [dat26]
theorem after26_1 (c : Dev nD) (t : Fin cfg26.N) : (dat26 V c).after 1 t = iblk26 V c 1 t := by dsimp only [dat26]
theorem after26_2 (c : Dev nD) (t : Fin cfg26.N) : (dat26 V c).after 2 t = iblk26 V c 2 t := by dsimp only [dat26]
theorem after26_3 (c : Dev nD) (t : Fin cfg26.N) :
    (dat26 V c).after 3 t = out26 (iblk26 V c 0 t) (iblk26 V c 1 t) (iblk26 V c 2 t) := by dsimp only [dat26]

theorem before26_0 (c : Dev nD) (t : Fin cfg26.N) (d) : (dat26 V c).before 0 t d = iblk26 V c 0 t :=
  before26_0_of V (dat26 V c) (A_eq26 V c 0) (after26_0 V c) t d
theorem before26_1 (c : Dev nD) (t : Fin cfg26.N) (d) : (dat26 V c).before 1 t d = iblk26 V c 1 t :=
  before26_1_of V (dat26 V c) (A_eq26 V c 1) (after26_1 V c) t d
theorem before26_2 (c : Dev nD) (t : Fin cfg26.N) (d) : (dat26 V c).before 2 t d = iblk26 V c 2 t :=
  before26_2_of V (dat26 V c) (A_eq26 V c 2) (after26_2 V c) t d

/-- What the body is handed at point `t`, window by window, -/
def bodyPre26 (c : Dev nD) (t : Fin cfg26.N) : sProp 𝕄 :=
  iprop((dat26 V c).Φ t.castSucc ∗ (dat26 V c).owesAt () t.castSucc
    ∗ (∃ d, owns (c : Thread nD τ) (st26_0 t) fullShare ((dat26 V c).before 0 t d))
    ∗ (∃ d, owns (c : Thread nD τ) (st26_1 t) fullShare ((dat26 V c).before 1 t d))
    ∗ (∃ d, owns (c : Thread nD τ) (st26_2 t) fullShare ((dat26 V c).before 2 t d))
    ∗ (∃ d, owns (c : Thread nD τ) (st26_3 t) fullShare ((dat26 V c).before 3 t d)))

/-- and what it hands back. -/
def bodyPost26 (c : Dev nD) (t : Fin cfg26.N) : sProp 𝕄 :=
  iprop((dat26 V c).Φ t.succ ∗ (dat26 V c).owesAt () t.succ
    ∗ owns (c : Thread nD τ) (st26_0 t) fullShare ((dat26 V c).after 0 t)
    ∗ owns (c : Thread nD τ) (st26_1 t) fullShare ((dat26 V c).after 1 t)
    ∗ owns (c : Thread nD τ) (st26_2 t) fullShare ((dat26 V c).after 2 t)
    ∗ owns (c : Thread nD τ) (st26_3 t) fullShare ((dat26 V c).after 3 t))

theorem sound_body26 (c : Dev nD) (t : Fin cfg26.N) :
    bodyPre26 V c t ⊢ wp frame (wpE (defs₀ (F := F)) Variants.none c none) Set.univ (bodyAt26 t) (fun _ => bodyPost26 V c t) := by
  unfold bodyPre26 bodyPost26 bodyAt26
  simp only [before26_0, before26_1, before26_2]
  rw [show (dat26 V c).Φ t.succ = (dat26 V c).Φ t.castSucc from rfl,
    show (dat26 V c).owesAt () t.succ = (dat26 V c).owesAt () t.castSucc from rfl,
    after26_0, after26_1, after26_2, after26_3]
  iintro ⟨HΦ, Ho, ⟨%d0, H0⟩, ⟨%d1, H1⟩, ⟨%d2, H2⟩, ⟨%d3, H3⟩⟩
  iapply (sound_kernel26 c Set.univ _ _ _ _ _ _ _ _ _ (iblk26 V c 0 t) (iblk26 V c 1 t) (iblk26 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation26 (c : Dev nD) : BodyObligation (dat26 (F := F) V c) (defs₀ (F := F)) Variants.none () Set.univ := fun t => by
  rw [bigSep_W26, bigSep_W26]
  exact sound_body26 V c t

end Cert.KernelIdeal.Reg

end
-- ==== Proof.KI.Region27.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 27: four input windows, each block loaded whole; one output window, stored whole -/

/-- Window `w`'s block at grid point `t`, read off the array as the region finds it. -/
def iblk27 (c : Dev nD) (w : Fin cfg27.W) (t : Fin cfg27.N) : ((cfg27.win w).xblock (cfg27.grid.coords t)).Idx → Elt F (cfg27.win w).elt :=
  ((cfg27.win w).blk t).view.read (Elt F) (V c (Pipeline.arrRef spec27 w))

/-- Input window 0's staging buffer holds its block at every point, fetched there or kept from the point before. -/
theorem before27_0_of {c : Dev nD} (dat : Dat τ (Elt F) Unit ℕ (UR sig nD τ) ℕ cfg27 c) (hA : dat.A 0 = V c (Pipeline.arrRef spec27 0))
    (hafter : ∀ t, dat.after 0 t = iblk27 V c 0 t) (t : Fin cfg27.N) (d) : dat.before 0 t d = iblk27 V c 0 t :=
  (dat.before_in_eq_fetched 0 rfl (fun _ => rfl) (fun _ _ _ => rfl) (fun t => by rw [hafter]; unfold Dat.blockOf iblk27; rw [hA]; try rfl) t d).trans
    (by unfold Dat.fetched Dat.blockOf iblk27; rw [hA]; try rfl)

/-- Input window 1's staging buffer likewise (the weights: fetched once, then kept). -/
theorem before27_1_of {c : Dev nD} (dat : Dat τ (Elt F) Unit ℕ (UR sig nD τ) ℕ cfg27 c) (hA : dat.A 1 = V c (Pipeline.arrRef spec27 1))
    (hafter : ∀ t, dat.after 1 t = iblk27 V c 1 t) (t : Fin cfg27.N) (d) : dat.before 1 t d = iblk27 V c 1 t :=
  (dat.before_in_eq_fetched 1 rfl (fun _ => rfl) (fun _ _ _ => rfl) (fun t => by rw [hafter]; unfold Dat.blockOf iblk27; rw [hA]; try rfl) t d).trans
    (by unfold Dat.fetched Dat.blockOf iblk27; rw [hA]; try rfl)

/-- Input window 2's staging buffer likewise (the bias row: fetched once, then kept). -/
theorem before27_2_of {c : Dev nD} (dat : Dat τ (Elt F) Unit ℕ (UR sig nD τ) ℕ cfg27 c) (hA : dat.A 2 = V c (Pipeline.arrRef spec27 2))
    (hafter : ∀ t, dat.after 2 t = iblk27 V c 2 t) (t : Fin cfg27.N) (d) : dat.before 2 t d = iblk27 V c 2 t :=
  (dat.before_in_eq_fetched 2 rfl (fun _ => rfl) (fun _ _ _ => rfl) (fun t => by rw [hafter]; unfold Dat.blockOf iblk27; rw [hA]; try rfl) t d).trans
    (by unfold Dat.fetched Dat.blockOf iblk27; rw [hA]; try rfl)

/-- Input window 3's staging buffer likewise (the added term's row block). -/
theorem before27_3_of {c : Dev nD} (dat : Dat τ (Elt F) Unit ℕ (UR sig nD τ) ℕ cfg27 c) (hA : dat.A 3 = V c (Pipeline.arrRef spec27 3))
    (hafter : ∀ t, dat.after 3 t = iblk27 V c 3 t) (t : Fin cfg27.N) (d) : dat.before 3 t d = iblk27 V c 3 t :=
  (dat.before_in_eq_fetched 3 rfl (fun _ => rfl) (fun _ _ _ => rfl) (fun t => by rw [hafter]; unfold Dat.blockOf iblk27; rw [hA]; try rfl) t d).trans
    (by unfold Dat.fetched Dat.blockOf iblk27; rw [hA]; try rfl)

abbrev r27_0 : Rect S2048x256 := Rect.unit (s := S2048x256) ![0, 0] S2048x256.size inb_S2048x256_S2048x256_0_0
abbrev r27_1 : Rect S256x256 := Rect.unit (s := S256x256) ![0, 0] S256x256.size inb_S256x256_S256x256_0_0
abbrev r27_2 : Rect S1x256 := Rect.unit (s := S1x256) ![0, 0] S1x256.size inb_S1x256_S1x256_0_0
abbrev r27_3 : Rect S2048x256 := Rect.unit (s := S2048x256) ![0, 0] S2048x256.size inb_S2048x256_S2048x256_0_0
abbrev r27_o : Rect S2048x256 := Rect.unit (s := S2048x256) ![0, 0] S2048x256.size inb_S2048x256_S2048x256_0_0

/-- The output block after the body: its one whole-block store, of the body's value at the four input blocks. -/
def out27 (x0 : Vec F S2048x256 .f32) (x1 : Vec F S256x256 .f32) (x2 : Vec F S1x256 .f32) (x3 : Vec F S2048x256 .f32) : Vec F S2048x256 .f32 :=
  View.canon [⟨r27_o, k27_pay1 (View.ld x0 r27_0) (View.ld x1 r27_1) (View.ld x2 r27_2) (View.ld x3 r27_3)⟩]

/-- That one store covers the block. -/
theorem cover27 (p0 : Vec F S2048x256 .f32) (y : S2048x256.Idx) :
    ∃ pc ∈ ([⟨r27_o, p0⟩] : List (View.Piece (Elt F) S2048x256 .f32)), y ∈ pc.1.set :=
  View.cover_of_tiled [⟨r27_o, p0⟩] S2048x256.size (by rfl) y

set_option maxHeartbeats 1000000 in
/-- The body on whole staging buffers: the four input buffers are read and left as found, and the output buffer,
    whatever it held, ends at the body's value. -/
theorem sound_kernel27 (c : Dev nD) (E : Set ℕ) (i : grid27.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole)
    (x0 : Vec F S2048x256 .f32) (x1 : Vec F S256x256 .f32) (x2 : Vec F S1x256 .f32) (x3 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out27 x0 x1 x2 x3)) -∗ K ⟨⟩))
      ⊢ wp frame (wpE (defs₀ (F := F)) Variants.none c none) E (cc27__self_update_kernel i arg1 harg1 arg2 harg2 arg3 harg3 arg4 harg4 arg5 harg5) K := by
  simp only [cc27__self_update_kernel_eq_skeleton]; unfold cc27__self_update_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover27 _)

/-- The proof data: the arrays as the region finds them; after the body each input buffer still at its block and the
    output buffer at the body's value there; nothing owed, full shares, the scoped rest untouched. -/
def dat27 (c : Dev nD) : Dat τ (Elt F) Unit ℕ (UR sig nD τ) ℕ cfg27 c where
  A w := V c (Pipeline.arrRef spec27 w)
  after w t := match w with
    | ⟨0, _⟩ => iblk27 V c 0 t
    | ⟨1, _⟩ => iblk27 V c 1 t
    | ⟨2, _⟩ => iblk27 V c 2 t
    | ⟨3, _⟩ => iblk27 V c 3 t
    | ⟨4, _⟩ => out27 (iblk27 V c 0 t) (iblk27 V c 1 t) (iblk27 V c 2 t) (iblk27 V c 3 t)
  Φ _ := Pipeline.ΦA spec27 c
  q _ := fullShare
  owed _ := 0

theorem A_eq27 (c : Dev nD) (w : Fin cfg27.W) : (dat27 V c).A w = V c (Pipeline.arrRef spec27 w) := by
  dsimp only [dat27]

theorem after27_0 (c : Dev nD) (t : Fin cfg27.N) : (dat27 V c).after 0 t = iblk27 V c 0 t := by dsimp only [dat27]
theorem after27_1 (c : Dev nD) (t : Fin cfg27.N) : (dat27 V c).after 1 t = iblk27 V c 1 t := by dsimp only [dat27]
theorem after27_2 (c : Dev nD) (t : Fin cfg27.N) : (dat27 V c).after 2 t = iblk27 V c 2 t := by dsimp only [dat27]
theorem after27_3 (c : Dev nD) (t : Fin cfg27.N) : (dat27 V c).after 3 t = iblk27 V c 3 t := by dsimp only [dat27]
theorem after27_4 (c : Dev nD) (t : Fin cfg27.N) :
    (dat27 V c).after 4 t = out27 (iblk27 V c 0 t) (iblk27 V c 1 t) (iblk27 V c 2 t) (iblk27 V c 3 t) := by dsimp only [dat27]

theorem before27_0 (c : Dev nD) (t : Fin cfg27.N) (d) : (dat27 V c).before 0 t d = iblk27 V c 0 t :=
  before27_0_of V (dat27 V c) (A_eq27 V c 0) (after27_0 V c) t d
theorem before27_1 (c : Dev nD) (t : Fin cfg27.N) (d) : (dat27 V c).before 1 t d = iblk27 V c 1 t :=
  before27_1_of V (dat27 V c) (A_eq27 V c 1) (after27_1 V c) t d
theorem before27_2 (c : Dev nD) (t : Fin cfg27.N) (d) : (dat27 V c).before 2 t d = iblk27 V c 2 t :=
  before27_2_of V (dat27 V c) (A_eq27 V c 2) (after27_2 V c) t d
theorem before27_3 (c : Dev nD) (t : Fin cfg27.N) (d) : (dat27 V c).before 3 t d = iblk27 V c 3 t :=
  before27_3_of V (dat27 V c) (A_eq27 V c 3) (after27_3 V c) t d

/-- What the body is handed at point `t`, window by window, -/
def bodyPre27 (c : Dev nD) (t : Fin cfg27.N) : sProp 𝕄 :=
  iprop((dat27 V c).Φ t.castSucc ∗ (dat27 V c).owesAt () t.castSucc
    ∗ (∃ d, owns (c : Thread nD τ) (st27_0 t) fullShare ((dat27 V c).before 0 t d))
    ∗ (∃ d, owns (c : Thread nD τ) (st27_1 t) fullShare ((dat27 V c).before 1 t d))
    ∗ (∃ d, owns (c : Thread nD τ) (st27_2 t) fullShare ((dat27 V c).before 2 t d))
    ∗ (∃ d, owns (c : Thread nD τ) (st27_3 t) fullShare ((dat27 V c).before 3 t d))
    ∗ (∃ d, owns (c : Thread nD τ) (st27_4 t) fullShare ((dat27 V c).before 4 t d)))

/-- and what it hands back. -/
def bodyPost27 (c : Dev nD) (t : Fin cfg27.N) : sProp 𝕄 :=
  iprop((dat27 V c).Φ t.succ ∗ (dat27 V c).owesAt () t.succ
    ∗ owns (c : Thread nD τ) (st27_0 t) fullShare ((dat27 V c).after 0 t)
    ∗ owns (c : Thread nD τ) (st27_1 t) fullShare ((dat27 V c).after 1 t)
    ∗ owns (c : Thread nD τ) (st27_2 t) fullShare ((dat27 V c).after 2 t)
    ∗ owns (c : Thread nD τ) (st27_3 t) fullShare ((dat27 V c).after 3 t)
    ∗ owns (c : Thread nD τ) (st27_4 t) fullShare ((dat27 V c).after 4 t))

theorem sound_body27 (c : Dev nD) (t : Fin cfg27.N) :
    bodyPre27 V c t ⊢ wp frame (wpE (defs₀ (F := F)) Variants.none c none) Set.univ (bodyAt27 t) (fun _ => bodyPost27 V c t) := by
  unfold bodyPre27 bodyPost27 bodyAt27
  simp only [before27_0, before27_1, before27_2, before27_3]
  rw [show (dat27 V c).Φ t.succ = (dat27 V c).Φ t.castSucc from rfl,
    show (dat27 V c).owesAt () t.succ = (dat27 V c).owesAt () t.castSucc from rfl,
    after27_0, after27_1, after27_2, after27_3, after27_4]
  iintro ⟨HΦ, Ho, ⟨%d0, H0⟩, ⟨%d1, H1⟩, ⟨%d2, H2⟩, ⟨%d3, H3⟩, ⟨%d4, H4⟩⟩
  iapply (sound_kernel27 c Set.univ _ _ _ _ _ _ _ _ _ _ _ (iblk27 V c 0 t) (iblk27 V c 1 t) (iblk27 V c 2 t) (iblk27 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation27 (c : Dev nD) : BodyObligation (dat27 (F := F) V c) (defs₀ (F := F)) Variants.none () Set.univ := fun t => by
  rw [bigSep_W27, bigSep_W27]
  exact sound_body27 V c t

end Cert.KernelIdeal.Reg

end
-- ==== Proof.KI.Region28.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 28: five input windows, each block loaded whole; one output window, stored whole -/

/-- Window `w`'s block at grid point `t`, read off the array as the region finds it. -/
def iblk28 (c : Dev nD) (w : Fin cfg28.W) (t : Fin cfg28.N) : ((cfg28.win w).xblock (cfg28.grid.coords t)).Idx → Elt F (cfg28.win w).elt :=
  ((cfg28.win w).blk t).view.read (Elt F) (V c (Pipeline.arrRef spec28 w))

/-- Input window 0's staging buffer holds its block at every point, fetched there or kept from the point before. -/
theorem before28_0_of {c : Dev nD} (dat : Dat τ (Elt F) Unit ℕ (UR sig nD τ) ℕ cfg28 c) (hA : dat.A 0 = V c (Pipeline.arrRef spec28 0))
    (hafter : ∀ t, dat.after 0 t = iblk28 V c 0 t) (t : Fin cfg28.N) (d) : dat.before 0 t d = iblk28 V c 0 t :=
  (dat.before_in_eq_fetched 0 rfl (fun _ => rfl) (fun _ _ _ => rfl) (fun t => by rw [hafter]; unfold Dat.blockOf iblk28; rw [hA]; try rfl) t d).trans
    (by unfold Dat.fetched Dat.blockOf iblk28; rw [hA]; try rfl)

/-- Input window 1's staging buffer likewise. -/
theorem before28_1_of {c : Dev nD} (dat : Dat τ (Elt F) Unit ℕ (UR sig nD τ) ℕ cfg28 c) (hA : dat.A 1 = V c (Pipeline.arrRef spec28 1))
    (hafter : ∀ t, dat.after 1 t = iblk28 V c 1 t) (t : Fin cfg28.N) (d) : dat.before 1 t d = iblk28 V c 1 t :=
  (dat.before_in_eq_fetched 1 rfl (fun _ => rfl) (fun _ _ _ => rfl) (fun t => by rw [hafter]; unfold Dat.blockOf iblk28; rw [hA]; try rfl) t d).trans
    (by unfold Dat.fetched Dat.blockOf iblk28; rw [hA]; try rfl)

/-- Input window 2's staging buffer likewise. -/
theorem before28_2_of {c : Dev nD} (dat : Dat τ (Elt F) Unit ℕ (UR sig nD τ) ℕ cfg28 c) (hA : dat.A 2 = V c (Pipeline.arrRef spec28 2))
    (hafter : ∀ t, dat.after 2 t = iblk28 V c 2 t) (t : Fin cfg28.N) (d) : dat.before 2 t d = iblk28 V c 2 t :=
  (dat.before_in_eq_fetched 2 rfl (fun _ => rfl) (fun _ _ _ => rfl) (fun t => by rw [hafter]; unfold Dat.blockOf iblk28; rw [hA]; try rfl) t d).trans
    (by unfold Dat.fetched Dat.blockOf iblk28; rw [hA]; try rfl)

/-- Input window 3's staging buffer likewise. -/
theorem before28_3_of {c : Dev nD} (dat : Dat τ (Elt F) Unit ℕ (UR sig nD τ) ℕ cfg28 c) (hA : dat.A 3 = V c (Pipeline.arrRef spec28 3))
    (hafter : ∀ t, dat.after 3 t = iblk28 V c 3 t) (t : Fin cfg28.N) (d) : dat.before 3 t d = iblk28 V c 3 t :=
  (dat.before_in_eq_fetched 3 rfl (fun _ => rfl) (fun _ _ _ => rfl) (fun t => by rw [hafter]; unfold Dat.blockOf iblk28; rw [hA]; try rfl) t d).trans
    (by unfold Dat.fetched Dat.blockOf iblk28; rw [hA]; try rfl)

/-- Input window 4's staging buffer likewise. -/
theorem before28_4_of {c : Dev nD} (dat : Dat τ (Elt F) Unit ℕ (UR sig nD τ) ℕ cfg28 c) (hA : dat.A 4 = V c (Pipeline.arrRef spec28 4))
    (hafter : ∀ t, dat.after 4 t = iblk28 V c 4 t) (t : Fin cfg28.N) (d) : dat.before 4 t d = iblk28 V c 4 t :=
  (dat.before_in_eq_fetched 4 rfl (fun _ => rfl) (fun _ _ _ => rfl) (fun t => by rw [hafter]; unfold Dat.blockOf iblk28; rw [hA]; try rfl) t d).trans
    (by unfold Dat.fetched Dat.blockOf iblk28; rw [hA]; try rfl)

abbrev r28_0 : Rect S2048x256 := Rect.unit (s := S2048x256) ![0, 0] S2048x256.size inb_S2048x256_S2048x256_0_0
abbrev r28_1 : Rect S256x256 := Rect.unit (s := S256x256) ![0, 0] S256x256.size inb_S256x256_S256x256_0_0
abbrev r28_2 : Rect S1x256 := Rect.unit (s := S1x256) ![0, 0] S1x256.size inb_S1x256_S1x256_0_0
abbrev r28_3 : Rect S2048x256 := Rect.unit (s := S2048x256) ![0, 0] S2048x256.size inb_S2048x256_S2048x256_0_0
abbrev r28_4 : Rect S2048x256 := Rect.unit (s := S2048x256) ![0, 0] S2048x256.size inb_S2048x256_S2048x256_0_0
abbrev r28_o : Rect S2048x256 := Rect.unit (s := S2048x256) ![0, 0] S2048x256.size inb_S2048x256_S2048x256_0_0

/-- The output block after the body: its one whole-block store, of the body's value at the five input blocks. -/
def out28 (x0 : Vec F S2048x256 .f32) (x1 : Vec F S256x256 .f32) (x2 : Vec F S1x256 .f32) (x3 : Vec F S2048x256 .f32) (x4 : Vec F S2048x256 .f32) : Vec F S2048x256 .f32 :=
  View.canon [⟨r28_o, k28_pay1 (View.ld x0 r28_0) (View.ld x1 r28_1) (View.ld x2 r28_2) (View.ld x3 r28_3) (View.ld x4 r28_4)⟩]

/-- That one store covers the block. -/
theorem cover28 (p0 : Vec F S2048x256 .f32) (y : S2048x256.Idx) :
    ∃ pc ∈ ([⟨r28_o, p0⟩] : List (View.Piece (Elt F) S2048x256 .f32)), y ∈ pc.1.set :=
  View.cover_of_tiled [⟨r28_o, p0⟩] S2048x256.size (by rfl) y

set_option maxHeartbeats 1000000 in
/-- The body on whole staging buffers: the five input buffers are read and left as found, and the output buffer,
    whatever it held, ends at the body's value. -/
theorem sound_kernel28 (c : Dev nD) (E : Set ℕ) (i : grid28.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole) (arg6 : Memref sig .tc .vmem S2048x256 .f32) (harg6 : arg6.IsWhole)
    (x0 : Vec F S2048x256 .f32) (x1 : Vec F S256x256 .f32) (x2 : Vec F S1x256 .f32) (x3 : Vec F S2048x256 .f32) (x4 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out28 x0 x1 x2 x3 x4)) -∗ K ⟨⟩))
      ⊢ wp frame (wpE (defs₀ (F := F)) Variants.none c none) E (cc28__self_update2_kernel i arg1 harg1 arg2 harg2 arg3 harg3 arg4 harg4 arg5 harg5 arg6 harg6) K := by
  simp only [cc28__self_update2_kernel_eq_skeleton]; unfold cc28__self_update2_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover28 _)

/-- The proof data: the arrays as the region finds them; after the body each input buffer still at its block and the
    output buffer at the body's value there; nothing owed, full shares, the scoped rest untouched. -/
def dat28 (c : Dev nD) : Dat τ (Elt F) Unit ℕ (UR sig nD τ) ℕ cfg28 c where
  A w := V c (Pipeline.arrRef spec28 w)
  after w t := match w with
    | ⟨0, _⟩ => iblk28 V c 0 t
    | ⟨1, _⟩ => iblk28 V c 1 t
    | ⟨2, _⟩ => iblk28 V c 2 t
    | ⟨3, _⟩ => iblk28 V c 3 t
    | ⟨4, _⟩ => iblk28 V c 4 t
    | ⟨5, _⟩ => out28 (iblk28 V c 0 t) (iblk28 V c 1 t) (iblk28 V c 2 t) (iblk28 V c 3 t) (iblk28 V c 4 t)
  Φ _ := Pipeline.ΦA spec28 c
  q _ := fullShare
  owed _ := 0

theorem A_eq28 (c : Dev nD) (w : Fin cfg28.W) : (dat28 V c).A w = V c (Pipeline.arrRef spec28 w) := by
  dsimp only [dat28]

theorem after28_0 (c : Dev nD) (t : Fin cfg28.N) : (dat28 V c).after 0 t = iblk28 V c 0 t := by dsimp only [dat28]
theorem after28_1 (c : Dev nD) (t : Fin cfg28.N) : (dat28 V c).after 1 t = iblk28 V c 1 t := by dsimp only [dat28]
theorem after28_2 (c : Dev nD) (t : Fin cfg28.N) : (dat28 V c).after 2 t = iblk28 V c 2 t := by dsimp only [dat28]
theorem after28_3 (c : Dev nD) (t : Fin cfg28.N) : (dat28 V c).after 3 t = iblk28 V c 3 t := by dsimp only [dat28]
theorem after28_4 (c : Dev nD) (t : Fin cfg28.N) : (dat28 V c).after 4 t = iblk28 V c 4 t := by dsimp only [dat28]
theorem after28_5 (c : Dev nD) (t : Fin cfg28.N) :
    (dat28 V c).after 5 t = out28 (iblk28 V c 0 t) (iblk28 V c 1 t) (iblk28 V c 2 t) (iblk28 V c 3 t) (iblk28 V c 4 t) := by dsimp only [dat28]

theorem before28_0 (c : Dev nD) (t : Fin cfg28.N) (d) : (dat28 V c).before 0 t d = iblk28 V c 0 t :=
  before28_0_of V (dat28 V c) (A_eq28 V c 0) (after28_0 V c) t d
theorem before28_1 (c : Dev nD) (t : Fin cfg28.N) (d) : (dat28 V c).before 1 t d = iblk28 V c 1 t :=
  before28_1_of V (dat28 V c) (A_eq28 V c 1) (after28_1 V c) t d
theorem before28_2 (c : Dev nD) (t : Fin cfg28.N) (d) : (dat28 V c).before 2 t d = iblk28 V c 2 t :=
  before28_2_of V (dat28 V c) (A_eq28 V c 2) (after28_2 V c) t d
theorem before28_3 (c : Dev nD) (t : Fin cfg28.N) (d) : (dat28 V c).before 3 t d = iblk28 V c 3 t :=
  before28_3_of V (dat28 V c) (A_eq28 V c 3) (after28_3 V c) t d
theorem before28_4 (c : Dev nD) (t : Fin cfg28.N) (d) : (dat28 V c).before 4 t d = iblk28 V c 4 t :=
  before28_4_of V (dat28 V c) (A_eq28 V c 4) (after28_4 V c) t d

/-- What the body is handed at point `t`, window by window, -/
def bodyPre28 (c : Dev nD) (t : Fin cfg28.N) : sProp 𝕄 :=
  iprop((dat28 V c).Φ t.castSucc ∗ (dat28 V c).owesAt () t.castSucc
    ∗ (∃ d, owns (c : Thread nD τ) (st28_0 t) fullShare ((dat28 V c).before 0 t d))
    ∗ (∃ d, owns (c : Thread nD τ) (st28_1 t) fullShare ((dat28 V c).before 1 t d))
    ∗ (∃ d, owns (c : Thread nD τ) (st28_2 t) fullShare ((dat28 V c).before 2 t d))
    ∗ (∃ d, owns (c : Thread nD τ) (st28_3 t) fullShare ((dat28 V c).before 3 t d))
    ∗ (∃ d, owns (c : Thread nD τ) (st28_4 t) fullShare ((dat28 V c).before 4 t d))
    ∗ (∃ d, owns (c : Thread nD τ) (st28_5 t) fullShare ((dat28 V c).before 5 t d)))

/-- and what it hands back. -/
def bodyPost28 (c : Dev nD) (t : Fin cfg28.N) : sProp 𝕄 :=
  iprop((dat28 V c).Φ t.succ ∗ (dat28 V c).owesAt () t.succ
    ∗ owns (c : Thread nD τ) (st28_0 t) fullShare ((dat28 V c).after 0 t)
    ∗ owns (c : Thread nD τ) (st28_1 t) fullShare ((dat28 V c).after 1 t)
    ∗ owns (c : Thread nD τ) (st28_2 t) fullShare ((dat28 V c).after 2 t)
    ∗ owns (c : Thread nD τ) (st28_3 t) fullShare ((dat28 V c).after 3 t)
    ∗ owns (c : Thread nD τ) (st28_4 t) fullShare ((dat28 V c).after 4 t)
    ∗ owns (c : Thread nD τ) (st28_5 t) fullShare ((dat28 V c).after 5 t))

theorem sound_body28 (c : Dev nD) (t : Fin cfg28.N) :
    bodyPre28 V c t ⊢ wp frame (wpE (defs₀ (F := F)) Variants.none c none) Set.univ (bodyAt28 t) (fun _ => bodyPost28 V c t) := by
  unfold bodyPre28 bodyPost28 bodyAt28
  simp only [before28_0, before28_1, before28_2, before28_3, before28_4]
  rw [show (dat28 V c).Φ t.succ = (dat28 V c).Φ t.castSucc from rfl,
    show (dat28 V c).owesAt () t.succ = (dat28 V c).owesAt () t.castSucc from rfl,
    after28_0, after28_1, after28_2, after28_3, after28_4, after28_5]
  iintro ⟨HΦ, Ho, ⟨%d0, H0⟩, ⟨%d1, H1⟩, ⟨%d2, H2⟩, ⟨%d3, H3⟩, ⟨%d4, H4⟩, ⟨%d5, H5⟩⟩
  iapply (sound_kernel28 c Set.univ _ _ _ _ _ _ _ _ _ _ _ _ _ (iblk28 V c 0 t) (iblk28 V c 1 t) (iblk28 V c 2 t) (iblk28 V c 3 t) (iblk28 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation28 (c : Dev nD) : BodyObligation (dat28 (F := F) V c) (defs₀ (F := F)) Variants.none () Set.univ := fun t => by
  rw [bigSep_W28, bigSep_W28]
  exact sound_body28 V c t

end Cert.KernelIdeal.Reg

end
-- ==== Proof.KI.Region29.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 29: four input windows, each block loaded whole; one output window, stored whole -/

/-- Window `w`'s block at grid point `t`, read off the array as the region finds it. -/
def iblk29 (c : Dev nD) (w : Fin cfg29.W) (t : Fin cfg29.N) : ((cfg29.win w).xblock (cfg29.grid.coords t)).Idx → Elt F (cfg29.win w).elt :=
  ((cfg29.win w).blk t).view.read (Elt F) (V c (Pipeline.arrRef spec29 w))

/-- Input window 0's staging buffer holds its block at every point, fetched there or kept from the point before. -/
theorem before29_0_of {c : Dev nD} (dat : Dat τ (Elt F) Unit ℕ (UR sig nD τ) ℕ cfg29 c) (hA : dat.A 0 = V c (Pipeline.arrRef spec29 0))
    (hafter : ∀ t, dat.after 0 t = iblk29 V c 0 t) (t : Fin cfg29.N) (d) : dat.before 0 t d = iblk29 V c 0 t :=
  (dat.before_in_eq_fetched 0 rfl (fun _ => rfl) (fun _ _ _ => rfl) (fun t => by rw [hafter]; unfold Dat.blockOf iblk29; rw [hA]; try rfl) t d).trans
    (by unfold Dat.fetched Dat.blockOf iblk29; rw [hA]; try rfl)

/-- Input window 1's staging buffer likewise (the weights: fetched once, then kept). -/
theorem before29_1_of {c : Dev nD} (dat : Dat τ (Elt F) Unit ℕ (UR sig nD τ) ℕ cfg29 c) (hA : dat.A 1 = V c (Pipeline.arrRef spec29 1))
    (hafter : ∀ t, dat.after 1 t = iblk29 V c 1 t) (t : Fin cfg29.N) (d) : dat.before 1 t d = iblk29 V c 1 t :=
  (dat.before_in_eq_fetched 1 rfl (fun _ => rfl) (fun _ _ _ => rfl) (fun t => by rw [hafter]; unfold Dat.blockOf iblk29; rw [hA]; try rfl) t d).trans
    (by unfold Dat.fetched Dat.blockOf iblk29; rw [hA]; try rfl)

/-- Input window 2's staging buffer likewise (the bias row: fetched once, then kept). -/
theorem before29_2_of {c : Dev nD} (dat : Dat τ (Elt F) Unit ℕ (UR sig nD τ) ℕ cfg29 c) (hA : dat.A 2 = V c (Pipeline.arrRef spec29 2))
    (hafter : ∀ t, dat.after 2 t = iblk29 V c 2 t) (t : Fin cfg29.N) (d) : dat.before 2 t d = iblk29 V c 2 t :=
  (dat.before_in_eq_fetched 2 rfl (fun _ => rfl) (fun _ _ _ => rfl) (fun t => by rw [hafter]; unfold Dat.blockOf iblk29; rw [hA]; try rfl) t d).trans
    (by unfold Dat.fetched Dat.blockOf iblk29; rw [hA]; try rfl)

/-- Input window 3's staging buffer likewise (the added term's row block). -/
theorem before29_3_of {c : Dev nD} (dat : Dat τ (Elt F) Unit ℕ (UR sig nD τ) ℕ cfg29 c) (hA : dat.A 3 = V c (Pipeline.arrRef spec29 3))
    (hafter : ∀ t, dat.after 3 t = iblk29 V c 3 t) (t : Fin cfg29.N) (d) : dat.before 3 t d = iblk29 V c 3 t :=
  (dat.before_in_eq_fetched 3 rfl (fun _ => rfl) (fun _ _ _ => rfl) (fun t => by rw [hafter]; unfold Dat.blockOf iblk29; rw [hA]; try rfl) t d).trans
    (by unfold Dat.fetched Dat.blockOf iblk29; rw [hA]; try rfl)

abbrev r29_0 : Rect S2048x256 := Rect.unit (s := S2048x256) ![0, 0] S2048x256.size inb_S2048x256_S2048x256_0_0
abbrev r29_1 : Rect S256x256 := Rect.unit (s := S256x256) ![0, 0] S256x256.size inb_S256x256_S256x256_0_0
abbrev r29_2 : Rect S1x256 := Rect.unit (s := S1x256) ![0, 0] S1x256.size inb_S1x256_S1x256_0_0
abbrev r29_3 : Rect S2048x256 := Rect.unit (s := S2048x256) ![0, 0] S2048x256.size inb_S2048x256_S2048x256_0_0
abbrev r29_o : Rect S2048x256 := Rect.unit (s := S2048x256) ![0, 0] S2048x256.size inb_S2048x256_S2048x256_0_0

/-- The output block after the body: its one whole-block store, of the body's value at the four input blocks. -/
def out29 (x0 : Vec F S2048x256 .f32) (x1 : Vec F S256x256 .f32) (x2 : Vec F S1x256 .f32) (x3 : Vec F S2048x256 .f32) : Vec F S2048x256 .f32 :=
  View.canon [⟨r29_o, k29_pay1 (View.ld x0 r29_0) (View.ld x1 r29_1) (View.ld x2 r29_2) (View.ld x3 r29_3)⟩]

/-- That one store covers the block. -/
theorem cover29 (p0 : Vec F S2048x256 .f32) (y : S2048x256.Idx) :
    ∃ pc ∈ ([⟨r29_o, p0⟩] : List (View.Piece (Elt F) S2048x256 .f32)), y ∈ pc.1.set :=
  View.cover_of_tiled [⟨r29_o, p0⟩] S2048x256.size (by rfl) y

set_option maxHeartbeats 1000000 in
/-- The body on whole staging buffers: the four input buffers are read and left as found, and the output buffer,
    whatever it held, ends at the body's value. -/
theorem sound_kernel29 (c : Dev nD) (E : Set ℕ) (i : grid29.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole)
    (x0 : Vec F S2048x256 .f32) (x1 : Vec F S256x256 .f32) (x2 : Vec F S1x256 .f32) (x3 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out29 x0 x1 x2 x3)) -∗ K ⟨⟩))
      ⊢ wp frame (wpE (defs₀ (F := F)) Variants.none c none) E (cc29__self_update_kernel i arg1 harg1 arg2 harg2 arg3 harg3 arg4 harg4 arg5 harg5) K := by
  simp only [cc29__self_update_kernel_eq_skeleton]; unfold cc29__self_update_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover29 _)

/-- The proof data: the arrays as the region finds them; after the body each input buffer still at its block and the
    output buffer at the body's value there; nothing owed, full shares, the scoped rest untouched. -/
def dat29 (c : Dev nD) : Dat τ (Elt F) Unit ℕ (UR sig nD τ) ℕ cfg29 c where
  A w := V c (Pipeline.arrRef spec29 w)
  after w t := match w with
    | ⟨0, _⟩ => iblk29 V c 0 t
    | ⟨1, _⟩ => iblk29 V c 1 t
    | ⟨2, _⟩ => iblk29 V c 2 t
    | ⟨3, _⟩ => iblk29 V c 3 t
    | ⟨4, _⟩ => out29 (iblk29 V c 0 t) (iblk29 V c 1 t) (iblk29 V c 2 t) (iblk29 V c 3 t)
  Φ _ := Pipeline.ΦA spec29 c
  q _ := fullShare
  owed _ := 0

theorem A_eq29 (c : Dev nD) (w : Fin cfg29.W) : (dat29 V c).A w = V c (Pipeline.arrRef spec29 w) := by
  dsimp only [dat29]

theorem after29_0 (c : Dev nD) (t : Fin cfg29.N) : (dat29 V c).after 0 t = iblk29 V c 0 t := by dsimp only [dat29]
theorem after29_1 (c : Dev nD) (t : Fin cfg29.N) : (dat29 V c).after 1 t = iblk29 V c 1 t := by dsimp only [dat29]
theorem after29_2 (c : Dev nD) (t : Fin cfg29.N) : (dat29 V c).after 2 t = iblk29 V c 2 t := by dsimp only [dat29]
theorem after29_3 (c : Dev nD) (t : Fin cfg29.N) : (dat29 V c).after 3 t = iblk29 V c 3 t := by dsimp only [dat29]
theorem after29_4 (c : Dev nD) (t : Fin cfg29.N) :
    (dat29 V c).after 4 t = out29 (iblk29 V c 0 t) (iblk29 V c 1 t) (iblk29 V c 2 t) (iblk29 V c 3 t) := by dsimp only [dat29]

theorem before29_0 (c : Dev nD) (t : Fin cfg29.N) (d) : (dat29 V c).before 0 t d = iblk29 V c 0 t :=
  before29_0_of V (dat29 V c) (A_eq29 V c 0) (after29_0 V c) t d
theorem before29_1 (c : Dev nD) (t : Fin cfg29.N) (d) : (dat29 V c).before 1 t d = iblk29 V c 1 t :=
  before29_1_of V (dat29 V c) (A_eq29 V c 1) (after29_1 V c) t d
theorem before29_2 (c : Dev nD) (t : Fin cfg29.N) (d) : (dat29 V c).before 2 t d = iblk29 V c 2 t :=
  before29_2_of V (dat29 V c) (A_eq29 V c 2) (after29_2 V c) t d
theorem before29_3 (c : Dev nD) (t : Fin cfg29.N) (d) : (dat29 V c).before 3 t d = iblk29 V c 3 t :=
  before29_3_of V (dat29 V c) (A_eq29 V c 3) (after29_3 V c) t d

/-- What the body is handed at point `t`, window by window, -/
def bodyPre29 (c : Dev nD) (t : Fin cfg29.N) : sProp 𝕄 :=
  iprop((dat29 V c).Φ t.castSucc ∗ (dat29 V c).owesAt () t.castSucc
    ∗ (∃ d, owns (c : Thread nD τ) (st29_0 t) fullShare ((dat29 V c).before 0 t d))
    ∗ (∃ d, owns (c : Thread nD τ) (st29_1 t) fullShare ((dat29 V c).before 1 t d))
    ∗ (∃ d, owns (c : Thread nD τ) (st29_2 t) fullShare ((dat29 V c).before 2 t d))
    ∗ (∃ d, owns (c : Thread nD τ) (st29_3 t) fullShare ((dat29 V c).before 3 t d))
    ∗ (∃ d, owns (c : Thread nD τ) (st29_4 t) fullShare ((dat29 V c).before 4 t d)))

/-- and what it hands back. -/
def bodyPost29 (c : Dev nD) (t : Fin cfg29.N) : sProp 𝕄 :=
  iprop((dat29 V c).Φ t.succ ∗ (dat29 V c).owesAt () t.succ
    ∗ owns (c : Thread nD τ) (st29_0 t) fullShare ((dat29 V c).after 0 t)
    ∗ owns (c : Thread nD τ) (st29_1 t) fullShare ((dat29 V c).after 1 t)
    ∗ owns (c : Thread nD τ) (st29_2 t) fullShare ((dat29 V c).after 2 t)
    ∗ owns (c : Thread nD τ) (st29_3 t) fullShare ((dat29 V c).after 3 t)
    ∗ owns (c : Thread nD τ) (st29_4 t) fullShare ((dat29 V c).after 4 t))

theorem sound_body29 (c : Dev nD) (t : Fin cfg29.N) :
    bodyPre29 V c t ⊢ wp frame (wpE (defs₀ (F := F)) Variants.none c none) Set.univ (bodyAt29 t) (fun _ => bodyPost29 V c t) := by
  unfold bodyPre29 bodyPost29 bodyAt29
  simp only [before29_0, before29_1, before29_2, before29_3]
  rw [show (dat29 V c).Φ t.succ = (dat29 V c).Φ t.castSucc from rfl,
    show (dat29 V c).owesAt () t.succ = (dat29 V c).owesAt () t.castSucc from rfl,
    after29_0, after29_1, after29_2, after29_3, after29_4]
  iintro ⟨HΦ, Ho, ⟨%d0, H0⟩, ⟨%d1, H1⟩, ⟨%d2, H2⟩, ⟨%d3, H3⟩, ⟨%d4, H4⟩⟩
  iapply (sound_kernel29 c Set.univ _ _ _ _ _ _ _ _ _ _ _ (iblk29 V c 0 t) (iblk29 V c 1 t) (iblk29 V c 2 t) (iblk29 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation29 (c : Dev nD) : BodyObligation (dat29 (F := F) V c) (defs₀ (F := F)) Variants.none () Set.univ := fun t => by
  rw [bigSep_W29, bigSep_W29]
  exact sound_body29 V c t

end Cert.KernelIdeal.Reg

end
-- ==== Proof.KI.Region30.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 30: two input windows, each block loaded whole; one output window, stored whole -/

/-- Window `w`'s block at grid point `t`, read off the array as the region finds it. -/
def iblk30 (c : Dev nD) (w : Fin cfg30.W) (t : Fin cfg30.N) : ((cfg30.win w).xblock (cfg30.grid.coords t)).Idx → Elt F (cfg30.win w).elt :=
  ((cfg30.win w).blk t).view.read (Elt F) (V c (Pipeline.arrRef spec30 w))

/-- Input window 0's staging buffer holds its block at every point, fetched there or kept from the point before. -/
theorem before30_0_of {c : Dev nD} (dat : Dat τ (Elt F) Unit ℕ (UR sig nD τ) ℕ cfg30 c) (hA : dat.A 0 = V c (Pipeline.arrRef spec30 0))
    (hafter : ∀ t, dat.after 0 t = iblk30 V c 0 t) (t : Fin cfg30.N) (d) : dat.before 0 t d = iblk30 V c 0 t :=
  (dat.before_in_eq_fetched 0 rfl (fun _ => rfl) (fun _ _ _ => rfl) (fun t => by rw [hafter]; unfold Dat.blockOf iblk30; rw [hA]; try rfl) t d).trans
    (by unfold Dat.fetched Dat.blockOf iblk30; rw [hA]; try rfl)

/-- Input window 1's staging buffer likewise. -/
theorem before30_1_of {c : Dev nD} (dat : Dat τ (Elt F) Unit ℕ (UR sig nD τ) ℕ cfg30 c) (hA : dat.A 1 = V c (Pipeline.arrRef spec30 1))
    (hafter : ∀ t, dat.after 1 t = iblk30 V c 1 t) (t : Fin cfg30.N) (d) : dat.before 1 t d = iblk30 V c 1 t :=
  (dat.before_in_eq_fetched 1 rfl (fun _ => rfl) (fun _ _ _ => rfl) (fun t => by rw [hafter]; unfold Dat.blockOf iblk30; rw [hA]; try rfl) t d).trans
    (by unfold Dat.fetched Dat.blockOf iblk30; rw [hA]; try rfl)

abbrev r30_0 : Rect S2048x256 := Rect.unit (s := S2048x256) ![0, 0] S2048x256.size inb_S2048x256_S2048x256_0_0
abbrev r30_1 : Rect S256x256 := Rect.unit (s := S256x256) ![0, 0] S256x256.size inb_S256x256_S256x256_0_0
abbrev r30_o : Rect S2048x256 := Rect.unit (s := S2048x256) ![0, 0] S2048x256.size inb_S2048x256_S2048x256_0_0

/-- The output block after the body: its one whole-block store, of the body's value at the two input blocks. -/
def out30 (x0 : Vec F S2048x256 .f32) (x1 : Vec F S256x256 .f32) : Vec F S2048x256 .f32 :=
  View.canon [⟨r30_o, k30_pay1 (View.ld x0 r30_0) (View.ld x1 r30_1)⟩]

/-- That one store covers the block. -/
theorem cover30 (p0 : Vec F S2048x256 .f32) (y : S2048x256.Idx) :
    ∃ pc ∈ ([⟨r30_o, p0⟩] : List (View.Piece (Elt F) S2048x256 .f32)), y ∈ pc.1.set :=
  View.cover_of_tiled [⟨r30_o, p0⟩] S2048x256.size (by rfl) y

set_option maxHeartbeats 1000000 in
/-- The body on whole staging buffers: both input buffers are read and left as found, and the output buffer,
    whatever it held, ends at the body's value. -/
theorem sound_kernel30 (c : Dev nD) (E : Set ℕ) (i : grid30.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out30 x0 x1)) -∗ K ⟨⟩))
      ⊢ wp frame (wpE (defs₀ (F := F)) Variants.none c none) E (cc30__proj_matmul_kernel i arg1 harg1 arg2 harg2 arg3 harg3) K := by
  simp only [cc30__proj_matmul_kernel_eq_skeleton]; unfold cc30__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover30 _)

/-- The proof data: the arrays as the region finds them; after the body each input buffer still at its block and the
    output buffer at the body's value there; nothing owed, full shares, the scoped rest untouched. -/
def dat30 (c : Dev nD) : Dat τ (Elt F) Unit ℕ (UR sig nD τ) ℕ cfg30 c where
  A w := V c (Pipeline.arrRef spec30 w)
  after w t := match w with
    | ⟨0, _⟩ => iblk30 V c 0 t
    | ⟨1, _⟩ => iblk30 V c 1 t
    | ⟨2, _⟩ => out30 (iblk30 V c 0 t) (iblk30 V c 1 t)
  Φ _ := Pipeline.ΦA spec30 c
  q _ := fullShare
  owed _ := 0

theorem A_eq30 (c : Dev nD) (w : Fin cfg30.W) : (dat30 V c).A w = V c (Pipeline.arrRef spec30 w) := by
  dsimp only [dat30]

theorem after30_0 (c : Dev nD) (t : Fin cfg30.N) : (dat30 V c).after 0 t = iblk30 V c 0 t := by dsimp only [dat30]
theorem after30_1 (c : Dev nD) (t : Fin cfg30.N) : (dat30 V c).after 1 t = iblk30 V c 1 t := by dsimp only [dat30]
theorem after30_2 (c : Dev nD) (t : Fin cfg30.N) : (dat30 V c).after 2 t = out30 (iblk30 V c 0 t) (iblk30 V c 1 t) := by dsimp only [dat30]

theorem before30_0 (c : Dev nD) (t : Fin cfg30.N) (d) : (dat30 V c).before 0 t d = iblk30 V c 0 t :=
  before30_0_of V (dat30 V c) (A_eq30 V c 0) (after30_0 V c) t d
theorem before30_1 (c : Dev nD) (t : Fin cfg30.N) (d) : (dat30 V c).before 1 t d = iblk30 V c 1 t :=
  before30_1_of V (dat30 V c) (A_eq30 V c 1) (after30_1 V c) t d

/-- What the body is handed at point `t`, window by window, -/
def bodyPre30 (c : Dev nD) (t : Fin cfg30.N) : sProp 𝕄 :=
  iprop((dat30 V c).Φ t.castSucc ∗ (dat30 V c).owesAt () t.castSucc
    ∗ (∃ d, owns (c : Thread nD τ) (st30_0 t) fullShare ((dat30 V c).before 0 t d))
    ∗ (∃ d, owns (c : Thread nD τ) (st30_1 t) fullShare ((dat30 V c).before 1 t d))
    ∗ (∃ d, owns (c : Thread nD τ) (st30_2 t) fullShare ((dat30 V c).before 2 t d)))

/-- and what it hands back. -/
def bodyPost30 (c : Dev nD) (t : Fin cfg30.N) : sProp 𝕄 :=
  iprop((dat30 V c).Φ t.succ ∗ (dat30 V c).owesAt () t.succ
    ∗ owns (c : Thread nD τ) (st30_0 t) fullShare ((dat30 V c).after 0 t)
    ∗ owns (c : Thread nD τ) (st30_1 t) fullShare ((dat30 V c).after 1 t)
    ∗ owns (c : Thread nD τ) (st30_2 t) fullShare ((dat30 V c).after 2 t))

theorem sound_body30 (c : Dev nD) (t : Fin cfg30.N) :
    bodyPre30 V c t ⊢ wp frame (wpE (defs₀ (F := F)) Variants.none c none) Set.univ (bodyAt30 t) (fun _ => bodyPost30 V c t) := by
  unfold bodyPre30 bodyPost30 bodyAt30
  simp only [before30_0, before30_1]
  rw [show (dat30 V c).Φ t.succ = (dat30 V c).Φ t.castSucc from rfl,
    show (dat30 V c).owesAt () t.succ = (dat30 V c).owesAt () t.castSucc from rfl,
    after30_0, after30_1, after30_2]
  iintro ⟨HΦ, Ho, ⟨%d0, H0⟩, ⟨%d1, H1⟩, ⟨%d2, H2⟩⟩
  iapply (sound_kernel30 c Set.univ _ _ _ _ _ _ _ (iblk30 V c 0 t) (iblk30 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation30 (c : Dev nD) : BodyObligation (dat30 (F := F) V c) (defs₀ (F := F)) Variants.none () Set.univ := fun t => by
  rw [bigSep_W30, bigSep_W30]
  exact sound_body30 V c t

end Cert.KernelIdeal.Reg

end
-- ==== Proof.KI.Region31.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 31: two input windows, each block loaded whole; one output window, stored whole -/

/-- Window `w`'s block at grid point `t`, read off the array as the region finds it. -/
def iblk31 (c : Dev nD) (w : Fin cfg31.W) (t : Fin cfg31.N) : ((cfg31.win w).xblock (cfg31.grid.coords t)).Idx → Elt F (cfg31.win w).elt :=
  ((cfg31.win w).blk t).view.read (Elt F) (V c (Pipeline.arrRef spec31 w))

/-- Input window 0's staging buffer holds its block at every point, fetched there or kept from the point before. -/
theorem before31_0_of {c : Dev nD} (dat : Dat τ (Elt F) Unit ℕ (UR sig nD τ) ℕ cfg31 c) (hA : dat.A 0 = V c (Pipeline.arrRef spec31 0))
    (hafter : ∀ t, dat.after 0 t = iblk31 V c 0 t) (t : Fin cfg31.N) (d) : dat.before 0 t d = iblk31 V c 0 t :=
  (dat.before_in_eq_fetched 0 rfl (fun _ => rfl) (fun _ _ _ => rfl) (fun t => by rw [hafter]; unfold Dat.blockOf iblk31; rw [hA]; try rfl) t d).trans
    (by unfold Dat.fetched Dat.blockOf iblk31; rw [hA]; try rfl)

/-- Input window 1's staging buffer likewise. -/
theorem before31_1_of {c : Dev nD} (dat : Dat τ (Elt F) Unit ℕ (UR sig nD τ) ℕ cfg31 c) (hA : dat.A 1 = V c (Pipeline.arrRef spec31 1))
    (hafter : ∀ t, dat.after 1 t = iblk31 V c 1 t) (t : Fin cfg31.N) (d) : dat.before 1 t d = iblk31 V c 1 t :=
  (dat.before_in_eq_fetched 1 rfl (fun _ => rfl) (fun _ _ _ => rfl) (fun t => by rw [hafter]; unfold Dat.blockOf iblk31; rw [hA]; try rfl) t d).trans
    (by unfold Dat.fetched Dat.blockOf iblk31; rw [hA]; try rfl)

abbrev r31_0 : Rect S2048x256 := Rect.unit (s := S2048x256) ![0, 0] S2048x256.size inb_S2048x256_S2048x256_0_0
abbrev r31_1 : Rect S256x256 := Rect.unit (s := S256x256) ![0, 0] S256x256.size inb_S256x256_S256x256_0_0
abbrev r31_o : Rect S2048x256 := Rect.unit (s := S2048x256) ![0, 0] S2048x256.size inb_S2048x256_S2048x256_0_0

/-- The output block after the body: its one whole-block store, of the body's value at the two input blocks. -/
def out31 (x0 : Vec F S2048x256 .f32) (x1 : Vec F S256x256 .f32) : Vec F S2048x256 .f32 :=
  View.canon [⟨r31_o, k31_pay1 (View.ld x0 r31_0) (View.ld x1 r31_1)⟩]

/-- That one store covers the block. -/
theorem cover31 (p0 : Vec F S2048x256 .f32) (y : S2048x256.Idx) :
    ∃ pc ∈ ([⟨r31_o, p0⟩] : List (View.Piece (Elt F) S2048x256 .f32)), y ∈ pc.1.set :=
  View.cover_of_tiled [⟨r31_o, p0⟩] S2048x256.size (by rfl) y

set_option maxHeartbeats 1000000 in
/-- The body on whole staging buffers: both input buffers are read and left as found, and the output buffer,
    whatever it held, ends at the body's value. -/
theorem sound_kernel31 (c : Dev nD) (E : Set ℕ) (i : grid31.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out31 x0 x1)) -∗ K ⟨⟩))
      ⊢ wp frame (wpE (defs₀ (F := F)) Variants.none c none) E (cc31__proj_matmul_kernel i arg1 harg1 arg2 harg2 arg3 harg3) K := by
  simp only [cc31__proj_matmul_kernel_eq_skeleton]; unfold cc31__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover31 _)

/-- The proof data: the arrays as the region finds them; after the body each input buffer still at its block and the
    output buffer at the body's value there; nothing owed, full shares, the scoped rest untouched. -/
def dat31 (c : Dev nD) : Dat τ (Elt F) Unit ℕ (UR sig nD τ) ℕ cfg31 c where
  A w := V c (Pipeline.arrRef spec31 w)
  after w t := match w with
    | ⟨0, _⟩ => iblk31 V c 0 t
    | ⟨1, _⟩ => iblk31 V c 1 t
    | ⟨2, _⟩ => out31 (iblk31 V c 0 t) (iblk31 V c 1 t)
  Φ _ := Pipeline.ΦA spec31 c
  q _ := fullShare
  owed _ := 0

theorem A_eq31 (c : Dev nD) (w : Fin cfg31.W) : (dat31 V c).A w = V c (Pipeline.arrRef spec31 w) := by
  dsimp only [dat31]

theorem after31_0 (c : Dev nD) (t : Fin cfg31.N) : (dat31 V c).after 0 t = iblk31 V c 0 t := by dsimp only [dat31]
theorem after31_1 (c : Dev nD) (t : Fin cfg31.N) : (dat31 V c).after 1 t = iblk31 V c 1 t := by dsimp only [dat31]
theorem after31_2 (c : Dev nD) (t : Fin cfg31.N) : (dat31 V c).after 2 t = out31 (iblk31 V c 0 t) (iblk31 V c 1 t) := by dsimp only [dat31]

theorem before31_0 (c : Dev nD) (t : Fin cfg31.N) (d) : (dat31 V c).before 0 t d = iblk31 V c 0 t :=
  before31_0_of V (dat31 V c) (A_eq31 V c 0) (after31_0 V c) t d
theorem before31_1 (c : Dev nD) (t : Fin cfg31.N) (d) : (dat31 V c).before 1 t d = iblk31 V c 1 t :=
  before31_1_of V (dat31 V c) (A_eq31 V c 1) (after31_1 V c) t d

/-- What the body is handed at point `t`, window by window, -/
def bodyPre31 (c : Dev nD) (t : Fin cfg31.N) : sProp 𝕄 :=
  iprop((dat31 V c).Φ t.castSucc ∗ (dat31 V c).owesAt () t.castSucc
    ∗ (∃ d, owns (c : Thread nD τ) (st31_0 t) fullShare ((dat31 V c).before 0 t d))
    ∗ (∃ d, owns (c : Thread nD τ) (st31_1 t) fullShare ((dat31 V c).before 1 t d))
    ∗ (∃ d, owns (c : Thread nD τ) (st31_2 t) fullShare ((dat31 V c).before 2 t d)))

/-- and what it hands back. -/
def bodyPost31 (c : Dev nD) (t : Fin cfg31.N) : sProp 𝕄 :=
  iprop((dat31 V c).Φ t.succ ∗ (dat31 V c).owesAt () t.succ
    ∗ owns (c : Thread nD τ) (st31_0 t) fullShare ((dat31 V c).after 0 t)
    ∗ owns (c : Thread nD τ) (st31_1 t) fullShare ((dat31 V c).after 1 t)
    ∗ owns (c : Thread nD τ) (st31_2 t) fullShare ((dat31 V c).after 2 t))

theorem sound_body31 (c : Dev nD) (t : Fin cfg31.N) :
    bodyPre31 V c t ⊢ wp frame (wpE (defs₀ (F := F)) Variants.none c none) Set.univ (bodyAt31 t) (fun _ => bodyPost31 V c t) := by
  unfold bodyPre31 bodyPost31 bodyAt31
  simp only [before31_0, before31_1]
  rw [show (dat31 V c).Φ t.succ = (dat31 V c).Φ t.castSucc from rfl,
    show (dat31 V c).owesAt () t.succ = (dat31 V c).owesAt () t.castSucc from rfl,
    after31_0, after31_1, after31_2]
  iintro ⟨HΦ, Ho, ⟨%d0, H0⟩, ⟨%d1, H1⟩, ⟨%d2, H2⟩⟩
  iapply (sound_kernel31 c Set.univ _ _ _ _ _ _ _ (iblk31 V c 0 t) (iblk31 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation31 (c : Dev nD) : BodyObligation (dat31 (F := F) V c) (defs₀ (F := F)) Variants.none () Set.univ := fun t => by
  rw [bigSep_W31, bigSep_W31]
  exact sound_body31 V c t

end Cert.KernelIdeal.Reg

end
-- ==== Proof.KI.Region32.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 32: two input windows, each block loaded whole; one output window, stored whole -/

/-- Window `w`'s block at grid point `t`, read off the array as the region finds it. -/
def iblk32 (c : Dev nD) (w : Fin cfg32.W) (t : Fin cfg32.N) : ((cfg32.win w).xblock (cfg32.grid.coords t)).Idx → Elt F (cfg32.win w).elt :=
  ((cfg32.win w).blk t).view.read (Elt F) (V c (Pipeline.arrRef spec32 w))

/-- Input window 0's staging buffer holds its block at every point, fetched there or kept from the point before. -/
theorem before32_0_of {c : Dev nD} (dat : Dat τ (Elt F) Unit ℕ (UR sig nD τ) ℕ cfg32 c) (hA : dat.A 0 = V c (Pipeline.arrRef spec32 0))
    (hafter : ∀ t, dat.after 0 t = iblk32 V c 0 t) (t : Fin cfg32.N) (d) : dat.before 0 t d = iblk32 V c 0 t :=
  (dat.before_in_eq_fetched 0 rfl (fun _ => rfl) (fun _ _ _ => rfl) (fun t => by rw [hafter]; unfold Dat.blockOf iblk32; rw [hA]; try rfl) t d).trans
    (by unfold Dat.fetched Dat.blockOf iblk32; rw [hA]; try rfl)

/-- Input window 1's staging buffer likewise. -/
theorem before32_1_of {c : Dev nD} (dat : Dat τ (Elt F) Unit ℕ (UR sig nD τ) ℕ cfg32 c) (hA : dat.A 1 = V c (Pipeline.arrRef spec32 1))
    (hafter : ∀ t, dat.after 1 t = iblk32 V c 1 t) (t : Fin cfg32.N) (d) : dat.before 1 t d = iblk32 V c 1 t :=
  (dat.before_in_eq_fetched 1 rfl (fun _ => rfl) (fun _ _ _ => rfl) (fun t => by rw [hafter]; unfold Dat.blockOf iblk32; rw [hA]; try rfl) t d).trans
    (by unfold Dat.fetched Dat.blockOf iblk32; rw [hA]; try rfl)

abbrev r32_0 : Rect S2048x256 := Rect.unit (s := S2048x256) ![0, 0] S2048x256.size inb_S2048x256_S2048x256_0_0
abbrev r32_1 : Rect S256x256 := Rect.unit (s := S256x256) ![0, 0] S256x256.size inb_S256x256_S256x256_0_0
abbrev r32_o : Rect S2048x256 := Rect.unit (s := S2048x256) ![0, 0] S2048x256.size inb_S2048x256_S2048x256_0_0

/-- The output block after the body: its one whole-block store, of the body's value at the two input blocks. -/
def out32 (x0 : Vec F S2048x256 .f32) (x1 : Vec F S256x256 .f32) : Vec F S2048x256 .f32 :=
  View.canon [⟨r32_o, k32_pay1 (View.ld x0 r32_0) (View.ld x1 r32_1)⟩]

/-- That one store covers the block. -/
theorem cover32 (p0 : Vec F S2048x256 .f32) (y : S2048x256.Idx) :
    ∃ pc ∈ ([⟨r32_o, p0⟩] : List (View.Piece (Elt F) S2048x256 .f32)), y ∈ pc.1.set :=
  View.cover_of_tiled [⟨r32_o, p0⟩] S2048x256.size (by rfl) y

set_option maxHeartbeats 1000000 in
/-- The body on whole staging buffers: both input buffers are read and left as found, and the output buffer,
    whatever it held, ends at the body's value. -/
theorem sound_kernel32 (c : Dev nD) (E : Set ℕ) (i : grid32.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out32 x0 x1)) -∗ K ⟨⟩))
      ⊢ wp frame (wpE (defs₀ (F := F)) Variants.none c none) E (cc32__proj_matmul_kernel i arg1 harg1 arg2 harg2 arg3 harg3) K := by
  simp only [cc32__proj_matmul_kernel_eq_skeleton]; unfold cc32__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover32 _)

/-- The proof data: the arrays as the region finds them; after the body each input buffer still at its block and the
    output buffer at the body's value there; nothing owed, full shares, the scoped rest untouched. -/
def dat32 (c : Dev nD) : Dat τ (Elt F) Unit ℕ (UR sig nD τ) ℕ cfg32 c where
  A w := V c (Pipeline.arrRef spec32 w)
  after w t := match w with
    | ⟨0, _⟩ => iblk32 V c 0 t
    | ⟨1, _⟩ => iblk32 V c 1 t
    | ⟨2, _⟩ => out32 (iblk32 V c 0 t) (iblk32 V c 1 t)
  Φ _ := Pipeline.ΦA spec32 c
  q _ := fullShare
  owed _ := 0

theorem A_eq32 (c : Dev nD) (w : Fin cfg32.W) : (dat32 V c).A w = V c (Pipeline.arrRef spec32 w) := by
  dsimp only [dat32]

theorem after32_0 (c : Dev nD) (t : Fin cfg32.N) : (dat32 V c).after 0 t = iblk32 V c 0 t := by dsimp only [dat32]
theorem after32_1 (c : Dev nD) (t : Fin cfg32.N) : (dat32 V c).after 1 t = iblk32 V c 1 t := by dsimp only [dat32]
theorem after32_2 (c : Dev nD) (t : Fin cfg32.N) : (dat32 V c).after 2 t = out32 (iblk32 V c 0 t) (iblk32 V c 1 t) := by dsimp only [dat32]

theorem before32_0 (c : Dev nD) (t : Fin cfg32.N) (d) : (dat32 V c).before 0 t d = iblk32 V c 0 t :=
  before32_0_of V (dat32 V c) (A_eq32 V c 0) (after32_0 V c) t d
theorem before32_1 (c : Dev nD) (t : Fin cfg32.N) (d) : (dat32 V c).before 1 t d = iblk32 V c 1 t :=
  before32_1_of V (dat32 V c) (A_eq32 V c 1) (after32_1 V c) t d

/-- What the body is handed at point `t`, window by window, -/
def bodyPre32 (c : Dev nD) (t : Fin cfg32.N) : sProp 𝕄 :=
  iprop((dat32 V c).Φ t.castSucc ∗ (dat32 V c).owesAt () t.castSucc
    ∗ (∃ d, owns (c : Thread nD τ) (st32_0 t) fullShare ((dat32 V c).before 0 t d))
    ∗ (∃ d, owns (c : Thread nD τ) (st32_1 t) fullShare ((dat32 V c).before 1 t d))
    ∗ (∃ d, owns (c : Thread nD τ) (st32_2 t) fullShare ((dat32 V c).before 2 t d)))

/-- and what it hands back. -/
def bodyPost32 (c : Dev nD) (t : Fin cfg32.N) : sProp 𝕄 :=
  iprop((dat32 V c).Φ t.succ ∗ (dat32 V c).owesAt () t.succ
    ∗ owns (c : Thread nD τ) (st32_0 t) fullShare ((dat32 V c).after 0 t)
    ∗ owns (c : Thread nD τ) (st32_1 t) fullShare ((dat32 V c).after 1 t)
    ∗ owns (c : Thread nD τ) (st32_2 t) fullShare ((dat32 V c).after 2 t))

theorem sound_body32 (c : Dev nD) (t : Fin cfg32.N) :
    bodyPre32 V c t ⊢ wp frame (wpE (defs₀ (F := F)) Variants.none c none) Set.univ (bodyAt32 t) (fun _ => bodyPost32 V c t) := by
  unfold bodyPre32 bodyPost32 bodyAt32
  simp only [before32_0, before32_1]
  rw [show (dat32 V c).Φ t.succ = (dat32 V c).Φ t.castSucc from rfl,
    show (dat32 V c).owesAt () t.succ = (dat32 V c).owesAt () t.castSucc from rfl,
    after32_0, after32_1, after32_2]
  iintro ⟨HΦ, Ho, ⟨%d0, H0⟩, ⟨%d1, H1⟩, ⟨%d2, H2⟩⟩
  iapply (sound_kernel32 c Set.univ _ _ _ _ _ _ _ (iblk32 V c 0 t) (iblk32 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation32 (c : Dev nD) : BodyObligation (dat32 (F := F) V c) (defs₀ (F := F)) Variants.none () Set.univ := fun t => by
  rw [bigSep_W32, bigSep_W32]
  exact sound_body32 V c t

end Cert.KernelIdeal.Reg

end
-- ==== Proof.KI.Region33.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 33: two input windows, each block loaded whole; one output window, stored whole -/

/-- Window `w`'s block at grid point `t`, read off the array as the region finds it. -/
def iblk33 (c : Dev nD) (w : Fin cfg33.W) (t : Fin cfg33.N) : ((cfg33.win w).xblock (cfg33.grid.coords t)).Idx → Elt F (cfg33.win w).elt :=
  ((cfg33.win w).blk t).view.read (Elt F) (V c (Pipeline.arrRef spec33 w))

/-- Input window 0's staging buffer holds its block at every point, fetched there or kept from the point before. -/
theorem before33_0_of {c : Dev nD} (dat : Dat τ (Elt F) Unit ℕ (UR sig nD τ) ℕ cfg33 c) (hA : dat.A 0 = V c (Pipeline.arrRef spec33 0))
    (hafter : ∀ t, dat.after 0 t = iblk33 V c 0 t) (t : Fin cfg33.N) (d) : dat.before 0 t d = iblk33 V c 0 t :=
  (dat.before_in_eq_fetched 0 rfl (fun _ => rfl) (fun _ _ _ => rfl) (fun t => by rw [hafter]; unfold Dat.blockOf iblk33; rw [hA]; try rfl) t d).trans
    (by unfold Dat.fetched Dat.blockOf iblk33; rw [hA]; try rfl)

/-- Input window 1's staging buffer likewise. -/
theorem before33_1_of {c : Dev nD} (dat : Dat τ (Elt F) Unit ℕ (UR sig nD τ) ℕ cfg33 c) (hA : dat.A 1 = V c (Pipeline.arrRef spec33 1))
    (hafter : ∀ t, dat.after 1 t = iblk33 V c 1 t) (t : Fin cfg33.N) (d) : dat.before 1 t d = iblk33 V c 1 t :=
  (dat.before_in_eq_fetched 1 rfl (fun _ => rfl) (fun _ _ _ => rfl) (fun t => by rw [hafter]; unfold Dat.blockOf iblk33; rw [hA]; try rfl) t d).trans
    (by unfold Dat.fetched Dat.blockOf iblk33; rw [hA]; try rfl)

abbrev r33_0 : Rect S2048x256 := Rect.unit (s := S2048x256) ![0, 0] S2048x256.size inb_S2048x256_S2048x256_0_0
abbrev r33_1 : Rect S256x256 := Rect.unit (s := S256x256) ![0, 0] S256x256.size inb_S256x256_S256x256_0_0
abbrev r33_o : Rect S2048x256 := Rect.unit (s := S2048x256) ![0, 0] S2048x256.size inb_S2048x256_S2048x256_0_0

/-- The output block after the body: its one whole-block store, of the body's value at the two input blocks. -/
def out33 (x0 : Vec F S2048x256 .f32) (x1 : Vec F S256x256 .f32) : Vec F S2048x256 .f32 :=
  View.canon [⟨r33_o, k33_pay1 (View.ld x0 r33_0) (View.ld x1 r33_1)⟩]

/-- That one store covers the block. -/
theorem cover33 (p0 : Vec F S2048x256 .f32) (y : S2048x256.Idx) :
    ∃ pc ∈ ([⟨r33_o, p0⟩] : List (View.Piece (Elt F) S2048x256 .f32)), y ∈ pc.1.set :=
  View.cover_of_tiled [⟨r33_o, p0⟩] S2048x256.size (by rfl) y

set_option maxHeartbeats 1000000 in
/-- The body on whole staging buffers: both input buffers are read and left as found, and the output buffer,
    whatever it held, ends at the body's value. -/
theorem sound_kernel33 (c : Dev nD) (E : Set ℕ) (i : grid33.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out33 x0 x1)) -∗ K ⟨⟩))
      ⊢ wp frame (wpE (defs₀ (F := F)) Variants.none c none) E (cc33__proj_matmul_kernel i arg1 harg1 arg2 harg2 arg3 harg3) K := by
  simp only [cc33__proj_matmul_kernel_eq_skeleton]; unfold cc33__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover33 _)

/-- The proof data: the arrays as the region finds them; after the body each input buffer still at its block and the
    output buffer at the body's value there; nothing owed, full shares, the scoped rest untouched. -/
def dat33 (c : Dev nD) : Dat τ (Elt F) Unit ℕ (UR sig nD τ) ℕ cfg33 c where
  A w := V c (Pipeline.arrRef spec33 w)
  after w t := match w with
    | ⟨0, _⟩ => iblk33 V c 0 t
    | ⟨1, _⟩ => iblk33 V c 1 t
    | ⟨2, _⟩ => out33 (iblk33 V c 0 t) (iblk33 V c 1 t)
  Φ _ := Pipeline.ΦA spec33 c
  q _ := fullShare
  owed _ := 0

theorem A_eq33 (c : Dev nD) (w : Fin cfg33.W) : (dat33 V c).A w = V c (Pipeline.arrRef spec33 w) := by
  dsimp only [dat33]

theorem after33_0 (c : Dev nD) (t : Fin cfg33.N) : (dat33 V c).after 0 t = iblk33 V c 0 t := by dsimp only [dat33]
theorem after33_1 (c : Dev nD) (t : Fin cfg33.N) : (dat33 V c).after 1 t = iblk33 V c 1 t := by dsimp only [dat33]
theorem after33_2 (c : Dev nD) (t : Fin cfg33.N) : (dat33 V c).after 2 t = out33 (iblk33 V c 0 t) (iblk33 V c 1 t) := by dsimp only [dat33]

theorem before33_0 (c : Dev nD) (t : Fin cfg33.N) (d) : (dat33 V c).before 0 t d = iblk33 V c 0 t :=
  before33_0_of V (dat33 V c) (A_eq33 V c 0) (after33_0 V c) t d
theorem before33_1 (c : Dev nD) (t : Fin cfg33.N) (d) : (dat33 V c).before 1 t d = iblk33 V c 1 t :=
  before33_1_of V (dat33 V c) (A_eq33 V c 1) (after33_1 V c) t d

/-- What the body is handed at point `t`, window by window, -/
def bodyPre33 (c : Dev nD) (t : Fin cfg33.N) : sProp 𝕄 :=
  iprop((dat33 V c).Φ t.castSucc ∗ (dat33 V c).owesAt () t.castSucc
    ∗ (∃ d, owns (c : Thread nD τ) (st33_0 t) fullShare ((dat33 V c).before 0 t d))
    ∗ (∃ d, owns (c : Thread nD τ) (st33_1 t) fullShare ((dat33 V c).before 1 t d))
    ∗ (∃ d, owns (c : Thread nD τ) (st33_2 t) fullShare ((dat33 V c).before 2 t d)))

/-- and what it hands back. -/
def bodyPost33 (c : Dev nD) (t : Fin cfg33.N) : sProp 𝕄 :=
  iprop((dat33 V c).Φ t.succ ∗ (dat33 V c).owesAt () t.succ
    ∗ owns (c : Thread nD τ) (st33_0 t) fullShare ((dat33 V c).after 0 t)
    ∗ owns (c : Thread nD τ) (st33_1 t) fullShare ((dat33 V c).after 1 t)
    ∗ owns (c : Thread nD τ) (st33_2 t) fullShare ((dat33 V c).after 2 t))

theorem sound_body33 (c : Dev nD) (t : Fin cfg33.N) :
    bodyPre33 V c t ⊢ wp frame (wpE (defs₀ (F := F)) Variants.none c none) Set.univ (bodyAt33 t) (fun _ => bodyPost33 V c t) := by
  unfold bodyPre33 bodyPost33 bodyAt33
  simp only [before33_0, before33_1]
  rw [show (dat33 V c).Φ t.succ = (dat33 V c).Φ t.castSucc from rfl,
    show (dat33 V c).owesAt () t.succ = (dat33 V c).owesAt () t.castSucc from rfl,
    after33_0, after33_1, after33_2]
  iintro ⟨HΦ, Ho, ⟨%d0, H0⟩, ⟨%d1, H1⟩, ⟨%d2, H2⟩⟩
  iapply (sound_kernel33 c Set.univ _ _ _ _ _ _ _ (iblk33 V c 0 t) (iblk33 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation33 (c : Dev nD) : BodyObligation (dat33 (F := F) V c) (defs₀ (F := F)) Variants.none () Set.univ := fun t => by
  rw [bigSep_W33, bigSep_W33]
  exact sound_body33 V c t

end Cert.KernelIdeal.Reg

end
-- ==== Proof.KI.Region34.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 34: two input windows, each block loaded whole; one output window, stored whole -/

/-- Window `w`'s block at grid point `t`, read off the array as the region finds it. -/
def iblk34 (c : Dev nD) (w : Fin cfg34.W) (t : Fin cfg34.N) : ((cfg34.win w).xblock (cfg34.grid.coords t)).Idx → Elt F (cfg34.win w).elt :=
  ((cfg34.win w).blk t).view.read (Elt F) (V c (Pipeline.arrRef spec34 w))

/-- Input window 0's staging buffer holds its block at every point, fetched there or kept from the point before. -/
theorem before34_0_of {c : Dev nD} (dat : Dat τ (Elt F) Unit ℕ (UR sig nD τ) ℕ cfg34 c) (hA : dat.A 0 = V c (Pipeline.arrRef spec34 0))
    (hafter : ∀ t, dat.after 0 t = iblk34 V c 0 t) (t : Fin cfg34.N) (d) : dat.before 0 t d = iblk34 V c 0 t :=
  (dat.before_in_eq_fetched 0 rfl (fun _ => rfl) (fun _ _ _ => rfl) (fun t => by rw [hafter]; unfold Dat.blockOf iblk34; rw [hA]; try rfl) t d).trans
    (by unfold Dat.fetched Dat.blockOf iblk34; rw [hA]; try rfl)

/-- Input window 1's staging buffer likewise. -/
theorem before34_1_of {c : Dev nD} (dat : Dat τ (Elt F) Unit ℕ (UR sig nD τ) ℕ cfg34 c) (hA : dat.A 1 = V c (Pipeline.arrRef spec34 1))
    (hafter : ∀ t, dat.after 1 t = iblk34 V c 1 t) (t : Fin cfg34.N) (d) : dat.before 1 t d = iblk34 V c 1 t :=
  (dat.before_in_eq_fetched 1 rfl (fun _ => rfl) (fun _ _ _ => rfl) (fun t => by rw [hafter]; unfold Dat.blockOf iblk34; rw [hA]; try rfl) t d).trans
    (by unfold Dat.fetched Dat.blockOf iblk34; rw [hA]; try rfl)

abbrev r34_0 : Rect S2048x256 := Rect.unit (s := S2048x256) ![0, 0] S2048x256.size inb_S2048x256_S2048x256_0_0
abbrev r34_1 : Rect S256x256 := Rect.unit (s := S256x256) ![0, 0] S256x256.size inb_S256x256_S256x256_0_0
abbrev r34_o : Rect S2048x256 := Rect.unit (s := S2048x256) ![0, 0] S2048x256.size inb_S2048x256_S2048x256_0_0

/-- The output block after the body: its one whole-block store, of the body's value at the two input blocks. -/
def out34 (x0 : Vec F S2048x256 .f32) (x1 : Vec F S256x256 .f32) : Vec F S2048x256 .f32 :=
  View.canon [⟨r34_o, k34_pay1 (View.ld x0 r34_0) (View.ld x1 r34_1)⟩]

/-- That one store covers the block. -/
theorem cover34 (p0 : Vec F S2048x256 .f32) (y : S2048x256.Idx) :
    ∃ pc ∈ ([⟨r34_o, p0⟩] : List (View.Piece (Elt F) S2048x256 .f32)), y ∈ pc.1.set :=
  View.cover_of_tiled [⟨r34_o, p0⟩] S2048x256.size (by rfl) y

set_option maxHeartbeats 1000000 in
/-- The body on whole staging buffers: both input buffers are read and left as found, and the output buffer,
    whatever it held, ends at the body's value. -/
theorem sound_kernel34 (c : Dev nD) (E : Set ℕ) (i : grid34.Coords)
    (arg1 : Memref sig .tc .vmem S2048x256 .f32) (harg1 : arg1.IsWhole) (arg2 : Memref sig .tc .vmem S256x256 .f32) (harg2 : arg2.IsWhole)
    (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out34 x0 x1)) -∗ K ⟨⟩))
      ⊢ wp frame (wpE (defs₀ (F := F)) Variants.none c none) E (cc34__proj_matmul_kernel i arg1 harg1 arg2 harg2 arg3 harg3) K := by
  simp only [cc34__proj_matmul_kernel_eq_skeleton]; unfold cc34__proj_matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover34 _)

/-- The proof data: the arrays as the region finds them; after the body each input buffer still at its block and the
    output buffer at the body's value there; nothing owed, full shares, the scoped rest untouched. -/
def dat34 (c : Dev nD) : Dat τ (Elt F) Unit ℕ (UR sig nD τ) ℕ cfg34 c where
  A w := V c (Pipeline.arrRef spec34 w)
  after w t := match w with
    | ⟨0, _⟩ => iblk34 V c 0 t
    | ⟨1, _⟩ => iblk34 V c 1 t
    | ⟨2, _⟩ => out34 (iblk34 V c 0 t) (iblk34 V c 1 t)
  Φ _ := Pipeline.ΦA spec34 c
  q _ := fullShare
  owed _ := 0

theorem A_eq34 (c : Dev nD) (w : Fin cfg34.W) : (dat34 V c).A w = V c (Pipeline.arrRef spec34 w) := by
  dsimp only [dat34]

theorem after34_0 (c : Dev nD) (t : Fin cfg34.N) : (dat34 V c).after 0 t = iblk34 V c 0 t := by dsimp only [dat34]
theorem after34_1 (c : Dev nD) (t : Fin cfg34.N) : (dat34 V c).after 1 t = iblk34 V c 1 t := by dsimp only [dat34]
theorem after34_2 (c : Dev nD) (t : Fin cfg34.N) : (dat34 V c).after 2 t = out34 (iblk34 V c 0 t) (iblk34 V c 1 t) := by dsimp only [dat34]

theorem before34_0 (c : Dev nD) (t : Fin cfg34.N) (d) : (dat34 V c).before 0 t d = iblk34 V c 0 t :=
  before34_0_of V (dat34 V c) (A_eq34 V c 0) (after34_0 V c) t d
theorem before34_1 (c : Dev nD) (t : Fin cfg34.N) (d) : (dat34 V c).before 1 t d = iblk34 V c 1 t :=
  before34_1_of V (dat34 V c) (A_eq34 V c 1) (after34_1 V c) t d

/-- What the body is handed at point `t`, window by window, -/
def bodyPre34 (c : Dev nD) (t : Fin cfg34.N) : sProp 𝕄 :=
  iprop((dat34 V c).Φ t.castSucc ∗ (dat34 V c).owesAt () t.castSucc
    ∗ (∃ d, owns (c : Thread nD τ) (st34_0 t) fullShare ((dat34 V c).before 0 t d))
    ∗ (∃ d, owns (c : Thread nD τ) (st34_1 t) fullShare ((dat34 V c).before 1 t d))
    ∗ (∃ d, owns (c : Thread nD τ) (st34_2 t) fullShare ((dat34 V c).before 2 t d)))

/-- and what it hands back. -/
def bodyPost34 (c : Dev nD) (t : Fin cfg34.N) : sProp 𝕄 :=
  iprop((dat34 V c).Φ t.succ ∗ (dat34 V c).owesAt () t.succ
    ∗ owns (c : Thread nD τ) (st34_0 t) fullShare ((dat34 V c).after 0 t)
    ∗ owns (c : Thread nD τ) (st34_1 t) fullShare ((dat34 V c).after 1 t)
    ∗ owns (c : Thread nD τ) (st34_2 t) fullShare ((dat34 V c).after 2 t))

theorem sound_body34 (c : Dev nD) (t : Fin cfg34.N) :
    bodyPre34 V c t ⊢ wp frame (wpE (defs₀ (F := F)) Variants.none c none) Set.univ (bodyAt34 t) (fun _ => bodyPost34 V c t) := by
  unfold bodyPre34 bodyPost34 bodyAt34
  simp only [before34_0, before34_1]
  rw [show (dat34 V c).Φ t.succ = (dat34 V c).Φ t.castSucc from rfl,
    show (dat34 V c).owesAt () t.succ = (dat34 V c).owesAt () t.castSucc from rfl,
    after34_0, after34_1, after34_2]
  iintro ⟨HΦ, Ho, ⟨%d0, H0⟩, ⟨%d1, H1⟩, ⟨%d2, H2⟩⟩
  iapply (sound_kernel34 c Set.univ _ _ _ _ _ _ _ (iblk34 V c 0 t) (iblk34 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation34 (c : Dev nD) : BodyObligation (dat34 (F := F) V c) (defs₀ (F := F)) Variants.none () Set.univ := fun t => by
  rw [bigSep_W34, bigSep_W34]
  exact sound_body34 V c t

end Cert.KernelIdeal.Reg

end
-- ==== Proof.KI.Region35.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 35: two input windows, each block loaded whole; one output window, stored whole -/

/-- Window `w`'s block at grid point `t`, read off the array as the region finds it. -/
def iblk35 (c : Dev nD) (w : Fin cfg35.W) (t : Fin cfg35.N) : ((cfg35.win w).xblock (cfg35.grid.coords t)).Idx → Elt F (cfg35.win w).elt :=
  ((cfg35.win w).blk t).view.read (Elt F) (V c (Pipeline.arrRef spec35 w))

/-- Input window 0's staging buffer holds its block at every point, fetched there or kept from the point before. -/
theorem before35_0_of {c : Dev nD} (dat : Dat τ (Elt F) Unit ℕ (UR sig nD τ) ℕ cfg35 c) (hA : dat.A 0 = V c (Pipeline.arrRef spec35 0))
    (hafter : ∀ t, dat.after 0 t = iblk35 V c 0 t) (t : Fin cfg35.N) (d) : dat.before 0 t d = iblk35 V c 0 t :=
  (dat.before_in_eq_fetched 0 rfl (fun _ => rfl) (fun _ _ _ => rfl) (fun t => by rw [hafter]; unfold Dat.blockOf iblk35; rw [hA]; try rfl) t d).trans
    (by unfold Dat.fetched Dat.blockOf iblk35; rw [hA]; try rfl)

/-- Input window 1's staging buffer likewise. -/
theorem before35_1_of {c : Dev nD} (dat : Dat τ (Elt F) Unit ℕ (UR sig nD τ) ℕ cfg35 c) (hA : dat.A 1 = V c (Pipeline.arrRef spec35 1))
    (hafter : ∀ t, dat.after 1 t = iblk35 V c 1 t) (t : Fin cfg35.N) (d) : dat.before 1 t d = iblk35 V c 1 t :=
  (dat.before_in_eq_fetched 1 rfl (fun _ => rfl) (fun _ _ _ => rfl) (fun t => by rw [hafter]; unfold Dat.blockOf iblk35; rw [hA]; try rfl) t d).trans
    (by unfold Dat.fetched Dat.blockOf iblk35; rw [hA]; try rfl)

abbrev r35_0 : Rect S8x256x128 := Rect.unit (s := S8x256x128) ![0, 0, 0] S8x256x128.size inb_S8x256x128_S8x256x128_0_0_0
abbrev r35_1 : Rect S8x128x256 := Rect.unit (s := S8x128x256) ![0, 0, 0] S8x128x256.size inb_S8x128x256_S8x128x256_0_0_0
abbrev r35_o : Rect S8x256x256 := Rect.unit (s := S8x256x256) ![0, 0, 0] S8x256x256.size inb_S8x256x256_S8x256x256_0_0_0

/-- The output block after the body: its one whole-block store, of the body's value at the two input blocks. -/
def out35 (x0 : Vec F S8x256x128 .bf16) (x1 : Vec F S8x128x256 .f32) : Vec F S8x256x256 .f32 :=
  View.canon [⟨r35_o, k35_pay1 (View.ld x0 r35_0) (View.ld x1 r35_1)⟩]

/-- That one store covers the block. -/
theorem cover35 (p0 : Vec F S8x256x256 .f32) (y : S8x256x256.Idx) :
    ∃ pc ∈ ([⟨r35_o, p0⟩] : List (View.Piece (Elt F) S8x256x256 .f32)), y ∈ pc.1.set :=
  View.cover_of_tiled [⟨r35_o, p0⟩] S8x256x256.size (by rfl) y

set_option maxHeartbeats 1000000 in
/-- The body on whole staging buffers: both input buffers are read and left as found, and the output buffer,
    whatever it held, ends at the body's value. -/
theorem sound_kernel35 (c : Dev nD) (E : Set ℕ) (i : grid35.Coords)
    (arg1 : Memref sig .tc .vmem S8x256x128 .bf16) (harg1 : arg1.IsWhole) (arg2 : Memref sig .tc .vmem S8x128x256 .f32) (harg2 : arg2.IsWhole)
    (arg3 : Memref sig .tc .vmem S8x256x256 .f32) (harg3 : arg3.IsWhole)
    (x0 : Vec F S8x256x128 .bf16) (x1 : Vec F S8x128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out35 x0 x1)) -∗ K ⟨⟩))
      ⊢ wp frame (wpE (defs₀ (F := F)) Variants.none c none) E (cc35__boundary_reduce_kernel i arg1 harg1 arg2 harg2 arg3 harg3) K := by
  simp only [cc35__boundary_reduce_kernel_eq_skeleton]; unfold cc35__boundary_reduce_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover35 _)

/-- The proof data: the arrays as the region finds them; after the body each input buffer still at its block and the
    output buffer at the body's value there; nothing owed, full shares, the scoped rest untouched. -/
def dat35 (c : Dev nD) : Dat τ (Elt F) Unit ℕ (UR sig nD τ) ℕ cfg35 c where
  A w := V c (Pipeline.arrRef spec35 w)
  after w t := match w with
    | ⟨0, _⟩ => iblk35 V c 0 t
    | ⟨1, _⟩ => iblk35 V c 1 t
    | ⟨2, _⟩ => out35 (iblk35 V c 0 t) (iblk35 V c 1 t)
  Φ _ := Pipeline.ΦA spec35 c
  q _ := fullShare
  owed _ := 0

theorem A_eq35 (c : Dev nD) (w : Fin cfg35.W) : (dat35 V c).A w = V c (Pipeline.arrRef spec35 w) := by
  dsimp only [dat35]

theorem after35_0 (c : Dev nD) (t : Fin cfg35.N) : (dat35 V c).after 0 t = iblk35 V c 0 t := by dsimp only [dat35]
theorem after35_1 (c : Dev nD) (t : Fin cfg35.N) : (dat35 V c).after 1 t = iblk35 V c 1 t := by dsimp only [dat35]
theorem after35_2 (c : Dev nD) (t : Fin cfg35.N) : (dat35 V c).after 2 t = out35 (iblk35 V c 0 t) (iblk35 V c 1 t) := by dsimp only [dat35]

theorem before35_0 (c : Dev nD) (t : Fin cfg35.N) (d) : (dat35 V c).before 0 t d = iblk35 V c 0 t :=
  before35_0_of V (dat35 V c) (A_eq35 V c 0) (after35_0 V c) t d
theorem before35_1 (c : Dev nD) (t : Fin cfg35.N) (d) : (dat35 V c).before 1 t d = iblk35 V c 1 t :=
  before35_1_of V (dat35 V c) (A_eq35 V c 1) (after35_1 V c) t d

/-- What the body is handed at point `t`, window by window, -/
def bodyPre35 (c : Dev nD) (t : Fin cfg35.N) : sProp 𝕄 :=
  iprop((dat35 V c).Φ t.castSucc ∗ (dat35 V c).owesAt () t.castSucc
    ∗ (∃ d, owns (c : Thread nD τ) (st35_0 t) fullShare ((dat35 V c).before 0 t d))
    ∗ (∃ d, owns (c : Thread nD τ) (st35_1 t) fullShare ((dat35 V c).before 1 t d))
    ∗ (∃ d, owns (c : Thread nD τ) (st35_2 t) fullShare ((dat35 V c).before 2 t d)))

/-- and what it hands back. -/
def bodyPost35 (c : Dev nD) (t : Fin cfg35.N) : sProp 𝕄 :=
  iprop((dat35 V c).Φ t.succ ∗ (dat35 V c).owesAt () t.succ
    ∗ owns (c : Thread nD τ) (st35_0 t) fullShare ((dat35 V c).after 0 t)
    ∗ owns (c : Thread nD τ) (st35_1 t) fullShare ((dat35 V c).after 1 t)
    ∗ owns (c : Thread nD τ) (st35_2 t) fullShare ((dat35 V c).after 2 t))

theorem sound_body35 (c : Dev nD) (t : Fin cfg35.N) :
    bodyPre35 V c t ⊢ wp frame (wpE (defs₀ (F := F)) Variants.none c none) Set.univ (bodyAt35 t) (fun _ => bodyPost35 V c t) := by
  unfold bodyPre35 bodyPost35 bodyAt35
  simp only [before35_0, before35_1]
  rw [show (dat35 V c).Φ t.succ = (dat35 V c).Φ t.castSucc from rfl,
    show (dat35 V c).owesAt () t.succ = (dat35 V c).owesAt () t.castSucc from rfl,
    after35_0, after35_1, after35_2]
  iintro ⟨HΦ, Ho, ⟨%d0, H0⟩, ⟨%d1, H1⟩, ⟨%d2, H2⟩⟩
  iapply (sound_kernel35 c Set.univ _ _ _ _ _ _ _ (iblk35 V c 0 t) (iblk35 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation35 (c : Dev nD) : BodyObligation (dat35 (F := F) V c) (defs₀ (F := F)) Variants.none () Set.univ := fun t => by
  rw [bigSep_W35, bigSep_W35]
  exact sound_body35 V c t

end Cert.KernelIdeal.Reg

end
-- ==== Proof.KI.Region36.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 36: three input windows, each block loaded whole; one output window, stored whole -/

/-- Window `w`'s block at grid point `t`, read off the array as the region finds it. -/
def iblk36 (c : Dev nD) (w : Fin cfg36.W) (t : Fin cfg36.N) : ((cfg36.win w).xblock (cfg36.grid.coords t)).Idx → Elt F (cfg36.win w).elt :=
  ((cfg36.win w).blk t).view.read (Elt F) (V c (Pipeline.arrRef spec36 w))

/-- Input window 0's staging buffer holds its block at every point, fetched there or kept from the point before. -/
theorem before36_0_of {c : Dev nD} (dat : Dat τ (Elt F) Unit ℕ (UR sig nD τ) ℕ cfg36 c) (hA : dat.A 0 = V c (Pipeline.arrRef spec36 0))
    (hafter : ∀ t, dat.after 0 t = iblk36 V c 0 t) (t : Fin cfg36.N) (d) : dat.before 0 t d = iblk36 V c 0 t :=
  (dat.before_in_eq_fetched 0 rfl (fun _ => rfl) (fun _ _ _ => rfl) (fun t => by rw [hafter]; unfold Dat.blockOf iblk36; rw [hA]; try rfl) t d).trans
    (by unfold Dat.fetched Dat.blockOf iblk36; rw [hA]; try rfl)

/-- Input window 1's staging buffer likewise. -/
theorem before36_1_of {c : Dev nD} (dat : Dat τ (Elt F) Unit ℕ (UR sig nD τ) ℕ cfg36 c) (hA : dat.A 1 = V c (Pipeline.arrRef spec36 1))
    (hafter : ∀ t, dat.after 1 t = iblk36 V c 1 t) (t : Fin cfg36.N) (d) : dat.before 1 t d = iblk36 V c 1 t :=
  (dat.before_in_eq_fetched 1 rfl (fun _ => rfl) (fun _ _ _ => rfl) (fun t => by rw [hafter]; unfold Dat.blockOf iblk36; rw [hA]; try rfl) t d).trans
    (by unfold Dat.fetched Dat.blockOf iblk36; rw [hA]; try rfl)

/-- Input window 2's staging buffer likewise (fetched once, then kept). -/
theorem before36_2_of {c : Dev nD} (dat : Dat τ (Elt F) Unit ℕ (UR sig nD τ) ℕ cfg36 c) (hA : dat.A 2 = V c (Pipeline.arrRef spec36 2))
    (hafter : ∀ t, dat.after 2 t = iblk36 V c 2 t) (t : Fin cfg36.N) (d) : dat.before 2 t d = iblk36 V c 2 t :=
  (dat.before_in_eq_fetched 2 rfl (fun _ => rfl) (fun _ _ _ => rfl) (fun t => by rw [hafter]; unfold Dat.blockOf iblk36; rw [hA]; try rfl) t d).trans
    (by unfold Dat.fetched Dat.blockOf iblk36; rw [hA]; try rfl)

abbrev r36_0 : Rect S16x64x256 := Rect.unit (s := S16x64x256) ![0, 0, 0] S16x64x256.size inb_S16x64x256_S16x64x256_0_0_0
abbrev r36_1 : Rect S16x256x256 := Rect.unit (s := S16x256x256) ![0, 0, 0] S16x256x256.size inb_S16x256x256_S16x256x256_0_0_0
abbrev r36_2 : Rect S256x256 := Rect.unit (s := S256x256) ![0, 0] S256x256.size inb_S256x256_S256x256_0_0
abbrev r36_o : Rect S16x64x256 := Rect.unit (s := S16x64x256) ![0, 0, 0] S16x64x256.size inb_S16x64x256_S16x64x256_0_0_0

/-- The output block after the body: its one whole-block store, of the body's value at the three input blocks. -/
def out36 (x0 : Vec F S16x64x256 .bf16) (x1 : Vec F S16x256x256 .f32) (x2 : Vec F S256x256 .f32) : Vec F S16x64x256 .f32 :=
  View.canon [⟨r36_o, k36_pay1 (View.ld x0 r36_0) (View.ld x1 r36_1) (View.ld x2 r36_2)⟩]

/-- That one store covers the block. -/
theorem cover36 (p0 : Vec F S16x64x256 .f32) (y : S16x64x256.Idx) :
    ∃ pc ∈ ([⟨r36_o, p0⟩] : List (View.Piece (Elt F) S16x64x256 .f32)), y ∈ pc.1.set :=
  View.cover_of_tiled [⟨r36_o, p0⟩] S16x64x256.size (by rfl) y

set_option maxHeartbeats 1000000 in
/-- The body on whole staging buffers: the three input buffers are read and left as found, and the output buffer,
    whatever it held, ends at the body's value. -/
theorem sound_kernel36 (c : Dev nD) (E : Set ℕ) (i : grid36.Coords)
    (arg1 : Memref sig .tc .vmem S16x64x256 .bf16) (harg1 : arg1.IsWhole) (arg2 : Memref sig .tc .vmem S16x256x256 .f32) (harg2 : arg2.IsWhole)
    (arg3 : Memref sig .tc .vmem S256x256 .f32) (harg3 : arg3.IsWhole) (arg4 : Memref sig .tc .vmem S16x64x256 .f32) (harg4 : arg4.IsWhole)
    (x0 : Vec F S16x64x256 .bf16) (x1 : Vec F S16x256x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out36 x0 x1 x2)) -∗ K ⟨⟩))
      ⊢ wp frame (wpE (defs₀ (F := F)) Variants.none c none) E (cc36__boundary_kernel i arg1 harg1 arg2 harg2 arg3 harg3 arg4 harg4) K := by
  simp only [cc36__boundary_kernel_eq_skeleton]; unfold cc36__boundary_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover36 _)

/-- The proof data: the arrays as the region finds them; after the body each input buffer still at its block and the
    output buffer at the body's value there; nothing owed, full shares, the scoped rest untouched. -/
def dat36 (c : Dev nD) : Dat τ (Elt F) Unit ℕ (UR sig nD τ) ℕ cfg36 c where
  A w := V c (Pipeline.arrRef spec36 w)
  after w t := match w with
    | ⟨0, _⟩ => iblk36 V c 0 t
    | ⟨1, _⟩ => iblk36 V c 1 t
    | ⟨2, _⟩ => iblk36 V c 2 t
    | ⟨3, _⟩ => out36 (iblk36 V c 0 t) (iblk36 V c 1 t) (iblk36 V c 2 t)
  Φ _ := Pipeline.ΦA spec36 c
  q _ := fullShare
  owed _ := 0

theorem A_eq36 (c : Dev nD) (w : Fin cfg36.W) : (dat36 V c).A w = V c (Pipeline.arrRef spec36 w) := by
  dsimp only [dat36]

theorem after36_0 (c : Dev nD) (t : Fin cfg36.N) : (dat36 V c).after 0 t = iblk36 V c 0 t := by dsimp only [dat36]
theorem after36_1 (c : Dev nD) (t : Fin cfg36.N) : (dat36 V c).after 1 t = iblk36 V c 1 t := by dsimp only [dat36]
theorem after36_2 (c : Dev nD) (t : Fin cfg36.N) : (dat36 V c).after 2 t = iblk36 V c 2 t := by dsimp only [dat36]
theorem after36_3 (c : Dev nD) (t : Fin cfg36.N) :
    (dat36 V c).after 3 t = out36 (iblk36 V c 0 t) (iblk36 V c 1 t) (iblk36 V c 2 t) := by dsimp only [dat36]

theorem before36_0 (c : Dev nD) (t : Fin cfg36.N) (d) : (dat36 V c).before 0 t d = iblk36 V c 0 t :=
  before36_0_of V (dat36 V c) (A_eq36 V c 0) (after36_0 V c) t d
theorem before36_1 (c : Dev nD) (t : Fin cfg36.N) (d) : (dat36 V c).before 1 t d = iblk36 V c 1 t :=
  before36_1_of V (dat36 V c) (A_eq36 V c 1) (after36_1 V c) t d
theorem before36_2 (c : Dev nD) (t : Fin cfg36.N) (d) : (dat36 V c).before 2 t d = iblk36 V c 2 t :=
  before36_2_of V (dat36 V c) (A_eq36 V c 2) (after36_2 V c) t d

/-- What the body is handed at point `t`, window by window, -/
def bodyPre36 (c : Dev nD) (t : Fin cfg36.N) : sProp 𝕄 :=
  iprop((dat36 V c).Φ t.castSucc ∗ (dat36 V c).owesAt () t.castSucc
    ∗ (∃ d, owns (c : Thread nD τ) (st36_0 t) fullShare ((dat36 V c).before 0 t d))
    ∗ (∃ d, owns (c : Thread nD τ) (st36_1 t) fullShare ((dat36 V c).before 1 t d))
    ∗ (∃ d, owns (c : Thread nD τ) (st36_2 t) fullShare ((dat36 V c).before 2 t d))
    ∗ (∃ d, owns (c : Thread nD τ) (st36_3 t) fullShare ((dat36 V c).before 3 t d)))

/-- and what it hands back. -/
def bodyPost36 (c : Dev nD) (t : Fin cfg36.N) : sProp 𝕄 :=
  iprop((dat36 V c).Φ t.succ ∗ (dat36 V c).owesAt () t.succ
    ∗ owns (c : Thread nD τ) (st36_0 t) fullShare ((dat36 V c).after 0 t)
    ∗ owns (c : Thread nD τ) (st36_1 t) fullShare ((dat36 V c).after 1 t)
    ∗ owns (c : Thread nD τ) (st36_2 t) fullShare ((dat36 V c).after 2 t)
    ∗ owns (c : Thread nD τ) (st36_3 t) fullShare ((dat36 V c).after 3 t))

theorem sound_body36 (c : Dev nD) (t : Fin cfg36.N) :
    bodyPre36 V c t ⊢ wp frame (wpE (defs₀ (F := F)) Variants.none c none) Set.univ (bodyAt36 t) (fun _ => bodyPost36 V c t) := by
  unfold bodyPre36 bodyPost36 bodyAt36
  simp only [before36_0, before36_1, before36_2]
  rw [show (dat36 V c).Φ t.succ = (dat36 V c).Φ t.castSucc from rfl,
    show (dat36 V c).owesAt () t.succ = (dat36 V c).owesAt () t.castSucc from rfl,
    after36_0, after36_1, after36_2, after36_3]
  iintro ⟨HΦ, Ho, ⟨%d0, H0⟩, ⟨%d1, H1⟩, ⟨%d2, H2⟩, ⟨%d3, H3⟩⟩
  iapply (sound_kernel36 c Set.univ _ _ _ _ _ _ _ _ _ (iblk36 V c 0 t) (iblk36 V c 1 t) (iblk36 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation36 (c : Dev nD) : BodyObligation (dat36 (F := F) V c) (defs₀ (F := F)) Variants.none () Set.univ := fun t => by
  rw [bigSep_W36, bigSep_W36]
  exact sound_body36 V c t

end Cert.KernelIdeal.Reg

end
-- ==== Proof.KI.Region37.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 37: four input windows, each block loaded whole; one output window, stored whole -/

/-- Window `w`'s block at grid point `t`, read off the array as the region finds it. -/
def iblk37 (c : Dev nD) (w : Fin cfg37.W) (t : Fin cfg37.N) : ((cfg37.win w).xblock (cfg37.grid.coords t)).Idx → Elt F (cfg37.win w).elt :=
  ((cfg37.win w).blk t).view.read (Elt F) (V c (Pipeline.arrRef spec37 w))

/-- Input window 0's staging buffer holds its block at every point, fetched there or kept from the point before. -/
theorem before37_0_of {c : Dev nD} (dat : Dat τ (Elt F) Unit ℕ (UR sig nD τ) ℕ cfg37 c) (hA : dat.A 0 = V c (Pipeline.arrRef spec37 0))
    (hafter : ∀ t, dat.after 0 t = iblk37 V c 0 t) (t : Fin cfg37.N) (d) : dat.before 0 t d = iblk37 V c 0 t :=
  (dat.before_in_eq_fetched 0 rfl (fun _ => rfl) (fun _ _ _ => rfl) (fun t => by rw [hafter]; unfold Dat.blockOf iblk37; rw [hA]; try rfl) t d).trans
    (by unfold Dat.fetched Dat.blockOf iblk37; rw [hA]; try rfl)

/-- Input window 1's staging buffer likewise (the weights: fetched once, then kept). -/
theorem before37_1_of {c : Dev nD} (dat : Dat τ (Elt F) Unit ℕ (UR sig nD τ) ℕ cfg37 c) (hA : dat.A 1 = V c (Pipeline.arrRef spec37 1))
    (hafter : ∀ t, dat.after 1 t = iblk37 V c 1 t) (t : Fin cfg37.N) (d) : dat.before 1 t d = iblk37 V c 1 t :=
  (dat.before_in_eq_fetched 1 rfl (fun _ => rfl) (fun _ _ _ => rfl) (fun t => by rw [hafter]; unfold Dat.blockOf iblk37; rw [hA]; try rfl) t d).trans
    (by unfold Dat.fetched Dat.blockOf iblk37; rw [hA]; try rfl)

/-- Input window 2's staging buffer likewise (the bias row: fetched once, then kept). -/
theorem before37_2_of {c : Dev nD} (dat : Dat τ (Elt F) Unit ℕ (UR sig nD τ) ℕ cfg37 c) (hA : dat.A 2 = V c (Pipeline.arrRef spec37 2))
    (hafter : ∀ t, dat.after 2 t = iblk37 V c 2 t) (t : Fin cfg37.N) (d) : dat.before 2 t d = iblk37 V c 2 t :=
  (dat.before_in_eq_fetched 2 rfl (fun _ => rfl) (fun _ _ _ => rfl) (fun t => by rw [hafter]; unfold Dat.blockOf iblk37; rw [hA]; try rfl) t d).trans
    (by unfold Dat.fetched Dat.blockOf iblk37; rw [hA]; try rfl)

/-- Input window 3's staging buffer likewise (the added term's row block). -/
theorem before37_3_of {c : Dev nD} (dat : Dat τ (Elt F) Unit ℕ (UR sig nD τ) ℕ cfg37 c) (hA : dat.A 3 = V c (Pipeline.arrRef spec37 3))
    (hafter : ∀ t, dat.after 3 t = iblk37 V c 3 t) (t : Fin cfg37.N) (d) : dat.before 3 t d = iblk37 V c 3 t :=
  (dat.before_in_eq_fetched 3 rfl (fun _ => rfl) (fun _ _ _ => rfl) (fun t => by rw [hafter]; unfold Dat.blockOf iblk37; rw [hA]; try rfl) t d).trans
    (by unfold Dat.fetched Dat.blockOf iblk37; rw [hA]; try rfl)

abbrev r37_0 : Rect S2048x256 := Rect.unit (s := S2048x256) ![0, 0] S2048x256.size inb_S2048x256_S2048x256_0_0
abbrev r37_1 : Rect S256x256 := Rect.unit (s := S256x256) ![0, 0] S256x256.size inb_S256x256_S256x256_0_0
abbrev r37_2 : Rect S1x256 := Rect.unit (s := S1x256) ![0, 0] S1x256.size inb_S1x256_S1x256_0_0
abbrev r37_3 : Rect S2048x256 := Rect.unit (s := S2048x256) ![0, 0] S2048x256.size inb_S2048x256_S2048x256_0_0
abbrev r37_o : Rect S2048x256 := Rect.unit (s := S2048x256) ![0, 0] S2048x256.size inb_S2048x256_S2048x256_0_0

/-- The output block after the body: its one whole-block store, of the body's value at the four input blocks. -/
def out37 (x0 : Vec F S2048x256 .f32) (x1 : Vec F S256x256 .f32) (x2 : Vec F S1x256 .f32) (x3 : Vec F S2048x256 .f32) : Vec F S2048x256 .f32 :=
  View.canon [⟨r37_o, k37_pay1 (View.ld x0 r37_0) (View.ld x1 r37_1) (View.ld x2 r37_2) (View.ld x3 r37_3)⟩]

/-- That one store covers the block. -/
theorem cover37 (p0 : Vec F S2048x256 .f32) (y : S2048x256.Idx) :
    ∃ pc ∈ ([⟨r37_o, p0⟩] : List (View.Piece (Elt F) S2048x256 .f32)), y ∈ pc.1.set :=
  View.cover_of_tiled [⟨r37_o, p0⟩] S2048x256.size (by rfl) y

set_option maxHeartbeats 1000000 in
/-- The body on whole staging buffers: the four input buffers are read and left as found, and the output buffer,
    whatever it held, ends at the body's value. -/
theorem sound_kernel37 (c : Dev nD) (E : Set ℕ) (i : grid37.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole)
    (x0 : Vec F S2048x256 .f32) (x1 : Vec F S256x256 .f32) (x2 : Vec F S1x256 .f32) (x3 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out37 x0 x1 x2 x3)) -∗ K ⟨⟩))
      ⊢ wp frame (wpE (defs₀ (F := F)) Variants.none c none) E (cc37__self_update_kernel i arg1 harg1 arg2 harg2 arg3 harg3 arg4 harg4 arg5 harg5) K := by
  simp only [cc37__self_update_kernel_eq_skeleton]; unfold cc37__self_update_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover37 _)

/-- The proof data: the arrays as the region finds them; after the body each input buffer still at its block and the
    output buffer at the body's value there; nothing owed, full shares, the scoped rest untouched. -/
def dat37 (c : Dev nD) : Dat τ (Elt F) Unit ℕ (UR sig nD τ) ℕ cfg37 c where
  A w := V c (Pipeline.arrRef spec37 w)
  after w t := match w with
    | ⟨0, _⟩ => iblk37 V c 0 t
    | ⟨1, _⟩ => iblk37 V c 1 t
    | ⟨2, _⟩ => iblk37 V c 2 t
    | ⟨3, _⟩ => iblk37 V c 3 t
    | ⟨4, _⟩ => out37 (iblk37 V c 0 t) (iblk37 V c 1 t) (iblk37 V c 2 t) (iblk37 V c 3 t)
  Φ _ := Pipeline.ΦA spec37 c
  q _ := fullShare
  owed _ := 0

theorem A_eq37 (c : Dev nD) (w : Fin cfg37.W) : (dat37 V c).A w = V c (Pipeline.arrRef spec37 w) := by
  dsimp only [dat37]

theorem after37_0 (c : Dev nD) (t : Fin cfg37.N) : (dat37 V c).after 0 t = iblk37 V c 0 t := by dsimp only [dat37]
theorem after37_1 (c : Dev nD) (t : Fin cfg37.N) : (dat37 V c).after 1 t = iblk37 V c 1 t := by dsimp only [dat37]
theorem after37_2 (c : Dev nD) (t : Fin cfg37.N) : (dat37 V c).after 2 t = iblk37 V c 2 t := by dsimp only [dat37]
theorem after37_3 (c : Dev nD) (t : Fin cfg37.N) : (dat37 V c).after 3 t = iblk37 V c 3 t := by dsimp only [dat37]
theorem after37_4 (c : Dev nD) (t : Fin cfg37.N) :
    (dat37 V c).after 4 t = out37 (iblk37 V c 0 t) (iblk37 V c 1 t) (iblk37 V c 2 t) (iblk37 V c 3 t) := by dsimp only [dat37]

theorem before37_0 (c : Dev nD) (t : Fin cfg37.N) (d) : (dat37 V c).before 0 t d = iblk37 V c 0 t :=
  before37_0_of V (dat37 V c) (A_eq37 V c 0) (after37_0 V c) t d
theorem before37_1 (c : Dev nD) (t : Fin cfg37.N) (d) : (dat37 V c).before 1 t d = iblk37 V c 1 t :=
  before37_1_of V (dat37 V c) (A_eq37 V c 1) (after37_1 V c) t d
theorem before37_2 (c : Dev nD) (t : Fin cfg37.N) (d) : (dat37 V c).before 2 t d = iblk37 V c 2 t :=
  before37_2_of V (dat37 V c) (A_eq37 V c 2) (after37_2 V c) t d
theorem before37_3 (c : Dev nD) (t : Fin cfg37.N) (d) : (dat37 V c).before 3 t d = iblk37 V c 3 t :=
  before37_3_of V (dat37 V c) (A_eq37 V c 3) (after37_3 V c) t d

/-- What the body is handed at point `t`, window by window, -/
def bodyPre37 (c : Dev nD) (t : Fin cfg37.N) : sProp 𝕄 :=
  iprop((dat37 V c).Φ t.castSucc ∗ (dat37 V c).owesAt () t.castSucc
    ∗ (∃ d, owns (c : Thread nD τ) (st37_0 t) fullShare ((dat37 V c).before 0 t d))
    ∗ (∃ d, owns (c : Thread nD τ) (st37_1 t) fullShare ((dat37 V c).before 1 t d))
    ∗ (∃ d, owns (c : Thread nD τ) (st37_2 t) fullShare ((dat37 V c).before 2 t d))
    ∗ (∃ d, owns (c : Thread nD τ) (st37_3 t) fullShare ((dat37 V c).before 3 t d))
    ∗ (∃ d, owns (c : Thread nD τ) (st37_4 t) fullShare ((dat37 V c).before 4 t d)))

/-- and what it hands back. -/
def bodyPost37 (c : Dev nD) (t : Fin cfg37.N) : sProp 𝕄 :=
  iprop((dat37 V c).Φ t.succ ∗ (dat37 V c).owesAt () t.succ
    ∗ owns (c : Thread nD τ) (st37_0 t) fullShare ((dat37 V c).after 0 t)
    ∗ owns (c : Thread nD τ) (st37_1 t) fullShare ((dat37 V c).after 1 t)
    ∗ owns (c : Thread nD τ) (st37_2 t) fullShare ((dat37 V c).after 2 t)
    ∗ owns (c : Thread nD τ) (st37_3 t) fullShare ((dat37 V c).after 3 t)
    ∗ owns (c : Thread nD τ) (st37_4 t) fullShare ((dat37 V c).after 4 t))

theorem sound_body37 (c : Dev nD) (t : Fin cfg37.N) :
    bodyPre37 V c t ⊢ wp frame (wpE (defs₀ (F := F)) Variants.none c none) Set.univ (bodyAt37 t) (fun _ => bodyPost37 V c t) := by
  unfold bodyPre37 bodyPost37 bodyAt37
  simp only [before37_0, before37_1, before37_2, before37_3]
  rw [show (dat37 V c).Φ t.succ = (dat37 V c).Φ t.castSucc from rfl,
    show (dat37 V c).owesAt () t.succ = (dat37 V c).owesAt () t.castSucc from rfl,
    after37_0, after37_1, after37_2, after37_3, after37_4]
  iintro ⟨HΦ, Ho, ⟨%d0, H0⟩, ⟨%d1, H1⟩, ⟨%d2, H2⟩, ⟨%d3, H3⟩, ⟨%d4, H4⟩⟩
  iapply (sound_kernel37 c Set.univ _ _ _ _ _ _ _ _ _ _ _ (iblk37 V c 0 t) (iblk37 V c 1 t) (iblk37 V c 2 t) (iblk37 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation37 (c : Dev nD) : BodyObligation (dat37 (F := F) V c) (defs₀ (F := F)) Variants.none () Set.univ := fun t => by
  rw [bigSep_W37, bigSep_W37]
  exact sound_body37 V c t

end Cert.KernelIdeal.Reg

end
-- ==== Proof.KI.Region38.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 38: five input windows, each block loaded whole; one output window, stored whole -/

/-- Window `w`'s block at grid point `t`, read off the array as the region finds it. -/
def iblk38 (c : Dev nD) (w : Fin cfg38.W) (t : Fin cfg38.N) : ((cfg38.win w).xblock (cfg38.grid.coords t)).Idx → Elt F (cfg38.win w).elt :=
  ((cfg38.win w).blk t).view.read (Elt F) (V c (Pipeline.arrRef spec38 w))

/-- Input window 0's staging buffer holds its block at every point, fetched there or kept from the point before. -/
theorem before38_0_of {c : Dev nD} (dat : Dat τ (Elt F) Unit ℕ (UR sig nD τ) ℕ cfg38 c) (hA : dat.A 0 = V c (Pipeline.arrRef spec38 0))
    (hafter : ∀ t, dat.after 0 t = iblk38 V c 0 t) (t : Fin cfg38.N) (d) : dat.before 0 t d = iblk38 V c 0 t :=
  (dat.before_in_eq_fetched 0 rfl (fun _ => rfl) (fun _ _ _ => rfl) (fun t => by rw [hafter]; unfold Dat.blockOf iblk38; rw [hA]; try rfl) t d).trans
    (by unfold Dat.fetched Dat.blockOf iblk38; rw [hA]; try rfl)

/-- Input window 1's staging buffer likewise. -/
theorem before38_1_of {c : Dev nD} (dat : Dat τ (Elt F) Unit ℕ (UR sig nD τ) ℕ cfg38 c) (hA : dat.A 1 = V c (Pipeline.arrRef spec38 1))
    (hafter : ∀ t, dat.after 1 t = iblk38 V c 1 t) (t : Fin cfg38.N) (d) : dat.before 1 t d = iblk38 V c 1 t :=
  (dat.before_in_eq_fetched 1 rfl (fun _ => rfl) (fun _ _ _ => rfl) (fun t => by rw [hafter]; unfold Dat.blockOf iblk38; rw [hA]; try rfl) t d).trans
    (by unfold Dat.fetched Dat.blockOf iblk38; rw [hA]; try rfl)

/-- Input window 2's staging buffer likewise. -/
theorem before38_2_of {c : Dev nD} (dat : Dat τ (Elt F) Unit ℕ (UR sig nD τ) ℕ cfg38 c) (hA : dat.A 2 = V c (Pipeline.arrRef spec38 2))
    (hafter : ∀ t, dat.after 2 t = iblk38 V c 2 t) (t : Fin cfg38.N) (d) : dat.before 2 t d = iblk38 V c 2 t :=
  (dat.before_in_eq_fetched 2 rfl (fun _ => rfl) (fun _ _ _ => rfl) (fun t => by rw [hafter]; unfold Dat.blockOf iblk38; rw [hA]; try rfl) t d).trans
    (by unfold Dat.fetched Dat.blockOf iblk38; rw [hA]; try rfl)

/-- Input window 3's staging buffer likewise. -/
theorem before38_3_of {c : Dev nD} (dat : Dat τ (Elt F) Unit ℕ (UR sig nD τ) ℕ cfg38 c) (hA : dat.A 3 = V c (Pipeline.arrRef spec38 3))
    (hafter : ∀ t, dat.after 3 t = iblk38 V c 3 t) (t : Fin cfg38.N) (d) : dat.before 3 t d = iblk38 V c 3 t :=
  (dat.before_in_eq_fetched 3 rfl (fun _ => rfl) (fun _ _ _ => rfl) (fun t => by rw [hafter]; unfold Dat.blockOf iblk38; rw [hA]; try rfl) t d).trans
    (by unfold Dat.fetched Dat.blockOf iblk38; rw [hA]; try rfl)

/-- Input window 4's staging buffer likewise. -/
theorem before38_4_of {c : Dev nD} (dat : Dat τ (Elt F) Unit ℕ (UR sig nD τ) ℕ cfg38 c) (hA : dat.A 4 = V c (Pipeline.arrRef spec38 4))
    (hafter : ∀ t, dat.after 4 t = iblk38 V c 4 t) (t : Fin cfg38.N) (d) : dat.before 4 t d = iblk38 V c 4 t :=
  (dat.before_in_eq_fetched 4 rfl (fun _ => rfl) (fun _ _ _ => rfl) (fun t => by rw [hafter]; unfold Dat.blockOf iblk38; rw [hA]; try rfl) t d).trans
    (by unfold Dat.fetched Dat.blockOf iblk38; rw [hA]; try rfl)

abbrev r38_0 : Rect S2048x256 := Rect.unit (s := S2048x256) ![0, 0] S2048x256.size inb_S2048x256_S2048x256_0_0
abbrev r38_1 : Rect S256x256 := Rect.unit (s := S256x256) ![0, 0] S256x256.size inb_S256x256_S256x256_0_0
abbrev r38_2 : Rect S1x256 := Rect.unit (s := S1x256) ![0, 0] S1x256.size inb_S1x256_S1x256_0_0
abbrev r38_3 : Rect S2048x256 := Rect.unit (s := S2048x256) ![0, 0] S2048x256.size inb_S2048x256_S2048x256_0_0
abbrev r38_4 : Rect S2048x256 := Rect.unit (s := S2048x256) ![0, 0] S2048x256.size inb_S2048x256_S2048x256_0_0
abbrev r38_o : Rect S2048x256 := Rect.unit (s := S2048x256) ![0, 0] S2048x256.size inb_S2048x256_S2048x256_0_0

/-- The output block after the body: its one whole-block store, of the body's value at the five input blocks. -/
def out38 (x0 : Vec F S2048x256 .f32) (x1 : Vec F S256x256 .f32) (x2 : Vec F S1x256 .f32) (x3 : Vec F S2048x256 .f32) (x4 : Vec F S2048x256 .f32) : Vec F S2048x256 .f32 :=
  View.canon [⟨r38_o, k38_pay1 (View.ld x0 r38_0) (View.ld x1 r38_1) (View.ld x2 r38_2) (View.ld x3 r38_3) (View.ld x4 r38_4)⟩]

/-- That one store covers the block. -/
theorem cover38 (p0 : Vec F S2048x256 .f32) (y : S2048x256.Idx) :
    ∃ pc ∈ ([⟨r38_o, p0⟩] : List (View.Piece (Elt F) S2048x256 .f32)), y ∈ pc.1.set :=
  View.cover_of_tiled [⟨r38_o, p0⟩] S2048x256.size (by rfl) y

set_option maxHeartbeats 1000000 in
/-- The body on whole staging buffers: the five input buffers are read and left as found, and the output buffer,
    whatever it held, ends at the body's value. -/
theorem sound_kernel38 (c : Dev nD) (E : Set ℕ) (i : grid38.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole) (arg6 : Memref sig .tc .vmem S2048x256 .f32) (harg6 : arg6.IsWhole)
    (x0 : Vec F S2048x256 .f32) (x1 : Vec F S256x256 .f32) (x2 : Vec F S1x256 .f32) (x3 : Vec F S2048x256 .f32) (x4 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out38 x0 x1 x2 x3 x4)) -∗ K ⟨⟩))
      ⊢ wp frame (wpE (defs₀ (F := F)) Variants.none c none) E (cc38__self_update2_kernel i arg1 harg1 arg2 harg2 arg3 harg3 arg4 harg4 arg5 harg5 arg6 harg6) K := by
  simp only [cc38__self_update2_kernel_eq_skeleton]; unfold cc38__self_update2_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover38 _)

/-- The proof data: the arrays as the region finds them; after the body each input buffer still at its block and the
    output buffer at the body's value there; nothing owed, full shares, the scoped rest untouched. -/
def dat38 (c : Dev nD) : Dat τ (Elt F) Unit ℕ (UR sig nD τ) ℕ cfg38 c where
  A w := V c (Pipeline.arrRef spec38 w)
  after w t := match w with
    | ⟨0, _⟩ => iblk38 V c 0 t
    | ⟨1, _⟩ => iblk38 V c 1 t
    | ⟨2, _⟩ => iblk38 V c 2 t
    | ⟨3, _⟩ => iblk38 V c 3 t
    | ⟨4, _⟩ => iblk38 V c 4 t
    | ⟨5, _⟩ => out38 (iblk38 V c 0 t) (iblk38 V c 1 t) (iblk38 V c 2 t) (iblk38 V c 3 t) (iblk38 V c 4 t)
  Φ _ := Pipeline.ΦA spec38 c
  q _ := fullShare
  owed _ := 0

theorem A_eq38 (c : Dev nD) (w : Fin cfg38.W) : (dat38 V c).A w = V c (Pipeline.arrRef spec38 w) := by
  dsimp only [dat38]

theorem after38_0 (c : Dev nD) (t : Fin cfg38.N) : (dat38 V c).after 0 t = iblk38 V c 0 t := by dsimp only [dat38]
theorem after38_1 (c : Dev nD) (t : Fin cfg38.N) : (dat38 V c).after 1 t = iblk38 V c 1 t := by dsimp only [dat38]
theorem after38_2 (c : Dev nD) (t : Fin cfg38.N) : (dat38 V c).after 2 t = iblk38 V c 2 t := by dsimp only [dat38]
theorem after38_3 (c : Dev nD) (t : Fin cfg38.N) : (dat38 V c).after 3 t = iblk38 V c 3 t := by dsimp only [dat38]
theorem after38_4 (c : Dev nD) (t : Fin cfg38.N) : (dat38 V c).after 4 t = iblk38 V c 4 t := by dsimp only [dat38]
theorem after38_5 (c : Dev nD) (t : Fin cfg38.N) :
    (dat38 V c).after 5 t = out38 (iblk38 V c 0 t) (iblk38 V c 1 t) (iblk38 V c 2 t) (iblk38 V c 3 t) (iblk38 V c 4 t) := by dsimp only [dat38]

theorem before38_0 (c : Dev nD) (t : Fin cfg38.N) (d) : (dat38 V c).before 0 t d = iblk38 V c 0 t :=
  before38_0_of V (dat38 V c) (A_eq38 V c 0) (after38_0 V c) t d
theorem before38_1 (c : Dev nD) (t : Fin cfg38.N) (d) : (dat38 V c).before 1 t d = iblk38 V c 1 t :=
  before38_1_of V (dat38 V c) (A_eq38 V c 1) (after38_1 V c) t d
theorem before38_2 (c : Dev nD) (t : Fin cfg38.N) (d) : (dat38 V c).before 2 t d = iblk38 V c 2 t :=
  before38_2_of V (dat38 V c) (A_eq38 V c 2) (after38_2 V c) t d
theorem before38_3 (c : Dev nD) (t : Fin cfg38.N) (d) : (dat38 V c).before 3 t d = iblk38 V c 3 t :=
  before38_3_of V (dat38 V c) (A_eq38 V c 3) (after38_3 V c) t d
theorem before38_4 (c : Dev nD) (t : Fin cfg38.N) (d) : (dat38 V c).before 4 t d = iblk38 V c 4 t :=
  before38_4_of V (dat38 V c) (A_eq38 V c 4) (after38_4 V c) t d

/-- What the body is handed at point `t`, window by window, -/
def bodyPre38 (c : Dev nD) (t : Fin cfg38.N) : sProp 𝕄 :=
  iprop((dat38 V c).Φ t.castSucc ∗ (dat38 V c).owesAt () t.castSucc
    ∗ (∃ d, owns (c : Thread nD τ) (st38_0 t) fullShare ((dat38 V c).before 0 t d))
    ∗ (∃ d, owns (c : Thread nD τ) (st38_1 t) fullShare ((dat38 V c).before 1 t d))
    ∗ (∃ d, owns (c : Thread nD τ) (st38_2 t) fullShare ((dat38 V c).before 2 t d))
    ∗ (∃ d, owns (c : Thread nD τ) (st38_3 t) fullShare ((dat38 V c).before 3 t d))
    ∗ (∃ d, owns (c : Thread nD τ) (st38_4 t) fullShare ((dat38 V c).before 4 t d))
    ∗ (∃ d, owns (c : Thread nD τ) (st38_5 t) fullShare ((dat38 V c).before 5 t d)))

/-- and what it hands back. -/
def bodyPost38 (c : Dev nD) (t : Fin cfg38.N) : sProp 𝕄 :=
  iprop((dat38 V c).Φ t.succ ∗ (dat38 V c).owesAt () t.succ
    ∗ owns (c : Thread nD τ) (st38_0 t) fullShare ((dat38 V c).after 0 t)
    ∗ owns (c : Thread nD τ) (st38_1 t) fullShare ((dat38 V c).after 1 t)
    ∗ owns (c : Thread nD τ) (st38_2 t) fullShare ((dat38 V c).after 2 t)
    ∗ owns (c : Thread nD τ) (st38_3 t) fullShare ((dat38 V c).after 3 t)
    ∗ owns (c : Thread nD τ) (st38_4 t) fullShare ((dat38 V c).after 4 t)
    ∗ owns (c : Thread nD τ) (st38_5 t) fullShare ((dat38 V c).after 5 t))

theorem sound_body38 (c : Dev nD) (t : Fin cfg38.N) :
    bodyPre38 V c t ⊢ wp frame (wpE (defs₀ (F := F)) Variants.none c none) Set.univ (bodyAt38 t) (fun _ => bodyPost38 V c t) := by
  unfold bodyPre38 bodyPost38 bodyAt38
  simp only [before38_0, before38_1, before38_2, before38_3, before38_4]
  rw [show (dat38 V c).Φ t.succ = (dat38 V c).Φ t.castSucc from rfl,
    show (dat38 V c).owesAt () t.succ = (dat38 V c).owesAt () t.castSucc from rfl,
    after38_0, after38_1, after38_2, after38_3, after38_4, after38_5]
  iintro ⟨HΦ, Ho, ⟨%d0, H0⟩, ⟨%d1, H1⟩, ⟨%d2, H2⟩, ⟨%d3, H3⟩, ⟨%d4, H4⟩, ⟨%d5, H5⟩⟩
  iapply (sound_kernel38 c Set.univ _ _ _ _ _ _ _ _ _ _ _ _ _ (iblk38 V c 0 t) (iblk38 V c 1 t) (iblk38 V c 2 t) (iblk38 V c 3 t) (iblk38 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation38 (c : Dev nD) : BodyObligation (dat38 (F := F) V c) (defs₀ (F := F)) Variants.none () Set.univ := fun t => by
  rw [bigSep_W38, bigSep_W38]
  exact sound_body38 V c t

end Cert.KernelIdeal.Reg

end
-- ==== Proof.KI.Region39.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 39: four input windows, each block loaded whole; one output window, stored whole -/

/-- Window `w`'s block at grid point `t`, read off the array as the region finds it. -/
def iblk39 (c : Dev nD) (w : Fin cfg39.W) (t : Fin cfg39.N) : ((cfg39.win w).xblock (cfg39.grid.coords t)).Idx → Elt F (cfg39.win w).elt :=
  ((cfg39.win w).blk t).view.read (Elt F) (V c (Pipeline.arrRef spec39 w))

/-- Input window 0's staging buffer holds its block at every point, fetched there or kept from the point before. -/
theorem before39_0_of {c : Dev nD} (dat : Dat τ (Elt F) Unit ℕ (UR sig nD τ) ℕ cfg39 c) (hA : dat.A 0 = V c (Pipeline.arrRef spec39 0))
    (hafter : ∀ t, dat.after 0 t = iblk39 V c 0 t) (t : Fin cfg39.N) (d) : dat.before 0 t d = iblk39 V c 0 t :=
  (dat.before_in_eq_fetched 0 rfl (fun _ => rfl) (fun _ _ _ => rfl) (fun t => by rw [hafter]; unfold Dat.blockOf iblk39; rw [hA]; try rfl) t d).trans
    (by unfold Dat.fetched Dat.blockOf iblk39; rw [hA]; try rfl)

/-- Input window 1's staging buffer likewise (the weights: fetched once, then kept). -/
theorem before39_1_of {c : Dev nD} (dat : Dat τ (Elt F) Unit ℕ (UR sig nD τ) ℕ cfg39 c) (hA : dat.A 1 = V c (Pipeline.arrRef spec39 1))
    (hafter : ∀ t, dat.after 1 t = iblk39 V c 1 t) (t : Fin cfg39.N) (d) : dat.before 1 t d = iblk39 V c 1 t :=
  (dat.before_in_eq_fetched 1 rfl (fun _ => rfl) (fun _ _ _ => rfl) (fun t => by rw [hafter]; unfold Dat.blockOf iblk39; rw [hA]; try rfl) t d).trans
    (by unfold Dat.fetched Dat.blockOf iblk39; rw [hA]; try rfl)

/-- Input window 2's staging buffer likewise (the bias row: fetched once, then kept). -/
theorem before39_2_of {c : Dev nD} (dat : Dat τ (Elt F) Unit ℕ (UR sig nD τ) ℕ cfg39 c) (hA : dat.A 2 = V c (Pipeline.arrRef spec39 2))
    (hafter : ∀ t, dat.after 2 t = iblk39 V c 2 t) (t : Fin cfg39.N) (d) : dat.before 2 t d = iblk39 V c 2 t :=
  (dat.before_in_eq_fetched 2 rfl (fun _ => rfl) (fun _ _ _ => rfl) (fun t => by rw [hafter]; unfold Dat.blockOf iblk39; rw [hA]; try rfl) t d).trans
    (by unfold Dat.fetched Dat.blockOf iblk39; rw [hA]; try rfl)

/-- Input window 3's staging buffer likewise (the added term's row block). -/
theorem before39_3_of {c : Dev nD} (dat : Dat τ (Elt F) Unit ℕ (UR sig nD τ) ℕ cfg39 c) (hA : dat.A 3 = V c (Pipeline.arrRef spec39 3))
    (hafter : ∀ t, dat.after 3 t = iblk39 V c 3 t) (t : Fin cfg39.N) (d) : dat.before 3 t d = iblk39 V c 3 t :=
  (dat.before_in_eq_fetched 3 rfl (fun _ => rfl) (fun _ _ _ => rfl) (fun t => by rw [hafter]; unfold Dat.blockOf iblk39; rw [hA]; try rfl) t d).trans
    (by unfold Dat.fetched Dat.blockOf iblk39; rw [hA]; try rfl)

abbrev r39_0 : Rect S2048x256 := Rect.unit (s := S2048x256) ![0, 0] S2048x256.size inb_S2048x256_S2048x256_0_0
abbrev r39_1 : Rect S256x256 := Rect.unit (s := S256x256) ![0, 0] S256x256.size inb_S256x256_S256x256_0_0
abbrev r39_2 : Rect S1x256 := Rect.unit (s := S1x256) ![0, 0] S1x256.size inb_S1x256_S1x256_0_0
abbrev r39_3 : Rect S2048x256 := Rect.unit (s := S2048x256) ![0, 0] S2048x256.size inb_S2048x256_S2048x256_0_0
abbrev r39_o : Rect S2048x256 := Rect.unit (s := S2048x256) ![0, 0] S2048x256.size inb_S2048x256_S2048x256_0_0

/-- The output block after the body: its one whole-block store, of the body's value at the four input blocks. -/
def out39 (x0 : Vec F S2048x256 .f32) (x1 : Vec F S256x256 .f32) (x2 : Vec F S1x256 .f32) (x3 : Vec F S2048x256 .f32) : Vec F S2048x256 .f32 :=
  View.canon [⟨r39_o, k39_pay1 (View.ld x0 r39_0) (View.ld x1 r39_1) (View.ld x2 r39_2) (View.ld x3 r39_3)⟩]

/-- That one store covers the block. -/
theorem cover39 (p0 : Vec F S2048x256 .f32) (y : S2048x256.Idx) :
    ∃ pc ∈ ([⟨r39_o, p0⟩] : List (View.Piece (Elt F) S2048x256 .f32)), y ∈ pc.1.set :=
  View.cover_of_tiled [⟨r39_o, p0⟩] S2048x256.size (by rfl) y

set_option maxHeartbeats 1000000 in
/-- The body on whole staging buffers: the four input buffers are read and left as found, and the output buffer,
    whatever it held, ends at the body's value. -/
theorem sound_kernel39 (c : Dev nD) (E : Set ℕ) (i : grid39.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (arg5 : Memref sig .tc .vmem S2048x256 .f32) (harg5 : arg5.IsWhole)
    (x0 : Vec F S2048x256 .f32) (x1 : Vec F S256x256 .f32) (x2 : Vec F S1x256 .f32) (x3 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out39 x0 x1 x2 x3)) -∗ K ⟨⟩))
      ⊢ wp frame (wpE (defs₀ (F := F)) Variants.none c none) E (cc39__self_update_kernel i arg1 harg1 arg2 harg2 arg3 harg3 arg4 harg4 arg5 harg5) K := by
  simp only [cc39__self_update_kernel_eq_skeleton]; unfold cc39__self_update_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover39 _)

/-- The proof data: the arrays as the region finds them; after the body each input buffer still at its block and the
    output buffer at the body's value there; nothing owed, full shares, the scoped rest untouched. -/
def dat39 (c : Dev nD) : Dat τ (Elt F) Unit ℕ (UR sig nD τ) ℕ cfg39 c where
  A w := V c (Pipeline.arrRef spec39 w)
  after w t := match w with
    | ⟨0, _⟩ => iblk39 V c 0 t
    | ⟨1, _⟩ => iblk39 V c 1 t
    | ⟨2, _⟩ => iblk39 V c 2 t
    | ⟨3, _⟩ => iblk39 V c 3 t
    | ⟨4, _⟩ => out39 (iblk39 V c 0 t) (iblk39 V c 1 t) (iblk39 V c 2 t) (iblk39 V c 3 t)
  Φ _ := Pipeline.ΦA spec39 c
  q _ := fullShare
  owed _ := 0

theorem A_eq39 (c : Dev nD) (w : Fin cfg39.W) : (dat39 V c).A w = V c (Pipeline.arrRef spec39 w) := by
  dsimp only [dat39]

theorem after39_0 (c : Dev nD) (t : Fin cfg39.N) : (dat39 V c).after 0 t = iblk39 V c 0 t := by dsimp only [dat39]
theorem after39_1 (c : Dev nD) (t : Fin cfg39.N) : (dat39 V c).after 1 t = iblk39 V c 1 t := by dsimp only [dat39]
theorem after39_2 (c : Dev nD) (t : Fin cfg39.N) : (dat39 V c).after 2 t = iblk39 V c 2 t := by dsimp only [dat39]
theorem after39_3 (c : Dev nD) (t : Fin cfg39.N) : (dat39 V c).after 3 t = iblk39 V c 3 t := by dsimp only [dat39]
theorem after39_4 (c : Dev nD) (t : Fin cfg39.N) :
    (dat39 V c).after 4 t = out39 (iblk39 V c 0 t) (iblk39 V c 1 t) (iblk39 V c 2 t) (iblk39 V c 3 t) := by dsimp only [dat39]

theorem before39_0 (c : Dev nD) (t : Fin cfg39.N) (d) : (dat39 V c).before 0 t d = iblk39 V c 0 t :=
  before39_0_of V (dat39 V c) (A_eq39 V c 0) (after39_0 V c) t d
theorem before39_1 (c : Dev nD) (t : Fin cfg39.N) (d) : (dat39 V c).before 1 t d = iblk39 V c 1 t :=
  before39_1_of V (dat39 V c) (A_eq39 V c 1) (after39_1 V c) t d
theorem before39_2 (c : Dev nD) (t : Fin cfg39.N) (d) : (dat39 V c).before 2 t d = iblk39 V c 2 t :=
  before39_2_of V (dat39 V c) (A_eq39 V c 2) (after39_2 V c) t d
theorem before39_3 (c : Dev nD) (t : Fin cfg39.N) (d) : (dat39 V c).before 3 t d = iblk39 V c 3 t :=
  before39_3_of V (dat39 V c) (A_eq39 V c 3) (after39_3 V c) t d

/-- What the body is handed at point `t`, window by window, -/
def bodyPre39 (c : Dev nD) (t : Fin cfg39.N) : sProp 𝕄 :=
  iprop((dat39 V c).Φ t.castSucc ∗ (dat39 V c).owesAt () t.castSucc
    ∗ (∃ d, owns (c : Thread nD τ) (st39_0 t) fullShare ((dat39 V c).before 0 t d))
    ∗ (∃ d, owns (c : Thread nD τ) (st39_1 t) fullShare ((dat39 V c).before 1 t d))
    ∗ (∃ d, owns (c : Thread nD τ) (st39_2 t) fullShare ((dat39 V c).before 2 t d))
    ∗ (∃ d, owns (c : Thread nD τ) (st39_3 t) fullShare ((dat39 V c).before 3 t d))
    ∗ (∃ d, owns (c : Thread nD τ) (st39_4 t) fullShare ((dat39 V c).before 4 t d)))

/-- and what it hands back. -/
def bodyPost39 (c : Dev nD) (t : Fin cfg39.N) : sProp 𝕄 :=
  iprop((dat39 V c).Φ t.succ ∗ (dat39 V c).owesAt () t.succ
    ∗ owns (c : Thread nD τ) (st39_0 t) fullShare ((dat39 V c).after 0 t)
    ∗ owns (c : Thread nD τ) (st39_1 t) fullShare ((dat39 V c).after 1 t)
    ∗ owns (c : Thread nD τ) (st39_2 t) fullShare ((dat39 V c).after 2 t)
    ∗ owns (c : Thread nD τ) (st39_3 t) fullShare ((dat39 V c).after 3 t)
    ∗ owns (c : Thread nD τ) (st39_4 t) fullShare ((dat39 V c).after 4 t))

theorem sound_body39 (c : Dev nD) (t : Fin cfg39.N) :
    bodyPre39 V c t ⊢ wp frame (wpE (defs₀ (F := F)) Variants.none c none) Set.univ (bodyAt39 t) (fun _ => bodyPost39 V c t) := by
  unfold bodyPre39 bodyPost39 bodyAt39
  simp only [before39_0, before39_1, before39_2, before39_3]
  rw [show (dat39 V c).Φ t.succ = (dat39 V c).Φ t.castSucc from rfl,
    show (dat39 V c).owesAt () t.succ = (dat39 V c).owesAt () t.castSucc from rfl,
    after39_0, after39_1, after39_2, after39_3, after39_4]
  iintro ⟨HΦ, Ho, ⟨%d0, H0⟩, ⟨%d1, H1⟩, ⟨%d2, H2⟩, ⟨%d3, H3⟩, ⟨%d4, H4⟩⟩
  iapply (sound_kernel39 c Set.univ _ _ _ _ _ _ _ _ _ _ _ (iblk39 V c 0 t) (iblk39 V c 1 t) (iblk39 V c 2 t) (iblk39 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation39 (c : Dev nD) : BodyObligation (dat39 (F := F) V c) (defs₀ (F := F)) Variants.none () Set.univ := fun t => by
  rw [bigSep_W39, bigSep_W39]
  exact sound_body39 V c t

end Cert.KernelIdeal.Reg

end
-- ==== Proof.KI.Region40.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 40: five input windows, each block loaded whole; one output window, stored whole -/

/-- Window `w`'s block at grid point `t`, read off the array as the region finds it. -/
def iblk40 (c : Dev nD) (w : Fin cfg40.W) (t : Fin cfg40.N) : ((cfg40.win w).xblock (cfg40.grid.coords t)).Idx → Elt F (cfg40.win w).elt :=
  ((cfg40.win w).blk t).view.read (Elt F) (V c (Pipeline.arrRef spec40 w))

/-- Input window 0's staging buffer holds its block at every point, fetched there or kept from the point before. -/
theorem before40_0_of {c : Dev nD} (dat : Dat τ (Elt F) Unit ℕ (UR sig nD τ) ℕ cfg40 c) (hA : dat.A 0 = V c (Pipeline.arrRef spec40 0))
    (hafter : ∀ t, dat.after 0 t = iblk40 V c 0 t) (t : Fin cfg40.N) (d) : dat.before 0 t d = iblk40 V c 0 t :=
  (dat.before_in_eq_fetched 0 rfl (fun _ => rfl) (fun _ _ _ => rfl) (fun t => by rw [hafter]; unfold Dat.blockOf iblk40; rw [hA]; try rfl) t d).trans
    (by unfold Dat.fetched Dat.blockOf iblk40; rw [hA]; try rfl)

/-- Input window 1's staging buffer likewise. -/
theorem before40_1_of {c : Dev nD} (dat : Dat τ (Elt F) Unit ℕ (UR sig nD τ) ℕ cfg40 c) (hA : dat.A 1 = V c (Pipeline.arrRef spec40 1))
    (hafter : ∀ t, dat.after 1 t = iblk40 V c 1 t) (t : Fin cfg40.N) (d) : dat.before 1 t d = iblk40 V c 1 t :=
  (dat.before_in_eq_fetched 1 rfl (fun _ => rfl) (fun _ _ _ => rfl) (fun t => by rw [hafter]; unfold Dat.blockOf iblk40; rw [hA]; try rfl) t d).trans
    (by unfold Dat.fetched Dat.blockOf iblk40; rw [hA]; try rfl)

/-- Input window 2's staging buffer likewise. -/
theorem before40_2_of {c : Dev nD} (dat : Dat τ (Elt F) Unit ℕ (UR sig nD τ) ℕ cfg40 c) (hA : dat.A 2 = V c (Pipeline.arrRef spec40 2))
    (hafter : ∀ t, dat.after 2 t = iblk40 V c 2 t) (t : Fin cfg40.N) (d) : dat.before 2 t d = iblk40 V c 2 t :=
  (dat.before_in_eq_fetched 2 rfl (fun _ => rfl) (fun _ _ _ => rfl) (fun t => by rw [hafter]; unfold Dat.blockOf iblk40; rw [hA]; try rfl) t d).trans
    (by unfold Dat.fetched Dat.blockOf iblk40; rw [hA]; try rfl)

/-- Input window 3's staging buffer likewise. -/
theorem before40_3_of {c : Dev nD} (dat : Dat τ (Elt F) Unit ℕ (UR sig nD τ) ℕ cfg40 c) (hA : dat.A 3 = V c (Pipeline.arrRef spec40 3))
    (hafter : ∀ t, dat.after 3 t = iblk40 V c 3 t) (t : Fin cfg40.N) (d) : dat.before 3 t d = iblk40 V c 3 t :=
  (dat.before_in_eq_fetched 3 rfl (fun _ => rfl) (fun _ _ _ => rfl) (fun t => by rw [hafter]; unfold Dat.blockOf iblk40; rw [hA]; try rfl) t d).trans
    (by unfold Dat.fetched Dat.blockOf iblk40; rw [hA]; try rfl)

/-- Input window 4's staging buffer likewise. -/
theorem before40_4_of {c : Dev nD} (dat : Dat τ (Elt F) Unit ℕ (UR sig nD τ) ℕ cfg40 c) (hA : dat.A 4 = V c (Pipeline.arrRef spec40 4))
    (hafter : ∀ t, dat.after 4 t = iblk40 V c 4 t) (t : Fin cfg40.N) (d) : dat.before 4 t d = iblk40 V c 4 t :=
  (dat.before_in_eq_fetched 4 rfl (fun _ => rfl) (fun _ _ _ => rfl) (fun t => by rw [hafter]; unfold Dat.blockOf iblk40; rw [hA]; try rfl) t d).trans
    (by unfold Dat.fetched Dat.blockOf iblk40; rw [hA]; try rfl)

abbrev r40_0 : Rect S8x128x256 := Rect.unit (s := S8x128x256) ![0, 0, 0] S8x128x256.size inb_S8x128x256_S8x128x256_0_0_0
abbrev r40_1 : Rect S8x128x256 := Rect.unit (s := S8x128x256) ![0, 0, 0] S8x128x256.size inb_S8x128x256_S8x128x256_0_0_0
abbrev r40_2 : Rect S256x256 := Rect.unit (s := S256x256) ![0, 0] S256x256.size inb_S256x256_S256x256_0_0
abbrev r40_3 : Rect S256x256 := Rect.unit (s := S256x256) ![0, 0] S256x256.size inb_S256x256_S256x256_0_0
abbrev r40_4 : Rect S1x256 := Rect.unit (s := S1x256) ![0, 0] S1x256.size inb_S1x256_S1x256_0_0
abbrev r40_o : Rect S8x256 := Rect.unit (s := S8x256) ![0, 0] S8x256.size inb_S8x256_S8x256_0_0

/-- The output block after the body: its one whole-block store, of the body's value at the five input blocks. -/
def out40 (x0 : Vec F S8x128x256 .f32) (x1 : Vec F S8x128x256 .f32) (x2 : Vec F S256x256 .f32) (x3 : Vec F S256x256 .f32) (x4 : Vec F S1x256 .f32) : Vec F S8x256 .f32 :=
  View.canon [⟨r40_o, k40_pay1 (View.ld x0 r40_0) (View.ld x1 r40_1) (View.ld x2 r40_2) (View.ld x3 r40_3) (View.ld x4 r40_4)⟩]

/-- That one store covers the block. -/
theorem cover40 (p0 : Vec F S8x256 .f32) (y : S8x256.Idx) :
    ∃ pc ∈ ([⟨r40_o, p0⟩] : List (View.Piece (Elt F) S8x256 .f32)), y ∈ pc.1.set :=
  View.cover_of_tiled [⟨r40_o, p0⟩] S8x256.size (by rfl) y

set_option maxHeartbeats 1000000 in
/-- The body on whole staging buffers: the five input buffers are read and left as found, and the output buffer,
    whatever it held, ends at the body's value. -/
theorem sound_kernel40 (c : Dev nD) (E : Set ℕ) (i : grid40.Coords)
    (arg1 : Memref sig .tc .vmem S8x128x256 .f32) (harg1 : arg1.IsWhole) (arg2 : Memref sig .tc .vmem S8x128x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S8x256 .f32) (harg6 : arg6.IsWhole)
    (x0 : Vec F S8x128x256 .f32) (x1 : Vec F S8x128x256 .f32) (x2 : Vec F S256x256 .f32) (x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out40 x0 x1 x2 x3 x4)) -∗ K ⟨⟩))
      ⊢ wp frame (wpE (defs₀ (F := F)) Variants.none c none) E (cc40__pool_kernel i arg1 harg1 arg2 harg2 arg3 harg3 arg4 harg4 arg5 harg5 arg6 harg6) K := by
  simp only [cc40__pool_kernel_eq_skeleton]; unfold cc40__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover40 _)

/-- The proof data: the arrays as the region finds them; after the body each input buffer still at its block and the
    output buffer at the body's value there; nothing owed, full shares, the scoped rest untouched. -/
def dat40 (c : Dev nD) : Dat τ (Elt F) Unit ℕ (UR sig nD τ) ℕ cfg40 c where
  A w := V c (Pipeline.arrRef spec40 w)
  after w t := match w with
    | ⟨0, _⟩ => iblk40 V c 0 t
    | ⟨1, _⟩ => iblk40 V c 1 t
    | ⟨2, _⟩ => iblk40 V c 2 t
    | ⟨3, _⟩ => iblk40 V c 3 t
    | ⟨4, _⟩ => iblk40 V c 4 t
    | ⟨5, _⟩ => out40 (iblk40 V c 0 t) (iblk40 V c 1 t) (iblk40 V c 2 t) (iblk40 V c 3 t) (iblk40 V c 4 t)
  Φ _ := Pipeline.ΦA spec40 c
  q _ := fullShare
  owed _ := 0

theorem A_eq40 (c : Dev nD) (w : Fin cfg40.W) : (dat40 V c).A w = V c (Pipeline.arrRef spec40 w) := by
  dsimp only [dat40]

theorem after40_0 (c : Dev nD) (t : Fin cfg40.N) : (dat40 V c).after 0 t = iblk40 V c 0 t := by dsimp only [dat40]
theorem after40_1 (c : Dev nD) (t : Fin cfg40.N) : (dat40 V c).after 1 t = iblk40 V c 1 t := by dsimp only [dat40]
theorem after40_2 (c : Dev nD) (t : Fin cfg40.N) : (dat40 V c).after 2 t = iblk40 V c 2 t := by dsimp only [dat40]
theorem after40_3 (c : Dev nD) (t : Fin cfg40.N) : (dat40 V c).after 3 t = iblk40 V c 3 t := by dsimp only [dat40]
theorem after40_4 (c : Dev nD) (t : Fin cfg40.N) : (dat40 V c).after 4 t = iblk40 V c 4 t := by dsimp only [dat40]
theorem after40_5 (c : Dev nD) (t : Fin cfg40.N) :
    (dat40 V c).after 5 t = out40 (iblk40 V c 0 t) (iblk40 V c 1 t) (iblk40 V c 2 t) (iblk40 V c 3 t) (iblk40 V c 4 t) := by dsimp only [dat40]

theorem before40_0 (c : Dev nD) (t : Fin cfg40.N) (d) : (dat40 V c).before 0 t d = iblk40 V c 0 t :=
  before40_0_of V (dat40 V c) (A_eq40 V c 0) (after40_0 V c) t d
theorem before40_1 (c : Dev nD) (t : Fin cfg40.N) (d) : (dat40 V c).before 1 t d = iblk40 V c 1 t :=
  before40_1_of V (dat40 V c) (A_eq40 V c 1) (after40_1 V c) t d
theorem before40_2 (c : Dev nD) (t : Fin cfg40.N) (d) : (dat40 V c).before 2 t d = iblk40 V c 2 t :=
  before40_2_of V (dat40 V c) (A_eq40 V c 2) (after40_2 V c) t d
theorem before40_3 (c : Dev nD) (t : Fin cfg40.N) (d) : (dat40 V c).before 3 t d = iblk40 V c 3 t :=
  before40_3_of V (dat40 V c) (A_eq40 V c 3) (after40_3 V c) t d
theorem before40_4 (c : Dev nD) (t : Fin cfg40.N) (d) : (dat40 V c).before 4 t d = iblk40 V c 4 t :=
  before40_4_of V (dat40 V c) (A_eq40 V c 4) (after40_4 V c) t d

/-- What the body is handed at point `t`, window by window, -/
def bodyPre40 (c : Dev nD) (t : Fin cfg40.N) : sProp 𝕄 :=
  iprop((dat40 V c).Φ t.castSucc ∗ (dat40 V c).owesAt () t.castSucc
    ∗ (∃ d, owns (c : Thread nD τ) (st40_0 t) fullShare ((dat40 V c).before 0 t d))
    ∗ (∃ d, owns (c : Thread nD τ) (st40_1 t) fullShare ((dat40 V c).before 1 t d))
    ∗ (∃ d, owns (c : Thread nD τ) (st40_2 t) fullShare ((dat40 V c).before 2 t d))
    ∗ (∃ d, owns (c : Thread nD τ) (st40_3 t) fullShare ((dat40 V c).before 3 t d))
    ∗ (∃ d, owns (c : Thread nD τ) (st40_4 t) fullShare ((dat40 V c).before 4 t d))
    ∗ (∃ d, owns (c : Thread nD τ) (st40_5 t) fullShare ((dat40 V c).before 5 t d)))

/-- and what it hands back. -/
def bodyPost40 (c : Dev nD) (t : Fin cfg40.N) : sProp 𝕄 :=
  iprop((dat40 V c).Φ t.succ ∗ (dat40 V c).owesAt () t.succ
    ∗ owns (c : Thread nD τ) (st40_0 t) fullShare ((dat40 V c).after 0 t)
    ∗ owns (c : Thread nD τ) (st40_1 t) fullShare ((dat40 V c).after 1 t)
    ∗ owns (c : Thread nD τ) (st40_2 t) fullShare ((dat40 V c).after 2 t)
    ∗ owns (c : Thread nD τ) (st40_3 t) fullShare ((dat40 V c).after 3 t)
    ∗ owns (c : Thread nD τ) (st40_4 t) fullShare ((dat40 V c).after 4 t)
    ∗ owns (c : Thread nD τ) (st40_5 t) fullShare ((dat40 V c).after 5 t))

theorem sound_body40 (c : Dev nD) (t : Fin cfg40.N) :
    bodyPre40 V c t ⊢ wp frame (wpE (defs₀ (F := F)) Variants.none c none) Set.univ (bodyAt40 t) (fun _ => bodyPost40 V c t) := by
  unfold bodyPre40 bodyPost40 bodyAt40
  simp only [before40_0, before40_1, before40_2, before40_3, before40_4]
  rw [show (dat40 V c).Φ t.succ = (dat40 V c).Φ t.castSucc from rfl,
    show (dat40 V c).owesAt () t.succ = (dat40 V c).owesAt () t.castSucc from rfl,
    after40_0, after40_1, after40_2, after40_3, after40_4, after40_5]
  iintro ⟨HΦ, Ho, ⟨%d0, H0⟩, ⟨%d1, H1⟩, ⟨%d2, H2⟩, ⟨%d3, H3⟩, ⟨%d4, H4⟩, ⟨%d5, H5⟩⟩
  iapply (sound_kernel40 c Set.univ _ _ _ _ _ _ _ _ _ _ _ _ _ (iblk40 V c 0 t) (iblk40 V c 1 t) (iblk40 V c 2 t) (iblk40 V c 3 t) (iblk40 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation40 (c : Dev nD) : BodyObligation (dat40 (F := F) V c) (defs₀ (F := F)) Variants.none () Set.univ := fun t => by
  rw [bigSep_W40, bigSep_W40]
  exact sound_body40 V c t

end Cert.KernelIdeal.Reg

end
-- ==== Proof.KI.Region41.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 41: five input windows, each block loaded whole; one output window, stored whole -/

/-- Window `w`'s block at grid point `t`, read off the array as the region finds it. -/
def iblk41 (c : Dev nD) (w : Fin cfg41.W) (t : Fin cfg41.N) : ((cfg41.win w).xblock (cfg41.grid.coords t)).Idx → Elt F (cfg41.win w).elt :=
  ((cfg41.win w).blk t).view.read (Elt F) (V c (Pipeline.arrRef spec41 w))

/-- Input window 0's staging buffer holds its block at every point, fetched there or kept from the point before. -/
theorem before41_0_of {c : Dev nD} (dat : Dat τ (Elt F) Unit ℕ (UR sig nD τ) ℕ cfg41 c) (hA : dat.A 0 = V c (Pipeline.arrRef spec41 0))
    (hafter : ∀ t, dat.after 0 t = iblk41 V c 0 t) (t : Fin cfg41.N) (d) : dat.before 0 t d = iblk41 V c 0 t :=
  (dat.before_in_eq_fetched 0 rfl (fun _ => rfl) (fun _ _ _ => rfl) (fun t => by rw [hafter]; unfold Dat.blockOf iblk41; rw [hA]; try rfl) t d).trans
    (by unfold Dat.fetched Dat.blockOf iblk41; rw [hA]; try rfl)

/-- Input window 1's staging buffer likewise. -/
theorem before41_1_of {c : Dev nD} (dat : Dat τ (Elt F) Unit ℕ (UR sig nD τ) ℕ cfg41 c) (hA : dat.A 1 = V c (Pipeline.arrRef spec41 1))
    (hafter : ∀ t, dat.after 1 t = iblk41 V c 1 t) (t : Fin cfg41.N) (d) : dat.before 1 t d = iblk41 V c 1 t :=
  (dat.before_in_eq_fetched 1 rfl (fun _ => rfl) (fun _ _ _ => rfl) (fun t => by rw [hafter]; unfold Dat.blockOf iblk41; rw [hA]; try rfl) t d).trans
    (by unfold Dat.fetched Dat.blockOf iblk41; rw [hA]; try rfl)

/-- Input window 2's staging buffer likewise. -/
theorem before41_2_of {c : Dev nD} (dat : Dat τ (Elt F) Unit ℕ (UR sig nD τ) ℕ cfg41 c) (hA : dat.A 2 = V c (Pipeline.arrRef spec41 2))
    (hafter : ∀ t, dat.after 2 t = iblk41 V c 2 t) (t : Fin cfg41.N) (d) : dat.before 2 t d = iblk41 V c 2 t :=
  (dat.before_in_eq_fetched 2 rfl (fun _ => rfl) (fun _ _ _ => rfl) (fun t => by rw [hafter]; unfold Dat.blockOf iblk41; rw [hA]; try rfl) t d).trans
    (by unfold Dat.fetched Dat.blockOf iblk41; rw [hA]; try rfl)

/-- Input window 3's staging buffer likewise. -/
theorem before41_3_of {c : Dev nD} (dat : Dat τ (Elt F) Unit ℕ (UR sig nD τ) ℕ cfg41 c) (hA : dat.A 3 = V c (Pipeline.arrRef spec41 3))
    (hafter : ∀ t, dat.after 3 t = iblk41 V c 3 t) (t : Fin cfg41.N) (d) : dat.before 3 t d = iblk41 V c 3 t :=
  (dat.before_in_eq_fetched 3 rfl (fun _ => rfl) (fun _ _ _ => rfl) (fun t => by rw [hafter]; unfold Dat.blockOf iblk41; rw [hA]; try rfl) t d).trans
    (by unfold Dat.fetched Dat.blockOf iblk41; rw [hA]; try rfl)

/-- Input window 4's staging buffer likewise. -/
theorem before41_4_of {c : Dev nD} (dat : Dat τ (Elt F) Unit ℕ (UR sig nD τ) ℕ cfg41 c) (hA : dat.A 4 = V c (Pipeline.arrRef spec41 4))
    (hafter : ∀ t, dat.after 4 t = iblk41 V c 4 t) (t : Fin cfg41.N) (d) : dat.before 4 t d = iblk41 V c 4 t :=
  (dat.before_in_eq_fetched 4 rfl (fun _ => rfl) (fun _ _ _ => rfl) (fun t => by rw [hafter]; unfold Dat.blockOf iblk41; rw [hA]; try rfl) t d).trans
    (by unfold Dat.fetched Dat.blockOf iblk41; rw [hA]; try rfl)

abbrev r41_0 : Rect S8x256x256 := Rect.unit (s := S8x256x256) ![0, 0, 0] S8x256x256.size inb_S8x256x256_S8x256x256_0_0_0
abbrev r41_1 : Rect S8x256x256 := Rect.unit (s := S8x256x256) ![0, 0, 0] S8x256x256.size inb_S8x256x256_S8x256x256_0_0_0
abbrev r41_2 : Rect S256x256 := Rect.unit (s := S256x256) ![0, 0] S256x256.size inb_S256x256_S256x256_0_0
abbrev r41_3 : Rect S256x256 := Rect.unit (s := S256x256) ![0, 0] S256x256.size inb_S256x256_S256x256_0_0
abbrev r41_4 : Rect S1x256 := Rect.unit (s := S1x256) ![0, 0] S1x256.size inb_S1x256_S1x256_0_0
abbrev r41_o : Rect S8x256 := Rect.unit (s := S8x256) ![0, 0] S8x256.size inb_S8x256_S8x256_0_0

/-- The output block after the body: its one whole-block store, of the body's value at the five input blocks. -/
def out41 (x0 : Vec F S8x256x256 .f32) (x1 : Vec F S8x256x256 .f32) (x2 : Vec F S256x256 .f32) (x3 : Vec F S256x256 .f32) (x4 : Vec F S1x256 .f32) : Vec F S8x256 .f32 :=
  View.canon [⟨r41_o, k41_pay1 (View.ld x0 r41_0) (View.ld x1 r41_1) (View.ld x2 r41_2) (View.ld x3 r41_3) (View.ld x4 r41_4)⟩]

/-- That one store covers the block. -/
theorem cover41 (p0 : Vec F S8x256 .f32) (y : S8x256.Idx) :
    ∃ pc ∈ ([⟨r41_o, p0⟩] : List (View.Piece (Elt F) S8x256 .f32)), y ∈ pc.1.set :=
  View.cover_of_tiled [⟨r41_o, p0⟩] S8x256.size (by rfl) y

set_option maxHeartbeats 1000000 in
/-- The body on whole staging buffers: the five input buffers are read and left as found, and the output buffer,
    whatever it held, ends at the body's value. -/
theorem sound_kernel41 (c : Dev nD) (E : Set ℕ) (i : grid41.Coords)
    (arg1 : Memref sig .tc .vmem S8x256x256 .f32) (harg1 : arg1.IsWhole) (arg2 : Memref sig .tc .vmem S8x256x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S8x256 .f32) (harg6 : arg6.IsWhole)
    (x0 : Vec F S8x256x256 .f32) (x1 : Vec F S8x256x256 .f32) (x2 : Vec F S256x256 .f32) (x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out41 x0 x1 x2 x3 x4)) -∗ K ⟨⟩))
      ⊢ wp frame (wpE (defs₀ (F := F)) Variants.none c none) E (cc41__pool_kernel i arg1 harg1 arg2 harg2 arg3 harg3 arg4 harg4 arg5 harg5 arg6 harg6) K := by
  simp only [cc41__pool_kernel_eq_skeleton]; unfold cc41__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover41 _)

/-- The proof data: the arrays as the region finds them; after the body each input buffer still at its block and the
    output buffer at the body's value there; nothing owed, full shares, the scoped rest untouched. -/
def dat41 (c : Dev nD) : Dat τ (Elt F) Unit ℕ (UR sig nD τ) ℕ cfg41 c where
  A w := V c (Pipeline.arrRef spec41 w)
  after w t := match w with
    | ⟨0, _⟩ => iblk41 V c 0 t
    | ⟨1, _⟩ => iblk41 V c 1 t
    | ⟨2, _⟩ => iblk41 V c 2 t
    | ⟨3, _⟩ => iblk41 V c 3 t
    | ⟨4, _⟩ => iblk41 V c 4 t
    | ⟨5, _⟩ => out41 (iblk41 V c 0 t) (iblk41 V c 1 t) (iblk41 V c 2 t) (iblk41 V c 3 t) (iblk41 V c 4 t)
  Φ _ := Pipeline.ΦA spec41 c
  q _ := fullShare
  owed _ := 0

theorem A_eq41 (c : Dev nD) (w : Fin cfg41.W) : (dat41 V c).A w = V c (Pipeline.arrRef spec41 w) := by
  dsimp only [dat41]

theorem after41_0 (c : Dev nD) (t : Fin cfg41.N) : (dat41 V c).after 0 t = iblk41 V c 0 t := by dsimp only [dat41]
theorem after41_1 (c : Dev nD) (t : Fin cfg41.N) : (dat41 V c).after 1 t = iblk41 V c 1 t := by dsimp only [dat41]
theorem after41_2 (c : Dev nD) (t : Fin cfg41.N) : (dat41 V c).after 2 t = iblk41 V c 2 t := by dsimp only [dat41]
theorem after41_3 (c : Dev nD) (t : Fin cfg41.N) : (dat41 V c).after 3 t = iblk41 V c 3 t := by dsimp only [dat41]
theorem after41_4 (c : Dev nD) (t : Fin cfg41.N) : (dat41 V c).after 4 t = iblk41 V c 4 t := by dsimp only [dat41]
theorem after41_5 (c : Dev nD) (t : Fin cfg41.N) :
    (dat41 V c).after 5 t = out41 (iblk41 V c 0 t) (iblk41 V c 1 t) (iblk41 V c 2 t) (iblk41 V c 3 t) (iblk41 V c 4 t) := by dsimp only [dat41]

theorem before41_0 (c : Dev nD) (t : Fin cfg41.N) (d) : (dat41 V c).before 0 t d = iblk41 V c 0 t :=
  before41_0_of V (dat41 V c) (A_eq41 V c 0) (after41_0 V c) t d
theorem before41_1 (c : Dev nD) (t : Fin cfg41.N) (d) : (dat41 V c).before 1 t d = iblk41 V c 1 t :=
  before41_1_of V (dat41 V c) (A_eq41 V c 1) (after41_1 V c) t d
theorem before41_2 (c : Dev nD) (t : Fin cfg41.N) (d) : (dat41 V c).before 2 t d = iblk41 V c 2 t :=
  before41_2_of V (dat41 V c) (A_eq41 V c 2) (after41_2 V c) t d
theorem before41_3 (c : Dev nD) (t : Fin cfg41.N) (d) : (dat41 V c).before 3 t d = iblk41 V c 3 t :=
  before41_3_of V (dat41 V c) (A_eq41 V c 3) (after41_3 V c) t d
theorem before41_4 (c : Dev nD) (t : Fin cfg41.N) (d) : (dat41 V c).before 4 t d = iblk41 V c 4 t :=
  before41_4_of V (dat41 V c) (A_eq41 V c 4) (after41_4 V c) t d

/-- What the body is handed at point `t`, window by window, -/
def bodyPre41 (c : Dev nD) (t : Fin cfg41.N) : sProp 𝕄 :=
  iprop((dat41 V c).Φ t.castSucc ∗ (dat41 V c).owesAt () t.castSucc
    ∗ (∃ d, owns (c : Thread nD τ) (st41_0 t) fullShare ((dat41 V c).before 0 t d))
    ∗ (∃ d, owns (c : Thread nD τ) (st41_1 t) fullShare ((dat41 V c).before 1 t d))
    ∗ (∃ d, owns (c : Thread nD τ) (st41_2 t) fullShare ((dat41 V c).before 2 t d))
    ∗ (∃ d, owns (c : Thread nD τ) (st41_3 t) fullShare ((dat41 V c).before 3 t d))
    ∗ (∃ d, owns (c : Thread nD τ) (st41_4 t) fullShare ((dat41 V c).before 4 t d))
    ∗ (∃ d, owns (c : Thread nD τ) (st41_5 t) fullShare ((dat41 V c).before 5 t d)))

/-- and what it hands back. -/
def bodyPost41 (c : Dev nD) (t : Fin cfg41.N) : sProp 𝕄 :=
  iprop((dat41 V c).Φ t.succ ∗ (dat41 V c).owesAt () t.succ
    ∗ owns (c : Thread nD τ) (st41_0 t) fullShare ((dat41 V c).after 0 t)
    ∗ owns (c : Thread nD τ) (st41_1 t) fullShare ((dat41 V c).after 1 t)
    ∗ owns (c : Thread nD τ) (st41_2 t) fullShare ((dat41 V c).after 2 t)
    ∗ owns (c : Thread nD τ) (st41_3 t) fullShare ((dat41 V c).after 3 t)
    ∗ owns (c : Thread nD τ) (st41_4 t) fullShare ((dat41 V c).after 4 t)
    ∗ owns (c : Thread nD τ) (st41_5 t) fullShare ((dat41 V c).after 5 t))

theorem sound_body41 (c : Dev nD) (t : Fin cfg41.N) :
    bodyPre41 V c t ⊢ wp frame (wpE (defs₀ (F := F)) Variants.none c none) Set.univ (bodyAt41 t) (fun _ => bodyPost41 V c t) := by
  unfold bodyPre41 bodyPost41 bodyAt41
  simp only [before41_0, before41_1, before41_2, before41_3, before41_4]
  rw [show (dat41 V c).Φ t.succ = (dat41 V c).Φ t.castSucc from rfl,
    show (dat41 V c).owesAt () t.succ = (dat41 V c).owesAt () t.castSucc from rfl,
    after41_0, after41_1, after41_2, after41_3, after41_4, after41_5]
  iintro ⟨HΦ, Ho, ⟨%d0, H0⟩, ⟨%d1, H1⟩, ⟨%d2, H2⟩, ⟨%d3, H3⟩, ⟨%d4, H4⟩, ⟨%d5, H5⟩⟩
  iapply (sound_kernel41 c Set.univ _ _ _ _ _ _ _ _ _ _ _ _ _ (iblk41 V c 0 t) (iblk41 V c 1 t) (iblk41 V c 2 t) (iblk41 V c 3 t) (iblk41 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation41 (c : Dev nD) : BodyObligation (dat41 (F := F) V c) (defs₀ (F := F)) Variants.none () Set.univ := fun t => by
  rw [bigSep_W41, bigSep_W41]
  exact sound_body41 V c t

end Cert.KernelIdeal.Reg

end
-- ==== Proof.KI.Region42.lean ====
import proofs.«101828_j11562051961417_2_alg».proof.Proof.Gen.KernelIdeal.Launch
import proofs.«101828_j11562051961417_2_alg».proof.Proof.Gen.KernelIdeal.Skeleton
import proofs.«101828_j11562051961417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 42: five input windows, each block loaded whole; one output window, stored whole -/

/-- Window `w`'s block at grid point `t`, read off the array as the region finds it. -/
def iblk42 (c : Dev nD) (w : Fin cfg42.W) (t : Fin cfg42.N) : ((cfg42.win w).xblock (cfg42.grid.coords t)).Idx → Elt F (cfg42.win w).elt :=
  ((cfg42.win w).blk t).view.read (Elt F) (V c (Pipeline.arrRef spec42 w))

/-- Input window 0's staging buffer holds its block at every point, fetched there or kept from the point before. -/
theorem before42_0_of {c : Dev nD} (dat : Dat τ (Elt F) Unit ℕ (UR sig nD τ) ℕ cfg42 c) (hA : dat.A 0 = V c (Pipeline.arrRef spec42 0))
    (hafter : ∀ t, dat.after 0 t = iblk42 V c 0 t) (t : Fin cfg42.N) (d) : dat.before 0 t d = iblk42 V c 0 t :=
  (dat.before_in_eq_fetched 0 rfl (fun _ => rfl) (fun _ _ _ => rfl) (fun t => by rw [hafter]; unfold Dat.blockOf iblk42; rw [hA]; try rfl) t d).trans
    (by unfold Dat.fetched Dat.blockOf iblk42; rw [hA]; try rfl)

/-- Input window 1's staging buffer likewise. -/
theorem before42_1_of {c : Dev nD} (dat : Dat τ (Elt F) Unit ℕ (UR sig nD τ) ℕ cfg42 c) (hA : dat.A 1 = V c (Pipeline.arrRef spec42 1))
    (hafter : ∀ t, dat.after 1 t = iblk42 V c 1 t) (t : Fin cfg42.N) (d) : dat.before 1 t d = iblk42 V c 1 t :=
  (dat.before_in_eq_fetched 1 rfl (fun _ => rfl) (fun _ _ _ => rfl) (fun t => by rw [hafter]; unfold Dat.blockOf iblk42; rw [hA]; try rfl) t d).trans
    (by unfold Dat.fetched Dat.blockOf iblk42; rw [hA]; try rfl)

/-- Input window 2's staging buffer likewise. -/
theorem before42_2_of {c : Dev nD} (dat : Dat τ (Elt F) Unit ℕ (UR sig nD τ) ℕ cfg42 c) (hA : dat.A 2 = V c (Pipeline.arrRef spec42 2))
    (hafter : ∀ t, dat.after 2 t = iblk42 V c 2 t) (t : Fin cfg42.N) (d) : dat.before 2 t d = iblk42 V c 2 t :=
  (dat.before_in_eq_fetched 2 rfl (fun _ => rfl) (fun _ _ _ => rfl) (fun t => by rw [hafter]; unfold Dat.blockOf iblk42; rw [hA]; try rfl) t d).trans
    (by unfold Dat.fetched Dat.blockOf iblk42; rw [hA]; try rfl)

/-- Input window 3's staging buffer likewise. -/
theorem before42_3_of {c : Dev nD} (dat : Dat τ (Elt F) Unit ℕ (UR sig nD τ) ℕ cfg42 c) (hA : dat.A 3 = V c (Pipeline.arrRef spec42 3))
    (hafter : ∀ t, dat.after 3 t = iblk42 V c 3 t) (t : Fin cfg42.N) (d) : dat.before 3 t d = iblk42 V c 3 t :=
  (dat.before_in_eq_fetched 3 rfl (fun _ => rfl) (fun _ _ _ => rfl) (fun t => by rw [hafter]; unfold Dat.blockOf iblk42; rw [hA]; try rfl) t d).trans
    (by unfold Dat.fetched Dat.blockOf iblk42; rw [hA]; try rfl)

/-- Input window 4's staging buffer likewise. -/
theorem before42_4_of {c : Dev nD} (dat : Dat τ (Elt F) Unit ℕ (UR sig nD τ) ℕ cfg42 c) (hA : dat.A 4 = V c (Pipeline.arrRef spec42 4))
    (hafter : ∀ t, dat.after 4 t = iblk42 V c 4 t) (t : Fin cfg42.N) (d) : dat.before 4 t d = iblk42 V c 4 t :=
  (dat.before_in_eq_fetched 4 rfl (fun _ => rfl) (fun _ _ _ => rfl) (fun t => by rw [hafter]; unfold Dat.blockOf iblk42; rw [hA]; try rfl) t d).trans
    (by unfold Dat.fetched Dat.blockOf iblk42; rw [hA]; try rfl)

abbrev r42_0 : Rect S8x64x256 := Rect.unit (s := S8x64x256) ![0, 0, 0] S8x64x256.size inb_S8x64x256_S8x64x256_0_0_0
abbrev r42_1 : Rect S8x64x256 := Rect.unit (s := S8x64x256) ![0, 0, 0] S8x64x256.size inb_S8x64x256_S8x64x256_0_0_0
abbrev r42_2 : Rect S256x256 := Rect.unit (s := S256x256) ![0, 0] S256x256.size inb_S256x256_S256x256_0_0
abbrev r42_3 : Rect S256x256 := Rect.unit (s := S256x256) ![0, 0] S256x256.size inb_S256x256_S256x256_0_0
abbrev r42_4 : Rect S1x256 := Rect.unit (s := S1x256) ![0, 0] S1x256.size inb_S1x256_S1x256_0_0
abbrev r42_o : Rect S8x256 := Rect.unit (s := S8x256) ![0, 0] S8x256.size inb_S8x256_S8x256_0_0

/-- The output block after the body: its one whole-block store, of the body's value at the five input blocks. -/
def out42 (x0 : Vec F S8x64x256 .f32) (x1 : Vec F S8x64x256 .f32) (x2 : Vec F S256x256 .f32) (x3 : Vec F S256x256 .f32) (x4 : Vec F S1x256 .f32) : Vec F S8x256 .f32 :=
  View.canon [⟨r42_o, k42_pay1 (View.ld x0 r42_0) (View.ld x1 r42_1) (View.ld x2 r42_2) (View.ld x3 r42_3) (View.ld x4 r42_4)⟩]

/-- That one store covers the block. -/
theorem cover42 (p0 : Vec F S8x256 .f32) (y : S8x256.Idx) :
    ∃ pc ∈ ([⟨r42_o, p0⟩] : List (View.Piece (Elt F) S8x256 .f32)), y ∈ pc.1.set :=
  View.cover_of_tiled [⟨r42_o, p0⟩] S8x256.size (by rfl) y

set_option maxHeartbeats 1000000 in
/-- The body on whole staging buffers: the five input buffers are read and left as found, and the output buffer,
    whatever it held, ends at the body's value. -/
theorem sound_kernel42 (c : Dev nD) (E : Set ℕ) (i : grid42.Coords)
    (arg1 : Memref sig .tc .vmem S8x64x256 .f32) (harg1 : arg1.IsWhole) (arg2 : Memref sig .tc .vmem S8x64x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S8x256 .f32) (harg6 : arg6.IsWhole)
    (x0 : Vec F S8x64x256 .f32) (x1 : Vec F S8x64x256 .f32) (x2 : Vec F S256x256 .f32) (x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out42 x0 x1 x2 x3 x4)) -∗ K ⟨⟩))
      ⊢ wp frame (wpE (defs₀ (F := F)) Variants.none c none) E (cc42__pool_kernel i arg1 harg1 arg2 harg2 arg3 harg3 arg4 harg4 arg5 harg5 arg6 harg6) K := by
  simp only [cc42__pool_kernel_eq_skeleton]; unfold cc42__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover42 _)

/-- The proof data: the arrays as the region finds them; after the body each input buffer still at its block and the
    output buffer at the body's value there; nothing owed, full shares, the scoped rest untouched. -/
def dat42 (c : Dev nD) : Dat τ (Elt F) Unit ℕ (UR sig nD τ) ℕ cfg42 c where
  A w := V c (Pipeline.arrRef spec42 w)
  after w t := match w with
    | ⟨0, _⟩ => iblk42 V c 0 t
    | ⟨1, _⟩ => iblk42 V c 1 t
    | ⟨2, _⟩ => iblk42 V c 2 t
    | ⟨3, _⟩ => iblk42 V c 3 t
    | ⟨4, _⟩ => iblk42 V c 4 t
    | ⟨5, _⟩ => out42 (iblk42 V c 0 t) (iblk42 V c 1 t) (iblk42 V c 2 t) (iblk42 V c 3 t) (iblk42 V c 4 t)
  Φ _ := Pipeline.ΦA spec42 c
  q _ := fullShare
  owed _ := 0

theorem A_eq42 (c : Dev nD) (w : Fin cfg42.W) : (dat42 V c).A w = V c (Pipeline.arrRef spec42 w) := by
  dsimp only [dat42]

theorem after42_0 (c : Dev nD) (t : Fin cfg42.N) : (dat42 V c).after 0 t = iblk42 V c 0 t := by dsimp only [dat42]
theorem after42_1 (c : Dev nD) (t : Fin cfg42.N) : (dat42 V c).after 1 t = iblk42 V c 1 t := by dsimp only [dat42]
theorem after42_2 (c : Dev nD) (t : Fin cfg42.N) : (dat42 V c).after 2 t = iblk42 V c 2 t := by dsimp only [dat42]
theorem after42_3 (c : Dev nD) (t : Fin cfg42.N) : (dat42 V c).after 3 t = iblk42 V c 3 t := by dsimp only [dat42]
theorem after42_4 (c : Dev nD) (t : Fin cfg42.N) : (dat42 V c).after 4 t = iblk42 V c 4 t := by dsimp only [dat42]
theorem after42_5 (c : Dev nD) (t : Fin cfg42.N) :
    (dat42 V c).after 5 t = out42 (iblk42 V c 0 t) (iblk42 V c 1 t) (iblk42 V c 2 t) (iblk42 V c 3 t) (iblk42 V c 4 t) := by dsimp only [dat42]

theorem before42_0 (c : Dev nD) (t : Fin cfg42.N) (d) : (dat42 V c).before 0 t d = iblk42 V c 0 t :=
  before42_0_of V (dat42 V c) (A_eq42 V c 0) (after42_0 V c) t d
theorem before42_1 (c : Dev nD) (t : Fin cfg42.N) (d) : (dat42 V c).before 1 t d = iblk42 V c 1 t :=
  before42_1_of V (dat42 V c) (A_eq42 V c 1) (after42_1 V c) t d
theorem before42_2 (c : Dev nD) (t : Fin cfg42.N) (d) : (dat42 V c).before 2 t d = iblk42 V c 2 t :=
  before42_2_of V (dat42 V c) (A_eq42 V c 2) (after42_2 V c) t d
theorem before42_3 (c : Dev nD) (t : Fin cfg42.N) (d) : (dat42 V c).before 3 t d = iblk42 V c 3 t :=
  before42_3_of V (dat42 V c) (A_eq42 V c 3) (after42_3 V c) t d
theorem before42_4 (c : Dev nD) (t : Fin cfg42.N) (d) : (dat42 V c).before 4 t d = iblk42 V c 4 t :=
  before42_4_of V (dat42 V c) (A_eq42 V c 4) (after42_4 V c) t d

/-- What the body is handed at point `t`, window by window, -/
def bodyPre42 (c : Dev nD) (t : Fin cfg42.N) : sProp 𝕄 :=
  iprop((dat42 V c).Φ t.castSucc ∗ (dat42 V c).owesAt () t.castSucc
    ∗ (∃ d, owns (c : Thread nD τ) (st42_0 t) fullShare ((dat42 V c).before 0 t d))
    ∗ (∃ d, owns (c : Thread nD τ) (st42_1 t) fullShare ((dat42 V c).before 1 t d))
    ∗ (∃ d, owns (c : Thread nD τ) (st42_2 t) fullShare ((dat42 V c).before 2 t d))
    ∗ (∃ d, owns (c : Thread nD τ) (st42_3 t) fullShare ((dat42 V c).before 3 t d))
    ∗ (∃ d, owns (c : Thread nD τ) (st42_4 t) fullShare ((dat42 V c).before 4 t d))
    ∗ (∃ d, owns (c : Thread nD τ) (st42_5 t) fullShare ((dat42 V c).before 5 t d)))

/-- and what it hands back. -/
def bodyPost42 (c : Dev nD) (t : Fin cfg42.N) : sProp 𝕄 :=
  iprop((dat42 V c).Φ t.succ ∗ (dat42 V c).owesAt () t.succ
    ∗ owns (c : Thread nD τ) (st42_0 t) fullShare ((dat42 V c).after 0 t)
    ∗ owns (c : Thread nD τ) (st42_1 t) fullShare ((dat42 V c).after 1 t)
    ∗ owns (c : Thread nD τ) (st42_2 t) fullShare ((dat42 V c).after 2 t)
    ∗ owns (c : Thread nD τ) (st42_3 t) fullShare ((dat42 V c).after 3 t)
    ∗ owns (c : Thread nD τ) (st42_4 t) fullShare ((dat42 V c).after 4 t)
    ∗ owns (c : Thread nD τ) (st42_5 t) fullShare ((dat42 V c).after 5 t))

theorem sound_body42 (c : Dev nD) (t : Fin cfg42.N) :
    bodyPre42 V c t ⊢ wp frame (wpE (defs₀ (F := F)) Variants.none c none) Set.univ (bodyAt42 t) (fun _ => bodyPost42 V c t) := by
  unfold bodyPre42 bodyPost42 bodyAt42
  simp only [before42_0, before42_1, before42_2, before42_3, before42_4]
  rw [show (dat42 V c).Φ t.succ = (dat42 V c).Φ t.castSucc from rfl,
    show (dat42 V c).owesAt () t.succ = (dat42 V c).owesAt () t.castSucc from rfl,
    after42_0, after42_1, after42_2, after42_3, after42_4, after42_5]
  iintro ⟨HΦ, Ho, ⟨%d0, H0⟩, ⟨%d1, H1⟩, ⟨%d2, H2⟩, ⟨%d3, H3⟩, ⟨%d4, H4⟩, ⟨%d5, H5⟩⟩
  iapply (sound_kernel42 c Set.univ _ _ _ _ _ _ _ _ _ _ _ _ _ (iblk42 V c 0 t) (iblk42 V c 1 t) (iblk42 V c 2 t) (iblk42 V c 3 t) (iblk42 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation42 (c : Dev nD) : BodyObligation (dat42 (F := F) V c) (defs₀ (F := F)) Variants.none () Set.univ := fun t => by
  rw [bigSep_W42, bigSep_W42]
  exact sound_body42 V c t

end Cert.KernelIdeal.Reg

end
-- ==== Proof.KI.Fold.lean ====
import proofs.«101828_j11562051961417_2_alg».proof.Proof.KI.Region0
import proofs.«101828_j11562051961417_2_alg».proof.Proof.KI.Region1
import proofs.«101828_j11562051961417_2_alg».proof.Proof.KI.Region2
import proofs.«101828_j11562051961417_2_alg».proof.Proof.KI.Region3
import proofs.«101828_j11562051961417_2_alg».proof.Proof.KI.Region4
import proofs.«101828_j11562051961417_2_alg».proof.Proof.KI.Region5
import proofs.«101828_j11562051961417_2_alg».proof.Proof.KI.Region6
import proofs.«101828_j11562051961417_2_alg».proof.Proof.KI.Region7
import proofs.«101828_j11562051961417_2_alg».proof.Proof.KI.Region8
import proofs.«101828_j11562051961417_2_alg».proof.Proof.KI.Region9
import proofs.«101828_j11562051961417_2_alg».proof.Proof.KI.Region10
import proofs.«101828_j11562051961417_2_alg».proof.Proof.KI.Region11
import proofs.«101828_j11562051961417_2_alg».proof.Proof.KI.Region12
import proofs.«101828_j11562051961417_2_alg».proof.Proof.KI.Region13
import proofs.«101828_j11562051961417_2_alg».proof.Proof.KI.Region14
import proofs.«101828_j11562051961417_2_alg».proof.Proof.KI.Region15
import proofs.«101828_j11562051961417_2_alg».proof.Proof.KI.Region16
import proofs.«101828_j11562051961417_2_alg».proof.Proof.KI.Region17
import proofs.«101828_j11562051961417_2_alg».proof.Proof.KI.Region18
import proofs.«101828_j11562051961417_2_alg».proof.Proof.KI.Region19
import proofs.«101828_j11562051961417_2_alg».proof.Proof.KI.Region20
import proofs.«101828_j11562051961417_2_alg».proof.Proof.KI.Region21
import proofs.«101828_j11562051961417_2_alg».proof.Proof.KI.Region22
import proofs.«101828_j11562051961417_2_alg».proof.Proof.KI.Region23
import proofs.«101828_j11562051961417_2_alg».proof.Proof.KI.Region24
import proofs.«101828_j11562051961417_2_alg».proof.Proof.KI.Region25
import proofs.«101828_j11562051961417_2_alg».proof.Proof.KI.Region26
import proofs.«101828_j11562051961417_2_alg».proof.Proof.KI.Region27
import proofs.«101828_j11562051961417_2_alg».proof.Proof.KI.Region28
import proofs.«101828_j11562051961417_2_alg».proof.Proof.KI.Region29
import proofs.«101828_j11562051961417_2_alg».proof.Proof.KI.Region30
import proofs.«101828_j11562051961417_2_alg».proof.Proof.KI.Region31
import proofs.«101828_j11562051961417_2_alg».proof.Proof.KI.Region32
import proofs.«101828_j11562051961417_2_alg».proof.Proof.KI.Region33
import proofs.«101828_j11562051961417_2_alg».proof.Proof.KI.Region34
import proofs.«101828_j11562051961417_2_alg».proof.Proof.KI.Region35
import proofs.«101828_j11562051961417_2_alg».proof.Proof.KI.Region36
import proofs.«101828_j11562051961417_2_alg».proof.Proof.KI.Region37
import proofs.«101828_j11562051961417_2_alg».proof.Proof.KI.Region38
import proofs.«101828_j11562051961417_2_alg».proof.Proof.KI.Region39
import proofs.«101828_j11562051961417_2_alg».proof.Proof.KI.Region40
import proofs.«101828_j11562051961417_2_alg».proof.Proof.KI.Region41
import proofs.«101828_j11562051961417_2_alg».proof.Proof.KI.Region42

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at every boundary of @main: a fold from the launch memory

    `W0` is the launch memory; a stretch of host operations takes a boundary to the operations' results over it; a
    region takes it to the same contents with the region's arrays at what its write-backs leave. -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- Region 0 is entered at `W1` (read at the TensorCore's references: `V1`) and left at `W2`: its arrays at what
    the pipeline leaves (inputs as entered, the output's write-backs folded), every other buffer as entered. -/
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After `hostOps1`. -/
abbrev W3 : Dev nD → Valuation τ sig (Elt F) := fun c => StableHlo.after hostOps1 (W2 m ρ c)
/-- Region 1 is entered at `W3` (read at the TensorCore's references: `V3`) and left at `W4`: its arrays at what
    the pipeline leaves (inputs as entered, the output's write-backs folded), every other buffer as entered. -/
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After `hostOps2`. -/
abbrev W5 : Dev nD → Valuation τ sig (Elt F) := fun c => StableHlo.after hostOps2 (W4 m ρ c)
/-- Region 2 is entered at `W5` (read at the TensorCore's references: `V5`) and left at `W6`: its arrays at what
    the pipeline leaves (inputs as entered, the output's write-backs folded), every other buffer as entered. -/
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After `hostOps3`. -/
abbrev W7 : Dev nD → Valuation τ sig (Elt F) := fun c => StableHlo.after hostOps3 (W6 m ρ c)
/-- Region 3 is entered at `W7` (read at the TensorCore's references: `V7`) and left at `W8`: its arrays at what
    the pipeline leaves (inputs as entered, the output's write-backs folded), every other buffer as entered. -/
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After `hostOps4`. -/
abbrev W9 : Dev nD → Valuation τ sig (Elt F) := fun c => StableHlo.after hostOps4 (W8 m ρ c)
/-- Region 4 is entered at `W9` (read at the TensorCore's references: `V9`) and left at `W10`: its arrays at what
    the pipeline leaves (inputs as entered, the output's write-backs folded), every other buffer as entered. -/
abbrev V9 : (c : Dev nD) → (b : Ref sig .tc) → Buf (Elt F) ((c : Thread nD τ).loc b) := fun c b => W9 m ρ c b
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After `hostOps5`. -/
abbrev W11 : Dev nD → Valuation τ sig (Elt F) := fun c => StableHlo.after hostOps5 (W10 m ρ c)
/-- After `hostOps5_1`. -/
abbrev W12 : Dev nD → Valuation τ sig (Elt F) := fun c => StableHlo.after hostOps5_1 (W11 m ρ c)
/-- After `hostOps5_2`. -/
abbrev W13 : Dev nD → Valuation τ sig (Elt F) := fun c => StableHlo.after hostOps5_2 (W12 m ρ c)
/-- After `hostOps5_3`. -/
abbrev W14 : Dev nD → Valuation τ sig (Elt F) := fun c => StableHlo.after hostOps5_3 (W13 m ρ c)
/-- After `hostOps5_4`. -/
abbrev W15 : Dev nD → Valuation τ sig (Elt F) := fun c => StableHlo.after hostOps5_4 (W14 m ρ c)
/-- Region 5 is entered at `W15` (read at the TensorCore's references: `V15`) and left at `W16`: its arrays at what
    the pipeline leaves (inputs as entered, the output's write-backs folded), every other buffer as entered. -/
abbrev V15 : (c : Dev nD) → (b : Ref sig .tc) → Buf (Elt F) ((c : Thread nD τ).loc b) := fun c b => W15 m ρ c b
def W16 (c : Dev nD) : Valuation τ sig (Elt F) :=
  Pipeline.withArrays spec5 c (W15 m ρ c) fun w => (dat5 (V15 m ρ) c).arrAt w cfg5.N
theorem W16_arr (c : Dev nD) (w : Fin cfg5.W) :
    W16 m ρ c (Proc.devRef .tc (Pipeline.arrRef spec5 w)) = (dat5 (V15 m ρ) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m ρ c (Proc.devRef .tc b) = W15 m ρ c (Proc.devRef .tc b) := by
  unfold W16; exact Pipeline.withArrays_of_ne spec5 c _ _ b hb
abbrev V16 : (c : Dev nD) → (b : Ref sig .tc) → Buf (Elt F) ((c : Thread nD τ).loc b) := fun c b => W16 m ρ c b
theorem hF5 (c : Dev nD) (w : Fin cfg5.W) : (dat5 (V15 m ρ) c).arrAt w cfg5.N = V16 m ρ c (Pipeline.arrRef spec5 w) :=
  (W16_arr m ρ c w).symm
theorem hrest5 (c : Dev nD) : ∀ b, b ∉ Finset.univ.image (Pipeline.arrRef spec5) → V16 m ρ c b = V15 m ρ c b :=
  fun b hb => W16_of_ne m ρ c b fun w e => hb (Finset.mem_image.mpr ⟨w, Finset.mem_univ _, e⟩)
/-- After `hostOps6`. -/
abbrev W17 : Dev nD → Valuation τ sig (Elt F) := fun c => StableHlo.after hostOps6 (W16 m ρ c)
/-- Region 6 is entered at `W17` (read at the TensorCore's references: `V17`) and left at `W18`: its arrays at what
    the pipeline leaves (inputs as entered, the output's write-backs folded), every other buffer as entered. -/
abbrev V17 : (c : Dev nD) → (b : Ref sig .tc) → Buf (Elt F) ((c : Thread nD τ).loc b) := fun c b => W17 m ρ c b
def W18 (c : Dev nD) : Valuation τ sig (Elt F) :=
  Pipeline.withArrays spec6 c (W17 m ρ c) fun w => (dat6 (V17 m ρ) c).arrAt w cfg6.N
theorem W18_arr (c : Dev nD) (w : Fin cfg6.W) :
    W18 m ρ c (Proc.devRef .tc (Pipeline.arrRef spec6 w)) = (dat6 (V17 m ρ) c).arrAt w cfg6.N := by
  unfold W18; exact Pipeline.withArrays_arr spec6 launch6.win.arr_inj c _ _ w
theorem W18_of_ne (c : Dev nD) (b : Ref sig .tc) (hb : ∀ w, Pipeline.arrRef spec6 w ≠ b) :
    W18 m ρ c (Proc.devRef .tc b) = W17 m ρ c (Proc.devRef .tc b) := by
  unfold W18; exact Pipeline.withArrays_of_ne spec6 c _ _ b hb
abbrev V18 : (c : Dev nD) → (b : Ref sig .tc) → Buf (Elt F) ((c : Thread nD τ).loc b) := fun c b => W18 m ρ c b
theorem hF6 (c : Dev nD) (w : Fin cfg6.W) : (dat6 (V17 m ρ) c).arrAt w cfg6.N = V18 m ρ c (Pipeline.arrRef spec6 w) :=
  (W18_arr m ρ c w).symm
theorem hrest6 (c : Dev nD) : ∀ b, b ∉ Finset.univ.image (Pipeline.arrRef spec6) → V18 m ρ c b = V17 m ρ c b :=
  fun b hb => W18_of_ne m ρ c b fun w e => hb (Finset.mem_image.mpr ⟨w, Finset.mem_univ _, e⟩)
/-- After `hostOps7`. -/
abbrev W19 : Dev nD → Valuation τ sig (Elt F) := fun c => StableHlo.after hostOps7 (W18 m ρ c)
/-- Region 7 is entered at `W19` (read at the TensorCore's references: `V19`) and left at `W20`: its arrays at what
    the pipeline leaves (inputs as entered, the output's write-backs folded), every other buffer as entered. -/
abbrev V19 : (c : Dev nD) → (b : Ref sig .tc) → Buf (Elt F) ((c : Thread nD τ).loc b) := fun c b => W19 m ρ c b
def W20 (c : Dev nD) : Valuation τ sig (Elt F) :=
  Pipeline.withArrays spec7 c (W19 m ρ c) fun w => (dat7 (V19 m ρ) c).arrAt w cfg7.N
theorem W20_arr (c : Dev nD) (w : Fin cfg7.W) :
    W20 m ρ c (Proc.devRef .tc (Pipeline.arrRef spec7 w)) = (dat7 (V19 m ρ) c).arrAt w cfg7.N := by
  unfold W20; exact Pipeline.withArrays_arr spec7 launch7.win.arr_inj c _ _ w
theorem W20_of_ne (c : Dev nD) (b : Ref sig .tc) (hb : ∀ w, Pipeline.arrRef spec7 w ≠ b) :
    W20 m ρ c (Proc.devRef .tc b) = W19 m ρ c (Proc.devRef .tc b) := by
  unfold W20; exact Pipeline.withArrays_of_ne spec7 c _ _ b hb
abbrev V20 : (c : Dev nD) → (b : Ref sig .tc) → Buf (Elt F) ((c : Thread nD τ).loc b) := fun c b => W20 m ρ c b
theorem hF7 (c : Dev nD) (w : Fin cfg7.W) : (dat7 (V19 m ρ) c).arrAt w cfg7.N = V20 m ρ c (Pipeline.arrRef spec7 w) :=
  (W20_arr m ρ c w).symm
theorem hrest7 (c : Dev nD) : ∀ b, b ∉ Finset.univ.image (Pipeline.arrRef spec7) → V20 m ρ c b = V19 m ρ c b :=
  fun b hb => W20_of_ne m ρ c b fun w e => hb (Finset.mem_image.mpr ⟨w, Finset.mem_univ _, e⟩)
/-- After `hostOps8`. -/
abbrev W21 : Dev nD → Valuation τ sig (Elt F) := fun c => StableHlo.after hostOps8 (W20 m ρ c)
/-- Region 8 is entered at `W21` (read at the TensorCore's references: `V21`) and left at `W22`: its arrays at what
    the pipeline leaves (inputs as entered, the output's write-backs folded), every other buffer as entered. -/
abbrev V21 : (c : Dev nD) → (b : Ref sig .tc) → Buf (Elt F) ((c : Thread nD τ).loc b) := fun c b => W21 m ρ c b
def W22 (c : Dev nD) : Valuation τ sig (Elt F) :=
  Pipeline.withArrays spec8 c (W21 m ρ c) fun w => (dat8 (V21 m ρ) c).arrAt w cfg8.N
theorem W22_arr (c : Dev nD) (w : Fin cfg8.W) :
    W22 m ρ c (Proc.devRef .tc (Pipeline.arrRef spec8 w)) = (dat8 (V21 m ρ) c).arrAt w cfg8.N := by
  unfold W22; exact Pipeline.withArrays_arr spec8 launch8.win.arr_inj c _ _ w
theorem W22_of_ne (c : Dev nD) (b : Ref sig .tc) (hb : ∀ w, Pipeline.arrRef spec8 w ≠ b) :
    W22 m ρ c (Proc.devRef .tc b) = W21 m ρ c (Proc.devRef .tc b) := by
  unfold W22; exact Pipeline.withArrays_of_ne spec8 c _ _ b hb
abbrev V22 : (c : Dev nD) → (b : Ref sig .tc) → Buf (Elt F) ((c : Thread nD τ).loc b) := fun c b => W22 m ρ c b
theorem hF8 (c : Dev nD) (w : Fin cfg8.W) : (dat8 (V21 m ρ) c).arrAt w cfg8.N = V22 m ρ c (Pipeline.arrRef spec8 w) :=
  (W22_arr m ρ c w).symm
theorem hrest8 (c : Dev nD) : ∀ b, b ∉ Finset.univ.image (Pipeline.arrRef spec8) → V22 m ρ c b = V21 m ρ c b :=
  fun b hb => W22_of_ne m ρ c b fun w e => hb (Finset.mem_image.mpr ⟨w, Finset.mem_univ _, e⟩)
/-- After `hostOps9`. -/
abbrev W23 : Dev nD → Valuation τ sig (Elt F) := fun c => StableHlo.after hostOps9 (W22 m ρ c)
/-- Region 9 is entered at `W23` (read at the TensorCore's references: `V23`) and left at `W24`: its arrays at what
    the pipeline leaves (inputs as entered, the output's write-backs folded), every other buffer as entered. -/
abbrev V23 : (c : Dev nD) → (b : Ref sig .tc) → Buf (Elt F) ((c : Thread nD τ).loc b) := fun c b => W23 m ρ c b
def W24 (c : Dev nD) : Valuation τ sig (Elt F) :=
  Pipeline.withArrays spec9 c (W23 m ρ c) fun w => (dat9 (V23 m ρ) c).arrAt w cfg9.N
theorem W24_arr (c : Dev nD) (w : Fin cfg9.W) :
    W24 m ρ c (Proc.devRef .tc (Pipeline.arrRef spec9 w)) = (dat9 (V23 m ρ) c).arrAt w cfg9.N := by
  unfold W24; exact Pipeline.withArrays_arr spec9 launch9.win.arr_inj c _ _ w
theorem W24_of_ne (c : Dev nD) (b : Ref sig .tc) (hb : ∀ w, Pipeline.arrRef spec9 w ≠ b) :
    W24 m ρ c (Proc.devRef .tc b) = W23 m ρ c (Proc.devRef .tc b) := by
  unfold W24; exact Pipeline.withArrays_of_ne spec9 c _ _ b hb
abbrev V24 : (c : Dev nD) → (b : Ref sig .tc) → Buf (Elt F) ((c : Thread nD τ).loc b) := fun c b => W24 m ρ c b
theorem hF9 (c : Dev nD) (w : Fin cfg9.W) : (dat9 (V23 m ρ) c).arrAt w cfg9.N = V24 m ρ c (Pipeline.arrRef spec9 w) :=
  (W24_arr m ρ c w).symm
theorem hrest9 (c : Dev nD) : ∀ b, b ∉ Finset.univ.image (Pipeline.arrRef spec9) → V24 m ρ c b = V23 m ρ c b :=
  fun b hb => W24_of_ne m ρ c b fun w e => hb (Finset.mem_image.mpr ⟨w, Finset.mem_univ _, e⟩)
/-- After `hostOps10`. -/
abbrev W25 : Dev nD → Valuation τ sig (Elt F) := fun c => StableHlo.after hostOps10 (W24 m ρ c)
/-- Region 10 is entered at `W25` (read at the TensorCore's references: `V25`) and left at `W26`: its arrays at what
    the pipeline leaves (inputs as entered, the output's write-backs folded), every other buffer as entered. -/
abbrev V25 : (c : Dev nD) → (b : Ref sig .tc) → Buf (Elt F) ((c : Thread nD τ).loc b) := fun c b => W25 m ρ c b
def W26 (c : Dev nD) : Valuation τ sig (Elt F) :=
  Pipeline.withArrays spec10 c (W25 m ρ c) fun w => (dat10 (V25 m ρ) c).arrAt w cfg10.N
theorem W26_arr (c : Dev nD) (w : Fin cfg10.W) :
    W26 m ρ c (Proc.devRef .tc (Pipeline.arrRef spec10 w)) = (dat10 (V25 m ρ) c).arrAt w cfg10.N := by
  unfold W26; exact Pipeline.withArrays_arr spec10 launch10.win.arr_inj c _ _ w
theorem W26_of_ne (c : Dev nD) (b : Ref sig .tc) (hb : ∀ w, Pipeline.arrRef spec10 w ≠ b) :
    W26 m ρ c (Proc.devRef .tc b) = W25 m ρ c (Proc.devRef .tc b) := by
  unfold W26; exact Pipeline.withArrays_of_ne spec10 c _ _ b hb
abbrev V26 : (c : Dev nD) → (b : Ref sig .tc) → Buf (Elt F) ((c : Thread nD τ).loc b) := fun c b => W26 m ρ c b
theorem hF10 (c : Dev nD) (w : Fin cfg10.W) : (dat10 (V25 m ρ) c).arrAt w cfg10.N = V26 m ρ c (Pipeline.arrRef spec10 w) :=
  (W26_arr m ρ c w).symm
theorem hrest10 (c : Dev nD) : ∀ b, b ∉ Finset.univ.image (Pipeline.arrRef spec10) → V26 m ρ c b = V25 m ρ c b :=
  fun b hb => W26_of_ne m ρ c b fun w e => hb (Finset.mem_image.mpr ⟨w, Finset.mem_univ _, e⟩)
/-- After `hostOps11`. -/
abbrev W27 : Dev nD → Valuation τ sig (Elt F) := fun c => StableHlo.after hostOps11 (W26 m ρ c)
/-- Region 11 is entered at `W27` (read at the TensorCore's references: `V27`) and left at `W28`: its arrays at what
    the pipeline leaves (inputs as entered, the output's write-backs folded), every other buffer as entered. -/
abbrev V27 : (c : Dev nD) → (b : Ref sig .tc) → Buf (Elt F) ((c : Thread nD τ).loc b) := fun c b => W27 m ρ c b
def W28 (c : Dev nD) : Valuation τ sig (Elt F) :=
  Pipeline.withArrays spec11 c (W27 m ρ c) fun w => (dat11 (V27 m ρ) c).arrAt w cfg11.N
theorem W28_arr (c : Dev nD) (w : Fin cfg11.W) :
    W28 m ρ c (Proc.devRef .tc (Pipeline.arrRef spec11 w)) = (dat11 (V27 m ρ) c).arrAt w cfg11.N := by
  unfold W28; exact Pipeline.withArrays_arr spec11 launch11.win.arr_inj c _ _ w
theorem W28_of_ne (c : Dev nD) (b : Ref sig .tc) (hb : ∀ w, Pipeline.arrRef spec11 w ≠ b) :
    W28 m ρ c (Proc.devRef .tc b) = W27 m ρ c (Proc.devRef .tc b) := by
  unfold W28; exact Pipeline.withArrays_of_ne spec11 c _ _ b hb
abbrev V28 : (c : Dev nD) → (b : Ref sig .tc) → Buf (Elt F) ((c : Thread nD τ).loc b) := fun c b => W28 m ρ c b
theorem hF11 (c : Dev nD) (w : Fin cfg11.W) : (dat11 (V27 m ρ) c).arrAt w cfg11.N = V28 m ρ c (Pipeline.arrRef spec11 w) :=
  (W28_arr m ρ c w).symm
theorem hrest11 (c : Dev nD) : ∀ b, b ∉ Finset.univ.image (Pipeline.arrRef spec11) → V28 m ρ c b = V27 m ρ c b :=
  fun b hb => W28_of_ne m ρ c b fun w e => hb (Finset.mem_image.mpr ⟨w, Finset.mem_univ _, e⟩)
/-- After `hostOps12`. -/
abbrev W29 : Dev nD → Valuation τ sig (Elt F) := fun c => StableHlo.after hostOps12 (W28 m ρ c)
/-- Region 12 is entered at `W29` (read at the TensorCore's references: `V29`) and left at `W30`: its arrays at what
    the pipeline leaves (inputs as entered, the output's write-backs folded), every other buffer as entered. -/
abbrev V29 : (c : Dev nD) → (b : Ref sig .tc) → Buf (Elt F) ((c : Thread nD τ).loc b) := fun c b => W29 m ρ c b
def W30 (c : Dev nD) : Valuation τ sig (Elt F) :=
  Pipeline.withArrays spec12 c (W29 m ρ c) fun w => (dat12 (V29 m ρ) c).arrAt w cfg12.N
theorem W30_arr (c : Dev nD) (w : Fin cfg12.W) :
    W30 m ρ c (Proc.devRef .tc (Pipeline.arrRef spec12 w)) = (dat12 (V29 m ρ) c).arrAt w cfg12.N := by
  unfold W30; exact Pipeline.withArrays_arr spec12 launch12.win.arr_inj c _ _ w
theorem W30_of_ne (c : Dev nD) (b : Ref sig .tc) (hb : ∀ w, Pipeline.arrRef spec12 w ≠ b) :
    W30 m ρ c (Proc.devRef .tc b) = W29 m ρ c (Proc.devRef .tc b) := by
  unfold W30; exact Pipeline.withArrays_of_ne spec12 c _ _ b hb
abbrev V30 : (c : Dev nD) → (b : Ref sig .tc) → Buf (Elt F) ((c : Thread nD τ).loc b) := fun c b => W30 m ρ c b
theorem hF12 (c : Dev nD) (w : Fin cfg12.W) : (dat12 (V29 m ρ) c).arrAt w cfg12.N = V30 m ρ c (Pipeline.arrRef spec12 w) :=
  (W30_arr m ρ c w).symm
theorem hrest12 (c : Dev nD) : ∀ b, b ∉ Finset.univ.image (Pipeline.arrRef spec12) → V30 m ρ c b = V29 m ρ c b :=
  fun b hb => W30_of_ne m ρ c b fun w e => hb (Finset.mem_image.mpr ⟨w, Finset.mem_univ _, e⟩)
/-- After `hostOps13`. -/
abbrev W31 : Dev nD → Valuation τ sig (Elt F) := fun c => StableHlo.after hostOps13 (W30 m ρ c)
/-- Region 13 is entered at `W31` (read at the TensorCore's references: `V31`) and left at `W32`: its arrays at what
    the pipeline leaves (inputs as entered, the output's write-backs folded), every other buffer as entered. -/
abbrev V31 : (c : Dev nD) → (b : Ref sig .tc) → Buf (Elt F) ((c : Thread nD τ).loc b) := fun c b => W31 m ρ c b
def W32 (c : Dev nD) : Valuation τ sig (Elt F) :=
  Pipeline.withArrays spec13 c (W31 m ρ c) fun w => (dat13 (V31 m ρ) c).arrAt w cfg13.N
theorem W32_arr (c : Dev nD) (w : Fin cfg13.W) :
    W32 m ρ c (Proc.devRef .tc (Pipeline.arrRef spec13 w)) = (dat13 (V31 m ρ) c).arrAt w cfg13.N := by
  unfold W32; exact Pipeline.withArrays_arr spec13 launch13.win.arr_inj c _ _ w
theorem W32_of_ne (c : Dev nD) (b : Ref sig .tc) (hb : ∀ w, Pipeline.arrRef spec13 w ≠ b) :
    W32 m ρ c (Proc.devRef .tc b) = W31 m ρ c (Proc.devRef .tc b) := by
  unfold W32; exact Pipeline.withArrays_of_ne spec13 c _ _ b hb
abbrev V32 : (c : Dev nD) → (b : Ref sig .tc) → Buf (Elt F) ((c : Thread nD τ).loc b) := fun c b => W32 m ρ c b
theorem hF13 (c : Dev nD) (w : Fin cfg13.W) : (dat13 (V31 m ρ) c).arrAt w cfg13.N = V32 m ρ c (Pipeline.arrRef spec13 w) :=
  (W32_arr m ρ c w).symm
theorem hrest13 (c : Dev nD) : ∀ b, b ∉ Finset.univ.image (Pipeline.arrRef spec13) → V32 m ρ c b = V31 m ρ c b :=
  fun b hb => W32_of_ne m ρ c b fun w e => hb (Finset.mem_image.mpr ⟨w, Finset.mem_univ _, e⟩)
/-- After `hostOps14`. -/
abbrev W33 : Dev nD → Valuation τ sig (Elt F) := fun c => StableHlo.after hostOps14 (W32 m ρ c)
/-- Region 14 is entered at `W33` (read at the TensorCore's references: `V33`) and left at `W34`: its arrays at what
    the pipeline leaves (inputs as entered, the output's write-backs folded), every other buffer as entered. -/
abbrev V33 : (c : Dev nD) → (b : Ref sig .tc) → Buf (Elt F) ((c : Thread nD τ).loc b) := fun c b => W33 m ρ c b
def W34 (c : Dev nD) : Valuation τ sig (Elt F) :=
  Pipeline.withArrays spec14 c (W33 m ρ c) fun w => (dat14 (V33 m ρ) c).arrAt w cfg14.N
theorem W34_arr (c : Dev nD) (w : Fin cfg14.W) :
    W34 m ρ c (Proc.devRef .tc (Pipeline.arrRef spec14 w)) = (dat14 (V33 m ρ) c).arrAt w cfg14.N := by
  unfold W34; exact Pipeline.withArrays_arr spec14 launch14.win.arr_inj c _ _ w
theorem W34_of_ne (c : Dev nD) (b : Ref sig .tc) (hb : ∀ w, Pipeline.arrRef spec14 w ≠ b) :
    W34 m ρ c (Proc.devRef .tc b) = W33 m ρ c (Proc.devRef .tc b) := by
  unfold W34; exact Pipeline.withArrays_of_ne spec14 c _ _ b hb
abbrev V34 : (c : Dev nD) → (b : Ref sig .tc) → Buf (Elt F) ((c : Thread nD τ).loc b) := fun c b => W34 m ρ c b
theorem hF14 (c : Dev nD) (w : Fin cfg14.W) : (dat14 (V33 m ρ) c).arrAt w cfg14.N = V34 m ρ c (Pipeline.arrRef spec14 w) :=
  (W34_arr m ρ c w).symm
theorem hrest14 (c : Dev nD) : ∀ b, b ∉ Finset.univ.image (Pipeline.arrRef spec14) → V34 m ρ c b = V33 m ρ c b :=
  fun b hb => W34_of_ne m ρ c b fun w e => hb (Finset.mem_image.mpr ⟨w, Finset.mem_univ _, e⟩)
/-- After `hostOps15`. -/
abbrev W35 : Dev nD → Valuation τ sig (Elt F) := fun c => StableHlo.after hostOps15 (W34 m ρ c)
/-- After `hostOps15_1`. -/
abbrev W36 : Dev nD → Valuation τ sig (Elt F) := fun c => StableHlo.after hostOps15_1 (W35 m ρ c)
/-- After `hostOps15_2`. -/
abbrev W37 : Dev nD → Valuation τ sig (Elt F) := fun c => StableHlo.after hostOps15_2 (W36 m ρ c)
/-- After `hostOps15_3`. -/
abbrev W38 : Dev nD → Valuation τ sig (Elt F) := fun c => StableHlo.after hostOps15_3 (W37 m ρ c)
/-- After `hostOps15_4`. -/
abbrev W39 : Dev nD → Valuation τ sig (Elt F) := fun c => StableHlo.after hostOps15_4 (W38 m ρ c)
/-- Region 15 is entered at `W39` (read at the TensorCore's references: `V39`) and left at `W40`: its arrays at what
    the pipeline leaves (inputs as entered, the output's write-backs folded), every other buffer as entered. -/
abbrev V39 : (c : Dev nD) → (b : Ref sig .tc) → Buf (Elt F) ((c : Thread nD τ).loc b) := fun c b => W39 m ρ c b
def W40 (c : Dev nD) : Valuation τ sig (Elt F) :=
  Pipeline.withArrays spec15 c (W39 m ρ c) fun w => (dat15 (V39 m ρ) c).arrAt w cfg15.N
theorem W40_arr (c : Dev nD) (w : Fin cfg15.W) :
    W40 m ρ c (Proc.devRef .tc (Pipeline.arrRef spec15 w)) = (dat15 (V39 m ρ) c).arrAt w cfg15.N := by
  unfold W40; exact Pipeline.withArrays_arr spec15 launch15.win.arr_inj c _ _ w
theorem W40_of_ne (c : Dev nD) (b : Ref sig .tc) (hb : ∀ w, Pipeline.arrRef spec15 w ≠ b) :
    W40 m ρ c (Proc.devRef .tc b) = W39 m ρ c (Proc.devRef .tc b) := by
  unfold W40; exact Pipeline.withArrays_of_ne spec15 c _ _ b hb
abbrev V40 : (c : Dev nD) → (b : Ref sig .tc) → Buf (Elt F) ((c : Thread nD τ).loc b) := fun c b => W40 m ρ c b
theorem hF15 (c : Dev nD) (w : Fin cfg15.W) : (dat15 (V39 m ρ) c).arrAt w cfg15.N = V40 m ρ c (Pipeline.arrRef spec15 w) :=
  (W40_arr m ρ c w).symm
theorem hrest15 (c : Dev nD) : ∀ b, b ∉ Finset.univ.image (Pipeline.arrRef spec15) → V40 m ρ c b = V39 m ρ c b :=
  fun b hb => W40_of_ne m ρ c b fun w e => hb (Finset.mem_image.mpr ⟨w, Finset.mem_univ _, e⟩)
/-- After `hostOps16`. -/
abbrev W41 : Dev nD → Valuation τ sig (Elt F) := fun c => StableHlo.after hostOps16 (W40 m ρ c)
/-- Region 16 is entered at `W41` (read at the TensorCore's references: `V41`) and left at `W42`: its arrays at what
    the pipeline leaves (inputs as entered, the output's write-backs folded), every other buffer as entered. -/
abbrev V41 : (c : Dev nD) → (b : Ref sig .tc) → Buf (Elt F) ((c : Thread nD τ).loc b) := fun c b => W41 m ρ c b
def W42 (c : Dev nD) : Valuation τ sig (Elt F) :=
  Pipeline.withArrays spec16 c (W41 m ρ c) fun w => (dat16 (V41 m ρ) c).arrAt w cfg16.N
theorem W42_arr (c : Dev nD) (w : Fin cfg16.W) :
    W42 m ρ c (Proc.devRef .tc (Pipeline.arrRef spec16 w)) = (dat16 (V41 m ρ) c).arrAt w cfg16.N := by
  unfold W42; exact Pipeline.withArrays_arr spec16 launch16.win.arr_inj c _ _ w
theorem W42_of_ne (c : Dev nD) (b : Ref sig .tc) (hb : ∀ w, Pipeline.arrRef spec16 w ≠ b) :
    W42 m ρ c (Proc.devRef .tc b) = W41 m ρ c (Proc.devRef .tc b) := by
  unfold W42; exact Pipeline.withArrays_of_ne spec16 c _ _ b hb
abbrev V42 : (c : Dev nD) → (b : Ref sig .tc) → Buf (Elt F) ((c : Thread nD τ).loc b) := fun c b => W42 m ρ c b
theorem hF16 (c : Dev nD) (w : Fin cfg16.W) : (dat16 (V41 m ρ) c).arrAt w cfg16.N = V42 m ρ c (Pipeline.arrRef spec16 w) :=
  (W42_arr m ρ c w).symm
theorem hrest16 (c : Dev nD) : ∀ b, b ∉ Finset.univ.image (Pipeline.arrRef spec16) → V42 m ρ c b = V41 m ρ c b :=
  fun b hb => W42_of_ne m ρ c b fun w e => hb (Finset.mem_image.mpr ⟨w, Finset.mem_univ _, e⟩)
/-- After `hostOps17`. -/
abbrev W43 : Dev nD → Valuation τ sig (Elt F) := fun c => StableHlo.after hostOps17 (W42 m ρ c)
/-- Region 17 is entered at `W43` (read at the TensorCore's references: `V43`) and left at `W44`: its arrays at what
    the pipeline leaves (inputs as entered, the output's write-backs folded), every other buffer as entered. -/
abbrev V43 : (c : Dev nD) → (b : Ref sig .tc) → Buf (Elt F) ((c : Thread nD τ).loc b) := fun c b => W43 m ρ c b
def W44 (c : Dev nD) : Valuation τ sig (Elt F) :=
  Pipeline.withArrays spec17 c (W43 m ρ c) fun w => (dat17 (V43 m ρ) c).arrAt w cfg17.N
theorem W44_arr (c : Dev nD) (w : Fin cfg17.W) :
    W44 m ρ c (Proc.devRef .tc (Pipeline.arrRef spec17 w)) = (dat17 (V43 m ρ) c).arrAt w cfg17.N := by
  unfold W44; exact Pipeline.withArrays_arr spec17 launch17.win.arr_inj c _ _ w
theorem W44_of_ne (c : Dev nD) (b : Ref sig .tc) (hb : ∀ w, Pipeline.arrRef spec17 w ≠ b) :
    W44 m ρ c (Proc.devRef .tc b) = W43 m ρ c (Proc.devRef .tc b) := by
  unfold W44; exact Pipeline.withArrays_of_ne spec17 c _ _ b hb
abbrev V44 : (c : Dev nD) → (b : Ref sig .tc) → Buf (Elt F) ((c : Thread nD τ).loc b) := fun c b => W44 m ρ c b
theorem hF17 (c : Dev nD) (w : Fin cfg17.W) : (dat17 (V43 m ρ) c).arrAt w cfg17.N = V44 m ρ c (Pipeline.arrRef spec17 w) :=
  (W44_arr m ρ c w).symm
theorem hrest17 (c : Dev nD) : ∀ b, b ∉ Finset.univ.image (Pipeline.arrRef spec17) → V44 m ρ c b = V43 m ρ c b :=
  fun b hb => W44_of_ne m ρ c b fun w e => hb (Finset.mem_image.mpr ⟨w, Finset.mem_univ _, e⟩)
/-- After `hostOps18`. -/
abbrev W45 : Dev nD → Valuation τ sig (Elt F) := fun c => StableHlo.after hostOps18 (W44 m ρ c)
/-- Region 18 is entered at `W45` (read at the TensorCore's references: `V45`) and left at `W46`: its arrays at what
    the pipeline leaves (inputs as entered, the output's write-backs folded), every other buffer as entered. -/
abbrev V45 : (c : Dev nD) → (b : Ref sig .tc) → Buf (Elt F) ((c : Thread nD τ).loc b) := fun c b => W45 m ρ c b
def W46 (c : Dev nD) : Valuation τ sig (Elt F) :=
  Pipeline.withArrays spec18 c (W45 m ρ c) fun w => (dat18 (V45 m ρ) c).arrAt w cfg18.N
theorem W46_arr (c : Dev nD) (w : Fin cfg18.W) :
    W46 m ρ c (Proc.devRef .tc (Pipeline.arrRef spec18 w)) = (dat18 (V45 m ρ) c).arrAt w cfg18.N := by
  unfold W46; exact Pipeline.withArrays_arr spec18 launch18.win.arr_inj c _ _ w
theorem W46_of_ne (c : Dev nD) (b : Ref sig .tc) (hb : ∀ w, Pipeline.arrRef spec18 w ≠ b) :
    W46 m ρ c (Proc.devRef .tc b) = W45 m ρ c (Proc.devRef .tc b) := by
  unfold W46; exact Pipeline.withArrays_of_ne spec18 c _ _ b hb
abbrev V46 : (c : Dev nD) → (b : Ref sig .tc) → Buf (Elt F) ((c : Thread nD τ).loc b) := fun c b => W46 m ρ c b
theorem hF18 (c : Dev nD) (w : Fin cfg18.W) : (dat18 (V45 m ρ) c).arrAt w cfg18.N = V46 m ρ c (Pipeline.arrRef spec18 w) :=
  (W46_arr m ρ c w).symm
theorem hrest18 (c : Dev nD) : ∀ b, b ∉ Finset.univ.image (Pipeline.arrRef spec18) → V46 m ρ c b = V45 m ρ c b :=
  fun b hb => W46_of_ne m ρ c b fun w e => hb (Finset.mem_image.mpr ⟨w, Finset.mem_univ _, e⟩)
/-- After `hostOps19`. -/
abbrev W47 : Dev nD → Valuation τ sig (Elt F) := fun c => StableHlo.after hostOps19 (W46 m ρ c)
/-- Region 19 is entered at `W47` (read at the TensorCore's references: `V47`) and left at `W48`: its arrays at what
    the pipeline leaves (inputs as entered, the output's write-backs folded), every other buffer as entered. -/
abbrev V47 : (c : Dev nD) → (b : Ref sig .tc) → Buf (Elt F) ((c : Thread nD τ).loc b) := fun c b => W47 m ρ c b
def W48 (c : Dev nD) : Valuation τ sig (Elt F) :=
  Pipeline.withArrays spec19 c (W47 m ρ c) fun w => (dat19 (V47 m ρ) c).arrAt w cfg19.N
theorem W48_arr (c : Dev nD) (w : Fin cfg19.W) :
    W48 m ρ c (Proc.devRef .tc (Pipeline.arrRef spec19 w)) = (dat19 (V47 m ρ) c).arrAt w cfg19.N := by
  unfold W48; exact Pipeline.withArrays_arr spec19 launch19.win.arr_inj c _ _ w
theorem W48_of_ne (c : Dev nD) (b : Ref sig .tc) (hb : ∀ w, Pipeline.arrRef spec19 w ≠ b) :
    W48 m ρ c (Proc.devRef .tc b) = W47 m ρ c (Proc.devRef .tc b) := by
  unfold W48; exact Pipeline.withArrays_of_ne spec19 c _ _ b hb
abbrev V48 : (c : Dev nD) → (b : Ref sig .tc) → Buf (Elt F) ((c : Thread nD τ).loc b) := fun c b => W48 m ρ c b
theorem hF19 (c : Dev nD) (w : Fin cfg19.W) : (dat19 (V47 m ρ) c).arrAt w cfg19.N = V48 m ρ c (Pipeline.arrRef spec19 w) :=
  (W48_arr m ρ c w).symm
theorem hrest19 (c : Dev nD) : ∀ b, b ∉ Finset.univ.image (Pipeline.arrRef spec19) → V48 m ρ c b = V47 m ρ c b :=
  fun b hb => W48_of_ne m ρ c b fun w e => hb (Finset.mem_image.mpr ⟨w, Finset.mem_univ _, e⟩)
/-- After `hostOps20`. -/
abbrev W49 : Dev nD → Valuation τ sig (Elt F) := fun c => StableHlo.after hostOps20 (W48 m ρ c)
/-- Region 20 is entered at `W49` (read at the TensorCore's references: `V49`) and left at `W50`: its arrays at what
    the pipeline leaves (inputs as entered, the output's write-backs folded), every other buffer as entered. -/
abbrev V49 : (c : Dev nD) → (b : Ref sig .tc) → Buf (Elt F) ((c : Thread nD τ).loc b) := fun c b => W49 m ρ c b
def W50 (c : Dev nD) : Valuation τ sig (Elt F) :=
  Pipeline.withArrays spec20 c (W49 m ρ c) fun w => (dat20 (V49 m ρ) c).arrAt w cfg20.N
theorem W50_arr (c : Dev nD) (w : Fin cfg20.W) :
    W50 m ρ c (Proc.devRef .tc (Pipeline.arrRef spec20 w)) = (dat20 (V49 m ρ) c).arrAt w cfg20.N := by
  unfold W50; exact Pipeline.withArrays_arr spec20 launch20.win.arr_inj c _ _ w
theorem W50_of_ne (c : Dev nD) (b : Ref sig .tc) (hb : ∀ w, Pipeline.arrRef spec20 w ≠ b) :
    W50 m ρ c (Proc.devRef .tc b) = W49 m ρ c (Proc.devRef .tc b) := by
  unfold W50; exact Pipeline.withArrays_of_ne spec20 c _ _ b hb
abbrev V50 : (c : Dev nD) → (b : Ref sig .tc) → Buf (Elt F) ((c : Thread nD τ).loc b) := fun c b => W50 m ρ c b
theorem hF20 (c : Dev nD) (w : Fin cfg20.W) : (dat20 (V49 m ρ) c).arrAt w cfg20.N = V50 m ρ c (Pipeline.arrRef spec20 w) :=
  (W50_arr m ρ c w).symm
theorem hrest20 (c : Dev nD) : ∀ b, b ∉ Finset.univ.image (Pipeline.arrRef spec20) → V50 m ρ c b = V49 m ρ c b :=
  fun b hb => W50_of_ne m ρ c b fun w e => hb (Finset.mem_image.mpr ⟨w, Finset.mem_univ _, e⟩)
/-- After `hostOps21`. -/
abbrev W51 : Dev nD → Valuation τ sig (Elt F) := fun c => StableHlo.after hostOps21 (W50 m ρ c)
/-- Region 21 is entered at `W51` (read at the TensorCore's references: `V51`) and left at `W52`: its arrays at what
    the pipeline leaves (inputs as entered, the output's write-backs folded), every other buffer as entered. -/
abbrev V51 : (c : Dev nD) → (b : Ref sig .tc) → Buf (Elt F) ((c : Thread nD τ).loc b) := fun c b => W51 m ρ c b
def W52 (c : Dev nD) : Valuation τ sig (Elt F) :=
  Pipeline.withArrays spec21 c (W51 m ρ c) fun w => (dat21 (V51 m ρ) c).arrAt w cfg21.N
theorem W52_arr (c : Dev nD) (w : Fin cfg21.W) :
    W52 m ρ c (Proc.devRef .tc (Pipeline.arrRef spec21 w)) = (dat21 (V51 m ρ) c).arrAt w cfg21.N := by
  unfold W52; exact Pipeline.withArrays_arr spec21 launch21.win.arr_inj c _ _ w
theorem W52_of_ne (c : Dev nD) (b : Ref sig .tc) (hb : ∀ w, Pipeline.arrRef spec21 w ≠ b) :
    W52 m ρ c (Proc.devRef .tc b) = W51 m ρ c (Proc.devRef .tc b) := by
  unfold W52; exact Pipeline.withArrays_of_ne spec21 c _ _ b hb
abbrev V52 : (c : Dev nD) → (b : Ref sig .tc) → Buf (Elt F) ((c : Thread nD τ).loc b) := fun c b => W52 m ρ c b
theorem hF21 (c : Dev nD) (w : Fin cfg21.W) : (dat21 (V51 m ρ) c).arrAt w cfg21.N = V52 m ρ c (Pipeline.arrRef spec21 w) :=
  (W52_arr m ρ c w).symm
theorem hrest21 (c : Dev nD) : ∀ b, b ∉ Finset.univ.image (Pipeline.arrRef spec21) → V52 m ρ c b = V51 m ρ c b :=
  fun b hb => W52_of_ne m ρ c b fun w e => hb (Finset.mem_image.mpr ⟨w, Finset.mem_univ _, e⟩)
/-- After `hostOps22`. -/
abbrev W53 : Dev nD → Valuation τ sig (Elt F) := fun c => StableHlo.after hostOps22 (W52 m ρ c)
/-- Region 22 is entered at `W53` (read at the TensorCore's references: `V53`) and left at `W54`: its arrays at what
    the pipeline leaves (inputs as entered, the output's write-backs folded), every other buffer as entered. -/
abbrev V53 : (c : Dev nD) → (b : Ref sig .tc) → Buf (Elt F) ((c : Thread nD τ).loc b) := fun c b => W53 m ρ c b
def W54 (c : Dev nD) : Valuation τ sig (Elt F) :=
  Pipeline.withArrays spec22 c (W53 m ρ c) fun w => (dat22 (V53 m ρ) c).arrAt w cfg22.N
theorem W54_arr (c : Dev nD) (w : Fin cfg22.W) :
    W54 m ρ c (Proc.devRef .tc (Pipeline.arrRef spec22 w)) = (dat22 (V53 m ρ) c).arrAt w cfg22.N := by
  unfold W54; exact Pipeline.withArrays_arr spec22 launch22.win.arr_inj c _ _ w
theorem W54_of_ne (c : Dev nD) (b : Ref sig .tc) (hb : ∀ w, Pipeline.arrRef spec22 w ≠ b) :
    W54 m ρ c (Proc.devRef .tc b) = W53 m ρ c (Proc.devRef .tc b) := by
  unfold W54; exact Pipeline.withArrays_of_ne spec22 c _ _ b hb
abbrev V54 : (c : Dev nD) → (b : Ref sig .tc) → Buf (Elt F) ((c : Thread nD τ).loc b) := fun c b => W54 m ρ c b
theorem hF22 (c : Dev nD) (w : Fin cfg22.W) : (dat22 (V53 m ρ) c).arrAt w cfg22.N = V54 m ρ c (Pipeline.arrRef spec22 w) :=
  (W54_arr m ρ c w).symm
theorem hrest22 (c : Dev nD) : ∀ b, b ∉ Finset.univ.image (Pipeline.arrRef spec22) → V54 m ρ c b = V53 m ρ c b :=
  fun b hb => W54_of_ne m ρ c b fun w e => hb (Finset.mem_image.mpr ⟨w, Finset.mem_univ _, e⟩)
/-- After `hostOps23`. -/
abbrev W55 : Dev nD → Valuation τ sig (Elt F) := fun c => StableHlo.after hostOps23 (W54 m ρ c)
/-- Region 23 is entered at `W55` (read at the TensorCore's references: `V55`) and left at `W56`: its arrays at what
    the pipeline leaves (inputs as entered, the output's write-backs folded), every other buffer as entered. -/
abbrev V55 : (c : Dev nD) → (b : Ref sig .tc) → Buf (Elt F) ((c : Thread nD τ).loc b) := fun c b => W55 m ρ c b
def W56 (c : Dev nD) : Valuation τ sig (Elt F) :=
  Pipeline.withArrays spec23 c (W55 m ρ c) fun w => (dat23 (V55 m ρ) c).arrAt w cfg23.N
theorem W56_arr (c : Dev nD) (w : Fin cfg23.W) :
    W56 m ρ c (Proc.devRef .tc (Pipeline.arrRef spec23 w)) = (dat23 (V55 m ρ) c).arrAt w cfg23.N := by
  unfold W56; exact Pipeline.withArrays_arr spec23 launch23.win.arr_inj c _ _ w
theorem W56_of_ne (c : Dev nD) (b : Ref sig .tc) (hb : ∀ w, Pipeline.arrRef spec23 w ≠ b) :
    W56 m ρ c (Proc.devRef .tc b) = W55 m ρ c (Proc.devRef .tc b) := by
  unfold W56; exact Pipeline.withArrays_of_ne spec23 c _ _ b hb
abbrev V56 : (c : Dev nD) → (b : Ref sig .tc) → Buf (Elt F) ((c : Thread nD τ).loc b) := fun c b => W56 m ρ c b
theorem hF23 (c : Dev nD) (w : Fin cfg23.W) : (dat23 (V55 m ρ) c).arrAt w cfg23.N = V56 m ρ c (Pipeline.arrRef spec23 w) :=
  (W56_arr m ρ c w).symm
theorem hrest23 (c : Dev nD) : ∀ b, b ∉ Finset.univ.image (Pipeline.arrRef spec23) → V56 m ρ c b = V55 m ρ c b :=
  fun b hb => W56_of_ne m ρ c b fun w e => hb (Finset.mem_image.mpr ⟨w, Finset.mem_univ _, e⟩)
/-- After `hostOps24`. -/
abbrev W57 : Dev nD → Valuation τ sig (Elt F) := fun c => StableHlo.after hostOps24 (W56 m ρ c)
/-- Region 24 is entered at `W57` (read at the TensorCore's references: `V57`) and left at `W58`: its arrays at what
    the pipeline leaves (inputs as entered, the output's write-backs folded), every other buffer as entered. -/
abbrev V57 : (c : Dev nD) → (b : Ref sig .tc) → Buf (Elt F) ((c : Thread nD τ).loc b) := fun c b => W57 m ρ c b
def W58 (c : Dev nD) : Valuation τ sig (Elt F) :=
  Pipeline.withArrays spec24 c (W57 m ρ c) fun w => (dat24 (V57 m ρ) c).arrAt w cfg24.N
theorem W58_arr (c : Dev nD) (w : Fin cfg24.W) :
    W58 m ρ c (Proc.devRef .tc (Pipeline.arrRef spec24 w)) = (dat24 (V57 m ρ) c).arrAt w cfg24.N := by
  unfold W58; exact Pipeline.withArrays_arr spec24 launch24.win.arr_inj c _ _ w
theorem W58_of_ne (c : Dev nD) (b : Ref sig .tc) (hb : ∀ w, Pipeline.arrRef spec24 w ≠ b) :
    W58 m ρ c (Proc.devRef .tc b) = W57 m ρ c (Proc.devRef .tc b) := by
  unfold W58; exact Pipeline.withArrays_of_ne spec24 c _ _ b hb
abbrev V58 : (c : Dev nD) → (b : Ref sig .tc) → Buf (Elt F) ((c : Thread nD τ).loc b) := fun c b => W58 m ρ c b
theorem hF24 (c : Dev nD) (w : Fin cfg24.W) : (dat24 (V57 m ρ) c).arrAt w cfg24.N = V58 m ρ c (Pipeline.arrRef spec24 w) :=
  (W58_arr m ρ c w).symm
theorem hrest24 (c : Dev nD) : ∀ b, b ∉ Finset.univ.image (Pipeline.arrRef spec24) → V58 m ρ c b = V57 m ρ c b :=
  fun b hb => W58_of_ne m ρ c b fun w e => hb (Finset.mem_image.mpr ⟨w, Finset.mem_univ _, e⟩)
/-- After `hostOps25`. -/
abbrev W59 : Dev nD → Valuation τ sig (Elt F) := fun c => StableHlo.after hostOps25 (W58 m ρ c)
/-- After `hostOps25_1`. -/
abbrev W60 : Dev nD → Valuation τ sig (Elt F) := fun c => StableHlo.after hostOps25_1 (W59 m ρ c)
/-- After `hostOps25_2`. -/
abbrev W61 : Dev nD → Valuation τ sig (Elt F) := fun c => StableHlo.after hostOps25_2 (W60 m ρ c)
/-- After `hostOps25_3`. -/
abbrev W62 : Dev nD → Valuation τ sig (Elt F) := fun c => StableHlo.after hostOps25_3 (W61 m ρ c)
/-- After `hostOps25_4`. -/
abbrev W63 : Dev nD → Valuation τ sig (Elt F) := fun c => StableHlo.after hostOps25_4 (W62 m ρ c)
/-- Region 25 is entered at `W63` (read at the TensorCore's references: `V63`) and left at `W64`: its arrays at what
    the pipeline leaves (inputs as entered, the output's write-backs folded), every other buffer as entered. -/
abbrev V63 : (c : Dev nD) → (b : Ref sig .tc) → Buf (Elt F) ((c : Thread nD τ).loc b) := fun c b => W63 m ρ c b
def W64 (c : Dev nD) : Valuation τ sig (Elt F) :=
  Pipeline.withArrays spec25 c (W63 m ρ c) fun w => (dat25 (V63 m ρ) c).arrAt w cfg25.N
theorem W64_arr (c : Dev nD) (w : Fin cfg25.W) :
    W64 m ρ c (Proc.devRef .tc (Pipeline.arrRef spec25 w)) = (dat25 (V63 m ρ) c).arrAt w cfg25.N := by
  unfold W64; exact Pipeline.withArrays_arr spec25 launch25.win.arr_inj c _ _ w
theorem W64_of_ne (c : Dev nD) (b : Ref sig .tc) (hb : ∀ w, Pipeline.arrRef spec25 w ≠ b) :
    W64 m ρ c (Proc.devRef .tc b) = W63 m ρ c (Proc.devRef .tc b) := by
  unfold W64; exact Pipeline.withArrays_of_ne spec25 c _ _ b hb
abbrev V64 : (c : Dev nD) → (b : Ref sig .tc) → Buf (Elt F) ((c : Thread nD τ).loc b) := fun c b => W64 m ρ c b
theorem hF25 (c : Dev nD) (w : Fin cfg25.W) : (dat25 (V63 m ρ) c).arrAt w cfg25.N = V64 m ρ c (Pipeline.arrRef spec25 w) :=
  (W64_arr m ρ c w).symm
theorem hrest25 (c : Dev nD) : ∀ b, b ∉ Finset.univ.image (Pipeline.arrRef spec25) → V64 m ρ c b = V63 m ρ c b :=
  fun b hb => W64_of_ne m ρ c b fun w e => hb (Finset.mem_image.mpr ⟨w, Finset.mem_univ _, e⟩)
/-- After `hostOps26`. -/
abbrev W65 : Dev nD → Valuation τ sig (Elt F) := fun c => StableHlo.after hostOps26 (W64 m ρ c)
/-- Region 26 is entered at `W65` (read at the TensorCore's references: `V65`) and left at `W66`: its arrays at what
    the pipeline leaves (inputs as entered, the output's write-backs folded), every other buffer as entered. -/
abbrev V65 : (c : Dev nD) → (b : Ref sig .tc) → Buf (Elt F) ((c : Thread nD τ).loc b) := fun c b => W65 m ρ c b
def W66 (c : Dev nD) : Valuation τ sig (Elt F) :=
  Pipeline.withArrays spec26 c (W65 m ρ c) fun w => (dat26 (V65 m ρ) c).arrAt w cfg26.N
theorem W66_arr (c : Dev nD) (w : Fin cfg26.W) :
    W66 m ρ c (Proc.devRef .tc (Pipeline.arrRef spec26 w)) = (dat26 (V65 m ρ) c).arrAt w cfg26.N := by
  unfold W66; exact Pipeline.withArrays_arr spec26 launch26.win.arr_inj c _ _ w
theorem W66_of_ne (c : Dev nD) (b : Ref sig .tc) (hb : ∀ w, Pipeline.arrRef spec26 w ≠ b) :
    W66 m ρ c (Proc.devRef .tc b) = W65 m ρ c (Proc.devRef .tc b) := by
  unfold W66; exact Pipeline.withArrays_of_ne spec26 c _ _ b hb
abbrev V66 : (c : Dev nD) → (b : Ref sig .tc) → Buf (Elt F) ((c : Thread nD τ).loc b) := fun c b => W66 m ρ c b
theorem hF26 (c : Dev nD) (w : Fin cfg26.W) : (dat26 (V65 m ρ) c).arrAt w cfg26.N = V66 m ρ c (Pipeline.arrRef spec26 w) :=
  (W66_arr m ρ c w).symm
theorem hrest26 (c : Dev nD) : ∀ b, b ∉ Finset.univ.image (Pipeline.arrRef spec26) → V66 m ρ c b = V65 m ρ c b :=
  fun b hb => W66_of_ne m ρ c b fun w e => hb (Finset.mem_image.mpr ⟨w, Finset.mem_univ _, e⟩)
/-- After `hostOps27`. -/
abbrev W67 : Dev nD → Valuation τ sig (Elt F) := fun c => StableHlo.after hostOps27 (W66 m ρ c)
/-- Region 27 is entered at `W67` (read at the TensorCore's references: `V67`) and left at `W68`: its arrays at what
    the pipeline leaves (inputs as entered, the output's write-backs folded), every other buffer as entered. -/
abbrev V67 : (c : Dev nD) → (b : Ref sig .tc) → Buf (Elt F) ((c : Thread nD τ).loc b) := fun c b => W67 m ρ c b
def W68 (c : Dev nD) : Valuation τ sig (Elt F) :=
  Pipeline.withArrays spec27 c (W67 m ρ c) fun w => (dat27 (V67 m ρ) c).arrAt w cfg27.N
theorem W68_arr (c : Dev nD) (w : Fin cfg27.W) :
    W68 m ρ c (Proc.devRef .tc (Pipeline.arrRef spec27 w)) = (dat27 (V67 m ρ) c).arrAt w cfg27.N := by
  unfold W68; exact Pipeline.withArrays_arr spec27 launch27.win.arr_inj c _ _ w
theorem W68_of_ne (c : Dev nD) (b : Ref sig .tc) (hb : ∀ w, Pipeline.arrRef spec27 w ≠ b) :
    W68 m ρ c (Proc.devRef .tc b) = W67 m ρ c (Proc.devRef .tc b) := by
  unfold W68; exact Pipeline.withArrays_of_ne spec27 c _ _ b hb
abbrev V68 : (c : Dev nD) → (b : Ref sig .tc) → Buf (Elt F) ((c : Thread nD τ).loc b) := fun c b => W68 m ρ c b
theorem hF27 (c : Dev nD) (w : Fin cfg27.W) : (dat27 (V67 m ρ) c).arrAt w cfg27.N = V68 m ρ c (Pipeline.arrRef spec27 w) :=
  (W68_arr m ρ c w).symm
theorem hrest27 (c : Dev nD) : ∀ b, b ∉ Finset.univ.image (Pipeline.arrRef spec27) → V68 m ρ c b = V67 m ρ c b :=
  fun b hb => W68_of_ne m ρ c b fun w e => hb (Finset.mem_image.mpr ⟨w, Finset.mem_univ _, e⟩)
/-- After `hostOps28`. -/
abbrev W69 : Dev nD → Valuation τ sig (Elt F) := fun c => StableHlo.after hostOps28 (W68 m ρ c)
/-- Region 28 is entered at `W69` (read at the TensorCore's references: `V69`) and left at `W70`: its arrays at what
    the pipeline leaves (inputs as entered, the output's write-backs folded), every other buffer as entered. -/
abbrev V69 : (c : Dev nD) → (b : Ref sig .tc) → Buf (Elt F) ((c : Thread nD τ).loc b) := fun c b => W69 m ρ c b
def W70 (c : Dev nD) : Valuation τ sig (Elt F) :=
  Pipeline.withArrays spec28 c (W69 m ρ c) fun w => (dat28 (V69 m ρ) c).arrAt w cfg28.N
theorem W70_arr (c : Dev nD) (w : Fin cfg28.W) :
    W70 m ρ c (Proc.devRef .tc (Pipeline.arrRef spec28 w)) = (dat28 (V69 m ρ) c).arrAt w cfg28.N := by
  unfold W70; exact Pipeline.withArrays_arr spec28 launch28.win.arr_inj c _ _ w
theorem W70_of_ne (c : Dev nD) (b : Ref sig .tc) (hb : ∀ w, Pipeline.arrRef spec28 w ≠ b) :
    W70 m ρ c (Proc.devRef .tc b) = W69 m ρ c (Proc.devRef .tc b) := by
  unfold W70; exact Pipeline.withArrays_of_ne spec28 c _ _ b hb
abbrev V70 : (c : Dev nD) → (b : Ref sig .tc) → Buf (Elt F) ((c : Thread nD τ).loc b) := fun c b => W70 m ρ c b
theorem hF28 (c : Dev nD) (w : Fin cfg28.W) : (dat28 (V69 m ρ) c).arrAt w cfg28.N = V70 m ρ c (Pipeline.arrRef spec28 w) :=
  (W70_arr m ρ c w).symm
theorem hrest28 (c : Dev nD) : ∀ b, b ∉ Finset.univ.image (Pipeline.arrRef spec28) → V70 m ρ c b = V69 m ρ c b :=
  fun b hb => W70_of_ne m ρ c b fun w e => hb (Finset.mem_image.mpr ⟨w, Finset.mem_univ _, e⟩)
/-- After `hostOps29`. -/
abbrev W71 : Dev nD → Valuation τ sig (Elt F) := fun c => StableHlo.after hostOps29 (W70 m ρ c)
/-- Region 29 is entered at `W71` (read at the TensorCore's references: `V71`) and left at `W72`: its arrays at what
    the pipeline leaves (inputs as entered, the output's write-backs folded), every other buffer as entered. -/
abbrev V71 : (c : Dev nD) → (b : Ref sig .tc) → Buf (Elt F) ((c : Thread nD τ).loc b) := fun c b => W71 m ρ c b
def W72 (c : Dev nD) : Valuation τ sig (Elt F) :=
  Pipeline.withArrays spec29 c (W71 m ρ c) fun w => (dat29 (V71 m ρ) c).arrAt w cfg29.N
theorem W72_arr (c : Dev nD) (w : Fin cfg29.W) :
    W72 m ρ c (Proc.devRef .tc (Pipeline.arrRef spec29 w)) = (dat29 (V71 m ρ) c).arrAt w cfg29.N := by
  unfold W72; exact Pipeline.withArrays_arr spec29 launch29.win.arr_inj c _ _ w
theorem W72_of_ne (c : Dev nD) (b : Ref sig .tc) (hb : ∀ w, Pipeline.arrRef spec29 w ≠ b) :
    W72 m ρ c (Proc.devRef .tc b) = W71 m ρ c (Proc.devRef .tc b) := by
  unfold W72; exact Pipeline.withArrays_of_ne spec29 c _ _ b hb
abbrev V72 : (c : Dev nD) → (b : Ref sig .tc) → Buf (Elt F) ((c : Thread nD τ).loc b) := fun c b => W72 m ρ c b
theorem hF29 (c : Dev nD) (w : Fin cfg29.W) : (dat29 (V71 m ρ) c).arrAt w cfg29.N = V72 m ρ c (Pipeline.arrRef spec29 w) :=
  (W72_arr m ρ c w).symm
theorem hrest29 (c : Dev nD) : ∀ b, b ∉ Finset.univ.image (Pipeline.arrRef spec29) → V72 m ρ c b = V71 m ρ c b :=
  fun b hb => W72_of_ne m ρ c b fun w e => hb (Finset.mem_image.mpr ⟨w, Finset.mem_univ _, e⟩)
/-- After `hostOps30`. -/
abbrev W73 : Dev nD → Valuation τ sig (Elt F) := fun c => StableHlo.after hostOps30 (W72 m ρ c)
/-- Region 30 is entered at `W73` (read at the TensorCore's references: `V73`) and left at `W74`: its arrays at what
    the pipeline leaves (inputs as entered, the output's write-backs folded), every other buffer as entered. -/
abbrev V73 : (c : Dev nD) → (b : Ref sig .tc) → Buf (Elt F) ((c : Thread nD τ).loc b) := fun c b => W73 m ρ c b
def W74 (c : Dev nD) : Valuation τ sig (Elt F) :=
  Pipeline.withArrays spec30 c (W73 m ρ c) fun w => (dat30 (V73 m ρ) c).arrAt w cfg30.N
theorem W74_arr (c : Dev nD) (w : Fin cfg30.W) :
    W74 m ρ c (Proc.devRef .tc (Pipeline.arrRef spec30 w)) = (dat30 (V73 m ρ) c).arrAt w cfg30.N := by
  unfold W74; exact Pipeline.withArrays_arr spec30 launch30.win.arr_inj c _ _ w
theorem W74_of_ne (c : Dev nD) (b : Ref sig .tc) (hb : ∀ w, Pipeline.arrRef spec30 w ≠ b) :
    W74 m ρ c (Proc.devRef .tc b) = W73 m ρ c (Proc.devRef .tc b) := by
  unfold W74; exact Pipeline.withArrays_of_ne spec30 c _ _ b hb
abbrev V74 : (c : Dev nD) → (b : Ref sig .tc) → Buf (Elt F) ((c : Thread nD τ).loc b) := fun c b => W74 m ρ c b
theorem hF30 (c : Dev nD) (w : Fin cfg30.W) : (dat30 (V73 m ρ) c).arrAt w cfg30.N = V74 m ρ c (Pipeline.arrRef spec30 w) :=
  (W74_arr m ρ c w).symm
theorem hrest30 (c : Dev nD) : ∀ b, b ∉ Finset.univ.image (Pipeline.arrRef spec30) → V74 m ρ c b = V73 m ρ c b :=
  fun b hb => W74_of_ne m ρ c b fun w e => hb (Finset.mem_image.mpr ⟨w, Finset.mem_univ _, e⟩)
/-- After `hostOps31`. -/
abbrev W75 : Dev nD → Valuation τ sig (Elt F) := fun c => StableHlo.after hostOps31 (W74 m ρ c)
/-- Region 31 is entered at `W75` (read at the TensorCore's references: `V75`) and left at `W76`: its arrays at what
    the pipeline leaves (inputs as entered, the output's write-backs folded), every other buffer as entered. -/
abbrev V75 : (c : Dev nD) → (b : Ref sig .tc) → Buf (Elt F) ((c : Thread nD τ).loc b) := fun c b => W75 m ρ c b
def W76 (c : Dev nD) : Valuation τ sig (Elt F) :=
  Pipeline.withArrays spec31 c (W75 m ρ c) fun w => (dat31 (V75 m ρ) c).arrAt w cfg31.N
theorem W76_arr (c : Dev nD) (w : Fin cfg31.W) :
    W76 m ρ c (Proc.devRef .tc (Pipeline.arrRef spec31 w)) = (dat31 (V75 m ρ) c).arrAt w cfg31.N := by
  unfold W76; exact Pipeline.withArrays_arr spec31 launch31.win.arr_inj c _ _ w
theorem W76_of_ne (c : Dev nD) (b : Ref sig .tc) (hb : ∀ w, Pipeline.arrRef spec31 w ≠ b) :
    W76 m ρ c (Proc.devRef .tc b) = W75 m ρ c (Proc.devRef .tc b) := by
  unfold W76; exact Pipeline.withArrays_of_ne spec31 c _ _ b hb
abbrev V76 : (c : Dev nD) → (b : Ref sig .tc) → Buf (Elt F) ((c : Thread nD τ).loc b) := fun c b => W76 m ρ c b
theorem hF31 (c : Dev nD) (w : Fin cfg31.W) : (dat31 (V75 m ρ) c).arrAt w cfg31.N = V76 m ρ c (Pipeline.arrRef spec31 w) :=
  (W76_arr m ρ c w).symm
theorem hrest31 (c : Dev nD) : ∀ b, b ∉ Finset.univ.image (Pipeline.arrRef spec31) → V76 m ρ c b = V75 m ρ c b :=
  fun b hb => W76_of_ne m ρ c b fun w e => hb (Finset.mem_image.mpr ⟨w, Finset.mem_univ _, e⟩)
/-- After `hostOps32`. -/
abbrev W77 : Dev nD → Valuation τ sig (Elt F) := fun c => StableHlo.after hostOps32 (W76 m ρ c)
/-- Region 32 is entered at `W77` (read at the TensorCore's references: `V77`) and left at `W78`: its arrays at what
    the pipeline leaves (inputs as entered, the output's write-backs folded), every other buffer as entered. -/
abbrev V77 : (c : Dev nD) → (b : Ref sig .tc) → Buf (Elt F) ((c : Thread nD τ).loc b) := fun c b => W77 m ρ c b
def W78 (c : Dev nD) : Valuation τ sig (Elt F) :=
  Pipeline.withArrays spec32 c (W77 m ρ c) fun w => (dat32 (V77 m ρ) c).arrAt w cfg32.N
theorem W78_arr (c : Dev nD) (w : Fin cfg32.W) :
    W78 m ρ c (Proc.devRef .tc (Pipeline.arrRef spec32 w)) = (dat32 (V77 m ρ) c).arrAt w cfg32.N := by
  unfold W78; exact Pipeline.withArrays_arr spec32 launch32.win.arr_inj c _ _ w
theorem W78_of_ne (c : Dev nD) (b : Ref sig .tc) (hb : ∀ w, Pipeline.arrRef spec32 w ≠ b) :
    W78 m ρ c (Proc.devRef .tc b) = W77 m ρ c (Proc.devRef .tc b) := by
  unfold W78; exact Pipeline.withArrays_of_ne spec32 c _ _ b hb
abbrev V78 : (c : Dev nD) → (b : Ref sig .tc) → Buf (Elt F) ((c : Thread nD τ).loc b) := fun c b => W78 m ρ c b
theorem hF32 (c : Dev nD) (w : Fin cfg32.W) : (dat32 (V77 m ρ) c).arrAt w cfg32.N = V78 m ρ c (Pipeline.arrRef spec32 w) :=
  (W78_arr m ρ c w).symm
theorem hrest32 (c : Dev nD) : ∀ b, b ∉ Finset.univ.image (Pipeline.arrRef spec32) → V78 m ρ c b = V77 m ρ c b :=
  fun b hb => W78_of_ne m ρ c b fun w e => hb (Finset.mem_image.mpr ⟨w, Finset.mem_univ _, e⟩)
/-- After `hostOps33`. -/
abbrev W79 : Dev nD → Valuation τ sig (Elt F) := fun c => StableHlo.after hostOps33 (W78 m ρ c)
/-- Region 33 is entered at `W79` (read at the TensorCore's references: `V79`) and left at `W80`: its arrays at what
    the pipeline leaves (inputs as entered, the output's write-backs folded), every other buffer as entered. -/
abbrev V79 : (c : Dev nD) → (b : Ref sig .tc) → Buf (Elt F) ((c : Thread nD τ).loc b) := fun c b => W79 m ρ c b
def W80 (c : Dev nD) : Valuation τ sig (Elt F) :=
  Pipeline.withArrays spec33 c (W79 m ρ c) fun w => (dat33 (V79 m ρ) c).arrAt w cfg33.N
theorem W80_arr (c : Dev nD) (w : Fin cfg33.W) :
    W80 m ρ c (Proc.devRef .tc (Pipeline.arrRef spec33 w)) = (dat33 (V79 m ρ) c).arrAt w cfg33.N := by
  unfold W80; exact Pipeline.withArrays_arr spec33 launch33.win.arr_inj c _ _ w
theorem W80_of_ne (c : Dev nD) (b : Ref sig .tc) (hb : ∀ w, Pipeline.arrRef spec33 w ≠ b) :
    W80 m ρ c (Proc.devRef .tc b) = W79 m ρ c (Proc.devRef .tc b) := by
  unfold W80; exact Pipeline.withArrays_of_ne spec33 c _ _ b hb
abbrev V80 : (c : Dev nD) → (b : Ref sig .tc) → Buf (Elt F) ((c : Thread nD τ).loc b) := fun c b => W80 m ρ c b
theorem hF33 (c : Dev nD) (w : Fin cfg33.W) : (dat33 (V79 m ρ) c).arrAt w cfg33.N = V80 m ρ c (Pipeline.arrRef spec33 w) :=
  (W80_arr m ρ c w).symm
theorem hrest33 (c : Dev nD) : ∀ b, b ∉ Finset.univ.image (Pipeline.arrRef spec33) → V80 m ρ c b = V79 m ρ c b :=
  fun b hb => W80_of_ne m ρ c b fun w e => hb (Finset.mem_image.mpr ⟨w, Finset.mem_univ _, e⟩)
/-- After `hostOps34`. -/
abbrev W81 : Dev nD → Valuation τ sig (Elt F) := fun c => StableHlo.after hostOps34 (W80 m ρ c)
/-- Region 34 is entered at `W81` (read at the TensorCore's references: `V81`) and left at `W82`: its arrays at what
    the pipeline leaves (inputs as entered, the output's write-backs folded), every other buffer as entered. -/
abbrev V81 : (c : Dev nD) → (b : Ref sig .tc) → Buf (Elt F) ((c : Thread nD τ).loc b) := fun c b => W81 m ρ c b
def W82 (c : Dev nD) : Valuation τ sig (Elt F) :=
  Pipeline.withArrays spec34 c (W81 m ρ c) fun w => (dat34 (V81 m ρ) c).arrAt w cfg34.N
theorem W82_arr (c : Dev nD) (w : Fin cfg34.W) :
    W82 m ρ c (Proc.devRef .tc (Pipeline.arrRef spec34 w)) = (dat34 (V81 m ρ) c).arrAt w cfg34.N := by
  unfold W82; exact Pipeline.withArrays_arr spec34 launch34.win.arr_inj c _ _ w
theorem W82_of_ne (c : Dev nD) (b : Ref sig .tc) (hb : ∀ w, Pipeline.arrRef spec34 w ≠ b) :
    W82 m ρ c (Proc.devRef .tc b) = W81 m ρ c (Proc.devRef .tc b) := by
  unfold W82; exact Pipeline.withArrays_of_ne spec34 c _ _ b hb
abbrev V82 : (c : Dev nD) → (b : Ref sig .tc) → Buf (Elt F) ((c : Thread nD τ).loc b) := fun c b => W82 m ρ c b
theorem hF34 (c : Dev nD) (w : Fin cfg34.W) : (dat34 (V81 m ρ) c).arrAt w cfg34.N = V82 m ρ c (Pipeline.arrRef spec34 w) :=
  (W82_arr m ρ c w).symm
theorem hrest34 (c : Dev nD) : ∀ b, b ∉ Finset.univ.image (Pipeline.arrRef spec34) → V82 m ρ c b = V81 m ρ c b :=
  fun b hb => W82_of_ne m ρ c b fun w e => hb (Finset.mem_image.mpr ⟨w, Finset.mem_univ _, e⟩)
/-- After `hostOps35`. -/
abbrev W83 : Dev nD → Valuation τ sig (Elt F) := fun c => StableHlo.after hostOps35 (W82 m ρ c)
/-- After `hostOps35_1`. -/
abbrev W84 : Dev nD → Valuation τ sig (Elt F) := fun c => StableHlo.after hostOps35_1 (W83 m ρ c)
/-- After `hostOps35_2`. -/
abbrev W85 : Dev nD → Valuation τ sig (Elt F) := fun c => StableHlo.after hostOps35_2 (W84 m ρ c)
/-- After `hostOps35_3`. -/
abbrev W86 : Dev nD → Valuation τ sig (Elt F) := fun c => StableHlo.after hostOps35_3 (W85 m ρ c)
/-- After `hostOps35_4`. -/
abbrev W87 : Dev nD → Valuation τ sig (Elt F) := fun c => StableHlo.after hostOps35_4 (W86 m ρ c)
/-- Region 35 is entered at `W87` (read at the TensorCore's references: `V87`) and left at `W88`: its arrays at what
    the pipeline leaves (inputs as entered, the output's write-backs folded), every other buffer as entered. -/
abbrev V87 : (c : Dev nD) → (b : Ref sig .tc) → Buf (Elt F) ((c : Thread nD τ).loc b) := fun c b => W87 m ρ c b
def W88 (c : Dev nD) : Valuation τ sig (Elt F) :=
  Pipeline.withArrays spec35 c (W87 m ρ c) fun w => (dat35 (V87 m ρ) c).arrAt w cfg35.N
theorem W88_arr (c : Dev nD) (w : Fin cfg35.W) :
    W88 m ρ c (Proc.devRef .tc (Pipeline.arrRef spec35 w)) = (dat35 (V87 m ρ) c).arrAt w cfg35.N := by
  unfold W88; exact Pipeline.withArrays_arr spec35 launch35.win.arr_inj c _ _ w
theorem W88_of_ne (c : Dev nD) (b : Ref sig .tc) (hb : ∀ w, Pipeline.arrRef spec35 w ≠ b) :
    W88 m ρ c (Proc.devRef .tc b) = W87 m ρ c (Proc.devRef .tc b) := by
  unfold W88; exact Pipeline.withArrays_of_ne spec35 c _ _ b hb
abbrev V88 : (c : Dev nD) → (b : Ref sig .tc) → Buf (Elt F) ((c : Thread nD τ).loc b) := fun c b => W88 m ρ c b
theorem hF35 (c : Dev nD) (w : Fin cfg35.W) : (dat35 (V87 m ρ) c).arrAt w cfg35.N = V88 m ρ c (Pipeline.arrRef spec35 w) :=
  (W88_arr m ρ c w).symm
theorem hrest35 (c : Dev nD) : ∀ b, b ∉ Finset.univ.image (Pipeline.arrRef spec35) → V88 m ρ c b = V87 m ρ c b :=
  fun b hb => W88_of_ne m ρ c b fun w e => hb (Finset.mem_image.mpr ⟨w, Finset.mem_univ _, e⟩)
/-- After `hostOps36`. -/
abbrev W89 : Dev nD → Valuation τ sig (Elt F) := fun c => StableHlo.after hostOps36 (W88 m ρ c)
/-- Region 36 is entered at `W89` (read at the TensorCore's references: `V89`) and left at `W90`: its arrays at what
    the pipeline leaves (inputs as entered, the output's write-backs folded), every other buffer as entered. -/
abbrev V89 : (c : Dev nD) → (b : Ref sig .tc) → Buf (Elt F) ((c : Thread nD τ).loc b) := fun c b => W89 m ρ c b
def W90 (c : Dev nD) : Valuation τ sig (Elt F) :=
  Pipeline.withArrays spec36 c (W89 m ρ c) fun w => (dat36 (V89 m ρ) c).arrAt w cfg36.N
theorem W90_arr (c : Dev nD) (w : Fin cfg36.W) :
    W90 m ρ c (Proc.devRef .tc (Pipeline.arrRef spec36 w)) = (dat36 (V89 m ρ) c).arrAt w cfg36.N := by
  unfold W90; exact Pipeline.withArrays_arr spec36 launch36.win.arr_inj c _ _ w
theorem W90_of_ne (c : Dev nD) (b : Ref sig .tc) (hb : ∀ w, Pipeline.arrRef spec36 w ≠ b) :
    W90 m ρ c (Proc.devRef .tc b) = W89 m ρ c (Proc.devRef .tc b) := by
  unfold W90; exact Pipeline.withArrays_of_ne spec36 c _ _ b hb
abbrev V90 : (c : Dev nD) → (b : Ref sig .tc) → Buf (Elt F) ((c : Thread nD τ).loc b) := fun c b => W90 m ρ c b
theorem hF36 (c : Dev nD) (w : Fin cfg36.W) : (dat36 (V89 m ρ) c).arrAt w cfg36.N = V90 m ρ c (Pipeline.arrRef spec36 w) :=
  (W90_arr m ρ c w).symm
theorem hrest36 (c : Dev nD) : ∀ b, b ∉ Finset.univ.image (Pipeline.arrRef spec36) → V90 m ρ c b = V89 m ρ c b :=
  fun b hb => W90_of_ne m ρ c b fun w e => hb (Finset.mem_image.mpr ⟨w, Finset.mem_univ _, e⟩)
/-- After `hostOps37`. -/
abbrev W91 : Dev nD → Valuation τ sig (Elt F) := fun c => StableHlo.after hostOps37 (W90 m ρ c)
/-- Region 37 is entered at `W91` (read at the TensorCore's references: `V91`) and left at `W92`: its arrays at what
    the pipeline leaves (inputs as entered, the output's write-backs folded), every other buffer as entered. -/
abbrev V91 : (c : Dev nD) → (b : Ref sig .tc) → Buf (Elt F) ((c : Thread nD τ).loc b) := fun c b => W91 m ρ c b
def W92 (c : Dev nD) : Valuation τ sig (Elt F) :=
  Pipeline.withArrays spec37 c (W91 m ρ c) fun w => (dat37 (V91 m ρ) c).arrAt w cfg37.N
theorem W92_arr (c : Dev nD) (w : Fin cfg37.W) :
    W92 m ρ c (Proc.devRef .tc (Pipeline.arrRef spec37 w)) = (dat37 (V91 m ρ) c).arrAt w cfg37.N := by
  unfold W92; exact Pipeline.withArrays_arr spec37 launch37.win.arr_inj c _ _ w
theorem W92_of_ne (c : Dev nD) (b : Ref sig .tc) (hb : ∀ w, Pipeline.arrRef spec37 w ≠ b) :
    W92 m ρ c (Proc.devRef .tc b) = W91 m ρ c (Proc.devRef .tc b) := by
  unfold W92; exact Pipeline.withArrays_of_ne spec37 c _ _ b hb
abbrev V92 : (c : Dev nD) → (b : Ref sig .tc) → Buf (Elt F) ((c : Thread nD τ).loc b) := fun c b => W92 m ρ c b
theorem hF37 (c : Dev nD) (w : Fin cfg37.W) : (dat37 (V91 m ρ) c).arrAt w cfg37.N = V92 m ρ c (Pipeline.arrRef spec37 w) :=
  (W92_arr m ρ c w).symm
theorem hrest37 (c : Dev nD) : ∀ b, b ∉ Finset.univ.image (Pipeline.arrRef spec37) → V92 m ρ c b = V91 m ρ c b :=
  fun b hb => W92_of_ne m ρ c b fun w e => hb (Finset.mem_image.mpr ⟨w, Finset.mem_univ _, e⟩)
/-- After `hostOps38`. -/
abbrev W93 : Dev nD → Valuation τ sig (Elt F) := fun c => StableHlo.after hostOps38 (W92 m ρ c)
/-- Region 38 is entered at `W93` (read at the TensorCore's references: `V93`) and left at `W94`: its arrays at what
    the pipeline leaves (inputs as entered, the output's write-backs folded), every other buffer as entered. -/
abbrev V93 : (c : Dev nD) → (b : Ref sig .tc) → Buf (Elt F) ((c : Thread nD τ).loc b) := fun c b => W93 m ρ c b
def W94 (c : Dev nD) : Valuation τ sig (Elt F) :=
  Pipeline.withArrays spec38 c (W93 m ρ c) fun w => (dat38 (V93 m ρ) c).arrAt w cfg38.N
theorem W94_arr (c : Dev nD) (w : Fin cfg38.W) :
    W94 m ρ c (Proc.devRef .tc (Pipeline.arrRef spec38 w)) = (dat38 (V93 m ρ) c).arrAt w cfg38.N := by
  unfold W94; exact Pipeline.withArrays_arr spec38 launch38.win.arr_inj c _ _ w
theorem W94_of_ne (c : Dev nD) (b : Ref sig .tc) (hb : ∀ w, Pipeline.arrRef spec38 w ≠ b) :
    W94 m ρ c (Proc.devRef .tc b) = W93 m ρ c (Proc.devRef .tc b) := by
  unfold W94; exact Pipeline.withArrays_of_ne spec38 c _ _ b hb
abbrev V94 : (c : Dev nD) → (b : Ref sig .tc) → Buf (Elt F) ((c : Thread nD τ).loc b) := fun c b => W94 m ρ c b
theorem hF38 (c : Dev nD) (w : Fin cfg38.W) : (dat38 (V93 m ρ) c).arrAt w cfg38.N = V94 m ρ c (Pipeline.arrRef spec38 w) :=
  (W94_arr m ρ c w).symm
theorem hrest38 (c : Dev nD) : ∀ b, b ∉ Finset.univ.image (Pipeline.arrRef spec38) → V94 m ρ c b = V93 m ρ c b :=
  fun b hb => W94_of_ne m ρ c b fun w e => hb (Finset.mem_image.mpr ⟨w, Finset.mem_univ _, e⟩)
/-- After `hostOps39`. -/
abbrev W95 : Dev nD → Valuation τ sig (Elt F) := fun c => StableHlo.after hostOps39 (W94 m ρ c)
/-- Region 39 is entered at `W95` (read at the TensorCore's references: `V95`) and left at `W96`: its arrays at what
    the pipeline leaves (inputs as entered, the output's write-backs folded), every other buffer as entered. -/
abbrev V95 : (c : Dev nD) → (b : Ref sig .tc) → Buf (Elt F) ((c : Thread nD τ).loc b) := fun c b => W95 m ρ c b
def W96 (c : Dev nD) : Valuation τ sig (Elt F) :=
  Pipeline.withArrays spec39 c (W95 m ρ c) fun w => (dat39 (V95 m ρ) c).arrAt w cfg39.N
theorem W96_arr (c : Dev nD) (w : Fin cfg39.W) :
    W96 m ρ c (Proc.devRef .tc (Pipeline.arrRef spec39 w)) = (dat39 (V95 m ρ) c).arrAt w cfg39.N := by
  unfold W96; exact Pipeline.withArrays_arr spec39 launch39.win.arr_inj c _ _ w
theorem W96_of_ne (c : Dev nD) (b : Ref sig .tc) (hb : ∀ w, Pipeline.arrRef spec39 w ≠ b) :
    W96 m ρ c (Proc.devRef .tc b) = W95 m ρ c (Proc.devRef .tc b) := by
  unfold W96; exact Pipeline.withArrays_of_ne spec39 c _ _ b hb
abbrev V96 : (c : Dev nD) → (b : Ref sig .tc) → Buf (Elt F) ((c : Thread nD τ).loc b) := fun c b => W96 m ρ c b
theorem hF39 (c : Dev nD) (w : Fin cfg39.W) : (dat39 (V95 m ρ) c).arrAt w cfg39.N = V96 m ρ c (Pipeline.arrRef spec39 w) :=
  (W96_arr m ρ c w).symm
theorem hrest39 (c : Dev nD) : ∀ b, b ∉ Finset.univ.image (Pipeline.arrRef spec39) → V96 m ρ c b = V95 m ρ c b :=
  fun b hb => W96_of_ne m ρ c b fun w e => hb (Finset.mem_image.mpr ⟨w, Finset.mem_univ _, e⟩)
/-- After `hostOps40`. -/
abbrev W97 : Dev nD → Valuation τ sig (Elt F) := fun c => StableHlo.after hostOps40 (W96 m ρ c)
/-- Region 40 is entered at `W97` (read at the TensorCore's references: `V97`) and left at `W98`: its arrays at what
    the pipeline leaves (inputs as entered, the output's write-backs folded), every other buffer as entered. -/
abbrev V97 : (c : Dev nD) → (b : Ref sig .tc) → Buf (Elt F) ((c : Thread nD τ).loc b) := fun c b => W97 m ρ c b
def W98 (c : Dev nD) : Valuation τ sig (Elt F) :=
  Pipeline.withArrays spec40 c (W97 m ρ c) fun w => (dat40 (V97 m ρ) c).arrAt w cfg40.N
theorem W98_arr (c : Dev nD) (w : Fin cfg40.W) :
    W98 m ρ c (Proc.devRef .tc (Pipeline.arrRef spec40 w)) = (dat40 (V97 m ρ) c).arrAt w cfg40.N := by
  unfold W98; exact Pipeline.withArrays_arr spec40 launch40.win.arr_inj c _ _ w
theorem W98_of_ne (c : Dev nD) (b : Ref sig .tc) (hb : ∀ w, Pipeline.arrRef spec40 w ≠ b) :
    W98 m ρ c (Proc.devRef .tc b) = W97 m ρ c (Proc.devRef .tc b) := by
  unfold W98; exact Pipeline.withArrays_of_ne spec40 c _ _ b hb
abbrev V98 : (c : Dev nD) → (b : Ref sig .tc) → Buf (Elt F) ((c : Thread nD τ).loc b) := fun c b => W98 m ρ c b
theorem hF40 (c : Dev nD) (w : Fin cfg40.W) : (dat40 (V97 m ρ) c).arrAt w cfg40.N = V98 m ρ c (Pipeline.arrRef spec40 w) :=
  (W98_arr m ρ c w).symm
theorem hrest40 (c : Dev nD) : ∀ b, b ∉ Finset.univ.image (Pipeline.arrRef spec40) → V98 m ρ c b = V97 m ρ c b :=
  fun b hb => W98_of_ne m ρ c b fun w e => hb (Finset.mem_image.mpr ⟨w, Finset.mem_univ _, e⟩)
/-- After `hostOps41`. -/
abbrev W99 : Dev nD → Valuation τ sig (Elt F) := fun c => StableHlo.after hostOps41 (W98 m ρ c)
/-- Region 41 is entered at `W99` (read at the TensorCore's references: `V99`) and left at `W100`: its arrays at what
    the pipeline leaves (inputs as entered, the output's write-backs folded), every other buffer as entered. -/
abbrev V99 : (c : Dev nD) → (b : Ref sig .tc) → Buf (Elt F) ((c : Thread nD τ).loc b) := fun c b => W99 m ρ c b
def W100 (c : Dev nD) : Valuation τ sig (Elt F) :=
  Pipeline.withArrays spec41 c (W99 m ρ c) fun w => (dat41 (V99 m ρ) c).arrAt w cfg41.N
theorem W100_arr (c : Dev nD) (w : Fin cfg41.W) :
    W100 m ρ c (Proc.devRef .tc (Pipeline.arrRef spec41 w)) = (dat41 (V99 m ρ) c).arrAt w cfg41.N := by
  unfold W100; exact Pipeline.withArrays_arr spec41 launch41.win.arr_inj c _ _ w
theorem W100_of_ne (c : Dev nD) (b : Ref sig .tc) (hb : ∀ w, Pipeline.arrRef spec41 w ≠ b) :
    W100 m ρ c (Proc.devRef .tc b) = W99 m ρ c (Proc.devRef .tc b) := by
  unfold W100; exact Pipeline.withArrays_of_ne spec41 c _ _ b hb
abbrev V100 : (c : Dev nD) → (b : Ref sig .tc) → Buf (Elt F) ((c : Thread nD τ).loc b) := fun c b => W100 m ρ c b
theorem hF41 (c : Dev nD) (w : Fin cfg41.W) : (dat41 (V99 m ρ) c).arrAt w cfg41.N = V100 m ρ c (Pipeline.arrRef spec41 w) :=
  (W100_arr m ρ c w).symm
theorem hrest41 (c : Dev nD) : ∀ b, b ∉ Finset.univ.image (Pipeline.arrRef spec41) → V100 m ρ c b = V99 m ρ c b :=
  fun b hb => W100_of_ne m ρ c b fun w e => hb (Finset.mem_image.mpr ⟨w, Finset.mem_univ _, e⟩)
/-- After `hostOps42`. -/
abbrev W101 : Dev nD → Valuation τ sig (Elt F) := fun c => StableHlo.after hostOps42 (W100 m ρ c)
/-- Region 42 is entered at `W101` (read at the TensorCore's references: `V101`) and left at `W102`: its arrays at what
    the pipeline leaves (inputs as entered, the output's write-backs folded), every other buffer as entered. -/
abbrev V101 : (c : Dev nD) → (b : Ref sig .tc) → Buf (Elt F) ((c : Thread nD τ).loc b) := fun c b => W101 m ρ c b
def W102 (c : Dev nD) : Valuation τ sig (Elt F) :=
  Pipeline.withArrays spec42 c (W101 m ρ c) fun w => (dat42 (V101 m ρ) c).arrAt w cfg42.N
theorem W102_arr (c : Dev nD) (w : Fin cfg42.W) :
    W102 m ρ c (Proc.devRef .tc (Pipeline.arrRef spec42 w)) = (dat42 (V101 m ρ) c).arrAt w cfg42.N := by
  unfold W102; exact Pipeline.withArrays_arr spec42 launch42.win.arr_inj c _ _ w
theorem W102_of_ne (c : Dev nD) (b : Ref sig .tc) (hb : ∀ w, Pipeline.arrRef spec42 w ≠ b) :
    W102 m ρ c (Proc.devRef .tc b) = W101 m ρ c (Proc.devRef .tc b) := by
  unfold W102; exact Pipeline.withArrays_of_ne spec42 c _ _ b hb
abbrev V102 : (c : Dev nD) → (b : Ref sig .tc) → Buf (Elt F) ((c : Thread nD τ).loc b) := fun c b => W102 m ρ c b
theorem hF42 (c : Dev nD) (w : Fin cfg42.W) : (dat42 (V101 m ρ) c).arrAt w cfg42.N = V102 m ρ c (Pipeline.arrRef spec42 w) :=
  (W102_arr m ρ c w).symm
theorem hrest42 (c : Dev nD) : ∀ b, b ∉ Finset.univ.image (Pipeline.arrRef spec42) → V102 m ρ c b = V101 m ρ c b :=
  fun b hb => W102_of_ne m ρ c b fun w e => hb (Finset.mem_image.mpr ⟨w, Finset.mem_univ _, e⟩)
/-- After `hostOps43`. -/
abbrev W103 : Dev nD → Valuation τ sig (Elt F) := fun c => StableHlo.after hostOps43 (W102 m ρ c)
/-- After `hostOps43_1`. -/
abbrev W104 : Dev nD → Valuation τ sig (Elt F) := fun c => StableHlo.after hostOps43_1 (W103 m ρ c)
/-- After `hostOps43_2`. -/
abbrev W105 : Dev nD → Valuation τ sig (Elt F) := fun c => StableHlo.after hostOps43_2 (W104 m ρ c)
/-- After `hostOps43_3`. -/
abbrev W106 : Dev nD → Valuation τ sig (Elt F) := fun c => StableHlo.after hostOps43_3 (W105 m ρ c)
/-- After `hostOps43_4`. -/
abbrev W107 : Dev nD → Valuation τ sig (Elt F) := fun c => StableHlo.after hostOps43_4 (W106 m ρ c)
/-- After `hostOps43_5`. -/
abbrev W108 : Dev nD → Valuation τ sig (Elt F) := fun c => StableHlo.after hostOps43_5 (W107 m ρ c)
/-- After `hostOps43_6`. -/
abbrev W109 : Dev nD → Valuation τ sig (Elt F) := fun c => StableHlo.after hostOps43_6 (W108 m ρ c)
/-! # The proof data family and what rides beside the buffers -/

/-- No pipeline has a prefetched table. -/
abbrev adm : (p : Fin 43) → (pcfgs (F := F) p).Adm := fun p => (cfgs p).toPCfg_adm
/-- Every pipeline's proof data, each at its region's entry contents. -/
def pdats : (p : Fin 43) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V15 m ρ) c
  | ⟨6, _⟩ => fun c => dat6 (V17 m ρ) c
  | ⟨7, _⟩ => fun c => dat7 (V19 m ρ) c
  | ⟨8, _⟩ => fun c => dat8 (V21 m ρ) c
  | ⟨9, _⟩ => fun c => dat9 (V23 m ρ) c
  | ⟨10, _⟩ => fun c => dat10 (V25 m ρ) c
  | ⟨11, _⟩ => fun c => dat11 (V27 m ρ) c
  | ⟨12, _⟩ => fun c => dat12 (V29 m ρ) c
  | ⟨13, _⟩ => fun c => dat13 (V31 m ρ) c
  | ⟨14, _⟩ => fun c => dat14 (V33 m ρ) c
  | ⟨15, _⟩ => fun c => dat15 (V39 m ρ) c
  | ⟨16, _⟩ => fun c => dat16 (V41 m ρ) c
  | ⟨17, _⟩ => fun c => dat17 (V43 m ρ) c
  | ⟨18, _⟩ => fun c => dat18 (V45 m ρ) c
  | ⟨19, _⟩ => fun c => dat19 (V47 m ρ) c
  | ⟨20, _⟩ => fun c => dat20 (V49 m ρ) c
  | ⟨21, _⟩ => fun c => dat21 (V51 m ρ) c
  | ⟨22, _⟩ => fun c => dat22 (V53 m ρ) c
  | ⟨23, _⟩ => fun c => dat23 (V55 m ρ) c
  | ⟨24, _⟩ => fun c => dat24 (V57 m ρ) c
  | ⟨25, _⟩ => fun c => dat25 (V63 m ρ) c
  | ⟨26, _⟩ => fun c => dat26 (V65 m ρ) c
  | ⟨27, _⟩ => fun c => dat27 (V67 m ρ) c
  | ⟨28, _⟩ => fun c => dat28 (V69 m ρ) c
  | ⟨29, _⟩ => fun c => dat29 (V71 m ρ) c
  | ⟨30, _⟩ => fun c => dat30 (V73 m ρ) c
  | ⟨31, _⟩ => fun c => dat31 (V75 m ρ) c
  | ⟨32, _⟩ => fun c => dat32 (V77 m ρ) c
  | ⟨33, _⟩ => fun c => dat33 (V79 m ρ) c
  | ⟨34, _⟩ => fun c => dat34 (V81 m ρ) c
  | ⟨35, _⟩ => fun c => dat35 (V87 m ρ) c
  | ⟨36, _⟩ => fun c => dat36 (V89 m ρ) c
  | ⟨37, _⟩ => fun c => dat37 (V91 m ρ) c
  | ⟨38, _⟩ => fun c => dat38 (V93 m ρ) c
  | ⟨39, _⟩ => fun c => dat39 (V95 m ρ) c
  | ⟨40, _⟩ => fun c => dat40 (V97 m ρ) c
  | ⟨41, _⟩ => fun c => dat41 (V99 m ρ) c
  | ⟨42, _⟩ => fun c => dat42 (V101 m ρ) c
  | ⟨_ + 43, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every segment: the core's generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W109 m ρ c) ∗ ∃ r, prngReg c r)

/-! # No host operation allocates a buffer -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
theorem hostOps5_1_fresh : (hostOps5_1 : List (HloOp τ sig (Elt F))).Forall fun op => op.fresh = ∅ := by
  simp only [List.Forall]; repeat' constructor
theorem hostOps5_2_fresh : (hostOps5_2 : List (HloOp τ sig (Elt F))).Forall fun op => op.fresh = ∅ := by
  simp only [List.Forall]; repeat' constructor
theorem hostOps5_3_fresh : (hostOps5_3 : List (HloOp τ sig (Elt F))).Forall fun op => op.fresh = ∅ := by
  simp only [List.Forall]; repeat' constructor
theorem hostOps5_4_fresh : (hostOps5_4 : List (HloOp τ sig (Elt F))).Forall fun op => op.fresh = ∅ := by
  simp only [List.Forall]; repeat' constructor
theorem hostOps6_fresh : (hostOps6 : List (HloOp τ sig (Elt F))).Forall fun op => op.fresh = ∅ := by
  simp only [List.Forall]; repeat' constructor
theorem hostOps7_fresh : (hostOps7 : List (HloOp τ sig (Elt F))).Forall fun op => op.fresh = ∅ := by
  simp only [List.Forall]; repeat' constructor
theorem hostOps8_fresh : (hostOps8 : List (HloOp τ sig (Elt F))).Forall fun op => op.fresh = ∅ := by
  simp only [List.Forall]; repeat' constructor
theorem hostOps9_fresh : (hostOps9 : List (HloOp τ sig (Elt F))).Forall fun op => op.fresh = ∅ := by
  simp only [List.Forall]; repeat' constructor
theorem hostOps10_fresh : (hostOps10 : List (HloOp τ sig (Elt F))).Forall fun op => op.fresh = ∅ := by
  simp only [List.Forall]; repeat' constructor
theorem hostOps11_fresh : (hostOps11 : List (HloOp τ sig (Elt F))).Forall fun op => op.fresh = ∅ := by
  simp only [List.Forall]; repeat' constructor
theorem hostOps12_fresh : (hostOps12 : List (HloOp τ sig (Elt F))).Forall fun op => op.fresh = ∅ := by
  simp only [List.Forall]; repeat' constructor
theorem hostOps13_fresh : (hostOps13 : List (HloOp τ sig (Elt F))).Forall fun op => op.fresh = ∅ := by
  simp only [List.Forall]; repeat' constructor
theorem hostOps14_fresh : (hostOps14 : List (HloOp τ sig (Elt F))).Forall fun op => op.fresh = ∅ := by
  simp only [List.Forall]; repeat' constructor
theorem hostOps15_fresh : (hostOps15 : List (HloOp τ sig (Elt F))).Forall fun op => op.fresh = ∅ := by
  simp only [List.Forall]; repeat' constructor
theorem hostOps15_1_fresh : (hostOps15_1 : List (HloOp τ sig (Elt F))).Forall fun op => op.fresh = ∅ := by
  simp only [List.Forall]; repeat' constructor
theorem hostOps15_2_fresh : (hostOps15_2 : List (HloOp τ sig (Elt F))).Forall fun op => op.fresh = ∅ := by
  simp only [List.Forall]; repeat' constructor
theorem hostOps15_3_fresh : (hostOps15_3 : List (HloOp τ sig (Elt F))).Forall fun op => op.fresh = ∅ := by
  simp only [List.Forall]; repeat' constructor
theorem hostOps15_4_fresh : (hostOps15_4 : List (HloOp τ sig (Elt F))).Forall fun op => op.fresh = ∅ := by
  simp only [List.Forall]; repeat' constructor
theorem hostOps16_fresh : (hostOps16 : List (HloOp τ sig (Elt F))).Forall fun op => op.fresh = ∅ := by
  simp only [List.Forall]; repeat' constructor
theorem hostOps17_fresh : (hostOps17 : List (HloOp τ sig (Elt F))).Forall fun op => op.fresh = ∅ := by
  simp only [List.Forall]; repeat' constructor
theorem hostOps18_fresh : (hostOps18 : List (HloOp τ sig (Elt F))).Forall fun op => op.fresh = ∅ := by
  simp only [List.Forall]; repeat' constructor
theorem hostOps19_fresh : (hostOps19 : List (HloOp τ sig (Elt F))).Forall fun op => op.fresh = ∅ := by
  simp only [List.Forall]; repeat' constructor
theorem hostOps20_fresh : (hostOps20 : List (HloOp τ sig (Elt F))).Forall fun op => op.fresh = ∅ := by
  simp only [List.Forall]; repeat' constructor
theorem hostOps21_fresh : (hostOps21 : List (HloOp τ sig (Elt F))).Forall fun op => op.fresh = ∅ := by
  simp only [List.Forall]; repeat' constructor
theorem hostOps22_fresh : (hostOps22 : List (HloOp τ sig (Elt F))).Forall fun op => op.fresh = ∅ := by
  simp only [List.Forall]; repeat' constructor
theorem hostOps23_fresh : (hostOps23 : List (HloOp τ sig (Elt F))).Forall fun op => op.fresh = ∅ := by
  simp only [List.Forall]; repeat' constructor
theorem hostOps24_fresh : (hostOps24 : List (HloOp τ sig (Elt F))).Forall fun op => op.fresh = ∅ := by
  simp only [List.Forall]; repeat' constructor
theorem hostOps25_fresh : (hostOps25 : List (HloOp τ sig (Elt F))).Forall fun op => op.fresh = ∅ := by
  simp only [List.Forall]; repeat' constructor
theorem hostOps25_1_fresh : (hostOps25_1 : List (HloOp τ sig (Elt F))).Forall fun op => op.fresh = ∅ := by
  simp only [List.Forall]; repeat' constructor
theorem hostOps25_2_fresh : (hostOps25_2 : List (HloOp τ sig (Elt F))).Forall fun op => op.fresh = ∅ := by
  simp only [List.Forall]; repeat' constructor
theorem hostOps25_3_fresh : (hostOps25_3 : List (HloOp τ sig (Elt F))).Forall fun op => op.fresh = ∅ := by
  simp only [List.Forall]; repeat' constructor
theorem hostOps25_4_fresh : (hostOps25_4 : List (HloOp τ sig (Elt F))).Forall fun op => op.fresh = ∅ := by
  simp only [List.Forall]; repeat' constructor
theorem hostOps26_fresh : (hostOps26 : List (HloOp τ sig (Elt F))).Forall fun op => op.fresh = ∅ := by
  simp only [List.Forall]; repeat' constructor
theorem hostOps27_fresh : (hostOps27 : List (HloOp τ sig (Elt F))).Forall fun op => op.fresh = ∅ := by
  simp only [List.Forall]; repeat' constructor
theorem hostOps28_fresh : (hostOps28 : List (HloOp τ sig (Elt F))).Forall fun op => op.fresh = ∅ := by
  simp only [List.Forall]; repeat' constructor
theorem hostOps29_fresh : (hostOps29 : List (HloOp τ sig (Elt F))).Forall fun op => op.fresh = ∅ := by
  simp only [List.Forall]; repeat' constructor
theorem hostOps30_fresh : (hostOps30 : List (HloOp τ sig (Elt F))).Forall fun op => op.fresh = ∅ := by
  simp only [List.Forall]; repeat' constructor
theorem hostOps31_fresh : (hostOps31 : List (HloOp τ sig (Elt F))).Forall fun op => op.fresh = ∅ := by
  simp only [List.Forall]; repeat' constructor
theorem hostOps32_fresh : (hostOps32 : List (HloOp τ sig (Elt F))).Forall fun op => op.fresh = ∅ := by
  simp only [List.Forall]; repeat' constructor
theorem hostOps33_fresh : (hostOps33 : List (HloOp τ sig (Elt F))).Forall fun op => op.fresh = ∅ := by
  simp only [List.Forall]; repeat' constructor
theorem hostOps34_fresh : (hostOps34 : List (HloOp τ sig (Elt F))).Forall fun op => op.fresh = ∅ := by
  simp only [List.Forall]; repeat' constructor
theorem hostOps35_fresh : (hostOps35 : List (HloOp τ sig (Elt F))).Forall fun op => op.fresh = ∅ := by
  simp only [List.Forall]; repeat' constructor
theorem hostOps35_1_fresh : (hostOps35_1 : List (HloOp τ sig (Elt F))).Forall fun op => op.fresh = ∅ := by
  simp only [List.Forall]; repeat' constructor
theorem hostOps35_2_fresh : (hostOps35_2 : List (HloOp τ sig (Elt F))).Forall fun op => op.fresh = ∅ := by
  simp only [List.Forall]; repeat' constructor
theorem hostOps35_3_fresh : (hostOps35_3 : List (HloOp τ sig (Elt F))).Forall fun op => op.fresh = ∅ := by
  simp only [List.Forall]; repeat' constructor
theorem hostOps35_4_fresh : (hostOps35_4 : List (HloOp τ sig (Elt F))).Forall fun op => op.fresh = ∅ := by
  simp only [List.Forall]; repeat' constructor
theorem hostOps36_fresh : (hostOps36 : List (HloOp τ sig (Elt F))).Forall fun op => op.fresh = ∅ := by
  simp only [List.Forall]; repeat' constructor
theorem hostOps37_fresh : (hostOps37 : List (HloOp τ sig (Elt F))).Forall fun op => op.fresh = ∅ := by
  simp only [List.Forall]; repeat' constructor
theorem hostOps38_fresh : (hostOps38 : List (HloOp τ sig (Elt F))).Forall fun op => op.fresh = ∅ := by
  simp only [List.Forall]; repeat' constructor
theorem hostOps39_fresh : (hostOps39 : List (HloOp τ sig (Elt F))).Forall fun op => op.fresh = ∅ := by
  simp only [List.Forall]; repeat' constructor
theorem hostOps40_fresh : (hostOps40 : List (HloOp τ sig (Elt F))).Forall fun op => op.fresh = ∅ := by
  simp only [List.Forall]; repeat' constructor
theorem hostOps41_fresh : (hostOps41 : List (HloOp τ sig (Elt F))).Forall fun op => op.fresh = ∅ := by
  simp only [List.Forall]; repeat' constructor
theorem hostOps42_fresh : (hostOps42 : List (HloOp τ sig (Elt F))).Forall fun op => op.fresh = ∅ := by
  simp only [List.Forall]; repeat' constructor
theorem hostOps43_fresh : (hostOps43 : List (HloOp τ sig (Elt F))).Forall fun op => op.fresh = ∅ := by
  simp only [List.Forall]; repeat' constructor
theorem hostOps43_1_fresh : (hostOps43_1 : List (HloOp τ sig (Elt F))).Forall fun op => op.fresh = ∅ := by
  simp only [List.Forall]; repeat' constructor
theorem hostOps43_2_fresh : (hostOps43_2 : List (HloOp τ sig (Elt F))).Forall fun op => op.fresh = ∅ := by
  simp only [List.Forall]; repeat' constructor
theorem hostOps43_3_fresh : (hostOps43_3 : List (HloOp τ sig (Elt F))).Forall fun op => op.fresh = ∅ := by
  simp only [List.Forall]; repeat' constructor
theorem hostOps43_4_fresh : (hostOps43_4 : List (HloOp τ sig (Elt F))).Forall fun op => op.fresh = ∅ := by
  simp only [List.Forall]; repeat' constructor
theorem hostOps43_5_fresh : (hostOps43_5 : List (HloOp τ sig (Elt F))).Forall fun op => op.fresh = ∅ := by
  simp only [List.Forall]; repeat' constructor
theorem hostOps43_6_fresh : (hostOps43_6 : List (HloOp τ sig (Elt F))).Forall fun op => op.fresh = ∅ := by
  simp only [List.Forall]; repeat' constructor

end Cert.KernelIdeal.Reg

end
-- ==== Proof.KI.Reg0.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 0 as a segment of @main over the thread state "every unscoped buffer at the boundary's contents, the
    generator register at some state, nothing owed": entered at `W1`, left at `W2`. Its arrays are split out of the
    unscoped buffers on entry and put back at the exit contents; the generator register goes into the pipeline's
    invariant and comes back; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg1.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 1 as a segment of @main over the thread state "every unscoped buffer at the boundary's contents, the
    generator register at some state, nothing owed": entered at `W3`, left at `W4`. Its arrays are split out of the
    unscoped buffers on entry and put back at the exit contents; the generator register goes into the pipeline's
    invariant and comes back; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg2.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 2 as a segment of @main over the thread state "every unscoped buffer at the boundary's contents, the
    generator register at some state, nothing owed": entered at `W5`, left at `W6`. Its arrays are split out of the
    unscoped buffers on entry and put back at the exit contents; the generator register goes into the pipeline's
    invariant and comes back; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg3.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 3 as a segment of @main over the thread state "every unscoped buffer at the boundary's contents, the
    generator register at some state, nothing owed": entered at `W7`, left at `W8`. Its arrays are split out of the
    unscoped buffers on entry and put back at the exit contents; the generator register goes into the pipeline's
    invariant and comes back; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg4.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 4 as a segment of @main over the thread state "every unscoped buffer at the boundary's contents, the
    generator register at some state, nothing owed": entered at `W9`, left at `W10`. Its arrays are split out of the
    unscoped buffers on entry and put back at the exit contents; the generator register goes into the pipeline's
    invariant and comes back; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg5.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 5 as a segment of @main over the thread state "every unscoped buffer at the boundary's contents, the
    generator register at some state, nothing owed": entered at `W15`, left at `W16`. Its arrays are split out of the
    unscoped buffers on entry and put back at the exit contents; the generator register goes into the pipeline's
    invariant and comes back; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V15 m ρ) c).loose
  hwaits := Pipeline.hwaits_of_owed_zero _ _ _ _ L lv 5 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec5 c (V15 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V15 m ρ c) (V16 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg6.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 6 as a segment of @main over the thread state "every unscoped buffer at the boundary's contents, the
    generator register at some state, nothing owed": entered at `W17`, left at `W18`. Its arrays are split out of the
    unscoped buffers on entry and put back at the exit contents; the generator register goes into the pipeline's
    invariant and comes back; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V17 m ρ) c).loose
  hwaits := Pipeline.hwaits_of_owed_zero _ _ _ _ L lv 6 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec6 c (V17 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V17 m ρ c) (V18 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg7.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 7 as a segment of @main over the thread state "every unscoped buffer at the boundary's contents, the
    generator register at some state, nothing owed": entered at `W19`, left at `W20`. Its arrays are split out of the
    unscoped buffers on entry and put back at the exit contents; the generator register goes into the pipeline's
    invariant and comes back; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V19 m ρ) c).loose
  hwaits := Pipeline.hwaits_of_owed_zero _ _ _ _ L lv 7 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec7 c (V19 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V19 m ρ c) (V20 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg8.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 8 as a segment of @main over the thread state "every unscoped buffer at the boundary's contents, the
    generator register at some state, nothing owed": entered at `W21`, left at `W22`. Its arrays are split out of the
    unscoped buffers on entry and put back at the exit contents; the generator register goes into the pipeline's
    invariant and comes back; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V21 m ρ) c).loose
  hwaits := Pipeline.hwaits_of_owed_zero _ _ _ _ L lv 8 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec8 c (V21 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V21 m ρ c) (V22 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg9.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 9 as a segment of @main over the thread state "every unscoped buffer at the boundary's contents, the
    generator register at some state, nothing owed": entered at `W23`, left at `W24`. Its arrays are split out of the
    unscoped buffers on entry and put back at the exit contents; the generator register goes into the pipeline's
    invariant and comes back; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V23 m ρ) c).loose
  hwaits := Pipeline.hwaits_of_owed_zero _ _ _ _ L lv 9 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec9 c (V23 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V23 m ρ c) (V24 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg10.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 10 as a segment of @main over the thread state "every unscoped buffer at the boundary's contents, the
    generator register at some state, nothing owed": entered at `W25`, left at `W26`. Its arrays are split out of the
    unscoped buffers on entry and put back at the exit contents; the generator register goes into the pipeline's
    invariant and comes back; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V25 m ρ) c).loose
  hwaits := Pipeline.hwaits_of_owed_zero _ _ _ _ L lv 10 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec10 c (V25 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V25 m ρ c) (V26 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg11.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 11 as a segment of @main over the thread state "every unscoped buffer at the boundary's contents, the
    generator register at some state, nothing owed": entered at `W27`, left at `W28`. Its arrays are split out of the
    unscoped buffers on entry and put back at the exit contents; the generator register goes into the pipeline's
    invariant and comes back; the kernel has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V27 m ρ) c).loose
  hwaits := Pipeline.hwaits_of_owed_zero _ _ _ _ L lv 11 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec11 c (V27 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V27 m ρ c) (V28 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg12.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 12 as a segment of @main over the thread state "every unscoped buffer at the boundary's contents, the
    generator register at some state, nothing owed": entered at `W29`, left at `W30`. Its arrays are split out of the
    unscoped buffers on entry and put back at the exit contents; the generator register goes into the pipeline's
    invariant and comes back; the kernel has no semaphore of its own. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V29 m ρ) c).loose
  hwaits := Pipeline.hwaits_of_owed_zero _ _ _ _ L lv 12 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec12 c (V29 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V29 m ρ c) (V30 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg13.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 13 as a segment of @main over the thread state "every unscoped buffer at the boundary's contents, the
    generator register at some state, nothing owed": entered at `W31`, left at `W32`. Its arrays are split out of the
    unscoped buffers on entry and put back at the exit contents; the generator register goes into the pipeline's
    invariant and comes back; the kernel has no semaphore of its own. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V31 m ρ) c).loose
  hwaits := Pipeline.hwaits_of_owed_zero _ _ _ _ L lv 13 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec13 c (V31 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V31 m ρ c) (V32 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg14.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 14 as a segment of @main over the thread state "every unscoped buffer at the boundary's contents, the
    generator register at some state, nothing owed": entered at `W33`, left at `W34`. Its arrays are split out of the
    unscoped buffers on entry and put back at the exit contents; the generator register goes into the pipeline's
    invariant and comes back; the kernel has no semaphore of its own. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V33 m ρ) c).loose
  hwaits := Pipeline.hwaits_of_owed_zero _ _ _ _ L lv 14 fun _ _ => rfl
  pre c := iprop(StableHlo.held (c : Thread nD τ) (Pipeline.ucRefs τ sig) (W33 m ρ c) ∗ R c)
  post c := iprop(StableHlo.held (c : Thread nD τ) (Pipeline.ucRefs τ sig) (W34 m ρ c) ∗ R c)
  X c := iprop(∃ r, prngReg c r)
  Y c := iprop(∃ r, prngReg c r)
  Z c := Pipeline.unscopedRest (Ix := Unit) (Name := ℕ) (U := UR sig nD τ) (Lvl := ℕ) spec14 c (V33 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V33 m ρ c) (V34 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg15.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 15 as a segment of @main over the thread state "every unscoped buffer at the boundary's contents, the
    generator register at some state, nothing owed": entered at `W39`, left at `W40`. Its arrays are split out of the
    unscoped buffers on entry and put back at the exit contents; the generator register goes into the pipeline's
    invariant and comes back; the kernel has no semaphore of its own. -/
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V39 m ρ) c).loose
  hwaits := Pipeline.hwaits_of_owed_zero _ _ _ _ L lv 15 fun _ _ => rfl
  pre c := iprop(StableHlo.held (c : Thread nD τ) (Pipeline.ucRefs τ sig) (W39 m ρ c) ∗ R c)
  post c := iprop(StableHlo.held (c : Thread nD τ) (Pipeline.ucRefs τ sig) (W40 m ρ c) ∗ R c)
  X c := iprop(∃ r, prngReg c r)
  Y c := iprop(∃ r, prngReg c r)
  Z c := Pipeline.unscopedRest (Ix := Unit) (Name := ℕ) (U := UR sig nD τ) (Lvl := ℕ) spec15 c (V39 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V39 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V39 m ρ c) (V40 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg16.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 16 as a segment of @main over the thread state "every unscoped buffer at the boundary's contents, the
    generator register at some state, nothing owed": entered at `W41`, left at `W42`. Its arrays are split out of the
    unscoped buffers on entry and put back at the exit contents; the generator register goes into the pipeline's
    invariant and comes back; the kernel has no semaphore of its own. -/
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V41 m ρ) c).loose
  hwaits := Pipeline.hwaits_of_owed_zero _ _ _ _ L lv 16 fun _ _ => rfl
  pre c := iprop(StableHlo.held (c : Thread nD τ) (Pipeline.ucRefs τ sig) (W41 m ρ c) ∗ R c)
  post c := iprop(StableHlo.held (c : Thread nD τ) (Pipeline.ucRefs τ sig) (W42 m ρ c) ∗ R c)
  X c := iprop(∃ r, prngReg c r)
  Y c := iprop(∃ r, prngReg c r)
  Z c := Pipeline.unscopedRest (Ix := Unit) (Name := ℕ) (U := UR sig nD τ) (Lvl := ℕ) spec16 c (V41 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (V41 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m ρ 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (V41 m ρ c) (V42 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg17.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 17 as a segment of @main over the thread state "every unscoped buffer at the boundary's contents, the
    generator register at some state, nothing owed": entered at `W43`, left at `W44`. Its arrays are split out of the
    unscoped buffers on entry and put back at the exit contents; the generator register goes into the pipeline's
    invariant and comes back; the kernel has no semaphore of its own. -/
def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (V43 m ρ) c).loose
  hwaits := Pipeline.hwaits_of_owed_zero _ _ _ _ L lv 17 fun _ _ => rfl
  pre c := iprop(StableHlo.held (c : Thread nD τ) (Pipeline.ucRefs τ sig) (W43 m ρ c) ∗ R c)
  post c := iprop(StableHlo.held (c : Thread nD τ) (Pipeline.ucRefs τ sig) (W44 m ρ c) ∗ R c)
  X c := iprop(∃ r, prngReg c r)
  Y c := iprop(∃ r, prngReg c r)
  Z c := Pipeline.unscopedRest (Ix := Unit) (Name := ℕ) (U := UR sig nD τ) (Lvl := ℕ) spec17 c (V43 m ρ c)
  hentry c := by
    rw [Pipeline.ownSems0_none]
    have hsplit := Pipeline.arrays_of_unscopedBufs (p := 17) (pcfgs (F := F)) adm (pdats m ρ) launch17.win launch17.arr_whole c
      ((pdats m ρ 17 c).share_full fun _ => rfl) (V43 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m ρ 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (V43 m ρ c) (V44 m ρ c) ((pdats m ρ 17 c).arrAt · cfg17.N) (hF17 m ρ c) (hrest17 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg18.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 18 as a segment of @main over the thread state "every unscoped buffer at the boundary's contents, the
    generator register at some state, nothing owed": entered at `W45`, left at `W46`. Its arrays are split out of the
    unscoped buffers on entry and put back at the exit contents; the generator register goes into the pipeline's
    invariant and comes back; the kernel has no semaphore of its own. -/
def reg18 : Pipeline.RegionSeg (pcfgs (F := F)) adm (pdats m ρ) () defs₀ 𝒱₀ L lv 18 where
  win := launch18.win.to₀
  block_pos := launch18.block_pos
  stage_whole := launch18.stage_whole
  K := PEmpty
  osem k := k.elim
  ho := Pipeline.OwnSemFacts.none _
  hbody c := (body_obligation18 (V45 m ρ) c).loose
  hwaits := Pipeline.hwaits_of_owed_zero _ _ _ _ L lv 18 fun _ _ => rfl
  pre c := iprop(StableHlo.held (c : Thread nD τ) (Pipeline.ucRefs τ sig) (W45 m ρ c) ∗ R c)
  post c := iprop(StableHlo.held (c : Thread nD τ) (Pipeline.ucRefs τ sig) (W46 m ρ c) ∗ R c)
  X c := iprop(∃ r, prngReg c r)
  Y c := iprop(∃ r, prngReg c r)
  Z c := Pipeline.unscopedRest (Ix := Unit) (Name := ℕ) (U := UR sig nD τ) (Lvl := ℕ) spec18 c (V45 m ρ c)
  hentry c := by
    rw [Pipeline.ownSems0_none]
    have hsplit := Pipeline.arrays_of_unscopedBufs (p := 18) (pcfgs (F := F)) adm (pdats m ρ) launch18.win launch18.arr_whole c
      ((pdats m ρ 18 c).share_full fun _ => rfl) (V45 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m ρ 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m ρ) ((pdats m ρ 18 c).share_full fun _ => rfl)
      (V45 m ρ c) (V46 m ρ c) ((pdats m ρ 18 c).arrAt · cfg18.N) (hF18 m ρ c) (hrest18 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg19.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 19 as a segment of @main over the thread state "every unscoped buffer at the boundary's contents, the
    generator register at some state, nothing owed": entered at `W47`, left at `W48`. Its arrays are split out of the
    unscoped buffers on entry and put back at the exit contents; the generator register goes into the pipeline's
    invariant and comes back; the kernel has no semaphore of its own. -/
def reg19 : Pipeline.RegionSeg (pcfgs (F := F)) adm (pdats m ρ) () defs₀ 𝒱₀ L lv 19 where
  win := launch19.win.to₀
  block_pos := launch19.block_pos
  stage_whole := launch19.stage_whole
  K := PEmpty
  osem k := k.elim
  ho := Pipeline.OwnSemFacts.none _
  hbody c := (body_obligation19 (V47 m ρ) c).loose
  hwaits := Pipeline.hwaits_of_owed_zero _ _ _ _ L lv 19 fun _ _ => rfl
  pre c := iprop(StableHlo.held (c : Thread nD τ) (Pipeline.ucRefs τ sig) (W47 m ρ c) ∗ R c)
  post c := iprop(StableHlo.held (c : Thread nD τ) (Pipeline.ucRefs τ sig) (W48 m ρ c) ∗ R c)
  X c := iprop(∃ r, prngReg c r)
  Y c := iprop(∃ r, prngReg c r)
  Z c := Pipeline.unscopedRest (Ix := Unit) (Name := ℕ) (U := UR sig nD τ) (Lvl := ℕ) spec19 c (V47 m ρ c)
  hentry c := by
    rw [Pipeline.ownSems0_none]
    have hsplit := Pipeline.arrays_of_unscopedBufs (p := 19) (pcfgs (F := F)) adm (pdats m ρ) launch19.win launch19.arr_whole c
      ((pdats m ρ 19 c).share_full fun _ => rfl) (V47 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m ρ 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m ρ) ((pdats m ρ 19 c).share_full fun _ => rfl)
      (V47 m ρ c) (V48 m ρ c) ((pdats m ρ 19 c).arrAt · cfg19.N) (hF19 m ρ c) (hrest19 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg20.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 20 as a segment of @main over the thread state "every unscoped buffer at the boundary's contents, the
    generator register at some state, nothing owed": entered at `W49`, left at `W50`. Its arrays are split out of the
    unscoped buffers on entry and put back at the exit contents; the generator register goes into the pipeline's
    invariant and comes back; the kernel has no semaphore of its own. -/
def reg20 : Pipeline.RegionSeg (pcfgs (F := F)) adm (pdats m ρ) () defs₀ 𝒱₀ L lv 20 where
  win := launch20.win.to₀
  block_pos := launch20.block_pos
  stage_whole := launch20.stage_whole
  K := PEmpty
  osem k := k.elim
  ho := Pipeline.OwnSemFacts.none _
  hbody c := (body_obligation20 (V49 m ρ) c).loose
  hwaits := Pipeline.hwaits_of_owed_zero _ _ _ _ L lv 20 fun _ _ => rfl
  pre c := iprop(StableHlo.held (c : Thread nD τ) (Pipeline.ucRefs τ sig) (W49 m ρ c) ∗ R c)
  post c := iprop(StableHlo.held (c : Thread nD τ) (Pipeline.ucRefs τ sig) (W50 m ρ c) ∗ R c)
  X c := iprop(∃ r, prngReg c r)
  Y c := iprop(∃ r, prngReg c r)
  Z c := Pipeline.unscopedRest (Ix := Unit) (Name := ℕ) (U := UR sig nD τ) (Lvl := ℕ) spec20 c (V49 m ρ c)
  hentry c := by
    rw [Pipeline.ownSems0_none]
    have hsplit := Pipeline.arrays_of_unscopedBufs (p := 20) (pcfgs (F := F)) adm (pdats m ρ) launch20.win launch20.arr_whole c
      ((pdats m ρ 20 c).share_full fun _ => rfl) (V49 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m ρ 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (pdats m ρ) ((pdats m ρ 20 c).share_full fun _ => rfl)
      (V49 m ρ c) (V50 m ρ c) ((pdats m ρ 20 c).arrAt · cfg20.N) (hF20 m ρ c) (hrest20 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg21.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 21 as a segment of @main over the thread state "every unscoped buffer at the boundary's contents, the
    generator register at some state, nothing owed": entered at `W51`, left at `W52`. Its arrays are split out of the
    unscoped buffers on entry and put back at the exit contents; the generator register goes into the pipeline's
    invariant and comes back; the kernel has no semaphore of its own. -/
def reg21 : Pipeline.RegionSeg (pcfgs (F := F)) adm (pdats m ρ) () defs₀ 𝒱₀ L lv 21 where
  win := launch21.win.to₀
  block_pos := launch21.block_pos
  stage_whole := launch21.stage_whole
  K := PEmpty
  osem k := k.elim
  ho := Pipeline.OwnSemFacts.none _
  hbody c := (body_obligation21 (V51 m ρ) c).loose
  hwaits := Pipeline.hwaits_of_owed_zero _ _ _ _ L lv 21 fun _ _ => rfl
  pre c := iprop(StableHlo.held (c : Thread nD τ) (Pipeline.ucRefs τ sig) (W51 m ρ c) ∗ R c)
  post c := iprop(StableHlo.held (c : Thread nD τ) (Pipeline.ucRefs τ sig) (W52 m ρ c) ∗ R c)
  X c := iprop(∃ r, prngReg c r)
  Y c := iprop(∃ r, prngReg c r)
  Z c := Pipeline.unscopedRest (Ix := Unit) (Name := ℕ) (U := UR sig nD τ) (Lvl := ℕ) spec21 c (V51 m ρ c)
  hentry c := by
    rw [Pipeline.ownSems0_none]
    have hsplit := Pipeline.arrays_of_unscopedBufs (p := 21) (pcfgs (F := F)) adm (pdats m ρ) launch21.win launch21.arr_whole c
      ((pdats m ρ 21 c).share_full fun _ => rfl) (V51 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m ρ 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) adm (Ix := Unit) (Name := ℕ) (U := UR sig nD τ) (Lvl := ℕ)
      launch21.win launch21.arr_whole c (pdats m ρ) ((pdats m ρ 21 c).share_full fun _ => rfl)
      (V51 m ρ c) (V52 m ρ c) ((pdats m ρ 21 c).arrAt · cfg21.N) (hF21 m ρ c) (hrest21 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg22.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 22 as a segment of @main over the thread state "every unscoped buffer at the boundary's contents, the
    generator register at some state, nothing owed": entered at `W53`, left at `W54`. Its arrays are split out of the
    unscoped buffers on entry and put back at the exit contents; the generator register goes into the pipeline's
    invariant and comes back; the kernel has no semaphore of its own. -/
def reg22 : Pipeline.RegionSeg (pcfgs (F := F)) adm (pdats m ρ) () defs₀ 𝒱₀ L lv 22 where
  win := launch22.win.to₀
  block_pos := launch22.block_pos
  stage_whole := launch22.stage_whole
  K := PEmpty
  osem k := k.elim
  ho := Pipeline.OwnSemFacts.none _
  hbody c := (body_obligation22 (V53 m ρ) c).loose
  hwaits := Pipeline.hwaits_of_owed_zero _ _ _ _ L lv 22 fun _ _ => rfl
  pre c := iprop(StableHlo.held (c : Thread nD τ) (Pipeline.ucRefs τ sig) (W53 m ρ c) ∗ R c)
  post c := iprop(StableHlo.held (c : Thread nD τ) (Pipeline.ucRefs τ sig) (W54 m ρ c) ∗ R c)
  X c := iprop(∃ r, prngReg c r)
  Y c := iprop(∃ r, prngReg c r)
  Z c := Pipeline.unscopedRest (Ix := Unit) (Name := ℕ) (U := UR sig nD τ) (Lvl := ℕ) spec22 c (V53 m ρ c)
  hentry c := by
    rw [Pipeline.ownSems0_none]
    have hsplit := Pipeline.arrays_of_unscopedBufs (p := 22) (pcfgs (F := F)) adm (pdats m ρ) launch22.win launch22.arr_whole c
      ((pdats m ρ 22 c).share_full fun _ => rfl) (V53 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m ρ 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) adm (Ix := Unit) (Name := ℕ) (U := UR sig nD τ) (Lvl := ℕ)
      launch22.win launch22.arr_whole c (pdats m ρ) ((pdats m ρ 22 c).share_full fun _ => rfl)
      (V53 m ρ c) (V54 m ρ c) ((pdats m ρ 22 c).arrAt · cfg22.N) (hF22 m ρ c) (hrest22 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg23.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 23 as a segment of @main over the thread state "every unscoped buffer at the boundary's contents, the
    generator register at some state, nothing owed": entered at `W55`, left at `W56`. Its arrays are split out of the
    unscoped buffers on entry and put back at the exit contents; the generator register goes into the pipeline's
    invariant and comes back; the kernel has no semaphore of its own. -/
def reg23 : Pipeline.RegionSeg (pcfgs (F := F)) adm (pdats m ρ) () defs₀ 𝒱₀ L lv 23 where
  win := launch23.win.to₀
  block_pos := launch23.block_pos
  stage_whole := launch23.stage_whole
  K := PEmpty
  osem k := k.elim
  ho := Pipeline.OwnSemFacts.none _
  hbody c := (body_obligation23 (V55 m ρ) c).loose
  hwaits := Pipeline.hwaits_of_owed_zero _ _ _ _ L lv 23 fun _ _ => rfl
  pre c := iprop(StableHlo.held (c : Thread nD τ) (Pipeline.ucRefs τ sig) (W55 m ρ c) ∗ R c)
  post c := iprop(StableHlo.held (c : Thread nD τ) (Pipeline.ucRefs τ sig) (W56 m ρ c) ∗ R c)
  X c := iprop(∃ r, prngReg c r)
  Y c := iprop(∃ r, prngReg c r)
  Z c := Pipeline.unscopedRest (Ix := Unit) (Name := ℕ) (U := UR sig nD τ) (Lvl := ℕ) spec23 c (V55 m ρ c)
  hentry c := by
    rw [Pipeline.ownSems0_none]
    have hsplit := Pipeline.arrays_of_unscopedBufs (p := 23) (pcfgs (F := F)) adm (pdats m ρ) launch23.win launch23.arr_whole c
      ((pdats m ρ 23 c).share_full fun _ => rfl) (V55 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 23 c).Φ 0 = Pipeline.ΦA spec23 c from rfl]; unfold Pipeline.ΦA
    iintro ⟨Hp, -, Hr⟩
    isplitl [Hr]; · iexact Hr
    iexact Hp
  hout c := by
    rw [Pipeline.ownSems0_none, show (pdats m ρ 23 c).Φ (Fin.last _) = Pipeline.ΦA spec23 c from rfl]; unfold Pipeline.ΦA
    iintro ⟨Hr, Hp⟩
    isplitl [Hp]; · iexact Hp
    isplitr; · iempintro
    iexact Hr
  hexit c := by
    have hjoin := Pipeline.unscopedBufs_of_arrays (p := 23) (pcfgs (F := F)) adm (Ix := Unit) (Name := ℕ) (U := UR sig nD τ) (Lvl := ℕ)
      launch23.win launch23.arr_whole c (pdats m ρ) ((pdats m ρ 23 c).share_full fun _ => rfl)
      (V55 m ρ c) (V56 m ρ c) ((pdats m ρ 23 c).arrAt · cfg23.N) (hF23 m ρ c) (hrest23 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg24.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 24 as a segment of @main over the thread state "every unscoped buffer at the boundary's contents, the
    generator register at some state, nothing owed": entered at `W57`, left at `W58`. Its arrays are split out of the
    unscoped buffers on entry and put back at the exit contents; the generator register goes into the pipeline's
    invariant and comes back; the kernel has no semaphore of its own. -/
def reg24 : Pipeline.RegionSeg (pcfgs (F := F)) adm (pdats m ρ) () defs₀ 𝒱₀ L lv 24 where
  win := launch24.win.to₀
  block_pos := launch24.block_pos
  stage_whole := launch24.stage_whole
  K := PEmpty
  osem k := k.elim
  ho := Pipeline.OwnSemFacts.none _
  hbody c := (body_obligation24 (V57 m ρ) c).loose
  hwaits := Pipeline.hwaits_of_owed_zero _ _ _ _ L lv 24 fun _ _ => rfl
  pre c := iprop(StableHlo.held (c : Thread nD τ) (Pipeline.ucRefs τ sig) (W57 m ρ c) ∗ R c)
  post c := iprop(StableHlo.held (c : Thread nD τ) (Pipeline.ucRefs τ sig) (W58 m ρ c) ∗ R c)
  X c := iprop(∃ r, prngReg c r)
  Y c := iprop(∃ r, prngReg c r)
  Z c := Pipeline.unscopedRest (Ix := Unit) (Name := ℕ) (U := UR sig nD τ) (Lvl := ℕ) spec24 c (V57 m ρ c)
  hentry c := by
    rw [Pipeline.ownSems0_none]
    have hsplit := Pipeline.arrays_of_unscopedBufs (p := 24) (pcfgs (F := F)) adm (pdats m ρ) launch24.win launch24.arr_whole c
      ((pdats m ρ 24 c).share_full fun _ => rfl) (V57 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 24 c).Φ 0 = Pipeline.ΦA spec24 c from rfl]; unfold Pipeline.ΦA
    iintro ⟨Hp, -, Hr⟩
    isplitl [Hr]; · iexact Hr
    iexact Hp
  hout c := by
    rw [Pipeline.ownSems0_none, show (pdats m ρ 24 c).Φ (Fin.last _) = Pipeline.ΦA spec24 c from rfl]; unfold Pipeline.ΦA
    iintro ⟨Hr, Hp⟩
    isplitl [Hp]; · iexact Hp
    isplitr; · iempintro
    iexact Hr
  hexit c := by
    have hjoin := Pipeline.unscopedBufs_of_arrays (p := 24) (pcfgs (F := F)) adm (Ix := Unit) (Name := ℕ) (U := UR sig nD τ) (Lvl := ℕ)
      launch24.win launch24.arr_whole c (pdats m ρ) ((pdats m ρ 24 c).share_full fun _ => rfl)
      (V57 m ρ c) (V58 m ρ c) ((pdats m ρ 24 c).arrAt · cfg24.N) (hF24 m ρ c) (hrest24 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg25.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 25 as a segment of @main over the thread state "every unscoped buffer at the boundary's contents, the
    generator register at some state, nothing owed": entered at `W63`, left at `W64`. Its arrays are split out of the
    unscoped buffers on entry and put back at the exit contents; the generator register goes into the pipeline's
    invariant and comes back; the kernel has no semaphore of its own. -/
def reg25 : Pipeline.RegionSeg (pcfgs (F := F)) adm (pdats m ρ) () defs₀ 𝒱₀ L lv 25 where
  win := launch25.win.to₀
  block_pos := launch25.block_pos
  stage_whole := launch25.stage_whole
  K := PEmpty
  osem k := k.elim
  ho := Pipeline.OwnSemFacts.none _
  hbody c := (body_obligation25 (V63 m ρ) c).loose
  hwaits := Pipeline.hwaits_of_owed_zero _ _ _ _ L lv 25 fun _ _ => rfl
  pre c := iprop(StableHlo.held (c : Thread nD τ) (Pipeline.ucRefs τ sig) (W63 m ρ c) ∗ R c)
  post c := iprop(StableHlo.held (c : Thread nD τ) (Pipeline.ucRefs τ sig) (W64 m ρ c) ∗ R c)
  X c := iprop(∃ r, prngReg c r)
  Y c := iprop(∃ r, prngReg c r)
  Z c := Pipeline.unscopedRest (Ix := Unit) (Name := ℕ) (U := UR sig nD τ) (Lvl := ℕ) spec25 c (V63 m ρ c)
  hentry c := by
    rw [Pipeline.ownSems0_none]
    have hsplit := Pipeline.arrays_of_unscopedBufs (p := 25) (pcfgs (F := F)) adm (pdats m ρ) launch25.win launch25.arr_whole c
      ((pdats m ρ 25 c).share_full fun _ => rfl) (V63 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 25 c).Φ 0 = Pipeline.ΦA spec25 c from rfl]; unfold Pipeline.ΦA
    iintro ⟨Hp, -, Hr⟩
    isplitl [Hr]; · iexact Hr
    iexact Hp
  hout c := by
    rw [Pipeline.ownSems0_none, show (pdats m ρ 25 c).Φ (Fin.last _) = Pipeline.ΦA spec25 c from rfl]; unfold Pipeline.ΦA
    iintro ⟨Hr, Hp⟩
    isplitl [Hp]; · iexact Hp
    isplitr; · iempintro
    iexact Hr
  hexit c := by
    have hjoin := Pipeline.unscopedBufs_of_arrays (p := 25) (pcfgs (F := F)) adm (Ix := Unit) (Name := ℕ) (U := UR sig nD τ) (Lvl := ℕ)
      launch25.win launch25.arr_whole c (pdats m ρ) ((pdats m ρ 25 c).share_full fun _ => rfl)
      (V63 m ρ c) (V64 m ρ c) ((pdats m ρ 25 c).arrAt · cfg25.N) (hF25 m ρ c) (hrest25 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg26.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 26 as a segment of @main over the thread state "every unscoped buffer at the boundary's contents, the
    generator register at some state, nothing owed": entered at `W65`, left at `W66`. Its arrays are split out of the
    unscoped buffers on entry and put back at the exit contents; the generator register goes into the pipeline's
    invariant and comes back; the kernel has no semaphore of its own. -/
def reg26 : Pipeline.RegionSeg (pcfgs (F := F)) adm (pdats m ρ) () defs₀ 𝒱₀ L lv 26 where
  win := launch26.win.to₀
  block_pos := launch26.block_pos
  stage_whole := launch26.stage_whole
  K := PEmpty
  osem k := k.elim
  ho := Pipeline.OwnSemFacts.none _
  hbody c := (body_obligation26 (V65 m ρ) c).loose
  hwaits := Pipeline.hwaits_of_owed_zero _ _ _ _ L lv 26 fun _ _ => rfl
  pre c := iprop(StableHlo.held (c : Thread nD τ) (Pipeline.ucRefs τ sig) (W65 m ρ c) ∗ R c)
  post c := iprop(StableHlo.held (c : Thread nD τ) (Pipeline.ucRefs τ sig) (W66 m ρ c) ∗ R c)
  X c := iprop(∃ r, prngReg c r)
  Y c := iprop(∃ r, prngReg c r)
  Z c := Pipeline.unscopedRest (Ix := Unit) (Name := ℕ) (U := UR sig nD τ) (Lvl := ℕ) spec26 c (V65 m ρ c)
  hentry c := by
    rw [Pipeline.ownSems0_none]
    have hsplit := Pipeline.arrays_of_unscopedBufs (p := 26) (pcfgs (F := F)) adm (pdats m ρ) launch26.win launch26.arr_whole c
      ((pdats m ρ 26 c).share_full fun _ => rfl) (V65 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 26 c).Φ 0 = Pipeline.ΦA spec26 c from rfl]; unfold Pipeline.ΦA
    iintro ⟨Hp, -, Hr⟩
    isplitl [Hr]; · iexact Hr
    iexact Hp
  hout c := by
    rw [Pipeline.ownSems0_none, show (pdats m ρ 26 c).Φ (Fin.last _) = Pipeline.ΦA spec26 c from rfl]; unfold Pipeline.ΦA
    iintro ⟨Hr, Hp⟩
    isplitl [Hp]; · iexact Hp
    isplitr; · iempintro
    iexact Hr
  hexit c := by
    have hjoin := Pipeline.unscopedBufs_of_arrays (p := 26) (pcfgs (F := F)) adm (Ix := Unit) (Name := ℕ) (U := UR sig nD τ) (Lvl := ℕ)
      launch26.win launch26.arr_whole c (pdats m ρ) ((pdats m ρ 26 c).share_full fun _ => rfl)
      (V65 m ρ c) (V66 m ρ c) ((pdats m ρ 26 c).arrAt · cfg26.N) (hF26 m ρ c) (hrest26 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg27.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 27 as a segment of @main over the thread state "every unscoped buffer at the boundary's contents, the
    generator register at some state, nothing owed": entered at `W67`, left at `W68`. Its arrays are split out of the
    unscoped buffers on entry and put back at the exit contents; the generator register goes into the pipeline's
    invariant and comes back; the kernel has no semaphore of its own. -/
def reg27 : Pipeline.RegionSeg (pcfgs (F := F)) adm (pdats m ρ) () defs₀ 𝒱₀ L lv 27 where
  win := launch27.win.to₀
  block_pos := launch27.block_pos
  stage_whole := launch27.stage_whole
  K := PEmpty
  osem k := k.elim
  ho := Pipeline.OwnSemFacts.none _
  hbody c := (body_obligation27 (V67 m ρ) c).loose
  hwaits := Pipeline.hwaits_of_owed_zero _ _ _ _ L lv 27 fun _ _ => rfl
  pre c := iprop(StableHlo.held (c : Thread nD τ) (Pipeline.ucRefs τ sig) (W67 m ρ c) ∗ R c)
  post c := iprop(StableHlo.held (c : Thread nD τ) (Pipeline.ucRefs τ sig) (W68 m ρ c) ∗ R c)
  X c := iprop(∃ r, prngReg c r)
  Y c := iprop(∃ r, prngReg c r)
  Z c := Pipeline.unscopedRest (Ix := Unit) (Name := ℕ) (U := UR sig nD τ) (Lvl := ℕ) spec27 c (V67 m ρ c)
  hentry c := by
    rw [Pipeline.ownSems0_none]
    have hsplit := Pipeline.arrays_of_unscopedBufs (p := 27) (pcfgs (F := F)) adm (pdats m ρ) launch27.win launch27.arr_whole c
      ((pdats m ρ 27 c).share_full fun _ => rfl) (V67 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 27 c).Φ 0 = Pipeline.ΦA spec27 c from rfl]; unfold Pipeline.ΦA
    iintro ⟨Hp, -, Hr⟩
    isplitl [Hr]; · iexact Hr
    iexact Hp
  hout c := by
    rw [Pipeline.ownSems0_none, show (pdats m ρ 27 c).Φ (Fin.last _) = Pipeline.ΦA spec27 c from rfl]; unfold Pipeline.ΦA
    iintro ⟨Hr, Hp⟩
    isplitl [Hp]; · iexact Hp
    isplitr; · iempintro
    iexact Hr
  hexit c := by
    have hjoin := Pipeline.unscopedBufs_of_arrays (p := 27) (pcfgs (F := F)) adm (Ix := Unit) (Name := ℕ) (U := UR sig nD τ) (Lvl := ℕ)
      launch27.win launch27.arr_whole c (pdats m ρ) ((pdats m ρ 27 c).share_full fun _ => rfl)
      (V67 m ρ c) (V68 m ρ c) ((pdats m ρ 27 c).arrAt · cfg27.N) (hF27 m ρ c) (hrest27 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg28.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 28 as a segment of @main over the thread state "every unscoped buffer at the boundary's contents, the
    generator register at some state, nothing owed": entered at `W69`, left at `W70`. Its arrays are split out of the
    unscoped buffers on entry and put back at the exit contents; the generator register goes into the pipeline's
    invariant and comes back; the kernel has no semaphore of its own. -/
def reg28 : Pipeline.RegionSeg (pcfgs (F := F)) adm (pdats m ρ) () defs₀ 𝒱₀ L lv 28 where
  win := launch28.win.to₀
  block_pos := launch28.block_pos
  stage_whole := launch28.stage_whole
  K := PEmpty
  osem k := k.elim
  ho := Pipeline.OwnSemFacts.none _
  hbody c := (body_obligation28 (V69 m ρ) c).loose
  hwaits := Pipeline.hwaits_of_owed_zero _ _ _ _ L lv 28 fun _ _ => rfl
  pre c := iprop(StableHlo.held (c : Thread nD τ) (Pipeline.ucRefs τ sig) (W69 m ρ c) ∗ R c)
  post c := iprop(StableHlo.held (c : Thread nD τ) (Pipeline.ucRefs τ sig) (W70 m ρ c) ∗ R c)
  X c := iprop(∃ r, prngReg c r)
  Y c := iprop(∃ r, prngReg c r)
  Z c := Pipeline.unscopedRest (Ix := Unit) (Name := ℕ) (U := UR sig nD τ) (Lvl := ℕ) spec28 c (V69 m ρ c)
  hentry c := by
    rw [Pipeline.ownSems0_none]
    have hsplit := Pipeline.arrays_of_unscopedBufs (p := 28) (pcfgs (F := F)) adm (pdats m ρ) launch28.win launch28.arr_whole c
      ((pdats m ρ 28 c).share_full fun _ => rfl) (V69 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 28 c).Φ 0 = Pipeline.ΦA spec28 c from rfl]; unfold Pipeline.ΦA
    iintro ⟨Hp, -, Hr⟩
    isplitl [Hr]; · iexact Hr
    iexact Hp
  hout c := by
    rw [Pipeline.ownSems0_none, show (pdats m ρ 28 c).Φ (Fin.last _) = Pipeline.ΦA spec28 c from rfl]; unfold Pipeline.ΦA
    iintro ⟨Hr, Hp⟩
    isplitl [Hp]; · iexact Hp
    isplitr; · iempintro
    iexact Hr
  hexit c := by
    have hjoin := Pipeline.unscopedBufs_of_arrays (p := 28) (pcfgs (F := F)) adm (Ix := Unit) (Name := ℕ) (U := UR sig nD τ) (Lvl := ℕ)
      launch28.win launch28.arr_whole c (pdats m ρ) ((pdats m ρ 28 c).share_full fun _ => rfl)
      (V69 m ρ c) (V70 m ρ c) ((pdats m ρ 28 c).arrAt · cfg28.N) (hF28 m ρ c) (hrest28 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg29.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 29 as a segment of @main over the thread state "every unscoped buffer at the boundary's contents, the
    generator register at some state, nothing owed": entered at `W71`, left at `W72`. Its arrays are split out of the
    unscoped buffers on entry and put back at the exit contents; the generator register goes into the pipeline's
    invariant and comes back; the kernel has no semaphore of its own. -/
def reg29 : Pipeline.RegionSeg (pcfgs (F := F)) adm (pdats m ρ) () defs₀ 𝒱₀ L lv 29 where
  win := launch29.win.to₀
  block_pos := launch29.block_pos
  stage_whole := launch29.stage_whole
  K := PEmpty
  osem k := k.elim
  ho := Pipeline.OwnSemFacts.none _
  hbody c := (body_obligation29 (V71 m ρ) c).loose
  hwaits := Pipeline.hwaits_of_owed_zero _ _ _ _ L lv 29 fun _ _ => rfl
  pre c := iprop(StableHlo.held (c : Thread nD τ) (Pipeline.ucRefs τ sig) (W71 m ρ c) ∗ R c)
  post c := iprop(StableHlo.held (c : Thread nD τ) (Pipeline.ucRefs τ sig) (W72 m ρ c) ∗ R c)
  X c := iprop(∃ r, prngReg c r)
  Y c := iprop(∃ r, prngReg c r)
  Z c := Pipeline.unscopedRest (Ix := Unit) (Name := ℕ) (U := UR sig nD τ) (Lvl := ℕ) spec29 c (V71 m ρ c)
  hentry c := by
    rw [Pipeline.ownSems0_none]
    have hsplit := Pipeline.arrays_of_unscopedBufs (p := 29) (pcfgs (F := F)) adm (pdats m ρ) launch29.win launch29.arr_whole c
      ((pdats m ρ 29 c).share_full fun _ => rfl) (V71 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 29 c).Φ 0 = Pipeline.ΦA spec29 c from rfl]; unfold Pipeline.ΦA
    iintro ⟨Hp, -, Hr⟩
    isplitl [Hr]; · iexact Hr
    iexact Hp
  hout c := by
    rw [Pipeline.ownSems0_none, show (pdats m ρ 29 c).Φ (Fin.last _) = Pipeline.ΦA spec29 c from rfl]; unfold Pipeline.ΦA
    iintro ⟨Hr, Hp⟩
    isplitl [Hp]; · iexact Hp
    isplitr; · iempintro
    iexact Hr
  hexit c := by
    have hjoin := Pipeline.unscopedBufs_of_arrays (p := 29) (pcfgs (F := F)) adm (Ix := Unit) (Name := ℕ) (U := UR sig nD τ) (Lvl := ℕ)
      launch29.win launch29.arr_whole c (pdats m ρ) ((pdats m ρ 29 c).share_full fun _ => rfl)
      (V71 m ρ c) (V72 m ρ c) ((pdats m ρ 29 c).arrAt · cfg29.N) (hF29 m ρ c) (hrest29 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg30.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 30 as a segment of @main over the thread state "every unscoped buffer at the boundary's contents, the
    generator register at some state, nothing owed": entered at `W73`, left at `W74`. Its arrays are split out of the
    unscoped buffers on entry and put back at the exit contents; the generator register goes into the pipeline's
    invariant and comes back; the kernel has no semaphore of its own. -/
def reg30 : Pipeline.RegionSeg (pcfgs (F := F)) adm (pdats m ρ) () defs₀ 𝒱₀ L lv 30 where
  win := launch30.win.to₀
  block_pos := launch30.block_pos
  stage_whole := launch30.stage_whole
  K := PEmpty
  osem k := k.elim
  ho := Pipeline.OwnSemFacts.none _
  hbody c := (body_obligation30 (V73 m ρ) c).loose
  hwaits := Pipeline.hwaits_of_owed_zero _ _ _ _ L lv 30 fun _ _ => rfl
  pre c := iprop(StableHlo.held (c : Thread nD τ) (Pipeline.ucRefs τ sig) (W73 m ρ c) ∗ R c)
  post c := iprop(StableHlo.held (c : Thread nD τ) (Pipeline.ucRefs τ sig) (W74 m ρ c) ∗ R c)
  X c := iprop(∃ r, prngReg c r)
  Y c := iprop(∃ r, prngReg c r)
  Z c := Pipeline.unscopedRest (Ix := Unit) (Name := ℕ) (U := UR sig nD τ) (Lvl := ℕ) spec30 c (V73 m ρ c)
  hentry c := by
    rw [Pipeline.ownSems0_none]
    have hsplit := Pipeline.arrays_of_unscopedBufs (p := 30) (pcfgs (F := F)) adm (pdats m ρ) launch30.win launch30.arr_whole c
      ((pdats m ρ 30 c).share_full fun _ => rfl) (V73 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 30 c).Φ 0 = Pipeline.ΦA spec30 c from rfl]; unfold Pipeline.ΦA
    iintro ⟨Hp, -, Hr⟩
    isplitl [Hr]; · iexact Hr
    iexact Hp
  hout c := by
    rw [Pipeline.ownSems0_none, show (pdats m ρ 30 c).Φ (Fin.last _) = Pipeline.ΦA spec30 c from rfl]; unfold Pipeline.ΦA
    iintro ⟨Hr, Hp⟩
    isplitl [Hp]; · iexact Hp
    isplitr; · iempintro
    iexact Hr
  hexit c := by
    have hjoin := Pipeline.unscopedBufs_of_arrays (p := 30) (pcfgs (F := F)) adm (Ix := Unit) (Name := ℕ) (U := UR sig nD τ) (Lvl := ℕ)
      launch30.win launch30.arr_whole c (pdats m ρ) ((pdats m ρ 30 c).share_full fun _ => rfl)
      (V73 m ρ c) (V74 m ρ c) ((pdats m ρ 30 c).arrAt · cfg30.N) (hF30 m ρ c) (hrest30 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg31.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 31 as a segment of @main over the thread state "every unscoped buffer at the boundary's contents, the
    generator register at some state, nothing owed": entered at `W75`, left at `W76`. Its arrays are split out of the
    unscoped buffers on entry and put back at the exit contents; the generator register goes into the pipeline's
    invariant and comes back; the kernel has no semaphore of its own. -/
def reg31 : Pipeline.RegionSeg (pcfgs (F := F)) adm (pdats m ρ) () defs₀ 𝒱₀ L lv 31 where
  win := launch31.win.to₀
  block_pos := launch31.block_pos
  stage_whole := launch31.stage_whole
  K := PEmpty
  osem k := k.elim
  ho := Pipeline.OwnSemFacts.none _
  hbody c := (body_obligation31 (V75 m ρ) c).loose
  hwaits := Pipeline.hwaits_of_owed_zero _ _ _ _ L lv 31 fun _ _ => rfl
  pre c := iprop(StableHlo.held (c : Thread nD τ) (Pipeline.ucRefs τ sig) (W75 m ρ c) ∗ R c)
  post c := iprop(StableHlo.held (c : Thread nD τ) (Pipeline.ucRefs τ sig) (W76 m ρ c) ∗ R c)
  X c := iprop(∃ r, prngReg c r)
  Y c := iprop(∃ r, prngReg c r)
  Z c := Pipeline.unscopedRest (Ix := Unit) (Name := ℕ) (U := UR sig nD τ) (Lvl := ℕ) spec31 c (V75 m ρ c)
  hentry c := by
    rw [Pipeline.ownSems0_none]
    have hsplit := Pipeline.arrays_of_unscopedBufs (p := 31) (pcfgs (F := F)) adm (pdats m ρ) launch31.win launch31.arr_whole c
      ((pdats m ρ 31 c).share_full fun _ => rfl) (V75 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 31 c).Φ 0 = Pipeline.ΦA spec31 c from rfl]; unfold Pipeline.ΦA
    iintro ⟨Hp, -, Hr⟩
    isplitl [Hr]; · iexact Hr
    iexact Hp
  hout c := by
    rw [Pipeline.ownSems0_none, show (pdats m ρ 31 c).Φ (Fin.last _) = Pipeline.ΦA spec31 c from rfl]; unfold Pipeline.ΦA
    iintro ⟨Hr, Hp⟩
    isplitl [Hp]; · iexact Hp
    isplitr; · iempintro
    iexact Hr
  hexit c := by
    have hjoin := Pipeline.unscopedBufs_of_arrays (p := 31) (pcfgs (F := F)) adm (Ix := Unit) (Name := ℕ) (U := UR sig nD τ) (Lvl := ℕ)
      launch31.win launch31.arr_whole c (pdats m ρ) ((pdats m ρ 31 c).share_full fun _ => rfl)
      (V75 m ρ c) (V76 m ρ c) ((pdats m ρ 31 c).arrAt · cfg31.N) (hF31 m ρ c) (hrest31 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg32.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 32 as a segment of @main over the thread state "every unscoped buffer at the boundary's contents, the
    generator register at some state, nothing owed": entered at `W77`, left at `W78`. Its arrays are split out of the
    unscoped buffers on entry and put back at the exit contents; the generator register goes into the pipeline's
    invariant and comes back; the kernel has no semaphore of its own. -/
def reg32 : Pipeline.RegionSeg (pcfgs (F := F)) adm (pdats m ρ) () defs₀ 𝒱₀ L lv 32 where
  win := launch32.win.to₀
  block_pos := launch32.block_pos
  stage_whole := launch32.stage_whole
  K := PEmpty
  osem k := k.elim
  ho := Pipeline.OwnSemFacts.none _
  hbody c := (body_obligation32 (V77 m ρ) c).loose
  hwaits := Pipeline.hwaits_of_owed_zero _ _ _ _ L lv 32 fun _ _ => rfl
  pre c := iprop(StableHlo.held (c : Thread nD τ) (Pipeline.ucRefs τ sig) (W77 m ρ c) ∗ R c)
  post c := iprop(StableHlo.held (c : Thread nD τ) (Pipeline.ucRefs τ sig) (W78 m ρ c) ∗ R c)
  X c := iprop(∃ r, prngReg c r)
  Y c := iprop(∃ r, prngReg c r)
  Z c := Pipeline.unscopedRest (Ix := Unit) (Name := ℕ) (U := UR sig nD τ) (Lvl := ℕ) spec32 c (V77 m ρ c)
  hentry c := by
    rw [Pipeline.ownSems0_none]
    have hsplit := Pipeline.arrays_of_unscopedBufs (p := 32) (pcfgs (F := F)) adm (pdats m ρ) launch32.win launch32.arr_whole c
      ((pdats m ρ 32 c).share_full fun _ => rfl) (V77 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 32 c).Φ 0 = Pipeline.ΦA spec32 c from rfl]; unfold Pipeline.ΦA
    iintro ⟨Hp, -, Hr⟩
    isplitl [Hr]; · iexact Hr
    iexact Hp
  hout c := by
    rw [Pipeline.ownSems0_none, show (pdats m ρ 32 c).Φ (Fin.last _) = Pipeline.ΦA spec32 c from rfl]; unfold Pipeline.ΦA
    iintro ⟨Hr, Hp⟩
    isplitl [Hp]; · iexact Hp
    isplitr; · iempintro
    iexact Hr
  hexit c := by
    have hjoin := Pipeline.unscopedBufs_of_arrays (p := 32) (pcfgs (F := F)) adm (Ix := Unit) (Name := ℕ) (U := UR sig nD τ) (Lvl := ℕ)
      launch32.win launch32.arr_whole c (pdats m ρ) ((pdats m ρ 32 c).share_full fun _ => rfl)
      (V77 m ρ c) (V78 m ρ c) ((pdats m ρ 32 c).arrAt · cfg32.N) (hF32 m ρ c) (hrest32 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg33.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 33 as a segment of @main over the thread state "every unscoped buffer at the boundary's contents, the
    generator register at some state, nothing owed": entered at `W79`, left at `W80`. Its arrays are split out of the
    unscoped buffers on entry and put back at the exit contents; the generator register goes into the pipeline's
    invariant and comes back; the kernel has no semaphore of its own. -/
def reg33 : Pipeline.RegionSeg (pcfgs (F := F)) adm (pdats m ρ) () defs₀ 𝒱₀ L lv 33 where
  win := launch33.win.to₀
  block_pos := launch33.block_pos
  stage_whole := launch33.stage_whole
  K := PEmpty
  osem k := k.elim
  ho := Pipeline.OwnSemFacts.none _
  hbody c := (body_obligation33 (V79 m ρ) c).loose
  hwaits := Pipeline.hwaits_of_owed_zero _ _ _ _ L lv 33 fun _ _ => rfl
  pre c := iprop(StableHlo.held (c : Thread nD τ) (Pipeline.ucRefs τ sig) (W79 m ρ c) ∗ R c)
  post c := iprop(StableHlo.held (c : Thread nD τ) (Pipeline.ucRefs τ sig) (W80 m ρ c) ∗ R c)
  X c := iprop(∃ r, prngReg c r)
  Y c := iprop(∃ r, prngReg c r)
  Z c := Pipeline.unscopedRest (Ix := Unit) (Name := ℕ) (U := UR sig nD τ) (Lvl := ℕ) spec33 c (V79 m ρ c)
  hentry c := by
    rw [Pipeline.ownSems0_none]
    have hsplit := Pipeline.arrays_of_unscopedBufs (p := 33) (pcfgs (F := F)) adm (pdats m ρ) launch33.win launch33.arr_whole c
      ((pdats m ρ 33 c).share_full fun _ => rfl) (V79 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 33 c).Φ 0 = Pipeline.ΦA spec33 c from rfl]; unfold Pipeline.ΦA
    iintro ⟨Hp, -, Hr⟩
    isplitl [Hr]; · iexact Hr
    iexact Hp
  hout c := by
    rw [Pipeline.ownSems0_none, show (pdats m ρ 33 c).Φ (Fin.last _) = Pipeline.ΦA spec33 c from rfl]; unfold Pipeline.ΦA
    iintro ⟨Hr, Hp⟩
    isplitl [Hp]; · iexact Hp
    isplitr; · iempintro
    iexact Hr
  hexit c := by
    have hjoin := Pipeline.unscopedBufs_of_arrays (p := 33) (pcfgs (F := F)) adm (Ix := Unit) (Name := ℕ) (U := UR sig nD τ) (Lvl := ℕ)
      launch33.win launch33.arr_whole c (pdats m ρ) ((pdats m ρ 33 c).share_full fun _ => rfl)
      (V79 m ρ c) (V80 m ρ c) ((pdats m ρ 33 c).arrAt · cfg33.N) (hF33 m ρ c) (hrest33 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg34.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 34 as a segment of @main over the thread state "every unscoped buffer at the boundary's contents, the
    generator register at some state, nothing owed": entered at `W81`, left at `W82`. Its arrays are split out of the
    unscoped buffers on entry and put back at the exit contents; the generator register goes into the pipeline's
    invariant and comes back; the kernel has no semaphore of its own. -/
def reg34 : Pipeline.RegionSeg (pcfgs (F := F)) adm (pdats m ρ) () defs₀ 𝒱₀ L lv 34 where
  win := launch34.win.to₀
  block_pos := launch34.block_pos
  stage_whole := launch34.stage_whole
  K := PEmpty
  osem k := k.elim
  ho := Pipeline.OwnSemFacts.none _
  hbody c := (body_obligation34 (V81 m ρ) c).loose
  hwaits := Pipeline.hwaits_of_owed_zero _ _ _ _ L lv 34 fun _ _ => rfl
  pre c := iprop(StableHlo.held (c : Thread nD τ) (Pipeline.ucRefs τ sig) (W81 m ρ c) ∗ R c)
  post c := iprop(StableHlo.held (c : Thread nD τ) (Pipeline.ucRefs τ sig) (W82 m ρ c) ∗ R c)
  X c := iprop(∃ r, prngReg c r)
  Y c := iprop(∃ r, prngReg c r)
  Z c := Pipeline.unscopedRest (Ix := Unit) (Name := ℕ) (U := UR sig nD τ) (Lvl := ℕ) spec34 c (V81 m ρ c)
  hentry c := by
    rw [Pipeline.ownSems0_none]
    have hsplit := Pipeline.arrays_of_unscopedBufs (p := 34) (pcfgs (F := F)) adm (pdats m ρ) launch34.win launch34.arr_whole c
      ((pdats m ρ 34 c).share_full fun _ => rfl) (V81 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 34 c).Φ 0 = Pipeline.ΦA spec34 c from rfl]; unfold Pipeline.ΦA
    iintro ⟨Hp, -, Hr⟩
    isplitl [Hr]; · iexact Hr
    iexact Hp
  hout c := by
    rw [Pipeline.ownSems0_none, show (pdats m ρ 34 c).Φ (Fin.last _) = Pipeline.ΦA spec34 c from rfl]; unfold Pipeline.ΦA
    iintro ⟨Hr, Hp⟩
    isplitl [Hp]; · iexact Hp
    isplitr; · iempintro
    iexact Hr
  hexit c := by
    have hjoin := Pipeline.unscopedBufs_of_arrays (p := 34) (pcfgs (F := F)) adm (Ix := Unit) (Name := ℕ) (U := UR sig nD τ) (Lvl := ℕ)
      launch34.win launch34.arr_whole c (pdats m ρ) ((pdats m ρ 34 c).share_full fun _ => rfl)
      (V81 m ρ c) (V82 m ρ c) ((pdats m ρ 34 c).arrAt · cfg34.N) (hF34 m ρ c) (hrest34 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg35.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 35 as a segment of @main over the thread state "every unscoped buffer at the boundary's contents, the
    generator register at some state, nothing owed": entered at `W87`, left at `W88`. Its arrays are split out of the
    unscoped buffers on entry and put back at the exit contents; the generator register goes into the pipeline's
    invariant and comes back; the kernel has no semaphore of its own. -/
def reg35 : Pipeline.RegionSeg (pcfgs (F := F)) adm (pdats m ρ) () defs₀ 𝒱₀ L lv 35 where
  win := launch35.win.to₀
  block_pos := launch35.block_pos
  stage_whole := launch35.stage_whole
  K := PEmpty
  osem k := k.elim
  ho := Pipeline.OwnSemFacts.none _
  hbody c := (body_obligation35 (V87 m ρ) c).loose
  hwaits := Pipeline.hwaits_of_owed_zero _ _ _ _ L lv 35 fun _ _ => rfl
  pre c := iprop(StableHlo.held (c : Thread nD τ) (Pipeline.ucRefs τ sig) (W87 m ρ c) ∗ R c)
  post c := iprop(StableHlo.held (c : Thread nD τ) (Pipeline.ucRefs τ sig) (W88 m ρ c) ∗ R c)
  X c := iprop(∃ r, prngReg c r)
  Y c := iprop(∃ r, prngReg c r)
  Z c := Pipeline.unscopedRest (Ix := Unit) (Name := ℕ) (U := UR sig nD τ) (Lvl := ℕ) spec35 c (V87 m ρ c)
  hentry c := by
    rw [Pipeline.ownSems0_none]
    have hsplit := Pipeline.arrays_of_unscopedBufs (p := 35) (pcfgs (F := F)) adm (pdats m ρ) launch35.win launch35.arr_whole c
      ((pdats m ρ 35 c).share_full fun _ => rfl) (V87 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 35 c).Φ 0 = Pipeline.ΦA spec35 c from rfl]; unfold Pipeline.ΦA
    iintro ⟨Hp, -, Hr⟩
    isplitl [Hr]; · iexact Hr
    iexact Hp
  hout c := by
    rw [Pipeline.ownSems0_none, show (pdats m ρ 35 c).Φ (Fin.last _) = Pipeline.ΦA spec35 c from rfl]; unfold Pipeline.ΦA
    iintro ⟨Hr, Hp⟩
    isplitl [Hp]; · iexact Hp
    isplitr; · iempintro
    iexact Hr
  hexit c := by
    have hjoin := Pipeline.unscopedBufs_of_arrays (p := 35) (pcfgs (F := F)) adm (Ix := Unit) (Name := ℕ) (U := UR sig nD τ) (Lvl := ℕ)
      launch35.win launch35.arr_whole c (pdats m ρ) ((pdats m ρ 35 c).share_full fun _ => rfl)
      (V87 m ρ c) (V88 m ρ c) ((pdats m ρ 35 c).arrAt · cfg35.N) (hF35 m ρ c) (hrest35 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg36.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 36 as a segment of @main over the thread state "every unscoped buffer at the boundary's contents, the
    generator register at some state, nothing owed": entered at `W89`, left at `W90`. Its arrays are split out of the
    unscoped buffers on entry and put back at the exit contents; the generator register goes into the pipeline's
    invariant and comes back; the kernel has no semaphore of its own. -/
def reg36 : Pipeline.RegionSeg (pcfgs (F := F)) adm (pdats m ρ) () defs₀ 𝒱₀ L lv 36 where
  win := launch36.win.to₀
  block_pos := launch36.block_pos
  stage_whole := launch36.stage_whole
  K := PEmpty
  osem k := k.elim
  ho := Pipeline.OwnSemFacts.none _
  hbody c := (body_obligation36 (V89 m ρ) c).loose
  hwaits := Pipeline.hwaits_of_owed_zero _ _ _ _ L lv 36 fun _ _ => rfl
  pre c := iprop(StableHlo.held (c : Thread nD τ) (Pipeline.ucRefs τ sig) (W89 m ρ c) ∗ R c)
  post c := iprop(StableHlo.held (c : Thread nD τ) (Pipeline.ucRefs τ sig) (W90 m ρ c) ∗ R c)
  X c := iprop(∃ r, prngReg c r)
  Y c := iprop(∃ r, prngReg c r)
  Z c := Pipeline.unscopedRest (Ix := Unit) (Name := ℕ) (U := UR sig nD τ) (Lvl := ℕ) spec36 c (V89 m ρ c)
  hentry c := by
    rw [Pipeline.ownSems0_none]
    have hsplit := Pipeline.arrays_of_unscopedBufs (p := 36) (pcfgs (F := F)) adm (pdats m ρ) launch36.win launch36.arr_whole c
      ((pdats m ρ 36 c).share_full fun _ => rfl) (V89 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 36 c).Φ 0 = Pipeline.ΦA spec36 c from rfl]; unfold Pipeline.ΦA
    iintro ⟨Hp, -, Hr⟩
    isplitl [Hr]; · iexact Hr
    iexact Hp
  hout c := by
    rw [Pipeline.ownSems0_none, show (pdats m ρ 36 c).Φ (Fin.last _) = Pipeline.ΦA spec36 c from rfl]; unfold Pipeline.ΦA
    iintro ⟨Hr, Hp⟩
    isplitl [Hp]; · iexact Hp
    isplitr; · iempintro
    iexact Hr
  hexit c := by
    have hjoin := Pipeline.unscopedBufs_of_arrays (p := 36) (pcfgs (F := F)) adm (Ix := Unit) (Name := ℕ) (U := UR sig nD τ) (Lvl := ℕ)
      launch36.win launch36.arr_whole c (pdats m ρ) ((pdats m ρ 36 c).share_full fun _ => rfl)
      (V89 m ρ c) (V90 m ρ c) ((pdats m ρ 36 c).arrAt · cfg36.N) (hF36 m ρ c) (hrest36 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg37.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 37 as a segment of @main over the thread state "every unscoped buffer at the boundary's contents, the
    generator register at some state, nothing owed": entered at `W91`, left at `W92`. Its arrays are split out of the
    unscoped buffers on entry and put back at the exit contents; the generator register goes into the pipeline's
    invariant and comes back; the kernel has no semaphore of its own. -/
def reg37 : Pipeline.RegionSeg (pcfgs (F := F)) adm (pdats m ρ) () defs₀ 𝒱₀ L lv 37 where
  win := launch37.win.to₀
  block_pos := launch37.block_pos
  stage_whole := launch37.stage_whole
  K := PEmpty
  osem k := k.elim
  ho := Pipeline.OwnSemFacts.none _
  hbody c := (body_obligation37 (V91 m ρ) c).loose
  hwaits := Pipeline.hwaits_of_owed_zero _ _ _ _ L lv 37 fun _ _ => rfl
  pre c := iprop(StableHlo.held (c : Thread nD τ) (Pipeline.ucRefs τ sig) (W91 m ρ c) ∗ R c)
  post c := iprop(StableHlo.held (c : Thread nD τ) (Pipeline.ucRefs τ sig) (W92 m ρ c) ∗ R c)
  X c := iprop(∃ r, prngReg c r)
  Y c := iprop(∃ r, prngReg c r)
  Z c := Pipeline.unscopedRest (Ix := Unit) (Name := ℕ) (U := UR sig nD τ) (Lvl := ℕ) spec37 c (V91 m ρ c)
  hentry c := by
    rw [Pipeline.ownSems0_none]
    have hsplit := Pipeline.arrays_of_unscopedBufs (p := 37) (pcfgs (F := F)) adm (pdats m ρ) launch37.win launch37.arr_whole c
      ((pdats m ρ 37 c).share_full fun _ => rfl) (V91 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 37 c).Φ 0 = Pipeline.ΦA spec37 c from rfl]; unfold Pipeline.ΦA
    iintro ⟨Hp, -, Hr⟩
    isplitl [Hr]; · iexact Hr
    iexact Hp
  hout c := by
    rw [Pipeline.ownSems0_none, show (pdats m ρ 37 c).Φ (Fin.last _) = Pipeline.ΦA spec37 c from rfl]; unfold Pipeline.ΦA
    iintro ⟨Hr, Hp⟩
    isplitl [Hp]; · iexact Hp
    isplitr; · iempintro
    iexact Hr
  hexit c := by
    have hjoin := Pipeline.unscopedBufs_of_arrays (p := 37) (pcfgs (F := F)) adm (Ix := Unit) (Name := ℕ) (U := UR sig nD τ) (Lvl := ℕ)
      launch37.win launch37.arr_whole c (pdats m ρ) ((pdats m ρ 37 c).share_full fun _ => rfl)
      (V91 m ρ c) (V92 m ρ c) ((pdats m ρ 37 c).arrAt · cfg37.N) (hF37 m ρ c) (hrest37 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg38.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 38 as a segment of @main over the thread state "every unscoped buffer at the boundary's contents, the
    generator register at some state, nothing owed": entered at `W93`, left at `W94`. Its arrays are split out of the
    unscoped buffers on entry and put back at the exit contents; the generator register goes into the pipeline's
    invariant and comes back; the kernel has no semaphore of its own. -/
def reg38 : Pipeline.RegionSeg (pcfgs (F := F)) adm (pdats m ρ) () defs₀ 𝒱₀ L lv 38 where
  win := launch38.win.to₀
  block_pos := launch38.block_pos
  stage_whole := launch38.stage_whole
  K := PEmpty
  osem k := k.elim
  ho := Pipeline.OwnSemFacts.none _
  hbody c := (body_obligation38 (V93 m ρ) c).loose
  hwaits := Pipeline.hwaits_of_owed_zero _ _ _ _ L lv 38 fun _ _ => rfl
  pre c := iprop(StableHlo.held (c : Thread nD τ) (Pipeline.ucRefs τ sig) (W93 m ρ c) ∗ R c)
  post c := iprop(StableHlo.held (c : Thread nD τ) (Pipeline.ucRefs τ sig) (W94 m ρ c) ∗ R c)
  X c := iprop(∃ r, prngReg c r)
  Y c := iprop(∃ r, prngReg c r)
  Z c := Pipeline.unscopedRest (Ix := Unit) (Name := ℕ) (U := UR sig nD τ) (Lvl := ℕ) spec38 c (V93 m ρ c)
  hentry c := by
    rw [Pipeline.ownSems0_none]
    have hsplit := Pipeline.arrays_of_unscopedBufs (p := 38) (pcfgs (F := F)) adm (pdats m ρ) launch38.win launch38.arr_whole c
      ((pdats m ρ 38 c).share_full fun _ => rfl) (V93 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 38 c).Φ 0 = Pipeline.ΦA spec38 c from rfl]; unfold Pipeline.ΦA
    iintro ⟨Hp, -, Hr⟩
    isplitl [Hr]; · iexact Hr
    iexact Hp
  hout c := by
    rw [Pipeline.ownSems0_none, show (pdats m ρ 38 c).Φ (Fin.last _) = Pipeline.ΦA spec38 c from rfl]; unfold Pipeline.ΦA
    iintro ⟨Hr, Hp⟩
    isplitl [Hp]; · iexact Hp
    isplitr; · iempintro
    iexact Hr
  hexit c := by
    have hjoin := Pipeline.unscopedBufs_of_arrays (p := 38) (pcfgs (F := F)) adm (Ix := Unit) (Name := ℕ) (U := UR sig nD τ) (Lvl := ℕ)
      launch38.win launch38.arr_whole c (pdats m ρ) ((pdats m ρ 38 c).share_full fun _ => rfl)
      (V93 m ρ c) (V94 m ρ c) ((pdats m ρ 38 c).arrAt · cfg38.N) (hF38 m ρ c) (hrest38 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg39.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 39 as a segment of @main over the thread state "every unscoped buffer at the boundary's contents, the
    generator register at some state, nothing owed": entered at `W95`, left at `W96`. Its arrays are split out of the
    unscoped buffers on entry and put back at the exit contents; the generator register goes into the pipeline's
    invariant and comes back; the kernel has no semaphore of its own. -/
def reg39 : Pipeline.RegionSeg (pcfgs (F := F)) adm (pdats m ρ) () defs₀ 𝒱₀ L lv 39 where
  win := launch39.win.to₀
  block_pos := launch39.block_pos
  stage_whole := launch39.stage_whole
  K := PEmpty
  osem k := k.elim
  ho := Pipeline.OwnSemFacts.none _
  hbody c := (body_obligation39 (V95 m ρ) c).loose
  hwaits := Pipeline.hwaits_of_owed_zero _ _ _ _ L lv 39 fun _ _ => rfl
  pre c := iprop(StableHlo.held (c : Thread nD τ) (Pipeline.ucRefs τ sig) (W95 m ρ c) ∗ R c)
  post c := iprop(StableHlo.held (c : Thread nD τ) (Pipeline.ucRefs τ sig) (W96 m ρ c) ∗ R c)
  X c := iprop(∃ r, prngReg c r)
  Y c := iprop(∃ r, prngReg c r)
  Z c := Pipeline.unscopedRest (Ix := Unit) (Name := ℕ) (U := UR sig nD τ) (Lvl := ℕ) spec39 c (V95 m ρ c)
  hentry c := by
    rw [Pipeline.ownSems0_none]
    have hsplit := Pipeline.arrays_of_unscopedBufs (p := 39) (pcfgs (F := F)) adm (pdats m ρ) launch39.win launch39.arr_whole c
      ((pdats m ρ 39 c).share_full fun _ => rfl) (V95 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 39 c).Φ 0 = Pipeline.ΦA spec39 c from rfl]; unfold Pipeline.ΦA
    iintro ⟨Hp, -, Hr⟩
    isplitl [Hr]; · iexact Hr
    iexact Hp
  hout c := by
    rw [Pipeline.ownSems0_none, show (pdats m ρ 39 c).Φ (Fin.last _) = Pipeline.ΦA spec39 c from rfl]; unfold Pipeline.ΦA
    iintro ⟨Hr, Hp⟩
    isplitl [Hp]; · iexact Hp
    isplitr; · iempintro
    iexact Hr
  hexit c := by
    have hjoin := Pipeline.unscopedBufs_of_arrays (p := 39) (pcfgs (F := F)) adm (Ix := Unit) (Name := ℕ) (U := UR sig nD τ) (Lvl := ℕ)
      launch39.win launch39.arr_whole c (pdats m ρ) ((pdats m ρ 39 c).share_full fun _ => rfl)
      (V95 m ρ c) (V96 m ρ c) ((pdats m ρ 39 c).arrAt · cfg39.N) (hF39 m ρ c) (hrest39 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg40.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 40 as a segment of @main over the thread state "every unscoped buffer at the boundary's contents, the
    generator register at some state, nothing owed": entered at `W97`, left at `W98`. Its arrays are split out of the
    unscoped buffers on entry and put back at the exit contents; the generator register goes into the pipeline's
    invariant and comes back; the kernel has no semaphore of its own. -/
def reg40 : Pipeline.RegionSeg (pcfgs (F := F)) adm (pdats m ρ) () defs₀ 𝒱₀ L lv 40 where
  win := launch40.win.to₀
  block_pos := launch40.block_pos
  stage_whole := launch40.stage_whole
  K := PEmpty
  osem k := k.elim
  ho := Pipeline.OwnSemFacts.none _
  hbody c := (body_obligation40 (V97 m ρ) c).loose
  hwaits := Pipeline.hwaits_of_owed_zero _ _ _ _ L lv 40 fun _ _ => rfl
  pre c := iprop(StableHlo.held (c : Thread nD τ) (Pipeline.ucRefs τ sig) (W97 m ρ c) ∗ R c)
  post c := iprop(StableHlo.held (c : Thread nD τ) (Pipeline.ucRefs τ sig) (W98 m ρ c) ∗ R c)
  X c := iprop(∃ r, prngReg c r)
  Y c := iprop(∃ r, prngReg c r)
  Z c := Pipeline.unscopedRest (Ix := Unit) (Name := ℕ) (U := UR sig nD τ) (Lvl := ℕ) spec40 c (V97 m ρ c)
  hentry c := by
    rw [Pipeline.ownSems0_none]
    have hsplit := Pipeline.arrays_of_unscopedBufs (p := 40) (pcfgs (F := F)) adm (pdats m ρ) launch40.win launch40.arr_whole c
      ((pdats m ρ 40 c).share_full fun _ => rfl) (V97 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 40 c).Φ 0 = Pipeline.ΦA spec40 c from rfl]; unfold Pipeline.ΦA
    iintro ⟨Hp, -, Hr⟩
    isplitl [Hr]; · iexact Hr
    iexact Hp
  hout c := by
    rw [Pipeline.ownSems0_none, show (pdats m ρ 40 c).Φ (Fin.last _) = Pipeline.ΦA spec40 c from rfl]; unfold Pipeline.ΦA
    iintro ⟨Hr, Hp⟩
    isplitl [Hp]; · iexact Hp
    isplitr; · iempintro
    iexact Hr
  hexit c := by
    have hjoin := Pipeline.unscopedBufs_of_arrays (p := 40) (pcfgs (F := F)) adm (Ix := Unit) (Name := ℕ) (U := UR sig nD τ) (Lvl := ℕ)
      launch40.win launch40.arr_whole c (pdats m ρ) ((pdats m ρ 40 c).share_full fun _ => rfl)
      (V97 m ρ c) (V98 m ρ c) ((pdats m ρ 40 c).arrAt · cfg40.N) (hF40 m ρ c) (hrest40 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg41.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 41 as a segment of @main over the thread state "every unscoped buffer at the boundary's contents, the
    generator register at some state, nothing owed": entered at `W99`, left at `W100`. Its arrays are split out of the
    unscoped buffers on entry and put back at the exit contents; the generator register goes into the pipeline's
    invariant and comes back; the kernel has no semaphore of its own. -/
def reg41 : Pipeline.RegionSeg (pcfgs (F := F)) adm (pdats m ρ) () defs₀ 𝒱₀ L lv 41 where
  win := launch41.win.to₀
  block_pos := launch41.block_pos
  stage_whole := launch41.stage_whole
  K := PEmpty
  osem k := k.elim
  ho := Pipeline.OwnSemFacts.none _
  hbody c := (body_obligation41 (V99 m ρ) c).loose
  hwaits := Pipeline.hwaits_of_owed_zero _ _ _ _ L lv 41 fun _ _ => rfl
  pre c := iprop(StableHlo.held (c : Thread nD τ) (Pipeline.ucRefs τ sig) (W99 m ρ c) ∗ R c)
  post c := iprop(StableHlo.held (c : Thread nD τ) (Pipeline.ucRefs τ sig) (W100 m ρ c) ∗ R c)
  X c := iprop(∃ r, prngReg c r)
  Y c := iprop(∃ r, prngReg c r)
  Z c := Pipeline.unscopedRest (Ix := Unit) (Name := ℕ) (U := UR sig nD τ) (Lvl := ℕ) spec41 c (V99 m ρ c)
  hentry c := by
    rw [Pipeline.ownSems0_none]
    have hsplit := Pipeline.arrays_of_unscopedBufs (p := 41) (pcfgs (F := F)) adm (pdats m ρ) launch41.win launch41.arr_whole c
      ((pdats m ρ 41 c).share_full fun _ => rfl) (V99 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 41 c).Φ 0 = Pipeline.ΦA spec41 c from rfl]; unfold Pipeline.ΦA
    iintro ⟨Hp, -, Hr⟩
    isplitl [Hr]; · iexact Hr
    iexact Hp
  hout c := by
    rw [Pipeline.ownSems0_none, show (pdats m ρ 41 c).Φ (Fin.last _) = Pipeline.ΦA spec41 c from rfl]; unfold Pipeline.ΦA
    iintro ⟨Hr, Hp⟩
    isplitl [Hp]; · iexact Hp
    isplitr; · iempintro
    iexact Hr
  hexit c := by
    have hjoin := Pipeline.unscopedBufs_of_arrays (p := 41) (pcfgs (F := F)) adm (Ix := Unit) (Name := ℕ) (U := UR sig nD τ) (Lvl := ℕ)
      launch41.win launch41.arr_whole c (pdats m ρ) ((pdats m ρ 41 c).share_full fun _ => rfl)
      (V99 m ρ c) (V100 m ρ c) ((pdats m ρ 41 c).arrAt · cfg41.N) (hF41 m ρ c) (hrest41 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg42.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 42 as a segment of @main over the thread state "every unscoped buffer at the boundary's contents, the
    generator register at some state, nothing owed": entered at `W101`, left at `W102`. Its arrays are split out of the
    unscoped buffers on entry and put back at the exit contents; the generator register goes into the pipeline's
    invariant and comes back; the kernel has no semaphore of its own. -/
def reg42 : Pipeline.RegionSeg (pcfgs (F := F)) adm (pdats m ρ) () defs₀ 𝒱₀ L lv 42 where
  win := launch42.win.to₀
  block_pos := launch42.block_pos
  stage_whole := launch42.stage_whole
  K := PEmpty
  osem k := k.elim
  ho := Pipeline.OwnSemFacts.none _
  hbody c := (body_obligation42 (V101 m ρ) c).loose
  hwaits := Pipeline.hwaits_of_owed_zero _ _ _ _ L lv 42 fun _ _ => rfl
  pre c := iprop(StableHlo.held (c : Thread nD τ) (Pipeline.ucRefs τ sig) (W101 m ρ c) ∗ R c)
  post c := iprop(StableHlo.held (c : Thread nD τ) (Pipeline.ucRefs τ sig) (W102 m ρ c) ∗ R c)
  X c := iprop(∃ r, prngReg c r)
  Y c := iprop(∃ r, prngReg c r)
  Z c := Pipeline.unscopedRest (Ix := Unit) (Name := ℕ) (U := UR sig nD τ) (Lvl := ℕ) spec42 c (V101 m ρ c)
  hentry c := by
    rw [Pipeline.ownSems0_none]
    have hsplit := Pipeline.arrays_of_unscopedBufs (p := 42) (pcfgs (F := F)) adm (pdats m ρ) launch42.win launch42.arr_whole c
      ((pdats m ρ 42 c).share_full fun _ => rfl) (V101 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 42 c).Φ 0 = Pipeline.ΦA spec42 c from rfl]; unfold Pipeline.ΦA
    iintro ⟨Hp, -, Hr⟩
    isplitl [Hr]; · iexact Hr
    iexact Hp
  hout c := by
    rw [Pipeline.ownSems0_none, show (pdats m ρ 42 c).Φ (Fin.last _) = Pipeline.ΦA spec42 c from rfl]; unfold Pipeline.ΦA
    iintro ⟨Hr, Hp⟩
    isplitl [Hp]; · iexact Hp
    isplitr; · iempintro
    iexact Hr
  hexit c := by
    have hjoin := Pipeline.unscopedBufs_of_arrays (p := 42) (pcfgs (F := F)) adm (Ix := Unit) (Name := ℕ) (U := UR sig nD τ) (Lvl := ℕ)
      launch42.win launch42.arr_whole c (pdats m ρ) ((pdats m ρ 42 c).share_full fun _ => rfl)
      (V101 m ρ c) (V102 m ρ c) ((pdats m ρ 42 c).arrAt · cfg42.N) (hF42 m ρ c) (hrest42 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Segs.lean ====
import proofs.«101828_j11562051961417_2_alg».proof.Proof.KI.Reg0
import proofs.«101828_j11562051961417_2_alg».proof.Proof.KI.Reg1
import proofs.«101828_j11562051961417_2_alg».proof.Proof.KI.Reg2
import proofs.«101828_j11562051961417_2_alg».proof.Proof.KI.Reg3
import proofs.«101828_j11562051961417_2_alg».proof.Proof.KI.Reg4
import proofs.«101828_j11562051961417_2_alg».proof.Proof.KI.Reg5
import proofs.«101828_j11562051961417_2_alg».proof.Proof.KI.Reg6
import proofs.«101828_j11562051961417_2_alg».proof.Proof.KI.Reg7
import proofs.«101828_j11562051961417_2_alg».proof.Proof.KI.Reg8
import proofs.«101828_j11562051961417_2_alg».proof.Proof.KI.Reg9
import proofs.«101828_j11562051961417_2_alg».proof.Proof.KI.Reg10
import proofs.«101828_j11562051961417_2_alg».proof.Proof.KI.Reg11
import proofs.«101828_j11562051961417_2_alg».proof.Proof.KI.Reg12
import proofs.«101828_j11562051961417_2_alg».proof.Proof.KI.Reg13
import proofs.«101828_j11562051961417_2_alg».proof.Proof.KI.Reg14
import proofs.«101828_j11562051961417_2_alg».proof.Proof.KI.Reg15
import proofs.«101828_j11562051961417_2_alg».proof.Proof.KI.Reg16
import proofs.«101828_j11562051961417_2_alg».proof.Proof.KI.Reg17
import proofs.«101828_j11562051961417_2_alg».proof.Proof.KI.Reg18
import proofs.«101828_j11562051961417_2_alg».proof.Proof.KI.Reg19
import proofs.«101828_j11562051961417_2_alg».proof.Proof.KI.Reg20
import proofs.«101828_j11562051961417_2_alg».proof.Proof.KI.Reg21
import proofs.«101828_j11562051961417_2_alg».proof.Proof.KI.Reg22
import proofs.«101828_j11562051961417_2_alg».proof.Proof.KI.Reg23
import proofs.«101828_j11562051961417_2_alg».proof.Proof.KI.Reg24
import proofs.«101828_j11562051961417_2_alg».proof.Proof.KI.Reg25
import proofs.«101828_j11562051961417_2_alg».proof.Proof.KI.Reg26
import proofs.«101828_j11562051961417_2_alg».proof.Proof.KI.Reg27
import proofs.«101828_j11562051961417_2_alg».proof.Proof.KI.Reg28
import proofs.«101828_j11562051961417_2_alg».proof.Proof.KI.Reg29
import proofs.«101828_j11562051961417_2_alg».proof.Proof.KI.Reg30
import proofs.«101828_j11562051961417_2_alg».proof.Proof.KI.Reg31
import proofs.«101828_j11562051961417_2_alg».proof.Proof.KI.Reg32
import proofs.«101828_j11562051961417_2_alg».proof.Proof.KI.Reg33
import proofs.«101828_j11562051961417_2_alg».proof.Proof.KI.Reg34
import proofs.«101828_j11562051961417_2_alg».proof.Proof.KI.Reg35
import proofs.«101828_j11562051961417_2_alg».proof.Proof.KI.Reg36
import proofs.«101828_j11562051961417_2_alg».proof.Proof.KI.Reg37
import proofs.«101828_j11562051961417_2_alg».proof.Proof.KI.Reg38
import proofs.«101828_j11562051961417_2_alg».proof.Proof.KI.Reg39
import proofs.«101828_j11562051961417_2_alg».proof.Proof.KI.Reg40
import proofs.«101828_j11562051961417_2_alg».proof.Proof.KI.Reg41
import proofs.«101828_j11562051961417_2_alg».proof.Proof.KI.Reg42

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 109 segments in order: a host segment per stretch of operations, from its boundary's contents, and a
    region per pallas_call. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .host (hseg hostOps5_1 hostOps5_1_sub hostOps5_1_fresh (W11 m ρ)),
    .host (hseg hostOps5_2 hostOps5_2_sub hostOps5_2_fresh (W12 m ρ)),
    .host (hseg hostOps5_3 hostOps5_3_sub hostOps5_3_fresh (W13 m ρ)),
    .host (hseg hostOps5_4 hostOps5_4_sub hostOps5_4_fresh (W14 m ρ)),
    .region (reg5 m ρ),
    .host (hseg hostOps6 hostOps6_sub hostOps6_fresh (W16 m ρ)),
    .region (reg6 m ρ),
    .host (hseg hostOps7 hostOps7_sub hostOps7_fresh (W18 m ρ)),
    .region (reg7 m ρ),
    .host (hseg hostOps8 hostOps8_sub hostOps8_fresh (W20 m ρ)),
    .region (reg8 m ρ),
    .host (hseg hostOps9 hostOps9_sub hostOps9_fresh (W22 m ρ)),
    .region (reg9 m ρ),
    .host (hseg hostOps10 hostOps10_sub hostOps10_fresh (W24 m ρ)),
    .region (reg10 m ρ),
    .host (hseg hostOps11 hostOps11_sub hostOps11_fresh (W26 m ρ)),
    .region (reg11 m ρ),
    .host (hseg hostOps12 hostOps12_sub hostOps12_fresh (W28 m ρ)),
    .region (reg12 m ρ),
    .host (hseg hostOps13 hostOps13_sub hostOps13_fresh (W30 m ρ)),
    .region (reg13 m ρ),
    .host (hseg hostOps14 hostOps14_sub hostOps14_fresh (W32 m ρ)),
    .region (reg14 m ρ),
    .host (hseg hostOps15 hostOps15_sub hostOps15_fresh (W34 m ρ)),
    .host (hseg hostOps15_1 hostOps15_1_sub hostOps15_1_fresh (W35 m ρ)),
    .host (hseg hostOps15_2 hostOps15_2_sub hostOps15_2_fresh (W36 m ρ)),
    .host (hseg hostOps15_3 hostOps15_3_sub hostOps15_3_fresh (W37 m ρ)),
    .host (hseg hostOps15_4 hostOps15_4_sub hostOps15_4_fresh (W38 m ρ)),
    .region (reg15 m ρ),
    .host (hseg hostOps16 hostOps16_sub hostOps16_fresh (W40 m ρ)),
    .region (reg16 m ρ),
    .host (hseg hostOps17 hostOps17_sub hostOps17_fresh (W42 m ρ)),
    .region (reg17 m ρ),
    .host (hseg hostOps18 hostOps18_sub hostOps18_fresh (W44 m ρ)),
    .region (reg18 m ρ),
    .host (hseg hostOps19 hostOps19_sub hostOps19_fresh (W46 m ρ)),
    .region (reg19 m ρ),
    .host (hseg hostOps20 hostOps20_sub hostOps20_fresh (W48 m ρ)),
    .region (reg20 m ρ),
    .host (hseg hostOps21 hostOps21_sub hostOps21_fresh (W50 m ρ)),
    .region (reg21 m ρ),
    .host (hseg hostOps22 hostOps22_sub hostOps22_fresh (W52 m ρ)),
    .region (reg22 m ρ),
    .host (hseg hostOps23 hostOps23_sub hostOps23_fresh (W54 m ρ)),
    .region (reg23 m ρ),
    .host (hseg hostOps24 hostOps24_sub hostOps24_fresh (W56 m ρ)),
    .region (reg24 m ρ),
    .host (hseg hostOps25 hostOps25_sub hostOps25_fresh (W58 m ρ)),
    .host (hseg hostOps25_1 hostOps25_1_sub hostOps25_1_fresh (W59 m ρ)),
    .host (hseg hostOps25_2 hostOps25_2_sub hostOps25_2_fresh (W60 m ρ)),
    .host (hseg hostOps25_3 hostOps25_3_sub hostOps25_3_fresh (W61 m ρ)),
    .host (hseg hostOps25_4 hostOps25_4_sub hostOps25_4_fresh (W62 m ρ)),
    .region (reg25 m ρ),
    .host (hseg hostOps26 hostOps26_sub hostOps26_fresh (W64 m ρ)),
    .region (reg26 m ρ),
    .host (hseg hostOps27 hostOps27_sub hostOps27_fresh (W66 m ρ)),
    .region (reg27 m ρ),
    .host (hseg hostOps28 hostOps28_sub hostOps28_fresh (W68 m ρ)),
    .region (reg28 m ρ),
    .host (hseg hostOps29 hostOps29_sub hostOps29_fresh (W70 m ρ)),
    .region (reg29 m ρ),
    .host (hseg hostOps30 hostOps30_sub hostOps30_fresh (W72 m ρ)),
    .region (reg30 m ρ),
    .host (hseg hostOps31 hostOps31_sub hostOps31_fresh (W74 m ρ)),
    .region (reg31 m ρ),
    .host (hseg hostOps32 hostOps32_sub hostOps32_fresh (W76 m ρ)),
    .region (reg32 m ρ),
    .host (hseg hostOps33 hostOps33_sub hostOps33_fresh (W78 m ρ)),
    .region (reg33 m ρ),
    .host (hseg hostOps34 hostOps34_sub hostOps34_fresh (W80 m ρ)),
    .region (reg34 m ρ),
    .host (hseg hostOps35 hostOps35_sub hostOps35_fresh (W82 m ρ)),
    .host (hseg hostOps35_1 hostOps35_1_sub hostOps35_1_fresh (W83 m ρ)),
    .host (hseg hostOps35_2 hostOps35_2_sub hostOps35_2_fresh (W84 m ρ)),
    .host (hseg hostOps35_3 hostOps35_3_sub hostOps35_3_fresh (W85 m ρ)),
    .host (hseg hostOps35_4 hostOps35_4_sub hostOps35_4_fresh (W86 m ρ)),
    .region (reg35 m ρ),
    .host (hseg hostOps36 hostOps36_sub hostOps36_fresh (W88 m ρ)),
    .region (reg36 m ρ),
    .host (hseg hostOps37 hostOps37_sub hostOps37_fresh (W90 m ρ)),
    .region (reg37 m ρ),
    .host (hseg hostOps38 hostOps38_sub hostOps38_fresh (W92 m ρ)),
    .region (reg38 m ρ),
    .host (hseg hostOps39 hostOps39_sub hostOps39_fresh (W94 m ρ)),
    .region (reg39 m ρ),
    .host (hseg hostOps40 hostOps40_sub hostOps40_fresh (W96 m ρ)),
    .region (reg40 m ρ),
    .host (hseg hostOps41 hostOps41_sub hostOps41_fresh (W98 m ρ)),
    .region (reg41 m ρ),
    .host (hseg hostOps42 hostOps42_sub hostOps42_fresh (W100 m ρ)),
    .region (reg42 m ρ),
    .host (hseg hostOps43 hostOps43_sub hostOps43_fresh (W102 m ρ)),
    .host (hseg hostOps43_1 hostOps43_1_sub hostOps43_1_fresh (W103 m ρ)),
    .host (hseg hostOps43_2 hostOps43_2_sub hostOps43_2_fresh (W104 m ρ)),
    .host (hseg hostOps43_3 hostOps43_3_sub hostOps43_3_fresh (W105 m ρ)),
    .host (hseg hostOps43_4 hostOps43_4_sub hostOps43_4_fresh (W106 m ρ)),
    .host (hseg hostOps43_5 hostOps43_5_sub hostOps43_5_fresh (W107 m ρ)),
    .host (hseg hostOps43_6 hostOps43_6_sub hostOps43_6_fresh (W108 m ρ)) ]

/-- Each segment is entered from exactly the thread state the one before it leaves (the boundary's contents by name);
    after the last one the `owes` is set beside the rest. -/
theorem segs_chain : Pipeline.Seg.Chains
    (fun c => iprop(StableHlo.held (c : Thread nD τ) (Pipeline.ucRefs τ sig) (W0 m ρ c) ∗ R c)) (segs m ρ)
    (fun c => iprop(Tₙ m ρ c ∗ ∃ W, owes (c : Thread nD τ) (0 : CellTallies nD τ sig Unit) W)) :=
  ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
    show iprop(StableHlo.held (c : Thread nD τ) (Pipeline.ucRefs τ sig) (W109 m ρ c)
        ∗ (∃ r, prngReg c r) ∗ ∃ W, owes (c : Thread nD τ) (0 : CellTallies nD τ sig Unit) W) ⊢ _
    iintro ⟨Hh, Hp, HO⟩
    isplitl [Hh Hp]
    · isplitl [Hh]; · iexact Hh
      iexact Hp
    iexact HO⟩

end Cert.KernelIdeal.Reg

end
-- ==== Proof.KI.Run.lean ====
/- The launch of the whole program over its segments: every weakly fair execution of @main terminates without a fault,
   and at the end every unscoped buffer of a core holds the last boundary's contents `W109`: the fold of @main's host
   stretches and regions from the launch memory. The frame claim and the result's value are both read off this. -/
import proofs.«101828_j11562051961417_2_alg».proof.Proof.KI.Segs

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main is the run of its segments: it is the chain of its items, and so is the segments' run. -/
theorem main_run (c : Dev nD) : main (F := F) c = Pipeline.Seg.run (segs m ρ) := (main_chain c).trans (by chain_rfl)

set_option backward.isDefEq.respectTransparency.types false in
/-- From any memory with zero counters every weakly fair execution of @main on the TensorCores terminates, nothing
    faulting, and every final state has each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W109 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := segs_chain m ρ)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W109 m ρ c b)
    (hfin := fun c s' => by
      iintro ⟨⟨Hh, -⟩, HSI⟩
      unfold StableHlo.held
      imodintro
      iapply (pointsTo_read_all (Pipeline.ucRefs τ sig) (fun b => (((c : Thread nD τ)).1, b)) (W109 m ρ c) s')
      isplitl [Hh] <;> iassumption)
    (hQ := fun s h c => h c)

end Cert.KernelIdeal.Reg

end
-- ==== Proof.KI.Keep.lean ====
import proofs.«101828_j11562051961417_2_alg».proof.Proof.KI.Fold

set_option maxRecDepth 16384

noncomputable section

namespace Cert.KernelIdeal.Reg

open Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-! # What each segment of @main leaves unchanged

    A stretch of host operations changes only the buffers its operations write; a region changes only its output
    array. So a buffer outside all of these reaches the end as launched: every argument does. -/

/-- The references `hostOps0`'s operations write. -/
abbrev hostOps0_W : List (Ref sig .tc) := [main_cst, main_v0, main_c, main_v1, main_v2, main_c_0, main_v3, main_v4, main_v5, main_c_1, main_v6, main_v7, main_c_2, main_v8, main_v9, main_v10, main_c_3, main_v11, main_v12, main_c_4, main_v13, main_v14, main_v15, main_v16, main_v17, main_v18, main_v19, main_cst_5, main_v20, main_v21, main_cst_6, main_v22, main_c_7, main_v23, main_v24, main_c_8, main_v25, main_v26, main_v27, main_c_9, main_v28, main_v29, main_c_10, main_v30, main_v31, main_v32, main_c_11, main_v33, main_v34, main_c_12, main_v35, main_v36, main_v37, main_v38, main_v39, main_v40, main_v41, main_cst_13, main_v42, main_v43, main_c_14, main_v44, main_v45, main_v46, main_c_15, main_v47, main_v48, main_v49, main_c_16, main_v50, main_v51, main_v52, main_c_17, main_v53, main_v54, main_v55, main_c_18, main_v56, main_v57, main_v58, main_c_19, main_v59, main_v60, main_v61, main_v62, main_v63]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 1 agrees with boundary 0 off what `hostOps0` writes. -/
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h

/-- Boundary 2 agrees with boundary 1 off region 0's output array `main_v64`: a buffer that is none of the
    region's arrays is bypassed, and an input array is handed back as entered. -/
theorem W2_keep (c : Dev nD) (r : Ref sig .tc) (h : r ≠ main_v64) : W2 m ρ c (Proc.devRef .tc r) = W1 m ρ c (Proc.devRef .tc r) := by
  by_cases hin : ∃ w : Fin cfg0.W, Pipeline.arrRef spec0 w = r
  · obtain ⟨w, rfl⟩ := hin
    have hw : (cfg0.win w).isOut = false := by
      revert w; exact (by decide : ∀ w : Fin cfg0.W, Pipeline.arrRef spec0 w ≠ main_v64 → (cfg0.win w).isOut = false)
    exact (W2_arr m ρ c w).trans (((dat0 (V1 m ρ) c).arrAt_in w hw _).trans (A_eq0 (V1 m ρ) c w))
  · exact W2_of_ne m ρ c r fun w e => hin ⟨w, e⟩

/-- The references `hostOps1`'s operations write. -/
abbrev hostOps1_W : List (Ref sig .tc) := [main_v65, main_v66]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 3 agrees with boundary 2 off what `hostOps1` writes. -/
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h

/-- Boundary 4 agrees with boundary 3 off region 1's output array `main_v67`: a buffer that is none of the
    region's arrays is bypassed, and an input array is handed back as entered. -/
theorem W4_keep (c : Dev nD) (r : Ref sig .tc) (h : r ≠ main_v67) : W4 m ρ c (Proc.devRef .tc r) = W3 m ρ c (Proc.devRef .tc r) := by
  by_cases hin : ∃ w : Fin cfg1.W, Pipeline.arrRef spec1 w = r
  · obtain ⟨w, rfl⟩ := hin
    have hw : (cfg1.win w).isOut = false := by
      revert w; exact (by decide : ∀ w : Fin cfg1.W, Pipeline.arrRef spec1 w ≠ main_v67 → (cfg1.win w).isOut = false)
    exact (W4_arr m ρ c w).trans (((dat1 (V3 m ρ) c).arrAt_in w hw _).trans (A_eq1 (V3 m ρ) c w))
  · exact W4_of_ne m ρ c r fun w e => hin ⟨w, e⟩

/-- The references `hostOps2`'s operations write. -/
abbrev hostOps2_W : List (Ref sig .tc) := [main_v68, main_v69]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 5 agrees with boundary 4 off what `hostOps2` writes. -/
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h

/-- Boundary 6 agrees with boundary 5 off region 2's output array `main_v70`: a buffer that is none of the
    region's arrays is bypassed, and an input array is handed back as entered. -/
theorem W6_keep (c : Dev nD) (r : Ref sig .tc) (h : r ≠ main_v70) : W6 m ρ c (Proc.devRef .tc r) = W5 m ρ c (Proc.devRef .tc r) := by
  by_cases hin : ∃ w : Fin cfg2.W, Pipeline.arrRef spec2 w = r
  · obtain ⟨w, rfl⟩ := hin
    have hw : (cfg2.win w).isOut = false := by
      revert w; exact (by decide : ∀ w : Fin cfg2.W, Pipeline.arrRef spec2 w ≠ main_v70 → (cfg2.win w).isOut = false)
    exact (W6_arr m ρ c w).trans (((dat2 (V5 m ρ) c).arrAt_in w hw _).trans (A_eq2 (V5 m ρ) c w))
  · exact W6_of_ne m ρ c r fun w e => hin ⟨w, e⟩

/-- The references `hostOps3`'s operations write. -/
abbrev hostOps3_W : List (Ref sig .tc) := [main_v71, main_v72]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 7 agrees with boundary 6 off what `hostOps3` writes. -/
theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h

/-- Boundary 8 agrees with boundary 7 off region 3's output array `main_v73`: a buffer that is none of the
    region's arrays is bypassed, and an input array is handed back as entered. -/
theorem W8_keep (c : Dev nD) (r : Ref sig .tc) (h : r ≠ main_v73) : W8 m ρ c (Proc.devRef .tc r) = W7 m ρ c (Proc.devRef .tc r) := by
  by_cases hin : ∃ w : Fin cfg3.W, Pipeline.arrRef spec3 w = r
  · obtain ⟨w, rfl⟩ := hin
    have hw : (cfg3.win w).isOut = false := by
      revert w; exact (by decide : ∀ w : Fin cfg3.W, Pipeline.arrRef spec3 w ≠ main_v73 → (cfg3.win w).isOut = false)
    exact (W8_arr m ρ c w).trans (((dat3 (V7 m ρ) c).arrAt_in w hw _).trans (A_eq3 (V7 m ρ) c w))
  · exact W8_of_ne m ρ c r fun w e => hin ⟨w, e⟩

/-- The references `hostOps4`'s operations write. -/
abbrev hostOps4_W : List (Ref sig .tc) := [main_v74, main_v75]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 9 agrees with boundary 8 off what `hostOps4` writes. -/
theorem W9_keep (c : Dev nD) (r : Ref sig .tc) (h : r ∉ hostOps4_W) : W9 m ρ c (Proc.devRef .tc r) = W8 m ρ c (Proc.devRef .tc r) :=
  StableHlo.after_of_writes_sub hostOps4 _ hostOps4_writes h

/-- Boundary 10 agrees with boundary 9 off region 4's output array `main_v76`: a buffer that is none of the
    region's arrays is bypassed, and an input array is handed back as entered. -/
theorem W10_keep (c : Dev nD) (r : Ref sig .tc) (h : r ≠ main_v76) : W10 m ρ c (Proc.devRef .tc r) = W9 m ρ c (Proc.devRef .tc r) := by
  by_cases hin : ∃ w : Fin cfg4.W, Pipeline.arrRef spec4 w = r
  · obtain ⟨w, rfl⟩ := hin
    have hw : (cfg4.win w).isOut = false := by
      revert w; exact (by decide : ∀ w : Fin cfg4.W, Pipeline.arrRef spec4 w ≠ main_v76 → (cfg4.win w).isOut = false)
    exact (W10_arr m ρ c w).trans (((dat4 (V9 m ρ) c).arrAt_in w hw _).trans (A_eq4 (V9 m ρ) c w))
  · exact W10_of_ne m ρ c r fun w e => hin ⟨w, e⟩

/-- The references `hostOps5`'s operations write. -/
abbrev hostOps5_W : List (Ref sig .tc) := [main_c_20, main_v77, main_v78, main_c_21, main_v79, main_v80, main_v81, main_v82, main_v83, main_c_22, main_v84, main_v85, main_c_23, main_v86, main_v87, main_v88, main_v89, main_v90, main_v91]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 11 agrees with boundary 10 off what `hostOps5` writes. -/
theorem W11_keep (c : Dev nD) (r : Ref sig .tc) (h : r ∉ hostOps5_W) : W11 m ρ c (Proc.devRef .tc r) = W10 m ρ c (Proc.devRef .tc r) :=
  StableHlo.after_of_writes_sub hostOps5 _ hostOps5_writes h

/-- The references `hostOps5_1`'s operations write. -/
abbrev hostOps5_1_W : List (Ref sig .tc) := [main_call0_cst, main_call0_v0, main_v92]
theorem hostOps5_1_writes : (hostOps5_1 : List (HloOp τ sig (Elt F))).Forall fun op => op.writes ⊆ (hostOps5_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 12 agrees with boundary 11 off what `hostOps5_1` writes. -/
theorem W12_keep (c : Dev nD) (r : Ref sig .tc) (h : r ∉ hostOps5_1_W) : W12 m ρ c (Proc.devRef .tc r) = W11 m ρ c (Proc.devRef .tc r) :=
  StableHlo.after_of_writes_sub hostOps5_1 _ hostOps5_1_writes h

/-- The references `hostOps5_2`'s operations write. -/
abbrev hostOps5_2_W : List (Ref sig .tc) := [main_cst_24, main_v93, main_v94, main_v95, main_c_25, main_v96, main_v97, main_c_26, main_v98, main_v99, main_v100, main_v101, main_v102, main_c_27, main_v103, main_v104, main_c_28, main_v105, main_v106, main_v107, main_v108, main_v109, main_v110]
theorem hostOps5_2_writes : (hostOps5_2 : List (HloOp τ sig (Elt F))).Forall fun op => op.writes ⊆ (hostOps5_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 13 agrees with boundary 12 off what `hostOps5_2` writes. -/
theorem W13_keep (c : Dev nD) (r : Ref sig .tc) (h : r ∉ hostOps5_2_W) : W13 m ρ c (Proc.devRef .tc r) = W12 m ρ c (Proc.devRef .tc r) :=
  StableHlo.after_of_writes_sub hostOps5_2 _ hostOps5_2_writes h

/-- The references `hostOps5_3`'s operations write. -/
abbrev hostOps5_3_W : List (Ref sig .tc) := [main_call1_cst, main_call1_v0, main_v111]
theorem hostOps5_3_writes : (hostOps5_3 : List (HloOp τ sig (Elt F))).Forall fun op => op.writes ⊆ (hostOps5_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 14 agrees with boundary 13 off what `hostOps5_3` writes. -/
theorem W14_keep (c : Dev nD) (r : Ref sig .tc) (h : r ∉ hostOps5_3_W) : W14 m ρ c (Proc.devRef .tc r) = W13 m ρ c (Proc.devRef .tc r) :=
  StableHlo.after_of_writes_sub hostOps5_3 _ hostOps5_3_writes h

/-- The references `hostOps5_4`'s operations write. -/
abbrev hostOps5_4_W : List (Ref sig .tc) := [main_cst_29, main_v112, main_v113, main_v114, main_v115]
theorem hostOps5_4_writes : (hostOps5_4 : List (HloOp τ sig (Elt F))).Forall fun op => op.writes ⊆ (hostOps5_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 15 agrees with boundary 14 off what `hostOps5_4` writes. -/
theorem W15_keep (c : Dev nD) (r : Ref sig .tc) (h : r ∉ hostOps5_4_W) : W15 m ρ c (Proc.devRef .tc r) = W14 m ρ c (Proc.devRef .tc r) :=
  StableHlo.after_of_writes_sub hostOps5_4 _ hostOps5_4_writes h

/-- Boundary 16 agrees with boundary 15 off region 5's output array `main_v116`: a buffer that is none of the
    region's arrays is bypassed, and an input array is handed back as entered. -/
theorem W16_keep (c : Dev nD) (r : Ref sig .tc) (h : r ≠ main_v116) : W16 m ρ c (Proc.devRef .tc r) = W15 m ρ c (Proc.devRef .tc r) := by
  by_cases hin : ∃ w : Fin cfg5.W, Pipeline.arrRef spec5 w = r
  · obtain ⟨w, rfl⟩ := hin
    have hw : (cfg5.win w).isOut = false := by
      revert w; exact (by decide : ∀ w : Fin cfg5.W, Pipeline.arrRef spec5 w ≠ main_v116 → (cfg5.win w).isOut = false)
    exact (W16_arr m ρ c w).trans (((dat5 (V15 m ρ) c).arrAt_in w hw _).trans (A_eq5 (V15 m ρ) c w))
  · exact W16_of_ne m ρ c r fun w e => hin ⟨w, e⟩

/-- The references `hostOps6`'s operations write. -/
abbrev hostOps6_W : List (Ref sig .tc) := [main_v117, main_v118, main_v119, main_v120]
theorem hostOps6_writes : (hostOps6 : List (HloOp τ sig (Elt F))).Forall fun op => op.writes ⊆ (hostOps6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 17 agrees with boundary 16 off what `hostOps6` writes. -/
theorem W17_keep (c : Dev nD) (r : Ref sig .tc) (h : r ∉ hostOps6_W) : W17 m ρ c (Proc.devRef .tc r) = W16 m ρ c (Proc.devRef .tc r) :=
  StableHlo.after_of_writes_sub hostOps6 _ hostOps6_writes h

/-- Boundary 18 agrees with boundary 17 off region 6's output array `main_v121`: a buffer that is none of the
    region's arrays is bypassed, and an input array is handed back as entered. -/
theorem W18_keep (c : Dev nD) (r : Ref sig .tc) (h : r ≠ main_v121) : W18 m ρ c (Proc.devRef .tc r) = W17 m ρ c (Proc.devRef .tc r) := by
  by_cases hin : ∃ w : Fin cfg6.W, Pipeline.arrRef spec6 w = r
  · obtain ⟨w, rfl⟩ := hin
    have hw : (cfg6.win w).isOut = false := by
      revert w; exact (by decide : ∀ w : Fin cfg6.W, Pipeline.arrRef spec6 w ≠ main_v121 → (cfg6.win w).isOut = false)
    exact (W18_arr m ρ c w).trans (((dat6 (V17 m ρ) c).arrAt_in w hw _).trans (A_eq6 (V17 m ρ) c w))
  · exact W18_of_ne m ρ c r fun w e => hin ⟨w, e⟩

/-- The references `hostOps7`'s operations write. -/
abbrev hostOps7_W : List (Ref sig .tc) := [main_v122, main_v123, main_v124, main_v125, main_v126, main_v127]
theorem hostOps7_writes : (hostOps7 : List (HloOp τ sig (Elt F))).Forall fun op => op.writes ⊆ (hostOps7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 19 agrees with boundary 18 off what `hostOps7` writes. -/
theorem W19_keep (c : Dev nD) (r : Ref sig .tc) (h : r ∉ hostOps7_W) : W19 m ρ c (Proc.devRef .tc r) = W18 m ρ c (Proc.devRef .tc r) :=
  StableHlo.after_of_writes_sub hostOps7 _ hostOps7_writes h

/-- Boundary 20 agrees with boundary 19 off region 7's output array `main_v128`: a buffer that is none of the
    region's arrays is bypassed, and an input array is handed back as entered. -/
theorem W20_keep (c : Dev nD) (r : Ref sig .tc) (h : r ≠ main_v128) : W20 m ρ c (Proc.devRef .tc r) = W19 m ρ c (Proc.devRef .tc r) := by
  by_cases hin : ∃ w : Fin cfg7.W, Pipeline.arrRef spec7 w = r
  · obtain ⟨w, rfl⟩ := hin
    have hw : (cfg7.win w).isOut = false := by
      revert w; exact (by decide : ∀ w : Fin cfg7.W, Pipeline.arrRef spec7 w ≠ main_v128 → (cfg7.win w).isOut = false)
    exact (W20_arr m ρ c w).trans (((dat7 (V19 m ρ) c).arrAt_in w hw _).trans (A_eq7 (V19 m ρ) c w))
  · exact W20_of_ne m ρ c r fun w e => hin ⟨w, e⟩

/-- The references `hostOps8`'s operations write. -/
abbrev hostOps8_W : List (Ref sig .tc) := [main_v129, main_v130, main_v131, main_v132, main_v133]
theorem hostOps8_writes : (hostOps8 : List (HloOp τ sig (Elt F))).Forall fun op => op.writes ⊆ (hostOps8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 21 agrees with boundary 20 off what `hostOps8` writes. -/
theorem W21_keep (c : Dev nD) (r : Ref sig .tc) (h : r ∉ hostOps8_W) : W21 m ρ c (Proc.devRef .tc r) = W20 m ρ c (Proc.devRef .tc r) :=
  StableHlo.after_of_writes_sub hostOps8 _ hostOps8_writes h

/-- Boundary 22 agrees with boundary 21 off region 8's output array `main_v134`: a buffer that is none of the
    region's arrays is bypassed, and an input array is handed back as entered. -/
theorem W22_keep (c : Dev nD) (r : Ref sig .tc) (h : r ≠ main_v134) : W22 m ρ c (Proc.devRef .tc r) = W21 m ρ c (Proc.devRef .tc r) := by
  by_cases hin : ∃ w : Fin cfg8.W, Pipeline.arrRef spec8 w = r
  · obtain ⟨w, rfl⟩ := hin
    have hw : (cfg8.win w).isOut = false := by
      revert w; exact (by decide : ∀ w : Fin cfg8.W, Pipeline.arrRef spec8 w ≠ main_v134 → (cfg8.win w).isOut = false)
    exact (W22_arr m ρ c w).trans (((dat8 (V21 m ρ) c).arrAt_in w hw _).trans (A_eq8 (V21 m ρ) c w))
  · exact W22_of_ne m ρ c r fun w e => hin ⟨w, e⟩

/-- The references `hostOps9`'s operations write. -/
abbrev hostOps9_W : List (Ref sig .tc) := [main_v135, main_v136, main_v137, main_v138, main_v139]
theorem hostOps9_writes : (hostOps9 : List (HloOp τ sig (Elt F))).Forall fun op => op.writes ⊆ (hostOps9_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 23 agrees with boundary 22 off what `hostOps9` writes. -/
theorem W23_keep (c : Dev nD) (r : Ref sig .tc) (h : r ∉ hostOps9_W) : W23 m ρ c (Proc.devRef .tc r) = W22 m ρ c (Proc.devRef .tc r) :=
  StableHlo.after_of_writes_sub hostOps9 _ hostOps9_writes h

/-- Boundary 24 agrees with boundary 23 off region 9's output array `main_v140`: a buffer that is none of the
    region's arrays is bypassed, and an input array is handed back as entered. -/
theorem W24_keep (c : Dev nD) (r : Ref sig .tc) (h : r ≠ main_v140) : W24 m ρ c (Proc.devRef .tc r) = W23 m ρ c (Proc.devRef .tc r) := by
  by_cases hin : ∃ w : Fin cfg9.W, Pipeline.arrRef spec9 w = r
  · obtain ⟨w, rfl⟩ := hin
    have hw : (cfg9.win w).isOut = false := by
      revert w; exact (by decide : ∀ w : Fin cfg9.W, Pipeline.arrRef spec9 w ≠ main_v140 → (cfg9.win w).isOut = false)
    exact (W24_arr m ρ c w).trans (((dat9 (V23 m ρ) c).arrAt_in w hw _).trans (A_eq9 (V23 m ρ) c w))
  · exact W24_of_ne m ρ c r fun w e => hin ⟨w, e⟩

/-- The references `hostOps10`'s operations write. -/
abbrev hostOps10_W : List (Ref sig .tc) := [main_v141, main_v142]
theorem hostOps10_writes : (hostOps10 : List (HloOp τ sig (Elt F))).Forall fun op => op.writes ⊆ (hostOps10_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 25 agrees with boundary 24 off what `hostOps10` writes. -/
theorem W25_keep (c : Dev nD) (r : Ref sig .tc) (h : r ∉ hostOps10_W) : W25 m ρ c (Proc.devRef .tc r) = W24 m ρ c (Proc.devRef .tc r) :=
  StableHlo.after_of_writes_sub hostOps10 _ hostOps10_writes h

/-- Boundary 26 agrees with boundary 25 off region 10's output array `main_v143`: a buffer that is none of the
    region's arrays is bypassed, and an input array is handed back as entered. -/
theorem W26_keep (c : Dev nD) (r : Ref sig .tc) (h : r ≠ main_v143) : W26 m ρ c (Proc.devRef .tc r) = W25 m ρ c (Proc.devRef .tc r) := by
  by_cases hin : ∃ w : Fin cfg10.W, Pipeline.arrRef spec10 w = r
  · obtain ⟨w, rfl⟩ := hin
    have hw : (cfg10.win w).isOut = false := by
      revert w; exact (by decide : ∀ w : Fin cfg10.W, Pipeline.arrRef spec10 w ≠ main_v143 → (cfg10.win w).isOut = false)
    exact (W26_arr m ρ c w).trans (((dat10 (V25 m ρ) c).arrAt_in w hw _).trans (A_eq10 (V25 m ρ) c w))
  · exact W26_of_ne m ρ c r fun w e => hin ⟨w, e⟩

/-- The references `hostOps11`'s operations write. -/
abbrev hostOps11_W : List (Ref sig .tc) := [main_v144, main_v145]
theorem hostOps11_writes : (hostOps11 : List (HloOp τ sig (Elt F))).Forall fun op => op.writes ⊆ (hostOps11_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 27 agrees with boundary 26 off what `hostOps11` writes. -/
theorem W27_keep (c : Dev nD) (r : Ref sig .tc) (h : r ∉ hostOps11_W) : W27 m ρ c (Proc.devRef .tc r) = W26 m ρ c (Proc.devRef .tc r) :=
  StableHlo.after_of_writes_sub hostOps11 _ hostOps11_writes h

/-- Boundary 28 agrees with boundary 27 off region 11's output array `main_v146`: a buffer that is none of the
    region's arrays is bypassed, and an input array is handed back as entered. -/
theorem W28_keep (c : Dev nD) (r : Ref sig .tc) (h : r ≠ main_v146) : W28 m ρ c (Proc.devRef .tc r) = W27 m ρ c (Proc.devRef .tc r) := by
  by_cases hin : ∃ w : Fin cfg11.W, Pipeline.arrRef spec11 w = r
  · obtain ⟨w, rfl⟩ := hin
    have hw : (cfg11.win w).isOut = false := by
      revert w; exact (by decide : ∀ w : Fin cfg11.W, Pipeline.arrRef spec11 w ≠ main_v146 → (cfg11.win w).isOut = false)
    exact (W28_arr m ρ c w).trans (((dat11 (V27 m ρ) c).arrAt_in w hw _).trans (A_eq11 (V27 m ρ) c w))
  · exact W28_of_ne m ρ c r fun w e => hin ⟨w, e⟩

/-- The references `hostOps12`'s operations write. -/
abbrev hostOps12_W : List (Ref sig .tc) := [main_v147, main_v148]
theorem hostOps12_writes : (hostOps12 : List (HloOp τ sig (Elt F))).Forall fun op => op.writes ⊆ (hostOps12_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 29 agrees with boundary 28 off what `hostOps12` writes. -/
theorem W29_keep (c : Dev nD) (r : Ref sig .tc) (h : r ∉ hostOps12_W) : W29 m ρ c (Proc.devRef .tc r) = W28 m ρ c (Proc.devRef .tc r) :=
  StableHlo.after_of_writes_sub hostOps12 _ hostOps12_writes h

/-- Boundary 30 agrees with boundary 29 off region 12's output array `main_v149`: a buffer that is none of the
    region's arrays is bypassed, and an input array is handed back as entered. -/
theorem W30_keep (c : Dev nD) (r : Ref sig .tc) (h : r ≠ main_v149) : W30 m ρ c (Proc.devRef .tc r) = W29 m ρ c (Proc.devRef .tc r) := by
  by_cases hin : ∃ w : Fin cfg12.W, Pipeline.arrRef spec12 w = r
  · obtain ⟨w, rfl⟩ := hin
    have hw : (cfg12.win w).isOut = false := by
      revert w; exact (by decide : ∀ w : Fin cfg12.W, Pipeline.arrRef spec12 w ≠ main_v149 → (cfg12.win w).isOut = false)
    exact (W30_arr m ρ c w).trans (((dat12 (V29 m ρ) c).arrAt_in w hw _).trans (A_eq12 (V29 m ρ) c w))
  · exact W30_of_ne m ρ c r fun w e => hin ⟨w, e⟩

/-- The references `hostOps13`'s operations write. -/
abbrev hostOps13_W : List (Ref sig .tc) := [main_v150, main_v151]
theorem hostOps13_writes : (hostOps13 : List (HloOp τ sig (Elt F))).Forall fun op => op.writes ⊆ (hostOps13_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 31 agrees with boundary 30 off what `hostOps13` writes. -/
theorem W31_keep (c : Dev nD) (r : Ref sig .tc) (h : r ∉ hostOps13_W) : W31 m ρ c (Proc.devRef .tc r) = W30 m ρ c (Proc.devRef .tc r) :=
  StableHlo.after_of_writes_sub hostOps13 _ hostOps13_writes h

/-- Boundary 32 agrees with boundary 31 off region 13's output array `main_v152`: a buffer that is none of the
    region's arrays is bypassed, and an input array is handed back as entered. -/
theorem W32_keep (c : Dev nD) (r : Ref sig .tc) (h : r ≠ main_v152) : W32 m ρ c (Proc.devRef .tc r) = W31 m ρ c (Proc.devRef .tc r) := by
  by_cases hin : ∃ w : Fin cfg13.W, Pipeline.arrRef spec13 w = r
  · obtain ⟨w, rfl⟩ := hin
    have hw : (cfg13.win w).isOut = false := by
      revert w; exact (by decide : ∀ w : Fin cfg13.W, Pipeline.arrRef spec13 w ≠ main_v152 → (cfg13.win w).isOut = false)
    exact (W32_arr m ρ c w).trans (((dat13 (V31 m ρ) c).arrAt_in w hw _).trans (A_eq13 (V31 m ρ) c w))
  · exact W32_of_ne m ρ c r fun w e => hin ⟨w, e⟩

/-- The references `hostOps14`'s operations write. -/
abbrev hostOps14_W : List (Ref sig .tc) := [main_v153, main_v154]
theorem hostOps14_writes : (hostOps14 : List (HloOp τ sig (Elt F))).Forall fun op => op.writes ⊆ (hostOps14_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 33 agrees with boundary 32 off what `hostOps14` writes. -/
theorem W33_keep (c : Dev nD) (r : Ref sig .tc) (h : r ∉ hostOps14_W) : W33 m ρ c (Proc.devRef .tc r) = W32 m ρ c (Proc.devRef .tc r) :=
  StableHlo.after_of_writes_sub hostOps14 _ hostOps14_writes h

/-- Boundary 34 agrees with boundary 33 off region 14's output array `main_v155`: a buffer that is none of the
    region's arrays is bypassed, and an input array is handed back as entered. -/
theorem W34_keep (c : Dev nD) (r : Ref sig .tc) (h : r ≠ main_v155) : W34 m ρ c (Proc.devRef .tc r) = W33 m ρ c (Proc.devRef .tc r) := by
  by_cases hin : ∃ w : Fin cfg14.W, Pipeline.arrRef spec14 w = r
  · obtain ⟨w, rfl⟩ := hin
    have hw : (cfg14.win w).isOut = false := by
      revert w; exact (by decide : ∀ w : Fin cfg14.W, Pipeline.arrRef spec14 w ≠ main_v155 → (cfg14.win w).isOut = false)
    exact (W34_arr m ρ c w).trans (((dat14 (V33 m ρ) c).arrAt_in w hw _).trans (A_eq14 (V33 m ρ) c w))
  · exact W34_of_ne m ρ c r fun w e => hin ⟨w, e⟩

/-- The references `hostOps15`'s operations write. -/
abbrev hostOps15_W : List (Ref sig .tc) := [main_c_30, main_v156, main_v157, main_c_31, main_v158, main_v159, main_v160, main_v161, main_v162, main_c_32, main_v163, main_v164, main_c_33, main_v165, main_v166, main_v167, main_v168, main_v169, main_v170]
theorem hostOps15_writes : (hostOps15 : List (HloOp τ sig (Elt F))).Forall fun op => op.writes ⊆ (hostOps15_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 35 agrees with boundary 34 off what `hostOps15` writes. -/
theorem W35_keep (c : Dev nD) (r : Ref sig .tc) (h : r ∉ hostOps15_W) : W35 m ρ c (Proc.devRef .tc r) = W34 m ρ c (Proc.devRef .tc r) :=
  StableHlo.after_of_writes_sub hostOps15 _ hostOps15_writes h

/-- The references `hostOps15_1`'s operations write. -/
abbrev hostOps15_1_W : List (Ref sig .tc) := [main_call2_cst, main_call2_v0, main_v171]
theorem hostOps15_1_writes : (hostOps15_1 : List (HloOp τ sig (Elt F))).Forall fun op => op.writes ⊆ (hostOps15_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 36 agrees with boundary 35 off what `hostOps15_1` writes. -/
theorem W36_keep (c : Dev nD) (r : Ref sig .tc) (h : r ∉ hostOps15_1_W) : W36 m ρ c (Proc.devRef .tc r) = W35 m ρ c (Proc.devRef .tc r) :=
  StableHlo.after_of_writes_sub hostOps15_1 _ hostOps15_1_writes h

/-- The references `hostOps15_2`'s operations write. -/
abbrev hostOps15_2_W : List (Ref sig .tc) := [main_cst_34, main_v172, main_v173, main_v174, main_c_35, main_v175, main_v176, main_c_36, main_v177, main_v178, main_v179, main_v180, main_v181, main_c_37, main_v182, main_v183, main_c_38, main_v184, main_v185, main_v186, main_v187, main_v188, main_v189]
theorem hostOps15_2_writes : (hostOps15_2 : List (HloOp τ sig (Elt F))).Forall fun op => op.writes ⊆ (hostOps15_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 37 agrees with boundary 36 off what `hostOps15_2` writes. -/
theorem W37_keep (c : Dev nD) (r : Ref sig .tc) (h : r ∉ hostOps15_2_W) : W37 m ρ c (Proc.devRef .tc r) = W36 m ρ c (Proc.devRef .tc r) :=
  StableHlo.after_of_writes_sub hostOps15_2 _ hostOps15_2_writes h

/-- The references `hostOps15_3`'s operations write. -/
abbrev hostOps15_3_W : List (Ref sig .tc) := [main_call3_cst, main_call3_v0, main_v190]
theorem hostOps15_3_writes : (hostOps15_3 : List (HloOp τ sig (Elt F))).Forall fun op => op.writes ⊆ (hostOps15_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 38 agrees with boundary 37 off what `hostOps15_3` writes. -/
theorem W38_keep (c : Dev nD) (r : Ref sig .tc) (h : r ∉ hostOps15_3_W) : W38 m ρ c (Proc.devRef .tc r) = W37 m ρ c (Proc.devRef .tc r) :=
  StableHlo.after_of_writes_sub hostOps15_3 _ hostOps15_3_writes h

/-- The references `hostOps15_4`'s operations write. -/
abbrev hostOps15_4_W : List (Ref sig .tc) := [main_cst_39, main_v191, main_v192, main_v193, main_v194]
theorem hostOps15_4_writes : (hostOps15_4 : List (HloOp τ sig (Elt F))).Forall fun op => op.writes ⊆ (hostOps15_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 39 agrees with boundary 38 off what `hostOps15_4` writes. -/
theorem W39_keep (c : Dev nD) (r : Ref sig .tc) (h : r ∉ hostOps15_4_W) : W39 m ρ c (Proc.devRef .tc r) = W38 m ρ c (Proc.devRef .tc r) :=
  StableHlo.after_of_writes_sub hostOps15_4 _ hostOps15_4_writes h

/-- Boundary 40 agrees with boundary 39 off region 15's output array `main_v195`: a buffer that is none of the
    region's arrays is bypassed, and an input array is handed back as entered. -/
theorem W40_keep (c : Dev nD) (r : Ref sig .tc) (h : r ≠ main_v195) : W40 m ρ c (Proc.devRef .tc r) = W39 m ρ c (Proc.devRef .tc r) := by
  by_cases hin : ∃ w : Fin cfg15.W, Pipeline.arrRef spec15 w = r
  · obtain ⟨w, rfl⟩ := hin
    have hw : (cfg15.win w).isOut = false := by
      revert w; exact (by decide : ∀ w : Fin cfg15.W, Pipeline.arrRef spec15 w ≠ main_v195 → (cfg15.win w).isOut = false)
    exact (W40_arr m ρ c w).trans (((dat15 (V39 m ρ) c).arrAt_in w hw _).trans (A_eq15 (V39 m ρ) c w))
  · exact W40_of_ne m ρ c r fun w e => hin ⟨w, e⟩

/-- The references `hostOps16`'s operations write. -/
abbrev hostOps16_W : List (Ref sig .tc) := [main_v196, main_v197, main_v198, main_v199]
theorem hostOps16_writes : (hostOps16 : List (HloOp τ sig (Elt F))).Forall fun op => op.writes ⊆ (hostOps16_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 41 agrees with boundary 40 off what `hostOps16` writes. -/
theorem W41_keep (c : Dev nD) (r : Ref sig .tc) (h : r ∉ hostOps16_W) : W41 m ρ c (Proc.devRef .tc r) = W40 m ρ c (Proc.devRef .tc r) :=
  StableHlo.after_of_writes_sub hostOps16 _ hostOps16_writes h

/-- Boundary 42 agrees with boundary 41 off region 16's output array `main_v200`: a buffer that is none of the
    region's arrays is bypassed, and an input array is handed back as entered. -/
theorem W42_keep (c : Dev nD) (r : Ref sig .tc) (h : r ≠ main_v200) : W42 m ρ c (Proc.devRef .tc r) = W41 m ρ c (Proc.devRef .tc r) := by
  by_cases hin : ∃ w : Fin cfg16.W, Pipeline.arrRef spec16 w = r
  · obtain ⟨w, rfl⟩ := hin
    have hw : (cfg16.win w).isOut = false := by
      revert w; exact (by decide : ∀ w : Fin cfg16.W, Pipeline.arrRef spec16 w ≠ main_v200 → (cfg16.win w).isOut = false)
    exact (W42_arr m ρ c w).trans (((dat16 (V41 m ρ) c).arrAt_in w hw _).trans (A_eq16 (V41 m ρ) c w))
  · exact W42_of_ne m ρ c r fun w e => hin ⟨w, e⟩

/-- The references `hostOps17`'s operations write. -/
abbrev hostOps17_W : List (Ref sig .tc) := [main_v201, main_v202, main_v203, main_v204, main_v205, main_v206]
theorem hostOps17_writes : (hostOps17 : List (HloOp τ sig (Elt F))).Forall fun op => op.writes ⊆ (hostOps17_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 43 agrees with boundary 42 off what `hostOps17` writes. -/
theorem W43_keep (c : Dev nD) (r : Ref sig .tc) (h : r ∉ hostOps17_W) : W43 m ρ c (Proc.devRef .tc r) = W42 m ρ c (Proc.devRef .tc r) :=
  StableHlo.after_of_writes_sub hostOps17 _ hostOps17_writes h

/-- Boundary 44 agrees with boundary 43 off region 17's output array `main_v207`: a buffer that is none of the
    region's arrays is bypassed, and an input array is handed back as entered. -/
theorem W44_keep (c : Dev nD) (r : Ref sig .tc) (h : r ≠ main_v207) : W44 m ρ c (Proc.devRef .tc r) = W43 m ρ c (Proc.devRef .tc r) := by
  by_cases hin : ∃ w : Fin cfg17.W, Pipeline.arrRef spec17 w = r
  · obtain ⟨w, rfl⟩ := hin
    have hw : (cfg17.win w).isOut = false := by
      revert w; exact (by decide : ∀ w : Fin cfg17.W, Pipeline.arrRef spec17 w ≠ main_v207 → (cfg17.win w).isOut = false)
    exact (W44_arr m ρ c w).trans (((dat17 (V43 m ρ) c).arrAt_in w hw _).trans (A_eq17 (V43 m ρ) c w))
  · exact W44_of_ne m ρ c r fun w e => hin ⟨w, e⟩

/-- The references `hostOps18`'s operations write. -/
abbrev hostOps18_W : List (Ref sig .tc) := [main_v208, main_v209, main_v210, main_v211, main_v212]
theorem hostOps18_writes : (hostOps18 : List (HloOp τ sig (Elt F))).Forall fun op => op.writes ⊆ (hostOps18_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 45 agrees with boundary 44 off what `hostOps18` writes. -/
theorem W45_keep (c : Dev nD) (r : Ref sig .tc) (h : r ∉ hostOps18_W) : W45 m ρ c (Proc.devRef .tc r) = W44 m ρ c (Proc.devRef .tc r) :=
  StableHlo.after_of_writes_sub hostOps18 _ hostOps18_writes h

/-- Boundary 46 agrees with boundary 45 off region 18's output array `main_v213`: a buffer that is none of the
    region's arrays is bypassed, and an input array is handed back as entered. -/
theorem W46_keep (c : Dev nD) (r : Ref sig .tc) (h : r ≠ main_v213) : W46 m ρ c (Proc.devRef .tc r) = W45 m ρ c (Proc.devRef .tc r) := by
  by_cases hin : ∃ w : Fin cfg18.W, Pipeline.arrRef spec18 w = r
  · obtain ⟨w, rfl⟩ := hin
    have hw : (cfg18.win w).isOut = false := by
      revert w; exact (by decide : ∀ w : Fin cfg18.W, Pipeline.arrRef spec18 w ≠ main_v213 → (cfg18.win w).isOut = false)
    exact (W46_arr m ρ c w).trans (((dat18 (V45 m ρ) c).arrAt_in w hw _).trans (A_eq18 (V45 m ρ) c w))
  · exact W46_of_ne m ρ c r fun w e => hin ⟨w, e⟩

/-- The references `hostOps19`'s operations write. -/
abbrev hostOps19_W : List (Ref sig .tc) := [main_v214, main_v215, main_v216, main_v217, main_v218]
theorem hostOps19_writes : (hostOps19 : List (HloOp τ sig (Elt F))).Forall fun op => op.writes ⊆ (hostOps19_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 47 agrees with boundary 46 off what `hostOps19` writes. -/
theorem W47_keep (c : Dev nD) (r : Ref sig .tc) (h : r ∉ hostOps19_W) : W47 m ρ c (Proc.devRef .tc r) = W46 m ρ c (Proc.devRef .tc r) :=
  StableHlo.after_of_writes_sub hostOps19 _ hostOps19_writes h

/-- Boundary 48 agrees with boundary 47 off region 19's output array `main_v219`: a buffer that is none of the
    region's arrays is bypassed, and an input array is handed back as entered. -/
theorem W48_keep (c : Dev nD) (r : Ref sig .tc) (h : r ≠ main_v219) : W48 m ρ c (Proc.devRef .tc r) = W47 m ρ c (Proc.devRef .tc r) := by
  by_cases hin : ∃ w : Fin cfg19.W, Pipeline.arrRef spec19 w = r
  · obtain ⟨w, rfl⟩ := hin
    have hw : (cfg19.win w).isOut = false := by
      revert w; exact (by decide : ∀ w : Fin cfg19.W, Pipeline.arrRef spec19 w ≠ main_v219 → (cfg19.win w).isOut = false)
    exact (W48_arr m ρ c w).trans (((dat19 (V47 m ρ) c).arrAt_in w hw _).trans (A_eq19 (V47 m ρ) c w))
  · exact W48_of_ne m ρ c r fun w e => hin ⟨w, e⟩

/-- The references `hostOps20`'s operations write. -/
abbrev hostOps20_W : List (Ref sig .tc) := [main_v220, main_v221]
theorem hostOps20_writes : (hostOps20 : List (HloOp τ sig (Elt F))).Forall fun op => op.writes ⊆ (hostOps20_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 49 agrees with boundary 48 off what `hostOps20` writes. -/
theorem W49_keep (c : Dev nD) (r : Ref sig .tc) (h : r ∉ hostOps20_W) : W49 m ρ c (Proc.devRef .tc r) = W48 m ρ c (Proc.devRef .tc r) :=
  StableHlo.after_of_writes_sub hostOps20 _ hostOps20_writes h

/-- Boundary 50 agrees with boundary 49 off region 20's output array `main_v222`: a buffer that is none of the
    region's arrays is bypassed, and an input array is handed back as entered. -/
theorem W50_keep (c : Dev nD) (r : Ref sig .tc) (h : r ≠ main_v222) : W50 m ρ c (Proc.devRef .tc r) = W49 m ρ c (Proc.devRef .tc r) := by
  by_cases hin : ∃ w : Fin cfg20.W, Pipeline.arrRef spec20 w = r
  · obtain ⟨w, rfl⟩ := hin
    have hw : (cfg20.win w).isOut = false := by
      revert w; exact (by decide : ∀ w : Fin cfg20.W, Pipeline.arrRef spec20 w ≠ main_v222 → (cfg20.win w).isOut = false)
    exact (W50_arr m ρ c w).trans (((dat20 (V49 m ρ) c).arrAt_in w hw _).trans (A_eq20 (V49 m ρ) c w))
  · exact W50_of_ne m ρ c r fun w e => hin ⟨w, e⟩

/-- The references `hostOps21`'s operations write. -/
abbrev hostOps21_W : List (Ref sig .tc) := [main_v223, main_v224]
theorem hostOps21_writes : (hostOps21 : List (HloOp τ sig (Elt F))).Forall fun op => op.writes ⊆ (hostOps21_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 51 agrees with boundary 50 off what `hostOps21` writes. -/
theorem W51_keep (c : Dev nD) (r : Ref sig .tc) (h : r ∉ hostOps21_W) : W51 m ρ c (Proc.devRef .tc r) = W50 m ρ c (Proc.devRef .tc r) :=
  StableHlo.after_of_writes_sub hostOps21 _ hostOps21_writes h

/-- Boundary 52 agrees with boundary 51 off region 21's output array `main_v225`: a buffer that is none of the
    region's arrays is bypassed, and an input array is handed back as entered. -/
theorem W52_keep (c : Dev nD) (r : Ref sig .tc) (h : r ≠ main_v225) : W52 m ρ c (Proc.devRef .tc r) = W51 m ρ c (Proc.devRef .tc r) := by
  by_cases hin : ∃ w : Fin cfg21.W, Pipeline.arrRef spec21 w = r
  · obtain ⟨w, rfl⟩ := hin
    have hw : (cfg21.win w).isOut = false := by
      revert w; exact (by decide : ∀ w : Fin cfg21.W, Pipeline.arrRef spec21 w ≠ main_v225 → (cfg21.win w).isOut = false)
    exact (W52_arr m ρ c w).trans (((dat21 (V51 m ρ) c).arrAt_in w hw _).trans (A_eq21 (V51 m ρ) c w))
  · exact W52_of_ne m ρ c r fun w e => hin ⟨w, e⟩

/-- The references `hostOps22`'s operations write. -/
abbrev hostOps22_W : List (Ref sig .tc) := [main_v226, main_v227]
theorem hostOps22_writes : (hostOps22 : List (HloOp τ sig (Elt F))).Forall fun op => op.writes ⊆ (hostOps22_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 53 agrees with boundary 52 off what `hostOps22` writes. -/
theorem W53_keep (c : Dev nD) (r : Ref sig .tc) (h : r ∉ hostOps22_W) : W53 m ρ c (Proc.devRef .tc r) = W52 m ρ c (Proc.devRef .tc r) :=
  StableHlo.after_of_writes_sub hostOps22 _ hostOps22_writes h

/-- Boundary 54 agrees with boundary 53 off region 22's output array `main_v228`: a buffer that is none of the
    region's arrays is bypassed, and an input array is handed back as entered. -/
theorem W54_keep (c : Dev nD) (r : Ref sig .tc) (h : r ≠ main_v228) : W54 m ρ c (Proc.devRef .tc r) = W53 m ρ c (Proc.devRef .tc r) := by
  by_cases hin : ∃ w : Fin cfg22.W, Pipeline.arrRef spec22 w = r
  · obtain ⟨w, rfl⟩ := hin
    have hw : (cfg22.win w).isOut = false := by
      revert w; exact (by decide : ∀ w : Fin cfg22.W, Pipeline.arrRef spec22 w ≠ main_v228 → (cfg22.win w).isOut = false)
    exact (W54_arr m ρ c w).trans (((dat22 (V53 m ρ) c).arrAt_in w hw _).trans (A_eq22 (V53 m ρ) c w))
  · exact W54_of_ne m ρ c r fun w e => hin ⟨w, e⟩

/-- The references `hostOps23`'s operations write. -/
abbrev hostOps23_W : List (Ref sig .tc) := [main_v229, main_v230]
theorem hostOps23_writes : (hostOps23 : List (HloOp τ sig (Elt F))).Forall fun op => op.writes ⊆ (hostOps23_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 55 agrees with boundary 54 off what `hostOps23` writes. -/
theorem W55_keep (c : Dev nD) (r : Ref sig .tc) (h : r ∉ hostOps23_W) : W55 m ρ c (Proc.devRef .tc r) = W54 m ρ c (Proc.devRef .tc r) :=
  StableHlo.after_of_writes_sub hostOps23 _ hostOps23_writes h

/-- Boundary 56 agrees with boundary 55 off region 23's output array `main_v231`: a buffer that is none of the
    region's arrays is bypassed, and an input array is handed back as entered. -/
theorem W56_keep (c : Dev nD) (r : Ref sig .tc) (h : r ≠ main_v231) : W56 m ρ c (Proc.devRef .tc r) = W55 m ρ c (Proc.devRef .tc r) := by
  by_cases hin : ∃ w : Fin cfg23.W, Pipeline.arrRef spec23 w = r
  · obtain ⟨w, rfl⟩ := hin
    have hw : (cfg23.win w).isOut = false := by
      revert w; exact (by decide : ∀ w : Fin cfg23.W, Pipeline.arrRef spec23 w ≠ main_v231 → (cfg23.win w).isOut = false)
    exact (W56_arr m ρ c w).trans (((dat23 (V55 m ρ) c).arrAt_in w hw _).trans (A_eq23 (V55 m ρ) c w))
  · exact W56_of_ne m ρ c r fun w e => hin ⟨w, e⟩

/-- The references `hostOps24`'s operations write. -/
abbrev hostOps24_W : List (Ref sig .tc) := [main_v232, main_v233]
theorem hostOps24_writes : (hostOps24 : List (HloOp τ sig (Elt F))).Forall fun op => op.writes ⊆ (hostOps24_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 57 agrees with boundary 56 off what `hostOps24` writes. -/
theorem W57_keep (c : Dev nD) (r : Ref sig .tc) (h : r ∉ hostOps24_W) : W57 m ρ c (Proc.devRef .tc r) = W56 m ρ c (Proc.devRef .tc r) :=
  StableHlo.after_of_writes_sub hostOps24 _ hostOps24_writes h

/-- Boundary 58 agrees with boundary 57 off region 24's output array `main_v234`: a buffer that is none of the
    region's arrays is bypassed, and an input array is handed back as entered. -/
theorem W58_keep (c : Dev nD) (r : Ref sig .tc) (h : r ≠ main_v234) : W58 m ρ c (Proc.devRef .tc r) = W57 m ρ c (Proc.devRef .tc r) := by
  by_cases hin : ∃ w : Fin cfg24.W, Pipeline.arrRef spec24 w = r
  · obtain ⟨w, rfl⟩ := hin
    have hw : (cfg24.win w).isOut = false := by
      revert w; exact (by decide : ∀ w : Fin cfg24.W, Pipeline.arrRef spec24 w ≠ main_v234 → (cfg24.win w).isOut = false)
    exact (W58_arr m ρ c w).trans (((dat24 (V57 m ρ) c).arrAt_in w hw _).trans (A_eq24 (V57 m ρ) c w))
  · exact W58_of_ne m ρ c r fun w e => hin ⟨w, e⟩

/-- The references `hostOps25`'s operations write. -/
abbrev hostOps25_W : List (Ref sig .tc) := [main_c_40, main_v235, main_v236, main_c_41, main_v237, main_v238, main_v239, main_v240, main_v241, main_c_42, main_v242, main_v243, main_c_43, main_v244, main_v245, main_v246, main_v247, main_v248, main_v249]
theorem hostOps25_writes : (hostOps25 : List (HloOp τ sig (Elt F))).Forall fun op => op.writes ⊆ (hostOps25_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 59 agrees with boundary 58 off what `hostOps25` writes. -/
theorem W59_keep (c : Dev nD) (r : Ref sig .tc) (h : r ∉ hostOps25_W) : W59 m ρ c (Proc.devRef .tc r) = W58 m ρ c (Proc.devRef .tc r) :=
  StableHlo.after_of_writes_sub hostOps25 _ hostOps25_writes h

/-- The references `hostOps25_1`'s operations write. -/
abbrev hostOps25_1_W : List (Ref sig .tc) := [main_call4_cst, main_call4_v0, main_v250]
theorem hostOps25_1_writes : (hostOps25_1 : List (HloOp τ sig (Elt F))).Forall fun op => op.writes ⊆ (hostOps25_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 60 agrees with boundary 59 off what `hostOps25_1` writes. -/
theorem W60_keep (c : Dev nD) (r : Ref sig .tc) (h : r ∉ hostOps25_1_W) : W60 m ρ c (Proc.devRef .tc r) = W59 m ρ c (Proc.devRef .tc r) :=
  StableHlo.after_of_writes_sub hostOps25_1 _ hostOps25_1_writes h

/-- The references `hostOps25_2`'s operations write. -/
abbrev hostOps25_2_W : List (Ref sig .tc) := [main_cst_44, main_v251, main_v252, main_v253, main_c_45, main_v254, main_v255, main_c_46, main_v256, main_v257, main_v258, main_v259, main_v260, main_c_47, main_v261, main_v262, main_c_48, main_v263, main_v264, main_v265, main_v266, main_v267, main_v268]
theorem hostOps25_2_writes : (hostOps25_2 : List (HloOp τ sig (Elt F))).Forall fun op => op.writes ⊆ (hostOps25_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 61 agrees with boundary 60 off what `hostOps25_2` writes. -/
theorem W61_keep (c : Dev nD) (r : Ref sig .tc) (h : r ∉ hostOps25_2_W) : W61 m ρ c (Proc.devRef .tc r) = W60 m ρ c (Proc.devRef .tc r) :=
  StableHlo.after_of_writes_sub hostOps25_2 _ hostOps25_2_writes h

/-- The references `hostOps25_3`'s operations write. -/
abbrev hostOps25_3_W : List (Ref sig .tc) := [main_call5_cst, main_call5_v0, main_v269]
theorem hostOps25_3_writes : (hostOps25_3 : List (HloOp τ sig (Elt F))).Forall fun op => op.writes ⊆ (hostOps25_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 62 agrees with boundary 61 off what `hostOps25_3` writes. -/
theorem W62_keep (c : Dev nD) (r : Ref sig .tc) (h : r ∉ hostOps25_3_W) : W62 m ρ c (Proc.devRef .tc r) = W61 m ρ c (Proc.devRef .tc r) :=
  StableHlo.after_of_writes_sub hostOps25_3 _ hostOps25_3_writes h

/-- The references `hostOps25_4`'s operations write. -/
abbrev hostOps25_4_W : List (Ref sig .tc) := [main_cst_49, main_v270, main_v271, main_v272, main_v273]
theorem hostOps25_4_writes : (hostOps25_4 : List (HloOp τ sig (Elt F))).Forall fun op => op.writes ⊆ (hostOps25_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 63 agrees with boundary 62 off what `hostOps25_4` writes. -/
theorem W63_keep (c : Dev nD) (r : Ref sig .tc) (h : r ∉ hostOps25_4_W) : W63 m ρ c (Proc.devRef .tc r) = W62 m ρ c (Proc.devRef .tc r) :=
  StableHlo.after_of_writes_sub hostOps25_4 _ hostOps25_4_writes h

/-- Boundary 64 agrees with boundary 63 off region 25's output array `main_v274`: a buffer that is none of the
    region's arrays is bypassed, and an input array is handed back as entered. -/
theorem W64_keep (c : Dev nD) (r : Ref sig .tc) (h : r ≠ main_v274) : W64 m ρ c (Proc.devRef .tc r) = W63 m ρ c (Proc.devRef .tc r) := by
  by_cases hin : ∃ w : Fin cfg25.W, Pipeline.arrRef spec25 w = r
  · obtain ⟨w, rfl⟩ := hin
    have hw : (cfg25.win w).isOut = false := by
      revert w; exact (by decide : ∀ w : Fin cfg25.W, Pipeline.arrRef spec25 w ≠ main_v274 → (cfg25.win w).isOut = false)
    exact (W64_arr m ρ c w).trans (((dat25 (V63 m ρ) c).arrAt_in w hw _).trans (A_eq25 (V63 m ρ) c w))
  · exact W64_of_ne m ρ c r fun w e => hin ⟨w, e⟩

/-- The references `hostOps26`'s operations write. -/
abbrev hostOps26_W : List (Ref sig .tc) := [main_v275, main_v276, main_v277, main_v278]
theorem hostOps26_writes : (hostOps26 : List (HloOp τ sig (Elt F))).Forall fun op => op.writes ⊆ (hostOps26_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 65 agrees with boundary 64 off what `hostOps26` writes. -/
theorem W65_keep (c : Dev nD) (r : Ref sig .tc) (h : r ∉ hostOps26_W) : W65 m ρ c (Proc.devRef .tc r) = W64 m ρ c (Proc.devRef .tc r) :=
  StableHlo.after_of_writes_sub hostOps26 _ hostOps26_writes h

/-- Boundary 66 agrees with boundary 65 off region 26's output array `main_v279`: a buffer that is none of the
    region's arrays is bypassed, and an input array is handed back as entered. -/
theorem W66_keep (c : Dev nD) (r : Ref sig .tc) (h : r ≠ main_v279) : W66 m ρ c (Proc.devRef .tc r) = W65 m ρ c (Proc.devRef .tc r) := by
  by_cases hin : ∃ w : Fin cfg26.W, Pipeline.arrRef spec26 w = r
  · obtain ⟨w, rfl⟩ := hin
    have hw : (cfg26.win w).isOut = false := by
      revert w; exact (by decide : ∀ w : Fin cfg26.W, Pipeline.arrRef spec26 w ≠ main_v279 → (cfg26.win w).isOut = false)
    exact (W66_arr m ρ c w).trans (((dat26 (V65 m ρ) c).arrAt_in w hw _).trans (A_eq26 (V65 m ρ) c w))
  · exact W66_of_ne m ρ c r fun w e => hin ⟨w, e⟩

/-- The references `hostOps27`'s operations write. -/
abbrev hostOps27_W : List (Ref sig .tc) := [main_v280, main_v281, main_v282, main_v283, main_v284, main_v285]
theorem hostOps27_writes : (hostOps27 : List (HloOp τ sig (Elt F))).Forall fun op => op.writes ⊆ (hostOps27_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 67 agrees with boundary 66 off what `hostOps27` writes. -/
theorem W67_keep (c : Dev nD) (r : Ref sig .tc) (h : r ∉ hostOps27_W) : W67 m ρ c (Proc.devRef .tc r) = W66 m ρ c (Proc.devRef .tc r) :=
  StableHlo.after_of_writes_sub hostOps27 _ hostOps27_writes h

/-- Boundary 68 agrees with boundary 67 off region 27's output array `main_v286`: a buffer that is none of the
    region's arrays is bypassed, and an input array is handed back as entered. -/
theorem W68_keep (c : Dev nD) (r : Ref sig .tc) (h : r ≠ main_v286) : W68 m ρ c (Proc.devRef .tc r) = W67 m ρ c (Proc.devRef .tc r) := by
  by_cases hin : ∃ w : Fin cfg27.W, Pipeline.arrRef spec27 w = r
  · obtain ⟨w, rfl⟩ := hin
    have hw : (cfg27.win w).isOut = false := by
      revert w; exact (by decide : ∀ w : Fin cfg27.W, Pipeline.arrRef spec27 w ≠ main_v286 → (cfg27.win w).isOut = false)
    exact (W68_arr m ρ c w).trans (((dat27 (V67 m ρ) c).arrAt_in w hw _).trans (A_eq27 (V67 m ρ) c w))
  · exact W68_of_ne m ρ c r fun w e => hin ⟨w, e⟩

/-- The references `hostOps28`'s operations write. -/
abbrev hostOps28_W : List (Ref sig .tc) := [main_v287, main_v288, main_v289, main_v290, main_v291]
theorem hostOps28_writes : (hostOps28 : List (HloOp τ sig (Elt F))).Forall fun op => op.writes ⊆ (hostOps28_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 69 agrees with boundary 68 off what `hostOps28` writes. -/
theorem W69_keep (c : Dev nD) (r : Ref sig .tc) (h : r ∉ hostOps28_W) : W69 m ρ c (Proc.devRef .tc r) = W68 m ρ c (Proc.devRef .tc r) :=
  StableHlo.after_of_writes_sub hostOps28 _ hostOps28_writes h

/-- Boundary 70 agrees with boundary 69 off region 28's output array `main_v292`: a buffer that is none of the
    region's arrays is bypassed, and an input array is handed back as entered. -/
theorem W70_keep (c : Dev nD) (r : Ref sig .tc) (h : r ≠ main_v292) : W70 m ρ c (Proc.devRef .tc r) = W69 m ρ c (Proc.devRef .tc r) := by
  by_cases hin : ∃ w : Fin cfg28.W, Pipeline.arrRef spec28 w = r
  · obtain ⟨w, rfl⟩ := hin
    have hw : (cfg28.win w).isOut = false := by
      revert w; exact (by decide : ∀ w : Fin cfg28.W, Pipeline.arrRef spec28 w ≠ main_v292 → (cfg28.win w).isOut = false)
    exact (W70_arr m ρ c w).trans (((dat28 (V69 m ρ) c).arrAt_in w hw _).trans (A_eq28 (V69 m ρ) c w))
  · exact W70_of_ne m ρ c r fun w e => hin ⟨w, e⟩

/-- The references `hostOps29`'s operations write. -/
abbrev hostOps29_W : List (Ref sig .tc) := [main_v293, main_v294, main_v295, main_v296, main_v297]
theorem hostOps29_writes : (hostOps29 : List (HloOp τ sig (Elt F))).Forall fun op => op.writes ⊆ (hostOps29_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 71 agrees with boundary 70 off what `hostOps29` writes. -/
theorem W71_keep (c : Dev nD) (r : Ref sig .tc) (h : r ∉ hostOps29_W) : W71 m ρ c (Proc.devRef .tc r) = W70 m ρ c (Proc.devRef .tc r) :=
  StableHlo.after_of_writes_sub hostOps29 _ hostOps29_writes h

/-- Boundary 72 agrees with boundary 71 off region 29's output array `main_v298`: a buffer that is none of the
    region's arrays is bypassed, and an input array is handed back as entered. -/
theorem W72_keep (c : Dev nD) (r : Ref sig .tc) (h : r ≠ main_v298) : W72 m ρ c (Proc.devRef .tc r) = W71 m ρ c (Proc.devRef .tc r) := by
  by_cases hin : ∃ w : Fin cfg29.W, Pipeline.arrRef spec29 w = r
  · obtain ⟨w, rfl⟩ := hin
    have hw : (cfg29.win w).isOut = false := by
      revert w; exact (by decide : ∀ w : Fin cfg29.W, Pipeline.arrRef spec29 w ≠ main_v298 → (cfg29.win w).isOut = false)
    exact (W72_arr m ρ c w).trans (((dat29 (V71 m ρ) c).arrAt_in w hw _).trans (A_eq29 (V71 m ρ) c w))
  · exact W72_of_ne m ρ c r fun w e => hin ⟨w, e⟩

/-- The references `hostOps30`'s operations write. -/
abbrev hostOps30_W : List (Ref sig .tc) := [main_v299, main_v300]
theorem hostOps30_writes : (hostOps30 : List (HloOp τ sig (Elt F))).Forall fun op => op.writes ⊆ (hostOps30_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 73 agrees with boundary 72 off what `hostOps30` writes. -/
theorem W73_keep (c : Dev nD) (r : Ref sig .tc) (h : r ∉ hostOps30_W) : W73 m ρ c (Proc.devRef .tc r) = W72 m ρ c (Proc.devRef .tc r) :=
  StableHlo.after_of_writes_sub hostOps30 _ hostOps30_writes h

/-- Boundary 74 agrees with boundary 73 off region 30's output array `main_v301`: a buffer that is none of the
    region's arrays is bypassed, and an input array is handed back as entered. -/
theorem W74_keep (c : Dev nD) (r : Ref sig .tc) (h : r ≠ main_v301) : W74 m ρ c (Proc.devRef .tc r) = W73 m ρ c (Proc.devRef .tc r) := by
  by_cases hin : ∃ w : Fin cfg30.W, Pipeline.arrRef spec30 w = r
  · obtain ⟨w, rfl⟩ := hin
    have hw : (cfg30.win w).isOut = false := by
      revert w; exact (by decide : ∀ w : Fin cfg30.W, Pipeline.arrRef spec30 w ≠ main_v301 → (cfg30.win w).isOut = false)
    exact (W74_arr m ρ c w).trans (((dat30 (V73 m ρ) c).arrAt_in w hw _).trans (A_eq30 (V73 m ρ) c w))
  · exact W74_of_ne m ρ c r fun w e => hin ⟨w, e⟩

/-- The references `hostOps31`'s operations write. -/
abbrev hostOps31_W : List (Ref sig .tc) := [main_v302, main_v303]
theorem hostOps31_writes : (hostOps31 : List (HloOp τ sig (Elt F))).Forall fun op => op.writes ⊆ (hostOps31_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 75 agrees with boundary 74 off what `hostOps31` writes. -/
theorem W75_keep (c : Dev nD) (r : Ref sig .tc) (h : r ∉ hostOps31_W) : W75 m ρ c (Proc.devRef .tc r) = W74 m ρ c (Proc.devRef .tc r) :=
  StableHlo.after_of_writes_sub hostOps31 _ hostOps31_writes h

/-- Boundary 76 agrees with boundary 75 off region 31's output array `main_v304`: a buffer that is none of the
    region's arrays is bypassed, and an input array is handed back as entered. -/
theorem W76_keep (c : Dev nD) (r : Ref sig .tc) (h : r ≠ main_v304) : W76 m ρ c (Proc.devRef .tc r) = W75 m ρ c (Proc.devRef .tc r) := by
  by_cases hin : ∃ w : Fin cfg31.W, Pipeline.arrRef spec31 w = r
  · obtain ⟨w, rfl⟩ := hin
    have hw : (cfg31.win w).isOut = false := by
      revert w; exact (by decide : ∀ w : Fin cfg31.W, Pipeline.arrRef spec31 w ≠ main_v304 → (cfg31.win w).isOut = false)
    exact (W76_arr m ρ c w).trans (((dat31 (V75 m ρ) c).arrAt_in w hw _).trans (A_eq31 (V75 m ρ) c w))
  · exact W76_of_ne m ρ c r fun w e => hin ⟨w, e⟩

/-- The references `hostOps32`'s operations write. -/
abbrev hostOps32_W : List (Ref sig .tc) := [main_v305, main_v306]
theorem hostOps32_writes : (hostOps32 : List (HloOp τ sig (Elt F))).Forall fun op => op.writes ⊆ (hostOps32_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 77 agrees with boundary 76 off what `hostOps32` writes. -/
theorem W77_keep (c : Dev nD) (r : Ref sig .tc) (h : r ∉ hostOps32_W) : W77 m ρ c (Proc.devRef .tc r) = W76 m ρ c (Proc.devRef .tc r) :=
  StableHlo.after_of_writes_sub hostOps32 _ hostOps32_writes h

/-- Boundary 78 agrees with boundary 77 off region 32's output array `main_v307`: a buffer that is none of the
    region's arrays is bypassed, and an input array is handed back as entered. -/
theorem W78_keep (c : Dev nD) (r : Ref sig .tc) (h : r ≠ main_v307) : W78 m ρ c (Proc.devRef .tc r) = W77 m ρ c (Proc.devRef .tc r) := by
  by_cases hin : ∃ w : Fin cfg32.W, Pipeline.arrRef spec32 w = r
  · obtain ⟨w, rfl⟩ := hin
    have hw : (cfg32.win w).isOut = false := by
      revert w; exact (by decide : ∀ w : Fin cfg32.W, Pipeline.arrRef spec32 w ≠ main_v307 → (cfg32.win w).isOut = false)
    exact (W78_arr m ρ c w).trans (((dat32 (V77 m ρ) c).arrAt_in w hw _).trans (A_eq32 (V77 m ρ) c w))
  · exact W78_of_ne m ρ c r fun w e => hin ⟨w, e⟩

/-- The references `hostOps33`'s operations write. -/
abbrev hostOps33_W : List (Ref sig .tc) := [main_v308, main_v309]
theorem hostOps33_writes : (hostOps33 : List (HloOp τ sig (Elt F))).Forall fun op => op.writes ⊆ (hostOps33_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 79 agrees with boundary 78 off what `hostOps33` writes. -/
theorem W79_keep (c : Dev nD) (r : Ref sig .tc) (h : r ∉ hostOps33_W) : W79 m ρ c (Proc.devRef .tc r) = W78 m ρ c (Proc.devRef .tc r) :=
  StableHlo.after_of_writes_sub hostOps33 _ hostOps33_writes h

/-- Boundary 80 agrees with boundary 79 off region 33's output array `main_v310`: a buffer that is none of the
    region's arrays is bypassed, and an input array is handed back as entered. -/
theorem W80_keep (c : Dev nD) (r : Ref sig .tc) (h : r ≠ main_v310) : W80 m ρ c (Proc.devRef .tc r) = W79 m ρ c (Proc.devRef .tc r) := by
  by_cases hin : ∃ w : Fin cfg33.W, Pipeline.arrRef spec33 w = r
  · obtain ⟨w, rfl⟩ := hin
    have hw : (cfg33.win w).isOut = false := by
      revert w; exact (by decide : ∀ w : Fin cfg33.W, Pipeline.arrRef spec33 w ≠ main_v310 → (cfg33.win w).isOut = false)
    exact (W80_arr m ρ c w).trans (((dat33 (V79 m ρ) c).arrAt_in w hw _).trans (A_eq33 (V79 m ρ) c w))
  · exact W80_of_ne m ρ c r fun w e => hin ⟨w, e⟩

/-- The references `hostOps34`'s operations write. -/
abbrev hostOps34_W : List (Ref sig .tc) := [main_v311, main_v312]
theorem hostOps34_writes : (hostOps34 : List (HloOp τ sig (Elt F))).Forall fun op => op.writes ⊆ (hostOps34_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 81 agrees with boundary 80 off what `hostOps34` writes. -/
theorem W81_keep (c : Dev nD) (r : Ref sig .tc) (h : r ∉ hostOps34_W) : W81 m ρ c (Proc.devRef .tc r) = W80 m ρ c (Proc.devRef .tc r) :=
  StableHlo.after_of_writes_sub hostOps34 _ hostOps34_writes h

/-- Boundary 82 agrees with boundary 81 off region 34's output array `main_v313`: a buffer that is none of the
    region's arrays is bypassed, and an input array is handed back as entered. -/
theorem W82_keep (c : Dev nD) (r : Ref sig .tc) (h : r ≠ main_v313) : W82 m ρ c (Proc.devRef .tc r) = W81 m ρ c (Proc.devRef .tc r) := by
  by_cases hin : ∃ w : Fin cfg34.W, Pipeline.arrRef spec34 w = r
  · obtain ⟨w, rfl⟩ := hin
    have hw : (cfg34.win w).isOut = false := by
      revert w; exact (by decide : ∀ w : Fin cfg34.W, Pipeline.arrRef spec34 w ≠ main_v313 → (cfg34.win w).isOut = false)
    exact (W82_arr m ρ c w).trans (((dat34 (V81 m ρ) c).arrAt_in w hw _).trans (A_eq34 (V81 m ρ) c w))
  · exact W82_of_ne m ρ c r fun w e => hin ⟨w, e⟩

/-- The references `hostOps35`'s operations write. -/
abbrev hostOps35_W : List (Ref sig .tc) := [main_c_50, main_v314, main_v315, main_c_51, main_v316, main_v317, main_v318, main_v319, main_v320, main_c_52, main_v321, main_v322, main_c_53, main_v323, main_v324, main_v325, main_v326, main_v327, main_v328]
theorem hostOps35_writes : (hostOps35 : List (HloOp τ sig (Elt F))).Forall fun op => op.writes ⊆ (hostOps35_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 83 agrees with boundary 82 off what `hostOps35` writes. -/
theorem W83_keep (c : Dev nD) (r : Ref sig .tc) (h : r ∉ hostOps35_W) : W83 m ρ c (Proc.devRef .tc r) = W82 m ρ c (Proc.devRef .tc r) :=
  StableHlo.after_of_writes_sub hostOps35 _ hostOps35_writes h

/-- The references `hostOps35_1`'s operations write. -/
abbrev hostOps35_1_W : List (Ref sig .tc) := [main_call6_cst, main_call6_v0, main_v329]
theorem hostOps35_1_writes : (hostOps35_1 : List (HloOp τ sig (Elt F))).Forall fun op => op.writes ⊆ (hostOps35_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 84 agrees with boundary 83 off what `hostOps35_1` writes. -/
theorem W84_keep (c : Dev nD) (r : Ref sig .tc) (h : r ∉ hostOps35_1_W) : W84 m ρ c (Proc.devRef .tc r) = W83 m ρ c (Proc.devRef .tc r) :=
  StableHlo.after_of_writes_sub hostOps35_1 _ hostOps35_1_writes h

/-- The references `hostOps35_2`'s operations write. -/
abbrev hostOps35_2_W : List (Ref sig .tc) := [main_cst_54, main_v330, main_v331, main_v332, main_c_55, main_v333, main_v334, main_c_56, main_v335, main_v336, main_v337, main_v338, main_v339, main_c_57, main_v340, main_v341, main_c_58, main_v342, main_v343, main_v344, main_v345, main_v346, main_v347]
theorem hostOps35_2_writes : (hostOps35_2 : List (HloOp τ sig (Elt F))).Forall fun op => op.writes ⊆ (hostOps35_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 85 agrees with boundary 84 off what `hostOps35_2` writes. -/
theorem W85_keep (c : Dev nD) (r : Ref sig .tc) (h : r ∉ hostOps35_2_W) : W85 m ρ c (Proc.devRef .tc r) = W84 m ρ c (Proc.devRef .tc r) :=
  StableHlo.after_of_writes_sub hostOps35_2 _ hostOps35_2_writes h

/-- The references `hostOps35_3`'s operations write. -/
abbrev hostOps35_3_W : List (Ref sig .tc) := [main_call7_cst, main_call7_v0, main_v348]
theorem hostOps35_3_writes : (hostOps35_3 : List (HloOp τ sig (Elt F))).Forall fun op => op.writes ⊆ (hostOps35_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 86 agrees with boundary 85 off what `hostOps35_3` writes. -/
theorem W86_keep (c : Dev nD) (r : Ref sig .tc) (h : r ∉ hostOps35_3_W) : W86 m ρ c (Proc.devRef .tc r) = W85 m ρ c (Proc.devRef .tc r) :=
  StableHlo.after_of_writes_sub hostOps35_3 _ hostOps35_3_writes h

/-- The references `hostOps35_4`'s operations write. -/
abbrev hostOps35_4_W : List (Ref sig .tc) := [main_cst_59, main_v349, main_v350, main_v351, main_v352]
theorem hostOps35_4_writes : (hostOps35_4 : List (HloOp τ sig (Elt F))).Forall fun op => op.writes ⊆ (hostOps35_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 87 agrees with boundary 86 off what `hostOps35_4` writes. -/
theorem W87_keep (c : Dev nD) (r : Ref sig .tc) (h : r ∉ hostOps35_4_W) : W87 m ρ c (Proc.devRef .tc r) = W86 m ρ c (Proc.devRef .tc r) :=
  StableHlo.after_of_writes_sub hostOps35_4 _ hostOps35_4_writes h

/-- Boundary 88 agrees with boundary 87 off region 35's output array `main_v353`: a buffer that is none of the
    region's arrays is bypassed, and an input array is handed back as entered. -/
theorem W88_keep (c : Dev nD) (r : Ref sig .tc) (h : r ≠ main_v353) : W88 m ρ c (Proc.devRef .tc r) = W87 m ρ c (Proc.devRef .tc r) := by
  by_cases hin : ∃ w : Fin cfg35.W, Pipeline.arrRef spec35 w = r
  · obtain ⟨w, rfl⟩ := hin
    have hw : (cfg35.win w).isOut = false := by
      revert w; exact (by decide : ∀ w : Fin cfg35.W, Pipeline.arrRef spec35 w ≠ main_v353 → (cfg35.win w).isOut = false)
    exact (W88_arr m ρ c w).trans (((dat35 (V87 m ρ) c).arrAt_in w hw _).trans (A_eq35 (V87 m ρ) c w))
  · exact W88_of_ne m ρ c r fun w e => hin ⟨w, e⟩

/-- The references `hostOps36`'s operations write. -/
abbrev hostOps36_W : List (Ref sig .tc) := [main_v354, main_v355, main_v356, main_v357]
theorem hostOps36_writes : (hostOps36 : List (HloOp τ sig (Elt F))).Forall fun op => op.writes ⊆ (hostOps36_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 89 agrees with boundary 88 off what `hostOps36` writes. -/
theorem W89_keep (c : Dev nD) (r : Ref sig .tc) (h : r ∉ hostOps36_W) : W89 m ρ c (Proc.devRef .tc r) = W88 m ρ c (Proc.devRef .tc r) :=
  StableHlo.after_of_writes_sub hostOps36 _ hostOps36_writes h

/-- Boundary 90 agrees with boundary 89 off region 36's output array `main_v358`: a buffer that is none of the
    region's arrays is bypassed, and an input array is handed back as entered. -/
theorem W90_keep (c : Dev nD) (r : Ref sig .tc) (h : r ≠ main_v358) : W90 m ρ c (Proc.devRef .tc r) = W89 m ρ c (Proc.devRef .tc r) := by
  by_cases hin : ∃ w : Fin cfg36.W, Pipeline.arrRef spec36 w = r
  · obtain ⟨w, rfl⟩ := hin
    have hw : (cfg36.win w).isOut = false := by
      revert w; exact (by decide : ∀ w : Fin cfg36.W, Pipeline.arrRef spec36 w ≠ main_v358 → (cfg36.win w).isOut = false)
    exact (W90_arr m ρ c w).trans (((dat36 (V89 m ρ) c).arrAt_in w hw _).trans (A_eq36 (V89 m ρ) c w))
  · exact W90_of_ne m ρ c r fun w e => hin ⟨w, e⟩

/-- The references `hostOps37`'s operations write. -/
abbrev hostOps37_W : List (Ref sig .tc) := [main_v359, main_v360, main_v361, main_v362, main_v363, main_v364]
theorem hostOps37_writes : (hostOps37 : List (HloOp τ sig (Elt F))).Forall fun op => op.writes ⊆ (hostOps37_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 91 agrees with boundary 90 off what `hostOps37` writes. -/
theorem W91_keep (c : Dev nD) (r : Ref sig .tc) (h : r ∉ hostOps37_W) : W91 m ρ c (Proc.devRef .tc r) = W90 m ρ c (Proc.devRef .tc r) :=
  StableHlo.after_of_writes_sub hostOps37 _ hostOps37_writes h

/-- Boundary 92 agrees with boundary 91 off region 37's output array `main_v365`: a buffer that is none of the
    region's arrays is bypassed, and an input array is handed back as entered. -/
theorem W92_keep (c : Dev nD) (r : Ref sig .tc) (h : r ≠ main_v365) : W92 m ρ c (Proc.devRef .tc r) = W91 m ρ c (Proc.devRef .tc r) := by
  by_cases hin : ∃ w : Fin cfg37.W, Pipeline.arrRef spec37 w = r
  · obtain ⟨w, rfl⟩ := hin
    have hw : (cfg37.win w).isOut = false := by
      revert w; exact (by decide : ∀ w : Fin cfg37.W, Pipeline.arrRef spec37 w ≠ main_v365 → (cfg37.win w).isOut = false)
    exact (W92_arr m ρ c w).trans (((dat37 (V91 m ρ) c).arrAt_in w hw _).trans (A_eq37 (V91 m ρ) c w))
  · exact W92_of_ne m ρ c r fun w e => hin ⟨w, e⟩

/-- The references `hostOps38`'s operations write. -/
abbrev hostOps38_W : List (Ref sig .tc) := [main_v366, main_v367, main_v368, main_v369, main_v370]
theorem hostOps38_writes : (hostOps38 : List (HloOp τ sig (Elt F))).Forall fun op => op.writes ⊆ (hostOps38_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 93 agrees with boundary 92 off what `hostOps38` writes. -/
theorem W93_keep (c : Dev nD) (r : Ref sig .tc) (h : r ∉ hostOps38_W) : W93 m ρ c (Proc.devRef .tc r) = W92 m ρ c (Proc.devRef .tc r) :=
  StableHlo.after_of_writes_sub hostOps38 _ hostOps38_writes h

/-- Boundary 94 agrees with boundary 93 off region 38's output array `main_v371`: a buffer that is none of the
    region's arrays is bypassed, and an input array is handed back as entered. -/
theorem W94_keep (c : Dev nD) (r : Ref sig .tc) (h : r ≠ main_v371) : W94 m ρ c (Proc.devRef .tc r) = W93 m ρ c (Proc.devRef .tc r) := by
  by_cases hin : ∃ w : Fin cfg38.W, Pipeline.arrRef spec38 w = r
  · obtain ⟨w, rfl⟩ := hin
    have hw : (cfg38.win w).isOut = false := by
      revert w; exact (by decide : ∀ w : Fin cfg38.W, Pipeline.arrRef spec38 w ≠ main_v371 → (cfg38.win w).isOut = false)
    exact (W94_arr m ρ c w).trans (((dat38 (V93 m ρ) c).arrAt_in w hw _).trans (A_eq38 (V93 m ρ) c w))
  · exact W94_of_ne m ρ c r fun w e => hin ⟨w, e⟩

/-- The references `hostOps39`'s operations write. -/
abbrev hostOps39_W : List (Ref sig .tc) := [main_v372, main_v373, main_v374, main_v375, main_v376]
theorem hostOps39_writes : (hostOps39 : List (HloOp τ sig (Elt F))).Forall fun op => op.writes ⊆ (hostOps39_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 95 agrees with boundary 94 off what `hostOps39` writes. -/
theorem W95_keep (c : Dev nD) (r : Ref sig .tc) (h : r ∉ hostOps39_W) : W95 m ρ c (Proc.devRef .tc r) = W94 m ρ c (Proc.devRef .tc r) :=
  StableHlo.after_of_writes_sub hostOps39 _ hostOps39_writes h

/-- Boundary 96 agrees with boundary 95 off region 39's output array `main_v377`: a buffer that is none of the
    region's arrays is bypassed, and an input array is handed back as entered. -/
theorem W96_keep (c : Dev nD) (r : Ref sig .tc) (h : r ≠ main_v377) : W96 m ρ c (Proc.devRef .tc r) = W95 m ρ c (Proc.devRef .tc r) := by
  by_cases hin : ∃ w : Fin cfg39.W, Pipeline.arrRef spec39 w = r
  · obtain ⟨w, rfl⟩ := hin
    have hw : (cfg39.win w).isOut = false := by
      revert w; exact (by decide : ∀ w : Fin cfg39.W, Pipeline.arrRef spec39 w ≠ main_v377 → (cfg39.win w).isOut = false)
    exact (W96_arr m ρ c w).trans (((dat39 (V95 m ρ) c).arrAt_in w hw _).trans (A_eq39 (V95 m ρ) c w))
  · exact W96_of_ne m ρ c r fun w e => hin ⟨w, e⟩

/-- The references `hostOps40`'s operations write. -/
abbrev hostOps40_W : List (Ref sig .tc) := [main_v378, main_v379, main_v380]
theorem hostOps40_writes : (hostOps40 : List (HloOp τ sig (Elt F))).Forall fun op => op.writes ⊆ (hostOps40_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 97 agrees with boundary 96 off what `hostOps40` writes. -/
theorem W97_keep (c : Dev nD) (r : Ref sig .tc) (h : r ∉ hostOps40_W) : W97 m ρ c (Proc.devRef .tc r) = W96 m ρ c (Proc.devRef .tc r) :=
  StableHlo.after_of_writes_sub hostOps40 _ hostOps40_writes h

/-- Boundary 98 agrees with boundary 97 off region 40's output array `main_v381`: a buffer that is none of the
    region's arrays is bypassed, and an input array is handed back as entered. -/
theorem W98_keep (c : Dev nD) (r : Ref sig .tc) (h : r ≠ main_v381) : W98 m ρ c (Proc.devRef .tc r) = W97 m ρ c (Proc.devRef .tc r) := by
  by_cases hin : ∃ w : Fin cfg40.W, Pipeline.arrRef spec40 w = r
  · obtain ⟨w, rfl⟩ := hin
    have hw : (cfg40.win w).isOut = false := by
      revert w; exact (by decide : ∀ w : Fin cfg40.W, Pipeline.arrRef spec40 w ≠ main_v381 → (cfg40.win w).isOut = false)
    exact (W98_arr m ρ c w).trans (((dat40 (V97 m ρ) c).arrAt_in w hw _).trans (A_eq40 (V97 m ρ) c w))
  · exact W98_of_ne m ρ c r fun w e => hin ⟨w, e⟩

/-- The references `hostOps41`'s operations write. -/
abbrev hostOps41_W : List (Ref sig .tc) := [main_v382, main_v383, main_v384]
theorem hostOps41_writes : (hostOps41 : List (HloOp τ sig (Elt F))).Forall fun op => op.writes ⊆ (hostOps41_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 99 agrees with boundary 98 off what `hostOps41` writes. -/
theorem W99_keep (c : Dev nD) (r : Ref sig .tc) (h : r ∉ hostOps41_W) : W99 m ρ c (Proc.devRef .tc r) = W98 m ρ c (Proc.devRef .tc r) :=
  StableHlo.after_of_writes_sub hostOps41 _ hostOps41_writes h

/-- Boundary 100 agrees with boundary 99 off region 41's output array `main_v385`: a buffer that is none of the
    region's arrays is bypassed, and an input array is handed back as entered. -/
theorem W100_keep (c : Dev nD) (r : Ref sig .tc) (h : r ≠ main_v385) : W100 m ρ c (Proc.devRef .tc r) = W99 m ρ c (Proc.devRef .tc r) := by
  by_cases hin : ∃ w : Fin cfg41.W, Pipeline.arrRef spec41 w = r
  · obtain ⟨w, rfl⟩ := hin
    have hw : (cfg41.win w).isOut = false := by
      revert w; exact (by decide : ∀ w : Fin cfg41.W, Pipeline.arrRef spec41 w ≠ main_v385 → (cfg41.win w).isOut = false)
    exact (W100_arr m ρ c w).trans (((dat41 (V99 m ρ) c).arrAt_in w hw _).trans (A_eq41 (V99 m ρ) c w))
  · exact W100_of_ne m ρ c r fun w e => hin ⟨w, e⟩

/-- The references `hostOps42`'s operations write. -/
abbrev hostOps42_W : List (Ref sig .tc) := [main_v386, main_v387, main_v388]
theorem hostOps42_writes : (hostOps42 : List (HloOp τ sig (Elt F))).Forall fun op => op.writes ⊆ (hostOps42_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 101 agrees with boundary 100 off what `hostOps42` writes. -/
theorem W101_keep (c : Dev nD) (r : Ref sig .tc) (h : r ∉ hostOps42_W) : W101 m ρ c (Proc.devRef .tc r) = W100 m ρ c (Proc.devRef .tc r) :=
  StableHlo.after_of_writes_sub hostOps42 _ hostOps42_writes h

/-- Boundary 102 agrees with boundary 101 off region 42's output array `main_v389`: a buffer that is none of the
    region's arrays is bypassed, and an input array is handed back as entered. -/
theorem W102_keep (c : Dev nD) (r : Ref sig .tc) (h : r ≠ main_v389) : W102 m ρ c (Proc.devRef .tc r) = W101 m ρ c (Proc.devRef .tc r) := by
  by_cases hin : ∃ w : Fin cfg42.W, Pipeline.arrRef spec42 w = r
  · obtain ⟨w, rfl⟩ := hin
    have hw : (cfg42.win w).isOut = false := by
      revert w; exact (by decide : ∀ w : Fin cfg42.W, Pipeline.arrRef spec42 w ≠ main_v389 → (cfg42.win w).isOut = false)
    exact (W102_arr m ρ c w).trans (((dat42 (V101 m ρ) c).arrAt_in w hw _).trans (A_eq42 (V101 m ρ) c w))
  · exact W102_of_ne m ρ c r fun w e => hin ⟨w, e⟩

/-- The references `hostOps43`'s operations write. -/
abbrev hostOps43_W : List (Ref sig .tc) := [main_v390, main_v391, main_v392, main_v393, main_v394, main_v395, main_v396, main_v397]
theorem hostOps43_writes : (hostOps43 : List (HloOp τ sig (Elt F))).Forall fun op => op.writes ⊆ (hostOps43_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 103 agrees with boundary 102 off what `hostOps43` writes. -/
theorem W103_keep (c : Dev nD) (r : Ref sig .tc) (h : r ∉ hostOps43_W) : W103 m ρ c (Proc.devRef .tc r) = W102 m ρ c (Proc.devRef .tc r) :=
  StableHlo.after_of_writes_sub hostOps43 _ hostOps43_writes h

/-- The references `hostOps43_1`'s operations write. -/
abbrev hostOps43_1_W : List (Ref sig .tc) := [main_call8_cst, main_call8_v0, main_v398]
theorem hostOps43_1_writes : (hostOps43_1 : List (HloOp τ sig (Elt F))).Forall fun op => op.writes ⊆ (hostOps43_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 104 agrees with boundary 103 off what `hostOps43_1` writes. -/
theorem W104_keep (c : Dev nD) (r : Ref sig .tc) (h : r ∉ hostOps43_1_W) : W104 m ρ c (Proc.devRef .tc r) = W103 m ρ c (Proc.devRef .tc r) :=
  StableHlo.after_of_writes_sub hostOps43_1 _ hostOps43_1_writes h

/-- The references `hostOps43_2`'s operations write. -/
abbrev hostOps43_2_W : List (Ref sig .tc) := [main_cst_60, main_v399, main_v400, main_v401, main_v402, main_v403, main_v404, main_v405, main_v406, main_v407, main_v408]
theorem hostOps43_2_writes : (hostOps43_2 : List (HloOp τ sig (Elt F))).Forall fun op => op.writes ⊆ (hostOps43_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 105 agrees with boundary 104 off what `hostOps43_2` writes. -/
theorem W105_keep (c : Dev nD) (r : Ref sig .tc) (h : r ∉ hostOps43_2_W) : W105 m ρ c (Proc.devRef .tc r) = W104 m ρ c (Proc.devRef .tc r) :=
  StableHlo.after_of_writes_sub hostOps43_2 _ hostOps43_2_writes h

/-- The references `hostOps43_3`'s operations write. -/
abbrev hostOps43_3_W : List (Ref sig .tc) := [main_call9_cst, main_call9_v0, main_v409]
theorem hostOps43_3_writes : (hostOps43_3 : List (HloOp τ sig (Elt F))).Forall fun op => op.writes ⊆ (hostOps43_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 106 agrees with boundary 105 off what `hostOps43_3` writes. -/
theorem W106_keep (c : Dev nD) (r : Ref sig .tc) (h : r ∉ hostOps43_3_W) : W106 m ρ c (Proc.devRef .tc r) = W105 m ρ c (Proc.devRef .tc r) :=
  StableHlo.after_of_writes_sub hostOps43_3 _ hostOps43_3_writes h

/-- The references `hostOps43_4`'s operations write. -/
abbrev hostOps43_4_W : List (Ref sig .tc) := [main_v410, main_v411, main_v412, main_v413, main_v414, main_v415, main_v416, main_v417, main_v418]
theorem hostOps43_4_writes : (hostOps43_4 : List (HloOp τ sig (Elt F))).Forall fun op => op.writes ⊆ (hostOps43_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 107 agrees with boundary 106 off what `hostOps43_4` writes. -/
theorem W107_keep (c : Dev nD) (r : Ref sig .tc) (h : r ∉ hostOps43_4_W) : W107 m ρ c (Proc.devRef .tc r) = W106 m ρ c (Proc.devRef .tc r) :=
  StableHlo.after_of_writes_sub hostOps43_4 _ hostOps43_4_writes h

/-- The references `hostOps43_5`'s operations write. -/
abbrev hostOps43_5_W : List (Ref sig .tc) := [main_call10_cst, main_call10_v0, main_v419]
theorem hostOps43_5_writes : (hostOps43_5 : List (HloOp τ sig (Elt F))).Forall fun op => op.writes ⊆ (hostOps43_5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 108 agrees with boundary 107 off what `hostOps43_5` writes. -/
theorem W108_keep (c : Dev nD) (r : Ref sig .tc) (h : r ∉ hostOps43_5_W) : W108 m ρ c (Proc.devRef .tc r) = W107 m ρ c (Proc.devRef .tc r) :=
  StableHlo.after_of_writes_sub hostOps43_5 _ hostOps43_5_writes h

/-- The references `hostOps43_6`'s operations write. -/
abbrev hostOps43_6_W : List (Ref sig .tc) := [main_v420, main_v421, main_v422, main_v423, main_v424]
theorem hostOps43_6_writes : (hostOps43_6 : List (HloOp τ sig (Elt F))).Forall fun op => op.writes ⊆ (hostOps43_6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Boundary 109 agrees with boundary 108 off what `hostOps43_6` writes. -/
theorem W109_keep (c : Dev nD) (r : Ref sig .tc) (h : r ∉ hostOps43_6_W) : W109 m ρ c (Proc.devRef .tc r) = W108 m ρ c (Proc.devRef .tc r) :=
  StableHlo.after_of_writes_sub hostOps43_6 _ hostOps43_6_writes h

/-- `main_arg0` reaches the end as launched. -/
theorem W109_main_arg0 (c : Dev nD) : W109 m ρ c (Proc.devRef .tc main_arg0) = m ((c : Thread nD τ).loc main_arg0) :=
  (W109_keep m ρ c main_arg0 (by decide)).trans <|
  (W108_keep m ρ c main_arg0 (by decide)).trans <|
  (W107_keep m ρ c main_arg0 (by decide)).trans <|
  (W106_keep m ρ c main_arg0 (by decide)).trans <|
  (W105_keep m ρ c main_arg0 (by decide)).trans <|
  (W104_keep m ρ c main_arg0 (by decide)).trans <|
  (W103_keep m ρ c main_arg0 (by decide)).trans <|
  (W102_keep m ρ c main_arg0 (by decide)).trans <|
  (W101_keep m ρ c main_arg0 (by decide)).trans <|
  (W100_keep m ρ c main_arg0 (by decide)).trans <|
  (W99_keep m ρ c main_arg0 (by decide)).trans <|
  (W98_keep m ρ c main_arg0 (by decide)).trans <|
  (W97_keep m ρ c main_arg0 (by decide)).trans <|
  (W96_keep m ρ c main_arg0 (by decide)).trans <|
  (W95_keep m ρ c main_arg0 (by decide)).trans <|
  (W94_keep m ρ c main_arg0 (by decide)).trans <|
  (W93_keep m ρ c main_arg0 (by decide)).trans <|
  (W92_keep m ρ c main_arg0 (by decide)).trans <|
  (W91_keep m ρ c main_arg0 (by decide)).trans <|
  (W90_keep m ρ c main_arg0 (by decide)).trans <|
  (W89_keep m ρ c main_arg0 (by decide)).trans <|
  (W88_keep m ρ c main_arg0 (by decide)).trans <|
  (W87_keep m ρ c main_arg0 (by decide)).trans <|
  (W86_keep m ρ c main_arg0 (by decide)).trans <|
  (W85_keep m ρ c main_arg0 (by decide)).trans <|
  (W84_keep m ρ c main_arg0 (by decide)).trans <|
  (W83_keep m ρ c main_arg0 (by decide)).trans <|
  (W82_keep m ρ c main_arg0 (by decide)).trans <|
  (W81_keep m ρ c main_arg0 (by decide)).trans <|
  (W80_keep m ρ c main_arg0 (by decide)).trans <|
  (W79_keep m ρ c main_arg0 (by decide)).trans <|
  (W78_keep m ρ c main_arg0 (by decide)).trans <|
  (W77_keep m ρ c main_arg0 (by decide)).trans <|
  (W76_keep m ρ c main_arg0 (by decide)).trans <|
  (W75_keep m ρ c main_arg0 (by decide)).trans <|
  (W74_keep m ρ c main_arg0 (by decide)).trans <|
  (W73_keep m ρ c main_arg0 (by decide)).trans <|
  (W72_keep m ρ c main_arg0 (by decide)).trans <|
  (W71_keep m ρ c main_arg0 (by decide)).trans <|
  (W70_keep m ρ c main_arg0 (by decide)).trans <|
  (W69_keep m ρ c main_arg0 (by decide)).trans <|
  (W68_keep m ρ c main_arg0 (by decide)).trans <|
  (W67_keep m ρ c main_arg0 (by decide)).trans <|
  (W66_keep m ρ c main_arg0 (by decide)).trans <|
  (W65_keep m ρ c main_arg0 (by decide)).trans <|
  (W64_keep m ρ c main_arg0 (by decide)).trans <|
  (W63_keep m ρ c main_arg0 (by decide)).trans <|
  (W62_keep m ρ c main_arg0 (by decide)).trans <|
  (W61_keep m ρ c main_arg0 (by decide)).trans <|
  (W60_keep m ρ c main_arg0 (by decide)).trans <|
  (W59_keep m ρ c main_arg0 (by decide)).trans <|
  (W58_keep m ρ c main_arg0 (by decide)).trans <|
  (W57_keep m ρ c main_arg0 (by decide)).trans <|
  (W56_keep m ρ c main_arg0 (by decide)).trans <|
  (W55_keep m ρ c main_arg0 (by decide)).trans <|
  (W54_keep m ρ c main_arg0 (by decide)).trans <|
  (W53_keep m ρ c main_arg0 (by decide)).trans <|
  (W52_keep m ρ c main_arg0 (by decide)).trans <|
  (W51_keep m ρ c main_arg0 (by decide)).trans <|
  (W50_keep m ρ c main_arg0 (by decide)).trans <|
  (W49_keep m ρ c main_arg0 (by decide)).trans <|
  (W48_keep m ρ c main_arg0 (by decide)).trans <|
  (W47_keep m ρ c main_arg0 (by decide)).trans <|
  (W46_keep m ρ c main_arg0 (by decide)).trans <|
  (W45_keep m ρ c main_arg0 (by decide)).trans <|
  (W44_keep m ρ c main_arg0 (by decide)).trans <|
  (W43_keep m ρ c main_arg0 (by decide)).trans <|
  (W42_keep m ρ c main_arg0 (by decide)).trans <|
  (W41_keep m ρ c main_arg0 (by decide)).trans <|
  (W40_keep m ρ c main_arg0 (by decide)).trans <|
  (W39_keep m ρ c main_arg0 (by decide)).trans <|
  (W38_keep m ρ c main_arg0 (by decide)).trans <|
  (W37_keep m ρ c main_arg0 (by decide)).trans <|
  (W36_keep m ρ c main_arg0 (by decide)).trans <|
  (W35_keep m ρ c main_arg0 (by decide)).trans <|
  (W34_keep m ρ c main_arg0 (by decide)).trans <|
  (W33_keep m ρ c main_arg0 (by decide)).trans <|
  (W32_keep m ρ c main_arg0 (by decide)).trans <|
  (W31_keep m ρ c main_arg0 (by decide)).trans <|
  (W30_keep m ρ c main_arg0 (by decide)).trans <|
  (W29_keep m ρ c main_arg0 (by decide)).trans <|
  (W28_keep m ρ c main_arg0 (by decide)).trans <|
  (W27_keep m ρ c main_arg0 (by decide)).trans <|
  (W26_keep m ρ c main_arg0 (by decide)).trans <|
  (W25_keep m ρ c main_arg0 (by decide)).trans <|
  (W24_keep m ρ c main_arg0 (by decide)).trans <|
  (W23_keep m ρ c main_arg0 (by decide)).trans <|
  (W22_keep m ρ c main_arg0 (by decide)).trans <|
  (W21_keep m ρ c main_arg0 (by decide)).trans <|
  (W20_keep m ρ c main_arg0 (by decide)).trans <|
  (W19_keep m ρ c main_arg0 (by decide)).trans <|
  (W18_keep m ρ c main_arg0 (by decide)).trans <|
  (W17_keep m ρ c main_arg0 (by decide)).trans <|
  (W16_keep m ρ c main_arg0 (by decide)).trans <|
  (W15_keep m ρ c main_arg0 (by decide)).trans <|
  (W14_keep m ρ c main_arg0 (by decide)).trans <|
  (W13_keep m ρ c main_arg0 (by decide)).trans <|
  (W12_keep m ρ c main_arg0 (by decide)).trans <|
  (W11_keep m ρ c main_arg0 (by decide)).trans <|
  (W10_keep m ρ c main_arg0 (by decide)).trans <|
  (W9_keep m ρ c main_arg0 (by decide)).trans <|
  (W8_keep m ρ c main_arg0 (by decide)).trans <|
  (W7_keep m ρ c main_arg0 (by decide)).trans <|
  (W6_keep m ρ c main_arg0 (by decide)).trans <|
  (W5_keep m ρ c main_arg0 (by decide)).trans <|
  (W4_keep m ρ c main_arg0 (by decide)).trans <|
  (W3_keep m ρ c main_arg0 (by decide)).trans <|
  (W2_keep m ρ c main_arg0 (by decide)).trans <|
  (W1_keep m ρ c main_arg0 (by decide)).trans rfl

/-- `main_arg1` reaches the end as launched. -/
theorem W109_main_arg1 (c : Dev nD) : W109 m ρ c (Proc.devRef .tc main_arg1) = m ((c : Thread nD τ).loc main_arg1) :=
  (W109_keep m ρ c main_arg1 (by decide)).trans <|
  (W108_keep m ρ c main_arg1 (by decide)).trans <|
  (W107_keep m ρ c main_arg1 (by decide)).trans <|
  (W106_keep m ρ c main_arg1 (by decide)).trans <|
  (W105_keep m ρ c main_arg1 (by decide)).trans <|
  (W104_keep m ρ c main_arg1 (by decide)).trans <|
  (W103_keep m ρ c main_arg1 (by decide)).trans <|
  (W102_keep m ρ c main_arg1 (by decide)).trans <|
  (W101_keep m ρ c main_arg1 (by decide)).trans <|
  (W100_keep m ρ c main_arg1 (by decide)).trans <|
  (W99_keep m ρ c main_arg1 (by decide)).trans <|
  (W98_keep m ρ c main_arg1 (by decide)).trans <|
  (W97_keep m ρ c main_arg1 (by decide)).trans <|
  (W96_keep m ρ c main_arg1 (by decide)).trans <|
  (W95_keep m ρ c main_arg1 (by decide)).trans <|
  (W94_keep m ρ c main_arg1 (by decide)).trans <|
  (W93_keep m ρ c main_arg1 (by decide)).trans <|
  (W92_keep m ρ c main_arg1 (by decide)).trans <|
  (W91_keep m ρ c main_arg1 (by decide)).trans <|
  (W90_keep m ρ c main_arg1 (by decide)).trans <|
  (W89_keep m ρ c main_arg1 (by decide)).trans <|
  (W88_keep m ρ c main_arg1 (by decide)).trans <|
  (W87_keep m ρ c main_arg1 (by decide)).trans <|
  (W86_keep m ρ c main_arg1 (by decide)).trans <|
  (W85_keep m ρ c main_arg1 (by decide)).trans <|
  (W84_keep m ρ c main_arg1 (by decide)).trans <|
  (W83_keep m ρ c main_arg1 (by decide)).trans <|
  (W82_keep m ρ c main_arg1 (by decide)).trans <|
  (W81_keep m ρ c main_arg1 (by decide)).trans <|
  (W80_keep m ρ c main_arg1 (by decide)).trans <|
  (W79_keep m ρ c main_arg1 (by decide)).trans <|
  (W78_keep m ρ c main_arg1 (by decide)).trans <|
  (W77_keep m ρ c main_arg1 (by decide)).trans <|
  (W76_keep m ρ c main_arg1 (by decide)).trans <|
  (W75_keep m ρ c main_arg1 (by decide)).trans <|
  (W74_keep m ρ c main_arg1 (by decide)).trans <|
  (W73_keep m ρ c main_arg1 (by decide)).trans <|
  (W72_keep m ρ c main_arg1 (by decide)).trans <|
  (W71_keep m ρ c main_arg1 (by decide)).trans <|
  (W70_keep m ρ c main_arg1 (by decide)).trans <|
  (W69_keep m ρ c main_arg1 (by decide)).trans <|
  (W68_keep m ρ c main_arg1 (by decide)).trans <|
  (W67_keep m ρ c main_arg1 (by decide)).trans <|
  (W66_keep m ρ c main_arg1 (by decide)).trans <|
  (W65_keep m ρ c main_arg1 (by decide)).trans <|
  (W64_keep m ρ c main_arg1 (by decide)).trans <|
  (W63_keep m ρ c main_arg1 (by decide)).trans <|
  (W62_keep m ρ c main_arg1 (by decide)).trans <|
  (W61_keep m ρ c main_arg1 (by decide)).trans <|
  (W60_keep m ρ c main_arg1 (by decide)).trans <|
  (W59_keep m ρ c main_arg1 (by decide)).trans <|
  (W58_keep m ρ c main_arg1 (by decide)).trans <|
  (W57_keep m ρ c main_arg1 (by decide)).trans <|
  (W56_keep m ρ c main_arg1 (by decide)).trans <|
  (W55_keep m ρ c main_arg1 (by decide)).trans <|
  (W54_keep m ρ c main_arg1 (by decide)).trans <|
  (W53_keep m ρ c main_arg1 (by decide)).trans <|
  (W52_keep m ρ c main_arg1 (by decide)).trans <|
  (W51_keep m ρ c main_arg1 (by decide)).trans <|
  (W50_keep m ρ c main_arg1 (by decide)).trans <|
  (W49_keep m ρ c main_arg1 (by decide)).trans <|
  (W48_keep m ρ c main_arg1 (by decide)).trans <|
  (W47_keep m ρ c main_arg1 (by decide)).trans <|
  (W46_keep m ρ c main_arg1 (by decide)).trans <|
  (W45_keep m ρ c main_arg1 (by decide)).trans <|
  (W44_keep m ρ c main_arg1 (by decide)).trans <|
  (W43_keep m ρ c main_arg1 (by decide)).trans <|
  (W42_keep m ρ c main_arg1 (by decide)).trans <|
  (W41_keep m ρ c main_arg1 (by decide)).trans <|
  (W40_keep m ρ c main_arg1 (by decide)).trans <|
  (W39_keep m ρ c main_arg1 (by decide)).trans <|
  (W38_keep m ρ c main_arg1 (by decide)).trans <|
  (W37_keep m ρ c main_arg1 (by decide)).trans <|
  (W36_keep m ρ c main_arg1 (by decide)).trans <|
  (W35_keep m ρ c main_arg1 (by decide)).trans <|
  (W34_keep m ρ c main_arg1 (by decide)).trans <|
  (W33_keep m ρ c main_arg1 (by decide)).trans <|
  (W32_keep m ρ c main_arg1 (by decide)).trans <|
  (W31_keep m ρ c main_arg1 (by decide)).trans <|
  (W30_keep m ρ c main_arg1 (by decide)).trans <|
  (W29_keep m ρ c main_arg1 (by decide)).trans <|
  (W28_keep m ρ c main_arg1 (by decide)).trans <|
  (W27_keep m ρ c main_arg1 (by decide)).trans <|
  (W26_keep m ρ c main_arg1 (by decide)).trans <|
  (W25_keep m ρ c main_arg1 (by decide)).trans <|
  (W24_keep m ρ c main_arg1 (by decide)).trans <|
  (W23_keep m ρ c main_arg1 (by decide)).trans <|
  (W22_keep m ρ c main_arg1 (by decide)).trans <|
  (W21_keep m ρ c main_arg1 (by decide)).trans <|
  (W20_keep m ρ c main_arg1 (by decide)).trans <|
  (W19_keep m ρ c main_arg1 (by decide)).trans <|
  (W18_keep m ρ c main_arg1 (by decide)).trans <|
  (W17_keep m ρ c main_arg1 (by decide)).trans <|
  (W16_keep m ρ c main_arg1 (by decide)).trans <|
  (W15_keep m ρ c main_arg1 (by decide)).trans <|
  (W14_keep m ρ c main_arg1 (by decide)).trans <|
  (W13_keep m ρ c main_arg1 (by decide)).trans <|
  (W12_keep m ρ c main_arg1 (by decide)).trans <|
  (W11_keep m ρ c main_arg1 (by decide)).trans <|
  (W10_keep m ρ c main_arg1 (by decide)).trans <|
  (W9_keep m ρ c main_arg1 (by decide)).trans <|
  (W8_keep m ρ c main_arg1 (by decide)).trans <|
  (W7_keep m ρ c main_arg1 (by decide)).trans <|
  (W6_keep m ρ c main_arg1 (by decide)).trans <|
  (W5_keep m ρ c main_arg1 (by decide)).trans <|
  (W4_keep m ρ c main_arg1 (by decide)).trans <|
  (W3_keep m ρ c main_arg1 (by decide)).trans <|
  (W2_keep m ρ c main_arg1 (by decide)).trans <|
  (W1_keep m ρ c main_arg1 (by decide)).trans rfl

/-- `main_arg2` reaches the end as launched. -/
theorem W109_main_arg2 (c : Dev nD) : W109 m ρ c (Proc.devRef .tc main_arg2) = m ((c : Thread nD τ).loc main_arg2) :=
  (W109_keep m ρ c main_arg2 (by decide)).trans <|
  (W108_keep m ρ c main_arg2 (by decide)).trans <|
  (W107_keep m ρ c main_arg2 (by decide)).trans <|
  (W106_keep m ρ c main_arg2 (by decide)).trans <|
  (W105_keep m ρ c main_arg2 (by decide)).trans <|
  (W104_keep m ρ c main_arg2 (by decide)).trans <|
  (W103_keep m ρ c main_arg2 (by decide)).trans <|
  (W102_keep m ρ c main_arg2 (by decide)).trans <|
  (W101_keep m ρ c main_arg2 (by decide)).trans <|
  (W100_keep m ρ c main_arg2 (by decide)).trans <|
  (W99_keep m ρ c main_arg2 (by decide)).trans <|
  (W98_keep m ρ c main_arg2 (by decide)).trans <|
  (W97_keep m ρ c main_arg2 (by decide)).trans <|
  (W96_keep m ρ c main_arg2 (by decide)).trans <|
  (W95_keep m ρ c main_arg2 (by decide)).trans <|
  (W94_keep m ρ c main_arg2 (by decide)).trans <|
  (W93_keep m ρ c main_arg2 (by decide)).trans <|
  (W92_keep m ρ c main_arg2 (by decide)).trans <|
  (W91_keep m ρ c main_arg2 (by decide)).trans <|
  (W90_keep m ρ c main_arg2 (by decide)).trans <|
  (W89_keep m ρ c main_arg2 (by decide)).trans <|
  (W88_keep m ρ c main_arg2 (by decide)).trans <|
  (W87_keep m ρ c main_arg2 (by decide)).trans <|
  (W86_keep m ρ c main_arg2 (by decide)).trans <|
  (W85_keep m ρ c main_arg2 (by decide)).trans <|
  (W84_keep m ρ c main_arg2 (by decide)).trans <|
  (W83_keep m ρ c main_arg2 (by decide)).trans <|
  (W82_keep m ρ c main_arg2 (by decide)).trans <|
  (W81_keep m ρ c main_arg2 (by decide)).trans <|
  (W80_keep m ρ c main_arg2 (by decide)).trans <|
  (W79_keep m ρ c main_arg2 (by decide)).trans <|
  (W78_keep m ρ c main_arg2 (by decide)).trans <|
  (W77_keep m ρ c main_arg2 (by decide)).trans <|
  (W76_keep m ρ c main_arg2 (by decide)).trans <|
  (W75_keep m ρ c main_arg2 (by decide)).trans <|
  (W74_keep m ρ c main_arg2 (by decide)).trans <|
  (W73_keep m ρ c main_arg2 (by decide)).trans <|
  (W72_keep m ρ c main_arg2 (by decide)).trans <|
  (W71_keep m ρ c main_arg2 (by decide)).trans <|
  (W70_keep m ρ c main_arg2 (by decide)).trans <|
  (W69_keep m ρ c main_arg2 (by decide)).trans <|
  (W68_keep m ρ c main_arg2 (by decide)).trans <|
  (W67_keep m ρ c main_arg2 (by decide)).trans <|
  (W66_keep m ρ c main_arg2 (by decide)).trans <|
  (W65_keep m ρ c main_arg2 (by decide)).trans <|
  (W64_keep m ρ c main_arg2 (by decide)).trans <|
  (W63_keep m ρ c main_arg2 (by decide)).trans <|
  (W62_keep m ρ c main_arg2 (by decide)).trans <|
  (W61_keep m ρ c main_arg2 (by decide)).trans <|
  (W60_keep m ρ c main_arg2 (by decide)).trans <|
  (W59_keep m ρ c main_arg2 (by decide)).trans <|
  (W58_keep m ρ c main_arg2 (by decide)).trans <|
  (W57_keep m ρ c main_arg2 (by decide)).trans <|
  (W56_keep m ρ c main_arg2 (by decide)).trans <|
  (W55_keep m ρ c main_arg2 (by decide)).trans <|
  (W54_keep m ρ c main_arg2 (by decide)).trans <|
  (W53_keep m ρ c main_arg2 (by decide)).trans <|
  (W52_keep m ρ c main_arg2 (by decide)).trans <|
  (W51_keep m ρ c main_arg2 (by decide)).trans <|
  (W50_keep m ρ c main_arg2 (by decide)).trans <|
  (W49_keep m ρ c main_arg2 (by decide)).trans <|
  (W48_keep m ρ c main_arg2 (by decide)).trans <|
  (W47_keep m ρ c main_arg2 (by decide)).trans <|
  (W46_keep m ρ c main_arg2 (by decide)).trans <|
  (W45_keep m ρ c main_arg2 (by decide)).trans <|
  (W44_keep m ρ c main_arg2 (by decide)).trans <|
  (W43_keep m ρ c main_arg2 (by decide)).trans <|
  (W42_keep m ρ c main_arg2 (by decide)).trans <|
  (W41_keep m ρ c main_arg2 (by decide)).trans <|
  (W40_keep m ρ c main_arg2 (by decide)).trans <|
  (W39_keep m ρ c main_arg2 (by decide)).trans <|
  (W38_keep m ρ c main_arg2 (by decide)).trans <|
  (W37_keep m ρ c main_arg2 (by decide)).trans <|
  (W36_keep m ρ c main_arg2 (by decide)).trans <|
  (W35_keep m ρ c main_arg2 (by decide)).trans <|
  (W34_keep m ρ c main_arg2 (by decide)).trans <|
  (W33_keep m ρ c main_arg2 (by decide)).trans <|
  (W32_keep m ρ c main_arg2 (by decide)).trans <|
  (W31_keep m ρ c main_arg2 (by decide)).trans <|
  (W30_keep m ρ c main_arg2 (by decide)).trans <|
  (W29_keep m ρ c main_arg2 (by decide)).trans <|
  (W28_keep m ρ c main_arg2 (by decide)).trans <|
  (W27_keep m ρ c main_arg2 (by decide)).trans <|
  (W26_keep m ρ c main_arg2 (by decide)).trans <|
  (W25_keep m ρ c main_arg2 (by decide)).trans <|
  (W24_keep m ρ c main_arg2 (by decide)).trans <|
  (W23_keep m ρ c main_arg2 (by decide)).trans <|
  (W22_keep m ρ c main_arg2 (by decide)).trans <|
  (W21_keep m ρ c main_arg2 (by decide)).trans <|
  (W20_keep m ρ c main_arg2 (by decide)).trans <|
  (W19_keep m ρ c main_arg2 (by decide)).trans <|
  (W18_keep m ρ c main_arg2 (by decide)).trans <|
  (W17_keep m ρ c main_arg2 (by decide)).trans <|
  (W16_keep m ρ c main_arg2 (by decide)).trans <|
  (W15_keep m ρ c main_arg2 (by decide)).trans <|
  (W14_keep m ρ c main_arg2 (by decide)).trans <|
  (W13_keep m ρ c main_arg2 (by decide)).trans <|
  (W12_keep m ρ c main_arg2 (by decide)).trans <|
  (W11_keep m ρ c main_arg2 (by decide)).trans <|
  (W10_keep m ρ c main_arg2 (by decide)).trans <|
  (W9_keep m ρ c main_arg2 (by decide)).trans <|
  (W8_keep m ρ c main_arg2 (by decide)).trans <|
  (W7_keep m ρ c main_arg2 (by decide)).trans <|
  (W6_keep m ρ c main_arg2 (by decide)).trans <|
  (W5_keep m ρ c main_arg2 (by decide)).trans <|
  (W4_keep m ρ c main_arg2 (by decide)).trans <|
  (W3_keep m ρ c main_arg2 (by decide)).trans <|
  (W2_keep m ρ c main_arg2 (by decide)).trans <|
  (W1_keep m ρ c main_arg2 (by decide)).trans rfl

/-- `main_arg3` reaches the end as launched. -/
theorem W109_main_arg3 (c : Dev nD) : W109 m ρ c (Proc.devRef .tc main_arg3) = m ((c : Thread nD τ).loc main_arg3) :=
  (W109_keep m ρ c main_arg3 (by decide)).trans <|
  (W108_keep m ρ c main_arg3 (by decide)).trans <|
  (W107_keep m ρ c main_arg3 (by decide)).trans <|
  (W106_keep m ρ c main_arg3 (by decide)).trans <|
  (W105_keep m ρ c main_arg3 (by decide)).trans <|
  (W104_keep m ρ c main_arg3 (by decide)).trans <|
  (W103_keep m ρ c main_arg3 (by decide)).trans <|
  (W102_keep m ρ c main_arg3 (by decide)).trans <|
  (W101_keep m ρ c main_arg3 (by decide)).trans <|
  (W100_keep m ρ c main_arg3 (by decide)).trans <|
  (W99_keep m ρ c main_arg3 (by decide)).trans <|
  (W98_keep m ρ c main_arg3 (by decide)).trans <|
  (W97_keep m ρ c main_arg3 (by decide)).trans <|
  (W96_keep m ρ c main_arg3 (by decide)).trans <|
  (W95_keep m ρ c main_arg3 (by decide)).trans <|
  (W94_keep m ρ c main_arg3 (by decide)).trans <|
  (W93_keep m ρ c main_arg3 (by decide)).trans <|
  (W92_keep m ρ c main_arg3 (by decide)).trans <|
  (W91_keep m ρ c main_arg3 (by decide)).trans <|
  (W90_keep m ρ c main_arg3 (by decide)).trans <|
  (W89_keep m ρ c main_arg3 (by decide)).trans <|
  (W88_keep m ρ c main_arg3 (by decide)).trans <|
  (W87_keep m ρ c main_arg3 (by decide)).trans <|
  (W86_keep m ρ c main_arg3 (by decide)).trans <|
  (W85_keep m ρ c main_arg3 (by decide)).trans <|
  (W84_keep m ρ c main_arg3 (by decide)).trans <|
  (W83_keep m ρ c main_arg3 (by decide)).trans <|
  (W82_keep m ρ c main_arg3 (by decide)).trans <|
  (W81_keep m ρ c main_arg3 (by decide)).trans <|
  (W80_keep m ρ c main_arg3 (by decide)).trans <|
  (W79_keep m ρ c main_arg3 (by decide)).trans <|
  (W78_keep m ρ c main_arg3 (by decide)).trans <|
  (W77_keep m ρ c main_arg3 (by decide)).trans <|
  (W76_keep m ρ c main_arg3 (by decide)).trans <|
  (W75_keep m ρ c main_arg3 (by decide)).trans <|
  (W74_keep m ρ c main_arg3 (by decide)).trans <|
  (W73_keep m ρ c main_arg3 (by decide)).trans <|
  (W72_keep m ρ c main_arg3 (by decide)).trans <|
  (W71_keep m ρ c main_arg3 (by decide)).trans <|
  (W70_keep m ρ c main_arg3 (by decide)).trans <|
  (W69_keep m ρ c main_arg3 (by decide)).trans <|
  (W68_keep m ρ c main_arg3 (by decide)).trans <|
  (W67_keep m ρ c main_arg3 (by decide)).trans <|
  (W66_keep m ρ c main_arg3 (by decide)).trans <|
  (W65_keep m ρ c main_arg3 (by decide)).trans <|
  (W64_keep m ρ c main_arg3 (by decide)).trans <|
  (W63_keep m ρ c main_arg3 (by decide)).trans <|
  (W62_keep m ρ c main_arg3 (by decide)).trans <|
  (W61_keep m ρ c main_arg3 (by decide)).trans <|
  (W60_keep m ρ c main_arg3 (by decide)).trans <|
  (W59_keep m ρ c main_arg3 (by decide)).trans <|
  (W58_keep m ρ c main_arg3 (by decide)).trans <|
  (W57_keep m ρ c main_arg3 (by decide)).trans <|
  (W56_keep m ρ c main_arg3 (by decide)).trans <|
  (W55_keep m ρ c main_arg3 (by decide)).trans <|
  (W54_keep m ρ c main_arg3 (by decide)).trans <|
  (W53_keep m ρ c main_arg3 (by decide)).trans <|
  (W52_keep m ρ c main_arg3 (by decide)).trans <|
  (W51_keep m ρ c main_arg3 (by decide)).trans <|
  (W50_keep m ρ c main_arg3 (by decide)).trans <|
  (W49_keep m ρ c main_arg3 (by decide)).trans <|
  (W48_keep m ρ c main_arg3 (by decide)).trans <|
  (W47_keep m ρ c main_arg3 (by decide)).trans <|
  (W46_keep m ρ c main_arg3 (by decide)).trans <|
  (W45_keep m ρ c main_arg3 (by decide)).trans <|
  (W44_keep m ρ c main_arg3 (by decide)).trans <|
  (W43_keep m ρ c main_arg3 (by decide)).trans <|
  (W42_keep m ρ c main_arg3 (by decide)).trans <|
  (W41_keep m ρ c main_arg3 (by decide)).trans <|
  (W40_keep m ρ c main_arg3 (by decide)).trans <|
  (W39_keep m ρ c main_arg3 (by decide)).trans <|
  (W38_keep m ρ c main_arg3 (by decide)).trans <|
  (W37_keep m ρ c main_arg3 (by decide)).trans <|
  (W36_keep m ρ c main_arg3 (by decide)).trans <|
  (W35_keep m ρ c main_arg3 (by decide)).trans <|
  (W34_keep m ρ c main_arg3 (by decide)).trans <|
  (W33_keep m ρ c main_arg3 (by decide)).trans <|
  (W32_keep m ρ c main_arg3 (by decide)).trans <|
  (W31_keep m ρ c main_arg3 (by decide)).trans <|
  (W30_keep m ρ c main_arg3 (by decide)).trans <|
  (W29_keep m ρ c main_arg3 (by decide)).trans <|
  (W28_keep m ρ c main_arg3 (by decide)).trans <|
  (W27_keep m ρ c main_arg3 (by decide)).trans <|
  (W26_keep m ρ c main_arg3 (by decide)).trans <|
  (W25_keep m ρ c main_arg3 (by decide)).trans <|
  (W24_keep m ρ c main_arg3 (by decide)).trans <|
  (W23_keep m ρ c main_arg3 (by decide)).trans <|
  (W22_keep m ρ c main_arg3 (by decide)).trans <|
  (W21_keep m ρ c main_arg3 (by decide)).trans <|
  (W20_keep m ρ c main_arg3 (by decide)).trans <|
  (W19_keep m ρ c main_arg3 (by decide)).trans <|
  (W18_keep m ρ c main_arg3 (by decide)).trans <|
  (W17_keep m ρ c main_arg3 (by decide)).trans <|
  (W16_keep m ρ c main_arg3 (by decide)).trans <|
  (W15_keep m ρ c main_arg3 (by decide)).trans <|
  (W14_keep m ρ c main_arg3 (by decide)).trans <|
  (W13_keep m ρ c main_arg3 (by decide)).trans <|
  (W12_keep m ρ c main_arg3 (by decide)).trans <|
  (W11_keep m ρ c main_arg3 (by decide)).trans <|
  (W10_keep m ρ c main_arg3 (by decide)).trans <|
  (W9_keep m ρ c main_arg3 (by decide)).trans <|
  (W8_keep m ρ c main_arg3 (by decide)).trans <|
  (W7_keep m ρ c main_arg3 (by decide)).trans <|
  (W6_keep m ρ c main_arg3 (by decide)).trans <|
  (W5_keep m ρ c main_arg3 (by decide)).trans <|
  (W4_keep m ρ c main_arg3 (by decide)).trans <|
  (W3_keep m ρ c main_arg3 (by decide)).trans <|
  (W2_keep m ρ c main_arg3 (by decide)).trans <|
  (W1_keep m ρ c main_arg3 (by decide)).trans rfl

/-- `main_arg4` reaches the end as launched. -/
theorem W109_main_arg4 (c : Dev nD) : W109 m ρ c (Proc.devRef .tc main_arg4) = m ((c : Thread nD τ).loc main_arg4) :=
  (W109_keep m ρ c main_arg4 (by decide)).trans <|
  (W108_keep m ρ c main_arg4 (by decide)).trans <|
  (W107_keep m ρ c main_arg4 (by decide)).trans <|
  (W106_keep m ρ c main_arg4 (by decide)).trans <|
  (W105_keep m ρ c main_arg4 (by decide)).trans <|
  (W104_keep m ρ c main_arg4 (by decide)).trans <|
  (W103_keep m ρ c main_arg4 (by decide)).trans <|
  (W102_keep m ρ c main_arg4 (by decide)).trans <|
  (W101_keep m ρ c main_arg4 (by decide)).trans <|
  (W100_keep m ρ c main_arg4 (by decide)).trans <|
  (W99_keep m ρ c main_arg4 (by decide)).trans <|
  (W98_keep m ρ c main_arg4 (by decide)).trans <|
  (W97_keep m ρ c main_arg4 (by decide)).trans <|
  (W96_keep m ρ c main_arg4 (by decide)).trans <|
  (W95_keep m ρ c main_arg4 (by decide)).trans <|
  (W94_keep m ρ c main_arg4 (by decide)).trans <|
  (W93_keep m ρ c main_arg4 (by decide)).trans <|
  (W92_keep m ρ c main_arg4 (by decide)).trans <|
  (W91_keep m ρ c main_arg4 (by decide)).trans <|
  (W90_keep m ρ c main_arg4 (by decide)).trans <|
  (W89_keep m ρ c main_arg4 (by decide)).trans <|
  (W88_keep m ρ c main_arg4 (by decide)).trans <|
  (W87_keep m ρ c main_arg4 (by decide)).trans <|
  (W86_keep m ρ c main_arg4 (by decide)).trans <|
  (W85_keep m ρ c main_arg4 (by decide)).trans <|
  (W84_keep m ρ c main_arg4 (by decide)).trans <|
  (W83_keep m ρ c main_arg4 (by decide)).trans <|
  (W82_keep m ρ c main_arg4 (by decide)).trans <|
  (W81_keep m ρ c main_arg4 (by decide)).trans <|
  (W80_keep m ρ c main_arg4 (by decide)).trans <|
  (W79_keep m ρ c main_arg4 (by decide)).trans <|
  (W78_keep m ρ c main_arg4 (by decide)).trans <|
  (W77_keep m ρ c main_arg4 (by decide)).trans <|
  (W76_keep m ρ c main_arg4 (by decide)).trans <|
  (W75_keep m ρ c main_arg4 (by decide)).trans <|
  (W74_keep m ρ c main_arg4 (by decide)).trans <|
  (W73_keep m ρ c main_arg4 (by decide)).trans <|
  (W72_keep m ρ c main_arg4 (by decide)).trans <|
  (W71_keep m ρ c main_arg4 (by decide)).trans <|
  (W70_keep m ρ c main_arg4 (by decide)).trans <|
  (W69_keep m ρ c main_arg4 (by decide)).trans <|
  (W68_keep m ρ c main_arg4 (by decide)).trans <|
  (W67_keep m ρ c main_arg4 (by decide)).trans <|
  (W66_keep m ρ c main_arg4 (by decide)).trans <|
  (W65_keep m ρ c main_arg4 (by decide)).trans <|
  (W64_keep m ρ c main_arg4 (by decide)).trans <|
  (W63_keep m ρ c main_arg4 (by decide)).trans <|
  (W62_keep m ρ c main_arg4 (by decide)).trans <|
  (W61_keep m ρ c main_arg4 (by decide)).trans <|
  (W60_keep m ρ c main_arg4 (by decide)).trans <|
  (W59_keep m ρ c main_arg4 (by decide)).trans <|
  (W58_keep m ρ c main_arg4 (by decide)).trans <|
  (W57_keep m ρ c main_arg4 (by decide)).trans <|
  (W56_keep m ρ c main_arg4 (by decide)).trans <|
  (W55_keep m ρ c main_arg4 (by decide)).trans <|
  (W54_keep m ρ c main_arg4 (by decide)).trans <|
  (W53_keep m ρ c main_arg4 (by decide)).trans <|
  (W52_keep m ρ c main_arg4 (by decide)).trans <|
  (W51_keep m ρ c main_arg4 (by decide)).trans <|
  (W50_keep m ρ c main_arg4 (by decide)).trans <|
  (W49_keep m ρ c main_arg4 (by decide)).trans <|
  (W48_keep m ρ c main_arg4 (by decide)).trans <|
  (W47_keep m ρ c main_arg4 (by decide)).trans <|
  (W46_keep m ρ c main_arg4 (by decide)).trans <|
  (W45_keep m ρ c main_arg4 (by decide)).trans <|
  (W44_keep m ρ c main_arg4 (by decide)).trans <|
  (W43_keep m ρ c main_arg4 (by decide)).trans <|
  (W42_keep m ρ c main_arg4 (by decide)).trans <|
  (W41_keep m ρ c main_arg4 (by decide)).trans <|
  (W40_keep m ρ c main_arg4 (by decide)).trans <|
  (W39_keep m ρ c main_arg4 (by decide)).trans <|
  (W38_keep m ρ c main_arg4 (by decide)).trans <|
  (W37_keep m ρ c main_arg4 (by decide)).trans <|
  (W36_keep m ρ c main_arg4 (by decide)).trans <|
  (W35_keep m ρ c main_arg4 (by decide)).trans <|
  (W34_keep m ρ c main_arg4 (by decide)).trans <|
  (W33_keep m ρ c main_arg4 (by decide)).trans <|
  (W32_keep m ρ c main_arg4 (by decide)).trans <|
  (W31_keep m ρ c main_arg4 (by decide)).trans <|
  (W30_keep m ρ c main_arg4 (by decide)).trans <|
  (W29_keep m ρ c main_arg4 (by decide)).trans <|
  (W28_keep m ρ c main_arg4 (by decide)).trans <|
  (W27_keep m ρ c main_arg4 (by decide)).trans <|
  (W26_keep m ρ c main_arg4 (by decide)).trans <|
  (W25_keep m ρ c main_arg4 (by decide)).trans <|
  (W24_keep m ρ c main_arg4 (by decide)).trans <|
  (W23_keep m ρ c main_arg4 (by decide)).trans <|
  (W22_keep m ρ c main_arg4 (by decide)).trans <|
  (W21_keep m ρ c main_arg4 (by decide)).trans <|
  (W20_keep m ρ c main_arg4 (by decide)).trans <|
  (W19_keep m ρ c main_arg4 (by decide)).trans <|
  (W18_keep m ρ c main_arg4 (by decide)).trans <|
  (W17_keep m ρ c main_arg4 (by decide)).trans <|
  (W16_keep m ρ c main_arg4 (by decide)).trans <|
  (W15_keep m ρ c main_arg4 (by decide)).trans <|
  (W14_keep m ρ c main_arg4 (by decide)).trans <|
  (W13_keep m ρ c main_arg4 (by decide)).trans <|
  (W12_keep m ρ c main_arg4 (by decide)).trans <|
  (W11_keep m ρ c main_arg4 (by decide)).trans <|
  (W10_keep m ρ c main_arg4 (by decide)).trans <|
  (W9_keep m ρ c main_arg4 (by decide)).trans <|
  (W8_keep m ρ c main_arg4 (by decide)).trans <|
  (W7_keep m ρ c main_arg4 (by decide)).trans <|
  (W6_keep m ρ c main_arg4 (by decide)).trans <|
  (W5_keep m ρ c main_arg4 (by decide)).trans <|
  (W4_keep m ρ c main_arg4 (by decide)).trans <|
  (W3_keep m ρ c main_arg4 (by decide)).trans <|
  (W2_keep m ρ c main_arg4 (by decide)).trans <|
  (W1_keep m ρ c main_arg4 (by decide)).trans rfl

/-- `main_arg5` reaches the end as launched. -/
theorem W109_main_arg5 (c : Dev nD) : W109 m ρ c (Proc.devRef .tc main_arg5) = m ((c : Thread nD τ).loc main_arg5) :=
  (W109_keep m ρ c main_arg5 (by decide)).trans <|
  (W108_keep m ρ c main_arg5 (by decide)).trans <|
  (W107_keep m ρ c main_arg5 (by decide)).trans <|
  (W106_keep m ρ c main_arg5 (by decide)).trans <|
  (W105_keep m ρ c main_arg5 (by decide)).trans <|
  (W104_keep m ρ c main_arg5 (by decide)).trans <|
  (W103_keep m ρ c main_arg5 (by decide)).trans <|
  (W102_keep m ρ c main_arg5 (by decide)).trans <|
  (W101_keep m ρ c main_arg5 (by decide)).trans <|
  (W100_keep m ρ c main_arg5 (by decide)).trans <|
  (W99_keep m ρ c main_arg5 (by decide)).trans <|
  (W98_keep m ρ c main_arg5 (by decide)).trans <|
  (W97_keep m ρ c main_arg5 (by decide)).trans <|
  (W96_keep m ρ c main_arg5 (by decide)).trans <|
  (W95_keep m ρ c main_arg5 (by decide)).trans <|
  (W94_keep m ρ c main_arg5 (by decide)).trans <|
  (W93_keep m ρ c main_arg5 (by decide)).trans <|
  (W92_keep m ρ c main_arg5 (by decide)).trans <|
  (W91_keep m ρ c main_arg5 (by decide)).trans <|
  (W90_keep m ρ c main_arg5 (by decide)).trans <|
  (W89_keep m ρ c main_arg5 (by decide)).trans <|
  (W88_keep m ρ c main_arg5 (by decide)).trans <|
  (W87_keep m ρ c main_arg5 (by decide)).trans <|
  (W86_keep m ρ c main_arg5 (by decide)).trans <|
  (W85_keep m ρ c main_arg5 (by decide)).trans <|
  (W84_keep m ρ c main_arg5 (by decide)).trans <|
  (W83_keep m ρ c main_arg5 (by decide)).trans <|
  (W82_keep m ρ c main_arg5 (by decide)).trans <|
  (W81_keep m ρ c main_arg5 (by decide)).trans <|
  (W80_keep m ρ c main_arg5 (by decide)).trans <|
  (W79_keep m ρ c main_arg5 (by decide)).trans <|
  (W78_keep m ρ c main_arg5 (by decide)).trans <|
  (W77_keep m ρ c main_arg5 (by decide)).trans <|
  (W76_keep m ρ c main_arg5 (by decide)).trans <|
  (W75_keep m ρ c main_arg5 (by decide)).trans <|
  (W74_keep m ρ c main_arg5 (by decide)).trans <|
  (W73_keep m ρ c main_arg5 (by decide)).trans <|
  (W72_keep m ρ c main_arg5 (by decide)).trans <|
  (W71_keep m ρ c main_arg5 (by decide)).trans <|
  (W70_keep m ρ c main_arg5 (by decide)).trans <|
  (W69_keep m ρ c main_arg5 (by decide)).trans <|
  (W68_keep m ρ c main_arg5 (by decide)).trans <|
  (W67_keep m ρ c main_arg5 (by decide)).trans <|
  (W66_keep m ρ c main_arg5 (by decide)).trans <|
  (W65_keep m ρ c main_arg5 (by decide)).trans <|
  (W64_keep m ρ c main_arg5 (by decide)).trans <|
  (W63_keep m ρ c main_arg5 (by decide)).trans <|
  (W62_keep m ρ c main_arg5 (by decide)).trans <|
  (W61_keep m ρ c main_arg5 (by decide)).trans <|
  (W60_keep m ρ c main_arg5 (by decide)).trans <|
  (W59_keep m ρ c main_arg5 (by decide)).trans <|
  (W58_keep m ρ c main_arg5 (by decide)).trans <|
  (W57_keep m ρ c main_arg5 (by decide)).trans <|
  (W56_keep m ρ c main_arg5 (by decide)).trans <|
  (W55_keep m ρ c main_arg5 (by decide)).trans <|
  (W54_keep m ρ c main_arg5 (by decide)).trans <|
  (W53_keep m ρ c main_arg5 (by decide)).trans <|
  (W52_keep m ρ c main_arg5 (by decide)).trans <|
  (W51_keep m ρ c main_arg5 (by decide)).trans <|
  (W50_keep m ρ c main_arg5 (by decide)).trans <|
  (W49_keep m ρ c main_arg5 (by decide)).trans <|
  (W48_keep m ρ c main_arg5 (by decide)).trans <|
  (W47_keep m ρ c main_arg5 (by decide)).trans <|
  (W46_keep m ρ c main_arg5 (by decide)).trans <|
  (W45_keep m ρ c main_arg5 (by decide)).trans <|
  (W44_keep m ρ c main_arg5 (by decide)).trans <|
  (W43_keep m ρ c main_arg5 (by decide)).trans <|
  (W42_keep m ρ c main_arg5 (by decide)).trans <|
  (W41_keep m ρ c main_arg5 (by decide)).trans <|
  (W40_keep m ρ c main_arg5 (by decide)).trans <|
  (W39_keep m ρ c main_arg5 (by decide)).trans <|
  (W38_keep m ρ c main_arg5 (by decide)).trans <|
  (W37_keep m ρ c main_arg5 (by decide)).trans <|
  (W36_keep m ρ c main_arg5 (by decide)).trans <|
  (W35_keep m ρ c main_arg5 (by decide)).trans <|
  (W34_keep m ρ c main_arg5 (by decide)).trans <|
  (W33_keep m ρ c main_arg5 (by decide)).trans <|
  (W32_keep m ρ c main_arg5 (by decide)).trans <|
  (W31_keep m ρ c main_arg5 (by decide)).trans <|
  (W30_keep m ρ c main_arg5 (by decide)).trans <|
  (W29_keep m ρ c main_arg5 (by decide)).trans <|
  (W28_keep m ρ c main_arg5 (by decide)).trans <|
  (W27_keep m ρ c main_arg5 (by decide)).trans <|
  (W26_keep m ρ c main_arg5 (by decide)).trans <|
  (W25_keep m ρ c main_arg5 (by decide)).trans <|
  (W24_keep m ρ c main_arg5 (by decide)).trans <|
  (W23_keep m ρ c main_arg5 (by decide)).trans <|
  (W22_keep m ρ c main_arg5 (by decide)).trans <|
  (W21_keep m ρ c main_arg5 (by decide)).trans <|
  (W20_keep m ρ c main_arg5 (by decide)).trans <|
  (W19_keep m ρ c main_arg5 (by decide)).trans <|
  (W18_keep m ρ c main_arg5 (by decide)).trans <|
  (W17_keep m ρ c main_arg5 (by decide)).trans <|
  (W16_keep m ρ c main_arg5 (by decide)).trans <|
  (W15_keep m ρ c main_arg5 (by decide)).trans <|
  (W14_keep m ρ c main_arg5 (by decide)).trans <|
  (W13_keep m ρ c main_arg5 (by decide)).trans <|
  (W12_keep m ρ c main_arg5 (by decide)).trans <|
  (W11_keep m ρ c main_arg5 (by decide)).trans <|
  (W10_keep m ρ c main_arg5 (by decide)).trans <|
  (W9_keep m ρ c main_arg5 (by decide)).trans <|
  (W8_keep m ρ c main_arg5 (by decide)).trans <|
  (W7_keep m ρ c main_arg5 (by decide)).trans <|
  (W6_keep m ρ c main_arg5 (by decide)).trans <|
  (W5_keep m ρ c main_arg5 (by decide)).trans <|
  (W4_keep m ρ c main_arg5 (by decide)).trans <|
  (W3_keep m ρ c main_arg5 (by decide)).trans <|
  (W2_keep m ρ c main_arg5 (by decide)).trans <|
  (W1_keep m ρ c main_arg5 (by decide)).trans rfl

/-- `main_arg6` reaches the end as launched. -/
theorem W109_main_arg6 (c : Dev nD) : W109 m ρ c (Proc.devRef .tc main_arg6) = m ((c : Thread nD τ).loc main_arg6) :=
  (W109_keep m ρ c main_arg6 (by decide)).trans <|
  (W108_keep m ρ c main_arg6 (by decide)).trans <|
  (W107_keep m ρ c main_arg6 (by decide)).trans <|
  (W106_keep m ρ c main_arg6 (by decide)).trans <|
  (W105_keep m ρ c main_arg6 (by decide)).trans <|
  (W104_keep m ρ c main_arg6 (by decide)).trans <|
  (W103_keep m ρ c main_arg6 (by decide)).trans <|
  (W102_keep m ρ c main_arg6 (by decide)).trans <|
  (W101_keep m ρ c main_arg6 (by decide)).trans <|
  (W100_keep m ρ c main_arg6 (by decide)).trans <|
  (W99_keep m ρ c main_arg6 (by decide)).trans <|
  (W98_keep m ρ c main_arg6 (by decide)).trans <|
  (W97_keep m ρ c main_arg6 (by decide)).trans <|
  (W96_keep m ρ c main_arg6 (by decide)).trans <|
  (W95_keep m ρ c main_arg6 (by decide)).trans <|
  (W94_keep m ρ c main_arg6 (by decide)).trans <|
  (W93_keep m ρ c main_arg6 (by decide)).trans <|
  (W92_keep m ρ c main_arg6 (by decide)).trans <|
  (W91_keep m ρ c main_arg6 (by decide)).trans <|
  (W90_keep m ρ c main_arg6 (by decide)).trans <|
  (W89_keep m ρ c main_arg6 (by decide)).trans <|
  (W88_keep m ρ c main_arg6 (by decide)).trans <|
  (W87_keep m ρ c main_arg6 (by decide)).trans <|
  (W86_keep m ρ c main_arg6 (by decide)).trans <|
  (W85_keep m ρ c main_arg6 (by decide)).trans <|
  (W84_keep m ρ c main_arg6 (by decide)).trans <|
  (W83_keep m ρ c main_arg6 (by decide)).trans <|
  (W82_keep m ρ c main_arg6 (by decide)).trans <|
  (W81_keep m ρ c main_arg6 (by decide)).trans <|
  (W80_keep m ρ c main_arg6 (by decide)).trans <|
  (W79_keep m ρ c main_arg6 (by decide)).trans <|
  (W78_keep m ρ c main_arg6 (by decide)).trans <|
  (W77_keep m ρ c main_arg6 (by decide)).trans <|
  (W76_keep m ρ c main_arg6 (by decide)).trans <|
  (W75_keep m ρ c main_arg6 (by decide)).trans <|
  (W74_keep m ρ c main_arg6 (by decide)).trans <|
  (W73_keep m ρ c main_arg6 (by decide)).trans <|
  (W72_keep m ρ c main_arg6 (by decide)).trans <|
  (W71_keep m ρ c main_arg6 (by decide)).trans <|
  (W70_keep m ρ c main_arg6 (by decide)).trans <|
  (W69_keep m ρ c main_arg6 (by decide)).trans <|
  (W68_keep m ρ c main_arg6 (by decide)).trans <|
  (W67_keep m ρ c main_arg6 (by decide)).trans <|
  (W66_keep m ρ c main_arg6 (by decide)).trans <|
  (W65_keep m ρ c main_arg6 (by decide)).trans <|
  (W64_keep m ρ c main_arg6 (by decide)).trans <|
  (W63_keep m ρ c main_arg6 (by decide)).trans <|
  (W62_keep m ρ c main_arg6 (by decide)).trans <|
  (W61_keep m ρ c main_arg6 (by decide)).trans <|
  (W60_keep m ρ c main_arg6 (by decide)).trans <|
  (W59_keep m ρ c main_arg6 (by decide)).trans <|
  (W58_keep m ρ c main_arg6 (by decide)).trans <|
  (W57_keep m ρ c main_arg6 (by decide)).trans <|
  (W56_keep m ρ c main_arg6 (by decide)).trans <|
  (W55_keep m ρ c main_arg6 (by decide)).trans <|
  (W54_keep m ρ c main_arg6 (by decide)).trans <|
  (W53_keep m ρ c main_arg6 (by decide)).trans <|
  (W52_keep m ρ c main_arg6 (by decide)).trans <|
  (W51_keep m ρ c main_arg6 (by decide)).trans <|
  (W50_keep m ρ c main_arg6 (by decide)).trans <|
  (W49_keep m ρ c main_arg6 (by decide)).trans <|
  (W48_keep m ρ c main_arg6 (by decide)).trans <|
  (W47_keep m ρ c main_arg6 (by decide)).trans <|
  (W46_keep m ρ c main_arg6 (by decide)).trans <|
  (W45_keep m ρ c main_arg6 (by decide)).trans <|
  (W44_keep m ρ c main_arg6 (by decide)).trans <|
  (W43_keep m ρ c main_arg6 (by decide)).trans <|
  (W42_keep m ρ c main_arg6 (by decide)).trans <|
  (W41_keep m ρ c main_arg6 (by decide)).trans <|
  (W40_keep m ρ c main_arg6 (by decide)).trans <|
  (W39_keep m ρ c main_arg6 (by decide)).trans <|
  (W38_keep m ρ c main_arg6 (by decide)).trans <|
  (W37_keep m ρ c main_arg6 (by decide)).trans <|
  (W36_keep m ρ c main_arg6 (by decide)).trans <|
  (W35_keep m ρ c main_arg6 (by decide)).trans <|
  (W34_keep m ρ c main_arg6 (by decide)).trans <|
  (W33_keep m ρ c main_arg6 (by decide)).trans <|
  (W32_keep m ρ c main_arg6 (by decide)).trans <|
  (W31_keep m ρ c main_arg6 (by decide)).trans <|
  (W30_keep m ρ c main_arg6 (by decide)).trans <|
  (W29_keep m ρ c main_arg6 (by decide)).trans <|
  (W28_keep m ρ c main_arg6 (by decide)).trans <|
  (W27_keep m ρ c main_arg6 (by decide)).trans <|
  (W26_keep m ρ c main_arg6 (by decide)).trans <|
  (W25_keep m ρ c main_arg6 (by decide)).trans <|
  (W24_keep m ρ c main_arg6 (by decide)).trans <|
  (W23_keep m ρ c main_arg6 (by decide)).trans <|
  (W22_keep m ρ c main_arg6 (by decide)).trans <|
  (W21_keep m ρ c main_arg6 (by decide)).trans <|
  (W20_keep m ρ c main_arg6 (by decide)).trans <|
  (W19_keep m ρ c main_arg6 (by decide)).trans <|
  (W18_keep m ρ c main_arg6 (by decide)).trans <|
  (W17_keep m ρ c main_arg6 (by decide)).trans <|
  (W16_keep m ρ c main_arg6 (by decide)).trans <|
  (W15_keep m ρ c main_arg6 (by decide)).trans <|
  (W14_keep m ρ c main_arg6 (by decide)).trans <|
  (W13_keep m ρ c main_arg6 (by decide)).trans <|
  (W12_keep m ρ c main_arg6 (by decide)).trans <|
  (W11_keep m ρ c main_arg6 (by decide)).trans <|
  (W10_keep m ρ c main_arg6 (by decide)).trans <|
  (W9_keep m ρ c main_arg6 (by decide)).trans <|
  (W8_keep m ρ c main_arg6 (by decide)).trans <|
  (W7_keep m ρ c main_arg6 (by decide)).trans <|
  (W6_keep m ρ c main_arg6 (by decide)).trans <|
  (W5_keep m ρ c main_arg6 (by decide)).trans <|
  (W4_keep m ρ c main_arg6 (by decide)).trans <|
  (W3_keep m ρ c main_arg6 (by decide)).trans <|
  (W2_keep m ρ c main_arg6 (by decide)).trans <|
  (W1_keep m ρ c main_arg6 (by decide)).trans rfl

/-- `main_arg7` reaches the end as launched. -/
theorem W109_main_arg7 (c : Dev nD) : W109 m ρ c (Proc.devRef .tc main_arg7) = m ((c : Thread nD τ).loc main_arg7) :=
  (W109_keep m ρ c main_arg7 (by decide)).trans <|
  (W108_keep m ρ c main_arg7 (by decide)).trans <|
  (W107_keep m ρ c main_arg7 (by decide)).trans <|
  (W106_keep m ρ c main_arg7 (by decide)).trans <|
  (W105_keep m ρ c main_arg7 (by decide)).trans <|
  (W104_keep m ρ c main_arg7 (by decide)).trans <|
  (W103_keep m ρ c main_arg7 (by decide)).trans <|
  (W102_keep m ρ c main_arg7 (by decide)).trans <|
  (W101_keep m ρ c main_arg7 (by decide)).trans <|
  (W100_keep m ρ c main_arg7 (by decide)).trans <|
  (W99_keep m ρ c main_arg7 (by decide)).trans <|
  (W98_keep m ρ c main_arg7 (by decide)).trans <|
  (W97_keep m ρ c main_arg7 (by decide)).trans <|
  (W96_keep m ρ c main_arg7 (by decide)).trans <|
  (W95_keep m ρ c main_arg7 (by decide)).trans <|
  (W94_keep m ρ c main_arg7 (by decide)).trans <|
  (W93_keep m ρ c main_arg7 (by decide)).trans <|
  (W92_keep m ρ c main_arg7 (by decide)).trans <|
  (W91_keep m ρ c main_arg7 (by decide)).trans <|
  (W90_keep m ρ c main_arg7 (by decide)).trans <|
  (W89_keep m ρ c main_arg7 (by decide)).trans <|
  (W88_keep m ρ c main_arg7 (by decide)).trans <|
  (W87_keep m ρ c main_arg7 (by decide)).trans <|
  (W86_keep m ρ c main_arg7 (by decide)).trans <|
  (W85_keep m ρ c main_arg7 (by decide)).trans <|
  (W84_keep m ρ c main_arg7 (by decide)).trans <|
  (W83_keep m ρ c main_arg7 (by decide)).trans <|
  (W82_keep m ρ c main_arg7 (by decide)).trans <|
  (W81_keep m ρ c main_arg7 (by decide)).trans <|
  (W80_keep m ρ c main_arg7 (by decide)).trans <|
  (W79_keep m ρ c main_arg7 (by decide)).trans <|
  (W78_keep m ρ c main_arg7 (by decide)).trans <|
  (W77_keep m ρ c main_arg7 (by decide)).trans <|
  (W76_keep m ρ c main_arg7 (by decide)).trans <|
  (W75_keep m ρ c main_arg7 (by decide)).trans <|
  (W74_keep m ρ c main_arg7 (by decide)).trans <|
  (W73_keep m ρ c main_arg7 (by decide)).trans <|
  (W72_keep m ρ c main_arg7 (by decide)).trans <|
  (W71_keep m ρ c main_arg7 (by decide)).trans <|
  (W70_keep m ρ c main_arg7 (by decide)).trans <|
  (W69_keep m ρ c main_arg7 (by decide)).trans <|
  (W68_keep m ρ c main_arg7 (by decide)).trans <|
  (W67_keep m ρ c main_arg7 (by decide)).trans <|
  (W66_keep m ρ c main_arg7 (by decide)).trans <|
  (W65_keep m ρ c main_arg7 (by decide)).trans <|
  (W64_keep m ρ c main_arg7 (by decide)).trans <|
  (W63_keep m ρ c main_arg7 (by decide)).trans <|
  (W62_keep m ρ c main_arg7 (by decide)).trans <|
  (W61_keep m ρ c main_arg7 (by decide)).trans <|
  (W60_keep m ρ c main_arg7 (by decide)).trans <|
  (W59_keep m ρ c main_arg7 (by decide)).trans <|
  (W58_keep m ρ c main_arg7 (by decide)).trans <|
  (W57_keep m ρ c main_arg7 (by decide)).trans <|
  (W56_keep m ρ c main_arg7 (by decide)).trans <|
  (W55_keep m ρ c main_arg7 (by decide)).trans <|
  (W54_keep m ρ c main_arg7 (by decide)).trans <|
  (W53_keep m ρ c main_arg7 (by decide)).trans <|
  (W52_keep m ρ c main_arg7 (by decide)).trans <|
  (W51_keep m ρ c main_arg7 (by decide)).trans <|
  (W50_keep m ρ c main_arg7 (by decide)).trans <|
  (W49_keep m ρ c main_arg7 (by decide)).trans <|
  (W48_keep m ρ c main_arg7 (by decide)).trans <|
  (W47_keep m ρ c main_arg7 (by decide)).trans <|
  (W46_keep m ρ c main_arg7 (by decide)).trans <|
  (W45_keep m ρ c main_arg7 (by decide)).trans <|
  (W44_keep m ρ c main_arg7 (by decide)).trans <|
  (W43_keep m ρ c main_arg7 (by decide)).trans <|
  (W42_keep m ρ c main_arg7 (by decide)).trans <|
  (W41_keep m ρ c main_arg7 (by decide)).trans <|
  (W40_keep m ρ c main_arg7 (by decide)).trans <|
  (W39_keep m ρ c main_arg7 (by decide)).trans <|
  (W38_keep m ρ c main_arg7 (by decide)).trans <|
  (W37_keep m ρ c main_arg7 (by decide)).trans <|
  (W36_keep m ρ c main_arg7 (by decide)).trans <|
  (W35_keep m ρ c main_arg7 (by decide)).trans <|
  (W34_keep m ρ c main_arg7 (by decide)).trans <|
  (W33_keep m ρ c main_arg7 (by decide)).trans <|
  (W32_keep m ρ c main_arg7 (by decide)).trans <|
  (W31_keep m ρ c main_arg7 (by decide)).trans <|
  (W30_keep m ρ c main_arg7 (by decide)).trans <|
  (W29_keep m ρ c main_arg7 (by decide)).trans <|
  (W28_keep m ρ c main_arg7 (by decide)).trans <|
  (W27_keep m ρ c main_arg7 (by decide)).trans <|
  (W26_keep m ρ c main_arg7 (by decide)).trans <|
  (W25_keep m ρ c main_arg7 (by decide)).trans <|
  (W24_keep m ρ c main_arg7 (by decide)).trans <|
  (W23_keep m ρ c main_arg7 (by decide)).trans <|
  (W22_keep m ρ c main_arg7 (by decide)).trans <|
  (W21_keep m ρ c main_arg7 (by decide)).trans <|
  (W20_keep m ρ c main_arg7 (by decide)).trans <|
  (W19_keep m ρ c main_arg7 (by decide)).trans <|
  (W18_keep m ρ c main_arg7 (by decide)).trans <|
  (W17_keep m ρ c main_arg7 (by decide)).trans <|
  (W16_keep m ρ c main_arg7 (by decide)).trans <|
  (W15_keep m ρ c main_arg7 (by decide)).trans <|
  (W14_keep m ρ c main_arg7 (by decide)).trans <|
  (W13_keep m ρ c main_arg7 (by decide)).trans <|
  (W12_keep m ρ c main_arg7 (by decide)).trans <|
  (W11_keep m ρ c main_arg7 (by decide)).trans <|
  (W10_keep m ρ c main_arg7 (by decide)).trans <|
  (W9_keep m ρ c main_arg7 (by decide)).trans <|
  (W8_keep m ρ c main_arg7 (by decide)).trans <|
  (W7_keep m ρ c main_arg7 (by decide)).trans <|
  (W6_keep m ρ c main_arg7 (by decide)).trans <|
  (W5_keep m ρ c main_arg7 (by decide)).trans <|
  (W4_keep m ρ c main_arg7 (by decide)).trans <|
  (W3_keep m ρ c main_arg7 (by decide)).trans <|
  (W2_keep m ρ c main_arg7 (by decide)).trans <|
  (W1_keep m ρ c main_arg7 (by decide)).trans rfl

/-- `main_arg8` reaches the end as launched. -/
theorem W109_main_arg8 (c : Dev nD) : W109 m ρ c (Proc.devRef .tc main_arg8) = m ((c : Thread nD τ).loc main_arg8) :=
  (W109_keep m ρ c main_arg8 (by decide)).trans <|
  (W108_keep m ρ c main_arg8 (by decide)).trans <|
  (W107_keep m ρ c main_arg8 (by decide)).trans <|
  (W106_keep m ρ c main_arg8 (by decide)).trans <|
  (W105_keep m ρ c main_arg8 (by decide)).trans <|
  (W104_keep m ρ c main_arg8 (by decide)).trans <|
  (W103_keep m ρ c main_arg8 (by decide)).trans <|
  (W102_keep m ρ c main_arg8 (by decide)).trans <|
  (W101_keep m ρ c main_arg8 (by decide)).trans <|
  (W100_keep m ρ c main_arg8 (by decide)).trans <|
  (W99_keep m ρ c main_arg8 (by decide)).trans <|
  (W98_keep m ρ c main_arg8 (by decide)).trans <|
  (W97_keep m ρ c main_arg8 (by decide)).trans <|
  (W96_keep m ρ c main_arg8 (by decide)).trans <|
  (W95_keep m ρ c main_arg8 (by decide)).trans <|
  (W94_keep m ρ c main_arg8 (by decide)).trans <|
  (W93_keep m ρ c main_arg8 (by decide)).trans <|
  (W92_keep m ρ c main_arg8 (by decide)).trans <|
  (W91_keep m ρ c main_arg8 (by decide)).trans <|
  (W90_keep m ρ c main_arg8 (by decide)).trans <|
  (W89_keep m ρ c main_arg8 (by decide)).trans <|
  (W88_keep m ρ c main_arg8 (by decide)).trans <|
  (W87_keep m ρ c main_arg8 (by decide)).trans <|
  (W86_keep m ρ c main_arg8 (by decide)).trans <|
  (W85_keep m ρ c main_arg8 (by decide)).trans <|
  (W84_keep m ρ c main_arg8 (by decide)).trans <|
  (W83_keep m ρ c main_arg8 (by decide)).trans <|
  (W82_keep m ρ c main_arg8 (by decide)).trans <|
  (W81_keep m ρ c main_arg8 (by decide)).trans <|
  (W80_keep m ρ c main_arg8 (by decide)).trans <|
  (W79_keep m ρ c main_arg8 (by decide)).trans <|
  (W78_keep m ρ c main_arg8 (by decide)).trans <|
  (W77_keep m ρ c main_arg8 (by decide)).trans <|
  (W76_keep m ρ c main_arg8 (by decide)).trans <|
  (W75_keep m ρ c main_arg8 (by decide)).trans <|
  (W74_keep m ρ c main_arg8 (by decide)).trans <|
  (W73_keep m ρ c main_arg8 (by decide)).trans <|
  (W72_keep m ρ c main_arg8 (by decide)).trans <|
  (W71_keep m ρ c main_arg8 (by decide)).trans <|
  (W70_keep m ρ c main_arg8 (by decide)).trans <|
  (W69_keep m ρ c main_arg8 (by decide)).trans <|
  (W68_keep m ρ c main_arg8 (by decide)).trans <|
  (W67_keep m ρ c main_arg8 (by decide)).trans <|
  (W66_keep m ρ c main_arg8 (by decide)).trans <|
  (W65_keep m ρ c main_arg8 (by decide)).trans <|
  (W64_keep m ρ c main_arg8 (by decide)).trans <|
  (W63_keep m ρ c main_arg8 (by decide)).trans <|
  (W62_keep m ρ c main_arg8 (by decide)).trans <|
  (W61_keep m ρ c main_arg8 (by decide)).trans <|
  (W60_keep m ρ c main_arg8 (by decide)).trans <|
  (W59_keep m ρ c main_arg8 (by decide)).trans <|
  (W58_keep m ρ c main_arg8 (by decide)).trans <|
  (W57_keep m ρ c main_arg8 (by decide)).trans <|
  (W56_keep m ρ c main_arg8 (by decide)).trans <|
  (W55_keep m ρ c main_arg8 (by decide)).trans <|
  (W54_keep m ρ c main_arg8 (by decide)).trans <|
  (W53_keep m ρ c main_arg8 (by decide)).trans <|
  (W52_keep m ρ c main_arg8 (by decide)).trans <|
  (W51_keep m ρ c main_arg8 (by decide)).trans <|
  (W50_keep m ρ c main_arg8 (by decide)).trans <|
  (W49_keep m ρ c main_arg8 (by decide)).trans <|
  (W48_keep m ρ c main_arg8 (by decide)).trans <|
  (W47_keep m ρ c main_arg8 (by decide)).trans <|
  (W46_keep m ρ c main_arg8 (by decide)).trans <|
  (W45_keep m ρ c main_arg8 (by decide)).trans <|
  (W44_keep m ρ c main_arg8 (by decide)).trans <|
  (W43_keep m ρ c main_arg8 (by decide)).trans <|
  (W42_keep m ρ c main_arg8 (by decide)).trans <|
  (W41_keep m ρ c main_arg8 (by decide)).trans <|
  (W40_keep m ρ c main_arg8 (by decide)).trans <|
  (W39_keep m ρ c main_arg8 (by decide)).trans <|
  (W38_keep m ρ c main_arg8 (by decide)).trans <|
  (W37_keep m ρ c main_arg8 (by decide)).trans <|
  (W36_keep m ρ c main_arg8 (by decide)).trans <|
  (W35_keep m ρ c main_arg8 (by decide)).trans <|
  (W34_keep m ρ c main_arg8 (by decide)).trans <|
  (W33_keep m ρ c main_arg8 (by decide)).trans <|
  (W32_keep m ρ c main_arg8 (by decide)).trans <|
  (W31_keep m ρ c main_arg8 (by decide)).trans <|
  (W30_keep m ρ c main_arg8 (by decide)).trans <|
  (W29_keep m ρ c main_arg8 (by decide)).trans <|
  (W28_keep m ρ c main_arg8 (by decide)).trans <|
  (W27_keep m ρ c main_arg8 (by decide)).trans <|
  (W26_keep m ρ c main_arg8 (by decide)).trans <|
  (W25_keep m ρ c main_arg8 (by decide)).trans <|
  (W24_keep m ρ c main_arg8 (by decide)).trans <|
  (W23_keep m ρ c main_arg8 (by decide)).trans <|
  (W22_keep m ρ c main_arg8 (by decide)).trans <|
  (W21_keep m ρ c main_arg8 (by decide)).trans <|
  (W20_keep m ρ c main_arg8 (by decide)).trans <|
  (W19_keep m ρ c main_arg8 (by decide)).trans <|
  (W18_keep m ρ c main_arg8 (by decide)).trans <|
  (W17_keep m ρ c main_arg8 (by decide)).trans <|
  (W16_keep m ρ c main_arg8 (by decide)).trans <|
  (W15_keep m ρ c main_arg8 (by decide)).trans <|
  (W14_keep m ρ c main_arg8 (by decide)).trans <|
  (W13_keep m ρ c main_arg8 (by decide)).trans <|
  (W12_keep m ρ c main_arg8 (by decide)).trans <|
  (W11_keep m ρ c main_arg8 (by decide)).trans <|
  (W10_keep m ρ c main_arg8 (by decide)).trans <|
  (W9_keep m ρ c main_arg8 (by decide)).trans <|
  (W8_keep m ρ c main_arg8 (by decide)).trans <|
  (W7_keep m ρ c main_arg8 (by decide)).trans <|
  (W6_keep m ρ c main_arg8 (by decide)).trans <|
  (W5_keep m ρ c main_arg8 (by decide)).trans <|
  (W4_keep m ρ c main_arg8 (by decide)).trans <|
  (W3_keep m ρ c main_arg8 (by decide)).trans <|
  (W2_keep m ρ c main_arg8 (by decide)).trans <|
  (W1_keep m ρ c main_arg8 (by decide)).trans rfl

/-- `main_arg9` reaches the end as launched. -/
theorem W109_main_arg9 (c : Dev nD) : W109 m ρ c (Proc.devRef .tc main_arg9) = m ((c : Thread nD τ).loc main_arg9) :=
  (W109_keep m ρ c main_arg9 (by decide)).trans <|
  (W108_keep m ρ c main_arg9 (by decide)).trans <|
  (W107_keep m ρ c main_arg9 (by decide)).trans <|
  (W106_keep m ρ c main_arg9 (by decide)).trans <|
  (W105_keep m ρ c main_arg9 (by decide)).trans <|
  (W104_keep m ρ c main_arg9 (by decide)).trans <|
  (W103_keep m ρ c main_arg9 (by decide)).trans <|
  (W102_keep m ρ c main_arg9 (by decide)).trans <|
  (W101_keep m ρ c main_arg9 (by decide)).trans <|
  (W100_keep m ρ c main_arg9 (by decide)).trans <|
  (W99_keep m ρ c main_arg9 (by decide)).trans <|
  (W98_keep m ρ c main_arg9 (by decide)).trans <|
  (W97_keep m ρ c main_arg9 (by decide)).trans <|
  (W96_keep m ρ c main_arg9 (by decide)).trans <|
  (W95_keep m ρ c main_arg9 (by decide)).trans <|
  (W94_keep m ρ c main_arg9 (by decide)).trans <|
  (W93_keep m ρ c main_arg9 (by decide)).trans <|
  (W92_keep m ρ c main_arg9 (by decide)).trans <|
  (W91_keep m ρ c main_arg9 (by decide)).trans <|
  (W90_keep m ρ c main_arg9 (by decide)).trans <|
  (W89_keep m ρ c main_arg9 (by decide)).trans <|
  (W88_keep m ρ c main_arg9 (by decide)).trans <|
  (W87_keep m ρ c main_arg9 (by decide)).trans <|
  (W86_keep m ρ c main_arg9 (by decide)).trans <|
  (W85_keep m ρ c main_arg9 (by decide)).trans <|
  (W84_keep m ρ c main_arg9 (by decide)).trans <|
  (W83_keep m ρ c main_arg9 (by decide)).trans <|
  (W82_keep m ρ c main_arg9 (by decide)).trans <|
  (W81_keep m ρ c main_arg9 (by decide)).trans <|
  (W80_keep m ρ c main_arg9 (by decide)).trans <|
  (W79_keep m ρ c main_arg9 (by decide)).trans <|
  (W78_keep m ρ c main_arg9 (by decide)).trans <|
  (W77_keep m ρ c main_arg9 (by decide)).trans <|
  (W76_keep m ρ c main_arg9 (by decide)).trans <|
  (W75_keep m ρ c main_arg9 (by decide)).trans <|
  (W74_keep m ρ c main_arg9 (by decide)).trans <|
  (W73_keep m ρ c main_arg9 (by decide)).trans <|
  (W72_keep m ρ c main_arg9 (by decide)).trans <|
  (W71_keep m ρ c main_arg9 (by decide)).trans <|
  (W70_keep m ρ c main_arg9 (by decide)).trans <|
  (W69_keep m ρ c main_arg9 (by decide)).trans <|
  (W68_keep m ρ c main_arg9 (by decide)).trans <|
  (W67_keep m ρ c main_arg9 (by decide)).trans <|
  (W66_keep m ρ c main_arg9 (by decide)).trans <|
  (W65_keep m ρ c main_arg9 (by decide)).trans <|
  (W64_keep m ρ c main_arg9 (by decide)).trans <|
  (W63_keep m ρ c main_arg9 (by decide)).trans <|
  (W62_keep m ρ c main_arg9 (by decide)).trans <|
  (W61_keep m ρ c main_arg9 (by decide)).trans <|
  (W60_keep m ρ c main_arg9 (by decide)).trans <|
  (W59_keep m ρ c main_arg9 (by decide)).trans <|
  (W58_keep m ρ c main_arg9 (by decide)).trans <|
  (W57_keep m ρ c main_arg9 (by decide)).trans <|
  (W56_keep m ρ c main_arg9 (by decide)).trans <|
  (W55_keep m ρ c main_arg9 (by decide)).trans <|
  (W54_keep m ρ c main_arg9 (by decide)).trans <|
  (W53_keep m ρ c main_arg9 (by decide)).trans <|
  (W52_keep m ρ c main_arg9 (by decide)).trans <|
  (W51_keep m ρ c main_arg9 (by decide)).trans <|
  (W50_keep m ρ c main_arg9 (by decide)).trans <|
  (W49_keep m ρ c main_arg9 (by decide)).trans <|
  (W48_keep m ρ c main_arg9 (by decide)).trans <|
  (W47_keep m ρ c main_arg9 (by decide)).trans <|
  (W46_keep m ρ c main_arg9 (by decide)).trans <|
  (W45_keep m ρ c main_arg9 (by decide)).trans <|
  (W44_keep m ρ c main_arg9 (by decide)).trans <|
  (W43_keep m ρ c main_arg9 (by decide)).trans <|
  (W42_keep m ρ c main_arg9 (by decide)).trans <|
  (W41_keep m ρ c main_arg9 (by decide)).trans <|
  (W40_keep m ρ c main_arg9 (by decide)).trans <|
  (W39_keep m ρ c main_arg9 (by decide)).trans <|
  (W38_keep m ρ c main_arg9 (by decide)).trans <|
  (W37_keep m ρ c main_arg9 (by decide)).trans <|
  (W36_keep m ρ c main_arg9 (by decide)).trans <|
  (W35_keep m ρ c main_arg9 (by decide)).trans <|
  (W34_keep m ρ c main_arg9 (by decide)).trans <|
  (W33_keep m ρ c main_arg9 (by decide)).trans <|
  (W32_keep m ρ c main_arg9 (by decide)).trans <|
  (W31_keep m ρ c main_arg9 (by decide)).trans <|
  (W30_keep m ρ c main_arg9 (by decide)).trans <|
  (W29_keep m ρ c main_arg9 (by decide)).trans <|
  (W28_keep m ρ c main_arg9 (by decide)).trans <|
  (W27_keep m ρ c main_arg9 (by decide)).trans <|
  (W26_keep m ρ c main_arg9 (by decide)).trans <|
  (W25_keep m ρ c main_arg9 (by decide)).trans <|
  (W24_keep m ρ c main_arg9 (by decide)).trans <|
  (W23_keep m ρ c main_arg9 (by decide)).trans <|
  (W22_keep m ρ c main_arg9 (by decide)).trans <|
  (W21_keep m ρ c main_arg9 (by decide)).trans <|
  (W20_keep m ρ c main_arg9 (by decide)).trans <|
  (W19_keep m ρ c main_arg9 (by decide)).trans <|
  (W18_keep m ρ c main_arg9 (by decide)).trans <|
  (W17_keep m ρ c main_arg9 (by decide)).trans <|
  (W16_keep m ρ c main_arg9 (by decide)).trans <|
  (W15_keep m ρ c main_arg9 (by decide)).trans <|
  (W14_keep m ρ c main_arg9 (by decide)).trans <|
  (W13_keep m ρ c main_arg9 (by decide)).trans <|
  (W12_keep m ρ c main_arg9 (by decide)).trans <|
  (W11_keep m ρ c main_arg9 (by decide)).trans <|
  (W10_keep m ρ c main_arg9 (by decide)).trans <|
  (W9_keep m ρ c main_arg9 (by decide)).trans <|
  (W8_keep m ρ c main_arg9 (by decide)).trans <|
  (W7_keep m ρ c main_arg9 (by decide)).trans <|
  (W6_keep m ρ c main_arg9 (by decide)).trans <|
  (W5_keep m ρ c main_arg9 (by decide)).trans <|
  (W4_keep m ρ c main_arg9 (by decide)).trans <|
  (W3_keep m ρ c main_arg9 (by decide)).trans <|
  (W2_keep m ρ c main_arg9 (by decide)).trans <|
  (W1_keep m ρ c main_arg9 (by decide)).trans rfl

/-- `main_arg10` reaches the end as launched. -/
theorem W109_main_arg10 (c : Dev nD) : W109 m ρ c (Proc.devRef .tc main_arg10) = m ((c : Thread nD τ).loc main_arg10) :=
  (W109_keep m ρ c main_arg10 (by decide)).trans <|
  (W108_keep m ρ c main_arg10 (by decide)).trans <|
  (W107_keep m ρ c main_arg10 (by decide)).trans <|
  (W106_keep m ρ c main_arg10 (by decide)).trans <|
  (W105_keep m ρ c main_arg10 (by decide)).trans <|
  (W104_keep m ρ c main_arg10 (by decide)).trans <|
  (W103_keep m ρ c main_arg10 (by decide)).trans <|
  (W102_keep m ρ c main_arg10 (by decide)).trans <|
  (W101_keep m ρ c main_arg10 (by decide)).trans <|
  (W100_keep m ρ c main_arg10 (by decide)).trans <|
  (W99_keep m ρ c main_arg10 (by decide)).trans <|
  (W98_keep m ρ c main_arg10 (by decide)).trans <|
  (W97_keep m ρ c main_arg10 (by decide)).trans <|
  (W96_keep m ρ c main_arg10 (by decide)).trans <|
  (W95_keep m ρ c main_arg10 (by decide)).trans <|
  (W94_keep m ρ c main_arg10 (by decide)).trans <|
  (W93_keep m ρ c main_arg10 (by decide)).trans <|
  (W92_keep m ρ c main_arg10 (by decide)).trans <|
  (W91_keep m ρ c main_arg10 (by decide)).trans <|
  (W90_keep m ρ c main_arg10 (by decide)).trans <|
  (W89_keep m ρ c main_arg10 (by decide)).trans <|
  (W88_keep m ρ c main_arg10 (by decide)).trans <|
  (W87_keep m ρ c main_arg10 (by decide)).trans <|
  (W86_keep m ρ c main_arg10 (by decide)).trans <|
  (W85_keep m ρ c main_arg10 (by decide)).trans <|
  (W84_keep m ρ c main_arg10 (by decide)).trans <|
  (W83_keep m ρ c main_arg10 (by decide)).trans <|
  (W82_keep m ρ c main_arg10 (by decide)).trans <|
  (W81_keep m ρ c main_arg10 (by decide)).trans <|
  (W80_keep m ρ c main_arg10 (by decide)).trans <|
  (W79_keep m ρ c main_arg10 (by decide)).trans <|
  (W78_keep m ρ c main_arg10 (by decide)).trans <|
  (W77_keep m ρ c main_arg10 (by decide)).trans <|
  (W76_keep m ρ c main_arg10 (by decide)).trans <|
  (W75_keep m ρ c main_arg10 (by decide)).trans <|
  (W74_keep m ρ c main_arg10 (by decide)).trans <|
  (W73_keep m ρ c main_arg10 (by decide)).trans <|
  (W72_keep m ρ c main_arg10 (by decide)).trans <|
  (W71_keep m ρ c main_arg10 (by decide)).trans <|
  (W70_keep m ρ c main_arg10 (by decide)).trans <|
  (W69_keep m ρ c main_arg10 (by decide)).trans <|
  (W68_keep m ρ c main_arg10 (by decide)).trans <|
  (W67_keep m ρ c main_arg10 (by decide)).trans <|
  (W66_keep m ρ c main_arg10 (by decide)).trans <|
  (W65_keep m ρ c main_arg10 (by decide)).trans <|
  (W64_keep m ρ c main_arg10 (by decide)).trans <|
  (W63_keep m ρ c main_arg10 (by decide)).trans <|
  (W62_keep m ρ c main_arg10 (by decide)).trans <|
  (W61_keep m ρ c main_arg10 (by decide)).trans <|
  (W60_keep m ρ c main_arg10 (by decide)).trans <|
  (W59_keep m ρ c main_arg10 (by decide)).trans <|
  (W58_keep m ρ c main_arg10 (by decide)).trans <|
  (W57_keep m ρ c main_arg10 (by decide)).trans <|
  (W56_keep m ρ c main_arg10 (by decide)).trans <|
  (W55_keep m ρ c main_arg10 (by decide)).trans <|
  (W54_keep m ρ c main_arg10 (by decide)).trans <|
  (W53_keep m ρ c main_arg10 (by decide)).trans <|
  (W52_keep m ρ c main_arg10 (by decide)).trans <|
  (W51_keep m ρ c main_arg10 (by decide)).trans <|
  (W50_keep m ρ c main_arg10 (by decide)).trans <|
  (W49_keep m ρ c main_arg10 (by decide)).trans <|
  (W48_keep m ρ c main_arg10 (by decide)).trans <|
  (W47_keep m ρ c main_arg10 (by decide)).trans <|
  (W46_keep m ρ c main_arg10 (by decide)).trans <|
  (W45_keep m ρ c main_arg10 (by decide)).trans <|
  (W44_keep m ρ c main_arg10 (by decide)).trans <|
  (W43_keep m ρ c main_arg10 (by decide)).trans <|
  (W42_keep m ρ c main_arg10 (by decide)).trans <|
  (W41_keep m ρ c main_arg10 (by decide)).trans <|
  (W40_keep m ρ c main_arg10 (by decide)).trans <|
  (W39_keep m ρ c main_arg10 (by decide)).trans <|
  (W38_keep m ρ c main_arg10 (by decide)).trans <|
  (W37_keep m ρ c main_arg10 (by decide)).trans <|
  (W36_keep m ρ c main_arg10 (by decide)).trans <|
  (W35_keep m ρ c main_arg10 (by decide)).trans <|
  (W34_keep m ρ c main_arg10 (by decide)).trans <|
  (W33_keep m ρ c main_arg10 (by decide)).trans <|
  (W32_keep m ρ c main_arg10 (by decide)).trans <|
  (W31_keep m ρ c main_arg10 (by decide)).trans <|
  (W30_keep m ρ c main_arg10 (by decide)).trans <|
  (W29_keep m ρ c main_arg10 (by decide)).trans <|
  (W28_keep m ρ c main_arg10 (by decide)).trans <|
  (W27_keep m ρ c main_arg10 (by decide)).trans <|
  (W26_keep m ρ c main_arg10 (by decide)).trans <|
  (W25_keep m ρ c main_arg10 (by decide)).trans <|
  (W24_keep m ρ c main_arg10 (by decide)).trans <|
  (W23_keep m ρ c main_arg10 (by decide)).trans <|
  (W22_keep m ρ c main_arg10 (by decide)).trans <|
  (W21_keep m ρ c main_arg10 (by decide)).trans <|
  (W20_keep m ρ c main_arg10 (by decide)).trans <|
  (W19_keep m ρ c main_arg10 (by decide)).trans <|
  (W18_keep m ρ c main_arg10 (by decide)).trans <|
  (W17_keep m ρ c main_arg10 (by decide)).trans <|
  (W16_keep m ρ c main_arg10 (by decide)).trans <|
  (W15_keep m ρ c main_arg10 (by decide)).trans <|
  (W14_keep m ρ c main_arg10 (by decide)).trans <|
  (W13_keep m ρ c main_arg10 (by decide)).trans <|
  (W12_keep m ρ c main_arg10 (by decide)).trans <|
  (W11_keep m ρ c main_arg10 (by decide)).trans <|
  (W10_keep m ρ c main_arg10 (by decide)).trans <|
  (W9_keep m ρ c main_arg10 (by decide)).trans <|
  (W8_keep m ρ c main_arg10 (by decide)).trans <|
  (W7_keep m ρ c main_arg10 (by decide)).trans <|
  (W6_keep m ρ c main_arg10 (by decide)).trans <|
  (W5_keep m ρ c main_arg10 (by decide)).trans <|
  (W4_keep m ρ c main_arg10 (by decide)).trans <|
  (W3_keep m ρ c main_arg10 (by decide)).trans <|
  (W2_keep m ρ c main_arg10 (by decide)).trans <|
  (W1_keep m ρ c main_arg10 (by decide)).trans rfl

/-- `main_arg11` reaches the end as launched. -/
theorem W109_main_arg11 (c : Dev nD) : W109 m ρ c (Proc.devRef .tc main_arg11) = m ((c : Thread nD τ).loc main_arg11) :=
  (W109_keep m ρ c main_arg11 (by decide)).trans <|
  (W108_keep m ρ c main_arg11 (by decide)).trans <|
  (W107_keep m ρ c main_arg11 (by decide)).trans <|
  (W106_keep m ρ c main_arg11 (by decide)).trans <|
  (W105_keep m ρ c main_arg11 (by decide)).trans <|
  (W104_keep m ρ c main_arg11 (by decide)).trans <|
  (W103_keep m ρ c main_arg11 (by decide)).trans <|
  (W102_keep m ρ c main_arg11 (by decide)).trans <|
  (W101_keep m ρ c main_arg11 (by decide)).trans <|
  (W100_keep m ρ c main_arg11 (by decide)).trans <|
  (W99_keep m ρ c main_arg11 (by decide)).trans <|
  (W98_keep m ρ c main_arg11 (by decide)).trans <|
  (W97_keep m ρ c main_arg11 (by decide)).trans <|
  (W96_keep m ρ c main_arg11 (by decide)).trans <|
  (W95_keep m ρ c main_arg11 (by decide)).trans <|
  (W94_keep m ρ c main_arg11 (by decide)).trans <|
  (W93_keep m ρ c main_arg11 (by decide)).trans <|
  (W92_keep m ρ c main_arg11 (by decide)).trans <|
  (W91_keep m ρ c main_arg11 (by decide)).trans <|
  (W90_keep m ρ c main_arg11 (by decide)).trans <|
  (W89_keep m ρ c main_arg11 (by decide)).trans <|
  (W88_keep m ρ c main_arg11 (by decide)).trans <|
  (W87_keep m ρ c main_arg11 (by decide)).trans <|
  (W86_keep m ρ c main_arg11 (by decide)).trans <|
  (W85_keep m ρ c main_arg11 (by decide)).trans <|
  (W84_keep m ρ c main_arg11 (by decide)).trans <|
  (W83_keep m ρ c main_arg11 (by decide)).trans <|
  (W82_keep m ρ c main_arg11 (by decide)).trans <|
  (W81_keep m ρ c main_arg11 (by decide)).trans <|
  (W80_keep m ρ c main_arg11 (by decide)).trans <|
  (W79_keep m ρ c main_arg11 (by decide)).trans <|
  (W78_keep m ρ c main_arg11 (by decide)).trans <|
  (W77_keep m ρ c main_arg11 (by decide)).trans <|
  (W76_keep m ρ c main_arg11 (by decide)).trans <|
  (W75_keep m ρ c main_arg11 (by decide)).trans <|
  (W74_keep m ρ c main_arg11 (by decide)).trans <|
  (W73_keep m ρ c main_arg11 (by decide)).trans <|
  (W72_keep m ρ c main_arg11 (by decide)).trans <|
  (W71_keep m ρ c main_arg11 (by decide)).trans <|
  (W70_keep m ρ c main_arg11 (by decide)).trans <|
  (W69_keep m ρ c main_arg11 (by decide)).trans <|
  (W68_keep m ρ c main_arg11 (by decide)).trans <|
  (W67_keep m ρ c main_arg11 (by decide)).trans <|
  (W66_keep m ρ c main_arg11 (by decide)).trans <|
  (W65_keep m ρ c main_arg11 (by decide)).trans <|
  (W64_keep m ρ c main_arg11 (by decide)).trans <|
  (W63_keep m ρ c main_arg11 (by decide)).trans <|
  (W62_keep m ρ c main_arg11 (by decide)).trans <|
  (W61_keep m ρ c main_arg11 (by decide)).trans <|
  (W60_keep m ρ c main_arg11 (by decide)).trans <|
  (W59_keep m ρ c main_arg11 (by decide)).trans <|
  (W58_keep m ρ c main_arg11 (by decide)).trans <|
  (W57_keep m ρ c main_arg11 (by decide)).trans <|
  (W56_keep m ρ c main_arg11 (by decide)).trans <|
  (W55_keep m ρ c main_arg11 (by decide)).trans <|
  (W54_keep m ρ c main_arg11 (by decide)).trans <|
  (W53_keep m ρ c main_arg11 (by decide)).trans <|
  (W52_keep m ρ c main_arg11 (by decide)).trans <|
  (W51_keep m ρ c main_arg11 (by decide)).trans <|
  (W50_keep m ρ c main_arg11 (by decide)).trans <|
  (W49_keep m ρ c main_arg11 (by decide)).trans <|
  (W48_keep m ρ c main_arg11 (by decide)).trans <|
  (W47_keep m ρ c main_arg11 (by decide)).trans <|
  (W46_keep m ρ c main_arg11 (by decide)).trans <|
  (W45_keep m ρ c main_arg11 (by decide)).trans <|
  (W44_keep m ρ c main_arg11 (by decide)).trans <|
  (W43_keep m ρ c main_arg11 (by decide)).trans <|
  (W42_keep m ρ c main_arg11 (by decide)).trans <|
  (W41_keep m ρ c main_arg11 (by decide)).trans <|
  (W40_keep m ρ c main_arg11 (by decide)).trans <|
  (W39_keep m ρ c main_arg11 (by decide)).trans <|
  (W38_keep m ρ c main_arg11 (by decide)).trans <|
  (W37_keep m ρ c main_arg11 (by decide)).trans <|
  (W36_keep m ρ c main_arg11 (by decide)).trans <|
  (W35_keep m ρ c main_arg11 (by decide)).trans <|
  (W34_keep m ρ c main_arg11 (by decide)).trans <|
  (W33_keep m ρ c main_arg11 (by decide)).trans <|
  (W32_keep m ρ c main_arg11 (by decide)).trans <|
  (W31_keep m ρ c main_arg11 (by decide)).trans <|
  (W30_keep m ρ c main_arg11 (by decide)).trans <|
  (W29_keep m ρ c main_arg11 (by decide)).trans <|
  (W28_keep m ρ c main_arg11 (by decide)).trans <|
  (W27_keep m ρ c main_arg11 (by decide)).trans <|
  (W26_keep m ρ c main_arg11 (by decide)).trans <|
  (W25_keep m ρ c main_arg11 (by decide)).trans <|
  (W24_keep m ρ c main_arg11 (by decide)).trans <|
  (W23_keep m ρ c main_arg11 (by decide)).trans <|
  (W22_keep m ρ c main_arg11 (by decide)).trans <|
  (W21_keep m ρ c main_arg11 (by decide)).trans <|
  (W20_keep m ρ c main_arg11 (by decide)).trans <|
  (W19_keep m ρ c main_arg11 (by decide)).trans <|
  (W18_keep m ρ c main_arg11 (by decide)).trans <|
  (W17_keep m ρ c main_arg11 (by decide)).trans <|
  (W16_keep m ρ c main_arg11 (by decide)).trans <|
  (W15_keep m ρ c main_arg11 (by decide)).trans <|
  (W14_keep m ρ c main_arg11 (by decide)).trans <|
  (W13_keep m ρ c main_arg11 (by decide)).trans <|
  (W12_keep m ρ c main_arg11 (by decide)).trans <|
  (W11_keep m ρ c main_arg11 (by decide)).trans <|
  (W10_keep m ρ c main_arg11 (by decide)).trans <|
  (W9_keep m ρ c main_arg11 (by decide)).trans <|
  (W8_keep m ρ c main_arg11 (by decide)).trans <|
  (W7_keep m ρ c main_arg11 (by decide)).trans <|
  (W6_keep m ρ c main_arg11 (by decide)).trans <|
  (W5_keep m ρ c main_arg11 (by decide)).trans <|
  (W4_keep m ρ c main_arg11 (by decide)).trans <|
  (W3_keep m ρ c main_arg11 (by decide)).trans <|
  (W2_keep m ρ c main_arg11 (by decide)).trans <|
  (W1_keep m ρ c main_arg11 (by decide)).trans rfl

/-- `main_arg12` reaches the end as launched. -/
theorem W109_main_arg12 (c : Dev nD) : W109 m ρ c (Proc.devRef .tc main_arg12) = m ((c : Thread nD τ).loc main_arg12) :=
  (W109_keep m ρ c main_arg12 (by decide)).trans <|
  (W108_keep m ρ c main_arg12 (by decide)).trans <|
  (W107_keep m ρ c main_arg12 (by decide)).trans <|
  (W106_keep m ρ c main_arg12 (by decide)).trans <|
  (W105_keep m ρ c main_arg12 (by decide)).trans <|
  (W104_keep m ρ c main_arg12 (by decide)).trans <|
  (W103_keep m ρ c main_arg12 (by decide)).trans <|
  (W102_keep m ρ c main_arg12 (by decide)).trans <|
  (W101_keep m ρ c main_arg12 (by decide)).trans <|
  (W100_keep m ρ c main_arg12 (by decide)).trans <|
  (W99_keep m ρ c main_arg12 (by decide)).trans <|
  (W98_keep m ρ c main_arg12 (by decide)).trans <|
  (W97_keep m ρ c main_arg12 (by decide)).trans <|
  (W96_keep m ρ c main_arg12 (by decide)).trans <|
  (W95_keep m ρ c main_arg12 (by decide)).trans <|
  (W94_keep m ρ c main_arg12 (by decide)).trans <|
  (W93_keep m ρ c main_arg12 (by decide)).trans <|
  (W92_keep m ρ c main_arg12 (by decide)).trans <|
  (W91_keep m ρ c main_arg12 (by decide)).trans <|
  (W90_keep m ρ c main_arg12 (by decide)).trans <|
  (W89_keep m ρ c main_arg12 (by decide)).trans <|
  (W88_keep m ρ c main_arg12 (by decide)).trans <|
  (W87_keep m ρ c main_arg12 (by decide)).trans <|
  (W86_keep m ρ c main_arg12 (by decide)).trans <|
  (W85_keep m ρ c main_arg12 (by decide)).trans <|
  (W84_keep m ρ c main_arg12 (by decide)).trans <|
  (W83_keep m ρ c main_arg12 (by decide)).trans <|
  (W82_keep m ρ c main_arg12 (by decide)).trans <|
  (W81_keep m ρ c main_arg12 (by decide)).trans <|
  (W80_keep m ρ c main_arg12 (by decide)).trans <|
  (W79_keep m ρ c main_arg12 (by decide)).trans <|
  (W78_keep m ρ c main_arg12 (by decide)).trans <|
  (W77_keep m ρ c main_arg12 (by decide)).trans <|
  (W76_keep m ρ c main_arg12 (by decide)).trans <|
  (W75_keep m ρ c main_arg12 (by decide)).trans <|
  (W74_keep m ρ c main_arg12 (by decide)).trans <|
  (W73_keep m ρ c main_arg12 (by decide)).trans <|
  (W72_keep m ρ c main_arg12 (by decide)).trans <|
  (W71_keep m ρ c main_arg12 (by decide)).trans <|
  (W70_keep m ρ c main_arg12 (by decide)).trans <|
  (W69_keep m ρ c main_arg12 (by decide)).trans <|
  (W68_keep m ρ c main_arg12 (by decide)).trans <|
  (W67_keep m ρ c main_arg12 (by decide)).trans <|
  (W66_keep m ρ c main_arg12 (by decide)).trans <|
  (W65_keep m ρ c main_arg12 (by decide)).trans <|
  (W64_keep m ρ c main_arg12 (by decide)).trans <|
  (W63_keep m ρ c main_arg12 (by decide)).trans <|
  (W62_keep m ρ c main_arg12 (by decide)).trans <|
  (W61_keep m ρ c main_arg12 (by decide)).trans <|
  (W60_keep m ρ c main_arg12 (by decide)).trans <|
  (W59_keep m ρ c main_arg12 (by decide)).trans <|
  (W58_keep m ρ c main_arg12 (by decide)).trans <|
  (W57_keep m ρ c main_arg12 (by decide)).trans <|
  (W56_keep m ρ c main_arg12 (by decide)).trans <|
  (W55_keep m ρ c main_arg12 (by decide)).trans <|
  (W54_keep m ρ c main_arg12 (by decide)).trans <|
  (W53_keep m ρ c main_arg12 (by decide)).trans <|
  (W52_keep m ρ c main_arg12 (by decide)).trans <|
  (W51_keep m ρ c main_arg12 (by decide)).trans <|
  (W50_keep m ρ c main_arg12 (by decide)).trans <|
  (W49_keep m ρ c main_arg12 (by decide)).trans <|
  (W48_keep m ρ c main_arg12 (by decide)).trans <|
  (W47_keep m ρ c main_arg12 (by decide)).trans <|
  (W46_keep m ρ c main_arg12 (by decide)).trans <|
  (W45_keep m ρ c main_arg12 (by decide)).trans <|
  (W44_keep m ρ c main_arg12 (by decide)).trans <|
  (W43_keep m ρ c main_arg12 (by decide)).trans <|
  (W42_keep m ρ c main_arg12 (by decide)).trans <|
  (W41_keep m ρ c main_arg12 (by decide)).trans <|
  (W40_keep m ρ c main_arg12 (by decide)).trans <|
  (W39_keep m ρ c main_arg12 (by decide)).trans <|
  (W38_keep m ρ c main_arg12 (by decide)).trans <|
  (W37_keep m ρ c main_arg12 (by decide)).trans <|
  (W36_keep m ρ c main_arg12 (by decide)).trans <|
  (W35_keep m ρ c main_arg12 (by decide)).trans <|
  (W34_keep m ρ c main_arg12 (by decide)).trans <|
  (W33_keep m ρ c main_arg12 (by decide)).trans <|
  (W32_keep m ρ c main_arg12 (by decide)).trans <|
  (W31_keep m ρ c main_arg12 (by decide)).trans <|
  (W30_keep m ρ c main_arg12 (by decide)).trans <|
  (W29_keep m ρ c main_arg12 (by decide)).trans <|
  (W28_keep m ρ c main_arg12 (by decide)).trans <|
  (W27_keep m ρ c main_arg12 (by decide)).trans <|
  (W26_keep m ρ c main_arg12 (by decide)).trans <|
  (W25_keep m ρ c main_arg12 (by decide)).trans <|
  (W24_keep m ρ c main_arg12 (by decide)).trans <|
  (W23_keep m ρ c main_arg12 (by decide)).trans <|
  (W22_keep m ρ c main_arg12 (by decide)).trans <|
  (W21_keep m ρ c main_arg12 (by decide)).trans <|
  (W20_keep m ρ c main_arg12 (by decide)).trans <|
  (W19_keep m ρ c main_arg12 (by decide)).trans <|
  (W18_keep m ρ c main_arg12 (by decide)).trans <|
  (W17_keep m ρ c main_arg12 (by decide)).trans <|
  (W16_keep m ρ c main_arg12 (by decide)).trans <|
  (W15_keep m ρ c main_arg12 (by decide)).trans <|
  (W14_keep m ρ c main_arg12 (by decide)).trans <|
  (W13_keep m ρ c main_arg12 (by decide)).trans <|
  (W12_keep m ρ c main_arg12 (by decide)).trans <|
  (W11_keep m ρ c main_arg12 (by decide)).trans <|
  (W10_keep m ρ c main_arg12 (by decide)).trans <|
  (W9_keep m ρ c main_arg12 (by decide)).trans <|
  (W8_keep m ρ c main_arg12 (by decide)).trans <|
  (W7_keep m ρ c main_arg12 (by decide)).trans <|
  (W6_keep m ρ c main_arg12 (by decide)).trans <|
  (W5_keep m ρ c main_arg12 (by decide)).trans <|
  (W4_keep m ρ c main_arg12 (by decide)).trans <|
  (W3_keep m ρ c main_arg12 (by decide)).trans <|
  (W2_keep m ρ c main_arg12 (by decide)).trans <|
  (W1_keep m ρ c main_arg12 (by decide)).trans rfl

/-- `main_arg13` reaches the end as launched. -/
theorem W109_main_arg13 (c : Dev nD) : W109 m ρ c (Proc.devRef .tc main_arg13) = m ((c : Thread nD τ).loc main_arg13) :=
  (W109_keep m ρ c main_arg13 (by decide)).trans <|
  (W108_keep m ρ c main_arg13 (by decide)).trans <|
  (W107_keep m ρ c main_arg13 (by decide)).trans <|
  (W106_keep m ρ c main_arg13 (by decide)).trans <|
  (W105_keep m ρ c main_arg13 (by decide)).trans <|
  (W104_keep m ρ c main_arg13 (by decide)).trans <|
  (W103_keep m ρ c main_arg13 (by decide)).trans <|
  (W102_keep m ρ c main_arg13 (by decide)).trans <|
  (W101_keep m ρ c main_arg13 (by decide)).trans <|
  (W100_keep m ρ c main_arg13 (by decide)).trans <|
  (W99_keep m ρ c main_arg13 (by decide)).trans <|
  (W98_keep m ρ c main_arg13 (by decide)).trans <|
  (W97_keep m ρ c main_arg13 (by decide)).trans <|
  (W96_keep m ρ c main_arg13 (by decide)).trans <|
  (W95_keep m ρ c main_arg13 (by decide)).trans <|
  (W94_keep m ρ c main_arg13 (by decide)).trans <|
  (W93_keep m ρ c main_arg13 (by decide)).trans <|
  (W92_keep m ρ c main_arg13 (by decide)).trans <|
  (W91_keep m ρ c main_arg13 (by decide)).trans <|
  (W90_keep m ρ c main_arg13 (by decide)).trans <|
  (W89_keep m ρ c main_arg13 (by decide)).trans <|
  (W88_keep m ρ c main_arg13 (by decide)).trans <|
  (W87_keep m ρ c main_arg13 (by decide)).trans <|
  (W86_keep m ρ c main_arg13 (by decide)).trans <|
  (W85_keep m ρ c main_arg13 (by decide)).trans <|
  (W84_keep m ρ c main_arg13 (by decide)).trans <|
  (W83_keep m ρ c main_arg13 (by decide)).trans <|
  (W82_keep m ρ c main_arg13 (by decide)).trans <|
  (W81_keep m ρ c main_arg13 (by decide)).trans <|
  (W80_keep m ρ c main_arg13 (by decide)).trans <|
  (W79_keep m ρ c main_arg13 (by decide)).trans <|
  (W78_keep m ρ c main_arg13 (by decide)).trans <|
  (W77_keep m ρ c main_arg13 (by decide)).trans <|
  (W76_keep m ρ c main_arg13 (by decide)).trans <|
  (W75_keep m ρ c main_arg13 (by decide)).trans <|
  (W74_keep m ρ c main_arg13 (by decide)).trans <|
  (W73_keep m ρ c main_arg13 (by decide)).trans <|
  (W72_keep m ρ c main_arg13 (by decide)).trans <|
  (W71_keep m ρ c main_arg13 (by decide)).trans <|
  (W70_keep m ρ c main_arg13 (by decide)).trans <|
  (W69_keep m ρ c main_arg13 (by decide)).trans <|
  (W68_keep m ρ c main_arg13 (by decide)).trans <|
  (W67_keep m ρ c main_arg13 (by decide)).trans <|
  (W66_keep m ρ c main_arg13 (by decide)).trans <|
  (W65_keep m ρ c main_arg13 (by decide)).trans <|
  (W64_keep m ρ c main_arg13 (by decide)).trans <|
  (W63_keep m ρ c main_arg13 (by decide)).trans <|
  (W62_keep m ρ c main_arg13 (by decide)).trans <|
  (W61_keep m ρ c main_arg13 (by decide)).trans <|
  (W60_keep m ρ c main_arg13 (by decide)).trans <|
  (W59_keep m ρ c main_arg13 (by decide)).trans <|
  (W58_keep m ρ c main_arg13 (by decide)).trans <|
  (W57_keep m ρ c main_arg13 (by decide)).trans <|
  (W56_keep m ρ c main_arg13 (by decide)).trans <|
  (W55_keep m ρ c main_arg13 (by decide)).trans <|
  (W54_keep m ρ c main_arg13 (by decide)).trans <|
  (W53_keep m ρ c main_arg13 (by decide)).trans <|
  (W52_keep m ρ c main_arg13 (by decide)).trans <|
  (W51_keep m ρ c main_arg13 (by decide)).trans <|
  (W50_keep m ρ c main_arg13 (by decide)).trans <|
  (W49_keep m ρ c main_arg13 (by decide)).trans <|
  (W48_keep m ρ c main_arg13 (by decide)).trans <|
  (W47_keep m ρ c main_arg13 (by decide)).trans <|
  (W46_keep m ρ c main_arg13 (by decide)).trans <|
  (W45_keep m ρ c main_arg13 (by decide)).trans <|
  (W44_keep m ρ c main_arg13 (by decide)).trans <|
  (W43_keep m ρ c main_arg13 (by decide)).trans <|
  (W42_keep m ρ c main_arg13 (by decide)).trans <|
  (W41_keep m ρ c main_arg13 (by decide)).trans <|
  (W40_keep m ρ c main_arg13 (by decide)).trans <|
  (W39_keep m ρ c main_arg13 (by decide)).trans <|
  (W38_keep m ρ c main_arg13 (by decide)).trans <|
  (W37_keep m ρ c main_arg13 (by decide)).trans <|
  (W36_keep m ρ c main_arg13 (by decide)).trans <|
  (W35_keep m ρ c main_arg13 (by decide)).trans <|
  (W34_keep m ρ c main_arg13 (by decide)).trans <|
  (W33_keep m ρ c main_arg13 (by decide)).trans <|
  (W32_keep m ρ c main_arg13 (by decide)).trans <|
  (W31_keep m ρ c main_arg13 (by decide)).trans <|
  (W30_keep m ρ c main_arg13 (by decide)).trans <|
  (W29_keep m ρ c main_arg13 (by decide)).trans <|
  (W28_keep m ρ c main_arg13 (by decide)).trans <|
  (W27_keep m ρ c main_arg13 (by decide)).trans <|
  (W26_keep m ρ c main_arg13 (by decide)).trans <|
  (W25_keep m ρ c main_arg13 (by decide)).trans <|
  (W24_keep m ρ c main_arg13 (by decide)).trans <|
  (W23_keep m ρ c main_arg13 (by decide)).trans <|
  (W22_keep m ρ c main_arg13 (by decide)).trans <|
  (W21_keep m ρ c main_arg13 (by decide)).trans <|
  (W20_keep m ρ c main_arg13 (by decide)).trans <|
  (W19_keep m ρ c main_arg13 (by decide)).trans <|
  (W18_keep m ρ c main_arg13 (by decide)).trans <|
  (W17_keep m ρ c main_arg13 (by decide)).trans <|
  (W16_keep m ρ c main_arg13 (by decide)).trans <|
  (W15_keep m ρ c main_arg13 (by decide)).trans <|
  (W14_keep m ρ c main_arg13 (by decide)).trans <|
  (W13_keep m ρ c main_arg13 (by decide)).trans <|
  (W12_keep m ρ c main_arg13 (by decide)).trans <|
  (W11_keep m ρ c main_arg13 (by decide)).trans <|
  (W10_keep m ρ c main_arg13 (by decide)).trans <|
  (W9_keep m ρ c main_arg13 (by decide)).trans <|
  (W8_keep m ρ c main_arg13 (by decide)).trans <|
  (W7_keep m ρ c main_arg13 (by decide)).trans <|
  (W6_keep m ρ c main_arg13 (by decide)).trans <|
  (W5_keep m ρ c main_arg13 (by decide)).trans <|
  (W4_keep m ρ c main_arg13 (by decide)).trans <|
  (W3_keep m ρ c main_arg13 (by decide)).trans <|
  (W2_keep m ρ c main_arg13 (by decide)).trans <|
  (W1_keep m ρ c main_arg13 (by decide)).trans rfl

/-- `main_arg14` reaches the end as launched. -/
theorem W109_main_arg14 (c : Dev nD) : W109 m ρ c (Proc.devRef .tc main_arg14) = m ((c : Thread nD τ).loc main_arg14) :=
  (W109_keep m ρ c main_arg14 (by decide)).trans <|
  (W108_keep m ρ c main_arg14 (by decide)).trans <|
  (W107_keep m ρ c main_arg14 (by decide)).trans <|
  (W106_keep m ρ c main_arg14 (by decide)).trans <|
  (W105_keep m ρ c main_arg14 (by decide)).trans <|
  (W104_keep m ρ c main_arg14 (by decide)).trans <|
  (W103_keep m ρ c main_arg14 (by decide)).trans <|
  (W102_keep m ρ c main_arg14 (by decide)).trans <|
  (W101_keep m ρ c main_arg14 (by decide)).trans <|
  (W100_keep m ρ c main_arg14 (by decide)).trans <|
  (W99_keep m ρ c main_arg14 (by decide)).trans <|
  (W98_keep m ρ c main_arg14 (by decide)).trans <|
  (W97_keep m ρ c main_arg14 (by decide)).trans <|
  (W96_keep m ρ c main_arg14 (by decide)).trans <|
  (W95_keep m ρ c main_arg14 (by decide)).trans <|
  (W94_keep m ρ c main_arg14 (by decide)).trans <|
  (W93_keep m ρ c main_arg14 (by decide)).trans <|
  (W92_keep m ρ c main_arg14 (by decide)).trans <|
  (W91_keep m ρ c main_arg14 (by decide)).trans <|
  (W90_keep m ρ c main_arg14 (by decide)).trans <|
  (W89_keep m ρ c main_arg14 (by decide)).trans <|
  (W88_keep m ρ c main_arg14 (by decide)).trans <|
  (W87_keep m ρ c main_arg14 (by decide)).trans <|
  (W86_keep m ρ c main_arg14 (by decide)).trans <|
  (W85_keep m ρ c main_arg14 (by decide)).trans <|
  (W84_keep m ρ c main_arg14 (by decide)).trans <|
  (W83_keep m ρ c main_arg14 (by decide)).trans <|
  (W82_keep m ρ c main_arg14 (by decide)).trans <|
  (W81_keep m ρ c main_arg14 (by decide)).trans <|
  (W80_keep m ρ c main_arg14 (by decide)).trans <|
  (W79_keep m ρ c main_arg14 (by decide)).trans <|
  (W78_keep m ρ c main_arg14 (by decide)).trans <|
  (W77_keep m ρ c main_arg14 (by decide)).trans <|
  (W76_keep m ρ c main_arg14 (by decide)).trans <|
  (W75_keep m ρ c main_arg14 (by decide)).trans <|
  (W74_keep m ρ c main_arg14 (by decide)).trans <|
  (W73_keep m ρ c main_arg14 (by decide)).trans <|
  (W72_keep m ρ c main_arg14 (by decide)).trans <|
  (W71_keep m ρ c main_arg14 (by decide)).trans <|
  (W70_keep m ρ c main_arg14 (by decide)).trans <|
  (W69_keep m ρ c main_arg14 (by decide)).trans <|
  (W68_keep m ρ c main_arg14 (by decide)).trans <|
  (W67_keep m ρ c main_arg14 (by decide)).trans <|
  (W66_keep m ρ c main_arg14 (by decide)).trans <|
  (W65_keep m ρ c main_arg14 (by decide)).trans <|
  (W64_keep m ρ c main_arg14 (by decide)).trans <|
  (W63_keep m ρ c main_arg14 (by decide)).trans <|
  (W62_keep m ρ c main_arg14 (by decide)).trans <|
  (W61_keep m ρ c main_arg14 (by decide)).trans <|
  (W60_keep m ρ c main_arg14 (by decide)).trans <|
  (W59_keep m ρ c main_arg14 (by decide)).trans <|
  (W58_keep m ρ c main_arg14 (by decide)).trans <|
  (W57_keep m ρ c main_arg14 (by decide)).trans <|
  (W56_keep m ρ c main_arg14 (by decide)).trans <|
  (W55_keep m ρ c main_arg14 (by decide)).trans <|
  (W54_keep m ρ c main_arg14 (by decide)).trans <|
  (W53_keep m ρ c main_arg14 (by decide)).trans <|
  (W52_keep m ρ c main_arg14 (by decide)).trans <|
  (W51_keep m ρ c main_arg14 (by decide)).trans <|
  (W50_keep m ρ c main_arg14 (by decide)).trans <|
  (W49_keep m ρ c main_arg14 (by decide)).trans <|
  (W48_keep m ρ c main_arg14 (by decide)).trans <|
  (W47_keep m ρ c main_arg14 (by decide)).trans <|
  (W46_keep m ρ c main_arg14 (by decide)).trans <|
  (W45_keep m ρ c main_arg14 (by decide)).trans <|
  (W44_keep m ρ c main_arg14 (by decide)).trans <|
  (W43_keep m ρ c main_arg14 (by decide)).trans <|
  (W42_keep m ρ c main_arg14 (by decide)).trans <|
  (W41_keep m ρ c main_arg14 (by decide)).trans <|
  (W40_keep m ρ c main_arg14 (by decide)).trans <|
  (W39_keep m ρ c main_arg14 (by decide)).trans <|
  (W38_keep m ρ c main_arg14 (by decide)).trans <|
  (W37_keep m ρ c main_arg14 (by decide)).trans <|
  (W36_keep m ρ c main_arg14 (by decide)).trans <|
  (W35_keep m ρ c main_arg14 (by decide)).trans <|
  (W34_keep m ρ c main_arg14 (by decide)).trans <|
  (W33_keep m ρ c main_arg14 (by decide)).trans <|
  (W32_keep m ρ c main_arg14 (by decide)).trans <|
  (W31_keep m ρ c main_arg14 (by decide)).trans <|
  (W30_keep m ρ c main_arg14 (by decide)).trans <|
  (W29_keep m ρ c main_arg14 (by decide)).trans <|
  (W28_keep m ρ c main_arg14 (by decide)).trans <|
  (W27_keep m ρ c main_arg14 (by decide)).trans <|
  (W26_keep m ρ c main_arg14 (by decide)).trans <|
  (W25_keep m ρ c main_arg14 (by decide)).trans <|
  (W24_keep m ρ c main_arg14 (by decide)).trans <|
  (W23_keep m ρ c main_arg14 (by decide)).trans <|
  (W22_keep m ρ c main_arg14 (by decide)).trans <|
  (W21_keep m ρ c main_arg14 (by decide)).trans <|
  (W20_keep m ρ c main_arg14 (by decide)).trans <|
  (W19_keep m ρ c main_arg14 (by decide)).trans <|
  (W18_keep m ρ c main_arg14 (by decide)).trans <|
  (W17_keep m ρ c main_arg14 (by decide)).trans <|
  (W16_keep m ρ c main_arg14 (by decide)).trans <|
  (W15_keep m ρ c main_arg14 (by decide)).trans <|
  (W14_keep m ρ c main_arg14 (by decide)).trans <|
  (W13_keep m ρ c main_arg14 (by decide)).trans <|
  (W12_keep m ρ c main_arg14 (by decide)).trans <|
  (W11_keep m ρ c main_arg14 (by decide)).trans <|
  (W10_keep m ρ c main_arg14 (by decide)).trans <|
  (W9_keep m ρ c main_arg14 (by decide)).trans <|
  (W8_keep m ρ c main_arg14 (by decide)).trans <|
  (W7_keep m ρ c main_arg14 (by decide)).trans <|
  (W6_keep m ρ c main_arg14 (by decide)).trans <|
  (W5_keep m ρ c main_arg14 (by decide)).trans <|
  (W4_keep m ρ c main_arg14 (by decide)).trans <|
  (W3_keep m ρ c main_arg14 (by decide)).trans <|
  (W2_keep m ρ c main_arg14 (by decide)).trans <|
  (W1_keep m ρ c main_arg14 (by decide)).trans rfl

/-- `main_arg15` reaches the end as launched. -/
theorem W109_main_arg15 (c : Dev nD) : W109 m ρ c (Proc.devRef .tc main_arg15) = m ((c : Thread nD τ).loc main_arg15) :=
  (W109_keep m ρ c main_arg15 (by decide)).trans <|
  (W108_keep m ρ c main_arg15 (by decide)).trans <|
  (W107_keep m ρ c main_arg15 (by decide)).trans <|
  (W106_keep m ρ c main_arg15 (by decide)).trans <|
  (W105_keep m ρ c main_arg15 (by decide)).trans <|
  (W104_keep m ρ c main_arg15 (by decide)).trans <|
  (W103_keep m ρ c main_arg15 (by decide)).trans <|
  (W102_keep m ρ c main_arg15 (by decide)).trans <|
  (W101_keep m ρ c main_arg15 (by decide)).trans <|
  (W100_keep m ρ c main_arg15 (by decide)).trans <|
  (W99_keep m ρ c main_arg15 (by decide)).trans <|
  (W98_keep m ρ c main_arg15 (by decide)).trans <|
  (W97_keep m ρ c main_arg15 (by decide)).trans <|
  (W96_keep m ρ c main_arg15 (by decide)).trans <|
  (W95_keep m ρ c main_arg15 (by decide)).trans <|
  (W94_keep m ρ c main_arg15 (by decide)).trans <|
  (W93_keep m ρ c main_arg15 (by decide)).trans <|
  (W92_keep m ρ c main_arg15 (by decide)).trans <|
  (W91_keep m ρ c main_arg15 (by decide)).trans <|
  (W90_keep m ρ c main_arg15 (by decide)).trans <|
  (W89_keep m ρ c main_arg15 (by decide)).trans <|
  (W88_keep m ρ c main_arg15 (by decide)).trans <|
  (W87_keep m ρ c main_arg15 (by decide)).trans <|
  (W86_keep m ρ c main_arg15 (by decide)).trans <|
  (W85_keep m ρ c main_arg15 (by decide)).trans <|
  (W84_keep m ρ c main_arg15 (by decide)).trans <|
  (W83_keep m ρ c main_arg15 (by decide)).trans <|
  (W82_keep m ρ c main_arg15 (by decide)).trans <|
  (W81_keep m ρ c main_arg15 (by decide)).trans <|
  (W80_keep m ρ c main_arg15 (by decide)).trans <|
  (W79_keep m ρ c main_arg15 (by decide)).trans <|
  (W78_keep m ρ c main_arg15 (by decide)).trans <|
  (W77_keep m ρ c main_arg15 (by decide)).trans <|
  (W76_keep m ρ c main_arg15 (by decide)).trans <|
  (W75_keep m ρ c main_arg15 (by decide)).trans <|
  (W74_keep m ρ c main_arg15 (by decide)).trans <|
  (W73_keep m ρ c main_arg15 (by decide)).trans <|
  (W72_keep m ρ c main_arg15 (by decide)).trans <|
  (W71_keep m ρ c main_arg15 (by decide)).trans <|
  (W70_keep m ρ c main_arg15 (by decide)).trans <|
  (W69_keep m ρ c main_arg15 (by decide)).trans <|
  (W68_keep m ρ c main_arg15 (by decide)).trans <|
  (W67_keep m ρ c main_arg15 (by decide)).trans <|
  (W66_keep m ρ c main_arg15 (by decide)).trans <|
  (W65_keep m ρ c main_arg15 (by decide)).trans <|
  (W64_keep m ρ c main_arg15 (by decide)).trans <|
  (W63_keep m ρ c main_arg15 (by decide)).trans <|
  (W62_keep m ρ c main_arg15 (by decide)).trans <|
  (W61_keep m ρ c main_arg15 (by decide)).trans <|
  (W60_keep m ρ c main_arg15 (by decide)).trans <|
  (W59_keep m ρ c main_arg15 (by decide)).trans <|
  (W58_keep m ρ c main_arg15 (by decide)).trans <|
  (W57_keep m ρ c main_arg15 (by decide)).trans <|
  (W56_keep m ρ c main_arg15 (by decide)).trans <|
  (W55_keep m ρ c main_arg15 (by decide)).trans <|
  (W54_keep m ρ c main_arg15 (by decide)).trans <|
  (W53_keep m ρ c main_arg15 (by decide)).trans <|
  (W52_keep m ρ c main_arg15 (by decide)).trans <|
  (W51_keep m ρ c main_arg15 (by decide)).trans <|
  (W50_keep m ρ c main_arg15 (by decide)).trans <|
  (W49_keep m ρ c main_arg15 (by decide)).trans <|
  (W48_keep m ρ c main_arg15 (by decide)).trans <|
  (W47_keep m ρ c main_arg15 (by decide)).trans <|
  (W46_keep m ρ c main_arg15 (by decide)).trans <|
  (W45_keep m ρ c main_arg15 (by decide)).trans <|
  (W44_keep m ρ c main_arg15 (by decide)).trans <|
  (W43_keep m ρ c main_arg15 (by decide)).trans <|
  (W42_keep m ρ c main_arg15 (by decide)).trans <|
  (W41_keep m ρ c main_arg15 (by decide)).trans <|
  (W40_keep m ρ c main_arg15 (by decide)).trans <|
  (W39_keep m ρ c main_arg15 (by decide)).trans <|
  (W38_keep m ρ c main_arg15 (by decide)).trans <|
  (W37_keep m ρ c main_arg15 (by decide)).trans <|
  (W36_keep m ρ c main_arg15 (by decide)).trans <|
  (W35_keep m ρ c main_arg15 (by decide)).trans <|
  (W34_keep m ρ c main_arg15 (by decide)).trans <|
  (W33_keep m ρ c main_arg15 (by decide)).trans <|
  (W32_keep m ρ c main_arg15 (by decide)).trans <|
  (W31_keep m ρ c main_arg15 (by decide)).trans <|
  (W30_keep m ρ c main_arg15 (by decide)).trans <|
  (W29_keep m ρ c main_arg15 (by decide)).trans <|
  (W28_keep m ρ c main_arg15 (by decide)).trans <|
  (W27_keep m ρ c main_arg15 (by decide)).trans <|
  (W26_keep m ρ c main_arg15 (by decide)).trans <|
  (W25_keep m ρ c main_arg15 (by decide)).trans <|
  (W24_keep m ρ c main_arg15 (by decide)).trans <|
  (W23_keep m ρ c main_arg15 (by decide)).trans <|
  (W22_keep m ρ c main_arg15 (by decide)).trans <|
  (W21_keep m ρ c main_arg15 (by decide)).trans <|
  (W20_keep m ρ c main_arg15 (by decide)).trans <|
  (W19_keep m ρ c main_arg15 (by decide)).trans <|
  (W18_keep m ρ c main_arg15 (by decide)).trans <|
  (W17_keep m ρ c main_arg15 (by decide)).trans <|
  (W16_keep m ρ c main_arg15 (by decide)).trans <|
  (W15_keep m ρ c main_arg15 (by decide)).trans <|
  (W14_keep m ρ c main_arg15 (by decide)).trans <|
  (W13_keep m ρ c main_arg15 (by decide)).trans <|
  (W12_keep m ρ c main_arg15 (by decide)).trans <|
  (W11_keep m ρ c main_arg15 (by decide)).trans <|
  (W10_keep m ρ c main_arg15 (by decide)).trans <|
  (W9_keep m ρ c main_arg15 (by decide)).trans <|
  (W8_keep m ρ c main_arg15 (by decide)).trans <|
  (W7_keep m ρ c main_arg15 (by decide)).trans <|
  (W6_keep m ρ c main_arg15 (by decide)).trans <|
  (W5_keep m ρ c main_arg15 (by decide)).trans <|
  (W4_keep m ρ c main_arg15 (by decide)).trans <|
  (W3_keep m ρ c main_arg15 (by decide)).trans <|
  (W2_keep m ρ c main_arg15 (by decide)).trans <|
  (W1_keep m ρ c main_arg15 (by decide)).trans rfl

/-- `main_arg16` reaches the end as launched. -/
theorem W109_main_arg16 (c : Dev nD) : W109 m ρ c (Proc.devRef .tc main_arg16) = m ((c : Thread nD τ).loc main_arg16) :=
  (W109_keep m ρ c main_arg16 (by decide)).trans <|
  (W108_keep m ρ c main_arg16 (by decide)).trans <|
  (W107_keep m ρ c main_arg16 (by decide)).trans <|
  (W106_keep m ρ c main_arg16 (by decide)).trans <|
  (W105_keep m ρ c main_arg16 (by decide)).trans <|
  (W104_keep m ρ c main_arg16 (by decide)).trans <|
  (W103_keep m ρ c main_arg16 (by decide)).trans <|
  (W102_keep m ρ c main_arg16 (by decide)).trans <|
  (W101_keep m ρ c main_arg16 (by decide)).trans <|
  (W100_keep m ρ c main_arg16 (by decide)).trans <|
  (W99_keep m ρ c main_arg16 (by decide)).trans <|
  (W98_keep m ρ c main_arg16 (by decide)).trans <|
  (W97_keep m ρ c main_arg16 (by decide)).trans <|
  (W96_keep m ρ c main_arg16 (by decide)).trans <|
  (W95_keep m ρ c main_arg16 (by decide)).trans <|
  (W94_keep m ρ c main_arg16 (by decide)).trans <|
  (W93_keep m ρ c main_arg16 (by decide)).trans <|
  (W92_keep m ρ c main_arg16 (by decide)).trans <|
  (W91_keep m ρ c main_arg16 (by decide)).trans <|
  (W90_keep m ρ c main_arg16 (by decide)).trans <|
  (W89_keep m ρ c main_arg16 (by decide)).trans <|
  (W88_keep m ρ c main_arg16 (by decide)).trans <|
  (W87_keep m ρ c main_arg16 (by decide)).trans <|
  (W86_keep m ρ c main_arg16 (by decide)).trans <|
  (W85_keep m ρ c main_arg16 (by decide)).trans <|
  (W84_keep m ρ c main_arg16 (by decide)).trans <|
  (W83_keep m ρ c main_arg16 (by decide)).trans <|
  (W82_keep m ρ c main_arg16 (by decide)).trans <|
  (W81_keep m ρ c main_arg16 (by decide)).trans <|
  (W80_keep m ρ c main_arg16 (by decide)).trans <|
  (W79_keep m ρ c main_arg16 (by decide)).trans <|
  (W78_keep m ρ c main_arg16 (by decide)).trans <|
  (W77_keep m ρ c main_arg16 (by decide)).trans <|
  (W76_keep m ρ c main_arg16 (by decide)).trans <|
  (W75_keep m ρ c main_arg16 (by decide)).trans <|
  (W74_keep m ρ c main_arg16 (by decide)).trans <|
  (W73_keep m ρ c main_arg16 (by decide)).trans <|
  (W72_keep m ρ c main_arg16 (by decide)).trans <|
  (W71_keep m ρ c main_arg16 (by decide)).trans <|
  (W70_keep m ρ c main_arg16 (by decide)).trans <|
  (W69_keep m ρ c main_arg16 (by decide)).trans <|
  (W68_keep m ρ c main_arg16 (by decide)).trans <|
  (W67_keep m ρ c main_arg16 (by decide)).trans <|
  (W66_keep m ρ c main_arg16 (by decide)).trans <|
  (W65_keep m ρ c main_arg16 (by decide)).trans <|
  (W64_keep m ρ c main_arg16 (by decide)).trans <|
  (W63_keep m ρ c main_arg16 (by decide)).trans <|
  (W62_keep m ρ c main_arg16 (by decide)).trans <|
  (W61_keep m ρ c main_arg16 (by decide)).trans <|
  (W60_keep m ρ c main_arg16 (by decide)).trans <|
  (W59_keep m ρ c main_arg16 (by decide)).trans <|
  (W58_keep m ρ c main_arg16 (by decide)).trans <|
  (W57_keep m ρ c main_arg16 (by decide)).trans <|
  (W56_keep m ρ c main_arg16 (by decide)).trans <|
  (W55_keep m ρ c main_arg16 (by decide)).trans <|
  (W54_keep m ρ c main_arg16 (by decide)).trans <|
  (W53_keep m ρ c main_arg16 (by decide)).trans <|
  (W52_keep m ρ c main_arg16 (by decide)).trans <|
  (W51_keep m ρ c main_arg16 (by decide)).trans <|
  (W50_keep m ρ c main_arg16 (by decide)).trans <|
  (W49_keep m ρ c main_arg16 (by decide)).trans <|
  (W48_keep m ρ c main_arg16 (by decide)).trans <|
  (W47_keep m ρ c main_arg16 (by decide)).trans <|
  (W46_keep m ρ c main_arg16 (by decide)).trans <|
  (W45_keep m ρ c main_arg16 (by decide)).trans <|
  (W44_keep m ρ c main_arg16 (by decide)).trans <|
  (W43_keep m ρ c main_arg16 (by decide)).trans <|
  (W42_keep m ρ c main_arg16 (by decide)).trans <|
  (W41_keep m ρ c main_arg16 (by decide)).trans <|
  (W40_keep m ρ c main_arg16 (by decide)).trans <|
  (W39_keep m ρ c main_arg16 (by decide)).trans <|
  (W38_keep m ρ c main_arg16 (by decide)).trans <|
  (W37_keep m ρ c main_arg16 (by decide)).trans <|
  (W36_keep m ρ c main_arg16 (by decide)).trans <|
  (W35_keep m ρ c main_arg16 (by decide)).trans <|
  (W34_keep m ρ c main_arg16 (by decide)).trans <|
  (W33_keep m ρ c main_arg16 (by decide)).trans <|
  (W32_keep m ρ c main_arg16 (by decide)).trans <|
  (W31_keep m ρ c main_arg16 (by decide)).trans <|
  (W30_keep m ρ c main_arg16 (by decide)).trans <|
  (W29_keep m ρ c main_arg16 (by decide)).trans <|
  (W28_keep m ρ c main_arg16 (by decide)).trans <|
  (W27_keep m ρ c main_arg16 (by decide)).trans <|
  (W26_keep m ρ c main_arg16 (by decide)).trans <|
  (W25_keep m ρ c main_arg16 (by decide)).trans <|
  (W24_keep m ρ c main_arg16 (by decide)).trans <|
  (W23_keep m ρ c main_arg16 (by decide)).trans <|
  (W22_keep m ρ c main_arg16 (by decide)).trans <|
  (W21_keep m ρ c main_arg16 (by decide)).trans <|
  (W20_keep m ρ c main_arg16 (by decide)).trans <|
  (W19_keep m ρ c main_arg16 (by decide)).trans <|
  (W18_keep m ρ c main_arg16 (by decide)).trans <|
  (W17_keep m ρ c main_arg16 (by decide)).trans <|
  (W16_keep m ρ c main_arg16 (by decide)).trans <|
  (W15_keep m ρ c main_arg16 (by decide)).trans <|
  (W14_keep m ρ c main_arg16 (by decide)).trans <|
  (W13_keep m ρ c main_arg16 (by decide)).trans <|
  (W12_keep m ρ c main_arg16 (by decide)).trans <|
  (W11_keep m ρ c main_arg16 (by decide)).trans <|
  (W10_keep m ρ c main_arg16 (by decide)).trans <|
  (W9_keep m ρ c main_arg16 (by decide)).trans <|
  (W8_keep m ρ c main_arg16 (by decide)).trans <|
  (W7_keep m ρ c main_arg16 (by decide)).trans <|
  (W6_keep m ρ c main_arg16 (by decide)).trans <|
  (W5_keep m ρ c main_arg16 (by decide)).trans <|
  (W4_keep m ρ c main_arg16 (by decide)).trans <|
  (W3_keep m ρ c main_arg16 (by decide)).trans <|
  (W2_keep m ρ c main_arg16 (by decide)).trans <|
  (W1_keep m ρ c main_arg16 (by decide)).trans rfl

/-- `main_arg17` reaches the end as launched. -/
theorem W109_main_arg17 (c : Dev nD) : W109 m ρ c (Proc.devRef .tc main_arg17) = m ((c : Thread nD τ).loc main_arg17) :=
  (W109_keep m ρ c main_arg17 (by decide)).trans <|
  (W108_keep m ρ c main_arg17 (by decide)).trans <|
  (W107_keep m ρ c main_arg17 (by decide)).trans <|
  (W106_keep m ρ c main_arg17 (by decide)).trans <|
  (W105_keep m ρ c main_arg17 (by decide)).trans <|
  (W104_keep m ρ c main_arg17 (by decide)).trans <|
  (W103_keep m ρ c main_arg17 (by decide)).trans <|
  (W102_keep m ρ c main_arg17 (by decide)).trans <|
  (W101_keep m ρ c main_arg17 (by decide)).trans <|
  (W100_keep m ρ c main_arg17 (by decide)).trans <|
  (W99_keep m ρ c main_arg17 (by decide)).trans <|
  (W98_keep m ρ c main_arg17 (by decide)).trans <|
  (W97_keep m ρ c main_arg17 (by decide)).trans <|
  (W96_keep m ρ c main_arg17 (by decide)).trans <|
  (W95_keep m ρ c main_arg17 (by decide)).trans <|
  (W94_keep m ρ c main_arg17 (by decide)).trans <|
  (W93_keep m ρ c main_arg17 (by decide)).trans <|
  (W92_keep m ρ c main_arg17 (by decide)).trans <|
  (W91_keep m ρ c main_arg17 (by decide)).trans <|
  (W90_keep m ρ c main_arg17 (by decide)).trans <|
  (W89_keep m ρ c main_arg17 (by decide)).trans <|
  (W88_keep m ρ c main_arg17 (by decide)).trans <|
  (W87_keep m ρ c main_arg17 (by decide)).trans <|
  (W86_keep m ρ c main_arg17 (by decide)).trans <|
  (W85_keep m ρ c main_arg17 (by decide)).trans <|
  (W84_keep m ρ c main_arg17 (by decide)).trans <|
  (W83_keep m ρ c main_arg17 (by decide)).trans <|
  (W82_keep m ρ c main_arg17 (by decide)).trans <|
  (W81_keep m ρ c main_arg17 (by decide)).trans <|
  (W80_keep m ρ c main_arg17 (by decide)).trans <|
  (W79_keep m ρ c main_arg17 (by decide)).trans <|
  (W78_keep m ρ c main_arg17 (by decide)).trans <|
  (W77_keep m ρ c main_arg17 (by decide)).trans <|
  (W76_keep m ρ c main_arg17 (by decide)).trans <|
  (W75_keep m ρ c main_arg17 (by decide)).trans <|
  (W74_keep m ρ c main_arg17 (by decide)).trans <|
  (W73_keep m ρ c main_arg17 (by decide)).trans <|
  (W72_keep m ρ c main_arg17 (by decide)).trans <|
  (W71_keep m ρ c main_arg17 (by decide)).trans <|
  (W70_keep m ρ c main_arg17 (by decide)).trans <|
  (W69_keep m ρ c main_arg17 (by decide)).trans <|
  (W68_keep m ρ c main_arg17 (by decide)).trans <|
  (W67_keep m ρ c main_arg17 (by decide)).trans <|
  (W66_keep m ρ c main_arg17 (by decide)).trans <|
  (W65_keep m ρ c main_arg17 (by decide)).trans <|
  (W64_keep m ρ c main_arg17 (by decide)).trans <|
  (W63_keep m ρ c main_arg17 (by decide)).trans <|
  (W62_keep m ρ c main_arg17 (by decide)).trans <|
  (W61_keep m ρ c main_arg17 (by decide)).trans <|
  (W60_keep m ρ c main_arg17 (by decide)).trans <|
  (W59_keep m ρ c main_arg17 (by decide)).trans <|
  (W58_keep m ρ c main_arg17 (by decide)).trans <|
  (W57_keep m ρ c main_arg17 (by decide)).trans <|
  (W56_keep m ρ c main_arg17 (by decide)).trans <|
  (W55_keep m ρ c main_arg17 (by decide)).trans <|
  (W54_keep m ρ c main_arg17 (by decide)).trans <|
  (W53_keep m ρ c main_arg17 (by decide)).trans <|
  (W52_keep m ρ c main_arg17 (by decide)).trans <|
  (W51_keep m ρ c main_arg17 (by decide)).trans <|
  (W50_keep m ρ c main_arg17 (by decide)).trans <|
  (W49_keep m ρ c main_arg17 (by decide)).trans <|
  (W48_keep m ρ c main_arg17 (by decide)).trans <|
  (W47_keep m ρ c main_arg17 (by decide)).trans <|
  (W46_keep m ρ c main_arg17 (by decide)).trans <|
  (W45_keep m ρ c main_arg17 (by decide)).trans <|
  (W44_keep m ρ c main_arg17 (by decide)).trans <|
  (W43_keep m ρ c main_arg17 (by decide)).trans <|
  (W42_keep m ρ c main_arg17 (by decide)).trans <|
  (W41_keep m ρ c main_arg17 (by decide)).trans <|
  (W40_keep m ρ c main_arg17 (by decide)).trans <|
  (W39_keep m ρ c main_arg17 (by decide)).trans <|
  (W38_keep m ρ c main_arg17 (by decide)).trans <|
  (W37_keep m ρ c main_arg17 (by decide)).trans <|
  (W36_keep m ρ c main_arg17 (by decide)).trans <|
  (W35_keep m ρ c main_arg17 (by decide)).trans <|
  (W34_keep m ρ c main_arg17 (by decide)).trans <|
  (W33_keep m ρ c main_arg17 (by decide)).trans <|
  (W32_keep m ρ c main_arg17 (by decide)).trans <|
  (W31_keep m ρ c main_arg17 (by decide)).trans <|
  (W30_keep m ρ c main_arg17 (by decide)).trans <|
  (W29_keep m ρ c main_arg17 (by decide)).trans <|
  (W28_keep m ρ c main_arg17 (by decide)).trans <|
  (W27_keep m ρ c main_arg17 (by decide)).trans <|
  (W26_keep m ρ c main_arg17 (by decide)).trans <|
  (W25_keep m ρ c main_arg17 (by decide)).trans <|
  (W24_keep m ρ c main_arg17 (by decide)).trans <|
  (W23_keep m ρ c main_arg17 (by decide)).trans <|
  (W22_keep m ρ c main_arg17 (by decide)).trans <|
  (W21_keep m ρ c main_arg17 (by decide)).trans <|
  (W20_keep m ρ c main_arg17 (by decide)).trans <|
  (W19_keep m ρ c main_arg17 (by decide)).trans <|
  (W18_keep m ρ c main_arg17 (by decide)).trans <|
  (W17_keep m ρ c main_arg17 (by decide)).trans <|
  (W16_keep m ρ c main_arg17 (by decide)).trans <|
  (W15_keep m ρ c main_arg17 (by decide)).trans <|
  (W14_keep m ρ c main_arg17 (by decide)).trans <|
  (W13_keep m ρ c main_arg17 (by decide)).trans <|
  (W12_keep m ρ c main_arg17 (by decide)).trans <|
  (W11_keep m ρ c main_arg17 (by decide)).trans <|
  (W10_keep m ρ c main_arg17 (by decide)).trans <|
  (W9_keep m ρ c main_arg17 (by decide)).trans <|
  (W8_keep m ρ c main_arg17 (by decide)).trans <|
  (W7_keep m ρ c main_arg17 (by decide)).trans <|
  (W6_keep m ρ c main_arg17 (by decide)).trans <|
  (W5_keep m ρ c main_arg17 (by decide)).trans <|
  (W4_keep m ρ c main_arg17 (by decide)).trans <|
  (W3_keep m ρ c main_arg17 (by decide)).trans <|
  (W2_keep m ρ c main_arg17 (by decide)).trans <|
  (W1_keep m ρ c main_arg17 (by decide)).trans rfl

/-- `main_arg18` reaches the end as launched. -/
theorem W109_main_arg18 (c : Dev nD) : W109 m ρ c (Proc.devRef .tc main_arg18) = m ((c : Thread nD τ).loc main_arg18) :=
  (W109_keep m ρ c main_arg18 (by decide)).trans <|
  (W108_keep m ρ c main_arg18 (by decide)).trans <|
  (W107_keep m ρ c main_arg18 (by decide)).trans <|
  (W106_keep m ρ c main_arg18 (by decide)).trans <|
  (W105_keep m ρ c main_arg18 (by decide)).trans <|
  (W104_keep m ρ c main_arg18 (by decide)).trans <|
  (W103_keep m ρ c main_arg18 (by decide)).trans <|
  (W102_keep m ρ c main_arg18 (by decide)).trans <|
  (W101_keep m ρ c main_arg18 (by decide)).trans <|
  (W100_keep m ρ c main_arg18 (by decide)).trans <|
  (W99_keep m ρ c main_arg18 (by decide)).trans <|
  (W98_keep m ρ c main_arg18 (by decide)).trans <|
  (W97_keep m ρ c main_arg18 (by decide)).trans <|
  (W96_keep m ρ c main_arg18 (by decide)).trans <|
  (W95_keep m ρ c main_arg18 (by decide)).trans <|
  (W94_keep m ρ c main_arg18 (by decide)).trans <|
  (W93_keep m ρ c main_arg18 (by decide)).trans <|
  (W92_keep m ρ c main_arg18 (by decide)).trans <|
  (W91_keep m ρ c main_arg18 (by decide)).trans <|
  (W90_keep m ρ c main_arg18 (by decide)).trans <|
  (W89_keep m ρ c main_arg18 (by decide)).trans <|
  (W88_keep m ρ c main_arg18 (by decide)).trans <|
  (W87_keep m ρ c main_arg18 (by decide)).trans <|
  (W86_keep m ρ c main_arg18 (by decide)).trans <|
  (W85_keep m ρ c main_arg18 (by decide)).trans <|
  (W84_keep m ρ c main_arg18 (by decide)).trans <|
  (W83_keep m ρ c main_arg18 (by decide)).trans <|
  (W82_keep m ρ c main_arg18 (by decide)).trans <|
  (W81_keep m ρ c main_arg18 (by decide)).trans <|
  (W80_keep m ρ c main_arg18 (by decide)).trans <|
  (W79_keep m ρ c main_arg18 (by decide)).trans <|
  (W78_keep m ρ c main_arg18 (by decide)).trans <|
  (W77_keep m ρ c main_arg18 (by decide)).trans <|
  (W76_keep m ρ c main_arg18 (by decide)).trans <|
  (W75_keep m ρ c main_arg18 (by decide)).trans <|
  (W74_keep m ρ c main_arg18 (by decide)).trans <|
  (W73_keep m ρ c main_arg18 (by decide)).trans <|
  (W72_keep m ρ c main_arg18 (by decide)).trans <|
  (W71_keep m ρ c main_arg18 (by decide)).trans <|
  (W70_keep m ρ c main_arg18 (by decide)).trans <|
  (W69_keep m ρ c main_arg18 (by decide)).trans <|
  (W68_keep m ρ c main_arg18 (by decide)).trans <|
  (W67_keep m ρ c main_arg18 (by decide)).trans <|
  (W66_keep m ρ c main_arg18 (by decide)).trans <|
  (W65_keep m ρ c main_arg18 (by decide)).trans <|
  (W64_keep m ρ c main_arg18 (by decide)).trans <|
  (W63_keep m ρ c main_arg18 (by decide)).trans <|
  (W62_keep m ρ c main_arg18 (by decide)).trans <|
  (W61_keep m ρ c main_arg18 (by decide)).trans <|
  (W60_keep m ρ c main_arg18 (by decide)).trans <|
  (W59_keep m ρ c main_arg18 (by decide)).trans <|
  (W58_keep m ρ c main_arg18 (by decide)).trans <|
  (W57_keep m ρ c main_arg18 (by decide)).trans <|
  (W56_keep m ρ c main_arg18 (by decide)).trans <|
  (W55_keep m ρ c main_arg18 (by decide)).trans <|
  (W54_keep m ρ c main_arg18 (by decide)).trans <|
  (W53_keep m ρ c main_arg18 (by decide)).trans <|
  (W52_keep m ρ c main_arg18 (by decide)).trans <|
  (W51_keep m ρ c main_arg18 (by decide)).trans <|
  (W50_keep m ρ c main_arg18 (by decide)).trans <|
  (W49_keep m ρ c main_arg18 (by decide)).trans <|
  (W48_keep m ρ c main_arg18 (by decide)).trans <|
  (W47_keep m ρ c main_arg18 (by decide)).trans <|
  (W46_keep m ρ c main_arg18 (by decide)).trans <|
  (W45_keep m ρ c main_arg18 (by decide)).trans <|
  (W44_keep m ρ c main_arg18 (by decide)).trans <|
  (W43_keep m ρ c main_arg18 (by decide)).trans <|
  (W42_keep m ρ c main_arg18 (by decide)).trans <|
  (W41_keep m ρ c main_arg18 (by decide)).trans <|
  (W40_keep m ρ c main_arg18 (by decide)).trans <|
  (W39_keep m ρ c main_arg18 (by decide)).trans <|
  (W38_keep m ρ c main_arg18 (by decide)).trans <|
  (W37_keep m ρ c main_arg18 (by decide)).trans <|
  (W36_keep m ρ c main_arg18 (by decide)).trans <|
  (W35_keep m ρ c main_arg18 (by decide)).trans <|
  (W34_keep m ρ c main_arg18 (by decide)).trans <|
  (W33_keep m ρ c main_arg18 (by decide)).trans <|
  (W32_keep m ρ c main_arg18 (by decide)).trans <|
  (W31_keep m ρ c main_arg18 (by decide)).trans <|
  (W30_keep m ρ c main_arg18 (by decide)).trans <|
  (W29_keep m ρ c main_arg18 (by decide)).trans <|
  (W28_keep m ρ c main_arg18 (by decide)).trans <|
  (W27_keep m ρ c main_arg18 (by decide)).trans <|
  (W26_keep m ρ c main_arg18 (by decide)).trans <|
  (W25_keep m ρ c main_arg18 (by decide)).trans <|
  (W24_keep m ρ c main_arg18 (by decide)).trans <|
  (W23_keep m ρ c main_arg18 (by decide)).trans <|
  (W22_keep m ρ c main_arg18 (by decide)).trans <|
  (W21_keep m ρ c main_arg18 (by decide)).trans <|
  (W20_keep m ρ c main_arg18 (by decide)).trans <|
  (W19_keep m ρ c main_arg18 (by decide)).trans <|
  (W18_keep m ρ c main_arg18 (by decide)).trans <|
  (W17_keep m ρ c main_arg18 (by decide)).trans <|
  (W16_keep m ρ c main_arg18 (by decide)).trans <|
  (W15_keep m ρ c main_arg18 (by decide)).trans <|
  (W14_keep m ρ c main_arg18 (by decide)).trans <|
  (W13_keep m ρ c main_arg18 (by decide)).trans <|
  (W12_keep m ρ c main_arg18 (by decide)).trans <|
  (W11_keep m ρ c main_arg18 (by decide)).trans <|
  (W10_keep m ρ c main_arg18 (by decide)).trans <|
  (W9_keep m ρ c main_arg18 (by decide)).trans <|
  (W8_keep m ρ c main_arg18 (by decide)).trans <|
  (W7_keep m ρ c main_arg18 (by decide)).trans <|
  (W6_keep m ρ c main_arg18 (by decide)).trans <|
  (W5_keep m ρ c main_arg18 (by decide)).trans <|
  (W4_keep m ρ c main_arg18 (by decide)).trans <|
  (W3_keep m ρ c main_arg18 (by decide)).trans <|
  (W2_keep m ρ c main_arg18 (by decide)).trans <|
  (W1_keep m ρ c main_arg18 (by decide)).trans rfl

/-- `main_arg19` reaches the end as launched. -/
theorem W109_main_arg19 (c : Dev nD) : W109 m ρ c (Proc.devRef .tc main_arg19) = m ((c : Thread nD τ).loc main_arg19) :=
  (W109_keep m ρ c main_arg19 (by decide)).trans <|
  (W108_keep m ρ c main_arg19 (by decide)).trans <|
  (W107_keep m ρ c main_arg19 (by decide)).trans <|
  (W106_keep m ρ c main_arg19 (by decide)).trans <|
  (W105_keep m ρ c main_arg19 (by decide)).trans <|
  (W104_keep m ρ c main_arg19 (by decide)).trans <|
  (W103_keep m ρ c main_arg19 (by decide)).trans <|
  (W102_keep m ρ c main_arg19 (by decide)).trans <|
  (W101_keep m ρ c main_arg19 (by decide)).trans <|
  (W100_keep m ρ c main_arg19 (by decide)).trans <|
  (W99_keep m ρ c main_arg19 (by decide)).trans <|
  (W98_keep m ρ c main_arg19 (by decide)).trans <|
  (W97_keep m ρ c main_arg19 (by decide)).trans <|
  (W96_keep m ρ c main_arg19 (by decide)).trans <|
  (W95_keep m ρ c main_arg19 (by decide)).trans <|
  (W94_keep m ρ c main_arg19 (by decide)).trans <|
  (W93_keep m ρ c main_arg19 (by decide)).trans <|
  (W92_keep m ρ c main_arg19 (by decide)).trans <|
  (W91_keep m ρ c main_arg19 (by decide)).trans <|
  (W90_keep m ρ c main_arg19 (by decide)).trans <|
  (W89_keep m ρ c main_arg19 (by decide)).trans <|
  (W88_keep m ρ c main_arg19 (by decide)).trans <|
  (W87_keep m ρ c main_arg19 (by decide)).trans <|
  (W86_keep m ρ c main_arg19 (by decide)).trans <|
  (W85_keep m ρ c main_arg19 (by decide)).trans <|
  (W84_keep m ρ c main_arg19 (by decide)).trans <|
  (W83_keep m ρ c main_arg19 (by decide)).trans <|
  (W82_keep m ρ c main_arg19 (by decide)).trans <|
  (W81_keep m ρ c main_arg19 (by decide)).trans <|
  (W80_keep m ρ c main_arg19 (by decide)).trans <|
  (W79_keep m ρ c main_arg19 (by decide)).trans <|
  (W78_keep m ρ c main_arg19 (by decide)).trans <|
  (W77_keep m ρ c main_arg19 (by decide)).trans <|
  (W76_keep m ρ c main_arg19 (by decide)).trans <|
  (W75_keep m ρ c main_arg19 (by decide)).trans <|
  (W74_keep m ρ c main_arg19 (by decide)).trans <|
  (W73_keep m ρ c main_arg19 (by decide)).trans <|
  (W72_keep m ρ c main_arg19 (by decide)).trans <|
  (W71_keep m ρ c main_arg19 (by decide)).trans <|
  (W70_keep m ρ c main_arg19 (by decide)).trans <|
  (W69_keep m ρ c main_arg19 (by decide)).trans <|
  (W68_keep m ρ c main_arg19 (by decide)).trans <|
  (W67_keep m ρ c main_arg19 (by decide)).trans <|
  (W66_keep m ρ c main_arg19 (by decide)).trans <|
  (W65_keep m ρ c main_arg19 (by decide)).trans <|
  (W64_keep m ρ c main_arg19 (by decide)).trans <|
  (W63_keep m ρ c main_arg19 (by decide)).trans <|
  (W62_keep m ρ c main_arg19 (by decide)).trans <|
  (W61_keep m ρ c main_arg19 (by decide)).trans <|
  (W60_keep m ρ c main_arg19 (by decide)).trans <|
  (W59_keep m ρ c main_arg19 (by decide)).trans <|
  (W58_keep m ρ c main_arg19 (by decide)).trans <|
  (W57_keep m ρ c main_arg19 (by decide)).trans <|
  (W56_keep m ρ c main_arg19 (by decide)).trans <|
  (W55_keep m ρ c main_arg19 (by decide)).trans <|
  (W54_keep m ρ c main_arg19 (by decide)).trans <|
  (W53_keep m ρ c main_arg19 (by decide)).trans <|
  (W52_keep m ρ c main_arg19 (by decide)).trans <|
  (W51_keep m ρ c main_arg19 (by decide)).trans <|
  (W50_keep m ρ c main_arg19 (by decide)).trans <|
  (W49_keep m ρ c main_arg19 (by decide)).trans <|
  (W48_keep m ρ c main_arg19 (by decide)).trans <|
  (W47_keep m ρ c main_arg19 (by decide)).trans <|
  (W46_keep m ρ c main_arg19 (by decide)).trans <|
  (W45_keep m ρ c main_arg19 (by decide)).trans <|
  (W44_keep m ρ c main_arg19 (by decide)).trans <|
  (W43_keep m ρ c main_arg19 (by decide)).trans <|
  (W42_keep m ρ c main_arg19 (by decide)).trans <|
  (W41_keep m ρ c main_arg19 (by decide)).trans <|
  (W40_keep m ρ c main_arg19 (by decide)).trans <|
  (W39_keep m ρ c main_arg19 (by decide)).trans <|
  (W38_keep m ρ c main_arg19 (by decide)).trans <|
  (W37_keep m ρ c main_arg19 (by decide)).trans <|
  (W36_keep m ρ c main_arg19 (by decide)).trans <|
  (W35_keep m ρ c main_arg19 (by decide)).trans <|
  (W34_keep m ρ c main_arg19 (by decide)).trans <|
  (W33_keep m ρ c main_arg19 (by decide)).trans <|
  (W32_keep m ρ c main_arg19 (by decide)).trans <|
  (W31_keep m ρ c main_arg19 (by decide)).trans <|
  (W30_keep m ρ c main_arg19 (by decide)).trans <|
  (W29_keep m ρ c main_arg19 (by decide)).trans <|
  (W28_keep m ρ c main_arg19 (by decide)).trans <|
  (W27_keep m ρ c main_arg19 (by decide)).trans <|
  (W26_keep m ρ c main_arg19 (by decide)).trans <|
  (W25_keep m ρ c main_arg19 (by decide)).trans <|
  (W24_keep m ρ c main_arg19 (by decide)).trans <|
  (W23_keep m ρ c main_arg19 (by decide)).trans <|
  (W22_keep m ρ c main_arg19 (by decide)).trans <|
  (W21_keep m ρ c main_arg19 (by decide)).trans <|
  (W20_keep m ρ c main_arg19 (by decide)).trans <|
  (W19_keep m ρ c main_arg19 (by decide)).trans <|
  (W18_keep m ρ c main_arg19 (by decide)).trans <|
  (W17_keep m ρ c main_arg19 (by decide)).trans <|
  (W16_keep m ρ c main_arg19 (by decide)).trans <|
  (W15_keep m ρ c main_arg19 (by decide)).trans <|
  (W14_keep m ρ c main_arg19 (by decide)).trans <|
  (W13_keep m ρ c main_arg19 (by decide)).trans <|
  (W12_keep m ρ c main_arg19 (by decide)).trans <|
  (W11_keep m ρ c main_arg19 (by decide)).trans <|
  (W10_keep m ρ c main_arg19 (by decide)).trans <|
  (W9_keep m ρ c main_arg19 (by decide)).trans <|
  (W8_keep m ρ c main_arg19 (by decide)).trans <|
  (W7_keep m ρ c main_arg19 (by decide)).trans <|
  (W6_keep m ρ c main_arg19 (by decide)).trans <|
  (W5_keep m ρ c main_arg19 (by decide)).trans <|
  (W4_keep m ρ c main_arg19 (by decide)).trans <|
  (W3_keep m ρ c main_arg19 (by decide)).trans <|
  (W2_keep m ρ c main_arg19 (by decide)).trans <|
  (W1_keep m ρ c main_arg19 (by decide)).trans rfl

/-- `main_arg20` reaches the end as launched. -/
theorem W109_main_arg20 (c : Dev nD) : W109 m ρ c (Proc.devRef .tc main_arg20) = m ((c : Thread nD τ).loc main_arg20) :=
  (W109_keep m ρ c main_arg20 (by decide)).trans <|
  (W108_keep m ρ c main_arg20 (by decide)).trans <|
  (W107_keep m ρ c main_arg20 (by decide)).trans <|
  (W106_keep m ρ c main_arg20 (by decide)).trans <|
  (W105_keep m ρ c main_arg20 (by decide)).trans <|
  (W104_keep m ρ c main_arg20 (by decide)).trans <|
  (W103_keep m ρ c main_arg20 (by decide)).trans <|
  (W102_keep m ρ c main_arg20 (by decide)).trans <|
  (W101_keep m ρ c main_arg20 (by decide)).trans <|
  (W100_keep m ρ c main_arg20 (by decide)).trans <|
  (W99_keep m ρ c main_arg20 (by decide)).trans <|
  (W98_keep m ρ c main_arg20 (by decide)).trans <|
  (W97_keep m ρ c main_arg20 (by decide)).trans <|
  (W96_keep m ρ c main_arg20 (by decide)).trans <|
  (W95_keep m ρ c main_arg20 (by decide)).trans <|
  (W94_keep m ρ c main_arg20 (by decide)).trans <|
  (W93_keep m ρ c main_arg20 (by decide)).trans <|
  (W92_keep m ρ c main_arg20 (by decide)).trans <|
  (W91_keep m ρ c main_arg20 (by decide)).trans <|
  (W90_keep m ρ c main_arg20 (by decide)).trans <|
  (W89_keep m ρ c main_arg20 (by decide)).trans <|
  (W88_keep m ρ c main_arg20 (by decide)).trans <|
  (W87_keep m ρ c main_arg20 (by decide)).trans <|
  (W86_keep m ρ c main_arg20 (by decide)).trans <|
  (W85_keep m ρ c main_arg20 (by decide)).trans <|
  (W84_keep m ρ c main_arg20 (by decide)).trans <|
  (W83_keep m ρ c main_arg20 (by decide)).trans <|
  (W82_keep m ρ c main_arg20 (by decide)).trans <|
  (W81_keep m ρ c main_arg20 (by decide)).trans <|
  (W80_keep m ρ c main_arg20 (by decide)).trans <|
  (W79_keep m ρ c main_arg20 (by decide)).trans <|
  (W78_keep m ρ c main_arg20 (by decide)).trans <|
  (W77_keep m ρ c main_arg20 (by decide)).trans <|
  (W76_keep m ρ c main_arg20 (by decide)).trans <|
  (W75_keep m ρ c main_arg20 (by decide)).trans <|
  (W74_keep m ρ c main_arg20 (by decide)).trans <|
  (W73_keep m ρ c main_arg20 (by decide)).trans <|
  (W72_keep m ρ c main_arg20 (by decide)).trans <|
  (W71_keep m ρ c main_arg20 (by decide)).trans <|
  (W70_keep m ρ c main_arg20 (by decide)).trans <|
  (W69_keep m ρ c main_arg20 (by decide)).trans <|
  (W68_keep m ρ c main_arg20 (by decide)).trans <|
  (W67_keep m ρ c main_arg20 (by decide)).trans <|
  (W66_keep m ρ c main_arg20 (by decide)).trans <|
  (W65_keep m ρ c main_arg20 (by decide)).trans <|
  (W64_keep m ρ c main_arg20 (by decide)).trans <|
  (W63_keep m ρ c main_arg20 (by decide)).trans <|
  (W62_keep m ρ c main_arg20 (by decide)).trans <|
  (W61_keep m ρ c main_arg20 (by decide)).trans <|
  (W60_keep m ρ c main_arg20 (by decide)).trans <|
  (W59_keep m ρ c main_arg20 (by decide)).trans <|
  (W58_keep m ρ c main_arg20 (by decide)).trans <|
  (W57_keep m ρ c main_arg20 (by decide)).trans <|
  (W56_keep m ρ c main_arg20 (by decide)).trans <|
  (W55_keep m ρ c main_arg20 (by decide)).trans <|
  (W54_keep m ρ c main_arg20 (by decide)).trans <|
  (W53_keep m ρ c main_arg20 (by decide)).trans <|
  (W52_keep m ρ c main_arg20 (by decide)).trans <|
  (W51_keep m ρ c main_arg20 (by decide)).trans <|
  (W50_keep m ρ c main_arg20 (by decide)).trans <|
  (W49_keep m ρ c main_arg20 (by decide)).trans <|
  (W48_keep m ρ c main_arg20 (by decide)).trans <|
  (W47_keep m ρ c main_arg20 (by decide)).trans <|
  (W46_keep m ρ c main_arg20 (by decide)).trans <|
  (W45_keep m ρ c main_arg20 (by decide)).trans <|
  (W44_keep m ρ c main_arg20 (by decide)).trans <|
  (W43_keep m ρ c main_arg20 (by decide)).trans <|
  (W42_keep m ρ c main_arg20 (by decide)).trans <|
  (W41_keep m ρ c main_arg20 (by decide)).trans <|
  (W40_keep m ρ c main_arg20 (by decide)).trans <|
  (W39_keep m ρ c main_arg20 (by decide)).trans <|
  (W38_keep m ρ c main_arg20 (by decide)).trans <|
  (W37_keep m ρ c main_arg20 (by decide)).trans <|
  (W36_keep m ρ c main_arg20 (by decide)).trans <|
  (W35_keep m ρ c main_arg20 (by decide)).trans <|
  (W34_keep m ρ c main_arg20 (by decide)).trans <|
  (W33_keep m ρ c main_arg20 (by decide)).trans <|
  (W32_keep m ρ c main_arg20 (by decide)).trans <|
  (W31_keep m ρ c main_arg20 (by decide)).trans <|
  (W30_keep m ρ c main_arg20 (by decide)).trans <|
  (W29_keep m ρ c main_arg20 (by decide)).trans <|
  (W28_keep m ρ c main_arg20 (by decide)).trans <|
  (W27_keep m ρ c main_arg20 (by decide)).trans <|
  (W26_keep m ρ c main_arg20 (by decide)).trans <|
  (W25_keep m ρ c main_arg20 (by decide)).trans <|
  (W24_keep m ρ c main_arg20 (by decide)).trans <|
  (W23_keep m ρ c main_arg20 (by decide)).trans <|
  (W22_keep m ρ c main_arg20 (by decide)).trans <|
  (W21_keep m ρ c main_arg20 (by decide)).trans <|
  (W20_keep m ρ c main_arg20 (by decide)).trans <|
  (W19_keep m ρ c main_arg20 (by decide)).trans <|
  (W18_keep m ρ c main_arg20 (by decide)).trans <|
  (W17_keep m ρ c main_arg20 (by decide)).trans <|
  (W16_keep m ρ c main_arg20 (by decide)).trans <|
  (W15_keep m ρ c main_arg20 (by decide)).trans <|
  (W14_keep m ρ c main_arg20 (by decide)).trans <|
  (W13_keep m ρ c main_arg20 (by decide)).trans <|
  (W12_keep m ρ c main_arg20 (by decide)).trans <|
  (W11_keep m ρ c main_arg20 (by decide)).trans <|
  (W10_keep m ρ c main_arg20 (by decide)).trans <|
  (W9_keep m ρ c main_arg20 (by decide)).trans <|
  (W8_keep m ρ c main_arg20 (by decide)).trans <|
  (W7_keep m ρ c main_arg20 (by decide)).trans <|
  (W6_keep m ρ c main_arg20 (by decide)).trans <|
  (W5_keep m ρ c main_arg20 (by decide)).trans <|
  (W4_keep m ρ c main_arg20 (by decide)).trans <|
  (W3_keep m ρ c main_arg20 (by decide)).trans <|
  (W2_keep m ρ c main_arg20 (by decide)).trans <|
  (W1_keep m ρ c main_arg20 (by decide)).trans rfl

/-- `main_arg21` reaches the end as launched. -/
theorem W109_main_arg21 (c : Dev nD) : W109 m ρ c (Proc.devRef .tc main_arg21) = m ((c : Thread nD τ).loc main_arg21) :=
  (W109_keep m ρ c main_arg21 (by decide)).trans <|
  (W108_keep m ρ c main_arg21 (by decide)).trans <|
  (W107_keep m ρ c main_arg21 (by decide)).trans <|
  (W106_keep m ρ c main_arg21 (by decide)).trans <|
  (W105_keep m ρ c main_arg21 (by decide)).trans <|
  (W104_keep m ρ c main_arg21 (by decide)).trans <|
  (W103_keep m ρ c main_arg21 (by decide)).trans <|
  (W102_keep m ρ c main_arg21 (by decide)).trans <|
  (W101_keep m ρ c main_arg21 (by decide)).trans <|
  (W100_keep m ρ c main_arg21 (by decide)).trans <|
  (W99_keep m ρ c main_arg21 (by decide)).trans <|
  (W98_keep m ρ c main_arg21 (by decide)).trans <|
  (W97_keep m ρ c main_arg21 (by decide)).trans <|
  (W96_keep m ρ c main_arg21 (by decide)).trans <|
  (W95_keep m ρ c main_arg21 (by decide)).trans <|
  (W94_keep m ρ c main_arg21 (by decide)).trans <|
  (W93_keep m ρ c main_arg21 (by decide)).trans <|
  (W92_keep m ρ c main_arg21 (by decide)).trans <|
  (W91_keep m ρ c main_arg21 (by decide)).trans <|
  (W90_keep m ρ c main_arg21 (by decide)).trans <|
  (W89_keep m ρ c main_arg21 (by decide)).trans <|
  (W88_keep m ρ c main_arg21 (by decide)).trans <|
  (W87_keep m ρ c main_arg21 (by decide)).trans <|
  (W86_keep m ρ c main_arg21 (by decide)).trans <|
  (W85_keep m ρ c main_arg21 (by decide)).trans <|
  (W84_keep m ρ c main_arg21 (by decide)).trans <|
  (W83_keep m ρ c main_arg21 (by decide)).trans <|
  (W82_keep m ρ c main_arg21 (by decide)).trans <|
  (W81_keep m ρ c main_arg21 (by decide)).trans <|
  (W80_keep m ρ c main_arg21 (by decide)).trans <|
  (W79_keep m ρ c main_arg21 (by decide)).trans <|
  (W78_keep m ρ c main_arg21 (by decide)).trans <|
  (W77_keep m ρ c main_arg21 (by decide)).trans <|
  (W76_keep m ρ c main_arg21 (by decide)).trans <|
  (W75_keep m ρ c main_arg21 (by decide)).trans <|
  (W74_keep m ρ c main_arg21 (by decide)).trans <|
  (W73_keep m ρ c main_arg21 (by decide)).trans <|
  (W72_keep m ρ c main_arg21 (by decide)).trans <|
  (W71_keep m ρ c main_arg21 (by decide)).trans <|
  (W70_keep m ρ c main_arg21 (by decide)).trans <|
  (W69_keep m ρ c main_arg21 (by decide)).trans <|
  (W68_keep m ρ c main_arg21 (by decide)).trans <|
  (W67_keep m ρ c main_arg21 (by decide)).trans <|
  (W66_keep m ρ c main_arg21 (by decide)).trans <|
  (W65_keep m ρ c main_arg21 (by decide)).trans <|
  (W64_keep m ρ c main_arg21 (by decide)).trans <|
  (W63_keep m ρ c main_arg21 (by decide)).trans <|
  (W62_keep m ρ c main_arg21 (by decide)).trans <|
  (W61_keep m ρ c main_arg21 (by decide)).trans <|
  (W60_keep m ρ c main_arg21 (by decide)).trans <|
  (W59_keep m ρ c main_arg21 (by decide)).trans <|
  (W58_keep m ρ c main_arg21 (by decide)).trans <|
  (W57_keep m ρ c main_arg21 (by decide)).trans <|
  (W56_keep m ρ c main_arg21 (by decide)).trans <|
  (W55_keep m ρ c main_arg21 (by decide)).trans <|
  (W54_keep m ρ c main_arg21 (by decide)).trans <|
  (W53_keep m ρ c main_arg21 (by decide)).trans <|
  (W52_keep m ρ c main_arg21 (by decide)).trans <|
  (W51_keep m ρ c main_arg21 (by decide)).trans <|
  (W50_keep m ρ c main_arg21 (by decide)).trans <|
  (W49_keep m ρ c main_arg21 (by decide)).trans <|
  (W48_keep m ρ c main_arg21 (by decide)).trans <|
  (W47_keep m ρ c main_arg21 (by decide)).trans <|
  (W46_keep m ρ c main_arg21 (by decide)).trans <|
  (W45_keep m ρ c main_arg21 (by decide)).trans <|
  (W44_keep m ρ c main_arg21 (by decide)).trans <|
  (W43_keep m ρ c main_arg21 (by decide)).trans <|
  (W42_keep m ρ c main_arg21 (by decide)).trans <|
  (W41_keep m ρ c main_arg21 (by decide)).trans <|
  (W40_keep m ρ c main_arg21 (by decide)).trans <|
  (W39_keep m ρ c main_arg21 (by decide)).trans <|
  (W38_keep m ρ c main_arg21 (by decide)).trans <|
  (W37_keep m ρ c main_arg21 (by decide)).trans <|
  (W36_keep m ρ c main_arg21 (by decide)).trans <|
  (W35_keep m ρ c main_arg21 (by decide)).trans <|
  (W34_keep m ρ c main_arg21 (by decide)).trans <|
  (W33_keep m ρ c main_arg21 (by decide)).trans <|
  (W32_keep m ρ c main_arg21 (by decide)).trans <|
  (W31_keep m ρ c main_arg21 (by decide)).trans <|
  (W30_keep m ρ c main_arg21 (by decide)).trans <|
  (W29_keep m ρ c main_arg21 (by decide)).trans <|
  (W28_keep m ρ c main_arg21 (by decide)).trans <|
  (W27_keep m ρ c main_arg21 (by decide)).trans <|
  (W26_keep m ρ c main_arg21 (by decide)).trans <|
  (W25_keep m ρ c main_arg21 (by decide)).trans <|
  (W24_keep m ρ c main_arg21 (by decide)).trans <|
  (W23_keep m ρ c main_arg21 (by decide)).trans <|
  (W22_keep m ρ c main_arg21 (by decide)).trans <|
  (W21_keep m ρ c main_arg21 (by decide)).trans <|
  (W20_keep m ρ c main_arg21 (by decide)).trans <|
  (W19_keep m ρ c main_arg21 (by decide)).trans <|
  (W18_keep m ρ c main_arg21 (by decide)).trans <|
  (W17_keep m ρ c main_arg21 (by decide)).trans <|
  (W16_keep m ρ c main_arg21 (by decide)).trans <|
  (W15_keep m ρ c main_arg21 (by decide)).trans <|
  (W14_keep m ρ c main_arg21 (by decide)).trans <|
  (W13_keep m ρ c main_arg21 (by decide)).trans <|
  (W12_keep m ρ c main_arg21 (by decide)).trans <|
  (W11_keep m ρ c main_arg21 (by decide)).trans <|
  (W10_keep m ρ c main_arg21 (by decide)).trans <|
  (W9_keep m ρ c main_arg21 (by decide)).trans <|
  (W8_keep m ρ c main_arg21 (by decide)).trans <|
  (W7_keep m ρ c main_arg21 (by decide)).trans <|
  (W6_keep m ρ c main_arg21 (by decide)).trans <|
  (W5_keep m ρ c main_arg21 (by decide)).trans <|
  (W4_keep m ρ c main_arg21 (by decide)).trans <|
  (W3_keep m ρ c main_arg21 (by decide)).trans <|
  (W2_keep m ρ c main_arg21 (by decide)).trans <|
  (W1_keep m ρ c main_arg21 (by decide)).trans rfl

/-- `main_arg22` reaches the end as launched. -/
theorem W109_main_arg22 (c : Dev nD) : W109 m ρ c (Proc.devRef .tc main_arg22) = m ((c : Thread nD τ).loc main_arg22) :=
  (W109_keep m ρ c main_arg22 (by decide)).trans <|
  (W108_keep m ρ c main_arg22 (by decide)).trans <|
  (W107_keep m ρ c main_arg22 (by decide)).trans <|
  (W106_keep m ρ c main_arg22 (by decide)).trans <|
  (W105_keep m ρ c main_arg22 (by decide)).trans <|
  (W104_keep m ρ c main_arg22 (by decide)).trans <|
  (W103_keep m ρ c main_arg22 (by decide)).trans <|
  (W102_keep m ρ c main_arg22 (by decide)).trans <|
  (W101_keep m ρ c main_arg22 (by decide)).trans <|
  (W100_keep m ρ c main_arg22 (by decide)).trans <|
  (W99_keep m ρ c main_arg22 (by decide)).trans <|
  (W98_keep m ρ c main_arg22 (by decide)).trans <|
  (W97_keep m ρ c main_arg22 (by decide)).trans <|
  (W96_keep m ρ c main_arg22 (by decide)).trans <|
  (W95_keep m ρ c main_arg22 (by decide)).trans <|
  (W94_keep m ρ c main_arg22 (by decide)).trans <|
  (W93_keep m ρ c main_arg22 (by decide)).trans <|
  (W92_keep m ρ c main_arg22 (by decide)).trans <|
  (W91_keep m ρ c main_arg22 (by decide)).trans <|
  (W90_keep m ρ c main_arg22 (by decide)).trans <|
  (W89_keep m ρ c main_arg22 (by decide)).trans <|
  (W88_keep m ρ c main_arg22 (by decide)).trans <|
  (W87_keep m ρ c main_arg22 (by decide)).trans <|
  (W86_keep m ρ c main_arg22 (by decide)).trans <|
  (W85_keep m ρ c main_arg22 (by decide)).trans <|
  (W84_keep m ρ c main_arg22 (by decide)).trans <|
  (W83_keep m ρ c main_arg22 (by decide)).trans <|
  (W82_keep m ρ c main_arg22 (by decide)).trans <|
  (W81_keep m ρ c main_arg22 (by decide)).trans <|
  (W80_keep m ρ c main_arg22 (by decide)).trans <|
  (W79_keep m ρ c main_arg22 (by decide)).trans <|
  (W78_keep m ρ c main_arg22 (by decide)).trans <|
  (W77_keep m ρ c main_arg22 (by decide)).trans <|
  (W76_keep m ρ c main_arg22 (by decide)).trans <|
  (W75_keep m ρ c main_arg22 (by decide)).trans <|
  (W74_keep m ρ c main_arg22 (by decide)).trans <|
  (W73_keep m ρ c main_arg22 (by decide)).trans <|
  (W72_keep m ρ c main_arg22 (by decide)).trans <|
  (W71_keep m ρ c main_arg22 (by decide)).trans <|
  (W70_keep m ρ c main_arg22 (by decide)).trans <|
  (W69_keep m ρ c main_arg22 (by decide)).trans <|
  (W68_keep m ρ c main_arg22 (by decide)).trans <|
  (W67_keep m ρ c main_arg22 (by decide)).trans <|
  (W66_keep m ρ c main_arg22 (by decide)).trans <|
  (W65_keep m ρ c main_arg22 (by decide)).trans <|
  (W64_keep m ρ c main_arg22 (by decide)).trans <|
  (W63_keep m ρ c main_arg22 (by decide)).trans <|
  (W62_keep m ρ c main_arg22 (by decide)).trans <|
  (W61_keep m ρ c main_arg22 (by decide)).trans <|
  (W60_keep m ρ c main_arg22 (by decide)).trans <|
  (W59_keep m ρ c main_arg22 (by decide)).trans <|
  (W58_keep m ρ c main_arg22 (by decide)).trans <|
  (W57_keep m ρ c main_arg22 (by decide)).trans <|
  (W56_keep m ρ c main_arg22 (by decide)).trans <|
  (W55_keep m ρ c main_arg22 (by decide)).trans <|
  (W54_keep m ρ c main_arg22 (by decide)).trans <|
  (W53_keep m ρ c main_arg22 (by decide)).trans <|
  (W52_keep m ρ c main_arg22 (by decide)).trans <|
  (W51_keep m ρ c main_arg22 (by decide)).trans <|
  (W50_keep m ρ c main_arg22 (by decide)).trans <|
  (W49_keep m ρ c main_arg22 (by decide)).trans <|
  (W48_keep m ρ c main_arg22 (by decide)).trans <|
  (W47_keep m ρ c main_arg22 (by decide)).trans <|
  (W46_keep m ρ c main_arg22 (by decide)).trans <|
  (W45_keep m ρ c main_arg22 (by decide)).trans <|
  (W44_keep m ρ c main_arg22 (by decide)).trans <|
  (W43_keep m ρ c main_arg22 (by decide)).trans <|
  (W42_keep m ρ c main_arg22 (by decide)).trans <|
  (W41_keep m ρ c main_arg22 (by decide)).trans <|
  (W40_keep m ρ c main_arg22 (by decide)).trans <|
  (W39_keep m ρ c main_arg22 (by decide)).trans <|
  (W38_keep m ρ c main_arg22 (by decide)).trans <|
  (W37_keep m ρ c main_arg22 (by decide)).trans <|
  (W36_keep m ρ c main_arg22 (by decide)).trans <|
  (W35_keep m ρ c main_arg22 (by decide)).trans <|
  (W34_keep m ρ c main_arg22 (by decide)).trans <|
  (W33_keep m ρ c main_arg22 (by decide)).trans <|
  (W32_keep m ρ c main_arg22 (by decide)).trans <|
  (W31_keep m ρ c main_arg22 (by decide)).trans <|
  (W30_keep m ρ c main_arg22 (by decide)).trans <|
  (W29_keep m ρ c main_arg22 (by decide)).trans <|
  (W28_keep m ρ c main_arg22 (by decide)).trans <|
  (W27_keep m ρ c main_arg22 (by decide)).trans <|
  (W26_keep m ρ c main_arg22 (by decide)).trans <|
  (W25_keep m ρ c main_arg22 (by decide)).trans <|
  (W24_keep m ρ c main_arg22 (by decide)).trans <|
  (W23_keep m ρ c main_arg22 (by decide)).trans <|
  (W22_keep m ρ c main_arg22 (by decide)).trans <|
  (W21_keep m ρ c main_arg22 (by decide)).trans <|
  (W20_keep m ρ c main_arg22 (by decide)).trans <|
  (W19_keep m ρ c main_arg22 (by decide)).trans <|
  (W18_keep m ρ c main_arg22 (by decide)).trans <|
  (W17_keep m ρ c main_arg22 (by decide)).trans <|
  (W16_keep m ρ c main_arg22 (by decide)).trans <|
  (W15_keep m ρ c main_arg22 (by decide)).trans <|
  (W14_keep m ρ c main_arg22 (by decide)).trans <|
  (W13_keep m ρ c main_arg22 (by decide)).trans <|
  (W12_keep m ρ c main_arg22 (by decide)).trans <|
  (W11_keep m ρ c main_arg22 (by decide)).trans <|
  (W10_keep m ρ c main_arg22 (by decide)).trans <|
  (W9_keep m ρ c main_arg22 (by decide)).trans <|
  (W8_keep m ρ c main_arg22 (by decide)).trans <|
  (W7_keep m ρ c main_arg22 (by decide)).trans <|
  (W6_keep m ρ c main_arg22 (by decide)).trans <|
  (W5_keep m ρ c main_arg22 (by decide)).trans <|
  (W4_keep m ρ c main_arg22 (by decide)).trans <|
  (W3_keep m ρ c main_arg22 (by decide)).trans <|
  (W2_keep m ρ c main_arg22 (by decide)).trans <|
  (W1_keep m ρ c main_arg22 (by decide)).trans rfl

/-- `main_arg23` reaches the end as launched. -/
theorem W109_main_arg23 (c : Dev nD) : W109 m ρ c (Proc.devRef .tc main_arg23) = m ((c : Thread nD τ).loc main_arg23) :=
  (W109_keep m ρ c main_arg23 (by decide)).trans <|
  (W108_keep m ρ c main_arg23 (by decide)).trans <|
  (W107_keep m ρ c main_arg23 (by decide)).trans <|
  (W106_keep m ρ c main_arg23 (by decide)).trans <|
  (W105_keep m ρ c main_arg23 (by decide)).trans <|
  (W104_keep m ρ c main_arg23 (by decide)).trans <|
  (W103_keep m ρ c main_arg23 (by decide)).trans <|
  (W102_keep m ρ c main_arg23 (by decide)).trans <|
  (W101_keep m ρ c main_arg23 (by decide)).trans <|
  (W100_keep m ρ c main_arg23 (by decide)).trans <|
  (W99_keep m ρ c main_arg23 (by decide)).trans <|
  (W98_keep m ρ c main_arg23 (by decide)).trans <|
  (W97_keep m ρ c main_arg23 (by decide)).trans <|
  (W96_keep m ρ c main_arg23 (by decide)).trans <|
  (W95_keep m ρ c main_arg23 (by decide)).trans <|
  (W94_keep m ρ c main_arg23 (by decide)).trans <|
  (W93_keep m ρ c main_arg23 (by decide)).trans <|
  (W92_keep m ρ c main_arg23 (by decide)).trans <|
  (W91_keep m ρ c main_arg23 (by decide)).trans <|
  (W90_keep m ρ c main_arg23 (by decide)).trans <|
  (W89_keep m ρ c main_arg23 (by decide)).trans <|
  (W88_keep m ρ c main_arg23 (by decide)).trans <|
  (W87_keep m ρ c main_arg23 (by decide)).trans <|
  (W86_keep m ρ c main_arg23 (by decide)).trans <|
  (W85_keep m ρ c main_arg23 (by decide)).trans <|
  (W84_keep m ρ c main_arg23 (by decide)).trans <|
  (W83_keep m ρ c main_arg23 (by decide)).trans <|
  (W82_keep m ρ c main_arg23 (by decide)).trans <|
  (W81_keep m ρ c main_arg23 (by decide)).trans <|
  (W80_keep m ρ c main_arg23 (by decide)).trans <|
  (W79_keep m ρ c main_arg23 (by decide)).trans <|
  (W78_keep m ρ c main_arg23 (by decide)).trans <|
  (W77_keep m ρ c main_arg23 (by decide)).trans <|
  (W76_keep m ρ c main_arg23 (by decide)).trans <|
  (W75_keep m ρ c main_arg23 (by decide)).trans <|
  (W74_keep m ρ c main_arg23 (by decide)).trans <|
  (W73_keep m ρ c main_arg23 (by decide)).trans <|
  (W72_keep m ρ c main_arg23 (by decide)).trans <|
  (W71_keep m ρ c main_arg23 (by decide)).trans <|
  (W70_keep m ρ c main_arg23 (by decide)).trans <|
  (W69_keep m ρ c main_arg23 (by decide)).trans <|
  (W68_keep m ρ c main_arg23 (by decide)).trans <|
  (W67_keep m ρ c main_arg23 (by decide)).trans <|
  (W66_keep m ρ c main_arg23 (by decide)).trans <|
  (W65_keep m ρ c main_arg23 (by decide)).trans <|
  (W64_keep m ρ c main_arg23 (by decide)).trans <|
  (W63_keep m ρ c main_arg23 (by decide)).trans <|
  (W62_keep m ρ c main_arg23 (by decide)).trans <|
  (W61_keep m ρ c main_arg23 (by decide)).trans <|
  (W60_keep m ρ c main_arg23 (by decide)).trans <|
  (W59_keep m ρ c main_arg23 (by decide)).trans <|
  (W58_keep m ρ c main_arg23 (by decide)).trans <|
  (W57_keep m ρ c main_arg23 (by decide)).trans <|
  (W56_keep m ρ c main_arg23 (by decide)).trans <|
  (W55_keep m ρ c main_arg23 (by decide)).trans <|
  (W54_keep m ρ c main_arg23 (by decide)).trans <|
  (W53_keep m ρ c main_arg23 (by decide)).trans <|
  (W52_keep m ρ c main_arg23 (by decide)).trans <|
  (W51_keep m ρ c main_arg23 (by decide)).trans <|
  (W50_keep m ρ c main_arg23 (by decide)).trans <|
  (W49_keep m ρ c main_arg23 (by decide)).trans <|
  (W48_keep m ρ c main_arg23 (by decide)).trans <|
  (W47_keep m ρ c main_arg23 (by decide)).trans <|
  (W46_keep m ρ c main_arg23 (by decide)).trans <|
  (W45_keep m ρ c main_arg23 (by decide)).trans <|
  (W44_keep m ρ c main_arg23 (by decide)).trans <|
  (W43_keep m ρ c main_arg23 (by decide)).trans <|
  (W42_keep m ρ c main_arg23 (by decide)).trans <|
  (W41_keep m ρ c main_arg23 (by decide)).trans <|
  (W40_keep m ρ c main_arg23 (by decide)).trans <|
  (W39_keep m ρ c main_arg23 (by decide)).trans <|
  (W38_keep m ρ c main_arg23 (by decide)).trans <|
  (W37_keep m ρ c main_arg23 (by decide)).trans <|
  (W36_keep m ρ c main_arg23 (by decide)).trans <|
  (W35_keep m ρ c main_arg23 (by decide)).trans <|
  (W34_keep m ρ c main_arg23 (by decide)).trans <|
  (W33_keep m ρ c main_arg23 (by decide)).trans <|
  (W32_keep m ρ c main_arg23 (by decide)).trans <|
  (W31_keep m ρ c main_arg23 (by decide)).trans <|
  (W30_keep m ρ c main_arg23 (by decide)).trans <|
  (W29_keep m ρ c main_arg23 (by decide)).trans <|
  (W28_keep m ρ c main_arg23 (by decide)).trans <|
  (W27_keep m ρ c main_arg23 (by decide)).trans <|
  (W26_keep m ρ c main_arg23 (by decide)).trans <|
  (W25_keep m ρ c main_arg23 (by decide)).trans <|
  (W24_keep m ρ c main_arg23 (by decide)).trans <|
  (W23_keep m ρ c main_arg23 (by decide)).trans <|
  (W22_keep m ρ c main_arg23 (by decide)).trans <|
  (W21_keep m ρ c main_arg23 (by decide)).trans <|
  (W20_keep m ρ c main_arg23 (by decide)).trans <|
  (W19_keep m ρ c main_arg23 (by decide)).trans <|
  (W18_keep m ρ c main_arg23 (by decide)).trans <|
  (W17_keep m ρ c main_arg23 (by decide)).trans <|
  (W16_keep m ρ c main_arg23 (by decide)).trans <|
  (W15_keep m ρ c main_arg23 (by decide)).trans <|
  (W14_keep m ρ c main_arg23 (by decide)).trans <|
  (W13_keep m ρ c main_arg23 (by decide)).trans <|
  (W12_keep m ρ c main_arg23 (by decide)).trans <|
  (W11_keep m ρ c main_arg23 (by decide)).trans <|
  (W10_keep m ρ c main_arg23 (by decide)).trans <|
  (W9_keep m ρ c main_arg23 (by decide)).trans <|
  (W8_keep m ρ c main_arg23 (by decide)).trans <|
  (W7_keep m ρ c main_arg23 (by decide)).trans <|
  (W6_keep m ρ c main_arg23 (by decide)).trans <|
  (W5_keep m ρ c main_arg23 (by decide)).trans <|
  (W4_keep m ρ c main_arg23 (by decide)).trans <|
  (W3_keep m ρ c main_arg23 (by decide)).trans <|
  (W2_keep m ρ c main_arg23 (by decide)).trans <|
  (W1_keep m ρ c main_arg23 (by decide)).trans rfl

/-- `main_arg24` reaches the end as launched. -/
theorem W109_main_arg24 (c : Dev nD) : W109 m ρ c (Proc.devRef .tc main_arg24) = m ((c : Thread nD τ).loc main_arg24) :=
  (W109_keep m ρ c main_arg24 (by decide)).trans <|
  (W108_keep m ρ c main_arg24 (by decide)).trans <|
  (W107_keep m ρ c main_arg24 (by decide)).trans <|
  (W106_keep m ρ c main_arg24 (by decide)).trans <|
  (W105_keep m ρ c main_arg24 (by decide)).trans <|
  (W104_keep m ρ c main_arg24 (by decide)).trans <|
  (W103_keep m ρ c main_arg24 (by decide)).trans <|
  (W102_keep m ρ c main_arg24 (by decide)).trans <|
  (W101_keep m ρ c main_arg24 (by decide)).trans <|
  (W100_keep m ρ c main_arg24 (by decide)).trans <|
  (W99_keep m ρ c main_arg24 (by decide)).trans <|
  (W98_keep m ρ c main_arg24 (by decide)).trans <|
  (W97_keep m ρ c main_arg24 (by decide)).trans <|
  (W96_keep m ρ c main_arg24 (by decide)).trans <|
  (W95_keep m ρ c main_arg24 (by decide)).trans <|
  (W94_keep m ρ c main_arg24 (by decide)).trans <|
  (W93_keep m ρ c main_arg24 (by decide)).trans <|
  (W92_keep m ρ c main_arg24 (by decide)).trans <|
  (W91_keep m ρ c main_arg24 (by decide)).trans <|
  (W90_keep m ρ c main_arg24 (by decide)).trans <|
  (W89_keep m ρ c main_arg24 (by decide)).trans <|
  (W88_keep m ρ c main_arg24 (by decide)).trans <|
  (W87_keep m ρ c main_arg24 (by decide)).trans <|
  (W86_keep m ρ c main_arg24 (by decide)).trans <|
  (W85_keep m ρ c main_arg24 (by decide)).trans <|
  (W84_keep m ρ c main_arg24 (by decide)).trans <|
  (W83_keep m ρ c main_arg24 (by decide)).trans <|
  (W82_keep m ρ c main_arg24 (by decide)).trans <|
  (W81_keep m ρ c main_arg24 (by decide)).trans <|
  (W80_keep m ρ c main_arg24 (by decide)).trans <|
  (W79_keep m ρ c main_arg24 (by decide)).trans <|
  (W78_keep m ρ c main_arg24 (by decide)).trans <|
  (W77_keep m ρ c main_arg24 (by decide)).trans <|
  (W76_keep m ρ c main_arg24 (by decide)).trans <|
  (W75_keep m ρ c main_arg24 (by decide)).trans <|
  (W74_keep m ρ c main_arg24 (by decide)).trans <|
  (W73_keep m ρ c main_arg24 (by decide)).trans <|
  (W72_keep m ρ c main_arg24 (by decide)).trans <|
  (W71_keep m ρ c main_arg24 (by decide)).trans <|
  (W70_keep m ρ c main_arg24 (by decide)).trans <|
  (W69_keep m ρ c main_arg24 (by decide)).trans <|
  (W68_keep m ρ c main_arg24 (by decide)).trans <|
  (W67_keep m ρ c main_arg24 (by decide)).trans <|
  (W66_keep m ρ c main_arg24 (by decide)).trans <|
  (W65_keep m ρ c main_arg24 (by decide)).trans <|
  (W64_keep m ρ c main_arg24 (by decide)).trans <|
  (W63_keep m ρ c main_arg24 (by decide)).trans <|
  (W62_keep m ρ c main_arg24 (by decide)).trans <|
  (W61_keep m ρ c main_arg24 (by decide)).trans <|
  (W60_keep m ρ c main_arg24 (by decide)).trans <|
  (W59_keep m ρ c main_arg24 (by decide)).trans <|
  (W58_keep m ρ c main_arg24 (by decide)).trans <|
  (W57_keep m ρ c main_arg24 (by decide)).trans <|
  (W56_keep m ρ c main_arg24 (by decide)).trans <|
  (W55_keep m ρ c main_arg24 (by decide)).trans <|
  (W54_keep m ρ c main_arg24 (by decide)).trans <|
  (W53_keep m ρ c main_arg24 (by decide)).trans <|
  (W52_keep m ρ c main_arg24 (by decide)).trans <|
  (W51_keep m ρ c main_arg24 (by decide)).trans <|
  (W50_keep m ρ c main_arg24 (by decide)).trans <|
  (W49_keep m ρ c main_arg24 (by decide)).trans <|
  (W48_keep m ρ c main_arg24 (by decide)).trans <|
  (W47_keep m ρ c main_arg24 (by decide)).trans <|
  (W46_keep m ρ c main_arg24 (by decide)).trans <|
  (W45_keep m ρ c main_arg24 (by decide)).trans <|
  (W44_keep m ρ c main_arg24 (by decide)).trans <|
  (W43_keep m ρ c main_arg24 (by decide)).trans <|
  (W42_keep m ρ c main_arg24 (by decide)).trans <|
  (W41_keep m ρ c main_arg24 (by decide)).trans <|
  (W40_keep m ρ c main_arg24 (by decide)).trans <|
  (W39_keep m ρ c main_arg24 (by decide)).trans <|
  (W38_keep m ρ c main_arg24 (by decide)).trans <|
  (W37_keep m ρ c main_arg24 (by decide)).trans <|
  (W36_keep m ρ c main_arg24 (by decide)).trans <|
  (W35_keep m ρ c main_arg24 (by decide)).trans <|
  (W34_keep m ρ c main_arg24 (by decide)).trans <|
  (W33_keep m ρ c main_arg24 (by decide)).trans <|
  (W32_keep m ρ c main_arg24 (by decide)).trans <|
  (W31_keep m ρ c main_arg24 (by decide)).trans <|
  (W30_keep m ρ c main_arg24 (by decide)).trans <|
  (W29_keep m ρ c main_arg24 (by decide)).trans <|
  (W28_keep m ρ c main_arg24 (by decide)).trans <|
  (W27_keep m ρ c main_arg24 (by decide)).trans <|
  (W26_keep m ρ c main_arg24 (by decide)).trans <|
  (W25_keep m ρ c main_arg24 (by decide)).trans <|
  (W24_keep m ρ c main_arg24 (by decide)).trans <|
  (W23_keep m ρ c main_arg24 (by decide)).trans <|
  (W22_keep m ρ c main_arg24 (by decide)).trans <|
  (W21_keep m ρ c main_arg24 (by decide)).trans <|
  (W20_keep m ρ c main_arg24 (by decide)).trans <|
  (W19_keep m ρ c main_arg24 (by decide)).trans <|
  (W18_keep m ρ c main_arg24 (by decide)).trans <|
  (W17_keep m ρ c main_arg24 (by decide)).trans <|
  (W16_keep m ρ c main_arg24 (by decide)).trans <|
  (W15_keep m ρ c main_arg24 (by decide)).trans <|
  (W14_keep m ρ c main_arg24 (by decide)).trans <|
  (W13_keep m ρ c main_arg24 (by decide)).trans <|
  (W12_keep m ρ c main_arg24 (by decide)).trans <|
  (W11_keep m ρ c main_arg24 (by decide)).trans <|
  (W10_keep m ρ c main_arg24 (by decide)).trans <|
  (W9_keep m ρ c main_arg24 (by decide)).trans <|
  (W8_keep m ρ c main_arg24 (by decide)).trans <|
  (W7_keep m ρ c main_arg24 (by decide)).trans <|
  (W6_keep m ρ c main_arg24 (by decide)).trans <|
  (W5_keep m ρ c main_arg24 (by decide)).trans <|
  (W4_keep m ρ c main_arg24 (by decide)).trans <|
  (W3_keep m ρ c main_arg24 (by decide)).trans <|
  (W2_keep m ρ c main_arg24 (by decide)).trans <|
  (W1_keep m ρ c main_arg24 (by decide)).trans rfl

/-- `main_arg25` reaches the end as launched. -/
theorem W109_main_arg25 (c : Dev nD) : W109 m ρ c (Proc.devRef .tc main_arg25) = m ((c : Thread nD τ).loc main_arg25) :=
  (W109_keep m ρ c main_arg25 (by decide)).trans <|
  (W108_keep m ρ c main_arg25 (by decide)).trans <|
  (W107_keep m ρ c main_arg25 (by decide)).trans <|
  (W106_keep m ρ c main_arg25 (by decide)).trans <|
  (W105_keep m ρ c main_arg25 (by decide)).trans <|
  (W104_keep m ρ c main_arg25 (by decide)).trans <|
  (W103_keep m ρ c main_arg25 (by decide)).trans <|
  (W102_keep m ρ c main_arg25 (by decide)).trans <|
  (W101_keep m ρ c main_arg25 (by decide)).trans <|
  (W100_keep m ρ c main_arg25 (by decide)).trans <|
  (W99_keep m ρ c main_arg25 (by decide)).trans <|
  (W98_keep m ρ c main_arg25 (by decide)).trans <|
  (W97_keep m ρ c main_arg25 (by decide)).trans <|
  (W96_keep m ρ c main_arg25 (by decide)).trans <|
  (W95_keep m ρ c main_arg25 (by decide)).trans <|
  (W94_keep m ρ c main_arg25 (by decide)).trans <|
  (W93_keep m ρ c main_arg25 (by decide)).trans <|
  (W92_keep m ρ c main_arg25 (by decide)).trans <|
  (W91_keep m ρ c main_arg25 (by decide)).trans <|
  (W90_keep m ρ c main_arg25 (by decide)).trans <|
  (W89_keep m ρ c main_arg25 (by decide)).trans <|
  (W88_keep m ρ c main_arg25 (by decide)).trans <|
  (W87_keep m ρ c main_arg25 (by decide)).trans <|
  (W86_keep m ρ c main_arg25 (by decide)).trans <|
  (W85_keep m ρ c main_arg25 (by decide)).trans <|
  (W84_keep m ρ c main_arg25 (by decide)).trans <|
  (W83_keep m ρ c main_arg25 (by decide)).trans <|
  (W82_keep m ρ c main_arg25 (by decide)).trans <|
  (W81_keep m ρ c main_arg25 (by decide)).trans <|
  (W80_keep m ρ c main_arg25 (by decide)).trans <|
  (W79_keep m ρ c main_arg25 (by decide)).trans <|
  (W78_keep m ρ c main_arg25 (by decide)).trans <|
  (W77_keep m ρ c main_arg25 (by decide)).trans <|
  (W76_keep m ρ c main_arg25 (by decide)).trans <|
  (W75_keep m ρ c main_arg25 (by decide)).trans <|
  (W74_keep m ρ c main_arg25 (by decide)).trans <|
  (W73_keep m ρ c main_arg25 (by decide)).trans <|
  (W72_keep m ρ c main_arg25 (by decide)).trans <|
  (W71_keep m ρ c main_arg25 (by decide)).trans <|
  (W70_keep m ρ c main_arg25 (by decide)).trans <|
  (W69_keep m ρ c main_arg25 (by decide)).trans <|
  (W68_keep m ρ c main_arg25 (by decide)).trans <|
  (W67_keep m ρ c main_arg25 (by decide)).trans <|
  (W66_keep m ρ c main_arg25 (by decide)).trans <|
  (W65_keep m ρ c main_arg25 (by decide)).trans <|
  (W64_keep m ρ c main_arg25 (by decide)).trans <|
  (W63_keep m ρ c main_arg25 (by decide)).trans <|
  (W62_keep m ρ c main_arg25 (by decide)).trans <|
  (W61_keep m ρ c main_arg25 (by decide)).trans <|
  (W60_keep m ρ c main_arg25 (by decide)).trans <|
  (W59_keep m ρ c main_arg25 (by decide)).trans <|
  (W58_keep m ρ c main_arg25 (by decide)).trans <|
  (W57_keep m ρ c main_arg25 (by decide)).trans <|
  (W56_keep m ρ c main_arg25 (by decide)).trans <|
  (W55_keep m ρ c main_arg25 (by decide)).trans <|
  (W54_keep m ρ c main_arg25 (by decide)).trans <|
  (W53_keep m ρ c main_arg25 (by decide)).trans <|
  (W52_keep m ρ c main_arg25 (by decide)).trans <|
  (W51_keep m ρ c main_arg25 (by decide)).trans <|
  (W50_keep m ρ c main_arg25 (by decide)).trans <|
  (W49_keep m ρ c main_arg25 (by decide)).trans <|
  (W48_keep m ρ c main_arg25 (by decide)).trans <|
  (W47_keep m ρ c main_arg25 (by decide)).trans <|
  (W46_keep m ρ c main_arg25 (by decide)).trans <|
  (W45_keep m ρ c main_arg25 (by decide)).trans <|
  (W44_keep m ρ c main_arg25 (by decide)).trans <|
  (W43_keep m ρ c main_arg25 (by decide)).trans <|
  (W42_keep m ρ c main_arg25 (by decide)).trans <|
  (W41_keep m ρ c main_arg25 (by decide)).trans <|
  (W40_keep m ρ c main_arg25 (by decide)).trans <|
  (W39_keep m ρ c main_arg25 (by decide)).trans <|
  (W38_keep m ρ c main_arg25 (by decide)).trans <|
  (W37_keep m ρ c main_arg25 (by decide)).trans <|
  (W36_keep m ρ c main_arg25 (by decide)).trans <|
  (W35_keep m ρ c main_arg25 (by decide)).trans <|
  (W34_keep m ρ c main_arg25 (by decide)).trans <|
  (W33_keep m ρ c main_arg25 (by decide)).trans <|
  (W32_keep m ρ c main_arg25 (by decide)).trans <|
  (W31_keep m ρ c main_arg25 (by decide)).trans <|
  (W30_keep m ρ c main_arg25 (by decide)).trans <|
  (W29_keep m ρ c main_arg25 (by decide)).trans <|
  (W28_keep m ρ c main_arg25 (by decide)).trans <|
  (W27_keep m ρ c main_arg25 (by decide)).trans <|
  (W26_keep m ρ c main_arg25 (by decide)).trans <|
  (W25_keep m ρ c main_arg25 (by decide)).trans <|
  (W24_keep m ρ c main_arg25 (by decide)).trans <|
  (W23_keep m ρ c main_arg25 (by decide)).trans <|
  (W22_keep m ρ c main_arg25 (by decide)).trans <|
  (W21_keep m ρ c main_arg25 (by decide)).trans <|
  (W20_keep m ρ c main_arg25 (by decide)).trans <|
  (W19_keep m ρ c main_arg25 (by decide)).trans <|
  (W18_keep m ρ c main_arg25 (by decide)).trans <|
  (W17_keep m ρ c main_arg25 (by decide)).trans <|
  (W16_keep m ρ c main_arg25 (by decide)).trans <|
  (W15_keep m ρ c main_arg25 (by decide)).trans <|
  (W14_keep m ρ c main_arg25 (by decide)).trans <|
  (W13_keep m ρ c main_arg25 (by decide)).trans <|
  (W12_keep m ρ c main_arg25 (by decide)).trans <|
  (W11_keep m ρ c main_arg25 (by decide)).trans <|
  (W10_keep m ρ c main_arg25 (by decide)).trans <|
  (W9_keep m ρ c main_arg25 (by decide)).trans <|
  (W8_keep m ρ c main_arg25 (by decide)).trans <|
  (W7_keep m ρ c main_arg25 (by decide)).trans <|
  (W6_keep m ρ c main_arg25 (by decide)).trans <|
  (W5_keep m ρ c main_arg25 (by decide)).trans <|
  (W4_keep m ρ c main_arg25 (by decide)).trans <|
  (W3_keep m ρ c main_arg25 (by decide)).trans <|
  (W2_keep m ρ c main_arg25 (by decide)).trans <|
  (W1_keep m ρ c main_arg25 (by decide)).trans rfl

/-- `main_arg26` reaches the end as launched. -/
theorem W109_main_arg26 (c : Dev nD) : W109 m ρ c (Proc.devRef .tc main_arg26) = m ((c : Thread nD τ).loc main_arg26) :=
  (W109_keep m ρ c main_arg26 (by decide)).trans <|
  (W108_keep m ρ c main_arg26 (by decide)).trans <|
  (W107_keep m ρ c main_arg26 (by decide)).trans <|
  (W106_keep m ρ c main_arg26 (by decide)).trans <|
  (W105_keep m ρ c main_arg26 (by decide)).trans <|
  (W104_keep m ρ c main_arg26 (by decide)).trans <|
  (W103_keep m ρ c main_arg26 (by decide)).trans <|
  (W102_keep m ρ c main_arg26 (by decide)).trans <|
  (W101_keep m ρ c main_arg26 (by decide)).trans <|
  (W100_keep m ρ c main_arg26 (by decide)).trans <|
  (W99_keep m ρ c main_arg26 (by decide)).trans <|
  (W98_keep m ρ c main_arg26 (by decide)).trans <|
  (W97_keep m ρ c main_arg26 (by decide)).trans <|
  (W96_keep m ρ c main_arg26 (by decide)).trans <|
  (W95_keep m ρ c main_arg26 (by decide)).trans <|
  (W94_keep m ρ c main_arg26 (by decide)).trans <|
  (W93_keep m ρ c main_arg26 (by decide)).trans <|
  (W92_keep m ρ c main_arg26 (by decide)).trans <|
  (W91_keep m ρ c main_arg26 (by decide)).trans <|
  (W90_keep m ρ c main_arg26 (by decide)).trans <|
  (W89_keep m ρ c main_arg26 (by decide)).trans <|
  (W88_keep m ρ c main_arg26 (by decide)).trans <|
  (W87_keep m ρ c main_arg26 (by decide)).trans <|
  (W86_keep m ρ c main_arg26 (by decide)).trans <|
  (W85_keep m ρ c main_arg26 (by decide)).trans <|
  (W84_keep m ρ c main_arg26 (by decide)).trans <|
  (W83_keep m ρ c main_arg26 (by decide)).trans <|
  (W82_keep m ρ c main_arg26 (by decide)).trans <|
  (W81_keep m ρ c main_arg26 (by decide)).trans <|
  (W80_keep m ρ c main_arg26 (by decide)).trans <|
  (W79_keep m ρ c main_arg26 (by decide)).trans <|
  (W78_keep m ρ c main_arg26 (by decide)).trans <|
  (W77_keep m ρ c main_arg26 (by decide)).trans <|
  (W76_keep m ρ c main_arg26 (by decide)).trans <|
  (W75_keep m ρ c main_arg26 (by decide)).trans <|
  (W74_keep m ρ c main_arg26 (by decide)).trans <|
  (W73_keep m ρ c main_arg26 (by decide)).trans <|
  (W72_keep m ρ c main_arg26 (by decide)).trans <|
  (W71_keep m ρ c main_arg26 (by decide)).trans <|
  (W70_keep m ρ c main_arg26 (by decide)).trans <|
  (W69_keep m ρ c main_arg26 (by decide)).trans <|
  (W68_keep m ρ c main_arg26 (by decide)).trans <|
  (W67_keep m ρ c main_arg26 (by decide)).trans <|
  (W66_keep m ρ c main_arg26 (by decide)).trans <|
  (W65_keep m ρ c main_arg26 (by decide)).trans <|
  (W64_keep m ρ c main_arg26 (by decide)).trans <|
  (W63_keep m ρ c main_arg26 (by decide)).trans <|
  (W62_keep m ρ c main_arg26 (by decide)).trans <|
  (W61_keep m ρ c main_arg26 (by decide)).trans <|
  (W60_keep m ρ c main_arg26 (by decide)).trans <|
  (W59_keep m ρ c main_arg26 (by decide)).trans <|
  (W58_keep m ρ c main_arg26 (by decide)).trans <|
  (W57_keep m ρ c main_arg26 (by decide)).trans <|
  (W56_keep m ρ c main_arg26 (by decide)).trans <|
  (W55_keep m ρ c main_arg26 (by decide)).trans <|
  (W54_keep m ρ c main_arg26 (by decide)).trans <|
  (W53_keep m ρ c main_arg26 (by decide)).trans <|
  (W52_keep m ρ c main_arg26 (by decide)).trans <|
  (W51_keep m ρ c main_arg26 (by decide)).trans <|
  (W50_keep m ρ c main_arg26 (by decide)).trans <|
  (W49_keep m ρ c main_arg26 (by decide)).trans <|
  (W48_keep m ρ c main_arg26 (by decide)).trans <|
  (W47_keep m ρ c main_arg26 (by decide)).trans <|
  (W46_keep m ρ c main_arg26 (by decide)).trans <|
  (W45_keep m ρ c main_arg26 (by decide)).trans <|
  (W44_keep m ρ c main_arg26 (by decide)).trans <|
  (W43_keep m ρ c main_arg26 (by decide)).trans <|
  (W42_keep m ρ c main_arg26 (by decide)).trans <|
  (W41_keep m ρ c main_arg26 (by decide)).trans <|
  (W40_keep m ρ c main_arg26 (by decide)).trans <|
  (W39_keep m ρ c main_arg26 (by decide)).trans <|
  (W38_keep m ρ c main_arg26 (by decide)).trans <|
  (W37_keep m ρ c main_arg26 (by decide)).trans <|
  (W36_keep m ρ c main_arg26 (by decide)).trans <|
  (W35_keep m ρ c main_arg26 (by decide)).trans <|
  (W34_keep m ρ c main_arg26 (by decide)).trans <|
  (W33_keep m ρ c main_arg26 (by decide)).trans <|
  (W32_keep m ρ c main_arg26 (by decide)).trans <|
  (W31_keep m ρ c main_arg26 (by decide)).trans <|
  (W30_keep m ρ c main_arg26 (by decide)).trans <|
  (W29_keep m ρ c main_arg26 (by decide)).trans <|
  (W28_keep m ρ c main_arg26 (by decide)).trans <|
  (W27_keep m ρ c main_arg26 (by decide)).trans <|
  (W26_keep m ρ c main_arg26 (by decide)).trans <|
  (W25_keep m ρ c main_arg26 (by decide)).trans <|
  (W24_keep m ρ c main_arg26 (by decide)).trans <|
  (W23_keep m ρ c main_arg26 (by decide)).trans <|
  (W22_keep m ρ c main_arg26 (by decide)).trans <|
  (W21_keep m ρ c main_arg26 (by decide)).trans <|
  (W20_keep m ρ c main_arg26 (by decide)).trans <|
  (W19_keep m ρ c main_arg26 (by decide)).trans <|
  (W18_keep m ρ c main_arg26 (by decide)).trans <|
  (W17_keep m ρ c main_arg26 (by decide)).trans <|
  (W16_keep m ρ c main_arg26 (by decide)).trans <|
  (W15_keep m ρ c main_arg26 (by decide)).trans <|
  (W14_keep m ρ c main_arg26 (by decide)).trans <|
  (W13_keep m ρ c main_arg26 (by decide)).trans <|
  (W12_keep m ρ c main_arg26 (by decide)).trans <|
  (W11_keep m ρ c main_arg26 (by decide)).trans <|
  (W10_keep m ρ c main_arg26 (by decide)).trans <|
  (W9_keep m ρ c main_arg26 (by decide)).trans <|
  (W8_keep m ρ c main_arg26 (by decide)).trans <|
  (W7_keep m ρ c main_arg26 (by decide)).trans <|
  (W6_keep m ρ c main_arg26 (by decide)).trans <|
  (W5_keep m ρ c main_arg26 (by decide)).trans <|
  (W4_keep m ρ c main_arg26 (by decide)).trans <|
  (W3_keep m ρ c main_arg26 (by decide)).trans <|
  (W2_keep m ρ c main_arg26 (by decide)).trans <|
  (W1_keep m ρ c main_arg26 (by decide)).trans rfl

/-- `main_arg27` reaches the end as launched. -/
theorem W109_main_arg27 (c : Dev nD) : W109 m ρ c (Proc.devRef .tc main_arg27) = m ((c : Thread nD τ).loc main_arg27) :=
  (W109_keep m ρ c main_arg27 (by decide)).trans <|
  (W108_keep m ρ c main_arg27 (by decide)).trans <|
  (W107_keep m ρ c main_arg27 (by decide)).trans <|
  (W106_keep m ρ c main_arg27 (by decide)).trans <|
  (W105_keep m ρ c main_arg27 (by decide)).trans <|
  (W104_keep m ρ c main_arg27 (by decide)).trans <|
  (W103_keep m ρ c main_arg27 (by decide)).trans <|
  (W102_keep m ρ c main_arg27 (by decide)).trans <|
  (W101_keep m ρ c main_arg27 (by decide)).trans <|
  (W100_keep m ρ c main_arg27 (by decide)).trans <|
  (W99_keep m ρ c main_arg27 (by decide)).trans <|
  (W98_keep m ρ c main_arg27 (by decide)).trans <|
  (W97_keep m ρ c main_arg27 (by decide)).trans <|
  (W96_keep m ρ c main_arg27 (by decide)).trans <|
  (W95_keep m ρ c main_arg27 (by decide)).trans <|
  (W94_keep m ρ c main_arg27 (by decide)).trans <|
  (W93_keep m ρ c main_arg27 (by decide)).trans <|
  (W92_keep m ρ c main_arg27 (by decide)).trans <|
  (W91_keep m ρ c main_arg27 (by decide)).trans <|
  (W90_keep m ρ c main_arg27 (by decide)).trans <|
  (W89_keep m ρ c main_arg27 (by decide)).trans <|
  (W88_keep m ρ c main_arg27 (by decide)).trans <|
  (W87_keep m ρ c main_arg27 (by decide)).trans <|
  (W86_keep m ρ c main_arg27 (by decide)).trans <|
  (W85_keep m ρ c main_arg27 (by decide)).trans <|
  (W84_keep m ρ c main_arg27 (by decide)).trans <|
  (W83_keep m ρ c main_arg27 (by decide)).trans <|
  (W82_keep m ρ c main_arg27 (by decide)).trans <|
  (W81_keep m ρ c main_arg27 (by decide)).trans <|
  (W80_keep m ρ c main_arg27 (by decide)).trans <|
  (W79_keep m ρ c main_arg27 (by decide)).trans <|
  (W78_keep m ρ c main_arg27 (by decide)).trans <|
  (W77_keep m ρ c main_arg27 (by decide)).trans <|
  (W76_keep m ρ c main_arg27 (by decide)).trans <|
  (W75_keep m ρ c main_arg27 (by decide)).trans <|
  (W74_keep m ρ c main_arg27 (by decide)).trans <|
  (W73_keep m ρ c main_arg27 (by decide)).trans <|
  (W72_keep m ρ c main_arg27 (by decide)).trans <|
  (W71_keep m ρ c main_arg27 (by decide)).trans <|
  (W70_keep m ρ c main_arg27 (by decide)).trans <|
  (W69_keep m ρ c main_arg27 (by decide)).trans <|
  (W68_keep m ρ c main_arg27 (by decide)).trans <|
  (W67_keep m ρ c main_arg27 (by decide)).trans <|
  (W66_keep m ρ c main_arg27 (by decide)).trans <|
  (W65_keep m ρ c main_arg27 (by decide)).trans <|
  (W64_keep m ρ c main_arg27 (by decide)).trans <|
  (W63_keep m ρ c main_arg27 (by decide)).trans <|
  (W62_keep m ρ c main_arg27 (by decide)).trans <|
  (W61_keep m ρ c main_arg27 (by decide)).trans <|
  (W60_keep m ρ c main_arg27 (by decide)).trans <|
  (W59_keep m ρ c main_arg27 (by decide)).trans <|
  (W58_keep m ρ c main_arg27 (by decide)).trans <|
  (W57_keep m ρ c main_arg27 (by decide)).trans <|
  (W56_keep m ρ c main_arg27 (by decide)).trans <|
  (W55_keep m ρ c main_arg27 (by decide)).trans <|
  (W54_keep m ρ c main_arg27 (by decide)).trans <|
  (W53_keep m ρ c main_arg27 (by decide)).trans <|
  (W52_keep m ρ c main_arg27 (by decide)).trans <|
  (W51_keep m ρ c main_arg27 (by decide)).trans <|
  (W50_keep m ρ c main_arg27 (by decide)).trans <|
  (W49_keep m ρ c main_arg27 (by decide)).trans <|
  (W48_keep m ρ c main_arg27 (by decide)).trans <|
  (W47_keep m ρ c main_arg27 (by decide)).trans <|
  (W46_keep m ρ c main_arg27 (by decide)).trans <|
  (W45_keep m ρ c main_arg27 (by decide)).trans <|
  (W44_keep m ρ c main_arg27 (by decide)).trans <|
  (W43_keep m ρ c main_arg27 (by decide)).trans <|
  (W42_keep m ρ c main_arg27 (by decide)).trans <|
  (W41_keep m ρ c main_arg27 (by decide)).trans <|
  (W40_keep m ρ c main_arg27 (by decide)).trans <|
  (W39_keep m ρ c main_arg27 (by decide)).trans <|
  (W38_keep m ρ c main_arg27 (by decide)).trans <|
  (W37_keep m ρ c main_arg27 (by decide)).trans <|
  (W36_keep m ρ c main_arg27 (by decide)).trans <|
  (W35_keep m ρ c main_arg27 (by decide)).trans <|
  (W34_keep m ρ c main_arg27 (by decide)).trans <|
  (W33_keep m ρ c main_arg27 (by decide)).trans <|
  (W32_keep m ρ c main_arg27 (by decide)).trans <|
  (W31_keep m ρ c main_arg27 (by decide)).trans <|
  (W30_keep m ρ c main_arg27 (by decide)).trans <|
  (W29_keep m ρ c main_arg27 (by decide)).trans <|
  (W28_keep m ρ c main_arg27 (by decide)).trans <|
  (W27_keep m ρ c main_arg27 (by decide)).trans <|
  (W26_keep m ρ c main_arg27 (by decide)).trans <|
  (W25_keep m ρ c main_arg27 (by decide)).trans <|
  (W24_keep m ρ c main_arg27 (by decide)).trans <|
  (W23_keep m ρ c main_arg27 (by decide)).trans <|
  (W22_keep m ρ c main_arg27 (by decide)).trans <|
  (W21_keep m ρ c main_arg27 (by decide)).trans <|
  (W20_keep m ρ c main_arg27 (by decide)).trans <|
  (W19_keep m ρ c main_arg27 (by decide)).trans <|
  (W18_keep m ρ c main_arg27 (by decide)).trans <|
  (W17_keep m ρ c main_arg27 (by decide)).trans <|
  (W16_keep m ρ c main_arg27 (by decide)).trans <|
  (W15_keep m ρ c main_arg27 (by decide)).trans <|
  (W14_keep m ρ c main_arg27 (by decide)).trans <|
  (W13_keep m ρ c main_arg27 (by decide)).trans <|
  (W12_keep m ρ c main_arg27 (by decide)).trans <|
  (W11_keep m ρ c main_arg27 (by decide)).trans <|
  (W10_keep m ρ c main_arg27 (by decide)).trans <|
  (W9_keep m ρ c main_arg27 (by decide)).trans <|
  (W8_keep m ρ c main_arg27 (by decide)).trans <|
  (W7_keep m ρ c main_arg27 (by decide)).trans <|
  (W6_keep m ρ c main_arg27 (by decide)).trans <|
  (W5_keep m ρ c main_arg27 (by decide)).trans <|
  (W4_keep m ρ c main_arg27 (by decide)).trans <|
  (W3_keep m ρ c main_arg27 (by decide)).trans <|
  (W2_keep m ρ c main_arg27 (by decide)).trans <|
  (W1_keep m ρ c main_arg27 (by decide)).trans rfl

/-- `main_arg28` reaches the end as launched. -/
theorem W109_main_arg28 (c : Dev nD) : W109 m ρ c (Proc.devRef .tc main_arg28) = m ((c : Thread nD τ).loc main_arg28) :=
  (W109_keep m ρ c main_arg28 (by decide)).trans <|
  (W108_keep m ρ c main_arg28 (by decide)).trans <|
  (W107_keep m ρ c main_arg28 (by decide)).trans <|
  (W106_keep m ρ c main_arg28 (by decide)).trans <|
  (W105_keep m ρ c main_arg28 (by decide)).trans <|
  (W104_keep m ρ c main_arg28 (by decide)).trans <|
  (W103_keep m ρ c main_arg28 (by decide)).trans <|
  (W102_keep m ρ c main_arg28 (by decide)).trans <|
  (W101_keep m ρ c main_arg28 (by decide)).trans <|
  (W100_keep m ρ c main_arg28 (by decide)).trans <|
  (W99_keep m ρ c main_arg28 (by decide)).trans <|
  (W98_keep m ρ c main_arg28 (by decide)).trans <|
  (W97_keep m ρ c main_arg28 (by decide)).trans <|
  (W96_keep m ρ c main_arg28 (by decide)).trans <|
  (W95_keep m ρ c main_arg28 (by decide)).trans <|
  (W94_keep m ρ c main_arg28 (by decide)).trans <|
  (W93_keep m ρ c main_arg28 (by decide)).trans <|
  (W92_keep m ρ c main_arg28 (by decide)).trans <|
  (W91_keep m ρ c main_arg28 (by decide)).trans <|
  (W90_keep m ρ c main_arg28 (by decide)).trans <|
  (W89_keep m ρ c main_arg28 (by decide)).trans <|
  (W88_keep m ρ c main_arg28 (by decide)).trans <|
  (W87_keep m ρ c main_arg28 (by decide)).trans <|
  (W86_keep m ρ c main_arg28 (by decide)).trans <|
  (W85_keep m ρ c main_arg28 (by decide)).trans <|
  (W84_keep m ρ c main_arg28 (by decide)).trans <|
  (W83_keep m ρ c main_arg28 (by decide)).trans <|
  (W82_keep m ρ c main_arg28 (by decide)).trans <|
  (W81_keep m ρ c main_arg28 (by decide)).trans <|
  (W80_keep m ρ c main_arg28 (by decide)).trans <|
  (W79_keep m ρ c main_arg28 (by decide)).trans <|
  (W78_keep m ρ c main_arg28 (by decide)).trans <|
  (W77_keep m ρ c main_arg28 (by decide)).trans <|
  (W76_keep m ρ c main_arg28 (by decide)).trans <|
  (W75_keep m ρ c main_arg28 (by decide)).trans <|
  (W74_keep m ρ c main_arg28 (by decide)).trans <|
  (W73_keep m ρ c main_arg28 (by decide)).trans <|
  (W72_keep m ρ c main_arg28 (by decide)).trans <|
  (W71_keep m ρ c main_arg28 (by decide)).trans <|
  (W70_keep m ρ c main_arg28 (by decide)).trans <|
  (W69_keep m ρ c main_arg28 (by decide)).trans <|
  (W68_keep m ρ c main_arg28 (by decide)).trans <|
  (W67_keep m ρ c main_arg28 (by decide)).trans <|
  (W66_keep m ρ c main_arg28 (by decide)).trans <|
  (W65_keep m ρ c main_arg28 (by decide)).trans <|
  (W64_keep m ρ c main_arg28 (by decide)).trans <|
  (W63_keep m ρ c main_arg28 (by decide)).trans <|
  (W62_keep m ρ c main_arg28 (by decide)).trans <|
  (W61_keep m ρ c main_arg28 (by decide)).trans <|
  (W60_keep m ρ c main_arg28 (by decide)).trans <|
  (W59_keep m ρ c main_arg28 (by decide)).trans <|
  (W58_keep m ρ c main_arg28 (by decide)).trans <|
  (W57_keep m ρ c main_arg28 (by decide)).trans <|
  (W56_keep m ρ c main_arg28 (by decide)).trans <|
  (W55_keep m ρ c main_arg28 (by decide)).trans <|
  (W54_keep m ρ c main_arg28 (by decide)).trans <|
  (W53_keep m ρ c main_arg28 (by decide)).trans <|
  (W52_keep m ρ c main_arg28 (by decide)).trans <|
  (W51_keep m ρ c main_arg28 (by decide)).trans <|
  (W50_keep m ρ c main_arg28 (by decide)).trans <|
  (W49_keep m ρ c main_arg28 (by decide)).trans <|
  (W48_keep m ρ c main_arg28 (by decide)).trans <|
  (W47_keep m ρ c main_arg28 (by decide)).trans <|
  (W46_keep m ρ c main_arg28 (by decide)).trans <|
  (W45_keep m ρ c main_arg28 (by decide)).trans <|
  (W44_keep m ρ c main_arg28 (by decide)).trans <|
  (W43_keep m ρ c main_arg28 (by decide)).trans <|
  (W42_keep m ρ c main_arg28 (by decide)).trans <|
  (W41_keep m ρ c main_arg28 (by decide)).trans <|
  (W40_keep m ρ c main_arg28 (by decide)).trans <|
  (W39_keep m ρ c main_arg28 (by decide)).trans <|
  (W38_keep m ρ c main_arg28 (by decide)).trans <|
  (W37_keep m ρ c main_arg28 (by decide)).trans <|
  (W36_keep m ρ c main_arg28 (by decide)).trans <|
  (W35_keep m ρ c main_arg28 (by decide)).trans <|
  (W34_keep m ρ c main_arg28 (by decide)).trans <|
  (W33_keep m ρ c main_arg28 (by decide)).trans <|
  (W32_keep m ρ c main_arg28 (by decide)).trans <|
  (W31_keep m ρ c main_arg28 (by decide)).trans <|
  (W30_keep m ρ c main_arg28 (by decide)).trans <|
  (W29_keep m ρ c main_arg28 (by decide)).trans <|
  (W28_keep m ρ c main_arg28 (by decide)).trans <|
  (W27_keep m ρ c main_arg28 (by decide)).trans <|
  (W26_keep m ρ c main_arg28 (by decide)).trans <|
  (W25_keep m ρ c main_arg28 (by decide)).trans <|
  (W24_keep m ρ c main_arg28 (by decide)).trans <|
  (W23_keep m ρ c main_arg28 (by decide)).trans <|
  (W22_keep m ρ c main_arg28 (by decide)).trans <|
  (W21_keep m ρ c main_arg28 (by decide)).trans <|
  (W20_keep m ρ c main_arg28 (by decide)).trans <|
  (W19_keep m ρ c main_arg28 (by decide)).trans <|
  (W18_keep m ρ c main_arg28 (by decide)).trans <|
  (W17_keep m ρ c main_arg28 (by decide)).trans <|
  (W16_keep m ρ c main_arg28 (by decide)).trans <|
  (W15_keep m ρ c main_arg28 (by decide)).trans <|
  (W14_keep m ρ c main_arg28 (by decide)).trans <|
  (W13_keep m ρ c main_arg28 (by decide)).trans <|
  (W12_keep m ρ c main_arg28 (by decide)).trans <|
  (W11_keep m ρ c main_arg28 (by decide)).trans <|
  (W10_keep m ρ c main_arg28 (by decide)).trans <|
  (W9_keep m ρ c main_arg28 (by decide)).trans <|
  (W8_keep m ρ c main_arg28 (by decide)).trans <|
  (W7_keep m ρ c main_arg28 (by decide)).trans <|
  (W6_keep m ρ c main_arg28 (by decide)).trans <|
  (W5_keep m ρ c main_arg28 (by decide)).trans <|
  (W4_keep m ρ c main_arg28 (by decide)).trans <|
  (W3_keep m ρ c main_arg28 (by decide)).trans <|
  (W2_keep m ρ c main_arg28 (by decide)).trans <|
  (W1_keep m ρ c main_arg28 (by decide)).trans rfl

end Cert.KernelIdeal.Reg

end
-- ==== Proof.KI.Frame.lean ====
import proofs.«101828_j11562051961417_2_alg».proof.Proof.KI.Run
import proofs.«101828_j11562051961417_2_alg».proof.Proof.KI.Keep

set_option maxRecDepth 16384

noncomputable section

namespace Cert.KernelIdeal.Reg

open Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The frame, at any instance: every weakly fair execution of @main terminates without a fault and every argument
    array ends as launched — each final buffer is the last boundary's, and no segment of @main writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c =>
    ⟨(h c _ (mem_uc main_arg0 (by decide))).trans (W109_main_arg0 m ρ c),
     (h c _ (mem_uc main_arg1 (by decide))).trans (W109_main_arg1 m ρ c),
     (h c _ (mem_uc main_arg2 (by decide))).trans (W109_main_arg2 m ρ c),
     (h c _ (mem_uc main_arg3 (by decide))).trans (W109_main_arg3 m ρ c),
     (h c _ (mem_uc main_arg4 (by decide))).trans (W109_main_arg4 m ρ c),
     (h c _ (mem_uc main_arg5 (by decide))).trans (W109_main_arg5 m ρ c),
     (h c _ (mem_uc main_arg6 (by decide))).trans (W109_main_arg6 m ρ c),
     (h c _ (mem_uc main_arg7 (by decide))).trans (W109_main_arg7 m ρ c),
     (h c _ (mem_uc main_arg8 (by decide))).trans (W109_main_arg8 m ρ c),
     (h c _ (mem_uc main_arg9 (by decide))).trans (W109_main_arg9 m ρ c),
     (h c _ (mem_uc main_arg10 (by decide))).trans (W109_main_arg10 m ρ c),
     (h c _ (mem_uc main_arg11 (by decide))).trans (W109_main_arg11 m ρ c),
     (h c _ (mem_uc main_arg12 (by decide))).trans (W109_main_arg12 m ρ c),
     (h c _ (mem_uc main_arg13 (by decide))).trans (W109_main_arg13 m ρ c),
     (h c _ (mem_uc main_arg14 (by decide))).trans (W109_main_arg14 m ρ c),
     (h c _ (mem_uc main_arg15 (by decide))).trans (W109_main_arg15 m ρ c),
     (h c _ (mem_uc main_arg16 (by decide))).trans (W109_main_arg16 m ρ c),
     (h c _ (mem_uc main_arg17 (by decide))).trans (W109_main_arg17 m ρ c),
     (h c _ (mem_uc main_arg18 (by decide))).trans (W109_main_arg18 m ρ c),
     (h c _ (mem_uc main_arg19 (by decide))).trans (W109_main_arg19 m ρ c),
     (h c _ (mem_uc main_arg20 (by decide))).trans (W109_main_arg20 m ρ c),
     (h c _ (mem_uc main_arg21 (by decide))).trans (W109_main_arg21 m ρ c),
     (h c _ (mem_uc main_arg22 (by decide))).trans (W109_main_arg22 m ρ c),
     (h c _ (mem_uc main_arg23 (by decide))).trans (W109_main_arg23 m ρ c),
     (h c _ (mem_uc main_arg24 (by decide))).trans (W109_main_arg24 m ρ c),
     (h c _ (mem_uc main_arg25 (by decide))).trans (W109_main_arg25 m ρ c),
     (h c _ (mem_uc main_arg26 (by decide))).trans (W109_main_arg26 m ρ c),
     (h c _ (mem_uc main_arg27 (by decide))).trans (W109_main_arg27 m ρ c),
     (h c _ (mem_uc main_arg28 (by decide))).trans (W109_main_arg28 m ρ c)⟩) (run_all m ρ)

/-- The same run with the result buffer named: it ends at the last boundary's contents. -/
theorem run_value : θ_run defs (onTc (τ := τ) (main (F := F))) ⟨m, fun _ => 0, ρ⟩ (fun r => ∀ c : Dev nD,
      r.2.mem ((c.tc : Thread nD τ).loc main_v424) = W109 m ρ c (Proc.devRef .tc main_v424)
      ∧ (
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))) :=
  (θ_run defs _ _).mono (fun r h c =>
    ⟨h c _ (mem_uc main_v424 (by decide)),
     (h c _ (mem_uc main_arg0 (by decide))).trans (W109_main_arg0 m ρ c),
     (h c _ (mem_uc main_arg1 (by decide))).trans (W109_main_arg1 m ρ c),
     (h c _ (mem_uc main_arg2 (by decide))).trans (W109_main_arg2 m ρ c),
     (h c _ (mem_uc main_arg3 (by decide))).trans (W109_main_arg3 m ρ c),
     (h c _ (mem_uc main_arg4 (by decide))).trans (W109_main_arg4 m ρ c),
     (h c _ (mem_uc main_arg5 (by decide))).trans (W109_main_arg5 m ρ c),
     (h c _ (mem_uc main_arg6 (by decide))).trans (W109_main_arg6 m ρ c),
     (h c _ (mem_uc main_arg7 (by decide))).trans (W109_main_arg7 m ρ c),
     (h c _ (mem_uc main_arg8 (by decide))).trans (W109_main_arg8 m ρ c),
     (h c _ (mem_uc main_arg9 (by decide))).trans (W109_main_arg9 m ρ c),
     (h c _ (mem_uc main_arg10 (by decide))).trans (W109_main_arg10 m ρ c),
     (h c _ (mem_uc main_arg11 (by decide))).trans (W109_main_arg11 m ρ c),
     (h c _ (mem_uc main_arg12 (by decide))).trans (W109_main_arg12 m ρ c),
     (h c _ (mem_uc main_arg13 (by decide))).trans (W109_main_arg13 m ρ c),
     (h c _ (mem_uc main_arg14 (by decide))).trans (W109_main_arg14 m ρ c),
     (h c _ (mem_uc main_arg15 (by decide))).trans (W109_main_arg15 m ρ c),
     (h c _ (mem_uc main_arg16 (by decide))).trans (W109_main_arg16 m ρ c),
     (h c _ (mem_uc main_arg17 (by decide))).trans (W109_main_arg17 m ρ c),
     (h c _ (mem_uc main_arg18 (by decide))).trans (W109_main_arg18 m ρ c),
     (h c _ (mem_uc main_arg19 (by decide))).trans (W109_main_arg19 m ρ c),
     (h c _ (mem_uc main_arg20 (by decide))).trans (W109_main_arg20 m ρ c),
     (h c _ (mem_uc main_arg21 (by decide))).trans (W109_main_arg21 m ρ c),
     (h c _ (mem_uc main_arg22 (by decide))).trans (W109_main_arg22 m ρ c),
     (h c _ (mem_uc main_arg23 (by decide))).trans (W109_main_arg23 m ρ c),
     (h c _ (mem_uc main_arg24 (by decide))).trans (W109_main_arg24 m ρ c),
     (h c _ (mem_uc main_arg25 (by decide))).trans (W109_main_arg25 m ρ c),
     (h c _ (mem_uc main_arg26 (by decide))).trans (W109_main_arg26 m ρ c),
     (h c _ (mem_uc main_arg27 (by decide))).trans (W109_main_arg27 m ρ c),
     (h c _ (mem_uc main_arg28 (by decide))).trans (W109_main_arg28 m ρ c)⟩) (run_all m ρ)

end Cert.KernelIdeal.Reg

end
-- ==== Proof.LibSeq.lean ====
/- Lines of host operations cut in pieces.

   A line of operations run from contents V leaves the contents `after ops V`: the fold of the operations' results.
   Running a line that is two lines one after the other is running the first and then the second from what the
   first left; a property every operation of both lines has is a property of every operation of the whole. -/
import Idealize.ShloMosaic.Lib.StableHlo.Run

namespace Cert.LibSeq

open Idealize.ShloMosaic Idealize.ShloMosaic.StableHlo

variable {τ : Topo} {sig : RefSig} {Val : EltTy → Type}

/-- The contents after two lines in a row: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every operation of two lines holds of every operation of their concatenation. -/
theorem forall_append {p : HloOp τ sig Val → Prop} {l₁ l₂ : List (HloOp τ sig Val)}
    (h₁ : l₁.Forall p) (h₂ : l₂.Forall p) : (l₁ ++ l₂).Forall p :=
  List.forall_append.mpr ⟨h₁, h₂⟩

/-- If no operation of either line leaves a buffer undetermined, none of the concatenation does. -/
theorem fresh_append {l₁ l₂ : List (HloOp τ sig Val)}
    (h₁ : ∀ op ∈ l₁, op.fresh = ∅) (h₂ : ∀ op ∈ l₂, op.fresh = ∅) : ∀ op ∈ l₁ ++ l₂, op.fresh = ∅ :=
  fun op h => (List.mem_append.mp h).elim (h₁ op) (h₂ op)

/-- A reference outside two lists is outside their concatenation. -/
theorem not_mem_append {α : Type} {r : α} {A B : List α} (hA : r ∉ A) (hB : r ∉ B) : r ∉ A ++ B :=
  fun h => (List.mem_append.mp h).elim hA hB

/-! ## An operation of three operands

The result of a three-operand operation with each operand's contents at its own reference (the library has the
four-operand form), so that the operands' own contents go on being rewritten under it. -/

theorem nary3_result {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The same with the result's reference out of the index, for one rewriting pass over a whole line. -/
theorem nary3_result' {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- The results of a line in one pass, a line cut in pieces included, with the three-operand form above. -/
macro "after_results_nary3" : tactic =>
  `(tactic| (simp (disch := decide) only [Cert.LibSeq.after_append, Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.reshape_result', Cert.LibSeq.nary3_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.reshape_result_ne', Idealize.ShloMosaic.StableHlo.nary_result_ne']))

end Cert.LibSeq
-- ==== Proof.RefOps0.lean ====
import proofs.«101828_j11562051961417_2_alg».proof.Proof.Gen.ReferenceIdeal
import proofs.«101828_j11562051961417_2_alg».proof.Proof.LibSeq
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 0 … 59 of @main (counted from 0), in order. -/
abbrev refP0 : List (HloOp τ sig (Elt F)) :=
  [ nullary main_cst (constant S_ .f32 0x00000000#32),
    unary main_cst main_v0 (broadcastInDim S256x256x128 ![] bcast_S_S256x256x128 : (⟨S_, .f32⟩ : BufTy).Contents (Elt F) → (⟨S256x256x128, .f32⟩ : BufTy).Contents (Elt F)),
    nullary main_c (constantI S_ 32 0#32),
    unary main_c main_v1 (broadcastInDim S131072 ![] bcast_S_S131072 : (⟨S_, .i32⟩ : BufTy).Contents (Elt F) → (⟨S131072, .i32⟩ : BufTy).Contents (Elt F)),
    binary main_arg11 main_v1 main_v2 (cmpi .slt : (⟨S131072, .i32⟩ : BufTy).Contents (Elt F) → (⟨S131072, .i32⟩ : BufTy).Contents (Elt F) → (⟨S131072, .i1⟩ : BufTy).Contents (Elt F)),
    nullary main_c_0 (constantI S_ 32 256#32),
    unary main_c_0 main_v3 (broadcastInDim S131072 ![] bcast_S_S131072 : (⟨S_, .i32⟩ : BufTy).Contents (Elt F) → (⟨S131072, .i32⟩ : BufTy).Contents (Elt F)),
    binary main_arg11 main_v3 main_v4 (addi : (⟨S131072, .i32⟩ : BufTy).Contents (Elt F) → (⟨S131072, .i32⟩ : BufTy).Contents (Elt F) → (⟨S131072, .i32⟩ : BufTy).Contents (Elt F)),
    ternary main_v2 main_v4 main_arg11 main_v5 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    nullary main_c_1 (constantI S_ 32 0#32),
    unary main_c_1 main_v6 (broadcastInDim S131072 ![] bcast_S_S131072 : (⟨S_, .i32⟩ : BufTy).Contents (Elt F) → (⟨S131072, .i32⟩ : BufTy).Contents (Elt F)),
    binary main_arg12 main_v6 main_v7 (cmpi .slt : (⟨S131072, .i32⟩ : BufTy).Contents (Elt F) → (⟨S131072, .i32⟩ : BufTy).Contents (Elt F) → (⟨S131072, .i1⟩ : BufTy).Contents (Elt F)),
    nullary main_c_2 (constantI S_ 32 256#32),
    unary main_c_2 main_v8 (broadcastInDim S131072 ![] bcast_S_S131072 : (⟨S_, .i32⟩ : BufTy).Contents (Elt F) → (⟨S131072, .i32⟩ : BufTy).Contents (Elt F)),
    binary main_arg12 main_v8 main_v9 (addi : (⟨S131072, .i32⟩ : BufTy).Contents (Elt F) → (⟨S131072, .i32⟩ : BufTy).Contents (Elt F) → (⟨S131072, .i32⟩ : BufTy).Contents (Elt F)),
    ternary main_v7 main_v9 main_arg12 main_v10 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    nullary main_c_3 (constantI S_ 32 0#32),
    unary main_c_3 main_v11 (broadcastInDim S131072 ![] bcast_S_S131072 : (⟨S_, .i32⟩ : BufTy).Contents (Elt F) → (⟨S131072, .i32⟩ : BufTy).Contents (Elt F)),
    binary main_arg13 main_v11 main_v12 (cmpi .slt : (⟨S131072, .i32⟩ : BufTy).Contents (Elt F) → (⟨S131072, .i32⟩ : BufTy).Contents (Elt F) → (⟨S131072, .i1⟩ : BufTy).Contents (Elt F)),
    nullary main_c_4 (constantI S_ 32 128#32),
    unary main_c_4 main_v13 (broadcastInDim S131072 ![] bcast_S_S131072 : (⟨S_, .i32⟩ : BufTy).Contents (Elt F) → (⟨S131072, .i32⟩ : BufTy).Contents (Elt F)),
    binary main_arg13 main_v13 main_v14 (addi : (⟨S131072, .i32⟩ : BufTy).Contents (Elt F) → (⟨S131072, .i32⟩ : BufTy).Contents (Elt F) → (⟨S131072, .i32⟩ : BufTy).Contents (Elt F)),
    ternary main_v12 main_v14 main_arg13 main_v15 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v5 main_v16 (broadcastInDim S131072x1 ![0] bcast_S131072_S131072x1_0 : (⟨S131072, .i32⟩ : BufTy).Contents (Elt F) → (⟨S131072x1, .i32⟩ : BufTy).Contents (Elt F)),
    unary main_v10 main_v17 (broadcastInDim S131072x1 ![0] bcast_S131072_S131072x1_0 : (⟨S131072, .i32⟩ : BufTy).Contents (Elt F) → (⟨S131072x1, .i32⟩ : BufTy).Contents (Elt F)),
    unary main_v15 main_v18 (broadcastInDim S131072x1 ![0] bcast_S131072_S131072x1_0 : (⟨S131072, .i32⟩ : BufTy).Contents (Elt F) → (⟨S131072x1, .i32⟩ : BufTy).Contents (Elt F)),
    nary ![main_v16, main_v17, main_v18] main_v19 (fun u => concatenate S131072x3 1 [⟨S131072x1, u 0⟩, ⟨S131072x1, u 1⟩, ⟨S131072x1, u 2⟩] concatenates_S131072x1_S131072x1_S131072x1_S131072x3_d1),
    nullary main_cst_5 (constant S_ .f32 0x3F800000#32),
    unary main_cst_5 main_v20 (broadcastInDim S131072 ![] bcast_S_S131072 : (⟨S_, .f32⟩ : BufTy).Contents (Elt F) → (⟨S131072, .f32⟩ : BufTy).Contents (Elt F)),
    ternary main_v0 main_v19 main_v20 main_v21 ((fun x i u => Host.scatter scatter_S256x256x128_S131072x3_S131072_n_012_012_1 (fun _ b => b) x i u) : (⟨S256x256x128, .f32⟩ : BufTy).Contents (Elt F) → (⟨S131072x3, .i32⟩ : BufTy).Contents (Elt F) → (⟨S131072, .f32⟩ : BufTy).Contents (Elt F) → (⟨S256x256x128, .f32⟩ : BufTy).Contents (Elt F)),
    nullary main_cst_6 (constant S_ .f32 0x00000000#32),
    unary main_cst_6 main_v22 (broadcastInDim S256x64x256 ![] bcast_S_S256x64x256 : (⟨S_, .f32⟩ : BufTy).Contents (Elt F) → (⟨S256x64x256, .f32⟩ : BufTy).Contents (Elt F)),
    nullary main_c_7 (constantI S_ 32 0#32),
    unary main_c_7 main_v23 (broadcastInDim S65536 ![] bcast_S_S65536 : (⟨S_, .i32⟩ : BufTy).Contents (Elt F) → (⟨S65536, .i32⟩ : BufTy).Contents (Elt F)),
    binary main_arg14 main_v23 main_v24 (cmpi .slt : (⟨S65536, .i32⟩ : BufTy).Contents (Elt F) → (⟨S65536, .i32⟩ : BufTy).Contents (Elt F) → (⟨S65536, .i1⟩ : BufTy).Contents (Elt F)),
    nullary main_c_8 (constantI S_ 32 256#32),
    unary main_c_8 main_v25 (broadcastInDim S65536 ![] bcast_S_S65536 : (⟨S_, .i32⟩ : BufTy).Contents (Elt F) → (⟨S65536, .i32⟩ : BufTy).Contents (Elt F)),
    binary main_arg14 main_v25 main_v26 (addi : (⟨S65536, .i32⟩ : BufTy).Contents (Elt F) → (⟨S65536, .i32⟩ : BufTy).Contents (Elt F) → (⟨S65536, .i32⟩ : BufTy).Contents (Elt F)),
    ternary main_v24 main_v26 main_arg14 main_v27 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    nullary main_c_9 (constantI S_ 32 0#32),
    unary main_c_9 main_v28 (broadcastInDim S65536 ![] bcast_S_S65536 : (⟨S_, .i32⟩ : BufTy).Contents (Elt F) → (⟨S65536, .i32⟩ : BufTy).Contents (Elt F)),
    binary main_arg15 main_v28 main_v29 (cmpi .slt : (⟨S65536, .i32⟩ : BufTy).Contents (Elt F) → (⟨S65536, .i32⟩ : BufTy).Contents (Elt F) → (⟨S65536, .i1⟩ : BufTy).Contents (Elt F)),
    nullary main_c_10 (constantI S_ 32 64#32),
    unary main_c_10 main_v30 (broadcastInDim S65536 ![] bcast_S_S65536 : (⟨S_, .i32⟩ : BufTy).Contents (Elt F) → (⟨S65536, .i32⟩ : BufTy).Contents (Elt F)),
    binary main_arg15 main_v30 main_v31 (addi : (⟨S65536, .i32⟩ : BufTy).Contents (Elt F) → (⟨S65536, .i32⟩ : BufTy).Contents (Elt F) → (⟨S65536, .i32⟩ : BufTy).Contents (Elt F)),
    ternary main_v29 main_v31 main_arg15 main_v32 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    nullary main_c_11 (constantI S_ 32 0#32),
    unary main_c_11 main_v33 (broadcastInDim S65536 ![] bcast_S_S65536 : (⟨S_, .i32⟩ : BufTy).Contents (Elt F) → (⟨S65536, .i32⟩ : BufTy).Contents (Elt F)),
    binary main_arg16 main_v33 main_v34 (cmpi .slt : (⟨S65536, .i32⟩ : BufTy).Contents (Elt F) → (⟨S65536, .i32⟩ : BufTy).Contents (Elt F) → (⟨S65536, .i1⟩ : BufTy).Contents (Elt F)),
    nullary main_c_12 (constantI S_ 32 256#32),
    unary main_c_12 main_v35 (broadcastInDim S65536 ![] bcast_S_S65536 : (⟨S_, .i32⟩ : BufTy).Contents (Elt F) → (⟨S65536, .i32⟩ : BufTy).Contents (Elt F)),
    binary main_arg16 main_v35 main_v36 (addi : (⟨S65536, .i32⟩ : BufTy).Contents (Elt F) → (⟨S65536, .i32⟩ : BufTy).Contents (Elt F) → (⟨S65536, .i32⟩ : BufTy).Contents (Elt F)),
    ternary main_v34 main_v36 main_arg16 main_v37 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v27 main_v38 (broadcastInDim S65536x1 ![0] bcast_S65536_S65536x1_0 : (⟨S65536, .i32⟩ : BufTy).Contents (Elt F) → (⟨S65536x1, .i32⟩ : BufTy).Contents (Elt F)),
    unary main_v32 main_v39 (broadcastInDim S65536x1 ![0] bcast_S65536_S65536x1_0 : (⟨S65536, .i32⟩ : BufTy).Contents (Elt F) → (⟨S65536x1, .i32⟩ : BufTy).Contents (Elt F)),
    unary main_v37 main_v40 (broadcastInDim S65536x1 ![0] bcast_S65536_S65536x1_0 : (⟨S65536, .i32⟩ : BufTy).Contents (Elt F) → (⟨S65536x1, .i32⟩ : BufTy).Contents (Elt F)),
    nary ![main_v38, main_v39, main_v40] main_v41 (fun u => concatenate S65536x3 1 [⟨S65536x1, u 0⟩, ⟨S65536x1, u 1⟩, ⟨S65536x1, u 2⟩] concatenates_S65536x1_S65536x1_S65536x1_S65536x3_d1),
    nullary main_cst_13 (constant S_ .f32 0x3F800000#32),
    unary main_cst_13 main_v42 (broadcastInDim S65536 ![] bcast_S_S65536 : (⟨S_, .f32⟩ : BufTy).Contents (Elt F) → (⟨S65536, .f32⟩ : BufTy).Contents (Elt F)),
    ternary main_v22 main_v41 main_v42 main_v43 ((fun x i u => Host.scatter scatter_S256x64x256_S65536x3_S65536_n_012_012_1 (fun _ b => b) x i u) : (⟨S256x64x256, .f32⟩ : BufTy).Contents (Elt F) → (⟨S65536x3, .i32⟩ : BufTy).Contents (Elt F) → (⟨S65536, .f32⟩ : BufTy).Contents (Elt F) → (⟨S256x64x256, .f32⟩ : BufTy).Contents (Elt F)) ]
/-- Each touches TensorCore references only. -/
theorem refP0_sub : (refP0 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., nullary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., nullary_bufs_sub .., unary_bufs_sub .., ternary_bufs_sub ..⟩
/-- None leaves a buffer undetermined. -/
theorem refP0_fresh : ∀ op ∈ (refP0 : List (HloOp τ sig (Elt F))), op.fresh = ∅ := by
  intro _ h; (repeat (cases h with | head => rfl | tail _ h => ?_)); exact nomatch h
/-- The references these operations write. -/
abbrev refP0_W : List (Ref sig .tc) := [main_cst, main_v0, main_c, main_v1, main_v2, main_c_0, main_v3, main_v4, main_v5, main_c_1, main_v6, main_v7, main_c_2, main_v8, main_v9, main_v10, main_c_3, main_v11, main_v12, main_c_4, main_v13, main_v14, main_v15, main_v16, main_v17, main_v18, main_v19, main_cst_5, main_v20, main_v21, main_cst_6, main_v22, main_c_7, main_v23, main_v24, main_c_8, main_v25, main_v26, main_v27, main_c_9, main_v28, main_v29, main_c_10, main_v30, main_v31, main_v32, main_c_11, main_v33, main_v34, main_c_12, main_v35, main_v36, main_v37, main_v38, main_v39, main_v40, main_v41, main_cst_13, main_v42, main_v43]
set_option maxHeartbeats 4000000 in
theorem refP0_writes : (refP0 : List (HloOp τ sig (Elt F))).Forall fun op => op.writes ⊆ (refP0_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- A reference these operations do not write keeps its contents. -/
theorem refP0_keep (V : Valuation τ sig (Elt F)) (r : Ref sig .tc) (h : r ∉ refP0_W) : after refP0 V (Proc.devRef .tc r) = V (Proc.devRef .tc r) :=
  after_of_writes_sub refP0 V refP0_writes h

set_option maxHeartbeats 4000000 in
/-- Operations 60 … 83 of @main (counted from 0), in order. -/
abbrev refP1 : List (HloOp τ sig (Elt F)) :=
  [ nullary main_c_14 (constantI S_ 32 128#32),
    unary main_c_14 main_v44 (broadcastInDim S131072 ![] bcast_S_S131072 : (⟨S_, .i32⟩ : BufTy).Contents (Elt F) → (⟨S131072, .i32⟩ : BufTy).Contents (Elt F)),
    binary main_arg3 main_v44 main_v45 (muli : (⟨S131072, .i32⟩ : BufTy).Contents (Elt F) → (⟨S131072, .i32⟩ : BufTy).Contents (Elt F) → (⟨S131072, .i32⟩ : BufTy).Contents (Elt F)),
    binary main_v45 main_arg4 main_v46 (addi : (⟨S131072, .i32⟩ : BufTy).Contents (Elt F) → (⟨S131072, .i32⟩ : BufTy).Contents (Elt F) → (⟨S131072, .i32⟩ : BufTy).Contents (Elt F)),
    nullary main_c_15 (constantI S_ 32 128#32),
    unary main_c_15 main_v47 (broadcastInDim S131072 ![] bcast_S_S131072 : (⟨S_, .i32⟩ : BufTy).Contents (Elt F) → (⟨S131072, .i32⟩ : BufTy).Contents (Elt F)),
    binary main_arg3 main_v47 main_v48 (muli : (⟨S131072, .i32⟩ : BufTy).Contents (Elt F) → (⟨S131072, .i32⟩ : BufTy).Contents (Elt F) → (⟨S131072, .i32⟩ : BufTy).Contents (Elt F)),
    binary main_v48 main_arg5 main_v49 (addi : (⟨S131072, .i32⟩ : BufTy).Contents (Elt F) → (⟨S131072, .i32⟩ : BufTy).Contents (Elt F) → (⟨S131072, .i32⟩ : BufTy).Contents (Elt F)),
    nullary main_c_16 (constantI S_ 32 256#32),
    unary main_c_16 main_v50 (broadcastInDim S131072 ![] bcast_S_S131072 : (⟨S_, .i32⟩ : BufTy).Contents (Elt F) → (⟨S131072, .i32⟩ : BufTy).Contents (Elt F)),
    binary main_arg3 main_v50 main_v51 (muli : (⟨S131072, .i32⟩ : BufTy).Contents (Elt F) → (⟨S131072, .i32⟩ : BufTy).Contents (Elt F) → (⟨S131072, .i32⟩ : BufTy).Contents (Elt F)),
    binary main_v51 main_arg6 main_v52 (addi : (⟨S131072, .i32⟩ : BufTy).Contents (Elt F) → (⟨S131072, .i32⟩ : BufTy).Contents (Elt F) → (⟨S131072, .i32⟩ : BufTy).Contents (Elt F)),
    nullary main_c_17 (constantI S_ 32 256#32),
    unary main_c_17 main_v53 (broadcastInDim S98304 ![] bcast_S_S98304 : (⟨S_, .i32⟩ : BufTy).Contents (Elt F) → (⟨S98304, .i32⟩ : BufTy).Contents (Elt F)),
    binary main_arg7 main_v53 main_v54 (muli : (⟨S98304, .i32⟩ : BufTy).Contents (Elt F) → (⟨S98304, .i32⟩ : BufTy).Contents (Elt F) → (⟨S98304, .i32⟩ : BufTy).Contents (Elt F)),
    binary main_v54 main_arg8 main_v55 (addi : (⟨S98304, .i32⟩ : BufTy).Contents (Elt F) → (⟨S98304, .i32⟩ : BufTy).Contents (Elt F) → (⟨S98304, .i32⟩ : BufTy).Contents (Elt F)),
    nullary main_c_18 (constantI S_ 32 256#32),
    unary main_c_18 main_v56 (broadcastInDim S98304 ![] bcast_S_S98304 : (⟨S_, .i32⟩ : BufTy).Contents (Elt F) → (⟨S98304, .i32⟩ : BufTy).Contents (Elt F)),
    binary main_arg7 main_v56 main_v57 (muli : (⟨S98304, .i32⟩ : BufTy).Contents (Elt F) → (⟨S98304, .i32⟩ : BufTy).Contents (Elt F) → (⟨S98304, .i32⟩ : BufTy).Contents (Elt F)),
    binary main_v57 main_arg9 main_v58 (addi : (⟨S98304, .i32⟩ : BufTy).Contents (Elt F) → (⟨S98304, .i32⟩ : BufTy).Contents (Elt F) → (⟨S98304, .i32⟩ : BufTy).Contents (Elt F)),
    nullary main_c_19 (constantI S_ 32 64#32),
    unary main_c_19 main_v59 (broadcastInDim S98304 ![] bcast_S_S98304 : (⟨S_, .i32⟩ : BufTy).Contents (Elt F) → (⟨S98304, .i32⟩ : BufTy).Contents (Elt F)),
    binary main_arg7 main_v59 main_v60 (muli : (⟨S98304, .i32⟩ : BufTy).Contents (Elt F) → (⟨S98304, .i32⟩ : BufTy).Contents (Elt F) → (⟨S98304, .i32⟩ : BufTy).Contents (Elt F)),
    binary main_v60 main_arg10 main_v61 (addi : (⟨S98304, .i32⟩ : BufTy).Contents (Elt F) → (⟨S98304, .i32⟩ : BufTy).Contents (Elt F) → (⟨S98304, .i32⟩ : BufTy).Contents (Elt F)) ]
/-- Each touches TensorCore references only. -/
theorem refP1_sub : (refP1 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub ..⟩
/-- None leaves a buffer undetermined. -/
theorem refP1_fresh : ∀ op ∈ (refP1 : List (HloOp τ sig (Elt F))), op.fresh = ∅ := by
  intro _ h; (repeat (cases h with | head => rfl | tail _ h => ?_)); exact nomatch h
/-- The references these operations write. -/
abbrev refP1_W : List (Ref sig .tc) := [main_c_14, main_v44, main_v45, main_v46, main_c_15, main_v47, main_v48, main_v49, main_c_16, main_v50, main_v51, main_v52, main_c_17, main_v53, main_v54, main_v55, main_c_18, main_v56, main_v57, main_v58, main_c_19, main_v59, main_v60, main_v61]
set_option maxHeartbeats 4000000 in
theorem refP1_writes : (refP1 : List (HloOp τ sig (Elt F))).Forall fun op => op.writes ⊆ (refP1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- A reference these operations do not write keeps its contents. -/
theorem refP1_keep (V : Valuation τ sig (Elt F)) (r : Ref sig .tc) (h : r ∉ refP1_W) : after refP1 V (Proc.devRef .tc r) = V (Proc.devRef .tc r) :=
  after_of_writes_sub refP1 V refP1_writes h

/-- Chunk 0 of @main: what is computed once before the first layer: the flat row numbers and the two incidence arrays. Operations 0 … 83. -/
abbrev refC0 : List (HloOp τ sig (Elt F)) := refP0 ++ refP1
abbrev refC0_W : List (Ref sig .tc) := refP0_W ++ refP1_W
theorem refC0_sub : (refC0 : List (HloOp τ sig (Elt F))).Forall fun op => op.bufs ⊆ tcRefs τ sig :=
  Cert.LibSeq.forall_append refP0_sub refP1_sub
theorem refC0_fresh : ∀ op ∈ (refC0 : List (HloOp τ sig (Elt F))), op.fresh = ∅ :=
  Cert.LibSeq.fresh_append refP0_fresh refP1_fresh
/-- A reference the chunk does not write keeps its contents over it. -/
theorem refC0_keep (V : Valuation τ sig (Elt F)) (r : Ref sig .tc) (h : r ∉ refC0_W) : after refC0 V (Proc.devRef .tc r) = V (Proc.devRef .tc r) := by
  simp only [Cert.LibSeq.after_append]
  simp only [List.mem_append, not_or] at h
  obtain ⟨h0, h1⟩ := h
  rw [refP1_keep _ r h1, refP0_keep _ r h0]

end Cert.ReferenceIdeal.Hand

end
-- ==== Proof.RefOps1.lean ====
import proofs.«101828_j11562051961417_2_alg».proof.Proof.Gen.ReferenceIdeal
import proofs.«101828_j11562051961417_2_alg».proof.Proof.LibSeq
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 84 … 121 of @main (counted from 0), in order. -/
abbrev refP2 : List (HloOp τ sig (Elt F)) :=
  [ nullary main_c_20 (constantI S_ 32 0#32),
    unary main_c_20 main_v62 (broadcastInDim S131072 ![] bcast_S_S131072 : (⟨S_, .i32⟩ : BufTy).Contents (Elt F) → (⟨S131072, .i32⟩ : BufTy).Contents (Elt F)),
    binary main_v49 main_v62 main_v63 (cmpi .slt : (⟨S131072, .i32⟩ : BufTy).Contents (Elt F) → (⟨S131072, .i32⟩ : BufTy).Contents (Elt F) → (⟨S131072, .i1⟩ : BufTy).Contents (Elt F)),
    nullary main_c_21 (constantI S_ 32 32768#32),
    unary main_c_21 main_v64 (broadcastInDim S131072 ![] bcast_S_S131072 : (⟨S_, .i32⟩ : BufTy).Contents (Elt F) → (⟨S131072, .i32⟩ : BufTy).Contents (Elt F)),
    binary main_v49 main_v64 main_v65 (addi : (⟨S131072, .i32⟩ : BufTy).Contents (Elt F) → (⟨S131072, .i32⟩ : BufTy).Contents (Elt F) → (⟨S131072, .i32⟩ : BufTy).Contents (Elt F)),
    ternary main_v63 main_v65 main_v49 main_v66 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v66 main_v67 (broadcastInDim S131072x1 ![0] bcast_S131072_S131072x1_0 : (⟨S131072, .i32⟩ : BufTy).Contents (Elt F) → (⟨S131072x1, .i32⟩ : BufTy).Contents (Elt F)),
    binary main_arg0 main_v67 main_v68 ((fun x i => Host.gather gather_S32768x256_S131072x1_S131072x256_1_0_n_n_0_1_1256 x i) : (⟨S32768x256, .f32⟩ : BufTy).Contents (Elt F) → (⟨S131072x1, .i32⟩ : BufTy).Contents (Elt F) → (⟨S131072x256, .f32⟩ : BufTy).Contents (Elt F)),
    unary main_arg19 main_v69 ((extractStridedSlice S1x1x256x256 ![0, 0, 0, 0] · slices_S4x2x256x256_S1x1x256x256_0_0_0_0) : (⟨S4x2x256x256, .f32⟩ : BufTy).Contents (Elt F) → (⟨S1x1x256x256, .f32⟩ : BufTy).Contents (Elt F)),
    reshape main_v69 main_v70 rfl shapeCasts_S1x1x256x256_S256x256,
    binary main_v68 main_v70 main_v71 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    nullary main_c_22 (constantI S_ 32 0#32),
    unary main_c_22 main_v72 (broadcastInDim S131072 ![] bcast_S_S131072 : (⟨S_, .i32⟩ : BufTy).Contents (Elt F) → (⟨S131072, .i32⟩ : BufTy).Contents (Elt F)),
    binary main_v52 main_v72 main_v73 (cmpi .slt : (⟨S131072, .i32⟩ : BufTy).Contents (Elt F) → (⟨S131072, .i32⟩ : BufTy).Contents (Elt F) → (⟨S131072, .i1⟩ : BufTy).Contents (Elt F)),
    nullary main_c_23 (constantI S_ 32 65536#32),
    unary main_c_23 main_v74 (broadcastInDim S131072 ![] bcast_S_S131072 : (⟨S_, .i32⟩ : BufTy).Contents (Elt F) → (⟨S131072, .i32⟩ : BufTy).Contents (Elt F)),
    binary main_v52 main_v74 main_v75 (addi : (⟨S131072, .i32⟩ : BufTy).Contents (Elt F) → (⟨S131072, .i32⟩ : BufTy).Contents (Elt F) → (⟨S131072, .i32⟩ : BufTy).Contents (Elt F)),
    ternary main_v73 main_v75 main_v52 main_v76 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v76 main_v77 (broadcastInDim S131072x1 ![0] bcast_S131072_S131072x1_0 : (⟨S131072, .i32⟩ : BufTy).Contents (Elt F) → (⟨S131072x1, .i32⟩ : BufTy).Contents (Elt F)),
    binary main_arg1 main_v77 main_v78 ((fun x i => Host.gather gather_S65536x256_S131072x1_S131072x256_1_0_n_n_0_1_1256 x i) : (⟨S65536x256, .f32⟩ : BufTy).Contents (Elt F) → (⟨S131072x1, .i32⟩ : BufTy).Contents (Elt F) → (⟨S131072x256, .f32⟩ : BufTy).Contents (Elt F)),
    unary main_arg20 main_v79 ((extractStridedSlice S1x1x256x256 ![0, 0, 0, 0] · slices_S4x2x256x256_S1x1x256x256_0_0_0_0) : (⟨S4x2x256x256, .f32⟩ : BufTy).Contents (Elt F) → (⟨S1x1x256x256, .f32⟩ : BufTy).Contents (Elt F)),
    reshape main_v79 main_v80 rfl shapeCasts_S1x1x256x256_S256x256,
    binary main_v78 main_v80 main_v81 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    binary main_v71 main_v81 main_v82 (addf : (⟨S131072x256, .f32⟩ : BufTy).Contents (Elt F) → (⟨S131072x256, .f32⟩ : BufTy).Contents (Elt F) → (⟨S131072x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S131072x256, .f32⟩) main_call0_v0) (broadcastInDim S131072x256 ![] bcast_S_S131072x256),
    TRef.binary (TRef.of (T := ⟨S131072x256, .f32⟩) main_v82) (TRef.of (T := ⟨S131072x256, .f32⟩) main_call0_v0) (TRef.of (T := ⟨S131072x256, .f32⟩) main_v83) maximumf,
    nullary main_cst_24 (constant S_ .f32 0x00000000#32),
    unary main_cst_24 main_v84 (broadcastInDim S32768x256 ![] bcast_S_S32768x256 : (⟨S_, .f32⟩ : BufTy).Contents (Elt F) → (⟨S32768x256, .f32⟩ : BufTy).Contents (Elt F)),
    unary main_v46 main_v85 (broadcastInDim S131072x1 ![0] bcast_S131072_S131072x1_0 : (⟨S131072, .i32⟩ : BufTy).Contents (Elt F) → (⟨S131072x1, .i32⟩ : BufTy).Contents (Elt F)),
    ternary main_v84 main_v85 main_v83 main_v86 ((fun x i u => Host.scatterAdd scatter_S32768x256_S131072x1_S131072x256_1_0_0_1 x i u) : (⟨S32768x256, .f32⟩ : BufTy).Contents (Elt F) → (⟨S131072x1, .i32⟩ : BufTy).Contents (Elt F) → (⟨S131072x256, .f32⟩ : BufTy).Contents (Elt F) → (⟨S32768x256, .f32⟩ : BufTy).Contents (Elt F)),
    nullary main_c_25 (constantI S_ 32 0#32),
    unary main_c_25 main_v87 (broadcastInDim S98304 ![] bcast_S_S98304 : (⟨S_, .i32⟩ : BufTy).Contents (Elt F) → (⟨S98304, .i32⟩ : BufTy).Contents (Elt F)),
    binary main_v58 main_v87 main_v88 (cmpi .slt : (⟨S98304, .i32⟩ : BufTy).Contents (Elt F) → (⟨S98304, .i32⟩ : BufTy).Contents (Elt F) → (⟨S98304, .i1⟩ : BufTy).Contents (Elt F)),
    nullary main_c_26 (constantI S_ 32 65536#32),
    unary main_c_26 main_v89 (broadcastInDim S98304 ![] bcast_S_S98304 : (⟨S_, .i32⟩ : BufTy).Contents (Elt F) → (⟨S98304, .i32⟩ : BufTy).Contents (Elt F)),
    binary main_v58 main_v89 main_v90 (addi : (⟨S98304, .i32⟩ : BufTy).Contents (Elt F) → (⟨S98304, .i32⟩ : BufTy).Contents (Elt F) → (⟨S98304, .i32⟩ : BufTy).Contents (Elt F)) ]
/-- Each touches TensorCore references only. -/
theorem refP2_sub : (refP2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub ..⟩
/-- None leaves a buffer undetermined. -/
theorem refP2_fresh : ∀ op ∈ (refP2 : List (HloOp τ sig (Elt F))), op.fresh = ∅ := by
  intro _ h; (repeat (cases h with | head => rfl | tail _ h => ?_)); exact nomatch h
/-- The references these operations write. -/
abbrev refP2_W : List (Ref sig .tc) := [main_c_20, main_v62, main_v63, main_c_21, main_v64, main_v65, main_v66, main_v67, main_v68, main_v69, main_v70, main_v71, main_c_22, main_v72, main_v73, main_c_23, main_v74, main_v75, main_v76, main_v77, main_v78, main_v79, main_v80, main_v81, main_v82, main_call0_cst, main_call0_v0, main_v83, main_cst_24, main_v84, main_v85, main_v86, main_c_25, main_v87, main_v88, main_c_26, main_v89, main_v90]
set_option maxHeartbeats 4000000 in
theorem refP2_writes : (refP2 : List (HloOp τ sig (Elt F))).Forall fun op => op.writes ⊆ (refP2_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- A reference these operations do not write keeps its contents. -/
theorem refP2_keep (V : Valuation τ sig (Elt F)) (r : Ref sig .tc) (h : r ∉ refP2_W) : after refP2 V (Proc.devRef .tc r) = V (Proc.devRef .tc r) :=
  after_of_writes_sub refP2 V refP2_writes h

set_option maxHeartbeats 4000000 in
/-- Operations 122 … 187 of @main (counted from 0), in order. -/
abbrev refP3 : List (HloOp τ sig (Elt F)) :=
  [ ternary main_v88 main_v90 main_v58 main_v91 (select : (⟨S98304, .i1⟩ : BufTy).Contents (Elt F) → (⟨S98304, .i32⟩ : BufTy).Contents (Elt F) → (⟨S98304, .i32⟩ : BufTy).Contents (Elt F) → (⟨S98304, .i32⟩ : BufTy).Contents (Elt F)),
    unary main_v91 main_v92 (broadcastInDim S98304x1 ![0] bcast_S98304_S98304x1_0 : (⟨S98304, .i32⟩ : BufTy).Contents (Elt F) → (⟨S98304x1, .i32⟩ : BufTy).Contents (Elt F)),
    binary main_arg1 main_v92 main_v93 ((fun x i => Host.gather gather_S65536x256_S98304x1_S98304x256_1_0_n_n_0_1_1256 x i) : (⟨S65536x256, .f32⟩ : BufTy).Contents (Elt F) → (⟨S98304x1, .i32⟩ : BufTy).Contents (Elt F) → (⟨S98304x256, .f32⟩ : BufTy).Contents (Elt F)),
    unary main_arg19 main_v94 ((extractStridedSlice S1x1x256x256 ![0, 1, 0, 0] · slices_S4x2x256x256_S1x1x256x256_0_1_0_0) : (⟨S4x2x256x256, .f32⟩ : BufTy).Contents (Elt F) → (⟨S1x1x256x256, .f32⟩ : BufTy).Contents (Elt F)),
    reshape main_v94 main_v95 rfl shapeCasts_S1x1x256x256_S256x256,
    binary main_v93 main_v95 main_v96 ((fun l r => Host.dotGeneral dot_S98304x256_S256x256_S98304x256_1_0_0_1_n_n none l r) : (⟨S98304x256, .f32⟩ : BufTy).Contents (Elt F) → (⟨S256x256, .f32⟩ : BufTy).Contents (Elt F) → (⟨S98304x256, .f32⟩ : BufTy).Contents (Elt F)),
    nullary main_c_27 (constantI S_ 32 0#32),
    unary main_c_27 main_v97 (broadcastInDim S98304 ![] bcast_S_S98304 : (⟨S_, .i32⟩ : BufTy).Contents (Elt F) → (⟨S98304, .i32⟩ : BufTy).Contents (Elt F)),
    binary main_v61 main_v97 main_v98 (cmpi .slt : (⟨S98304, .i32⟩ : BufTy).Contents (Elt F) → (⟨S98304, .i32⟩ : BufTy).Contents (Elt F) → (⟨S98304, .i1⟩ : BufTy).Contents (Elt F)),
    nullary main_c_28 (constantI S_ 32 16384#32),
    unary main_c_28 main_v99 (broadcastInDim S98304 ![] bcast_S_S98304 : (⟨S_, .i32⟩ : BufTy).Contents (Elt F) → (⟨S98304, .i32⟩ : BufTy).Contents (Elt F)),
    binary main_v61 main_v99 main_v100 (addi : (⟨S98304, .i32⟩ : BufTy).Contents (Elt F) → (⟨S98304, .i32⟩ : BufTy).Contents (Elt F) → (⟨S98304, .i32⟩ : BufTy).Contents (Elt F)),
    ternary main_v98 main_v100 main_v61 main_v101 (select : (⟨S98304, .i1⟩ : BufTy).Contents (Elt F) → (⟨S98304, .i32⟩ : BufTy).Contents (Elt F) → (⟨S98304, .i32⟩ : BufTy).Contents (Elt F) → (⟨S98304, .i32⟩ : BufTy).Contents (Elt F)),
    unary main_v101 main_v102 (broadcastInDim S98304x1 ![0] bcast_S98304_S98304x1_0 : (⟨S98304, .i32⟩ : BufTy).Contents (Elt F) → (⟨S98304x1, .i32⟩ : BufTy).Contents (Elt F)),
    binary main_arg2 main_v102 main_v103 ((fun x i => Host.gather gather_S16384x256_S98304x1_S98304x256_1_0_n_n_0_1_1256 x i) : (⟨S16384x256, .f32⟩ : BufTy).Contents (Elt F) → (⟨S98304x1, .i32⟩ : BufTy).Contents (Elt F) → (⟨S98304x256, .f32⟩ : BufTy).Contents (Elt F)),
    unary main_arg20 main_v104 ((extractStridedSlice S1x1x256x256 ![0, 1, 0, 0] · slices_S4x2x256x256_S1x1x256x256_0_1_0_0) : (⟨S4x2x256x256, .f32⟩ : BufTy).Contents (Elt F) → (⟨S1x1x256x256, .f32⟩ : BufTy).Contents (Elt F)),
    reshape main_v104 main_v105 rfl shapeCasts_S1x1x256x256_S256x256,
    binary main_v103 main_v105 main_v106 ((fun l r => Host.dotGeneral dot_S98304x256_S256x256_S98304x256_1_0_0_1_n_n none l r) : (⟨S98304x256, .f32⟩ : BufTy).Contents (Elt F) → (⟨S256x256, .f32⟩ : BufTy).Contents (Elt F) → (⟨S98304x256, .f32⟩ : BufTy).Contents (Elt F)),
    binary main_v96 main_v106 main_v107 (addf : (⟨S98304x256, .f32⟩ : BufTy).Contents (Elt F) → (⟨S98304x256, .f32⟩ : BufTy).Contents (Elt F) → (⟨S98304x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S98304x256, .f32⟩) main_call1_v0) (broadcastInDim S98304x256 ![] bcast_S_S98304x256),
    TRef.binary (TRef.of (T := ⟨S98304x256, .f32⟩) main_v107) (TRef.of (T := ⟨S98304x256, .f32⟩) main_call1_v0) (TRef.of (T := ⟨S98304x256, .f32⟩) main_v108) maximumf,
    nullary main_cst_29 (constant S_ .f32 0x00000000#32),
    unary main_cst_29 main_v109 (broadcastInDim S65536x256 ![] bcast_S_S65536x256 : (⟨S_, .f32⟩ : BufTy).Contents (Elt F) → (⟨S65536x256, .f32⟩ : BufTy).Contents (Elt F)),
    unary main_v55 main_v110 (broadcastInDim S98304x1 ![0] bcast_S98304_S98304x1_0 : (⟨S98304, .i32⟩ : BufTy).Contents (Elt F) → (⟨S98304x1, .i32⟩ : BufTy).Contents (Elt F)),
    ternary main_v109 main_v110 main_v108 main_v111 ((fun x i u => Host.scatterAdd scatter_S65536x256_S98304x1_S98304x256_1_0_0_1 x i u) : (⟨S65536x256, .f32⟩ : BufTy).Contents (Elt F) → (⟨S98304x1, .i32⟩ : BufTy).Contents (Elt F) → (⟨S98304x256, .f32⟩ : BufTy).Contents (Elt F) → (⟨S65536x256, .f32⟩ : BufTy).Contents (Elt F)),
    reshape main_arg0 main_v112 rfl shapeCasts_S32768x256_S256x128x256,
    binary main_v21 main_v112 main_v113 ((fun l r => Host.dotGeneral dot_S256x256x128_S256x128x256_S256x256x256_2_1_1_2_0_0 none l r) : (⟨S256x256x128, .f32⟩ : BufTy).Contents (Elt F) → (⟨S256x128x256, .f32⟩ : BufTy).Contents (Elt F) → (⟨S256x256x256, .f32⟩ : BufTy).Contents (Elt F)),
    reshape main_v113 main_v114 rfl shapeCasts_S256x256x256_S65536x256,
    unary main_arg21 main_v115 ((extractStridedSlice S1x1x256x256 ![0, 0, 0, 0] · slices_S4x2x256x256_S1x1x256x256_0_0_0_0) : (⟨S4x2x256x256, .f32⟩ : BufTy).Contents (Elt F) → (⟨S1x1x256x256, .f32⟩ : BufTy).Contents (Elt F)),
    reshape main_v115 main_v116 rfl shapeCasts_S1x1x256x256_S256x256,
    binary main_v114 main_v116 main_v117 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    reshape main_arg1 main_v118 rfl shapeCasts_S65536x256_S256x256x256,
    binary main_v43 main_v118 main_v119 ((fun l r => Host.dotGeneral dot_S256x64x256_S256x256x256_S256x64x256_2_1_1_2_0_0 none l r) : (⟨S256x64x256, .f32⟩ : BufTy).Contents (Elt F) → (⟨S256x256x256, .f32⟩ : BufTy).Contents (Elt F) → (⟨S256x64x256, .f32⟩ : BufTy).Contents (Elt F)),
    reshape main_v119 main_v120 rfl shapeCasts_S256x64x256_S16384x256,
    unary main_arg21 main_v121 ((extractStridedSlice S1x1x256x256 ![0, 1, 0, 0] · slices_S4x2x256x256_S1x1x256x256_0_1_0_0) : (⟨S4x2x256x256, .f32⟩ : BufTy).Contents (Elt F) → (⟨S1x1x256x256, .f32⟩ : BufTy).Contents (Elt F)),
    reshape main_v121 main_v122 rfl shapeCasts_S1x1x256x256_S256x256,
    binary main_v120 main_v122 main_v123 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    unary main_arg17 main_v124 ((extractStridedSlice S1x1x256x256 ![0, 0, 0, 0] · slices_S4x3x256x256_S1x1x256x256_0_0_0_0) : (⟨S4x3x256x256, .f32⟩ : BufTy).Contents (Elt F) → (⟨S1x1x256x256, .f32⟩ : BufTy).Contents (Elt F)),
    reshape main_v124 main_v125 rfl shapeCasts_S1x1x256x256_S256x256,
    binary main_arg0 main_v125 main_v126 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg18 main_v127 ((extractStridedSlice S1x1x256 ![0, 0, 0] · slices_S4x3x256_S1x1x256_0_0_0) : (⟨S4x3x256, .f32⟩ : BufTy).Contents (Elt F) → (⟨S1x1x256, .f32⟩ : BufTy).Contents (Elt F)),
    reshape main_v127 main_v128 rfl shapeCasts_S1x1x256_S256,
    unary main_v128 main_v129 (broadcastInDim S1x256 ![1] bcast_S256_S1x256_1 : (⟨S256, .f32⟩ : BufTy).Contents (Elt F) → (⟨S1x256, .f32⟩ : BufTy).Contents (Elt F)),
    unary main_v129 main_v130 (broadcastInDim S32768x256 ![0, 1] bcast_S1x256_S32768x256_0_1 : (⟨S1x256, .f32⟩ : BufTy).Contents (Elt F) → (⟨S32768x256, .f32⟩ : BufTy).Contents (Elt F)),
    binary main_v126 main_v130 main_v131 (addf : (⟨S32768x256, .f32⟩ : BufTy).Contents (Elt F) → (⟨S32768x256, .f32⟩ : BufTy).Contents (Elt F) → (⟨S32768x256, .f32⟩ : BufTy).Contents (Elt F)),
    binary main_v131 main_v86 main_v132 (addf : (⟨S32768x256, .f32⟩ : BufTy).Contents (Elt F) → (⟨S32768x256, .f32⟩ : BufTy).Contents (Elt F) → (⟨S32768x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S32768x256, .f32⟩) main_call2_v0) (broadcastInDim S32768x256 ![] bcast_S_S32768x256),
    TRef.binary (TRef.of (T := ⟨S32768x256, .f32⟩) main_v132) (TRef.of (T := ⟨S32768x256, .f32⟩) main_call2_v0) (TRef.of (T := ⟨S32768x256, .f32⟩) main_v133) maximumf,
    unary main_arg17 main_v134 ((extractStridedSlice S1x1x256x256 ![0, 1, 0, 0] · slices_S4x3x256x256_S1x1x256x256_0_1_0_0) : (⟨S4x3x256x256, .f32⟩ : BufTy).Contents (Elt F) → (⟨S1x1x256x256, .f32⟩ : BufTy).Contents (Elt F)),
    reshape main_v134 main_v135 rfl shapeCasts_S1x1x256x256_S256x256,
    binary main_arg1 main_v135 main_v136 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg18 main_v137 ((extractStridedSlice S1x1x256 ![0, 1, 0] · slices_S4x3x256_S1x1x256_0_1_0) : (⟨S4x3x256, .f32⟩ : BufTy).Contents (Elt F) → (⟨S1x1x256, .f32⟩ : BufTy).Contents (Elt F)),
    reshape main_v137 main_v138 rfl shapeCasts_S1x1x256_S256,
    unary main_v138 main_v139 (broadcastInDim S1x256 ![1] bcast_S256_S1x256_1 : (⟨S256, .f32⟩ : BufTy).Contents (Elt F) → (⟨S1x256, .f32⟩ : BufTy).Contents (Elt F)),
    unary main_v139 main_v140 (broadcastInDim S65536x256 ![0, 1] bcast_S1x256_S65536x256_0_1 : (⟨S1x256, .f32⟩ : BufTy).Contents (Elt F) → (⟨S65536x256, .f32⟩ : BufTy).Contents (Elt F)),
    binary main_v136 main_v140 main_v141 (addf : (⟨S65536x256, .f32⟩ : BufTy).Contents (Elt F) → (⟨S65536x256, .f32⟩ : BufTy).Contents (Elt F) → (⟨S65536x256, .f32⟩ : BufTy).Contents (Elt F)),
    binary main_v141 main_v111 main_v142 (addf : (⟨S65536x256, .f32⟩ : BufTy).Contents (Elt F) → (⟨S65536x256, .f32⟩ : BufTy).Contents (Elt F) → (⟨S65536x256, .f32⟩ : BufTy).Contents (Elt F)),
    binary main_v142 main_v117 main_v143 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S65536x256, .f32⟩) main_call3_v0) (broadcastInDim S65536x256 ![] bcast_S_S65536x256),
    TRef.binary (TRef.of (T := ⟨S65536x256, .f32⟩) main_v143) (TRef.of (T := ⟨S65536x256, .f32⟩) main_call3_v0) (TRef.of (T := ⟨S65536x256, .f32⟩) main_v144) maximumf,
    unary main_arg17 main_v145 ((extractStridedSlice S1x1x256x256 ![0, 2, 0, 0] · slices_S4x3x256x256_S1x1x256x256_0_2_0_0) : (⟨S4x3x256x256, .f32⟩ : BufTy).Contents (Elt F) → (⟨S1x1x256x256, .f32⟩ : BufTy).Contents (Elt F)),
    reshape main_v145 main_v146 rfl shapeCasts_S1x1x256x256_S256x256,
    binary main_arg2 main_v146 main_v147 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)) ]
/-- Each touches TensorCore references only. -/
theorem refP3_sub : (refP3 : List (HloOp τ sig (Elt F))).Forall fun op => op.bufs ⊆ tcRefs τ sig :=
  ⟨ternary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., nullary_bufs_sub .., unary_bufs_sub .., binary_bufs_sub .., nullary_bufs_sub .., unary_bufs_sub .., unary_bufs_sub .., ternary_bufs_sub .., reshape_bufs_sub .., binary_bufs_sub .., reshape_bufs_sub .., unary_bufs_sub .., reshape_bufs_sub .., binary_bufs_sub .., reshape_bufs_sub .., binary_bufs_sub .., reshape_bufs_sub .., unary_bufs_sub .., reshape_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., binary_bufs_sub .., nullary_bufs_sub .., unary_bufs_sub .., binary_bufs_sub .., unary_bufs_sub .., reshape_bufs_sub .., binary_bufs_sub ..⟩
/-- None leaves a buffer undetermined. -/
theorem refP3_fresh : ∀ op ∈ (refP3 : List (HloOp τ sig (Elt F))), op.fresh = ∅ := by
  intro _ h; (repeat (cases h with | head => rfl | tail _ h => ?_)); exact nomatch h
/-- The references these operations write. -/
abbrev refP3_W : List (Ref sig .tc) := [main_v91, main_v92, main_v93, main_v94, main_v95, main_v96, main_c_27, main_v97, main_v98, main_c_28, main_v99, main_v100, main_v101, main_v102, main_v103, main_v104, main_v105, main_v106, main_v107, main_call1_cst, main_call1_v0, main_v108, main_cst_29, main_v109, main_v110, main_v111, main_v112, main_v113, main_v114, main_v115, main_v116, main_v117, main_v118, main_v119, main_v120, main_v121, main_v122, main_v123, main_v124, main_v125, main_v126, main_v127, main_v128, main_v129, main_v130, main_v131, main_v132, main_call2_cst, main_call2_v0, main_v133, main_v134, main_v135, main_v136, main_v137, main_v138, main_v139, main_v140, main_v141, main_v142, main_v143, main_call3_cst, main_call3_v0, main_v144, main_v145, main_v146, main_v147]
set_option maxHeartbeats 4000000 in
theorem refP3_writes : (refP3 : List (HloOp τ sig (Elt F))).Forall fun op => op.writes ⊆ (refP3_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- A reference these operations do not write keeps its contents. -/
theorem refP3_keep (V : Valuation τ sig (Elt F)) (r : Ref sig .tc) (h : r ∉ refP3_W) : after refP3 V (Proc.devRef .tc r) = V (Proc.devRef .tc r) :=
  after_of_writes_sub refP3 V refP3_writes h

set_option maxHeartbeats 4000000 in
/-- Operations 188 … 196 of @main (counted from 0), in order. -/
abbrev refP4 : List (HloOp τ sig (Elt F)) :=
  [ unary main_arg18 main_v148 ((extractStridedSlice S1x1x256 ![0, 2, 0] · slices_S4x3x256_S1x1x256_0_2_0) : (⟨S4x3x256, .f32⟩ : BufTy).Contents (Elt F) → (⟨S1x1x256, .f32⟩ : BufTy).Contents (Elt F)),
    reshape main_v148 main_v149 rfl shapeCasts_S1x1x256_S256,
    unary main_v149 main_v150 (broadcastInDim S1x256 ![1] bcast_S256_S1x256_1 : (⟨S256, .f32⟩ : BufTy).Contents (Elt F) → (⟨S1x256, .f32⟩ : BufTy).Contents (Elt F)),
    unary main_v150 main_v151 (broadcastInDim S16384x256 ![0, 1] bcast_S1x256_S16384x256_0_1 : (⟨S1x256, .f32⟩ : BufTy).Contents (Elt F) → (⟨S16384x256, .f32⟩ : BufTy).Contents (Elt F)),
    binary main_v147 main_v151 main_v152 (addf : (⟨S16384x256, .f32⟩ : BufTy).Contents (Elt F) → (⟨S16384x256, .f32⟩ : BufTy).Contents (Elt F) → (⟨S16384x256, .f32⟩ : BufTy).Contents (Elt F)),
    binary main_v152 main_v123 main_v153 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16384x256, .f32⟩) main_call4_v0) (broadcastInDim S16384x256 ![] bcast_S_S16384x256),
    TRef.binary (TRef.of (T := ⟨S16384x256, .f32⟩) main_v153) (TRef.of (T := ⟨S16384x256, .f32⟩) main_call4_v0) (TRef.of (T := ⟨S16384x256, .f32⟩) main_v154) maximumf ]
/-- Each touches TensorCore references only. -/
theorem refP4_sub : (refP4 : List (HloOp τ sig (Elt F))).Forall fun op => op.bufs ⊆ tcRefs τ sig :=
  ⟨unary_bufs_sub .., reshape_bufs_sub .., unary_bufs_sub .., unary_bufs_sub .., binary_bufs_sub .., binary_bufs_sub .., nullary_bufs_sub .., unary_bufs_sub .., binary_bufs_sub ..⟩
/-- None leaves a buffer undetermined. -/
theorem refP4_fresh : ∀ op ∈ (refP4 : List (HloOp τ sig (Elt F))), op.fresh = ∅ := by
  intro _ h; (repeat (cases h with | head => rfl | tail _ h => ?_)); exact nomatch h
/-- The references these operations write. -/
abbrev refP4_W : List (Ref sig .tc) := [main_v148, main_v149, main_v150, main_v151, main_v152, main_v153, main_call4_cst, main_call4_v0, main_v154]
set_option maxHeartbeats 4000000 in
theorem refP4_writes : (refP4 : List (HloOp τ sig (Elt F))).Forall fun op => op.writes ⊆ (refP4_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- A reference these operations do not write keeps its contents. -/
theorem refP4_keep (V : Valuation τ sig (Elt F)) (r : Ref sig .tc) (h : r ∉ refP4_W) : after refP4 V (Proc.devRef .tc r) = V (Proc.devRef .tc r) :=
  after_of_writes_sub refP4 V refP4_writes h

/-- Chunk 1 of @main: layer 0. Operations 84 … 196. -/
abbrev refC1 : List (HloOp τ sig (Elt F)) := refP2 ++ (refP3 ++ refP4)
abbrev refC1_W : List (Ref sig .tc) := refP2_W ++ (refP3_W ++ refP4_W)
theorem refC1_sub : (refC1 : List (HloOp τ sig (Elt F))).Forall fun op => op.bufs ⊆ tcRefs τ sig :=
  Cert.LibSeq.forall_append refP2_sub (Cert.LibSeq.forall_append refP3_sub refP4_sub)
theorem refC1_fresh : ∀ op ∈ (refC1 : List (HloOp τ sig (Elt F))), op.fresh = ∅ :=
  Cert.LibSeq.fresh_append refP2_fresh (Cert.LibSeq.fresh_append refP3_fresh refP4_fresh)
/-- A reference the chunk does not write keeps its contents over it. -/
theorem refC1_keep (V : Valuation τ sig (Elt F)) (r : Ref sig .tc) (h : r ∉ refC1_W) : after refC1 V (Proc.devRef .tc r) = V (Proc.devRef .tc r) := by
  simp only [Cert.LibSeq.after_append]
  simp only [List.mem_append, not_or] at h
  obtain ⟨h2, ⟨h3, h4⟩⟩ := h
  rw [refP4_keep _ r h4, refP3_keep _ r h3, refP2_keep _ r h2]

end Cert.ReferenceIdeal.Hand

end
-- ==== Proof.RefOps2.lean ====
import proofs.«101828_j11562051961417_2_alg».proof.Proof.Gen.ReferenceIdeal
import proofs.«101828_j11562051961417_2_alg».proof.Proof.LibSeq
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 197 … 251 of @main (counted from 0), in order. -/
abbrev refP5 : List (HloOp τ sig (Elt F)) :=
  [ nullary main_c_30 (constantI S_ 32 0#32),
    unary main_c_30 main_v155 (broadcastInDim S131072 ![] bcast_S_S131072 : (⟨S_, .i32⟩ : BufTy).Contents (Elt F) → (⟨S131072, .i32⟩ : BufTy).Contents (Elt F)),
    binary main_v49 main_v155 main_v156 (cmpi .slt : (⟨S131072, .i32⟩ : BufTy).Contents (Elt F) → (⟨S131072, .i32⟩ : BufTy).Contents (Elt F) → (⟨S131072, .i1⟩ : BufTy).Contents (Elt F)),
    nullary main_c_31 (constantI S_ 32 32768#32),
    unary main_c_31 main_v157 (broadcastInDim S131072 ![] bcast_S_S131072 : (⟨S_, .i32⟩ : BufTy).Contents (Elt F) → (⟨S131072, .i32⟩ : BufTy).Contents (Elt F)),
    binary main_v49 main_v157 main_v158 (addi : (⟨S131072, .i32⟩ : BufTy).Contents (Elt F) → (⟨S131072, .i32⟩ : BufTy).Contents (Elt F) → (⟨S131072, .i32⟩ : BufTy).Contents (Elt F)),
    ternary main_v156 main_v158 main_v49 main_v159 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v159 main_v160 (broadcastInDim S131072x1 ![0] bcast_S131072_S131072x1_0 : (⟨S131072, .i32⟩ : BufTy).Contents (Elt F) → (⟨S131072x1, .i32⟩ : BufTy).Contents (Elt F)),
    binary main_v133 main_v160 main_v161 ((fun x i => Host.gather gather_S32768x256_S131072x1_S131072x256_1_0_n_n_0_1_1256 x i) : (⟨S32768x256, .f32⟩ : BufTy).Contents (Elt F) → (⟨S131072x1, .i32⟩ : BufTy).Contents (Elt F) → (⟨S131072x256, .f32⟩ : BufTy).Contents (Elt F)),
    unary main_arg19 main_v162 ((extractStridedSlice S1x1x256x256 ![1, 0, 0, 0] · slices_S4x2x256x256_S1x1x256x256_1_0_0_0) : (⟨S4x2x256x256, .f32⟩ : BufTy).Contents (Elt F) → (⟨S1x1x256x256, .f32⟩ : BufTy).Contents (Elt F)),
    reshape main_v162 main_v163 rfl shapeCasts_S1x1x256x256_S256x256,
    binary main_v161 main_v163 main_v164 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    nullary main_c_32 (constantI S_ 32 0#32),
    unary main_c_32 main_v165 (broadcastInDim S131072 ![] bcast_S_S131072 : (⟨S_, .i32⟩ : BufTy).Contents (Elt F) → (⟨S131072, .i32⟩ : BufTy).Contents (Elt F)),
    binary main_v52 main_v165 main_v166 (cmpi .slt : (⟨S131072, .i32⟩ : BufTy).Contents (Elt F) → (⟨S131072, .i32⟩ : BufTy).Contents (Elt F) → (⟨S131072, .i1⟩ : BufTy).Contents (Elt F)),
    nullary main_c_33 (constantI S_ 32 65536#32),
    unary main_c_33 main_v167 (broadcastInDim S131072 ![] bcast_S_S131072 : (⟨S_, .i32⟩ : BufTy).Contents (Elt F) → (⟨S131072, .i32⟩ : BufTy).Contents (Elt F)),
    binary main_v52 main_v167 main_v168 (addi : (⟨S131072, .i32⟩ : BufTy).Contents (Elt F) → (⟨S131072, .i32⟩ : BufTy).Contents (Elt F) → (⟨S131072, .i32⟩ : BufTy).Contents (Elt F)),
    ternary main_v166 main_v168 main_v52 main_v169 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v169 main_v170 (broadcastInDim S131072x1 ![0] bcast_S131072_S131072x1_0 : (⟨S131072, .i32⟩ : BufTy).Contents (Elt F) → (⟨S131072x1, .i32⟩ : BufTy).Contents (Elt F)),
    binary main_v144 main_v170 main_v171 ((fun x i => Host.gather gather_S65536x256_S131072x1_S131072x256_1_0_n_n_0_1_1256 x i) : (⟨S65536x256, .f32⟩ : BufTy).Contents (Elt F) → (⟨S131072x1, .i32⟩ : BufTy).Contents (Elt F) → (⟨S131072x256, .f32⟩ : BufTy).Contents (Elt F)),
    unary main_arg20 main_v172 ((extractStridedSlice S1x1x256x256 ![1, 0, 0, 0] · slices_S4x2x256x256_S1x1x256x256_1_0_0_0) : (⟨S4x2x256x256, .f32⟩ : BufTy).Contents (Elt F) → (⟨S1x1x256x256, .f32⟩ : BufTy).Contents (Elt F)),
    reshape main_v172 main_v173 rfl shapeCasts_S1x1x256x256_S256x256,
    binary main_v171 main_v173 main_v174 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    binary main_v164 main_v174 main_v175 (addf : (⟨S131072x256, .f32⟩ : BufTy).Contents (Elt F) → (⟨S131072x256, .f32⟩ : BufTy).Contents (Elt F) → (⟨S131072x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S131072x256, .f32⟩) main_call5_v0) (broadcastInDim S131072x256 ![] bcast_S_S131072x256),
    TRef.binary (TRef.of (T := ⟨S131072x256, .f32⟩) main_v175) (TRef.of (T := ⟨S131072x256, .f32⟩) main_call5_v0) (TRef.of (T := ⟨S131072x256, .f32⟩) main_v176) maximumf,
    nullary main_cst_34 (constant S_ .f32 0x00000000#32),
    unary main_cst_34 main_v177 (broadcastInDim S32768x256 ![] bcast_S_S32768x256 : (⟨S_, .f32⟩ : BufTy).Contents (Elt F) → (⟨S32768x256, .f32⟩ : BufTy).Contents (Elt F)),
    unary main_v46 main_v178 (broadcastInDim S131072x1 ![0] bcast_S131072_S131072x1_0 : (⟨S131072, .i32⟩ : BufTy).Contents (Elt F) → (⟨S131072x1, .i32⟩ : BufTy).Contents (Elt F)),
    ternary main_v177 main_v178 main_v176 main_v179 ((fun x i u => Host.scatterAdd scatter_S32768x256_S131072x1_S131072x256_1_0_0_1 x i u) : (⟨S32768x256, .f32⟩ : BufTy).Contents (Elt F) → (⟨S131072x1, .i32⟩ : BufTy).Contents (Elt F) → (⟨S131072x256, .f32⟩ : BufTy).Contents (Elt F) → (⟨S32768x256, .f32⟩ : BufTy).Contents (Elt F)),
    nullary main_c_35 (constantI S_ 32 0#32),
    unary main_c_35 main_v180 (broadcastInDim S98304 ![] bcast_S_S98304 : (⟨S_, .i32⟩ : BufTy).Contents (Elt F) → (⟨S98304, .i32⟩ : BufTy).Contents (Elt F)),
    binary main_v58 main_v180 main_v181 (cmpi .slt : (⟨S98304, .i32⟩ : BufTy).Contents (Elt F) → (⟨S98304, .i32⟩ : BufTy).Contents (Elt F) → (⟨S98304, .i1⟩ : BufTy).Contents (Elt F)),
    nullary main_c_36 (constantI S_ 32 65536#32),
    unary main_c_36 main_v182 (broadcastInDim S98304 ![] bcast_S_S98304 : (⟨S_, .i32⟩ : BufTy).Contents (Elt F) → (⟨S98304, .i32⟩ : BufTy).Contents (Elt F)),
    binary main_v58 main_v182 main_v183 (addi : (⟨S98304, .i32⟩ : BufTy).Contents (Elt F) → (⟨S98304, .i32⟩ : BufTy).Contents (Elt F) → (⟨S98304, .i32⟩ : BufTy).Contents (Elt F)),
    ternary main_v181 main_v183 main_v58 main_v184 (select : (⟨S98304, .i1⟩ : BufTy).Contents (Elt F) → (⟨S98304, .i32⟩ : BufTy).Contents (Elt F) → (⟨S98304, .i32⟩ : BufTy).Contents (Elt F) → (⟨S98304, .i32⟩ : BufTy).Contents (Elt F)),
    unary main_v184 main_v185 (broadcastInDim S98304x1 ![0] bcast_S98304_S98304x1_0 : (⟨S98304, .i32⟩ : BufTy).Contents (Elt F) → (⟨S98304x1, .i32⟩ : BufTy).Contents (Elt F)),
    binary main_v144 main_v185 main_v186 ((fun x i => Host.gather gather_S65536x256_S98304x1_S98304x256_1_0_n_n_0_1_1256 x i) : (⟨S65536x256, .f32⟩ : BufTy).Contents (Elt F) → (⟨S98304x1, .i32⟩ : BufTy).Contents (Elt F) → (⟨S98304x256, .f32⟩ : BufTy).Contents (Elt F)),
    unary main_arg19 main_v187 ((extractStridedSlice S1x1x256x256 ![1, 1, 0, 0] · slices_S4x2x256x256_S1x1x256x256_1_1_0_0) : (⟨S4x2x256x256, .f32⟩ : BufTy).Contents (Elt F) → (⟨S1x1x256x256, .f32⟩ : BufTy).Contents (Elt F)),
    reshape main_v187 main_v188 rfl shapeCasts_S1x1x256x256_S256x256,
    binary main_v186 main_v188 main_v189 ((fun l r => Host.dotGeneral dot_S98304x256_S256x256_S98304x256_1_0_0_1_n_n none l r) : (⟨S98304x256, .f32⟩ : BufTy).Contents (Elt F) → (⟨S256x256, .f32⟩ : BufTy).Contents (Elt F) → (⟨S98304x256, .f32⟩ : BufTy).Contents (Elt F)),
    nullary main_c_37 (constantI S_ 32 0#32),
    unary main_c_37 main_v190 (broadcastInDim S98304 ![] bcast_S_S98304 : (⟨S_, .i32⟩ : BufTy).Contents (Elt F) → (⟨S98304, .i32⟩ : BufTy).Contents (Elt F)),
    binary main_v61 main_v190 main_v191 (cmpi .slt : (⟨S98304, .i32⟩ : BufTy).Contents (Elt F) → (⟨S98304, .i32⟩ : BufTy).Contents (Elt F) → (⟨S98304, .i1⟩ : BufTy).Contents (Elt F)),
    nullary main_c_38 (constantI S_ 32 16384#32),
    unary main_c_38 main_v192 (broadcastInDim S98304 ![] bcast_S_S98304 : (⟨S_, .i32⟩ : BufTy).Contents (Elt F) → (⟨S98304, .i32⟩ : BufTy).Contents (Elt F)),
    binary main_v61 main_v192 main_v193 (addi : (⟨S98304, .i32⟩ : BufTy).Contents (Elt F) → (⟨S98304, .i32⟩ : BufTy).Contents (Elt F) → (⟨S98304, .i32⟩ : BufTy).Contents (Elt F)),
    ternary main_v191 main_v193 main_v61 main_v194 (select : (⟨S98304, .i1⟩ : BufTy).Contents (Elt F) → (⟨S98304, .i32⟩ : BufTy).Contents (Elt F) → (⟨S98304, .i32⟩ : BufTy).Contents (Elt F) → (⟨S98304, .i32⟩ : BufTy).Contents (Elt F)),
    unary main_v194 main_v195 (broadcastInDim S98304x1 ![0] bcast_S98304_S98304x1_0 : (⟨S98304, .i32⟩ : BufTy).Contents (Elt F) → (⟨S98304x1, .i32⟩ : BufTy).Contents (Elt F)),
    binary main_v154 main_v195 main_v196 ((fun x i => Host.gather gather_S16384x256_S98304x1_S98304x256_1_0_n_n_0_1_1256 x i) : (⟨S16384x256, .f32⟩ : BufTy).Contents (Elt F) → (⟨S98304x1, .i32⟩ : BufTy).Contents (Elt F) → (⟨S98304x256, .f32⟩ : BufTy).Contents (Elt F)),
    unary main_arg20 main_v197 ((extractStridedSlice S1x1x256x256 ![1, 1, 0, 0] · slices_S4x2x256x256_S1x1x256x256_1_1_0_0) : (⟨S4x2x256x256, .f32⟩ : BufTy).Contents (Elt F) → (⟨S1x1x256x256, .f32⟩ : BufTy).Contents (Elt F)),
    reshape main_v197 main_v198 rfl shapeCasts_S1x1x256x256_S256x256 ]
/-- Each touches TensorCore references only. -/
theorem refP5_sub : (refP5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub ..⟩
/-- None leaves a buffer undetermined. -/
theorem refP5_fresh : ∀ op ∈ (refP5 : List (HloOp τ sig (Elt F))), op.fresh = ∅ := by
  intro _ h; (repeat (cases h with | head => rfl | tail _ h => ?_)); exact nomatch h
/-- The references these operations write. -/
abbrev refP5_W : List (Ref sig .tc) := [main_c_30, main_v155, main_v156, main_c_31, main_v157, main_v158, main_v159, main_v160, main_v161, main_v162, main_v163, main_v164, main_c_32, main_v165, main_v166, main_c_33, main_v167, main_v168, main_v169, main_v170, main_v171, main_v172, main_v173, main_v174, main_v175, main_call5_cst, main_call5_v0, main_v176, main_cst_34, main_v177, main_v178, main_v179, main_c_35, main_v180, main_v181, main_c_36, main_v182, main_v183, main_v184, main_v185, main_v186, main_v187, main_v188, main_v189, main_c_37, main_v190, main_v191, main_c_38, main_v192, main_v193, main_v194, main_v195, main_v196, main_v197, main_v198]
set_option maxHeartbeats 4000000 in
theorem refP5_writes : (refP5 : List (HloOp τ sig (Elt F))).Forall fun op => op.writes ⊆ (refP5_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- A reference these operations do not write keeps its contents. -/
theorem refP5_keep (V : Valuation τ sig (Elt F)) (r : Ref sig .tc) (h : r ∉ refP5_W) : after refP5 V (Proc.devRef .tc r) = V (Proc.devRef .tc r) :=
  after_of_writes_sub refP5 V refP5_writes h

set_option maxHeartbeats 4000000 in
/-- Operations 252 … 309 of @main (counted from 0), in order. -/
abbrev refP6 : List (HloOp τ sig (Elt F)) :=
  [ binary main_v196 main_v198 main_v199 ((fun l r => Host.dotGeneral dot_S98304x256_S256x256_S98304x256_1_0_0_1_n_n none l r) : (⟨S98304x256, .f32⟩ : BufTy).Contents (Elt F) → (⟨S256x256, .f32⟩ : BufTy).Contents (Elt F) → (⟨S98304x256, .f32⟩ : BufTy).Contents (Elt F)),
    binary main_v189 main_v199 main_v200 (addf : (⟨S98304x256, .f32⟩ : BufTy).Contents (Elt F) → (⟨S98304x256, .f32⟩ : BufTy).Contents (Elt F) → (⟨S98304x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S98304x256, .f32⟩) main_call6_v0) (broadcastInDim S98304x256 ![] bcast_S_S98304x256),
    TRef.binary (TRef.of (T := ⟨S98304x256, .f32⟩) main_v200) (TRef.of (T := ⟨S98304x256, .f32⟩) main_call6_v0) (TRef.of (T := ⟨S98304x256, .f32⟩) main_v201) maximumf,
    nullary main_cst_39 (constant S_ .f32 0x00000000#32),
    unary main_cst_39 main_v202 (broadcastInDim S65536x256 ![] bcast_S_S65536x256 : (⟨S_, .f32⟩ : BufTy).Contents (Elt F) → (⟨S65536x256, .f32⟩ : BufTy).Contents (Elt F)),
    unary main_v55 main_v203 (broadcastInDim S98304x1 ![0] bcast_S98304_S98304x1_0 : (⟨S98304, .i32⟩ : BufTy).Contents (Elt F) → (⟨S98304x1, .i32⟩ : BufTy).Contents (Elt F)),
    ternary main_v202 main_v203 main_v201 main_v204 ((fun x i u => Host.scatterAdd scatter_S65536x256_S98304x1_S98304x256_1_0_0_1 x i u) : (⟨S65536x256, .f32⟩ : BufTy).Contents (Elt F) → (⟨S98304x1, .i32⟩ : BufTy).Contents (Elt F) → (⟨S98304x256, .f32⟩ : BufTy).Contents (Elt F) → (⟨S65536x256, .f32⟩ : BufTy).Contents (Elt F)),
    reshape main_v133 main_v205 rfl shapeCasts_S32768x256_S256x128x256,
    binary main_v21 main_v205 main_v206 ((fun l r => Host.dotGeneral dot_S256x256x128_S256x128x256_S256x256x256_2_1_1_2_0_0 none l r) : (⟨S256x256x128, .f32⟩ : BufTy).Contents (Elt F) → (⟨S256x128x256, .f32⟩ : BufTy).Contents (Elt F) → (⟨S256x256x256, .f32⟩ : BufTy).Contents (Elt F)),
    reshape main_v206 main_v207 rfl shapeCasts_S256x256x256_S65536x256,
    unary main_arg21 main_v208 ((extractStridedSlice S1x1x256x256 ![1, 0, 0, 0] · slices_S4x2x256x256_S1x1x256x256_1_0_0_0) : (⟨S4x2x256x256, .f32⟩ : BufTy).Contents (Elt F) → (⟨S1x1x256x256, .f32⟩ : BufTy).Contents (Elt F)),
    reshape main_v208 main_v209 rfl shapeCasts_S1x1x256x256_S256x256,
    binary main_v207 main_v209 main_v210 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    reshape main_v144 main_v211 rfl shapeCasts_S65536x256_S256x256x256,
    binary main_v43 main_v211 main_v212 ((fun l r => Host.dotGeneral dot_S256x64x256_S256x256x256_S256x64x256_2_1_1_2_0_0 none l r) : (⟨S256x64x256, .f32⟩ : BufTy).Contents (Elt F) → (⟨S256x256x256, .f32⟩ : BufTy).Contents (Elt F) → (⟨S256x64x256, .f32⟩ : BufTy).Contents (Elt F)),
    reshape main_v212 main_v213 rfl shapeCasts_S256x64x256_S16384x256,
    unary main_arg21 main_v214 ((extractStridedSlice S1x1x256x256 ![1, 1, 0, 0] · slices_S4x2x256x256_S1x1x256x256_1_1_0_0) : (⟨S4x2x256x256, .f32⟩ : BufTy).Contents (Elt F) → (⟨S1x1x256x256, .f32⟩ : BufTy).Contents (Elt F)),
    reshape main_v214 main_v215 rfl shapeCasts_S1x1x256x256_S256x256,
    binary main_v213 main_v215 main_v216 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    unary main_arg17 main_v217 ((extractStridedSlice S1x1x256x256 ![1, 0, 0, 0] · slices_S4x3x256x256_S1x1x256x256_1_0_0_0) : (⟨S4x3x256x256, .f32⟩ : BufTy).Contents (Elt F) → (⟨S1x1x256x256, .f32⟩ : BufTy).Contents (Elt F)),
    reshape main_v217 main_v218 rfl shapeCasts_S1x1x256x256_S256x256,
    binary main_v133 main_v218 main_v219 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg18 main_v220 ((extractStridedSlice S1x1x256 ![1, 0, 0] · slices_S4x3x256_S1x1x256_1_0_0) : (⟨S4x3x256, .f32⟩ : BufTy).Contents (Elt F) → (⟨S1x1x256, .f32⟩ : BufTy).Contents (Elt F)),
    reshape main_v220 main_v221 rfl shapeCasts_S1x1x256_S256,
    unary main_v221 main_v222 (broadcastInDim S1x256 ![1] bcast_S256_S1x256_1 : (⟨S256, .f32⟩ : BufTy).Contents (Elt F) → (⟨S1x256, .f32⟩ : BufTy).Contents (Elt F)),
    unary main_v222 main_v223 (broadcastInDim S32768x256 ![0, 1] bcast_S1x256_S32768x256_0_1 : (⟨S1x256, .f32⟩ : BufTy).Contents (Elt F) → (⟨S32768x256, .f32⟩ : BufTy).Contents (Elt F)),
    binary main_v219 main_v223 main_v224 (addf : (⟨S32768x256, .f32⟩ : BufTy).Contents (Elt F) → (⟨S32768x256, .f32⟩ : BufTy).Contents (Elt F) → (⟨S32768x256, .f32⟩ : BufTy).Contents (Elt F)),
    binary main_v224 main_v179 main_v225 (addf : (⟨S32768x256, .f32⟩ : BufTy).Contents (Elt F) → (⟨S32768x256, .f32⟩ : BufTy).Contents (Elt F) → (⟨S32768x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S32768x256, .f32⟩) main_call7_v0) (broadcastInDim S32768x256 ![] bcast_S_S32768x256),
    TRef.binary (TRef.of (T := ⟨S32768x256, .f32⟩) main_v225) (TRef.of (T := ⟨S32768x256, .f32⟩) main_call7_v0) (TRef.of (T := ⟨S32768x256, .f32⟩) main_v226) maximumf,
    unary main_arg17 main_v227 ((extractStridedSlice S1x1x256x256 ![1, 1, 0, 0] · slices_S4x3x256x256_S1x1x256x256_1_1_0_0) : (⟨S4x3x256x256, .f32⟩ : BufTy).Contents (Elt F) → (⟨S1x1x256x256, .f32⟩ : BufTy).Contents (Elt F)),
    reshape main_v227 main_v228 rfl shapeCasts_S1x1x256x256_S256x256,
    binary main_v144 main_v228 main_v229 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg18 main_v230 ((extractStridedSlice S1x1x256 ![1, 1, 0] · slices_S4x3x256_S1x1x256_1_1_0) : (⟨S4x3x256, .f32⟩ : BufTy).Contents (Elt F) → (⟨S1x1x256, .f32⟩ : BufTy).Contents (Elt F)),
    reshape main_v230 main_v231 rfl shapeCasts_S1x1x256_S256,
    unary main_v231 main_v232 (broadcastInDim S1x256 ![1] bcast_S256_S1x256_1 : (⟨S256, .f32⟩ : BufTy).Contents (Elt F) → (⟨S1x256, .f32⟩ : BufTy).Contents (Elt F)),
    unary main_v232 main_v233 (broadcastInDim S65536x256 ![0, 1] bcast_S1x256_S65536x256_0_1 : (⟨S1x256, .f32⟩ : BufTy).Contents (Elt F) → (⟨S65536x256, .f32⟩ : BufTy).Contents (Elt F)),
    binary main_v229 main_v233 main_v234 (addf : (⟨S65536x256, .f32⟩ : BufTy).Contents (Elt F) → (⟨S65536x256, .f32⟩ : BufTy).Contents (Elt F) → (⟨S65536x256, .f32⟩ : BufTy).Contents (Elt F)),
    binary main_v234 main_v204 main_v235 (addf : (⟨S65536x256, .f32⟩ : BufTy).Contents (Elt F) → (⟨S65536x256, .f32⟩ : BufTy).Contents (Elt F) → (⟨S65536x256, .f32⟩ : BufTy).Contents (Elt F)),
    binary main_v235 main_v210 main_v236 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S65536x256, .f32⟩) main_call8_v0) (broadcastInDim S65536x256 ![] bcast_S_S65536x256),
    TRef.binary (TRef.of (T := ⟨S65536x256, .f32⟩) main_v236) (TRef.of (T := ⟨S65536x256, .f32⟩) main_call8_v0) (TRef.of (T := ⟨S65536x256, .f32⟩) main_v237) maximumf,
    unary main_arg17 main_v238 ((extractStridedSlice S1x1x256x256 ![1, 2, 0, 0] · slices_S4x3x256x256_S1x1x256x256_1_2_0_0) : (⟨S4x3x256x256, .f32⟩ : BufTy).Contents (Elt F) → (⟨S1x1x256x256, .f32⟩ : BufTy).Contents (Elt F)),
    reshape main_v238 main_v239 rfl shapeCasts_S1x1x256x256_S256x256,
    binary main_v154 main_v239 main_v240 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    unary main_arg18 main_v241 ((extractStridedSlice S1x1x256 ![1, 2, 0] · slices_S4x3x256_S1x1x256_1_2_0) : (⟨S4x3x256, .f32⟩ : BufTy).Contents (Elt F) → (⟨S1x1x256, .f32⟩ : BufTy).Contents (Elt F)),
    reshape main_v241 main_v242 rfl shapeCasts_S1x1x256_S256,
    unary main_v242 main_v243 (broadcastInDim S1x256 ![1] bcast_S256_S1x256_1 : (⟨S256, .f32⟩ : BufTy).Contents (Elt F) → (⟨S1x256, .f32⟩ : BufTy).Contents (Elt F)),
    unary main_v243 main_v244 (broadcastInDim S16384x256 ![0, 1] bcast_S1x256_S16384x256_0_1 : (⟨S1x256, .f32⟩ : BufTy).Contents (Elt F) → (⟨S16384x256, .f32⟩ : BufTy).Contents (Elt F)),
    binary main_v240 main_v244 main_v245 (addf : (⟨S16384x256, .f32⟩ : BufTy).Contents (Elt F) → (⟨S16384x256, .f32⟩ : BufTy).Contents (Elt F) → (⟨S16384x256, .f32⟩ : BufTy).Contents (Elt F)),
    binary main_v245 main_v216 main_v246 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S16384x256, .f32⟩) main_call9_v0) (broadcastInDim S16384x256 ![] bcast_S_S16384x256),
    TRef.binary (TRef.of (T := ⟨S16384x256, .f32⟩) main_v246) (TRef.of (T := ⟨S16384x256, .f32⟩) main_call9_v0) (TRef.of (T := ⟨S16384x256, .f32⟩) main_v247) maximumf ]
/-- Each touches TensorCore references only. -/
theorem refP6_sub : (refP6 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., unary_bufs_sub .., ternary_bufs_sub .., reshape_bufs_sub .., binary_bufs_sub .., reshape_bufs_sub .., unary_bufs_sub .., reshape_bufs_sub .., binary_bufs_sub .., reshape_bufs_sub .., binary_bufs_sub .., reshape_bufs_sub .., unary_bufs_sub .., reshape_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub ..⟩
/-- None leaves a buffer undetermined. -/
theorem refP6_fresh : ∀ op ∈ (refP6 : List (HloOp τ sig (Elt F))), op.fresh = ∅ := by
  intro _ h; (repeat (cases h with | head => rfl | tail _ h => ?_)); exact nomatch h
/-- The references these operations write. -/
abbrev refP6_W : List (Ref sig .tc) := [main_v199, main_v200, main_call6_cst, main_call6_v0, main_v201, main_cst_39, main_v202, main_v203, main_v204, main_v205, main_v206, main_v207, main_v208, main_v209, main_v210, main_v211, main_v212, main_v213, main_v214, main_v215, main_v216, main_v217, main_v218, main_v219, main_v220, main_v221, main_v222, main_v223, main_v224, main_v225, main_call7_cst, main_call7_v0, main_v226, main_v227, main_v228, main_v229, main_v230, main_v231, main_v232, main_v233, main_v234, main_v235, main_v236, main_call8_cst, main_call8_v0, main_v237, main_v238, main_v239, main_v240, main_v241, main_v242, main_v243, main_v244, main_v245, main_v246, main_call9_cst, main_call9_v0, main_v247]
set_option maxHeartbeats 4000000 in
theorem refP6_writes : (refP6 : List (HloOp τ sig (Elt F))).Forall fun op => op.writes ⊆ (refP6_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- A reference these operations do not write keeps its contents. -/
theorem refP6_keep (V : Valuation τ sig (Elt F)) (r : Ref sig .tc) (h : r ∉ refP6_W) : after refP6 V (Proc.devRef .tc r) = V (Proc.devRef .tc r) :=
  after_of_writes_sub refP6 V refP6_writes h

/-- Chunk 2 of @main: layer 1. Operations 197 … 309. -/
abbrev refC2 : List (HloOp τ sig (Elt F)) := refP5 ++ refP6
abbrev refC2_W : List (Ref sig .tc) := refP5_W ++ refP6_W
theorem refC2_sub : (refC2 : List (HloOp τ sig (Elt F))).Forall fun op => op.bufs ⊆ tcRefs τ sig :=
  Cert.LibSeq.forall_append refP5_sub refP6_sub
theorem refC2_fresh : ∀ op ∈ (refC2 : List (HloOp τ sig (Elt F))), op.fresh = ∅ :=
  Cert.LibSeq.fresh_append refP5_fresh refP6_fresh
/-- A reference the chunk does not write keeps its contents over it. -/
theorem refC2_keep (V : Valuation τ sig (Elt F)) (r : Ref sig .tc) (h : r ∉ refC2_W) : after refC2 V (Proc.devRef .tc r) = V (Proc.devRef .tc r) := by
  simp only [Cert.LibSeq.after_append]
  simp only [List.mem_append, not_or] at h
  obtain ⟨h5, h6⟩ := h
  rw [refP6_keep _ r h6, refP5_keep _ r h5]

end Cert.ReferenceIdeal.Hand

end
-- ==== Proof.RefOps3.lean ====
import proofs.«101828_j11562051961417_2_alg».proof.Proof.Gen.ReferenceIdeal
import proofs.«101828_j11562051961417_2_alg».proof.Proof.LibSeq
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 310 … 319 of @main (counted from 0), in order. -/
abbrev refP7 : List (HloOp τ sig (Elt F)) :=
  [ nullary main_c_40 (constantI S_ 32 0#32),
    unary main_c_40 main_v248 (broadcastInDim S131072 ![] bcast_S_S131072 : (⟨S_, .i32⟩ : BufTy).Contents (Elt F) → (⟨S131072, .i32⟩ : BufTy).Contents (Elt F)),
    binary main_v49 main_v248 main_v249 (cmpi .slt : (⟨S131072, .i32⟩ : BufTy).Contents (Elt F) → (⟨S131072, .i32⟩ : BufTy).Contents (Elt F) → (⟨S131072, .i1⟩ : BufTy).Contents (Elt F)),
    nullary main_c_41 (constantI S_ 32 32768#32),
    unary main_c_41 main_v250 (broadcastInDim S131072 ![] bcast_S_S131072 : (⟨S_, .i32⟩ : BufTy).Contents (Elt F) → (⟨S131072, .i32⟩ : BufTy).Contents (Elt F)),
    binary main_v49 main_v250 main_v251 (addi : (⟨S131072, .i32⟩ : BufTy).Contents (Elt F) → (⟨S131072, .i32⟩ : BufTy).Contents (Elt F) → (⟨S131072, .i32⟩ : BufTy).Contents (Elt F)),
    ternary main_v249 main_v251 main_v49 main_v252 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v252 main_v253 (broadcastInDim S131072x1 ![0] bcast_S131072_S131072x1_0 : (⟨S131072, .i32⟩ : BufTy).Contents (Elt F) → (⟨S131072x1, .i32⟩ : BufTy).Contents (Elt F)),
    binary main_v226 main_v253 main_v254 ((fun x i => Host.gather gather_S32768x256_S131072x1_S131072x256_1_0_n_n_0_1_1256 x i) : (⟨S32768x256, .f32⟩ : BufTy).Contents (Elt F) → (⟨S131072x1, .i32⟩ : BufTy).Contents (Elt F) → (⟨S131072x256, .f32⟩ : BufTy).Contents (Elt F)),
    unary main_arg19 main_v255 ((extractStridedSlice S1x1x256x256 ![2, 0, 0, 0] · slices_S4x2x256x256_S1x1x256x256_2_0_0_0) : (⟨S4x2x256x256, .f32⟩ : BufTy).Contents (Elt F) → (⟨S1x1x256x256, .f32⟩ : BufTy).Contents (Elt F)) ]
/-- Each touches TensorCore references only. -/
theorem refP7_sub : (refP7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub ..⟩
/-- None leaves a buffer undetermined. -/
theorem refP7_fresh : ∀ op ∈ (refP7 : List (HloOp τ sig (Elt F))), op.fresh = ∅ := by
  intro _ h; (repeat (cases h with | head => rfl | tail _ h => ?_)); exact nomatch h
/-- The references these operations write. -/
abbrev refP7_W : List (Ref sig .tc) := [main_c_40, main_v248, main_v249, main_c_41, main_v250, main_v251, main_v252, main_v253, main_v254, main_v255]
set_option maxHeartbeats 4000000 in
theorem refP7_writes : (refP7 : List (HloOp τ sig (Elt F))).Forall fun op => op.writes ⊆ (refP7_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- A reference these operations do not write keeps its contents. -/
theorem refP7_keep (V : Valuation τ sig (Elt F)) (r : Ref sig .tc) (h : r ∉ refP7_W) : after refP7 V (Proc.devRef .tc r) = V (Proc.devRef .tc r) :=
  after_of_writes_sub refP7 V refP7_writes h

set_option maxHeartbeats 4000000 in
/-- Operations 320 … 383 of @main (counted from 0), in order. -/
abbrev refP8 : List (HloOp τ sig (Elt F)) :=
  [ reshape main_v255 main_v256 rfl shapeCasts_S1x1x256x256_S256x256,
    binary main_v254 main_v256 main_v257 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    nullary main_c_42 (constantI S_ 32 0#32),
    unary main_c_42 main_v258 (broadcastInDim S131072 ![] bcast_S_S131072 : (⟨S_, .i32⟩ : BufTy).Contents (Elt F) → (⟨S131072, .i32⟩ : BufTy).Contents (Elt F)),
    binary main_v52 main_v258 main_v259 (cmpi .slt : (⟨S131072, .i32⟩ : BufTy).Contents (Elt F) → (⟨S131072, .i32⟩ : BufTy).Contents (Elt F) → (⟨S131072, .i1⟩ : BufTy).Contents (Elt F)),
    nullary main_c_43 (constantI S_ 32 65536#32),
    unary main_c_43 main_v260 (broadcastInDim S131072 ![] bcast_S_S131072 : (⟨S_, .i32⟩ : BufTy).Contents (Elt F) → (⟨S131072, .i32⟩ : BufTy).Contents (Elt F)),
    binary main_v52 main_v260 main_v261 (addi : (⟨S131072, .i32⟩ : BufTy).Contents (Elt F) → (⟨S131072, .i32⟩ : BufTy).Contents (Elt F) → (⟨S131072, .i32⟩ : BufTy).Contents (Elt F)),
    ternary main_v259 main_v261 main_v52 main_v262 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v262 main_v263 (broadcastInDim S131072x1 ![0] bcast_S131072_S131072x1_0 : (⟨S131072, .i32⟩ : BufTy).Contents (Elt F) → (⟨S131072x1, .i32⟩ : BufTy).Contents (Elt F)),
    binary main_v237 main_v263 main_v264 ((fun x i => Host.gather gather_S65536x256_S131072x1_S131072x256_1_0_n_n_0_1_1256 x i) : (⟨S65536x256, .f32⟩ : BufTy).Contents (Elt F) → (⟨S131072x1, .i32⟩ : BufTy).Contents (Elt F) → (⟨S131072x256, .f32⟩ : BufTy).Contents (Elt F)),
    unary main_arg20 main_v265 ((extractStridedSlice S1x1x256x256 ![2, 0, 0, 0] · slices_S4x2x256x256_S1x1x256x256_2_0_0_0) : (⟨S4x2x256x256, .f32⟩ : BufTy).Contents (Elt F) → (⟨S1x1x256x256, .f32⟩ : BufTy).Contents (Elt F)),
    reshape main_v265 main_v266 rfl shapeCasts_S1x1x256x256_S256x256,
    binary main_v264 main_v266 main_v267 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    binary main_v257 main_v267 main_v268 (addf : (⟨S131072x256, .f32⟩ : BufTy).Contents (Elt F) → (⟨S131072x256, .f32⟩ : BufTy).Contents (Elt F) → (⟨S131072x256, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S131072x256, .f32⟩) main_call10_v0) (broadcastInDim S131072x256 ![] bcast_S_S131072x256),
    TRef.binary (TRef.of (T := ⟨S131072x256, .f32⟩) main_v268) (TRef.of (T := ⟨S131072x256, .f32⟩) main_call10_v0) (TRef.of (T := ⟨S131072x256, .f32⟩) main_v269) maximumf,
    nullary main_cst_44 (constant S_ .f32 0x00000000#32),
    unary main_cst_44 main_v270 (broadcastInDim S32768x256 ![] bcast_S_S32768x256 : (⟨S_, .f32⟩ : BufTy).Contents (Elt F) → (⟨S32768x256, .f32⟩ : BufTy).Contents (Elt F)),
    unary main_v46 main_v271 (broadcastInDim S131072x1 ![0] bcast_S131072_S131072x1_0 : (⟨S131072, .i32⟩ : BufTy).Contents (Elt F) → (⟨S131072x1, .i32⟩ : BufTy).Contents (Elt F)),
    ternary main_v270 main_v271 main_v269 main_v272 ((fun x i u => Host.scatterAdd scatter_S32768x256_S131072x1_S131072x256_1_0_0_1 x i u) : (⟨S32768x256, .f32⟩ : BufTy).Contents (Elt F) → (⟨S131072x1, .i32⟩ : BufTy).Contents (Elt F) → (⟨S131072x256, .f32⟩ : BufTy).Contents (Elt F) → (⟨S32768x256, .f32⟩ : BufTy).Contents (Elt F)),
    nullary main_c_45 (constantI S_ 32 0#32),
    unary main_c_45 main_v273 (broadcastInDim S98304 ![] bcast_S_S98304 : (⟨S_, .i32⟩ : BufTy).Contents (Elt F) → (⟨S98304, .i32⟩ : BufTy).Contents (Elt F)),
    binary main_v58 main_v273 main_v274 (cmpi .slt : (⟨S98304, .i32⟩ : BufTy).Contents (Elt F) → (⟨S98304, .i32⟩ : BufTy).Contents (Elt F) → (⟨S98304, .i1⟩ : BufTy).Contents (Elt F)),
    nullary main_c_46 (constantI S_ 32 65536#32),
    unary main_c_46 main_v275 (broadcastInDim S98304 ![] bcast_S_S98304 : (⟨S_, .i32⟩ : BufTy).Contents (Elt F) → (⟨S98304, .i32⟩ : BufTy).Contents (Elt F)),
    binary main_v58 main_v275 main_v276 (addi : (⟨S98304, .i32⟩ : BufTy).Contents (Elt F) → (⟨S98304, .i32⟩ : BufTy).Contents (Elt F) → (⟨S98304, .i32⟩ : BufTy).Contents (Elt F)),
    ternary main_v274 main_v276 main_v58 main_v277 (select : (⟨S98304, .i1⟩ : BufTy).Contents (Elt F) → (⟨S98304, .i32⟩ : BufTy).Contents (Elt F) → (⟨S98304, .i32⟩ : BufTy).Contents (Elt F) → (⟨S98304, .i32⟩ : BufTy).Contents (Elt F)),
    unary main_v277 main_v278 (broadcastInDim S98304x1 ![0] bcast_S98304_S98304x1_0 : (⟨S98304, .i32⟩ : BufTy).Contents (Elt F) → (⟨S98304x1, .i32⟩ : BufTy).Contents (Elt F)),
    binary main_v237 main_v278 main_v279 ((fun x i => Host.gather gather_S65536x256_S98304x1_S98304x256_1_0_n_n_0_1_1256 x i) : (⟨S65536x256, .f32⟩ : BufTy).Contents (Elt F) → (⟨S98304x1, .i32⟩ : BufTy).Contents (Elt F) → (⟨S98304x256, .f32⟩ : BufTy).Contents (Elt F)),
    unary main_arg19 main_v280 ((extractStridedSlice S1x1x256x256 ![2, 1, 0, 0] · slices_S4x2x256x256_S1x1x256x256_2_1_0_0) : (⟨S4x2x256x256, .f32⟩ : BufTy).Contents (Elt F) → (⟨S1x1x256x256, .f32⟩ : BufTy).Contents (Elt F)),
    reshape main_v280 main_v281 rfl shapeCasts_S1x1x256x256_S256x256,
    binary main_v279 main_v281 main_v282 ((fun l r => Host.dotGeneral dot_S98304x256_S256x256_S98304x256_1_0_0_1_n_n none l r) : (⟨S98304x256, .f32⟩ : BufTy).Contents (Elt F) → (⟨S256x256, .f32⟩ : BufTy).Contents (Elt F) → (⟨S98304x256, .f32⟩ : BufTy).Contents (Elt F)),
    nullary main_c_47 (constantI S_ 32 0#32),
    unary main_c_47 main_v283 (broadcastInDim S98304 ![] bcast_S_S98304 : (⟨S_, .i32⟩ : BufTy).Contents (Elt F) → (⟨S98304, .i32⟩ : BufTy).Contents (Elt F)),
    binary main_v61 main_v283 main_v284 (cmpi .slt : (⟨S98304, .i32⟩ : BufTy).Contents (Elt F) → (⟨S98304, .i32⟩ : BufTy).Contents (Elt F) → (⟨S98304, .i1⟩ : BufTy).Contents (Elt F)),
    nullary main_c_48 (constantI S_ 32 16384#32),
    unary main_c_48 main_v285 (broadcastInDim S98304 ![] bcast_S_S98304 : (⟨S_, .i32⟩ : BufTy).Contents (Elt F) → (⟨S98304, .i32⟩ : BufTy).Contents (Elt F)),
    binary main_v61 main_v285 main_v286 (addi : (⟨S98304, .i32⟩ : BufTy).Contents (Elt F) → (⟨S98304, .i32⟩ : BufTy).Contents (Elt F) → (⟨S98304, .i32⟩ : BufTy).Contents (Elt F)),
    ternary main_v284 main_v286 main_v61 main_v287 (select : (⟨S98304, .i1⟩ : BufTy).Contents (Elt F) → (⟨S98304, .i32⟩ : BufTy).Contents (Elt F) → (⟨S98304, .i32⟩ : BufTy).Contents (Elt F) → (⟨S98304, .i32⟩ : BufTy).Contents (Elt F)),
    unary main_v287 main_v288 (broadcastInDim S98304x1 ![0] bcast_S98304_S98304x1_0 : (⟨S98304, .i32⟩ : BufTy).Contents (Elt F) → (⟨S98304x1, .i32⟩ : BufTy).Contents (Elt F)),
    binary main_v247 main_v288 main_v289 ((fun x i => Host.gather gather_S16384x256_S98304x1_S98304x256_1_0_n_n_0_1_1256 x i) : (⟨S16384x256, .f32⟩ : BufTy).Contents (Elt F) → (⟨S98304x1, .i32⟩ : BufTy).Contents (Elt F) → (⟨S98304x256, .f32⟩ : BufTy).Contents (Elt F)),
    unary main_arg20 main_v290 ((extractStridedSlice S1x1x256x256 ![2, 1, 0, 0] · slices_S4x2x256x256_S1x1x256x256_2_1_0_0) : (⟨S4x2x256x256, .f32⟩ : BufTy).Contents (Elt F) → (⟨S1x1x256x256, .f32⟩ : BufTy).Contents (Elt F)),
    reshape main_v290 main_v291 rfl shapeCasts_S1x1x256x256_S256x256,
    binary main_v289 main_v291 main_v292 ((fun l r => Host.dotGeneral dot_S98304x256_S256x256_S98304x256_1_0_0_1_n_n none l r) : (⟨S98304x256, .f32⟩ : BufTy).Contents (Elt F) → (⟨S256x256, .f32⟩ : BufTy).Contents (Elt F) → (⟨S98304x256, .f32⟩ : BufTy).Contents (Elt F)),
    binary main_v282 main_v292 main_v293 (addf : (⟨S98304x256, .f32⟩ : BufTy).Contents (Elt F) → (⟨S98304x256, .f32⟩ : BufTy).Contents (Elt F) → (⟨S98304x256, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S98304x256, .f32⟩) main_call11_v0) (broadcastInDim S98304x256 ![] bcast_S_S98304x256),
    TRef.binary (TRef.of (T := ⟨S98304x256, .f32⟩) main_v293) (TRef.of (T := ⟨S98304x256, .f32⟩) main_call11_v0) (TRef.of (T := ⟨S98304x256, .f32⟩) main_v294) maximumf,
    nullary main_cst_49 (constant S_ .f32 0x00000000#32),
    unary main_cst_49 main_v295 (broadcastInDim S65536x256 ![] bcast_S_S65536x256 : (⟨S_, .f32⟩ : BufTy).Contents (Elt F) → (⟨S65536x256, .f32⟩ : BufTy).Contents (Elt F)),
    unary main_v55 main_v296 (broadcastInDim S98304x1 ![0] bcast_S98304_S98304x1_0 : (⟨S98304, .i32⟩ : BufTy).Contents (Elt F) → (⟨S98304x1, .i32⟩ : BufTy).Contents (Elt F)),
    ternary main_v295 main_v296 main_v294 main_v297 ((fun x i u => Host.scatterAdd scatter_S65536x256_S98304x1_S98304x256_1_0_0_1 x i u) : (⟨S65536x256, .f32⟩ : BufTy).Contents (Elt F) → (⟨S98304x1, .i32⟩ : BufTy).Contents (Elt F) → (⟨S98304x256, .f32⟩ : BufTy).Contents (Elt F) → (⟨S65536x256, .f32⟩ : BufTy).Contents (Elt F)),
    reshape main_v226 main_v298 rfl shapeCasts_S32768x256_S256x128x256,
    binary main_v21 main_v298 main_v299 ((fun l r => Host.dotGeneral dot_S256x256x128_S256x128x256_S256x256x256_2_1_1_2_0_0 none l r) : (⟨S256x256x128, .f32⟩ : BufTy).Contents (Elt F) → (⟨S256x128x256, .f32⟩ : BufTy).Contents (Elt F) → (⟨S256x256x256, .f32⟩ : BufTy).Contents (Elt F)),
    reshape main_v299 main_v300 rfl shapeCasts_S256x256x256_S65536x256,
    unary main_arg21 main_v301 ((extractStridedSlice S1x1x256x256 ![2, 0, 0, 0] · slices_S4x2x256x256_S1x1x256x256_2_0_0_0) : (⟨S4x2x256x256, .f32⟩ : BufTy).Contents (Elt F) → (⟨S1x1x256x256, .f32⟩ : BufTy).Contents (Elt F)),
    reshape main_v301 main_v302 rfl shapeCasts_S1x1x256x256_S256x256,
    binary main_v300 main_v302 main_v303 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    reshape main_v237 main_v304 rfl shapeCasts_S65536x256_S256x256x256,
    binary main_v43 main_v304 main_v305 ((fun l r => Host.dotGeneral dot_S256x64x256_S256x256x256_S256x64x256_2_1_1_2_0_0 none l r) : (⟨S256x64x256, .f32⟩ : BufTy).Contents (Elt F) → (⟨S256x256x256, .f32⟩ : BufTy).Contents (Elt F) → (⟨S256x64x256, .f32⟩ : BufTy).Contents (Elt F)),
    reshape main_v305 main_v306 rfl shapeCasts_S256x64x256_S16384x256,
    unary main_arg21 main_v307 ((extractStridedSlice S1x1x256x256 ![2, 1, 0, 0] · slices_S4x2x256x256_S1x1x256x256_2_1_0_0) : (⟨S4x2x256x256, .f32⟩ : BufTy).Contents (Elt F) → (⟨S1x1x256x256, .f32⟩ : BufTy).Contents (Elt F)) ]
/-- Each touches TensorCore references only. -/
theorem refP8_sub : (refP8 : List (HloOp τ sig (Elt F))).Forall fun op => op.bufs ⊆ tcRefs τ sig :=
  ⟨reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., nullary_bufs_sub .., unary_bufs_sub .., binary_bufs_sub .., nullary_bufs_sub .., unary_bufs_sub .., unary_bufs_sub .., ternary_bufs_sub .., reshape_bufs_sub .., binary_bufs_sub .., reshape_bufs_sub .., unary_bufs_sub .., reshape_bufs_sub .., binary_bufs_sub .., reshape_bufs_sub .., binary_bufs_sub .., reshape_bufs_sub .., unary_bufs_sub ..⟩
/-- None leaves a buffer undetermined. -/
theorem refP8_fresh : ∀ op ∈ (refP8 : List (HloOp τ sig (Elt F))), op.fresh = ∅ := by
  intro _ h; (repeat (cases h with | head => rfl | tail _ h => ?_)); exact nomatch h
/-- The references these operations write. -/
abbrev refP8_W : List (Ref sig .tc) := [main_v256, main_v257, main_c_42, main_v258, main_v259, main_c_43, main_v260, main_v261, main_v262, main_v263, main_v264, main_v265, main_v266, main_v267, main_v268, main_call10_cst, main_call10_v0, main_v269, main_cst_44, main_v270, main_v271, main_v272, main_c_45, main_v273, main_v274, main_c_46, main_v275, main_v276, main_v277, main_v278, main_v279, main_v280, main_v281, main_v282, main_c_47, main_v283, main_v284, main_c_48, main_v285, main_v286, main_v287, main_v288, main_v289, main_v290, main_v291, main_v292, main_v293, main_call11_cst, main_call11_v0, main_v294, main_cst_49, main_v295, main_v296, main_v297, main_v298, main_v299, main_v300, main_v301, main_v302, main_v303, main_v304, main_v305, main_v306, main_v307]
set_option maxHeartbeats 4000000 in
theorem refP8_writes : (refP8 : List (HloOp τ sig (Elt F))).Forall fun op => op.writes ⊆ (refP8_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- A reference these operations do not write keeps its contents. -/
theorem refP8_keep (V : Valuation τ sig (Elt F)) (r : Ref sig .tc) (h : r ∉ refP8_W) : after refP8 V (Proc.devRef .tc r) = V (Proc.devRef .tc r) :=
  after_of_writes_sub refP8 V refP8_writes h

set_option maxHeartbeats 4000000 in
/-- Operations 384 … 422 of @main (counted from 0), in order. -/
abbrev refP9 : List (HloOp τ sig (Elt F)) :=
  [ reshape main_v307 main_v308 rfl shapeCasts_S1x1x256x256_S256x256,
    binary main_v306 main_v308 main_v309 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    unary main_arg17 main_v310 ((extractStridedSlice S1x1x256x256 ![2, 0, 0, 0] · slices_S4x3x256x256_S1x1x256x256_2_0_0_0) : (⟨S4x3x256x256, .f32⟩ : BufTy).Contents (Elt F) → (⟨S1x1x256x256, .f32⟩ : BufTy).Contents (Elt F)),
    reshape main_v310 main_v311 rfl shapeCasts_S1x1x256x256_S256x256,
    binary main_v226 main_v311 main_v312 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg18 main_v313 ((extractStridedSlice S1x1x256 ![2, 0, 0] · slices_S4x3x256_S1x1x256_2_0_0) : (⟨S4x3x256, .f32⟩ : BufTy).Contents (Elt F) → (⟨S1x1x256, .f32⟩ : BufTy).Contents (Elt F)),
    reshape main_v313 main_v314 rfl shapeCasts_S1x1x256_S256,
    unary main_v314 main_v315 (broadcastInDim S1x256 ![1] bcast_S256_S1x256_1 : (⟨S256, .f32⟩ : BufTy).Contents (Elt F) → (⟨S1x256, .f32⟩ : BufTy).Contents (Elt F)),
    unary main_v315 main_v316 (broadcastInDim S32768x256 ![0, 1] bcast_S1x256_S32768x256_0_1 : (⟨S1x256, .f32⟩ : BufTy).Contents (Elt F) → (⟨S32768x256, .f32⟩ : BufTy).Contents (Elt F)),
    binary main_v312 main_v316 main_v317 (addf : (⟨S32768x256, .f32⟩ : BufTy).Contents (Elt F) → (⟨S32768x256, .f32⟩ : BufTy).Contents (Elt F) → (⟨S32768x256, .f32⟩ : BufTy).Contents (Elt F)),
    binary main_v317 main_v272 main_v318 (addf : (⟨S32768x256, .f32⟩ : BufTy).Contents (Elt F) → (⟨S32768x256, .f32⟩ : BufTy).Contents (Elt F) → (⟨S32768x256, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S32768x256, .f32⟩) main_call12_v0) (broadcastInDim S32768x256 ![] bcast_S_S32768x256),
    TRef.binary (TRef.of (T := ⟨S32768x256, .f32⟩) main_v318) (TRef.of (T := ⟨S32768x256, .f32⟩) main_call12_v0) (TRef.of (T := ⟨S32768x256, .f32⟩) main_v319) maximumf,
    unary main_arg17 main_v320 ((extractStridedSlice S1x1x256x256 ![2, 1, 0, 0] · slices_S4x3x256x256_S1x1x256x256_2_1_0_0) : (⟨S4x3x256x256, .f32⟩ : BufTy).Contents (Elt F) → (⟨S1x1x256x256, .f32⟩ : BufTy).Contents (Elt F)),
    reshape main_v320 main_v321 rfl shapeCasts_S1x1x256x256_S256x256,
    binary main_v237 main_v321 main_v322 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg18 main_v323 ((extractStridedSlice S1x1x256 ![2, 1, 0] · slices_S4x3x256_S1x1x256_2_1_0) : (⟨S4x3x256, .f32⟩ : BufTy).Contents (Elt F) → (⟨S1x1x256, .f32⟩ : BufTy).Contents (Elt F)),
    reshape main_v323 main_v324 rfl shapeCasts_S1x1x256_S256,
    unary main_v324 main_v325 (broadcastInDim S1x256 ![1] bcast_S256_S1x256_1 : (⟨S256, .f32⟩ : BufTy).Contents (Elt F) → (⟨S1x256, .f32⟩ : BufTy).Contents (Elt F)),
    unary main_v325 main_v326 (broadcastInDim S65536x256 ![0, 1] bcast_S1x256_S65536x256_0_1 : (⟨S1x256, .f32⟩ : BufTy).Contents (Elt F) → (⟨S65536x256, .f32⟩ : BufTy).Contents (Elt F)),
    binary main_v322 main_v326 main_v327 (addf : (⟨S65536x256, .f32⟩ : BufTy).Contents (Elt F) → (⟨S65536x256, .f32⟩ : BufTy).Contents (Elt F) → (⟨S65536x256, .f32⟩ : BufTy).Contents (Elt F)),
    binary main_v327 main_v297 main_v328 (addf : (⟨S65536x256, .f32⟩ : BufTy).Contents (Elt F) → (⟨S65536x256, .f32⟩ : BufTy).Contents (Elt F) → (⟨S65536x256, .f32⟩ : BufTy).Contents (Elt F)),
    binary main_v328 main_v303 main_v329 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S65536x256, .f32⟩) main_call13_v0) (broadcastInDim S65536x256 ![] bcast_S_S65536x256),
    TRef.binary (TRef.of (T := ⟨S65536x256, .f32⟩) main_v329) (TRef.of (T := ⟨S65536x256, .f32⟩) main_call13_v0) (TRef.of (T := ⟨S65536x256, .f32⟩) main_v330) maximumf,
    unary main_arg17 main_v331 ((extractStridedSlice S1x1x256x256 ![2, 2, 0, 0] · slices_S4x3x256x256_S1x1x256x256_2_2_0_0) : (⟨S4x3x256x256, .f32⟩ : BufTy).Contents (Elt F) → (⟨S1x1x256x256, .f32⟩ : BufTy).Contents (Elt F)),
    reshape main_v331 main_v332 rfl shapeCasts_S1x1x256x256_S256x256,
    binary main_v247 main_v332 main_v333 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    unary main_arg18 main_v334 ((extractStridedSlice S1x1x256 ![2, 2, 0] · slices_S4x3x256_S1x1x256_2_2_0) : (⟨S4x3x256, .f32⟩ : BufTy).Contents (Elt F) → (⟨S1x1x256, .f32⟩ : BufTy).Contents (Elt F)),
    reshape main_v334 main_v335 rfl shapeCasts_S1x1x256_S256,
    unary main_v335 main_v336 (broadcastInDim S1x256 ![1] bcast_S256_S1x256_1 : (⟨S256, .f32⟩ : BufTy).Contents (Elt F) → (⟨S1x256, .f32⟩ : BufTy).Contents (Elt F)),
    unary main_v336 main_v337 (broadcastInDim S16384x256 ![0, 1] bcast_S1x256_S16384x256_0_1 : (⟨S1x256, .f32⟩ : BufTy).Contents (Elt F) → (⟨S16384x256, .f32⟩ : BufTy).Contents (Elt F)),
    binary main_v333 main_v337 main_v338 (addf : (⟨S16384x256, .f32⟩ : BufTy).Contents (Elt F) → (⟨S16384x256, .f32⟩ : BufTy).Contents (Elt F) → (⟨S16384x256, .f32⟩ : BufTy).Contents (Elt F)),
    binary main_v338 main_v309 main_v339 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S16384x256, .f32⟩) main_call14_v0) (broadcastInDim S16384x256 ![] bcast_S_S16384x256),
    TRef.binary (TRef.of (T := ⟨S16384x256, .f32⟩) main_v339) (TRef.of (T := ⟨S16384x256, .f32⟩) main_call14_v0) (TRef.of (T := ⟨S16384x256, .f32⟩) main_v340) maximumf ]
/-- Each touches TensorCore references only. -/
theorem refP9_sub : (refP9 : List (HloOp τ sig (Elt F))).Forall fun op => op.bufs ⊆ tcRefs τ sig :=
  ⟨reshape_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub ..⟩
/-- None leaves a buffer undetermined. -/
theorem refP9_fresh : ∀ op ∈ (refP9 : List (HloOp τ sig (Elt F))), op.fresh = ∅ := by
  intro _ h; (repeat (cases h with | head => rfl | tail _ h => ?_)); exact nomatch h
/-- The references these operations write. -/
abbrev refP9_W : List (Ref sig .tc) := [main_v308, main_v309, main_v310, main_v311, main_v312, main_v313, main_v314, main_v315, main_v316, main_v317, main_v318, main_call12_cst, main_call12_v0, main_v319, main_v320, main_v321, main_v322, main_v323, main_v324, main_v325, main_v326, main_v327, main_v328, main_v329, main_call13_cst, main_call13_v0, main_v330, main_v331, main_v332, main_v333, main_v334, main_v335, main_v336, main_v337, main_v338, main_v339, main_call14_cst, main_call14_v0, main_v340]
set_option maxHeartbeats 4000000 in
theorem refP9_writes : (refP9 : List (HloOp τ sig (Elt F))).Forall fun op => op.writes ⊆ (refP9_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- A reference these operations do not write keeps its contents. -/
theorem refP9_keep (V : Valuation τ sig (Elt F)) (r : Ref sig .tc) (h : r ∉ refP9_W) : after refP9 V (Proc.devRef .tc r) = V (Proc.devRef .tc r) :=
  after_of_writes_sub refP9 V refP9_writes h

/-- Chunk 3 of @main: layer 2. Operations 310 … 422. -/
abbrev refC3 : List (HloOp τ sig (Elt F)) := refP7 ++ (refP8 ++ refP9)
abbrev refC3_W : List (Ref sig .tc) := refP7_W ++ (refP8_W ++ refP9_W)
theorem refC3_sub : (refC3 : List (HloOp τ sig (Elt F))).Forall fun op => op.bufs ⊆ tcRefs τ sig :=
  Cert.LibSeq.forall_append refP7_sub (Cert.LibSeq.forall_append refP8_sub refP9_sub)
theorem refC3_fresh : ∀ op ∈ (refC3 : List (HloOp τ sig (Elt F))), op.fresh = ∅ :=
  Cert.LibSeq.fresh_append refP7_fresh (Cert.LibSeq.fresh_append refP8_fresh refP9_fresh)
/-- A reference the chunk does not write keeps its contents over it. -/
theorem refC3_keep (V : Valuation τ sig (Elt F)) (r : Ref sig .tc) (h : r ∉ refC3_W) : after refC3 V (Proc.devRef .tc r) = V (Proc.devRef .tc r) := by
  simp only [Cert.LibSeq.after_append]
  simp only [List.mem_append, not_or] at h
  obtain ⟨h7, ⟨h8, h9⟩⟩ := h
  rw [refP9_keep _ r h9, refP8_keep _ r h8, refP7_keep _ r h7]

end Cert.ReferenceIdeal.Hand

end
-- ==== Proof.RefOps4.lean ====
import proofs.«101828_j11562051961417_2_alg».proof.Proof.Gen.ReferenceIdeal
import proofs.«101828_j11562051961417_2_alg».proof.Proof.LibSeq
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 423 … 451 of @main (counted from 0), in order. -/
abbrev refP10 : List (HloOp τ sig (Elt F)) :=
  [ nullary main_c_50 (constantI S_ 32 0#32),
    unary main_c_50 main_v341 (broadcastInDim S131072 ![] bcast_S_S131072 : (⟨S_, .i32⟩ : BufTy).Contents (Elt F) → (⟨S131072, .i32⟩ : BufTy).Contents (Elt F)),
    binary main_v49 main_v341 main_v342 (cmpi .slt : (⟨S131072, .i32⟩ : BufTy).Contents (Elt F) → (⟨S131072, .i32⟩ : BufTy).Contents (Elt F) → (⟨S131072, .i1⟩ : BufTy).Contents (Elt F)),
    nullary main_c_51 (constantI S_ 32 32768#32),
    unary main_c_51 main_v343 (broadcastInDim S131072 ![] bcast_S_S131072 : (⟨S_, .i32⟩ : BufTy).Contents (Elt F) → (⟨S131072, .i32⟩ : BufTy).Contents (Elt F)),
    binary main_v49 main_v343 main_v344 (addi : (⟨S131072, .i32⟩ : BufTy).Contents (Elt F) → (⟨S131072, .i32⟩ : BufTy).Contents (Elt F) → (⟨S131072, .i32⟩ : BufTy).Contents (Elt F)),
    ternary main_v342 main_v344 main_v49 main_v345 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v345 main_v346 (broadcastInDim S131072x1 ![0] bcast_S131072_S131072x1_0 : (⟨S131072, .i32⟩ : BufTy).Contents (Elt F) → (⟨S131072x1, .i32⟩ : BufTy).Contents (Elt F)),
    binary main_v319 main_v346 main_v347 ((fun x i => Host.gather gather_S32768x256_S131072x1_S131072x256_1_0_n_n_0_1_1256 x i) : (⟨S32768x256, .f32⟩ : BufTy).Contents (Elt F) → (⟨S131072x1, .i32⟩ : BufTy).Contents (Elt F) → (⟨S131072x256, .f32⟩ : BufTy).Contents (Elt F)),
    unary main_arg19 main_v348 ((extractStridedSlice S1x1x256x256 ![3, 0, 0, 0] · slices_S4x2x256x256_S1x1x256x256_3_0_0_0) : (⟨S4x2x256x256, .f32⟩ : BufTy).Contents (Elt F) → (⟨S1x1x256x256, .f32⟩ : BufTy).Contents (Elt F)),
    reshape main_v348 main_v349 rfl shapeCasts_S1x1x256x256_S256x256,
    binary main_v347 main_v349 main_v350 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    nullary main_c_52 (constantI S_ 32 0#32),
    unary main_c_52 main_v351 (broadcastInDim S131072 ![] bcast_S_S131072 : (⟨S_, .i32⟩ : BufTy).Contents (Elt F) → (⟨S131072, .i32⟩ : BufTy).Contents (Elt F)),
    binary main_v52 main_v351 main_v352 (cmpi .slt : (⟨S131072, .i32⟩ : BufTy).Contents (Elt F) → (⟨S131072, .i32⟩ : BufTy).Contents (Elt F) → (⟨S131072, .i1⟩ : BufTy).Contents (Elt F)),
    nullary main_c_53 (constantI S_ 32 65536#32),
    unary main_c_53 main_v353 (broadcastInDim S131072 ![] bcast_S_S131072 : (⟨S_, .i32⟩ : BufTy).Contents (Elt F) → (⟨S131072, .i32⟩ : BufTy).Contents (Elt F)),
    binary main_v52 main_v353 main_v354 (addi : (⟨S131072, .i32⟩ : BufTy).Contents (Elt F) → (⟨S131072, .i32⟩ : BufTy).Contents (Elt F) → (⟨S131072, .i32⟩ : BufTy).Contents (Elt F)),
    ternary main_v352 main_v354 main_v52 main_v355 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v355 main_v356 (broadcastInDim S131072x1 ![0] bcast_S131072_S131072x1_0 : (⟨S131072, .i32⟩ : BufTy).Contents (Elt F) → (⟨S131072x1, .i32⟩ : BufTy).Contents (Elt F)),
    binary main_v330 main_v356 main_v357 ((fun x i => Host.gather gather_S65536x256_S131072x1_S131072x256_1_0_n_n_0_1_1256 x i) : (⟨S65536x256, .f32⟩ : BufTy).Contents (Elt F) → (⟨S131072x1, .i32⟩ : BufTy).Contents (Elt F) → (⟨S131072x256, .f32⟩ : BufTy).Contents (Elt F)),
    unary main_arg20 main_v358 ((extractStridedSlice S1x1x256x256 ![3, 0, 0, 0] · slices_S4x2x256x256_S1x1x256x256_3_0_0_0) : (⟨S4x2x256x256, .f32⟩ : BufTy).Contents (Elt F) → (⟨S1x1x256x256, .f32⟩ : BufTy).Contents (Elt F)),
    reshape main_v358 main_v359 rfl shapeCasts_S1x1x256x256_S256x256,
    binary main_v357 main_v359 main_v360 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    binary main_v350 main_v360 main_v361 (addf : (⟨S131072x256, .f32⟩ : BufTy).Contents (Elt F) → (⟨S131072x256, .f32⟩ : BufTy).Contents (Elt F) → (⟨S131072x256, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S131072x256, .f32⟩) main_call15_v0) (broadcastInDim S131072x256 ![] bcast_S_S131072x256),
    TRef.binary (TRef.of (T := ⟨S131072x256, .f32⟩) main_v361) (TRef.of (T := ⟨S131072x256, .f32⟩) main_call15_v0) (TRef.of (T := ⟨S131072x256, .f32⟩) main_v362) maximumf,
    nullary main_cst_54 (constant S_ .f32 0x00000000#32) ]
/-- Each touches TensorCore references only. -/
theorem refP10_sub : (refP10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., nullary_bufs_sub .., unary_bufs_sub .., binary_bufs_sub .., nullary_bufs_sub ..⟩
/-- None leaves a buffer undetermined. -/
theorem refP10_fresh : ∀ op ∈ (refP10 : List (HloOp τ sig (Elt F))), op.fresh = ∅ := by
  intro _ h; (repeat (cases h with | head => rfl | tail _ h => ?_)); exact nomatch h
/-- The references these operations write. -/
abbrev refP10_W : List (Ref sig .tc) := [main_c_50, main_v341, main_v342, main_c_51, main_v343, main_v344, main_v345, main_v346, main_v347, main_v348, main_v349, main_v350, main_c_52, main_v351, main_v352, main_c_53, main_v353, main_v354, main_v355, main_v356, main_v357, main_v358, main_v359, main_v360, main_v361, main_call15_cst, main_call15_v0, main_v362, main_cst_54]
set_option maxHeartbeats 4000000 in
theorem refP10_writes : (refP10 : List (HloOp τ sig (Elt F))).Forall fun op => op.writes ⊆ (refP10_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- A reference these operations do not write keeps its contents. -/
theorem refP10_keep (V : Valuation τ sig (Elt F)) (r : Ref sig .tc) (h : r ∉ refP10_W) : after refP10 V (Proc.devRef .tc r) = V (Proc.devRef .tc r) :=
  after_of_writes_sub refP10 V refP10_writes h

set_option maxHeartbeats 4000000 in
/-- Operations 452 … 515 of @main (counted from 0), in order. -/
abbrev refP11 : List (HloOp τ sig (Elt F)) :=
  [ unary main_cst_54 main_v363 (broadcastInDim S32768x256 ![] bcast_S_S32768x256 : (⟨S_, .f32⟩ : BufTy).Contents (Elt F) → (⟨S32768x256, .f32⟩ : BufTy).Contents (Elt F)),
    unary main_v46 main_v364 (broadcastInDim S131072x1 ![0] bcast_S131072_S131072x1_0 : (⟨S131072, .i32⟩ : BufTy).Contents (Elt F) → (⟨S131072x1, .i32⟩ : BufTy).Contents (Elt F)),
    ternary main_v363 main_v364 main_v362 main_v365 ((fun x i u => Host.scatterAdd scatter_S32768x256_S131072x1_S131072x256_1_0_0_1 x i u) : (⟨S32768x256, .f32⟩ : BufTy).Contents (Elt F) → (⟨S131072x1, .i32⟩ : BufTy).Contents (Elt F) → (⟨S131072x256, .f32⟩ : BufTy).Contents (Elt F) → (⟨S32768x256, .f32⟩ : BufTy).Contents (Elt F)),
    nullary main_c_55 (constantI S_ 32 0#32),
    unary main_c_55 main_v366 (broadcastInDim S98304 ![] bcast_S_S98304 : (⟨S_, .i32⟩ : BufTy).Contents (Elt F) → (⟨S98304, .i32⟩ : BufTy).Contents (Elt F)),
    binary main_v58 main_v366 main_v367 (cmpi .slt : (⟨S98304, .i32⟩ : BufTy).Contents (Elt F) → (⟨S98304, .i32⟩ : BufTy).Contents (Elt F) → (⟨S98304, .i1⟩ : BufTy).Contents (Elt F)),
    nullary main_c_56 (constantI S_ 32 65536#32),
    unary main_c_56 main_v368 (broadcastInDim S98304 ![] bcast_S_S98304 : (⟨S_, .i32⟩ : BufTy).Contents (Elt F) → (⟨S98304, .i32⟩ : BufTy).Contents (Elt F)),
    binary main_v58 main_v368 main_v369 (addi : (⟨S98304, .i32⟩ : BufTy).Contents (Elt F) → (⟨S98304, .i32⟩ : BufTy).Contents (Elt F) → (⟨S98304, .i32⟩ : BufTy).Contents (Elt F)),
    ternary main_v367 main_v369 main_v58 main_v370 (select : (⟨S98304, .i1⟩ : BufTy).Contents (Elt F) → (⟨S98304, .i32⟩ : BufTy).Contents (Elt F) → (⟨S98304, .i32⟩ : BufTy).Contents (Elt F) → (⟨S98304, .i32⟩ : BufTy).Contents (Elt F)),
    unary main_v370 main_v371 (broadcastInDim S98304x1 ![0] bcast_S98304_S98304x1_0 : (⟨S98304, .i32⟩ : BufTy).Contents (Elt F) → (⟨S98304x1, .i32⟩ : BufTy).Contents (Elt F)),
    binary main_v330 main_v371 main_v372 ((fun x i => Host.gather gather_S65536x256_S98304x1_S98304x256_1_0_n_n_0_1_1256 x i) : (⟨S65536x256, .f32⟩ : BufTy).Contents (Elt F) → (⟨S98304x1, .i32⟩ : BufTy).Contents (Elt F) → (⟨S98304x256, .f32⟩ : BufTy).Contents (Elt F)),
    unary main_arg19 main_v373 ((extractStridedSlice S1x1x256x256 ![3, 1, 0, 0] · slices_S4x2x256x256_S1x1x256x256_3_1_0_0) : (⟨S4x2x256x256, .f32⟩ : BufTy).Contents (Elt F) → (⟨S1x1x256x256, .f32⟩ : BufTy).Contents (Elt F)),
    reshape main_v373 main_v374 rfl shapeCasts_S1x1x256x256_S256x256,
    binary main_v372 main_v374 main_v375 ((fun l r => Host.dotGeneral dot_S98304x256_S256x256_S98304x256_1_0_0_1_n_n none l r) : (⟨S98304x256, .f32⟩ : BufTy).Contents (Elt F) → (⟨S256x256, .f32⟩ : BufTy).Contents (Elt F) → (⟨S98304x256, .f32⟩ : BufTy).Contents (Elt F)),
    nullary main_c_57 (constantI S_ 32 0#32),
    unary main_c_57 main_v376 (broadcastInDim S98304 ![] bcast_S_S98304 : (⟨S_, .i32⟩ : BufTy).Contents (Elt F) → (⟨S98304, .i32⟩ : BufTy).Contents (Elt F)),
    binary main_v61 main_v376 main_v377 (cmpi .slt : (⟨S98304, .i32⟩ : BufTy).Contents (Elt F) → (⟨S98304, .i32⟩ : BufTy).Contents (Elt F) → (⟨S98304, .i1⟩ : BufTy).Contents (Elt F)),
    nullary main_c_58 (constantI S_ 32 16384#32),
    unary main_c_58 main_v378 (broadcastInDim S98304 ![] bcast_S_S98304 : (⟨S_, .i32⟩ : BufTy).Contents (Elt F) → (⟨S98304, .i32⟩ : BufTy).Contents (Elt F)),
    binary main_v61 main_v378 main_v379 (addi : (⟨S98304, .i32⟩ : BufTy).Contents (Elt F) → (⟨S98304, .i32⟩ : BufTy).Contents (Elt F) → (⟨S98304, .i32⟩ : BufTy).Contents (Elt F)),
    ternary main_v377 main_v379 main_v61 main_v380 (select : (⟨S98304, .i1⟩ : BufTy).Contents (Elt F) → (⟨S98304, .i32⟩ : BufTy).Contents (Elt F) → (⟨S98304, .i32⟩ : BufTy).Contents (Elt F) → (⟨S98304, .i32⟩ : BufTy).Contents (Elt F)),
    unary main_v380 main_v381 (broadcastInDim S98304x1 ![0] bcast_S98304_S98304x1_0 : (⟨S98304, .i32⟩ : BufTy).Contents (Elt F) → (⟨S98304x1, .i32⟩ : BufTy).Contents (Elt F)),
    binary main_v340 main_v381 main_v382 ((fun x i => Host.gather gather_S16384x256_S98304x1_S98304x256_1_0_n_n_0_1_1256 x i) : (⟨S16384x256, .f32⟩ : BufTy).Contents (Elt F) → (⟨S98304x1, .i32⟩ : BufTy).Contents (Elt F) → (⟨S98304x256, .f32⟩ : BufTy).Contents (Elt F)),
    unary main_arg20 main_v383 ((extractStridedSlice S1x1x256x256 ![3, 1, 0, 0] · slices_S4x2x256x256_S1x1x256x256_3_1_0_0) : (⟨S4x2x256x256, .f32⟩ : BufTy).Contents (Elt F) → (⟨S1x1x256x256, .f32⟩ : BufTy).Contents (Elt F)),
    reshape main_v383 main_v384 rfl shapeCasts_S1x1x256x256_S256x256,
    binary main_v382 main_v384 main_v385 ((fun l r => Host.dotGeneral dot_S98304x256_S256x256_S98304x256_1_0_0_1_n_n none l r) : (⟨S98304x256, .f32⟩ : BufTy).Contents (Elt F) → (⟨S256x256, .f32⟩ : BufTy).Contents (Elt F) → (⟨S98304x256, .f32⟩ : BufTy).Contents (Elt F)),
    binary main_v375 main_v385 main_v386 (addf : (⟨S98304x256, .f32⟩ : BufTy).Contents (Elt F) → (⟨S98304x256, .f32⟩ : BufTy).Contents (Elt F) → (⟨S98304x256, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S98304x256, .f32⟩) main_call16_v0) (broadcastInDim S98304x256 ![] bcast_S_S98304x256),
    TRef.binary (TRef.of (T := ⟨S98304x256, .f32⟩) main_v386) (TRef.of (T := ⟨S98304x256, .f32⟩) main_call16_v0) (TRef.of (T := ⟨S98304x256, .f32⟩) main_v387) maximumf,
    nullary main_cst_59 (constant S_ .f32 0x00000000#32),
    unary main_cst_59 main_v388 (broadcastInDim S65536x256 ![] bcast_S_S65536x256 : (⟨S_, .f32⟩ : BufTy).Contents (Elt F) → (⟨S65536x256, .f32⟩ : BufTy).Contents (Elt F)),
    unary main_v55 main_v389 (broadcastInDim S98304x1 ![0] bcast_S98304_S98304x1_0 : (⟨S98304, .i32⟩ : BufTy).Contents (Elt F) → (⟨S98304x1, .i32⟩ : BufTy).Contents (Elt F)),
    ternary main_v388 main_v389 main_v387 main_v390 ((fun x i u => Host.scatterAdd scatter_S65536x256_S98304x1_S98304x256_1_0_0_1 x i u) : (⟨S65536x256, .f32⟩ : BufTy).Contents (Elt F) → (⟨S98304x1, .i32⟩ : BufTy).Contents (Elt F) → (⟨S98304x256, .f32⟩ : BufTy).Contents (Elt F) → (⟨S65536x256, .f32⟩ : BufTy).Contents (Elt F)),
    reshape main_v319 main_v391 rfl shapeCasts_S32768x256_S256x128x256,
    binary main_v21 main_v391 main_v392 ((fun l r => Host.dotGeneral dot_S256x256x128_S256x128x256_S256x256x256_2_1_1_2_0_0 none l r) : (⟨S256x256x128, .f32⟩ : BufTy).Contents (Elt F) → (⟨S256x128x256, .f32⟩ : BufTy).Contents (Elt F) → (⟨S256x256x256, .f32⟩ : BufTy).Contents (Elt F)),
    reshape main_v392 main_v393 rfl shapeCasts_S256x256x256_S65536x256,
    unary main_arg21 main_v394 ((extractStridedSlice S1x1x256x256 ![3, 0, 0, 0] · slices_S4x2x256x256_S1x1x256x256_3_0_0_0) : (⟨S4x2x256x256, .f32⟩ : BufTy).Contents (Elt F) → (⟨S1x1x256x256, .f32⟩ : BufTy).Contents (Elt F)),
    reshape main_v394 main_v395 rfl shapeCasts_S1x1x256x256_S256x256,
    binary main_v393 main_v395 main_v396 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    reshape main_v330 main_v397 rfl shapeCasts_S65536x256_S256x256x256,
    binary main_v43 main_v397 main_v398 ((fun l r => Host.dotGeneral dot_S256x64x256_S256x256x256_S256x64x256_2_1_1_2_0_0 none l r) : (⟨S256x64x256, .f32⟩ : BufTy).Contents (Elt F) → (⟨S256x256x256, .f32⟩ : BufTy).Contents (Elt F) → (⟨S256x64x256, .f32⟩ : BufTy).Contents (Elt F)),
    reshape main_v398 main_v399 rfl shapeCasts_S256x64x256_S16384x256,
    unary main_arg21 main_v400 ((extractStridedSlice S1x1x256x256 ![3, 1, 0, 0] · slices_S4x2x256x256_S1x1x256x256_3_1_0_0) : (⟨S4x2x256x256, .f32⟩ : BufTy).Contents (Elt F) → (⟨S1x1x256x256, .f32⟩ : BufTy).Contents (Elt F)),
    reshape main_v400 main_v401 rfl shapeCasts_S1x1x256x256_S256x256,
    binary main_v399 main_v401 main_v402 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    unary main_arg17 main_v403 ((extractStridedSlice S1x1x256x256 ![3, 0, 0, 0] · slices_S4x3x256x256_S1x1x256x256_3_0_0_0) : (⟨S4x3x256x256, .f32⟩ : BufTy).Contents (Elt F) → (⟨S1x1x256x256, .f32⟩ : BufTy).Contents (Elt F)),
    reshape main_v403 main_v404 rfl shapeCasts_S1x1x256x256_S256x256,
    binary main_v319 main_v404 main_v405 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg18 main_v406 ((extractStridedSlice S1x1x256 ![3, 0, 0] · slices_S4x3x256_S1x1x256_3_0_0) : (⟨S4x3x256, .f32⟩ : BufTy).Contents (Elt F) → (⟨S1x1x256, .f32⟩ : BufTy).Contents (Elt F)),
    reshape main_v406 main_v407 rfl shapeCasts_S1x1x256_S256,
    unary main_v407 main_v408 (broadcastInDim S1x256 ![1] bcast_S256_S1x256_1 : (⟨S256, .f32⟩ : BufTy).Contents (Elt F) → (⟨S1x256, .f32⟩ : BufTy).Contents (Elt F)),
    unary main_v408 main_v409 (broadcastInDim S32768x256 ![0, 1] bcast_S1x256_S32768x256_0_1 : (⟨S1x256, .f32⟩ : BufTy).Contents (Elt F) → (⟨S32768x256, .f32⟩ : BufTy).Contents (Elt F)),
    binary main_v405 main_v409 main_v410 (addf : (⟨S32768x256, .f32⟩ : BufTy).Contents (Elt F) → (⟨S32768x256, .f32⟩ : BufTy).Contents (Elt F) → (⟨S32768x256, .f32⟩ : BufTy).Contents (Elt F)),
    binary main_v410 main_v365 main_v411 (addf : (⟨S32768x256, .f32⟩ : BufTy).Contents (Elt F) → (⟨S32768x256, .f32⟩ : BufTy).Contents (Elt F) → (⟨S32768x256, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S32768x256, .f32⟩) main_call17_v0) (broadcastInDim S32768x256 ![] bcast_S_S32768x256),
    TRef.binary (TRef.of (T := ⟨S32768x256, .f32⟩) main_v411) (TRef.of (T := ⟨S32768x256, .f32⟩) main_call17_v0) (TRef.of (T := ⟨S32768x256, .f32⟩) main_v412) maximumf,
    unary main_arg17 main_v413 ((extractStridedSlice S1x1x256x256 ![3, 1, 0, 0] · slices_S4x3x256x256_S1x1x256x256_3_1_0_0) : (⟨S4x3x256x256, .f32⟩ : BufTy).Contents (Elt F) → (⟨S1x1x256x256, .f32⟩ : BufTy).Contents (Elt F)),
    reshape main_v413 main_v414 rfl shapeCasts_S1x1x256x256_S256x256,
    binary main_v330 main_v414 main_v415 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg18 main_v416 ((extractStridedSlice S1x1x256 ![3, 1, 0] · slices_S4x3x256_S1x1x256_3_1_0) : (⟨S4x3x256, .f32⟩ : BufTy).Contents (Elt F) → (⟨S1x1x256, .f32⟩ : BufTy).Contents (Elt F)),
    reshape main_v416 main_v417 rfl shapeCasts_S1x1x256_S256 ]
/-- Each touches TensorCore references only. -/
theorem refP11_sub : (refP11 : List (HloOp τ sig (Elt F))).Forall fun op => op.bufs ⊆ tcRefs τ sig :=
  ⟨unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., binary_bufs_sub .., nullary_bufs_sub .., unary_bufs_sub .., binary_bufs_sub .., nullary_bufs_sub .., unary_bufs_sub .., unary_bufs_sub .., ternary_bufs_sub .., reshape_bufs_sub .., binary_bufs_sub .., reshape_bufs_sub .., unary_bufs_sub .., reshape_bufs_sub .., binary_bufs_sub .., reshape_bufs_sub .., binary_bufs_sub .., reshape_bufs_sub .., unary_bufs_sub .., reshape_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., unary_bufs_sub .., reshape_bufs_sub .., binary_bufs_sub .., unary_bufs_sub .., reshape_bufs_sub ..⟩
/-- None leaves a buffer undetermined. -/
theorem refP11_fresh : ∀ op ∈ (refP11 : List (HloOp τ sig (Elt F))), op.fresh = ∅ := by
  intro _ h; (repeat (cases h with | head => rfl | tail _ h => ?_)); exact nomatch h
/-- The references these operations write. -/
abbrev refP11_W : List (Ref sig .tc) := [main_v363, main_v364, main_v365, main_c_55, main_v366, main_v367, main_c_56, main_v368, main_v369, main_v370, main_v371, main_v372, main_v373, main_v374, main_v375, main_c_57, main_v376, main_v377, main_c_58, main_v378, main_v379, main_v380, main_v381, main_v382, main_v383, main_v384, main_v385, main_v386, main_call16_cst, main_call16_v0, main_v387, main_cst_59, main_v388, main_v389, main_v390, main_v391, main_v392, main_v393, main_v394, main_v395, main_v396, main_v397, main_v398, main_v399, main_v400, main_v401, main_v402, main_v403, main_v404, main_v405, main_v406, main_v407, main_v408, main_v409, main_v410, main_v411, main_call17_cst, main_call17_v0, main_v412, main_v413, main_v414, main_v415, main_v416, main_v417]
set_option maxHeartbeats 4000000 in
theorem refP11_writes : (refP11 : List (HloOp τ sig (Elt F))).Forall fun op => op.writes ⊆ (refP11_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- A reference these operations do not write keeps its contents. -/
theorem refP11_keep (V : Valuation τ sig (Elt F)) (r : Ref sig .tc) (h : r ∉ refP11_W) : after refP11 V (Proc.devRef .tc r) = V (Proc.devRef .tc r) :=
  after_of_writes_sub refP11 V refP11_writes h

set_option maxHeartbeats 4000000 in
/-- Operations 516 … 535 of @main (counted from 0), in order. -/
abbrev refP12 : List (HloOp τ sig (Elt F)) :=
  [ unary main_v417 main_v418 (broadcastInDim S1x256 ![1] bcast_S256_S1x256_1 : (⟨S256, .f32⟩ : BufTy).Contents (Elt F) → (⟨S1x256, .f32⟩ : BufTy).Contents (Elt F)),
    unary main_v418 main_v419 (broadcastInDim S65536x256 ![0, 1] bcast_S1x256_S65536x256_0_1 : (⟨S1x256, .f32⟩ : BufTy).Contents (Elt F) → (⟨S65536x256, .f32⟩ : BufTy).Contents (Elt F)),
    binary main_v415 main_v419 main_v420 (addf : (⟨S65536x256, .f32⟩ : BufTy).Contents (Elt F) → (⟨S65536x256, .f32⟩ : BufTy).Contents (Elt F) → (⟨S65536x256, .f32⟩ : BufTy).Contents (Elt F)),
    binary main_v420 main_v390 main_v421 (addf : (⟨S65536x256, .f32⟩ : BufTy).Contents (Elt F) → (⟨S65536x256, .f32⟩ : BufTy).Contents (Elt F) → (⟨S65536x256, .f32⟩ : BufTy).Contents (Elt F)),
    binary main_v421 main_v396 main_v422 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S65536x256, .f32⟩) main_call18_v0) (broadcastInDim S65536x256 ![] bcast_S_S65536x256),
    TRef.binary (TRef.of (T := ⟨S65536x256, .f32⟩) main_v422) (TRef.of (T := ⟨S65536x256, .f32⟩) main_call18_v0) (TRef.of (T := ⟨S65536x256, .f32⟩) main_v423) maximumf,
    unary main_arg17 main_v424 ((extractStridedSlice S1x1x256x256 ![3, 2, 0, 0] · slices_S4x3x256x256_S1x1x256x256_3_2_0_0) : (⟨S4x3x256x256, .f32⟩ : BufTy).Contents (Elt F) → (⟨S1x1x256x256, .f32⟩ : BufTy).Contents (Elt F)),
    reshape main_v424 main_v425 rfl shapeCasts_S1x1x256x256_S256x256,
    binary main_v340 main_v425 main_v426 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    unary main_arg18 main_v427 ((extractStridedSlice S1x1x256 ![3, 2, 0] · slices_S4x3x256_S1x1x256_3_2_0) : (⟨S4x3x256, .f32⟩ : BufTy).Contents (Elt F) → (⟨S1x1x256, .f32⟩ : BufTy).Contents (Elt F)),
    reshape main_v427 main_v428 rfl shapeCasts_S1x1x256_S256,
    unary main_v428 main_v429 (broadcastInDim S1x256 ![1] bcast_S256_S1x256_1 : (⟨S256, .f32⟩ : BufTy).Contents (Elt F) → (⟨S1x256, .f32⟩ : BufTy).Contents (Elt F)),
    unary main_v429 main_v430 (broadcastInDim S16384x256 ![0, 1] bcast_S1x256_S16384x256_0_1 : (⟨S1x256, .f32⟩ : BufTy).Contents (Elt F) → (⟨S16384x256, .f32⟩ : BufTy).Contents (Elt F)),
    binary main_v426 main_v430 main_v431 (addf : (⟨S16384x256, .f32⟩ : BufTy).Contents (Elt F) → (⟨S16384x256, .f32⟩ : BufTy).Contents (Elt F) → (⟨S16384x256, .f32⟩ : BufTy).Contents (Elt F)),
    binary main_v431 main_v402 main_v432 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S16384x256, .f32⟩) main_call19_v0) (broadcastInDim S16384x256 ![] bcast_S_S16384x256),
    TRef.binary (TRef.of (T := ⟨S16384x256, .f32⟩) main_v432) (TRef.of (T := ⟨S16384x256, .f32⟩) main_call19_v0) (TRef.of (T := ⟨S16384x256, .f32⟩) main_v433) maximumf ]
/-- Each touches TensorCore references only. -/
theorem refP12_sub : (refP12 : List (HloOp τ sig (Elt F))).Forall fun op => op.bufs ⊆ tcRefs τ sig :=
  ⟨unary_bufs_sub .., unary_bufs_sub .., binary_bufs_sub .., binary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub ..⟩
/-- None leaves a buffer undetermined. -/
theorem refP12_fresh : ∀ op ∈ (refP12 : List (HloOp τ sig (Elt F))), op.fresh = ∅ := by
  intro _ h; (repeat (cases h with | head => rfl | tail _ h => ?_)); exact nomatch h
/-- The references these operations write. -/
abbrev refP12_W : List (Ref sig .tc) := [main_v418, main_v419, main_v420, main_v421, main_v422, main_call18_cst, main_call18_v0, main_v423, main_v424, main_v425, main_v426, main_v427, main_v428, main_v429, main_v430, main_v431, main_v432, main_call19_cst, main_call19_v0, main_v433]
set_option maxHeartbeats 4000000 in
theorem refP12_writes : (refP12 : List (HloOp τ sig (Elt F))).Forall fun op => op.writes ⊆ (refP12_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- A reference these operations do not write keeps its contents. -/
theorem refP12_keep (V : Valuation τ sig (Elt F)) (r : Ref sig .tc) (h : r ∉ refP12_W) : after refP12 V (Proc.devRef .tc r) = V (Proc.devRef .tc r) :=
  after_of_writes_sub refP12 V refP12_writes h

/-- Chunk 4 of @main: layer 3. Operations 423 … 535. -/
abbrev refC4 : List (HloOp τ sig (Elt F)) := refP10 ++ (refP11 ++ refP12)
abbrev refC4_W : List (Ref sig .tc) := refP10_W ++ (refP11_W ++ refP12_W)
theorem refC4_sub : (refC4 : List (HloOp τ sig (Elt F))).Forall fun op => op.bufs ⊆ tcRefs τ sig :=
  Cert.LibSeq.forall_append refP10_sub (Cert.LibSeq.forall_append refP11_sub refP12_sub)
theorem refC4_fresh : ∀ op ∈ (refC4 : List (HloOp τ sig (Elt F))), op.fresh = ∅ :=
  Cert.LibSeq.fresh_append refP10_fresh (Cert.LibSeq.fresh_append refP11_fresh refP12_fresh)
/-- A reference the chunk does not write keeps its contents over it. -/
theorem refC4_keep (V : Valuation τ sig (Elt F)) (r : Ref sig .tc) (h : r ∉ refC4_W) : after refC4 V (Proc.devRef .tc r) = V (Proc.devRef .tc r) := by
  simp only [Cert.LibSeq.after_append]
  simp only [List.mem_append, not_or] at h
  obtain ⟨h10, ⟨h11, h12⟩⟩ := h
  rw [refP12_keep _ r h12, refP11_keep _ r h11, refP10_keep _ r h10]

end Cert.ReferenceIdeal.Hand

end
-- ==== Proof.RefOps5.lean ====
import proofs.«101828_j11562051961417_2_alg».proof.Proof.Gen.ReferenceIdeal
import proofs.«101828_j11562051961417_2_alg».proof.Proof.LibSeq
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 536 … 579 of @main (counted from 0), in order. -/
abbrev refP13 : List (HloOp τ sig (Elt F)) :=
  [ binary main_v412 main_arg22 main_v434 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    binary main_arg0 main_arg23 main_v435 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    binary main_v434 main_v435 main_v436 (addf : (⟨S32768x256, .f32⟩ : BufTy).Contents (Elt F) → (⟨S32768x256, .f32⟩ : BufTy).Contents (Elt F) → (⟨S32768x256, .f32⟩ : BufTy).Contents (Elt F)),
    unary main_arg24 main_v437 (broadcastInDim S1x256 ![1] bcast_S256_S1x256_1 : (⟨S256, .f32⟩ : BufTy).Contents (Elt F) → (⟨S1x256, .f32⟩ : BufTy).Contents (Elt F)),
    unary main_v437 main_v438 (broadcastInDim S32768x256 ![0, 1] bcast_S1x256_S32768x256_0_1 : (⟨S1x256, .f32⟩ : BufTy).Contents (Elt F) → (⟨S32768x256, .f32⟩ : BufTy).Contents (Elt F)),
    binary main_v436 main_v438 main_v439 (addf : (⟨S32768x256, .f32⟩ : BufTy).Contents (Elt F) → (⟨S32768x256, .f32⟩ : BufTy).Contents (Elt F) → (⟨S32768x256, .f32⟩ : BufTy).Contents (Elt F)),
    unary main_v439 main_v440 (Host.negf : (⟨S32768x256, .f32⟩ : BufTy).Contents (Elt F) → (⟨S32768x256, .f32⟩ : BufTy).Contents (Elt F)),
    unary main_v440 main_v441 (Host.exp : (⟨S32768x256, .f32⟩ : BufTy).Contents (Elt F) → (⟨S32768x256, .f32⟩ : BufTy).Contents (Elt F)),
    nullary main_cst_60 (constant S_ .f32 0x3F800000#32),
    unary main_cst_60 main_v442 (broadcastInDim S32768x256 ![] bcast_S_S32768x256 : (⟨S_, .f32⟩ : BufTy).Contents (Elt F) → (⟨S32768x256, .f32⟩ : BufTy).Contents (Elt F)),
    binary main_v442 main_v441 main_v443 (addf : (⟨S32768x256, .f32⟩ : BufTy).Contents (Elt F) → (⟨S32768x256, .f32⟩ : BufTy).Contents (Elt F) → (⟨S32768x256, .f32⟩ : BufTy).Contents (Elt F)),
    nullary main_cst_61 (constant S_ .f32 0x3F800000#32),
    unary main_cst_61 main_v444 (broadcastInDim S32768x256 ![] bcast_S_S32768x256 : (⟨S_, .f32⟩ : BufTy).Contents (Elt F) → (⟨S32768x256, .f32⟩ : BufTy).Contents (Elt F)),
    binary main_v444 main_v443 main_v445 (Host.divf : (⟨S32768x256, .f32⟩ : BufTy).Contents (Elt F) → (⟨S32768x256, .f32⟩ : BufTy).Contents (Elt F) → (⟨S32768x256, .f32⟩ : BufTy).Contents (Elt F)),
    binary main_v445 main_v412 main_v446 (mulf : (⟨S32768x256, .f32⟩ : BufTy).Contents (Elt F) → (⟨S32768x256, .f32⟩ : BufTy).Contents (Elt F) → (⟨S32768x256, .f32⟩ : BufTy).Contents (Elt F)),
    reshape main_v446 main_v447 rfl shapeCasts_S32768x256_S256x128x256,
    nullary main_cst_62 (constant S_ .f32 0x00000000#32),
    binary main_v447 main_cst_62 main_v448 ((fun x v => Host.reduceAdd x v reducesTo_S256x128x256_S256x256_d1 h_S_) : (⟨S256x128x256, .f32⟩ : BufTy).Contents (Elt F) → (⟨S_, .f32⟩ : BufTy).Contents (Elt F) → (⟨S256x256, .f32⟩ : BufTy).Contents (Elt F)),
    binary main_v423 main_arg22 main_v449 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_arg1 main_arg23 main_v450 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v449 main_v450 main_v451 (addf : (⟨S65536x256, .f32⟩ : BufTy).Contents (Elt F) → (⟨S65536x256, .f32⟩ : BufTy).Contents (Elt F) → (⟨S65536x256, .f32⟩ : BufTy).Contents (Elt F)),
    unary main_arg24 main_v452 (broadcastInDim S1x256 ![1] bcast_S256_S1x256_1 : (⟨S256, .f32⟩ : BufTy).Contents (Elt F) → (⟨S1x256, .f32⟩ : BufTy).Contents (Elt F)),
    unary main_v452 main_v453 (broadcastInDim S65536x256 ![0, 1] bcast_S1x256_S65536x256_0_1 : (⟨S1x256, .f32⟩ : BufTy).Contents (Elt F) → (⟨S65536x256, .f32⟩ : BufTy).Contents (Elt F)),
    binary main_v451 main_v453 main_v454 (addf : (⟨S65536x256, .f32⟩ : BufTy).Contents (Elt F) → (⟨S65536x256, .f32⟩ : BufTy).Contents (Elt F) → (⟨S65536x256, .f32⟩ : BufTy).Contents (Elt F)),
    unary main_v454 main_v455 (Host.negf : (⟨S65536x256, .f32⟩ : BufTy).Contents (Elt F) → (⟨S65536x256, .f32⟩ : BufTy).Contents (Elt F)),
    unary main_v455 main_v456 (Host.exp : (⟨S65536x256, .f32⟩ : BufTy).Contents (Elt F) → (⟨S65536x256, .f32⟩ : BufTy).Contents (Elt F)),
    nullary main_cst_63 (constant S_ .f32 0x3F800000#32),
    unary main_cst_63 main_v457 (broadcastInDim S65536x256 ![] bcast_S_S65536x256 : (⟨S_, .f32⟩ : BufTy).Contents (Elt F) → (⟨S65536x256, .f32⟩ : BufTy).Contents (Elt F)),
    binary main_v457 main_v456 main_v458 (addf : (⟨S65536x256, .f32⟩ : BufTy).Contents (Elt F) → (⟨S65536x256, .f32⟩ : BufTy).Contents (Elt F) → (⟨S65536x256, .f32⟩ : BufTy).Contents (Elt F)),
    nullary main_cst_64 (constant S_ .f32 0x3F800000#32),
    unary main_cst_64 main_v459 (broadcastInDim S65536x256 ![] bcast_S_S65536x256 : (⟨S_, .f32⟩ : BufTy).Contents (Elt F) → (⟨S65536x256, .f32⟩ : BufTy).Contents (Elt F)),
    binary main_v459 main_v458 main_v460 (Host.divf : (⟨S65536x256, .f32⟩ : BufTy).Contents (Elt F) → (⟨S65536x256, .f32⟩ : BufTy).Contents (Elt F) → (⟨S65536x256, .f32⟩ : BufTy).Contents (Elt F)),
    binary main_v460 main_v423 main_v461 (mulf : (⟨S65536x256, .f32⟩ : BufTy).Contents (Elt F) → (⟨S65536x256, .f32⟩ : BufTy).Contents (Elt F) → (⟨S65536x256, .f32⟩ : BufTy).Contents (Elt F)),
    reshape main_v461 main_v462 rfl shapeCasts_S65536x256_S256x256x256,
    nullary main_cst_65 (constant S_ .f32 0x00000000#32),
    binary main_v462 main_cst_65 main_v463 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)),
    binary main_v433 main_arg22 main_v464 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    binary main_arg2 main_arg23 main_v465 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    binary main_v464 main_v465 main_v466 (addf : (⟨S16384x256, .f32⟩ : BufTy).Contents (Elt F) → (⟨S16384x256, .f32⟩ : BufTy).Contents (Elt F) → (⟨S16384x256, .f32⟩ : BufTy).Contents (Elt F)),
    unary main_arg24 main_v467 (broadcastInDim S1x256 ![1] bcast_S256_S1x256_1 : (⟨S256, .f32⟩ : BufTy).Contents (Elt F) → (⟨S1x256, .f32⟩ : BufTy).Contents (Elt F)),
    unary main_v467 main_v468 (broadcastInDim S16384x256 ![0, 1] bcast_S1x256_S16384x256_0_1 : (⟨S1x256, .f32⟩ : BufTy).Contents (Elt F) → (⟨S16384x256, .f32⟩ : BufTy).Contents (Elt F)),
    binary main_v466 main_v468 main_v469 (addf : (⟨S16384x256, .f32⟩ : BufTy).Contents (Elt F) → (⟨S16384x256, .f32⟩ : BufTy).Contents (Elt F) → (⟨S16384x256, .f32⟩ : BufTy).Contents (Elt F)),
    unary main_v469 main_v470 (Host.negf : (⟨S16384x256, .f32⟩ : BufTy).Contents (Elt F) → (⟨S16384x256, .f32⟩ : BufTy).Contents (Elt F)),
    unary main_v470 main_v471 (Host.exp : (⟨S16384x256, .f32⟩ : BufTy).Contents (Elt F) → (⟨S16384x256, .f32⟩ : BufTy).Contents (Elt F)) ]
/-- Each touches TensorCore references only. -/
theorem refP13_sub : (refP13 : List (HloOp τ sig (Elt F))).Forall fun op => op.bufs ⊆ tcRefs τ sig :=
  ⟨binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., reshape_bufs_sub .., nullary_bufs_sub .., binary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., reshape_bufs_sub .., nullary_bufs_sub .., binary_bufs_sub .., binary_bufs_sub .., binary_bufs_sub .., binary_bufs_sub .., unary_bufs_sub .., unary_bufs_sub .., binary_bufs_sub .., unary_bufs_sub .., unary_bufs_sub ..⟩
/-- None leaves a buffer undetermined. -/
theorem refP13_fresh : ∀ op ∈ (refP13 : List (HloOp τ sig (Elt F))), op.fresh = ∅ := by
  intro _ h; (repeat (cases h with | head => rfl | tail _ h => ?_)); exact nomatch h
/-- The references these operations write. -/
abbrev refP13_W : List (Ref sig .tc) := [main_v434, main_v435, main_v436, main_v437, main_v438, main_v439, main_v440, main_v441, main_cst_60, main_v442, main_v443, main_cst_61, main_v444, main_v445, main_v446, main_v447, main_cst_62, main_v448, main_v449, main_v450, main_v451, main_v452, main_v453, main_v454, main_v455, main_v456, main_cst_63, main_v457, main_v458, main_cst_64, main_v459, main_v460, main_v461, main_v462, main_cst_65, main_v463, main_v464, main_v465, main_v466, main_v467, main_v468, main_v469, main_v470, main_v471]
set_option maxHeartbeats 4000000 in
theorem refP13_writes : (refP13 : List (HloOp τ sig (Elt F))).Forall fun op => op.writes ⊆ (refP13_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- A reference these operations do not write keeps its contents. -/
theorem refP13_keep (V : Valuation τ sig (Elt F)) (r : Ref sig .tc) (h : r ∉ refP13_W) : after refP13 V (Proc.devRef .tc r) = V (Proc.devRef .tc r) :=
  after_of_writes_sub refP13 V refP13_writes h

set_option maxHeartbeats 4000000 in
/-- Operations 580 … 631 of @main (counted from 0), in order. -/
abbrev refP14 : List (HloOp τ sig (Elt F)) :=
  [ nullary main_cst_66 (constant S_ .f32 0x3F800000#32),
    unary main_cst_66 main_v472 (broadcastInDim S16384x256 ![] bcast_S_S16384x256 : (⟨S_, .f32⟩ : BufTy).Contents (Elt F) → (⟨S16384x256, .f32⟩ : BufTy).Contents (Elt F)),
    binary main_v472 main_v471 main_v473 (addf : (⟨S16384x256, .f32⟩ : BufTy).Contents (Elt F) → (⟨S16384x256, .f32⟩ : BufTy).Contents (Elt F) → (⟨S16384x256, .f32⟩ : BufTy).Contents (Elt F)),
    nullary main_cst_67 (constant S_ .f32 0x3F800000#32),
    unary main_cst_67 main_v474 (broadcastInDim S16384x256 ![] bcast_S_S16384x256 : (⟨S_, .f32⟩ : BufTy).Contents (Elt F) → (⟨S16384x256, .f32⟩ : BufTy).Contents (Elt F)),
    binary main_v474 main_v473 main_v475 (Host.divf : (⟨S16384x256, .f32⟩ : BufTy).Contents (Elt F) → (⟨S16384x256, .f32⟩ : BufTy).Contents (Elt F) → (⟨S16384x256, .f32⟩ : BufTy).Contents (Elt F)),
    binary main_v475 main_v433 main_v476 (mulf : (⟨S16384x256, .f32⟩ : BufTy).Contents (Elt F) → (⟨S16384x256, .f32⟩ : BufTy).Contents (Elt F) → (⟨S16384x256, .f32⟩ : BufTy).Contents (Elt F)),
    reshape main_v476 main_v477 rfl shapeCasts_S16384x256_S256x64x256,
    nullary main_cst_68 (constant S_ .f32 0x00000000#32),
    binary main_v477 main_cst_68 main_v478 ((fun x v => Host.reduceAdd x v reducesTo_S256x64x256_S256x256_d1 h_S_) : (⟨S256x64x256, .f32⟩ : BufTy).Contents (Elt F) → (⟨S_, .f32⟩ : BufTy).Contents (Elt F) → (⟨S256x256, .f32⟩ : BufTy).Contents (Elt F)),
    unary main_arg25 main_v479 ((extractStridedSlice S1x256x512 ![0, 0, 0] · slices_S3x256x512_S1x256x512_0_0_0) : (⟨S3x256x512, .f32⟩ : BufTy).Contents (Elt F) → (⟨S1x256x512, .f32⟩ : BufTy).Contents (Elt F)),
    reshape main_v479 main_v480 rfl shapeCasts_S1x256x512_S256x512,
    binary main_v448 main_v480 main_v481 ((fun l r => Host.dotGeneral dot_S256x256_S256x512_S256x512_1_0_0_1_n_n none l r) : (⟨S256x256, .f32⟩ : BufTy).Contents (Elt F) → (⟨S256x512, .f32⟩ : BufTy).Contents (Elt F) → (⟨S256x512, .f32⟩ : BufTy).Contents (Elt F)),
    unary main_arg26 main_v482 ((extractStridedSlice S1x512 ![0, 0] · slices_S3x512_S1x512_0_0) : (⟨S3x512, .f32⟩ : BufTy).Contents (Elt F) → (⟨S1x512, .f32⟩ : BufTy).Contents (Elt F)),
    reshape main_v482 main_v483 rfl shapeCasts_S1x512_S512,
    unary main_v483 main_v484 (broadcastInDim S1x512 ![1] bcast_S512_S1x512_1 : (⟨S512, .f32⟩ : BufTy).Contents (Elt F) → (⟨S1x512, .f32⟩ : BufTy).Contents (Elt F)),
    unary main_v484 main_v485 (broadcastInDim S256x512 ![0, 1] bcast_S1x512_S256x512_0_1 : (⟨S1x512, .f32⟩ : BufTy).Contents (Elt F) → (⟨S256x512, .f32⟩ : BufTy).Contents (Elt F)),
    binary main_v481 main_v485 main_v486 (addf : (⟨S256x512, .f32⟩ : BufTy).Contents (Elt F) → (⟨S256x512, .f32⟩ : BufTy).Contents (Elt F) → (⟨S256x512, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S256x512, .f32⟩) main_call20_v0) (broadcastInDim S256x512 ![] bcast_S_S256x512),
    TRef.binary (TRef.of (T := ⟨S256x512, .f32⟩) main_v486) (TRef.of (T := ⟨S256x512, .f32⟩) main_call20_v0) (TRef.of (T := ⟨S256x512, .f32⟩) main_v487) maximumf,
    nullary main_cst_69 (constant S_ .f32 0x00000000#32),
    unary main_cst_69 main_v488 (broadcastInDim S256x512 ![] bcast_S_S256x512 : (⟨S_, .f32⟩ : BufTy).Contents (Elt F) → (⟨S256x512, .f32⟩ : BufTy).Contents (Elt F)),
    binary main_v488 main_v487 main_v489 (addf : (⟨S256x512, .f32⟩ : BufTy).Contents (Elt F) → (⟨S256x512, .f32⟩ : BufTy).Contents (Elt F) → (⟨S256x512, .f32⟩ : BufTy).Contents (Elt F)),
    unary main_arg25 main_v490 ((extractStridedSlice S1x256x512 ![1, 0, 0] · slices_S3x256x512_S1x256x512_1_0_0) : (⟨S3x256x512, .f32⟩ : BufTy).Contents (Elt F) → (⟨S1x256x512, .f32⟩ : BufTy).Contents (Elt F)),
    reshape main_v490 main_v491 rfl shapeCasts_S1x256x512_S256x512,
    binary main_v463 main_v491 main_v492 ((fun l r => Host.dotGeneral dot_S256x256_S256x512_S256x512_1_0_0_1_n_n none l r) : (⟨S256x256, .f32⟩ : BufTy).Contents (Elt F) → (⟨S256x512, .f32⟩ : BufTy).Contents (Elt F) → (⟨S256x512, .f32⟩ : BufTy).Contents (Elt F)),
    unary main_arg26 main_v493 ((extractStridedSlice S1x512 ![1, 0] · slices_S3x512_S1x512_1_0) : (⟨S3x512, .f32⟩ : BufTy).Contents (Elt F) → (⟨S1x512, .f32⟩ : BufTy).Contents (Elt F)),
    reshape main_v493 main_v494 rfl shapeCasts_S1x512_S512,
    unary main_v494 main_v495 (broadcastInDim S1x512 ![1] bcast_S512_S1x512_1 : (⟨S512, .f32⟩ : BufTy).Contents (Elt F) → (⟨S1x512, .f32⟩ : BufTy).Contents (Elt F)),
    unary main_v495 main_v496 (broadcastInDim S256x512 ![0, 1] bcast_S1x512_S256x512_0_1 : (⟨S1x512, .f32⟩ : BufTy).Contents (Elt F) → (⟨S256x512, .f32⟩ : BufTy).Contents (Elt F)),
    binary main_v492 main_v496 main_v497 (addf : (⟨S256x512, .f32⟩ : BufTy).Contents (Elt F) → (⟨S256x512, .f32⟩ : BufTy).Contents (Elt F) → (⟨S256x512, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S256x512, .f32⟩) main_call21_v0) (broadcastInDim S256x512 ![] bcast_S_S256x512),
    TRef.binary (TRef.of (T := ⟨S256x512, .f32⟩) main_v497) (TRef.of (T := ⟨S256x512, .f32⟩) main_call21_v0) (TRef.of (T := ⟨S256x512, .f32⟩) main_v498) maximumf,
    binary main_v489 main_v498 main_v499 (addf : (⟨S256x512, .f32⟩ : BufTy).Contents (Elt F) → (⟨S256x512, .f32⟩ : BufTy).Contents (Elt F) → (⟨S256x512, .f32⟩ : BufTy).Contents (Elt F)),
    unary main_arg25 main_v500 ((extractStridedSlice S1x256x512 ![2, 0, 0] · slices_S3x256x512_S1x256x512_2_0_0) : (⟨S3x256x512, .f32⟩ : BufTy).Contents (Elt F) → (⟨S1x256x512, .f32⟩ : BufTy).Contents (Elt F)),
    reshape main_v500 main_v501 rfl shapeCasts_S1x256x512_S256x512,
    binary main_v478 main_v501 main_v502 ((fun l r => Host.dotGeneral dot_S256x256_S256x512_S256x512_1_0_0_1_n_n none l r) : (⟨S256x256, .f32⟩ : BufTy).Contents (Elt F) → (⟨S256x512, .f32⟩ : BufTy).Contents (Elt F) → (⟨S256x512, .f32⟩ : BufTy).Contents (Elt F)),
    unary main_arg26 main_v503 ((extractStridedSlice S1x512 ![2, 0] · slices_S3x512_S1x512_2_0) : (⟨S3x512, .f32⟩ : BufTy).Contents (Elt F) → (⟨S1x512, .f32⟩ : BufTy).Contents (Elt F)),
    reshape main_v503 main_v504 rfl shapeCasts_S1x512_S512,
    unary main_v504 main_v505 (broadcastInDim S1x512 ![1] bcast_S512_S1x512_1 : (⟨S512, .f32⟩ : BufTy).Contents (Elt F) → (⟨S1x512, .f32⟩ : BufTy).Contents (Elt F)),
    unary main_v505 main_v506 (broadcastInDim S256x512 ![0, 1] bcast_S1x512_S256x512_0_1 : (⟨S1x512, .f32⟩ : BufTy).Contents (Elt F) → (⟨S256x512, .f32⟩ : BufTy).Contents (Elt F)),
    binary main_v502 main_v506 main_v507 (addf : (⟨S256x512, .f32⟩ : BufTy).Contents (Elt F) → (⟨S256x512, .f32⟩ : BufTy).Contents (Elt F) → (⟨S256x512, .f32⟩ : BufTy).Contents (Elt F)),
    TRef.nullary (TRef.of (T := ⟨S_, .f32⟩) main_call22_cst) (constant S_ .f32 0x00000000#32),
    TRef.unary (TRef.of (T := ⟨S_, .f32⟩) main_call22_cst) (TRef.of (T := ⟨S256x512, .f32⟩) main_call22_v0) (broadcastInDim S256x512 ![] bcast_S_S256x512),
    TRef.binary (TRef.of (T := ⟨S256x512, .f32⟩) main_v507) (TRef.of (T := ⟨S256x512, .f32⟩) main_call22_v0) (TRef.of (T := ⟨S256x512, .f32⟩) main_v508) maximumf,
    binary main_v499 main_v508 main_v509 (addf : (⟨S256x512, .f32⟩ : BufTy).Contents (Elt F) → (⟨S256x512, .f32⟩ : BufTy).Contents (Elt F) → (⟨S256x512, .f32⟩ : BufTy).Contents (Elt F)),
    binary main_v509 main_arg27 main_v510 ((fun l r => Host.dotGeneral dot_S256x512_S512x10_S256x10_1_0_0_1_n_n none l r) : (⟨S256x512, .f32⟩ : BufTy).Contents (Elt F) → (⟨S512x10, .f32⟩ : BufTy).Contents (Elt F) → (⟨S256x10, .f32⟩ : BufTy).Contents (Elt F)),
    unary main_arg28 main_v511 (broadcastInDim S1x10 ![1] bcast_S10_S1x10_1 : (⟨S10, .f32⟩ : BufTy).Contents (Elt F) → (⟨S1x10, .f32⟩ : BufTy).Contents (Elt F)),
    unary main_v511 main_v512 (broadcastInDim S256x10 ![0, 1] bcast_S1x10_S256x10_0_1 : (⟨S1x10, .f32⟩ : BufTy).Contents (Elt F) → (⟨S256x10, .f32⟩ : BufTy).Contents (Elt F)),
    binary main_v510 main_v512 main_v513 (addf : (⟨S256x10, .f32⟩ : BufTy).Contents (Elt F) → (⟨S256x10, .f32⟩ : BufTy).Contents (Elt F) → (⟨S256x10, .f32⟩ : BufTy).Contents (Elt F)) ]
/-- Each touches TensorCore references only. -/
theorem refP14_sub : (refP14 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., reshape_bufs_sub .., nullary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub ..⟩
/-- None leaves a buffer undetermined. -/
theorem refP14_fresh : ∀ op ∈ (refP14 : List (HloOp τ sig (Elt F))), op.fresh = ∅ := by
  intro _ h; (repeat (cases h with | head => rfl | tail _ h => ?_)); exact nomatch h
/-- The references these operations write. -/
abbrev refP14_W : List (Ref sig .tc) := [main_cst_66, main_v472, main_v473, main_cst_67, main_v474, main_v475, main_v476, main_v477, main_cst_68, main_v478, main_v479, main_v480, main_v481, main_v482, main_v483, main_v484, main_v485, main_v486, main_call20_cst, main_call20_v0, main_v487, main_cst_69, main_v488, main_v489, main_v490, main_v491, main_v492, main_v493, main_v494, main_v495, main_v496, main_v497, main_call21_cst, main_call21_v0, main_v498, main_v499, main_v500, main_v501, main_v502, main_v503, main_v504, main_v505, main_v506, main_v507, main_call22_cst, main_call22_v0, main_v508, main_v509, main_v510, main_v511, main_v512, main_v513]
set_option maxHeartbeats 4000000 in
theorem refP14_writes : (refP14 : List (HloOp τ sig (Elt F))).Forall fun op => op.writes ⊆ (refP14_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- A reference these operations do not write keeps its contents. -/
theorem refP14_keep (V : Valuation τ sig (Elt F)) (r : Ref sig .tc) (h : r ∉ refP14_W) : after refP14 V (Proc.devRef .tc r) = V (Proc.devRef .tc r) :=
  after_of_writes_sub refP14 V refP14_writes h

/-- Chunk 5 of @main: the pooling over each complex and the readout. Operations 536 … 631. -/
abbrev refC5 : List (HloOp τ sig (Elt F)) := refP13 ++ refP14
abbrev refC5_W : List (Ref sig .tc) := refP13_W ++ refP14_W
theorem refC5_sub : (refC5 : List (HloOp τ sig (Elt F))).Forall fun op => op.bufs ⊆ tcRefs τ sig :=
  Cert.LibSeq.forall_append refP13_sub refP14_sub
theorem refC5_fresh : ∀ op ∈ (refC5 : List (HloOp τ sig (Elt F))), op.fresh = ∅ :=
  Cert.LibSeq.fresh_append refP13_fresh refP14_fresh
/-- A reference the chunk does not write keeps its contents over it. -/
theorem refC5_keep (V : Valuation τ sig (Elt F)) (r : Ref sig .tc) (h : r ∉ refC5_W) : after refC5 V (Proc.devRef .tc r) = V (Proc.devRef .tc r) := by
  simp only [Cert.LibSeq.after_append]
  simp only [List.mem_append, not_or] at h
  obtain ⟨h13, h14⟩ := h
  rw [refP14_keep _ r h14, refP13_keep _ r h13]

end Cert.ReferenceIdeal.Hand

end
-- ==== Proof.RefMain.lean ====
/- The reference program is one line of 632 host operations, and the line is the six chunks in a row.

   The printed program runs ten windows main_part0 … main_part9 one after the other; each window is, by unfolding, the
   line `seq` of one or two whole pieces of the operation list (a called function's three operations standing in its
   call's place). Put together, @main is `seq` of all the pieces in order, which is the six chunks in order. So every
   weakly fair run of @main ends with each buffer at the fold of the chunks' results over the launch contents:
   boundary k + 1 is chunk k's fold over boundary k, boundary 0 the contents at launch. -/
import proofs.«101828_j11562051961417_2_alg».proof.Proof.RefOps0
import proofs.«101828_j11562051961417_2_alg».proof.Proof.RefOps1
import proofs.«101828_j11562051961417_2_alg».proof.Proof.RefOps2
import proofs.«101828_j11562051961417_2_alg».proof.Proof.RefOps3
import proofs.«101828_j11562051961417_2_alg».proof.Proof.RefOps4
import proofs.«101828_j11562051961417_2_alg».proof.Proof.RefOps5

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Each window is a line of whole pieces -/

set_option maxRecDepth 65536 in
set_option maxHeartbeats 4000000 in
theorem main_part0_eq (c : Dev nD) : main_part0 (F := F) c = seq (refP0) := rfl

set_option maxRecDepth 65536 in
set_option maxHeartbeats 4000000 in
theorem main_part1_eq (c : Dev nD) : main_part1 (F := F) c = seq (refP1 ++ refP2) := rfl

set_option maxRecDepth 65536 in
set_option maxHeartbeats 4000000 in
theorem main_part2_eq (c : Dev nD) : main_part2 (F := F) c = seq (refP3) := rfl

set_option maxRecDepth 65536 in
set_option maxHeartbeats 4000000 in
theorem main_part3_eq (c : Dev nD) : main_part3 (F := F) c = seq (refP4 ++ refP5) := rfl

set_option maxRecDepth 65536 in
set_option maxHeartbeats 4000000 in
theorem main_part4_eq (c : Dev nD) : main_part4 (F := F) c = seq (refP6 ++ refP7) := rfl

set_option maxRecDepth 65536 in
set_option maxHeartbeats 4000000 in
theorem main_part5_eq (c : Dev nD) : main_part5 (F := F) c = seq (refP8) := rfl

set_option maxRecDepth 65536 in
set_option maxHeartbeats 4000000 in
theorem main_part6_eq (c : Dev nD) : main_part6 (F := F) c = seq (refP9 ++ refP10) := rfl

set_option maxRecDepth 65536 in
set_option maxHeartbeats 4000000 in
theorem main_part7_eq (c : Dev nD) : main_part7 (F := F) c = seq (refP11) := rfl

set_option maxRecDepth 65536 in
set_option maxHeartbeats 4000000 in
theorem main_part8_eq (c : Dev nD) : main_part8 (F := F) c = seq (refP12 ++ refP13) := rfl

set_option maxRecDepth 65536 in
set_option maxHeartbeats 4000000 in
theorem main_part9_eq (c : Dev nD) : main_part9 (F := F) c = seq (refP14) := rfl

/-! ## The whole line -/

/-- All 632 operations: the six chunks in order. -/
abbrev refAll : List (HloOp τ sig (Elt F)) := refC0 ++ (refC1 ++ (refC2 ++ (refC3 ++ (refC4 ++ refC5))))

/-- @main is the line of all the operations. -/
theorem main_eq (c : Dev nD) : main (F := F) c = seq refAll := by
  unfold main
  simp only [main_part0_eq, main_part1_eq, main_part2_eq, main_part3_eq, main_part4_eq, main_part5_eq, main_part6_eq, main_part7_eq, main_part8_eq, main_part9_eq, ← seq_append, List.append_assoc]

theorem scopedRefs_eq : (Finset.univ.filter fun b : Ref sig .tc => b.isScoped) = ∅ := by decide
theorem scopedSems_eq : (Finset.univ.filter fun sm : SemLoc sig => sm.isScoped .tc) = ∅ := by decide

theorem refAll_sub : (refAll : List (HloOp τ sig (Elt F))).Forall fun op => op.bufs ⊆ tcRefs τ sig :=
  Cert.LibSeq.forall_append refC0_sub (Cert.LibSeq.forall_append refC1_sub (Cert.LibSeq.forall_append refC2_sub (Cert.LibSeq.forall_append refC3_sub (Cert.LibSeq.forall_append refC4_sub refC5_sub))))

theorem refAll_fresh : ∀ op ∈ (refAll : List (HloOp τ sig (Elt F))), op.fresh = ∅ :=
  Cert.LibSeq.fresh_append refC0_fresh (Cert.LibSeq.fresh_append refC1_fresh (Cert.LibSeq.fresh_append refC2_fresh (Cert.LibSeq.fresh_append refC3_fresh (Cert.LibSeq.fresh_append refC4_fresh refC5_fresh))))

/-! ## The boundaries between the chunks -/

variable (m : (ℓ : Loc nD τ sig) → Buf (Elt F) ℓ)

/-- Boundary 0: a device's buffers at launch. -/
def RV0 (c : Dev nD) : Valuation τ sig (Elt F) := launchContents m c
/-- Boundary k + 1: chunk k's results over boundary k. -/
def RV1 (c : Dev nD) : Valuation τ sig (Elt F) := after refC0 (RV0 m c)
def RV2 (c : Dev nD) : Valuation τ sig (Elt F) := after refC1 (RV1 m c)
def RV3 (c : Dev nD) : Valuation τ sig (Elt F) := after refC2 (RV2 m c)
def RV4 (c : Dev nD) : Valuation τ sig (Elt F) := after refC3 (RV3 m c)
def RV5 (c : Dev nD) : Valuation τ sig (Elt F) := after refC4 (RV4 m c)
def RV6 (c : Dev nD) : Valuation τ sig (Elt F) := after refC5 (RV5 m c)

/-- The whole line's results over the launch contents are boundary 6. -/
theorem after_refAll (c : Dev nD) : after refAll (launchContents m c) = RV6 m c := by
  unfold RV6 RV5 RV4 RV3 RV2 RV1 RV0
  show after (refC0 ++ (refC1 ++ (refC2 ++ (refC3 ++ (refC4 ++ refC5))))) _ = _
  rw [Cert.LibSeq.after_append refC0, Cert.LibSeq.after_append refC1, Cert.LibSeq.after_append refC2, Cert.LibSeq.after_append refC3, Cert.LibSeq.after_append refC4]

/-- Every weakly fair run of @main ends with each buffer of each device at boundary 6. -/
theorem run_boundary (ρ : Dev nD → PrngReg) :
    θ_run defs (onTc (τ := τ) (main (F := F))) ⟨m, fun _ => 0, ρ⟩ fun r =>
      ∀ (c : Dev nD) (b : Ref sig .tc), r.2.mem ((c.tc : Thread nD τ).loc b) = RV6 m c (Proc.devRef .tc b) :=
  (θ_run defs _ _).mono (fun _ h c b => (h c b).trans (congrFun (after_refAll m c) _))
    (run_seq scopedRefs_eq scopedSems_eq defs main (fun _ => refAll) main_eq (fun _ => refAll_sub) m ρ (fun _ => refAll_fresh))

/-! ## What a chunk does not write it leaves alone

Boundary k + 1 agrees with boundary k off the references chunk k writes; no chunk writes an argument, so an argument
is at every boundary as launched. -/

theorem RV1_keep (c : Dev nD) (r : Ref sig .tc) (h : r ∉ refC0_W) : RV1 m c (Proc.devRef .tc r) = RV0 m c (Proc.devRef .tc r) := refC0_keep _ r h
theorem RV2_keep (c : Dev nD) (r : Ref sig .tc) (h : r ∉ refC1_W) : RV2 m c (Proc.devRef .tc r) = RV1 m c (Proc.devRef .tc r) := refC1_keep _ r h
theorem RV3_keep (c : Dev nD) (r : Ref sig .tc) (h : r ∉ refC2_W) : RV3 m c (Proc.devRef .tc r) = RV2 m c (Proc.devRef .tc r) := refC2_keep _ r h
theorem RV4_keep (c : Dev nD) (r : Ref sig .tc) (h : r ∉ refC3_W) : RV4 m c (Proc.devRef .tc r) = RV3 m c (Proc.devRef .tc r) := refC3_keep _ r h
theorem RV5_keep (c : Dev nD) (r : Ref sig .tc) (h : r ∉ refC4_W) : RV5 m c (Proc.devRef .tc r) = RV4 m c (Proc.devRef .tc r) := refC4_keep _ r h
theorem RV6_keep (c : Dev nD) (r : Ref sig .tc) (h : r ∉ refC5_W) : RV6 m c (Proc.devRef .tc r) = RV5 m c (Proc.devRef .tc r) := refC5_keep _ r h

/-- At boundary 0 a buffer is as launched. -/
theorem RV0_launch (c : Dev nD) (r : Ref sig .tc) : RV0 m c (Proc.devRef .tc r) = m ((c.tc : Thread nD τ).loc r) := rfl

/-- A reference no chunk so far writes — every argument is one — is at the boundary as launched. -/
theorem RV1_arg (c : Dev nD) (r : Ref sig .tc) (h0 : r ∉ refC0_W) : RV1 m c (Proc.devRef .tc r) = m ((c.tc : Thread nD τ).loc r) :=
  (RV1_keep m c r h0).trans (RV0_launch m c r)
theorem RV2_arg (c : Dev nD) (r : Ref sig .tc) (h0 : r ∉ refC0_W) (h1 : r ∉ refC1_W) : RV2 m c (Proc.devRef .tc r) = m ((c.tc : Thread nD τ).loc r) :=
  (RV2_keep m c r h1).trans (RV1_arg m c r h0)
theorem RV3_arg (c : Dev nD) (r : Ref sig .tc) (h0 : r ∉ refC0_W) (h1 : r ∉ refC1_W) (h2 : r ∉ refC2_W) : RV3 m c (Proc.devRef .tc r) = m ((c.tc : Thread nD τ).loc r) :=
  (RV3_keep m c r h2).trans (RV2_arg m c r h0 h1)
theorem RV4_arg (c : Dev nD) (r : Ref sig .tc) (h0 : r ∉ refC0_W) (h1 : r ∉ refC1_W) (h2 : r ∉ refC2_W) (h3 : r ∉ refC3_W) : RV4 m c (Proc.devRef .tc r) = m ((c.tc : Thread nD τ).loc r) :=
  (RV4_keep m c r h3).trans (RV3_arg m c r h0 h1 h2)
theorem RV5_arg (c : Dev nD) (r : Ref sig .tc) (h0 : r ∉ refC0_W) (h1 : r ∉ refC1_W) (h2 : r ∉ refC2_W) (h3 : r ∉ refC3_W) (h4 : r ∉ refC4_W) : RV5 m c (Proc.devRef .tc r) = m ((c.tc : Thread nD τ).loc r) :=
  (RV5_keep m c r h4).trans (RV4_arg m c r h0 h1 h2 h3)
theorem RV6_arg (c : Dev nD) (r : Ref sig .tc) (h0 : r ∉ refC0_W) (h1 : r ∉ refC1_W) (h2 : r ∉ refC2_W) (h3 : r ∉ refC3_W) (h4 : r ∉ refC4_W) (h5 : r ∉ refC5_W) : RV6 m c (Proc.devRef .tc r) = m ((c.tc : Thread nD τ).loc r) :=
  (RV6_keep m c r h5).trans (RV5_arg m c r h0 h1 h2 h3 h4)

end Cert.ReferenceIdeal.Hand

end
-- ==== Proof.RefStage0.lean ====
/- The reference program, chunk 0 — the operations before the first layer's: two arrays of ones scattered into zero arrays at index triples, and six index arrays, each an index argument scaled by a constant plus another. From ANY contents W that hold, at the buffers the chunk
   reads from before it, the arguments and the earlier chunks' values, the contents after the chunk hold at each buffer a
   later chunk reads the operations' composed value of the arguments: the value the program's operations define one by
   one, read here off the chunk's operations in order. -/
import proofs.«101828_j11562051961417_2_alg».proof.Proof.RefOps0
import proofs.«101828_j11562051961417_2_alg».proof.Proof.RefRead

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section Stage0
variable (W : Valuation τ sig (Elt F))
variable (x3 x4 x5 x6 : (⟨S131072, .i32⟩ : BufTy).Contents (Elt F)) (x7 x8 x9 x10 : (⟨S98304, .i32⟩ : BufTy).Contents (Elt F)) (x11 x12 x13 : (⟨S131072, .i32⟩ : BufTy).Contents (Elt F)) (x14 x15 x16 : (⟨S65536, .i32⟩ : BufTy).Contents (Elt F))
variable (hA3 : W (Proc.devRef .tc main_arg3) = x3)
  (hA4 : W (Proc.devRef .tc main_arg4) = x4)
  (hA5 : W (Proc.devRef .tc main_arg5) = x5)
  (hA6 : W (Proc.devRef .tc main_arg6) = x6)
  (hA7 : W (Proc.devRef .tc main_arg7) = x7)
  (hA8 : W (Proc.devRef .tc main_arg8) = x8)
  (hA9 : W (Proc.devRef .tc main_arg9) = x9)
  (hA10 : W (Proc.devRef .tc main_arg10) = x10)
  (hA11 : W (Proc.devRef .tc main_arg11) = x11)
  (hA12 : W (Proc.devRef .tc main_arg12) = x12)
  (hA13 : W (Proc.devRef .tc main_arg13) = x13)
  (hA14 : W (Proc.devRef .tc main_arg14) = x14)
  (hA15 : W (Proc.devRef .tc main_arg15) = x15)
  (hA16 : W (Proc.devRef .tc main_arg16) = x16)
include hA3 hA4 hA5 hA6 hA7 hA8 hA9 hA10 hA11 hA12 hA13 hA14 hA15 hA16

set_option maxHeartbeats 8000000 in
/-- Ones scattered into a zero [256, 256, 128] array at the index triples made of arguments 11, 12 and 13, a negative index first moved up by 256, 256 and 128. -/
theorem stage0_v21 : StableHlo.after refC0 W (Proc.devRef .tc main_v21) = Read.val_main_v21 (F := F) x11 x12 x13 := by
  subst hA3 hA4 hA5 hA6 hA7 hA8 hA9 hA10 hA11 hA12 hA13 hA14 hA15 hA16
  after_results_nary3
  rfl

set_option maxHeartbeats 8000000 in
/-- Ones scattered into a zero [256, 64, 256] array at the index triples made of arguments 14, 15 and 16, a negative index first moved up by 256, 64 and 256. -/
theorem stage0_v43 : StableHlo.after refC0 W (Proc.devRef .tc main_v43) = Read.val_main_v43 (F := F) x14 x15 x16 := by
  subst hA3 hA4 hA5 hA6 hA7 hA8 hA9 hA10 hA11 hA12 hA13 hA14 hA15 hA16
  after_results_nary3
  rfl

set_option maxHeartbeats 8000000 in
/-- Argument 3 times 128 plus argument 4. -/
theorem stage0_v46 : StableHlo.after refC0 W (Proc.devRef .tc main_v46) = Read.val_main_v46 (F := F) x3 x4 := by
  subst hA3 hA4 hA5 hA6 hA7 hA8 hA9 hA10 hA11 hA12 hA13 hA14 hA15 hA16
  after_results_nary3
  rfl

set_option maxHeartbeats 8000000 in
/-- Argument 3 times 128 plus argument 5. -/
theorem stage0_v49 : StableHlo.after refC0 W (Proc.devRef .tc main_v49) = Read.val_main_v49 (F := F) x3 x5 := by
  subst hA3 hA4 hA5 hA6 hA7 hA8 hA9 hA10 hA11 hA12 hA13 hA14 hA15 hA16
  after_results_nary3
  rfl

set_option maxHeartbeats 8000000 in
/-- Argument 3 times 256 plus argument 6. -/
theorem stage0_v52 : StableHlo.after refC0 W (Proc.devRef .tc main_v52) = Read.val_main_v52 (F := F) x3 x6 := by
  subst hA3 hA4 hA5 hA6 hA7 hA8 hA9 hA10 hA11 hA12 hA13 hA14 hA15 hA16
  after_results_nary3
  rfl

set_option maxHeartbeats 8000000 in
/-- Argument 7 times 256 plus argument 8. -/
theorem stage0_v55 : StableHlo.after refC0 W (Proc.devRef .tc main_v55) = Read.val_main_v55 (F := F) x7 x8 := by
  subst hA3 hA4 hA5 hA6 hA7 hA8 hA9 hA10 hA11 hA12 hA13 hA14 hA15 hA16
  after_results_nary3
  rfl

set_option maxHeartbeats 8000000 in
/-- Argument 7 times 256 plus argument 9. -/
theorem stage0_v58 : StableHlo.after refC0 W (Proc.devRef .tc main_v58) = Read.val_main_v58 (F := F) x7 x9 := by
  subst hA3 hA4 hA5 hA6 hA7 hA8 hA9 hA10 hA11 hA12 hA13 hA14 hA15 hA16
  after_results_nary3
  rfl

set_option maxHeartbeats 8000000 in
/-- Argument 7 times 64 plus argument 10. -/
theorem stage0_v61 : StableHlo.after refC0 W (Proc.devRef .tc main_v61) = Read.val_main_v61 (F := F) x7 x10 := by
  subst hA3 hA4 hA5 hA6 hA7 hA8 hA9 hA10 hA11 hA12 hA13 hA14 hA15 hA16
  after_results_nary3
  rfl

end Stage0

end Cert.ReferenceIdeal.Hand

end
-- ==== Proof.RefStage1.lean ====
/- The reference program, chunk 1 — the first layer's operations: the three arrays ([32768, 256], [65536, 256], [16384, 256]) it hands on. From ANY contents W that hold, at the buffers the chunk
   reads from before it, the arguments and the earlier chunks' values, the contents after the chunk hold at each buffer a
   later chunk reads the operations' composed value of the arguments: the value the program's operations define one by
   one, read here off the chunk's operations in order. -/
import proofs.«101828_j11562051961417_2_alg».proof.Proof.RefOps1
import proofs.«101828_j11562051961417_2_alg».proof.Proof.RefRead

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section Stage1
variable (W : Valuation τ sig (Elt F))
variable (x0 : (⟨S32768x256, .f32⟩ : BufTy).Contents (Elt F)) (x1 : (⟨S65536x256, .f32⟩ : BufTy).Contents (Elt F)) (x2 : (⟨S16384x256, .f32⟩ : BufTy).Contents (Elt F)) (x3 x4 x5 x6 : (⟨S131072, .i32⟩ : BufTy).Contents (Elt F)) (x7 x8 x9 x10 : (⟨S98304, .i32⟩ : BufTy).Contents (Elt F)) (x11 x12 x13 : (⟨S131072, .i32⟩ : BufTy).Contents (Elt F)) (x14 x15 x16 : (⟨S65536, .i32⟩ : BufTy).Contents (Elt F)) (x17 : (⟨S4x3x256x256, .f32⟩ : BufTy).Contents (Elt F)) (x18 : (⟨S4x3x256, .f32⟩ : BufTy).Contents (Elt F)) (x19 x20 x21 : (⟨S4x2x256x256, .f32⟩ : BufTy).Contents (Elt F))
variable (hA0 : W (Proc.devRef .tc main_arg0) = x0)
  (hA1 : W (Proc.devRef .tc main_arg1) = x1)
  (hA2 : W (Proc.devRef .tc main_arg2) = x2)
  (hA17 : W (Proc.devRef .tc main_arg17) = x17)
  (hA18 : W (Proc.devRef .tc main_arg18) = x18)
  (hA19 : W (Proc.devRef .tc main_arg19) = x19)
  (hA20 : W (Proc.devRef .tc main_arg20) = x20)
  (hA21 : W (Proc.devRef .tc main_arg21) = x21)
  (hV21 : W (Proc.devRef .tc main_v21) = Read.val_main_v21 (F := F) x11 x12 x13)
  (hV43 : W (Proc.devRef .tc main_v43) = Read.val_main_v43 (F := F) x14 x15 x16)
  (hV46 : W (Proc.devRef .tc main_v46) = Read.val_main_v46 (F := F) x3 x4)
  (hV49 : W (Proc.devRef .tc main_v49) = Read.val_main_v49 (F := F) x3 x5)
  (hV52 : W (Proc.devRef .tc main_v52) = Read.val_main_v52 (F := F) x3 x6)
  (hV55 : W (Proc.devRef .tc main_v55) = Read.val_main_v55 (F := F) x7 x8)
  (hV58 : W (Proc.devRef .tc main_v58) = Read.val_main_v58 (F := F) x7 x9)
  (hV61 : W (Proc.devRef .tc main_v61) = Read.val_main_v61 (F := F) x7 x10)
include hA0 hA1 hA2 hA17 hA18 hA19 hA20 hA21 hV21 hV43 hV46 hV49 hV52 hV55 hV58 hV61

set_option maxHeartbeats 8000000 in
/-- The [32768, 256] array chunk 1 hands on. -/
theorem stage1_v133 : StableHlo.after refC1 W (Proc.devRef .tc main_v133) = Read.val_main_v133 (F := F) x0 x1 x3 x4 x5 x6 x17 x18 x19 x20 := by
  simp only [Cert.LibSeq.after_append]
  after_results_simp
  simp only [hA0, hA1, hA2, hA17, hA18, hA19, hA20, hA21, hV21, hV43, hV46, hV49, hV52, hV55, hV58, hV61]
  rfl

set_option maxHeartbeats 8000000 in
/-- The [65536, 256] array chunk 1 hands on. -/
theorem stage1_v144 : StableHlo.after refC1 W (Proc.devRef .tc main_v144) = Read.val_main_v144 (F := F) x0 x1 x2 x7 x8 x9 x10 x11 x12 x13 x17 x18 x19 x20 x21 := by
  simp only [Cert.LibSeq.after_append]
  after_results_simp
  simp only [hA0, hA1, hA2, hA17, hA18, hA19, hA20, hA21, hV21, hV43, hV46, hV49, hV52, hV55, hV58, hV61]
  rfl

set_option maxHeartbeats 8000000 in
/-- The [16384, 256] array chunk 1 hands on. -/
theorem stage1_v154 : StableHlo.after refC1 W (Proc.devRef .tc main_v154) = Read.val_main_v154 (F := F) x1 x2 x14 x15 x16 x17 x18 x21 := by
  simp only [Cert.LibSeq.after_append]
  after_results_simp
  simp only [hA0, hA1, hA2, hA17, hA18, hA19, hA20, hA21, hV21, hV43, hV46, hV49, hV52, hV55, hV58, hV61]
  rfl

end Stage1

end Cert.ReferenceIdeal.Hand

end
-- ==== Proof.RefStage2.lean ====
/- The reference program, chunk 2 — the second layer's operations: the three arrays it hands on. From ANY contents W that hold, at the buffers the chunk
   reads from before it, the arguments and the earlier chunks' values, the contents after the chunk hold at each buffer a
   later chunk reads the operations' composed value of the arguments: the value the program's operations define one by
   one, read here off the chunk's operations in order. -/
import proofs.«101828_j11562051961417_2_alg».proof.Proof.RefOps2
import proofs.«101828_j11562051961417_2_alg».proof.Proof.RefRead

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section Stage2
variable (W : Valuation τ sig (Elt F))
variable (x0 : (⟨S32768x256, .f32⟩ : BufTy).Contents (Elt F)) (x1 : (⟨S65536x256, .f32⟩ : BufTy).Contents (Elt F)) (x2 : (⟨S16384x256, .f32⟩ : BufTy).Contents (Elt F)) (x3 x4 x5 x6 : (⟨S131072, .i32⟩ : BufTy).Contents (Elt F)) (x7 x8 x9 x10 : (⟨S98304, .i32⟩ : BufTy).Contents (Elt F)) (x11 x12 x13 : (⟨S131072, .i32⟩ : BufTy).Contents (Elt F)) (x14 x15 x16 : (⟨S65536, .i32⟩ : BufTy).Contents (Elt F)) (x17 : (⟨S4x3x256x256, .f32⟩ : BufTy).Contents (Elt F)) (x18 : (⟨S4x3x256, .f32⟩ : BufTy).Contents (Elt F)) (x19 x20 x21 : (⟨S4x2x256x256, .f32⟩ : BufTy).Contents (Elt F))
variable (hA17 : W (Proc.devRef .tc main_arg17) = x17)
  (hA18 : W (Proc.devRef .tc main_arg18) = x18)
  (hA19 : W (Proc.devRef .tc main_arg19) = x19)
  (hA20 : W (Proc.devRef .tc main_arg20) = x20)
  (hA21 : W (Proc.devRef .tc main_arg21) = x21)
  (hV21 : W (Proc.devRef .tc main_v21) = Read.val_main_v21 (F := F) x11 x12 x13)
  (hV43 : W (Proc.devRef .tc main_v43) = Read.val_main_v43 (F := F) x14 x15 x16)
  (hV46 : W (Proc.devRef .tc main_v46) = Read.val_main_v46 (F := F) x3 x4)
  (hV49 : W (Proc.devRef .tc main_v49) = Read.val_main_v49 (F := F) x3 x5)
  (hV52 : W (Proc.devRef .tc main_v52) = Read.val_main_v52 (F := F) x3 x6)
  (hV55 : W (Proc.devRef .tc main_v55) = Read.val_main_v55 (F := F) x7 x8)
  (hV58 : W (Proc.devRef .tc main_v58) = Read.val_main_v58 (F := F) x7 x9)
  (hV61 : W (Proc.devRef .tc main_v61) = Read.val_main_v61 (F := F) x7 x10)
  (hV133 : W (Proc.devRef .tc main_v133) = Read.val_main_v133 (F := F) x0 x1 x3 x4 x5 x6 x17 x18 x19 x20)
  (hV144 : W (Proc.devRef .tc main_v144) = Read.val_main_v144 (F := F) x0 x1 x2 x7 x8 x9 x10 x11 x12 x13 x17 x18 x19 x20 x21)
  (hV154 : W (Proc.devRef .tc main_v154) = Read.val_main_v154 (F := F) x1 x2 x14 x15 x16 x17 x18 x21)
include hA17 hA18 hA19 hA20 hA21 hV21 hV43 hV46 hV49 hV52 hV55 hV58 hV61 hV133 hV144 hV154

set_option maxHeartbeats 8000000 in
/-- The [32768, 256] array chunk 2 hands on. -/
theorem stage2_v226 : StableHlo.after refC2 W (Proc.devRef .tc main_v226) = Read.val_main_v226 (F := F) x0 x1 x2 x3 x4 x5 x6 x7 x8 x9 x10 x11 x12 x13 x17 x18 x19 x20 x21 := by
  simp only [Cert.LibSeq.after_append]
  after_results_simp
  simp only [hA17, hA18, hA19, hA20, hA21, hV21, hV43, hV46, hV49, hV52, hV55, hV58, hV61, hV133, hV144, hV154]
  rfl

set_option maxHeartbeats 8000000 in
/-- The [65536, 256] array chunk 2 hands on. -/
theorem stage2_v237 : StableHlo.after refC2 W (Proc.devRef .tc main_v237) = Read.val_main_v237 (F := F) x0 x1 x2 x3 x4 x5 x6 x7 x8 x9 x10 x11 x12 x13 x14 x15 x16 x17 x18 x19 x20 x21 := by
  simp only [Cert.LibSeq.after_append]
  after_results_simp
  simp only [hA17, hA18, hA19, hA20, hA21, hV21, hV43, hV46, hV49, hV52, hV55, hV58, hV61, hV133, hV144, hV154]
  rfl

set_option maxHeartbeats 8000000 in
/-- The [16384, 256] array chunk 2 hands on. -/
theorem stage2_v247 : StableHlo.after refC2 W (Proc.devRef .tc main_v247) = Read.val_main_v247 (F := F) x0 x1 x2 x7 x8 x9 x10 x11 x12 x13 x14 x15 x16 x17 x18 x19 x20 x21 := by
  simp only [Cert.LibSeq.after_append]
  after_results_simp
  simp only [hA17, hA18, hA19, hA20, hA21, hV21, hV43, hV46, hV49, hV52, hV55, hV58, hV61, hV133, hV144, hV154]
  rfl

end Stage2

end Cert.ReferenceIdeal.Hand

end
-- ==== Proof.RefStage3.lean ====
/- The reference program, chunk 3 — the third layer's operations: the three arrays it hands on. From ANY contents W that hold, at the buffers the chunk
   reads from before it, the arguments and the earlier chunks' values, the contents after the chunk hold at each buffer a
   later chunk reads the operations' composed value of the arguments: the value the program's operations define one by
   one, read here off the chunk's operations in order. -/
import proofs.«101828_j11562051961417_2_alg».proof.Proof.RefOps3
import proofs.«101828_j11562051961417_2_alg».proof.Proof.RefRead

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section Stage3
variable (W : Valuation τ sig (Elt F))
variable (x0 : (⟨S32768x256, .f32⟩ : BufTy).Contents (Elt F)) (x1 : (⟨S65536x256, .f32⟩ : BufTy).Contents (Elt F)) (x2 : (⟨S16384x256, .f32⟩ : BufTy).Contents (Elt F)) (x3 x4 x5 x6 : (⟨S131072, .i32⟩ : BufTy).Contents (Elt F)) (x7 x8 x9 x10 : (⟨S98304, .i32⟩ : BufTy).Contents (Elt F)) (x11 x12 x13 : (⟨S131072, .i32⟩ : BufTy).Contents (Elt F)) (x14 x15 x16 : (⟨S65536, .i32⟩ : BufTy).Contents (Elt F)) (x17 : (⟨S4x3x256x256, .f32⟩ : BufTy).Contents (Elt F)) (x18 : (⟨S4x3x256, .f32⟩ : BufTy).Contents (Elt F)) (x19 x20 x21 : (⟨S4x2x256x256, .f32⟩ : BufTy).Contents (Elt F))
variable (hA17 : W (Proc.devRef .tc main_arg17) = x17)
  (hA18 : W (Proc.devRef .tc main_arg18) = x18)
  (hA19 : W (Proc.devRef .tc main_arg19) = x19)
  (hA20 : W (Proc.devRef .tc main_arg20) = x20)
  (hA21 : W (Proc.devRef .tc main_arg21) = x21)
  (hV21 : W (Proc.devRef .tc main_v21) = Read.val_main_v21 (F := F) x11 x12 x13)
  (hV43 : W (Proc.devRef .tc main_v43) = Read.val_main_v43 (F := F) x14 x15 x16)
  (hV46 : W (Proc.devRef .tc main_v46) = Read.val_main_v46 (F := F) x3 x4)
  (hV49 : W (Proc.devRef .tc main_v49) = Read.val_main_v49 (F := F) x3 x5)
  (hV52 : W (Proc.devRef .tc main_v52) = Read.val_main_v52 (F := F) x3 x6)
  (hV55 : W (Proc.devRef .tc main_v55) = Read.val_main_v55 (F := F) x7 x8)
  (hV58 : W (Proc.devRef .tc main_v58) = Read.val_main_v58 (F := F) x7 x9)
  (hV61 : W (Proc.devRef .tc main_v61) = Read.val_main_v61 (F := F) x7 x10)
  (hV226 : W (Proc.devRef .tc main_v226) = Read.val_main_v226 (F := F) x0 x1 x2 x3 x4 x5 x6 x7 x8 x9 x10 x11 x12 x13 x17 x18 x19 x20 x21)
  (hV237 : W (Proc.devRef .tc main_v237) = Read.val_main_v237 (F := F) x0 x1 x2 x3 x4 x5 x6 x7 x8 x9 x10 x11 x12 x13 x14 x15 x16 x17 x18 x19 x20 x21)
  (hV247 : W (Proc.devRef .tc main_v247) = Read.val_main_v247 (F := F) x0 x1 x2 x7 x8 x9 x10 x11 x12 x13 x14 x15 x16 x17 x18 x19 x20 x21)
include hA17 hA18 hA19 hA20 hA21 hV21 hV43 hV46 hV49 hV52 hV55 hV58 hV61 hV226 hV237 hV247

set_option maxHeartbeats 8000000 in
/-- The [32768, 256] array chunk 3 hands on. -/
theorem stage3_v319 : StableHlo.after refC3 W (Proc.devRef .tc main_v319) = Read.val_main_v319 (F := F) x0 x1 x2 x3 x4 x5 x6 x7 x8 x9 x10 x11 x12 x13 x14 x15 x16 x17 x18 x19 x20 x21 := by
  simp only [Cert.LibSeq.after_append]
  after_results_simp
  simp only [hA17, hA18, hA19, hA20, hA21, hV21, hV43, hV46, hV49, hV52, hV55, hV58, hV61, hV226, hV237, hV247]
  rfl

set_option maxHeartbeats 8000000 in
/-- The [65536, 256] array chunk 3 hands on. -/
theorem stage3_v330 : StableHlo.after refC3 W (Proc.devRef .tc main_v330) = Read.val_main_v330 (F := F) x0 x1 x2 x3 x4 x5 x6 x7 x8 x9 x10 x11 x12 x13 x14 x15 x16 x17 x18 x19 x20 x21 := by
  simp only [Cert.LibSeq.after_append]
  after_results_simp
  simp only [hA17, hA18, hA19, hA20, hA21, hV21, hV43, hV46, hV49, hV52, hV55, hV58, hV61, hV226, hV237, hV247]
  rfl

set_option maxHeartbeats 8000000 in
/-- The [16384, 256] array chunk 3 hands on. -/
theorem stage3_v340 : StableHlo.after refC3 W (Proc.devRef .tc main_v340) = Read.val_main_v340 (F := F) x0 x1 x2 x3 x4 x5 x6 x7 x8 x9 x10 x11 x12 x13 x14 x15 x16 x17 x18 x19 x20 x21 := by
  simp only [Cert.LibSeq.after_append]
  after_results_simp
  simp only [hA17, hA18, hA19, hA20, hA21, hV21, hV43, hV46, hV49, hV52, hV55, hV58, hV61, hV226, hV237, hV247]
  rfl

end Stage3

end Cert.ReferenceIdeal.Hand

end
-- ==== Proof.RefStage4.lean ====
/- The reference program, chunk 4 — the fourth layer's operations: the three arrays it hands on. From ANY contents W that hold, at the buffers the chunk
   reads from before it, the arguments and the earlier chunks' values, the contents after the chunk hold at each buffer a
   later chunk reads the operations' composed value of the arguments: the value the program's operations define one by
   one, read here off the chunk's operations in order. -/
import proofs.«101828_j11562051961417_2_alg».proof.Proof.RefOps4
import proofs.«101828_j11562051961417_2_alg».proof.Proof.RefRead

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section Stage4
variable (W : Valuation τ sig (Elt F))
variable (x0 : (⟨S32768x256, .f32⟩ : BufTy).Contents (Elt F)) (x1 : (⟨S65536x256, .f32⟩ : BufTy).Contents (Elt F)) (x2 : (⟨S16384x256, .f32⟩ : BufTy).Contents (Elt F)) (x3 x4 x5 x6 : (⟨S131072, .i32⟩ : BufTy).Contents (Elt F)) (x7 x8 x9 x10 : (⟨S98304, .i32⟩ : BufTy).Contents (Elt F)) (x11 x12 x13 : (⟨S131072, .i32⟩ : BufTy).Contents (Elt F)) (x14 x15 x16 : (⟨S65536, .i32⟩ : BufTy).Contents (Elt F)) (x17 : (⟨S4x3x256x256, .f32⟩ : BufTy).Contents (Elt F)) (x18 : (⟨S4x3x256, .f32⟩ : BufTy).Contents (Elt F)) (x19 x20 x21 : (⟨S4x2x256x256, .f32⟩ : BufTy).Contents (Elt F))
variable (hA17 : W (Proc.devRef .tc main_arg17) = x17)
  (hA18 : W (Proc.devRef .tc main_arg18) = x18)
  (hA19 : W (Proc.devRef .tc main_arg19) = x19)
  (hA20 : W (Proc.devRef .tc main_arg20) = x20)
  (hA21 : W (Proc.devRef .tc main_arg21) = x21)
  (hV21 : W (Proc.devRef .tc main_v21) = Read.val_main_v21 (F := F) x11 x12 x13)
  (hV43 : W (Proc.devRef .tc main_v43) = Read.val_main_v43 (F := F) x14 x15 x16)
  (hV46 : W (Proc.devRef .tc main_v46) = Read.val_main_v46 (F := F) x3 x4)
  (hV49 : W (Proc.devRef .tc main_v49) = Read.val_main_v49 (F := F) x3 x5)
  (hV52 : W (Proc.devRef .tc main_v52) = Read.val_main_v52 (F := F) x3 x6)
  (hV55 : W (Proc.devRef .tc main_v55) = Read.val_main_v55 (F := F) x7 x8)
  (hV58 : W (Proc.devRef .tc main_v58) = Read.val_main_v58 (F := F) x7 x9)
  (hV61 : W (Proc.devRef .tc main_v61) = Read.val_main_v61 (F := F) x7 x10)
  (hV319 : W (Proc.devRef .tc main_v319) = Read.val_main_v319 (F := F) x0 x1 x2 x3 x4 x5 x6 x7 x8 x9 x10 x11 x12 x13 x14 x15 x16 x17 x18 x19 x20 x21)
  (hV330 : W (Proc.devRef .tc main_v330) = Read.val_main_v330 (F := F) x0 x1 x2 x3 x4 x5 x6 x7 x8 x9 x10 x11 x12 x13 x14 x15 x16 x17 x18 x19 x20 x21)
  (hV340 : W (Proc.devRef .tc main_v340) = Read.val_main_v340 (F := F) x0 x1 x2 x3 x4 x5 x6 x7 x8 x9 x10 x11 x12 x13 x14 x15 x16 x17 x18 x19 x20 x21)
include hA17 hA18 hA19 hA20 hA21 hV21 hV43 hV46 hV49 hV52 hV55 hV58 hV61 hV319 hV330 hV340

set_option maxHeartbeats 8000000 in
/-- The [32768, 256] array chunk 4 hands on. -/
theorem stage4_v412 : StableHlo.after refC4 W (Proc.devRef .tc main_v412) = Read.val_main_v412 (F := F) x0 x1 x2 x3 x4 x5 x6 x7 x8 x9 x10 x11 x12 x13 x14 x15 x16 x17 x18 x19 x20 x21 := by
  simp only [Cert.LibSeq.after_append]
  after_results_simp
  simp only [hA17, hA18, hA19, hA20, hA21, hV21, hV43, hV46, hV49, hV52, hV55, hV58, hV61, hV319, hV330, hV340]
  rfl

set_option maxHeartbeats 8000000 in
/-- The [65536, 256] array chunk 4 hands on. -/
theorem stage4_v423 : StableHlo.after refC4 W (Proc.devRef .tc main_v423) = Read.val_main_v423 (F := F) x0 x1 x2 x3 x4 x5 x6 x7 x8 x9 x10 x11 x12 x13 x14 x15 x16 x17 x18 x19 x20 x21 := by
  simp only [Cert.LibSeq.after_append]
  after_results_simp
  simp only [hA17, hA18, hA19, hA20, hA21, hV21, hV43, hV46, hV49, hV52, hV55, hV58, hV61, hV319, hV330, hV340]
  rfl

set_option maxHeartbeats 8000000 in
/-- The [16384, 256] array chunk 4 hands on. -/
theorem stage4_v433 : StableHlo.after refC4 W (Proc.devRef .tc main_v433) = Read.val_main_v433 (F := F) x0 x1 x2 x3 x4 x5 x6 x7 x8 x9 x10 x11 x12 x13 x14 x15 x16 x17 x18 x19 x20 x21 := by
  simp only [Cert.LibSeq.after_append]
  after_results_simp
  simp only [hA17, hA18, hA19, hA20, hA21, hV21, hV43, hV46, hV49, hV52, hV55, hV58, hV61, hV319, hV330, hV340]
  rfl

end Stage4

end Cert.ReferenceIdeal.Hand

end
-- ==== Proof.RefStage5.lean ====
/- The reference program, chunk 5 — the operations after the last layer's: the program's result. From ANY contents W that hold, at the buffers the chunk
   reads from before it, the arguments and the earlier chunks' values, the contents after the chunk hold at each buffer a
   later chunk reads the operations' composed value of the arguments: the value the program's operations define one by
   one, read here off the chunk's operations in order. -/
import proofs.«101828_j11562051961417_2_alg».proof.Proof.RefOps5
import proofs.«101828_j11562051961417_2_alg».proof.Proof.RefRead

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section Stage5
variable (W : Valuation τ sig (Elt F))
variable (x0 : (⟨S32768x256, .f32⟩ : BufTy).Contents (Elt F)) (x1 : (⟨S65536x256, .f32⟩ : BufTy).Contents (Elt F)) (x2 : (⟨S16384x256, .f32⟩ : BufTy).Contents (Elt F)) (x3 x4 x5 x6 : (⟨S131072, .i32⟩ : BufTy).Contents (Elt F)) (x7 x8 x9 x10 : (⟨S98304, .i32⟩ : BufTy).Contents (Elt F)) (x11 x12 x13 : (⟨S131072, .i32⟩ : BufTy).Contents (Elt F)) (x14 x15 x16 : (⟨S65536, .i32⟩ : BufTy).Contents (Elt F)) (x17 : (⟨S4x3x256x256, .f32⟩ : BufTy).Contents (Elt F)) (x18 : (⟨S4x3x256, .f32⟩ : BufTy).Contents (Elt F)) (x19 x20 x21 : (⟨S4x2x256x256, .f32⟩ : BufTy).Contents (Elt F)) (x22 x23 : (⟨S256x256, .f32⟩ : BufTy).Contents (Elt F)) (x24 : (⟨S256, .f32⟩ : BufTy).Contents (Elt F)) (x25 : (⟨S3x256x512, .f32⟩ : BufTy).Contents (Elt F)) (x26 : (⟨S3x512, .f32⟩ : BufTy).Contents (Elt F)) (x27 : (⟨S512x10, .f32⟩ : BufTy).Contents (Elt F)) (x28 : (⟨S10, .f32⟩ : BufTy).Contents (Elt F))
variable (hA0 : W (Proc.devRef .tc main_arg0) = x0)
  (hA1 : W (Proc.devRef .tc main_arg1) = x1)
  (hA2 : W (Proc.devRef .tc main_arg2) = x2)
  (hA22 : W (Proc.devRef .tc main_arg22) = x22)
  (hA23 : W (Proc.devRef .tc main_arg23) = x23)
  (hA24 : W (Proc.devRef .tc main_arg24) = x24)
  (hA25 : W (Proc.devRef .tc main_arg25) = x25)
  (hA26 : W (Proc.devRef .tc main_arg26) = x26)
  (hA27 : W (Proc.devRef .tc main_arg27) = x27)
  (hA28 : W (Proc.devRef .tc main_arg28) = x28)
  (hV412 : W (Proc.devRef .tc main_v412) = Read.val_main_v412 (F := F) x0 x1 x2 x3 x4 x5 x6 x7 x8 x9 x10 x11 x12 x13 x14 x15 x16 x17 x18 x19 x20 x21)
  (hV423 : W (Proc.devRef .tc main_v423) = Read.val_main_v423 (F := F) x0 x1 x2 x3 x4 x5 x6 x7 x8 x9 x10 x11 x12 x13 x14 x15 x16 x17 x18 x19 x20 x21)
  (hV433 : W (Proc.devRef .tc main_v433) = Read.val_main_v433 (F := F) x0 x1 x2 x3 x4 x5 x6 x7 x8 x9 x10 x11 x12 x13 x14 x15 x16 x17 x18 x19 x20 x21)
include hA0 hA1 hA2 hA22 hA23 hA24 hA25 hA26 hA27 hA28 hV412 hV423 hV433

set_option maxHeartbeats 8000000 in
/-- The program's result, [256, 10]. -/
theorem stage5_v513 : StableHlo.after refC5 W (Proc.devRef .tc main_v513) = Read.val_main_v513 (F := F) x0 x1 x2 x3 x4 x5 x6 x7 x8 x9 x10 x11 x12 x13 x14 x15 x16 x17 x18 x19 x20 x21 x22 x23 x24 x25 x26 x27 x28 := by
  simp only [Cert.LibSeq.after_append]
  after_results_simp
  simp only [hA0, hA1, hA2, hA22, hA23, hA24, hA25, hA26, hA27, hA28, hV412, hV423, hV433]
  rfl

end Stage5

end Cert.ReferenceIdeal.Hand

end
-- ==== Proof.RefRunHand.lean ====
/- The reference's run, read: boundary by boundary, each buffer that a later chunk reads is the reference's value
   function of the arguments as launched. The row numbers and incidence arrays are computed once and read by every
   layer, so they are carried over the chunks that do not write them; a layer's three outputs are read by the next
   chunk only. After the last chunk the result buffer is the readout's value function of all 29 arguments, and every
   argument is as launched, since no operation writes one. -/
import proofs.«101828_j11562051961417_2_alg».proof.Proof.RefMain
import proofs.«101828_j11562051961417_2_alg».proof.Proof.RefRead
import proofs.«101828_j11562051961417_2_alg».proof.Proof.RefStage0
import proofs.«101828_j11562051961417_2_alg».proof.Proof.RefStage1
import proofs.«101828_j11562051961417_2_alg».proof.Proof.RefStage2
import proofs.«101828_j11562051961417_2_alg».proof.Proof.RefStage3
import proofs.«101828_j11562051961417_2_alg».proof.Proof.RefStage4
import proofs.«101828_j11562051961417_2_alg».proof.Proof.RefStage5

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-! ## Boundary 1: what is computed once -/

theorem RV1_v21 (c : Dev nD) : RV1 m c (Proc.devRef .tc main_v21) = Read.val_main_v21 (F := F) (m ((c.tc : Thread nD τ).loc main_arg11)) (m ((c.tc : Thread nD τ).loc main_arg12)) (m ((c.tc : Thread nD τ).loc main_arg13)) :=
  stage0_v21 (RV0 m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    (RV0_launch m c main_arg3) (RV0_launch m c main_arg4) (RV0_launch m c main_arg5) (RV0_launch m c main_arg6) (RV0_launch m c main_arg7) (RV0_launch m c main_arg8) (RV0_launch m c main_arg9) (RV0_launch m c main_arg10) (RV0_launch m c main_arg11) (RV0_launch m c main_arg12) (RV0_launch m c main_arg13) (RV0_launch m c main_arg14) (RV0_launch m c main_arg15) (RV0_launch m c main_arg16)

theorem RV1_v43 (c : Dev nD) : RV1 m c (Proc.devRef .tc main_v43) = Read.val_main_v43 (F := F) (m ((c.tc : Thread nD τ).loc main_arg14)) (m ((c.tc : Thread nD τ).loc main_arg15)) (m ((c.tc : Thread nD τ).loc main_arg16)) :=
  stage0_v43 (RV0 m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    (RV0_launch m c main_arg3) (RV0_launch m c main_arg4) (RV0_launch m c main_arg5) (RV0_launch m c main_arg6) (RV0_launch m c main_arg7) (RV0_launch m c main_arg8) (RV0_launch m c main_arg9) (RV0_launch m c main_arg10) (RV0_launch m c main_arg11) (RV0_launch m c main_arg12) (RV0_launch m c main_arg13) (RV0_launch m c main_arg14) (RV0_launch m c main_arg15) (RV0_launch m c main_arg16)

theorem RV1_v46 (c : Dev nD) : RV1 m c (Proc.devRef .tc main_v46) = Read.val_main_v46 (F := F) (m ((c.tc : Thread nD τ).loc main_arg3)) (m ((c.tc : Thread nD τ).loc main_arg4)) :=
  stage0_v46 (RV0 m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    (RV0_launch m c main_arg3) (RV0_launch m c main_arg4) (RV0_launch m c main_arg5) (RV0_launch m c main_arg6) (RV0_launch m c main_arg7) (RV0_launch m c main_arg8) (RV0_launch m c main_arg9) (RV0_launch m c main_arg10) (RV0_launch m c main_arg11) (RV0_launch m c main_arg12) (RV0_launch m c main_arg13) (RV0_launch m c main_arg14) (RV0_launch m c main_arg15) (RV0_launch m c main_arg16)

theorem RV1_v49 (c : Dev nD) : RV1 m c (Proc.devRef .tc main_v49) = Read.val_main_v49 (F := F) (m ((c.tc : Thread nD τ).loc main_arg3)) (m ((c.tc : Thread nD τ).loc main_arg5)) :=
  stage0_v49 (RV0 m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    (RV0_launch m c main_arg3) (RV0_launch m c main_arg4) (RV0_launch m c main_arg5) (RV0_launch m c main_arg6) (RV0_launch m c main_arg7) (RV0_launch m c main_arg8) (RV0_launch m c main_arg9) (RV0_launch m c main_arg10) (RV0_launch m c main_arg11) (RV0_launch m c main_arg12) (RV0_launch m c main_arg13) (RV0_launch m c main_arg14) (RV0_launch m c main_arg15) (RV0_launch m c main_arg16)

theorem RV1_v52 (c : Dev nD) : RV1 m c (Proc.devRef .tc main_v52) = Read.val_main_v52 (F := F) (m ((c.tc : Thread nD τ).loc main_arg3)) (m ((c.tc : Thread nD τ).loc main_arg6)) :=
  stage0_v52 (RV0 m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    (RV0_launch m c main_arg3) (RV0_launch m c main_arg4) (RV0_launch m c main_arg5) (RV0_launch m c main_arg6) (RV0_launch m c main_arg7) (RV0_launch m c main_arg8) (RV0_launch m c main_arg9) (RV0_launch m c main_arg10) (RV0_launch m c main_arg11) (RV0_launch m c main_arg12) (RV0_launch m c main_arg13) (RV0_launch m c main_arg14) (RV0_launch m c main_arg15) (RV0_launch m c main_arg16)

theorem RV1_v55 (c : Dev nD) : RV1 m c (Proc.devRef .tc main_v55) = Read.val_main_v55 (F := F) (m ((c.tc : Thread nD τ).loc main_arg7)) (m ((c.tc : Thread nD τ).loc main_arg8)) :=
  stage0_v55 (RV0 m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    (RV0_launch m c main_arg3) (RV0_launch m c main_arg4) (RV0_launch m c main_arg5) (RV0_launch m c main_arg6) (RV0_launch m c main_arg7) (RV0_launch m c main_arg8) (RV0_launch m c main_arg9) (RV0_launch m c main_arg10) (RV0_launch m c main_arg11) (RV0_launch m c main_arg12) (RV0_launch m c main_arg13) (RV0_launch m c main_arg14) (RV0_launch m c main_arg15) (RV0_launch m c main_arg16)

theorem RV1_v58 (c : Dev nD) : RV1 m c (Proc.devRef .tc main_v58) = Read.val_main_v58 (F := F) (m ((c.tc : Thread nD τ).loc main_arg7)) (m ((c.tc : Thread nD τ).loc main_arg9)) :=
  stage0_v58 (RV0 m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    (RV0_launch m c main_arg3) (RV0_launch m c main_arg4) (RV0_launch m c main_arg5) (RV0_launch m c main_arg6) (RV0_launch m c main_arg7) (RV0_launch m c main_arg8) (RV0_launch m c main_arg9) (RV0_launch m c main_arg10) (RV0_launch m c main_arg11) (RV0_launch m c main_arg12) (RV0_launch m c main_arg13) (RV0_launch m c main_arg14) (RV0_launch m c main_arg15) (RV0_launch m c main_arg16)

theorem RV1_v61 (c : Dev nD) : RV1 m c (Proc.devRef .tc main_v61) = Read.val_main_v61 (F := F) (m ((c.tc : Thread nD τ).loc main_arg7)) (m ((c.tc : Thread nD τ).loc main_arg10)) :=
  stage0_v61 (RV0 m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    (RV0_launch m c main_arg3) (RV0_launch m c main_arg4) (RV0_launch m c main_arg5) (RV0_launch m c main_arg6) (RV0_launch m c main_arg7) (RV0_launch m c main_arg8) (RV0_launch m c main_arg9) (RV0_launch m c main_arg10) (RV0_launch m c main_arg11) (RV0_launch m c main_arg12) (RV0_launch m c main_arg13) (RV0_launch m c main_arg14) (RV0_launch m c main_arg15) (RV0_launch m c main_arg16)

/-! ## Boundary 2: after layer 0 -/

theorem RV2_v133 (c : Dev nD) : RV2 m c (Proc.devRef .tc main_v133) = Read.val_main_v133 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg17)) (m ((c.tc : Thread nD τ).loc main_arg18)) (m ((c.tc : Thread nD τ).loc main_arg19)) (m ((c.tc : Thread nD τ).loc main_arg20)) :=
  stage1_v133 (RV1 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (RV1_arg m c main_arg0 (by decide)) (RV1_arg m c main_arg1 (by decide)) (RV1_arg m c main_arg2 (by decide)) (RV1_arg m c main_arg17 (by decide)) (RV1_arg m c main_arg18 (by decide)) (RV1_arg m c main_arg19 (by decide)) (RV1_arg m c main_arg20 (by decide)) (RV1_arg m c main_arg21 (by decide)) (RV1_v21 m c) (RV1_v43 m c) (RV1_v46 m c) (RV1_v49 m c) (RV1_v52 m c) (RV1_v55 m c) (RV1_v58 m c) (RV1_v61 m c)

theorem RV2_v144 (c : Dev nD) : RV2 m c (Proc.devRef .tc main_v144) = Read.val_main_v144 (F := F) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  stage1_v144 (RV1 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (RV1_arg m c main_arg0 (by decide)) (RV1_arg m c main_arg1 (by decide)) (RV1_arg m c main_arg2 (by decide)) (RV1_arg m c main_arg17 (by decide)) (RV1_arg m c main_arg18 (by decide)) (RV1_arg m c main_arg19 (by decide)) (RV1_arg m c main_arg20 (by decide)) (RV1_arg m c main_arg21 (by decide)) (RV1_v21 m c) (RV1_v43 m c) (RV1_v46 m c) (RV1_v49 m c) (RV1_v52 m c) (RV1_v55 m c) (RV1_v58 m c) (RV1_v61 m c)

theorem RV2_v154 (c : Dev nD) : RV2 m c (Proc.devRef .tc main_v154) = Read.val_main_v154 (F := F) (m ((c.tc : Thread nD τ).loc main_arg1)) (m ((c.tc : Thread nD τ).loc main_arg2)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg21)) :=
  stage1_v154 (RV1 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (RV1_arg m c main_arg0 (by decide)) (RV1_arg m c main_arg1 (by decide)) (RV1_arg m c main_arg2 (by decide)) (RV1_arg m c main_arg17 (by decide)) (RV1_arg m c main_arg18 (by decide)) (RV1_arg m c main_arg19 (by decide)) (RV1_arg m c main_arg20 (by decide)) (RV1_arg m c main_arg21 (by decide)) (RV1_v21 m c) (RV1_v43 m c) (RV1_v46 m c) (RV1_v49 m c) (RV1_v52 m c) (RV1_v55 m c) (RV1_v58 m c) (RV1_v61 m c)

theorem RV2_v21 (c : Dev nD) : RV2 m c (Proc.devRef .tc main_v21) = Read.val_main_v21 (F := F) (m ((c.tc : Thread nD τ).loc main_arg11)) (m ((c.tc : Thread nD τ).loc main_arg12)) (m ((c.tc : Thread nD τ).loc main_arg13)) :=
  (RV2_keep m c main_v21 (by decide)).trans (RV1_v21 m c)

theorem RV2_v43 (c : Dev nD) : RV2 m c (Proc.devRef .tc main_v43) = Read.val_main_v43 (F := F) (m ((c.tc : Thread nD τ).loc main_arg14)) (m ((c.tc : Thread nD τ).loc main_arg15)) (m ((c.tc : Thread nD τ).loc main_arg16)) :=
  (RV2_keep m c main_v43 (by decide)).trans (RV1_v43 m c)

theorem RV2_v46 (c : Dev nD) : RV2 m c (Proc.devRef .tc main_v46) = Read.val_main_v46 (F := F) (m ((c.tc : Thread nD τ).loc main_arg3)) (m ((c.tc : Thread nD τ).loc main_arg4)) :=
  (RV2_keep m c main_v46 (by decide)).trans (RV1_v46 m c)

theorem RV2_v49 (c : Dev nD) : RV2 m c (Proc.devRef .tc main_v49) = Read.val_main_v49 (F := F) (m ((c.tc : Thread nD τ).loc main_arg3)) (m ((c.tc : Thread nD τ).loc main_arg5)) :=
  (RV2_keep m c main_v49 (by decide)).trans (RV1_v49 m c)

theorem RV2_v52 (c : Dev nD) : RV2 m c (Proc.devRef .tc main_v52) = Read.val_main_v52 (F := F) (m ((c.tc : Thread nD τ).loc main_arg3)) (m ((c.tc : Thread nD τ).loc main_arg6)) :=
  (RV2_keep m c main_v52 (by decide)).trans (RV1_v52 m c)

theorem RV2_v55 (c : Dev nD) : RV2 m c (Proc.devRef .tc main_v55) = Read.val_main_v55 (F := F) (m ((c.tc : Thread nD τ).loc main_arg7)) (m ((c.tc : Thread nD τ).loc main_arg8)) :=
  (RV2_keep m c main_v55 (by decide)).trans (RV1_v55 m c)

theorem RV2_v58 (c : Dev nD) : RV2 m c (Proc.devRef .tc main_v58) = Read.val_main_v58 (F := F) (m ((c.tc : Thread nD τ).loc main_arg7)) (m ((c.tc : Thread nD τ).loc main_arg9)) :=
  (RV2_keep m c main_v58 (by decide)).trans (RV1_v58 m c)

theorem RV2_v61 (c : Dev nD) : RV2 m c (Proc.devRef .tc main_v61) = Read.val_main_v61 (F := F) (m ((c.tc : Thread nD τ).loc main_arg7)) (m ((c.tc : Thread nD τ).loc main_arg10)) :=
  (RV2_keep m c main_v61 (by decide)).trans (RV1_v61 m c)

/-! ## Boundary 3: after layer 1 -/

theorem RV3_v226 (c : Dev nD) : RV3 m c (Proc.devRef .tc main_v226) = Read.val_main_v226 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  stage2_v226 (RV2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (RV2_arg m c main_arg17 (by decide) (by decide)) (RV2_arg m c main_arg18 (by decide) (by decide)) (RV2_arg m c main_arg19 (by decide) (by decide)) (RV2_arg m c main_arg20 (by decide) (by decide)) (RV2_arg m c main_arg21 (by decide) (by decide)) (RV2_v21 m c) (RV2_v43 m c) (RV2_v46 m c) (RV2_v49 m c) (RV2_v52 m c) (RV2_v55 m c) (RV2_v58 m c) (RV2_v61 m c) (RV2_v133 m c) (RV2_v144 m c) (RV2_v154 m c)

theorem RV3_v237 (c : Dev nD) : RV3 m c (Proc.devRef .tc main_v237) = Read.val_main_v237 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  stage2_v237 (RV2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (RV2_arg m c main_arg17 (by decide) (by decide)) (RV2_arg m c main_arg18 (by decide) (by decide)) (RV2_arg m c main_arg19 (by decide) (by decide)) (RV2_arg m c main_arg20 (by decide) (by decide)) (RV2_arg m c main_arg21 (by decide) (by decide)) (RV2_v21 m c) (RV2_v43 m c) (RV2_v46 m c) (RV2_v49 m c) (RV2_v52 m c) (RV2_v55 m c) (RV2_v58 m c) (RV2_v61 m c) (RV2_v133 m c) (RV2_v144 m c) (RV2_v154 m c)

theorem RV3_v247 (c : Dev nD) : RV3 m c (Proc.devRef .tc main_v247) = Read.val_main_v247 (F := F) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  stage2_v247 (RV2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (RV2_arg m c main_arg17 (by decide) (by decide)) (RV2_arg m c main_arg18 (by decide) (by decide)) (RV2_arg m c main_arg19 (by decide) (by decide)) (RV2_arg m c main_arg20 (by decide) (by decide)) (RV2_arg m c main_arg21 (by decide) (by decide)) (RV2_v21 m c) (RV2_v43 m c) (RV2_v46 m c) (RV2_v49 m c) (RV2_v52 m c) (RV2_v55 m c) (RV2_v58 m c) (RV2_v61 m c) (RV2_v133 m c) (RV2_v144 m c) (RV2_v154 m c)

theorem RV3_v21 (c : Dev nD) : RV3 m c (Proc.devRef .tc main_v21) = Read.val_main_v21 (F := F) (m ((c.tc : Thread nD τ).loc main_arg11)) (m ((c.tc : Thread nD τ).loc main_arg12)) (m ((c.tc : Thread nD τ).loc main_arg13)) :=
  (RV3_keep m c main_v21 (by decide)).trans (RV2_v21 m c)

theorem RV3_v43 (c : Dev nD) : RV3 m c (Proc.devRef .tc main_v43) = Read.val_main_v43 (F := F) (m ((c.tc : Thread nD τ).loc main_arg14)) (m ((c.tc : Thread nD τ).loc main_arg15)) (m ((c.tc : Thread nD τ).loc main_arg16)) :=
  (RV3_keep m c main_v43 (by decide)).trans (RV2_v43 m c)

theorem RV3_v46 (c : Dev nD) : RV3 m c (Proc.devRef .tc main_v46) = Read.val_main_v46 (F := F) (m ((c.tc : Thread nD τ).loc main_arg3)) (m ((c.tc : Thread nD τ).loc main_arg4)) :=
  (RV3_keep m c main_v46 (by decide)).trans (RV2_v46 m c)

theorem RV3_v49 (c : Dev nD) : RV3 m c (Proc.devRef .tc main_v49) = Read.val_main_v49 (F := F) (m ((c.tc : Thread nD τ).loc main_arg3)) (m ((c.tc : Thread nD τ).loc main_arg5)) :=
  (RV3_keep m c main_v49 (by decide)).trans (RV2_v49 m c)

theorem RV3_v52 (c : Dev nD) : RV3 m c (Proc.devRef .tc main_v52) = Read.val_main_v52 (F := F) (m ((c.tc : Thread nD τ).loc main_arg3)) (m ((c.tc : Thread nD τ).loc main_arg6)) :=
  (RV3_keep m c main_v52 (by decide)).trans (RV2_v52 m c)

theorem RV3_v55 (c : Dev nD) : RV3 m c (Proc.devRef .tc main_v55) = Read.val_main_v55 (F := F) (m ((c.tc : Thread nD τ).loc main_arg7)) (m ((c.tc : Thread nD τ).loc main_arg8)) :=
  (RV3_keep m c main_v55 (by decide)).trans (RV2_v55 m c)

theorem RV3_v58 (c : Dev nD) : RV3 m c (Proc.devRef .tc main_v58) = Read.val_main_v58 (F := F) (m ((c.tc : Thread nD τ).loc main_arg7)) (m ((c.tc : Thread nD τ).loc main_arg9)) :=
  (RV3_keep m c main_v58 (by decide)).trans (RV2_v58 m c)

theorem RV3_v61 (c : Dev nD) : RV3 m c (Proc.devRef .tc main_v61) = Read.val_main_v61 (F := F) (m ((c.tc : Thread nD τ).loc main_arg7)) (m ((c.tc : Thread nD τ).loc main_arg10)) :=
  (RV3_keep m c main_v61 (by decide)).trans (RV2_v61 m c)

/-! ## Boundary 4: after layer 2 -/

theorem RV4_v319 (c : Dev nD) : RV4 m c (Proc.devRef .tc main_v319) = Read.val_main_v319 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  stage3_v319 (RV3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (RV3_arg m c main_arg17 (by decide) (by decide) (by decide)) (RV3_arg m c main_arg18 (by decide) (by decide) (by decide)) (RV3_arg m c main_arg19 (by decide) (by decide) (by decide)) (RV3_arg m c main_arg20 (by decide) (by decide) (by decide)) (RV3_arg m c main_arg21 (by decide) (by decide) (by decide)) (RV3_v21 m c) (RV3_v43 m c) (RV3_v46 m c) (RV3_v49 m c) (RV3_v52 m c) (RV3_v55 m c) (RV3_v58 m c) (RV3_v61 m c) (RV3_v226 m c) (RV3_v237 m c) (RV3_v247 m c)

theorem RV4_v330 (c : Dev nD) : RV4 m c (Proc.devRef .tc main_v330) = Read.val_main_v330 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  stage3_v330 (RV3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (RV3_arg m c main_arg17 (by decide) (by decide) (by decide)) (RV3_arg m c main_arg18 (by decide) (by decide) (by decide)) (RV3_arg m c main_arg19 (by decide) (by decide) (by decide)) (RV3_arg m c main_arg20 (by decide) (by decide) (by decide)) (RV3_arg m c main_arg21 (by decide) (by decide) (by decide)) (RV3_v21 m c) (RV3_v43 m c) (RV3_v46 m c) (RV3_v49 m c) (RV3_v52 m c) (RV3_v55 m c) (RV3_v58 m c) (RV3_v61 m c) (RV3_v226 m c) (RV3_v237 m c) (RV3_v247 m c)

theorem RV4_v340 (c : Dev nD) : RV4 m c (Proc.devRef .tc main_v340) = Read.val_main_v340 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  stage3_v340 (RV3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (RV3_arg m c main_arg17 (by decide) (by decide) (by decide)) (RV3_arg m c main_arg18 (by decide) (by decide) (by decide)) (RV3_arg m c main_arg19 (by decide) (by decide) (by decide)) (RV3_arg m c main_arg20 (by decide) (by decide) (by decide)) (RV3_arg m c main_arg21 (by decide) (by decide) (by decide)) (RV3_v21 m c) (RV3_v43 m c) (RV3_v46 m c) (RV3_v49 m c) (RV3_v52 m c) (RV3_v55 m c) (RV3_v58 m c) (RV3_v61 m c) (RV3_v226 m c) (RV3_v237 m c) (RV3_v247 m c)

theorem RV4_v21 (c : Dev nD) : RV4 m c (Proc.devRef .tc main_v21) = Read.val_main_v21 (F := F) (m ((c.tc : Thread nD τ).loc main_arg11)) (m ((c.tc : Thread nD τ).loc main_arg12)) (m ((c.tc : Thread nD τ).loc main_arg13)) :=
  (RV4_keep m c main_v21 (by decide)).trans (RV3_v21 m c)

theorem RV4_v43 (c : Dev nD) : RV4 m c (Proc.devRef .tc main_v43) = Read.val_main_v43 (F := F) (m ((c.tc : Thread nD τ).loc main_arg14)) (m ((c.tc : Thread nD τ).loc main_arg15)) (m ((c.tc : Thread nD τ).loc main_arg16)) :=
  (RV4_keep m c main_v43 (by decide)).trans (RV3_v43 m c)

theorem RV4_v46 (c : Dev nD) : RV4 m c (Proc.devRef .tc main_v46) = Read.val_main_v46 (F := F) (m ((c.tc : Thread nD τ).loc main_arg3)) (m ((c.tc : Thread nD τ).loc main_arg4)) :=
  (RV4_keep m c main_v46 (by decide)).trans (RV3_v46 m c)

theorem RV4_v49 (c : Dev nD) : RV4 m c (Proc.devRef .tc main_v49) = Read.val_main_v49 (F := F) (m ((c.tc : Thread nD τ).loc main_arg3)) (m ((c.tc : Thread nD τ).loc main_arg5)) :=
  (RV4_keep m c main_v49 (by decide)).trans (RV3_v49 m c)

theorem RV4_v52 (c : Dev nD) : RV4 m c (Proc.devRef .tc main_v52) = Read.val_main_v52 (F := F) (m ((c.tc : Thread nD τ).loc main_arg3)) (m ((c.tc : Thread nD τ).loc main_arg6)) :=
  (RV4_keep m c main_v52 (by decide)).trans (RV3_v52 m c)

theorem RV4_v55 (c : Dev nD) : RV4 m c (Proc.devRef .tc main_v55) = Read.val_main_v55 (F := F) (m ((c.tc : Thread nD τ).loc main_arg7)) (m ((c.tc : Thread nD τ).loc main_arg8)) :=
  (RV4_keep m c main_v55 (by decide)).trans (RV3_v55 m c)

theorem RV4_v58 (c : Dev nD) : RV4 m c (Proc.devRef .tc main_v58) = Read.val_main_v58 (F := F) (m ((c.tc : Thread nD τ).loc main_arg7)) (m ((c.tc : Thread nD τ).loc main_arg9)) :=
  (RV4_keep m c main_v58 (by decide)).trans (RV3_v58 m c)

theorem RV4_v61 (c : Dev nD) : RV4 m c (Proc.devRef .tc main_v61) = Read.val_main_v61 (F := F) (m ((c.tc : Thread nD τ).loc main_arg7)) (m ((c.tc : Thread nD τ).loc main_arg10)) :=
  (RV4_keep m c main_v61 (by decide)).trans (RV3_v61 m c)

/-! ## Boundary 5: after layer 3 -/

theorem RV5_v412 (c : Dev nD) : RV5 m c (Proc.devRef .tc main_v412) = Read.val_main_v412 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  stage4_v412 (RV4 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (RV4_arg m c main_arg17 (by decide) (by decide) (by decide) (by decide)) (RV4_arg m c main_arg18 (by decide) (by decide) (by decide) (by decide)) (RV4_arg m c main_arg19 (by decide) (by decide) (by decide) (by decide)) (RV4_arg m c main_arg20 (by decide) (by decide) (by decide) (by decide)) (RV4_arg m c main_arg21 (by decide) (by decide) (by decide) (by decide)) (RV4_v21 m c) (RV4_v43 m c) (RV4_v46 m c) (RV4_v49 m c) (RV4_v52 m c) (RV4_v55 m c) (RV4_v58 m c) (RV4_v61 m c) (RV4_v319 m c) (RV4_v330 m c) (RV4_v340 m c)

theorem RV5_v423 (c : Dev nD) : RV5 m c (Proc.devRef .tc main_v423) = Read.val_main_v423 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  stage4_v423 (RV4 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (RV4_arg m c main_arg17 (by decide) (by decide) (by decide) (by decide)) (RV4_arg m c main_arg18 (by decide) (by decide) (by decide) (by decide)) (RV4_arg m c main_arg19 (by decide) (by decide) (by decide) (by decide)) (RV4_arg m c main_arg20 (by decide) (by decide) (by decide) (by decide)) (RV4_arg m c main_arg21 (by decide) (by decide) (by decide) (by decide)) (RV4_v21 m c) (RV4_v43 m c) (RV4_v46 m c) (RV4_v49 m c) (RV4_v52 m c) (RV4_v55 m c) (RV4_v58 m c) (RV4_v61 m c) (RV4_v319 m c) (RV4_v330 m c) (RV4_v340 m c)

theorem RV5_v433 (c : Dev nD) : RV5 m c (Proc.devRef .tc main_v433) = Read.val_main_v433 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  stage4_v433 (RV4 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (RV4_arg m c main_arg17 (by decide) (by decide) (by decide) (by decide)) (RV4_arg m c main_arg18 (by decide) (by decide) (by decide) (by decide)) (RV4_arg m c main_arg19 (by decide) (by decide) (by decide) (by decide)) (RV4_arg m c main_arg20 (by decide) (by decide) (by decide) (by decide)) (RV4_arg m c main_arg21 (by decide) (by decide) (by decide) (by decide)) (RV4_v21 m c) (RV4_v43 m c) (RV4_v46 m c) (RV4_v49 m c) (RV4_v52 m c) (RV4_v55 m c) (RV4_v58 m c) (RV4_v61 m c) (RV4_v319 m c) (RV4_v330 m c) (RV4_v340 m c)

/-! ## Boundary 6: the result -/

theorem RV6_v513 (c : Dev nD) : RV6 m c (Proc.devRef .tc main_v513) = Read.val_main_v513 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  stage5_v513 (RV5 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
    (RV5_arg m c main_arg0 (by decide) (by decide) (by decide) (by decide) (by decide)) (RV5_arg m c main_arg1 (by decide) (by decide) (by decide) (by decide) (by decide)) (RV5_arg m c main_arg2 (by decide) (by decide) (by decide) (by decide) (by decide)) (RV5_arg m c main_arg22 (by decide) (by decide) (by decide) (by decide) (by decide)) (RV5_arg m c main_arg23 (by decide) (by decide) (by decide) (by decide) (by decide)) (RV5_arg m c main_arg24 (by decide) (by decide) (by decide) (by decide) (by decide)) (RV5_arg m c main_arg25 (by decide) (by decide) (by decide) (by decide) (by decide)) (RV5_arg m c main_arg26 (by decide) (by decide) (by decide) (by decide) (by decide)) (RV5_arg m c main_arg27 (by decide) (by decide) (by decide) (by decide) (by decide)) (RV5_arg m c main_arg28 (by decide) (by decide) (by decide) (by decide) (by decide)) (RV5_v412 m c) (RV5_v423 m c) (RV5_v433 m c)

/-! ## The run -/

/-- On every device, for any float values, from any memory with zero counters: every weakly fair execution of @main
    terminates with the result buffer at the readout's value function of the arguments as launched, and the arguments
    unchanged. -/
theorem run (ρ : Dev nD → PrngReg) :
    θ_run defs (onTc (τ := τ) (main (F := F))) ⟨m, fun _ => 0, ρ⟩ fun r => ∀ c : Dev nD,
      r.2.mem ((c.tc : Thread nD τ).loc main_v513) = Read.val_main_v513 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c => ⟨(h c main_v513).trans (RV6_v513 m c),
      (h c main_arg0).trans (RV6_arg m c main_arg0 (by decide) (by decide) (by decide) (by decide) (by decide) (by decide)),
      (h c main_arg1).trans (RV6_arg m c main_arg1 (by decide) (by decide) (by decide) (by decide) (by decide) (by decide)),
      (h c main_arg2).trans (RV6_arg m c main_arg2 (by decide) (by decide) (by decide) (by decide) (by decide) (by decide)),
      (h c main_arg3).trans (RV6_arg m c main_arg3 (by decide) (by decide) (by decide) (by decide) (by decide) (by decide)),
      (h c main_arg4).trans (RV6_arg m c main_arg4 (by decide) (by decide) (by decide) (by decide) (by decide) (by decide)),
      (h c main_arg5).trans (RV6_arg m c main_arg5 (by decide) (by decide) (by decide) (by decide) (by decide) (by decide)),
      (h c main_arg6).trans (RV6_arg m c main_arg6 (by decide) (by decide) (by decide) (by decide) (by decide) (by decide)),
      (h c main_arg7).trans (RV6_arg m c main_arg7 (by decide) (by decide) (by decide) (by decide) (by decide) (by decide)),
      (h c main_arg8).trans (RV6_arg m c main_arg8 (by decide) (by decide) (by decide) (by decide) (by decide) (by decide)),
      (h c main_arg9).trans (RV6_arg m c main_arg9 (by decide) (by decide) (by decide) (by decide) (by decide) (by decide)),
      (h c main_arg10).trans (RV6_arg m c main_arg10 (by decide) (by decide) (by decide) (by decide) (by decide) (by decide)),
      (h c main_arg11).trans (RV6_arg m c main_arg11 (by decide) (by decide) (by decide) (by decide) (by decide) (by decide)),
      (h c main_arg12).trans (RV6_arg m c main_arg12 (by decide) (by decide) (by decide) (by decide) (by decide) (by decide)),
      (h c main_arg13).trans (RV6_arg m c main_arg13 (by decide) (by decide) (by decide) (by decide) (by decide) (by decide)),
      (h c main_arg14).trans (RV6_arg m c main_arg14 (by decide) (by decide) (by decide) (by decide) (by decide) (by decide)),
      (h c main_arg15).trans (RV6_arg m c main_arg15 (by decide) (by decide) (by decide) (by decide) (by decide) (by decide)),
      (h c main_arg16).trans (RV6_arg m c main_arg16 (by decide) (by decide) (by decide) (by decide) (by decide) (by decide)),
      (h c main_arg17).trans (RV6_arg m c main_arg17 (by decide) (by decide) (by decide) (by decide) (by decide) (by decide)),
      (h c main_arg18).trans (RV6_arg m c main_arg18 (by decide) (by decide) (by decide) (by decide) (by decide) (by decide)),
      (h c main_arg19).trans (RV6_arg m c main_arg19 (by decide) (by decide) (by decide) (by decide) (by decide) (by decide)),
      (h c main_arg20).trans (RV6_arg m c main_arg20 (by decide) (by decide) (by decide) (by decide) (by decide) (by decide)),
      (h c main_arg21).trans (RV6_arg m c main_arg21 (by decide) (by decide) (by decide) (by decide) (by decide) (by decide)),
      (h c main_arg22).trans (RV6_arg m c main_arg22 (by decide) (by decide) (by decide) (by decide) (by decide) (by decide)),
      (h c main_arg23).trans (RV6_arg m c main_arg23 (by decide) (by decide) (by decide) (by decide) (by decide) (by decide)),
      (h c main_arg24).trans (RV6_arg m c main_arg24 (by decide) (by decide) (by decide) (by decide) (by decide) (by decide)),
      (h c main_arg25).trans (RV6_arg m c main_arg25 (by decide) (by decide) (by decide) (by decide) (by decide) (by decide)),
      (h c main_arg26).trans (RV6_arg m c main_arg26 (by decide) (by decide) (by decide) (by decide) (by decide) (by decide)),
      (h c main_arg27).trans (RV6_arg m c main_arg27 (by decide) (by decide) (by decide) (by decide) (by decide) (by decide)),
      (h c main_arg28).trans (RV6_arg m c main_arg28 (by decide) (by decide) (by decide) (by decide) (by decide) (by decide))⟩)
    (run_boundary m ρ)

end Cert.ReferenceIdeal.Hand

end
-- ==== Proof.KI.SetupHost.lean ====
/- What the first stretch of host operations computes once for all four layers, as terms of the arguments it finds:
   the flat row numbers of the messages' receivers, senders and carriers (batch · rows per batch + row), and the two
   incidence arrays (ones written into zeros at the listed positions, a negative coordinate taken from the end). Each
   statement is over an arbitrary contents `W` at the stretch's entry. -/
import proofs.«101828_j11562051961417_2_alg».proof.Proof.Gen.KernelIdeal.Launch
import Idealize.ShloMosaic.Lib.StableHlo.Run

set_option maxRecDepth 16384

noncomputable section

namespace Cert.KernelIdeal.Val

open Cert.KernelIdeal.Gen
open Idealize.ShloMosaic Idealize.ShloMosaic.TcCoe

variable {F : FTy → Type} [FloatOps F]
variable (W : Valuation τ sig (Elt F))

/-! ## A concatenation of three operands

The result of a three-operand operation with each operand's contents at its own reference (the four-operand form
is in the library). -/

theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- The results of a stretch in one pass, with the three-operand form above. -/
macro "after_results_simp3" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.reshape_result', Cert.KernelIdeal.Val.nary3_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.reshape_result_ne', Idealize.ShloMosaic.StableHlo.nary_result_ne']))

/-! ## The row numbers and the incidence arrays -/

set_option maxHeartbeats 4000000 in
/-- The flat row number of each node message's receiver: 128 · batch + node. -/
theorem after0_v46 : StableHlo.after hostOps0 W (Proc.devRef .tc main_v46)
    = addi (muli (W (Proc.devRef .tc main_arg3) : (⟨S131072, .i32⟩ : BufTy).Contents (Elt F)) (broadcastInDim S131072 ![] bcast_S_S131072 (constantI S_ 32 128#32))) (W (Proc.devRef .tc main_arg4) : (⟨S131072, .i32⟩ : BufTy).Contents (Elt F)) := by
  after_results_simp <;> rfl

set_option maxHeartbeats 4000000 in
/-- The flat row number of each node message's sender: 128 · batch + node. -/
theorem after0_v49 : StableHlo.after hostOps0 W (Proc.devRef .tc main_v49)
    = addi (muli (W (Proc.devRef .tc main_arg3) : (⟨S131072, .i32⟩ : BufTy).Contents (Elt F)) (broadcastInDim S131072 ![] bcast_S_S131072 (constantI S_ 32 128#32))) (W (Proc.devRef .tc main_arg5) : (⟨S131072, .i32⟩ : BufTy).Contents (Elt F)) := by
  after_results_simp <;> rfl

set_option maxHeartbeats 4000000 in
/-- The flat row number of the edge each node message travels along: 256 · batch + edge. -/
theorem after0_v52 : StableHlo.after hostOps0 W (Proc.devRef .tc main_v52)
    = addi (muli (W (Proc.devRef .tc main_arg3) : (⟨S131072, .i32⟩ : BufTy).Contents (Elt F)) (broadcastInDim S131072 ![] bcast_S_S131072 (constantI S_ 32 256#32))) (W (Proc.devRef .tc main_arg6) : (⟨S131072, .i32⟩ : BufTy).Contents (Elt F)) := by
  after_results_simp <;> rfl

set_option maxHeartbeats 4000000 in
/-- The flat row number of each edge message's receiver: 256 · batch + edge. -/
theorem after0_v55 : StableHlo.after hostOps0 W (Proc.devRef .tc main_v55)
    = addi (muli (W (Proc.devRef .tc main_arg7) : (⟨S98304, .i32⟩ : BufTy).Contents (Elt F)) (broadcastInDim S98304 ![] bcast_S_S98304 (constantI S_ 32 256#32))) (W (Proc.devRef .tc main_arg8) : (⟨S98304, .i32⟩ : BufTy).Contents (Elt F)) := by
  after_results_simp <;> rfl

set_option maxHeartbeats 4000000 in
/-- The flat row number of each edge message's sender: 256 · batch + edge. -/
theorem after0_v58 : StableHlo.after hostOps0 W (Proc.devRef .tc main_v58)
    = addi (muli (W (Proc.devRef .tc main_arg7) : (⟨S98304, .i32⟩ : BufTy).Contents (Elt F)) (broadcastInDim S98304 ![] bcast_S_S98304 (constantI S_ 32 256#32))) (W (Proc.devRef .tc main_arg9) : (⟨S98304, .i32⟩ : BufTy).Contents (Elt F)) := by
  after_results_simp <;> rfl

set_option maxHeartbeats 4000000 in
/-- The flat row number of the cell each edge message travels along: 64 · batch + cell. -/
theorem after0_v61 : StableHlo.after hostOps0 W (Proc.devRef .tc main_v61)
    = addi (muli (W (Proc.devRef .tc main_arg7) : (⟨S98304, .i32⟩ : BufTy).Contents (Elt F)) (broadcastInDim S98304 ![] bcast_S_S98304 (constantI S_ 32 64#32))) (W (Proc.devRef .tc main_arg10) : (⟨S98304, .i32⟩ : BufTy).Contents (Elt F)) := by
  after_results_simp <;> rfl

set_option maxHeartbeats 4000000 in
/-- The edge incidence array: ones written into zeros at the (batch, edge, node) positions listed, each coordinate taken from the end when negative. -/
theorem after0_v21 : StableHlo.after hostOps0 W (Proc.devRef .tc main_v21)
    = Host.scatter scatter_S256x256x128_S131072x3_S131072_n_012_012_1 (fun _ b => b)
      (broadcastInDim S256x256x128 ![] bcast_S_S256x256x128 (constant (F := F) S_ .bf16 0x0000#16))
      (concatenate S131072x3 1 [⟨S131072x1, (broadcastInDim S131072x1 ![0] bcast_S131072_S131072x1_0 (select (cmpi .slt (W (Proc.devRef .tc main_arg11) : (⟨S131072, .i32⟩ : BufTy).Contents (Elt F)) (broadcastInDim S131072 ![] bcast_S_S131072 (constantI S_ 32 0#32))) (addi (W (Proc.devRef .tc main_arg11) : (⟨S131072, .i32⟩ : BufTy).Contents (Elt F)) (broadcastInDim S131072 ![] bcast_S_S131072 (constantI S_ 32 256#32))) (W (Proc.devRef .tc main_arg11) : (⟨S131072, .i32⟩ : BufTy).Contents (Elt F))))⟩, ⟨S131072x1, (broadcastInDim S131072x1 ![0] bcast_S131072_S131072x1_0 (select (cmpi .slt (W (Proc.devRef .tc main_arg12) : (⟨S131072, .i32⟩ : BufTy).Contents (Elt F)) (broadcastInDim S131072 ![] bcast_S_S131072 (constantI S_ 32 0#32))) (addi (W (Proc.devRef .tc main_arg12) : (⟨S131072, .i32⟩ : BufTy).Contents (Elt F)) (broadcastInDim S131072 ![] bcast_S_S131072 (constantI S_ 32 256#32))) (W (Proc.devRef .tc main_arg12) : (⟨S131072, .i32⟩ : BufTy).Contents (Elt F))))⟩, ⟨S131072x1, (broadcastInDim S131072x1 ![0] bcast_S131072_S131072x1_0 (select (cmpi .slt (W (Proc.devRef .tc main_arg13) : (⟨S131072, .i32⟩ : BufTy).Contents (Elt F)) (broadcastInDim S131072 ![] bcast_S_S131072 (constantI S_ 32 0#32))) (addi (W (Proc.devRef .tc main_arg13) : (⟨S131072, .i32⟩ : BufTy).Contents (Elt F)) (broadcastInDim S131072 ![] bcast_S_S131072 (constantI S_ 32 128#32))) (W (Proc.devRef .tc main_arg13) : (⟨S131072, .i32⟩ : BufTy).Contents (Elt F))))⟩] concatenates_S131072x1_S131072x1_S131072x1_S131072x3_d1)
      (broadcastInDim S131072 ![] bcast_S_S131072 (constant (F := F) S_ .bf16 0x3F80#16)) := by
  after_results_simp3 <;> rfl

set_option maxHeartbeats 4000000 in
/-- The cell incidence array: ones written into zeros at the (batch, cell, edge) positions listed. -/
theorem after0_v43 : StableHlo.after hostOps0 W (Proc.devRef .tc main_v43)
    = Host.scatter scatter_S256x64x256_S65536x3_S65536_n_012_012_1 (fun _ b => b)
      (broadcastInDim S256x64x256 ![] bcast_S_S256x64x256 (constant (F := F) S_ .bf16 0x0000#16))
      (concatenate S65536x3 1 [⟨S65536x1, (broadcastInDim S65536x1 ![0] bcast_S65536_S65536x1_0 (select (cmpi .slt (W (Proc.devRef .tc main_arg14) : (⟨S65536, .i32⟩ : BufTy).Contents (Elt F)) (broadcastInDim S65536 ![] bcast_S_S65536 (constantI S_ 32 0#32))) (addi (W (Proc.devRef .tc main_arg14) : (⟨S65536, .i32⟩ : BufTy).Contents (Elt F)) (broadcastInDim S65536 ![] bcast_S_S65536 (constantI S_ 32 256#32))) (W (Proc.devRef .tc main_arg14) : (⟨S65536, .i32⟩ : BufTy).Contents (Elt F))))⟩, ⟨S65536x1, (broadcastInDim S65536x1 ![0] bcast_S65536_S65536x1_0 (select (cmpi .slt (W (Proc.devRef .tc main_arg15) : (⟨S65536, .i32⟩ : BufTy).Contents (Elt F)) (broadcastInDim S65536 ![] bcast_S_S65536 (constantI S_ 32 0#32))) (addi (W (Proc.devRef .tc main_arg15) : (⟨S65536, .i32⟩ : BufTy).Contents (Elt F)) (broadcastInDim S65536 ![] bcast_S_S65536 (constantI S_ 32 64#32))) (W (Proc.devRef .tc main_arg15) : (⟨S65536, .i32⟩ : BufTy).Contents (Elt F))))⟩, ⟨S65536x1, (broadcastInDim S65536x1 ![0] bcast_S65536_S65536x1_0 (select (cmpi .slt (W (Proc.devRef .tc main_arg16) : (⟨S65536, .i32⟩ : BufTy).Contents (Elt F)) (broadcastInDim S65536 ![] bcast_S_S65536 (constantI S_ 32 0#32))) (addi (W (Proc.devRef .tc main_arg16) : (⟨S65536, .i32⟩ : BufTy).Contents (Elt F)) (broadcastInDim S65536 ![] bcast_S_S65536 (constantI S_ 32 256#32))) (W (Proc.devRef .tc main_arg16) : (⟨S65536, .i32⟩ : BufTy).Contents (Elt F))))⟩] concatenates_S65536x1_S65536x1_S65536x1_S65536x3_d1)
      (broadcastInDim S65536 ![] bcast_S_S65536 (constant (F := F) S_ .bf16 0x3F80#16)) := by
  after_results_simp3 <;> rfl

end Cert.KernelIdeal.Val

end
-- ==== Proof.KI.Layer0Host.lean ====
/- What each stretch of host operations of layer 0 leaves in the buffers the layer goes on to use, as a term of the
   buffers it finds: the weight and bias slices, the gathered and rectified messages, their sums per receiver, and the
   reshapes between flat and batched layouts. Each statement is over an arbitrary contents `W` at the stretch's entry. -/
import proofs.«101828_j11562051961417_2_alg».proof.Proof.Gen.KernelIdeal.Launch
import Idealize.ShloMosaic.Lib.StableHlo.Run

set_option maxRecDepth 16384

noncomputable section

namespace Cert.KernelIdeal.Val

open Cert.KernelIdeal.Gen
open Idealize.ShloMosaic Idealize.ShloMosaic.TcCoe

variable {F : FTy → Type} [FloatOps F]
variable (W : Valuation τ sig (Elt F))

/-! ## The stretch before region 0: the first weight -/

set_option maxHeartbeats 4000000 in
/-- The weight of the node messages' sender term: layer 0, slot 0 of the first up-weight stack. -/
theorem after0_v63 : StableHlo.after hostOps0 W (Proc.devRef .tc main_v63)
    = shapeCast S256x256 (extractStridedSlice S1x1x256x256 ![0, 0, 0, 0] (W (Proc.devRef .tc main_arg19) : (⟨S4x2x256x256, .f32⟩ : BufTy).Contents (Elt F)) slices_S4x2x256x256_S1x1x256x256_0_0_0_0) shapeCasts_S1x1x256x256_S256x256 := by
  after_results_simp <;> rfl

/-! ## The weight slices between the products -/

/-- Layer 0, slot 0 of the second up-weight stack. -/
theorem after1_v66 : StableHlo.after hostOps1 W (Proc.devRef .tc main_v66)
    = shapeCast S256x256 (extractStridedSlice S1x1x256x256 ![0, 0, 0, 0] (W (Proc.devRef .tc main_arg20) : (⟨S4x2x256x256, .f32⟩ : BufTy).Contents (Elt F)) slices_S4x2x256x256_S1x1x256x256_0_0_0_0) shapeCasts_S1x1x256x256_S256x256 := by
  after_results <;> rfl

/-- Layer 0, slot 1 of the first up-weight stack. -/
theorem after2_v69 : StableHlo.after hostOps2 W (Proc.devRef .tc main_v69)
    = shapeCast S256x256 (extractStridedSlice S1x1x256x256 ![0, 1, 0, 0] (W (Proc.devRef .tc main_arg19) : (⟨S4x2x256x256, .f32⟩ : BufTy).Contents (Elt F)) slices_S4x2x256x256_S1x1x256x256_0_1_0_0) shapeCasts_S1x1x256x256_S256x256 := by
  after_results <;> rfl

/-- Layer 0, slot 1 of the second up-weight stack. -/
theorem after3_v72 : StableHlo.after hostOps3 W (Proc.devRef .tc main_v72)
    = shapeCast S256x256 (extractStridedSlice S1x1x256x256 ![0, 1, 0, 0] (W (Proc.devRef .tc main_arg20) : (⟨S4x2x256x256, .f32⟩ : BufTy).Contents (Elt F)) slices_S4x2x256x256_S1x1x256x256_0_1_0_0) shapeCasts_S1x1x256x256_S256x256 := by
  after_results <;> rfl

/-- Layer 0, slot 0 of the boundary weight stack. -/
theorem after4_v75 : StableHlo.after hostOps4 W (Proc.devRef .tc main_v75)
    = shapeCast S256x256 (extractStridedSlice S1x1x256x256 ![0, 0, 0, 0] (W (Proc.devRef .tc main_arg21) : (⟨S4x2x256x256, .f32⟩ : BufTy).Contents (Elt F)) slices_S4x2x256x256_S1x1x256x256_0_0_0_0) shapeCasts_S1x1x256x256_S256x256 := by
  after_results <;> rfl

/-! ## The messages -/

set_option maxHeartbeats 4000000 in
/-- The node messages before the rectifier: the sender rows of the first product plus the edge rows of the second. -/
theorem after5_v91 : StableHlo.after hostOps5 W (Proc.devRef .tc main_v91)
    = addf (Host.gather gather_S32768x256_S131072x1_S131072x256_1_0_n_n_0_1_1256 (W (Proc.devRef .tc main_v64) : (⟨S32768x256, .f32⟩ : BufTy).Contents (Elt F)) (broadcastInDim S131072x1 ![0] bcast_S131072_S131072x1_0 (select (cmpi .slt (W (Proc.devRef .tc main_v49) : (⟨S131072, .i32⟩ : BufTy).Contents (Elt F)) (broadcastInDim S131072 ![] bcast_S_S131072 (constantI S_ 32 0#32))) (addi (W (Proc.devRef .tc main_v49) : (⟨S131072, .i32⟩ : BufTy).Contents (Elt F)) (broadcastInDim S131072 ![] bcast_S_S131072 (constantI S_ 32 32768#32))) (W (Proc.devRef .tc main_v49) : (⟨S131072, .i32⟩ : BufTy).Contents (Elt F)))))
      (Host.gather gather_S65536x256_S131072x1_S131072x256_1_0_n_n_0_1_1256 (W (Proc.devRef .tc main_v67) : (⟨S65536x256, .f32⟩ : BufTy).Contents (Elt F)) (broadcastInDim S131072x1 ![0] bcast_S131072_S131072x1_0 (select (cmpi .slt (W (Proc.devRef .tc main_v52) : (⟨S131072, .i32⟩ : BufTy).Contents (Elt F)) (broadcastInDim S131072 ![] bcast_S_S131072 (constantI S_ 32 0#32))) (addi (W (Proc.devRef .tc main_v52) : (⟨S131072, .i32⟩ : BufTy).Contents (Elt F)) (broadcastInDim S131072 ![] bcast_S_S131072 (constantI S_ 32 65536#32))) (W (Proc.devRef .tc main_v52) : (⟨S131072, .i32⟩ : BufTy).Contents (Elt F))))) := by
  after_results_simp <;> rfl

/-- The rectifier of the node messages. -/
theorem after5_1_v92 : StableHlo.after hostOps5_1 W (Proc.devRef .tc main_v92)
    = maximumf (W (Proc.devRef .tc main_v91) : (⟨S131072x256, .f32⟩ : BufTy).Contents (Elt F)) (broadcastInDim S131072x256 ![] bcast_S_S131072x256 (constant (F := F) S_ .f32 0x00000000#32)) := by
  after_results <;> (try simp only [StableHlo.TRef.ofBuf, StableHlo.TRef.toBuf, cast_eq]) <;> rfl

set_option maxHeartbeats 4000000 in
/-- The node messages added up per receiving node. -/
theorem after5_2_v95 : StableHlo.after hostOps5_2 W (Proc.devRef .tc main_v95)
    = Host.scatterAdd scatter_S32768x256_S131072x1_S131072x256_1_0_0_1 (broadcastInDim S32768x256 ![] bcast_S_S32768x256 (constant (F := F) S_ .f32 0x00000000#32)) (broadcastInDim S131072x1 ![0] bcast_S131072_S131072x1_0 (W (Proc.devRef .tc main_v46) : (⟨S131072, .i32⟩ : BufTy).Contents (Elt F))) (W (Proc.devRef .tc main_v92) : (⟨S131072x256, .f32⟩ : BufTy).Contents (Elt F)) := by
  after_results_simp <;> rfl

set_option maxHeartbeats 4000000 in
/-- The edge messages before the rectifier: the sender rows of the third product plus the cell rows of the fourth. -/
theorem after5_2_v110 : StableHlo.after hostOps5_2 W (Proc.devRef .tc main_v110)
    = addf (Host.gather gather_S65536x256_S98304x1_S98304x256_1_0_n_n_0_1_1256 (W (Proc.devRef .tc main_v70) : (⟨S65536x256, .f32⟩ : BufTy).Contents (Elt F)) (broadcastInDim S98304x1 ![0] bcast_S98304_S98304x1_0 (select (cmpi .slt (W (Proc.devRef .tc main_v58) : (⟨S98304, .i32⟩ : BufTy).Contents (Elt F)) (broadcastInDim S98304 ![] bcast_S_S98304 (constantI S_ 32 0#32))) (addi (W (Proc.devRef .tc main_v58) : (⟨S98304, .i32⟩ : BufTy).Contents (Elt F)) (broadcastInDim S98304 ![] bcast_S_S98304 (constantI S_ 32 65536#32))) (W (Proc.devRef .tc main_v58) : (⟨S98304, .i32⟩ : BufTy).Contents (Elt F)))))
      (Host.gather gather_S16384x256_S98304x1_S98304x256_1_0_n_n_0_1_1256 (W (Proc.devRef .tc main_v73) : (⟨S16384x256, .f32⟩ : BufTy).Contents (Elt F)) (broadcastInDim S98304x1 ![0] bcast_S98304_S98304x1_0 (select (cmpi .slt (W (Proc.devRef .tc main_v61) : (⟨S98304, .i32⟩ : BufTy).Contents (Elt F)) (broadcastInDim S98304 ![] bcast_S_S98304 (constantI S_ 32 0#32))) (addi (W (Proc.devRef .tc main_v61) : (⟨S98304, .i32⟩ : BufTy).Contents (Elt F)) (broadcastInDim S98304 ![] bcast_S_S98304 (constantI S_ 32 16384#32))) (W (Proc.devRef .tc main_v61) : (⟨S98304, .i32⟩ : BufTy).Contents (Elt F))))) := by
  after_results_simp <;> rfl

/-- The rectifier of the edge messages. -/
theorem after5_3_v111 : StableHlo.after hostOps5_3 W (Proc.devRef .tc main_v111)
    = maximumf (W (Proc.devRef .tc main_v110) : (⟨S98304x256, .f32⟩ : BufTy).Contents (Elt F)) (broadcastInDim S98304x256 ![] bcast_S_S98304x256 (constant (F := F) S_ .f32 0x00000000#32)) := by
  after_results <;> (try simp only [StableHlo.TRef.ofBuf, StableHlo.TRef.toBuf, cast_eq]) <;> rfl

/-- The edge messages added up per receiving edge. -/
theorem after5_4_v114 : StableHlo.after hostOps5_4 W (Proc.devRef .tc main_v114)
    = Host.scatterAdd scatter_S65536x256_S98304x1_S98304x256_1_0_0_1 (broadcastInDim S65536x256 ![] bcast_S_S65536x256 (constant (F := F) S_ .f32 0x00000000#32)) (broadcastInDim S98304x1 ![0] bcast_S98304_S98304x1_0 (W (Proc.devRef .tc main_v55) : (⟨S98304, .i32⟩ : BufTy).Contents (Elt F))) (W (Proc.devRef .tc main_v111) : (⟨S98304x256, .f32⟩ : BufTy).Contents (Elt F)) := by
  after_results <;> rfl

/-- The fifth product cut into 256 batches of 128 rows. -/
theorem after5_4_v115 : StableHlo.after hostOps5_4 W (Proc.devRef .tc main_v115)
    = shapeCast S256x128x256 (W (Proc.devRef .tc main_v76) : (⟨S32768x256, .f32⟩ : BufTy).Contents (Elt F)) shapeCasts_S32768x256_S256x128x256 := by
  after_results <;> rfl

/-! ## Around the two boundary regions -/

/-- The edge boundary term laid flat: 256 batches of 256 rows as 65536 rows. -/
theorem after6_v117 : StableHlo.after hostOps6 W (Proc.devRef .tc main_v117)
    = shapeCast S65536x256 (W (Proc.devRef .tc main_v116) : (⟨S256x256x256, .f32⟩ : BufTy).Contents (Elt F)) shapeCasts_S256x256x256_S65536x256 := by
  after_results <;> rfl

/-- The edge features cut into 256 batches of 256 rows. -/
theorem after6_v118 : StableHlo.after hostOps6 W (Proc.devRef .tc main_v118)
    = shapeCast S256x256x256 (W (Proc.devRef .tc main_arg1) : (⟨S65536x256, .f32⟩ : BufTy).Contents (Elt F)) shapeCasts_S65536x256_S256x256x256 := by
  after_results <;> rfl

/-- Layer 0, slot 1 of the boundary weight stack. -/
theorem after6_v120 : StableHlo.after hostOps6 W (Proc.devRef .tc main_v120)
    = shapeCast S256x256 (extractStridedSlice S1x1x256x256 ![0, 1, 0, 0] (W (Proc.devRef .tc main_arg21) : (⟨S4x2x256x256, .f32⟩ : BufTy).Contents (Elt F)) slices_S4x2x256x256_S1x1x256x256_0_1_0_0) shapeCasts_S1x1x256x256_S256x256 := by
  after_results <;> rfl

/-- The cell boundary term laid flat: 256 batches of 64 rows as 16384 rows. -/
theorem after7_v122 : StableHlo.after hostOps7 W (Proc.devRef .tc main_v122)
    = shapeCast S16384x256 (W (Proc.devRef .tc main_v121) : (⟨S256x64x256, .f32⟩ : BufTy).Contents (Elt F)) shapeCasts_S256x64x256_S16384x256 := by
  after_results <;> rfl

/-! ## The weights and biases of the three updates -/

/-- Layer 0, slot 0 of the self weight stack. -/
theorem after7_v124 : StableHlo.after hostOps7 W (Proc.devRef .tc main_v124)
    = shapeCast S256x256 (extractStridedSlice S1x1x256x256 ![0, 0, 0, 0] (W (Proc.devRef .tc main_arg17) : (⟨S4x3x256x256, .f32⟩ : BufTy).Contents (Elt F)) slices_S4x3x256x256_S1x1x256x256_0_0_0_0) shapeCasts_S1x1x256x256_S256x256 := by
  after_results <;> rfl

/-- Layer 0, slot 0 of the bias stack, as one row. -/
theorem after7_v127 : StableHlo.after hostOps7 W (Proc.devRef .tc main_v127)
    = shapeCast S1x256 (shapeCast S256 (extractStridedSlice S1x1x256 ![0, 0, 0] (W (Proc.devRef .tc main_arg18) : (⟨S4x3x256, .f32⟩ : BufTy).Contents (Elt F)) slices_S4x3x256_S1x1x256_0_0_0) shapeCasts_S1x1x256_S256) shapeCasts_S256_S1x256 := by
  after_results <;> rfl

/-- Layer 0, slot 1 of the self weight stack. -/
theorem after8_v130 : StableHlo.after hostOps8 W (Proc.devRef .tc main_v130)
    = shapeCast S256x256 (extractStridedSlice S1x1x256x256 ![0, 1, 0, 0] (W (Proc.devRef .tc main_arg17) : (⟨S4x3x256x256, .f32⟩ : BufTy).Contents (Elt F)) slices_S4x3x256x256_S1x1x256x256_0_1_0_0) shapeCasts_S1x1x256x256_S256x256 := by
  after_results <;> rfl

/-- Layer 0, slot 1 of the bias stack, as one row. -/
theorem after8_v133 : StableHlo.after hostOps8 W (Proc.devRef .tc main_v133)
    = shapeCast S1x256 (shapeCast S256 (extractStridedSlice S1x1x256 ![0, 1, 0] (W (Proc.devRef .tc main_arg18) : (⟨S4x3x256, .f32⟩ : BufTy).Contents (Elt F)) slices_S4x3x256_S1x1x256_0_1_0) shapeCasts_S1x1x256_S256) shapeCasts_S256_S1x256 := by
  after_results <;> rfl

/-- Layer 0, slot 2 of the self weight stack. -/
theorem after9_v136 : StableHlo.after hostOps9 W (Proc.devRef .tc main_v136)
    = shapeCast S256x256 (extractStridedSlice S1x1x256x256 ![0, 2, 0, 0] (W (Proc.devRef .tc main_arg17) : (⟨S4x3x256x256, .f32⟩ : BufTy).Contents (Elt F)) slices_S4x3x256x256_S1x1x256x256_0_2_0_0) shapeCasts_S1x1x256x256_S256x256 := by
  after_results <;> rfl

/-- Layer 0, slot 2 of the bias stack, as one row. -/
theorem after9_v139 : StableHlo.after hostOps9 W (Proc.devRef .tc main_v139)
    = shapeCast S1x256 (shapeCast S256 (extractStridedSlice S1x1x256 ![0, 2, 0] (W (Proc.devRef .tc main_arg18) : (⟨S4x3x256, .f32⟩ : BufTy).Contents (Elt F)) slices_S4x3x256_S1x1x256_0_2_0) shapeCasts_S1x1x256_S256) shapeCasts_S256_S1x256 := by
  after_results <;> rfl

end Cert.KernelIdeal.Val

end
-- ==== Proof.Spec.lean ====
/- The mathematics of one message-passing layer and of the readout, as functions on whole arrays of extended reals,
   index by index. Nothing here mentions a program: these are the functions both programs are shown to compute.
   Shapes are written out (`⟨2, ![n, h]⟩`), indices are built from coordinates (`ix2`, `ix3`). -/
import Idealize.ShloMosaic.PureOps.Ideal
import Idealize.ShloMosaic.Lib.ValueIdx

noncomputable section

namespace Cert.Spec

open Idealize.ShloMosaic Idealize.ShloMosaic.ValueIdx

/-- A matrix of extended reals with `n` rows and `h` columns. -/
abbrev Mat (n h : Nat) := (⟨2, ![n, h]⟩ : Shape).Idx → EReal
/-- A batch of `b` matrices. -/
abbrev Mat3 (b n h : Nat) := (⟨3, ![b, n, h]⟩ : Shape).Idx → EReal

/-- The product `X · W`: entry (r, c) is the sum over k of X (r, k) · W (k, c). -/
def mul {n k h : Nat} (X : Mat n k) (W : Mat k h) : Mat n h :=
  fun i => ∑ j : Fin k, X (ix2 (i 0) j) * W (ix2 j (i 1))

/-- The batched product `A_b · X_b`: entry (b, r, c) is the sum over j of A (b, r, j) · X (b, j, c). -/
def bmul {b n k h : Nat} (A : Mat3 b n k) (X : Mat3 b k h) : Mat3 b n h :=
  fun i => ∑ j : Fin k, A (ix3 (i 0) (i 1) j) * X (ix3 (i 0) j (i 2))

/-- Rows taken by a table of row numbers: row p of the result is row `t p` of X. -/
def rows {n p h : Nat} (X : Mat n h) (t : Fin p → Fin n) : Mat p h :=
  fun i => X (ix2 (t (i 0)) (i 1))

/-- The rectifier, entry by entry. -/
def relu {n h : Nat} (X : Mat n h) : Mat n h := fun i => max (X i) 0

/-- A row vector added to every row. -/
def addRow {n h : Nat} (X : Mat n h) (b : (⟨1, ![h]⟩ : Shape).Idx → EReal) : Mat n h :=
  fun i => X i + b (ix1 (i 1))

/-- Every entry is a real number (neither infinity). -/
def Finite {s : Shape} (X : s.Idx → EReal) : Prop := ∀ i, X i ≠ ⊤ ∧ X i ≠ ⊥

end Cert.Spec

end
-- ==== Proof.KI.ValProj0.lean ====
/- Region 0 computes a matrix product, block of rows by block of rows.

   The region's first input array X has 32768 rows and 256 columns, its second input array W is 256 by 256, and its
   output array Y has the shape of X. The grid has 16 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 16 blocks cover Y, and after the region Y holds X · W. -/
import proofs.«101828_j11562051961417_2_alg».proof.Proof.KI.Region0
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs0_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs0_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs0_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs0_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay0_apply (x0 : FVec Ideal S2048x256 .f32) (x1 : FVec Ideal S256x256 .f32) (p : Fin 2048) (q : Fin 256) :
    k0_pay1 (F := Ideal) x0 x1 (ix2 p q) = ∑ k : Fin 256, x0 (ix2 p k) * x1 (ix2 k q) := by
  unfold k0_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs0_0 _ _
    | ⟨1, _⟩ => exact (lhs0_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs0_0 _ _).trans hk
    | ⟨1, _⟩ => exact rhs0_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz0 : (![0, 0] : Fin 2 → Nat) = fun _ => 0 := funext fun a => by fin_cases a <;> rfl

/-- The first input array as the region finds it: X, 32768 rows of 256 entries. -/
abbrev xarr0 (c : Dev nD) : Cert.Spec.Mat 32768 256 := V c (Pipeline.arrRef spec0 0)
/-- The second input array as the region finds it: W, 256 by 256. -/
abbrev warr0 (c : Dev nD) : Cert.Spec.Mat 256 256 := V c (Pipeline.arrRef spec0 1)

/-- Which block each window holds at grid point t: the blocks of X and of Y are block-row t (block column 0), the block of
    W is always the whole of W. Decided once over the 16 points. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed0_eq (c : Dev nD) (t : Fin cfg0.N) :
    (dat0 (F := Ideal) V c).flushed 2 t = ((cfg0.win 2).blk t).view.read (Elt Ideal) (Cert.Spec.mul (xarr0 V c) (warr0 V c)) := by
  show (cfg0.win 2).cut (grid0.coords t) ((dat0 (F := Ideal) V c).after 2 t) = _
  rw [after0_2]
  unfold out0
  rw [View.canon_unit_zero hz0]
  simp only [View.ld_unit_zero (S := S2048x256) hz0, View.ld_unit_zero (S := S256x256) hz0]
  obtain ⟨e00, e01, e10, e11, e20, e21⟩ := idx_facts0 t
  funext j
  obtain ⟨p, q, rfl⟩ : ∃ (p : Fin 2048) (q : Fin 256), j = ix2 p q := ⟨j 0, j 1, eq_ix2 j⟩
  show k0_pay1 (F := Ideal) (iblk0 V c 0 t) (iblk0 V c 1 t) (ix2 p q) = Cert.Spec.mul (xarr0 V c) (warr0 V c) (((cfg0.win 2).blk t).view.emb (ix2 p q))
  refine (pay0_apply (iblk0 V c 0 t) (iblk0 V c 1 t) p q).trans ?_
  unfold Cert.Spec.mul
  refine Finset.sum_congr rfl fun k _ => ?_
  show xarr0 V c (((cfg0.win 0).blk t).view.emb (ix2 p k)) * warr0 V c (((cfg0.win 1).blk t).view.emb (ix2 k q))
    = xarr0 V c (ix2 ((((cfg0.win 2).blk t).view.emb (ix2 p q)) 0) k) * warr0 V c (ix2 k ((((cfg0.win 2).blk t).view.emb (ix2 p q)) 1))
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2048 + 1 * p.val = win0_2.index t (0 : Fin 2) * 2048 + 1 * p.val; omega
    | ⟨1, _⟩ => show win0_0.index t (1 : Fin 2) * 256 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 256 + 1 * k.val = k.val; omega
    | ⟨1, _⟩ => show win0_1.index t (1 : Fin 2) * 256 + 1 * q.val = win0_2.index t (1 : Fin 2) * 256 + 1 * q.val; omega
  exact congrArg₂ (fun a b : EReal => a * b) (congrArg (xarr0 V c) h0) (congrArg (warr0 V c) h1)

/-- An entry of Y is in point t's block iff, on each axis, its coordinate lies in the block's range
    [index × size, index × size + size). -/
theorem mem_blk0 (t : Fin cfg0.N) (i : S32768x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v64).slice (win0_2.rect t)).set ↔ _
  rw [View.set_slice_whole, Rect.mem_set_unit]
  exact Iff.rfl

/-- The blocks cover Y: row r lies in the block of point r / 2048 (r < 32768, so r / 2048 < 16), and every block spans
    all 256 columns. -/
theorem covered0 (i : S32768x256.Idx) : ∃ t : Fin cfg0.N, (cfg0.win 2).flush t = true ∧ i ∈ ((cfg0.win 2).blk t).view.set := by
  have hi0 : (i 0).val < 32768 := (i 0).isLt
  have hi1 : (i 1).val < 256 := (i 1).isLt
  have hN : cfg0.N = 16 := N_0
  have ht : (i 0).val / 2048 < cfg0.N := by rw [hN]; omega
  obtain ⟨-, -, -, -, e20, e21⟩ := idx_facts0 ⟨(i 0).val / 2048, ht⟩
  refine ⟨⟨(i 0).val / 2048, ht⟩, flush0_2 _, ?_⟩
  rw [mem_blk0]
  intro a
  match a with
  | ⟨0, _⟩ =>
    show win0_2.index ⟨(i 0).val / 2048, ht⟩ (0 : Fin 2) * 2048 ≤ (i 0).val ∧ (i 0).val < win0_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win0_2.index ⟨(i 0).val / 2048, ht⟩ (1 : Fin 2) * 256 ≤ (i 1).val ∧ (i 1).val < win0_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt0 (c : Dev nD) :
    (dat0 (F := Ideal) V c).arrAt 2 cfg0.N
      = Cert.Spec.mul (V c (Pipeline.arrRef spec0 0) : Cert.Spec.Mat 32768 256) (V c (Pipeline.arrRef spec0 1) : Cert.Spec.Mat 256 256) :=
  (dat0 (F := Ideal) V c).arrAt_eq_of_cover 2 (Cert.Spec.mul (xarr0 V c) (warr0 V c)) (fun t _ => flushed0_eq V c t) covered0

end Cert.KernelIdeal.Val

end
-- ==== Proof.KI.ValProj1.lean ====
/- Region 1 computes a matrix product, block of rows by block of rows.

   The region's first input array X has 65536 rows and 256 columns, its second input array W is 256 by 256, and its
   output array Y has the shape of X. The grid has 32 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 32 blocks cover Y, and after the region Y holds X · W. -/
import proofs.«101828_j11562051961417_2_alg».proof.Proof.KI.Region1
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs1_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs1_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs1_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs1_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay1_apply (x0 : FVec Ideal S2048x256 .f32) (x1 : FVec Ideal S256x256 .f32) (p : Fin 2048) (q : Fin 256) :
    k1_pay1 (F := Ideal) x0 x1 (ix2 p q) = ∑ k : Fin 256, x0 (ix2 p k) * x1 (ix2 k q) := by
  unfold k1_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs1_0 _ _
    | ⟨1, _⟩ => exact (lhs1_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs1_0 _ _).trans hk
    | ⟨1, _⟩ => exact rhs1_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz1 : (![0, 0] : Fin 2 → Nat) = fun _ => 0 := funext fun a => by fin_cases a <;> rfl

/-- The first input array as the region finds it: X, 65536 rows of 256 entries. -/
abbrev xarr1 (c : Dev nD) : Cert.Spec.Mat 65536 256 := V c (Pipeline.arrRef spec1 0)
/-- The second input array as the region finds it: W, 256 by 256. -/
abbrev warr1 (c : Dev nD) : Cert.Spec.Mat 256 256 := V c (Pipeline.arrRef spec1 1)

/-- Which block each window holds at grid point t: the blocks of X and of Y are block-row t (block column 0), the block of
    W is always the whole of W. Decided once over the 32 points. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed1_eq (c : Dev nD) (t : Fin cfg1.N) :
    (dat1 (F := Ideal) V c).flushed 2 t = ((cfg1.win 2).blk t).view.read (Elt Ideal) (Cert.Spec.mul (xarr1 V c) (warr1 V c)) := by
  show (cfg1.win 2).cut (grid1.coords t) ((dat1 (F := Ideal) V c).after 2 t) = _
  rw [after1_2]
  unfold out1
  rw [View.canon_unit_zero hz1]
  simp only [View.ld_unit_zero (S := S2048x256) hz1, View.ld_unit_zero (S := S256x256) hz1]
  obtain ⟨e00, e01, e10, e11, e20, e21⟩ := idx_facts1 t
  funext j
  obtain ⟨p, q, rfl⟩ : ∃ (p : Fin 2048) (q : Fin 256), j = ix2 p q := ⟨j 0, j 1, eq_ix2 j⟩
  show k1_pay1 (F := Ideal) (iblk1 V c 0 t) (iblk1 V c 1 t) (ix2 p q) = Cert.Spec.mul (xarr1 V c) (warr1 V c) (((cfg1.win 2).blk t).view.emb (ix2 p q))
  refine (pay1_apply (iblk1 V c 0 t) (iblk1 V c 1 t) p q).trans ?_
  unfold Cert.Spec.mul
  refine Finset.sum_congr rfl fun k _ => ?_
  show xarr1 V c (((cfg1.win 0).blk t).view.emb (ix2 p k)) * warr1 V c (((cfg1.win 1).blk t).view.emb (ix2 k q))
    = xarr1 V c (ix2 ((((cfg1.win 2).blk t).view.emb (ix2 p q)) 0) k) * warr1 V c (ix2 k ((((cfg1.win 2).blk t).view.emb (ix2 p q)) 1))
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 2048 + 1 * p.val = win1_2.index t (0 : Fin 2) * 2048 + 1 * p.val; omega
    | ⟨1, _⟩ => show win1_0.index t (1 : Fin 2) * 256 + 1 * k.val = k.val; omega
  have h1 : ((cfg1.win 1).blk t).view.emb (ix2 k q) = ix2 k ((((cfg1.win 2).blk t).view.emb (ix2 p q)) 1) := by
    funext a; apply Fin.ext
    match a with
    | ⟨0, _⟩ => show win1_1.index t (0 : Fin 2) * 256 + 1 * k.val = k.val; omega
    | ⟨1, _⟩ => show win1_1.index t (1 : Fin 2) * 256 + 1 * q.val = win1_2.index t (1 : Fin 2) * 256 + 1 * q.val; omega
  exact congrArg₂ (fun a b : EReal => a * b) (congrArg (xarr1 V c) h0) (congrArg (warr1 V c) h1)

/-- An entry of Y is in point t's block iff, on each axis, its coordinate lies in the block's range
    [index × size, index × size + size). -/
theorem mem_blk1 (t : Fin cfg1.N) (i : S65536x256.Idx) :
    i ∈ ((cfg1.win 2).blk t).view.set ↔ ∀ a : Fin 2, win1_2.index t a * S2048x256.size a ≤ (i a).val ∧ (i a).val < win1_2.index t a * S2048x256.size a + S2048x256.size a := by
  show i ∈ ((View.whole main_v67).slice (win1_2.rect t)).set ↔ _
  rw [View.set_slice_whole, Rect.mem_set_unit]
  exact Iff.rfl

/-- The blocks cover Y: row r lies in the block of point r / 2048 (r < 65536, so r / 2048 < 32), and every block spans
    all 256 columns. -/
theorem covered1 (i : S65536x256.Idx) : ∃ t : Fin cfg1.N, (cfg1.win 2).flush t = true ∧ i ∈ ((cfg1.win 2).blk t).view.set := by
  have hi0 : (i 0).val < 65536 := (i 0).isLt
  have hi1 : (i 1).val < 256 := (i 1).isLt
  have hN : cfg1.N = 32 := N_1
  have ht : (i 0).val / 2048 < cfg1.N := by rw [hN]; omega
  obtain ⟨-, -, -, -, e20, e21⟩ := idx_facts1 ⟨(i 0).val / 2048, ht⟩
  refine ⟨⟨(i 0).val / 2048, ht⟩, flush1_2 _, ?_⟩
  rw [mem_blk1]
  intro a
  match a with
  | ⟨0, _⟩ =>
    show win1_2.index ⟨(i 0).val / 2048, ht⟩ (0 : Fin 2) * 2048 ≤ (i 0).val ∧ (i 0).val < win1_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win1_2.index ⟨(i 0).val / 2048, ht⟩ (1 : Fin 2) * 256 ≤ (i 1).val ∧ (i 1).val < win1_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt1 (c : Dev nD) :
    (dat1 (F := Ideal) V c).arrAt 2 cfg1.N
      = Cert.Spec.mul (V c (Pipeline.arrRef spec1 0) : Cert.Spec.Mat 65536 256) (V c (Pipeline.arrRef spec1 1) : Cert.Spec.Mat 256 256) :=
  (dat1 (F := Ideal) V c).arrAt_eq_of_cover 2 (Cert.Spec.mul (xarr1 V c) (warr1 V c)) (fun t _ => flushed1_eq V c t) covered1

end Cert.KernelIdeal.Val

end
-- ==== Proof.KI.ValProj2.lean ====
/- Region 2 computes a matrix product, block of rows by block of rows.

   The region's first input array X has 65536 rows and 256 columns, its second input array W is 256 by 256, and its
   output array Y has the shape of X. The grid has 32 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 32 blocks cover Y, and after the region Y holds X · W. -/
import proofs.«101828_j11562051961417_2_alg».proof.Proof.KI.Region2
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs2_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs2_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs2_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs2_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay2_apply (x0 : FVec Ideal S2048x256 .f32) (x1 : FVec Ideal S256x256 .f32) (p : Fin 2048) (q : Fin 256) :
    k2_pay1 (F := Ideal) x0 x1 (ix2 p q) = ∑ k : Fin 256, x0 (ix2 p k) * x1 (ix2 k q) := by
  unfold k2_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs2_0 _ _
    | ⟨1, _⟩ => exact (lhs2_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs2_0 _ _).trans hk
    | ⟨1, _⟩ => exact rhs2_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz2 : (![0, 0] : Fin 2 → Nat) = fun _ => 0 := funext fun a => by fin_cases a <;> rfl

/-- The first input array as the region finds it: X, 65536 rows of 256 entries. -/
abbrev xarr2 (c : Dev nD) : Cert.Spec.Mat 65536 256 := V c (Pipeline.arrRef spec2 0)
/-- The second input array as the region finds it: W, 256 by 256. -/
abbrev warr2 (c : Dev nD) : Cert.Spec.Mat 256 256 := V c (Pipeline.arrRef spec2 1)

/-- Which block each window holds at grid point t: the blocks of X and of Y are block-row t (block column 0), the block of
    W is always the whole of W. Decided once over the 32 points. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed2_eq (c : Dev nD) (t : Fin cfg2.N) :
    (dat2 (F := Ideal) V c).flushed 2 t = ((cfg2.win 2).blk t).view.read (Elt Ideal) (Cert.Spec.mul (xarr2 V c) (warr2 V c)) := by
  show (cfg2.win 2).cut (grid2.coords t) ((dat2 (F := Ideal) V c).after 2 t) = _
  rw [after2_2]
  unfold out2
  rw [View.canon_unit_zero hz2]
  simp only [View.ld_unit_zero (S := S2048x256) hz2, View.ld_unit_zero (S := S256x256) hz2]
  obtain ⟨e00, e01, e10, e11, e20, e21⟩ := idx_facts2 t
  funext j
  obtain ⟨p, q, rfl⟩ : ∃ (p : Fin 2048) (q : Fin 256), j = ix2 p q := ⟨j 0, j 1, eq_ix2 j⟩
  show k2_pay1 (F := Ideal) (iblk2 V c 0 t) (iblk2 V c 1 t) (ix2 p q) = Cert.Spec.mul (xarr2 V c) (warr2 V c) (((cfg2.win 2).blk t).view.emb (ix2 p q))
  refine (pay2_apply (iblk2 V c 0 t) (iblk2 V c 1 t) p q).trans ?_
  unfold Cert.Spec.mul
  refine Finset.sum_congr rfl fun k _ => ?_
  show xarr2 V c (((cfg2.win 0).blk t).view.emb (ix2 p k)) * warr2 V c (((cfg2.win 1).blk t).view.emb (ix2 k q))
    = xarr2 V c (ix2 ((((cfg2.win 2).blk t).view.emb (ix2 p q)) 0) k) * warr2 V c (ix2 k ((((cfg2.win 2).blk t).view.emb (ix2 p q)) 1))
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 2048 + 1 * p.val = win2_2.index t (0 : Fin 2) * 2048 + 1 * p.val; omega
    | ⟨1, _⟩ => show win2_0.index t (1 : Fin 2) * 256 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 256 + 1 * k.val = k.val; omega
    | ⟨1, _⟩ => show win2_1.index t (1 : Fin 2) * 256 + 1 * q.val = win2_2.index t (1 : Fin 2) * 256 + 1 * q.val; omega
  exact congrArg₂ (fun a b : EReal => a * b) (congrArg (xarr2 V c) h0) (congrArg (warr2 V c) h1)

/-- An entry of Y is in point t's block iff, on each axis, its coordinate lies in the block's range
    [index × size, index × size + size). -/
theorem mem_blk2 (t : Fin cfg2.N) (i : S65536x256.Idx) :
    i ∈ ((cfg2.win 2).blk t).view.set ↔ ∀ a : Fin 2, win2_2.index t a * S2048x256.size a ≤ (i a).val ∧ (i a).val < win2_2.index t a * S2048x256.size a + S2048x256.size a := by
  show i ∈ ((View.whole main_v70).slice (win2_2.rect t)).set ↔ _
  rw [View.set_slice_whole, Rect.mem_set_unit]
  exact Iff.rfl

/-- The blocks cover Y: row r lies in the block of point r / 2048 (r < 65536, so r / 2048 < 32), and every block spans
    all 256 columns. -/
theorem covered2 (i : S65536x256.Idx) : ∃ t : Fin cfg2.N, (cfg2.win 2).flush t = true ∧ i ∈ ((cfg2.win 2).blk t).view.set := by
  have hi0 : (i 0).val < 65536 := (i 0).isLt
  have hi1 : (i 1).val < 256 := (i 1).isLt
  have hN : cfg2.N = 32 := N_2
  have ht : (i 0).val / 2048 < cfg2.N := by rw [hN]; omega
  obtain ⟨-, -, -, -, e20, e21⟩ := idx_facts2 ⟨(i 0).val / 2048, ht⟩
  refine ⟨⟨(i 0).val / 2048, ht⟩, flush2_2 _, ?_⟩
  rw [mem_blk2]
  intro a
  match a with
  | ⟨0, _⟩ =>
    show win2_2.index ⟨(i 0).val / 2048, ht⟩ (0 : Fin 2) * 2048 ≤ (i 0).val ∧ (i 0).val < win2_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win2_2.index ⟨(i 0).val / 2048, ht⟩ (1 : Fin 2) * 256 ≤ (i 1).val ∧ (i 1).val < win2_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt2 (c : Dev nD) :
    (dat2 (F := Ideal) V c).arrAt 2 cfg2.N
      = Cert.Spec.mul (V c (Pipeline.arrRef spec2 0) : Cert.Spec.Mat 65536 256) (V c (Pipeline.arrRef spec2 1) : Cert.Spec.Mat 256 256) :=
  (dat2 (F := Ideal) V c).arrAt_eq_of_cover 2 (Cert.Spec.mul (xarr2 V c) (warr2 V c)) (fun t _ => flushed2_eq V c t) covered2

end Cert.KernelIdeal.Val

end
-- ==== Proof.KI.ValProj3.lean ====
/- Region 3 computes a matrix product, block of rows by block of rows.

   The region's first input array X has 16384 rows and 256 columns, its second input array W is 256 by 256, and its
   output array Y has the shape of X. The grid has 8 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 8 blocks cover Y, and after the region Y holds X · W. -/
import proofs.«101828_j11562051961417_2_alg».proof.Proof.KI.Region3
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs3_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs3_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs3_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs3_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay3_apply (x0 : FVec Ideal S2048x256 .f32) (x1 : FVec Ideal S256x256 .f32) (p : Fin 2048) (q : Fin 256) :
    k3_pay1 (F := Ideal) x0 x1 (ix2 p q) = ∑ k : Fin 256, x0 (ix2 p k) * x1 (ix2 k q) := by
  unfold k3_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs3_0 _ _
    | ⟨1, _⟩ => exact (lhs3_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs3_0 _ _).trans hk
    | ⟨1, _⟩ => exact rhs3_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz3 : (![0, 0] : Fin 2 → Nat) = fun _ => 0 := funext fun a => by fin_cases a <;> rfl

/-- The first input array as the region finds it: X, 16384 rows of 256 entries. -/
abbrev xarr3 (c : Dev nD) : Cert.Spec.Mat 16384 256 := V c (Pipeline.arrRef spec3 0)
/-- The second input array as the region finds it: W, 256 by 256. -/
abbrev warr3 (c : Dev nD) : Cert.Spec.Mat 256 256 := V c (Pipeline.arrRef spec3 1)

/-- Which block each window holds at grid point t: the blocks of X and of Y are block-row t (block column 0), the block of
    W is always the whole of W. Decided once over the 8 points. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed3_eq (c : Dev nD) (t : Fin cfg3.N) :
    (dat3 (F := Ideal) V c).flushed 2 t = ((cfg3.win 2).blk t).view.read (Elt Ideal) (Cert.Spec.mul (xarr3 V c) (warr3 V c)) := by
  show (cfg3.win 2).cut (grid3.coords t) ((dat3 (F := Ideal) V c).after 2 t) = _
  rw [after3_2]
  unfold out3
  rw [View.canon_unit_zero hz3]
  simp only [View.ld_unit_zero (S := S2048x256) hz3, View.ld_unit_zero (S := S256x256) hz3]
  obtain ⟨e00, e01, e10, e11, e20, e21⟩ := idx_facts3 t
  funext j
  obtain ⟨p, q, rfl⟩ : ∃ (p : Fin 2048) (q : Fin 256), j = ix2 p q := ⟨j 0, j 1, eq_ix2 j⟩
  show k3_pay1 (F := Ideal) (iblk3 V c 0 t) (iblk3 V c 1 t) (ix2 p q) = Cert.Spec.mul (xarr3 V c) (warr3 V c) (((cfg3.win 2).blk t).view.emb (ix2 p q))
  refine (pay3_apply (iblk3 V c 0 t) (iblk3 V c 1 t) p q).trans ?_
  unfold Cert.Spec.mul
  refine Finset.sum_congr rfl fun k _ => ?_
  show xarr3 V c (((cfg3.win 0).blk t).view.emb (ix2 p k)) * warr3 V c (((cfg3.win 1).blk t).view.emb (ix2 k q))
    = xarr3 V c (ix2 ((((cfg3.win 2).blk t).view.emb (ix2 p q)) 0) k) * warr3 V c (ix2 k ((((cfg3.win 2).blk t).view.emb (ix2 p q)) 1))
  have h0 : ((cfg3.win 0).blk t).view.emb (ix2 p k) = ix2 ((((cfg3.win 2).blk t).view.emb (ix2 p q)) 0) k := by
    funext a; apply Fin.ext
    match a with
    | ⟨0, _⟩ => show win3_0.index t (0 : Fin 2) * 2048 + 1 * p.val = win3_2.index t (0 : Fin 2) * 2048 + 1 * p.val; omega
    | ⟨1, _⟩ => show win3_0.index t (1 : Fin 2) * 256 + 1 * k.val = k.val; omega
  have h1 : ((cfg3.win 1).blk t).view.emb (ix2 k q) = ix2 k ((((cfg3.win 2).blk t).view.emb (ix2 p q)) 1) := by
    funext a; apply Fin.ext
    match a with
    | ⟨0, _⟩ => show win3_1.index t (0 : Fin 2) * 256 + 1 * k.val = k.val; omega
    | ⟨1, _⟩ => show win3_1.index t (1 : Fin 2) * 256 + 1 * q.val = win3_2.index t (1 : Fin 2) * 256 + 1 * q.val; omega
  exact congrArg₂ (fun a b : EReal => a * b) (congrArg (xarr3 V c) h0) (congrArg (warr3 V c) h1)

/-- An entry of Y is in point t's block iff, on each axis, its coordinate lies in the block's range
    [index × size, index × size + size). -/
theorem mem_blk3 (t : Fin cfg3.N) (i : S16384x256.Idx) :
    i ∈ ((cfg3.win 2).blk t).view.set ↔ ∀ a : Fin 2, win3_2.index t a * S2048x256.size a ≤ (i a).val ∧ (i a).val < win3_2.index t a * S2048x256.size a + S2048x256.size a := by
  show i ∈ ((View.whole main_v73).slice (win3_2.rect t)).set ↔ _
  rw [View.set_slice_whole, Rect.mem_set_unit]
  exact Iff.rfl

/-- The blocks cover Y: row r lies in the block of point r / 2048 (r < 16384, so r / 2048 < 8), and every block spans
    all 256 columns. -/
theorem covered3 (i : S16384x256.Idx) : ∃ t : Fin cfg3.N, (cfg3.win 2).flush t = true ∧ i ∈ ((cfg3.win 2).blk t).view.set := by
  have hi0 : (i 0).val < 16384 := (i 0).isLt
  have hi1 : (i 1).val < 256 := (i 1).isLt
  have hN : cfg3.N = 8 := N_3
  have ht : (i 0).val / 2048 < cfg3.N := by rw [hN]; omega
  obtain ⟨-, -, -, -, e20, e21⟩ := idx_facts3 ⟨(i 0).val / 2048, ht⟩
  refine ⟨⟨(i 0).val / 2048, ht⟩, flush3_2 _, ?_⟩
  rw [mem_blk3]
  intro a
  match a with
  | ⟨0, _⟩ =>
    show win3_2.index ⟨(i 0).val / 2048, ht⟩ (0 : Fin 2) * 2048 ≤ (i 0).val ∧ (i 0).val < win3_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win3_2.index ⟨(i 0).val / 2048, ht⟩ (1 : Fin 2) * 256 ≤ (i 1).val ∧ (i 1).val < win3_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt3 (c : Dev nD) :
    (dat3 (F := Ideal) V c).arrAt 2 cfg3.N
      = Cert.Spec.mul (V c (Pipeline.arrRef spec3 0) : Cert.Spec.Mat 16384 256) (V c (Pipeline.arrRef spec3 1) : Cert.Spec.Mat 256 256) :=
  (dat3 (F := Ideal) V c).arrAt_eq_of_cover 2 (Cert.Spec.mul (xarr3 V c) (warr3 V c)) (fun t _ => flushed3_eq V c t) covered3

end Cert.KernelIdeal.Val

end
-- ==== Proof.KI.ValProj4.lean ====
/- Region 4 computes a matrix product, block of rows by block of rows.

   The region's first input array X has 32768 rows and 256 columns, its second input array W is 256 by 256, and its
   output array Y has the shape of X. The grid has 16 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 16 blocks cover Y, and after the region Y holds X · W. -/
import proofs.«101828_j11562051961417_2_alg».proof.Proof.KI.Region4
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs4_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs4_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs4_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs4_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay4_apply (x0 : FVec Ideal S2048x256 .f32) (x1 : FVec Ideal S256x256 .f32) (p : Fin 2048) (q : Fin 256) :
    k4_pay1 (F := Ideal) x0 x1 (ix2 p q) = ∑ k : Fin 256, x0 (ix2 p k) * x1 (ix2 k q) := by
  unfold k4_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs4_0 _ _
    | ⟨1, _⟩ => exact (lhs4_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs4_0 _ _).trans hk
    | ⟨1, _⟩ => exact rhs4_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz4 : (![0, 0] : Fin 2 → Nat) = fun _ => 0 := funext fun a => by fin_cases a <;> rfl

/-- The first input array as the region finds it: X, 32768 rows of 256 entries. -/
abbrev xarr4 (c : Dev nD) : Cert.Spec.Mat 32768 256 := V c (Pipeline.arrRef spec4 0)
/-- The second input array as the region finds it: W, 256 by 256. -/
abbrev warr4 (c : Dev nD) : Cert.Spec.Mat 256 256 := V c (Pipeline.arrRef spec4 1)

/-- Which block each window holds at grid point t: the blocks of X and of Y are block-row t (block column 0), the block of
    W is always the whole of W. Decided once over the 16 points. -/
theorem idx_facts4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed4_eq (c : Dev nD) (t : Fin cfg4.N) :
    (dat4 (F := Ideal) V c).flushed 2 t = ((cfg4.win 2).blk t).view.read (Elt Ideal) (Cert.Spec.mul (xarr4 V c) (warr4 V c)) := by
  show (cfg4.win 2).cut (grid4.coords t) ((dat4 (F := Ideal) V c).after 2 t) = _
  rw [after4_2]
  unfold out4
  rw [View.canon_unit_zero hz4]
  simp only [View.ld_unit_zero (S := S2048x256) hz4, View.ld_unit_zero (S := S256x256) hz4]
  obtain ⟨e00, e01, e10, e11, e20, e21⟩ := idx_facts4 t
  funext j
  obtain ⟨p, q, rfl⟩ : ∃ (p : Fin 2048) (q : Fin 256), j = ix2 p q := ⟨j 0, j 1, eq_ix2 j⟩
  show k4_pay1 (F := Ideal) (iblk4 V c 0 t) (iblk4 V c 1 t) (ix2 p q) = Cert.Spec.mul (xarr4 V c) (warr4 V c) (((cfg4.win 2).blk t).view.emb (ix2 p q))
  refine (pay4_apply (iblk4 V c 0 t) (iblk4 V c 1 t) p q).trans ?_
  unfold Cert.Spec.mul
  refine Finset.sum_congr rfl fun k _ => ?_
  show xarr4 V c (((cfg4.win 0).blk t).view.emb (ix2 p k)) * warr4 V c (((cfg4.win 1).blk t).view.emb (ix2 k q))
    = xarr4 V c (ix2 ((((cfg4.win 2).blk t).view.emb (ix2 p q)) 0) k) * warr4 V c (ix2 k ((((cfg4.win 2).blk t).view.emb (ix2 p q)) 1))
  have h0 : ((cfg4.win 0).blk t).view.emb (ix2 p k) = ix2 ((((cfg4.win 2).blk t).view.emb (ix2 p q)) 0) k := by
    funext a; apply Fin.ext
    match a with
    | ⟨0, _⟩ => show win4_0.index t (0 : Fin 2) * 2048 + 1 * p.val = win4_2.index t (0 : Fin 2) * 2048 + 1 * p.val; omega
    | ⟨1, _⟩ => show win4_0.index t (1 : Fin 2) * 256 + 1 * k.val = k.val; omega
  have h1 : ((cfg4.win 1).blk t).view.emb (ix2 k q) = ix2 k ((((cfg4.win 2).blk t).view.emb (ix2 p q)) 1) := by
    funext a; apply Fin.ext
    match a with
    | ⟨0, _⟩ => show win4_1.index t (0 : Fin 2) * 256 + 1 * k.val = k.val; omega
    | ⟨1, _⟩ => show win4_1.index t (1 : Fin 2) * 256 + 1 * q.val = win4_2.index t (1 : Fin 2) * 256 + 1 * q.val; omega
  exact congrArg₂ (fun a b : EReal => a * b) (congrArg (xarr4 V c) h0) (congrArg (warr4 V c) h1)

/-- An entry of Y is in point t's block iff, on each axis, its coordinate lies in the block's range
    [index × size, index × size + size). -/
theorem mem_blk4 (t : Fin cfg4.N) (i : S32768x256.Idx) :
    i ∈ ((cfg4.win 2).blk t).view.set ↔ ∀ a : Fin 2, win4_2.index t a * S2048x256.size a ≤ (i a).val ∧ (i a).val < win4_2.index t a * S2048x256.size a + S2048x256.size a := by
  show i ∈ ((View.whole main_v76).slice (win4_2.rect t)).set ↔ _
  rw [View.set_slice_whole, Rect.mem_set_unit]
  exact Iff.rfl

/-- The blocks cover Y: row r lies in the block of point r / 2048 (r < 32768, so r / 2048 < 16), and every block spans
    all 256 columns. -/
theorem covered4 (i : S32768x256.Idx) : ∃ t : Fin cfg4.N, (cfg4.win 2).flush t = true ∧ i ∈ ((cfg4.win 2).blk t).view.set := by
  have hi0 : (i 0).val < 32768 := (i 0).isLt
  have hi1 : (i 1).val < 256 := (i 1).isLt
  have hN : cfg4.N = 16 := N_4
  have ht : (i 0).val / 2048 < cfg4.N := by rw [hN]; omega
  obtain ⟨-, -, -, -, e20, e21⟩ := idx_facts4 ⟨(i 0).val / 2048, ht⟩
  refine ⟨⟨(i 0).val / 2048, ht⟩, flush4_2 _, ?_⟩
  rw [mem_blk4]
  intro a
  match a with
  | ⟨0, _⟩ =>
    show win4_2.index ⟨(i 0).val / 2048, ht⟩ (0 : Fin 2) * 2048 ≤ (i 0).val ∧ (i 0).val < win4_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win4_2.index ⟨(i 0).val / 2048, ht⟩ (1 : Fin 2) * 256 ≤ (i 1).val ∧ (i 1).val < win4_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt4 (c : Dev nD) :
    (dat4 (F := Ideal) V c).arrAt 2 cfg4.N
      = Cert.Spec.mul (V c (Pipeline.arrRef spec4 0) : Cert.Spec.Mat 32768 256) (V c (Pipeline.arrRef spec4 1) : Cert.Spec.Mat 256 256) :=
  (dat4 (F := Ideal) V c).arrAt_eq_of_cover 2 (Cert.Spec.mul (xarr4 V c) (warr4 V c)) (fun t _ => flushed4_eq V c t) covered4

end Cert.KernelIdeal.Val

end
-- ==== Proof.KI.ValBound5.lean ====
/- Region 5 as a function of whole arrays. The region walks 32 points; at point t it holds batches 8t … 8t + 7 of
   the incidence array A : [256, 256, 128] and of X : [256, 128, 256], and stores, batch by batch, the product A_b · X_b
   into batches 8t … 8t + 7 of the output [256, 256, 256]. Read at an index (b, r, c) the stored value is the sum over the
   128 columns k of A (b, r, k) · X (b, k, c): the product into a zero accumulator is the bare sum, and a change of float
   format is the identity on extended reals. The 32 blocks of 8 batches tile the 256 batches, so the output array after the
   region is the batched product `Cert.Spec.bmul` of the two input arrays as the region finds them. -/
import proofs.«101828_j11562051961417_2_alg».proof.Proof.KI.Region5
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat)
open Cert.Spec (Mat3 bmul)

/-! ## The block product at an index

The product's dimension numbers: axis 0 of both operands is the batch, axis 1 of the left and axis 2 of the right are
free, axis 2 of the left is contracted against axis 1 of the right. So at output index i = (b, r, c) and contraction
position q the left operand is read at (b, r, q) and the right at (b, q, c): one fact per operand axis. -/

/-- The left operand's batch coordinate is the output's. -/
theorem lhs5_0 (i : S8x256x256.Idx) (q : dot_S8x256x128_S8x128x256_S8x256x256_2_1_1_2_0_0.contr.Idx) :
    (dot_S8x256x128_S8x128x256_S8x256x256_2_1_1_2_0_0.lhsIdx i q 0).val = (i 0).val := by
  unfold DotDims.lhsIdx
  rw [dif_pos (show (0 : Fin S8x256x128.rank) ∈ dot_S8x256x128_S8x128x256_S8x256x256_2_1_1_2_0_0.lhsBatch by decide)]
  rfl
/-- The left operand's row is the output's row. -/
theorem lhs5_1 (i : S8x256x256.Idx) (q : dot_S8x256x128_S8x128x256_S8x256x256_2_1_1_2_0_0.contr.Idx) :
    (dot_S8x256x128_S8x128x256_S8x256x256_2_1_1_2_0_0.lhsIdx i q 1).val = (i 1).val := by
  unfold DotDims.lhsIdx
  rw [dif_neg (show ¬(1 : Fin S8x256x128.rank) ∈ dot_S8x256x128_S8x128x256_S8x256x256_2_1_1_2_0_0.lhsBatch by decide), dif_pos (show (1 : Fin S8x256x128.rank) ∈ dot_S8x256x128_S8x128x256_S8x256x256_2_1_1_2_0_0.lhsNonContracting by decide)]
  rfl
/-- The left operand's column is the contraction position. -/
theorem lhs5_2 (i : S8x256x256.Idx) (q : dot_S8x256x128_S8x128x256_S8x256x256_2_1_1_2_0_0.contr.Idx) :
    (dot_S8x256x128_S8x128x256_S8x256x256_2_1_1_2_0_0.lhsIdx i q 2).val = (q ⟨0, by decide⟩).val :=
  dot_S8x256x128_S8x128x256_S8x256x256_2_1_1_2_0_0.lhsIdx_val_of_single rfl i q
/-- The right operand's batch coordinate is the output's. -/
theorem rhs5_0 (i : S8x256x256.Idx) (q : dot_S8x256x128_S8x128x256_S8x256x256_2_1_1_2_0_0.contr.Idx) :
    (dot_S8x256x128_S8x128x256_S8x256x256_2_1_1_2_0_0.rhsIdx i q 0).val = (i 0).val := by
  unfold DotDims.rhsIdx
  rw [dif_pos (show (0 : Fin S8x128x256.rank) ∈ dot_S8x256x128_S8x128x256_S8x256x256_2_1_1_2_0_0.rhsBatch by decide)]
  rfl
/-- The right operand's row is the contraction position. -/
theorem rhs5_1 (i : S8x256x256.Idx) (q : dot_S8x256x128_S8x128x256_S8x256x256_2_1_1_2_0_0.contr.Idx) :
    (dot_S8x256x128_S8x128x256_S8x256x256_2_1_1_2_0_0.rhsIdx i q 1).val = (q ⟨0, by decide⟩).val :=
  dot_S8x256x128_S8x128x256_S8x256x256_2_1_1_2_0_0.rhsIdx_val_of_single rfl i q
/-- The right operand's column is the output's column. -/
theorem rhs5_2 (i : S8x256x256.Idx) (q : dot_S8x256x128_S8x128x256_S8x256x256_2_1_1_2_0_0.contr.Idx) :
    (dot_S8x256x128_S8x128x256_S8x256x256_2_1_1_2_0_0.rhsIdx i q 2).val = (i 2).val := by
  unfold DotDims.rhsIdx
  rw [dif_neg (show ¬(2 : Fin S8x128x256.rank) ∈ dot_S8x256x128_S8x128x256_S8x256x256_2_1_1_2_0_0.rhsBatch by decide), dif_pos (show (2 : Fin S8x128x256.rank) ∈ dot_S8x256x128_S8x128x256_S8x256x256_2_1_1_2_0_0.rhsNonContracting by decide)]
  rfl

/-- THE BODY'S VALUE AT (b, r, c): the sum over the 128 contracted columns k of the left block at (b, r, k) times the
    right block at (b, k, c). The two shape casts are between equal shapes, the narrowing of the right block is the
    identity on extended reals, and the accumulator is the zero constant. -/
theorem pay5_apply (x0 : FVec Ideal S8x256x128 .bf16) (x1 : FVec Ideal S8x128x256 .f32) (b : Fin 8) (r c : Fin 256) :
    k5_pay1 (F := Ideal) x0 x1 (ix3 b r c) = ∑ k : Fin 128, x0 (ix3 b r k) * x1 (ix3 b k c) := by
  unfold k5_pay1
  rw [shapeCast_self, shapeCast_self]
  simp only [matmul]
  rw [Ideal.matmul_constant_zero_apply, ← Equiv.sum_comp (contrEquiv1 dot_S8x256x128_S8x128x256_S8x256x256_2_1_1_2_0_0 128 rfl rfl).symm]
  refine Finset.sum_congr rfl fun k _ => ?_
  have hk := contrEquiv1_symm_val dot_S8x256x128_S8x128x256_S8x256x256_2_1_1_2_0_0 128 rfl rfl k
  have el : dot_S8x256x128_S8x128x256_S8x256x256_2_1_1_2_0_0.lhsIdx (ix3 b r c) ((contrEquiv1 dot_S8x256x128_S8x128x256_S8x256x256_2_1_1_2_0_0 128 rfl rfl).symm k) = ix3 b r k := funext fun a => Fin.ext (by
    match a with
    | ⟨0, _⟩ => exact lhs5_0 _ _
    | ⟨1, _⟩ => exact lhs5_1 _ _
    | ⟨2, _⟩ => exact (lhs5_2 _ _).trans hk)
  have er : dot_S8x256x128_S8x128x256_S8x256x256_2_1_1_2_0_0.rhsIdx (ix3 b r c) ((contrEquiv1 dot_S8x256x128_S8x128x256_S8x256x256_2_1_1_2_0_0 128 rfl rfl).symm k) = ix3 b k c := funext fun a => Fin.ext (by
    match a with
    | ⟨0, _⟩ => exact rhs5_0 _ _
    | ⟨1, _⟩ => exact (rhs5_1 _ _).trans hk
    | ⟨2, _⟩ => exact rhs5_2 _ _)
  rw [el, er]
  rfl

variable (V : (c : Dev nD) → (b : Ref sig .tc) → Buf (Elt Ideal) ((c : Thread nD τ).loc b))

/-! ## The blocks as parts of the arrays -/

/-- The zero offset of a whole-block load or store. -/
theorem hz5 : (![0, 0, 0] : Fin 3 → Nat) = fun _ => 0 := funext fun a => by fin_cases a <;> rfl

/-- The three windows' block indices over the 32 points: at point t each window is at block t along the batch axis and
    at block 0 along the other two. -/
theorem idx5 : ∀ t : Fin cfg5.N,
    win5_0.index t (0 : Fin 3) = t.val ∧ win5_0.index t (1 : Fin 3) = 0 ∧ win5_0.index t (2 : Fin 3) = 0
    ∧ win5_1.index t (0 : Fin 3) = t.val ∧ win5_1.index t (1 : Fin 3) = 0 ∧ win5_1.index t (2 : Fin 3) = 0
    ∧ win5_2.index t (0 : Fin 3) = t.val ∧ win5_2.index t (1 : Fin 3) = 0 ∧ win5_2.index t (2 : Fin 3) = 0 :=
  (by decide +kernel : ∀ t : Fin grid5.N, _)

/-- Window 0's block at point t is batches 8t … 8t + 7 of A: its entry (b, r, k) is A (8t + b, r, k). -/
theorem iblk5_0_apply (c : Dev nD) (t : Fin cfg5.N) (y : S8x256x128.Idx) (i : S256x256x128.Idx)
    (h0 : (i 0).val = t.val * 8 + (y 0).val) (h1 : (i 1).val = (y 1).val) (h2 : (i 2).val = (y 2).val) :
    (iblk5 V c 0 t : Vec Ideal S8x256x128 .bf16) y = (V c (Pipeline.arrRef spec5 0) : Mat3 256 256 128) i := by
  obtain ⟨e0, e1, e2, -⟩ := idx5 t
  unfold iblk5
  rw [View.read_apply]
  refine congrArg (V c (Pipeline.arrRef spec5 0) : Mat3 256 256 128) (funext fun a => Fin.ext ?_)
  match a with
  | ⟨0, _⟩ => show win5_0.index t (0 : Fin 3) * 8 + 1 * (y 0).val = (i 0).val; omega
  | ⟨1, _⟩ => show win5_0.index t (1 : Fin 3) * 256 + 1 * (y 1).val = (i 1).val; omega
  | ⟨2, _⟩ => show win5_0.index t (2 : Fin 3) * 128 + 1 * (y 2).val = (i 2).val; omega

/-- Window 1's block at point t is batches 8t … 8t + 7 of X: its entry (b, k, c) is X (8t + b, k, c). -/
theorem iblk5_1_apply (c : Dev nD) (t : Fin cfg5.N) (y : S8x128x256.Idx) (i : S256x128x256.Idx)
    (h0 : (i 0).val = t.val * 8 + (y 0).val) (h1 : (i 1).val = (y 1).val) (h2 : (i 2).val = (y 2).val) :
    (iblk5 V c 1 t : Vec Ideal S8x128x256 .f32) y = (V c (Pipeline.arrRef spec5 1) : Mat3 256 128 256) i := by
  obtain ⟨-, -, -, e0, e1, e2, -⟩ := idx5 t
  unfold iblk5
  rw [View.read_apply]
  refine congrArg (V c (Pipeline.arrRef spec5 1) : Mat3 256 128 256) (funext fun a => Fin.ext ?_)
  match a with
  | ⟨0, _⟩ => show win5_1.index t (0 : Fin 3) * 8 + 1 * (y 0).val = (i 0).val; omega
  | ⟨1, _⟩ => show win5_1.index t (1 : Fin 3) * 128 + 1 * (y 1).val = (i 1).val; omega
  | ⟨2, _⟩ => show win5_1.index t (2 : Fin 3) * 256 + 1 * (y 2).val = (i 2).val; omega

/-- If the two blocks are batches 8p … 8p + 7 of arrays A and X, the body's value at (b, r, c) is the batched product
    of A and X at (8p + b, r, c): the sum over k of A (8p + b, r, k) · X (8p + b, k, c), term by term. -/
theorem pay5_block (A : Mat3 256 256 128) (X : Mat3 256 128 256)
    (x0 : FVec Ideal S8x256x128 .bf16) (x1 : FVec Ideal S8x128x256 .f32) (p : Nat)
    (hx0 : ∀ (y : S8x256x128.Idx) (i : S256x256x128.Idx), (i 0).val = p * 8 + (y 0).val → (i 1).val = (y 1).val → (i 2).val = (y 2).val → x0 y = A i)
    (hx1 : ∀ (y : S8x128x256.Idx) (i : S256x128x256.Idx), (i 0).val = p * 8 + (y 0).val → (i 1).val = (y 1).val → (i 2).val = (y 2).val → x1 y = X i)
    (j : S8x256x256.Idx) (i : S256x256x256.Idx)
    (h0 : (i 0).val = p * 8 + (j 0).val) (h1 : (i 1).val = (j 1).val) (h2 : (i 2).val = (j 2).val) :
    k5_pay1 (F := Ideal) x0 x1 j = bmul A X i := by
  obtain ⟨b, r, c, rfl⟩ : ∃ (b : Fin 8) (r : Fin 256) (c : Fin 256), j = ix3 b r c := ⟨j 0, j 1, j 2, eq_ix3 j⟩
  rw [pay5_apply]
  show _ = ∑ k : Fin 128, A (ix3 (i 0) (i 1) k) * X (ix3 (i 0) k (i 2))
  exact Finset.sum_congr rfl fun k _ => by
    rw [hx0 (ix3 b r k) (ix3 (i 0) (i 1) k) h0 h1 rfl, hx1 (ix3 b k c) (ix3 (i 0) k (i 2)) h0 rfl h2]

/-- WHAT POINT t WRITES BACK is block t of the batched product of the two input arrays: the stored value of the two
    input blocks at t, and the output's block at t sits at batches 8t … 8t + 7 like theirs. -/
theorem flushed5_eq (c : Dev nD) (t : Fin cfg5.N) :
    (dat5 (F := Ideal) V c).flushed 2 t
      = ((cfg5.win 2).blk t).view.read (Elt Ideal)
          (bmul (V c (Pipeline.arrRef spec5 0) : Mat3 256 256 128) (V c (Pipeline.arrRef spec5 1) : Mat3 256 128 256)) := by
  show (cfg5.win 2).cut (grid5.coords t) ((dat5 V c).after 2 t) = _
  rw [after5_2]
  unfold out5
  rw [View.canon_unit_zero hz5]
  simp only [View.ld_unit_zero (S := S8x256x128) hz5, View.ld_unit_zero (S := S8x128x256) hz5]
  obtain ⟨-, -, -, -, -, -, e0, e1, e2⟩ := idx5 t
  funext j
  refine pay5_block (V c (Pipeline.arrRef spec5 0)) (V c (Pipeline.arrRef spec5 1)) (iblk5 V c 0 t) (iblk5 V c 1 t) t.val
    (iblk5_0_apply V c t) (iblk5_1_apply V c t) j (((cfg5.win 2).blk t).view.emb j) ?_ ?_ ?_
  · show win5_2.index t (0 : Fin 3) * 8 + 1 * (j 0).val = t.val * 8 + (j 0).val; omega
  · show win5_2.index t (1 : Fin 3) * 256 + 1 * (j 1).val = (j 1).val; omega
  · show win5_2.index t (2 : Fin 3) * 256 + 1 * (j 2).val = (j 2).val; omega

/-! ## The 32 blocks tile the output -/

/-- An index of the output array is in point t's block iff each coordinate is in the block's range on its axis. -/
theorem mem_blk5 (t : Fin cfg5.N) (i : S256x256x256.Idx) :
    i ∈ ((cfg5.win 2).blk t).view.set ↔ ∀ a : Fin 3, win5_2.index t a * S8x256x256.size a ≤ (i a).val ∧ (i a).val < win5_2.index t a * S8x256x256.size a + S8x256x256.size a := by
  show i ∈ ((View.whole main_v116).slice (win5_2.rect t)).set ↔ _
  rw [View.set_slice_whole, Rect.mem_set_unit]
  exact Iff.rfl

/-- Every index (b, r, c) of the output is in the block of point b / 8, which is written back. -/
theorem cover5_arr (i : S256x256x256.Idx) :
    ∃ t : Fin cfg5.N, (cfg5.win 2).flush t = true ∧ i ∈ ((cfg5.win 2).blk t).view.set := by
  have hi0 : (i 0).val < 256 := (i 0).isLt
  have hi1 : (i 1).val < 256 := (i 1).isLt
  have hi2 : (i 2).val < 256 := (i 2).isLt
  have hN : cfg5.N = 32 := N_5
  let t : Fin cfg5.N := ⟨(i 0).val / 8, by rw [hN]; omega⟩
  have ht : t.val = (i 0).val / 8 := rfl
  obtain ⟨-, -, -, -, -, -, e0, e1, e2⟩ := idx5 t
  refine ⟨t, flush5_2 t, ?_⟩
  rw [mem_blk5]
  intro a
  match a with
  | ⟨0, _⟩ => show win5_2.index t (0 : Fin 3) * 8 ≤ (i 0).val ∧ (i 0).val < win5_2.index t (0 : Fin 3) * 8 + 8; omega
  | ⟨1, _⟩ => show win5_2.index t (1 : Fin 3) * 256 ≤ (i 1).val ∧ (i 1).val < win5_2.index t (1 : Fin 3) * 256 + 256; omega
  | ⟨2, _⟩ => show win5_2.index t (2 : Fin 3) * 256 ≤ (i 2).val ∧ (i 2).val < win5_2.index t (2 : Fin 3) * 256 + 256; omega

/-- THE OUTPUT ARRAY AFTER REGION 5: the batched product A_b · X_b of the two input arrays as the region finds them. -/
theorem arrAt5 (c : Dev nD) :
    (dat5 (F := Ideal) V c).arrAt 2 cfg5.N
      = bmul (V c (Pipeline.arrRef spec5 0) : Mat3 256 256 128) (V c (Pipeline.arrRef spec5 1) : Mat3 256 128 256) :=
  (dat5 (F := Ideal) V c).arrAt_eq_of_cover 2 _ (fun t _ => flushed5_eq V c t) cover5_arr

end Cert.KernelIdeal.Val

end
-- ==== Proof.KI.ValBound6.lean ====
/- Region 6 as a function of whole arrays. The region walks 16 points; at point t it holds batches 16t … 16t + 15 of
   the incidence array A : [256, 64, 256] and of X : [256, 256, 256], and the whole matrix W : [256, 256]. Batch by batch it
   forms the product A_b · X_b, lays the 16 results of 64 rows under one another as 1024 rows, multiplies those rows by W
   and cuts the 1024 rows back into 16 batches of 64, which it stores into batches 16t … 16t + 15 of the output
   [256, 64, 256]. Read at an index (b, r, c) the stored value is the sum over j of (A_b · X_b)(r, j) · W (j, c): each product
   into a zero accumulator is the bare sum, a change of float format is the identity on extended reals, and row 64 b + r of
   the 1024 is row r of batch b. The 16 blocks of 16 batches tile the 256 batches, so the output array after the region
   is, entry by entry, that sum over the input arrays as the region finds them. -/
import proofs.«101828_j11562051961417_2_alg».proof.Proof.KI.Region6
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat)
open Cert.Spec (Mat Mat3 bmul)

/-! ## The two products at an index

The batched product's dimension numbers: axis 0 of both operands is the batch, axis 1 of the left and axis 2 of the right
are free, axis 2 of the left is contracted against axis 1 of the right. The plain product's: axis 0 of the left and axis 1
of the right are free, axis 1 of the left is contracted against axis 0 of the right. One fact per operand axis. -/

/-- Batched product, left operand: the batch coordinate is the output's. -/
theorem lhsA6_0 (i : S16x64x256.Idx) (q : dot_S16x64x256_S16x256x256_S16x64x256_2_1_1_2_0_0.contr.Idx) :
    (dot_S16x64x256_S16x256x256_S16x64x256_2_1_1_2_0_0.lhsIdx i q 0).val = (i 0).val := by
  unfold DotDims.lhsIdx
  rw [dif_pos (show (0 : Fin S16x64x256.rank) ∈ dot_S16x64x256_S16x256x256_S16x64x256_2_1_1_2_0_0.lhsBatch by decide)]
  rfl
/-- Batched product, left operand: the row is the output's row. -/
theorem lhsA6_1 (i : S16x64x256.Idx) (q : dot_S16x64x256_S16x256x256_S16x64x256_2_1_1_2_0_0.contr.Idx) :
    (dot_S16x64x256_S16x256x256_S16x64x256_2_1_1_2_0_0.lhsIdx i q 1).val = (i 1).val := by
  unfold DotDims.lhsIdx
  rw [dif_neg (show ¬(1 : Fin S16x64x256.rank) ∈ dot_S16x64x256_S16x256x256_S16x64x256_2_1_1_2_0_0.lhsBatch by decide), dif_pos (show (1 : Fin S16x64x256.rank) ∈ dot_S16x64x256_S16x256x256_S16x64x256_2_1_1_2_0_0.lhsNonContracting by decide)]
  rfl
/-- Batched product, left operand: the column is the contraction position. -/
theorem lhsA6_2 (i : S16x64x256.Idx) (q : dot_S16x64x256_S16x256x256_S16x64x256_2_1_1_2_0_0.contr.Idx) :
    (dot_S16x64x256_S16x256x256_S16x64x256_2_1_1_2_0_0.lhsIdx i q 2).val = (q ⟨0, by decide⟩).val :=
  dot_S16x64x256_S16x256x256_S16x64x256_2_1_1_2_0_0.lhsIdx_val_of_single rfl i q
/-- Batched product, right operand: the batch coordinate is the output's. -/
theorem rhsA6_0 (i : S16x64x256.Idx) (q : dot_S16x64x256_S16x256x256_S16x64x256_2_1_1_2_0_0.contr.Idx) :
    (dot_S16x64x256_S16x256x256_S16x64x256_2_1_1_2_0_0.rhsIdx i q 0).val = (i 0).val := by
  unfold DotDims.rhsIdx
  rw [dif_pos (show (0 : Fin S16x256x256.rank) ∈ dot_S16x64x256_S16x256x256_S16x64x256_2_1_1_2_0_0.rhsBatch by decide)]
  rfl
/-- Batched product, right operand: the row is the contraction position. -/
theorem rhsA6_1 (i : S16x64x256.Idx) (q : dot_S16x64x256_S16x256x256_S16x64x256_2_1_1_2_0_0.contr.Idx) :
    (dot_S16x64x256_S16x256x256_S16x64x256_2_1_1_2_0_0.rhsIdx i q 1).val = (q ⟨0, by decide⟩).val :=
  dot_S16x64x256_S16x256x256_S16x64x256_2_1_1_2_0_0.rhsIdx_val_of_single rfl i q
/-- Batched product, right operand: the column is the output's column. -/
theorem rhsA6_2 (i : S16x64x256.Idx) (q : dot_S16x64x256_S16x256x256_S16x64x256_2_1_1_2_0_0.contr.Idx) :
    (dot_S16x64x256_S16x256x256_S16x64x256_2_1_1_2_0_0.rhsIdx i q 2).val = (i 2).val := by
  unfold DotDims.rhsIdx
  rw [dif_neg (show ¬(2 : Fin S16x256x256.rank) ∈ dot_S16x64x256_S16x256x256_S16x64x256_2_1_1_2_0_0.rhsBatch by decide), dif_pos (show (2 : Fin S16x256x256.rank) ∈ dot_S16x64x256_S16x256x256_S16x64x256_2_1_1_2_0_0.rhsNonContracting by decide)]
  rfl

/-- Plain product, left operand: the row is the output's row. -/
theorem lhsB6_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- Plain product, left operand: the column is the contraction position. -/
theorem lhsB6_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- Plain product, right operand: the row is the contraction position. -/
theorem rhsB6_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- Plain product, right operand: the column is the output's column. -/
theorem rhsB6_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The batched product into the zero accumulator at (b, r, c): the sum over the 256 contracted columns k of the left
    operand at (b, r, k) times the right at (b, k, c). -/
theorem bprod6_apply (x0 : FVec Ideal S16x64x256 .bf16) (x1 : FVec Ideal S16x256x256 .bf16) (b : Fin 16) (r : Fin 64) (c : Fin 256) :
    matmul dot_S16x64x256_S16x256x256_S16x64x256_2_1_1_2_0_0 none x0 x1 (constant S16x64x256 .f32 0x00000000#32) (ix3 b r c)
      = ∑ k : Fin 256, x0 (ix3 b r k) * x1 (ix3 b k c) := by
  simp only [matmul]
  rw [Ideal.matmul_constant_zero_apply, ← Equiv.sum_comp (contrEquiv1 dot_S16x64x256_S16x256x256_S16x64x256_2_1_1_2_0_0 256 rfl rfl).symm]
  refine Finset.sum_congr rfl fun k _ => ?_
  have hk := contrEquiv1_symm_val dot_S16x64x256_S16x256x256_S16x64x256_2_1_1_2_0_0 256 rfl rfl k
  have el : dot_S16x64x256_S16x256x256_S16x64x256_2_1_1_2_0_0.lhsIdx (ix3 b r c) ((contrEquiv1 dot_S16x64x256_S16x256x256_S16x64x256_2_1_1_2_0_0 256 rfl rfl).symm k) = ix3 b r k := funext fun a => Fin.ext (by
    match a with
    | ⟨0, _⟩ => exact lhsA6_0 _ _
    | ⟨1, _⟩ => exact lhsA6_1 _ _
    | ⟨2, _⟩ => exact (lhsA6_2 _ _).trans hk)
  have er : dot_S16x64x256_S16x256x256_S16x64x256_2_1_1_2_0_0.rhsIdx (ix3 b r c) ((contrEquiv1 dot_S16x64x256_S16x256x256_S16x64x256_2_1_1_2_0_0 256 rfl rfl).symm k) = ix3 b k c := funext fun a => Fin.ext (by
    match a with
    | ⟨0, _⟩ => exact rhsA6_0 _ _
    | ⟨1, _⟩ => exact (rhsA6_1 _ _).trans hk
    | ⟨2, _⟩ => exact rhsA6_2 _ _)
  rw [el, er]

/-- The plain product into the zero accumulator at (p, c): the sum over j of the left operand at (p, j) times the right
    at (j, c). -/
theorem rprod6_apply (y : FVec Ideal S1024x256 .bf16) (w : FVec Ideal S256x256 .bf16) (p : Fin 1024) (c : Fin 256) :
    matmul dot_S1024x256_S256x256_S1024x256_1_0_0_1_n_n none y w (constant S1024x256 .f32 0x00000000#32) (ix2 p c)
      = ∑ j : Fin 256, y (ix2 p j) * w (ix2 j c) := by
  simp only [matmul]
  rw [Ideal.matmul_constant_zero_apply, ← Equiv.sum_comp (contrEquiv1 dot_S1024x256_S256x256_S1024x256_1_0_0_1_n_n 256 rfl rfl).symm]
  refine Finset.sum_congr rfl fun j _ => ?_
  have hj := contrEquiv1_symm_val dot_S1024x256_S256x256_S1024x256_1_0_0_1_n_n 256 rfl rfl j
  have el : dot_S1024x256_S256x256_S1024x256_1_0_0_1_n_n.lhsIdx (ix2 p c) ((contrEquiv1 dot_S1024x256_S256x256_S1024x256_1_0_0_1_n_n 256 rfl rfl).symm j) = ix2 p j := funext fun a => Fin.ext (by
    match a with
    | ⟨0, _⟩ => exact lhsB6_0 _ _
    | ⟨1, _⟩ => exact (lhsB6_1 _ _).trans hj)
  have er : dot_S1024x256_S256x256_S1024x256_1_0_0_1_n_n.rhsIdx (ix2 p c) ((contrEquiv1 dot_S1024x256_S256x256_S1024x256_1_0_0_1_n_n 256 rfl rfl).symm j) = ix2 j c := funext fun a => Fin.ext (by
    match a with
    | ⟨0, _⟩ => exact (rhsB6_0 _ _).trans hj
    | ⟨1, _⟩ => exact rhsB6_1 _ _)
  rw [el, er]

/-- Sixteen batches of 64 rows laid under one another: row 64 b + r of the 1024 is row r of batch b. -/
theorem flat6_apply {α : Type} (v : S16x64x256.Idx → α) (b : Fin 16) (r : Fin 64) (j : Fin 256) :
    shapeCast S1024x256 v shapeCasts_S16x64x256_S1024x256 (ix2 (⟨b.val * 64 + r.val, by omega⟩ : Fin 1024) j) = v (ix3 b r j) :=
  shapeCast_apply v shapeCasts_S16x64x256_S1024x256 _ (ix3 b r j)
    (by rw [Shape.rowMajor_val_two, Shape.rowMajor_val_three]; rfl)

/-- And cut back: row r of batch b is row 64 b + r of the 1024. -/
theorem unflat6_apply {α : Type} (u : S1024x256.Idx → α) (b : Fin 16) (r : Fin 64) (c : Fin 256) :
    shapeCast S16x64x256 u shapeCasts_S1024x256_S16x64x256 (ix3 b r c) = u (ix2 (⟨b.val * 64 + r.val, by omega⟩ : Fin 1024) c) :=
  shapeCast_apply u shapeCasts_S1024x256_S16x64x256 _ (ix2 (⟨b.val * 64 + r.val, by omega⟩ : Fin 1024) c)
    (by rw [Shape.rowMajor_val_two, Shape.rowMajor_val_three]; rfl)

/-- THE BODY'S VALUE AT (b, r, c): the sum over j of (the sum over k of the first block at (b, r, k) times the second at
    (b, k, j)) times the third block at (j, c). The shape casts between equal shapes and the three narrowings are the
    identity on extended reals. -/
theorem pay6_apply (x0 : FVec Ideal S16x64x256 .bf16) (x1 : FVec Ideal S16x256x256 .f32) (x2 : FVec Ideal S256x256 .f32)
    (b : Fin 16) (r : Fin 64) (c : Fin 256) :
    k6_pay1 (F := Ideal) x0 x1 x2 (ix3 b r c)
      = ∑ j : Fin 256, (∑ k : Fin 256, x0 (ix3 b r k) * x1 (ix3 b k j)) * x2 (ix2 j c) := by
  unfold k6_pay1
  rw [shapeCast_self, shapeCast_self, shapeCast_self, unflat6_apply, rprod6_apply]
  refine Finset.sum_congr rfl fun j _ => ?_
  rw [flat6_apply]
  show matmul dot_S16x64x256_S16x256x256_S16x64x256_2_1_1_2_0_0 none x0 (truncf .bf16 x1 bitsLt_bf16_f32) (constant S16x64x256 .f32 0x00000000#32) (ix3 b r j) * x2 (ix2 j c) = _
  rw [bprod6_apply]
  rfl

variable (V : (c : Dev nD) → (b : Ref sig .tc) → Buf (Elt Ideal) ((c : Thread nD τ).loc b))

/-! ## The blocks as parts of the arrays -/

/-- The zero offset of a whole-block load or store, rank 3, -/
theorem hz6 : (![0, 0, 0] : Fin 3 → Nat) = fun _ => 0 := funext fun a => by fin_cases a <;> rfl
/-- and rank 2. -/
theorem hzz6 : (![0, 0] : Fin 2 → Nat) = fun _ => 0 := funext fun a => by fin_cases a <;> rfl

/-- The four windows' block indices over the 16 points: at point t the two batched inputs and the output are at block t
    along the batch axis and at block 0 along the other two; the matrix W is at block (0, 0) throughout. -/
theorem idx6 : ∀ t : Fin cfg6.N,
    win6_0.index t (0 : Fin 3) = t.val ∧ win6_0.index t (1 : Fin 3) = 0 ∧ win6_0.index t (2 : Fin 3) = 0
    ∧ win6_1.index t (0 : Fin 3) = t.val ∧ win6_1.index t (1 : Fin 3) = 0 ∧ win6_1.index t (2 : Fin 3) = 0
    ∧ win6_2.index t (0 : Fin 2) = 0 ∧ win6_2.index t (1 : Fin 2) = 0
    ∧ win6_3.index t (0 : Fin 3) = t.val ∧ win6_3.index t (1 : Fin 3) = 0 ∧ win6_3.index t (2 : Fin 3) = 0 :=
  (by decide +kernel : ∀ t : Fin grid6.N, _)

/-- Window 0's block at point t is batches 16t … 16t + 15 of A: its entry (b, r, k) is A (16t + b, r, k). -/
theorem iblk6_0_apply (c : Dev nD) (t : Fin cfg6.N) (y : S16x64x256.Idx) (i : S256x64x256.Idx)
    (h0 : (i 0).val = t.val * 16 + (y 0).val) (h1 : (i 1).val = (y 1).val) (h2 : (i 2).val = (y 2).val) :
    (iblk6 V c 0 t : Vec Ideal S16x64x256 .bf16) y = (V c (Pipeline.arrRef spec6 0) : Mat3 256 64 256) i := by
  obtain ⟨e0, e1, e2, -⟩ := idx6 t
  unfold iblk6
  rw [View.read_apply]
  refine congrArg (V c (Pipeline.arrRef spec6 0) : Mat3 256 64 256) (funext fun a => Fin.ext ?_)
  match a with
  | ⟨0, _⟩ => show win6_0.index t (0 : Fin 3) * 16 + 1 * (y 0).val = (i 0).val; omega
  | ⟨1, _⟩ => show win6_0.index t (1 : Fin 3) * 64 + 1 * (y 1).val = (i 1).val; omega
  | ⟨2, _⟩ => show win6_0.index t (2 : Fin 3) * 256 + 1 * (y 2).val = (i 2).val; omega

/-- Window 1's block at point t is batches 16t … 16t + 15 of X: its entry (b, k, j) is X (16t + b, k, j). -/
theorem iblk6_1_apply (c : Dev nD) (t : Fin cfg6.N) (y : S16x256x256.Idx) (i : S256x256x256.Idx)
    (h0 : (i 0).val = t.val * 16 + (y 0).val) (h1 : (i 1).val = (y 1).val) (h2 : (i 2).val = (y 2).val) :
    (iblk6 V c 1 t : Vec Ideal S16x256x256 .f32) y = (V c (Pipeline.arrRef spec6 1) : Mat3 256 256 256) i := by
  obtain ⟨-, -, -, e0, e1, e2, -⟩ := idx6 t
  unfold iblk6
  rw [View.read_apply]
  refine congrArg (V c (Pipeline.arrRef spec6 1) : Mat3 256 256 256) (funext fun a => Fin.ext ?_)
  match a with
  | ⟨0, _⟩ => show win6_1.index t (0 : Fin 3) * 16 + 1 * (y 0).val = (i 0).val; omega
  | ⟨1, _⟩ => show win6_1.index t (1 : Fin 3) * 256 + 1 * (y 1).val = (i 1).val; omega
  | ⟨2, _⟩ => show win6_1.index t (2 : Fin 3) * 256 + 1 * (y 2).val = (i 2).val; omega

/-- Window 2's block at every point is all of W. -/
theorem iblk6_2_apply (c : Dev nD) (t : Fin cfg6.N) (y : S256x256.Idx) (i : S256x256.Idx)
    (h0 : (i 0).val = (y 0).val) (h1 : (i 1).val = (y 1).val) :
    (iblk6 V c 2 t : Vec Ideal S256x256 .f32) y = (V c (Pipeline.arrRef spec6 2) : Mat 256 256) i := by
  obtain ⟨-, -, -, -, -, -, e0, e1, -⟩ := idx6 t
  unfold iblk6
  rw [View.read_apply]
  refine congrArg (V c (Pipeline.arrRef spec6 2) : Mat 256 256) (funext fun a => Fin.ext ?_)
  match a with
  | ⟨0, _⟩ => show win6_2.index t (0 : Fin 2) * 256 + 1 * (y 0).val = (i 0).val; omega
  | ⟨1, _⟩ => show win6_2.index t (1 : Fin 2) * 256 + 1 * (y 1).val = (i 1).val; omega

/-- If the first two blocks are batches 16p … 16p + 15 of arrays A and X and the third is W, the body's value at (b, r, c)
    is the sum over q of the batched product of A and X at (16p + b, r, q) times W (q, c), term by term. -/
theorem pay6_block (A : Mat3 256 64 256) (X : Mat3 256 256 256) (W : Mat 256 256)
    (x0 : FVec Ideal S16x64x256 .bf16) (x1 : FVec Ideal S16x256x256 .f32) (x2 : FVec Ideal S256x256 .f32) (p : Nat)
    (hx0 : ∀ (y : S16x64x256.Idx) (i : S256x64x256.Idx), (i 0).val = p * 16 + (y 0).val → (i 1).val = (y 1).val → (i 2).val = (y 2).val → x0 y = A i)
    (hx1 : ∀ (y : S16x256x256.Idx) (i : S256x256x256.Idx), (i 0).val = p * 16 + (y 0).val → (i 1).val = (y 1).val → (i 2).val = (y 2).val → x1 y = X i)
    (hx2 : ∀ (y : S256x256.Idx) (i : S256x256.Idx), (i 0).val = (y 0).val → (i 1).val = (y 1).val → x2 y = W i)
    (j : S16x64x256.Idx) (i : S256x64x256.Idx)
    (h0 : (i 0).val = p * 16 + (j 0).val) (h1 : (i 1).val = (j 1).val) (h2 : (i 2).val = (j 2).val) :
    k6_pay1 (F := Ideal) x0 x1 x2 j = ∑ q : Fin 256, bmul A X (ix3 (i 0) (i 1) q) * W (ix2 q (i 2)) := by
  obtain ⟨b, r, c, rfl⟩ : ∃ (b : Fin 16) (r : Fin 64) (c : Fin 256), j = ix3 b r c := ⟨j 0, j 1, j 2, eq_ix3 j⟩
  rw [pay6_apply]
  refine Finset.sum_congr rfl fun q _ => ?_
  rw [hx2 (ix2 q c) (ix2 q (i 2)) rfl h2]
  refine congrArg (· * W (ix2 q (i 2))) ?_
  show _ = ∑ k : Fin 256, A (ix3 (i 0) (i 1) k) * X (ix3 (i 0) k q)
  exact Finset.sum_congr rfl fun k _ => by
    rw [hx0 (ix3 b r k) (ix3 (i 0) (i 1) k) h0 h1 rfl, hx1 (ix3 b k q) (ix3 (i 0) k q) h0 rfl rfl]

/-- WHAT POINT t WRITES BACK is block t of that function of the three input arrays: the stored value of the three input
    blocks at t, and the output's block at t sits at batches 16t … 16t + 15 like the first two. -/
theorem flushed6_eq (c : Dev nD) (t : Fin cfg6.N) :
    (dat6 (F := Ideal) V c).flushed 3 t
      = ((cfg6.win 3).blk t).view.read (Elt Ideal)
          ((fun i => ∑ q : Fin 256, bmul (V c (Pipeline.arrRef spec6 0) : Mat3 256 64 256) (V c (Pipeline.arrRef spec6 1) : Mat3 256 256 256) (ix3 (i 0) (i 1) q)
            * (V c (Pipeline.arrRef spec6 2) : Mat 256 256) (ix2 q (i 2))) : Mat3 256 64 256) := by
  show (cfg6.win 3).cut (grid6.coords t) ((dat6 V c).after 3 t) = _
  rw [after6_3]
  unfold out6
  rw [View.canon_unit_zero hz6]
  simp only [View.ld_unit_zero (S := S16x64x256) hz6, View.ld_unit_zero (S := S16x256x256) hz6, View.ld_unit_zero (S := S256x256) hzz6]
  obtain ⟨-, -, -, -, -, -, -, -, e0, e1, e2⟩ := idx6 t
  funext j
  refine pay6_block (V c (Pipeline.arrRef spec6 0)) (V c (Pipeline.arrRef spec6 1)) (V c (Pipeline.arrRef spec6 2))
    (iblk6 V c 0 t) (iblk6 V c 1 t) (iblk6 V c 2 t) t.val
    (iblk6_0_apply V c t) (iblk6_1_apply V c t) (iblk6_2_apply V c t) j (((cfg6.win 3).blk t).view.emb j) ?_ ?_ ?_
  · show win6_3.index t (0 : Fin 3) * 16 + 1 * (j 0).val = t.val * 16 + (j 0).val; omega
  · show win6_3.index t (1 : Fin 3) * 64 + 1 * (j 1).val = (j 1).val; omega
  · show win6_3.index t (2 : Fin 3) * 256 + 1 * (j 2).val = (j 2).val; omega

/-! ## The 16 blocks tile the output -/

/-- An index of the output array is in point t's block iff each coordinate is in the block's range on its axis. -/
theorem mem_blk6 (t : Fin cfg6.N) (i : S256x64x256.Idx) :
    i ∈ ((cfg6.win 3).blk t).view.set ↔ ∀ a : Fin 3, win6_3.index t a * S16x64x256.size a ≤ (i a).val ∧ (i a).val < win6_3.index t a * S16x64x256.size a + S16x64x256.size a := by
  show i ∈ ((View.whole main_v121).slice (win6_3.rect t)).set ↔ _
  rw [View.set_slice_whole, Rect.mem_set_unit]
  exact Iff.rfl

/-- Every index (b, r, c) of the output is in the block of point b / 16, which is written back. -/
theorem cover6_arr (i : S256x64x256.Idx) :
    ∃ t : Fin cfg6.N, (cfg6.win 3).flush t = true ∧ i ∈ ((cfg6.win 3).blk t).view.set := by
  have hi0 : (i 0).val < 256 := (i 0).isLt
  have hi1 : (i 1).val < 64 := (i 1).isLt
  have hi2 : (i 2).val < 256 := (i 2).isLt
  have hN : cfg6.N = 16 := N_6
  let t : Fin cfg6.N := ⟨(i 0).val / 16, by rw [hN]; omega⟩
  have ht : t.val = (i 0).val / 16 := rfl
  obtain ⟨-, -, -, -, -, -, -, -, e0, e1, e2⟩ := idx6 t
  refine ⟨t, flush6_3 t, ?_⟩
  rw [mem_blk6]
  intro a
  match a with
  | ⟨0, _⟩ => show win6_3.index t (0 : Fin 3) * 16 ≤ (i 0).val ∧ (i 0).val < win6_3.index t (0 : Fin 3) * 16 + 16; omega
  | ⟨1, _⟩ => show win6_3.index t (1 : Fin 3) * 64 ≤ (i 1).val ∧ (i 1).val < win6_3.index t (1 : Fin 3) * 64 + 64; omega
  | ⟨2, _⟩ => show win6_3.index t (2 : Fin 3) * 256 ≤ (i 2).val ∧ (i 2).val < win6_3.index t (2 : Fin 3) * 256 + 256; omega

/-- THE OUTPUT ARRAY AFTER REGION 6: entry (b, r, c) is the sum over q of (A_b · X_b)(r, q) · W (q, c), over the three input
    arrays as the region finds them. -/
theorem arrAt6 (c : Dev nD) :
    (dat6 (F := Ideal) V c).arrAt 3 cfg6.N
      = ((fun i => ∑ q : Fin 256, bmul (V c (Pipeline.arrRef spec6 0) : Mat3 256 64 256) (V c (Pipeline.arrRef spec6 1) : Mat3 256 256 256) (ix3 (i 0) (i 1) q)
          * (V c (Pipeline.arrRef spec6 2) : Mat 256 256) (ix2 q (i 2))) : Mat3 256 64 256) :=
  (dat6 (F := Ideal) V c).arrAt_eq_of_cover 3 _ (fun t _ => flushed6_eq V c t) cover6_arr

end Cert.KernelIdeal.Val

end
-- ==== Proof.KI.ValSelf7.lean ====
/- Region 7, the self update: the output array after the region is ONE function of the four arrays the region reads,
   index by index —  max (X · W + b + U, 0)  with X the [32768,256] features, W the [256,256] weights, b the [1,256] bias row
   added to every row, U the [32768,256] added term. The grid's 16 points each own 2048 consecutive rows: point t reads
   rows 2048·t … 2048·t + 2047 of X and U and all of W and b, and writes those rows of the result. -/
import proofs.«101828_j11562051961417_2_alg».proof.Proof.KI.Region7
import proofs.«101828_j11562051961417_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat)
open Cert.Spec (Mat)

/-! ## The contraction of the body's matrix product, axis by axis -/

theorem lhs7_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs7_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs7_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs7_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's matrix product into the zero accumulator, at an entry: the row of the left block against the column of
    the right one. -/
theorem matmul7_apply (l : FVec Ideal S2048x256 .bf16) (r : FVec Ideal S256x256 .bf16) (p : Fin 2048) (q : Fin 256) :
    FloatOps.matmul dot_S2048x256_S256x256_S2048x256_1_0_0_1_n_n none l r (constant (F := Ideal) S2048x256 .f32 0x00000000#32) (ix2 p q)
      = ∑ k : Fin 256, l (ix2 p k) * r (ix2 k q) := by
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs7_0 _ _
    | ⟨1, _⟩ => exact (lhs7_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs7_0 _ _).trans hk
    | ⟨1, _⟩ => exact rhs7_1 _ _)
  rw [el, er]

/-- The body's value at an entry of its block. -/
theorem pay7_apply (x0 : Vec Ideal S2048x256 .f32) (x1 : Vec Ideal S256x256 .f32) (x2 : Vec Ideal S1x256 .f32) (x3 : Vec Ideal S2048x256 .f32)
    (p : Fin 2048) (q : Fin 256) :
    k7_pay1 (F := Ideal) x0 x1 x2 x3 (ix2 p q)
      = max ((∑ k : Fin 256, x0 (ix2 p k) * x1 (ix2 k q)) + x2 (ix2 (0 : Fin 1) q) + x3 (ix2 p q)) 0 := by
  unfold k7_pay1
  simp only [shapeCast_self]
  show max ((matmul dot_S2048x256_S256x256_S2048x256_1_0_0_1_n_n none (truncf .bf16 x0 bitsLt_bf16_f32) (truncf .bf16 x1 bitsLt_bf16_f32) (constant (F := Ideal) S2048x256 .f32 0x00000000#32) (ix2 p q)) + broadcastTo S2048x256 x2 broadcasts_S1x256_S2048x256 (ix2 p q) + x3 (ix2 p q)) (Ideal.ofBits .f32 0x00000000#32) = _
  rw [Ideal.ofBits_zero_f32, broadcastTo_1b_ab_apply]
  exact congrArg (fun s => max (s + x2 (ix2 (0 : Fin 1) q) + x3 (ix2 p q)) 0) (matmul7_apply _ _ p q)

/-! ## The output block after the body, at an entry -/

theorem zero7 : (![0, 0] : Fin 2 → Nat) = fun _ => 0 := funext fun a => by fin_cases a <;> rfl

/-- The output block after the body is the body's value of the four input blocks: at entry (p, q), row p of the features'
    block against column q of the weights, plus the bias at q, plus the added term's entry, rectified. -/
theorem out7_apply (x0 : Vec Ideal S2048x256 .f32) (x1 : Vec Ideal S256x256 .f32) (x2 : Vec Ideal S1x256 .f32) (x3 : Vec Ideal S2048x256 .f32)
    (p : Fin 2048) (q : Fin 256) :
    out7 (F := Ideal) x0 x1 x2 x3 (ix2 p q)
      = max ((∑ k : Fin 256, x0 (ix2 p k) * x1 (ix2 k q)) + x2 (ix2 (0 : Fin 1) q) + x3 (ix2 p q)) 0 := by
  unfold out7
  rw [View.canon_unit_zero zero7]
  simp only [View.ld_unit_zero (S := S2048x256) zero7, View.ld_unit_zero (S := S256x256) zero7, View.ld_unit_zero (S := S1x256) zero7]
  exact pay7_apply x0 x1 x2 x3 p q

/-! ## The blocks, as parts of the arrays -/

variable (V : (c : Dev nD) → (b : Ref sig .tc) → Buf (Elt Ideal) ((c : Thread nD τ).loc b))

/-- The printed index maps over the grid: the features', the added term's and the output's block at point t is block t
    of rows; the weights and the bias row are one block. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- Entry (p, k) of the features' block at point t is entry (2048·t + p, k) of the features. -/
theorem iblk7_0_apply (c : Dev nD) (t : Fin cfg7.N) (p : Fin 2048) (k : Fin 256) (r : Fin 32768) (hr : r.val = t.val * 2048 + p.val) :
    (iblk7 V c 0 t : Vec Ideal S2048x256 .f32) (ix2 p k) = (V c (Pipeline.arrRef spec7 0) : Mat 32768 256) (ix2 r k) := by
  obtain ⟨e0, e1, -⟩ := idx7 t
  unfold iblk7
  rw [View.read_apply]
  refine congrArg (V c (Pipeline.arrRef spec7 0) : Mat 32768 256) (funext fun a => Fin.ext ?_)
  match a with
  | ⟨0, _⟩ => show win7_0.index t (0 : Fin 2) * 2048 + 1 * p.val = r.val; omega
  | ⟨1, _⟩ => show win7_0.index t (1 : Fin 2) * 256 + 1 * k.val = k.val; omega

/-- The weights' block at every point is the weights. -/
theorem iblk7_1_apply (c : Dev nD) (t : Fin cfg7.N) (k q : Fin 256) :
    (iblk7 V c 1 t : Vec Ideal S256x256 .f32) (ix2 k q) = (V c (Pipeline.arrRef spec7 1) : Mat 256 256) (ix2 k q) := by
  obtain ⟨-, -, e0, e1, -⟩ := idx7 t
  unfold iblk7
  rw [View.read_apply]
  refine congrArg (V c (Pipeline.arrRef spec7 1) : Mat 256 256) (funext fun a => Fin.ext ?_)
  match a with
  | ⟨0, _⟩ => show win7_1.index t (0 : Fin 2) * 256 + 1 * k.val = k.val; omega
  | ⟨1, _⟩ => show win7_1.index t (1 : Fin 2) * 256 + 1 * q.val = q.val; omega

/-- The bias row's block at every point is the bias row. -/
theorem iblk7_2_apply (c : Dev nD) (t : Fin cfg7.N) (z : Fin 1) (q : Fin 256) :
    (iblk7 V c 2 t : Vec Ideal S1x256 .f32) (ix2 z q) = (V c (Pipeline.arrRef spec7 2) : Mat 1 256) (ix2 z q) := by
  obtain ⟨-, -, -, -, e0, e1, -⟩ := idx7 t
  unfold iblk7
  rw [View.read_apply]
  refine congrArg (V c (Pipeline.arrRef spec7 2) : Mat 1 256) (funext fun a => Fin.ext ?_)
  match a with
  | ⟨0, _⟩ => show win7_2.index t (0 : Fin 2) * 1 + 1 * z.val = z.val; omega
  | ⟨1, _⟩ => show win7_2.index t (1 : Fin 2) * 256 + 1 * q.val = q.val; omega

/-- Entry (p, q) of the added term's block at point t is entry (2048·t + p, q) of the added term. -/
theorem iblk7_3_apply (c : Dev nD) (t : Fin cfg7.N) (p : Fin 2048) (q : Fin 256) (r : Fin 32768) (hr : r.val = t.val * 2048 + p.val) :
    (iblk7 V c 3 t : Vec Ideal S2048x256 .f32) (ix2 p q) = (V c (Pipeline.arrRef spec7 3) : Mat 32768 256) (ix2 r q) := by
  obtain ⟨-, -, -, -, -, -, e0, e1, -⟩ := idx7 t
  unfold iblk7
  rw [View.read_apply]
  refine congrArg (V c (Pipeline.arrRef spec7 3) : Mat 32768 256) (funext fun a => Fin.ext ?_)
  match a with
  | ⟨0, _⟩ => show win7_3.index t (0 : Fin 2) * 2048 + 1 * p.val = r.val; omega
  | ⟨1, _⟩ => show win7_3.index t (1 : Fin 2) * 256 + 1 * q.val = q.val; omega

/-! ## What each point writes back, and the array after the region -/

/-- The self update of the region's four input arrays, entry by entry. -/
abbrev selfUpdate7 (c : Dev nD) : Mat 32768 256 := fun i =>
  max (Cert.Spec.mul (V c (Pipeline.arrRef spec7 0) : Mat 32768 256) (V c (Pipeline.arrRef spec7 1) : Mat 256 256) i
      + (V c (Pipeline.arrRef spec7 2) : Mat 1 256) (ix2 (0 : Fin 1) (i 1)) + (V c (Pipeline.arrRef spec7 3) : Mat 32768 256) i) 0

/-- What point t writes back is its block of rows of the self update. -/
theorem flushed7_eq (c : Dev nD) (t : Fin cfg7.N) :
    (dat7 V c).flushed 4 t = ((cfg7.win 4).blk t).view.read (Elt Ideal) (selfUpdate7 V c) := by
  show (cfg7.win 4).cut (grid7.coords t) ((dat7 V c).after 4 t) = _
  rw [after7_4]
  funext y
  have hy0 : (y 0).val < 2048 := (y 0).isLt
  have hy1 : (y 1).val < 256 := (y 1).isLt
  have hN : t.val < 16 := lt_of_lt_of_eq t.isLt N_7
  obtain ⟨-, -, -, -, -, -, -, -, e0, e1⟩ := idx7 t
  have hx : (cfg7.win 4).xinj (grid7.coords t) y = ix2 (⟨(y 0).val, hy0⟩ : Fin 2048) (⟨(y 1).val, hy1⟩ : Fin 256) :=
    funext fun a => Fin.ext (by match a with | ⟨0, _⟩ => rfl | ⟨1, _⟩ => rfl)
  have he : ((cfg7.win 4).blk t).view.emb y
      = ix2 (⟨t.val * 2048 + (y 0).val, by omega⟩ : Fin 32768) (⟨(y 1).val, hy1⟩ : Fin 256) :=
    funext fun a => Fin.ext (by
      match a with
      | ⟨0, _⟩ => show win7_4.index t (0 : Fin 2) * 2048 + 1 * (y 0).val = t.val * 2048 + (y 0).val; omega
      | ⟨1, _⟩ => show win7_4.index t (1 : Fin 2) * 256 + 1 * (y 1).val = (y 1).val; omega)
  show out7 (F := Ideal) (iblk7 V c 0 t) (iblk7 V c 1 t) (iblk7 V c 2 t) (iblk7 V c 3 t) ((cfg7.win 4).xinj (grid7.coords t) y)
    = selfUpdate7 V c (((cfg7.win 4).blk t).view.emb y)
  rw [hx, he]
  refine (out7_apply (iblk7 V c 0 t) (iblk7 V c 1 t) (iblk7 V c 2 t) (iblk7 V c 3 t) ⟨(y 0).val, hy0⟩ ⟨(y 1).val, hy1⟩).trans ?_
  have h0 := fun k : Fin 256 => iblk7_0_apply V c t ⟨(y 0).val, hy0⟩ k ⟨t.val * 2048 + (y 0).val, by omega⟩ rfl
  have h1 := fun k : Fin 256 => iblk7_1_apply V c t k ⟨(y 1).val, hy1⟩
  have h2 := iblk7_2_apply V c t 0 ⟨(y 1).val, hy1⟩
  have h3 := iblk7_3_apply V c t ⟨(y 0).val, hy0⟩ ⟨(y 1).val, hy1⟩ ⟨t.val * 2048 + (y 0).val, by omega⟩ rfl
  simp only [h0, h1, h2, h3]
  rfl

/-- An index of the array is in point t's block iff each coordinate is in the block's range on its axis. -/
theorem mem_blk7 (t : Fin cfg7.N) (i : S32768x256.Idx) :
    i ∈ ((cfg7.win 4).blk t).view.set ↔ ∀ a : Fin 2, win7_4.index t a * S2048x256.size a ≤ (i a).val ∧ (i a).val < win7_4.index t a * S2048x256.size a + S2048x256.size a := by
  show i ∈ ((View.whole main_v128).slice (win7_4.rect t)).set ↔ _
  rw [View.set_slice_whole, Rect.mem_set_unit]
  exact Iff.rfl

/-- THE ARRAY AFTER THE REGION: the 16 blocks of 2048 rows tile the 32768 rows (row r is in block r / 2048), so the
    output array ends holding the self update of the four input arrays. -/
theorem arrAt7 (c : Dev nD) :
    (dat7 (F := Ideal) V c).arrAt 4 cfg7.N = fun i =>
      max (Cert.Spec.mul (V c (Pipeline.arrRef spec7 0) : Mat 32768 256) (V c (Pipeline.arrRef spec7 1) : Mat 256 256) i
          + (V c (Pipeline.arrRef spec7 2) : Mat 1 256) (ix2 (0 : Fin 1) (i 1)) + (V c (Pipeline.arrRef spec7 3) : Mat 32768 256) i) 0 :=
  (dat7 V c).arrAt_eq_of_cover 4 (selfUpdate7 V c) (fun t _ => flushed7_eq V c t) fun i => by
    have hi0 : (i 0).val < 32768 := (i 0).isLt
    have hi1 : (i 1).val < 256 := (i 1).isLt
    have hN : cfg7.N = 16 := N_7
    obtain ⟨-, -, -, -, -, -, -, -, e0, e1⟩ := idx7 ⟨(i 0).val / 2048, by rw [hN]; omega⟩
    refine ⟨⟨(i 0).val / 2048, by rw [hN]; omega⟩, flush7_4 _, ?_⟩
    rw [mem_blk7]
    intro a
    match a with
    | ⟨0, _⟩ =>
      show win7_4.index ⟨(i 0).val / 2048, _⟩ (0 : Fin 2) * 2048 ≤ (i 0).val ∧ (i 0).val < win7_4.index ⟨(i 0).val / 2048, _⟩ (0 : Fin 2) * 2048 + 2048
      rw [e0]; show (i 0).val / 2048 * 2048 ≤ (i 0).val ∧ (i 0).val < (i 0).val / 2048 * 2048 + 2048; omega
    | ⟨1, _⟩ =>
      show win7_4.index ⟨(i 0).val / 2048, _⟩ (1 : Fin 2) * 256 ≤ (i 1).val ∧ (i 1).val < win7_4.index ⟨(i 0).val / 2048, _⟩ (1 : Fin 2) * 256 + 256
      rw [e1]; omega

end Cert.KernelIdeal.Val

end
-- ==== Proof.KI.ValSelf8.lean ====
/- Region 8, the self update with two added terms: the output array after the region is ONE function of the five arrays
   the region reads, index by index —  max (X · W + b + U₁ + U₂, 0)  with X the [65536,256] features, W the [256,256]
   weights, b the [1,256] bias row added to every row, U₁ and U₂ the two [65536,256] added terms, added in that order. The
   grid's 32 points each own 2048 consecutive rows: point t reads rows 2048·t … 2048·t + 2047 of X, U₁ and U₂ and
   all of W and b, and writes those rows of the result. -/
import proofs.«101828_j11562051961417_2_alg».proof.Proof.KI.Region8
import proofs.«101828_j11562051961417_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat)
open Cert.Spec (Mat)

/-! ## The contraction of the body's matrix product, axis by axis -/

theorem lhs8_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs8_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs8_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs8_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's matrix product into the zero accumulator, at an entry: the row of the left block against the column of
    the right one. -/
theorem matmul8_apply (l : FVec Ideal S2048x256 .bf16) (r : FVec Ideal S256x256 .bf16) (p : Fin 2048) (q : Fin 256) :
    FloatOps.matmul dot_S2048x256_S256x256_S2048x256_1_0_0_1_n_n none l r (constant (F := Ideal) S2048x256 .f32 0x00000000#32) (ix2 p q)
      = ∑ k : Fin 256, l (ix2 p k) * r (ix2 k q) := by
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs8_0 _ _
    | ⟨1, _⟩ => exact (lhs8_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs8_0 _ _).trans hk
    | ⟨1, _⟩ => exact rhs8_1 _ _)
  rw [el, er]

/-- The body's value at an entry of its block. -/
theorem pay8_apply (x0 : Vec Ideal S2048x256 .f32) (x1 : Vec Ideal S256x256 .f32) (x2 : Vec Ideal S1x256 .f32) (x3 : Vec Ideal S2048x256 .f32)
    (x4 : Vec Ideal S2048x256 .f32) (p : Fin 2048) (q : Fin 256) :
    k8_pay1 (F := Ideal) x0 x1 x2 x3 x4 (ix2 p q)
      = max ((∑ k : Fin 256, x0 (ix2 p k) * x1 (ix2 k q)) + x2 (ix2 (0 : Fin 1) q) + x3 (ix2 p q) + x4 (ix2 p q)) 0 := by
  unfold k8_pay1
  simp only [shapeCast_self]
  show max ((matmul dot_S2048x256_S256x256_S2048x256_1_0_0_1_n_n none (truncf .bf16 x0 bitsLt_bf16_f32) (truncf .bf16 x1 bitsLt_bf16_f32) (constant (F := Ideal) S2048x256 .f32 0x00000000#32) (ix2 p q)) + broadcastTo S2048x256 x2 broadcasts_S1x256_S2048x256 (ix2 p q) + x3 (ix2 p q) + x4 (ix2 p q)) (Ideal.ofBits .f32 0x00000000#32) = _
  rw [Ideal.ofBits_zero_f32, broadcastTo_1b_ab_apply]
  exact congrArg (fun s => max (s + x2 (ix2 (0 : Fin 1) q) + x3 (ix2 p q) + x4 (ix2 p q)) 0) (matmul8_apply _ _ p q)

/-! ## The output block after the body, at an entry -/

theorem zero8 : (![0, 0] : Fin 2 → Nat) = fun _ => 0 := funext fun a => by fin_cases a <;> rfl

/-- The output block after the body is the body's value of the five input blocks: at entry (p, q), row p of the features'
    block against column q of the weights, plus the bias at q, plus the two added terms' entries in order, rectified. -/
theorem out8_apply (x0 : Vec Ideal S2048x256 .f32) (x1 : Vec Ideal S256x256 .f32) (x2 : Vec Ideal S1x256 .f32) (x3 : Vec Ideal S2048x256 .f32)
    (x4 : Vec Ideal S2048x256 .f32) (p : Fin 2048) (q : Fin 256) :
    out8 (F := Ideal) x0 x1 x2 x3 x4 (ix2 p q)
      = max ((∑ k : Fin 256, x0 (ix2 p k) * x1 (ix2 k q)) + x2 (ix2 (0 : Fin 1) q) + x3 (ix2 p q) + x4 (ix2 p q)) 0 := by
  unfold out8
  rw [View.canon_unit_zero zero8]
  simp only [View.ld_unit_zero (S := S2048x256) zero8, View.ld_unit_zero (S := S256x256) zero8, View.ld_unit_zero (S := S1x256) zero8]
  exact pay8_apply x0 x1 x2 x3 x4 p q

/-! ## The blocks, as parts of the arrays -/

variable (V : (c : Dev nD) → (b : Ref sig .tc) → Buf (Elt Ideal) ((c : Thread nD τ).loc b))

/-- The printed index maps over the grid: the features', the two added terms' and the output's block at point t is
    block t of rows; the weights and the bias row are one block. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0
    ∧ win8_5.index t (0 : Fin 2) = t.val ∧ win8_5.index t (1 : Fin 2) = 0 :=
  (by decide +kernel : ∀ t : Fin grid8.N, _)

/-- Entry (p, k) of the features' block at point t is entry (2048·t + p, k) of the features. -/
theorem iblk8_0_apply (c : Dev nD) (t : Fin cfg8.N) (p : Fin 2048) (k : Fin 256) (r : Fin 65536) (hr : r.val = t.val * 2048 + p.val) :
    (iblk8 V c 0 t : Vec Ideal S2048x256 .f32) (ix2 p k) = (V c (Pipeline.arrRef spec8 0) : Mat 65536 256) (ix2 r k) := by
  obtain ⟨e0, e1, -⟩ := idx8 t
  unfold iblk8
  rw [View.read_apply]
  refine congrArg (V c (Pipeline.arrRef spec8 0) : Mat 65536 256) (funext fun a => Fin.ext ?_)
  match a with
  | ⟨0, _⟩ => show win8_0.index t (0 : Fin 2) * 2048 + 1 * p.val = r.val; omega
  | ⟨1, _⟩ => show win8_0.index t (1 : Fin 2) * 256 + 1 * k.val = k.val; omega

/-- The weights' block at every point is the weights. -/
theorem iblk8_1_apply (c : Dev nD) (t : Fin cfg8.N) (k q : Fin 256) :
    (iblk8 V c 1 t : Vec Ideal S256x256 .f32) (ix2 k q) = (V c (Pipeline.arrRef spec8 1) : Mat 256 256) (ix2 k q) := by
  obtain ⟨-, -, e0, e1, -⟩ := idx8 t
  unfold iblk8
  rw [View.read_apply]
  refine congrArg (V c (Pipeline.arrRef spec8 1) : Mat 256 256) (funext fun a => Fin.ext ?_)
  match a with
  | ⟨0, _⟩ => show win8_1.index t (0 : Fin 2) * 256 + 1 * k.val = k.val; omega
  | ⟨1, _⟩ => show win8_1.index t (1 : Fin 2) * 256 + 1 * q.val = q.val; omega

/-- The bias row's block at every point is the bias row. -/
theorem iblk8_2_apply (c : Dev nD) (t : Fin cfg8.N) (z : Fin 1) (q : Fin 256) :
    (iblk8 V c 2 t : Vec Ideal S1x256 .f32) (ix2 z q) = (V c (Pipeline.arrRef spec8 2) : Mat 1 256) (ix2 z q) := by
  obtain ⟨-, -, -, -, e0, e1, -⟩ := idx8 t
  unfold iblk8
  rw [View.read_apply]
  refine congrArg (V c (Pipeline.arrRef spec8 2) : Mat 1 256) (funext fun a => Fin.ext ?_)
  match a with
  | ⟨0, _⟩ => show win8_2.index t (0 : Fin 2) * 1 + 1 * z.val = z.val; omega
  | ⟨1, _⟩ => show win8_2.index t (1 : Fin 2) * 256 + 1 * q.val = q.val; omega

/-- Entry (p, q) of the first added term's block at point t is entry (2048·t + p, q) of the first added term. -/
theorem iblk8_3_apply (c : Dev nD) (t : Fin cfg8.N) (p : Fin 2048) (q : Fin 256) (r : Fin 65536) (hr : r.val = t.val * 2048 + p.val) :
    (iblk8 V c 3 t : Vec Ideal S2048x256 .f32) (ix2 p q) = (V c (Pipeline.arrRef spec8 3) : Mat 65536 256) (ix2 r q) := by
  obtain ⟨-, -, -, -, -, -, e0, e1, -⟩ := idx8 t
  unfold iblk8
  rw [View.read_apply]
  refine congrArg (V c (Pipeline.arrRef spec8 3) : Mat 65536 256) (funext fun a => Fin.ext ?_)
  match a with
  | ⟨0, _⟩ => show win8_3.index t (0 : Fin 2) * 2048 + 1 * p.val = r.val; omega
  | ⟨1, _⟩ => show win8_3.index t (1 : Fin 2) * 256 + 1 * q.val = q.val; omega

/-- Entry (p, q) of the second added term's block at point t is entry (2048·t + p, q) of the second added term. -/
theorem iblk8_4_apply (c : Dev nD) (t : Fin cfg8.N) (p : Fin 2048) (q : Fin 256) (r : Fin 65536) (hr : r.val = t.val * 2048 + p.val) :
    (iblk8 V c 4 t : Vec Ideal S2048x256 .f32) (ix2 p q) = (V c (Pipeline.arrRef spec8 4) : Mat 65536 256) (ix2 r q) := by
  obtain ⟨-, -, -, -, -, -, -, -, e0, e1, -⟩ := idx8 t
  unfold iblk8
  rw [View.read_apply]
  refine congrArg (V c (Pipeline.arrRef spec8 4) : Mat 65536 256) (funext fun a => Fin.ext ?_)
  match a with
  | ⟨0, _⟩ => show win8_4.index t (0 : Fin 2) * 2048 + 1 * p.val = r.val; omega
  | ⟨1, _⟩ => show win8_4.index t (1 : Fin 2) * 256 + 1 * q.val = q.val; omega

/-! ## What each point writes back, and the array after the region -/

/-- The self update of the region's five input arrays, entry by entry. -/
abbrev selfUpdate8 (c : Dev nD) : Mat 65536 256 := fun i =>
  max (Cert.Spec.mul (V c (Pipeline.arrRef spec8 0) : Mat 65536 256) (V c (Pipeline.arrRef spec8 1) : Mat 256 256) i
      + (V c (Pipeline.arrRef spec8 2) : Mat 1 256) (ix2 (0 : Fin 1) (i 1)) + (V c (Pipeline.arrRef spec8 3) : Mat 65536 256) i
      + (V c (Pipeline.arrRef spec8 4) : Mat 65536 256) i) 0

/-- What point t writes back is its block of rows of the self update. -/
theorem flushed8_eq (c : Dev nD) (t : Fin cfg8.N) :
    (dat8 V c).flushed 5 t = ((cfg8.win 5).blk t).view.read (Elt Ideal) (selfUpdate8 V c) := by
  show (cfg8.win 5).cut (grid8.coords t) ((dat8 V c).after 5 t) = _
  rw [after8_5]
  funext y
  have hy0 : (y 0).val < 2048 := (y 0).isLt
  have hy1 : (y 1).val < 256 := (y 1).isLt
  have hN : t.val < 32 := lt_of_lt_of_eq t.isLt N_8
  obtain ⟨-, -, -, -, -, -, -, -, -, -, e0, e1⟩ := idx8 t
  have hx : (cfg8.win 5).xinj (grid8.coords t) y = ix2 (⟨(y 0).val, hy0⟩ : Fin 2048) (⟨(y 1).val, hy1⟩ : Fin 256) :=
    funext fun a => Fin.ext (by match a with | ⟨0, _⟩ => rfl | ⟨1, _⟩ => rfl)
  have he : ((cfg8.win 5).blk t).view.emb y
      = ix2 (⟨t.val * 2048 + (y 0).val, by omega⟩ : Fin 65536) (⟨(y 1).val, hy1⟩ : Fin 256) :=
    funext fun a => Fin.ext (by
      match a with
      | ⟨0, _⟩ => show win8_5.index t (0 : Fin 2) * 2048 + 1 * (y 0).val = t.val * 2048 + (y 0).val; omega
      | ⟨1, _⟩ => show win8_5.index t (1 : Fin 2) * 256 + 1 * (y 1).val = (y 1).val; omega)
  show out8 (F := Ideal) (iblk8 V c 0 t) (iblk8 V c 1 t) (iblk8 V c 2 t) (iblk8 V c 3 t) (iblk8 V c 4 t) ((cfg8.win 5).xinj (grid8.coords t) y)
    = selfUpdate8 V c (((cfg8.win 5).blk t).view.emb y)
  rw [hx, he]
  refine (out8_apply (iblk8 V c 0 t) (iblk8 V c 1 t) (iblk8 V c 2 t) (iblk8 V c 3 t) (iblk8 V c 4 t) ⟨(y 0).val, hy0⟩ ⟨(y 1).val, hy1⟩).trans ?_
  have h0 := fun k : Fin 256 => iblk8_0_apply V c t ⟨(y 0).val, hy0⟩ k ⟨t.val * 2048 + (y 0).val, by omega⟩ rfl
  have h1 := fun k : Fin 256 => iblk8_1_apply V c t k ⟨(y 1).val, hy1⟩
  have h2 := iblk8_2_apply V c t 0 ⟨(y 1).val, hy1⟩
  have h3 := iblk8_3_apply V c t ⟨(y 0).val, hy0⟩ ⟨(y 1).val, hy1⟩ ⟨t.val * 2048 + (y 0).val, by omega⟩ rfl
  have h4 := iblk8_4_apply V c t ⟨(y 0).val, hy0⟩ ⟨(y 1).val, hy1⟩ ⟨t.val * 2048 + (y 0).val, by omega⟩ rfl
  simp only [h0, h1, h2, h3, h4]
  rfl

/-- An index of the array is in point t's block iff each coordinate is in the block's range on its axis. -/
theorem mem_blk8 (t : Fin cfg8.N) (i : S65536x256.Idx) :
    i ∈ ((cfg8.win 5).blk t).view.set ↔ ∀ a : Fin 2, win8_5.index t a * S2048x256.size a ≤ (i a).val ∧ (i a).val < win8_5.index t a * S2048x256.size a + S2048x256.size a := by
  show i ∈ ((View.whole main_v134).slice (win8_5.rect t)).set ↔ _
  rw [View.set_slice_whole, Rect.mem_set_unit]
  exact Iff.rfl

/-- THE ARRAY AFTER THE REGION: the 32 blocks of 2048 rows tile the 65536 rows (row r is in block r / 2048), so
    the output array ends holding the self update of the five input arrays. -/
theorem arrAt8 (c : Dev nD) :
    (dat8 (F := Ideal) V c).arrAt 5 cfg8.N = fun i =>
      max (Cert.Spec.mul (V c (Pipeline.arrRef spec8 0) : Mat 65536 256) (V c (Pipeline.arrRef spec8 1) : Mat 256 256) i
          + (V c (Pipeline.arrRef spec8 2) : Mat 1 256) (ix2 (0 : Fin 1) (i 1)) + (V c (Pipeline.arrRef spec8 3) : Mat 65536 256) i
          + (V c (Pipeline.arrRef spec8 4) : Mat 65536 256) i) 0 :=
  (dat8 V c).arrAt_eq_of_cover 5 (selfUpdate8 V c) (fun t _ => flushed8_eq V c t) fun i => by
    have hi0 : (i 0).val < 65536 := (i 0).isLt
    have hi1 : (i 1).val < 256 := (i 1).isLt
    have hN : cfg8.N = 32 := N_8
    obtain ⟨-, -, -, -, -, -, -, -, -, -, e0, e1⟩ := idx8 ⟨(i 0).val / 2048, by rw [hN]; omega⟩
    refine ⟨⟨(i 0).val / 2048, by rw [hN]; omega⟩, flush8_5 _, ?_⟩
    rw [mem_blk8]
    intro a
    match a with
    | ⟨0, _⟩ =>
      show win8_5.index ⟨(i 0).val / 2048, _⟩ (0 : Fin 2) * 2048 ≤ (i 0).val ∧ (i 0).val < win8_5.index ⟨(i 0).val / 2048, _⟩ (0 : Fin 2) * 2048 + 2048
      rw [e0]; show (i 0).val / 2048 * 2048 ≤ (i 0).val ∧ (i 0).val < (i 0).val / 2048 * 2048 + 2048; omega
    | ⟨1, _⟩ =>
      show win8_5.index ⟨(i 0).val / 2048, _⟩ (1 : Fin 2) * 256 ≤ (i 1).val ∧ (i 1).val < win8_5.index ⟨(i 0).val / 2048, _⟩ (1 : Fin 2) * 256 + 256
      rw [e1]; omega

end Cert.KernelIdeal.Val

end
-- ==== Proof.KI.ValSelf9.lean ====
/- Region 9, the self update: the output array after the region is ONE function of the four arrays the region reads,
   index by index —  max (X · W + b + U, 0)  with X the [16384,256] features, W the [256,256] weights, b the [1,256] bias row
   added to every row, U the [16384,256] added term. The grid's 8 points each own 2048 consecutive rows: point t reads
   rows 2048·t … 2048·t + 2047 of X and U and all of W and b, and writes those rows of the result. -/
import proofs.«101828_j11562051961417_2_alg».proof.Proof.KI.Region9
import proofs.«101828_j11562051961417_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat)
open Cert.Spec (Mat)

/-! ## The contraction of the body's matrix product, axis by axis -/

theorem lhs9_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs9_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs9_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs9_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's matrix product into the zero accumulator, at an entry: the row of the left block against the column of
    the right one. -/
theorem matmul9_apply (l : FVec Ideal S2048x256 .bf16) (r : FVec Ideal S256x256 .bf16) (p : Fin 2048) (q : Fin 256) :
    FloatOps.matmul dot_S2048x256_S256x256_S2048x256_1_0_0_1_n_n none l r (constant (F := Ideal) S2048x256 .f32 0x00000000#32) (ix2 p q)
      = ∑ k : Fin 256, l (ix2 p k) * r (ix2 k q) := by
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs9_0 _ _
    | ⟨1, _⟩ => exact (lhs9_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs9_0 _ _).trans hk
    | ⟨1, _⟩ => exact rhs9_1 _ _)
  rw [el, er]

/-- The body's value at an entry of its block. -/
theorem pay9_apply (x0 : Vec Ideal S2048x256 .f32) (x1 : Vec Ideal S256x256 .f32) (x2 : Vec Ideal S1x256 .f32) (x3 : Vec Ideal S2048x256 .f32)
    (p : Fin 2048) (q : Fin 256) :
    k9_pay1 (F := Ideal) x0 x1 x2 x3 (ix2 p q)
      = max ((∑ k : Fin 256, x0 (ix2 p k) * x1 (ix2 k q)) + x2 (ix2 (0 : Fin 1) q) + x3 (ix2 p q)) 0 := by
  unfold k9_pay1
  simp only [shapeCast_self]
  show max ((matmul dot_S2048x256_S256x256_S2048x256_1_0_0_1_n_n none (truncf .bf16 x0 bitsLt_bf16_f32) (truncf .bf16 x1 bitsLt_bf16_f32) (constant (F := Ideal) S2048x256 .f32 0x00000000#32) (ix2 p q)) + broadcastTo S2048x256 x2 broadcasts_S1x256_S2048x256 (ix2 p q) + x3 (ix2 p q)) (Ideal.ofBits .f32 0x00000000#32) = _
  rw [Ideal.ofBits_zero_f32, broadcastTo_1b_ab_apply]
  exact congrArg (fun s => max (s + x2 (ix2 (0 : Fin 1) q) + x3 (ix2 p q)) 0) (matmul9_apply _ _ p q)

/-! ## The output block after the body, at an entry -/

theorem zero9 : (![0, 0] : Fin 2 → Nat) = fun _ => 0 := funext fun a => by fin_cases a <;> rfl

/-- The output block after the body is the body's value of the four input blocks: at entry (p, q), row p of the features'
    block against column q of the weights, plus the bias at q, plus the added term's entry, rectified. -/
theorem out9_apply (x0 : Vec Ideal S2048x256 .f32) (x1 : Vec Ideal S256x256 .f32) (x2 : Vec Ideal S1x256 .f32) (x3 : Vec Ideal S2048x256 .f32)
    (p : Fin 2048) (q : Fin 256) :
    out9 (F := Ideal) x0 x1 x2 x3 (ix2 p q)
      = max ((∑ k : Fin 256, x0 (ix2 p k) * x1 (ix2 k q)) + x2 (ix2 (0 : Fin 1) q) + x3 (ix2 p q)) 0 := by
  unfold out9
  rw [View.canon_unit_zero zero9]
  simp only [View.ld_unit_zero (S := S2048x256) zero9, View.ld_unit_zero (S := S256x256) zero9, View.ld_unit_zero (S := S1x256) zero9]
  exact pay9_apply x0 x1 x2 x3 p q

/-! ## The blocks, as parts of the arrays -/

variable (V : (c : Dev nD) → (b : Ref sig .tc) → Buf (Elt Ideal) ((c : Thread nD τ).loc b))

/-- The printed index maps over the grid: the features', the added term's and the output's block at point t is block t
    of rows; the weights and the bias row are one block. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0 :=
  (by decide +kernel : ∀ t : Fin grid9.N, _)

/-- Entry (p, k) of the features' block at point t is entry (2048·t + p, k) of the features. -/
theorem iblk9_0_apply (c : Dev nD) (t : Fin cfg9.N) (p : Fin 2048) (k : Fin 256) (r : Fin 16384) (hr : r.val = t.val * 2048 + p.val) :
    (iblk9 V c 0 t : Vec Ideal S2048x256 .f32) (ix2 p k) = (V c (Pipeline.arrRef spec9 0) : Mat 16384 256) (ix2 r k) := by
  obtain ⟨e0, e1, -⟩ := idx9 t
  unfold iblk9
  rw [View.read_apply]
  refine congrArg (V c (Pipeline.arrRef spec9 0) : Mat 16384 256) (funext fun a => Fin.ext ?_)
  match a with
  | ⟨0, _⟩ => show win9_0.index t (0 : Fin 2) * 2048 + 1 * p.val = r.val; omega
  | ⟨1, _⟩ => show win9_0.index t (1 : Fin 2) * 256 + 1 * k.val = k.val; omega

/-- The weights' block at every point is the weights. -/
theorem iblk9_1_apply (c : Dev nD) (t : Fin cfg9.N) (k q : Fin 256) :
    (iblk9 V c 1 t : Vec Ideal S256x256 .f32) (ix2 k q) = (V c (Pipeline.arrRef spec9 1) : Mat 256 256) (ix2 k q) := by
  obtain ⟨-, -, e0, e1, -⟩ := idx9 t
  unfold iblk9
  rw [View.read_apply]
  refine congrArg (V c (Pipeline.arrRef spec9 1) : Mat 256 256) (funext fun a => Fin.ext ?_)
  match a with
  | ⟨0, _⟩ => show win9_1.index t (0 : Fin 2) * 256 + 1 * k.val = k.val; omega
  | ⟨1, _⟩ => show win9_1.index t (1 : Fin 2) * 256 + 1 * q.val = q.val; omega

/-- The bias row's block at every point is the bias row. -/
theorem iblk9_2_apply (c : Dev nD) (t : Fin cfg9.N) (z : Fin 1) (q : Fin 256) :
    (iblk9 V c 2 t : Vec Ideal S1x256 .f32) (ix2 z q) = (V c (Pipeline.arrRef spec9 2) : Mat 1 256) (ix2 z q) := by
  obtain ⟨-, -, -, -, e0, e1, -⟩ := idx9 t
  unfold iblk9
  rw [View.read_apply]
  refine congrArg (V c (Pipeline.arrRef spec9 2) : Mat 1 256) (funext fun a => Fin.ext ?_)
  match a with
  | ⟨0, _⟩ => show win9_2.index t (0 : Fin 2) * 1 + 1 * z.val = z.val; omega
  | ⟨1, _⟩ => show win9_2.index t (1 : Fin 2) * 256 + 1 * q.val = q.val; omega

/-- Entry (p, q) of the added term's block at point t is entry (2048·t + p, q) of the added term. -/
theorem iblk9_3_apply (c : Dev nD) (t : Fin cfg9.N) (p : Fin 2048) (q : Fin 256) (r : Fin 16384) (hr : r.val = t.val * 2048 + p.val) :
    (iblk9 V c 3 t : Vec Ideal S2048x256 .f32) (ix2 p q) = (V c (Pipeline.arrRef spec9 3) : Mat 16384 256) (ix2 r q) := by
  obtain ⟨-, -, -, -, -, -, e0, e1, -⟩ := idx9 t
  unfold iblk9
  rw [View.read_apply]
  refine congrArg (V c (Pipeline.arrRef spec9 3) : Mat 16384 256) (funext fun a => Fin.ext ?_)
  match a with
  | ⟨0, _⟩ => show win9_3.index t (0 : Fin 2) * 2048 + 1 * p.val = r.val; omega
  | ⟨1, _⟩ => show win9_3.index t (1 : Fin 2) * 256 + 1 * q.val = q.val; omega

/-! ## What each point writes back, and the array after the region -/

/-- The self update of the region's four input arrays, entry by entry. -/
abbrev selfUpdate9 (c : Dev nD) : Mat 16384 256 := fun i =>
  max (Cert.Spec.mul (V c (Pipeline.arrRef spec9 0) : Mat 16384 256) (V c (Pipeline.arrRef spec9 1) : Mat 256 256) i
      + (V c (Pipeline.arrRef spec9 2) : Mat 1 256) (ix2 (0 : Fin 1) (i 1)) + (V c (Pipeline.arrRef spec9 3) : Mat 16384 256) i) 0

/-- What point t writes back is its block of rows of the self update. -/
theorem flushed9_eq (c : Dev nD) (t : Fin cfg9.N) :
    (dat9 V c).flushed 4 t = ((cfg9.win 4).blk t).view.read (Elt Ideal) (selfUpdate9 V c) := by
  show (cfg9.win 4).cut (grid9.coords t) ((dat9 V c).after 4 t) = _
  rw [after9_4]
  funext y
  have hy0 : (y 0).val < 2048 := (y 0).isLt
  have hy1 : (y 1).val < 256 := (y 1).isLt
  have hN : t.val < 8 := lt_of_lt_of_eq t.isLt N_9
  obtain ⟨-, -, -, -, -, -, -, -, e0, e1⟩ := idx9 t
  have hx : (cfg9.win 4).xinj (grid9.coords t) y = ix2 (⟨(y 0).val, hy0⟩ : Fin 2048) (⟨(y 1).val, hy1⟩ : Fin 256) :=
    funext fun a => Fin.ext (by match a with | ⟨0, _⟩ => rfl | ⟨1, _⟩ => rfl)
  have he : ((cfg9.win 4).blk t).view.emb y
      = ix2 (⟨t.val * 2048 + (y 0).val, by omega⟩ : Fin 16384) (⟨(y 1).val, hy1⟩ : Fin 256) :=
    funext fun a => Fin.ext (by
      match a with
      | ⟨0, _⟩ => show win9_4.index t (0 : Fin 2) * 2048 + 1 * (y 0).val = t.val * 2048 + (y 0).val; omega
      | ⟨1, _⟩ => show win9_4.index t (1 : Fin 2) * 256 + 1 * (y 1).val = (y 1).val; omega)
  show out9 (F := Ideal) (iblk9 V c 0 t) (iblk9 V c 1 t) (iblk9 V c 2 t) (iblk9 V c 3 t) ((cfg9.win 4).xinj (grid9.coords t) y)
    = selfUpdate9 V c (((cfg9.win 4).blk t).view.emb y)
  rw [hx, he]
  refine (out9_apply (iblk9 V c 0 t) (iblk9 V c 1 t) (iblk9 V c 2 t) (iblk9 V c 3 t) ⟨(y 0).val, hy0⟩ ⟨(y 1).val, hy1⟩).trans ?_
  have h0 := fun k : Fin 256 => iblk9_0_apply V c t ⟨(y 0).val, hy0⟩ k ⟨t.val * 2048 + (y 0).val, by omega⟩ rfl
  have h1 := fun k : Fin 256 => iblk9_1_apply V c t k ⟨(y 1).val, hy1⟩
  have h2 := iblk9_2_apply V c t 0 ⟨(y 1).val, hy1⟩
  have h3 := iblk9_3_apply V c t ⟨(y 0).val, hy0⟩ ⟨(y 1).val, hy1⟩ ⟨t.val * 2048 + (y 0).val, by omega⟩ rfl
  simp only [h0, h1, h2, h3]
  rfl

/-- An index of the array is in point t's block iff each coordinate is in the block's range on its axis. -/
theorem mem_blk9 (t : Fin cfg9.N) (i : S16384x256.Idx) :
    i ∈ ((cfg9.win 4).blk t).view.set ↔ ∀ a : Fin 2, win9_4.index t a * S2048x256.size a ≤ (i a).val ∧ (i a).val < win9_4.index t a * S2048x256.size a + S2048x256.size a := by
  show i ∈ ((View.whole main_v140).slice (win9_4.rect t)).set ↔ _
  rw [View.set_slice_whole, Rect.mem_set_unit]
  exact Iff.rfl

/-- THE ARRAY AFTER THE REGION: the 8 blocks of 2048 rows tile the 16384 rows (row r is in block r / 2048), so the
    output array ends holding the self update of the four input arrays. -/
theorem arrAt9 (c : Dev nD) :
    (dat9 (F := Ideal) V c).arrAt 4 cfg9.N = fun i =>
      max (Cert.Spec.mul (V c (Pipeline.arrRef spec9 0) : Mat 16384 256) (V c (Pipeline.arrRef spec9 1) : Mat 256 256) i
          + (V c (Pipeline.arrRef spec9 2) : Mat 1 256) (ix2 (0 : Fin 1) (i 1)) + (V c (Pipeline.arrRef spec9 3) : Mat 16384 256) i) 0 :=
  (dat9 V c).arrAt_eq_of_cover 4 (selfUpdate9 V c) (fun t _ => flushed9_eq V c t) fun i => by
    have hi0 : (i 0).val < 16384 := (i 0).isLt
    have hi1 : (i 1).val < 256 := (i 1).isLt
    have hN : cfg9.N = 8 := N_9
    obtain ⟨-, -, -, -, -, -, -, -, e0, e1⟩ := idx9 ⟨(i 0).val / 2048, by rw [hN]; omega⟩
    refine ⟨⟨(i 0).val / 2048, by rw [hN]; omega⟩, flush9_4 _, ?_⟩
    rw [mem_blk9]
    intro a
    match a with
    | ⟨0, _⟩ =>
      show win9_4.index ⟨(i 0).val / 2048, _⟩ (0 : Fin 2) * 2048 ≤ (i 0).val ∧ (i 0).val < win9_4.index ⟨(i 0).val / 2048, _⟩ (0 : Fin 2) * 2048 + 2048
      rw [e0]; show (i 0).val / 2048 * 2048 ≤ (i 0).val ∧ (i 0).val < (i 0).val / 2048 * 2048 + 2048; omega
    | ⟨1, _⟩ =>
      show win9_4.index ⟨(i 0).val / 2048, _⟩ (1 : Fin 2) * 256 ≤ (i 1).val ∧ (i 1).val < win9_4.index ⟨(i 0).val / 2048, _⟩ (1 : Fin 2) * 256 + 256
      rw [e1]; omega

end Cert.KernelIdeal.Val

end
-- ==== Proof.Laws.lean ====
/- The laws on extended reals that join the two programs, over the functions of the shared vocabulary:
   taking rows commutes with a product on the right; a batched product followed by a product on the right
   may be re-associated when every entry is a real number; and the operations of one layer keep every entry real.

   The extended reals are not a ring (⊤ + ⊥ has no good value), so every algebraic step goes through ℝ: an entry that is
   neither infinity is the image of a real number, the image of a sum or product of reals is the sum or product of the
   images, and the identity is then one of real finite sums. -/
import Idealize.ShloMosaic.PureOps.Ideal
import Idealize.ShloMosaic.Lib.ValueIdx
import Mathlib.Data.EReal.Operations
import Mathlib.Algebra.BigOperators.Ring.Finset
import Mathlib.Algebra.BigOperators.Group.Finset.Sigma
import proofs.«101828_j11562051961417_2_alg».proof.Proof.Spec

noncomputable section

namespace Cert.Spec

open Idealize.ShloMosaic Idealize.ShloMosaic.ValueIdx
open scoped BigOperators

/-! ## Real witnesses -/

/-- An extended real that is neither infinity is (the image of) a real number. -/
theorem exists_real_of_ne_top_bot {x : EReal} (h : x ≠ ⊤ ∧ x ≠ ⊥) : ∃ r : ℝ, x = (r : EReal) :=
  ⟨x.toReal, (EReal.coe_toReal h.1 h.2).symm⟩

/-- The image of a real number is neither infinity. -/
theorem coe_ne_top_bot (r : ℝ) : (r : EReal) ≠ ⊤ ∧ (r : EReal) ≠ ⊥ :=
  ⟨EReal.coe_ne_top r, EReal.coe_ne_bot r⟩

/-- A family of extended reals none of which is an infinity is the image of a family of real numbers. -/
theorem exists_real_family {ι : Type*} {f : ι → EReal} (h : ∀ p, f p ≠ ⊤ ∧ f p ≠ ⊥) :
    ∃ g : ι → ℝ, ∀ p, f p = (g p : EReal) :=
  ⟨fun p => (f p).toReal, fun p => (EReal.coe_toReal (h p).1 (h p).2).symm⟩

/-- The image of a finite sum of real numbers is the sum of the images. -/
theorem coe_finset_sum {ι : Type*} (s : Finset ι) (g : ι → ℝ) :
    ((∑ p ∈ s, g p : ℝ) : EReal) = ∑ p ∈ s, (g p : EReal) := by
  classical
  induction s using Finset.induction_on with
  | empty => simp
  | insert a s ha ih => rw [Finset.sum_insert ha, Finset.sum_insert ha, EReal.coe_add, ih]

/-! ## (L1) Taking rows commutes with a product on the right -/

/-- Row p of X · W is row p of X times W, so rows taken by a table may be taken before or after the product:
    both sides' entry (p, c) is the sum over j of X (t p, j) · W (j, c). No entry need be real. -/
theorem rows_mul {n p k h : Nat} (X : Mat n k) (W : Mat k h) (t : Fin p → Fin n) :
    rows (mul X W) t = mul (rows X t) W := by
  funext i
  rfl

/-! ## (L2) Re-association of a double sum of real entries -/

/-- The entrywise identity behind A · (X · W) = (A · X) · W, over any two finite index types: for real entries
    ∑ j, a j · (∑ l, x j l · w l) = ∑ l, (∑ j, a j · x j l) · w l.
    Both sides are the image of the real double sum ∑ j, ∑ l, a j · x j l · w l. -/
theorem sum_mul_sum_assoc {ι κ : Type*} [Fintype ι] [Fintype κ]
    (a : ι → EReal) (x : ι → κ → EReal) (w : κ → EReal)
    (ha : ∀ j, a j ≠ ⊤ ∧ a j ≠ ⊥) (hx : ∀ j l, x j l ≠ ⊤ ∧ x j l ≠ ⊥) (hw : ∀ l, w l ≠ ⊤ ∧ w l ≠ ⊥) :
    ∑ j, a j * (∑ l, x j l * w l) = ∑ l, (∑ j, a j * x j l) * w l := by
  obtain ⟨a', ha'⟩ := exists_real_family ha
  obtain ⟨w', hw'⟩ := exists_real_family hw
  obtain ⟨x', hx'⟩ : ∃ g : ι → κ → ℝ, ∀ j l, x j l = (g j l : EReal) :=
    ⟨fun j l => (x j l).toReal, fun j l => (EReal.coe_toReal (hx j l).1 (hx j l).2).symm⟩
  have hL : ∑ j, a j * (∑ l, x j l * w l) = ((∑ j, a' j * (∑ l, x' j l * w' l) : ℝ) : EReal) := by
    rw [coe_finset_sum]
    refine Finset.sum_congr rfl fun j _ => ?_
    rw [EReal.coe_mul, coe_finset_sum, ha' j]
    congr 1
    refine Finset.sum_congr rfl fun l _ => ?_
    rw [EReal.coe_mul, hx' j l, hw' l]
  have hR : ∑ l, (∑ j, a j * x j l) * w l = ((∑ l, (∑ j, a' j * x' j l) * w' l : ℝ) : EReal) := by
    rw [coe_finset_sum]
    refine Finset.sum_congr rfl fun l _ => ?_
    rw [EReal.coe_mul, coe_finset_sum, hw' l]
    congr 1
    refine Finset.sum_congr rfl fun j _ => ?_
    rw [EReal.coe_mul, ha' j, hx' j l]
  rw [hL, hR]
  congr 1
  simp only [Finset.mul_sum, Finset.sum_mul]
  rw [Finset.sum_comm]
  refine Finset.sum_congr rfl fun l _ => Finset.sum_congr rfl fun j _ => ?_
  ring

/-- (L2) at the level of the batched product: for real A, X and W, entry (b, r, c) of A_b · (X_b · W), the sum over j
    of A (b, r, j) · (∑ l, X (b, j, l) · W (l, c)), is the sum over l of (A_b · X_b) (b, r, l) · W (l, c). -/
theorem bmul_mul_assoc {b n k h h' : Nat} (A : Mat3 b n k) (X : Mat3 b k h) (W : Mat h h')
    (hA : Finite A) (hX : Finite X) (hW : Finite W) (β : Fin b) (r : Fin n) (c : Fin h') :
    ∑ j : Fin k, A (ix3 β r j) * (∑ l : Fin h, X (ix3 β j l) * W (ix2 l c))
      = ∑ l : Fin h, bmul A X (ix3 β r l) * W (ix2 l c) :=
  sum_mul_sum_assoc (fun j => A (ix3 β r j)) (fun j l => X (ix3 β j l)) (fun l => W (ix2 l c))
    (fun j => hA _) (fun j l => hX _) (fun l => hW _)

/-! ## (L3) The operations of a layer keep every entry real

First entry by entry (an entry is real when it is neither infinity), then for whole arrays. -/

/-- Zero is real. -/
theorem zero_ne_top_bot : (0 : EReal) ≠ ⊤ ∧ (0 : EReal) ≠ ⊥ := ⟨EReal.zero_ne_top, EReal.zero_ne_bot⟩

/-- A product of two real entries is real: it is the image of the product of the two real numbers. -/
theorem mul_ne_top_bot {x y : EReal} (hx : x ≠ ⊤ ∧ x ≠ ⊥) (hy : y ≠ ⊤ ∧ y ≠ ⊥) : x * y ≠ ⊤ ∧ x * y ≠ ⊥ := by
  obtain ⟨a, rfl⟩ := exists_real_of_ne_top_bot hx
  obtain ⟨b, rfl⟩ := exists_real_of_ne_top_bot hy
  rw [← EReal.coe_mul]
  exact coe_ne_top_bot _

/-- A sum of two real entries is real. -/
theorem add_ne_top_bot {x y : EReal} (hx : x ≠ ⊤ ∧ x ≠ ⊥) (hy : y ≠ ⊤ ∧ y ≠ ⊥) : x + y ≠ ⊤ ∧ x + y ≠ ⊥ := by
  obtain ⟨a, rfl⟩ := exists_real_of_ne_top_bot hx
  obtain ⟨b, rfl⟩ := exists_real_of_ne_top_bot hy
  rw [← EReal.coe_add]
  exact coe_ne_top_bot _

/-- A finite sum of entries that are real on the index set is real. -/
theorem sum_ne_top_bot_of_mem {ι : Type*} (s : Finset ι) (f : ι → EReal) (h : ∀ p ∈ s, f p ≠ ⊤ ∧ f p ≠ ⊥) :
    (∑ p ∈ s, f p) ≠ ⊤ ∧ (∑ p ∈ s, f p) ≠ ⊥ := by
  classical
  induction s using Finset.induction_on with
  | empty => rw [Finset.sum_empty]; exact zero_ne_top_bot
  | insert a s ha ih =>
    rw [Finset.sum_insert ha]
    exact add_ne_top_bot (h a (Finset.mem_insert_self a s)) (ih fun p hp => h p (Finset.mem_insert_of_mem hp))

/-- A finite sum of real entries is real, over any finite set of indices (a segment's members, a contraction's range). -/
theorem sum_ne_top_bot {ι : Type*} (s : Finset ι) (f : ι → EReal) (h : ∀ p, f p ≠ ⊤ ∧ f p ≠ ⊥) :
    (∑ p ∈ s, f p) ≠ ⊤ ∧ (∑ p ∈ s, f p) ≠ ⊥ :=
  sum_ne_top_bot_of_mem s f fun p _ => h p

/-- The rectifier of a real entry is real: the larger of a real entry and zero is one of the two. -/
theorem max_zero_ne_top_bot {x : EReal} (hx : x ≠ ⊤ ∧ x ≠ ⊥) : max x 0 ≠ ⊤ ∧ max x 0 ≠ ⊥ := by
  rcases max_choice x 0 with h | h
  · rw [h]; exact hx
  · rw [h]; exact zero_ne_top_bot

/-- The logistic function of a real entry x is real: it is the image of 1 / (1 + e⁻ˣ). -/
theorem logistic_ne_top_bot {x : EReal} (hx : x ≠ ⊤ ∧ x ≠ ⊥) : Ideal.logistic x ≠ ⊤ ∧ Ideal.logistic x ≠ ⊥ := by
  obtain ⟨a, rfl⟩ := exists_real_of_ne_top_bot hx
  rw [Ideal.logistic_coe]
  exact coe_ne_top_bot _

/-- A gate times an entry: the logistic function of a real entry times a real entry is real. -/
theorem logistic_mul_ne_top_bot {x y : EReal} (hx : x ≠ ⊤ ∧ x ≠ ⊥) (hy : y ≠ ⊤ ∧ y ≠ ⊥) :
    Ideal.logistic x * y ≠ ⊤ ∧ Ideal.logistic x * y ≠ ⊥ :=
  mul_ne_top_bot (logistic_ne_top_bot hx) hy

/-- An entry times a gate, the other way round. -/
theorem mul_logistic_ne_top_bot {x y : EReal} (hx : x ≠ ⊤ ∧ x ≠ ⊥) (hy : y ≠ ⊤ ∧ y ≠ ⊥) :
    x * Ideal.logistic y ≠ ⊤ ∧ x * Ideal.logistic y ≠ ⊥ :=
  mul_ne_top_bot hx (logistic_ne_top_bot hy)

/-- The product of two real matrices is real: each entry is a finite sum of products of real entries. -/
theorem finite_mul {n k h : Nat} {X : Mat n k} {W : Mat k h} (hX : Finite X) (hW : Finite W) : Finite (mul X W) :=
  fun _ => sum_ne_top_bot _ _ fun _ => mul_ne_top_bot (hX _) (hW _)

/-- The batched product of two real batches is real. -/
theorem finite_bmul {b n k h : Nat} {A : Mat3 b n k} {X : Mat3 b k h} (hA : Finite A) (hX : Finite X) :
    Finite (bmul A X) :=
  fun _ => sum_ne_top_bot _ _ fun _ => mul_ne_top_bot (hA _) (hX _)

/-- Rows taken from a real matrix are real. -/
theorem finite_rows {n p h : Nat} {X : Mat n h} (hX : Finite X) (t : Fin p → Fin n) : Finite (rows X t) :=
  fun _ => hX _

/-- The rectifier of a real matrix is real. -/
theorem finite_relu {n h : Nat} {X : Mat n h} (hX : Finite X) : Finite (relu X) :=
  fun i => max_zero_ne_top_bot (hX i)

/-- A real row added to every row of a real matrix gives a real matrix. -/
theorem finite_addRow {n h : Nat} {X : Mat n h} {b : (⟨1, ![h]⟩ : Shape).Idx → EReal} (hX : Finite X) (hb : Finite b) :
    Finite (addRow X b) :=
  fun i => add_ne_top_bot (hX i) (hb _)

/-- The entrywise sum of two real arrays of one shape is real. -/
theorem finite_add {s : Shape} {X Y : s.Idx → EReal} (hX : Finite X) (hY : Finite Y) : Finite fun i => X i + Y i :=
  fun i => add_ne_top_bot (hX i) (hY i)

/-- The entrywise product of two real arrays of one shape is real. -/
theorem finite_hmul {s : Shape} {X Y : s.Idx → EReal} (hX : Finite X) (hY : Finite Y) : Finite fun i => X i * Y i :=
  fun i => mul_ne_top_bot (hX i) (hY i)

/-- An array each of whose entries is a finite sum of real entries (a segment sum) is real. -/
theorem finite_sum {s : Shape} {ι : Type*} (S : s.Idx → Finset ι) (f : s.Idx → ι → EReal)
    (h : ∀ i p, f i p ≠ ⊤ ∧ f i p ≠ ⊥) : Finite fun i => ∑ p ∈ S i, f i p :=
  fun i => sum_ne_top_bot (S i) (f i) (h i)

/-- The logistic function applied entry by entry to a real array gives a real array. -/
theorem finite_logistic {s : Shape} {X : s.Idx → EReal} (hX : Finite X) : Finite fun i => Ideal.logistic (X i) :=
  fun i => logistic_ne_top_bot (hX i)

/-- A gated array: the logistic function of one real array times another, entry by entry, is real. -/
theorem finite_logistic_mul {s : Shape} {X Y : s.Idx → EReal} (hX : Finite X) (hY : Finite Y) :
    Finite fun i => Ideal.logistic (X i) * Y i :=
  fun i => logistic_mul_ne_top_bot (hX i) (hY i)

end Cert.Spec

end
-- ==== Proof.BridgeBound.lean ====
/- The bridges between the two programs at the incidence arrays and the boundary messages.

   (B1) Both programs build each incidence array by writing ones, at the positions an index array lists, into zeros; they
   differ in the float format of the zeros and ones only, which the extended reals do not see. The arrays are equal,
   and every entry is 0 or 1, so real.
   (B2) The edge boundary message: the reference computes (A_b · X_b) laid out flat, then times W; the kernel computes
   A_b · (X · W)_b laid out flat. For real entries the two agree by re-association of a finite double sum; the reshapes
   between the flat arrays and the batches are read entry by entry (row b·n + r of a flat array is row r of matrix b).
   (B3) The cell boundary message: both programs compute (A_b · X_b) · W in this order; the reference lays the batched
   product out flat before the second product, the kernel after it.
   Every identity is one between functions of arrays; none mentions a program's run. -/
import proofs.«101828_j11562051961417_2_alg».proof.KernelIdeal
import proofs.«101828_j11562051961417_2_alg».proof.ReferenceIdeal
import proofs.«101828_j11562051961417_2_alg».proof.Proof.Spec
import proofs.«101828_j11562051961417_2_alg».proof.Proof.Laws
import Idealize.ShloMosaic.Lib.Pipeline.Value
import Idealize.ShloMosaic.Lib.ValueIdx
import Idealize.ShloMosaic.Lib.IdealHost
import Idealize.ShloMosaic.PureOps.Ideal.Laws

noncomputable section

namespace Cert.Bridge

open Idealize.ShloMosaic Idealize.ShloMosaic.ValueIdx
open scoped BigOperators

variable [Cert.KernelIdeal.Facts₀] [Cert.ReferenceIdeal.Facts₀]

/-! ## (B1) The incidence arrays

An incidence array is built by writing the value one at every position an index array lists into an array of zeros,
a later write replacing an earlier one at the same position. The kernel gives the zeros and the ones in the 16-bit
float format, the reference in the 32-bit one; as extended reals both zeros are 0 and both ones are 1, and the
writes are the same, so the two arrays are equal. Every entry of the result is either one of the written values or
an entry of the array written into: 0 or 1, so real. -/

/-- Writing with replacement keeps any property that the array written into and the written values all have:
    by induction over the writes, each of which changes one entry to a written value. -/
theorem scatter_set_induction {s si u : Shape} {w : Nat} {α : Type} (d : ScatterDims s si u) (P : α → Prop)
    (x : s.Idx → α) (idx : IVec si w) (upd : u.Idx → α) (hx : ∀ i, P (x i)) (hu : ∀ j, P (upd j)) (i : s.Idx) :
    P (Host.scatter d (fun _ b => b) x idx upd i) := by
  unfold Host.scatter
  generalize List.finRange u.numel = l
  induction l generalizing x with
  | nil => exact hx i
  | cons n l ih =>
    rw [List.foldl_cons]
    refine ih _ fun i' => ?_
    cases d.resultIdx? (u.rowMajor.symm n) idx with
    | none => exact hx i'
    | some k =>
      show P (if i' = k then upd (u.rowMajor.symm n) else x i')
      split
      · exact hu _
      · exact hx i'

/-- Ones written, with replacement, at the positions an index array lists into an array of zeros. -/
def incidence {s si u : Shape} {w : Nat} (d : ScatterDims s si u) (idx : IVec si w) : s.Idx → EReal :=
  Host.scatter d (fun _ b => b) (fun _ => 0) idx (fun _ => 1)

/-- Every entry of such an array is 0 or 1. -/
theorem incidence_zero_or_one {s si u : Shape} {w : Nat} (d : ScatterDims s si u) (idx : IVec si w) (i : s.Idx) :
    incidence d idx i = 0 ∨ incidence d idx i = 1 :=
  scatter_set_induction d (fun v => v = 0 ∨ v = 1) _ idx _ (fun _ => Or.inl rfl) (fun _ => Or.inr rfl) i

/-- Such an array is real: 0 and 1 are real numbers. -/
theorem finite_incidence_array {s si u : Shape} {w : Nat} (d : ScatterDims s si u) (idx : IVec si w) :
    Cert.Spec.Finite (incidence d idx) := fun i => by
  rcases incidence_zero_or_one d idx i with h | h <;> rw [h]
  · exact ⟨EReal.zero_ne_top, EReal.zero_ne_bot⟩
  · rw [← EReal.coe_one]
    exact ⟨EReal.coe_ne_top 1, EReal.coe_ne_bot 1⟩

/-- The edge incidence array as both programs build it: ones written at the positions the index array lists, into zeros. -/
abbrev incE (idx : IVec Cert.KernelIdeal.S131072x3 32) : Cert.Spec.Mat3 256 256 128 :=
  incidence Cert.KernelIdeal.scatter_S256x256x128_S131072x3_S131072_n_012_012_1 idx

/-- The kernel's edge incidence array (zeros and ones given in the 16-bit float format) is `incE`. -/
theorem kernel_incE (idx : (⟨Cert.KernelIdeal.S131072x3, .i32⟩ : BufTy).Contents (Elt Ideal)) :
    Host.scatter Cert.KernelIdeal.scatter_S256x256x128_S131072x3_S131072_n_012_012_1 (fun _ b => b)
      (broadcastInDim Cert.KernelIdeal.S256x256x128 ![] Cert.KernelIdeal.Shapes1.Facts₀.bcast_S_S256x256x128
        (constant (F := Ideal) Cert.KernelIdeal.S_ .bf16 0x0000#16))
      idx
      (broadcastInDim Cert.KernelIdeal.S131072 ![] Cert.KernelIdeal.Shapes1.Facts₀.bcast_S_S131072
        (constant (F := Ideal) Cert.KernelIdeal.S_ .bf16 0x3F80#16))
    = incE idx := by
  have h0 : broadcastInDim Cert.KernelIdeal.S256x256x128 ![] Cert.KernelIdeal.Shapes1.Facts₀.bcast_S_S256x256x128
        (constant (F := Ideal) Cert.KernelIdeal.S_ .bf16 0x0000#16) = fun _ => (0 : EReal) :=
    funext fun _ => Ideal.ofBits_zero_bf16
  have h1 : broadcastInDim Cert.KernelIdeal.S131072 ![] Cert.KernelIdeal.Shapes1.Facts₀.bcast_S_S131072
        (constant (F := Ideal) Cert.KernelIdeal.S_ .bf16 0x3F80#16) = fun _ => (1 : EReal) :=
    funext fun _ => Ideal.ofBits_one_bf16
  rw [h0, h1]
  rfl

/-- The reference's edge incidence array (zeros and ones given in the 32-bit float format) is `incE` too. -/
theorem reference_incE (idx : (⟨Cert.ReferenceIdeal.S131072x3, .i32⟩ : BufTy).Contents (Elt Ideal)) :
    Host.scatter Cert.ReferenceIdeal.scatter_S256x256x128_S131072x3_S131072_n_012_012_1 (fun _ b => b)
      (broadcastInDim Cert.ReferenceIdeal.S256x256x128 ![] Cert.ReferenceIdeal.Facts₀.bcast_S_S256x256x128
        (constant (F := Ideal) Cert.ReferenceIdeal.S_ .f32 0x00000000#32))
      idx
      (broadcastInDim Cert.ReferenceIdeal.S131072 ![] Cert.ReferenceIdeal.Facts₀.bcast_S_S131072
        (constant (F := Ideal) Cert.ReferenceIdeal.S_ .f32 0x3F800000#32))
    = incE idx := by
  have h0 : broadcastInDim Cert.ReferenceIdeal.S256x256x128 ![] Cert.ReferenceIdeal.Facts₀.bcast_S_S256x256x128
        (constant (F := Ideal) Cert.ReferenceIdeal.S_ .f32 0x00000000#32) = fun _ => (0 : EReal) :=
    funext fun _ => Ideal.ofBits_zero_f32
  have h1 : broadcastInDim Cert.ReferenceIdeal.S131072 ![] Cert.ReferenceIdeal.Facts₀.bcast_S_S131072
        (constant (F := Ideal) Cert.ReferenceIdeal.S_ .f32 0x3F800000#32) = fun _ => (1 : EReal) :=
    funext fun _ => Ideal.ofBits_one_f32
  rw [h0, h1]
  rfl

/-- (B1) The two programs' edge incidence arrays are equal as arrays of extended reals, for one index array. -/
theorem incidence_e_eq (idx : (⟨Cert.KernelIdeal.S131072x3, .i32⟩ : BufTy).Contents (Elt Ideal)) :
    Host.scatter Cert.KernelIdeal.scatter_S256x256x128_S131072x3_S131072_n_012_012_1 (fun _ b => b)
      (broadcastInDim Cert.KernelIdeal.S256x256x128 ![] Cert.KernelIdeal.Shapes1.Facts₀.bcast_S_S256x256x128
        (constant (F := Ideal) Cert.KernelIdeal.S_ .bf16 0x0000#16))
      idx
      (broadcastInDim Cert.KernelIdeal.S131072 ![] Cert.KernelIdeal.Shapes1.Facts₀.bcast_S_S131072
        (constant (F := Ideal) Cert.KernelIdeal.S_ .bf16 0x3F80#16))
    = Host.scatter Cert.ReferenceIdeal.scatter_S256x256x128_S131072x3_S131072_n_012_012_1 (fun _ b => b)
      (broadcastInDim Cert.ReferenceIdeal.S256x256x128 ![] Cert.ReferenceIdeal.Facts₀.bcast_S_S256x256x128
        (constant (F := Ideal) Cert.ReferenceIdeal.S_ .f32 0x00000000#32))
      idx
      (broadcastInDim Cert.ReferenceIdeal.S131072 ![] Cert.ReferenceIdeal.Facts₀.bcast_S_S131072
        (constant (F := Ideal) Cert.ReferenceIdeal.S_ .f32 0x3F800000#32)) :=
  (kernel_incE idx).trans (reference_incE idx).symm

/-- Every entry of the edge incidence array is 0 or 1. -/
theorem incE_zero_or_one (idx : IVec Cert.KernelIdeal.S131072x3 32) (i : (⟨3, ![256, 256, 128]⟩ : Shape).Idx) :
    incE idx i = 0 ∨ incE idx i = 1 :=
  incidence_zero_or_one _ idx i

/-- The edge incidence array is real. -/
theorem finite_incE (idx : IVec Cert.KernelIdeal.S131072x3 32) : Cert.Spec.Finite (incE idx) :=
  finite_incidence_array _ idx

/-- The cell incidence array as both programs build it: ones written at the positions the index array lists, into zeros. -/
abbrev incC (idx : IVec Cert.KernelIdeal.S65536x3 32) : Cert.Spec.Mat3 256 64 256 :=
  incidence Cert.KernelIdeal.scatter_S256x64x256_S65536x3_S65536_n_012_012_1 idx

/-- The kernel's cell incidence array (zeros and ones given in the 16-bit float format) is `incC`. -/
theorem kernel_incC (idx : (⟨Cert.KernelIdeal.S65536x3, .i32⟩ : BufTy).Contents (Elt Ideal)) :
    Host.scatter Cert.KernelIdeal.scatter_S256x64x256_S65536x3_S65536_n_012_012_1 (fun _ b => b)
      (broadcastInDim Cert.KernelIdeal.S256x64x256 ![] Cert.KernelIdeal.Shapes1.Facts₀.bcast_S_S256x64x256
        (constant (F := Ideal) Cert.KernelIdeal.S_ .bf16 0x0000#16))
      idx
      (broadcastInDim Cert.KernelIdeal.S65536 ![] Cert.KernelIdeal.Shapes1.Facts₀.bcast_S_S65536
        (constant (F := Ideal) Cert.KernelIdeal.S_ .bf16 0x3F80#16))
    = incC idx := by
  have h0 : broadcastInDim Cert.KernelIdeal.S256x64x256 ![] Cert.KernelIdeal.Shapes1.Facts₀.bcast_S_S256x64x256
        (constant (F := Ideal) Cert.KernelIdeal.S_ .bf16 0x0000#16) = fun _ => (0 : EReal) :=
    funext fun _ => Ideal.ofBits_zero_bf16
  have h1 : broadcastInDim Cert.KernelIdeal.S65536 ![] Cert.KernelIdeal.Shapes1.Facts₀.bcast_S_S65536
        (constant (F := Ideal) Cert.KernelIdeal.S_ .bf16 0x3F80#16) = fun _ => (1 : EReal) :=
    funext fun _ => Ideal.ofBits_one_bf16
  rw [h0, h1]
  rfl

/-- The reference's cell incidence array (zeros and ones given in the 32-bit float format) is `incC` too. -/
theorem reference_incC (idx : (⟨Cert.ReferenceIdeal.S65536x3, .i32⟩ : BufTy).Contents (Elt Ideal)) :
    Host.scatter Cert.ReferenceIdeal.scatter_S256x64x256_S65536x3_S65536_n_012_012_1 (fun _ b => b)
      (broadcastInDim Cert.ReferenceIdeal.S256x64x256 ![] Cert.ReferenceIdeal.Facts₀.bcast_S_S256x64x256
        (constant (F := Ideal) Cert.ReferenceIdeal.S_ .f32 0x00000000#32))
      idx
      (broadcastInDim Cert.ReferenceIdeal.S65536 ![] Cert.ReferenceIdeal.Facts₀.bcast_S_S65536
        (constant (F := Ideal) Cert.ReferenceIdeal.S_ .f32 0x3F800000#32))
    = incC idx := by
  have h0 : broadcastInDim Cert.ReferenceIdeal.S256x64x256 ![] Cert.ReferenceIdeal.Facts₀.bcast_S_S256x64x256
        (constant (F := Ideal) Cert.ReferenceIdeal.S_ .f32 0x00000000#32) = fun _ => (0 : EReal) :=
    funext fun _ => Ideal.ofBits_zero_f32
  have h1 : broadcastInDim Cert.ReferenceIdeal.S65536 ![] Cert.ReferenceIdeal.Facts₀.bcast_S_S65536
        (constant (F := Ideal) Cert.ReferenceIdeal.S_ .f32 0x3F800000#32) = fun _ => (1 : EReal) :=
    funext fun _ => Ideal.ofBits_one_f32
  rw [h0, h1]
  rfl

/-- (B1) The two programs' cell incidence arrays are equal as arrays of extended reals, for one index array. -/
theorem incidence_c_eq (idx : (⟨Cert.KernelIdeal.S65536x3, .i32⟩ : BufTy).Contents (Elt Ideal)) :
    Host.scatter Cert.KernelIdeal.scatter_S256x64x256_S65536x3_S65536_n_012_012_1 (fun _ b => b)
      (broadcastInDim Cert.KernelIdeal.S256x64x256 ![] Cert.KernelIdeal.Shapes1.Facts₀.bcast_S_S256x64x256
        (constant (F := Ideal) Cert.KernelIdeal.S_ .bf16 0x0000#16))
      idx
      (broadcastInDim Cert.KernelIdeal.S65536 ![] Cert.KernelIdeal.Shapes1.Facts₀.bcast_S_S65536
        (constant (F := Ideal) Cert.KernelIdeal.S_ .bf16 0x3F80#16))
    = Host.scatter Cert.ReferenceIdeal.scatter_S256x64x256_S65536x3_S65536_n_012_012_1 (fun _ b => b)
      (broadcastInDim Cert.ReferenceIdeal.S256x64x256 ![] Cert.ReferenceIdeal.Facts₀.bcast_S_S256x64x256
        (constant (F := Ideal) Cert.ReferenceIdeal.S_ .f32 0x00000000#32))
      idx
      (broadcastInDim Cert.ReferenceIdeal.S65536 ![] Cert.ReferenceIdeal.Facts₀.bcast_S_S65536
        (constant (F := Ideal) Cert.ReferenceIdeal.S_ .f32 0x3F800000#32)) :=
  (kernel_incC idx).trans (reference_incC idx).symm

/-- Every entry of the cell incidence array is 0 or 1. -/
theorem incC_zero_or_one (idx : IVec Cert.KernelIdeal.S65536x3 32) (i : (⟨3, ![256, 64, 256]⟩ : Shape).Idx) :
    incC idx i = 0 ∨ incC idx i = 1 :=
  incidence_zero_or_one _ idx i

/-- The cell incidence array is real. -/
theorem finite_incC (idx : IVec Cert.KernelIdeal.S65536x3 32) : Cert.Spec.Finite (incC idx) :=
  finite_incidence_array _ idx

/-! ## The reference's products as sums

A product of the reference contracts one axis of each operand; read at an entry of the result it is the sum over the
contraction index of the products of the two operands' entries. For the batched products (batch axis 0, the left
operand's axis 2 against the right operand's axis 1) entry (b, r, c) reads the left operand at (b, r, k) and the right
one at (b, k, c); for the plain products (the left operand's axis 1 against the right operand's axis 0) entry (r, c)
reads (r, k) and (k, c). The lemmas below say this coordinate by coordinate, and then for the whole arrays: a batched
product is the batched product of the shared vocabulary, a plain one its matrix product. -/

/-- Left operand, axis 0: the batch. -/
private theorem lhsE3_0 (i : Cert.ReferenceIdeal.S256x256x256.Idx) (q : Cert.ReferenceIdeal.dot_S256x256x128_S256x128x256_S256x256x256_2_1_1_2_0_0.contr.Idx) :
    (Cert.ReferenceIdeal.dot_S256x256x128_S256x128x256_S256x256x256_2_1_1_2_0_0.lhsIdx i q 0).val = (i 0).val := by
  unfold DotDims.lhsIdx
  rw [dif_pos (show (0 : Fin Cert.ReferenceIdeal.S256x256x128.rank) ∈ Cert.ReferenceIdeal.dot_S256x256x128_S256x128x256_S256x256x256_2_1_1_2_0_0.lhsBatch from by
      show (0 : Fin 3) ∈ ([0] : List (Fin 3))
      decide)]
  rfl
/-- Left operand, axis 1: the output's row. -/
private theorem lhsE3_1 (i : Cert.ReferenceIdeal.S256x256x256.Idx) (q : Cert.ReferenceIdeal.dot_S256x256x128_S256x128x256_S256x256x256_2_1_1_2_0_0.contr.Idx) :
    (Cert.ReferenceIdeal.dot_S256x256x128_S256x128x256_S256x256x256_2_1_1_2_0_0.lhsIdx i q 1).val = (i 1).val := by
  unfold DotDims.lhsIdx
  rw [dif_neg (show ¬(1 : Fin Cert.ReferenceIdeal.S256x256x128.rank) ∈ Cert.ReferenceIdeal.dot_S256x256x128_S256x128x256_S256x256x256_2_1_1_2_0_0.lhsBatch from by
      show ¬(1 : Fin 3) ∈ ([0] : List (Fin 3))
      decide),
    dif_pos (show (1 : Fin Cert.ReferenceIdeal.S256x256x128.rank) ∈ Cert.ReferenceIdeal.dot_S256x256x128_S256x128x256_S256x256x256_2_1_1_2_0_0.lhsNonContracting from by
      show (1 : Fin 3) ∈ ([1] : List (Fin 3))
      decide)]
  rfl
/-- Left operand, axis 2: the contraction index. -/
private theorem lhsE3_2 (i : Cert.ReferenceIdeal.S256x256x256.Idx) (q : Cert.ReferenceIdeal.dot_S256x256x128_S256x128x256_S256x256x256_2_1_1_2_0_0.contr.Idx) :
    (Cert.ReferenceIdeal.dot_S256x256x128_S256x128x256_S256x256x256_2_1_1_2_0_0.lhsIdx i q 2).val = (q ⟨0, Nat.zero_lt_one⟩).val :=
  Cert.ReferenceIdeal.dot_S256x256x128_S256x128x256_S256x256x256_2_1_1_2_0_0.lhsIdx_val_of_single rfl i q
/-- Right operand, axis 0: the batch. -/
private theorem rhsE3_0 (i : Cert.ReferenceIdeal.S256x256x256.Idx) (q : Cert.ReferenceIdeal.dot_S256x256x128_S256x128x256_S256x256x256_2_1_1_2_0_0.contr.Idx) :
    (Cert.ReferenceIdeal.dot_S256x256x128_S256x128x256_S256x256x256_2_1_1_2_0_0.rhsIdx i q 0).val = (i 0).val := by
  unfold DotDims.rhsIdx
  rw [dif_pos (show (0 : Fin Cert.ReferenceIdeal.S256x128x256.rank) ∈ Cert.ReferenceIdeal.dot_S256x256x128_S256x128x256_S256x256x256_2_1_1_2_0_0.rhsBatch from by
      show (0 : Fin 3) ∈ ([0] : List (Fin 3))
      decide)]
  rfl
/-- Right operand, axis 1: the contraction index. -/
private theorem rhsE3_1 (i : Cert.ReferenceIdeal.S256x256x256.Idx) (q : Cert.ReferenceIdeal.dot_S256x256x128_S256x128x256_S256x256x256_2_1_1_2_0_0.contr.Idx) :
    (Cert.ReferenceIdeal.dot_S256x256x128_S256x128x256_S256x256x256_2_1_1_2_0_0.rhsIdx i q 1).val = (q ⟨0, Nat.zero_lt_one⟩).val :=
  Cert.ReferenceIdeal.dot_S256x256x128_S256x128x256_S256x256x256_2_1_1_2_0_0.rhsIdx_val_of_single rfl i q
/-- Right operand, axis 2: the output's column. -/
private theorem rhsE3_2 (i : Cert.ReferenceIdeal.S256x256x256.Idx) (q : Cert.ReferenceIdeal.dot_S256x256x128_S256x128x256_S256x256x256_2_1_1_2_0_0.contr.Idx) :
    (Cert.ReferenceIdeal.dot_S256x256x128_S256x128x256_S256x256x256_2_1_1_2_0_0.rhsIdx i q 2).val = (i 2).val := by
  unfold DotDims.rhsIdx
  rw [dif_neg (show ¬(2 : Fin Cert.ReferenceIdeal.S256x128x256.rank) ∈ Cert.ReferenceIdeal.dot_S256x256x128_S256x128x256_S256x256x256_2_1_1_2_0_0.rhsBatch from by
      show ¬(2 : Fin 3) ∈ ([0] : List (Fin 3))
      decide),
    dif_pos (show (2 : Fin Cert.ReferenceIdeal.S256x128x256.rank) ∈ Cert.ReferenceIdeal.dot_S256x256x128_S256x128x256_S256x256x256_2_1_1_2_0_0.rhsNonContracting from by
      show (2 : Fin 3) ∈ ([2] : List (Fin 3))
      decide)]
  rfl

/-- The batched product of the edge incidence with the batch of node features is the batched product of the vocabulary. -/
theorem dotE3_eq_bmul (A : (⟨Cert.ReferenceIdeal.S256x256x128, .f32⟩ : BufTy).Contents (Elt Ideal)) (X : (⟨Cert.ReferenceIdeal.S256x128x256, .f32⟩ : BufTy).Contents (Elt Ideal)) :
    Host.dotGeneral (F := Ideal) (φ₁ := .f32) (φ₂ := .f32) Cert.ReferenceIdeal.dot_S256x256x128_S256x128x256_S256x256x256_2_1_1_2_0_0 none A X = Cert.Spec.bmul A X := by
  funext i
  simp only [Host.dotGeneral]
  rw [Ideal.dotGeneral_apply, ← Equiv.sum_comp (contrEquiv1 Cert.ReferenceIdeal.dot_S256x256x128_S256x128x256_S256x256x256_2_1_1_2_0_0 128 rfl rfl).symm]
  refine Finset.sum_congr rfl fun k _ => ?_
  have hk := contrEquiv1_symm_val Cert.ReferenceIdeal.dot_S256x256x128_S256x128x256_S256x256x256_2_1_1_2_0_0 128 rfl rfl k
  have el : Cert.ReferenceIdeal.dot_S256x256x128_S256x128x256_S256x256x256_2_1_1_2_0_0.lhsIdx i ((contrEquiv1 Cert.ReferenceIdeal.dot_S256x256x128_S256x128x256_S256x256x256_2_1_1_2_0_0 128 rfl rfl).symm k) = ix3 (i 0) (i 1) k :=
    funext fun a => Fin.ext (by
      match a with
      | ⟨0, _⟩ => exact lhsE3_0 _ _
      | ⟨1, _⟩ => exact lhsE3_1 _ _
      | ⟨2, _⟩ => exact (lhsE3_2 _ _).trans hk)
  have er : Cert.ReferenceIdeal.dot_S256x256x128_S256x128x256_S256x256x256_2_1_1_2_0_0.rhsIdx i ((contrEquiv1 Cert.ReferenceIdeal.dot_S256x256x128_S256x128x256_S256x256x256_2_1_1_2_0_0 128 rfl rfl).symm k) = ix3 (i 0) k (i 2) :=
    funext fun a => Fin.ext (by
      match a with
      | ⟨0, _⟩ => exact rhsE3_0 _ _
      | ⟨1, _⟩ => exact (rhsE3_1 _ _).trans hk
      | ⟨2, _⟩ => exact rhsE3_2 _ _)
  rw [el, er]
  rfl

/-- Left operand, axis 0: the output's row. -/
private theorem lhsE2_0 (i : Cert.ReferenceIdeal.S65536x256.Idx) (q : Cert.ReferenceIdeal.dot_S65536x256_S256x256_S65536x256_1_0_0_1_n_n.contr.Idx) :
    (Cert.ReferenceIdeal.dot_S65536x256_S256x256_S65536x256_1_0_0_1_n_n.lhsIdx i q 0).val = (i 0).val := by
  unfold DotDims.lhsIdx
  rw [dif_neg (show ¬(0 : Fin Cert.ReferenceIdeal.S65536x256.rank) ∈ Cert.ReferenceIdeal.dot_S65536x256_S256x256_S65536x256_1_0_0_1_n_n.lhsBatch from by
      show ¬(0 : Fin 2) ∈ ([] : List (Fin 2))
      decide),
    dif_pos (show (0 : Fin Cert.ReferenceIdeal.S65536x256.rank) ∈ Cert.ReferenceIdeal.dot_S65536x256_S256x256_S65536x256_1_0_0_1_n_n.lhsNonContracting from by
      show (0 : Fin 2) ∈ ([0] : List (Fin 2))
      decide)]
  rfl
/-- Left operand, axis 1: the contraction index. -/
private theorem lhsE2_1 (i : Cert.ReferenceIdeal.S65536x256.Idx) (q : Cert.ReferenceIdeal.dot_S65536x256_S256x256_S65536x256_1_0_0_1_n_n.contr.Idx) :
    (Cert.ReferenceIdeal.dot_S65536x256_S256x256_S65536x256_1_0_0_1_n_n.lhsIdx i q 1).val = (q ⟨0, Nat.zero_lt_one⟩).val :=
  Cert.ReferenceIdeal.dot_S65536x256_S256x256_S65536x256_1_0_0_1_n_n.lhsIdx_val_of_single rfl i q
/-- Right operand, axis 0: the contraction index. -/
private theorem rhsE2_0 (i : Cert.ReferenceIdeal.S65536x256.Idx) (q : Cert.ReferenceIdeal.dot_S65536x256_S256x256_S65536x256_1_0_0_1_n_n.contr.Idx) :
    (Cert.ReferenceIdeal.dot_S65536x256_S256x256_S65536x256_1_0_0_1_n_n.rhsIdx i q 0).val = (q ⟨0, Nat.zero_lt_one⟩).val :=
  Cert.ReferenceIdeal.dot_S65536x256_S256x256_S65536x256_1_0_0_1_n_n.rhsIdx_val_of_single rfl i q
/-- Right operand, axis 1: the output's column. -/
private theorem rhsE2_1 (i : Cert.ReferenceIdeal.S65536x256.Idx) (q : Cert.ReferenceIdeal.dot_S65536x256_S256x256_S65536x256_1_0_0_1_n_n.contr.Idx) :
    (Cert.ReferenceIdeal.dot_S65536x256_S256x256_S65536x256_1_0_0_1_n_n.rhsIdx i q 1).val = (i 1).val := by
  unfold DotDims.rhsIdx
  rw [dif_neg (show ¬(1 : Fin Cert.ReferenceIdeal.S256x256.rank) ∈ Cert.ReferenceIdeal.dot_S65536x256_S256x256_S65536x256_1_0_0_1_n_n.rhsBatch from by
      show ¬(1 : Fin 2) ∈ ([] : List (Fin 2))
      decide),
    dif_pos (show (1 : Fin Cert.ReferenceIdeal.S256x256.rank) ∈ Cert.ReferenceIdeal.dot_S65536x256_S256x256_S65536x256_1_0_0_1_n_n.rhsNonContracting from by
      show (1 : Fin 2) ∈ ([1] : List (Fin 2))
      decide)]
  rfl

/-- The product of the flat edge array with a weight matrix is the matrix product of the vocabulary. -/
theorem dotE2_eq_mul (Y : (⟨Cert.ReferenceIdeal.S65536x256, .f32⟩ : BufTy).Contents (Elt Ideal)) (W : (⟨Cert.ReferenceIdeal.S256x256, .f32⟩ : BufTy).Contents (Elt Ideal)) :
    Host.dotGeneral (F := Ideal) (φ₁ := .f32) (φ₂ := .f32) Cert.ReferenceIdeal.dot_S65536x256_S256x256_S65536x256_1_0_0_1_n_n none Y W = Cert.Spec.mul Y W := by
  funext i
  simp only [Host.dotGeneral]
  rw [Ideal.dotGeneral_apply, ← Equiv.sum_comp (contrEquiv1 Cert.ReferenceIdeal.dot_S65536x256_S256x256_S65536x256_1_0_0_1_n_n 256 rfl rfl).symm]
  refine Finset.sum_congr rfl fun k _ => ?_
  have hk := contrEquiv1_symm_val Cert.ReferenceIdeal.dot_S65536x256_S256x256_S65536x256_1_0_0_1_n_n 256 rfl rfl k
  have el : Cert.ReferenceIdeal.dot_S65536x256_S256x256_S65536x256_1_0_0_1_n_n.lhsIdx i ((contrEquiv1 Cert.ReferenceIdeal.dot_S65536x256_S256x256_S65536x256_1_0_0_1_n_n 256 rfl rfl).symm k) = ix2 (i 0) k :=
    funext fun a => Fin.ext (by
      match a with
      | ⟨0, _⟩ => exact lhsE2_0 _ _
      | ⟨1, _⟩ => exact (lhsE2_1 _ _).trans hk)
  have er : Cert.ReferenceIdeal.dot_S65536x256_S256x256_S65536x256_1_0_0_1_n_n.rhsIdx i ((contrEquiv1 Cert.ReferenceIdeal.dot_S65536x256_S256x256_S65536x256_1_0_0_1_n_n 256 rfl rfl).symm k) = ix2 k (i 1) :=
    funext fun a => Fin.ext (by
      match a with
      | ⟨0, _⟩ => exact (rhsE2_0 _ _).trans hk
      | ⟨1, _⟩ => exact rhsE2_1 _ _)
  rw [el, er]
  rfl

/-- Left operand, axis 0: the batch. -/
private theorem lhsC3_0 (i : Cert.ReferenceIdeal.S256x64x256.Idx) (q : Cert.ReferenceIdeal.dot_S256x64x256_S256x256x256_S256x64x256_2_1_1_2_0_0.contr.Idx) :
    (Cert.ReferenceIdeal.dot_S256x64x256_S256x256x256_S256x64x256_2_1_1_2_0_0.lhsIdx i q 0).val = (i 0).val := by
  unfold DotDims.lhsIdx
  rw [dif_pos (show (0 : Fin Cert.ReferenceIdeal.S256x64x256.rank) ∈ Cert.ReferenceIdeal.dot_S256x64x256_S256x256x256_S256x64x256_2_1_1_2_0_0.lhsBatch from by
      show (0 : Fin 3) ∈ ([0] : List (Fin 3))
      decide)]
  rfl
/-- Left operand, axis 1: the output's row. -/
private theorem lhsC3_1 (i : Cert.ReferenceIdeal.S256x64x256.Idx) (q : Cert.ReferenceIdeal.dot_S256x64x256_S256x256x256_S256x64x256_2_1_1_2_0_0.contr.Idx) :
    (Cert.ReferenceIdeal.dot_S256x64x256_S256x256x256_S256x64x256_2_1_1_2_0_0.lhsIdx i q 1).val = (i 1).val := by
  unfold DotDims.lhsIdx
  rw [dif_neg (show ¬(1 : Fin Cert.ReferenceIdeal.S256x64x256.rank) ∈ Cert.ReferenceIdeal.dot_S256x64x256_S256x256x256_S256x64x256_2_1_1_2_0_0.lhsBatch from by
      show ¬(1 : Fin 3) ∈ ([0] : List (Fin 3))
      decide),
    dif_pos (show (1 : Fin Cert.ReferenceIdeal.S256x64x256.rank) ∈ Cert.ReferenceIdeal.dot_S256x64x256_S256x256x256_S256x64x256_2_1_1_2_0_0.lhsNonContracting from by
      show (1 : Fin 3) ∈ ([1] : List (Fin 3))
      decide)]
  rfl
/-- Left operand, axis 2: the contraction index. -/
private theorem lhsC3_2 (i : Cert.ReferenceIdeal.S256x64x256.Idx) (q : Cert.ReferenceIdeal.dot_S256x64x256_S256x256x256_S256x64x256_2_1_1_2_0_0.contr.Idx) :
    (Cert.ReferenceIdeal.dot_S256x64x256_S256x256x256_S256x64x256_2_1_1_2_0_0.lhsIdx i q 2).val = (q ⟨0, Nat.zero_lt_one⟩).val :=
  Cert.ReferenceIdeal.dot_S256x64x256_S256x256x256_S256x64x256_2_1_1_2_0_0.lhsIdx_val_of_single rfl i q
/-- Right operand, axis 0: the batch. -/
private theorem rhsC3_0 (i : Cert.ReferenceIdeal.S256x64x256.Idx) (q : Cert.ReferenceIdeal.dot_S256x64x256_S256x256x256_S256x64x256_2_1_1_2_0_0.contr.Idx) :
    (Cert.ReferenceIdeal.dot_S256x64x256_S256x256x256_S256x64x256_2_1_1_2_0_0.rhsIdx i q 0).val = (i 0).val := by
  unfold DotDims.rhsIdx
  rw [dif_pos (show (0 : Fin Cert.ReferenceIdeal.S256x256x256.rank) ∈ Cert.ReferenceIdeal.dot_S256x64x256_S256x256x256_S256x64x256_2_1_1_2_0_0.rhsBatch from by
      show (0 : Fin 3) ∈ ([0] : List (Fin 3))
      decide)]
  rfl
/-- Right operand, axis 1: the contraction index. -/
private theorem rhsC3_1 (i : Cert.ReferenceIdeal.S256x64x256.Idx) (q : Cert.ReferenceIdeal.dot_S256x64x256_S256x256x256_S256x64x256_2_1_1_2_0_0.contr.Idx) :
    (Cert.ReferenceIdeal.dot_S256x64x256_S256x256x256_S256x64x256_2_1_1_2_0_0.rhsIdx i q 1).val = (q ⟨0, Nat.zero_lt_one⟩).val :=
  Cert.ReferenceIdeal.dot_S256x64x256_S256x256x256_S256x64x256_2_1_1_2_0_0.rhsIdx_val_of_single rfl i q
/-- Right operand, axis 2: the output's column. -/
private theorem rhsC3_2 (i : Cert.ReferenceIdeal.S256x64x256.Idx) (q : Cert.ReferenceIdeal.dot_S256x64x256_S256x256x256_S256x64x256_2_1_1_2_0_0.contr.Idx) :
    (Cert.ReferenceIdeal.dot_S256x64x256_S256x256x256_S256x64x256_2_1_1_2_0_0.rhsIdx i q 2).val = (i 2).val := by
  unfold DotDims.rhsIdx
  rw [dif_neg (show ¬(2 : Fin Cert.ReferenceIdeal.S256x256x256.rank) ∈ Cert.ReferenceIdeal.dot_S256x64x256_S256x256x256_S256x64x256_2_1_1_2_0_0.rhsBatch from by
      show ¬(2 : Fin 3) ∈ ([0] : List (Fin 3))
      decide),
    dif_pos (show (2 : Fin Cert.ReferenceIdeal.S256x256x256.rank) ∈ Cert.ReferenceIdeal.dot_S256x64x256_S256x256x256_S256x64x256_2_1_1_2_0_0.rhsNonContracting from by
      show (2 : Fin 3) ∈ ([2] : List (Fin 3))
      decide)]
  rfl

/-- The batched product of the cell incidence with the batch of edge features is the batched product of the vocabulary. -/
theorem dotC3_eq_bmul (A : (⟨Cert.ReferenceIdeal.S256x64x256, .f32⟩ : BufTy).Contents (Elt Ideal)) (X : (⟨Cert.ReferenceIdeal.S256x256x256, .f32⟩ : BufTy).Contents (Elt Ideal)) :
    Host.dotGeneral (F := Ideal) (φ₁ := .f32) (φ₂ := .f32) Cert.ReferenceIdeal.dot_S256x64x256_S256x256x256_S256x64x256_2_1_1_2_0_0 none A X = Cert.Spec.bmul A X := by
  funext i
  simp only [Host.dotGeneral]
  rw [Ideal.dotGeneral_apply, ← Equiv.sum_comp (contrEquiv1 Cert.ReferenceIdeal.dot_S256x64x256_S256x256x256_S256x64x256_2_1_1_2_0_0 256 rfl rfl).symm]
  refine Finset.sum_congr rfl fun k _ => ?_
  have hk := contrEquiv1_symm_val Cert.ReferenceIdeal.dot_S256x64x256_S256x256x256_S256x64x256_2_1_1_2_0_0 256 rfl rfl k
  have el : Cert.ReferenceIdeal.dot_S256x64x256_S256x256x256_S256x64x256_2_1_1_2_0_0.lhsIdx i ((contrEquiv1 Cert.ReferenceIdeal.dot_S256x64x256_S256x256x256_S256x64x256_2_1_1_2_0_0 256 rfl rfl).symm k) = ix3 (i 0) (i 1) k :=
    funext fun a => Fin.ext (by
      match a with
      | ⟨0, _⟩ => exact lhsC3_0 _ _
      | ⟨1, _⟩ => exact lhsC3_1 _ _
      | ⟨2, _⟩ => exact (lhsC3_2 _ _).trans hk)
  have er : Cert.ReferenceIdeal.dot_S256x64x256_S256x256x256_S256x64x256_2_1_1_2_0_0.rhsIdx i ((contrEquiv1 Cert.ReferenceIdeal.dot_S256x64x256_S256x256x256_S256x64x256_2_1_1_2_0_0 256 rfl rfl).symm k) = ix3 (i 0) k (i 2) :=
    funext fun a => Fin.ext (by
      match a with
      | ⟨0, _⟩ => exact rhsC3_0 _ _
      | ⟨1, _⟩ => exact (rhsC3_1 _ _).trans hk
      | ⟨2, _⟩ => exact rhsC3_2 _ _)
  rw [el, er]
  rfl

/-- Left operand, axis 0: the output's row. -/
private theorem lhsC2_0 (i : Cert.ReferenceIdeal.S16384x256.Idx) (q : Cert.ReferenceIdeal.dot_S16384x256_S256x256_S16384x256_1_0_0_1_n_n.contr.Idx) :
    (Cert.ReferenceIdeal.dot_S16384x256_S256x256_S16384x256_1_0_0_1_n_n.lhsIdx i q 0).val = (i 0).val := by
  unfold DotDims.lhsIdx
  rw [dif_neg (show ¬(0 : Fin Cert.ReferenceIdeal.S16384x256.rank) ∈ Cert.ReferenceIdeal.dot_S16384x256_S256x256_S16384x256_1_0_0_1_n_n.lhsBatch from by
      show ¬(0 : Fin 2) ∈ ([] : List (Fin 2))
      decide),
    dif_pos (show (0 : Fin Cert.ReferenceIdeal.S16384x256.rank) ∈ Cert.ReferenceIdeal.dot_S16384x256_S256x256_S16384x256_1_0_0_1_n_n.lhsNonContracting from by
      show (0 : Fin 2) ∈ ([0] : List (Fin 2))
      decide)]
  rfl
/-- Left operand, axis 1: the contraction index. -/
private theorem lhsC2_1 (i : Cert.ReferenceIdeal.S16384x256.Idx) (q : Cert.ReferenceIdeal.dot_S16384x256_S256x256_S16384x256_1_0_0_1_n_n.contr.Idx) :
    (Cert.ReferenceIdeal.dot_S16384x256_S256x256_S16384x256_1_0_0_1_n_n.lhsIdx i q 1).val = (q ⟨0, Nat.zero_lt_one⟩).val :=
  Cert.ReferenceIdeal.dot_S16384x256_S256x256_S16384x256_1_0_0_1_n_n.lhsIdx_val_of_single rfl i q
/-- Right operand, axis 0: the contraction index. -/
private theorem rhsC2_0 (i : Cert.ReferenceIdeal.S16384x256.Idx) (q : Cert.ReferenceIdeal.dot_S16384x256_S256x256_S16384x256_1_0_0_1_n_n.contr.Idx) :
    (Cert.ReferenceIdeal.dot_S16384x256_S256x256_S16384x256_1_0_0_1_n_n.rhsIdx i q 0).val = (q ⟨0, Nat.zero_lt_one⟩).val :=
  Cert.ReferenceIdeal.dot_S16384x256_S256x256_S16384x256_1_0_0_1_n_n.rhsIdx_val_of_single rfl i q
/-- Right operand, axis 1: the output's column. -/
private theorem rhsC2_1 (i : Cert.ReferenceIdeal.S16384x256.Idx) (q : Cert.ReferenceIdeal.dot_S16384x256_S256x256_S16384x256_1_0_0_1_n_n.contr.Idx) :
    (Cert.ReferenceIdeal.dot_S16384x256_S256x256_S16384x256_1_0_0_1_n_n.rhsIdx i q 1).val = (i 1).val := by
  unfold DotDims.rhsIdx
  rw [dif_neg (show ¬(1 : Fin Cert.ReferenceIdeal.S256x256.rank) ∈ Cert.ReferenceIdeal.dot_S16384x256_S256x256_S16384x256_1_0_0_1_n_n.rhsBatch from by
      show ¬(1 : Fin 2) ∈ ([] : List (Fin 2))
      decide),
    dif_pos (show (1 : Fin Cert.ReferenceIdeal.S256x256.rank) ∈ Cert.ReferenceIdeal.dot_S16384x256_S256x256_S16384x256_1_0_0_1_n_n.rhsNonContracting from by
      show (1 : Fin 2) ∈ ([1] : List (Fin 2))
      decide)]
  rfl

/-- The product of the flat cell array with a weight matrix is the matrix product of the vocabulary. -/
theorem dotC2_eq_mul (Y : (⟨Cert.ReferenceIdeal.S16384x256, .f32⟩ : BufTy).Contents (Elt Ideal)) (W : (⟨Cert.ReferenceIdeal.S256x256, .f32⟩ : BufTy).Contents (Elt Ideal)) :
    Host.dotGeneral (F := Ideal) (φ₁ := .f32) (φ₂ := .f32) Cert.ReferenceIdeal.dot_S16384x256_S256x256_S16384x256_1_0_0_1_n_n none Y W = Cert.Spec.mul Y W := by
  funext i
  simp only [Host.dotGeneral]
  rw [Ideal.dotGeneral_apply, ← Equiv.sum_comp (contrEquiv1 Cert.ReferenceIdeal.dot_S16384x256_S256x256_S16384x256_1_0_0_1_n_n 256 rfl rfl).symm]
  refine Finset.sum_congr rfl fun k _ => ?_
  have hk := contrEquiv1_symm_val Cert.ReferenceIdeal.dot_S16384x256_S256x256_S16384x256_1_0_0_1_n_n 256 rfl rfl k
  have el : Cert.ReferenceIdeal.dot_S16384x256_S256x256_S16384x256_1_0_0_1_n_n.lhsIdx i ((contrEquiv1 Cert.ReferenceIdeal.dot_S16384x256_S256x256_S16384x256_1_0_0_1_n_n 256 rfl rfl).symm k) = ix2 (i 0) k :=
    funext fun a => Fin.ext (by
      match a with
      | ⟨0, _⟩ => exact lhsC2_0 _ _
      | ⟨1, _⟩ => exact (lhsC2_1 _ _).trans hk)
  have er : Cert.ReferenceIdeal.dot_S16384x256_S256x256_S16384x256_1_0_0_1_n_n.rhsIdx i ((contrEquiv1 Cert.ReferenceIdeal.dot_S16384x256_S256x256_S16384x256_1_0_0_1_n_n 256 rfl rfl).symm k) = ix2 k (i 1) :=
    funext fun a => Fin.ext (by
      match a with
      | ⟨0, _⟩ => exact (rhsC2_0 _ _).trans hk
      | ⟨1, _⟩ => exact rhsC2_1 _ _)
  rw [el, er]
  rfl

/-! ## A reshape between a flat array of rows and a batch of matrices

The flat array with B·n rows and the batch of B matrices of n rows hold the same entries in the same row-major
order: row b·n + r of the flat array is row r of matrix b. -/

/-- A flat array reshaped to a batch, read at (b, r, c), is the flat array at row b·n + r, column c. -/
theorem shapeCast_split_rows {α : Type} {N B n h : Nat} (x : (⟨2, ![N, h]⟩ : Shape).Idx → α)
    (hc : (⟨2, ![N, h]⟩ : Shape).ShapeCasts ⟨3, ![B, n, h]⟩) (b : Fin B) (r : Fin n) (c : Fin h)
    (hp : b.val * n + r.val < N) :
    shapeCast ⟨3, ![B, n, h]⟩ x hc (ix3 b r c) = x (ix2 ⟨b.val * n + r.val, hp⟩ c) :=
  shapeCast_apply x hc (ix3 b r c) (ix2 ⟨b.val * n + r.val, hp⟩ c)
    (by rw [Shape.rowMajor_val_two, Shape.rowMajor_val_three]; rfl)

/-- A batch reshaped to a flat array, read at row p = b·n + r and column c, is the batch at (b, r, c). -/
theorem shapeCast_merge_rows {α : Type} {N B n h : Nat} (y : (⟨3, ![B, n, h]⟩ : Shape).Idx → α)
    (hc : (⟨3, ![B, n, h]⟩ : Shape).ShapeCasts ⟨2, ![N, h]⟩) (b : Fin B) (r : Fin n) (c : Fin h) (p : Fin N)
    (hp : p.val = b.val * n + r.val) :
    shapeCast ⟨2, ![N, h]⟩ y hc (ix2 p c) = y (ix3 b r c) :=
  shapeCast_apply y hc (ix2 p c) (ix3 b r c)
    (by rw [Shape.rowMajor_val_two, Shape.rowMajor_val_three]
        show (b.val * n + r.val) * h + c.val = p.val * h + c.val
        rw [hp])

/-- A reshape only moves entries, so a reshaped real array is real. -/
theorem finite_shapeCast {s t : Shape} {x : s.Idx → EReal} (hx : Cert.Spec.Finite x) (hc : s.ShapeCasts t) :
    Cert.Spec.Finite (shapeCast t x hc) :=
  fun _ => hx _

/-! ## (B2) The edge boundary

The reference multiplies, batch by batch, the edge incidence A_b (256 × 128) with the node features X_b (128 × 256, the
flat node array cut into 256 batches of 128 rows), lays the 256 results out as one flat array of 65536 rows and
multiplies that by the weight matrix W: entry (b·256 + r, c) is  ∑ l, (∑ j, A (b, r, j) · X (b, j, l)) · W (l, c).
The kernel multiplies the flat node array by W first and cuts the product into batches, so the batch's entry (b, j, c)
is  ∑ l, X (b, j, l) · W (l, c),  then multiplies by the incidence: entry (b·256 + r, c) of its flat result is
∑ j, A (b, r, j) · (∑ l, X (b, j, l) · W (l, c)).  For real entries the two double sums agree. -/

/-- (B2) The edge boundary message of the reference equals the kernel's re-associated one, for real arrays. -/
theorem edge_boundary (A : (⟨Cert.ReferenceIdeal.S256x256x128, .f32⟩ : BufTy).Contents (Elt Ideal)) (xn : (⟨Cert.ReferenceIdeal.S32768x256, .f32⟩ : BufTy).Contents (Elt Ideal))
    (W : (⟨Cert.ReferenceIdeal.S256x256, .f32⟩ : BufTy).Contents (Elt Ideal))
    (hA : Cert.Spec.Finite A) (hxn : Cert.Spec.Finite xn) (hW : Cert.Spec.Finite W) :
    Host.dotGeneral (F := Ideal) (φ₁ := .f32) (φ₂ := .f32) Cert.ReferenceIdeal.dot_S65536x256_S256x256_S65536x256_1_0_0_1_n_n none
        (shapeCast Cert.ReferenceIdeal.S65536x256
          (Host.dotGeneral (F := Ideal) (φ₁ := .f32) (φ₂ := .f32) Cert.ReferenceIdeal.dot_S256x256x128_S256x128x256_S256x256x256_2_1_1_2_0_0 none A
            (shapeCast Cert.ReferenceIdeal.S256x128x256 xn Cert.ReferenceIdeal.Facts₀.shapeCasts_S32768x256_S256x128x256))
          Cert.ReferenceIdeal.Facts₀.shapeCasts_S256x256x256_S65536x256)
        W
      = shapeCast Cert.KernelIdeal.S65536x256
          (Cert.Spec.bmul A
            (shapeCast Cert.KernelIdeal.S256x128x256 (Cert.Spec.mul xn W) Cert.KernelIdeal.Shapes1.Facts₀.shapeCasts_S32768x256_S256x128x256))
          Cert.KernelIdeal.Shapes1.Facts₀.shapeCasts_S256x256x256_S65536x256 := by
  rw [dotE3_eq_bmul, dotE2_eq_mul]
  funext i
  obtain ⟨p, c, rfl⟩ : ∃ (p : Fin 65536) (c : Fin 256), i = ix2 p c := ⟨i 0, i 1, eq_ix2 i⟩
  obtain ⟨b, r, hp⟩ : ∃ (b : Fin 256) (r : Fin 256), p.val = b.val * 256 + r.val :=
    ⟨⟨p.val / 256, by have := p.isLt; omega⟩, ⟨p.val % 256, Nat.mod_lt _ (by decide)⟩, by
      show p.val = p.val / 256 * 256 + p.val % 256
      omega⟩
  -- the batch of node features, and its being real
  have hX : Cert.Spec.Finite (shapeCast Cert.ReferenceIdeal.S256x128x256 xn Cert.ReferenceIdeal.Facts₀.shapeCasts_S32768x256_S256x128x256) :=
    finite_shapeCast hxn _
  -- the reference's entry: the flat array of the batched product at row p is the batch's entry (b, r, ·)
  have hL : Cert.Spec.mul
        (shapeCast Cert.ReferenceIdeal.S65536x256
          (Cert.Spec.bmul A (shapeCast Cert.ReferenceIdeal.S256x128x256 xn Cert.ReferenceIdeal.Facts₀.shapeCasts_S32768x256_S256x128x256))
          Cert.ReferenceIdeal.Facts₀.shapeCasts_S256x256x256_S65536x256) W (ix2 p c)
      = ∑ l : Fin 256,
          Cert.Spec.bmul A (shapeCast Cert.ReferenceIdeal.S256x128x256 xn Cert.ReferenceIdeal.Facts₀.shapeCasts_S32768x256_S256x128x256) (ix3 b r l)
            * W (ix2 l c) :=
    Finset.sum_congr rfl fun l _ =>
      congrArg (· * W (ix2 l c)) (shapeCast_merge_rows _ Cert.ReferenceIdeal.Facts₀.shapeCasts_S256x256x256_S65536x256 b r l p hp)
  -- the kernel's batch of projected node features at (b, j, c): the node batch's row (b, j) times column c of W
  have hX3 : ∀ j : Fin 128,
      shapeCast Cert.KernelIdeal.S256x128x256 (Cert.Spec.mul xn W) Cert.KernelIdeal.Shapes1.Facts₀.shapeCasts_S32768x256_S256x128x256 (ix3 b j c)
        = ∑ l : Fin 256,
            shapeCast Cert.ReferenceIdeal.S256x128x256 xn Cert.ReferenceIdeal.Facts₀.shapeCasts_S32768x256_S256x128x256 (ix3 b j l) * W (ix2 l c) :=
    fun j => by
      have hq : b.val * 128 + j.val < 32768 := by have := b.isLt; have := j.isLt; omega
      refine (shapeCast_split_rows (Cert.Spec.mul xn W) Cert.KernelIdeal.Shapes1.Facts₀.shapeCasts_S32768x256_S256x128x256 b j c hq).trans ?_
      exact Finset.sum_congr rfl fun l _ =>
        congrArg (· * W (ix2 l c))
          (shapeCast_split_rows xn Cert.ReferenceIdeal.Facts₀.shapeCasts_S32768x256_S256x128x256 b j l hq).symm
  -- the kernel's entry
  have hR : shapeCast Cert.KernelIdeal.S65536x256
        (Cert.Spec.bmul A
          (shapeCast Cert.KernelIdeal.S256x128x256 (Cert.Spec.mul xn W) Cert.KernelIdeal.Shapes1.Facts₀.shapeCasts_S32768x256_S256x128x256))
        Cert.KernelIdeal.Shapes1.Facts₀.shapeCasts_S256x256x256_S65536x256 (ix2 p c)
      = ∑ j : Fin 128, A (ix3 b r j)
          * ∑ l : Fin 256,
              shapeCast Cert.ReferenceIdeal.S256x128x256 xn Cert.ReferenceIdeal.Facts₀.shapeCasts_S32768x256_S256x128x256 (ix3 b j l) * W (ix2 l c) :=
    (shapeCast_merge_rows _ Cert.KernelIdeal.Shapes1.Facts₀.shapeCasts_S256x256x256_S65536x256 b r c p hp).trans
      (Finset.sum_congr rfl fun j _ => congrArg (A (ix3 b r j) * ·) (hX3 j))
  rw [hL, hR]
  exact (Cert.Spec.bmul_mul_assoc A _ W hA hX hW b r c).symm

/-! ## (B3) The cell boundary

Both programs multiply, batch by batch, the cell incidence A_b (64 × 256) with the edge features X_b (256 × 256) and
then by the weight matrix W, in this order. The reference lays the 256 batched products out as one flat array of 16384
rows before the second product; the kernel computes (A_b · X_b) · W batch by batch and lays the result out flat. Entry
(b·64 + r, c) of either is  ∑ l, (A_b · X_b) (r, l) · W (l, c). -/

/-- The cell boundary message as a batch: entry (b, r, c) is the sum over l of (A_b · X_b) (r, l) · W (l, c). -/
def cellMsg (A : Cert.Spec.Mat3 256 64 256) (X3 : Cert.Spec.Mat3 256 256 256) (W : Cert.Spec.Mat 256 256) :
    Cert.Spec.Mat3 256 64 256 :=
  fun j => ∑ l : Fin 256, Cert.Spec.bmul A X3 (ix3 (j 0) (j 1) l) * W (ix2 l (j 2))

/-- (B3) The reference's cell boundary message at row b·64 + r and column c. -/
theorem cell_boundary_apply (A : (⟨Cert.ReferenceIdeal.S256x64x256, .f32⟩ : BufTy).Contents (Elt Ideal)) (X3 : (⟨Cert.ReferenceIdeal.S256x256x256, .f32⟩ : BufTy).Contents (Elt Ideal))
    (W : (⟨Cert.ReferenceIdeal.S256x256, .f32⟩ : BufTy).Contents (Elt Ideal)) (i : Cert.ReferenceIdeal.S16384x256.Idx) (b : Fin 256) (r : Fin 64)
    (hp : (i 0).val = b.val * 64 + r.val) :
    Host.dotGeneral (F := Ideal) (φ₁ := .f32) (φ₂ := .f32) Cert.ReferenceIdeal.dot_S16384x256_S256x256_S16384x256_1_0_0_1_n_n none
        (shapeCast Cert.ReferenceIdeal.S16384x256 (Host.dotGeneral (F := Ideal) (φ₁ := .f32) (φ₂ := .f32) Cert.ReferenceIdeal.dot_S256x64x256_S256x256x256_S256x64x256_2_1_1_2_0_0 none A X3)
          Cert.ReferenceIdeal.Facts₀.shapeCasts_S256x64x256_S16384x256)
        W i
      = ∑ l : Fin 256, Cert.Spec.bmul A X3 (ix3 b r l) * W (ix2 l (i 1)) := by
  rw [dotC3_eq_bmul, dotC2_eq_mul]
  obtain ⟨p, c, rfl⟩ : ∃ (p : Fin 16384) (c : Fin 256), i = ix2 p c := ⟨i 0, i 1, eq_ix2 i⟩
  exact Finset.sum_congr rfl fun l _ =>
    congrArg (· * W (ix2 l c)) (shapeCast_merge_rows _ Cert.ReferenceIdeal.Facts₀.shapeCasts_S256x64x256_S16384x256 b r l p hp)

/-- (B3) The reference's cell boundary message is the batch `cellMsg` laid out flat, as the kernel lays it out. -/
theorem cell_boundary (A : (⟨Cert.ReferenceIdeal.S256x64x256, .f32⟩ : BufTy).Contents (Elt Ideal)) (X3 : (⟨Cert.ReferenceIdeal.S256x256x256, .f32⟩ : BufTy).Contents (Elt Ideal))
    (W : (⟨Cert.ReferenceIdeal.S256x256, .f32⟩ : BufTy).Contents (Elt Ideal)) :
    Host.dotGeneral (F := Ideal) (φ₁ := .f32) (φ₂ := .f32) Cert.ReferenceIdeal.dot_S16384x256_S256x256_S16384x256_1_0_0_1_n_n none
        (shapeCast Cert.ReferenceIdeal.S16384x256 (Host.dotGeneral (F := Ideal) (φ₁ := .f32) (φ₂ := .f32) Cert.ReferenceIdeal.dot_S256x64x256_S256x256x256_S256x64x256_2_1_1_2_0_0 none A X3)
          Cert.ReferenceIdeal.Facts₀.shapeCasts_S256x64x256_S16384x256)
        W
      = shapeCast Cert.KernelIdeal.S16384x256 (cellMsg A X3 W) Cert.KernelIdeal.Shapes1.Facts₀.shapeCasts_S256x64x256_S16384x256 := by
  funext i
  obtain ⟨b, r, hp⟩ : ∃ (b : Fin 256) (r : Fin 64), (i 0).val = b.val * 64 + r.val :=
    ⟨⟨(i 0).val / 64, by have : (i 0).val < 16384 := (i 0).isLt; omega⟩, ⟨(i 0).val % 64, Nat.mod_lt _ (by decide)⟩, by
      show (i 0).val = (i 0).val / 64 * 64 + (i 0).val % 64
      omega⟩
  refine (cell_boundary_apply A X3 W i b r hp).trans ?_
  obtain ⟨p, c, rfl⟩ : ∃ (p : Fin 16384) (c : Fin 256), i = ix2 p c := ⟨i 0, i 1, eq_ix2 i⟩
  exact (shapeCast_merge_rows (cellMsg A X3 W) Cert.KernelIdeal.Shapes1.Facts₀.shapeCasts_S256x64x256_S16384x256 b r c p hp).symm

end Cert.Bridge

end
-- ==== Proof.KI.Layer0Bound.lean ====
/- The layer-0 boundary messages and the incidence arrays, stated over the reference's stage functions.

   The reference's stages are functions of its arguments: its two incidence arrays, its two boundary messages of the
   first layer. Each bridge of the boundary module is instantiated at these functions: the kernel's re-associated edge
   message and its batched cell message, laid out flat, are the reference's two messages; both messages are real for
   real arguments; and the kernel's incidence arrays, built from index arrays that the same integer operations
   compute, are the reference's. -/
import proofs.«101828_j11562051961417_2_alg».proof.KernelIdeal
import proofs.«101828_j11562051961417_2_alg».proof.ReferenceIdeal
import proofs.«101828_j11562051961417_2_alg».proof.Proof.Spec
import proofs.«101828_j11562051961417_2_alg».proof.Proof.Laws
import proofs.«101828_j11562051961417_2_alg».proof.Proof.RefRead
import proofs.«101828_j11562051961417_2_alg».proof.Proof.BridgeBound
import Idealize.ShloMosaic.Lib.Pipeline.Value
import Idealize.ShloMosaic.Lib.ValueIdx
import Idealize.ShloMosaic.Lib.IdealHost
import Idealize.ShloMosaic.PureOps.Ideal.Laws

noncomputable section

namespace Cert.Bridge

open Idealize.ShloMosaic Idealize.ShloMosaic.ValueIdx
open Cert.ReferenceIdeal.Read
open scoped BigOperators

variable [Cert.KernelIdeal.Facts₀] [Cert.ReferenceIdeal.Facts₀]

/-! ## The reference's incidence arrays are the incidence arrays of the boundary module, hence real -/

/-- The reference's edge incidence array is `incE` of its index array. -/
theorem val_main_v21_eq_incE (x11 x12 x13 : (⟨Cert.ReferenceIdeal.S131072, .i32⟩ : BufTy).Contents (Elt Ideal)) :
    val_main_v21 (F := Ideal) x11 x12 x13 = incE (val_main_v19 (F := Ideal) x11 x12 x13) :=
  reference_incE (val_main_v19 (F := Ideal) x11 x12 x13)

/-- The reference's edge incidence array is real. -/
theorem finite_val_main_v21 (x11 x12 x13 : (⟨Cert.ReferenceIdeal.S131072, .i32⟩ : BufTy).Contents (Elt Ideal)) :
    Cert.Spec.Finite (val_main_v21 (F := Ideal) x11 x12 x13) := by
  rw [val_main_v21_eq_incE]
  exact finite_incE _

/-- The reference's cell incidence array is `incC` of its index array. -/
theorem val_main_v43_eq_incC (x14 x15 x16 : (⟨Cert.ReferenceIdeal.S65536, .i32⟩ : BufTy).Contents (Elt Ideal)) :
    val_main_v43 (F := Ideal) x14 x15 x16 = incC (val_main_v41 (F := Ideal) x14 x15 x16) :=
  reference_incC (val_main_v41 (F := Ideal) x14 x15 x16)

/-- The reference's cell incidence array is real. -/
theorem finite_val_main_v43 (x14 x15 x16 : (⟨Cert.ReferenceIdeal.S65536, .i32⟩ : BufTy).Contents (Elt Ideal)) :
    Cert.Spec.Finite (val_main_v43 (F := Ideal) x14 x15 x16) := by
  rw [val_main_v43_eq_incC]
  exact finite_incC _

/-! ## The weight matrices of the first layer's boundary messages are real

Each is one 256 × 256 slab of the four-axis weight array, cut out and laid out as a matrix: every entry is an entry
of the weight array. -/

/-- The edge message's weight matrix. -/
theorem finite_val_main_v116 (x21 : (⟨Cert.ReferenceIdeal.S4x2x256x256, .f32⟩ : BufTy).Contents (Elt Ideal)) (h21 : Cert.Spec.Finite x21) :
    Cert.Spec.Finite (val_main_v116 (F := Ideal) x21) :=
  fun _ => h21 _

/-- The cell message's weight matrix. -/
theorem finite_val_main_v122 (x21 : (⟨Cert.ReferenceIdeal.S4x2x256x256, .f32⟩ : BufTy).Contents (Elt Ideal)) (h21 : Cert.Spec.Finite x21) :
    Cert.Spec.Finite (val_main_v122 (F := Ideal) x21) :=
  fun _ => h21 _

/-- The batch of edge features is the flat edge array reshaped: real when that is. -/
theorem finite_val_main_v118 (x1 : (⟨Cert.ReferenceIdeal.S65536x256, .f32⟩ : BufTy).Contents (Elt Ideal)) (h1 : Cert.Spec.Finite x1) :
    Cert.Spec.Finite (val_main_v118 (F := Ideal) x1) :=
  fun _ => h1 _

/-! ## (1), (2) The kernel's boundary messages of the first layer are the reference's -/

/-- The kernel's re-associated edge message A_b · (X · W)_b, laid out flat, is the reference's edge message
    ((A_b · X_b) laid out flat) · W, for real node features and weights. -/
theorem bd_e_layer0 (x0 : (⟨Cert.ReferenceIdeal.S32768x256, .f32⟩ : BufTy).Contents (Elt Ideal)) (x11 x12 x13 : (⟨Cert.ReferenceIdeal.S131072, .i32⟩ : BufTy).Contents (Elt Ideal))
    (x21 : (⟨Cert.ReferenceIdeal.S4x2x256x256, .f32⟩ : BufTy).Contents (Elt Ideal)) (h0 : Cert.Spec.Finite x0) (h21 : Cert.Spec.Finite x21) :
    shapeCast Cert.KernelIdeal.S65536x256
        (Cert.Spec.bmul (val_main_v21 (F := Ideal) x11 x12 x13 : Cert.Spec.Mat3 256 256 128)
          (shapeCast Cert.KernelIdeal.S256x128x256
            (Cert.Spec.mul (x0 : Cert.Spec.Mat 32768 256) (val_main_v116 (F := Ideal) x21 : Cert.Spec.Mat 256 256))
            Cert.KernelIdeal.Shapes1.Facts₀.shapeCasts_S32768x256_S256x128x256))
        Cert.KernelIdeal.Shapes1.Facts₀.shapeCasts_S256x256x256_S65536x256
      = val_main_v117 (F := Ideal) x0 x11 x12 x13 x21 :=
  (edge_boundary (val_main_v21 (F := Ideal) x11 x12 x13) x0 (val_main_v116 (F := Ideal) x21)
    (finite_val_main_v21 x11 x12 x13) h0 (finite_val_main_v116 x21 h21)).symm

/-- The kernel's batched cell message (A_b · X_b) · W, laid out flat, is the reference's cell message. -/
theorem bd_c_layer0 (x1 : (⟨Cert.ReferenceIdeal.S65536x256, .f32⟩ : BufTy).Contents (Elt Ideal)) (x14 x15 x16 : (⟨Cert.ReferenceIdeal.S65536, .i32⟩ : BufTy).Contents (Elt Ideal))
    (x21 : (⟨Cert.ReferenceIdeal.S4x2x256x256, .f32⟩ : BufTy).Contents (Elt Ideal)) :
    shapeCast Cert.KernelIdeal.S16384x256
        (cellMsg (val_main_v43 (F := Ideal) x14 x15 x16) (val_main_v118 (F := Ideal) x1)
          (val_main_v122 (F := Ideal) x21))
        Cert.KernelIdeal.Shapes1.Facts₀.shapeCasts_S256x64x256_S16384x256
      = val_main_v123 (F := Ideal) x1 x14 x15 x16 x21 :=
  (cell_boundary (val_main_v43 (F := Ideal) x14 x15 x16) (val_main_v118 (F := Ideal) x1)
    (val_main_v122 (F := Ideal) x21)).symm

/-! ## (3) Both messages are real

Each is a reshape of a batch whose entries are finite sums of products of real entries. -/

/-- The batch `cellMsg` is real for real operands. -/
theorem finite_cellMsg {A : Cert.Spec.Mat3 256 64 256} {X3 : Cert.Spec.Mat3 256 256 256} {W : Cert.Spec.Mat 256 256}
    (hA : Cert.Spec.Finite A) (hX : Cert.Spec.Finite X3) (hW : Cert.Spec.Finite W) :
    Cert.Spec.Finite (cellMsg A X3 W) :=
  fun _ => Cert.Spec.sum_ne_top_bot _ _ fun _ =>
    Cert.Spec.mul_ne_top_bot (Cert.Spec.finite_bmul hA hX _) (hW _)

/-- The reference's edge message of the first layer is real. -/
theorem finite_bd_e_layer0 (x0 : (⟨Cert.ReferenceIdeal.S32768x256, .f32⟩ : BufTy).Contents (Elt Ideal)) (x11 x12 x13 : (⟨Cert.ReferenceIdeal.S131072, .i32⟩ : BufTy).Contents (Elt Ideal))
    (x21 : (⟨Cert.ReferenceIdeal.S4x2x256x256, .f32⟩ : BufTy).Contents (Elt Ideal)) (h0 : Cert.Spec.Finite x0) (h21 : Cert.Spec.Finite x21) :
    Cert.Spec.Finite (val_main_v117 (F := Ideal) x0 x11 x12 x13 x21) := by
  rw [← bd_e_layer0 x0 x11 x12 x13 x21 h0 h21]
  exact finite_shapeCast
    (Cert.Spec.finite_bmul (finite_val_main_v21 x11 x12 x13)
      (finite_shapeCast (Cert.Spec.finite_mul h0 (finite_val_main_v116 x21 h21)) _)) _

/-- The reference's cell message of the first layer is real. -/
theorem finite_bd_c_layer0 (x1 : (⟨Cert.ReferenceIdeal.S65536x256, .f32⟩ : BufTy).Contents (Elt Ideal)) (x14 x15 x16 : (⟨Cert.ReferenceIdeal.S65536, .i32⟩ : BufTy).Contents (Elt Ideal))
    (x21 : (⟨Cert.ReferenceIdeal.S4x2x256x256, .f32⟩ : BufTy).Contents (Elt Ideal)) (h1 : Cert.Spec.Finite x1) (h21 : Cert.Spec.Finite x21) :
    Cert.Spec.Finite (val_main_v123 (F := Ideal) x1 x14 x15 x16 x21) := by
  rw [← bd_c_layer0 x1 x14 x15 x16 x21]
  exact finite_shapeCast
    (finite_cellMsg (finite_val_main_v43 x14 x15 x16) (finite_val_main_v118 x1 h1) (finite_val_main_v122 x21 h21)) _

/-! ## (4) The kernel's incidence arrays against the reference's -/

/-- The kernel's edge incidence array, built from the kernel's own index array (each index column with negative
    entries wrapped around by the axis length, the three columns joined), is the reference's: the index arrays are
    built by the same integer operations, and the arrays are equal for one index array. -/
theorem inc_e_layer0 (x11 x12 x13 : (⟨Cert.ReferenceIdeal.S131072, .i32⟩ : BufTy).Contents (Elt Ideal)) :
    Host.scatter Cert.KernelIdeal.scatter_S256x256x128_S131072x3_S131072_n_012_012_1 (fun _ b => b)
        (broadcastInDim Cert.KernelIdeal.S256x256x128 ![] Cert.KernelIdeal.Shapes1.Facts₀.bcast_S_S256x256x128 (constant (F := Ideal) Cert.KernelIdeal.S_ .bf16 0x0000#16))
        (concatenate Cert.KernelIdeal.S131072x3 1
          [⟨Cert.KernelIdeal.S131072x1, (broadcastInDim Cert.KernelIdeal.S131072x1 ![0] Cert.KernelIdeal.Shapes1.Facts₀.bcast_S131072_S131072x1_0
            (select (cmpi .slt x11 (broadcastInDim Cert.KernelIdeal.S131072 ![] Cert.KernelIdeal.Shapes1.Facts₀.bcast_S_S131072 (constantI Cert.KernelIdeal.S_ 32 0#32)))
              (addi x11 (broadcastInDim Cert.KernelIdeal.S131072 ![] Cert.KernelIdeal.Shapes1.Facts₀.bcast_S_S131072 (constantI Cert.KernelIdeal.S_ 32 256#32))) x11))⟩,
           ⟨Cert.KernelIdeal.S131072x1, (broadcastInDim Cert.KernelIdeal.S131072x1 ![0] Cert.KernelIdeal.Shapes1.Facts₀.bcast_S131072_S131072x1_0
            (select (cmpi .slt x12 (broadcastInDim Cert.KernelIdeal.S131072 ![] Cert.KernelIdeal.Shapes1.Facts₀.bcast_S_S131072 (constantI Cert.KernelIdeal.S_ 32 0#32)))
              (addi x12 (broadcastInDim Cert.KernelIdeal.S131072 ![] Cert.KernelIdeal.Shapes1.Facts₀.bcast_S_S131072 (constantI Cert.KernelIdeal.S_ 32 256#32))) x12))⟩,
           ⟨Cert.KernelIdeal.S131072x1, (broadcastInDim Cert.KernelIdeal.S131072x1 ![0] Cert.KernelIdeal.Shapes1.Facts₀.bcast_S131072_S131072x1_0
            (select (cmpi .slt x13 (broadcastInDim Cert.KernelIdeal.S131072 ![] Cert.KernelIdeal.Shapes1.Facts₀.bcast_S_S131072 (constantI Cert.KernelIdeal.S_ 32 0#32)))
              (addi x13 (broadcastInDim Cert.KernelIdeal.S131072 ![] Cert.KernelIdeal.Shapes1.Facts₀.bcast_S_S131072 (constantI Cert.KernelIdeal.S_ 32 128#32))) x13))⟩]
          Cert.KernelIdeal.Shapes1.Facts₀.concatenates_S131072x1_S131072x1_S131072x1_S131072x3_d1)
        (broadcastInDim Cert.KernelIdeal.S131072 ![] Cert.KernelIdeal.Shapes1.Facts₀.bcast_S_S131072 (constant (F := Ideal) Cert.KernelIdeal.S_ .bf16 0x3F80#16))
      = val_main_v21 (F := Ideal) x11 x12 x13 :=
  (incidence_e_eq _).trans rfl

/-- The kernel's cell incidence array, built from the kernel's own index array (each index column with negative
    entries wrapped around by the axis length, the three columns joined), is the reference's: the index arrays are
    built by the same integer operations, and the arrays are equal for one index array. -/
theorem inc_c_layer0 (x14 x15 x16 : (⟨Cert.ReferenceIdeal.S65536, .i32⟩ : BufTy).Contents (Elt Ideal)) :
    Host.scatter Cert.KernelIdeal.scatter_S256x64x256_S65536x3_S65536_n_012_012_1 (fun _ b => b)
        (broadcastInDim Cert.KernelIdeal.S256x64x256 ![] Cert.KernelIdeal.Shapes1.Facts₀.bcast_S_S256x64x256 (constant (F := Ideal) Cert.KernelIdeal.S_ .bf16 0x0000#16))
        (concatenate Cert.KernelIdeal.S65536x3 1
          [⟨Cert.KernelIdeal.S65536x1, (broadcastInDim Cert.KernelIdeal.S65536x1 ![0] Cert.KernelIdeal.Shapes1.Facts₀.bcast_S65536_S65536x1_0
            (select (cmpi .slt x14 (broadcastInDim Cert.KernelIdeal.S65536 ![] Cert.KernelIdeal.Shapes1.Facts₀.bcast_S_S65536 (constantI Cert.KernelIdeal.S_ 32 0#32)))
              (addi x14 (broadcastInDim Cert.KernelIdeal.S65536 ![] Cert.KernelIdeal.Shapes1.Facts₀.bcast_S_S65536 (constantI Cert.KernelIdeal.S_ 32 256#32))) x14))⟩,
           ⟨Cert.KernelIdeal.S65536x1, (broadcastInDim Cert.KernelIdeal.S65536x1 ![0] Cert.KernelIdeal.Shapes1.Facts₀.bcast_S65536_S65536x1_0
            (select (cmpi .slt x15 (broadcastInDim Cert.KernelIdeal.S65536 ![] Cert.KernelIdeal.Shapes1.Facts₀.bcast_S_S65536 (constantI Cert.KernelIdeal.S_ 32 0#32)))
              (addi x15 (broadcastInDim Cert.KernelIdeal.S65536 ![] Cert.KernelIdeal.Shapes1.Facts₀.bcast_S_S65536 (constantI Cert.KernelIdeal.S_ 32 64#32))) x15))⟩,
           ⟨Cert.KernelIdeal.S65536x1, (broadcastInDim Cert.KernelIdeal.S65536x1 ![0] Cert.KernelIdeal.Shapes1.Facts₀.bcast_S65536_S65536x1_0
            (select (cmpi .slt x16 (broadcastInDim Cert.KernelIdeal.S65536 ![] Cert.KernelIdeal.Shapes1.Facts₀.bcast_S_S65536 (constantI Cert.KernelIdeal.S_ 32 0#32)))
              (addi x16 (broadcastInDim Cert.KernelIdeal.S65536 ![] Cert.KernelIdeal.Shapes1.Facts₀.bcast_S_S65536 (constantI Cert.KernelIdeal.S_ 32 256#32))) x16))⟩]
          Cert.KernelIdeal.Shapes1.Facts₀.concatenates_S65536x1_S65536x1_S65536x1_S65536x3_d1)
        (broadcastInDim Cert.KernelIdeal.S65536 ![] Cert.KernelIdeal.Shapes1.Facts₀.bcast_S_S65536 (constant (F := Ideal) Cert.KernelIdeal.S_ .bf16 0x3F80#16))
      = val_main_v43 (F := Ideal) x14 x15 x16 :=
  (incidence_c_eq _).trans rfl

end Cert.Bridge

end
-- ==== Proof.BridgeMsg.lean ====
/- The up-messages of one layer, as identities between functions of whole arrays.

   One program multiplies by the weight first and takes rows afterwards; the other takes rows first and multiplies
   afterwards. A row gather read at an index is a row of its operand: entry (r, c) of the result is entry
   (t r, c) of the operand, where t r is the r-th start index read as a signed integer and clamped into the operand's
   rows. A product on the right read at an index is the sum over the contraction index. Row r of X · W is row r of X
   times W, so the two orders agree entry by entry, with no condition on the entries. The sum of two such gathered
   products and the rectifier on top are the same operations on both sides. -/
import Idealize.ShloMosaic.PureOps.Ideal
import Idealize.ShloMosaic.PureOps.Ideal.Laws
import Idealize.ShloMosaic.Lib.ValueIdx
import proofs.«101828_j11562051961417_2_alg».proof.KernelIdeal
import proofs.«101828_j11562051961417_2_alg».proof.ReferenceIdeal
import proofs.«101828_j11562051961417_2_alg».proof.Proof.Spec
import proofs.«101828_j11562051961417_2_alg».proof.Proof.Laws

noncomputable section

namespace Cert.Bridge

open Idealize.ShloMosaic Idealize.ShloMosaic.ValueIdx
open scoped BigOperators

/-! ## A row gather read at an index -/

/-- Row r of a one-column table of row numbers. -/
abbrev col0 {p : Nat} (r : Fin p) : (⟨2, ![p, 1]⟩ : Shape).Idx := ix2 r (0 : Fin 1)

/-- The row a start index names: the index word read as a signed integer and clamped into the operand's N rows
    (a negative number names row 0, a number past the end names the last row). -/
def clampRow {N p w : Nat} (hN : 0 < N) (idx : IVec ⟨2, ![p, 1]⟩ w) (r : Fin p) : Fin N :=
  ⟨min (idx (col0 r)).toInt.toNat (N - 1), by omega⟩

/-- An entry of a one-element list is its element. -/
theorem getElem_of_eq_singleton {β : Type} (l : List β) (i : Nat) (hi : i < l.length) (c : β) (hl : l = [c]) :
    l[i]'hi = c := by
  subst hl
  have h0 : i = 0 := by simpa using hi
  subst h0; rfl

/-- Two positions of an index that are the same number read the same coordinate. -/
theorem coord_congr {s : Shape} (j : s.Idx) (a b : Nat) (ha : a < s.rank) (hb : b < s.rank) (hab : a = b) :
    (j ⟨a, ha⟩).val = (j ⟨b, hb⟩).val := by
  subst hab; rfl

/-- THE ROW GATHER READ AT (r, c). For an operand of N rows of width h, a column of p start indices and the dimension
    numbers of taking whole rows (axis 0 collapsed and start-indexed, axis 1 the one offset axis, no batching axes, the
    index vector on axis 1), entry (r, c) of the result is entry (t r, c) of the operand, t r the clamped start index.
    On axis 0 the operand index is the clamped start alone (no batching or offset coordinate there); on axis 1 it is
    the offset coordinate alone, which is the result's column. -/
theorem gather_rows_apply {α : Type} {N p h w : Nat} (d : GatherDims ⟨2, ![N, h]⟩ ⟨2, ![p, 1]⟩ ⟨2, ![p, h]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, h]⟩ : Shape).Idx → α) (idx : IVec ⟨2, ![p, 1]⟩ w) (j : (⟨2, ![p, h]⟩ : Shape).Idx) :
    Host.gather d x idx j = x (ix2 (clampRow hN idx (j 0)) (j 1)) := by
  have hb : ∀ a, a ∉ d.operandBatchingDims := fun a => by rw [hob]; exact List.not_mem_nil
  have h0 : (d.operandIdx j idx 0).val = (clampRow hN idx (j 0)).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 0) = min (idx (col0 (j 0))).toInt.toNat (N - 1)
    rw [hsl]
    congr 3
    congr 1
    funext b
    match b with
    | ⟨0, _⟩ =>
      -- the start indices' row: the result's one batch axis is axis 0
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      exact congrArg (fun q => (j q).val) (getElem_of_eq_singleton d.batchDims _ _ 0 hbd)
    | ⟨1, _⟩ =>
      -- the index vector's axis: the one component of the start index
      unfold GatherDims.siIdx
      rw [dif_pos (by rw [hivd])]
      apply Fin.ext
      show List.idxOf (0 : Fin 2) d.startIndexMap = 0
      rw [hsim]; simp
  have h1 : (d.operandIdx j idx 1).val = (j 1).val := by
    have hm : (1 : Fin 2) ∉ d.startIndexMap := by rw [hsim]; simp
    have hk : (1 : Fin 2) ∈ d.sKept := by rw [GatherDims.mem_sKept, hcoll, hob]; simp
    simp only [GatherDims.operandIdx, GatherDims.batchCoord_eq_zero _ _ _ (hb _), GatherDims.start, dif_neg hm,
      Nat.add_zero, Nat.zero_add]
    unfold GatherDims.offCoord
    rw [dif_pos hk]
    exact congrArg (fun q => (j q).val) (getElem_of_eq_singleton d.offsetDims _ _ 1 hoff)
  unfold Host.gather
  congr 1
  funext a
  apply Fin.ext
  match a with
  | ⟨0, _⟩ => exact h0
  | ⟨1, _⟩ => exact h1

/-- The row gather as a function of whole arrays: the rows of the operand taken by the clamped row numbers. -/
theorem gather_rows {N p h w : Nat} (d : GatherDims ⟨2, ![N, h]⟩ ⟨2, ![p, 1]⟩ ⟨2, ![p, h]⟩)
    (hoff : d.offsetDims = [1]) (hcoll : d.collapsedSliceDims = [0]) (hob : d.operandBatchingDims = [])
    (hsim : d.startIndexMap = [0]) (hivd : d.indexVectorDim = 1) (hN : 0 < N)
    (X : Cert.Spec.Mat N h) (idx : IVec ⟨2, ![p, 1]⟩ w) :
    Host.gather d X idx = Cert.Spec.rows X (clampRow hN idx) := by
  funext j
  rw [gather_rows_apply d hoff hcoll hob hsim hivd hN]
  rfl

/-! ## A product on the right read at an index -/

/-- A [p × k] by [k × h] contraction (axis 1 of the left operand against axis 0 of the right, no batching axes) of
    extended reals is the product X · W: entry (r, c) is the sum over q of A (r, q) · W (q, c). The contraction index
    has one axis of extent k and is re-indexed by its coordinate; the left operand is read at (r, q), the right at
    (q, c). -/
theorem dotGeneral_eq_mul {p k h : Nat} {φ₁ φ₂ : FTy} (D : DotDims ⟨2, ![p, k]⟩ ⟨2, ![k, h]⟩ ⟨2, ![p, h]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (A : FVec Ideal ⟨2, ![p, k]⟩ φ₁) (W : FVec Ideal ⟨2, ![k, h]⟩ φ₂) :
    Host.dotGeneral D prec A W = Cert.Spec.mul A W := by
  funext j
  simp only [Host.dotGeneral]
  have hr : D.contr.rank = 1 := by rw [D.rank_contr, hlc]; rfl
  have hs : D.contr.size ⟨0, by omega⟩ = k := by
    rw [D.size_contr 0 (by rw [hlc]; exact Nat.one_pos), getElem_of_eq_singleton D.lhsContracting 0 _ 1 hlc]
    rfl
  rw [Ideal.dotGeneral_apply, ← Equiv.sum_comp (contrEquiv1 D k hr hs).symm]
  refine Finset.sum_congr rfl fun q _ => ?_
  have hq := contrEquiv1_symm_val D k hr hs q
  have l0 : ∀ c : D.contr.Idx, (D.lhsIdx j c 0).val = (j 0).val := fun c => by
    unfold DotDims.lhsIdx
    rw [dif_neg (by rw [hlb]; exact List.not_mem_nil), dif_pos (by rw [hln]; exact List.mem_singleton.mpr rfl)]
    simp only [Fin.val_cast]
    exact coord_congr j _ _ _ _ (by simp [hlb, hln])
  have r1 : ∀ c : D.contr.Idx, (D.rhsIdx j c 1).val = (j 1).val := fun c => by
    unfold DotDims.rhsIdx
    rw [dif_neg (by rw [hrb]; exact List.not_mem_nil), dif_pos (by rw [hrn]; exact List.mem_singleton.mpr rfl)]
    simp only [Fin.val_cast]
    exact coord_congr j _ _ _ _ (by simp [hlb, hln, hrn])
  have el : D.lhsIdx j ((contrEquiv1 D k hr hs).symm q) = ix2 (j 0) q := funext fun a => Fin.ext (by
    match a with
    | ⟨0, _⟩ => exact l0 _
    | ⟨1, _⟩ => exact (D.lhsIdx_val_of_single hlc j _).trans hq)
  have er : D.rhsIdx j ((contrEquiv1 D k hr hs).symm q) = ix2 q (j 1) := funext fun a => Fin.ext (by
    match a with
    | ⟨0, _⟩ => exact (D.rhsIdx_val_of_single hrc j _).trans hq
    | ⟨1, _⟩ => exact r1 _)
  rw [el, er]
  rfl

/-! ## Rows of a product: gather after the product is the product after the gather -/

/-- The dimension numbers of taking whole rows by a column of row numbers. -/
def IsRowGather {N p h : Nat} (d : GatherDims ⟨2, ![N, h]⟩ ⟨2, ![p, 1]⟩ ⟨2, ![p, h]⟩) : Prop :=
  d.offsetDims = [1] ∧ d.collapsedSliceDims = [0] ∧ d.operandBatchingDims = [] ∧ d.startIndexMap = [0] ∧
    d.indexVectorDim = 1

/-- The dimension numbers of a plain [p × k] by [k × h] product. -/
def IsPlainDot {p k h : Nat} (D : DotDims ⟨2, ![p, k]⟩ ⟨2, ![k, h]⟩ ⟨2, ![p, h]⟩) : Prop :=
  D.lhsContracting = [1] ∧ D.rhsContracting = [0] ∧ D.lhsNonContracting = [0] ∧ D.rhsNonContracting = [1] ∧
    D.lhsBatch = [] ∧ D.rhsBatch = []

/-- Rows of X · W taken by a column of row numbers are the rows of X taken by the same column, times W: both sides'
    entry (r, c) is the sum over q of X (t r, q) · W (q, c), t r the clamped r-th row number. The same clamp applies
    on both sides because X · W and X have the same number of rows. -/
theorem gather_mul {N p k h w : Nat}
    (d₁ : GatherDims ⟨2, ![N, h]⟩ ⟨2, ![p, 1]⟩ ⟨2, ![p, h]⟩) (d₂ : GatherDims ⟨2, ![N, k]⟩ ⟨2, ![p, 1]⟩ ⟨2, ![p, k]⟩)
    (D : DotDims ⟨2, ![p, k]⟩ ⟨2, ![k, h]⟩ ⟨2, ![p, h]⟩)
    (h₁ : IsRowGather d₁) (h₂ : IsRowGather d₂) (hD : IsPlainDot D) (hN : 0 < N) (prec : Option ContractPrecision)
    (X : Cert.Spec.Mat N k) (W : Cert.Spec.Mat k h) (idx : IVec ⟨2, ![p, 1]⟩ w) :
    Host.gather d₁ (Cert.Spec.mul X W) idx
      = Host.dotGeneral (F := Ideal) (φ₁ := .f32) (φ₂ := .f32) D prec (Host.gather d₂ X idx) W := by
  rw [gather_rows d₁ h₁.1 h₁.2.1 h₁.2.2.1 h₁.2.2.2.1 h₁.2.2.2.2 hN,
    gather_rows d₂ h₂.1 h₂.2.1 h₂.2.2.1 h₂.2.2.2.1 h₂.2.2.2.2 hN,
    dotGeneral_eq_mul D hD.1 hD.2.1 hD.2.2.1 hD.2.2.2.1 hD.2.2.2.2.1 hD.2.2.2.2.2, Cert.Spec.rows_mul]

/-! ## The four row gathers of the two programs

Each program names its own dimension-number records; the two programs' records have the same fields. The left side
is spelt with the records of the program that multiplies first, the right side with those of the program that gathers
first. -/

section Printed

variable [Cert.KernelIdeal.Facts₀] [Cert.ReferenceIdeal.Facts₀]

/-- Node rows at the sender of each node message: 131072 rows taken out of 32768. -/
theorem gather_mul_32768_131072 (X : Cert.Spec.Mat 32768 256) (W : Cert.Spec.Mat 256 256)
    (idx : IVec ⟨2, ![131072, 1]⟩ 32) :
    Host.gather Cert.KernelIdeal.gather_S32768x256_S131072x1_S131072x256_1_0_n_n_0_1_1256 (Cert.Spec.mul X W) idx
      = Host.dotGeneral (F := Ideal) (φ₁ := .f32) (φ₂ := .f32)
          Cert.ReferenceIdeal.dot_S131072x256_S256x256_S131072x256_1_0_0_1_n_n none
          (Host.gather Cert.ReferenceIdeal.gather_S32768x256_S131072x1_S131072x256_1_0_n_n_0_1_1256 X idx) W :=
  gather_mul _ _ _ ⟨rfl, rfl, rfl, rfl, rfl⟩ ⟨rfl, rfl, rfl, rfl, rfl⟩ ⟨rfl, rfl, rfl, rfl, rfl, rfl⟩ (by decide) none X W idx

/-- Edge rows at the edge each node message travels along: 131072 rows taken out of 65536. -/
theorem gather_mul_65536_131072 (X : Cert.Spec.Mat 65536 256) (W : Cert.Spec.Mat 256 256)
    (idx : IVec ⟨2, ![131072, 1]⟩ 32) :
    Host.gather Cert.KernelIdeal.gather_S65536x256_S131072x1_S131072x256_1_0_n_n_0_1_1256 (Cert.Spec.mul X W) idx
      = Host.dotGeneral (F := Ideal) (φ₁ := .f32) (φ₂ := .f32)
          Cert.ReferenceIdeal.dot_S131072x256_S256x256_S131072x256_1_0_0_1_n_n none
          (Host.gather Cert.ReferenceIdeal.gather_S65536x256_S131072x1_S131072x256_1_0_n_n_0_1_1256 X idx) W :=
  gather_mul _ _ _ ⟨rfl, rfl, rfl, rfl, rfl⟩ ⟨rfl, rfl, rfl, rfl, rfl⟩ ⟨rfl, rfl, rfl, rfl, rfl, rfl⟩ (by decide) none X W idx

/-- Edge rows at the sender of each edge message: 98304 rows taken out of 65536. -/
theorem gather_mul_65536_98304 (X : Cert.Spec.Mat 65536 256) (W : Cert.Spec.Mat 256 256)
    (idx : IVec ⟨2, ![98304, 1]⟩ 32) :
    Host.gather Cert.KernelIdeal.gather_S65536x256_S98304x1_S98304x256_1_0_n_n_0_1_1256 (Cert.Spec.mul X W) idx
      = Host.dotGeneral (F := Ideal) (φ₁ := .f32) (φ₂ := .f32)
          Cert.ReferenceIdeal.dot_S98304x256_S256x256_S98304x256_1_0_0_1_n_n none
          (Host.gather Cert.ReferenceIdeal.gather_S65536x256_S98304x1_S98304x256_1_0_n_n_0_1_1256 X idx) W :=
  gather_mul _ _ _ ⟨rfl, rfl, rfl, rfl, rfl⟩ ⟨rfl, rfl, rfl, rfl, rfl⟩ ⟨rfl, rfl, rfl, rfl, rfl, rfl⟩ (by decide) none X W idx

/-- Cell rows at the cell each edge message travels along: 98304 rows taken out of 16384. -/
theorem gather_mul_16384_98304 (X : Cert.Spec.Mat 16384 256) (W : Cert.Spec.Mat 256 256)
    (idx : IVec ⟨2, ![98304, 1]⟩ 32) :
    Host.gather Cert.KernelIdeal.gather_S16384x256_S98304x1_S98304x256_1_0_n_n_0_1_1256 (Cert.Spec.mul X W) idx
      = Host.dotGeneral (F := Ideal) (φ₁ := .f32) (φ₂ := .f32)
          Cert.ReferenceIdeal.dot_S98304x256_S256x256_S98304x256_1_0_0_1_n_n none
          (Host.gather Cert.ReferenceIdeal.gather_S16384x256_S98304x1_S98304x256_1_0_n_n_0_1_1256 X idx) W :=
  gather_mul _ _ _ ⟨rfl, rfl, rfl, rfl, rfl⟩ ⟨rfl, rfl, rfl, rfl, rfl⟩ ⟨rfl, rfl, rfl, rfl, rfl, rfl⟩ (by decide) none X W idx

/-! ## The message arrays

A message is the rectifier of the sum of two gathered products; the sum and the rectifier (the larger of the entry and
a broadcast zero) are spelt the same way on both sides, so the two identities above carry over. -/

/-- The node messages: rectifier of (X · Wx at rows j) + (Y · Wa at rows a), 131072 messages, equals rectifier of (rows j of X) · Wx + (rows a of Y) · Wa. -/
theorem msg_131072 (X : Cert.Spec.Mat 32768 256) (Y : Cert.Spec.Mat 65536 256) (Wx Wa : Cert.Spec.Mat 256 256)
    (j a : IVec ⟨2, ![131072, 1]⟩ 32) :
    maximumf (F := Ideal) (φ := .f32)
        (addf (Host.gather Cert.KernelIdeal.gather_S32768x256_S131072x1_S131072x256_1_0_n_n_0_1_1256 (Cert.Spec.mul X Wx) j)
          (Host.gather Cert.KernelIdeal.gather_S65536x256_S131072x1_S131072x256_1_0_n_n_0_1_1256 (Cert.Spec.mul Y Wa) a))
        (broadcastInDim Cert.KernelIdeal.S131072x256 ![] Cert.KernelIdeal.Shapes1.Facts₀.bcast_S_S131072x256
          (constant Cert.KernelIdeal.S_ .f32 0x00000000#32))
      = maximumf (F := Ideal) (φ := .f32)
        (addf
          (Host.dotGeneral (φ₁ := .f32) (φ₂ := .f32) Cert.ReferenceIdeal.dot_S131072x256_S256x256_S131072x256_1_0_0_1_n_n none
            (Host.gather Cert.ReferenceIdeal.gather_S32768x256_S131072x1_S131072x256_1_0_n_n_0_1_1256 X j) Wx)
          (Host.dotGeneral (φ₁ := .f32) (φ₂ := .f32) Cert.ReferenceIdeal.dot_S131072x256_S256x256_S131072x256_1_0_0_1_n_n none
            (Host.gather Cert.ReferenceIdeal.gather_S65536x256_S131072x1_S131072x256_1_0_n_n_0_1_1256 Y a) Wa))
        (broadcastInDim Cert.ReferenceIdeal.S131072x256 ![] Cert.ReferenceIdeal.Facts₀.bcast_S_S131072x256
          (constant Cert.ReferenceIdeal.S_ .f32 0x00000000#32)) := by
  rw [gather_mul_32768_131072, gather_mul_65536_131072]

/-- The edge messages, 98304 of them, the same way. -/
theorem msg_98304 (X : Cert.Spec.Mat 65536 256) (Y : Cert.Spec.Mat 16384 256) (Wx Wa : Cert.Spec.Mat 256 256)
    (j a : IVec ⟨2, ![98304, 1]⟩ 32) :
    maximumf (F := Ideal) (φ := .f32)
        (addf (Host.gather Cert.KernelIdeal.gather_S65536x256_S98304x1_S98304x256_1_0_n_n_0_1_1256 (Cert.Spec.mul X Wx) j)
          (Host.gather Cert.KernelIdeal.gather_S16384x256_S98304x1_S98304x256_1_0_n_n_0_1_1256 (Cert.Spec.mul Y Wa) a))
        (broadcastInDim Cert.KernelIdeal.S98304x256 ![] Cert.KernelIdeal.Shapes1.Facts₀.bcast_S_S98304x256
          (constant Cert.KernelIdeal.S_ .f32 0x00000000#32))
      = maximumf (F := Ideal) (φ := .f32)
        (addf
          (Host.dotGeneral (φ₁ := .f32) (φ₂ := .f32) Cert.ReferenceIdeal.dot_S98304x256_S256x256_S98304x256_1_0_0_1_n_n none
            (Host.gather Cert.ReferenceIdeal.gather_S65536x256_S98304x1_S98304x256_1_0_n_n_0_1_1256 X j) Wx)
          (Host.dotGeneral (φ₁ := .f32) (φ₂ := .f32) Cert.ReferenceIdeal.dot_S98304x256_S256x256_S98304x256_1_0_0_1_n_n none
            (Host.gather Cert.ReferenceIdeal.gather_S16384x256_S98304x1_S98304x256_1_0_n_n_0_1_1256 Y a) Wa))
        (broadcastInDim Cert.ReferenceIdeal.S98304x256 ![] Cert.ReferenceIdeal.Facts₀.bcast_S_S98304x256
          (constant Cert.ReferenceIdeal.S_ .f32 0x00000000#32)) := by
  rw [gather_mul_65536_98304, gather_mul_16384_98304]

end Printed

end Cert.Bridge

end
-- ==== Proof.KI.Layer0Self.lean ====
/- Layer 0 on the host, as identities between functions of whole arrays: the two sums of messages per receiver and the
   three updates, each spelt once over the products taken first (the shared vocabulary's X · W) and once as the
   operations that gather first and contract afterwards.

   The messages agree as whole arrays (rows of a product are the product of the rows), so their sums per receiver
   agree: the array summed into, the column of receivers and the sum's dimension numbers are the same on both sides.
   An update is the rectifier of a product plus a bias row plus the summed messages: the contraction read at an index
   is the product's sum, both spellings of the bias row read the same entry of the bias stack, and the rectifier is the
   larger of the entry and zero. -/
import Idealize.ShloMosaic.PureOps.Ideal
import Idealize.ShloMosaic.PureOps.Ideal.Laws
import Idealize.ShloMosaic.Lib.ValueIdx
import Idealize.ShloMosaic.Lib.Pipeline.Value
import proofs.«101828_j11562051961417_2_alg».proof.KernelIdeal
import proofs.«101828_j11562051961417_2_alg».proof.ReferenceIdeal
import proofs.«101828_j11562051961417_2_alg».proof.Proof.Gen.KernelIdeal
import proofs.«101828_j11562051961417_2_alg».proof.Proof.RefRead
import proofs.«101828_j11562051961417_2_alg».proof.Proof.Spec
import proofs.«101828_j11562051961417_2_alg».proof.Proof.Laws
import proofs.«101828_j11562051961417_2_alg».proof.Proof.BridgeMsg

noncomputable section

namespace Cert.Bridge

open Idealize.ShloMosaic Idealize.ShloMosaic.ValueIdx
open Cert.ReferenceIdeal.Read
open scoped BigOperators

/-! ## The bias row of one layer and slot, read at a column -/

/-- Slot o of layer l of a [4 × 3 × 256] stack of bias rows, cut out as a [1 × 1 × 256] block, flattened to 256 entries,
    laid as one row and repeated down n rows: entry (r, c) is entry (l, o, c) of the stack, whatever the row r. -/
theorem bias_rows_apply {α : Type} {n l o : Nat} (hl : l < 4) (ho : o < 3) (x : (⟨3, ![4, 3, 256]⟩ : Shape).Idx → α)
    (hs : (⟨3, ![4, 3, 256]⟩ : Shape).Slices ![l, o, 0] ⟨3, ![1, 1, 256]⟩)
    (hc : (⟨3, ![1, 1, 256]⟩ : Shape).ShapeCasts ⟨1, ![256]⟩)
    (hb₁ : (⟨1, ![256]⟩ : Shape).BroadcastsInDim ⟨2, ![1, 256]⟩ (![1] : Fin 1 → Fin 2))
    (hb₂ : (⟨2, ![1, 256]⟩ : Shape).BroadcastsInDim ⟨2, ![n, 256]⟩ (![0, 1] : Fin 2 → Fin 2))
    (i : (⟨2, ![n, 256]⟩ : Shape).Idx) :
    broadcastInDim ⟨2, ![n, 256]⟩ ![0, 1] hb₂ (broadcastInDim ⟨2, ![1, 256]⟩ ![1] hb₁
      (shapeCast ⟨1, ![256]⟩ (extractStridedSlice ⟨3, ![1, 1, 256]⟩ ![l, o, 0] x hs) hc)) i
      = x (ix3 (⟨l, hl⟩ : Fin 4) (⟨o, ho⟩ : Fin 3) (i 1)) := by
  rw [broadcastInDim_apply _ hb₂ _ i (ix2 (0 : Fin 1) (i 1)) (fun a => match a with
      | ⟨0, _⟩ => by show 0 = if (1 : Nat) = 1 then 0 else (i 0).val; rw [if_pos rfl]
      | ⟨1, _⟩ => by show (i 1).val = if (256 : Nat) = 1 then 0 else (i 1).val; rw [if_neg (by decide)]),
    broadcastInDim_apply _ hb₁ _ (ix2 (0 : Fin 1) (i 1)) (ix1 (i 1)) (fun a => match a with
      | ⟨0, _⟩ => by show (i 1).val = if (256 : Nat) = 1 then 0 else (i 1).val; rw [if_neg (by decide)]),
    shapeCast_apply _ hc (ix1 (i 1)) (ix3 (0 : Fin 1) (0 : Fin 1) (i 1)) (by
      rewrite [Shape.rowMajor_val_three, Shape.rowMajor_val_one]
      show (0 * 1 + 0) * 256 + (i 1).val = (i 1).val
      omega),
    extractStridedSlice_apply ![l, o, 0] x hs _ (ix3 (⟨l, hl⟩ : Fin 4) (⟨o, ho⟩ : Fin 3) (i 1)) (fun a => match a with
      | ⟨0, _⟩ => by show l = l + 0; rfl
      | ⟨1, _⟩ => by show o = o + 0; rfl
      | ⟨2, _⟩ => by show (i 1).val = 0 + (i 1).val; omega)]

/-- The same block flattened and laid as one [1 × 256] row: entry (0, c) is entry (l, o, c) of the stack. -/
theorem bias_row_apply {α : Type} {l o : Nat} (hl : l < 4) (ho : o < 3) (x : (⟨3, ![4, 3, 256]⟩ : Shape).Idx → α)
    (hs : (⟨3, ![4, 3, 256]⟩ : Shape).Slices ![l, o, 0] ⟨3, ![1, 1, 256]⟩)
    (hc : (⟨3, ![1, 1, 256]⟩ : Shape).ShapeCasts ⟨1, ![256]⟩)
    (hc₂ : (⟨1, ![256]⟩ : Shape).ShapeCasts ⟨2, ![1, 256]⟩) (c : Fin 256) :
    shapeCast ⟨2, ![1, 256]⟩ (shapeCast ⟨1, ![256]⟩ (extractStridedSlice ⟨3, ![1, 1, 256]⟩ ![l, o, 0] x hs) hc) hc₂
        (ix2 (0 : Fin 1) c)
      = x (ix3 (⟨l, hl⟩ : Fin 4) (⟨o, ho⟩ : Fin 3) c) := by
  rw [shapeCast_apply _ hc₂ (ix2 (0 : Fin 1) c) (ix1 c) (by
      rewrite [Shape.rowMajor_val_one, Shape.rowMajor_val_two]
      show c.val = 0 * 256 + c.val
      omega),
    shapeCast_apply _ hc (ix1 c) (ix3 (0 : Fin 1) (0 : Fin 1) c) (by
      rewrite [Shape.rowMajor_val_three, Shape.rowMajor_val_one]
      show (0 * 1 + 0) * 256 + c.val = c.val
      omega),
    extractStridedSlice_apply ![l, o, 0] x hs _ (ix3 (⟨l, hl⟩ : Fin 4) (⟨o, ho⟩ : Fin 3) c) (fun a => match a with
      | ⟨0, _⟩ => by show l = l + 0; rfl
      | ⟨1, _⟩ => by show o = o + 0; rfl
      | ⟨2, _⟩ => by show c.val = 0 + c.val; omega)]

/-! ## The sums of messages per receiver -/

/-- The node messages of layer 0 summed per receiving node: the sum, per receiver, of the rectified messages built from the products taken first and the rows gathered afterwards is the value that gathers first and multiplies afterwards. The messages agree as whole arrays; the zero array summed into, the column of receivers and the dimension numbers of the sum are the same on both sides. -/
theorem up_n_layer0 (x0 : (⟨Cert.ReferenceIdeal.S32768x256, .f32⟩ : BufTy).Contents (Elt Ideal)) (x1 : (⟨Cert.ReferenceIdeal.S65536x256, .f32⟩ : BufTy).Contents (Elt Ideal)) (x3 x4 x5 x6 : (⟨Cert.ReferenceIdeal.S131072, .i32⟩ : BufTy).Contents (Elt Ideal)) (x19 x20 : (⟨Cert.ReferenceIdeal.S4x2x256x256, .f32⟩ : BufTy).Contents (Elt Ideal)) :
    Host.scatterAdd (F := Ideal) Cert.KernelIdeal.scatter_S32768x256_S131072x1_S131072x256_1_0_0_1
        (broadcastInDim Cert.KernelIdeal.S32768x256 ![] Cert.KernelIdeal.Shapes1.Facts₀.bcast_S_S32768x256 (constant (F := Ideal) Cert.KernelIdeal.S_ .f32 0x00000000#32))
        (broadcastInDim Cert.KernelIdeal.S131072x1 ![0] Cert.KernelIdeal.Shapes1.Facts₀.bcast_S131072_S131072x1_0 (val_main_v46 (F := Ideal) x3 x4))
        (maximumf (F := Ideal) (φ := .f32)
          (addf
            (Host.gather Cert.KernelIdeal.gather_S32768x256_S131072x1_S131072x256_1_0_n_n_0_1_1256
              (Cert.Spec.mul (x0 : Cert.Spec.Mat 32768 256) (val_main_v70 (F := Ideal) x19 : Cert.Spec.Mat 256 256))
              (val_main_v67 (F := Ideal) x3 x5))
            (Host.gather Cert.KernelIdeal.gather_S65536x256_S131072x1_S131072x256_1_0_n_n_0_1_1256
              (Cert.Spec.mul (x1 : Cert.Spec.Mat 65536 256) (val_main_v80 (F := Ideal) x20 : Cert.Spec.Mat 256 256))
              (val_main_v77 (F := Ideal) x3 x6)))
          (broadcastInDim Cert.KernelIdeal.S131072x256 ![] Cert.KernelIdeal.Shapes1.Facts₀.bcast_S_S131072x256 (constant (F := Ideal) Cert.KernelIdeal.S_ .f32 0x00000000#32)))
      = val_main_v86 (F := Ideal) x0 x1 x3 x4 x5 x6 x19 x20 := by
  rw [msg_131072]
  rfl

/-- The edge messages of layer 0 summed per receiving edge, the same way. -/
theorem up_e_layer0 (x1 : (⟨Cert.ReferenceIdeal.S65536x256, .f32⟩ : BufTy).Contents (Elt Ideal)) (x2 : (⟨Cert.ReferenceIdeal.S16384x256, .f32⟩ : BufTy).Contents (Elt Ideal)) (x7 x8 x9 x10 : (⟨Cert.ReferenceIdeal.S98304, .i32⟩ : BufTy).Contents (Elt Ideal)) (x19 x20 : (⟨Cert.ReferenceIdeal.S4x2x256x256, .f32⟩ : BufTy).Contents (Elt Ideal)) :
    Host.scatterAdd (F := Ideal) Cert.KernelIdeal.scatter_S65536x256_S98304x1_S98304x256_1_0_0_1
        (broadcastInDim Cert.KernelIdeal.S65536x256 ![] Cert.KernelIdeal.Shapes1.Facts₀.bcast_S_S65536x256 (constant (F := Ideal) Cert.KernelIdeal.S_ .f32 0x00000000#32))
        (broadcastInDim Cert.KernelIdeal.S98304x1 ![0] Cert.KernelIdeal.Shapes1.Facts₀.bcast_S98304_S98304x1_0 (val_main_v55 (F := Ideal) x7 x8))
        (maximumf (F := Ideal) (φ := .f32)
          (addf
            (Host.gather Cert.KernelIdeal.gather_S65536x256_S98304x1_S98304x256_1_0_n_n_0_1_1256
              (Cert.Spec.mul (x1 : Cert.Spec.Mat 65536 256) (val_main_v95 (F := Ideal) x19 : Cert.Spec.Mat 256 256))
              (val_main_v92 (F := Ideal) x7 x9))
            (Host.gather Cert.KernelIdeal.gather_S16384x256_S98304x1_S98304x256_1_0_n_n_0_1_1256
              (Cert.Spec.mul (x2 : Cert.Spec.Mat 16384 256) (val_main_v105 (F := Ideal) x20 : Cert.Spec.Mat 256 256))
              (val_main_v102 (F := Ideal) x7 x10)))
          (broadcastInDim Cert.KernelIdeal.S98304x256 ![] Cert.KernelIdeal.Shapes1.Facts₀.bcast_S_S98304x256 (constant (F := Ideal) Cert.KernelIdeal.S_ .f32 0x00000000#32)))
      = val_main_v111 (F := Ideal) x1 x2 x7 x8 x9 x10 x19 x20 := by
  rw [msg_98304]
  rfl

/-! ## The three updates -/

/-- The node update of layer 0: the rectifier of X · W plus the bias row plus the summed messages U, entry by entry, is the value that spells the product as a contraction, the bias row as a slice flattened, laid as a row and repeated down the rows, and the rectifier as the larger of the entry and a zero array. The product is the contraction's sum; both spellings of the bias read entry (layer, slot, column) of the bias stack; the zero array reads 0. -/
theorem self_n_layer0 (x0 : (⟨Cert.ReferenceIdeal.S32768x256, .f32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal))
    (U : (⟨Cert.ReferenceIdeal.S32768x256, .f32⟩ : BufTy).Contents (Elt Ideal)) :
    (fun i => max (Cert.Spec.mul (x0 : Cert.Spec.Mat 32768 256) (val_main_v125 (F := Ideal) x17 : Cert.Spec.Mat 256 256) i
        + (shapeCast Cert.KernelIdeal.S1x256 (shapeCast Cert.KernelIdeal.S256 (extractStridedSlice Cert.KernelIdeal.S1x1x256 ![0, 0, 0] x18 Cert.KernelIdeal.Shapes1.Facts₀.slices_S4x3x256_S1x1x256_0_0_0) Cert.KernelIdeal.Shapes1.Facts₀.shapeCasts_S1x1x256_S256) Cert.KernelIdeal.Shapes1.Facts₀.shapeCasts_S256_S1x256 : Cert.Spec.Mat 1 256) (ix2 (0 : Fin 1) (i 1)) + (U : Cert.Spec.Mat 32768 256) i) 0 : Cert.Spec.Mat 32768 256)
      = maximumf (F := Ideal) (φ := .f32) (addf (val_main_v131 (F := Ideal) x0 x17 x18) U) (val_main_call2_v0 (F := Ideal)) := by
  funext i
  have hdot : val_main_v126 (F := Ideal) x0 x17 = Cert.Spec.mul (x0 : Cert.Spec.Mat 32768 256) (val_main_v125 (F := Ideal) x17 : Cert.Spec.Mat 256 256) :=
    dotGeneral_eq_mul Cert.ReferenceIdeal.dot_S32768x256_S256x256_S32768x256_1_0_0_1_n_n rfl rfl rfl rfl rfl rfl none x0 (val_main_v125 (F := Ideal) x17)
  have hbias : val_main_v130 (F := Ideal) x18 i = (shapeCast Cert.KernelIdeal.S1x256 (shapeCast Cert.KernelIdeal.S256 (extractStridedSlice Cert.KernelIdeal.S1x1x256 ![0, 0, 0] x18 Cert.KernelIdeal.Shapes1.Facts₀.slices_S4x3x256_S1x1x256_0_0_0) Cert.KernelIdeal.Shapes1.Facts₀.shapeCasts_S1x1x256_S256) Cert.KernelIdeal.Shapes1.Facts₀.shapeCasts_S256_S1x256 : Cert.Spec.Mat 1 256) (ix2 (0 : Fin 1) (i 1)) := by
    unfold val_main_v130 val_main_v129 val_main_v128 val_main_v127
    exact (bias_rows_apply (by decide) (by decide) x18 _ _ _ _ i).trans (bias_row_apply (by decide) (by decide) x18 _ _ _ (i 1)).symm
  have hz : val_main_call2_v0 (F := Ideal) i = 0 := by
    unfold val_main_call2_v0 val_main_call2_cst
    exact Ideal.ofBits_zero_f32
  show max (Cert.Spec.mul (x0 : Cert.Spec.Mat 32768 256) (val_main_v125 (F := Ideal) x17 : Cert.Spec.Mat 256 256) i + (shapeCast Cert.KernelIdeal.S1x256 (shapeCast Cert.KernelIdeal.S256 (extractStridedSlice Cert.KernelIdeal.S1x1x256 ![0, 0, 0] x18 Cert.KernelIdeal.Shapes1.Facts₀.slices_S4x3x256_S1x1x256_0_0_0) Cert.KernelIdeal.Shapes1.Facts₀.shapeCasts_S1x1x256_S256) Cert.KernelIdeal.Shapes1.Facts₀.shapeCasts_S256_S1x256 : Cert.Spec.Mat 1 256) (ix2 (0 : Fin 1) (i 1)) + U i) 0
    = max ((val_main_v126 (F := Ideal) x0 x17 i + val_main_v130 (F := Ideal) x18 i) + U i) (val_main_call2_v0 (F := Ideal) i)
  rw [hdot, hbias, hz]

/-- The edge update of layer 0, with two summands U and V besides the product and the bias row. -/
theorem self_e_layer0 (x1 : (⟨Cert.ReferenceIdeal.S65536x256, .f32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal))
    (U V : (⟨Cert.ReferenceIdeal.S65536x256, .f32⟩ : BufTy).Contents (Elt Ideal)) :
    (fun i => max (Cert.Spec.mul (x1 : Cert.Spec.Mat 65536 256) (val_main_v135 (F := Ideal) x17 : Cert.Spec.Mat 256 256) i
        + (shapeCast Cert.KernelIdeal.S1x256 (shapeCast Cert.KernelIdeal.S256 (extractStridedSlice Cert.KernelIdeal.S1x1x256 ![0, 1, 0] x18 Cert.KernelIdeal.Shapes1.Facts₀.slices_S4x3x256_S1x1x256_0_1_0) Cert.KernelIdeal.Shapes1.Facts₀.shapeCasts_S1x1x256_S256) Cert.KernelIdeal.Shapes1.Facts₀.shapeCasts_S256_S1x256 : Cert.Spec.Mat 1 256) (ix2 (0 : Fin 1) (i 1)) + (U : Cert.Spec.Mat 65536 256) i + (V : Cert.Spec.Mat 65536 256) i) 0 : Cert.Spec.Mat 65536 256)
      = maximumf (F := Ideal) (φ := .f32) (addf (addf (val_main_v141 (F := Ideal) x1 x17 x18) U) V) (val_main_call3_v0 (F := Ideal)) := by
  funext i
  have hdot : val_main_v136 (F := Ideal) x1 x17 = Cert.Spec.mul (x1 : Cert.Spec.Mat 65536 256) (val_main_v135 (F := Ideal) x17 : Cert.Spec.Mat 256 256) :=
    dotGeneral_eq_mul Cert.ReferenceIdeal.dot_S65536x256_S256x256_S65536x256_1_0_0_1_n_n rfl rfl rfl rfl rfl rfl none x1 (val_main_v135 (F := Ideal) x17)
  have hbias : val_main_v140 (F := Ideal) x18 i = (shapeCast Cert.KernelIdeal.S1x256 (shapeCast Cert.KernelIdeal.S256 (extractStridedSlice Cert.KernelIdeal.S1x1x256 ![0, 1, 0] x18 Cert.KernelIdeal.Shapes1.Facts₀.slices_S4x3x256_S1x1x256_0_1_0) Cert.KernelIdeal.Shapes1.Facts₀.shapeCasts_S1x1x256_S256) Cert.KernelIdeal.Shapes1.Facts₀.shapeCasts_S256_S1x256 : Cert.Spec.Mat 1 256) (ix2 (0 : Fin 1) (i 1)) := by
    unfold val_main_v140 val_main_v139 val_main_v138 val_main_v137
    exact (bias_rows_apply (by decide) (by decide) x18 _ _ _ _ i).trans (bias_row_apply (by decide) (by decide) x18 _ _ _ (i 1)).symm
  have hz : val_main_call3_v0 (F := Ideal) i = 0 := by
    unfold val_main_call3_v0 val_main_call3_cst
    exact Ideal.ofBits_zero_f32
  show max (Cert.Spec.mul (x1 : Cert.Spec.Mat 65536 256) (val_main_v135 (F := Ideal) x17 : Cert.Spec.Mat 256 256) i + (shapeCast Cert.KernelIdeal.S1x256 (shapeCast Cert.KernelIdeal.S256 (extractStridedSlice Cert.KernelIdeal.S1x1x256 ![0, 1, 0] x18 Cert.KernelIdeal.Shapes1.Facts₀.slices_S4x3x256_S1x1x256_0_1_0) Cert.KernelIdeal.Shapes1.Facts₀.shapeCasts_S1x1x256_S256) Cert.KernelIdeal.Shapes1.Facts₀.shapeCasts_S256_S1x256 : Cert.Spec.Mat 1 256) (ix2 (0 : Fin 1) (i 1)) + U i + V i) 0
    = max ((val_main_v136 (F := Ideal) x1 x17 i + val_main_v140 (F := Ideal) x18 i) + U i + V i) (val_main_call3_v0 (F := Ideal) i)
  rw [hdot, hbias, hz]

/-- The cell update of layer 0. -/
theorem self_c_layer0 (x2 : (⟨Cert.ReferenceIdeal.S16384x256, .f32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal))
    (U : (⟨Cert.ReferenceIdeal.S16384x256, .f32⟩ : BufTy).Contents (Elt Ideal)) :
    (fun i => max (Cert.Spec.mul (x2 : Cert.Spec.Mat 16384 256) (val_main_v146 (F := Ideal) x17 : Cert.Spec.Mat 256 256) i
        + (shapeCast Cert.KernelIdeal.S1x256 (shapeCast Cert.KernelIdeal.S256 (extractStridedSlice Cert.KernelIdeal.S1x1x256 ![0, 2, 0] x18 Cert.KernelIdeal.Shapes1.Facts₀.slices_S4x3x256_S1x1x256_0_2_0) Cert.KernelIdeal.Shapes1.Facts₀.shapeCasts_S1x1x256_S256) Cert.KernelIdeal.Shapes1.Facts₀.shapeCasts_S256_S1x256 : Cert.Spec.Mat 1 256) (ix2 (0 : Fin 1) (i 1)) + (U : Cert.Spec.Mat 16384 256) i) 0 : Cert.Spec.Mat 16384 256)
      = maximumf (F := Ideal) (φ := .f32) (addf (val_main_v152 (F := Ideal) x2 x17 x18) U) (val_main_call4_v0 (F := Ideal)) := by
  funext i
  have hdot : val_main_v147 (F := Ideal) x2 x17 = Cert.Spec.mul (x2 : Cert.Spec.Mat 16384 256) (val_main_v146 (F := Ideal) x17 : Cert.Spec.Mat 256 256) :=
    dotGeneral_eq_mul Cert.ReferenceIdeal.dot_S16384x256_S256x256_S16384x256_1_0_0_1_n_n rfl rfl rfl rfl rfl rfl none x2 (val_main_v146 (F := Ideal) x17)
  have hbias : val_main_v151 (F := Ideal) x18 i = (shapeCast Cert.KernelIdeal.S1x256 (shapeCast Cert.KernelIdeal.S256 (extractStridedSlice Cert.KernelIdeal.S1x1x256 ![0, 2, 0] x18 Cert.KernelIdeal.Shapes1.Facts₀.slices_S4x3x256_S1x1x256_0_2_0) Cert.KernelIdeal.Shapes1.Facts₀.shapeCasts_S1x1x256_S256) Cert.KernelIdeal.Shapes1.Facts₀.shapeCasts_S256_S1x256 : Cert.Spec.Mat 1 256) (ix2 (0 : Fin 1) (i 1)) := by
    unfold val_main_v151 val_main_v150 val_main_v149 val_main_v148
    exact (bias_rows_apply (by decide) (by decide) x18 _ _ _ _ i).trans (bias_row_apply (by decide) (by decide) x18 _ _ _ (i 1)).symm
  have hz : val_main_call4_v0 (F := Ideal) i = 0 := by
    unfold val_main_call4_v0 val_main_call4_cst
    exact Ideal.ofBits_zero_f32
  show max (Cert.Spec.mul (x2 : Cert.Spec.Mat 16384 256) (val_main_v146 (F := Ideal) x17 : Cert.Spec.Mat 256 256) i + (shapeCast Cert.KernelIdeal.S1x256 (shapeCast Cert.KernelIdeal.S256 (extractStridedSlice Cert.KernelIdeal.S1x1x256 ![0, 2, 0] x18 Cert.KernelIdeal.Shapes1.Facts₀.slices_S4x3x256_S1x1x256_0_2_0) Cert.KernelIdeal.Shapes1.Facts₀.shapeCasts_S1x1x256_S256) Cert.KernelIdeal.Shapes1.Facts₀.shapeCasts_S256_S1x256 : Cert.Spec.Mat 1 256) (ix2 (0 : Fin 1) (i 1)) + U i) 0
    = max ((val_main_v147 (F := Ideal) x2 x17 i + val_main_v151 (F := Ideal) x18 i) + U i) (val_main_call4_v0 (F := Ideal) i)
  rw [hdot, hbias, hz]

end Cert.Bridge

end
-- ==== Proof.KI.Layer0.lean ====
/- Layer 0 of the message-passing network, read off the kernel program's boundaries and joined to the reference.
   The kernel program computes five products of feature arrays with weight slices, takes rows of them for the up
   messages, rectifies and adds the messages up per receiver, forms the two boundary terms with the incidence arrays,
   and updates the three feature arrays. The reference takes the rows first and multiplies afterwards, and multiplies
   the edge boundary term by its weight last. Buffer by buffer, at the boundary where it is consumed, each array the
   kernel program has written is shown equal to the reference's function of the arguments; a buffer that no item in
   between writes is carried from the boundary where it was written. -/
import proofs.«101828_j11562051961417_2_alg».proof.Proof.KI.Keep
import proofs.«101828_j11562051961417_2_alg».proof.Proof.KI.SetupHost
import proofs.«101828_j11562051961417_2_alg».proof.Proof.KI.Layer0Host
import proofs.«101828_j11562051961417_2_alg».proof.Proof.KI.ValProj0
import proofs.«101828_j11562051961417_2_alg».proof.Proof.KI.ValProj1
import proofs.«101828_j11562051961417_2_alg».proof.Proof.KI.ValProj2
import proofs.«101828_j11562051961417_2_alg».proof.Proof.KI.ValProj3
import proofs.«101828_j11562051961417_2_alg».proof.Proof.KI.ValProj4
import proofs.«101828_j11562051961417_2_alg».proof.Proof.KI.ValBound5
import proofs.«101828_j11562051961417_2_alg».proof.Proof.KI.ValBound6
import proofs.«101828_j11562051961417_2_alg».proof.Proof.KI.ValSelf7
import proofs.«101828_j11562051961417_2_alg».proof.Proof.KI.ValSelf8
import proofs.«101828_j11562051961417_2_alg».proof.Proof.KI.ValSelf9
import proofs.«101828_j11562051961417_2_alg».proof.Proof.RefRead
import proofs.«101828_j11562051961417_2_alg».proof.Proof.KI.Layer0Bound
import proofs.«101828_j11562051961417_2_alg».proof.Proof.KI.Layer0Self

set_option maxRecDepth 16384

noncomputable section

namespace Cert.KernelIdeal.Val

open Cert.KernelIdeal.Gen Cert.KernelIdeal.Reg Cert.ReferenceIdeal.Read
open Idealize.ShloMosaic Idealize.ShloMosaic.TcCoe Idealize.ShloMosaic.ValueIdx
open Cert.Spec (Mat Mat3 mul bmul)

variable (m : (ℓ : Loc nD τ sig) → Buf (Elt Ideal) ℓ) (ρ : Dev nD → PrngReg)

/-! ## What the items of layer 0 leave alone

`ws k` lists what items 2 … k write (a region its output array, a host stretch its results); a buffer outside the list is
at boundary k as it was at boundary 1, and an argument, which the first stretch does not write either, is as launched. -/

/-- An argument at boundary 1 is as launched. -/
theorem W1_launch (c : Dev nD) (r : Ref sig .tc) (h : r ∉ hostOps0_W) :
    W1 m ρ c (Proc.devRef .tc r) = m ((c : Thread nD τ).loc r) :=
  (W1_keep m ρ c r h).trans rfl

abbrev ws2 : List (Ref sig .tc) := [main_v64]
theorem W2_since1 (c : Dev nD) (r : Ref sig .tc) (h : r ∉ ws2) : W2 m ρ c (Proc.devRef .tc r) = W1 m ρ c (Proc.devRef .tc r) :=
  W2_keep m ρ c r (fun e => h (List.mem_cons.mpr (Or.inl e)))
theorem W2_arg (c : Dev nD) (r : Ref sig .tc) (h : r ∉ ws2) (h0 : r ∉ hostOps0_W) : W2 m ρ c (Proc.devRef .tc r) = m ((c : Thread nD τ).loc r) :=
  (W2_since1 m ρ c r h).trans (W1_launch m ρ c r h0)

abbrev ws3 : List (Ref sig .tc) := hostOps1_W ++ ws2
theorem W3_since1 (c : Dev nD) (r : Ref sig .tc) (h : r ∉ ws3) : W3 m ρ c (Proc.devRef .tc r) = W1 m ρ c (Proc.devRef .tc r) :=
  (W3_keep m ρ c r (fun e => h (List.mem_append.mpr (Or.inl e)))).trans (W2_since1 m ρ c r (fun e => h (List.mem_append.mpr (Or.inr e))))
theorem W3_arg (c : Dev nD) (r : Ref sig .tc) (h : r ∉ ws3) (h0 : r ∉ hostOps0_W) : W3 m ρ c (Proc.devRef .tc r) = m ((c : Thread nD τ).loc r) :=
  (W3_since1 m ρ c r h).trans (W1_launch m ρ c r h0)

abbrev ws4 : List (Ref sig .tc) := main_v67 :: ws3
theorem W4_since1 (c : Dev nD) (r : Ref sig .tc) (h : r ∉ ws4) : W4 m ρ c (Proc.devRef .tc r) = W1 m ρ c (Proc.devRef .tc r) :=
  (W4_keep m ρ c r (fun e => h (List.mem_cons.mpr (Or.inl e)))).trans (W3_since1 m ρ c r (fun e => h (List.mem_cons.mpr (Or.inr e))))
theorem W4_arg (c : Dev nD) (r : Ref sig .tc) (h : r ∉ ws4) (h0 : r ∉ hostOps0_W) : W4 m ρ c (Proc.devRef .tc r) = m ((c : Thread nD τ).loc r) :=
  (W4_since1 m ρ c r h).trans (W1_launch m ρ c r h0)

abbrev ws5 : List (Ref sig .tc) := hostOps2_W ++ ws4
theorem W5_since1 (c : Dev nD) (r : Ref sig .tc) (h : r ∉ ws5) : W5 m ρ c (Proc.devRef .tc r) = W1 m ρ c (Proc.devRef .tc r) :=
  (W5_keep m ρ c r (fun e => h (List.mem_append.mpr (Or.inl e)))).trans (W4_since1 m ρ c r (fun e => h (List.mem_append.mpr (Or.inr e))))
theorem W5_arg (c : Dev nD) (r : Ref sig .tc) (h : r ∉ ws5) (h0 : r ∉ hostOps0_W) : W5 m ρ c (Proc.devRef .tc r) = m ((c : Thread nD τ).loc r) :=
  (W5_since1 m ρ c r h).trans (W1_launch m ρ c r h0)

abbrev ws6 : List (Ref sig .tc) := main_v70 :: ws5
theorem W6_since1 (c : Dev nD) (r : Ref sig .tc) (h : r ∉ ws6) : W6 m ρ c (Proc.devRef .tc r) = W1 m ρ c (Proc.devRef .tc r) :=
  (W6_keep m ρ c r (fun e => h (List.mem_cons.mpr (Or.inl e)))).trans (W5_since1 m ρ c r (fun e => h (List.mem_cons.mpr (Or.inr e))))
theorem W6_arg (c : Dev nD) (r : Ref sig .tc) (h : r ∉ ws6) (h0 : r ∉ hostOps0_W) : W6 m ρ c (Proc.devRef .tc r) = m ((c : Thread nD τ).loc r) :=
  (W6_since1 m ρ c r h).trans (W1_launch m ρ c r h0)

abbrev ws7 : List (Ref sig .tc) := hostOps3_W ++ ws6
theorem W7_since1 (c : Dev nD) (r : Ref sig .tc) (h : r ∉ ws7) : W7 m ρ c (Proc.devRef .tc r) = W1 m ρ c (Proc.devRef .tc r) :=
  (W7_keep m ρ c r (fun e => h (List.mem_append.mpr (Or.inl e)))).trans (W6_since1 m ρ c r (fun e => h (List.mem_append.mpr (Or.inr e))))
theorem W7_arg (c : Dev nD) (r : Ref sig .tc) (h : r ∉ ws7) (h0 : r ∉ hostOps0_W) : W7 m ρ c (Proc.devRef .tc r) = m ((c : Thread nD τ).loc r) :=
  (W7_since1 m ρ c r h).trans (W1_launch m ρ c r h0)

abbrev ws8 : List (Ref sig .tc) := main_v73 :: ws7
theorem W8_since1 (c : Dev nD) (r : Ref sig .tc) (h : r ∉ ws8) : W8 m ρ c (Proc.devRef .tc r) = W1 m ρ c (Proc.devRef .tc r) :=
  (W8_keep m ρ c r (fun e => h (List.mem_cons.mpr (Or.inl e)))).trans (W7_since1 m ρ c r (fun e => h (List.mem_cons.mpr (Or.inr e))))
theorem W8_arg (c : Dev nD) (r : Ref sig .tc) (h : r ∉ ws8) (h0 : r ∉ hostOps0_W) : W8 m ρ c (Proc.devRef .tc r) = m ((c : Thread nD τ).loc r) :=
  (W8_since1 m ρ c r h).trans (W1_launch m ρ c r h0)

abbrev ws9 : List (Ref sig .tc) := hostOps4_W ++ ws8
theorem W9_since1 (c : Dev nD) (r : Ref sig .tc) (h : r ∉ ws9) : W9 m ρ c (Proc.devRef .tc r) = W1 m ρ c (Proc.devRef .tc r) :=
  (W9_keep m ρ c r (fun e => h (List.mem_append.mpr (Or.inl e)))).trans (W8_since1 m ρ c r (fun e => h (List.mem_append.mpr (Or.inr e))))
theorem W9_arg (c : Dev nD) (r : Ref sig .tc) (h : r ∉ ws9) (h0 : r ∉ hostOps0_W) : W9 m ρ c (Proc.devRef .tc r) = m ((c : Thread nD τ).loc r) :=
  (W9_since1 m ρ c r h).trans (W1_launch m ρ c r h0)

abbrev ws10 : List (Ref sig .tc) := main_v76 :: ws9
theorem W10_since1 (c : Dev nD) (r : Ref sig .tc) (h : r ∉ ws10) : W10 m ρ c (Proc.devRef .tc r) = W1 m ρ c (Proc.devRef .tc r) :=
  (W10_keep m ρ c r (fun e => h (List.mem_cons.mpr (Or.inl e)))).trans (W9_since1 m ρ c r (fun e => h (List.mem_cons.mpr (Or.inr e))))
theorem W10_arg (c : Dev nD) (r : Ref sig .tc) (h : r ∉ ws10) (h0 : r ∉ hostOps0_W) : W10 m ρ c (Proc.devRef .tc r) = m ((c : Thread nD τ).loc r) :=
  (W10_since1 m ρ c r h).trans (W1_launch m ρ c r h0)

abbrev ws11 : List (Ref sig .tc) := hostOps5_W ++ ws10
theorem W11_since1 (c : Dev nD) (r : Ref sig .tc) (h : r ∉ ws11) : W11 m ρ c (Proc.devRef .tc r) = W1 m ρ c (Proc.devRef .tc r) :=
  (W11_keep m ρ c r (fun e => h (List.mem_append.mpr (Or.inl e)))).trans (W10_since1 m ρ c r (fun e => h (List.mem_append.mpr (Or.inr e))))
theorem W11_arg (c : Dev nD) (r : Ref sig .tc) (h : r ∉ ws11) (h0 : r ∉ hostOps0_W) : W11 m ρ c (Proc.devRef .tc r) = m ((c : Thread nD τ).loc r) :=
  (W11_since1 m ρ c r h).trans (W1_launch m ρ c r h0)

abbrev ws12 : List (Ref sig .tc) := hostOps5_1_W ++ ws11
theorem W12_since1 (c : Dev nD) (r : Ref sig .tc) (h : r ∉ ws12) : W12 m ρ c (Proc.devRef .tc r) = W1 m ρ c (Proc.devRef .tc r) :=
  (W12_keep m ρ c r (fun e => h (List.mem_append.mpr (Or.inl e)))).trans (W11_since1 m ρ c r (fun e => h (List.mem_append.mpr (Or.inr e))))
theorem W12_arg (c : Dev nD) (r : Ref sig .tc) (h : r ∉ ws12) (h0 : r ∉ hostOps0_W) : W12 m ρ c (Proc.devRef .tc r) = m ((c : Thread nD τ).loc r) :=
  (W12_since1 m ρ c r h).trans (W1_launch m ρ c r h0)

abbrev ws13 : List (Ref sig .tc) := hostOps5_2_W ++ ws12
theorem W13_since1 (c : Dev nD) (r : Ref sig .tc) (h : r ∉ ws13) : W13 m ρ c (Proc.devRef .tc r) = W1 m ρ c (Proc.devRef .tc r) :=
  (W13_keep m ρ c r (fun e => h (List.mem_append.mpr (Or.inl e)))).trans (W12_since1 m ρ c r (fun e => h (List.mem_append.mpr (Or.inr e))))
theorem W13_arg (c : Dev nD) (r : Ref sig .tc) (h : r ∉ ws13) (h0 : r ∉ hostOps0_W) : W13 m ρ c (Proc.devRef .tc r) = m ((c : Thread nD τ).loc r) :=
  (W13_since1 m ρ c r h).trans (W1_launch m ρ c r h0)

abbrev ws14 : List (Ref sig .tc) := hostOps5_3_W ++ ws13
theorem W14_since1 (c : Dev nD) (r : Ref sig .tc) (h : r ∉ ws14) : W14 m ρ c (Proc.devRef .tc r) = W1 m ρ c (Proc.devRef .tc r) :=
  (W14_keep m ρ c r (fun e => h (List.mem_append.mpr (Or.inl e)))).trans (W13_since1 m ρ c r (fun e => h (List.mem_append.mpr (Or.inr e))))
theorem W14_arg (c : Dev nD) (r : Ref sig .tc) (h : r ∉ ws14) (h0 : r ∉ hostOps0_W) : W14 m ρ c (Proc.devRef .tc r) = m ((c : Thread nD τ).loc r) :=
  (W14_since1 m ρ c r h).trans (W1_launch m ρ c r h0)

abbrev ws15 : List (Ref sig .tc) := hostOps5_4_W ++ ws14
theorem W15_since1 (c : Dev nD) (r : Ref sig .tc) (h : r ∉ ws15) : W15 m ρ c (Proc.devRef .tc r) = W1 m ρ c (Proc.devRef .tc r) :=
  (W15_keep m ρ c r (fun e => h (List.mem_append.mpr (Or.inl e)))).trans (W14_since1 m ρ c r (fun e => h (List.mem_append.mpr (Or.inr e))))
theorem W15_arg (c : Dev nD) (r : Ref sig .tc) (h : r ∉ ws15) (h0 : r ∉ hostOps0_W) : W15 m ρ c (Proc.devRef .tc r) = m ((c : Thread nD τ).loc r) :=
  (W15_since1 m ρ c r h).trans (W1_launch m ρ c r h0)

abbrev ws16 : List (Ref sig .tc) := main_v116 :: ws15
theorem W16_since1 (c : Dev nD) (r : Ref sig .tc) (h : r ∉ ws16) : W16 m ρ c (Proc.devRef .tc r) = W1 m ρ c (Proc.devRef .tc r) :=
  (W16_keep m ρ c r (fun e => h (List.mem_cons.mpr (Or.inl e)))).trans (W15_since1 m ρ c r (fun e => h (List.mem_cons.mpr (Or.inr e))))
theorem W16_arg (c : Dev nD) (r : Ref sig .tc) (h : r ∉ ws16) (h0 : r ∉ hostOps0_W) : W16 m ρ c (Proc.devRef .tc r) = m ((c : Thread nD τ).loc r) :=
  (W16_since1 m ρ c r h).trans (W1_launch m ρ c r h0)

abbrev ws17 : List (Ref sig .tc) := hostOps6_W ++ ws16
theorem W17_since1 (c : Dev nD) (r : Ref sig .tc) (h : r ∉ ws17) : W17 m ρ c (Proc.devRef .tc r) = W1 m ρ c (Proc.devRef .tc r) :=
  (W17_keep m ρ c r (fun e => h (List.mem_append.mpr (Or.inl e)))).trans (W16_since1 m ρ c r (fun e => h (List.mem_append.mpr (Or.inr e))))
theorem W17_arg (c : Dev nD) (r : Ref sig .tc) (h : r ∉ ws17) (h0 : r ∉ hostOps0_W) : W17 m ρ c (Proc.devRef .tc r) = m ((c : Thread nD τ).loc r) :=
  (W17_since1 m ρ c r h).trans (W1_launch m ρ c r h0)

abbrev ws18 : List (Ref sig .tc) := main_v121 :: ws17
theorem W18_since1 (c : Dev nD) (r : Ref sig .tc) (h : r ∉ ws18) : W18 m ρ c (Proc.devRef .tc r) = W1 m ρ c (Proc.devRef .tc r) :=
  (W18_keep m ρ c r (fun e => h (List.mem_cons.mpr (Or.inl e)))).trans (W17_since1 m ρ c r (fun e => h (List.mem_cons.mpr (Or.inr e))))
theorem W18_arg (c : Dev nD) (r : Ref sig .tc) (h : r ∉ ws18) (h0 : r ∉ hostOps0_W) : W18 m ρ c (Proc.devRef .tc r) = m ((c : Thread nD τ).loc r) :=
  (W18_since1 m ρ c r h).trans (W1_launch m ρ c r h0)

abbrev ws19 : List (Ref sig .tc) := hostOps7_W ++ ws18
theorem W19_since1 (c : Dev nD) (r : Ref sig .tc) (h : r ∉ ws19) : W19 m ρ c (Proc.devRef .tc r) = W1 m ρ c (Proc.devRef .tc r) :=
  (W19_keep m ρ c r (fun e => h (List.mem_append.mpr (Or.inl e)))).trans (W18_since1 m ρ c r (fun e => h (List.mem_append.mpr (Or.inr e))))
theorem W19_arg (c : Dev nD) (r : Ref sig .tc) (h : r ∉ ws19) (h0 : r ∉ hostOps0_W) : W19 m ρ c (Proc.devRef .tc r) = m ((c : Thread nD τ).loc r) :=
  (W19_since1 m ρ c r h).trans (W1_launch m ρ c r h0)

abbrev ws20 : List (Ref sig .tc) := main_v128 :: ws19
theorem W20_since1 (c : Dev nD) (r : Ref sig .tc) (h : r ∉ ws20) : W20 m ρ c (Proc.devRef .tc r) = W1 m ρ c (Proc.devRef .tc r) :=
  (W20_keep m ρ c r (fun e => h (List.mem_cons.mpr (Or.inl e)))).trans (W19_since1 m ρ c r (fun e => h (List.mem_cons.mpr (Or.inr e))))
theorem W20_arg (c : Dev nD) (r : Ref sig .tc) (h : r ∉ ws20) (h0 : r ∉ hostOps0_W) : W20 m ρ c (Proc.devRef .tc r) = m ((c : Thread nD τ).loc r) :=
  (W20_since1 m ρ c r h).trans (W1_launch m ρ c r h0)

abbrev ws21 : List (Ref sig .tc) := hostOps8_W ++ ws20
theorem W21_since1 (c : Dev nD) (r : Ref sig .tc) (h : r ∉ ws21) : W21 m ρ c (Proc.devRef .tc r) = W1 m ρ c (Proc.devRef .tc r) :=
  (W21_keep m ρ c r (fun e => h (List.mem_append.mpr (Or.inl e)))).trans (W20_since1 m ρ c r (fun e => h (List.mem_append.mpr (Or.inr e))))
theorem W21_arg (c : Dev nD) (r : Ref sig .tc) (h : r ∉ ws21) (h0 : r ∉ hostOps0_W) : W21 m ρ c (Proc.devRef .tc r) = m ((c : Thread nD τ).loc r) :=
  (W21_since1 m ρ c r h).trans (W1_launch m ρ c r h0)

abbrev ws22 : List (Ref sig .tc) := main_v134 :: ws21
theorem W22_since1 (c : Dev nD) (r : Ref sig .tc) (h : r ∉ ws22) : W22 m ρ c (Proc.devRef .tc r) = W1 m ρ c (Proc.devRef .tc r) :=
  (W22_keep m ρ c r (fun e => h (List.mem_cons.mpr (Or.inl e)))).trans (W21_since1 m ρ c r (fun e => h (List.mem_cons.mpr (Or.inr e))))
theorem W22_arg (c : Dev nD) (r : Ref sig .tc) (h : r ∉ ws22) (h0 : r ∉ hostOps0_W) : W22 m ρ c (Proc.devRef .tc r) = m ((c : Thread nD τ).loc r) :=
  (W22_since1 m ρ c r h).trans (W1_launch m ρ c r h0)

abbrev ws23 : List (Ref sig .tc) := hostOps9_W ++ ws22
theorem W23_since1 (c : Dev nD) (r : Ref sig .tc) (h : r ∉ ws23) : W23 m ρ c (Proc.devRef .tc r) = W1 m ρ c (Proc.devRef .tc r) :=
  (W23_keep m ρ c r (fun e => h (List.mem_append.mpr (Or.inl e)))).trans (W22_since1 m ρ c r (fun e => h (List.mem_append.mpr (Or.inr e))))
theorem W23_arg (c : Dev nD) (r : Ref sig .tc) (h : r ∉ ws23) (h0 : r ∉ hostOps0_W) : W23 m ρ c (Proc.devRef .tc r) = m ((c : Thread nD τ).loc r) :=
  (W23_since1 m ρ c r h).trans (W1_launch m ρ c r h0)

abbrev ws24 : List (Ref sig .tc) := main_v140 :: ws23
theorem W24_since1 (c : Dev nD) (r : Ref sig .tc) (h : r ∉ ws24) : W24 m ρ c (Proc.devRef .tc r) = W1 m ρ c (Proc.devRef .tc r) :=
  (W24_keep m ρ c r (fun e => h (List.mem_cons.mpr (Or.inl e)))).trans (W23_since1 m ρ c r (fun e => h (List.mem_cons.mpr (Or.inr e))))
theorem W24_arg (c : Dev nD) (r : Ref sig .tc) (h : r ∉ ws24) (h0 : r ∉ hostOps0_W) : W24 m ρ c (Proc.devRef .tc r) = m ((c : Thread nD τ).loc r) :=
  (W24_since1 m ρ c r h).trans (W1_launch m ρ c r h0)

/-! ## What is computed once, at boundary 1

The row numbers and the incidence arrays are the same operations of the same arguments in both programs. -/

theorem W1_v46 (c : Dev nD) : W1 m ρ c (Proc.devRef .tc main_v46) = val_main_v46 (F := Ideal) (m ((c : Thread nD τ).loc main_arg3)) (m ((c : Thread nD τ).loc main_arg4)) :=
  (after0_v46 (W0 m ρ c)).trans rfl

theorem W1_v49 (c : Dev nD) : W1 m ρ c (Proc.devRef .tc main_v49) = val_main_v49 (F := Ideal) (m ((c : Thread nD τ).loc main_arg3)) (m ((c : Thread nD τ).loc main_arg5)) :=
  (after0_v49 (W0 m ρ c)).trans rfl

theorem W1_v52 (c : Dev nD) : W1 m ρ c (Proc.devRef .tc main_v52) = val_main_v52 (F := Ideal) (m ((c : Thread nD τ).loc main_arg3)) (m ((c : Thread nD τ).loc main_arg6)) :=
  (after0_v52 (W0 m ρ c)).trans rfl

theorem W1_v55 (c : Dev nD) : W1 m ρ c (Proc.devRef .tc main_v55) = val_main_v55 (F := Ideal) (m ((c : Thread nD τ).loc main_arg7)) (m ((c : Thread nD τ).loc main_arg8)) :=
  (after0_v55 (W0 m ρ c)).trans rfl

theorem W1_v58 (c : Dev nD) : W1 m ρ c (Proc.devRef .tc main_v58) = val_main_v58 (F := Ideal) (m ((c : Thread nD τ).loc main_arg7)) (m ((c : Thread nD τ).loc main_arg9)) :=
  (after0_v58 (W0 m ρ c)).trans rfl

theorem W1_v61 (c : Dev nD) : W1 m ρ c (Proc.devRef .tc main_v61) = val_main_v61 (F := Ideal) (m ((c : Thread nD τ).loc main_arg7)) (m ((c : Thread nD τ).loc main_arg10)) :=
  (after0_v61 (W0 m ρ c)).trans rfl

theorem W1_v21 (c : Dev nD) : W1 m ρ c (Proc.devRef .tc main_v21) = val_main_v21 (F := Ideal) (m ((c : Thread nD τ).loc main_arg11)) (m ((c : Thread nD τ).loc main_arg12)) (m ((c : Thread nD τ).loc main_arg13)) :=
  (after0_v21 (W0 m ρ c)).trans (Cert.Bridge.inc_e_layer0 _ _ _)

theorem W1_v43 (c : Dev nD) : W1 m ρ c (Proc.devRef .tc main_v43) = val_main_v43 (F := Ideal) (m ((c : Thread nD τ).loc main_arg14)) (m ((c : Thread nD τ).loc main_arg15)) (m ((c : Thread nD τ).loc main_arg16)) :=
  (after0_v43 (W0 m ρ c)).trans (Cert.Bridge.inc_c_layer0 _ _ _)

/-! ## The five products of layer 0

Each region multiplies a feature array by a weight slice; the weight slice is the same slice of the same argument in
both programs. -/

theorem W1_v63 (c : Dev nD) : W1 m ρ c (Proc.devRef .tc main_v63) = val_main_v70 (F := Ideal) (m ((c : Thread nD τ).loc main_arg19)) :=
  (after0_v63 (W0 m ρ c)).trans rfl

/-- Region 0: the node features times the first up-weight. -/
theorem W2_v64 (c : Dev nD) : W2 m ρ c (Proc.devRef .tc main_v64) = mul ((m ((c : Thread nD τ).loc main_arg0)) : Mat 32768 256) (val_main_v70 (F := Ideal) (m ((c : Thread nD τ).loc main_arg19)) : Mat 256 256) := by
  have e : W2 m ρ c (Proc.devRef .tc main_v64) = mul (W1 m ρ c (Proc.devRef .tc main_arg0) : Mat 32768 256) (W1 m ρ c (Proc.devRef .tc main_v63) : Mat 256 256) :=
    (W2_arr m ρ c 2).trans (arrAt0 (V1 m ρ) c)
  rw [W1_launch m ρ c main_arg0 (by decide), W1_v63 m ρ c] at e
  exact e

/-- The second up-weight of the node messages. -/
theorem W3_v66 (c : Dev nD) : W3 m ρ c (Proc.devRef .tc main_v66) = val_main_v80 (F := Ideal) (m ((c : Thread nD τ).loc main_arg20)) := by
  have e := after1_v66 (W2 m ρ c)
  rw [W2_arg m ρ c main_arg20 (by decide) (by decide)] at e
  exact e

/-- Region 1: the edge features times the second up-weight. -/
theorem W4_v67 (c : Dev nD) : W4 m ρ c (Proc.devRef .tc main_v67) = mul ((m ((c : Thread nD τ).loc main_arg1)) : Mat 65536 256) (val_main_v80 (F := Ideal) (m ((c : Thread nD τ).loc main_arg20)) : Mat 256 256) := by
  have e : W4 m ρ c (Proc.devRef .tc main_v67) = mul (W3 m ρ c (Proc.devRef .tc main_arg1) : Mat 65536 256) (W3 m ρ c (Proc.devRef .tc main_v66) : Mat 256 256) :=
    (W4_arr m ρ c 2).trans (arrAt1 (V3 m ρ) c)
  rw [W3_arg m ρ c main_arg1 (by decide) (by decide), W3_v66 m ρ c] at e
  exact e

/-- The first up-weight of the edge messages. -/
theorem W5_v69 (c : Dev nD) : W5 m ρ c (Proc.devRef .tc main_v69) = val_main_v95 (F := Ideal) (m ((c : Thread nD τ).loc main_arg19)) := by
  have e := after2_v69 (W4 m ρ c)
  rw [W4_arg m ρ c main_arg19 (by decide) (by decide)] at e
  exact e

/-- Region 2: the edge features times the first up-weight of the edge messages. -/
theorem W6_v70 (c : Dev nD) : W6 m ρ c (Proc.devRef .tc main_v70) = mul ((m ((c : Thread nD τ).loc main_arg1)) : Mat 65536 256) (val_main_v95 (F := Ideal) (m ((c : Thread nD τ).loc main_arg19)) : Mat 256 256) := by
  have e : W6 m ρ c (Proc.devRef .tc main_v70) = mul (W5 m ρ c (Proc.devRef .tc main_arg1) : Mat 65536 256) (W5 m ρ c (Proc.devRef .tc main_v69) : Mat 256 256) :=
    (W6_arr m ρ c 2).trans (arrAt2 (V5 m ρ) c)
  rw [W5_arg m ρ c main_arg1 (by decide) (by decide), W5_v69 m ρ c] at e
  exact e

/-- The second up-weight of the edge messages. -/
theorem W7_v72 (c : Dev nD) : W7 m ρ c (Proc.devRef .tc main_v72) = val_main_v105 (F := Ideal) (m ((c : Thread nD τ).loc main_arg20)) := by
  have e := after3_v72 (W6 m ρ c)
  rw [W6_arg m ρ c main_arg20 (by decide) (by decide)] at e
  exact e

/-- Region 3: the cell features times the second up-weight of the edge messages. -/
theorem W8_v73 (c : Dev nD) : W8 m ρ c (Proc.devRef .tc main_v73) = mul ((m ((c : Thread nD τ).loc main_arg2)) : Mat 16384 256) (val_main_v105 (F := Ideal) (m ((c : Thread nD τ).loc main_arg20)) : Mat 256 256) := by
  have e : W8 m ρ c (Proc.devRef .tc main_v73) = mul (W7 m ρ c (Proc.devRef .tc main_arg2) : Mat 16384 256) (W7 m ρ c (Proc.devRef .tc main_v72) : Mat 256 256) :=
    (W8_arr m ρ c 2).trans (arrAt3 (V7 m ρ) c)
  rw [W7_arg m ρ c main_arg2 (by decide) (by decide), W7_v72 m ρ c] at e
  exact e

/-- The edge boundary weight. -/
theorem W9_v75 (c : Dev nD) : W9 m ρ c (Proc.devRef .tc main_v75) = val_main_v116 (F := Ideal) (m ((c : Thread nD τ).loc main_arg21)) := by
  have e := after4_v75 (W8 m ρ c)
  rw [W8_arg m ρ c main_arg21 (by decide) (by decide)] at e
  exact e

/-- Region 4: the node features times the edge boundary weight. -/
theorem W10_v76 (c : Dev nD) : W10 m ρ c (Proc.devRef .tc main_v76) = mul ((m ((c : Thread nD τ).loc main_arg0)) : Mat 32768 256) (val_main_v116 (F := Ideal) (m ((c : Thread nD τ).loc main_arg21)) : Mat 256 256) := by
  have e : W10 m ρ c (Proc.devRef .tc main_v76) = mul (W9 m ρ c (Proc.devRef .tc main_arg0) : Mat 32768 256) (W9 m ρ c (Proc.devRef .tc main_v75) : Mat 256 256) :=
    (W10_arr m ρ c 2).trans (arrAt4 (V9 m ρ) c)
  rw [W9_arg m ρ c main_arg0 (by decide) (by decide), W9_v75 m ρ c] at e
  exact e

/-! ## The node messages and their sums

The kernel takes rows of the products; the reference multiplies the rows taken. -/

theorem W10_v64 (c : Dev nD) : W10 m ρ c (Proc.devRef .tc main_v64) = mul ((m ((c : Thread nD τ).loc main_arg0)) : Mat 32768 256) (val_main_v70 (F := Ideal) (m ((c : Thread nD τ).loc main_arg19)) : Mat 256 256) :=
  (W10_keep m ρ c main_v64 (by decide)).trans <|
  (W9_keep m ρ c main_v64 (by decide)).trans <|
  (W8_keep m ρ c main_v64 (by decide)).trans <|
  (W7_keep m ρ c main_v64 (by decide)).trans <|
  (W6_keep m ρ c main_v64 (by decide)).trans <|
  (W5_keep m ρ c main_v64 (by decide)).trans <|
  (W4_keep m ρ c main_v64 (by decide)).trans <|
  (W3_keep m ρ c main_v64 (by decide)).trans <|
  W2_v64 m ρ c

theorem W10_v67 (c : Dev nD) : W10 m ρ c (Proc.devRef .tc main_v67) = mul ((m ((c : Thread nD τ).loc main_arg1)) : Mat 65536 256) (val_main_v80 (F := Ideal) (m ((c : Thread nD τ).loc main_arg20)) : Mat 256 256) :=
  (W10_keep m ρ c main_v67 (by decide)).trans <|
  (W9_keep m ρ c main_v67 (by decide)).trans <|
  (W8_keep m ρ c main_v67 (by decide)).trans <|
  (W7_keep m ρ c main_v67 (by decide)).trans <|
  (W6_keep m ρ c main_v67 (by decide)).trans <|
  (W5_keep m ρ c main_v67 (by decide)).trans <|
  W4_v67 m ρ c

/-- The rectified node messages, in the kernel's order of operations. -/
theorem W12_v92 (c : Dev nD) : W12 m ρ c (Proc.devRef .tc main_v92)
    = maximumf (addf (Host.gather gather_S32768x256_S131072x1_S131072x256_1_0_n_n_0_1_1256 (mul ((m ((c : Thread nD τ).loc main_arg0)) : Mat 32768 256) (val_main_v70 (F := Ideal) (m ((c : Thread nD τ).loc main_arg19)) : Mat 256 256)) (val_main_v67 (F := Ideal) (m ((c : Thread nD τ).loc main_arg3)) (m ((c : Thread nD τ).loc main_arg5))))
        (Host.gather gather_S65536x256_S131072x1_S131072x256_1_0_n_n_0_1_1256 (mul ((m ((c : Thread nD τ).loc main_arg1)) : Mat 65536 256) (val_main_v80 (F := Ideal) (m ((c : Thread nD τ).loc main_arg20)) : Mat 256 256)) (val_main_v77 (F := Ideal) (m ((c : Thread nD τ).loc main_arg3)) (m ((c : Thread nD τ).loc main_arg6))))) (broadcastInDim S131072x256 ![] bcast_S_S131072x256 (constant (F := Ideal) S_ .f32 0x00000000#32)) := by
  have e91 := after5_v91 (W10 m ρ c)
  rw [W10_v64 m ρ c, W10_v67 m ρ c, (W10_since1 m ρ c main_v49 (by decide)).trans (W1_v49 m ρ c),
    (W10_since1 m ρ c main_v52 (by decide)).trans (W1_v52 m ρ c)] at e91
  have e92 := after5_1_v92 (W11 m ρ c)
  rw [show W11 m ρ c (Proc.devRef .tc main_v91) = _ from e91] at e92
  exact e92

/-- The node messages added up per receiving node: the reference's sum. -/
theorem W13_v95 (c : Dev nD) : W13 m ρ c (Proc.devRef .tc main_v95) = val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg19)) (m ((c : Thread nD τ).loc main_arg20)) := by
  have e := after5_2_v95 (W12 m ρ c)
  rw [(W12_since1 m ρ c main_v46 (by decide)).trans (W1_v46 m ρ c), W12_v92 m ρ c] at e
  exact e.trans (Cert.Bridge.up_n_layer0 _ _ _ _ _ _ _ _)

/-! ## The edge messages and their sums -/

theorem W12_v70 (c : Dev nD) : W12 m ρ c (Proc.devRef .tc main_v70) = mul ((m ((c : Thread nD τ).loc main_arg1)) : Mat 65536 256) (val_main_v95 (F := Ideal) (m ((c : Thread nD τ).loc main_arg19)) : Mat 256 256) :=
  (W12_keep m ρ c main_v70 (by decide)).trans <|
  (W11_keep m ρ c main_v70 (by decide)).trans <|
  (W10_keep m ρ c main_v70 (by decide)).trans <|
  (W9_keep m ρ c main_v70 (by decide)).trans <|
  (W8_keep m ρ c main_v70 (by decide)).trans <|
  (W7_keep m ρ c main_v70 (by decide)).trans <|
  W6_v70 m ρ c

theorem W12_v73 (c : Dev nD) : W12 m ρ c (Proc.devRef .tc main_v73) = mul ((m ((c : Thread nD τ).loc main_arg2)) : Mat 16384 256) (val_main_v105 (F := Ideal) (m ((c : Thread nD τ).loc main_arg20)) : Mat 256 256) :=
  (W12_keep m ρ c main_v73 (by decide)).trans <|
  (W11_keep m ρ c main_v73 (by decide)).trans <|
  (W10_keep m ρ c main_v73 (by decide)).trans <|
  (W9_keep m ρ c main_v73 (by decide)).trans <|
  W8_v73 m ρ c

/-- The rectified edge messages, in the kernel's order of operations. -/
theorem W14_v111 (c : Dev nD) : W14 m ρ c (Proc.devRef .tc main_v111)
    = maximumf (addf (Host.gather gather_S65536x256_S98304x1_S98304x256_1_0_n_n_0_1_1256 (mul ((m ((c : Thread nD τ).loc main_arg1)) : Mat 65536 256) (val_main_v95 (F := Ideal) (m ((c : Thread nD τ).loc main_arg19)) : Mat 256 256)) (val_main_v92 (F := Ideal) (m ((c : Thread nD τ).loc main_arg7)) (m ((c : Thread nD τ).loc main_arg9))))
        (Host.gather gather_S16384x256_S98304x1_S98304x256_1_0_n_n_0_1_1256 (mul ((m ((c : Thread nD τ).loc main_arg2)) : Mat 16384 256) (val_main_v105 (F := Ideal) (m ((c : Thread nD τ).loc main_arg20)) : Mat 256 256)) (val_main_v102 (F := Ideal) (m ((c : Thread nD τ).loc main_arg7)) (m ((c : Thread nD τ).loc main_arg10))))) (broadcastInDim S98304x256 ![] bcast_S_S98304x256 (constant (F := Ideal) S_ .f32 0x00000000#32)) := by
  have e110 := after5_2_v110 (W12 m ρ c)
  rw [W12_v70 m ρ c, W12_v73 m ρ c, (W12_since1 m ρ c main_v58 (by decide)).trans (W1_v58 m ρ c),
    (W12_since1 m ρ c main_v61 (by decide)).trans (W1_v61 m ρ c)] at e110
  have e111 := after5_3_v111 (W13 m ρ c)
  rw [show W13 m ρ c (Proc.devRef .tc main_v110) = _ from e110] at e111
  exact e111

/-- The edge messages added up per receiving edge: the reference's sum. -/
theorem W15_v114 (c : Dev nD) : W15 m ρ c (Proc.devRef .tc main_v114) = val_main_v111 (F := Ideal) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg19)) (m ((c : Thread nD τ).loc main_arg20)) := by
  have e := after5_4_v114 (W14 m ρ c)
  rw [(W14_since1 m ρ c main_v55 (by decide)).trans (W1_v55 m ρ c), W14_v111 m ρ c] at e
  exact e.trans (Cert.Bridge.up_e_layer0 _ _ _ _ _ _ _ _)

/-! ## The edge boundary term

The kernel multiplies the incidence array with the node features already multiplied by the weight; the reference
multiplies by the weight last. With every entry real the two agree. -/

theorem W14_v76 (c : Dev nD) : W14 m ρ c (Proc.devRef .tc main_v76) = mul ((m ((c : Thread nD τ).loc main_arg0)) : Mat 32768 256) (val_main_v116 (F := Ideal) (m ((c : Thread nD τ).loc main_arg21)) : Mat 256 256) :=
  (W14_keep m ρ c main_v76 (by decide)).trans <|
  (W13_keep m ρ c main_v76 (by decide)).trans <|
  (W12_keep m ρ c main_v76 (by decide)).trans <|
  (W11_keep m ρ c main_v76 (by decide)).trans <|
  W10_v76 m ρ c

theorem W15_v115 (c : Dev nD) : W15 m ρ c (Proc.devRef .tc main_v115)
    = shapeCast S256x128x256 (mul ((m ((c : Thread nD τ).loc main_arg0)) : Mat 32768 256) (val_main_v116 (F := Ideal) (m ((c : Thread nD τ).loc main_arg21)) : Mat 256 256)) shapeCasts_S32768x256_S256x128x256 := by
  have e := after5_4_v115 (W14 m ρ c)
  rw [W14_v76 m ρ c] at e
  exact e

/-- Region 5: the batched product of the edge incidence array with the projected node features. -/
theorem W16_v116 (c : Dev nD) : W16 m ρ c (Proc.devRef .tc main_v116)
    = bmul (val_main_v21 (F := Ideal) (m ((c : Thread nD τ).loc main_arg11)) (m ((c : Thread nD τ).loc main_arg12)) (m ((c : Thread nD τ).loc main_arg13)) : Mat3 256 256 128)
        (shapeCast S256x128x256 (mul ((m ((c : Thread nD τ).loc main_arg0)) : Mat 32768 256) (val_main_v116 (F := Ideal) (m ((c : Thread nD τ).loc main_arg21)) : Mat 256 256)) shapeCasts_S32768x256_S256x128x256 : Mat3 256 128 256) := by
  have e : W16 m ρ c (Proc.devRef .tc main_v116) = bmul (W15 m ρ c (Proc.devRef .tc main_v21) : Mat3 256 256 128) (W15 m ρ c (Proc.devRef .tc main_v115) : Mat3 256 128 256) :=
    (W16_arr m ρ c 2).trans (arrAt5 (V15 m ρ) c)
  rw [(W15_since1 m ρ c main_v21 (by decide)).trans (W1_v21 m ρ c), W15_v115 m ρ c] at e
  exact e

/-- The edge boundary term, flat: the reference's. -/
theorem W17_v117 (c : Dev nD) (hnf : Cert.Spec.Finite (s := ⟨2, ![32768, 256]⟩) (m ((c : Thread nD τ).loc main_arg0))) (h21 : Cert.Spec.Finite (s := ⟨4, ![4, 2, 256, 256]⟩) (m ((c : Thread nD τ).loc main_arg21))) :
    W17 m ρ c (Proc.devRef .tc main_v117) = val_main_v117 (F := Ideal) (m ((c : Thread nD τ).loc main_arg0)) (m ((c : Thread nD τ).loc main_arg11)) (m ((c : Thread nD τ).loc main_arg12)) (m ((c : Thread nD τ).loc main_arg13)) (m ((c : Thread nD τ).loc main_arg21)) := by
  have e := after6_v117 (W16 m ρ c)
  rw [W16_v116 m ρ c] at e
  exact e.trans (Cert.Bridge.bd_e_layer0 _ _ _ _ _ hnf h21)

/-! ## The cell boundary term -/

theorem W17_v118 (c : Dev nD) : W17 m ρ c (Proc.devRef .tc main_v118) = val_main_v118 (F := Ideal) (m ((c : Thread nD τ).loc main_arg1)) := by
  have e := after6_v118 (W16 m ρ c)
  rw [W16_arg m ρ c main_arg1 (by decide) (by decide)] at e
  exact e

theorem W17_v120 (c : Dev nD) : W17 m ρ c (Proc.devRef .tc main_v120) = val_main_v122 (F := Ideal) (m ((c : Thread nD τ).loc main_arg21)) := by
  have e := after6_v120 (W16 m ρ c)
  rw [W16_arg m ρ c main_arg21 (by decide) (by decide)] at e
  exact e

/-- Region 6: the batched product of the cell incidence array with the edge features, each batch then multiplied by the
    weight. -/
theorem W18_v121 (c : Dev nD) : W18 m ρ c (Proc.devRef .tc main_v121)
    = Cert.Bridge.cellMsg (val_main_v43 (F := Ideal) (m ((c : Thread nD τ).loc main_arg14)) (m ((c : Thread nD τ).loc main_arg15)) (m ((c : Thread nD τ).loc main_arg16))) (val_main_v118 (F := Ideal) (m ((c : Thread nD τ).loc main_arg1))) (val_main_v122 (F := Ideal) (m ((c : Thread nD τ).loc main_arg21))) := by
  have e : W18 m ρ c (Proc.devRef .tc main_v121)
      = ((fun i => ∑ q : Fin 256, bmul (W17 m ρ c (Proc.devRef .tc main_v43) : Mat3 256 64 256) (W17 m ρ c (Proc.devRef .tc main_v118) : Mat3 256 256 256) (ix3 (i 0) (i 1) q)
          * (W17 m ρ c (Proc.devRef .tc main_v120) : Mat 256 256) (ix2 q (i 2))) : Mat3 256 64 256) :=
    (W18_arr m ρ c 3).trans (arrAt6 (V17 m ρ) c)
  rw [(W17_since1 m ρ c main_v43 (by decide)).trans (W1_v43 m ρ c), W17_v118 m ρ c, W17_v120 m ρ c] at e
  exact e

/-- The cell boundary term, flat: the reference's. -/
theorem W19_v122 (c : Dev nD) : W19 m ρ c (Proc.devRef .tc main_v122) = val_main_v123 (F := Ideal) (m ((c : Thread nD τ).loc main_arg1)) (m ((c : Thread nD τ).loc main_arg14)) (m ((c : Thread nD τ).loc main_arg15)) (m ((c : Thread nD τ).loc main_arg16)) (m ((c : Thread nD τ).loc main_arg21)) := by
  have e := after7_v122 (W18 m ρ c)
  rw [W18_v121 m ρ c] at e
  exact e.trans (Cert.Bridge.bd_c_layer0 _ _ _ _ _)

/-! ## The three updates

Each region adds, entry by entry, the product of the features with a self weight, a bias row, and the message sums,
and rectifies; the reference does the same with the bias broadcast over the rows. -/

theorem W19_v124 (c : Dev nD) : W19 m ρ c (Proc.devRef .tc main_v124) = val_main_v125 (F := Ideal) (m ((c : Thread nD τ).loc main_arg17)) := by
  have e := after7_v124 (W18 m ρ c)
  rw [W18_arg m ρ c main_arg17 (by decide) (by decide)] at e
  exact e

theorem W19_v127 (c : Dev nD) : W19 m ρ c (Proc.devRef .tc main_v127) = (shapeCast S1x256 (shapeCast S256 (extractStridedSlice S1x1x256 ![0, 0, 0] (m ((c : Thread nD τ).loc main_arg18)) slices_S4x3x256_S1x1x256_0_0_0) shapeCasts_S1x1x256_S256) shapeCasts_S256_S1x256 : Mat 1 256) := by
  have e := after7_v127 (W18 m ρ c)
  rw [W18_arg m ρ c main_arg18 (by decide) (by decide)] at e
  exact e

theorem W19_v95 (c : Dev nD) : W19 m ρ c (Proc.devRef .tc main_v95) = val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg19)) (m ((c : Thread nD τ).loc main_arg20)) :=
  (W19_keep m ρ c main_v95 (by decide)).trans <|
  (W18_keep m ρ c main_v95 (by decide)).trans <|
  (W17_keep m ρ c main_v95 (by decide)).trans <|
  (W16_keep m ρ c main_v95 (by decide)).trans <|
  (W15_keep m ρ c main_v95 (by decide)).trans <|
  (W14_keep m ρ c main_v95 (by decide)).trans <|
  W13_v95 m ρ c

/-- Region 7: the new node features are the reference's. -/
theorem W20_v128 (c : Dev nD) : W20 m ρ c (Proc.devRef .tc main_v128) = val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)) := by
  have e : W20 m ρ c (Proc.devRef .tc main_v128)
      = ((fun i => max (mul (W19 m ρ c (Proc.devRef .tc main_arg0) : Mat 32768 256) (W19 m ρ c (Proc.devRef .tc main_v124) : Mat 256 256) i
          + (W19 m ρ c (Proc.devRef .tc main_v127) : Mat 1 256) (ix2 (0 : Fin 1) (i 1)) + (W19 m ρ c (Proc.devRef .tc main_v95) : Mat 32768 256) i) 0) : Mat 32768 256) :=
    (W20_arr m ρ c 4).trans (arrAt7 (V19 m ρ) c)
  rw [W19_arg m ρ c main_arg0 (by decide) (by decide), W19_v124 m ρ c, W19_v127 m ρ c, W19_v95 m ρ c] at e
  exact e.trans ((Cert.Bridge.self_n_layer0 _ _ _ _).trans rfl)

theorem W21_v130 (c : Dev nD) : W21 m ρ c (Proc.devRef .tc main_v130) = val_main_v135 (F := Ideal) (m ((c : Thread nD τ).loc main_arg17)) := by
  have e := after8_v130 (W20 m ρ c)
  rw [W20_arg m ρ c main_arg17 (by decide) (by decide)] at e
  exact e

theorem W21_v133 (c : Dev nD) : W21 m ρ c (Proc.devRef .tc main_v133) = (shapeCast S1x256 (shapeCast S256 (extractStridedSlice S1x1x256 ![0, 1, 0] (m ((c : Thread nD τ).loc main_arg18)) slices_S4x3x256_S1x1x256_0_1_0) shapeCasts_S1x1x256_S256) shapeCasts_S256_S1x256 : Mat 1 256) := by
  have e := after8_v133 (W20 m ρ c)
  rw [W20_arg m ρ c main_arg18 (by decide) (by decide)] at e
  exact e

theorem W21_v114 (c : Dev nD) : W21 m ρ c (Proc.devRef .tc main_v114) = val_main_v111 (F := Ideal) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg19)) (m ((c : Thread nD τ).loc main_arg20)) :=
  (W21_keep m ρ c main_v114 (by decide)).trans <|
  (W20_keep m ρ c main_v114 (by decide)).trans <|
  (W19_keep m ρ c main_v114 (by decide)).trans <|
  (W18_keep m ρ c main_v114 (by decide)).trans <|
  (W17_keep m ρ c main_v114 (by decide)).trans <|
  (W16_keep m ρ c main_v114 (by decide)).trans <|
  W15_v114 m ρ c

theorem W21_v117 (c : Dev nD) (hnf : Cert.Spec.Finite (s := ⟨2, ![32768, 256]⟩) (m ((c : Thread nD τ).loc main_arg0))) (h21 : Cert.Spec.Finite (s := ⟨4, ![4, 2, 256, 256]⟩) (m ((c : Thread nD τ).loc main_arg21))) :
    W21 m ρ c (Proc.devRef .tc main_v117) = val_main_v117 (F := Ideal) (m ((c : Thread nD τ).loc main_arg0)) (m ((c : Thread nD τ).loc main_arg11)) (m ((c : Thread nD τ).loc main_arg12)) (m ((c : Thread nD τ).loc main_arg13)) (m ((c : Thread nD τ).loc main_arg21)) :=
  (W21_keep m ρ c main_v117 (by decide)).trans <|
  (W20_keep m ρ c main_v117 (by decide)).trans <|
  (W19_keep m ρ c main_v117 (by decide)).trans <|
  (W18_keep m ρ c main_v117 (by decide)).trans <|
  W17_v117 m ρ c hnf h21

/-- Region 8: the new edge features are the reference's. -/
theorem W22_v134 (c : Dev nD) (hnf : Cert.Spec.Finite (s := ⟨2, ![32768, 256]⟩) (m ((c : Thread nD τ).loc main_arg0))) (h21 : Cert.Spec.Finite (s := ⟨4, ![4, 2, 256, 256]⟩) (m ((c : Thread nD τ).loc main_arg21))) :
    W22 m ρ c (Proc.devRef .tc main_v134) = val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)) := by
  have e : W22 m ρ c (Proc.devRef .tc main_v134)
      = ((fun i => max (mul (W21 m ρ c (Proc.devRef .tc main_arg1) : Mat 65536 256) (W21 m ρ c (Proc.devRef .tc main_v130) : Mat 256 256) i
          + (W21 m ρ c (Proc.devRef .tc main_v133) : Mat 1 256) (ix2 (0 : Fin 1) (i 1)) + (W21 m ρ c (Proc.devRef .tc main_v114) : Mat 65536 256) i
          + (W21 m ρ c (Proc.devRef .tc main_v117) : Mat 65536 256) i) 0) : Mat 65536 256) :=
    (W22_arr m ρ c 5).trans (arrAt8 (V21 m ρ) c)
  rw [W21_arg m ρ c main_arg1 (by decide) (by decide), W21_v130 m ρ c, W21_v133 m ρ c, W21_v114 m ρ c, W21_v117 m ρ c hnf h21] at e
  exact e.trans ((Cert.Bridge.self_e_layer0 _ _ _ _ _).trans rfl)

theorem W23_v136 (c : Dev nD) : W23 m ρ c (Proc.devRef .tc main_v136) = val_main_v146 (F := Ideal) (m ((c : Thread nD τ).loc main_arg17)) := by
  have e := after9_v136 (W22 m ρ c)
  rw [W22_arg m ρ c main_arg17 (by decide) (by decide)] at e
  exact e

theorem W23_v139 (c : Dev nD) : W23 m ρ c (Proc.devRef .tc main_v139) = (shapeCast S1x256 (shapeCast S256 (extractStridedSlice S1x1x256 ![0, 2, 0] (m ((c : Thread nD τ).loc main_arg18)) slices_S4x3x256_S1x1x256_0_2_0) shapeCasts_S1x1x256_S256) shapeCasts_S256_S1x256 : Mat 1 256) := by
  have e := after9_v139 (W22 m ρ c)
  rw [W22_arg m ρ c main_arg18 (by decide) (by decide)] at e
  exact e

theorem W23_v122 (c : Dev nD) : W23 m ρ c (Proc.devRef .tc main_v122) = val_main_v123 (F := Ideal) (m ((c : Thread nD τ).loc main_arg1)) (m ((c : Thread nD τ).loc main_arg14)) (m ((c : Thread nD τ).loc main_arg15)) (m ((c : Thread nD τ).loc main_arg16)) (m ((c : Thread nD τ).loc main_arg21)) :=
  (W23_keep m ρ c main_v122 (by decide)).trans <|
  (W22_keep m ρ c main_v122 (by decide)).trans <|
  (W21_keep m ρ c main_v122 (by decide)).trans <|
  (W20_keep m ρ c main_v122 (by decide)).trans <|
  W19_v122 m ρ c

/-- Region 9: the new cell features are the reference's. -/
theorem W24_v140 (c : Dev nD) : W24 m ρ c (Proc.devRef .tc main_v140) = val_main_v154 (F := Ideal) (m ((c : Thread nD τ).loc main_arg1)) (m ((c : Thread nD τ).loc main_arg2)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) := by
  have e : W24 m ρ c (Proc.devRef .tc main_v140)
      = ((fun i => max (mul (W23 m ρ c (Proc.devRef .tc main_arg2) : Mat 16384 256) (W23 m ρ c (Proc.devRef .tc main_v136) : Mat 256 256) i
          + (W23 m ρ c (Proc.devRef .tc main_v139) : Mat 1 256) (ix2 (0 : Fin 1) (i 1)) + (W23 m ρ c (Proc.devRef .tc main_v122) : Mat 16384 256) i) 0) : Mat 16384 256) :=
    (W24_arr m ρ c 4).trans (arrAt9 (V23 m ρ) c)
  rw [W23_arg m ρ c main_arg2 (by decide) (by decide), W23_v136 m ρ c, W23_v139 m ρ c, W23_v122 m ρ c] at e
  exact e.trans ((Cert.Bridge.self_c_layer0 _ _ _ _).trans rfl)

/-! ## Layer 0 -/

/-- LAYER 0: at boundary 24 the three feature arrays the kernel program has written are the reference's new node, edge
    and cell features of layer 0, as functions of the arguments. The node features the layer starts from and the edge boundary weight stack are
    taken real: the edge boundary term is re-associated. -/
theorem layer0 (c : Dev nD)
    (hnf : Cert.Spec.Finite (s := ⟨2, ![32768, 256]⟩) (m ((c : Thread nD τ).loc main_arg0)))
    (h21 : Cert.Spec.Finite (s := ⟨4, ![4, 2, 256, 256]⟩) (m ((c : Thread nD τ).loc main_arg21))) :
    W24 m ρ c (Proc.devRef .tc main_v128) = val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20))
    ∧ W24 m ρ c (Proc.devRef .tc main_v134) = val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))
    ∧ W24 m ρ c (Proc.devRef .tc main_v140) = val_main_v154 (F := Ideal) (m ((c : Thread nD τ).loc main_arg1)) (m ((c : Thread nD τ).loc main_arg2)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) := by
  refine ⟨?_, ?_, W24_v140 m ρ c⟩
  · exact
      (W24_keep m ρ c main_v128 (by decide)).trans <|
      (W23_keep m ρ c main_v128 (by decide)).trans <|
      (W22_keep m ρ c main_v128 (by decide)).trans <|
      (W21_keep m ρ c main_v128 (by decide)).trans <|
      W20_v128 m ρ c
  · exact
      (W24_keep m ρ c main_v134 (by decide)).trans <|
      (W23_keep m ρ c main_v134 (by decide)).trans <|
      W22_v134 m ρ c hnf h21

end Cert.KernelIdeal.Val

end
-- ==== Proof.KI.Layer1Host.lean ====
/- What each stretch of host operations of layer 1 leaves in the buffers the layer goes on to use, as a term of the
   buffers it finds: the weight and bias slices, the gathered and rectified messages, their sums per receiver, and the
   reshapes between flat and batched layouts. Each statement is over an arbitrary contents `W` at the stretch's entry. -/
import proofs.«101828_j11562051961417_2_alg».proof.Proof.Gen.KernelIdeal.Launch
import Idealize.ShloMosaic.Lib.StableHlo.Run

set_option maxRecDepth 16384

noncomputable section

namespace Cert.KernelIdeal.Val

open Cert.KernelIdeal.Gen
open Idealize.ShloMosaic Idealize.ShloMosaic.TcCoe

variable {F : FTy → Type} [FloatOps F]
variable (W : Valuation τ sig (Elt F))

/-! ## The stretch before region 10: the first weight -/

set_option maxHeartbeats 4000000 in
/-- The weight of the node messages' sender term: layer 1, slot 0 of the first up-weight stack. -/
theorem after10_v142 : StableHlo.after hostOps10 W (Proc.devRef .tc main_v142)
    = shapeCast S256x256 (extractStridedSlice S1x1x256x256 ![1, 0, 0, 0] (W (Proc.devRef .tc main_arg19) : (⟨S4x2x256x256, .f32⟩ : BufTy).Contents (Elt F)) slices_S4x2x256x256_S1x1x256x256_1_0_0_0) shapeCasts_S1x1x256x256_S256x256 := by
  after_results_simp <;> rfl

/-! ## The weight slices between the products -/

/-- Layer 1, slot 0 of the second up-weight stack. -/
theorem after11_v145 : StableHlo.after hostOps11 W (Proc.devRef .tc main_v145)
    = shapeCast S256x256 (extractStridedSlice S1x1x256x256 ![1, 0, 0, 0] (W (Proc.devRef .tc main_arg20) : (⟨S4x2x256x256, .f32⟩ : BufTy).Contents (Elt F)) slices_S4x2x256x256_S1x1x256x256_1_0_0_0) shapeCasts_S1x1x256x256_S256x256 := by
  after_results <;> rfl

/-- Layer 1, slot 1 of the first up-weight stack. -/
theorem after12_v148 : StableHlo.after hostOps12 W (Proc.devRef .tc main_v148)
    = shapeCast S256x256 (extractStridedSlice S1x1x256x256 ![1, 1, 0, 0] (W (Proc.devRef .tc main_arg19) : (⟨S4x2x256x256, .f32⟩ : BufTy).Contents (Elt F)) slices_S4x2x256x256_S1x1x256x256_1_1_0_0) shapeCasts_S1x1x256x256_S256x256 := by
  after_results <;> rfl

/-- Layer 1, slot 1 of the second up-weight stack. -/
theorem after13_v151 : StableHlo.after hostOps13 W (Proc.devRef .tc main_v151)
    = shapeCast S256x256 (extractStridedSlice S1x1x256x256 ![1, 1, 0, 0] (W (Proc.devRef .tc main_arg20) : (⟨S4x2x256x256, .f32⟩ : BufTy).Contents (Elt F)) slices_S4x2x256x256_S1x1x256x256_1_1_0_0) shapeCasts_S1x1x256x256_S256x256 := by
  after_results <;> rfl

/-- Layer 1, slot 0 of the boundary weight stack. -/
theorem after14_v154 : StableHlo.after hostOps14 W (Proc.devRef .tc main_v154)
    = shapeCast S256x256 (extractStridedSlice S1x1x256x256 ![1, 0, 0, 0] (W (Proc.devRef .tc main_arg21) : (⟨S4x2x256x256, .f32⟩ : BufTy).Contents (Elt F)) slices_S4x2x256x256_S1x1x256x256_1_0_0_0) shapeCasts_S1x1x256x256_S256x256 := by
  after_results <;> rfl

/-! ## The messages -/

set_option maxHeartbeats 4000000 in
/-- The node messages before the rectifier: the sender rows of the first product plus the edge rows of the second. -/
theorem after15_v170 : StableHlo.after hostOps15 W (Proc.devRef .tc main_v170)
    = addf (Host.gather gather_S32768x256_S131072x1_S131072x256_1_0_n_n_0_1_1256 (W (Proc.devRef .tc main_v143) : (⟨S32768x256, .f32⟩ : BufTy).Contents (Elt F)) (broadcastInDim S131072x1 ![0] bcast_S131072_S131072x1_0 (select (cmpi .slt (W (Proc.devRef .tc main_v49) : (⟨S131072, .i32⟩ : BufTy).Contents (Elt F)) (broadcastInDim S131072 ![] bcast_S_S131072 (constantI S_ 32 0#32))) (addi (W (Proc.devRef .tc main_v49) : (⟨S131072, .i32⟩ : BufTy).Contents (Elt F)) (broadcastInDim S131072 ![] bcast_S_S131072 (constantI S_ 32 32768#32))) (W (Proc.devRef .tc main_v49) : (⟨S131072, .i32⟩ : BufTy).Contents (Elt F)))))
      (Host.gather gather_S65536x256_S131072x1_S131072x256_1_0_n_n_0_1_1256 (W (Proc.devRef .tc main_v146) : (⟨S65536x256, .f32⟩ : BufTy).Contents (Elt F)) (broadcastInDim S131072x1 ![0] bcast_S131072_S131072x1_0 (select (cmpi .slt (W (Proc.devRef .tc main_v52) : (⟨S131072, .i32⟩ : BufTy).Contents (Elt F)) (broadcastInDim S131072 ![] bcast_S_S131072 (constantI S_ 32 0#32))) (addi (W (Proc.devRef .tc main_v52) : (⟨S131072, .i32⟩ : BufTy).Contents (Elt F)) (broadcastInDim S131072 ![] bcast_S_S131072 (constantI S_ 32 65536#32))) (W (Proc.devRef .tc main_v52) : (⟨S131072, .i32⟩ : BufTy).Contents (Elt F))))) := by
  after_results_simp <;> rfl

/-- The rectifier of the node messages. -/
theorem after15_1_v171 : StableHlo.after hostOps15_1 W (Proc.devRef .tc main_v171)
    = maximumf (W (Proc.devRef .tc main_v170) : (⟨S131072x256, .f32⟩ : BufTy).Contents (Elt F)) (broadcastInDim S131072x256 ![] bcast_S_S131072x256 (constant (F := F) S_ .f32 0x00000000#32)) := by
  after_results <;> (try simp only [StableHlo.TRef.ofBuf, StableHlo.TRef.toBuf, cast_eq]) <;> rfl

set_option maxHeartbeats 4000000 in
/-- The node messages added up per receiving node. -/
theorem after15_2_v174 : StableHlo.after hostOps15_2 W (Proc.devRef .tc main_v174)
    = Host.scatterAdd scatter_S32768x256_S131072x1_S131072x256_1_0_0_1 (broadcastInDim S32768x256 ![] bcast_S_S32768x256 (constant (F := F) S_ .f32 0x00000000#32)) (broadcastInDim S131072x1 ![0] bcast_S131072_S131072x1_0 (W (Proc.devRef .tc main_v46) : (⟨S131072, .i32⟩ : BufTy).Contents (Elt F))) (W (Proc.devRef .tc main_v171) : (⟨S131072x256, .f32⟩ : BufTy).Contents (Elt F)) := by
  after_results_simp <;> rfl

set_option maxHeartbeats 4000000 in
/-- The edge messages before the rectifier: the sender rows of the third product plus the cell rows of the fourth. -/
theorem after15_2_v189 : StableHlo.after hostOps15_2 W (Proc.devRef .tc main_v189)
    = addf (Host.gather gather_S65536x256_S98304x1_S98304x256_1_0_n_n_0_1_1256 (W (Proc.devRef .tc main_v149) : (⟨S65536x256, .f32⟩ : BufTy).Contents (Elt F)) (broadcastInDim S98304x1 ![0] bcast_S98304_S98304x1_0 (select (cmpi .slt (W (Proc.devRef .tc main_v58) : (⟨S98304, .i32⟩ : BufTy).Contents (Elt F)) (broadcastInDim S98304 ![] bcast_S_S98304 (constantI S_ 32 0#32))) (addi (W (Proc.devRef .tc main_v58) : (⟨S98304, .i32⟩ : BufTy).Contents (Elt F)) (broadcastInDim S98304 ![] bcast_S_S98304 (constantI S_ 32 65536#32))) (W (Proc.devRef .tc main_v58) : (⟨S98304, .i32⟩ : BufTy).Contents (Elt F)))))
      (Host.gather gather_S16384x256_S98304x1_S98304x256_1_0_n_n_0_1_1256 (W (Proc.devRef .tc main_v152) : (⟨S16384x256, .f32⟩ : BufTy).Contents (Elt F)) (broadcastInDim S98304x1 ![0] bcast_S98304_S98304x1_0 (select (cmpi .slt (W (Proc.devRef .tc main_v61) : (⟨S98304, .i32⟩ : BufTy).Contents (Elt F)) (broadcastInDim S98304 ![] bcast_S_S98304 (constantI S_ 32 0#32))) (addi (W (Proc.devRef .tc main_v61) : (⟨S98304, .i32⟩ : BufTy).Contents (Elt F)) (broadcastInDim S98304 ![] bcast_S_S98304 (constantI S_ 32 16384#32))) (W (Proc.devRef .tc main_v61) : (⟨S98304, .i32⟩ : BufTy).Contents (Elt F))))) := by
  after_results_simp <;> rfl

/-- The rectifier of the edge messages. -/
theorem after15_3_v190 : StableHlo.after hostOps15_3 W (Proc.devRef .tc main_v190)
    = maximumf (W (Proc.devRef .tc main_v189) : (⟨S98304x256, .f32⟩ : BufTy).Contents (Elt F)) (broadcastInDim S98304x256 ![] bcast_S_S98304x256 (constant (F := F) S_ .f32 0x00000000#32)) := by
  after_results <;> (try simp only [StableHlo.TRef.ofBuf, StableHlo.TRef.toBuf, cast_eq]) <;> rfl

/-- The edge messages added up per receiving edge. -/
theorem after15_4_v193 : StableHlo.after hostOps15_4 W (Proc.devRef .tc main_v193)
    = Host.scatterAdd scatter_S65536x256_S98304x1_S98304x256_1_0_0_1 (broadcastInDim S65536x256 ![] bcast_S_S65536x256 (constant (F := F) S_ .f32 0x00000000#32)) (broadcastInDim S98304x1 ![0] bcast_S98304_S98304x1_0 (W (Proc.devRef .tc main_v55) : (⟨S98304, .i32⟩ : BufTy).Contents (Elt F))) (W (Proc.devRef .tc main_v190) : (⟨S98304x256, .f32⟩ : BufTy).Contents (Elt F)) := by
  after_results <;> rfl

/-- The fifth product cut into 256 batches of 128 rows. -/
theorem after15_4_v194 : StableHlo.after hostOps15_4 W (Proc.devRef .tc main_v194)
    = shapeCast S256x128x256 (W (Proc.devRef .tc main_v155) : (⟨S32768x256, .f32⟩ : BufTy).Contents (Elt F)) shapeCasts_S32768x256_S256x128x256 := by
  after_results <;> rfl

/-! ## Around the two boundary regions -/

/-- The edge boundary term laid flat: 256 batches of 256 rows as 65536 rows. -/
theorem after16_v196 : StableHlo.after hostOps16 W (Proc.devRef .tc main_v196)
    = shapeCast S65536x256 (W (Proc.devRef .tc main_v195) : (⟨S256x256x256, .f32⟩ : BufTy).Contents (Elt F)) shapeCasts_S256x256x256_S65536x256 := by
  after_results <;> rfl

/-- The edge features cut into 256 batches of 256 rows. -/
theorem after16_v197 : StableHlo.after hostOps16 W (Proc.devRef .tc main_v197)
    = shapeCast S256x256x256 (W (Proc.devRef .tc main_v134) : (⟨S65536x256, .f32⟩ : BufTy).Contents (Elt F)) shapeCasts_S65536x256_S256x256x256 := by
  after_results <;> rfl

/-- Layer 1, slot 1 of the boundary weight stack. -/
theorem after16_v199 : StableHlo.after hostOps16 W (Proc.devRef .tc main_v199)
    = shapeCast S256x256 (extractStridedSlice S1x1x256x256 ![1, 1, 0, 0] (W (Proc.devRef .tc main_arg21) : (⟨S4x2x256x256, .f32⟩ : BufTy).Contents (Elt F)) slices_S4x2x256x256_S1x1x256x256_1_1_0_0) shapeCasts_S1x1x256x256_S256x256 := by
  after_results <;> rfl

/-- The cell boundary term laid flat: 256 batches of 64 rows as 16384 rows. -/
theorem after17_v201 : StableHlo.after hostOps17 W (Proc.devRef .tc main_v201)
    = shapeCast S16384x256 (W (Proc.devRef .tc main_v200) : (⟨S256x64x256, .f32⟩ : BufTy).Contents (Elt F)) shapeCasts_S256x64x256_S16384x256 := by
  after_results <;> rfl

/-! ## The weights and biases of the three updates -/

/-- Layer 1, slot 0 of the self weight stack. -/
theorem after17_v203 : StableHlo.after hostOps17 W (Proc.devRef .tc main_v203)
    = shapeCast S256x256 (extractStridedSlice S1x1x256x256 ![1, 0, 0, 0] (W (Proc.devRef .tc main_arg17) : (⟨S4x3x256x256, .f32⟩ : BufTy).Contents (Elt F)) slices_S4x3x256x256_S1x1x256x256_1_0_0_0) shapeCasts_S1x1x256x256_S256x256 := by
  after_results <;> rfl

/-- Layer 1, slot 0 of the bias stack, as one row. -/
theorem after17_v206 : StableHlo.after hostOps17 W (Proc.devRef .tc main_v206)
    = shapeCast S1x256 (shapeCast S256 (extractStridedSlice S1x1x256 ![1, 0, 0] (W (Proc.devRef .tc main_arg18) : (⟨S4x3x256, .f32⟩ : BufTy).Contents (Elt F)) slices_S4x3x256_S1x1x256_1_0_0) shapeCasts_S1x1x256_S256) shapeCasts_S256_S1x256 := by
  after_results <;> rfl

/-- Layer 1, slot 1 of the self weight stack. -/
theorem after18_v209 : StableHlo.after hostOps18 W (Proc.devRef .tc main_v209)
    = shapeCast S256x256 (extractStridedSlice S1x1x256x256 ![1, 1, 0, 0] (W (Proc.devRef .tc main_arg17) : (⟨S4x3x256x256, .f32⟩ : BufTy).Contents (Elt F)) slices_S4x3x256x256_S1x1x256x256_1_1_0_0) shapeCasts_S1x1x256x256_S256x256 := by
  after_results <;> rfl

/-- Layer 1, slot 1 of the bias stack, as one row. -/
theorem after18_v212 : StableHlo.after hostOps18 W (Proc.devRef .tc main_v212)
    = shapeCast S1x256 (shapeCast S256 (extractStridedSlice S1x1x256 ![1, 1, 0] (W (Proc.devRef .tc main_arg18) : (⟨S4x3x256, .f32⟩ : BufTy).Contents (Elt F)) slices_S4x3x256_S1x1x256_1_1_0) shapeCasts_S1x1x256_S256) shapeCasts_S256_S1x256 := by
  after_results <;> rfl

/-- Layer 1, slot 2 of the self weight stack. -/
theorem after19_v215 : StableHlo.after hostOps19 W (Proc.devRef .tc main_v215)
    = shapeCast S256x256 (extractStridedSlice S1x1x256x256 ![1, 2, 0, 0] (W (Proc.devRef .tc main_arg17) : (⟨S4x3x256x256, .f32⟩ : BufTy).Contents (Elt F)) slices_S4x3x256x256_S1x1x256x256_1_2_0_0) shapeCasts_S1x1x256x256_S256x256 := by
  after_results <;> rfl

/-- Layer 1, slot 2 of the bias stack, as one row. -/
theorem after19_v218 : StableHlo.after hostOps19 W (Proc.devRef .tc main_v218)
    = shapeCast S1x256 (shapeCast S256 (extractStridedSlice S1x1x256 ![1, 2, 0] (W (Proc.devRef .tc main_arg18) : (⟨S4x3x256, .f32⟩ : BufTy).Contents (Elt F)) slices_S4x3x256_S1x1x256_1_2_0) shapeCasts_S1x1x256_S256) shapeCasts_S256_S1x256 := by
  after_results <;> rfl

end Cert.KernelIdeal.Val

end
-- ==== Proof.KI.ValProj10.lean ====
/- Region 10 computes a matrix product, block of rows by block of rows.

   The region's first input array X has 32768 rows and 256 columns, its second input array W is 256 by 256, and its
   output array Y has the shape of X. The grid has 16 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 16 blocks cover Y, and after the region Y holds X · W. -/
import proofs.«101828_j11562051961417_2_alg».proof.Proof.KI.Region10
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs10_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs10_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs10_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs10_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay10_apply (x0 : FVec Ideal S2048x256 .f32) (x1 : FVec Ideal S256x256 .f32) (p : Fin 2048) (q : Fin 256) :
    k10_pay1 (F := Ideal) x0 x1 (ix2 p q) = ∑ k : Fin 256, x0 (ix2 p k) * x1 (ix2 k q) := by
  unfold k10_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs10_0 _ _
    | ⟨1, _⟩ => exact (lhs10_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs10_0 _ _).trans hk
    | ⟨1, _⟩ => exact rhs10_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz10 : (![0, 0] : Fin 2 → Nat) = fun _ => 0 := funext fun a => by fin_cases a <;> rfl

/-- The first input array as the region finds it: X, 32768 rows of 256 entries. -/
abbrev xarr10 (c : Dev nD) : Cert.Spec.Mat 32768 256 := V c (Pipeline.arrRef spec10 0)
/-- The second input array as the region finds it: W, 256 by 256. -/
abbrev warr10 (c : Dev nD) : Cert.Spec.Mat 256 256 := V c (Pipeline.arrRef spec10 1)

/-- Which block each window holds at grid point t: the blocks of X and of Y are block-row t (block column 0), the block of
    W is always the whole of W. Decided once over the 16 points. -/
theorem idx_facts10 : ∀ t : Fin cfg10.N, win10_0.index t (0 : Fin 2) = t.val
    ∧ win10_0.index t (1 : Fin 2) = 0
    ∧ win10_1.index t (0 : Fin 2) = 0
    ∧ win10_1.index t (1 : Fin 2) = 0
    ∧ win10_2.index t (0 : Fin 2) = t.val
    ∧ win10_2.index t (1 : Fin 2) = 0 :=
  (by decide +kernel : ∀ t : Fin grid10.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed10_eq (c : Dev nD) (t : Fin cfg10.N) :
    (dat10 (F := Ideal) V c).flushed 2 t = ((cfg10.win 2).blk t).view.read (Elt Ideal) (Cert.Spec.mul (xarr10 V c) (warr10 V c)) := by
  show (cfg10.win 2).cut (grid10.coords t) ((dat10 (F := Ideal) V c).after 2 t) = _
  rw [after10_2]
  unfold out10
  rw [View.canon_unit_zero hz10]
  simp only [View.ld_unit_zero (S := S2048x256) hz10, View.ld_unit_zero (S := S256x256) hz10]
  obtain ⟨e00, e01, e10, e11, e20, e21⟩ := idx_facts10 t
  funext j
  obtain ⟨p, q, rfl⟩ : ∃ (p : Fin 2048) (q : Fin 256), j = ix2 p q := ⟨j 0, j 1, eq_ix2 j⟩
  show k10_pay1 (F := Ideal) (iblk10 V c 0 t) (iblk10 V c 1 t) (ix2 p q) = Cert.Spec.mul (xarr10 V c) (warr10 V c) (((cfg10.win 2).blk t).view.emb (ix2 p q))
  refine (pay10_apply (iblk10 V c 0 t) (iblk10 V c 1 t) p q).trans ?_
  unfold Cert.Spec.mul
  refine Finset.sum_congr rfl fun k _ => ?_
  show xarr10 V c (((cfg10.win 0).blk t).view.emb (ix2 p k)) * warr10 V c (((cfg10.win 1).blk t).view.emb (ix2 k q))
    = xarr10 V c (ix2 ((((cfg10.win 2).blk t).view.emb (ix2 p q)) 0) k) * warr10 V c (ix2 k ((((cfg10.win 2).blk t).view.emb (ix2 p q)) 1))
  have h0 : ((cfg10.win 0).blk t).view.emb (ix2 p k) = ix2 ((((cfg10.win 2).blk t).view.emb (ix2 p q)) 0) k := by
    funext a; apply Fin.ext
    match a with
    | ⟨0, _⟩ => show win10_0.index t (0 : Fin 2) * 2048 + 1 * p.val = win10_2.index t (0 : Fin 2) * 2048 + 1 * p.val; omega
    | ⟨1, _⟩ => show win10_0.index t (1 : Fin 2) * 256 + 1 * k.val = k.val; omega
  have h1 : ((cfg10.win 1).blk t).view.emb (ix2 k q) = ix2 k ((((cfg10.win 2).blk t).view.emb (ix2 p q)) 1) := by
    funext a; apply Fin.ext
    match a with
    | ⟨0, _⟩ => show win10_1.index t (0 : Fin 2) * 256 + 1 * k.val = k.val; omega
    | ⟨1, _⟩ => show win10_1.index t (1 : Fin 2) * 256 + 1 * q.val = win10_2.index t (1 : Fin 2) * 256 + 1 * q.val; omega
  exact congrArg₂ (fun a b : EReal => a * b) (congrArg (xarr10 V c) h0) (congrArg (warr10 V c) h1)

/-- An entry of Y is in point t's block iff, on each axis, its coordinate lies in the block's range
    [index × size, index × size + size). -/
theorem mem_blk10 (t : Fin cfg10.N) (i : S32768x256.Idx) :
    i ∈ ((cfg10.win 2).blk t).view.set ↔ ∀ a : Fin 2, win10_2.index t a * S2048x256.size a ≤ (i a).val ∧ (i a).val < win10_2.index t a * S2048x256.size a + S2048x256.size a := by
  show i ∈ ((View.whole main_v143).slice (win10_2.rect t)).set ↔ _
  rw [View.set_slice_whole, Rect.mem_set_unit]
  exact Iff.rfl

/-- The blocks cover Y: row r lies in the block of point r / 2048 (r < 32768, so r / 2048 < 16), and every block spans
    all 256 columns. -/
theorem covered10 (i : S32768x256.Idx) : ∃ t : Fin cfg10.N, (cfg10.win 2).flush t = true ∧ i ∈ ((cfg10.win 2).blk t).view.set := by
  have hi0 : (i 0).val < 32768 := (i 0).isLt
  have hi1 : (i 1).val < 256 := (i 1).isLt
  have hN : cfg10.N = 16 := N_10
  have ht : (i 0).val / 2048 < cfg10.N := by rw [hN]; omega
  obtain ⟨-, -, -, -, e20, e21⟩ := idx_facts10 ⟨(i 0).val / 2048, ht⟩
  refine ⟨⟨(i 0).val / 2048, ht⟩, flush10_2 _, ?_⟩
  rw [mem_blk10]
  intro a
  match a with
  | ⟨0, _⟩ =>
    show win10_2.index ⟨(i 0).val / 2048, ht⟩ (0 : Fin 2) * 2048 ≤ (i 0).val ∧ (i 0).val < win10_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win10_2.index ⟨(i 0).val / 2048, ht⟩ (1 : Fin 2) * 256 ≤ (i 1).val ∧ (i 1).val < win10_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt10 (c : Dev nD) :
    (dat10 (F := Ideal) V c).arrAt 2 cfg10.N
      = Cert.Spec.mul (V c (Pipeline.arrRef spec10 0) : Cert.Spec.Mat 32768 256) (V c (Pipeline.arrRef spec10 1) : Cert.Spec.Mat 256 256) :=
  (dat10 (F := Ideal) V c).arrAt_eq_of_cover 2 (Cert.Spec.mul (xarr10 V c) (warr10 V c)) (fun t _ => flushed10_eq V c t) covered10

end Cert.KernelIdeal.Val

end
-- ==== Proof.KI.ValProj11.lean ====
/- Region 11 computes a matrix product, block of rows by block of rows.

   The region's first input array X has 65536 rows and 256 columns, its second input array W is 256 by 256, and its
   output array Y has the shape of X. The grid has 32 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 32 blocks cover Y, and after the region Y holds X · W. -/
import proofs.«101828_j11562051961417_2_alg».proof.Proof.KI.Region11
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs11_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs11_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs11_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs11_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay11_apply (x0 : FVec Ideal S2048x256 .f32) (x1 : FVec Ideal S256x256 .f32) (p : Fin 2048) (q : Fin 256) :
    k11_pay1 (F := Ideal) x0 x1 (ix2 p q) = ∑ k : Fin 256, x0 (ix2 p k) * x1 (ix2 k q) := by
  unfold k11_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs11_0 _ _
    | ⟨1, _⟩ => exact (lhs11_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs11_0 _ _).trans hk
    | ⟨1, _⟩ => exact rhs11_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz11 : (![0, 0] : Fin 2 → Nat) = fun _ => 0 := funext fun a => by fin_cases a <;> rfl

/-- The first input array as the region finds it: X, 65536 rows of 256 entries. -/
abbrev xarr11 (c : Dev nD) : Cert.Spec.Mat 65536 256 := V c (Pipeline.arrRef spec11 0)
/-- The second input array as the region finds it: W, 256 by 256. -/
abbrev warr11 (c : Dev nD) : Cert.Spec.Mat 256 256 := V c (Pipeline.arrRef spec11 1)

/-- Which block each window holds at grid point t: the blocks of X and of Y are block-row t (block column 0), the block of
    W is always the whole of W. Decided once over the 32 points. -/
theorem idx_facts11 : ∀ t : Fin cfg11.N, win11_0.index t (0 : Fin 2) = t.val
    ∧ win11_0.index t (1 : Fin 2) = 0
    ∧ win11_1.index t (0 : Fin 2) = 0
    ∧ win11_1.index t (1 : Fin 2) = 0
    ∧ win11_2.index t (0 : Fin 2) = t.val
    ∧ win11_2.index t (1 : Fin 2) = 0 :=
  (by decide +kernel : ∀ t : Fin grid11.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed11_eq (c : Dev nD) (t : Fin cfg11.N) :
    (dat11 (F := Ideal) V c).flushed 2 t = ((cfg11.win 2).blk t).view.read (Elt Ideal) (Cert.Spec.mul (xarr11 V c) (warr11 V c)) := by
  show (cfg11.win 2).cut (grid11.coords t) ((dat11 (F := Ideal) V c).after 2 t) = _
  rw [after11_2]
  unfold out11
  rw [View.canon_unit_zero hz11]
  simp only [View.ld_unit_zero (S := S2048x256) hz11, View.ld_unit_zero (S := S256x256) hz11]
  obtain ⟨e00, e01, e10, e11, e20, e21⟩ := idx_facts11 t
  funext j
  obtain ⟨p, q, rfl⟩ : ∃ (p : Fin 2048) (q : Fin 256), j = ix2 p q := ⟨j 0, j 1, eq_ix2 j⟩
  show k11_pay1 (F := Ideal) (iblk11 V c 0 t) (iblk11 V c 1 t) (ix2 p q) = Cert.Spec.mul (xarr11 V c) (warr11 V c) (((cfg11.win 2).blk t).view.emb (ix2 p q))
  refine (pay11_apply (iblk11 V c 0 t) (iblk11 V c 1 t) p q).trans ?_
  unfold Cert.Spec.mul
  refine Finset.sum_congr rfl fun k _ => ?_
  show xarr11 V c (((cfg11.win 0).blk t).view.emb (ix2 p k)) * warr11 V c (((cfg11.win 1).blk t).view.emb (ix2 k q))
    = xarr11 V c (ix2 ((((cfg11.win 2).blk t).view.emb (ix2 p q)) 0) k) * warr11 V c (ix2 k ((((cfg11.win 2).blk t).view.emb (ix2 p q)) 1))
  have h0 : ((cfg11.win 0).blk t).view.emb (ix2 p k) = ix2 ((((cfg11.win 2).blk t).view.emb (ix2 p q)) 0) k := by
    funext a; apply Fin.ext
    match a with
    | ⟨0, _⟩ => show win11_0.index t (0 : Fin 2) * 2048 + 1 * p.val = win11_2.index t (0 : Fin 2) * 2048 + 1 * p.val; omega
    | ⟨1, _⟩ => show win11_0.index t (1 : Fin 2) * 256 + 1 * k.val = k.val; omega
  have h1 : ((cfg11.win 1).blk t).view.emb (ix2 k q) = ix2 k ((((cfg11.win 2).blk t).view.emb (ix2 p q)) 1) := by
    funext a; apply Fin.ext
    match a with
    | ⟨0, _⟩ => show win11_1.index t (0 : Fin 2) * 256 + 1 * k.val = k.val; omega
    | ⟨1, _⟩ => show win11_1.index t (1 : Fin 2) * 256 + 1 * q.val = win11_2.index t (1 : Fin 2) * 256 + 1 * q.val; omega
  exact congrArg₂ (fun a b : EReal => a * b) (congrArg (xarr11 V c) h0) (congrArg (warr11 V c) h1)

/-- An entry of Y is in point t's block iff, on each axis, its coordinate lies in the block's range
    [index × size, index × size + size). -/
theorem mem_blk11 (t : Fin cfg11.N) (i : S65536x256.Idx) :
    i ∈ ((cfg11.win 2).blk t).view.set ↔ ∀ a : Fin 2, win11_2.index t a * S2048x256.size a ≤ (i a).val ∧ (i a).val < win11_2.index t a * S2048x256.size a + S2048x256.size a := by
  show i ∈ ((View.whole main_v146).slice (win11_2.rect t)).set ↔ _
  rw [View.set_slice_whole, Rect.mem_set_unit]
  exact Iff.rfl

/-- The blocks cover Y: row r lies in the block of point r / 2048 (r < 65536, so r / 2048 < 32), and every block spans
    all 256 columns. -/
theorem covered11 (i : S65536x256.Idx) : ∃ t : Fin cfg11.N, (cfg11.win 2).flush t = true ∧ i ∈ ((cfg11.win 2).blk t).view.set := by
  have hi0 : (i 0).val < 65536 := (i 0).isLt
  have hi1 : (i 1).val < 256 := (i 1).isLt
  have hN : cfg11.N = 32 := N_11
  have ht : (i 0).val / 2048 < cfg11.N := by rw [hN]; omega
  obtain ⟨-, -, -, -, e20, e21⟩ := idx_facts11 ⟨(i 0).val / 2048, ht⟩
  refine ⟨⟨(i 0).val / 2048, ht⟩, flush11_2 _, ?_⟩
  rw [mem_blk11]
  intro a
  match a with
  | ⟨0, _⟩ =>
    show win11_2.index ⟨(i 0).val / 2048, ht⟩ (0 : Fin 2) * 2048 ≤ (i 0).val ∧ (i 0).val < win11_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win11_2.index ⟨(i 0).val / 2048, ht⟩ (1 : Fin 2) * 256 ≤ (i 1).val ∧ (i 1).val < win11_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt11 (c : Dev nD) :
    (dat11 (F := Ideal) V c).arrAt 2 cfg11.N
      = Cert.Spec.mul (V c (Pipeline.arrRef spec11 0) : Cert.Spec.Mat 65536 256) (V c (Pipeline.arrRef spec11 1) : Cert.Spec.Mat 256 256) :=
  (dat11 (F := Ideal) V c).arrAt_eq_of_cover 2 (Cert.Spec.mul (xarr11 V c) (warr11 V c)) (fun t _ => flushed11_eq V c t) covered11

end Cert.KernelIdeal.Val

end
-- ==== Proof.KI.ValProj12.lean ====
/- Region 12 computes a matrix product, block of rows by block of rows.

   The region's first input array X has 65536 rows and 256 columns, its second input array W is 256 by 256, and its
   output array Y has the shape of X. The grid has 32 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 32 blocks cover Y, and after the region Y holds X · W. -/
import proofs.«101828_j11562051961417_2_alg».proof.Proof.KI.Region12
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs12_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs12_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs12_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs12_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay12_apply (x0 : FVec Ideal S2048x256 .f32) (x1 : FVec Ideal S256x256 .f32) (p : Fin 2048) (q : Fin 256) :
    k12_pay1 (F := Ideal) x0 x1 (ix2 p q) = ∑ k : Fin 256, x0 (ix2 p k) * x1 (ix2 k q) := by
  unfold k12_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs12_0 _ _
    | ⟨1, _⟩ => exact (lhs12_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs12_0 _ _).trans hk
    | ⟨1, _⟩ => exact rhs12_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz12 : (![0, 0] : Fin 2 → Nat) = fun _ => 0 := funext fun a => by fin_cases a <;> rfl

/-- The first input array as the region finds it: X, 65536 rows of 256 entries. -/
abbrev xarr12 (c : Dev nD) : Cert.Spec.Mat 65536 256 := V c (Pipeline.arrRef spec12 0)
/-- The second input array as the region finds it: W, 256 by 256. -/
abbrev warr12 (c : Dev nD) : Cert.Spec.Mat 256 256 := V c (Pipeline.arrRef spec12 1)

/-- Which block each window holds at grid point t: the blocks of X and of Y are block-row t (block column 0), the block of
    W is always the whole of W. Decided once over the 32 points. -/
theorem idx_facts12 : ∀ t : Fin cfg12.N, win12_0.index t (0 : Fin 2) = t.val
    ∧ win12_0.index t (1 : Fin 2) = 0
    ∧ win12_1.index t (0 : Fin 2) = 0
    ∧ win12_1.index t (1 : Fin 2) = 0
    ∧ win12_2.index t (0 : Fin 2) = t.val
    ∧ win12_2.index t (1 : Fin 2) = 0 :=
  (by decide +kernel : ∀ t : Fin grid12.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed12_eq (c : Dev nD) (t : Fin cfg12.N) :
    (dat12 (F := Ideal) V c).flushed 2 t = ((cfg12.win 2).blk t).view.read (Elt Ideal) (Cert.Spec.mul (xarr12 V c) (warr12 V c)) := by
  show (cfg12.win 2).cut (grid12.coords t) ((dat12 (F := Ideal) V c).after 2 t) = _
  rw [after12_2]
  unfold out12
  rw [View.canon_unit_zero hz12]
  simp only [View.ld_unit_zero (S := S2048x256) hz12, View.ld_unit_zero (S := S256x256) hz12]
  obtain ⟨e00, e01, e10, e11, e20, e21⟩ := idx_facts12 t
  funext j
  obtain ⟨p, q, rfl⟩ : ∃ (p : Fin 2048) (q : Fin 256), j = ix2 p q := ⟨j 0, j 1, eq_ix2 j⟩
  show k12_pay1 (F := Ideal) (iblk12 V c 0 t) (iblk12 V c 1 t) (ix2 p q) = Cert.Spec.mul (xarr12 V c) (warr12 V c) (((cfg12.win 2).blk t).view.emb (ix2 p q))
  refine (pay12_apply (iblk12 V c 0 t) (iblk12 V c 1 t) p q).trans ?_
  unfold Cert.Spec.mul
  refine Finset.sum_congr rfl fun k _ => ?_
  show xarr12 V c (((cfg12.win 0).blk t).view.emb (ix2 p k)) * warr12 V c (((cfg12.win 1).blk t).view.emb (ix2 k q))
    = xarr12 V c (ix2 ((((cfg12.win 2).blk t).view.emb (ix2 p q)) 0) k) * warr12 V c (ix2 k ((((cfg12.win 2).blk t).view.emb (ix2 p q)) 1))
  have h0 : ((cfg12.win 0).blk t).view.emb (ix2 p k) = ix2 ((((cfg12.win 2).blk t).view.emb (ix2 p q)) 0) k := by
    funext a; apply Fin.ext
    match a with
    | ⟨0, _⟩ => show win12_0.index t (0 : Fin 2) * 2048 + 1 * p.val = win12_2.index t (0 : Fin 2) * 2048 + 1 * p.val; omega
    | ⟨1, _⟩ => show win12_0.index t (1 : Fin 2) * 256 + 1 * k.val = k.val; omega
  have h1 : ((cfg12.win 1).blk t).view.emb (ix2 k q) = ix2 k ((((cfg12.win 2).blk t).view.emb (ix2 p q)) 1) := by
    funext a; apply Fin.ext
    match a with
    | ⟨0, _⟩ => show win12_1.index t (0 : Fin 2) * 256 + 1 * k.val = k.val; omega
    | ⟨1, _⟩ => show win12_1.index t (1 : Fin 2) * 256 + 1 * q.val = win12_2.index t (1 : Fin 2) * 256 + 1 * q.val; omega
  exact congrArg₂ (fun a b : EReal => a * b) (congrArg (xarr12 V c) h0) (congrArg (warr12 V c) h1)

/-- An entry of Y is in point t's block iff, on each axis, its coordinate lies in the block's range
    [index × size, index × size + size). -/
theorem mem_blk12 (t : Fin cfg12.N) (i : S65536x256.Idx) :
    i ∈ ((cfg12.win 2).blk t).view.set ↔ ∀ a : Fin 2, win12_2.index t a * S2048x256.size a ≤ (i a).val ∧ (i a).val < win12_2.index t a * S2048x256.size a + S2048x256.size a := by
  show i ∈ ((View.whole main_v149).slice (win12_2.rect t)).set ↔ _
  rw [View.set_slice_whole, Rect.mem_set_unit]
  exact Iff.rfl

/-- The blocks cover Y: row r lies in the block of point r / 2048 (r < 65536, so r / 2048 < 32), and every block spans
    all 256 columns. -/
theorem covered12 (i : S65536x256.Idx) : ∃ t : Fin cfg12.N, (cfg12.win 2).flush t = true ∧ i ∈ ((cfg12.win 2).blk t).view.set := by
  have hi0 : (i 0).val < 65536 := (i 0).isLt
  have hi1 : (i 1).val < 256 := (i 1).isLt
  have hN : cfg12.N = 32 := N_12
  have ht : (i 0).val / 2048 < cfg12.N := by rw [hN]; omega
  obtain ⟨-, -, -, -, e20, e21⟩ := idx_facts12 ⟨(i 0).val / 2048, ht⟩
  refine ⟨⟨(i 0).val / 2048, ht⟩, flush12_2 _, ?_⟩
  rw [mem_blk12]
  intro a
  match a with
  | ⟨0, _⟩ =>
    show win12_2.index ⟨(i 0).val / 2048, ht⟩ (0 : Fin 2) * 2048 ≤ (i 0).val ∧ (i 0).val < win12_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win12_2.index ⟨(i 0).val / 2048, ht⟩ (1 : Fin 2) * 256 ≤ (i 1).val ∧ (i 1).val < win12_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt12 (c : Dev nD) :
    (dat12 (F := Ideal) V c).arrAt 2 cfg12.N
      = Cert.Spec.mul (V c (Pipeline.arrRef spec12 0) : Cert.Spec.Mat 65536 256) (V c (Pipeline.arrRef spec12 1) : Cert.Spec.Mat 256 256) :=
  (dat12 (F := Ideal) V c).arrAt_eq_of_cover 2 (Cert.Spec.mul (xarr12 V c) (warr12 V c)) (fun t _ => flushed12_eq V c t) covered12

end Cert.KernelIdeal.Val

end
-- ==== Proof.KI.ValProj13.lean ====
/- Region 13 computes a matrix product, block of rows by block of rows.

   The region's first input array X has 16384 rows and 256 columns, its second input array W is 256 by 256, and its
   output array Y has the shape of X. The grid has 8 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 8 blocks cover Y, and after the region Y holds X · W. -/
import proofs.«101828_j11562051961417_2_alg».proof.Proof.KI.Region13
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs13_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs13_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs13_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs13_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay13_apply (x0 : FVec Ideal S2048x256 .f32) (x1 : FVec Ideal S256x256 .f32) (p : Fin 2048) (q : Fin 256) :
    k13_pay1 (F := Ideal) x0 x1 (ix2 p q) = ∑ k : Fin 256, x0 (ix2 p k) * x1 (ix2 k q) := by
  unfold k13_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs13_0 _ _
    | ⟨1, _⟩ => exact (lhs13_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs13_0 _ _).trans hk
    | ⟨1, _⟩ => exact rhs13_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz13 : (![0, 0] : Fin 2 → Nat) = fun _ => 0 := funext fun a => by fin_cases a <;> rfl

/-- The first input array as the region finds it: X, 16384 rows of 256 entries. -/
abbrev xarr13 (c : Dev nD) : Cert.Spec.Mat 16384 256 := V c (Pipeline.arrRef spec13 0)
/-- The second input array as the region finds it: W, 256 by 256. -/
abbrev warr13 (c : Dev nD) : Cert.Spec.Mat 256 256 := V c (Pipeline.arrRef spec13 1)

/-- Which block each window holds at grid point t: the blocks of X and of Y are block-row t (block column 0), the block of
    W is always the whole of W. Decided once over the 8 points. -/
theorem idx_facts13 : ∀ t : Fin cfg13.N, win13_0.index t (0 : Fin 2) = t.val
    ∧ win13_0.index t (1 : Fin 2) = 0
    ∧ win13_1.index t (0 : Fin 2) = 0
    ∧ win13_1.index t (1 : Fin 2) = 0
    ∧ win13_2.index t (0 : Fin 2) = t.val
    ∧ win13_2.index t (1 : Fin 2) = 0 :=
  (by decide +kernel : ∀ t : Fin grid13.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed13_eq (c : Dev nD) (t : Fin cfg13.N) :
    (dat13 (F := Ideal) V c).flushed 2 t = ((cfg13.win 2).blk t).view.read (Elt Ideal) (Cert.Spec.mul (xarr13 V c) (warr13 V c)) := by
  show (cfg13.win 2).cut (grid13.coords t) ((dat13 (F := Ideal) V c).after 2 t) = _
  rw [after13_2]
  unfold out13
  rw [View.canon_unit_zero hz13]
  simp only [View.ld_unit_zero (S := S2048x256) hz13, View.ld_unit_zero (S := S256x256) hz13]
  obtain ⟨e00, e01, e10, e11, e20, e21⟩ := idx_facts13 t
  funext j
  obtain ⟨p, q, rfl⟩ : ∃ (p : Fin 2048) (q : Fin 256), j = ix2 p q := ⟨j 0, j 1, eq_ix2 j⟩
  show k13_pay1 (F := Ideal) (iblk13 V c 0 t) (iblk13 V c 1 t) (ix2 p q) = Cert.Spec.mul (xarr13 V c) (warr13 V c) (((cfg13.win 2).blk t).view.emb (ix2 p q))
  refine (pay13_apply (iblk13 V c 0 t) (iblk13 V c 1 t) p q).trans ?_
  unfold Cert.Spec.mul
  refine Finset.sum_congr rfl fun k _ => ?_
  show xarr13 V c (((cfg13.win 0).blk t).view.emb (ix2 p k)) * warr13 V c (((cfg13.win 1).blk t).view.emb (ix2 k q))
    = xarr13 V c (ix2 ((((cfg13.win 2).blk t).view.emb (ix2 p q)) 0) k) * warr13 V c (ix2 k ((((cfg13.win 2).blk t).view.emb (ix2 p q)) 1))
  have h0 : ((cfg13.win 0).blk t).view.emb (ix2 p k) = ix2 ((((cfg13.win 2).blk t).view.emb (ix2 p q)) 0) k := by
    funext a; apply Fin.ext
    match a with
    | ⟨0, _⟩ => show win13_0.index t (0 : Fin 2) * 2048 + 1 * p.val = win13_2.index t (0 : Fin 2) * 2048 + 1 * p.val; omega
    | ⟨1, _⟩ => show win13_0.index t (1 : Fin 2) * 256 + 1 * k.val = k.val; omega
  have h1 : ((cfg13.win 1).blk t).view.emb (ix2 k q) = ix2 k ((((cfg13.win 2).blk t).view.emb (ix2 p q)) 1) := by
    funext a; apply Fin.ext
    match a with
    | ⟨0, _⟩ => show win13_1.index t (0 : Fin 2) * 256 + 1 * k.val = k.val; omega
    | ⟨1, _⟩ => show win13_1.index t (1 : Fin 2) * 256 + 1 * q.val = win13_2.index t (1 : Fin 2) * 256 + 1 * q.val; omega
  exact congrArg₂ (fun a b : EReal => a * b) (congrArg (xarr13 V c) h0) (congrArg (warr13 V c) h1)

/-- An entry of Y is in point t's block iff, on each axis, its coordinate lies in the block's range
    [index × size, index × size + size). -/
theorem mem_blk13 (t : Fin cfg13.N) (i : S16384x256.Idx) :
    i ∈ ((cfg13.win 2).blk t).view.set ↔ ∀ a : Fin 2, win13_2.index t a * S2048x256.size a ≤ (i a).val ∧ (i a).val < win13_2.index t a * S2048x256.size a + S2048x256.size a := by
  show i ∈ ((View.whole main_v152).slice (win13_2.rect t)).set ↔ _
  rw [View.set_slice_whole, Rect.mem_set_unit]
  exact Iff.rfl

/-- The blocks cover Y: row r lies in the block of point r / 2048 (r < 16384, so r / 2048 < 8), and every block spans
    all 256 columns. -/
theorem covered13 (i : S16384x256.Idx) : ∃ t : Fin cfg13.N, (cfg13.win 2).flush t = true ∧ i ∈ ((cfg13.win 2).blk t).view.set := by
  have hi0 : (i 0).val < 16384 := (i 0).isLt
  have hi1 : (i 1).val < 256 := (i 1).isLt
  have hN : cfg13.N = 8 := N_13
  have ht : (i 0).val / 2048 < cfg13.N := by rw [hN]; omega
  obtain ⟨-, -, -, -, e20, e21⟩ := idx_facts13 ⟨(i 0).val / 2048, ht⟩
  refine ⟨⟨(i 0).val / 2048, ht⟩, flush13_2 _, ?_⟩
  rw [mem_blk13]
  intro a
  match a with
  | ⟨0, _⟩ =>
    show win13_2.index ⟨(i 0).val / 2048, ht⟩ (0 : Fin 2) * 2048 ≤ (i 0).val ∧ (i 0).val < win13_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win13_2.index ⟨(i 0).val / 2048, ht⟩ (1 : Fin 2) * 256 ≤ (i 1).val ∧ (i 1).val < win13_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt13 (c : Dev nD) :
    (dat13 (F := Ideal) V c).arrAt 2 cfg13.N
      = Cert.Spec.mul (V c (Pipeline.arrRef spec13 0) : Cert.Spec.Mat 16384 256) (V c (Pipeline.arrRef spec13 1) : Cert.Spec.Mat 256 256) :=
  (dat13 (F := Ideal) V c).arrAt_eq_of_cover 2 (Cert.Spec.mul (xarr13 V c) (warr13 V c)) (fun t _ => flushed13_eq V c t) covered13

end Cert.KernelIdeal.Val

end
-- ==== Proof.KI.ValProj14.lean ====
/- Region 14 computes a matrix product, block of rows by block of rows.

   The region's first input array X has 32768 rows and 256 columns, its second input array W is 256 by 256, and its
   output array Y has the shape of X. The grid has 16 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 16 blocks cover Y, and after the region Y holds X · W. -/
import proofs.«101828_j11562051961417_2_alg».proof.Proof.KI.Region14
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs14_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs14_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs14_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs14_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay14_apply (x0 : FVec Ideal S2048x256 .f32) (x1 : FVec Ideal S256x256 .f32) (p : Fin 2048) (q : Fin 256) :
    k14_pay1 (F := Ideal) x0 x1 (ix2 p q) = ∑ k : Fin 256, x0 (ix2 p k) * x1 (ix2 k q) := by
  unfold k14_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs14_0 _ _
    | ⟨1, _⟩ => exact (lhs14_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs14_0 _ _).trans hk
    | ⟨1, _⟩ => exact rhs14_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz14 : (![0, 0] : Fin 2 → Nat) = fun _ => 0 := funext fun a => by fin_cases a <;> rfl

/-- The first input array as the region finds it: X, 32768 rows of 256 entries. -/
abbrev xarr14 (c : Dev nD) : Cert.Spec.Mat 32768 256 := V c (Pipeline.arrRef spec14 0)
/-- The second input array as the region finds it: W, 256 by 256. -/
abbrev warr14 (c : Dev nD) : Cert.Spec.Mat 256 256 := V c (Pipeline.arrRef spec14 1)

/-- Which block each window holds at grid point t: the blocks of X and of Y are block-row t (block column 0), the block of
    W is always the whole of W. Decided once over the 16 points. -/
theorem idx_facts14 : ∀ t : Fin cfg14.N, win14_0.index t (0 : Fin 2) = t.val
    ∧ win14_0.index t (1 : Fin 2) = 0
    ∧ win14_1.index t (0 : Fin 2) = 0
    ∧ win14_1.index t (1 : Fin 2) = 0
    ∧ win14_2.index t (0 : Fin 2) = t.val
    ∧ win14_2.index t (1 : Fin 2) = 0 :=
  (by decide +kernel : ∀ t : Fin grid14.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed14_eq (c : Dev nD) (t : Fin cfg14.N) :
    (dat14 (F := Ideal) V c).flushed 2 t = ((cfg14.win 2).blk t).view.read (Elt Ideal) (Cert.Spec.mul (xarr14 V c) (warr14 V c)) := by
  show (cfg14.win 2).cut (grid14.coords t) ((dat14 (F := Ideal) V c).after 2 t) = _
  rw [after14_2]
  unfold out14
  rw [View.canon_unit_zero hz14]
  simp only [View.ld_unit_zero (S := S2048x256) hz14, View.ld_unit_zero (S := S256x256) hz14]
  obtain ⟨e00, e01, e10, e11, e20, e21⟩ := idx_facts14 t
  funext j
  obtain ⟨p, q, rfl⟩ : ∃ (p : Fin 2048) (q : Fin 256), j = ix2 p q := ⟨j 0, j 1, eq_ix2 j⟩
  show k14_pay1 (F := Ideal) (iblk14 V c 0 t) (iblk14 V c 1 t) (ix2 p q) = Cert.Spec.mul (xarr14 V c) (warr14 V c) (((cfg14.win 2).blk t).view.emb (ix2 p q))
  refine (pay14_apply (iblk14 V c 0 t) (iblk14 V c 1 t) p q).trans ?_
  unfold Cert.Spec.mul
  refine Finset.sum_congr rfl fun k _ => ?_
  show xarr14 V c (((cfg14.win 0).blk t).view.emb (ix2 p k)) * warr14 V c (((cfg14.win 1).blk t).view.emb (ix2 k q))
    = xarr14 V c (ix2 ((((cfg14.win 2).blk t).view.emb (ix2 p q)) 0) k) * warr14 V c (ix2 k ((((cfg14.win 2).blk t).view.emb (ix2 p q)) 1))
  have h0 : ((cfg14.win 0).blk t).view.emb (ix2 p k) = ix2 ((((cfg14.win 2).blk t).view.emb (ix2 p q)) 0) k := by
    funext a; apply Fin.ext
    match a with
    | ⟨0, _⟩ => show win14_0.index t (0 : Fin 2) * 2048 + 1 * p.val = win14_2.index t (0 : Fin 2) * 2048 + 1 * p.val; omega
    | ⟨1, _⟩ => show win14_0.index t (1 : Fin 2) * 256 + 1 * k.val = k.val; omega
  have h1 : ((cfg14.win 1).blk t).view.emb (ix2 k q) = ix2 k ((((cfg14.win 2).blk t).view.emb (ix2 p q)) 1) := by
    funext a; apply Fin.ext
    match a with
    | ⟨0, _⟩ => show win14_1.index t (0 : Fin 2) * 256 + 1 * k.val = k.val; omega
    | ⟨1, _⟩ => show win14_1.index t (1 : Fin 2) * 256 + 1 * q.val = win14_2.index t (1 : Fin 2) * 256 + 1 * q.val; omega
  exact congrArg₂ (fun a b : EReal => a * b) (congrArg (xarr14 V c) h0) (congrArg (warr14 V c) h1)

/-- An entry of Y is in point t's block iff, on each axis, its coordinate lies in the block's range
    [index × size, index × size + size). -/
theorem mem_blk14 (t : Fin cfg14.N) (i : S32768x256.Idx) :
    i ∈ ((cfg14.win 2).blk t).view.set ↔ ∀ a : Fin 2, win14_2.index t a * S2048x256.size a ≤ (i a).val ∧ (i a).val < win14_2.index t a * S2048x256.size a + S2048x256.size a := by
  show i ∈ ((View.whole main_v155).slice (win14_2.rect t)).set ↔ _
  rw [View.set_slice_whole, Rect.mem_set_unit]
  exact Iff.rfl

/-- The blocks cover Y: row r lies in the block of point r / 2048 (r < 32768, so r / 2048 < 16), and every block spans
    all 256 columns. -/
theorem covered14 (i : S32768x256.Idx) : ∃ t : Fin cfg14.N, (cfg14.win 2).flush t = true ∧ i ∈ ((cfg14.win 2).blk t).view.set := by
  have hi0 : (i 0).val < 32768 := (i 0).isLt
  have hi1 : (i 1).val < 256 := (i 1).isLt
  have hN : cfg14.N = 16 := N_14
  have ht : (i 0).val / 2048 < cfg14.N := by rw [hN]; omega
  obtain ⟨-, -, -, -, e20, e21⟩ := idx_facts14 ⟨(i 0).val / 2048, ht⟩
  refine ⟨⟨(i 0).val / 2048, ht⟩, flush14_2 _, ?_⟩
  rw [mem_blk14]
  intro a
  match a with
  | ⟨0, _⟩ =>
    show win14_2.index ⟨(i 0).val / 2048, ht⟩ (0 : Fin 2) * 2048 ≤ (i 0).val ∧ (i 0).val < win14_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win14_2.index ⟨(i 0).val / 2048, ht⟩ (1 : Fin 2) * 256 ≤ (i 1).val ∧ (i 1).val < win14_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt14 (c : Dev nD) :
    (dat14 (F := Ideal) V c).arrAt 2 cfg14.N
      = Cert.Spec.mul (V c (Pipeline.arrRef spec14 0) : Cert.Spec.Mat 32768 256) (V c (Pipeline.arrRef spec14 1) : Cert.Spec.Mat 256 256) :=
  (dat14 (F := Ideal) V c).arrAt_eq_of_cover 2 (Cert.Spec.mul (xarr14 V c) (warr14 V c)) (fun t _ => flushed14_eq V c t) covered14

end Cert.KernelIdeal.Val

end
-- ==== Proof.KI.ValBound15.lean ====
/- Region 15 as a function of whole arrays. The region walks 32 points; at point t it holds batches 8t … 8t + 7 of
   the incidence array A : [256, 256, 128] and of X : [256, 128, 256], and stores, batch by batch, the product A_b · X_b
   into batches 8t … 8t + 7 of the output [256, 256, 256]. Read at an index (b, r, c) the stored value is the sum over the
   128 columns k of A (b, r, k) · X (b, k, c): the product into a zero accumulator is the bare sum, and a change of float
   format is the identity on extended reals. The 32 blocks of 8 batches tile the 256 batches, so the output array after the
   region is the batched product `Cert.Spec.bmul` of the two input arrays as the region finds them. -/
import proofs.«101828_j11562051961417_2_alg».proof.Proof.KI.Region15
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat)
open Cert.Spec (Mat3 bmul)

/-! ## The block product at an index

The product's dimension numbers: axis 0 of both operands is the batch, axis 1 of the left and axis 2 of the right are
free, axis 2 of the left is contracted against axis 1 of the right. So at output index i = (b, r, c) and contraction
position q the left operand is read at (b, r, q) and the right at (b, q, c): one fact per operand axis. -/

/-- The left operand's batch coordinate is the output's. -/
theorem lhs15_0 (i : S8x256x256.Idx) (q : dot_S8x256x128_S8x128x256_S8x256x256_2_1_1_2_0_0.contr.Idx) :
    (dot_S8x256x128_S8x128x256_S8x256x256_2_1_1_2_0_0.lhsIdx i q 0).val = (i 0).val := by
  unfold DotDims.lhsIdx
  rw [dif_pos (show (0 : Fin S8x256x128.rank) ∈ dot_S8x256x128_S8x128x256_S8x256x256_2_1_1_2_0_0.lhsBatch by decide)]
  rfl
/-- The left operand's row is the output's row. -/
theorem lhs15_1 (i : S8x256x256.Idx) (q : dot_S8x256x128_S8x128x256_S8x256x256_2_1_1_2_0_0.contr.Idx) :
    (dot_S8x256x128_S8x128x256_S8x256x256_2_1_1_2_0_0.lhsIdx i q 1).val = (i 1).val := by
  unfold DotDims.lhsIdx
  rw [dif_neg (show ¬(1 : Fin S8x256x128.rank) ∈ dot_S8x256x128_S8x128x256_S8x256x256_2_1_1_2_0_0.lhsBatch by decide), dif_pos (show (1 : Fin S8x256x128.rank) ∈ dot_S8x256x128_S8x128x256_S8x256x256_2_1_1_2_0_0.lhsNonContracting by decide)]
  rfl
/-- The left operand's column is the contraction position. -/
theorem lhs15_2 (i : S8x256x256.Idx) (q : dot_S8x256x128_S8x128x256_S8x256x256_2_1_1_2_0_0.contr.Idx) :
    (dot_S8x256x128_S8x128x256_S8x256x256_2_1_1_2_0_0.lhsIdx i q 2).val = (q ⟨0, by decide⟩).val :=
  dot_S8x256x128_S8x128x256_S8x256x256_2_1_1_2_0_0.lhsIdx_val_of_single rfl i q
/-- The right operand's batch coordinate is the output's. -/
theorem rhs15_0 (i : S8x256x256.Idx) (q : dot_S8x256x128_S8x128x256_S8x256x256_2_1_1_2_0_0.contr.Idx) :
    (dot_S8x256x128_S8x128x256_S8x256x256_2_1_1_2_0_0.rhsIdx i q 0).val = (i 0).val := by
  unfold DotDims.rhsIdx
  rw [dif_pos (show (0 : Fin S8x128x256.rank) ∈ dot_S8x256x128_S8x128x256_S8x256x256_2_1_1_2_0_0.rhsBatch by decide)]
  rfl
/-- The right operand's row is the contraction position. -/
theorem rhs15_1 (i : S8x256x256.Idx) (q : dot_S8x256x128_S8x128x256_S8x256x256_2_1_1_2_0_0.contr.Idx) :
    (dot_S8x256x128_S8x128x256_S8x256x256_2_1_1_2_0_0.rhsIdx i q 1).val = (q ⟨0, by decide⟩).val :=
  dot_S8x256x128_S8x128x256_S8x256x256_2_1_1_2_0_0.rhsIdx_val_of_single rfl i q
/-- The right operand's column is the output's column. -/
theorem rhs15_2 (i : S8x256x256.Idx) (q : dot_S8x256x128_S8x128x256_S8x256x256_2_1_1_2_0_0.contr.Idx) :
    (dot_S8x256x128_S8x128x256_S8x256x256_2_1_1_2_0_0.rhsIdx i q 2).val = (i 2).val := by
  unfold DotDims.rhsIdx
  rw [dif_neg (show ¬(2 : Fin S8x128x256.rank) ∈ dot_S8x256x128_S8x128x256_S8x256x256_2_1_1_2_0_0.rhsBatch by decide), dif_pos (show (2 : Fin S8x128x256.rank) ∈ dot_S8x256x128_S8x128x256_S8x256x256_2_1_1_2_0_0.rhsNonContracting by decide)]
  rfl

/-- THE BODY'S VALUE AT (b, r, c): the sum over the 128 contracted columns k of the left block at (b, r, k) times the
    right block at (b, k, c). The two shape casts are between equal shapes, the narrowing of the right block is the
    identity on extended reals, and the accumulator is the zero constant. -/
theorem pay15_apply (x0 : FVec Ideal S8x256x128 .bf16) (x1 : FVec Ideal S8x128x256 .f32) (b : Fin 8) (r c : Fin 256) :
    k15_pay1 (F := Ideal) x0 x1 (ix3 b r c) = ∑ k : Fin 128, x0 (ix3 b r k) * x1 (ix3 b k c) := by
  unfold k15_pay1
  rw [shapeCast_self, shapeCast_self]
  simp only [matmul]
  rw [Ideal.matmul_constant_zero_apply, ← Equiv.sum_comp (contrEquiv1 dot_S8x256x128_S8x128x256_S8x256x256_2_1_1_2_0_0 128 rfl rfl).symm]
  refine Finset.sum_congr rfl fun k _ => ?_
  have hk := contrEquiv1_symm_val dot_S8x256x128_S8x128x256_S8x256x256_2_1_1_2_0_0 128 rfl rfl k
  have el : dot_S8x256x128_S8x128x256_S8x256x256_2_1_1_2_0_0.lhsIdx (ix3 b r c) ((contrEquiv1 dot_S8x256x128_S8x128x256_S8x256x256_2_1_1_2_0_0 128 rfl rfl).symm k) = ix3 b r k := funext fun a => Fin.ext (by
    match a with
    | ⟨0, _⟩ => exact lhs15_0 _ _
    | ⟨1, _⟩ => exact lhs15_1 _ _
    | ⟨2, _⟩ => exact (lhs15_2 _ _).trans hk)
  have er : dot_S8x256x128_S8x128x256_S8x256x256_2_1_1_2_0_0.rhsIdx (ix3 b r c) ((contrEquiv1 dot_S8x256x128_S8x128x256_S8x256x256_2_1_1_2_0_0 128 rfl rfl).symm k) = ix3 b k c := funext fun a => Fin.ext (by
    match a with
    | ⟨0, _⟩ => exact rhs15_0 _ _
    | ⟨1, _⟩ => exact (rhs15_1 _ _).trans hk
    | ⟨2, _⟩ => exact rhs15_2 _ _)
  rw [el, er]
  rfl

variable (V : (c : Dev nD) → (b : Ref sig .tc) → Buf (Elt Ideal) ((c : Thread nD τ).loc b))

/-! ## The blocks as parts of the arrays -/

/-- The zero offset of a whole-block load or store. -/
theorem hz15 : (![0, 0, 0] : Fin 3 → Nat) = fun _ => 0 := funext fun a => by fin_cases a <;> rfl

/-- The three windows' block indices over the 32 points: at point t each window is at block t along the batch axis and
    at block 0 along the other two. -/
theorem idx15 : ∀ t : Fin cfg15.N,
    win15_0.index t (0 : Fin 3) = t.val ∧ win15_0.index t (1 : Fin 3) = 0 ∧ win15_0.index t (2 : Fin 3) = 0
    ∧ win15_1.index t (0 : Fin 3) = t.val ∧ win15_1.index t (1 : Fin 3) = 0 ∧ win15_1.index t (2 : Fin 3) = 0
    ∧ win15_2.index t (0 : Fin 3) = t.val ∧ win15_2.index t (1 : Fin 3) = 0 ∧ win15_2.index t (2 : Fin 3) = 0 :=
  (by decide +kernel : ∀ t : Fin grid15.N, _)

/-- Window 0's block at point t is batches 8t … 8t + 7 of A: its entry (b, r, k) is A (8t + b, r, k). -/
theorem iblk15_0_apply (c : Dev nD) (t : Fin cfg15.N) (y : S8x256x128.Idx) (i : S256x256x128.Idx)
    (h0 : (i 0).val = t.val * 8 + (y 0).val) (h1 : (i 1).val = (y 1).val) (h2 : (i 2).val = (y 2).val) :
    (iblk15 V c 0 t : Vec Ideal S8x256x128 .bf16) y = (V c (Pipeline.arrRef spec15 0) : Mat3 256 256 128) i := by
  obtain ⟨e0, e1, e2, -⟩ := idx15 t
  unfold iblk15
  rw [View.read_apply]
  refine congrArg (V c (Pipeline.arrRef spec15 0) : Mat3 256 256 128) (funext fun a => Fin.ext ?_)
  match a with
  | ⟨0, _⟩ => show win15_0.index t (0 : Fin 3) * 8 + 1 * (y 0).val = (i 0).val; omega
  | ⟨1, _⟩ => show win15_0.index t (1 : Fin 3) * 256 + 1 * (y 1).val = (i 1).val; omega
  | ⟨2, _⟩ => show win15_0.index t (2 : Fin 3) * 128 + 1 * (y 2).val = (i 2).val; omega

/-- Window 1's block at point t is batches 8t … 8t + 7 of X: its entry (b, k, c) is X (8t + b, k, c). -/
theorem iblk15_1_apply (c : Dev nD) (t : Fin cfg15.N) (y : S8x128x256.Idx) (i : S256x128x256.Idx)
    (h0 : (i 0).val = t.val * 8 + (y 0).val) (h1 : (i 1).val = (y 1).val) (h2 : (i 2).val = (y 2).val) :
    (iblk15 V c 1 t : Vec Ideal S8x128x256 .f32) y = (V c (Pipeline.arrRef spec15 1) : Mat3 256 128 256) i := by
  obtain ⟨-, -, -, e0, e1, e2, -⟩ := idx15 t
  unfold iblk15
  rw [View.read_apply]
  refine congrArg (V c (Pipeline.arrRef spec15 1) : Mat3 256 128 256) (funext fun a => Fin.ext ?_)
  match a with
  | ⟨0, _⟩ => show win15_1.index t (0 : Fin 3) * 8 + 1 * (y 0).val = (i 0).val; omega
  | ⟨1, _⟩ => show win15_1.index t (1 : Fin 3) * 128 + 1 * (y 1).val = (i 1).val; omega
  | ⟨2, _⟩ => show win15_1.index t (2 : Fin 3) * 256 + 1 * (y 2).val = (i 2).val; omega

/-- If the two blocks are batches 8p … 8p + 7 of arrays A and X, the body's value at (b, r, c) is the batched product
    of A and X at (8p + b, r, c): the sum over k of A (8p + b, r, k) · X (8p + b, k, c), term by term. -/
theorem pay15_block (A : Mat3 256 256 128) (X : Mat3 256 128 256)
    (x0 : FVec Ideal S8x256x128 .bf16) (x1 : FVec Ideal S8x128x256 .f32) (p : Nat)
    (hx0 : ∀ (y : S8x256x128.Idx) (i : S256x256x128.Idx), (i 0).val = p * 8 + (y 0).val → (i 1).val = (y 1).val → (i 2).val = (y 2).val → x0 y = A i)
    (hx1 : ∀ (y : S8x128x256.Idx) (i : S256x128x256.Idx), (i 0).val = p * 8 + (y 0).val → (i 1).val = (y 1).val → (i 2).val = (y 2).val → x1 y = X i)
    (j : S8x256x256.Idx) (i : S256x256x256.Idx)
    (h0 : (i 0).val = p * 8 + (j 0).val) (h1 : (i 1).val = (j 1).val) (h2 : (i 2).val = (j 2).val) :
    k15_pay1 (F := Ideal) x0 x1 j = bmul A X i := by
  obtain ⟨b, r, c, rfl⟩ : ∃ (b : Fin 8) (r : Fin 256) (c : Fin 256), j = ix3 b r c := ⟨j 0, j 1, j 2, eq_ix3 j⟩
  rw [pay15_apply]
  show _ = ∑ k : Fin 128, A (ix3 (i 0) (i 1) k) * X (ix3 (i 0) k (i 2))
  exact Finset.sum_congr rfl fun k _ => by
    rw [hx0 (ix3 b r k) (ix3 (i 0) (i 1) k) h0 h1 rfl, hx1 (ix3 b k c) (ix3 (i 0) k (i 2)) h0 rfl h2]

/-- WHAT POINT t WRITES BACK is block t of the batched product of the two input arrays: the stored value of the two
    input blocks at t, and the output's block at t sits at batches 8t … 8t + 7 like theirs. -/
theorem flushed15_eq (c : Dev nD) (t : Fin cfg15.N) :
    (dat15 (F := Ideal) V c).flushed 2 t
      = ((cfg15.win 2).blk t).view.read (Elt Ideal)
          (bmul (V c (Pipeline.arrRef spec15 0) : Mat3 256 256 128) (V c (Pipeline.arrRef spec15 1) : Mat3 256 128 256)) := by
  show (cfg15.win 2).cut (grid15.coords t) ((dat15 V c).after 2 t) = _
  rw [after15_2]
  unfold out15
  rw [View.canon_unit_zero hz15]
  simp only [View.ld_unit_zero (S := S8x256x128) hz15, View.ld_unit_zero (S := S8x128x256) hz15]
  obtain ⟨-, -, -, -, -, -, e0, e1, e2⟩ := idx15 t
  funext j
  refine pay15_block (V c (Pipeline.arrRef spec15 0)) (V c (Pipeline.arrRef spec15 1)) (iblk15 V c 0 t) (iblk15 V c 1 t) t.val
    (iblk15_0_apply V c t) (iblk15_1_apply V c t) j (((cfg15.win 2).blk t).view.emb j) ?_ ?_ ?_
  · show win15_2.index t (0 : Fin 3) * 8 + 1 * (j 0).val = t.val * 8 + (j 0).val; omega
  · show win15_2.index t (1 : Fin 3) * 256 + 1 * (j 1).val = (j 1).val; omega
  · show win15_2.index t (2 : Fin 3) * 256 + 1 * (j 2).val = (j 2).val; omega

/-! ## The 32 blocks tile the output -/

/-- An index of the output array is in point t's block iff each coordinate is in the block's range on its axis. -/
theorem mem_blk15 (t : Fin cfg15.N) (i : S256x256x256.Idx) :
    i ∈ ((cfg15.win 2).blk t).view.set ↔ ∀ a : Fin 3, win15_2.index t a * S8x256x256.size a ≤ (i a).val ∧ (i a).val < win15_2.index t a * S8x256x256.size a + S8x256x256.size a := by
  show i ∈ ((View.whole main_v195).slice (win15_2.rect t)).set ↔ _
  rw [View.set_slice_whole, Rect.mem_set_unit]
  exact Iff.rfl

/-- Every index (b, r, c) of the output is in the block of point b / 8, which is written back. -/
theorem cover15_arr (i : S256x256x256.Idx) :
    ∃ t : Fin cfg15.N, (cfg15.win 2).flush t = true ∧ i ∈ ((cfg15.win 2).blk t).view.set := by
  have hi0 : (i 0).val < 256 := (i 0).isLt
  have hi1 : (i 1).val < 256 := (i 1).isLt
  have hi2 : (i 2).val < 256 := (i 2).isLt
  have hN : cfg15.N = 32 := N_15
  let t : Fin cfg15.N := ⟨(i 0).val / 8, by rw [hN]; omega⟩
  have ht : t.val = (i 0).val / 8 := rfl
  obtain ⟨-, -, -, -, -, -, e0, e1, e2⟩ := idx15 t
  refine ⟨t, flush15_2 t, ?_⟩
  rw [mem_blk15]
  intro a
  match a with
  | ⟨0, _⟩ => show win15_2.index t (0 : Fin 3) * 8 ≤ (i 0).val ∧ (i 0).val < win15_2.index t (0 : Fin 3) * 8 + 8; omega
  | ⟨1, _⟩ => show win15_2.index t (1 : Fin 3) * 256 ≤ (i 1).val ∧ (i 1).val < win15_2.index t (1 : Fin 3) * 256 + 256; omega
  | ⟨2, _⟩ => show win15_2.index t (2 : Fin 3) * 256 ≤ (i 2).val ∧ (i 2).val < win15_2.index t (2 : Fin 3) * 256 + 256; omega

/-- THE OUTPUT ARRAY AFTER REGION 15: the batched product A_b · X_b of the two input arrays as the region finds them. -/
theorem arrAt15 (c : Dev nD) :
    (dat15 (F := Ideal) V c).arrAt 2 cfg15.N
      = bmul (V c (Pipeline.arrRef spec15 0) : Mat3 256 256 128) (V c (Pipeline.arrRef spec15 1) : Mat3 256 128 256) :=
  (dat15 (F := Ideal) V c).arrAt_eq_of_cover 2 _ (fun t _ => flushed15_eq V c t) cover15_arr

end Cert.KernelIdeal.Val

end
-- ==== Proof.KI.ValBound16.lean ====
/- Region 16 as a function of whole arrays. The region walks 16 points; at point t it holds batches 16t … 16t + 15 of
   the incidence array A : [256, 64, 256] and of X : [256, 256, 256], and the whole matrix W : [256, 256]. Batch by batch it
   forms the product A_b · X_b, lays the 16 results of 64 rows under one another as 1024 rows, multiplies those rows by W
   and cuts the 1024 rows back into 16 batches of 64, which it stores into batches 16t … 16t + 15 of the output
   [256, 64, 256]. Read at an index (b, r, c) the stored value is the sum over j of (A_b · X_b)(r, j) · W (j, c): each product
   into a zero accumulator is the bare sum, a change of float format is the identity on extended reals, and row 64 b + r of
   the 1024 is row r of batch b. The 16 blocks of 16 batches tile the 256 batches, so the output array after the region
   is, entry by entry, that sum over the input arrays as the region finds them. -/
import proofs.«101828_j11562051961417_2_alg».proof.Proof.KI.Region16
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat)
open Cert.Spec (Mat Mat3 bmul)

/-! ## The two products at an index

The batched product's dimension numbers: axis 0 of both operands is the batch, axis 1 of the left and axis 2 of the right
are free, axis 2 of the left is contracted against axis 1 of the right. The plain product's: axis 0 of the left and axis 1
of the right are free, axis 1 of the left is contracted against axis 0 of the right. One fact per operand axis. -/

/-- Batched product, left operand: the batch coordinate is the output's. -/
theorem lhsA16_0 (i : S16x64x256.Idx) (q : dot_S16x64x256_S16x256x256_S16x64x256_2_1_1_2_0_0.contr.Idx) :
    (dot_S16x64x256_S16x256x256_S16x64x256_2_1_1_2_0_0.lhsIdx i q 0).val = (i 0).val := by
  unfold DotDims.lhsIdx
  rw [dif_pos (show (0 : Fin S16x64x256.rank) ∈ dot_S16x64x256_S16x256x256_S16x64x256_2_1_1_2_0_0.lhsBatch by decide)]
  rfl
/-- Batched product, left operand: the row is the output's row. -/
theorem lhsA16_1 (i : S16x64x256.Idx) (q : dot_S16x64x256_S16x256x256_S16x64x256_2_1_1_2_0_0.contr.Idx) :
    (dot_S16x64x256_S16x256x256_S16x64x256_2_1_1_2_0_0.lhsIdx i q 1).val = (i 1).val := by
  unfold DotDims.lhsIdx
  rw [dif_neg (show ¬(1 : Fin S16x64x256.rank) ∈ dot_S16x64x256_S16x256x256_S16x64x256_2_1_1_2_0_0.lhsBatch by decide), dif_pos (show (1 : Fin S16x64x256.rank) ∈ dot_S16x64x256_S16x256x256_S16x64x256_2_1_1_2_0_0.lhsNonContracting by decide)]
  rfl
/-- Batched product, left operand: the column is the contraction position. -/
theorem lhsA16_2 (i : S16x64x256.Idx) (q : dot_S16x64x256_S16x256x256_S16x64x256_2_1_1_2_0_0.contr.Idx) :
    (dot_S16x64x256_S16x256x256_S16x64x256_2_1_1_2_0_0.lhsIdx i q 2).val = (q ⟨0, by decide⟩).val :=
  dot_S16x64x256_S16x256x256_S16x64x256_2_1_1_2_0_0.lhsIdx_val_of_single rfl i q
/-- Batched product, right operand: the batch coordinate is the output's. -/
theorem rhsA16_0 (i : S16x64x256.Idx) (q : dot_S16x64x256_S16x256x256_S16x64x256_2_1_1_2_0_0.contr.Idx) :
    (dot_S16x64x256_S16x256x256_S16x64x256_2_1_1_2_0_0.rhsIdx i q 0).val = (i 0).val := by
  unfold DotDims.rhsIdx
  rw [dif_pos (show (0 : Fin S16x256x256.rank) ∈ dot_S16x64x256_S16x256x256_S16x64x256_2_1_1_2_0_0.rhsBatch by decide)]
  rfl
/-- Batched product, right operand: the row is the contraction position. -/
theorem rhsA16_1 (i : S16x64x256.Idx) (q : dot_S16x64x256_S16x256x256_S16x64x256_2_1_1_2_0_0.contr.Idx) :
    (dot_S16x64x256_S16x256x256_S16x64x256_2_1_1_2_0_0.rhsIdx i q 1).val = (q ⟨0, by decide⟩).val :=
  dot_S16x64x256_S16x256x256_S16x64x256_2_1_1_2_0_0.rhsIdx_val_of_single rfl i q
/-- Batched product, right operand: the column is the output's column. -/
theorem rhsA16_2 (i : S16x64x256.Idx) (q : dot_S16x64x256_S16x256x256_S16x64x256_2_1_1_2_0_0.contr.Idx) :
    (dot_S16x64x256_S16x256x256_S16x64x256_2_1_1_2_0_0.rhsIdx i q 2).val = (i 2).val := by
  unfold DotDims.rhsIdx
  rw [dif_neg (show ¬(2 : Fin S16x256x256.rank) ∈ dot_S16x64x256_S16x256x256_S16x64x256_2_1_1_2_0_0.rhsBatch by decide), dif_pos (show (2 : Fin S16x256x256.rank) ∈ dot_S16x64x256_S16x256x256_S16x64x256_2_1_1_2_0_0.rhsNonContracting by decide)]
  rfl

/-- Plain product, left operand: the row is the output's row. -/
theorem lhsB16_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- Plain product, left operand: the column is the contraction position. -/
theorem lhsB16_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- Plain product, right operand: the row is the contraction position. -/
theorem rhsB16_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- Plain product, right operand: the column is the output's column. -/
theorem rhsB16_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The batched product into the zero accumulator at (b, r, c): the sum over the 256 contracted columns k of the left
    operand at (b, r, k) times the right at (b, k, c). -/
theorem bprod16_apply (x0 : FVec Ideal S16x64x256 .bf16) (x1 : FVec Ideal S16x256x256 .bf16) (b : Fin 16) (r : Fin 64) (c : Fin 256) :
    matmul dot_S16x64x256_S16x256x256_S16x64x256_2_1_1_2_0_0 none x0 x1 (constant S16x64x256 .f32 0x00000000#32) (ix3 b r c)
      = ∑ k : Fin 256, x0 (ix3 b r k) * x1 (ix3 b k c) := by
  simp only [matmul]
  rw [Ideal.matmul_constant_zero_apply, ← Equiv.sum_comp (contrEquiv1 dot_S16x64x256_S16x256x256_S16x64x256_2_1_1_2_0_0 256 rfl rfl).symm]
  refine Finset.sum_congr rfl fun k _ => ?_
  have hk := contrEquiv1_symm_val dot_S16x64x256_S16x256x256_S16x64x256_2_1_1_2_0_0 256 rfl rfl k
  have el : dot_S16x64x256_S16x256x256_S16x64x256_2_1_1_2_0_0.lhsIdx (ix3 b r c) ((contrEquiv1 dot_S16x64x256_S16x256x256_S16x64x256_2_1_1_2_0_0 256 rfl rfl).symm k) = ix3 b r k := funext fun a => Fin.ext (by
    match a with
    | ⟨0, _⟩ => exact lhsA16_0 _ _
    | ⟨1, _⟩ => exact lhsA16_1 _ _
    | ⟨2, _⟩ => exact (lhsA16_2 _ _).trans hk)
  have er : dot_S16x64x256_S16x256x256_S16x64x256_2_1_1_2_0_0.rhsIdx (ix3 b r c) ((contrEquiv1 dot_S16x64x256_S16x256x256_S16x64x256_2_1_1_2_0_0 256 rfl rfl).symm k) = ix3 b k c := funext fun a => Fin.ext (by
    match a with
    | ⟨0, _⟩ => exact rhsA16_0 _ _
    | ⟨1, _⟩ => exact (rhsA16_1 _ _).trans hk
    | ⟨2, _⟩ => exact rhsA16_2 _ _)
  rw [el, er]

/-- The plain product into the zero accumulator at (p, c): the sum over j of the left operand at (p, j) times the right
    at (j, c). -/
theorem rprod16_apply (y : FVec Ideal S1024x256 .bf16) (w : FVec Ideal S256x256 .bf16) (p : Fin 1024) (c : Fin 256) :
    matmul dot_S1024x256_S256x256_S1024x256_1_0_0_1_n_n none y w (constant S1024x256 .f32 0x00000000#32) (ix2 p c)
      = ∑ j : Fin 256, y (ix2 p j) * w (ix2 j c) := by
  simp only [matmul]
  rw [Ideal.matmul_constant_zero_apply, ← Equiv.sum_comp (contrEquiv1 dot_S1024x256_S256x256_S1024x256_1_0_0_1_n_n 256 rfl rfl).symm]
  refine Finset.sum_congr rfl fun j _ => ?_
  have hj := contrEquiv1_symm_val dot_S1024x256_S256x256_S1024x256_1_0_0_1_n_n 256 rfl rfl j
  have el : dot_S1024x256_S256x256_S1024x256_1_0_0_1_n_n.lhsIdx (ix2 p c) ((contrEquiv1 dot_S1024x256_S256x256_S1024x256_1_0_0_1_n_n 256 rfl rfl).symm j) = ix2 p j := funext fun a => Fin.ext (by
    match a with
    | ⟨0, _⟩ => exact lhsB16_0 _ _
    | ⟨1, _⟩ => exact (lhsB16_1 _ _).trans hj)
  have er : dot_S1024x256_S256x256_S1024x256_1_0_0_1_n_n.rhsIdx (ix2 p c) ((contrEquiv1 dot_S1024x256_S256x256_S1024x256_1_0_0_1_n_n 256 rfl rfl).symm j) = ix2 j c := funext fun a => Fin.ext (by
    match a with
    | ⟨0, _⟩ => exact (rhsB16_0 _ _).trans hj
    | ⟨1, _⟩ => exact rhsB16_1 _ _)
  rw [el, er]

/-- Sixteen batches of 64 rows laid under one another: row 64 b + r of the 1024 is row r of batch b. -/
theorem flat16_apply {α : Type} (v : S16x64x256.Idx → α) (b : Fin 16) (r : Fin 64) (j : Fin 256) :
    shapeCast S1024x256 v shapeCasts_S16x64x256_S1024x256 (ix2 (⟨b.val * 64 + r.val, by omega⟩ : Fin 1024) j) = v (ix3 b r j) :=
  shapeCast_apply v shapeCasts_S16x64x256_S1024x256 _ (ix3 b r j)
    (by rw [Shape.rowMajor_val_two, Shape.rowMajor_val_three]; rfl)

/-- And cut back: row r of batch b is row 64 b + r of the 1024. -/
theorem unflat16_apply {α : Type} (u : S1024x256.Idx → α) (b : Fin 16) (r : Fin 64) (c : Fin 256) :
    shapeCast S16x64x256 u shapeCasts_S1024x256_S16x64x256 (ix3 b r c) = u (ix2 (⟨b.val * 64 + r.val, by omega⟩ : Fin 1024) c) :=
  shapeCast_apply u shapeCasts_S1024x256_S16x64x256 _ (ix2 (⟨b.val * 64 + r.val, by omega⟩ : Fin 1024) c)
    (by rw [Shape.rowMajor_val_two, Shape.rowMajor_val_three]; rfl)

/-- THE BODY'S VALUE AT (b, r, c): the sum over j of (the sum over k of the first block at (b, r, k) times the second at
    (b, k, j)) times the third block at (j, c). The shape casts between equal shapes and the three narrowings are the
    identity on extended reals. -/
theorem pay16_apply (x0 : FVec Ideal S16x64x256 .bf16) (x1 : FVec Ideal S16x256x256 .f32) (x2 : FVec Ideal S256x256 .f32)
    (b : Fin 16) (r : Fin 64) (c : Fin 256) :
    k16_pay1 (F := Ideal) x0 x1 x2 (ix3 b r c)
      = ∑ j : Fin 256, (∑ k : Fin 256, x0 (ix3 b r k) * x1 (ix3 b k j)) * x2 (ix2 j c) := by
  unfold k16_pay1
  rw [shapeCast_self, shapeCast_self, shapeCast_self, unflat16_apply, rprod16_apply]
  refine Finset.sum_congr rfl fun j _ => ?_
  rw [flat16_apply]
  show matmul dot_S16x64x256_S16x256x256_S16x64x256_2_1_1_2_0_0 none x0 (truncf .bf16 x1 bitsLt_bf16_f32) (constant S16x64x256 .f32 0x00000000#32) (ix3 b r j) * x2 (ix2 j c) = _
  rw [bprod16_apply]
  rfl

variable (V : (c : Dev nD) → (b : Ref sig .tc) → Buf (Elt Ideal) ((c : Thread nD τ).loc b))

/-! ## The blocks as parts of the arrays -/

/-- The zero offset of a whole-block load or store, rank 3, -/
theorem hz16 : (![0, 0, 0] : Fin 3 → Nat) = fun _ => 0 := funext fun a => by fin_cases a <;> rfl
/-- and rank 2. -/
theorem hzz16 : (![0, 0] : Fin 2 → Nat) = fun _ => 0 := funext fun a => by fin_cases a <;> rfl

/-- The four windows' block indices over the 16 points: at point t the two batched inputs and the output are at block t
    along the batch axis and at block 0 along the other two; the matrix W is at block (0, 0) throughout. -/
theorem idx16 : ∀ t : Fin cfg16.N,
    win16_0.index t (0 : Fin 3) = t.val ∧ win16_0.index t (1 : Fin 3) = 0 ∧ win16_0.index t (2 : Fin 3) = 0
    ∧ win16_1.index t (0 : Fin 3) = t.val ∧ win16_1.index t (1 : Fin 3) = 0 ∧ win16_1.index t (2 : Fin 3) = 0
    ∧ win16_2.index t (0 : Fin 2) = 0 ∧ win16_2.index t (1 : Fin 2) = 0
    ∧ win16_3.index t (0 : Fin 3) = t.val ∧ win16_3.index t (1 : Fin 3) = 0 ∧ win16_3.index t (2 : Fin 3) = 0 :=
  (by decide +kernel : ∀ t : Fin grid16.N, _)

/-- Window 0's block at point t is batches 16t … 16t + 15 of A: its entry (b, r, k) is A (16t + b, r, k). -/
theorem iblk16_0_apply (c : Dev nD) (t : Fin cfg16.N) (y : S16x64x256.Idx) (i : S256x64x256.Idx)
    (h0 : (i 0).val = t.val * 16 + (y 0).val) (h1 : (i 1).val = (y 1).val) (h2 : (i 2).val = (y 2).val) :
    (iblk16 V c 0 t : Vec Ideal S16x64x256 .bf16) y = (V c (Pipeline.arrRef spec16 0) : Mat3 256 64 256) i := by
  obtain ⟨e0, e1, e2, -⟩ := idx16 t
  unfold iblk16
  rw [View.read_apply]
  refine congrArg (V c (Pipeline.arrRef spec16 0) : Mat3 256 64 256) (funext fun a => Fin.ext ?_)
  match a with
  | ⟨0, _⟩ => show win16_0.index t (0 : Fin 3) * 16 + 1 * (y 0).val = (i 0).val; omega
  | ⟨1, _⟩ => show win16_0.index t (1 : Fin 3) * 64 + 1 * (y 1).val = (i 1).val; omega
  | ⟨2, _⟩ => show win16_0.index t (2 : Fin 3) * 256 + 1 * (y 2).val = (i 2).val; omega

/-- Window 1's block at point t is batches 16t … 16t + 15 of X: its entry (b, k, j) is X (16t + b, k, j). -/
theorem iblk16_1_apply (c : Dev nD) (t : Fin cfg16.N) (y : S16x256x256.Idx) (i : S256x256x256.Idx)
    (h0 : (i 0).val = t.val * 16 + (y 0).val) (h1 : (i 1).val = (y 1).val) (h2 : (i 2).val = (y 2).val) :
    (iblk16 V c 1 t : Vec Ideal S16x256x256 .f32) y = (V c (Pipeline.arrRef spec16 1) : Mat3 256 256 256) i := by
  obtain ⟨-, -, -, e0, e1, e2, -⟩ := idx16 t
  unfold iblk16
  rw [View.read_apply]
  refine congrArg (V c (Pipeline.arrRef spec16 1) : Mat3 256 256 256) (funext fun a => Fin.ext ?_)
  match a with
  | ⟨0, _⟩ => show win16_1.index t (0 : Fin 3) * 16 + 1 * (y 0).val = (i 0).val; omega
  | ⟨1, _⟩ => show win16_1.index t (1 : Fin 3) * 256 + 1 * (y 1).val = (i 1).val; omega
  | ⟨2, _⟩ => show win16_1.index t (2 : Fin 3) * 256 + 1 * (y 2).val = (i 2).val; omega

/-- Window 2's block at every point is all of W. -/
theorem iblk16_2_apply (c : Dev nD) (t : Fin cfg16.N) (y : S256x256.Idx) (i : S256x256.Idx)
    (h0 : (i 0).val = (y 0).val) (h1 : (i 1).val = (y 1).val) :
    (iblk16 V c 2 t : Vec Ideal S256x256 .f32) y = (V c (Pipeline.arrRef spec16 2) : Mat 256 256) i := by
  obtain ⟨-, -, -, -, -, -, e0, e1, -⟩ := idx16 t
  unfold iblk16
  rw [View.read_apply]
  refine congrArg (V c (Pipeline.arrRef spec16 2) : Mat 256 256) (funext fun a => Fin.ext ?_)
  match a with
  | ⟨0, _⟩ => show win16_2.index t (0 : Fin 2) * 256 + 1 * (y 0).val = (i 0).val; omega
  | ⟨1, _⟩ => show win16_2.index t (1 : Fin 2) * 256 + 1 * (y 1).val = (i 1).val; omega

/-- If the first two blocks are batches 16p … 16p + 15 of arrays A and X and the third is W, the body's value at (b, r, c)
    is the sum over q of the batched product of A and X at (16p + b, r, q) times W (q, c), term by term. -/
theorem pay16_block (A : Mat3 256 64 256) (X : Mat3 256 256 256) (W : Mat 256 256)
    (x0 : FVec Ideal S16x64x256 .bf16) (x1 : FVec Ideal S16x256x256 .f32) (x2 : FVec Ideal S256x256 .f32) (p : Nat)
    (hx0 : ∀ (y : S16x64x256.Idx) (i : S256x64x256.Idx), (i 0).val = p * 16 + (y 0).val → (i 1).val = (y 1).val → (i 2).val = (y 2).val → x0 y = A i)
    (hx1 : ∀ (y : S16x256x256.Idx) (i : S256x256x256.Idx), (i 0).val = p * 16 + (y 0).val → (i 1).val = (y 1).val → (i 2).val = (y 2).val → x1 y = X i)
    (hx2 : ∀ (y : S256x256.Idx) (i : S256x256.Idx), (i 0).val = (y 0).val → (i 1).val = (y 1).val → x2 y = W i)
    (j : S16x64x256.Idx) (i : S256x64x256.Idx)
    (h0 : (i 0).val = p * 16 + (j 0).val) (h1 : (i 1).val = (j 1).val) (h2 : (i 2).val = (j 2).val) :
    k16_pay1 (F := Ideal) x0 x1 x2 j = ∑ q : Fin 256, bmul A X (ix3 (i 0) (i 1) q) * W (ix2 q (i 2)) := by
  obtain ⟨b, r, c, rfl⟩ : ∃ (b : Fin 16) (r : Fin 64) (c : Fin 256), j = ix3 b r c := ⟨j 0, j 1, j 2, eq_ix3 j⟩
  rw [pay16_apply]
  refine Finset.sum_congr rfl fun q _ => ?_
  rw [hx2 (ix2 q c) (ix2 q (i 2)) rfl h2]
  refine congrArg (· * W (ix2 q (i 2))) ?_
  show _ = ∑ k : Fin 256, A (ix3 (i 0) (i 1) k) * X (ix3 (i 0) k q)
  exact Finset.sum_congr rfl fun k _ => by
    rw [hx0 (ix3 b r k) (ix3 (i 0) (i 1) k) h0 h1 rfl, hx1 (ix3 b k q) (ix3 (i 0) k q) h0 rfl rfl]

/-- WHAT POINT t WRITES BACK is block t of that function of the three input arrays: the stored value of the three input
    blocks at t, and the output's block at t sits at batches 16t … 16t + 15 like the first two. -/
theorem flushed16_eq (c : Dev nD) (t : Fin cfg16.N) :
    (dat16 (F := Ideal) V c).flushed 3 t
      = ((cfg16.win 3).blk t).view.read (Elt Ideal)
          ((fun i => ∑ q : Fin 256, bmul (V c (Pipeline.arrRef spec16 0) : Mat3 256 64 256) (V c (Pipeline.arrRef spec16 1) : Mat3 256 256 256) (ix3 (i 0) (i 1) q)
            * (V c (Pipeline.arrRef spec16 2) : Mat 256 256) (ix2 q (i 2))) : Mat3 256 64 256) := by
  show (cfg16.win 3).cut (grid16.coords t) ((dat16 V c).after 3 t) = _
  rw [after16_3]
  unfold out16
  rw [View.canon_unit_zero hz16]
  simp only [View.ld_unit_zero (S := S16x64x256) hz16, View.ld_unit_zero (S := S16x256x256) hz16, View.ld_unit_zero (S := S256x256) hzz16]
  obtain ⟨-, -, -, -, -, -, -, -, e0, e1, e2⟩ := idx16 t
  funext j
  refine pay16_block (V c (Pipeline.arrRef spec16 0)) (V c (Pipeline.arrRef spec16 1)) (V c (Pipeline.arrRef spec16 2))
    (iblk16 V c 0 t) (iblk16 V c 1 t) (iblk16 V c 2 t) t.val
    (iblk16_0_apply V c t) (iblk16_1_apply V c t) (iblk16_2_apply V c t) j (((cfg16.win 3).blk t).view.emb j) ?_ ?_ ?_
  · show win16_3.index t (0 : Fin 3) * 16 + 1 * (j 0).val = t.val * 16 + (j 0).val; omega
  · show win16_3.index t (1 : Fin 3) * 64 + 1 * (j 1).val = (j 1).val; omega
  · show win16_3.index t (2 : Fin 3) * 256 + 1 * (j 2).val = (j 2).val; omega

/-! ## The 16 blocks tile the output -/

/-- An index of the output array is in point t's block iff each coordinate is in the block's range on its axis. -/
theorem mem_blk16 (t : Fin cfg16.N) (i : S256x64x256.Idx) :
    i ∈ ((cfg16.win 3).blk t).view.set ↔ ∀ a : Fin 3, win16_3.index t a * S16x64x256.size a ≤ (i a).val ∧ (i a).val < win16_3.index t a * S16x64x256.size a + S16x64x256.size a := by
  show i ∈ ((View.whole main_v200).slice (win16_3.rect t)).set ↔ _
  rw [View.set_slice_whole, Rect.mem_set_unit]
  exact Iff.rfl

/-- Every index (b, r, c) of the output is in the block of point b / 16, which is written back. -/
theorem cover16_arr (i : S256x64x256.Idx) :
    ∃ t : Fin cfg16.N, (cfg16.win 3).flush t = true ∧ i ∈ ((cfg16.win 3).blk t).view.set := by
  have hi0 : (i 0).val < 256 := (i 0).isLt
  have hi1 : (i 1).val < 64 := (i 1).isLt
  have hi2 : (i 2).val < 256 := (i 2).isLt
  have hN : cfg16.N = 16 := N_16
  let t : Fin cfg16.N := ⟨(i 0).val / 16, by rw [hN]; omega⟩
  have ht : t.val = (i 0).val / 16 := rfl
  obtain ⟨-, -, -, -, -, -, -, -, e0, e1, e2⟩ := idx16 t
  refine ⟨t, flush16_3 t, ?_⟩
  rw [mem_blk16]
  intro a
  match a with
  | ⟨0, _⟩ => show win16_3.index t (0 : Fin 3) * 16 ≤ (i 0).val ∧ (i 0).val < win16_3.index t (0 : Fin 3) * 16 + 16; omega
  | ⟨1, _⟩ => show win16_3.index t (1 : Fin 3) * 64 ≤ (i 1).val ∧ (i 1).val < win16_3.index t (1 : Fin 3) * 64 + 64; omega
  | ⟨2, _⟩ => show win16_3.index t (2 : Fin 3) * 256 ≤ (i 2).val ∧ (i 2).val < win16_3.index t (2 : Fin 3) * 256 + 256; omega

/-- THE OUTPUT ARRAY AFTER REGION 16: entry (b, r, c) is the sum over q of (A_b · X_b)(r, q) · W (q, c), over the three input
    arrays as the region finds them. -/
theorem arrAt16 (c : Dev nD) :
    (dat16 (F := Ideal) V c).arrAt 3 cfg16.N
      = ((fun i => ∑ q : Fin 256, bmul (V c (Pipeline.arrRef spec16 0) : Mat3 256 64 256) (V c (Pipeline.arrRef spec16 1) : Mat3 256 256 256) (ix3 (i 0) (i 1) q)
          * (V c (Pipeline.arrRef spec16 2) : Mat 256 256) (ix2 q (i 2))) : Mat3 256 64 256) :=
  (dat16 (F := Ideal) V c).arrAt_eq_of_cover 3 _ (fun t _ => flushed16_eq V c t) cover16_arr

end Cert.KernelIdeal.Val

end
-- ==== Proof.KI.ValSelf17.lean ====
/- Region 17, the self update: the output array after the region is ONE function of the four arrays the region reads,
   index by index —  max (X · W + b + U, 0)  with X the [32768,256] features, W the [256,256] weights, b the [1,256] bias row
   added to every row, U the [32768,256] added term. The grid's 16 points each own 2048 consecutive rows: point t reads
   rows 2048·t … 2048·t + 2047 of X and U and all of W and b, and writes those rows of the result. -/
import proofs.«101828_j11562051961417_2_alg».proof.Proof.KI.Region17
import proofs.«101828_j11562051961417_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat)
open Cert.Spec (Mat)

/-! ## The contraction of the body's matrix product, axis by axis -/

theorem lhs17_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs17_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs17_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs17_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's matrix product into the zero accumulator, at an entry: the row of the left block against the column of
    the right one. -/
theorem matmul17_apply (l : FVec Ideal S2048x256 .bf16) (r : FVec Ideal S256x256 .bf16) (p : Fin 2048) (q : Fin 256) :
    FloatOps.matmul dot_S2048x256_S256x256_S2048x256_1_0_0_1_n_n none l r (constant (F := Ideal) S2048x256 .f32 0x00000000#32) (ix2 p q)
      = ∑ k : Fin 256, l (ix2 p k) * r (ix2 k q) := by
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs17_0 _ _
    | ⟨1, _⟩ => exact (lhs17_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs17_0 _ _).trans hk
    | ⟨1, _⟩ => exact rhs17_1 _ _)
  rw [el, er]

/-- The body's value at an entry of its block. -/
theorem pay17_apply (x0 : Vec Ideal S2048x256 .f32) (x1 : Vec Ideal S256x256 .f32) (x2 : Vec Ideal S1x256 .f32) (x3 : Vec Ideal S2048x256 .f32)
    (p : Fin 2048) (q : Fin 256) :
    k17_pay1 (F := Ideal) x0 x1 x2 x3 (ix2 p q)
      = max ((∑ k : Fin 256, x0 (ix2 p k) * x1 (ix2 k q)) + x2 (ix2 (0 : Fin 1) q) + x3 (ix2 p q)) 0 := by
  unfold k17_pay1
  simp only [shapeCast_self]
  show max ((matmul dot_S2048x256_S256x256_S2048x256_1_0_0_1_n_n none (truncf .bf16 x0 bitsLt_bf16_f32) (truncf .bf16 x1 bitsLt_bf16_f32) (constant (F := Ideal) S2048x256 .f32 0x00000000#32) (ix2 p q)) + broadcastTo S2048x256 x2 broadcasts_S1x256_S2048x256 (ix2 p q) + x3 (ix2 p q)) (Ideal.ofBits .f32 0x00000000#32) = _
  rw [Ideal.ofBits_zero_f32, broadcastTo_1b_ab_apply]
  exact congrArg (fun s => max (s + x2 (ix2 (0 : Fin 1) q) + x3 (ix2 p q)) 0) (matmul17_apply _ _ p q)

/-! ## The output block after the body, at an entry -/

theorem zero17 : (![0, 0] : Fin 2 → Nat) = fun _ => 0 := funext fun a => by fin_cases a <;> rfl

/-- The output block after the body is the body's value of the four input blocks: at entry (p, q), row p of the features'
    block against column q of the weights, plus the bias at q, plus the added term's entry, rectified. -/
theorem out17_apply (x0 : Vec Ideal S2048x256 .f32) (x1 : Vec Ideal S256x256 .f32) (x2 : Vec Ideal S1x256 .f32) (x3 : Vec Ideal S2048x256 .f32)
    (p : Fin 2048) (q : Fin 256) :
    out17 (F := Ideal) x0 x1 x2 x3 (ix2 p q)
      = max ((∑ k : Fin 256, x0 (ix2 p k) * x1 (ix2 k q)) + x2 (ix2 (0 : Fin 1) q) + x3 (ix2 p q)) 0 := by
  unfold out17
  rw [View.canon_unit_zero zero17]
  simp only [View.ld_unit_zero (S := S2048x256) zero17, View.ld_unit_zero (S := S256x256) zero17, View.ld_unit_zero (S := S1x256) zero17]
  exact pay17_apply x0 x1 x2 x3 p q

/-! ## The blocks, as parts of the arrays -/

variable (V : (c : Dev nD) → (b : Ref sig .tc) → Buf (Elt Ideal) ((c : Thread nD τ).loc b))

/-- The printed index maps over the grid: the features', the added term's and the output's block at point t is block t
    of rows; the weights and the bias row are one block. -/
theorem idx17 : ∀ t : Fin cfg17.N, win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = t.val ∧ win17_3.index t (1 : Fin 2) = 0
    ∧ win17_4.index t (0 : Fin 2) = t.val ∧ win17_4.index t (1 : Fin 2) = 0 :=
  (by decide +kernel : ∀ t : Fin grid17.N, _)

/-- Entry (p, k) of the features' block at point t is entry (2048·t + p, k) of the features. -/
theorem iblk17_0_apply (c : Dev nD) (t : Fin cfg17.N) (p : Fin 2048) (k : Fin 256) (r : Fin 32768) (hr : r.val = t.val * 2048 + p.val) :
    (iblk17 V c 0 t : Vec Ideal S2048x256 .f32) (ix2 p k) = (V c (Pipeline.arrRef spec17 0) : Mat 32768 256) (ix2 r k) := by
  obtain ⟨e0, e1, -⟩ := idx17 t
  unfold iblk17
  rw [View.read_apply]
  refine congrArg (V c (Pipeline.arrRef spec17 0) : Mat 32768 256) (funext fun a => Fin.ext ?_)
  match a with
  | ⟨0, _⟩ => show win17_0.index t (0 : Fin 2) * 2048 + 1 * p.val = r.val; omega
  | ⟨1, _⟩ => show win17_0.index t (1 : Fin 2) * 256 + 1 * k.val = k.val; omega

/-- The weights' block at every point is the weights. -/
theorem iblk17_1_apply (c : Dev nD) (t : Fin cfg17.N) (k q : Fin 256) :
    (iblk17 V c 1 t : Vec Ideal S256x256 .f32) (ix2 k q) = (V c (Pipeline.arrRef spec17 1) : Mat 256 256) (ix2 k q) := by
  obtain ⟨-, -, e0, e1, -⟩ := idx17 t
  unfold iblk17
  rw [View.read_apply]
  refine congrArg (V c (Pipeline.arrRef spec17 1) : Mat 256 256) (funext fun a => Fin.ext ?_)
  match a with
  | ⟨0, _⟩ => show win17_1.index t (0 : Fin 2) * 256 + 1 * k.val = k.val; omega
  | ⟨1, _⟩ => show win17_1.index t (1 : Fin 2) * 256 + 1 * q.val = q.val; omega

/-- The bias row's block at every point is the bias row. -/
theorem iblk17_2_apply (c : Dev nD) (t : Fin cfg17.N) (z : Fin 1) (q : Fin 256) :
    (iblk17 V c 2 t : Vec Ideal S1x256 .f32) (ix2 z q) = (V c (Pipeline.arrRef spec17 2) : Mat 1 256) (ix2 z q) := by
  obtain ⟨-, -, -, -, e0, e1, -⟩ := idx17 t
  unfold iblk17
  rw [View.read_apply]
  refine congrArg (V c (Pipeline.arrRef spec17 2) : Mat 1 256) (funext fun a => Fin.ext ?_)
  match a with
  | ⟨0, _⟩ => show win17_2.index t (0 : Fin 2) * 1 + 1 * z.val = z.val; omega
  | ⟨1, _⟩ => show win17_2.index t (1 : Fin 2) * 256 + 1 * q.val = q.val; omega

/-- Entry (p, q) of the added term's block at point t is entry (2048·t + p, q) of the added term. -/
theorem iblk17_3_apply (c : Dev nD) (t : Fin cfg17.N) (p : Fin 2048) (q : Fin 256) (r : Fin 32768) (hr : r.val = t.val * 2048 + p.val) :
    (iblk17 V c 3 t : Vec Ideal S2048x256 .f32) (ix2 p q) = (V c (Pipeline.arrRef spec17 3) : Mat 32768 256) (ix2 r q) := by
  obtain ⟨-, -, -, -, -, -, e0, e1, -⟩ := idx17 t
  unfold iblk17
  rw [View.read_apply]
  refine congrArg (V c (Pipeline.arrRef spec17 3) : Mat 32768 256) (funext fun a => Fin.ext ?_)
  match a with
  | ⟨0, _⟩ => show win17_3.index t (0 : Fin 2) * 2048 + 1 * p.val = r.val; omega
  | ⟨1, _⟩ => show win17_3.index t (1 : Fin 2) * 256 + 1 * q.val = q.val; omega

/-! ## What each point writes back, and the array after the region -/

/-- The self update of the region's four input arrays, entry by entry. -/
abbrev selfUpdate17 (c : Dev nD) : Mat 32768 256 := fun i =>
  max (Cert.Spec.mul (V c (Pipeline.arrRef spec17 0) : Mat 32768 256) (V c (Pipeline.arrRef spec17 1) : Mat 256 256) i
      + (V c (Pipeline.arrRef spec17 2) : Mat 1 256) (ix2 (0 : Fin 1) (i 1)) + (V c (Pipeline.arrRef spec17 3) : Mat 32768 256) i) 0

/-- What point t writes back is its block of rows of the self update. -/
theorem flushed17_eq (c : Dev nD) (t : Fin cfg17.N) :
    (dat17 V c).flushed 4 t = ((cfg17.win 4).blk t).view.read (Elt Ideal) (selfUpdate17 V c) := by
  show (cfg17.win 4).cut (grid17.coords t) ((dat17 V c).after 4 t) = _
  rw [after17_4]
  funext y
  have hy0 : (y 0).val < 2048 := (y 0).isLt
  have hy1 : (y 1).val < 256 := (y 1).isLt
  have hN : t.val < 16 := lt_of_lt_of_eq t.isLt N_17
  obtain ⟨-, -, -, -, -, -, -, -, e0, e1⟩ := idx17 t
  have hx : (cfg17.win 4).xinj (grid17.coords t) y = ix2 (⟨(y 0).val, hy0⟩ : Fin 2048) (⟨(y 1).val, hy1⟩ : Fin 256) :=
    funext fun a => Fin.ext (by match a with | ⟨0, _⟩ => rfl | ⟨1, _⟩ => rfl)
  have he : ((cfg17.win 4).blk t).view.emb y
      = ix2 (⟨t.val * 2048 + (y 0).val, by omega⟩ : Fin 32768) (⟨(y 1).val, hy1⟩ : Fin 256) :=
    funext fun a => Fin.ext (by
      match a with
      | ⟨0, _⟩ => show win17_4.index t (0 : Fin 2) * 2048 + 1 * (y 0).val = t.val * 2048 + (y 0).val; omega
      | ⟨1, _⟩ => show win17_4.index t (1 : Fin 2) * 256 + 1 * (y 1).val = (y 1).val; omega)
  show out17 (F := Ideal) (iblk17 V c 0 t) (iblk17 V c 1 t) (iblk17 V c 2 t) (iblk17 V c 3 t) ((cfg17.win 4).xinj (grid17.coords t) y)
    = selfUpdate17 V c (((cfg17.win 4).blk t).view.emb y)
  rw [hx, he]
  refine (out17_apply (iblk17 V c 0 t) (iblk17 V c 1 t) (iblk17 V c 2 t) (iblk17 V c 3 t) ⟨(y 0).val, hy0⟩ ⟨(y 1).val, hy1⟩).trans ?_
  have h0 := fun k : Fin 256 => iblk17_0_apply V c t ⟨(y 0).val, hy0⟩ k ⟨t.val * 2048 + (y 0).val, by omega⟩ rfl
  have h1 := fun k : Fin 256 => iblk17_1_apply V c t k ⟨(y 1).val, hy1⟩
  have h2 := iblk17_2_apply V c t 0 ⟨(y 1).val, hy1⟩
  have h3 := iblk17_3_apply V c t ⟨(y 0).val, hy0⟩ ⟨(y 1).val, hy1⟩ ⟨t.val * 2048 + (y 0).val, by omega⟩ rfl
  simp only [h0, h1, h2, h3]
  rfl

/-- An index of the array is in point t's block iff each coordinate is in the block's range on its axis. -/
theorem mem_blk17 (t : Fin cfg17.N) (i : S32768x256.Idx) :
    i ∈ ((cfg17.win 4).blk t).view.set ↔ ∀ a : Fin 2, win17_4.index t a * S2048x256.size a ≤ (i a).val ∧ (i a).val < win17_4.index t a * S2048x256.size a + S2048x256.size a := by
  show i ∈ ((View.whole main_v207).slice (win17_4.rect t)).set ↔ _
  rw [View.set_slice_whole, Rect.mem_set_unit]
  exact Iff.rfl

/-- THE ARRAY AFTER THE REGION: the 16 blocks of 2048 rows tile the 32768 rows (row r is in block r / 2048), so the
    output array ends holding the self update of the four input arrays. -/
theorem arrAt17 (c : Dev nD) :
    (dat17 (F := Ideal) V c).arrAt 4 cfg17.N = fun i =>
      max (Cert.Spec.mul (V c (Pipeline.arrRef spec17 0) : Mat 32768 256) (V c (Pipeline.arrRef spec17 1) : Mat 256 256) i
          + (V c (Pipeline.arrRef spec17 2) : Mat 1 256) (ix2 (0 : Fin 1) (i 1)) + (V c (Pipeline.arrRef spec17 3) : Mat 32768 256) i) 0 :=
  (dat17 V c).arrAt_eq_of_cover 4 (selfUpdate17 V c) (fun t _ => flushed17_eq V c t) fun i => by
    have hi0 : (i 0).val < 32768 := (i 0).isLt
    have hi1 : (i 1).val < 256 := (i 1).isLt
    have hN : cfg17.N = 16 := N_17
    obtain ⟨-, -, -, -, -, -, -, -, e0, e1⟩ := idx17 ⟨(i 0).val / 2048, by rw [hN]; omega⟩
    refine ⟨⟨(i 0).val / 2048, by rw [hN]; omega⟩, flush17_4 _, ?_⟩
    rw [mem_blk17]
    intro a
    match a with
    | ⟨0, _⟩ =>
      show win17_4.index ⟨(i 0).val / 2048, _⟩ (0 : Fin 2) * 2048 ≤ (i 0).val ∧ (i 0).val < win17_4.index ⟨(i 0).val / 2048, _⟩ (0 : Fin 2) * 2048 + 2048
      rw [e0]; show (i 0).val / 2048 * 2048 ≤ (i 0).val ∧ (i 0).val < (i 0).val / 2048 * 2048 + 2048; omega
    | ⟨1, _⟩ =>
      show win17_4.index ⟨(i 0).val / 2048, _⟩ (1 : Fin 2) * 256 ≤ (i 1).val ∧ (i 1).val < win17_4.index ⟨(i 0).val / 2048, _⟩ (1 : Fin 2) * 256 + 256
      rw [e1]; omega

end Cert.KernelIdeal.Val

end
-- ==== Proof.KI.ValSelf18.lean ====
/- Region 18, the self update with two added terms: the output array after the region is ONE function of the five arrays
   the region reads, index by index —  max (X · W + b + U₁ + U₂, 0)  with X the [65536,256] features, W the [256,256]
   weights, b the [1,256] bias row added to every row, U₁ and U₂ the two [65536,256] added terms, added in that order. The
   grid's 32 points each own 2048 consecutive rows: point t reads rows 2048·t … 2048·t + 2047 of X, U₁ and U₂ and
   all of W and b, and writes those rows of the result. -/
import proofs.«101828_j11562051961417_2_alg».proof.Proof.KI.Region18
import proofs.«101828_j11562051961417_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat)
open Cert.Spec (Mat)

/-! ## The contraction of the body's matrix product, axis by axis -/

theorem lhs18_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs18_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs18_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs18_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's matrix product into the zero accumulator, at an entry: the row of the left block against the column of
    the right one. -/
theorem matmul18_apply (l : FVec Ideal S2048x256 .bf16) (r : FVec Ideal S256x256 .bf16) (p : Fin 2048) (q : Fin 256) :
    FloatOps.matmul dot_S2048x256_S256x256_S2048x256_1_0_0_1_n_n none l r (constant (F := Ideal) S2048x256 .f32 0x00000000#32) (ix2 p q)
      = ∑ k : Fin 256, l (ix2 p k) * r (ix2 k q) := by
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs18_0 _ _
    | ⟨1, _⟩ => exact (lhs18_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs18_0 _ _).trans hk
    | ⟨1, _⟩ => exact rhs18_1 _ _)
  rw [el, er]

/-- The body's value at an entry of its block. -/
theorem pay18_apply (x0 : Vec Ideal S2048x256 .f32) (x1 : Vec Ideal S256x256 .f32) (x2 : Vec Ideal S1x256 .f32) (x3 : Vec Ideal S2048x256 .f32)
    (x4 : Vec Ideal S2048x256 .f32) (p : Fin 2048) (q : Fin 256) :
    k18_pay1 (F := Ideal) x0 x1 x2 x3 x4 (ix2 p q)
      = max ((∑ k : Fin 256, x0 (ix2 p k) * x1 (ix2 k q)) + x2 (ix2 (0 : Fin 1) q) + x3 (ix2 p q) + x4 (ix2 p q)) 0 := by
  unfold k18_pay1
  simp only [shapeCast_self]
  show max ((matmul dot_S2048x256_S256x256_S2048x256_1_0_0_1_n_n none (truncf .bf16 x0 bitsLt_bf16_f32) (truncf .bf16 x1 bitsLt_bf16_f32) (constant (F := Ideal) S2048x256 .f32 0x00000000#32) (ix2 p q)) + broadcastTo S2048x256 x2 broadcasts_S1x256_S2048x256 (ix2 p q) + x3 (ix2 p q) + x4 (ix2 p q)) (Ideal.ofBits .f32 0x00000000#32) = _
  rw [Ideal.ofBits_zero_f32, broadcastTo_1b_ab_apply]
  exact congrArg (fun s => max (s + x2 (ix2 (0 : Fin 1) q) + x3 (ix2 p q) + x4 (ix2 p q)) 0) (matmul18_apply _ _ p q)

/-! ## The output block after the body, at an entry -/

theorem zero18 : (![0, 0] : Fin 2 → Nat) = fun _ => 0 := funext fun a => by fin_cases a <;> rfl

/-- The output block after the body is the body's value of the five input blocks: at entry (p, q), row p of the features'
    block against column q of the weights, plus the bias at q, plus the two added terms' entries in order, rectified. -/
theorem out18_apply (x0 : Vec Ideal S2048x256 .f32) (x1 : Vec Ideal S256x256 .f32) (x2 : Vec Ideal S1x256 .f32) (x3 : Vec Ideal S2048x256 .f32)
    (x4 : Vec Ideal S2048x256 .f32) (p : Fin 2048) (q : Fin 256) :
    out18 (F := Ideal) x0 x1 x2 x3 x4 (ix2 p q)
      = max ((∑ k : Fin 256, x0 (ix2 p k) * x1 (ix2 k q)) + x2 (ix2 (0 : Fin 1) q) + x3 (ix2 p q) + x4 (ix2 p q)) 0 := by
  unfold out18
  rw [View.canon_unit_zero zero18]
  simp only [View.ld_unit_zero (S := S2048x256) zero18, View.ld_unit_zero (S := S256x256) zero18, View.ld_unit_zero (S := S1x256) zero18]
  exact pay18_apply x0 x1 x2 x3 x4 p q

/-! ## The blocks, as parts of the arrays -/

variable (V : (c : Dev nD) → (b : Ref sig .tc) → Buf (Elt Ideal) ((c : Thread nD τ).loc b))

/-- The printed index maps over the grid: the features', the two added terms' and the output's block at point t is
    block t of rows; the weights and the bias row are one block. -/
theorem idx18 : ∀ t : Fin cfg18.N, win18_0.index t (0 : Fin 2) = t.val ∧ win18_0.index t (1 : Fin 2) = 0
    ∧ win18_1.index t (0 : Fin 2) = 0 ∧ win18_1.index t (1 : Fin 2) = 0
    ∧ win18_2.index t (0 : Fin 2) = 0 ∧ win18_2.index t (1 : Fin 2) = 0
    ∧ win18_3.index t (0 : Fin 2) = t.val ∧ win18_3.index t (1 : Fin 2) = 0
    ∧ win18_4.index t (0 : Fin 2) = t.val ∧ win18_4.index t (1 : Fin 2) = 0
    ∧ win18_5.index t (0 : Fin 2) = t.val ∧ win18_5.index t (1 : Fin 2) = 0 :=
  (by decide +kernel : ∀ t : Fin grid18.N, _)

/-- Entry (p, k) of the features' block at point t is entry (2048·t + p, k) of the features. -/
theorem iblk18_0_apply (c : Dev nD) (t : Fin cfg18.N) (p : Fin 2048) (k : Fin 256) (r : Fin 65536) (hr : r.val = t.val * 2048 + p.val) :
    (iblk18 V c 0 t : Vec Ideal S2048x256 .f32) (ix2 p k) = (V c (Pipeline.arrRef spec18 0) : Mat 65536 256) (ix2 r k) := by
  obtain ⟨e0, e1, -⟩ := idx18 t
  unfold iblk18
  rw [View.read_apply]
  refine congrArg (V c (Pipeline.arrRef spec18 0) : Mat 65536 256) (funext fun a => Fin.ext ?_)
  match a with
  | ⟨0, _⟩ => show win18_0.index t (0 : Fin 2) * 2048 + 1 * p.val = r.val; omega
  | ⟨1, _⟩ => show win18_0.index t (1 : Fin 2) * 256 + 1 * k.val = k.val; omega

/-- The weights' block at every point is the weights. -/
theorem iblk18_1_apply (c : Dev nD) (t : Fin cfg18.N) (k q : Fin 256) :
    (iblk18 V c 1 t : Vec Ideal S256x256 .f32) (ix2 k q) = (V c (Pipeline.arrRef spec18 1) : Mat 256 256) (ix2 k q) := by
  obtain ⟨-, -, e0, e1, -⟩ := idx18 t
  unfold iblk18
  rw [View.read_apply]
  refine congrArg (V c (Pipeline.arrRef spec18 1) : Mat 256 256) (funext fun a => Fin.ext ?_)
  match a with
  | ⟨0, _⟩ => show win18_1.index t (0 : Fin 2) * 256 + 1 * k.val = k.val; omega
  | ⟨1, _⟩ => show win18_1.index t (1 : Fin 2) * 256 + 1 * q.val = q.val; omega

/-- The bias row's block at every point is the bias row. -/
theorem iblk18_2_apply (c : Dev nD) (t : Fin cfg18.N) (z : Fin 1) (q : Fin 256) :
    (iblk18 V c 2 t : Vec Ideal S1x256 .f32) (ix2 z q) = (V c (Pipeline.arrRef spec18 2) : Mat 1 256) (ix2 z q) := by
  obtain ⟨-, -, -, -, e0, e1, -⟩ := idx18 t
  unfold iblk18
  rw [View.read_apply]
  refine congrArg (V c (Pipeline.arrRef spec18 2) : Mat 1 256) (funext fun a => Fin.ext ?_)
  match a with
  | ⟨0, _⟩ => show win18_2.index t (0 : Fin 2) * 1 + 1 * z.val = z.val; omega
  | ⟨1, _⟩ => show win18_2.index t (1 : Fin 2) * 256 + 1 * q.val = q.val; omega

/-- Entry (p, q) of the first added term's block at point t is entry (2048·t + p, q) of the first added term. -/
theorem iblk18_3_apply (c : Dev nD) (t : Fin cfg18.N) (p : Fin 2048) (q : Fin 256) (r : Fin 65536) (hr : r.val = t.val * 2048 + p.val) :
    (iblk18 V c 3 t : Vec Ideal S2048x256 .f32) (ix2 p q) = (V c (Pipeline.arrRef spec18 3) : Mat 65536 256) (ix2 r q) := by
  obtain ⟨-, -, -, -, -, -, e0, e1, -⟩ := idx18 t
  unfold iblk18
  rw [View.read_apply]
  refine congrArg (V c (Pipeline.arrRef spec18 3) : Mat 65536 256) (funext fun a => Fin.ext ?_)
  match a with
  | ⟨0, _⟩ => show win18_3.index t (0 : Fin 2) * 2048 + 1 * p.val = r.val; omega
  | ⟨1, _⟩ => show win18_3.index t (1 : Fin 2) * 256 + 1 * q.val = q.val; omega

/-- Entry (p, q) of the second added term's block at point t is entry (2048·t + p, q) of the second added term. -/
theorem iblk18_4_apply (c : Dev nD) (t : Fin cfg18.N) (p : Fin 2048) (q : Fin 256) (r : Fin 65536) (hr : r.val = t.val * 2048 + p.val) :
    (iblk18 V c 4 t : Vec Ideal S2048x256 .f32) (ix2 p q) = (V c (Pipeline.arrRef spec18 4) : Mat 65536 256) (ix2 r q) := by
  obtain ⟨-, -, -, -, -, -, -, -, e0, e1, -⟩ := idx18 t
  unfold iblk18
  rw [View.read_apply]
  refine congrArg (V c (Pipeline.arrRef spec18 4) : Mat 65536 256) (funext fun a => Fin.ext ?_)
  match a with
  | ⟨0, _⟩ => show win18_4.index t (0 : Fin 2) * 2048 + 1 * p.val = r.val; omega
  | ⟨1, _⟩ => show win18_4.index t (1 : Fin 2) * 256 + 1 * q.val = q.val; omega

/-! ## What each point writes back, and the array after the region -/

/-- The self update of the region's five input arrays, entry by entry. -/
abbrev selfUpdate18 (c : Dev nD) : Mat 65536 256 := fun i =>
  max (Cert.Spec.mul (V c (Pipeline.arrRef spec18 0) : Mat 65536 256) (V c (Pipeline.arrRef spec18 1) : Mat 256 256) i
      + (V c (Pipeline.arrRef spec18 2) : Mat 1 256) (ix2 (0 : Fin 1) (i 1)) + (V c (Pipeline.arrRef spec18 3) : Mat 65536 256) i
      + (V c (Pipeline.arrRef spec18 4) : Mat 65536 256) i) 0

/-- What point t writes back is its block of rows of the self update. -/
theorem flushed18_eq (c : Dev nD) (t : Fin cfg18.N) :
    (dat18 V c).flushed 5 t = ((cfg18.win 5).blk t).view.read (Elt Ideal) (selfUpdate18 V c) := by
  show (cfg18.win 5).cut (grid18.coords t) ((dat18 V c).after 5 t) = _
  rw [after18_5]
  funext y
  have hy0 : (y 0).val < 2048 := (y 0).isLt
  have hy1 : (y 1).val < 256 := (y 1).isLt
  have hN : t.val < 32 := lt_of_lt_of_eq t.isLt N_18
  obtain ⟨-, -, -, -, -, -, -, -, -, -, e0, e1⟩ := idx18 t
  have hx : (cfg18.win 5).xinj (grid18.coords t) y = ix2 (⟨(y 0).val, hy0⟩ : Fin 2048) (⟨(y 1).val, hy1⟩ : Fin 256) :=
    funext fun a => Fin.ext (by match a with | ⟨0, _⟩ => rfl | ⟨1, _⟩ => rfl)
  have he : ((cfg18.win 5).blk t).view.emb y
      = ix2 (⟨t.val * 2048 + (y 0).val, by omega⟩ : Fin 65536) (⟨(y 1).val, hy1⟩ : Fin 256) :=
    funext fun a => Fin.ext (by
      match a with
      | ⟨0, _⟩ => show win18_5.index t (0 : Fin 2) * 2048 + 1 * (y 0).val = t.val * 2048 + (y 0).val; omega
      | ⟨1, _⟩ => show win18_5.index t (1 : Fin 2) * 256 + 1 * (y 1).val = (y 1).val; omega)
  show out18 (F := Ideal) (iblk18 V c 0 t) (iblk18 V c 1 t) (iblk18 V c 2 t) (iblk18 V c 3 t) (iblk18 V c 4 t) ((cfg18.win 5).xinj (grid18.coords t) y)
    = selfUpdate18 V c (((cfg18.win 5).blk t).view.emb y)
  rw [hx, he]
  refine (out18_apply (iblk18 V c 0 t) (iblk18 V c 1 t) (iblk18 V c 2 t) (iblk18 V c 3 t) (iblk18 V c 4 t) ⟨(y 0).val, hy0⟩ ⟨(y 1).val, hy1⟩).trans ?_
  have h0 := fun k : Fin 256 => iblk18_0_apply V c t ⟨(y 0).val, hy0⟩ k ⟨t.val * 2048 + (y 0).val, by omega⟩ rfl
  have h1 := fun k : Fin 256 => iblk18_1_apply V c t k ⟨(y 1).val, hy1⟩
  have h2 := iblk18_2_apply V c t 0 ⟨(y 1).val, hy1⟩
  have h3 := iblk18_3_apply V c t ⟨(y 0).val, hy0⟩ ⟨(y 1).val, hy1⟩ ⟨t.val * 2048 + (y 0).val, by omega⟩ rfl
  have h4 := iblk18_4_apply V c t ⟨(y 0).val, hy0⟩ ⟨(y 1).val, hy1⟩ ⟨t.val * 2048 + (y 0).val, by omega⟩ rfl
  simp only [h0, h1, h2, h3, h4]
  rfl

/-- An index of the array is in point t's block iff each coordinate is in the block's range on its axis. -/
theorem mem_blk18 (t : Fin cfg18.N) (i : S65536x256.Idx) :
    i ∈ ((cfg18.win 5).blk t).view.set ↔ ∀ a : Fin 2, win18_5.index t a * S2048x256.size a ≤ (i a).val ∧ (i a).val < win18_5.index t a * S2048x256.size a + S2048x256.size a := by
  show i ∈ ((View.whole main_v213).slice (win18_5.rect t)).set ↔ _
  rw [View.set_slice_whole, Rect.mem_set_unit]
  exact Iff.rfl

/-- THE ARRAY AFTER THE REGION: the 32 blocks of 2048 rows tile the 65536 rows (row r is in block r / 2048), so
    the output array ends holding the self update of the five input arrays. -/
theorem arrAt18 (c : Dev nD) :
    (dat18 (F := Ideal) V c).arrAt 5 cfg18.N = fun i =>
      max (Cert.Spec.mul (V c (Pipeline.arrRef spec18 0) : Mat 65536 256) (V c (Pipeline.arrRef spec18 1) : Mat 256 256) i
          + (V c (Pipeline.arrRef spec18 2) : Mat 1 256) (ix2 (0 : Fin 1) (i 1)) + (V c (Pipeline.arrRef spec18 3) : Mat 65536 256) i
          + (V c (Pipeline.arrRef spec18 4) : Mat 65536 256) i) 0 :=
  (dat18 V c).arrAt_eq_of_cover 5 (selfUpdate18 V c) (fun t _ => flushed18_eq V c t) fun i => by
    have hi0 : (i 0).val < 65536 := (i 0).isLt
    have hi1 : (i 1).val < 256 := (i 1).isLt
    have hN : cfg18.N = 32 := N_18
    obtain ⟨-, -, -, -, -, -, -, -, -, -, e0, e1⟩ := idx18 ⟨(i 0).val / 2048, by rw [hN]; omega⟩
    refine ⟨⟨(i 0).val / 2048, by rw [hN]; omega⟩, flush18_5 _, ?_⟩
    rw [mem_blk18]
    intro a
    match a with
    | ⟨0, _⟩ =>
      show win18_5.index ⟨(i 0).val / 2048, _⟩ (0 : Fin 2) * 2048 ≤ (i 0).val ∧ (i 0).val < win18_5.index ⟨(i 0).val / 2048, _⟩ (0 : Fin 2) * 2048 + 2048
      rw [e0]; show (i 0).val / 2048 * 2048 ≤ (i 0).val ∧ (i 0).val < (i 0).val / 2048 * 2048 + 2048; omega
    | ⟨1, _⟩ =>
      show win18_5.index ⟨(i 0).val / 2048, _⟩ (1 : Fin 2) * 256 ≤ (i 1).val ∧ (i 1).val < win18_5.index ⟨(i 0).val / 2048, _⟩ (1 : Fin 2) * 256 + 256
      rw [e1]; omega

end Cert.KernelIdeal.Val

end
-- ==== Proof.KI.ValSelf19.lean ====
/- Region 19, the self update: the output array after the region is ONE function of the four arrays the region reads,
   index by index —  max (X · W + b + U, 0)  with X the [16384,256] features, W the [256,256] weights, b the [1,256] bias row
   added to every row, U the [16384,256] added term. The grid's 8 points each own 2048 consecutive rows: point t reads
   rows 2048·t … 2048·t + 2047 of X and U and all of W and b, and writes those rows of the result. -/
import proofs.«101828_j11562051961417_2_alg».proof.Proof.KI.Region19
import proofs.«101828_j11562051961417_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat)
open Cert.Spec (Mat)

/-! ## The contraction of the body's matrix product, axis by axis -/

theorem lhs19_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs19_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs19_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs19_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's matrix product into the zero accumulator, at an entry: the row of the left block against the column of
    the right one. -/
theorem matmul19_apply (l : FVec Ideal S2048x256 .bf16) (r : FVec Ideal S256x256 .bf16) (p : Fin 2048) (q : Fin 256) :
    FloatOps.matmul dot_S2048x256_S256x256_S2048x256_1_0_0_1_n_n none l r (constant (F := Ideal) S2048x256 .f32 0x00000000#32) (ix2 p q)
      = ∑ k : Fin 256, l (ix2 p k) * r (ix2 k q) := by
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs19_0 _ _
    | ⟨1, _⟩ => exact (lhs19_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs19_0 _ _).trans hk
    | ⟨1, _⟩ => exact rhs19_1 _ _)
  rw [el, er]

/-- The body's value at an entry of its block. -/
theorem pay19_apply (x0 : Vec Ideal S2048x256 .f32) (x1 : Vec Ideal S256x256 .f32) (x2 : Vec Ideal S1x256 .f32) (x3 : Vec Ideal S2048x256 .f32)
    (p : Fin 2048) (q : Fin 256) :
    k19_pay1 (F := Ideal) x0 x1 x2 x3 (ix2 p q)
      = max ((∑ k : Fin 256, x0 (ix2 p k) * x1 (ix2 k q)) + x2 (ix2 (0 : Fin 1) q) + x3 (ix2 p q)) 0 := by
  unfold k19_pay1
  simp only [shapeCast_self]
  show max ((matmul dot_S2048x256_S256x256_S2048x256_1_0_0_1_n_n none (truncf .bf16 x0 bitsLt_bf16_f32) (truncf .bf16 x1 bitsLt_bf16_f32) (constant (F := Ideal) S2048x256 .f32 0x00000000#32) (ix2 p q)) + broadcastTo S2048x256 x2 broadcasts_S1x256_S2048x256 (ix2 p q) + x3 (ix2 p q)) (Ideal.ofBits .f32 0x00000000#32) = _
  rw [Ideal.ofBits_zero_f32, broadcastTo_1b_ab_apply]
  exact congrArg (fun s => max (s + x2 (ix2 (0 : Fin 1) q) + x3 (ix2 p q)) 0) (matmul19_apply _ _ p q)

/-! ## The output block after the body, at an entry -/

theorem zero19 : (![0, 0] : Fin 2 → Nat) = fun _ => 0 := funext fun a => by fin_cases a <;> rfl

/-- The output block after the body is the body's value of the four input blocks: at entry (p, q), row p of the features'
    block against column q of the weights, plus the bias at q, plus the added term's entry, rectified. -/
theorem out19_apply (x0 : Vec Ideal S2048x256 .f32) (x1 : Vec Ideal S256x256 .f32) (x2 : Vec Ideal S1x256 .f32) (x3 : Vec Ideal S2048x256 .f32)
    (p : Fin 2048) (q : Fin 256) :
    out19 (F := Ideal) x0 x1 x2 x3 (ix2 p q)
      = max ((∑ k : Fin 256, x0 (ix2 p k) * x1 (ix2 k q)) + x2 (ix2 (0 : Fin 1) q) + x3 (ix2 p q)) 0 := by
  unfold out19
  rw [View.canon_unit_zero zero19]
  simp only [View.ld_unit_zero (S := S2048x256) zero19, View.ld_unit_zero (S := S256x256) zero19, View.ld_unit_zero (S := S1x256) zero19]
  exact pay19_apply x0 x1 x2 x3 p q

/-! ## The blocks, as parts of the arrays -/

variable (V : (c : Dev nD) → (b : Ref sig .tc) → Buf (Elt Ideal) ((c : Thread nD τ).loc b))

/-- The printed index maps over the grid: the features', the added term's and the output's block at point t is block t
    of rows; the weights and the bias row are one block. -/
theorem idx19 : ∀ t : Fin cfg19.N, win19_0.index t (0 : Fin 2) = t.val ∧ win19_0.index t (1 : Fin 2) = 0
    ∧ win19_1.index t (0 : Fin 2) = 0 ∧ win19_1.index t (1 : Fin 2) = 0
    ∧ win19_2.index t (0 : Fin 2) = 0 ∧ win19_2.index t (1 : Fin 2) = 0
    ∧ win19_3.index t (0 : Fin 2) = t.val ∧ win19_3.index t (1 : Fin 2) = 0
    ∧ win19_4.index t (0 : Fin 2) = t.val ∧ win19_4.index t (1 : Fin 2) = 0 :=
  (by decide +kernel : ∀ t : Fin grid19.N, _)

/-- Entry (p, k) of the features' block at point t is entry (2048·t + p, k) of the features. -/
theorem iblk19_0_apply (c : Dev nD) (t : Fin cfg19.N) (p : Fin 2048) (k : Fin 256) (r : Fin 16384) (hr : r.val = t.val * 2048 + p.val) :
    (iblk19 V c 0 t : Vec Ideal S2048x256 .f32) (ix2 p k) = (V c (Pipeline.arrRef spec19 0) : Mat 16384 256) (ix2 r k) := by
  obtain ⟨e0, e1, -⟩ := idx19 t
  unfold iblk19
  rw [View.read_apply]
  refine congrArg (V c (Pipeline.arrRef spec19 0) : Mat 16384 256) (funext fun a => Fin.ext ?_)
  match a with
  | ⟨0, _⟩ => show win19_0.index t (0 : Fin 2) * 2048 + 1 * p.val = r.val; omega
  | ⟨1, _⟩ => show win19_0.index t (1 : Fin 2) * 256 + 1 * k.val = k.val; omega

/-- The weights' block at every point is the weights. -/
theorem iblk19_1_apply (c : Dev nD) (t : Fin cfg19.N) (k q : Fin 256) :
    (iblk19 V c 1 t : Vec Ideal S256x256 .f32) (ix2 k q) = (V c (Pipeline.arrRef spec19 1) : Mat 256 256) (ix2 k q) := by
  obtain ⟨-, -, e0, e1, -⟩ := idx19 t
  unfold iblk19
  rw [View.read_apply]
  refine congrArg (V c (Pipeline.arrRef spec19 1) : Mat 256 256) (funext fun a => Fin.ext ?_)
  match a with
  | ⟨0, _⟩ => show win19_1.index t (0 : Fin 2) * 256 + 1 * k.val = k.val; omega
  | ⟨1, _⟩ => show win19_1.index t (1 : Fin 2) * 256 + 1 * q.val = q.val; omega

/-- The bias row's block at every point is the bias row. -/
theorem iblk19_2_apply (c : Dev nD) (t : Fin cfg19.N) (z : Fin 1) (q : Fin 256) :
    (iblk19 V c 2 t : Vec Ideal S1x256 .f32) (ix2 z q) = (V c (Pipeline.arrRef spec19 2) : Mat 1 256) (ix2 z q) := by
  obtain ⟨-, -, -, -, e0, e1, -⟩ := idx19 t
  unfold iblk19
  rw [View.read_apply]
  refine congrArg (V c (Pipeline.arrRef spec19 2) : Mat 1 256) (funext fun a => Fin.ext ?_)
  match a with
  | ⟨0, _⟩ => show win19_2.index t (0 : Fin 2) * 1 + 1 * z.val = z.val; omega
  | ⟨1, _⟩ => show win19_2.index t (1 : Fin 2) * 256 + 1 * q.val = q.val; omega

/-- Entry (p, q) of the added term's block at point t is entry (2048·t + p, q) of the added term. -/
theorem iblk19_3_apply (c : Dev nD) (t : Fin cfg19.N) (p : Fin 2048) (q : Fin 256) (r : Fin 16384) (hr : r.val = t.val * 2048 + p.val) :
    (iblk19 V c 3 t : Vec Ideal S2048x256 .f32) (ix2 p q) = (V c (Pipeline.arrRef spec19 3) : Mat 16384 256) (ix2 r q) := by
  obtain ⟨-, -, -, -, -, -, e0, e1, -⟩ := idx19 t
  unfold iblk19
  rw [View.read_apply]
  refine congrArg (V c (Pipeline.arrRef spec19 3) : Mat 16384 256) (funext fun a => Fin.ext ?_)
  match a with
  | ⟨0, _⟩ => show win19_3.index t (0 : Fin 2) * 2048 + 1 * p.val = r.val; omega
  | ⟨1, _⟩ => show win19_3.index t (1 : Fin 2) * 256 + 1 * q.val = q.val; omega

/-! ## What each point writes back, and the array after the region -/

/-- The self update of the region's four input arrays, entry by entry. -/
abbrev selfUpdate19 (c : Dev nD) : Mat 16384 256 := fun i =>
  max (Cert.Spec.mul (V c (Pipeline.arrRef spec19 0) : Mat 16384 256) (V c (Pipeline.arrRef spec19 1) : Mat 256 256) i
      + (V c (Pipeline.arrRef spec19 2) : Mat 1 256) (ix2 (0 : Fin 1) (i 1)) + (V c (Pipeline.arrRef spec19 3) : Mat 16384 256) i) 0

/-- What point t writes back is its block of rows of the self update. -/
theorem flushed19_eq (c : Dev nD) (t : Fin cfg19.N) :
    (dat19 V c).flushed 4 t = ((cfg19.win 4).blk t).view.read (Elt Ideal) (selfUpdate19 V c) := by
  show (cfg19.win 4).cut (grid19.coords t) ((dat19 V c).after 4 t) = _
  rw [after19_4]
  funext y
  have hy0 : (y 0).val < 2048 := (y 0).isLt
  have hy1 : (y 1).val < 256 := (y 1).isLt
  have hN : t.val < 8 := lt_of_lt_of_eq t.isLt N_19
  obtain ⟨-, -, -, -, -, -, -, -, e0, e1⟩ := idx19 t
  have hx : (cfg19.win 4).xinj (grid19.coords t) y = ix2 (⟨(y 0).val, hy0⟩ : Fin 2048) (⟨(y 1).val, hy1⟩ : Fin 256) :=
    funext fun a => Fin.ext (by match a with | ⟨0, _⟩ => rfl | ⟨1, _⟩ => rfl)
  have he : ((cfg19.win 4).blk t).view.emb y
      = ix2 (⟨t.val * 2048 + (y 0).val, by omega⟩ : Fin 16384) (⟨(y 1).val, hy1⟩ : Fin 256) :=
    funext fun a => Fin.ext (by
      match a with
      | ⟨0, _⟩ => show win19_4.index t (0 : Fin 2) * 2048 + 1 * (y 0).val = t.val * 2048 + (y 0).val; omega
      | ⟨1, _⟩ => show win19_4.index t (1 : Fin 2) * 256 + 1 * (y 1).val = (y 1).val; omega)
  show out19 (F := Ideal) (iblk19 V c 0 t) (iblk19 V c 1 t) (iblk19 V c 2 t) (iblk19 V c 3 t) ((cfg19.win 4).xinj (grid19.coords t) y)
    = selfUpdate19 V c (((cfg19.win 4).blk t).view.emb y)
  rw [hx, he]
  refine (out19_apply (iblk19 V c 0 t) (iblk19 V c 1 t) (iblk19 V c 2 t) (iblk19 V c 3 t) ⟨(y 0).val, hy0⟩ ⟨(y 1).val, hy1⟩).trans ?_
  have h0 := fun k : Fin 256 => iblk19_0_apply V c t ⟨(y 0).val, hy0⟩ k ⟨t.val * 2048 + (y 0).val, by omega⟩ rfl
  have h1 := fun k : Fin 256 => iblk19_1_apply V c t k ⟨(y 1).val, hy1⟩
  have h2 := iblk19_2_apply V c t 0 ⟨(y 1).val, hy1⟩
  have h3 := iblk19_3_apply V c t ⟨(y 0).val, hy0⟩ ⟨(y 1).val, hy1⟩ ⟨t.val * 2048 + (y 0).val, by omega⟩ rfl
  simp only [h0, h1, h2, h3]
  rfl

/-- An index of the array is in point t's block iff each coordinate is in the block's range on its axis. -/
theorem mem_blk19 (t : Fin cfg19.N) (i : S16384x256.Idx) :
    i ∈ ((cfg19.win 4).blk t).view.set ↔ ∀ a : Fin 2, win19_4.index t a * S2048x256.size a ≤ (i a).val ∧ (i a).val < win19_4.index t a * S2048x256.size a + S2048x256.size a := by
  show i ∈ ((View.whole main_v219).slice (win19_4.rect t)).set ↔ _
  rw [View.set_slice_whole, Rect.mem_set_unit]
  exact Iff.rfl

/-- THE ARRAY AFTER THE REGION: the 8 blocks of 2048 rows tile the 16384 rows (row r is in block r / 2048), so the
    output array ends holding the self update of the four input arrays. -/
theorem arrAt19 (c : Dev nD) :
    (dat19 (F := Ideal) V c).arrAt 4 cfg19.N = fun i =>
      max (Cert.Spec.mul (V c (Pipeline.arrRef spec19 0) : Mat 16384 256) (V c (Pipeline.arrRef spec19 1) : Mat 256 256) i
          + (V c (Pipeline.arrRef spec19 2) : Mat 1 256) (ix2 (0 : Fin 1) (i 1)) + (V c (Pipeline.arrRef spec19 3) : Mat 16384 256) i) 0 :=
  (dat19 V c).arrAt_eq_of_cover 4 (selfUpdate19 V c) (fun t _ => flushed19_eq V c t) fun i => by
    have hi0 : (i 0).val < 16384 := (i 0).isLt
    have hi1 : (i 1).val < 256 := (i 1).isLt
    have hN : cfg19.N = 8 := N_19
    obtain ⟨-, -, -, -, -, -, -, -, e0, e1⟩ := idx19 ⟨(i 0).val / 2048, by rw [hN]; omega⟩
    refine ⟨⟨(i 0).val / 2048, by rw [hN]; omega⟩, flush19_4 _, ?_⟩
    rw [mem_blk19]
    intro a
    match a with
    | ⟨0, _⟩ =>
      show win19_4.index ⟨(i 0).val / 2048, _⟩ (0 : Fin 2) * 2048 ≤ (i 0).val ∧ (i 0).val < win19_4.index ⟨(i 0).val / 2048, _⟩ (0 : Fin 2) * 2048 + 2048
      rw [e0]; show (i 0).val / 2048 * 2048 ≤ (i 0).val ∧ (i 0).val < (i 0).val / 2048 * 2048 + 2048; omega
    | ⟨1, _⟩ =>
      show win19_4.index ⟨(i 0).val / 2048, _⟩ (1 : Fin 2) * 256 ≤ (i 1).val ∧ (i 1).val < win19_4.index ⟨(i 0).val / 2048, _⟩ (1 : Fin 2) * 256 + 256
      rw [e1]; omega

end Cert.KernelIdeal.Val

end
-- ==== Proof.KI.Layer1Bound.lean ====
/- The layer-1 boundary messages, stated over the reference's stage functions.

   In the second layer the node and edge features are the first layer's outputs, themselves functions of the
   arguments; the incidence arrays are the ones computed once. The two bridges of the boundary module are instantiated
   at these functions: the kernel's re-associated edge message and its batched cell message, laid out flat, are the
   reference's two messages of this layer. -/
import proofs.«101828_j11562051961417_2_alg».proof.KernelIdeal
import proofs.«101828_j11562051961417_2_alg».proof.ReferenceIdeal
import proofs.«101828_j11562051961417_2_alg».proof.Proof.Spec
import proofs.«101828_j11562051961417_2_alg».proof.Proof.Laws
import proofs.«101828_j11562051961417_2_alg».proof.Proof.RefRead
import proofs.«101828_j11562051961417_2_alg».proof.Proof.BridgeBound
import proofs.«101828_j11562051961417_2_alg».proof.Proof.KI.Layer0Bound
import Idealize.ShloMosaic.Lib.Pipeline.Value
import Idealize.ShloMosaic.Lib.ValueIdx
import Idealize.ShloMosaic.Lib.IdealHost
import Idealize.ShloMosaic.PureOps.Ideal.Laws

noncomputable section

namespace Cert.Bridge

open Idealize.ShloMosaic Idealize.ShloMosaic.ValueIdx
open Cert.ReferenceIdeal.Read
open scoped BigOperators

variable [Cert.KernelIdeal.Facts₀] [Cert.ReferenceIdeal.Facts₀]

/-- The kernel's re-associated edge message A_b · (X · W)_b of the second layer, laid out flat, is the reference's
    ((A_b · X_b) laid out flat) · W, for real node features and weights. The weight matrix is one slab of the weight
    array, so real when that is. -/
theorem bd_e_layer1 (x0 : (⟨Cert.ReferenceIdeal.S32768x256, .f32⟩ : BufTy).Contents (Elt Ideal)) (x1 : (⟨Cert.ReferenceIdeal.S65536x256, .f32⟩ : BufTy).Contents (Elt Ideal))
    (x3 x4 x5 x6 x11 x12 x13 : (⟨Cert.ReferenceIdeal.S131072, .i32⟩ : BufTy).Contents (Elt Ideal))
    (x17 : (⟨Cert.ReferenceIdeal.S4x3x256x256, .f32⟩ : BufTy).Contents (Elt Ideal)) (x18 : (⟨Cert.ReferenceIdeal.S4x3x256, .f32⟩ : BufTy).Contents (Elt Ideal))
    (x19 x20 x21 : (⟨Cert.ReferenceIdeal.S4x2x256x256, .f32⟩ : BufTy).Contents (Elt Ideal))
    (hnf : Cert.Spec.Finite (s := ⟨2, ![32768, 256]⟩) (val_main_v133 (F := Ideal) x0 x1 x3 x4 x5 x6 x17 x18 x19 x20))
    (h21 : Cert.Spec.Finite x21) :
    shapeCast Cert.KernelIdeal.S65536x256
        (Cert.Spec.bmul (val_main_v21 (F := Ideal) x11 x12 x13 : Cert.Spec.Mat3 256 256 128)
          (shapeCast Cert.KernelIdeal.S256x128x256
            (Cert.Spec.mul (val_main_v133 (F := Ideal) x0 x1 x3 x4 x5 x6 x17 x18 x19 x20 : Cert.Spec.Mat 32768 256)
              (val_main_v209 (F := Ideal) x21 : Cert.Spec.Mat 256 256))
            Cert.KernelIdeal.Shapes1.Facts₀.shapeCasts_S32768x256_S256x128x256))
        Cert.KernelIdeal.Shapes1.Facts₀.shapeCasts_S256x256x256_S65536x256
      = val_main_v210 (F := Ideal) x0 x1 x3 x4 x5 x6 x11 x12 x13 x17 x18 x19 x20 x21 :=
  (edge_boundary (val_main_v21 (F := Ideal) x11 x12 x13) (val_main_v133 (F := Ideal) x0 x1 x3 x4 x5 x6 x17 x18 x19 x20)
    (val_main_v209 (F := Ideal) x21) (finite_val_main_v21 x11 x12 x13) hnf (fun _ => h21 _)).symm

/-- The kernel's batched cell message (A_b · X_b) · W of the second layer, laid out flat, is the reference's. -/
theorem bd_c_layer1 (x0 : (⟨Cert.ReferenceIdeal.S32768x256, .f32⟩ : BufTy).Contents (Elt Ideal)) (x1 : (⟨Cert.ReferenceIdeal.S65536x256, .f32⟩ : BufTy).Contents (Elt Ideal))
    (x2 : (⟨Cert.ReferenceIdeal.S16384x256, .f32⟩ : BufTy).Contents (Elt Ideal)) (x7 x8 x9 x10 : (⟨Cert.ReferenceIdeal.S98304, .i32⟩ : BufTy).Contents (Elt Ideal))
    (x11 x12 x13 : (⟨Cert.ReferenceIdeal.S131072, .i32⟩ : BufTy).Contents (Elt Ideal))
    (x14 x15 x16 : (⟨Cert.ReferenceIdeal.S65536, .i32⟩ : BufTy).Contents (Elt Ideal))
    (x17 : (⟨Cert.ReferenceIdeal.S4x3x256x256, .f32⟩ : BufTy).Contents (Elt Ideal)) (x18 : (⟨Cert.ReferenceIdeal.S4x3x256, .f32⟩ : BufTy).Contents (Elt Ideal))
    (x19 x20 x21 : (⟨Cert.ReferenceIdeal.S4x2x256x256, .f32⟩ : BufTy).Contents (Elt Ideal)) :
    shapeCast Cert.KernelIdeal.S16384x256
        (cellMsg (val_main_v43 (F := Ideal) x14 x15 x16)
          (val_main_v211 (F := Ideal) x0 x1 x2 x7 x8 x9 x10 x11 x12 x13 x17 x18 x19 x20 x21)
          (val_main_v215 (F := Ideal) x21))
        Cert.KernelIdeal.Shapes1.Facts₀.shapeCasts_S256x64x256_S16384x256
      = val_main_v216 (F := Ideal) x0 x1 x2 x7 x8 x9 x10 x11 x12 x13 x14 x15 x16 x17 x18 x19 x20 x21 :=
  (cell_boundary (val_main_v43 (F := Ideal) x14 x15 x16)
    (val_main_v211 (F := Ideal) x0 x1 x2 x7 x8 x9 x10 x11 x12 x13 x17 x18 x19 x20 x21)
    (val_main_v215 (F := Ideal) x21)).symm

end Cert.Bridge

end
-- ==== Proof.KI.Layer1Self.lean ====
/- Layer 1 on the host, as identities between functions of whole arrays: the two sums of messages per receiver and the
   three updates, each spelt once over the products taken first (the shared vocabulary's X · W) and once as the
   operations that gather first and contract afterwards. The layer's features are the values layer 0 leaves; every
   identity is layer 0's with those values in place of the feature arguments and the layer's own weight and bias slots. -/
import Idealize.ShloMosaic.PureOps.Ideal
import Idealize.ShloMosaic.PureOps.Ideal.Laws
import Idealize.ShloMosaic.Lib.ValueIdx
import Idealize.ShloMosaic.Lib.Pipeline.Value
import proofs.«101828_j11562051961417_2_alg».proof.KernelIdeal
import proofs.«101828_j11562051961417_2_alg».proof.ReferenceIdeal
import proofs.«101828_j11562051961417_2_alg».proof.Proof.Gen.KernelIdeal
import proofs.«101828_j11562051961417_2_alg».proof.Proof.RefRead
import proofs.«101828_j11562051961417_2_alg».proof.Proof.Spec
import proofs.«101828_j11562051961417_2_alg».proof.Proof.Laws
import proofs.«101828_j11562051961417_2_alg».proof.Proof.BridgeMsg
import proofs.«101828_j11562051961417_2_alg».proof.Proof.KI.Layer0Self

noncomputable section

namespace Cert.Bridge

open Idealize.ShloMosaic Idealize.ShloMosaic.ValueIdx
open Cert.ReferenceIdeal.Read
open scoped BigOperators

/-! ## The sums of messages per receiver -/

/-- The node messages of layer 1 summed per receiving node. The layer's features are the values layer 0 leaves; the identity is layer 0's with those in place of the arguments. -/
theorem up_n_layer1 (x0 : (⟨Cert.ReferenceIdeal.S32768x256, .f32⟩ : BufTy).Contents (Elt Ideal)) (x1 : (⟨Cert.ReferenceIdeal.S65536x256, .f32⟩ : BufTy).Contents (Elt Ideal)) (x2 : (⟨Cert.ReferenceIdeal.S16384x256, .f32⟩ : BufTy).Contents (Elt Ideal)) (x3 x4 x5 x6 : (⟨Cert.ReferenceIdeal.S131072, .i32⟩ : BufTy).Contents (Elt Ideal)) (x7 x8 x9 x10 : (⟨Cert.ReferenceIdeal.S98304, .i32⟩ : BufTy).Contents (Elt Ideal)) (x11 x12 x13 : (⟨Cert.ReferenceIdeal.S131072, .i32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal)) (x19 x20 x21 : (⟨Cert.ReferenceIdeal.S4x2x256x256, .f32⟩ : BufTy).Contents (Elt Ideal)) :
    Host.scatterAdd (F := Ideal) Cert.KernelIdeal.scatter_S32768x256_S131072x1_S131072x256_1_0_0_1
        (broadcastInDim Cert.KernelIdeal.S32768x256 ![] Cert.KernelIdeal.Shapes1.Facts₀.bcast_S_S32768x256 (constant (F := Ideal) Cert.KernelIdeal.S_ .f32 0x00000000#32))
        (broadcastInDim Cert.KernelIdeal.S131072x1 ![0] Cert.KernelIdeal.Shapes1.Facts₀.bcast_S131072_S131072x1_0 (val_main_v46 (F := Ideal) x3 x4))
        (maximumf (F := Ideal) (φ := .f32)
          (addf
            (Host.gather Cert.KernelIdeal.gather_S32768x256_S131072x1_S131072x256_1_0_n_n_0_1_1256
              (Cert.Spec.mul ((val_main_v133 (F := Ideal) x0 x1 x3 x4 x5 x6 x17 x18 x19 x20) : Cert.Spec.Mat 32768 256) (val_main_v163 (F := Ideal) x19 : Cert.Spec.Mat 256 256))
              (val_main_v160 (F := Ideal) x3 x5))
            (Host.gather Cert.KernelIdeal.gather_S65536x256_S131072x1_S131072x256_1_0_n_n_0_1_1256
              (Cert.Spec.mul ((val_main_v144 (F := Ideal) x0 x1 x2 x7 x8 x9 x10 x11 x12 x13 x17 x18 x19 x20 x21) : Cert.Spec.Mat 65536 256) (val_main_v173 (F := Ideal) x20 : Cert.Spec.Mat 256 256))
              (val_main_v170 (F := Ideal) x3 x6)))
          (broadcastInDim Cert.KernelIdeal.S131072x256 ![] Cert.KernelIdeal.Shapes1.Facts₀.bcast_S_S131072x256 (constant (F := Ideal) Cert.KernelIdeal.S_ .f32 0x00000000#32)))
      = val_main_v179 (F := Ideal) x0 x1 x2 x3 x4 x5 x6 x7 x8 x9 x10 x11 x12 x13 x17 x18 x19 x20 x21 := by
  rw [msg_131072]
  rfl

/-- The edge messages of layer 1 summed per receiving edge. -/
theorem up_e_layer1 (x0 : (⟨Cert.ReferenceIdeal.S32768x256, .f32⟩ : BufTy).Contents (Elt Ideal)) (x1 : (⟨Cert.ReferenceIdeal.S65536x256, .f32⟩ : BufTy).Contents (Elt Ideal)) (x2 : (⟨Cert.ReferenceIdeal.S16384x256, .f32⟩ : BufTy).Contents (Elt Ideal)) (x7 x8 x9 x10 : (⟨Cert.ReferenceIdeal.S98304, .i32⟩ : BufTy).Contents (Elt Ideal)) (x11 x12 x13 : (⟨Cert.ReferenceIdeal.S131072, .i32⟩ : BufTy).Contents (Elt Ideal)) (x14 x15 x16 : (⟨Cert.ReferenceIdeal.S65536, .i32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal)) (x19 x20 x21 : (⟨Cert.ReferenceIdeal.S4x2x256x256, .f32⟩ : BufTy).Contents (Elt Ideal)) :
    Host.scatterAdd (F := Ideal) Cert.KernelIdeal.scatter_S65536x256_S98304x1_S98304x256_1_0_0_1
        (broadcastInDim Cert.KernelIdeal.S65536x256 ![] Cert.KernelIdeal.Shapes1.Facts₀.bcast_S_S65536x256 (constant (F := Ideal) Cert.KernelIdeal.S_ .f32 0x00000000#32))
        (broadcastInDim Cert.KernelIdeal.S98304x1 ![0] Cert.KernelIdeal.Shapes1.Facts₀.bcast_S98304_S98304x1_0 (val_main_v55 (F := Ideal) x7 x8))
        (maximumf (F := Ideal) (φ := .f32)
          (addf
            (Host.gather Cert.KernelIdeal.gather_S65536x256_S98304x1_S98304x256_1_0_n_n_0_1_1256
              (Cert.Spec.mul ((val_main_v144 (F := Ideal) x0 x1 x2 x7 x8 x9 x10 x11 x12 x13 x17 x18 x19 x20 x21) : Cert.Spec.Mat 65536 256) (val_main_v188 (F := Ideal) x19 : Cert.Spec.Mat 256 256))
              (val_main_v185 (F := Ideal) x7 x9))
            (Host.gather Cert.KernelIdeal.gather_S16384x256_S98304x1_S98304x256_1_0_n_n_0_1_1256
              (Cert.Spec.mul ((val_main_v154 (F := Ideal) x1 x2 x14 x15 x16 x17 x18 x21) : Cert.Spec.Mat 16384 256) (val_main_v198 (F := Ideal) x20 : Cert.Spec.Mat 256 256))
              (val_main_v195 (F := Ideal) x7 x10)))
          (broadcastInDim Cert.KernelIdeal.S98304x256 ![] Cert.KernelIdeal.Shapes1.Facts₀.bcast_S_S98304x256 (constant (F := Ideal) Cert.KernelIdeal.S_ .f32 0x00000000#32)))
      = val_main_v204 (F := Ideal) x0 x1 x2 x7 x8 x9 x10 x11 x12 x13 x14 x15 x16 x17 x18 x19 x20 x21 := by
  rw [msg_98304]
  rfl

/-! ## The three updates -/

/-- The node update of layer 1. -/
theorem self_n_layer1 (x0 : (⟨Cert.ReferenceIdeal.S32768x256, .f32⟩ : BufTy).Contents (Elt Ideal)) (x1 : (⟨Cert.ReferenceIdeal.S65536x256, .f32⟩ : BufTy).Contents (Elt Ideal)) (x3 x4 x5 x6 : (⟨Cert.ReferenceIdeal.S131072, .i32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal)) (x19 x20 : (⟨Cert.ReferenceIdeal.S4x2x256x256, .f32⟩ : BufTy).Contents (Elt Ideal))
    (U : (⟨Cert.ReferenceIdeal.S32768x256, .f32⟩ : BufTy).Contents (Elt Ideal)) :
    (fun i => max (Cert.Spec.mul ((val_main_v133 (F := Ideal) x0 x1 x3 x4 x5 x6 x17 x18 x19 x20) : Cert.Spec.Mat 32768 256) (val_main_v218 (F := Ideal) x17 : Cert.Spec.Mat 256 256) i
        + (shapeCast Cert.KernelIdeal.S1x256 (shapeCast Cert.KernelIdeal.S256 (extractStridedSlice Cert.KernelIdeal.S1x1x256 ![1, 0, 0] x18 Cert.KernelIdeal.Shapes1.Facts₀.slices_S4x3x256_S1x1x256_1_0_0) Cert.KernelIdeal.Shapes1.Facts₀.shapeCasts_S1x1x256_S256) Cert.KernelIdeal.Shapes1.Facts₀.shapeCasts_S256_S1x256 : Cert.Spec.Mat 1 256) (ix2 (0 : Fin 1) (i 1)) + (U : Cert.Spec.Mat 32768 256) i) 0 : Cert.Spec.Mat 32768 256)
      = maximumf (F := Ideal) (φ := .f32) (addf (val_main_v224 (F := Ideal) x0 x1 x3 x4 x5 x6 x17 x18 x19 x20) U) (val_main_call7_v0 (F := Ideal)) := by
  funext i
  have hdot : val_main_v219 (F := Ideal) x0 x1 x3 x4 x5 x6 x17 x18 x19 x20 = Cert.Spec.mul ((val_main_v133 (F := Ideal) x0 x1 x3 x4 x5 x6 x17 x18 x19 x20) : Cert.Spec.Mat 32768 256) (val_main_v218 (F := Ideal) x17 : Cert.Spec.Mat 256 256) :=
    dotGeneral_eq_mul Cert.ReferenceIdeal.dot_S32768x256_S256x256_S32768x256_1_0_0_1_n_n rfl rfl rfl rfl rfl rfl none (val_main_v133 (F := Ideal) x0 x1 x3 x4 x5 x6 x17 x18 x19 x20) (val_main_v218 (F := Ideal) x17)
  have hbias : val_main_v223 (F := Ideal) x18 i = (shapeCast Cert.KernelIdeal.S1x256 (shapeCast Cert.KernelIdeal.S256 (extractStridedSlice Cert.KernelIdeal.S1x1x256 ![1, 0, 0] x18 Cert.KernelIdeal.Shapes1.Facts₀.slices_S4x3x256_S1x1x256_1_0_0) Cert.KernelIdeal.Shapes1.Facts₀.shapeCasts_S1x1x256_S256) Cert.KernelIdeal.Shapes1.Facts₀.shapeCasts_S256_S1x256 : Cert.Spec.Mat 1 256) (ix2 (0 : Fin 1) (i 1)) := by
    unfold val_main_v223 val_main_v222 val_main_v221 val_main_v220
    exact (bias_rows_apply (by decide) (by decide) x18 _ _ _ _ i).trans (bias_row_apply (by decide) (by decide) x18 _ _ _ (i 1)).symm
  have hz : val_main_call7_v0 (F := Ideal) i = 0 := by
    unfold val_main_call7_v0 val_main_call7_cst
    exact Ideal.ofBits_zero_f32
  show max (Cert.Spec.mul ((val_main_v133 (F := Ideal) x0 x1 x3 x4 x5 x6 x17 x18 x19 x20) : Cert.Spec.Mat 32768 256) (val_main_v218 (F := Ideal) x17 : Cert.Spec.Mat 256 256) i + (shapeCast Cert.KernelIdeal.S1x256 (shapeCast Cert.KernelIdeal.S256 (extractStridedSlice Cert.KernelIdeal.S1x1x256 ![1, 0, 0] x18 Cert.KernelIdeal.Shapes1.Facts₀.slices_S4x3x256_S1x1x256_1_0_0) Cert.KernelIdeal.Shapes1.Facts₀.shapeCasts_S1x1x256_S256) Cert.KernelIdeal.Shapes1.Facts₀.shapeCasts_S256_S1x256 : Cert.Spec.Mat 1 256) (ix2 (0 : Fin 1) (i 1)) + U i) 0
    = max ((val_main_v219 (F := Ideal) x0 x1 x3 x4 x5 x6 x17 x18 x19 x20 i + val_main_v223 (F := Ideal) x18 i) + U i) (val_main_call7_v0 (F := Ideal) i)
  rw [hdot, hbias, hz]

/-- The edge update of layer 1, with two summands U and V besides the product and the bias row. -/
theorem self_e_layer1 (x0 : (⟨Cert.ReferenceIdeal.S32768x256, .f32⟩ : BufTy).Contents (Elt Ideal)) (x1 : (⟨Cert.ReferenceIdeal.S65536x256, .f32⟩ : BufTy).Contents (Elt Ideal)) (x2 : (⟨Cert.ReferenceIdeal.S16384x256, .f32⟩ : BufTy).Contents (Elt Ideal)) (x7 x8 x9 x10 : (⟨Cert.ReferenceIdeal.S98304, .i32⟩ : BufTy).Contents (Elt Ideal)) (x11 x12 x13 : (⟨Cert.ReferenceIdeal.S131072, .i32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal)) (x19 x20 x21 : (⟨Cert.ReferenceIdeal.S4x2x256x256, .f32⟩ : BufTy).Contents (Elt Ideal))
    (U V : (⟨Cert.ReferenceIdeal.S65536x256, .f32⟩ : BufTy).Contents (Elt Ideal)) :
    (fun i => max (Cert.Spec.mul ((val_main_v144 (F := Ideal) x0 x1 x2 x7 x8 x9 x10 x11 x12 x13 x17 x18 x19 x20 x21) : Cert.Spec.Mat 65536 256) (val_main_v228 (F := Ideal) x17 : Cert.Spec.Mat 256 256) i
        + (shapeCast Cert.KernelIdeal.S1x256 (shapeCast Cert.KernelIdeal.S256 (extractStridedSlice Cert.KernelIdeal.S1x1x256 ![1, 1, 0] x18 Cert.KernelIdeal.Shapes1.Facts₀.slices_S4x3x256_S1x1x256_1_1_0) Cert.KernelIdeal.Shapes1.Facts₀.shapeCasts_S1x1x256_S256) Cert.KernelIdeal.Shapes1.Facts₀.shapeCasts_S256_S1x256 : Cert.Spec.Mat 1 256) (ix2 (0 : Fin 1) (i 1)) + (U : Cert.Spec.Mat 65536 256) i + (V : Cert.Spec.Mat 65536 256) i) 0 : Cert.Spec.Mat 65536 256)
      = maximumf (F := Ideal) (φ := .f32) (addf (addf (val_main_v234 (F := Ideal) x0 x1 x2 x7 x8 x9 x10 x11 x12 x13 x17 x18 x19 x20 x21) U) V) (val_main_call8_v0 (F := Ideal)) := by
  funext i
  have hdot : val_main_v229 (F := Ideal) x0 x1 x2 x7 x8 x9 x10 x11 x12 x13 x17 x18 x19 x20 x21 = Cert.Spec.mul ((val_main_v144 (F := Ideal) x0 x1 x2 x7 x8 x9 x10 x11 x12 x13 x17 x18 x19 x20 x21) : Cert.Spec.Mat 65536 256) (val_main_v228 (F := Ideal) x17 : Cert.Spec.Mat 256 256) :=
    dotGeneral_eq_mul Cert.ReferenceIdeal.dot_S65536x256_S256x256_S65536x256_1_0_0_1_n_n rfl rfl rfl rfl rfl rfl none (val_main_v144 (F := Ideal) x0 x1 x2 x7 x8 x9 x10 x11 x12 x13 x17 x18 x19 x20 x21) (val_main_v228 (F := Ideal) x17)
  have hbias : val_main_v233 (F := Ideal) x18 i = (shapeCast Cert.KernelIdeal.S1x256 (shapeCast Cert.KernelIdeal.S256 (extractStridedSlice Cert.KernelIdeal.S1x1x256 ![1, 1, 0] x18 Cert.KernelIdeal.Shapes1.Facts₀.slices_S4x3x256_S1x1x256_1_1_0) Cert.KernelIdeal.Shapes1.Facts₀.shapeCasts_S1x1x256_S256) Cert.KernelIdeal.Shapes1.Facts₀.shapeCasts_S256_S1x256 : Cert.Spec.Mat 1 256) (ix2 (0 : Fin 1) (i 1)) := by
    unfold val_main_v233 val_main_v232 val_main_v231 val_main_v230
    exact (bias_rows_apply (by decide) (by decide) x18 _ _ _ _ i).trans (bias_row_apply (by decide) (by decide) x18 _ _ _ (i 1)).symm
  have hz : val_main_call8_v0 (F := Ideal) i = 0 := by
    unfold val_main_call8_v0 val_main_call8_cst
    exact Ideal.ofBits_zero_f32
  show max (Cert.Spec.mul ((val_main_v144 (F := Ideal) x0 x1 x2 x7 x8 x9 x10 x11 x12 x13 x17 x18 x19 x20 x21) : Cert.Spec.Mat 65536 256) (val_main_v228 (F := Ideal) x17 : Cert.Spec.Mat 256 256) i + (shapeCast Cert.KernelIdeal.S1x256 (shapeCast Cert.KernelIdeal.S256 (extractStridedSlice Cert.KernelIdeal.S1x1x256 ![1, 1, 0] x18 Cert.KernelIdeal.Shapes1.Facts₀.slices_S4x3x256_S1x1x256_1_1_0) Cert.KernelIdeal.Shapes1.Facts₀.shapeCasts_S1x1x256_S256) Cert.KernelIdeal.Shapes1.Facts₀.shapeCasts_S256_S1x256 : Cert.Spec.Mat 1 256) (ix2 (0 : Fin 1) (i 1)) + U i + V i) 0
    = max ((val_main_v229 (F := Ideal) x0 x1 x2 x7 x8 x9 x10 x11 x12 x13 x17 x18 x19 x20 x21 i + val_main_v233 (F := Ideal) x18 i) + U i + V i) (val_main_call8_v0 (F := Ideal) i)
  rw [hdot, hbias, hz]

/-- The cell update of layer 1. -/
theorem self_c_layer1 (x1 : (⟨Cert.ReferenceIdeal.S65536x256, .f32⟩ : BufTy).Contents (Elt Ideal)) (x2 : (⟨Cert.ReferenceIdeal.S16384x256, .f32⟩ : BufTy).Contents (Elt Ideal)) (x14 x15 x16 : (⟨Cert.ReferenceIdeal.S65536, .i32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal)) (x21 : (⟨Cert.ReferenceIdeal.S4x2x256x256, .f32⟩ : BufTy).Contents (Elt Ideal))
    (U : (⟨Cert.ReferenceIdeal.S16384x256, .f32⟩ : BufTy).Contents (Elt Ideal)) :
    (fun i => max (Cert.Spec.mul ((val_main_v154 (F := Ideal) x1 x2 x14 x15 x16 x17 x18 x21) : Cert.Spec.Mat 16384 256) (val_main_v239 (F := Ideal) x17 : Cert.Spec.Mat 256 256) i
        + (shapeCast Cert.KernelIdeal.S1x256 (shapeCast Cert.KernelIdeal.S256 (extractStridedSlice Cert.KernelIdeal.S1x1x256 ![1, 2, 0] x18 Cert.KernelIdeal.Shapes1.Facts₀.slices_S4x3x256_S1x1x256_1_2_0) Cert.KernelIdeal.Shapes1.Facts₀.shapeCasts_S1x1x256_S256) Cert.KernelIdeal.Shapes1.Facts₀.shapeCasts_S256_S1x256 : Cert.Spec.Mat 1 256) (ix2 (0 : Fin 1) (i 1)) + (U : Cert.Spec.Mat 16384 256) i) 0 : Cert.Spec.Mat 16384 256)
      = maximumf (F := Ideal) (φ := .f32) (addf (val_main_v245 (F := Ideal) x1 x2 x14 x15 x16 x17 x18 x21) U) (val_main_call9_v0 (F := Ideal)) := by
  funext i
  have hdot : val_main_v240 (F := Ideal) x1 x2 x14 x15 x16 x17 x18 x21 = Cert.Spec.mul ((val_main_v154 (F := Ideal) x1 x2 x14 x15 x16 x17 x18 x21) : Cert.Spec.Mat 16384 256) (val_main_v239 (F := Ideal) x17 : Cert.Spec.Mat 256 256) :=
    dotGeneral_eq_mul Cert.ReferenceIdeal.dot_S16384x256_S256x256_S16384x256_1_0_0_1_n_n rfl rfl rfl rfl rfl rfl none (val_main_v154 (F := Ideal) x1 x2 x14 x15 x16 x17 x18 x21) (val_main_v239 (F := Ideal) x17)
  have hbias : val_main_v244 (F := Ideal) x18 i = (shapeCast Cert.KernelIdeal.S1x256 (shapeCast Cert.KernelIdeal.S256 (extractStridedSlice Cert.KernelIdeal.S1x1x256 ![1, 2, 0] x18 Cert.KernelIdeal.Shapes1.Facts₀.slices_S4x3x256_S1x1x256_1_2_0) Cert.KernelIdeal.Shapes1.Facts₀.shapeCasts_S1x1x256_S256) Cert.KernelIdeal.Shapes1.Facts₀.shapeCasts_S256_S1x256 : Cert.Spec.Mat 1 256) (ix2 (0 : Fin 1) (i 1)) := by
    unfold val_main_v244 val_main_v243 val_main_v242 val_main_v241
    exact (bias_rows_apply (by decide) (by decide) x18 _ _ _ _ i).trans (bias_row_apply (by decide) (by decide) x18 _ _ _ (i 1)).symm
  have hz : val_main_call9_v0 (F := Ideal) i = 0 := by
    unfold val_main_call9_v0 val_main_call9_cst
    exact Ideal.ofBits_zero_f32
  show max (Cert.Spec.mul ((val_main_v154 (F := Ideal) x1 x2 x14 x15 x16 x17 x18 x21) : Cert.Spec.Mat 16384 256) (val_main_v239 (F := Ideal) x17 : Cert.Spec.Mat 256 256) i + (shapeCast Cert.KernelIdeal.S1x256 (shapeCast Cert.KernelIdeal.S256 (extractStridedSlice Cert.KernelIdeal.S1x1x256 ![1, 2, 0] x18 Cert.KernelIdeal.Shapes1.Facts₀.slices_S4x3x256_S1x1x256_1_2_0) Cert.KernelIdeal.Shapes1.Facts₀.shapeCasts_S1x1x256_S256) Cert.KernelIdeal.Shapes1.Facts₀.shapeCasts_S256_S1x256 : Cert.Spec.Mat 1 256) (ix2 (0 : Fin 1) (i 1)) + U i) 0
    = max ((val_main_v240 (F := Ideal) x1 x2 x14 x15 x16 x17 x18 x21 i + val_main_v244 (F := Ideal) x18 i) + U i) (val_main_call9_v0 (F := Ideal) i)
  rw [hdot, hbias, hz]

end Cert.Bridge

end
-- ==== Proof.KI.Layer1.lean ====
/- Layer 1 of the message-passing network, read off the kernel program's boundaries and joined to the reference.
   The kernel program computes five products of feature arrays with weight slices, takes rows of them for the up
   messages, rectifies and adds the messages up per receiver, forms the two boundary terms with the incidence arrays,
   and updates the three feature arrays. The reference takes the rows first and multiplies afterwards, and multiplies
   the edge boundary term by its weight last. Buffer by buffer, at the boundary where it is consumed, each array the
   kernel program has written is shown equal to the reference's function of the arguments; a buffer that no item in
   between writes is carried from the boundary where it was written. -/
import proofs.«101828_j11562051961417_2_alg».proof.Proof.KI.Layer0
import proofs.«101828_j11562051961417_2_alg».proof.Proof.KI.Layer1Host
import proofs.«101828_j11562051961417_2_alg».proof.Proof.KI.ValProj10
import proofs.«101828_j11562051961417_2_alg».proof.Proof.KI.ValProj11
import proofs.«101828_j11562051961417_2_alg».proof.Proof.KI.ValProj12
import proofs.«101828_j11562051961417_2_alg».proof.Proof.KI.ValProj13
import proofs.«101828_j11562051961417_2_alg».proof.Proof.KI.ValProj14
import proofs.«101828_j11562051961417_2_alg».proof.Proof.KI.ValBound15
import proofs.«101828_j11562051961417_2_alg».proof.Proof.KI.ValBound16
import proofs.«101828_j11562051961417_2_alg».proof.Proof.KI.ValSelf17
import proofs.«101828_j11562051961417_2_alg».proof.Proof.KI.ValSelf18
import proofs.«101828_j11562051961417_2_alg».proof.Proof.KI.ValSelf19
import proofs.«101828_j11562051961417_2_alg».proof.Proof.KI.Layer1Bound
import proofs.«101828_j11562051961417_2_alg».proof.Proof.KI.Layer1Self

set_option maxRecDepth 16384

noncomputable section

namespace Cert.KernelIdeal.Val

open Cert.KernelIdeal.Gen Cert.KernelIdeal.Reg Cert.ReferenceIdeal.Read
open Idealize.ShloMosaic Idealize.ShloMosaic.TcCoe Idealize.ShloMosaic.ValueIdx
open Cert.Spec (Mat Mat3 mul bmul)

variable (m : (ℓ : Loc nD τ sig) → Buf (Elt Ideal) ℓ) (ρ : Dev nD → PrngReg)

/-! ## What the items of layer 1 leave alone

`wt k` lists what items 25 … k write (a region its output array, a host stretch its results); a buffer outside the list is
at boundary k as it was at boundary 24. With the earlier layers' lists (`ws`), a buffer outside all of them is as at boundary 1,
and an argument is as launched. -/

abbrev wt25 : List (Ref sig .tc) := hostOps10_W
theorem W25_sinceB (c : Dev nD) (r : Ref sig .tc) (h : r ∉ wt25) : W25 m ρ c (Proc.devRef .tc r) = W24 m ρ c (Proc.devRef .tc r) :=
  W25_keep m ρ c r h
abbrev ws25 : List (Ref sig .tc) := wt25 ++ ws24
theorem W25_since1 (c : Dev nD) (r : Ref sig .tc) (h : r ∉ ws25) : W25 m ρ c (Proc.devRef .tc r) = W1 m ρ c (Proc.devRef .tc r) :=
  (W25_sinceB m ρ c r (fun e => h (List.mem_append.mpr (Or.inl e)))).trans (W24_since1 m ρ c r (fun e => h (List.mem_append.mpr (Or.inr e))))
theorem W25_arg (c : Dev nD) (r : Ref sig .tc) (h : r ∉ ws25) (h0 : r ∉ hostOps0_W) : W25 m ρ c (Proc.devRef .tc r) = m ((c : Thread nD τ).loc r) :=
  (W25_since1 m ρ c r h).trans (W1_launch m ρ c r h0)

abbrev wt26 : List (Ref sig .tc) := main_v143 :: wt25
theorem W26_sinceB (c : Dev nD) (r : Ref sig .tc) (h : r ∉ wt26) : W26 m ρ c (Proc.devRef .tc r) = W24 m ρ c (Proc.devRef .tc r) :=
  (W26_keep m ρ c r (fun e => h (List.mem_cons.mpr (Or.inl e)))).trans (W25_sinceB m ρ c r (fun e => h (List.mem_cons.mpr (Or.inr e))))
abbrev ws26 : List (Ref sig .tc) := wt26 ++ ws24
theorem W26_since1 (c : Dev nD) (r : Ref sig .tc) (h : r ∉ ws26) : W26 m ρ c (Proc.devRef .tc r) = W1 m ρ c (Proc.devRef .tc r) :=
  (W26_sinceB m ρ c r (fun e => h (List.mem_append.mpr (Or.inl e)))).trans (W24_since1 m ρ c r (fun e => h (List.mem_append.mpr (Or.inr e))))
theorem W26_arg (c : Dev nD) (r : Ref sig .tc) (h : r ∉ ws26) (h0 : r ∉ hostOps0_W) : W26 m ρ c (Proc.devRef .tc r) = m ((c : Thread nD τ).loc r) :=
  (W26_since1 m ρ c r h).trans (W1_launch m ρ c r h0)

abbrev wt27 : List (Ref sig .tc) := hostOps11_W ++ wt26
theorem W27_sinceB (c : Dev nD) (r : Ref sig .tc) (h : r ∉ wt27) : W27 m ρ c (Proc.devRef .tc r) = W24 m ρ c (Proc.devRef .tc r) :=
  (W27_keep m ρ c r (fun e => h (List.mem_append.mpr (Or.inl e)))).trans (W26_sinceB m ρ c r (fun e => h (List.mem_append.mpr (Or.inr e))))
abbrev ws27 : List (Ref sig .tc) := wt27 ++ ws24
theorem W27_since1 (c : Dev nD) (r : Ref sig .tc) (h : r ∉ ws27) : W27 m ρ c (Proc.devRef .tc r) = W1 m ρ c (Proc.devRef .tc r) :=
  (W27_sinceB m ρ c r (fun e => h (List.mem_append.mpr (Or.inl e)))).trans (W24_since1 m ρ c r (fun e => h (List.mem_append.mpr (Or.inr e))))
theorem W27_arg (c : Dev nD) (r : Ref sig .tc) (h : r ∉ ws27) (h0 : r ∉ hostOps0_W) : W27 m ρ c (Proc.devRef .tc r) = m ((c : Thread nD τ).loc r) :=
  (W27_since1 m ρ c r h).trans (W1_launch m ρ c r h0)

abbrev wt28 : List (Ref sig .tc) := main_v146 :: wt27
theorem W28_sinceB (c : Dev nD) (r : Ref sig .tc) (h : r ∉ wt28) : W28 m ρ c (Proc.devRef .tc r) = W24 m ρ c (Proc.devRef .tc r) :=
  (W28_keep m ρ c r (fun e => h (List.mem_cons.mpr (Or.inl e)))).trans (W27_sinceB m ρ c r (fun e => h (List.mem_cons.mpr (Or.inr e))))
abbrev ws28 : List (Ref sig .tc) := wt28 ++ ws24
theorem W28_since1 (c : Dev nD) (r : Ref sig .tc) (h : r ∉ ws28) : W28 m ρ c (Proc.devRef .tc r) = W1 m ρ c (Proc.devRef .tc r) :=
  (W28_sinceB m ρ c r (fun e => h (List.mem_append.mpr (Or.inl e)))).trans (W24_since1 m ρ c r (fun e => h (List.mem_append.mpr (Or.inr e))))
theorem W28_arg (c : Dev nD) (r : Ref sig .tc) (h : r ∉ ws28) (h0 : r ∉ hostOps0_W) : W28 m ρ c (Proc.devRef .tc r) = m ((c : Thread nD τ).loc r) :=
  (W28_since1 m ρ c r h).trans (W1_launch m ρ c r h0)

abbrev wt29 : List (Ref sig .tc) := hostOps12_W ++ wt28
theorem W29_sinceB (c : Dev nD) (r : Ref sig .tc) (h : r ∉ wt29) : W29 m ρ c (Proc.devRef .tc r) = W24 m ρ c (Proc.devRef .tc r) :=
  (W29_keep m ρ c r (fun e => h (List.mem_append.mpr (Or.inl e)))).trans (W28_sinceB m ρ c r (fun e => h (List.mem_append.mpr (Or.inr e))))
abbrev ws29 : List (Ref sig .tc) := wt29 ++ ws24
theorem W29_since1 (c : Dev nD) (r : Ref sig .tc) (h : r ∉ ws29) : W29 m ρ c (Proc.devRef .tc r) = W1 m ρ c (Proc.devRef .tc r) :=
  (W29_sinceB m ρ c r (fun e => h (List.mem_append.mpr (Or.inl e)))).trans (W24_since1 m ρ c r (fun e => h (List.mem_append.mpr (Or.inr e))))
theorem W29_arg (c : Dev nD) (r : Ref sig .tc) (h : r ∉ ws29) (h0 : r ∉ hostOps0_W) : W29 m ρ c (Proc.devRef .tc r) = m ((c : Thread nD τ).loc r) :=
  (W29_since1 m ρ c r h).trans (W1_launch m ρ c r h0)

abbrev wt30 : List (Ref sig .tc) := main_v149 :: wt29
theorem W30_sinceB (c : Dev nD) (r : Ref sig .tc) (h : r ∉ wt30) : W30 m ρ c (Proc.devRef .tc r) = W24 m ρ c (Proc.devRef .tc r) :=
  (W30_keep m ρ c r (fun e => h (List.mem_cons.mpr (Or.inl e)))).trans (W29_sinceB m ρ c r (fun e => h (List.mem_cons.mpr (Or.inr e))))
abbrev ws30 : List (Ref sig .tc) := wt30 ++ ws24
theorem W30_since1 (c : Dev nD) (r : Ref sig .tc) (h : r ∉ ws30) : W30 m ρ c (Proc.devRef .tc r) = W1 m ρ c (Proc.devRef .tc r) :=
  (W30_sinceB m ρ c r (fun e => h (List.mem_append.mpr (Or.inl e)))).trans (W24_since1 m ρ c r (fun e => h (List.mem_append.mpr (Or.inr e))))
theorem W30_arg (c : Dev nD) (r : Ref sig .tc) (h : r ∉ ws30) (h0 : r ∉ hostOps0_W) : W30 m ρ c (Proc.devRef .tc r) = m ((c : Thread nD τ).loc r) :=
  (W30_since1 m ρ c r h).trans (W1_launch m ρ c r h0)

abbrev wt31 : List (Ref sig .tc) := hostOps13_W ++ wt30
theorem W31_sinceB (c : Dev nD) (r : Ref sig .tc) (h : r ∉ wt31) : W31 m ρ c (Proc.devRef .tc r) = W24 m ρ c (Proc.devRef .tc r) :=
  (W31_keep m ρ c r (fun e => h (List.mem_append.mpr (Or.inl e)))).trans (W30_sinceB m ρ c r (fun e => h (List.mem_append.mpr (Or.inr e))))
abbrev ws31 : List (Ref sig .tc) := wt31 ++ ws24
theorem W31_since1 (c : Dev nD) (r : Ref sig .tc) (h : r ∉ ws31) : W31 m ρ c (Proc.devRef .tc r) = W1 m ρ c (Proc.devRef .tc r) :=
  (W31_sinceB m ρ c r (fun e => h (List.mem_append.mpr (Or.inl e)))).trans (W24_since1 m ρ c r (fun e => h (List.mem_append.mpr (Or.inr e))))
theorem W31_arg (c : Dev nD) (r : Ref sig .tc) (h : r ∉ ws31) (h0 : r ∉ hostOps0_W) : W31 m ρ c (Proc.devRef .tc r) = m ((c : Thread nD τ).loc r) :=
  (W31_since1 m ρ c r h).trans (W1_launch m ρ c r h0)

abbrev wt32 : List (Ref sig .tc) := main_v152 :: wt31
theorem W32_sinceB (c : Dev nD) (r : Ref sig .tc) (h : r ∉ wt32) : W32 m ρ c (Proc.devRef .tc r) = W24 m ρ c (Proc.devRef .tc r) :=
  (W32_keep m ρ c r (fun e => h (List.mem_cons.mpr (Or.inl e)))).trans (W31_sinceB m ρ c r (fun e => h (List.mem_cons.mpr (Or.inr e))))
abbrev ws32 : List (Ref sig .tc) := wt32 ++ ws24
theorem W32_since1 (c : Dev nD) (r : Ref sig .tc) (h : r ∉ ws32) : W32 m ρ c (Proc.devRef .tc r) = W1 m ρ c (Proc.devRef .tc r) :=
  (W32_sinceB m ρ c r (fun e => h (List.mem_append.mpr (Or.inl e)))).trans (W24_since1 m ρ c r (fun e => h (List.mem_append.mpr (Or.inr e))))
theorem W32_arg (c : Dev nD) (r : Ref sig .tc) (h : r ∉ ws32) (h0 : r ∉ hostOps0_W) : W32 m ρ c (Proc.devRef .tc r) = m ((c : Thread nD τ).loc r) :=
  (W32_since1 m ρ c r h).trans (W1_launch m ρ c r h0)

abbrev wt33 : List (Ref sig .tc) := hostOps14_W ++ wt32
theorem W33_sinceB (c : Dev nD) (r : Ref sig .tc) (h : r ∉ wt33) : W33 m ρ c (Proc.devRef .tc r) = W24 m ρ c (Proc.devRef .tc r) :=
  (W33_keep m ρ c r (fun e => h (List.mem_append.mpr (Or.inl e)))).trans (W32_sinceB m ρ c r (fun e => h (List.mem_append.mpr (Or.inr e))))
abbrev ws33 : List (Ref sig .tc) := wt33 ++ ws24
theorem W33_since1 (c : Dev nD) (r : Ref sig .tc) (h : r ∉ ws33) : W33 m ρ c (Proc.devRef .tc r) = W1 m ρ c (Proc.devRef .tc r) :=
  (W33_sinceB m ρ c r (fun e => h (List.mem_append.mpr (Or.inl e)))).trans (W24_since1 m ρ c r (fun e => h (List.mem_append.mpr (Or.inr e))))
theorem W33_arg (c : Dev nD) (r : Ref sig .tc) (h : r ∉ ws33) (h0 : r ∉ hostOps0_W) : W33 m ρ c (Proc.devRef .tc r) = m ((c : Thread nD τ).loc r) :=
  (W33_since1 m ρ c r h).trans (W1_launch m ρ c r h0)

abbrev wt34 : List (Ref sig .tc) := main_v155 :: wt33
theorem W34_sinceB (c : Dev nD) (r : Ref sig .tc) (h : r ∉ wt34) : W34 m ρ c (Proc.devRef .tc r) = W24 m ρ c (Proc.devRef .tc r) :=
  (W34_keep m ρ c r (fun e => h (List.mem_cons.mpr (Or.inl e)))).trans (W33_sinceB m ρ c r (fun e => h (List.mem_cons.mpr (Or.inr e))))
abbrev ws34 : List (Ref sig .tc) := wt34 ++ ws24
theorem W34_since1 (c : Dev nD) (r : Ref sig .tc) (h : r ∉ ws34) : W34 m ρ c (Proc.devRef .tc r) = W1 m ρ c (Proc.devRef .tc r) :=
  (W34_sinceB m ρ c r (fun e => h (List.mem_append.mpr (Or.inl e)))).trans (W24_since1 m ρ c r (fun e => h (List.mem_append.mpr (Or.inr e))))
theorem W34_arg (c : Dev nD) (r : Ref sig .tc) (h : r ∉ ws34) (h0 : r ∉ hostOps0_W) : W34 m ρ c (Proc.devRef .tc r) = m ((c : Thread nD τ).loc r) :=
  (W34_since1 m ρ c r h).trans (W1_launch m ρ c r h0)

abbrev wt35 : List (Ref sig .tc) := hostOps15_W ++ wt34
theorem W35_sinceB (c : Dev nD) (r : Ref sig .tc) (h : r ∉ wt35) : W35 m ρ c (Proc.devRef .tc r) = W24 m ρ c (Proc.devRef .tc r) :=
  (W35_keep m ρ c r (fun e => h (List.mem_append.mpr (Or.inl e)))).trans (W34_sinceB m ρ c r (fun e => h (List.mem_append.mpr (Or.inr e))))
abbrev ws35 : List (Ref sig .tc) := wt35 ++ ws24
theorem W35_since1 (c : Dev nD) (r : Ref sig .tc) (h : r ∉ ws35) : W35 m ρ c (Proc.devRef .tc r) = W1 m ρ c (Proc.devRef .tc r) :=
  (W35_sinceB m ρ c r (fun e => h (List.mem_append.mpr (Or.inl e)))).trans (W24_since1 m ρ c r (fun e => h (List.mem_append.mpr (Or.inr e))))
theorem W35_arg (c : Dev nD) (r : Ref sig .tc) (h : r ∉ ws35) (h0 : r ∉ hostOps0_W) : W35 m ρ c (Proc.devRef .tc r) = m ((c : Thread nD τ).loc r) :=
  (W35_since1 m ρ c r h).trans (W1_launch m ρ c r h0)

abbrev wt36 : List (Ref sig .tc) := hostOps15_1_W ++ wt35
theorem W36_sinceB (c : Dev nD) (r : Ref sig .tc) (h : r ∉ wt36) : W36 m ρ c (Proc.devRef .tc r) = W24 m ρ c (Proc.devRef .tc r) :=
  (W36_keep m ρ c r (fun e => h (List.mem_append.mpr (Or.inl e)))).trans (W35_sinceB m ρ c r (fun e => h (List.mem_append.mpr (Or.inr e))))
abbrev ws36 : List (Ref sig .tc) := wt36 ++ ws24
theorem W36_since1 (c : Dev nD) (r : Ref sig .tc) (h : r ∉ ws36) : W36 m ρ c (Proc.devRef .tc r) = W1 m ρ c (Proc.devRef .tc r) :=
  (W36_sinceB m ρ c r (fun e => h (List.mem_append.mpr (Or.inl e)))).trans (W24_since1 m ρ c r (fun e => h (List.mem_append.mpr (Or.inr e))))
theorem W36_arg (c : Dev nD) (r : Ref sig .tc) (h : r ∉ ws36) (h0 : r ∉ hostOps0_W) : W36 m ρ c (Proc.devRef .tc r) = m ((c : Thread nD τ).loc r) :=
  (W36_since1 m ρ c r h).trans (W1_launch m ρ c r h0)

abbrev wt37 : List (Ref sig .tc) := hostOps15_2_W ++ wt36
theorem W37_sinceB (c : Dev nD) (r : Ref sig .tc) (h : r ∉ wt37) : W37 m ρ c (Proc.devRef .tc r) = W24 m ρ c (Proc.devRef .tc r) :=
  (W37_keep m ρ c r (fun e => h (List.mem_append.mpr (Or.inl e)))).trans (W36_sinceB m ρ c r (fun e => h (List.mem_append.mpr (Or.inr e))))
abbrev ws37 : List (Ref sig .tc) := wt37 ++ ws24
theorem W37_since1 (c : Dev nD) (r : Ref sig .tc) (h : r ∉ ws37) : W37 m ρ c (Proc.devRef .tc r) = W1 m ρ c (Proc.devRef .tc r) :=
  (W37_sinceB m ρ c r (fun e => h (List.mem_append.mpr (Or.inl e)))).trans (W24_since1 m ρ c r (fun e => h (List.mem_append.mpr (Or.inr e))))
theorem W37_arg (c : Dev nD) (r : Ref sig .tc) (h : r ∉ ws37) (h0 : r ∉ hostOps0_W) : W37 m ρ c (Proc.devRef .tc r) = m ((c : Thread nD τ).loc r) :=
  (W37_since1 m ρ c r h).trans (W1_launch m ρ c r h0)

abbrev wt38 : List (Ref sig .tc) := hostOps15_3_W ++ wt37
theorem W38_sinceB (c : Dev nD) (r : Ref sig .tc) (h : r ∉ wt38) : W38 m ρ c (Proc.devRef .tc r) = W24 m ρ c (Proc.devRef .tc r) :=
  (W38_keep m ρ c r (fun e => h (List.mem_append.mpr (Or.inl e)))).trans (W37_sinceB m ρ c r (fun e => h (List.mem_append.mpr (Or.inr e))))
abbrev ws38 : List (Ref sig .tc) := wt38 ++ ws24
theorem W38_since1 (c : Dev nD) (r : Ref sig .tc) (h : r ∉ ws38) : W38 m ρ c (Proc.devRef .tc r) = W1 m ρ c (Proc.devRef .tc r) :=
  (W38_sinceB m ρ c r (fun e => h (List.mem_append.mpr (Or.inl e)))).trans (W24_since1 m ρ c r (fun e => h (List.mem_append.mpr (Or.inr e))))
theorem W38_arg (c : Dev nD) (r : Ref sig .tc) (h : r ∉ ws38) (h0 : r ∉ hostOps0_W) : W38 m ρ c (Proc.devRef .tc r) = m ((c : Thread nD τ).loc r) :=
  (W38_since1 m ρ c r h).trans (W1_launch m ρ c r h0)

abbrev wt39 : List (Ref sig .tc) := hostOps15_4_W ++ wt38
theorem W39_sinceB (c : Dev nD) (r : Ref sig .tc) (h : r ∉ wt39) : W39 m ρ c (Proc.devRef .tc r) = W24 m ρ c (Proc.devRef .tc r) :=
  (W39_keep m ρ c r (fun e => h (List.mem_append.mpr (Or.inl e)))).trans (W38_sinceB m ρ c r (fun e => h (List.mem_append.mpr (Or.inr e))))
abbrev ws39 : List (Ref sig .tc) := wt39 ++ ws24
theorem W39_since1 (c : Dev nD) (r : Ref sig .tc) (h : r ∉ ws39) : W39 m ρ c (Proc.devRef .tc r) = W1 m ρ c (Proc.devRef .tc r) :=
  (W39_sinceB m ρ c r (fun e => h (List.mem_append.mpr (Or.inl e)))).trans (W24_since1 m ρ c r (fun e => h (List.mem_append.mpr (Or.inr e))))
theorem W39_arg (c : Dev nD) (r : Ref sig .tc) (h : r ∉ ws39) (h0 : r ∉ hostOps0_W) : W39 m ρ c (Proc.devRef .tc r) = m ((c : Thread nD τ).loc r) :=
  (W39_since1 m ρ c r h).trans (W1_launch m ρ c r h0)

abbrev wt40 : List (Ref sig .tc) := main_v195 :: wt39
theorem W40_sinceB (c : Dev nD) (r : Ref sig .tc) (h : r ∉ wt40) : W40 m ρ c (Proc.devRef .tc r) = W24 m ρ c (Proc.devRef .tc r) :=
  (W40_keep m ρ c r (fun e => h (List.mem_cons.mpr (Or.inl e)))).trans (W39_sinceB m ρ c r (fun e => h (List.mem_cons.mpr (Or.inr e))))
abbrev ws40 : List (Ref sig .tc) := wt40 ++ ws24
theorem W40_since1 (c : Dev nD) (r : Ref sig .tc) (h : r ∉ ws40) : W40 m ρ c (Proc.devRef .tc r) = W1 m ρ c (Proc.devRef .tc r) :=
  (W40_sinceB m ρ c r (fun e => h (List.mem_append.mpr (Or.inl e)))).trans (W24_since1 m ρ c r (fun e => h (List.mem_append.mpr (Or.inr e))))
theorem W40_arg (c : Dev nD) (r : Ref sig .tc) (h : r ∉ ws40) (h0 : r ∉ hostOps0_W) : W40 m ρ c (Proc.devRef .tc r) = m ((c : Thread nD τ).loc r) :=
  (W40_since1 m ρ c r h).trans (W1_launch m ρ c r h0)

abbrev wt41 : List (Ref sig .tc) := hostOps16_W ++ wt40
theorem W41_sinceB (c : Dev nD) (r : Ref sig .tc) (h : r ∉ wt41) : W41 m ρ c (Proc.devRef .tc r) = W24 m ρ c (Proc.devRef .tc r) :=
  (W41_keep m ρ c r (fun e => h (List.mem_append.mpr (Or.inl e)))).trans (W40_sinceB m ρ c r (fun e => h (List.mem_append.mpr (Or.inr e))))
abbrev ws41 : List (Ref sig .tc) := wt41 ++ ws24
theorem W41_since1 (c : Dev nD) (r : Ref sig .tc) (h : r ∉ ws41) : W41 m ρ c (Proc.devRef .tc r) = W1 m ρ c (Proc.devRef .tc r) :=
  (W41_sinceB m ρ c r (fun e => h (List.mem_append.mpr (Or.inl e)))).trans (W24_since1 m ρ c r (fun e => h (List.mem_append.mpr (Or.inr e))))
theorem W41_arg (c : Dev nD) (r : Ref sig .tc) (h : r ∉ ws41) (h0 : r ∉ hostOps0_W) : W41 m ρ c (Proc.devRef .tc r) = m ((c : Thread nD τ).loc r) :=
  (W41_since1 m ρ c r h).trans (W1_launch m ρ c r h0)

abbrev wt42 : List (Ref sig .tc) := main_v200 :: wt41
theorem W42_sinceB (c : Dev nD) (r : Ref sig .tc) (h : r ∉ wt42) : W42 m ρ c (Proc.devRef .tc r) = W24 m ρ c (Proc.devRef .tc r) :=
  (W42_keep m ρ c r (fun e => h (List.mem_cons.mpr (Or.inl e)))).trans (W41_sinceB m ρ c r (fun e => h (List.mem_cons.mpr (Or.inr e))))
abbrev ws42 : List (Ref sig .tc) := wt42 ++ ws24
theorem W42_since1 (c : Dev nD) (r : Ref sig .tc) (h : r ∉ ws42) : W42 m ρ c (Proc.devRef .tc r) = W1 m ρ c (Proc.devRef .tc r) :=
  (W42_sinceB m ρ c r (fun e => h (List.mem_append.mpr (Or.inl e)))).trans (W24_since1 m ρ c r (fun e => h (List.mem_append.mpr (Or.inr e))))
theorem W42_arg (c : Dev nD) (r : Ref sig .tc) (h : r ∉ ws42) (h0 : r ∉ hostOps0_W) : W42 m ρ c (Proc.devRef .tc r) = m ((c : Thread nD τ).loc r) :=
  (W42_since1 m ρ c r h).trans (W1_launch m ρ c r h0)

abbrev wt43 : List (Ref sig .tc) := hostOps17_W ++ wt42
theorem W43_sinceB (c : Dev nD) (r : Ref sig .tc) (h : r ∉ wt43) : W43 m ρ c (Proc.devRef .tc r) = W24 m ρ c (Proc.devRef .tc r) :=
  (W43_keep m ρ c r (fun e => h (List.mem_append.mpr (Or.inl e)))).trans (W42_sinceB m ρ c r (fun e => h (List.mem_append.mpr (Or.inr e))))
abbrev ws43 : List (Ref sig .tc) := wt43 ++ ws24
theorem W43_since1 (c : Dev nD) (r : Ref sig .tc) (h : r ∉ ws43) : W43 m ρ c (Proc.devRef .tc r) = W1 m ρ c (Proc.devRef .tc r) :=
  (W43_sinceB m ρ c r (fun e => h (List.mem_append.mpr (Or.inl e)))).trans (W24_since1 m ρ c r (fun e => h (List.mem_append.mpr (Or.inr e))))
theorem W43_arg (c : Dev nD) (r : Ref sig .tc) (h : r ∉ ws43) (h0 : r ∉ hostOps0_W) : W43 m ρ c (Proc.devRef .tc r) = m ((c : Thread nD τ).loc r) :=
  (W43_since1 m ρ c r h).trans (W1_launch m ρ c r h0)

abbrev wt44 : List (Ref sig .tc) := main_v207 :: wt43
theorem W44_sinceB (c : Dev nD) (r : Ref sig .tc) (h : r ∉ wt44) : W44 m ρ c (Proc.devRef .tc r) = W24 m ρ c (Proc.devRef .tc r) :=
  (W44_keep m ρ c r (fun e => h (List.mem_cons.mpr (Or.inl e)))).trans (W43_sinceB m ρ c r (fun e => h (List.mem_cons.mpr (Or.inr e))))
abbrev ws44 : List (Ref sig .tc) := wt44 ++ ws24
theorem W44_since1 (c : Dev nD) (r : Ref sig .tc) (h : r ∉ ws44) : W44 m ρ c (Proc.devRef .tc r) = W1 m ρ c (Proc.devRef .tc r) :=
  (W44_sinceB m ρ c r (fun e => h (List.mem_append.mpr (Or.inl e)))).trans (W24_since1 m ρ c r (fun e => h (List.mem_append.mpr (Or.inr e))))
theorem W44_arg (c : Dev nD) (r : Ref sig .tc) (h : r ∉ ws44) (h0 : r ∉ hostOps0_W) : W44 m ρ c (Proc.devRef .tc r) = m ((c : Thread nD τ).loc r) :=
  (W44_since1 m ρ c r h).trans (W1_launch m ρ c r h0)

abbrev wt45 : List (Ref sig .tc) := hostOps18_W ++ wt44
theorem W45_sinceB (c : Dev nD) (r : Ref sig .tc) (h : r ∉ wt45) : W45 m ρ c (Proc.devRef .tc r) = W24 m ρ c (Proc.devRef .tc r) :=
  (W45_keep m ρ c r (fun e => h (List.mem_append.mpr (Or.inl e)))).trans (W44_sinceB m ρ c r (fun e => h (List.mem_append.mpr (Or.inr e))))
abbrev ws45 : List (Ref sig .tc) := wt45 ++ ws24
theorem W45_since1 (c : Dev nD) (r : Ref sig .tc) (h : r ∉ ws45) : W45 m ρ c (Proc.devRef .tc r) = W1 m ρ c (Proc.devRef .tc r) :=
  (W45_sinceB m ρ c r (fun e => h (List.mem_append.mpr (Or.inl e)))).trans (W24_since1 m ρ c r (fun e => h (List.mem_append.mpr (Or.inr e))))
theorem W45_arg (c : Dev nD) (r : Ref sig .tc) (h : r ∉ ws45) (h0 : r ∉ hostOps0_W) : W45 m ρ c (Proc.devRef .tc r) = m ((c : Thread nD τ).loc r) :=
  (W45_since1 m ρ c r h).trans (W1_launch m ρ c r h0)

abbrev wt46 : List (Ref sig .tc) := main_v213 :: wt45
theorem W46_sinceB (c : Dev nD) (r : Ref sig .tc) (h : r ∉ wt46) : W46 m ρ c (Proc.devRef .tc r) = W24 m ρ c (Proc.devRef .tc r) :=
  (W46_keep m ρ c r (fun e => h (List.mem_cons.mpr (Or.inl e)))).trans (W45_sinceB m ρ c r (fun e => h (List.mem_cons.mpr (Or.inr e))))
abbrev ws46 : List (Ref sig .tc) := wt46 ++ ws24
theorem W46_since1 (c : Dev nD) (r : Ref sig .tc) (h : r ∉ ws46) : W46 m ρ c (Proc.devRef .tc r) = W1 m ρ c (Proc.devRef .tc r) :=
  (W46_sinceB m ρ c r (fun e => h (List.mem_append.mpr (Or.inl e)))).trans (W24_since1 m ρ c r (fun e => h (List.mem_append.mpr (Or.inr e))))
theorem W46_arg (c : Dev nD) (r : Ref sig .tc) (h : r ∉ ws46) (h0 : r ∉ hostOps0_W) : W46 m ρ c (Proc.devRef .tc r) = m ((c : Thread nD τ).loc r) :=
  (W46_since1 m ρ c r h).trans (W1_launch m ρ c r h0)

abbrev wt47 : List (Ref sig .tc) := hostOps19_W ++ wt46
theorem W47_sinceB (c : Dev nD) (r : Ref sig .tc) (h : r ∉ wt47) : W47 m ρ c (Proc.devRef .tc r) = W24 m ρ c (Proc.devRef .tc r) :=
  (W47_keep m ρ c r (fun e => h (List.mem_append.mpr (Or.inl e)))).trans (W46_sinceB m ρ c r (fun e => h (List.mem_append.mpr (Or.inr e))))
abbrev ws47 : List (Ref sig .tc) := wt47 ++ ws24
theorem W47_since1 (c : Dev nD) (r : Ref sig .tc) (h : r ∉ ws47) : W47 m ρ c (Proc.devRef .tc r) = W1 m ρ c (Proc.devRef .tc r) :=
  (W47_sinceB m ρ c r (fun e => h (List.mem_append.mpr (Or.inl e)))).trans (W24_since1 m ρ c r (fun e => h (List.mem_append.mpr (Or.inr e))))
theorem W47_arg (c : Dev nD) (r : Ref sig .tc) (h : r ∉ ws47) (h0 : r ∉ hostOps0_W) : W47 m ρ c (Proc.devRef .tc r) = m ((c : Thread nD τ).loc r) :=
  (W47_since1 m ρ c r h).trans (W1_launch m ρ c r h0)

abbrev wt48 : List (Ref sig .tc) := main_v219 :: wt47
theorem W48_sinceB (c : Dev nD) (r : Ref sig .tc) (h : r ∉ wt48) : W48 m ρ c (Proc.devRef .tc r) = W24 m ρ c (Proc.devRef .tc r) :=
  (W48_keep m ρ c r (fun e => h (List.mem_cons.mpr (Or.inl e)))).trans (W47_sinceB m ρ c r (fun e => h (List.mem_cons.mpr (Or.inr e))))
abbrev ws48 : List (Ref sig .tc) := wt48 ++ ws24
theorem W48_since1 (c : Dev nD) (r : Ref sig .tc) (h : r ∉ ws48) : W48 m ρ c (Proc.devRef .tc r) = W1 m ρ c (Proc.devRef .tc r) :=
  (W48_sinceB m ρ c r (fun e => h (List.mem_append.mpr (Or.inl e)))).trans (W24_since1 m ρ c r (fun e => h (List.mem_append.mpr (Or.inr e))))
theorem W48_arg (c : Dev nD) (r : Ref sig .tc) (h : r ∉ ws48) (h0 : r ∉ hostOps0_W) : W48 m ρ c (Proc.devRef .tc r) = m ((c : Thread nD τ).loc r) :=
  (W48_since1 m ρ c r h).trans (W1_launch m ρ c r h0)

/-! ## The five products of layer 1

Each region multiplies a feature array by a weight slice; the weight slice is the same slice of the same argument in
both programs. -/

/-- The first up-weight of the node messages. -/
theorem W25_v142 (c : Dev nD) : W25 m ρ c (Proc.devRef .tc main_v142) = val_main_v163 (F := Ideal) (m ((c : Thread nD τ).loc main_arg19)) := by
  have e := after10_v142 (W24 m ρ c)
  rw [W24_arg m ρ c main_arg19 (by decide) (by decide)] at e
  exact e

/-- Region 10: the node features times the first up-weight. -/
theorem W26_v143 (c : Dev nD) (hn : W24 m ρ c (Proc.devRef .tc main_v128) = (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)))) : W26 m ρ c (Proc.devRef .tc main_v143) = mul ((val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20))) : Mat 32768 256) (val_main_v163 (F := Ideal) (m ((c : Thread nD τ).loc main_arg19)) : Mat 256 256) := by
  have e : W26 m ρ c (Proc.devRef .tc main_v143) = mul (W25 m ρ c (Proc.devRef .tc main_v128) : Mat 32768 256) (W25 m ρ c (Proc.devRef .tc main_v142) : Mat 256 256) :=
    (W26_arr m ρ c 2).trans (arrAt10 (V25 m ρ) c)
  rw [(W25_sinceB m ρ c main_v128 (by decide)).trans hn, W25_v142 m ρ c] at e
  exact e

/-- The second up-weight of the node messages. -/
theorem W27_v145 (c : Dev nD) : W27 m ρ c (Proc.devRef .tc main_v145) = val_main_v173 (F := Ideal) (m ((c : Thread nD τ).loc main_arg20)) := by
  have e := after11_v145 (W26 m ρ c)
  rw [W26_arg m ρ c main_arg20 (by decide) (by decide)] at e
  exact e

/-- Region 11: the edge features times the second up-weight. -/
theorem W28_v146 (c : Dev nD) (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W28 m ρ c (Proc.devRef .tc main_v146) = mul ((val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v173 (F := Ideal) (m ((c : Thread nD τ).loc main_arg20)) : Mat 256 256) := by
  have e : W28 m ρ c (Proc.devRef .tc main_v146) = mul (W27 m ρ c (Proc.devRef .tc main_v134) : Mat 65536 256) (W27 m ρ c (Proc.devRef .tc main_v145) : Mat 256 256) :=
    (W28_arr m ρ c 2).trans (arrAt11 (V27 m ρ) c)
  rw [(W27_sinceB m ρ c main_v134 (by decide)).trans he, W27_v145 m ρ c] at e
  exact e

/-- The first up-weight of the edge messages. -/
theorem W29_v148 (c : Dev nD) : W29 m ρ c (Proc.devRef .tc main_v148) = val_main_v188 (F := Ideal) (m ((c : Thread nD τ).loc main_arg19)) := by
  have e := after12_v148 (W28 m ρ c)
  rw [W28_arg m ρ c main_arg19 (by decide) (by decide)] at e
  exact e

/-- Region 12: the edge features times the first up-weight of the edge messages. -/
theorem W30_v149 (c : Dev nD) (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W30 m ρ c (Proc.devRef .tc main_v149) = mul ((val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v188 (F := Ideal) (m ((c : Thread nD τ).loc main_arg19)) : Mat 256 256) := by
  have e : W30 m ρ c (Proc.devRef .tc main_v149) = mul (W29 m ρ c (Proc.devRef .tc main_v134) : Mat 65536 256) (W29 m ρ c (Proc.devRef .tc main_v148) : Mat 256 256) :=
    (W30_arr m ρ c 2).trans (arrAt12 (V29 m ρ) c)
  rw [(W29_sinceB m ρ c main_v134 (by decide)).trans he, W29_v148 m ρ c] at e
  exact e

/-- The second up-weight of the edge messages. -/
theorem W31_v151 (c : Dev nD) : W31 m ρ c (Proc.devRef .tc main_v151) = val_main_v198 (F := Ideal) (m ((c : Thread nD τ).loc main_arg20)) := by
  have e := after13_v151 (W30 m ρ c)
  rw [W30_arg m ρ c main_arg20 (by decide) (by decide)] at e
  exact e

/-- Region 13: the cell features times the second up-weight of the edge messages. -/
theorem W32_v152 (c : Dev nD) (hc : W24 m ρ c (Proc.devRef .tc main_v140) = (val_main_v154 (F := Ideal) (m ((c : Thread nD τ).loc main_arg1)) (m ((c : Thread nD τ).loc main_arg2)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)))) : W32 m ρ c (Proc.devRef .tc main_v152) = mul ((val_main_v154 (F := Ideal) (m ((c : Thread nD τ).loc main_arg1)) (m ((c : Thread nD τ).loc main_arg2)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21))) : Mat 16384 256) (val_main_v198 (F := Ideal) (m ((c : Thread nD τ).loc main_arg20)) : Mat 256 256) := by
  have e : W32 m ρ c (Proc.devRef .tc main_v152) = mul (W31 m ρ c (Proc.devRef .tc main_v140) : Mat 16384 256) (W31 m ρ c (Proc.devRef .tc main_v151) : Mat 256 256) :=
    (W32_arr m ρ c 2).trans (arrAt13 (V31 m ρ) c)
  rw [(W31_sinceB m ρ c main_v140 (by decide)).trans hc, W31_v151 m ρ c] at e
  exact e

/-- The edge boundary weight. -/
theorem W33_v154 (c : Dev nD) : W33 m ρ c (Proc.devRef .tc main_v154) = val_main_v209 (F := Ideal) (m ((c : Thread nD τ).loc main_arg21)) := by
  have e := after14_v154 (W32 m ρ c)
  rw [W32_arg m ρ c main_arg21 (by decide) (by decide)] at e
  exact e

/-- Region 14: the node features times the edge boundary weight. -/
theorem W34_v155 (c : Dev nD) (hn : W24 m ρ c (Proc.devRef .tc main_v128) = (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)))) : W34 m ρ c (Proc.devRef .tc main_v155) = mul ((val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20))) : Mat 32768 256) (val_main_v209 (F := Ideal) (m ((c : Thread nD τ).loc main_arg21)) : Mat 256 256) := by
  have e : W34 m ρ c (Proc.devRef .tc main_v155) = mul (W33 m ρ c (Proc.devRef .tc main_v128) : Mat 32768 256) (W33 m ρ c (Proc.devRef .tc main_v154) : Mat 256 256) :=
    (W34_arr m ρ c 2).trans (arrAt14 (V33 m ρ) c)
  rw [(W33_sinceB m ρ c main_v128 (by decide)).trans hn, W33_v154 m ρ c] at e
  exact e

/-! ## The node messages and their sums

The kernel takes rows of the products; the reference multiplies the rows taken. -/

theorem W34_v143 (c : Dev nD) (hn : W24 m ρ c (Proc.devRef .tc main_v128) = (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)))) : W34 m ρ c (Proc.devRef .tc main_v143) = mul ((val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20))) : Mat 32768 256) (val_main_v163 (F := Ideal) (m ((c : Thread nD τ).loc main_arg19)) : Mat 256 256) :=
  (W34_keep m ρ c main_v143 (by decide)).trans <|
  (W33_keep m ρ c main_v143 (by decide)).trans <|
  (W32_keep m ρ c main_v143 (by decide)).trans <|
  (W31_keep m ρ c main_v143 (by decide)).trans <|
  (W30_keep m ρ c main_v143 (by decide)).trans <|
  (W29_keep m ρ c main_v143 (by decide)).trans <|
  (W28_keep m ρ c main_v143 (by decide)).trans <|
  (W27_keep m ρ c main_v143 (by decide)).trans <|
  W26_v143 m ρ c hn

theorem W34_v146 (c : Dev nD) (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W34 m ρ c (Proc.devRef .tc main_v146) = mul ((val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v173 (F := Ideal) (m ((c : Thread nD τ).loc main_arg20)) : Mat 256 256) :=
  (W34_keep m ρ c main_v146 (by decide)).trans <|
  (W33_keep m ρ c main_v146 (by decide)).trans <|
  (W32_keep m ρ c main_v146 (by decide)).trans <|
  (W31_keep m ρ c main_v146 (by decide)).trans <|
  (W30_keep m ρ c main_v146 (by decide)).trans <|
  (W29_keep m ρ c main_v146 (by decide)).trans <|
  W28_v146 m ρ c he

/-- The rectified node messages, in the kernel's order of operations. -/
theorem W36_v171 (c : Dev nD) (hn : W24 m ρ c (Proc.devRef .tc main_v128) = (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)))) (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W36 m ρ c (Proc.devRef .tc main_v171)
    = maximumf (addf (Host.gather gather_S32768x256_S131072x1_S131072x256_1_0_n_n_0_1_1256 (mul ((val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20))) : Mat 32768 256) (val_main_v163 (F := Ideal) (m ((c : Thread nD τ).loc main_arg19)) : Mat 256 256)) (val_main_v160 (F := Ideal) (m ((c : Thread nD τ).loc main_arg3)) (m ((c : Thread nD τ).loc main_arg5))))
        (Host.gather gather_S65536x256_S131072x1_S131072x256_1_0_n_n_0_1_1256 (mul ((val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v173 (F := Ideal) (m ((c : Thread nD τ).loc main_arg20)) : Mat 256 256)) (val_main_v170 (F := Ideal) (m ((c : Thread nD τ).loc main_arg3)) (m ((c : Thread nD τ).loc main_arg6))))) (broadcastInDim S131072x256 ![] bcast_S_S131072x256 (constant (F := Ideal) S_ .f32 0x00000000#32)) := by
  have e91 := after15_v170 (W34 m ρ c)
  rw [W34_v143 m ρ c hn, W34_v146 m ρ c he, (W34_since1 m ρ c main_v49 (by decide)).trans (W1_v49 m ρ c),
    (W34_since1 m ρ c main_v52 (by decide)).trans (W1_v52 m ρ c)] at e91
  have e92 := after15_1_v171 (W35 m ρ c)
  rw [show W35 m ρ c (Proc.devRef .tc main_v170) = _ from e91] at e92
  exact e92

/-- The node messages added up per receiving node: the reference's sum. -/
theorem W37_v174 (c : Dev nD) (hn : W24 m ρ c (Proc.devRef .tc main_v128) = (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)))) (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W37 m ρ c (Proc.devRef .tc main_v174) = val_main_v179 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)) := by
  have e := after15_2_v174 (W36 m ρ c)
  rw [(W36_since1 m ρ c main_v46 (by decide)).trans (W1_v46 m ρ c), W36_v171 m ρ c hn he] at e
  exact e.trans (Cert.Bridge.up_n_layer1 _ _ _ _ _ _ _ _ _ _ _ _ _ _ _ _ _ _ _)

/-! ## The edge messages and their sums -/

theorem W36_v149 (c : Dev nD) (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W36 m ρ c (Proc.devRef .tc main_v149) = mul ((val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v188 (F := Ideal) (m ((c : Thread nD τ).loc main_arg19)) : Mat 256 256) :=
  (W36_keep m ρ c main_v149 (by decide)).trans <|
  (W35_keep m ρ c main_v149 (by decide)).trans <|
  (W34_keep m ρ c main_v149 (by decide)).trans <|
  (W33_keep m ρ c main_v149 (by decide)).trans <|
  (W32_keep m ρ c main_v149 (by decide)).trans <|
  (W31_keep m ρ c main_v149 (by decide)).trans <|
  W30_v149 m ρ c he

theorem W36_v152 (c : Dev nD) (hc : W24 m ρ c (Proc.devRef .tc main_v140) = (val_main_v154 (F := Ideal) (m ((c : Thread nD τ).loc main_arg1)) (m ((c : Thread nD τ).loc main_arg2)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)))) : W36 m ρ c (Proc.devRef .tc main_v152) = mul ((val_main_v154 (F := Ideal) (m ((c : Thread nD τ).loc main_arg1)) (m ((c : Thread nD τ).loc main_arg2)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21))) : Mat 16384 256) (val_main_v198 (F := Ideal) (m ((c : Thread nD τ).loc main_arg20)) : Mat 256 256) :=
  (W36_keep m ρ c main_v152 (by decide)).trans <|
  (W35_keep m ρ c main_v152 (by decide)).trans <|
  (W34_keep m ρ c main_v152 (by decide)).trans <|
  (W33_keep m ρ c main_v152 (by decide)).trans <|
  W32_v152 m ρ c hc

/-- The rectified edge messages, in the kernel's order of operations. -/
theorem W38_v190 (c : Dev nD) (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) (hc : W24 m ρ c (Proc.devRef .tc main_v140) = (val_main_v154 (F := Ideal) (m ((c : Thread nD τ).loc main_arg1)) (m ((c : Thread nD τ).loc main_arg2)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)))) : W38 m ρ c (Proc.devRef .tc main_v190)
    = maximumf (addf (Host.gather gather_S65536x256_S98304x1_S98304x256_1_0_n_n_0_1_1256 (mul ((val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v188 (F := Ideal) (m ((c : Thread nD τ).loc main_arg19)) : Mat 256 256)) (val_main_v185 (F := Ideal) (m ((c : Thread nD τ).loc main_arg7)) (m ((c : Thread nD τ).loc main_arg9))))
        (Host.gather gather_S16384x256_S98304x1_S98304x256_1_0_n_n_0_1_1256 (mul ((val_main_v154 (F := Ideal) (m ((c : Thread nD τ).loc main_arg1)) (m ((c : Thread nD τ).loc main_arg2)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21))) : Mat 16384 256) (val_main_v198 (F := Ideal) (m ((c : Thread nD τ).loc main_arg20)) : Mat 256 256)) (val_main_v195 (F := Ideal) (m ((c : Thread nD τ).loc main_arg7)) (m ((c : Thread nD τ).loc main_arg10))))) (broadcastInDim S98304x256 ![] bcast_S_S98304x256 (constant (F := Ideal) S_ .f32 0x00000000#32)) := by
  have e110 := after15_2_v189 (W36 m ρ c)
  rw [W36_v149 m ρ c he, W36_v152 m ρ c hc, (W36_since1 m ρ c main_v58 (by decide)).trans (W1_v58 m ρ c),
    (W36_since1 m ρ c main_v61 (by decide)).trans (W1_v61 m ρ c)] at e110
  have e111 := after15_3_v190 (W37 m ρ c)
  rw [show W37 m ρ c (Proc.devRef .tc main_v189) = _ from e110] at e111
  exact e111

/-- The edge messages added up per receiving edge: the reference's sum. -/
theorem W39_v193 (c : Dev nD) (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) (hc : W24 m ρ c (Proc.devRef .tc main_v140) = (val_main_v154 (F := Ideal) (m ((c : Thread nD τ).loc main_arg1)) (m ((c : Thread nD τ).loc main_arg2)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)))) : W39 m ρ c (Proc.devRef .tc main_v193) = val_main_v204 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e := after15_4_v193 (W38 m ρ c)
  rw [(W38_since1 m ρ c main_v55 (by decide)).trans (W1_v55 m ρ c), W38_v190 m ρ c he hc] at e
  exact e.trans (Cert.Bridge.up_e_layer1 _ _ _ _ _ _ _ _ _ _ _ _ _ _ _ _ _ _)

/-! ## The edge boundary term

The kernel multiplies the incidence array with the node features already multiplied by the weight; the reference
multiplies by the weight last. With every entry real the two agree. -/

theorem W38_v155 (c : Dev nD) (hn : W24 m ρ c (Proc.devRef .tc main_v128) = (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)))) : W38 m ρ c (Proc.devRef .tc main_v155) = mul ((val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20))) : Mat 32768 256) (val_main_v209 (F := Ideal) (m ((c : Thread nD τ).loc main_arg21)) : Mat 256 256) :=
  (W38_keep m ρ c main_v155 (by decide)).trans <|
  (W37_keep m ρ c main_v155 (by decide)).trans <|
  (W36_keep m ρ c main_v155 (by decide)).trans <|
  (W35_keep m ρ c main_v155 (by decide)).trans <|
  W34_v155 m ρ c hn

theorem W39_v194 (c : Dev nD) (hn : W24 m ρ c (Proc.devRef .tc main_v128) = (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)))) : W39 m ρ c (Proc.devRef .tc main_v194)
    = shapeCast S256x128x256 (mul ((val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20))) : Mat 32768 256) (val_main_v209 (F := Ideal) (m ((c : Thread nD τ).loc main_arg21)) : Mat 256 256)) shapeCasts_S32768x256_S256x128x256 := by
  have e := after15_4_v194 (W38 m ρ c)
  rw [W38_v155 m ρ c hn] at e
  exact e

/-- Region 15: the batched product of the edge incidence array with the projected node features. -/
theorem W40_v195 (c : Dev nD) (hn : W24 m ρ c (Proc.devRef .tc main_v128) = (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)))) : W40 m ρ c (Proc.devRef .tc main_v195)
    = bmul (val_main_v21 (F := Ideal) (m ((c : Thread nD τ).loc main_arg11)) (m ((c : Thread nD τ).loc main_arg12)) (m ((c : Thread nD τ).loc main_arg13)) : Mat3 256 256 128)
        (shapeCast S256x128x256 (mul ((val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20))) : Mat 32768 256) (val_main_v209 (F := Ideal) (m ((c : Thread nD τ).loc main_arg21)) : Mat 256 256)) shapeCasts_S32768x256_S256x128x256 : Mat3 256 128 256) := by
  have e : W40 m ρ c (Proc.devRef .tc main_v195) = bmul (W39 m ρ c (Proc.devRef .tc main_v21) : Mat3 256 256 128) (W39 m ρ c (Proc.devRef .tc main_v194) : Mat3 256 128 256) :=
    (W40_arr m ρ c 2).trans (arrAt15 (V39 m ρ) c)
  rw [(W39_since1 m ρ c main_v21 (by decide)).trans (W1_v21 m ρ c), W39_v194 m ρ c hn] at e
  exact e

/-- The edge boundary term, flat: the reference's. -/
theorem W41_v196 (c : Dev nD) (hn : W24 m ρ c (Proc.devRef .tc main_v128) = (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)))) (hnf : Cert.Spec.Finite (s := ⟨2, ![32768, 256]⟩) (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)))) (h21 : Cert.Spec.Finite (s := ⟨4, ![4, 2, 256, 256]⟩) (m ((c : Thread nD τ).loc main_arg21))) :
    W41 m ρ c (Proc.devRef .tc main_v196) = val_main_v210 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)) := by
  have e := after16_v196 (W40 m ρ c)
  rw [W40_v195 m ρ c hn] at e
  exact e.trans (Cert.Bridge.bd_e_layer1 _ _ _ _ _ _ _ _ _ _ _ _ _ _ hnf h21)

/-! ## The cell boundary term -/

theorem W41_v197 (c : Dev nD) (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W41 m ρ c (Proc.devRef .tc main_v197) = val_main_v211 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)) := by
  have e := after16_v197 (W40 m ρ c)
  rw [(W40_sinceB m ρ c main_v134 (by decide)).trans he] at e
  exact e

theorem W41_v199 (c : Dev nD) : W41 m ρ c (Proc.devRef .tc main_v199) = val_main_v215 (F := Ideal) (m ((c : Thread nD τ).loc main_arg21)) := by
  have e := after16_v199 (W40 m ρ c)
  rw [W40_arg m ρ c main_arg21 (by decide) (by decide)] at e
  exact e

/-- Region 16: the batched product of the cell incidence array with the edge features, each batch then multiplied by the
    weight. -/
theorem W42_v200 (c : Dev nD) (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W42 m ρ c (Proc.devRef .tc main_v200)
    = Cert.Bridge.cellMsg (val_main_v43 (F := Ideal) (m ((c : Thread nD τ).loc main_arg14)) (m ((c : Thread nD τ).loc main_arg15)) (m ((c : Thread nD τ).loc main_arg16))) (val_main_v211 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))) (val_main_v215 (F := Ideal) (m ((c : Thread nD τ).loc main_arg21))) := by
  have e : W42 m ρ c (Proc.devRef .tc main_v200)
      = ((fun i => ∑ q : Fin 256, bmul (W41 m ρ c (Proc.devRef .tc main_v43) : Mat3 256 64 256) (W41 m ρ c (Proc.devRef .tc main_v197) : Mat3 256 256 256) (ix3 (i 0) (i 1) q)
          * (W41 m ρ c (Proc.devRef .tc main_v199) : Mat 256 256) (ix2 q (i 2))) : Mat3 256 64 256) :=
    (W42_arr m ρ c 3).trans (arrAt16 (V41 m ρ) c)
  rw [(W41_since1 m ρ c main_v43 (by decide)).trans (W1_v43 m ρ c), W41_v197 m ρ c he, W41_v199 m ρ c] at e
  exact e

/-- The cell boundary term, flat: the reference's. -/
theorem W43_v201 (c : Dev nD) (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W43 m ρ c (Proc.devRef .tc main_v201) = val_main_v216 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e := after17_v201 (W42 m ρ c)
  rw [W42_v200 m ρ c he] at e
  exact e.trans (Cert.Bridge.bd_c_layer1 _ _ _ _ _ _ _ _ _ _ _ _ _ _ _ _ _ _)

/-! ## The three updates

Each region adds, entry by entry, the product of the features with a self weight, a bias row, and the message sums,
and rectifies; the reference does the same with the bias broadcast over the rows. -/

theorem W43_v203 (c : Dev nD) : W43 m ρ c (Proc.devRef .tc main_v203) = val_main_v218 (F := Ideal) (m ((c : Thread nD τ).loc main_arg17)) := by
  have e := after17_v203 (W42 m ρ c)
  rw [W42_arg m ρ c main_arg17 (by decide) (by decide)] at e
  exact e

theorem W43_v206 (c : Dev nD) : W43 m ρ c (Proc.devRef .tc main_v206) = (shapeCast S1x256 (shapeCast S256 (extractStridedSlice S1x1x256 ![1, 0, 0] (m ((c : Thread nD τ).loc main_arg18)) slices_S4x3x256_S1x1x256_1_0_0) shapeCasts_S1x1x256_S256) shapeCasts_S256_S1x256 : Mat 1 256) := by
  have e := after17_v206 (W42 m ρ c)
  rw [W42_arg m ρ c main_arg18 (by decide) (by decide)] at e
  exact e

theorem W43_v174 (c : Dev nD) (hn : W24 m ρ c (Proc.devRef .tc main_v128) = (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)))) (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W43 m ρ c (Proc.devRef .tc main_v174) = val_main_v179 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)) :=
  (W43_keep m ρ c main_v174 (by decide)).trans <|
  (W42_keep m ρ c main_v174 (by decide)).trans <|
  (W41_keep m ρ c main_v174 (by decide)).trans <|
  (W40_keep m ρ c main_v174 (by decide)).trans <|
  (W39_keep m ρ c main_v174 (by decide)).trans <|
  (W38_keep m ρ c main_v174 (by decide)).trans <|
  W37_v174 m ρ c hn he

/-- Region 17: the new node features are the reference's. -/
theorem W44_v207 (c : Dev nD) (hn : W24 m ρ c (Proc.devRef .tc main_v128) = (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)))) (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W44 m ρ c (Proc.devRef .tc main_v207) = val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)) := by
  have e : W44 m ρ c (Proc.devRef .tc main_v207)
      = ((fun i => max (mul (W43 m ρ c (Proc.devRef .tc main_v128) : Mat 32768 256) (W43 m ρ c (Proc.devRef .tc main_v203) : Mat 256 256) i
          + (W43 m ρ c (Proc.devRef .tc main_v206) : Mat 1 256) (ix2 (0 : Fin 1) (i 1)) + (W43 m ρ c (Proc.devRef .tc main_v174) : Mat 32768 256) i) 0) : Mat 32768 256) :=
    (W44_arr m ρ c 4).trans (arrAt17 (V43 m ρ) c)
  rw [(W43_sinceB m ρ c main_v128 (by decide)).trans hn, W43_v203 m ρ c, W43_v206 m ρ c, W43_v174 m ρ c hn he] at e
  exact e.trans ((Cert.Bridge.self_n_layer1 _ _ _ _ _ _ _ _ _ _ _).trans rfl)

theorem W45_v209 (c : Dev nD) : W45 m ρ c (Proc.devRef .tc main_v209) = val_main_v228 (F := Ideal) (m ((c : Thread nD τ).loc main_arg17)) := by
  have e := after18_v209 (W44 m ρ c)
  rw [W44_arg m ρ c main_arg17 (by decide) (by decide)] at e
  exact e

theorem W45_v212 (c : Dev nD) : W45 m ρ c (Proc.devRef .tc main_v212) = (shapeCast S1x256 (shapeCast S256 (extractStridedSlice S1x1x256 ![1, 1, 0] (m ((c : Thread nD τ).loc main_arg18)) slices_S4x3x256_S1x1x256_1_1_0) shapeCasts_S1x1x256_S256) shapeCasts_S256_S1x256 : Mat 1 256) := by
  have e := after18_v212 (W44 m ρ c)
  rw [W44_arg m ρ c main_arg18 (by decide) (by decide)] at e
  exact e

theorem W45_v193 (c : Dev nD) (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) (hc : W24 m ρ c (Proc.devRef .tc main_v140) = (val_main_v154 (F := Ideal) (m ((c : Thread nD τ).loc main_arg1)) (m ((c : Thread nD τ).loc main_arg2)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)))) : W45 m ρ c (Proc.devRef .tc main_v193) = val_main_v204 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  (W45_keep m ρ c main_v193 (by decide)).trans <|
  (W44_keep m ρ c main_v193 (by decide)).trans <|
  (W43_keep m ρ c main_v193 (by decide)).trans <|
  (W42_keep m ρ c main_v193 (by decide)).trans <|
  (W41_keep m ρ c main_v193 (by decide)).trans <|
  (W40_keep m ρ c main_v193 (by decide)).trans <|
  W39_v193 m ρ c he hc

theorem W45_v196 (c : Dev nD) (hn : W24 m ρ c (Proc.devRef .tc main_v128) = (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)))) (hnf : Cert.Spec.Finite (s := ⟨2, ![32768, 256]⟩) (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)))) (h21 : Cert.Spec.Finite (s := ⟨4, ![4, 2, 256, 256]⟩) (m ((c : Thread nD τ).loc main_arg21))) :
    W45 m ρ c (Proc.devRef .tc main_v196) = val_main_v210 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)) :=
  (W45_keep m ρ c main_v196 (by decide)).trans <|
  (W44_keep m ρ c main_v196 (by decide)).trans <|
  (W43_keep m ρ c main_v196 (by decide)).trans <|
  (W42_keep m ρ c main_v196 (by decide)).trans <|
  W41_v196 m ρ c hn hnf h21

/-- Region 18: the new edge features are the reference's. -/
theorem W46_v213 (c : Dev nD) (hn : W24 m ρ c (Proc.devRef .tc main_v128) = (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)))) (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) (hc : W24 m ρ c (Proc.devRef .tc main_v140) = (val_main_v154 (F := Ideal) (m ((c : Thread nD τ).loc main_arg1)) (m ((c : Thread nD τ).loc main_arg2)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)))) (hnf : Cert.Spec.Finite (s := ⟨2, ![32768, 256]⟩) (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)))) (h21 : Cert.Spec.Finite (s := ⟨4, ![4, 2, 256, 256]⟩) (m ((c : Thread nD τ).loc main_arg21))) :
    W46 m ρ c (Proc.devRef .tc main_v213) = val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e : W46 m ρ c (Proc.devRef .tc main_v213)
      = ((fun i => max (mul (W45 m ρ c (Proc.devRef .tc main_v134) : Mat 65536 256) (W45 m ρ c (Proc.devRef .tc main_v209) : Mat 256 256) i
          + (W45 m ρ c (Proc.devRef .tc main_v212) : Mat 1 256) (ix2 (0 : Fin 1) (i 1)) + (W45 m ρ c (Proc.devRef .tc main_v193) : Mat 65536 256) i
          + (W45 m ρ c (Proc.devRef .tc main_v196) : Mat 65536 256) i) 0) : Mat 65536 256) :=
    (W46_arr m ρ c 5).trans (arrAt18 (V45 m ρ) c)
  rw [(W45_sinceB m ρ c main_v134 (by decide)).trans he, W45_v209 m ρ c, W45_v212 m ρ c, W45_v193 m ρ c he hc, W45_v196 m ρ c hn hnf h21] at e
  exact e.trans ((Cert.Bridge.self_e_layer1 _ _ _ _ _ _ _ _ _ _ _ _ _ _ _ _ _).trans rfl)

theorem W47_v215 (c : Dev nD) : W47 m ρ c (Proc.devRef .tc main_v215) = val_main_v239 (F := Ideal) (m ((c : Thread nD τ).loc main_arg17)) := by
  have e := after19_v215 (W46 m ρ c)
  rw [W46_arg m ρ c main_arg17 (by decide) (by decide)] at e
  exact e

theorem W47_v218 (c : Dev nD) : W47 m ρ c (Proc.devRef .tc main_v218) = (shapeCast S1x256 (shapeCast S256 (extractStridedSlice S1x1x256 ![1, 2, 0] (m ((c : Thread nD τ).loc main_arg18)) slices_S4x3x256_S1x1x256_1_2_0) shapeCasts_S1x1x256_S256) shapeCasts_S256_S1x256 : Mat 1 256) := by
  have e := after19_v218 (W46 m ρ c)
  rw [W46_arg m ρ c main_arg18 (by decide) (by decide)] at e
  exact e

theorem W47_v201 (c : Dev nD) (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W47 m ρ c (Proc.devRef .tc main_v201) = val_main_v216 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  (W47_keep m ρ c main_v201 (by decide)).trans <|
  (W46_keep m ρ c main_v201 (by decide)).trans <|
  (W45_keep m ρ c main_v201 (by decide)).trans <|
  (W44_keep m ρ c main_v201 (by decide)).trans <|
  W43_v201 m ρ c he

/-- Region 19: the new cell features are the reference's. -/
theorem W48_v219 (c : Dev nD) (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) (hc : W24 m ρ c (Proc.devRef .tc main_v140) = (val_main_v154 (F := Ideal) (m ((c : Thread nD τ).loc main_arg1)) (m ((c : Thread nD τ).loc main_arg2)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)))) : W48 m ρ c (Proc.devRef .tc main_v219) = val_main_v247 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e : W48 m ρ c (Proc.devRef .tc main_v219)
      = ((fun i => max (mul (W47 m ρ c (Proc.devRef .tc main_v140) : Mat 16384 256) (W47 m ρ c (Proc.devRef .tc main_v215) : Mat 256 256) i
          + (W47 m ρ c (Proc.devRef .tc main_v218) : Mat 1 256) (ix2 (0 : Fin 1) (i 1)) + (W47 m ρ c (Proc.devRef .tc main_v201) : Mat 16384 256) i) 0) : Mat 16384 256) :=
    (W48_arr m ρ c 4).trans (arrAt19 (V47 m ρ) c)
  rw [(W47_sinceB m ρ c main_v140 (by decide)).trans hc, W47_v215 m ρ c, W47_v218 m ρ c, W47_v201 m ρ c he] at e
  exact e.trans ((Cert.Bridge.self_c_layer1 _ _ _ _ _ _ _ _ _).trans rfl)

/-! ## Layer 1 -/

/-- LAYER 1: at boundary 48 the three feature arrays the kernel program has written are the reference's new node, edge
    and cell features of layer 1, as functions of the arguments, given that at boundary 24 the three feature arrays
    are the reference's of the layer before. The node features the layer starts from and the edge boundary weight stack are
    taken real: the edge boundary term is re-associated. -/
theorem layer1 (c : Dev nD)
    (hnf : Cert.Spec.Finite (s := ⟨2, ![32768, 256]⟩) (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20))))
    (h21 : Cert.Spec.Finite (s := ⟨4, ![4, 2, 256, 256]⟩) (m ((c : Thread nD τ).loc main_arg21)))
    (hn : W24 m ρ c (Proc.devRef .tc main_v128) = (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20))))
    (he : W24 m ρ c (Proc.devRef .tc main_v134) = (val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))))
    (hc : W24 m ρ c (Proc.devRef .tc main_v140) = (val_main_v154 (F := Ideal) (m ((c : Thread nD τ).loc main_arg1)) (m ((c : Thread nD τ).loc main_arg2)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)))) :
    W48 m ρ c (Proc.devRef .tc main_v207) = val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))
    ∧ W48 m ρ c (Proc.devRef .tc main_v213) = val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))
    ∧ W48 m ρ c (Proc.devRef .tc main_v219) = val_main_v247 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  refine ⟨?_, ?_, W48_v219 m ρ c he hc⟩
  · exact
      (W48_keep m ρ c main_v207 (by decide)).trans <|
      (W47_keep m ρ c main_v207 (by decide)).trans <|
      (W46_keep m ρ c main_v207 (by decide)).trans <|
      (W45_keep m ρ c main_v207 (by decide)).trans <|
      W44_v207 m ρ c hn he
  · exact
      (W48_keep m ρ c main_v213 (by decide)).trans <|
      (W47_keep m ρ c main_v213 (by decide)).trans <|
      W46_v213 m ρ c hn he hc hnf h21

end Cert.KernelIdeal.Val

end
-- ==== Proof.KI.Layer2Host.lean ====
/- What each stretch of host operations of layer 2 leaves in the buffers the layer goes on to use, as a term of the
   buffers it finds: the weight and bias slices, the gathered and rectified messages, their sums per receiver, and the
   reshapes between flat and batched layouts. Each statement is over an arbitrary contents `W` at the stretch's entry. -/
import proofs.«101828_j11562051961417_2_alg».proof.Proof.Gen.KernelIdeal.Launch
import Idealize.ShloMosaic.Lib.StableHlo.Run

set_option maxRecDepth 16384

noncomputable section

namespace Cert.KernelIdeal.Val

open Cert.KernelIdeal.Gen
open Idealize.ShloMosaic Idealize.ShloMosaic.TcCoe

variable {F : FTy → Type} [FloatOps F]
variable (W : Valuation τ sig (Elt F))

/-! ## The stretch before region 20: the first weight -/

set_option maxHeartbeats 4000000 in
/-- The weight of the node messages' sender term: layer 2, slot 0 of the first up-weight stack. -/
theorem after20_v221 : StableHlo.after hostOps20 W (Proc.devRef .tc main_v221)
    = shapeCast S256x256 (extractStridedSlice S1x1x256x256 ![2, 0, 0, 0] (W (Proc.devRef .tc main_arg19) : (⟨S4x2x256x256, .f32⟩ : BufTy).Contents (Elt F)) slices_S4x2x256x256_S1x1x256x256_2_0_0_0) shapeCasts_S1x1x256x256_S256x256 := by
  after_results_simp <;> rfl

/-! ## The weight slices between the products -/

/-- Layer 2, slot 0 of the second up-weight stack. -/
theorem after21_v224 : StableHlo.after hostOps21 W (Proc.devRef .tc main_v224)
    = shapeCast S256x256 (extractStridedSlice S1x1x256x256 ![2, 0, 0, 0] (W (Proc.devRef .tc main_arg20) : (⟨S4x2x256x256, .f32⟩ : BufTy).Contents (Elt F)) slices_S4x2x256x256_S1x1x256x256_2_0_0_0) shapeCasts_S1x1x256x256_S256x256 := by
  after_results <;> rfl

/-- Layer 2, slot 1 of the first up-weight stack. -/
theorem after22_v227 : StableHlo.after hostOps22 W (Proc.devRef .tc main_v227)
    = shapeCast S256x256 (extractStridedSlice S1x1x256x256 ![2, 1, 0, 0] (W (Proc.devRef .tc main_arg19) : (⟨S4x2x256x256, .f32⟩ : BufTy).Contents (Elt F)) slices_S4x2x256x256_S1x1x256x256_2_1_0_0) shapeCasts_S1x1x256x256_S256x256 := by
  after_results <;> rfl

/-- Layer 2, slot 1 of the second up-weight stack. -/
theorem after23_v230 : StableHlo.after hostOps23 W (Proc.devRef .tc main_v230)
    = shapeCast S256x256 (extractStridedSlice S1x1x256x256 ![2, 1, 0, 0] (W (Proc.devRef .tc main_arg20) : (⟨S4x2x256x256, .f32⟩ : BufTy).Contents (Elt F)) slices_S4x2x256x256_S1x1x256x256_2_1_0_0) shapeCasts_S1x1x256x256_S256x256 := by
  after_results <;> rfl

/-- Layer 2, slot 0 of the boundary weight stack. -/
theorem after24_v233 : StableHlo.after hostOps24 W (Proc.devRef .tc main_v233)
    = shapeCast S256x256 (extractStridedSlice S1x1x256x256 ![2, 0, 0, 0] (W (Proc.devRef .tc main_arg21) : (⟨S4x2x256x256, .f32⟩ : BufTy).Contents (Elt F)) slices_S4x2x256x256_S1x1x256x256_2_0_0_0) shapeCasts_S1x1x256x256_S256x256 := by
  after_results <;> rfl

/-! ## The messages -/

set_option maxHeartbeats 4000000 in
/-- The node messages before the rectifier: the sender rows of the first product plus the edge rows of the second. -/
theorem after25_v249 : StableHlo.after hostOps25 W (Proc.devRef .tc main_v249)
    = addf (Host.gather gather_S32768x256_S131072x1_S131072x256_1_0_n_n_0_1_1256 (W (Proc.devRef .tc main_v222) : (⟨S32768x256, .f32⟩ : BufTy).Contents (Elt F)) (broadcastInDim S131072x1 ![0] bcast_S131072_S131072x1_0 (select (cmpi .slt (W (Proc.devRef .tc main_v49) : (⟨S131072, .i32⟩ : BufTy).Contents (Elt F)) (broadcastInDim S131072 ![] bcast_S_S131072 (constantI S_ 32 0#32))) (addi (W (Proc.devRef .tc main_v49) : (⟨S131072, .i32⟩ : BufTy).Contents (Elt F)) (broadcastInDim S131072 ![] bcast_S_S131072 (constantI S_ 32 32768#32))) (W (Proc.devRef .tc main_v49) : (⟨S131072, .i32⟩ : BufTy).Contents (Elt F)))))
      (Host.gather gather_S65536x256_S131072x1_S131072x256_1_0_n_n_0_1_1256 (W (Proc.devRef .tc main_v225) : (⟨S65536x256, .f32⟩ : BufTy).Contents (Elt F)) (broadcastInDim S131072x1 ![0] bcast_S131072_S131072x1_0 (select (cmpi .slt (W (Proc.devRef .tc main_v52) : (⟨S131072, .i32⟩ : BufTy).Contents (Elt F)) (broadcastInDim S131072 ![] bcast_S_S131072 (constantI S_ 32 0#32))) (addi (W (Proc.devRef .tc main_v52) : (⟨S131072, .i32⟩ : BufTy).Contents (Elt F)) (broadcastInDim S131072 ![] bcast_S_S131072 (constantI S_ 32 65536#32))) (W (Proc.devRef .tc main_v52) : (⟨S131072, .i32⟩ : BufTy).Contents (Elt F))))) := by
  after_results_simp <;> rfl

/-- The rectifier of the node messages. -/
theorem after25_1_v250 : StableHlo.after hostOps25_1 W (Proc.devRef .tc main_v250)
    = maximumf (W (Proc.devRef .tc main_v249) : (⟨S131072x256, .f32⟩ : BufTy).Contents (Elt F)) (broadcastInDim S131072x256 ![] bcast_S_S131072x256 (constant (F := F) S_ .f32 0x00000000#32)) := by
  after_results <;> (try simp only [StableHlo.TRef.ofBuf, StableHlo.TRef.toBuf, cast_eq]) <;> rfl

set_option maxHeartbeats 4000000 in
/-- The node messages added up per receiving node. -/
theorem after25_2_v253 : StableHlo.after hostOps25_2 W (Proc.devRef .tc main_v253)
    = Host.scatterAdd scatter_S32768x256_S131072x1_S131072x256_1_0_0_1 (broadcastInDim S32768x256 ![] bcast_S_S32768x256 (constant (F := F) S_ .f32 0x00000000#32)) (broadcastInDim S131072x1 ![0] bcast_S131072_S131072x1_0 (W (Proc.devRef .tc main_v46) : (⟨S131072, .i32⟩ : BufTy).Contents (Elt F))) (W (Proc.devRef .tc main_v250) : (⟨S131072x256, .f32⟩ : BufTy).Contents (Elt F)) := by
  after_results_simp <;> rfl

set_option maxHeartbeats 4000000 in
/-- The edge messages before the rectifier: the sender rows of the third product plus the cell rows of the fourth. -/
theorem after25_2_v268 : StableHlo.after hostOps25_2 W (Proc.devRef .tc main_v268)
    = addf (Host.gather gather_S65536x256_S98304x1_S98304x256_1_0_n_n_0_1_1256 (W (Proc.devRef .tc main_v228) : (⟨S65536x256, .f32⟩ : BufTy).Contents (Elt F)) (broadcastInDim S98304x1 ![0] bcast_S98304_S98304x1_0 (select (cmpi .slt (W (Proc.devRef .tc main_v58) : (⟨S98304, .i32⟩ : BufTy).Contents (Elt F)) (broadcastInDim S98304 ![] bcast_S_S98304 (constantI S_ 32 0#32))) (addi (W (Proc.devRef .tc main_v58) : (⟨S98304, .i32⟩ : BufTy).Contents (Elt F)) (broadcastInDim S98304 ![] bcast_S_S98304 (constantI S_ 32 65536#32))) (W (Proc.devRef .tc main_v58) : (⟨S98304, .i32⟩ : BufTy).Contents (Elt F)))))
      (Host.gather gather_S16384x256_S98304x1_S98304x256_1_0_n_n_0_1_1256 (W (Proc.devRef .tc main_v231) : (⟨S16384x256, .f32⟩ : BufTy).Contents (Elt F)) (broadcastInDim S98304x1 ![0] bcast_S98304_S98304x1_0 (select (cmpi .slt (W (Proc.devRef .tc main_v61) : (⟨S98304, .i32⟩ : BufTy).Contents (Elt F)) (broadcastInDim S98304 ![] bcast_S_S98304 (constantI S_ 32 0#32))) (addi (W (Proc.devRef .tc main_v61) : (⟨S98304, .i32⟩ : BufTy).Contents (Elt F)) (broadcastInDim S98304 ![] bcast_S_S98304 (constantI S_ 32 16384#32))) (W (Proc.devRef .tc main_v61) : (⟨S98304, .i32⟩ : BufTy).Contents (Elt F))))) := by
  after_results_simp <;> rfl

/-- The rectifier of the edge messages. -/
theorem after25_3_v269 : StableHlo.after hostOps25_3 W (Proc.devRef .tc main_v269)
    = maximumf (W (Proc.devRef .tc main_v268) : (⟨S98304x256, .f32⟩ : BufTy).Contents (Elt F)) (broadcastInDim S98304x256 ![] bcast_S_S98304x256 (constant (F := F) S_ .f32 0x00000000#32)) := by
  after_results <;> (try simp only [StableHlo.TRef.ofBuf, StableHlo.TRef.toBuf, cast_eq]) <;> rfl

/-- The edge messages added up per receiving edge. -/
theorem after25_4_v272 : StableHlo.after hostOps25_4 W (Proc.devRef .tc main_v272)
    = Host.scatterAdd scatter_S65536x256_S98304x1_S98304x256_1_0_0_1 (broadcastInDim S65536x256 ![] bcast_S_S65536x256 (constant (F := F) S_ .f32 0x00000000#32)) (broadcastInDim S98304x1 ![0] bcast_S98304_S98304x1_0 (W (Proc.devRef .tc main_v55) : (⟨S98304, .i32⟩ : BufTy).Contents (Elt F))) (W (Proc.devRef .tc main_v269) : (⟨S98304x256, .f32⟩ : BufTy).Contents (Elt F)) := by
  after_results <;> rfl

/-- The fifth product cut into 256 batches of 128 rows. -/
theorem after25_4_v273 : StableHlo.after hostOps25_4 W (Proc.devRef .tc main_v273)
    = shapeCast S256x128x256 (W (Proc.devRef .tc main_v234) : (⟨S32768x256, .f32⟩ : BufTy).Contents (Elt F)) shapeCasts_S32768x256_S256x128x256 := by
  after_results <;> rfl

/-! ## Around the two boundary regions -/

/-- The edge boundary term laid flat: 256 batches of 256 rows as 65536 rows. -/
theorem after26_v275 : StableHlo.after hostOps26 W (Proc.devRef .tc main_v275)
    = shapeCast S65536x256 (W (Proc.devRef .tc main_v274) : (⟨S256x256x256, .f32⟩ : BufTy).Contents (Elt F)) shapeCasts_S256x256x256_S65536x256 := by
  after_results <;> rfl

/-- The edge features cut into 256 batches of 256 rows. -/
theorem after26_v276 : StableHlo.after hostOps26 W (Proc.devRef .tc main_v276)
    = shapeCast S256x256x256 (W (Proc.devRef .tc main_v213) : (⟨S65536x256, .f32⟩ : BufTy).Contents (Elt F)) shapeCasts_S65536x256_S256x256x256 := by
  after_results <;> rfl

/-- Layer 2, slot 1 of the boundary weight stack. -/
theorem after26_v278 : StableHlo.after hostOps26 W (Proc.devRef .tc main_v278)
    = shapeCast S256x256 (extractStridedSlice S1x1x256x256 ![2, 1, 0, 0] (W (Proc.devRef .tc main_arg21) : (⟨S4x2x256x256, .f32⟩ : BufTy).Contents (Elt F)) slices_S4x2x256x256_S1x1x256x256_2_1_0_0) shapeCasts_S1x1x256x256_S256x256 := by
  after_results <;> rfl

/-- The cell boundary term laid flat: 256 batches of 64 rows as 16384 rows. -/
theorem after27_v280 : StableHlo.after hostOps27 W (Proc.devRef .tc main_v280)
    = shapeCast S16384x256 (W (Proc.devRef .tc main_v279) : (⟨S256x64x256, .f32⟩ : BufTy).Contents (Elt F)) shapeCasts_S256x64x256_S16384x256 := by
  after_results <;> rfl

/-! ## The weights and biases of the three updates -/

/-- Layer 2, slot 0 of the self weight stack. -/
theorem after27_v282 : StableHlo.after hostOps27 W (Proc.devRef .tc main_v282)
    = shapeCast S256x256 (extractStridedSlice S1x1x256x256 ![2, 0, 0, 0] (W (Proc.devRef .tc main_arg17) : (⟨S4x3x256x256, .f32⟩ : BufTy).Contents (Elt F)) slices_S4x3x256x256_S1x1x256x256_2_0_0_0) shapeCasts_S1x1x256x256_S256x256 := by
  after_results <;> rfl

/-- Layer 2, slot 0 of the bias stack, as one row. -/
theorem after27_v285 : StableHlo.after hostOps27 W (Proc.devRef .tc main_v285)
    = shapeCast S1x256 (shapeCast S256 (extractStridedSlice S1x1x256 ![2, 0, 0] (W (Proc.devRef .tc main_arg18) : (⟨S4x3x256, .f32⟩ : BufTy).Contents (Elt F)) slices_S4x3x256_S1x1x256_2_0_0) shapeCasts_S1x1x256_S256) shapeCasts_S256_S1x256 := by
  after_results <;> rfl

/-- Layer 2, slot 1 of the self weight stack. -/
theorem after28_v288 : StableHlo.after hostOps28 W (Proc.devRef .tc main_v288)
    = shapeCast S256x256 (extractStridedSlice S1x1x256x256 ![2, 1, 0, 0] (W (Proc.devRef .tc main_arg17) : (⟨S4x3x256x256, .f32⟩ : BufTy).Contents (Elt F)) slices_S4x3x256x256_S1x1x256x256_2_1_0_0) shapeCasts_S1x1x256x256_S256x256 := by
  after_results <;> rfl

/-- Layer 2, slot 1 of the bias stack, as one row. -/
theorem after28_v291 : StableHlo.after hostOps28 W (Proc.devRef .tc main_v291)
    = shapeCast S1x256 (shapeCast S256 (extractStridedSlice S1x1x256 ![2, 1, 0] (W (Proc.devRef .tc main_arg18) : (⟨S4x3x256, .f32⟩ : BufTy).Contents (Elt F)) slices_S4x3x256_S1x1x256_2_1_0) shapeCasts_S1x1x256_S256) shapeCasts_S256_S1x256 := by
  after_results <;> rfl

/-- Layer 2, slot 2 of the self weight stack. -/
theorem after29_v294 : StableHlo.after hostOps29 W (Proc.devRef .tc main_v294)
    = shapeCast S256x256 (extractStridedSlice S1x1x256x256 ![2, 2, 0, 0] (W (Proc.devRef .tc main_arg17) : (⟨S4x3x256x256, .f32⟩ : BufTy).Contents (Elt F)) slices_S4x3x256x256_S1x1x256x256_2_2_0_0) shapeCasts_S1x1x256x256_S256x256 := by
  after_results <;> rfl

/-- Layer 2, slot 2 of the bias stack, as one row. -/
theorem after29_v297 : StableHlo.after hostOps29 W (Proc.devRef .tc main_v297)
    = shapeCast S1x256 (shapeCast S256 (extractStridedSlice S1x1x256 ![2, 2, 0] (W (Proc.devRef .tc main_arg18) : (⟨S4x3x256, .f32⟩ : BufTy).Contents (Elt F)) slices_S4x3x256_S1x1x256_2_2_0) shapeCasts_S1x1x256_S256) shapeCasts_S256_S1x256 := by
  after_results <;> rfl

end Cert.KernelIdeal.Val

end
-- ==== Proof.KI.ValProj20.lean ====
/- Region 20 computes a matrix product, block of rows by block of rows.

   The region's first input array X has 32768 rows and 256 columns, its second input array W is 256 by 256, and its
   output array Y has the shape of X. The grid has 16 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 16 blocks cover Y, and after the region Y holds X · W. -/
import proofs.«101828_j11562051961417_2_alg».proof.Proof.KI.Region20
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs20_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs20_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs20_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs20_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay20_apply (x0 : FVec Ideal S2048x256 .f32) (x1 : FVec Ideal S256x256 .f32) (p : Fin 2048) (q : Fin 256) :
    k20_pay1 (F := Ideal) x0 x1 (ix2 p q) = ∑ k : Fin 256, x0 (ix2 p k) * x1 (ix2 k q) := by
  unfold k20_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs20_0 _ _
    | ⟨1, _⟩ => exact (lhs20_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs20_0 _ _).trans hk
    | ⟨1, _⟩ => exact rhs20_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz20 : (![0, 0] : Fin 2 → Nat) = fun _ => 0 := funext fun a => by fin_cases a <;> rfl

/-- The first input array as the region finds it: X, 32768 rows of 256 entries. -/
abbrev xarr20 (c : Dev nD) : Cert.Spec.Mat 32768 256 := V c (Pipeline.arrRef spec20 0)
/-- The second input array as the region finds it: W, 256 by 256. -/
abbrev warr20 (c : Dev nD) : Cert.Spec.Mat 256 256 := V c (Pipeline.arrRef spec20 1)

/-- Which block each window holds at grid point t: the blocks of X and of Y are block-row t (block column 0), the block of
    W is always the whole of W. Decided once over the 16 points. -/
theorem idx_facts20 : ∀ t : Fin cfg20.N, win20_0.index t (0 : Fin 2) = t.val
    ∧ win20_0.index t (1 : Fin 2) = 0
    ∧ win20_1.index t (0 : Fin 2) = 0
    ∧ win20_1.index t (1 : Fin 2) = 0
    ∧ win20_2.index t (0 : Fin 2) = t.val
    ∧ win20_2.index t (1 : Fin 2) = 0 :=
  (by decide +kernel : ∀ t : Fin grid20.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed20_eq (c : Dev nD) (t : Fin cfg20.N) :
    (dat20 (F := Ideal) V c).flushed 2 t = ((cfg20.win 2).blk t).view.read (Elt Ideal) (Cert.Spec.mul (xarr20 V c) (warr20 V c)) := by
  show (cfg20.win 2).cut (grid20.coords t) ((dat20 (F := Ideal) V c).after 2 t) = _
  rw [after20_2]
  unfold out20
  rw [View.canon_unit_zero hz20]
  simp only [View.ld_unit_zero (S := S2048x256) hz20, View.ld_unit_zero (S := S256x256) hz20]
  obtain ⟨e00, e01, e10, e11, e20, e21⟩ := idx_facts20 t
  funext j
  obtain ⟨p, q, rfl⟩ : ∃ (p : Fin 2048) (q : Fin 256), j = ix2 p q := ⟨j 0, j 1, eq_ix2 j⟩
  show k20_pay1 (F := Ideal) (iblk20 V c 0 t) (iblk20 V c 1 t) (ix2 p q) = Cert.Spec.mul (xarr20 V c) (warr20 V c) (((cfg20.win 2).blk t).view.emb (ix2 p q))
  refine (pay20_apply (iblk20 V c 0 t) (iblk20 V c 1 t) p q).trans ?_
  unfold Cert.Spec.mul
  refine Finset.sum_congr rfl fun k _ => ?_
  show xarr20 V c (((cfg20.win 0).blk t).view.emb (ix2 p k)) * warr20 V c (((cfg20.win 1).blk t).view.emb (ix2 k q))
    = xarr20 V c (ix2 ((((cfg20.win 2).blk t).view.emb (ix2 p q)) 0) k) * warr20 V c (ix2 k ((((cfg20.win 2).blk t).view.emb (ix2 p q)) 1))
  have h0 : ((cfg20.win 0).blk t).view.emb (ix2 p k) = ix2 ((((cfg20.win 2).blk t).view.emb (ix2 p q)) 0) k := by
    funext a; apply Fin.ext
    match a with
    | ⟨0, _⟩ => show win20_0.index t (0 : Fin 2) * 2048 + 1 * p.val = win20_2.index t (0 : Fin 2) * 2048 + 1 * p.val; omega
    | ⟨1, _⟩ => show win20_0.index t (1 : Fin 2) * 256 + 1 * k.val = k.val; omega
  have h1 : ((cfg20.win 1).blk t).view.emb (ix2 k q) = ix2 k ((((cfg20.win 2).blk t).view.emb (ix2 p q)) 1) := by
    funext a; apply Fin.ext
    match a with
    | ⟨0, _⟩ => show win20_1.index t (0 : Fin 2) * 256 + 1 * k.val = k.val; omega
    | ⟨1, _⟩ => show win20_1.index t (1 : Fin 2) * 256 + 1 * q.val = win20_2.index t (1 : Fin 2) * 256 + 1 * q.val; omega
  exact congrArg₂ (fun a b : EReal => a * b) (congrArg (xarr20 V c) h0) (congrArg (warr20 V c) h1)

/-- An entry of Y is in point t's block iff, on each axis, its coordinate lies in the block's range
    [index × size, index × size + size). -/
theorem mem_blk20 (t : Fin cfg20.N) (i : S32768x256.Idx) :
    i ∈ ((cfg20.win 2).blk t).view.set ↔ ∀ a : Fin 2, win20_2.index t a * S2048x256.size a ≤ (i a).val ∧ (i a).val < win20_2.index t a * S2048x256.size a + S2048x256.size a := by
  show i ∈ ((View.whole main_v222).slice (win20_2.rect t)).set ↔ _
  rw [View.set_slice_whole, Rect.mem_set_unit]
  exact Iff.rfl

/-- The blocks cover Y: row r lies in the block of point r / 2048 (r < 32768, so r / 2048 < 16), and every block spans
    all 256 columns. -/
theorem covered20 (i : S32768x256.Idx) : ∃ t : Fin cfg20.N, (cfg20.win 2).flush t = true ∧ i ∈ ((cfg20.win 2).blk t).view.set := by
  have hi0 : (i 0).val < 32768 := (i 0).isLt
  have hi1 : (i 1).val < 256 := (i 1).isLt
  have hN : cfg20.N = 16 := N_20
  have ht : (i 0).val / 2048 < cfg20.N := by rw [hN]; omega
  obtain ⟨-, -, -, -, e20, e21⟩ := idx_facts20 ⟨(i 0).val / 2048, ht⟩
  refine ⟨⟨(i 0).val / 2048, ht⟩, flush20_2 _, ?_⟩
  rw [mem_blk20]
  intro a
  match a with
  | ⟨0, _⟩ =>
    show win20_2.index ⟨(i 0).val / 2048, ht⟩ (0 : Fin 2) * 2048 ≤ (i 0).val ∧ (i 0).val < win20_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win20_2.index ⟨(i 0).val / 2048, ht⟩ (1 : Fin 2) * 256 ≤ (i 1).val ∧ (i 1).val < win20_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt20 (c : Dev nD) :
    (dat20 (F := Ideal) V c).arrAt 2 cfg20.N
      = Cert.Spec.mul (V c (Pipeline.arrRef spec20 0) : Cert.Spec.Mat 32768 256) (V c (Pipeline.arrRef spec20 1) : Cert.Spec.Mat 256 256) :=
  (dat20 (F := Ideal) V c).arrAt_eq_of_cover 2 (Cert.Spec.mul (xarr20 V c) (warr20 V c)) (fun t _ => flushed20_eq V c t) covered20

end Cert.KernelIdeal.Val

end
-- ==== Proof.KI.ValProj21.lean ====
/- Region 21 computes a matrix product, block of rows by block of rows.

   The region's first input array X has 65536 rows and 256 columns, its second input array W is 256 by 256, and its
   output array Y has the shape of X. The grid has 32 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 32 blocks cover Y, and after the region Y holds X · W. -/
import proofs.«101828_j11562051961417_2_alg».proof.Proof.KI.Region21
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs21_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs21_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs21_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs21_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay21_apply (x0 : FVec Ideal S2048x256 .f32) (x1 : FVec Ideal S256x256 .f32) (p : Fin 2048) (q : Fin 256) :
    k21_pay1 (F := Ideal) x0 x1 (ix2 p q) = ∑ k : Fin 256, x0 (ix2 p k) * x1 (ix2 k q) := by
  unfold k21_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs21_0 _ _
    | ⟨1, _⟩ => exact (lhs21_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs21_0 _ _).trans hk
    | ⟨1, _⟩ => exact rhs21_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz21 : (![0, 0] : Fin 2 → Nat) = fun _ => 0 := funext fun a => by fin_cases a <;> rfl

/-- The first input array as the region finds it: X, 65536 rows of 256 entries. -/
abbrev xarr21 (c : Dev nD) : Cert.Spec.Mat 65536 256 := V c (Pipeline.arrRef spec21 0)
/-- The second input array as the region finds it: W, 256 by 256. -/
abbrev warr21 (c : Dev nD) : Cert.Spec.Mat 256 256 := V c (Pipeline.arrRef spec21 1)

/-- Which block each window holds at grid point t: the blocks of X and of Y are block-row t (block column 0), the block of
    W is always the whole of W. Decided once over the 32 points. -/
theorem idx_facts21 : ∀ t : Fin cfg21.N, win21_0.index t (0 : Fin 2) = t.val
    ∧ win21_0.index t (1 : Fin 2) = 0
    ∧ win21_1.index t (0 : Fin 2) = 0
    ∧ win21_1.index t (1 : Fin 2) = 0
    ∧ win21_2.index t (0 : Fin 2) = t.val
    ∧ win21_2.index t (1 : Fin 2) = 0 :=
  (by decide +kernel : ∀ t : Fin grid21.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed21_eq (c : Dev nD) (t : Fin cfg21.N) :
    (dat21 (F := Ideal) V c).flushed 2 t = ((cfg21.win 2).blk t).view.read (Elt Ideal) (Cert.Spec.mul (xarr21 V c) (warr21 V c)) := by
  show (cfg21.win 2).cut (grid21.coords t) ((dat21 (F := Ideal) V c).after 2 t) = _
  rw [after21_2]
  unfold out21
  rw [View.canon_unit_zero hz21]
  simp only [View.ld_unit_zero (S := S2048x256) hz21, View.ld_unit_zero (S := S256x256) hz21]
  obtain ⟨e00, e01, e10, e11, e20, e21⟩ := idx_facts21 t
  funext j
  obtain ⟨p, q, rfl⟩ : ∃ (p : Fin 2048) (q : Fin 256), j = ix2 p q := ⟨j 0, j 1, eq_ix2 j⟩
  show k21_pay1 (F := Ideal) (iblk21 V c 0 t) (iblk21 V c 1 t) (ix2 p q) = Cert.Spec.mul (xarr21 V c) (warr21 V c) (((cfg21.win 2).blk t).view.emb (ix2 p q))
  refine (pay21_apply (iblk21 V c 0 t) (iblk21 V c 1 t) p q).trans ?_
  unfold Cert.Spec.mul
  refine Finset.sum_congr rfl fun k _ => ?_
  show xarr21 V c (((cfg21.win 0).blk t).view.emb (ix2 p k)) * warr21 V c (((cfg21.win 1).blk t).view.emb (ix2 k q))
    = xarr21 V c (ix2 ((((cfg21.win 2).blk t).view.emb (ix2 p q)) 0) k) * warr21 V c (ix2 k ((((cfg21.win 2).blk t).view.emb (ix2 p q)) 1))
  have h0 : ((cfg21.win 0).blk t).view.emb (ix2 p k) = ix2 ((((cfg21.win 2).blk t).view.emb (ix2 p q)) 0) k := by
    funext a; apply Fin.ext
    match a with
    | ⟨0, _⟩ => show win21_0.index t (0 : Fin 2) * 2048 + 1 * p.val = win21_2.index t (0 : Fin 2) * 2048 + 1 * p.val; omega
    | ⟨1, _⟩ => show win21_0.index t (1 : Fin 2) * 256 + 1 * k.val = k.val; omega
  have h1 : ((cfg21.win 1).blk t).view.emb (ix2 k q) = ix2 k ((((cfg21.win 2).blk t).view.emb (ix2 p q)) 1) := by
    funext a; apply Fin.ext
    match a with
    | ⟨0, _⟩ => show win21_1.index t (0 : Fin 2) * 256 + 1 * k.val = k.val; omega
    | ⟨1, _⟩ => show win21_1.index t (1 : Fin 2) * 256 + 1 * q.val = win21_2.index t (1 : Fin 2) * 256 + 1 * q.val; omega
  exact congrArg₂ (fun a b : EReal => a * b) (congrArg (xarr21 V c) h0) (congrArg (warr21 V c) h1)

/-- An entry of Y is in point t's block iff, on each axis, its coordinate lies in the block's range
    [index × size, index × size + size). -/
theorem mem_blk21 (t : Fin cfg21.N) (i : S65536x256.Idx) :
    i ∈ ((cfg21.win 2).blk t).view.set ↔ ∀ a : Fin 2, win21_2.index t a * S2048x256.size a ≤ (i a).val ∧ (i a).val < win21_2.index t a * S2048x256.size a + S2048x256.size a := by
  show i ∈ ((View.whole main_v225).slice (win21_2.rect t)).set ↔ _
  rw [View.set_slice_whole, Rect.mem_set_unit]
  exact Iff.rfl

/-- The blocks cover Y: row r lies in the block of point r / 2048 (r < 65536, so r / 2048 < 32), and every block spans
    all 256 columns. -/
theorem covered21 (i : S65536x256.Idx) : ∃ t : Fin cfg21.N, (cfg21.win 2).flush t = true ∧ i ∈ ((cfg21.win 2).blk t).view.set := by
  have hi0 : (i 0).val < 65536 := (i 0).isLt
  have hi1 : (i 1).val < 256 := (i 1).isLt
  have hN : cfg21.N = 32 := N_21
  have ht : (i 0).val / 2048 < cfg21.N := by rw [hN]; omega
  obtain ⟨-, -, -, -, e20, e21⟩ := idx_facts21 ⟨(i 0).val / 2048, ht⟩
  refine ⟨⟨(i 0).val / 2048, ht⟩, flush21_2 _, ?_⟩
  rw [mem_blk21]
  intro a
  match a with
  | ⟨0, _⟩ =>
    show win21_2.index ⟨(i 0).val / 2048, ht⟩ (0 : Fin 2) * 2048 ≤ (i 0).val ∧ (i 0).val < win21_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win21_2.index ⟨(i 0).val / 2048, ht⟩ (1 : Fin 2) * 256 ≤ (i 1).val ∧ (i 1).val < win21_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt21 (c : Dev nD) :
    (dat21 (F := Ideal) V c).arrAt 2 cfg21.N
      = Cert.Spec.mul (V c (Pipeline.arrRef spec21 0) : Cert.Spec.Mat 65536 256) (V c (Pipeline.arrRef spec21 1) : Cert.Spec.Mat 256 256) :=
  (dat21 (F := Ideal) V c).arrAt_eq_of_cover 2 (Cert.Spec.mul (xarr21 V c) (warr21 V c)) (fun t _ => flushed21_eq V c t) covered21

end Cert.KernelIdeal.Val

end
-- ==== Proof.KI.ValProj22.lean ====
/- Region 22 computes a matrix product, block of rows by block of rows.

   The region's first input array X has 65536 rows and 256 columns, its second input array W is 256 by 256, and its
   output array Y has the shape of X. The grid has 32 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 32 blocks cover Y, and after the region Y holds X · W. -/
import proofs.«101828_j11562051961417_2_alg».proof.Proof.KI.Region22
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs22_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs22_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs22_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs22_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay22_apply (x0 : FVec Ideal S2048x256 .f32) (x1 : FVec Ideal S256x256 .f32) (p : Fin 2048) (q : Fin 256) :
    k22_pay1 (F := Ideal) x0 x1 (ix2 p q) = ∑ k : Fin 256, x0 (ix2 p k) * x1 (ix2 k q) := by
  unfold k22_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs22_0 _ _
    | ⟨1, _⟩ => exact (lhs22_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs22_0 _ _).trans hk
    | ⟨1, _⟩ => exact rhs22_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz22 : (![0, 0] : Fin 2 → Nat) = fun _ => 0 := funext fun a => by fin_cases a <;> rfl

/-- The first input array as the region finds it: X, 65536 rows of 256 entries. -/
abbrev xarr22 (c : Dev nD) : Cert.Spec.Mat 65536 256 := V c (Pipeline.arrRef spec22 0)
/-- The second input array as the region finds it: W, 256 by 256. -/
abbrev warr22 (c : Dev nD) : Cert.Spec.Mat 256 256 := V c (Pipeline.arrRef spec22 1)

/-- Which block each window holds at grid point t: the blocks of X and of Y are block-row t (block column 0), the block of
    W is always the whole of W. Decided once over the 32 points. -/
theorem idx_facts22 : ∀ t : Fin cfg22.N, win22_0.index t (0 : Fin 2) = t.val
    ∧ win22_0.index t (1 : Fin 2) = 0
    ∧ win22_1.index t (0 : Fin 2) = 0
    ∧ win22_1.index t (1 : Fin 2) = 0
    ∧ win22_2.index t (0 : Fin 2) = t.val
    ∧ win22_2.index t (1 : Fin 2) = 0 :=
  (by decide +kernel : ∀ t : Fin grid22.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed22_eq (c : Dev nD) (t : Fin cfg22.N) :
    (dat22 (F := Ideal) V c).flushed 2 t = ((cfg22.win 2).blk t).view.read (Elt Ideal) (Cert.Spec.mul (xarr22 V c) (warr22 V c)) := by
  show (cfg22.win 2).cut (grid22.coords t) ((dat22 (F := Ideal) V c).after 2 t) = _
  rw [after22_2]
  unfold out22
  rw [View.canon_unit_zero hz22]
  simp only [View.ld_unit_zero (S := S2048x256) hz22, View.ld_unit_zero (S := S256x256) hz22]
  obtain ⟨e00, e01, e10, e11, e20, e21⟩ := idx_facts22 t
  funext j
  obtain ⟨p, q, rfl⟩ : ∃ (p : Fin 2048) (q : Fin 256), j = ix2 p q := ⟨j 0, j 1, eq_ix2 j⟩
  show k22_pay1 (F := Ideal) (iblk22 V c 0 t) (iblk22 V c 1 t) (ix2 p q) = Cert.Spec.mul (xarr22 V c) (warr22 V c) (((cfg22.win 2).blk t).view.emb (ix2 p q))
  refine (pay22_apply (iblk22 V c 0 t) (iblk22 V c 1 t) p q).trans ?_
  unfold Cert.Spec.mul
  refine Finset.sum_congr rfl fun k _ => ?_
  show xarr22 V c (((cfg22.win 0).blk t).view.emb (ix2 p k)) * warr22 V c (((cfg22.win 1).blk t).view.emb (ix2 k q))
    = xarr22 V c (ix2 ((((cfg22.win 2).blk t).view.emb (ix2 p q)) 0) k) * warr22 V c (ix2 k ((((cfg22.win 2).blk t).view.emb (ix2 p q)) 1))
  have h0 : ((cfg22.win 0).blk t).view.emb (ix2 p k) = ix2 ((((cfg22.win 2).blk t).view.emb (ix2 p q)) 0) k := by
    funext a; apply Fin.ext
    match a with
    | ⟨0, _⟩ => show win22_0.index t (0 : Fin 2) * 2048 + 1 * p.val = win22_2.index t (0 : Fin 2) * 2048 + 1 * p.val; omega
    | ⟨1, _⟩ => show win22_0.index t (1 : Fin 2) * 256 + 1 * k.val = k.val; omega
  have h1 : ((cfg22.win 1).blk t).view.emb (ix2 k q) = ix2 k ((((cfg22.win 2).blk t).view.emb (ix2 p q)) 1) := by
    funext a; apply Fin.ext
    match a with
    | ⟨0, _⟩ => show win22_1.index t (0 : Fin 2) * 256 + 1 * k.val = k.val; omega
    | ⟨1, _⟩ => show win22_1.index t (1 : Fin 2) * 256 + 1 * q.val = win22_2.index t (1 : Fin 2) * 256 + 1 * q.val; omega
  exact congrArg₂ (fun a b : EReal => a * b) (congrArg (xarr22 V c) h0) (congrArg (warr22 V c) h1)

/-- An entry of Y is in point t's block iff, on each axis, its coordinate lies in the block's range
    [index × size, index × size + size). -/
theorem mem_blk22 (t : Fin cfg22.N) (i : S65536x256.Idx) :
    i ∈ ((cfg22.win 2).blk t).view.set ↔ ∀ a : Fin 2, win22_2.index t a * S2048x256.size a ≤ (i a).val ∧ (i a).val < win22_2.index t a * S2048x256.size a + S2048x256.size a := by
  show i ∈ ((View.whole main_v228).slice (win22_2.rect t)).set ↔ _
  rw [View.set_slice_whole, Rect.mem_set_unit]
  exact Iff.rfl

/-- The blocks cover Y: row r lies in the block of point r / 2048 (r < 65536, so r / 2048 < 32), and every block spans
    all 256 columns. -/
theorem covered22 (i : S65536x256.Idx) : ∃ t : Fin cfg22.N, (cfg22.win 2).flush t = true ∧ i ∈ ((cfg22.win 2).blk t).view.set := by
  have hi0 : (i 0).val < 65536 := (i 0).isLt
  have hi1 : (i 1).val < 256 := (i 1).isLt
  have hN : cfg22.N = 32 := N_22
  have ht : (i 0).val / 2048 < cfg22.N := by rw [hN]; omega
  obtain ⟨-, -, -, -, e20, e21⟩ := idx_facts22 ⟨(i 0).val / 2048, ht⟩
  refine ⟨⟨(i 0).val / 2048, ht⟩, flush22_2 _, ?_⟩
  rw [mem_blk22]
  intro a
  match a with
  | ⟨0, _⟩ =>
    show win22_2.index ⟨(i 0).val / 2048, ht⟩ (0 : Fin 2) * 2048 ≤ (i 0).val ∧ (i 0).val < win22_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win22_2.index ⟨(i 0).val / 2048, ht⟩ (1 : Fin 2) * 256 ≤ (i 1).val ∧ (i 1).val < win22_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt22 (c : Dev nD) :
    (dat22 (F := Ideal) V c).arrAt 2 cfg22.N
      = Cert.Spec.mul (V c (Pipeline.arrRef spec22 0) : Cert.Spec.Mat 65536 256) (V c (Pipeline.arrRef spec22 1) : Cert.Spec.Mat 256 256) :=
  (dat22 (F := Ideal) V c).arrAt_eq_of_cover 2 (Cert.Spec.mul (xarr22 V c) (warr22 V c)) (fun t _ => flushed22_eq V c t) covered22

end Cert.KernelIdeal.Val

end
-- ==== Proof.KI.ValProj23.lean ====
/- Region 23 computes a matrix product, block of rows by block of rows.

   The region's first input array X has 16384 rows and 256 columns, its second input array W is 256 by 256, and its
   output array Y has the shape of X. The grid has 8 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 8 blocks cover Y, and after the region Y holds X · W. -/
import proofs.«101828_j11562051961417_2_alg».proof.Proof.KI.Region23
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs23_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs23_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs23_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs23_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay23_apply (x0 : FVec Ideal S2048x256 .f32) (x1 : FVec Ideal S256x256 .f32) (p : Fin 2048) (q : Fin 256) :
    k23_pay1 (F := Ideal) x0 x1 (ix2 p q) = ∑ k : Fin 256, x0 (ix2 p k) * x1 (ix2 k q) := by
  unfold k23_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs23_0 _ _
    | ⟨1, _⟩ => exact (lhs23_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs23_0 _ _).trans hk
    | ⟨1, _⟩ => exact rhs23_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz23 : (![0, 0] : Fin 2 → Nat) = fun _ => 0 := funext fun a => by fin_cases a <;> rfl

/-- The first input array as the region finds it: X, 16384 rows of 256 entries. -/
abbrev xarr23 (c : Dev nD) : Cert.Spec.Mat 16384 256 := V c (Pipeline.arrRef spec23 0)
/-- The second input array as the region finds it: W, 256 by 256. -/
abbrev warr23 (c : Dev nD) : Cert.Spec.Mat 256 256 := V c (Pipeline.arrRef spec23 1)

/-- Which block each window holds at grid point t: the blocks of X and of Y are block-row t (block column 0), the block of
    W is always the whole of W. Decided once over the 8 points. -/
theorem idx_facts23 : ∀ t : Fin cfg23.N, win23_0.index t (0 : Fin 2) = t.val
    ∧ win23_0.index t (1 : Fin 2) = 0
    ∧ win23_1.index t (0 : Fin 2) = 0
    ∧ win23_1.index t (1 : Fin 2) = 0
    ∧ win23_2.index t (0 : Fin 2) = t.val
    ∧ win23_2.index t (1 : Fin 2) = 0 :=
  (by decide +kernel : ∀ t : Fin grid23.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed23_eq (c : Dev nD) (t : Fin cfg23.N) :
    (dat23 (F := Ideal) V c).flushed 2 t = ((cfg23.win 2).blk t).view.read (Elt Ideal) (Cert.Spec.mul (xarr23 V c) (warr23 V c)) := by
  show (cfg23.win 2).cut (grid23.coords t) ((dat23 (F := Ideal) V c).after 2 t) = _
  rw [after23_2]
  unfold out23
  rw [View.canon_unit_zero hz23]
  simp only [View.ld_unit_zero (S := S2048x256) hz23, View.ld_unit_zero (S := S256x256) hz23]
  obtain ⟨e00, e01, e10, e11, e20, e21⟩ := idx_facts23 t
  funext j
  obtain ⟨p, q, rfl⟩ : ∃ (p : Fin 2048) (q : Fin 256), j = ix2 p q := ⟨j 0, j 1, eq_ix2 j⟩
  show k23_pay1 (F := Ideal) (iblk23 V c 0 t) (iblk23 V c 1 t) (ix2 p q) = Cert.Spec.mul (xarr23 V c) (warr23 V c) (((cfg23.win 2).blk t).view.emb (ix2 p q))
  refine (pay23_apply (iblk23 V c 0 t) (iblk23 V c 1 t) p q).trans ?_
  unfold Cert.Spec.mul
  refine Finset.sum_congr rfl fun k _ => ?_
  show xarr23 V c (((cfg23.win 0).blk t).view.emb (ix2 p k)) * warr23 V c (((cfg23.win 1).blk t).view.emb (ix2 k q))
    = xarr23 V c (ix2 ((((cfg23.win 2).blk t).view.emb (ix2 p q)) 0) k) * warr23 V c (ix2 k ((((cfg23.win 2).blk t).view.emb (ix2 p q)) 1))
  have h0 : ((cfg23.win 0).blk t).view.emb (ix2 p k) = ix2 ((((cfg23.win 2).blk t).view.emb (ix2 p q)) 0) k := by
    funext a; apply Fin.ext
    match a with
    | ⟨0, _⟩ => show win23_0.index t (0 : Fin 2) * 2048 + 1 * p.val = win23_2.index t (0 : Fin 2) * 2048 + 1 * p.val; omega
    | ⟨1, _⟩ => show win23_0.index t (1 : Fin 2) * 256 + 1 * k.val = k.val; omega
  have h1 : ((cfg23.win 1).blk t).view.emb (ix2 k q) = ix2 k ((((cfg23.win 2).blk t).view.emb (ix2 p q)) 1) := by
    funext a; apply Fin.ext
    match a with
    | ⟨0, _⟩ => show win23_1.index t (0 : Fin 2) * 256 + 1 * k.val = k.val; omega
    | ⟨1, _⟩ => show win23_1.index t (1 : Fin 2) * 256 + 1 * q.val = win23_2.index t (1 : Fin 2) * 256 + 1 * q.val; omega
  exact congrArg₂ (fun a b : EReal => a * b) (congrArg (xarr23 V c) h0) (congrArg (warr23 V c) h1)

/-- An entry of Y is in point t's block iff, on each axis, its coordinate lies in the block's range
    [index × size, index × size + size). -/
theorem mem_blk23 (t : Fin cfg23.N) (i : S16384x256.Idx) :
    i ∈ ((cfg23.win 2).blk t).view.set ↔ ∀ a : Fin 2, win23_2.index t a * S2048x256.size a ≤ (i a).val ∧ (i a).val < win23_2.index t a * S2048x256.size a + S2048x256.size a := by
  show i ∈ ((View.whole main_v231).slice (win23_2.rect t)).set ↔ _
  rw [View.set_slice_whole, Rect.mem_set_unit]
  exact Iff.rfl

/-- The blocks cover Y: row r lies in the block of point r / 2048 (r < 16384, so r / 2048 < 8), and every block spans
    all 256 columns. -/
theorem covered23 (i : S16384x256.Idx) : ∃ t : Fin cfg23.N, (cfg23.win 2).flush t = true ∧ i ∈ ((cfg23.win 2).blk t).view.set := by
  have hi0 : (i 0).val < 16384 := (i 0).isLt
  have hi1 : (i 1).val < 256 := (i 1).isLt
  have hN : cfg23.N = 8 := N_23
  have ht : (i 0).val / 2048 < cfg23.N := by rw [hN]; omega
  obtain ⟨-, -, -, -, e20, e21⟩ := idx_facts23 ⟨(i 0).val / 2048, ht⟩
  refine ⟨⟨(i 0).val / 2048, ht⟩, flush23_2 _, ?_⟩
  rw [mem_blk23]
  intro a
  match a with
  | ⟨0, _⟩ =>
    show win23_2.index ⟨(i 0).val / 2048, ht⟩ (0 : Fin 2) * 2048 ≤ (i 0).val ∧ (i 0).val < win23_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win23_2.index ⟨(i 0).val / 2048, ht⟩ (1 : Fin 2) * 256 ≤ (i 1).val ∧ (i 1).val < win23_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt23 (c : Dev nD) :
    (dat23 (F := Ideal) V c).arrAt 2 cfg23.N
      = Cert.Spec.mul (V c (Pipeline.arrRef spec23 0) : Cert.Spec.Mat 16384 256) (V c (Pipeline.arrRef spec23 1) : Cert.Spec.Mat 256 256) :=
  (dat23 (F := Ideal) V c).arrAt_eq_of_cover 2 (Cert.Spec.mul (xarr23 V c) (warr23 V c)) (fun t _ => flushed23_eq V c t) covered23

end Cert.KernelIdeal.Val

end
-- ==== Proof.KI.ValProj24.lean ====
/- Region 24 computes a matrix product, block of rows by block of rows.

   The region's first input array X has 32768 rows and 256 columns, its second input array W is 256 by 256, and its
   output array Y has the shape of X. The grid has 16 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 16 blocks cover Y, and after the region Y holds X · W. -/
import proofs.«101828_j11562051961417_2_alg».proof.Proof.KI.Region24
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs24_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs24_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs24_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs24_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay24_apply (x0 : FVec Ideal S2048x256 .f32) (x1 : FVec Ideal S256x256 .f32) (p : Fin 2048) (q : Fin 256) :
    k24_pay1 (F := Ideal) x0 x1 (ix2 p q) = ∑ k : Fin 256, x0 (ix2 p k) * x1 (ix2 k q) := by
  unfold k24_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs24_0 _ _
    | ⟨1, _⟩ => exact (lhs24_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs24_0 _ _).trans hk
    | ⟨1, _⟩ => exact rhs24_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz24 : (![0, 0] : Fin 2 → Nat) = fun _ => 0 := funext fun a => by fin_cases a <;> rfl

/-- The first input array as the region finds it: X, 32768 rows of 256 entries. -/
abbrev xarr24 (c : Dev nD) : Cert.Spec.Mat 32768 256 := V c (Pipeline.arrRef spec24 0)
/-- The second input array as the region finds it: W, 256 by 256. -/
abbrev warr24 (c : Dev nD) : Cert.Spec.Mat 256 256 := V c (Pipeline.arrRef spec24 1)

/-- Which block each window holds at grid point t: the blocks of X and of Y are block-row t (block column 0), the block of
    W is always the whole of W. Decided once over the 16 points. -/
theorem idx_facts24 : ∀ t : Fin cfg24.N, win24_0.index t (0 : Fin 2) = t.val
    ∧ win24_0.index t (1 : Fin 2) = 0
    ∧ win24_1.index t (0 : Fin 2) = 0
    ∧ win24_1.index t (1 : Fin 2) = 0
    ∧ win24_2.index t (0 : Fin 2) = t.val
    ∧ win24_2.index t (1 : Fin 2) = 0 :=
  (by decide +kernel : ∀ t : Fin grid24.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed24_eq (c : Dev nD) (t : Fin cfg24.N) :
    (dat24 (F := Ideal) V c).flushed 2 t = ((cfg24.win 2).blk t).view.read (Elt Ideal) (Cert.Spec.mul (xarr24 V c) (warr24 V c)) := by
  show (cfg24.win 2).cut (grid24.coords t) ((dat24 (F := Ideal) V c).after 2 t) = _
  rw [after24_2]
  unfold out24
  rw [View.canon_unit_zero hz24]
  simp only [View.ld_unit_zero (S := S2048x256) hz24, View.ld_unit_zero (S := S256x256) hz24]
  obtain ⟨e00, e01, e10, e11, e20, e21⟩ := idx_facts24 t
  funext j
  obtain ⟨p, q, rfl⟩ : ∃ (p : Fin 2048) (q : Fin 256), j = ix2 p q := ⟨j 0, j 1, eq_ix2 j⟩
  show k24_pay1 (F := Ideal) (iblk24 V c 0 t) (iblk24 V c 1 t) (ix2 p q) = Cert.Spec.mul (xarr24 V c) (warr24 V c) (((cfg24.win 2).blk t).view.emb (ix2 p q))
  refine (pay24_apply (iblk24 V c 0 t) (iblk24 V c 1 t) p q).trans ?_
  unfold Cert.Spec.mul
  refine Finset.sum_congr rfl fun k _ => ?_
  show xarr24 V c (((cfg24.win 0).blk t).view.emb (ix2 p k)) * warr24 V c (((cfg24.win 1).blk t).view.emb (ix2 k q))
    = xarr24 V c (ix2 ((((cfg24.win 2).blk t).view.emb (ix2 p q)) 0) k) * warr24 V c (ix2 k ((((cfg24.win 2).blk t).view.emb (ix2 p q)) 1))
  have h0 : ((cfg24.win 0).blk t).view.emb (ix2 p k) = ix2 ((((cfg24.win 2).blk t).view.emb (ix2 p q)) 0) k := by
    funext a; apply Fin.ext
    match a with
    | ⟨0, _⟩ => show win24_0.index t (0 : Fin 2) * 2048 + 1 * p.val = win24_2.index t (0 : Fin 2) * 2048 + 1 * p.val; omega
    | ⟨1, _⟩ => show win24_0.index t (1 : Fin 2) * 256 + 1 * k.val = k.val; omega
  have h1 : ((cfg24.win 1).blk t).view.emb (ix2 k q) = ix2 k ((((cfg24.win 2).blk t).view.emb (ix2 p q)) 1) := by
    funext a; apply Fin.ext
    match a with
    | ⟨0, _⟩ => show win24_1.index t (0 : Fin 2) * 256 + 1 * k.val = k.val; omega
    | ⟨1, _⟩ => show win24_1.index t (1 : Fin 2) * 256 + 1 * q.val = win24_2.index t (1 : Fin 2) * 256 + 1 * q.val; omega
  exact congrArg₂ (fun a b : EReal => a * b) (congrArg (xarr24 V c) h0) (congrArg (warr24 V c) h1)

/-- An entry of Y is in point t's block iff, on each axis, its coordinate lies in the block's range
    [index × size, index × size + size). -/
theorem mem_blk24 (t : Fin cfg24.N) (i : S32768x256.Idx) :
    i ∈ ((cfg24.win 2).blk t).view.set ↔ ∀ a : Fin 2, win24_2.index t a * S2048x256.size a ≤ (i a).val ∧ (i a).val < win24_2.index t a * S2048x256.size a + S2048x256.size a := by
  show i ∈ ((View.whole main_v234).slice (win24_2.rect t)).set ↔ _
  rw [View.set_slice_whole, Rect.mem_set_unit]
  exact Iff.rfl

/-- The blocks cover Y: row r lies in the block of point r / 2048 (r < 32768, so r / 2048 < 16), and every block spans
    all 256 columns. -/
theorem covered24 (i : S32768x256.Idx) : ∃ t : Fin cfg24.N, (cfg24.win 2).flush t = true ∧ i ∈ ((cfg24.win 2).blk t).view.set := by
  have hi0 : (i 0).val < 32768 := (i 0).isLt
  have hi1 : (i 1).val < 256 := (i 1).isLt
  have hN : cfg24.N = 16 := N_24
  have ht : (i 0).val / 2048 < cfg24.N := by rw [hN]; omega
  obtain ⟨-, -, -, -, e20, e21⟩ := idx_facts24 ⟨(i 0).val / 2048, ht⟩
  refine ⟨⟨(i 0).val / 2048, ht⟩, flush24_2 _, ?_⟩
  rw [mem_blk24]
  intro a
  match a with
  | ⟨0, _⟩ =>
    show win24_2.index ⟨(i 0).val / 2048, ht⟩ (0 : Fin 2) * 2048 ≤ (i 0).val ∧ (i 0).val < win24_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win24_2.index ⟨(i 0).val / 2048, ht⟩ (1 : Fin 2) * 256 ≤ (i 1).val ∧ (i 1).val < win24_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt24 (c : Dev nD) :
    (dat24 (F := Ideal) V c).arrAt 2 cfg24.N
      = Cert.Spec.mul (V c (Pipeline.arrRef spec24 0) : Cert.Spec.Mat 32768 256) (V c (Pipeline.arrRef spec24 1) : Cert.Spec.Mat 256 256) :=
  (dat24 (F := Ideal) V c).arrAt_eq_of_cover 2 (Cert.Spec.mul (xarr24 V c) (warr24 V c)) (fun t _ => flushed24_eq V c t) covered24

end Cert.KernelIdeal.Val

end
-- ==== Proof.KI.ValBound25.lean ====
/- Region 25 as a function of whole arrays. The region walks 32 points; at point t it holds batches 8t … 8t + 7 of
   the incidence array A : [256, 256, 128] and of X : [256, 128, 256], and stores, batch by batch, the product A_b · X_b
   into batches 8t … 8t + 7 of the output [256, 256, 256]. Read at an index (b, r, c) the stored value is the sum over the
   128 columns k of A (b, r, k) · X (b, k, c): the product into a zero accumulator is the bare sum, and a change of float
   format is the identity on extended reals. The 32 blocks of 8 batches tile the 256 batches, so the output array after the
   region is the batched product `Cert.Spec.bmul` of the two input arrays as the region finds them. -/
import proofs.«101828_j11562051961417_2_alg».proof.Proof.KI.Region25
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat)
open Cert.Spec (Mat3 bmul)

/-! ## The block product at an index

The product's dimension numbers: axis 0 of both operands is the batch, axis 1 of the left and axis 2 of the right are
free, axis 2 of the left is contracted against axis 1 of the right. So at output index i = (b, r, c) and contraction
position q the left operand is read at (b, r, q) and the right at (b, q, c): one fact per operand axis. -/

/-- The left operand's batch coordinate is the output's. -/
theorem lhs25_0 (i : S8x256x256.Idx) (q : dot_S8x256x128_S8x128x256_S8x256x256_2_1_1_2_0_0.contr.Idx) :
    (dot_S8x256x128_S8x128x256_S8x256x256_2_1_1_2_0_0.lhsIdx i q 0).val = (i 0).val := by
  unfold DotDims.lhsIdx
  rw [dif_pos (show (0 : Fin S8x256x128.rank) ∈ dot_S8x256x128_S8x128x256_S8x256x256_2_1_1_2_0_0.lhsBatch by decide)]
  rfl
/-- The left operand's row is the output's row. -/
theorem lhs25_1 (i : S8x256x256.Idx) (q : dot_S8x256x128_S8x128x256_S8x256x256_2_1_1_2_0_0.contr.Idx) :
    (dot_S8x256x128_S8x128x256_S8x256x256_2_1_1_2_0_0.lhsIdx i q 1).val = (i 1).val := by
  unfold DotDims.lhsIdx
  rw [dif_neg (show ¬(1 : Fin S8x256x128.rank) ∈ dot_S8x256x128_S8x128x256_S8x256x256_2_1_1_2_0_0.lhsBatch by decide), dif_pos (show (1 : Fin S8x256x128.rank) ∈ dot_S8x256x128_S8x128x256_S8x256x256_2_1_1_2_0_0.lhsNonContracting by decide)]
  rfl
/-- The left operand's column is the contraction position. -/
theorem lhs25_2 (i : S8x256x256.Idx) (q : dot_S8x256x128_S8x128x256_S8x256x256_2_1_1_2_0_0.contr.Idx) :
    (dot_S8x256x128_S8x128x256_S8x256x256_2_1_1_2_0_0.lhsIdx i q 2).val = (q ⟨0, by decide⟩).val :=
  dot_S8x256x128_S8x128x256_S8x256x256_2_1_1_2_0_0.lhsIdx_val_of_single rfl i q
/-- The right operand's batch coordinate is the output's. -/
theorem rhs25_0 (i : S8x256x256.Idx) (q : dot_S8x256x128_S8x128x256_S8x256x256_2_1_1_2_0_0.contr.Idx) :
    (dot_S8x256x128_S8x128x256_S8x256x256_2_1_1_2_0_0.rhsIdx i q 0).val = (i 0).val := by
  unfold DotDims.rhsIdx
  rw [dif_pos (show (0 : Fin S8x128x256.rank) ∈ dot_S8x256x128_S8x128x256_S8x256x256_2_1_1_2_0_0.rhsBatch by decide)]
  rfl
/-- The right operand's row is the contraction position. -/
theorem rhs25_1 (i : S8x256x256.Idx) (q : dot_S8x256x128_S8x128x256_S8x256x256_2_1_1_2_0_0.contr.Idx) :
    (dot_S8x256x128_S8x128x256_S8x256x256_2_1_1_2_0_0.rhsIdx i q 1).val = (q ⟨0, by decide⟩).val :=
  dot_S8x256x128_S8x128x256_S8x256x256_2_1_1_2_0_0.rhsIdx_val_of_single rfl i q
/-- The right operand's column is the output's column. -/
theorem rhs25_2 (i : S8x256x256.Idx) (q : dot_S8x256x128_S8x128x256_S8x256x256_2_1_1_2_0_0.contr.Idx) :
    (dot_S8x256x128_S8x128x256_S8x256x256_2_1_1_2_0_0.rhsIdx i q 2).val = (i 2).val := by
  unfold DotDims.rhsIdx
  rw [dif_neg (show ¬(2 : Fin S8x128x256.rank) ∈ dot_S8x256x128_S8x128x256_S8x256x256_2_1_1_2_0_0.rhsBatch by decide), dif_pos (show (2 : Fin S8x128x256.rank) ∈ dot_S8x256x128_S8x128x256_S8x256x256_2_1_1_2_0_0.rhsNonContracting by decide)]
  rfl

/-- THE BODY'S VALUE AT (b, r, c): the sum over the 128 contracted columns k of the left block at (b, r, k) times the
    right block at (b, k, c). The two shape casts are between equal shapes, the narrowing of the right block is the
    identity on extended reals, and the accumulator is the zero constant. -/
theorem pay25_apply (x0 : FVec Ideal S8x256x128 .bf16) (x1 : FVec Ideal S8x128x256 .f32) (b : Fin 8) (r c : Fin 256) :
    k25_pay1 (F := Ideal) x0 x1 (ix3 b r c) = ∑ k : Fin 128, x0 (ix3 b r k) * x1 (ix3 b k c) := by
  unfold k25_pay1
  rw [shapeCast_self, shapeCast_self]
  simp only [matmul]
  rw [Ideal.matmul_constant_zero_apply, ← Equiv.sum_comp (contrEquiv1 dot_S8x256x128_S8x128x256_S8x256x256_2_1_1_2_0_0 128 rfl rfl).symm]
  refine Finset.sum_congr rfl fun k _ => ?_
  have hk := contrEquiv1_symm_val dot_S8x256x128_S8x128x256_S8x256x256_2_1_1_2_0_0 128 rfl rfl k
  have el : dot_S8x256x128_S8x128x256_S8x256x256_2_1_1_2_0_0.lhsIdx (ix3 b r c) ((contrEquiv1 dot_S8x256x128_S8x128x256_S8x256x256_2_1_1_2_0_0 128 rfl rfl).symm k) = ix3 b r k := funext fun a => Fin.ext (by
    match a with
    | ⟨0, _⟩ => exact lhs25_0 _ _
    | ⟨1, _⟩ => exact lhs25_1 _ _
    | ⟨2, _⟩ => exact (lhs25_2 _ _).trans hk)
  have er : dot_S8x256x128_S8x128x256_S8x256x256_2_1_1_2_0_0.rhsIdx (ix3 b r c) ((contrEquiv1 dot_S8x256x128_S8x128x256_S8x256x256_2_1_1_2_0_0 128 rfl rfl).symm k) = ix3 b k c := funext fun a => Fin.ext (by
    match a with
    | ⟨0, _⟩ => exact rhs25_0 _ _
    | ⟨1, _⟩ => exact (rhs25_1 _ _).trans hk
    | ⟨2, _⟩ => exact rhs25_2 _ _)
  rw [el, er]
  rfl

variable (V : (c : Dev nD) → (b : Ref sig .tc) → Buf (Elt Ideal) ((c : Thread nD τ).loc b))

/-! ## The blocks as parts of the arrays -/

/-- The zero offset of a whole-block load or store. -/
theorem hz25 : (![0, 0, 0] : Fin 3 → Nat) = fun _ => 0 := funext fun a => by fin_cases a <;> rfl

/-- The three windows' block indices over the 32 points: at point t each window is at block t along the batch axis and
    at block 0 along the other two. -/
theorem idx25 : ∀ t : Fin cfg25.N,
    win25_0.index t (0 : Fin 3) = t.val ∧ win25_0.index t (1 : Fin 3) = 0 ∧ win25_0.index t (2 : Fin 3) = 0
    ∧ win25_1.index t (0 : Fin 3) = t.val ∧ win25_1.index t (1 : Fin 3) = 0 ∧ win25_1.index t (2 : Fin 3) = 0
    ∧ win25_2.index t (0 : Fin 3) = t.val ∧ win25_2.index t (1 : Fin 3) = 0 ∧ win25_2.index t (2 : Fin 3) = 0 :=
  (by decide +kernel : ∀ t : Fin grid25.N, _)

/-- Window 0's block at point t is batches 8t … 8t + 7 of A: its entry (b, r, k) is A (8t + b, r, k). -/
theorem iblk25_0_apply (c : Dev nD) (t : Fin cfg25.N) (y : S8x256x128.Idx) (i : S256x256x128.Idx)
    (h0 : (i 0).val = t.val * 8 + (y 0).val) (h1 : (i 1).val = (y 1).val) (h2 : (i 2).val = (y 2).val) :
    (iblk25 V c 0 t : Vec Ideal S8x256x128 .bf16) y = (V c (Pipeline.arrRef spec25 0) : Mat3 256 256 128) i := by
  obtain ⟨e0, e1, e2, -⟩ := idx25 t
  unfold iblk25
  rw [View.read_apply]
  refine congrArg (V c (Pipeline.arrRef spec25 0) : Mat3 256 256 128) (funext fun a => Fin.ext ?_)
  match a with
  | ⟨0, _⟩ => show win25_0.index t (0 : Fin 3) * 8 + 1 * (y 0).val = (i 0).val; omega
  | ⟨1, _⟩ => show win25_0.index t (1 : Fin 3) * 256 + 1 * (y 1).val = (i 1).val; omega
  | ⟨2, _⟩ => show win25_0.index t (2 : Fin 3) * 128 + 1 * (y 2).val = (i 2).val; omega

/-- Window 1's block at point t is batches 8t … 8t + 7 of X: its entry (b, k, c) is X (8t + b, k, c). -/
theorem iblk25_1_apply (c : Dev nD) (t : Fin cfg25.N) (y : S8x128x256.Idx) (i : S256x128x256.Idx)
    (h0 : (i 0).val = t.val * 8 + (y 0).val) (h1 : (i 1).val = (y 1).val) (h2 : (i 2).val = (y 2).val) :
    (iblk25 V c 1 t : Vec Ideal S8x128x256 .f32) y = (V c (Pipeline.arrRef spec25 1) : Mat3 256 128 256) i := by
  obtain ⟨-, -, -, e0, e1, e2, -⟩ := idx25 t
  unfold iblk25
  rw [View.read_apply]
  refine congrArg (V c (Pipeline.arrRef spec25 1) : Mat3 256 128 256) (funext fun a => Fin.ext ?_)
  match a with
  | ⟨0, _⟩ => show win25_1.index t (0 : Fin 3) * 8 + 1 * (y 0).val = (i 0).val; omega
  | ⟨1, _⟩ => show win25_1.index t (1 : Fin 3) * 128 + 1 * (y 1).val = (i 1).val; omega
  | ⟨2, _⟩ => show win25_1.index t (2 : Fin 3) * 256 + 1 * (y 2).val = (i 2).val; omega

/-- If the two blocks are batches 8p … 8p + 7 of arrays A and X, the body's value at (b, r, c) is the batched product
    of A and X at (8p + b, r, c): the sum over k of A (8p + b, r, k) · X (8p + b, k, c), term by term. -/
theorem pay25_block (A : Mat3 256 256 128) (X : Mat3 256 128 256)
    (x0 : FVec Ideal S8x256x128 .bf16) (x1 : FVec Ideal S8x128x256 .f32) (p : Nat)
    (hx0 : ∀ (y : S8x256x128.Idx) (i : S256x256x128.Idx), (i 0).val = p * 8 + (y 0).val → (i 1).val = (y 1).val → (i 2).val = (y 2).val → x0 y = A i)
    (hx1 : ∀ (y : S8x128x256.Idx) (i : S256x128x256.Idx), (i 0).val = p * 8 + (y 0).val → (i 1).val = (y 1).val → (i 2).val = (y 2).val → x1 y = X i)
    (j : S8x256x256.Idx) (i : S256x256x256.Idx)
    (h0 : (i 0).val = p * 8 + (j 0).val) (h1 : (i 1).val = (j 1).val) (h2 : (i 2).val = (j 2).val) :
    k25_pay1 (F := Ideal) x0 x1 j = bmul A X i := by
  obtain ⟨b, r, c, rfl⟩ : ∃ (b : Fin 8) (r : Fin 256) (c : Fin 256), j = ix3 b r c := ⟨j 0, j 1, j 2, eq_ix3 j⟩
  rw [pay25_apply]
  show _ = ∑ k : Fin 128, A (ix3 (i 0) (i 1) k) * X (ix3 (i 0) k (i 2))
  exact Finset.sum_congr rfl fun k _ => by
    rw [hx0 (ix3 b r k) (ix3 (i 0) (i 1) k) h0 h1 rfl, hx1 (ix3 b k c) (ix3 (i 0) k (i 2)) h0 rfl h2]

/-- WHAT POINT t WRITES BACK is block t of the batched product of the two input arrays: the stored value of the two
    input blocks at t, and the output's block at t sits at batches 8t … 8t + 7 like theirs. -/
theorem flushed25_eq (c : Dev nD) (t : Fin cfg25.N) :
    (dat25 (F := Ideal) V c).flushed 2 t
      = ((cfg25.win 2).blk t).view.read (Elt Ideal)
          (bmul (V c (Pipeline.arrRef spec25 0) : Mat3 256 256 128) (V c (Pipeline.arrRef spec25 1) : Mat3 256 128 256)) := by
  show (cfg25.win 2).cut (grid25.coords t) ((dat25 V c).after 2 t) = _
  rw [after25_2]
  unfold out25
  rw [View.canon_unit_zero hz25]
  simp only [View.ld_unit_zero (S := S8x256x128) hz25, View.ld_unit_zero (S := S8x128x256) hz25]
  obtain ⟨-, -, -, -, -, -, e0, e1, e2⟩ := idx25 t
  funext j
  refine pay25_block (V c (Pipeline.arrRef spec25 0)) (V c (Pipeline.arrRef spec25 1)) (iblk25 V c 0 t) (iblk25 V c 1 t) t.val
    (iblk25_0_apply V c t) (iblk25_1_apply V c t) j (((cfg25.win 2).blk t).view.emb j) ?_ ?_ ?_
  · show win25_2.index t (0 : Fin 3) * 8 + 1 * (j 0).val = t.val * 8 + (j 0).val; omega
  · show win25_2.index t (1 : Fin 3) * 256 + 1 * (j 1).val = (j 1).val; omega
  · show win25_2.index t (2 : Fin 3) * 256 + 1 * (j 2).val = (j 2).val; omega

/-! ## The 32 blocks tile the output -/

/-- An index of the output array is in point t's block iff each coordinate is in the block's range on its axis. -/
theorem mem_blk25 (t : Fin cfg25.N) (i : S256x256x256.Idx) :
    i ∈ ((cfg25.win 2).blk t).view.set ↔ ∀ a : Fin 3, win25_2.index t a * S8x256x256.size a ≤ (i a).val ∧ (i a).val < win25_2.index t a * S8x256x256.size a + S8x256x256.size a := by
  show i ∈ ((View.whole main_v274).slice (win25_2.rect t)).set ↔ _
  rw [View.set_slice_whole, Rect.mem_set_unit]
  exact Iff.rfl

/-- Every index (b, r, c) of the output is in the block of point b / 8, which is written back. -/
theorem cover25_arr (i : S256x256x256.Idx) :
    ∃ t : Fin cfg25.N, (cfg25.win 2).flush t = true ∧ i ∈ ((cfg25.win 2).blk t).view.set := by
  have hi0 : (i 0).val < 256 := (i 0).isLt
  have hi1 : (i 1).val < 256 := (i 1).isLt
  have hi2 : (i 2).val < 256 := (i 2).isLt
  have hN : cfg25.N = 32 := N_25
  let t : Fin cfg25.N := ⟨(i 0).val / 8, by rw [hN]; omega⟩
  have ht : t.val = (i 0).val / 8 := rfl
  obtain ⟨-, -, -, -, -, -, e0, e1, e2⟩ := idx25 t
  refine ⟨t, flush25_2 t, ?_⟩
  rw [mem_blk25]
  intro a
  match a with
  | ⟨0, _⟩ => show win25_2.index t (0 : Fin 3) * 8 ≤ (i 0).val ∧ (i 0).val < win25_2.index t (0 : Fin 3) * 8 + 8; omega
  | ⟨1, _⟩ => show win25_2.index t (1 : Fin 3) * 256 ≤ (i 1).val ∧ (i 1).val < win25_2.index t (1 : Fin 3) * 256 + 256; omega
  | ⟨2, _⟩ => show win25_2.index t (2 : Fin 3) * 256 ≤ (i 2).val ∧ (i 2).val < win25_2.index t (2 : Fin 3) * 256 + 256; omega

/-- THE OUTPUT ARRAY AFTER REGION 25: the batched product A_b · X_b of the two input arrays as the region finds them. -/
theorem arrAt25 (c : Dev nD) :
    (dat25 (F := Ideal) V c).arrAt 2 cfg25.N
      = bmul (V c (Pipeline.arrRef spec25 0) : Mat3 256 256 128) (V c (Pipeline.arrRef spec25 1) : Mat3 256 128 256) :=
  (dat25 (F := Ideal) V c).arrAt_eq_of_cover 2 _ (fun t _ => flushed25_eq V c t) cover25_arr

end Cert.KernelIdeal.Val

end
-- ==== Proof.KI.ValBound26.lean ====
/- Region 26 as a function of whole arrays. The region walks 16 points; at point t it holds batches 16t … 16t + 15 of
   the incidence array A : [256, 64, 256] and of X : [256, 256, 256], and the whole matrix W : [256, 256]. Batch by batch it
   forms the product A_b · X_b, lays the 16 results of 64 rows under one another as 1024 rows, multiplies those rows by W
   and cuts the 1024 rows back into 16 batches of 64, which it stores into batches 16t … 16t + 15 of the output
   [256, 64, 256]. Read at an index (b, r, c) the stored value is the sum over j of (A_b · X_b)(r, j) · W (j, c): each product
   into a zero accumulator is the bare sum, a change of float format is the identity on extended reals, and row 64 b + r of
   the 1024 is row r of batch b. The 16 blocks of 16 batches tile the 256 batches, so the output array after the region
   is, entry by entry, that sum over the input arrays as the region finds them. -/
import proofs.«101828_j11562051961417_2_alg».proof.Proof.KI.Region26
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat)
open Cert.Spec (Mat Mat3 bmul)

/-! ## The two products at an index

The batched product's dimension numbers: axis 0 of both operands is the batch, axis 1 of the left and axis 2 of the right
are free, axis 2 of the left is contracted against axis 1 of the right. The plain product's: axis 0 of the left and axis 1
of the right are free, axis 1 of the left is contracted against axis 0 of the right. One fact per operand axis. -/

/-- Batched product, left operand: the batch coordinate is the output's. -/
theorem lhsA26_0 (i : S16x64x256.Idx) (q : dot_S16x64x256_S16x256x256_S16x64x256_2_1_1_2_0_0.contr.Idx) :
    (dot_S16x64x256_S16x256x256_S16x64x256_2_1_1_2_0_0.lhsIdx i q 0).val = (i 0).val := by
  unfold DotDims.lhsIdx
  rw [dif_pos (show (0 : Fin S16x64x256.rank) ∈ dot_S16x64x256_S16x256x256_S16x64x256_2_1_1_2_0_0.lhsBatch by decide)]
  rfl
/-- Batched product, left operand: the row is the output's row. -/
theorem lhsA26_1 (i : S16x64x256.Idx) (q : dot_S16x64x256_S16x256x256_S16x64x256_2_1_1_2_0_0.contr.Idx) :
    (dot_S16x64x256_S16x256x256_S16x64x256_2_1_1_2_0_0.lhsIdx i q 1).val = (i 1).val := by
  unfold DotDims.lhsIdx
  rw [dif_neg (show ¬(1 : Fin S16x64x256.rank) ∈ dot_S16x64x256_S16x256x256_S16x64x256_2_1_1_2_0_0.lhsBatch by decide), dif_pos (show (1 : Fin S16x64x256.rank) ∈ dot_S16x64x256_S16x256x256_S16x64x256_2_1_1_2_0_0.lhsNonContracting by decide)]
  rfl
/-- Batched product, left operand: the column is the contraction position. -/
theorem lhsA26_2 (i : S16x64x256.Idx) (q : dot_S16x64x256_S16x256x256_S16x64x256_2_1_1_2_0_0.contr.Idx) :
    (dot_S16x64x256_S16x256x256_S16x64x256_2_1_1_2_0_0.lhsIdx i q 2).val = (q ⟨0, by decide⟩).val :=
  dot_S16x64x256_S16x256x256_S16x64x256_2_1_1_2_0_0.lhsIdx_val_of_single rfl i q
/-- Batched product, right operand: the batch coordinate is the output's. -/
theorem rhsA26_0 (i : S16x64x256.Idx) (q : dot_S16x64x256_S16x256x256_S16x64x256_2_1_1_2_0_0.contr.Idx) :
    (dot_S16x64x256_S16x256x256_S16x64x256_2_1_1_2_0_0.rhsIdx i q 0).val = (i 0).val := by
  unfold DotDims.rhsIdx
  rw [dif_pos (show (0 : Fin S16x256x256.rank) ∈ dot_S16x64x256_S16x256x256_S16x64x256_2_1_1_2_0_0.rhsBatch by decide)]
  rfl
/-- Batched product, right operand: the row is the contraction position. -/
theorem rhsA26_1 (i : S16x64x256.Idx) (q : dot_S16x64x256_S16x256x256_S16x64x256_2_1_1_2_0_0.contr.Idx) :
    (dot_S16x64x256_S16x256x256_S16x64x256_2_1_1_2_0_0.rhsIdx i q 1).val = (q ⟨0, by decide⟩).val :=
  dot_S16x64x256_S16x256x256_S16x64x256_2_1_1_2_0_0.rhsIdx_val_of_single rfl i q
/-- Batched product, right operand: the column is the output's column. -/
theorem rhsA26_2 (i : S16x64x256.Idx) (q : dot_S16x64x256_S16x256x256_S16x64x256_2_1_1_2_0_0.contr.Idx) :
    (dot_S16x64x256_S16x256x256_S16x64x256_2_1_1_2_0_0.rhsIdx i q 2).val = (i 2).val := by
  unfold DotDims.rhsIdx
  rw [dif_neg (show ¬(2 : Fin S16x256x256.rank) ∈ dot_S16x64x256_S16x256x256_S16x64x256_2_1_1_2_0_0.rhsBatch by decide), dif_pos (show (2 : Fin S16x256x256.rank) ∈ dot_S16x64x256_S16x256x256_S16x64x256_2_1_1_2_0_0.rhsNonContracting by decide)]
  rfl

/-- Plain product, left operand: the row is the output's row. -/
theorem lhsB26_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- Plain product, left operand: the column is the contraction position. -/
theorem lhsB26_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- Plain product, right operand: the row is the contraction position. -/
theorem rhsB26_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- Plain product, right operand: the column is the output's column. -/
theorem rhsB26_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The batched product into the zero accumulator at (b, r, c): the sum over the 256 contracted columns k of the left
    operand at (b, r, k) times the right at (b, k, c). -/
theorem bprod26_apply (x0 : FVec Ideal S16x64x256 .bf16) (x1 : FVec Ideal S16x256x256 .bf16) (b : Fin 16) (r : Fin 64) (c : Fin 256) :
    matmul dot_S16x64x256_S16x256x256_S16x64x256_2_1_1_2_0_0 none x0 x1 (constant S16x64x256 .f32 0x00000000#32) (ix3 b r c)
      = ∑ k : Fin 256, x0 (ix3 b r k) * x1 (ix3 b k c) := by
  simp only [matmul]
  rw [Ideal.matmul_constant_zero_apply, ← Equiv.sum_comp (contrEquiv1 dot_S16x64x256_S16x256x256_S16x64x256_2_1_1_2_0_0 256 rfl rfl).symm]
  refine Finset.sum_congr rfl fun k _ => ?_
  have hk := contrEquiv1_symm_val dot_S16x64x256_S16x256x256_S16x64x256_2_1_1_2_0_0 256 rfl rfl k
  have el : dot_S16x64x256_S16x256x256_S16x64x256_2_1_1_2_0_0.lhsIdx (ix3 b r c) ((contrEquiv1 dot_S16x64x256_S16x256x256_S16x64x256_2_1_1_2_0_0 256 rfl rfl).symm k) = ix3 b r k := funext fun a => Fin.ext (by
    match a with
    | ⟨0, _⟩ => exact lhsA26_0 _ _
    | ⟨1, _⟩ => exact lhsA26_1 _ _
    | ⟨2, _⟩ => exact (lhsA26_2 _ _).trans hk)
  have er : dot_S16x64x256_S16x256x256_S16x64x256_2_1_1_2_0_0.rhsIdx (ix3 b r c) ((contrEquiv1 dot_S16x64x256_S16x256x256_S16x64x256_2_1_1_2_0_0 256 rfl rfl).symm k) = ix3 b k c := funext fun a => Fin.ext (by
    match a with
    | ⟨0, _⟩ => exact rhsA26_0 _ _
    | ⟨1, _⟩ => exact (rhsA26_1 _ _).trans hk
    | ⟨2, _⟩ => exact rhsA26_2 _ _)
  rw [el, er]

/-- The plain product into the zero accumulator at (p, c): the sum over j of the left operand at (p, j) times the right
    at (j, c). -/
theorem rprod26_apply (y : FVec Ideal S1024x256 .bf16) (w : FVec Ideal S256x256 .bf16) (p : Fin 1024) (c : Fin 256) :
    matmul dot_S1024x256_S256x256_S1024x256_1_0_0_1_n_n none y w (constant S1024x256 .f32 0x00000000#32) (ix2 p c)
      = ∑ j : Fin 256, y (ix2 p j) * w (ix2 j c) := by
  simp only [matmul]
  rw [Ideal.matmul_constant_zero_apply, ← Equiv.sum_comp (contrEquiv1 dot_S1024x256_S256x256_S1024x256_1_0_0_1_n_n 256 rfl rfl).symm]
  refine Finset.sum_congr rfl fun j _ => ?_
  have hj := contrEquiv1_symm_val dot_S1024x256_S256x256_S1024x256_1_0_0_1_n_n 256 rfl rfl j
  have el : dot_S1024x256_S256x256_S1024x256_1_0_0_1_n_n.lhsIdx (ix2 p c) ((contrEquiv1 dot_S1024x256_S256x256_S1024x256_1_0_0_1_n_n 256 rfl rfl).symm j) = ix2 p j := funext fun a => Fin.ext (by
    match a with
    | ⟨0, _⟩ => exact lhsB26_0 _ _
    | ⟨1, _⟩ => exact (lhsB26_1 _ _).trans hj)
  have er : dot_S1024x256_S256x256_S1024x256_1_0_0_1_n_n.rhsIdx (ix2 p c) ((contrEquiv1 dot_S1024x256_S256x256_S1024x256_1_0_0_1_n_n 256 rfl rfl).symm j) = ix2 j c := funext fun a => Fin.ext (by
    match a with
    | ⟨0, _⟩ => exact (rhsB26_0 _ _).trans hj
    | ⟨1, _⟩ => exact rhsB26_1 _ _)
  rw [el, er]

/-- Sixteen batches of 64 rows laid under one another: row 64 b + r of the 1024 is row r of batch b. -/
theorem flat26_apply {α : Type} (v : S16x64x256.Idx → α) (b : Fin 16) (r : Fin 64) (j : Fin 256) :
    shapeCast S1024x256 v shapeCasts_S16x64x256_S1024x256 (ix2 (⟨b.val * 64 + r.val, by omega⟩ : Fin 1024) j) = v (ix3 b r j) :=
  shapeCast_apply v shapeCasts_S16x64x256_S1024x256 _ (ix3 b r j)
    (by rw [Shape.rowMajor_val_two, Shape.rowMajor_val_three]; rfl)

/-- And cut back: row r of batch b is row 64 b + r of the 1024. -/
theorem unflat26_apply {α : Type} (u : S1024x256.Idx → α) (b : Fin 16) (r : Fin 64) (c : Fin 256) :
    shapeCast S16x64x256 u shapeCasts_S1024x256_S16x64x256 (ix3 b r c) = u (ix2 (⟨b.val * 64 + r.val, by omega⟩ : Fin 1024) c) :=
  shapeCast_apply u shapeCasts_S1024x256_S16x64x256 _ (ix2 (⟨b.val * 64 + r.val, by omega⟩ : Fin 1024) c)
    (by rw [Shape.rowMajor_val_two, Shape.rowMajor_val_three]; rfl)

/-- THE BODY'S VALUE AT (b, r, c): the sum over j of (the sum over k of the first block at (b, r, k) times the second at
    (b, k, j)) times the third block at (j, c). The shape casts between equal shapes and the three narrowings are the
    identity on extended reals. -/
theorem pay26_apply (x0 : FVec Ideal S16x64x256 .bf16) (x1 : FVec Ideal S16x256x256 .f32) (x2 : FVec Ideal S256x256 .f32)
    (b : Fin 16) (r : Fin 64) (c : Fin 256) :
    k26_pay1 (F := Ideal) x0 x1 x2 (ix3 b r c)
      = ∑ j : Fin 256, (∑ k : Fin 256, x0 (ix3 b r k) * x1 (ix3 b k j)) * x2 (ix2 j c) := by
  unfold k26_pay1
  rw [shapeCast_self, shapeCast_self, shapeCast_self, unflat26_apply, rprod26_apply]
  refine Finset.sum_congr rfl fun j _ => ?_
  rw [flat26_apply]
  show matmul dot_S16x64x256_S16x256x256_S16x64x256_2_1_1_2_0_0 none x0 (truncf .bf16 x1 bitsLt_bf16_f32) (constant S16x64x256 .f32 0x00000000#32) (ix3 b r j) * x2 (ix2 j c) = _
  rw [bprod26_apply]
  rfl

variable (V : (c : Dev nD) → (b : Ref sig .tc) → Buf (Elt Ideal) ((c : Thread nD τ).loc b))

/-! ## The blocks as parts of the arrays -/

/-- The zero offset of a whole-block load or store, rank 3, -/
theorem hz26 : (![0, 0, 0] : Fin 3 → Nat) = fun _ => 0 := funext fun a => by fin_cases a <;> rfl
/-- and rank 2. -/
theorem hzz26 : (![0, 0] : Fin 2 → Nat) = fun _ => 0 := funext fun a => by fin_cases a <;> rfl

/-- The four windows' block indices over the 16 points: at point t the two batched inputs and the output are at block t
    along the batch axis and at block 0 along the other two; the matrix W is at block (0, 0) throughout. -/
theorem idx26 : ∀ t : Fin cfg26.N,
    win26_0.index t (0 : Fin 3) = t.val ∧ win26_0.index t (1 : Fin 3) = 0 ∧ win26_0.index t (2 : Fin 3) = 0
    ∧ win26_1.index t (0 : Fin 3) = t.val ∧ win26_1.index t (1 : Fin 3) = 0 ∧ win26_1.index t (2 : Fin 3) = 0
    ∧ win26_2.index t (0 : Fin 2) = 0 ∧ win26_2.index t (1 : Fin 2) = 0
    ∧ win26_3.index t (0 : Fin 3) = t.val ∧ win26_3.index t (1 : Fin 3) = 0 ∧ win26_3.index t (2 : Fin 3) = 0 :=
  (by decide +kernel : ∀ t : Fin grid26.N, _)

/-- Window 0's block at point t is batches 16t … 16t + 15 of A: its entry (b, r, k) is A (16t + b, r, k). -/
theorem iblk26_0_apply (c : Dev nD) (t : Fin cfg26.N) (y : S16x64x256.Idx) (i : S256x64x256.Idx)
    (h0 : (i 0).val = t.val * 16 + (y 0).val) (h1 : (i 1).val = (y 1).val) (h2 : (i 2).val = (y 2).val) :
    (iblk26 V c 0 t : Vec Ideal S16x64x256 .bf16) y = (V c (Pipeline.arrRef spec26 0) : Mat3 256 64 256) i := by
  obtain ⟨e0, e1, e2, -⟩ := idx26 t
  unfold iblk26
  rw [View.read_apply]
  refine congrArg (V c (Pipeline.arrRef spec26 0) : Mat3 256 64 256) (funext fun a => Fin.ext ?_)
  match a with
  | ⟨0, _⟩ => show win26_0.index t (0 : Fin 3) * 16 + 1 * (y 0).val = (i 0).val; omega
  | ⟨1, _⟩ => show win26_0.index t (1 : Fin 3) * 64 + 1 * (y 1).val = (i 1).val; omega
  | ⟨2, _⟩ => show win26_0.index t (2 : Fin 3) * 256 + 1 * (y 2).val = (i 2).val; omega

/-- Window 1's block at point t is batches 16t … 16t + 15 of X: its entry (b, k, j) is X (16t + b, k, j). -/
theorem iblk26_1_apply (c : Dev nD) (t : Fin cfg26.N) (y : S16x256x256.Idx) (i : S256x256x256.Idx)
    (h0 : (i 0).val = t.val * 16 + (y 0).val) (h1 : (i 1).val = (y 1).val) (h2 : (i 2).val = (y 2).val) :
    (iblk26 V c 1 t : Vec Ideal S16x256x256 .f32) y = (V c (Pipeline.arrRef spec26 1) : Mat3 256 256 256) i := by
  obtain ⟨-, -, -, e0, e1, e2, -⟩ := idx26 t
  unfold iblk26
  rw [View.read_apply]
  refine congrArg (V c (Pipeline.arrRef spec26 1) : Mat3 256 256 256) (funext fun a => Fin.ext ?_)
  match a with
  | ⟨0, _⟩ => show win26_1.index t (0 : Fin 3) * 16 + 1 * (y 0).val = (i 0).val; omega
  | ⟨1, _⟩ => show win26_1.index t (1 : Fin 3) * 256 + 1 * (y 1).val = (i 1).val; omega
  | ⟨2, _⟩ => show win26_1.index t (2 : Fin 3) * 256 + 1 * (y 2).val = (i 2).val; omega

/-- Window 2's block at every point is all of W. -/
theorem iblk26_2_apply (c : Dev nD) (t : Fin cfg26.N) (y : S256x256.Idx) (i : S256x256.Idx)
    (h0 : (i 0).val = (y 0).val) (h1 : (i 1).val = (y 1).val) :
    (iblk26 V c 2 t : Vec Ideal S256x256 .f32) y = (V c (Pipeline.arrRef spec26 2) : Mat 256 256) i := by
  obtain ⟨-, -, -, -, -, -, e0, e1, -⟩ := idx26 t
  unfold iblk26
  rw [View.read_apply]
  refine congrArg (V c (Pipeline.arrRef spec26 2) : Mat 256 256) (funext fun a => Fin.ext ?_)
  match a with
  | ⟨0, _⟩ => show win26_2.index t (0 : Fin 2) * 256 + 1 * (y 0).val = (i 0).val; omega
  | ⟨1, _⟩ => show win26_2.index t (1 : Fin 2) * 256 + 1 * (y 1).val = (i 1).val; omega

/-- If the first two blocks are batches 16p … 16p + 15 of arrays A and X and the third is W, the body's value at (b, r, c)
    is the sum over q of the batched product of A and X at (16p + b, r, q) times W (q, c), term by term. -/
theorem pay26_block (A : Mat3 256 64 256) (X : Mat3 256 256 256) (W : Mat 256 256)
    (x0 : FVec Ideal S16x64x256 .bf16) (x1 : FVec Ideal S16x256x256 .f32) (x2 : FVec Ideal S256x256 .f32) (p : Nat)
    (hx0 : ∀ (y : S16x64x256.Idx) (i : S256x64x256.Idx), (i 0).val = p * 16 + (y 0).val → (i 1).val = (y 1).val → (i 2).val = (y 2).val → x0 y = A i)
    (hx1 : ∀ (y : S16x256x256.Idx) (i : S256x256x256.Idx), (i 0).val = p * 16 + (y 0).val → (i 1).val = (y 1).val → (i 2).val = (y 2).val → x1 y = X i)
    (hx2 : ∀ (y : S256x256.Idx) (i : S256x256.Idx), (i 0).val = (y 0).val → (i 1).val = (y 1).val → x2 y = W i)
    (j : S16x64x256.Idx) (i : S256x64x256.Idx)
    (h0 : (i 0).val = p * 16 + (j 0).val) (h1 : (i 1).val = (j 1).val) (h2 : (i 2).val = (j 2).val) :
    k26_pay1 (F := Ideal) x0 x1 x2 j = ∑ q : Fin 256, bmul A X (ix3 (i 0) (i 1) q) * W (ix2 q (i 2)) := by
  obtain ⟨b, r, c, rfl⟩ : ∃ (b : Fin 16) (r : Fin 64) (c : Fin 256), j = ix3 b r c := ⟨j 0, j 1, j 2, eq_ix3 j⟩
  rw [pay26_apply]
  refine Finset.sum_congr rfl fun q _ => ?_
  rw [hx2 (ix2 q c) (ix2 q (i 2)) rfl h2]
  refine congrArg (· * W (ix2 q (i 2))) ?_
  show _ = ∑ k : Fin 256, A (ix3 (i 0) (i 1) k) * X (ix3 (i 0) k q)
  exact Finset.sum_congr rfl fun k _ => by
    rw [hx0 (ix3 b r k) (ix3 (i 0) (i 1) k) h0 h1 rfl, hx1 (ix3 b k q) (ix3 (i 0) k q) h0 rfl rfl]

/-- WHAT POINT t WRITES BACK is block t of that function of the three input arrays: the stored value of the three input
    blocks at t, and the output's block at t sits at batches 16t … 16t + 15 like the first two. -/
theorem flushed26_eq (c : Dev nD) (t : Fin cfg26.N) :
    (dat26 (F := Ideal) V c).flushed 3 t
      = ((cfg26.win 3).blk t).view.read (Elt Ideal)
          ((fun i => ∑ q : Fin 256, bmul (V c (Pipeline.arrRef spec26 0) : Mat3 256 64 256) (V c (Pipeline.arrRef spec26 1) : Mat3 256 256 256) (ix3 (i 0) (i 1) q)
            * (V c (Pipeline.arrRef spec26 2) : Mat 256 256) (ix2 q (i 2))) : Mat3 256 64 256) := by
  show (cfg26.win 3).cut (grid26.coords t) ((dat26 V c).after 3 t) = _
  rw [after26_3]
  unfold out26
  rw [View.canon_unit_zero hz26]
  simp only [View.ld_unit_zero (S := S16x64x256) hz26, View.ld_unit_zero (S := S16x256x256) hz26, View.ld_unit_zero (S := S256x256) hzz26]
  obtain ⟨-, -, -, -, -, -, -, -, e0, e1, e2⟩ := idx26 t
  funext j
  refine pay26_block (V c (Pipeline.arrRef spec26 0)) (V c (Pipeline.arrRef spec26 1)) (V c (Pipeline.arrRef spec26 2))
    (iblk26 V c 0 t) (iblk26 V c 1 t) (iblk26 V c 2 t) t.val
    (iblk26_0_apply V c t) (iblk26_1_apply V c t) (iblk26_2_apply V c t) j (((cfg26.win 3).blk t).view.emb j) ?_ ?_ ?_
  · show win26_3.index t (0 : Fin 3) * 16 + 1 * (j 0).val = t.val * 16 + (j 0).val; omega
  · show win26_3.index t (1 : Fin 3) * 64 + 1 * (j 1).val = (j 1).val; omega
  · show win26_3.index t (2 : Fin 3) * 256 + 1 * (j 2).val = (j 2).val; omega

/-! ## The 16 blocks tile the output -/

/-- An index of the output array is in point t's block iff each coordinate is in the block's range on its axis. -/
theorem mem_blk26 (t : Fin cfg26.N) (i : S256x64x256.Idx) :
    i ∈ ((cfg26.win 3).blk t).view.set ↔ ∀ a : Fin 3, win26_3.index t a * S16x64x256.size a ≤ (i a).val ∧ (i a).val < win26_3.index t a * S16x64x256.size a + S16x64x256.size a := by
  show i ∈ ((View.whole main_v279).slice (win26_3.rect t)).set ↔ _
  rw [View.set_slice_whole, Rect.mem_set_unit]
  exact Iff.rfl

/-- Every index (b, r, c) of the output is in the block of point b / 16, which is written back. -/
theorem cover26_arr (i : S256x64x256.Idx) :
    ∃ t : Fin cfg26.N, (cfg26.win 3).flush t = true ∧ i ∈ ((cfg26.win 3).blk t).view.set := by
  have hi0 : (i 0).val < 256 := (i 0).isLt
  have hi1 : (i 1).val < 64 := (i 1).isLt
  have hi2 : (i 2).val < 256 := (i 2).isLt
  have hN : cfg26.N = 16 := N_26
  let t : Fin cfg26.N := ⟨(i 0).val / 16, by rw [hN]; omega⟩
  have ht : t.val = (i 0).val / 16 := rfl
  obtain ⟨-, -, -, -, -, -, -, -, e0, e1, e2⟩ := idx26 t
  refine ⟨t, flush26_3 t, ?_⟩
  rw [mem_blk26]
  intro a
  match a with
  | ⟨0, _⟩ => show win26_3.index t (0 : Fin 3) * 16 ≤ (i 0).val ∧ (i 0).val < win26_3.index t (0 : Fin 3) * 16 + 16; omega
  | ⟨1, _⟩ => show win26_3.index t (1 : Fin 3) * 64 ≤ (i 1).val ∧ (i 1).val < win26_3.index t (1 : Fin 3) * 64 + 64; omega
  | ⟨2, _⟩ => show win26_3.index t (2 : Fin 3) * 256 ≤ (i 2).val ∧ (i 2).val < win26_3.index t (2 : Fin 3) * 256 + 256; omega

/-- THE OUTPUT ARRAY AFTER REGION 26: entry (b, r, c) is the sum over q of (A_b · X_b)(r, q) · W (q, c), over the three input
    arrays as the region finds them. -/
theorem arrAt26 (c : Dev nD) :
    (dat26 (F := Ideal) V c).arrAt 3 cfg26.N
      = ((fun i => ∑ q : Fin 256, bmul (V c (Pipeline.arrRef spec26 0) : Mat3 256 64 256) (V c (Pipeline.arrRef spec26 1) : Mat3 256 256 256) (ix3 (i 0) (i 1) q)
          * (V c (Pipeline.arrRef spec26 2) : Mat 256 256) (ix2 q (i 2))) : Mat3 256 64 256) :=
  (dat26 (F := Ideal) V c).arrAt_eq_of_cover 3 _ (fun t _ => flushed26_eq V c t) cover26_arr

end Cert.KernelIdeal.Val

end
-- ==== Proof.KI.ValSelf27.lean ====
/- Region 27, the self update: the output array after the region is ONE function of the four arrays the region reads,
   index by index —  max (X · W + b + U, 0)  with X the [32768,256] features, W the [256,256] weights, b the [1,256] bias row
   added to every row, U the [32768,256] added term. The grid's 16 points each own 2048 consecutive rows: point t reads
   rows 2048·t … 2048·t + 2047 of X and U and all of W and b, and writes those rows of the result. -/
import proofs.«101828_j11562051961417_2_alg».proof.Proof.KI.Region27
import proofs.«101828_j11562051961417_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat)
open Cert.Spec (Mat)

/-! ## The contraction of the body's matrix product, axis by axis -/

theorem lhs27_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs27_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs27_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs27_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's matrix product into the zero accumulator, at an entry: the row of the left block against the column of
    the right one. -/
theorem matmul27_apply (l : FVec Ideal S2048x256 .bf16) (r : FVec Ideal S256x256 .bf16) (p : Fin 2048) (q : Fin 256) :
    FloatOps.matmul dot_S2048x256_S256x256_S2048x256_1_0_0_1_n_n none l r (constant (F := Ideal) S2048x256 .f32 0x00000000#32) (ix2 p q)
      = ∑ k : Fin 256, l (ix2 p k) * r (ix2 k q) := by
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs27_0 _ _
    | ⟨1, _⟩ => exact (lhs27_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs27_0 _ _).trans hk
    | ⟨1, _⟩ => exact rhs27_1 _ _)
  rw [el, er]

/-- The body's value at an entry of its block. -/
theorem pay27_apply (x0 : Vec Ideal S2048x256 .f32) (x1 : Vec Ideal S256x256 .f32) (x2 : Vec Ideal S1x256 .f32) (x3 : Vec Ideal S2048x256 .f32)
    (p : Fin 2048) (q : Fin 256) :
    k27_pay1 (F := Ideal) x0 x1 x2 x3 (ix2 p q)
      = max ((∑ k : Fin 256, x0 (ix2 p k) * x1 (ix2 k q)) + x2 (ix2 (0 : Fin 1) q) + x3 (ix2 p q)) 0 := by
  unfold k27_pay1
  simp only [shapeCast_self]
  show max ((matmul dot_S2048x256_S256x256_S2048x256_1_0_0_1_n_n none (truncf .bf16 x0 bitsLt_bf16_f32) (truncf .bf16 x1 bitsLt_bf16_f32) (constant (F := Ideal) S2048x256 .f32 0x00000000#32) (ix2 p q)) + broadcastTo S2048x256 x2 broadcasts_S1x256_S2048x256 (ix2 p q) + x3 (ix2 p q)) (Ideal.ofBits .f32 0x00000000#32) = _
  rw [Ideal.ofBits_zero_f32, broadcastTo_1b_ab_apply]
  exact congrArg (fun s => max (s + x2 (ix2 (0 : Fin 1) q) + x3 (ix2 p q)) 0) (matmul27_apply _ _ p q)

/-! ## The output block after the body, at an entry -/

theorem zero27 : (![0, 0] : Fin 2 → Nat) = fun _ => 0 := funext fun a => by fin_cases a <;> rfl

/-- The output block after the body is the body's value of the four input blocks: at entry (p, q), row p of the features'
    block against column q of the weights, plus the bias at q, plus the added term's entry, rectified. -/
theorem out27_apply (x0 : Vec Ideal S2048x256 .f32) (x1 : Vec Ideal S256x256 .f32) (x2 : Vec Ideal S1x256 .f32) (x3 : Vec Ideal S2048x256 .f32)
    (p : Fin 2048) (q : Fin 256) :
    out27 (F := Ideal) x0 x1 x2 x3 (ix2 p q)
      = max ((∑ k : Fin 256, x0 (ix2 p k) * x1 (ix2 k q)) + x2 (ix2 (0 : Fin 1) q) + x3 (ix2 p q)) 0 := by
  unfold out27
  rw [View.canon_unit_zero zero27]
  simp only [View.ld_unit_zero (S := S2048x256) zero27, View.ld_unit_zero (S := S256x256) zero27, View.ld_unit_zero (S := S1x256) zero27]
  exact pay27_apply x0 x1 x2 x3 p q

/-! ## The blocks, as parts of the arrays -/

variable (V : (c : Dev nD) → (b : Ref sig .tc) → Buf (Elt Ideal) ((c : Thread nD τ).loc b))

/-- The printed index maps over the grid: the features', the added term's and the output's block at point t is block t
    of rows; the weights and the bias row are one block. -/
theorem idx27 : ∀ t : Fin cfg27.N, win27_0.index t (0 : Fin 2) = t.val ∧ win27_0.index t (1 : Fin 2) = 0
    ∧ win27_1.index t (0 : Fin 2) = 0 ∧ win27_1.index t (1 : Fin 2) = 0
    ∧ win27_2.index t (0 : Fin 2) = 0 ∧ win27_2.index t (1 : Fin 2) = 0
    ∧ win27_3.index t (0 : Fin 2) = t.val ∧ win27_3.index t (1 : Fin 2) = 0
    ∧ win27_4.index t (0 : Fin 2) = t.val ∧ win27_4.index t (1 : Fin 2) = 0 :=
  (by decide +kernel : ∀ t : Fin grid27.N, _)

/-- Entry (p, k) of the features' block at point t is entry (2048·t + p, k) of the features. -/
theorem iblk27_0_apply (c : Dev nD) (t : Fin cfg27.N) (p : Fin 2048) (k : Fin 256) (r : Fin 32768) (hr : r.val = t.val * 2048 + p.val) :
    (iblk27 V c 0 t : Vec Ideal S2048x256 .f32) (ix2 p k) = (V c (Pipeline.arrRef spec27 0) : Mat 32768 256) (ix2 r k) := by
  obtain ⟨e0, e1, -⟩ := idx27 t
  unfold iblk27
  rw [View.read_apply]
  refine congrArg (V c (Pipeline.arrRef spec27 0) : Mat 32768 256) (funext fun a => Fin.ext ?_)
  match a with
  | ⟨0, _⟩ => show win27_0.index t (0 : Fin 2) * 2048 + 1 * p.val = r.val; omega
  | ⟨1, _⟩ => show win27_0.index t (1 : Fin 2) * 256 + 1 * k.val = k.val; omega

/-- The weights' block at every point is the weights. -/
theorem iblk27_1_apply (c : Dev nD) (t : Fin cfg27.N) (k q : Fin 256) :
    (iblk27 V c 1 t : Vec Ideal S256x256 .f32) (ix2 k q) = (V c (Pipeline.arrRef spec27 1) : Mat 256 256) (ix2 k q) := by
  obtain ⟨-, -, e0, e1, -⟩ := idx27 t
  unfold iblk27
  rw [View.read_apply]
  refine congrArg (V c (Pipeline.arrRef spec27 1) : Mat 256 256) (funext fun a => Fin.ext ?_)
  match a with
  | ⟨0, _⟩ => show win27_1.index t (0 : Fin 2) * 256 + 1 * k.val = k.val; omega
  | ⟨1, _⟩ => show win27_1.index t (1 : Fin 2) * 256 + 1 * q.val = q.val; omega

/-- The bias row's block at every point is the bias row. -/
theorem iblk27_2_apply (c : Dev nD) (t : Fin cfg27.N) (z : Fin 1) (q : Fin 256) :
    (iblk27 V c 2 t : Vec Ideal S1x256 .f32) (ix2 z q) = (V c (Pipeline.arrRef spec27 2) : Mat 1 256) (ix2 z q) := by
  obtain ⟨-, -, -, -, e0, e1, -⟩ := idx27 t
  unfold iblk27
  rw [View.read_apply]
  refine congrArg (V c (Pipeline.arrRef spec27 2) : Mat 1 256) (funext fun a => Fin.ext ?_)
  match a with
  | ⟨0, _⟩ => show win27_2.index t (0 : Fin 2) * 1 + 1 * z.val = z.val; omega
  | ⟨1, _⟩ => show win27_2.index t (1 : Fin 2) * 256 + 1 * q.val = q.val; omega

/-- Entry (p, q) of the added term's block at point t is entry (2048·t + p, q) of the added term. -/
theorem iblk27_3_apply (c : Dev nD) (t : Fin cfg27.N) (p : Fin 2048) (q : Fin 256) (r : Fin 32768) (hr : r.val = t.val * 2048 + p.val) :
    (iblk27 V c 3 t : Vec Ideal S2048x256 .f32) (ix2 p q) = (V c (Pipeline.arrRef spec27 3) : Mat 32768 256) (ix2 r q) := by
  obtain ⟨-, -, -, -, -, -, e0, e1, -⟩ := idx27 t
  unfold iblk27
  rw [View.read_apply]
  refine congrArg (V c (Pipeline.arrRef spec27 3) : Mat 32768 256) (funext fun a => Fin.ext ?_)
  match a with
  | ⟨0, _⟩ => show win27_3.index t (0 : Fin 2) * 2048 + 1 * p.val = r.val; omega
  | ⟨1, _⟩ => show win27_3.index t (1 : Fin 2) * 256 + 1 * q.val = q.val; omega

/-! ## What each point writes back, and the array after the region -/

/-- The self update of the region's four input arrays, entry by entry. -/
abbrev selfUpdate27 (c : Dev nD) : Mat 32768 256 := fun i =>
  max (Cert.Spec.mul (V c (Pipeline.arrRef spec27 0) : Mat 32768 256) (V c (Pipeline.arrRef spec27 1) : Mat 256 256) i
      + (V c (Pipeline.arrRef spec27 2) : Mat 1 256) (ix2 (0 : Fin 1) (i 1)) + (V c (Pipeline.arrRef spec27 3) : Mat 32768 256) i) 0

/-- What point t writes back is its block of rows of the self update. -/
theorem flushed27_eq (c : Dev nD) (t : Fin cfg27.N) :
    (dat27 V c).flushed 4 t = ((cfg27.win 4).blk t).view.read (Elt Ideal) (selfUpdate27 V c) := by
  show (cfg27.win 4).cut (grid27.coords t) ((dat27 V c).after 4 t) = _
  rw [after27_4]
  funext y
  have hy0 : (y 0).val < 2048 := (y 0).isLt
  have hy1 : (y 1).val < 256 := (y 1).isLt
  have hN : t.val < 16 := lt_of_lt_of_eq t.isLt N_27
  obtain ⟨-, -, -, -, -, -, -, -, e0, e1⟩ := idx27 t
  have hx : (cfg27.win 4).xinj (grid27.coords t) y = ix2 (⟨(y 0).val, hy0⟩ : Fin 2048) (⟨(y 1).val, hy1⟩ : Fin 256) :=
    funext fun a => Fin.ext (by match a with | ⟨0, _⟩ => rfl | ⟨1, _⟩ => rfl)
  have he : ((cfg27.win 4).blk t).view.emb y
      = ix2 (⟨t.val * 2048 + (y 0).val, by omega⟩ : Fin 32768) (⟨(y 1).val, hy1⟩ : Fin 256) :=
    funext fun a => Fin.ext (by
      match a with
      | ⟨0, _⟩ => show win27_4.index t (0 : Fin 2) * 2048 + 1 * (y 0).val = t.val * 2048 + (y 0).val; omega
      | ⟨1, _⟩ => show win27_4.index t (1 : Fin 2) * 256 + 1 * (y 1).val = (y 1).val; omega)
  show out27 (F := Ideal) (iblk27 V c 0 t) (iblk27 V c 1 t) (iblk27 V c 2 t) (iblk27 V c 3 t) ((cfg27.win 4).xinj (grid27.coords t) y)
    = selfUpdate27 V c (((cfg27.win 4).blk t).view.emb y)
  rw [hx, he]
  refine (out27_apply (iblk27 V c 0 t) (iblk27 V c 1 t) (iblk27 V c 2 t) (iblk27 V c 3 t) ⟨(y 0).val, hy0⟩ ⟨(y 1).val, hy1⟩).trans ?_
  have h0 := fun k : Fin 256 => iblk27_0_apply V c t ⟨(y 0).val, hy0⟩ k ⟨t.val * 2048 + (y 0).val, by omega⟩ rfl
  have h1 := fun k : Fin 256 => iblk27_1_apply V c t k ⟨(y 1).val, hy1⟩
  have h2 := iblk27_2_apply V c t 0 ⟨(y 1).val, hy1⟩
  have h3 := iblk27_3_apply V c t ⟨(y 0).val, hy0⟩ ⟨(y 1).val, hy1⟩ ⟨t.val * 2048 + (y 0).val, by omega⟩ rfl
  simp only [h0, h1, h2, h3]
  rfl

/-- An index of the array is in point t's block iff each coordinate is in the block's range on its axis. -/
theorem mem_blk27 (t : Fin cfg27.N) (i : S32768x256.Idx) :
    i ∈ ((cfg27.win 4).blk t).view.set ↔ ∀ a : Fin 2, win27_4.index t a * S2048x256.size a ≤ (i a).val ∧ (i a).val < win27_4.index t a * S2048x256.size a + S2048x256.size a := by
  show i ∈ ((View.whole main_v286).slice (win27_4.rect t)).set ↔ _
  rw [View.set_slice_whole, Rect.mem_set_unit]
  exact Iff.rfl

/-- THE ARRAY AFTER THE REGION: the 16 blocks of 2048 rows tile the 32768 rows (row r is in block r / 2048), so the
    output array ends holding the self update of the four input arrays. -/
theorem arrAt27 (c : Dev nD) :
    (dat27 (F := Ideal) V c).arrAt 4 cfg27.N = fun i =>
      max (Cert.Spec.mul (V c (Pipeline.arrRef spec27 0) : Mat 32768 256) (V c (Pipeline.arrRef spec27 1) : Mat 256 256) i
          + (V c (Pipeline.arrRef spec27 2) : Mat 1 256) (ix2 (0 : Fin 1) (i 1)) + (V c (Pipeline.arrRef spec27 3) : Mat 32768 256) i) 0 :=
  (dat27 V c).arrAt_eq_of_cover 4 (selfUpdate27 V c) (fun t _ => flushed27_eq V c t) fun i => by
    have hi0 : (i 0).val < 32768 := (i 0).isLt
    have hi1 : (i 1).val < 256 := (i 1).isLt
    have hN : cfg27.N = 16 := N_27
    obtain ⟨-, -, -, -, -, -, -, -, e0, e1⟩ := idx27 ⟨(i 0).val / 2048, by rw [hN]; omega⟩
    refine ⟨⟨(i 0).val / 2048, by rw [hN]; omega⟩, flush27_4 _, ?_⟩
    rw [mem_blk27]
    intro a
    match a with
    | ⟨0, _⟩ =>
      show win27_4.index ⟨(i 0).val / 2048, _⟩ (0 : Fin 2) * 2048 ≤ (i 0).val ∧ (i 0).val < win27_4.index ⟨(i 0).val / 2048, _⟩ (0 : Fin 2) * 2048 + 2048
      rw [e0]; show (i 0).val / 2048 * 2048 ≤ (i 0).val ∧ (i 0).val < (i 0).val / 2048 * 2048 + 2048; omega
    | ⟨1, _⟩ =>
      show win27_4.index ⟨(i 0).val / 2048, _⟩ (1 : Fin 2) * 256 ≤ (i 1).val ∧ (i 1).val < win27_4.index ⟨(i 0).val / 2048, _⟩ (1 : Fin 2) * 256 + 256
      rw [e1]; omega

end Cert.KernelIdeal.Val

end
-- ==== Proof.KI.ValSelf28.lean ====
/- Region 28, the self update with two added terms: the output array after the region is ONE function of the five arrays
   the region reads, index by index —  max (X · W + b + U₁ + U₂, 0)  with X the [65536,256] features, W the [256,256]
   weights, b the [1,256] bias row added to every row, U₁ and U₂ the two [65536,256] added terms, added in that order. The
   grid's 32 points each own 2048 consecutive rows: point t reads rows 2048·t … 2048·t + 2047 of X, U₁ and U₂ and
   all of W and b, and writes those rows of the result. -/
import proofs.«101828_j11562051961417_2_alg».proof.Proof.KI.Region28
import proofs.«101828_j11562051961417_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat)
open Cert.Spec (Mat)

/-! ## The contraction of the body's matrix product, axis by axis -/

theorem lhs28_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs28_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs28_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs28_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's matrix product into the zero accumulator, at an entry: the row of the left block against the column of
    the right one. -/
theorem matmul28_apply (l : FVec Ideal S2048x256 .bf16) (r : FVec Ideal S256x256 .bf16) (p : Fin 2048) (q : Fin 256) :
    FloatOps.matmul dot_S2048x256_S256x256_S2048x256_1_0_0_1_n_n none l r (constant (F := Ideal) S2048x256 .f32 0x00000000#32) (ix2 p q)
      = ∑ k : Fin 256, l (ix2 p k) * r (ix2 k q) := by
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs28_0 _ _
    | ⟨1, _⟩ => exact (lhs28_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs28_0 _ _).trans hk
    | ⟨1, _⟩ => exact rhs28_1 _ _)
  rw [el, er]

/-- The body's value at an entry of its block. -/
theorem pay28_apply (x0 : Vec Ideal S2048x256 .f32) (x1 : Vec Ideal S256x256 .f32) (x2 : Vec Ideal S1x256 .f32) (x3 : Vec Ideal S2048x256 .f32)
    (x4 : Vec Ideal S2048x256 .f32) (p : Fin 2048) (q : Fin 256) :
    k28_pay1 (F := Ideal) x0 x1 x2 x3 x4 (ix2 p q)
      = max ((∑ k : Fin 256, x0 (ix2 p k) * x1 (ix2 k q)) + x2 (ix2 (0 : Fin 1) q) + x3 (ix2 p q) + x4 (ix2 p q)) 0 := by
  unfold k28_pay1
  simp only [shapeCast_self]
  show max ((matmul dot_S2048x256_S256x256_S2048x256_1_0_0_1_n_n none (truncf .bf16 x0 bitsLt_bf16_f32) (truncf .bf16 x1 bitsLt_bf16_f32) (constant (F := Ideal) S2048x256 .f32 0x00000000#32) (ix2 p q)) + broadcastTo S2048x256 x2 broadcasts_S1x256_S2048x256 (ix2 p q) + x3 (ix2 p q) + x4 (ix2 p q)) (Ideal.ofBits .f32 0x00000000#32) = _
  rw [Ideal.ofBits_zero_f32, broadcastTo_1b_ab_apply]
  exact congrArg (fun s => max (s + x2 (ix2 (0 : Fin 1) q) + x3 (ix2 p q) + x4 (ix2 p q)) 0) (matmul28_apply _ _ p q)

/-! ## The output block after the body, at an entry -/

theorem zero28 : (![0, 0] : Fin 2 → Nat) = fun _ => 0 := funext fun a => by fin_cases a <;> rfl

/-- The output block after the body is the body's value of the five input blocks: at entry (p, q), row p of the features'
    block against column q of the weights, plus the bias at q, plus the two added terms' entries in order, rectified. -/
theorem out28_apply (x0 : Vec Ideal S2048x256 .f32) (x1 : Vec Ideal S256x256 .f32) (x2 : Vec Ideal S1x256 .f32) (x3 : Vec Ideal S2048x256 .f32)
    (x4 : Vec Ideal S2048x256 .f32) (p : Fin 2048) (q : Fin 256) :
    out28 (F := Ideal) x0 x1 x2 x3 x4 (ix2 p q)
      = max ((∑ k : Fin 256, x0 (ix2 p k) * x1 (ix2 k q)) + x2 (ix2 (0 : Fin 1) q) + x3 (ix2 p q) + x4 (ix2 p q)) 0 := by
  unfold out28
  rw [View.canon_unit_zero zero28]
  simp only [View.ld_unit_zero (S := S2048x256) zero28, View.ld_unit_zero (S := S256x256) zero28, View.ld_unit_zero (S := S1x256) zero28]
  exact pay28_apply x0 x1 x2 x3 x4 p q

/-! ## The blocks, as parts of the arrays -/

variable (V : (c : Dev nD) → (b : Ref sig .tc) → Buf (Elt Ideal) ((c : Thread nD τ).loc b))

/-- The printed index maps over the grid: the features', the two added terms' and the output's block at point t is
    block t of rows; the weights and the bias row are one block. -/
theorem idx28 : ∀ t : Fin cfg28.N, win28_0.index t (0 : Fin 2) = t.val ∧ win28_0.index t (1 : Fin 2) = 0
    ∧ win28_1.index t (0 : Fin 2) = 0 ∧ win28_1.index t (1 : Fin 2) = 0
    ∧ win28_2.index t (0 : Fin 2) = 0 ∧ win28_2.index t (1 : Fin 2) = 0
    ∧ win28_3.index t (0 : Fin 2) = t.val ∧ win28_3.index t (1 : Fin 2) = 0
    ∧ win28_4.index t (0 : Fin 2) = t.val ∧ win28_4.index t (1 : Fin 2) = 0
    ∧ win28_5.index t (0 : Fin 2) = t.val ∧ win28_5.index t (1 : Fin 2) = 0 :=
  (by decide +kernel : ∀ t : Fin grid28.N, _)

/-- Entry (p, k) of the features' block at point t is entry (2048·t + p, k) of the features. -/
theorem iblk28_0_apply (c : Dev nD) (t : Fin cfg28.N) (p : Fin 2048) (k : Fin 256) (r : Fin 65536) (hr : r.val = t.val * 2048 + p.val) :
    (iblk28 V c 0 t : Vec Ideal S2048x256 .f32) (ix2 p k) = (V c (Pipeline.arrRef spec28 0) : Mat 65536 256) (ix2 r k) := by
  obtain ⟨e0, e1, -⟩ := idx28 t
  unfold iblk28
  rw [View.read_apply]
  refine congrArg (V c (Pipeline.arrRef spec28 0) : Mat 65536 256) (funext fun a => Fin.ext ?_)
  match a with
  | ⟨0, _⟩ => show win28_0.index t (0 : Fin 2) * 2048 + 1 * p.val = r.val; omega
  | ⟨1, _⟩ => show win28_0.index t (1 : Fin 2) * 256 + 1 * k.val = k.val; omega

/-- The weights' block at every point is the weights. -/
theorem iblk28_1_apply (c : Dev nD) (t : Fin cfg28.N) (k q : Fin 256) :
    (iblk28 V c 1 t : Vec Ideal S256x256 .f32) (ix2 k q) = (V c (Pipeline.arrRef spec28 1) : Mat 256 256) (ix2 k q) := by
  obtain ⟨-, -, e0, e1, -⟩ := idx28 t
  unfold iblk28
  rw [View.read_apply]
  refine congrArg (V c (Pipeline.arrRef spec28 1) : Mat 256 256) (funext fun a => Fin.ext ?_)
  match a with
  | ⟨0, _⟩ => show win28_1.index t (0 : Fin 2) * 256 + 1 * k.val = k.val; omega
  | ⟨1, _⟩ => show win28_1.index t (1 : Fin 2) * 256 + 1 * q.val = q.val; omega

/-- The bias row's block at every point is the bias row. -/
theorem iblk28_2_apply (c : Dev nD) (t : Fin cfg28.N) (z : Fin 1) (q : Fin 256) :
    (iblk28 V c 2 t : Vec Ideal S1x256 .f32) (ix2 z q) = (V c (Pipeline.arrRef spec28 2) : Mat 1 256) (ix2 z q) := by
  obtain ⟨-, -, -, -, e0, e1, -⟩ := idx28 t
  unfold iblk28
  rw [View.read_apply]
  refine congrArg (V c (Pipeline.arrRef spec28 2) : Mat 1 256) (funext fun a => Fin.ext ?_)
  match a with
  | ⟨0, _⟩ => show win28_2.index t (0 : Fin 2) * 1 + 1 * z.val = z.val; omega
  | ⟨1, _⟩ => show win28_2.index t (1 : Fin 2) * 256 + 1 * q.val = q.val; omega

/-- Entry (p, q) of the first added term's block at point t is entry (2048·t + p, q) of the first added term. -/
theorem iblk28_3_apply (c : Dev nD) (t : Fin cfg28.N) (p : Fin 2048) (q : Fin 256) (r : Fin 65536) (hr : r.val = t.val * 2048 + p.val) :
    (iblk28 V c 3 t : Vec Ideal S2048x256 .f32) (ix2 p q) = (V c (Pipeline.arrRef spec28 3) : Mat 65536 256) (ix2 r q) := by
  obtain ⟨-, -, -, -, -, -, e0, e1, -⟩ := idx28 t
  unfold iblk28
  rw [View.read_apply]
  refine congrArg (V c (Pipeline.arrRef spec28 3) : Mat 65536 256) (funext fun a => Fin.ext ?_)
  match a with
  | ⟨0, _⟩ => show win28_3.index t (0 : Fin 2) * 2048 + 1 * p.val = r.val; omega
  | ⟨1, _⟩ => show win28_3.index t (1 : Fin 2) * 256 + 1 * q.val = q.val; omega

/-- Entry (p, q) of the second added term's block at point t is entry (2048·t + p, q) of the second added term. -/
theorem iblk28_4_apply (c : Dev nD) (t : Fin cfg28.N) (p : Fin 2048) (q : Fin 256) (r : Fin 65536) (hr : r.val = t.val * 2048 + p.val) :
    (iblk28 V c 4 t : Vec Ideal S2048x256 .f32) (ix2 p q) = (V c (Pipeline.arrRef spec28 4) : Mat 65536 256) (ix2 r q) := by
  obtain ⟨-, -, -, -, -, -, -, -, e0, e1, -⟩ := idx28 t
  unfold iblk28
  rw [View.read_apply]
  refine congrArg (V c (Pipeline.arrRef spec28 4) : Mat 65536 256) (funext fun a => Fin.ext ?_)
  match a with
  | ⟨0, _⟩ => show win28_4.index t (0 : Fin 2) * 2048 + 1 * p.val = r.val; omega
  | ⟨1, _⟩ => show win28_4.index t (1 : Fin 2) * 256 + 1 * q.val = q.val; omega

/-! ## What each point writes back, and the array after the region -/

/-- The self update of the region's five input arrays, entry by entry. -/
abbrev selfUpdate28 (c : Dev nD) : Mat 65536 256 := fun i =>
  max (Cert.Spec.mul (V c (Pipeline.arrRef spec28 0) : Mat 65536 256) (V c (Pipeline.arrRef spec28 1) : Mat 256 256) i
      + (V c (Pipeline.arrRef spec28 2) : Mat 1 256) (ix2 (0 : Fin 1) (i 1)) + (V c (Pipeline.arrRef spec28 3) : Mat 65536 256) i
      + (V c (Pipeline.arrRef spec28 4) : Mat 65536 256) i) 0

/-- What point t writes back is its block of rows of the self update. -/
theorem flushed28_eq (c : Dev nD) (t : Fin cfg28.N) :
    (dat28 V c).flushed 5 t = ((cfg28.win 5).blk t).view.read (Elt Ideal) (selfUpdate28 V c) := by
  show (cfg28.win 5).cut (grid28.coords t) ((dat28 V c).after 5 t) = _
  rw [after28_5]
  funext y
  have hy0 : (y 0).val < 2048 := (y 0).isLt
  have hy1 : (y 1).val < 256 := (y 1).isLt
  have hN : t.val < 32 := lt_of_lt_of_eq t.isLt N_28
  obtain ⟨-, -, -, -, -, -, -, -, -, -, e0, e1⟩ := idx28 t
  have hx : (cfg28.win 5).xinj (grid28.coords t) y = ix2 (⟨(y 0).val, hy0⟩ : Fin 2048) (⟨(y 1).val, hy1⟩ : Fin 256) :=
    funext fun a => Fin.ext (by match a with | ⟨0, _⟩ => rfl | ⟨1, _⟩ => rfl)
  have he : ((cfg28.win 5).blk t).view.emb y
      = ix2 (⟨t.val * 2048 + (y 0).val, by omega⟩ : Fin 65536) (⟨(y 1).val, hy1⟩ : Fin 256) :=
    funext fun a => Fin.ext (by
      match a with
      | ⟨0, _⟩ => show win28_5.index t (0 : Fin 2) * 2048 + 1 * (y 0).val = t.val * 2048 + (y 0).val; omega
      | ⟨1, _⟩ => show win28_5.index t (1 : Fin 2) * 256 + 1 * (y 1).val = (y 1).val; omega)
  show out28 (F := Ideal) (iblk28 V c 0 t) (iblk28 V c 1 t) (iblk28 V c 2 t) (iblk28 V c 3 t) (iblk28 V c 4 t) ((cfg28.win 5).xinj (grid28.coords t) y)
    = selfUpdate28 V c (((cfg28.win 5).blk t).view.emb y)
  rw [hx, he]
  refine (out28_apply (iblk28 V c 0 t) (iblk28 V c 1 t) (iblk28 V c 2 t) (iblk28 V c 3 t) (iblk28 V c 4 t) ⟨(y 0).val, hy0⟩ ⟨(y 1).val, hy1⟩).trans ?_
  have h0 := fun k : Fin 256 => iblk28_0_apply V c t ⟨(y 0).val, hy0⟩ k ⟨t.val * 2048 + (y 0).val, by omega⟩ rfl
  have h1 := fun k : Fin 256 => iblk28_1_apply V c t k ⟨(y 1).val, hy1⟩
  have h2 := iblk28_2_apply V c t 0 ⟨(y 1).val, hy1⟩
  have h3 := iblk28_3_apply V c t ⟨(y 0).val, hy0⟩ ⟨(y 1).val, hy1⟩ ⟨t.val * 2048 + (y 0).val, by omega⟩ rfl
  have h4 := iblk28_4_apply V c t ⟨(y 0).val, hy0⟩ ⟨(y 1).val, hy1⟩ ⟨t.val * 2048 + (y 0).val, by omega⟩ rfl
  simp only [h0, h1, h2, h3, h4]
  rfl

/-- An index of the array is in point t's block iff each coordinate is in the block's range on its axis. -/
theorem mem_blk28 (t : Fin cfg28.N) (i : S65536x256.Idx) :
    i ∈ ((cfg28.win 5).blk t).view.set ↔ ∀ a : Fin 2, win28_5.index t a * S2048x256.size a ≤ (i a).val ∧ (i a).val < win28_5.index t a * S2048x256.size a + S2048x256.size a := by
  show i ∈ ((View.whole main_v292).slice (win28_5.rect t)).set ↔ _
  rw [View.set_slice_whole, Rect.mem_set_unit]
  exact Iff.rfl

/-- THE ARRAY AFTER THE REGION: the 32 blocks of 2048 rows tile the 65536 rows (row r is in block r / 2048), so
    the output array ends holding the self update of the five input arrays. -/
theorem arrAt28 (c : Dev nD) :
    (dat28 (F := Ideal) V c).arrAt 5 cfg28.N = fun i =>
      max (Cert.Spec.mul (V c (Pipeline.arrRef spec28 0) : Mat 65536 256) (V c (Pipeline.arrRef spec28 1) : Mat 256 256) i
          + (V c (Pipeline.arrRef spec28 2) : Mat 1 256) (ix2 (0 : Fin 1) (i 1)) + (V c (Pipeline.arrRef spec28 3) : Mat 65536 256) i
          + (V c (Pipeline.arrRef spec28 4) : Mat 65536 256) i) 0 :=
  (dat28 V c).arrAt_eq_of_cover 5 (selfUpdate28 V c) (fun t _ => flushed28_eq V c t) fun i => by
    have hi0 : (i 0).val < 65536 := (i 0).isLt
    have hi1 : (i 1).val < 256 := (i 1).isLt
    have hN : cfg28.N = 32 := N_28
    obtain ⟨-, -, -, -, -, -, -, -, -, -, e0, e1⟩ := idx28 ⟨(i 0).val / 2048, by rw [hN]; omega⟩
    refine ⟨⟨(i 0).val / 2048, by rw [hN]; omega⟩, flush28_5 _, ?_⟩
    rw [mem_blk28]
    intro a
    match a with
    | ⟨0, _⟩ =>
      show win28_5.index ⟨(i 0).val / 2048, _⟩ (0 : Fin 2) * 2048 ≤ (i 0).val ∧ (i 0).val < win28_5.index ⟨(i 0).val / 2048, _⟩ (0 : Fin 2) * 2048 + 2048
      rw [e0]; show (i 0).val / 2048 * 2048 ≤ (i 0).val ∧ (i 0).val < (i 0).val / 2048 * 2048 + 2048; omega
    | ⟨1, _⟩ =>
      show win28_5.index ⟨(i 0).val / 2048, _⟩ (1 : Fin 2) * 256 ≤ (i 1).val ∧ (i 1).val < win28_5.index ⟨(i 0).val / 2048, _⟩ (1 : Fin 2) * 256 + 256
      rw [e1]; omega

end Cert.KernelIdeal.Val

end
-- ==== Proof.KI.ValSelf29.lean ====
/- Region 29, the self update: the output array after the region is ONE function of the four arrays the region reads,
   index by index —  max (X · W + b + U, 0)  with X the [16384,256] features, W the [256,256] weights, b the [1,256] bias row
   added to every row, U the [16384,256] added term. The grid's 8 points each own 2048 consecutive rows: point t reads
   rows 2048·t … 2048·t + 2047 of X and U and all of W and b, and writes those rows of the result. -/
import proofs.«101828_j11562051961417_2_alg».proof.Proof.KI.Region29
import proofs.«101828_j11562051961417_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat)
open Cert.Spec (Mat)

/-! ## The contraction of the body's matrix product, axis by axis -/

theorem lhs29_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs29_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs29_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs29_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's matrix product into the zero accumulator, at an entry: the row of the left block against the column of
    the right one. -/
theorem matmul29_apply (l : FVec Ideal S2048x256 .bf16) (r : FVec Ideal S256x256 .bf16) (p : Fin 2048) (q : Fin 256) :
    FloatOps.matmul dot_S2048x256_S256x256_S2048x256_1_0_0_1_n_n none l r (constant (F := Ideal) S2048x256 .f32 0x00000000#32) (ix2 p q)
      = ∑ k : Fin 256, l (ix2 p k) * r (ix2 k q) := by
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs29_0 _ _
    | ⟨1, _⟩ => exact (lhs29_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs29_0 _ _).trans hk
    | ⟨1, _⟩ => exact rhs29_1 _ _)
  rw [el, er]

/-- The body's value at an entry of its block. -/
theorem pay29_apply (x0 : Vec Ideal S2048x256 .f32) (x1 : Vec Ideal S256x256 .f32) (x2 : Vec Ideal S1x256 .f32) (x3 : Vec Ideal S2048x256 .f32)
    (p : Fin 2048) (q : Fin 256) :
    k29_pay1 (F := Ideal) x0 x1 x2 x3 (ix2 p q)
      = max ((∑ k : Fin 256, x0 (ix2 p k) * x1 (ix2 k q)) + x2 (ix2 (0 : Fin 1) q) + x3 (ix2 p q)) 0 := by
  unfold k29_pay1
  simp only [shapeCast_self]
  show max ((matmul dot_S2048x256_S256x256_S2048x256_1_0_0_1_n_n none (truncf .bf16 x0 bitsLt_bf16_f32) (truncf .bf16 x1 bitsLt_bf16_f32) (constant (F := Ideal) S2048x256 .f32 0x00000000#32) (ix2 p q)) + broadcastTo S2048x256 x2 broadcasts_S1x256_S2048x256 (ix2 p q) + x3 (ix2 p q)) (Ideal.ofBits .f32 0x00000000#32) = _
  rw [Ideal.ofBits_zero_f32, broadcastTo_1b_ab_apply]
  exact congrArg (fun s => max (s + x2 (ix2 (0 : Fin 1) q) + x3 (ix2 p q)) 0) (matmul29_apply _ _ p q)

/-! ## The output block after the body, at an entry -/

theorem zero29 : (![0, 0] : Fin 2 → Nat) = fun _ => 0 := funext fun a => by fin_cases a <;> rfl

/-- The output block after the body is the body's value of the four input blocks: at entry (p, q), row p of the features'
    block against column q of the weights, plus the bias at q, plus the added term's entry, rectified. -/
theorem out29_apply (x0 : Vec Ideal S2048x256 .f32) (x1 : Vec Ideal S256x256 .f32) (x2 : Vec Ideal S1x256 .f32) (x3 : Vec Ideal S2048x256 .f32)
    (p : Fin 2048) (q : Fin 256) :
    out29 (F := Ideal) x0 x1 x2 x3 (ix2 p q)
      = max ((∑ k : Fin 256, x0 (ix2 p k) * x1 (ix2 k q)) + x2 (ix2 (0 : Fin 1) q) + x3 (ix2 p q)) 0 := by
  unfold out29
  rw [View.canon_unit_zero zero29]
  simp only [View.ld_unit_zero (S := S2048x256) zero29, View.ld_unit_zero (S := S256x256) zero29, View.ld_unit_zero (S := S1x256) zero29]
  exact pay29_apply x0 x1 x2 x3 p q

/-! ## The blocks, as parts of the arrays -/

variable (V : (c : Dev nD) → (b : Ref sig .tc) → Buf (Elt Ideal) ((c : Thread nD τ).loc b))

/-- The printed index maps over the grid: the features', the added term's and the output's block at point t is block t
    of rows; the weights and the bias row are one block. -/
theorem idx29 : ∀ t : Fin cfg29.N, win29_0.index t (0 : Fin 2) = t.val ∧ win29_0.index t (1 : Fin 2) = 0
    ∧ win29_1.index t (0 : Fin 2) = 0 ∧ win29_1.index t (1 : Fin 2) = 0
    ∧ win29_2.index t (0 : Fin 2) = 0 ∧ win29_2.index t (1 : Fin 2) = 0
    ∧ win29_3.index t (0 : Fin 2) = t.val ∧ win29_3.index t (1 : Fin 2) = 0
    ∧ win29_4.index t (0 : Fin 2) = t.val ∧ win29_4.index t (1 : Fin 2) = 0 :=
  (by decide +kernel : ∀ t : Fin grid29.N, _)

/-- Entry (p, k) of the features' block at point t is entry (2048·t + p, k) of the features. -/
theorem iblk29_0_apply (c : Dev nD) (t : Fin cfg29.N) (p : Fin 2048) (k : Fin 256) (r : Fin 16384) (hr : r.val = t.val * 2048 + p.val) :
    (iblk29 V c 0 t : Vec Ideal S2048x256 .f32) (ix2 p k) = (V c (Pipeline.arrRef spec29 0) : Mat 16384 256) (ix2 r k) := by
  obtain ⟨e0, e1, -⟩ := idx29 t
  unfold iblk29
  rw [View.read_apply]
  refine congrArg (V c (Pipeline.arrRef spec29 0) : Mat 16384 256) (funext fun a => Fin.ext ?_)
  match a with
  | ⟨0, _⟩ => show win29_0.index t (0 : Fin 2) * 2048 + 1 * p.val = r.val; omega
  | ⟨1, _⟩ => show win29_0.index t (1 : Fin 2) * 256 + 1 * k.val = k.val; omega

/-- The weights' block at every point is the weights. -/
theorem iblk29_1_apply (c : Dev nD) (t : Fin cfg29.N) (k q : Fin 256) :
    (iblk29 V c 1 t : Vec Ideal S256x256 .f32) (ix2 k q) = (V c (Pipeline.arrRef spec29 1) : Mat 256 256) (ix2 k q) := by
  obtain ⟨-, -, e0, e1, -⟩ := idx29 t
  unfold iblk29
  rw [View.read_apply]
  refine congrArg (V c (Pipeline.arrRef spec29 1) : Mat 256 256) (funext fun a => Fin.ext ?_)
  match a with
  | ⟨0, _⟩ => show win29_1.index t (0 : Fin 2) * 256 + 1 * k.val = k.val; omega
  | ⟨1, _⟩ => show win29_1.index t (1 : Fin 2) * 256 + 1 * q.val = q.val; omega

/-- The bias row's block at every point is the bias row. -/
theorem iblk29_2_apply (c : Dev nD) (t : Fin cfg29.N) (z : Fin 1) (q : Fin 256) :
    (iblk29 V c 2 t : Vec Ideal S1x256 .f32) (ix2 z q) = (V c (Pipeline.arrRef spec29 2) : Mat 1 256) (ix2 z q) := by
  obtain ⟨-, -, -, -, e0, e1, -⟩ := idx29 t
  unfold iblk29
  rw [View.read_apply]
  refine congrArg (V c (Pipeline.arrRef spec29 2) : Mat 1 256) (funext fun a => Fin.ext ?_)
  match a with
  | ⟨0, _⟩ => show win29_2.index t (0 : Fin 2) * 1 + 1 * z.val = z.val; omega
  | ⟨1, _⟩ => show win29_2.index t (1 : Fin 2) * 256 + 1 * q.val = q.val; omega

/-- Entry (p, q) of the added term's block at point t is entry (2048·t + p, q) of the added term. -/
theorem iblk29_3_apply (c : Dev nD) (t : Fin cfg29.N) (p : Fin 2048) (q : Fin 256) (r : Fin 16384) (hr : r.val = t.val * 2048 + p.val) :
    (iblk29 V c 3 t : Vec Ideal S2048x256 .f32) (ix2 p q) = (V c (Pipeline.arrRef spec29 3) : Mat 16384 256) (ix2 r q) := by
  obtain ⟨-, -, -, -, -, -, e0, e1, -⟩ := idx29 t
  unfold iblk29
  rw [View.read_apply]
  refine congrArg (V c (Pipeline.arrRef spec29 3) : Mat 16384 256) (funext fun a => Fin.ext ?_)
  match a with
  | ⟨0, _⟩ => show win29_3.index t (0 : Fin 2) * 2048 + 1 * p.val = r.val; omega
  | ⟨1, _⟩ => show win29_3.index t (1 : Fin 2) * 256 + 1 * q.val = q.val; omega

/-! ## What each point writes back, and the array after the region -/

/-- The self update of the region's four input arrays, entry by entry. -/
abbrev selfUpdate29 (c : Dev nD) : Mat 16384 256 := fun i =>
  max (Cert.Spec.mul (V c (Pipeline.arrRef spec29 0) : Mat 16384 256) (V c (Pipeline.arrRef spec29 1) : Mat 256 256) i
      + (V c (Pipeline.arrRef spec29 2) : Mat 1 256) (ix2 (0 : Fin 1) (i 1)) + (V c (Pipeline.arrRef spec29 3) : Mat 16384 256) i) 0

/-- What point t writes back is its block of rows of the self update. -/
theorem flushed29_eq (c : Dev nD) (t : Fin cfg29.N) :
    (dat29 V c).flushed 4 t = ((cfg29.win 4).blk t).view.read (Elt Ideal) (selfUpdate29 V c) := by
  show (cfg29.win 4).cut (grid29.coords t) ((dat29 V c).after 4 t) = _
  rw [after29_4]
  funext y
  have hy0 : (y 0).val < 2048 := (y 0).isLt
  have hy1 : (y 1).val < 256 := (y 1).isLt
  have hN : t.val < 8 := lt_of_lt_of_eq t.isLt N_29
  obtain ⟨-, -, -, -, -, -, -, -, e0, e1⟩ := idx29 t
  have hx : (cfg29.win 4).xinj (grid29.coords t) y = ix2 (⟨(y 0).val, hy0⟩ : Fin 2048) (⟨(y 1).val, hy1⟩ : Fin 256) :=
    funext fun a => Fin.ext (by match a with | ⟨0, _⟩ => rfl | ⟨1, _⟩ => rfl)
  have he : ((cfg29.win 4).blk t).view.emb y
      = ix2 (⟨t.val * 2048 + (y 0).val, by omega⟩ : Fin 16384) (⟨(y 1).val, hy1⟩ : Fin 256) :=
    funext fun a => Fin.ext (by
      match a with
      | ⟨0, _⟩ => show win29_4.index t (0 : Fin 2) * 2048 + 1 * (y 0).val = t.val * 2048 + (y 0).val; omega
      | ⟨1, _⟩ => show win29_4.index t (1 : Fin 2) * 256 + 1 * (y 1).val = (y 1).val; omega)
  show out29 (F := Ideal) (iblk29 V c 0 t) (iblk29 V c 1 t) (iblk29 V c 2 t) (iblk29 V c 3 t) ((cfg29.win 4).xinj (grid29.coords t) y)
    = selfUpdate29 V c (((cfg29.win 4).blk t).view.emb y)
  rw [hx, he]
  refine (out29_apply (iblk29 V c 0 t) (iblk29 V c 1 t) (iblk29 V c 2 t) (iblk29 V c 3 t) ⟨(y 0).val, hy0⟩ ⟨(y 1).val, hy1⟩).trans ?_
  have h0 := fun k : Fin 256 => iblk29_0_apply V c t ⟨(y 0).val, hy0⟩ k ⟨t.val * 2048 + (y 0).val, by omega⟩ rfl
  have h1 := fun k : Fin 256 => iblk29_1_apply V c t k ⟨(y 1).val, hy1⟩
  have h2 := iblk29_2_apply V c t 0 ⟨(y 1).val, hy1⟩
  have h3 := iblk29_3_apply V c t ⟨(y 0).val, hy0⟩ ⟨(y 1).val, hy1⟩ ⟨t.val * 2048 + (y 0).val, by omega⟩ rfl
  simp only [h0, h1, h2, h3]
  rfl

/-- An index of the array is in point t's block iff each coordinate is in the block's range on its axis. -/
theorem mem_blk29 (t : Fin cfg29.N) (i : S16384x256.Idx) :
    i ∈ ((cfg29.win 4).blk t).view.set ↔ ∀ a : Fin 2, win29_4.index t a * S2048x256.size a ≤ (i a).val ∧ (i a).val < win29_4.index t a * S2048x256.size a + S2048x256.size a := by
  show i ∈ ((View.whole main_v298).slice (win29_4.rect t)).set ↔ _
  rw [View.set_slice_whole, Rect.mem_set_unit]
  exact Iff.rfl

/-- THE ARRAY AFTER THE REGION: the 8 blocks of 2048 rows tile the 16384 rows (row r is in block r / 2048), so the
    output array ends holding the self update of the four input arrays. -/
theorem arrAt29 (c : Dev nD) :
    (dat29 (F := Ideal) V c).arrAt 4 cfg29.N = fun i =>
      max (Cert.Spec.mul (V c (Pipeline.arrRef spec29 0) : Mat 16384 256) (V c (Pipeline.arrRef spec29 1) : Mat 256 256) i
          + (V c (Pipeline.arrRef spec29 2) : Mat 1 256) (ix2 (0 : Fin 1) (i 1)) + (V c (Pipeline.arrRef spec29 3) : Mat 16384 256) i) 0 :=
  (dat29 V c).arrAt_eq_of_cover 4 (selfUpdate29 V c) (fun t _ => flushed29_eq V c t) fun i => by
    have hi0 : (i 0).val < 16384 := (i 0).isLt
    have hi1 : (i 1).val < 256 := (i 1).isLt
    have hN : cfg29.N = 8 := N_29
    obtain ⟨-, -, -, -, -, -, -, -, e0, e1⟩ := idx29 ⟨(i 0).val / 2048, by rw [hN]; omega⟩
    refine ⟨⟨(i 0).val / 2048, by rw [hN]; omega⟩, flush29_4 _, ?_⟩
    rw [mem_blk29]
    intro a
    match a with
    | ⟨0, _⟩ =>
      show win29_4.index ⟨(i 0).val / 2048, _⟩ (0 : Fin 2) * 2048 ≤ (i 0).val ∧ (i 0).val < win29_4.index ⟨(i 0).val / 2048, _⟩ (0 : Fin 2) * 2048 + 2048
      rw [e0]; show (i 0).val / 2048 * 2048 ≤ (i 0).val ∧ (i 0).val < (i 0).val / 2048 * 2048 + 2048; omega
    | ⟨1, _⟩ =>
      show win29_4.index ⟨(i 0).val / 2048, _⟩ (1 : Fin 2) * 256 ≤ (i 1).val ∧ (i 1).val < win29_4.index ⟨(i 0).val / 2048, _⟩ (1 : Fin 2) * 256 + 256
      rw [e1]; omega

end Cert.KernelIdeal.Val

end
-- ==== Proof.KI.Layer2Bound.lean ====
/- The layer-2 boundary messages, stated over the reference's stage functions.

   In the third layer the node and edge features are the second layer's outputs, themselves functions of the
   arguments; the incidence arrays are the ones computed once. The two bridges of the boundary module are instantiated
   at these functions: the kernel's re-associated edge message and its batched cell message, laid out flat, are the
   reference's two messages of this layer. -/
import proofs.«101828_j11562051961417_2_alg».proof.KernelIdeal
import proofs.«101828_j11562051961417_2_alg».proof.ReferenceIdeal
import proofs.«101828_j11562051961417_2_alg».proof.Proof.Spec
import proofs.«101828_j11562051961417_2_alg».proof.Proof.Laws
import proofs.«101828_j11562051961417_2_alg».proof.Proof.RefRead
import proofs.«101828_j11562051961417_2_alg».proof.Proof.BridgeBound
import proofs.«101828_j11562051961417_2_alg».proof.Proof.KI.Layer0Bound
import Idealize.ShloMosaic.Lib.Pipeline.Value
import Idealize.ShloMosaic.Lib.ValueIdx
import Idealize.ShloMosaic.Lib.IdealHost
import Idealize.ShloMosaic.PureOps.Ideal.Laws

noncomputable section

namespace Cert.Bridge

open Idealize.ShloMosaic Idealize.ShloMosaic.ValueIdx
open Cert.ReferenceIdeal.Read
open scoped BigOperators

variable [Cert.KernelIdeal.Facts₀] [Cert.ReferenceIdeal.Facts₀]

/-- The kernel's re-associated edge message A_b · (X · W)_b of the third layer, laid out flat, is the reference's
    ((A_b · X_b) laid out flat) · W, for real node features and weights. The weight matrix is one slab of the weight
    array, so real when that is. -/
theorem bd_e_layer2 (x0 : (⟨Cert.ReferenceIdeal.S32768x256, .f32⟩ : BufTy).Contents (Elt Ideal))
    (x1 : (⟨Cert.ReferenceIdeal.S65536x256, .f32⟩ : BufTy).Contents (Elt Ideal))
    (x2 : (⟨Cert.ReferenceIdeal.S16384x256, .f32⟩ : BufTy).Contents (Elt Ideal))
    (x3 x4 x5 x6 : (⟨Cert.ReferenceIdeal.S131072, .i32⟩ : BufTy).Contents (Elt Ideal))
    (x7 x8 x9 x10 : (⟨Cert.ReferenceIdeal.S98304, .i32⟩ : BufTy).Contents (Elt Ideal))
    (x11 x12 x13 : (⟨Cert.ReferenceIdeal.S131072, .i32⟩ : BufTy).Contents (Elt Ideal))
    (x17 : (⟨Cert.ReferenceIdeal.S4x3x256x256, .f32⟩ : BufTy).Contents (Elt Ideal))
    (x18 : (⟨Cert.ReferenceIdeal.S4x3x256, .f32⟩ : BufTy).Contents (Elt Ideal))
    (x19 x20 x21 : (⟨Cert.ReferenceIdeal.S4x2x256x256, .f32⟩ : BufTy).Contents (Elt Ideal))
    (hnf : Cert.Spec.Finite (s := ⟨2, ![32768, 256]⟩) (val_main_v226 (F := Ideal) x0 x1 x2 x3 x4 x5 x6 x7 x8 x9 x10 x11 x12 x13 x17 x18 x19 x20 x21))
    (h21 : Cert.Spec.Finite x21) :
    shapeCast Cert.KernelIdeal.S65536x256
        (Cert.Spec.bmul (val_main_v21 (F := Ideal) x11 x12 x13 : Cert.Spec.Mat3 256 256 128)
          (shapeCast Cert.KernelIdeal.S256x128x256
            (Cert.Spec.mul (val_main_v226 (F := Ideal) x0 x1 x2 x3 x4 x5 x6 x7 x8 x9 x10 x11 x12 x13 x17 x18 x19 x20 x21 : Cert.Spec.Mat 32768 256)
              (val_main_v302 (F := Ideal) x21 : Cert.Spec.Mat 256 256))
            Cert.KernelIdeal.Shapes1.Facts₀.shapeCasts_S32768x256_S256x128x256))
        Cert.KernelIdeal.Shapes1.Facts₀.shapeCasts_S256x256x256_S65536x256
      = val_main_v303 (F := Ideal) x0 x1 x2 x3 x4 x5 x6 x7 x8 x9 x10 x11 x12 x13 x17 x18 x19 x20 x21 :=
  (edge_boundary (val_main_v21 (F := Ideal) x11 x12 x13) (val_main_v226 (F := Ideal) x0 x1 x2 x3 x4 x5 x6 x7 x8 x9 x10 x11 x12 x13 x17 x18 x19 x20 x21)
    (val_main_v302 (F := Ideal) x21) (finite_val_main_v21 x11 x12 x13) hnf (fun _ => h21 _)).symm

/-- The kernel's batched cell message (A_b · X_b) · W of the third layer, laid out flat, is the reference's. -/
theorem bd_c_layer2 (x0 : (⟨Cert.ReferenceIdeal.S32768x256, .f32⟩ : BufTy).Contents (Elt Ideal))
    (x1 : (⟨Cert.ReferenceIdeal.S65536x256, .f32⟩ : BufTy).Contents (Elt Ideal))
    (x2 : (⟨Cert.ReferenceIdeal.S16384x256, .f32⟩ : BufTy).Contents (Elt Ideal))
    (x3 x4 x5 x6 : (⟨Cert.ReferenceIdeal.S131072, .i32⟩ : BufTy).Contents (Elt Ideal))
    (x7 x8 x9 x10 : (⟨Cert.ReferenceIdeal.S98304, .i32⟩ : BufTy).Contents (Elt Ideal))
    (x11 x12 x13 : (⟨Cert.ReferenceIdeal.S131072, .i32⟩ : BufTy).Contents (Elt Ideal))
    (x14 x15 x16 : (⟨Cert.ReferenceIdeal.S65536, .i32⟩ : BufTy).Contents (Elt Ideal))
    (x17 : (⟨Cert.ReferenceIdeal.S4x3x256x256, .f32⟩ : BufTy).Contents (Elt Ideal))
    (x18 : (⟨Cert.ReferenceIdeal.S4x3x256, .f32⟩ : BufTy).Contents (Elt Ideal))
    (x19 x20 x21 : (⟨Cert.ReferenceIdeal.S4x2x256x256, .f32⟩ : BufTy).Contents (Elt Ideal)) :
    shapeCast Cert.KernelIdeal.S16384x256
        (cellMsg (val_main_v43 (F := Ideal) x14 x15 x16)
          (val_main_v304 (F := Ideal) x0 x1 x2 x3 x4 x5 x6 x7 x8 x9 x10 x11 x12 x13 x14 x15 x16 x17 x18 x19 x20 x21)
          (val_main_v308 (F := Ideal) x21))
        Cert.KernelIdeal.Shapes1.Facts₀.shapeCasts_S256x64x256_S16384x256
      = val_main_v309 (F := Ideal) x0 x1 x2 x3 x4 x5 x6 x7 x8 x9 x10 x11 x12 x13 x14 x15 x16 x17 x18 x19 x20 x21 :=
  (cell_boundary (val_main_v43 (F := Ideal) x14 x15 x16)
    (val_main_v304 (F := Ideal) x0 x1 x2 x3 x4 x5 x6 x7 x8 x9 x10 x11 x12 x13 x14 x15 x16 x17 x18 x19 x20 x21)
    (val_main_v308 (F := Ideal) x21)).symm

end Cert.Bridge

end
-- ==== Proof.KI.Layer2Self.lean ====
/- Layer 2 on the host, as identities between functions of whole arrays: the two sums of messages per receiver and the
   three updates, each spelt once over the products taken first (the shared vocabulary's X · W) and once as the
   operations that gather first and contract afterwards. The layer's features are the values layer 2 leaves; every
   identity is layer 0's with those values in place of the feature arguments and the layer's own weight and bias slots. -/
import Idealize.ShloMosaic.PureOps.Ideal
import Idealize.ShloMosaic.PureOps.Ideal.Laws
import Idealize.ShloMosaic.Lib.ValueIdx
import Idealize.ShloMosaic.Lib.Pipeline.Value
import proofs.«101828_j11562051961417_2_alg».proof.KernelIdeal
import proofs.«101828_j11562051961417_2_alg».proof.ReferenceIdeal
import proofs.«101828_j11562051961417_2_alg».proof.Proof.Gen.KernelIdeal
import proofs.«101828_j11562051961417_2_alg».proof.Proof.RefRead
import proofs.«101828_j11562051961417_2_alg».proof.Proof.Spec
import proofs.«101828_j11562051961417_2_alg».proof.Proof.Laws
import proofs.«101828_j11562051961417_2_alg».proof.Proof.BridgeMsg
import proofs.«101828_j11562051961417_2_alg».proof.Proof.KI.Layer0Self

noncomputable section

namespace Cert.Bridge

open Idealize.ShloMosaic Idealize.ShloMosaic.ValueIdx
open Cert.ReferenceIdeal.Read
open scoped BigOperators

/-! ## The sums of messages per receiver -/

/-- The node messages of layer 2 summed per receiving node. The layer's features are the values layer 2 leaves; the identity is layer 0's with those in place of the arguments. -/
theorem up_n_layer2 (x0 : (⟨Cert.ReferenceIdeal.S32768x256, .f32⟩ : BufTy).Contents (Elt Ideal)) (x1 : (⟨Cert.ReferenceIdeal.S65536x256, .f32⟩ : BufTy).Contents (Elt Ideal)) (x2 : (⟨Cert.ReferenceIdeal.S16384x256, .f32⟩ : BufTy).Contents (Elt Ideal)) (x3 x4 x5 x6 : (⟨Cert.ReferenceIdeal.S131072, .i32⟩ : BufTy).Contents (Elt Ideal)) (x7 x8 x9 x10 : (⟨Cert.ReferenceIdeal.S98304, .i32⟩ : BufTy).Contents (Elt Ideal)) (x11 x12 x13 : (⟨Cert.ReferenceIdeal.S131072, .i32⟩ : BufTy).Contents (Elt Ideal)) (x14 x15 x16 : (⟨Cert.ReferenceIdeal.S65536, .i32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal)) (x19 x20 x21 : (⟨Cert.ReferenceIdeal.S4x2x256x256, .f32⟩ : BufTy).Contents (Elt Ideal)) :
    Host.scatterAdd (F := Ideal) Cert.KernelIdeal.scatter_S32768x256_S131072x1_S131072x256_1_0_0_1
        (broadcastInDim Cert.KernelIdeal.S32768x256 ![] Cert.KernelIdeal.Shapes1.Facts₀.bcast_S_S32768x256 (constant (F := Ideal) Cert.KernelIdeal.S_ .f32 0x00000000#32))
        (broadcastInDim Cert.KernelIdeal.S131072x1 ![0] Cert.KernelIdeal.Shapes1.Facts₀.bcast_S131072_S131072x1_0 (val_main_v46 (F := Ideal) x3 x4))
        (maximumf (F := Ideal) (φ := .f32)
          (addf
            (Host.gather Cert.KernelIdeal.gather_S32768x256_S131072x1_S131072x256_1_0_n_n_0_1_1256
              (Cert.Spec.mul ((val_main_v226 (F := Ideal) x0 x1 x2 x3 x4 x5 x6 x7 x8 x9 x10 x11 x12 x13 x17 x18 x19 x20 x21) : Cert.Spec.Mat 32768 256) (val_main_v256 (F := Ideal) x19 : Cert.Spec.Mat 256 256))
              (val_main_v253 (F := Ideal) x3 x5))
            (Host.gather Cert.KernelIdeal.gather_S65536x256_S131072x1_S131072x256_1_0_n_n_0_1_1256
              (Cert.Spec.mul ((val_main_v237 (F := Ideal) x0 x1 x2 x3 x4 x5 x6 x7 x8 x9 x10 x11 x12 x13 x14 x15 x16 x17 x18 x19 x20 x21) : Cert.Spec.Mat 65536 256) (val_main_v266 (F := Ideal) x20 : Cert.Spec.Mat 256 256))
              (val_main_v263 (F := Ideal) x3 x6)))
          (broadcastInDim Cert.KernelIdeal.S131072x256 ![] Cert.KernelIdeal.Shapes1.Facts₀.bcast_S_S131072x256 (constant (F := Ideal) Cert.KernelIdeal.S_ .f32 0x00000000#32)))
      = val_main_v272 (F := Ideal) x0 x1 x2 x3 x4 x5 x6 x7 x8 x9 x10 x11 x12 x13 x14 x15 x16 x17 x18 x19 x20 x21 := by
  rw [msg_131072]
  rfl

/-- The edge messages of layer 2 summed per receiving edge. -/
theorem up_e_layer2 (x0 : (⟨Cert.ReferenceIdeal.S32768x256, .f32⟩ : BufTy).Contents (Elt Ideal)) (x1 : (⟨Cert.ReferenceIdeal.S65536x256, .f32⟩ : BufTy).Contents (Elt Ideal)) (x2 : (⟨Cert.ReferenceIdeal.S16384x256, .f32⟩ : BufTy).Contents (Elt Ideal)) (x3 x4 x5 x6 : (⟨Cert.ReferenceIdeal.S131072, .i32⟩ : BufTy).Contents (Elt Ideal)) (x7 x8 x9 x10 : (⟨Cert.ReferenceIdeal.S98304, .i32⟩ : BufTy).Contents (Elt Ideal)) (x11 x12 x13 : (⟨Cert.ReferenceIdeal.S131072, .i32⟩ : BufTy).Contents (Elt Ideal)) (x14 x15 x16 : (⟨Cert.ReferenceIdeal.S65536, .i32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal)) (x19 x20 x21 : (⟨Cert.ReferenceIdeal.S4x2x256x256, .f32⟩ : BufTy).Contents (Elt Ideal)) :
    Host.scatterAdd (F := Ideal) Cert.KernelIdeal.scatter_S65536x256_S98304x1_S98304x256_1_0_0_1
        (broadcastInDim Cert.KernelIdeal.S65536x256 ![] Cert.KernelIdeal.Shapes1.Facts₀.bcast_S_S65536x256 (constant (F := Ideal) Cert.KernelIdeal.S_ .f32 0x00000000#32))
        (broadcastInDim Cert.KernelIdeal.S98304x1 ![0] Cert.KernelIdeal.Shapes1.Facts₀.bcast_S98304_S98304x1_0 (val_main_v55 (F := Ideal) x7 x8))
        (maximumf (F := Ideal) (φ := .f32)
          (addf
            (Host.gather Cert.KernelIdeal.gather_S65536x256_S98304x1_S98304x256_1_0_n_n_0_1_1256
              (Cert.Spec.mul ((val_main_v237 (F := Ideal) x0 x1 x2 x3 x4 x5 x6 x7 x8 x9 x10 x11 x12 x13 x14 x15 x16 x17 x18 x19 x20 x21) : Cert.Spec.Mat 65536 256) (val_main_v281 (F := Ideal) x19 : Cert.Spec.Mat 256 256))
              (val_main_v278 (F := Ideal) x7 x9))
            (Host.gather Cert.KernelIdeal.gather_S16384x256_S98304x1_S98304x256_1_0_n_n_0_1_1256
              (Cert.Spec.mul ((val_main_v247 (F := Ideal) x0 x1 x2 x7 x8 x9 x10 x11 x12 x13 x14 x15 x16 x17 x18 x19 x20 x21) : Cert.Spec.Mat 16384 256) (val_main_v291 (F := Ideal) x20 : Cert.Spec.Mat 256 256))
              (val_main_v288 (F := Ideal) x7 x10)))
          (broadcastInDim Cert.KernelIdeal.S98304x256 ![] Cert.KernelIdeal.Shapes1.Facts₀.bcast_S_S98304x256 (constant (F := Ideal) Cert.KernelIdeal.S_ .f32 0x00000000#32)))
      = val_main_v297 (F := Ideal) x0 x1 x2 x3 x4 x5 x6 x7 x8 x9 x10 x11 x12 x13 x14 x15 x16 x17 x18 x19 x20 x21 := by
  rw [msg_98304]
  rfl

/-! ## The three updates -/

/-- The node update of layer 2. -/
theorem self_n_layer2 (x0 : (⟨Cert.ReferenceIdeal.S32768x256, .f32⟩ : BufTy).Contents (Elt Ideal)) (x1 : (⟨Cert.ReferenceIdeal.S65536x256, .f32⟩ : BufTy).Contents (Elt Ideal)) (x2 : (⟨Cert.ReferenceIdeal.S16384x256, .f32⟩ : BufTy).Contents (Elt Ideal)) (x3 x4 x5 x6 : (⟨Cert.ReferenceIdeal.S131072, .i32⟩ : BufTy).Contents (Elt Ideal)) (x7 x8 x9 x10 : (⟨Cert.ReferenceIdeal.S98304, .i32⟩ : BufTy).Contents (Elt Ideal)) (x11 x12 x13 : (⟨Cert.ReferenceIdeal.S131072, .i32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal)) (x19 x20 x21 : (⟨Cert.ReferenceIdeal.S4x2x256x256, .f32⟩ : BufTy).Contents (Elt Ideal))
    (U : (⟨Cert.ReferenceIdeal.S32768x256, .f32⟩ : BufTy).Contents (Elt Ideal)) :
    (fun i => max (Cert.Spec.mul ((val_main_v226 (F := Ideal) x0 x1 x2 x3 x4 x5 x6 x7 x8 x9 x10 x11 x12 x13 x17 x18 x19 x20 x21) : Cert.Spec.Mat 32768 256) (val_main_v311 (F := Ideal) x17 : Cert.Spec.Mat 256 256) i
        + (shapeCast Cert.KernelIdeal.S1x256 (shapeCast Cert.KernelIdeal.S256 (extractStridedSlice Cert.KernelIdeal.S1x1x256 ![2, 0, 0] x18 Cert.KernelIdeal.Shapes1.Facts₀.slices_S4x3x256_S1x1x256_2_0_0) Cert.KernelIdeal.Shapes1.Facts₀.shapeCasts_S1x1x256_S256) Cert.KernelIdeal.Shapes1.Facts₀.shapeCasts_S256_S1x256 : Cert.Spec.Mat 1 256) (ix2 (0 : Fin 1) (i 1)) + (U : Cert.Spec.Mat 32768 256) i) 0 : Cert.Spec.Mat 32768 256)
      = maximumf (F := Ideal) (φ := .f32) (addf (val_main_v317 (F := Ideal) x0 x1 x2 x3 x4 x5 x6 x7 x8 x9 x10 x11 x12 x13 x17 x18 x19 x20 x21) U) (val_main_call12_v0 (F := Ideal)) := by
  funext i
  have hdot : val_main_v312 (F := Ideal) x0 x1 x2 x3 x4 x5 x6 x7 x8 x9 x10 x11 x12 x13 x17 x18 x19 x20 x21 = Cert.Spec.mul ((val_main_v226 (F := Ideal) x0 x1 x2 x3 x4 x5 x6 x7 x8 x9 x10 x11 x12 x13 x17 x18 x19 x20 x21) : Cert.Spec.Mat 32768 256) (val_main_v311 (F := Ideal) x17 : Cert.Spec.Mat 256 256) :=
    dotGeneral_eq_mul Cert.ReferenceIdeal.dot_S32768x256_S256x256_S32768x256_1_0_0_1_n_n rfl rfl rfl rfl rfl rfl none (val_main_v226 (F := Ideal) x0 x1 x2 x3 x4 x5 x6 x7 x8 x9 x10 x11 x12 x13 x17 x18 x19 x20 x21) (val_main_v311 (F := Ideal) x17)
  have hbias : val_main_v316 (F := Ideal) x18 i = (shapeCast Cert.KernelIdeal.S1x256 (shapeCast Cert.KernelIdeal.S256 (extractStridedSlice Cert.KernelIdeal.S1x1x256 ![2, 0, 0] x18 Cert.KernelIdeal.Shapes1.Facts₀.slices_S4x3x256_S1x1x256_2_0_0) Cert.KernelIdeal.Shapes1.Facts₀.shapeCasts_S1x1x256_S256) Cert.KernelIdeal.Shapes1.Facts₀.shapeCasts_S256_S1x256 : Cert.Spec.Mat 1 256) (ix2 (0 : Fin 1) (i 1)) := by
    unfold val_main_v316 val_main_v315 val_main_v314 val_main_v313
    exact (bias_rows_apply (by decide) (by decide) x18 _ _ _ _ i).trans (bias_row_apply (by decide) (by decide) x18 _ _ _ (i 1)).symm
  have hz : val_main_call12_v0 (F := Ideal) i = 0 := by
    unfold val_main_call12_v0 val_main_call12_cst
    exact Ideal.ofBits_zero_f32
  show max (Cert.Spec.mul ((val_main_v226 (F := Ideal) x0 x1 x2 x3 x4 x5 x6 x7 x8 x9 x10 x11 x12 x13 x17 x18 x19 x20 x21) : Cert.Spec.Mat 32768 256) (val_main_v311 (F := Ideal) x17 : Cert.Spec.Mat 256 256) i + (shapeCast Cert.KernelIdeal.S1x256 (shapeCast Cert.KernelIdeal.S256 (extractStridedSlice Cert.KernelIdeal.S1x1x256 ![2, 0, 0] x18 Cert.KernelIdeal.Shapes1.Facts₀.slices_S4x3x256_S1x1x256_2_0_0) Cert.KernelIdeal.Shapes1.Facts₀.shapeCasts_S1x1x256_S256) Cert.KernelIdeal.Shapes1.Facts₀.shapeCasts_S256_S1x256 : Cert.Spec.Mat 1 256) (ix2 (0 : Fin 1) (i 1)) + U i) 0
    = max ((val_main_v312 (F := Ideal) x0 x1 x2 x3 x4 x5 x6 x7 x8 x9 x10 x11 x12 x13 x17 x18 x19 x20 x21 i + val_main_v316 (F := Ideal) x18 i) + U i) (val_main_call12_v0 (F := Ideal) i)
  rw [hdot, hbias, hz]

/-- The edge update of layer 2, with two summands U and V besides the product and the bias row. -/
theorem self_e_layer2 (x0 : (⟨Cert.ReferenceIdeal.S32768x256, .f32⟩ : BufTy).Contents (Elt Ideal)) (x1 : (⟨Cert.ReferenceIdeal.S65536x256, .f32⟩ : BufTy).Contents (Elt Ideal)) (x2 : (⟨Cert.ReferenceIdeal.S16384x256, .f32⟩ : BufTy).Contents (Elt Ideal)) (x3 x4 x5 x6 : (⟨Cert.ReferenceIdeal.S131072, .i32⟩ : BufTy).Contents (Elt Ideal)) (x7 x8 x9 x10 : (⟨Cert.ReferenceIdeal.S98304, .i32⟩ : BufTy).Contents (Elt Ideal)) (x11 x12 x13 : (⟨Cert.ReferenceIdeal.S131072, .i32⟩ : BufTy).Contents (Elt Ideal)) (x14 x15 x16 : (⟨Cert.ReferenceIdeal.S65536, .i32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal)) (x19 x20 x21 : (⟨Cert.ReferenceIdeal.S4x2x256x256, .f32⟩ : BufTy).Contents (Elt Ideal))
    (U V : (⟨Cert.ReferenceIdeal.S65536x256, .f32⟩ : BufTy).Contents (Elt Ideal)) :
    (fun i => max (Cert.Spec.mul ((val_main_v237 (F := Ideal) x0 x1 x2 x3 x4 x5 x6 x7 x8 x9 x10 x11 x12 x13 x14 x15 x16 x17 x18 x19 x20 x21) : Cert.Spec.Mat 65536 256) (val_main_v321 (F := Ideal) x17 : Cert.Spec.Mat 256 256) i
        + (shapeCast Cert.KernelIdeal.S1x256 (shapeCast Cert.KernelIdeal.S256 (extractStridedSlice Cert.KernelIdeal.S1x1x256 ![2, 1, 0] x18 Cert.KernelIdeal.Shapes1.Facts₀.slices_S4x3x256_S1x1x256_2_1_0) Cert.KernelIdeal.Shapes1.Facts₀.shapeCasts_S1x1x256_S256) Cert.KernelIdeal.Shapes1.Facts₀.shapeCasts_S256_S1x256 : Cert.Spec.Mat 1 256) (ix2 (0 : Fin 1) (i 1)) + (U : Cert.Spec.Mat 65536 256) i + (V : Cert.Spec.Mat 65536 256) i) 0 : Cert.Spec.Mat 65536 256)
      = maximumf (F := Ideal) (φ := .f32) (addf (addf (val_main_v327 (F := Ideal) x0 x1 x2 x3 x4 x5 x6 x7 x8 x9 x10 x11 x12 x13 x14 x15 x16 x17 x18 x19 x20 x21) U) V) (val_main_call13_v0 (F := Ideal)) := by
  funext i
  have hdot : val_main_v322 (F := Ideal) x0 x1 x2 x3 x4 x5 x6 x7 x8 x9 x10 x11 x12 x13 x14 x15 x16 x17 x18 x19 x20 x21 = Cert.Spec.mul ((val_main_v237 (F := Ideal) x0 x1 x2 x3 x4 x5 x6 x7 x8 x9 x10 x11 x12 x13 x14 x15 x16 x17 x18 x19 x20 x21) : Cert.Spec.Mat 65536 256) (val_main_v321 (F := Ideal) x17 : Cert.Spec.Mat 256 256) :=
    dotGeneral_eq_mul Cert.ReferenceIdeal.dot_S65536x256_S256x256_S65536x256_1_0_0_1_n_n rfl rfl rfl rfl rfl rfl none (val_main_v237 (F := Ideal) x0 x1 x2 x3 x4 x5 x6 x7 x8 x9 x10 x11 x12 x13 x14 x15 x16 x17 x18 x19 x20 x21) (val_main_v321 (F := Ideal) x17)
  have hbias : val_main_v326 (F := Ideal) x18 i = (shapeCast Cert.KernelIdeal.S1x256 (shapeCast Cert.KernelIdeal.S256 (extractStridedSlice Cert.KernelIdeal.S1x1x256 ![2, 1, 0] x18 Cert.KernelIdeal.Shapes1.Facts₀.slices_S4x3x256_S1x1x256_2_1_0) Cert.KernelIdeal.Shapes1.Facts₀.shapeCasts_S1x1x256_S256) Cert.KernelIdeal.Shapes1.Facts₀.shapeCasts_S256_S1x256 : Cert.Spec.Mat 1 256) (ix2 (0 : Fin 1) (i 1)) := by
    unfold val_main_v326 val_main_v325 val_main_v324 val_main_v323
    exact (bias_rows_apply (by decide) (by decide) x18 _ _ _ _ i).trans (bias_row_apply (by decide) (by decide) x18 _ _ _ (i 1)).symm
  have hz : val_main_call13_v0 (F := Ideal) i = 0 := by
    unfold val_main_call13_v0 val_main_call13_cst
    exact Ideal.ofBits_zero_f32
  show max (Cert.Spec.mul ((val_main_v237 (F := Ideal) x0 x1 x2 x3 x4 x5 x6 x7 x8 x9 x10 x11 x12 x13 x14 x15 x16 x17 x18 x19 x20 x21) : Cert.Spec.Mat 65536 256) (val_main_v321 (F := Ideal) x17 : Cert.Spec.Mat 256 256) i + (shapeCast Cert.KernelIdeal.S1x256 (shapeCast Cert.KernelIdeal.S256 (extractStridedSlice Cert.KernelIdeal.S1x1x256 ![2, 1, 0] x18 Cert.KernelIdeal.Shapes1.Facts₀.slices_S4x3x256_S1x1x256_2_1_0) Cert.KernelIdeal.Shapes1.Facts₀.shapeCasts_S1x1x256_S256) Cert.KernelIdeal.Shapes1.Facts₀.shapeCasts_S256_S1x256 : Cert.Spec.Mat 1 256) (ix2 (0 : Fin 1) (i 1)) + U i + V i) 0
    = max ((val_main_v322 (F := Ideal) x0 x1 x2 x3 x4 x5 x6 x7 x8 x9 x10 x11 x12 x13 x14 x15 x16 x17 x18 x19 x20 x21 i + val_main_v326 (F := Ideal) x18 i) + U i + V i) (val_main_call13_v0 (F := Ideal) i)
  rw [hdot, hbias, hz]

/-- The cell update of layer 2. -/
theorem self_c_layer2 (x0 : (⟨Cert.ReferenceIdeal.S32768x256, .f32⟩ : BufTy).Contents (Elt Ideal)) (x1 : (⟨Cert.ReferenceIdeal.S65536x256, .f32⟩ : BufTy).Contents (Elt Ideal)) (x2 : (⟨Cert.ReferenceIdeal.S16384x256, .f32⟩ : BufTy).Contents (Elt Ideal)) (x7 x8 x9 x10 : (⟨Cert.ReferenceIdeal.S98304, .i32⟩ : BufTy).Contents (Elt Ideal)) (x11 x12 x13 : (⟨Cert.ReferenceIdeal.S131072, .i32⟩ : BufTy).Contents (Elt Ideal)) (x14 x15 x16 : (⟨Cert.ReferenceIdeal.S65536, .i32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal)) (x19 x20 x21 : (⟨Cert.ReferenceIdeal.S4x2x256x256, .f32⟩ : BufTy).Contents (Elt Ideal))
    (U : (⟨Cert.ReferenceIdeal.S16384x256, .f32⟩ : BufTy).Contents (Elt Ideal)) :
    (fun i => max (Cert.Spec.mul ((val_main_v247 (F := Ideal) x0 x1 x2 x7 x8 x9 x10 x11 x12 x13 x14 x15 x16 x17 x18 x19 x20 x21) : Cert.Spec.Mat 16384 256) (val_main_v332 (F := Ideal) x17 : Cert.Spec.Mat 256 256) i
        + (shapeCast Cert.KernelIdeal.S1x256 (shapeCast Cert.KernelIdeal.S256 (extractStridedSlice Cert.KernelIdeal.S1x1x256 ![2, 2, 0] x18 Cert.KernelIdeal.Shapes1.Facts₀.slices_S4x3x256_S1x1x256_2_2_0) Cert.KernelIdeal.Shapes1.Facts₀.shapeCasts_S1x1x256_S256) Cert.KernelIdeal.Shapes1.Facts₀.shapeCasts_S256_S1x256 : Cert.Spec.Mat 1 256) (ix2 (0 : Fin 1) (i 1)) + (U : Cert.Spec.Mat 16384 256) i) 0 : Cert.Spec.Mat 16384 256)
      = maximumf (F := Ideal) (φ := .f32) (addf (val_main_v338 (F := Ideal) x0 x1 x2 x7 x8 x9 x10 x11 x12 x13 x14 x15 x16 x17 x18 x19 x20 x21) U) (val_main_call14_v0 (F := Ideal)) := by
  funext i
  have hdot : val_main_v333 (F := Ideal) x0 x1 x2 x7 x8 x9 x10 x11 x12 x13 x14 x15 x16 x17 x18 x19 x20 x21 = Cert.Spec.mul ((val_main_v247 (F := Ideal) x0 x1 x2 x7 x8 x9 x10 x11 x12 x13 x14 x15 x16 x17 x18 x19 x20 x21) : Cert.Spec.Mat 16384 256) (val_main_v332 (F := Ideal) x17 : Cert.Spec.Mat 256 256) :=
    dotGeneral_eq_mul Cert.ReferenceIdeal.dot_S16384x256_S256x256_S16384x256_1_0_0_1_n_n rfl rfl rfl rfl rfl rfl none (val_main_v247 (F := Ideal) x0 x1 x2 x7 x8 x9 x10 x11 x12 x13 x14 x15 x16 x17 x18 x19 x20 x21) (val_main_v332 (F := Ideal) x17)
  have hbias : val_main_v337 (F := Ideal) x18 i = (shapeCast Cert.KernelIdeal.S1x256 (shapeCast Cert.KernelIdeal.S256 (extractStridedSlice Cert.KernelIdeal.S1x1x256 ![2, 2, 0] x18 Cert.KernelIdeal.Shapes1.Facts₀.slices_S4x3x256_S1x1x256_2_2_0) Cert.KernelIdeal.Shapes1.Facts₀.shapeCasts_S1x1x256_S256) Cert.KernelIdeal.Shapes1.Facts₀.shapeCasts_S256_S1x256 : Cert.Spec.Mat 1 256) (ix2 (0 : Fin 1) (i 1)) := by
    unfold val_main_v337 val_main_v336 val_main_v335 val_main_v334
    exact (bias_rows_apply (by decide) (by decide) x18 _ _ _ _ i).trans (bias_row_apply (by decide) (by decide) x18 _ _ _ (i 1)).symm
  have hz : val_main_call14_v0 (F := Ideal) i = 0 := by
    unfold val_main_call14_v0 val_main_call14_cst
    exact Ideal.ofBits_zero_f32
  show max (Cert.Spec.mul ((val_main_v247 (F := Ideal) x0 x1 x2 x7 x8 x9 x10 x11 x12 x13 x14 x15 x16 x17 x18 x19 x20 x21) : Cert.Spec.Mat 16384 256) (val_main_v332 (F := Ideal) x17 : Cert.Spec.Mat 256 256) i + (shapeCast Cert.KernelIdeal.S1x256 (shapeCast Cert.KernelIdeal.S256 (extractStridedSlice Cert.KernelIdeal.S1x1x256 ![2, 2, 0] x18 Cert.KernelIdeal.Shapes1.Facts₀.slices_S4x3x256_S1x1x256_2_2_0) Cert.KernelIdeal.Shapes1.Facts₀.shapeCasts_S1x1x256_S256) Cert.KernelIdeal.Shapes1.Facts₀.shapeCasts_S256_S1x256 : Cert.Spec.Mat 1 256) (ix2 (0 : Fin 1) (i 1)) + U i) 0
    = max ((val_main_v333 (F := Ideal) x0 x1 x2 x7 x8 x9 x10 x11 x12 x13 x14 x15 x16 x17 x18 x19 x20 x21 i + val_main_v337 (F := Ideal) x18 i) + U i) (val_main_call14_v0 (F := Ideal) i)
  rw [hdot, hbias, hz]

end Cert.Bridge

end
-- ==== Proof.KI.Layer2.lean ====
/- Layer 2 of the message-passing network, read off the kernel program's boundaries and joined to the reference.
   The kernel program computes five products of feature arrays with weight slices, takes rows of them for the up
   messages, rectifies and adds the messages up per receiver, forms the two boundary terms with the incidence arrays,
   and updates the three feature arrays. The reference takes the rows first and multiplies afterwards, and multiplies
   the edge boundary term by its weight last. Buffer by buffer, at the boundary where it is consumed, each array the
   kernel program has written is shown equal to the reference's function of the arguments; a buffer that no item in
   between writes is carried from the boundary where it was written. -/
import proofs.«101828_j11562051961417_2_alg».proof.Proof.KI.Layer1
import proofs.«101828_j11562051961417_2_alg».proof.Proof.KI.Layer2Host
import proofs.«101828_j11562051961417_2_alg».proof.Proof.KI.ValProj20
import proofs.«101828_j11562051961417_2_alg».proof.Proof.KI.ValProj21
import proofs.«101828_j11562051961417_2_alg».proof.Proof.KI.ValProj22
import proofs.«101828_j11562051961417_2_alg».proof.Proof.KI.ValProj23
import proofs.«101828_j11562051961417_2_alg».proof.Proof.KI.ValProj24
import proofs.«101828_j11562051961417_2_alg».proof.Proof.KI.ValBound25
import proofs.«101828_j11562051961417_2_alg».proof.Proof.KI.ValBound26
import proofs.«101828_j11562051961417_2_alg».proof.Proof.KI.ValSelf27
import proofs.«101828_j11562051961417_2_alg».proof.Proof.KI.ValSelf28
import proofs.«101828_j11562051961417_2_alg».proof.Proof.KI.ValSelf29
import proofs.«101828_j11562051961417_2_alg».proof.Proof.KI.Layer2Bound
import proofs.«101828_j11562051961417_2_alg».proof.Proof.KI.Layer2Self

set_option maxRecDepth 16384

noncomputable section

namespace Cert.KernelIdeal.Val

open Cert.KernelIdeal.Gen Cert.KernelIdeal.Reg Cert.ReferenceIdeal.Read
open Idealize.ShloMosaic Idealize.ShloMosaic.TcCoe Idealize.ShloMosaic.ValueIdx
open Cert.Spec (Mat Mat3 mul bmul)

variable (m : (ℓ : Loc nD τ sig) → Buf (Elt Ideal) ℓ) (ρ : Dev nD → PrngReg)

/-! ## What the items of layer 2 leave alone

`wt k` lists what items 49 … k write (a region its output array, a host stretch its results); a buffer outside the list is
at boundary k as it was at boundary 48. With the earlier layers' lists (`ws`), a buffer outside all of them is as at boundary 1,
and an argument is as launched. -/

abbrev wt49 : List (Ref sig .tc) := hostOps20_W
theorem W49_sinceB (c : Dev nD) (r : Ref sig .tc) (h : r ∉ wt49) : W49 m ρ c (Proc.devRef .tc r) = W48 m ρ c (Proc.devRef .tc r) :=
  W49_keep m ρ c r h
abbrev ws49 : List (Ref sig .tc) := wt49 ++ ws48
theorem W49_since1 (c : Dev nD) (r : Ref sig .tc) (h : r ∉ ws49) : W49 m ρ c (Proc.devRef .tc r) = W1 m ρ c (Proc.devRef .tc r) :=
  (W49_sinceB m ρ c r (fun e => h (List.mem_append.mpr (Or.inl e)))).trans (W48_since1 m ρ c r (fun e => h (List.mem_append.mpr (Or.inr e))))
theorem W49_arg (c : Dev nD) (r : Ref sig .tc) (h : r ∉ ws49) (h0 : r ∉ hostOps0_W) : W49 m ρ c (Proc.devRef .tc r) = m ((c : Thread nD τ).loc r) :=
  (W49_since1 m ρ c r h).trans (W1_launch m ρ c r h0)

abbrev wt50 : List (Ref sig .tc) := main_v222 :: wt49
theorem W50_sinceB (c : Dev nD) (r : Ref sig .tc) (h : r ∉ wt50) : W50 m ρ c (Proc.devRef .tc r) = W48 m ρ c (Proc.devRef .tc r) :=
  (W50_keep m ρ c r (fun e => h (List.mem_cons.mpr (Or.inl e)))).trans (W49_sinceB m ρ c r (fun e => h (List.mem_cons.mpr (Or.inr e))))
abbrev ws50 : List (Ref sig .tc) := wt50 ++ ws48
theorem W50_since1 (c : Dev nD) (r : Ref sig .tc) (h : r ∉ ws50) : W50 m ρ c (Proc.devRef .tc r) = W1 m ρ c (Proc.devRef .tc r) :=
  (W50_sinceB m ρ c r (fun e => h (List.mem_append.mpr (Or.inl e)))).trans (W48_since1 m ρ c r (fun e => h (List.mem_append.mpr (Or.inr e))))
theorem W50_arg (c : Dev nD) (r : Ref sig .tc) (h : r ∉ ws50) (h0 : r ∉ hostOps0_W) : W50 m ρ c (Proc.devRef .tc r) = m ((c : Thread nD τ).loc r) :=
  (W50_since1 m ρ c r h).trans (W1_launch m ρ c r h0)

abbrev wt51 : List (Ref sig .tc) := hostOps21_W ++ wt50
theorem W51_sinceB (c : Dev nD) (r : Ref sig .tc) (h : r ∉ wt51) : W51 m ρ c (Proc.devRef .tc r) = W48 m ρ c (Proc.devRef .tc r) :=
  (W51_keep m ρ c r (fun e => h (List.mem_append.mpr (Or.inl e)))).trans (W50_sinceB m ρ c r (fun e => h (List.mem_append.mpr (Or.inr e))))
abbrev ws51 : List (Ref sig .tc) := wt51 ++ ws48
theorem W51_since1 (c : Dev nD) (r : Ref sig .tc) (h : r ∉ ws51) : W51 m ρ c (Proc.devRef .tc r) = W1 m ρ c (Proc.devRef .tc r) :=
  (W51_sinceB m ρ c r (fun e => h (List.mem_append.mpr (Or.inl e)))).trans (W48_since1 m ρ c r (fun e => h (List.mem_append.mpr (Or.inr e))))
theorem W51_arg (c : Dev nD) (r : Ref sig .tc) (h : r ∉ ws51) (h0 : r ∉ hostOps0_W) : W51 m ρ c (Proc.devRef .tc r) = m ((c : Thread nD τ).loc r) :=
  (W51_since1 m ρ c r h).trans (W1_launch m ρ c r h0)

abbrev wt52 : List (Ref sig .tc) := main_v225 :: wt51
theorem W52_sinceB (c : Dev nD) (r : Ref sig .tc) (h : r ∉ wt52) : W52 m ρ c (Proc.devRef .tc r) = W48 m ρ c (Proc.devRef .tc r) :=
  (W52_keep m ρ c r (fun e => h (List.mem_cons.mpr (Or.inl e)))).trans (W51_sinceB m ρ c r (fun e => h (List.mem_cons.mpr (Or.inr e))))
abbrev ws52 : List (Ref sig .tc) := wt52 ++ ws48
theorem W52_since1 (c : Dev nD) (r : Ref sig .tc) (h : r ∉ ws52) : W52 m ρ c (Proc.devRef .tc r) = W1 m ρ c (Proc.devRef .tc r) :=
  (W52_sinceB m ρ c r (fun e => h (List.mem_append.mpr (Or.inl e)))).trans (W48_since1 m ρ c r (fun e => h (List.mem_append.mpr (Or.inr e))))
theorem W52_arg (c : Dev nD) (r : Ref sig .tc) (h : r ∉ ws52) (h0 : r ∉ hostOps0_W) : W52 m ρ c (Proc.devRef .tc r) = m ((c : Thread nD τ).loc r) :=
  (W52_since1 m ρ c r h).trans (W1_launch m ρ c r h0)

abbrev wt53 : List (Ref sig .tc) := hostOps22_W ++ wt52
theorem W53_sinceB (c : Dev nD) (r : Ref sig .tc) (h : r ∉ wt53) : W53 m ρ c (Proc.devRef .tc r) = W48 m ρ c (Proc.devRef .tc r) :=
  (W53_keep m ρ c r (fun e => h (List.mem_append.mpr (Or.inl e)))).trans (W52_sinceB m ρ c r (fun e => h (List.mem_append.mpr (Or.inr e))))
abbrev ws53 : List (Ref sig .tc) := wt53 ++ ws48
theorem W53_since1 (c : Dev nD) (r : Ref sig .tc) (h : r ∉ ws53) : W53 m ρ c (Proc.devRef .tc r) = W1 m ρ c (Proc.devRef .tc r) :=
  (W53_sinceB m ρ c r (fun e => h (List.mem_append.mpr (Or.inl e)))).trans (W48_since1 m ρ c r (fun e => h (List.mem_append.mpr (Or.inr e))))
theorem W53_arg (c : Dev nD) (r : Ref sig .tc) (h : r ∉ ws53) (h0 : r ∉ hostOps0_W) : W53 m ρ c (Proc.devRef .tc r) = m ((c : Thread nD τ).loc r) :=
  (W53_since1 m ρ c r h).trans (W1_launch m ρ c r h0)

abbrev wt54 : List (Ref sig .tc) := main_v228 :: wt53
theorem W54_sinceB (c : Dev nD) (r : Ref sig .tc) (h : r ∉ wt54) : W54 m ρ c (Proc.devRef .tc r) = W48 m ρ c (Proc.devRef .tc r) :=
  (W54_keep m ρ c r (fun e => h (List.mem_cons.mpr (Or.inl e)))).trans (W53_sinceB m ρ c r (fun e => h (List.mem_cons.mpr (Or.inr e))))
abbrev ws54 : List (Ref sig .tc) := wt54 ++ ws48
theorem W54_since1 (c : Dev nD) (r : Ref sig .tc) (h : r ∉ ws54) : W54 m ρ c (Proc.devRef .tc r) = W1 m ρ c (Proc.devRef .tc r) :=
  (W54_sinceB m ρ c r (fun e => h (List.mem_append.mpr (Or.inl e)))).trans (W48_since1 m ρ c r (fun e => h (List.mem_append.mpr (Or.inr e))))
theorem W54_arg (c : Dev nD) (r : Ref sig .tc) (h : r ∉ ws54) (h0 : r ∉ hostOps0_W) : W54 m ρ c (Proc.devRef .tc r) = m ((c : Thread nD τ).loc r) :=
  (W54_since1 m ρ c r h).trans (W1_launch m ρ c r h0)

abbrev wt55 : List (Ref sig .tc) := hostOps23_W ++ wt54
theorem W55_sinceB (c : Dev nD) (r : Ref sig .tc) (h : r ∉ wt55) : W55 m ρ c (Proc.devRef .tc r) = W48 m ρ c (Proc.devRef .tc r) :=
  (W55_keep m ρ c r (fun e => h (List.mem_append.mpr (Or.inl e)))).trans (W54_sinceB m ρ c r (fun e => h (List.mem_append.mpr (Or.inr e))))
abbrev ws55 : List (Ref sig .tc) := wt55 ++ ws48
theorem W55_since1 (c : Dev nD) (r : Ref sig .tc) (h : r ∉ ws55) : W55 m ρ c (Proc.devRef .tc r) = W1 m ρ c (Proc.devRef .tc r) :=
  (W55_sinceB m ρ c r (fun e => h (List.mem_append.mpr (Or.inl e)))).trans (W48_since1 m ρ c r (fun e => h (List.mem_append.mpr (Or.inr e))))
theorem W55_arg (c : Dev nD) (r : Ref sig .tc) (h : r ∉ ws55) (h0 : r ∉ hostOps0_W) : W55 m ρ c (Proc.devRef .tc r) = m ((c : Thread nD τ).loc r) :=
  (W55_since1 m ρ c r h).trans (W1_launch m ρ c r h0)

abbrev wt56 : List (Ref sig .tc) := main_v231 :: wt55
theorem W56_sinceB (c : Dev nD) (r : Ref sig .tc) (h : r ∉ wt56) : W56 m ρ c (Proc.devRef .tc r) = W48 m ρ c (Proc.devRef .tc r) :=
  (W56_keep m ρ c r (fun e => h (List.mem_cons.mpr (Or.inl e)))).trans (W55_sinceB m ρ c r (fun e => h (List.mem_cons.mpr (Or.inr e))))
abbrev ws56 : List (Ref sig .tc) := wt56 ++ ws48
theorem W56_since1 (c : Dev nD) (r : Ref sig .tc) (h : r ∉ ws56) : W56 m ρ c (Proc.devRef .tc r) = W1 m ρ c (Proc.devRef .tc r) :=
  (W56_sinceB m ρ c r (fun e => h (List.mem_append.mpr (Or.inl e)))).trans (W48_since1 m ρ c r (fun e => h (List.mem_append.mpr (Or.inr e))))
theorem W56_arg (c : Dev nD) (r : Ref sig .tc) (h : r ∉ ws56) (h0 : r ∉ hostOps0_W) : W56 m ρ c (Proc.devRef .tc r) = m ((c : Thread nD τ).loc r) :=
  (W56_since1 m ρ c r h).trans (W1_launch m ρ c r h0)

abbrev wt57 : List (Ref sig .tc) := hostOps24_W ++ wt56
theorem W57_sinceB (c : Dev nD) (r : Ref sig .tc) (h : r ∉ wt57) : W57 m ρ c (Proc.devRef .tc r) = W48 m ρ c (Proc.devRef .tc r) :=
  (W57_keep m ρ c r (fun e => h (List.mem_append.mpr (Or.inl e)))).trans (W56_sinceB m ρ c r (fun e => h (List.mem_append.mpr (Or.inr e))))
abbrev ws57 : List (Ref sig .tc) := wt57 ++ ws48
theorem W57_since1 (c : Dev nD) (r : Ref sig .tc) (h : r ∉ ws57) : W57 m ρ c (Proc.devRef .tc r) = W1 m ρ c (Proc.devRef .tc r) :=
  (W57_sinceB m ρ c r (fun e => h (List.mem_append.mpr (Or.inl e)))).trans (W48_since1 m ρ c r (fun e => h (List.mem_append.mpr (Or.inr e))))
theorem W57_arg (c : Dev nD) (r : Ref sig .tc) (h : r ∉ ws57) (h0 : r ∉ hostOps0_W) : W57 m ρ c (Proc.devRef .tc r) = m ((c : Thread nD τ).loc r) :=
  (W57_since1 m ρ c r h).trans (W1_launch m ρ c r h0)

abbrev wt58 : List (Ref sig .tc) := main_v234 :: wt57
theorem W58_sinceB (c : Dev nD) (r : Ref sig .tc) (h : r ∉ wt58) : W58 m ρ c (Proc.devRef .tc r) = W48 m ρ c (Proc.devRef .tc r) :=
  (W58_keep m ρ c r (fun e => h (List.mem_cons.mpr (Or.inl e)))).trans (W57_sinceB m ρ c r (fun e => h (List.mem_cons.mpr (Or.inr e))))
abbrev ws58 : List (Ref sig .tc) := wt58 ++ ws48
theorem W58_since1 (c : Dev nD) (r : Ref sig .tc) (h : r ∉ ws58) : W58 m ρ c (Proc.devRef .tc r) = W1 m ρ c (Proc.devRef .tc r) :=
  (W58_sinceB m ρ c r (fun e => h (List.mem_append.mpr (Or.inl e)))).trans (W48_since1 m ρ c r (fun e => h (List.mem_append.mpr (Or.inr e))))
theorem W58_arg (c : Dev nD) (r : Ref sig .tc) (h : r ∉ ws58) (h0 : r ∉ hostOps0_W) : W58 m ρ c (Proc.devRef .tc r) = m ((c : Thread nD τ).loc r) :=
  (W58_since1 m ρ c r h).trans (W1_launch m ρ c r h0)

abbrev wt59 : List (Ref sig .tc) := hostOps25_W ++ wt58
theorem W59_sinceB (c : Dev nD) (r : Ref sig .tc) (h : r ∉ wt59) : W59 m ρ c (Proc.devRef .tc r) = W48 m ρ c (Proc.devRef .tc r) :=
  (W59_keep m ρ c r (fun e => h (List.mem_append.mpr (Or.inl e)))).trans (W58_sinceB m ρ c r (fun e => h (List.mem_append.mpr (Or.inr e))))
abbrev ws59 : List (Ref sig .tc) := wt59 ++ ws48
theorem W59_since1 (c : Dev nD) (r : Ref sig .tc) (h : r ∉ ws59) : W59 m ρ c (Proc.devRef .tc r) = W1 m ρ c (Proc.devRef .tc r) :=
  (W59_sinceB m ρ c r (fun e => h (List.mem_append.mpr (Or.inl e)))).trans (W48_since1 m ρ c r (fun e => h (List.mem_append.mpr (Or.inr e))))
theorem W59_arg (c : Dev nD) (r : Ref sig .tc) (h : r ∉ ws59) (h0 : r ∉ hostOps0_W) : W59 m ρ c (Proc.devRef .tc r) = m ((c : Thread nD τ).loc r) :=
  (W59_since1 m ρ c r h).trans (W1_launch m ρ c r h0)

abbrev wt60 : List (Ref sig .tc) := hostOps25_1_W ++ wt59
theorem W60_sinceB (c : Dev nD) (r : Ref sig .tc) (h : r ∉ wt60) : W60 m ρ c (Proc.devRef .tc r) = W48 m ρ c (Proc.devRef .tc r) :=
  (W60_keep m ρ c r (fun e => h (List.mem_append.mpr (Or.inl e)))).trans (W59_sinceB m ρ c r (fun e => h (List.mem_append.mpr (Or.inr e))))
abbrev ws60 : List (Ref sig .tc) := wt60 ++ ws48
theorem W60_since1 (c : Dev nD) (r : Ref sig .tc) (h : r ∉ ws60) : W60 m ρ c (Proc.devRef .tc r) = W1 m ρ c (Proc.devRef .tc r) :=
  (W60_sinceB m ρ c r (fun e => h (List.mem_append.mpr (Or.inl e)))).trans (W48_since1 m ρ c r (fun e => h (List.mem_append.mpr (Or.inr e))))
theorem W60_arg (c : Dev nD) (r : Ref sig .tc) (h : r ∉ ws60) (h0 : r ∉ hostOps0_W) : W60 m ρ c (Proc.devRef .tc r) = m ((c : Thread nD τ).loc r) :=
  (W60_since1 m ρ c r h).trans (W1_launch m ρ c r h0)

abbrev wt61 : List (Ref sig .tc) := hostOps25_2_W ++ wt60
theorem W61_sinceB (c : Dev nD) (r : Ref sig .tc) (h : r ∉ wt61) : W61 m ρ c (Proc.devRef .tc r) = W48 m ρ c (Proc.devRef .tc r) :=
  (W61_keep m ρ c r (fun e => h (List.mem_append.mpr (Or.inl e)))).trans (W60_sinceB m ρ c r (fun e => h (List.mem_append.mpr (Or.inr e))))
abbrev ws61 : List (Ref sig .tc) := wt61 ++ ws48
theorem W61_since1 (c : Dev nD) (r : Ref sig .tc) (h : r ∉ ws61) : W61 m ρ c (Proc.devRef .tc r) = W1 m ρ c (Proc.devRef .tc r) :=
  (W61_sinceB m ρ c r (fun e => h (List.mem_append.mpr (Or.inl e)))).trans (W48_since1 m ρ c r (fun e => h (List.mem_append.mpr (Or.inr e))))
theorem W61_arg (c : Dev nD) (r : Ref sig .tc) (h : r ∉ ws61) (h0 : r ∉ hostOps0_W) : W61 m ρ c (Proc.devRef .tc r) = m ((c : Thread nD τ).loc r) :=
  (W61_since1 m ρ c r h).trans (W1_launch m ρ c r h0)

abbrev wt62 : List (Ref sig .tc) := hostOps25_3_W ++ wt61
theorem W62_sinceB (c : Dev nD) (r : Ref sig .tc) (h : r ∉ wt62) : W62 m ρ c (Proc.devRef .tc r) = W48 m ρ c (Proc.devRef .tc r) :=
  (W62_keep m ρ c r (fun e => h (List.mem_append.mpr (Or.inl e)))).trans (W61_sinceB m ρ c r (fun e => h (List.mem_append.mpr (Or.inr e))))
abbrev ws62 : List (Ref sig .tc) := wt62 ++ ws48
theorem W62_since1 (c : Dev nD) (r : Ref sig .tc) (h : r ∉ ws62) : W62 m ρ c (Proc.devRef .tc r) = W1 m ρ c (Proc.devRef .tc r) :=
  (W62_sinceB m ρ c r (fun e => h (List.mem_append.mpr (Or.inl e)))).trans (W48_since1 m ρ c r (fun e => h (List.mem_append.mpr (Or.inr e))))
theorem W62_arg (c : Dev nD) (r : Ref sig .tc) (h : r ∉ ws62) (h0 : r ∉ hostOps0_W) : W62 m ρ c (Proc.devRef .tc r) = m ((c : Thread nD τ).loc r) :=
  (W62_since1 m ρ c r h).trans (W1_launch m ρ c r h0)

abbrev wt63 : List (Ref sig .tc) := hostOps25_4_W ++ wt62
theorem W63_sinceB (c : Dev nD) (r : Ref sig .tc) (h : r ∉ wt63) : W63 m ρ c (Proc.devRef .tc r) = W48 m ρ c (Proc.devRef .tc r) :=
  (W63_keep m ρ c r (fun e => h (List.mem_append.mpr (Or.inl e)))).trans (W62_sinceB m ρ c r (fun e => h (List.mem_append.mpr (Or.inr e))))
abbrev ws63 : List (Ref sig .tc) := wt63 ++ ws48
theorem W63_since1 (c : Dev nD) (r : Ref sig .tc) (h : r ∉ ws63) : W63 m ρ c (Proc.devRef .tc r) = W1 m ρ c (Proc.devRef .tc r) :=
  (W63_sinceB m ρ c r (fun e => h (List.mem_append.mpr (Or.inl e)))).trans (W48_since1 m ρ c r (fun e => h (List.mem_append.mpr (Or.inr e))))
theorem W63_arg (c : Dev nD) (r : Ref sig .tc) (h : r ∉ ws63) (h0 : r ∉ hostOps0_W) : W63 m ρ c (Proc.devRef .tc r) = m ((c : Thread nD τ).loc r) :=
  (W63_since1 m ρ c r h).trans (W1_launch m ρ c r h0)

abbrev wt64 : List (Ref sig .tc) := main_v274 :: wt63
theorem W64_sinceB (c : Dev nD) (r : Ref sig .tc) (h : r ∉ wt64) : W64 m ρ c (Proc.devRef .tc r) = W48 m ρ c (Proc.devRef .tc r) :=
  (W64_keep m ρ c r (fun e => h (List.mem_cons.mpr (Or.inl e)))).trans (W63_sinceB m ρ c r (fun e => h (List.mem_cons.mpr (Or.inr e))))
abbrev ws64 : List (Ref sig .tc) := wt64 ++ ws48
theorem W64_since1 (c : Dev nD) (r : Ref sig .tc) (h : r ∉ ws64) : W64 m ρ c (Proc.devRef .tc r) = W1 m ρ c (Proc.devRef .tc r) :=
  (W64_sinceB m ρ c r (fun e => h (List.mem_append.mpr (Or.inl e)))).trans (W48_since1 m ρ c r (fun e => h (List.mem_append.mpr (Or.inr e))))
theorem W64_arg (c : Dev nD) (r : Ref sig .tc) (h : r ∉ ws64) (h0 : r ∉ hostOps0_W) : W64 m ρ c (Proc.devRef .tc r) = m ((c : Thread nD τ).loc r) :=
  (W64_since1 m ρ c r h).trans (W1_launch m ρ c r h0)

abbrev wt65 : List (Ref sig .tc) := hostOps26_W ++ wt64
theorem W65_sinceB (c : Dev nD) (r : Ref sig .tc) (h : r ∉ wt65) : W65 m ρ c (Proc.devRef .tc r) = W48 m ρ c (Proc.devRef .tc r) :=
  (W65_keep m ρ c r (fun e => h (List.mem_append.mpr (Or.inl e)))).trans (W64_sinceB m ρ c r (fun e => h (List.mem_append.mpr (Or.inr e))))
abbrev ws65 : List (Ref sig .tc) := wt65 ++ ws48
theorem W65_since1 (c : Dev nD) (r : Ref sig .tc) (h : r ∉ ws65) : W65 m ρ c (Proc.devRef .tc r) = W1 m ρ c (Proc.devRef .tc r) :=
  (W65_sinceB m ρ c r (fun e => h (List.mem_append.mpr (Or.inl e)))).trans (W48_since1 m ρ c r (fun e => h (List.mem_append.mpr (Or.inr e))))
theorem W65_arg (c : Dev nD) (r : Ref sig .tc) (h : r ∉ ws65) (h0 : r ∉ hostOps0_W) : W65 m ρ c (Proc.devRef .tc r) = m ((c : Thread nD τ).loc r) :=
  (W65_since1 m ρ c r h).trans (W1_launch m ρ c r h0)

abbrev wt66 : List (Ref sig .tc) := main_v279 :: wt65
theorem W66_sinceB (c : Dev nD) (r : Ref sig .tc) (h : r ∉ wt66) : W66 m ρ c (Proc.devRef .tc r) = W48 m ρ c (Proc.devRef .tc r) :=
  (W66_keep m ρ c r (fun e => h (List.mem_cons.mpr (Or.inl e)))).trans (W65_sinceB m ρ c r (fun e => h (List.mem_cons.mpr (Or.inr e))))
abbrev ws66 : List (Ref sig .tc) := wt66 ++ ws48
theorem W66_since1 (c : Dev nD) (r : Ref sig .tc) (h : r ∉ ws66) : W66 m ρ c (Proc.devRef .tc r) = W1 m ρ c (Proc.devRef .tc r) :=
  (W66_sinceB m ρ c r (fun e => h (List.mem_append.mpr (Or.inl e)))).trans (W48_since1 m ρ c r (fun e => h (List.mem_append.mpr (Or.inr e))))
theorem W66_arg (c : Dev nD) (r : Ref sig .tc) (h : r ∉ ws66) (h0 : r ∉ hostOps0_W) : W66 m ρ c (Proc.devRef .tc r) = m ((c : Thread nD τ).loc r) :=
  (W66_since1 m ρ c r h).trans (W1_launch m ρ c r h0)

abbrev wt67 : List (Ref sig .tc) := hostOps27_W ++ wt66
theorem W67_sinceB (c : Dev nD) (r : Ref sig .tc) (h : r ∉ wt67) : W67 m ρ c (Proc.devRef .tc r) = W48 m ρ c (Proc.devRef .tc r) :=
  (W67_keep m ρ c r (fun e => h (List.mem_append.mpr (Or.inl e)))).trans (W66_sinceB m ρ c r (fun e => h (List.mem_append.mpr (Or.inr e))))
abbrev ws67 : List (Ref sig .tc) := wt67 ++ ws48
theorem W67_since1 (c : Dev nD) (r : Ref sig .tc) (h : r ∉ ws67) : W67 m ρ c (Proc.devRef .tc r) = W1 m ρ c (Proc.devRef .tc r) :=
  (W67_sinceB m ρ c r (fun e => h (List.mem_append.mpr (Or.inl e)))).trans (W48_since1 m ρ c r (fun e => h (List.mem_append.mpr (Or.inr e))))
theorem W67_arg (c : Dev nD) (r : Ref sig .tc) (h : r ∉ ws67) (h0 : r ∉ hostOps0_W) : W67 m ρ c (Proc.devRef .tc r) = m ((c : Thread nD τ).loc r) :=
  (W67_since1 m ρ c r h).trans (W1_launch m ρ c r h0)

abbrev wt68 : List (Ref sig .tc) := main_v286 :: wt67
theorem W68_sinceB (c : Dev nD) (r : Ref sig .tc) (h : r ∉ wt68) : W68 m ρ c (Proc.devRef .tc r) = W48 m ρ c (Proc.devRef .tc r) :=
  (W68_keep m ρ c r (fun e => h (List.mem_cons.mpr (Or.inl e)))).trans (W67_sinceB m ρ c r (fun e => h (List.mem_cons.mpr (Or.inr e))))
abbrev ws68 : List (Ref sig .tc) := wt68 ++ ws48
theorem W68_since1 (c : Dev nD) (r : Ref sig .tc) (h : r ∉ ws68) : W68 m ρ c (Proc.devRef .tc r) = W1 m ρ c (Proc.devRef .tc r) :=
  (W68_sinceB m ρ c r (fun e => h (List.mem_append.mpr (Or.inl e)))).trans (W48_since1 m ρ c r (fun e => h (List.mem_append.mpr (Or.inr e))))
theorem W68_arg (c : Dev nD) (r : Ref sig .tc) (h : r ∉ ws68) (h0 : r ∉ hostOps0_W) : W68 m ρ c (Proc.devRef .tc r) = m ((c : Thread nD τ).loc r) :=
  (W68_since1 m ρ c r h).trans (W1_launch m ρ c r h0)

abbrev wt69 : List (Ref sig .tc) := hostOps28_W ++ wt68
theorem W69_sinceB (c : Dev nD) (r : Ref sig .tc) (h : r ∉ wt69) : W69 m ρ c (Proc.devRef .tc r) = W48 m ρ c (Proc.devRef .tc r) :=
  (W69_keep m ρ c r (fun e => h (List.mem_append.mpr (Or.inl e)))).trans (W68_sinceB m ρ c r (fun e => h (List.mem_append.mpr (Or.inr e))))
abbrev ws69 : List (Ref sig .tc) := wt69 ++ ws48
theorem W69_since1 (c : Dev nD) (r : Ref sig .tc) (h : r ∉ ws69) : W69 m ρ c (Proc.devRef .tc r) = W1 m ρ c (Proc.devRef .tc r) :=
  (W69_sinceB m ρ c r (fun e => h (List.mem_append.mpr (Or.inl e)))).trans (W48_since1 m ρ c r (fun e => h (List.mem_append.mpr (Or.inr e))))
theorem W69_arg (c : Dev nD) (r : Ref sig .tc) (h : r ∉ ws69) (h0 : r ∉ hostOps0_W) : W69 m ρ c (Proc.devRef .tc r) = m ((c : Thread nD τ).loc r) :=
  (W69_since1 m ρ c r h).trans (W1_launch m ρ c r h0)

abbrev wt70 : List (Ref sig .tc) := main_v292 :: wt69
theorem W70_sinceB (c : Dev nD) (r : Ref sig .tc) (h : r ∉ wt70) : W70 m ρ c (Proc.devRef .tc r) = W48 m ρ c (Proc.devRef .tc r) :=
  (W70_keep m ρ c r (fun e => h (List.mem_cons.mpr (Or.inl e)))).trans (W69_sinceB m ρ c r (fun e => h (List.mem_cons.mpr (Or.inr e))))
abbrev ws70 : List (Ref sig .tc) := wt70 ++ ws48
theorem W70_since1 (c : Dev nD) (r : Ref sig .tc) (h : r ∉ ws70) : W70 m ρ c (Proc.devRef .tc r) = W1 m ρ c (Proc.devRef .tc r) :=
  (W70_sinceB m ρ c r (fun e => h (List.mem_append.mpr (Or.inl e)))).trans (W48_since1 m ρ c r (fun e => h (List.mem_append.mpr (Or.inr e))))
theorem W70_arg (c : Dev nD) (r : Ref sig .tc) (h : r ∉ ws70) (h0 : r ∉ hostOps0_W) : W70 m ρ c (Proc.devRef .tc r) = m ((c : Thread nD τ).loc r) :=
  (W70_since1 m ρ c r h).trans (W1_launch m ρ c r h0)

abbrev wt71 : List (Ref sig .tc) := hostOps29_W ++ wt70
theorem W71_sinceB (c : Dev nD) (r : Ref sig .tc) (h : r ∉ wt71) : W71 m ρ c (Proc.devRef .tc r) = W48 m ρ c (Proc.devRef .tc r) :=
  (W71_keep m ρ c r (fun e => h (List.mem_append.mpr (Or.inl e)))).trans (W70_sinceB m ρ c r (fun e => h (List.mem_append.mpr (Or.inr e))))
abbrev ws71 : List (Ref sig .tc) := wt71 ++ ws48
theorem W71_since1 (c : Dev nD) (r : Ref sig .tc) (h : r ∉ ws71) : W71 m ρ c (Proc.devRef .tc r) = W1 m ρ c (Proc.devRef .tc r) :=
  (W71_sinceB m ρ c r (fun e => h (List.mem_append.mpr (Or.inl e)))).trans (W48_since1 m ρ c r (fun e => h (List.mem_append.mpr (Or.inr e))))
theorem W71_arg (c : Dev nD) (r : Ref sig .tc) (h : r ∉ ws71) (h0 : r ∉ hostOps0_W) : W71 m ρ c (Proc.devRef .tc r) = m ((c : Thread nD τ).loc r) :=
  (W71_since1 m ρ c r h).trans (W1_launch m ρ c r h0)

abbrev wt72 : List (Ref sig .tc) := main_v298 :: wt71
theorem W72_sinceB (c : Dev nD) (r : Ref sig .tc) (h : r ∉ wt72) : W72 m ρ c (Proc.devRef .tc r) = W48 m ρ c (Proc.devRef .tc r) :=
  (W72_keep m ρ c r (fun e => h (List.mem_cons.mpr (Or.inl e)))).trans (W71_sinceB m ρ c r (fun e => h (List.mem_cons.mpr (Or.inr e))))
abbrev ws72 : List (Ref sig .tc) := wt72 ++ ws48
theorem W72_since1 (c : Dev nD) (r : Ref sig .tc) (h : r ∉ ws72) : W72 m ρ c (Proc.devRef .tc r) = W1 m ρ c (Proc.devRef .tc r) :=
  (W72_sinceB m ρ c r (fun e => h (List.mem_append.mpr (Or.inl e)))).trans (W48_since1 m ρ c r (fun e => h (List.mem_append.mpr (Or.inr e))))
theorem W72_arg (c : Dev nD) (r : Ref sig .tc) (h : r ∉ ws72) (h0 : r ∉ hostOps0_W) : W72 m ρ c (Proc.devRef .tc r) = m ((c : Thread nD τ).loc r) :=
  (W72_since1 m ρ c r h).trans (W1_launch m ρ c r h0)

/-! ## The five products of layer 2

Each region multiplies a feature array by a weight slice; the weight slice is the same slice of the same argument in
both programs. -/

/-- The first up-weight of the node messages. -/
theorem W49_v221 (c : Dev nD) : W49 m ρ c (Proc.devRef .tc main_v221) = val_main_v256 (F := Ideal) (m ((c : Thread nD τ).loc main_arg19)) := by
  have e := after20_v221 (W48 m ρ c)
  rw [W48_arg m ρ c main_arg19 (by decide) (by decide)] at e
  exact e

/-- Region 20: the node features times the first up-weight. -/
theorem W50_v222 (c : Dev nD) (hn : W48 m ρ c (Proc.devRef .tc main_v207) = (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W50 m ρ c (Proc.devRef .tc main_v222) = mul ((val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))) : Mat 32768 256) (val_main_v256 (F := Ideal) (m ((c : Thread nD τ).loc main_arg19)) : Mat 256 256) := by
  have e : W50 m ρ c (Proc.devRef .tc main_v222) = mul (W49 m ρ c (Proc.devRef .tc main_v207) : Mat 32768 256) (W49 m ρ c (Proc.devRef .tc main_v221) : Mat 256 256) :=
    (W50_arr m ρ c 2).trans (arrAt20 (V49 m ρ) c)
  rw [(W49_sinceB m ρ c main_v207 (by decide)).trans hn, W49_v221 m ρ c] at e
  exact e

/-- The second up-weight of the node messages. -/
theorem W51_v224 (c : Dev nD) : W51 m ρ c (Proc.devRef .tc main_v224) = val_main_v266 (F := Ideal) (m ((c : Thread nD τ).loc main_arg20)) := by
  have e := after21_v224 (W50 m ρ c)
  rw [W50_arg m ρ c main_arg20 (by decide) (by decide)] at e
  exact e

/-- Region 21: the edge features times the second up-weight. -/
theorem W52_v225 (c : Dev nD) (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W52 m ρ c (Proc.devRef .tc main_v225) = mul ((val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v266 (F := Ideal) (m ((c : Thread nD τ).loc main_arg20)) : Mat 256 256) := by
  have e : W52 m ρ c (Proc.devRef .tc main_v225) = mul (W51 m ρ c (Proc.devRef .tc main_v213) : Mat 65536 256) (W51 m ρ c (Proc.devRef .tc main_v224) : Mat 256 256) :=
    (W52_arr m ρ c 2).trans (arrAt21 (V51 m ρ) c)
  rw [(W51_sinceB m ρ c main_v213 (by decide)).trans he, W51_v224 m ρ c] at e
  exact e

/-- The first up-weight of the edge messages. -/
theorem W53_v227 (c : Dev nD) : W53 m ρ c (Proc.devRef .tc main_v227) = val_main_v281 (F := Ideal) (m ((c : Thread nD τ).loc main_arg19)) := by
  have e := after22_v227 (W52 m ρ c)
  rw [W52_arg m ρ c main_arg19 (by decide) (by decide)] at e
  exact e

/-- Region 22: the edge features times the first up-weight of the edge messages. -/
theorem W54_v228 (c : Dev nD) (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W54 m ρ c (Proc.devRef .tc main_v228) = mul ((val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v281 (F := Ideal) (m ((c : Thread nD τ).loc main_arg19)) : Mat 256 256) := by
  have e : W54 m ρ c (Proc.devRef .tc main_v228) = mul (W53 m ρ c (Proc.devRef .tc main_v213) : Mat 65536 256) (W53 m ρ c (Proc.devRef .tc main_v227) : Mat 256 256) :=
    (W54_arr m ρ c 2).trans (arrAt22 (V53 m ρ) c)
  rw [(W53_sinceB m ρ c main_v213 (by decide)).trans he, W53_v227 m ρ c] at e
  exact e

/-- The second up-weight of the edge messages. -/
theorem W55_v230 (c : Dev nD) : W55 m ρ c (Proc.devRef .tc main_v230) = val_main_v291 (F := Ideal) (m ((c : Thread nD τ).loc main_arg20)) := by
  have e := after23_v230 (W54 m ρ c)
  rw [W54_arg m ρ c main_arg20 (by decide) (by decide)] at e
  exact e

/-- Region 23: the cell features times the second up-weight of the edge messages. -/
theorem W56_v231 (c : Dev nD) (hc : W48 m ρ c (Proc.devRef .tc main_v219) = (val_main_v247 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W56 m ρ c (Proc.devRef .tc main_v231) = mul ((val_main_v247 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 16384 256) (val_main_v291 (F := Ideal) (m ((c : Thread nD τ).loc main_arg20)) : Mat 256 256) := by
  have e : W56 m ρ c (Proc.devRef .tc main_v231) = mul (W55 m ρ c (Proc.devRef .tc main_v219) : Mat 16384 256) (W55 m ρ c (Proc.devRef .tc main_v230) : Mat 256 256) :=
    (W56_arr m ρ c 2).trans (arrAt23 (V55 m ρ) c)
  rw [(W55_sinceB m ρ c main_v219 (by decide)).trans hc, W55_v230 m ρ c] at e
  exact e

/-- The edge boundary weight. -/
theorem W57_v233 (c : Dev nD) : W57 m ρ c (Proc.devRef .tc main_v233) = val_main_v302 (F := Ideal) (m ((c : Thread nD τ).loc main_arg21)) := by
  have e := after24_v233 (W56 m ρ c)
  rw [W56_arg m ρ c main_arg21 (by decide) (by decide)] at e
  exact e

/-- Region 24: the node features times the edge boundary weight. -/
theorem W58_v234 (c : Dev nD) (hn : W48 m ρ c (Proc.devRef .tc main_v207) = (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W58 m ρ c (Proc.devRef .tc main_v234) = mul ((val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))) : Mat 32768 256) (val_main_v302 (F := Ideal) (m ((c : Thread nD τ).loc main_arg21)) : Mat 256 256) := by
  have e : W58 m ρ c (Proc.devRef .tc main_v234) = mul (W57 m ρ c (Proc.devRef .tc main_v207) : Mat 32768 256) (W57 m ρ c (Proc.devRef .tc main_v233) : Mat 256 256) :=
    (W58_arr m ρ c 2).trans (arrAt24 (V57 m ρ) c)
  rw [(W57_sinceB m ρ c main_v207 (by decide)).trans hn, W57_v233 m ρ c] at e
  exact e

/-! ## The node messages and their sums

The kernel takes rows of the products; the reference multiplies the rows taken. -/

theorem W58_v222 (c : Dev nD) (hn : W48 m ρ c (Proc.devRef .tc main_v207) = (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W58 m ρ c (Proc.devRef .tc main_v222) = mul ((val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))) : Mat 32768 256) (val_main_v256 (F := Ideal) (m ((c : Thread nD τ).loc main_arg19)) : Mat 256 256) :=
  (W58_keep m ρ c main_v222 (by decide)).trans <|
  (W57_keep m ρ c main_v222 (by decide)).trans <|
  (W56_keep m ρ c main_v222 (by decide)).trans <|
  (W55_keep m ρ c main_v222 (by decide)).trans <|
  (W54_keep m ρ c main_v222 (by decide)).trans <|
  (W53_keep m ρ c main_v222 (by decide)).trans <|
  (W52_keep m ρ c main_v222 (by decide)).trans <|
  (W51_keep m ρ c main_v222 (by decide)).trans <|
  W50_v222 m ρ c hn

theorem W58_v225 (c : Dev nD) (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W58 m ρ c (Proc.devRef .tc main_v225) = mul ((val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v266 (F := Ideal) (m ((c : Thread nD τ).loc main_arg20)) : Mat 256 256) :=
  (W58_keep m ρ c main_v225 (by decide)).trans <|
  (W57_keep m ρ c main_v225 (by decide)).trans <|
  (W56_keep m ρ c main_v225 (by decide)).trans <|
  (W55_keep m ρ c main_v225 (by decide)).trans <|
  (W54_keep m ρ c main_v225 (by decide)).trans <|
  (W53_keep m ρ c main_v225 (by decide)).trans <|
  W52_v225 m ρ c he

/-- The rectified node messages, in the kernel's order of operations. -/
theorem W60_v250 (c : Dev nD) (hn : W48 m ρ c (Proc.devRef .tc main_v207) = (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W60 m ρ c (Proc.devRef .tc main_v250)
    = maximumf (addf (Host.gather gather_S32768x256_S131072x1_S131072x256_1_0_n_n_0_1_1256 (mul ((val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))) : Mat 32768 256) (val_main_v256 (F := Ideal) (m ((c : Thread nD τ).loc main_arg19)) : Mat 256 256)) (val_main_v253 (F := Ideal) (m ((c : Thread nD τ).loc main_arg3)) (m ((c : Thread nD τ).loc main_arg5))))
        (Host.gather gather_S65536x256_S131072x1_S131072x256_1_0_n_n_0_1_1256 (mul ((val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v266 (F := Ideal) (m ((c : Thread nD τ).loc main_arg20)) : Mat 256 256)) (val_main_v263 (F := Ideal) (m ((c : Thread nD τ).loc main_arg3)) (m ((c : Thread nD τ).loc main_arg6))))) (broadcastInDim S131072x256 ![] bcast_S_S131072x256 (constant (F := Ideal) S_ .f32 0x00000000#32)) := by
  have e91 := after25_v249 (W58 m ρ c)
  rw [W58_v222 m ρ c hn, W58_v225 m ρ c he, (W58_since1 m ρ c main_v49 (by decide)).trans (W1_v49 m ρ c),
    (W58_since1 m ρ c main_v52 (by decide)).trans (W1_v52 m ρ c)] at e91
  have e92 := after25_1_v250 (W59 m ρ c)
  rw [show W59 m ρ c (Proc.devRef .tc main_v249) = _ from e91] at e92
  exact e92

/-- The node messages added up per receiving node: the reference's sum. -/
theorem W61_v253 (c : Dev nD) (hn : W48 m ρ c (Proc.devRef .tc main_v207) = (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W61 m ρ c (Proc.devRef .tc main_v253) = val_main_v272 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e := after25_2_v253 (W60 m ρ c)
  rw [(W60_since1 m ρ c main_v46 (by decide)).trans (W1_v46 m ρ c), W60_v250 m ρ c hn he] at e
  exact e.trans (Cert.Bridge.up_n_layer2 _ _ _ _ _ _ _ _ _ _ _ _ _ _ _ _ _ _ _ _ _ _)

/-! ## The edge messages and their sums -/

theorem W60_v228 (c : Dev nD) (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W60 m ρ c (Proc.devRef .tc main_v228) = mul ((val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v281 (F := Ideal) (m ((c : Thread nD τ).loc main_arg19)) : Mat 256 256) :=
  (W60_keep m ρ c main_v228 (by decide)).trans <|
  (W59_keep m ρ c main_v228 (by decide)).trans <|
  (W58_keep m ρ c main_v228 (by decide)).trans <|
  (W57_keep m ρ c main_v228 (by decide)).trans <|
  (W56_keep m ρ c main_v228 (by decide)).trans <|
  (W55_keep m ρ c main_v228 (by decide)).trans <|
  W54_v228 m ρ c he

theorem W60_v231 (c : Dev nD) (hc : W48 m ρ c (Proc.devRef .tc main_v219) = (val_main_v247 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W60 m ρ c (Proc.devRef .tc main_v231) = mul ((val_main_v247 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 16384 256) (val_main_v291 (F := Ideal) (m ((c : Thread nD τ).loc main_arg20)) : Mat 256 256) :=
  (W60_keep m ρ c main_v231 (by decide)).trans <|
  (W59_keep m ρ c main_v231 (by decide)).trans <|
  (W58_keep m ρ c main_v231 (by decide)).trans <|
  (W57_keep m ρ c main_v231 (by decide)).trans <|
  W56_v231 m ρ c hc

/-- The rectified edge messages, in the kernel's order of operations. -/
theorem W62_v269 (c : Dev nD) (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (hc : W48 m ρ c (Proc.devRef .tc main_v219) = (val_main_v247 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W62 m ρ c (Proc.devRef .tc main_v269)
    = maximumf (addf (Host.gather gather_S65536x256_S98304x1_S98304x256_1_0_n_n_0_1_1256 (mul ((val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v281 (F := Ideal) (m ((c : Thread nD τ).loc main_arg19)) : Mat 256 256)) (val_main_v278 (F := Ideal) (m ((c : Thread nD τ).loc main_arg7)) (m ((c : Thread nD τ).loc main_arg9))))
        (Host.gather gather_S16384x256_S98304x1_S98304x256_1_0_n_n_0_1_1256 (mul ((val_main_v247 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 16384 256) (val_main_v291 (F := Ideal) (m ((c : Thread nD τ).loc main_arg20)) : Mat 256 256)) (val_main_v288 (F := Ideal) (m ((c : Thread nD τ).loc main_arg7)) (m ((c : Thread nD τ).loc main_arg10))))) (broadcastInDim S98304x256 ![] bcast_S_S98304x256 (constant (F := Ideal) S_ .f32 0x00000000#32)) := by
  have e110 := after25_2_v268 (W60 m ρ c)
  rw [W60_v228 m ρ c he, W60_v231 m ρ c hc, (W60_since1 m ρ c main_v58 (by decide)).trans (W1_v58 m ρ c),
    (W60_since1 m ρ c main_v61 (by decide)).trans (W1_v61 m ρ c)] at e110
  have e111 := after25_3_v269 (W61 m ρ c)
  rw [show W61 m ρ c (Proc.devRef .tc main_v268) = _ from e110] at e111
  exact e111

/-- The edge messages added up per receiving edge: the reference's sum. -/
theorem W63_v272 (c : Dev nD) (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (hc : W48 m ρ c (Proc.devRef .tc main_v219) = (val_main_v247 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W63 m ρ c (Proc.devRef .tc main_v272) = val_main_v297 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e := after25_4_v272 (W62 m ρ c)
  rw [(W62_since1 m ρ c main_v55 (by decide)).trans (W1_v55 m ρ c), W62_v269 m ρ c he hc] at e
  exact e.trans (Cert.Bridge.up_e_layer2 _ _ _ _ _ _ _ _ _ _ _ _ _ _ _ _ _ _ _ _ _ _)

/-! ## The edge boundary term

The kernel multiplies the incidence array with the node features already multiplied by the weight; the reference
multiplies by the weight last. With every entry real the two agree. -/

theorem W62_v234 (c : Dev nD) (hn : W48 m ρ c (Proc.devRef .tc main_v207) = (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W62 m ρ c (Proc.devRef .tc main_v234) = mul ((val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))) : Mat 32768 256) (val_main_v302 (F := Ideal) (m ((c : Thread nD τ).loc main_arg21)) : Mat 256 256) :=
  (W62_keep m ρ c main_v234 (by decide)).trans <|
  (W61_keep m ρ c main_v234 (by decide)).trans <|
  (W60_keep m ρ c main_v234 (by decide)).trans <|
  (W59_keep m ρ c main_v234 (by decide)).trans <|
  W58_v234 m ρ c hn

theorem W63_v273 (c : Dev nD) (hn : W48 m ρ c (Proc.devRef .tc main_v207) = (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W63 m ρ c (Proc.devRef .tc main_v273)
    = shapeCast S256x128x256 (mul ((val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))) : Mat 32768 256) (val_main_v302 (F := Ideal) (m ((c : Thread nD τ).loc main_arg21)) : Mat 256 256)) shapeCasts_S32768x256_S256x128x256 := by
  have e := after25_4_v273 (W62 m ρ c)
  rw [W62_v234 m ρ c hn] at e
  exact e

/-- Region 25: the batched product of the edge incidence array with the projected node features. -/
theorem W64_v274 (c : Dev nD) (hn : W48 m ρ c (Proc.devRef .tc main_v207) = (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) : W64 m ρ c (Proc.devRef .tc main_v274)
    = bmul (val_main_v21 (F := Ideal) (m ((c : Thread nD τ).loc main_arg11)) (m ((c : Thread nD τ).loc main_arg12)) (m ((c : Thread nD τ).loc main_arg13)) : Mat3 256 256 128)
        (shapeCast S256x128x256 (mul ((val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))) : Mat 32768 256) (val_main_v302 (F := Ideal) (m ((c : Thread nD τ).loc main_arg21)) : Mat 256 256)) shapeCasts_S32768x256_S256x128x256 : Mat3 256 128 256) := by
  have e : W64 m ρ c (Proc.devRef .tc main_v274) = bmul (W63 m ρ c (Proc.devRef .tc main_v21) : Mat3 256 256 128) (W63 m ρ c (Proc.devRef .tc main_v273) : Mat3 256 128 256) :=
    (W64_arr m ρ c 2).trans (arrAt25 (V63 m ρ) c)
  rw [(W63_since1 m ρ c main_v21 (by decide)).trans (W1_v21 m ρ c), W63_v273 m ρ c hn] at e
  exact e

/-- The edge boundary term, flat: the reference's. -/
theorem W65_v275 (c : Dev nD) (hn : W48 m ρ c (Proc.devRef .tc main_v207) = (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) (hnf : Cert.Spec.Finite (s := ⟨2, ![32768, 256]⟩) (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) (h21 : Cert.Spec.Finite (s := ⟨4, ![4, 2, 256, 256]⟩) (m ((c : Thread nD τ).loc main_arg21))) :
    W65 m ρ c (Proc.devRef .tc main_v275) = val_main_v303 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)) := by
  have e := after26_v275 (W64 m ρ c)
  rw [W64_v274 m ρ c hn] at e
  exact e.trans (Cert.Bridge.bd_e_layer2 _ _ _ _ _ _ _ _ _ _ _ _ _ _ _ _ _ _ _ hnf h21)

/-! ## The cell boundary term -/

theorem W65_v276 (c : Dev nD) (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W65 m ρ c (Proc.devRef .tc main_v276) = val_main_v304 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e := after26_v276 (W64 m ρ c)
  rw [(W64_sinceB m ρ c main_v213 (by decide)).trans he] at e
  exact e

theorem W65_v278 (c : Dev nD) : W65 m ρ c (Proc.devRef .tc main_v278) = val_main_v308 (F := Ideal) (m ((c : Thread nD τ).loc main_arg21)) := by
  have e := after26_v278 (W64 m ρ c)
  rw [W64_arg m ρ c main_arg21 (by decide) (by decide)] at e
  exact e

/-- Region 26: the batched product of the cell incidence array with the edge features, each batch then multiplied by the
    weight. -/
theorem W66_v279 (c : Dev nD) (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W66 m ρ c (Proc.devRef .tc main_v279)
    = Cert.Bridge.cellMsg (val_main_v43 (F := Ideal) (m ((c : Thread nD τ).loc main_arg14)) (m ((c : Thread nD τ).loc main_arg15)) (m ((c : Thread nD τ).loc main_arg16))) (val_main_v304 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) (val_main_v308 (F := Ideal) (m ((c : Thread nD τ).loc main_arg21))) := by
  have e : W66 m ρ c (Proc.devRef .tc main_v279)
      = ((fun i => ∑ q : Fin 256, bmul (W65 m ρ c (Proc.devRef .tc main_v43) : Mat3 256 64 256) (W65 m ρ c (Proc.devRef .tc main_v276) : Mat3 256 256 256) (ix3 (i 0) (i 1) q)
          * (W65 m ρ c (Proc.devRef .tc main_v278) : Mat 256 256) (ix2 q (i 2))) : Mat3 256 64 256) :=
    (W66_arr m ρ c 3).trans (arrAt26 (V65 m ρ) c)
  rw [(W65_since1 m ρ c main_v43 (by decide)).trans (W1_v43 m ρ c), W65_v276 m ρ c he, W65_v278 m ρ c] at e
  exact e

/-- The cell boundary term, flat: the reference's. -/
theorem W67_v280 (c : Dev nD) (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W67 m ρ c (Proc.devRef .tc main_v280) = val_main_v309 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e := after27_v280 (W66 m ρ c)
  rw [W66_v279 m ρ c he] at e
  exact e.trans (Cert.Bridge.bd_c_layer2 _ _ _ _ _ _ _ _ _ _ _ _ _ _ _ _ _ _ _ _ _ _)

/-! ## The three updates

Each region adds, entry by entry, the product of the features with a self weight, a bias row, and the message sums,
and rectifies; the reference does the same with the bias broadcast over the rows. -/

theorem W67_v282 (c : Dev nD) : W67 m ρ c (Proc.devRef .tc main_v282) = val_main_v311 (F := Ideal) (m ((c : Thread nD τ).loc main_arg17)) := by
  have e := after27_v282 (W66 m ρ c)
  rw [W66_arg m ρ c main_arg17 (by decide) (by decide)] at e
  exact e

theorem W67_v285 (c : Dev nD) : W67 m ρ c (Proc.devRef .tc main_v285) = (shapeCast S1x256 (shapeCast S256 (extractStridedSlice S1x1x256 ![2, 0, 0] (m ((c : Thread nD τ).loc main_arg18)) slices_S4x3x256_S1x1x256_2_0_0) shapeCasts_S1x1x256_S256) shapeCasts_S256_S1x256 : Mat 1 256) := by
  have e := after27_v285 (W66 m ρ c)
  rw [W66_arg m ρ c main_arg18 (by decide) (by decide)] at e
  exact e

theorem W67_v253 (c : Dev nD) (hn : W48 m ρ c (Proc.devRef .tc main_v207) = (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W67 m ρ c (Proc.devRef .tc main_v253) = val_main_v272 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  (W67_keep m ρ c main_v253 (by decide)).trans <|
  (W66_keep m ρ c main_v253 (by decide)).trans <|
  (W65_keep m ρ c main_v253 (by decide)).trans <|
  (W64_keep m ρ c main_v253 (by decide)).trans <|
  (W63_keep m ρ c main_v253 (by decide)).trans <|
  (W62_keep m ρ c main_v253 (by decide)).trans <|
  W61_v253 m ρ c hn he

/-- Region 27: the new node features are the reference's. -/
theorem W68_v286 (c : Dev nD) (hn : W48 m ρ c (Proc.devRef .tc main_v207) = (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W68 m ρ c (Proc.devRef .tc main_v286) = val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e : W68 m ρ c (Proc.devRef .tc main_v286)
      = ((fun i => max (mul (W67 m ρ c (Proc.devRef .tc main_v207) : Mat 32768 256) (W67 m ρ c (Proc.devRef .tc main_v282) : Mat 256 256) i
          + (W67 m ρ c (Proc.devRef .tc main_v285) : Mat 1 256) (ix2 (0 : Fin 1) (i 1)) + (W67 m ρ c (Proc.devRef .tc main_v253) : Mat 32768 256) i) 0) : Mat 32768 256) :=
    (W68_arr m ρ c 4).trans (arrAt27 (V67 m ρ) c)
  rw [(W67_sinceB m ρ c main_v207 (by decide)).trans hn, W67_v282 m ρ c, W67_v285 m ρ c, W67_v253 m ρ c hn he] at e
  exact e.trans ((Cert.Bridge.self_n_layer2 _ _ _ _ _ _ _ _ _ _ _ _ _ _ _ _ _ _ _ _).trans rfl)

theorem W69_v288 (c : Dev nD) : W69 m ρ c (Proc.devRef .tc main_v288) = val_main_v321 (F := Ideal) (m ((c : Thread nD τ).loc main_arg17)) := by
  have e := after28_v288 (W68 m ρ c)
  rw [W68_arg m ρ c main_arg17 (by decide) (by decide)] at e
  exact e

theorem W69_v291 (c : Dev nD) : W69 m ρ c (Proc.devRef .tc main_v291) = (shapeCast S1x256 (shapeCast S256 (extractStridedSlice S1x1x256 ![2, 1, 0] (m ((c : Thread nD τ).loc main_arg18)) slices_S4x3x256_S1x1x256_2_1_0) shapeCasts_S1x1x256_S256) shapeCasts_S256_S1x256 : Mat 1 256) := by
  have e := after28_v291 (W68 m ρ c)
  rw [W68_arg m ρ c main_arg18 (by decide) (by decide)] at e
  exact e

theorem W69_v272 (c : Dev nD) (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (hc : W48 m ρ c (Proc.devRef .tc main_v219) = (val_main_v247 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W69 m ρ c (Proc.devRef .tc main_v272) = val_main_v297 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  (W69_keep m ρ c main_v272 (by decide)).trans <|
  (W68_keep m ρ c main_v272 (by decide)).trans <|
  (W67_keep m ρ c main_v272 (by decide)).trans <|
  (W66_keep m ρ c main_v272 (by decide)).trans <|
  (W65_keep m ρ c main_v272 (by decide)).trans <|
  (W64_keep m ρ c main_v272 (by decide)).trans <|
  W63_v272 m ρ c he hc

theorem W69_v275 (c : Dev nD) (hn : W48 m ρ c (Proc.devRef .tc main_v207) = (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) (hnf : Cert.Spec.Finite (s := ⟨2, ![32768, 256]⟩) (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) (h21 : Cert.Spec.Finite (s := ⟨4, ![4, 2, 256, 256]⟩) (m ((c : Thread nD τ).loc main_arg21))) :
    W69 m ρ c (Proc.devRef .tc main_v275) = val_main_v303 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)) :=
  (W69_keep m ρ c main_v275 (by decide)).trans <|
  (W68_keep m ρ c main_v275 (by decide)).trans <|
  (W67_keep m ρ c main_v275 (by decide)).trans <|
  (W66_keep m ρ c main_v275 (by decide)).trans <|
  W65_v275 m ρ c hn hnf h21

/-- Region 28: the new edge features are the reference's. -/
theorem W70_v292 (c : Dev nD) (hn : W48 m ρ c (Proc.devRef .tc main_v207) = (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (hc : W48 m ρ c (Proc.devRef .tc main_v219) = (val_main_v247 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (hnf : Cert.Spec.Finite (s := ⟨2, ![32768, 256]⟩) (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)))) (h21 : Cert.Spec.Finite (s := ⟨4, ![4, 2, 256, 256]⟩) (m ((c : Thread nD τ).loc main_arg21))) :
    W70 m ρ c (Proc.devRef .tc main_v292) = val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e : W70 m ρ c (Proc.devRef .tc main_v292)
      = ((fun i => max (mul (W69 m ρ c (Proc.devRef .tc main_v213) : Mat 65536 256) (W69 m ρ c (Proc.devRef .tc main_v288) : Mat 256 256) i
          + (W69 m ρ c (Proc.devRef .tc main_v291) : Mat 1 256) (ix2 (0 : Fin 1) (i 1)) + (W69 m ρ c (Proc.devRef .tc main_v272) : Mat 65536 256) i
          + (W69 m ρ c (Proc.devRef .tc main_v275) : Mat 65536 256) i) 0) : Mat 65536 256) :=
    (W70_arr m ρ c 5).trans (arrAt28 (V69 m ρ) c)
  rw [(W69_sinceB m ρ c main_v213 (by decide)).trans he, W69_v288 m ρ c, W69_v291 m ρ c, W69_v272 m ρ c he hc, W69_v275 m ρ c hn hnf h21] at e
  exact e.trans ((Cert.Bridge.self_e_layer2 _ _ _ _ _ _ _ _ _ _ _ _ _ _ _ _ _ _ _ _ _ _ _ _).trans rfl)

theorem W71_v294 (c : Dev nD) : W71 m ρ c (Proc.devRef .tc main_v294) = val_main_v332 (F := Ideal) (m ((c : Thread nD τ).loc main_arg17)) := by
  have e := after29_v294 (W70 m ρ c)
  rw [W70_arg m ρ c main_arg17 (by decide) (by decide)] at e
  exact e

theorem W71_v297 (c : Dev nD) : W71 m ρ c (Proc.devRef .tc main_v297) = (shapeCast S1x256 (shapeCast S256 (extractStridedSlice S1x1x256 ![2, 2, 0] (m ((c : Thread nD τ).loc main_arg18)) slices_S4x3x256_S1x1x256_2_2_0) shapeCasts_S1x1x256_S256) shapeCasts_S256_S1x256 : Mat 1 256) := by
  have e := after29_v297 (W70 m ρ c)
  rw [W70_arg m ρ c main_arg18 (by decide) (by decide)] at e
  exact e

theorem W71_v280 (c : Dev nD) (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W71 m ρ c (Proc.devRef .tc main_v280) = val_main_v309 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  (W71_keep m ρ c main_v280 (by decide)).trans <|
  (W70_keep m ρ c main_v280 (by decide)).trans <|
  (W69_keep m ρ c main_v280 (by decide)).trans <|
  (W68_keep m ρ c main_v280 (by decide)).trans <|
  W67_v280 m ρ c he

/-- Region 29: the new cell features are the reference's. -/
theorem W72_v298 (c : Dev nD) (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (hc : W48 m ρ c (Proc.devRef .tc main_v219) = (val_main_v247 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W72 m ρ c (Proc.devRef .tc main_v298) = val_main_v340 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e : W72 m ρ c (Proc.devRef .tc main_v298)
      = ((fun i => max (mul (W71 m ρ c (Proc.devRef .tc main_v219) : Mat 16384 256) (W71 m ρ c (Proc.devRef .tc main_v294) : Mat 256 256) i
          + (W71 m ρ c (Proc.devRef .tc main_v297) : Mat 1 256) (ix2 (0 : Fin 1) (i 1)) + (W71 m ρ c (Proc.devRef .tc main_v280) : Mat 16384 256) i) 0) : Mat 16384 256) :=
    (W72_arr m ρ c 4).trans (arrAt29 (V71 m ρ) c)
  rw [(W71_sinceB m ρ c main_v219 (by decide)).trans hc, W71_v294 m ρ c, W71_v297 m ρ c, W71_v280 m ρ c he] at e
  exact e.trans ((Cert.Bridge.self_c_layer2 _ _ _ _ _ _ _ _ _ _ _ _ _ _ _ _ _ _ _).trans rfl)

/-! ## Layer 2 -/

/-- LAYER 2: at boundary 72 the three feature arrays the kernel program has written are the reference's new node, edge
    and cell features of layer 2, as functions of the arguments, given that at boundary 48 the three feature arrays
    are the reference's of the layer before. The node features the layer starts from and the edge boundary weight stack are
    taken real: the edge boundary term is re-associated. -/
theorem layer2 (c : Dev nD)
    (hnf : Cert.Spec.Finite (s := ⟨2, ![32768, 256]⟩) (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))))
    (h21 : Cert.Spec.Finite (s := ⟨4, ![4, 2, 256, 256]⟩) (m ((c : Thread nD τ).loc main_arg21)))
    (hn : W48 m ρ c (Proc.devRef .tc main_v207) = (val_main_v226 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21))))
    (he : W48 m ρ c (Proc.devRef .tc main_v213) = (val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))))
    (hc : W48 m ρ c (Proc.devRef .tc main_v219) = (val_main_v247 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) :
    W72 m ρ c (Proc.devRef .tc main_v286) = val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))
    ∧ W72 m ρ c (Proc.devRef .tc main_v292) = val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))
    ∧ W72 m ρ c (Proc.devRef .tc main_v298) = val_main_v340 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  refine ⟨?_, ?_, W72_v298 m ρ c he hc⟩
  · exact
      (W72_keep m ρ c main_v286 (by decide)).trans <|
      (W71_keep m ρ c main_v286 (by decide)).trans <|
      (W70_keep m ρ c main_v286 (by decide)).trans <|
      (W69_keep m ρ c main_v286 (by decide)).trans <|
      W68_v286 m ρ c hn he
  · exact
      (W72_keep m ρ c main_v292 (by decide)).trans <|
      (W71_keep m ρ c main_v292 (by decide)).trans <|
      W70_v292 m ρ c hn he hc hnf h21

end Cert.KernelIdeal.Val

end
-- ==== Proof.KI.Layer3Host.lean ====
/- What each stretch of host operations of layer 3 leaves in the buffers the layer goes on to use, as a term of the
   buffers it finds: the weight and bias slices, the gathered and rectified messages, their sums per receiver, and the
   reshapes between flat and batched layouts. Each statement is over an arbitrary contents `W` at the stretch's entry. -/
import proofs.«101828_j11562051961417_2_alg».proof.Proof.Gen.KernelIdeal.Launch
import Idealize.ShloMosaic.Lib.StableHlo.Run

set_option maxRecDepth 16384

noncomputable section

namespace Cert.KernelIdeal.Val

open Cert.KernelIdeal.Gen
open Idealize.ShloMosaic Idealize.ShloMosaic.TcCoe

variable {F : FTy → Type} [FloatOps F]
variable (W : Valuation τ sig (Elt F))

/-! ## The stretch before region 30: the first weight -/

set_option maxHeartbeats 4000000 in
/-- The weight of the node messages' sender term: layer 3, slot 0 of the first up-weight stack. -/
theorem after30_v300 : StableHlo.after hostOps30 W (Proc.devRef .tc main_v300)
    = shapeCast S256x256 (extractStridedSlice S1x1x256x256 ![3, 0, 0, 0] (W (Proc.devRef .tc main_arg19) : (⟨S4x2x256x256, .f32⟩ : BufTy).Contents (Elt F)) slices_S4x2x256x256_S1x1x256x256_3_0_0_0) shapeCasts_S1x1x256x256_S256x256 := by
  after_results_simp <;> rfl

/-! ## The weight slices between the products -/

/-- Layer 3, slot 0 of the second up-weight stack. -/
theorem after31_v303 : StableHlo.after hostOps31 W (Proc.devRef .tc main_v303)
    = shapeCast S256x256 (extractStridedSlice S1x1x256x256 ![3, 0, 0, 0] (W (Proc.devRef .tc main_arg20) : (⟨S4x2x256x256, .f32⟩ : BufTy).Contents (Elt F)) slices_S4x2x256x256_S1x1x256x256_3_0_0_0) shapeCasts_S1x1x256x256_S256x256 := by
  after_results <;> rfl

/-- Layer 3, slot 1 of the first up-weight stack. -/
theorem after32_v306 : StableHlo.after hostOps32 W (Proc.devRef .tc main_v306)
    = shapeCast S256x256 (extractStridedSlice S1x1x256x256 ![3, 1, 0, 0] (W (Proc.devRef .tc main_arg19) : (⟨S4x2x256x256, .f32⟩ : BufTy).Contents (Elt F)) slices_S4x2x256x256_S1x1x256x256_3_1_0_0) shapeCasts_S1x1x256x256_S256x256 := by
  after_results <;> rfl

/-- Layer 3, slot 1 of the second up-weight stack. -/
theorem after33_v309 : StableHlo.after hostOps33 W (Proc.devRef .tc main_v309)
    = shapeCast S256x256 (extractStridedSlice S1x1x256x256 ![3, 1, 0, 0] (W (Proc.devRef .tc main_arg20) : (⟨S4x2x256x256, .f32⟩ : BufTy).Contents (Elt F)) slices_S4x2x256x256_S1x1x256x256_3_1_0_0) shapeCasts_S1x1x256x256_S256x256 := by
  after_results <;> rfl

/-- Layer 3, slot 0 of the boundary weight stack. -/
theorem after34_v312 : StableHlo.after hostOps34 W (Proc.devRef .tc main_v312)
    = shapeCast S256x256 (extractStridedSlice S1x1x256x256 ![3, 0, 0, 0] (W (Proc.devRef .tc main_arg21) : (⟨S4x2x256x256, .f32⟩ : BufTy).Contents (Elt F)) slices_S4x2x256x256_S1x1x256x256_3_0_0_0) shapeCasts_S1x1x256x256_S256x256 := by
  after_results <;> rfl

/-! ## The messages -/

set_option maxHeartbeats 4000000 in
/-- The node messages before the rectifier: the sender rows of the first product plus the edge rows of the second. -/
theorem after35_v328 : StableHlo.after hostOps35 W (Proc.devRef .tc main_v328)
    = addf (Host.gather gather_S32768x256_S131072x1_S131072x256_1_0_n_n_0_1_1256 (W (Proc.devRef .tc main_v301) : (⟨S32768x256, .f32⟩ : BufTy).Contents (Elt F)) (broadcastInDim S131072x1 ![0] bcast_S131072_S131072x1_0 (select (cmpi .slt (W (Proc.devRef .tc main_v49) : (⟨S131072, .i32⟩ : BufTy).Contents (Elt F)) (broadcastInDim S131072 ![] bcast_S_S131072 (constantI S_ 32 0#32))) (addi (W (Proc.devRef .tc main_v49) : (⟨S131072, .i32⟩ : BufTy).Contents (Elt F)) (broadcastInDim S131072 ![] bcast_S_S131072 (constantI S_ 32 32768#32))) (W (Proc.devRef .tc main_v49) : (⟨S131072, .i32⟩ : BufTy).Contents (Elt F)))))
      (Host.gather gather_S65536x256_S131072x1_S131072x256_1_0_n_n_0_1_1256 (W (Proc.devRef .tc main_v304) : (⟨S65536x256, .f32⟩ : BufTy).Contents (Elt F)) (broadcastInDim S131072x1 ![0] bcast_S131072_S131072x1_0 (select (cmpi .slt (W (Proc.devRef .tc main_v52) : (⟨S131072, .i32⟩ : BufTy).Contents (Elt F)) (broadcastInDim S131072 ![] bcast_S_S131072 (constantI S_ 32 0#32))) (addi (W (Proc.devRef .tc main_v52) : (⟨S131072, .i32⟩ : BufTy).Contents (Elt F)) (broadcastInDim S131072 ![] bcast_S_S131072 (constantI S_ 32 65536#32))) (W (Proc.devRef .tc main_v52) : (⟨S131072, .i32⟩ : BufTy).Contents (Elt F))))) := by
  after_results_simp <;> rfl

/-- The rectifier of the node messages. -/
theorem after35_1_v329 : StableHlo.after hostOps35_1 W (Proc.devRef .tc main_v329)
    = maximumf (W (Proc.devRef .tc main_v328) : (⟨S131072x256, .f32⟩ : BufTy).Contents (Elt F)) (broadcastInDim S131072x256 ![] bcast_S_S131072x256 (constant (F := F) S_ .f32 0x00000000#32)) := by
  after_results <;> (try simp only [StableHlo.TRef.ofBuf, StableHlo.TRef.toBuf, cast_eq]) <;> rfl

set_option maxHeartbeats 4000000 in
/-- The node messages added up per receiving node. -/
theorem after35_2_v332 : StableHlo.after hostOps35_2 W (Proc.devRef .tc main_v332)
    = Host.scatterAdd scatter_S32768x256_S131072x1_S131072x256_1_0_0_1 (broadcastInDim S32768x256 ![] bcast_S_S32768x256 (constant (F := F) S_ .f32 0x00000000#32)) (broadcastInDim S131072x1 ![0] bcast_S131072_S131072x1_0 (W (Proc.devRef .tc main_v46) : (⟨S131072, .i32⟩ : BufTy).Contents (Elt F))) (W (Proc.devRef .tc main_v329) : (⟨S131072x256, .f32⟩ : BufTy).Contents (Elt F)) := by
  after_results_simp <;> rfl

set_option maxHeartbeats 4000000 in
/-- The edge messages before the rectifier: the sender rows of the third product plus the cell rows of the fourth. -/
theorem after35_2_v347 : StableHlo.after hostOps35_2 W (Proc.devRef .tc main_v347)
    = addf (Host.gather gather_S65536x256_S98304x1_S98304x256_1_0_n_n_0_1_1256 (W (Proc.devRef .tc main_v307) : (⟨S65536x256, .f32⟩ : BufTy).Contents (Elt F)) (broadcastInDim S98304x1 ![0] bcast_S98304_S98304x1_0 (select (cmpi .slt (W (Proc.devRef .tc main_v58) : (⟨S98304, .i32⟩ : BufTy).Contents (Elt F)) (broadcastInDim S98304 ![] bcast_S_S98304 (constantI S_ 32 0#32))) (addi (W (Proc.devRef .tc main_v58) : (⟨S98304, .i32⟩ : BufTy).Contents (Elt F)) (broadcastInDim S98304 ![] bcast_S_S98304 (constantI S_ 32 65536#32))) (W (Proc.devRef .tc main_v58) : (⟨S98304, .i32⟩ : BufTy).Contents (Elt F)))))
      (Host.gather gather_S16384x256_S98304x1_S98304x256_1_0_n_n_0_1_1256 (W (Proc.devRef .tc main_v310) : (⟨S16384x256, .f32⟩ : BufTy).Contents (Elt F)) (broadcastInDim S98304x1 ![0] bcast_S98304_S98304x1_0 (select (cmpi .slt (W (Proc.devRef .tc main_v61) : (⟨S98304, .i32⟩ : BufTy).Contents (Elt F)) (broadcastInDim S98304 ![] bcast_S_S98304 (constantI S_ 32 0#32))) (addi (W (Proc.devRef .tc main_v61) : (⟨S98304, .i32⟩ : BufTy).Contents (Elt F)) (broadcastInDim S98304 ![] bcast_S_S98304 (constantI S_ 32 16384#32))) (W (Proc.devRef .tc main_v61) : (⟨S98304, .i32⟩ : BufTy).Contents (Elt F))))) := by
  after_results_simp <;> rfl

/-- The rectifier of the edge messages. -/
theorem after35_3_v348 : StableHlo.after hostOps35_3 W (Proc.devRef .tc main_v348)
    = maximumf (W (Proc.devRef .tc main_v347) : (⟨S98304x256, .f32⟩ : BufTy).Contents (Elt F)) (broadcastInDim S98304x256 ![] bcast_S_S98304x256 (constant (F := F) S_ .f32 0x00000000#32)) := by
  after_results <;> (try simp only [StableHlo.TRef.ofBuf, StableHlo.TRef.toBuf, cast_eq]) <;> rfl

/-- The edge messages added up per receiving edge. -/
theorem after35_4_v351 : StableHlo.after hostOps35_4 W (Proc.devRef .tc main_v351)
    = Host.scatterAdd scatter_S65536x256_S98304x1_S98304x256_1_0_0_1 (broadcastInDim S65536x256 ![] bcast_S_S65536x256 (constant (F := F) S_ .f32 0x00000000#32)) (broadcastInDim S98304x1 ![0] bcast_S98304_S98304x1_0 (W (Proc.devRef .tc main_v55) : (⟨S98304, .i32⟩ : BufTy).Contents (Elt F))) (W (Proc.devRef .tc main_v348) : (⟨S98304x256, .f32⟩ : BufTy).Contents (Elt F)) := by
  after_results <;> rfl

/-- The fifth product cut into 256 batches of 128 rows. -/
theorem after35_4_v352 : StableHlo.after hostOps35_4 W (Proc.devRef .tc main_v352)
    = shapeCast S256x128x256 (W (Proc.devRef .tc main_v313) : (⟨S32768x256, .f32⟩ : BufTy).Contents (Elt F)) shapeCasts_S32768x256_S256x128x256 := by
  after_results <;> rfl

/-! ## Around the two boundary regions -/

/-- The edge boundary term laid flat: 256 batches of 256 rows as 65536 rows. -/
theorem after36_v354 : StableHlo.after hostOps36 W (Proc.devRef .tc main_v354)
    = shapeCast S65536x256 (W (Proc.devRef .tc main_v353) : (⟨S256x256x256, .f32⟩ : BufTy).Contents (Elt F)) shapeCasts_S256x256x256_S65536x256 := by
  after_results <;> rfl

/-- The edge features cut into 256 batches of 256 rows. -/
theorem after36_v355 : StableHlo.after hostOps36 W (Proc.devRef .tc main_v355)
    = shapeCast S256x256x256 (W (Proc.devRef .tc main_v292) : (⟨S65536x256, .f32⟩ : BufTy).Contents (Elt F)) shapeCasts_S65536x256_S256x256x256 := by
  after_results <;> rfl

/-- Layer 3, slot 1 of the boundary weight stack. -/
theorem after36_v357 : StableHlo.after hostOps36 W (Proc.devRef .tc main_v357)
    = shapeCast S256x256 (extractStridedSlice S1x1x256x256 ![3, 1, 0, 0] (W (Proc.devRef .tc main_arg21) : (⟨S4x2x256x256, .f32⟩ : BufTy).Contents (Elt F)) slices_S4x2x256x256_S1x1x256x256_3_1_0_0) shapeCasts_S1x1x256x256_S256x256 := by
  after_results <;> rfl

/-- The cell boundary term laid flat: 256 batches of 64 rows as 16384 rows. -/
theorem after37_v359 : StableHlo.after hostOps37 W (Proc.devRef .tc main_v359)
    = shapeCast S16384x256 (W (Proc.devRef .tc main_v358) : (⟨S256x64x256, .f32⟩ : BufTy).Contents (Elt F)) shapeCasts_S256x64x256_S16384x256 := by
  after_results <;> rfl

/-! ## The weights and biases of the three updates -/

/-- Layer 3, slot 0 of the self weight stack. -/
theorem after37_v361 : StableHlo.after hostOps37 W (Proc.devRef .tc main_v361)
    = shapeCast S256x256 (extractStridedSlice S1x1x256x256 ![3, 0, 0, 0] (W (Proc.devRef .tc main_arg17) : (⟨S4x3x256x256, .f32⟩ : BufTy).Contents (Elt F)) slices_S4x3x256x256_S1x1x256x256_3_0_0_0) shapeCasts_S1x1x256x256_S256x256 := by
  after_results <;> rfl

/-- Layer 3, slot 0 of the bias stack, as one row. -/
theorem after37_v364 : StableHlo.after hostOps37 W (Proc.devRef .tc main_v364)
    = shapeCast S1x256 (shapeCast S256 (extractStridedSlice S1x1x256 ![3, 0, 0] (W (Proc.devRef .tc main_arg18) : (⟨S4x3x256, .f32⟩ : BufTy).Contents (Elt F)) slices_S4x3x256_S1x1x256_3_0_0) shapeCasts_S1x1x256_S256) shapeCasts_S256_S1x256 := by
  after_results <;> rfl

/-- Layer 3, slot 1 of the self weight stack. -/
theorem after38_v367 : StableHlo.after hostOps38 W (Proc.devRef .tc main_v367)
    = shapeCast S256x256 (extractStridedSlice S1x1x256x256 ![3, 1, 0, 0] (W (Proc.devRef .tc main_arg17) : (⟨S4x3x256x256, .f32⟩ : BufTy).Contents (Elt F)) slices_S4x3x256x256_S1x1x256x256_3_1_0_0) shapeCasts_S1x1x256x256_S256x256 := by
  after_results <;> rfl

/-- Layer 3, slot 1 of the bias stack, as one row. -/
theorem after38_v370 : StableHlo.after hostOps38 W (Proc.devRef .tc main_v370)
    = shapeCast S1x256 (shapeCast S256 (extractStridedSlice S1x1x256 ![3, 1, 0] (W (Proc.devRef .tc main_arg18) : (⟨S4x3x256, .f32⟩ : BufTy).Contents (Elt F)) slices_S4x3x256_S1x1x256_3_1_0) shapeCasts_S1x1x256_S256) shapeCasts_S256_S1x256 := by
  after_results <;> rfl

/-- Layer 3, slot 2 of the self weight stack. -/
theorem after39_v373 : StableHlo.after hostOps39 W (Proc.devRef .tc main_v373)
    = shapeCast S256x256 (extractStridedSlice S1x1x256x256 ![3, 2, 0, 0] (W (Proc.devRef .tc main_arg17) : (⟨S4x3x256x256, .f32⟩ : BufTy).Contents (Elt F)) slices_S4x3x256x256_S1x1x256x256_3_2_0_0) shapeCasts_S1x1x256x256_S256x256 := by
  after_results <;> rfl

/-- Layer 3, slot 2 of the bias stack, as one row. -/
theorem after39_v376 : StableHlo.after hostOps39 W (Proc.devRef .tc main_v376)
    = shapeCast S1x256 (shapeCast S256 (extractStridedSlice S1x1x256 ![3, 2, 0] (W (Proc.devRef .tc main_arg18) : (⟨S4x3x256, .f32⟩ : BufTy).Contents (Elt F)) slices_S4x3x256_S1x1x256_3_2_0) shapeCasts_S1x1x256_S256) shapeCasts_S256_S1x256 := by
  after_results <;> rfl

end Cert.KernelIdeal.Val

end
-- ==== Proof.KI.ValProj30.lean ====
/- Region 30 computes a matrix product, block of rows by block of rows.

   The region's first input array X has 32768 rows and 256 columns, its second input array W is 256 by 256, and its
   output array Y has the shape of X. The grid has 16 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 16 blocks cover Y, and after the region Y holds X · W. -/
import proofs.«101828_j11562051961417_2_alg».proof.Proof.KI.Region30
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs30_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs30_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs30_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs30_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay30_apply (x0 : FVec Ideal S2048x256 .f32) (x1 : FVec Ideal S256x256 .f32) (p : Fin 2048) (q : Fin 256) :
    k30_pay1 (F := Ideal) x0 x1 (ix2 p q) = ∑ k : Fin 256, x0 (ix2 p k) * x1 (ix2 k q) := by
  unfold k30_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs30_0 _ _
    | ⟨1, _⟩ => exact (lhs30_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs30_0 _ _).trans hk
    | ⟨1, _⟩ => exact rhs30_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz30 : (![0, 0] : Fin 2 → Nat) = fun _ => 0 := funext fun a => by fin_cases a <;> rfl

/-- The first input array as the region finds it: X, 32768 rows of 256 entries. -/
abbrev xarr30 (c : Dev nD) : Cert.Spec.Mat 32768 256 := V c (Pipeline.arrRef spec30 0)
/-- The second input array as the region finds it: W, 256 by 256. -/
abbrev warr30 (c : Dev nD) : Cert.Spec.Mat 256 256 := V c (Pipeline.arrRef spec30 1)

/-- Which block each window holds at grid point t: the blocks of X and of Y are block-row t (block column 0), the block of
    W is always the whole of W. Decided once over the 16 points. -/
theorem idx_facts30 : ∀ t : Fin cfg30.N, win30_0.index t (0 : Fin 2) = t.val
    ∧ win30_0.index t (1 : Fin 2) = 0
    ∧ win30_1.index t (0 : Fin 2) = 0
    ∧ win30_1.index t (1 : Fin 2) = 0
    ∧ win30_2.index t (0 : Fin 2) = t.val
    ∧ win30_2.index t (1 : Fin 2) = 0 :=
  (by decide +kernel : ∀ t : Fin grid30.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed30_eq (c : Dev nD) (t : Fin cfg30.N) :
    (dat30 (F := Ideal) V c).flushed 2 t = ((cfg30.win 2).blk t).view.read (Elt Ideal) (Cert.Spec.mul (xarr30 V c) (warr30 V c)) := by
  show (cfg30.win 2).cut (grid30.coords t) ((dat30 (F := Ideal) V c).after 2 t) = _
  rw [after30_2]
  unfold out30
  rw [View.canon_unit_zero hz30]
  simp only [View.ld_unit_zero (S := S2048x256) hz30, View.ld_unit_zero (S := S256x256) hz30]
  obtain ⟨e00, e01, e10, e11, e20, e21⟩ := idx_facts30 t
  funext j
  obtain ⟨p, q, rfl⟩ : ∃ (p : Fin 2048) (q : Fin 256), j = ix2 p q := ⟨j 0, j 1, eq_ix2 j⟩
  show k30_pay1 (F := Ideal) (iblk30 V c 0 t) (iblk30 V c 1 t) (ix2 p q) = Cert.Spec.mul (xarr30 V c) (warr30 V c) (((cfg30.win 2).blk t).view.emb (ix2 p q))
  refine (pay30_apply (iblk30 V c 0 t) (iblk30 V c 1 t) p q).trans ?_
  unfold Cert.Spec.mul
  refine Finset.sum_congr rfl fun k _ => ?_
  show xarr30 V c (((cfg30.win 0).blk t).view.emb (ix2 p k)) * warr30 V c (((cfg30.win 1).blk t).view.emb (ix2 k q))
    = xarr30 V c (ix2 ((((cfg30.win 2).blk t).view.emb (ix2 p q)) 0) k) * warr30 V c (ix2 k ((((cfg30.win 2).blk t).view.emb (ix2 p q)) 1))
  have h0 : ((cfg30.win 0).blk t).view.emb (ix2 p k) = ix2 ((((cfg30.win 2).blk t).view.emb (ix2 p q)) 0) k := by
    funext a; apply Fin.ext
    match a with
    | ⟨0, _⟩ => show win30_0.index t (0 : Fin 2) * 2048 + 1 * p.val = win30_2.index t (0 : Fin 2) * 2048 + 1 * p.val; omega
    | ⟨1, _⟩ => show win30_0.index t (1 : Fin 2) * 256 + 1 * k.val = k.val; omega
  have h1 : ((cfg30.win 1).blk t).view.emb (ix2 k q) = ix2 k ((((cfg30.win 2).blk t).view.emb (ix2 p q)) 1) := by
    funext a; apply Fin.ext
    match a with
    | ⟨0, _⟩ => show win30_1.index t (0 : Fin 2) * 256 + 1 * k.val = k.val; omega
    | ⟨1, _⟩ => show win30_1.index t (1 : Fin 2) * 256 + 1 * q.val = win30_2.index t (1 : Fin 2) * 256 + 1 * q.val; omega
  exact congrArg₂ (fun a b : EReal => a * b) (congrArg (xarr30 V c) h0) (congrArg (warr30 V c) h1)

/-- An entry of Y is in point t's block iff, on each axis, its coordinate lies in the block's range
    [index × size, index × size + size). -/
theorem mem_blk30 (t : Fin cfg30.N) (i : S32768x256.Idx) :
    i ∈ ((cfg30.win 2).blk t).view.set ↔ ∀ a : Fin 2, win30_2.index t a * S2048x256.size a ≤ (i a).val ∧ (i a).val < win30_2.index t a * S2048x256.size a + S2048x256.size a := by
  show i ∈ ((View.whole main_v301).slice (win30_2.rect t)).set ↔ _
  rw [View.set_slice_whole, Rect.mem_set_unit]
  exact Iff.rfl

/-- The blocks cover Y: row r lies in the block of point r / 2048 (r < 32768, so r / 2048 < 16), and every block spans
    all 256 columns. -/
theorem covered30 (i : S32768x256.Idx) : ∃ t : Fin cfg30.N, (cfg30.win 2).flush t = true ∧ i ∈ ((cfg30.win 2).blk t).view.set := by
  have hi0 : (i 0).val < 32768 := (i 0).isLt
  have hi1 : (i 1).val < 256 := (i 1).isLt
  have hN : cfg30.N = 16 := N_30
  have ht : (i 0).val / 2048 < cfg30.N := by rw [hN]; omega
  obtain ⟨-, -, -, -, e20, e21⟩ := idx_facts30 ⟨(i 0).val / 2048, ht⟩
  refine ⟨⟨(i 0).val / 2048, ht⟩, flush30_2 _, ?_⟩
  rw [mem_blk30]
  intro a
  match a with
  | ⟨0, _⟩ =>
    show win30_2.index ⟨(i 0).val / 2048, ht⟩ (0 : Fin 2) * 2048 ≤ (i 0).val ∧ (i 0).val < win30_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win30_2.index ⟨(i 0).val / 2048, ht⟩ (1 : Fin 2) * 256 ≤ (i 1).val ∧ (i 1).val < win30_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt30 (c : Dev nD) :
    (dat30 (F := Ideal) V c).arrAt 2 cfg30.N
      = Cert.Spec.mul (V c (Pipeline.arrRef spec30 0) : Cert.Spec.Mat 32768 256) (V c (Pipeline.arrRef spec30 1) : Cert.Spec.Mat 256 256) :=
  (dat30 (F := Ideal) V c).arrAt_eq_of_cover 2 (Cert.Spec.mul (xarr30 V c) (warr30 V c)) (fun t _ => flushed30_eq V c t) covered30

end Cert.KernelIdeal.Val

end
-- ==== Proof.KI.ValProj31.lean ====
/- Region 31 computes a matrix product, block of rows by block of rows.

   The region's first input array X has 65536 rows and 256 columns, its second input array W is 256 by 256, and its
   output array Y has the shape of X. The grid has 32 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 32 blocks cover Y, and after the region Y holds X · W. -/
import proofs.«101828_j11562051961417_2_alg».proof.Proof.KI.Region31
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs31_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs31_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs31_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs31_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay31_apply (x0 : FVec Ideal S2048x256 .f32) (x1 : FVec Ideal S256x256 .f32) (p : Fin 2048) (q : Fin 256) :
    k31_pay1 (F := Ideal) x0 x1 (ix2 p q) = ∑ k : Fin 256, x0 (ix2 p k) * x1 (ix2 k q) := by
  unfold k31_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs31_0 _ _
    | ⟨1, _⟩ => exact (lhs31_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs31_0 _ _).trans hk
    | ⟨1, _⟩ => exact rhs31_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz31 : (![0, 0] : Fin 2 → Nat) = fun _ => 0 := funext fun a => by fin_cases a <;> rfl

/-- The first input array as the region finds it: X, 65536 rows of 256 entries. -/
abbrev xarr31 (c : Dev nD) : Cert.Spec.Mat 65536 256 := V c (Pipeline.arrRef spec31 0)
/-- The second input array as the region finds it: W, 256 by 256. -/
abbrev warr31 (c : Dev nD) : Cert.Spec.Mat 256 256 := V c (Pipeline.arrRef spec31 1)

/-- Which block each window holds at grid point t: the blocks of X and of Y are block-row t (block column 0), the block of
    W is always the whole of W. Decided once over the 32 points. -/
theorem idx_facts31 : ∀ t : Fin cfg31.N, win31_0.index t (0 : Fin 2) = t.val
    ∧ win31_0.index t (1 : Fin 2) = 0
    ∧ win31_1.index t (0 : Fin 2) = 0
    ∧ win31_1.index t (1 : Fin 2) = 0
    ∧ win31_2.index t (0 : Fin 2) = t.val
    ∧ win31_2.index t (1 : Fin 2) = 0 :=
  (by decide +kernel : ∀ t : Fin grid31.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed31_eq (c : Dev nD) (t : Fin cfg31.N) :
    (dat31 (F := Ideal) V c).flushed 2 t = ((cfg31.win 2).blk t).view.read (Elt Ideal) (Cert.Spec.mul (xarr31 V c) (warr31 V c)) := by
  show (cfg31.win 2).cut (grid31.coords t) ((dat31 (F := Ideal) V c).after 2 t) = _
  rw [after31_2]
  unfold out31
  rw [View.canon_unit_zero hz31]
  simp only [View.ld_unit_zero (S := S2048x256) hz31, View.ld_unit_zero (S := S256x256) hz31]
  obtain ⟨e00, e01, e10, e11, e20, e21⟩ := idx_facts31 t
  funext j
  obtain ⟨p, q, rfl⟩ : ∃ (p : Fin 2048) (q : Fin 256), j = ix2 p q := ⟨j 0, j 1, eq_ix2 j⟩
  show k31_pay1 (F := Ideal) (iblk31 V c 0 t) (iblk31 V c 1 t) (ix2 p q) = Cert.Spec.mul (xarr31 V c) (warr31 V c) (((cfg31.win 2).blk t).view.emb (ix2 p q))
  refine (pay31_apply (iblk31 V c 0 t) (iblk31 V c 1 t) p q).trans ?_
  unfold Cert.Spec.mul
  refine Finset.sum_congr rfl fun k _ => ?_
  show xarr31 V c (((cfg31.win 0).blk t).view.emb (ix2 p k)) * warr31 V c (((cfg31.win 1).blk t).view.emb (ix2 k q))
    = xarr31 V c (ix2 ((((cfg31.win 2).blk t).view.emb (ix2 p q)) 0) k) * warr31 V c (ix2 k ((((cfg31.win 2).blk t).view.emb (ix2 p q)) 1))
  have h0 : ((cfg31.win 0).blk t).view.emb (ix2 p k) = ix2 ((((cfg31.win 2).blk t).view.emb (ix2 p q)) 0) k := by
    funext a; apply Fin.ext
    match a with
    | ⟨0, _⟩ => show win31_0.index t (0 : Fin 2) * 2048 + 1 * p.val = win31_2.index t (0 : Fin 2) * 2048 + 1 * p.val; omega
    | ⟨1, _⟩ => show win31_0.index t (1 : Fin 2) * 256 + 1 * k.val = k.val; omega
  have h1 : ((cfg31.win 1).blk t).view.emb (ix2 k q) = ix2 k ((((cfg31.win 2).blk t).view.emb (ix2 p q)) 1) := by
    funext a; apply Fin.ext
    match a with
    | ⟨0, _⟩ => show win31_1.index t (0 : Fin 2) * 256 + 1 * k.val = k.val; omega
    | ⟨1, _⟩ => show win31_1.index t (1 : Fin 2) * 256 + 1 * q.val = win31_2.index t (1 : Fin 2) * 256 + 1 * q.val; omega
  exact congrArg₂ (fun a b : EReal => a * b) (congrArg (xarr31 V c) h0) (congrArg (warr31 V c) h1)

/-- An entry of Y is in point t's block iff, on each axis, its coordinate lies in the block's range
    [index × size, index × size + size). -/
theorem mem_blk31 (t : Fin cfg31.N) (i : S65536x256.Idx) :
    i ∈ ((cfg31.win 2).blk t).view.set ↔ ∀ a : Fin 2, win31_2.index t a * S2048x256.size a ≤ (i a).val ∧ (i a).val < win31_2.index t a * S2048x256.size a + S2048x256.size a := by
  show i ∈ ((View.whole main_v304).slice (win31_2.rect t)).set ↔ _
  rw [View.set_slice_whole, Rect.mem_set_unit]
  exact Iff.rfl

/-- The blocks cover Y: row r lies in the block of point r / 2048 (r < 65536, so r / 2048 < 32), and every block spans
    all 256 columns. -/
theorem covered31 (i : S65536x256.Idx) : ∃ t : Fin cfg31.N, (cfg31.win 2).flush t = true ∧ i ∈ ((cfg31.win 2).blk t).view.set := by
  have hi0 : (i 0).val < 65536 := (i 0).isLt
  have hi1 : (i 1).val < 256 := (i 1).isLt
  have hN : cfg31.N = 32 := N_31
  have ht : (i 0).val / 2048 < cfg31.N := by rw [hN]; omega
  obtain ⟨-, -, -, -, e20, e21⟩ := idx_facts31 ⟨(i 0).val / 2048, ht⟩
  refine ⟨⟨(i 0).val / 2048, ht⟩, flush31_2 _, ?_⟩
  rw [mem_blk31]
  intro a
  match a with
  | ⟨0, _⟩ =>
    show win31_2.index ⟨(i 0).val / 2048, ht⟩ (0 : Fin 2) * 2048 ≤ (i 0).val ∧ (i 0).val < win31_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win31_2.index ⟨(i 0).val / 2048, ht⟩ (1 : Fin 2) * 256 ≤ (i 1).val ∧ (i 1).val < win31_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt31 (c : Dev nD) :
    (dat31 (F := Ideal) V c).arrAt 2 cfg31.N
      = Cert.Spec.mul (V c (Pipeline.arrRef spec31 0) : Cert.Spec.Mat 65536 256) (V c (Pipeline.arrRef spec31 1) : Cert.Spec.Mat 256 256) :=
  (dat31 (F := Ideal) V c).arrAt_eq_of_cover 2 (Cert.Spec.mul (xarr31 V c) (warr31 V c)) (fun t _ => flushed31_eq V c t) covered31

end Cert.KernelIdeal.Val

end
-- ==== Proof.KI.ValProj32.lean ====
/- Region 32 computes a matrix product, block of rows by block of rows.

   The region's first input array X has 65536 rows and 256 columns, its second input array W is 256 by 256, and its
   output array Y has the shape of X. The grid has 32 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 32 blocks cover Y, and after the region Y holds X · W. -/
import proofs.«101828_j11562051961417_2_alg».proof.Proof.KI.Region32
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs32_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs32_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs32_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs32_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay32_apply (x0 : FVec Ideal S2048x256 .f32) (x1 : FVec Ideal S256x256 .f32) (p : Fin 2048) (q : Fin 256) :
    k32_pay1 (F := Ideal) x0 x1 (ix2 p q) = ∑ k : Fin 256, x0 (ix2 p k) * x1 (ix2 k q) := by
  unfold k32_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs32_0 _ _
    | ⟨1, _⟩ => exact (lhs32_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs32_0 _ _).trans hk
    | ⟨1, _⟩ => exact rhs32_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz32 : (![0, 0] : Fin 2 → Nat) = fun _ => 0 := funext fun a => by fin_cases a <;> rfl

/-- The first input array as the region finds it: X, 65536 rows of 256 entries. -/
abbrev xarr32 (c : Dev nD) : Cert.Spec.Mat 65536 256 := V c (Pipeline.arrRef spec32 0)
/-- The second input array as the region finds it: W, 256 by 256. -/
abbrev warr32 (c : Dev nD) : Cert.Spec.Mat 256 256 := V c (Pipeline.arrRef spec32 1)

/-- Which block each window holds at grid point t: the blocks of X and of Y are block-row t (block column 0), the block of
    W is always the whole of W. Decided once over the 32 points. -/
theorem idx_facts32 : ∀ t : Fin cfg32.N, win32_0.index t (0 : Fin 2) = t.val
    ∧ win32_0.index t (1 : Fin 2) = 0
    ∧ win32_1.index t (0 : Fin 2) = 0
    ∧ win32_1.index t (1 : Fin 2) = 0
    ∧ win32_2.index t (0 : Fin 2) = t.val
    ∧ win32_2.index t (1 : Fin 2) = 0 :=
  (by decide +kernel : ∀ t : Fin grid32.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed32_eq (c : Dev nD) (t : Fin cfg32.N) :
    (dat32 (F := Ideal) V c).flushed 2 t = ((cfg32.win 2).blk t).view.read (Elt Ideal) (Cert.Spec.mul (xarr32 V c) (warr32 V c)) := by
  show (cfg32.win 2).cut (grid32.coords t) ((dat32 (F := Ideal) V c).after 2 t) = _
  rw [after32_2]
  unfold out32
  rw [View.canon_unit_zero hz32]
  simp only [View.ld_unit_zero (S := S2048x256) hz32, View.ld_unit_zero (S := S256x256) hz32]
  obtain ⟨e00, e01, e10, e11, e20, e21⟩ := idx_facts32 t
  funext j
  obtain ⟨p, q, rfl⟩ : ∃ (p : Fin 2048) (q : Fin 256), j = ix2 p q := ⟨j 0, j 1, eq_ix2 j⟩
  show k32_pay1 (F := Ideal) (iblk32 V c 0 t) (iblk32 V c 1 t) (ix2 p q) = Cert.Spec.mul (xarr32 V c) (warr32 V c) (((cfg32.win 2).blk t).view.emb (ix2 p q))
  refine (pay32_apply (iblk32 V c 0 t) (iblk32 V c 1 t) p q).trans ?_
  unfold Cert.Spec.mul
  refine Finset.sum_congr rfl fun k _ => ?_
  show xarr32 V c (((cfg32.win 0).blk t).view.emb (ix2 p k)) * warr32 V c (((cfg32.win 1).blk t).view.emb (ix2 k q))
    = xarr32 V c (ix2 ((((cfg32.win 2).blk t).view.emb (ix2 p q)) 0) k) * warr32 V c (ix2 k ((((cfg32.win 2).blk t).view.emb (ix2 p q)) 1))
  have h0 : ((cfg32.win 0).blk t).view.emb (ix2 p k) = ix2 ((((cfg32.win 2).blk t).view.emb (ix2 p q)) 0) k := by
    funext a; apply Fin.ext
    match a with
    | ⟨0, _⟩ => show win32_0.index t (0 : Fin 2) * 2048 + 1 * p.val = win32_2.index t (0 : Fin 2) * 2048 + 1 * p.val; omega
    | ⟨1, _⟩ => show win32_0.index t (1 : Fin 2) * 256 + 1 * k.val = k.val; omega
  have h1 : ((cfg32.win 1).blk t).view.emb (ix2 k q) = ix2 k ((((cfg32.win 2).blk t).view.emb (ix2 p q)) 1) := by
    funext a; apply Fin.ext
    match a with
    | ⟨0, _⟩ => show win32_1.index t (0 : Fin 2) * 256 + 1 * k.val = k.val; omega
    | ⟨1, _⟩ => show win32_1.index t (1 : Fin 2) * 256 + 1 * q.val = win32_2.index t (1 : Fin 2) * 256 + 1 * q.val; omega
  exact congrArg₂ (fun a b : EReal => a * b) (congrArg (xarr32 V c) h0) (congrArg (warr32 V c) h1)

/-- An entry of Y is in point t's block iff, on each axis, its coordinate lies in the block's range
    [index × size, index × size + size). -/
theorem mem_blk32 (t : Fin cfg32.N) (i : S65536x256.Idx) :
    i ∈ ((cfg32.win 2).blk t).view.set ↔ ∀ a : Fin 2, win32_2.index t a * S2048x256.size a ≤ (i a).val ∧ (i a).val < win32_2.index t a * S2048x256.size a + S2048x256.size a := by
  show i ∈ ((View.whole main_v307).slice (win32_2.rect t)).set ↔ _
  rw [View.set_slice_whole, Rect.mem_set_unit]
  exact Iff.rfl

/-- The blocks cover Y: row r lies in the block of point r / 2048 (r < 65536, so r / 2048 < 32), and every block spans
    all 256 columns. -/
theorem covered32 (i : S65536x256.Idx) : ∃ t : Fin cfg32.N, (cfg32.win 2).flush t = true ∧ i ∈ ((cfg32.win 2).blk t).view.set := by
  have hi0 : (i 0).val < 65536 := (i 0).isLt
  have hi1 : (i 1).val < 256 := (i 1).isLt
  have hN : cfg32.N = 32 := N_32
  have ht : (i 0).val / 2048 < cfg32.N := by rw [hN]; omega
  obtain ⟨-, -, -, -, e20, e21⟩ := idx_facts32 ⟨(i 0).val / 2048, ht⟩
  refine ⟨⟨(i 0).val / 2048, ht⟩, flush32_2 _, ?_⟩
  rw [mem_blk32]
  intro a
  match a with
  | ⟨0, _⟩ =>
    show win32_2.index ⟨(i 0).val / 2048, ht⟩ (0 : Fin 2) * 2048 ≤ (i 0).val ∧ (i 0).val < win32_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win32_2.index ⟨(i 0).val / 2048, ht⟩ (1 : Fin 2) * 256 ≤ (i 1).val ∧ (i 1).val < win32_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt32 (c : Dev nD) :
    (dat32 (F := Ideal) V c).arrAt 2 cfg32.N
      = Cert.Spec.mul (V c (Pipeline.arrRef spec32 0) : Cert.Spec.Mat 65536 256) (V c (Pipeline.arrRef spec32 1) : Cert.Spec.Mat 256 256) :=
  (dat32 (F := Ideal) V c).arrAt_eq_of_cover 2 (Cert.Spec.mul (xarr32 V c) (warr32 V c)) (fun t _ => flushed32_eq V c t) covered32

end Cert.KernelIdeal.Val

end
-- ==== Proof.KI.ValProj33.lean ====
/- Region 33 computes a matrix product, block of rows by block of rows.

   The region's first input array X has 16384 rows and 256 columns, its second input array W is 256 by 256, and its
   output array Y has the shape of X. The grid has 8 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 8 blocks cover Y, and after the region Y holds X · W. -/
import proofs.«101828_j11562051961417_2_alg».proof.Proof.KI.Region33
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs33_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs33_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs33_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs33_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay33_apply (x0 : FVec Ideal S2048x256 .f32) (x1 : FVec Ideal S256x256 .f32) (p : Fin 2048) (q : Fin 256) :
    k33_pay1 (F := Ideal) x0 x1 (ix2 p q) = ∑ k : Fin 256, x0 (ix2 p k) * x1 (ix2 k q) := by
  unfold k33_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs33_0 _ _
    | ⟨1, _⟩ => exact (lhs33_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs33_0 _ _).trans hk
    | ⟨1, _⟩ => exact rhs33_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz33 : (![0, 0] : Fin 2 → Nat) = fun _ => 0 := funext fun a => by fin_cases a <;> rfl

/-- The first input array as the region finds it: X, 16384 rows of 256 entries. -/
abbrev xarr33 (c : Dev nD) : Cert.Spec.Mat 16384 256 := V c (Pipeline.arrRef spec33 0)
/-- The second input array as the region finds it: W, 256 by 256. -/
abbrev warr33 (c : Dev nD) : Cert.Spec.Mat 256 256 := V c (Pipeline.arrRef spec33 1)

/-- Which block each window holds at grid point t: the blocks of X and of Y are block-row t (block column 0), the block of
    W is always the whole of W. Decided once over the 8 points. -/
theorem idx_facts33 : ∀ t : Fin cfg33.N, win33_0.index t (0 : Fin 2) = t.val
    ∧ win33_0.index t (1 : Fin 2) = 0
    ∧ win33_1.index t (0 : Fin 2) = 0
    ∧ win33_1.index t (1 : Fin 2) = 0
    ∧ win33_2.index t (0 : Fin 2) = t.val
    ∧ win33_2.index t (1 : Fin 2) = 0 :=
  (by decide +kernel : ∀ t : Fin grid33.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed33_eq (c : Dev nD) (t : Fin cfg33.N) :
    (dat33 (F := Ideal) V c).flushed 2 t = ((cfg33.win 2).blk t).view.read (Elt Ideal) (Cert.Spec.mul (xarr33 V c) (warr33 V c)) := by
  show (cfg33.win 2).cut (grid33.coords t) ((dat33 (F := Ideal) V c).after 2 t) = _
  rw [after33_2]
  unfold out33
  rw [View.canon_unit_zero hz33]
  simp only [View.ld_unit_zero (S := S2048x256) hz33, View.ld_unit_zero (S := S256x256) hz33]
  obtain ⟨e00, e01, e10, e11, e20, e21⟩ := idx_facts33 t
  funext j
  obtain ⟨p, q, rfl⟩ : ∃ (p : Fin 2048) (q : Fin 256), j = ix2 p q := ⟨j 0, j 1, eq_ix2 j⟩
  show k33_pay1 (F := Ideal) (iblk33 V c 0 t) (iblk33 V c 1 t) (ix2 p q) = Cert.Spec.mul (xarr33 V c) (warr33 V c) (((cfg33.win 2).blk t).view.emb (ix2 p q))
  refine (pay33_apply (iblk33 V c 0 t) (iblk33 V c 1 t) p q).trans ?_
  unfold Cert.Spec.mul
  refine Finset.sum_congr rfl fun k _ => ?_
  show xarr33 V c (((cfg33.win 0).blk t).view.emb (ix2 p k)) * warr33 V c (((cfg33.win 1).blk t).view.emb (ix2 k q))
    = xarr33 V c (ix2 ((((cfg33.win 2).blk t).view.emb (ix2 p q)) 0) k) * warr33 V c (ix2 k ((((cfg33.win 2).blk t).view.emb (ix2 p q)) 1))
  have h0 : ((cfg33.win 0).blk t).view.emb (ix2 p k) = ix2 ((((cfg33.win 2).blk t).view.emb (ix2 p q)) 0) k := by
    funext a; apply Fin.ext
    match a with
    | ⟨0, _⟩ => show win33_0.index t (0 : Fin 2) * 2048 + 1 * p.val = win33_2.index t (0 : Fin 2) * 2048 + 1 * p.val; omega
    | ⟨1, _⟩ => show win33_0.index t (1 : Fin 2) * 256 + 1 * k.val = k.val; omega
  have h1 : ((cfg33.win 1).blk t).view.emb (ix2 k q) = ix2 k ((((cfg33.win 2).blk t).view.emb (ix2 p q)) 1) := by
    funext a; apply Fin.ext
    match a with
    | ⟨0, _⟩ => show win33_1.index t (0 : Fin 2) * 256 + 1 * k.val = k.val; omega
    | ⟨1, _⟩ => show win33_1.index t (1 : Fin 2) * 256 + 1 * q.val = win33_2.index t (1 : Fin 2) * 256 + 1 * q.val; omega
  exact congrArg₂ (fun a b : EReal => a * b) (congrArg (xarr33 V c) h0) (congrArg (warr33 V c) h1)

/-- An entry of Y is in point t's block iff, on each axis, its coordinate lies in the block's range
    [index × size, index × size + size). -/
theorem mem_blk33 (t : Fin cfg33.N) (i : S16384x256.Idx) :
    i ∈ ((cfg33.win 2).blk t).view.set ↔ ∀ a : Fin 2, win33_2.index t a * S2048x256.size a ≤ (i a).val ∧ (i a).val < win33_2.index t a * S2048x256.size a + S2048x256.size a := by
  show i ∈ ((View.whole main_v310).slice (win33_2.rect t)).set ↔ _
  rw [View.set_slice_whole, Rect.mem_set_unit]
  exact Iff.rfl

/-- The blocks cover Y: row r lies in the block of point r / 2048 (r < 16384, so r / 2048 < 8), and every block spans
    all 256 columns. -/
theorem covered33 (i : S16384x256.Idx) : ∃ t : Fin cfg33.N, (cfg33.win 2).flush t = true ∧ i ∈ ((cfg33.win 2).blk t).view.set := by
  have hi0 : (i 0).val < 16384 := (i 0).isLt
  have hi1 : (i 1).val < 256 := (i 1).isLt
  have hN : cfg33.N = 8 := N_33
  have ht : (i 0).val / 2048 < cfg33.N := by rw [hN]; omega
  obtain ⟨-, -, -, -, e20, e21⟩ := idx_facts33 ⟨(i 0).val / 2048, ht⟩
  refine ⟨⟨(i 0).val / 2048, ht⟩, flush33_2 _, ?_⟩
  rw [mem_blk33]
  intro a
  match a with
  | ⟨0, _⟩ =>
    show win33_2.index ⟨(i 0).val / 2048, ht⟩ (0 : Fin 2) * 2048 ≤ (i 0).val ∧ (i 0).val < win33_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win33_2.index ⟨(i 0).val / 2048, ht⟩ (1 : Fin 2) * 256 ≤ (i 1).val ∧ (i 1).val < win33_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt33 (c : Dev nD) :
    (dat33 (F := Ideal) V c).arrAt 2 cfg33.N
      = Cert.Spec.mul (V c (Pipeline.arrRef spec33 0) : Cert.Spec.Mat 16384 256) (V c (Pipeline.arrRef spec33 1) : Cert.Spec.Mat 256 256) :=
  (dat33 (F := Ideal) V c).arrAt_eq_of_cover 2 (Cert.Spec.mul (xarr33 V c) (warr33 V c)) (fun t _ => flushed33_eq V c t) covered33

end Cert.KernelIdeal.Val

end
-- ==== Proof.KI.ValProj34.lean ====
/- Region 34 computes a matrix product, block of rows by block of rows.

   The region's first input array X has 32768 rows and 256 columns, its second input array W is 256 by 256, and its
   output array Y has the shape of X. The grid has 16 points; point t works on rows 2048·t … 2048·t + 2047: it is
   handed that block of X and all of W, and writes back, as the same block of rows of Y, the product of the two.
   At the extended reals the narrowings of the float format and the reshape of a block to its own shape are the
   identity, and a product accumulated into the zero matrix is the plain sum over the contraction index.

   Hence entry (r, c) of the written block is  ∑ k, X (2048·t + r, k) · W (k, c),  which is entry (2048·t + r, c) of
   the whole product X · W: each point writes its block of ONE whole-array function. Row r of Y lies in the block of
   point r / 2048, so the 16 blocks cover Y, and after the region Y holds X · W. -/
import proofs.«101828_j11562051961417_2_alg».proof.Proof.KI.Region34
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat Cfg Window)

/-! ## The body's value at an entry

The contraction pairs axis 1 of the left operand with axis 0 of the right one; there is no batch axis. So at output
entry (r, c) and contraction index k the left operand is read at (r, k) and the right operand at (k, c). The four
lemmas below say this coordinate by coordinate. -/

/-- Left operand, axis 0: the output's row. -/
theorem lhs34_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Left operand, axis 1: the contraction index. -/
theorem lhs34_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- Right operand, axis 0: the contraction index. -/
theorem rhs34_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Right operand, axis 1: the output's column. -/
theorem rhs34_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's value at entry (p, q) of a block: the sum over k of (row p of the first block) (k) times
    (column q of the second block) (k). The narrowings and the reshapes are the identity at the extended reals, and the
    accumulator is the zero matrix. -/
theorem pay34_apply (x0 : FVec Ideal S2048x256 .f32) (x1 : FVec Ideal S256x256 .f32) (p : Fin 2048) (q : Fin 256) :
    k34_pay1 (F := Ideal) x0 x1 (ix2 p q) = ∑ k : Fin 256, x0 (ix2 p k) * x1 (ix2 k q) := by
  unfold k34_pay1
  simp only [shapeCast_self]
  refine (Ideal.matmul_constant_zero_apply dot_S2048x256_S256x256_S2048x256_1_0_0_1_n_n none _ _ (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs34_0 _ _
    | ⟨1, _⟩ => exact (lhs34_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs34_0 _ _).trans hk
    | ⟨1, _⟩ => exact rhs34_1 _ _)
  rw [el, er]
  rfl

/-! ## From the blocks to the array -/

variable (V : (c : Dev nD) → (b : Ref sig .tc) → Buf (Elt Ideal) ((c : Thread nD τ).loc b))

/-- The offset of a whole-block load or store: zero on both axes. -/
theorem hz34 : (![0, 0] : Fin 2 → Nat) = fun _ => 0 := funext fun a => by fin_cases a <;> rfl

/-- The first input array as the region finds it: X, 32768 rows of 256 entries. -/
abbrev xarr34 (c : Dev nD) : Cert.Spec.Mat 32768 256 := V c (Pipeline.arrRef spec34 0)
/-- The second input array as the region finds it: W, 256 by 256. -/
abbrev warr34 (c : Dev nD) : Cert.Spec.Mat 256 256 := V c (Pipeline.arrRef spec34 1)

/-- Which block each window holds at grid point t: the blocks of X and of Y are block-row t (block column 0), the block of
    W is always the whole of W. Decided once over the 16 points. -/
theorem idx_facts34 : ∀ t : Fin cfg34.N, win34_0.index t (0 : Fin 2) = t.val
    ∧ win34_0.index t (1 : Fin 2) = 0
    ∧ win34_1.index t (0 : Fin 2) = 0
    ∧ win34_1.index t (1 : Fin 2) = 0
    ∧ win34_2.index t (0 : Fin 2) = t.val
    ∧ win34_2.index t (1 : Fin 2) = 0 :=
  (by decide +kernel : ∀ t : Fin grid34.N, _)

/-- WHAT POINT t WRITES BACK is block t of the whole product X · W. Entry (p, q) of the written block is
    ∑ k, Xblock (p, k) · Wblock (k, q); the block of X sits at rows 2048·t + p of X, exactly the rows the output block
    occupies in Y, with its columns unmoved; the block of W is W itself. A coordinate of a block's entry in its array is
    always  block index × block size + coordinate inside the block. -/
theorem flushed34_eq (c : Dev nD) (t : Fin cfg34.N) :
    (dat34 (F := Ideal) V c).flushed 2 t = ((cfg34.win 2).blk t).view.read (Elt Ideal) (Cert.Spec.mul (xarr34 V c) (warr34 V c)) := by
  show (cfg34.win 2).cut (grid34.coords t) ((dat34 (F := Ideal) V c).after 2 t) = _
  rw [after34_2]
  unfold out34
  rw [View.canon_unit_zero hz34]
  simp only [View.ld_unit_zero (S := S2048x256) hz34, View.ld_unit_zero (S := S256x256) hz34]
  obtain ⟨e00, e01, e10, e11, e20, e21⟩ := idx_facts34 t
  funext j
  obtain ⟨p, q, rfl⟩ : ∃ (p : Fin 2048) (q : Fin 256), j = ix2 p q := ⟨j 0, j 1, eq_ix2 j⟩
  show k34_pay1 (F := Ideal) (iblk34 V c 0 t) (iblk34 V c 1 t) (ix2 p q) = Cert.Spec.mul (xarr34 V c) (warr34 V c) (((cfg34.win 2).blk t).view.emb (ix2 p q))
  refine (pay34_apply (iblk34 V c 0 t) (iblk34 V c 1 t) p q).trans ?_
  unfold Cert.Spec.mul
  refine Finset.sum_congr rfl fun k _ => ?_
  show xarr34 V c (((cfg34.win 0).blk t).view.emb (ix2 p k)) * warr34 V c (((cfg34.win 1).blk t).view.emb (ix2 k q))
    = xarr34 V c (ix2 ((((cfg34.win 2).blk t).view.emb (ix2 p q)) 0) k) * warr34 V c (ix2 k ((((cfg34.win 2).blk t).view.emb (ix2 p q)) 1))
  have h0 : ((cfg34.win 0).blk t).view.emb (ix2 p k) = ix2 ((((cfg34.win 2).blk t).view.emb (ix2 p q)) 0) k := by
    funext a; apply Fin.ext
    match a with
    | ⟨0, _⟩ => show win34_0.index t (0 : Fin 2) * 2048 + 1 * p.val = win34_2.index t (0 : Fin 2) * 2048 + 1 * p.val; omega
    | ⟨1, _⟩ => show win34_0.index t (1 : Fin 2) * 256 + 1 * k.val = k.val; omega
  have h1 : ((cfg34.win 1).blk t).view.emb (ix2 k q) = ix2 k ((((cfg34.win 2).blk t).view.emb (ix2 p q)) 1) := by
    funext a; apply Fin.ext
    match a with
    | ⟨0, _⟩ => show win34_1.index t (0 : Fin 2) * 256 + 1 * k.val = k.val; omega
    | ⟨1, _⟩ => show win34_1.index t (1 : Fin 2) * 256 + 1 * q.val = win34_2.index t (1 : Fin 2) * 256 + 1 * q.val; omega
  exact congrArg₂ (fun a b : EReal => a * b) (congrArg (xarr34 V c) h0) (congrArg (warr34 V c) h1)

/-- An entry of Y is in point t's block iff, on each axis, its coordinate lies in the block's range
    [index × size, index × size + size). -/
theorem mem_blk34 (t : Fin cfg34.N) (i : S32768x256.Idx) :
    i ∈ ((cfg34.win 2).blk t).view.set ↔ ∀ a : Fin 2, win34_2.index t a * S2048x256.size a ≤ (i a).val ∧ (i a).val < win34_2.index t a * S2048x256.size a + S2048x256.size a := by
  show i ∈ ((View.whole main_v313).slice (win34_2.rect t)).set ↔ _
  rw [View.set_slice_whole, Rect.mem_set_unit]
  exact Iff.rfl

/-- The blocks cover Y: row r lies in the block of point r / 2048 (r < 32768, so r / 2048 < 16), and every block spans
    all 256 columns. -/
theorem covered34 (i : S32768x256.Idx) : ∃ t : Fin cfg34.N, (cfg34.win 2).flush t = true ∧ i ∈ ((cfg34.win 2).blk t).view.set := by
  have hi0 : (i 0).val < 32768 := (i 0).isLt
  have hi1 : (i 1).val < 256 := (i 1).isLt
  have hN : cfg34.N = 16 := N_34
  have ht : (i 0).val / 2048 < cfg34.N := by rw [hN]; omega
  obtain ⟨-, -, -, -, e20, e21⟩ := idx_facts34 ⟨(i 0).val / 2048, ht⟩
  refine ⟨⟨(i 0).val / 2048, ht⟩, flush34_2 _, ?_⟩
  rw [mem_blk34]
  intro a
  match a with
  | ⟨0, _⟩ =>
    show win34_2.index ⟨(i 0).val / 2048, ht⟩ (0 : Fin 2) * 2048 ≤ (i 0).val ∧ (i 0).val < win34_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win34_2.index ⟨(i 0).val / 2048, ht⟩ (1 : Fin 2) * 256 ≤ (i 1).val ∧ (i 1).val < win34_2.index ⟨(i 0).val / 2048, ht⟩ (1 : Fin 2) * 256 + 256
    rw [e21]; omega

/-- THE OUTPUT ARRAY AFTER THE REGION is the matrix product of the two input arrays as the region found them:
    Y = X · W, entry (r, c) = ∑ k, X (r, k) · W (k, c). -/
theorem arrAt34 (c : Dev nD) :
    (dat34 (F := Ideal) V c).arrAt 2 cfg34.N
      = Cert.Spec.mul (V c (Pipeline.arrRef spec34 0) : Cert.Spec.Mat 32768 256) (V c (Pipeline.arrRef spec34 1) : Cert.Spec.Mat 256 256) :=
  (dat34 (F := Ideal) V c).arrAt_eq_of_cover 2 (Cert.Spec.mul (xarr34 V c) (warr34 V c)) (fun t _ => flushed34_eq V c t) covered34

end Cert.KernelIdeal.Val

end
-- ==== Proof.KI.ValBound35.lean ====
/- Region 35 as a function of whole arrays. The region walks 32 points; at point t it holds batches 8t … 8t + 7 of
   the incidence array A : [256, 256, 128] and of X : [256, 128, 256], and stores, batch by batch, the product A_b · X_b
   into batches 8t … 8t + 7 of the output [256, 256, 256]. Read at an index (b, r, c) the stored value is the sum over the
   128 columns k of A (b, r, k) · X (b, k, c): the product into a zero accumulator is the bare sum, and a change of float
   format is the identity on extended reals. The 32 blocks of 8 batches tile the 256 batches, so the output array after the
   region is the batched product `Cert.Spec.bmul` of the two input arrays as the region finds them. -/
import proofs.«101828_j11562051961417_2_alg».proof.Proof.KI.Region35
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat)
open Cert.Spec (Mat3 bmul)

/-! ## The block product at an index

The product's dimension numbers: axis 0 of both operands is the batch, axis 1 of the left and axis 2 of the right are
free, axis 2 of the left is contracted against axis 1 of the right. So at output index i = (b, r, c) and contraction
position q the left operand is read at (b, r, q) and the right at (b, q, c): one fact per operand axis. -/

/-- The left operand's batch coordinate is the output's. -/
theorem lhs35_0 (i : S8x256x256.Idx) (q : dot_S8x256x128_S8x128x256_S8x256x256_2_1_1_2_0_0.contr.Idx) :
    (dot_S8x256x128_S8x128x256_S8x256x256_2_1_1_2_0_0.lhsIdx i q 0).val = (i 0).val := by
  unfold DotDims.lhsIdx
  rw [dif_pos (show (0 : Fin S8x256x128.rank) ∈ dot_S8x256x128_S8x128x256_S8x256x256_2_1_1_2_0_0.lhsBatch by decide)]
  rfl
/-- The left operand's row is the output's row. -/
theorem lhs35_1 (i : S8x256x256.Idx) (q : dot_S8x256x128_S8x128x256_S8x256x256_2_1_1_2_0_0.contr.Idx) :
    (dot_S8x256x128_S8x128x256_S8x256x256_2_1_1_2_0_0.lhsIdx i q 1).val = (i 1).val := by
  unfold DotDims.lhsIdx
  rw [dif_neg (show ¬(1 : Fin S8x256x128.rank) ∈ dot_S8x256x128_S8x128x256_S8x256x256_2_1_1_2_0_0.lhsBatch by decide), dif_pos (show (1 : Fin S8x256x128.rank) ∈ dot_S8x256x128_S8x128x256_S8x256x256_2_1_1_2_0_0.lhsNonContracting by decide)]
  rfl
/-- The left operand's column is the contraction position. -/
theorem lhs35_2 (i : S8x256x256.Idx) (q : dot_S8x256x128_S8x128x256_S8x256x256_2_1_1_2_0_0.contr.Idx) :
    (dot_S8x256x128_S8x128x256_S8x256x256_2_1_1_2_0_0.lhsIdx i q 2).val = (q ⟨0, by decide⟩).val :=
  dot_S8x256x128_S8x128x256_S8x256x256_2_1_1_2_0_0.lhsIdx_val_of_single rfl i q
/-- The right operand's batch coordinate is the output's. -/
theorem rhs35_0 (i : S8x256x256.Idx) (q : dot_S8x256x128_S8x128x256_S8x256x256_2_1_1_2_0_0.contr.Idx) :
    (dot_S8x256x128_S8x128x256_S8x256x256_2_1_1_2_0_0.rhsIdx i q 0).val = (i 0).val := by
  unfold DotDims.rhsIdx
  rw [dif_pos (show (0 : Fin S8x128x256.rank) ∈ dot_S8x256x128_S8x128x256_S8x256x256_2_1_1_2_0_0.rhsBatch by decide)]
  rfl
/-- The right operand's row is the contraction position. -/
theorem rhs35_1 (i : S8x256x256.Idx) (q : dot_S8x256x128_S8x128x256_S8x256x256_2_1_1_2_0_0.contr.Idx) :
    (dot_S8x256x128_S8x128x256_S8x256x256_2_1_1_2_0_0.rhsIdx i q 1).val = (q ⟨0, by decide⟩).val :=
  dot_S8x256x128_S8x128x256_S8x256x256_2_1_1_2_0_0.rhsIdx_val_of_single rfl i q
/-- The right operand's column is the output's column. -/
theorem rhs35_2 (i : S8x256x256.Idx) (q : dot_S8x256x128_S8x128x256_S8x256x256_2_1_1_2_0_0.contr.Idx) :
    (dot_S8x256x128_S8x128x256_S8x256x256_2_1_1_2_0_0.rhsIdx i q 2).val = (i 2).val := by
  unfold DotDims.rhsIdx
  rw [dif_neg (show ¬(2 : Fin S8x128x256.rank) ∈ dot_S8x256x128_S8x128x256_S8x256x256_2_1_1_2_0_0.rhsBatch by decide), dif_pos (show (2 : Fin S8x128x256.rank) ∈ dot_S8x256x128_S8x128x256_S8x256x256_2_1_1_2_0_0.rhsNonContracting by decide)]
  rfl

/-- THE BODY'S VALUE AT (b, r, c): the sum over the 128 contracted columns k of the left block at (b, r, k) times the
    right block at (b, k, c). The two shape casts are between equal shapes, the narrowing of the right block is the
    identity on extended reals, and the accumulator is the zero constant. -/
theorem pay35_apply (x0 : FVec Ideal S8x256x128 .bf16) (x1 : FVec Ideal S8x128x256 .f32) (b : Fin 8) (r c : Fin 256) :
    k35_pay1 (F := Ideal) x0 x1 (ix3 b r c) = ∑ k : Fin 128, x0 (ix3 b r k) * x1 (ix3 b k c) := by
  unfold k35_pay1
  rw [shapeCast_self, shapeCast_self]
  simp only [matmul]
  rw [Ideal.matmul_constant_zero_apply, ← Equiv.sum_comp (contrEquiv1 dot_S8x256x128_S8x128x256_S8x256x256_2_1_1_2_0_0 128 rfl rfl).symm]
  refine Finset.sum_congr rfl fun k _ => ?_
  have hk := contrEquiv1_symm_val dot_S8x256x128_S8x128x256_S8x256x256_2_1_1_2_0_0 128 rfl rfl k
  have el : dot_S8x256x128_S8x128x256_S8x256x256_2_1_1_2_0_0.lhsIdx (ix3 b r c) ((contrEquiv1 dot_S8x256x128_S8x128x256_S8x256x256_2_1_1_2_0_0 128 rfl rfl).symm k) = ix3 b r k := funext fun a => Fin.ext (by
    match a with
    | ⟨0, _⟩ => exact lhs35_0 _ _
    | ⟨1, _⟩ => exact lhs35_1 _ _
    | ⟨2, _⟩ => exact (lhs35_2 _ _).trans hk)
  have er : dot_S8x256x128_S8x128x256_S8x256x256_2_1_1_2_0_0.rhsIdx (ix3 b r c) ((contrEquiv1 dot_S8x256x128_S8x128x256_S8x256x256_2_1_1_2_0_0 128 rfl rfl).symm k) = ix3 b k c := funext fun a => Fin.ext (by
    match a with
    | ⟨0, _⟩ => exact rhs35_0 _ _
    | ⟨1, _⟩ => exact (rhs35_1 _ _).trans hk
    | ⟨2, _⟩ => exact rhs35_2 _ _)
  rw [el, er]
  rfl

variable (V : (c : Dev nD) → (b : Ref sig .tc) → Buf (Elt Ideal) ((c : Thread nD τ).loc b))

/-! ## The blocks as parts of the arrays -/

/-- The zero offset of a whole-block load or store. -/
theorem hz35 : (![0, 0, 0] : Fin 3 → Nat) = fun _ => 0 := funext fun a => by fin_cases a <;> rfl

/-- The three windows' block indices over the 32 points: at point t each window is at block t along the batch axis and
    at block 0 along the other two. -/
theorem idx35 : ∀ t : Fin cfg35.N,
    win35_0.index t (0 : Fin 3) = t.val ∧ win35_0.index t (1 : Fin 3) = 0 ∧ win35_0.index t (2 : Fin 3) = 0
    ∧ win35_1.index t (0 : Fin 3) = t.val ∧ win35_1.index t (1 : Fin 3) = 0 ∧ win35_1.index t (2 : Fin 3) = 0
    ∧ win35_2.index t (0 : Fin 3) = t.val ∧ win35_2.index t (1 : Fin 3) = 0 ∧ win35_2.index t (2 : Fin 3) = 0 :=
  (by decide +kernel : ∀ t : Fin grid35.N, _)

/-- Window 0's block at point t is batches 8t … 8t + 7 of A: its entry (b, r, k) is A (8t + b, r, k). -/
theorem iblk35_0_apply (c : Dev nD) (t : Fin cfg35.N) (y : S8x256x128.Idx) (i : S256x256x128.Idx)
    (h0 : (i 0).val = t.val * 8 + (y 0).val) (h1 : (i 1).val = (y 1).val) (h2 : (i 2).val = (y 2).val) :
    (iblk35 V c 0 t : Vec Ideal S8x256x128 .bf16) y = (V c (Pipeline.arrRef spec35 0) : Mat3 256 256 128) i := by
  obtain ⟨e0, e1, e2, -⟩ := idx35 t
  unfold iblk35
  rw [View.read_apply]
  refine congrArg (V c (Pipeline.arrRef spec35 0) : Mat3 256 256 128) (funext fun a => Fin.ext ?_)
  match a with
  | ⟨0, _⟩ => show win35_0.index t (0 : Fin 3) * 8 + 1 * (y 0).val = (i 0).val; omega
  | ⟨1, _⟩ => show win35_0.index t (1 : Fin 3) * 256 + 1 * (y 1).val = (i 1).val; omega
  | ⟨2, _⟩ => show win35_0.index t (2 : Fin 3) * 128 + 1 * (y 2).val = (i 2).val; omega

/-- Window 1's block at point t is batches 8t … 8t + 7 of X: its entry (b, k, c) is X (8t + b, k, c). -/
theorem iblk35_1_apply (c : Dev nD) (t : Fin cfg35.N) (y : S8x128x256.Idx) (i : S256x128x256.Idx)
    (h0 : (i 0).val = t.val * 8 + (y 0).val) (h1 : (i 1).val = (y 1).val) (h2 : (i 2).val = (y 2).val) :
    (iblk35 V c 1 t : Vec Ideal S8x128x256 .f32) y = (V c (Pipeline.arrRef spec35 1) : Mat3 256 128 256) i := by
  obtain ⟨-, -, -, e0, e1, e2, -⟩ := idx35 t
  unfold iblk35
  rw [View.read_apply]
  refine congrArg (V c (Pipeline.arrRef spec35 1) : Mat3 256 128 256) (funext fun a => Fin.ext ?_)
  match a with
  | ⟨0, _⟩ => show win35_1.index t (0 : Fin 3) * 8 + 1 * (y 0).val = (i 0).val; omega
  | ⟨1, _⟩ => show win35_1.index t (1 : Fin 3) * 128 + 1 * (y 1).val = (i 1).val; omega
  | ⟨2, _⟩ => show win35_1.index t (2 : Fin 3) * 256 + 1 * (y 2).val = (i 2).val; omega

/-- If the two blocks are batches 8p … 8p + 7 of arrays A and X, the body's value at (b, r, c) is the batched product
    of A and X at (8p + b, r, c): the sum over k of A (8p + b, r, k) · X (8p + b, k, c), term by term. -/
theorem pay35_block (A : Mat3 256 256 128) (X : Mat3 256 128 256)
    (x0 : FVec Ideal S8x256x128 .bf16) (x1 : FVec Ideal S8x128x256 .f32) (p : Nat)
    (hx0 : ∀ (y : S8x256x128.Idx) (i : S256x256x128.Idx), (i 0).val = p * 8 + (y 0).val → (i 1).val = (y 1).val → (i 2).val = (y 2).val → x0 y = A i)
    (hx1 : ∀ (y : S8x128x256.Idx) (i : S256x128x256.Idx), (i 0).val = p * 8 + (y 0).val → (i 1).val = (y 1).val → (i 2).val = (y 2).val → x1 y = X i)
    (j : S8x256x256.Idx) (i : S256x256x256.Idx)
    (h0 : (i 0).val = p * 8 + (j 0).val) (h1 : (i 1).val = (j 1).val) (h2 : (i 2).val = (j 2).val) :
    k35_pay1 (F := Ideal) x0 x1 j = bmul A X i := by
  obtain ⟨b, r, c, rfl⟩ : ∃ (b : Fin 8) (r : Fin 256) (c : Fin 256), j = ix3 b r c := ⟨j 0, j 1, j 2, eq_ix3 j⟩
  rw [pay35_apply]
  show _ = ∑ k : Fin 128, A (ix3 (i 0) (i 1) k) * X (ix3 (i 0) k (i 2))
  exact Finset.sum_congr rfl fun k _ => by
    rw [hx0 (ix3 b r k) (ix3 (i 0) (i 1) k) h0 h1 rfl, hx1 (ix3 b k c) (ix3 (i 0) k (i 2)) h0 rfl h2]

/-- WHAT POINT t WRITES BACK is block t of the batched product of the two input arrays: the stored value of the two
    input blocks at t, and the output's block at t sits at batches 8t … 8t + 7 like theirs. -/
theorem flushed35_eq (c : Dev nD) (t : Fin cfg35.N) :
    (dat35 (F := Ideal) V c).flushed 2 t
      = ((cfg35.win 2).blk t).view.read (Elt Ideal)
          (bmul (V c (Pipeline.arrRef spec35 0) : Mat3 256 256 128) (V c (Pipeline.arrRef spec35 1) : Mat3 256 128 256)) := by
  show (cfg35.win 2).cut (grid35.coords t) ((dat35 V c).after 2 t) = _
  rw [after35_2]
  unfold out35
  rw [View.canon_unit_zero hz35]
  simp only [View.ld_unit_zero (S := S8x256x128) hz35, View.ld_unit_zero (S := S8x128x256) hz35]
  obtain ⟨-, -, -, -, -, -, e0, e1, e2⟩ := idx35 t
  funext j
  refine pay35_block (V c (Pipeline.arrRef spec35 0)) (V c (Pipeline.arrRef spec35 1)) (iblk35 V c 0 t) (iblk35 V c 1 t) t.val
    (iblk35_0_apply V c t) (iblk35_1_apply V c t) j (((cfg35.win 2).blk t).view.emb j) ?_ ?_ ?_
  · show win35_2.index t (0 : Fin 3) * 8 + 1 * (j 0).val = t.val * 8 + (j 0).val; omega
  · show win35_2.index t (1 : Fin 3) * 256 + 1 * (j 1).val = (j 1).val; omega
  · show win35_2.index t (2 : Fin 3) * 256 + 1 * (j 2).val = (j 2).val; omega

/-! ## The 32 blocks tile the output -/

/-- An index of the output array is in point t's block iff each coordinate is in the block's range on its axis. -/
theorem mem_blk35 (t : Fin cfg35.N) (i : S256x256x256.Idx) :
    i ∈ ((cfg35.win 2).blk t).view.set ↔ ∀ a : Fin 3, win35_2.index t a * S8x256x256.size a ≤ (i a).val ∧ (i a).val < win35_2.index t a * S8x256x256.size a + S8x256x256.size a := by
  show i ∈ ((View.whole main_v353).slice (win35_2.rect t)).set ↔ _
  rw [View.set_slice_whole, Rect.mem_set_unit]
  exact Iff.rfl

/-- Every index (b, r, c) of the output is in the block of point b / 8, which is written back. -/
theorem cover35_arr (i : S256x256x256.Idx) :
    ∃ t : Fin cfg35.N, (cfg35.win 2).flush t = true ∧ i ∈ ((cfg35.win 2).blk t).view.set := by
  have hi0 : (i 0).val < 256 := (i 0).isLt
  have hi1 : (i 1).val < 256 := (i 1).isLt
  have hi2 : (i 2).val < 256 := (i 2).isLt
  have hN : cfg35.N = 32 := N_35
  let t : Fin cfg35.N := ⟨(i 0).val / 8, by rw [hN]; omega⟩
  have ht : t.val = (i 0).val / 8 := rfl
  obtain ⟨-, -, -, -, -, -, e0, e1, e2⟩ := idx35 t
  refine ⟨t, flush35_2 t, ?_⟩
  rw [mem_blk35]
  intro a
  match a with
  | ⟨0, _⟩ => show win35_2.index t (0 : Fin 3) * 8 ≤ (i 0).val ∧ (i 0).val < win35_2.index t (0 : Fin 3) * 8 + 8; omega
  | ⟨1, _⟩ => show win35_2.index t (1 : Fin 3) * 256 ≤ (i 1).val ∧ (i 1).val < win35_2.index t (1 : Fin 3) * 256 + 256; omega
  | ⟨2, _⟩ => show win35_2.index t (2 : Fin 3) * 256 ≤ (i 2).val ∧ (i 2).val < win35_2.index t (2 : Fin 3) * 256 + 256; omega

/-- THE OUTPUT ARRAY AFTER REGION 35: the batched product A_b · X_b of the two input arrays as the region finds them. -/
theorem arrAt35 (c : Dev nD) :
    (dat35 (F := Ideal) V c).arrAt 2 cfg35.N
      = bmul (V c (Pipeline.arrRef spec35 0) : Mat3 256 256 128) (V c (Pipeline.arrRef spec35 1) : Mat3 256 128 256) :=
  (dat35 (F := Ideal) V c).arrAt_eq_of_cover 2 _ (fun t _ => flushed35_eq V c t) cover35_arr

end Cert.KernelIdeal.Val

end
-- ==== Proof.KI.ValBound36.lean ====
/- Region 36 as a function of whole arrays. The region walks 16 points; at point t it holds batches 16t … 16t + 15 of
   the incidence array A : [256, 64, 256] and of X : [256, 256, 256], and the whole matrix W : [256, 256]. Batch by batch it
   forms the product A_b · X_b, lays the 16 results of 64 rows under one another as 1024 rows, multiplies those rows by W
   and cuts the 1024 rows back into 16 batches of 64, which it stores into batches 16t … 16t + 15 of the output
   [256, 64, 256]. Read at an index (b, r, c) the stored value is the sum over j of (A_b · X_b)(r, j) · W (j, c): each product
   into a zero accumulator is the bare sum, a change of float format is the identity on extended reals, and row 64 b + r of
   the 1024 is row r of batch b. The 16 blocks of 16 batches tile the 256 batches, so the output array after the region
   is, entry by entry, that sum over the input arrays as the region finds them. -/
import proofs.«101828_j11562051961417_2_alg».proof.Proof.KI.Region36
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal.Gen Cert.KernelIdeal.Reg
open Idealize.ShloMosaic Idealize.ShloMosaic.TcCoe Idealize.ShloMosaic.ValueIdx
open Idealize.ShloMosaic.Pipeline (Dat)
open Cert.Spec (Mat Mat3 bmul)

/-! ## The two products at an index

The batched product's dimension numbers: axis 0 of both operands is the batch, axis 1 of the left and axis 2 of the right
are free, axis 2 of the left is contracted against axis 1 of the right. The plain product's: axis 0 of the left and axis 1
of the right are free, axis 1 of the left is contracted against axis 0 of the right. One fact per operand axis. -/

/-- Batched product, left operand: the batch coordinate is the output's. -/
theorem lhsA36_0 (i : S16x64x256.Idx) (q : dot_S16x64x256_S16x256x256_S16x64x256_2_1_1_2_0_0.contr.Idx) :
    (dot_S16x64x256_S16x256x256_S16x64x256_2_1_1_2_0_0.lhsIdx i q 0).val = (i 0).val := by
  unfold DotDims.lhsIdx
  rw [dif_pos (show (0 : Fin S16x64x256.rank) ∈ dot_S16x64x256_S16x256x256_S16x64x256_2_1_1_2_0_0.lhsBatch by decide)]
  rfl
/-- Batched product, left operand: the row is the output's row. -/
theorem lhsA36_1 (i : S16x64x256.Idx) (q : dot_S16x64x256_S16x256x256_S16x64x256_2_1_1_2_0_0.contr.Idx) :
    (dot_S16x64x256_S16x256x256_S16x64x256_2_1_1_2_0_0.lhsIdx i q 1).val = (i 1).val := by
  unfold DotDims.lhsIdx
  rw [dif_neg (show ¬(1 : Fin S16x64x256.rank) ∈ dot_S16x64x256_S16x256x256_S16x64x256_2_1_1_2_0_0.lhsBatch by decide), dif_pos (show (1 : Fin S16x64x256.rank) ∈ dot_S16x64x256_S16x256x256_S16x64x256_2_1_1_2_0_0.lhsNonContracting by decide)]
  rfl
/-- Batched product, left operand: the column is the contraction position. -/
theorem lhsA36_2 (i : S16x64x256.Idx) (q : dot_S16x64x256_S16x256x256_S16x64x256_2_1_1_2_0_0.contr.Idx) :
    (dot_S16x64x256_S16x256x256_S16x64x256_2_1_1_2_0_0.lhsIdx i q 2).val = (q ⟨0, by decide⟩).val :=
  dot_S16x64x256_S16x256x256_S16x64x256_2_1_1_2_0_0.lhsIdx_val_of_single rfl i q
/-- Batched product, right operand: the batch coordinate is the output's. -/
theorem rhsA36_0 (i : S16x64x256.Idx) (q : dot_S16x64x256_S16x256x256_S16x64x256_2_1_1_2_0_0.contr.Idx) :
    (dot_S16x64x256_S16x256x256_S16x64x256_2_1_1_2_0_0.rhsIdx i q 0).val = (i 0).val := by
  unfold DotDims.rhsIdx
  rw [dif_pos (show (0 : Fin S16x256x256.rank) ∈ dot_S16x64x256_S16x256x256_S16x64x256_2_1_1_2_0_0.rhsBatch by decide)]
  rfl
/-- Batched product, right operand: the row is the contraction position. -/
theorem rhsA36_1 (i : S16x64x256.Idx) (q : dot_S16x64x256_S16x256x256_S16x64x256_2_1_1_2_0_0.contr.Idx) :
    (dot_S16x64x256_S16x256x256_S16x64x256_2_1_1_2_0_0.rhsIdx i q 1).val = (q ⟨0, by decide⟩).val :=
  dot_S16x64x256_S16x256x256_S16x64x256_2_1_1_2_0_0.rhsIdx_val_of_single rfl i q
/-- Batched product, right operand: the column is the output's column. -/
theorem rhsA36_2 (i : S16x64x256.Idx) (q : dot_S16x64x256_S16x256x256_S16x64x256_2_1_1_2_0_0.contr.Idx) :
    (dot_S16x64x256_S16x256x256_S16x64x256_2_1_1_2_0_0.rhsIdx i q 2).val = (i 2).val := by
  unfold DotDims.rhsIdx
  rw [dif_neg (show ¬(2 : Fin S16x256x256.rank) ∈ dot_S16x64x256_S16x256x256_S16x64x256_2_1_1_2_0_0.rhsBatch by decide), dif_pos (show (2 : Fin S16x256x256.rank) ∈ dot_S16x64x256_S16x256x256_S16x64x256_2_1_1_2_0_0.rhsNonContracting by decide)]
  rfl

/-- Plain product, left operand: the row is the output's row. -/
theorem lhsB36_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- Plain product, left operand: the column is the contraction position. -/
theorem lhsB36_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- Plain product, right operand: the row is the contraction position. -/
theorem rhsB36_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- Plain product, right operand: the column is the output's column. -/
theorem rhsB36_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The batched product into the zero accumulator at (b, r, c): the sum over the 256 contracted columns k of the left
    operand at (b, r, k) times the right at (b, k, c). -/
theorem bprod36_apply (x0 : FVec Ideal S16x64x256 .bf16) (x1 : FVec Ideal S16x256x256 .bf16) (b : Fin 16) (r : Fin 64) (c : Fin 256) :
    matmul dot_S16x64x256_S16x256x256_S16x64x256_2_1_1_2_0_0 none x0 x1 (constant S16x64x256 .f32 0x00000000#32) (ix3 b r c)
      = ∑ k : Fin 256, x0 (ix3 b r k) * x1 (ix3 b k c) := by
  simp only [matmul]
  rw [Ideal.matmul_constant_zero_apply, ← Equiv.sum_comp (contrEquiv1 dot_S16x64x256_S16x256x256_S16x64x256_2_1_1_2_0_0 256 rfl rfl).symm]
  refine Finset.sum_congr rfl fun k _ => ?_
  have hk := contrEquiv1_symm_val dot_S16x64x256_S16x256x256_S16x64x256_2_1_1_2_0_0 256 rfl rfl k
  have el : dot_S16x64x256_S16x256x256_S16x64x256_2_1_1_2_0_0.lhsIdx (ix3 b r c) ((contrEquiv1 dot_S16x64x256_S16x256x256_S16x64x256_2_1_1_2_0_0 256 rfl rfl).symm k) = ix3 b r k := funext fun a => Fin.ext (by
    match a with
    | ⟨0, _⟩ => exact lhsA36_0 _ _
    | ⟨1, _⟩ => exact lhsA36_1 _ _
    | ⟨2, _⟩ => exact (lhsA36_2 _ _).trans hk)
  have er : dot_S16x64x256_S16x256x256_S16x64x256_2_1_1_2_0_0.rhsIdx (ix3 b r c) ((contrEquiv1 dot_S16x64x256_S16x256x256_S16x64x256_2_1_1_2_0_0 256 rfl rfl).symm k) = ix3 b k c := funext fun a => Fin.ext (by
    match a with
    | ⟨0, _⟩ => exact rhsA36_0 _ _
    | ⟨1, _⟩ => exact (rhsA36_1 _ _).trans hk
    | ⟨2, _⟩ => exact rhsA36_2 _ _)
  rw [el, er]

/-- The plain product into the zero accumulator at (p, c): the sum over j of the left operand at (p, j) times the right
    at (j, c). -/
theorem rprod36_apply (y : FVec Ideal S1024x256 .bf16) (w : FVec Ideal S256x256 .bf16) (p : Fin 1024) (c : Fin 256) :
    matmul dot_S1024x256_S256x256_S1024x256_1_0_0_1_n_n none y w (constant S1024x256 .f32 0x00000000#32) (ix2 p c)
      = ∑ j : Fin 256, y (ix2 p j) * w (ix2 j c) := by
  simp only [matmul]
  rw [Ideal.matmul_constant_zero_apply, ← Equiv.sum_comp (contrEquiv1 dot_S1024x256_S256x256_S1024x256_1_0_0_1_n_n 256 rfl rfl).symm]
  refine Finset.sum_congr rfl fun j _ => ?_
  have hj := contrEquiv1_symm_val dot_S1024x256_S256x256_S1024x256_1_0_0_1_n_n 256 rfl rfl j
  have el : dot_S1024x256_S256x256_S1024x256_1_0_0_1_n_n.lhsIdx (ix2 p c) ((contrEquiv1 dot_S1024x256_S256x256_S1024x256_1_0_0_1_n_n 256 rfl rfl).symm j) = ix2 p j := funext fun a => Fin.ext (by
    match a with
    | ⟨0, _⟩ => exact lhsB36_0 _ _
    | ⟨1, _⟩ => exact (lhsB36_1 _ _).trans hj)
  have er : dot_S1024x256_S256x256_S1024x256_1_0_0_1_n_n.rhsIdx (ix2 p c) ((contrEquiv1 dot_S1024x256_S256x256_S1024x256_1_0_0_1_n_n 256 rfl rfl).symm j) = ix2 j c := funext fun a => Fin.ext (by
    match a with
    | ⟨0, _⟩ => exact (rhsB36_0 _ _).trans hj
    | ⟨1, _⟩ => exact rhsB36_1 _ _)
  rw [el, er]

/-- Sixteen batches of 64 rows laid under one another: row 64 b + r of the 1024 is row r of batch b. -/
theorem flat36_apply {α : Type} (v : S16x64x256.Idx → α) (b : Fin 16) (r : Fin 64) (j : Fin 256) :
    shapeCast S1024x256 v shapeCasts_S16x64x256_S1024x256 (ix2 (⟨b.val * 64 + r.val, by omega⟩ : Fin 1024) j) = v (ix3 b r j) :=
  shapeCast_apply v shapeCasts_S16x64x256_S1024x256 _ (ix3 b r j)
    (by rw [Shape.rowMajor_val_two, Shape.rowMajor_val_three]; rfl)

/-- And cut back: row r of batch b is row 64 b + r of the 1024. -/
theorem unflat36_apply {α : Type} (u : S1024x256.Idx → α) (b : Fin 16) (r : Fin 64) (c : Fin 256) :
    shapeCast S16x64x256 u shapeCasts_S1024x256_S16x64x256 (ix3 b r c) = u (ix2 (⟨b.val * 64 + r.val, by omega⟩ : Fin 1024) c) :=
  shapeCast_apply u shapeCasts_S1024x256_S16x64x256 _ (ix2 (⟨b.val * 64 + r.val, by omega⟩ : Fin 1024) c)
    (by rw [Shape.rowMajor_val_two, Shape.rowMajor_val_three]; rfl)

/-- THE BODY'S VALUE AT (b, r, c): the sum over j of (the sum over k of the first block at (b, r, k) times the second at
    (b, k, j)) times the third block at (j, c). The shape casts between equal shapes and the three narrowings are the
    identity on extended reals. -/
theorem pay36_apply (x0 : FVec Ideal S16x64x256 .bf16) (x1 : FVec Ideal S16x256x256 .f32) (x2 : FVec Ideal S256x256 .f32)
    (b : Fin 16) (r : Fin 64) (c : Fin 256) :
    k36_pay1 (F := Ideal) x0 x1 x2 (ix3 b r c)
      = ∑ j : Fin 256, (∑ k : Fin 256, x0 (ix3 b r k) * x1 (ix3 b k j)) * x2 (ix2 j c) := by
  unfold k36_pay1
  rw [shapeCast_self, shapeCast_self, shapeCast_self, unflat36_apply, rprod36_apply]
  refine Finset.sum_congr rfl fun j _ => ?_
  rw [flat36_apply]
  show matmul dot_S16x64x256_S16x256x256_S16x64x256_2_1_1_2_0_0 none x0 (truncf .bf16 x1 bitsLt_bf16_f32) (constant S16x64x256 .f32 0x00000000#32) (ix3 b r j) * x2 (ix2 j c) = _
  rw [bprod36_apply]
  rfl

variable (V : (c : Dev nD) → (b : Ref sig .tc) → Buf (Elt Ideal) ((c : Thread nD τ).loc b))

/-! ## The blocks as parts of the arrays -/

/-- The zero offset of a whole-block load or store, rank 3, -/
theorem hz36 : (![0, 0, 0] : Fin 3 → Nat) = fun _ => 0 := funext fun a => by fin_cases a <;> rfl
/-- and rank 2. -/
theorem hzz36 : (![0, 0] : Fin 2 → Nat) = fun _ => 0 := funext fun a => by fin_cases a <;> rfl

/-- The four windows' block indices over the 16 points: at point t the two batched inputs and the output are at block t
    along the batch axis and at block 0 along the other two; the matrix W is at block (0, 0) throughout. -/
theorem idx36 : ∀ t : Fin cfg36.N,
    win36_0.index t (0 : Fin 3) = t.val ∧ win36_0.index t (1 : Fin 3) = 0 ∧ win36_0.index t (2 : Fin 3) = 0
    ∧ win36_1.index t (0 : Fin 3) = t.val ∧ win36_1.index t (1 : Fin 3) = 0 ∧ win36_1.index t (2 : Fin 3) = 0
    ∧ win36_2.index t (0 : Fin 2) = 0 ∧ win36_2.index t (1 : Fin 2) = 0
    ∧ win36_3.index t (0 : Fin 3) = t.val ∧ win36_3.index t (1 : Fin 3) = 0 ∧ win36_3.index t (2 : Fin 3) = 0 :=
  (by decide +kernel : ∀ t : Fin grid36.N, _)

/-- Window 0's block at point t is batches 16t … 16t + 15 of A: its entry (b, r, k) is A (16t + b, r, k). -/
theorem iblk36_0_apply (c : Dev nD) (t : Fin cfg36.N) (y : S16x64x256.Idx) (i : S256x64x256.Idx)
    (h0 : (i 0).val = t.val * 16 + (y 0).val) (h1 : (i 1).val = (y 1).val) (h2 : (i 2).val = (y 2).val) :
    (iblk36 V c 0 t : Vec Ideal S16x64x256 .bf16) y = (V c (Pipeline.arrRef spec36 0) : Mat3 256 64 256) i := by
  obtain ⟨e0, e1, e2, -⟩ := idx36 t
  unfold iblk36
  rw [View.read_apply]
  refine congrArg (V c (Pipeline.arrRef spec36 0) : Mat3 256 64 256) (funext fun a => Fin.ext ?_)
  match a with
  | ⟨0, _⟩ => show win36_0.index t (0 : Fin 3) * 16 + 1 * (y 0).val = (i 0).val; omega
  | ⟨1, _⟩ => show win36_0.index t (1 : Fin 3) * 64 + 1 * (y 1).val = (i 1).val; omega
  | ⟨2, _⟩ => show win36_0.index t (2 : Fin 3) * 256 + 1 * (y 2).val = (i 2).val; omega

/-- Window 1's block at point t is batches 16t … 16t + 15 of X: its entry (b, k, j) is X (16t + b, k, j). -/
theorem iblk36_1_apply (c : Dev nD) (t : Fin cfg36.N) (y : S16x256x256.Idx) (i : S256x256x256.Idx)
    (h0 : (i 0).val = t.val * 16 + (y 0).val) (h1 : (i 1).val = (y 1).val) (h2 : (i 2).val = (y 2).val) :
    (iblk36 V c 1 t : Vec Ideal S16x256x256 .f32) y = (V c (Pipeline.arrRef spec36 1) : Mat3 256 256 256) i := by
  obtain ⟨-, -, -, e0, e1, e2, -⟩ := idx36 t
  unfold iblk36
  rw [View.read_apply]
  refine congrArg (V c (Pipeline.arrRef spec36 1) : Mat3 256 256 256) (funext fun a => Fin.ext ?_)
  match a with
  | ⟨0, _⟩ => show win36_1.index t (0 : Fin 3) * 16 + 1 * (y 0).val = (i 0).val; omega
  | ⟨1, _⟩ => show win36_1.index t (1 : Fin 3) * 256 + 1 * (y 1).val = (i 1).val; omega
  | ⟨2, _⟩ => show win36_1.index t (2 : Fin 3) * 256 + 1 * (y 2).val = (i 2).val; omega

/-- Window 2's block at every point is all of W. -/
theorem iblk36_2_apply (c : Dev nD) (t : Fin cfg36.N) (y : S256x256.Idx) (i : S256x256.Idx)
    (h0 : (i 0).val = (y 0).val) (h1 : (i 1).val = (y 1).val) :
    (iblk36 V c 2 t : Vec Ideal S256x256 .f32) y = (V c (Pipeline.arrRef spec36 2) : Mat 256 256) i := by
  obtain ⟨-, -, -, -, -, -, e0, e1, -⟩ := idx36 t
  unfold iblk36
  rw [View.read_apply]
  refine congrArg (V c (Pipeline.arrRef spec36 2) : Mat 256 256) (funext fun a => Fin.ext ?_)
  match a with
  | ⟨0, _⟩ => show win36_2.index t (0 : Fin 2) * 256 + 1 * (y 0).val = (i 0).val; omega
  | ⟨1, _⟩ => show win36_2.index t (1 : Fin 2) * 256 + 1 * (y 1).val = (i 1).val; omega

/-- If the first two blocks are batches 16p … 16p + 15 of arrays A and X and the third is W, the body's value at (b, r, c)
    is the sum over q of the batched product of A and X at (16p + b, r, q) times W (q, c), term by term. -/
theorem pay36_block (A : Mat3 256 64 256) (X : Mat3 256 256 256) (W : Mat 256 256)
    (x0 : FVec Ideal S16x64x256 .bf16) (x1 : FVec Ideal S16x256x256 .f32) (x2 : FVec Ideal S256x256 .f32) (p : Nat)
    (hx0 : ∀ (y : S16x64x256.Idx) (i : S256x64x256.Idx), (i 0).val = p * 16 + (y 0).val → (i 1).val = (y 1).val → (i 2).val = (y 2).val → x0 y = A i)
    (hx1 : ∀ (y : S16x256x256.Idx) (i : S256x256x256.Idx), (i 0).val = p * 16 + (y 0).val → (i 1).val = (y 1).val → (i 2).val = (y 2).val → x1 y = X i)
    (hx2 : ∀ (y : S256x256.Idx) (i : S256x256.Idx), (i 0).val = (y 0).val → (i 1).val = (y 1).val → x2 y = W i)
    (j : S16x64x256.Idx) (i : S256x64x256.Idx)
    (h0 : (i 0).val = p * 16 + (j 0).val) (h1 : (i 1).val = (j 1).val) (h2 : (i 2).val = (j 2).val) :
    k36_pay1 (F := Ideal) x0 x1 x2 j = ∑ q : Fin 256, bmul A X (ix3 (i 0) (i 1) q) * W (ix2 q (i 2)) := by
  obtain ⟨b, r, c, rfl⟩ : ∃ (b : Fin 16) (r : Fin 64) (c : Fin 256), j = ix3 b r c := ⟨j 0, j 1, j 2, eq_ix3 j⟩
  rw [pay36_apply]
  refine Finset.sum_congr rfl fun q _ => ?_
  rw [hx2 (ix2 q c) (ix2 q (i 2)) rfl h2]
  refine congrArg (· * W (ix2 q (i 2))) ?_
  show _ = ∑ k : Fin 256, A (ix3 (i 0) (i 1) k) * X (ix3 (i 0) k q)
  exact Finset.sum_congr rfl fun k _ => by
    rw [hx0 (ix3 b r k) (ix3 (i 0) (i 1) k) h0 h1 rfl, hx1 (ix3 b k q) (ix3 (i 0) k q) h0 rfl rfl]

/-- WHAT POINT t WRITES BACK is block t of that function of the three input arrays: the stored value of the three input
    blocks at t, and the output's block at t sits at batches 16t … 16t + 15 like the first two. -/
theorem flushed36_eq (c : Dev nD) (t : Fin cfg36.N) :
    (dat36 (F := Ideal) V c).flushed 3 t
      = ((cfg36.win 3).blk t).view.read (Elt Ideal)
          ((fun i => ∑ q : Fin 256, bmul (V c (Pipeline.arrRef spec36 0) : Mat3 256 64 256) (V c (Pipeline.arrRef spec36 1) : Mat3 256 256 256) (ix3 (i 0) (i 1) q)
            * (V c (Pipeline.arrRef spec36 2) : Mat 256 256) (ix2 q (i 2))) : Mat3 256 64 256) := by
  show (cfg36.win 3).cut (grid36.coords t) ((dat36 V c).after 3 t) = _
  rw [after36_3]
  unfold out36
  rw [View.canon_unit_zero hz36]
  simp only [View.ld_unit_zero (S := S16x64x256) hz36, View.ld_unit_zero (S := S16x256x256) hz36, View.ld_unit_zero (S := S256x256) hzz36]
  obtain ⟨-, -, -, -, -, -, -, -, e0, e1, e2⟩ := idx36 t
  funext j
  refine pay36_block (V c (Pipeline.arrRef spec36 0)) (V c (Pipeline.arrRef spec36 1)) (V c (Pipeline.arrRef spec36 2))
    (iblk36 V c 0 t) (iblk36 V c 1 t) (iblk36 V c 2 t) t.val
    (iblk36_0_apply V c t) (iblk36_1_apply V c t) (iblk36_2_apply V c t) j (((cfg36.win 3).blk t).view.emb j) ?_ ?_ ?_
  · show win36_3.index t (0 : Fin 3) * 16 + 1 * (j 0).val = t.val * 16 + (j 0).val; omega
  · show win36_3.index t (1 : Fin 3) * 64 + 1 * (j 1).val = (j 1).val; omega
  · show win36_3.index t (2 : Fin 3) * 256 + 1 * (j 2).val = (j 2).val; omega

/-! ## The 16 blocks tile the output -/

/-- An index of the output array is in point t's block iff each coordinate is in the block's range on its axis. -/
theorem mem_blk36 (t : Fin cfg36.N) (i : S256x64x256.Idx) :
    i ∈ ((cfg36.win 3).blk t).view.set ↔ ∀ a : Fin 3, win36_3.index t a * S16x64x256.size a ≤ (i a).val ∧ (i a).val < win36_3.index t a * S16x64x256.size a + S16x64x256.size a := by
  show i ∈ ((View.whole main_v358).slice (win36_3.rect t)).set ↔ _
  rw [View.set_slice_whole, Rect.mem_set_unit]
  exact Iff.rfl

/-- Every index (b, r, c) of the output is in the block of point b / 16, which is written back. -/
theorem cover36_arr (i : S256x64x256.Idx) :
    ∃ t : Fin cfg36.N, (cfg36.win 3).flush t = true ∧ i ∈ ((cfg36.win 3).blk t).view.set := by
  have hi0 : (i 0).val < 256 := (i 0).isLt
  have hi1 : (i 1).val < 64 := (i 1).isLt
  have hi2 : (i 2).val < 256 := (i 2).isLt
  have hN : cfg36.N = 16 := N_36
  let t : Fin cfg36.N := ⟨(i 0).val / 16, by rw [hN]; omega⟩
  have ht : t.val = (i 0).val / 16 := rfl
  obtain ⟨-, -, -, -, -, -, -, -, e0, e1, e2⟩ := idx36 t
  refine ⟨t, flush36_3 t, ?_⟩
  rw [mem_blk36]
  intro a
  match a with
  | ⟨0, _⟩ => show win36_3.index t (0 : Fin 3) * 16 ≤ (i 0).val ∧ (i 0).val < win36_3.index t (0 : Fin 3) * 16 + 16; omega
  | ⟨1, _⟩ => show win36_3.index t (1 : Fin 3) * 64 ≤ (i 1).val ∧ (i 1).val < win36_3.index t (1 : Fin 3) * 64 + 64; omega
  | ⟨2, _⟩ => show win36_3.index t (2 : Fin 3) * 256 ≤ (i 2).val ∧ (i 2).val < win36_3.index t (2 : Fin 3) * 256 + 256; omega

/-- THE OUTPUT ARRAY AFTER REGION 36: entry (b, r, c) is the sum over q of (A_b · X_b)(r, q) · W (q, c), over the three input
    arrays as the region finds them. -/
theorem arrAt36 (c : Dev nD) :
    (dat36 (F := Ideal) V c).arrAt 3 cfg36.N
      = ((fun i => ∑ q : Fin 256, bmul (V c (Pipeline.arrRef spec36 0) : Mat3 256 64 256) (V c (Pipeline.arrRef spec36 1) : Mat3 256 256 256) (ix3 (i 0) (i 1) q)
          * (V c (Pipeline.arrRef spec36 2) : Mat 256 256) (ix2 q (i 2))) : Mat3 256 64 256) :=
  (dat36 (F := Ideal) V c).arrAt_eq_of_cover 3 _ (fun t _ => flushed36_eq V c t) cover36_arr

end Cert.KernelIdeal.Val

end
-- ==== Proof.KI.ValSelf37.lean ====
/- Region 37, the self update: the output array after the region is ONE function of the four arrays the region reads,
   index by index —  max (X · W + b + U, 0)  with X the [32768,256] features, W the [256,256] weights, b the [1,256] bias row
   added to every row, U the [32768,256] added term. The grid's 16 points each own 2048 consecutive rows: point t reads
   rows 2048·t … 2048·t + 2047 of X and U and all of W and b, and writes those rows of the result. -/
import proofs.«101828_j11562051961417_2_alg».proof.Proof.KI.Region37
import proofs.«101828_j11562051961417_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat)
open Cert.Spec (Mat)

/-! ## The contraction of the body's matrix product, axis by axis -/

theorem lhs37_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs37_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs37_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs37_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's matrix product into the zero accumulator, at an entry: the row of the left block against the column of
    the right one. -/
theorem matmul37_apply (l : FVec Ideal S2048x256 .bf16) (r : FVec Ideal S256x256 .bf16) (p : Fin 2048) (q : Fin 256) :
    FloatOps.matmul dot_S2048x256_S256x256_S2048x256_1_0_0_1_n_n none l r (constant (F := Ideal) S2048x256 .f32 0x00000000#32) (ix2 p q)
      = ∑ k : Fin 256, l (ix2 p k) * r (ix2 k q) := by
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs37_0 _ _
    | ⟨1, _⟩ => exact (lhs37_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs37_0 _ _).trans hk
    | ⟨1, _⟩ => exact rhs37_1 _ _)
  rw [el, er]

/-- The body's value at an entry of its block. -/
theorem pay37_apply (x0 : Vec Ideal S2048x256 .f32) (x1 : Vec Ideal S256x256 .f32) (x2 : Vec Ideal S1x256 .f32) (x3 : Vec Ideal S2048x256 .f32)
    (p : Fin 2048) (q : Fin 256) :
    k37_pay1 (F := Ideal) x0 x1 x2 x3 (ix2 p q)
      = max ((∑ k : Fin 256, x0 (ix2 p k) * x1 (ix2 k q)) + x2 (ix2 (0 : Fin 1) q) + x3 (ix2 p q)) 0 := by
  unfold k37_pay1
  simp only [shapeCast_self]
  show max ((matmul dot_S2048x256_S256x256_S2048x256_1_0_0_1_n_n none (truncf .bf16 x0 bitsLt_bf16_f32) (truncf .bf16 x1 bitsLt_bf16_f32) (constant (F := Ideal) S2048x256 .f32 0x00000000#32) (ix2 p q)) + broadcastTo S2048x256 x2 broadcasts_S1x256_S2048x256 (ix2 p q) + x3 (ix2 p q)) (Ideal.ofBits .f32 0x00000000#32) = _
  rw [Ideal.ofBits_zero_f32, broadcastTo_1b_ab_apply]
  exact congrArg (fun s => max (s + x2 (ix2 (0 : Fin 1) q) + x3 (ix2 p q)) 0) (matmul37_apply _ _ p q)

/-! ## The output block after the body, at an entry -/

theorem zero37 : (![0, 0] : Fin 2 → Nat) = fun _ => 0 := funext fun a => by fin_cases a <;> rfl

/-- The output block after the body is the body's value of the four input blocks: at entry (p, q), row p of the features'
    block against column q of the weights, plus the bias at q, plus the added term's entry, rectified. -/
theorem out37_apply (x0 : Vec Ideal S2048x256 .f32) (x1 : Vec Ideal S256x256 .f32) (x2 : Vec Ideal S1x256 .f32) (x3 : Vec Ideal S2048x256 .f32)
    (p : Fin 2048) (q : Fin 256) :
    out37 (F := Ideal) x0 x1 x2 x3 (ix2 p q)
      = max ((∑ k : Fin 256, x0 (ix2 p k) * x1 (ix2 k q)) + x2 (ix2 (0 : Fin 1) q) + x3 (ix2 p q)) 0 := by
  unfold out37
  rw [View.canon_unit_zero zero37]
  simp only [View.ld_unit_zero (S := S2048x256) zero37, View.ld_unit_zero (S := S256x256) zero37, View.ld_unit_zero (S := S1x256) zero37]
  exact pay37_apply x0 x1 x2 x3 p q

/-! ## The blocks, as parts of the arrays -/

variable (V : (c : Dev nD) → (b : Ref sig .tc) → Buf (Elt Ideal) ((c : Thread nD τ).loc b))

/-- The printed index maps over the grid: the features', the added term's and the output's block at point t is block t
    of rows; the weights and the bias row are one block. -/
theorem idx37 : ∀ t : Fin cfg37.N, win37_0.index t (0 : Fin 2) = t.val ∧ win37_0.index t (1 : Fin 2) = 0
    ∧ win37_1.index t (0 : Fin 2) = 0 ∧ win37_1.index t (1 : Fin 2) = 0
    ∧ win37_2.index t (0 : Fin 2) = 0 ∧ win37_2.index t (1 : Fin 2) = 0
    ∧ win37_3.index t (0 : Fin 2) = t.val ∧ win37_3.index t (1 : Fin 2) = 0
    ∧ win37_4.index t (0 : Fin 2) = t.val ∧ win37_4.index t (1 : Fin 2) = 0 :=
  (by decide +kernel : ∀ t : Fin grid37.N, _)

/-- Entry (p, k) of the features' block at point t is entry (2048·t + p, k) of the features. -/
theorem iblk37_0_apply (c : Dev nD) (t : Fin cfg37.N) (p : Fin 2048) (k : Fin 256) (r : Fin 32768) (hr : r.val = t.val * 2048 + p.val) :
    (iblk37 V c 0 t : Vec Ideal S2048x256 .f32) (ix2 p k) = (V c (Pipeline.arrRef spec37 0) : Mat 32768 256) (ix2 r k) := by
  obtain ⟨e0, e1, -⟩ := idx37 t
  unfold iblk37
  rw [View.read_apply]
  refine congrArg (V c (Pipeline.arrRef spec37 0) : Mat 32768 256) (funext fun a => Fin.ext ?_)
  match a with
  | ⟨0, _⟩ => show win37_0.index t (0 : Fin 2) * 2048 + 1 * p.val = r.val; omega
  | ⟨1, _⟩ => show win37_0.index t (1 : Fin 2) * 256 + 1 * k.val = k.val; omega

/-- The weights' block at every point is the weights. -/
theorem iblk37_1_apply (c : Dev nD) (t : Fin cfg37.N) (k q : Fin 256) :
    (iblk37 V c 1 t : Vec Ideal S256x256 .f32) (ix2 k q) = (V c (Pipeline.arrRef spec37 1) : Mat 256 256) (ix2 k q) := by
  obtain ⟨-, -, e0, e1, -⟩ := idx37 t
  unfold iblk37
  rw [View.read_apply]
  refine congrArg (V c (Pipeline.arrRef spec37 1) : Mat 256 256) (funext fun a => Fin.ext ?_)
  match a with
  | ⟨0, _⟩ => show win37_1.index t (0 : Fin 2) * 256 + 1 * k.val = k.val; omega
  | ⟨1, _⟩ => show win37_1.index t (1 : Fin 2) * 256 + 1 * q.val = q.val; omega

/-- The bias row's block at every point is the bias row. -/
theorem iblk37_2_apply (c : Dev nD) (t : Fin cfg37.N) (z : Fin 1) (q : Fin 256) :
    (iblk37 V c 2 t : Vec Ideal S1x256 .f32) (ix2 z q) = (V c (Pipeline.arrRef spec37 2) : Mat 1 256) (ix2 z q) := by
  obtain ⟨-, -, -, -, e0, e1, -⟩ := idx37 t
  unfold iblk37
  rw [View.read_apply]
  refine congrArg (V c (Pipeline.arrRef spec37 2) : Mat 1 256) (funext fun a => Fin.ext ?_)
  match a with
  | ⟨0, _⟩ => show win37_2.index t (0 : Fin 2) * 1 + 1 * z.val = z.val; omega
  | ⟨1, _⟩ => show win37_2.index t (1 : Fin 2) * 256 + 1 * q.val = q.val; omega

/-- Entry (p, q) of the added term's block at point t is entry (2048·t + p, q) of the added term. -/
theorem iblk37_3_apply (c : Dev nD) (t : Fin cfg37.N) (p : Fin 2048) (q : Fin 256) (r : Fin 32768) (hr : r.val = t.val * 2048 + p.val) :
    (iblk37 V c 3 t : Vec Ideal S2048x256 .f32) (ix2 p q) = (V c (Pipeline.arrRef spec37 3) : Mat 32768 256) (ix2 r q) := by
  obtain ⟨-, -, -, -, -, -, e0, e1, -⟩ := idx37 t
  unfold iblk37
  rw [View.read_apply]
  refine congrArg (V c (Pipeline.arrRef spec37 3) : Mat 32768 256) (funext fun a => Fin.ext ?_)
  match a with
  | ⟨0, _⟩ => show win37_3.index t (0 : Fin 2) * 2048 + 1 * p.val = r.val; omega
  | ⟨1, _⟩ => show win37_3.index t (1 : Fin 2) * 256 + 1 * q.val = q.val; omega

/-! ## What each point writes back, and the array after the region -/

/-- The self update of the region's four input arrays, entry by entry. -/
abbrev selfUpdate37 (c : Dev nD) : Mat 32768 256 := fun i =>
  max (Cert.Spec.mul (V c (Pipeline.arrRef spec37 0) : Mat 32768 256) (V c (Pipeline.arrRef spec37 1) : Mat 256 256) i
      + (V c (Pipeline.arrRef spec37 2) : Mat 1 256) (ix2 (0 : Fin 1) (i 1)) + (V c (Pipeline.arrRef spec37 3) : Mat 32768 256) i) 0

/-- What point t writes back is its block of rows of the self update. -/
theorem flushed37_eq (c : Dev nD) (t : Fin cfg37.N) :
    (dat37 V c).flushed 4 t = ((cfg37.win 4).blk t).view.read (Elt Ideal) (selfUpdate37 V c) := by
  show (cfg37.win 4).cut (grid37.coords t) ((dat37 V c).after 4 t) = _
  rw [after37_4]
  funext y
  have hy0 : (y 0).val < 2048 := (y 0).isLt
  have hy1 : (y 1).val < 256 := (y 1).isLt
  have hN : t.val < 16 := lt_of_lt_of_eq t.isLt N_37
  obtain ⟨-, -, -, -, -, -, -, -, e0, e1⟩ := idx37 t
  have hx : (cfg37.win 4).xinj (grid37.coords t) y = ix2 (⟨(y 0).val, hy0⟩ : Fin 2048) (⟨(y 1).val, hy1⟩ : Fin 256) :=
    funext fun a => Fin.ext (by match a with | ⟨0, _⟩ => rfl | ⟨1, _⟩ => rfl)
  have he : ((cfg37.win 4).blk t).view.emb y
      = ix2 (⟨t.val * 2048 + (y 0).val, by omega⟩ : Fin 32768) (⟨(y 1).val, hy1⟩ : Fin 256) :=
    funext fun a => Fin.ext (by
      match a with
      | ⟨0, _⟩ => show win37_4.index t (0 : Fin 2) * 2048 + 1 * (y 0).val = t.val * 2048 + (y 0).val; omega
      | ⟨1, _⟩ => show win37_4.index t (1 : Fin 2) * 256 + 1 * (y 1).val = (y 1).val; omega)
  show out37 (F := Ideal) (iblk37 V c 0 t) (iblk37 V c 1 t) (iblk37 V c 2 t) (iblk37 V c 3 t) ((cfg37.win 4).xinj (grid37.coords t) y)
    = selfUpdate37 V c (((cfg37.win 4).blk t).view.emb y)
  rw [hx, he]
  refine (out37_apply (iblk37 V c 0 t) (iblk37 V c 1 t) (iblk37 V c 2 t) (iblk37 V c 3 t) ⟨(y 0).val, hy0⟩ ⟨(y 1).val, hy1⟩).trans ?_
  have h0 := fun k : Fin 256 => iblk37_0_apply V c t ⟨(y 0).val, hy0⟩ k ⟨t.val * 2048 + (y 0).val, by omega⟩ rfl
  have h1 := fun k : Fin 256 => iblk37_1_apply V c t k ⟨(y 1).val, hy1⟩
  have h2 := iblk37_2_apply V c t 0 ⟨(y 1).val, hy1⟩
  have h3 := iblk37_3_apply V c t ⟨(y 0).val, hy0⟩ ⟨(y 1).val, hy1⟩ ⟨t.val * 2048 + (y 0).val, by omega⟩ rfl
  simp only [h0, h1, h2, h3]
  rfl

/-- An index of the array is in point t's block iff each coordinate is in the block's range on its axis. -/
theorem mem_blk37 (t : Fin cfg37.N) (i : S32768x256.Idx) :
    i ∈ ((cfg37.win 4).blk t).view.set ↔ ∀ a : Fin 2, win37_4.index t a * S2048x256.size a ≤ (i a).val ∧ (i a).val < win37_4.index t a * S2048x256.size a + S2048x256.size a := by
  show i ∈ ((View.whole main_v365).slice (win37_4.rect t)).set ↔ _
  rw [View.set_slice_whole, Rect.mem_set_unit]
  exact Iff.rfl

/-- THE ARRAY AFTER THE REGION: the 16 blocks of 2048 rows tile the 32768 rows (row r is in block r / 2048), so the
    output array ends holding the self update of the four input arrays. -/
theorem arrAt37 (c : Dev nD) :
    (dat37 (F := Ideal) V c).arrAt 4 cfg37.N = fun i =>
      max (Cert.Spec.mul (V c (Pipeline.arrRef spec37 0) : Mat 32768 256) (V c (Pipeline.arrRef spec37 1) : Mat 256 256) i
          + (V c (Pipeline.arrRef spec37 2) : Mat 1 256) (ix2 (0 : Fin 1) (i 1)) + (V c (Pipeline.arrRef spec37 3) : Mat 32768 256) i) 0 :=
  (dat37 V c).arrAt_eq_of_cover 4 (selfUpdate37 V c) (fun t _ => flushed37_eq V c t) fun i => by
    have hi0 : (i 0).val < 32768 := (i 0).isLt
    have hi1 : (i 1).val < 256 := (i 1).isLt
    have hN : cfg37.N = 16 := N_37
    obtain ⟨-, -, -, -, -, -, -, -, e0, e1⟩ := idx37 ⟨(i 0).val / 2048, by rw [hN]; omega⟩
    refine ⟨⟨(i 0).val / 2048, by rw [hN]; omega⟩, flush37_4 _, ?_⟩
    rw [mem_blk37]
    intro a
    match a with
    | ⟨0, _⟩ =>
      show win37_4.index ⟨(i 0).val / 2048, _⟩ (0 : Fin 2) * 2048 ≤ (i 0).val ∧ (i 0).val < win37_4.index ⟨(i 0).val / 2048, _⟩ (0 : Fin 2) * 2048 + 2048
      rw [e0]; show (i 0).val / 2048 * 2048 ≤ (i 0).val ∧ (i 0).val < (i 0).val / 2048 * 2048 + 2048; omega
    | ⟨1, _⟩ =>
      show win37_4.index ⟨(i 0).val / 2048, _⟩ (1 : Fin 2) * 256 ≤ (i 1).val ∧ (i 1).val < win37_4.index ⟨(i 0).val / 2048, _⟩ (1 : Fin 2) * 256 + 256
      rw [e1]; omega

end Cert.KernelIdeal.Val

end
-- ==== Proof.KI.ValSelf38.lean ====
/- Region 38, the self update with two added terms: the output array after the region is ONE function of the five arrays
   the region reads, index by index —  max (X · W + b + U₁ + U₂, 0)  with X the [65536,256] features, W the [256,256]
   weights, b the [1,256] bias row added to every row, U₁ and U₂ the two [65536,256] added terms, added in that order. The
   grid's 32 points each own 2048 consecutive rows: point t reads rows 2048·t … 2048·t + 2047 of X, U₁ and U₂ and
   all of W and b, and writes those rows of the result. -/
import proofs.«101828_j11562051961417_2_alg».proof.Proof.KI.Region38
import proofs.«101828_j11562051961417_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat)
open Cert.Spec (Mat)

/-! ## The contraction of the body's matrix product, axis by axis -/

theorem lhs38_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs38_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs38_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs38_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's matrix product into the zero accumulator, at an entry: the row of the left block against the column of
    the right one. -/
theorem matmul38_apply (l : FVec Ideal S2048x256 .bf16) (r : FVec Ideal S256x256 .bf16) (p : Fin 2048) (q : Fin 256) :
    FloatOps.matmul dot_S2048x256_S256x256_S2048x256_1_0_0_1_n_n none l r (constant (F := Ideal) S2048x256 .f32 0x00000000#32) (ix2 p q)
      = ∑ k : Fin 256, l (ix2 p k) * r (ix2 k q) := by
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs38_0 _ _
    | ⟨1, _⟩ => exact (lhs38_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs38_0 _ _).trans hk
    | ⟨1, _⟩ => exact rhs38_1 _ _)
  rw [el, er]

/-- The body's value at an entry of its block. -/
theorem pay38_apply (x0 : Vec Ideal S2048x256 .f32) (x1 : Vec Ideal S256x256 .f32) (x2 : Vec Ideal S1x256 .f32) (x3 : Vec Ideal S2048x256 .f32)
    (x4 : Vec Ideal S2048x256 .f32) (p : Fin 2048) (q : Fin 256) :
    k38_pay1 (F := Ideal) x0 x1 x2 x3 x4 (ix2 p q)
      = max ((∑ k : Fin 256, x0 (ix2 p k) * x1 (ix2 k q)) + x2 (ix2 (0 : Fin 1) q) + x3 (ix2 p q) + x4 (ix2 p q)) 0 := by
  unfold k38_pay1
  simp only [shapeCast_self]
  show max ((matmul dot_S2048x256_S256x256_S2048x256_1_0_0_1_n_n none (truncf .bf16 x0 bitsLt_bf16_f32) (truncf .bf16 x1 bitsLt_bf16_f32) (constant (F := Ideal) S2048x256 .f32 0x00000000#32) (ix2 p q)) + broadcastTo S2048x256 x2 broadcasts_S1x256_S2048x256 (ix2 p q) + x3 (ix2 p q) + x4 (ix2 p q)) (Ideal.ofBits .f32 0x00000000#32) = _
  rw [Ideal.ofBits_zero_f32, broadcastTo_1b_ab_apply]
  exact congrArg (fun s => max (s + x2 (ix2 (0 : Fin 1) q) + x3 (ix2 p q) + x4 (ix2 p q)) 0) (matmul38_apply _ _ p q)

/-! ## The output block after the body, at an entry -/

theorem zero38 : (![0, 0] : Fin 2 → Nat) = fun _ => 0 := funext fun a => by fin_cases a <;> rfl

/-- The output block after the body is the body's value of the five input blocks: at entry (p, q), row p of the features'
    block against column q of the weights, plus the bias at q, plus the two added terms' entries in order, rectified. -/
theorem out38_apply (x0 : Vec Ideal S2048x256 .f32) (x1 : Vec Ideal S256x256 .f32) (x2 : Vec Ideal S1x256 .f32) (x3 : Vec Ideal S2048x256 .f32)
    (x4 : Vec Ideal S2048x256 .f32) (p : Fin 2048) (q : Fin 256) :
    out38 (F := Ideal) x0 x1 x2 x3 x4 (ix2 p q)
      = max ((∑ k : Fin 256, x0 (ix2 p k) * x1 (ix2 k q)) + x2 (ix2 (0 : Fin 1) q) + x3 (ix2 p q) + x4 (ix2 p q)) 0 := by
  unfold out38
  rw [View.canon_unit_zero zero38]
  simp only [View.ld_unit_zero (S := S2048x256) zero38, View.ld_unit_zero (S := S256x256) zero38, View.ld_unit_zero (S := S1x256) zero38]
  exact pay38_apply x0 x1 x2 x3 x4 p q

/-! ## The blocks, as parts of the arrays -/

variable (V : (c : Dev nD) → (b : Ref sig .tc) → Buf (Elt Ideal) ((c : Thread nD τ).loc b))

/-- The printed index maps over the grid: the features', the two added terms' and the output's block at point t is
    block t of rows; the weights and the bias row are one block. -/
theorem idx38 : ∀ t : Fin cfg38.N, win38_0.index t (0 : Fin 2) = t.val ∧ win38_0.index t (1 : Fin 2) = 0
    ∧ win38_1.index t (0 : Fin 2) = 0 ∧ win38_1.index t (1 : Fin 2) = 0
    ∧ win38_2.index t (0 : Fin 2) = 0 ∧ win38_2.index t (1 : Fin 2) = 0
    ∧ win38_3.index t (0 : Fin 2) = t.val ∧ win38_3.index t (1 : Fin 2) = 0
    ∧ win38_4.index t (0 : Fin 2) = t.val ∧ win38_4.index t (1 : Fin 2) = 0
    ∧ win38_5.index t (0 : Fin 2) = t.val ∧ win38_5.index t (1 : Fin 2) = 0 :=
  (by decide +kernel : ∀ t : Fin grid38.N, _)

/-- Entry (p, k) of the features' block at point t is entry (2048·t + p, k) of the features. -/
theorem iblk38_0_apply (c : Dev nD) (t : Fin cfg38.N) (p : Fin 2048) (k : Fin 256) (r : Fin 65536) (hr : r.val = t.val * 2048 + p.val) :
    (iblk38 V c 0 t : Vec Ideal S2048x256 .f32) (ix2 p k) = (V c (Pipeline.arrRef spec38 0) : Mat 65536 256) (ix2 r k) := by
  obtain ⟨e0, e1, -⟩ := idx38 t
  unfold iblk38
  rw [View.read_apply]
  refine congrArg (V c (Pipeline.arrRef spec38 0) : Mat 65536 256) (funext fun a => Fin.ext ?_)
  match a with
  | ⟨0, _⟩ => show win38_0.index t (0 : Fin 2) * 2048 + 1 * p.val = r.val; omega
  | ⟨1, _⟩ => show win38_0.index t (1 : Fin 2) * 256 + 1 * k.val = k.val; omega

/-- The weights' block at every point is the weights. -/
theorem iblk38_1_apply (c : Dev nD) (t : Fin cfg38.N) (k q : Fin 256) :
    (iblk38 V c 1 t : Vec Ideal S256x256 .f32) (ix2 k q) = (V c (Pipeline.arrRef spec38 1) : Mat 256 256) (ix2 k q) := by
  obtain ⟨-, -, e0, e1, -⟩ := idx38 t
  unfold iblk38
  rw [View.read_apply]
  refine congrArg (V c (Pipeline.arrRef spec38 1) : Mat 256 256) (funext fun a => Fin.ext ?_)
  match a with
  | ⟨0, _⟩ => show win38_1.index t (0 : Fin 2) * 256 + 1 * k.val = k.val; omega
  | ⟨1, _⟩ => show win38_1.index t (1 : Fin 2) * 256 + 1 * q.val = q.val; omega

/-- The bias row's block at every point is the bias row. -/
theorem iblk38_2_apply (c : Dev nD) (t : Fin cfg38.N) (z : Fin 1) (q : Fin 256) :
    (iblk38 V c 2 t : Vec Ideal S1x256 .f32) (ix2 z q) = (V c (Pipeline.arrRef spec38 2) : Mat 1 256) (ix2 z q) := by
  obtain ⟨-, -, -, -, e0, e1, -⟩ := idx38 t
  unfold iblk38
  rw [View.read_apply]
  refine congrArg (V c (Pipeline.arrRef spec38 2) : Mat 1 256) (funext fun a => Fin.ext ?_)
  match a with
  | ⟨0, _⟩ => show win38_2.index t (0 : Fin 2) * 1 + 1 * z.val = z.val; omega
  | ⟨1, _⟩ => show win38_2.index t (1 : Fin 2) * 256 + 1 * q.val = q.val; omega

/-- Entry (p, q) of the first added term's block at point t is entry (2048·t + p, q) of the first added term. -/
theorem iblk38_3_apply (c : Dev nD) (t : Fin cfg38.N) (p : Fin 2048) (q : Fin 256) (r : Fin 65536) (hr : r.val = t.val * 2048 + p.val) :
    (iblk38 V c 3 t : Vec Ideal S2048x256 .f32) (ix2 p q) = (V c (Pipeline.arrRef spec38 3) : Mat 65536 256) (ix2 r q) := by
  obtain ⟨-, -, -, -, -, -, e0, e1, -⟩ := idx38 t
  unfold iblk38
  rw [View.read_apply]
  refine congrArg (V c (Pipeline.arrRef spec38 3) : Mat 65536 256) (funext fun a => Fin.ext ?_)
  match a with
  | ⟨0, _⟩ => show win38_3.index t (0 : Fin 2) * 2048 + 1 * p.val = r.val; omega
  | ⟨1, _⟩ => show win38_3.index t (1 : Fin 2) * 256 + 1 * q.val = q.val; omega

/-- Entry (p, q) of the second added term's block at point t is entry (2048·t + p, q) of the second added term. -/
theorem iblk38_4_apply (c : Dev nD) (t : Fin cfg38.N) (p : Fin 2048) (q : Fin 256) (r : Fin 65536) (hr : r.val = t.val * 2048 + p.val) :
    (iblk38 V c 4 t : Vec Ideal S2048x256 .f32) (ix2 p q) = (V c (Pipeline.arrRef spec38 4) : Mat 65536 256) (ix2 r q) := by
  obtain ⟨-, -, -, -, -, -, -, -, e0, e1, -⟩ := idx38 t
  unfold iblk38
  rw [View.read_apply]
  refine congrArg (V c (Pipeline.arrRef spec38 4) : Mat 65536 256) (funext fun a => Fin.ext ?_)
  match a with
  | ⟨0, _⟩ => show win38_4.index t (0 : Fin 2) * 2048 + 1 * p.val = r.val; omega
  | ⟨1, _⟩ => show win38_4.index t (1 : Fin 2) * 256 + 1 * q.val = q.val; omega

/-! ## What each point writes back, and the array after the region -/

/-- The self update of the region's five input arrays, entry by entry. -/
abbrev selfUpdate38 (c : Dev nD) : Mat 65536 256 := fun i =>
  max (Cert.Spec.mul (V c (Pipeline.arrRef spec38 0) : Mat 65536 256) (V c (Pipeline.arrRef spec38 1) : Mat 256 256) i
      + (V c (Pipeline.arrRef spec38 2) : Mat 1 256) (ix2 (0 : Fin 1) (i 1)) + (V c (Pipeline.arrRef spec38 3) : Mat 65536 256) i
      + (V c (Pipeline.arrRef spec38 4) : Mat 65536 256) i) 0

/-- What point t writes back is its block of rows of the self update. -/
theorem flushed38_eq (c : Dev nD) (t : Fin cfg38.N) :
    (dat38 V c).flushed 5 t = ((cfg38.win 5).blk t).view.read (Elt Ideal) (selfUpdate38 V c) := by
  show (cfg38.win 5).cut (grid38.coords t) ((dat38 V c).after 5 t) = _
  rw [after38_5]
  funext y
  have hy0 : (y 0).val < 2048 := (y 0).isLt
  have hy1 : (y 1).val < 256 := (y 1).isLt
  have hN : t.val < 32 := lt_of_lt_of_eq t.isLt N_38
  obtain ⟨-, -, -, -, -, -, -, -, -, -, e0, e1⟩ := idx38 t
  have hx : (cfg38.win 5).xinj (grid38.coords t) y = ix2 (⟨(y 0).val, hy0⟩ : Fin 2048) (⟨(y 1).val, hy1⟩ : Fin 256) :=
    funext fun a => Fin.ext (by match a with | ⟨0, _⟩ => rfl | ⟨1, _⟩ => rfl)
  have he : ((cfg38.win 5).blk t).view.emb y
      = ix2 (⟨t.val * 2048 + (y 0).val, by omega⟩ : Fin 65536) (⟨(y 1).val, hy1⟩ : Fin 256) :=
    funext fun a => Fin.ext (by
      match a with
      | ⟨0, _⟩ => show win38_5.index t (0 : Fin 2) * 2048 + 1 * (y 0).val = t.val * 2048 + (y 0).val; omega
      | ⟨1, _⟩ => show win38_5.index t (1 : Fin 2) * 256 + 1 * (y 1).val = (y 1).val; omega)
  show out38 (F := Ideal) (iblk38 V c 0 t) (iblk38 V c 1 t) (iblk38 V c 2 t) (iblk38 V c 3 t) (iblk38 V c 4 t) ((cfg38.win 5).xinj (grid38.coords t) y)
    = selfUpdate38 V c (((cfg38.win 5).blk t).view.emb y)
  rw [hx, he]
  refine (out38_apply (iblk38 V c 0 t) (iblk38 V c 1 t) (iblk38 V c 2 t) (iblk38 V c 3 t) (iblk38 V c 4 t) ⟨(y 0).val, hy0⟩ ⟨(y 1).val, hy1⟩).trans ?_
  have h0 := fun k : Fin 256 => iblk38_0_apply V c t ⟨(y 0).val, hy0⟩ k ⟨t.val * 2048 + (y 0).val, by omega⟩ rfl
  have h1 := fun k : Fin 256 => iblk38_1_apply V c t k ⟨(y 1).val, hy1⟩
  have h2 := iblk38_2_apply V c t 0 ⟨(y 1).val, hy1⟩
  have h3 := iblk38_3_apply V c t ⟨(y 0).val, hy0⟩ ⟨(y 1).val, hy1⟩ ⟨t.val * 2048 + (y 0).val, by omega⟩ rfl
  have h4 := iblk38_4_apply V c t ⟨(y 0).val, hy0⟩ ⟨(y 1).val, hy1⟩ ⟨t.val * 2048 + (y 0).val, by omega⟩ rfl
  simp only [h0, h1, h2, h3, h4]
  rfl

/-- An index of the array is in point t's block iff each coordinate is in the block's range on its axis. -/
theorem mem_blk38 (t : Fin cfg38.N) (i : S65536x256.Idx) :
    i ∈ ((cfg38.win 5).blk t).view.set ↔ ∀ a : Fin 2, win38_5.index t a * S2048x256.size a ≤ (i a).val ∧ (i a).val < win38_5.index t a * S2048x256.size a + S2048x256.size a := by
  show i ∈ ((View.whole main_v371).slice (win38_5.rect t)).set ↔ _
  rw [View.set_slice_whole, Rect.mem_set_unit]
  exact Iff.rfl

/-- THE ARRAY AFTER THE REGION: the 32 blocks of 2048 rows tile the 65536 rows (row r is in block r / 2048), so
    the output array ends holding the self update of the five input arrays. -/
theorem arrAt38 (c : Dev nD) :
    (dat38 (F := Ideal) V c).arrAt 5 cfg38.N = fun i =>
      max (Cert.Spec.mul (V c (Pipeline.arrRef spec38 0) : Mat 65536 256) (V c (Pipeline.arrRef spec38 1) : Mat 256 256) i
          + (V c (Pipeline.arrRef spec38 2) : Mat 1 256) (ix2 (0 : Fin 1) (i 1)) + (V c (Pipeline.arrRef spec38 3) : Mat 65536 256) i
          + (V c (Pipeline.arrRef spec38 4) : Mat 65536 256) i) 0 :=
  (dat38 V c).arrAt_eq_of_cover 5 (selfUpdate38 V c) (fun t _ => flushed38_eq V c t) fun i => by
    have hi0 : (i 0).val < 65536 := (i 0).isLt
    have hi1 : (i 1).val < 256 := (i 1).isLt
    have hN : cfg38.N = 32 := N_38
    obtain ⟨-, -, -, -, -, -, -, -, -, -, e0, e1⟩ := idx38 ⟨(i 0).val / 2048, by rw [hN]; omega⟩
    refine ⟨⟨(i 0).val / 2048, by rw [hN]; omega⟩, flush38_5 _, ?_⟩
    rw [mem_blk38]
    intro a
    match a with
    | ⟨0, _⟩ =>
      show win38_5.index ⟨(i 0).val / 2048, _⟩ (0 : Fin 2) * 2048 ≤ (i 0).val ∧ (i 0).val < win38_5.index ⟨(i 0).val / 2048, _⟩ (0 : Fin 2) * 2048 + 2048
      rw [e0]; show (i 0).val / 2048 * 2048 ≤ (i 0).val ∧ (i 0).val < (i 0).val / 2048 * 2048 + 2048; omega
    | ⟨1, _⟩ =>
      show win38_5.index ⟨(i 0).val / 2048, _⟩ (1 : Fin 2) * 256 ≤ (i 1).val ∧ (i 1).val < win38_5.index ⟨(i 0).val / 2048, _⟩ (1 : Fin 2) * 256 + 256
      rw [e1]; omega

end Cert.KernelIdeal.Val

end
-- ==== Proof.KI.ValSelf39.lean ====
/- Region 39, the self update: the output array after the region is ONE function of the four arrays the region reads,
   index by index —  max (X · W + b + U, 0)  with X the [16384,256] features, W the [256,256] weights, b the [1,256] bias row
   added to every row, U the [16384,256] added term. The grid's 8 points each own 2048 consecutive rows: point t reads
   rows 2048·t … 2048·t + 2047 of X and U and all of W and b, and writes those rows of the result. -/
import proofs.«101828_j11562051961417_2_alg».proof.Proof.KI.Region39
import proofs.«101828_j11562051961417_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat)
open Cert.Spec (Mat)

/-! ## The contraction of the body's matrix product, axis by axis -/

theorem lhs39_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs39_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs39_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs39_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's matrix product into the zero accumulator, at an entry: the row of the left block against the column of
    the right one. -/
theorem matmul39_apply (l : FVec Ideal S2048x256 .bf16) (r : FVec Ideal S256x256 .bf16) (p : Fin 2048) (q : Fin 256) :
    FloatOps.matmul dot_S2048x256_S256x256_S2048x256_1_0_0_1_n_n none l r (constant (F := Ideal) S2048x256 .f32 0x00000000#32) (ix2 p q)
      = ∑ k : Fin 256, l (ix2 p k) * r (ix2 k q) := by
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs39_0 _ _
    | ⟨1, _⟩ => exact (lhs39_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs39_0 _ _).trans hk
    | ⟨1, _⟩ => exact rhs39_1 _ _)
  rw [el, er]

/-- The body's value at an entry of its block. -/
theorem pay39_apply (x0 : Vec Ideal S2048x256 .f32) (x1 : Vec Ideal S256x256 .f32) (x2 : Vec Ideal S1x256 .f32) (x3 : Vec Ideal S2048x256 .f32)
    (p : Fin 2048) (q : Fin 256) :
    k39_pay1 (F := Ideal) x0 x1 x2 x3 (ix2 p q)
      = max ((∑ k : Fin 256, x0 (ix2 p k) * x1 (ix2 k q)) + x2 (ix2 (0 : Fin 1) q) + x3 (ix2 p q)) 0 := by
  unfold k39_pay1
  simp only [shapeCast_self]
  show max ((matmul dot_S2048x256_S256x256_S2048x256_1_0_0_1_n_n none (truncf .bf16 x0 bitsLt_bf16_f32) (truncf .bf16 x1 bitsLt_bf16_f32) (constant (F := Ideal) S2048x256 .f32 0x00000000#32) (ix2 p q)) + broadcastTo S2048x256 x2 broadcasts_S1x256_S2048x256 (ix2 p q) + x3 (ix2 p q)) (Ideal.ofBits .f32 0x00000000#32) = _
  rw [Ideal.ofBits_zero_f32, broadcastTo_1b_ab_apply]
  exact congrArg (fun s => max (s + x2 (ix2 (0 : Fin 1) q) + x3 (ix2 p q)) 0) (matmul39_apply _ _ p q)

/-! ## The output block after the body, at an entry -/

theorem zero39 : (![0, 0] : Fin 2 → Nat) = fun _ => 0 := funext fun a => by fin_cases a <;> rfl

/-- The output block after the body is the body's value of the four input blocks: at entry (p, q), row p of the features'
    block against column q of the weights, plus the bias at q, plus the added term's entry, rectified. -/
theorem out39_apply (x0 : Vec Ideal S2048x256 .f32) (x1 : Vec Ideal S256x256 .f32) (x2 : Vec Ideal S1x256 .f32) (x3 : Vec Ideal S2048x256 .f32)
    (p : Fin 2048) (q : Fin 256) :
    out39 (F := Ideal) x0 x1 x2 x3 (ix2 p q)
      = max ((∑ k : Fin 256, x0 (ix2 p k) * x1 (ix2 k q)) + x2 (ix2 (0 : Fin 1) q) + x3 (ix2 p q)) 0 := by
  unfold out39
  rw [View.canon_unit_zero zero39]
  simp only [View.ld_unit_zero (S := S2048x256) zero39, View.ld_unit_zero (S := S256x256) zero39, View.ld_unit_zero (S := S1x256) zero39]
  exact pay39_apply x0 x1 x2 x3 p q

/-! ## The blocks, as parts of the arrays -/

variable (V : (c : Dev nD) → (b : Ref sig .tc) → Buf (Elt Ideal) ((c : Thread nD τ).loc b))

/-- The printed index maps over the grid: the features', the added term's and the output's block at point t is block t
    of rows; the weights and the bias row are one block. -/
theorem idx39 : ∀ t : Fin cfg39.N, win39_0.index t (0 : Fin 2) = t.val ∧ win39_0.index t (1 : Fin 2) = 0
    ∧ win39_1.index t (0 : Fin 2) = 0 ∧ win39_1.index t (1 : Fin 2) = 0
    ∧ win39_2.index t (0 : Fin 2) = 0 ∧ win39_2.index t (1 : Fin 2) = 0
    ∧ win39_3.index t (0 : Fin 2) = t.val ∧ win39_3.index t (1 : Fin 2) = 0
    ∧ win39_4.index t (0 : Fin 2) = t.val ∧ win39_4.index t (1 : Fin 2) = 0 :=
  (by decide +kernel : ∀ t : Fin grid39.N, _)

/-- Entry (p, k) of the features' block at point t is entry (2048·t + p, k) of the features. -/
theorem iblk39_0_apply (c : Dev nD) (t : Fin cfg39.N) (p : Fin 2048) (k : Fin 256) (r : Fin 16384) (hr : r.val = t.val * 2048 + p.val) :
    (iblk39 V c 0 t : Vec Ideal S2048x256 .f32) (ix2 p k) = (V c (Pipeline.arrRef spec39 0) : Mat 16384 256) (ix2 r k) := by
  obtain ⟨e0, e1, -⟩ := idx39 t
  unfold iblk39
  rw [View.read_apply]
  refine congrArg (V c (Pipeline.arrRef spec39 0) : Mat 16384 256) (funext fun a => Fin.ext ?_)
  match a with
  | ⟨0, _⟩ => show win39_0.index t (0 : Fin 2) * 2048 + 1 * p.val = r.val; omega
  | ⟨1, _⟩ => show win39_0.index t (1 : Fin 2) * 256 + 1 * k.val = k.val; omega

/-- The weights' block at every point is the weights. -/
theorem iblk39_1_apply (c : Dev nD) (t : Fin cfg39.N) (k q : Fin 256) :
    (iblk39 V c 1 t : Vec Ideal S256x256 .f32) (ix2 k q) = (V c (Pipeline.arrRef spec39 1) : Mat 256 256) (ix2 k q) := by
  obtain ⟨-, -, e0, e1, -⟩ := idx39 t
  unfold iblk39
  rw [View.read_apply]
  refine congrArg (V c (Pipeline.arrRef spec39 1) : Mat 256 256) (funext fun a => Fin.ext ?_)
  match a with
  | ⟨0, _⟩ => show win39_1.index t (0 : Fin 2) * 256 + 1 * k.val = k.val; omega
  | ⟨1, _⟩ => show win39_1.index t (1 : Fin 2) * 256 + 1 * q.val = q.val; omega

/-- The bias row's block at every point is the bias row. -/
theorem iblk39_2_apply (c : Dev nD) (t : Fin cfg39.N) (z : Fin 1) (q : Fin 256) :
    (iblk39 V c 2 t : Vec Ideal S1x256 .f32) (ix2 z q) = (V c (Pipeline.arrRef spec39 2) : Mat 1 256) (ix2 z q) := by
  obtain ⟨-, -, -, -, e0, e1, -⟩ := idx39 t
  unfold iblk39
  rw [View.read_apply]
  refine congrArg (V c (Pipeline.arrRef spec39 2) : Mat 1 256) (funext fun a => Fin.ext ?_)
  match a with
  | ⟨0, _⟩ => show win39_2.index t (0 : Fin 2) * 1 + 1 * z.val = z.val; omega
  | ⟨1, _⟩ => show win39_2.index t (1 : Fin 2) * 256 + 1 * q.val = q.val; omega

/-- Entry (p, q) of the added term's block at point t is entry (2048·t + p, q) of the added term. -/
theorem iblk39_3_apply (c : Dev nD) (t : Fin cfg39.N) (p : Fin 2048) (q : Fin 256) (r : Fin 16384) (hr : r.val = t.val * 2048 + p.val) :
    (iblk39 V c 3 t : Vec Ideal S2048x256 .f32) (ix2 p q) = (V c (Pipeline.arrRef spec39 3) : Mat 16384 256) (ix2 r q) := by
  obtain ⟨-, -, -, -, -, -, e0, e1, -⟩ := idx39 t
  unfold iblk39
  rw [View.read_apply]
  refine congrArg (V c (Pipeline.arrRef spec39 3) : Mat 16384 256) (funext fun a => Fin.ext ?_)
  match a with
  | ⟨0, _⟩ => show win39_3.index t (0 : Fin 2) * 2048 + 1 * p.val = r.val; omega
  | ⟨1, _⟩ => show win39_3.index t (1 : Fin 2) * 256 + 1 * q.val = q.val; omega

/-! ## What each point writes back, and the array after the region -/

/-- The self update of the region's four input arrays, entry by entry. -/
abbrev selfUpdate39 (c : Dev nD) : Mat 16384 256 := fun i =>
  max (Cert.Spec.mul (V c (Pipeline.arrRef spec39 0) : Mat 16384 256) (V c (Pipeline.arrRef spec39 1) : Mat 256 256) i
      + (V c (Pipeline.arrRef spec39 2) : Mat 1 256) (ix2 (0 : Fin 1) (i 1)) + (V c (Pipeline.arrRef spec39 3) : Mat 16384 256) i) 0

/-- What point t writes back is its block of rows of the self update. -/
theorem flushed39_eq (c : Dev nD) (t : Fin cfg39.N) :
    (dat39 V c).flushed 4 t = ((cfg39.win 4).blk t).view.read (Elt Ideal) (selfUpdate39 V c) := by
  show (cfg39.win 4).cut (grid39.coords t) ((dat39 V c).after 4 t) = _
  rw [after39_4]
  funext y
  have hy0 : (y 0).val < 2048 := (y 0).isLt
  have hy1 : (y 1).val < 256 := (y 1).isLt
  have hN : t.val < 8 := lt_of_lt_of_eq t.isLt N_39
  obtain ⟨-, -, -, -, -, -, -, -, e0, e1⟩ := idx39 t
  have hx : (cfg39.win 4).xinj (grid39.coords t) y = ix2 (⟨(y 0).val, hy0⟩ : Fin 2048) (⟨(y 1).val, hy1⟩ : Fin 256) :=
    funext fun a => Fin.ext (by match a with | ⟨0, _⟩ => rfl | ⟨1, _⟩ => rfl)
  have he : ((cfg39.win 4).blk t).view.emb y
      = ix2 (⟨t.val * 2048 + (y 0).val, by omega⟩ : Fin 16384) (⟨(y 1).val, hy1⟩ : Fin 256) :=
    funext fun a => Fin.ext (by
      match a with
      | ⟨0, _⟩ => show win39_4.index t (0 : Fin 2) * 2048 + 1 * (y 0).val = t.val * 2048 + (y 0).val; omega
      | ⟨1, _⟩ => show win39_4.index t (1 : Fin 2) * 256 + 1 * (y 1).val = (y 1).val; omega)
  show out39 (F := Ideal) (iblk39 V c 0 t) (iblk39 V c 1 t) (iblk39 V c 2 t) (iblk39 V c 3 t) ((cfg39.win 4).xinj (grid39.coords t) y)
    = selfUpdate39 V c (((cfg39.win 4).blk t).view.emb y)
  rw [hx, he]
  refine (out39_apply (iblk39 V c 0 t) (iblk39 V c 1 t) (iblk39 V c 2 t) (iblk39 V c 3 t) ⟨(y 0).val, hy0⟩ ⟨(y 1).val, hy1⟩).trans ?_
  have h0 := fun k : Fin 256 => iblk39_0_apply V c t ⟨(y 0).val, hy0⟩ k ⟨t.val * 2048 + (y 0).val, by omega⟩ rfl
  have h1 := fun k : Fin 256 => iblk39_1_apply V c t k ⟨(y 1).val, hy1⟩
  have h2 := iblk39_2_apply V c t 0 ⟨(y 1).val, hy1⟩
  have h3 := iblk39_3_apply V c t ⟨(y 0).val, hy0⟩ ⟨(y 1).val, hy1⟩ ⟨t.val * 2048 + (y 0).val, by omega⟩ rfl
  simp only [h0, h1, h2, h3]
  rfl

/-- An index of the array is in point t's block iff each coordinate is in the block's range on its axis. -/
theorem mem_blk39 (t : Fin cfg39.N) (i : S16384x256.Idx) :
    i ∈ ((cfg39.win 4).blk t).view.set ↔ ∀ a : Fin 2, win39_4.index t a * S2048x256.size a ≤ (i a).val ∧ (i a).val < win39_4.index t a * S2048x256.size a + S2048x256.size a := by
  show i ∈ ((View.whole main_v377).slice (win39_4.rect t)).set ↔ _
  rw [View.set_slice_whole, Rect.mem_set_unit]
  exact Iff.rfl

/-- THE ARRAY AFTER THE REGION: the 8 blocks of 2048 rows tile the 16384 rows (row r is in block r / 2048), so the
    output array ends holding the self update of the four input arrays. -/
theorem arrAt39 (c : Dev nD) :
    (dat39 (F := Ideal) V c).arrAt 4 cfg39.N = fun i =>
      max (Cert.Spec.mul (V c (Pipeline.arrRef spec39 0) : Mat 16384 256) (V c (Pipeline.arrRef spec39 1) : Mat 256 256) i
          + (V c (Pipeline.arrRef spec39 2) : Mat 1 256) (ix2 (0 : Fin 1) (i 1)) + (V c (Pipeline.arrRef spec39 3) : Mat 16384 256) i) 0 :=
  (dat39 V c).arrAt_eq_of_cover 4 (selfUpdate39 V c) (fun t _ => flushed39_eq V c t) fun i => by
    have hi0 : (i 0).val < 16384 := (i 0).isLt
    have hi1 : (i 1).val < 256 := (i 1).isLt
    have hN : cfg39.N = 8 := N_39
    obtain ⟨-, -, -, -, -, -, -, -, e0, e1⟩ := idx39 ⟨(i 0).val / 2048, by rw [hN]; omega⟩
    refine ⟨⟨(i 0).val / 2048, by rw [hN]; omega⟩, flush39_4 _, ?_⟩
    rw [mem_blk39]
    intro a
    match a with
    | ⟨0, _⟩ =>
      show win39_4.index ⟨(i 0).val / 2048, _⟩ (0 : Fin 2) * 2048 ≤ (i 0).val ∧ (i 0).val < win39_4.index ⟨(i 0).val / 2048, _⟩ (0 : Fin 2) * 2048 + 2048
      rw [e0]; show (i 0).val / 2048 * 2048 ≤ (i 0).val ∧ (i 0).val < (i 0).val / 2048 * 2048 + 2048; omega
    | ⟨1, _⟩ =>
      show win39_4.index ⟨(i 0).val / 2048, _⟩ (1 : Fin 2) * 256 ≤ (i 1).val ∧ (i 1).val < win39_4.index ⟨(i 0).val / 2048, _⟩ (1 : Fin 2) * 256 + 256
      rw [e1]; omega

end Cert.KernelIdeal.Val

end
-- ==== Proof.KI.Layer3Bound.lean ====
/- The layer-3 boundary messages, stated over the reference's stage functions.

   In the fourth layer the node and edge features are the third layer's outputs, themselves functions of the
   arguments; the incidence arrays are the ones computed once. The two bridges of the boundary module are instantiated
   at these functions: the kernel's re-associated edge message and its batched cell message, laid out flat, are the
   reference's two messages of this layer. -/
import proofs.«101828_j11562051961417_2_alg».proof.KernelIdeal
import proofs.«101828_j11562051961417_2_alg».proof.ReferenceIdeal
import proofs.«101828_j11562051961417_2_alg».proof.Proof.Spec
import proofs.«101828_j11562051961417_2_alg».proof.Proof.Laws
import proofs.«101828_j11562051961417_2_alg».proof.Proof.RefRead
import proofs.«101828_j11562051961417_2_alg».proof.Proof.BridgeBound
import proofs.«101828_j11562051961417_2_alg».proof.Proof.KI.Layer0Bound
import Idealize.ShloMosaic.Lib.Pipeline.Value
import Idealize.ShloMosaic.Lib.ValueIdx
import Idealize.ShloMosaic.Lib.IdealHost
import Idealize.ShloMosaic.PureOps.Ideal.Laws

noncomputable section

namespace Cert.Bridge

open Idealize.ShloMosaic Idealize.ShloMosaic.ValueIdx
open Cert.ReferenceIdeal.Read
open scoped BigOperators

variable [Cert.KernelIdeal.Facts₀] [Cert.ReferenceIdeal.Facts₀]

/-- The kernel's re-associated edge message A_b · (X · W)_b of the fourth layer, laid out flat, is the reference's
    ((A_b · X_b) laid out flat) · W, for real node features and weights. The weight matrix is one slab of the weight
    array, so real when that is. -/
theorem bd_e_layer3 (x0 : (⟨Cert.ReferenceIdeal.S32768x256, .f32⟩ : BufTy).Contents (Elt Ideal))
    (x1 : (⟨Cert.ReferenceIdeal.S65536x256, .f32⟩ : BufTy).Contents (Elt Ideal))
    (x2 : (⟨Cert.ReferenceIdeal.S16384x256, .f32⟩ : BufTy).Contents (Elt Ideal))
    (x3 x4 x5 x6 : (⟨Cert.ReferenceIdeal.S131072, .i32⟩ : BufTy).Contents (Elt Ideal))
    (x7 x8 x9 x10 : (⟨Cert.ReferenceIdeal.S98304, .i32⟩ : BufTy).Contents (Elt Ideal))
    (x11 x12 x13 : (⟨Cert.ReferenceIdeal.S131072, .i32⟩ : BufTy).Contents (Elt Ideal))
    (x14 x15 x16 : (⟨Cert.ReferenceIdeal.S65536, .i32⟩ : BufTy).Contents (Elt Ideal))
    (x17 : (⟨Cert.ReferenceIdeal.S4x3x256x256, .f32⟩ : BufTy).Contents (Elt Ideal))
    (x18 : (⟨Cert.ReferenceIdeal.S4x3x256, .f32⟩ : BufTy).Contents (Elt Ideal))
    (x19 x20 x21 : (⟨Cert.ReferenceIdeal.S4x2x256x256, .f32⟩ : BufTy).Contents (Elt Ideal))
    (hnf : Cert.Spec.Finite (s := ⟨2, ![32768, 256]⟩) (val_main_v319 (F := Ideal) x0 x1 x2 x3 x4 x5 x6 x7 x8 x9 x10 x11 x12 x13 x14 x15 x16 x17 x18 x19 x20 x21))
    (h21 : Cert.Spec.Finite x21) :
    shapeCast Cert.KernelIdeal.S65536x256
        (Cert.Spec.bmul (val_main_v21 (F := Ideal) x11 x12 x13 : Cert.Spec.Mat3 256 256 128)
          (shapeCast Cert.KernelIdeal.S256x128x256
            (Cert.Spec.mul (val_main_v319 (F := Ideal) x0 x1 x2 x3 x4 x5 x6 x7 x8 x9 x10 x11 x12 x13 x14 x15 x16 x17 x18 x19 x20 x21 : Cert.Spec.Mat 32768 256)
              (val_main_v395 (F := Ideal) x21 : Cert.Spec.Mat 256 256))
            Cert.KernelIdeal.Shapes1.Facts₀.shapeCasts_S32768x256_S256x128x256))
        Cert.KernelIdeal.Shapes1.Facts₀.shapeCasts_S256x256x256_S65536x256
      = val_main_v396 (F := Ideal) x0 x1 x2 x3 x4 x5 x6 x7 x8 x9 x10 x11 x12 x13 x14 x15 x16 x17 x18 x19 x20 x21 :=
  (edge_boundary (val_main_v21 (F := Ideal) x11 x12 x13) (val_main_v319 (F := Ideal) x0 x1 x2 x3 x4 x5 x6 x7 x8 x9 x10 x11 x12 x13 x14 x15 x16 x17 x18 x19 x20 x21)
    (val_main_v395 (F := Ideal) x21) (finite_val_main_v21 x11 x12 x13) hnf (fun _ => h21 _)).symm

/-- The kernel's batched cell message (A_b · X_b) · W of the fourth layer, laid out flat, is the reference's. -/
theorem bd_c_layer3 (x0 : (⟨Cert.ReferenceIdeal.S32768x256, .f32⟩ : BufTy).Contents (Elt Ideal))
    (x1 : (⟨Cert.ReferenceIdeal.S65536x256, .f32⟩ : BufTy).Contents (Elt Ideal))
    (x2 : (⟨Cert.ReferenceIdeal.S16384x256, .f32⟩ : BufTy).Contents (Elt Ideal))
    (x3 x4 x5 x6 : (⟨Cert.ReferenceIdeal.S131072, .i32⟩ : BufTy).Contents (Elt Ideal))
    (x7 x8 x9 x10 : (⟨Cert.ReferenceIdeal.S98304, .i32⟩ : BufTy).Contents (Elt Ideal))
    (x11 x12 x13 : (⟨Cert.ReferenceIdeal.S131072, .i32⟩ : BufTy).Contents (Elt Ideal))
    (x14 x15 x16 : (⟨Cert.ReferenceIdeal.S65536, .i32⟩ : BufTy).Contents (Elt Ideal))
    (x17 : (⟨Cert.ReferenceIdeal.S4x3x256x256, .f32⟩ : BufTy).Contents (Elt Ideal))
    (x18 : (⟨Cert.ReferenceIdeal.S4x3x256, .f32⟩ : BufTy).Contents (Elt Ideal))
    (x19 x20 x21 : (⟨Cert.ReferenceIdeal.S4x2x256x256, .f32⟩ : BufTy).Contents (Elt Ideal)) :
    shapeCast Cert.KernelIdeal.S16384x256
        (cellMsg (val_main_v43 (F := Ideal) x14 x15 x16)
          (val_main_v397 (F := Ideal) x0 x1 x2 x3 x4 x5 x6 x7 x8 x9 x10 x11 x12 x13 x14 x15 x16 x17 x18 x19 x20 x21)
          (val_main_v401 (F := Ideal) x21))
        Cert.KernelIdeal.Shapes1.Facts₀.shapeCasts_S256x64x256_S16384x256
      = val_main_v402 (F := Ideal) x0 x1 x2 x3 x4 x5 x6 x7 x8 x9 x10 x11 x12 x13 x14 x15 x16 x17 x18 x19 x20 x21 :=
  (cell_boundary (val_main_v43 (F := Ideal) x14 x15 x16)
    (val_main_v397 (F := Ideal) x0 x1 x2 x3 x4 x5 x6 x7 x8 x9 x10 x11 x12 x13 x14 x15 x16 x17 x18 x19 x20 x21)
    (val_main_v401 (F := Ideal) x21)).symm

end Cert.Bridge

end
-- ==== Proof.KI.Layer3Self.lean ====
/- Layer 3 on the host, as identities between functions of whole arrays: the two sums of messages per receiver and the
   three updates, each spelt once over the products taken first (the shared vocabulary's X · W) and once as the
   operations that gather first and contract afterwards. The layer's features are the values layer 2 leaves; every
   identity is layer 0's with those values in place of the feature arguments and the layer's own weight and bias slots. -/
import Idealize.ShloMosaic.PureOps.Ideal
import Idealize.ShloMosaic.PureOps.Ideal.Laws
import Idealize.ShloMosaic.Lib.ValueIdx
import Idealize.ShloMosaic.Lib.Pipeline.Value
import proofs.«101828_j11562051961417_2_alg».proof.KernelIdeal
import proofs.«101828_j11562051961417_2_alg».proof.ReferenceIdeal
import proofs.«101828_j11562051961417_2_alg».proof.Proof.Gen.KernelIdeal
import proofs.«101828_j11562051961417_2_alg».proof.Proof.RefRead
import proofs.«101828_j11562051961417_2_alg».proof.Proof.Spec
import proofs.«101828_j11562051961417_2_alg».proof.Proof.Laws
import proofs.«101828_j11562051961417_2_alg».proof.Proof.BridgeMsg
import proofs.«101828_j11562051961417_2_alg».proof.Proof.KI.Layer0Self

noncomputable section

namespace Cert.Bridge

open Idealize.ShloMosaic Idealize.ShloMosaic.ValueIdx
open Cert.ReferenceIdeal.Read
open scoped BigOperators

/-! ## The sums of messages per receiver -/

/-- The node messages of layer 3 summed per receiving node. The layer's features are the values layer 2 leaves; the identity is layer 0's with those in place of the arguments. -/
theorem up_n_layer3 (x0 : (⟨Cert.ReferenceIdeal.S32768x256, .f32⟩ : BufTy).Contents (Elt Ideal)) (x1 : (⟨Cert.ReferenceIdeal.S65536x256, .f32⟩ : BufTy).Contents (Elt Ideal)) (x2 : (⟨Cert.ReferenceIdeal.S16384x256, .f32⟩ : BufTy).Contents (Elt Ideal)) (x3 x4 x5 x6 : (⟨Cert.ReferenceIdeal.S131072, .i32⟩ : BufTy).Contents (Elt Ideal)) (x7 x8 x9 x10 : (⟨Cert.ReferenceIdeal.S98304, .i32⟩ : BufTy).Contents (Elt Ideal)) (x11 x12 x13 : (⟨Cert.ReferenceIdeal.S131072, .i32⟩ : BufTy).Contents (Elt Ideal)) (x14 x15 x16 : (⟨Cert.ReferenceIdeal.S65536, .i32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal)) (x19 x20 x21 : (⟨Cert.ReferenceIdeal.S4x2x256x256, .f32⟩ : BufTy).Contents (Elt Ideal)) :
    Host.scatterAdd (F := Ideal) Cert.KernelIdeal.scatter_S32768x256_S131072x1_S131072x256_1_0_0_1
        (broadcastInDim Cert.KernelIdeal.S32768x256 ![] Cert.KernelIdeal.Shapes1.Facts₀.bcast_S_S32768x256 (constant (F := Ideal) Cert.KernelIdeal.S_ .f32 0x00000000#32))
        (broadcastInDim Cert.KernelIdeal.S131072x1 ![0] Cert.KernelIdeal.Shapes1.Facts₀.bcast_S131072_S131072x1_0 (val_main_v46 (F := Ideal) x3 x4))
        (maximumf (F := Ideal) (φ := .f32)
          (addf
            (Host.gather Cert.KernelIdeal.gather_S32768x256_S131072x1_S131072x256_1_0_n_n_0_1_1256
              (Cert.Spec.mul ((val_main_v319 (F := Ideal) x0 x1 x2 x3 x4 x5 x6 x7 x8 x9 x10 x11 x12 x13 x14 x15 x16 x17 x18 x19 x20 x21) : Cert.Spec.Mat 32768 256) (val_main_v349 (F := Ideal) x19 : Cert.Spec.Mat 256 256))
              (val_main_v346 (F := Ideal) x3 x5))
            (Host.gather Cert.KernelIdeal.gather_S65536x256_S131072x1_S131072x256_1_0_n_n_0_1_1256
              (Cert.Spec.mul ((val_main_v330 (F := Ideal) x0 x1 x2 x3 x4 x5 x6 x7 x8 x9 x10 x11 x12 x13 x14 x15 x16 x17 x18 x19 x20 x21) : Cert.Spec.Mat 65536 256) (val_main_v359 (F := Ideal) x20 : Cert.Spec.Mat 256 256))
              (val_main_v356 (F := Ideal) x3 x6)))
          (broadcastInDim Cert.KernelIdeal.S131072x256 ![] Cert.KernelIdeal.Shapes1.Facts₀.bcast_S_S131072x256 (constant (F := Ideal) Cert.KernelIdeal.S_ .f32 0x00000000#32)))
      = val_main_v365 (F := Ideal) x0 x1 x2 x3 x4 x5 x6 x7 x8 x9 x10 x11 x12 x13 x14 x15 x16 x17 x18 x19 x20 x21 := by
  rw [msg_131072]
  rfl

/-- The edge messages of layer 3 summed per receiving edge. -/
theorem up_e_layer3 (x0 : (⟨Cert.ReferenceIdeal.S32768x256, .f32⟩ : BufTy).Contents (Elt Ideal)) (x1 : (⟨Cert.ReferenceIdeal.S65536x256, .f32⟩ : BufTy).Contents (Elt Ideal)) (x2 : (⟨Cert.ReferenceIdeal.S16384x256, .f32⟩ : BufTy).Contents (Elt Ideal)) (x3 x4 x5 x6 : (⟨Cert.ReferenceIdeal.S131072, .i32⟩ : BufTy).Contents (Elt Ideal)) (x7 x8 x9 x10 : (⟨Cert.ReferenceIdeal.S98304, .i32⟩ : BufTy).Contents (Elt Ideal)) (x11 x12 x13 : (⟨Cert.ReferenceIdeal.S131072, .i32⟩ : BufTy).Contents (Elt Ideal)) (x14 x15 x16 : (⟨Cert.ReferenceIdeal.S65536, .i32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal)) (x19 x20 x21 : (⟨Cert.ReferenceIdeal.S4x2x256x256, .f32⟩ : BufTy).Contents (Elt Ideal)) :
    Host.scatterAdd (F := Ideal) Cert.KernelIdeal.scatter_S65536x256_S98304x1_S98304x256_1_0_0_1
        (broadcastInDim Cert.KernelIdeal.S65536x256 ![] Cert.KernelIdeal.Shapes1.Facts₀.bcast_S_S65536x256 (constant (F := Ideal) Cert.KernelIdeal.S_ .f32 0x00000000#32))
        (broadcastInDim Cert.KernelIdeal.S98304x1 ![0] Cert.KernelIdeal.Shapes1.Facts₀.bcast_S98304_S98304x1_0 (val_main_v55 (F := Ideal) x7 x8))
        (maximumf (F := Ideal) (φ := .f32)
          (addf
            (Host.gather Cert.KernelIdeal.gather_S65536x256_S98304x1_S98304x256_1_0_n_n_0_1_1256
              (Cert.Spec.mul ((val_main_v330 (F := Ideal) x0 x1 x2 x3 x4 x5 x6 x7 x8 x9 x10 x11 x12 x13 x14 x15 x16 x17 x18 x19 x20 x21) : Cert.Spec.Mat 65536 256) (val_main_v374 (F := Ideal) x19 : Cert.Spec.Mat 256 256))
              (val_main_v371 (F := Ideal) x7 x9))
            (Host.gather Cert.KernelIdeal.gather_S16384x256_S98304x1_S98304x256_1_0_n_n_0_1_1256
              (Cert.Spec.mul ((val_main_v340 (F := Ideal) x0 x1 x2 x3 x4 x5 x6 x7 x8 x9 x10 x11 x12 x13 x14 x15 x16 x17 x18 x19 x20 x21) : Cert.Spec.Mat 16384 256) (val_main_v384 (F := Ideal) x20 : Cert.Spec.Mat 256 256))
              (val_main_v381 (F := Ideal) x7 x10)))
          (broadcastInDim Cert.KernelIdeal.S98304x256 ![] Cert.KernelIdeal.Shapes1.Facts₀.bcast_S_S98304x256 (constant (F := Ideal) Cert.KernelIdeal.S_ .f32 0x00000000#32)))
      = val_main_v390 (F := Ideal) x0 x1 x2 x3 x4 x5 x6 x7 x8 x9 x10 x11 x12 x13 x14 x15 x16 x17 x18 x19 x20 x21 := by
  rw [msg_98304]
  rfl

/-! ## The three updates -/

/-- The node update of layer 3. -/
theorem self_n_layer3 (x0 : (⟨Cert.ReferenceIdeal.S32768x256, .f32⟩ : BufTy).Contents (Elt Ideal)) (x1 : (⟨Cert.ReferenceIdeal.S65536x256, .f32⟩ : BufTy).Contents (Elt Ideal)) (x2 : (⟨Cert.ReferenceIdeal.S16384x256, .f32⟩ : BufTy).Contents (Elt Ideal)) (x3 x4 x5 x6 : (⟨Cert.ReferenceIdeal.S131072, .i32⟩ : BufTy).Contents (Elt Ideal)) (x7 x8 x9 x10 : (⟨Cert.ReferenceIdeal.S98304, .i32⟩ : BufTy).Contents (Elt Ideal)) (x11 x12 x13 : (⟨Cert.ReferenceIdeal.S131072, .i32⟩ : BufTy).Contents (Elt Ideal)) (x14 x15 x16 : (⟨Cert.ReferenceIdeal.S65536, .i32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal)) (x19 x20 x21 : (⟨Cert.ReferenceIdeal.S4x2x256x256, .f32⟩ : BufTy).Contents (Elt Ideal))
    (U : (⟨Cert.ReferenceIdeal.S32768x256, .f32⟩ : BufTy).Contents (Elt Ideal)) :
    (fun i => max (Cert.Spec.mul ((val_main_v319 (F := Ideal) x0 x1 x2 x3 x4 x5 x6 x7 x8 x9 x10 x11 x12 x13 x14 x15 x16 x17 x18 x19 x20 x21) : Cert.Spec.Mat 32768 256) (val_main_v404 (F := Ideal) x17 : Cert.Spec.Mat 256 256) i
        + (shapeCast Cert.KernelIdeal.S1x256 (shapeCast Cert.KernelIdeal.S256 (extractStridedSlice Cert.KernelIdeal.S1x1x256 ![3, 0, 0] x18 Cert.KernelIdeal.Shapes1.Facts₀.slices_S4x3x256_S1x1x256_3_0_0) Cert.KernelIdeal.Shapes1.Facts₀.shapeCasts_S1x1x256_S256) Cert.KernelIdeal.Shapes1.Facts₀.shapeCasts_S256_S1x256 : Cert.Spec.Mat 1 256) (ix2 (0 : Fin 1) (i 1)) + (U : Cert.Spec.Mat 32768 256) i) 0 : Cert.Spec.Mat 32768 256)
      = maximumf (F := Ideal) (φ := .f32) (addf (val_main_v410 (F := Ideal) x0 x1 x2 x3 x4 x5 x6 x7 x8 x9 x10 x11 x12 x13 x14 x15 x16 x17 x18 x19 x20 x21) U) (val_main_call17_v0 (F := Ideal)) := by
  funext i
  have hdot : val_main_v405 (F := Ideal) x0 x1 x2 x3 x4 x5 x6 x7 x8 x9 x10 x11 x12 x13 x14 x15 x16 x17 x18 x19 x20 x21 = Cert.Spec.mul ((val_main_v319 (F := Ideal) x0 x1 x2 x3 x4 x5 x6 x7 x8 x9 x10 x11 x12 x13 x14 x15 x16 x17 x18 x19 x20 x21) : Cert.Spec.Mat 32768 256) (val_main_v404 (F := Ideal) x17 : Cert.Spec.Mat 256 256) :=
    dotGeneral_eq_mul Cert.ReferenceIdeal.dot_S32768x256_S256x256_S32768x256_1_0_0_1_n_n rfl rfl rfl rfl rfl rfl none (val_main_v319 (F := Ideal) x0 x1 x2 x3 x4 x5 x6 x7 x8 x9 x10 x11 x12 x13 x14 x15 x16 x17 x18 x19 x20 x21) (val_main_v404 (F := Ideal) x17)
  have hbias : val_main_v409 (F := Ideal) x18 i = (shapeCast Cert.KernelIdeal.S1x256 (shapeCast Cert.KernelIdeal.S256 (extractStridedSlice Cert.KernelIdeal.S1x1x256 ![3, 0, 0] x18 Cert.KernelIdeal.Shapes1.Facts₀.slices_S4x3x256_S1x1x256_3_0_0) Cert.KernelIdeal.Shapes1.Facts₀.shapeCasts_S1x1x256_S256) Cert.KernelIdeal.Shapes1.Facts₀.shapeCasts_S256_S1x256 : Cert.Spec.Mat 1 256) (ix2 (0 : Fin 1) (i 1)) := by
    unfold val_main_v409 val_main_v408 val_main_v407 val_main_v406
    exact (bias_rows_apply (by decide) (by decide) x18 _ _ _ _ i).trans (bias_row_apply (by decide) (by decide) x18 _ _ _ (i 1)).symm
  have hz : val_main_call17_v0 (F := Ideal) i = 0 := by
    unfold val_main_call17_v0 val_main_call17_cst
    exact Ideal.ofBits_zero_f32
  show max (Cert.Spec.mul ((val_main_v319 (F := Ideal) x0 x1 x2 x3 x4 x5 x6 x7 x8 x9 x10 x11 x12 x13 x14 x15 x16 x17 x18 x19 x20 x21) : Cert.Spec.Mat 32768 256) (val_main_v404 (F := Ideal) x17 : Cert.Spec.Mat 256 256) i + (shapeCast Cert.KernelIdeal.S1x256 (shapeCast Cert.KernelIdeal.S256 (extractStridedSlice Cert.KernelIdeal.S1x1x256 ![3, 0, 0] x18 Cert.KernelIdeal.Shapes1.Facts₀.slices_S4x3x256_S1x1x256_3_0_0) Cert.KernelIdeal.Shapes1.Facts₀.shapeCasts_S1x1x256_S256) Cert.KernelIdeal.Shapes1.Facts₀.shapeCasts_S256_S1x256 : Cert.Spec.Mat 1 256) (ix2 (0 : Fin 1) (i 1)) + U i) 0
    = max ((val_main_v405 (F := Ideal) x0 x1 x2 x3 x4 x5 x6 x7 x8 x9 x10 x11 x12 x13 x14 x15 x16 x17 x18 x19 x20 x21 i + val_main_v409 (F := Ideal) x18 i) + U i) (val_main_call17_v0 (F := Ideal) i)
  rw [hdot, hbias, hz]

/-- The edge update of layer 3, with two summands U and V besides the product and the bias row. -/
theorem self_e_layer3 (x0 : (⟨Cert.ReferenceIdeal.S32768x256, .f32⟩ : BufTy).Contents (Elt Ideal)) (x1 : (⟨Cert.ReferenceIdeal.S65536x256, .f32⟩ : BufTy).Contents (Elt Ideal)) (x2 : (⟨Cert.ReferenceIdeal.S16384x256, .f32⟩ : BufTy).Contents (Elt Ideal)) (x3 x4 x5 x6 : (⟨Cert.ReferenceIdeal.S131072, .i32⟩ : BufTy).Contents (Elt Ideal)) (x7 x8 x9 x10 : (⟨Cert.ReferenceIdeal.S98304, .i32⟩ : BufTy).Contents (Elt Ideal)) (x11 x12 x13 : (⟨Cert.ReferenceIdeal.S131072, .i32⟩ : BufTy).Contents (Elt Ideal)) (x14 x15 x16 : (⟨Cert.ReferenceIdeal.S65536, .i32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal)) (x19 x20 x21 : (⟨Cert.ReferenceIdeal.S4x2x256x256, .f32⟩ : BufTy).Contents (Elt Ideal))
    (U V : (⟨Cert.ReferenceIdeal.S65536x256, .f32⟩ : BufTy).Contents (Elt Ideal)) :
    (fun i => max (Cert.Spec.mul ((val_main_v330 (F := Ideal) x0 x1 x2 x3 x4 x5 x6 x7 x8 x9 x10 x11 x12 x13 x14 x15 x16 x17 x18 x19 x20 x21) : Cert.Spec.Mat 65536 256) (val_main_v414 (F := Ideal) x17 : Cert.Spec.Mat 256 256) i
        + (shapeCast Cert.KernelIdeal.S1x256 (shapeCast Cert.KernelIdeal.S256 (extractStridedSlice Cert.KernelIdeal.S1x1x256 ![3, 1, 0] x18 Cert.KernelIdeal.Shapes1.Facts₀.slices_S4x3x256_S1x1x256_3_1_0) Cert.KernelIdeal.Shapes1.Facts₀.shapeCasts_S1x1x256_S256) Cert.KernelIdeal.Shapes1.Facts₀.shapeCasts_S256_S1x256 : Cert.Spec.Mat 1 256) (ix2 (0 : Fin 1) (i 1)) + (U : Cert.Spec.Mat 65536 256) i + (V : Cert.Spec.Mat 65536 256) i) 0 : Cert.Spec.Mat 65536 256)
      = maximumf (F := Ideal) (φ := .f32) (addf (addf (val_main_v420 (F := Ideal) x0 x1 x2 x3 x4 x5 x6 x7 x8 x9 x10 x11 x12 x13 x14 x15 x16 x17 x18 x19 x20 x21) U) V) (val_main_call18_v0 (F := Ideal)) := by
  funext i
  have hdot : val_main_v415 (F := Ideal) x0 x1 x2 x3 x4 x5 x6 x7 x8 x9 x10 x11 x12 x13 x14 x15 x16 x17 x18 x19 x20 x21 = Cert.Spec.mul ((val_main_v330 (F := Ideal) x0 x1 x2 x3 x4 x5 x6 x7 x8 x9 x10 x11 x12 x13 x14 x15 x16 x17 x18 x19 x20 x21) : Cert.Spec.Mat 65536 256) (val_main_v414 (F := Ideal) x17 : Cert.Spec.Mat 256 256) :=
    dotGeneral_eq_mul Cert.ReferenceIdeal.dot_S65536x256_S256x256_S65536x256_1_0_0_1_n_n rfl rfl rfl rfl rfl rfl none (val_main_v330 (F := Ideal) x0 x1 x2 x3 x4 x5 x6 x7 x8 x9 x10 x11 x12 x13 x14 x15 x16 x17 x18 x19 x20 x21) (val_main_v414 (F := Ideal) x17)
  have hbias : val_main_v419 (F := Ideal) x18 i = (shapeCast Cert.KernelIdeal.S1x256 (shapeCast Cert.KernelIdeal.S256 (extractStridedSlice Cert.KernelIdeal.S1x1x256 ![3, 1, 0] x18 Cert.KernelIdeal.Shapes1.Facts₀.slices_S4x3x256_S1x1x256_3_1_0) Cert.KernelIdeal.Shapes1.Facts₀.shapeCasts_S1x1x256_S256) Cert.KernelIdeal.Shapes1.Facts₀.shapeCasts_S256_S1x256 : Cert.Spec.Mat 1 256) (ix2 (0 : Fin 1) (i 1)) := by
    unfold val_main_v419 val_main_v418 val_main_v417 val_main_v416
    exact (bias_rows_apply (by decide) (by decide) x18 _ _ _ _ i).trans (bias_row_apply (by decide) (by decide) x18 _ _ _ (i 1)).symm
  have hz : val_main_call18_v0 (F := Ideal) i = 0 := by
    unfold val_main_call18_v0 val_main_call18_cst
    exact Ideal.ofBits_zero_f32
  show max (Cert.Spec.mul ((val_main_v330 (F := Ideal) x0 x1 x2 x3 x4 x5 x6 x7 x8 x9 x10 x11 x12 x13 x14 x15 x16 x17 x18 x19 x20 x21) : Cert.Spec.Mat 65536 256) (val_main_v414 (F := Ideal) x17 : Cert.Spec.Mat 256 256) i + (shapeCast Cert.KernelIdeal.S1x256 (shapeCast Cert.KernelIdeal.S256 (extractStridedSlice Cert.KernelIdeal.S1x1x256 ![3, 1, 0] x18 Cert.KernelIdeal.Shapes1.Facts₀.slices_S4x3x256_S1x1x256_3_1_0) Cert.KernelIdeal.Shapes1.Facts₀.shapeCasts_S1x1x256_S256) Cert.KernelIdeal.Shapes1.Facts₀.shapeCasts_S256_S1x256 : Cert.Spec.Mat 1 256) (ix2 (0 : Fin 1) (i 1)) + U i + V i) 0
    = max ((val_main_v415 (F := Ideal) x0 x1 x2 x3 x4 x5 x6 x7 x8 x9 x10 x11 x12 x13 x14 x15 x16 x17 x18 x19 x20 x21 i + val_main_v419 (F := Ideal) x18 i) + U i + V i) (val_main_call18_v0 (F := Ideal) i)
  rw [hdot, hbias, hz]

/-- The cell update of layer 3. -/
theorem self_c_layer3 (x0 : (⟨Cert.ReferenceIdeal.S32768x256, .f32⟩ : BufTy).Contents (Elt Ideal)) (x1 : (⟨Cert.ReferenceIdeal.S65536x256, .f32⟩ : BufTy).Contents (Elt Ideal)) (x2 : (⟨Cert.ReferenceIdeal.S16384x256, .f32⟩ : BufTy).Contents (Elt Ideal)) (x3 x4 x5 x6 : (⟨Cert.ReferenceIdeal.S131072, .i32⟩ : BufTy).Contents (Elt Ideal)) (x7 x8 x9 x10 : (⟨Cert.ReferenceIdeal.S98304, .i32⟩ : BufTy).Contents (Elt Ideal)) (x11 x12 x13 : (⟨Cert.ReferenceIdeal.S131072, .i32⟩ : BufTy).Contents (Elt Ideal)) (x14 x15 x16 : (⟨Cert.ReferenceIdeal.S65536, .i32⟩ : BufTy).Contents (Elt Ideal)) (x17 : (⟨Cert.ReferenceIdeal.S4x3x256x256, .f32⟩ : BufTy).Contents (Elt Ideal)) (x18 : (⟨Cert.ReferenceIdeal.S4x3x256, .f32⟩ : BufTy).Contents (Elt Ideal)) (x19 x20 x21 : (⟨Cert.ReferenceIdeal.S4x2x256x256, .f32⟩ : BufTy).Contents (Elt Ideal))
    (U : (⟨Cert.ReferenceIdeal.S16384x256, .f32⟩ : BufTy).Contents (Elt Ideal)) :
    (fun i => max (Cert.Spec.mul ((val_main_v340 (F := Ideal) x0 x1 x2 x3 x4 x5 x6 x7 x8 x9 x10 x11 x12 x13 x14 x15 x16 x17 x18 x19 x20 x21) : Cert.Spec.Mat 16384 256) (val_main_v425 (F := Ideal) x17 : Cert.Spec.Mat 256 256) i
        + (shapeCast Cert.KernelIdeal.S1x256 (shapeCast Cert.KernelIdeal.S256 (extractStridedSlice Cert.KernelIdeal.S1x1x256 ![3, 2, 0] x18 Cert.KernelIdeal.Shapes1.Facts₀.slices_S4x3x256_S1x1x256_3_2_0) Cert.KernelIdeal.Shapes1.Facts₀.shapeCasts_S1x1x256_S256) Cert.KernelIdeal.Shapes1.Facts₀.shapeCasts_S256_S1x256 : Cert.Spec.Mat 1 256) (ix2 (0 : Fin 1) (i 1)) + (U : Cert.Spec.Mat 16384 256) i) 0 : Cert.Spec.Mat 16384 256)
      = maximumf (F := Ideal) (φ := .f32) (addf (val_main_v431 (F := Ideal) x0 x1 x2 x3 x4 x5 x6 x7 x8 x9 x10 x11 x12 x13 x14 x15 x16 x17 x18 x19 x20 x21) U) (val_main_call19_v0 (F := Ideal)) := by
  funext i
  have hdot : val_main_v426 (F := Ideal) x0 x1 x2 x3 x4 x5 x6 x7 x8 x9 x10 x11 x12 x13 x14 x15 x16 x17 x18 x19 x20 x21 = Cert.Spec.mul ((val_main_v340 (F := Ideal) x0 x1 x2 x3 x4 x5 x6 x7 x8 x9 x10 x11 x12 x13 x14 x15 x16 x17 x18 x19 x20 x21) : Cert.Spec.Mat 16384 256) (val_main_v425 (F := Ideal) x17 : Cert.Spec.Mat 256 256) :=
    dotGeneral_eq_mul Cert.ReferenceIdeal.dot_S16384x256_S256x256_S16384x256_1_0_0_1_n_n rfl rfl rfl rfl rfl rfl none (val_main_v340 (F := Ideal) x0 x1 x2 x3 x4 x5 x6 x7 x8 x9 x10 x11 x12 x13 x14 x15 x16 x17 x18 x19 x20 x21) (val_main_v425 (F := Ideal) x17)
  have hbias : val_main_v430 (F := Ideal) x18 i = (shapeCast Cert.KernelIdeal.S1x256 (shapeCast Cert.KernelIdeal.S256 (extractStridedSlice Cert.KernelIdeal.S1x1x256 ![3, 2, 0] x18 Cert.KernelIdeal.Shapes1.Facts₀.slices_S4x3x256_S1x1x256_3_2_0) Cert.KernelIdeal.Shapes1.Facts₀.shapeCasts_S1x1x256_S256) Cert.KernelIdeal.Shapes1.Facts₀.shapeCasts_S256_S1x256 : Cert.Spec.Mat 1 256) (ix2 (0 : Fin 1) (i 1)) := by
    unfold val_main_v430 val_main_v429 val_main_v428 val_main_v427
    exact (bias_rows_apply (by decide) (by decide) x18 _ _ _ _ i).trans (bias_row_apply (by decide) (by decide) x18 _ _ _ (i 1)).symm
  have hz : val_main_call19_v0 (F := Ideal) i = 0 := by
    unfold val_main_call19_v0 val_main_call19_cst
    exact Ideal.ofBits_zero_f32
  show max (Cert.Spec.mul ((val_main_v340 (F := Ideal) x0 x1 x2 x3 x4 x5 x6 x7 x8 x9 x10 x11 x12 x13 x14 x15 x16 x17 x18 x19 x20 x21) : Cert.Spec.Mat 16384 256) (val_main_v425 (F := Ideal) x17 : Cert.Spec.Mat 256 256) i + (shapeCast Cert.KernelIdeal.S1x256 (shapeCast Cert.KernelIdeal.S256 (extractStridedSlice Cert.KernelIdeal.S1x1x256 ![3, 2, 0] x18 Cert.KernelIdeal.Shapes1.Facts₀.slices_S4x3x256_S1x1x256_3_2_0) Cert.KernelIdeal.Shapes1.Facts₀.shapeCasts_S1x1x256_S256) Cert.KernelIdeal.Shapes1.Facts₀.shapeCasts_S256_S1x256 : Cert.Spec.Mat 1 256) (ix2 (0 : Fin 1) (i 1)) + U i) 0
    = max ((val_main_v426 (F := Ideal) x0 x1 x2 x3 x4 x5 x6 x7 x8 x9 x10 x11 x12 x13 x14 x15 x16 x17 x18 x19 x20 x21 i + val_main_v430 (F := Ideal) x18 i) + U i) (val_main_call19_v0 (F := Ideal) i)
  rw [hdot, hbias, hz]

end Cert.Bridge

end
-- ==== Proof.KI.Layer3.lean ====
/- Layer 3 of the message-passing network, read off the kernel program's boundaries and joined to the reference.
   The kernel program computes five products of feature arrays with weight slices, takes rows of them for the up
   messages, rectifies and adds the messages up per receiver, forms the two boundary terms with the incidence arrays,
   and updates the three feature arrays. The reference takes the rows first and multiplies afterwards, and multiplies
   the edge boundary term by its weight last. Buffer by buffer, at the boundary where it is consumed, each array the
   kernel program has written is shown equal to the reference's function of the arguments; a buffer that no item in
   between writes is carried from the boundary where it was written. -/
import proofs.«101828_j11562051961417_2_alg».proof.Proof.KI.Layer2
import proofs.«101828_j11562051961417_2_alg».proof.Proof.KI.Layer3Host
import proofs.«101828_j11562051961417_2_alg».proof.Proof.KI.ValProj30
import proofs.«101828_j11562051961417_2_alg».proof.Proof.KI.ValProj31
import proofs.«101828_j11562051961417_2_alg».proof.Proof.KI.ValProj32
import proofs.«101828_j11562051961417_2_alg».proof.Proof.KI.ValProj33
import proofs.«101828_j11562051961417_2_alg».proof.Proof.KI.ValProj34
import proofs.«101828_j11562051961417_2_alg».proof.Proof.KI.ValBound35
import proofs.«101828_j11562051961417_2_alg».proof.Proof.KI.ValBound36
import proofs.«101828_j11562051961417_2_alg».proof.Proof.KI.ValSelf37
import proofs.«101828_j11562051961417_2_alg».proof.Proof.KI.ValSelf38
import proofs.«101828_j11562051961417_2_alg».proof.Proof.KI.ValSelf39
import proofs.«101828_j11562051961417_2_alg».proof.Proof.KI.Layer3Bound
import proofs.«101828_j11562051961417_2_alg».proof.Proof.KI.Layer3Self

set_option maxRecDepth 16384

noncomputable section

namespace Cert.KernelIdeal.Val

open Cert.KernelIdeal.Gen Cert.KernelIdeal.Reg Cert.ReferenceIdeal.Read
open Idealize.ShloMosaic Idealize.ShloMosaic.TcCoe Idealize.ShloMosaic.ValueIdx
open Cert.Spec (Mat Mat3 mul bmul)

variable (m : (ℓ : Loc nD τ sig) → Buf (Elt Ideal) ℓ) (ρ : Dev nD → PrngReg)

/-! ## What the items of layer 3 leave alone

`wt k` lists what items 73 … k write (a region its output array, a host stretch its results); a buffer outside the list is
at boundary k as it was at boundary 72. With the earlier layers' lists (`ws`), a buffer outside all of them is as at boundary 1,
and an argument is as launched. -/

abbrev wt73 : List (Ref sig .tc) := hostOps30_W
theorem W73_sinceB (c : Dev nD) (r : Ref sig .tc) (h : r ∉ wt73) : W73 m ρ c (Proc.devRef .tc r) = W72 m ρ c (Proc.devRef .tc r) :=
  W73_keep m ρ c r h
abbrev ws73 : List (Ref sig .tc) := wt73 ++ ws72
theorem W73_since1 (c : Dev nD) (r : Ref sig .tc) (h : r ∉ ws73) : W73 m ρ c (Proc.devRef .tc r) = W1 m ρ c (Proc.devRef .tc r) :=
  (W73_sinceB m ρ c r (fun e => h (List.mem_append.mpr (Or.inl e)))).trans (W72_since1 m ρ c r (fun e => h (List.mem_append.mpr (Or.inr e))))
theorem W73_arg (c : Dev nD) (r : Ref sig .tc) (h : r ∉ ws73) (h0 : r ∉ hostOps0_W) : W73 m ρ c (Proc.devRef .tc r) = m ((c : Thread nD τ).loc r) :=
  (W73_since1 m ρ c r h).trans (W1_launch m ρ c r h0)

abbrev wt74 : List (Ref sig .tc) := main_v301 :: wt73
theorem W74_sinceB (c : Dev nD) (r : Ref sig .tc) (h : r ∉ wt74) : W74 m ρ c (Proc.devRef .tc r) = W72 m ρ c (Proc.devRef .tc r) :=
  (W74_keep m ρ c r (fun e => h (List.mem_cons.mpr (Or.inl e)))).trans (W73_sinceB m ρ c r (fun e => h (List.mem_cons.mpr (Or.inr e))))
abbrev ws74 : List (Ref sig .tc) := wt74 ++ ws72
theorem W74_since1 (c : Dev nD) (r : Ref sig .tc) (h : r ∉ ws74) : W74 m ρ c (Proc.devRef .tc r) = W1 m ρ c (Proc.devRef .tc r) :=
  (W74_sinceB m ρ c r (fun e => h (List.mem_append.mpr (Or.inl e)))).trans (W72_since1 m ρ c r (fun e => h (List.mem_append.mpr (Or.inr e))))
theorem W74_arg (c : Dev nD) (r : Ref sig .tc) (h : r ∉ ws74) (h0 : r ∉ hostOps0_W) : W74 m ρ c (Proc.devRef .tc r) = m ((c : Thread nD τ).loc r) :=
  (W74_since1 m ρ c r h).trans (W1_launch m ρ c r h0)

abbrev wt75 : List (Ref sig .tc) := hostOps31_W ++ wt74
theorem W75_sinceB (c : Dev nD) (r : Ref sig .tc) (h : r ∉ wt75) : W75 m ρ c (Proc.devRef .tc r) = W72 m ρ c (Proc.devRef .tc r) :=
  (W75_keep m ρ c r (fun e => h (List.mem_append.mpr (Or.inl e)))).trans (W74_sinceB m ρ c r (fun e => h (List.mem_append.mpr (Or.inr e))))
abbrev ws75 : List (Ref sig .tc) := wt75 ++ ws72
theorem W75_since1 (c : Dev nD) (r : Ref sig .tc) (h : r ∉ ws75) : W75 m ρ c (Proc.devRef .tc r) = W1 m ρ c (Proc.devRef .tc r) :=
  (W75_sinceB m ρ c r (fun e => h (List.mem_append.mpr (Or.inl e)))).trans (W72_since1 m ρ c r (fun e => h (List.mem_append.mpr (Or.inr e))))
theorem W75_arg (c : Dev nD) (r : Ref sig .tc) (h : r ∉ ws75) (h0 : r ∉ hostOps0_W) : W75 m ρ c (Proc.devRef .tc r) = m ((c : Thread nD τ).loc r) :=
  (W75_since1 m ρ c r h).trans (W1_launch m ρ c r h0)

abbrev wt76 : List (Ref sig .tc) := main_v304 :: wt75
theorem W76_sinceB (c : Dev nD) (r : Ref sig .tc) (h : r ∉ wt76) : W76 m ρ c (Proc.devRef .tc r) = W72 m ρ c (Proc.devRef .tc r) :=
  (W76_keep m ρ c r (fun e => h (List.mem_cons.mpr (Or.inl e)))).trans (W75_sinceB m ρ c r (fun e => h (List.mem_cons.mpr (Or.inr e))))
abbrev ws76 : List (Ref sig .tc) := wt76 ++ ws72
theorem W76_since1 (c : Dev nD) (r : Ref sig .tc) (h : r ∉ ws76) : W76 m ρ c (Proc.devRef .tc r) = W1 m ρ c (Proc.devRef .tc r) :=
  (W76_sinceB m ρ c r (fun e => h (List.mem_append.mpr (Or.inl e)))).trans (W72_since1 m ρ c r (fun e => h (List.mem_append.mpr (Or.inr e))))
theorem W76_arg (c : Dev nD) (r : Ref sig .tc) (h : r ∉ ws76) (h0 : r ∉ hostOps0_W) : W76 m ρ c (Proc.devRef .tc r) = m ((c : Thread nD τ).loc r) :=
  (W76_since1 m ρ c r h).trans (W1_launch m ρ c r h0)

abbrev wt77 : List (Ref sig .tc) := hostOps32_W ++ wt76
theorem W77_sinceB (c : Dev nD) (r : Ref sig .tc) (h : r ∉ wt77) : W77 m ρ c (Proc.devRef .tc r) = W72 m ρ c (Proc.devRef .tc r) :=
  (W77_keep m ρ c r (fun e => h (List.mem_append.mpr (Or.inl e)))).trans (W76_sinceB m ρ c r (fun e => h (List.mem_append.mpr (Or.inr e))))
abbrev ws77 : List (Ref sig .tc) := wt77 ++ ws72
theorem W77_since1 (c : Dev nD) (r : Ref sig .tc) (h : r ∉ ws77) : W77 m ρ c (Proc.devRef .tc r) = W1 m ρ c (Proc.devRef .tc r) :=
  (W77_sinceB m ρ c r (fun e => h (List.mem_append.mpr (Or.inl e)))).trans (W72_since1 m ρ c r (fun e => h (List.mem_append.mpr (Or.inr e))))
theorem W77_arg (c : Dev nD) (r : Ref sig .tc) (h : r ∉ ws77) (h0 : r ∉ hostOps0_W) : W77 m ρ c (Proc.devRef .tc r) = m ((c : Thread nD τ).loc r) :=
  (W77_since1 m ρ c r h).trans (W1_launch m ρ c r h0)

abbrev wt78 : List (Ref sig .tc) := main_v307 :: wt77
theorem W78_sinceB (c : Dev nD) (r : Ref sig .tc) (h : r ∉ wt78) : W78 m ρ c (Proc.devRef .tc r) = W72 m ρ c (Proc.devRef .tc r) :=
  (W78_keep m ρ c r (fun e => h (List.mem_cons.mpr (Or.inl e)))).trans (W77_sinceB m ρ c r (fun e => h (List.mem_cons.mpr (Or.inr e))))
abbrev ws78 : List (Ref sig .tc) := wt78 ++ ws72
theorem W78_since1 (c : Dev nD) (r : Ref sig .tc) (h : r ∉ ws78) : W78 m ρ c (Proc.devRef .tc r) = W1 m ρ c (Proc.devRef .tc r) :=
  (W78_sinceB m ρ c r (fun e => h (List.mem_append.mpr (Or.inl e)))).trans (W72_since1 m ρ c r (fun e => h (List.mem_append.mpr (Or.inr e))))
theorem W78_arg (c : Dev nD) (r : Ref sig .tc) (h : r ∉ ws78) (h0 : r ∉ hostOps0_W) : W78 m ρ c (Proc.devRef .tc r) = m ((c : Thread nD τ).loc r) :=
  (W78_since1 m ρ c r h).trans (W1_launch m ρ c r h0)

abbrev wt79 : List (Ref sig .tc) := hostOps33_W ++ wt78
theorem W79_sinceB (c : Dev nD) (r : Ref sig .tc) (h : r ∉ wt79) : W79 m ρ c (Proc.devRef .tc r) = W72 m ρ c (Proc.devRef .tc r) :=
  (W79_keep m ρ c r (fun e => h (List.mem_append.mpr (Or.inl e)))).trans (W78_sinceB m ρ c r (fun e => h (List.mem_append.mpr (Or.inr e))))
abbrev ws79 : List (Ref sig .tc) := wt79 ++ ws72
theorem W79_since1 (c : Dev nD) (r : Ref sig .tc) (h : r ∉ ws79) : W79 m ρ c (Proc.devRef .tc r) = W1 m ρ c (Proc.devRef .tc r) :=
  (W79_sinceB m ρ c r (fun e => h (List.mem_append.mpr (Or.inl e)))).trans (W72_since1 m ρ c r (fun e => h (List.mem_append.mpr (Or.inr e))))
theorem W79_arg (c : Dev nD) (r : Ref sig .tc) (h : r ∉ ws79) (h0 : r ∉ hostOps0_W) : W79 m ρ c (Proc.devRef .tc r) = m ((c : Thread nD τ).loc r) :=
  (W79_since1 m ρ c r h).trans (W1_launch m ρ c r h0)

abbrev wt80 : List (Ref sig .tc) := main_v310 :: wt79
theorem W80_sinceB (c : Dev nD) (r : Ref sig .tc) (h : r ∉ wt80) : W80 m ρ c (Proc.devRef .tc r) = W72 m ρ c (Proc.devRef .tc r) :=
  (W80_keep m ρ c r (fun e => h (List.mem_cons.mpr (Or.inl e)))).trans (W79_sinceB m ρ c r (fun e => h (List.mem_cons.mpr (Or.inr e))))
abbrev ws80 : List (Ref sig .tc) := wt80 ++ ws72
theorem W80_since1 (c : Dev nD) (r : Ref sig .tc) (h : r ∉ ws80) : W80 m ρ c (Proc.devRef .tc r) = W1 m ρ c (Proc.devRef .tc r) :=
  (W80_sinceB m ρ c r (fun e => h (List.mem_append.mpr (Or.inl e)))).trans (W72_since1 m ρ c r (fun e => h (List.mem_append.mpr (Or.inr e))))
theorem W80_arg (c : Dev nD) (r : Ref sig .tc) (h : r ∉ ws80) (h0 : r ∉ hostOps0_W) : W80 m ρ c (Proc.devRef .tc r) = m ((c : Thread nD τ).loc r) :=
  (W80_since1 m ρ c r h).trans (W1_launch m ρ c r h0)

abbrev wt81 : List (Ref sig .tc) := hostOps34_W ++ wt80
theorem W81_sinceB (c : Dev nD) (r : Ref sig .tc) (h : r ∉ wt81) : W81 m ρ c (Proc.devRef .tc r) = W72 m ρ c (Proc.devRef .tc r) :=
  (W81_keep m ρ c r (fun e => h (List.mem_append.mpr (Or.inl e)))).trans (W80_sinceB m ρ c r (fun e => h (List.mem_append.mpr (Or.inr e))))
abbrev ws81 : List (Ref sig .tc) := wt81 ++ ws72
theorem W81_since1 (c : Dev nD) (r : Ref sig .tc) (h : r ∉ ws81) : W81 m ρ c (Proc.devRef .tc r) = W1 m ρ c (Proc.devRef .tc r) :=
  (W81_sinceB m ρ c r (fun e => h (List.mem_append.mpr (Or.inl e)))).trans (W72_since1 m ρ c r (fun e => h (List.mem_append.mpr (Or.inr e))))
theorem W81_arg (c : Dev nD) (r : Ref sig .tc) (h : r ∉ ws81) (h0 : r ∉ hostOps0_W) : W81 m ρ c (Proc.devRef .tc r) = m ((c : Thread nD τ).loc r) :=
  (W81_since1 m ρ c r h).trans (W1_launch m ρ c r h0)

abbrev wt82 : List (Ref sig .tc) := main_v313 :: wt81
theorem W82_sinceB (c : Dev nD) (r : Ref sig .tc) (h : r ∉ wt82) : W82 m ρ c (Proc.devRef .tc r) = W72 m ρ c (Proc.devRef .tc r) :=
  (W82_keep m ρ c r (fun e => h (List.mem_cons.mpr (Or.inl e)))).trans (W81_sinceB m ρ c r (fun e => h (List.mem_cons.mpr (Or.inr e))))
abbrev ws82 : List (Ref sig .tc) := wt82 ++ ws72
theorem W82_since1 (c : Dev nD) (r : Ref sig .tc) (h : r ∉ ws82) : W82 m ρ c (Proc.devRef .tc r) = W1 m ρ c (Proc.devRef .tc r) :=
  (W82_sinceB m ρ c r (fun e => h (List.mem_append.mpr (Or.inl e)))).trans (W72_since1 m ρ c r (fun e => h (List.mem_append.mpr (Or.inr e))))
theorem W82_arg (c : Dev nD) (r : Ref sig .tc) (h : r ∉ ws82) (h0 : r ∉ hostOps0_W) : W82 m ρ c (Proc.devRef .tc r) = m ((c : Thread nD τ).loc r) :=
  (W82_since1 m ρ c r h).trans (W1_launch m ρ c r h0)

abbrev wt83 : List (Ref sig .tc) := hostOps35_W ++ wt82
theorem W83_sinceB (c : Dev nD) (r : Ref sig .tc) (h : r ∉ wt83) : W83 m ρ c (Proc.devRef .tc r) = W72 m ρ c (Proc.devRef .tc r) :=
  (W83_keep m ρ c r (fun e => h (List.mem_append.mpr (Or.inl e)))).trans (W82_sinceB m ρ c r (fun e => h (List.mem_append.mpr (Or.inr e))))
abbrev ws83 : List (Ref sig .tc) := wt83 ++ ws72
theorem W83_since1 (c : Dev nD) (r : Ref sig .tc) (h : r ∉ ws83) : W83 m ρ c (Proc.devRef .tc r) = W1 m ρ c (Proc.devRef .tc r) :=
  (W83_sinceB m ρ c r (fun e => h (List.mem_append.mpr (Or.inl e)))).trans (W72_since1 m ρ c r (fun e => h (List.mem_append.mpr (Or.inr e))))
theorem W83_arg (c : Dev nD) (r : Ref sig .tc) (h : r ∉ ws83) (h0 : r ∉ hostOps0_W) : W83 m ρ c (Proc.devRef .tc r) = m ((c : Thread nD τ).loc r) :=
  (W83_since1 m ρ c r h).trans (W1_launch m ρ c r h0)

abbrev wt84 : List (Ref sig .tc) := hostOps35_1_W ++ wt83
theorem W84_sinceB (c : Dev nD) (r : Ref sig .tc) (h : r ∉ wt84) : W84 m ρ c (Proc.devRef .tc r) = W72 m ρ c (Proc.devRef .tc r) :=
  (W84_keep m ρ c r (fun e => h (List.mem_append.mpr (Or.inl e)))).trans (W83_sinceB m ρ c r (fun e => h (List.mem_append.mpr (Or.inr e))))
abbrev ws84 : List (Ref sig .tc) := wt84 ++ ws72
theorem W84_since1 (c : Dev nD) (r : Ref sig .tc) (h : r ∉ ws84) : W84 m ρ c (Proc.devRef .tc r) = W1 m ρ c (Proc.devRef .tc r) :=
  (W84_sinceB m ρ c r (fun e => h (List.mem_append.mpr (Or.inl e)))).trans (W72_since1 m ρ c r (fun e => h (List.mem_append.mpr (Or.inr e))))
theorem W84_arg (c : Dev nD) (r : Ref sig .tc) (h : r ∉ ws84) (h0 : r ∉ hostOps0_W) : W84 m ρ c (Proc.devRef .tc r) = m ((c : Thread nD τ).loc r) :=
  (W84_since1 m ρ c r h).trans (W1_launch m ρ c r h0)

abbrev wt85 : List (Ref sig .tc) := hostOps35_2_W ++ wt84
theorem W85_sinceB (c : Dev nD) (r : Ref sig .tc) (h : r ∉ wt85) : W85 m ρ c (Proc.devRef .tc r) = W72 m ρ c (Proc.devRef .tc r) :=
  (W85_keep m ρ c r (fun e => h (List.mem_append.mpr (Or.inl e)))).trans (W84_sinceB m ρ c r (fun e => h (List.mem_append.mpr (Or.inr e))))
abbrev ws85 : List (Ref sig .tc) := wt85 ++ ws72
theorem W85_since1 (c : Dev nD) (r : Ref sig .tc) (h : r ∉ ws85) : W85 m ρ c (Proc.devRef .tc r) = W1 m ρ c (Proc.devRef .tc r) :=
  (W85_sinceB m ρ c r (fun e => h (List.mem_append.mpr (Or.inl e)))).trans (W72_since1 m ρ c r (fun e => h (List.mem_append.mpr (Or.inr e))))
theorem W85_arg (c : Dev nD) (r : Ref sig .tc) (h : r ∉ ws85) (h0 : r ∉ hostOps0_W) : W85 m ρ c (Proc.devRef .tc r) = m ((c : Thread nD τ).loc r) :=
  (W85_since1 m ρ c r h).trans (W1_launch m ρ c r h0)

abbrev wt86 : List (Ref sig .tc) := hostOps35_3_W ++ wt85
theorem W86_sinceB (c : Dev nD) (r : Ref sig .tc) (h : r ∉ wt86) : W86 m ρ c (Proc.devRef .tc r) = W72 m ρ c (Proc.devRef .tc r) :=
  (W86_keep m ρ c r (fun e => h (List.mem_append.mpr (Or.inl e)))).trans (W85_sinceB m ρ c r (fun e => h (List.mem_append.mpr (Or.inr e))))
abbrev ws86 : List (Ref sig .tc) := wt86 ++ ws72
theorem W86_since1 (c : Dev nD) (r : Ref sig .tc) (h : r ∉ ws86) : W86 m ρ c (Proc.devRef .tc r) = W1 m ρ c (Proc.devRef .tc r) :=
  (W86_sinceB m ρ c r (fun e => h (List.mem_append.mpr (Or.inl e)))).trans (W72_since1 m ρ c r (fun e => h (List.mem_append.mpr (Or.inr e))))
theorem W86_arg (c : Dev nD) (r : Ref sig .tc) (h : r ∉ ws86) (h0 : r ∉ hostOps0_W) : W86 m ρ c (Proc.devRef .tc r) = m ((c : Thread nD τ).loc r) :=
  (W86_since1 m ρ c r h).trans (W1_launch m ρ c r h0)

abbrev wt87 : List (Ref sig .tc) := hostOps35_4_W ++ wt86
theorem W87_sinceB (c : Dev nD) (r : Ref sig .tc) (h : r ∉ wt87) : W87 m ρ c (Proc.devRef .tc r) = W72 m ρ c (Proc.devRef .tc r) :=
  (W87_keep m ρ c r (fun e => h (List.mem_append.mpr (Or.inl e)))).trans (W86_sinceB m ρ c r (fun e => h (List.mem_append.mpr (Or.inr e))))
abbrev ws87 : List (Ref sig .tc) := wt87 ++ ws72
theorem W87_since1 (c : Dev nD) (r : Ref sig .tc) (h : r ∉ ws87) : W87 m ρ c (Proc.devRef .tc r) = W1 m ρ c (Proc.devRef .tc r) :=
  (W87_sinceB m ρ c r (fun e => h (List.mem_append.mpr (Or.inl e)))).trans (W72_since1 m ρ c r (fun e => h (List.mem_append.mpr (Or.inr e))))
theorem W87_arg (c : Dev nD) (r : Ref sig .tc) (h : r ∉ ws87) (h0 : r ∉ hostOps0_W) : W87 m ρ c (Proc.devRef .tc r) = m ((c : Thread nD τ).loc r) :=
  (W87_since1 m ρ c r h).trans (W1_launch m ρ c r h0)

abbrev wt88 : List (Ref sig .tc) := main_v353 :: wt87
theorem W88_sinceB (c : Dev nD) (r : Ref sig .tc) (h : r ∉ wt88) : W88 m ρ c (Proc.devRef .tc r) = W72 m ρ c (Proc.devRef .tc r) :=
  (W88_keep m ρ c r (fun e => h (List.mem_cons.mpr (Or.inl e)))).trans (W87_sinceB m ρ c r (fun e => h (List.mem_cons.mpr (Or.inr e))))
abbrev ws88 : List (Ref sig .tc) := wt88 ++ ws72
theorem W88_since1 (c : Dev nD) (r : Ref sig .tc) (h : r ∉ ws88) : W88 m ρ c (Proc.devRef .tc r) = W1 m ρ c (Proc.devRef .tc r) :=
  (W88_sinceB m ρ c r (fun e => h (List.mem_append.mpr (Or.inl e)))).trans (W72_since1 m ρ c r (fun e => h (List.mem_append.mpr (Or.inr e))))
theorem W88_arg (c : Dev nD) (r : Ref sig .tc) (h : r ∉ ws88) (h0 : r ∉ hostOps0_W) : W88 m ρ c (Proc.devRef .tc r) = m ((c : Thread nD τ).loc r) :=
  (W88_since1 m ρ c r h).trans (W1_launch m ρ c r h0)

abbrev wt89 : List (Ref sig .tc) := hostOps36_W ++ wt88
theorem W89_sinceB (c : Dev nD) (r : Ref sig .tc) (h : r ∉ wt89) : W89 m ρ c (Proc.devRef .tc r) = W72 m ρ c (Proc.devRef .tc r) :=
  (W89_keep m ρ c r (fun e => h (List.mem_append.mpr (Or.inl e)))).trans (W88_sinceB m ρ c r (fun e => h (List.mem_append.mpr (Or.inr e))))
abbrev ws89 : List (Ref sig .tc) := wt89 ++ ws72
theorem W89_since1 (c : Dev nD) (r : Ref sig .tc) (h : r ∉ ws89) : W89 m ρ c (Proc.devRef .tc r) = W1 m ρ c (Proc.devRef .tc r) :=
  (W89_sinceB m ρ c r (fun e => h (List.mem_append.mpr (Or.inl e)))).trans (W72_since1 m ρ c r (fun e => h (List.mem_append.mpr (Or.inr e))))
theorem W89_arg (c : Dev nD) (r : Ref sig .tc) (h : r ∉ ws89) (h0 : r ∉ hostOps0_W) : W89 m ρ c (Proc.devRef .tc r) = m ((c : Thread nD τ).loc r) :=
  (W89_since1 m ρ c r h).trans (W1_launch m ρ c r h0)

abbrev wt90 : List (Ref sig .tc) := main_v358 :: wt89
theorem W90_sinceB (c : Dev nD) (r : Ref sig .tc) (h : r ∉ wt90) : W90 m ρ c (Proc.devRef .tc r) = W72 m ρ c (Proc.devRef .tc r) :=
  (W90_keep m ρ c r (fun e => h (List.mem_cons.mpr (Or.inl e)))).trans (W89_sinceB m ρ c r (fun e => h (List.mem_cons.mpr (Or.inr e))))
abbrev ws90 : List (Ref sig .tc) := wt90 ++ ws72
theorem W90_since1 (c : Dev nD) (r : Ref sig .tc) (h : r ∉ ws90) : W90 m ρ c (Proc.devRef .tc r) = W1 m ρ c (Proc.devRef .tc r) :=
  (W90_sinceB m ρ c r (fun e => h (List.mem_append.mpr (Or.inl e)))).trans (W72_since1 m ρ c r (fun e => h (List.mem_append.mpr (Or.inr e))))
theorem W90_arg (c : Dev nD) (r : Ref sig .tc) (h : r ∉ ws90) (h0 : r ∉ hostOps0_W) : W90 m ρ c (Proc.devRef .tc r) = m ((c : Thread nD τ).loc r) :=
  (W90_since1 m ρ c r h).trans (W1_launch m ρ c r h0)

abbrev wt91 : List (Ref sig .tc) := hostOps37_W ++ wt90
theorem W91_sinceB (c : Dev nD) (r : Ref sig .tc) (h : r ∉ wt91) : W91 m ρ c (Proc.devRef .tc r) = W72 m ρ c (Proc.devRef .tc r) :=
  (W91_keep m ρ c r (fun e => h (List.mem_append.mpr (Or.inl e)))).trans (W90_sinceB m ρ c r (fun e => h (List.mem_append.mpr (Or.inr e))))
abbrev ws91 : List (Ref sig .tc) := wt91 ++ ws72
theorem W91_since1 (c : Dev nD) (r : Ref sig .tc) (h : r ∉ ws91) : W91 m ρ c (Proc.devRef .tc r) = W1 m ρ c (Proc.devRef .tc r) :=
  (W91_sinceB m ρ c r (fun e => h (List.mem_append.mpr (Or.inl e)))).trans (W72_since1 m ρ c r (fun e => h (List.mem_append.mpr (Or.inr e))))
theorem W91_arg (c : Dev nD) (r : Ref sig .tc) (h : r ∉ ws91) (h0 : r ∉ hostOps0_W) : W91 m ρ c (Proc.devRef .tc r) = m ((c : Thread nD τ).loc r) :=
  (W91_since1 m ρ c r h).trans (W1_launch m ρ c r h0)

abbrev wt92 : List (Ref sig .tc) := main_v365 :: wt91
theorem W92_sinceB (c : Dev nD) (r : Ref sig .tc) (h : r ∉ wt92) : W92 m ρ c (Proc.devRef .tc r) = W72 m ρ c (Proc.devRef .tc r) :=
  (W92_keep m ρ c r (fun e => h (List.mem_cons.mpr (Or.inl e)))).trans (W91_sinceB m ρ c r (fun e => h (List.mem_cons.mpr (Or.inr e))))
abbrev ws92 : List (Ref sig .tc) := wt92 ++ ws72
theorem W92_since1 (c : Dev nD) (r : Ref sig .tc) (h : r ∉ ws92) : W92 m ρ c (Proc.devRef .tc r) = W1 m ρ c (Proc.devRef .tc r) :=
  (W92_sinceB m ρ c r (fun e => h (List.mem_append.mpr (Or.inl e)))).trans (W72_since1 m ρ c r (fun e => h (List.mem_append.mpr (Or.inr e))))
theorem W92_arg (c : Dev nD) (r : Ref sig .tc) (h : r ∉ ws92) (h0 : r ∉ hostOps0_W) : W92 m ρ c (Proc.devRef .tc r) = m ((c : Thread nD τ).loc r) :=
  (W92_since1 m ρ c r h).trans (W1_launch m ρ c r h0)

abbrev wt93 : List (Ref sig .tc) := hostOps38_W ++ wt92
theorem W93_sinceB (c : Dev nD) (r : Ref sig .tc) (h : r ∉ wt93) : W93 m ρ c (Proc.devRef .tc r) = W72 m ρ c (Proc.devRef .tc r) :=
  (W93_keep m ρ c r (fun e => h (List.mem_append.mpr (Or.inl e)))).trans (W92_sinceB m ρ c r (fun e => h (List.mem_append.mpr (Or.inr e))))
abbrev ws93 : List (Ref sig .tc) := wt93 ++ ws72
theorem W93_since1 (c : Dev nD) (r : Ref sig .tc) (h : r ∉ ws93) : W93 m ρ c (Proc.devRef .tc r) = W1 m ρ c (Proc.devRef .tc r) :=
  (W93_sinceB m ρ c r (fun e => h (List.mem_append.mpr (Or.inl e)))).trans (W72_since1 m ρ c r (fun e => h (List.mem_append.mpr (Or.inr e))))
theorem W93_arg (c : Dev nD) (r : Ref sig .tc) (h : r ∉ ws93) (h0 : r ∉ hostOps0_W) : W93 m ρ c (Proc.devRef .tc r) = m ((c : Thread nD τ).loc r) :=
  (W93_since1 m ρ c r h).trans (W1_launch m ρ c r h0)

abbrev wt94 : List (Ref sig .tc) := main_v371 :: wt93
theorem W94_sinceB (c : Dev nD) (r : Ref sig .tc) (h : r ∉ wt94) : W94 m ρ c (Proc.devRef .tc r) = W72 m ρ c (Proc.devRef .tc r) :=
  (W94_keep m ρ c r (fun e => h (List.mem_cons.mpr (Or.inl e)))).trans (W93_sinceB m ρ c r (fun e => h (List.mem_cons.mpr (Or.inr e))))
abbrev ws94 : List (Ref sig .tc) := wt94 ++ ws72
theorem W94_since1 (c : Dev nD) (r : Ref sig .tc) (h : r ∉ ws94) : W94 m ρ c (Proc.devRef .tc r) = W1 m ρ c (Proc.devRef .tc r) :=
  (W94_sinceB m ρ c r (fun e => h (List.mem_append.mpr (Or.inl e)))).trans (W72_since1 m ρ c r (fun e => h (List.mem_append.mpr (Or.inr e))))
theorem W94_arg (c : Dev nD) (r : Ref sig .tc) (h : r ∉ ws94) (h0 : r ∉ hostOps0_W) : W94 m ρ c (Proc.devRef .tc r) = m ((c : Thread nD τ).loc r) :=
  (W94_since1 m ρ c r h).trans (W1_launch m ρ c r h0)

abbrev wt95 : List (Ref sig .tc) := hostOps39_W ++ wt94
theorem W95_sinceB (c : Dev nD) (r : Ref sig .tc) (h : r ∉ wt95) : W95 m ρ c (Proc.devRef .tc r) = W72 m ρ c (Proc.devRef .tc r) :=
  (W95_keep m ρ c r (fun e => h (List.mem_append.mpr (Or.inl e)))).trans (W94_sinceB m ρ c r (fun e => h (List.mem_append.mpr (Or.inr e))))
abbrev ws95 : List (Ref sig .tc) := wt95 ++ ws72
theorem W95_since1 (c : Dev nD) (r : Ref sig .tc) (h : r ∉ ws95) : W95 m ρ c (Proc.devRef .tc r) = W1 m ρ c (Proc.devRef .tc r) :=
  (W95_sinceB m ρ c r (fun e => h (List.mem_append.mpr (Or.inl e)))).trans (W72_since1 m ρ c r (fun e => h (List.mem_append.mpr (Or.inr e))))
theorem W95_arg (c : Dev nD) (r : Ref sig .tc) (h : r ∉ ws95) (h0 : r ∉ hostOps0_W) : W95 m ρ c (Proc.devRef .tc r) = m ((c : Thread nD τ).loc r) :=
  (W95_since1 m ρ c r h).trans (W1_launch m ρ c r h0)

abbrev wt96 : List (Ref sig .tc) := main_v377 :: wt95
theorem W96_sinceB (c : Dev nD) (r : Ref sig .tc) (h : r ∉ wt96) : W96 m ρ c (Proc.devRef .tc r) = W72 m ρ c (Proc.devRef .tc r) :=
  (W96_keep m ρ c r (fun e => h (List.mem_cons.mpr (Or.inl e)))).trans (W95_sinceB m ρ c r (fun e => h (List.mem_cons.mpr (Or.inr e))))
abbrev ws96 : List (Ref sig .tc) := wt96 ++ ws72
theorem W96_since1 (c : Dev nD) (r : Ref sig .tc) (h : r ∉ ws96) : W96 m ρ c (Proc.devRef .tc r) = W1 m ρ c (Proc.devRef .tc r) :=
  (W96_sinceB m ρ c r (fun e => h (List.mem_append.mpr (Or.inl e)))).trans (W72_since1 m ρ c r (fun e => h (List.mem_append.mpr (Or.inr e))))
theorem W96_arg (c : Dev nD) (r : Ref sig .tc) (h : r ∉ ws96) (h0 : r ∉ hostOps0_W) : W96 m ρ c (Proc.devRef .tc r) = m ((c : Thread nD τ).loc r) :=
  (W96_since1 m ρ c r h).trans (W1_launch m ρ c r h0)

/-! ## The five products of layer 3

Each region multiplies a feature array by a weight slice; the weight slice is the same slice of the same argument in
both programs. -/

/-- The first up-weight of the node messages. -/
theorem W73_v300 (c : Dev nD) : W73 m ρ c (Proc.devRef .tc main_v300) = val_main_v349 (F := Ideal) (m ((c : Thread nD τ).loc main_arg19)) := by
  have e := after30_v300 (W72 m ρ c)
  rw [W72_arg m ρ c main_arg19 (by decide) (by decide)] at e
  exact e

/-- Region 30: the node features times the first up-weight. -/
theorem W74_v301 (c : Dev nD) (hn : W72 m ρ c (Proc.devRef .tc main_v286) = (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W74 m ρ c (Proc.devRef .tc main_v301) = mul ((val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 32768 256) (val_main_v349 (F := Ideal) (m ((c : Thread nD τ).loc main_arg19)) : Mat 256 256) := by
  have e : W74 m ρ c (Proc.devRef .tc main_v301) = mul (W73 m ρ c (Proc.devRef .tc main_v286) : Mat 32768 256) (W73 m ρ c (Proc.devRef .tc main_v300) : Mat 256 256) :=
    (W74_arr m ρ c 2).trans (arrAt30 (V73 m ρ) c)
  rw [(W73_sinceB m ρ c main_v286 (by decide)).trans hn, W73_v300 m ρ c] at e
  exact e

/-- The second up-weight of the node messages. -/
theorem W75_v303 (c : Dev nD) : W75 m ρ c (Proc.devRef .tc main_v303) = val_main_v359 (F := Ideal) (m ((c : Thread nD τ).loc main_arg20)) := by
  have e := after31_v303 (W74 m ρ c)
  rw [W74_arg m ρ c main_arg20 (by decide) (by decide)] at e
  exact e

/-- Region 31: the edge features times the second up-weight. -/
theorem W76_v304 (c : Dev nD) (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W76 m ρ c (Proc.devRef .tc main_v304) = mul ((val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v359 (F := Ideal) (m ((c : Thread nD τ).loc main_arg20)) : Mat 256 256) := by
  have e : W76 m ρ c (Proc.devRef .tc main_v304) = mul (W75 m ρ c (Proc.devRef .tc main_v292) : Mat 65536 256) (W75 m ρ c (Proc.devRef .tc main_v303) : Mat 256 256) :=
    (W76_arr m ρ c 2).trans (arrAt31 (V75 m ρ) c)
  rw [(W75_sinceB m ρ c main_v292 (by decide)).trans he, W75_v303 m ρ c] at e
  exact e

/-- The first up-weight of the edge messages. -/
theorem W77_v306 (c : Dev nD) : W77 m ρ c (Proc.devRef .tc main_v306) = val_main_v374 (F := Ideal) (m ((c : Thread nD τ).loc main_arg19)) := by
  have e := after32_v306 (W76 m ρ c)
  rw [W76_arg m ρ c main_arg19 (by decide) (by decide)] at e
  exact e

/-- Region 32: the edge features times the first up-weight of the edge messages. -/
theorem W78_v307 (c : Dev nD) (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W78 m ρ c (Proc.devRef .tc main_v307) = mul ((val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v374 (F := Ideal) (m ((c : Thread nD τ).loc main_arg19)) : Mat 256 256) := by
  have e : W78 m ρ c (Proc.devRef .tc main_v307) = mul (W77 m ρ c (Proc.devRef .tc main_v292) : Mat 65536 256) (W77 m ρ c (Proc.devRef .tc main_v306) : Mat 256 256) :=
    (W78_arr m ρ c 2).trans (arrAt32 (V77 m ρ) c)
  rw [(W77_sinceB m ρ c main_v292 (by decide)).trans he, W77_v306 m ρ c] at e
  exact e

/-- The second up-weight of the edge messages. -/
theorem W79_v309 (c : Dev nD) : W79 m ρ c (Proc.devRef .tc main_v309) = val_main_v384 (F := Ideal) (m ((c : Thread nD τ).loc main_arg20)) := by
  have e := after33_v309 (W78 m ρ c)
  rw [W78_arg m ρ c main_arg20 (by decide) (by decide)] at e
  exact e

/-- Region 33: the cell features times the second up-weight of the edge messages. -/
theorem W80_v310 (c : Dev nD) (hc : W72 m ρ c (Proc.devRef .tc main_v298) = (val_main_v340 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W80 m ρ c (Proc.devRef .tc main_v310) = mul ((val_main_v340 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 16384 256) (val_main_v384 (F := Ideal) (m ((c : Thread nD τ).loc main_arg20)) : Mat 256 256) := by
  have e : W80 m ρ c (Proc.devRef .tc main_v310) = mul (W79 m ρ c (Proc.devRef .tc main_v298) : Mat 16384 256) (W79 m ρ c (Proc.devRef .tc main_v309) : Mat 256 256) :=
    (W80_arr m ρ c 2).trans (arrAt33 (V79 m ρ) c)
  rw [(W79_sinceB m ρ c main_v298 (by decide)).trans hc, W79_v309 m ρ c] at e
  exact e

/-- The edge boundary weight. -/
theorem W81_v312 (c : Dev nD) : W81 m ρ c (Proc.devRef .tc main_v312) = val_main_v395 (F := Ideal) (m ((c : Thread nD τ).loc main_arg21)) := by
  have e := after34_v312 (W80 m ρ c)
  rw [W80_arg m ρ c main_arg21 (by decide) (by decide)] at e
  exact e

/-- Region 34: the node features times the edge boundary weight. -/
theorem W82_v313 (c : Dev nD) (hn : W72 m ρ c (Proc.devRef .tc main_v286) = (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W82 m ρ c (Proc.devRef .tc main_v313) = mul ((val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 32768 256) (val_main_v395 (F := Ideal) (m ((c : Thread nD τ).loc main_arg21)) : Mat 256 256) := by
  have e : W82 m ρ c (Proc.devRef .tc main_v313) = mul (W81 m ρ c (Proc.devRef .tc main_v286) : Mat 32768 256) (W81 m ρ c (Proc.devRef .tc main_v312) : Mat 256 256) :=
    (W82_arr m ρ c 2).trans (arrAt34 (V81 m ρ) c)
  rw [(W81_sinceB m ρ c main_v286 (by decide)).trans hn, W81_v312 m ρ c] at e
  exact e

/-! ## The node messages and their sums

The kernel takes rows of the products; the reference multiplies the rows taken. -/

theorem W82_v301 (c : Dev nD) (hn : W72 m ρ c (Proc.devRef .tc main_v286) = (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W82 m ρ c (Proc.devRef .tc main_v301) = mul ((val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 32768 256) (val_main_v349 (F := Ideal) (m ((c : Thread nD τ).loc main_arg19)) : Mat 256 256) :=
  (W82_keep m ρ c main_v301 (by decide)).trans <|
  (W81_keep m ρ c main_v301 (by decide)).trans <|
  (W80_keep m ρ c main_v301 (by decide)).trans <|
  (W79_keep m ρ c main_v301 (by decide)).trans <|
  (W78_keep m ρ c main_v301 (by decide)).trans <|
  (W77_keep m ρ c main_v301 (by decide)).trans <|
  (W76_keep m ρ c main_v301 (by decide)).trans <|
  (W75_keep m ρ c main_v301 (by decide)).trans <|
  W74_v301 m ρ c hn

theorem W82_v304 (c : Dev nD) (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W82 m ρ c (Proc.devRef .tc main_v304) = mul ((val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v359 (F := Ideal) (m ((c : Thread nD τ).loc main_arg20)) : Mat 256 256) :=
  (W82_keep m ρ c main_v304 (by decide)).trans <|
  (W81_keep m ρ c main_v304 (by decide)).trans <|
  (W80_keep m ρ c main_v304 (by decide)).trans <|
  (W79_keep m ρ c main_v304 (by decide)).trans <|
  (W78_keep m ρ c main_v304 (by decide)).trans <|
  (W77_keep m ρ c main_v304 (by decide)).trans <|
  W76_v304 m ρ c he

/-- The rectified node messages, in the kernel's order of operations. -/
theorem W84_v329 (c : Dev nD) (hn : W72 m ρ c (Proc.devRef .tc main_v286) = (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W84 m ρ c (Proc.devRef .tc main_v329)
    = maximumf (addf (Host.gather gather_S32768x256_S131072x1_S131072x256_1_0_n_n_0_1_1256 (mul ((val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 32768 256) (val_main_v349 (F := Ideal) (m ((c : Thread nD τ).loc main_arg19)) : Mat 256 256)) (val_main_v346 (F := Ideal) (m ((c : Thread nD τ).loc main_arg3)) (m ((c : Thread nD τ).loc main_arg5))))
        (Host.gather gather_S65536x256_S131072x1_S131072x256_1_0_n_n_0_1_1256 (mul ((val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v359 (F := Ideal) (m ((c : Thread nD τ).loc main_arg20)) : Mat 256 256)) (val_main_v356 (F := Ideal) (m ((c : Thread nD τ).loc main_arg3)) (m ((c : Thread nD τ).loc main_arg6))))) (broadcastInDim S131072x256 ![] bcast_S_S131072x256 (constant (F := Ideal) S_ .f32 0x00000000#32)) := by
  have e91 := after35_v328 (W82 m ρ c)
  rw [W82_v301 m ρ c hn, W82_v304 m ρ c he, (W82_since1 m ρ c main_v49 (by decide)).trans (W1_v49 m ρ c),
    (W82_since1 m ρ c main_v52 (by decide)).trans (W1_v52 m ρ c)] at e91
  have e92 := after35_1_v329 (W83 m ρ c)
  rw [show W83 m ρ c (Proc.devRef .tc main_v328) = _ from e91] at e92
  exact e92

/-- The node messages added up per receiving node: the reference's sum. -/
theorem W85_v332 (c : Dev nD) (hn : W72 m ρ c (Proc.devRef .tc main_v286) = (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W85 m ρ c (Proc.devRef .tc main_v332) = val_main_v365 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e := after35_2_v332 (W84 m ρ c)
  rw [(W84_since1 m ρ c main_v46 (by decide)).trans (W1_v46 m ρ c), W84_v329 m ρ c hn he] at e
  exact e.trans (Cert.Bridge.up_n_layer3 _ _ _ _ _ _ _ _ _ _ _ _ _ _ _ _ _ _ _ _ _ _)

/-! ## The edge messages and their sums -/

theorem W84_v307 (c : Dev nD) (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W84 m ρ c (Proc.devRef .tc main_v307) = mul ((val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v374 (F := Ideal) (m ((c : Thread nD τ).loc main_arg19)) : Mat 256 256) :=
  (W84_keep m ρ c main_v307 (by decide)).trans <|
  (W83_keep m ρ c main_v307 (by decide)).trans <|
  (W82_keep m ρ c main_v307 (by decide)).trans <|
  (W81_keep m ρ c main_v307 (by decide)).trans <|
  (W80_keep m ρ c main_v307 (by decide)).trans <|
  (W79_keep m ρ c main_v307 (by decide)).trans <|
  W78_v307 m ρ c he

theorem W84_v310 (c : Dev nD) (hc : W72 m ρ c (Proc.devRef .tc main_v298) = (val_main_v340 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W84 m ρ c (Proc.devRef .tc main_v310) = mul ((val_main_v340 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 16384 256) (val_main_v384 (F := Ideal) (m ((c : Thread nD τ).loc main_arg20)) : Mat 256 256) :=
  (W84_keep m ρ c main_v310 (by decide)).trans <|
  (W83_keep m ρ c main_v310 (by decide)).trans <|
  (W82_keep m ρ c main_v310 (by decide)).trans <|
  (W81_keep m ρ c main_v310 (by decide)).trans <|
  W80_v310 m ρ c hc

/-- The rectified edge messages, in the kernel's order of operations. -/
theorem W86_v348 (c : Dev nD) (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (hc : W72 m ρ c (Proc.devRef .tc main_v298) = (val_main_v340 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W86 m ρ c (Proc.devRef .tc main_v348)
    = maximumf (addf (Host.gather gather_S65536x256_S98304x1_S98304x256_1_0_n_n_0_1_1256 (mul ((val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 65536 256) (val_main_v374 (F := Ideal) (m ((c : Thread nD τ).loc main_arg19)) : Mat 256 256)) (val_main_v371 (F := Ideal) (m ((c : Thread nD τ).loc main_arg7)) (m ((c : Thread nD τ).loc main_arg9))))
        (Host.gather gather_S16384x256_S98304x1_S98304x256_1_0_n_n_0_1_1256 (mul ((val_main_v340 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 16384 256) (val_main_v384 (F := Ideal) (m ((c : Thread nD τ).loc main_arg20)) : Mat 256 256)) (val_main_v381 (F := Ideal) (m ((c : Thread nD τ).loc main_arg7)) (m ((c : Thread nD τ).loc main_arg10))))) (broadcastInDim S98304x256 ![] bcast_S_S98304x256 (constant (F := Ideal) S_ .f32 0x00000000#32)) := by
  have e110 := after35_2_v347 (W84 m ρ c)
  rw [W84_v307 m ρ c he, W84_v310 m ρ c hc, (W84_since1 m ρ c main_v58 (by decide)).trans (W1_v58 m ρ c),
    (W84_since1 m ρ c main_v61 (by decide)).trans (W1_v61 m ρ c)] at e110
  have e111 := after35_3_v348 (W85 m ρ c)
  rw [show W85 m ρ c (Proc.devRef .tc main_v347) = _ from e110] at e111
  exact e111

/-- The edge messages added up per receiving edge: the reference's sum. -/
theorem W87_v351 (c : Dev nD) (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (hc : W72 m ρ c (Proc.devRef .tc main_v298) = (val_main_v340 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W87 m ρ c (Proc.devRef .tc main_v351) = val_main_v390 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e := after35_4_v351 (W86 m ρ c)
  rw [(W86_since1 m ρ c main_v55 (by decide)).trans (W1_v55 m ρ c), W86_v348 m ρ c he hc] at e
  exact e.trans (Cert.Bridge.up_e_layer3 _ _ _ _ _ _ _ _ _ _ _ _ _ _ _ _ _ _ _ _ _ _)

/-! ## The edge boundary term

The kernel multiplies the incidence array with the node features already multiplied by the weight; the reference
multiplies by the weight last. With every entry real the two agree. -/

theorem W86_v313 (c : Dev nD) (hn : W72 m ρ c (Proc.devRef .tc main_v286) = (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W86 m ρ c (Proc.devRef .tc main_v313) = mul ((val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 32768 256) (val_main_v395 (F := Ideal) (m ((c : Thread nD τ).loc main_arg21)) : Mat 256 256) :=
  (W86_keep m ρ c main_v313 (by decide)).trans <|
  (W85_keep m ρ c main_v313 (by decide)).trans <|
  (W84_keep m ρ c main_v313 (by decide)).trans <|
  (W83_keep m ρ c main_v313 (by decide)).trans <|
  W82_v313 m ρ c hn

theorem W87_v352 (c : Dev nD) (hn : W72 m ρ c (Proc.devRef .tc main_v286) = (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W87 m ρ c (Proc.devRef .tc main_v352)
    = shapeCast S256x128x256 (mul ((val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 32768 256) (val_main_v395 (F := Ideal) (m ((c : Thread nD τ).loc main_arg21)) : Mat 256 256)) shapeCasts_S32768x256_S256x128x256 := by
  have e := after35_4_v352 (W86 m ρ c)
  rw [W86_v313 m ρ c hn] at e
  exact e

/-- Region 35: the batched product of the edge incidence array with the projected node features. -/
theorem W88_v353 (c : Dev nD) (hn : W72 m ρ c (Proc.devRef .tc main_v286) = (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W88 m ρ c (Proc.devRef .tc main_v353)
    = bmul (val_main_v21 (F := Ideal) (m ((c : Thread nD τ).loc main_arg11)) (m ((c : Thread nD τ).loc main_arg12)) (m ((c : Thread nD τ).loc main_arg13)) : Mat3 256 256 128)
        (shapeCast S256x128x256 (mul ((val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) : Mat 32768 256) (val_main_v395 (F := Ideal) (m ((c : Thread nD τ).loc main_arg21)) : Mat 256 256)) shapeCasts_S32768x256_S256x128x256 : Mat3 256 128 256) := by
  have e : W88 m ρ c (Proc.devRef .tc main_v353) = bmul (W87 m ρ c (Proc.devRef .tc main_v21) : Mat3 256 256 128) (W87 m ρ c (Proc.devRef .tc main_v352) : Mat3 256 128 256) :=
    (W88_arr m ρ c 2).trans (arrAt35 (V87 m ρ) c)
  rw [(W87_since1 m ρ c main_v21 (by decide)).trans (W1_v21 m ρ c), W87_v352 m ρ c hn] at e
  exact e

/-- The edge boundary term, flat: the reference's. -/
theorem W89_v354 (c : Dev nD) (hn : W72 m ρ c (Proc.devRef .tc main_v286) = (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (hnf : Cert.Spec.Finite (s := ⟨2, ![32768, 256]⟩) (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (h21 : Cert.Spec.Finite (s := ⟨4, ![4, 2, 256, 256]⟩) (m ((c : Thread nD τ).loc main_arg21))) :
    W89 m ρ c (Proc.devRef .tc main_v354) = val_main_v396 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e := after36_v354 (W88 m ρ c)
  rw [W88_v353 m ρ c hn] at e
  exact e.trans (Cert.Bridge.bd_e_layer3 _ _ _ _ _ _ _ _ _ _ _ _ _ _ _ _ _ _ _ _ _ _ hnf h21)

/-! ## The cell boundary term -/

theorem W89_v355 (c : Dev nD) (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W89 m ρ c (Proc.devRef .tc main_v355) = val_main_v397 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e := after36_v355 (W88 m ρ c)
  rw [(W88_sinceB m ρ c main_v292 (by decide)).trans he] at e
  exact e

theorem W89_v357 (c : Dev nD) : W89 m ρ c (Proc.devRef .tc main_v357) = val_main_v401 (F := Ideal) (m ((c : Thread nD τ).loc main_arg21)) := by
  have e := after36_v357 (W88 m ρ c)
  rw [W88_arg m ρ c main_arg21 (by decide) (by decide)] at e
  exact e

/-- Region 36: the batched product of the cell incidence array with the edge features, each batch then multiplied by the
    weight. -/
theorem W90_v358 (c : Dev nD) (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W90 m ρ c (Proc.devRef .tc main_v358)
    = Cert.Bridge.cellMsg (val_main_v43 (F := Ideal) (m ((c : Thread nD τ).loc main_arg14)) (m ((c : Thread nD τ).loc main_arg15)) (m ((c : Thread nD τ).loc main_arg16))) (val_main_v397 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) (val_main_v401 (F := Ideal) (m ((c : Thread nD τ).loc main_arg21))) := by
  have e : W90 m ρ c (Proc.devRef .tc main_v358)
      = ((fun i => ∑ q : Fin 256, bmul (W89 m ρ c (Proc.devRef .tc main_v43) : Mat3 256 64 256) (W89 m ρ c (Proc.devRef .tc main_v355) : Mat3 256 256 256) (ix3 (i 0) (i 1) q)
          * (W89 m ρ c (Proc.devRef .tc main_v357) : Mat 256 256) (ix2 q (i 2))) : Mat3 256 64 256) :=
    (W90_arr m ρ c 3).trans (arrAt36 (V89 m ρ) c)
  rw [(W89_since1 m ρ c main_v43 (by decide)).trans (W1_v43 m ρ c), W89_v355 m ρ c he, W89_v357 m ρ c] at e
  exact e

/-- The cell boundary term, flat: the reference's. -/
theorem W91_v359 (c : Dev nD) (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W91 m ρ c (Proc.devRef .tc main_v359) = val_main_v402 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e := after37_v359 (W90 m ρ c)
  rw [W90_v358 m ρ c he] at e
  exact e.trans (Cert.Bridge.bd_c_layer3 _ _ _ _ _ _ _ _ _ _ _ _ _ _ _ _ _ _ _ _ _ _)

/-! ## The three updates

Each region adds, entry by entry, the product of the features with a self weight, a bias row, and the message sums,
and rectifies; the reference does the same with the bias broadcast over the rows. -/

theorem W91_v361 (c : Dev nD) : W91 m ρ c (Proc.devRef .tc main_v361) = val_main_v404 (F := Ideal) (m ((c : Thread nD τ).loc main_arg17)) := by
  have e := after37_v361 (W90 m ρ c)
  rw [W90_arg m ρ c main_arg17 (by decide) (by decide)] at e
  exact e

theorem W91_v364 (c : Dev nD) : W91 m ρ c (Proc.devRef .tc main_v364) = (shapeCast S1x256 (shapeCast S256 (extractStridedSlice S1x1x256 ![3, 0, 0] (m ((c : Thread nD τ).loc main_arg18)) slices_S4x3x256_S1x1x256_3_0_0) shapeCasts_S1x1x256_S256) shapeCasts_S256_S1x256 : Mat 1 256) := by
  have e := after37_v364 (W90 m ρ c)
  rw [W90_arg m ρ c main_arg18 (by decide) (by decide)] at e
  exact e

theorem W91_v332 (c : Dev nD) (hn : W72 m ρ c (Proc.devRef .tc main_v286) = (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W91 m ρ c (Proc.devRef .tc main_v332) = val_main_v365 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  (W91_keep m ρ c main_v332 (by decide)).trans <|
  (W90_keep m ρ c main_v332 (by decide)).trans <|
  (W89_keep m ρ c main_v332 (by decide)).trans <|
  (W88_keep m ρ c main_v332 (by decide)).trans <|
  (W87_keep m ρ c main_v332 (by decide)).trans <|
  (W86_keep m ρ c main_v332 (by decide)).trans <|
  W85_v332 m ρ c hn he

/-- Region 37: the new node features are the reference's. -/
theorem W92_v365 (c : Dev nD) (hn : W72 m ρ c (Proc.devRef .tc main_v286) = (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W92 m ρ c (Proc.devRef .tc main_v365) = val_main_v412 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e : W92 m ρ c (Proc.devRef .tc main_v365)
      = ((fun i => max (mul (W91 m ρ c (Proc.devRef .tc main_v286) : Mat 32768 256) (W91 m ρ c (Proc.devRef .tc main_v361) : Mat 256 256) i
          + (W91 m ρ c (Proc.devRef .tc main_v364) : Mat 1 256) (ix2 (0 : Fin 1) (i 1)) + (W91 m ρ c (Proc.devRef .tc main_v332) : Mat 32768 256) i) 0) : Mat 32768 256) :=
    (W92_arr m ρ c 4).trans (arrAt37 (V91 m ρ) c)
  rw [(W91_sinceB m ρ c main_v286 (by decide)).trans hn, W91_v361 m ρ c, W91_v364 m ρ c, W91_v332 m ρ c hn he] at e
  exact e.trans ((Cert.Bridge.self_n_layer3 _ _ _ _ _ _ _ _ _ _ _ _ _ _ _ _ _ _ _ _ _ _ _).trans rfl)

theorem W93_v367 (c : Dev nD) : W93 m ρ c (Proc.devRef .tc main_v367) = val_main_v414 (F := Ideal) (m ((c : Thread nD τ).loc main_arg17)) := by
  have e := after38_v367 (W92 m ρ c)
  rw [W92_arg m ρ c main_arg17 (by decide) (by decide)] at e
  exact e

theorem W93_v370 (c : Dev nD) : W93 m ρ c (Proc.devRef .tc main_v370) = (shapeCast S1x256 (shapeCast S256 (extractStridedSlice S1x1x256 ![3, 1, 0] (m ((c : Thread nD τ).loc main_arg18)) slices_S4x3x256_S1x1x256_3_1_0) shapeCasts_S1x1x256_S256) shapeCasts_S256_S1x256 : Mat 1 256) := by
  have e := after38_v370 (W92 m ρ c)
  rw [W92_arg m ρ c main_arg18 (by decide) (by decide)] at e
  exact e

theorem W93_v351 (c : Dev nD) (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (hc : W72 m ρ c (Proc.devRef .tc main_v298) = (val_main_v340 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W93 m ρ c (Proc.devRef .tc main_v351) = val_main_v390 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  (W93_keep m ρ c main_v351 (by decide)).trans <|
  (W92_keep m ρ c main_v351 (by decide)).trans <|
  (W91_keep m ρ c main_v351 (by decide)).trans <|
  (W90_keep m ρ c main_v351 (by decide)).trans <|
  (W89_keep m ρ c main_v351 (by decide)).trans <|
  (W88_keep m ρ c main_v351 (by decide)).trans <|
  W87_v351 m ρ c he hc

theorem W93_v354 (c : Dev nD) (hn : W72 m ρ c (Proc.devRef .tc main_v286) = (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (hnf : Cert.Spec.Finite (s := ⟨2, ![32768, 256]⟩) (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (h21 : Cert.Spec.Finite (s := ⟨4, ![4, 2, 256, 256]⟩) (m ((c : Thread nD τ).loc main_arg21))) :
    W93 m ρ c (Proc.devRef .tc main_v354) = val_main_v396 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  (W93_keep m ρ c main_v354 (by decide)).trans <|
  (W92_keep m ρ c main_v354 (by decide)).trans <|
  (W91_keep m ρ c main_v354 (by decide)).trans <|
  (W90_keep m ρ c main_v354 (by decide)).trans <|
  W89_v354 m ρ c hn hnf h21

/-- Region 38: the new edge features are the reference's. -/
theorem W94_v371 (c : Dev nD) (hn : W72 m ρ c (Proc.devRef .tc main_v286) = (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (hc : W72 m ρ c (Proc.devRef .tc main_v298) = (val_main_v340 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (hnf : Cert.Spec.Finite (s := ⟨2, ![32768, 256]⟩) (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (h21 : Cert.Spec.Finite (s := ⟨4, ![4, 2, 256, 256]⟩) (m ((c : Thread nD τ).loc main_arg21))) :
    W94 m ρ c (Proc.devRef .tc main_v371) = val_main_v423 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e : W94 m ρ c (Proc.devRef .tc main_v371)
      = ((fun i => max (mul (W93 m ρ c (Proc.devRef .tc main_v292) : Mat 65536 256) (W93 m ρ c (Proc.devRef .tc main_v367) : Mat 256 256) i
          + (W93 m ρ c (Proc.devRef .tc main_v370) : Mat 1 256) (ix2 (0 : Fin 1) (i 1)) + (W93 m ρ c (Proc.devRef .tc main_v351) : Mat 65536 256) i
          + (W93 m ρ c (Proc.devRef .tc main_v354) : Mat 65536 256) i) 0) : Mat 65536 256) :=
    (W94_arr m ρ c 5).trans (arrAt38 (V93 m ρ) c)
  rw [(W93_sinceB m ρ c main_v292 (by decide)).trans he, W93_v367 m ρ c, W93_v370 m ρ c, W93_v351 m ρ c he hc, W93_v354 m ρ c hn hnf h21] at e
  exact e.trans ((Cert.Bridge.self_e_layer3 _ _ _ _ _ _ _ _ _ _ _ _ _ _ _ _ _ _ _ _ _ _ _ _).trans rfl)

theorem W95_v373 (c : Dev nD) : W95 m ρ c (Proc.devRef .tc main_v373) = val_main_v425 (F := Ideal) (m ((c : Thread nD τ).loc main_arg17)) := by
  have e := after39_v373 (W94 m ρ c)
  rw [W94_arg m ρ c main_arg17 (by decide) (by decide)] at e
  exact e

theorem W95_v376 (c : Dev nD) : W95 m ρ c (Proc.devRef .tc main_v376) = (shapeCast S1x256 (shapeCast S256 (extractStridedSlice S1x1x256 ![3, 2, 0] (m ((c : Thread nD τ).loc main_arg18)) slices_S4x3x256_S1x1x256_3_2_0) shapeCasts_S1x1x256_S256) shapeCasts_S256_S1x256 : Mat 1 256) := by
  have e := after39_v376 (W94 m ρ c)
  rw [W94_arg m ρ c main_arg18 (by decide) (by decide)] at e
  exact e

theorem W95_v359 (c : Dev nD) (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W95 m ρ c (Proc.devRef .tc main_v359) = val_main_v402 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  (W95_keep m ρ c main_v359 (by decide)).trans <|
  (W94_keep m ρ c main_v359 (by decide)).trans <|
  (W93_keep m ρ c main_v359 (by decide)).trans <|
  (W92_keep m ρ c main_v359 (by decide)).trans <|
  W91_v359 m ρ c he

/-- Region 39: the new cell features are the reference's. -/
theorem W96_v377 (c : Dev nD) (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) (hc : W72 m ρ c (Proc.devRef .tc main_v298) = (val_main_v340 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) : W96 m ρ c (Proc.devRef .tc main_v377) = val_main_v433 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have e : W96 m ρ c (Proc.devRef .tc main_v377)
      = ((fun i => max (mul (W95 m ρ c (Proc.devRef .tc main_v298) : Mat 16384 256) (W95 m ρ c (Proc.devRef .tc main_v373) : Mat 256 256) i
          + (W95 m ρ c (Proc.devRef .tc main_v376) : Mat 1 256) (ix2 (0 : Fin 1) (i 1)) + (W95 m ρ c (Proc.devRef .tc main_v359) : Mat 16384 256) i) 0) : Mat 16384 256) :=
    (W96_arr m ρ c 4).trans (arrAt39 (V95 m ρ) c)
  rw [(W95_sinceB m ρ c main_v298 (by decide)).trans hc, W95_v373 m ρ c, W95_v376 m ρ c, W95_v359 m ρ c he] at e
  exact e.trans ((Cert.Bridge.self_c_layer3 _ _ _ _ _ _ _ _ _ _ _ _ _ _ _ _ _ _ _ _ _ _ _).trans rfl)

/-! ## Layer 3 -/

/-- LAYER 3: at boundary 96 the three feature arrays the kernel program has written are the reference's new node, edge
    and cell features of layer 3, as functions of the arguments, given that at boundary 72 the three feature arrays
    are the reference's of the layer before. The node features the layer starts from and the edge boundary weight stack are
    taken real: the edge boundary term is re-associated. -/
theorem layer3 (c : Dev nD)
    (hnf : Cert.Spec.Finite (s := ⟨2, ![32768, 256]⟩) (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))))
    (h21 : Cert.Spec.Finite (s := ⟨4, ![4, 2, 256, 256]⟩) (m ((c : Thread nD τ).loc main_arg21)))
    (hn : W72 m ρ c (Proc.devRef .tc main_v286) = (val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))))
    (he : W72 m ρ c (Proc.devRef .tc main_v292) = (val_main_v330 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))))
    (hc : W72 m ρ c (Proc.devRef .tc main_v298) = (val_main_v340 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))) :
    W96 m ρ c (Proc.devRef .tc main_v365) = val_main_v412 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))
    ∧ W96 m ρ c (Proc.devRef .tc main_v371) = val_main_v423 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))
    ∧ W96 m ρ c (Proc.devRef .tc main_v377) = val_main_v433 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  refine ⟨?_, ?_, W96_v377 m ρ c he hc⟩
  · exact
      (W96_keep m ρ c main_v365 (by decide)).trans <|
      (W95_keep m ρ c main_v365 (by decide)).trans <|
      (W94_keep m ρ c main_v365 (by decide)).trans <|
      (W93_keep m ρ c main_v365 (by decide)).trans <|
      W92_v365 m ρ c hn he
  · exact
      (W96_keep m ρ c main_v371 (by decide)).trans <|
      (W95_keep m ρ c main_v371 (by decide)).trans <|
      W94_v371 m ρ c hn he hc hnf h21

end Cert.KernelIdeal.Val

end
-- ==== Proof.KI.TailHost.lean ====
/- The host operations at the end of the kernel program, stretch by stretch: what each stretch leaves in the buffer a later
   step reads, as the printed operations applied to the contents the stretch found. The three poolings are fed reshapes
   of the final and the initial features and of the pooling bias; the readout is, per family, the rectified
   pooled · W1[k] + b1[k], the three added up from a zero array, then · W2 + b2. -/
import proofs.«101828_j11562051961417_2_alg».proof.Proof.Gen.KernelIdeal.Launch
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.StableHlo

variable {F : FTy → Type} [FloatOps F]
variable (W : Valuation τ sig (Elt F))

/-! ## Before each pooling: the bias as a row, the final and the initial features by batch -/

/-- The pooling bias as a [1,256] row (node pooling). -/
theorem after40_v378 : StableHlo.after hostOps40 W (Proc.devRef .tc main_v378)
    = shapeCast S1x256 (W (Proc.devRef .tc main_arg24)) shapeCasts_S256_S1x256 := by
  after_results
  rfl

/-- The final node features by batch: [256,128,256]. -/
theorem after40_v379 : StableHlo.after hostOps40 W (Proc.devRef .tc main_v379)
    = shapeCast S256x128x256 (W (Proc.devRef .tc main_v365)) shapeCasts_S32768x256_S256x128x256 := by
  after_results
  rfl

/-- The initial node features by batch. -/
theorem after40_v380 : StableHlo.after hostOps40 W (Proc.devRef .tc main_v380)
    = shapeCast S256x128x256 (W (Proc.devRef .tc main_arg0)) shapeCasts_S32768x256_S256x128x256 := by
  after_results
  rfl

/-- The pooling bias as a [1,256] row (edge pooling). -/
theorem after41_v382 : StableHlo.after hostOps41 W (Proc.devRef .tc main_v382)
    = shapeCast S1x256 (W (Proc.devRef .tc main_arg24)) shapeCasts_S256_S1x256 := by
  after_results
  rfl

/-- The final edge features by batch: [256,256,256]. -/
theorem after41_v383 : StableHlo.after hostOps41 W (Proc.devRef .tc main_v383)
    = shapeCast S256x256x256 (W (Proc.devRef .tc main_v371)) shapeCasts_S65536x256_S256x256x256 := by
  after_results
  rfl

/-- The initial edge features by batch. -/
theorem after41_v384 : StableHlo.after hostOps41 W (Proc.devRef .tc main_v384)
    = shapeCast S256x256x256 (W (Proc.devRef .tc main_arg1)) shapeCasts_S65536x256_S256x256x256 := by
  after_results
  rfl

/-- The pooling bias as a [1,256] row (cell pooling). -/
theorem after42_v386 : StableHlo.after hostOps42 W (Proc.devRef .tc main_v386)
    = shapeCast S1x256 (W (Proc.devRef .tc main_arg24)) shapeCasts_S256_S1x256 := by
  after_results
  rfl

/-- The final cell features by batch: [256,64,256]. -/
theorem after42_v387 : StableHlo.after hostOps42 W (Proc.devRef .tc main_v387)
    = shapeCast S256x64x256 (W (Proc.devRef .tc main_v377)) shapeCasts_S16384x256_S256x64x256 := by
  after_results
  rfl

/-- The initial cell features by batch. -/
theorem after42_v388 : StableHlo.after hostOps42 W (Proc.devRef .tc main_v388)
    = shapeCast S256x64x256 (W (Proc.devRef .tc main_arg2)) shapeCasts_S16384x256_S256x64x256 := by
  after_results
  rfl

/-! ## The readout -/

/-- The node family before its rectifier: pooled nodes · W1[0] + b1[0]. -/
theorem after43_v397 : StableHlo.after hostOps43 W (Proc.devRef .tc main_v397)
    = addf (Host.dotGeneral dot_S256x256_S256x512_S256x512_1_0_0_1_n_n none (W (Proc.devRef .tc main_v381))
          (shapeCast S256x512 (extractStridedSlice S1x256x512 ![0, 0, 0] (W (Proc.devRef .tc main_arg25)) slices_S3x256x512_S1x256x512_0_0_0) shapeCasts_S1x256x512_S256x512))
        (broadcastInDim S256x512 ![0, 1] bcast_S1x512_S256x512_0_1 (broadcastInDim S1x512 ![1] bcast_S512_S1x512_1
          (shapeCast S512 (extractStridedSlice S1x512 ![0, 0] (W (Proc.devRef .tc main_arg26)) slices_S3x512_S1x512_0_0) shapeCasts_S1x512_S512))) := by
  after_results
  rfl

/-- The node family, rectified. -/
theorem after43_1_v398 : StableHlo.after hostOps43_1 W (Proc.devRef .tc main_v398)
    = maximumf (W (Proc.devRef .tc main_v397)) (broadcastInDim S256x512 ![] bcast_S_S256x512 (constant S_ .f32 0x00000000#32)) := by
  after_results
  rfl

/-- The running sum of the families starts from a zero array: zero plus the node family. -/
theorem after43_2_v400 : StableHlo.after hostOps43_2 W (Proc.devRef .tc main_v400)
    = addf (broadcastInDim S256x512 ![] bcast_S_S256x512 (constant S_ .f32 0x00000000#32)) (W (Proc.devRef .tc main_v398)) := by
  after_results

/-- The edge family before its rectifier: pooled edges · W1[1] + b1[1]. -/
theorem after43_2_v408 : StableHlo.after hostOps43_2 W (Proc.devRef .tc main_v408)
    = addf (Host.dotGeneral dot_S256x256_S256x512_S256x512_1_0_0_1_n_n none (W (Proc.devRef .tc main_v385))
          (shapeCast S256x512 (extractStridedSlice S1x256x512 ![1, 0, 0] (W (Proc.devRef .tc main_arg25)) slices_S3x256x512_S1x256x512_1_0_0) shapeCasts_S1x256x512_S256x512))
        (broadcastInDim S256x512 ![0, 1] bcast_S1x512_S256x512_0_1 (broadcastInDim S1x512 ![1] bcast_S512_S1x512_1
          (shapeCast S512 (extractStridedSlice S1x512 ![1, 0] (W (Proc.devRef .tc main_arg26)) slices_S3x512_S1x512_1_0) shapeCasts_S1x512_S512))) := by
  after_results
  rfl

/-- The edge family, rectified. -/
theorem after43_3_v409 : StableHlo.after hostOps43_3 W (Proc.devRef .tc main_v409)
    = maximumf (W (Proc.devRef .tc main_v408)) (broadcastInDim S256x512 ![] bcast_S_S256x512 (constant S_ .f32 0x00000000#32)) := by
  after_results
  rfl

/-- The running sum plus the edge family. -/
theorem after43_4_v410 : StableHlo.after hostOps43_4 W (Proc.devRef .tc main_v410)
    = addf (W (Proc.devRef .tc main_v400)) (W (Proc.devRef .tc main_v409)) := by
  after_results

/-- The cell family before its rectifier: pooled cells · W1[2] + b1[2]. -/
theorem after43_4_v418 : StableHlo.after hostOps43_4 W (Proc.devRef .tc main_v418)
    = addf (Host.dotGeneral dot_S256x256_S256x512_S256x512_1_0_0_1_n_n none (W (Proc.devRef .tc main_v389))
          (shapeCast S256x512 (extractStridedSlice S1x256x512 ![2, 0, 0] (W (Proc.devRef .tc main_arg25)) slices_S3x256x512_S1x256x512_2_0_0) shapeCasts_S1x256x512_S256x512))
        (broadcastInDim S256x512 ![0, 1] bcast_S1x512_S256x512_0_1 (broadcastInDim S1x512 ![1] bcast_S512_S1x512_1
          (shapeCast S512 (extractStridedSlice S1x512 ![2, 0] (W (Proc.devRef .tc main_arg26)) slices_S3x512_S1x512_2_0) shapeCasts_S1x512_S512))) := by
  after_results
  rfl

/-- The cell family, rectified. -/
theorem after43_5_v419 : StableHlo.after hostOps43_5 W (Proc.devRef .tc main_v419)
    = maximumf (W (Proc.devRef .tc main_v418)) (broadcastInDim S256x512 ![] bcast_S_S256x512 (constant S_ .f32 0x00000000#32)) := by
  after_results
  rfl

/-- The result: (the three families added) · W2 + b2. -/
theorem after43_6_v424 : StableHlo.after hostOps43_6 W (Proc.devRef .tc main_v424)
    = addf (Host.dotGeneral dot_S256x512_S512x10_S256x10_1_0_0_1_n_n none (addf (W (Proc.devRef .tc main_v410)) (W (Proc.devRef .tc main_v419))) (W (Proc.devRef .tc main_arg27)))
        (broadcastInDim S256x10 ![0, 1] bcast_S1x10_S256x10_0_1 (broadcastInDim S1x10 ![1] bcast_S10_S1x10_1 (W (Proc.devRef .tc main_arg28)))) := by
  after_results

end Cert.KernelIdeal.Val

end
-- ==== Proof.KI.ValPool40.lean ====
/- Region 40, the gated pooling over the 128 rows of each batch, read as one function of the region's input arrays.
   The body at a grid point holds 8 batches X, X0 : [8, 128, 256], two matrices Wp, Wp' : [256, 256] and a bias row
   [1, 256]; viewing the two blocks as 1024 rows it forms the gate logistic (X · Wp + X0 · Wp' + bias) and stores, per
   batch and column, the sum over the batch's 128 rows of gate times X. First the body's value at an entry, over blocks
   that are variables; then the block each of the 32 grid points writes back as the block of ONE array `pool40` of the
   five input arrays; then the blocks cover the output array, so it ends holding `pool40`. -/
import proofs.«101828_j11562051961417_2_alg».proof.Proof.KI.Region40
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Reg Cert.Spec
open Idealize.ShloMosaic Idealize.ShloMosaic.TcCoe Idealize.ShloMosaic.ValueIdx Idealize.SL.Sem
open Idealize.ShloMosaic.Pipeline (Dat)

/-! ## The body's value at an entry -/

/-- Row `p * 128 + r` of the block viewed as 1024 rows: row `r` of batch `p`. -/
abbrev row40 (p : Fin 8) (r : Fin 128) : Fin 1024 := ⟨p.val * 128 + r.val, by omega⟩

/-- The block viewed as 1024 rows, at row `p * 128 + r`: the block at batch `p`, row `r`. -/
theorem flat40_apply (x : Vec Ideal S8x128x256 .f32) (h : S8x128x256.ShapeCasts S1024x256) (p : Fin 8) (r : Fin 128) (q : Fin 256) :
    shapeCast S1024x256 x h (ix2 (row40 p r) q) = x (ix3 p r q) := by
  refine shapeCast_apply x h _ _ ?_
  rw [Shape.rowMajor_val_three, Shape.rowMajor_val_two]
  rfl

/-- A 1024-row value viewed back as 8 batches of 128 rows, at batch `p`, row `r`: its row `p * 128 + r`. -/
theorem unflat40_apply (y : FVec Ideal S1024x256 .f32) (h : S1024x256.ShapeCasts S8x128x256) (p : Fin 8) (r : Fin 128) (q : Fin 256) :
    shapeCast S8x128x256 y h (ix3 p r q) = y (ix2 (row40 p r) q) := by
  refine shapeCast_apply y h _ _ ?_
  rw [Shape.rowMajor_val_three, Shape.rowMajor_val_two]
  rfl

/-- The product's operand indices at output entry `i` and inner coordinate `k`: the left operand is read at (row of `i`, `k`),
    the right one at (`k`, column of `i`). -/
theorem lhs40_0 (i : S1024x256.Idx) (k : dot_S1024x256_S256x256_S1024x256_1_0_0_1_n_n.contr.Idx) :
    (dot_S1024x256_S256x256_S1024x256_1_0_0_1_n_n.lhsIdx i k 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs40_1 (i : S1024x256.Idx) (k : dot_S1024x256_S256x256_S1024x256_1_0_0_1_n_n.contr.Idx) :
    (dot_S1024x256_S256x256_S1024x256_1_0_0_1_n_n.lhsIdx i k 1).val = (k ⟨0, by decide⟩).val :=
  dot_S1024x256_S256x256_S1024x256_1_0_0_1_n_n.lhsIdx_val_of_single rfl i k
theorem rhs40_0 (i : S1024x256.Idx) (k : dot_S1024x256_S256x256_S1024x256_1_0_0_1_n_n.contr.Idx) :
    (dot_S1024x256_S256x256_S1024x256_1_0_0_1_n_n.rhsIdx i k 0).val = (k ⟨0, by decide⟩).val :=
  dot_S1024x256_S256x256_S1024x256_1_0_0_1_n_n.rhsIdx_val_of_single rfl i k
theorem rhs40_1 (i : S1024x256.Idx) (k : dot_S1024x256_S256x256_S1024x256_1_0_0_1_n_n.contr.Idx) :
    (dot_S1024x256_S256x256_S1024x256_1_0_0_1_n_n.rhsIdx i k 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The product of a 1024-row block with a 256 × 256 matrix, accumulated from zero, at an entry: the sum over the 256 inner
    coordinates. -/
theorem matmul40_apply {φ₁ φ₂ : FTy} (a : FVec Ideal S1024x256 φ₁) (w : FVec Ideal S256x256 φ₂) (m : Fin 1024) (q : Fin 256) :
    matmul dot_S1024x256_S256x256_S1024x256_1_0_0_1_n_n none a w (constant (F := Ideal) S1024x256 .f32 0x00000000#32) (ix2 m q)
      = ∑ j : Fin 256, a (ix2 m j) * w (ix2 j q) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 m q) ((ValueIdx.contrEquiv1 dot_S1024x256_S256x256_S1024x256_1_0_0_1_n_n 256 rfl rfl).symm k) = ix2 m k := funext fun d => Fin.ext (by
    match d with
    | ⟨0, _⟩ => exact lhs40_0 _ _
    | ⟨1, _⟩ => exact (lhs40_1 _ _).trans hk)
  have er : dot_S1024x256_S256x256_S1024x256_1_0_0_1_n_n.rhsIdx (ix2 m q) ((ValueIdx.contrEquiv1 dot_S1024x256_S256x256_S1024x256_1_0_0_1_n_n 256 rfl rfl).symm k) = ix2 k q := funext fun d => Fin.ext (by
    match d with
    | ⟨0, _⟩ => exact (rhs40_0 _ _).trans hk
    | ⟨1, _⟩ => exact rhs40_1 _ _)
  rw [el, er]

/-- The sum over the 128 rows of a batch. -/
theorem rowsum40_apply (v : FVec Ideal S8x128x256 .f32) (h : S8x128x256.Reduces [1] S8x256) (hφ : FKind.Formats .f32)
    (hacc : (0x00000000#32 : BitVec 32) = FKind.add.neutral .f32 hφ) (p : Fin 8) (q : Fin 256) :
    multiReduction .add [1] S8x256 v 0x00000000#32 h hφ hacc (ix2 p q) = ∑ r : Fin 128, v (ix3 p r q) := by
  refine (Ideal.multiReduction_add_single v _ h hφ hacc (ix2 p q)).trans ?_
  refine Finset.sum_congr rfl fun r _ => congrArg v ?_
  funext d
  match d with
  | ⟨0, _⟩ => rfl
  | ⟨1, _⟩ => rfl
  | ⟨2, _⟩ => rfl

/-- The bias row spread over the 1024 rows. -/
theorem bias40_apply (b : FVec Ideal S1x256 .f32) (h : S1x256.Broadcasts S1024x256) (m : Fin 1024) (q : Fin 256) :
    broadcastTo S1024x256 b h (ix2 m q) = b (ix2 0 q) := by
  refine broadcastTo_apply b h _ _ fun a => ?_
  match a with
  | ⟨0, _⟩ => rfl
  | ⟨1, _⟩ => rfl

/-- The logistic of a block, entry by entry. -/
theorem logistic40_apply (a : FVec Ideal S1024x256 .f32) (i : S1024x256.Idx) : logistic a i = Ideal.logistic (a i) := rfl

/-- THE BODY'S VALUE AT AN ENTRY: batch `p`, column `q` of the stored block is the sum over the batch's 128 rows of the
    gate (the logistic of the two products plus the bias) times the first block's entry. The two narrowings to bf16 are
    the identity on extended reals. -/
theorem pay40_apply (x0 x1 : Vec Ideal S8x128x256 .f32) (x2 x3 : Vec Ideal S256x256 .f32) (x4 : Vec Ideal S1x256 .f32)
    (p : Fin 8) (q : Fin 256) :
    k40_pay1 (F := Ideal) x0 x1 x2 x3 x4 (ix2 p q)
      = ∑ r : Fin 128, Ideal.logistic ((∑ j : Fin 256, x0 (ix3 p r j) * x2 (ix2 j q)) + (∑ j : Fin 256, x1 (ix3 p r j) * x3 (ix2 j q))
          + x4 (ix2 0 q)) * x0 (ix3 p r q) := by
  unfold k40_pay1
  refine (rowsum40_apply _ _ _ _ p q).trans (Finset.sum_congr rfl fun r _ => ?_)
  refine (unflat40_apply _ _ p r q).trans ?_
  refine (mulf_apply _ _ _).trans ?_
  refine congrArg₂ (· * ·) ?_ ?_
  · refine (logistic40_apply _ _).trans (congrArg Ideal.logistic ?_)
    refine (addf_apply _ _ _).trans (congrArg₂ (· + ·) ?_ ?_)
    · refine (addf_apply _ _ _).trans (congrArg₂ (· + ·) ?_ ?_)
      · refine (matmul40_apply _ _ (row40 p r) q).trans (Finset.sum_congr rfl fun j _ => congrArg₂ (· * ·) ?_ rfl)
        refine (truncf_apply (φ := .f32) (ψ := .bf16) _ _ _).trans ?_
        rw [shapeCast_self]
        exact flat40_apply x0 _ p r j
      · refine (matmul40_apply _ _ (row40 p r) q).trans (Finset.sum_congr rfl fun j _ => congrArg₂ (· * ·) ?_ rfl)
        refine (truncf_apply (φ := .f32) (ψ := .bf16) _ _ _).trans ?_
        rw [shapeCast_self]
        exact flat40_apply x1 _ p r j
    · rw [shapeCast_self]
      exact bias40_apply x4 _ (row40 p r) q
  · rw [shapeCast_self]
    exact flat40_apply x0 _ p r q

/-! ## The whole array: the gated row sums of every batch -/

/-- THE POOLED ARRAY. Entry (b, c) is the sum over the 128 rows r of batch b of the gate at (b, r, c), the logistic of
    `(X · Wp)(b, r, c) + (X0 · Wp')(b, r, c) + bias(c)` with each product a sum over the 256 inner coordinates, times
    `X (b, r, c)`. -/
def pool40 (X X0 : Mat3 256 128 256) (Wp Wp' : Mat 256 256) (b : Mat 1 256) : Mat 256 256 :=
  fun i => ∑ r : Fin 128, Ideal.logistic ((∑ j : Fin 256, X (ix3 (i 0) r j) * Wp (ix2 j (i 1)))
      + (∑ j : Fin 256, X0 (ix3 (i 0) r j) * Wp' (ix2 j (i 1))) + b (ix2 0 (i 1))) * X (ix3 (i 0) r (i 1))

/-- The grid has 32 points. -/
theorem lt40 (t : Fin cfg40.N) : t.val < 32 :=
  Nat.lt_of_lt_of_eq t.isLt (show cfg40.N = 32 from N_40)

/-- Batch `p` of the block at grid point `t` is batch `8 t + p` of the array. -/
abbrev batch40 (t : Fin cfg40.N) (p : Fin 8) : Fin 256 := ⟨t.val * 8 + p.val, by have := lt40 t; omega⟩

/-- The body's value on blocks that are the arrays' blocks at point `t` (the two batched arrays at batches `8 t …`, the
    two matrices and the bias row whole) is the pooled array's block at `t`. -/
theorem blk40_apply (X X0 : Mat3 256 128 256) (Wp Wp' : Mat 256 256) (b : Mat 1 256)
    (x0 x1 : Vec Ideal S8x128x256 .f32) (x2 x3 : Vec Ideal S256x256 .f32) (x4 : Vec Ideal S1x256 .f32) (t : Fin cfg40.N)
    (h0 : ∀ (p : Fin 8) (r : Fin 128) (q : Fin 256), x0 (ix3 p r q) = X (ix3 (batch40 t p) r q))
    (h1 : ∀ (p : Fin 8) (r : Fin 128) (q : Fin 256), x1 (ix3 p r q) = X0 (ix3 (batch40 t p) r q))
    (h2 : ∀ (j q : Fin 256), x2 (ix2 j q) = Wp (ix2 j q)) (h3 : ∀ (j q : Fin 256), x3 (ix2 j q) = Wp' (ix2 j q))
    (h4 : ∀ q : Fin 256, x4 (ix2 0 q) = b (ix2 0 q)) (p : Fin 8) (q : Fin 256) :
    k40_pay1 (F := Ideal) x0 x1 x2 x3 x4 (ix2 p q) = pool40 X X0 Wp Wp' b (ix2 (batch40 t p) q) := by
  refine (pay40_apply x0 x1 x2 x3 x4 p q).trans ?_
  show _ = ∑ r : Fin 128, Ideal.logistic ((∑ j : Fin 256, X (ix3 (batch40 t p) r j) * Wp (ix2 j q))
      + (∑ j : Fin 256, X0 (ix3 (batch40 t p) r j) * Wp' (ix2 j q)) + b (ix2 0 q)) * X (ix3 (batch40 t p) r q)
  simp only [h0, h1, h2, h3, h4]

/-- The same at any index of the block and the index of the array it sits at. -/
theorem blk40_apply_at (X X0 : Mat3 256 128 256) (Wp Wp' : Mat 256 256) (b : Mat 1 256)
    (x0 x1 : Vec Ideal S8x128x256 .f32) (x2 x3 : Vec Ideal S256x256 .f32) (x4 : Vec Ideal S1x256 .f32) (t : Fin cfg40.N)
    (h0 : ∀ (p : Fin 8) (r : Fin 128) (q : Fin 256), x0 (ix3 p r q) = X (ix3 (batch40 t p) r q))
    (h1 : ∀ (p : Fin 8) (r : Fin 128) (q : Fin 256), x1 (ix3 p r q) = X0 (ix3 (batch40 t p) r q))
    (h2 : ∀ (j q : Fin 256), x2 (ix2 j q) = Wp (ix2 j q)) (h3 : ∀ (j q : Fin 256), x3 (ix2 j q) = Wp' (ix2 j q))
    (h4 : ∀ q : Fin 256, x4 (ix2 0 q) = b (ix2 0 q)) (y : S8x256.Idx) (i : S256x256.Idx)
    (hi0 : (i 0).val = t.val * 8 + (y 0).val) (hi1 : (i 1).val = (y 1).val) :
    k40_pay1 (F := Ideal) x0 x1 x2 x3 x4 y = pool40 X X0 Wp Wp' b i := by
  obtain ⟨p, q, rfl⟩ : ∃ (p : Fin 8) (q : Fin 256), y = ix2 p q := ⟨y 0, y 1, eq_ix2 y⟩
  obtain ⟨a, d, rfl⟩ : ∃ (a : Fin 256) (d : Fin 256), i = ix2 a d := ⟨i 0, i 1, eq_ix2 i⟩
  have ha : a = batch40 t p := Fin.ext hi0
  have hd : d = q := Fin.ext hi1
  rw [ha, hd]
  exact blk40_apply X X0 Wp Wp' b x0 x1 x2 x3 x4 t h0 h1 h2 h3 h4 p q

/-- The pooled array at an entry, written out. -/
theorem pool40_apply (X X0 : Mat3 256 128 256) (Wp Wp' : Mat 256 256) (b : Mat 1 256) (i : (⟨2, ![256, 256]⟩ : Shape).Idx) :
    pool40 X X0 Wp Wp' b i = ∑ r : Fin 128, Ideal.logistic ((∑ j : Fin 256, X (ix3 (i 0) r j) * Wp (ix2 j (i 1)))
      + (∑ j : Fin 256, X0 (ix3 (i 0) r j) * Wp' (ix2 j (i 1))) + b (ix2 0 (i 1))) * X (ix3 (i 0) r (i 1)) := rfl

section Region
variable (V : (c : Dev nD) → (b : Ref sig .tc) → Buf (Elt Ideal) ((c : Thread nD τ).loc b))

theorem hz40_2 : (![0, 0] : Fin 2 → Nat) = fun _ => 0 := funext fun a => by fin_cases a <;> rfl
theorem hz40_3 : (![0, 0, 0] : Fin 3 → Nat) = fun _ => 0 := funext fun a => by fin_cases a <;> rfl

/-- The blocks' index maps at each of the 32 grid points: the two batched arrays and the output move with the point along
    their first axis and stay at block 0 on the others; the two matrices and the bias row stay at block 0. -/
theorem idx_facts40 : ∀ t : Fin cfg40.N,
    win40_0.index t (0 : Fin 3) = t.val ∧ win40_0.index t (1 : Fin 3) = 0 ∧ win40_0.index t (2 : Fin 3) = 0
    ∧ win40_1.index t (0 : Fin 3) = t.val ∧ win40_1.index t (1 : Fin 3) = 0 ∧ win40_1.index t (2 : Fin 3) = 0
    ∧ win40_2.index t (0 : Fin 2) = 0 ∧ win40_2.index t (1 : Fin 2) = 0
    ∧ win40_3.index t (0 : Fin 2) = 0 ∧ win40_3.index t (1 : Fin 2) = 0
    ∧ win40_4.index t (0 : Fin 2) = 0 ∧ win40_4.index t (1 : Fin 2) = 0
    ∧ win40_5.index t (0 : Fin 2) = t.val ∧ win40_5.index t (1 : Fin 2) = 0 :=
  (by decide +kernel : ∀ t : Fin grid40.N, _)

/-- Input window 0's block at point `t`: batches `8 t …` of its array. -/
theorem iblk40_0_apply (c : Dev nD) (t : Fin cfg40.N) (p : Fin 8) (r : Fin 128) (q : Fin 256) :
    (iblk40 V c 0 t : Vec Ideal S8x128x256 .f32) (ix3 p r q)
      = (V c (Pipeline.arrRef spec40 0) : Mat3 256 128 256) (ix3 (batch40 t p) r q) := by
  obtain ⟨e0, e1, e2, -⟩ := idx_facts40 t
  unfold iblk40
  rw [View.read_apply]
  show V c (Pipeline.arrRef spec40 0) (((cfg40.win 0).blk t).view.emb (ix3 p r q)) = V c (Pipeline.arrRef spec40 0) (ix3 (batch40 t p) r q)
  refine congrArg _ (funext fun a => Fin.ext ?_)
  match a with
  | ⟨0, _⟩ => show win40_0.index t (0 : Fin 3) * 8 + 1 * p.val = t.val * 8 + p.val; rw [e0]; omega
  | ⟨1, _⟩ => show win40_0.index t (1 : Fin 3) * 128 + 1 * r.val = r.val; rw [e1]; omega
  | ⟨2, _⟩ => show win40_0.index t (2 : Fin 3) * 256 + 1 * q.val = q.val; rw [e2]; omega

/-- Input window 1's block at point `t`: batches `8 t …` of its array. -/
theorem iblk40_1_apply (c : Dev nD) (t : Fin cfg40.N) (p : Fin 8) (r : Fin 128) (q : Fin 256) :
    (iblk40 V c 1 t : Vec Ideal S8x128x256 .f32) (ix3 p r q)
      = (V c (Pipeline.arrRef spec40 1) : Mat3 256 128 256) (ix3 (batch40 t p) r q) := by
  obtain ⟨-, -, -, e0, e1, e2, -⟩ := idx_facts40 t
  unfold iblk40
  rw [View.read_apply]
  show V c (Pipeline.arrRef spec40 1) (((cfg40.win 1).blk t).view.emb (ix3 p r q)) = V c (Pipeline.arrRef spec40 1) (ix3 (batch40 t p) r q)
  refine congrArg _ (funext fun a => Fin.ext ?_)
  match a with
  | ⟨0, _⟩ => show win40_1.index t (0 : Fin 3) * 8 + 1 * p.val = t.val * 8 + p.val; rw [e0]; omega
  | ⟨1, _⟩ => show win40_1.index t (1 : Fin 3) * 128 + 1 * r.val = r.val; rw [e1]; omega
  | ⟨2, _⟩ => show win40_1.index t (2 : Fin 3) * 256 + 1 * q.val = q.val; rw [e2]; omega

/-- Input window 2's block at every point: its whole matrix. -/
theorem iblk40_2_apply (c : Dev nD) (t : Fin cfg40.N) (j q : Fin 256) :
    (iblk40 V c 2 t : Vec Ideal S256x256 .f32) (ix2 j q) = (V c (Pipeline.arrRef spec40 2) : Mat 256 256) (ix2 j q) := by
  obtain ⟨-, -, -, -, -, -, e0, e1, -⟩ := idx_facts40 t
  unfold iblk40
  rw [View.read_apply]
  show V c (Pipeline.arrRef spec40 2) (((cfg40.win 2).blk t).view.emb (ix2 j q)) = V c (Pipeline.arrRef spec40 2) (ix2 j q)
  refine congrArg _ (funext fun a => Fin.ext ?_)
  match a with
  | ⟨0, _⟩ => show win40_2.index t (0 : Fin 2) * 256 + 1 * j.val = j.val; rw [e0]; omega
  | ⟨1, _⟩ => show win40_2.index t (1 : Fin 2) * 256 + 1 * q.val = q.val; rw [e1]; omega

/-- Input window 3's block at every point: its whole matrix. -/
theorem iblk40_3_apply (c : Dev nD) (t : Fin cfg40.N) (j q : Fin 256) :
    (iblk40 V c 3 t : Vec Ideal S256x256 .f32) (ix2 j q) = (V c (Pipeline.arrRef spec40 3) : Mat 256 256) (ix2 j q) := by
  obtain ⟨-, -, -, -, -, -, -, -, e0, e1, -⟩ := idx_facts40 t
  unfold iblk40
  rw [View.read_apply]
  show V c (Pipeline.arrRef spec40 3) (((cfg40.win 3).blk t).view.emb (ix2 j q)) = V c (Pipeline.arrRef spec40 3) (ix2 j q)
  refine congrArg _ (funext fun a => Fin.ext ?_)
  match a with
  | ⟨0, _⟩ => show win40_3.index t (0 : Fin 2) * 256 + 1 * j.val = j.val; rw [e0]; omega
  | ⟨1, _⟩ => show win40_3.index t (1 : Fin 2) * 256 + 1 * q.val = q.val; rw [e1]; omega

/-- Input window 4's block at every point: its whole bias row. -/
theorem iblk40_4_apply (c : Dev nD) (t : Fin cfg40.N) (q : Fin 256) :
    (iblk40 V c 4 t : Vec Ideal S1x256 .f32) (ix2 0 q) = (V c (Pipeline.arrRef spec40 4) : Mat 1 256) (ix2 0 q) := by
  obtain ⟨-, -, -, -, -, -, -, -, -, -, e0, e1, -⟩ := idx_facts40 t
  unfold iblk40
  rw [View.read_apply]
  show V c (Pipeline.arrRef spec40 4) (((cfg40.win 4).blk t).view.emb (ix2 0 q)) = V c (Pipeline.arrRef spec40 4) (ix2 0 q)
  refine congrArg _ (funext fun a => Fin.ext ?_)
  match a with
  | ⟨0, _⟩ => show win40_4.index t (0 : Fin 2) * 1 + 1 * (0 : Fin 1).val = (0 : Fin 1).val; rw [e0]; rfl
  | ⟨1, _⟩ => show win40_4.index t (1 : Fin 2) * 256 + 1 * q.val = q.val; rw [e1]; omega

set_option maxHeartbeats 1000000 in
/-- WHAT POINT `t` WRITES BACK is block `t` of the pooled array of the region's input arrays as it finds them. -/
theorem flushed40_eq (c : Dev nD) (t : Fin cfg40.N) :
    (dat40 V c).flushed 5 t = ((cfg40.win 5).blk t).view.read (Elt Ideal)
      (pool40 (V c (Pipeline.arrRef spec40 0)) (V c (Pipeline.arrRef spec40 1)) (V c (Pipeline.arrRef spec40 2))
        (V c (Pipeline.arrRef spec40 3)) (V c (Pipeline.arrRef spec40 4))) := by
  show (cfg40.win 5).cut (grid40.coords t) ((dat40 V c).after 5 t) = _
  rw [after40_5]
  unfold out40
  rw [View.canon_unit_zero hz40_2]
  simp only [View.ld_unit_zero (S := S8x128x256) hz40_3, View.ld_unit_zero (S := S256x256) hz40_2, View.ld_unit_zero (S := S1x256) hz40_2]
  obtain ⟨-, -, -, -, -, -, -, -, -, -, -, -, e0, e1⟩ := idx_facts40 t
  funext y
  show k40_pay1 (F := Ideal) (iblk40 V c 0 t) (iblk40 V c 1 t) (iblk40 V c 2 t) (iblk40 V c 3 t) (iblk40 V c 4 t)
        ((cfg40.win 5).xinj (grid40.coords t) y)
      = pool40 (V c (Pipeline.arrRef spec40 0)) (V c (Pipeline.arrRef spec40 1)) (V c (Pipeline.arrRef spec40 2))
        (V c (Pipeline.arrRef spec40 3)) (V c (Pipeline.arrRef spec40 4)) (((cfg40.win 5).blk t).view.emb y)
  refine blk40_apply_at (V c (Pipeline.arrRef spec40 0)) (V c (Pipeline.arrRef spec40 1)) (V c (Pipeline.arrRef spec40 2))
    (V c (Pipeline.arrRef spec40 3)) (V c (Pipeline.arrRef spec40 4))
    (iblk40 V c 0 t) (iblk40 V c 1 t) (iblk40 V c 2 t) (iblk40 V c 3 t) (iblk40 V c 4 t) t
    (iblk40_0_apply V c t) (iblk40_1_apply V c t) (iblk40_2_apply V c t) (iblk40_3_apply V c t) (iblk40_4_apply V c t)
    ((cfg40.win 5).xinj (grid40.coords t) y) (((cfg40.win 5).blk t).view.emb y) ?_ ?_
  · show win40_5.index t (0 : Fin 2) * 8 + 1 * (y 0).val = t.val * 8 + (y 0).val; rw [e0]; omega
  · show win40_5.index t (1 : Fin 2) * 256 + 1 * (y 1).val = (y 1).val; rw [e1]; omega

/-- An index of the output array is in point `t`'s block iff each coordinate is in the block's range on its axis. -/
theorem mem_blk40 (t : Fin cfg40.N) (i : S256x256.Idx) :
    i ∈ ((cfg40.win 5).blk t).view.set ↔ ∀ a : Fin 2, win40_5.index t a * S8x256.size a ≤ (i a).val
      ∧ (i a).val < win40_5.index t a * S8x256.size a + S8x256.size a := by
  show i ∈ ((View.whole main_v381).slice (win40_5.rect t)).set ↔ _
  rw [View.set_slice_whole, Rect.mem_set_unit]
  exact Iff.rfl

/-- THE BLOCKS COVER THE ARRAY: batch `b` is written back by point `b / 8`. -/
theorem covered40 (i : S256x256.Idx) :
    ∃ t : Fin cfg40.N, (cfg40.win 5).flush t = true ∧ i ∈ ((cfg40.win 5).blk t).view.set := by
  have hi0 : (i 0).val < 256 := (i 0).isLt
  have hi1 : (i 1).val < 256 := (i 1).isLt
  obtain ⟨t, ht⟩ : ∃ t : Fin cfg40.N, t.val = (i 0).val / 8 :=
    ⟨⟨(i 0).val / 8, by rw [show cfg40.N = 32 from N_40]; omega⟩, rfl⟩
  obtain ⟨-, -, -, -, -, -, -, -, -, -, -, -, e0, e1⟩ := idx_facts40 t
  refine ⟨t, flush40_5 t, ?_⟩
  rw [mem_blk40]
  intro a
  match a with
  | ⟨0, _⟩ =>
    show win40_5.index t (0 : Fin 2) * 8 ≤ (i 0).val ∧ (i 0).val < win40_5.index t (0 : Fin 2) * 8 + 8
    rw [e0, ht]; omega
  | ⟨1, _⟩ =>
    show win40_5.index t (1 : Fin 2) * 256 ≤ (i 1).val ∧ (i 1).val < win40_5.index t (1 : Fin 2) * 256 + 256
    rw [e1]; omega

/-- THE OUTPUT ARRAY AFTER THE REGION is the pooled array of the region's five input arrays as it finds them. -/
theorem arrAt40 (c : Dev nD) :
    (dat40 V c).arrAt 5 cfg40.N
      = pool40 (V c (Pipeline.arrRef spec40 0)) (V c (Pipeline.arrRef spec40 1)) (V c (Pipeline.arrRef spec40 2))
          (V c (Pipeline.arrRef spec40 3)) (V c (Pipeline.arrRef spec40 4)) :=
  (dat40 V c).arrAt_eq_of_cover 5
    (pool40 (V c (Pipeline.arrRef spec40 0)) (V c (Pipeline.arrRef spec40 1)) (V c (Pipeline.arrRef spec40 2))
      (V c (Pipeline.arrRef spec40 3)) (V c (Pipeline.arrRef spec40 4)))
    (fun t _ => flushed40_eq V c t) covered40

end Region

end Cert.KernelIdeal.Val

end
-- ==== Proof.KI.ValPool41.lean ====
/- Region 41, the gated pooling over the 256 rows of each batch, read as one function of the region's input arrays.
   The body at a grid point holds 8 batches X, X0 : [8, 256, 256], two matrices Wp, Wp' : [256, 256] and a bias row
   [1, 256]; viewing the two blocks as 2048 rows it forms the gate logistic (X · Wp + X0 · Wp' + bias) and stores, per
   batch and column, the sum over the batch's 256 rows of gate times X. First the body's value at an entry, over blocks
   that are variables; then the block each of the 32 grid points writes back as the block of ONE array `pool41` of the
   five input arrays; then the blocks cover the output array, so it ends holding `pool41`. -/
import proofs.«101828_j11562051961417_2_alg».proof.Proof.KI.Region41
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Reg Cert.Spec
open Idealize.ShloMosaic Idealize.ShloMosaic.TcCoe Idealize.ShloMosaic.ValueIdx Idealize.SL.Sem
open Idealize.ShloMosaic.Pipeline (Dat)

/-! ## The body's value at an entry -/

/-- Row `p * 256 + r` of the block viewed as 2048 rows: row `r` of batch `p`. -/
abbrev row41 (p : Fin 8) (r : Fin 256) : Fin 2048 := ⟨p.val * 256 + r.val, by omega⟩

/-- The block viewed as 2048 rows, at row `p * 256 + r`: the block at batch `p`, row `r`. -/
theorem flat41_apply (x : Vec Ideal S8x256x256 .f32) (h : S8x256x256.ShapeCasts S2048x256) (p : Fin 8) (r : Fin 256) (q : Fin 256) :
    shapeCast S2048x256 x h (ix2 (row41 p r) q) = x (ix3 p r q) := by
  refine shapeCast_apply x h _ _ ?_
  rw [Shape.rowMajor_val_three, Shape.rowMajor_val_two]
  rfl

/-- A 2048-row value viewed back as 8 batches of 256 rows, at batch `p`, row `r`: its row `p * 256 + r`. -/
theorem unflat41_apply (y : FVec Ideal S2048x256 .f32) (h : S2048x256.ShapeCasts S8x256x256) (p : Fin 8) (r : Fin 256) (q : Fin 256) :
    shapeCast S8x256x256 y h (ix3 p r q) = y (ix2 (row41 p r) q) := by
  refine shapeCast_apply y h _ _ ?_
  rw [Shape.rowMajor_val_three, Shape.rowMajor_val_two]
  rfl

/-- The product's operand indices at output entry `i` and inner coordinate `k`: the left operand is read at (row of `i`, `k`),
    the right one at (`k`, column of `i`). -/
theorem lhs41_0 (i : S2048x256.Idx) (k : dot_S2048x256_S256x256_S2048x256_1_0_0_1_n_n.contr.Idx) :
    (dot_S2048x256_S256x256_S2048x256_1_0_0_1_n_n.lhsIdx i k 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs41_1 (i : S2048x256.Idx) (k : dot_S2048x256_S256x256_S2048x256_1_0_0_1_n_n.contr.Idx) :
    (dot_S2048x256_S256x256_S2048x256_1_0_0_1_n_n.lhsIdx i k 1).val = (k ⟨0, by decide⟩).val :=
  dot_S2048x256_S256x256_S2048x256_1_0_0_1_n_n.lhsIdx_val_of_single rfl i k
theorem rhs41_0 (i : S2048x256.Idx) (k : dot_S2048x256_S256x256_S2048x256_1_0_0_1_n_n.contr.Idx) :
    (dot_S2048x256_S256x256_S2048x256_1_0_0_1_n_n.rhsIdx i k 0).val = (k ⟨0, by decide⟩).val :=
  dot_S2048x256_S256x256_S2048x256_1_0_0_1_n_n.rhsIdx_val_of_single rfl i k
theorem rhs41_1 (i : S2048x256.Idx) (k : dot_S2048x256_S256x256_S2048x256_1_0_0_1_n_n.contr.Idx) :
    (dot_S2048x256_S256x256_S2048x256_1_0_0_1_n_n.rhsIdx i k 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The product of a 2048-row block with a 256 × 256 matrix, accumulated from zero, at an entry: the sum over the 256 inner
    coordinates. -/
theorem matmul41_apply {φ₁ φ₂ : FTy} (a : FVec Ideal S2048x256 φ₁) (w : FVec Ideal S256x256 φ₂) (m : Fin 2048) (q : Fin 256) :
    matmul dot_S2048x256_S256x256_S2048x256_1_0_0_1_n_n none a w (constant (F := Ideal) S2048x256 .f32 0x00000000#32) (ix2 m q)
      = ∑ j : Fin 256, a (ix2 m j) * w (ix2 j q) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 m q) ((ValueIdx.contrEquiv1 dot_S2048x256_S256x256_S2048x256_1_0_0_1_n_n 256 rfl rfl).symm k) = ix2 m k := funext fun d => Fin.ext (by
    match d with
    | ⟨0, _⟩ => exact lhs41_0 _ _
    | ⟨1, _⟩ => exact (lhs41_1 _ _).trans hk)
  have er : dot_S2048x256_S256x256_S2048x256_1_0_0_1_n_n.rhsIdx (ix2 m q) ((ValueIdx.contrEquiv1 dot_S2048x256_S256x256_S2048x256_1_0_0_1_n_n 256 rfl rfl).symm k) = ix2 k q := funext fun d => Fin.ext (by
    match d with
    | ⟨0, _⟩ => exact (rhs41_0 _ _).trans hk
    | ⟨1, _⟩ => exact rhs41_1 _ _)
  rw [el, er]

/-- The sum over the 256 rows of a batch. -/
theorem rowsum41_apply (v : FVec Ideal S8x256x256 .f32) (h : S8x256x256.Reduces [1] S8x256) (hφ : FKind.Formats .f32)
    (hacc : (0x00000000#32 : BitVec 32) = FKind.add.neutral .f32 hφ) (p : Fin 8) (q : Fin 256) :
    multiReduction .add [1] S8x256 v 0x00000000#32 h hφ hacc (ix2 p q) = ∑ r : Fin 256, v (ix3 p r q) := by
  refine (Ideal.multiReduction_add_single v _ h hφ hacc (ix2 p q)).trans ?_
  refine Finset.sum_congr rfl fun r _ => congrArg v ?_
  funext d
  match d with
  | ⟨0, _⟩ => rfl
  | ⟨1, _⟩ => rfl
  | ⟨2, _⟩ => rfl

/-- The bias row spread over the 2048 rows. -/
theorem bias41_apply (b : FVec Ideal S1x256 .f32) (h : S1x256.Broadcasts S2048x256) (m : Fin 2048) (q : Fin 256) :
    broadcastTo S2048x256 b h (ix2 m q) = b (ix2 0 q) := by
  refine broadcastTo_apply b h _ _ fun a => ?_
  match a with
  | ⟨0, _⟩ => rfl
  | ⟨1, _⟩ => rfl

/-- The logistic of a block, entry by entry. -/
theorem logistic41_apply (a : FVec Ideal S2048x256 .f32) (i : S2048x256.Idx) : logistic a i = Ideal.logistic (a i) := rfl

/-- THE BODY'S VALUE AT AN ENTRY: batch `p`, column `q` of the stored block is the sum over the batch's 256 rows of the
    gate (the logistic of the two products plus the bias) times the first block's entry. The two narrowings to bf16 are
    the identity on extended reals. -/
theorem pay41_apply (x0 x1 : Vec Ideal S8x256x256 .f32) (x2 x3 : Vec Ideal S256x256 .f32) (x4 : Vec Ideal S1x256 .f32)
    (p : Fin 8) (q : Fin 256) :
    k41_pay1 (F := Ideal) x0 x1 x2 x3 x4 (ix2 p q)
      = ∑ r : Fin 256, Ideal.logistic ((∑ j : Fin 256, x0 (ix3 p r j) * x2 (ix2 j q)) + (∑ j : Fin 256, x1 (ix3 p r j) * x3 (ix2 j q))
          + x4 (ix2 0 q)) * x0 (ix3 p r q) := by
  unfold k41_pay1
  refine (rowsum41_apply _ _ _ _ p q).trans (Finset.sum_congr rfl fun r _ => ?_)
  refine (unflat41_apply _ _ p r q).trans ?_
  refine (mulf_apply _ _ _).trans ?_
  refine congrArg₂ (· * ·) ?_ ?_
  · refine (logistic41_apply _ _).trans (congrArg Ideal.logistic ?_)
    refine (addf_apply _ _ _).trans (congrArg₂ (· + ·) ?_ ?_)
    · refine (addf_apply _ _ _).trans (congrArg₂ (· + ·) ?_ ?_)
      · refine (matmul41_apply _ _ (row41 p r) q).trans (Finset.sum_congr rfl fun j _ => congrArg₂ (· * ·) ?_ rfl)
        refine (truncf_apply (φ := .f32) (ψ := .bf16) _ _ _).trans ?_
        rw [shapeCast_self]
        exact flat41_apply x0 _ p r j
      · refine (matmul41_apply _ _ (row41 p r) q).trans (Finset.sum_congr rfl fun j _ => congrArg₂ (· * ·) ?_ rfl)
        refine (truncf_apply (φ := .f32) (ψ := .bf16) _ _ _).trans ?_
        rw [shapeCast_self]
        exact flat41_apply x1 _ p r j
    · rw [shapeCast_self]
      exact bias41_apply x4 _ (row41 p r) q
  · rw [shapeCast_self]
    exact flat41_apply x0 _ p r q

/-! ## The whole array: the gated row sums of every batch -/

/-- THE POOLED ARRAY. Entry (b, c) is the sum over the 256 rows r of batch b of the gate at (b, r, c), the logistic of
    `(X · Wp)(b, r, c) + (X0 · Wp')(b, r, c) + bias(c)` with each product a sum over the 256 inner coordinates, times
    `X (b, r, c)`. -/
def pool41 (X X0 : Mat3 256 256 256) (Wp Wp' : Mat 256 256) (b : Mat 1 256) : Mat 256 256 :=
  fun i => ∑ r : Fin 256, Ideal.logistic ((∑ j : Fin 256, X (ix3 (i 0) r j) * Wp (ix2 j (i 1)))
      + (∑ j : Fin 256, X0 (ix3 (i 0) r j) * Wp' (ix2 j (i 1))) + b (ix2 0 (i 1))) * X (ix3 (i 0) r (i 1))

/-- The grid has 32 points. -/
theorem lt41 (t : Fin cfg41.N) : t.val < 32 :=
  Nat.lt_of_lt_of_eq t.isLt (show cfg41.N = 32 from N_41)

/-- Batch `p` of the block at grid point `t` is batch `8 t + p` of the array. -/
abbrev batch41 (t : Fin cfg41.N) (p : Fin 8) : Fin 256 := ⟨t.val * 8 + p.val, by have := lt41 t; omega⟩

/-- The body's value on blocks that are the arrays' blocks at point `t` (the two batched arrays at batches `8 t …`, the
    two matrices and the bias row whole) is the pooled array's block at `t`. -/
theorem blk41_apply (X X0 : Mat3 256 256 256) (Wp Wp' : Mat 256 256) (b : Mat 1 256)
    (x0 x1 : Vec Ideal S8x256x256 .f32) (x2 x3 : Vec Ideal S256x256 .f32) (x4 : Vec Ideal S1x256 .f32) (t : Fin cfg41.N)
    (h0 : ∀ (p : Fin 8) (r : Fin 256) (q : Fin 256), x0 (ix3 p r q) = X (ix3 (batch41 t p) r q))
    (h1 : ∀ (p : Fin 8) (r : Fin 256) (q : Fin 256), x1 (ix3 p r q) = X0 (ix3 (batch41 t p) r q))
    (h2 : ∀ (j q : Fin 256), x2 (ix2 j q) = Wp (ix2 j q)) (h3 : ∀ (j q : Fin 256), x3 (ix2 j q) = Wp' (ix2 j q))
    (h4 : ∀ q : Fin 256, x4 (ix2 0 q) = b (ix2 0 q)) (p : Fin 8) (q : Fin 256) :
    k41_pay1 (F := Ideal) x0 x1 x2 x3 x4 (ix2 p q) = pool41 X X0 Wp Wp' b (ix2 (batch41 t p) q) := by
  refine (pay41_apply x0 x1 x2 x3 x4 p q).trans ?_
  show _ = ∑ r : Fin 256, Ideal.logistic ((∑ j : Fin 256, X (ix3 (batch41 t p) r j) * Wp (ix2 j q))
      + (∑ j : Fin 256, X0 (ix3 (batch41 t p) r j) * Wp' (ix2 j q)) + b (ix2 0 q)) * X (ix3 (batch41 t p) r q)
  simp only [h0, h1, h2, h3, h4]

/-- The same at any index of the block and the index of the array it sits at. -/
theorem blk41_apply_at (X X0 : Mat3 256 256 256) (Wp Wp' : Mat 256 256) (b : Mat 1 256)
    (x0 x1 : Vec Ideal S8x256x256 .f32) (x2 x3 : Vec Ideal S256x256 .f32) (x4 : Vec Ideal S1x256 .f32) (t : Fin cfg41.N)
    (h0 : ∀ (p : Fin 8) (r : Fin 256) (q : Fin 256), x0 (ix3 p r q) = X (ix3 (batch41 t p) r q))
    (h1 : ∀ (p : Fin 8) (r : Fin 256) (q : Fin 256), x1 (ix3 p r q) = X0 (ix3 (batch41 t p) r q))
    (h2 : ∀ (j q : Fin 256), x2 (ix2 j q) = Wp (ix2 j q)) (h3 : ∀ (j q : Fin 256), x3 (ix2 j q) = Wp' (ix2 j q))
    (h4 : ∀ q : Fin 256, x4 (ix2 0 q) = b (ix2 0 q)) (y : S8x256.Idx) (i : S256x256.Idx)
    (hi0 : (i 0).val = t.val * 8 + (y 0).val) (hi1 : (i 1).val = (y 1).val) :
    k41_pay1 (F := Ideal) x0 x1 x2 x3 x4 y = pool41 X X0 Wp Wp' b i := by
  obtain ⟨p, q, rfl⟩ : ∃ (p : Fin 8) (q : Fin 256), y = ix2 p q := ⟨y 0, y 1, eq_ix2 y⟩
  obtain ⟨a, d, rfl⟩ : ∃ (a : Fin 256) (d : Fin 256), i = ix2 a d := ⟨i 0, i 1, eq_ix2 i⟩
  have ha : a = batch41 t p := Fin.ext hi0
  have hd : d = q := Fin.ext hi1
  rw [ha, hd]
  exact blk41_apply X X0 Wp Wp' b x0 x1 x2 x3 x4 t h0 h1 h2 h3 h4 p q

/-- The pooled array at an entry, written out. -/
theorem pool41_apply (X X0 : Mat3 256 256 256) (Wp Wp' : Mat 256 256) (b : Mat 1 256) (i : (⟨2, ![256, 256]⟩ : Shape).Idx) :
    pool41 X X0 Wp Wp' b i = ∑ r : Fin 256, Ideal.logistic ((∑ j : Fin 256, X (ix3 (i 0) r j) * Wp (ix2 j (i 1)))
      + (∑ j : Fin 256, X0 (ix3 (i 0) r j) * Wp' (ix2 j (i 1))) + b (ix2 0 (i 1))) * X (ix3 (i 0) r (i 1)) := rfl

section Region
variable (V : (c : Dev nD) → (b : Ref sig .tc) → Buf (Elt Ideal) ((c : Thread nD τ).loc b))

theorem hz41_2 : (![0, 0] : Fin 2 → Nat) = fun _ => 0 := funext fun a => by fin_cases a <;> rfl
theorem hz41_3 : (![0, 0, 0] : Fin 3 → Nat) = fun _ => 0 := funext fun a => by fin_cases a <;> rfl

/-- The blocks' index maps at each of the 32 grid points: the two batched arrays and the output move with the point along
    their first axis and stay at block 0 on the others; the two matrices and the bias row stay at block 0. -/
theorem idx_facts41 : ∀ t : Fin cfg41.N,
    win41_0.index t (0 : Fin 3) = t.val ∧ win41_0.index t (1 : Fin 3) = 0 ∧ win41_0.index t (2 : Fin 3) = 0
    ∧ win41_1.index t (0 : Fin 3) = t.val ∧ win41_1.index t (1 : Fin 3) = 0 ∧ win41_1.index t (2 : Fin 3) = 0
    ∧ win41_2.index t (0 : Fin 2) = 0 ∧ win41_2.index t (1 : Fin 2) = 0
    ∧ win41_3.index t (0 : Fin 2) = 0 ∧ win41_3.index t (1 : Fin 2) = 0
    ∧ win41_4.index t (0 : Fin 2) = 0 ∧ win41_4.index t (1 : Fin 2) = 0
    ∧ win41_5.index t (0 : Fin 2) = t.val ∧ win41_5.index t (1 : Fin 2) = 0 :=
  (by decide +kernel : ∀ t : Fin grid41.N, _)

/-- Input window 0's block at point `t`: batches `8 t …` of its array. -/
theorem iblk41_0_apply (c : Dev nD) (t : Fin cfg41.N) (p : Fin 8) (r : Fin 256) (q : Fin 256) :
    (iblk41 V c 0 t : Vec Ideal S8x256x256 .f32) (ix3 p r q)
      = (V c (Pipeline.arrRef spec41 0) : Mat3 256 256 256) (ix3 (batch41 t p) r q) := by
  obtain ⟨e0, e1, e2, -⟩ := idx_facts41 t
  unfold iblk41
  rw [View.read_apply]
  show V c (Pipeline.arrRef spec41 0) (((cfg41.win 0).blk t).view.emb (ix3 p r q)) = V c (Pipeline.arrRef spec41 0) (ix3 (batch41 t p) r q)
  refine congrArg _ (funext fun a => Fin.ext ?_)
  match a with
  | ⟨0, _⟩ => show win41_0.index t (0 : Fin 3) * 8 + 1 * p.val = t.val * 8 + p.val; rw [e0]; omega
  | ⟨1, _⟩ => show win41_0.index t (1 : Fin 3) * 256 + 1 * r.val = r.val; rw [e1]; omega
  | ⟨2, _⟩ => show win41_0.index t (2 : Fin 3) * 256 + 1 * q.val = q.val; rw [e2]; omega

/-- Input window 1's block at point `t`: batches `8 t …` of its array. -/
theorem iblk41_1_apply (c : Dev nD) (t : Fin cfg41.N) (p : Fin 8) (r : Fin 256) (q : Fin 256) :
    (iblk41 V c 1 t : Vec Ideal S8x256x256 .f32) (ix3 p r q)
      = (V c (Pipeline.arrRef spec41 1) : Mat3 256 256 256) (ix3 (batch41 t p) r q) := by
  obtain ⟨-, -, -, e0, e1, e2, -⟩ := idx_facts41 t
  unfold iblk41
  rw [View.read_apply]
  show V c (Pipeline.arrRef spec41 1) (((cfg41.win 1).blk t).view.emb (ix3 p r q)) = V c (Pipeline.arrRef spec41 1) (ix3 (batch41 t p) r q)
  refine congrArg _ (funext fun a => Fin.ext ?_)
  match a with
  | ⟨0, _⟩ => show win41_1.index t (0 : Fin 3) * 8 + 1 * p.val = t.val * 8 + p.val; rw [e0]; omega
  | ⟨1, _⟩ => show win41_1.index t (1 : Fin 3) * 256 + 1 * r.val = r.val; rw [e1]; omega
  | ⟨2, _⟩ => show win41_1.index t (2 : Fin 3) * 256 + 1 * q.val = q.val; rw [e2]; omega

/-- Input window 2's block at every point: its whole matrix. -/
theorem iblk41_2_apply (c : Dev nD) (t : Fin cfg41.N) (j q : Fin 256) :
    (iblk41 V c 2 t : Vec Ideal S256x256 .f32) (ix2 j q) = (V c (Pipeline.arrRef spec41 2) : Mat 256 256) (ix2 j q) := by
  obtain ⟨-, -, -, -, -, -, e0, e1, -⟩ := idx_facts41 t
  unfold iblk41
  rw [View.read_apply]
  show V c (Pipeline.arrRef spec41 2) (((cfg41.win 2).blk t).view.emb (ix2 j q)) = V c (Pipeline.arrRef spec41 2) (ix2 j q)
  refine congrArg _ (funext fun a => Fin.ext ?_)
  match a with
  | ⟨0, _⟩ => show win41_2.index t (0 : Fin 2) * 256 + 1 * j.val = j.val; rw [e0]; omega
  | ⟨1, _⟩ => show win41_2.index t (1 : Fin 2) * 256 + 1 * q.val = q.val; rw [e1]; omega

/-- Input window 3's block at every point: its whole matrix. -/
theorem iblk41_3_apply (c : Dev nD) (t : Fin cfg41.N) (j q : Fin 256) :
    (iblk41 V c 3 t : Vec Ideal S256x256 .f32) (ix2 j q) = (V c (Pipeline.arrRef spec41 3) : Mat 256 256) (ix2 j q) := by
  obtain ⟨-, -, -, -, -, -, -, -, e0, e1, -⟩ := idx_facts41 t
  unfold iblk41
  rw [View.read_apply]
  show V c (Pipeline.arrRef spec41 3) (((cfg41.win 3).blk t).view.emb (ix2 j q)) = V c (Pipeline.arrRef spec41 3) (ix2 j q)
  refine congrArg _ (funext fun a => Fin.ext ?_)
  match a with
  | ⟨0, _⟩ => show win41_3.index t (0 : Fin 2) * 256 + 1 * j.val = j.val; rw [e0]; omega
  | ⟨1, _⟩ => show win41_3.index t (1 : Fin 2) * 256 + 1 * q.val = q.val; rw [e1]; omega

/-- Input window 4's block at every point: its whole bias row. -/
theorem iblk41_4_apply (c : Dev nD) (t : Fin cfg41.N) (q : Fin 256) :
    (iblk41 V c 4 t : Vec Ideal S1x256 .f32) (ix2 0 q) = (V c (Pipeline.arrRef spec41 4) : Mat 1 256) (ix2 0 q) := by
  obtain ⟨-, -, -, -, -, -, -, -, -, -, e0, e1, -⟩ := idx_facts41 t
  unfold iblk41
  rw [View.read_apply]
  show V c (Pipeline.arrRef spec41 4) (((cfg41.win 4).blk t).view.emb (ix2 0 q)) = V c (Pipeline.arrRef spec41 4) (ix2 0 q)
  refine congrArg _ (funext fun a => Fin.ext ?_)
  match a with
  | ⟨0, _⟩ => show win41_4.index t (0 : Fin 2) * 1 + 1 * (0 : Fin 1).val = (0 : Fin 1).val; rw [e0]; rfl
  | ⟨1, _⟩ => show win41_4.index t (1 : Fin 2) * 256 + 1 * q.val = q.val; rw [e1]; omega

set_option maxHeartbeats 1000000 in
/-- WHAT POINT `t` WRITES BACK is block `t` of the pooled array of the region's input arrays as it finds them. -/
theorem flushed41_eq (c : Dev nD) (t : Fin cfg41.N) :
    (dat41 V c).flushed 5 t = ((cfg41.win 5).blk t).view.read (Elt Ideal)
      (pool41 (V c (Pipeline.arrRef spec41 0)) (V c (Pipeline.arrRef spec41 1)) (V c (Pipeline.arrRef spec41 2))
        (V c (Pipeline.arrRef spec41 3)) (V c (Pipeline.arrRef spec41 4))) := by
  show (cfg41.win 5).cut (grid41.coords t) ((dat41 V c).after 5 t) = _
  rw [after41_5]
  unfold out41
  rw [View.canon_unit_zero hz41_2]
  simp only [View.ld_unit_zero (S := S8x256x256) hz41_3, View.ld_unit_zero (S := S256x256) hz41_2, View.ld_unit_zero (S := S1x256) hz41_2]
  obtain ⟨-, -, -, -, -, -, -, -, -, -, -, -, e0, e1⟩ := idx_facts41 t
  funext y
  show k41_pay1 (F := Ideal) (iblk41 V c 0 t) (iblk41 V c 1 t) (iblk41 V c 2 t) (iblk41 V c 3 t) (iblk41 V c 4 t)
        ((cfg41.win 5).xinj (grid41.coords t) y)
      = pool41 (V c (Pipeline.arrRef spec41 0)) (V c (Pipeline.arrRef spec41 1)) (V c (Pipeline.arrRef spec41 2))
        (V c (Pipeline.arrRef spec41 3)) (V c (Pipeline.arrRef spec41 4)) (((cfg41.win 5).blk t).view.emb y)
  refine blk41_apply_at (V c (Pipeline.arrRef spec41 0)) (V c (Pipeline.arrRef spec41 1)) (V c (Pipeline.arrRef spec41 2))
    (V c (Pipeline.arrRef spec41 3)) (V c (Pipeline.arrRef spec41 4))
    (iblk41 V c 0 t) (iblk41 V c 1 t) (iblk41 V c 2 t) (iblk41 V c 3 t) (iblk41 V c 4 t) t
    (iblk41_0_apply V c t) (iblk41_1_apply V c t) (iblk41_2_apply V c t) (iblk41_3_apply V c t) (iblk41_4_apply V c t)
    ((cfg41.win 5).xinj (grid41.coords t) y) (((cfg41.win 5).blk t).view.emb y) ?_ ?_
  · show win41_5.index t (0 : Fin 2) * 8 + 1 * (y 0).val = t.val * 8 + (y 0).val; rw [e0]; omega
  · show win41_5.index t (1 : Fin 2) * 256 + 1 * (y 1).val = (y 1).val; rw [e1]; omega

/-- An index of the output array is in point `t`'s block iff each coordinate is in the block's range on its axis. -/
theorem mem_blk41 (t : Fin cfg41.N) (i : S256x256.Idx) :
    i ∈ ((cfg41.win 5).blk t).view.set ↔ ∀ a : Fin 2, win41_5.index t a * S8x256.size a ≤ (i a).val
      ∧ (i a).val < win41_5.index t a * S8x256.size a + S8x256.size a := by
  show i ∈ ((View.whole main_v385).slice (win41_5.rect t)).set ↔ _
  rw [View.set_slice_whole, Rect.mem_set_unit]
  exact Iff.rfl

/-- THE BLOCKS COVER THE ARRAY: batch `b` is written back by point `b / 8`. -/
theorem covered41 (i : S256x256.Idx) :
    ∃ t : Fin cfg41.N, (cfg41.win 5).flush t = true ∧ i ∈ ((cfg41.win 5).blk t).view.set := by
  have hi0 : (i 0).val < 256 := (i 0).isLt
  have hi1 : (i 1).val < 256 := (i 1).isLt
  obtain ⟨t, ht⟩ : ∃ t : Fin cfg41.N, t.val = (i 0).val / 8 :=
    ⟨⟨(i 0).val / 8, by rw [show cfg41.N = 32 from N_41]; omega⟩, rfl⟩
  obtain ⟨-, -, -, -, -, -, -, -, -, -, -, -, e0, e1⟩ := idx_facts41 t
  refine ⟨t, flush41_5 t, ?_⟩
  rw [mem_blk41]
  intro a
  match a with
  | ⟨0, _⟩ =>
    show win41_5.index t (0 : Fin 2) * 8 ≤ (i 0).val ∧ (i 0).val < win41_5.index t (0 : Fin 2) * 8 + 8
    rw [e0, ht]; omega
  | ⟨1, _⟩ =>
    show win41_5.index t (1 : Fin 2) * 256 ≤ (i 1).val ∧ (i 1).val < win41_5.index t (1 : Fin 2) * 256 + 256
    rw [e1]; omega

/-- THE OUTPUT ARRAY AFTER THE REGION is the pooled array of the region's five input arrays as it finds them. -/
theorem arrAt41 (c : Dev nD) :
    (dat41 V c).arrAt 5 cfg41.N
      = pool41 (V c (Pipeline.arrRef spec41 0)) (V c (Pipeline.arrRef spec41 1)) (V c (Pipeline.arrRef spec41 2))
          (V c (Pipeline.arrRef spec41 3)) (V c (Pipeline.arrRef spec41 4)) :=
  (dat41 V c).arrAt_eq_of_cover 5
    (pool41 (V c (Pipeline.arrRef spec41 0)) (V c (Pipeline.arrRef spec41 1)) (V c (Pipeline.arrRef spec41 2))
      (V c (Pipeline.arrRef spec41 3)) (V c (Pipeline.arrRef spec41 4)))
    (fun t _ => flushed41_eq V c t) covered41

end Region

end Cert.KernelIdeal.Val

end
-- ==== Proof.KI.ValPool42.lean ====
/- Region 42, the gated pooling over the 64 rows of each batch, read as one function of the region's input arrays.
   The body at a grid point holds 8 batches X, X0 : [8, 64, 256], two matrices Wp, Wp' : [256, 256] and a bias row
   [1, 256]; viewing the two blocks as 512 rows it forms the gate logistic (X · Wp + X0 · Wp' + bias) and stores, per
   batch and column, the sum over the batch's 64 rows of gate times X. First the body's value at an entry, over blocks
   that are variables; then the block each of the 32 grid points writes back as the block of ONE array `pool42` of the
   five input arrays; then the blocks cover the output array, so it ends holding `pool42`. -/
import proofs.«101828_j11562051961417_2_alg».proof.Proof.KI.Region42
import proofs.«101828_j11562051961417_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Reg Cert.Spec
open Idealize.ShloMosaic Idealize.ShloMosaic.TcCoe Idealize.ShloMosaic.ValueIdx Idealize.SL.Sem
open Idealize.ShloMosaic.Pipeline (Dat)

/-! ## The body's value at an entry -/

/-- Row `p * 64 + r` of the block viewed as 512 rows: row `r` of batch `p`. -/
abbrev row42 (p : Fin 8) (r : Fin 64) : Fin 512 := ⟨p.val * 64 + r.val, by omega⟩

/-- The block viewed as 512 rows, at row `p * 64 + r`: the block at batch `p`, row `r`. -/
theorem flat42_apply (x : Vec Ideal S8x64x256 .f32) (h : S8x64x256.ShapeCasts S512x256) (p : Fin 8) (r : Fin 64) (q : Fin 256) :
    shapeCast S512x256 x h (ix2 (row42 p r) q) = x (ix3 p r q) := by
  refine shapeCast_apply x h _ _ ?_
  rw [Shape.rowMajor_val_three, Shape.rowMajor_val_two]
  rfl

/-- A 512-row value viewed back as 8 batches of 64 rows, at batch `p`, row `r`: its row `p * 64 + r`. -/
theorem unflat42_apply (y : FVec Ideal S512x256 .f32) (h : S512x256.ShapeCasts S8x64x256) (p : Fin 8) (r : Fin 64) (q : Fin 256) :
    shapeCast S8x64x256 y h (ix3 p r q) = y (ix2 (row42 p r) q) := by
  refine shapeCast_apply y h _ _ ?_
  rw [Shape.rowMajor_val_three, Shape.rowMajor_val_two]
  rfl

/-- The product's operand indices at output entry `i` and inner coordinate `k`: the left operand is read at (row of `i`, `k`),
    the right one at (`k`, column of `i`). -/
theorem lhs42_0 (i : S512x256.Idx) (k : dot_S512x256_S256x256_S512x256_1_0_0_1_n_n.contr.Idx) :
    (dot_S512x256_S256x256_S512x256_1_0_0_1_n_n.lhsIdx i k 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs42_1 (i : S512x256.Idx) (k : dot_S512x256_S256x256_S512x256_1_0_0_1_n_n.contr.Idx) :
    (dot_S512x256_S256x256_S512x256_1_0_0_1_n_n.lhsIdx i k 1).val = (k ⟨0, by decide⟩).val :=
  dot_S512x256_S256x256_S512x256_1_0_0_1_n_n.lhsIdx_val_of_single rfl i k
theorem rhs42_0 (i : S512x256.Idx) (k : dot_S512x256_S256x256_S512x256_1_0_0_1_n_n.contr.Idx) :
    (dot_S512x256_S256x256_S512x256_1_0_0_1_n_n.rhsIdx i k 0).val = (k ⟨0, by decide⟩).val :=
  dot_S512x256_S256x256_S512x256_1_0_0_1_n_n.rhsIdx_val_of_single rfl i k
theorem rhs42_1 (i : S512x256.Idx) (k : dot_S512x256_S256x256_S512x256_1_0_0_1_n_n.contr.Idx) :
    (dot_S512x256_S256x256_S512x256_1_0_0_1_n_n.rhsIdx i k 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The product of a 512-row block with a 256 × 256 matrix, accumulated from zero, at an entry: the sum over the 256 inner
    coordinates. -/
theorem matmul42_apply {φ₁ φ₂ : FTy} (a : FVec Ideal S512x256 φ₁) (w : FVec Ideal S256x256 φ₂) (m : Fin 512) (q : Fin 256) :
    matmul dot_S512x256_S256x256_S512x256_1_0_0_1_n_n none a w (constant (F := Ideal) S512x256 .f32 0x00000000#32) (ix2 m q)
      = ∑ j : Fin 256, a (ix2 m j) * w (ix2 j q) := by
  simp only [matmul]
  rw [Ideal.matmul_constant_zero_apply, ← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx (ix2 m q) ((ValueIdx.contrEquiv1 dot_S512x256_S256x256_S512x256_1_0_0_1_n_n 256 rfl rfl).symm k) = ix2 m k := funext fun d => Fin.ext (by
    match d with
    | ⟨0, _⟩ => exact lhs42_0 _ _
    | ⟨1, _⟩ => exact (lhs42_1 _ _).trans hk)
  have er : dot_S512x256_S256x256_S512x256_1_0_0_1_n_n.rhsIdx (ix2 m q) ((ValueIdx.contrEquiv1 dot_S512x256_S256x256_S512x256_1_0_0_1_n_n 256 rfl rfl).symm k) = ix2 k q := funext fun d => Fin.ext (by
    match d with
    | ⟨0, _⟩ => exact (rhs42_0 _ _).trans hk
    | ⟨1, _⟩ => exact rhs42_1 _ _)
  rw [el, er]

/-- The sum over the 64 rows of a batch. -/
theorem rowsum42_apply (v : FVec Ideal S8x64x256 .f32) (h : S8x64x256.Reduces [1] S8x256) (hφ : FKind.Formats .f32)
    (hacc : (0x00000000#32 : BitVec 32) = FKind.add.neutral .f32 hφ) (p : Fin 8) (q : Fin 256) :
    multiReduction .add [1] S8x256 v 0x00000000#32 h hφ hacc (ix2 p q) = ∑ r : Fin 64, v (ix3 p r q) := by
  refine (Ideal.multiReduction_add_single v _ h hφ hacc (ix2 p q)).trans ?_
  refine Finset.sum_congr rfl fun r _ => congrArg v ?_
  funext d
  match d with
  | ⟨0, _⟩ => rfl
  | ⟨1, _⟩ => rfl
  | ⟨2, _⟩ => rfl

/-- The bias row spread over the 512 rows. -/
theorem bias42_apply (b : FVec Ideal S1x256 .f32) (h : S1x256.Broadcasts S512x256) (m : Fin 512) (q : Fin 256) :
    broadcastTo S512x256 b h (ix2 m q) = b (ix2 0 q) := by
  refine broadcastTo_apply b h _ _ fun a => ?_
  match a with
  | ⟨0, _⟩ => rfl
  | ⟨1, _⟩ => rfl

/-- The logistic of a block, entry by entry. -/
theorem logistic42_apply (a : FVec Ideal S512x256 .f32) (i : S512x256.Idx) : logistic a i = Ideal.logistic (a i) := rfl

/-- THE BODY'S VALUE AT AN ENTRY: batch `p`, column `q` of the stored block is the sum over the batch's 64 rows of the
    gate (the logistic of the two products plus the bias) times the first block's entry. The two narrowings to bf16 are
    the identity on extended reals. -/
theorem pay42_apply (x0 x1 : Vec Ideal S8x64x256 .f32) (x2 x3 : Vec Ideal S256x256 .f32) (x4 : Vec Ideal S1x256 .f32)
    (p : Fin 8) (q : Fin 256) :
    k42_pay1 (F := Ideal) x0 x1 x2 x3 x4 (ix2 p q)
      = ∑ r : Fin 64, Ideal.logistic ((∑ j : Fin 256, x0 (ix3 p r j) * x2 (ix2 j q)) + (∑ j : Fin 256, x1 (ix3 p r j) * x3 (ix2 j q))
          + x4 (ix2 0 q)) * x0 (ix3 p r q) := by
  unfold k42_pay1
  refine (rowsum42_apply _ _ _ _ p q).trans (Finset.sum_congr rfl fun r _ => ?_)
  refine (unflat42_apply _ _ p r q).trans ?_
  refine (mulf_apply _ _ _).trans ?_
  refine congrArg₂ (· * ·) ?_ ?_
  · refine (logistic42_apply _ _).trans (congrArg Ideal.logistic ?_)
    refine (addf_apply _ _ _).trans (congrArg₂ (· + ·) ?_ ?_)
    · refine (addf_apply _ _ _).trans (congrArg₂ (· + ·) ?_ ?_)
      · refine (matmul42_apply _ _ (row42 p r) q).trans (Finset.sum_congr rfl fun j _ => congrArg₂ (· * ·) ?_ rfl)
        refine (truncf_apply (φ := .f32) (ψ := .bf16) _ _ _).trans ?_
        rw [shapeCast_self]
        exact flat42_apply x0 _ p r j
      · refine (matmul42_apply _ _ (row42 p r) q).trans (Finset.sum_congr rfl fun j _ => congrArg₂ (· * ·) ?_ rfl)
        refine (truncf_apply (φ := .f32) (ψ := .bf16) _ _ _).trans ?_
        rw [shapeCast_self]
        exact flat42_apply x1 _ p r j
    · rw [shapeCast_self]
      exact bias42_apply x4 _ (row42 p r) q
  · rw [shapeCast_self]
    exact flat42_apply x0 _ p r q

/-! ## The whole array: the gated row sums of every batch -/

/-- THE POOLED ARRAY. Entry (b, c) is the sum over the 64 rows r of batch b of the gate at (b, r, c), the logistic of
    `(X · Wp)(b, r, c) + (X0 · Wp')(b, r, c) + bias(c)` with each product a sum over the 256 inner coordinates, times
    `X (b, r, c)`. -/
def pool42 (X X0 : Mat3 256 64 256) (Wp Wp' : Mat 256 256) (b : Mat 1 256) : Mat 256 256 :=
  fun i => ∑ r : Fin 64, Ideal.logistic ((∑ j : Fin 256, X (ix3 (i 0) r j) * Wp (ix2 j (i 1)))
      + (∑ j : Fin 256, X0 (ix3 (i 0) r j) * Wp' (ix2 j (i 1))) + b (ix2 0 (i 1))) * X (ix3 (i 0) r (i 1))

/-- The grid has 32 points. -/
theorem lt42 (t : Fin cfg42.N) : t.val < 32 :=
  Nat.lt_of_lt_of_eq t.isLt (show cfg42.N = 32 from N_42)

/-- Batch `p` of the block at grid point `t` is batch `8 t + p` of the array. -/
abbrev batch42 (t : Fin cfg42.N) (p : Fin 8) : Fin 256 := ⟨t.val * 8 + p.val, by have := lt42 t; omega⟩

/-- The body's value on blocks that are the arrays' blocks at point `t` (the two batched arrays at batches `8 t …`, the
    two matrices and the bias row whole) is the pooled array's block at `t`. -/
theorem blk42_apply (X X0 : Mat3 256 64 256) (Wp Wp' : Mat 256 256) (b : Mat 1 256)
    (x0 x1 : Vec Ideal S8x64x256 .f32) (x2 x3 : Vec Ideal S256x256 .f32) (x4 : Vec Ideal S1x256 .f32) (t : Fin cfg42.N)
    (h0 : ∀ (p : Fin 8) (r : Fin 64) (q : Fin 256), x0 (ix3 p r q) = X (ix3 (batch42 t p) r q))
    (h1 : ∀ (p : Fin 8) (r : Fin 64) (q : Fin 256), x1 (ix3 p r q) = X0 (ix3 (batch42 t p) r q))
    (h2 : ∀ (j q : Fin 256), x2 (ix2 j q) = Wp (ix2 j q)) (h3 : ∀ (j q : Fin 256), x3 (ix2 j q) = Wp' (ix2 j q))
    (h4 : ∀ q : Fin 256, x4 (ix2 0 q) = b (ix2 0 q)) (p : Fin 8) (q : Fin 256) :
    k42_pay1 (F := Ideal) x0 x1 x2 x3 x4 (ix2 p q) = pool42 X X0 Wp Wp' b (ix2 (batch42 t p) q) := by
  refine (pay42_apply x0 x1 x2 x3 x4 p q).trans ?_
  show _ = ∑ r : Fin 64, Ideal.logistic ((∑ j : Fin 256, X (ix3 (batch42 t p) r j) * Wp (ix2 j q))
      + (∑ j : Fin 256, X0 (ix3 (batch42 t p) r j) * Wp' (ix2 j q)) + b (ix2 0 q)) * X (ix3 (batch42 t p) r q)
  simp only [h0, h1, h2, h3, h4]

/-- The same at any index of the block and the index of the array it sits at. -/
theorem blk42_apply_at (X X0 : Mat3 256 64 256) (Wp Wp' : Mat 256 256) (b : Mat 1 256)
    (x0 x1 : Vec Ideal S8x64x256 .f32) (x2 x3 : Vec Ideal S256x256 .f32) (x4 : Vec Ideal S1x256 .f32) (t : Fin cfg42.N)
    (h0 : ∀ (p : Fin 8) (r : Fin 64) (q : Fin 256), x0 (ix3 p r q) = X (ix3 (batch42 t p) r q))
    (h1 : ∀ (p : Fin 8) (r : Fin 64) (q : Fin 256), x1 (ix3 p r q) = X0 (ix3 (batch42 t p) r q))
    (h2 : ∀ (j q : Fin 256), x2 (ix2 j q) = Wp (ix2 j q)) (h3 : ∀ (j q : Fin 256), x3 (ix2 j q) = Wp' (ix2 j q))
    (h4 : ∀ q : Fin 256, x4 (ix2 0 q) = b (ix2 0 q)) (y : S8x256.Idx) (i : S256x256.Idx)
    (hi0 : (i 0).val = t.val * 8 + (y 0).val) (hi1 : (i 1).val = (y 1).val) :
    k42_pay1 (F := Ideal) x0 x1 x2 x3 x4 y = pool42 X X0 Wp Wp' b i := by
  obtain ⟨p, q, rfl⟩ : ∃ (p : Fin 8) (q : Fin 256), y = ix2 p q := ⟨y 0, y 1, eq_ix2 y⟩
  obtain ⟨a, d, rfl⟩ : ∃ (a : Fin 256) (d : Fin 256), i = ix2 a d := ⟨i 0, i 1, eq_ix2 i⟩
  have ha : a = batch42 t p := Fin.ext hi0
  have hd : d = q := Fin.ext hi1
  rw [ha, hd]
  exact blk42_apply X X0 Wp Wp' b x0 x1 x2 x3 x4 t h0 h1 h2 h3 h4 p q

/-- The pooled array at an entry, written out. -/
theorem pool42_apply (X X0 : Mat3 256 64 256) (Wp Wp' : Mat 256 256) (b : Mat 1 256) (i : (⟨2, ![256, 256]⟩ : Shape).Idx) :
    pool42 X X0 Wp Wp' b i = ∑ r : Fin 64, Ideal.logistic ((∑ j : Fin 256, X (ix3 (i 0) r j) * Wp (ix2 j (i 1)))
      + (∑ j : Fin 256, X0 (ix3 (i 0) r j) * Wp' (ix2 j (i 1))) + b (ix2 0 (i 1))) * X (ix3 (i 0) r (i 1)) := rfl

section Region
variable (V : (c : Dev nD) → (b : Ref sig .tc) → Buf (Elt Ideal) ((c : Thread nD τ).loc b))

theorem hz42_2 : (![0, 0] : Fin 2 → Nat) = fun _ => 0 := funext fun a => by fin_cases a <;> rfl
theorem hz42_3 : (![0, 0, 0] : Fin 3 → Nat) = fun _ => 0 := funext fun a => by fin_cases a <;> rfl

/-- The blocks' index maps at each of the 32 grid points: the two batched arrays and the output move with the point along
    their first axis and stay at block 0 on the others; the two matrices and the bias row stay at block 0. -/
theorem idx_facts42 : ∀ t : Fin cfg42.N,
    win42_0.index t (0 : Fin 3) = t.val ∧ win42_0.index t (1 : Fin 3) = 0 ∧ win42_0.index t (2 : Fin 3) = 0
    ∧ win42_1.index t (0 : Fin 3) = t.val ∧ win42_1.index t (1 : Fin 3) = 0 ∧ win42_1.index t (2 : Fin 3) = 0
    ∧ win42_2.index t (0 : Fin 2) = 0 ∧ win42_2.index t (1 : Fin 2) = 0
    ∧ win42_3.index t (0 : Fin 2) = 0 ∧ win42_3.index t (1 : Fin 2) = 0
    ∧ win42_4.index t (0 : Fin 2) = 0 ∧ win42_4.index t (1 : Fin 2) = 0
    ∧ win42_5.index t (0 : Fin 2) = t.val ∧ win42_5.index t (1 : Fin 2) = 0 :=
  (by decide +kernel : ∀ t : Fin grid42.N, _)

/-- Input window 0's block at point `t`: batches `8 t …` of its array. -/
theorem iblk42_0_apply (c : Dev nD) (t : Fin cfg42.N) (p : Fin 8) (r : Fin 64) (q : Fin 256) :
    (iblk42 V c 0 t : Vec Ideal S8x64x256 .f32) (ix3 p r q)
      = (V c (Pipeline.arrRef spec42 0) : Mat3 256 64 256) (ix3 (batch42 t p) r q) := by
  obtain ⟨e0, e1, e2, -⟩ := idx_facts42 t
  unfold iblk42
  rw [View.read_apply]
  show V c (Pipeline.arrRef spec42 0) (((cfg42.win 0).blk t).view.emb (ix3 p r q)) = V c (Pipeline.arrRef spec42 0) (ix3 (batch42 t p) r q)
  refine congrArg _ (funext fun a => Fin.ext ?_)
  match a with
  | ⟨0, _⟩ => show win42_0.index t (0 : Fin 3) * 8 + 1 * p.val = t.val * 8 + p.val; rw [e0]; omega
  | ⟨1, _⟩ => show win42_0.index t (1 : Fin 3) * 64 + 1 * r.val = r.val; rw [e1]; omega
  | ⟨2, _⟩ => show win42_0.index t (2 : Fin 3) * 256 + 1 * q.val = q.val; rw [e2]; omega

/-- Input window 1's block at point `t`: batches `8 t …` of its array. -/
theorem iblk42_1_apply (c : Dev nD) (t : Fin cfg42.N) (p : Fin 8) (r : Fin 64) (q : Fin 256) :
    (iblk42 V c 1 t : Vec Ideal S8x64x256 .f32) (ix3 p r q)
      = (V c (Pipeline.arrRef spec42 1) : Mat3 256 64 256) (ix3 (batch42 t p) r q) := by
  obtain ⟨-, -, -, e0, e1, e2, -⟩ := idx_facts42 t
  unfold iblk42
  rw [View.read_apply]
  show V c (Pipeline.arrRef spec42 1) (((cfg42.win 1).blk t).view.emb (ix3 p r q)) = V c (Pipeline.arrRef spec42 1) (ix3 (batch42 t p) r q)
  refine congrArg _ (funext fun a => Fin.ext ?_)
  match a with
  | ⟨0, _⟩ => show win42_1.index t (0 : Fin 3) * 8 + 1 * p.val = t.val * 8 + p.val; rw [e0]; omega
  | ⟨1, _⟩ => show win42_1.index t (1 : Fin 3) * 64 + 1 * r.val = r.val; rw [e1]; omega
  | ⟨2, _⟩ => show win42_1.index t (2 : Fin 3) * 256 + 1 * q.val = q.val; rw [e2]; omega

/-- Input window 2's block at every point: its whole matrix. -/
theorem iblk42_2_apply (c : Dev nD) (t : Fin cfg42.N) (j q : Fin 256) :
    (iblk42 V c 2 t : Vec Ideal S256x256 .f32) (ix2 j q) = (V c (Pipeline.arrRef spec42 2) : Mat 256 256) (ix2 j q) := by
  obtain ⟨-, -, -, -, -, -, e0, e1, -⟩ := idx_facts42 t
  unfold iblk42
  rw [View.read_apply]
  show V c (Pipeline.arrRef spec42 2) (((cfg42.win 2).blk t).view.emb (ix2 j q)) = V c (Pipeline.arrRef spec42 2) (ix2 j q)
  refine congrArg _ (funext fun a => Fin.ext ?_)
  match a with
  | ⟨0, _⟩ => show win42_2.index t (0 : Fin 2) * 256 + 1 * j.val = j.val; rw [e0]; omega
  | ⟨1, _⟩ => show win42_2.index t (1 : Fin 2) * 256 + 1 * q.val = q.val; rw [e1]; omega

/-- Input window 3's block at every point: its whole matrix. -/
theorem iblk42_3_apply (c : Dev nD) (t : Fin cfg42.N) (j q : Fin 256) :
    (iblk42 V c 3 t : Vec Ideal S256x256 .f32) (ix2 j q) = (V c (Pipeline.arrRef spec42 3) : Mat 256 256) (ix2 j q) := by
  obtain ⟨-, -, -, -, -, -, -, -, e0, e1, -⟩ := idx_facts42 t
  unfold iblk42
  rw [View.read_apply]
  show V c (Pipeline.arrRef spec42 3) (((cfg42.win 3).blk t).view.emb (ix2 j q)) = V c (Pipeline.arrRef spec42 3) (ix2 j q)
  refine congrArg _ (funext fun a => Fin.ext ?_)
  match a with
  | ⟨0, _⟩ => show win42_3.index t (0 : Fin 2) * 256 + 1 * j.val = j.val; rw [e0]; omega
  | ⟨1, _⟩ => show win42_3.index t (1 : Fin 2) * 256 + 1 * q.val = q.val; rw [e1]; omega

/-- Input window 4's block at every point: its whole bias row. -/
theorem iblk42_4_apply (c : Dev nD) (t : Fin cfg42.N) (q : Fin 256) :
    (iblk42 V c 4 t : Vec Ideal S1x256 .f32) (ix2 0 q) = (V c (Pipeline.arrRef spec42 4) : Mat 1 256) (ix2 0 q) := by
  obtain ⟨-, -, -, -, -, -, -, -, -, -, e0, e1, -⟩ := idx_facts42 t
  unfold iblk42
  rw [View.read_apply]
  show V c (Pipeline.arrRef spec42 4) (((cfg42.win 4).blk t).view.emb (ix2 0 q)) = V c (Pipeline.arrRef spec42 4) (ix2 0 q)
  refine congrArg _ (funext fun a => Fin.ext ?_)
  match a with
  | ⟨0, _⟩ => show win42_4.index t (0 : Fin 2) * 1 + 1 * (0 : Fin 1).val = (0 : Fin 1).val; rw [e0]; rfl
  | ⟨1, _⟩ => show win42_4.index t (1 : Fin 2) * 256 + 1 * q.val = q.val; rw [e1]; omega

set_option maxHeartbeats 1000000 in
/-- WHAT POINT `t` WRITES BACK is block `t` of the pooled array of the region's input arrays as it finds them. -/
theorem flushed42_eq (c : Dev nD) (t : Fin cfg42.N) :
    (dat42 V c).flushed 5 t = ((cfg42.win 5).blk t).view.read (Elt Ideal)
      (pool42 (V c (Pipeline.arrRef spec42 0)) (V c (Pipeline.arrRef spec42 1)) (V c (Pipeline.arrRef spec42 2))
        (V c (Pipeline.arrRef spec42 3)) (V c (Pipeline.arrRef spec42 4))) := by
  show (cfg42.win 5).cut (grid42.coords t) ((dat42 V c).after 5 t) = _
  rw [after42_5]
  unfold out42
  rw [View.canon_unit_zero hz42_2]
  simp only [View.ld_unit_zero (S := S8x64x256) hz42_3, View.ld_unit_zero (S := S256x256) hz42_2, View.ld_unit_zero (S := S1x256) hz42_2]
  obtain ⟨-, -, -, -, -, -, -, -, -, -, -, -, e0, e1⟩ := idx_facts42 t
  funext y
  show k42_pay1 (F := Ideal) (iblk42 V c 0 t) (iblk42 V c 1 t) (iblk42 V c 2 t) (iblk42 V c 3 t) (iblk42 V c 4 t)
        ((cfg42.win 5).xinj (grid42.coords t) y)
      = pool42 (V c (Pipeline.arrRef spec42 0)) (V c (Pipeline.arrRef spec42 1)) (V c (Pipeline.arrRef spec42 2))
        (V c (Pipeline.arrRef spec42 3)) (V c (Pipeline.arrRef spec42 4)) (((cfg42.win 5).blk t).view.emb y)
  refine blk42_apply_at (V c (Pipeline.arrRef spec42 0)) (V c (Pipeline.arrRef spec42 1)) (V c (Pipeline.arrRef spec42 2))
    (V c (Pipeline.arrRef spec42 3)) (V c (Pipeline.arrRef spec42 4))
    (iblk42 V c 0 t) (iblk42 V c 1 t) (iblk42 V c 2 t) (iblk42 V c 3 t) (iblk42 V c 4 t) t
    (iblk42_0_apply V c t) (iblk42_1_apply V c t) (iblk42_2_apply V c t) (iblk42_3_apply V c t) (iblk42_4_apply V c t)
    ((cfg42.win 5).xinj (grid42.coords t) y) (((cfg42.win 5).blk t).view.emb y) ?_ ?_
  · show win42_5.index t (0 : Fin 2) * 8 + 1 * (y 0).val = t.val * 8 + (y 0).val; rw [e0]; omega
  · show win42_5.index t (1 : Fin 2) * 256 + 1 * (y 1).val = (y 1).val; rw [e1]; omega

/-- An index of the output array is in point `t`'s block iff each coordinate is in the block's range on its axis. -/
theorem mem_blk42 (t : Fin cfg42.N) (i : S256x256.Idx) :
    i ∈ ((cfg42.win 5).blk t).view.set ↔ ∀ a : Fin 2, win42_5.index t a * S8x256.size a ≤ (i a).val
      ∧ (i a).val < win42_5.index t a * S8x256.size a + S8x256.size a := by
  show i ∈ ((View.whole main_v389).slice (win42_5.rect t)).set ↔ _
  rw [View.set_slice_whole, Rect.mem_set_unit]
  exact Iff.rfl

/-- THE BLOCKS COVER THE ARRAY: batch `b` is written back by point `b / 8`. -/
theorem covered42 (i : S256x256.Idx) :
    ∃ t : Fin cfg42.N, (cfg42.win 5).flush t = true ∧ i ∈ ((cfg42.win 5).blk t).view.set := by
  have hi0 : (i 0).val < 256 := (i 0).isLt
  have hi1 : (i 1).val < 256 := (i 1).isLt
  obtain ⟨t, ht⟩ : ∃ t : Fin cfg42.N, t.val = (i 0).val / 8 :=
    ⟨⟨(i 0).val / 8, by rw [show cfg42.N = 32 from N_42]; omega⟩, rfl⟩
  obtain ⟨-, -, -, -, -, -, -, -, -, -, -, -, e0, e1⟩ := idx_facts42 t
  refine ⟨t, flush42_5 t, ?_⟩
  rw [mem_blk42]
  intro a
  match a with
  | ⟨0, _⟩ =>
    show win42_5.index t (0 : Fin 2) * 8 ≤ (i 0).val ∧ (i 0).val < win42_5.index t (0 : Fin 2) * 8 + 8
    rw [e0, ht]; omega
  | ⟨1, _⟩ =>
    show win42_5.index t (1 : Fin 2) * 256 ≤ (i 1).val ∧ (i 1).val < win42_5.index t (1 : Fin 2) * 256 + 256
    rw [e1]; omega

/-- THE OUTPUT ARRAY AFTER THE REGION is the pooled array of the region's five input arrays as it finds them. -/
theorem arrAt42 (c : Dev nD) :
    (dat42 V c).arrAt 5 cfg42.N
      = pool42 (V c (Pipeline.arrRef spec42 0)) (V c (Pipeline.arrRef spec42 1)) (V c (Pipeline.arrRef spec42 2))
          (V c (Pipeline.arrRef spec42 3)) (V c (Pipeline.arrRef spec42 4)) :=
  (dat42 V c).arrAt_eq_of_cover 5
    (pool42 (V c (Pipeline.arrRef spec42 0)) (V c (Pipeline.arrRef spec42 1)) (V c (Pipeline.arrRef spec42 2))
      (V c (Pipeline.arrRef spec42 3)) (V c (Pipeline.arrRef spec42 4)))
    (fun t _ => flushed42_eq V c t) covered42

end Region

end Cert.KernelIdeal.Val

end
-- ==== Proof.BridgePool.lean ====
/- The gated pooling and the readout, as functions of whole arrays of extended reals.

   Pooling. For one family of cells the n = b·m rows of the feature matrix X lie batch after batch, m rows to a batch.
   Every entry of X is weighted by a gate, the logistic function of the entry of X·Wp + X0·Wp' + bp in the same place
   (X0 the family's initial features, bp a row added to every row), and the weighted rows of one batch are summed:
     pool X X0 Wp Wp' bp (β, c) = ∑ r < m, logistic ((X·Wp) (β·m + r, c) + (X0·Wp') (β·m + r, c) + bp c) · X (β·m + r, c).
   The reference spells the gate as 1 / (1 + exp (−x)) with two broadcast constants 1, multiplies by X, regroups the n
   rows as b × m and sums over the middle axis from the constant 0. `hostPool_eq` shows that this chain of array
   operations is `pool`, for any sizes with n = b·m; the three families are its instances at
   (b, m, n) = (256, 128, 32768), (256, 256, 65536) and (256, 64, 16384).
   The steps: a product with one contracted axis is the sum over that axis (`dotGeneral_plain`: entry (r, c) of X·W is
   ∑ j, X (r, j) · W (j, c)); a broadcast row or scalar reads the same element in every row; the words 0x3F800000 and
   0x00000000 are the numbers 1 and 0; 1 / (1 + exp (−x)) is the logistic function by definition; entry (β, r, c) of the
   regrouped array is entry (β·m + r, c) of the flat one, because both stand at row-major position (β·m + r)·k + c; and
   a sum over the middle axis started from 0 is the sum over r.

   Readout. After the pooling both programs apply one and the same chain of array operations to the three pooled arrays:
   h = max (p0·W1₀ + b1₀, 0) + max (p1·W1₁ + b1₁, 0) + max (p2·W1₂ + b1₂, 0), the sum started from a zero array, and then
   h·W2 + b2. `tail` is that chain as one function of the pooled arrays and the parameters; each program's chain is
   `tail` of its own pooled arrays (`tail_reference`, `tail_kernel`): the programs state the shape facts and the two
   dimension records under names of their own, and those are equal to the ones used here. -/
import Idealize.ShloMosaic.PureOps.Ideal.Laws
import Idealize.ShloMosaic.Lib.Pipeline.Value
import Idealize.ShloMosaic.Lib.ValueIdx
import Idealize.ShloMosaic.Lib.IdealHost
import proofs.«101828_j11562051961417_2_alg».proof.KernelIdeal
import proofs.«101828_j11562051961417_2_alg».proof.ReferenceIdeal
import proofs.«101828_j11562051961417_2_alg».proof.Proof.Spec
import proofs.«101828_j11562051961417_2_alg».proof.Proof.Laws

noncomputable section

namespace Cert.Bridge

open Idealize.ShloMosaic Idealize.ShloMosaic.ValueIdx Cert.Spec
open scoped BigOperators

/-! ## A product with one contracted axis -/

/-- A product of an n × k by a k × h array that contracts the one shared axis (rows of the left operand and columns of
    the right kept, no batch axis) is the matrix product: entry (r, c) is the sum over j of X (r, j) · W (j, c). The
    contraction's index set has one axis of extent k; re-indexed by its coordinate j the left operand is read at (r, j)
    and the right at (j, c). -/
theorem dotGeneral_plain {n k h : Nat}
    (d : DotDims (⟨2, ![n, k]⟩ : Shape) ⟨2, ![k, h]⟩ ⟨2, ![n, h]⟩)
    (hlc : d.lhsContracting = [1]) (hrc : d.rhsContracting = [0])
    (hln : d.lhsNonContracting = [0]) (hrn : d.rhsNonContracting = [1])
    (hlb : d.lhsBatch = []) (hrb : d.rhsBatch = [])
    (X : FVec Ideal ⟨2, ![n, k]⟩ .f32) (W : FVec Ideal ⟨2, ![k, h]⟩ .f32) :
    Host.dotGeneral d none X W = mul X W := by
  obtain ⟨lc, rc, ln, rn, lb, rb, wf⟩ := d
  simp only at hlc hrc hln hrn hlb hrb
  subst hlc hrc hln hrn hlb hrb
  funext i
  simp only [Host.dotGeneral]
  rw [Ideal.dotGeneral_apply]
  generalize hD : (⟨[1], [0], [0], [1], [], [], wf⟩ : DotDims (⟨2, ![n, k]⟩ : Shape) ⟨2, ![k, h]⟩ ⟨2, ![n, h]⟩) = D
  have hlc : D.lhsContracting = [1] := by rw [← hD]
  have hrc : D.rhsContracting = [0] := by rw [← hD]
  rw [← Equiv.sum_comp (contrEquiv1 D k (by rw [← hD]; rfl) (by subst hD; rfl)).symm]
  unfold mul
  refine Finset.sum_congr rfl fun j _ => ?_
  have hk := contrEquiv1_symm_val D k (by rw [← hD]; rfl) (by subst hD; rfl) j
  have el : D.lhsIdx i ((contrEquiv1 D k (by rw [← hD]; rfl) (by subst hD; rfl)).symm j) = ix2 (i 0) j :=
    funext fun a => Fin.ext (by
      match a with
      | ⟨0, _⟩ =>
        subst hD
        unfold DotDims.lhsIdx
        rw [dif_neg (by simp), dif_pos (by simp)]
        rfl
      | ⟨1, _⟩ => exact (D.lhsIdx_val_of_single hlc _ _).trans hk)
  have er : D.rhsIdx i ((contrEquiv1 D k (by rw [← hD]; rfl) (by subst hD; rfl)).symm j) = ix2 j (i 1) :=
    funext fun a => Fin.ext (by
      match a with
      | ⟨0, _⟩ => exact (D.rhsIdx_val_of_single hrc _ _).trans hk
      | ⟨1, _⟩ =>
        subst hD
        unfold DotDims.rhsIdx
        rw [dif_neg (by simp), dif_pos (by simp)]
        rfl)
  exact congrArg₂ (· * ·) (congrArg X el) (congrArg W er)

/-! ## The pooling -/

/-- Row `r` of batch `β` when `n = b · m` rows are laid out batch after batch. -/
def brow {b m n : Nat} (hn : n = b * m) (β : Fin b) (r : Fin m) : Fin n :=
  ⟨β.val * m + r.val, by
    subst hn
    calc β.val * m + r.val < β.val * m + m := Nat.add_lt_add_left r.isLt _
      _ = (β.val + 1) * m := (Nat.succ_mul _ _).symm
      _ ≤ b * m := Nat.mul_le_mul_right m β.isLt⟩

/-- The gated pooling of one family: entry (β, c) is the sum over the m rows r of batch β of the gate
    logistic ((X·Wp) (β·m + r, c) + (X0·Wp') (β·m + r, c) + bp c) times X (β·m + r, c). -/
def pool {b m n k : Nat} (hn : n = b * m) (X X0 : Mat n k) (Wp Wp' : Mat k k)
    (bp : (⟨1, ![k]⟩ : Shape).Idx → EReal) : Mat b k :=
  fun i => ∑ r : Fin m,
    Ideal.logistic (mul X Wp (ix2 (brow hn (i 0) r) (i 1)) + mul X0 Wp' (ix2 (brow hn (i 0) r) (i 1)) + bp (ix1 (i 1)))
      * X (ix2 (brow hn (i 0) r) (i 1))

/-- The gate at one entry: 1 / (1 + exp (−(X·Wp + X0·Wp' + bp))) with the two constants 1 and the row bp broadcast over
    the array is, at entry j = (r, c), the logistic function of (X·Wp) j + (X0·Wp') j + bp c. -/
theorem gate_apply {n k : Nat}
    (d : DotDims (⟨2, ![n, k]⟩ : Shape) ⟨2, ![k, k]⟩ ⟨2, ![n, k]⟩)
    (hlc : d.lhsContracting = [1]) (hrc : d.rhsContracting = [0])
    (hln : d.lhsNonContracting = [0]) (hrn : d.rhsNonContracting = [1])
    (hlb : d.lhsBatch = []) (hrb : d.rhsBatch = [])
    (hb1 : (⟨1, ![k]⟩ : Shape).BroadcastsInDim ⟨2, ![1, k]⟩ ![1])
    (hb2 : (⟨2, ![1, k]⟩ : Shape).BroadcastsInDim ⟨2, ![n, k]⟩ ![0, 1])
    (hb0 : (⟨0, ![]⟩ : Shape).BroadcastsInDim ⟨2, ![n, k]⟩ ![])
    (X X0 : FVec Ideal ⟨2, ![n, k]⟩ .f32) (Wp Wp' : FVec Ideal ⟨2, ![k, k]⟩ .f32) (bp : FVec Ideal ⟨1, ![k]⟩ .f32)
    (j : (⟨2, ![n, k]⟩ : Shape).Idx) :
    Host.divf (broadcastInDim ⟨2, ![n, k]⟩ ![] hb0 (constant ⟨0, ![]⟩ .f32 0x3F800000#32))
      (addf (broadcastInDim ⟨2, ![n, k]⟩ ![] hb0 (constant ⟨0, ![]⟩ .f32 0x3F800000#32))
        (Host.exp (Host.negf (addf (addf (Host.dotGeneral d none X Wp) (Host.dotGeneral d none X0 Wp'))
          (broadcastInDim ⟨2, ![n, k]⟩ ![0, 1] hb2 (broadcastInDim ⟨2, ![1, k]⟩ ![1] hb1 bp)))))) j
      = Ideal.logistic (mul X Wp j + mul X0 Wp' j + bp (ix1 (j 1))) := by
  rw [dotGeneral_plain d hlc hrc hln hrn hlb hrb, dotGeneral_plain d hlc hrc hln hrn hlb hrb]
  have hlt : (j 1).val < k := idx2_lt1 j
  have hA : broadcastInDim ⟨2, ![n, k]⟩ ![] hb0 (constant (F := Ideal) ⟨0, ![]⟩ .f32 0x3F800000#32) j = (1 : EReal) :=
    (broadcastInDim_scalar_apply hb0 _ j).trans Ideal.ofBits_one_f32
  have hB : broadcastInDim ⟨2, ![n, k]⟩ ![0, 1] hb2 (broadcastInDim ⟨2, ![1, k]⟩ ![1] hb1 bp) j = bp (ix1 (j 1)) :=
    (broadcastInDim_apply _ hb2 _ j (ix2 (0 : Fin 1) (j 1)) (fun a => match a with
      | ⟨0, _⟩ => by show 0 = if (1 : Nat) = 1 then 0 else (j 0).val; rw [if_pos rfl]
      | ⟨1, _⟩ => by show (j 1).val = if k = 1 then 0 else (j 1).val; split <;> omega)).trans
    (broadcastInDim_apply _ hb1 bp (ix2 (0 : Fin 1) (j 1)) (ix1 (j 1)) (fun a => match a with
      | ⟨0, _⟩ => by show (j 1).val = if k = 1 then 0 else (j 1).val; split <;> omega))
  exact congrArg₂ (fun a c => Ideal.div a (a + Ideal.exp (-(mul X Wp j + mul X0 Wp' j + c)))) hA hB

/-- The chain of array operations of the pooling is `pool`: the gate times X, the n rows regrouped as b × m, summed over
    the middle axis from 0. Entry (β, r, c) of the regrouped array is entry (β·m + r, c) of the flat one. -/
theorem hostPool_eq {b m n k : Nat} (hn : n = b * m)
    (d : DotDims (⟨2, ![n, k]⟩ : Shape) ⟨2, ![k, k]⟩ ⟨2, ![n, k]⟩)
    (hlc : d.lhsContracting = [1]) (hrc : d.rhsContracting = [0])
    (hln : d.lhsNonContracting = [0]) (hrn : d.rhsNonContracting = [1])
    (hlb : d.lhsBatch = []) (hrb : d.rhsBatch = [])
    (hb1 : (⟨1, ![k]⟩ : Shape).BroadcastsInDim ⟨2, ![1, k]⟩ ![1])
    (hb2 : (⟨2, ![1, k]⟩ : Shape).BroadcastsInDim ⟨2, ![n, k]⟩ ![0, 1])
    (hb0 : (⟨0, ![]⟩ : Shape).BroadcastsInDim ⟨2, ![n, k]⟩ ![])
    (hsc : (⟨2, ![n, k]⟩ : Shape).ShapeCasts ⟨3, ![b, m, k]⟩)
    (hrt : (⟨3, ![b, m, k]⟩ : Shape).ReducesTo [1] ⟨2, ![b, k]⟩)
    (hu : 0 < (⟨0, ![]⟩ : Shape).numel)
    (X X0 : FVec Ideal ⟨2, ![n, k]⟩ .f32) (Wp Wp' : FVec Ideal ⟨2, ![k, k]⟩ .f32) (bp : FVec Ideal ⟨1, ![k]⟩ .f32) :
    Host.reduceAdd
      (shapeCast ⟨3, ![b, m, k]⟩
        (mulf
          (Host.divf (broadcastInDim ⟨2, ![n, k]⟩ ![] hb0 (constant ⟨0, ![]⟩ .f32 0x3F800000#32))
            (addf (broadcastInDim ⟨2, ![n, k]⟩ ![] hb0 (constant ⟨0, ![]⟩ .f32 0x3F800000#32))
              (Host.exp (Host.negf (addf (addf (Host.dotGeneral d none X Wp) (Host.dotGeneral d none X0 Wp'))
                (broadcastInDim ⟨2, ![n, k]⟩ ![0, 1] hb2 (broadcastInDim ⟨2, ![1, k]⟩ ![1] hb1 bp)))))))
          X) hsc)
      (constant (F := Ideal) ⟨0, ![]⟩ .f32 0x00000000#32) hrt hu
      = pool hn X X0 Wp Wp' bp := by
  funext i
  have hred : (⟨3, ![b, m, k]⟩ : Shape).Reduces [1] ⟨2, ![b, k]⟩ := ⟨hrt.1, Nat.two_pos, hrt.2⟩
  have h0 : (constant (F := Ideal) ⟨0, ![]⟩ .f32 0x00000000#32) (Shape.Idx.first hu) = (0 : EReal) := Ideal.ofBits_zero_f32
  refine (hostReduceAdd_apply _ _ hrt hu i).trans ((Ideal.hostReduceAdd_single hrt hred _ _ i).trans ?_)
  refine (congrArg (· + _) h0).trans ((zero_add _).trans ?_)
  refine Finset.sum_congr rfl fun r _ => ?_
  refine (shapeCast_apply _ hsc (hred.lift i r) (ix2 (brow hn (i 0) r) (i 1)) ?_).trans ?_
  · rw [Shape.rowMajor_val_two, Shape.rowMajor_val_three]; rfl
  · exact congrArg (· * X (ix2 (brow hn (i 0) r) (i 1)))
      (gate_apply d hlc hrc hln hrn hlb hrb hb1 hb2 hb0 X X0 Wp Wp' bp (ix2 (brow hn (i 0) r) (i 1)))

/-- `pool` at an entry. -/
theorem pool_apply {b m n k : Nat} (hn : n = b * m) (X X0 : Mat n k) (Wp Wp' : Mat k k)
    (bp : (⟨1, ![k]⟩ : Shape).Idx → EReal) (i : (⟨2, ![b, k]⟩ : Shape).Idx) :
    pool hn X X0 Wp Wp' bp i = ∑ r : Fin m,
      Ideal.logistic (mul X Wp (ix2 (brow hn (i 0) r) (i 1)) + mul X0 Wp' (ix2 (brow hn (i 0) r) (i 1)) + bp (ix1 (i 1)))
        * X (ix2 (brow hn (i 0) r) (i 1)) := rfl

/-! ## The three families, under the reference's names for the shape facts -/

section Reference

open Cert.ReferenceIdeal Cert.ReferenceIdeal.Facts₀

variable [Cert.ReferenceIdeal.Facts₀]

/-- The node family: 32768 rows, 128 to a batch. -/
theorem pool_node (X X0 : (⟨S32768x256, .f32⟩ : BufTy).Contents (Elt Ideal))
    (Wp Wp' : (⟨S256x256, .f32⟩ : BufTy).Contents (Elt Ideal)) (bp : (⟨S256, .f32⟩ : BufTy).Contents (Elt Ideal)) :
    Host.reduceAdd
      (shapeCast S256x128x256
        (mulf
          (Host.divf (broadcastInDim S32768x256 ![] bcast_S_S32768x256 (constant S_ .f32 0x3F800000#32))
            (addf (broadcastInDim S32768x256 ![] bcast_S_S32768x256 (constant S_ .f32 0x3F800000#32))
              (Host.exp (Host.negf (addf
                (addf (Host.dotGeneral (φ₁ := .f32) (φ₂ := .f32) dot_S32768x256_S256x256_S32768x256_1_0_0_1_n_n none X Wp)
                  (Host.dotGeneral (φ₁ := .f32) (φ₂ := .f32) dot_S32768x256_S256x256_S32768x256_1_0_0_1_n_n none X0 Wp'))
                (broadcastInDim S32768x256 ![0, 1] bcast_S1x256_S32768x256_0_1
                  (broadcastInDim S1x256 ![1] bcast_S256_S1x256_1 bp)))))))
          X) shapeCasts_S32768x256_S256x128x256)
      (constant (F := Ideal) S_ .f32 0x00000000#32) reducesTo_S256x128x256_S256x256_d1 h_S_
      = pool (b := 256) (m := 128) (n := 32768) (k := 256) rfl X X0 Wp Wp' bp :=
  hostPool_eq (b := 256) (m := 128) (n := 32768) (k := 256) rfl dot_S32768x256_S256x256_S32768x256_1_0_0_1_n_n rfl rfl rfl rfl rfl rfl
    bcast_S256_S1x256_1 bcast_S1x256_S32768x256_0_1 bcast_S_S32768x256 shapeCasts_S32768x256_S256x128x256
    reducesTo_S256x128x256_S256x256_d1 h_S_ X X0 Wp Wp' bp

/-- The edge family: 65536 rows, 256 to a batch. -/
theorem pool_edge (X X0 : (⟨S65536x256, .f32⟩ : BufTy).Contents (Elt Ideal))
    (Wp Wp' : (⟨S256x256, .f32⟩ : BufTy).Contents (Elt Ideal)) (bp : (⟨S256, .f32⟩ : BufTy).Contents (Elt Ideal)) :
    Host.reduceAdd
      (shapeCast S256x256x256
        (mulf
          (Host.divf (broadcastInDim S65536x256 ![] bcast_S_S65536x256 (constant S_ .f32 0x3F800000#32))
            (addf (broadcastInDim S65536x256 ![] bcast_S_S65536x256 (constant S_ .f32 0x3F800000#32))
              (Host.exp (Host.negf (addf
                (addf (Host.dotGeneral (φ₁ := .f32) (φ₂ := .f32) dot_S65536x256_S256x256_S65536x256_1_0_0_1_n_n none X Wp)
                  (Host.dotGeneral (φ₁ := .f32) (φ₂ := .f32) dot_S65536x256_S256x256_S65536x256_1_0_0_1_n_n none X0 Wp'))
                (broadcastInDim S65536x256 ![0, 1] bcast_S1x256_S65536x256_0_1
                  (broadcastInDim S1x256 ![1] bcast_S256_S1x256_1 bp)))))))
          X) shapeCasts_S65536x256_S256x256x256)
      (constant (F := Ideal) S_ .f32 0x00000000#32) reducesTo_S256x256x256_S256x256_d1 h_S_
      = pool (b := 256) (m := 256) (n := 65536) (k := 256) rfl X X0 Wp Wp' bp :=
  hostPool_eq (b := 256) (m := 256) (n := 65536) (k := 256) rfl dot_S65536x256_S256x256_S65536x256_1_0_0_1_n_n rfl rfl rfl rfl rfl rfl
    bcast_S256_S1x256_1 bcast_S1x256_S65536x256_0_1 bcast_S_S65536x256 shapeCasts_S65536x256_S256x256x256
    reducesTo_S256x256x256_S256x256_d1 h_S_ X X0 Wp Wp' bp

/-- The cell family: 16384 rows, 64 to a batch. -/
theorem pool_cell (X X0 : (⟨S16384x256, .f32⟩ : BufTy).Contents (Elt Ideal))
    (Wp Wp' : (⟨S256x256, .f32⟩ : BufTy).Contents (Elt Ideal)) (bp : (⟨S256, .f32⟩ : BufTy).Contents (Elt Ideal)) :
    Host.reduceAdd
      (shapeCast S256x64x256
        (mulf
          (Host.divf (broadcastInDim S16384x256 ![] bcast_S_S16384x256 (constant S_ .f32 0x3F800000#32))
            (addf (broadcastInDim S16384x256 ![] bcast_S_S16384x256 (constant S_ .f32 0x3F800000#32))
              (Host.exp (Host.negf (addf
                (addf (Host.dotGeneral (φ₁ := .f32) (φ₂ := .f32) dot_S16384x256_S256x256_S16384x256_1_0_0_1_n_n none X Wp)
                  (Host.dotGeneral (φ₁ := .f32) (φ₂ := .f32) dot_S16384x256_S256x256_S16384x256_1_0_0_1_n_n none X0 Wp'))
                (broadcastInDim S16384x256 ![0, 1] bcast_S1x256_S16384x256_0_1
                  (broadcastInDim S1x256 ![1] bcast_S256_S1x256_1 bp)))))))
          X) shapeCasts_S16384x256_S256x64x256)
      (constant (F := Ideal) S_ .f32 0x00000000#32) reducesTo_S256x64x256_S256x256_d1 h_S_
      = pool (b := 256) (m := 64) (n := 16384) (k := 256) rfl X X0 Wp Wp' bp :=
  hostPool_eq (b := 256) (m := 64) (n := 16384) (k := 256) rfl dot_S16384x256_S256x256_S16384x256_1_0_0_1_n_n rfl rfl rfl rfl rfl rfl
    bcast_S256_S1x256_1 bcast_S1x256_S16384x256_0_1 bcast_S_S16384x256 shapeCasts_S16384x256_S256x64x256
    reducesTo_S256x64x256_S256x256_d1 h_S_ X X0 Wp Wp' bp

end Reference

/-! ## The readout -/

section Readout

open Cert.ReferenceIdeal

/-! The shape facts of the chain: the three slices of W1 and of b1, the two regroupings, the broadcasts of a row and of
    the zero, and the two products' dimension records (rows × contraction by contraction × columns). -/

theorem tail_w1_0 : S3x256x512.Slices ![0, 0, 0] S1x256x512 := by decide
theorem tail_w1_1 : S3x256x512.Slices ![1, 0, 0] S1x256x512 := by decide
theorem tail_w1_2 : S3x256x512.Slices ![2, 0, 0] S1x256x512 := by decide
theorem tail_w1_cast : S1x256x512.ShapeCasts S256x512 := by decide
theorem tail_b1_0 : S3x512.Slices ![0, 0] S1x512 := by decide
theorem tail_b1_1 : S3x512.Slices ![1, 0] S1x512 := by decide
theorem tail_b1_2 : S3x512.Slices ![2, 0] S1x512 := by decide
theorem tail_b1_cast : S1x512.ShapeCasts S512 := by decide
theorem tail_b1_row : S512.BroadcastsInDim S1x512 (![1] : Fin 1 → Fin S1x512.rank) := by decide
theorem tail_b1_rows : S1x512.BroadcastsInDim S256x512 (![0, 1] : Fin 2 → Fin S256x512.rank) := by decide
theorem tail_zero : S_.BroadcastsInDim S256x512 (![] : Fin 0 → Fin S256x512.rank) := by decide
theorem tail_b2_row : S10.BroadcastsInDim S1x10 (![1] : Fin 1 → Fin S1x10.rank) := by decide
theorem tail_b2_rows : S1x10.BroadcastsInDim S256x10 (![0, 1] : Fin 2 → Fin S256x10.rank) := by decide

def tailDot1 : DotDims S256x256 S256x512 S256x512 where
  lhsContracting := [1]
  rhsContracting := [0]
  lhsNonContracting := [0]
  rhsNonContracting := [1]
  lhsBatch := []
  rhsBatch := []
  wf := by decide

def tailDot2 : DotDims S256x512 S512x10 S256x10 where
  lhsContracting := [1]
  rhsContracting := [0]
  lhsNonContracting := [0]
  rhsNonContracting := [1]
  lhsBatch := []
  rhsBatch := []
  wf := by decide

/-- The readout as one function: h = ∑ i, max (p_i · W1_i + b1_i, 0) from a zero array, then h · W2 + b2. -/
def tail (p0 p1 p2 : (⟨S256x256, .f32⟩ : BufTy).Contents (Elt Ideal))
    (W1 : (⟨S3x256x512, .f32⟩ : BufTy).Contents (Elt Ideal)) (b1 : (⟨S3x512, .f32⟩ : BufTy).Contents (Elt Ideal))
    (W2 : (⟨S512x10, .f32⟩ : BufTy).Contents (Elt Ideal)) (b2 : (⟨S10, .f32⟩ : BufTy).Contents (Elt Ideal)) :
    (⟨S256x10, .f32⟩ : BufTy).Contents (Elt Ideal) :=
  addf (φ := .f32)
    (Host.dotGeneral (F := Ideal) (φ₁ := .f32) (φ₂ := .f32) tailDot2 none
      (addf (φ := .f32)
        (addf (φ := .f32)
          (addf (φ := .f32)
            (broadcastInDim S256x512 ![] tail_zero (constant (F := Ideal) S_ .f32 0x00000000#32))
            (maximumf (F := Ideal) (φ := .f32)
              (addf (φ := .f32)
                (Host.dotGeneral (F := Ideal) (φ₁ := .f32) (φ₂ := .f32) tailDot1 none p0
                  (shapeCast S256x512 (extractStridedSlice S1x256x512 ![0, 0, 0] W1 tail_w1_0) tail_w1_cast))
                (broadcastInDim S256x512 ![0, 1] tail_b1_rows
                  (broadcastInDim S1x512 ![1] tail_b1_row
                    (shapeCast S512 (extractStridedSlice S1x512 ![0, 0] b1 tail_b1_0) tail_b1_cast))))
              (broadcastInDim S256x512 ![] tail_zero (constant (F := Ideal) S_ .f32 0x00000000#32))))
          (maximumf (F := Ideal) (φ := .f32)
            (addf (φ := .f32)
              (Host.dotGeneral (F := Ideal) (φ₁ := .f32) (φ₂ := .f32) tailDot1 none p1
                (shapeCast S256x512 (extractStridedSlice S1x256x512 ![1, 0, 0] W1 tail_w1_1) tail_w1_cast))
              (broadcastInDim S256x512 ![0, 1] tail_b1_rows
                (broadcastInDim S1x512 ![1] tail_b1_row
                  (shapeCast S512 (extractStridedSlice S1x512 ![1, 0] b1 tail_b1_1) tail_b1_cast))))
            (broadcastInDim S256x512 ![] tail_zero (constant (F := Ideal) S_ .f32 0x00000000#32))))
        (maximumf (F := Ideal) (φ := .f32)
          (addf (φ := .f32)
            (Host.dotGeneral (F := Ideal) (φ₁ := .f32) (φ₂ := .f32) tailDot1 none p2
              (shapeCast S256x512 (extractStridedSlice S1x256x512 ![2, 0, 0] W1 tail_w1_2) tail_w1_cast))
            (broadcastInDim S256x512 ![0, 1] tail_b1_rows
              (broadcastInDim S1x512 ![1] tail_b1_row
                (shapeCast S512 (extractStridedSlice S1x512 ![2, 0] b1 tail_b1_2) tail_b1_cast))))
          (broadcastInDim S256x512 ![] tail_zero (constant (F := Ideal) S_ .f32 0x00000000#32))))
      W2)
    (broadcastInDim S256x10 ![0, 1] tail_b2_rows (broadcastInDim S1x10 ![1] tail_b2_row b2))

end Readout

section ReadoutReference

open Cert.ReferenceIdeal Cert.ReferenceIdeal.Facts₀

variable [Cert.ReferenceIdeal.Facts₀]

/-- The reference's chain after its three poolings is `tail` of them. -/
theorem tail_reference (p0 p1 p2 : (⟨S256x256, .f32⟩ : BufTy).Contents (Elt Ideal))
    (W1 : (⟨S3x256x512, .f32⟩ : BufTy).Contents (Elt Ideal)) (b1 : (⟨S3x512, .f32⟩ : BufTy).Contents (Elt Ideal))
    (W2 : (⟨S512x10, .f32⟩ : BufTy).Contents (Elt Ideal)) (b2 : (⟨S10, .f32⟩ : BufTy).Contents (Elt Ideal)) :
    addf (φ := .f32)
      (Host.dotGeneral (F := Ideal) (φ₁ := .f32) (φ₂ := .f32) dot_S256x512_S512x10_S256x10_1_0_0_1_n_n none
        (addf (φ := .f32)
          (addf (φ := .f32)
            (addf (φ := .f32)
              (broadcastInDim S256x512 ![] bcast_S_S256x512 (constant (F := Ideal) S_ .f32 0x00000000#32))
              (maximumf (F := Ideal) (φ := .f32)
                (addf (φ := .f32)
                  (Host.dotGeneral (F := Ideal) (φ₁ := .f32) (φ₂ := .f32) dot_S256x256_S256x512_S256x512_1_0_0_1_n_n none p0
                    (shapeCast S256x512 (extractStridedSlice S1x256x512 ![0, 0, 0] W1 slices_S3x256x512_S1x256x512_0_0_0)
                      shapeCasts_S1x256x512_S256x512))
                  (broadcastInDim S256x512 ![0, 1] bcast_S1x512_S256x512_0_1
                    (broadcastInDim S1x512 ![1] bcast_S512_S1x512_1
                      (shapeCast S512 (extractStridedSlice S1x512 ![0, 0] b1 slices_S3x512_S1x512_0_0) shapeCasts_S1x512_S512))))
                (broadcastInDim S256x512 ![] bcast_S_S256x512 (constant (F := Ideal) S_ .f32 0x00000000#32))))
            (maximumf (F := Ideal) (φ := .f32)
              (addf (φ := .f32)
                (Host.dotGeneral (F := Ideal) (φ₁ := .f32) (φ₂ := .f32) dot_S256x256_S256x512_S256x512_1_0_0_1_n_n none p1
                  (shapeCast S256x512 (extractStridedSlice S1x256x512 ![1, 0, 0] W1 slices_S3x256x512_S1x256x512_1_0_0)
                    shapeCasts_S1x256x512_S256x512))
                (broadcastInDim S256x512 ![0, 1] bcast_S1x512_S256x512_0_1
                  (broadcastInDim S1x512 ![1] bcast_S512_S1x512_1
                    (shapeCast S512 (extractStridedSlice S1x512 ![1, 0] b1 slices_S3x512_S1x512_1_0) shapeCasts_S1x512_S512))))
              (broadcastInDim S256x512 ![] bcast_S_S256x512 (constant (F := Ideal) S_ .f32 0x00000000#32))))
          (maximumf (F := Ideal) (φ := .f32)
            (addf (φ := .f32)
              (Host.dotGeneral (F := Ideal) (φ₁ := .f32) (φ₂ := .f32) dot_S256x256_S256x512_S256x512_1_0_0_1_n_n none p2
                (shapeCast S256x512 (extractStridedSlice S1x256x512 ![2, 0, 0] W1 slices_S3x256x512_S1x256x512_2_0_0)
                  shapeCasts_S1x256x512_S256x512))
              (broadcastInDim S256x512 ![0, 1] bcast_S1x512_S256x512_0_1
                (broadcastInDim S1x512 ![1] bcast_S512_S1x512_1
                  (shapeCast S512 (extractStridedSlice S1x512 ![2, 0] b1 slices_S3x512_S1x512_2_0) shapeCasts_S1x512_S512))))
            (broadcastInDim S256x512 ![] bcast_S_S256x512 (constant (F := Ideal) S_ .f32 0x00000000#32))))
        W2)
      (broadcastInDim S256x10 ![0, 1] bcast_S1x10_S256x10_0_1 (broadcastInDim S1x10 ![1] bcast_S10_S1x10_1 b2))
      = tail p0 p1 p2 W1 b1 W2 b2 := rfl

end ReadoutReference

section ReadoutKernel

open Cert.KernelIdeal Cert.KernelIdeal.Shapes1.Facts₀

variable [Cert.KernelIdeal.Facts₀]

/-- The kernel program's chain after its three pooling calls is `tail` of their results. -/
theorem tail_kernel (p0 p1 p2 : (⟨S256x256, .f32⟩ : BufTy).Contents (Elt Ideal))
    (W1 : (⟨S3x256x512, .f32⟩ : BufTy).Contents (Elt Ideal)) (b1 : (⟨S3x512, .f32⟩ : BufTy).Contents (Elt Ideal))
    (W2 : (⟨S512x10, .f32⟩ : BufTy).Contents (Elt Ideal)) (b2 : (⟨S10, .f32⟩ : BufTy).Contents (Elt Ideal)) :
    addf (φ := .f32)
      (Host.dotGeneral (F := Ideal) (φ₁ := .f32) (φ₂ := .f32) dot_S256x512_S512x10_S256x10_1_0_0_1_n_n none
        (addf (φ := .f32)
          (addf (φ := .f32)
            (addf (φ := .f32)
              (broadcastInDim S256x512 ![] bcast_S_S256x512 (constant (F := Ideal) S_ .f32 0x00000000#32))
              (maximumf (F := Ideal) (φ := .f32)
                (addf (φ := .f32)
                  (Host.dotGeneral (F := Ideal) (φ₁ := .f32) (φ₂ := .f32) dot_S256x256_S256x512_S256x512_1_0_0_1_n_n none p0
                    (shapeCast S256x512 (extractStridedSlice S1x256x512 ![0, 0, 0] W1 slices_S3x256x512_S1x256x512_0_0_0)
                      shapeCasts_S1x256x512_S256x512))
                  (broadcastInDim S256x512 ![0, 1] bcast_S1x512_S256x512_0_1
                    (broadcastInDim S1x512 ![1] bcast_S512_S1x512_1
                      (shapeCast S512 (extractStridedSlice S1x512 ![0, 0] b1 slices_S3x512_S1x512_0_0) shapeCasts_S1x512_S512))))
                (broadcastInDim S256x512 ![] bcast_S_S256x512 (constant (F := Ideal) S_ .f32 0x00000000#32))))
            (maximumf (F := Ideal) (φ := .f32)
              (addf (φ := .f32)
                (Host.dotGeneral (F := Ideal) (φ₁ := .f32) (φ₂ := .f32) dot_S256x256_S256x512_S256x512_1_0_0_1_n_n none p1
                  (shapeCast S256x512 (extractStridedSlice S1x256x512 ![1, 0, 0] W1 slices_S3x256x512_S1x256x512_1_0_0)
                    shapeCasts_S1x256x512_S256x512))
                (broadcastInDim S256x512 ![0, 1] bcast_S1x512_S256x512_0_1
                  (broadcastInDim S1x512 ![1] bcast_S512_S1x512_1
                    (shapeCast S512 (extractStridedSlice S1x512 ![1, 0] b1 slices_S3x512_S1x512_1_0) shapeCasts_S1x512_S512))))
              (broadcastInDim S256x512 ![] bcast_S_S256x512 (constant (F := Ideal) S_ .f32 0x00000000#32))))
          (maximumf (F := Ideal) (φ := .f32)
            (addf (φ := .f32)
              (Host.dotGeneral (F := Ideal) (φ₁ := .f32) (φ₂ := .f32) dot_S256x256_S256x512_S256x512_1_0_0_1_n_n none p2
                (shapeCast S256x512 (extractStridedSlice S1x256x512 ![2, 0, 0] W1 slices_S3x256x512_S1x256x512_2_0_0)
                  shapeCasts_S1x256x512_S256x512))
              (broadcastInDim S256x512 ![0, 1] bcast_S1x512_S256x512_0_1
                (broadcastInDim S1x512 ![1] bcast_S512_S1x512_1
                  (shapeCast S512 (extractStridedSlice S1x512 ![2, 0] b1 slices_S3x512_S1x512_2_0) shapeCasts_S1x512_S512))))
            (broadcastInDim S256x512 ![] bcast_S_S256x512 (constant (F := Ideal) S_ .f32 0x00000000#32))))
        W2)
      (broadcastInDim S256x10 ![0, 1] bcast_S1x10_S256x10_0_1 (broadcastInDim S1x10 ![1] bcast_S10_S1x10_1 b2))
      = tail p0 p1 p2 W1 b1 W2 b2 := rfl

end ReadoutKernel

end Cert.Bridge

end
-- ==== Proof.TailRef.lean ====
/- The reference's last values as the shared functions of whole arrays: each of its three pooled arrays is the gated
   pooling `pool` of that family's final features (the value of the last layer), its initial features (an argument) and
   the three pooling parameters; its result is the readout `tail` of the three pooled arrays and the four readout
   parameters. The reference's operations are read off one by one (each value is by definition its operation applied to
   the values before it) and the two chains are the ones `pool` and `tail` were shown to be. -/
import proofs.«101828_j11562051961417_2_alg».proof.Proof.RefRead
import proofs.«101828_j11562051961417_2_alg».proof.Proof.BridgePool

noncomputable section

namespace Cert.Bridge

open Idealize.ShloMosaic
open Cert.ReferenceIdeal Cert.ReferenceIdeal.Read

variable (x0 : (⟨S32768x256, .f32⟩ : BufTy).Contents (Elt Ideal)) (x1 : (⟨S65536x256, .f32⟩ : BufTy).Contents (Elt Ideal)) (x2 : (⟨S16384x256, .f32⟩ : BufTy).Contents (Elt Ideal))
  (x3 x4 x5 x6 : (⟨S131072, .i32⟩ : BufTy).Contents (Elt Ideal)) (x7 x8 x9 x10 : (⟨S98304, .i32⟩ : BufTy).Contents (Elt Ideal))
  (x11 x12 x13 : (⟨S131072, .i32⟩ : BufTy).Contents (Elt Ideal)) (x14 x15 x16 : (⟨S65536, .i32⟩ : BufTy).Contents (Elt Ideal))
  (x17 : (⟨S4x3x256x256, .f32⟩ : BufTy).Contents (Elt Ideal)) (x18 : (⟨S4x3x256, .f32⟩ : BufTy).Contents (Elt Ideal))
  (x19 x20 x21 : (⟨S4x2x256x256, .f32⟩ : BufTy).Contents (Elt Ideal))
  (x22 x23 : (⟨S256x256, .f32⟩ : BufTy).Contents (Elt Ideal)) (x24 : (⟨S256, .f32⟩ : BufTy).Contents (Elt Ideal))
  (x25 : (⟨S3x256x512, .f32⟩ : BufTy).Contents (Elt Ideal)) (x26 : (⟨S3x512, .f32⟩ : BufTy).Contents (Elt Ideal))
  (x27 : (⟨S512x10, .f32⟩ : BufTy).Contents (Elt Ideal)) (x28 : (⟨S10, .f32⟩ : BufTy).Contents (Elt Ideal))

/-- The reference's pooled nodes are the gated pooling of its final node features against the initial ones. -/
theorem ref_pool_node :
    val_main_v448 (F := Ideal) x0 x1 x2 x3 x4 x5 x6 x7 x8 x9 x10 x11 x12 x13 x14 x15 x16 x17 x18 x19 x20 x21 x22 x23 x24
      = pool (b := 256) (m := 128) (n := 32768) (k := 256) rfl (val_main_v412 (F := Ideal) x0 x1 x2 x3 x4 x5 x6 x7 x8 x9 x10 x11 x12 x13 x14 x15 x16 x17 x18 x19 x20 x21) x0 x22 x23 x24 := by
  unfold val_main_v448 val_main_cst_62 val_main_v447 val_main_v446 val_main_v445 val_main_v444 val_main_cst_61 val_main_v443
    val_main_v442 val_main_cst_60 val_main_v441 val_main_v440 val_main_v439 val_main_v438 val_main_v437 val_main_v436
    val_main_v435 val_main_v434
  exact pool_node _ _ _ _ _

/-- The reference's pooled edges likewise. -/
theorem ref_pool_edge :
    val_main_v463 (F := Ideal) x0 x1 x2 x3 x4 x5 x6 x7 x8 x9 x10 x11 x12 x13 x14 x15 x16 x17 x18 x19 x20 x21 x22 x23 x24
      = pool (b := 256) (m := 256) (n := 65536) (k := 256) rfl (val_main_v423 (F := Ideal) x0 x1 x2 x3 x4 x5 x6 x7 x8 x9 x10 x11 x12 x13 x14 x15 x16 x17 x18 x19 x20 x21) x1 x22 x23 x24 := by
  unfold val_main_v463 val_main_cst_65 val_main_v462 val_main_v461 val_main_v460 val_main_v459 val_main_cst_64 val_main_v458
    val_main_v457 val_main_cst_63 val_main_v456 val_main_v455 val_main_v454 val_main_v453 val_main_v452 val_main_v451
    val_main_v450 val_main_v449
  exact pool_edge _ _ _ _ _

/-- The reference's pooled cells likewise. -/
theorem ref_pool_cell :
    val_main_v478 (F := Ideal) x0 x1 x2 x3 x4 x5 x6 x7 x8 x9 x10 x11 x12 x13 x14 x15 x16 x17 x18 x19 x20 x21 x22 x23 x24
      = pool (b := 256) (m := 64) (n := 16384) (k := 256) rfl (val_main_v433 (F := Ideal) x0 x1 x2 x3 x4 x5 x6 x7 x8 x9 x10 x11 x12 x13 x14 x15 x16 x17 x18 x19 x20 x21) x2 x22 x23 x24 := by
  unfold val_main_v478 val_main_cst_68 val_main_v477 val_main_v476 val_main_v475 val_main_v474 val_main_cst_67 val_main_v473
    val_main_v472 val_main_cst_66 val_main_v471 val_main_v470 val_main_v469 val_main_v468 val_main_v467 val_main_v466
    val_main_v465 val_main_v464
  exact pool_cell _ _ _ _ _

/-- The reference's result is the readout of its three pooled arrays. -/
theorem ref_readout :
    val_main_v513 (F := Ideal) x0 x1 x2 x3 x4 x5 x6 x7 x8 x9 x10 x11 x12 x13 x14 x15 x16 x17 x18 x19 x20 x21 x22 x23 x24 x25 x26 x27 x28
      = tail (val_main_v448 (F := Ideal) x0 x1 x2 x3 x4 x5 x6 x7 x8 x9 x10 x11 x12 x13 x14 x15 x16 x17 x18 x19 x20 x21 x22 x23 x24) (val_main_v463 (F := Ideal) x0 x1 x2 x3 x4 x5 x6 x7 x8 x9 x10 x11 x12 x13 x14 x15 x16 x17 x18 x19 x20 x21 x22 x23 x24)
          (val_main_v478 (F := Ideal) x0 x1 x2 x3 x4 x5 x6 x7 x8 x9 x10 x11 x12 x13 x14 x15 x16 x17 x18 x19 x20 x21 x22 x23 x24) x25 x26 x27 x28 := by
  unfold val_main_v513 val_main_v512 val_main_v511 val_main_v510 val_main_v509 val_main_v508 val_main_call22_v0 val_main_call22_cst
    val_main_v507 val_main_v506 val_main_v505 val_main_v504 val_main_v503 val_main_v502 val_main_v501 val_main_v500
    val_main_v499 val_main_v498 val_main_call21_v0 val_main_call21_cst val_main_v497 val_main_v496 val_main_v495 val_main_v494
    val_main_v493 val_main_v492 val_main_v491 val_main_v490 val_main_v489 val_main_v488 val_main_cst_69 val_main_v487
    val_main_call20_v0 val_main_call20_cst val_main_v486 val_main_v485 val_main_v484 val_main_v483 val_main_v482 val_main_v481
    val_main_v480 val_main_v479
  exact tail_reference _ _ _ _ _ _ _

/-- THE REFERENCE'S RESULT: the readout of the three gated poolings of its last layer's features. -/
theorem ref_result :
    val_main_v513 (F := Ideal) x0 x1 x2 x3 x4 x5 x6 x7 x8 x9 x10 x11 x12 x13 x14 x15 x16 x17 x18 x19 x20 x21 x22 x23 x24 x25 x26 x27 x28
      = tail (pool (b := 256) (m := 128) (n := 32768) (k := 256) rfl (val_main_v412 (F := Ideal) x0 x1 x2 x3 x4 x5 x6 x7 x8 x9 x10 x11 x12 x13 x14 x15 x16 x17 x18 x19 x20 x21) x0 x22 x23 x24)
          (pool (b := 256) (m := 256) (n := 65536) (k := 256) rfl (val_main_v423 (F := Ideal) x0 x1 x2 x3 x4 x5 x6 x7 x8 x9 x10 x11 x12 x13 x14 x15 x16 x17 x18 x19 x20 x21) x1 x22 x23 x24)
          (pool (b := 256) (m := 64) (n := 16384) (k := 256) rfl (val_main_v433 (F := Ideal) x0 x1 x2 x3 x4 x5 x6 x7 x8 x9 x10 x11 x12 x13 x14 x15 x16 x17 x18 x19 x20 x21) x2 x22 x23 x24)
          x25 x26 x27 x28 := by
  rw [ref_readout, ref_pool_node, ref_pool_edge, ref_pool_cell]

end Cert.Bridge

end
-- ==== Proof.KI.Tail.lean ====
/- The end of the kernel program against the reference's last values. After the last layer the program regroups the
   final and the initial features of each family by batch, pools each family with its gate (three regions), and reads the
   result out of the three pooled arrays with seven short stretches of host operations. Here: the regrouped form of the
   pooling is the gated pooling of the flat arrays (entry (β, r, j) of the regrouped array is entry (β·m + r, j) of the
   flat one); every argument and every finished array reaches the step that reads it unchanged; so each pooled array is
   `pool` of what the program's end found, the result is `tail` of the three, and the reference's result is the same
   `tail` of the same `pool`s of its own last values. -/
import proofs.«101828_j11562051961417_2_alg».proof.Proof.KI.Keep
import proofs.«101828_j11562051961417_2_alg».proof.Proof.KI.TailHost
import proofs.«101828_j11562051961417_2_alg».proof.Proof.KI.ValPool40
import proofs.«101828_j11562051961417_2_alg».proof.Proof.KI.ValPool41
import proofs.«101828_j11562051961417_2_alg».proof.Proof.KI.ValPool42
import proofs.«101828_j11562051961417_2_alg».proof.Proof.BridgePool
import proofs.«101828_j11562051961417_2_alg».proof.Proof.TailRef
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Cert.Spec (Mat Mat3)

/-! ## Regrouping by batch -/

/-- Entry (β, r, j) of a [b·m, k] array regrouped by batch as [b, m, k] is entry (β·m + r, j) of the array: both stand at
    row-major position (β·m + r)·k + j. -/
theorem shapeCast_batch_apply {b m n k : Nat} (hn : n = b * m) (X : Mat n k)
    (h : (⟨2, ![n, k]⟩ : Shape).ShapeCasts ⟨3, ![b, m, k]⟩) (β : Fin b) (r : Fin m) (j : Fin k) :
    shapeCast ⟨3, ![b, m, k]⟩ X h (ix3 β r j) = X (ix2 (Cert.Bridge.brow hn β r) j) := by
  refine shapeCast_apply X h (ix3 β r j) (ix2 (Cert.Bridge.brow hn β r) j) ?_
  rw [Shape.rowMajor_val_two, Shape.rowMajor_val_three]
  rfl

/-- The node pooling of the arrays regrouped by batch, with the bias as a row, is the gated pooling of the flat arrays. -/
theorem pool40_batch (X X0 : Mat 32768 256) (Wp Wp' : Mat 256 256) (bp : (⟨1, ![256]⟩ : Shape).Idx → EReal)
    (h3 : (⟨2, ![32768, 256]⟩ : Shape).ShapeCasts ⟨3, ![256, 128, 256]⟩) (h1 : (⟨1, ![256]⟩ : Shape).ShapeCasts ⟨2, ![1, 256]⟩) :
    pool40 (shapeCast ⟨3, ![256, 128, 256]⟩ X h3) (shapeCast ⟨3, ![256, 128, 256]⟩ X0 h3) Wp Wp' (shapeCast ⟨2, ![1, 256]⟩ bp h1)
      = Cert.Bridge.pool (b := 256) (m := 128) (n := 32768) (k := 256) rfl X X0 Wp Wp' bp := by
  funext i
  obtain ⟨β, q, rfl⟩ : ∃ (β : Fin 256) (q : Fin 256), i = ix2 β q := ⟨i 0, i 1, eq_ix2 i⟩
  show (∑ r : Fin 128, Ideal.logistic ((∑ j : Fin 256, shapeCast ⟨3, ![256, 128, 256]⟩ X h3 (ix3 β r j) * Wp (ix2 j q))
        + (∑ j : Fin 256, shapeCast ⟨3, ![256, 128, 256]⟩ X0 h3 (ix3 β r j) * Wp' (ix2 j q))
        + shapeCast ⟨2, ![1, 256]⟩ bp h1 (ix2 (0 : Fin 1) q)) * shapeCast ⟨3, ![256, 128, 256]⟩ X h3 (ix3 β r q))
    = ∑ r : Fin 128, Ideal.logistic ((∑ j : Fin 256, X (ix2 (Cert.Bridge.brow (b := 256) (m := 128) (n := 32768) rfl β r) j) * Wp (ix2 j q))
        + (∑ j : Fin 256, X0 (ix2 (Cert.Bridge.brow (b := 256) (m := 128) (n := 32768) rfl β r) j) * Wp' (ix2 j q))
        + bp (ix1 q)) * X (ix2 (Cert.Bridge.brow (b := 256) (m := 128) (n := 32768) rfl β r) q)
  simp only [shapeCast_batch_apply (b := 256) (m := 128) (n := 32768) (k := 256) rfl, shapeCast_a_1a_apply]

/-- The edge pooling likewise: 65536 rows, 256 to a batch. -/
theorem pool41_batch (X X0 : Mat 65536 256) (Wp Wp' : Mat 256 256) (bp : (⟨1, ![256]⟩ : Shape).Idx → EReal)
    (h3 : (⟨2, ![65536, 256]⟩ : Shape).ShapeCasts ⟨3, ![256, 256, 256]⟩) (h1 : (⟨1, ![256]⟩ : Shape).ShapeCasts ⟨2, ![1, 256]⟩) :
    pool41 (shapeCast ⟨3, ![256, 256, 256]⟩ X h3) (shapeCast ⟨3, ![256, 256, 256]⟩ X0 h3) Wp Wp' (shapeCast ⟨2, ![1, 256]⟩ bp h1)
      = Cert.Bridge.pool (b := 256) (m := 256) (n := 65536) (k := 256) rfl X X0 Wp Wp' bp := by
  funext i
  obtain ⟨β, q, rfl⟩ : ∃ (β : Fin 256) (q : Fin 256), i = ix2 β q := ⟨i 0, i 1, eq_ix2 i⟩
  show (∑ r : Fin 256, Ideal.logistic ((∑ j : Fin 256, shapeCast ⟨3, ![256, 256, 256]⟩ X h3 (ix3 β r j) * Wp (ix2 j q))
        + (∑ j : Fin 256, shapeCast ⟨3, ![256, 256, 256]⟩ X0 h3 (ix3 β r j) * Wp' (ix2 j q))
        + shapeCast ⟨2, ![1, 256]⟩ bp h1 (ix2 (0 : Fin 1) q)) * shapeCast ⟨3, ![256, 256, 256]⟩ X h3 (ix3 β r q))
    = ∑ r : Fin 256, Ideal.logistic ((∑ j : Fin 256, X (ix2 (Cert.Bridge.brow (b := 256) (m := 256) (n := 65536) rfl β r) j) * Wp (ix2 j q))
        + (∑ j : Fin 256, X0 (ix2 (Cert.Bridge.brow (b := 256) (m := 256) (n := 65536) rfl β r) j) * Wp' (ix2 j q))
        + bp (ix1 q)) * X (ix2 (Cert.Bridge.brow (b := 256) (m := 256) (n := 65536) rfl β r) q)
  simp only [shapeCast_batch_apply (b := 256) (m := 256) (n := 65536) (k := 256) rfl, shapeCast_a_1a_apply]

/-- The cell pooling likewise: 16384 rows, 64 to a batch. -/
theorem pool42_batch (X X0 : Mat 16384 256) (Wp Wp' : Mat 256 256) (bp : (⟨1, ![256]⟩ : Shape).Idx → EReal)
    (h3 : (⟨2, ![16384, 256]⟩ : Shape).ShapeCasts ⟨3, ![256, 64, 256]⟩) (h1 : (⟨1, ![256]⟩ : Shape).ShapeCasts ⟨2, ![1, 256]⟩) :
    pool42 (shapeCast ⟨3, ![256, 64, 256]⟩ X h3) (shapeCast ⟨3, ![256, 64, 256]⟩ X0 h3) Wp Wp' (shapeCast ⟨2, ![1, 256]⟩ bp h1)
      = Cert.Bridge.pool (b := 256) (m := 64) (n := 16384) (k := 256) rfl X X0 Wp Wp' bp := by
  funext i
  obtain ⟨β, q, rfl⟩ : ∃ (β : Fin 256) (q : Fin 256), i = ix2 β q := ⟨i 0, i 1, eq_ix2 i⟩
  show (∑ r : Fin 64, Ideal.logistic ((∑ j : Fin 256, shapeCast ⟨3, ![256, 64, 256]⟩ X h3 (ix3 β r j) * Wp (ix2 j q))
        + (∑ j : Fin 256, shapeCast ⟨3, ![256, 64, 256]⟩ X0 h3 (ix3 β r j) * Wp' (ix2 j q))
        + shapeCast ⟨2, ![1, 256]⟩ bp h1 (ix2 (0 : Fin 1) q)) * shapeCast ⟨3, ![256, 64, 256]⟩ X h3 (ix3 β r q))
    = ∑ r : Fin 64, Ideal.logistic ((∑ j : Fin 256, X (ix2 (Cert.Bridge.brow (b := 256) (m := 64) (n := 16384) rfl β r) j) * Wp (ix2 j q))
        + (∑ j : Fin 256, X0 (ix2 (Cert.Bridge.brow (b := 256) (m := 64) (n := 16384) rfl β r) j) * Wp' (ix2 j q))
        + bp (ix1 q)) * X (ix2 (Cert.Bridge.brow (b := 256) (m := 64) (n := 16384) rfl β r) q)
  simp only [shapeCast_batch_apply (b := 256) (m := 64) (n := 16384) (k := 256) rfl, shapeCast_a_1a_apply]

/-! ## What the program's end leaves alone -/

/-- A buffer that no step of the program's end writes: none of its host stretches and none of the three poolings. -/
abbrev TailKept (r : Ref sig .tc) : Prop :=
  r ∉ hostOps40_W ∧ r ≠ main_v381 ∧ r ∉ hostOps41_W ∧ r ≠ main_v385 ∧ r ∉ hostOps42_W ∧ r ≠ main_v389
    ∧ r ∉ hostOps43_W ∧ r ∉ hostOps43_1_W ∧ r ∉ hostOps43_2_W ∧ r ∉ hostOps43_3_W ∧ r ∉ hostOps43_4_W
    ∧ r ∉ hostOps43_5_W ∧ r ∉ hostOps43_6_W

variable (m : (ℓ : Loc nD τ sig) → Buf (Elt Ideal) ℓ) (ρ : Dev nD → PrngReg)

/-- Such a buffer holds at every boundary of the program's end what it holds at the very end. -/
theorem kept (c : Dev nD) (r : Ref sig .tc) (h : TailKept r) :
    W96 m ρ c (Proc.devRef .tc r) = W109 m ρ c (Proc.devRef .tc r)
    ∧ W97 m ρ c (Proc.devRef .tc r) = W109 m ρ c (Proc.devRef .tc r)
    ∧ W98 m ρ c (Proc.devRef .tc r) = W109 m ρ c (Proc.devRef .tc r)
    ∧ W99 m ρ c (Proc.devRef .tc r) = W109 m ρ c (Proc.devRef .tc r)
    ∧ W100 m ρ c (Proc.devRef .tc r) = W109 m ρ c (Proc.devRef .tc r)
    ∧ W101 m ρ c (Proc.devRef .tc r) = W109 m ρ c (Proc.devRef .tc r)
    ∧ W102 m ρ c (Proc.devRef .tc r) = W109 m ρ c (Proc.devRef .tc r)
    ∧ W103 m ρ c (Proc.devRef .tc r) = W109 m ρ c (Proc.devRef .tc r)
    ∧ W104 m ρ c (Proc.devRef .tc r) = W109 m ρ c (Proc.devRef .tc r)
    ∧ W105 m ρ c (Proc.devRef .tc r) = W109 m ρ c (Proc.devRef .tc r)
    ∧ W106 m ρ c (Proc.devRef .tc r) = W109 m ρ c (Proc.devRef .tc r)
    ∧ W107 m ρ c (Proc.devRef .tc r) = W109 m ρ c (Proc.devRef .tc r)
    ∧ W108 m ρ c (Proc.devRef .tc r) = W109 m ρ c (Proc.devRef .tc r) := by
  obtain ⟨h40, h40', h41, h41', h42, h42', h43, h43_1, h43_2, h43_3, h43_4, h43_5, h43_6⟩ := h
  have e108 := (W109_keep m ρ c r h43_6).symm
  have e107 := (W108_keep m ρ c r h43_5).symm.trans e108
  have e106 := (W107_keep m ρ c r h43_4).symm.trans e107
  have e105 := (W106_keep m ρ c r h43_3).symm.trans e106
  have e104 := (W105_keep m ρ c r h43_2).symm.trans e105
  have e103 := (W104_keep m ρ c r h43_1).symm.trans e104
  have e102 := (W103_keep m ρ c r h43).symm.trans e103
  have e101 := (W102_keep m ρ c r h42').symm.trans e102
  have e100 := (W101_keep m ρ c r h42).symm.trans e101
  have e99 := (W100_keep m ρ c r h41').symm.trans e100
  have e98 := (W99_keep m ρ c r h41).symm.trans e99
  have e97 := (W98_keep m ρ c r h40').symm.trans e98
  have e96 := (W97_keep m ρ c r h40).symm.trans e97
  exact ⟨e96, e97, e98, e99, e100, e101, e102, e103, e104, e105, e106, e107, e108⟩

/-! ## The three poolings -/

/-- THE POOLED NODES: region 40 reads the final node features and the initial ones regrouped by batch, the two pooling
    matrices and the pooling bias as a row, and leaves the gated pooling of the flat arrays. -/
theorem pooled_nodes (c : Dev nD) (Xn : (⟨S32768x256, .f32⟩ : BufTy).Contents (Elt Ideal))
    (hn : W96 m ρ c (Proc.devRef .tc main_v365) = Xn) :
    W98 m ρ c (Proc.devRef .tc main_v381)
      = Cert.Bridge.pool (b := 256) (m := 128) (n := 32768) (k := 256) rfl Xn (m ((c : Thread nD τ).loc main_arg0)) (m ((c : Thread nD τ).loc main_arg22)) (m ((c : Thread nD τ).loc main_arg23)) (m ((c : Thread nD τ).loc main_arg24)) := by
  obtain ⟨a0, -, -, -, -, -, -, -, -, -, -, -, -⟩ := kept m ρ c main_arg0 (by decide)
  obtain ⟨-, a22, -, -, -, -, -, -, -, -, -, -, -⟩ := kept m ρ c main_arg22 (by decide)
  obtain ⟨-, a23, -, -, -, -, -, -, -, -, -, -, -⟩ := kept m ρ c main_arg23 (by decide)
  obtain ⟨a24, -, -, -, -, -, -, -, -, -, -, -, -⟩ := kept m ρ c main_arg24 (by decide)
  have e379 : W97 m ρ c (Proc.devRef .tc main_v379) = _ := after40_v379 (F := Ideal) (W96 m ρ c)
  have e380 : W97 m ρ c (Proc.devRef .tc main_v380) = _ := after40_v380 (F := Ideal) (W96 m ρ c)
  have e378 : W97 m ρ c (Proc.devRef .tc main_v378) = _ := after40_v378 (F := Ideal) (W96 m ρ c)
  rw [hn] at e379
  rw [a0, W109_main_arg0] at e380
  rw [a24, W109_main_arg24] at e378
  have e381 : W98 m ρ c (Proc.devRef .tc main_v381) = (dat40 (V97 m ρ) c).arrAt 5 cfg40.N := W98_arr m ρ c 5
  rw [e381, arrAt40 (V97 m ρ) c]
  show pool40 (W97 m ρ c (Proc.devRef .tc main_v379)) (W97 m ρ c (Proc.devRef .tc main_v380)) (W97 m ρ c (Proc.devRef .tc main_arg22))
      (W97 m ρ c (Proc.devRef .tc main_arg23)) (W97 m ρ c (Proc.devRef .tc main_v378)) = _
  rw [e379, e380, e378, a22, W109_main_arg22, a23, W109_main_arg23]
  exact pool40_batch _ _ _ _ _ _ _

/-- THE POOLED EDGES: region 41 likewise, on the edge features as the program's end finds them. -/
theorem pooled_edges (c : Dev nD) (Xe : (⟨S65536x256, .f32⟩ : BufTy).Contents (Elt Ideal))
    (he : W96 m ρ c (Proc.devRef .tc main_v371) = Xe) :
    W100 m ρ c (Proc.devRef .tc main_v385)
      = Cert.Bridge.pool (b := 256) (m := 256) (n := 65536) (k := 256) rfl Xe (m ((c : Thread nD τ).loc main_arg1)) (m ((c : Thread nD τ).loc main_arg22)) (m ((c : Thread nD τ).loc main_arg23)) (m ((c : Thread nD τ).loc main_arg24)) := by
  obtain ⟨-, -, a1, -, -, -, -, -, -, -, -, -, -⟩ := kept m ρ c main_arg1 (by decide)
  obtain ⟨-, -, -, a22, -, -, -, -, -, -, -, -, -⟩ := kept m ρ c main_arg22 (by decide)
  obtain ⟨-, -, -, a23, -, -, -, -, -, -, -, -, -⟩ := kept m ρ c main_arg23 (by decide)
  obtain ⟨-, -, a24, -, -, -, -, -, -, -, -, -, -⟩ := kept m ρ c main_arg24 (by decide)
  obtain ⟨x96, -, x98, -, -, -, -, -, -, -, -, -, -⟩ := kept m ρ c main_v371 (by decide)
  have e383 : W99 m ρ c (Proc.devRef .tc main_v383) = _ := after41_v383 (F := Ideal) (W98 m ρ c)
  have e384 : W99 m ρ c (Proc.devRef .tc main_v384) = _ := after41_v384 (F := Ideal) (W98 m ρ c)
  have e382 : W99 m ρ c (Proc.devRef .tc main_v382) = _ := after41_v382 (F := Ideal) (W98 m ρ c)
  rw [x98, ← x96, he] at e383
  rw [a1, W109_main_arg1] at e384
  rw [a24, W109_main_arg24] at e382
  have e385 : W100 m ρ c (Proc.devRef .tc main_v385) = (dat41 (V99 m ρ) c).arrAt 5 cfg41.N := W100_arr m ρ c 5
  rw [e385, arrAt41 (V99 m ρ) c]
  show pool41 (W99 m ρ c (Proc.devRef .tc main_v383)) (W99 m ρ c (Proc.devRef .tc main_v384)) (W99 m ρ c (Proc.devRef .tc main_arg22))
      (W99 m ρ c (Proc.devRef .tc main_arg23)) (W99 m ρ c (Proc.devRef .tc main_v382)) = _
  rw [e383, e384, e382, a22, W109_main_arg22, a23, W109_main_arg23]
  exact pool41_batch _ _ _ _ _ _ _

/-- THE POOLED CELLS: region 42 likewise, on the cell features as the program's end finds them. -/
theorem pooled_cells (c : Dev nD) (Xc : (⟨S16384x256, .f32⟩ : BufTy).Contents (Elt Ideal))
    (hc : W96 m ρ c (Proc.devRef .tc main_v377) = Xc) :
    W102 m ρ c (Proc.devRef .tc main_v389)
      = Cert.Bridge.pool (b := 256) (m := 64) (n := 16384) (k := 256) rfl Xc (m ((c : Thread nD τ).loc main_arg2)) (m ((c : Thread nD τ).loc main_arg22)) (m ((c : Thread nD τ).loc main_arg23)) (m ((c : Thread nD τ).loc main_arg24)) := by
  obtain ⟨-, -, -, -, a2, -, -, -, -, -, -, -, -⟩ := kept m ρ c main_arg2 (by decide)
  obtain ⟨-, -, -, -, -, a22, -, -, -, -, -, -, -⟩ := kept m ρ c main_arg22 (by decide)
  obtain ⟨-, -, -, -, -, a23, -, -, -, -, -, -, -⟩ := kept m ρ c main_arg23 (by decide)
  obtain ⟨-, -, -, -, a24, -, -, -, -, -, -, -, -⟩ := kept m ρ c main_arg24 (by decide)
  obtain ⟨x96, -, -, -, x100, -, -, -, -, -, -, -, -⟩ := kept m ρ c main_v377 (by decide)
  have e387 : W101 m ρ c (Proc.devRef .tc main_v387) = _ := after42_v387 (F := Ideal) (W100 m ρ c)
  have e388 : W101 m ρ c (Proc.devRef .tc main_v388) = _ := after42_v388 (F := Ideal) (W100 m ρ c)
  have e386 : W101 m ρ c (Proc.devRef .tc main_v386) = _ := after42_v386 (F := Ideal) (W100 m ρ c)
  rw [x100, ← x96, hc] at e387
  rw [a2, W109_main_arg2] at e388
  rw [a24, W109_main_arg24] at e386
  have e389 : W102 m ρ c (Proc.devRef .tc main_v389) = (dat42 (V101 m ρ) c).arrAt 5 cfg42.N := W102_arr m ρ c 5
  rw [e389, arrAt42 (V101 m ρ) c]
  show pool42 (W101 m ρ c (Proc.devRef .tc main_v387)) (W101 m ρ c (Proc.devRef .tc main_v388)) (W101 m ρ c (Proc.devRef .tc main_arg22))
      (W101 m ρ c (Proc.devRef .tc main_arg23)) (W101 m ρ c (Proc.devRef .tc main_v386)) = _
  rw [e387, e388, e386, a22, W109_main_arg22, a23, W109_main_arg23]
  exact pool42_batch _ _ _ _ _ _ _

/-! ## The readout -/

/-- THE RESULT OF THE KERNEL PROGRAM is the readout of the three pooled arrays as the poolings left them: the seven host
    stretches after the last pooling, each read where its operands stand. -/
theorem kernel_readout (c : Dev nD) :
    W109 m ρ c (Proc.devRef .tc main_v424)
      = Cert.Bridge.tail (W98 m ρ c (Proc.devRef .tc main_v381)) (W100 m ρ c (Proc.devRef .tc main_v385)) (W102 m ρ c (Proc.devRef .tc main_v389))
          (m ((c : Thread nD τ).loc main_arg25)) (m ((c : Thread nD τ).loc main_arg26)) (m ((c : Thread nD τ).loc main_arg27)) (m ((c : Thread nD τ).loc main_arg28)) := by
  obtain ⟨-, -, -, -, -, -, a25, -, a25', -, a25'', -, -⟩ := kept m ρ c main_arg25 (by decide)
  obtain ⟨-, -, -, -, -, -, a26, -, a26', -, a26'', -, -⟩ := kept m ρ c main_arg26 (by decide)
  obtain ⟨-, -, -, -, -, -, -, -, -, -, -, -, a27⟩ := kept m ρ c main_arg27 (by decide)
  obtain ⟨-, -, -, -, -, -, -, -, -, -, -, -, a28⟩ := kept m ρ c main_arg28 (by decide)
  -- each pooled array where its family's product reads it
  have p0 : W102 m ρ c (Proc.devRef .tc main_v381) = W98 m ρ c (Proc.devRef .tc main_v381) :=
    (W102_keep m ρ c main_v381 (by decide)).trans <| (W101_keep m ρ c main_v381 (by decide)).trans <|
    (W100_keep m ρ c main_v381 (by decide)).trans (W99_keep m ρ c main_v381 (by decide))
  have p1 : W104 m ρ c (Proc.devRef .tc main_v385) = W100 m ρ c (Proc.devRef .tc main_v385) :=
    (W104_keep m ρ c main_v385 (by decide)).trans <| (W103_keep m ρ c main_v385 (by decide)).trans <|
    (W102_keep m ρ c main_v385 (by decide)).trans (W101_keep m ρ c main_v385 (by decide))
  have p2 : W106 m ρ c (Proc.devRef .tc main_v389) = W102 m ρ c (Proc.devRef .tc main_v389) :=
    (W106_keep m ρ c main_v389 (by decide)).trans <| (W105_keep m ρ c main_v389 (by decide)).trans <|
    (W104_keep m ρ c main_v389 (by decide)).trans (W103_keep m ρ c main_v389 (by decide))
  -- the running sum where the next addition reads it
  have s0 : W106 m ρ c (Proc.devRef .tc main_v400) = W105 m ρ c (Proc.devRef .tc main_v400) := W106_keep m ρ c main_v400 (by decide)
  have s1 : W108 m ρ c (Proc.devRef .tc main_v410) = W107 m ρ c (Proc.devRef .tc main_v410) := W108_keep m ρ c main_v410 (by decide)
  -- the stretches
  have e397 : W103 m ρ c (Proc.devRef .tc main_v397) = _ := after43_v397 (F := Ideal) (W102 m ρ c)
  have e398 : W104 m ρ c (Proc.devRef .tc main_v398) = _ := after43_1_v398 (F := Ideal) (W103 m ρ c)
  have e400 : W105 m ρ c (Proc.devRef .tc main_v400) = _ := after43_2_v400 (F := Ideal) (W104 m ρ c)
  have e408 : W105 m ρ c (Proc.devRef .tc main_v408) = _ := after43_2_v408 (F := Ideal) (W104 m ρ c)
  have e409 : W106 m ρ c (Proc.devRef .tc main_v409) = _ := after43_3_v409 (F := Ideal) (W105 m ρ c)
  have e410 : W107 m ρ c (Proc.devRef .tc main_v410) = _ := after43_4_v410 (F := Ideal) (W106 m ρ c)
  have e418 : W107 m ρ c (Proc.devRef .tc main_v418) = _ := after43_4_v418 (F := Ideal) (W106 m ρ c)
  have e419 : W108 m ρ c (Proc.devRef .tc main_v419) = _ := after43_5_v419 (F := Ideal) (W107 m ρ c)
  have e424 : W109 m ρ c (Proc.devRef .tc main_v424) = _ := after43_6_v424 (F := Ideal) (W108 m ρ c)
  rw [p0, a25, a26, W109_main_arg25, W109_main_arg26] at e397
  rw [e397] at e398
  rw [e398] at e400
  rw [p1, a25', a26', W109_main_arg25, W109_main_arg26] at e408
  rw [e408] at e409
  rw [s0, e400, e409] at e410
  rw [p2, a25'', a26'', W109_main_arg25, W109_main_arg26] at e418
  rw [e418] at e419
  rw [s1, e410, e419, a27, a28, W109_main_arg27, W109_main_arg28] at e424
  exact e424.trans (Cert.Bridge.tail_kernel _ _ _ _ _ _ _)

/-! ## The end of the kernel program against the reference's last values -/

/-- THE TAIL: if the three feature arrays the program's end finds are the reference's last values, the kernel program's
    result is the reference's: both are the readout of the three gated poolings of those arrays. -/
theorem tail (c : Dev nD)
    (hn : W96 m ρ c (Proc.devRef .tc main_v365)
      = Cert.ReferenceIdeal.Read.val_main_v412 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))
    (he : W96 m ρ c (Proc.devRef .tc main_v371)
      = Cert.ReferenceIdeal.Read.val_main_v423 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)))
    (hc : W96 m ρ c (Proc.devRef .tc main_v377)
      = Cert.ReferenceIdeal.Read.val_main_v433 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) :
    W109 m ρ c (Proc.devRef .tc main_v424)
      = Cert.ReferenceIdeal.Read.val_main_v513 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) := by
  rw [Cert.Bridge.ref_result, kernel_readout m ρ c, pooled_nodes m ρ c _ hn, pooled_edges m ρ c _ he, pooled_cells m ρ c _ hc]

end Cert.KernelIdeal.Val

end
-- ==== Proof.PreFinite.lean ====
/- From the precondition to the finiteness of every float input: the precondition says that, of each float argument,
   the test  |x| < +∞  holds at every entry; an extended real whose absolute value is below +∞ is a real number. -/
import proofs.«101828_j11562051961417_2_alg».proof.Defs
import proofs.«101828_j11562051961417_2_alg».proof.Proof.Spec
import Idealize.ShloMosaic.Lib.ReduceAll
import Idealize.ShloMosaic.Lib.ValueIdx

noncomputable section

namespace Cert.Bridge

open Idealize.ShloMosaic Idealize.ShloMosaic.ValueIdx

/-- The shape of a scalar has one index. -/
instance subsingleton_scalar_idx : Subsingleton (⟨0, ![]⟩ : Shape).Idx := ⟨fun a b => funext fun d => d.elim0⟩

/-- The f32 word 0x7F800000 is +∞. -/
theorem ofBits_f32_inf : Ideal.ofBits .f32 0x7F800000#32 = (⊤ : EReal) := by
  simp [Ideal.ofBits, Ideal.ieee]

/-- An extended real whose absolute value max(x, −x) is below +∞ is neither infinity. -/
theorem ne_top_bot_of_abs_lt_top (x : EReal) (h : max x (-x) < ⊤) : x ≠ ⊤ ∧ x ≠ ⊥ := by
  induction x using EReal.rec with
  | bot => simp at h
  | coe r => exact ⟨EReal.coe_ne_top r, EReal.coe_ne_bot r⟩
  | top => simp at h

/-- A truth value that prints as the word 1 is true. -/
theorem eq_true_of_ofBool_eq_one {b : Bool} (h : BitVec.ofBool b = 1#1) : b = true := by
  cases b
  · exact absurd h (by decide)
  · rfl

/-- ONE CONJUNCT of the precondition, for any shape: if the entrywise test |x| < +∞, reduced by "and" over all axes, is 1,
    every entry of x is a real number. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) :
    Cert.Spec.Finite x := by
  intro i
  have h1 := Host.reduce_andi_all _ _ hr hu ix0 e i
  have h2 : Ideal.cmp .olt (max (x i) (-(x i))) (Ideal.ofBits .f32 0x7F800000#32) = 1#1 := h1
  rw [ofBits_f32_inf] at h2
  have h3 : BitVec.ofBool (decide (max (x i) (-(x i)) < (⊤ : EReal))) = 1#1 := h2
  exact ne_top_bot_of_abs_lt_top (x i) (of_decide_eq_true (eq_true_of_ofBool_eq_one h3))

/-- Both words of an "and" of two one-bit scalars that is 1 are 1. -/
theorem and_scalar_eq_one (a b : IVec ⟨0, ![]⟩ 1) (h : andi a b ix0 = 1#1) : a ix0 = 1#1 ∧ b ix0 = 1#1 :=
  IntOp.andi_eq_one.1 h

variable [Cert.Pre_finite_inputs.Facts]

open Cert.Pre_finite_inputs Cert.Pre_finite_inputs.Facts in
/-- THE PRECONDITION GIVES FINITENESS: under the precondition every entry of every float argument is a real number
    (the integer arguments are not constrained). -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.Finite (s := ⟨2, ![32768, 256]⟩) (m ((c.tc : Thread Cert.KernelIdeal.nD Cert.KernelIdeal.τ).loc Cert.KernelIdeal.main_arg0))
    ∧ Cert.Spec.Finite (s := ⟨2, ![65536, 256]⟩) (m ((c.tc : Thread Cert.KernelIdeal.nD Cert.KernelIdeal.τ).loc Cert.KernelIdeal.main_arg1))
    ∧ Cert.Spec.Finite (s := ⟨2, ![16384, 256]⟩) (m ((c.tc : Thread Cert.KernelIdeal.nD Cert.KernelIdeal.τ).loc Cert.KernelIdeal.main_arg2))
    ∧ Cert.Spec.Finite (s := ⟨4, ![4, 3, 256, 256]⟩) (m ((c.tc : Thread Cert.KernelIdeal.nD Cert.KernelIdeal.τ).loc Cert.KernelIdeal.main_arg17))
    ∧ Cert.Spec.Finite (s := ⟨3, ![4, 3, 256]⟩) (m ((c.tc : Thread Cert.KernelIdeal.nD Cert.KernelIdeal.τ).loc Cert.KernelIdeal.main_arg18))
    ∧ Cert.Spec.Finite (s := ⟨4, ![4, 2, 256, 256]⟩) (m ((c.tc : Thread Cert.KernelIdeal.nD Cert.KernelIdeal.τ).loc Cert.KernelIdeal.main_arg19))
    ∧ Cert.Spec.Finite (s := ⟨4, ![4, 2, 256, 256]⟩) (m ((c.tc : Thread Cert.KernelIdeal.nD Cert.KernelIdeal.τ).loc Cert.KernelIdeal.main_arg20))
    ∧ Cert.Spec.Finite (s := ⟨4, ![4, 2, 256, 256]⟩) (m ((c.tc : Thread Cert.KernelIdeal.nD Cert.KernelIdeal.τ).loc Cert.KernelIdeal.main_arg21))
    ∧ Cert.Spec.Finite (s := ⟨2, ![256, 256]⟩) (m ((c.tc : Thread Cert.KernelIdeal.nD Cert.KernelIdeal.τ).loc Cert.KernelIdeal.main_arg22))
    ∧ Cert.Spec.Finite (s := ⟨2, ![256, 256]⟩) (m ((c.tc : Thread Cert.KernelIdeal.nD Cert.KernelIdeal.τ).loc Cert.KernelIdeal.main_arg23))
    ∧ Cert.Spec.Finite (s := ⟨1, ![256]⟩) (m ((c.tc : Thread Cert.KernelIdeal.nD Cert.KernelIdeal.τ).loc Cert.KernelIdeal.main_arg24))
    ∧ Cert.Spec.Finite (s := ⟨3, ![3, 256, 512]⟩) (m ((c.tc : Thread Cert.KernelIdeal.nD Cert.KernelIdeal.τ).loc Cert.KernelIdeal.main_arg25))
    ∧ Cert.Spec.Finite (s := ⟨2, ![3, 512]⟩) (m ((c.tc : Thread Cert.KernelIdeal.nD Cert.KernelIdeal.τ).loc Cert.KernelIdeal.main_arg26))
    ∧ Cert.Spec.Finite (s := ⟨2, ![512, 10]⟩) (m ((c.tc : Thread Cert.KernelIdeal.nD Cert.KernelIdeal.τ).loc Cert.KernelIdeal.main_arg27))
    ∧ Cert.Spec.Finite (s := ⟨1, ![10]⟩) (m ((c.tc : Thread Cert.KernelIdeal.nD Cert.KernelIdeal.τ).loc Cert.KernelIdeal.main_arg28)) := by
  have h0 := congrFun (h c) ix0
  dsimp only [fn, fn_part1, fn_part2, fn_part3, fn_part4] at h0
  obtain ⟨h0, e28⟩ := and_scalar_eq_one _ _ h0
  obtain ⟨h0, e27⟩ := and_scalar_eq_one _ _ h0
  obtain ⟨h0, e26⟩ := and_scalar_eq_one _ _ h0
  obtain ⟨h0, e25⟩ := and_scalar_eq_one _ _ h0
  obtain ⟨h0, e24⟩ := and_scalar_eq_one _ _ h0
  obtain ⟨h0, e23⟩ := and_scalar_eq_one _ _ h0
  obtain ⟨h0, e22⟩ := and_scalar_eq_one _ _ h0
  obtain ⟨h0, e21⟩ := and_scalar_eq_one _ _ h0
  obtain ⟨h0, e20⟩ := and_scalar_eq_one _ _ h0
  obtain ⟨h0, e19⟩ := and_scalar_eq_one _ _ h0
  obtain ⟨h0, e18⟩ := and_scalar_eq_one _ _ h0
  obtain ⟨h0, e17⟩ := and_scalar_eq_one _ _ h0
  obtain ⟨h0, e2⟩ := and_scalar_eq_one _ _ h0
  obtain ⟨e0, e1⟩ := and_scalar_eq_one _ _ h0
  exact ⟨finite_of_all _ _ _ _ e0, finite_of_all _ _ _ _ e1, finite_of_all _ _ _ _ e2, finite_of_all _ _ _ _ e17,
    finite_of_all _ _ _ _ e18, finite_of_all _ _ _ _ e19, finite_of_all _ _ _ _ e20, finite_of_all _ _ _ _ e21,
    finite_of_all _ _ _ _ e22, finite_of_all _ _ _ _ e23, finite_of_all _ _ _ _ e24, finite_of_all _ _ _ _ e25,
    finite_of_all _ _ _ _ e26, finite_of_all _ _ _ _ e27, finite_of_all _ _ _ _ e28⟩

end Cert.Bridge

end
-- ==== Proof.FiniteHost.lean ====
/- The host operations both programs use keep every entry a real number: read at the extended reals (every float
   operation exact), each of them returns an array whose entries are entries of its operands, or finite sums, products,
   maxima, negations, exponentials of them, or quotients by a divisor that is not zero. None of this mentions a
   program: every statement is over arbitrary shapes and dimension numbers. -/
import Idealize.ShloMosaic.PureOps.Ideal
import Idealize.ShloMosaic.PureOps.Ideal.Laws
import Idealize.ShloMosaic.Lib.ValueIdx
import Idealize.ShloMosaic.Lib.IdealHost
import Mathlib.Data.EReal.Inv
import proofs.«101828_j11562051961417_2_alg».proof.Proof.Spec
import proofs.«101828_j11562051961417_2_alg».proof.Proof.Laws

noncomputable section

namespace Cert.Spec

open Idealize.ShloMosaic Idealize.ShloMosaic.ValueIdx
open scoped BigOperators

/-! ## (1) Gather: every entry of the result is an entry of the operand -/

/-- A gather reads, at each result index, the operand at one index (the clamped start plus the batch and offset
    coordinates). -/
theorem gather_eq_operand {α : Type} {s si t : Shape} {w : Nat} (d : GatherDims s si t) (x : s.Idx → α)
    (idx : IVec si w) (j : t.Idx) : ∃ i, Host.gather d x idx j = x i :=
  ⟨d.operandIdx j idx, rfl⟩

/-- A gather from a real array is real. -/
theorem finite_gather {s si t : Shape} {w : Nat} (d : GatherDims s si t) {x : s.Idx → EReal} (hx : Finite x)
    (idx : IVec si w) : Finite (Host.gather d x idx) :=
  fun _ => hx _

/-! ## (2) Scatter: every entry of the result is built from entries of the operand and of the updates -/

/-- A property that holds of every entry of the operand and of every update, and that the body keeps, holds of every
    entry of the scatter: the scatter is a fold over the update indices, each step replacing one entry (or none) by
    the body's value there; by induction over the list of update indices, for every starting array. -/
theorem scatter_induction {α : Type} {s si u : Shape} {w : Nat} (d : ScatterDims s si u) (f : α → α → α)
    (P : α → Prop) (hf : ∀ a b, P a → P b → P (f a b)) (x : s.Idx → α) (idx : IVec si w) (upd : u.Idx → α)
    (hx : ∀ i, P (x i)) (hu : ∀ j, P (upd j)) : ∀ i, P (Host.scatter d f x idx upd i) := by
  unfold Host.scatter
  generalize List.finRange u.numel = L
  induction L generalizing x with
  | nil => exact hx
  | cons n L ih =>
    rw [List.foldl_cons]
    refine ih _ fun i' => ?_
    cases d.resultIdx? (u.rowMajor.symm n) idx with
    | none => exact hx _
    | some i =>
      show P (if i' = i then f (x i) (upd (u.rowMajor.symm n)) else x i')
      split_ifs
      · exact hf _ _ (hx _) (hu _)
      · exact hx _

/-- A scatter whose body returns the update: every entry is an entry of the operand or an entry of the updates. -/
theorem scatter_set_eq_operand_or_update {α : Type} {s si u : Shape} {w : Nat} (d : ScatterDims s si u)
    (x : s.Idx → α) (idx : IVec si w) (upd : u.Idx → α) (i : s.Idx) :
    (∃ i', Host.scatter d (fun _ b => b) x idx upd i = x i') ∨ (∃ j, Host.scatter d (fun _ b => b) x idx upd i = upd j) :=
  scatter_induction d (fun _ b => b) (fun a => (∃ i', a = x i') ∨ (∃ j, a = upd j)) (fun _ _ _ hb => hb) x idx upd
    (fun i' => Or.inl ⟨i', rfl⟩) (fun j => Or.inr ⟨j, rfl⟩) i

/-- A scatter of real updates into a real operand, the body returning the update, is real. -/
theorem finite_scatter {s si u : Shape} {w : Nat} (d : ScatterDims s si u) {x : s.Idx → EReal} {upd : u.Idx → EReal}
    (hx : Finite x) (hu : Finite upd) (idx : IVec si w) : Finite (Host.scatter d (fun _ b => b) x idx upd) :=
  scatter_induction d (fun _ b => b) (fun a => a ≠ ⊤ ∧ a ≠ ⊥) (fun _ _ _ hb => hb) x idx upd hx hu

/-! ## (3) The accumulating scatter: the operand's entry plus a finite sum of updates -/

/-- At the extended reals the accumulating scatter is, at each index, the operand's entry plus the sum of the updates
    that land there. -/
theorem scatterAdd_eq {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- An accumulating scatter of real updates into a real operand is real. -/
theorem finite_scatterAdd {s si u : Shape} {w : Nat} {φ : FTy} (d : ScatterDims s si u) {x : FVec Ideal s φ}
    {upd : FVec Ideal u φ} (hx : Finite x) (hu : Finite upd) (idx : IVec si w) :
    Finite (Host.scatterAdd (F := Ideal) d x idx upd) := by
  intro i
  rw [scatterAdd_eq]
  unfold Ideal.hostScatterAdd
  exact add_ne_top_bot (hx i) (sum_ne_top_bot _ _ hu)

/-! ## (4) The general product: a finite sum of products -/

/-- The host's general product of two real arrays is real, whatever the dimension numbers, precision and schedule
    key: each entry is the sum over the contraction index of products of entries. -/
theorem finite_dotGeneralAt {sl sr so : Shape} {φ₁ φ₂ : FTy} (d : DotDims sl sr so) (prec : Option ContractPrecision)
    (sched : HostSchedule) {l : FVec Ideal sl φ₁} {r : FVec Ideal sr φ₂} (hl : Finite l) (hr : Finite r) :
    Finite (FloatOps.dotGeneral (F := Ideal) d prec sched l r) := by
  intro j
  rw [Ideal.dotGeneral_apply]
  exact sum_ne_top_bot _ _ fun _ => mul_ne_top_bot (hl _) (hr _)

/-- The same at one device's schedule key, as a host program states it. -/
theorem finite_dotGeneral {sl sr so : Shape} {φ₁ φ₂ : FTy} (d : DotDims sl sr so) (prec : Option ContractPrecision)
    {l : FVec Ideal sl φ₁} {r : FVec Ideal sr φ₂} (hl : Finite l) (hr : Finite r) :
    Finite (Host.dotGeneral (F := Ideal) d prec l r) :=
  finite_dotGeneralAt d prec .single hl hr

/-! ## (5) The float operations entry by entry -/

/-- The larger of two real entries is real: it is one of the two. -/
theorem max_ne_top_bot {x y : EReal} (hx : x ≠ ⊤ ∧ x ≠ ⊥) (hy : y ≠ ⊤ ∧ y ≠ ⊥) : max x y ≠ ⊤ ∧ max x y ≠ ⊥ := by
  rcases max_choice x y with h | h
  · rw [h]; exact hx
  · rw [h]; exact hy

/-- The negation of a real entry is real. -/
theorem neg_ne_top_bot {x : EReal} (hx : x ≠ ⊤ ∧ x ≠ ⊥) : -x ≠ ⊤ ∧ -x ≠ ⊥ := by
  obtain ⟨a, rfl⟩ := exists_real_of_ne_top_bot hx
  rw [← EReal.coe_neg]
  exact coe_ne_top_bot _

/-- The exponential of a real entry is real. -/
theorem exp_ne_top_bot {x : EReal} (hx : x ≠ ⊤ ∧ x ≠ ⊥) : Ideal.exp x ≠ ⊤ ∧ Ideal.exp x ≠ ⊥ := by
  obtain ⟨a, rfl⟩ := exists_real_of_ne_top_bot hx
  rw [Ideal.exp_coe]
  exact coe_ne_top_bot _

/-- The quotient of two real entries by a divisor that is not zero is real: it is the image of the real quotient. -/
theorem div_ne_top_bot {x y : EReal} (hx : x ≠ ⊤ ∧ x ≠ ⊥) (hy : y ≠ ⊤ ∧ y ≠ ⊥) (h0 : y ≠ 0) :
    Ideal.div x y ≠ ⊤ ∧ Ideal.div x y ≠ ⊥ := by
  obtain ⟨a, rfl⟩ := exists_real_of_ne_top_bot hx
  obtain ⟨b, rfl⟩ := exists_real_of_ne_top_bot hy
  rw [Ideal.div, if_neg h0, ← EReal.coe_inv, ← EReal.coe_mul]
  exact coe_ne_top_bot _

/-- The entrywise sum of two real arrays is real. -/
theorem finite_addf {s : Shape} {φ : FTy} {x y : FVec Ideal s φ} (hx : Finite x) (hy : Finite y) :
    Finite (addf (F := Ideal) x y) :=
  fun i => add_ne_top_bot (hx i) (hy i)

/-- The entrywise product of two real arrays is real. -/
theorem finite_mulf {s : Shape} {φ : FTy} {x y : FVec Ideal s φ} (hx : Finite x) (hy : Finite y) :
    Finite (mulf (F := Ideal) x y) :=
  fun i => mul_ne_top_bot (hx i) (hy i)

/-- The entrywise maximum of two real arrays is real. -/
theorem finite_maximumf {s : Shape} {φ : FTy} {x y : FVec Ideal s φ} (hx : Finite x) (hy : Finite y) :
    Finite (maximumf (F := Ideal) x y) :=
  fun i => max_ne_top_bot (hx i) (hy i)

/-- The host's negation at an index is the negation of the entry. -/
theorem hostNegf_apply {s : Shape} {φ : FTy} (x : FVec Ideal s φ) (i : s.Idx) :
    Host.negf (F := Ideal) x i = -(x i) := rfl

/-- The host's exponential at an index is the exponential of the entry. -/
theorem hostExp_apply {s : Shape} {φ : FTy} (x : FVec Ideal s φ) (i : s.Idx) :
    Host.exp (F := Ideal) x i = Ideal.exp (x i) := rfl

/-- The host's negation of a real array is real. -/
theorem finite_hostNegf {s : Shape} {φ : FTy} {x : FVec Ideal s φ} (hx : Finite x) :
    Finite (Host.negf (F := Ideal) x) := by
  intro i
  rw [hostNegf_apply]
  exact neg_ne_top_bot (hx i)

/-- The host's exponential of a real array is real. -/
theorem finite_hostExp {s : Shape} {φ : FTy} {x : FVec Ideal s φ} (hx : Finite x) :
    Finite (Host.exp (F := Ideal) x) := by
  intro i
  rw [hostExp_apply]
  exact exp_ne_top_bot (hx i)

/-- The host's quotient of two real arrays, the divisor nowhere zero, is real. -/
theorem finite_hostDivf {s : Shape} {φ : FTy} {x y : FVec Ideal s φ} (hx : Finite x) (hy : Finite y)
    (h0 : ∀ i, y i ≠ 0) : Finite (Host.divf (F := Ideal) x y) := by
  intro i
  rw [hostDivf_apply]
  exact div_ne_top_bot (hx i) (hy i) (h0 i)

/-- The host's spelling of the logistic function, one over one plus the exponential of the negation, the two ones
    being arrays that read 1 everywhere, is the logistic function at each entry: that function is defined as this
    quotient. -/
theorem hostLogistic_apply {s : Shape} {φ : FTy} (one one' x : FVec Ideal s φ) (h1 : ∀ i, one i = 1)
    (h1' : ∀ i, one' i = 1) (i : s.Idx) :
    Host.divf (F := Ideal) one (addf one' (Host.exp (Host.negf x))) i = Ideal.logistic (x i) := by
  show Ideal.div (one i) (one' i + Ideal.exp (-(x i))) = Ideal.logistic (x i)
  rw [h1, h1']
  rfl

/-- So the host's spelling of the logistic function of a real array is real. -/
theorem finite_hostLogistic {s : Shape} {φ : FTy} {one one' x : FVec Ideal s φ} (h1 : ∀ i, one i = 1)
    (h1' : ∀ i, one' i = 1) (hx : Finite x) :
    Finite (Host.divf (F := Ideal) one (addf one' (Host.exp (Host.negf x)))) := by
  intro i
  rw [hostLogistic_apply one one' x h1 h1' i]
  exact logistic_ne_top_bot (hx i)

/-- The host's sum over axes of a real array, from a real initial value, is real: each entry is the initial value
    plus a finite sum of entries. -/
theorem finite_hostReduceAdd {s t u : Shape} {φ : FTy} {axes : List (Fin s.rank)} {x : FVec Ideal s φ}
    {init : u.Idx → Ideal φ} (hx : Finite x) (hinit : Finite init) (h : s.ReducesTo axes t) (hu : 0 < u.numel) :
    Finite (Host.reduceAdd (F := Ideal) x init h hu) := by
  intro j
  rw [hostReduceAdd_apply]
  unfold Ideal.hostReduceAdd
  exact add_ne_top_bot (hinit _) (sum_ne_top_bot _ _ hx)

/-- A selection between two real arrays, entry by entry, is real: each entry is one of the two. -/
theorem finite_select {s : Shape} (c : IVec s 1) {x y : s.Idx → EReal} (hx : Finite x) (hy : Finite y) :
    Finite (select c x y) := by
  intro i
  rw [select_apply]
  unfold Scalar.select
  split_ifs
  · exact hx i
  · exact hy i

/-! ## (6) The layout operations: every entry of the result is an entry of the operand -/

/-- A reshape of a real array is real. -/
theorem finite_shapeCast {s t : Shape} {x : s.Idx → EReal} (hx : Finite x) (h : s.ShapeCasts t) :
    Finite (shapeCast t x h) :=
  fun _ => hx _

/-- A broadcast of a real array along new or unit axes is real. -/
theorem finite_broadcastInDim {s t : Shape} (dims : Fin s.rank → Fin t.rank) (h : s.BroadcastsInDim t dims)
    {x : s.Idx → EReal} (hx : Finite x) : Finite (broadcastInDim t dims h x) :=
  fun _ => hx _

/-- A block cut out of a real array is real. -/
theorem finite_extractStridedSlice {s t : Shape} (off : Fin s.rank → Nat) {x : s.Idx → EReal} (hx : Finite x)
    (h : s.Slices off t) : Finite (extractStridedSlice t off x h) :=
  fun _ => hx _

/-- A transpose of a real array is real. -/
theorem finite_transpose {s t : Shape} (perm : List (Fin s.rank)) {x : s.Idx → EReal} (hx : Finite x)
    (h : s.Transposes perm t) : Finite (transpose t perm x h) :=
  fun _ => hx _

/-! ## (7) Constants -/

/-- A constant array is real when the extended real its word encodes is. -/
theorem finite_constant {s : Shape} {φ : FTy} {b : BitVec φ.bits}
    (h : Ideal.ofBits φ b ≠ ⊤ ∧ Ideal.ofBits φ b ≠ ⊥) : Finite (constant (F := Ideal) s φ b) :=
  fun _ => h

/-- One is real. -/
theorem one_ne_top_bot : (1 : EReal) ≠ ⊤ ∧ (1 : EReal) ≠ ⊥ := by
  rw [← EReal.coe_one]
  exact coe_ne_top_bot 1

/-- The 32-bit zero word is the real number zero, so its constant array is real and reads 0 everywhere. -/
theorem finite_constant_zero_f32 (s : Shape) : Finite (constant (F := Ideal) s .f32 0x00000000#32) :=
  finite_constant (by rw [Ideal.ofBits_zero_f32]; exact zero_ne_top_bot)

/-- The 32-bit word of one is the real number one. -/
theorem finite_constant_one_f32 (s : Shape) : Finite (constant (F := Ideal) s .f32 0x3F800000#32) :=
  finite_constant (by rw [Ideal.ofBits_one_f32]; exact one_ne_top_bot)

/-- The 16-bit zero word is the real number zero. -/
theorem finite_constant_zero_bf16 (s : Shape) : Finite (constant (F := Ideal) s .bf16 0x0000#16) :=
  finite_constant (by rw [Ideal.ofBits_zero_bf16]; exact zero_ne_top_bot)

/-- The 16-bit word of one is the real number one. -/
theorem finite_constant_one_bf16 (s : Shape) : Finite (constant (F := Ideal) s .bf16 0x3F80#16) :=
  finite_constant (by rw [Ideal.ofBits_one_bf16]; exact one_ne_top_bot)

/-- The constant array of the 32-bit word of one reads 1 everywhere. -/
theorem constant_one_f32_apply (s : Shape) (i : s.Idx) : constant (F := Ideal) s .f32 0x3F800000#32 i = 1 :=
  Ideal.ofBits_one_f32

/-- The constant array of the 32-bit zero word reads 0 everywhere. -/
theorem constant_zero_f32_apply (s : Shape) (i : s.Idx) : constant (F := Ideal) s .f32 0x00000000#32 i = 0 :=
  Ideal.ofBits_zero_f32

end Cert.Spec

end
-- ==== Proof.RefFinite.lean ====
/- The reference program keeps every float entry a real number through the message-passing layers: given real inputs
   and real weights, the node, edge and cell features after each layer are real. Each layer is the same composition of
   operations (products, gathered rows, summed messages, a bias row, the boundary term through the incidence array, the
   rectifier), and each of those operations keeps entries real; the walk goes down the definition of a layer's result,
   one operation at a time, to the layer's inputs. A layer's statement takes the previous layer's results as given
   real arrays and never opens them. -/
import proofs.«101828_j11562051961417_2_alg».proof.Proof.RefRead
import proofs.«101828_j11562051961417_2_alg».proof.Proof.Spec
import proofs.«101828_j11562051961417_2_alg».proof.Proof.Laws
import proofs.«101828_j11562051961417_2_alg».proof.Proof.FiniteHost

noncomputable section

namespace Cert.Bridge

open Cert.Spec Cert.ReferenceIdeal Cert.ReferenceIdeal.Read Idealize.ShloMosaic

/-! ## The small idioms of a layer -/

/-- An array of zeros (the zero constant broadcast to any shape) is real. -/
theorem finite_zeros {s t : Shape} (dims : Fin s.rank → Fin t.rank) (h : s.BroadcastsInDim t dims) :
    Cert.Spec.Finite (broadcastInDim t dims h (constant (F := Ideal) s .f32 0x00000000#32)) :=
  finite_broadcastInDim dims h (finite_constant_zero_f32 s)

/-- An array of ones is real. -/
theorem finite_ones {s t : Shape} (dims : Fin s.rank → Fin t.rank) (h : s.BroadcastsInDim t dims) :
    Cert.Spec.Finite (broadcastInDim t dims h (constant (F := Ideal) s .f32 0x3F800000#32)) :=
  finite_broadcastInDim dims h (finite_constant_one_f32 s)

/-- One weight matrix cut out of a real stack of weights and reshaped is real. -/
theorem finite_weightSlice {s t t' : Shape} {off : Fin s.rank → Nat} {W : s.Idx → EReal} (hW : Cert.Spec.Finite W)
    (h : s.Slices off t) (h' : t.ShapeCasts t') :
    Cert.Spec.Finite (shapeCast t' (extractStridedSlice t off W h) h') :=
  finite_shapeCast (finite_extractStridedSlice off hW h) h'

/-- One bias vector cut out of a real stack of biases, reshaped, and repeated along the rows is real. -/
theorem finite_biasRows {s t t' u v : Shape} {off : Fin s.rank → Nat} {b : s.Idx → EReal} (hb : Cert.Spec.Finite b)
    (h : s.Slices off t) (h' : t.ShapeCasts t') (d1 : Fin t'.rank → Fin u.rank) (h1 : t'.BroadcastsInDim u d1)
    (d2 : Fin u.rank → Fin v.rank) (h2 : u.BroadcastsInDim v d2) :
    Cert.Spec.Finite
      (broadcastInDim v d2 h2 (broadcastInDim u d1 h1 (shapeCast t' (extractStridedSlice t off b h) h'))) :=
  finite_broadcastInDim d2 h2 (finite_broadcastInDim d1 h1 (finite_weightSlice hb h h'))

/-- An incidence array, ones scattered into zeros at whatever positions the index array names, is real:
    every entry is a zero or a one. -/
theorem finite_incidence {s si u s0 s1 : Shape} {w : Nat} (d : ScatterDims s si u) (idx : IVec si w)
    (dz : Fin s0.rank → Fin s.rank) (hz : s0.BroadcastsInDim s dz)
    (dn : Fin s1.rank → Fin u.rank) (hn : s1.BroadcastsInDim u dn) :
    Cert.Spec.Finite
      (Host.scatter d (fun _ b => b) (broadcastInDim s dz hz (constant (F := Ideal) s0 .f32 0x00000000#32)) idx
        (broadcastInDim u dn hn (constant (F := Ideal) s1 .f32 0x3F800000#32))) :=
  finite_scatter d (finite_zeros dz hz) (finite_ones dn hn) idx

/-! ## The arguments of the reference program

The float arguments (node, edge, cell features; the stacks of weights and biases) and the integer index arrays, named as
the generated functions name them. The index arrays are arbitrary: nothing is asked of them. -/

variable {x0 : (⟨S32768x256, .f32⟩ : BufTy).Contents (Elt Ideal)} {x1 : (⟨S65536x256, .f32⟩ : BufTy).Contents (Elt Ideal)}
  {x2 : (⟨S16384x256, .f32⟩ : BufTy).Contents (Elt Ideal)}
  {x3 x4 x5 x6 : (⟨S131072, .i32⟩ : BufTy).Contents (Elt Ideal)}
  {x7 x8 x9 x10 : (⟨S98304, .i32⟩ : BufTy).Contents (Elt Ideal)}
  {x11 x12 x13 : (⟨S131072, .i32⟩ : BufTy).Contents (Elt Ideal)}
  {x14 x15 x16 : (⟨S65536, .i32⟩ : BufTy).Contents (Elt Ideal)}
  {x17 : (⟨S4x3x256x256, .f32⟩ : BufTy).Contents (Elt Ideal)} {x18 : (⟨S4x3x256, .f32⟩ : BufTy).Contents (Elt Ideal)}
  {x19 x20 x21 : (⟨S4x2x256x256, .f32⟩ : BufTy).Contents (Elt Ideal)}

/-! ## The first layer -/

/-- The node features after the first layer are real: the rectifier of (features · W + bias row) plus the summed messages,
    each message the rectifier of a sum of two products of gathered rows. -/
theorem finite_layer0_nodes
    (hn : Cert.Spec.Finite (s := ⟨2, ![32768, 256]⟩) x0)
    (he : Cert.Spec.Finite (s := ⟨2, ![65536, 256]⟩) x1)
    (h17 : Cert.Spec.Finite (s := ⟨4, ![4, 3, 256, 256]⟩) x17) (h18 : Cert.Spec.Finite (s := ⟨3, ![4, 3, 256]⟩) x18)
    (h19 : Cert.Spec.Finite (s := ⟨4, ![4, 2, 256, 256]⟩) x19) (h20 : Cert.Spec.Finite (s := ⟨4, ![4, 2, 256, 256]⟩) x20) :
    Cert.Spec.Finite (s := ⟨2, ![32768, 256]⟩) (val_main_v133 (F := Ideal) x0 x1 x3 x4 x5 x6 x17 x18 x19 x20) := by
  refine finite_maximumf ?_ (finite_zeros _ _)
  refine finite_addf (finite_addf ?_ ?_) ?_
  · exact finite_dotGeneral _ _ hn (finite_weightSlice h17 _ _)
  · exact finite_biasRows h18 _ _ _ _ _ _
  · refine finite_scatterAdd _ (finite_zeros _ _) ?_ _
    refine finite_maximumf (finite_addf ?_ ?_) (finite_zeros _ _)
    · exact finite_dotGeneral _ _ (finite_gather _ hn _) (finite_weightSlice h19 _ _)
    · exact finite_dotGeneral _ _ (finite_gather _ he _) (finite_weightSlice h20 _ _)

/-- The edge features after the first layer are real: as for the nodes, plus the boundary term
    (incidence · node features) · W, the incidence array a scatter of ones into zeros. -/
theorem finite_layer0_edges
    (hn : Cert.Spec.Finite (s := ⟨2, ![32768, 256]⟩) x0)
    (he : Cert.Spec.Finite (s := ⟨2, ![65536, 256]⟩) x1)
    (hc : Cert.Spec.Finite (s := ⟨2, ![16384, 256]⟩) x2)
    (h17 : Cert.Spec.Finite (s := ⟨4, ![4, 3, 256, 256]⟩) x17) (h18 : Cert.Spec.Finite (s := ⟨3, ![4, 3, 256]⟩) x18)
    (h19 : Cert.Spec.Finite (s := ⟨4, ![4, 2, 256, 256]⟩) x19) (h20 : Cert.Spec.Finite (s := ⟨4, ![4, 2, 256, 256]⟩) x20)
    (h21 : Cert.Spec.Finite (s := ⟨4, ![4, 2, 256, 256]⟩) x21) :
    Cert.Spec.Finite (s := ⟨2, ![65536, 256]⟩) (val_main_v144 (F := Ideal) x0 x1 x2 x7 x8 x9 x10 x11 x12 x13 x17 x18 x19 x20 x21) := by
  refine finite_maximumf ?_ (finite_zeros _ _)
  refine finite_addf (finite_addf (finite_addf ?_ ?_) ?_) ?_
  · exact finite_dotGeneral _ _ he (finite_weightSlice h17 _ _)
  · exact finite_biasRows h18 _ _ _ _ _ _
  · refine finite_scatterAdd _ (finite_zeros _ _) ?_ _
    refine finite_maximumf (finite_addf ?_ ?_) (finite_zeros _ _)
    · exact finite_dotGeneral _ _ (finite_gather _ he _) (finite_weightSlice h19 _ _)
    · exact finite_dotGeneral _ _ (finite_gather _ hc _) (finite_weightSlice h20 _ _)
  · refine finite_dotGeneral _ _ (finite_shapeCast ?_ _) (finite_weightSlice h21 _ _)
    exact finite_dotGeneral _ _ (finite_incidence _ _ _ _ _ _) (finite_shapeCast hn _)

/-- The cell features after the first layer are real: the rectifier of (features · W + bias row) plus the boundary term. -/
theorem finite_layer0_cells
    (he : Cert.Spec.Finite (s := ⟨2, ![65536, 256]⟩) x1)
    (hc : Cert.Spec.Finite (s := ⟨2, ![16384, 256]⟩) x2)
    (h17 : Cert.Spec.Finite (s := ⟨4, ![4, 3, 256, 256]⟩) x17) (h18 : Cert.Spec.Finite (s := ⟨3, ![4, 3, 256]⟩) x18)
    (h21 : Cert.Spec.Finite (s := ⟨4, ![4, 2, 256, 256]⟩) x21) :
    Cert.Spec.Finite (s := ⟨2, ![16384, 256]⟩) (val_main_v154 (F := Ideal) x1 x2 x14 x15 x16 x17 x18 x21) := by
  refine finite_maximumf ?_ (finite_zeros _ _)
  refine finite_addf (finite_addf ?_ ?_) ?_
  · exact finite_dotGeneral _ _ hc (finite_weightSlice h17 _ _)
  · exact finite_biasRows h18 _ _ _ _ _ _
  · refine finite_dotGeneral _ _ (finite_shapeCast ?_ _) (finite_weightSlice h21 _ _)
    exact finite_dotGeneral _ _ (finite_incidence _ _ _ _ _ _) (finite_shapeCast he _)

/-! ## The second layer -/

/-- The node features after the second layer are real: the rectifier of (features · W + bias row) plus the summed messages,
    each message the rectifier of a sum of two products of gathered rows. -/
theorem finite_layer1_nodes
    (hn : Cert.Spec.Finite (s := ⟨2, ![32768, 256]⟩) (val_main_v133 (F := Ideal) x0 x1 x3 x4 x5 x6 x17 x18 x19 x20))
    (he : Cert.Spec.Finite (s := ⟨2, ![65536, 256]⟩) (val_main_v144 (F := Ideal) x0 x1 x2 x7 x8 x9 x10 x11 x12 x13 x17 x18 x19 x20 x21))
    (h17 : Cert.Spec.Finite (s := ⟨4, ![4, 3, 256, 256]⟩) x17) (h18 : Cert.Spec.Finite (s := ⟨3, ![4, 3, 256]⟩) x18)
    (h19 : Cert.Spec.Finite (s := ⟨4, ![4, 2, 256, 256]⟩) x19) (h20 : Cert.Spec.Finite (s := ⟨4, ![4, 2, 256, 256]⟩) x20) :
    Cert.Spec.Finite (s := ⟨2, ![32768, 256]⟩) (val_main_v226 (F := Ideal) x0 x1 x2 x3 x4 x5 x6 x7 x8 x9 x10 x11 x12 x13 x17 x18 x19 x20 x21) := by
  refine finite_maximumf ?_ (finite_zeros _ _)
  refine finite_addf (finite_addf ?_ ?_) ?_
  · exact finite_dotGeneral _ _ hn (finite_weightSlice h17 _ _)
  · exact finite_biasRows h18 _ _ _ _ _ _
  · refine finite_scatterAdd _ (finite_zeros _ _) ?_ _
    refine finite_maximumf (finite_addf ?_ ?_) (finite_zeros _ _)
    · exact finite_dotGeneral _ _ (finite_gather _ hn _) (finite_weightSlice h19 _ _)
    · exact finite_dotGeneral _ _ (finite_gather _ he _) (finite_weightSlice h20 _ _)

/-- The edge features after the second layer are real: as for the nodes, plus the boundary term
    (incidence · node features) · W, the incidence array a scatter of ones into zeros. -/
theorem finite_layer1_edges
    (hn : Cert.Spec.Finite (s := ⟨2, ![32768, 256]⟩) (val_main_v133 (F := Ideal) x0 x1 x3 x4 x5 x6 x17 x18 x19 x20))
    (he : Cert.Spec.Finite (s := ⟨2, ![65536, 256]⟩) (val_main_v144 (F := Ideal) x0 x1 x2 x7 x8 x9 x10 x11 x12 x13 x17 x18 x19 x20 x21))
    (hc : Cert.Spec.Finite (s := ⟨2, ![16384, 256]⟩) (val_main_v154 (F := Ideal) x1 x2 x14 x15 x16 x17 x18 x21))
    (h17 : Cert.Spec.Finite (s := ⟨4, ![4, 3, 256, 256]⟩) x17) (h18 : Cert.Spec.Finite (s := ⟨3, ![4, 3, 256]⟩) x18)
    (h19 : Cert.Spec.Finite (s := ⟨4, ![4, 2, 256, 256]⟩) x19) (h20 : Cert.Spec.Finite (s := ⟨4, ![4, 2, 256, 256]⟩) x20)
    (h21 : Cert.Spec.Finite (s := ⟨4, ![4, 2, 256, 256]⟩) x21) :
    Cert.Spec.Finite (s := ⟨2, ![65536, 256]⟩) (val_main_v237 (F := Ideal) x0 x1 x2 x3 x4 x5 x6 x7 x8 x9 x10 x11 x12 x13 x14 x15 x16 x17 x18 x19 x20 x21) := by
  refine finite_maximumf ?_ (finite_zeros _ _)
  refine finite_addf (finite_addf (finite_addf ?_ ?_) ?_) ?_
  · exact finite_dotGeneral _ _ he (finite_weightSlice h17 _ _)
  · exact finite_biasRows h18 _ _ _ _ _ _
  · refine finite_scatterAdd _ (finite_zeros _ _) ?_ _
    refine finite_maximumf (finite_addf ?_ ?_) (finite_zeros _ _)
    · exact finite_dotGeneral _ _ (finite_gather _ he _) (finite_weightSlice h19 _ _)
    · exact finite_dotGeneral _ _ (finite_gather _ hc _) (finite_weightSlice h20 _ _)
  · refine finite_dotGeneral _ _ (finite_shapeCast ?_ _) (finite_weightSlice h21 _ _)
    exact finite_dotGeneral _ _ (finite_incidence _ _ _ _ _ _) (finite_shapeCast hn _)

/-- The cell features after the second layer are real: the rectifier of (features · W + bias row) plus the boundary term. -/
theorem finite_layer1_cells
    (he : Cert.Spec.Finite (s := ⟨2, ![65536, 256]⟩) (val_main_v144 (F := Ideal) x0 x1 x2 x7 x8 x9 x10 x11 x12 x13 x17 x18 x19 x20 x21))
    (hc : Cert.Spec.Finite (s := ⟨2, ![16384, 256]⟩) (val_main_v154 (F := Ideal) x1 x2 x14 x15 x16 x17 x18 x21))
    (h17 : Cert.Spec.Finite (s := ⟨4, ![4, 3, 256, 256]⟩) x17) (h18 : Cert.Spec.Finite (s := ⟨3, ![4, 3, 256]⟩) x18)
    (h21 : Cert.Spec.Finite (s := ⟨4, ![4, 2, 256, 256]⟩) x21) :
    Cert.Spec.Finite (s := ⟨2, ![16384, 256]⟩) (val_main_v247 (F := Ideal) x0 x1 x2 x7 x8 x9 x10 x11 x12 x13 x14 x15 x16 x17 x18 x19 x20 x21) := by
  refine finite_maximumf ?_ (finite_zeros _ _)
  refine finite_addf (finite_addf ?_ ?_) ?_
  · exact finite_dotGeneral _ _ hc (finite_weightSlice h17 _ _)
  · exact finite_biasRows h18 _ _ _ _ _ _
  · refine finite_dotGeneral _ _ (finite_shapeCast ?_ _) (finite_weightSlice h21 _ _)
    exact finite_dotGeneral _ _ (finite_incidence _ _ _ _ _ _) (finite_shapeCast he _)

/-! ## The two layers, the three results together

Stated with every argument explicit, in the order the generated functions take them. -/

variable (x0 x1 x2 x3 x4 x5 x6 x7 x8 x9 x10 x11 x12 x13 x14 x15 x16 x17 x18 x19 x20 x21)

/-- After the first layer the node, edge and cell features are real, given real inputs and real weights. -/
theorem finite_layer0
    (h0 : Cert.Spec.Finite (s := ⟨2, ![32768, 256]⟩) x0)
    (h1 : Cert.Spec.Finite (s := ⟨2, ![65536, 256]⟩) x1)
    (h2 : Cert.Spec.Finite (s := ⟨2, ![16384, 256]⟩) x2)
    (h17 : Cert.Spec.Finite (s := ⟨4, ![4, 3, 256, 256]⟩) x17) (h18 : Cert.Spec.Finite (s := ⟨3, ![4, 3, 256]⟩) x18)
    (h19 : Cert.Spec.Finite (s := ⟨4, ![4, 2, 256, 256]⟩) x19) (h20 : Cert.Spec.Finite (s := ⟨4, ![4, 2, 256, 256]⟩) x20)
    (h21 : Cert.Spec.Finite (s := ⟨4, ![4, 2, 256, 256]⟩) x21) :
    Cert.Spec.Finite (s := ⟨2, ![32768, 256]⟩) (val_main_v133 (F := Ideal) x0 x1 x3 x4 x5 x6 x17 x18 x19 x20)
    ∧ Cert.Spec.Finite (s := ⟨2, ![65536, 256]⟩) (val_main_v144 (F := Ideal) x0 x1 x2 x7 x8 x9 x10 x11 x12 x13 x17 x18 x19 x20 x21)
    ∧ Cert.Spec.Finite (s := ⟨2, ![16384, 256]⟩) (val_main_v154 (F := Ideal) x1 x2 x14 x15 x16 x17 x18 x21) :=
  ⟨finite_layer0_nodes h0 h1 h17 h18 h19 h20, finite_layer0_edges h0 h1 h2 h17 h18 h19 h20 h21,
    finite_layer0_cells h1 h2 h17 h18 h21⟩

/-- After the second layer the node, edge and cell features are real, given that they were after the first. -/
theorem finite_layer1
    (hn : Cert.Spec.Finite (s := ⟨2, ![32768, 256]⟩) (val_main_v133 (F := Ideal) x0 x1 x3 x4 x5 x6 x17 x18 x19 x20))
    (he : Cert.Spec.Finite (s := ⟨2, ![65536, 256]⟩) (val_main_v144 (F := Ideal) x0 x1 x2 x7 x8 x9 x10 x11 x12 x13 x17 x18 x19 x20 x21))
    (hc : Cert.Spec.Finite (s := ⟨2, ![16384, 256]⟩) (val_main_v154 (F := Ideal) x1 x2 x14 x15 x16 x17 x18 x21))
    (h17 : Cert.Spec.Finite (s := ⟨4, ![4, 3, 256, 256]⟩) x17) (h18 : Cert.Spec.Finite (s := ⟨3, ![4, 3, 256]⟩) x18)
    (h19 : Cert.Spec.Finite (s := ⟨4, ![4, 2, 256, 256]⟩) x19) (h20 : Cert.Spec.Finite (s := ⟨4, ![4, 2, 256, 256]⟩) x20)
    (h21 : Cert.Spec.Finite (s := ⟨4, ![4, 2, 256, 256]⟩) x21) :
    Cert.Spec.Finite (s := ⟨2, ![32768, 256]⟩) (val_main_v226 (F := Ideal) x0 x1 x2 x3 x4 x5 x6 x7 x8 x9 x10 x11 x12 x13 x17 x18 x19 x20 x21)
    ∧ Cert.Spec.Finite (s := ⟨2, ![65536, 256]⟩) (val_main_v237 (F := Ideal) x0 x1 x2 x3 x4 x5 x6 x7 x8 x9 x10 x11 x12 x13 x14 x15 x16 x17 x18 x19 x20 x21)
    ∧ Cert.Spec.Finite (s := ⟨2, ![16384, 256]⟩) (val_main_v247 (F := Ideal) x0 x1 x2 x7 x8 x9 x10 x11 x12 x13 x14 x15 x16 x17 x18 x19 x20 x21) :=
  ⟨finite_layer1_nodes hn he h17 h18 h19 h20, finite_layer1_edges hn he hc h17 h18 h19 h20 h21,
    finite_layer1_cells he hc h17 h18 h21⟩

end Cert.Bridge

end
-- ==== Proof.RefFiniteLayers23.lean ====
import proofs.«101828_j11562051961417_2_alg».proof.Proof.RefFinite

noncomputable section

namespace Cert.Bridge

open Cert.Spec Cert.ReferenceIdeal Cert.ReferenceIdeal.Read Idealize.ShloMosaic

variable {x0 : (⟨S32768x256, .f32⟩ : BufTy).Contents (Elt Ideal)} {x1 : (⟨S65536x256, .f32⟩ : BufTy).Contents (Elt Ideal)}
  {x2 : (⟨S16384x256, .f32⟩ : BufTy).Contents (Elt Ideal)}
  {x3 x4 x5 x6 : (⟨S131072, .i32⟩ : BufTy).Contents (Elt Ideal)}
  {x7 x8 x9 x10 : (⟨S98304, .i32⟩ : BufTy).Contents (Elt Ideal)}
  {x11 x12 x13 : (⟨S131072, .i32⟩ : BufTy).Contents (Elt Ideal)}
  {x14 x15 x16 : (⟨S65536, .i32⟩ : BufTy).Contents (Elt Ideal)}
  {x17 : (⟨S4x3x256x256, .f32⟩ : BufTy).Contents (Elt Ideal)} {x18 : (⟨S4x3x256, .f32⟩ : BufTy).Contents (Elt Ideal)}
  {x19 x20 x21 : (⟨S4x2x256x256, .f32⟩ : BufTy).Contents (Elt Ideal)}

/-! ## The third layer -/

/-- The node features after the third layer are real: the rectifier of (features · W + bias row) plus the summed messages,
    each message the rectifier of a sum of two products of gathered rows. -/
theorem finite_layer2_nodes
    (hn : Cert.Spec.Finite (s := ⟨2, ![32768, 256]⟩) (val_main_v226 (F := Ideal) x0 x1 x2 x3 x4 x5 x6 x7 x8 x9 x10 x11 x12 x13 x17 x18 x19 x20 x21))
    (he : Cert.Spec.Finite (s := ⟨2, ![65536, 256]⟩) (val_main_v237 (F := Ideal) x0 x1 x2 x3 x4 x5 x6 x7 x8 x9 x10 x11 x12 x13 x14 x15 x16 x17 x18 x19 x20 x21))
    (h17 : Cert.Spec.Finite (s := ⟨4, ![4, 3, 256, 256]⟩) x17) (h18 : Cert.Spec.Finite (s := ⟨3, ![4, 3, 256]⟩) x18)
    (h19 : Cert.Spec.Finite (s := ⟨4, ![4, 2, 256, 256]⟩) x19) (h20 : Cert.Spec.Finite (s := ⟨4, ![4, 2, 256, 256]⟩) x20) :
    Cert.Spec.Finite (s := ⟨2, ![32768, 256]⟩) (val_main_v319 (F := Ideal) x0 x1 x2 x3 x4 x5 x6 x7 x8 x9 x10 x11 x12 x13 x14 x15 x16 x17 x18 x19 x20 x21) := by
  refine finite_maximumf ?_ (finite_zeros _ _)
  refine finite_addf (finite_addf ?_ ?_) ?_
  · exact finite_dotGeneral _ _ hn (finite_weightSlice h17 _ _)
  · exact finite_biasRows h18 _ _ _ _ _ _
  · refine finite_scatterAdd _ (finite_zeros _ _) ?_ _
    refine finite_maximumf (finite_addf ?_ ?_) (finite_zeros _ _)
    · exact finite_dotGeneral _ _ (finite_gather _ hn _) (finite_weightSlice h19 _ _)
    · exact finite_dotGeneral _ _ (finite_gather _ he _) (finite_weightSlice h20 _ _)

/-- The edge features after the third layer are real: as for the nodes, plus the boundary term
    (incidence · node features) · W, the incidence array a scatter of ones into zeros. -/
theorem finite_layer2_edges
    (hn : Cert.Spec.Finite (s := ⟨2, ![32768, 256]⟩) (val_main_v226 (F := Ideal) x0 x1 x2 x3 x4 x5 x6 x7 x8 x9 x10 x11 x12 x13 x17 x18 x19 x20 x21))
    (he : Cert.Spec.Finite (s := ⟨2, ![65536, 256]⟩) (val_main_v237 (F := Ideal) x0 x1 x2 x3 x4 x5 x6 x7 x8 x9 x10 x11 x12 x13 x14 x15 x16 x17 x18 x19 x20 x21))
    (hc : Cert.Spec.Finite (s := ⟨2, ![16384, 256]⟩) (val_main_v247 (F := Ideal) x0 x1 x2 x7 x8 x9 x10 x11 x12 x13 x14 x15 x16 x17 x18 x19 x20 x21))
    (h17 : Cert.Spec.Finite (s := ⟨4, ![4, 3, 256, 256]⟩) x17) (h18 : Cert.Spec.Finite (s := ⟨3, ![4, 3, 256]⟩) x18)
    (h19 : Cert.Spec.Finite (s := ⟨4, ![4, 2, 256, 256]⟩) x19) (h20 : Cert.Spec.Finite (s := ⟨4, ![4, 2, 256, 256]⟩) x20)
    (h21 : Cert.Spec.Finite (s := ⟨4, ![4, 2, 256, 256]⟩) x21) :
    Cert.Spec.Finite (s := ⟨2, ![65536, 256]⟩) (val_main_v330 (F := Ideal) x0 x1 x2 x3 x4 x5 x6 x7 x8 x9 x10 x11 x12 x13 x14 x15 x16 x17 x18 x19 x20 x21) := by
  refine finite_maximumf ?_ (finite_zeros _ _)
  refine finite_addf (finite_addf (finite_addf ?_ ?_) ?_) ?_
  · exact finite_dotGeneral _ _ he (finite_weightSlice h17 _ _)
  · exact finite_biasRows h18 _ _ _ _ _ _
  · refine finite_scatterAdd _ (finite_zeros _ _) ?_ _
    refine finite_maximumf (finite_addf ?_ ?_) (finite_zeros _ _)
    · exact finite_dotGeneral _ _ (finite_gather _ he _) (finite_weightSlice h19 _ _)
    · exact finite_dotGeneral _ _ (finite_gather _ hc _) (finite_weightSlice h20 _ _)
  · refine finite_dotGeneral _ _ (finite_shapeCast ?_ _) (finite_weightSlice h21 _ _)
    exact finite_dotGeneral _ _ (finite_incidence _ _ _ _ _ _) (finite_shapeCast hn _)

/-- The cell features after the third layer are real: the rectifier of (features · W + bias row) plus the boundary term. -/
theorem finite_layer2_cells
    (he : Cert.Spec.Finite (s := ⟨2, ![65536, 256]⟩) (val_main_v237 (F := Ideal) x0 x1 x2 x3 x4 x5 x6 x7 x8 x9 x10 x11 x12 x13 x14 x15 x16 x17 x18 x19 x20 x21))
    (hc : Cert.Spec.Finite (s := ⟨2, ![16384, 256]⟩) (val_main_v247 (F := Ideal) x0 x1 x2 x7 x8 x9 x10 x11 x12 x13 x14 x15 x16 x17 x18 x19 x20 x21))
    (h17 : Cert.Spec.Finite (s := ⟨4, ![4, 3, 256, 256]⟩) x17) (h18 : Cert.Spec.Finite (s := ⟨3, ![4, 3, 256]⟩) x18)
    (h21 : Cert.Spec.Finite (s := ⟨4, ![4, 2, 256, 256]⟩) x21) :
    Cert.Spec.Finite (s := ⟨2, ![16384, 256]⟩) (val_main_v340 (F := Ideal) x0 x1 x2 x3 x4 x5 x6 x7 x8 x9 x10 x11 x12 x13 x14 x15 x16 x17 x18 x19 x20 x21) := by
  refine finite_maximumf ?_ (finite_zeros _ _)
  refine finite_addf (finite_addf ?_ ?_) ?_
  · exact finite_dotGeneral _ _ hc (finite_weightSlice h17 _ _)
  · exact finite_biasRows h18 _ _ _ _ _ _
  · refine finite_dotGeneral _ _ (finite_shapeCast ?_ _) (finite_weightSlice h21 _ _)
    exact finite_dotGeneral _ _ (finite_incidence _ _ _ _ _ _) (finite_shapeCast he _)

/-! ## The fourth layer -/

/-- The node features after the fourth layer are real: the rectifier of (features · W + bias row) plus the summed messages,
    each message the rectifier of a sum of two products of gathered rows. -/
theorem finite_layer3_nodes
    (hn : Cert.Spec.Finite (s := ⟨2, ![32768, 256]⟩) (val_main_v319 (F := Ideal) x0 x1 x2 x3 x4 x5 x6 x7 x8 x9 x10 x11 x12 x13 x14 x15 x16 x17 x18 x19 x20 x21))
    (he : Cert.Spec.Finite (s := ⟨2, ![65536, 256]⟩) (val_main_v330 (F := Ideal) x0 x1 x2 x3 x4 x5 x6 x7 x8 x9 x10 x11 x12 x13 x14 x15 x16 x17 x18 x19 x20 x21))
    (h17 : Cert.Spec.Finite (s := ⟨4, ![4, 3, 256, 256]⟩) x17) (h18 : Cert.Spec.Finite (s := ⟨3, ![4, 3, 256]⟩) x18)
    (h19 : Cert.Spec.Finite (s := ⟨4, ![4, 2, 256, 256]⟩) x19) (h20 : Cert.Spec.Finite (s := ⟨4, ![4, 2, 256, 256]⟩) x20) :
    Cert.Spec.Finite (s := ⟨2, ![32768, 256]⟩) (val_main_v412 (F := Ideal) x0 x1 x2 x3 x4 x5 x6 x7 x8 x9 x10 x11 x12 x13 x14 x15 x16 x17 x18 x19 x20 x21) := by
  refine finite_maximumf ?_ (finite_zeros _ _)
  refine finite_addf (finite_addf ?_ ?_) ?_
  · exact finite_dotGeneral _ _ hn (finite_weightSlice h17 _ _)
  · exact finite_biasRows h18 _ _ _ _ _ _
  · refine finite_scatterAdd _ (finite_zeros _ _) ?_ _
    refine finite_maximumf (finite_addf ?_ ?_) (finite_zeros _ _)
    · exact finite_dotGeneral _ _ (finite_gather _ hn _) (finite_weightSlice h19 _ _)
    · exact finite_dotGeneral _ _ (finite_gather _ he _) (finite_weightSlice h20 _ _)

/-- The edge features after the fourth layer are real: as for the nodes, plus the boundary term
    (incidence · node features) · W, the incidence array a scatter of ones into zeros. -/
theorem finite_layer3_edges
    (hn : Cert.Spec.Finite (s := ⟨2, ![32768, 256]⟩) (val_main_v319 (F := Ideal) x0 x1 x2 x3 x4 x5 x6 x7 x8 x9 x10 x11 x12 x13 x14 x15 x16 x17 x18 x19 x20 x21))
    (he : Cert.Spec.Finite (s := ⟨2, ![65536, 256]⟩) (val_main_v330 (F := Ideal) x0 x1 x2 x3 x4 x5 x6 x7 x8 x9 x10 x11 x12 x13 x14 x15 x16 x17 x18 x19 x20 x21))
    (hc : Cert.Spec.Finite (s := ⟨2, ![16384, 256]⟩) (val_main_v340 (F := Ideal) x0 x1 x2 x3 x4 x5 x6 x7 x8 x9 x10 x11 x12 x13 x14 x15 x16 x17 x18 x19 x20 x21))
    (h17 : Cert.Spec.Finite (s := ⟨4, ![4, 3, 256, 256]⟩) x17) (h18 : Cert.Spec.Finite (s := ⟨3, ![4, 3, 256]⟩) x18)
    (h19 : Cert.Spec.Finite (s := ⟨4, ![4, 2, 256, 256]⟩) x19) (h20 : Cert.Spec.Finite (s := ⟨4, ![4, 2, 256, 256]⟩) x20)
    (h21 : Cert.Spec.Finite (s := ⟨4, ![4, 2, 256, 256]⟩) x21) :
    Cert.Spec.Finite (s := ⟨2, ![65536, 256]⟩) (val_main_v423 (F := Ideal) x0 x1 x2 x3 x4 x5 x6 x7 x8 x9 x10 x11 x12 x13 x14 x15 x16 x17 x18 x19 x20 x21) := by
  refine finite_maximumf ?_ (finite_zeros _ _)
  refine finite_addf (finite_addf (finite_addf ?_ ?_) ?_) ?_
  · exact finite_dotGeneral _ _ he (finite_weightSlice h17 _ _)
  · exact finite_biasRows h18 _ _ _ _ _ _
  · refine finite_scatterAdd _ (finite_zeros _ _) ?_ _
    refine finite_maximumf (finite_addf ?_ ?_) (finite_zeros _ _)
    · exact finite_dotGeneral _ _ (finite_gather _ he _) (finite_weightSlice h19 _ _)
    · exact finite_dotGeneral _ _ (finite_gather _ hc _) (finite_weightSlice h20 _ _)
  · refine finite_dotGeneral _ _ (finite_shapeCast ?_ _) (finite_weightSlice h21 _ _)
    exact finite_dotGeneral _ _ (finite_incidence _ _ _ _ _ _) (finite_shapeCast hn _)

/-- The cell features after the fourth layer are real: the rectifier of (features · W + bias row) plus the boundary term. -/
theorem finite_layer3_cells
    (he : Cert.Spec.Finite (s := ⟨2, ![65536, 256]⟩) (val_main_v330 (F := Ideal) x0 x1 x2 x3 x4 x5 x6 x7 x8 x9 x10 x11 x12 x13 x14 x15 x16 x17 x18 x19 x20 x21))
    (hc : Cert.Spec.Finite (s := ⟨2, ![16384, 256]⟩) (val_main_v340 (F := Ideal) x0 x1 x2 x3 x4 x5 x6 x7 x8 x9 x10 x11 x12 x13 x14 x15 x16 x17 x18 x19 x20 x21))
    (h17 : Cert.Spec.Finite (s := ⟨4, ![4, 3, 256, 256]⟩) x17) (h18 : Cert.Spec.Finite (s := ⟨3, ![4, 3, 256]⟩) x18)
    (h21 : Cert.Spec.Finite (s := ⟨4, ![4, 2, 256, 256]⟩) x21) :
    Cert.Spec.Finite (s := ⟨2, ![16384, 256]⟩) (val_main_v433 (F := Ideal) x0 x1 x2 x3 x4 x5 x6 x7 x8 x9 x10 x11 x12 x13 x14 x15 x16 x17 x18 x19 x20 x21) := by
  refine finite_maximumf ?_ (finite_zeros _ _)
  refine finite_addf (finite_addf ?_ ?_) ?_
  · exact finite_dotGeneral _ _ hc (finite_weightSlice h17 _ _)
  · exact finite_biasRows h18 _ _ _ _ _ _
  · refine finite_dotGeneral _ _ (finite_shapeCast ?_ _) (finite_weightSlice h21 _ _)
    exact finite_dotGeneral _ _ (finite_incidence _ _ _ _ _ _) (finite_shapeCast he _)

/-! ## The two layers, the three results together -/

variable (x0 x1 x2 x3 x4 x5 x6 x7 x8 x9 x10 x11 x12 x13 x14 x15 x16 x17 x18 x19 x20 x21)

/-- After the third layer the node, edge and cell features are real, given that they were after the second. -/
theorem finite_layer2
    (hn : Cert.Spec.Finite (s := ⟨2, ![32768, 256]⟩) (val_main_v226 (F := Ideal) x0 x1 x2 x3 x4 x5 x6 x7 x8 x9 x10 x11 x12 x13 x17 x18 x19 x20 x21))
    (he : Cert.Spec.Finite (s := ⟨2, ![65536, 256]⟩) (val_main_v237 (F := Ideal) x0 x1 x2 x3 x4 x5 x6 x7 x8 x9 x10 x11 x12 x13 x14 x15 x16 x17 x18 x19 x20 x21))
    (hc : Cert.Spec.Finite (s := ⟨2, ![16384, 256]⟩) (val_main_v247 (F := Ideal) x0 x1 x2 x7 x8 x9 x10 x11 x12 x13 x14 x15 x16 x17 x18 x19 x20 x21))
    (h17 : Cert.Spec.Finite (s := ⟨4, ![4, 3, 256, 256]⟩) x17) (h18 : Cert.Spec.Finite (s := ⟨3, ![4, 3, 256]⟩) x18)
    (h19 : Cert.Spec.Finite (s := ⟨4, ![4, 2, 256, 256]⟩) x19) (h20 : Cert.Spec.Finite (s := ⟨4, ![4, 2, 256, 256]⟩) x20)
    (h21 : Cert.Spec.Finite (s := ⟨4, ![4, 2, 256, 256]⟩) x21) :
    Cert.Spec.Finite (s := ⟨2, ![32768, 256]⟩) (val_main_v319 (F := Ideal) x0 x1 x2 x3 x4 x5 x6 x7 x8 x9 x10 x11 x12 x13 x14 x15 x16 x17 x18 x19 x20 x21)
    ∧ Cert.Spec.Finite (s := ⟨2, ![65536, 256]⟩) (val_main_v330 (F := Ideal) x0 x1 x2 x3 x4 x5 x6 x7 x8 x9 x10 x11 x12 x13 x14 x15 x16 x17 x18 x19 x20 x21)
    ∧ Cert.Spec.Finite (s := ⟨2, ![16384, 256]⟩) (val_main_v340 (F := Ideal) x0 x1 x2 x3 x4 x5 x6 x7 x8 x9 x10 x11 x12 x13 x14 x15 x16 x17 x18 x19 x20 x21) :=
  ⟨finite_layer2_nodes hn he h17 h18 h19 h20, finite_layer2_edges hn he hc h17 h18 h19 h20 h21,
    finite_layer2_cells he hc h17 h18 h21⟩

/-- After the fourth layer the node, edge and cell features are real, given that they were after the third. -/
theorem finite_layer3
    (hn : Cert.Spec.Finite (s := ⟨2, ![32768, 256]⟩) (val_main_v319 (F := Ideal) x0 x1 x2 x3 x4 x5 x6 x7 x8 x9 x10 x11 x12 x13 x14 x15 x16 x17 x18 x19 x20 x21))
    (he : Cert.Spec.Finite (s := ⟨2, ![65536, 256]⟩) (val_main_v330 (F := Ideal) x0 x1 x2 x3 x4 x5 x6 x7 x8 x9 x10 x11 x12 x13 x14 x15 x16 x17 x18 x19 x20 x21))
    (hc : Cert.Spec.Finite (s := ⟨2, ![16384, 256]⟩) (val_main_v340 (F := Ideal) x0 x1 x2 x3 x4 x5 x6 x7 x8 x9 x10 x11 x12 x13 x14 x15 x16 x17 x18 x19 x20 x21))
    (h17 : Cert.Spec.Finite (s := ⟨4, ![4, 3, 256, 256]⟩) x17) (h18 : Cert.Spec.Finite (s := ⟨3, ![4, 3, 256]⟩) x18)
    (h19 : Cert.Spec.Finite (s := ⟨4, ![4, 2, 256, 256]⟩) x19) (h20 : Cert.Spec.Finite (s := ⟨4, ![4, 2, 256, 256]⟩) x20)
    (h21 : Cert.Spec.Finite (s := ⟨4, ![4, 2, 256, 256]⟩) x21) :
    Cert.Spec.Finite (s := ⟨2, ![32768, 256]⟩) (val_main_v412 (F := Ideal) x0 x1 x2 x3 x4 x5 x6 x7 x8 x9 x10 x11 x12 x13 x14 x15 x16 x17 x18 x19 x20 x21)
    ∧ Cert.Spec.Finite (s := ⟨2, ![65536, 256]⟩) (val_main_v423 (F := Ideal) x0 x1 x2 x3 x4 x5 x6 x7 x8 x9 x10 x11 x12 x13 x14 x15 x16 x17 x18 x19 x20 x21)
    ∧ Cert.Spec.Finite (s := ⟨2, ![16384, 256]⟩) (val_main_v433 (F := Ideal) x0 x1 x2 x3 x4 x5 x6 x7 x8 x9 x10 x11 x12 x13 x14 x15 x16 x17 x18 x19 x20 x21) :=
  ⟨finite_layer3_nodes hn he h17 h18 h19 h20, finite_layer3_edges hn he hc h17 h18 h19 h20 h21,
    finite_layer3_cells he hc h17 h18 h21⟩

end Cert.Bridge

end
-- ==== Proof.ResultEq.lean ====
/- The kernel program's result, as the fold of @main's segments leaves it, is the reference's last value of the same arguments.

   Layer by layer the three feature arrays at the layer's last boundary are the reference's values of the same layer; those
   values are finite (the inputs are, and every operation keeps real entries real), which is what the re-associated edge
   boundary needs at the next layer; the pooled arrays and the readout then agree too. -/
import proofs.«101828_j11562051961417_2_alg».proof.Proof.KI.Layer0
import proofs.«101828_j11562051961417_2_alg».proof.Proof.KI.Layer1
import proofs.«101828_j11562051961417_2_alg».proof.Proof.KI.Layer2
import proofs.«101828_j11562051961417_2_alg».proof.Proof.KI.Layer3
import proofs.«101828_j11562051961417_2_alg».proof.Proof.KI.Tail
import proofs.«101828_j11562051961417_2_alg».proof.Proof.PreFinite
import proofs.«101828_j11562051961417_2_alg».proof.Proof.Gen.Pre_finite_inputs
import proofs.«101828_j11562051961417_2_alg».proof.Proof.RefFinite
import proofs.«101828_j11562051961417_2_alg».proof.Proof.RefFiniteLayers23

set_option maxRecDepth 16384

noncomputable section

namespace Cert.Proof

open Idealize.ShloMosaic Idealize.ShloMosaic.TcCoe Idealize.SL.Sem
open Cert.KernelIdeal Cert.KernelIdeal.Reg Cert.KernelIdeal.Val Cert.ReferenceIdeal.Read

/-- Under the precondition the kernel program's result buffer at the last boundary is the reference's last value of the
    same arguments: the four layers in turn (each hands the next its three arrays, equal to the reference's, whose node
    array is finite), then the pooling and the readout. -/
theorem result_eq (m : (ℓ : Loc nD τ sig) → Buf (Elt Ideal) ℓ) (ρ : Dev nD → PrngReg) (hpre : Cert.Pre_KernelIdeal m) (c : Dev nD) :
    W109 (F := Ideal) m ρ c (Proc.devRef .tc main_v424)
      = val_main_v513 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) := by
  obtain ⟨h0, h1, h2, h17, h18, h19, h20, h21, -, -, -, -, -, -, -⟩ := Cert.Bridge.finite_of_pre m hpre c
  obtain ⟨n1, e1, c1⟩ := layer0 m ρ c h0 h21
  obtain ⟨fn1, fe1, fc1⟩ := Cert.Bridge.finite_layer0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) h0 h1 h2 h17 h18 h19 h20 h21
  obtain ⟨n2, e2, c2⟩ := layer1 m ρ c fn1 h21 n1 e1 c1
  obtain ⟨fn2, fe2, fc2⟩ := Cert.Bridge.finite_layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) fn1 fe1 fc1 h17 h18 h19 h20 h21
  obtain ⟨n3, e3, c3⟩ := layer2 m ρ c fn2 h21 n2 e2 c2
  obtain ⟨fn3, -, -⟩ := Cert.Bridge.finite_layer2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) fn2 fe2 fc2 h17 h18 h19 h20 h21
  obtain ⟨n4, e4, c4⟩ := layer3 m ρ c fn3 h21 n3 e3 c3
  exact tail m ρ c n4 e4 c4

end Cert.Proof

end
-- ==== Proof.Algebraic.lean ====
/- The two idealized programs, run from memories that agree on the arguments, end with equal results: the kernel program's
   result buffer ends at the last boundary's contents, which is the reference's last value of the arguments; the reference's
   run ends at that same value of its own (equal) arguments. -/
import proofs.«101828_j11562051961417_2_alg».proof.Proof.KI.Frame
import proofs.«101828_j11562051961417_2_alg».proof.Proof.ResultEq
import proofs.«101828_j11562051961417_2_alg».proof.Proof.RefRunHand

set_option maxRecDepth 16384

noncomputable section

namespace Cert.Proof

open Idealize.ShloMosaic Idealize.ShloMosaic.TcCoe Idealize.SL.Sem
open Cert.KernelIdeal Cert.KernelIdeal.Reg Cert.KernelIdeal.Val Cert.ReferenceIdeal.Read

/-- The algebraic claim. -/
theorem algebraic : Cert.algebraic_KernelIdeal_ReferenceIdeal := by
  intro m ρ m' ρ' hpre hagree
  refine ⟨fun c => W109 (F := Ideal) m ρ c (Proc.devRef .tc main_v424), run_value (F := Ideal) m ρ, ?_⟩
  refine (θ_run Cert.ReferenceIdeal.defs _ _).mono (fun r h c => ⟨(h c).1.trans ?_, (h c).2⟩)
    (Cert.ReferenceIdeal.Hand.run (F := Ideal) m' ρ')
  obtain ⟨g0, g1, g2, g3, g4, g5, g6, g7, g8, g9, g10, g11, g12, g13, g14, g15, g16, g17, g18, g19, g20, g21, g22, g23, g24, g25, g26, g27, g28⟩ := hagree c
  rw [g0, g1, g2, g3, g4, g5, g6, g7, g8, g9, g10, g11, g12, g13, g14, g15, g16, g17, g18, g19, g20, g21, g22, g23, g24, g25, g26, g27, g28]
  exact (result_eq m ρ hpre c).symm

end Cert.Proof

end
-- ==== Proof.lean ====
/- The certificate of a four-layer message-passing network over a cell complex, and of its gated readout.

   Each layer keeps three feature arrays (one row per node, edge and 2-cell). A node gathers, along the pairs that share an
   edge, relu (W x_j + W' e) and sums those messages at the receiver; an edge does the same over the pairs of edges that share a
   cell, and also receives through the 0/1 incidence array the features of its end nodes; a cell receives the features of its
   boundary edges; then each array is updated as relu (x W_self + b + messages). The readout gates every row by a logistic
   weight, sums each complex's rows and feeds the three sums to a two-layer head.

   The kernel program computes every dense product in a tiled region: it multiplies a whole feature array by the weights
   BEFORE taking rows (taking rows commutes with multiplying on the right, exactly), and it re-associates the edge boundary,
   incidence · (x · W) for (incidence · x) · W — equal when every entry is a real number, which holds at every layer
   because the inputs are finite and the incidence entries are 0 or 1. Every rounding to a narrower format in front of a
   product is the identity over the extended reals, and the gate's logistic is the same function on both sides.

   The three frames: the reference is its run with the result dropped; each kernel program is launched as its 109 segments
   (66 stretches of host operations, 43 regions), every buffer of a core read at the end as the fold of the segments from
   the launch memory, and no segment writes an argument. -/
import proofs.«101828_j11562051961417_2_alg».proof.Defs
import proofs.«101828_j11562051961417_2_alg».proof.Proof.Gen.Kernel
import proofs.«101828_j11562051961417_2_alg».proof.Proof.Gen.KernelIdeal
import proofs.«101828_j11562051961417_2_alg».proof.Proof.Gen.ReferenceIdeal
import proofs.«101828_j11562051961417_2_alg».proof.Proof.Gen.Pre_finite_inputs
import proofs.«101828_j11562051961417_2_alg».proof.Proof.K.Frame
import proofs.«101828_j11562051961417_2_alg».proof.Proof.KI.Frame
import proofs.«101828_j11562051961417_2_alg».proof.Proof.RefRunHand
import proofs.«101828_j11562051961417_2_alg».proof.Proof.Algebraic
import Idealize.ShloMosaic.Adequacy
import Idealize.ShloMosaic.Init

noncomputable section

namespace Cert.Proof

open Idealize.ShloMosaic Idealize.SL.Sem

/-- The word-level kernel program terminates without a fault and leaves its arguments as launched. -/
theorem frame_kernel : Cert.frame_Kernel := fun m ρ _ => Cert.Kernel.Reg.frame (F := Bits) m ρ

/-- So does the same program read over the extended reals. -/
theorem frame_kernelIdeal : Cert.frame_KernelIdeal := fun m ρ _ => Cert.KernelIdeal.Reg.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Hand.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, Cert.Proof.algebraic⟩

end Cert.Proof

end
